-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  IdealRules.sign_bit.Statement Cert.KernelIdeal.S64x4096 .f32
  ∧ IdealRules.sign_bit.Statement Cert.KernelIdeal.S64x4096 .f32
  ∧ IdealRules.sign_bit.Statement Cert.KernelIdeal.S32x4096 .f32
  ∧ IdealRules.sign_bit.Statement Cert.KernelIdeal.S32x4096 .f32
  ∧ IdealRules.sign_bit.Statement Cert.KernelIdeal.S16x4096 .f32
  ∧ IdealRules.sign_bit.Statement Cert.KernelIdeal.S16x4096 .f32
  ∧ IdealRules.sign_bit.Statement Cert.KernelIdeal.S8x4096 .f32
  ∧ IdealRules.sign_bit.Statement Cert.KernelIdeal.S8x4096 .f32
  ∧ IdealRules.sign_bit.Statement Cert.KernelIdeal.S4x4096 .f32
  ∧ IdealRules.sign_bit.Statement Cert.KernelIdeal.S4x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S4x4096 .f32
  ∧ IdealRules.sign_bit.Statement Cert.KernelIdeal.S4x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S8x4096 .f32
  ∧ IdealRules.sign_bit.Statement Cert.KernelIdeal.S8x4096 .f32
  ∧ IdealRules.sign_bit.Statement Cert.KernelIdeal.S4x4096 .f32
  ∧ IdealRules.sign_bit.Statement Cert.KernelIdeal.S4x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S4x4096 .f32
  ∧ IdealRules.sign_bit.Statement Cert.KernelIdeal.S4x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S16x4096 .f32
  ∧ IdealRules.sign_bit.Statement Cert.KernelIdeal.S16x4096 .f32
  ∧ IdealRules.sign_bit.Statement Cert.KernelIdeal.S8x4096 .f32
  ∧ IdealRules.sign_bit.Statement Cert.KernelIdeal.S8x4096 .f32
  ∧ IdealRules.sign_bit.Statement Cert.KernelIdeal.S4x4096 .f32
  ∧ IdealRules.sign_bit.Statement Cert.KernelIdeal.S4x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S4x4096 .f32
  ∧ IdealRules.sign_bit.Statement Cert.KernelIdeal.S4x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S8x4096 .f32
  ∧ IdealRules.sign_bit.Statement Cert.KernelIdeal.S8x4096 .f32
  ∧ IdealRules.sign_bit.Statement Cert.KernelIdeal.S4x4096 .f32
  ∧ IdealRules.sign_bit.Statement Cert.KernelIdeal.S4x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S4x4096 .f32
  ∧ IdealRules.sign_bit.Statement Cert.KernelIdeal.S4x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S32x4096 .f32
  ∧ IdealRules.sign_bit.Statement Cert.KernelIdeal.S32x4096 .f32
  ∧ IdealRules.sign_bit.Statement Cert.KernelIdeal.S16x4096 .f32
  ∧ IdealRules.sign_bit.Statement Cert.KernelIdeal.S16x4096 .f32
  ∧ IdealRules.sign_bit.Statement Cert.KernelIdeal.S8x4096 .f32
  ∧ IdealRules.sign_bit.Statement Cert.KernelIdeal.S8x4096 .f32
  ∧ IdealRules.sign_bit.Statement Cert.KernelIdeal.S4x4096 .f32
  ∧ IdealRules.sign_bit.Statement Cert.KernelIdeal.S4x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S4x4096 .f32
  ∧ IdealRules.sign_bit.Statement Cert.KernelIdeal.S4x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S8x4096 .f32
  ∧ IdealRules.sign_bit.Statement Cert.KernelIdeal.S8x4096 .f32
  ∧ IdealRules.sign_bit.Statement Cert.KernelIdeal.S4x4096 .f32
  ∧ IdealRules.sign_bit.Statement Cert.KernelIdeal.S4x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S4x4096 .f32
  ∧ IdealRules.sign_bit.Statement Cert.KernelIdeal.S4x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S16x4096 .f32
  ∧ IdealRules.sign_bit.Statement Cert.KernelIdeal.S16x4096 .f32
  ∧ IdealRules.sign_bit.Statement Cert.KernelIdeal.S8x4096 .f32
  ∧ IdealRules.sign_bit.Statement Cert.KernelIdeal.S8x4096 .f32
  ∧ IdealRules.sign_bit.Statement Cert.KernelIdeal.S4x4096 .f32
  ∧ IdealRules.sign_bit.Statement Cert.KernelIdeal.S4x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S4x4096 .f32
  ∧ IdealRules.sign_bit.Statement Cert.KernelIdeal.S4x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S8x4096 .f32
  ∧ IdealRules.sign_bit.Statement Cert.KernelIdeal.S8x4096 .f32
  ∧ IdealRules.sign_bit.Statement Cert.KernelIdeal.S4x4096 .f32
  ∧ IdealRules.sign_bit.Statement Cert.KernelIdeal.S4x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S4x4096 .f32
  ∧ IdealRules.sign_bit.Statement Cert.KernelIdeal.S4x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S2x4096 .f32
  ∧ IdealRules.sign_bit.Statement Cert.KernelIdeal.S2x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32
  ∧ IdealRules.sign_bit.Statement Cert.KernelIdeal.S1x4096 .f32

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v5873) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32768x256 : Shape := ⟨2, ![32768, 256]⟩
abbrev S_ : Shape := ⟨0, ![]⟩

class Facts : Prop where
  bcast_S_S32768x256 : S_.BroadcastsInDim S32768x256 (![] : Fin 0 → Fin S32768x256.rank)
  reducesTo_S32768x256_S_d0_1 : S32768x256.ReducesTo [0, 1] S_
  h_S_ : 0 < S_.numel

variable [Facts]

def fn {F : FTy → Type} [FloatOps F] (main_arg0 : FVec F S32768x256 .f32) : IVec S_ 1 :=
  let main_v0 : FVec F S32768x256 .f32 := Host.absf main_arg0
  let main_cst : FVec F S_ .f32 := constant S_ .f32 0x7F800000#32
  let main_v1 : FVec F S32768x256 .f32 := broadcastInDim S32768x256 ![] bcast_S_S32768x256 main_cst
  let main_v2 : IVec S32768x256 1 := cmpf .olt main_v0 main_v1
  let main_c : IVec S_ 1 := constantI S_ 1 1#1
  let main_v3 : IVec S_ 1 := (fun x v => Host.reduce IntOp.andi x v reducesTo_S32768x256_S_d0_1 h_S_) main_v2 main_c
  main_v3
-- ==== Kernel.lean ====
abbrev S32768x256 : Shape := ⟨2, ![32768, 256]⟩
abbrev S32768x128 : Shape := ⟨2, ![32768, 128]⟩
abbrev S4096x256 : Shape := ⟨2, ![4096, 256]⟩
abbrev S4096x128 : Shape := ⟨2, ![4096, 128]⟩
abbrev S128x4096 : Shape := ⟨2, ![128, 4096]⟩
abbrev S64x4096 : Shape := ⟨2, ![64, 4096]⟩
abbrev S32x4096 : Shape := ⟨2, ![32, 4096]⟩
abbrev S16x4096 : Shape := ⟨2, ![16, 4096]⟩
abbrev S8x4096 : Shape := ⟨2, ![8, 4096]⟩
abbrev S4x4096 : Shape := ⟨2, ![4, 4096]⟩
abbrev S2x4096 : Shape := ⟨2, ![2, 4096]⟩
abbrev S1x4096 : Shape := ⟨2, ![1, 4096]⟩
abbrev S4096 : Shape := ⟨1, ![4096]⟩

abbrev nBuf : Space → Nat
  | .hbm => 2
  | .vmem => 5
  | .smem => 0
  | _ => 0

abbrev bufTy : (tb : Table) → Fin (tcTables nBuf tb) → BufTy
  | .hbm, ⟨0, _⟩ => ⟨S32768x256, .f32⟩
  | .hbm, ⟨1, _⟩ => ⟨S32768x128, .f32⟩
  | .local _ .vmem, ⟨0, _⟩ => ⟨S4096x256, .f32⟩
  | .local _ .vmem, ⟨1, _⟩ => ⟨S4096x256, .f32⟩
  | .local _ .vmem, ⟨2, _⟩ => ⟨S4096x128, .f32⟩
  | .local _ .vmem, ⟨3, _⟩ => ⟨S4096x128, .f32⟩
  | .local _ .vmem, ⟨4, _⟩ => ⟨S128x4096, .f32⟩
  | _, _ => ⟨S32768x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [BitOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4096x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S4096x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S4096x256_S4096x256_0_0 : ∀ a, (![0, 0] : Fin 2 → Nat) a + S4096x256.size a ≤ S4096x256.size a
  h_S4096x256 : 0 < S4096x256.numel
  slices_S4096x256_o0_0_S4096x128 : S4096x256.Slices ![0, 0] S4096x128
  slices_S4096x256_o0_128_S4096x128 : S4096x256.Slices ![0, 128] S4096x128
  transposes_S4096x128_p1_0_S128x4096 : S4096x128.Transposes [1, 0] S128x4096
  slices_S128x4096_o0_0_S64x4096 : S128x4096.Slices ![0, 0] S64x4096
  slices_S128x4096_o64_0_S64x4096 : S128x4096.Slices ![64, 0] S64x4096
  slices_S64x4096_o0_0_S32x4096 : S64x4096.Slices ![0, 0] S32x4096
  slices_S64x4096_o32_0_S32x4096 : S64x4096.Slices ![32, 0] S32x4096
  slices_S32x4096_o0_0_S16x4096 : S32x4096.Slices ![0, 0] S16x4096
  slices_S32x4096_o16_0_S16x4096 : S32x4096.Slices ![16, 0] S16x4096
  slices_S16x4096_o0_0_S8x4096 : S16x4096.Slices ![0, 0] S8x4096
  slices_S16x4096_o8_0_S8x4096 : S16x4096.Slices ![8, 0] S8x4096
  slices_S8x4096_o0_0_S4x4096 : S8x4096.Slices ![0, 0] S4x4096
  slices_S8x4096_o4_0_S4x4096 : S8x4096.Slices ![4, 0] S4x4096
  slices_S4x4096_o0_0_S2x4096 : S4x4096.Slices ![0, 0] S2x4096
  slices_S4x4096_o2_0_S2x4096 : S4x4096.Slices ![2, 0] S2x4096
  slices_S2x4096_o0_0_S1x4096 : S2x4096.Slices ![0, 0] S1x4096
  slices_S2x4096_o1_0_S1x4096 : S2x4096.Slices ![1, 0] S1x4096
  natLt_1_32 : 1 < 32
  shapeCasts_S1x4096_S4096 : S1x4096.ShapeCasts S4096
  inb_S128x4096_S1x4096_0_0 : ∀ a, (![0, 0] : Fin 2 → Nat) a + S1x4096.size a ≤ S128x4096.size a
  h_S1x4096 : 0 < S1x4096.numel
  shapeCasts_S4096_S1x4096 : S4096.ShapeCasts S1x4096
  inb_S128x4096_S1x4096_1_0 : ∀ a, (![1, 0] : Fin 2 → Nat) a + S1x4096.size a ≤ S128x4096.size a
  concatenates_S1x4096_S1x4096_S2x4096_d0 : Shape.Concatenates [S1x4096, S1x4096] S2x4096 0
  inb_S128x4096_S1x4096_2_0 : ∀ a, (![2, 0] : Fin 2 → Nat) a + S1x4096.size a ≤ S128x4096.size a
  inb_S128x4096_S1x4096_3_0 : ∀ a, (![3, 0] : Fin 2 → Nat) a + S1x4096.size a ≤ S128x4096.size a
  concatenates_S2x4096_S2x4096_S4x4096_d0 : Shape.Concatenates [S2x4096, S2x4096] S4x4096 0
  inb_S128x4096_S1x4096_4_0 : ∀ a, (![4, 0] : Fin 2 → Nat) a + S1x4096.size a ≤ S128x4096.size a
  inb_S128x4096_S1x4096_5_0 : ∀ a, (![5, 0] : Fin 2 → Nat) a + S1x4096.size a ≤ S128x4096.size a
  inb_S128x4096_S1x4096_6_0 : ∀ a, (![6, 0] : Fin 2 → Nat) a + S1x4096.size a ≤ S128x4096.size a
  inb_S128x4096_S1x4096_7_0 : ∀ a, (![7, 0] : Fin 2 → Nat) a + S1x4096.size a ≤ S128x4096.size a
  concatenates_S4x4096_S4x4096_S8x4096_d0 : Shape.Concatenates [S4x4096, S4x4096] S8x4096 0
  inb_S128x4096_S1x4096_8_0 : ∀ a, (![8, 0] : Fin 2 → Nat) a + S1x4096.size a ≤ S128x4096.size a
  inb_S128x4096_S1x4096_9_0 : ∀ a, (![9, 0] : Fin 2 → Nat) a + S1x4096.size a ≤ S128x4096.size a
  inb_S128x4096_S1x4096_10_0 : ∀ a, (![10, 0] : Fin 2 → Nat) a + S1x4096.size a ≤ S128x4096.size a
  inb_S128x4096_S1x4096_11_0 : ∀ a, (![11, 0] : Fin 2 → Nat) a + S1x4096.size a ≤ S128x4096.size a
  inb_S128x4096_S1x4096_12_0 : ∀ a, (![12, 0] : Fin 2 → Nat) a + S1x4096.size a ≤ S128x4096.size a
  inb_S128x4096_S1x4096_13_0 : ∀ a, (![13, 0] : Fin 2 → Nat) a + S1x4096.size a ≤ S128x4096.size a
  inb_S128x4096_S1x4096_14_0 : ∀ a, (![14, 0] : Fin 2 → Nat) a + S1x4096.size a ≤ S128x4096.size a
  inb_S128x4096_S1x4096_15_0 : ∀ a, (![15, 0] : Fin 2 → Nat) a + S1x4096.size a ≤ S128x4096.size a
  concatenates_S8x4096_S8x4096_S16x4096_d0 : Shape.Concatenates [S8x4096, S8x4096] S16x4096 0
  inb_S128x4096_S1x4096_16_0 : ∀ a, (![16, 0] : Fin 2 → Nat) a + S1x4096.size a ≤ S128x4096.size a
  inb_S128x4096_S1x4096_17_0 : ∀ a, (![17, 0] : Fin 2 → Nat) a + S1x4096.size a ≤ S128x4096.size a
  inb_S128x4096_S1x4096_18_0 : ∀ a, (![18, 0] : Fin 2 → Nat) a + S1x4096.size a ≤ S128x4096.size a
  inb_S128x4096_S1x4096_19_0 : ∀ a, (![19, 0] : Fin 2 → Nat) a + S1x4096.size a ≤ S128x4096.size a
  inb_S128x4096_S1x4096_20_0 : ∀ a, (![20, 0] : Fin 2 → Nat) a + S1x4096.size a ≤ S128x4096.size a
  inb_S128x4096_S1x4096_21_0 : ∀ a, (![21, 0] : Fin 2 → Nat) a + S1x4096.size a ≤ S128x4096.size a
  inb_S128x4096_S1x4096_22_0 : ∀ a, (![22, 0] : Fin 2 → Nat) a + S1x4096.size a ≤ S128x4096.size a
  inb_S128x4096_S1x4096_23_0 : ∀ a, (![23, 0] : Fin 2 → Nat) a + S1x4096.size a ≤ S128x4096.size a
  inb_S128x4096_S1x4096_24_0 : ∀ a, (![24, 0] : Fin 2 → Nat) a + S1x4096.size a ≤ S128x4096.size a
  inb_S128x4096_S1x4096_25_0 : ∀ a, (![25, 0] : Fin 2 → Nat) a + S1x4096.size a ≤ S128x4096.size a
  inb_S128x4096_S1x4096_26_0 : ∀ a, (![26, 0] : Fin 2 → Nat) a + S1x4096.size a ≤ S128x4096.size a
  inb_S128x4096_S1x4096_27_0 : ∀ a, (![27, 0] : Fin 2 → Nat) a + S1x4096.size a ≤ S128x4096.size a
  inb_S128x4096_S1x4096_28_0 : ∀ a, (![28, 0] : Fin 2 → Nat) a + S1x4096.size a ≤ S128x4096.size a
  inb_S128x4096_S1x4096_29_0 : ∀ a, (![29, 0] : Fin 2 → Nat) a + S1x4096.size a ≤ S128x4096.size a
  inb_S128x4096_S1x4096_30_0 : ∀ a, (![30, 0] : Fin 2 → Nat) a + S1x4096.size a ≤ S128x4096.size a
  inb_S128x4096_S1x4096_31_0 : ∀ a, (![31, 0] : Fin 2 → Nat) a + S1x4096.size a ≤ S128x4096.size a
  concatenates_S16x4096_S16x4096_S32x4096_d0 : Shape.Concatenates [S16x4096, S16x4096] S32x4096 0
  inb_S128x4096_S1x4096_32_0 : ∀ a, (![32, 0] : Fin 2 → Nat) a + S1x4096.size a ≤ S128x4096.size a
  inb_S128x4096_S1x4096_33_0 : ∀ a, (![33, 0] : Fin 2 → Nat) a + S1x4096.size a ≤ S128x4096.size a
  inb_S128x4096_S1x4096_34_0 : ∀ a, (![34, 0] : Fin 2 → Nat) a + S1x4096.size a ≤ S128x4096.size a
  inb_S128x4096_S1x4096_35_0 : ∀ a, (![35, 0] : Fin 2 → Nat) a + S1x4096.size a ≤ S128x4096.size a
  inb_S128x4096_S1x4096_36_0 : ∀ a, (![36, 0] : Fin 2 → Nat) a + S1x4096.size a ≤ S128x4096.size a
  inb_S128x4096_S1x4096_37_0 : ∀ a, (![37, 0] : Fin 2 → Nat) a + S1x4096.size a ≤ S128x4096.size a
  inb_S128x4096_S1x4096_38_0 : ∀ a, (![38, 0] : Fin 2 → Nat) a + S1x4096.size a ≤ S128x4096.size a
  inb_S128x4096_S1x4096_39_0 : ∀ a, (![39, 0] : Fin 2 → Nat) a + S1x4096.size a ≤ S128x4096.size a
  inb_S128x4096_S1x4096_40_0 : ∀ a, (![40, 0] : Fin 2 → Nat) a + S1x4096.size a ≤ S128x4096.size a
  inb_S128x4096_S1x4096_41_0 : ∀ a, (![41, 0] : Fin 2 → Nat) a + S1x4096.size a ≤ S128x4096.size a
  inb_S128x4096_S1x4096_42_0 : ∀ a, (![42, 0] : Fin 2 → Nat) a + S1x4096.size a ≤ S128x4096.size a
  inb_S128x4096_S1x4096_43_0 : ∀ a, (![43, 0] : Fin 2 → Nat) a + S1x4096.size a ≤ S128x4096.size a
  inb_S128x4096_S1x4096_44_0 : ∀ a, (![44, 0] : Fin 2 → Nat) a + S1x4096.size a ≤ S128x4096.size a
  inb_S128x4096_S1x4096_45_0 : ∀ a, (![45, 0] : Fin 2 → Nat) a + S1x4096.size a ≤ S128x4096.size a
  inb_S128x4096_S1x4096_46_0 : ∀ a, (![46, 0] : Fin 2 → Nat) a + S1x4096.size a ≤ S128x4096.size a
  inb_S128x4096_S1x4096_47_0 : ∀ a, (![47, 0] : Fin 2 → Nat) a + S1x4096.size a ≤ S128x4096.size a
  inb_S128x4096_S1x4096_48_0 : ∀ a, (![48, 0] : Fin 2 → Nat) a + S1x4096.size a ≤ S128x4096.size a
  inb_S128x4096_S1x4096_49_0 : ∀ a, (![49, 0] : Fin 2 → Nat) a + S1x4096.size a ≤ S128x4096.size a
  inb_S128x4096_S1x4096_50_0 : ∀ a, (![50, 0] : Fin 2 → Nat) a + S1x4096.size a ≤ S128x4096.size a
  inb_S128x4096_S1x4096_51_0 : ∀ a, (![51, 0] : Fin 2 → Nat) a + S1x4096.size a ≤ S128x4096.size a
  inb_S128x4096_S1x4096_52_0 : ∀ a, (![52, 0] : Fin 2 → Nat) a + S1x4096.size a ≤ S128x4096.size a
  inb_S128x4096_S1x4096_53_0 : ∀ a, (![53, 0] : Fin 2 → Nat) a + S1x4096.size a ≤ S128x4096.size a
  inb_S128x4096_S1x4096_54_0 : ∀ a, (![54, 0] : Fin 2 → Nat) a + S1x4096.size a ≤ S128x4096.size a
  inb_S128x4096_S1x4096_55_0 : ∀ a, (![55, 0] : Fin 2 → Nat) a + S1x4096.size a ≤ S128x4096.size a
  inb_S128x4096_S1x4096_56_0 : ∀ a, (![56, 0] : Fin 2 → Nat) a + S1x4096.size a ≤ S128x4096.size a
  inb_S128x4096_S1x4096_57_0 : ∀ a, (![57, 0] : Fin 2 → Nat) a + S1x4096.size a ≤ S128x4096.size a
  inb_S128x4096_S1x4096_58_0 : ∀ a, (![58, 0] : Fin 2 → Nat) a + S1x4096.size a ≤ S128x4096.size a
  inb_S128x4096_S1x4096_59_0 : ∀ a, (![59, 0] : Fin 2 → Nat) a + S1x4096.size a ≤ S128x4096.size a
  inb_S128x4096_S1x4096_60_0 : ∀ a, (![60, 0] : Fin 2 → Nat) a + S1x4096.size a ≤ S128x4096.size a
  inb_S128x4096_S1x4096_61_0 : ∀ a, (![61, 0] : Fin 2 → Nat) a + S1x4096.size a ≤ S128x4096.size a
  inb_S128x4096_S1x4096_62_0 : ∀ a, (![62, 0] : Fin 2 → Nat) a + S1x4096.size a ≤ S128x4096.size a
  inb_S128x4096_S1x4096_63_0 : ∀ a, (![63, 0] : Fin 2 → Nat) a + S1x4096.size a ≤ S128x4096.size a
  concatenates_S32x4096_S32x4096_S64x4096_d0 : Shape.Concatenates [S32x4096, S32x4096] S64x4096 0
  inb_S128x4096_S1x4096_64_0 : ∀ a, (![64, 0] : Fin 2 → Nat) a + S1x4096.size a ≤ S128x4096.size a
  inb_S128x4096_S1x4096_65_0 : ∀ a, (![65, 0] : Fin 2 → Nat) a + S1x4096.size a ≤ S128x4096.size a
  inb_S128x4096_S1x4096_66_0 : ∀ a, (![66, 0] : Fin 2 → Nat) a + S1x4096.size a ≤ S128x4096.size a
  inb_S128x4096_S1x4096_67_0 : ∀ a, (![67, 0] : Fin 2 → Nat) a + S1x4096.size a ≤ S128x4096.size a
  inb_S128x4096_S1x4096_68_0 : ∀ a, (![68, 0] : Fin 2 → Nat) a + S1x4096.size a ≤ S128x4096.size a
  inb_S128x4096_S1x4096_69_0 : ∀ a, (![69, 0] : Fin 2 → Nat) a + S1x4096.size a ≤ S128x4096.size a
  inb_S128x4096_S1x4096_70_0 : ∀ a, (![70, 0] : Fin 2 → Nat) a + S1x4096.size a ≤ S128x4096.size a
  inb_S128x4096_S1x4096_71_0 : ∀ a, (![71, 0] : Fin 2 → Nat) a + S1x4096.size a ≤ S128x4096.size a
  inb_S128x4096_S1x4096_72_0 : ∀ a, (![72, 0] : Fin 2 → Nat) a + S1x4096.size a ≤ S128x4096.size a
  inb_S128x4096_S1x4096_73_0 : ∀ a, (![73, 0] : Fin 2 → Nat) a + S1x4096.size a ≤ S128x4096.size a
  inb_S128x4096_S1x4096_74_0 : ∀ a, (![74, 0] : Fin 2 → Nat) a + S1x4096.size a ≤ S128x4096.size a
  inb_S128x4096_S1x4096_75_0 : ∀ a, (![75, 0] : Fin 2 → Nat) a + S1x4096.size a ≤ S128x4096.size a
  inb_S128x4096_S1x4096_76_0 : ∀ a, (![76, 0] : Fin 2 → Nat) a + S1x4096.size a ≤ S128x4096.size a
  inb_S128x4096_S1x4096_77_0 : ∀ a, (![77, 0] : Fin 2 → Nat) a + S1x4096.size a ≤ S128x4096.size a
  inb_S128x4096_S1x4096_78_0 : ∀ a, (![78, 0] : Fin 2 → Nat) a + S1x4096.size a ≤ S128x4096.size a
  inb_S128x4096_S1x4096_79_0 : ∀ a, (![79, 0] : Fin 2 → Nat) a + S1x4096.size a ≤ S128x4096.size a
  inb_S128x4096_S1x4096_80_0 : ∀ a, (![80, 0] : Fin 2 → Nat) a + S1x4096.size a ≤ S128x4096.size a
  inb_S128x4096_S1x4096_81_0 : ∀ a, (![81, 0] : Fin 2 → Nat) a + S1x4096.size a ≤ S128x4096.size a
  inb_S128x4096_S1x4096_82_0 : ∀ a, (![82, 0] : Fin 2 → Nat) a + S1x4096.size a ≤ S128x4096.size a
  inb_S128x4096_S1x4096_83_0 : ∀ a, (![83, 0] : Fin 2 → Nat) a + S1x4096.size a ≤ S128x4096.size a
  inb_S128x4096_S1x4096_84_0 : ∀ a, (![84, 0] : Fin 2 → Nat) a + S1x4096.size a ≤ S128x4096.size a
  inb_S128x4096_S1x4096_85_0 : ∀ a, (![85, 0] : Fin 2 → Nat) a + S1x4096.size a ≤ S128x4096.size a
  inb_S128x4096_S1x4096_86_0 : ∀ a, (![86, 0] : Fin 2 → Nat) a + S1x4096.size a ≤ S128x4096.size a
  inb_S128x4096_S1x4096_87_0 : ∀ a, (![87, 0] : Fin 2 → Nat) a + S1x4096.size a ≤ S128x4096.size a
  inb_S128x4096_S1x4096_88_0 : ∀ a, (![88, 0] : Fin 2 → Nat) a + S1x4096.size a ≤ S128x4096.size a
  inb_S128x4096_S1x4096_89_0 : ∀ a, (![89, 0] : Fin 2 → Nat) a + S1x4096.size a ≤ S128x4096.size a
  inb_S128x4096_S1x4096_90_0 : ∀ a, (![90, 0] : Fin 2 → Nat) a + S1x4096.size a ≤ S128x4096.size a
  inb_S128x4096_S1x4096_91_0 : ∀ a, (![91, 0] : Fin 2 → Nat) a + S1x4096.size a ≤ S128x4096.size a
  inb_S128x4096_S1x4096_92_0 : ∀ a, (![92, 0] : Fin 2 → Nat) a + S1x4096.size a ≤ S128x4096.size a
  inb_S128x4096_S1x4096_93_0 : ∀ a, (![93, 0] : Fin 2 → Nat) a + S1x4096.size a ≤ S128x4096.size a
  inb_S128x4096_S1x4096_94_0 : ∀ a, (![94, 0] : Fin 2 → Nat) a + S1x4096.size a ≤ S128x4096.size a
  inb_S128x4096_S1x4096_95_0 : ∀ a, (![95, 0] : Fin 2 → Nat) a + S1x4096.size a ≤ S128x4096.size a
  inb_S128x4096_S1x4096_96_0 : ∀ a, (![96, 0] : Fin 2 → Nat) a + S1x4096.size a ≤ S128x4096.size a
  inb_S128x4096_S1x4096_97_0 : ∀ a, (![97, 0] : Fin 2 → Nat) a + S1x4096.size a ≤ S128x4096.size a
  inb_S128x4096_S1x4096_98_0 : ∀ a, (![98, 0] : Fin 2 → Nat) a + S1x4096.size a ≤ S128x4096.size a
  inb_S128x4096_S1x4096_99_0 : ∀ a, (![99, 0] : Fin 2 → Nat) a + S1x4096.size a ≤ S128x4096.size a
  inb_S128x4096_S1x4096_100_0 : ∀ a, (![100, 0] : Fin 2 → Nat) a + S1x4096.size a ≤ S128x4096.size a
  inb_S128x4096_S1x4096_101_0 : ∀ a, (![101, 0] : Fin 2 → Nat) a + S1x4096.size a ≤ S128x4096.size a
  inb_S128x4096_S1x4096_102_0 : ∀ a, (![102, 0] : Fin 2 → Nat) a + S1x4096.size a ≤ S128x4096.size a
  inb_S128x4096_S1x4096_103_0 : ∀ a, (![103, 0] : Fin 2 → Nat) a + S1x4096.size a ≤ S128x4096.size a
  inb_S128x4096_S1x4096_104_0 : ∀ a, (![104, 0] : Fin 2 → Nat) a + S1x4096.size a ≤ S128x4096.size a
  inb_S128x4096_S1x4096_105_0 : ∀ a, (![105, 0] : Fin 2 → Nat) a + S1x4096.size a ≤ S128x4096.size a
  inb_S128x4096_S1x4096_106_0 : ∀ a, (![106, 0] : Fin 2 → Nat) a + S1x4096.size a ≤ S128x4096.size a
  inb_S128x4096_S1x4096_107_0 : ∀ a, (![107, 0] : Fin 2 → Nat) a + S1x4096.size a ≤ S128x4096.size a
  inb_S128x4096_S1x4096_108_0 : ∀ a, (![108, 0] : Fin 2 → Nat) a + S1x4096.size a ≤ S128x4096.size a
  inb_S128x4096_S1x4096_109_0 : ∀ a, (![109, 0] : Fin 2 → Nat) a + S1x4096.size a ≤ S128x4096.size a
  inb_S128x4096_S1x4096_110_0 : ∀ a, (![110, 0] : Fin 2 → Nat) a + S1x4096.size a ≤ S128x4096.size a
  inb_S128x4096_S1x4096_111_0 : ∀ a, (![111, 0] : Fin 2 → Nat) a + S1x4096.size a ≤ S128x4096.size a
  inb_S128x4096_S1x4096_112_0 : ∀ a, (![112, 0] : Fin 2 → Nat) a + S1x4096.size a ≤ S128x4096.size a
  inb_S128x4096_S1x4096_113_0 : ∀ a, (![113, 0] : Fin 2 → Nat) a + S1x4096.size a ≤ S128x4096.size a
  inb_S128x4096_S1x4096_114_0 : ∀ a, (![114, 0] : Fin 2 → Nat) a + S1x4096.size a ≤ S128x4096.size a
  inb_S128x4096_S1x4096_115_0 : ∀ a, (![115, 0] : Fin 2 → Nat) a + S1x4096.size a ≤ S128x4096.size a
  inb_S128x4096_S1x4096_116_0 : ∀ a, (![116, 0] : Fin 2 → Nat) a + S1x4096.size a ≤ S128x4096.size a
  inb_S128x4096_S1x4096_117_0 : ∀ a, (![117, 0] : Fin 2 → Nat) a + S1x4096.size a ≤ S128x4096.size a
  inb_S128x4096_S1x4096_118_0 : ∀ a, (![118, 0] : Fin 2 → Nat) a + S1x4096.size a ≤ S128x4096.size a
  inb_S128x4096_S1x4096_119_0 : ∀ a, (![119, 0] : Fin 2 → Nat) a + S1x4096.size a ≤ S128x4096.size a
  inb_S128x4096_S1x4096_120_0 : ∀ a, (![120, 0] : Fin 2 → Nat) a + S1x4096.size a ≤ S128x4096.size a
  inb_S128x4096_S1x4096_121_0 : ∀ a, (![121, 0] : Fin 2 → Nat) a + S1x4096.size a ≤ S128x4096.size a
  inb_S128x4096_S1x4096_122_0 : ∀ a, (![122, 0] : Fin 2 → Nat) a + S1x4096.size a ≤ S128x4096.size a
  inb_S128x4096_S1x4096_123_0 : ∀ a, (![123, 0] : Fin 2 → Nat) a + S1x4096.size a ≤ S128x4096.size a
  inb_S128x4096_S1x4096_124_0 : ∀ a, (![124, 0] : Fin 2 → Nat) a + S1x4096.size a ≤ S128x4096.size a
  inb_S128x4096_S1x4096_125_0 : ∀ a, (![125, 0] : Fin 2 → Nat) a + S1x4096.size a ≤ S128x4096.size a
  inb_S128x4096_S1x4096_126_0 : ∀ a, (![126, 0] : Fin 2 → Nat) a + S1x4096.size a ≤ S128x4096.size a
  inb_S128x4096_S1x4096_127_0 : ∀ a, (![127, 0] : Fin 2 → Nat) a + S1x4096.size a ≤ S128x4096.size a
  inb_S128x4096_S128x4096_0_0 : ∀ a, (![0, 0] : Fin 2 → Nat) a + S128x4096.size a ≤ S128x4096.size a
  h_S128x4096 : 0 < S128x4096.numel
  transposes_S128x4096_p1_0_S4096x128 : S128x4096.Transposes [1, 0] S4096x128
  inb_S4096x128_S4096x128_0_0 : ∀ a, (![0, 0] : Fin 2 → Nat) a + S4096x128.size a ≤ S4096x128.size a
  h_S4096x128 : 0 < S4096x128.numel
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S4096x256.size a ≤ S32768x256.size a
  hwx0_0 : ∀ i : grid0.Coords, EltTy.bits .f32 = 32 ∨ (Rect.block (s := S32768x256) S4096x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S4096x128.size a ≤ S32768x128.size a
  hwx0_1 : ∀ i : grid0.Coords, EltTy.bits .f32 = 32 ∨ (Rect.block (s := S32768x128) S4096x128.size (cc0_transform_1 i) (hinb0_1 i)).WholeWords (EltTy.packing .f32)

variable [Facts₀]

abbrev win0_0 : Pipeline.Window sig grid0 :=
  Pipeline.Window.ofSpec (Memref.whole main_arg0) S4096x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S4096x128.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S32768x256 : Shape := ⟨2, ![32768, 256]⟩
abbrev S128 : Shape := ⟨1, ![128]⟩
abbrev S_ : Shape := ⟨0, ![]⟩
abbrev S32768x128 : Shape := ⟨2, ![32768, 128]⟩
abbrev S32768x64 : Shape := ⟨2, ![32768, 64]⟩
abbrev S32768x32 : Shape := ⟨2, ![32768, 32]⟩
abbrev S32768x16 : Shape := ⟨2, ![32768, 16]⟩
abbrev S32768x8 : Shape := ⟨2, ![32768, 8]⟩
abbrev S32768x4 : Shape := ⟨2, ![32768, 4]⟩
abbrev S32768x2 : Shape := ⟨2, ![32768, 2]⟩
abbrev S32768x1 : Shape := ⟨2, ![32768, 1]⟩
abbrev S128x1 : Shape := ⟨2, ![128, 1]⟩

abbrev nBuf : Space → Nat
  | .hbm => 10215
  | .vmem => 0
  | .smem => 0
  | _ => 0

abbrev hbmTy0_0 (i : Nat) : BufTy := match i % 128 with
  | 0 => ⟨S32768x256, .f32⟩
  | 1 => ⟨S128, .i32⟩
  | 2 => ⟨S128, .i1⟩
  | 3 => ⟨S_, .f32⟩
  | 4 => ⟨S32768x256, .f32⟩
  | 5 => ⟨S32768x256, .f32⟩
  | 6 => ⟨S32768x128, .f32⟩
  | 7 => ⟨S32768x128, .f32⟩
  | 8 => ⟨S_, .f32⟩
  | 9 => ⟨S_, .f32⟩
  | 10 => ⟨S_, .f32⟩
  | 11 => ⟨S32768x128, .f32⟩
  | 12 => ⟨S32768x128, .f32⟩
  | 13 => ⟨S_, .f32⟩
  | 14 => ⟨S32768x128, .f32⟩
  | 15 => ⟨S32768x128, .f32⟩
  | 16 => ⟨S_, .f32⟩
  | 17 => ⟨S_, .f32⟩
  | 18 => ⟨S_, .f32⟩
  | 19 => ⟨S32768x128, .f32⟩
  | 20 => ⟨S32768x128, .f32⟩
  | 21 => ⟨S_, .f32⟩
  | 22 => ⟨S32768x128, .f32⟩
  | 23 => ⟨S32768x128, .f32⟩
  | 24 => ⟨S32768x128, .f32⟩
  | 25 => ⟨S32768x128, .f32⟩
  | 26 => ⟨S32768x128, .f32⟩
  | 27 => ⟨S32768x128, .f32⟩
  | 28 => ⟨S32768x128, .f32⟩
  | 29 => ⟨S32768x128, .f32⟩
  | 30 => ⟨S32768x128, .f32⟩
  | 31 => ⟨S32768x64, .f32⟩
  | 32 => ⟨S32768x64, .f32⟩
  | 33 => ⟨S_, .f32⟩
  | 34 => ⟨S_, .f32⟩
  | 35 => ⟨S_, .f32⟩
  | 36 => ⟨S32768x64, .f32⟩
  | 37 => ⟨S32768x64, .f32⟩
  | 38 => ⟨S_, .f32⟩
  | 39 => ⟨S32768x64, .f32⟩
  | 40 => ⟨S32768x64, .f32⟩
  | 41 => ⟨S_, .f32⟩
  | 42 => ⟨S_, .f32⟩
  | 43 => ⟨S_, .f32⟩
  | 44 => ⟨S32768x64, .f32⟩
  | 45 => ⟨S32768x64, .f32⟩
  | 46 => ⟨S_, .f32⟩
  | 47 => ⟨S32768x64, .f32⟩
  | 48 => ⟨S32768x64, .f32⟩
  | 49 => ⟨S32768x64, .f32⟩
  | 50 => ⟨S32768x64, .f32⟩
  | 51 => ⟨S32768x64, .f32⟩
  | 52 => ⟨S32768x64, .f32⟩
  | 53 => ⟨S32768x64, .f32⟩
  | 54 => ⟨S32768x64, .f32⟩
  | 55 => ⟨S32768x64, .f32⟩
  | 56 => ⟨S32768x32, .f32⟩
  | 57 => ⟨S32768x32, .f32⟩
  | 58 => ⟨S_, .f32⟩
  | 59 => ⟨S_, .f32⟩
  | 60 => ⟨S_, .f32⟩
  | 61 => ⟨S32768x32, .f32⟩
  | 62 => ⟨S32768x32, .f32⟩
  | 63 => ⟨S_, .f32⟩
  | 64 => ⟨S32768x32, .f32⟩
  | 65 => ⟨S32768x32, .f32⟩
  | 66 => ⟨S_, .f32⟩
  | 67 => ⟨S_, .f32⟩
  | 68 => ⟨S_, .f32⟩
  | 69 => ⟨S32768x32, .f32⟩
  | 70 => ⟨S32768x32, .f32⟩
  | 71 => ⟨S_, .f32⟩
  | 72 => ⟨S32768x32, .f32⟩
  | 73 => ⟨S32768x32, .f32⟩
  | 74 => ⟨S32768x32, .f32⟩
  | 75 => ⟨S32768x32, .f32⟩
  | 76 => ⟨S32768x32, .f32⟩
  | 77 => ⟨S32768x32, .f32⟩
  | 78 => ⟨S32768x32, .f32⟩
  | 79 => ⟨S32768x32, .f32⟩
  | 80 => ⟨S32768x32, .f32⟩
  | 81 => ⟨S32768x16, .f32⟩
  | 82 => ⟨S32768x16, .f32⟩
  | 83 => ⟨S_, .f32⟩
  | 84 => ⟨S_, .f32⟩
  | 85 => ⟨S_, .f32⟩
  | 86 => ⟨S32768x16, .f32⟩
  | 87 => ⟨S32768x16, .f32⟩
  | 88 => ⟨S_, .f32⟩
  | 89 => ⟨S32768x16, .f32⟩
  | 90 => ⟨S32768x16, .f32⟩
  | 91 => ⟨S_, .f32⟩
  | 92 => ⟨S_, .f32⟩
  | 93 => ⟨S_, .f32⟩
  | 94 => ⟨S32768x16, .f32⟩
  | 95 => ⟨S32768x16, .f32⟩
  | 96 => ⟨S_, .f32⟩
  | 97 => ⟨S32768x16, .f32⟩
  | 98 => ⟨S32768x16, .f32⟩
  | 99 => ⟨S32768x16, .f32⟩
  | 100 => ⟨S32768x16, .f32⟩
  | 101 => ⟨S32768x16, .f32⟩
  | 102 => ⟨S32768x16, .f32⟩
  | 103 => ⟨S32768x16, .f32⟩
  | 104 => ⟨S32768x16, .f32⟩
  | 105 => ⟨S32768x16, .f32⟩
  | 106 => ⟨S32768x8, .f32⟩
  | 107 => ⟨S32768x8, .f32⟩
  | 108 => ⟨S_, .f32⟩
  | 109 => ⟨S_, .f32⟩
  | 110 => ⟨S_, .f32⟩
  | 111 => ⟨S32768x8, .f32⟩
  | 112 => ⟨S32768x8, .f32⟩
  | 113 => ⟨S_, .f32⟩
  | 114 => ⟨S32768x8, .f32⟩
  | 115 => ⟨S32768x8, .f32⟩
  | 116 => ⟨S_, .f32⟩
  | 117 => ⟨S_, .f32⟩
  | 118 => ⟨S_, .f32⟩
  | 119 => ⟨S32768x8, .f32⟩
  | 120 => ⟨S32768x8, .f32⟩
  | 121 => ⟨S_, .f32⟩
  | 122 => ⟨S32768x8, .f32⟩
  | 123 => ⟨S32768x8, .f32⟩
  | 124 => ⟨S32768x8, .f32⟩
  | 125 => ⟨S32768x8, .f32⟩
  | 126 => ⟨S32768x8, .f32⟩
  | 127 => ⟨S32768x8, .f32⟩
  | _ => ⟨S32768x256, .f32⟩

abbrev hbmTy0_1 (i : Nat) : BufTy := match i % 128 with
  | 0 => ⟨S32768x8, .f32⟩
  | 1 => ⟨S32768x8, .f32⟩
  | 2 => ⟨S32768x8, .f32⟩
  | 3 => ⟨S32768x4, .f32⟩
  | 4 => ⟨S32768x4, .f32⟩
  | 5 => ⟨S_, .f32⟩
  | 6 => ⟨S_, .f32⟩
  | 7 => ⟨S_, .f32⟩
  | 8 => ⟨S32768x4, .f32⟩
  | 9 => ⟨S32768x4, .f32⟩
  | 10 => ⟨S_, .f32⟩
  | 11 => ⟨S32768x4, .f32⟩
  | 12 => ⟨S32768x4, .f32⟩
  | 13 => ⟨S_, .f32⟩
  | 14 => ⟨S_, .f32⟩
  | 15 => ⟨S_, .f32⟩
  | 16 => ⟨S32768x4, .f32⟩
  | 17 => ⟨S32768x4, .f32⟩
  | 18 => ⟨S_, .f32⟩
  | 19 => ⟨S32768x4, .f32⟩
  | 20 => ⟨S32768x4, .f32⟩
  | 21 => ⟨S32768x4, .f32⟩
  | 22 => ⟨S32768x4, .f32⟩
  | 23 => ⟨S32768x4, .f32⟩
  | 24 => ⟨S32768x4, .f32⟩
  | 25 => ⟨S32768x4, .f32⟩
  | 26 => ⟨S32768x4, .f32⟩
  | 27 => ⟨S32768x4, .f32⟩
  | 28 => ⟨S32768x2, .f32⟩
  | 29 => ⟨S32768x2, .f32⟩
  | 30 => ⟨S_, .f32⟩
  | 31 => ⟨S_, .f32⟩
  | 32 => ⟨S_, .f32⟩
  | 33 => ⟨S32768x2, .f32⟩
  | 34 => ⟨S32768x2, .f32⟩
  | 35 => ⟨S_, .f32⟩
  | 36 => ⟨S32768x2, .f32⟩
  | 37 => ⟨S32768x2, .f32⟩
  | 38 => ⟨S_, .f32⟩
  | 39 => ⟨S_, .f32⟩
  | 40 => ⟨S_, .f32⟩
  | 41 => ⟨S32768x2, .f32⟩
  | 42 => ⟨S32768x2, .f32⟩
  | 43 => ⟨S_, .f32⟩
  | 44 => ⟨S32768x2, .f32⟩
  | 45 => ⟨S32768x2, .f32⟩
  | 46 => ⟨S32768x2, .f32⟩
  | 47 => ⟨S32768x2, .f32⟩
  | 48 => ⟨S32768x2, .f32⟩
  | 49 => ⟨S32768x2, .f32⟩
  | 50 => ⟨S32768x2, .f32⟩
  | 51 => ⟨S32768x2, .f32⟩
  | 52 => ⟨S32768x2, .f32⟩
  | 53 => ⟨S32768x1, .f32⟩
  | 54 => ⟨S32768x1, .f32⟩
  | 55 => ⟨S_, .f32⟩
  | 56 => ⟨S_, .f32⟩
  | 57 => ⟨S_, .f32⟩
  | 58 => ⟨S32768x1, .f32⟩
  | 59 => ⟨S32768x1, .f32⟩
  | 60 => ⟨S_, .f32⟩
  | 61 => ⟨S32768x1, .f32⟩
  | 62 => ⟨S32768x1, .f32⟩
  | 63 => ⟨S_, .f32⟩
  | 64 => ⟨S_, .f32⟩
  | 65 => ⟨S_, .f32⟩
  | 66 => ⟨S32768x1, .f32⟩
  | 67 => ⟨S32768x1, .f32⟩
  | 68 => ⟨S_, .f32⟩
  | 69 => ⟨S32768x1, .f32⟩
  | 70 => ⟨S32768x1, .f32⟩
  | 71 => ⟨S32768x1, .f32⟩
  | 72 => ⟨S32768x1, .f32⟩
  | 73 => ⟨S32768x1, .f32⟩
  | 74 => ⟨S32768x1, .f32⟩
  | 75 => ⟨S32768x1, .f32⟩
  | 76 => ⟨S32768x1, .f32⟩
  | 77 => ⟨S32768x1, .f32⟩
  | 78 => ⟨S_, .f32⟩
  | 79 => ⟨S32768x1, .f32⟩
  | 80 => ⟨S_, .f32⟩
  | 81 => ⟨S32768x1, .f32⟩
  | 82 => ⟨S32768x1, .f32⟩
  | 83 => ⟨S_, .f32⟩
  | 84 => ⟨S32768x1, .f32⟩
  | 85 => ⟨S32768x1, .f32⟩
  | 86 => ⟨S32768x1, .f32⟩
  | 87 => ⟨S32768x1, .f32⟩
  | 88 => ⟨S_, .f32⟩
  | 89 => ⟨S32768x1, .f32⟩
  | 90 => ⟨S32768x1, .i1⟩
  | 91 => ⟨S32768x1, .f32⟩
  | 92 => ⟨S32768x2, .f32⟩
  | 93 => ⟨S32768x2, .f32⟩
  | 94 => ⟨S_, .f32⟩
  | 95 => ⟨S32768x2, .f32⟩
  | 96 => ⟨S32768x2, .f32⟩
  | 97 => ⟨S_, .f32⟩
  | 98 => ⟨S32768x2, .f32⟩
  | 99 => ⟨S32768x2, .f32⟩
  | 100 => ⟨S32768x2, .f32⟩
  | 101 => ⟨S32768x2, .f32⟩
  | 102 => ⟨S32768x1, .f32⟩
  | 103 => ⟨S32768x1, .f32⟩
  | 104 => ⟨S_, .f32⟩
  | 105 => ⟨S_, .f32⟩
  | 106 => ⟨S_, .f32⟩
  | 107 => ⟨S32768x1, .f32⟩
  | 108 => ⟨S32768x1, .f32⟩
  | 109 => ⟨S_, .f32⟩
  | 110 => ⟨S32768x1, .f32⟩
  | 111 => ⟨S32768x1, .f32⟩
  | 112 => ⟨S_, .f32⟩
  | 113 => ⟨S_, .f32⟩
  | 114 => ⟨S_, .f32⟩
  | 115 => ⟨S32768x1, .f32⟩
  | 116 => ⟨S32768x1, .f32⟩
  | 117 => ⟨S_, .f32⟩
  | 118 => ⟨S32768x1, .f32⟩
  | 119 => ⟨S32768x1, .f32⟩
  | 120 => ⟨S32768x1, .f32⟩
  | 121 => ⟨S32768x1, .f32⟩
  | 122 => ⟨S32768x1, .f32⟩
  | 123 => ⟨S32768x1, .f32⟩
  | 124 => ⟨S32768x1, .f32⟩
  | 125 => ⟨S32768x1, .f32⟩
  | 126 => ⟨S32768x1, .f32⟩
  | 127 => ⟨S_, .f32⟩
  | _ => ⟨S32768x256, .f32⟩

abbrev hbmTy0_2 (i : Nat) : BufTy := match i % 128 with
  | 0 => ⟨S32768x1, .f32⟩
  | 1 => ⟨S_, .f32⟩
  | 2 => ⟨S32768x1, .f32⟩
  | 3 => ⟨S32768x1, .f32⟩
  | 4 => ⟨S_, .f32⟩
  | 5 => ⟨S32768x1, .f32⟩
  | 6 => ⟨S32768x1, .f32⟩
  | 7 => ⟨S32768x1, .f32⟩
  | 8 => ⟨S32768x1, .f32⟩
  | 9 => ⟨S_, .f32⟩
  | 10 => ⟨S32768x1, .f32⟩
  | 11 => ⟨S32768x1, .i1⟩
  | 12 => ⟨S32768x1, .f32⟩
  | 13 => ⟨S32768x2, .f32⟩
  | 14 => ⟨S32768x2, .f32⟩
  | 15 => ⟨S32768x2, .i1⟩
  | 16 => ⟨S32768x2, .f32⟩
  | 17 => ⟨S32768x4, .f32⟩
  | 18 => ⟨S32768x4, .f32⟩
  | 19 => ⟨S_, .f32⟩
  | 20 => ⟨S32768x4, .f32⟩
  | 21 => ⟨S32768x4, .f32⟩
  | 22 => ⟨S_, .f32⟩
  | 23 => ⟨S32768x4, .f32⟩
  | 24 => ⟨S32768x4, .f32⟩
  | 25 => ⟨S32768x4, .f32⟩
  | 26 => ⟨S32768x4, .f32⟩
  | 27 => ⟨S32768x2, .f32⟩
  | 28 => ⟨S32768x2, .f32⟩
  | 29 => ⟨S_, .f32⟩
  | 30 => ⟨S_, .f32⟩
  | 31 => ⟨S_, .f32⟩
  | 32 => ⟨S32768x2, .f32⟩
  | 33 => ⟨S32768x2, .f32⟩
  | 34 => ⟨S_, .f32⟩
  | 35 => ⟨S32768x2, .f32⟩
  | 36 => ⟨S32768x2, .f32⟩
  | 37 => ⟨S_, .f32⟩
  | 38 => ⟨S_, .f32⟩
  | 39 => ⟨S_, .f32⟩
  | 40 => ⟨S32768x2, .f32⟩
  | 41 => ⟨S32768x2, .f32⟩
  | 42 => ⟨S_, .f32⟩
  | 43 => ⟨S32768x2, .f32⟩
  | 44 => ⟨S32768x2, .f32⟩
  | 45 => ⟨S32768x2, .f32⟩
  | 46 => ⟨S32768x2, .f32⟩
  | 47 => ⟨S32768x2, .f32⟩
  | 48 => ⟨S32768x2, .f32⟩
  | 49 => ⟨S32768x2, .f32⟩
  | 50 => ⟨S32768x2, .f32⟩
  | 51 => ⟨S32768x2, .f32⟩
  | 52 => ⟨S32768x1, .f32⟩
  | 53 => ⟨S32768x1, .f32⟩
  | 54 => ⟨S_, .f32⟩
  | 55 => ⟨S_, .f32⟩
  | 56 => ⟨S_, .f32⟩
  | 57 => ⟨S32768x1, .f32⟩
  | 58 => ⟨S32768x1, .f32⟩
  | 59 => ⟨S_, .f32⟩
  | 60 => ⟨S32768x1, .f32⟩
  | 61 => ⟨S32768x1, .f32⟩
  | 62 => ⟨S_, .f32⟩
  | 63 => ⟨S_, .f32⟩
  | 64 => ⟨S_, .f32⟩
  | 65 => ⟨S32768x1, .f32⟩
  | 66 => ⟨S32768x1, .f32⟩
  | 67 => ⟨S_, .f32⟩
  | 68 => ⟨S32768x1, .f32⟩
  | 69 => ⟨S32768x1, .f32⟩
  | 70 => ⟨S32768x1, .f32⟩
  | 71 => ⟨S32768x1, .f32⟩
  | 72 => ⟨S32768x1, .f32⟩
  | 73 => ⟨S32768x1, .f32⟩
  | 74 => ⟨S32768x1, .f32⟩
  | 75 => ⟨S32768x1, .f32⟩
  | 76 => ⟨S32768x1, .f32⟩
  | 77 => ⟨S_, .f32⟩
  | 78 => ⟨S32768x1, .f32⟩
  | 79 => ⟨S_, .f32⟩
  | 80 => ⟨S32768x1, .f32⟩
  | 81 => ⟨S32768x1, .f32⟩
  | 82 => ⟨S_, .f32⟩
  | 83 => ⟨S32768x1, .f32⟩
  | 84 => ⟨S32768x1, .f32⟩
  | 85 => ⟨S32768x1, .f32⟩
  | 86 => ⟨S32768x1, .f32⟩
  | 87 => ⟨S_, .f32⟩
  | 88 => ⟨S32768x1, .f32⟩
  | 89 => ⟨S32768x1, .i1⟩
  | 90 => ⟨S32768x1, .f32⟩
  | 91 => ⟨S32768x2, .f32⟩
  | 92 => ⟨S32768x2, .f32⟩
  | 93 => ⟨S_, .f32⟩
  | 94 => ⟨S32768x2, .f32⟩
  | 95 => ⟨S32768x2, .f32⟩
  | 96 => ⟨S_, .f32⟩
  | 97 => ⟨S32768x2, .f32⟩
  | 98 => ⟨S32768x2, .f32⟩
  | 99 => ⟨S32768x2, .f32⟩
  | 100 => ⟨S32768x2, .f32⟩
  | 101 => ⟨S32768x1, .f32⟩
  | 102 => ⟨S32768x1, .f32⟩
  | 103 => ⟨S_, .f32⟩
  | 104 => ⟨S_, .f32⟩
  | 105 => ⟨S_, .f32⟩
  | 106 => ⟨S32768x1, .f32⟩
  | 107 => ⟨S32768x1, .f32⟩
  | 108 => ⟨S_, .f32⟩
  | 109 => ⟨S32768x1, .f32⟩
  | 110 => ⟨S32768x1, .f32⟩
  | 111 => ⟨S_, .f32⟩
  | 112 => ⟨S_, .f32⟩
  | 113 => ⟨S_, .f32⟩
  | 114 => ⟨S32768x1, .f32⟩
  | 115 => ⟨S32768x1, .f32⟩
  | 116 => ⟨S_, .f32⟩
  | 117 => ⟨S32768x1, .f32⟩
  | 118 => ⟨S32768x1, .f32⟩
  | 119 => ⟨S32768x1, .f32⟩
  | 120 => ⟨S32768x1, .f32⟩
  | 121 => ⟨S32768x1, .f32⟩
  | 122 => ⟨S32768x1, .f32⟩
  | 123 => ⟨S32768x1, .f32⟩
  | 124 => ⟨S32768x1, .f32⟩
  | 125 => ⟨S32768x1, .f32⟩
  | 126 => ⟨S_, .f32⟩
  | 127 => ⟨S32768x1, .f32⟩
  | _ => ⟨S32768x256, .f32⟩

abbrev hbmTy0_3 (i : Nat) : BufTy := match i % 128 with
  | 0 => ⟨S_, .f32⟩
  | 1 => ⟨S32768x1, .f32⟩
  | 2 => ⟨S32768x1, .f32⟩
  | 3 => ⟨S_, .f32⟩
  | 4 => ⟨S32768x1, .f32⟩
  | 5 => ⟨S32768x1, .f32⟩
  | 6 => ⟨S32768x1, .f32⟩
  | 7 => ⟨S32768x1, .f32⟩
  | 8 => ⟨S_, .f32⟩
  | 9 => ⟨S32768x1, .f32⟩
  | 10 => ⟨S32768x1, .i1⟩
  | 11 => ⟨S32768x1, .f32⟩
  | 12 => ⟨S32768x2, .f32⟩
  | 13 => ⟨S32768x2, .f32⟩
  | 14 => ⟨S32768x2, .i1⟩
  | 15 => ⟨S32768x2, .f32⟩
  | 16 => ⟨S32768x4, .f32⟩
  | 17 => ⟨S32768x4, .f32⟩
  | 18 => ⟨S32768x4, .i1⟩
  | 19 => ⟨S32768x4, .f32⟩
  | 20 => ⟨S32768x8, .f32⟩
  | 21 => ⟨S32768x8, .f32⟩
  | 22 => ⟨S_, .f32⟩
  | 23 => ⟨S32768x8, .f32⟩
  | 24 => ⟨S32768x8, .f32⟩
  | 25 => ⟨S_, .f32⟩
  | 26 => ⟨S32768x8, .f32⟩
  | 27 => ⟨S32768x8, .f32⟩
  | 28 => ⟨S32768x8, .f32⟩
  | 29 => ⟨S32768x8, .f32⟩
  | 30 => ⟨S32768x4, .f32⟩
  | 31 => ⟨S32768x4, .f32⟩
  | 32 => ⟨S_, .f32⟩
  | 33 => ⟨S_, .f32⟩
  | 34 => ⟨S_, .f32⟩
  | 35 => ⟨S32768x4, .f32⟩
  | 36 => ⟨S32768x4, .f32⟩
  | 37 => ⟨S_, .f32⟩
  | 38 => ⟨S32768x4, .f32⟩
  | 39 => ⟨S32768x4, .f32⟩
  | 40 => ⟨S_, .f32⟩
  | 41 => ⟨S_, .f32⟩
  | 42 => ⟨S_, .f32⟩
  | 43 => ⟨S32768x4, .f32⟩
  | 44 => ⟨S32768x4, .f32⟩
  | 45 => ⟨S_, .f32⟩
  | 46 => ⟨S32768x4, .f32⟩
  | 47 => ⟨S32768x4, .f32⟩
  | 48 => ⟨S32768x4, .f32⟩
  | 49 => ⟨S32768x4, .f32⟩
  | 50 => ⟨S32768x4, .f32⟩
  | 51 => ⟨S32768x4, .f32⟩
  | 52 => ⟨S32768x4, .f32⟩
  | 53 => ⟨S32768x4, .f32⟩
  | 54 => ⟨S32768x4, .f32⟩
  | 55 => ⟨S32768x2, .f32⟩
  | 56 => ⟨S32768x2, .f32⟩
  | 57 => ⟨S_, .f32⟩
  | 58 => ⟨S_, .f32⟩
  | 59 => ⟨S_, .f32⟩
  | 60 => ⟨S32768x2, .f32⟩
  | 61 => ⟨S32768x2, .f32⟩
  | 62 => ⟨S_, .f32⟩
  | 63 => ⟨S32768x2, .f32⟩
  | 64 => ⟨S32768x2, .f32⟩
  | 65 => ⟨S_, .f32⟩
  | 66 => ⟨S_, .f32⟩
  | 67 => ⟨S_, .f32⟩
  | 68 => ⟨S32768x2, .f32⟩
  | 69 => ⟨S32768x2, .f32⟩
  | 70 => ⟨S_, .f32⟩
  | 71 => ⟨S32768x2, .f32⟩
  | 72 => ⟨S32768x2, .f32⟩
  | 73 => ⟨S32768x2, .f32⟩
  | 74 => ⟨S32768x2, .f32⟩
  | 75 => ⟨S32768x2, .f32⟩
  | 76 => ⟨S32768x2, .f32⟩
  | 77 => ⟨S32768x2, .f32⟩
  | 78 => ⟨S32768x2, .f32⟩
  | 79 => ⟨S32768x2, .f32⟩
  | 80 => ⟨S32768x1, .f32⟩
  | 81 => ⟨S32768x1, .f32⟩
  | 82 => ⟨S_, .f32⟩
  | 83 => ⟨S_, .f32⟩
  | 84 => ⟨S_, .f32⟩
  | 85 => ⟨S32768x1, .f32⟩
  | 86 => ⟨S32768x1, .f32⟩
  | 87 => ⟨S_, .f32⟩
  | 88 => ⟨S32768x1, .f32⟩
  | 89 => ⟨S32768x1, .f32⟩
  | 90 => ⟨S_, .f32⟩
  | 91 => ⟨S_, .f32⟩
  | 92 => ⟨S_, .f32⟩
  | 93 => ⟨S32768x1, .f32⟩
  | 94 => ⟨S32768x1, .f32⟩
  | 95 => ⟨S_, .f32⟩
  | 96 => ⟨S32768x1, .f32⟩
  | 97 => ⟨S32768x1, .f32⟩
  | 98 => ⟨S32768x1, .f32⟩
  | 99 => ⟨S32768x1, .f32⟩
  | 100 => ⟨S32768x1, .f32⟩
  | 101 => ⟨S32768x1, .f32⟩
  | 102 => ⟨S32768x1, .f32⟩
  | 103 => ⟨S32768x1, .f32⟩
  | 104 => ⟨S32768x1, .f32⟩
  | 105 => ⟨S_, .f32⟩
  | 106 => ⟨S32768x1, .f32⟩
  | 107 => ⟨S_, .f32⟩
  | 108 => ⟨S32768x1, .f32⟩
  | 109 => ⟨S32768x1, .f32⟩
  | 110 => ⟨S_, .f32⟩
  | 111 => ⟨S32768x1, .f32⟩
  | 112 => ⟨S32768x1, .f32⟩
  | 113 => ⟨S32768x1, .f32⟩
  | 114 => ⟨S32768x1, .f32⟩
  | 115 => ⟨S_, .f32⟩
  | 116 => ⟨S32768x1, .f32⟩
  | 117 => ⟨S32768x1, .i1⟩
  | 118 => ⟨S32768x1, .f32⟩
  | 119 => ⟨S32768x2, .f32⟩
  | 120 => ⟨S32768x2, .f32⟩
  | 121 => ⟨S_, .f32⟩
  | 122 => ⟨S32768x2, .f32⟩
  | 123 => ⟨S32768x2, .f32⟩
  | 124 => ⟨S_, .f32⟩
  | 125 => ⟨S32768x2, .f32⟩
  | 126 => ⟨S32768x2, .f32⟩
  | 127 => ⟨S32768x2, .f32⟩
  | _ => ⟨S32768x256, .f32⟩

abbrev hbmTy0_4 (i : Nat) : BufTy := match i % 128 with
  | 0 => ⟨S32768x2, .f32⟩
  | 1 => ⟨S32768x1, .f32⟩
  | 2 => ⟨S32768x1, .f32⟩
  | 3 => ⟨S_, .f32⟩
  | 4 => ⟨S_, .f32⟩
  | 5 => ⟨S_, .f32⟩
  | 6 => ⟨S32768x1, .f32⟩
  | 7 => ⟨S32768x1, .f32⟩
  | 8 => ⟨S_, .f32⟩
  | 9 => ⟨S32768x1, .f32⟩
  | 10 => ⟨S32768x1, .f32⟩
  | 11 => ⟨S_, .f32⟩
  | 12 => ⟨S_, .f32⟩
  | 13 => ⟨S_, .f32⟩
  | 14 => ⟨S32768x1, .f32⟩
  | 15 => ⟨S32768x1, .f32⟩
  | 16 => ⟨S_, .f32⟩
  | 17 => ⟨S32768x1, .f32⟩
  | 18 => ⟨S32768x1, .f32⟩
  | 19 => ⟨S32768x1, .f32⟩
  | 20 => ⟨S32768x1, .f32⟩
  | 21 => ⟨S32768x1, .f32⟩
  | 22 => ⟨S32768x1, .f32⟩
  | 23 => ⟨S32768x1, .f32⟩
  | 24 => ⟨S32768x1, .f32⟩
  | 25 => ⟨S32768x1, .f32⟩
  | 26 => ⟨S_, .f32⟩
  | 27 => ⟨S32768x1, .f32⟩
  | 28 => ⟨S_, .f32⟩
  | 29 => ⟨S32768x1, .f32⟩
  | 30 => ⟨S32768x1, .f32⟩
  | 31 => ⟨S_, .f32⟩
  | 32 => ⟨S32768x1, .f32⟩
  | 33 => ⟨S32768x1, .f32⟩
  | 34 => ⟨S32768x1, .f32⟩
  | 35 => ⟨S32768x1, .f32⟩
  | 36 => ⟨S_, .f32⟩
  | 37 => ⟨S32768x1, .f32⟩
  | 38 => ⟨S32768x1, .i1⟩
  | 39 => ⟨S32768x1, .f32⟩
  | 40 => ⟨S32768x2, .f32⟩
  | 41 => ⟨S32768x2, .f32⟩
  | 42 => ⟨S32768x2, .i1⟩
  | 43 => ⟨S32768x2, .f32⟩
  | 44 => ⟨S32768x4, .f32⟩
  | 45 => ⟨S32768x4, .f32⟩
  | 46 => ⟨S_, .f32⟩
  | 47 => ⟨S32768x4, .f32⟩
  | 48 => ⟨S32768x4, .f32⟩
  | 49 => ⟨S_, .f32⟩
  | 50 => ⟨S32768x4, .f32⟩
  | 51 => ⟨S32768x4, .f32⟩
  | 52 => ⟨S32768x4, .f32⟩
  | 53 => ⟨S32768x4, .f32⟩
  | 54 => ⟨S32768x2, .f32⟩
  | 55 => ⟨S32768x2, .f32⟩
  | 56 => ⟨S_, .f32⟩
  | 57 => ⟨S_, .f32⟩
  | 58 => ⟨S_, .f32⟩
  | 59 => ⟨S32768x2, .f32⟩
  | 60 => ⟨S32768x2, .f32⟩
  | 61 => ⟨S_, .f32⟩
  | 62 => ⟨S32768x2, .f32⟩
  | 63 => ⟨S32768x2, .f32⟩
  | 64 => ⟨S_, .f32⟩
  | 65 => ⟨S_, .f32⟩
  | 66 => ⟨S_, .f32⟩
  | 67 => ⟨S32768x2, .f32⟩
  | 68 => ⟨S32768x2, .f32⟩
  | 69 => ⟨S_, .f32⟩
  | 70 => ⟨S32768x2, .f32⟩
  | 71 => ⟨S32768x2, .f32⟩
  | 72 => ⟨S32768x2, .f32⟩
  | 73 => ⟨S32768x2, .f32⟩
  | 74 => ⟨S32768x2, .f32⟩
  | 75 => ⟨S32768x2, .f32⟩
  | 76 => ⟨S32768x2, .f32⟩
  | 77 => ⟨S32768x2, .f32⟩
  | 78 => ⟨S32768x2, .f32⟩
  | 79 => ⟨S32768x1, .f32⟩
  | 80 => ⟨S32768x1, .f32⟩
  | 81 => ⟨S_, .f32⟩
  | 82 => ⟨S_, .f32⟩
  | 83 => ⟨S_, .f32⟩
  | 84 => ⟨S32768x1, .f32⟩
  | 85 => ⟨S32768x1, .f32⟩
  | 86 => ⟨S_, .f32⟩
  | 87 => ⟨S32768x1, .f32⟩
  | 88 => ⟨S32768x1, .f32⟩
  | 89 => ⟨S_, .f32⟩
  | 90 => ⟨S_, .f32⟩
  | 91 => ⟨S_, .f32⟩
  | 92 => ⟨S32768x1, .f32⟩
  | 93 => ⟨S32768x1, .f32⟩
  | 94 => ⟨S_, .f32⟩
  | 95 => ⟨S32768x1, .f32⟩
  | 96 => ⟨S32768x1, .f32⟩
  | 97 => ⟨S32768x1, .f32⟩
  | 98 => ⟨S32768x1, .f32⟩
  | 99 => ⟨S32768x1, .f32⟩
  | 100 => ⟨S32768x1, .f32⟩
  | 101 => ⟨S32768x1, .f32⟩
  | 102 => ⟨S32768x1, .f32⟩
  | 103 => ⟨S32768x1, .f32⟩
  | 104 => ⟨S_, .f32⟩
  | 105 => ⟨S32768x1, .f32⟩
  | 106 => ⟨S_, .f32⟩
  | 107 => ⟨S32768x1, .f32⟩
  | 108 => ⟨S32768x1, .f32⟩
  | 109 => ⟨S_, .f32⟩
  | 110 => ⟨S32768x1, .f32⟩
  | 111 => ⟨S32768x1, .f32⟩
  | 112 => ⟨S32768x1, .f32⟩
  | 113 => ⟨S32768x1, .f32⟩
  | 114 => ⟨S_, .f32⟩
  | 115 => ⟨S32768x1, .f32⟩
  | 116 => ⟨S32768x1, .i1⟩
  | 117 => ⟨S32768x1, .f32⟩
  | 118 => ⟨S32768x2, .f32⟩
  | 119 => ⟨S32768x2, .f32⟩
  | 120 => ⟨S_, .f32⟩
  | 121 => ⟨S32768x2, .f32⟩
  | 122 => ⟨S32768x2, .f32⟩
  | 123 => ⟨S_, .f32⟩
  | 124 => ⟨S32768x2, .f32⟩
  | 125 => ⟨S32768x2, .f32⟩
  | 126 => ⟨S32768x2, .f32⟩
  | 127 => ⟨S32768x2, .f32⟩
  | _ => ⟨S32768x256, .f32⟩

abbrev hbmTy0_5 (i : Nat) : BufTy := match i % 128 with
  | 0 => ⟨S32768x1, .f32⟩
  | 1 => ⟨S32768x1, .f32⟩
  | 2 => ⟨S_, .f32⟩
  | 3 => ⟨S_, .f32⟩
  | 4 => ⟨S_, .f32⟩
  | 5 => ⟨S32768x1, .f32⟩
  | 6 => ⟨S32768x1, .f32⟩
  | 7 => ⟨S_, .f32⟩
  | 8 => ⟨S32768x1, .f32⟩
  | 9 => ⟨S32768x1, .f32⟩
  | 10 => ⟨S_, .f32⟩
  | 11 => ⟨S_, .f32⟩
  | 12 => ⟨S_, .f32⟩
  | 13 => ⟨S32768x1, .f32⟩
  | 14 => ⟨S32768x1, .f32⟩
  | 15 => ⟨S_, .f32⟩
  | 16 => ⟨S32768x1, .f32⟩
  | 17 => ⟨S32768x1, .f32⟩
  | 18 => ⟨S32768x1, .f32⟩
  | 19 => ⟨S32768x1, .f32⟩
  | 20 => ⟨S32768x1, .f32⟩
  | 21 => ⟨S32768x1, .f32⟩
  | 22 => ⟨S32768x1, .f32⟩
  | 23 => ⟨S32768x1, .f32⟩
  | 24 => ⟨S32768x1, .f32⟩
  | 25 => ⟨S_, .f32⟩
  | 26 => ⟨S32768x1, .f32⟩
  | 27 => ⟨S_, .f32⟩
  | 28 => ⟨S32768x1, .f32⟩
  | 29 => ⟨S32768x1, .f32⟩
  | 30 => ⟨S_, .f32⟩
  | 31 => ⟨S32768x1, .f32⟩
  | 32 => ⟨S32768x1, .f32⟩
  | 33 => ⟨S32768x1, .f32⟩
  | 34 => ⟨S32768x1, .f32⟩
  | 35 => ⟨S_, .f32⟩
  | 36 => ⟨S32768x1, .f32⟩
  | 37 => ⟨S32768x1, .i1⟩
  | 38 => ⟨S32768x1, .f32⟩
  | 39 => ⟨S32768x2, .f32⟩
  | 40 => ⟨S32768x2, .f32⟩
  | 41 => ⟨S32768x2, .i1⟩
  | 42 => ⟨S32768x2, .f32⟩
  | 43 => ⟨S32768x4, .f32⟩
  | 44 => ⟨S32768x4, .f32⟩
  | 45 => ⟨S32768x4, .i1⟩
  | 46 => ⟨S32768x4, .f32⟩
  | 47 => ⟨S32768x8, .f32⟩
  | 48 => ⟨S32768x8, .f32⟩
  | 49 => ⟨S32768x8, .i1⟩
  | 50 => ⟨S32768x8, .f32⟩
  | 51 => ⟨S32768x16, .f32⟩
  | 52 => ⟨S32768x16, .f32⟩
  | 53 => ⟨S_, .f32⟩
  | 54 => ⟨S32768x16, .f32⟩
  | 55 => ⟨S32768x16, .f32⟩
  | 56 => ⟨S_, .f32⟩
  | 57 => ⟨S32768x16, .f32⟩
  | 58 => ⟨S32768x16, .f32⟩
  | 59 => ⟨S32768x16, .f32⟩
  | 60 => ⟨S32768x16, .f32⟩
  | 61 => ⟨S32768x8, .f32⟩
  | 62 => ⟨S32768x8, .f32⟩
  | 63 => ⟨S_, .f32⟩
  | 64 => ⟨S_, .f32⟩
  | 65 => ⟨S_, .f32⟩
  | 66 => ⟨S32768x8, .f32⟩
  | 67 => ⟨S32768x8, .f32⟩
  | 68 => ⟨S_, .f32⟩
  | 69 => ⟨S32768x8, .f32⟩
  | 70 => ⟨S32768x8, .f32⟩
  | 71 => ⟨S_, .f32⟩
  | 72 => ⟨S_, .f32⟩
  | 73 => ⟨S_, .f32⟩
  | 74 => ⟨S32768x8, .f32⟩
  | 75 => ⟨S32768x8, .f32⟩
  | 76 => ⟨S_, .f32⟩
  | 77 => ⟨S32768x8, .f32⟩
  | 78 => ⟨S32768x8, .f32⟩
  | 79 => ⟨S32768x8, .f32⟩
  | 80 => ⟨S32768x8, .f32⟩
  | 81 => ⟨S32768x8, .f32⟩
  | 82 => ⟨S32768x8, .f32⟩
  | 83 => ⟨S32768x8, .f32⟩
  | 84 => ⟨S32768x8, .f32⟩
  | 85 => ⟨S32768x8, .f32⟩
  | 86 => ⟨S32768x4, .f32⟩
  | 87 => ⟨S32768x4, .f32⟩
  | 88 => ⟨S_, .f32⟩
  | 89 => ⟨S_, .f32⟩
  | 90 => ⟨S_, .f32⟩
  | 91 => ⟨S32768x4, .f32⟩
  | 92 => ⟨S32768x4, .f32⟩
  | 93 => ⟨S_, .f32⟩
  | 94 => ⟨S32768x4, .f32⟩
  | 95 => ⟨S32768x4, .f32⟩
  | 96 => ⟨S_, .f32⟩
  | 97 => ⟨S_, .f32⟩
  | 98 => ⟨S_, .f32⟩
  | 99 => ⟨S32768x4, .f32⟩
  | 100 => ⟨S32768x4, .f32⟩
  | 101 => ⟨S_, .f32⟩
  | 102 => ⟨S32768x4, .f32⟩
  | 103 => ⟨S32768x4, .f32⟩
  | 104 => ⟨S32768x4, .f32⟩
  | 105 => ⟨S32768x4, .f32⟩
  | 106 => ⟨S32768x4, .f32⟩
  | 107 => ⟨S32768x4, .f32⟩
  | 108 => ⟨S32768x4, .f32⟩
  | 109 => ⟨S32768x4, .f32⟩
  | 110 => ⟨S32768x4, .f32⟩
  | 111 => ⟨S32768x2, .f32⟩
  | 112 => ⟨S32768x2, .f32⟩
  | 113 => ⟨S_, .f32⟩
  | 114 => ⟨S_, .f32⟩
  | 115 => ⟨S_, .f32⟩
  | 116 => ⟨S32768x2, .f32⟩
  | 117 => ⟨S32768x2, .f32⟩
  | 118 => ⟨S_, .f32⟩
  | 119 => ⟨S32768x2, .f32⟩
  | 120 => ⟨S32768x2, .f32⟩
  | 121 => ⟨S_, .f32⟩
  | 122 => ⟨S_, .f32⟩
  | 123 => ⟨S_, .f32⟩
  | 124 => ⟨S32768x2, .f32⟩
  | 125 => ⟨S32768x2, .f32⟩
  | 126 => ⟨S_, .f32⟩
  | 127 => ⟨S32768x2, .f32⟩
  | _ => ⟨S32768x256, .f32⟩

abbrev hbmTy0_6 (i : Nat) : BufTy := match i % 128 with
  | 0 => ⟨S32768x2, .f32⟩
  | 1 => ⟨S32768x2, .f32⟩
  | 2 => ⟨S32768x2, .f32⟩
  | 3 => ⟨S32768x2, .f32⟩
  | 4 => ⟨S32768x2, .f32⟩
  | 5 => ⟨S32768x2, .f32⟩
  | 6 => ⟨S32768x2, .f32⟩
  | 7 => ⟨S32768x2, .f32⟩
  | 8 => ⟨S32768x1, .f32⟩
  | 9 => ⟨S32768x1, .f32⟩
  | 10 => ⟨S_, .f32⟩
  | 11 => ⟨S_, .f32⟩
  | 12 => ⟨S_, .f32⟩
  | 13 => ⟨S32768x1, .f32⟩
  | 14 => ⟨S32768x1, .f32⟩
  | 15 => ⟨S_, .f32⟩
  | 16 => ⟨S32768x1, .f32⟩
  | 17 => ⟨S32768x1, .f32⟩
  | 18 => ⟨S_, .f32⟩
  | 19 => ⟨S_, .f32⟩
  | 20 => ⟨S_, .f32⟩
  | 21 => ⟨S32768x1, .f32⟩
  | 22 => ⟨S32768x1, .f32⟩
  | 23 => ⟨S_, .f32⟩
  | 24 => ⟨S32768x1, .f32⟩
  | 25 => ⟨S32768x1, .f32⟩
  | 26 => ⟨S32768x1, .f32⟩
  | 27 => ⟨S32768x1, .f32⟩
  | 28 => ⟨S32768x1, .f32⟩
  | 29 => ⟨S32768x1, .f32⟩
  | 30 => ⟨S32768x1, .f32⟩
  | 31 => ⟨S32768x1, .f32⟩
  | 32 => ⟨S32768x1, .f32⟩
  | 33 => ⟨S_, .f32⟩
  | 34 => ⟨S32768x1, .f32⟩
  | 35 => ⟨S_, .f32⟩
  | 36 => ⟨S32768x1, .f32⟩
  | 37 => ⟨S32768x1, .f32⟩
  | 38 => ⟨S_, .f32⟩
  | 39 => ⟨S32768x1, .f32⟩
  | 40 => ⟨S32768x1, .f32⟩
  | 41 => ⟨S32768x1, .f32⟩
  | 42 => ⟨S32768x1, .f32⟩
  | 43 => ⟨S_, .f32⟩
  | 44 => ⟨S32768x1, .f32⟩
  | 45 => ⟨S32768x1, .i1⟩
  | 46 => ⟨S32768x1, .f32⟩
  | 47 => ⟨S32768x2, .f32⟩
  | 48 => ⟨S32768x2, .f32⟩
  | 49 => ⟨S_, .f32⟩
  | 50 => ⟨S32768x2, .f32⟩
  | 51 => ⟨S32768x2, .f32⟩
  | 52 => ⟨S_, .f32⟩
  | 53 => ⟨S32768x2, .f32⟩
  | 54 => ⟨S32768x2, .f32⟩
  | 55 => ⟨S32768x2, .f32⟩
  | 56 => ⟨S32768x2, .f32⟩
  | 57 => ⟨S32768x1, .f32⟩
  | 58 => ⟨S32768x1, .f32⟩
  | 59 => ⟨S_, .f32⟩
  | 60 => ⟨S_, .f32⟩
  | 61 => ⟨S_, .f32⟩
  | 62 => ⟨S32768x1, .f32⟩
  | 63 => ⟨S32768x1, .f32⟩
  | 64 => ⟨S_, .f32⟩
  | 65 => ⟨S32768x1, .f32⟩
  | 66 => ⟨S32768x1, .f32⟩
  | 67 => ⟨S_, .f32⟩
  | 68 => ⟨S_, .f32⟩
  | 69 => ⟨S_, .f32⟩
  | 70 => ⟨S32768x1, .f32⟩
  | 71 => ⟨S32768x1, .f32⟩
  | 72 => ⟨S_, .f32⟩
  | 73 => ⟨S32768x1, .f32⟩
  | 74 => ⟨S32768x1, .f32⟩
  | 75 => ⟨S32768x1, .f32⟩
  | 76 => ⟨S32768x1, .f32⟩
  | 77 => ⟨S32768x1, .f32⟩
  | 78 => ⟨S32768x1, .f32⟩
  | 79 => ⟨S32768x1, .f32⟩
  | 80 => ⟨S32768x1, .f32⟩
  | 81 => ⟨S32768x1, .f32⟩
  | 82 => ⟨S_, .f32⟩
  | 83 => ⟨S32768x1, .f32⟩
  | 84 => ⟨S_, .f32⟩
  | 85 => ⟨S32768x1, .f32⟩
  | 86 => ⟨S32768x1, .f32⟩
  | 87 => ⟨S_, .f32⟩
  | 88 => ⟨S32768x1, .f32⟩
  | 89 => ⟨S32768x1, .f32⟩
  | 90 => ⟨S32768x1, .f32⟩
  | 91 => ⟨S32768x1, .f32⟩
  | 92 => ⟨S_, .f32⟩
  | 93 => ⟨S32768x1, .f32⟩
  | 94 => ⟨S32768x1, .i1⟩
  | 95 => ⟨S32768x1, .f32⟩
  | 96 => ⟨S32768x2, .f32⟩
  | 97 => ⟨S32768x2, .f32⟩
  | 98 => ⟨S32768x2, .i1⟩
  | 99 => ⟨S32768x2, .f32⟩
  | 100 => ⟨S32768x4, .f32⟩
  | 101 => ⟨S32768x4, .f32⟩
  | 102 => ⟨S_, .f32⟩
  | 103 => ⟨S32768x4, .f32⟩
  | 104 => ⟨S32768x4, .f32⟩
  | 105 => ⟨S_, .f32⟩
  | 106 => ⟨S32768x4, .f32⟩
  | 107 => ⟨S32768x4, .f32⟩
  | 108 => ⟨S32768x4, .f32⟩
  | 109 => ⟨S32768x4, .f32⟩
  | 110 => ⟨S32768x2, .f32⟩
  | 111 => ⟨S32768x2, .f32⟩
  | 112 => ⟨S_, .f32⟩
  | 113 => ⟨S_, .f32⟩
  | 114 => ⟨S_, .f32⟩
  | 115 => ⟨S32768x2, .f32⟩
  | 116 => ⟨S32768x2, .f32⟩
  | 117 => ⟨S_, .f32⟩
  | 118 => ⟨S32768x2, .f32⟩
  | 119 => ⟨S32768x2, .f32⟩
  | 120 => ⟨S_, .f32⟩
  | 121 => ⟨S_, .f32⟩
  | 122 => ⟨S_, .f32⟩
  | 123 => ⟨S32768x2, .f32⟩
  | 124 => ⟨S32768x2, .f32⟩
  | 125 => ⟨S_, .f32⟩
  | 126 => ⟨S32768x2, .f32⟩
  | 127 => ⟨S32768x2, .f32⟩
  | _ => ⟨S32768x256, .f32⟩

abbrev hbmTy0_7 (i : Nat) : BufTy := match i % 128 with
  | 0 => ⟨S32768x2, .f32⟩
  | 1 => ⟨S32768x2, .f32⟩
  | 2 => ⟨S32768x2, .f32⟩
  | 3 => ⟨S32768x2, .f32⟩
  | 4 => ⟨S32768x2, .f32⟩
  | 5 => ⟨S32768x2, .f32⟩
  | 6 => ⟨S32768x2, .f32⟩
  | 7 => ⟨S32768x1, .f32⟩
  | 8 => ⟨S32768x1, .f32⟩
  | 9 => ⟨S_, .f32⟩
  | 10 => ⟨S_, .f32⟩
  | 11 => ⟨S_, .f32⟩
  | 12 => ⟨S32768x1, .f32⟩
  | 13 => ⟨S32768x1, .f32⟩
  | 14 => ⟨S_, .f32⟩
  | 15 => ⟨S32768x1, .f32⟩
  | 16 => ⟨S32768x1, .f32⟩
  | 17 => ⟨S_, .f32⟩
  | 18 => ⟨S_, .f32⟩
  | 19 => ⟨S_, .f32⟩
  | 20 => ⟨S32768x1, .f32⟩
  | 21 => ⟨S32768x1, .f32⟩
  | 22 => ⟨S_, .f32⟩
  | 23 => ⟨S32768x1, .f32⟩
  | 24 => ⟨S32768x1, .f32⟩
  | 25 => ⟨S32768x1, .f32⟩
  | 26 => ⟨S32768x1, .f32⟩
  | 27 => ⟨S32768x1, .f32⟩
  | 28 => ⟨S32768x1, .f32⟩
  | 29 => ⟨S32768x1, .f32⟩
  | 30 => ⟨S32768x1, .f32⟩
  | 31 => ⟨S32768x1, .f32⟩
  | 32 => ⟨S_, .f32⟩
  | 33 => ⟨S32768x1, .f32⟩
  | 34 => ⟨S_, .f32⟩
  | 35 => ⟨S32768x1, .f32⟩
  | 36 => ⟨S32768x1, .f32⟩
  | 37 => ⟨S_, .f32⟩
  | 38 => ⟨S32768x1, .f32⟩
  | 39 => ⟨S32768x1, .f32⟩
  | 40 => ⟨S32768x1, .f32⟩
  | 41 => ⟨S32768x1, .f32⟩
  | 42 => ⟨S_, .f32⟩
  | 43 => ⟨S32768x1, .f32⟩
  | 44 => ⟨S32768x1, .i1⟩
  | 45 => ⟨S32768x1, .f32⟩
  | 46 => ⟨S32768x2, .f32⟩
  | 47 => ⟨S32768x2, .f32⟩
  | 48 => ⟨S_, .f32⟩
  | 49 => ⟨S32768x2, .f32⟩
  | 50 => ⟨S32768x2, .f32⟩
  | 51 => ⟨S_, .f32⟩
  | 52 => ⟨S32768x2, .f32⟩
  | 53 => ⟨S32768x2, .f32⟩
  | 54 => ⟨S32768x2, .f32⟩
  | 55 => ⟨S32768x2, .f32⟩
  | 56 => ⟨S32768x1, .f32⟩
  | 57 => ⟨S32768x1, .f32⟩
  | 58 => ⟨S_, .f32⟩
  | 59 => ⟨S_, .f32⟩
  | 60 => ⟨S_, .f32⟩
  | 61 => ⟨S32768x1, .f32⟩
  | 62 => ⟨S32768x1, .f32⟩
  | 63 => ⟨S_, .f32⟩
  | 64 => ⟨S32768x1, .f32⟩
  | 65 => ⟨S32768x1, .f32⟩
  | 66 => ⟨S_, .f32⟩
  | 67 => ⟨S_, .f32⟩
  | 68 => ⟨S_, .f32⟩
  | 69 => ⟨S32768x1, .f32⟩
  | 70 => ⟨S32768x1, .f32⟩
  | 71 => ⟨S_, .f32⟩
  | 72 => ⟨S32768x1, .f32⟩
  | 73 => ⟨S32768x1, .f32⟩
  | 74 => ⟨S32768x1, .f32⟩
  | 75 => ⟨S32768x1, .f32⟩
  | 76 => ⟨S32768x1, .f32⟩
  | 77 => ⟨S32768x1, .f32⟩
  | 78 => ⟨S32768x1, .f32⟩
  | 79 => ⟨S32768x1, .f32⟩
  | 80 => ⟨S32768x1, .f32⟩
  | 81 => ⟨S_, .f32⟩
  | 82 => ⟨S32768x1, .f32⟩
  | 83 => ⟨S_, .f32⟩
  | 84 => ⟨S32768x1, .f32⟩
  | 85 => ⟨S32768x1, .f32⟩
  | 86 => ⟨S_, .f32⟩
  | 87 => ⟨S32768x1, .f32⟩
  | 88 => ⟨S32768x1, .f32⟩
  | 89 => ⟨S32768x1, .f32⟩
  | 90 => ⟨S32768x1, .f32⟩
  | 91 => ⟨S_, .f32⟩
  | 92 => ⟨S32768x1, .f32⟩
  | 93 => ⟨S32768x1, .i1⟩
  | 94 => ⟨S32768x1, .f32⟩
  | 95 => ⟨S32768x2, .f32⟩
  | 96 => ⟨S32768x2, .f32⟩
  | 97 => ⟨S32768x2, .i1⟩
  | 98 => ⟨S32768x2, .f32⟩
  | 99 => ⟨S32768x4, .f32⟩
  | 100 => ⟨S32768x4, .f32⟩
  | 101 => ⟨S32768x4, .i1⟩
  | 102 => ⟨S32768x4, .f32⟩
  | 103 => ⟨S32768x8, .f32⟩
  | 104 => ⟨S32768x8, .f32⟩
  | 105 => ⟨S_, .f32⟩
  | 106 => ⟨S32768x8, .f32⟩
  | 107 => ⟨S32768x8, .f32⟩
  | 108 => ⟨S_, .f32⟩
  | 109 => ⟨S32768x8, .f32⟩
  | 110 => ⟨S32768x8, .f32⟩
  | 111 => ⟨S32768x8, .f32⟩
  | 112 => ⟨S32768x8, .f32⟩
  | 113 => ⟨S32768x4, .f32⟩
  | 114 => ⟨S32768x4, .f32⟩
  | 115 => ⟨S_, .f32⟩
  | 116 => ⟨S_, .f32⟩
  | 117 => ⟨S_, .f32⟩
  | 118 => ⟨S32768x4, .f32⟩
  | 119 => ⟨S32768x4, .f32⟩
  | 120 => ⟨S_, .f32⟩
  | 121 => ⟨S32768x4, .f32⟩
  | 122 => ⟨S32768x4, .f32⟩
  | 123 => ⟨S_, .f32⟩
  | 124 => ⟨S_, .f32⟩
  | 125 => ⟨S_, .f32⟩
  | 126 => ⟨S32768x4, .f32⟩
  | 127 => ⟨S32768x4, .f32⟩
  | _ => ⟨S32768x256, .f32⟩

abbrev hbmTy0_8 (i : Nat) : BufTy := match i % 128 with
  | 0 => ⟨S_, .f32⟩
  | 1 => ⟨S32768x4, .f32⟩
  | 2 => ⟨S32768x4, .f32⟩
  | 3 => ⟨S32768x4, .f32⟩
  | 4 => ⟨S32768x4, .f32⟩
  | 5 => ⟨S32768x4, .f32⟩
  | 6 => ⟨S32768x4, .f32⟩
  | 7 => ⟨S32768x4, .f32⟩
  | 8 => ⟨S32768x4, .f32⟩
  | 9 => ⟨S32768x4, .f32⟩
  | 10 => ⟨S32768x2, .f32⟩
  | 11 => ⟨S32768x2, .f32⟩
  | 12 => ⟨S_, .f32⟩
  | 13 => ⟨S_, .f32⟩
  | 14 => ⟨S_, .f32⟩
  | 15 => ⟨S32768x2, .f32⟩
  | 16 => ⟨S32768x2, .f32⟩
  | 17 => ⟨S_, .f32⟩
  | 18 => ⟨S32768x2, .f32⟩
  | 19 => ⟨S32768x2, .f32⟩
  | 20 => ⟨S_, .f32⟩
  | 21 => ⟨S_, .f32⟩
  | 22 => ⟨S_, .f32⟩
  | 23 => ⟨S32768x2, .f32⟩
  | 24 => ⟨S32768x2, .f32⟩
  | 25 => ⟨S_, .f32⟩
  | 26 => ⟨S32768x2, .f32⟩
  | 27 => ⟨S32768x2, .f32⟩
  | 28 => ⟨S32768x2, .f32⟩
  | 29 => ⟨S32768x2, .f32⟩
  | 30 => ⟨S32768x2, .f32⟩
  | 31 => ⟨S32768x2, .f32⟩
  | 32 => ⟨S32768x2, .f32⟩
  | 33 => ⟨S32768x2, .f32⟩
  | 34 => ⟨S32768x2, .f32⟩
  | 35 => ⟨S32768x1, .f32⟩
  | 36 => ⟨S32768x1, .f32⟩
  | 37 => ⟨S_, .f32⟩
  | 38 => ⟨S_, .f32⟩
  | 39 => ⟨S_, .f32⟩
  | 40 => ⟨S32768x1, .f32⟩
  | 41 => ⟨S32768x1, .f32⟩
  | 42 => ⟨S_, .f32⟩
  | 43 => ⟨S32768x1, .f32⟩
  | 44 => ⟨S32768x1, .f32⟩
  | 45 => ⟨S_, .f32⟩
  | 46 => ⟨S_, .f32⟩
  | 47 => ⟨S_, .f32⟩
  | 48 => ⟨S32768x1, .f32⟩
  | 49 => ⟨S32768x1, .f32⟩
  | 50 => ⟨S_, .f32⟩
  | 51 => ⟨S32768x1, .f32⟩
  | 52 => ⟨S32768x1, .f32⟩
  | 53 => ⟨S32768x1, .f32⟩
  | 54 => ⟨S32768x1, .f32⟩
  | 55 => ⟨S32768x1, .f32⟩
  | 56 => ⟨S32768x1, .f32⟩
  | 57 => ⟨S32768x1, .f32⟩
  | 58 => ⟨S32768x1, .f32⟩
  | 59 => ⟨S32768x1, .f32⟩
  | 60 => ⟨S_, .f32⟩
  | 61 => ⟨S32768x1, .f32⟩
  | 62 => ⟨S_, .f32⟩
  | 63 => ⟨S32768x1, .f32⟩
  | 64 => ⟨S32768x1, .f32⟩
  | 65 => ⟨S_, .f32⟩
  | 66 => ⟨S32768x1, .f32⟩
  | 67 => ⟨S32768x1, .f32⟩
  | 68 => ⟨S32768x1, .f32⟩
  | 69 => ⟨S32768x1, .f32⟩
  | 70 => ⟨S_, .f32⟩
  | 71 => ⟨S32768x1, .f32⟩
  | 72 => ⟨S32768x1, .i1⟩
  | 73 => ⟨S32768x1, .f32⟩
  | 74 => ⟨S32768x2, .f32⟩
  | 75 => ⟨S32768x2, .f32⟩
  | 76 => ⟨S_, .f32⟩
  | 77 => ⟨S32768x2, .f32⟩
  | 78 => ⟨S32768x2, .f32⟩
  | 79 => ⟨S_, .f32⟩
  | 80 => ⟨S32768x2, .f32⟩
  | 81 => ⟨S32768x2, .f32⟩
  | 82 => ⟨S32768x2, .f32⟩
  | 83 => ⟨S32768x2, .f32⟩
  | 84 => ⟨S32768x1, .f32⟩
  | 85 => ⟨S32768x1, .f32⟩
  | 86 => ⟨S_, .f32⟩
  | 87 => ⟨S_, .f32⟩
  | 88 => ⟨S_, .f32⟩
  | 89 => ⟨S32768x1, .f32⟩
  | 90 => ⟨S32768x1, .f32⟩
  | 91 => ⟨S_, .f32⟩
  | 92 => ⟨S32768x1, .f32⟩
  | 93 => ⟨S32768x1, .f32⟩
  | 94 => ⟨S_, .f32⟩
  | 95 => ⟨S_, .f32⟩
  | 96 => ⟨S_, .f32⟩
  | 97 => ⟨S32768x1, .f32⟩
  | 98 => ⟨S32768x1, .f32⟩
  | 99 => ⟨S_, .f32⟩
  | 100 => ⟨S32768x1, .f32⟩
  | 101 => ⟨S32768x1, .f32⟩
  | 102 => ⟨S32768x1, .f32⟩
  | 103 => ⟨S32768x1, .f32⟩
  | 104 => ⟨S32768x1, .f32⟩
  | 105 => ⟨S32768x1, .f32⟩
  | 106 => ⟨S32768x1, .f32⟩
  | 107 => ⟨S32768x1, .f32⟩
  | 108 => ⟨S32768x1, .f32⟩
  | 109 => ⟨S_, .f32⟩
  | 110 => ⟨S32768x1, .f32⟩
  | 111 => ⟨S_, .f32⟩
  | 112 => ⟨S32768x1, .f32⟩
  | 113 => ⟨S32768x1, .f32⟩
  | 114 => ⟨S_, .f32⟩
  | 115 => ⟨S32768x1, .f32⟩
  | 116 => ⟨S32768x1, .f32⟩
  | 117 => ⟨S32768x1, .f32⟩
  | 118 => ⟨S32768x1, .f32⟩
  | 119 => ⟨S_, .f32⟩
  | 120 => ⟨S32768x1, .f32⟩
  | 121 => ⟨S32768x1, .i1⟩
  | 122 => ⟨S32768x1, .f32⟩
  | 123 => ⟨S32768x2, .f32⟩
  | 124 => ⟨S32768x2, .f32⟩
  | 125 => ⟨S32768x2, .i1⟩
  | 126 => ⟨S32768x2, .f32⟩
  | 127 => ⟨S32768x4, .f32⟩
  | _ => ⟨S32768x256, .f32⟩

abbrev hbmTy0_9 (i : Nat) : BufTy := match i % 128 with
  | 0 => ⟨S32768x4, .f32⟩
  | 1 => ⟨S_, .f32⟩
  | 2 => ⟨S32768x4, .f32⟩
  | 3 => ⟨S32768x4, .f32⟩
  | 4 => ⟨S_, .f32⟩
  | 5 => ⟨S32768x4, .f32⟩
  | 6 => ⟨S32768x4, .f32⟩
  | 7 => ⟨S32768x4, .f32⟩
  | 8 => ⟨S32768x4, .f32⟩
  | 9 => ⟨S32768x2, .f32⟩
  | 10 => ⟨S32768x2, .f32⟩
  | 11 => ⟨S_, .f32⟩
  | 12 => ⟨S_, .f32⟩
  | 13 => ⟨S_, .f32⟩
  | 14 => ⟨S32768x2, .f32⟩
  | 15 => ⟨S32768x2, .f32⟩
  | 16 => ⟨S_, .f32⟩
  | 17 => ⟨S32768x2, .f32⟩
  | 18 => ⟨S32768x2, .f32⟩
  | 19 => ⟨S_, .f32⟩
  | 20 => ⟨S_, .f32⟩
  | 21 => ⟨S_, .f32⟩
  | 22 => ⟨S32768x2, .f32⟩
  | 23 => ⟨S32768x2, .f32⟩
  | 24 => ⟨S_, .f32⟩
  | 25 => ⟨S32768x2, .f32⟩
  | 26 => ⟨S32768x2, .f32⟩
  | 27 => ⟨S32768x2, .f32⟩
  | 28 => ⟨S32768x2, .f32⟩
  | 29 => ⟨S32768x2, .f32⟩
  | 30 => ⟨S32768x2, .f32⟩
  | 31 => ⟨S32768x2, .f32⟩
  | 32 => ⟨S32768x2, .f32⟩
  | 33 => ⟨S32768x2, .f32⟩
  | 34 => ⟨S32768x1, .f32⟩
  | 35 => ⟨S32768x1, .f32⟩
  | 36 => ⟨S_, .f32⟩
  | 37 => ⟨S_, .f32⟩
  | 38 => ⟨S_, .f32⟩
  | 39 => ⟨S32768x1, .f32⟩
  | 40 => ⟨S32768x1, .f32⟩
  | 41 => ⟨S_, .f32⟩
  | 42 => ⟨S32768x1, .f32⟩
  | 43 => ⟨S32768x1, .f32⟩
  | 44 => ⟨S_, .f32⟩
  | 45 => ⟨S_, .f32⟩
  | 46 => ⟨S_, .f32⟩
  | 47 => ⟨S32768x1, .f32⟩
  | 48 => ⟨S32768x1, .f32⟩
  | 49 => ⟨S_, .f32⟩
  | 50 => ⟨S32768x1, .f32⟩
  | 51 => ⟨S32768x1, .f32⟩
  | 52 => ⟨S32768x1, .f32⟩
  | 53 => ⟨S32768x1, .f32⟩
  | 54 => ⟨S32768x1, .f32⟩
  | 55 => ⟨S32768x1, .f32⟩
  | 56 => ⟨S32768x1, .f32⟩
  | 57 => ⟨S32768x1, .f32⟩
  | 58 => ⟨S32768x1, .f32⟩
  | 59 => ⟨S_, .f32⟩
  | 60 => ⟨S32768x1, .f32⟩
  | 61 => ⟨S_, .f32⟩
  | 62 => ⟨S32768x1, .f32⟩
  | 63 => ⟨S32768x1, .f32⟩
  | 64 => ⟨S_, .f32⟩
  | 65 => ⟨S32768x1, .f32⟩
  | 66 => ⟨S32768x1, .f32⟩
  | 67 => ⟨S32768x1, .f32⟩
  | 68 => ⟨S32768x1, .f32⟩
  | 69 => ⟨S_, .f32⟩
  | 70 => ⟨S32768x1, .f32⟩
  | 71 => ⟨S32768x1, .i1⟩
  | 72 => ⟨S32768x1, .f32⟩
  | 73 => ⟨S32768x2, .f32⟩
  | 74 => ⟨S32768x2, .f32⟩
  | 75 => ⟨S_, .f32⟩
  | 76 => ⟨S32768x2, .f32⟩
  | 77 => ⟨S32768x2, .f32⟩
  | 78 => ⟨S_, .f32⟩
  | 79 => ⟨S32768x2, .f32⟩
  | 80 => ⟨S32768x2, .f32⟩
  | 81 => ⟨S32768x2, .f32⟩
  | 82 => ⟨S32768x2, .f32⟩
  | 83 => ⟨S32768x1, .f32⟩
  | 84 => ⟨S32768x1, .f32⟩
  | 85 => ⟨S_, .f32⟩
  | 86 => ⟨S_, .f32⟩
  | 87 => ⟨S_, .f32⟩
  | 88 => ⟨S32768x1, .f32⟩
  | 89 => ⟨S32768x1, .f32⟩
  | 90 => ⟨S_, .f32⟩
  | 91 => ⟨S32768x1, .f32⟩
  | 92 => ⟨S32768x1, .f32⟩
  | 93 => ⟨S_, .f32⟩
  | 94 => ⟨S_, .f32⟩
  | 95 => ⟨S_, .f32⟩
  | 96 => ⟨S32768x1, .f32⟩
  | 97 => ⟨S32768x1, .f32⟩
  | 98 => ⟨S_, .f32⟩
  | 99 => ⟨S32768x1, .f32⟩
  | 100 => ⟨S32768x1, .f32⟩
  | 101 => ⟨S32768x1, .f32⟩
  | 102 => ⟨S32768x1, .f32⟩
  | 103 => ⟨S32768x1, .f32⟩
  | 104 => ⟨S32768x1, .f32⟩
  | 105 => ⟨S32768x1, .f32⟩
  | 106 => ⟨S32768x1, .f32⟩
  | 107 => ⟨S32768x1, .f32⟩
  | 108 => ⟨S_, .f32⟩
  | 109 => ⟨S32768x1, .f32⟩
  | 110 => ⟨S_, .f32⟩
  | 111 => ⟨S32768x1, .f32⟩
  | 112 => ⟨S32768x1, .f32⟩
  | 113 => ⟨S_, .f32⟩
  | 114 => ⟨S32768x1, .f32⟩
  | 115 => ⟨S32768x1, .f32⟩
  | 116 => ⟨S32768x1, .f32⟩
  | 117 => ⟨S32768x1, .f32⟩
  | 118 => ⟨S_, .f32⟩
  | 119 => ⟨S32768x1, .f32⟩
  | 120 => ⟨S32768x1, .i1⟩
  | 121 => ⟨S32768x1, .f32⟩
  | 122 => ⟨S32768x2, .f32⟩
  | 123 => ⟨S32768x2, .f32⟩
  | 124 => ⟨S32768x2, .i1⟩
  | 125 => ⟨S32768x2, .f32⟩
  | 126 => ⟨S32768x4, .f32⟩
  | 127 => ⟨S32768x4, .f32⟩
  | _ => ⟨S32768x256, .f32⟩

abbrev hbmTy0_10 (i : Nat) : BufTy := match i % 128 with
  | 0 => ⟨S32768x4, .i1⟩
  | 1 => ⟨S32768x4, .f32⟩
  | 2 => ⟨S32768x8, .f32⟩
  | 3 => ⟨S32768x8, .f32⟩
  | 4 => ⟨S32768x8, .i1⟩
  | 5 => ⟨S32768x8, .f32⟩
  | 6 => ⟨S32768x16, .f32⟩
  | 7 => ⟨S32768x16, .f32⟩
  | 8 => ⟨S32768x16, .i1⟩
  | 9 => ⟨S32768x16, .f32⟩
  | 10 => ⟨S32768x32, .f32⟩
  | 11 => ⟨S32768x32, .f32⟩
  | 12 => ⟨S_, .f32⟩
  | 13 => ⟨S32768x32, .f32⟩
  | 14 => ⟨S32768x32, .f32⟩
  | 15 => ⟨S_, .f32⟩
  | 16 => ⟨S32768x32, .f32⟩
  | 17 => ⟨S32768x32, .f32⟩
  | 18 => ⟨S32768x32, .f32⟩
  | 19 => ⟨S32768x32, .f32⟩
  | 20 => ⟨S32768x16, .f32⟩
  | 21 => ⟨S32768x16, .f32⟩
  | 22 => ⟨S_, .f32⟩
  | 23 => ⟨S_, .f32⟩
  | 24 => ⟨S_, .f32⟩
  | 25 => ⟨S32768x16, .f32⟩
  | 26 => ⟨S32768x16, .f32⟩
  | 27 => ⟨S_, .f32⟩
  | 28 => ⟨S32768x16, .f32⟩
  | 29 => ⟨S32768x16, .f32⟩
  | 30 => ⟨S_, .f32⟩
  | 31 => ⟨S_, .f32⟩
  | 32 => ⟨S_, .f32⟩
  | 33 => ⟨S32768x16, .f32⟩
  | 34 => ⟨S32768x16, .f32⟩
  | 35 => ⟨S_, .f32⟩
  | 36 => ⟨S32768x16, .f32⟩
  | 37 => ⟨S32768x16, .f32⟩
  | 38 => ⟨S32768x16, .f32⟩
  | 39 => ⟨S32768x16, .f32⟩
  | 40 => ⟨S32768x16, .f32⟩
  | 41 => ⟨S32768x16, .f32⟩
  | 42 => ⟨S32768x16, .f32⟩
  | 43 => ⟨S32768x16, .f32⟩
  | 44 => ⟨S32768x16, .f32⟩
  | 45 => ⟨S32768x8, .f32⟩
  | 46 => ⟨S32768x8, .f32⟩
  | 47 => ⟨S_, .f32⟩
  | 48 => ⟨S_, .f32⟩
  | 49 => ⟨S_, .f32⟩
  | 50 => ⟨S32768x8, .f32⟩
  | 51 => ⟨S32768x8, .f32⟩
  | 52 => ⟨S_, .f32⟩
  | 53 => ⟨S32768x8, .f32⟩
  | 54 => ⟨S32768x8, .f32⟩
  | 55 => ⟨S_, .f32⟩
  | 56 => ⟨S_, .f32⟩
  | 57 => ⟨S_, .f32⟩
  | 58 => ⟨S32768x8, .f32⟩
  | 59 => ⟨S32768x8, .f32⟩
  | 60 => ⟨S_, .f32⟩
  | 61 => ⟨S32768x8, .f32⟩
  | 62 => ⟨S32768x8, .f32⟩
  | 63 => ⟨S32768x8, .f32⟩
  | 64 => ⟨S32768x8, .f32⟩
  | 65 => ⟨S32768x8, .f32⟩
  | 66 => ⟨S32768x8, .f32⟩
  | 67 => ⟨S32768x8, .f32⟩
  | 68 => ⟨S32768x8, .f32⟩
  | 69 => ⟨S32768x8, .f32⟩
  | 70 => ⟨S32768x4, .f32⟩
  | 71 => ⟨S32768x4, .f32⟩
  | 72 => ⟨S_, .f32⟩
  | 73 => ⟨S_, .f32⟩
  | 74 => ⟨S_, .f32⟩
  | 75 => ⟨S32768x4, .f32⟩
  | 76 => ⟨S32768x4, .f32⟩
  | 77 => ⟨S_, .f32⟩
  | 78 => ⟨S32768x4, .f32⟩
  | 79 => ⟨S32768x4, .f32⟩
  | 80 => ⟨S_, .f32⟩
  | 81 => ⟨S_, .f32⟩
  | 82 => ⟨S_, .f32⟩
  | 83 => ⟨S32768x4, .f32⟩
  | 84 => ⟨S32768x4, .f32⟩
  | 85 => ⟨S_, .f32⟩
  | 86 => ⟨S32768x4, .f32⟩
  | 87 => ⟨S32768x4, .f32⟩
  | 88 => ⟨S32768x4, .f32⟩
  | 89 => ⟨S32768x4, .f32⟩
  | 90 => ⟨S32768x4, .f32⟩
  | 91 => ⟨S32768x4, .f32⟩
  | 92 => ⟨S32768x4, .f32⟩
  | 93 => ⟨S32768x4, .f32⟩
  | 94 => ⟨S32768x4, .f32⟩
  | 95 => ⟨S32768x2, .f32⟩
  | 96 => ⟨S32768x2, .f32⟩
  | 97 => ⟨S_, .f32⟩
  | 98 => ⟨S_, .f32⟩
  | 99 => ⟨S_, .f32⟩
  | 100 => ⟨S32768x2, .f32⟩
  | 101 => ⟨S32768x2, .f32⟩
  | 102 => ⟨S_, .f32⟩
  | 103 => ⟨S32768x2, .f32⟩
  | 104 => ⟨S32768x2, .f32⟩
  | 105 => ⟨S_, .f32⟩
  | 106 => ⟨S_, .f32⟩
  | 107 => ⟨S_, .f32⟩
  | 108 => ⟨S32768x2, .f32⟩
  | 109 => ⟨S32768x2, .f32⟩
  | 110 => ⟨S_, .f32⟩
  | 111 => ⟨S32768x2, .f32⟩
  | 112 => ⟨S32768x2, .f32⟩
  | 113 => ⟨S32768x2, .f32⟩
  | 114 => ⟨S32768x2, .f32⟩
  | 115 => ⟨S32768x2, .f32⟩
  | 116 => ⟨S32768x2, .f32⟩
  | 117 => ⟨S32768x2, .f32⟩
  | 118 => ⟨S32768x2, .f32⟩
  | 119 => ⟨S32768x2, .f32⟩
  | 120 => ⟨S32768x1, .f32⟩
  | 121 => ⟨S32768x1, .f32⟩
  | 122 => ⟨S_, .f32⟩
  | 123 => ⟨S_, .f32⟩
  | 124 => ⟨S_, .f32⟩
  | 125 => ⟨S32768x1, .f32⟩
  | 126 => ⟨S32768x1, .f32⟩
  | 127 => ⟨S_, .f32⟩
  | _ => ⟨S32768x256, .f32⟩

abbrev hbmTy0_11 (i : Nat) : BufTy := match i % 128 with
  | 0 => ⟨S32768x1, .f32⟩
  | 1 => ⟨S32768x1, .f32⟩
  | 2 => ⟨S_, .f32⟩
  | 3 => ⟨S_, .f32⟩
  | 4 => ⟨S_, .f32⟩
  | 5 => ⟨S32768x1, .f32⟩
  | 6 => ⟨S32768x1, .f32⟩
  | 7 => ⟨S_, .f32⟩
  | 8 => ⟨S32768x1, .f32⟩
  | 9 => ⟨S32768x1, .f32⟩
  | 10 => ⟨S32768x1, .f32⟩
  | 11 => ⟨S32768x1, .f32⟩
  | 12 => ⟨S32768x1, .f32⟩
  | 13 => ⟨S32768x1, .f32⟩
  | 14 => ⟨S32768x1, .f32⟩
  | 15 => ⟨S32768x1, .f32⟩
  | 16 => ⟨S32768x1, .f32⟩
  | 17 => ⟨S_, .f32⟩
  | 18 => ⟨S32768x1, .f32⟩
  | 19 => ⟨S_, .f32⟩
  | 20 => ⟨S32768x1, .f32⟩
  | 21 => ⟨S32768x1, .f32⟩
  | 22 => ⟨S_, .f32⟩
  | 23 => ⟨S32768x1, .f32⟩
  | 24 => ⟨S32768x1, .f32⟩
  | 25 => ⟨S32768x1, .f32⟩
  | 26 => ⟨S32768x1, .f32⟩
  | 27 => ⟨S_, .f32⟩
  | 28 => ⟨S32768x1, .f32⟩
  | 29 => ⟨S32768x1, .i1⟩
  | 30 => ⟨S32768x1, .f32⟩
  | 31 => ⟨S32768x2, .f32⟩
  | 32 => ⟨S32768x2, .f32⟩
  | 33 => ⟨S_, .f32⟩
  | 34 => ⟨S32768x2, .f32⟩
  | 35 => ⟨S32768x2, .f32⟩
  | 36 => ⟨S_, .f32⟩
  | 37 => ⟨S32768x2, .f32⟩
  | 38 => ⟨S32768x2, .f32⟩
  | 39 => ⟨S32768x2, .f32⟩
  | 40 => ⟨S32768x2, .f32⟩
  | 41 => ⟨S32768x1, .f32⟩
  | 42 => ⟨S32768x1, .f32⟩
  | 43 => ⟨S_, .f32⟩
  | 44 => ⟨S_, .f32⟩
  | 45 => ⟨S_, .f32⟩
  | 46 => ⟨S32768x1, .f32⟩
  | 47 => ⟨S32768x1, .f32⟩
  | 48 => ⟨S_, .f32⟩
  | 49 => ⟨S32768x1, .f32⟩
  | 50 => ⟨S32768x1, .f32⟩
  | 51 => ⟨S_, .f32⟩
  | 52 => ⟨S_, .f32⟩
  | 53 => ⟨S_, .f32⟩
  | 54 => ⟨S32768x1, .f32⟩
  | 55 => ⟨S32768x1, .f32⟩
  | 56 => ⟨S_, .f32⟩
  | 57 => ⟨S32768x1, .f32⟩
  | 58 => ⟨S32768x1, .f32⟩
  | 59 => ⟨S32768x1, .f32⟩
  | 60 => ⟨S32768x1, .f32⟩
  | 61 => ⟨S32768x1, .f32⟩
  | 62 => ⟨S32768x1, .f32⟩
  | 63 => ⟨S32768x1, .f32⟩
  | 64 => ⟨S32768x1, .f32⟩
  | 65 => ⟨S32768x1, .f32⟩
  | 66 => ⟨S_, .f32⟩
  | 67 => ⟨S32768x1, .f32⟩
  | 68 => ⟨S_, .f32⟩
  | 69 => ⟨S32768x1, .f32⟩
  | 70 => ⟨S32768x1, .f32⟩
  | 71 => ⟨S_, .f32⟩
  | 72 => ⟨S32768x1, .f32⟩
  | 73 => ⟨S32768x1, .f32⟩
  | 74 => ⟨S32768x1, .f32⟩
  | 75 => ⟨S32768x1, .f32⟩
  | 76 => ⟨S_, .f32⟩
  | 77 => ⟨S32768x1, .f32⟩
  | 78 => ⟨S32768x1, .i1⟩
  | 79 => ⟨S32768x1, .f32⟩
  | 80 => ⟨S32768x2, .f32⟩
  | 81 => ⟨S32768x2, .f32⟩
  | 82 => ⟨S32768x2, .i1⟩
  | 83 => ⟨S32768x2, .f32⟩
  | 84 => ⟨S32768x4, .f32⟩
  | 85 => ⟨S32768x4, .f32⟩
  | 86 => ⟨S_, .f32⟩
  | 87 => ⟨S32768x4, .f32⟩
  | 88 => ⟨S32768x4, .f32⟩
  | 89 => ⟨S_, .f32⟩
  | 90 => ⟨S32768x4, .f32⟩
  | 91 => ⟨S32768x4, .f32⟩
  | 92 => ⟨S32768x4, .f32⟩
  | 93 => ⟨S32768x4, .f32⟩
  | 94 => ⟨S32768x2, .f32⟩
  | 95 => ⟨S32768x2, .f32⟩
  | 96 => ⟨S_, .f32⟩
  | 97 => ⟨S_, .f32⟩
  | 98 => ⟨S_, .f32⟩
  | 99 => ⟨S32768x2, .f32⟩
  | 100 => ⟨S32768x2, .f32⟩
  | 101 => ⟨S_, .f32⟩
  | 102 => ⟨S32768x2, .f32⟩
  | 103 => ⟨S32768x2, .f32⟩
  | 104 => ⟨S_, .f32⟩
  | 105 => ⟨S_, .f32⟩
  | 106 => ⟨S_, .f32⟩
  | 107 => ⟨S32768x2, .f32⟩
  | 108 => ⟨S32768x2, .f32⟩
  | 109 => ⟨S_, .f32⟩
  | 110 => ⟨S32768x2, .f32⟩
  | 111 => ⟨S32768x2, .f32⟩
  | 112 => ⟨S32768x2, .f32⟩
  | 113 => ⟨S32768x2, .f32⟩
  | 114 => ⟨S32768x2, .f32⟩
  | 115 => ⟨S32768x2, .f32⟩
  | 116 => ⟨S32768x2, .f32⟩
  | 117 => ⟨S32768x2, .f32⟩
  | 118 => ⟨S32768x2, .f32⟩
  | 119 => ⟨S32768x1, .f32⟩
  | 120 => ⟨S32768x1, .f32⟩
  | 121 => ⟨S_, .f32⟩
  | 122 => ⟨S_, .f32⟩
  | 123 => ⟨S_, .f32⟩
  | 124 => ⟨S32768x1, .f32⟩
  | 125 => ⟨S32768x1, .f32⟩
  | 126 => ⟨S_, .f32⟩
  | 127 => ⟨S32768x1, .f32⟩
  | _ => ⟨S32768x256, .f32⟩

abbrev hbmTy0_12 (i : Nat) : BufTy := match i % 128 with
  | 0 => ⟨S32768x1, .f32⟩
  | 1 => ⟨S_, .f32⟩
  | 2 => ⟨S_, .f32⟩
  | 3 => ⟨S_, .f32⟩
  | 4 => ⟨S32768x1, .f32⟩
  | 5 => ⟨S32768x1, .f32⟩
  | 6 => ⟨S_, .f32⟩
  | 7 => ⟨S32768x1, .f32⟩
  | 8 => ⟨S32768x1, .f32⟩
  | 9 => ⟨S32768x1, .f32⟩
  | 10 => ⟨S32768x1, .f32⟩
  | 11 => ⟨S32768x1, .f32⟩
  | 12 => ⟨S32768x1, .f32⟩
  | 13 => ⟨S32768x1, .f32⟩
  | 14 => ⟨S32768x1, .f32⟩
  | 15 => ⟨S32768x1, .f32⟩
  | 16 => ⟨S_, .f32⟩
  | 17 => ⟨S32768x1, .f32⟩
  | 18 => ⟨S_, .f32⟩
  | 19 => ⟨S32768x1, .f32⟩
  | 20 => ⟨S32768x1, .f32⟩
  | 21 => ⟨S_, .f32⟩
  | 22 => ⟨S32768x1, .f32⟩
  | 23 => ⟨S32768x1, .f32⟩
  | 24 => ⟨S32768x1, .f32⟩
  | 25 => ⟨S32768x1, .f32⟩
  | 26 => ⟨S_, .f32⟩
  | 27 => ⟨S32768x1, .f32⟩
  | 28 => ⟨S32768x1, .i1⟩
  | 29 => ⟨S32768x1, .f32⟩
  | 30 => ⟨S32768x2, .f32⟩
  | 31 => ⟨S32768x2, .f32⟩
  | 32 => ⟨S_, .f32⟩
  | 33 => ⟨S32768x2, .f32⟩
  | 34 => ⟨S32768x2, .f32⟩
  | 35 => ⟨S_, .f32⟩
  | 36 => ⟨S32768x2, .f32⟩
  | 37 => ⟨S32768x2, .f32⟩
  | 38 => ⟨S32768x2, .f32⟩
  | 39 => ⟨S32768x2, .f32⟩
  | 40 => ⟨S32768x1, .f32⟩
  | 41 => ⟨S32768x1, .f32⟩
  | 42 => ⟨S_, .f32⟩
  | 43 => ⟨S_, .f32⟩
  | 44 => ⟨S_, .f32⟩
  | 45 => ⟨S32768x1, .f32⟩
  | 46 => ⟨S32768x1, .f32⟩
  | 47 => ⟨S_, .f32⟩
  | 48 => ⟨S32768x1, .f32⟩
  | 49 => ⟨S32768x1, .f32⟩
  | 50 => ⟨S_, .f32⟩
  | 51 => ⟨S_, .f32⟩
  | 52 => ⟨S_, .f32⟩
  | 53 => ⟨S32768x1, .f32⟩
  | 54 => ⟨S32768x1, .f32⟩
  | 55 => ⟨S_, .f32⟩
  | 56 => ⟨S32768x1, .f32⟩
  | 57 => ⟨S32768x1, .f32⟩
  | 58 => ⟨S32768x1, .f32⟩
  | 59 => ⟨S32768x1, .f32⟩
  | 60 => ⟨S32768x1, .f32⟩
  | 61 => ⟨S32768x1, .f32⟩
  | 62 => ⟨S32768x1, .f32⟩
  | 63 => ⟨S32768x1, .f32⟩
  | 64 => ⟨S32768x1, .f32⟩
  | 65 => ⟨S_, .f32⟩
  | 66 => ⟨S32768x1, .f32⟩
  | 67 => ⟨S_, .f32⟩
  | 68 => ⟨S32768x1, .f32⟩
  | 69 => ⟨S32768x1, .f32⟩
  | 70 => ⟨S_, .f32⟩
  | 71 => ⟨S32768x1, .f32⟩
  | 72 => ⟨S32768x1, .f32⟩
  | 73 => ⟨S32768x1, .f32⟩
  | 74 => ⟨S32768x1, .f32⟩
  | 75 => ⟨S_, .f32⟩
  | 76 => ⟨S32768x1, .f32⟩
  | 77 => ⟨S32768x1, .i1⟩
  | 78 => ⟨S32768x1, .f32⟩
  | 79 => ⟨S32768x2, .f32⟩
  | 80 => ⟨S32768x2, .f32⟩
  | 81 => ⟨S32768x2, .i1⟩
  | 82 => ⟨S32768x2, .f32⟩
  | 83 => ⟨S32768x4, .f32⟩
  | 84 => ⟨S32768x4, .f32⟩
  | 85 => ⟨S32768x4, .i1⟩
  | 86 => ⟨S32768x4, .f32⟩
  | 87 => ⟨S32768x8, .f32⟩
  | 88 => ⟨S32768x8, .f32⟩
  | 89 => ⟨S_, .f32⟩
  | 90 => ⟨S32768x8, .f32⟩
  | 91 => ⟨S32768x8, .f32⟩
  | 92 => ⟨S_, .f32⟩
  | 93 => ⟨S32768x8, .f32⟩
  | 94 => ⟨S32768x8, .f32⟩
  | 95 => ⟨S32768x8, .f32⟩
  | 96 => ⟨S32768x8, .f32⟩
  | 97 => ⟨S32768x4, .f32⟩
  | 98 => ⟨S32768x4, .f32⟩
  | 99 => ⟨S_, .f32⟩
  | 100 => ⟨S_, .f32⟩
  | 101 => ⟨S_, .f32⟩
  | 102 => ⟨S32768x4, .f32⟩
  | 103 => ⟨S32768x4, .f32⟩
  | 104 => ⟨S_, .f32⟩
  | 105 => ⟨S32768x4, .f32⟩
  | 106 => ⟨S32768x4, .f32⟩
  | 107 => ⟨S_, .f32⟩
  | 108 => ⟨S_, .f32⟩
  | 109 => ⟨S_, .f32⟩
  | 110 => ⟨S32768x4, .f32⟩
  | 111 => ⟨S32768x4, .f32⟩
  | 112 => ⟨S_, .f32⟩
  | 113 => ⟨S32768x4, .f32⟩
  | 114 => ⟨S32768x4, .f32⟩
  | 115 => ⟨S32768x4, .f32⟩
  | 116 => ⟨S32768x4, .f32⟩
  | 117 => ⟨S32768x4, .f32⟩
  | 118 => ⟨S32768x4, .f32⟩
  | 119 => ⟨S32768x4, .f32⟩
  | 120 => ⟨S32768x4, .f32⟩
  | 121 => ⟨S32768x4, .f32⟩
  | 122 => ⟨S32768x2, .f32⟩
  | 123 => ⟨S32768x2, .f32⟩
  | 124 => ⟨S_, .f32⟩
  | 125 => ⟨S_, .f32⟩
  | 126 => ⟨S_, .f32⟩
  | 127 => ⟨S32768x2, .f32⟩
  | _ => ⟨S32768x256, .f32⟩

abbrev hbmTy0_13 (i : Nat) : BufTy := match i % 128 with
  | 0 => ⟨S32768x2, .f32⟩
  | 1 => ⟨S_, .f32⟩
  | 2 => ⟨S32768x2, .f32⟩
  | 3 => ⟨S32768x2, .f32⟩
  | 4 => ⟨S_, .f32⟩
  | 5 => ⟨S_, .f32⟩
  | 6 => ⟨S_, .f32⟩
  | 7 => ⟨S32768x2, .f32⟩
  | 8 => ⟨S32768x2, .f32⟩
  | 9 => ⟨S_, .f32⟩
  | 10 => ⟨S32768x2, .f32⟩
  | 11 => ⟨S32768x2, .f32⟩
  | 12 => ⟨S32768x2, .f32⟩
  | 13 => ⟨S32768x2, .f32⟩
  | 14 => ⟨S32768x2, .f32⟩
  | 15 => ⟨S32768x2, .f32⟩
  | 16 => ⟨S32768x2, .f32⟩
  | 17 => ⟨S32768x2, .f32⟩
  | 18 => ⟨S32768x2, .f32⟩
  | 19 => ⟨S32768x1, .f32⟩
  | 20 => ⟨S32768x1, .f32⟩
  | 21 => ⟨S_, .f32⟩
  | 22 => ⟨S_, .f32⟩
  | 23 => ⟨S_, .f32⟩
  | 24 => ⟨S32768x1, .f32⟩
  | 25 => ⟨S32768x1, .f32⟩
  | 26 => ⟨S_, .f32⟩
  | 27 => ⟨S32768x1, .f32⟩
  | 28 => ⟨S32768x1, .f32⟩
  | 29 => ⟨S_, .f32⟩
  | 30 => ⟨S_, .f32⟩
  | 31 => ⟨S_, .f32⟩
  | 32 => ⟨S32768x1, .f32⟩
  | 33 => ⟨S32768x1, .f32⟩
  | 34 => ⟨S_, .f32⟩
  | 35 => ⟨S32768x1, .f32⟩
  | 36 => ⟨S32768x1, .f32⟩
  | 37 => ⟨S32768x1, .f32⟩
  | 38 => ⟨S32768x1, .f32⟩
  | 39 => ⟨S32768x1, .f32⟩
  | 40 => ⟨S32768x1, .f32⟩
  | 41 => ⟨S32768x1, .f32⟩
  | 42 => ⟨S32768x1, .f32⟩
  | 43 => ⟨S32768x1, .f32⟩
  | 44 => ⟨S_, .f32⟩
  | 45 => ⟨S32768x1, .f32⟩
  | 46 => ⟨S_, .f32⟩
  | 47 => ⟨S32768x1, .f32⟩
  | 48 => ⟨S32768x1, .f32⟩
  | 49 => ⟨S_, .f32⟩
  | 50 => ⟨S32768x1, .f32⟩
  | 51 => ⟨S32768x1, .f32⟩
  | 52 => ⟨S32768x1, .f32⟩
  | 53 => ⟨S32768x1, .f32⟩
  | 54 => ⟨S_, .f32⟩
  | 55 => ⟨S32768x1, .f32⟩
  | 56 => ⟨S32768x1, .i1⟩
  | 57 => ⟨S32768x1, .f32⟩
  | 58 => ⟨S32768x2, .f32⟩
  | 59 => ⟨S32768x2, .f32⟩
  | 60 => ⟨S_, .f32⟩
  | 61 => ⟨S32768x2, .f32⟩
  | 62 => ⟨S32768x2, .f32⟩
  | 63 => ⟨S_, .f32⟩
  | 64 => ⟨S32768x2, .f32⟩
  | 65 => ⟨S32768x2, .f32⟩
  | 66 => ⟨S32768x2, .f32⟩
  | 67 => ⟨S32768x2, .f32⟩
  | 68 => ⟨S32768x1, .f32⟩
  | 69 => ⟨S32768x1, .f32⟩
  | 70 => ⟨S_, .f32⟩
  | 71 => ⟨S_, .f32⟩
  | 72 => ⟨S_, .f32⟩
  | 73 => ⟨S32768x1, .f32⟩
  | 74 => ⟨S32768x1, .f32⟩
  | 75 => ⟨S_, .f32⟩
  | 76 => ⟨S32768x1, .f32⟩
  | 77 => ⟨S32768x1, .f32⟩
  | 78 => ⟨S_, .f32⟩
  | 79 => ⟨S_, .f32⟩
  | 80 => ⟨S_, .f32⟩
  | 81 => ⟨S32768x1, .f32⟩
  | 82 => ⟨S32768x1, .f32⟩
  | 83 => ⟨S_, .f32⟩
  | 84 => ⟨S32768x1, .f32⟩
  | 85 => ⟨S32768x1, .f32⟩
  | 86 => ⟨S32768x1, .f32⟩
  | 87 => ⟨S32768x1, .f32⟩
  | 88 => ⟨S32768x1, .f32⟩
  | 89 => ⟨S32768x1, .f32⟩
  | 90 => ⟨S32768x1, .f32⟩
  | 91 => ⟨S32768x1, .f32⟩
  | 92 => ⟨S32768x1, .f32⟩
  | 93 => ⟨S_, .f32⟩
  | 94 => ⟨S32768x1, .f32⟩
  | 95 => ⟨S_, .f32⟩
  | 96 => ⟨S32768x1, .f32⟩
  | 97 => ⟨S32768x1, .f32⟩
  | 98 => ⟨S_, .f32⟩
  | 99 => ⟨S32768x1, .f32⟩
  | 100 => ⟨S32768x1, .f32⟩
  | 101 => ⟨S32768x1, .f32⟩
  | 102 => ⟨S32768x1, .f32⟩
  | 103 => ⟨S_, .f32⟩
  | 104 => ⟨S32768x1, .f32⟩
  | 105 => ⟨S32768x1, .i1⟩
  | 106 => ⟨S32768x1, .f32⟩
  | 107 => ⟨S32768x2, .f32⟩
  | 108 => ⟨S32768x2, .f32⟩
  | 109 => ⟨S32768x2, .i1⟩
  | 110 => ⟨S32768x2, .f32⟩
  | 111 => ⟨S32768x4, .f32⟩
  | 112 => ⟨S32768x4, .f32⟩
  | 113 => ⟨S_, .f32⟩
  | 114 => ⟨S32768x4, .f32⟩
  | 115 => ⟨S32768x4, .f32⟩
  | 116 => ⟨S_, .f32⟩
  | 117 => ⟨S32768x4, .f32⟩
  | 118 => ⟨S32768x4, .f32⟩
  | 119 => ⟨S32768x4, .f32⟩
  | 120 => ⟨S32768x4, .f32⟩
  | 121 => ⟨S32768x2, .f32⟩
  | 122 => ⟨S32768x2, .f32⟩
  | 123 => ⟨S_, .f32⟩
  | 124 => ⟨S_, .f32⟩
  | 125 => ⟨S_, .f32⟩
  | 126 => ⟨S32768x2, .f32⟩
  | 127 => ⟨S32768x2, .f32⟩
  | _ => ⟨S32768x256, .f32⟩

abbrev hbmTy0_14 (i : Nat) : BufTy := match i % 128 with
  | 0 => ⟨S_, .f32⟩
  | 1 => ⟨S32768x2, .f32⟩
  | 2 => ⟨S32768x2, .f32⟩
  | 3 => ⟨S_, .f32⟩
  | 4 => ⟨S_, .f32⟩
  | 5 => ⟨S_, .f32⟩
  | 6 => ⟨S32768x2, .f32⟩
  | 7 => ⟨S32768x2, .f32⟩
  | 8 => ⟨S_, .f32⟩
  | 9 => ⟨S32768x2, .f32⟩
  | 10 => ⟨S32768x2, .f32⟩
  | 11 => ⟨S32768x2, .f32⟩
  | 12 => ⟨S32768x2, .f32⟩
  | 13 => ⟨S32768x2, .f32⟩
  | 14 => ⟨S32768x2, .f32⟩
  | 15 => ⟨S32768x2, .f32⟩
  | 16 => ⟨S32768x2, .f32⟩
  | 17 => ⟨S32768x2, .f32⟩
  | 18 => ⟨S32768x1, .f32⟩
  | 19 => ⟨S32768x1, .f32⟩
  | 20 => ⟨S_, .f32⟩
  | 21 => ⟨S_, .f32⟩
  | 22 => ⟨S_, .f32⟩
  | 23 => ⟨S32768x1, .f32⟩
  | 24 => ⟨S32768x1, .f32⟩
  | 25 => ⟨S_, .f32⟩
  | 26 => ⟨S32768x1, .f32⟩
  | 27 => ⟨S32768x1, .f32⟩
  | 28 => ⟨S_, .f32⟩
  | 29 => ⟨S_, .f32⟩
  | 30 => ⟨S_, .f32⟩
  | 31 => ⟨S32768x1, .f32⟩
  | 32 => ⟨S32768x1, .f32⟩
  | 33 => ⟨S_, .f32⟩
  | 34 => ⟨S32768x1, .f32⟩
  | 35 => ⟨S32768x1, .f32⟩
  | 36 => ⟨S32768x1, .f32⟩
  | 37 => ⟨S32768x1, .f32⟩
  | 38 => ⟨S32768x1, .f32⟩
  | 39 => ⟨S32768x1, .f32⟩
  | 40 => ⟨S32768x1, .f32⟩
  | 41 => ⟨S32768x1, .f32⟩
  | 42 => ⟨S32768x1, .f32⟩
  | 43 => ⟨S_, .f32⟩
  | 44 => ⟨S32768x1, .f32⟩
  | 45 => ⟨S_, .f32⟩
  | 46 => ⟨S32768x1, .f32⟩
  | 47 => ⟨S32768x1, .f32⟩
  | 48 => ⟨S_, .f32⟩
  | 49 => ⟨S32768x1, .f32⟩
  | 50 => ⟨S32768x1, .f32⟩
  | 51 => ⟨S32768x1, .f32⟩
  | 52 => ⟨S32768x1, .f32⟩
  | 53 => ⟨S_, .f32⟩
  | 54 => ⟨S32768x1, .f32⟩
  | 55 => ⟨S32768x1, .i1⟩
  | 56 => ⟨S32768x1, .f32⟩
  | 57 => ⟨S32768x2, .f32⟩
  | 58 => ⟨S32768x2, .f32⟩
  | 59 => ⟨S_, .f32⟩
  | 60 => ⟨S32768x2, .f32⟩
  | 61 => ⟨S32768x2, .f32⟩
  | 62 => ⟨S_, .f32⟩
  | 63 => ⟨S32768x2, .f32⟩
  | 64 => ⟨S32768x2, .f32⟩
  | 65 => ⟨S32768x2, .f32⟩
  | 66 => ⟨S32768x2, .f32⟩
  | 67 => ⟨S32768x1, .f32⟩
  | 68 => ⟨S32768x1, .f32⟩
  | 69 => ⟨S_, .f32⟩
  | 70 => ⟨S_, .f32⟩
  | 71 => ⟨S_, .f32⟩
  | 72 => ⟨S32768x1, .f32⟩
  | 73 => ⟨S32768x1, .f32⟩
  | 74 => ⟨S_, .f32⟩
  | 75 => ⟨S32768x1, .f32⟩
  | 76 => ⟨S32768x1, .f32⟩
  | 77 => ⟨S_, .f32⟩
  | 78 => ⟨S_, .f32⟩
  | 79 => ⟨S_, .f32⟩
  | 80 => ⟨S32768x1, .f32⟩
  | 81 => ⟨S32768x1, .f32⟩
  | 82 => ⟨S_, .f32⟩
  | 83 => ⟨S32768x1, .f32⟩
  | 84 => ⟨S32768x1, .f32⟩
  | 85 => ⟨S32768x1, .f32⟩
  | 86 => ⟨S32768x1, .f32⟩
  | 87 => ⟨S32768x1, .f32⟩
  | 88 => ⟨S32768x1, .f32⟩
  | 89 => ⟨S32768x1, .f32⟩
  | 90 => ⟨S32768x1, .f32⟩
  | 91 => ⟨S32768x1, .f32⟩
  | 92 => ⟨S_, .f32⟩
  | 93 => ⟨S32768x1, .f32⟩
  | 94 => ⟨S_, .f32⟩
  | 95 => ⟨S32768x1, .f32⟩
  | 96 => ⟨S32768x1, .f32⟩
  | 97 => ⟨S_, .f32⟩
  | 98 => ⟨S32768x1, .f32⟩
  | 99 => ⟨S32768x1, .f32⟩
  | 100 => ⟨S32768x1, .f32⟩
  | 101 => ⟨S32768x1, .f32⟩
  | 102 => ⟨S_, .f32⟩
  | 103 => ⟨S32768x1, .f32⟩
  | 104 => ⟨S32768x1, .i1⟩
  | 105 => ⟨S32768x1, .f32⟩
  | 106 => ⟨S32768x2, .f32⟩
  | 107 => ⟨S32768x2, .f32⟩
  | 108 => ⟨S32768x2, .i1⟩
  | 109 => ⟨S32768x2, .f32⟩
  | 110 => ⟨S32768x4, .f32⟩
  | 111 => ⟨S32768x4, .f32⟩
  | 112 => ⟨S32768x4, .i1⟩
  | 113 => ⟨S32768x4, .f32⟩
  | 114 => ⟨S32768x8, .f32⟩
  | 115 => ⟨S32768x8, .f32⟩
  | 116 => ⟨S32768x8, .i1⟩
  | 117 => ⟨S32768x8, .f32⟩
  | 118 => ⟨S32768x16, .f32⟩
  | 119 => ⟨S32768x16, .f32⟩
  | 120 => ⟨S_, .f32⟩
  | 121 => ⟨S32768x16, .f32⟩
  | 122 => ⟨S32768x16, .f32⟩
  | 123 => ⟨S_, .f32⟩
  | 124 => ⟨S32768x16, .f32⟩
  | 125 => ⟨S32768x16, .f32⟩
  | 126 => ⟨S32768x16, .f32⟩
  | 127 => ⟨S32768x16, .f32⟩
  | _ => ⟨S32768x256, .f32⟩

abbrev hbmTy0_15 (i : Nat) : BufTy := match i % 128 with
  | 0 => ⟨S32768x8, .f32⟩
  | 1 => ⟨S32768x8, .f32⟩
  | 2 => ⟨S_, .f32⟩
  | 3 => ⟨S_, .f32⟩
  | 4 => ⟨S_, .f32⟩
  | 5 => ⟨S32768x8, .f32⟩
  | 6 => ⟨S32768x8, .f32⟩
  | 7 => ⟨S_, .f32⟩
  | 8 => ⟨S32768x8, .f32⟩
  | 9 => ⟨S32768x8, .f32⟩
  | 10 => ⟨S_, .f32⟩
  | 11 => ⟨S_, .f32⟩
  | 12 => ⟨S_, .f32⟩
  | 13 => ⟨S32768x8, .f32⟩
  | 14 => ⟨S32768x8, .f32⟩
  | 15 => ⟨S_, .f32⟩
  | 16 => ⟨S32768x8, .f32⟩
  | 17 => ⟨S32768x8, .f32⟩
  | 18 => ⟨S32768x8, .f32⟩
  | 19 => ⟨S32768x8, .f32⟩
  | 20 => ⟨S32768x8, .f32⟩
  | 21 => ⟨S32768x8, .f32⟩
  | 22 => ⟨S32768x8, .f32⟩
  | 23 => ⟨S32768x8, .f32⟩
  | 24 => ⟨S32768x8, .f32⟩
  | 25 => ⟨S32768x4, .f32⟩
  | 26 => ⟨S32768x4, .f32⟩
  | 27 => ⟨S_, .f32⟩
  | 28 => ⟨S_, .f32⟩
  | 29 => ⟨S_, .f32⟩
  | 30 => ⟨S32768x4, .f32⟩
  | 31 => ⟨S32768x4, .f32⟩
  | 32 => ⟨S_, .f32⟩
  | 33 => ⟨S32768x4, .f32⟩
  | 34 => ⟨S32768x4, .f32⟩
  | 35 => ⟨S_, .f32⟩
  | 36 => ⟨S_, .f32⟩
  | 37 => ⟨S_, .f32⟩
  | 38 => ⟨S32768x4, .f32⟩
  | 39 => ⟨S32768x4, .f32⟩
  | 40 => ⟨S_, .f32⟩
  | 41 => ⟨S32768x4, .f32⟩
  | 42 => ⟨S32768x4, .f32⟩
  | 43 => ⟨S32768x4, .f32⟩
  | 44 => ⟨S32768x4, .f32⟩
  | 45 => ⟨S32768x4, .f32⟩
  | 46 => ⟨S32768x4, .f32⟩
  | 47 => ⟨S32768x4, .f32⟩
  | 48 => ⟨S32768x4, .f32⟩
  | 49 => ⟨S32768x4, .f32⟩
  | 50 => ⟨S32768x2, .f32⟩
  | 51 => ⟨S32768x2, .f32⟩
  | 52 => ⟨S_, .f32⟩
  | 53 => ⟨S_, .f32⟩
  | 54 => ⟨S_, .f32⟩
  | 55 => ⟨S32768x2, .f32⟩
  | 56 => ⟨S32768x2, .f32⟩
  | 57 => ⟨S_, .f32⟩
  | 58 => ⟨S32768x2, .f32⟩
  | 59 => ⟨S32768x2, .f32⟩
  | 60 => ⟨S_, .f32⟩
  | 61 => ⟨S_, .f32⟩
  | 62 => ⟨S_, .f32⟩
  | 63 => ⟨S32768x2, .f32⟩
  | 64 => ⟨S32768x2, .f32⟩
  | 65 => ⟨S_, .f32⟩
  | 66 => ⟨S32768x2, .f32⟩
  | 67 => ⟨S32768x2, .f32⟩
  | 68 => ⟨S32768x2, .f32⟩
  | 69 => ⟨S32768x2, .f32⟩
  | 70 => ⟨S32768x2, .f32⟩
  | 71 => ⟨S32768x2, .f32⟩
  | 72 => ⟨S32768x2, .f32⟩
  | 73 => ⟨S32768x2, .f32⟩
  | 74 => ⟨S32768x2, .f32⟩
  | 75 => ⟨S32768x1, .f32⟩
  | 76 => ⟨S32768x1, .f32⟩
  | 77 => ⟨S_, .f32⟩
  | 78 => ⟨S_, .f32⟩
  | 79 => ⟨S_, .f32⟩
  | 80 => ⟨S32768x1, .f32⟩
  | 81 => ⟨S32768x1, .f32⟩
  | 82 => ⟨S_, .f32⟩
  | 83 => ⟨S32768x1, .f32⟩
  | 84 => ⟨S32768x1, .f32⟩
  | 85 => ⟨S_, .f32⟩
  | 86 => ⟨S_, .f32⟩
  | 87 => ⟨S_, .f32⟩
  | 88 => ⟨S32768x1, .f32⟩
  | 89 => ⟨S32768x1, .f32⟩
  | 90 => ⟨S_, .f32⟩
  | 91 => ⟨S32768x1, .f32⟩
  | 92 => ⟨S32768x1, .f32⟩
  | 93 => ⟨S32768x1, .f32⟩
  | 94 => ⟨S32768x1, .f32⟩
  | 95 => ⟨S32768x1, .f32⟩
  | 96 => ⟨S32768x1, .f32⟩
  | 97 => ⟨S32768x1, .f32⟩
  | 98 => ⟨S32768x1, .f32⟩
  | 99 => ⟨S32768x1, .f32⟩
  | 100 => ⟨S_, .f32⟩
  | 101 => ⟨S32768x1, .f32⟩
  | 102 => ⟨S_, .f32⟩
  | 103 => ⟨S32768x1, .f32⟩
  | 104 => ⟨S32768x1, .f32⟩
  | 105 => ⟨S_, .f32⟩
  | 106 => ⟨S32768x1, .f32⟩
  | 107 => ⟨S32768x1, .f32⟩
  | 108 => ⟨S32768x1, .f32⟩
  | 109 => ⟨S32768x1, .f32⟩
  | 110 => ⟨S_, .f32⟩
  | 111 => ⟨S32768x1, .f32⟩
  | 112 => ⟨S32768x1, .i1⟩
  | 113 => ⟨S32768x1, .f32⟩
  | 114 => ⟨S32768x2, .f32⟩
  | 115 => ⟨S32768x2, .f32⟩
  | 116 => ⟨S_, .f32⟩
  | 117 => ⟨S32768x2, .f32⟩
  | 118 => ⟨S32768x2, .f32⟩
  | 119 => ⟨S_, .f32⟩
  | 120 => ⟨S32768x2, .f32⟩
  | 121 => ⟨S32768x2, .f32⟩
  | 122 => ⟨S32768x2, .f32⟩
  | 123 => ⟨S32768x2, .f32⟩
  | 124 => ⟨S32768x1, .f32⟩
  | 125 => ⟨S32768x1, .f32⟩
  | 126 => ⟨S_, .f32⟩
  | 127 => ⟨S_, .f32⟩
  | _ => ⟨S32768x256, .f32⟩

abbrev hbmTy0_16 (i : Nat) : BufTy := match i % 128 with
  | 0 => ⟨S_, .f32⟩
  | 1 => ⟨S32768x1, .f32⟩
  | 2 => ⟨S32768x1, .f32⟩
  | 3 => ⟨S_, .f32⟩
  | 4 => ⟨S32768x1, .f32⟩
  | 5 => ⟨S32768x1, .f32⟩
  | 6 => ⟨S_, .f32⟩
  | 7 => ⟨S_, .f32⟩
  | 8 => ⟨S_, .f32⟩
  | 9 => ⟨S32768x1, .f32⟩
  | 10 => ⟨S32768x1, .f32⟩
  | 11 => ⟨S_, .f32⟩
  | 12 => ⟨S32768x1, .f32⟩
  | 13 => ⟨S32768x1, .f32⟩
  | 14 => ⟨S32768x1, .f32⟩
  | 15 => ⟨S32768x1, .f32⟩
  | 16 => ⟨S32768x1, .f32⟩
  | 17 => ⟨S32768x1, .f32⟩
  | 18 => ⟨S32768x1, .f32⟩
  | 19 => ⟨S32768x1, .f32⟩
  | 20 => ⟨S32768x1, .f32⟩
  | 21 => ⟨S_, .f32⟩
  | 22 => ⟨S32768x1, .f32⟩
  | 23 => ⟨S_, .f32⟩
  | 24 => ⟨S32768x1, .f32⟩
  | 25 => ⟨S32768x1, .f32⟩
  | 26 => ⟨S_, .f32⟩
  | 27 => ⟨S32768x1, .f32⟩
  | 28 => ⟨S32768x1, .f32⟩
  | 29 => ⟨S32768x1, .f32⟩
  | 30 => ⟨S32768x1, .f32⟩
  | 31 => ⟨S_, .f32⟩
  | 32 => ⟨S32768x1, .f32⟩
  | 33 => ⟨S32768x1, .i1⟩
  | 34 => ⟨S32768x1, .f32⟩
  | 35 => ⟨S32768x2, .f32⟩
  | 36 => ⟨S32768x2, .f32⟩
  | 37 => ⟨S32768x2, .i1⟩
  | 38 => ⟨S32768x2, .f32⟩
  | 39 => ⟨S32768x4, .f32⟩
  | 40 => ⟨S32768x4, .f32⟩
  | 41 => ⟨S_, .f32⟩
  | 42 => ⟨S32768x4, .f32⟩
  | 43 => ⟨S32768x4, .f32⟩
  | 44 => ⟨S_, .f32⟩
  | 45 => ⟨S32768x4, .f32⟩
  | 46 => ⟨S32768x4, .f32⟩
  | 47 => ⟨S32768x4, .f32⟩
  | 48 => ⟨S32768x4, .f32⟩
  | 49 => ⟨S32768x2, .f32⟩
  | 50 => ⟨S32768x2, .f32⟩
  | 51 => ⟨S_, .f32⟩
  | 52 => ⟨S_, .f32⟩
  | 53 => ⟨S_, .f32⟩
  | 54 => ⟨S32768x2, .f32⟩
  | 55 => ⟨S32768x2, .f32⟩
  | 56 => ⟨S_, .f32⟩
  | 57 => ⟨S32768x2, .f32⟩
  | 58 => ⟨S32768x2, .f32⟩
  | 59 => ⟨S_, .f32⟩
  | 60 => ⟨S_, .f32⟩
  | 61 => ⟨S_, .f32⟩
  | 62 => ⟨S32768x2, .f32⟩
  | 63 => ⟨S32768x2, .f32⟩
  | 64 => ⟨S_, .f32⟩
  | 65 => ⟨S32768x2, .f32⟩
  | 66 => ⟨S32768x2, .f32⟩
  | 67 => ⟨S32768x2, .f32⟩
  | 68 => ⟨S32768x2, .f32⟩
  | 69 => ⟨S32768x2, .f32⟩
  | 70 => ⟨S32768x2, .f32⟩
  | 71 => ⟨S32768x2, .f32⟩
  | 72 => ⟨S32768x2, .f32⟩
  | 73 => ⟨S32768x2, .f32⟩
  | 74 => ⟨S32768x1, .f32⟩
  | 75 => ⟨S32768x1, .f32⟩
  | 76 => ⟨S_, .f32⟩
  | 77 => ⟨S_, .f32⟩
  | 78 => ⟨S_, .f32⟩
  | 79 => ⟨S32768x1, .f32⟩
  | 80 => ⟨S32768x1, .f32⟩
  | 81 => ⟨S_, .f32⟩
  | 82 => ⟨S32768x1, .f32⟩
  | 83 => ⟨S32768x1, .f32⟩
  | 84 => ⟨S_, .f32⟩
  | 85 => ⟨S_, .f32⟩
  | 86 => ⟨S_, .f32⟩
  | 87 => ⟨S32768x1, .f32⟩
  | 88 => ⟨S32768x1, .f32⟩
  | 89 => ⟨S_, .f32⟩
  | 90 => ⟨S32768x1, .f32⟩
  | 91 => ⟨S32768x1, .f32⟩
  | 92 => ⟨S32768x1, .f32⟩
  | 93 => ⟨S32768x1, .f32⟩
  | 94 => ⟨S32768x1, .f32⟩
  | 95 => ⟨S32768x1, .f32⟩
  | 96 => ⟨S32768x1, .f32⟩
  | 97 => ⟨S32768x1, .f32⟩
  | 98 => ⟨S32768x1, .f32⟩
  | 99 => ⟨S_, .f32⟩
  | 100 => ⟨S32768x1, .f32⟩
  | 101 => ⟨S_, .f32⟩
  | 102 => ⟨S32768x1, .f32⟩
  | 103 => ⟨S32768x1, .f32⟩
  | 104 => ⟨S_, .f32⟩
  | 105 => ⟨S32768x1, .f32⟩
  | 106 => ⟨S32768x1, .f32⟩
  | 107 => ⟨S32768x1, .f32⟩
  | 108 => ⟨S32768x1, .f32⟩
  | 109 => ⟨S_, .f32⟩
  | 110 => ⟨S32768x1, .f32⟩
  | 111 => ⟨S32768x1, .i1⟩
  | 112 => ⟨S32768x1, .f32⟩
  | 113 => ⟨S32768x2, .f32⟩
  | 114 => ⟨S32768x2, .f32⟩
  | 115 => ⟨S_, .f32⟩
  | 116 => ⟨S32768x2, .f32⟩
  | 117 => ⟨S32768x2, .f32⟩
  | 118 => ⟨S_, .f32⟩
  | 119 => ⟨S32768x2, .f32⟩
  | 120 => ⟨S32768x2, .f32⟩
  | 121 => ⟨S32768x2, .f32⟩
  | 122 => ⟨S32768x2, .f32⟩
  | 123 => ⟨S32768x1, .f32⟩
  | 124 => ⟨S32768x1, .f32⟩
  | 125 => ⟨S_, .f32⟩
  | 126 => ⟨S_, .f32⟩
  | 127 => ⟨S_, .f32⟩
  | _ => ⟨S32768x256, .f32⟩

abbrev hbmTy0_17 (i : Nat) : BufTy := match i % 128 with
  | 0 => ⟨S32768x1, .f32⟩
  | 1 => ⟨S32768x1, .f32⟩
  | 2 => ⟨S_, .f32⟩
  | 3 => ⟨S32768x1, .f32⟩
  | 4 => ⟨S32768x1, .f32⟩
  | 5 => ⟨S_, .f32⟩
  | 6 => ⟨S_, .f32⟩
  | 7 => ⟨S_, .f32⟩
  | 8 => ⟨S32768x1, .f32⟩
  | 9 => ⟨S32768x1, .f32⟩
  | 10 => ⟨S_, .f32⟩
  | 11 => ⟨S32768x1, .f32⟩
  | 12 => ⟨S32768x1, .f32⟩
  | 13 => ⟨S32768x1, .f32⟩
  | 14 => ⟨S32768x1, .f32⟩
  | 15 => ⟨S32768x1, .f32⟩
  | 16 => ⟨S32768x1, .f32⟩
  | 17 => ⟨S32768x1, .f32⟩
  | 18 => ⟨S32768x1, .f32⟩
  | 19 => ⟨S32768x1, .f32⟩
  | 20 => ⟨S_, .f32⟩
  | 21 => ⟨S32768x1, .f32⟩
  | 22 => ⟨S_, .f32⟩
  | 23 => ⟨S32768x1, .f32⟩
  | 24 => ⟨S32768x1, .f32⟩
  | 25 => ⟨S_, .f32⟩
  | 26 => ⟨S32768x1, .f32⟩
  | 27 => ⟨S32768x1, .f32⟩
  | 28 => ⟨S32768x1, .f32⟩
  | 29 => ⟨S32768x1, .f32⟩
  | 30 => ⟨S_, .f32⟩
  | 31 => ⟨S32768x1, .f32⟩
  | 32 => ⟨S32768x1, .i1⟩
  | 33 => ⟨S32768x1, .f32⟩
  | 34 => ⟨S32768x2, .f32⟩
  | 35 => ⟨S32768x2, .f32⟩
  | 36 => ⟨S32768x2, .i1⟩
  | 37 => ⟨S32768x2, .f32⟩
  | 38 => ⟨S32768x4, .f32⟩
  | 39 => ⟨S32768x4, .f32⟩
  | 40 => ⟨S32768x4, .i1⟩
  | 41 => ⟨S32768x4, .f32⟩
  | 42 => ⟨S32768x8, .f32⟩
  | 43 => ⟨S32768x8, .f32⟩
  | 44 => ⟨S_, .f32⟩
  | 45 => ⟨S32768x8, .f32⟩
  | 46 => ⟨S32768x8, .f32⟩
  | 47 => ⟨S_, .f32⟩
  | 48 => ⟨S32768x8, .f32⟩
  | 49 => ⟨S32768x8, .f32⟩
  | 50 => ⟨S32768x8, .f32⟩
  | 51 => ⟨S32768x8, .f32⟩
  | 52 => ⟨S32768x4, .f32⟩
  | 53 => ⟨S32768x4, .f32⟩
  | 54 => ⟨S_, .f32⟩
  | 55 => ⟨S_, .f32⟩
  | 56 => ⟨S_, .f32⟩
  | 57 => ⟨S32768x4, .f32⟩
  | 58 => ⟨S32768x4, .f32⟩
  | 59 => ⟨S_, .f32⟩
  | 60 => ⟨S32768x4, .f32⟩
  | 61 => ⟨S32768x4, .f32⟩
  | 62 => ⟨S_, .f32⟩
  | 63 => ⟨S_, .f32⟩
  | 64 => ⟨S_, .f32⟩
  | 65 => ⟨S32768x4, .f32⟩
  | 66 => ⟨S32768x4, .f32⟩
  | 67 => ⟨S_, .f32⟩
  | 68 => ⟨S32768x4, .f32⟩
  | 69 => ⟨S32768x4, .f32⟩
  | 70 => ⟨S32768x4, .f32⟩
  | 71 => ⟨S32768x4, .f32⟩
  | 72 => ⟨S32768x4, .f32⟩
  | 73 => ⟨S32768x4, .f32⟩
  | 74 => ⟨S32768x4, .f32⟩
  | 75 => ⟨S32768x4, .f32⟩
  | 76 => ⟨S32768x4, .f32⟩
  | 77 => ⟨S32768x2, .f32⟩
  | 78 => ⟨S32768x2, .f32⟩
  | 79 => ⟨S_, .f32⟩
  | 80 => ⟨S_, .f32⟩
  | 81 => ⟨S_, .f32⟩
  | 82 => ⟨S32768x2, .f32⟩
  | 83 => ⟨S32768x2, .f32⟩
  | 84 => ⟨S_, .f32⟩
  | 85 => ⟨S32768x2, .f32⟩
  | 86 => ⟨S32768x2, .f32⟩
  | 87 => ⟨S_, .f32⟩
  | 88 => ⟨S_, .f32⟩
  | 89 => ⟨S_, .f32⟩
  | 90 => ⟨S32768x2, .f32⟩
  | 91 => ⟨S32768x2, .f32⟩
  | 92 => ⟨S_, .f32⟩
  | 93 => ⟨S32768x2, .f32⟩
  | 94 => ⟨S32768x2, .f32⟩
  | 95 => ⟨S32768x2, .f32⟩
  | 96 => ⟨S32768x2, .f32⟩
  | 97 => ⟨S32768x2, .f32⟩
  | 98 => ⟨S32768x2, .f32⟩
  | 99 => ⟨S32768x2, .f32⟩
  | 100 => ⟨S32768x2, .f32⟩
  | 101 => ⟨S32768x2, .f32⟩
  | 102 => ⟨S32768x1, .f32⟩
  | 103 => ⟨S32768x1, .f32⟩
  | 104 => ⟨S_, .f32⟩
  | 105 => ⟨S_, .f32⟩
  | 106 => ⟨S_, .f32⟩
  | 107 => ⟨S32768x1, .f32⟩
  | 108 => ⟨S32768x1, .f32⟩
  | 109 => ⟨S_, .f32⟩
  | 110 => ⟨S32768x1, .f32⟩
  | 111 => ⟨S32768x1, .f32⟩
  | 112 => ⟨S_, .f32⟩
  | 113 => ⟨S_, .f32⟩
  | 114 => ⟨S_, .f32⟩
  | 115 => ⟨S32768x1, .f32⟩
  | 116 => ⟨S32768x1, .f32⟩
  | 117 => ⟨S_, .f32⟩
  | 118 => ⟨S32768x1, .f32⟩
  | 119 => ⟨S32768x1, .f32⟩
  | 120 => ⟨S32768x1, .f32⟩
  | 121 => ⟨S32768x1, .f32⟩
  | 122 => ⟨S32768x1, .f32⟩
  | 123 => ⟨S32768x1, .f32⟩
  | 124 => ⟨S32768x1, .f32⟩
  | 125 => ⟨S32768x1, .f32⟩
  | 126 => ⟨S32768x1, .f32⟩
  | 127 => ⟨S_, .f32⟩
  | _ => ⟨S32768x256, .f32⟩

abbrev hbmTy0_18 (i : Nat) : BufTy := match i % 128 with
  | 0 => ⟨S32768x1, .f32⟩
  | 1 => ⟨S_, .f32⟩
  | 2 => ⟨S32768x1, .f32⟩
  | 3 => ⟨S32768x1, .f32⟩
  | 4 => ⟨S_, .f32⟩
  | 5 => ⟨S32768x1, .f32⟩
  | 6 => ⟨S32768x1, .f32⟩
  | 7 => ⟨S32768x1, .f32⟩
  | 8 => ⟨S32768x1, .f32⟩
  | 9 => ⟨S_, .f32⟩
  | 10 => ⟨S32768x1, .f32⟩
  | 11 => ⟨S32768x1, .i1⟩
  | 12 => ⟨S32768x1, .f32⟩
  | 13 => ⟨S32768x2, .f32⟩
  | 14 => ⟨S32768x2, .f32⟩
  | 15 => ⟨S_, .f32⟩
  | 16 => ⟨S32768x2, .f32⟩
  | 17 => ⟨S32768x2, .f32⟩
  | 18 => ⟨S_, .f32⟩
  | 19 => ⟨S32768x2, .f32⟩
  | 20 => ⟨S32768x2, .f32⟩
  | 21 => ⟨S32768x2, .f32⟩
  | 22 => ⟨S32768x2, .f32⟩
  | 23 => ⟨S32768x1, .f32⟩
  | 24 => ⟨S32768x1, .f32⟩
  | 25 => ⟨S_, .f32⟩
  | 26 => ⟨S_, .f32⟩
  | 27 => ⟨S_, .f32⟩
  | 28 => ⟨S32768x1, .f32⟩
  | 29 => ⟨S32768x1, .f32⟩
  | 30 => ⟨S_, .f32⟩
  | 31 => ⟨S32768x1, .f32⟩
  | 32 => ⟨S32768x1, .f32⟩
  | 33 => ⟨S_, .f32⟩
  | 34 => ⟨S_, .f32⟩
  | 35 => ⟨S_, .f32⟩
  | 36 => ⟨S32768x1, .f32⟩
  | 37 => ⟨S32768x1, .f32⟩
  | 38 => ⟨S_, .f32⟩
  | 39 => ⟨S32768x1, .f32⟩
  | 40 => ⟨S32768x1, .f32⟩
  | 41 => ⟨S32768x1, .f32⟩
  | 42 => ⟨S32768x1, .f32⟩
  | 43 => ⟨S32768x1, .f32⟩
  | 44 => ⟨S32768x1, .f32⟩
  | 45 => ⟨S32768x1, .f32⟩
  | 46 => ⟨S32768x1, .f32⟩
  | 47 => ⟨S32768x1, .f32⟩
  | 48 => ⟨S_, .f32⟩
  | 49 => ⟨S32768x1, .f32⟩
  | 50 => ⟨S_, .f32⟩
  | 51 => ⟨S32768x1, .f32⟩
  | 52 => ⟨S32768x1, .f32⟩
  | 53 => ⟨S_, .f32⟩
  | 54 => ⟨S32768x1, .f32⟩
  | 55 => ⟨S32768x1, .f32⟩
  | 56 => ⟨S32768x1, .f32⟩
  | 57 => ⟨S32768x1, .f32⟩
  | 58 => ⟨S_, .f32⟩
  | 59 => ⟨S32768x1, .f32⟩
  | 60 => ⟨S32768x1, .i1⟩
  | 61 => ⟨S32768x1, .f32⟩
  | 62 => ⟨S32768x2, .f32⟩
  | 63 => ⟨S32768x2, .f32⟩
  | 64 => ⟨S32768x2, .i1⟩
  | 65 => ⟨S32768x2, .f32⟩
  | 66 => ⟨S32768x4, .f32⟩
  | 67 => ⟨S32768x4, .f32⟩
  | 68 => ⟨S_, .f32⟩
  | 69 => ⟨S32768x4, .f32⟩
  | 70 => ⟨S32768x4, .f32⟩
  | 71 => ⟨S_, .f32⟩
  | 72 => ⟨S32768x4, .f32⟩
  | 73 => ⟨S32768x4, .f32⟩
  | 74 => ⟨S32768x4, .f32⟩
  | 75 => ⟨S32768x4, .f32⟩
  | 76 => ⟨S32768x2, .f32⟩
  | 77 => ⟨S32768x2, .f32⟩
  | 78 => ⟨S_, .f32⟩
  | 79 => ⟨S_, .f32⟩
  | 80 => ⟨S_, .f32⟩
  | 81 => ⟨S32768x2, .f32⟩
  | 82 => ⟨S32768x2, .f32⟩
  | 83 => ⟨S_, .f32⟩
  | 84 => ⟨S32768x2, .f32⟩
  | 85 => ⟨S32768x2, .f32⟩
  | 86 => ⟨S_, .f32⟩
  | 87 => ⟨S_, .f32⟩
  | 88 => ⟨S_, .f32⟩
  | 89 => ⟨S32768x2, .f32⟩
  | 90 => ⟨S32768x2, .f32⟩
  | 91 => ⟨S_, .f32⟩
  | 92 => ⟨S32768x2, .f32⟩
  | 93 => ⟨S32768x2, .f32⟩
  | 94 => ⟨S32768x2, .f32⟩
  | 95 => ⟨S32768x2, .f32⟩
  | 96 => ⟨S32768x2, .f32⟩
  | 97 => ⟨S32768x2, .f32⟩
  | 98 => ⟨S32768x2, .f32⟩
  | 99 => ⟨S32768x2, .f32⟩
  | 100 => ⟨S32768x2, .f32⟩
  | 101 => ⟨S32768x1, .f32⟩
  | 102 => ⟨S32768x1, .f32⟩
  | 103 => ⟨S_, .f32⟩
  | 104 => ⟨S_, .f32⟩
  | 105 => ⟨S_, .f32⟩
  | 106 => ⟨S32768x1, .f32⟩
  | 107 => ⟨S32768x1, .f32⟩
  | 108 => ⟨S_, .f32⟩
  | 109 => ⟨S32768x1, .f32⟩
  | 110 => ⟨S32768x1, .f32⟩
  | 111 => ⟨S_, .f32⟩
  | 112 => ⟨S_, .f32⟩
  | 113 => ⟨S_, .f32⟩
  | 114 => ⟨S32768x1, .f32⟩
  | 115 => ⟨S32768x1, .f32⟩
  | 116 => ⟨S_, .f32⟩
  | 117 => ⟨S32768x1, .f32⟩
  | 118 => ⟨S32768x1, .f32⟩
  | 119 => ⟨S32768x1, .f32⟩
  | 120 => ⟨S32768x1, .f32⟩
  | 121 => ⟨S32768x1, .f32⟩
  | 122 => ⟨S32768x1, .f32⟩
  | 123 => ⟨S32768x1, .f32⟩
  | 124 => ⟨S32768x1, .f32⟩
  | 125 => ⟨S32768x1, .f32⟩
  | 126 => ⟨S_, .f32⟩
  | 127 => ⟨S32768x1, .f32⟩
  | _ => ⟨S32768x256, .f32⟩

abbrev hbmTy0_19 (i : Nat) : BufTy := match i % 128 with
  | 0 => ⟨S_, .f32⟩
  | 1 => ⟨S32768x1, .f32⟩
  | 2 => ⟨S32768x1, .f32⟩
  | 3 => ⟨S_, .f32⟩
  | 4 => ⟨S32768x1, .f32⟩
  | 5 => ⟨S32768x1, .f32⟩
  | 6 => ⟨S32768x1, .f32⟩
  | 7 => ⟨S32768x1, .f32⟩
  | 8 => ⟨S_, .f32⟩
  | 9 => ⟨S32768x1, .f32⟩
  | 10 => ⟨S32768x1, .i1⟩
  | 11 => ⟨S32768x1, .f32⟩
  | 12 => ⟨S32768x2, .f32⟩
  | 13 => ⟨S32768x2, .f32⟩
  | 14 => ⟨S_, .f32⟩
  | 15 => ⟨S32768x2, .f32⟩
  | 16 => ⟨S32768x2, .f32⟩
  | 17 => ⟨S_, .f32⟩
  | 18 => ⟨S32768x2, .f32⟩
  | 19 => ⟨S32768x2, .f32⟩
  | 20 => ⟨S32768x2, .f32⟩
  | 21 => ⟨S32768x2, .f32⟩
  | 22 => ⟨S32768x1, .f32⟩
  | 23 => ⟨S32768x1, .f32⟩
  | 24 => ⟨S_, .f32⟩
  | 25 => ⟨S_, .f32⟩
  | 26 => ⟨S_, .f32⟩
  | 27 => ⟨S32768x1, .f32⟩
  | 28 => ⟨S32768x1, .f32⟩
  | 29 => ⟨S_, .f32⟩
  | 30 => ⟨S32768x1, .f32⟩
  | 31 => ⟨S32768x1, .f32⟩
  | 32 => ⟨S_, .f32⟩
  | 33 => ⟨S_, .f32⟩
  | 34 => ⟨S_, .f32⟩
  | 35 => ⟨S32768x1, .f32⟩
  | 36 => ⟨S32768x1, .f32⟩
  | 37 => ⟨S_, .f32⟩
  | 38 => ⟨S32768x1, .f32⟩
  | 39 => ⟨S32768x1, .f32⟩
  | 40 => ⟨S32768x1, .f32⟩
  | 41 => ⟨S32768x1, .f32⟩
  | 42 => ⟨S32768x1, .f32⟩
  | 43 => ⟨S32768x1, .f32⟩
  | 44 => ⟨S32768x1, .f32⟩
  | 45 => ⟨S32768x1, .f32⟩
  | 46 => ⟨S32768x1, .f32⟩
  | 47 => ⟨S_, .f32⟩
  | 48 => ⟨S32768x1, .f32⟩
  | 49 => ⟨S_, .f32⟩
  | 50 => ⟨S32768x1, .f32⟩
  | 51 => ⟨S32768x1, .f32⟩
  | 52 => ⟨S_, .f32⟩
  | 53 => ⟨S32768x1, .f32⟩
  | 54 => ⟨S32768x1, .f32⟩
  | 55 => ⟨S32768x1, .f32⟩
  | 56 => ⟨S32768x1, .f32⟩
  | 57 => ⟨S_, .f32⟩
  | 58 => ⟨S32768x1, .f32⟩
  | 59 => ⟨S32768x1, .i1⟩
  | 60 => ⟨S32768x1, .f32⟩
  | 61 => ⟨S32768x2, .f32⟩
  | 62 => ⟨S32768x2, .f32⟩
  | 63 => ⟨S32768x2, .i1⟩
  | 64 => ⟨S32768x2, .f32⟩
  | 65 => ⟨S32768x4, .f32⟩
  | 66 => ⟨S32768x4, .f32⟩
  | 67 => ⟨S32768x4, .i1⟩
  | 68 => ⟨S32768x4, .f32⟩
  | 69 => ⟨S32768x8, .f32⟩
  | 70 => ⟨S32768x8, .f32⟩
  | 71 => ⟨S32768x8, .i1⟩
  | 72 => ⟨S32768x8, .f32⟩
  | 73 => ⟨S32768x16, .f32⟩
  | 74 => ⟨S32768x16, .f32⟩
  | 75 => ⟨S32768x16, .i1⟩
  | 76 => ⟨S32768x16, .f32⟩
  | 77 => ⟨S32768x32, .f32⟩
  | 78 => ⟨S32768x32, .f32⟩
  | 79 => ⟨S32768x32, .i1⟩
  | 80 => ⟨S32768x32, .f32⟩
  | 81 => ⟨S32768x64, .f32⟩
  | 82 => ⟨S32768x64, .f32⟩
  | 83 => ⟨S_, .f32⟩
  | 84 => ⟨S32768x64, .f32⟩
  | 85 => ⟨S32768x64, .f32⟩
  | 86 => ⟨S_, .f32⟩
  | 87 => ⟨S32768x64, .f32⟩
  | 88 => ⟨S32768x64, .f32⟩
  | 89 => ⟨S32768x64, .f32⟩
  | 90 => ⟨S32768x64, .f32⟩
  | 91 => ⟨S32768x32, .f32⟩
  | 92 => ⟨S32768x32, .f32⟩
  | 93 => ⟨S_, .f32⟩
  | 94 => ⟨S_, .f32⟩
  | 95 => ⟨S_, .f32⟩
  | 96 => ⟨S32768x32, .f32⟩
  | 97 => ⟨S32768x32, .f32⟩
  | 98 => ⟨S_, .f32⟩
  | 99 => ⟨S32768x32, .f32⟩
  | 100 => ⟨S32768x32, .f32⟩
  | 101 => ⟨S_, .f32⟩
  | 102 => ⟨S_, .f32⟩
  | 103 => ⟨S_, .f32⟩
  | 104 => ⟨S32768x32, .f32⟩
  | 105 => ⟨S32768x32, .f32⟩
  | 106 => ⟨S_, .f32⟩
  | 107 => ⟨S32768x32, .f32⟩
  | 108 => ⟨S32768x32, .f32⟩
  | 109 => ⟨S32768x32, .f32⟩
  | 110 => ⟨S32768x32, .f32⟩
  | 111 => ⟨S32768x32, .f32⟩
  | 112 => ⟨S32768x32, .f32⟩
  | 113 => ⟨S32768x32, .f32⟩
  | 114 => ⟨S32768x32, .f32⟩
  | 115 => ⟨S32768x32, .f32⟩
  | 116 => ⟨S32768x16, .f32⟩
  | 117 => ⟨S32768x16, .f32⟩
  | 118 => ⟨S_, .f32⟩
  | 119 => ⟨S_, .f32⟩
  | 120 => ⟨S_, .f32⟩
  | 121 => ⟨S32768x16, .f32⟩
  | 122 => ⟨S32768x16, .f32⟩
  | 123 => ⟨S_, .f32⟩
  | 124 => ⟨S32768x16, .f32⟩
  | 125 => ⟨S32768x16, .f32⟩
  | 126 => ⟨S_, .f32⟩
  | 127 => ⟨S_, .f32⟩
  | _ => ⟨S32768x256, .f32⟩

abbrev hbmTy0_20 (i : Nat) : BufTy := match i % 128 with
  | 0 => ⟨S_, .f32⟩
  | 1 => ⟨S32768x16, .f32⟩
  | 2 => ⟨S32768x16, .f32⟩
  | 3 => ⟨S_, .f32⟩
  | 4 => ⟨S32768x16, .f32⟩
  | 5 => ⟨S32768x16, .f32⟩
  | 6 => ⟨S32768x16, .f32⟩
  | 7 => ⟨S32768x16, .f32⟩
  | 8 => ⟨S32768x16, .f32⟩
  | 9 => ⟨S32768x16, .f32⟩
  | 10 => ⟨S32768x16, .f32⟩
  | 11 => ⟨S32768x16, .f32⟩
  | 12 => ⟨S32768x16, .f32⟩
  | 13 => ⟨S32768x8, .f32⟩
  | 14 => ⟨S32768x8, .f32⟩
  | 15 => ⟨S_, .f32⟩
  | 16 => ⟨S_, .f32⟩
  | 17 => ⟨S_, .f32⟩
  | 18 => ⟨S32768x8, .f32⟩
  | 19 => ⟨S32768x8, .f32⟩
  | 20 => ⟨S_, .f32⟩
  | 21 => ⟨S32768x8, .f32⟩
  | 22 => ⟨S32768x8, .f32⟩
  | 23 => ⟨S_, .f32⟩
  | 24 => ⟨S_, .f32⟩
  | 25 => ⟨S_, .f32⟩
  | 26 => ⟨S32768x8, .f32⟩
  | 27 => ⟨S32768x8, .f32⟩
  | 28 => ⟨S_, .f32⟩
  | 29 => ⟨S32768x8, .f32⟩
  | 30 => ⟨S32768x8, .f32⟩
  | 31 => ⟨S32768x8, .f32⟩
  | 32 => ⟨S32768x8, .f32⟩
  | 33 => ⟨S32768x8, .f32⟩
  | 34 => ⟨S32768x8, .f32⟩
  | 35 => ⟨S32768x8, .f32⟩
  | 36 => ⟨S32768x8, .f32⟩
  | 37 => ⟨S32768x8, .f32⟩
  | 38 => ⟨S32768x4, .f32⟩
  | 39 => ⟨S32768x4, .f32⟩
  | 40 => ⟨S_, .f32⟩
  | 41 => ⟨S_, .f32⟩
  | 42 => ⟨S_, .f32⟩
  | 43 => ⟨S32768x4, .f32⟩
  | 44 => ⟨S32768x4, .f32⟩
  | 45 => ⟨S_, .f32⟩
  | 46 => ⟨S32768x4, .f32⟩
  | 47 => ⟨S32768x4, .f32⟩
  | 48 => ⟨S_, .f32⟩
  | 49 => ⟨S_, .f32⟩
  | 50 => ⟨S_, .f32⟩
  | 51 => ⟨S32768x4, .f32⟩
  | 52 => ⟨S32768x4, .f32⟩
  | 53 => ⟨S_, .f32⟩
  | 54 => ⟨S32768x4, .f32⟩
  | 55 => ⟨S32768x4, .f32⟩
  | 56 => ⟨S32768x4, .f32⟩
  | 57 => ⟨S32768x4, .f32⟩
  | 58 => ⟨S32768x4, .f32⟩
  | 59 => ⟨S32768x4, .f32⟩
  | 60 => ⟨S32768x4, .f32⟩
  | 61 => ⟨S32768x4, .f32⟩
  | 62 => ⟨S32768x4, .f32⟩
  | 63 => ⟨S32768x2, .f32⟩
  | 64 => ⟨S32768x2, .f32⟩
  | 65 => ⟨S_, .f32⟩
  | 66 => ⟨S_, .f32⟩
  | 67 => ⟨S_, .f32⟩
  | 68 => ⟨S32768x2, .f32⟩
  | 69 => ⟨S32768x2, .f32⟩
  | 70 => ⟨S_, .f32⟩
  | 71 => ⟨S32768x2, .f32⟩
  | 72 => ⟨S32768x2, .f32⟩
  | 73 => ⟨S_, .f32⟩
  | 74 => ⟨S_, .f32⟩
  | 75 => ⟨S_, .f32⟩
  | 76 => ⟨S32768x2, .f32⟩
  | 77 => ⟨S32768x2, .f32⟩
  | 78 => ⟨S_, .f32⟩
  | 79 => ⟨S32768x2, .f32⟩
  | 80 => ⟨S32768x2, .f32⟩
  | 81 => ⟨S32768x2, .f32⟩
  | 82 => ⟨S32768x2, .f32⟩
  | 83 => ⟨S32768x2, .f32⟩
  | 84 => ⟨S32768x2, .f32⟩
  | 85 => ⟨S32768x2, .f32⟩
  | 86 => ⟨S32768x2, .f32⟩
  | 87 => ⟨S32768x2, .f32⟩
  | 88 => ⟨S32768x1, .f32⟩
  | 89 => ⟨S32768x1, .f32⟩
  | 90 => ⟨S_, .f32⟩
  | 91 => ⟨S_, .f32⟩
  | 92 => ⟨S_, .f32⟩
  | 93 => ⟨S32768x1, .f32⟩
  | 94 => ⟨S32768x1, .f32⟩
  | 95 => ⟨S_, .f32⟩
  | 96 => ⟨S32768x1, .f32⟩
  | 97 => ⟨S32768x1, .f32⟩
  | 98 => ⟨S_, .f32⟩
  | 99 => ⟨S_, .f32⟩
  | 100 => ⟨S_, .f32⟩
  | 101 => ⟨S32768x1, .f32⟩
  | 102 => ⟨S32768x1, .f32⟩
  | 103 => ⟨S_, .f32⟩
  | 104 => ⟨S32768x1, .f32⟩
  | 105 => ⟨S32768x1, .f32⟩
  | 106 => ⟨S32768x1, .f32⟩
  | 107 => ⟨S32768x1, .f32⟩
  | 108 => ⟨S32768x1, .f32⟩
  | 109 => ⟨S32768x1, .f32⟩
  | 110 => ⟨S32768x1, .f32⟩
  | 111 => ⟨S32768x1, .f32⟩
  | 112 => ⟨S32768x1, .f32⟩
  | 113 => ⟨S_, .f32⟩
  | 114 => ⟨S32768x1, .f32⟩
  | 115 => ⟨S_, .f32⟩
  | 116 => ⟨S32768x1, .f32⟩
  | 117 => ⟨S32768x1, .f32⟩
  | 118 => ⟨S_, .f32⟩
  | 119 => ⟨S32768x1, .f32⟩
  | 120 => ⟨S32768x1, .f32⟩
  | 121 => ⟨S32768x1, .f32⟩
  | 122 => ⟨S32768x1, .f32⟩
  | 123 => ⟨S_, .f32⟩
  | 124 => ⟨S32768x1, .f32⟩
  | 125 => ⟨S32768x1, .i1⟩
  | 126 => ⟨S32768x1, .f32⟩
  | 127 => ⟨S32768x2, .f32⟩
  | _ => ⟨S32768x256, .f32⟩

abbrev hbmTy0_21 (i : Nat) : BufTy := match i % 128 with
  | 0 => ⟨S32768x2, .f32⟩
  | 1 => ⟨S_, .f32⟩
  | 2 => ⟨S32768x2, .f32⟩
  | 3 => ⟨S32768x2, .f32⟩
  | 4 => ⟨S_, .f32⟩
  | 5 => ⟨S32768x2, .f32⟩
  | 6 => ⟨S32768x2, .f32⟩
  | 7 => ⟨S32768x2, .f32⟩
  | 8 => ⟨S32768x2, .f32⟩
  | 9 => ⟨S32768x1, .f32⟩
  | 10 => ⟨S32768x1, .f32⟩
  | 11 => ⟨S_, .f32⟩
  | 12 => ⟨S_, .f32⟩
  | 13 => ⟨S_, .f32⟩
  | 14 => ⟨S32768x1, .f32⟩
  | 15 => ⟨S32768x1, .f32⟩
  | 16 => ⟨S_, .f32⟩
  | 17 => ⟨S32768x1, .f32⟩
  | 18 => ⟨S32768x1, .f32⟩
  | 19 => ⟨S_, .f32⟩
  | 20 => ⟨S_, .f32⟩
  | 21 => ⟨S_, .f32⟩
  | 22 => ⟨S32768x1, .f32⟩
  | 23 => ⟨S32768x1, .f32⟩
  | 24 => ⟨S_, .f32⟩
  | 25 => ⟨S32768x1, .f32⟩
  | 26 => ⟨S32768x1, .f32⟩
  | 27 => ⟨S32768x1, .f32⟩
  | 28 => ⟨S32768x1, .f32⟩
  | 29 => ⟨S32768x1, .f32⟩
  | 30 => ⟨S32768x1, .f32⟩
  | 31 => ⟨S32768x1, .f32⟩
  | 32 => ⟨S32768x1, .f32⟩
  | 33 => ⟨S32768x1, .f32⟩
  | 34 => ⟨S_, .f32⟩
  | 35 => ⟨S32768x1, .f32⟩
  | 36 => ⟨S_, .f32⟩
  | 37 => ⟨S32768x1, .f32⟩
  | 38 => ⟨S32768x1, .f32⟩
  | 39 => ⟨S_, .f32⟩
  | 40 => ⟨S32768x1, .f32⟩
  | 41 => ⟨S32768x1, .f32⟩
  | 42 => ⟨S32768x1, .f32⟩
  | 43 => ⟨S32768x1, .f32⟩
  | 44 => ⟨S_, .f32⟩
  | 45 => ⟨S32768x1, .f32⟩
  | 46 => ⟨S32768x1, .i1⟩
  | 47 => ⟨S32768x1, .f32⟩
  | 48 => ⟨S32768x2, .f32⟩
  | 49 => ⟨S32768x2, .f32⟩
  | 50 => ⟨S32768x2, .i1⟩
  | 51 => ⟨S32768x2, .f32⟩
  | 52 => ⟨S32768x4, .f32⟩
  | 53 => ⟨S32768x4, .f32⟩
  | 54 => ⟨S_, .f32⟩
  | 55 => ⟨S32768x4, .f32⟩
  | 56 => ⟨S32768x4, .f32⟩
  | 57 => ⟨S_, .f32⟩
  | 58 => ⟨S32768x4, .f32⟩
  | 59 => ⟨S32768x4, .f32⟩
  | 60 => ⟨S32768x4, .f32⟩
  | 61 => ⟨S32768x4, .f32⟩
  | 62 => ⟨S32768x2, .f32⟩
  | 63 => ⟨S32768x2, .f32⟩
  | 64 => ⟨S_, .f32⟩
  | 65 => ⟨S_, .f32⟩
  | 66 => ⟨S_, .f32⟩
  | 67 => ⟨S32768x2, .f32⟩
  | 68 => ⟨S32768x2, .f32⟩
  | 69 => ⟨S_, .f32⟩
  | 70 => ⟨S32768x2, .f32⟩
  | 71 => ⟨S32768x2, .f32⟩
  | 72 => ⟨S_, .f32⟩
  | 73 => ⟨S_, .f32⟩
  | 74 => ⟨S_, .f32⟩
  | 75 => ⟨S32768x2, .f32⟩
  | 76 => ⟨S32768x2, .f32⟩
  | 77 => ⟨S_, .f32⟩
  | 78 => ⟨S32768x2, .f32⟩
  | 79 => ⟨S32768x2, .f32⟩
  | 80 => ⟨S32768x2, .f32⟩
  | 81 => ⟨S32768x2, .f32⟩
  | 82 => ⟨S32768x2, .f32⟩
  | 83 => ⟨S32768x2, .f32⟩
  | 84 => ⟨S32768x2, .f32⟩
  | 85 => ⟨S32768x2, .f32⟩
  | 86 => ⟨S32768x2, .f32⟩
  | 87 => ⟨S32768x1, .f32⟩
  | 88 => ⟨S32768x1, .f32⟩
  | 89 => ⟨S_, .f32⟩
  | 90 => ⟨S_, .f32⟩
  | 91 => ⟨S_, .f32⟩
  | 92 => ⟨S32768x1, .f32⟩
  | 93 => ⟨S32768x1, .f32⟩
  | 94 => ⟨S_, .f32⟩
  | 95 => ⟨S32768x1, .f32⟩
  | 96 => ⟨S32768x1, .f32⟩
  | 97 => ⟨S_, .f32⟩
  | 98 => ⟨S_, .f32⟩
  | 99 => ⟨S_, .f32⟩
  | 100 => ⟨S32768x1, .f32⟩
  | 101 => ⟨S32768x1, .f32⟩
  | 102 => ⟨S_, .f32⟩
  | 103 => ⟨S32768x1, .f32⟩
  | 104 => ⟨S32768x1, .f32⟩
  | 105 => ⟨S32768x1, .f32⟩
  | 106 => ⟨S32768x1, .f32⟩
  | 107 => ⟨S32768x1, .f32⟩
  | 108 => ⟨S32768x1, .f32⟩
  | 109 => ⟨S32768x1, .f32⟩
  | 110 => ⟨S32768x1, .f32⟩
  | 111 => ⟨S32768x1, .f32⟩
  | 112 => ⟨S_, .f32⟩
  | 113 => ⟨S32768x1, .f32⟩
  | 114 => ⟨S_, .f32⟩
  | 115 => ⟨S32768x1, .f32⟩
  | 116 => ⟨S32768x1, .f32⟩
  | 117 => ⟨S_, .f32⟩
  | 118 => ⟨S32768x1, .f32⟩
  | 119 => ⟨S32768x1, .f32⟩
  | 120 => ⟨S32768x1, .f32⟩
  | 121 => ⟨S32768x1, .f32⟩
  | 122 => ⟨S_, .f32⟩
  | 123 => ⟨S32768x1, .f32⟩
  | 124 => ⟨S32768x1, .i1⟩
  | 125 => ⟨S32768x1, .f32⟩
  | 126 => ⟨S32768x2, .f32⟩
  | 127 => ⟨S32768x2, .f32⟩
  | _ => ⟨S32768x256, .f32⟩

abbrev hbmTy0_22 (i : Nat) : BufTy := match i % 128 with
  | 0 => ⟨S_, .f32⟩
  | 1 => ⟨S32768x2, .f32⟩
  | 2 => ⟨S32768x2, .f32⟩
  | 3 => ⟨S_, .f32⟩
  | 4 => ⟨S32768x2, .f32⟩
  | 5 => ⟨S32768x2, .f32⟩
  | 6 => ⟨S32768x2, .f32⟩
  | 7 => ⟨S32768x2, .f32⟩
  | 8 => ⟨S32768x1, .f32⟩
  | 9 => ⟨S32768x1, .f32⟩
  | 10 => ⟨S_, .f32⟩
  | 11 => ⟨S_, .f32⟩
  | 12 => ⟨S_, .f32⟩
  | 13 => ⟨S32768x1, .f32⟩
  | 14 => ⟨S32768x1, .f32⟩
  | 15 => ⟨S_, .f32⟩
  | 16 => ⟨S32768x1, .f32⟩
  | 17 => ⟨S32768x1, .f32⟩
  | 18 => ⟨S_, .f32⟩
  | 19 => ⟨S_, .f32⟩
  | 20 => ⟨S_, .f32⟩
  | 21 => ⟨S32768x1, .f32⟩
  | 22 => ⟨S32768x1, .f32⟩
  | 23 => ⟨S_, .f32⟩
  | 24 => ⟨S32768x1, .f32⟩
  | 25 => ⟨S32768x1, .f32⟩
  | 26 => ⟨S32768x1, .f32⟩
  | 27 => ⟨S32768x1, .f32⟩
  | 28 => ⟨S32768x1, .f32⟩
  | 29 => ⟨S32768x1, .f32⟩
  | 30 => ⟨S32768x1, .f32⟩
  | 31 => ⟨S32768x1, .f32⟩
  | 32 => ⟨S32768x1, .f32⟩
  | 33 => ⟨S_, .f32⟩
  | 34 => ⟨S32768x1, .f32⟩
  | 35 => ⟨S_, .f32⟩
  | 36 => ⟨S32768x1, .f32⟩
  | 37 => ⟨S32768x1, .f32⟩
  | 38 => ⟨S_, .f32⟩
  | 39 => ⟨S32768x1, .f32⟩
  | 40 => ⟨S32768x1, .f32⟩
  | 41 => ⟨S32768x1, .f32⟩
  | 42 => ⟨S32768x1, .f32⟩
  | 43 => ⟨S_, .f32⟩
  | 44 => ⟨S32768x1, .f32⟩
  | 45 => ⟨S32768x1, .i1⟩
  | 46 => ⟨S32768x1, .f32⟩
  | 47 => ⟨S32768x2, .f32⟩
  | 48 => ⟨S32768x2, .f32⟩
  | 49 => ⟨S32768x2, .i1⟩
  | 50 => ⟨S32768x2, .f32⟩
  | 51 => ⟨S32768x4, .f32⟩
  | 52 => ⟨S32768x4, .f32⟩
  | 53 => ⟨S32768x4, .i1⟩
  | 54 => ⟨S32768x4, .f32⟩
  | 55 => ⟨S32768x8, .f32⟩
  | 56 => ⟨S32768x8, .f32⟩
  | 57 => ⟨S_, .f32⟩
  | 58 => ⟨S32768x8, .f32⟩
  | 59 => ⟨S32768x8, .f32⟩
  | 60 => ⟨S_, .f32⟩
  | 61 => ⟨S32768x8, .f32⟩
  | 62 => ⟨S32768x8, .f32⟩
  | 63 => ⟨S32768x8, .f32⟩
  | 64 => ⟨S32768x8, .f32⟩
  | 65 => ⟨S32768x4, .f32⟩
  | 66 => ⟨S32768x4, .f32⟩
  | 67 => ⟨S_, .f32⟩
  | 68 => ⟨S_, .f32⟩
  | 69 => ⟨S_, .f32⟩
  | 70 => ⟨S32768x4, .f32⟩
  | 71 => ⟨S32768x4, .f32⟩
  | 72 => ⟨S_, .f32⟩
  | 73 => ⟨S32768x4, .f32⟩
  | 74 => ⟨S32768x4, .f32⟩
  | 75 => ⟨S_, .f32⟩
  | 76 => ⟨S_, .f32⟩
  | 77 => ⟨S_, .f32⟩
  | 78 => ⟨S32768x4, .f32⟩
  | 79 => ⟨S32768x4, .f32⟩
  | 80 => ⟨S_, .f32⟩
  | 81 => ⟨S32768x4, .f32⟩
  | 82 => ⟨S32768x4, .f32⟩
  | 83 => ⟨S32768x4, .f32⟩
  | 84 => ⟨S32768x4, .f32⟩
  | 85 => ⟨S32768x4, .f32⟩
  | 86 => ⟨S32768x4, .f32⟩
  | 87 => ⟨S32768x4, .f32⟩
  | 88 => ⟨S32768x4, .f32⟩
  | 89 => ⟨S32768x4, .f32⟩
  | 90 => ⟨S32768x2, .f32⟩
  | 91 => ⟨S32768x2, .f32⟩
  | 92 => ⟨S_, .f32⟩
  | 93 => ⟨S_, .f32⟩
  | 94 => ⟨S_, .f32⟩
  | 95 => ⟨S32768x2, .f32⟩
  | 96 => ⟨S32768x2, .f32⟩
  | 97 => ⟨S_, .f32⟩
  | 98 => ⟨S32768x2, .f32⟩
  | 99 => ⟨S32768x2, .f32⟩
  | 100 => ⟨S_, .f32⟩
  | 101 => ⟨S_, .f32⟩
  | 102 => ⟨S_, .f32⟩
  | 103 => ⟨S32768x2, .f32⟩
  | 104 => ⟨S32768x2, .f32⟩
  | 105 => ⟨S_, .f32⟩
  | 106 => ⟨S32768x2, .f32⟩
  | 107 => ⟨S32768x2, .f32⟩
  | 108 => ⟨S32768x2, .f32⟩
  | 109 => ⟨S32768x2, .f32⟩
  | 110 => ⟨S32768x2, .f32⟩
  | 111 => ⟨S32768x2, .f32⟩
  | 112 => ⟨S32768x2, .f32⟩
  | 113 => ⟨S32768x2, .f32⟩
  | 114 => ⟨S32768x2, .f32⟩
  | 115 => ⟨S32768x1, .f32⟩
  | 116 => ⟨S32768x1, .f32⟩
  | 117 => ⟨S_, .f32⟩
  | 118 => ⟨S_, .f32⟩
  | 119 => ⟨S_, .f32⟩
  | 120 => ⟨S32768x1, .f32⟩
  | 121 => ⟨S32768x1, .f32⟩
  | 122 => ⟨S_, .f32⟩
  | 123 => ⟨S32768x1, .f32⟩
  | 124 => ⟨S32768x1, .f32⟩
  | 125 => ⟨S_, .f32⟩
  | 126 => ⟨S_, .f32⟩
  | 127 => ⟨S_, .f32⟩
  | _ => ⟨S32768x256, .f32⟩

abbrev hbmTy0_23 (i : Nat) : BufTy := match i % 128 with
  | 0 => ⟨S32768x1, .f32⟩
  | 1 => ⟨S32768x1, .f32⟩
  | 2 => ⟨S_, .f32⟩
  | 3 => ⟨S32768x1, .f32⟩
  | 4 => ⟨S32768x1, .f32⟩
  | 5 => ⟨S32768x1, .f32⟩
  | 6 => ⟨S32768x1, .f32⟩
  | 7 => ⟨S32768x1, .f32⟩
  | 8 => ⟨S32768x1, .f32⟩
  | 9 => ⟨S32768x1, .f32⟩
  | 10 => ⟨S32768x1, .f32⟩
  | 11 => ⟨S32768x1, .f32⟩
  | 12 => ⟨S_, .f32⟩
  | 13 => ⟨S32768x1, .f32⟩
  | 14 => ⟨S_, .f32⟩
  | 15 => ⟨S32768x1, .f32⟩
  | 16 => ⟨S32768x1, .f32⟩
  | 17 => ⟨S_, .f32⟩
  | 18 => ⟨S32768x1, .f32⟩
  | 19 => ⟨S32768x1, .f32⟩
  | 20 => ⟨S32768x1, .f32⟩
  | 21 => ⟨S32768x1, .f32⟩
  | 22 => ⟨S_, .f32⟩
  | 23 => ⟨S32768x1, .f32⟩
  | 24 => ⟨S32768x1, .i1⟩
  | 25 => ⟨S32768x1, .f32⟩
  | 26 => ⟨S32768x2, .f32⟩
  | 27 => ⟨S32768x2, .f32⟩
  | 28 => ⟨S_, .f32⟩
  | 29 => ⟨S32768x2, .f32⟩
  | 30 => ⟨S32768x2, .f32⟩
  | 31 => ⟨S_, .f32⟩
  | 32 => ⟨S32768x2, .f32⟩
  | 33 => ⟨S32768x2, .f32⟩
  | 34 => ⟨S32768x2, .f32⟩
  | 35 => ⟨S32768x2, .f32⟩
  | 36 => ⟨S32768x1, .f32⟩
  | 37 => ⟨S32768x1, .f32⟩
  | 38 => ⟨S_, .f32⟩
  | 39 => ⟨S_, .f32⟩
  | 40 => ⟨S_, .f32⟩
  | 41 => ⟨S32768x1, .f32⟩
  | 42 => ⟨S32768x1, .f32⟩
  | 43 => ⟨S_, .f32⟩
  | 44 => ⟨S32768x1, .f32⟩
  | 45 => ⟨S32768x1, .f32⟩
  | 46 => ⟨S_, .f32⟩
  | 47 => ⟨S_, .f32⟩
  | 48 => ⟨S_, .f32⟩
  | 49 => ⟨S32768x1, .f32⟩
  | 50 => ⟨S32768x1, .f32⟩
  | 51 => ⟨S_, .f32⟩
  | 52 => ⟨S32768x1, .f32⟩
  | 53 => ⟨S32768x1, .f32⟩
  | 54 => ⟨S32768x1, .f32⟩
  | 55 => ⟨S32768x1, .f32⟩
  | 56 => ⟨S32768x1, .f32⟩
  | 57 => ⟨S32768x1, .f32⟩
  | 58 => ⟨S32768x1, .f32⟩
  | 59 => ⟨S32768x1, .f32⟩
  | 60 => ⟨S32768x1, .f32⟩
  | 61 => ⟨S_, .f32⟩
  | 62 => ⟨S32768x1, .f32⟩
  | 63 => ⟨S_, .f32⟩
  | 64 => ⟨S32768x1, .f32⟩
  | 65 => ⟨S32768x1, .f32⟩
  | 66 => ⟨S_, .f32⟩
  | 67 => ⟨S32768x1, .f32⟩
  | 68 => ⟨S32768x1, .f32⟩
  | 69 => ⟨S32768x1, .f32⟩
  | 70 => ⟨S32768x1, .f32⟩
  | 71 => ⟨S_, .f32⟩
  | 72 => ⟨S32768x1, .f32⟩
  | 73 => ⟨S32768x1, .i1⟩
  | 74 => ⟨S32768x1, .f32⟩
  | 75 => ⟨S32768x2, .f32⟩
  | 76 => ⟨S32768x2, .f32⟩
  | 77 => ⟨S32768x2, .i1⟩
  | 78 => ⟨S32768x2, .f32⟩
  | 79 => ⟨S32768x4, .f32⟩
  | 80 => ⟨S32768x4, .f32⟩
  | 81 => ⟨S_, .f32⟩
  | 82 => ⟨S32768x4, .f32⟩
  | 83 => ⟨S32768x4, .f32⟩
  | 84 => ⟨S_, .f32⟩
  | 85 => ⟨S32768x4, .f32⟩
  | 86 => ⟨S32768x4, .f32⟩
  | 87 => ⟨S32768x4, .f32⟩
  | 88 => ⟨S32768x4, .f32⟩
  | 89 => ⟨S32768x2, .f32⟩
  | 90 => ⟨S32768x2, .f32⟩
  | 91 => ⟨S_, .f32⟩
  | 92 => ⟨S_, .f32⟩
  | 93 => ⟨S_, .f32⟩
  | 94 => ⟨S32768x2, .f32⟩
  | 95 => ⟨S32768x2, .f32⟩
  | 96 => ⟨S_, .f32⟩
  | 97 => ⟨S32768x2, .f32⟩
  | 98 => ⟨S32768x2, .f32⟩
  | 99 => ⟨S_, .f32⟩
  | 100 => ⟨S_, .f32⟩
  | 101 => ⟨S_, .f32⟩
  | 102 => ⟨S32768x2, .f32⟩
  | 103 => ⟨S32768x2, .f32⟩
  | 104 => ⟨S_, .f32⟩
  | 105 => ⟨S32768x2, .f32⟩
  | 106 => ⟨S32768x2, .f32⟩
  | 107 => ⟨S32768x2, .f32⟩
  | 108 => ⟨S32768x2, .f32⟩
  | 109 => ⟨S32768x2, .f32⟩
  | 110 => ⟨S32768x2, .f32⟩
  | 111 => ⟨S32768x2, .f32⟩
  | 112 => ⟨S32768x2, .f32⟩
  | 113 => ⟨S32768x2, .f32⟩
  | 114 => ⟨S32768x1, .f32⟩
  | 115 => ⟨S32768x1, .f32⟩
  | 116 => ⟨S_, .f32⟩
  | 117 => ⟨S_, .f32⟩
  | 118 => ⟨S_, .f32⟩
  | 119 => ⟨S32768x1, .f32⟩
  | 120 => ⟨S32768x1, .f32⟩
  | 121 => ⟨S_, .f32⟩
  | 122 => ⟨S32768x1, .f32⟩
  | 123 => ⟨S32768x1, .f32⟩
  | 124 => ⟨S_, .f32⟩
  | 125 => ⟨S_, .f32⟩
  | 126 => ⟨S_, .f32⟩
  | 127 => ⟨S32768x1, .f32⟩
  | _ => ⟨S32768x256, .f32⟩

abbrev hbmTy0_24 (i : Nat) : BufTy := match i % 128 with
  | 0 => ⟨S32768x1, .f32⟩
  | 1 => ⟨S_, .f32⟩
  | 2 => ⟨S32768x1, .f32⟩
  | 3 => ⟨S32768x1, .f32⟩
  | 4 => ⟨S32768x1, .f32⟩
  | 5 => ⟨S32768x1, .f32⟩
  | 6 => ⟨S32768x1, .f32⟩
  | 7 => ⟨S32768x1, .f32⟩
  | 8 => ⟨S32768x1, .f32⟩
  | 9 => ⟨S32768x1, .f32⟩
  | 10 => ⟨S32768x1, .f32⟩
  | 11 => ⟨S_, .f32⟩
  | 12 => ⟨S32768x1, .f32⟩
  | 13 => ⟨S_, .f32⟩
  | 14 => ⟨S32768x1, .f32⟩
  | 15 => ⟨S32768x1, .f32⟩
  | 16 => ⟨S_, .f32⟩
  | 17 => ⟨S32768x1, .f32⟩
  | 18 => ⟨S32768x1, .f32⟩
  | 19 => ⟨S32768x1, .f32⟩
  | 20 => ⟨S32768x1, .f32⟩
  | 21 => ⟨S_, .f32⟩
  | 22 => ⟨S32768x1, .f32⟩
  | 23 => ⟨S32768x1, .i1⟩
  | 24 => ⟨S32768x1, .f32⟩
  | 25 => ⟨S32768x2, .f32⟩
  | 26 => ⟨S32768x2, .f32⟩
  | 27 => ⟨S_, .f32⟩
  | 28 => ⟨S32768x2, .f32⟩
  | 29 => ⟨S32768x2, .f32⟩
  | 30 => ⟨S_, .f32⟩
  | 31 => ⟨S32768x2, .f32⟩
  | 32 => ⟨S32768x2, .f32⟩
  | 33 => ⟨S32768x2, .f32⟩
  | 34 => ⟨S32768x2, .f32⟩
  | 35 => ⟨S32768x1, .f32⟩
  | 36 => ⟨S32768x1, .f32⟩
  | 37 => ⟨S_, .f32⟩
  | 38 => ⟨S_, .f32⟩
  | 39 => ⟨S_, .f32⟩
  | 40 => ⟨S32768x1, .f32⟩
  | 41 => ⟨S32768x1, .f32⟩
  | 42 => ⟨S_, .f32⟩
  | 43 => ⟨S32768x1, .f32⟩
  | 44 => ⟨S32768x1, .f32⟩
  | 45 => ⟨S_, .f32⟩
  | 46 => ⟨S_, .f32⟩
  | 47 => ⟨S_, .f32⟩
  | 48 => ⟨S32768x1, .f32⟩
  | 49 => ⟨S32768x1, .f32⟩
  | 50 => ⟨S_, .f32⟩
  | 51 => ⟨S32768x1, .f32⟩
  | 52 => ⟨S32768x1, .f32⟩
  | 53 => ⟨S32768x1, .f32⟩
  | 54 => ⟨S32768x1, .f32⟩
  | 55 => ⟨S32768x1, .f32⟩
  | 56 => ⟨S32768x1, .f32⟩
  | 57 => ⟨S32768x1, .f32⟩
  | 58 => ⟨S32768x1, .f32⟩
  | 59 => ⟨S32768x1, .f32⟩
  | 60 => ⟨S_, .f32⟩
  | 61 => ⟨S32768x1, .f32⟩
  | 62 => ⟨S_, .f32⟩
  | 63 => ⟨S32768x1, .f32⟩
  | 64 => ⟨S32768x1, .f32⟩
  | 65 => ⟨S_, .f32⟩
  | 66 => ⟨S32768x1, .f32⟩
  | 67 => ⟨S32768x1, .f32⟩
  | 68 => ⟨S32768x1, .f32⟩
  | 69 => ⟨S32768x1, .f32⟩
  | 70 => ⟨S_, .f32⟩
  | 71 => ⟨S32768x1, .f32⟩
  | 72 => ⟨S32768x1, .i1⟩
  | 73 => ⟨S32768x1, .f32⟩
  | 74 => ⟨S32768x2, .f32⟩
  | 75 => ⟨S32768x2, .f32⟩
  | 76 => ⟨S32768x2, .i1⟩
  | 77 => ⟨S32768x2, .f32⟩
  | 78 => ⟨S32768x4, .f32⟩
  | 79 => ⟨S32768x4, .f32⟩
  | 80 => ⟨S32768x4, .i1⟩
  | 81 => ⟨S32768x4, .f32⟩
  | 82 => ⟨S32768x8, .f32⟩
  | 83 => ⟨S32768x8, .f32⟩
  | 84 => ⟨S32768x8, .i1⟩
  | 85 => ⟨S32768x8, .f32⟩
  | 86 => ⟨S32768x16, .f32⟩
  | 87 => ⟨S32768x16, .f32⟩
  | 88 => ⟨S_, .f32⟩
  | 89 => ⟨S32768x16, .f32⟩
  | 90 => ⟨S32768x16, .f32⟩
  | 91 => ⟨S_, .f32⟩
  | 92 => ⟨S32768x16, .f32⟩
  | 93 => ⟨S32768x16, .f32⟩
  | 94 => ⟨S32768x16, .f32⟩
  | 95 => ⟨S32768x16, .f32⟩
  | 96 => ⟨S32768x8, .f32⟩
  | 97 => ⟨S32768x8, .f32⟩
  | 98 => ⟨S_, .f32⟩
  | 99 => ⟨S_, .f32⟩
  | 100 => ⟨S_, .f32⟩
  | 101 => ⟨S32768x8, .f32⟩
  | 102 => ⟨S32768x8, .f32⟩
  | 103 => ⟨S_, .f32⟩
  | 104 => ⟨S32768x8, .f32⟩
  | 105 => ⟨S32768x8, .f32⟩
  | 106 => ⟨S_, .f32⟩
  | 107 => ⟨S_, .f32⟩
  | 108 => ⟨S_, .f32⟩
  | 109 => ⟨S32768x8, .f32⟩
  | 110 => ⟨S32768x8, .f32⟩
  | 111 => ⟨S_, .f32⟩
  | 112 => ⟨S32768x8, .f32⟩
  | 113 => ⟨S32768x8, .f32⟩
  | 114 => ⟨S32768x8, .f32⟩
  | 115 => ⟨S32768x8, .f32⟩
  | 116 => ⟨S32768x8, .f32⟩
  | 117 => ⟨S32768x8, .f32⟩
  | 118 => ⟨S32768x8, .f32⟩
  | 119 => ⟨S32768x8, .f32⟩
  | 120 => ⟨S32768x8, .f32⟩
  | 121 => ⟨S32768x4, .f32⟩
  | 122 => ⟨S32768x4, .f32⟩
  | 123 => ⟨S_, .f32⟩
  | 124 => ⟨S_, .f32⟩
  | 125 => ⟨S_, .f32⟩
  | 126 => ⟨S32768x4, .f32⟩
  | 127 => ⟨S32768x4, .f32⟩
  | _ => ⟨S32768x256, .f32⟩

abbrev hbmTy0_25 (i : Nat) : BufTy := match i % 128 with
  | 0 => ⟨S_, .f32⟩
  | 1 => ⟨S32768x4, .f32⟩
  | 2 => ⟨S32768x4, .f32⟩
  | 3 => ⟨S_, .f32⟩
  | 4 => ⟨S_, .f32⟩
  | 5 => ⟨S_, .f32⟩
  | 6 => ⟨S32768x4, .f32⟩
  | 7 => ⟨S32768x4, .f32⟩
  | 8 => ⟨S_, .f32⟩
  | 9 => ⟨S32768x4, .f32⟩
  | 10 => ⟨S32768x4, .f32⟩
  | 11 => ⟨S32768x4, .f32⟩
  | 12 => ⟨S32768x4, .f32⟩
  | 13 => ⟨S32768x4, .f32⟩
  | 14 => ⟨S32768x4, .f32⟩
  | 15 => ⟨S32768x4, .f32⟩
  | 16 => ⟨S32768x4, .f32⟩
  | 17 => ⟨S32768x4, .f32⟩
  | 18 => ⟨S32768x2, .f32⟩
  | 19 => ⟨S32768x2, .f32⟩
  | 20 => ⟨S_, .f32⟩
  | 21 => ⟨S_, .f32⟩
  | 22 => ⟨S_, .f32⟩
  | 23 => ⟨S32768x2, .f32⟩
  | 24 => ⟨S32768x2, .f32⟩
  | 25 => ⟨S_, .f32⟩
  | 26 => ⟨S32768x2, .f32⟩
  | 27 => ⟨S32768x2, .f32⟩
  | 28 => ⟨S_, .f32⟩
  | 29 => ⟨S_, .f32⟩
  | 30 => ⟨S_, .f32⟩
  | 31 => ⟨S32768x2, .f32⟩
  | 32 => ⟨S32768x2, .f32⟩
  | 33 => ⟨S_, .f32⟩
  | 34 => ⟨S32768x2, .f32⟩
  | 35 => ⟨S32768x2, .f32⟩
  | 36 => ⟨S32768x2, .f32⟩
  | 37 => ⟨S32768x2, .f32⟩
  | 38 => ⟨S32768x2, .f32⟩
  | 39 => ⟨S32768x2, .f32⟩
  | 40 => ⟨S32768x2, .f32⟩
  | 41 => ⟨S32768x2, .f32⟩
  | 42 => ⟨S32768x2, .f32⟩
  | 43 => ⟨S32768x1, .f32⟩
  | 44 => ⟨S32768x1, .f32⟩
  | 45 => ⟨S_, .f32⟩
  | 46 => ⟨S_, .f32⟩
  | 47 => ⟨S_, .f32⟩
  | 48 => ⟨S32768x1, .f32⟩
  | 49 => ⟨S32768x1, .f32⟩
  | 50 => ⟨S_, .f32⟩
  | 51 => ⟨S32768x1, .f32⟩
  | 52 => ⟨S32768x1, .f32⟩
  | 53 => ⟨S_, .f32⟩
  | 54 => ⟨S_, .f32⟩
  | 55 => ⟨S_, .f32⟩
  | 56 => ⟨S32768x1, .f32⟩
  | 57 => ⟨S32768x1, .f32⟩
  | 58 => ⟨S_, .f32⟩
  | 59 => ⟨S32768x1, .f32⟩
  | 60 => ⟨S32768x1, .f32⟩
  | 61 => ⟨S32768x1, .f32⟩
  | 62 => ⟨S32768x1, .f32⟩
  | 63 => ⟨S32768x1, .f32⟩
  | 64 => ⟨S32768x1, .f32⟩
  | 65 => ⟨S32768x1, .f32⟩
  | 66 => ⟨S32768x1, .f32⟩
  | 67 => ⟨S32768x1, .f32⟩
  | 68 => ⟨S_, .f32⟩
  | 69 => ⟨S32768x1, .f32⟩
  | 70 => ⟨S_, .f32⟩
  | 71 => ⟨S32768x1, .f32⟩
  | 72 => ⟨S32768x1, .f32⟩
  | 73 => ⟨S_, .f32⟩
  | 74 => ⟨S32768x1, .f32⟩
  | 75 => ⟨S32768x1, .f32⟩
  | 76 => ⟨S32768x1, .f32⟩
  | 77 => ⟨S32768x1, .f32⟩
  | 78 => ⟨S_, .f32⟩
  | 79 => ⟨S32768x1, .f32⟩
  | 80 => ⟨S32768x1, .i1⟩
  | 81 => ⟨S32768x1, .f32⟩
  | 82 => ⟨S32768x2, .f32⟩
  | 83 => ⟨S32768x2, .f32⟩
  | 84 => ⟨S_, .f32⟩
  | 85 => ⟨S32768x2, .f32⟩
  | 86 => ⟨S32768x2, .f32⟩
  | 87 => ⟨S_, .f32⟩
  | 88 => ⟨S32768x2, .f32⟩
  | 89 => ⟨S32768x2, .f32⟩
  | 90 => ⟨S32768x2, .f32⟩
  | 91 => ⟨S32768x2, .f32⟩
  | 92 => ⟨S32768x1, .f32⟩
  | 93 => ⟨S32768x1, .f32⟩
  | 94 => ⟨S_, .f32⟩
  | 95 => ⟨S_, .f32⟩
  | 96 => ⟨S_, .f32⟩
  | 97 => ⟨S32768x1, .f32⟩
  | 98 => ⟨S32768x1, .f32⟩
  | 99 => ⟨S_, .f32⟩
  | 100 => ⟨S32768x1, .f32⟩
  | 101 => ⟨S32768x1, .f32⟩
  | 102 => ⟨S_, .f32⟩
  | 103 => ⟨S_, .f32⟩
  | 104 => ⟨S_, .f32⟩
  | 105 => ⟨S32768x1, .f32⟩
  | 106 => ⟨S32768x1, .f32⟩
  | 107 => ⟨S_, .f32⟩
  | 108 => ⟨S32768x1, .f32⟩
  | 109 => ⟨S32768x1, .f32⟩
  | 110 => ⟨S32768x1, .f32⟩
  | 111 => ⟨S32768x1, .f32⟩
  | 112 => ⟨S32768x1, .f32⟩
  | 113 => ⟨S32768x1, .f32⟩
  | 114 => ⟨S32768x1, .f32⟩
  | 115 => ⟨S32768x1, .f32⟩
  | 116 => ⟨S32768x1, .f32⟩
  | 117 => ⟨S_, .f32⟩
  | 118 => ⟨S32768x1, .f32⟩
  | 119 => ⟨S_, .f32⟩
  | 120 => ⟨S32768x1, .f32⟩
  | 121 => ⟨S32768x1, .f32⟩
  | 122 => ⟨S_, .f32⟩
  | 123 => ⟨S32768x1, .f32⟩
  | 124 => ⟨S32768x1, .f32⟩
  | 125 => ⟨S32768x1, .f32⟩
  | 126 => ⟨S32768x1, .f32⟩
  | 127 => ⟨S_, .f32⟩
  | _ => ⟨S32768x256, .f32⟩

abbrev hbmTy0_26 (i : Nat) : BufTy := match i % 128 with
  | 0 => ⟨S32768x1, .f32⟩
  | 1 => ⟨S32768x1, .i1⟩
  | 2 => ⟨S32768x1, .f32⟩
  | 3 => ⟨S32768x2, .f32⟩
  | 4 => ⟨S32768x2, .f32⟩
  | 5 => ⟨S32768x2, .i1⟩
  | 6 => ⟨S32768x2, .f32⟩
  | 7 => ⟨S32768x4, .f32⟩
  | 8 => ⟨S32768x4, .f32⟩
  | 9 => ⟨S_, .f32⟩
  | 10 => ⟨S32768x4, .f32⟩
  | 11 => ⟨S32768x4, .f32⟩
  | 12 => ⟨S_, .f32⟩
  | 13 => ⟨S32768x4, .f32⟩
  | 14 => ⟨S32768x4, .f32⟩
  | 15 => ⟨S32768x4, .f32⟩
  | 16 => ⟨S32768x4, .f32⟩
  | 17 => ⟨S32768x2, .f32⟩
  | 18 => ⟨S32768x2, .f32⟩
  | 19 => ⟨S_, .f32⟩
  | 20 => ⟨S_, .f32⟩
  | 21 => ⟨S_, .f32⟩
  | 22 => ⟨S32768x2, .f32⟩
  | 23 => ⟨S32768x2, .f32⟩
  | 24 => ⟨S_, .f32⟩
  | 25 => ⟨S32768x2, .f32⟩
  | 26 => ⟨S32768x2, .f32⟩
  | 27 => ⟨S_, .f32⟩
  | 28 => ⟨S_, .f32⟩
  | 29 => ⟨S_, .f32⟩
  | 30 => ⟨S32768x2, .f32⟩
  | 31 => ⟨S32768x2, .f32⟩
  | 32 => ⟨S_, .f32⟩
  | 33 => ⟨S32768x2, .f32⟩
  | 34 => ⟨S32768x2, .f32⟩
  | 35 => ⟨S32768x2, .f32⟩
  | 36 => ⟨S32768x2, .f32⟩
  | 37 => ⟨S32768x2, .f32⟩
  | 38 => ⟨S32768x2, .f32⟩
  | 39 => ⟨S32768x2, .f32⟩
  | 40 => ⟨S32768x2, .f32⟩
  | 41 => ⟨S32768x2, .f32⟩
  | 42 => ⟨S32768x1, .f32⟩
  | 43 => ⟨S32768x1, .f32⟩
  | 44 => ⟨S_, .f32⟩
  | 45 => ⟨S_, .f32⟩
  | 46 => ⟨S_, .f32⟩
  | 47 => ⟨S32768x1, .f32⟩
  | 48 => ⟨S32768x1, .f32⟩
  | 49 => ⟨S_, .f32⟩
  | 50 => ⟨S32768x1, .f32⟩
  | 51 => ⟨S32768x1, .f32⟩
  | 52 => ⟨S_, .f32⟩
  | 53 => ⟨S_, .f32⟩
  | 54 => ⟨S_, .f32⟩
  | 55 => ⟨S32768x1, .f32⟩
  | 56 => ⟨S32768x1, .f32⟩
  | 57 => ⟨S_, .f32⟩
  | 58 => ⟨S32768x1, .f32⟩
  | 59 => ⟨S32768x1, .f32⟩
  | 60 => ⟨S32768x1, .f32⟩
  | 61 => ⟨S32768x1, .f32⟩
  | 62 => ⟨S32768x1, .f32⟩
  | 63 => ⟨S32768x1, .f32⟩
  | 64 => ⟨S32768x1, .f32⟩
  | 65 => ⟨S32768x1, .f32⟩
  | 66 => ⟨S32768x1, .f32⟩
  | 67 => ⟨S_, .f32⟩
  | 68 => ⟨S32768x1, .f32⟩
  | 69 => ⟨S_, .f32⟩
  | 70 => ⟨S32768x1, .f32⟩
  | 71 => ⟨S32768x1, .f32⟩
  | 72 => ⟨S_, .f32⟩
  | 73 => ⟨S32768x1, .f32⟩
  | 74 => ⟨S32768x1, .f32⟩
  | 75 => ⟨S32768x1, .f32⟩
  | 76 => ⟨S32768x1, .f32⟩
  | 77 => ⟨S_, .f32⟩
  | 78 => ⟨S32768x1, .f32⟩
  | 79 => ⟨S32768x1, .i1⟩
  | 80 => ⟨S32768x1, .f32⟩
  | 81 => ⟨S32768x2, .f32⟩
  | 82 => ⟨S32768x2, .f32⟩
  | 83 => ⟨S_, .f32⟩
  | 84 => ⟨S32768x2, .f32⟩
  | 85 => ⟨S32768x2, .f32⟩
  | 86 => ⟨S_, .f32⟩
  | 87 => ⟨S32768x2, .f32⟩
  | 88 => ⟨S32768x2, .f32⟩
  | 89 => ⟨S32768x2, .f32⟩
  | 90 => ⟨S32768x2, .f32⟩
  | 91 => ⟨S32768x1, .f32⟩
  | 92 => ⟨S32768x1, .f32⟩
  | 93 => ⟨S_, .f32⟩
  | 94 => ⟨S_, .f32⟩
  | 95 => ⟨S_, .f32⟩
  | 96 => ⟨S32768x1, .f32⟩
  | 97 => ⟨S32768x1, .f32⟩
  | 98 => ⟨S_, .f32⟩
  | 99 => ⟨S32768x1, .f32⟩
  | 100 => ⟨S32768x1, .f32⟩
  | 101 => ⟨S_, .f32⟩
  | 102 => ⟨S_, .f32⟩
  | 103 => ⟨S_, .f32⟩
  | 104 => ⟨S32768x1, .f32⟩
  | 105 => ⟨S32768x1, .f32⟩
  | 106 => ⟨S_, .f32⟩
  | 107 => ⟨S32768x1, .f32⟩
  | 108 => ⟨S32768x1, .f32⟩
  | 109 => ⟨S32768x1, .f32⟩
  | 110 => ⟨S32768x1, .f32⟩
  | 111 => ⟨S32768x1, .f32⟩
  | 112 => ⟨S32768x1, .f32⟩
  | 113 => ⟨S32768x1, .f32⟩
  | 114 => ⟨S32768x1, .f32⟩
  | 115 => ⟨S32768x1, .f32⟩
  | 116 => ⟨S_, .f32⟩
  | 117 => ⟨S32768x1, .f32⟩
  | 118 => ⟨S_, .f32⟩
  | 119 => ⟨S32768x1, .f32⟩
  | 120 => ⟨S32768x1, .f32⟩
  | 121 => ⟨S_, .f32⟩
  | 122 => ⟨S32768x1, .f32⟩
  | 123 => ⟨S32768x1, .f32⟩
  | 124 => ⟨S32768x1, .f32⟩
  | 125 => ⟨S32768x1, .f32⟩
  | 126 => ⟨S_, .f32⟩
  | 127 => ⟨S32768x1, .f32⟩
  | _ => ⟨S32768x256, .f32⟩

abbrev hbmTy0_27 (i : Nat) : BufTy := match i % 128 with
  | 0 => ⟨S32768x1, .i1⟩
  | 1 => ⟨S32768x1, .f32⟩
  | 2 => ⟨S32768x2, .f32⟩
  | 3 => ⟨S32768x2, .f32⟩
  | 4 => ⟨S32768x2, .i1⟩
  | 5 => ⟨S32768x2, .f32⟩
  | 6 => ⟨S32768x4, .f32⟩
  | 7 => ⟨S32768x4, .f32⟩
  | 8 => ⟨S32768x4, .i1⟩
  | 9 => ⟨S32768x4, .f32⟩
  | 10 => ⟨S32768x8, .f32⟩
  | 11 => ⟨S32768x8, .f32⟩
  | 12 => ⟨S_, .f32⟩
  | 13 => ⟨S32768x8, .f32⟩
  | 14 => ⟨S32768x8, .f32⟩
  | 15 => ⟨S_, .f32⟩
  | 16 => ⟨S32768x8, .f32⟩
  | 17 => ⟨S32768x8, .f32⟩
  | 18 => ⟨S32768x8, .f32⟩
  | 19 => ⟨S32768x8, .f32⟩
  | 20 => ⟨S32768x4, .f32⟩
  | 21 => ⟨S32768x4, .f32⟩
  | 22 => ⟨S_, .f32⟩
  | 23 => ⟨S_, .f32⟩
  | 24 => ⟨S_, .f32⟩
  | 25 => ⟨S32768x4, .f32⟩
  | 26 => ⟨S32768x4, .f32⟩
  | 27 => ⟨S_, .f32⟩
  | 28 => ⟨S32768x4, .f32⟩
  | 29 => ⟨S32768x4, .f32⟩
  | 30 => ⟨S_, .f32⟩
  | 31 => ⟨S_, .f32⟩
  | 32 => ⟨S_, .f32⟩
  | 33 => ⟨S32768x4, .f32⟩
  | 34 => ⟨S32768x4, .f32⟩
  | 35 => ⟨S_, .f32⟩
  | 36 => ⟨S32768x4, .f32⟩
  | 37 => ⟨S32768x4, .f32⟩
  | 38 => ⟨S32768x4, .f32⟩
  | 39 => ⟨S32768x4, .f32⟩
  | 40 => ⟨S32768x4, .f32⟩
  | 41 => ⟨S32768x4, .f32⟩
  | 42 => ⟨S32768x4, .f32⟩
  | 43 => ⟨S32768x4, .f32⟩
  | 44 => ⟨S32768x4, .f32⟩
  | 45 => ⟨S32768x2, .f32⟩
  | 46 => ⟨S32768x2, .f32⟩
  | 47 => ⟨S_, .f32⟩
  | 48 => ⟨S_, .f32⟩
  | 49 => ⟨S_, .f32⟩
  | 50 => ⟨S32768x2, .f32⟩
  | 51 => ⟨S32768x2, .f32⟩
  | 52 => ⟨S_, .f32⟩
  | 53 => ⟨S32768x2, .f32⟩
  | 54 => ⟨S32768x2, .f32⟩
  | 55 => ⟨S_, .f32⟩
  | 56 => ⟨S_, .f32⟩
  | 57 => ⟨S_, .f32⟩
  | 58 => ⟨S32768x2, .f32⟩
  | 59 => ⟨S32768x2, .f32⟩
  | 60 => ⟨S_, .f32⟩
  | 61 => ⟨S32768x2, .f32⟩
  | 62 => ⟨S32768x2, .f32⟩
  | 63 => ⟨S32768x2, .f32⟩
  | 64 => ⟨S32768x2, .f32⟩
  | 65 => ⟨S32768x2, .f32⟩
  | 66 => ⟨S32768x2, .f32⟩
  | 67 => ⟨S32768x2, .f32⟩
  | 68 => ⟨S32768x2, .f32⟩
  | 69 => ⟨S32768x2, .f32⟩
  | 70 => ⟨S32768x1, .f32⟩
  | 71 => ⟨S32768x1, .f32⟩
  | 72 => ⟨S_, .f32⟩
  | 73 => ⟨S_, .f32⟩
  | 74 => ⟨S_, .f32⟩
  | 75 => ⟨S32768x1, .f32⟩
  | 76 => ⟨S32768x1, .f32⟩
  | 77 => ⟨S_, .f32⟩
  | 78 => ⟨S32768x1, .f32⟩
  | 79 => ⟨S32768x1, .f32⟩
  | 80 => ⟨S_, .f32⟩
  | 81 => ⟨S_, .f32⟩
  | 82 => ⟨S_, .f32⟩
  | 83 => ⟨S32768x1, .f32⟩
  | 84 => ⟨S32768x1, .f32⟩
  | 85 => ⟨S_, .f32⟩
  | 86 => ⟨S32768x1, .f32⟩
  | 87 => ⟨S32768x1, .f32⟩
  | 88 => ⟨S32768x1, .f32⟩
  | 89 => ⟨S32768x1, .f32⟩
  | 90 => ⟨S32768x1, .f32⟩
  | 91 => ⟨S32768x1, .f32⟩
  | 92 => ⟨S32768x1, .f32⟩
  | 93 => ⟨S32768x1, .f32⟩
  | 94 => ⟨S32768x1, .f32⟩
  | 95 => ⟨S_, .f32⟩
  | 96 => ⟨S32768x1, .f32⟩
  | 97 => ⟨S_, .f32⟩
  | 98 => ⟨S32768x1, .f32⟩
  | 99 => ⟨S32768x1, .f32⟩
  | 100 => ⟨S_, .f32⟩
  | 101 => ⟨S32768x1, .f32⟩
  | 102 => ⟨S32768x1, .f32⟩
  | 103 => ⟨S32768x1, .f32⟩
  | 104 => ⟨S32768x1, .f32⟩
  | 105 => ⟨S_, .f32⟩
  | 106 => ⟨S32768x1, .f32⟩
  | 107 => ⟨S32768x1, .i1⟩
  | 108 => ⟨S32768x1, .f32⟩
  | 109 => ⟨S32768x2, .f32⟩
  | 110 => ⟨S32768x2, .f32⟩
  | 111 => ⟨S_, .f32⟩
  | 112 => ⟨S32768x2, .f32⟩
  | 113 => ⟨S32768x2, .f32⟩
  | 114 => ⟨S_, .f32⟩
  | 115 => ⟨S32768x2, .f32⟩
  | 116 => ⟨S32768x2, .f32⟩
  | 117 => ⟨S32768x2, .f32⟩
  | 118 => ⟨S32768x2, .f32⟩
  | 119 => ⟨S32768x1, .f32⟩
  | 120 => ⟨S32768x1, .f32⟩
  | 121 => ⟨S_, .f32⟩
  | 122 => ⟨S_, .f32⟩
  | 123 => ⟨S_, .f32⟩
  | 124 => ⟨S32768x1, .f32⟩
  | 125 => ⟨S32768x1, .f32⟩
  | 126 => ⟨S_, .f32⟩
  | 127 => ⟨S32768x1, .f32⟩
  | _ => ⟨S32768x256, .f32⟩

abbrev hbmTy0_28 (i : Nat) : BufTy := match i % 128 with
  | 0 => ⟨S32768x1, .f32⟩
  | 1 => ⟨S_, .f32⟩
  | 2 => ⟨S_, .f32⟩
  | 3 => ⟨S_, .f32⟩
  | 4 => ⟨S32768x1, .f32⟩
  | 5 => ⟨S32768x1, .f32⟩
  | 6 => ⟨S_, .f32⟩
  | 7 => ⟨S32768x1, .f32⟩
  | 8 => ⟨S32768x1, .f32⟩
  | 9 => ⟨S32768x1, .f32⟩
  | 10 => ⟨S32768x1, .f32⟩
  | 11 => ⟨S32768x1, .f32⟩
  | 12 => ⟨S32768x1, .f32⟩
  | 13 => ⟨S32768x1, .f32⟩
  | 14 => ⟨S32768x1, .f32⟩
  | 15 => ⟨S32768x1, .f32⟩
  | 16 => ⟨S_, .f32⟩
  | 17 => ⟨S32768x1, .f32⟩
  | 18 => ⟨S_, .f32⟩
  | 19 => ⟨S32768x1, .f32⟩
  | 20 => ⟨S32768x1, .f32⟩
  | 21 => ⟨S_, .f32⟩
  | 22 => ⟨S32768x1, .f32⟩
  | 23 => ⟨S32768x1, .f32⟩
  | 24 => ⟨S32768x1, .f32⟩
  | 25 => ⟨S32768x1, .f32⟩
  | 26 => ⟨S_, .f32⟩
  | 27 => ⟨S32768x1, .f32⟩
  | 28 => ⟨S32768x1, .i1⟩
  | 29 => ⟨S32768x1, .f32⟩
  | 30 => ⟨S32768x2, .f32⟩
  | 31 => ⟨S32768x2, .f32⟩
  | 32 => ⟨S32768x2, .i1⟩
  | 33 => ⟨S32768x2, .f32⟩
  | 34 => ⟨S32768x4, .f32⟩
  | 35 => ⟨S32768x4, .f32⟩
  | 36 => ⟨S_, .f32⟩
  | 37 => ⟨S32768x4, .f32⟩
  | 38 => ⟨S32768x4, .f32⟩
  | 39 => ⟨S_, .f32⟩
  | 40 => ⟨S32768x4, .f32⟩
  | 41 => ⟨S32768x4, .f32⟩
  | 42 => ⟨S32768x4, .f32⟩
  | 43 => ⟨S32768x4, .f32⟩
  | 44 => ⟨S32768x2, .f32⟩
  | 45 => ⟨S32768x2, .f32⟩
  | 46 => ⟨S_, .f32⟩
  | 47 => ⟨S_, .f32⟩
  | 48 => ⟨S_, .f32⟩
  | 49 => ⟨S32768x2, .f32⟩
  | 50 => ⟨S32768x2, .f32⟩
  | 51 => ⟨S_, .f32⟩
  | 52 => ⟨S32768x2, .f32⟩
  | 53 => ⟨S32768x2, .f32⟩
  | 54 => ⟨S_, .f32⟩
  | 55 => ⟨S_, .f32⟩
  | 56 => ⟨S_, .f32⟩
  | 57 => ⟨S32768x2, .f32⟩
  | 58 => ⟨S32768x2, .f32⟩
  | 59 => ⟨S_, .f32⟩
  | 60 => ⟨S32768x2, .f32⟩
  | 61 => ⟨S32768x2, .f32⟩
  | 62 => ⟨S32768x2, .f32⟩
  | 63 => ⟨S32768x2, .f32⟩
  | 64 => ⟨S32768x2, .f32⟩
  | 65 => ⟨S32768x2, .f32⟩
  | 66 => ⟨S32768x2, .f32⟩
  | 67 => ⟨S32768x2, .f32⟩
  | 68 => ⟨S32768x2, .f32⟩
  | 69 => ⟨S32768x1, .f32⟩
  | 70 => ⟨S32768x1, .f32⟩
  | 71 => ⟨S_, .f32⟩
  | 72 => ⟨S_, .f32⟩
  | 73 => ⟨S_, .f32⟩
  | 74 => ⟨S32768x1, .f32⟩
  | 75 => ⟨S32768x1, .f32⟩
  | 76 => ⟨S_, .f32⟩
  | 77 => ⟨S32768x1, .f32⟩
  | 78 => ⟨S32768x1, .f32⟩
  | 79 => ⟨S_, .f32⟩
  | 80 => ⟨S_, .f32⟩
  | 81 => ⟨S_, .f32⟩
  | 82 => ⟨S32768x1, .f32⟩
  | 83 => ⟨S32768x1, .f32⟩
  | 84 => ⟨S_, .f32⟩
  | 85 => ⟨S32768x1, .f32⟩
  | 86 => ⟨S32768x1, .f32⟩
  | 87 => ⟨S32768x1, .f32⟩
  | 88 => ⟨S32768x1, .f32⟩
  | 89 => ⟨S32768x1, .f32⟩
  | 90 => ⟨S32768x1, .f32⟩
  | 91 => ⟨S32768x1, .f32⟩
  | 92 => ⟨S32768x1, .f32⟩
  | 93 => ⟨S32768x1, .f32⟩
  | 94 => ⟨S_, .f32⟩
  | 95 => ⟨S32768x1, .f32⟩
  | 96 => ⟨S_, .f32⟩
  | 97 => ⟨S32768x1, .f32⟩
  | 98 => ⟨S32768x1, .f32⟩
  | 99 => ⟨S_, .f32⟩
  | 100 => ⟨S32768x1, .f32⟩
  | 101 => ⟨S32768x1, .f32⟩
  | 102 => ⟨S32768x1, .f32⟩
  | 103 => ⟨S32768x1, .f32⟩
  | 104 => ⟨S_, .f32⟩
  | 105 => ⟨S32768x1, .f32⟩
  | 106 => ⟨S32768x1, .i1⟩
  | 107 => ⟨S32768x1, .f32⟩
  | 108 => ⟨S32768x2, .f32⟩
  | 109 => ⟨S32768x2, .f32⟩
  | 110 => ⟨S_, .f32⟩
  | 111 => ⟨S32768x2, .f32⟩
  | 112 => ⟨S32768x2, .f32⟩
  | 113 => ⟨S_, .f32⟩
  | 114 => ⟨S32768x2, .f32⟩
  | 115 => ⟨S32768x2, .f32⟩
  | 116 => ⟨S32768x2, .f32⟩
  | 117 => ⟨S32768x2, .f32⟩
  | 118 => ⟨S32768x1, .f32⟩
  | 119 => ⟨S32768x1, .f32⟩
  | 120 => ⟨S_, .f32⟩
  | 121 => ⟨S_, .f32⟩
  | 122 => ⟨S_, .f32⟩
  | 123 => ⟨S32768x1, .f32⟩
  | 124 => ⟨S32768x1, .f32⟩
  | 125 => ⟨S_, .f32⟩
  | 126 => ⟨S32768x1, .f32⟩
  | 127 => ⟨S32768x1, .f32⟩
  | _ => ⟨S32768x256, .f32⟩

abbrev hbmTy0_29 (i : Nat) : BufTy := match i % 128 with
  | 0 => ⟨S_, .f32⟩
  | 1 => ⟨S_, .f32⟩
  | 2 => ⟨S_, .f32⟩
  | 3 => ⟨S32768x1, .f32⟩
  | 4 => ⟨S32768x1, .f32⟩
  | 5 => ⟨S_, .f32⟩
  | 6 => ⟨S32768x1, .f32⟩
  | 7 => ⟨S32768x1, .f32⟩
  | 8 => ⟨S32768x1, .f32⟩
  | 9 => ⟨S32768x1, .f32⟩
  | 10 => ⟨S32768x1, .f32⟩
  | 11 => ⟨S32768x1, .f32⟩
  | 12 => ⟨S32768x1, .f32⟩
  | 13 => ⟨S32768x1, .f32⟩
  | 14 => ⟨S32768x1, .f32⟩
  | 15 => ⟨S_, .f32⟩
  | 16 => ⟨S32768x1, .f32⟩
  | 17 => ⟨S_, .f32⟩
  | 18 => ⟨S32768x1, .f32⟩
  | 19 => ⟨S32768x1, .f32⟩
  | 20 => ⟨S_, .f32⟩
  | 21 => ⟨S32768x1, .f32⟩
  | 22 => ⟨S32768x1, .f32⟩
  | 23 => ⟨S32768x1, .f32⟩
  | 24 => ⟨S32768x1, .f32⟩
  | 25 => ⟨S_, .f32⟩
  | 26 => ⟨S32768x1, .f32⟩
  | 27 => ⟨S32768x1, .i1⟩
  | 28 => ⟨S32768x1, .f32⟩
  | 29 => ⟨S32768x2, .f32⟩
  | 30 => ⟨S32768x2, .f32⟩
  | 31 => ⟨S32768x2, .i1⟩
  | 32 => ⟨S32768x2, .f32⟩
  | 33 => ⟨S32768x4, .f32⟩
  | 34 => ⟨S32768x4, .f32⟩
  | 35 => ⟨S32768x4, .i1⟩
  | 36 => ⟨S32768x4, .f32⟩
  | 37 => ⟨S32768x8, .f32⟩
  | 38 => ⟨S32768x8, .f32⟩
  | 39 => ⟨S32768x8, .i1⟩
  | 40 => ⟨S32768x8, .f32⟩
  | 41 => ⟨S32768x16, .f32⟩
  | 42 => ⟨S32768x16, .f32⟩
  | 43 => ⟨S32768x16, .i1⟩
  | 44 => ⟨S32768x16, .f32⟩
  | 45 => ⟨S32768x32, .f32⟩
  | 46 => ⟨S32768x32, .f32⟩
  | 47 => ⟨S_, .f32⟩
  | 48 => ⟨S32768x32, .f32⟩
  | 49 => ⟨S32768x32, .f32⟩
  | 50 => ⟨S_, .f32⟩
  | 51 => ⟨S32768x32, .f32⟩
  | 52 => ⟨S32768x32, .f32⟩
  | 53 => ⟨S32768x32, .f32⟩
  | 54 => ⟨S32768x32, .f32⟩
  | 55 => ⟨S32768x16, .f32⟩
  | 56 => ⟨S32768x16, .f32⟩
  | 57 => ⟨S_, .f32⟩
  | 58 => ⟨S_, .f32⟩
  | 59 => ⟨S_, .f32⟩
  | 60 => ⟨S32768x16, .f32⟩
  | 61 => ⟨S32768x16, .f32⟩
  | 62 => ⟨S_, .f32⟩
  | 63 => ⟨S32768x16, .f32⟩
  | 64 => ⟨S32768x16, .f32⟩
  | 65 => ⟨S_, .f32⟩
  | 66 => ⟨S_, .f32⟩
  | 67 => ⟨S_, .f32⟩
  | 68 => ⟨S32768x16, .f32⟩
  | 69 => ⟨S32768x16, .f32⟩
  | 70 => ⟨S_, .f32⟩
  | 71 => ⟨S32768x16, .f32⟩
  | 72 => ⟨S32768x16, .f32⟩
  | 73 => ⟨S32768x16, .f32⟩
  | 74 => ⟨S32768x16, .f32⟩
  | 75 => ⟨S32768x16, .f32⟩
  | 76 => ⟨S32768x16, .f32⟩
  | 77 => ⟨S32768x16, .f32⟩
  | 78 => ⟨S32768x16, .f32⟩
  | 79 => ⟨S32768x16, .f32⟩
  | 80 => ⟨S32768x8, .f32⟩
  | 81 => ⟨S32768x8, .f32⟩
  | 82 => ⟨S_, .f32⟩
  | 83 => ⟨S_, .f32⟩
  | 84 => ⟨S_, .f32⟩
  | 85 => ⟨S32768x8, .f32⟩
  | 86 => ⟨S32768x8, .f32⟩
  | 87 => ⟨S_, .f32⟩
  | 88 => ⟨S32768x8, .f32⟩
  | 89 => ⟨S32768x8, .f32⟩
  | 90 => ⟨S_, .f32⟩
  | 91 => ⟨S_, .f32⟩
  | 92 => ⟨S_, .f32⟩
  | 93 => ⟨S32768x8, .f32⟩
  | 94 => ⟨S32768x8, .f32⟩
  | 95 => ⟨S_, .f32⟩
  | 96 => ⟨S32768x8, .f32⟩
  | 97 => ⟨S32768x8, .f32⟩
  | 98 => ⟨S32768x8, .f32⟩
  | 99 => ⟨S32768x8, .f32⟩
  | 100 => ⟨S32768x8, .f32⟩
  | 101 => ⟨S32768x8, .f32⟩
  | 102 => ⟨S32768x8, .f32⟩
  | 103 => ⟨S32768x8, .f32⟩
  | 104 => ⟨S32768x8, .f32⟩
  | 105 => ⟨S32768x4, .f32⟩
  | 106 => ⟨S32768x4, .f32⟩
  | 107 => ⟨S_, .f32⟩
  | 108 => ⟨S_, .f32⟩
  | 109 => ⟨S_, .f32⟩
  | 110 => ⟨S32768x4, .f32⟩
  | 111 => ⟨S32768x4, .f32⟩
  | 112 => ⟨S_, .f32⟩
  | 113 => ⟨S32768x4, .f32⟩
  | 114 => ⟨S32768x4, .f32⟩
  | 115 => ⟨S_, .f32⟩
  | 116 => ⟨S_, .f32⟩
  | 117 => ⟨S_, .f32⟩
  | 118 => ⟨S32768x4, .f32⟩
  | 119 => ⟨S32768x4, .f32⟩
  | 120 => ⟨S_, .f32⟩
  | 121 => ⟨S32768x4, .f32⟩
  | 122 => ⟨S32768x4, .f32⟩
  | 123 => ⟨S32768x4, .f32⟩
  | 124 => ⟨S32768x4, .f32⟩
  | 125 => ⟨S32768x4, .f32⟩
  | 126 => ⟨S32768x4, .f32⟩
  | 127 => ⟨S32768x4, .f32⟩
  | _ => ⟨S32768x256, .f32⟩

abbrev hbmTy0_30 (i : Nat) : BufTy := match i % 128 with
  | 0 => ⟨S32768x4, .f32⟩
  | 1 => ⟨S32768x4, .f32⟩
  | 2 => ⟨S32768x2, .f32⟩
  | 3 => ⟨S32768x2, .f32⟩
  | 4 => ⟨S_, .f32⟩
  | 5 => ⟨S_, .f32⟩
  | 6 => ⟨S_, .f32⟩
  | 7 => ⟨S32768x2, .f32⟩
  | 8 => ⟨S32768x2, .f32⟩
  | 9 => ⟨S_, .f32⟩
  | 10 => ⟨S32768x2, .f32⟩
  | 11 => ⟨S32768x2, .f32⟩
  | 12 => ⟨S_, .f32⟩
  | 13 => ⟨S_, .f32⟩
  | 14 => ⟨S_, .f32⟩
  | 15 => ⟨S32768x2, .f32⟩
  | 16 => ⟨S32768x2, .f32⟩
  | 17 => ⟨S_, .f32⟩
  | 18 => ⟨S32768x2, .f32⟩
  | 19 => ⟨S32768x2, .f32⟩
  | 20 => ⟨S32768x2, .f32⟩
  | 21 => ⟨S32768x2, .f32⟩
  | 22 => ⟨S32768x2, .f32⟩
  | 23 => ⟨S32768x2, .f32⟩
  | 24 => ⟨S32768x2, .f32⟩
  | 25 => ⟨S32768x2, .f32⟩
  | 26 => ⟨S32768x2, .f32⟩
  | 27 => ⟨S32768x1, .f32⟩
  | 28 => ⟨S32768x1, .f32⟩
  | 29 => ⟨S_, .f32⟩
  | 30 => ⟨S_, .f32⟩
  | 31 => ⟨S_, .f32⟩
  | 32 => ⟨S32768x1, .f32⟩
  | 33 => ⟨S32768x1, .f32⟩
  | 34 => ⟨S_, .f32⟩
  | 35 => ⟨S32768x1, .f32⟩
  | 36 => ⟨S32768x1, .f32⟩
  | 37 => ⟨S_, .f32⟩
  | 38 => ⟨S_, .f32⟩
  | 39 => ⟨S_, .f32⟩
  | 40 => ⟨S32768x1, .f32⟩
  | 41 => ⟨S32768x1, .f32⟩
  | 42 => ⟨S_, .f32⟩
  | 43 => ⟨S32768x1, .f32⟩
  | 44 => ⟨S32768x1, .f32⟩
  | 45 => ⟨S32768x1, .f32⟩
  | 46 => ⟨S32768x1, .f32⟩
  | 47 => ⟨S32768x1, .f32⟩
  | 48 => ⟨S32768x1, .f32⟩
  | 49 => ⟨S32768x1, .f32⟩
  | 50 => ⟨S32768x1, .f32⟩
  | 51 => ⟨S32768x1, .f32⟩
  | 52 => ⟨S_, .f32⟩
  | 53 => ⟨S32768x1, .f32⟩
  | 54 => ⟨S_, .f32⟩
  | 55 => ⟨S32768x1, .f32⟩
  | 56 => ⟨S32768x1, .f32⟩
  | 57 => ⟨S_, .f32⟩
  | 58 => ⟨S32768x1, .f32⟩
  | 59 => ⟨S32768x1, .f32⟩
  | 60 => ⟨S32768x1, .f32⟩
  | 61 => ⟨S32768x1, .f32⟩
  | 62 => ⟨S_, .f32⟩
  | 63 => ⟨S32768x1, .f32⟩
  | 64 => ⟨S32768x1, .i1⟩
  | 65 => ⟨S32768x1, .f32⟩
  | 66 => ⟨S32768x2, .f32⟩
  | 67 => ⟨S32768x2, .f32⟩
  | 68 => ⟨S_, .f32⟩
  | 69 => ⟨S32768x2, .f32⟩
  | 70 => ⟨S32768x2, .f32⟩
  | 71 => ⟨S_, .f32⟩
  | 72 => ⟨S32768x2, .f32⟩
  | 73 => ⟨S32768x2, .f32⟩
  | 74 => ⟨S32768x2, .f32⟩
  | 75 => ⟨S32768x2, .f32⟩
  | 76 => ⟨S32768x1, .f32⟩
  | 77 => ⟨S32768x1, .f32⟩
  | 78 => ⟨S_, .f32⟩
  | 79 => ⟨S_, .f32⟩
  | 80 => ⟨S_, .f32⟩
  | 81 => ⟨S32768x1, .f32⟩
  | 82 => ⟨S32768x1, .f32⟩
  | 83 => ⟨S_, .f32⟩
  | 84 => ⟨S32768x1, .f32⟩
  | 85 => ⟨S32768x1, .f32⟩
  | 86 => ⟨S_, .f32⟩
  | 87 => ⟨S_, .f32⟩
  | 88 => ⟨S_, .f32⟩
  | 89 => ⟨S32768x1, .f32⟩
  | 90 => ⟨S32768x1, .f32⟩
  | 91 => ⟨S_, .f32⟩
  | 92 => ⟨S32768x1, .f32⟩
  | 93 => ⟨S32768x1, .f32⟩
  | 94 => ⟨S32768x1, .f32⟩
  | 95 => ⟨S32768x1, .f32⟩
  | 96 => ⟨S32768x1, .f32⟩
  | 97 => ⟨S32768x1, .f32⟩
  | 98 => ⟨S32768x1, .f32⟩
  | 99 => ⟨S32768x1, .f32⟩
  | 100 => ⟨S32768x1, .f32⟩
  | 101 => ⟨S_, .f32⟩
  | 102 => ⟨S32768x1, .f32⟩
  | 103 => ⟨S_, .f32⟩
  | 104 => ⟨S32768x1, .f32⟩
  | 105 => ⟨S32768x1, .f32⟩
  | 106 => ⟨S_, .f32⟩
  | 107 => ⟨S32768x1, .f32⟩
  | 108 => ⟨S32768x1, .f32⟩
  | 109 => ⟨S32768x1, .f32⟩
  | 110 => ⟨S32768x1, .f32⟩
  | 111 => ⟨S_, .f32⟩
  | 112 => ⟨S32768x1, .f32⟩
  | 113 => ⟨S32768x1, .i1⟩
  | 114 => ⟨S32768x1, .f32⟩
  | 115 => ⟨S32768x2, .f32⟩
  | 116 => ⟨S32768x2, .f32⟩
  | 117 => ⟨S32768x2, .i1⟩
  | 118 => ⟨S32768x2, .f32⟩
  | 119 => ⟨S32768x4, .f32⟩
  | 120 => ⟨S32768x4, .f32⟩
  | 121 => ⟨S_, .f32⟩
  | 122 => ⟨S32768x4, .f32⟩
  | 123 => ⟨S32768x4, .f32⟩
  | 124 => ⟨S_, .f32⟩
  | 125 => ⟨S32768x4, .f32⟩
  | 126 => ⟨S32768x4, .f32⟩
  | 127 => ⟨S32768x4, .f32⟩
  | _ => ⟨S32768x256, .f32⟩

abbrev hbmTy0_31 (i : Nat) : BufTy := match i % 128 with
  | 0 => ⟨S32768x4, .f32⟩
  | 1 => ⟨S32768x2, .f32⟩
  | 2 => ⟨S32768x2, .f32⟩
  | 3 => ⟨S_, .f32⟩
  | 4 => ⟨S_, .f32⟩
  | 5 => ⟨S_, .f32⟩
  | 6 => ⟨S32768x2, .f32⟩
  | 7 => ⟨S32768x2, .f32⟩
  | 8 => ⟨S_, .f32⟩
  | 9 => ⟨S32768x2, .f32⟩
  | 10 => ⟨S32768x2, .f32⟩
  | 11 => ⟨S_, .f32⟩
  | 12 => ⟨S_, .f32⟩
  | 13 => ⟨S_, .f32⟩
  | 14 => ⟨S32768x2, .f32⟩
  | 15 => ⟨S32768x2, .f32⟩
  | 16 => ⟨S_, .f32⟩
  | 17 => ⟨S32768x2, .f32⟩
  | 18 => ⟨S32768x2, .f32⟩
  | 19 => ⟨S32768x2, .f32⟩
  | 20 => ⟨S32768x2, .f32⟩
  | 21 => ⟨S32768x2, .f32⟩
  | 22 => ⟨S32768x2, .f32⟩
  | 23 => ⟨S32768x2, .f32⟩
  | 24 => ⟨S32768x2, .f32⟩
  | 25 => ⟨S32768x2, .f32⟩
  | 26 => ⟨S32768x1, .f32⟩
  | 27 => ⟨S32768x1, .f32⟩
  | 28 => ⟨S_, .f32⟩
  | 29 => ⟨S_, .f32⟩
  | 30 => ⟨S_, .f32⟩
  | 31 => ⟨S32768x1, .f32⟩
  | 32 => ⟨S32768x1, .f32⟩
  | 33 => ⟨S_, .f32⟩
  | 34 => ⟨S32768x1, .f32⟩
  | 35 => ⟨S32768x1, .f32⟩
  | 36 => ⟨S_, .f32⟩
  | 37 => ⟨S_, .f32⟩
  | 38 => ⟨S_, .f32⟩
  | 39 => ⟨S32768x1, .f32⟩
  | 40 => ⟨S32768x1, .f32⟩
  | 41 => ⟨S_, .f32⟩
  | 42 => ⟨S32768x1, .f32⟩
  | 43 => ⟨S32768x1, .f32⟩
  | 44 => ⟨S32768x1, .f32⟩
  | 45 => ⟨S32768x1, .f32⟩
  | 46 => ⟨S32768x1, .f32⟩
  | 47 => ⟨S32768x1, .f32⟩
  | 48 => ⟨S32768x1, .f32⟩
  | 49 => ⟨S32768x1, .f32⟩
  | 50 => ⟨S32768x1, .f32⟩
  | 51 => ⟨S_, .f32⟩
  | 52 => ⟨S32768x1, .f32⟩
  | 53 => ⟨S_, .f32⟩
  | 54 => ⟨S32768x1, .f32⟩
  | 55 => ⟨S32768x1, .f32⟩
  | 56 => ⟨S_, .f32⟩
  | 57 => ⟨S32768x1, .f32⟩
  | 58 => ⟨S32768x1, .f32⟩
  | 59 => ⟨S32768x1, .f32⟩
  | 60 => ⟨S32768x1, .f32⟩
  | 61 => ⟨S_, .f32⟩
  | 62 => ⟨S32768x1, .f32⟩
  | 63 => ⟨S32768x1, .i1⟩
  | 64 => ⟨S32768x1, .f32⟩
  | 65 => ⟨S32768x2, .f32⟩
  | 66 => ⟨S32768x2, .f32⟩
  | 67 => ⟨S_, .f32⟩
  | 68 => ⟨S32768x2, .f32⟩
  | 69 => ⟨S32768x2, .f32⟩
  | 70 => ⟨S_, .f32⟩
  | 71 => ⟨S32768x2, .f32⟩
  | 72 => ⟨S32768x2, .f32⟩
  | 73 => ⟨S32768x2, .f32⟩
  | 74 => ⟨S32768x2, .f32⟩
  | 75 => ⟨S32768x1, .f32⟩
  | 76 => ⟨S32768x1, .f32⟩
  | 77 => ⟨S_, .f32⟩
  | 78 => ⟨S_, .f32⟩
  | 79 => ⟨S_, .f32⟩
  | 80 => ⟨S32768x1, .f32⟩
  | 81 => ⟨S32768x1, .f32⟩
  | 82 => ⟨S_, .f32⟩
  | 83 => ⟨S32768x1, .f32⟩
  | 84 => ⟨S32768x1, .f32⟩
  | 85 => ⟨S_, .f32⟩
  | 86 => ⟨S_, .f32⟩
  | 87 => ⟨S_, .f32⟩
  | 88 => ⟨S32768x1, .f32⟩
  | 89 => ⟨S32768x1, .f32⟩
  | 90 => ⟨S_, .f32⟩
  | 91 => ⟨S32768x1, .f32⟩
  | 92 => ⟨S32768x1, .f32⟩
  | 93 => ⟨S32768x1, .f32⟩
  | 94 => ⟨S32768x1, .f32⟩
  | 95 => ⟨S32768x1, .f32⟩
  | 96 => ⟨S32768x1, .f32⟩
  | 97 => ⟨S32768x1, .f32⟩
  | 98 => ⟨S32768x1, .f32⟩
  | 99 => ⟨S32768x1, .f32⟩
  | 100 => ⟨S_, .f32⟩
  | 101 => ⟨S32768x1, .f32⟩
  | 102 => ⟨S_, .f32⟩
  | 103 => ⟨S32768x1, .f32⟩
  | 104 => ⟨S32768x1, .f32⟩
  | 105 => ⟨S_, .f32⟩
  | 106 => ⟨S32768x1, .f32⟩
  | 107 => ⟨S32768x1, .f32⟩
  | 108 => ⟨S32768x1, .f32⟩
  | 109 => ⟨S32768x1, .f32⟩
  | 110 => ⟨S_, .f32⟩
  | 111 => ⟨S32768x1, .f32⟩
  | 112 => ⟨S32768x1, .i1⟩
  | 113 => ⟨S32768x1, .f32⟩
  | 114 => ⟨S32768x2, .f32⟩
  | 115 => ⟨S32768x2, .f32⟩
  | 116 => ⟨S32768x2, .i1⟩
  | 117 => ⟨S32768x2, .f32⟩
  | 118 => ⟨S32768x4, .f32⟩
  | 119 => ⟨S32768x4, .f32⟩
  | 120 => ⟨S32768x4, .i1⟩
  | 121 => ⟨S32768x4, .f32⟩
  | 122 => ⟨S32768x8, .f32⟩
  | 123 => ⟨S32768x8, .f32⟩
  | 124 => ⟨S_, .f32⟩
  | 125 => ⟨S32768x8, .f32⟩
  | 126 => ⟨S32768x8, .f32⟩
  | 127 => ⟨S_, .f32⟩
  | _ => ⟨S32768x256, .f32⟩

abbrev hbmTy0_32 (i : Nat) : BufTy := match i % 128 with
  | 0 => ⟨S32768x8, .f32⟩
  | 1 => ⟨S32768x8, .f32⟩
  | 2 => ⟨S32768x8, .f32⟩
  | 3 => ⟨S32768x8, .f32⟩
  | 4 => ⟨S32768x4, .f32⟩
  | 5 => ⟨S32768x4, .f32⟩
  | 6 => ⟨S_, .f32⟩
  | 7 => ⟨S_, .f32⟩
  | 8 => ⟨S_, .f32⟩
  | 9 => ⟨S32768x4, .f32⟩
  | 10 => ⟨S32768x4, .f32⟩
  | 11 => ⟨S_, .f32⟩
  | 12 => ⟨S32768x4, .f32⟩
  | 13 => ⟨S32768x4, .f32⟩
  | 14 => ⟨S_, .f32⟩
  | 15 => ⟨S_, .f32⟩
  | 16 => ⟨S_, .f32⟩
  | 17 => ⟨S32768x4, .f32⟩
  | 18 => ⟨S32768x4, .f32⟩
  | 19 => ⟨S_, .f32⟩
  | 20 => ⟨S32768x4, .f32⟩
  | 21 => ⟨S32768x4, .f32⟩
  | 22 => ⟨S32768x4, .f32⟩
  | 23 => ⟨S32768x4, .f32⟩
  | 24 => ⟨S32768x4, .f32⟩
  | 25 => ⟨S32768x4, .f32⟩
  | 26 => ⟨S32768x4, .f32⟩
  | 27 => ⟨S32768x4, .f32⟩
  | 28 => ⟨S32768x4, .f32⟩
  | 29 => ⟨S32768x2, .f32⟩
  | 30 => ⟨S32768x2, .f32⟩
  | 31 => ⟨S_, .f32⟩
  | 32 => ⟨S_, .f32⟩
  | 33 => ⟨S_, .f32⟩
  | 34 => ⟨S32768x2, .f32⟩
  | 35 => ⟨S32768x2, .f32⟩
  | 36 => ⟨S_, .f32⟩
  | 37 => ⟨S32768x2, .f32⟩
  | 38 => ⟨S32768x2, .f32⟩
  | 39 => ⟨S_, .f32⟩
  | 40 => ⟨S_, .f32⟩
  | 41 => ⟨S_, .f32⟩
  | 42 => ⟨S32768x2, .f32⟩
  | 43 => ⟨S32768x2, .f32⟩
  | 44 => ⟨S_, .f32⟩
  | 45 => ⟨S32768x2, .f32⟩
  | 46 => ⟨S32768x2, .f32⟩
  | 47 => ⟨S32768x2, .f32⟩
  | 48 => ⟨S32768x2, .f32⟩
  | 49 => ⟨S32768x2, .f32⟩
  | 50 => ⟨S32768x2, .f32⟩
  | 51 => ⟨S32768x2, .f32⟩
  | 52 => ⟨S32768x2, .f32⟩
  | 53 => ⟨S32768x2, .f32⟩
  | 54 => ⟨S32768x1, .f32⟩
  | 55 => ⟨S32768x1, .f32⟩
  | 56 => ⟨S_, .f32⟩
  | 57 => ⟨S_, .f32⟩
  | 58 => ⟨S_, .f32⟩
  | 59 => ⟨S32768x1, .f32⟩
  | 60 => ⟨S32768x1, .f32⟩
  | 61 => ⟨S_, .f32⟩
  | 62 => ⟨S32768x1, .f32⟩
  | 63 => ⟨S32768x1, .f32⟩
  | 64 => ⟨S_, .f32⟩
  | 65 => ⟨S_, .f32⟩
  | 66 => ⟨S_, .f32⟩
  | 67 => ⟨S32768x1, .f32⟩
  | 68 => ⟨S32768x1, .f32⟩
  | 69 => ⟨S_, .f32⟩
  | 70 => ⟨S32768x1, .f32⟩
  | 71 => ⟨S32768x1, .f32⟩
  | 72 => ⟨S32768x1, .f32⟩
  | 73 => ⟨S32768x1, .f32⟩
  | 74 => ⟨S32768x1, .f32⟩
  | 75 => ⟨S32768x1, .f32⟩
  | 76 => ⟨S32768x1, .f32⟩
  | 77 => ⟨S32768x1, .f32⟩
  | 78 => ⟨S32768x1, .f32⟩
  | 79 => ⟨S_, .f32⟩
  | 80 => ⟨S32768x1, .f32⟩
  | 81 => ⟨S_, .f32⟩
  | 82 => ⟨S32768x1, .f32⟩
  | 83 => ⟨S32768x1, .f32⟩
  | 84 => ⟨S_, .f32⟩
  | 85 => ⟨S32768x1, .f32⟩
  | 86 => ⟨S32768x1, .f32⟩
  | 87 => ⟨S32768x1, .f32⟩
  | 88 => ⟨S32768x1, .f32⟩
  | 89 => ⟨S_, .f32⟩
  | 90 => ⟨S32768x1, .f32⟩
  | 91 => ⟨S32768x1, .i1⟩
  | 92 => ⟨S32768x1, .f32⟩
  | 93 => ⟨S32768x2, .f32⟩
  | 94 => ⟨S32768x2, .f32⟩
  | 95 => ⟨S_, .f32⟩
  | 96 => ⟨S32768x2, .f32⟩
  | 97 => ⟨S32768x2, .f32⟩
  | 98 => ⟨S_, .f32⟩
  | 99 => ⟨S32768x2, .f32⟩
  | 100 => ⟨S32768x2, .f32⟩
  | 101 => ⟨S32768x2, .f32⟩
  | 102 => ⟨S32768x2, .f32⟩
  | 103 => ⟨S32768x1, .f32⟩
  | 104 => ⟨S32768x1, .f32⟩
  | 105 => ⟨S_, .f32⟩
  | 106 => ⟨S_, .f32⟩
  | 107 => ⟨S_, .f32⟩
  | 108 => ⟨S32768x1, .f32⟩
  | 109 => ⟨S32768x1, .f32⟩
  | 110 => ⟨S_, .f32⟩
  | 111 => ⟨S32768x1, .f32⟩
  | 112 => ⟨S32768x1, .f32⟩
  | 113 => ⟨S_, .f32⟩
  | 114 => ⟨S_, .f32⟩
  | 115 => ⟨S_, .f32⟩
  | 116 => ⟨S32768x1, .f32⟩
  | 117 => ⟨S32768x1, .f32⟩
  | 118 => ⟨S_, .f32⟩
  | 119 => ⟨S32768x1, .f32⟩
  | 120 => ⟨S32768x1, .f32⟩
  | 121 => ⟨S32768x1, .f32⟩
  | 122 => ⟨S32768x1, .f32⟩
  | 123 => ⟨S32768x1, .f32⟩
  | 124 => ⟨S32768x1, .f32⟩
  | 125 => ⟨S32768x1, .f32⟩
  | 126 => ⟨S32768x1, .f32⟩
  | 127 => ⟨S32768x1, .f32⟩
  | _ => ⟨S32768x256, .f32⟩

abbrev hbmTy0_33 (i : Nat) : BufTy := match i % 128 with
  | 0 => ⟨S_, .f32⟩
  | 1 => ⟨S32768x1, .f32⟩
  | 2 => ⟨S_, .f32⟩
  | 3 => ⟨S32768x1, .f32⟩
  | 4 => ⟨S32768x1, .f32⟩
  | 5 => ⟨S_, .f32⟩
  | 6 => ⟨S32768x1, .f32⟩
  | 7 => ⟨S32768x1, .f32⟩
  | 8 => ⟨S32768x1, .f32⟩
  | 9 => ⟨S32768x1, .f32⟩
  | 10 => ⟨S_, .f32⟩
  | 11 => ⟨S32768x1, .f32⟩
  | 12 => ⟨S32768x1, .i1⟩
  | 13 => ⟨S32768x1, .f32⟩
  | 14 => ⟨S32768x2, .f32⟩
  | 15 => ⟨S32768x2, .f32⟩
  | 16 => ⟨S32768x2, .i1⟩
  | 17 => ⟨S32768x2, .f32⟩
  | 18 => ⟨S32768x4, .f32⟩
  | 19 => ⟨S32768x4, .f32⟩
  | 20 => ⟨S_, .f32⟩
  | 21 => ⟨S32768x4, .f32⟩
  | 22 => ⟨S32768x4, .f32⟩
  | 23 => ⟨S_, .f32⟩
  | 24 => ⟨S32768x4, .f32⟩
  | 25 => ⟨S32768x4, .f32⟩
  | 26 => ⟨S32768x4, .f32⟩
  | 27 => ⟨S32768x4, .f32⟩
  | 28 => ⟨S32768x2, .f32⟩
  | 29 => ⟨S32768x2, .f32⟩
  | 30 => ⟨S_, .f32⟩
  | 31 => ⟨S_, .f32⟩
  | 32 => ⟨S_, .f32⟩
  | 33 => ⟨S32768x2, .f32⟩
  | 34 => ⟨S32768x2, .f32⟩
  | 35 => ⟨S_, .f32⟩
  | 36 => ⟨S32768x2, .f32⟩
  | 37 => ⟨S32768x2, .f32⟩
  | 38 => ⟨S_, .f32⟩
  | 39 => ⟨S_, .f32⟩
  | 40 => ⟨S_, .f32⟩
  | 41 => ⟨S32768x2, .f32⟩
  | 42 => ⟨S32768x2, .f32⟩
  | 43 => ⟨S_, .f32⟩
  | 44 => ⟨S32768x2, .f32⟩
  | 45 => ⟨S32768x2, .f32⟩
  | 46 => ⟨S32768x2, .f32⟩
  | 47 => ⟨S32768x2, .f32⟩
  | 48 => ⟨S32768x2, .f32⟩
  | 49 => ⟨S32768x2, .f32⟩
  | 50 => ⟨S32768x2, .f32⟩
  | 51 => ⟨S32768x2, .f32⟩
  | 52 => ⟨S32768x2, .f32⟩
  | 53 => ⟨S32768x1, .f32⟩
  | 54 => ⟨S32768x1, .f32⟩
  | 55 => ⟨S_, .f32⟩
  | 56 => ⟨S_, .f32⟩
  | 57 => ⟨S_, .f32⟩
  | 58 => ⟨S32768x1, .f32⟩
  | 59 => ⟨S32768x1, .f32⟩
  | 60 => ⟨S_, .f32⟩
  | 61 => ⟨S32768x1, .f32⟩
  | 62 => ⟨S32768x1, .f32⟩
  | 63 => ⟨S_, .f32⟩
  | 64 => ⟨S_, .f32⟩
  | 65 => ⟨S_, .f32⟩
  | 66 => ⟨S32768x1, .f32⟩
  | 67 => ⟨S32768x1, .f32⟩
  | 68 => ⟨S_, .f32⟩
  | 69 => ⟨S32768x1, .f32⟩
  | 70 => ⟨S32768x1, .f32⟩
  | 71 => ⟨S32768x1, .f32⟩
  | 72 => ⟨S32768x1, .f32⟩
  | 73 => ⟨S32768x1, .f32⟩
  | 74 => ⟨S32768x1, .f32⟩
  | 75 => ⟨S32768x1, .f32⟩
  | 76 => ⟨S32768x1, .f32⟩
  | 77 => ⟨S32768x1, .f32⟩
  | 78 => ⟨S_, .f32⟩
  | 79 => ⟨S32768x1, .f32⟩
  | 80 => ⟨S_, .f32⟩
  | 81 => ⟨S32768x1, .f32⟩
  | 82 => ⟨S32768x1, .f32⟩
  | 83 => ⟨S_, .f32⟩
  | 84 => ⟨S32768x1, .f32⟩
  | 85 => ⟨S32768x1, .f32⟩
  | 86 => ⟨S32768x1, .f32⟩
  | 87 => ⟨S32768x1, .f32⟩
  | 88 => ⟨S_, .f32⟩
  | 89 => ⟨S32768x1, .f32⟩
  | 90 => ⟨S32768x1, .i1⟩
  | 91 => ⟨S32768x1, .f32⟩
  | 92 => ⟨S32768x2, .f32⟩
  | 93 => ⟨S32768x2, .f32⟩
  | 94 => ⟨S_, .f32⟩
  | 95 => ⟨S32768x2, .f32⟩
  | 96 => ⟨S32768x2, .f32⟩
  | 97 => ⟨S_, .f32⟩
  | 98 => ⟨S32768x2, .f32⟩
  | 99 => ⟨S32768x2, .f32⟩
  | 100 => ⟨S32768x2, .f32⟩
  | 101 => ⟨S32768x2, .f32⟩
  | 102 => ⟨S32768x1, .f32⟩
  | 103 => ⟨S32768x1, .f32⟩
  | 104 => ⟨S_, .f32⟩
  | 105 => ⟨S_, .f32⟩
  | 106 => ⟨S_, .f32⟩
  | 107 => ⟨S32768x1, .f32⟩
  | 108 => ⟨S32768x1, .f32⟩
  | 109 => ⟨S_, .f32⟩
  | 110 => ⟨S32768x1, .f32⟩
  | 111 => ⟨S32768x1, .f32⟩
  | 112 => ⟨S_, .f32⟩
  | 113 => ⟨S_, .f32⟩
  | 114 => ⟨S_, .f32⟩
  | 115 => ⟨S32768x1, .f32⟩
  | 116 => ⟨S32768x1, .f32⟩
  | 117 => ⟨S_, .f32⟩
  | 118 => ⟨S32768x1, .f32⟩
  | 119 => ⟨S32768x1, .f32⟩
  | 120 => ⟨S32768x1, .f32⟩
  | 121 => ⟨S32768x1, .f32⟩
  | 122 => ⟨S32768x1, .f32⟩
  | 123 => ⟨S32768x1, .f32⟩
  | 124 => ⟨S32768x1, .f32⟩
  | 125 => ⟨S32768x1, .f32⟩
  | 126 => ⟨S32768x1, .f32⟩
  | 127 => ⟨S_, .f32⟩
  | _ => ⟨S32768x256, .f32⟩

abbrev hbmTy0_34 (i : Nat) : BufTy := match i % 128 with
  | 0 => ⟨S32768x1, .f32⟩
  | 1 => ⟨S_, .f32⟩
  | 2 => ⟨S32768x1, .f32⟩
  | 3 => ⟨S32768x1, .f32⟩
  | 4 => ⟨S_, .f32⟩
  | 5 => ⟨S32768x1, .f32⟩
  | 6 => ⟨S32768x1, .f32⟩
  | 7 => ⟨S32768x1, .f32⟩
  | 8 => ⟨S32768x1, .f32⟩
  | 9 => ⟨S_, .f32⟩
  | 10 => ⟨S32768x1, .f32⟩
  | 11 => ⟨S32768x1, .i1⟩
  | 12 => ⟨S32768x1, .f32⟩
  | 13 => ⟨S32768x2, .f32⟩
  | 14 => ⟨S32768x2, .f32⟩
  | 15 => ⟨S32768x2, .i1⟩
  | 16 => ⟨S32768x2, .f32⟩
  | 17 => ⟨S32768x4, .f32⟩
  | 18 => ⟨S32768x4, .f32⟩
  | 19 => ⟨S32768x4, .i1⟩
  | 20 => ⟨S32768x4, .f32⟩
  | 21 => ⟨S32768x8, .f32⟩
  | 22 => ⟨S32768x8, .f32⟩
  | 23 => ⟨S32768x8, .i1⟩
  | 24 => ⟨S32768x8, .f32⟩
  | 25 => ⟨S32768x16, .f32⟩
  | 26 => ⟨S32768x16, .f32⟩
  | 27 => ⟨S_, .f32⟩
  | 28 => ⟨S32768x16, .f32⟩
  | 29 => ⟨S32768x16, .f32⟩
  | 30 => ⟨S_, .f32⟩
  | 31 => ⟨S32768x16, .f32⟩
  | 32 => ⟨S32768x16, .f32⟩
  | 33 => ⟨S32768x16, .f32⟩
  | 34 => ⟨S32768x16, .f32⟩
  | 35 => ⟨S32768x8, .f32⟩
  | 36 => ⟨S32768x8, .f32⟩
  | 37 => ⟨S_, .f32⟩
  | 38 => ⟨S_, .f32⟩
  | 39 => ⟨S_, .f32⟩
  | 40 => ⟨S32768x8, .f32⟩
  | 41 => ⟨S32768x8, .f32⟩
  | 42 => ⟨S_, .f32⟩
  | 43 => ⟨S32768x8, .f32⟩
  | 44 => ⟨S32768x8, .f32⟩
  | 45 => ⟨S_, .f32⟩
  | 46 => ⟨S_, .f32⟩
  | 47 => ⟨S_, .f32⟩
  | 48 => ⟨S32768x8, .f32⟩
  | 49 => ⟨S32768x8, .f32⟩
  | 50 => ⟨S_, .f32⟩
  | 51 => ⟨S32768x8, .f32⟩
  | 52 => ⟨S32768x8, .f32⟩
  | 53 => ⟨S32768x8, .f32⟩
  | 54 => ⟨S32768x8, .f32⟩
  | 55 => ⟨S32768x8, .f32⟩
  | 56 => ⟨S32768x8, .f32⟩
  | 57 => ⟨S32768x8, .f32⟩
  | 58 => ⟨S32768x8, .f32⟩
  | 59 => ⟨S32768x8, .f32⟩
  | 60 => ⟨S32768x4, .f32⟩
  | 61 => ⟨S32768x4, .f32⟩
  | 62 => ⟨S_, .f32⟩
  | 63 => ⟨S_, .f32⟩
  | 64 => ⟨S_, .f32⟩
  | 65 => ⟨S32768x4, .f32⟩
  | 66 => ⟨S32768x4, .f32⟩
  | 67 => ⟨S_, .f32⟩
  | 68 => ⟨S32768x4, .f32⟩
  | 69 => ⟨S32768x4, .f32⟩
  | 70 => ⟨S_, .f32⟩
  | 71 => ⟨S_, .f32⟩
  | 72 => ⟨S_, .f32⟩
  | 73 => ⟨S32768x4, .f32⟩
  | 74 => ⟨S32768x4, .f32⟩
  | 75 => ⟨S_, .f32⟩
  | 76 => ⟨S32768x4, .f32⟩
  | 77 => ⟨S32768x4, .f32⟩
  | 78 => ⟨S32768x4, .f32⟩
  | 79 => ⟨S32768x4, .f32⟩
  | 80 => ⟨S32768x4, .f32⟩
  | 81 => ⟨S32768x4, .f32⟩
  | 82 => ⟨S32768x4, .f32⟩
  | 83 => ⟨S32768x4, .f32⟩
  | 84 => ⟨S32768x4, .f32⟩
  | 85 => ⟨S32768x2, .f32⟩
  | 86 => ⟨S32768x2, .f32⟩
  | 87 => ⟨S_, .f32⟩
  | 88 => ⟨S_, .f32⟩
  | 89 => ⟨S_, .f32⟩
  | 90 => ⟨S32768x2, .f32⟩
  | 91 => ⟨S32768x2, .f32⟩
  | 92 => ⟨S_, .f32⟩
  | 93 => ⟨S32768x2, .f32⟩
  | 94 => ⟨S32768x2, .f32⟩
  | 95 => ⟨S_, .f32⟩
  | 96 => ⟨S_, .f32⟩
  | 97 => ⟨S_, .f32⟩
  | 98 => ⟨S32768x2, .f32⟩
  | 99 => ⟨S32768x2, .f32⟩
  | 100 => ⟨S_, .f32⟩
  | 101 => ⟨S32768x2, .f32⟩
  | 102 => ⟨S32768x2, .f32⟩
  | 103 => ⟨S32768x2, .f32⟩
  | 104 => ⟨S32768x2, .f32⟩
  | 105 => ⟨S32768x2, .f32⟩
  | 106 => ⟨S32768x2, .f32⟩
  | 107 => ⟨S32768x2, .f32⟩
  | 108 => ⟨S32768x2, .f32⟩
  | 109 => ⟨S32768x2, .f32⟩
  | 110 => ⟨S32768x1, .f32⟩
  | 111 => ⟨S32768x1, .f32⟩
  | 112 => ⟨S_, .f32⟩
  | 113 => ⟨S_, .f32⟩
  | 114 => ⟨S_, .f32⟩
  | 115 => ⟨S32768x1, .f32⟩
  | 116 => ⟨S32768x1, .f32⟩
  | 117 => ⟨S_, .f32⟩
  | 118 => ⟨S32768x1, .f32⟩
  | 119 => ⟨S32768x1, .f32⟩
  | 120 => ⟨S_, .f32⟩
  | 121 => ⟨S_, .f32⟩
  | 122 => ⟨S_, .f32⟩
  | 123 => ⟨S32768x1, .f32⟩
  | 124 => ⟨S32768x1, .f32⟩
  | 125 => ⟨S_, .f32⟩
  | 126 => ⟨S32768x1, .f32⟩
  | 127 => ⟨S32768x1, .f32⟩
  | _ => ⟨S32768x256, .f32⟩

abbrev hbmTy0_35 (i : Nat) : BufTy := match i % 128 with
  | 0 => ⟨S32768x1, .f32⟩
  | 1 => ⟨S32768x1, .f32⟩
  | 2 => ⟨S32768x1, .f32⟩
  | 3 => ⟨S32768x1, .f32⟩
  | 4 => ⟨S32768x1, .f32⟩
  | 5 => ⟨S32768x1, .f32⟩
  | 6 => ⟨S32768x1, .f32⟩
  | 7 => ⟨S_, .f32⟩
  | 8 => ⟨S32768x1, .f32⟩
  | 9 => ⟨S_, .f32⟩
  | 10 => ⟨S32768x1, .f32⟩
  | 11 => ⟨S32768x1, .f32⟩
  | 12 => ⟨S_, .f32⟩
  | 13 => ⟨S32768x1, .f32⟩
  | 14 => ⟨S32768x1, .f32⟩
  | 15 => ⟨S32768x1, .f32⟩
  | 16 => ⟨S32768x1, .f32⟩
  | 17 => ⟨S_, .f32⟩
  | 18 => ⟨S32768x1, .f32⟩
  | 19 => ⟨S32768x1, .i1⟩
  | 20 => ⟨S32768x1, .f32⟩
  | 21 => ⟨S32768x2, .f32⟩
  | 22 => ⟨S32768x2, .f32⟩
  | 23 => ⟨S_, .f32⟩
  | 24 => ⟨S32768x2, .f32⟩
  | 25 => ⟨S32768x2, .f32⟩
  | 26 => ⟨S_, .f32⟩
  | 27 => ⟨S32768x2, .f32⟩
  | 28 => ⟨S32768x2, .f32⟩
  | 29 => ⟨S32768x2, .f32⟩
  | 30 => ⟨S32768x2, .f32⟩
  | 31 => ⟨S32768x1, .f32⟩
  | 32 => ⟨S32768x1, .f32⟩
  | 33 => ⟨S_, .f32⟩
  | 34 => ⟨S_, .f32⟩
  | 35 => ⟨S_, .f32⟩
  | 36 => ⟨S32768x1, .f32⟩
  | 37 => ⟨S32768x1, .f32⟩
  | 38 => ⟨S_, .f32⟩
  | 39 => ⟨S32768x1, .f32⟩
  | 40 => ⟨S32768x1, .f32⟩
  | 41 => ⟨S_, .f32⟩
  | 42 => ⟨S_, .f32⟩
  | 43 => ⟨S_, .f32⟩
  | 44 => ⟨S32768x1, .f32⟩
  | 45 => ⟨S32768x1, .f32⟩
  | 46 => ⟨S_, .f32⟩
  | 47 => ⟨S32768x1, .f32⟩
  | 48 => ⟨S32768x1, .f32⟩
  | 49 => ⟨S32768x1, .f32⟩
  | 50 => ⟨S32768x1, .f32⟩
  | 51 => ⟨S32768x1, .f32⟩
  | 52 => ⟨S32768x1, .f32⟩
  | 53 => ⟨S32768x1, .f32⟩
  | 54 => ⟨S32768x1, .f32⟩
  | 55 => ⟨S32768x1, .f32⟩
  | 56 => ⟨S_, .f32⟩
  | 57 => ⟨S32768x1, .f32⟩
  | 58 => ⟨S_, .f32⟩
  | 59 => ⟨S32768x1, .f32⟩
  | 60 => ⟨S32768x1, .f32⟩
  | 61 => ⟨S_, .f32⟩
  | 62 => ⟨S32768x1, .f32⟩
  | 63 => ⟨S32768x1, .f32⟩
  | 64 => ⟨S32768x1, .f32⟩
  | 65 => ⟨S32768x1, .f32⟩
  | 66 => ⟨S_, .f32⟩
  | 67 => ⟨S32768x1, .f32⟩
  | 68 => ⟨S32768x1, .i1⟩
  | 69 => ⟨S32768x1, .f32⟩
  | 70 => ⟨S32768x2, .f32⟩
  | 71 => ⟨S32768x2, .f32⟩
  | 72 => ⟨S32768x2, .i1⟩
  | 73 => ⟨S32768x2, .f32⟩
  | 74 => ⟨S32768x4, .f32⟩
  | 75 => ⟨S32768x4, .f32⟩
  | 76 => ⟨S_, .f32⟩
  | 77 => ⟨S32768x4, .f32⟩
  | 78 => ⟨S32768x4, .f32⟩
  | 79 => ⟨S_, .f32⟩
  | 80 => ⟨S32768x4, .f32⟩
  | 81 => ⟨S32768x4, .f32⟩
  | 82 => ⟨S32768x4, .f32⟩
  | 83 => ⟨S32768x4, .f32⟩
  | 84 => ⟨S32768x2, .f32⟩
  | 85 => ⟨S32768x2, .f32⟩
  | 86 => ⟨S_, .f32⟩
  | 87 => ⟨S_, .f32⟩
  | 88 => ⟨S_, .f32⟩
  | 89 => ⟨S32768x2, .f32⟩
  | 90 => ⟨S32768x2, .f32⟩
  | 91 => ⟨S_, .f32⟩
  | 92 => ⟨S32768x2, .f32⟩
  | 93 => ⟨S32768x2, .f32⟩
  | 94 => ⟨S_, .f32⟩
  | 95 => ⟨S_, .f32⟩
  | 96 => ⟨S_, .f32⟩
  | 97 => ⟨S32768x2, .f32⟩
  | 98 => ⟨S32768x2, .f32⟩
  | 99 => ⟨S_, .f32⟩
  | 100 => ⟨S32768x2, .f32⟩
  | 101 => ⟨S32768x2, .f32⟩
  | 102 => ⟨S32768x2, .f32⟩
  | 103 => ⟨S32768x2, .f32⟩
  | 104 => ⟨S32768x2, .f32⟩
  | 105 => ⟨S32768x2, .f32⟩
  | 106 => ⟨S32768x2, .f32⟩
  | 107 => ⟨S32768x2, .f32⟩
  | 108 => ⟨S32768x2, .f32⟩
  | 109 => ⟨S32768x1, .f32⟩
  | 110 => ⟨S32768x1, .f32⟩
  | 111 => ⟨S_, .f32⟩
  | 112 => ⟨S_, .f32⟩
  | 113 => ⟨S_, .f32⟩
  | 114 => ⟨S32768x1, .f32⟩
  | 115 => ⟨S32768x1, .f32⟩
  | 116 => ⟨S_, .f32⟩
  | 117 => ⟨S32768x1, .f32⟩
  | 118 => ⟨S32768x1, .f32⟩
  | 119 => ⟨S_, .f32⟩
  | 120 => ⟨S_, .f32⟩
  | 121 => ⟨S_, .f32⟩
  | 122 => ⟨S32768x1, .f32⟩
  | 123 => ⟨S32768x1, .f32⟩
  | 124 => ⟨S_, .f32⟩
  | 125 => ⟨S32768x1, .f32⟩
  | 126 => ⟨S32768x1, .f32⟩
  | 127 => ⟨S32768x1, .f32⟩
  | _ => ⟨S32768x256, .f32⟩

abbrev hbmTy0_36 (i : Nat) : BufTy := match i % 128 with
  | 0 => ⟨S32768x1, .f32⟩
  | 1 => ⟨S32768x1, .f32⟩
  | 2 => ⟨S32768x1, .f32⟩
  | 3 => ⟨S32768x1, .f32⟩
  | 4 => ⟨S32768x1, .f32⟩
  | 5 => ⟨S32768x1, .f32⟩
  | 6 => ⟨S_, .f32⟩
  | 7 => ⟨S32768x1, .f32⟩
  | 8 => ⟨S_, .f32⟩
  | 9 => ⟨S32768x1, .f32⟩
  | 10 => ⟨S32768x1, .f32⟩
  | 11 => ⟨S_, .f32⟩
  | 12 => ⟨S32768x1, .f32⟩
  | 13 => ⟨S32768x1, .f32⟩
  | 14 => ⟨S32768x1, .f32⟩
  | 15 => ⟨S32768x1, .f32⟩
  | 16 => ⟨S_, .f32⟩
  | 17 => ⟨S32768x1, .f32⟩
  | 18 => ⟨S32768x1, .i1⟩
  | 19 => ⟨S32768x1, .f32⟩
  | 20 => ⟨S32768x2, .f32⟩
  | 21 => ⟨S32768x2, .f32⟩
  | 22 => ⟨S_, .f32⟩
  | 23 => ⟨S32768x2, .f32⟩
  | 24 => ⟨S32768x2, .f32⟩
  | 25 => ⟨S_, .f32⟩
  | 26 => ⟨S32768x2, .f32⟩
  | 27 => ⟨S32768x2, .f32⟩
  | 28 => ⟨S32768x2, .f32⟩
  | 29 => ⟨S32768x2, .f32⟩
  | 30 => ⟨S32768x1, .f32⟩
  | 31 => ⟨S32768x1, .f32⟩
  | 32 => ⟨S_, .f32⟩
  | 33 => ⟨S_, .f32⟩
  | 34 => ⟨S_, .f32⟩
  | 35 => ⟨S32768x1, .f32⟩
  | 36 => ⟨S32768x1, .f32⟩
  | 37 => ⟨S_, .f32⟩
  | 38 => ⟨S32768x1, .f32⟩
  | 39 => ⟨S32768x1, .f32⟩
  | 40 => ⟨S_, .f32⟩
  | 41 => ⟨S_, .f32⟩
  | 42 => ⟨S_, .f32⟩
  | 43 => ⟨S32768x1, .f32⟩
  | 44 => ⟨S32768x1, .f32⟩
  | 45 => ⟨S_, .f32⟩
  | 46 => ⟨S32768x1, .f32⟩
  | 47 => ⟨S32768x1, .f32⟩
  | 48 => ⟨S32768x1, .f32⟩
  | 49 => ⟨S32768x1, .f32⟩
  | 50 => ⟨S32768x1, .f32⟩
  | 51 => ⟨S32768x1, .f32⟩
  | 52 => ⟨S32768x1, .f32⟩
  | 53 => ⟨S32768x1, .f32⟩
  | 54 => ⟨S32768x1, .f32⟩
  | 55 => ⟨S_, .f32⟩
  | 56 => ⟨S32768x1, .f32⟩
  | 57 => ⟨S_, .f32⟩
  | 58 => ⟨S32768x1, .f32⟩
  | 59 => ⟨S32768x1, .f32⟩
  | 60 => ⟨S_, .f32⟩
  | 61 => ⟨S32768x1, .f32⟩
  | 62 => ⟨S32768x1, .f32⟩
  | 63 => ⟨S32768x1, .f32⟩
  | 64 => ⟨S32768x1, .f32⟩
  | 65 => ⟨S_, .f32⟩
  | 66 => ⟨S32768x1, .f32⟩
  | 67 => ⟨S32768x1, .i1⟩
  | 68 => ⟨S32768x1, .f32⟩
  | 69 => ⟨S32768x2, .f32⟩
  | 70 => ⟨S32768x2, .f32⟩
  | 71 => ⟨S32768x2, .i1⟩
  | 72 => ⟨S32768x2, .f32⟩
  | 73 => ⟨S32768x4, .f32⟩
  | 74 => ⟨S32768x4, .f32⟩
  | 75 => ⟨S32768x4, .i1⟩
  | 76 => ⟨S32768x4, .f32⟩
  | 77 => ⟨S32768x8, .f32⟩
  | 78 => ⟨S32768x8, .f32⟩
  | 79 => ⟨S_, .f32⟩
  | 80 => ⟨S32768x8, .f32⟩
  | 81 => ⟨S32768x8, .f32⟩
  | 82 => ⟨S_, .f32⟩
  | 83 => ⟨S32768x8, .f32⟩
  | 84 => ⟨S32768x8, .f32⟩
  | 85 => ⟨S32768x8, .f32⟩
  | 86 => ⟨S32768x8, .f32⟩
  | 87 => ⟨S32768x4, .f32⟩
  | 88 => ⟨S32768x4, .f32⟩
  | 89 => ⟨S_, .f32⟩
  | 90 => ⟨S_, .f32⟩
  | 91 => ⟨S_, .f32⟩
  | 92 => ⟨S32768x4, .f32⟩
  | 93 => ⟨S32768x4, .f32⟩
  | 94 => ⟨S_, .f32⟩
  | 95 => ⟨S32768x4, .f32⟩
  | 96 => ⟨S32768x4, .f32⟩
  | 97 => ⟨S_, .f32⟩
  | 98 => ⟨S_, .f32⟩
  | 99 => ⟨S_, .f32⟩
  | 100 => ⟨S32768x4, .f32⟩
  | 101 => ⟨S32768x4, .f32⟩
  | 102 => ⟨S_, .f32⟩
  | 103 => ⟨S32768x4, .f32⟩
  | 104 => ⟨S32768x4, .f32⟩
  | 105 => ⟨S32768x4, .f32⟩
  | 106 => ⟨S32768x4, .f32⟩
  | 107 => ⟨S32768x4, .f32⟩
  | 108 => ⟨S32768x4, .f32⟩
  | 109 => ⟨S32768x4, .f32⟩
  | 110 => ⟨S32768x4, .f32⟩
  | 111 => ⟨S32768x4, .f32⟩
  | 112 => ⟨S32768x2, .f32⟩
  | 113 => ⟨S32768x2, .f32⟩
  | 114 => ⟨S_, .f32⟩
  | 115 => ⟨S_, .f32⟩
  | 116 => ⟨S_, .f32⟩
  | 117 => ⟨S32768x2, .f32⟩
  | 118 => ⟨S32768x2, .f32⟩
  | 119 => ⟨S_, .f32⟩
  | 120 => ⟨S32768x2, .f32⟩
  | 121 => ⟨S32768x2, .f32⟩
  | 122 => ⟨S_, .f32⟩
  | 123 => ⟨S_, .f32⟩
  | 124 => ⟨S_, .f32⟩
  | 125 => ⟨S32768x2, .f32⟩
  | 126 => ⟨S32768x2, .f32⟩
  | 127 => ⟨S_, .f32⟩
  | _ => ⟨S32768x256, .f32⟩

abbrev hbmTy0_37 (i : Nat) : BufTy := match i % 128 with
  | 0 => ⟨S32768x2, .f32⟩
  | 1 => ⟨S32768x2, .f32⟩
  | 2 => ⟨S32768x2, .f32⟩
  | 3 => ⟨S32768x2, .f32⟩
  | 4 => ⟨S32768x2, .f32⟩
  | 5 => ⟨S32768x2, .f32⟩
  | 6 => ⟨S32768x2, .f32⟩
  | 7 => ⟨S32768x2, .f32⟩
  | 8 => ⟨S32768x2, .f32⟩
  | 9 => ⟨S32768x1, .f32⟩
  | 10 => ⟨S32768x1, .f32⟩
  | 11 => ⟨S_, .f32⟩
  | 12 => ⟨S_, .f32⟩
  | 13 => ⟨S_, .f32⟩
  | 14 => ⟨S32768x1, .f32⟩
  | 15 => ⟨S32768x1, .f32⟩
  | 16 => ⟨S_, .f32⟩
  | 17 => ⟨S32768x1, .f32⟩
  | 18 => ⟨S32768x1, .f32⟩
  | 19 => ⟨S_, .f32⟩
  | 20 => ⟨S_, .f32⟩
  | 21 => ⟨S_, .f32⟩
  | 22 => ⟨S32768x1, .f32⟩
  | 23 => ⟨S32768x1, .f32⟩
  | 24 => ⟨S_, .f32⟩
  | 25 => ⟨S32768x1, .f32⟩
  | 26 => ⟨S32768x1, .f32⟩
  | 27 => ⟨S32768x1, .f32⟩
  | 28 => ⟨S32768x1, .f32⟩
  | 29 => ⟨S32768x1, .f32⟩
  | 30 => ⟨S32768x1, .f32⟩
  | 31 => ⟨S32768x1, .f32⟩
  | 32 => ⟨S32768x1, .f32⟩
  | 33 => ⟨S32768x1, .f32⟩
  | 34 => ⟨S_, .f32⟩
  | 35 => ⟨S32768x1, .f32⟩
  | 36 => ⟨S_, .f32⟩
  | 37 => ⟨S32768x1, .f32⟩
  | 38 => ⟨S32768x1, .f32⟩
  | 39 => ⟨S_, .f32⟩
  | 40 => ⟨S32768x1, .f32⟩
  | 41 => ⟨S32768x1, .f32⟩
  | 42 => ⟨S32768x1, .f32⟩
  | 43 => ⟨S32768x1, .f32⟩
  | 44 => ⟨S_, .f32⟩
  | 45 => ⟨S32768x1, .f32⟩
  | 46 => ⟨S32768x1, .i1⟩
  | 47 => ⟨S32768x1, .f32⟩
  | 48 => ⟨S32768x2, .f32⟩
  | 49 => ⟨S32768x2, .f32⟩
  | 50 => ⟨S_, .f32⟩
  | 51 => ⟨S32768x2, .f32⟩
  | 52 => ⟨S32768x2, .f32⟩
  | 53 => ⟨S_, .f32⟩
  | 54 => ⟨S32768x2, .f32⟩
  | 55 => ⟨S32768x2, .f32⟩
  | 56 => ⟨S32768x2, .f32⟩
  | 57 => ⟨S32768x2, .f32⟩
  | 58 => ⟨S32768x1, .f32⟩
  | 59 => ⟨S32768x1, .f32⟩
  | 60 => ⟨S_, .f32⟩
  | 61 => ⟨S_, .f32⟩
  | 62 => ⟨S_, .f32⟩
  | 63 => ⟨S32768x1, .f32⟩
  | 64 => ⟨S32768x1, .f32⟩
  | 65 => ⟨S_, .f32⟩
  | 66 => ⟨S32768x1, .f32⟩
  | 67 => ⟨S32768x1, .f32⟩
  | 68 => ⟨S_, .f32⟩
  | 69 => ⟨S_, .f32⟩
  | 70 => ⟨S_, .f32⟩
  | 71 => ⟨S32768x1, .f32⟩
  | 72 => ⟨S32768x1, .f32⟩
  | 73 => ⟨S_, .f32⟩
  | 74 => ⟨S32768x1, .f32⟩
  | 75 => ⟨S32768x1, .f32⟩
  | 76 => ⟨S32768x1, .f32⟩
  | 77 => ⟨S32768x1, .f32⟩
  | 78 => ⟨S32768x1, .f32⟩
  | 79 => ⟨S32768x1, .f32⟩
  | 80 => ⟨S32768x1, .f32⟩
  | 81 => ⟨S32768x1, .f32⟩
  | 82 => ⟨S32768x1, .f32⟩
  | 83 => ⟨S_, .f32⟩
  | 84 => ⟨S32768x1, .f32⟩
  | 85 => ⟨S_, .f32⟩
  | 86 => ⟨S32768x1, .f32⟩
  | 87 => ⟨S32768x1, .f32⟩
  | 88 => ⟨S_, .f32⟩
  | 89 => ⟨S32768x1, .f32⟩
  | 90 => ⟨S32768x1, .f32⟩
  | 91 => ⟨S32768x1, .f32⟩
  | 92 => ⟨S32768x1, .f32⟩
  | 93 => ⟨S_, .f32⟩
  | 94 => ⟨S32768x1, .f32⟩
  | 95 => ⟨S32768x1, .i1⟩
  | 96 => ⟨S32768x1, .f32⟩
  | 97 => ⟨S32768x2, .f32⟩
  | 98 => ⟨S32768x2, .f32⟩
  | 99 => ⟨S32768x2, .i1⟩
  | 100 => ⟨S32768x2, .f32⟩
  | 101 => ⟨S32768x4, .f32⟩
  | 102 => ⟨S32768x4, .f32⟩
  | 103 => ⟨S_, .f32⟩
  | 104 => ⟨S32768x4, .f32⟩
  | 105 => ⟨S32768x4, .f32⟩
  | 106 => ⟨S_, .f32⟩
  | 107 => ⟨S32768x4, .f32⟩
  | 108 => ⟨S32768x4, .f32⟩
  | 109 => ⟨S32768x4, .f32⟩
  | 110 => ⟨S32768x4, .f32⟩
  | 111 => ⟨S32768x2, .f32⟩
  | 112 => ⟨S32768x2, .f32⟩
  | 113 => ⟨S_, .f32⟩
  | 114 => ⟨S_, .f32⟩
  | 115 => ⟨S_, .f32⟩
  | 116 => ⟨S32768x2, .f32⟩
  | 117 => ⟨S32768x2, .f32⟩
  | 118 => ⟨S_, .f32⟩
  | 119 => ⟨S32768x2, .f32⟩
  | 120 => ⟨S32768x2, .f32⟩
  | 121 => ⟨S_, .f32⟩
  | 122 => ⟨S_, .f32⟩
  | 123 => ⟨S_, .f32⟩
  | 124 => ⟨S32768x2, .f32⟩
  | 125 => ⟨S32768x2, .f32⟩
  | 126 => ⟨S_, .f32⟩
  | 127 => ⟨S32768x2, .f32⟩
  | _ => ⟨S32768x256, .f32⟩

abbrev hbmTy0_38 (i : Nat) : BufTy := match i % 128 with
  | 0 => ⟨S32768x2, .f32⟩
  | 1 => ⟨S32768x2, .f32⟩
  | 2 => ⟨S32768x2, .f32⟩
  | 3 => ⟨S32768x2, .f32⟩
  | 4 => ⟨S32768x2, .f32⟩
  | 5 => ⟨S32768x2, .f32⟩
  | 6 => ⟨S32768x2, .f32⟩
  | 7 => ⟨S32768x2, .f32⟩
  | 8 => ⟨S32768x1, .f32⟩
  | 9 => ⟨S32768x1, .f32⟩
  | 10 => ⟨S_, .f32⟩
  | 11 => ⟨S_, .f32⟩
  | 12 => ⟨S_, .f32⟩
  | 13 => ⟨S32768x1, .f32⟩
  | 14 => ⟨S32768x1, .f32⟩
  | 15 => ⟨S_, .f32⟩
  | 16 => ⟨S32768x1, .f32⟩
  | 17 => ⟨S32768x1, .f32⟩
  | 18 => ⟨S_, .f32⟩
  | 19 => ⟨S_, .f32⟩
  | 20 => ⟨S_, .f32⟩
  | 21 => ⟨S32768x1, .f32⟩
  | 22 => ⟨S32768x1, .f32⟩
  | 23 => ⟨S_, .f32⟩
  | 24 => ⟨S32768x1, .f32⟩
  | 25 => ⟨S32768x1, .f32⟩
  | 26 => ⟨S32768x1, .f32⟩
  | 27 => ⟨S32768x1, .f32⟩
  | 28 => ⟨S32768x1, .f32⟩
  | 29 => ⟨S32768x1, .f32⟩
  | 30 => ⟨S32768x1, .f32⟩
  | 31 => ⟨S32768x1, .f32⟩
  | 32 => ⟨S32768x1, .f32⟩
  | 33 => ⟨S_, .f32⟩
  | 34 => ⟨S32768x1, .f32⟩
  | 35 => ⟨S_, .f32⟩
  | 36 => ⟨S32768x1, .f32⟩
  | 37 => ⟨S32768x1, .f32⟩
  | 38 => ⟨S_, .f32⟩
  | 39 => ⟨S32768x1, .f32⟩
  | 40 => ⟨S32768x1, .f32⟩
  | 41 => ⟨S32768x1, .f32⟩
  | 42 => ⟨S32768x1, .f32⟩
  | 43 => ⟨S_, .f32⟩
  | 44 => ⟨S32768x1, .f32⟩
  | 45 => ⟨S32768x1, .i1⟩
  | 46 => ⟨S32768x1, .f32⟩
  | 47 => ⟨S32768x2, .f32⟩
  | 48 => ⟨S32768x2, .f32⟩
  | 49 => ⟨S_, .f32⟩
  | 50 => ⟨S32768x2, .f32⟩
  | 51 => ⟨S32768x2, .f32⟩
  | 52 => ⟨S_, .f32⟩
  | 53 => ⟨S32768x2, .f32⟩
  | 54 => ⟨S32768x2, .f32⟩
  | 55 => ⟨S32768x2, .f32⟩
  | 56 => ⟨S32768x2, .f32⟩
  | 57 => ⟨S32768x1, .f32⟩
  | 58 => ⟨S32768x1, .f32⟩
  | 59 => ⟨S_, .f32⟩
  | 60 => ⟨S_, .f32⟩
  | 61 => ⟨S_, .f32⟩
  | 62 => ⟨S32768x1, .f32⟩
  | 63 => ⟨S32768x1, .f32⟩
  | 64 => ⟨S_, .f32⟩
  | 65 => ⟨S32768x1, .f32⟩
  | 66 => ⟨S32768x1, .f32⟩
  | 67 => ⟨S_, .f32⟩
  | 68 => ⟨S_, .f32⟩
  | 69 => ⟨S_, .f32⟩
  | 70 => ⟨S32768x1, .f32⟩
  | 71 => ⟨S32768x1, .f32⟩
  | 72 => ⟨S_, .f32⟩
  | 73 => ⟨S32768x1, .f32⟩
  | 74 => ⟨S32768x1, .f32⟩
  | 75 => ⟨S32768x1, .f32⟩
  | 76 => ⟨S32768x1, .f32⟩
  | 77 => ⟨S32768x1, .f32⟩
  | 78 => ⟨S32768x1, .f32⟩
  | 79 => ⟨S32768x1, .f32⟩
  | 80 => ⟨S32768x1, .f32⟩
  | 81 => ⟨S32768x1, .f32⟩
  | 82 => ⟨S_, .f32⟩
  | 83 => ⟨S32768x1, .f32⟩
  | 84 => ⟨S_, .f32⟩
  | 85 => ⟨S32768x1, .f32⟩
  | 86 => ⟨S32768x1, .f32⟩
  | 87 => ⟨S_, .f32⟩
  | 88 => ⟨S32768x1, .f32⟩
  | 89 => ⟨S32768x1, .f32⟩
  | 90 => ⟨S32768x1, .f32⟩
  | 91 => ⟨S32768x1, .f32⟩
  | 92 => ⟨S_, .f32⟩
  | 93 => ⟨S32768x1, .f32⟩
  | 94 => ⟨S32768x1, .i1⟩
  | 95 => ⟨S32768x1, .f32⟩
  | 96 => ⟨S32768x2, .f32⟩
  | 97 => ⟨S32768x2, .f32⟩
  | 98 => ⟨S32768x2, .i1⟩
  | 99 => ⟨S32768x2, .f32⟩
  | 100 => ⟨S32768x4, .f32⟩
  | 101 => ⟨S32768x4, .f32⟩
  | 102 => ⟨S32768x4, .i1⟩
  | 103 => ⟨S32768x4, .f32⟩
  | 104 => ⟨S32768x8, .f32⟩
  | 105 => ⟨S32768x8, .f32⟩
  | 106 => ⟨S32768x8, .i1⟩
  | 107 => ⟨S32768x8, .f32⟩
  | 108 => ⟨S32768x16, .f32⟩
  | 109 => ⟨S32768x16, .f32⟩
  | 110 => ⟨S32768x16, .i1⟩
  | 111 => ⟨S32768x16, .f32⟩
  | 112 => ⟨S32768x32, .f32⟩
  | 113 => ⟨S32768x32, .f32⟩
  | 114 => ⟨S32768x32, .i1⟩
  | 115 => ⟨S32768x32, .f32⟩
  | 116 => ⟨S32768x64, .f32⟩
  | 117 => ⟨S32768x64, .f32⟩
  | 118 => ⟨S32768x64, .i1⟩
  | 119 => ⟨S32768x64, .f32⟩
  | 120 => ⟨S32768x128, .f32⟩
  | 121 => ⟨S32768x128, .f32⟩
  | 122 => ⟨S_, .f32⟩
  | 123 => ⟨S32768x128, .f32⟩
  | 124 => ⟨S32768x128, .f32⟩
  | 125 => ⟨S_, .f32⟩
  | 126 => ⟨S32768x128, .f32⟩
  | 127 => ⟨S32768x128, .f32⟩
  | _ => ⟨S32768x256, .f32⟩

abbrev hbmTy0_39 (i : Nat) : BufTy := match i % 128 with
  | 0 => ⟨S32768x128, .f32⟩
  | 1 => ⟨S32768x128, .f32⟩
  | 2 => ⟨S32768x64, .f32⟩
  | 3 => ⟨S32768x64, .f32⟩
  | 4 => ⟨S_, .f32⟩
  | 5 => ⟨S_, .f32⟩
  | 6 => ⟨S_, .f32⟩
  | 7 => ⟨S32768x64, .f32⟩
  | 8 => ⟨S32768x64, .f32⟩
  | 9 => ⟨S_, .f32⟩
  | 10 => ⟨S32768x64, .f32⟩
  | 11 => ⟨S32768x64, .f32⟩
  | 12 => ⟨S_, .f32⟩
  | 13 => ⟨S_, .f32⟩
  | 14 => ⟨S_, .f32⟩
  | 15 => ⟨S32768x64, .f32⟩
  | 16 => ⟨S32768x64, .f32⟩
  | 17 => ⟨S_, .f32⟩
  | 18 => ⟨S32768x64, .f32⟩
  | 19 => ⟨S32768x64, .f32⟩
  | 20 => ⟨S32768x64, .f32⟩
  | 21 => ⟨S32768x64, .f32⟩
  | 22 => ⟨S32768x64, .f32⟩
  | 23 => ⟨S32768x64, .f32⟩
  | 24 => ⟨S32768x64, .f32⟩
  | 25 => ⟨S32768x64, .f32⟩
  | 26 => ⟨S32768x64, .f32⟩
  | 27 => ⟨S32768x32, .f32⟩
  | 28 => ⟨S32768x32, .f32⟩
  | 29 => ⟨S_, .f32⟩
  | 30 => ⟨S_, .f32⟩
  | 31 => ⟨S_, .f32⟩
  | 32 => ⟨S32768x32, .f32⟩
  | 33 => ⟨S32768x32, .f32⟩
  | 34 => ⟨S_, .f32⟩
  | 35 => ⟨S32768x32, .f32⟩
  | 36 => ⟨S32768x32, .f32⟩
  | 37 => ⟨S_, .f32⟩
  | 38 => ⟨S_, .f32⟩
  | 39 => ⟨S_, .f32⟩
  | 40 => ⟨S32768x32, .f32⟩
  | 41 => ⟨S32768x32, .f32⟩
  | 42 => ⟨S_, .f32⟩
  | 43 => ⟨S32768x32, .f32⟩
  | 44 => ⟨S32768x32, .f32⟩
  | 45 => ⟨S32768x32, .f32⟩
  | 46 => ⟨S32768x32, .f32⟩
  | 47 => ⟨S32768x32, .f32⟩
  | 48 => ⟨S32768x32, .f32⟩
  | 49 => ⟨S32768x32, .f32⟩
  | 50 => ⟨S32768x32, .f32⟩
  | 51 => ⟨S32768x32, .f32⟩
  | 52 => ⟨S32768x16, .f32⟩
  | 53 => ⟨S32768x16, .f32⟩
  | 54 => ⟨S_, .f32⟩
  | 55 => ⟨S_, .f32⟩
  | 56 => ⟨S_, .f32⟩
  | 57 => ⟨S32768x16, .f32⟩
  | 58 => ⟨S32768x16, .f32⟩
  | 59 => ⟨S_, .f32⟩
  | 60 => ⟨S32768x16, .f32⟩
  | 61 => ⟨S32768x16, .f32⟩
  | 62 => ⟨S_, .f32⟩
  | 63 => ⟨S_, .f32⟩
  | 64 => ⟨S_, .f32⟩
  | 65 => ⟨S32768x16, .f32⟩
  | 66 => ⟨S32768x16, .f32⟩
  | 67 => ⟨S_, .f32⟩
  | 68 => ⟨S32768x16, .f32⟩
  | 69 => ⟨S32768x16, .f32⟩
  | 70 => ⟨S32768x16, .f32⟩
  | 71 => ⟨S32768x16, .f32⟩
  | 72 => ⟨S32768x16, .f32⟩
  | 73 => ⟨S32768x16, .f32⟩
  | 74 => ⟨S32768x16, .f32⟩
  | 75 => ⟨S32768x16, .f32⟩
  | 76 => ⟨S32768x16, .f32⟩
  | 77 => ⟨S32768x8, .f32⟩
  | 78 => ⟨S32768x8, .f32⟩
  | 79 => ⟨S_, .f32⟩
  | 80 => ⟨S_, .f32⟩
  | 81 => ⟨S_, .f32⟩
  | 82 => ⟨S32768x8, .f32⟩
  | 83 => ⟨S32768x8, .f32⟩
  | 84 => ⟨S_, .f32⟩
  | 85 => ⟨S32768x8, .f32⟩
  | 86 => ⟨S32768x8, .f32⟩
  | 87 => ⟨S_, .f32⟩
  | 88 => ⟨S_, .f32⟩
  | 89 => ⟨S_, .f32⟩
  | 90 => ⟨S32768x8, .f32⟩
  | 91 => ⟨S32768x8, .f32⟩
  | 92 => ⟨S_, .f32⟩
  | 93 => ⟨S32768x8, .f32⟩
  | 94 => ⟨S32768x8, .f32⟩
  | 95 => ⟨S32768x8, .f32⟩
  | 96 => ⟨S32768x8, .f32⟩
  | 97 => ⟨S32768x8, .f32⟩
  | 98 => ⟨S32768x8, .f32⟩
  | 99 => ⟨S32768x8, .f32⟩
  | 100 => ⟨S32768x8, .f32⟩
  | 101 => ⟨S32768x8, .f32⟩
  | 102 => ⟨S32768x4, .f32⟩
  | 103 => ⟨S32768x4, .f32⟩
  | 104 => ⟨S_, .f32⟩
  | 105 => ⟨S_, .f32⟩
  | 106 => ⟨S_, .f32⟩
  | 107 => ⟨S32768x4, .f32⟩
  | 108 => ⟨S32768x4, .f32⟩
  | 109 => ⟨S_, .f32⟩
  | 110 => ⟨S32768x4, .f32⟩
  | 111 => ⟨S32768x4, .f32⟩
  | 112 => ⟨S_, .f32⟩
  | 113 => ⟨S_, .f32⟩
  | 114 => ⟨S_, .f32⟩
  | 115 => ⟨S32768x4, .f32⟩
  | 116 => ⟨S32768x4, .f32⟩
  | 117 => ⟨S_, .f32⟩
  | 118 => ⟨S32768x4, .f32⟩
  | 119 => ⟨S32768x4, .f32⟩
  | 120 => ⟨S32768x4, .f32⟩
  | 121 => ⟨S32768x4, .f32⟩
  | 122 => ⟨S32768x4, .f32⟩
  | 123 => ⟨S32768x4, .f32⟩
  | 124 => ⟨S32768x4, .f32⟩
  | 125 => ⟨S32768x4, .f32⟩
  | 126 => ⟨S32768x4, .f32⟩
  | 127 => ⟨S32768x2, .f32⟩
  | _ => ⟨S32768x256, .f32⟩

abbrev hbmTy0_40 (i : Nat) : BufTy := match i % 128 with
  | 0 => ⟨S32768x2, .f32⟩
  | 1 => ⟨S_, .f32⟩
  | 2 => ⟨S_, .f32⟩
  | 3 => ⟨S_, .f32⟩
  | 4 => ⟨S32768x2, .f32⟩
  | 5 => ⟨S32768x2, .f32⟩
  | 6 => ⟨S_, .f32⟩
  | 7 => ⟨S32768x2, .f32⟩
  | 8 => ⟨S32768x2, .f32⟩
  | 9 => ⟨S_, .f32⟩
  | 10 => ⟨S_, .f32⟩
  | 11 => ⟨S_, .f32⟩
  | 12 => ⟨S32768x2, .f32⟩
  | 13 => ⟨S32768x2, .f32⟩
  | 14 => ⟨S_, .f32⟩
  | 15 => ⟨S32768x2, .f32⟩
  | 16 => ⟨S32768x2, .f32⟩
  | 17 => ⟨S32768x2, .f32⟩
  | 18 => ⟨S32768x2, .f32⟩
  | 19 => ⟨S32768x2, .f32⟩
  | 20 => ⟨S32768x2, .f32⟩
  | 21 => ⟨S32768x2, .f32⟩
  | 22 => ⟨S32768x2, .f32⟩
  | 23 => ⟨S32768x2, .f32⟩
  | 24 => ⟨S32768x1, .f32⟩
  | 25 => ⟨S32768x1, .f32⟩
  | 26 => ⟨S_, .f32⟩
  | 27 => ⟨S_, .f32⟩
  | 28 => ⟨S_, .f32⟩
  | 29 => ⟨S32768x1, .f32⟩
  | 30 => ⟨S32768x1, .f32⟩
  | 31 => ⟨S_, .f32⟩
  | 32 => ⟨S32768x1, .f32⟩
  | 33 => ⟨S32768x1, .f32⟩
  | 34 => ⟨S_, .f32⟩
  | 35 => ⟨S_, .f32⟩
  | 36 => ⟨S_, .f32⟩
  | 37 => ⟨S32768x1, .f32⟩
  | 38 => ⟨S32768x1, .f32⟩
  | 39 => ⟨S_, .f32⟩
  | 40 => ⟨S32768x1, .f32⟩
  | 41 => ⟨S32768x1, .f32⟩
  | 42 => ⟨S32768x1, .f32⟩
  | 43 => ⟨S32768x1, .f32⟩
  | 44 => ⟨S32768x1, .f32⟩
  | 45 => ⟨S32768x1, .f32⟩
  | 46 => ⟨S32768x1, .f32⟩
  | 47 => ⟨S32768x1, .f32⟩
  | 48 => ⟨S32768x1, .f32⟩
  | 49 => ⟨S_, .f32⟩
  | 50 => ⟨S32768x1, .f32⟩
  | 51 => ⟨S32768x1, .i1⟩
  | 52 => ⟨S32768x1, .f32⟩
  | 53 => ⟨S_, .f32⟩
  | 54 => ⟨S32768x1, .f32⟩
  | 55 => ⟨S32768x1, .f32⟩
  | 56 => ⟨S_, .f32⟩
  | 57 => ⟨S32768x1, .f32⟩
  | 58 => ⟨S32768x1, .f32⟩
  | 59 => ⟨S32768x1, .f32⟩
  | 60 => ⟨S32768x1, .f32⟩
  | 61 => ⟨S_, .f32⟩
  | 62 => ⟨S32768x1, .f32⟩
  | 63 => ⟨S32768x1, .i1⟩
  | 64 => ⟨S32768x1, .f32⟩
  | 65 => ⟨S32768x1, .i1⟩
  | 66 => ⟨S32768x1, .f32⟩
  | 67 => ⟨S32768x2, .f32⟩
  | 68 => ⟨S32768x2, .f32⟩
  | 69 => ⟨S_, .f32⟩
  | 70 => ⟨S32768x2, .f32⟩
  | 71 => ⟨S32768x2, .f32⟩
  | 72 => ⟨S_, .f32⟩
  | 73 => ⟨S32768x2, .f32⟩
  | 74 => ⟨S32768x2, .f32⟩
  | 75 => ⟨S32768x2, .f32⟩
  | 76 => ⟨S32768x2, .f32⟩
  | 77 => ⟨S32768x1, .f32⟩
  | 78 => ⟨S32768x1, .f32⟩
  | 79 => ⟨S_, .f32⟩
  | 80 => ⟨S_, .f32⟩
  | 81 => ⟨S_, .f32⟩
  | 82 => ⟨S32768x1, .f32⟩
  | 83 => ⟨S32768x1, .f32⟩
  | 84 => ⟨S_, .f32⟩
  | 85 => ⟨S32768x1, .f32⟩
  | 86 => ⟨S32768x1, .f32⟩
  | 87 => ⟨S_, .f32⟩
  | 88 => ⟨S_, .f32⟩
  | 89 => ⟨S_, .f32⟩
  | 90 => ⟨S32768x1, .f32⟩
  | 91 => ⟨S32768x1, .f32⟩
  | 92 => ⟨S_, .f32⟩
  | 93 => ⟨S32768x1, .f32⟩
  | 94 => ⟨S32768x1, .f32⟩
  | 95 => ⟨S32768x1, .f32⟩
  | 96 => ⟨S32768x1, .f32⟩
  | 97 => ⟨S32768x1, .f32⟩
  | 98 => ⟨S32768x1, .f32⟩
  | 99 => ⟨S32768x1, .f32⟩
  | 100 => ⟨S32768x1, .f32⟩
  | 101 => ⟨S32768x1, .f32⟩
  | 102 => ⟨S_, .f32⟩
  | 103 => ⟨S32768x1, .f32⟩
  | 104 => ⟨S32768x1, .i1⟩
  | 105 => ⟨S32768x1, .f32⟩
  | 106 => ⟨S_, .f32⟩
  | 107 => ⟨S32768x1, .f32⟩
  | 108 => ⟨S32768x1, .f32⟩
  | 109 => ⟨S_, .f32⟩
  | 110 => ⟨S32768x1, .f32⟩
  | 111 => ⟨S32768x1, .f32⟩
  | 112 => ⟨S32768x1, .f32⟩
  | 113 => ⟨S32768x1, .f32⟩
  | 114 => ⟨S_, .f32⟩
  | 115 => ⟨S32768x1, .f32⟩
  | 116 => ⟨S32768x1, .i1⟩
  | 117 => ⟨S32768x1, .f32⟩
  | 118 => ⟨S32768x1, .i1⟩
  | 119 => ⟨S32768x1, .f32⟩
  | 120 => ⟨S32768x2, .f32⟩
  | 121 => ⟨S32768x2, .f32⟩
  | 122 => ⟨S32768x2, .i1⟩
  | 123 => ⟨S32768x2, .f32⟩
  | 124 => ⟨S32768x4, .f32⟩
  | 125 => ⟨S32768x4, .f32⟩
  | 126 => ⟨S_, .f32⟩
  | 127 => ⟨S32768x4, .f32⟩
  | _ => ⟨S32768x256, .f32⟩

abbrev hbmTy0_41 (i : Nat) : BufTy := match i % 128 with
  | 0 => ⟨S32768x4, .f32⟩
  | 1 => ⟨S_, .f32⟩
  | 2 => ⟨S32768x4, .f32⟩
  | 3 => ⟨S32768x4, .f32⟩
  | 4 => ⟨S32768x4, .f32⟩
  | 5 => ⟨S32768x4, .f32⟩
  | 6 => ⟨S32768x2, .f32⟩
  | 7 => ⟨S32768x2, .f32⟩
  | 8 => ⟨S_, .f32⟩
  | 9 => ⟨S_, .f32⟩
  | 10 => ⟨S_, .f32⟩
  | 11 => ⟨S32768x2, .f32⟩
  | 12 => ⟨S32768x2, .f32⟩
  | 13 => ⟨S_, .f32⟩
  | 14 => ⟨S32768x2, .f32⟩
  | 15 => ⟨S32768x2, .f32⟩
  | 16 => ⟨S_, .f32⟩
  | 17 => ⟨S_, .f32⟩
  | 18 => ⟨S_, .f32⟩
  | 19 => ⟨S32768x2, .f32⟩
  | 20 => ⟨S32768x2, .f32⟩
  | 21 => ⟨S_, .f32⟩
  | 22 => ⟨S32768x2, .f32⟩
  | 23 => ⟨S32768x2, .f32⟩
  | 24 => ⟨S32768x2, .f32⟩
  | 25 => ⟨S32768x2, .f32⟩
  | 26 => ⟨S32768x2, .f32⟩
  | 27 => ⟨S32768x2, .f32⟩
  | 28 => ⟨S32768x2, .f32⟩
  | 29 => ⟨S32768x2, .f32⟩
  | 30 => ⟨S32768x2, .f32⟩
  | 31 => ⟨S32768x1, .f32⟩
  | 32 => ⟨S32768x1, .f32⟩
  | 33 => ⟨S_, .f32⟩
  | 34 => ⟨S_, .f32⟩
  | 35 => ⟨S_, .f32⟩
  | 36 => ⟨S32768x1, .f32⟩
  | 37 => ⟨S32768x1, .f32⟩
  | 38 => ⟨S_, .f32⟩
  | 39 => ⟨S32768x1, .f32⟩
  | 40 => ⟨S32768x1, .f32⟩
  | 41 => ⟨S_, .f32⟩
  | 42 => ⟨S_, .f32⟩
  | 43 => ⟨S_, .f32⟩
  | 44 => ⟨S32768x1, .f32⟩
  | 45 => ⟨S32768x1, .f32⟩
  | 46 => ⟨S_, .f32⟩
  | 47 => ⟨S32768x1, .f32⟩
  | 48 => ⟨S32768x1, .f32⟩
  | 49 => ⟨S32768x1, .f32⟩
  | 50 => ⟨S32768x1, .f32⟩
  | 51 => ⟨S32768x1, .f32⟩
  | 52 => ⟨S32768x1, .f32⟩
  | 53 => ⟨S32768x1, .f32⟩
  | 54 => ⟨S32768x1, .f32⟩
  | 55 => ⟨S32768x1, .f32⟩
  | 56 => ⟨S_, .f32⟩
  | 57 => ⟨S32768x1, .f32⟩
  | 58 => ⟨S32768x1, .i1⟩
  | 59 => ⟨S32768x1, .f32⟩
  | 60 => ⟨S_, .f32⟩
  | 61 => ⟨S32768x1, .f32⟩
  | 62 => ⟨S32768x1, .f32⟩
  | 63 => ⟨S_, .f32⟩
  | 64 => ⟨S32768x1, .f32⟩
  | 65 => ⟨S32768x1, .f32⟩
  | 66 => ⟨S32768x1, .f32⟩
  | 67 => ⟨S32768x1, .f32⟩
  | 68 => ⟨S_, .f32⟩
  | 69 => ⟨S32768x1, .f32⟩
  | 70 => ⟨S32768x1, .i1⟩
  | 71 => ⟨S32768x1, .f32⟩
  | 72 => ⟨S32768x1, .i1⟩
  | 73 => ⟨S32768x1, .f32⟩
  | 74 => ⟨S32768x2, .f32⟩
  | 75 => ⟨S32768x2, .f32⟩
  | 76 => ⟨S_, .f32⟩
  | 77 => ⟨S32768x2, .f32⟩
  | 78 => ⟨S32768x2, .f32⟩
  | 79 => ⟨S_, .f32⟩
  | 80 => ⟨S32768x2, .f32⟩
  | 81 => ⟨S32768x2, .f32⟩
  | 82 => ⟨S32768x2, .f32⟩
  | 83 => ⟨S32768x2, .f32⟩
  | 84 => ⟨S32768x1, .f32⟩
  | 85 => ⟨S32768x1, .f32⟩
  | 86 => ⟨S_, .f32⟩
  | 87 => ⟨S_, .f32⟩
  | 88 => ⟨S_, .f32⟩
  | 89 => ⟨S32768x1, .f32⟩
  | 90 => ⟨S32768x1, .f32⟩
  | 91 => ⟨S_, .f32⟩
  | 92 => ⟨S32768x1, .f32⟩
  | 93 => ⟨S32768x1, .f32⟩
  | 94 => ⟨S_, .f32⟩
  | 95 => ⟨S_, .f32⟩
  | 96 => ⟨S_, .f32⟩
  | 97 => ⟨S32768x1, .f32⟩
  | 98 => ⟨S32768x1, .f32⟩
  | 99 => ⟨S_, .f32⟩
  | 100 => ⟨S32768x1, .f32⟩
  | 101 => ⟨S32768x1, .f32⟩
  | 102 => ⟨S32768x1, .f32⟩
  | 103 => ⟨S32768x1, .f32⟩
  | 104 => ⟨S32768x1, .f32⟩
  | 105 => ⟨S32768x1, .f32⟩
  | 106 => ⟨S32768x1, .f32⟩
  | 107 => ⟨S32768x1, .f32⟩
  | 108 => ⟨S32768x1, .f32⟩
  | 109 => ⟨S_, .f32⟩
  | 110 => ⟨S32768x1, .f32⟩
  | 111 => ⟨S32768x1, .i1⟩
  | 112 => ⟨S32768x1, .f32⟩
  | 113 => ⟨S_, .f32⟩
  | 114 => ⟨S32768x1, .f32⟩
  | 115 => ⟨S32768x1, .f32⟩
  | 116 => ⟨S_, .f32⟩
  | 117 => ⟨S32768x1, .f32⟩
  | 118 => ⟨S32768x1, .f32⟩
  | 119 => ⟨S32768x1, .f32⟩
  | 120 => ⟨S32768x1, .f32⟩
  | 121 => ⟨S_, .f32⟩
  | 122 => ⟨S32768x1, .f32⟩
  | 123 => ⟨S32768x1, .i1⟩
  | 124 => ⟨S32768x1, .f32⟩
  | 125 => ⟨S32768x1, .i1⟩
  | 126 => ⟨S32768x1, .f32⟩
  | 127 => ⟨S32768x2, .f32⟩
  | _ => ⟨S32768x256, .f32⟩

abbrev hbmTy0_42 (i : Nat) : BufTy := match i % 128 with
  | 0 => ⟨S32768x2, .f32⟩
  | 1 => ⟨S32768x2, .i1⟩
  | 2 => ⟨S32768x2, .f32⟩
  | 3 => ⟨S32768x4, .f32⟩
  | 4 => ⟨S32768x4, .f32⟩
  | 5 => ⟨S32768x4, .i1⟩
  | 6 => ⟨S32768x4, .f32⟩
  | 7 => ⟨S32768x8, .f32⟩
  | 8 => ⟨S32768x8, .f32⟩
  | 9 => ⟨S_, .f32⟩
  | 10 => ⟨S32768x8, .f32⟩
  | 11 => ⟨S32768x8, .f32⟩
  | 12 => ⟨S_, .f32⟩
  | 13 => ⟨S32768x8, .f32⟩
  | 14 => ⟨S32768x8, .f32⟩
  | 15 => ⟨S32768x8, .f32⟩
  | 16 => ⟨S32768x8, .f32⟩
  | 17 => ⟨S32768x4, .f32⟩
  | 18 => ⟨S32768x4, .f32⟩
  | 19 => ⟨S_, .f32⟩
  | 20 => ⟨S_, .f32⟩
  | 21 => ⟨S_, .f32⟩
  | 22 => ⟨S32768x4, .f32⟩
  | 23 => ⟨S32768x4, .f32⟩
  | 24 => ⟨S_, .f32⟩
  | 25 => ⟨S32768x4, .f32⟩
  | 26 => ⟨S32768x4, .f32⟩
  | 27 => ⟨S_, .f32⟩
  | 28 => ⟨S_, .f32⟩
  | 29 => ⟨S_, .f32⟩
  | 30 => ⟨S32768x4, .f32⟩
  | 31 => ⟨S32768x4, .f32⟩
  | 32 => ⟨S_, .f32⟩
  | 33 => ⟨S32768x4, .f32⟩
  | 34 => ⟨S32768x4, .f32⟩
  | 35 => ⟨S32768x4, .f32⟩
  | 36 => ⟨S32768x4, .f32⟩
  | 37 => ⟨S32768x4, .f32⟩
  | 38 => ⟨S32768x4, .f32⟩
  | 39 => ⟨S32768x4, .f32⟩
  | 40 => ⟨S32768x4, .f32⟩
  | 41 => ⟨S32768x4, .f32⟩
  | 42 => ⟨S32768x2, .f32⟩
  | 43 => ⟨S32768x2, .f32⟩
  | 44 => ⟨S_, .f32⟩
  | 45 => ⟨S_, .f32⟩
  | 46 => ⟨S_, .f32⟩
  | 47 => ⟨S32768x2, .f32⟩
  | 48 => ⟨S32768x2, .f32⟩
  | 49 => ⟨S_, .f32⟩
  | 50 => ⟨S32768x2, .f32⟩
  | 51 => ⟨S32768x2, .f32⟩
  | 52 => ⟨S_, .f32⟩
  | 53 => ⟨S_, .f32⟩
  | 54 => ⟨S_, .f32⟩
  | 55 => ⟨S32768x2, .f32⟩
  | 56 => ⟨S32768x2, .f32⟩
  | 57 => ⟨S_, .f32⟩
  | 58 => ⟨S32768x2, .f32⟩
  | 59 => ⟨S32768x2, .f32⟩
  | 60 => ⟨S32768x2, .f32⟩
  | 61 => ⟨S32768x2, .f32⟩
  | 62 => ⟨S32768x2, .f32⟩
  | 63 => ⟨S32768x2, .f32⟩
  | 64 => ⟨S32768x2, .f32⟩
  | 65 => ⟨S32768x2, .f32⟩
  | 66 => ⟨S32768x2, .f32⟩
  | 67 => ⟨S32768x1, .f32⟩
  | 68 => ⟨S32768x1, .f32⟩
  | 69 => ⟨S_, .f32⟩
  | 70 => ⟨S_, .f32⟩
  | 71 => ⟨S_, .f32⟩
  | 72 => ⟨S32768x1, .f32⟩
  | 73 => ⟨S32768x1, .f32⟩
  | 74 => ⟨S_, .f32⟩
  | 75 => ⟨S32768x1, .f32⟩
  | 76 => ⟨S32768x1, .f32⟩
  | 77 => ⟨S_, .f32⟩
  | 78 => ⟨S_, .f32⟩
  | 79 => ⟨S_, .f32⟩
  | 80 => ⟨S32768x1, .f32⟩
  | 81 => ⟨S32768x1, .f32⟩
  | 82 => ⟨S_, .f32⟩
  | 83 => ⟨S32768x1, .f32⟩
  | 84 => ⟨S32768x1, .f32⟩
  | 85 => ⟨S32768x1, .f32⟩
  | 86 => ⟨S32768x1, .f32⟩
  | 87 => ⟨S32768x1, .f32⟩
  | 88 => ⟨S32768x1, .f32⟩
  | 89 => ⟨S32768x1, .f32⟩
  | 90 => ⟨S32768x1, .f32⟩
  | 91 => ⟨S32768x1, .f32⟩
  | 92 => ⟨S_, .f32⟩
  | 93 => ⟨S32768x1, .f32⟩
  | 94 => ⟨S32768x1, .i1⟩
  | 95 => ⟨S32768x1, .f32⟩
  | 96 => ⟨S_, .f32⟩
  | 97 => ⟨S32768x1, .f32⟩
  | 98 => ⟨S32768x1, .f32⟩
  | 99 => ⟨S_, .f32⟩
  | 100 => ⟨S32768x1, .f32⟩
  | 101 => ⟨S32768x1, .f32⟩
  | 102 => ⟨S32768x1, .f32⟩
  | 103 => ⟨S32768x1, .f32⟩
  | 104 => ⟨S_, .f32⟩
  | 105 => ⟨S32768x1, .f32⟩
  | 106 => ⟨S32768x1, .i1⟩
  | 107 => ⟨S32768x1, .f32⟩
  | 108 => ⟨S32768x1, .i1⟩
  | 109 => ⟨S32768x1, .f32⟩
  | 110 => ⟨S32768x2, .f32⟩
  | 111 => ⟨S32768x2, .f32⟩
  | 112 => ⟨S_, .f32⟩
  | 113 => ⟨S32768x2, .f32⟩
  | 114 => ⟨S32768x2, .f32⟩
  | 115 => ⟨S_, .f32⟩
  | 116 => ⟨S32768x2, .f32⟩
  | 117 => ⟨S32768x2, .f32⟩
  | 118 => ⟨S32768x2, .f32⟩
  | 119 => ⟨S32768x2, .f32⟩
  | 120 => ⟨S32768x1, .f32⟩
  | 121 => ⟨S32768x1, .f32⟩
  | 122 => ⟨S_, .f32⟩
  | 123 => ⟨S_, .f32⟩
  | 124 => ⟨S_, .f32⟩
  | 125 => ⟨S32768x1, .f32⟩
  | 126 => ⟨S32768x1, .f32⟩
  | 127 => ⟨S_, .f32⟩
  | _ => ⟨S32768x256, .f32⟩

abbrev hbmTy0_43 (i : Nat) : BufTy := match i % 128 with
  | 0 => ⟨S32768x1, .f32⟩
  | 1 => ⟨S32768x1, .f32⟩
  | 2 => ⟨S_, .f32⟩
  | 3 => ⟨S_, .f32⟩
  | 4 => ⟨S_, .f32⟩
  | 5 => ⟨S32768x1, .f32⟩
  | 6 => ⟨S32768x1, .f32⟩
  | 7 => ⟨S_, .f32⟩
  | 8 => ⟨S32768x1, .f32⟩
  | 9 => ⟨S32768x1, .f32⟩
  | 10 => ⟨S32768x1, .f32⟩
  | 11 => ⟨S32768x1, .f32⟩
  | 12 => ⟨S32768x1, .f32⟩
  | 13 => ⟨S32768x1, .f32⟩
  | 14 => ⟨S32768x1, .f32⟩
  | 15 => ⟨S32768x1, .f32⟩
  | 16 => ⟨S32768x1, .f32⟩
  | 17 => ⟨S_, .f32⟩
  | 18 => ⟨S32768x1, .f32⟩
  | 19 => ⟨S32768x1, .i1⟩
  | 20 => ⟨S32768x1, .f32⟩
  | 21 => ⟨S_, .f32⟩
  | 22 => ⟨S32768x1, .f32⟩
  | 23 => ⟨S32768x1, .f32⟩
  | 24 => ⟨S_, .f32⟩
  | 25 => ⟨S32768x1, .f32⟩
  | 26 => ⟨S32768x1, .f32⟩
  | 27 => ⟨S32768x1, .f32⟩
  | 28 => ⟨S32768x1, .f32⟩
  | 29 => ⟨S_, .f32⟩
  | 30 => ⟨S32768x1, .f32⟩
  | 31 => ⟨S32768x1, .i1⟩
  | 32 => ⟨S32768x1, .f32⟩
  | 33 => ⟨S32768x1, .i1⟩
  | 34 => ⟨S32768x1, .f32⟩
  | 35 => ⟨S32768x2, .f32⟩
  | 36 => ⟨S32768x2, .f32⟩
  | 37 => ⟨S32768x2, .i1⟩
  | 38 => ⟨S32768x2, .f32⟩
  | 39 => ⟨S32768x4, .f32⟩
  | 40 => ⟨S32768x4, .f32⟩
  | 41 => ⟨S_, .f32⟩
  | 42 => ⟨S32768x4, .f32⟩
  | 43 => ⟨S32768x4, .f32⟩
  | 44 => ⟨S_, .f32⟩
  | 45 => ⟨S32768x4, .f32⟩
  | 46 => ⟨S32768x4, .f32⟩
  | 47 => ⟨S32768x4, .f32⟩
  | 48 => ⟨S32768x4, .f32⟩
  | 49 => ⟨S32768x2, .f32⟩
  | 50 => ⟨S32768x2, .f32⟩
  | 51 => ⟨S_, .f32⟩
  | 52 => ⟨S_, .f32⟩
  | 53 => ⟨S_, .f32⟩
  | 54 => ⟨S32768x2, .f32⟩
  | 55 => ⟨S32768x2, .f32⟩
  | 56 => ⟨S_, .f32⟩
  | 57 => ⟨S32768x2, .f32⟩
  | 58 => ⟨S32768x2, .f32⟩
  | 59 => ⟨S_, .f32⟩
  | 60 => ⟨S_, .f32⟩
  | 61 => ⟨S_, .f32⟩
  | 62 => ⟨S32768x2, .f32⟩
  | 63 => ⟨S32768x2, .f32⟩
  | 64 => ⟨S_, .f32⟩
  | 65 => ⟨S32768x2, .f32⟩
  | 66 => ⟨S32768x2, .f32⟩
  | 67 => ⟨S32768x2, .f32⟩
  | 68 => ⟨S32768x2, .f32⟩
  | 69 => ⟨S32768x2, .f32⟩
  | 70 => ⟨S32768x2, .f32⟩
  | 71 => ⟨S32768x2, .f32⟩
  | 72 => ⟨S32768x2, .f32⟩
  | 73 => ⟨S32768x2, .f32⟩
  | 74 => ⟨S32768x1, .f32⟩
  | 75 => ⟨S32768x1, .f32⟩
  | 76 => ⟨S_, .f32⟩
  | 77 => ⟨S_, .f32⟩
  | 78 => ⟨S_, .f32⟩
  | 79 => ⟨S32768x1, .f32⟩
  | 80 => ⟨S32768x1, .f32⟩
  | 81 => ⟨S_, .f32⟩
  | 82 => ⟨S32768x1, .f32⟩
  | 83 => ⟨S32768x1, .f32⟩
  | 84 => ⟨S_, .f32⟩
  | 85 => ⟨S_, .f32⟩
  | 86 => ⟨S_, .f32⟩
  | 87 => ⟨S32768x1, .f32⟩
  | 88 => ⟨S32768x1, .f32⟩
  | 89 => ⟨S_, .f32⟩
  | 90 => ⟨S32768x1, .f32⟩
  | 91 => ⟨S32768x1, .f32⟩
  | 92 => ⟨S32768x1, .f32⟩
  | 93 => ⟨S32768x1, .f32⟩
  | 94 => ⟨S32768x1, .f32⟩
  | 95 => ⟨S32768x1, .f32⟩
  | 96 => ⟨S32768x1, .f32⟩
  | 97 => ⟨S32768x1, .f32⟩
  | 98 => ⟨S32768x1, .f32⟩
  | 99 => ⟨S_, .f32⟩
  | 100 => ⟨S32768x1, .f32⟩
  | 101 => ⟨S32768x1, .i1⟩
  | 102 => ⟨S32768x1, .f32⟩
  | 103 => ⟨S_, .f32⟩
  | 104 => ⟨S32768x1, .f32⟩
  | 105 => ⟨S32768x1, .f32⟩
  | 106 => ⟨S_, .f32⟩
  | 107 => ⟨S32768x1, .f32⟩
  | 108 => ⟨S32768x1, .f32⟩
  | 109 => ⟨S32768x1, .f32⟩
  | 110 => ⟨S32768x1, .f32⟩
  | 111 => ⟨S_, .f32⟩
  | 112 => ⟨S32768x1, .f32⟩
  | 113 => ⟨S32768x1, .i1⟩
  | 114 => ⟨S32768x1, .f32⟩
  | 115 => ⟨S32768x1, .i1⟩
  | 116 => ⟨S32768x1, .f32⟩
  | 117 => ⟨S32768x2, .f32⟩
  | 118 => ⟨S32768x2, .f32⟩
  | 119 => ⟨S_, .f32⟩
  | 120 => ⟨S32768x2, .f32⟩
  | 121 => ⟨S32768x2, .f32⟩
  | 122 => ⟨S_, .f32⟩
  | 123 => ⟨S32768x2, .f32⟩
  | 124 => ⟨S32768x2, .f32⟩
  | 125 => ⟨S32768x2, .f32⟩
  | 126 => ⟨S32768x2, .f32⟩
  | 127 => ⟨S32768x1, .f32⟩
  | _ => ⟨S32768x256, .f32⟩

abbrev hbmTy0_44 (i : Nat) : BufTy := match i % 128 with
  | 0 => ⟨S32768x1, .f32⟩
  | 1 => ⟨S_, .f32⟩
  | 2 => ⟨S_, .f32⟩
  | 3 => ⟨S_, .f32⟩
  | 4 => ⟨S32768x1, .f32⟩
  | 5 => ⟨S32768x1, .f32⟩
  | 6 => ⟨S_, .f32⟩
  | 7 => ⟨S32768x1, .f32⟩
  | 8 => ⟨S32768x1, .f32⟩
  | 9 => ⟨S_, .f32⟩
  | 10 => ⟨S_, .f32⟩
  | 11 => ⟨S_, .f32⟩
  | 12 => ⟨S32768x1, .f32⟩
  | 13 => ⟨S32768x1, .f32⟩
  | 14 => ⟨S_, .f32⟩
  | 15 => ⟨S32768x1, .f32⟩
  | 16 => ⟨S32768x1, .f32⟩
  | 17 => ⟨S32768x1, .f32⟩
  | 18 => ⟨S32768x1, .f32⟩
  | 19 => ⟨S32768x1, .f32⟩
  | 20 => ⟨S32768x1, .f32⟩
  | 21 => ⟨S32768x1, .f32⟩
  | 22 => ⟨S32768x1, .f32⟩
  | 23 => ⟨S32768x1, .f32⟩
  | 24 => ⟨S_, .f32⟩
  | 25 => ⟨S32768x1, .f32⟩
  | 26 => ⟨S32768x1, .i1⟩
  | 27 => ⟨S32768x1, .f32⟩
  | 28 => ⟨S_, .f32⟩
  | 29 => ⟨S32768x1, .f32⟩
  | 30 => ⟨S32768x1, .f32⟩
  | 31 => ⟨S_, .f32⟩
  | 32 => ⟨S32768x1, .f32⟩
  | 33 => ⟨S32768x1, .f32⟩
  | 34 => ⟨S32768x1, .f32⟩
  | 35 => ⟨S32768x1, .f32⟩
  | 36 => ⟨S_, .f32⟩
  | 37 => ⟨S32768x1, .f32⟩
  | 38 => ⟨S32768x1, .i1⟩
  | 39 => ⟨S32768x1, .f32⟩
  | 40 => ⟨S32768x1, .i1⟩
  | 41 => ⟨S32768x1, .f32⟩
  | 42 => ⟨S32768x2, .f32⟩
  | 43 => ⟨S32768x2, .f32⟩
  | 44 => ⟨S32768x2, .i1⟩
  | 45 => ⟨S32768x2, .f32⟩
  | 46 => ⟨S32768x4, .f32⟩
  | 47 => ⟨S32768x4, .f32⟩
  | 48 => ⟨S32768x4, .i1⟩
  | 49 => ⟨S32768x4, .f32⟩
  | 50 => ⟨S32768x8, .f32⟩
  | 51 => ⟨S32768x8, .f32⟩
  | 52 => ⟨S32768x8, .i1⟩
  | 53 => ⟨S32768x8, .f32⟩
  | 54 => ⟨S32768x16, .f32⟩
  | 55 => ⟨S32768x16, .f32⟩
  | 56 => ⟨S_, .f32⟩
  | 57 => ⟨S32768x16, .f32⟩
  | 58 => ⟨S32768x16, .f32⟩
  | 59 => ⟨S_, .f32⟩
  | 60 => ⟨S32768x16, .f32⟩
  | 61 => ⟨S32768x16, .f32⟩
  | 62 => ⟨S32768x16, .f32⟩
  | 63 => ⟨S32768x16, .f32⟩
  | 64 => ⟨S32768x8, .f32⟩
  | 65 => ⟨S32768x8, .f32⟩
  | 66 => ⟨S_, .f32⟩
  | 67 => ⟨S_, .f32⟩
  | 68 => ⟨S_, .f32⟩
  | 69 => ⟨S32768x8, .f32⟩
  | 70 => ⟨S32768x8, .f32⟩
  | 71 => ⟨S_, .f32⟩
  | 72 => ⟨S32768x8, .f32⟩
  | 73 => ⟨S32768x8, .f32⟩
  | 74 => ⟨S_, .f32⟩
  | 75 => ⟨S_, .f32⟩
  | 76 => ⟨S_, .f32⟩
  | 77 => ⟨S32768x8, .f32⟩
  | 78 => ⟨S32768x8, .f32⟩
  | 79 => ⟨S_, .f32⟩
  | 80 => ⟨S32768x8, .f32⟩
  | 81 => ⟨S32768x8, .f32⟩
  | 82 => ⟨S32768x8, .f32⟩
  | 83 => ⟨S32768x8, .f32⟩
  | 84 => ⟨S32768x8, .f32⟩
  | 85 => ⟨S32768x8, .f32⟩
  | 86 => ⟨S32768x8, .f32⟩
  | 87 => ⟨S32768x8, .f32⟩
  | 88 => ⟨S32768x8, .f32⟩
  | 89 => ⟨S32768x4, .f32⟩
  | 90 => ⟨S32768x4, .f32⟩
  | 91 => ⟨S_, .f32⟩
  | 92 => ⟨S_, .f32⟩
  | 93 => ⟨S_, .f32⟩
  | 94 => ⟨S32768x4, .f32⟩
  | 95 => ⟨S32768x4, .f32⟩
  | 96 => ⟨S_, .f32⟩
  | 97 => ⟨S32768x4, .f32⟩
  | 98 => ⟨S32768x4, .f32⟩
  | 99 => ⟨S_, .f32⟩
  | 100 => ⟨S_, .f32⟩
  | 101 => ⟨S_, .f32⟩
  | 102 => ⟨S32768x4, .f32⟩
  | 103 => ⟨S32768x4, .f32⟩
  | 104 => ⟨S_, .f32⟩
  | 105 => ⟨S32768x4, .f32⟩
  | 106 => ⟨S32768x4, .f32⟩
  | 107 => ⟨S32768x4, .f32⟩
  | 108 => ⟨S32768x4, .f32⟩
  | 109 => ⟨S32768x4, .f32⟩
  | 110 => ⟨S32768x4, .f32⟩
  | 111 => ⟨S32768x4, .f32⟩
  | 112 => ⟨S32768x4, .f32⟩
  | 113 => ⟨S32768x4, .f32⟩
  | 114 => ⟨S32768x2, .f32⟩
  | 115 => ⟨S32768x2, .f32⟩
  | 116 => ⟨S_, .f32⟩
  | 117 => ⟨S_, .f32⟩
  | 118 => ⟨S_, .f32⟩
  | 119 => ⟨S32768x2, .f32⟩
  | 120 => ⟨S32768x2, .f32⟩
  | 121 => ⟨S_, .f32⟩
  | 122 => ⟨S32768x2, .f32⟩
  | 123 => ⟨S32768x2, .f32⟩
  | 124 => ⟨S_, .f32⟩
  | 125 => ⟨S_, .f32⟩
  | 126 => ⟨S_, .f32⟩
  | 127 => ⟨S32768x2, .f32⟩
  | _ => ⟨S32768x256, .f32⟩

abbrev hbmTy0_45 (i : Nat) : BufTy := match i % 128 with
  | 0 => ⟨S32768x2, .f32⟩
  | 1 => ⟨S_, .f32⟩
  | 2 => ⟨S32768x2, .f32⟩
  | 3 => ⟨S32768x2, .f32⟩
  | 4 => ⟨S32768x2, .f32⟩
  | 5 => ⟨S32768x2, .f32⟩
  | 6 => ⟨S32768x2, .f32⟩
  | 7 => ⟨S32768x2, .f32⟩
  | 8 => ⟨S32768x2, .f32⟩
  | 9 => ⟨S32768x2, .f32⟩
  | 10 => ⟨S32768x2, .f32⟩
  | 11 => ⟨S32768x1, .f32⟩
  | 12 => ⟨S32768x1, .f32⟩
  | 13 => ⟨S_, .f32⟩
  | 14 => ⟨S_, .f32⟩
  | 15 => ⟨S_, .f32⟩
  | 16 => ⟨S32768x1, .f32⟩
  | 17 => ⟨S32768x1, .f32⟩
  | 18 => ⟨S_, .f32⟩
  | 19 => ⟨S32768x1, .f32⟩
  | 20 => ⟨S32768x1, .f32⟩
  | 21 => ⟨S_, .f32⟩
  | 22 => ⟨S_, .f32⟩
  | 23 => ⟨S_, .f32⟩
  | 24 => ⟨S32768x1, .f32⟩
  | 25 => ⟨S32768x1, .f32⟩
  | 26 => ⟨S_, .f32⟩
  | 27 => ⟨S32768x1, .f32⟩
  | 28 => ⟨S32768x1, .f32⟩
  | 29 => ⟨S32768x1, .f32⟩
  | 30 => ⟨S32768x1, .f32⟩
  | 31 => ⟨S32768x1, .f32⟩
  | 32 => ⟨S32768x1, .f32⟩
  | 33 => ⟨S32768x1, .f32⟩
  | 34 => ⟨S32768x1, .f32⟩
  | 35 => ⟨S32768x1, .f32⟩
  | 36 => ⟨S_, .f32⟩
  | 37 => ⟨S32768x1, .f32⟩
  | 38 => ⟨S32768x1, .i1⟩
  | 39 => ⟨S32768x1, .f32⟩
  | 40 => ⟨S_, .f32⟩
  | 41 => ⟨S32768x1, .f32⟩
  | 42 => ⟨S32768x1, .f32⟩
  | 43 => ⟨S_, .f32⟩
  | 44 => ⟨S32768x1, .f32⟩
  | 45 => ⟨S32768x1, .f32⟩
  | 46 => ⟨S32768x1, .f32⟩
  | 47 => ⟨S32768x1, .f32⟩
  | 48 => ⟨S_, .f32⟩
  | 49 => ⟨S32768x1, .f32⟩
  | 50 => ⟨S32768x1, .i1⟩
  | 51 => ⟨S32768x1, .f32⟩
  | 52 => ⟨S32768x1, .i1⟩
  | 53 => ⟨S32768x1, .f32⟩
  | 54 => ⟨S32768x2, .f32⟩
  | 55 => ⟨S32768x2, .f32⟩
  | 56 => ⟨S_, .f32⟩
  | 57 => ⟨S32768x2, .f32⟩
  | 58 => ⟨S32768x2, .f32⟩
  | 59 => ⟨S_, .f32⟩
  | 60 => ⟨S32768x2, .f32⟩
  | 61 => ⟨S32768x2, .f32⟩
  | 62 => ⟨S32768x2, .f32⟩
  | 63 => ⟨S32768x2, .f32⟩
  | 64 => ⟨S32768x1, .f32⟩
  | 65 => ⟨S32768x1, .f32⟩
  | 66 => ⟨S_, .f32⟩
  | 67 => ⟨S_, .f32⟩
  | 68 => ⟨S_, .f32⟩
  | 69 => ⟨S32768x1, .f32⟩
  | 70 => ⟨S32768x1, .f32⟩
  | 71 => ⟨S_, .f32⟩
  | 72 => ⟨S32768x1, .f32⟩
  | 73 => ⟨S32768x1, .f32⟩
  | 74 => ⟨S_, .f32⟩
  | 75 => ⟨S_, .f32⟩
  | 76 => ⟨S_, .f32⟩
  | 77 => ⟨S32768x1, .f32⟩
  | 78 => ⟨S32768x1, .f32⟩
  | 79 => ⟨S_, .f32⟩
  | 80 => ⟨S32768x1, .f32⟩
  | 81 => ⟨S32768x1, .f32⟩
  | 82 => ⟨S32768x1, .f32⟩
  | 83 => ⟨S32768x1, .f32⟩
  | 84 => ⟨S32768x1, .f32⟩
  | 85 => ⟨S32768x1, .f32⟩
  | 86 => ⟨S32768x1, .f32⟩
  | 87 => ⟨S32768x1, .f32⟩
  | 88 => ⟨S32768x1, .f32⟩
  | 89 => ⟨S_, .f32⟩
  | 90 => ⟨S32768x1, .f32⟩
  | 91 => ⟨S32768x1, .i1⟩
  | 92 => ⟨S32768x1, .f32⟩
  | 93 => ⟨S_, .f32⟩
  | 94 => ⟨S32768x1, .f32⟩
  | 95 => ⟨S32768x1, .f32⟩
  | 96 => ⟨S_, .f32⟩
  | 97 => ⟨S32768x1, .f32⟩
  | 98 => ⟨S32768x1, .f32⟩
  | 99 => ⟨S32768x1, .f32⟩
  | 100 => ⟨S32768x1, .f32⟩
  | 101 => ⟨S_, .f32⟩
  | 102 => ⟨S32768x1, .f32⟩
  | 103 => ⟨S32768x1, .i1⟩
  | 104 => ⟨S32768x1, .f32⟩
  | 105 => ⟨S32768x1, .i1⟩
  | 106 => ⟨S32768x1, .f32⟩
  | 107 => ⟨S32768x2, .f32⟩
  | 108 => ⟨S32768x2, .f32⟩
  | 109 => ⟨S32768x2, .i1⟩
  | 110 => ⟨S32768x2, .f32⟩
  | 111 => ⟨S32768x4, .f32⟩
  | 112 => ⟨S32768x4, .f32⟩
  | 113 => ⟨S_, .f32⟩
  | 114 => ⟨S32768x4, .f32⟩
  | 115 => ⟨S32768x4, .f32⟩
  | 116 => ⟨S_, .f32⟩
  | 117 => ⟨S32768x4, .f32⟩
  | 118 => ⟨S32768x4, .f32⟩
  | 119 => ⟨S32768x4, .f32⟩
  | 120 => ⟨S32768x4, .f32⟩
  | 121 => ⟨S32768x2, .f32⟩
  | 122 => ⟨S32768x2, .f32⟩
  | 123 => ⟨S_, .f32⟩
  | 124 => ⟨S_, .f32⟩
  | 125 => ⟨S_, .f32⟩
  | 126 => ⟨S32768x2, .f32⟩
  | 127 => ⟨S32768x2, .f32⟩
  | _ => ⟨S32768x256, .f32⟩

abbrev hbmTy0_46 (i : Nat) : BufTy := match i % 128 with
  | 0 => ⟨S_, .f32⟩
  | 1 => ⟨S32768x2, .f32⟩
  | 2 => ⟨S32768x2, .f32⟩
  | 3 => ⟨S_, .f32⟩
  | 4 => ⟨S_, .f32⟩
  | 5 => ⟨S_, .f32⟩
  | 6 => ⟨S32768x2, .f32⟩
  | 7 => ⟨S32768x2, .f32⟩
  | 8 => ⟨S_, .f32⟩
  | 9 => ⟨S32768x2, .f32⟩
  | 10 => ⟨S32768x2, .f32⟩
  | 11 => ⟨S32768x2, .f32⟩
  | 12 => ⟨S32768x2, .f32⟩
  | 13 => ⟨S32768x2, .f32⟩
  | 14 => ⟨S32768x2, .f32⟩
  | 15 => ⟨S32768x2, .f32⟩
  | 16 => ⟨S32768x2, .f32⟩
  | 17 => ⟨S32768x2, .f32⟩
  | 18 => ⟨S32768x1, .f32⟩
  | 19 => ⟨S32768x1, .f32⟩
  | 20 => ⟨S_, .f32⟩
  | 21 => ⟨S_, .f32⟩
  | 22 => ⟨S_, .f32⟩
  | 23 => ⟨S32768x1, .f32⟩
  | 24 => ⟨S32768x1, .f32⟩
  | 25 => ⟨S_, .f32⟩
  | 26 => ⟨S32768x1, .f32⟩
  | 27 => ⟨S32768x1, .f32⟩
  | 28 => ⟨S_, .f32⟩
  | 29 => ⟨S_, .f32⟩
  | 30 => ⟨S_, .f32⟩
  | 31 => ⟨S32768x1, .f32⟩
  | 32 => ⟨S32768x1, .f32⟩
  | 33 => ⟨S_, .f32⟩
  | 34 => ⟨S32768x1, .f32⟩
  | 35 => ⟨S32768x1, .f32⟩
  | 36 => ⟨S32768x1, .f32⟩
  | 37 => ⟨S32768x1, .f32⟩
  | 38 => ⟨S32768x1, .f32⟩
  | 39 => ⟨S32768x1, .f32⟩
  | 40 => ⟨S32768x1, .f32⟩
  | 41 => ⟨S32768x1, .f32⟩
  | 42 => ⟨S32768x1, .f32⟩
  | 43 => ⟨S_, .f32⟩
  | 44 => ⟨S32768x1, .f32⟩
  | 45 => ⟨S32768x1, .i1⟩
  | 46 => ⟨S32768x1, .f32⟩
  | 47 => ⟨S_, .f32⟩
  | 48 => ⟨S32768x1, .f32⟩
  | 49 => ⟨S32768x1, .f32⟩
  | 50 => ⟨S_, .f32⟩
  | 51 => ⟨S32768x1, .f32⟩
  | 52 => ⟨S32768x1, .f32⟩
  | 53 => ⟨S32768x1, .f32⟩
  | 54 => ⟨S32768x1, .f32⟩
  | 55 => ⟨S_, .f32⟩
  | 56 => ⟨S32768x1, .f32⟩
  | 57 => ⟨S32768x1, .i1⟩
  | 58 => ⟨S32768x1, .f32⟩
  | 59 => ⟨S32768x1, .i1⟩
  | 60 => ⟨S32768x1, .f32⟩
  | 61 => ⟨S32768x2, .f32⟩
  | 62 => ⟨S32768x2, .f32⟩
  | 63 => ⟨S_, .f32⟩
  | 64 => ⟨S32768x2, .f32⟩
  | 65 => ⟨S32768x2, .f32⟩
  | 66 => ⟨S_, .f32⟩
  | 67 => ⟨S32768x2, .f32⟩
  | 68 => ⟨S32768x2, .f32⟩
  | 69 => ⟨S32768x2, .f32⟩
  | 70 => ⟨S32768x2, .f32⟩
  | 71 => ⟨S32768x1, .f32⟩
  | 72 => ⟨S32768x1, .f32⟩
  | 73 => ⟨S_, .f32⟩
  | 74 => ⟨S_, .f32⟩
  | 75 => ⟨S_, .f32⟩
  | 76 => ⟨S32768x1, .f32⟩
  | 77 => ⟨S32768x1, .f32⟩
  | 78 => ⟨S_, .f32⟩
  | 79 => ⟨S32768x1, .f32⟩
  | 80 => ⟨S32768x1, .f32⟩
  | 81 => ⟨S_, .f32⟩
  | 82 => ⟨S_, .f32⟩
  | 83 => ⟨S_, .f32⟩
  | 84 => ⟨S32768x1, .f32⟩
  | 85 => ⟨S32768x1, .f32⟩
  | 86 => ⟨S_, .f32⟩
  | 87 => ⟨S32768x1, .f32⟩
  | 88 => ⟨S32768x1, .f32⟩
  | 89 => ⟨S32768x1, .f32⟩
  | 90 => ⟨S32768x1, .f32⟩
  | 91 => ⟨S32768x1, .f32⟩
  | 92 => ⟨S32768x1, .f32⟩
  | 93 => ⟨S32768x1, .f32⟩
  | 94 => ⟨S32768x1, .f32⟩
  | 95 => ⟨S32768x1, .f32⟩
  | 96 => ⟨S_, .f32⟩
  | 97 => ⟨S32768x1, .f32⟩
  | 98 => ⟨S32768x1, .i1⟩
  | 99 => ⟨S32768x1, .f32⟩
  | 100 => ⟨S_, .f32⟩
  | 101 => ⟨S32768x1, .f32⟩
  | 102 => ⟨S32768x1, .f32⟩
  | 103 => ⟨S_, .f32⟩
  | 104 => ⟨S32768x1, .f32⟩
  | 105 => ⟨S32768x1, .f32⟩
  | 106 => ⟨S32768x1, .f32⟩
  | 107 => ⟨S32768x1, .f32⟩
  | 108 => ⟨S_, .f32⟩
  | 109 => ⟨S32768x1, .f32⟩
  | 110 => ⟨S32768x1, .i1⟩
  | 111 => ⟨S32768x1, .f32⟩
  | 112 => ⟨S32768x1, .i1⟩
  | 113 => ⟨S32768x1, .f32⟩
  | 114 => ⟨S32768x2, .f32⟩
  | 115 => ⟨S32768x2, .f32⟩
  | 116 => ⟨S32768x2, .i1⟩
  | 117 => ⟨S32768x2, .f32⟩
  | 118 => ⟨S32768x4, .f32⟩
  | 119 => ⟨S32768x4, .f32⟩
  | 120 => ⟨S32768x4, .i1⟩
  | 121 => ⟨S32768x4, .f32⟩
  | 122 => ⟨S32768x8, .f32⟩
  | 123 => ⟨S32768x8, .f32⟩
  | 124 => ⟨S_, .f32⟩
  | 125 => ⟨S32768x8, .f32⟩
  | 126 => ⟨S32768x8, .f32⟩
  | 127 => ⟨S_, .f32⟩
  | _ => ⟨S32768x256, .f32⟩

abbrev hbmTy0_47 (i : Nat) : BufTy := match i % 128 with
  | 0 => ⟨S32768x8, .f32⟩
  | 1 => ⟨S32768x8, .f32⟩
  | 2 => ⟨S32768x8, .f32⟩
  | 3 => ⟨S32768x8, .f32⟩
  | 4 => ⟨S32768x4, .f32⟩
  | 5 => ⟨S32768x4, .f32⟩
  | 6 => ⟨S_, .f32⟩
  | 7 => ⟨S_, .f32⟩
  | 8 => ⟨S_, .f32⟩
  | 9 => ⟨S32768x4, .f32⟩
  | 10 => ⟨S32768x4, .f32⟩
  | 11 => ⟨S_, .f32⟩
  | 12 => ⟨S32768x4, .f32⟩
  | 13 => ⟨S32768x4, .f32⟩
  | 14 => ⟨S_, .f32⟩
  | 15 => ⟨S_, .f32⟩
  | 16 => ⟨S_, .f32⟩
  | 17 => ⟨S32768x4, .f32⟩
  | 18 => ⟨S32768x4, .f32⟩
  | 19 => ⟨S_, .f32⟩
  | 20 => ⟨S32768x4, .f32⟩
  | 21 => ⟨S32768x4, .f32⟩
  | 22 => ⟨S32768x4, .f32⟩
  | 23 => ⟨S32768x4, .f32⟩
  | 24 => ⟨S32768x4, .f32⟩
  | 25 => ⟨S32768x4, .f32⟩
  | 26 => ⟨S32768x4, .f32⟩
  | 27 => ⟨S32768x4, .f32⟩
  | 28 => ⟨S32768x4, .f32⟩
  | 29 => ⟨S32768x2, .f32⟩
  | 30 => ⟨S32768x2, .f32⟩
  | 31 => ⟨S_, .f32⟩
  | 32 => ⟨S_, .f32⟩
  | 33 => ⟨S_, .f32⟩
  | 34 => ⟨S32768x2, .f32⟩
  | 35 => ⟨S32768x2, .f32⟩
  | 36 => ⟨S_, .f32⟩
  | 37 => ⟨S32768x2, .f32⟩
  | 38 => ⟨S32768x2, .f32⟩
  | 39 => ⟨S_, .f32⟩
  | 40 => ⟨S_, .f32⟩
  | 41 => ⟨S_, .f32⟩
  | 42 => ⟨S32768x2, .f32⟩
  | 43 => ⟨S32768x2, .f32⟩
  | 44 => ⟨S_, .f32⟩
  | 45 => ⟨S32768x2, .f32⟩
  | 46 => ⟨S32768x2, .f32⟩
  | 47 => ⟨S32768x2, .f32⟩
  | 48 => ⟨S32768x2, .f32⟩
  | 49 => ⟨S32768x2, .f32⟩
  | 50 => ⟨S32768x2, .f32⟩
  | 51 => ⟨S32768x2, .f32⟩
  | 52 => ⟨S32768x2, .f32⟩
  | 53 => ⟨S32768x2, .f32⟩
  | 54 => ⟨S32768x1, .f32⟩
  | 55 => ⟨S32768x1, .f32⟩
  | 56 => ⟨S_, .f32⟩
  | 57 => ⟨S_, .f32⟩
  | 58 => ⟨S_, .f32⟩
  | 59 => ⟨S32768x1, .f32⟩
  | 60 => ⟨S32768x1, .f32⟩
  | 61 => ⟨S_, .f32⟩
  | 62 => ⟨S32768x1, .f32⟩
  | 63 => ⟨S32768x1, .f32⟩
  | 64 => ⟨S_, .f32⟩
  | 65 => ⟨S_, .f32⟩
  | 66 => ⟨S_, .f32⟩
  | 67 => ⟨S32768x1, .f32⟩
  | 68 => ⟨S32768x1, .f32⟩
  | 69 => ⟨S_, .f32⟩
  | 70 => ⟨S32768x1, .f32⟩
  | 71 => ⟨S32768x1, .f32⟩
  | 72 => ⟨S32768x1, .f32⟩
  | 73 => ⟨S32768x1, .f32⟩
  | 74 => ⟨S32768x1, .f32⟩
  | 75 => ⟨S32768x1, .f32⟩
  | 76 => ⟨S32768x1, .f32⟩
  | 77 => ⟨S32768x1, .f32⟩
  | 78 => ⟨S32768x1, .f32⟩
  | 79 => ⟨S_, .f32⟩
  | 80 => ⟨S32768x1, .f32⟩
  | 81 => ⟨S32768x1, .i1⟩
  | 82 => ⟨S32768x1, .f32⟩
  | 83 => ⟨S_, .f32⟩
  | 84 => ⟨S32768x1, .f32⟩
  | 85 => ⟨S32768x1, .f32⟩
  | 86 => ⟨S_, .f32⟩
  | 87 => ⟨S32768x1, .f32⟩
  | 88 => ⟨S32768x1, .f32⟩
  | 89 => ⟨S32768x1, .f32⟩
  | 90 => ⟨S32768x1, .f32⟩
  | 91 => ⟨S_, .f32⟩
  | 92 => ⟨S32768x1, .f32⟩
  | 93 => ⟨S32768x1, .i1⟩
  | 94 => ⟨S32768x1, .f32⟩
  | 95 => ⟨S32768x1, .i1⟩
  | 96 => ⟨S32768x1, .f32⟩
  | 97 => ⟨S32768x2, .f32⟩
  | 98 => ⟨S32768x2, .f32⟩
  | 99 => ⟨S_, .f32⟩
  | 100 => ⟨S32768x2, .f32⟩
  | 101 => ⟨S32768x2, .f32⟩
  | 102 => ⟨S_, .f32⟩
  | 103 => ⟨S32768x2, .f32⟩
  | 104 => ⟨S32768x2, .f32⟩
  | 105 => ⟨S32768x2, .f32⟩
  | 106 => ⟨S32768x2, .f32⟩
  | 107 => ⟨S32768x1, .f32⟩
  | 108 => ⟨S32768x1, .f32⟩
  | 109 => ⟨S_, .f32⟩
  | 110 => ⟨S_, .f32⟩
  | 111 => ⟨S_, .f32⟩
  | 112 => ⟨S32768x1, .f32⟩
  | 113 => ⟨S32768x1, .f32⟩
  | 114 => ⟨S_, .f32⟩
  | 115 => ⟨S32768x1, .f32⟩
  | 116 => ⟨S32768x1, .f32⟩
  | 117 => ⟨S_, .f32⟩
  | 118 => ⟨S_, .f32⟩
  | 119 => ⟨S_, .f32⟩
  | 120 => ⟨S32768x1, .f32⟩
  | 121 => ⟨S32768x1, .f32⟩
  | 122 => ⟨S_, .f32⟩
  | 123 => ⟨S32768x1, .f32⟩
  | 124 => ⟨S32768x1, .f32⟩
  | 125 => ⟨S32768x1, .f32⟩
  | 126 => ⟨S32768x1, .f32⟩
  | 127 => ⟨S32768x1, .f32⟩
  | _ => ⟨S32768x256, .f32⟩

abbrev hbmTy0_48 (i : Nat) : BufTy := match i % 128 with
  | 0 => ⟨S32768x1, .f32⟩
  | 1 => ⟨S32768x1, .f32⟩
  | 2 => ⟨S32768x1, .f32⟩
  | 3 => ⟨S32768x1, .f32⟩
  | 4 => ⟨S_, .f32⟩
  | 5 => ⟨S32768x1, .f32⟩
  | 6 => ⟨S32768x1, .i1⟩
  | 7 => ⟨S32768x1, .f32⟩
  | 8 => ⟨S_, .f32⟩
  | 9 => ⟨S32768x1, .f32⟩
  | 10 => ⟨S32768x1, .f32⟩
  | 11 => ⟨S_, .f32⟩
  | 12 => ⟨S32768x1, .f32⟩
  | 13 => ⟨S32768x1, .f32⟩
  | 14 => ⟨S32768x1, .f32⟩
  | 15 => ⟨S32768x1, .f32⟩
  | 16 => ⟨S_, .f32⟩
  | 17 => ⟨S32768x1, .f32⟩
  | 18 => ⟨S32768x1, .i1⟩
  | 19 => ⟨S32768x1, .f32⟩
  | 20 => ⟨S32768x1, .i1⟩
  | 21 => ⟨S32768x1, .f32⟩
  | 22 => ⟨S32768x2, .f32⟩
  | 23 => ⟨S32768x2, .f32⟩
  | 24 => ⟨S32768x2, .i1⟩
  | 25 => ⟨S32768x2, .f32⟩
  | 26 => ⟨S32768x4, .f32⟩
  | 27 => ⟨S32768x4, .f32⟩
  | 28 => ⟨S_, .f32⟩
  | 29 => ⟨S32768x4, .f32⟩
  | 30 => ⟨S32768x4, .f32⟩
  | 31 => ⟨S_, .f32⟩
  | 32 => ⟨S32768x4, .f32⟩
  | 33 => ⟨S32768x4, .f32⟩
  | 34 => ⟨S32768x4, .f32⟩
  | 35 => ⟨S32768x4, .f32⟩
  | 36 => ⟨S32768x2, .f32⟩
  | 37 => ⟨S32768x2, .f32⟩
  | 38 => ⟨S_, .f32⟩
  | 39 => ⟨S_, .f32⟩
  | 40 => ⟨S_, .f32⟩
  | 41 => ⟨S32768x2, .f32⟩
  | 42 => ⟨S32768x2, .f32⟩
  | 43 => ⟨S_, .f32⟩
  | 44 => ⟨S32768x2, .f32⟩
  | 45 => ⟨S32768x2, .f32⟩
  | 46 => ⟨S_, .f32⟩
  | 47 => ⟨S_, .f32⟩
  | 48 => ⟨S_, .f32⟩
  | 49 => ⟨S32768x2, .f32⟩
  | 50 => ⟨S32768x2, .f32⟩
  | 51 => ⟨S_, .f32⟩
  | 52 => ⟨S32768x2, .f32⟩
  | 53 => ⟨S32768x2, .f32⟩
  | 54 => ⟨S32768x2, .f32⟩
  | 55 => ⟨S32768x2, .f32⟩
  | 56 => ⟨S32768x2, .f32⟩
  | 57 => ⟨S32768x2, .f32⟩
  | 58 => ⟨S32768x2, .f32⟩
  | 59 => ⟨S32768x2, .f32⟩
  | 60 => ⟨S32768x2, .f32⟩
  | 61 => ⟨S32768x1, .f32⟩
  | 62 => ⟨S32768x1, .f32⟩
  | 63 => ⟨S_, .f32⟩
  | 64 => ⟨S_, .f32⟩
  | 65 => ⟨S_, .f32⟩
  | 66 => ⟨S32768x1, .f32⟩
  | 67 => ⟨S32768x1, .f32⟩
  | 68 => ⟨S_, .f32⟩
  | 69 => ⟨S32768x1, .f32⟩
  | 70 => ⟨S32768x1, .f32⟩
  | 71 => ⟨S_, .f32⟩
  | 72 => ⟨S_, .f32⟩
  | 73 => ⟨S_, .f32⟩
  | 74 => ⟨S32768x1, .f32⟩
  | 75 => ⟨S32768x1, .f32⟩
  | 76 => ⟨S_, .f32⟩
  | 77 => ⟨S32768x1, .f32⟩
  | 78 => ⟨S32768x1, .f32⟩
  | 79 => ⟨S32768x1, .f32⟩
  | 80 => ⟨S32768x1, .f32⟩
  | 81 => ⟨S32768x1, .f32⟩
  | 82 => ⟨S32768x1, .f32⟩
  | 83 => ⟨S32768x1, .f32⟩
  | 84 => ⟨S32768x1, .f32⟩
  | 85 => ⟨S32768x1, .f32⟩
  | 86 => ⟨S_, .f32⟩
  | 87 => ⟨S32768x1, .f32⟩
  | 88 => ⟨S32768x1, .i1⟩
  | 89 => ⟨S32768x1, .f32⟩
  | 90 => ⟨S_, .f32⟩
  | 91 => ⟨S32768x1, .f32⟩
  | 92 => ⟨S32768x1, .f32⟩
  | 93 => ⟨S_, .f32⟩
  | 94 => ⟨S32768x1, .f32⟩
  | 95 => ⟨S32768x1, .f32⟩
  | 96 => ⟨S32768x1, .f32⟩
  | 97 => ⟨S32768x1, .f32⟩
  | 98 => ⟨S_, .f32⟩
  | 99 => ⟨S32768x1, .f32⟩
  | 100 => ⟨S32768x1, .i1⟩
  | 101 => ⟨S32768x1, .f32⟩
  | 102 => ⟨S32768x1, .i1⟩
  | 103 => ⟨S32768x1, .f32⟩
  | 104 => ⟨S32768x2, .f32⟩
  | 105 => ⟨S32768x2, .f32⟩
  | 106 => ⟨S_, .f32⟩
  | 107 => ⟨S32768x2, .f32⟩
  | 108 => ⟨S32768x2, .f32⟩
  | 109 => ⟨S_, .f32⟩
  | 110 => ⟨S32768x2, .f32⟩
  | 111 => ⟨S32768x2, .f32⟩
  | 112 => ⟨S32768x2, .f32⟩
  | 113 => ⟨S32768x2, .f32⟩
  | 114 => ⟨S32768x1, .f32⟩
  | 115 => ⟨S32768x1, .f32⟩
  | 116 => ⟨S_, .f32⟩
  | 117 => ⟨S_, .f32⟩
  | 118 => ⟨S_, .f32⟩
  | 119 => ⟨S32768x1, .f32⟩
  | 120 => ⟨S32768x1, .f32⟩
  | 121 => ⟨S_, .f32⟩
  | 122 => ⟨S32768x1, .f32⟩
  | 123 => ⟨S32768x1, .f32⟩
  | 124 => ⟨S_, .f32⟩
  | 125 => ⟨S_, .f32⟩
  | 126 => ⟨S_, .f32⟩
  | 127 => ⟨S32768x1, .f32⟩
  | _ => ⟨S32768x256, .f32⟩

abbrev hbmTy0_49 (i : Nat) : BufTy := match i % 128 with
  | 0 => ⟨S32768x1, .f32⟩
  | 1 => ⟨S_, .f32⟩
  | 2 => ⟨S32768x1, .f32⟩
  | 3 => ⟨S32768x1, .f32⟩
  | 4 => ⟨S32768x1, .f32⟩
  | 5 => ⟨S32768x1, .f32⟩
  | 6 => ⟨S32768x1, .f32⟩
  | 7 => ⟨S32768x1, .f32⟩
  | 8 => ⟨S32768x1, .f32⟩
  | 9 => ⟨S32768x1, .f32⟩
  | 10 => ⟨S32768x1, .f32⟩
  | 11 => ⟨S_, .f32⟩
  | 12 => ⟨S32768x1, .f32⟩
  | 13 => ⟨S32768x1, .i1⟩
  | 14 => ⟨S32768x1, .f32⟩
  | 15 => ⟨S_, .f32⟩
  | 16 => ⟨S32768x1, .f32⟩
  | 17 => ⟨S32768x1, .f32⟩
  | 18 => ⟨S_, .f32⟩
  | 19 => ⟨S32768x1, .f32⟩
  | 20 => ⟨S32768x1, .f32⟩
  | 21 => ⟨S32768x1, .f32⟩
  | 22 => ⟨S32768x1, .f32⟩
  | 23 => ⟨S_, .f32⟩
  | 24 => ⟨S32768x1, .f32⟩
  | 25 => ⟨S32768x1, .i1⟩
  | 26 => ⟨S32768x1, .f32⟩
  | 27 => ⟨S32768x1, .i1⟩
  | 28 => ⟨S32768x1, .f32⟩
  | 29 => ⟨S32768x2, .f32⟩
  | 30 => ⟨S32768x2, .f32⟩
  | 31 => ⟨S32768x2, .i1⟩
  | 32 => ⟨S32768x2, .f32⟩
  | 33 => ⟨S32768x4, .f32⟩
  | 34 => ⟨S32768x4, .f32⟩
  | 35 => ⟨S32768x4, .i1⟩
  | 36 => ⟨S32768x4, .f32⟩
  | 37 => ⟨S32768x8, .f32⟩
  | 38 => ⟨S32768x8, .f32⟩
  | 39 => ⟨S32768x8, .i1⟩
  | 40 => ⟨S32768x8, .f32⟩
  | 41 => ⟨S32768x16, .f32⟩
  | 42 => ⟨S32768x16, .f32⟩
  | 43 => ⟨S32768x16, .i1⟩
  | 44 => ⟨S32768x16, .f32⟩
  | 45 => ⟨S32768x32, .f32⟩
  | 46 => ⟨S32768x32, .f32⟩
  | 47 => ⟨S_, .f32⟩
  | 48 => ⟨S32768x32, .f32⟩
  | 49 => ⟨S32768x32, .f32⟩
  | 50 => ⟨S_, .f32⟩
  | 51 => ⟨S32768x32, .f32⟩
  | 52 => ⟨S32768x32, .f32⟩
  | 53 => ⟨S32768x32, .f32⟩
  | 54 => ⟨S32768x32, .f32⟩
  | 55 => ⟨S32768x16, .f32⟩
  | 56 => ⟨S32768x16, .f32⟩
  | 57 => ⟨S_, .f32⟩
  | 58 => ⟨S_, .f32⟩
  | 59 => ⟨S_, .f32⟩
  | 60 => ⟨S32768x16, .f32⟩
  | 61 => ⟨S32768x16, .f32⟩
  | 62 => ⟨S_, .f32⟩
  | 63 => ⟨S32768x16, .f32⟩
  | 64 => ⟨S32768x16, .f32⟩
  | 65 => ⟨S_, .f32⟩
  | 66 => ⟨S_, .f32⟩
  | 67 => ⟨S_, .f32⟩
  | 68 => ⟨S32768x16, .f32⟩
  | 69 => ⟨S32768x16, .f32⟩
  | 70 => ⟨S_, .f32⟩
  | 71 => ⟨S32768x16, .f32⟩
  | 72 => ⟨S32768x16, .f32⟩
  | 73 => ⟨S32768x16, .f32⟩
  | 74 => ⟨S32768x16, .f32⟩
  | 75 => ⟨S32768x16, .f32⟩
  | 76 => ⟨S32768x16, .f32⟩
  | 77 => ⟨S32768x16, .f32⟩
  | 78 => ⟨S32768x16, .f32⟩
  | 79 => ⟨S32768x16, .f32⟩
  | 80 => ⟨S32768x8, .f32⟩
  | 81 => ⟨S32768x8, .f32⟩
  | 82 => ⟨S_, .f32⟩
  | 83 => ⟨S_, .f32⟩
  | 84 => ⟨S_, .f32⟩
  | 85 => ⟨S32768x8, .f32⟩
  | 86 => ⟨S32768x8, .f32⟩
  | 87 => ⟨S_, .f32⟩
  | 88 => ⟨S32768x8, .f32⟩
  | 89 => ⟨S32768x8, .f32⟩
  | 90 => ⟨S_, .f32⟩
  | 91 => ⟨S_, .f32⟩
  | 92 => ⟨S_, .f32⟩
  | 93 => ⟨S32768x8, .f32⟩
  | 94 => ⟨S32768x8, .f32⟩
  | 95 => ⟨S_, .f32⟩
  | 96 => ⟨S32768x8, .f32⟩
  | 97 => ⟨S32768x8, .f32⟩
  | 98 => ⟨S32768x8, .f32⟩
  | 99 => ⟨S32768x8, .f32⟩
  | 100 => ⟨S32768x8, .f32⟩
  | 101 => ⟨S32768x8, .f32⟩
  | 102 => ⟨S32768x8, .f32⟩
  | 103 => ⟨S32768x8, .f32⟩
  | 104 => ⟨S32768x8, .f32⟩
  | 105 => ⟨S32768x4, .f32⟩
  | 106 => ⟨S32768x4, .f32⟩
  | 107 => ⟨S_, .f32⟩
  | 108 => ⟨S_, .f32⟩
  | 109 => ⟨S_, .f32⟩
  | 110 => ⟨S32768x4, .f32⟩
  | 111 => ⟨S32768x4, .f32⟩
  | 112 => ⟨S_, .f32⟩
  | 113 => ⟨S32768x4, .f32⟩
  | 114 => ⟨S32768x4, .f32⟩
  | 115 => ⟨S_, .f32⟩
  | 116 => ⟨S_, .f32⟩
  | 117 => ⟨S_, .f32⟩
  | 118 => ⟨S32768x4, .f32⟩
  | 119 => ⟨S32768x4, .f32⟩
  | 120 => ⟨S_, .f32⟩
  | 121 => ⟨S32768x4, .f32⟩
  | 122 => ⟨S32768x4, .f32⟩
  | 123 => ⟨S32768x4, .f32⟩
  | 124 => ⟨S32768x4, .f32⟩
  | 125 => ⟨S32768x4, .f32⟩
  | 126 => ⟨S32768x4, .f32⟩
  | 127 => ⟨S32768x4, .f32⟩
  | _ => ⟨S32768x256, .f32⟩

abbrev hbmTy0_50 (i : Nat) : BufTy := match i % 128 with
  | 0 => ⟨S32768x4, .f32⟩
  | 1 => ⟨S32768x4, .f32⟩
  | 2 => ⟨S32768x2, .f32⟩
  | 3 => ⟨S32768x2, .f32⟩
  | 4 => ⟨S_, .f32⟩
  | 5 => ⟨S_, .f32⟩
  | 6 => ⟨S_, .f32⟩
  | 7 => ⟨S32768x2, .f32⟩
  | 8 => ⟨S32768x2, .f32⟩
  | 9 => ⟨S_, .f32⟩
  | 10 => ⟨S32768x2, .f32⟩
  | 11 => ⟨S32768x2, .f32⟩
  | 12 => ⟨S_, .f32⟩
  | 13 => ⟨S_, .f32⟩
  | 14 => ⟨S_, .f32⟩
  | 15 => ⟨S32768x2, .f32⟩
  | 16 => ⟨S32768x2, .f32⟩
  | 17 => ⟨S_, .f32⟩
  | 18 => ⟨S32768x2, .f32⟩
  | 19 => ⟨S32768x2, .f32⟩
  | 20 => ⟨S32768x2, .f32⟩
  | 21 => ⟨S32768x2, .f32⟩
  | 22 => ⟨S32768x2, .f32⟩
  | 23 => ⟨S32768x2, .f32⟩
  | 24 => ⟨S32768x2, .f32⟩
  | 25 => ⟨S32768x2, .f32⟩
  | 26 => ⟨S32768x2, .f32⟩
  | 27 => ⟨S32768x1, .f32⟩
  | 28 => ⟨S32768x1, .f32⟩
  | 29 => ⟨S_, .f32⟩
  | 30 => ⟨S_, .f32⟩
  | 31 => ⟨S_, .f32⟩
  | 32 => ⟨S32768x1, .f32⟩
  | 33 => ⟨S32768x1, .f32⟩
  | 34 => ⟨S_, .f32⟩
  | 35 => ⟨S32768x1, .f32⟩
  | 36 => ⟨S32768x1, .f32⟩
  | 37 => ⟨S_, .f32⟩
  | 38 => ⟨S_, .f32⟩
  | 39 => ⟨S_, .f32⟩
  | 40 => ⟨S32768x1, .f32⟩
  | 41 => ⟨S32768x1, .f32⟩
  | 42 => ⟨S_, .f32⟩
  | 43 => ⟨S32768x1, .f32⟩
  | 44 => ⟨S32768x1, .f32⟩
  | 45 => ⟨S32768x1, .f32⟩
  | 46 => ⟨S32768x1, .f32⟩
  | 47 => ⟨S32768x1, .f32⟩
  | 48 => ⟨S32768x1, .f32⟩
  | 49 => ⟨S32768x1, .f32⟩
  | 50 => ⟨S32768x1, .f32⟩
  | 51 => ⟨S32768x1, .f32⟩
  | 52 => ⟨S_, .f32⟩
  | 53 => ⟨S32768x1, .f32⟩
  | 54 => ⟨S32768x1, .i1⟩
  | 55 => ⟨S32768x1, .f32⟩
  | 56 => ⟨S_, .f32⟩
  | 57 => ⟨S32768x1, .f32⟩
  | 58 => ⟨S32768x1, .f32⟩
  | 59 => ⟨S_, .f32⟩
  | 60 => ⟨S32768x1, .f32⟩
  | 61 => ⟨S32768x1, .f32⟩
  | 62 => ⟨S32768x1, .f32⟩
  | 63 => ⟨S32768x1, .f32⟩
  | 64 => ⟨S_, .f32⟩
  | 65 => ⟨S32768x1, .f32⟩
  | 66 => ⟨S32768x1, .i1⟩
  | 67 => ⟨S32768x1, .f32⟩
  | 68 => ⟨S32768x1, .i1⟩
  | 69 => ⟨S32768x1, .f32⟩
  | 70 => ⟨S32768x2, .f32⟩
  | 71 => ⟨S32768x2, .f32⟩
  | 72 => ⟨S_, .f32⟩
  | 73 => ⟨S32768x2, .f32⟩
  | 74 => ⟨S32768x2, .f32⟩
  | 75 => ⟨S_, .f32⟩
  | 76 => ⟨S32768x2, .f32⟩
  | 77 => ⟨S32768x2, .f32⟩
  | 78 => ⟨S32768x2, .f32⟩
  | 79 => ⟨S32768x2, .f32⟩
  | 80 => ⟨S32768x1, .f32⟩
  | 81 => ⟨S32768x1, .f32⟩
  | 82 => ⟨S_, .f32⟩
  | 83 => ⟨S_, .f32⟩
  | 84 => ⟨S_, .f32⟩
  | 85 => ⟨S32768x1, .f32⟩
  | 86 => ⟨S32768x1, .f32⟩
  | 87 => ⟨S_, .f32⟩
  | 88 => ⟨S32768x1, .f32⟩
  | 89 => ⟨S32768x1, .f32⟩
  | 90 => ⟨S_, .f32⟩
  | 91 => ⟨S_, .f32⟩
  | 92 => ⟨S_, .f32⟩
  | 93 => ⟨S32768x1, .f32⟩
  | 94 => ⟨S32768x1, .f32⟩
  | 95 => ⟨S_, .f32⟩
  | 96 => ⟨S32768x1, .f32⟩
  | 97 => ⟨S32768x1, .f32⟩
  | 98 => ⟨S32768x1, .f32⟩
  | 99 => ⟨S32768x1, .f32⟩
  | 100 => ⟨S32768x1, .f32⟩
  | 101 => ⟨S32768x1, .f32⟩
  | 102 => ⟨S32768x1, .f32⟩
  | 103 => ⟨S32768x1, .f32⟩
  | 104 => ⟨S32768x1, .f32⟩
  | 105 => ⟨S_, .f32⟩
  | 106 => ⟨S32768x1, .f32⟩
  | 107 => ⟨S32768x1, .i1⟩
  | 108 => ⟨S32768x1, .f32⟩
  | 109 => ⟨S_, .f32⟩
  | 110 => ⟨S32768x1, .f32⟩
  | 111 => ⟨S32768x1, .f32⟩
  | 112 => ⟨S_, .f32⟩
  | 113 => ⟨S32768x1, .f32⟩
  | 114 => ⟨S32768x1, .f32⟩
  | 115 => ⟨S32768x1, .f32⟩
  | 116 => ⟨S32768x1, .f32⟩
  | 117 => ⟨S_, .f32⟩
  | 118 => ⟨S32768x1, .f32⟩
  | 119 => ⟨S32768x1, .i1⟩
  | 120 => ⟨S32768x1, .f32⟩
  | 121 => ⟨S32768x1, .i1⟩
  | 122 => ⟨S32768x1, .f32⟩
  | 123 => ⟨S32768x2, .f32⟩
  | 124 => ⟨S32768x2, .f32⟩
  | 125 => ⟨S32768x2, .i1⟩
  | 126 => ⟨S32768x2, .f32⟩
  | 127 => ⟨S32768x4, .f32⟩
  | _ => ⟨S32768x256, .f32⟩

abbrev hbmTy0_51 (i : Nat) : BufTy := match i % 128 with
  | 0 => ⟨S32768x4, .f32⟩
  | 1 => ⟨S_, .f32⟩
  | 2 => ⟨S32768x4, .f32⟩
  | 3 => ⟨S32768x4, .f32⟩
  | 4 => ⟨S_, .f32⟩
  | 5 => ⟨S32768x4, .f32⟩
  | 6 => ⟨S32768x4, .f32⟩
  | 7 => ⟨S32768x4, .f32⟩
  | 8 => ⟨S32768x4, .f32⟩
  | 9 => ⟨S32768x2, .f32⟩
  | 10 => ⟨S32768x2, .f32⟩
  | 11 => ⟨S_, .f32⟩
  | 12 => ⟨S_, .f32⟩
  | 13 => ⟨S_, .f32⟩
  | 14 => ⟨S32768x2, .f32⟩
  | 15 => ⟨S32768x2, .f32⟩
  | 16 => ⟨S_, .f32⟩
  | 17 => ⟨S32768x2, .f32⟩
  | 18 => ⟨S32768x2, .f32⟩
  | 19 => ⟨S_, .f32⟩
  | 20 => ⟨S_, .f32⟩
  | 21 => ⟨S_, .f32⟩
  | 22 => ⟨S32768x2, .f32⟩
  | 23 => ⟨S32768x2, .f32⟩
  | 24 => ⟨S_, .f32⟩
  | 25 => ⟨S32768x2, .f32⟩
  | 26 => ⟨S32768x2, .f32⟩
  | 27 => ⟨S32768x2, .f32⟩
  | 28 => ⟨S32768x2, .f32⟩
  | 29 => ⟨S32768x2, .f32⟩
  | 30 => ⟨S32768x2, .f32⟩
  | 31 => ⟨S32768x2, .f32⟩
  | 32 => ⟨S32768x2, .f32⟩
  | 33 => ⟨S32768x2, .f32⟩
  | 34 => ⟨S32768x1, .f32⟩
  | 35 => ⟨S32768x1, .f32⟩
  | 36 => ⟨S_, .f32⟩
  | 37 => ⟨S_, .f32⟩
  | 38 => ⟨S_, .f32⟩
  | 39 => ⟨S32768x1, .f32⟩
  | 40 => ⟨S32768x1, .f32⟩
  | 41 => ⟨S_, .f32⟩
  | 42 => ⟨S32768x1, .f32⟩
  | 43 => ⟨S32768x1, .f32⟩
  | 44 => ⟨S_, .f32⟩
  | 45 => ⟨S_, .f32⟩
  | 46 => ⟨S_, .f32⟩
  | 47 => ⟨S32768x1, .f32⟩
  | 48 => ⟨S32768x1, .f32⟩
  | 49 => ⟨S_, .f32⟩
  | 50 => ⟨S32768x1, .f32⟩
  | 51 => ⟨S32768x1, .f32⟩
  | 52 => ⟨S32768x1, .f32⟩
  | 53 => ⟨S32768x1, .f32⟩
  | 54 => ⟨S32768x1, .f32⟩
  | 55 => ⟨S32768x1, .f32⟩
  | 56 => ⟨S32768x1, .f32⟩
  | 57 => ⟨S32768x1, .f32⟩
  | 58 => ⟨S32768x1, .f32⟩
  | 59 => ⟨S_, .f32⟩
  | 60 => ⟨S32768x1, .f32⟩
  | 61 => ⟨S32768x1, .i1⟩
  | 62 => ⟨S32768x1, .f32⟩
  | 63 => ⟨S_, .f32⟩
  | 64 => ⟨S32768x1, .f32⟩
  | 65 => ⟨S32768x1, .f32⟩
  | 66 => ⟨S_, .f32⟩
  | 67 => ⟨S32768x1, .f32⟩
  | 68 => ⟨S32768x1, .f32⟩
  | 69 => ⟨S32768x1, .f32⟩
  | 70 => ⟨S32768x1, .f32⟩
  | 71 => ⟨S_, .f32⟩
  | 72 => ⟨S32768x1, .f32⟩
  | 73 => ⟨S32768x1, .i1⟩
  | 74 => ⟨S32768x1, .f32⟩
  | 75 => ⟨S32768x1, .i1⟩
  | 76 => ⟨S32768x1, .f32⟩
  | 77 => ⟨S32768x2, .f32⟩
  | 78 => ⟨S32768x2, .f32⟩
  | 79 => ⟨S_, .f32⟩
  | 80 => ⟨S32768x2, .f32⟩
  | 81 => ⟨S32768x2, .f32⟩
  | 82 => ⟨S_, .f32⟩
  | 83 => ⟨S32768x2, .f32⟩
  | 84 => ⟨S32768x2, .f32⟩
  | 85 => ⟨S32768x2, .f32⟩
  | 86 => ⟨S32768x2, .f32⟩
  | 87 => ⟨S32768x1, .f32⟩
  | 88 => ⟨S32768x1, .f32⟩
  | 89 => ⟨S_, .f32⟩
  | 90 => ⟨S_, .f32⟩
  | 91 => ⟨S_, .f32⟩
  | 92 => ⟨S32768x1, .f32⟩
  | 93 => ⟨S32768x1, .f32⟩
  | 94 => ⟨S_, .f32⟩
  | 95 => ⟨S32768x1, .f32⟩
  | 96 => ⟨S32768x1, .f32⟩
  | 97 => ⟨S_, .f32⟩
  | 98 => ⟨S_, .f32⟩
  | 99 => ⟨S_, .f32⟩
  | 100 => ⟨S32768x1, .f32⟩
  | 101 => ⟨S32768x1, .f32⟩
  | 102 => ⟨S_, .f32⟩
  | 103 => ⟨S32768x1, .f32⟩
  | 104 => ⟨S32768x1, .f32⟩
  | 105 => ⟨S32768x1, .f32⟩
  | 106 => ⟨S32768x1, .f32⟩
  | 107 => ⟨S32768x1, .f32⟩
  | 108 => ⟨S32768x1, .f32⟩
  | 109 => ⟨S32768x1, .f32⟩
  | 110 => ⟨S32768x1, .f32⟩
  | 111 => ⟨S32768x1, .f32⟩
  | 112 => ⟨S_, .f32⟩
  | 113 => ⟨S32768x1, .f32⟩
  | 114 => ⟨S32768x1, .i1⟩
  | 115 => ⟨S32768x1, .f32⟩
  | 116 => ⟨S_, .f32⟩
  | 117 => ⟨S32768x1, .f32⟩
  | 118 => ⟨S32768x1, .f32⟩
  | 119 => ⟨S_, .f32⟩
  | 120 => ⟨S32768x1, .f32⟩
  | 121 => ⟨S32768x1, .f32⟩
  | 122 => ⟨S32768x1, .f32⟩
  | 123 => ⟨S32768x1, .f32⟩
  | 124 => ⟨S_, .f32⟩
  | 125 => ⟨S32768x1, .f32⟩
  | 126 => ⟨S32768x1, .i1⟩
  | 127 => ⟨S32768x1, .f32⟩
  | _ => ⟨S32768x256, .f32⟩

abbrev hbmTy0_52 (i : Nat) : BufTy := match i % 128 with
  | 0 => ⟨S32768x1, .i1⟩
  | 1 => ⟨S32768x1, .f32⟩
  | 2 => ⟨S32768x2, .f32⟩
  | 3 => ⟨S32768x2, .f32⟩
  | 4 => ⟨S32768x2, .i1⟩
  | 5 => ⟨S32768x2, .f32⟩
  | 6 => ⟨S32768x4, .f32⟩
  | 7 => ⟨S32768x4, .f32⟩
  | 8 => ⟨S32768x4, .i1⟩
  | 9 => ⟨S32768x4, .f32⟩
  | 10 => ⟨S32768x8, .f32⟩
  | 11 => ⟨S32768x8, .f32⟩
  | 12 => ⟨S_, .f32⟩
  | 13 => ⟨S32768x8, .f32⟩
  | 14 => ⟨S32768x8, .f32⟩
  | 15 => ⟨S_, .f32⟩
  | 16 => ⟨S32768x8, .f32⟩
  | 17 => ⟨S32768x8, .f32⟩
  | 18 => ⟨S32768x8, .f32⟩
  | 19 => ⟨S32768x8, .f32⟩
  | 20 => ⟨S32768x4, .f32⟩
  | 21 => ⟨S32768x4, .f32⟩
  | 22 => ⟨S_, .f32⟩
  | 23 => ⟨S_, .f32⟩
  | 24 => ⟨S_, .f32⟩
  | 25 => ⟨S32768x4, .f32⟩
  | 26 => ⟨S32768x4, .f32⟩
  | 27 => ⟨S_, .f32⟩
  | 28 => ⟨S32768x4, .f32⟩
  | 29 => ⟨S32768x4, .f32⟩
  | 30 => ⟨S_, .f32⟩
  | 31 => ⟨S_, .f32⟩
  | 32 => ⟨S_, .f32⟩
  | 33 => ⟨S32768x4, .f32⟩
  | 34 => ⟨S32768x4, .f32⟩
  | 35 => ⟨S_, .f32⟩
  | 36 => ⟨S32768x4, .f32⟩
  | 37 => ⟨S32768x4, .f32⟩
  | 38 => ⟨S32768x4, .f32⟩
  | 39 => ⟨S32768x4, .f32⟩
  | 40 => ⟨S32768x4, .f32⟩
  | 41 => ⟨S32768x4, .f32⟩
  | 42 => ⟨S32768x4, .f32⟩
  | 43 => ⟨S32768x4, .f32⟩
  | 44 => ⟨S32768x4, .f32⟩
  | 45 => ⟨S32768x2, .f32⟩
  | 46 => ⟨S32768x2, .f32⟩
  | 47 => ⟨S_, .f32⟩
  | 48 => ⟨S_, .f32⟩
  | 49 => ⟨S_, .f32⟩
  | 50 => ⟨S32768x2, .f32⟩
  | 51 => ⟨S32768x2, .f32⟩
  | 52 => ⟨S_, .f32⟩
  | 53 => ⟨S32768x2, .f32⟩
  | 54 => ⟨S32768x2, .f32⟩
  | 55 => ⟨S_, .f32⟩
  | 56 => ⟨S_, .f32⟩
  | 57 => ⟨S_, .f32⟩
  | 58 => ⟨S32768x2, .f32⟩
  | 59 => ⟨S32768x2, .f32⟩
  | 60 => ⟨S_, .f32⟩
  | 61 => ⟨S32768x2, .f32⟩
  | 62 => ⟨S32768x2, .f32⟩
  | 63 => ⟨S32768x2, .f32⟩
  | 64 => ⟨S32768x2, .f32⟩
  | 65 => ⟨S32768x2, .f32⟩
  | 66 => ⟨S32768x2, .f32⟩
  | 67 => ⟨S32768x2, .f32⟩
  | 68 => ⟨S32768x2, .f32⟩
  | 69 => ⟨S32768x2, .f32⟩
  | 70 => ⟨S32768x1, .f32⟩
  | 71 => ⟨S32768x1, .f32⟩
  | 72 => ⟨S_, .f32⟩
  | 73 => ⟨S_, .f32⟩
  | 74 => ⟨S_, .f32⟩
  | 75 => ⟨S32768x1, .f32⟩
  | 76 => ⟨S32768x1, .f32⟩
  | 77 => ⟨S_, .f32⟩
  | 78 => ⟨S32768x1, .f32⟩
  | 79 => ⟨S32768x1, .f32⟩
  | 80 => ⟨S_, .f32⟩
  | 81 => ⟨S_, .f32⟩
  | 82 => ⟨S_, .f32⟩
  | 83 => ⟨S32768x1, .f32⟩
  | 84 => ⟨S32768x1, .f32⟩
  | 85 => ⟨S_, .f32⟩
  | 86 => ⟨S32768x1, .f32⟩
  | 87 => ⟨S32768x1, .f32⟩
  | 88 => ⟨S32768x1, .f32⟩
  | 89 => ⟨S32768x1, .f32⟩
  | 90 => ⟨S32768x1, .f32⟩
  | 91 => ⟨S32768x1, .f32⟩
  | 92 => ⟨S32768x1, .f32⟩
  | 93 => ⟨S32768x1, .f32⟩
  | 94 => ⟨S32768x1, .f32⟩
  | 95 => ⟨S_, .f32⟩
  | 96 => ⟨S32768x1, .f32⟩
  | 97 => ⟨S32768x1, .i1⟩
  | 98 => ⟨S32768x1, .f32⟩
  | 99 => ⟨S_, .f32⟩
  | 100 => ⟨S32768x1, .f32⟩
  | 101 => ⟨S32768x1, .f32⟩
  | 102 => ⟨S_, .f32⟩
  | 103 => ⟨S32768x1, .f32⟩
  | 104 => ⟨S32768x1, .f32⟩
  | 105 => ⟨S32768x1, .f32⟩
  | 106 => ⟨S32768x1, .f32⟩
  | 107 => ⟨S_, .f32⟩
  | 108 => ⟨S32768x1, .f32⟩
  | 109 => ⟨S32768x1, .i1⟩
  | 110 => ⟨S32768x1, .f32⟩
  | 111 => ⟨S32768x1, .i1⟩
  | 112 => ⟨S32768x1, .f32⟩
  | 113 => ⟨S32768x2, .f32⟩
  | 114 => ⟨S32768x2, .f32⟩
  | 115 => ⟨S_, .f32⟩
  | 116 => ⟨S32768x2, .f32⟩
  | 117 => ⟨S32768x2, .f32⟩
  | 118 => ⟨S_, .f32⟩
  | 119 => ⟨S32768x2, .f32⟩
  | 120 => ⟨S32768x2, .f32⟩
  | 121 => ⟨S32768x2, .f32⟩
  | 122 => ⟨S32768x2, .f32⟩
  | 123 => ⟨S32768x1, .f32⟩
  | 124 => ⟨S32768x1, .f32⟩
  | 125 => ⟨S_, .f32⟩
  | 126 => ⟨S_, .f32⟩
  | 127 => ⟨S_, .f32⟩
  | _ => ⟨S32768x256, .f32⟩

abbrev hbmTy0_53 (i : Nat) : BufTy := match i % 128 with
  | 0 => ⟨S32768x1, .f32⟩
  | 1 => ⟨S32768x1, .f32⟩
  | 2 => ⟨S_, .f32⟩
  | 3 => ⟨S32768x1, .f32⟩
  | 4 => ⟨S32768x1, .f32⟩
  | 5 => ⟨S_, .f32⟩
  | 6 => ⟨S_, .f32⟩
  | 7 => ⟨S_, .f32⟩
  | 8 => ⟨S32768x1, .f32⟩
  | 9 => ⟨S32768x1, .f32⟩
  | 10 => ⟨S_, .f32⟩
  | 11 => ⟨S32768x1, .f32⟩
  | 12 => ⟨S32768x1, .f32⟩
  | 13 => ⟨S32768x1, .f32⟩
  | 14 => ⟨S32768x1, .f32⟩
  | 15 => ⟨S32768x1, .f32⟩
  | 16 => ⟨S32768x1, .f32⟩
  | 17 => ⟨S32768x1, .f32⟩
  | 18 => ⟨S32768x1, .f32⟩
  | 19 => ⟨S32768x1, .f32⟩
  | 20 => ⟨S_, .f32⟩
  | 21 => ⟨S32768x1, .f32⟩
  | 22 => ⟨S32768x1, .i1⟩
  | 23 => ⟨S32768x1, .f32⟩
  | 24 => ⟨S_, .f32⟩
  | 25 => ⟨S32768x1, .f32⟩
  | 26 => ⟨S32768x1, .f32⟩
  | 27 => ⟨S_, .f32⟩
  | 28 => ⟨S32768x1, .f32⟩
  | 29 => ⟨S32768x1, .f32⟩
  | 30 => ⟨S32768x1, .f32⟩
  | 31 => ⟨S32768x1, .f32⟩
  | 32 => ⟨S_, .f32⟩
  | 33 => ⟨S32768x1, .f32⟩
  | 34 => ⟨S32768x1, .i1⟩
  | 35 => ⟨S32768x1, .f32⟩
  | 36 => ⟨S32768x1, .i1⟩
  | 37 => ⟨S32768x1, .f32⟩
  | 38 => ⟨S32768x2, .f32⟩
  | 39 => ⟨S32768x2, .f32⟩
  | 40 => ⟨S32768x2, .i1⟩
  | 41 => ⟨S32768x2, .f32⟩
  | 42 => ⟨S32768x4, .f32⟩
  | 43 => ⟨S32768x4, .f32⟩
  | 44 => ⟨S_, .f32⟩
  | 45 => ⟨S32768x4, .f32⟩
  | 46 => ⟨S32768x4, .f32⟩
  | 47 => ⟨S_, .f32⟩
  | 48 => ⟨S32768x4, .f32⟩
  | 49 => ⟨S32768x4, .f32⟩
  | 50 => ⟨S32768x4, .f32⟩
  | 51 => ⟨S32768x4, .f32⟩
  | 52 => ⟨S32768x2, .f32⟩
  | 53 => ⟨S32768x2, .f32⟩
  | 54 => ⟨S_, .f32⟩
  | 55 => ⟨S_, .f32⟩
  | 56 => ⟨S_, .f32⟩
  | 57 => ⟨S32768x2, .f32⟩
  | 58 => ⟨S32768x2, .f32⟩
  | 59 => ⟨S_, .f32⟩
  | 60 => ⟨S32768x2, .f32⟩
  | 61 => ⟨S32768x2, .f32⟩
  | 62 => ⟨S_, .f32⟩
  | 63 => ⟨S_, .f32⟩
  | 64 => ⟨S_, .f32⟩
  | 65 => ⟨S32768x2, .f32⟩
  | 66 => ⟨S32768x2, .f32⟩
  | 67 => ⟨S_, .f32⟩
  | 68 => ⟨S32768x2, .f32⟩
  | 69 => ⟨S32768x2, .f32⟩
  | 70 => ⟨S32768x2, .f32⟩
  | 71 => ⟨S32768x2, .f32⟩
  | 72 => ⟨S32768x2, .f32⟩
  | 73 => ⟨S32768x2, .f32⟩
  | 74 => ⟨S32768x2, .f32⟩
  | 75 => ⟨S32768x2, .f32⟩
  | 76 => ⟨S32768x2, .f32⟩
  | 77 => ⟨S32768x1, .f32⟩
  | 78 => ⟨S32768x1, .f32⟩
  | 79 => ⟨S_, .f32⟩
  | 80 => ⟨S_, .f32⟩
  | 81 => ⟨S_, .f32⟩
  | 82 => ⟨S32768x1, .f32⟩
  | 83 => ⟨S32768x1, .f32⟩
  | 84 => ⟨S_, .f32⟩
  | 85 => ⟨S32768x1, .f32⟩
  | 86 => ⟨S32768x1, .f32⟩
  | 87 => ⟨S_, .f32⟩
  | 88 => ⟨S_, .f32⟩
  | 89 => ⟨S_, .f32⟩
  | 90 => ⟨S32768x1, .f32⟩
  | 91 => ⟨S32768x1, .f32⟩
  | 92 => ⟨S_, .f32⟩
  | 93 => ⟨S32768x1, .f32⟩
  | 94 => ⟨S32768x1, .f32⟩
  | 95 => ⟨S32768x1, .f32⟩
  | 96 => ⟨S32768x1, .f32⟩
  | 97 => ⟨S32768x1, .f32⟩
  | 98 => ⟨S32768x1, .f32⟩
  | 99 => ⟨S32768x1, .f32⟩
  | 100 => ⟨S32768x1, .f32⟩
  | 101 => ⟨S32768x1, .f32⟩
  | 102 => ⟨S_, .f32⟩
  | 103 => ⟨S32768x1, .f32⟩
  | 104 => ⟨S32768x1, .i1⟩
  | 105 => ⟨S32768x1, .f32⟩
  | 106 => ⟨S_, .f32⟩
  | 107 => ⟨S32768x1, .f32⟩
  | 108 => ⟨S32768x1, .f32⟩
  | 109 => ⟨S_, .f32⟩
  | 110 => ⟨S32768x1, .f32⟩
  | 111 => ⟨S32768x1, .f32⟩
  | 112 => ⟨S32768x1, .f32⟩
  | 113 => ⟨S32768x1, .f32⟩
  | 114 => ⟨S_, .f32⟩
  | 115 => ⟨S32768x1, .f32⟩
  | 116 => ⟨S32768x1, .i1⟩
  | 117 => ⟨S32768x1, .f32⟩
  | 118 => ⟨S32768x1, .i1⟩
  | 119 => ⟨S32768x1, .f32⟩
  | 120 => ⟨S32768x2, .f32⟩
  | 121 => ⟨S32768x2, .f32⟩
  | 122 => ⟨S_, .f32⟩
  | 123 => ⟨S32768x2, .f32⟩
  | 124 => ⟨S32768x2, .f32⟩
  | 125 => ⟨S_, .f32⟩
  | 126 => ⟨S32768x2, .f32⟩
  | 127 => ⟨S32768x2, .f32⟩
  | _ => ⟨S32768x256, .f32⟩

abbrev hbmTy0_54 (i : Nat) : BufTy := match i % 128 with
  | 0 => ⟨S32768x2, .f32⟩
  | 1 => ⟨S32768x2, .f32⟩
  | 2 => ⟨S32768x1, .f32⟩
  | 3 => ⟨S32768x1, .f32⟩
  | 4 => ⟨S_, .f32⟩
  | 5 => ⟨S_, .f32⟩
  | 6 => ⟨S_, .f32⟩
  | 7 => ⟨S32768x1, .f32⟩
  | 8 => ⟨S32768x1, .f32⟩
  | 9 => ⟨S_, .f32⟩
  | 10 => ⟨S32768x1, .f32⟩
  | 11 => ⟨S32768x1, .f32⟩
  | 12 => ⟨S_, .f32⟩
  | 13 => ⟨S_, .f32⟩
  | 14 => ⟨S_, .f32⟩
  | 15 => ⟨S32768x1, .f32⟩
  | 16 => ⟨S32768x1, .f32⟩
  | 17 => ⟨S_, .f32⟩
  | 18 => ⟨S32768x1, .f32⟩
  | 19 => ⟨S32768x1, .f32⟩
  | 20 => ⟨S32768x1, .f32⟩
  | 21 => ⟨S32768x1, .f32⟩
  | 22 => ⟨S32768x1, .f32⟩
  | 23 => ⟨S32768x1, .f32⟩
  | 24 => ⟨S32768x1, .f32⟩
  | 25 => ⟨S32768x1, .f32⟩
  | 26 => ⟨S32768x1, .f32⟩
  | 27 => ⟨S_, .f32⟩
  | 28 => ⟨S32768x1, .f32⟩
  | 29 => ⟨S32768x1, .i1⟩
  | 30 => ⟨S32768x1, .f32⟩
  | 31 => ⟨S_, .f32⟩
  | 32 => ⟨S32768x1, .f32⟩
  | 33 => ⟨S32768x1, .f32⟩
  | 34 => ⟨S_, .f32⟩
  | 35 => ⟨S32768x1, .f32⟩
  | 36 => ⟨S32768x1, .f32⟩
  | 37 => ⟨S32768x1, .f32⟩
  | 38 => ⟨S32768x1, .f32⟩
  | 39 => ⟨S_, .f32⟩
  | 40 => ⟨S32768x1, .f32⟩
  | 41 => ⟨S32768x1, .i1⟩
  | 42 => ⟨S32768x1, .f32⟩
  | 43 => ⟨S32768x1, .i1⟩
  | 44 => ⟨S32768x1, .f32⟩
  | 45 => ⟨S32768x2, .f32⟩
  | 46 => ⟨S32768x2, .f32⟩
  | 47 => ⟨S32768x2, .i1⟩
  | 48 => ⟨S32768x2, .f32⟩
  | 49 => ⟨S32768x4, .f32⟩
  | 50 => ⟨S32768x4, .f32⟩
  | 51 => ⟨S32768x4, .i1⟩
  | 52 => ⟨S32768x4, .f32⟩
  | 53 => ⟨S32768x8, .f32⟩
  | 54 => ⟨S32768x8, .f32⟩
  | 55 => ⟨S32768x8, .i1⟩
  | 56 => ⟨S32768x8, .f32⟩
  | 57 => ⟨S32768x16, .f32⟩
  | 58 => ⟨S32768x16, .f32⟩
  | 59 => ⟨S_, .f32⟩
  | 60 => ⟨S32768x16, .f32⟩
  | 61 => ⟨S32768x16, .f32⟩
  | 62 => ⟨S_, .f32⟩
  | 63 => ⟨S32768x16, .f32⟩
  | 64 => ⟨S32768x16, .f32⟩
  | 65 => ⟨S32768x16, .f32⟩
  | 66 => ⟨S32768x16, .f32⟩
  | 67 => ⟨S32768x8, .f32⟩
  | 68 => ⟨S32768x8, .f32⟩
  | 69 => ⟨S_, .f32⟩
  | 70 => ⟨S_, .f32⟩
  | 71 => ⟨S_, .f32⟩
  | 72 => ⟨S32768x8, .f32⟩
  | 73 => ⟨S32768x8, .f32⟩
  | 74 => ⟨S_, .f32⟩
  | 75 => ⟨S32768x8, .f32⟩
  | 76 => ⟨S32768x8, .f32⟩
  | 77 => ⟨S_, .f32⟩
  | 78 => ⟨S_, .f32⟩
  | 79 => ⟨S_, .f32⟩
  | 80 => ⟨S32768x8, .f32⟩
  | 81 => ⟨S32768x8, .f32⟩
  | 82 => ⟨S_, .f32⟩
  | 83 => ⟨S32768x8, .f32⟩
  | 84 => ⟨S32768x8, .f32⟩
  | 85 => ⟨S32768x8, .f32⟩
  | 86 => ⟨S32768x8, .f32⟩
  | 87 => ⟨S32768x8, .f32⟩
  | 88 => ⟨S32768x8, .f32⟩
  | 89 => ⟨S32768x8, .f32⟩
  | 90 => ⟨S32768x8, .f32⟩
  | 91 => ⟨S32768x8, .f32⟩
  | 92 => ⟨S32768x4, .f32⟩
  | 93 => ⟨S32768x4, .f32⟩
  | 94 => ⟨S_, .f32⟩
  | 95 => ⟨S_, .f32⟩
  | 96 => ⟨S_, .f32⟩
  | 97 => ⟨S32768x4, .f32⟩
  | 98 => ⟨S32768x4, .f32⟩
  | 99 => ⟨S_, .f32⟩
  | 100 => ⟨S32768x4, .f32⟩
  | 101 => ⟨S32768x4, .f32⟩
  | 102 => ⟨S_, .f32⟩
  | 103 => ⟨S_, .f32⟩
  | 104 => ⟨S_, .f32⟩
  | 105 => ⟨S32768x4, .f32⟩
  | 106 => ⟨S32768x4, .f32⟩
  | 107 => ⟨S_, .f32⟩
  | 108 => ⟨S32768x4, .f32⟩
  | 109 => ⟨S32768x4, .f32⟩
  | 110 => ⟨S32768x4, .f32⟩
  | 111 => ⟨S32768x4, .f32⟩
  | 112 => ⟨S32768x4, .f32⟩
  | 113 => ⟨S32768x4, .f32⟩
  | 114 => ⟨S32768x4, .f32⟩
  | 115 => ⟨S32768x4, .f32⟩
  | 116 => ⟨S32768x4, .f32⟩
  | 117 => ⟨S32768x2, .f32⟩
  | 118 => ⟨S32768x2, .f32⟩
  | 119 => ⟨S_, .f32⟩
  | 120 => ⟨S_, .f32⟩
  | 121 => ⟨S_, .f32⟩
  | 122 => ⟨S32768x2, .f32⟩
  | 123 => ⟨S32768x2, .f32⟩
  | 124 => ⟨S_, .f32⟩
  | 125 => ⟨S32768x2, .f32⟩
  | 126 => ⟨S32768x2, .f32⟩
  | 127 => ⟨S_, .f32⟩
  | _ => ⟨S32768x256, .f32⟩

abbrev hbmTy0_55 (i : Nat) : BufTy := match i % 128 with
  | 0 => ⟨S_, .f32⟩
  | 1 => ⟨S_, .f32⟩
  | 2 => ⟨S32768x2, .f32⟩
  | 3 => ⟨S32768x2, .f32⟩
  | 4 => ⟨S_, .f32⟩
  | 5 => ⟨S32768x2, .f32⟩
  | 6 => ⟨S32768x2, .f32⟩
  | 7 => ⟨S32768x2, .f32⟩
  | 8 => ⟨S32768x2, .f32⟩
  | 9 => ⟨S32768x2, .f32⟩
  | 10 => ⟨S32768x2, .f32⟩
  | 11 => ⟨S32768x2, .f32⟩
  | 12 => ⟨S32768x2, .f32⟩
  | 13 => ⟨S32768x2, .f32⟩
  | 14 => ⟨S32768x1, .f32⟩
  | 15 => ⟨S32768x1, .f32⟩
  | 16 => ⟨S_, .f32⟩
  | 17 => ⟨S_, .f32⟩
  | 18 => ⟨S_, .f32⟩
  | 19 => ⟨S32768x1, .f32⟩
  | 20 => ⟨S32768x1, .f32⟩
  | 21 => ⟨S_, .f32⟩
  | 22 => ⟨S32768x1, .f32⟩
  | 23 => ⟨S32768x1, .f32⟩
  | 24 => ⟨S_, .f32⟩
  | 25 => ⟨S_, .f32⟩
  | 26 => ⟨S_, .f32⟩
  | 27 => ⟨S32768x1, .f32⟩
  | 28 => ⟨S32768x1, .f32⟩
  | 29 => ⟨S_, .f32⟩
  | 30 => ⟨S32768x1, .f32⟩
  | 31 => ⟨S32768x1, .f32⟩
  | 32 => ⟨S32768x1, .f32⟩
  | 33 => ⟨S32768x1, .f32⟩
  | 34 => ⟨S32768x1, .f32⟩
  | 35 => ⟨S32768x1, .f32⟩
  | 36 => ⟨S32768x1, .f32⟩
  | 37 => ⟨S32768x1, .f32⟩
  | 38 => ⟨S32768x1, .f32⟩
  | 39 => ⟨S_, .f32⟩
  | 40 => ⟨S32768x1, .f32⟩
  | 41 => ⟨S32768x1, .i1⟩
  | 42 => ⟨S32768x1, .f32⟩
  | 43 => ⟨S_, .f32⟩
  | 44 => ⟨S32768x1, .f32⟩
  | 45 => ⟨S32768x1, .f32⟩
  | 46 => ⟨S_, .f32⟩
  | 47 => ⟨S32768x1, .f32⟩
  | 48 => ⟨S32768x1, .f32⟩
  | 49 => ⟨S32768x1, .f32⟩
  | 50 => ⟨S32768x1, .f32⟩
  | 51 => ⟨S_, .f32⟩
  | 52 => ⟨S32768x1, .f32⟩
  | 53 => ⟨S32768x1, .i1⟩
  | 54 => ⟨S32768x1, .f32⟩
  | 55 => ⟨S32768x1, .i1⟩
  | 56 => ⟨S32768x1, .f32⟩
  | 57 => ⟨S32768x2, .f32⟩
  | 58 => ⟨S32768x2, .f32⟩
  | 59 => ⟨S_, .f32⟩
  | 60 => ⟨S32768x2, .f32⟩
  | 61 => ⟨S32768x2, .f32⟩
  | 62 => ⟨S_, .f32⟩
  | 63 => ⟨S32768x2, .f32⟩
  | 64 => ⟨S32768x2, .f32⟩
  | 65 => ⟨S32768x2, .f32⟩
  | 66 => ⟨S32768x2, .f32⟩
  | 67 => ⟨S32768x1, .f32⟩
  | 68 => ⟨S32768x1, .f32⟩
  | 69 => ⟨S_, .f32⟩
  | 70 => ⟨S_, .f32⟩
  | 71 => ⟨S_, .f32⟩
  | 72 => ⟨S32768x1, .f32⟩
  | 73 => ⟨S32768x1, .f32⟩
  | 74 => ⟨S_, .f32⟩
  | 75 => ⟨S32768x1, .f32⟩
  | 76 => ⟨S32768x1, .f32⟩
  | 77 => ⟨S_, .f32⟩
  | 78 => ⟨S_, .f32⟩
  | 79 => ⟨S_, .f32⟩
  | 80 => ⟨S32768x1, .f32⟩
  | 81 => ⟨S32768x1, .f32⟩
  | 82 => ⟨S_, .f32⟩
  | 83 => ⟨S32768x1, .f32⟩
  | 84 => ⟨S32768x1, .f32⟩
  | 85 => ⟨S32768x1, .f32⟩
  | 86 => ⟨S32768x1, .f32⟩
  | 87 => ⟨S32768x1, .f32⟩
  | 88 => ⟨S32768x1, .f32⟩
  | 89 => ⟨S32768x1, .f32⟩
  | 90 => ⟨S32768x1, .f32⟩
  | 91 => ⟨S32768x1, .f32⟩
  | 92 => ⟨S_, .f32⟩
  | 93 => ⟨S32768x1, .f32⟩
  | 94 => ⟨S32768x1, .i1⟩
  | 95 => ⟨S32768x1, .f32⟩
  | 96 => ⟨S_, .f32⟩
  | 97 => ⟨S32768x1, .f32⟩
  | 98 => ⟨S32768x1, .f32⟩
  | 99 => ⟨S_, .f32⟩
  | 100 => ⟨S32768x1, .f32⟩
  | 101 => ⟨S32768x1, .f32⟩
  | 102 => ⟨S32768x1, .f32⟩
  | 103 => ⟨S32768x1, .f32⟩
  | 104 => ⟨S_, .f32⟩
  | 105 => ⟨S32768x1, .f32⟩
  | 106 => ⟨S32768x1, .i1⟩
  | 107 => ⟨S32768x1, .f32⟩
  | 108 => ⟨S32768x1, .i1⟩
  | 109 => ⟨S32768x1, .f32⟩
  | 110 => ⟨S32768x2, .f32⟩
  | 111 => ⟨S32768x2, .f32⟩
  | 112 => ⟨S32768x2, .i1⟩
  | 113 => ⟨S32768x2, .f32⟩
  | 114 => ⟨S32768x4, .f32⟩
  | 115 => ⟨S32768x4, .f32⟩
  | 116 => ⟨S_, .f32⟩
  | 117 => ⟨S32768x4, .f32⟩
  | 118 => ⟨S32768x4, .f32⟩
  | 119 => ⟨S_, .f32⟩
  | 120 => ⟨S32768x4, .f32⟩
  | 121 => ⟨S32768x4, .f32⟩
  | 122 => ⟨S32768x4, .f32⟩
  | 123 => ⟨S32768x4, .f32⟩
  | 124 => ⟨S32768x2, .f32⟩
  | 125 => ⟨S32768x2, .f32⟩
  | 126 => ⟨S_, .f32⟩
  | 127 => ⟨S_, .f32⟩
  | _ => ⟨S32768x256, .f32⟩

abbrev hbmTy0_56 (i : Nat) : BufTy := match i % 128 with
  | 0 => ⟨S_, .f32⟩
  | 1 => ⟨S32768x2, .f32⟩
  | 2 => ⟨S32768x2, .f32⟩
  | 3 => ⟨S_, .f32⟩
  | 4 => ⟨S32768x2, .f32⟩
  | 5 => ⟨S32768x2, .f32⟩
  | 6 => ⟨S_, .f32⟩
  | 7 => ⟨S_, .f32⟩
  | 8 => ⟨S_, .f32⟩
  | 9 => ⟨S32768x2, .f32⟩
  | 10 => ⟨S32768x2, .f32⟩
  | 11 => ⟨S_, .f32⟩
  | 12 => ⟨S32768x2, .f32⟩
  | 13 => ⟨S32768x2, .f32⟩
  | 14 => ⟨S32768x2, .f32⟩
  | 15 => ⟨S32768x2, .f32⟩
  | 16 => ⟨S32768x2, .f32⟩
  | 17 => ⟨S32768x2, .f32⟩
  | 18 => ⟨S32768x2, .f32⟩
  | 19 => ⟨S32768x2, .f32⟩
  | 20 => ⟨S32768x2, .f32⟩
  | 21 => ⟨S32768x1, .f32⟩
  | 22 => ⟨S32768x1, .f32⟩
  | 23 => ⟨S_, .f32⟩
  | 24 => ⟨S_, .f32⟩
  | 25 => ⟨S_, .f32⟩
  | 26 => ⟨S32768x1, .f32⟩
  | 27 => ⟨S32768x1, .f32⟩
  | 28 => ⟨S_, .f32⟩
  | 29 => ⟨S32768x1, .f32⟩
  | 30 => ⟨S32768x1, .f32⟩
  | 31 => ⟨S_, .f32⟩
  | 32 => ⟨S_, .f32⟩
  | 33 => ⟨S_, .f32⟩
  | 34 => ⟨S32768x1, .f32⟩
  | 35 => ⟨S32768x1, .f32⟩
  | 36 => ⟨S_, .f32⟩
  | 37 => ⟨S32768x1, .f32⟩
  | 38 => ⟨S32768x1, .f32⟩
  | 39 => ⟨S32768x1, .f32⟩
  | 40 => ⟨S32768x1, .f32⟩
  | 41 => ⟨S32768x1, .f32⟩
  | 42 => ⟨S32768x1, .f32⟩
  | 43 => ⟨S32768x1, .f32⟩
  | 44 => ⟨S32768x1, .f32⟩
  | 45 => ⟨S32768x1, .f32⟩
  | 46 => ⟨S_, .f32⟩
  | 47 => ⟨S32768x1, .f32⟩
  | 48 => ⟨S32768x1, .i1⟩
  | 49 => ⟨S32768x1, .f32⟩
  | 50 => ⟨S_, .f32⟩
  | 51 => ⟨S32768x1, .f32⟩
  | 52 => ⟨S32768x1, .f32⟩
  | 53 => ⟨S_, .f32⟩
  | 54 => ⟨S32768x1, .f32⟩
  | 55 => ⟨S32768x1, .f32⟩
  | 56 => ⟨S32768x1, .f32⟩
  | 57 => ⟨S32768x1, .f32⟩
  | 58 => ⟨S_, .f32⟩
  | 59 => ⟨S32768x1, .f32⟩
  | 60 => ⟨S32768x1, .i1⟩
  | 61 => ⟨S32768x1, .f32⟩
  | 62 => ⟨S32768x1, .i1⟩
  | 63 => ⟨S32768x1, .f32⟩
  | 64 => ⟨S32768x2, .f32⟩
  | 65 => ⟨S32768x2, .f32⟩
  | 66 => ⟨S_, .f32⟩
  | 67 => ⟨S32768x2, .f32⟩
  | 68 => ⟨S32768x2, .f32⟩
  | 69 => ⟨S_, .f32⟩
  | 70 => ⟨S32768x2, .f32⟩
  | 71 => ⟨S32768x2, .f32⟩
  | 72 => ⟨S32768x2, .f32⟩
  | 73 => ⟨S32768x2, .f32⟩
  | 74 => ⟨S32768x1, .f32⟩
  | 75 => ⟨S32768x1, .f32⟩
  | 76 => ⟨S_, .f32⟩
  | 77 => ⟨S_, .f32⟩
  | 78 => ⟨S_, .f32⟩
  | 79 => ⟨S32768x1, .f32⟩
  | 80 => ⟨S32768x1, .f32⟩
  | 81 => ⟨S_, .f32⟩
  | 82 => ⟨S32768x1, .f32⟩
  | 83 => ⟨S32768x1, .f32⟩
  | 84 => ⟨S_, .f32⟩
  | 85 => ⟨S_, .f32⟩
  | 86 => ⟨S_, .f32⟩
  | 87 => ⟨S32768x1, .f32⟩
  | 88 => ⟨S32768x1, .f32⟩
  | 89 => ⟨S_, .f32⟩
  | 90 => ⟨S32768x1, .f32⟩
  | 91 => ⟨S32768x1, .f32⟩
  | 92 => ⟨S32768x1, .f32⟩
  | 93 => ⟨S32768x1, .f32⟩
  | 94 => ⟨S32768x1, .f32⟩
  | 95 => ⟨S32768x1, .f32⟩
  | 96 => ⟨S32768x1, .f32⟩
  | 97 => ⟨S32768x1, .f32⟩
  | 98 => ⟨S32768x1, .f32⟩
  | 99 => ⟨S_, .f32⟩
  | 100 => ⟨S32768x1, .f32⟩
  | 101 => ⟨S32768x1, .i1⟩
  | 102 => ⟨S32768x1, .f32⟩
  | 103 => ⟨S_, .f32⟩
  | 104 => ⟨S32768x1, .f32⟩
  | 105 => ⟨S32768x1, .f32⟩
  | 106 => ⟨S_, .f32⟩
  | 107 => ⟨S32768x1, .f32⟩
  | 108 => ⟨S32768x1, .f32⟩
  | 109 => ⟨S32768x1, .f32⟩
  | 110 => ⟨S32768x1, .f32⟩
  | 111 => ⟨S_, .f32⟩
  | 112 => ⟨S32768x1, .f32⟩
  | 113 => ⟨S32768x1, .i1⟩
  | 114 => ⟨S32768x1, .f32⟩
  | 115 => ⟨S32768x1, .i1⟩
  | 116 => ⟨S32768x1, .f32⟩
  | 117 => ⟨S32768x2, .f32⟩
  | 118 => ⟨S32768x2, .f32⟩
  | 119 => ⟨S32768x2, .i1⟩
  | 120 => ⟨S32768x2, .f32⟩
  | 121 => ⟨S32768x4, .f32⟩
  | 122 => ⟨S32768x4, .f32⟩
  | 123 => ⟨S32768x4, .i1⟩
  | 124 => ⟨S32768x4, .f32⟩
  | 125 => ⟨S32768x8, .f32⟩
  | 126 => ⟨S32768x8, .f32⟩
  | 127 => ⟨S_, .f32⟩
  | _ => ⟨S32768x256, .f32⟩

abbrev hbmTy0_57 (i : Nat) : BufTy := match i % 128 with
  | 0 => ⟨S32768x8, .f32⟩
  | 1 => ⟨S32768x8, .f32⟩
  | 2 => ⟨S_, .f32⟩
  | 3 => ⟨S32768x8, .f32⟩
  | 4 => ⟨S32768x8, .f32⟩
  | 5 => ⟨S32768x8, .f32⟩
  | 6 => ⟨S32768x8, .f32⟩
  | 7 => ⟨S32768x4, .f32⟩
  | 8 => ⟨S32768x4, .f32⟩
  | 9 => ⟨S_, .f32⟩
  | 10 => ⟨S_, .f32⟩
  | 11 => ⟨S_, .f32⟩
  | 12 => ⟨S32768x4, .f32⟩
  | 13 => ⟨S32768x4, .f32⟩
  | 14 => ⟨S_, .f32⟩
  | 15 => ⟨S32768x4, .f32⟩
  | 16 => ⟨S32768x4, .f32⟩
  | 17 => ⟨S_, .f32⟩
  | 18 => ⟨S_, .f32⟩
  | 19 => ⟨S_, .f32⟩
  | 20 => ⟨S32768x4, .f32⟩
  | 21 => ⟨S32768x4, .f32⟩
  | 22 => ⟨S_, .f32⟩
  | 23 => ⟨S32768x4, .f32⟩
  | 24 => ⟨S32768x4, .f32⟩
  | 25 => ⟨S32768x4, .f32⟩
  | 26 => ⟨S32768x4, .f32⟩
  | 27 => ⟨S32768x4, .f32⟩
  | 28 => ⟨S32768x4, .f32⟩
  | 29 => ⟨S32768x4, .f32⟩
  | 30 => ⟨S32768x4, .f32⟩
  | 31 => ⟨S32768x4, .f32⟩
  | 32 => ⟨S32768x2, .f32⟩
  | 33 => ⟨S32768x2, .f32⟩
  | 34 => ⟨S_, .f32⟩
  | 35 => ⟨S_, .f32⟩
  | 36 => ⟨S_, .f32⟩
  | 37 => ⟨S32768x2, .f32⟩
  | 38 => ⟨S32768x2, .f32⟩
  | 39 => ⟨S_, .f32⟩
  | 40 => ⟨S32768x2, .f32⟩
  | 41 => ⟨S32768x2, .f32⟩
  | 42 => ⟨S_, .f32⟩
  | 43 => ⟨S_, .f32⟩
  | 44 => ⟨S_, .f32⟩
  | 45 => ⟨S32768x2, .f32⟩
  | 46 => ⟨S32768x2, .f32⟩
  | 47 => ⟨S_, .f32⟩
  | 48 => ⟨S32768x2, .f32⟩
  | 49 => ⟨S32768x2, .f32⟩
  | 50 => ⟨S32768x2, .f32⟩
  | 51 => ⟨S32768x2, .f32⟩
  | 52 => ⟨S32768x2, .f32⟩
  | 53 => ⟨S32768x2, .f32⟩
  | 54 => ⟨S32768x2, .f32⟩
  | 55 => ⟨S32768x2, .f32⟩
  | 56 => ⟨S32768x2, .f32⟩
  | 57 => ⟨S32768x1, .f32⟩
  | 58 => ⟨S32768x1, .f32⟩
  | 59 => ⟨S_, .f32⟩
  | 60 => ⟨S_, .f32⟩
  | 61 => ⟨S_, .f32⟩
  | 62 => ⟨S32768x1, .f32⟩
  | 63 => ⟨S32768x1, .f32⟩
  | 64 => ⟨S_, .f32⟩
  | 65 => ⟨S32768x1, .f32⟩
  | 66 => ⟨S32768x1, .f32⟩
  | 67 => ⟨S_, .f32⟩
  | 68 => ⟨S_, .f32⟩
  | 69 => ⟨S_, .f32⟩
  | 70 => ⟨S32768x1, .f32⟩
  | 71 => ⟨S32768x1, .f32⟩
  | 72 => ⟨S_, .f32⟩
  | 73 => ⟨S32768x1, .f32⟩
  | 74 => ⟨S32768x1, .f32⟩
  | 75 => ⟨S32768x1, .f32⟩
  | 76 => ⟨S32768x1, .f32⟩
  | 77 => ⟨S32768x1, .f32⟩
  | 78 => ⟨S32768x1, .f32⟩
  | 79 => ⟨S32768x1, .f32⟩
  | 80 => ⟨S32768x1, .f32⟩
  | 81 => ⟨S32768x1, .f32⟩
  | 82 => ⟨S_, .f32⟩
  | 83 => ⟨S32768x1, .f32⟩
  | 84 => ⟨S32768x1, .i1⟩
  | 85 => ⟨S32768x1, .f32⟩
  | 86 => ⟨S_, .f32⟩
  | 87 => ⟨S32768x1, .f32⟩
  | 88 => ⟨S32768x1, .f32⟩
  | 89 => ⟨S_, .f32⟩
  | 90 => ⟨S32768x1, .f32⟩
  | 91 => ⟨S32768x1, .f32⟩
  | 92 => ⟨S32768x1, .f32⟩
  | 93 => ⟨S32768x1, .f32⟩
  | 94 => ⟨S_, .f32⟩
  | 95 => ⟨S32768x1, .f32⟩
  | 96 => ⟨S32768x1, .i1⟩
  | 97 => ⟨S32768x1, .f32⟩
  | 98 => ⟨S32768x1, .i1⟩
  | 99 => ⟨S32768x1, .f32⟩
  | 100 => ⟨S32768x2, .f32⟩
  | 101 => ⟨S32768x2, .f32⟩
  | 102 => ⟨S_, .f32⟩
  | 103 => ⟨S32768x2, .f32⟩
  | 104 => ⟨S32768x2, .f32⟩
  | 105 => ⟨S_, .f32⟩
  | 106 => ⟨S32768x2, .f32⟩
  | 107 => ⟨S32768x2, .f32⟩
  | 108 => ⟨S32768x2, .f32⟩
  | 109 => ⟨S32768x2, .f32⟩
  | 110 => ⟨S32768x1, .f32⟩
  | 111 => ⟨S32768x1, .f32⟩
  | 112 => ⟨S_, .f32⟩
  | 113 => ⟨S_, .f32⟩
  | 114 => ⟨S_, .f32⟩
  | 115 => ⟨S32768x1, .f32⟩
  | 116 => ⟨S32768x1, .f32⟩
  | 117 => ⟨S_, .f32⟩
  | 118 => ⟨S32768x1, .f32⟩
  | 119 => ⟨S32768x1, .f32⟩
  | 120 => ⟨S_, .f32⟩
  | 121 => ⟨S_, .f32⟩
  | 122 => ⟨S_, .f32⟩
  | 123 => ⟨S32768x1, .f32⟩
  | 124 => ⟨S32768x1, .f32⟩
  | 125 => ⟨S_, .f32⟩
  | 126 => ⟨S32768x1, .f32⟩
  | 127 => ⟨S32768x1, .f32⟩
  | _ => ⟨S32768x256, .f32⟩

abbrev hbmTy0_58 (i : Nat) : BufTy := match i % 128 with
  | 0 => ⟨S32768x1, .f32⟩
  | 1 => ⟨S32768x1, .f32⟩
  | 2 => ⟨S32768x1, .f32⟩
  | 3 => ⟨S32768x1, .f32⟩
  | 4 => ⟨S32768x1, .f32⟩
  | 5 => ⟨S32768x1, .f32⟩
  | 6 => ⟨S32768x1, .f32⟩
  | 7 => ⟨S_, .f32⟩
  | 8 => ⟨S32768x1, .f32⟩
  | 9 => ⟨S32768x1, .i1⟩
  | 10 => ⟨S32768x1, .f32⟩
  | 11 => ⟨S_, .f32⟩
  | 12 => ⟨S32768x1, .f32⟩
  | 13 => ⟨S32768x1, .f32⟩
  | 14 => ⟨S_, .f32⟩
  | 15 => ⟨S32768x1, .f32⟩
  | 16 => ⟨S32768x1, .f32⟩
  | 17 => ⟨S32768x1, .f32⟩
  | 18 => ⟨S32768x1, .f32⟩
  | 19 => ⟨S_, .f32⟩
  | 20 => ⟨S32768x1, .f32⟩
  | 21 => ⟨S32768x1, .i1⟩
  | 22 => ⟨S32768x1, .f32⟩
  | 23 => ⟨S32768x1, .i1⟩
  | 24 => ⟨S32768x1, .f32⟩
  | 25 => ⟨S32768x2, .f32⟩
  | 26 => ⟨S32768x2, .f32⟩
  | 27 => ⟨S32768x2, .i1⟩
  | 28 => ⟨S32768x2, .f32⟩
  | 29 => ⟨S32768x4, .f32⟩
  | 30 => ⟨S32768x4, .f32⟩
  | 31 => ⟨S_, .f32⟩
  | 32 => ⟨S32768x4, .f32⟩
  | 33 => ⟨S32768x4, .f32⟩
  | 34 => ⟨S_, .f32⟩
  | 35 => ⟨S32768x4, .f32⟩
  | 36 => ⟨S32768x4, .f32⟩
  | 37 => ⟨S32768x4, .f32⟩
  | 38 => ⟨S32768x4, .f32⟩
  | 39 => ⟨S32768x2, .f32⟩
  | 40 => ⟨S32768x2, .f32⟩
  | 41 => ⟨S_, .f32⟩
  | 42 => ⟨S_, .f32⟩
  | 43 => ⟨S_, .f32⟩
  | 44 => ⟨S32768x2, .f32⟩
  | 45 => ⟨S32768x2, .f32⟩
  | 46 => ⟨S_, .f32⟩
  | 47 => ⟨S32768x2, .f32⟩
  | 48 => ⟨S32768x2, .f32⟩
  | 49 => ⟨S_, .f32⟩
  | 50 => ⟨S_, .f32⟩
  | 51 => ⟨S_, .f32⟩
  | 52 => ⟨S32768x2, .f32⟩
  | 53 => ⟨S32768x2, .f32⟩
  | 54 => ⟨S_, .f32⟩
  | 55 => ⟨S32768x2, .f32⟩
  | 56 => ⟨S32768x2, .f32⟩
  | 57 => ⟨S32768x2, .f32⟩
  | 58 => ⟨S32768x2, .f32⟩
  | 59 => ⟨S32768x2, .f32⟩
  | 60 => ⟨S32768x2, .f32⟩
  | 61 => ⟨S32768x2, .f32⟩
  | 62 => ⟨S32768x2, .f32⟩
  | 63 => ⟨S32768x2, .f32⟩
  | 64 => ⟨S32768x1, .f32⟩
  | 65 => ⟨S32768x1, .f32⟩
  | 66 => ⟨S_, .f32⟩
  | 67 => ⟨S_, .f32⟩
  | 68 => ⟨S_, .f32⟩
  | 69 => ⟨S32768x1, .f32⟩
  | 70 => ⟨S32768x1, .f32⟩
  | 71 => ⟨S_, .f32⟩
  | 72 => ⟨S32768x1, .f32⟩
  | 73 => ⟨S32768x1, .f32⟩
  | 74 => ⟨S_, .f32⟩
  | 75 => ⟨S_, .f32⟩
  | 76 => ⟨S_, .f32⟩
  | 77 => ⟨S32768x1, .f32⟩
  | 78 => ⟨S32768x1, .f32⟩
  | 79 => ⟨S_, .f32⟩
  | 80 => ⟨S32768x1, .f32⟩
  | 81 => ⟨S32768x1, .f32⟩
  | 82 => ⟨S32768x1, .f32⟩
  | 83 => ⟨S32768x1, .f32⟩
  | 84 => ⟨S32768x1, .f32⟩
  | 85 => ⟨S32768x1, .f32⟩
  | 86 => ⟨S32768x1, .f32⟩
  | 87 => ⟨S32768x1, .f32⟩
  | 88 => ⟨S32768x1, .f32⟩
  | 89 => ⟨S_, .f32⟩
  | 90 => ⟨S32768x1, .f32⟩
  | 91 => ⟨S32768x1, .i1⟩
  | 92 => ⟨S32768x1, .f32⟩
  | 93 => ⟨S_, .f32⟩
  | 94 => ⟨S32768x1, .f32⟩
  | 95 => ⟨S32768x1, .f32⟩
  | 96 => ⟨S_, .f32⟩
  | 97 => ⟨S32768x1, .f32⟩
  | 98 => ⟨S32768x1, .f32⟩
  | 99 => ⟨S32768x1, .f32⟩
  | 100 => ⟨S32768x1, .f32⟩
  | 101 => ⟨S_, .f32⟩
  | 102 => ⟨S32768x1, .f32⟩
  | 103 => ⟨S32768x1, .i1⟩
  | 104 => ⟨S32768x1, .f32⟩
  | 105 => ⟨S32768x1, .i1⟩
  | 106 => ⟨S32768x1, .f32⟩
  | 107 => ⟨S32768x2, .f32⟩
  | 108 => ⟨S32768x2, .f32⟩
  | 109 => ⟨S_, .f32⟩
  | 110 => ⟨S32768x2, .f32⟩
  | 111 => ⟨S32768x2, .f32⟩
  | 112 => ⟨S_, .f32⟩
  | 113 => ⟨S32768x2, .f32⟩
  | 114 => ⟨S32768x2, .f32⟩
  | 115 => ⟨S32768x2, .f32⟩
  | 116 => ⟨S32768x2, .f32⟩
  | 117 => ⟨S32768x1, .f32⟩
  | 118 => ⟨S32768x1, .f32⟩
  | 119 => ⟨S_, .f32⟩
  | 120 => ⟨S_, .f32⟩
  | 121 => ⟨S_, .f32⟩
  | 122 => ⟨S32768x1, .f32⟩
  | 123 => ⟨S32768x1, .f32⟩
  | 124 => ⟨S_, .f32⟩
  | 125 => ⟨S32768x1, .f32⟩
  | 126 => ⟨S32768x1, .f32⟩
  | 127 => ⟨S_, .f32⟩
  | _ => ⟨S32768x256, .f32⟩

abbrev hbmTy0_59 (i : Nat) : BufTy := match i % 128 with
  | 0 => ⟨S_, .f32⟩
  | 1 => ⟨S_, .f32⟩
  | 2 => ⟨S32768x1, .f32⟩
  | 3 => ⟨S32768x1, .f32⟩
  | 4 => ⟨S_, .f32⟩
  | 5 => ⟨S32768x1, .f32⟩
  | 6 => ⟨S32768x1, .f32⟩
  | 7 => ⟨S32768x1, .f32⟩
  | 8 => ⟨S32768x1, .f32⟩
  | 9 => ⟨S32768x1, .f32⟩
  | 10 => ⟨S32768x1, .f32⟩
  | 11 => ⟨S32768x1, .f32⟩
  | 12 => ⟨S32768x1, .f32⟩
  | 13 => ⟨S32768x1, .f32⟩
  | 14 => ⟨S_, .f32⟩
  | 15 => ⟨S32768x1, .f32⟩
  | 16 => ⟨S32768x1, .i1⟩
  | 17 => ⟨S32768x1, .f32⟩
  | 18 => ⟨S_, .f32⟩
  | 19 => ⟨S32768x1, .f32⟩
  | 20 => ⟨S32768x1, .f32⟩
  | 21 => ⟨S_, .f32⟩
  | 22 => ⟨S32768x1, .f32⟩
  | 23 => ⟨S32768x1, .f32⟩
  | 24 => ⟨S32768x1, .f32⟩
  | 25 => ⟨S32768x1, .f32⟩
  | 26 => ⟨S_, .f32⟩
  | 27 => ⟨S32768x1, .f32⟩
  | 28 => ⟨S32768x1, .i1⟩
  | 29 => ⟨S32768x1, .f32⟩
  | 30 => ⟨S32768x1, .i1⟩
  | 31 => ⟨S32768x1, .f32⟩
  | 32 => ⟨S32768x2, .f32⟩
  | 33 => ⟨S32768x2, .f32⟩
  | 34 => ⟨S32768x2, .i1⟩
  | 35 => ⟨S32768x2, .f32⟩
  | 36 => ⟨S32768x4, .f32⟩
  | 37 => ⟨S32768x4, .f32⟩
  | 38 => ⟨S32768x4, .i1⟩
  | 39 => ⟨S32768x4, .f32⟩
  | 40 => ⟨S32768x8, .f32⟩
  | 41 => ⟨S32768x8, .f32⟩
  | 42 => ⟨S32768x8, .i1⟩
  | 43 => ⟨S32768x8, .f32⟩
  | 44 => ⟨S32768x16, .f32⟩
  | 45 => ⟨S32768x16, .f32⟩
  | 46 => ⟨S32768x16, .i1⟩
  | 47 => ⟨S32768x16, .f32⟩
  | 48 => ⟨S32768x32, .f32⟩
  | 49 => ⟨S32768x32, .f32⟩
  | 50 => ⟨S32768x32, .i1⟩
  | 51 => ⟨S32768x32, .f32⟩
  | 52 => ⟨S32768x64, .f32⟩
  | 53 => ⟨S32768x64, .f32⟩
  | 54 => ⟨S_, .f32⟩
  | 55 => ⟨S32768x64, .f32⟩
  | 56 => ⟨S32768x64, .f32⟩
  | 57 => ⟨S_, .f32⟩
  | 58 => ⟨S32768x64, .f32⟩
  | 59 => ⟨S32768x64, .f32⟩
  | 60 => ⟨S32768x64, .f32⟩
  | 61 => ⟨S32768x64, .f32⟩
  | 62 => ⟨S32768x32, .f32⟩
  | 63 => ⟨S32768x32, .f32⟩
  | 64 => ⟨S_, .f32⟩
  | 65 => ⟨S_, .f32⟩
  | 66 => ⟨S_, .f32⟩
  | 67 => ⟨S32768x32, .f32⟩
  | 68 => ⟨S32768x32, .f32⟩
  | 69 => ⟨S_, .f32⟩
  | 70 => ⟨S32768x32, .f32⟩
  | 71 => ⟨S32768x32, .f32⟩
  | 72 => ⟨S_, .f32⟩
  | 73 => ⟨S_, .f32⟩
  | 74 => ⟨S_, .f32⟩
  | 75 => ⟨S32768x32, .f32⟩
  | 76 => ⟨S32768x32, .f32⟩
  | 77 => ⟨S_, .f32⟩
  | 78 => ⟨S32768x32, .f32⟩
  | 79 => ⟨S32768x32, .f32⟩
  | 80 => ⟨S32768x32, .f32⟩
  | 81 => ⟨S32768x32, .f32⟩
  | 82 => ⟨S32768x32, .f32⟩
  | 83 => ⟨S32768x32, .f32⟩
  | 84 => ⟨S32768x32, .f32⟩
  | 85 => ⟨S32768x32, .f32⟩
  | 86 => ⟨S32768x32, .f32⟩
  | 87 => ⟨S32768x16, .f32⟩
  | 88 => ⟨S32768x16, .f32⟩
  | 89 => ⟨S_, .f32⟩
  | 90 => ⟨S_, .f32⟩
  | 91 => ⟨S_, .f32⟩
  | 92 => ⟨S32768x16, .f32⟩
  | 93 => ⟨S32768x16, .f32⟩
  | 94 => ⟨S_, .f32⟩
  | 95 => ⟨S32768x16, .f32⟩
  | 96 => ⟨S32768x16, .f32⟩
  | 97 => ⟨S_, .f32⟩
  | 98 => ⟨S_, .f32⟩
  | 99 => ⟨S_, .f32⟩
  | 100 => ⟨S32768x16, .f32⟩
  | 101 => ⟨S32768x16, .f32⟩
  | 102 => ⟨S_, .f32⟩
  | 103 => ⟨S32768x16, .f32⟩
  | 104 => ⟨S32768x16, .f32⟩
  | 105 => ⟨S32768x16, .f32⟩
  | 106 => ⟨S32768x16, .f32⟩
  | 107 => ⟨S32768x16, .f32⟩
  | 108 => ⟨S32768x16, .f32⟩
  | 109 => ⟨S32768x16, .f32⟩
  | 110 => ⟨S32768x16, .f32⟩
  | 111 => ⟨S32768x16, .f32⟩
  | 112 => ⟨S32768x8, .f32⟩
  | 113 => ⟨S32768x8, .f32⟩
  | 114 => ⟨S_, .f32⟩
  | 115 => ⟨S_, .f32⟩
  | 116 => ⟨S_, .f32⟩
  | 117 => ⟨S32768x8, .f32⟩
  | 118 => ⟨S32768x8, .f32⟩
  | 119 => ⟨S_, .f32⟩
  | 120 => ⟨S32768x8, .f32⟩
  | 121 => ⟨S32768x8, .f32⟩
  | 122 => ⟨S_, .f32⟩
  | 123 => ⟨S_, .f32⟩
  | 124 => ⟨S_, .f32⟩
  | 125 => ⟨S32768x8, .f32⟩
  | 126 => ⟨S32768x8, .f32⟩
  | 127 => ⟨S_, .f32⟩
  | _ => ⟨S32768x256, .f32⟩

abbrev hbmTy0_60 (i : Nat) : BufTy := match i % 128 with
  | 0 => ⟨S32768x8, .f32⟩
  | 1 => ⟨S32768x8, .f32⟩
  | 2 => ⟨S32768x8, .f32⟩
  | 3 => ⟨S32768x8, .f32⟩
  | 4 => ⟨S32768x8, .f32⟩
  | 5 => ⟨S32768x8, .f32⟩
  | 6 => ⟨S32768x8, .f32⟩
  | 7 => ⟨S32768x8, .f32⟩
  | 8 => ⟨S32768x8, .f32⟩
  | 9 => ⟨S32768x4, .f32⟩
  | 10 => ⟨S32768x4, .f32⟩
  | 11 => ⟨S_, .f32⟩
  | 12 => ⟨S_, .f32⟩
  | 13 => ⟨S_, .f32⟩
  | 14 => ⟨S32768x4, .f32⟩
  | 15 => ⟨S32768x4, .f32⟩
  | 16 => ⟨S_, .f32⟩
  | 17 => ⟨S32768x4, .f32⟩
  | 18 => ⟨S32768x4, .f32⟩
  | 19 => ⟨S_, .f32⟩
  | 20 => ⟨S_, .f32⟩
  | 21 => ⟨S_, .f32⟩
  | 22 => ⟨S32768x4, .f32⟩
  | 23 => ⟨S32768x4, .f32⟩
  | 24 => ⟨S_, .f32⟩
  | 25 => ⟨S32768x4, .f32⟩
  | 26 => ⟨S32768x4, .f32⟩
  | 27 => ⟨S32768x4, .f32⟩
  | 28 => ⟨S32768x4, .f32⟩
  | 29 => ⟨S32768x4, .f32⟩
  | 30 => ⟨S32768x4, .f32⟩
  | 31 => ⟨S32768x4, .f32⟩
  | 32 => ⟨S32768x4, .f32⟩
  | 33 => ⟨S32768x4, .f32⟩
  | 34 => ⟨S32768x2, .f32⟩
  | 35 => ⟨S32768x2, .f32⟩
  | 36 => ⟨S_, .f32⟩
  | 37 => ⟨S_, .f32⟩
  | 38 => ⟨S_, .f32⟩
  | 39 => ⟨S32768x2, .f32⟩
  | 40 => ⟨S32768x2, .f32⟩
  | 41 => ⟨S_, .f32⟩
  | 42 => ⟨S32768x2, .f32⟩
  | 43 => ⟨S32768x2, .f32⟩
  | 44 => ⟨S_, .f32⟩
  | 45 => ⟨S_, .f32⟩
  | 46 => ⟨S_, .f32⟩
  | 47 => ⟨S32768x2, .f32⟩
  | 48 => ⟨S32768x2, .f32⟩
  | 49 => ⟨S_, .f32⟩
  | 50 => ⟨S32768x2, .f32⟩
  | 51 => ⟨S32768x2, .f32⟩
  | 52 => ⟨S32768x2, .f32⟩
  | 53 => ⟨S32768x2, .f32⟩
  | 54 => ⟨S32768x2, .f32⟩
  | 55 => ⟨S32768x2, .f32⟩
  | 56 => ⟨S32768x2, .f32⟩
  | 57 => ⟨S32768x2, .f32⟩
  | 58 => ⟨S32768x2, .f32⟩
  | 59 => ⟨S32768x1, .f32⟩
  | 60 => ⟨S32768x1, .f32⟩
  | 61 => ⟨S_, .f32⟩
  | 62 => ⟨S_, .f32⟩
  | 63 => ⟨S_, .f32⟩
  | 64 => ⟨S32768x1, .f32⟩
  | 65 => ⟨S32768x1, .f32⟩
  | 66 => ⟨S_, .f32⟩
  | 67 => ⟨S32768x1, .f32⟩
  | 68 => ⟨S32768x1, .f32⟩
  | 69 => ⟨S_, .f32⟩
  | 70 => ⟨S_, .f32⟩
  | 71 => ⟨S_, .f32⟩
  | 72 => ⟨S32768x1, .f32⟩
  | 73 => ⟨S32768x1, .f32⟩
  | 74 => ⟨S_, .f32⟩
  | 75 => ⟨S32768x1, .f32⟩
  | 76 => ⟨S32768x1, .f32⟩
  | 77 => ⟨S32768x1, .f32⟩
  | 78 => ⟨S32768x1, .f32⟩
  | 79 => ⟨S32768x1, .f32⟩
  | 80 => ⟨S32768x1, .f32⟩
  | 81 => ⟨S32768x1, .f32⟩
  | 82 => ⟨S32768x1, .f32⟩
  | 83 => ⟨S32768x1, .f32⟩
  | 84 => ⟨S_, .f32⟩
  | 85 => ⟨S32768x1, .f32⟩
  | 86 => ⟨S32768x1, .i1⟩
  | 87 => ⟨S32768x1, .f32⟩
  | 88 => ⟨S_, .f32⟩
  | 89 => ⟨S32768x1, .f32⟩
  | 90 => ⟨S32768x1, .f32⟩
  | 91 => ⟨S_, .f32⟩
  | 92 => ⟨S32768x1, .f32⟩
  | 93 => ⟨S32768x1, .f32⟩
  | 94 => ⟨S32768x1, .f32⟩
  | 95 => ⟨S32768x1, .f32⟩
  | 96 => ⟨S_, .f32⟩
  | 97 => ⟨S32768x1, .f32⟩
  | 98 => ⟨S32768x1, .i1⟩
  | 99 => ⟨S32768x1, .f32⟩
  | 100 => ⟨S32768x1, .i1⟩
  | 101 => ⟨S32768x1, .f32⟩
  | 102 => ⟨S32768x2, .f32⟩
  | 103 => ⟨S32768x2, .f32⟩
  | 104 => ⟨S_, .f32⟩
  | 105 => ⟨S32768x2, .f32⟩
  | 106 => ⟨S32768x2, .f32⟩
  | 107 => ⟨S_, .f32⟩
  | 108 => ⟨S32768x2, .f32⟩
  | 109 => ⟨S32768x2, .f32⟩
  | 110 => ⟨S32768x2, .f32⟩
  | 111 => ⟨S32768x2, .f32⟩
  | 112 => ⟨S32768x1, .f32⟩
  | 113 => ⟨S32768x1, .f32⟩
  | 114 => ⟨S_, .f32⟩
  | 115 => ⟨S_, .f32⟩
  | 116 => ⟨S_, .f32⟩
  | 117 => ⟨S32768x1, .f32⟩
  | 118 => ⟨S32768x1, .f32⟩
  | 119 => ⟨S_, .f32⟩
  | 120 => ⟨S32768x1, .f32⟩
  | 121 => ⟨S32768x1, .f32⟩
  | 122 => ⟨S_, .f32⟩
  | 123 => ⟨S_, .f32⟩
  | 124 => ⟨S_, .f32⟩
  | 125 => ⟨S32768x1, .f32⟩
  | 126 => ⟨S32768x1, .f32⟩
  | 127 => ⟨S_, .f32⟩
  | _ => ⟨S32768x256, .f32⟩

abbrev hbmTy0_61 (i : Nat) : BufTy := match i % 128 with
  | 0 => ⟨S32768x1, .f32⟩
  | 1 => ⟨S32768x1, .f32⟩
  | 2 => ⟨S32768x1, .f32⟩
  | 3 => ⟨S32768x1, .f32⟩
  | 4 => ⟨S32768x1, .f32⟩
  | 5 => ⟨S32768x1, .f32⟩
  | 6 => ⟨S32768x1, .f32⟩
  | 7 => ⟨S32768x1, .f32⟩
  | 8 => ⟨S32768x1, .f32⟩
  | 9 => ⟨S_, .f32⟩
  | 10 => ⟨S32768x1, .f32⟩
  | 11 => ⟨S32768x1, .i1⟩
  | 12 => ⟨S32768x1, .f32⟩
  | 13 => ⟨S_, .f32⟩
  | 14 => ⟨S32768x1, .f32⟩
  | 15 => ⟨S32768x1, .f32⟩
  | 16 => ⟨S_, .f32⟩
  | 17 => ⟨S32768x1, .f32⟩
  | 18 => ⟨S32768x1, .f32⟩
  | 19 => ⟨S32768x1, .f32⟩
  | 20 => ⟨S32768x1, .f32⟩
  | 21 => ⟨S_, .f32⟩
  | 22 => ⟨S32768x1, .f32⟩
  | 23 => ⟨S32768x1, .i1⟩
  | 24 => ⟨S32768x1, .f32⟩
  | 25 => ⟨S32768x1, .i1⟩
  | 26 => ⟨S32768x1, .f32⟩
  | 27 => ⟨S32768x2, .f32⟩
  | 28 => ⟨S32768x2, .f32⟩
  | 29 => ⟨S32768x2, .i1⟩
  | 30 => ⟨S32768x2, .f32⟩
  | 31 => ⟨S32768x4, .f32⟩
  | 32 => ⟨S32768x4, .f32⟩
  | 33 => ⟨S_, .f32⟩
  | 34 => ⟨S32768x4, .f32⟩
  | 35 => ⟨S32768x4, .f32⟩
  | 36 => ⟨S_, .f32⟩
  | 37 => ⟨S32768x4, .f32⟩
  | 38 => ⟨S32768x4, .f32⟩
  | 39 => ⟨S32768x4, .f32⟩
  | 40 => ⟨S32768x4, .f32⟩
  | 41 => ⟨S32768x2, .f32⟩
  | 42 => ⟨S32768x2, .f32⟩
  | 43 => ⟨S_, .f32⟩
  | 44 => ⟨S_, .f32⟩
  | 45 => ⟨S_, .f32⟩
  | 46 => ⟨S32768x2, .f32⟩
  | 47 => ⟨S32768x2, .f32⟩
  | 48 => ⟨S_, .f32⟩
  | 49 => ⟨S32768x2, .f32⟩
  | 50 => ⟨S32768x2, .f32⟩
  | 51 => ⟨S_, .f32⟩
  | 52 => ⟨S_, .f32⟩
  | 53 => ⟨S_, .f32⟩
  | 54 => ⟨S32768x2, .f32⟩
  | 55 => ⟨S32768x2, .f32⟩
  | 56 => ⟨S_, .f32⟩
  | 57 => ⟨S32768x2, .f32⟩
  | 58 => ⟨S32768x2, .f32⟩
  | 59 => ⟨S32768x2, .f32⟩
  | 60 => ⟨S32768x2, .f32⟩
  | 61 => ⟨S32768x2, .f32⟩
  | 62 => ⟨S32768x2, .f32⟩
  | 63 => ⟨S32768x2, .f32⟩
  | 64 => ⟨S32768x2, .f32⟩
  | 65 => ⟨S32768x2, .f32⟩
  | 66 => ⟨S32768x1, .f32⟩
  | 67 => ⟨S32768x1, .f32⟩
  | 68 => ⟨S_, .f32⟩
  | 69 => ⟨S_, .f32⟩
  | 70 => ⟨S_, .f32⟩
  | 71 => ⟨S32768x1, .f32⟩
  | 72 => ⟨S32768x1, .f32⟩
  | 73 => ⟨S_, .f32⟩
  | 74 => ⟨S32768x1, .f32⟩
  | 75 => ⟨S32768x1, .f32⟩
  | 76 => ⟨S_, .f32⟩
  | 77 => ⟨S_, .f32⟩
  | 78 => ⟨S_, .f32⟩
  | 79 => ⟨S32768x1, .f32⟩
  | 80 => ⟨S32768x1, .f32⟩
  | 81 => ⟨S_, .f32⟩
  | 82 => ⟨S32768x1, .f32⟩
  | 83 => ⟨S32768x1, .f32⟩
  | 84 => ⟨S32768x1, .f32⟩
  | 85 => ⟨S32768x1, .f32⟩
  | 86 => ⟨S32768x1, .f32⟩
  | 87 => ⟨S32768x1, .f32⟩
  | 88 => ⟨S32768x1, .f32⟩
  | 89 => ⟨S32768x1, .f32⟩
  | 90 => ⟨S32768x1, .f32⟩
  | 91 => ⟨S_, .f32⟩
  | 92 => ⟨S32768x1, .f32⟩
  | 93 => ⟨S32768x1, .i1⟩
  | 94 => ⟨S32768x1, .f32⟩
  | 95 => ⟨S_, .f32⟩
  | 96 => ⟨S32768x1, .f32⟩
  | 97 => ⟨S32768x1, .f32⟩
  | 98 => ⟨S_, .f32⟩
  | 99 => ⟨S32768x1, .f32⟩
  | 100 => ⟨S32768x1, .f32⟩
  | 101 => ⟨S32768x1, .f32⟩
  | 102 => ⟨S32768x1, .f32⟩
  | 103 => ⟨S_, .f32⟩
  | 104 => ⟨S32768x1, .f32⟩
  | 105 => ⟨S32768x1, .i1⟩
  | 106 => ⟨S32768x1, .f32⟩
  | 107 => ⟨S32768x1, .i1⟩
  | 108 => ⟨S32768x1, .f32⟩
  | 109 => ⟨S32768x2, .f32⟩
  | 110 => ⟨S32768x2, .f32⟩
  | 111 => ⟨S_, .f32⟩
  | 112 => ⟨S32768x2, .f32⟩
  | 113 => ⟨S32768x2, .f32⟩
  | 114 => ⟨S_, .f32⟩
  | 115 => ⟨S32768x2, .f32⟩
  | 116 => ⟨S32768x2, .f32⟩
  | 117 => ⟨S32768x2, .f32⟩
  | 118 => ⟨S32768x2, .f32⟩
  | 119 => ⟨S32768x1, .f32⟩
  | 120 => ⟨S32768x1, .f32⟩
  | 121 => ⟨S_, .f32⟩
  | 122 => ⟨S_, .f32⟩
  | 123 => ⟨S_, .f32⟩
  | 124 => ⟨S32768x1, .f32⟩
  | 125 => ⟨S32768x1, .f32⟩
  | 126 => ⟨S_, .f32⟩
  | 127 => ⟨S32768x1, .f32⟩
  | _ => ⟨S32768x256, .f32⟩

abbrev hbmTy0_62 (i : Nat) : BufTy := match i % 128 with
  | 0 => ⟨S32768x1, .f32⟩
  | 1 => ⟨S_, .f32⟩
  | 2 => ⟨S_, .f32⟩
  | 3 => ⟨S_, .f32⟩
  | 4 => ⟨S32768x1, .f32⟩
  | 5 => ⟨S32768x1, .f32⟩
  | 6 => ⟨S_, .f32⟩
  | 7 => ⟨S32768x1, .f32⟩
  | 8 => ⟨S32768x1, .f32⟩
  | 9 => ⟨S32768x1, .f32⟩
  | 10 => ⟨S32768x1, .f32⟩
  | 11 => ⟨S32768x1, .f32⟩
  | 12 => ⟨S32768x1, .f32⟩
  | 13 => ⟨S32768x1, .f32⟩
  | 14 => ⟨S32768x1, .f32⟩
  | 15 => ⟨S32768x1, .f32⟩
  | 16 => ⟨S_, .f32⟩
  | 17 => ⟨S32768x1, .f32⟩
  | 18 => ⟨S32768x1, .i1⟩
  | 19 => ⟨S32768x1, .f32⟩
  | 20 => ⟨S_, .f32⟩
  | 21 => ⟨S32768x1, .f32⟩
  | 22 => ⟨S32768x1, .f32⟩
  | 23 => ⟨S_, .f32⟩
  | 24 => ⟨S32768x1, .f32⟩
  | 25 => ⟨S32768x1, .f32⟩
  | 26 => ⟨S32768x1, .f32⟩
  | 27 => ⟨S32768x1, .f32⟩
  | 28 => ⟨S_, .f32⟩
  | 29 => ⟨S32768x1, .f32⟩
  | 30 => ⟨S32768x1, .i1⟩
  | 31 => ⟨S32768x1, .f32⟩
  | 32 => ⟨S32768x1, .i1⟩
  | 33 => ⟨S32768x1, .f32⟩
  | 34 => ⟨S32768x2, .f32⟩
  | 35 => ⟨S32768x2, .f32⟩
  | 36 => ⟨S32768x2, .i1⟩
  | 37 => ⟨S32768x2, .f32⟩
  | 38 => ⟨S32768x4, .f32⟩
  | 39 => ⟨S32768x4, .f32⟩
  | 40 => ⟨S32768x4, .i1⟩
  | 41 => ⟨S32768x4, .f32⟩
  | 42 => ⟨S32768x8, .f32⟩
  | 43 => ⟨S32768x8, .f32⟩
  | 44 => ⟨S_, .f32⟩
  | 45 => ⟨S32768x8, .f32⟩
  | 46 => ⟨S32768x8, .f32⟩
  | 47 => ⟨S_, .f32⟩
  | 48 => ⟨S32768x8, .f32⟩
  | 49 => ⟨S32768x8, .f32⟩
  | 50 => ⟨S32768x8, .f32⟩
  | 51 => ⟨S32768x8, .f32⟩
  | 52 => ⟨S32768x4, .f32⟩
  | 53 => ⟨S32768x4, .f32⟩
  | 54 => ⟨S_, .f32⟩
  | 55 => ⟨S_, .f32⟩
  | 56 => ⟨S_, .f32⟩
  | 57 => ⟨S32768x4, .f32⟩
  | 58 => ⟨S32768x4, .f32⟩
  | 59 => ⟨S_, .f32⟩
  | 60 => ⟨S32768x4, .f32⟩
  | 61 => ⟨S32768x4, .f32⟩
  | 62 => ⟨S_, .f32⟩
  | 63 => ⟨S_, .f32⟩
  | 64 => ⟨S_, .f32⟩
  | 65 => ⟨S32768x4, .f32⟩
  | 66 => ⟨S32768x4, .f32⟩
  | 67 => ⟨S_, .f32⟩
  | 68 => ⟨S32768x4, .f32⟩
  | 69 => ⟨S32768x4, .f32⟩
  | 70 => ⟨S32768x4, .f32⟩
  | 71 => ⟨S32768x4, .f32⟩
  | 72 => ⟨S32768x4, .f32⟩
  | 73 => ⟨S32768x4, .f32⟩
  | 74 => ⟨S32768x4, .f32⟩
  | 75 => ⟨S32768x4, .f32⟩
  | 76 => ⟨S32768x4, .f32⟩
  | 77 => ⟨S32768x2, .f32⟩
  | 78 => ⟨S32768x2, .f32⟩
  | 79 => ⟨S_, .f32⟩
  | 80 => ⟨S_, .f32⟩
  | 81 => ⟨S_, .f32⟩
  | 82 => ⟨S32768x2, .f32⟩
  | 83 => ⟨S32768x2, .f32⟩
  | 84 => ⟨S_, .f32⟩
  | 85 => ⟨S32768x2, .f32⟩
  | 86 => ⟨S32768x2, .f32⟩
  | 87 => ⟨S_, .f32⟩
  | 88 => ⟨S_, .f32⟩
  | 89 => ⟨S_, .f32⟩
  | 90 => ⟨S32768x2, .f32⟩
  | 91 => ⟨S32768x2, .f32⟩
  | 92 => ⟨S_, .f32⟩
  | 93 => ⟨S32768x2, .f32⟩
  | 94 => ⟨S32768x2, .f32⟩
  | 95 => ⟨S32768x2, .f32⟩
  | 96 => ⟨S32768x2, .f32⟩
  | 97 => ⟨S32768x2, .f32⟩
  | 98 => ⟨S32768x2, .f32⟩
  | 99 => ⟨S32768x2, .f32⟩
  | 100 => ⟨S32768x2, .f32⟩
  | 101 => ⟨S32768x2, .f32⟩
  | 102 => ⟨S32768x1, .f32⟩
  | 103 => ⟨S32768x1, .f32⟩
  | 104 => ⟨S_, .f32⟩
  | 105 => ⟨S_, .f32⟩
  | 106 => ⟨S_, .f32⟩
  | 107 => ⟨S32768x1, .f32⟩
  | 108 => ⟨S32768x1, .f32⟩
  | 109 => ⟨S_, .f32⟩
  | 110 => ⟨S32768x1, .f32⟩
  | 111 => ⟨S32768x1, .f32⟩
  | 112 => ⟨S_, .f32⟩
  | 113 => ⟨S_, .f32⟩
  | 114 => ⟨S_, .f32⟩
  | 115 => ⟨S32768x1, .f32⟩
  | 116 => ⟨S32768x1, .f32⟩
  | 117 => ⟨S_, .f32⟩
  | 118 => ⟨S32768x1, .f32⟩
  | 119 => ⟨S32768x1, .f32⟩
  | 120 => ⟨S32768x1, .f32⟩
  | 121 => ⟨S32768x1, .f32⟩
  | 122 => ⟨S32768x1, .f32⟩
  | 123 => ⟨S32768x1, .f32⟩
  | 124 => ⟨S32768x1, .f32⟩
  | 125 => ⟨S32768x1, .f32⟩
  | 126 => ⟨S32768x1, .f32⟩
  | 127 => ⟨S_, .f32⟩
  | _ => ⟨S32768x256, .f32⟩

abbrev hbmTy0_63 (i : Nat) : BufTy := match i % 128 with
  | 0 => ⟨S32768x1, .f32⟩
  | 1 => ⟨S32768x1, .i1⟩
  | 2 => ⟨S32768x1, .f32⟩
  | 3 => ⟨S_, .f32⟩
  | 4 => ⟨S32768x1, .f32⟩
  | 5 => ⟨S32768x1, .f32⟩
  | 6 => ⟨S_, .f32⟩
  | 7 => ⟨S32768x1, .f32⟩
  | 8 => ⟨S32768x1, .f32⟩
  | 9 => ⟨S32768x1, .f32⟩
  | 10 => ⟨S32768x1, .f32⟩
  | 11 => ⟨S_, .f32⟩
  | 12 => ⟨S32768x1, .f32⟩
  | 13 => ⟨S32768x1, .i1⟩
  | 14 => ⟨S32768x1, .f32⟩
  | 15 => ⟨S32768x1, .i1⟩
  | 16 => ⟨S32768x1, .f32⟩
  | 17 => ⟨S32768x2, .f32⟩
  | 18 => ⟨S32768x2, .f32⟩
  | 19 => ⟨S_, .f32⟩
  | 20 => ⟨S32768x2, .f32⟩
  | 21 => ⟨S32768x2, .f32⟩
  | 22 => ⟨S_, .f32⟩
  | 23 => ⟨S32768x2, .f32⟩
  | 24 => ⟨S32768x2, .f32⟩
  | 25 => ⟨S32768x2, .f32⟩
  | 26 => ⟨S32768x2, .f32⟩
  | 27 => ⟨S32768x1, .f32⟩
  | 28 => ⟨S32768x1, .f32⟩
  | 29 => ⟨S_, .f32⟩
  | 30 => ⟨S_, .f32⟩
  | 31 => ⟨S_, .f32⟩
  | 32 => ⟨S32768x1, .f32⟩
  | 33 => ⟨S32768x1, .f32⟩
  | 34 => ⟨S_, .f32⟩
  | 35 => ⟨S32768x1, .f32⟩
  | 36 => ⟨S32768x1, .f32⟩
  | 37 => ⟨S_, .f32⟩
  | 38 => ⟨S_, .f32⟩
  | 39 => ⟨S_, .f32⟩
  | 40 => ⟨S32768x1, .f32⟩
  | 41 => ⟨S32768x1, .f32⟩
  | 42 => ⟨S_, .f32⟩
  | 43 => ⟨S32768x1, .f32⟩
  | 44 => ⟨S32768x1, .f32⟩
  | 45 => ⟨S32768x1, .f32⟩
  | 46 => ⟨S32768x1, .f32⟩
  | 47 => ⟨S32768x1, .f32⟩
  | 48 => ⟨S32768x1, .f32⟩
  | 49 => ⟨S32768x1, .f32⟩
  | 50 => ⟨S32768x1, .f32⟩
  | 51 => ⟨S32768x1, .f32⟩
  | 52 => ⟨S_, .f32⟩
  | 53 => ⟨S32768x1, .f32⟩
  | 54 => ⟨S32768x1, .i1⟩
  | 55 => ⟨S32768x1, .f32⟩
  | 56 => ⟨S_, .f32⟩
  | 57 => ⟨S32768x1, .f32⟩
  | 58 => ⟨S32768x1, .f32⟩
  | 59 => ⟨S_, .f32⟩
  | 60 => ⟨S32768x1, .f32⟩
  | 61 => ⟨S32768x1, .f32⟩
  | 62 => ⟨S32768x1, .f32⟩
  | 63 => ⟨S32768x1, .f32⟩
  | 64 => ⟨S_, .f32⟩
  | 65 => ⟨S32768x1, .f32⟩
  | 66 => ⟨S32768x1, .i1⟩
  | 67 => ⟨S32768x1, .f32⟩
  | 68 => ⟨S32768x1, .i1⟩
  | 69 => ⟨S32768x1, .f32⟩
  | 70 => ⟨S32768x2, .f32⟩
  | 71 => ⟨S32768x2, .f32⟩
  | 72 => ⟨S32768x2, .i1⟩
  | 73 => ⟨S32768x2, .f32⟩
  | 74 => ⟨S32768x4, .f32⟩
  | 75 => ⟨S32768x4, .f32⟩
  | 76 => ⟨S_, .f32⟩
  | 77 => ⟨S32768x4, .f32⟩
  | 78 => ⟨S32768x4, .f32⟩
  | 79 => ⟨S_, .f32⟩
  | 80 => ⟨S32768x4, .f32⟩
  | 81 => ⟨S32768x4, .f32⟩
  | 82 => ⟨S32768x4, .f32⟩
  | 83 => ⟨S32768x4, .f32⟩
  | 84 => ⟨S32768x2, .f32⟩
  | 85 => ⟨S32768x2, .f32⟩
  | 86 => ⟨S_, .f32⟩
  | 87 => ⟨S_, .f32⟩
  | 88 => ⟨S_, .f32⟩
  | 89 => ⟨S32768x2, .f32⟩
  | 90 => ⟨S32768x2, .f32⟩
  | 91 => ⟨S_, .f32⟩
  | 92 => ⟨S32768x2, .f32⟩
  | 93 => ⟨S32768x2, .f32⟩
  | 94 => ⟨S_, .f32⟩
  | 95 => ⟨S_, .f32⟩
  | 96 => ⟨S_, .f32⟩
  | 97 => ⟨S32768x2, .f32⟩
  | 98 => ⟨S32768x2, .f32⟩
  | 99 => ⟨S_, .f32⟩
  | 100 => ⟨S32768x2, .f32⟩
  | 101 => ⟨S32768x2, .f32⟩
  | 102 => ⟨S32768x2, .f32⟩
  | 103 => ⟨S32768x2, .f32⟩
  | 104 => ⟨S32768x2, .f32⟩
  | 105 => ⟨S32768x2, .f32⟩
  | 106 => ⟨S32768x2, .f32⟩
  | 107 => ⟨S32768x2, .f32⟩
  | 108 => ⟨S32768x2, .f32⟩
  | 109 => ⟨S32768x1, .f32⟩
  | 110 => ⟨S32768x1, .f32⟩
  | 111 => ⟨S_, .f32⟩
  | 112 => ⟨S_, .f32⟩
  | 113 => ⟨S_, .f32⟩
  | 114 => ⟨S32768x1, .f32⟩
  | 115 => ⟨S32768x1, .f32⟩
  | 116 => ⟨S_, .f32⟩
  | 117 => ⟨S32768x1, .f32⟩
  | 118 => ⟨S32768x1, .f32⟩
  | 119 => ⟨S_, .f32⟩
  | 120 => ⟨S_, .f32⟩
  | 121 => ⟨S_, .f32⟩
  | 122 => ⟨S32768x1, .f32⟩
  | 123 => ⟨S32768x1, .f32⟩
  | 124 => ⟨S_, .f32⟩
  | 125 => ⟨S32768x1, .f32⟩
  | 126 => ⟨S32768x1, .f32⟩
  | 127 => ⟨S32768x1, .f32⟩
  | _ => ⟨S32768x256, .f32⟩

abbrev hbmTy0_64 (i : Nat) : BufTy := match i % 128 with
  | 0 => ⟨S32768x1, .f32⟩
  | 1 => ⟨S32768x1, .f32⟩
  | 2 => ⟨S32768x1, .f32⟩
  | 3 => ⟨S32768x1, .f32⟩
  | 4 => ⟨S32768x1, .f32⟩
  | 5 => ⟨S32768x1, .f32⟩
  | 6 => ⟨S_, .f32⟩
  | 7 => ⟨S32768x1, .f32⟩
  | 8 => ⟨S32768x1, .i1⟩
  | 9 => ⟨S32768x1, .f32⟩
  | 10 => ⟨S_, .f32⟩
  | 11 => ⟨S32768x1, .f32⟩
  | 12 => ⟨S32768x1, .f32⟩
  | 13 => ⟨S_, .f32⟩
  | 14 => ⟨S32768x1, .f32⟩
  | 15 => ⟨S32768x1, .f32⟩
  | 16 => ⟨S32768x1, .f32⟩
  | 17 => ⟨S32768x1, .f32⟩
  | 18 => ⟨S_, .f32⟩
  | 19 => ⟨S32768x1, .f32⟩
  | 20 => ⟨S32768x1, .i1⟩
  | 21 => ⟨S32768x1, .f32⟩
  | 22 => ⟨S32768x1, .i1⟩
  | 23 => ⟨S32768x1, .f32⟩
  | 24 => ⟨S32768x2, .f32⟩
  | 25 => ⟨S32768x2, .f32⟩
  | 26 => ⟨S_, .f32⟩
  | 27 => ⟨S32768x2, .f32⟩
  | 28 => ⟨S32768x2, .f32⟩
  | 29 => ⟨S_, .f32⟩
  | 30 => ⟨S32768x2, .f32⟩
  | 31 => ⟨S32768x2, .f32⟩
  | 32 => ⟨S32768x2, .f32⟩
  | 33 => ⟨S32768x2, .f32⟩
  | 34 => ⟨S32768x1, .f32⟩
  | 35 => ⟨S32768x1, .f32⟩
  | 36 => ⟨S_, .f32⟩
  | 37 => ⟨S_, .f32⟩
  | 38 => ⟨S_, .f32⟩
  | 39 => ⟨S32768x1, .f32⟩
  | 40 => ⟨S32768x1, .f32⟩
  | 41 => ⟨S_, .f32⟩
  | 42 => ⟨S32768x1, .f32⟩
  | 43 => ⟨S32768x1, .f32⟩
  | 44 => ⟨S_, .f32⟩
  | 45 => ⟨S_, .f32⟩
  | 46 => ⟨S_, .f32⟩
  | 47 => ⟨S32768x1, .f32⟩
  | 48 => ⟨S32768x1, .f32⟩
  | 49 => ⟨S_, .f32⟩
  | 50 => ⟨S32768x1, .f32⟩
  | 51 => ⟨S32768x1, .f32⟩
  | 52 => ⟨S32768x1, .f32⟩
  | 53 => ⟨S32768x1, .f32⟩
  | 54 => ⟨S32768x1, .f32⟩
  | 55 => ⟨S32768x1, .f32⟩
  | 56 => ⟨S32768x1, .f32⟩
  | 57 => ⟨S32768x1, .f32⟩
  | 58 => ⟨S32768x1, .f32⟩
  | 59 => ⟨S_, .f32⟩
  | 60 => ⟨S32768x1, .f32⟩
  | 61 => ⟨S32768x1, .i1⟩
  | 62 => ⟨S32768x1, .f32⟩
  | 63 => ⟨S_, .f32⟩
  | 64 => ⟨S32768x1, .f32⟩
  | 65 => ⟨S32768x1, .f32⟩
  | 66 => ⟨S_, .f32⟩
  | 67 => ⟨S32768x1, .f32⟩
  | 68 => ⟨S32768x1, .f32⟩
  | 69 => ⟨S32768x1, .f32⟩
  | 70 => ⟨S32768x1, .f32⟩
  | 71 => ⟨S_, .f32⟩
  | 72 => ⟨S32768x1, .f32⟩
  | 73 => ⟨S32768x1, .i1⟩
  | 74 => ⟨S32768x1, .f32⟩
  | 75 => ⟨S32768x1, .i1⟩
  | 76 => ⟨S32768x1, .f32⟩
  | 77 => ⟨S32768x2, .f32⟩
  | 78 => ⟨S32768x2, .f32⟩
  | 79 => ⟨S32768x2, .i1⟩
  | 80 => ⟨S32768x2, .f32⟩
  | 81 => ⟨S32768x4, .f32⟩
  | 82 => ⟨S32768x4, .f32⟩
  | 83 => ⟨S32768x4, .i1⟩
  | 84 => ⟨S32768x4, .f32⟩
  | 85 => ⟨S32768x8, .f32⟩
  | 86 => ⟨S32768x8, .f32⟩
  | 87 => ⟨S32768x8, .i1⟩
  | 88 => ⟨S32768x8, .f32⟩
  | 89 => ⟨S32768x16, .f32⟩
  | 90 => ⟨S32768x16, .f32⟩
  | 91 => ⟨S_, .f32⟩
  | 92 => ⟨S32768x16, .f32⟩
  | 93 => ⟨S32768x16, .f32⟩
  | 94 => ⟨S_, .f32⟩
  | 95 => ⟨S32768x16, .f32⟩
  | 96 => ⟨S32768x16, .f32⟩
  | 97 => ⟨S32768x16, .f32⟩
  | 98 => ⟨S32768x16, .f32⟩
  | 99 => ⟨S32768x8, .f32⟩
  | 100 => ⟨S32768x8, .f32⟩
  | 101 => ⟨S_, .f32⟩
  | 102 => ⟨S_, .f32⟩
  | 103 => ⟨S_, .f32⟩
  | 104 => ⟨S32768x8, .f32⟩
  | 105 => ⟨S32768x8, .f32⟩
  | 106 => ⟨S_, .f32⟩
  | 107 => ⟨S32768x8, .f32⟩
  | 108 => ⟨S32768x8, .f32⟩
  | 109 => ⟨S_, .f32⟩
  | 110 => ⟨S_, .f32⟩
  | 111 => ⟨S_, .f32⟩
  | 112 => ⟨S32768x8, .f32⟩
  | 113 => ⟨S32768x8, .f32⟩
  | 114 => ⟨S_, .f32⟩
  | 115 => ⟨S32768x8, .f32⟩
  | 116 => ⟨S32768x8, .f32⟩
  | 117 => ⟨S32768x8, .f32⟩
  | 118 => ⟨S32768x8, .f32⟩
  | 119 => ⟨S32768x8, .f32⟩
  | 120 => ⟨S32768x8, .f32⟩
  | 121 => ⟨S32768x8, .f32⟩
  | 122 => ⟨S32768x8, .f32⟩
  | 123 => ⟨S32768x8, .f32⟩
  | 124 => ⟨S32768x4, .f32⟩
  | 125 => ⟨S32768x4, .f32⟩
  | 126 => ⟨S_, .f32⟩
  | 127 => ⟨S_, .f32⟩
  | _ => ⟨S32768x256, .f32⟩

abbrev hbmTy0_65 (i : Nat) : BufTy := match i % 128 with
  | 0 => ⟨S_, .f32⟩
  | 1 => ⟨S32768x4, .f32⟩
  | 2 => ⟨S32768x4, .f32⟩
  | 3 => ⟨S_, .f32⟩
  | 4 => ⟨S32768x4, .f32⟩
  | 5 => ⟨S32768x4, .f32⟩
  | 6 => ⟨S_, .f32⟩
  | 7 => ⟨S_, .f32⟩
  | 8 => ⟨S_, .f32⟩
  | 9 => ⟨S32768x4, .f32⟩
  | 10 => ⟨S32768x4, .f32⟩
  | 11 => ⟨S_, .f32⟩
  | 12 => ⟨S32768x4, .f32⟩
  | 13 => ⟨S32768x4, .f32⟩
  | 14 => ⟨S32768x4, .f32⟩
  | 15 => ⟨S32768x4, .f32⟩
  | 16 => ⟨S32768x4, .f32⟩
  | 17 => ⟨S32768x4, .f32⟩
  | 18 => ⟨S32768x4, .f32⟩
  | 19 => ⟨S32768x4, .f32⟩
  | 20 => ⟨S32768x4, .f32⟩
  | 21 => ⟨S32768x2, .f32⟩
  | 22 => ⟨S32768x2, .f32⟩
  | 23 => ⟨S_, .f32⟩
  | 24 => ⟨S_, .f32⟩
  | 25 => ⟨S_, .f32⟩
  | 26 => ⟨S32768x2, .f32⟩
  | 27 => ⟨S32768x2, .f32⟩
  | 28 => ⟨S_, .f32⟩
  | 29 => ⟨S32768x2, .f32⟩
  | 30 => ⟨S32768x2, .f32⟩
  | 31 => ⟨S_, .f32⟩
  | 32 => ⟨S_, .f32⟩
  | 33 => ⟨S_, .f32⟩
  | 34 => ⟨S32768x2, .f32⟩
  | 35 => ⟨S32768x2, .f32⟩
  | 36 => ⟨S_, .f32⟩
  | 37 => ⟨S32768x2, .f32⟩
  | 38 => ⟨S32768x2, .f32⟩
  | 39 => ⟨S32768x2, .f32⟩
  | 40 => ⟨S32768x2, .f32⟩
  | 41 => ⟨S32768x2, .f32⟩
  | 42 => ⟨S32768x2, .f32⟩
  | 43 => ⟨S32768x2, .f32⟩
  | 44 => ⟨S32768x2, .f32⟩
  | 45 => ⟨S32768x2, .f32⟩
  | 46 => ⟨S32768x1, .f32⟩
  | 47 => ⟨S32768x1, .f32⟩
  | 48 => ⟨S_, .f32⟩
  | 49 => ⟨S_, .f32⟩
  | 50 => ⟨S_, .f32⟩
  | 51 => ⟨S32768x1, .f32⟩
  | 52 => ⟨S32768x1, .f32⟩
  | 53 => ⟨S_, .f32⟩
  | 54 => ⟨S32768x1, .f32⟩
  | 55 => ⟨S32768x1, .f32⟩
  | 56 => ⟨S_, .f32⟩
  | 57 => ⟨S_, .f32⟩
  | 58 => ⟨S_, .f32⟩
  | 59 => ⟨S32768x1, .f32⟩
  | 60 => ⟨S32768x1, .f32⟩
  | 61 => ⟨S_, .f32⟩
  | 62 => ⟨S32768x1, .f32⟩
  | 63 => ⟨S32768x1, .f32⟩
  | 64 => ⟨S32768x1, .f32⟩
  | 65 => ⟨S32768x1, .f32⟩
  | 66 => ⟨S32768x1, .f32⟩
  | 67 => ⟨S32768x1, .f32⟩
  | 68 => ⟨S32768x1, .f32⟩
  | 69 => ⟨S32768x1, .f32⟩
  | 70 => ⟨S32768x1, .f32⟩
  | 71 => ⟨S_, .f32⟩
  | 72 => ⟨S32768x1, .f32⟩
  | 73 => ⟨S32768x1, .i1⟩
  | 74 => ⟨S32768x1, .f32⟩
  | 75 => ⟨S_, .f32⟩
  | 76 => ⟨S32768x1, .f32⟩
  | 77 => ⟨S32768x1, .f32⟩
  | 78 => ⟨S_, .f32⟩
  | 79 => ⟨S32768x1, .f32⟩
  | 80 => ⟨S32768x1, .f32⟩
  | 81 => ⟨S32768x1, .f32⟩
  | 82 => ⟨S32768x1, .f32⟩
  | 83 => ⟨S_, .f32⟩
  | 84 => ⟨S32768x1, .f32⟩
  | 85 => ⟨S32768x1, .i1⟩
  | 86 => ⟨S32768x1, .f32⟩
  | 87 => ⟨S32768x1, .i1⟩
  | 88 => ⟨S32768x1, .f32⟩
  | 89 => ⟨S32768x2, .f32⟩
  | 90 => ⟨S32768x2, .f32⟩
  | 91 => ⟨S_, .f32⟩
  | 92 => ⟨S32768x2, .f32⟩
  | 93 => ⟨S32768x2, .f32⟩
  | 94 => ⟨S_, .f32⟩
  | 95 => ⟨S32768x2, .f32⟩
  | 96 => ⟨S32768x2, .f32⟩
  | 97 => ⟨S32768x2, .f32⟩
  | 98 => ⟨S32768x2, .f32⟩
  | 99 => ⟨S32768x1, .f32⟩
  | 100 => ⟨S32768x1, .f32⟩
  | 101 => ⟨S_, .f32⟩
  | 102 => ⟨S_, .f32⟩
  | 103 => ⟨S_, .f32⟩
  | 104 => ⟨S32768x1, .f32⟩
  | 105 => ⟨S32768x1, .f32⟩
  | 106 => ⟨S_, .f32⟩
  | 107 => ⟨S32768x1, .f32⟩
  | 108 => ⟨S32768x1, .f32⟩
  | 109 => ⟨S_, .f32⟩
  | 110 => ⟨S_, .f32⟩
  | 111 => ⟨S_, .f32⟩
  | 112 => ⟨S32768x1, .f32⟩
  | 113 => ⟨S32768x1, .f32⟩
  | 114 => ⟨S_, .f32⟩
  | 115 => ⟨S32768x1, .f32⟩
  | 116 => ⟨S32768x1, .f32⟩
  | 117 => ⟨S32768x1, .f32⟩
  | 118 => ⟨S32768x1, .f32⟩
  | 119 => ⟨S32768x1, .f32⟩
  | 120 => ⟨S32768x1, .f32⟩
  | 121 => ⟨S32768x1, .f32⟩
  | 122 => ⟨S32768x1, .f32⟩
  | 123 => ⟨S32768x1, .f32⟩
  | 124 => ⟨S_, .f32⟩
  | 125 => ⟨S32768x1, .f32⟩
  | 126 => ⟨S32768x1, .i1⟩
  | 127 => ⟨S32768x1, .f32⟩
  | _ => ⟨S32768x256, .f32⟩

abbrev hbmTy0_66 (i : Nat) : BufTy := match i % 128 with
  | 0 => ⟨S_, .f32⟩
  | 1 => ⟨S32768x1, .f32⟩
  | 2 => ⟨S32768x1, .f32⟩
  | 3 => ⟨S_, .f32⟩
  | 4 => ⟨S32768x1, .f32⟩
  | 5 => ⟨S32768x1, .f32⟩
  | 6 => ⟨S32768x1, .f32⟩
  | 7 => ⟨S32768x1, .f32⟩
  | 8 => ⟨S_, .f32⟩
  | 9 => ⟨S32768x1, .f32⟩
  | 10 => ⟨S32768x1, .i1⟩
  | 11 => ⟨S32768x1, .f32⟩
  | 12 => ⟨S32768x1, .i1⟩
  | 13 => ⟨S32768x1, .f32⟩
  | 14 => ⟨S32768x2, .f32⟩
  | 15 => ⟨S32768x2, .f32⟩
  | 16 => ⟨S32768x2, .i1⟩
  | 17 => ⟨S32768x2, .f32⟩
  | 18 => ⟨S32768x4, .f32⟩
  | 19 => ⟨S32768x4, .f32⟩
  | 20 => ⟨S_, .f32⟩
  | 21 => ⟨S32768x4, .f32⟩
  | 22 => ⟨S32768x4, .f32⟩
  | 23 => ⟨S_, .f32⟩
  | 24 => ⟨S32768x4, .f32⟩
  | 25 => ⟨S32768x4, .f32⟩
  | 26 => ⟨S32768x4, .f32⟩
  | 27 => ⟨S32768x4, .f32⟩
  | 28 => ⟨S32768x2, .f32⟩
  | 29 => ⟨S32768x2, .f32⟩
  | 30 => ⟨S_, .f32⟩
  | 31 => ⟨S_, .f32⟩
  | 32 => ⟨S_, .f32⟩
  | 33 => ⟨S32768x2, .f32⟩
  | 34 => ⟨S32768x2, .f32⟩
  | 35 => ⟨S_, .f32⟩
  | 36 => ⟨S32768x2, .f32⟩
  | 37 => ⟨S32768x2, .f32⟩
  | 38 => ⟨S_, .f32⟩
  | 39 => ⟨S_, .f32⟩
  | 40 => ⟨S_, .f32⟩
  | 41 => ⟨S32768x2, .f32⟩
  | 42 => ⟨S32768x2, .f32⟩
  | 43 => ⟨S_, .f32⟩
  | 44 => ⟨S32768x2, .f32⟩
  | 45 => ⟨S32768x2, .f32⟩
  | 46 => ⟨S32768x2, .f32⟩
  | 47 => ⟨S32768x2, .f32⟩
  | 48 => ⟨S32768x2, .f32⟩
  | 49 => ⟨S32768x2, .f32⟩
  | 50 => ⟨S32768x2, .f32⟩
  | 51 => ⟨S32768x2, .f32⟩
  | 52 => ⟨S32768x2, .f32⟩
  | 53 => ⟨S32768x1, .f32⟩
  | 54 => ⟨S32768x1, .f32⟩
  | 55 => ⟨S_, .f32⟩
  | 56 => ⟨S_, .f32⟩
  | 57 => ⟨S_, .f32⟩
  | 58 => ⟨S32768x1, .f32⟩
  | 59 => ⟨S32768x1, .f32⟩
  | 60 => ⟨S_, .f32⟩
  | 61 => ⟨S32768x1, .f32⟩
  | 62 => ⟨S32768x1, .f32⟩
  | 63 => ⟨S_, .f32⟩
  | 64 => ⟨S_, .f32⟩
  | 65 => ⟨S_, .f32⟩
  | 66 => ⟨S32768x1, .f32⟩
  | 67 => ⟨S32768x1, .f32⟩
  | 68 => ⟨S_, .f32⟩
  | 69 => ⟨S32768x1, .f32⟩
  | 70 => ⟨S32768x1, .f32⟩
  | 71 => ⟨S32768x1, .f32⟩
  | 72 => ⟨S32768x1, .f32⟩
  | 73 => ⟨S32768x1, .f32⟩
  | 74 => ⟨S32768x1, .f32⟩
  | 75 => ⟨S32768x1, .f32⟩
  | 76 => ⟨S32768x1, .f32⟩
  | 77 => ⟨S32768x1, .f32⟩
  | 78 => ⟨S_, .f32⟩
  | 79 => ⟨S32768x1, .f32⟩
  | 80 => ⟨S32768x1, .i1⟩
  | 81 => ⟨S32768x1, .f32⟩
  | 82 => ⟨S_, .f32⟩
  | 83 => ⟨S32768x1, .f32⟩
  | 84 => ⟨S32768x1, .f32⟩
  | 85 => ⟨S_, .f32⟩
  | 86 => ⟨S32768x1, .f32⟩
  | 87 => ⟨S32768x1, .f32⟩
  | 88 => ⟨S32768x1, .f32⟩
  | 89 => ⟨S32768x1, .f32⟩
  | 90 => ⟨S_, .f32⟩
  | 91 => ⟨S32768x1, .f32⟩
  | 92 => ⟨S32768x1, .i1⟩
  | 93 => ⟨S32768x1, .f32⟩
  | 94 => ⟨S32768x1, .i1⟩
  | 95 => ⟨S32768x1, .f32⟩
  | 96 => ⟨S32768x2, .f32⟩
  | 97 => ⟨S32768x2, .f32⟩
  | 98 => ⟨S_, .f32⟩
  | 99 => ⟨S32768x2, .f32⟩
  | 100 => ⟨S32768x2, .f32⟩
  | 101 => ⟨S_, .f32⟩
  | 102 => ⟨S32768x2, .f32⟩
  | 103 => ⟨S32768x2, .f32⟩
  | 104 => ⟨S32768x2, .f32⟩
  | 105 => ⟨S32768x2, .f32⟩
  | 106 => ⟨S32768x1, .f32⟩
  | 107 => ⟨S32768x1, .f32⟩
  | 108 => ⟨S_, .f32⟩
  | 109 => ⟨S_, .f32⟩
  | 110 => ⟨S_, .f32⟩
  | 111 => ⟨S32768x1, .f32⟩
  | 112 => ⟨S32768x1, .f32⟩
  | 113 => ⟨S_, .f32⟩
  | 114 => ⟨S32768x1, .f32⟩
  | 115 => ⟨S32768x1, .f32⟩
  | 116 => ⟨S_, .f32⟩
  | 117 => ⟨S_, .f32⟩
  | 118 => ⟨S_, .f32⟩
  | 119 => ⟨S32768x1, .f32⟩
  | 120 => ⟨S32768x1, .f32⟩
  | 121 => ⟨S_, .f32⟩
  | 122 => ⟨S32768x1, .f32⟩
  | 123 => ⟨S32768x1, .f32⟩
  | 124 => ⟨S32768x1, .f32⟩
  | 125 => ⟨S32768x1, .f32⟩
  | 126 => ⟨S32768x1, .f32⟩
  | 127 => ⟨S32768x1, .f32⟩
  | _ => ⟨S32768x256, .f32⟩

abbrev hbmTy0_67 (i : Nat) : BufTy := match i % 128 with
  | 0 => ⟨S32768x1, .f32⟩
  | 1 => ⟨S32768x1, .f32⟩
  | 2 => ⟨S32768x1, .f32⟩
  | 3 => ⟨S_, .f32⟩
  | 4 => ⟨S32768x1, .f32⟩
  | 5 => ⟨S32768x1, .i1⟩
  | 6 => ⟨S32768x1, .f32⟩
  | 7 => ⟨S_, .f32⟩
  | 8 => ⟨S32768x1, .f32⟩
  | 9 => ⟨S32768x1, .f32⟩
  | 10 => ⟨S_, .f32⟩
  | 11 => ⟨S32768x1, .f32⟩
  | 12 => ⟨S32768x1, .f32⟩
  | 13 => ⟨S32768x1, .f32⟩
  | 14 => ⟨S32768x1, .f32⟩
  | 15 => ⟨S_, .f32⟩
  | 16 => ⟨S32768x1, .f32⟩
  | 17 => ⟨S32768x1, .i1⟩
  | 18 => ⟨S32768x1, .f32⟩
  | 19 => ⟨S32768x1, .i1⟩
  | 20 => ⟨S32768x1, .f32⟩
  | 21 => ⟨S32768x2, .f32⟩
  | 22 => ⟨S32768x2, .f32⟩
  | 23 => ⟨S32768x2, .i1⟩
  | 24 => ⟨S32768x2, .f32⟩
  | 25 => ⟨S32768x4, .f32⟩
  | 26 => ⟨S32768x4, .f32⟩
  | 27 => ⟨S32768x4, .i1⟩
  | 28 => ⟨S32768x4, .f32⟩
  | 29 => ⟨S32768x8, .f32⟩
  | 30 => ⟨S32768x8, .f32⟩
  | 31 => ⟨S_, .f32⟩
  | 32 => ⟨S32768x8, .f32⟩
  | 33 => ⟨S32768x8, .f32⟩
  | 34 => ⟨S_, .f32⟩
  | 35 => ⟨S32768x8, .f32⟩
  | 36 => ⟨S32768x8, .f32⟩
  | 37 => ⟨S32768x8, .f32⟩
  | 38 => ⟨S32768x8, .f32⟩
  | 39 => ⟨S32768x4, .f32⟩
  | 40 => ⟨S32768x4, .f32⟩
  | 41 => ⟨S_, .f32⟩
  | 42 => ⟨S_, .f32⟩
  | 43 => ⟨S_, .f32⟩
  | 44 => ⟨S32768x4, .f32⟩
  | 45 => ⟨S32768x4, .f32⟩
  | 46 => ⟨S_, .f32⟩
  | 47 => ⟨S32768x4, .f32⟩
  | 48 => ⟨S32768x4, .f32⟩
  | 49 => ⟨S_, .f32⟩
  | 50 => ⟨S_, .f32⟩
  | 51 => ⟨S_, .f32⟩
  | 52 => ⟨S32768x4, .f32⟩
  | 53 => ⟨S32768x4, .f32⟩
  | 54 => ⟨S_, .f32⟩
  | 55 => ⟨S32768x4, .f32⟩
  | 56 => ⟨S32768x4, .f32⟩
  | 57 => ⟨S32768x4, .f32⟩
  | 58 => ⟨S32768x4, .f32⟩
  | 59 => ⟨S32768x4, .f32⟩
  | 60 => ⟨S32768x4, .f32⟩
  | 61 => ⟨S32768x4, .f32⟩
  | 62 => ⟨S32768x4, .f32⟩
  | 63 => ⟨S32768x4, .f32⟩
  | 64 => ⟨S32768x2, .f32⟩
  | 65 => ⟨S32768x2, .f32⟩
  | 66 => ⟨S_, .f32⟩
  | 67 => ⟨S_, .f32⟩
  | 68 => ⟨S_, .f32⟩
  | 69 => ⟨S32768x2, .f32⟩
  | 70 => ⟨S32768x2, .f32⟩
  | 71 => ⟨S_, .f32⟩
  | 72 => ⟨S32768x2, .f32⟩
  | 73 => ⟨S32768x2, .f32⟩
  | 74 => ⟨S_, .f32⟩
  | 75 => ⟨S_, .f32⟩
  | 76 => ⟨S_, .f32⟩
  | 77 => ⟨S32768x2, .f32⟩
  | 78 => ⟨S32768x2, .f32⟩
  | 79 => ⟨S_, .f32⟩
  | 80 => ⟨S32768x2, .f32⟩
  | 81 => ⟨S32768x2, .f32⟩
  | 82 => ⟨S32768x2, .f32⟩
  | 83 => ⟨S32768x2, .f32⟩
  | 84 => ⟨S32768x2, .f32⟩
  | 85 => ⟨S32768x2, .f32⟩
  | 86 => ⟨S32768x2, .f32⟩
  | 87 => ⟨S32768x2, .f32⟩
  | 88 => ⟨S32768x2, .f32⟩
  | 89 => ⟨S32768x1, .f32⟩
  | 90 => ⟨S32768x1, .f32⟩
  | 91 => ⟨S_, .f32⟩
  | 92 => ⟨S_, .f32⟩
  | 93 => ⟨S_, .f32⟩
  | 94 => ⟨S32768x1, .f32⟩
  | 95 => ⟨S32768x1, .f32⟩
  | 96 => ⟨S_, .f32⟩
  | 97 => ⟨S32768x1, .f32⟩
  | 98 => ⟨S32768x1, .f32⟩
  | 99 => ⟨S_, .f32⟩
  | 100 => ⟨S_, .f32⟩
  | 101 => ⟨S_, .f32⟩
  | 102 => ⟨S32768x1, .f32⟩
  | 103 => ⟨S32768x1, .f32⟩
  | 104 => ⟨S_, .f32⟩
  | 105 => ⟨S32768x1, .f32⟩
  | 106 => ⟨S32768x1, .f32⟩
  | 107 => ⟨S32768x1, .f32⟩
  | 108 => ⟨S32768x1, .f32⟩
  | 109 => ⟨S32768x1, .f32⟩
  | 110 => ⟨S32768x1, .f32⟩
  | 111 => ⟨S32768x1, .f32⟩
  | 112 => ⟨S32768x1, .f32⟩
  | 113 => ⟨S32768x1, .f32⟩
  | 114 => ⟨S_, .f32⟩
  | 115 => ⟨S32768x1, .f32⟩
  | 116 => ⟨S32768x1, .i1⟩
  | 117 => ⟨S32768x1, .f32⟩
  | 118 => ⟨S_, .f32⟩
  | 119 => ⟨S32768x1, .f32⟩
  | 120 => ⟨S32768x1, .f32⟩
  | 121 => ⟨S_, .f32⟩
  | 122 => ⟨S32768x1, .f32⟩
  | 123 => ⟨S32768x1, .f32⟩
  | 124 => ⟨S32768x1, .f32⟩
  | 125 => ⟨S32768x1, .f32⟩
  | 126 => ⟨S_, .f32⟩
  | 127 => ⟨S32768x1, .f32⟩
  | _ => ⟨S32768x256, .f32⟩

abbrev hbmTy0_68 (i : Nat) : BufTy := match i % 128 with
  | 0 => ⟨S32768x1, .i1⟩
  | 1 => ⟨S32768x1, .f32⟩
  | 2 => ⟨S32768x1, .i1⟩
  | 3 => ⟨S32768x1, .f32⟩
  | 4 => ⟨S32768x2, .f32⟩
  | 5 => ⟨S32768x2, .f32⟩
  | 6 => ⟨S_, .f32⟩
  | 7 => ⟨S32768x2, .f32⟩
  | 8 => ⟨S32768x2, .f32⟩
  | 9 => ⟨S_, .f32⟩
  | 10 => ⟨S32768x2, .f32⟩
  | 11 => ⟨S32768x2, .f32⟩
  | 12 => ⟨S32768x2, .f32⟩
  | 13 => ⟨S32768x2, .f32⟩
  | 14 => ⟨S32768x1, .f32⟩
  | 15 => ⟨S32768x1, .f32⟩
  | 16 => ⟨S_, .f32⟩
  | 17 => ⟨S_, .f32⟩
  | 18 => ⟨S_, .f32⟩
  | 19 => ⟨S32768x1, .f32⟩
  | 20 => ⟨S32768x1, .f32⟩
  | 21 => ⟨S_, .f32⟩
  | 22 => ⟨S32768x1, .f32⟩
  | 23 => ⟨S32768x1, .f32⟩
  | 24 => ⟨S_, .f32⟩
  | 25 => ⟨S_, .f32⟩
  | 26 => ⟨S_, .f32⟩
  | 27 => ⟨S32768x1, .f32⟩
  | 28 => ⟨S32768x1, .f32⟩
  | 29 => ⟨S_, .f32⟩
  | 30 => ⟨S32768x1, .f32⟩
  | 31 => ⟨S32768x1, .f32⟩
  | 32 => ⟨S32768x1, .f32⟩
  | 33 => ⟨S32768x1, .f32⟩
  | 34 => ⟨S32768x1, .f32⟩
  | 35 => ⟨S32768x1, .f32⟩
  | 36 => ⟨S32768x1, .f32⟩
  | 37 => ⟨S32768x1, .f32⟩
  | 38 => ⟨S32768x1, .f32⟩
  | 39 => ⟨S_, .f32⟩
  | 40 => ⟨S32768x1, .f32⟩
  | 41 => ⟨S32768x1, .i1⟩
  | 42 => ⟨S32768x1, .f32⟩
  | 43 => ⟨S_, .f32⟩
  | 44 => ⟨S32768x1, .f32⟩
  | 45 => ⟨S32768x1, .f32⟩
  | 46 => ⟨S_, .f32⟩
  | 47 => ⟨S32768x1, .f32⟩
  | 48 => ⟨S32768x1, .f32⟩
  | 49 => ⟨S32768x1, .f32⟩
  | 50 => ⟨S32768x1, .f32⟩
  | 51 => ⟨S_, .f32⟩
  | 52 => ⟨S32768x1, .f32⟩
  | 53 => ⟨S32768x1, .i1⟩
  | 54 => ⟨S32768x1, .f32⟩
  | 55 => ⟨S32768x1, .i1⟩
  | 56 => ⟨S32768x1, .f32⟩
  | 57 => ⟨S32768x2, .f32⟩
  | 58 => ⟨S32768x2, .f32⟩
  | 59 => ⟨S32768x2, .i1⟩
  | 60 => ⟨S32768x2, .f32⟩
  | 61 => ⟨S32768x4, .f32⟩
  | 62 => ⟨S32768x4, .f32⟩
  | 63 => ⟨S_, .f32⟩
  | 64 => ⟨S32768x4, .f32⟩
  | 65 => ⟨S32768x4, .f32⟩
  | 66 => ⟨S_, .f32⟩
  | 67 => ⟨S32768x4, .f32⟩
  | 68 => ⟨S32768x4, .f32⟩
  | 69 => ⟨S32768x4, .f32⟩
  | 70 => ⟨S32768x4, .f32⟩
  | 71 => ⟨S32768x2, .f32⟩
  | 72 => ⟨S32768x2, .f32⟩
  | 73 => ⟨S_, .f32⟩
  | 74 => ⟨S_, .f32⟩
  | 75 => ⟨S_, .f32⟩
  | 76 => ⟨S32768x2, .f32⟩
  | 77 => ⟨S32768x2, .f32⟩
  | 78 => ⟨S_, .f32⟩
  | 79 => ⟨S32768x2, .f32⟩
  | 80 => ⟨S32768x2, .f32⟩
  | 81 => ⟨S_, .f32⟩
  | 82 => ⟨S_, .f32⟩
  | 83 => ⟨S_, .f32⟩
  | 84 => ⟨S32768x2, .f32⟩
  | 85 => ⟨S32768x2, .f32⟩
  | 86 => ⟨S_, .f32⟩
  | 87 => ⟨S32768x2, .f32⟩
  | 88 => ⟨S32768x2, .f32⟩
  | 89 => ⟨S32768x2, .f32⟩
  | 90 => ⟨S32768x2, .f32⟩
  | 91 => ⟨S32768x2, .f32⟩
  | 92 => ⟨S32768x2, .f32⟩
  | 93 => ⟨S32768x2, .f32⟩
  | 94 => ⟨S32768x2, .f32⟩
  | 95 => ⟨S32768x2, .f32⟩
  | 96 => ⟨S32768x1, .f32⟩
  | 97 => ⟨S32768x1, .f32⟩
  | 98 => ⟨S_, .f32⟩
  | 99 => ⟨S_, .f32⟩
  | 100 => ⟨S_, .f32⟩
  | 101 => ⟨S32768x1, .f32⟩
  | 102 => ⟨S32768x1, .f32⟩
  | 103 => ⟨S_, .f32⟩
  | 104 => ⟨S32768x1, .f32⟩
  | 105 => ⟨S32768x1, .f32⟩
  | 106 => ⟨S_, .f32⟩
  | 107 => ⟨S_, .f32⟩
  | 108 => ⟨S_, .f32⟩
  | 109 => ⟨S32768x1, .f32⟩
  | 110 => ⟨S32768x1, .f32⟩
  | 111 => ⟨S_, .f32⟩
  | 112 => ⟨S32768x1, .f32⟩
  | 113 => ⟨S32768x1, .f32⟩
  | 114 => ⟨S32768x1, .f32⟩
  | 115 => ⟨S32768x1, .f32⟩
  | 116 => ⟨S32768x1, .f32⟩
  | 117 => ⟨S32768x1, .f32⟩
  | 118 => ⟨S32768x1, .f32⟩
  | 119 => ⟨S32768x1, .f32⟩
  | 120 => ⟨S32768x1, .f32⟩
  | 121 => ⟨S_, .f32⟩
  | 122 => ⟨S32768x1, .f32⟩
  | 123 => ⟨S32768x1, .i1⟩
  | 124 => ⟨S32768x1, .f32⟩
  | 125 => ⟨S_, .f32⟩
  | 126 => ⟨S32768x1, .f32⟩
  | 127 => ⟨S32768x1, .f32⟩
  | _ => ⟨S32768x256, .f32⟩

abbrev hbmTy0_69 (i : Nat) : BufTy := match i % 128 with
  | 0 => ⟨S_, .f32⟩
  | 1 => ⟨S32768x1, .f32⟩
  | 2 => ⟨S32768x1, .f32⟩
  | 3 => ⟨S32768x1, .f32⟩
  | 4 => ⟨S32768x1, .f32⟩
  | 5 => ⟨S_, .f32⟩
  | 6 => ⟨S32768x1, .f32⟩
  | 7 => ⟨S32768x1, .i1⟩
  | 8 => ⟨S32768x1, .f32⟩
  | 9 => ⟨S32768x1, .i1⟩
  | 10 => ⟨S32768x1, .f32⟩
  | 11 => ⟨S32768x2, .f32⟩
  | 12 => ⟨S32768x2, .f32⟩
  | 13 => ⟨S_, .f32⟩
  | 14 => ⟨S32768x2, .f32⟩
  | 15 => ⟨S32768x2, .f32⟩
  | 16 => ⟨S_, .f32⟩
  | 17 => ⟨S32768x2, .f32⟩
  | 18 => ⟨S32768x2, .f32⟩
  | 19 => ⟨S32768x2, .f32⟩
  | 20 => ⟨S32768x2, .f32⟩
  | 21 => ⟨S32768x1, .f32⟩
  | 22 => ⟨S32768x1, .f32⟩
  | 23 => ⟨S_, .f32⟩
  | 24 => ⟨S_, .f32⟩
  | 25 => ⟨S_, .f32⟩
  | 26 => ⟨S32768x1, .f32⟩
  | 27 => ⟨S32768x1, .f32⟩
  | 28 => ⟨S_, .f32⟩
  | 29 => ⟨S32768x1, .f32⟩
  | 30 => ⟨S32768x1, .f32⟩
  | 31 => ⟨S_, .f32⟩
  | 32 => ⟨S_, .f32⟩
  | 33 => ⟨S_, .f32⟩
  | 34 => ⟨S32768x1, .f32⟩
  | 35 => ⟨S32768x1, .f32⟩
  | 36 => ⟨S_, .f32⟩
  | 37 => ⟨S32768x1, .f32⟩
  | 38 => ⟨S32768x1, .f32⟩
  | 39 => ⟨S32768x1, .f32⟩
  | 40 => ⟨S32768x1, .f32⟩
  | 41 => ⟨S32768x1, .f32⟩
  | 42 => ⟨S32768x1, .f32⟩
  | 43 => ⟨S32768x1, .f32⟩
  | 44 => ⟨S32768x1, .f32⟩
  | 45 => ⟨S32768x1, .f32⟩
  | 46 => ⟨S_, .f32⟩
  | 47 => ⟨S32768x1, .f32⟩
  | 48 => ⟨S32768x1, .i1⟩
  | 49 => ⟨S32768x1, .f32⟩
  | 50 => ⟨S_, .f32⟩
  | 51 => ⟨S32768x1, .f32⟩
  | 52 => ⟨S32768x1, .f32⟩
  | 53 => ⟨S_, .f32⟩
  | 54 => ⟨S32768x1, .f32⟩
  | 55 => ⟨S32768x1, .f32⟩
  | 56 => ⟨S32768x1, .f32⟩
  | 57 => ⟨S32768x1, .f32⟩
  | 58 => ⟨S_, .f32⟩
  | 59 => ⟨S32768x1, .f32⟩
  | 60 => ⟨S32768x1, .i1⟩
  | 61 => ⟨S32768x1, .f32⟩
  | 62 => ⟨S32768x1, .i1⟩
  | 63 => ⟨S32768x1, .f32⟩
  | 64 => ⟨S32768x2, .f32⟩
  | 65 => ⟨S32768x2, .f32⟩
  | 66 => ⟨S32768x2, .i1⟩
  | 67 => ⟨S32768x2, .f32⟩
  | 68 => ⟨S32768x4, .f32⟩
  | 69 => ⟨S32768x4, .f32⟩
  | 70 => ⟨S32768x4, .i1⟩
  | 71 => ⟨S32768x4, .f32⟩
  | 72 => ⟨S32768x8, .f32⟩
  | 73 => ⟨S32768x8, .f32⟩
  | 74 => ⟨S32768x8, .i1⟩
  | 75 => ⟨S32768x8, .f32⟩
  | 76 => ⟨S32768x16, .f32⟩
  | 77 => ⟨S32768x16, .f32⟩
  | 78 => ⟨S32768x16, .i1⟩
  | 79 => ⟨S32768x16, .f32⟩
  | 80 => ⟨S32768x32, .f32⟩
  | 81 => ⟨S32768x32, .f32⟩
  | 82 => ⟨S_, .f32⟩
  | 83 => ⟨S32768x32, .f32⟩
  | 84 => ⟨S32768x32, .f32⟩
  | 85 => ⟨S_, .f32⟩
  | 86 => ⟨S32768x32, .f32⟩
  | 87 => ⟨S32768x32, .f32⟩
  | 88 => ⟨S32768x32, .f32⟩
  | 89 => ⟨S32768x32, .f32⟩
  | 90 => ⟨S32768x16, .f32⟩
  | 91 => ⟨S32768x16, .f32⟩
  | 92 => ⟨S_, .f32⟩
  | 93 => ⟨S_, .f32⟩
  | 94 => ⟨S_, .f32⟩
  | 95 => ⟨S32768x16, .f32⟩
  | 96 => ⟨S32768x16, .f32⟩
  | 97 => ⟨S_, .f32⟩
  | 98 => ⟨S32768x16, .f32⟩
  | 99 => ⟨S32768x16, .f32⟩
  | 100 => ⟨S_, .f32⟩
  | 101 => ⟨S_, .f32⟩
  | 102 => ⟨S_, .f32⟩
  | 103 => ⟨S32768x16, .f32⟩
  | 104 => ⟨S32768x16, .f32⟩
  | 105 => ⟨S_, .f32⟩
  | 106 => ⟨S32768x16, .f32⟩
  | 107 => ⟨S32768x16, .f32⟩
  | 108 => ⟨S32768x16, .f32⟩
  | 109 => ⟨S32768x16, .f32⟩
  | 110 => ⟨S32768x16, .f32⟩
  | 111 => ⟨S32768x16, .f32⟩
  | 112 => ⟨S32768x16, .f32⟩
  | 113 => ⟨S32768x16, .f32⟩
  | 114 => ⟨S32768x16, .f32⟩
  | 115 => ⟨S32768x8, .f32⟩
  | 116 => ⟨S32768x8, .f32⟩
  | 117 => ⟨S_, .f32⟩
  | 118 => ⟨S_, .f32⟩
  | 119 => ⟨S_, .f32⟩
  | 120 => ⟨S32768x8, .f32⟩
  | 121 => ⟨S32768x8, .f32⟩
  | 122 => ⟨S_, .f32⟩
  | 123 => ⟨S32768x8, .f32⟩
  | 124 => ⟨S32768x8, .f32⟩
  | 125 => ⟨S_, .f32⟩
  | 126 => ⟨S_, .f32⟩
  | 127 => ⟨S_, .f32⟩
  | _ => ⟨S32768x256, .f32⟩

abbrev hbmTy0_70 (i : Nat) : BufTy := match i % 128 with
  | 0 => ⟨S32768x8, .f32⟩
  | 1 => ⟨S32768x8, .f32⟩
  | 2 => ⟨S_, .f32⟩
  | 3 => ⟨S32768x8, .f32⟩
  | 4 => ⟨S32768x8, .f32⟩
  | 5 => ⟨S32768x8, .f32⟩
  | 6 => ⟨S32768x8, .f32⟩
  | 7 => ⟨S32768x8, .f32⟩
  | 8 => ⟨S32768x8, .f32⟩
  | 9 => ⟨S32768x8, .f32⟩
  | 10 => ⟨S32768x8, .f32⟩
  | 11 => ⟨S32768x8, .f32⟩
  | 12 => ⟨S32768x4, .f32⟩
  | 13 => ⟨S32768x4, .f32⟩
  | 14 => ⟨S_, .f32⟩
  | 15 => ⟨S_, .f32⟩
  | 16 => ⟨S_, .f32⟩
  | 17 => ⟨S32768x4, .f32⟩
  | 18 => ⟨S32768x4, .f32⟩
  | 19 => ⟨S_, .f32⟩
  | 20 => ⟨S32768x4, .f32⟩
  | 21 => ⟨S32768x4, .f32⟩
  | 22 => ⟨S_, .f32⟩
  | 23 => ⟨S_, .f32⟩
  | 24 => ⟨S_, .f32⟩
  | 25 => ⟨S32768x4, .f32⟩
  | 26 => ⟨S32768x4, .f32⟩
  | 27 => ⟨S_, .f32⟩
  | 28 => ⟨S32768x4, .f32⟩
  | 29 => ⟨S32768x4, .f32⟩
  | 30 => ⟨S32768x4, .f32⟩
  | 31 => ⟨S32768x4, .f32⟩
  | 32 => ⟨S32768x4, .f32⟩
  | 33 => ⟨S32768x4, .f32⟩
  | 34 => ⟨S32768x4, .f32⟩
  | 35 => ⟨S32768x4, .f32⟩
  | 36 => ⟨S32768x4, .f32⟩
  | 37 => ⟨S32768x2, .f32⟩
  | 38 => ⟨S32768x2, .f32⟩
  | 39 => ⟨S_, .f32⟩
  | 40 => ⟨S_, .f32⟩
  | 41 => ⟨S_, .f32⟩
  | 42 => ⟨S32768x2, .f32⟩
  | 43 => ⟨S32768x2, .f32⟩
  | 44 => ⟨S_, .f32⟩
  | 45 => ⟨S32768x2, .f32⟩
  | 46 => ⟨S32768x2, .f32⟩
  | 47 => ⟨S_, .f32⟩
  | 48 => ⟨S_, .f32⟩
  | 49 => ⟨S_, .f32⟩
  | 50 => ⟨S32768x2, .f32⟩
  | 51 => ⟨S32768x2, .f32⟩
  | 52 => ⟨S_, .f32⟩
  | 53 => ⟨S32768x2, .f32⟩
  | 54 => ⟨S32768x2, .f32⟩
  | 55 => ⟨S32768x2, .f32⟩
  | 56 => ⟨S32768x2, .f32⟩
  | 57 => ⟨S32768x2, .f32⟩
  | 58 => ⟨S32768x2, .f32⟩
  | 59 => ⟨S32768x2, .f32⟩
  | 60 => ⟨S32768x2, .f32⟩
  | 61 => ⟨S32768x2, .f32⟩
  | 62 => ⟨S32768x1, .f32⟩
  | 63 => ⟨S32768x1, .f32⟩
  | 64 => ⟨S_, .f32⟩
  | 65 => ⟨S_, .f32⟩
  | 66 => ⟨S_, .f32⟩
  | 67 => ⟨S32768x1, .f32⟩
  | 68 => ⟨S32768x1, .f32⟩
  | 69 => ⟨S_, .f32⟩
  | 70 => ⟨S32768x1, .f32⟩
  | 71 => ⟨S32768x1, .f32⟩
  | 72 => ⟨S_, .f32⟩
  | 73 => ⟨S_, .f32⟩
  | 74 => ⟨S_, .f32⟩
  | 75 => ⟨S32768x1, .f32⟩
  | 76 => ⟨S32768x1, .f32⟩
  | 77 => ⟨S_, .f32⟩
  | 78 => ⟨S32768x1, .f32⟩
  | 79 => ⟨S32768x1, .f32⟩
  | 80 => ⟨S32768x1, .f32⟩
  | 81 => ⟨S32768x1, .f32⟩
  | 82 => ⟨S32768x1, .f32⟩
  | 83 => ⟨S32768x1, .f32⟩
  | 84 => ⟨S32768x1, .f32⟩
  | 85 => ⟨S32768x1, .f32⟩
  | 86 => ⟨S32768x1, .f32⟩
  | 87 => ⟨S_, .f32⟩
  | 88 => ⟨S32768x1, .f32⟩
  | 89 => ⟨S32768x1, .i1⟩
  | 90 => ⟨S32768x1, .f32⟩
  | 91 => ⟨S_, .f32⟩
  | 92 => ⟨S32768x1, .f32⟩
  | 93 => ⟨S32768x1, .f32⟩
  | 94 => ⟨S_, .f32⟩
  | 95 => ⟨S32768x1, .f32⟩
  | 96 => ⟨S32768x1, .f32⟩
  | 97 => ⟨S32768x1, .f32⟩
  | 98 => ⟨S32768x1, .f32⟩
  | 99 => ⟨S_, .f32⟩
  | 100 => ⟨S32768x1, .f32⟩
  | 101 => ⟨S32768x1, .i1⟩
  | 102 => ⟨S32768x1, .f32⟩
  | 103 => ⟨S32768x1, .i1⟩
  | 104 => ⟨S32768x1, .f32⟩
  | 105 => ⟨S32768x2, .f32⟩
  | 106 => ⟨S32768x2, .f32⟩
  | 107 => ⟨S_, .f32⟩
  | 108 => ⟨S32768x2, .f32⟩
  | 109 => ⟨S32768x2, .f32⟩
  | 110 => ⟨S_, .f32⟩
  | 111 => ⟨S32768x2, .f32⟩
  | 112 => ⟨S32768x2, .f32⟩
  | 113 => ⟨S32768x2, .f32⟩
  | 114 => ⟨S32768x2, .f32⟩
  | 115 => ⟨S32768x1, .f32⟩
  | 116 => ⟨S32768x1, .f32⟩
  | 117 => ⟨S_, .f32⟩
  | 118 => ⟨S_, .f32⟩
  | 119 => ⟨S_, .f32⟩
  | 120 => ⟨S32768x1, .f32⟩
  | 121 => ⟨S32768x1, .f32⟩
  | 122 => ⟨S_, .f32⟩
  | 123 => ⟨S32768x1, .f32⟩
  | 124 => ⟨S32768x1, .f32⟩
  | 125 => ⟨S_, .f32⟩
  | 126 => ⟨S_, .f32⟩
  | 127 => ⟨S_, .f32⟩
  | _ => ⟨S32768x256, .f32⟩

abbrev hbmTy0_71 (i : Nat) : BufTy := match i % 128 with
  | 0 => ⟨S32768x1, .f32⟩
  | 1 => ⟨S32768x1, .f32⟩
  | 2 => ⟨S_, .f32⟩
  | 3 => ⟨S32768x1, .f32⟩
  | 4 => ⟨S32768x1, .f32⟩
  | 5 => ⟨S32768x1, .f32⟩
  | 6 => ⟨S32768x1, .f32⟩
  | 7 => ⟨S32768x1, .f32⟩
  | 8 => ⟨S32768x1, .f32⟩
  | 9 => ⟨S32768x1, .f32⟩
  | 10 => ⟨S32768x1, .f32⟩
  | 11 => ⟨S32768x1, .f32⟩
  | 12 => ⟨S_, .f32⟩
  | 13 => ⟨S32768x1, .f32⟩
  | 14 => ⟨S32768x1, .i1⟩
  | 15 => ⟨S32768x1, .f32⟩
  | 16 => ⟨S_, .f32⟩
  | 17 => ⟨S32768x1, .f32⟩
  | 18 => ⟨S32768x1, .f32⟩
  | 19 => ⟨S_, .f32⟩
  | 20 => ⟨S32768x1, .f32⟩
  | 21 => ⟨S32768x1, .f32⟩
  | 22 => ⟨S32768x1, .f32⟩
  | 23 => ⟨S32768x1, .f32⟩
  | 24 => ⟨S_, .f32⟩
  | 25 => ⟨S32768x1, .f32⟩
  | 26 => ⟨S32768x1, .i1⟩
  | 27 => ⟨S32768x1, .f32⟩
  | 28 => ⟨S32768x1, .i1⟩
  | 29 => ⟨S32768x1, .f32⟩
  | 30 => ⟨S32768x2, .f32⟩
  | 31 => ⟨S32768x2, .f32⟩
  | 32 => ⟨S32768x2, .i1⟩
  | 33 => ⟨S32768x2, .f32⟩
  | 34 => ⟨S32768x4, .f32⟩
  | 35 => ⟨S32768x4, .f32⟩
  | 36 => ⟨S_, .f32⟩
  | 37 => ⟨S32768x4, .f32⟩
  | 38 => ⟨S32768x4, .f32⟩
  | 39 => ⟨S_, .f32⟩
  | 40 => ⟨S32768x4, .f32⟩
  | 41 => ⟨S32768x4, .f32⟩
  | 42 => ⟨S32768x4, .f32⟩
  | 43 => ⟨S32768x4, .f32⟩
  | 44 => ⟨S32768x2, .f32⟩
  | 45 => ⟨S32768x2, .f32⟩
  | 46 => ⟨S_, .f32⟩
  | 47 => ⟨S_, .f32⟩
  | 48 => ⟨S_, .f32⟩
  | 49 => ⟨S32768x2, .f32⟩
  | 50 => ⟨S32768x2, .f32⟩
  | 51 => ⟨S_, .f32⟩
  | 52 => ⟨S32768x2, .f32⟩
  | 53 => ⟨S32768x2, .f32⟩
  | 54 => ⟨S_, .f32⟩
  | 55 => ⟨S_, .f32⟩
  | 56 => ⟨S_, .f32⟩
  | 57 => ⟨S32768x2, .f32⟩
  | 58 => ⟨S32768x2, .f32⟩
  | 59 => ⟨S_, .f32⟩
  | 60 => ⟨S32768x2, .f32⟩
  | 61 => ⟨S32768x2, .f32⟩
  | 62 => ⟨S32768x2, .f32⟩
  | 63 => ⟨S32768x2, .f32⟩
  | 64 => ⟨S32768x2, .f32⟩
  | 65 => ⟨S32768x2, .f32⟩
  | 66 => ⟨S32768x2, .f32⟩
  | 67 => ⟨S32768x2, .f32⟩
  | 68 => ⟨S32768x2, .f32⟩
  | 69 => ⟨S32768x1, .f32⟩
  | 70 => ⟨S32768x1, .f32⟩
  | 71 => ⟨S_, .f32⟩
  | 72 => ⟨S_, .f32⟩
  | 73 => ⟨S_, .f32⟩
  | 74 => ⟨S32768x1, .f32⟩
  | 75 => ⟨S32768x1, .f32⟩
  | 76 => ⟨S_, .f32⟩
  | 77 => ⟨S32768x1, .f32⟩
  | 78 => ⟨S32768x1, .f32⟩
  | 79 => ⟨S_, .f32⟩
  | 80 => ⟨S_, .f32⟩
  | 81 => ⟨S_, .f32⟩
  | 82 => ⟨S32768x1, .f32⟩
  | 83 => ⟨S32768x1, .f32⟩
  | 84 => ⟨S_, .f32⟩
  | 85 => ⟨S32768x1, .f32⟩
  | 86 => ⟨S32768x1, .f32⟩
  | 87 => ⟨S32768x1, .f32⟩
  | 88 => ⟨S32768x1, .f32⟩
  | 89 => ⟨S32768x1, .f32⟩
  | 90 => ⟨S32768x1, .f32⟩
  | 91 => ⟨S32768x1, .f32⟩
  | 92 => ⟨S32768x1, .f32⟩
  | 93 => ⟨S32768x1, .f32⟩
  | 94 => ⟨S_, .f32⟩
  | 95 => ⟨S32768x1, .f32⟩
  | 96 => ⟨S32768x1, .i1⟩
  | 97 => ⟨S32768x1, .f32⟩
  | 98 => ⟨S_, .f32⟩
  | 99 => ⟨S32768x1, .f32⟩
  | 100 => ⟨S32768x1, .f32⟩
  | 101 => ⟨S_, .f32⟩
  | 102 => ⟨S32768x1, .f32⟩
  | 103 => ⟨S32768x1, .f32⟩
  | 104 => ⟨S32768x1, .f32⟩
  | 105 => ⟨S32768x1, .f32⟩
  | 106 => ⟨S_, .f32⟩
  | 107 => ⟨S32768x1, .f32⟩
  | 108 => ⟨S32768x1, .i1⟩
  | 109 => ⟨S32768x1, .f32⟩
  | 110 => ⟨S32768x1, .i1⟩
  | 111 => ⟨S32768x1, .f32⟩
  | 112 => ⟨S32768x2, .f32⟩
  | 113 => ⟨S32768x2, .f32⟩
  | 114 => ⟨S_, .f32⟩
  | 115 => ⟨S32768x2, .f32⟩
  | 116 => ⟨S32768x2, .f32⟩
  | 117 => ⟨S_, .f32⟩
  | 118 => ⟨S32768x2, .f32⟩
  | 119 => ⟨S32768x2, .f32⟩
  | 120 => ⟨S32768x2, .f32⟩
  | 121 => ⟨S32768x2, .f32⟩
  | 122 => ⟨S32768x1, .f32⟩
  | 123 => ⟨S32768x1, .f32⟩
  | 124 => ⟨S_, .f32⟩
  | 125 => ⟨S_, .f32⟩
  | 126 => ⟨S_, .f32⟩
  | 127 => ⟨S32768x1, .f32⟩
  | _ => ⟨S32768x256, .f32⟩

abbrev hbmTy0_72 (i : Nat) : BufTy := match i % 128 with
  | 0 => ⟨S32768x1, .f32⟩
  | 1 => ⟨S_, .f32⟩
  | 2 => ⟨S32768x1, .f32⟩
  | 3 => ⟨S32768x1, .f32⟩
  | 4 => ⟨S_, .f32⟩
  | 5 => ⟨S_, .f32⟩
  | 6 => ⟨S_, .f32⟩
  | 7 => ⟨S32768x1, .f32⟩
  | 8 => ⟨S32768x1, .f32⟩
  | 9 => ⟨S_, .f32⟩
  | 10 => ⟨S32768x1, .f32⟩
  | 11 => ⟨S32768x1, .f32⟩
  | 12 => ⟨S32768x1, .f32⟩
  | 13 => ⟨S32768x1, .f32⟩
  | 14 => ⟨S32768x1, .f32⟩
  | 15 => ⟨S32768x1, .f32⟩
  | 16 => ⟨S32768x1, .f32⟩
  | 17 => ⟨S32768x1, .f32⟩
  | 18 => ⟨S32768x1, .f32⟩
  | 19 => ⟨S_, .f32⟩
  | 20 => ⟨S32768x1, .f32⟩
  | 21 => ⟨S32768x1, .i1⟩
  | 22 => ⟨S32768x1, .f32⟩
  | 23 => ⟨S_, .f32⟩
  | 24 => ⟨S32768x1, .f32⟩
  | 25 => ⟨S32768x1, .f32⟩
  | 26 => ⟨S_, .f32⟩
  | 27 => ⟨S32768x1, .f32⟩
  | 28 => ⟨S32768x1, .f32⟩
  | 29 => ⟨S32768x1, .f32⟩
  | 30 => ⟨S32768x1, .f32⟩
  | 31 => ⟨S_, .f32⟩
  | 32 => ⟨S32768x1, .f32⟩
  | 33 => ⟨S32768x1, .i1⟩
  | 34 => ⟨S32768x1, .f32⟩
  | 35 => ⟨S32768x1, .i1⟩
  | 36 => ⟨S32768x1, .f32⟩
  | 37 => ⟨S32768x2, .f32⟩
  | 38 => ⟨S32768x2, .f32⟩
  | 39 => ⟨S32768x2, .i1⟩
  | 40 => ⟨S32768x2, .f32⟩
  | 41 => ⟨S32768x4, .f32⟩
  | 42 => ⟨S32768x4, .f32⟩
  | 43 => ⟨S32768x4, .i1⟩
  | 44 => ⟨S32768x4, .f32⟩
  | 45 => ⟨S32768x8, .f32⟩
  | 46 => ⟨S32768x8, .f32⟩
  | 47 => ⟨S_, .f32⟩
  | 48 => ⟨S32768x8, .f32⟩
  | 49 => ⟨S32768x8, .f32⟩
  | 50 => ⟨S_, .f32⟩
  | 51 => ⟨S32768x8, .f32⟩
  | 52 => ⟨S32768x8, .f32⟩
  | 53 => ⟨S32768x8, .f32⟩
  | 54 => ⟨S32768x8, .f32⟩
  | 55 => ⟨S32768x4, .f32⟩
  | 56 => ⟨S32768x4, .f32⟩
  | 57 => ⟨S_, .f32⟩
  | 58 => ⟨S_, .f32⟩
  | 59 => ⟨S_, .f32⟩
  | 60 => ⟨S32768x4, .f32⟩
  | 61 => ⟨S32768x4, .f32⟩
  | 62 => ⟨S_, .f32⟩
  | 63 => ⟨S32768x4, .f32⟩
  | 64 => ⟨S32768x4, .f32⟩
  | 65 => ⟨S_, .f32⟩
  | 66 => ⟨S_, .f32⟩
  | 67 => ⟨S_, .f32⟩
  | 68 => ⟨S32768x4, .f32⟩
  | 69 => ⟨S32768x4, .f32⟩
  | 70 => ⟨S_, .f32⟩
  | 71 => ⟨S32768x4, .f32⟩
  | 72 => ⟨S32768x4, .f32⟩
  | 73 => ⟨S32768x4, .f32⟩
  | 74 => ⟨S32768x4, .f32⟩
  | 75 => ⟨S32768x4, .f32⟩
  | 76 => ⟨S32768x4, .f32⟩
  | 77 => ⟨S32768x4, .f32⟩
  | 78 => ⟨S32768x4, .f32⟩
  | 79 => ⟨S32768x4, .f32⟩
  | 80 => ⟨S32768x2, .f32⟩
  | 81 => ⟨S32768x2, .f32⟩
  | 82 => ⟨S_, .f32⟩
  | 83 => ⟨S_, .f32⟩
  | 84 => ⟨S_, .f32⟩
  | 85 => ⟨S32768x2, .f32⟩
  | 86 => ⟨S32768x2, .f32⟩
  | 87 => ⟨S_, .f32⟩
  | 88 => ⟨S32768x2, .f32⟩
  | 89 => ⟨S32768x2, .f32⟩
  | 90 => ⟨S_, .f32⟩
  | 91 => ⟨S_, .f32⟩
  | 92 => ⟨S_, .f32⟩
  | 93 => ⟨S32768x2, .f32⟩
  | 94 => ⟨S32768x2, .f32⟩
  | 95 => ⟨S_, .f32⟩
  | 96 => ⟨S32768x2, .f32⟩
  | 97 => ⟨S32768x2, .f32⟩
  | 98 => ⟨S32768x2, .f32⟩
  | 99 => ⟨S32768x2, .f32⟩
  | 100 => ⟨S32768x2, .f32⟩
  | 101 => ⟨S32768x2, .f32⟩
  | 102 => ⟨S32768x2, .f32⟩
  | 103 => ⟨S32768x2, .f32⟩
  | 104 => ⟨S32768x2, .f32⟩
  | 105 => ⟨S32768x1, .f32⟩
  | 106 => ⟨S32768x1, .f32⟩
  | 107 => ⟨S_, .f32⟩
  | 108 => ⟨S_, .f32⟩
  | 109 => ⟨S_, .f32⟩
  | 110 => ⟨S32768x1, .f32⟩
  | 111 => ⟨S32768x1, .f32⟩
  | 112 => ⟨S_, .f32⟩
  | 113 => ⟨S32768x1, .f32⟩
  | 114 => ⟨S32768x1, .f32⟩
  | 115 => ⟨S_, .f32⟩
  | 116 => ⟨S_, .f32⟩
  | 117 => ⟨S_, .f32⟩
  | 118 => ⟨S32768x1, .f32⟩
  | 119 => ⟨S32768x1, .f32⟩
  | 120 => ⟨S_, .f32⟩
  | 121 => ⟨S32768x1, .f32⟩
  | 122 => ⟨S32768x1, .f32⟩
  | 123 => ⟨S32768x1, .f32⟩
  | 124 => ⟨S32768x1, .f32⟩
  | 125 => ⟨S32768x1, .f32⟩
  | 126 => ⟨S32768x1, .f32⟩
  | 127 => ⟨S32768x1, .f32⟩
  | _ => ⟨S32768x256, .f32⟩

abbrev hbmTy0_73 (i : Nat) : BufTy := match i % 128 with
  | 0 => ⟨S32768x1, .f32⟩
  | 1 => ⟨S32768x1, .f32⟩
  | 2 => ⟨S_, .f32⟩
  | 3 => ⟨S32768x1, .f32⟩
  | 4 => ⟨S32768x1, .i1⟩
  | 5 => ⟨S32768x1, .f32⟩
  | 6 => ⟨S_, .f32⟩
  | 7 => ⟨S32768x1, .f32⟩
  | 8 => ⟨S32768x1, .f32⟩
  | 9 => ⟨S_, .f32⟩
  | 10 => ⟨S32768x1, .f32⟩
  | 11 => ⟨S32768x1, .f32⟩
  | 12 => ⟨S32768x1, .f32⟩
  | 13 => ⟨S32768x1, .f32⟩
  | 14 => ⟨S_, .f32⟩
  | 15 => ⟨S32768x1, .f32⟩
  | 16 => ⟨S32768x1, .i1⟩
  | 17 => ⟨S32768x1, .f32⟩
  | 18 => ⟨S32768x1, .i1⟩
  | 19 => ⟨S32768x1, .f32⟩
  | 20 => ⟨S32768x2, .f32⟩
  | 21 => ⟨S32768x2, .f32⟩
  | 22 => ⟨S_, .f32⟩
  | 23 => ⟨S32768x2, .f32⟩
  | 24 => ⟨S32768x2, .f32⟩
  | 25 => ⟨S_, .f32⟩
  | 26 => ⟨S32768x2, .f32⟩
  | 27 => ⟨S32768x2, .f32⟩
  | 28 => ⟨S32768x2, .f32⟩
  | 29 => ⟨S32768x2, .f32⟩
  | 30 => ⟨S32768x1, .f32⟩
  | 31 => ⟨S32768x1, .f32⟩
  | 32 => ⟨S_, .f32⟩
  | 33 => ⟨S_, .f32⟩
  | 34 => ⟨S_, .f32⟩
  | 35 => ⟨S32768x1, .f32⟩
  | 36 => ⟨S32768x1, .f32⟩
  | 37 => ⟨S_, .f32⟩
  | 38 => ⟨S32768x1, .f32⟩
  | 39 => ⟨S32768x1, .f32⟩
  | 40 => ⟨S_, .f32⟩
  | 41 => ⟨S_, .f32⟩
  | 42 => ⟨S_, .f32⟩
  | 43 => ⟨S32768x1, .f32⟩
  | 44 => ⟨S32768x1, .f32⟩
  | 45 => ⟨S_, .f32⟩
  | 46 => ⟨S32768x1, .f32⟩
  | 47 => ⟨S32768x1, .f32⟩
  | 48 => ⟨S32768x1, .f32⟩
  | 49 => ⟨S32768x1, .f32⟩
  | 50 => ⟨S32768x1, .f32⟩
  | 51 => ⟨S32768x1, .f32⟩
  | 52 => ⟨S32768x1, .f32⟩
  | 53 => ⟨S32768x1, .f32⟩
  | 54 => ⟨S32768x1, .f32⟩
  | 55 => ⟨S_, .f32⟩
  | 56 => ⟨S32768x1, .f32⟩
  | 57 => ⟨S32768x1, .i1⟩
  | 58 => ⟨S32768x1, .f32⟩
  | 59 => ⟨S_, .f32⟩
  | 60 => ⟨S32768x1, .f32⟩
  | 61 => ⟨S32768x1, .f32⟩
  | 62 => ⟨S_, .f32⟩
  | 63 => ⟨S32768x1, .f32⟩
  | 64 => ⟨S32768x1, .f32⟩
  | 65 => ⟨S32768x1, .f32⟩
  | 66 => ⟨S32768x1, .f32⟩
  | 67 => ⟨S_, .f32⟩
  | 68 => ⟨S32768x1, .f32⟩
  | 69 => ⟨S32768x1, .i1⟩
  | 70 => ⟨S32768x1, .f32⟩
  | 71 => ⟨S32768x1, .i1⟩
  | 72 => ⟨S32768x1, .f32⟩
  | 73 => ⟨S32768x2, .f32⟩
  | 74 => ⟨S32768x2, .f32⟩
  | 75 => ⟨S32768x2, .i1⟩
  | 76 => ⟨S32768x2, .f32⟩
  | 77 => ⟨S32768x4, .f32⟩
  | 78 => ⟨S32768x4, .f32⟩
  | 79 => ⟨S_, .f32⟩
  | 80 => ⟨S32768x4, .f32⟩
  | 81 => ⟨S32768x4, .f32⟩
  | 82 => ⟨S_, .f32⟩
  | 83 => ⟨S32768x4, .f32⟩
  | 84 => ⟨S32768x4, .f32⟩
  | 85 => ⟨S32768x4, .f32⟩
  | 86 => ⟨S32768x4, .f32⟩
  | 87 => ⟨S32768x2, .f32⟩
  | 88 => ⟨S32768x2, .f32⟩
  | 89 => ⟨S_, .f32⟩
  | 90 => ⟨S_, .f32⟩
  | 91 => ⟨S_, .f32⟩
  | 92 => ⟨S32768x2, .f32⟩
  | 93 => ⟨S32768x2, .f32⟩
  | 94 => ⟨S_, .f32⟩
  | 95 => ⟨S32768x2, .f32⟩
  | 96 => ⟨S32768x2, .f32⟩
  | 97 => ⟨S_, .f32⟩
  | 98 => ⟨S_, .f32⟩
  | 99 => ⟨S_, .f32⟩
  | 100 => ⟨S32768x2, .f32⟩
  | 101 => ⟨S32768x2, .f32⟩
  | 102 => ⟨S_, .f32⟩
  | 103 => ⟨S32768x2, .f32⟩
  | 104 => ⟨S32768x2, .f32⟩
  | 105 => ⟨S32768x2, .f32⟩
  | 106 => ⟨S32768x2, .f32⟩
  | 107 => ⟨S32768x2, .f32⟩
  | 108 => ⟨S32768x2, .f32⟩
  | 109 => ⟨S32768x2, .f32⟩
  | 110 => ⟨S32768x2, .f32⟩
  | 111 => ⟨S32768x2, .f32⟩
  | 112 => ⟨S32768x1, .f32⟩
  | 113 => ⟨S32768x1, .f32⟩
  | 114 => ⟨S_, .f32⟩
  | 115 => ⟨S_, .f32⟩
  | 116 => ⟨S_, .f32⟩
  | 117 => ⟨S32768x1, .f32⟩
  | 118 => ⟨S32768x1, .f32⟩
  | 119 => ⟨S_, .f32⟩
  | 120 => ⟨S32768x1, .f32⟩
  | 121 => ⟨S32768x1, .f32⟩
  | 122 => ⟨S_, .f32⟩
  | 123 => ⟨S_, .f32⟩
  | 124 => ⟨S_, .f32⟩
  | 125 => ⟨S32768x1, .f32⟩
  | 126 => ⟨S32768x1, .f32⟩
  | 127 => ⟨S_, .f32⟩
  | _ => ⟨S32768x256, .f32⟩

abbrev hbmTy0_74 (i : Nat) : BufTy := match i % 128 with
  | 0 => ⟨S32768x1, .f32⟩
  | 1 => ⟨S32768x1, .f32⟩
  | 2 => ⟨S32768x1, .f32⟩
  | 3 => ⟨S32768x1, .f32⟩
  | 4 => ⟨S32768x1, .f32⟩
  | 5 => ⟨S32768x1, .f32⟩
  | 6 => ⟨S32768x1, .f32⟩
  | 7 => ⟨S32768x1, .f32⟩
  | 8 => ⟨S32768x1, .f32⟩
  | 9 => ⟨S_, .f32⟩
  | 10 => ⟨S32768x1, .f32⟩
  | 11 => ⟨S32768x1, .i1⟩
  | 12 => ⟨S32768x1, .f32⟩
  | 13 => ⟨S_, .f32⟩
  | 14 => ⟨S32768x1, .f32⟩
  | 15 => ⟨S32768x1, .f32⟩
  | 16 => ⟨S_, .f32⟩
  | 17 => ⟨S32768x1, .f32⟩
  | 18 => ⟨S32768x1, .f32⟩
  | 19 => ⟨S32768x1, .f32⟩
  | 20 => ⟨S32768x1, .f32⟩
  | 21 => ⟨S_, .f32⟩
  | 22 => ⟨S32768x1, .f32⟩
  | 23 => ⟨S32768x1, .i1⟩
  | 24 => ⟨S32768x1, .f32⟩
  | 25 => ⟨S32768x1, .i1⟩
  | 26 => ⟨S32768x1, .f32⟩
  | 27 => ⟨S32768x2, .f32⟩
  | 28 => ⟨S32768x2, .f32⟩
  | 29 => ⟨S_, .f32⟩
  | 30 => ⟨S32768x2, .f32⟩
  | 31 => ⟨S32768x2, .f32⟩
  | 32 => ⟨S_, .f32⟩
  | 33 => ⟨S32768x2, .f32⟩
  | 34 => ⟨S32768x2, .f32⟩
  | 35 => ⟨S32768x2, .f32⟩
  | 36 => ⟨S32768x2, .f32⟩
  | 37 => ⟨S32768x1, .f32⟩
  | 38 => ⟨S32768x1, .f32⟩
  | 39 => ⟨S_, .f32⟩
  | 40 => ⟨S_, .f32⟩
  | 41 => ⟨S_, .f32⟩
  | 42 => ⟨S32768x1, .f32⟩
  | 43 => ⟨S32768x1, .f32⟩
  | 44 => ⟨S_, .f32⟩
  | 45 => ⟨S32768x1, .f32⟩
  | 46 => ⟨S32768x1, .f32⟩
  | 47 => ⟨S_, .f32⟩
  | 48 => ⟨S_, .f32⟩
  | 49 => ⟨S_, .f32⟩
  | 50 => ⟨S32768x1, .f32⟩
  | 51 => ⟨S32768x1, .f32⟩
  | 52 => ⟨S_, .f32⟩
  | 53 => ⟨S32768x1, .f32⟩
  | 54 => ⟨S32768x1, .f32⟩
  | 55 => ⟨S32768x1, .f32⟩
  | 56 => ⟨S32768x1, .f32⟩
  | 57 => ⟨S32768x1, .f32⟩
  | 58 => ⟨S32768x1, .f32⟩
  | 59 => ⟨S32768x1, .f32⟩
  | 60 => ⟨S32768x1, .f32⟩
  | 61 => ⟨S32768x1, .f32⟩
  | 62 => ⟨S_, .f32⟩
  | 63 => ⟨S32768x1, .f32⟩
  | 64 => ⟨S32768x1, .i1⟩
  | 65 => ⟨S32768x1, .f32⟩
  | 66 => ⟨S_, .f32⟩
  | 67 => ⟨S32768x1, .f32⟩
  | 68 => ⟨S32768x1, .f32⟩
  | 69 => ⟨S_, .f32⟩
  | 70 => ⟨S32768x1, .f32⟩
  | 71 => ⟨S32768x1, .f32⟩
  | 72 => ⟨S32768x1, .f32⟩
  | 73 => ⟨S32768x1, .f32⟩
  | 74 => ⟨S_, .f32⟩
  | 75 => ⟨S32768x1, .f32⟩
  | 76 => ⟨S32768x1, .i1⟩
  | 77 => ⟨S32768x1, .f32⟩
  | 78 => ⟨S32768x1, .i1⟩
  | 79 => ⟨S32768x1, .f32⟩
  | 80 => ⟨S32768x2, .f32⟩
  | 81 => ⟨S32768x2, .f32⟩
  | 82 => ⟨S32768x2, .i1⟩
  | 83 => ⟨S32768x2, .f32⟩
  | 84 => ⟨S32768x4, .f32⟩
  | 85 => ⟨S32768x4, .f32⟩
  | 86 => ⟨S32768x4, .i1⟩
  | 87 => ⟨S32768x4, .f32⟩
  | 88 => ⟨S32768x8, .f32⟩
  | 89 => ⟨S32768x8, .f32⟩
  | 90 => ⟨S32768x8, .i1⟩
  | 91 => ⟨S32768x8, .f32⟩
  | 92 => ⟨S32768x16, .f32⟩
  | 93 => ⟨S32768x16, .f32⟩
  | 94 => ⟨S_, .f32⟩
  | 95 => ⟨S32768x16, .f32⟩
  | 96 => ⟨S32768x16, .f32⟩
  | 97 => ⟨S_, .f32⟩
  | 98 => ⟨S32768x16, .f32⟩
  | 99 => ⟨S32768x16, .f32⟩
  | 100 => ⟨S32768x16, .f32⟩
  | 101 => ⟨S32768x16, .f32⟩
  | 102 => ⟨S32768x8, .f32⟩
  | 103 => ⟨S32768x8, .f32⟩
  | 104 => ⟨S_, .f32⟩
  | 105 => ⟨S_, .f32⟩
  | 106 => ⟨S_, .f32⟩
  | 107 => ⟨S32768x8, .f32⟩
  | 108 => ⟨S32768x8, .f32⟩
  | 109 => ⟨S_, .f32⟩
  | 110 => ⟨S32768x8, .f32⟩
  | 111 => ⟨S32768x8, .f32⟩
  | 112 => ⟨S_, .f32⟩
  | 113 => ⟨S_, .f32⟩
  | 114 => ⟨S_, .f32⟩
  | 115 => ⟨S32768x8, .f32⟩
  | 116 => ⟨S32768x8, .f32⟩
  | 117 => ⟨S_, .f32⟩
  | 118 => ⟨S32768x8, .f32⟩
  | 119 => ⟨S32768x8, .f32⟩
  | 120 => ⟨S32768x8, .f32⟩
  | 121 => ⟨S32768x8, .f32⟩
  | 122 => ⟨S32768x8, .f32⟩
  | 123 => ⟨S32768x8, .f32⟩
  | 124 => ⟨S32768x8, .f32⟩
  | 125 => ⟨S32768x8, .f32⟩
  | 126 => ⟨S32768x8, .f32⟩
  | 127 => ⟨S32768x4, .f32⟩
  | _ => ⟨S32768x256, .f32⟩

abbrev hbmTy0_75 (i : Nat) : BufTy := match i % 128 with
  | 0 => ⟨S32768x4, .f32⟩
  | 1 => ⟨S_, .f32⟩
  | 2 => ⟨S_, .f32⟩
  | 3 => ⟨S_, .f32⟩
  | 4 => ⟨S32768x4, .f32⟩
  | 5 => ⟨S32768x4, .f32⟩
  | 6 => ⟨S_, .f32⟩
  | 7 => ⟨S32768x4, .f32⟩
  | 8 => ⟨S32768x4, .f32⟩
  | 9 => ⟨S_, .f32⟩
  | 10 => ⟨S_, .f32⟩
  | 11 => ⟨S_, .f32⟩
  | 12 => ⟨S32768x4, .f32⟩
  | 13 => ⟨S32768x4, .f32⟩
  | 14 => ⟨S_, .f32⟩
  | 15 => ⟨S32768x4, .f32⟩
  | 16 => ⟨S32768x4, .f32⟩
  | 17 => ⟨S32768x4, .f32⟩
  | 18 => ⟨S32768x4, .f32⟩
  | 19 => ⟨S32768x4, .f32⟩
  | 20 => ⟨S32768x4, .f32⟩
  | 21 => ⟨S32768x4, .f32⟩
  | 22 => ⟨S32768x4, .f32⟩
  | 23 => ⟨S32768x4, .f32⟩
  | 24 => ⟨S32768x2, .f32⟩
  | 25 => ⟨S32768x2, .f32⟩
  | 26 => ⟨S_, .f32⟩
  | 27 => ⟨S_, .f32⟩
  | 28 => ⟨S_, .f32⟩
  | 29 => ⟨S32768x2, .f32⟩
  | 30 => ⟨S32768x2, .f32⟩
  | 31 => ⟨S_, .f32⟩
  | 32 => ⟨S32768x2, .f32⟩
  | 33 => ⟨S32768x2, .f32⟩
  | 34 => ⟨S_, .f32⟩
  | 35 => ⟨S_, .f32⟩
  | 36 => ⟨S_, .f32⟩
  | 37 => ⟨S32768x2, .f32⟩
  | 38 => ⟨S32768x2, .f32⟩
  | 39 => ⟨S_, .f32⟩
  | 40 => ⟨S32768x2, .f32⟩
  | 41 => ⟨S32768x2, .f32⟩
  | 42 => ⟨S32768x2, .f32⟩
  | 43 => ⟨S32768x2, .f32⟩
  | 44 => ⟨S32768x2, .f32⟩
  | 45 => ⟨S32768x2, .f32⟩
  | 46 => ⟨S32768x2, .f32⟩
  | 47 => ⟨S32768x2, .f32⟩
  | 48 => ⟨S32768x2, .f32⟩
  | 49 => ⟨S32768x1, .f32⟩
  | 50 => ⟨S32768x1, .f32⟩
  | 51 => ⟨S_, .f32⟩
  | 52 => ⟨S_, .f32⟩
  | 53 => ⟨S_, .f32⟩
  | 54 => ⟨S32768x1, .f32⟩
  | 55 => ⟨S32768x1, .f32⟩
  | 56 => ⟨S_, .f32⟩
  | 57 => ⟨S32768x1, .f32⟩
  | 58 => ⟨S32768x1, .f32⟩
  | 59 => ⟨S_, .f32⟩
  | 60 => ⟨S_, .f32⟩
  | 61 => ⟨S_, .f32⟩
  | 62 => ⟨S32768x1, .f32⟩
  | 63 => ⟨S32768x1, .f32⟩
  | 64 => ⟨S_, .f32⟩
  | 65 => ⟨S32768x1, .f32⟩
  | 66 => ⟨S32768x1, .f32⟩
  | 67 => ⟨S32768x1, .f32⟩
  | 68 => ⟨S32768x1, .f32⟩
  | 69 => ⟨S32768x1, .f32⟩
  | 70 => ⟨S32768x1, .f32⟩
  | 71 => ⟨S32768x1, .f32⟩
  | 72 => ⟨S32768x1, .f32⟩
  | 73 => ⟨S32768x1, .f32⟩
  | 74 => ⟨S_, .f32⟩
  | 75 => ⟨S32768x1, .f32⟩
  | 76 => ⟨S32768x1, .i1⟩
  | 77 => ⟨S32768x1, .f32⟩
  | 78 => ⟨S_, .f32⟩
  | 79 => ⟨S32768x1, .f32⟩
  | 80 => ⟨S32768x1, .f32⟩
  | 81 => ⟨S_, .f32⟩
  | 82 => ⟨S32768x1, .f32⟩
  | 83 => ⟨S32768x1, .f32⟩
  | 84 => ⟨S32768x1, .f32⟩
  | 85 => ⟨S32768x1, .f32⟩
  | 86 => ⟨S_, .f32⟩
  | 87 => ⟨S32768x1, .f32⟩
  | 88 => ⟨S32768x1, .i1⟩
  | 89 => ⟨S32768x1, .f32⟩
  | 90 => ⟨S32768x1, .i1⟩
  | 91 => ⟨S32768x1, .f32⟩
  | 92 => ⟨S32768x2, .f32⟩
  | 93 => ⟨S32768x2, .f32⟩
  | 94 => ⟨S_, .f32⟩
  | 95 => ⟨S32768x2, .f32⟩
  | 96 => ⟨S32768x2, .f32⟩
  | 97 => ⟨S_, .f32⟩
  | 98 => ⟨S32768x2, .f32⟩
  | 99 => ⟨S32768x2, .f32⟩
  | 100 => ⟨S32768x2, .f32⟩
  | 101 => ⟨S32768x2, .f32⟩
  | 102 => ⟨S32768x1, .f32⟩
  | 103 => ⟨S32768x1, .f32⟩
  | 104 => ⟨S_, .f32⟩
  | 105 => ⟨S_, .f32⟩
  | 106 => ⟨S_, .f32⟩
  | 107 => ⟨S32768x1, .f32⟩
  | 108 => ⟨S32768x1, .f32⟩
  | 109 => ⟨S_, .f32⟩
  | 110 => ⟨S32768x1, .f32⟩
  | 111 => ⟨S32768x1, .f32⟩
  | 112 => ⟨S_, .f32⟩
  | 113 => ⟨S_, .f32⟩
  | 114 => ⟨S_, .f32⟩
  | 115 => ⟨S32768x1, .f32⟩
  | 116 => ⟨S32768x1, .f32⟩
  | 117 => ⟨S_, .f32⟩
  | 118 => ⟨S32768x1, .f32⟩
  | 119 => ⟨S32768x1, .f32⟩
  | 120 => ⟨S32768x1, .f32⟩
  | 121 => ⟨S32768x1, .f32⟩
  | 122 => ⟨S32768x1, .f32⟩
  | 123 => ⟨S32768x1, .f32⟩
  | 124 => ⟨S32768x1, .f32⟩
  | 125 => ⟨S32768x1, .f32⟩
  | 126 => ⟨S32768x1, .f32⟩
  | 127 => ⟨S_, .f32⟩
  | _ => ⟨S32768x256, .f32⟩

abbrev hbmTy0_76 (i : Nat) : BufTy := match i % 128 with
  | 0 => ⟨S32768x1, .f32⟩
  | 1 => ⟨S32768x1, .i1⟩
  | 2 => ⟨S32768x1, .f32⟩
  | 3 => ⟨S_, .f32⟩
  | 4 => ⟨S32768x1, .f32⟩
  | 5 => ⟨S32768x1, .f32⟩
  | 6 => ⟨S_, .f32⟩
  | 7 => ⟨S32768x1, .f32⟩
  | 8 => ⟨S32768x1, .f32⟩
  | 9 => ⟨S32768x1, .f32⟩
  | 10 => ⟨S32768x1, .f32⟩
  | 11 => ⟨S_, .f32⟩
  | 12 => ⟨S32768x1, .f32⟩
  | 13 => ⟨S32768x1, .i1⟩
  | 14 => ⟨S32768x1, .f32⟩
  | 15 => ⟨S32768x1, .i1⟩
  | 16 => ⟨S32768x1, .f32⟩
  | 17 => ⟨S32768x2, .f32⟩
  | 18 => ⟨S32768x2, .f32⟩
  | 19 => ⟨S32768x2, .i1⟩
  | 20 => ⟨S32768x2, .f32⟩
  | 21 => ⟨S32768x4, .f32⟩
  | 22 => ⟨S32768x4, .f32⟩
  | 23 => ⟨S_, .f32⟩
  | 24 => ⟨S32768x4, .f32⟩
  | 25 => ⟨S32768x4, .f32⟩
  | 26 => ⟨S_, .f32⟩
  | 27 => ⟨S32768x4, .f32⟩
  | 28 => ⟨S32768x4, .f32⟩
  | 29 => ⟨S32768x4, .f32⟩
  | 30 => ⟨S32768x4, .f32⟩
  | 31 => ⟨S32768x2, .f32⟩
  | 32 => ⟨S32768x2, .f32⟩
  | 33 => ⟨S_, .f32⟩
  | 34 => ⟨S_, .f32⟩
  | 35 => ⟨S_, .f32⟩
  | 36 => ⟨S32768x2, .f32⟩
  | 37 => ⟨S32768x2, .f32⟩
  | 38 => ⟨S_, .f32⟩
  | 39 => ⟨S32768x2, .f32⟩
  | 40 => ⟨S32768x2, .f32⟩
  | 41 => ⟨S_, .f32⟩
  | 42 => ⟨S_, .f32⟩
  | 43 => ⟨S_, .f32⟩
  | 44 => ⟨S32768x2, .f32⟩
  | 45 => ⟨S32768x2, .f32⟩
  | 46 => ⟨S_, .f32⟩
  | 47 => ⟨S32768x2, .f32⟩
  | 48 => ⟨S32768x2, .f32⟩
  | 49 => ⟨S32768x2, .f32⟩
  | 50 => ⟨S32768x2, .f32⟩
  | 51 => ⟨S32768x2, .f32⟩
  | 52 => ⟨S32768x2, .f32⟩
  | 53 => ⟨S32768x2, .f32⟩
  | 54 => ⟨S32768x2, .f32⟩
  | 55 => ⟨S32768x2, .f32⟩
  | 56 => ⟨S32768x1, .f32⟩
  | 57 => ⟨S32768x1, .f32⟩
  | 58 => ⟨S_, .f32⟩
  | 59 => ⟨S_, .f32⟩
  | 60 => ⟨S_, .f32⟩
  | 61 => ⟨S32768x1, .f32⟩
  | 62 => ⟨S32768x1, .f32⟩
  | 63 => ⟨S_, .f32⟩
  | 64 => ⟨S32768x1, .f32⟩
  | 65 => ⟨S32768x1, .f32⟩
  | 66 => ⟨S_, .f32⟩
  | 67 => ⟨S_, .f32⟩
  | 68 => ⟨S_, .f32⟩
  | 69 => ⟨S32768x1, .f32⟩
  | 70 => ⟨S32768x1, .f32⟩
  | 71 => ⟨S_, .f32⟩
  | 72 => ⟨S32768x1, .f32⟩
  | 73 => ⟨S32768x1, .f32⟩
  | 74 => ⟨S32768x1, .f32⟩
  | 75 => ⟨S32768x1, .f32⟩
  | 76 => ⟨S32768x1, .f32⟩
  | 77 => ⟨S32768x1, .f32⟩
  | 78 => ⟨S32768x1, .f32⟩
  | 79 => ⟨S32768x1, .f32⟩
  | 80 => ⟨S32768x1, .f32⟩
  | 81 => ⟨S_, .f32⟩
  | 82 => ⟨S32768x1, .f32⟩
  | 83 => ⟨S32768x1, .i1⟩
  | 84 => ⟨S32768x1, .f32⟩
  | 85 => ⟨S_, .f32⟩
  | 86 => ⟨S32768x1, .f32⟩
  | 87 => ⟨S32768x1, .f32⟩
  | 88 => ⟨S_, .f32⟩
  | 89 => ⟨S32768x1, .f32⟩
  | 90 => ⟨S32768x1, .f32⟩
  | 91 => ⟨S32768x1, .f32⟩
  | 92 => ⟨S32768x1, .f32⟩
  | 93 => ⟨S_, .f32⟩
  | 94 => ⟨S32768x1, .f32⟩
  | 95 => ⟨S32768x1, .i1⟩
  | 96 => ⟨S32768x1, .f32⟩
  | 97 => ⟨S32768x1, .i1⟩
  | 98 => ⟨S32768x1, .f32⟩
  | 99 => ⟨S32768x2, .f32⟩
  | 100 => ⟨S32768x2, .f32⟩
  | 101 => ⟨S_, .f32⟩
  | 102 => ⟨S32768x2, .f32⟩
  | 103 => ⟨S32768x2, .f32⟩
  | 104 => ⟨S_, .f32⟩
  | 105 => ⟨S32768x2, .f32⟩
  | 106 => ⟨S32768x2, .f32⟩
  | 107 => ⟨S32768x2, .f32⟩
  | 108 => ⟨S32768x2, .f32⟩
  | 109 => ⟨S32768x1, .f32⟩
  | 110 => ⟨S32768x1, .f32⟩
  | 111 => ⟨S_, .f32⟩
  | 112 => ⟨S_, .f32⟩
  | 113 => ⟨S_, .f32⟩
  | 114 => ⟨S32768x1, .f32⟩
  | 115 => ⟨S32768x1, .f32⟩
  | 116 => ⟨S_, .f32⟩
  | 117 => ⟨S32768x1, .f32⟩
  | 118 => ⟨S32768x1, .f32⟩
  | 119 => ⟨S_, .f32⟩
  | 120 => ⟨S_, .f32⟩
  | 121 => ⟨S_, .f32⟩
  | 122 => ⟨S32768x1, .f32⟩
  | 123 => ⟨S32768x1, .f32⟩
  | 124 => ⟨S_, .f32⟩
  | 125 => ⟨S32768x1, .f32⟩
  | 126 => ⟨S32768x1, .f32⟩
  | 127 => ⟨S32768x1, .f32⟩
  | _ => ⟨S32768x256, .f32⟩

abbrev hbmTy0_77 (i : Nat) : BufTy := match i % 128 with
  | 0 => ⟨S32768x1, .f32⟩
  | 1 => ⟨S32768x1, .f32⟩
  | 2 => ⟨S32768x1, .f32⟩
  | 3 => ⟨S32768x1, .f32⟩
  | 4 => ⟨S32768x1, .f32⟩
  | 5 => ⟨S32768x1, .f32⟩
  | 6 => ⟨S_, .f32⟩
  | 7 => ⟨S32768x1, .f32⟩
  | 8 => ⟨S32768x1, .i1⟩
  | 9 => ⟨S32768x1, .f32⟩
  | 10 => ⟨S_, .f32⟩
  | 11 => ⟨S32768x1, .f32⟩
  | 12 => ⟨S32768x1, .f32⟩
  | 13 => ⟨S_, .f32⟩
  | 14 => ⟨S32768x1, .f32⟩
  | 15 => ⟨S32768x1, .f32⟩
  | 16 => ⟨S32768x1, .f32⟩
  | 17 => ⟨S32768x1, .f32⟩
  | 18 => ⟨S_, .f32⟩
  | 19 => ⟨S32768x1, .f32⟩
  | 20 => ⟨S32768x1, .i1⟩
  | 21 => ⟨S32768x1, .f32⟩
  | 22 => ⟨S32768x1, .i1⟩
  | 23 => ⟨S32768x1, .f32⟩
  | 24 => ⟨S32768x2, .f32⟩
  | 25 => ⟨S32768x2, .f32⟩
  | 26 => ⟨S32768x2, .i1⟩
  | 27 => ⟨S32768x2, .f32⟩
  | 28 => ⟨S32768x4, .f32⟩
  | 29 => ⟨S32768x4, .f32⟩
  | 30 => ⟨S32768x4, .i1⟩
  | 31 => ⟨S32768x4, .f32⟩
  | 32 => ⟨S32768x8, .f32⟩
  | 33 => ⟨S32768x8, .f32⟩
  | 34 => ⟨S_, .f32⟩
  | 35 => ⟨S32768x8, .f32⟩
  | 36 => ⟨S32768x8, .f32⟩
  | 37 => ⟨S_, .f32⟩
  | 38 => ⟨S32768x8, .f32⟩
  | 39 => ⟨S32768x8, .f32⟩
  | 40 => ⟨S32768x8, .f32⟩
  | 41 => ⟨S32768x8, .f32⟩
  | 42 => ⟨S32768x4, .f32⟩
  | 43 => ⟨S32768x4, .f32⟩
  | 44 => ⟨S_, .f32⟩
  | 45 => ⟨S_, .f32⟩
  | 46 => ⟨S_, .f32⟩
  | 47 => ⟨S32768x4, .f32⟩
  | 48 => ⟨S32768x4, .f32⟩
  | 49 => ⟨S_, .f32⟩
  | 50 => ⟨S32768x4, .f32⟩
  | 51 => ⟨S32768x4, .f32⟩
  | 52 => ⟨S_, .f32⟩
  | 53 => ⟨S_, .f32⟩
  | 54 => ⟨S_, .f32⟩
  | 55 => ⟨S32768x4, .f32⟩
  | 56 => ⟨S32768x4, .f32⟩
  | 57 => ⟨S_, .f32⟩
  | 58 => ⟨S32768x4, .f32⟩
  | 59 => ⟨S32768x4, .f32⟩
  | 60 => ⟨S32768x4, .f32⟩
  | 61 => ⟨S32768x4, .f32⟩
  | 62 => ⟨S32768x4, .f32⟩
  | 63 => ⟨S32768x4, .f32⟩
  | 64 => ⟨S32768x4, .f32⟩
  | 65 => ⟨S32768x4, .f32⟩
  | 66 => ⟨S32768x4, .f32⟩
  | 67 => ⟨S32768x2, .f32⟩
  | 68 => ⟨S32768x2, .f32⟩
  | 69 => ⟨S_, .f32⟩
  | 70 => ⟨S_, .f32⟩
  | 71 => ⟨S_, .f32⟩
  | 72 => ⟨S32768x2, .f32⟩
  | 73 => ⟨S32768x2, .f32⟩
  | 74 => ⟨S_, .f32⟩
  | 75 => ⟨S32768x2, .f32⟩
  | 76 => ⟨S32768x2, .f32⟩
  | 77 => ⟨S_, .f32⟩
  | 78 => ⟨S_, .f32⟩
  | 79 => ⟨S_, .f32⟩
  | 80 => ⟨S32768x2, .f32⟩
  | 81 => ⟨S32768x2, .f32⟩
  | 82 => ⟨S_, .f32⟩
  | 83 => ⟨S32768x2, .f32⟩
  | 84 => ⟨S32768x2, .f32⟩
  | 85 => ⟨S32768x2, .f32⟩
  | 86 => ⟨S32768x2, .f32⟩
  | 87 => ⟨S32768x2, .f32⟩
  | 88 => ⟨S32768x2, .f32⟩
  | 89 => ⟨S32768x2, .f32⟩
  | 90 => ⟨S32768x2, .f32⟩
  | 91 => ⟨S32768x2, .f32⟩
  | 92 => ⟨S32768x1, .f32⟩
  | 93 => ⟨S32768x1, .f32⟩
  | 94 => ⟨S_, .f32⟩
  | 95 => ⟨S_, .f32⟩
  | 96 => ⟨S_, .f32⟩
  | 97 => ⟨S32768x1, .f32⟩
  | 98 => ⟨S32768x1, .f32⟩
  | 99 => ⟨S_, .f32⟩
  | 100 => ⟨S32768x1, .f32⟩
  | 101 => ⟨S32768x1, .f32⟩
  | 102 => ⟨S_, .f32⟩
  | 103 => ⟨S_, .f32⟩
  | 104 => ⟨S_, .f32⟩
  | 105 => ⟨S32768x1, .f32⟩
  | 106 => ⟨S32768x1, .f32⟩
  | 107 => ⟨S_, .f32⟩
  | 108 => ⟨S32768x1, .f32⟩
  | 109 => ⟨S32768x1, .f32⟩
  | 110 => ⟨S32768x1, .f32⟩
  | 111 => ⟨S32768x1, .f32⟩
  | 112 => ⟨S32768x1, .f32⟩
  | 113 => ⟨S32768x1, .f32⟩
  | 114 => ⟨S32768x1, .f32⟩
  | 115 => ⟨S32768x1, .f32⟩
  | 116 => ⟨S32768x1, .f32⟩
  | 117 => ⟨S_, .f32⟩
  | 118 => ⟨S32768x1, .f32⟩
  | 119 => ⟨S32768x1, .i1⟩
  | 120 => ⟨S32768x1, .f32⟩
  | 121 => ⟨S_, .f32⟩
  | 122 => ⟨S32768x1, .f32⟩
  | 123 => ⟨S32768x1, .f32⟩
  | 124 => ⟨S_, .f32⟩
  | 125 => ⟨S32768x1, .f32⟩
  | 126 => ⟨S32768x1, .f32⟩
  | 127 => ⟨S32768x1, .f32⟩
  | _ => ⟨S32768x256, .f32⟩

abbrev hbmTy0_78 (i : Nat) : BufTy := match i % 128 with
  | 0 => ⟨S32768x1, .f32⟩
  | 1 => ⟨S_, .f32⟩
  | 2 => ⟨S32768x1, .f32⟩
  | 3 => ⟨S32768x1, .i1⟩
  | 4 => ⟨S32768x1, .f32⟩
  | 5 => ⟨S32768x1, .i1⟩
  | 6 => ⟨S32768x1, .f32⟩
  | 7 => ⟨S32768x2, .f32⟩
  | 8 => ⟨S32768x2, .f32⟩
  | 9 => ⟨S_, .f32⟩
  | 10 => ⟨S32768x2, .f32⟩
  | 11 => ⟨S32768x2, .f32⟩
  | 12 => ⟨S_, .f32⟩
  | 13 => ⟨S32768x2, .f32⟩
  | 14 => ⟨S32768x2, .f32⟩
  | 15 => ⟨S32768x2, .f32⟩
  | 16 => ⟨S32768x2, .f32⟩
  | 17 => ⟨S32768x1, .f32⟩
  | 18 => ⟨S32768x1, .f32⟩
  | 19 => ⟨S_, .f32⟩
  | 20 => ⟨S_, .f32⟩
  | 21 => ⟨S_, .f32⟩
  | 22 => ⟨S32768x1, .f32⟩
  | 23 => ⟨S32768x1, .f32⟩
  | 24 => ⟨S_, .f32⟩
  | 25 => ⟨S32768x1, .f32⟩
  | 26 => ⟨S32768x1, .f32⟩
  | 27 => ⟨S_, .f32⟩
  | 28 => ⟨S_, .f32⟩
  | 29 => ⟨S_, .f32⟩
  | 30 => ⟨S32768x1, .f32⟩
  | 31 => ⟨S32768x1, .f32⟩
  | 32 => ⟨S_, .f32⟩
  | 33 => ⟨S32768x1, .f32⟩
  | 34 => ⟨S32768x1, .f32⟩
  | 35 => ⟨S32768x1, .f32⟩
  | 36 => ⟨S32768x1, .f32⟩
  | 37 => ⟨S32768x1, .f32⟩
  | 38 => ⟨S32768x1, .f32⟩
  | 39 => ⟨S32768x1, .f32⟩
  | 40 => ⟨S32768x1, .f32⟩
  | 41 => ⟨S32768x1, .f32⟩
  | 42 => ⟨S_, .f32⟩
  | 43 => ⟨S32768x1, .f32⟩
  | 44 => ⟨S32768x1, .i1⟩
  | 45 => ⟨S32768x1, .f32⟩
  | 46 => ⟨S_, .f32⟩
  | 47 => ⟨S32768x1, .f32⟩
  | 48 => ⟨S32768x1, .f32⟩
  | 49 => ⟨S_, .f32⟩
  | 50 => ⟨S32768x1, .f32⟩
  | 51 => ⟨S32768x1, .f32⟩
  | 52 => ⟨S32768x1, .f32⟩
  | 53 => ⟨S32768x1, .f32⟩
  | 54 => ⟨S_, .f32⟩
  | 55 => ⟨S32768x1, .f32⟩
  | 56 => ⟨S32768x1, .i1⟩
  | 57 => ⟨S32768x1, .f32⟩
  | 58 => ⟨S32768x1, .i1⟩
  | 59 => ⟨S32768x1, .f32⟩
  | 60 => ⟨S32768x2, .f32⟩
  | 61 => ⟨S32768x2, .f32⟩
  | 62 => ⟨S32768x2, .i1⟩
  | 63 => ⟨S32768x2, .f32⟩
  | 64 => ⟨S32768x4, .f32⟩
  | 65 => ⟨S32768x4, .f32⟩
  | 66 => ⟨S_, .f32⟩
  | 67 => ⟨S32768x4, .f32⟩
  | 68 => ⟨S32768x4, .f32⟩
  | 69 => ⟨S_, .f32⟩
  | 70 => ⟨S32768x4, .f32⟩
  | 71 => ⟨S32768x4, .f32⟩
  | 72 => ⟨S32768x4, .f32⟩
  | 73 => ⟨S32768x4, .f32⟩
  | 74 => ⟨S32768x2, .f32⟩
  | 75 => ⟨S32768x2, .f32⟩
  | 76 => ⟨S_, .f32⟩
  | 77 => ⟨S_, .f32⟩
  | 78 => ⟨S_, .f32⟩
  | 79 => ⟨S32768x2, .f32⟩
  | 80 => ⟨S32768x2, .f32⟩
  | 81 => ⟨S_, .f32⟩
  | 82 => ⟨S32768x2, .f32⟩
  | 83 => ⟨S32768x2, .f32⟩
  | 84 => ⟨S_, .f32⟩
  | 85 => ⟨S_, .f32⟩
  | 86 => ⟨S_, .f32⟩
  | 87 => ⟨S32768x2, .f32⟩
  | 88 => ⟨S32768x2, .f32⟩
  | 89 => ⟨S_, .f32⟩
  | 90 => ⟨S32768x2, .f32⟩
  | 91 => ⟨S32768x2, .f32⟩
  | 92 => ⟨S32768x2, .f32⟩
  | 93 => ⟨S32768x2, .f32⟩
  | 94 => ⟨S32768x2, .f32⟩
  | 95 => ⟨S32768x2, .f32⟩
  | 96 => ⟨S32768x2, .f32⟩
  | 97 => ⟨S32768x2, .f32⟩
  | 98 => ⟨S32768x2, .f32⟩
  | 99 => ⟨S32768x1, .f32⟩
  | 100 => ⟨S32768x1, .f32⟩
  | 101 => ⟨S_, .f32⟩
  | 102 => ⟨S_, .f32⟩
  | 103 => ⟨S_, .f32⟩
  | 104 => ⟨S32768x1, .f32⟩
  | 105 => ⟨S32768x1, .f32⟩
  | 106 => ⟨S_, .f32⟩
  | 107 => ⟨S32768x1, .f32⟩
  | 108 => ⟨S32768x1, .f32⟩
  | 109 => ⟨S_, .f32⟩
  | 110 => ⟨S_, .f32⟩
  | 111 => ⟨S_, .f32⟩
  | 112 => ⟨S32768x1, .f32⟩
  | 113 => ⟨S32768x1, .f32⟩
  | 114 => ⟨S_, .f32⟩
  | 115 => ⟨S32768x1, .f32⟩
  | 116 => ⟨S32768x1, .f32⟩
  | 117 => ⟨S32768x1, .f32⟩
  | 118 => ⟨S32768x1, .f32⟩
  | 119 => ⟨S32768x1, .f32⟩
  | 120 => ⟨S32768x1, .f32⟩
  | 121 => ⟨S32768x1, .f32⟩
  | 122 => ⟨S32768x1, .f32⟩
  | 123 => ⟨S32768x1, .f32⟩
  | 124 => ⟨S_, .f32⟩
  | 125 => ⟨S32768x1, .f32⟩
  | 126 => ⟨S32768x1, .i1⟩
  | 127 => ⟨S32768x1, .f32⟩
  | _ => ⟨S32768x256, .f32⟩

abbrev hbmTy0_79 (i : Nat) : BufTy := match i % 128 with
  | 0 => ⟨S_, .f32⟩
  | 1 => ⟨S32768x1, .f32⟩
  | 2 => ⟨S32768x1, .f32⟩
  | 3 => ⟨S_, .f32⟩
  | 4 => ⟨S32768x1, .f32⟩
  | 5 => ⟨S32768x1, .f32⟩
  | 6 => ⟨S32768x1, .f32⟩
  | 7 => ⟨S32768x1, .f32⟩
  | 8 => ⟨S_, .f32⟩
  | 9 => ⟨S32768x1, .f32⟩
  | 10 => ⟨S32768x1, .i1⟩
  | 11 => ⟨S32768x1, .f32⟩
  | 12 => ⟨S32768x1, .i1⟩
  | 13 => ⟨S32768x1, .f32⟩
  | 14 => ⟨S32768x2, .f32⟩
  | 15 => ⟨S32768x2, .f32⟩
  | 16 => ⟨S_, .f32⟩
  | 17 => ⟨S32768x2, .f32⟩
  | 18 => ⟨S32768x2, .f32⟩
  | 19 => ⟨S_, .f32⟩
  | 20 => ⟨S32768x2, .f32⟩
  | 21 => ⟨S32768x2, .f32⟩
  | 22 => ⟨S32768x2, .f32⟩
  | 23 => ⟨S32768x2, .f32⟩
  | 24 => ⟨S32768x1, .f32⟩
  | 25 => ⟨S32768x1, .f32⟩
  | 26 => ⟨S_, .f32⟩
  | 27 => ⟨S_, .f32⟩
  | 28 => ⟨S_, .f32⟩
  | 29 => ⟨S32768x1, .f32⟩
  | 30 => ⟨S32768x1, .f32⟩
  | 31 => ⟨S_, .f32⟩
  | 32 => ⟨S32768x1, .f32⟩
  | 33 => ⟨S32768x1, .f32⟩
  | 34 => ⟨S_, .f32⟩
  | 35 => ⟨S_, .f32⟩
  | 36 => ⟨S_, .f32⟩
  | 37 => ⟨S32768x1, .f32⟩
  | 38 => ⟨S32768x1, .f32⟩
  | 39 => ⟨S_, .f32⟩
  | 40 => ⟨S32768x1, .f32⟩
  | 41 => ⟨S32768x1, .f32⟩
  | 42 => ⟨S32768x1, .f32⟩
  | 43 => ⟨S32768x1, .f32⟩
  | 44 => ⟨S32768x1, .f32⟩
  | 45 => ⟨S32768x1, .f32⟩
  | 46 => ⟨S32768x1, .f32⟩
  | 47 => ⟨S32768x1, .f32⟩
  | 48 => ⟨S32768x1, .f32⟩
  | 49 => ⟨S_, .f32⟩
  | 50 => ⟨S32768x1, .f32⟩
  | 51 => ⟨S32768x1, .i1⟩
  | 52 => ⟨S32768x1, .f32⟩
  | 53 => ⟨S_, .f32⟩
  | 54 => ⟨S32768x1, .f32⟩
  | 55 => ⟨S32768x1, .f32⟩
  | 56 => ⟨S_, .f32⟩
  | 57 => ⟨S32768x1, .f32⟩
  | 58 => ⟨S32768x1, .f32⟩
  | 59 => ⟨S32768x1, .f32⟩
  | 60 => ⟨S32768x1, .f32⟩
  | 61 => ⟨S_, .f32⟩
  | 62 => ⟨S32768x1, .f32⟩
  | 63 => ⟨S32768x1, .i1⟩
  | 64 => ⟨S32768x1, .f32⟩
  | 65 => ⟨S32768x1, .i1⟩
  | 66 => ⟨S32768x1, .f32⟩
  | 67 => ⟨S32768x2, .f32⟩
  | 68 => ⟨S32768x2, .f32⟩
  | 69 => ⟨S32768x2, .i1⟩
  | 70 => ⟨S32768x2, .f32⟩
  | 71 => ⟨S32768x4, .f32⟩
  | 72 => ⟨S32768x4, .f32⟩
  | 73 => ⟨S32768x4, .i1⟩
  | 74 => ⟨S32768x4, .f32⟩
  | 75 => ⟨S32768x8, .f32⟩
  | 76 => ⟨S32768x8, .f32⟩
  | 77 => ⟨S32768x8, .i1⟩
  | 78 => ⟨S32768x8, .f32⟩
  | 79 => ⟨S32768x16, .f32⟩
  | 80 => ⟨S32768x16, .f32⟩
  | 81 => ⟨S32768x16, .i1⟩
  | 82 => ⟨S32768x16, .f32⟩
  | 83 => ⟨S32768x32, .f32⟩
  | 84 => ⟨S32768x32, .f32⟩
  | 85 => ⟨S32768x32, .i1⟩
  | 86 => ⟨S32768x32, .f32⟩
  | 87 => ⟨S32768x64, .f32⟩
  | 88 => ⟨S32768x64, .f32⟩
  | 89 => ⟨S32768x64, .i1⟩
  | 90 => ⟨S32768x64, .f32⟩
  | 91 => ⟨S32768x128, .f32⟩
  | 92 => ⟨S32768x128, .f32⟩
  | 93 => ⟨S32768x128, .i1⟩
  | 94 => ⟨S32768x128, .f32⟩
  | 95 => ⟨S32768x256, .f32⟩
  | 96 => ⟨S32768x256, .f32⟩
  | 97 => ⟨S_, .i32⟩
  | 98 => ⟨S128, .i32⟩
  | 99 => ⟨S128, .i32⟩
  | 100 => ⟨S128, .i32⟩
  | 101 => ⟨S128x1, .i32⟩
  | 102 => ⟨S32768x128, .f32⟩
  | _ => ⟨S32768x256, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | 5 => hbmTy0_5 i
  | 6 => hbmTy0_6 i
  | 7 => hbmTy0_7 i
  | 8 => hbmTy0_8 i
  | 9 => hbmTy0_9 i
  | 10 => hbmTy0_10 i
  | 11 => hbmTy0_11 i
  | 12 => hbmTy0_12 i
  | 13 => hbmTy0_13 i
  | 14 => hbmTy0_14 i
  | 15 => hbmTy0_15 i
  | 16 => hbmTy0_16 i
  | 17 => hbmTy0_17 i
  | 18 => hbmTy0_18 i
  | 19 => hbmTy0_19 i
  | 20 => hbmTy0_20 i
  | 21 => hbmTy0_21 i
  | 22 => hbmTy0_22 i
  | 23 => hbmTy0_23 i
  | 24 => hbmTy0_24 i
  | 25 => hbmTy0_25 i
  | 26 => hbmTy0_26 i
  | 27 => hbmTy0_27 i
  | 28 => hbmTy0_28 i
  | 29 => hbmTy0_29 i
  | 30 => hbmTy0_30 i
  | 31 => hbmTy0_31 i
  | 32 => hbmTy0_32 i
  | 33 => hbmTy0_33 i
  | 34 => hbmTy0_34 i
  | 35 => hbmTy0_35 i
  | 36 => hbmTy0_36 i
  | 37 => hbmTy0_37 i
  | 38 => hbmTy0_38 i
  | 39 => hbmTy0_39 i
  | 40 => hbmTy0_40 i
  | 41 => hbmTy0_41 i
  | 42 => hbmTy0_42 i
  | 43 => hbmTy0_43 i
  | 44 => hbmTy0_44 i
  | 45 => hbmTy0_45 i
  | 46 => hbmTy0_46 i
  | 47 => hbmTy0_47 i
  | 48 => hbmTy0_48 i
  | 49 => hbmTy0_49 i
  | 50 => hbmTy0_50 i
  | 51 => hbmTy0_51 i
  | 52 => hbmTy0_52 i
  | 53 => hbmTy0_53 i
  | 54 => hbmTy0_54 i
  | 55 => hbmTy0_55 i
  | 56 => hbmTy0_56 i
  | 57 => hbmTy0_57 i
  | 58 => hbmTy0_58 i
  | 59 => hbmTy0_59 i
  | 60 => hbmTy0_60 i
  | 61 => hbmTy0_61 i
  | 62 => hbmTy0_62 i
  | 63 => hbmTy0_63 i
  | 64 => hbmTy0_64 i
  | 65 => hbmTy0_65 i
  | 66 => hbmTy0_66 i
  | 67 => hbmTy0_67 i
  | 68 => hbmTy0_68 i
  | 69 => hbmTy0_69 i
  | 70 => hbmTy0_70 i
  | 71 => hbmTy0_71 i
  | 72 => hbmTy0_72 i
  | 73 => hbmTy0_73 i
  | 74 => hbmTy0_74 i
  | 75 => hbmTy0_75 i
  | 76 => hbmTy0_76 i
  | 77 => hbmTy0_77 i
  | 78 => hbmTy0_78 i
  | 79 => hbmTy0_79 i
  | _ => ⟨S32768x256, .f32⟩

abbrev bufTy : (tb : Table) → Fin (tcTables nBuf tb) → BufTy
  | .hbm, ⟨i, _⟩ => hbmTy i
  | _, _ => ⟨S32768x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst_1 : Ref sig .tc := ⟨.hbm, 8, rfl⟩
abbrev main_cst_2 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_v4 : Ref sig .tc := ⟨.hbm, 15, rfl⟩
abbrev main_cst_3 : Ref sig .tc := ⟨.hbm, 16, rfl⟩
abbrev main_cst_4 : Ref sig .tc := ⟨.hbm, 17, rfl⟩
abbrev main_call1_v0 : Ref sig .tc := ⟨.hbm, 18, rfl⟩
abbrev main_call1_v1 : Ref sig .tc := ⟨.hbm, 19, rfl⟩
abbrev main_call1_v2 : Ref sig .tc := ⟨.hbm, 20, rfl⟩
abbrev main_call1_v3 : Ref sig .tc := ⟨.hbm, 21, rfl⟩
abbrev main_call1_v4 : Ref sig .tc := ⟨.hbm, 22, rfl⟩
abbrev main_v5 : Ref sig .tc := ⟨.hbm, 23, rfl⟩
abbrev main_v6 : Ref sig .tc := ⟨.hbm, 24, rfl⟩
abbrev main_v7 : Ref sig .tc := ⟨.hbm, 25, rfl⟩
abbrev main_v8 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_cst_5 : Ref sig .tc := ⟨.hbm, 33, rfl⟩
abbrev main_cst_6 : Ref sig .tc := ⟨.hbm, 34, rfl⟩
abbrev main_call2_v0 : Ref sig .tc := ⟨.hbm, 35, rfl⟩
abbrev main_call2_v1 : Ref sig .tc := ⟨.hbm, 36, rfl⟩
abbrev main_call2_v2 : Ref sig .tc := ⟨.hbm, 37, rfl⟩
abbrev main_call2_v3 : Ref sig .tc := ⟨.hbm, 38, rfl⟩
abbrev main_call2_v4 : Ref sig .tc := ⟨.hbm, 39, rfl⟩
abbrev main_v15 : Ref sig .tc := ⟨.hbm, 40, rfl⟩
abbrev main_cst_7 : Ref sig .tc := ⟨.hbm, 41, rfl⟩
abbrev main_cst_8 : Ref sig .tc := ⟨.hbm, 42, rfl⟩
abbrev main_call3_v0 : Ref sig .tc := ⟨.hbm, 43, rfl⟩
abbrev main_call3_v1 : Ref sig .tc := ⟨.hbm, 44, rfl⟩
abbrev main_call3_v2 : Ref sig .tc := ⟨.hbm, 45, rfl⟩
abbrev main_call3_v3 : Ref sig .tc := ⟨.hbm, 46, rfl⟩
abbrev main_call3_v4 : Ref sig .tc := ⟨.hbm, 47, rfl⟩
abbrev main_v16 : Ref sig .tc := ⟨.hbm, 48, rfl⟩
abbrev main_v17 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_cst_9 : Ref sig .tc := ⟨.hbm, 58, rfl⟩
abbrev main_cst_10 : Ref sig .tc := ⟨.hbm, 59, rfl⟩
abbrev main_call4_v0 : Ref sig .tc := ⟨.hbm, 60, rfl⟩
abbrev main_call4_v1 : Ref sig .tc := ⟨.hbm, 61, rfl⟩
abbrev main_call4_v2 : Ref sig .tc := ⟨.hbm, 62, rfl⟩
abbrev main_call4_v3 : Ref sig .tc := ⟨.hbm, 63, rfl⟩
abbrev main_call4_v4 : Ref sig .tc := ⟨.hbm, 64, rfl⟩
abbrev main_v26 : Ref sig .tc := ⟨.hbm, 65, rfl⟩
abbrev main_cst_11 : Ref sig .tc := ⟨.hbm, 66, rfl⟩
abbrev main_cst_12 : Ref sig .tc := ⟨.hbm, 67, rfl⟩
abbrev main_call5_v0 : Ref sig .tc := ⟨.hbm, 68, rfl⟩
abbrev main_call5_v1 : Ref sig .tc := ⟨.hbm, 69, rfl⟩
abbrev main_call5_v2 : Ref sig .tc := ⟨.hbm, 70, rfl⟩
abbrev main_call5_v3 : Ref sig .tc := ⟨.hbm, 71, rfl⟩
abbrev main_call5_v4 : Ref sig .tc := ⟨.hbm, 72, rfl⟩
abbrev main_v27 : Ref sig .tc := ⟨.hbm, 73, rfl⟩
abbrev main_v28 : Ref sig .tc := ⟨.hbm, 74, rfl⟩
abbrev main_v29 : Ref sig .tc := ⟨.hbm, 75, rfl⟩
abbrev main_v30 : Ref sig .tc := ⟨.hbm, 76, rfl⟩
abbrev main_v31 : Ref sig .tc := ⟨.hbm, 77, rfl⟩
abbrev main_v32 : Ref sig .tc := ⟨.hbm, 78, rfl⟩
abbrev main_v33 : Ref sig .tc := ⟨.hbm, 79, rfl⟩
abbrev main_v34 : Ref sig .tc := ⟨.hbm, 80, rfl⟩
abbrev main_v35 : Ref sig .tc := ⟨.hbm, 81, rfl⟩
abbrev main_v36 : Ref sig .tc := ⟨.hbm, 82, rfl⟩
abbrev main_cst_13 : Ref sig .tc := ⟨.hbm, 83, rfl⟩
abbrev main_cst_14 : Ref sig .tc := ⟨.hbm, 84, rfl⟩
abbrev main_call6_v0 : Ref sig .tc := ⟨.hbm, 85, rfl⟩
abbrev main_call6_v1 : Ref sig .tc := ⟨.hbm, 86, rfl⟩
abbrev main_call6_v2 : Ref sig .tc := ⟨.hbm, 87, rfl⟩
abbrev main_call6_v3 : Ref sig .tc := ⟨.hbm, 88, rfl⟩
abbrev main_call6_v4 : Ref sig .tc := ⟨.hbm, 89, rfl⟩
abbrev main_v37 : Ref sig .tc := ⟨.hbm, 90, rfl⟩
abbrev main_cst_15 : Ref sig .tc := ⟨.hbm, 91, rfl⟩
abbrev main_cst_16 : Ref sig .tc := ⟨.hbm, 92, rfl⟩
abbrev main_call7_v0 : Ref sig .tc := ⟨.hbm, 93, rfl⟩
abbrev main_call7_v1 : Ref sig .tc := ⟨.hbm, 94, rfl⟩
abbrev main_call7_v2 : Ref sig .tc := ⟨.hbm, 95, rfl⟩
abbrev main_call7_v3 : Ref sig .tc := ⟨.hbm, 96, rfl⟩
abbrev main_call7_v4 : Ref sig .tc := ⟨.hbm, 97, rfl⟩
abbrev main_v38 : Ref sig .tc := ⟨.hbm, 98, rfl⟩
abbrev main_v39 : Ref sig .tc := ⟨.hbm, 99, rfl⟩
abbrev main_v40 : Ref sig .tc := ⟨.hbm, 100, rfl⟩
abbrev main_v41 : Ref sig .tc := ⟨.hbm, 101, rfl⟩
abbrev main_v42 : Ref sig .tc := ⟨.hbm, 102, rfl⟩
abbrev main_v43 : Ref sig .tc := ⟨.hbm, 103, rfl⟩
abbrev main_v44 : Ref sig .tc := ⟨.hbm, 104, rfl⟩
abbrev main_v45 : Ref sig .tc := ⟨.hbm, 105, rfl⟩
abbrev main_v46 : Ref sig .tc := ⟨.hbm, 106, rfl⟩
abbrev main_v47 : Ref sig .tc := ⟨.hbm, 107, rfl⟩
abbrev main_cst_17 : Ref sig .tc := ⟨.hbm, 108, rfl⟩
abbrev main_cst_18 : Ref sig .tc := ⟨.hbm, 109, rfl⟩
abbrev main_call8_v0 : Ref sig .tc := ⟨.hbm, 110, rfl⟩
abbrev main_call8_v1 : Ref sig .tc := ⟨.hbm, 111, rfl⟩
abbrev main_call8_v2 : Ref sig .tc := ⟨.hbm, 112, rfl⟩
abbrev main_call8_v3 : Ref sig .tc := ⟨.hbm, 113, rfl⟩
abbrev main_call8_v4 : Ref sig .tc := ⟨.hbm, 114, rfl⟩
abbrev main_v48 : Ref sig .tc := ⟨.hbm, 115, rfl⟩
abbrev main_cst_19 : Ref sig .tc := ⟨.hbm, 116, rfl⟩
abbrev main_cst_20 : Ref sig .tc := ⟨.hbm, 117, rfl⟩
abbrev main_call9_v0 : Ref sig .tc := ⟨.hbm, 118, rfl⟩
abbrev main_call9_v1 : Ref sig .tc := ⟨.hbm, 119, rfl⟩
abbrev main_call9_v2 : Ref sig .tc := ⟨.hbm, 120, rfl⟩
abbrev main_call9_v3 : Ref sig .tc := ⟨.hbm, 121, rfl⟩
abbrev main_call9_v4 : Ref sig .tc := ⟨.hbm, 122, rfl⟩
abbrev main_v49 : Ref sig .tc := ⟨.hbm, 123, rfl⟩
abbrev main_v50 : Ref sig .tc := ⟨.hbm, 124, rfl⟩
abbrev main_v51 : Ref sig .tc := ⟨.hbm, 125, rfl⟩
abbrev main_v52 : Ref sig .tc := ⟨.hbm, 126, rfl⟩
abbrev main_v53 : Ref sig .tc := ⟨.hbm, 127, rfl⟩
abbrev main_v54 : Ref sig .tc := ⟨.hbm, 128, rfl⟩
abbrev main_v55 : Ref sig .tc := ⟨.hbm, 129, rfl⟩
abbrev main_v56 : Ref sig .tc := ⟨.hbm, 130, rfl⟩
abbrev main_v57 : Ref sig .tc := ⟨.hbm, 131, rfl⟩
abbrev main_v58 : Ref sig .tc := ⟨.hbm, 132, rfl⟩
abbrev main_cst_21 : Ref sig .tc := ⟨.hbm, 133, rfl⟩
abbrev main_cst_22 : Ref sig .tc := ⟨.hbm, 134, rfl⟩
abbrev main_call10_v0 : Ref sig .tc := ⟨.hbm, 135, rfl⟩
abbrev main_call10_v1 : Ref sig .tc := ⟨.hbm, 136, rfl⟩
abbrev main_call10_v2 : Ref sig .tc := ⟨.hbm, 137, rfl⟩
abbrev main_call10_v3 : Ref sig .tc := ⟨.hbm, 138, rfl⟩
abbrev main_call10_v4 : Ref sig .tc := ⟨.hbm, 139, rfl⟩
abbrev main_v59 : Ref sig .tc := ⟨.hbm, 140, rfl⟩
abbrev main_cst_23 : Ref sig .tc := ⟨.hbm, 141, rfl⟩
abbrev main_cst_24 : Ref sig .tc := ⟨.hbm, 142, rfl⟩
abbrev main_call11_v0 : Ref sig .tc := ⟨.hbm, 143, rfl⟩
abbrev main_call11_v1 : Ref sig .tc := ⟨.hbm, 144, rfl⟩
abbrev main_call11_v2 : Ref sig .tc := ⟨.hbm, 145, rfl⟩
abbrev main_call11_v3 : Ref sig .tc := ⟨.hbm, 146, rfl⟩
abbrev main_call11_v4 : Ref sig .tc := ⟨.hbm, 147, rfl⟩
abbrev main_v60 : Ref sig .tc := ⟨.hbm, 148, rfl⟩
abbrev main_v61 : Ref sig .tc := ⟨.hbm, 149, rfl⟩
abbrev main_v62 : Ref sig .tc := ⟨.hbm, 150, rfl⟩
abbrev main_v63 : Ref sig .tc := ⟨.hbm, 151, rfl⟩
abbrev main_v64 : Ref sig .tc := ⟨.hbm, 152, rfl⟩
abbrev main_v65 : Ref sig .tc := ⟨.hbm, 153, rfl⟩
abbrev main_v66 : Ref sig .tc := ⟨.hbm, 154, rfl⟩
abbrev main_v67 : Ref sig .tc := ⟨.hbm, 155, rfl⟩
abbrev main_v68 : Ref sig .tc := ⟨.hbm, 156, rfl⟩
abbrev main_v69 : Ref sig .tc := ⟨.hbm, 157, rfl⟩
abbrev main_cst_25 : Ref sig .tc := ⟨.hbm, 158, rfl⟩
abbrev main_cst_26 : Ref sig .tc := ⟨.hbm, 159, rfl⟩
abbrev main_call12_v0 : Ref sig .tc := ⟨.hbm, 160, rfl⟩
abbrev main_call12_v1 : Ref sig .tc := ⟨.hbm, 161, rfl⟩
abbrev main_call12_v2 : Ref sig .tc := ⟨.hbm, 162, rfl⟩
abbrev main_call12_v3 : Ref sig .tc := ⟨.hbm, 163, rfl⟩
abbrev main_call12_v4 : Ref sig .tc := ⟨.hbm, 164, rfl⟩
abbrev main_v70 : Ref sig .tc := ⟨.hbm, 165, rfl⟩
abbrev main_cst_27 : Ref sig .tc := ⟨.hbm, 166, rfl⟩
abbrev main_cst_28 : Ref sig .tc := ⟨.hbm, 167, rfl⟩
abbrev main_call13_v0 : Ref sig .tc := ⟨.hbm, 168, rfl⟩
abbrev main_call13_v1 : Ref sig .tc := ⟨.hbm, 169, rfl⟩
abbrev main_call13_v2 : Ref sig .tc := ⟨.hbm, 170, rfl⟩
abbrev main_call13_v3 : Ref sig .tc := ⟨.hbm, 171, rfl⟩
abbrev main_call13_v4 : Ref sig .tc := ⟨.hbm, 172, rfl⟩
abbrev main_v71 : Ref sig .tc := ⟨.hbm, 173, rfl⟩
abbrev main_v72 : Ref sig .tc := ⟨.hbm, 174, rfl⟩
abbrev main_v73 : Ref sig .tc := ⟨.hbm, 175, rfl⟩
abbrev main_v74 : Ref sig .tc := ⟨.hbm, 176, rfl⟩
abbrev main_v75 : Ref sig .tc := ⟨.hbm, 177, rfl⟩
abbrev main_v76 : Ref sig .tc := ⟨.hbm, 178, rfl⟩
abbrev main_v77 : Ref sig .tc := ⟨.hbm, 179, rfl⟩
abbrev main_v78 : Ref sig .tc := ⟨.hbm, 180, rfl⟩
abbrev main_v79 : Ref sig .tc := ⟨.hbm, 181, rfl⟩
abbrev main_v80 : Ref sig .tc := ⟨.hbm, 182, rfl⟩
abbrev main_cst_29 : Ref sig .tc := ⟨.hbm, 183, rfl⟩
abbrev main_cst_30 : Ref sig .tc := ⟨.hbm, 184, rfl⟩
abbrev main_call14_v0 : Ref sig .tc := ⟨.hbm, 185, rfl⟩
abbrev main_call14_v1 : Ref sig .tc := ⟨.hbm, 186, rfl⟩
abbrev main_call14_v2 : Ref sig .tc := ⟨.hbm, 187, rfl⟩
abbrev main_call14_v3 : Ref sig .tc := ⟨.hbm, 188, rfl⟩
abbrev main_call14_v4 : Ref sig .tc := ⟨.hbm, 189, rfl⟩
abbrev main_v81 : Ref sig .tc := ⟨.hbm, 190, rfl⟩
abbrev main_cst_31 : Ref sig .tc := ⟨.hbm, 191, rfl⟩
abbrev main_cst_32 : Ref sig .tc := ⟨.hbm, 192, rfl⟩
abbrev main_call15_v0 : Ref sig .tc := ⟨.hbm, 193, rfl⟩
abbrev main_call15_v1 : Ref sig .tc := ⟨.hbm, 194, rfl⟩
abbrev main_call15_v2 : Ref sig .tc := ⟨.hbm, 195, rfl⟩
abbrev main_call15_v3 : Ref sig .tc := ⟨.hbm, 196, rfl⟩
abbrev main_call15_v4 : Ref sig .tc := ⟨.hbm, 197, rfl⟩
abbrev main_v82 : Ref sig .tc := ⟨.hbm, 198, rfl⟩
abbrev main_v83 : Ref sig .tc := ⟨.hbm, 199, rfl⟩
abbrev main_v84 : Ref sig .tc := ⟨.hbm, 200, rfl⟩
abbrev main_v85 : Ref sig .tc := ⟨.hbm, 201, rfl⟩
abbrev main_v86 : Ref sig .tc := ⟨.hbm, 202, rfl⟩
abbrev main_v87 : Ref sig .tc := ⟨.hbm, 203, rfl⟩
abbrev main_v88 : Ref sig .tc := ⟨.hbm, 204, rfl⟩
abbrev main_v89 : Ref sig .tc := ⟨.hbm, 205, rfl⟩
abbrev main_cst_33 : Ref sig .tc := ⟨.hbm, 206, rfl⟩
abbrev main_v90 : Ref sig .tc := ⟨.hbm, 207, rfl⟩
abbrev main_cst_34 : Ref sig .tc := ⟨.hbm, 208, rfl⟩
abbrev main_v91 : Ref sig .tc := ⟨.hbm, 209, rfl⟩
abbrev main_v92 : Ref sig .tc := ⟨.hbm, 210, rfl⟩
abbrev main_cst_35 : Ref sig .tc := ⟨.hbm, 211, rfl⟩
abbrev main_v93 : Ref sig .tc := ⟨.hbm, 212, rfl⟩
abbrev main_v94 : Ref sig .tc := ⟨.hbm, 213, rfl⟩
abbrev main_v95 : Ref sig .tc := ⟨.hbm, 214, rfl⟩
abbrev main_v96 : Ref sig .tc := ⟨.hbm, 215, rfl⟩
abbrev main_cst_36 : Ref sig .tc := ⟨.hbm, 216, rfl⟩
abbrev main_v97 : Ref sig .tc := ⟨.hbm, 217, rfl⟩
abbrev main_v98 : Ref sig .tc := ⟨.hbm, 218, rfl⟩
abbrev main_v99 : Ref sig .tc := ⟨.hbm, 219, rfl⟩
abbrev main_v100 : Ref sig .tc := ⟨.hbm, 220, rfl⟩
abbrev main_v101 : Ref sig .tc := ⟨.hbm, 221, rfl⟩
abbrev main_cst_37 : Ref sig .tc := ⟨.hbm, 222, rfl⟩
abbrev main_v102 : Ref sig .tc := ⟨.hbm, 223, rfl⟩
abbrev main_v103 : Ref sig .tc := ⟨.hbm, 224, rfl⟩
abbrev main_cst_38 : Ref sig .tc := ⟨.hbm, 225, rfl⟩
abbrev main_v104 : Ref sig .tc := ⟨.hbm, 226, rfl⟩
abbrev main_v105 : Ref sig .tc := ⟨.hbm, 227, rfl⟩
abbrev main_v106 : Ref sig .tc := ⟨.hbm, 228, rfl⟩
abbrev main_v107 : Ref sig .tc := ⟨.hbm, 229, rfl⟩
abbrev main_v108 : Ref sig .tc := ⟨.hbm, 230, rfl⟩
abbrev main_v109 : Ref sig .tc := ⟨.hbm, 231, rfl⟩
abbrev main_cst_39 : Ref sig .tc := ⟨.hbm, 232, rfl⟩
abbrev main_cst_40 : Ref sig .tc := ⟨.hbm, 233, rfl⟩
abbrev main_call16_v0 : Ref sig .tc := ⟨.hbm, 234, rfl⟩
abbrev main_call16_v1 : Ref sig .tc := ⟨.hbm, 235, rfl⟩
abbrev main_call16_v2 : Ref sig .tc := ⟨.hbm, 236, rfl⟩
abbrev main_call16_v3 : Ref sig .tc := ⟨.hbm, 237, rfl⟩
abbrev main_call16_v4 : Ref sig .tc := ⟨.hbm, 238, rfl⟩
abbrev main_v110 : Ref sig .tc := ⟨.hbm, 239, rfl⟩
abbrev main_cst_41 : Ref sig .tc := ⟨.hbm, 240, rfl⟩
abbrev main_cst_42 : Ref sig .tc := ⟨.hbm, 241, rfl⟩
abbrev main_call17_v0 : Ref sig .tc := ⟨.hbm, 242, rfl⟩
abbrev main_call17_v1 : Ref sig .tc := ⟨.hbm, 243, rfl⟩
abbrev main_call17_v2 : Ref sig .tc := ⟨.hbm, 244, rfl⟩
abbrev main_call17_v3 : Ref sig .tc := ⟨.hbm, 245, rfl⟩
abbrev main_call17_v4 : Ref sig .tc := ⟨.hbm, 246, rfl⟩
abbrev main_v111 : Ref sig .tc := ⟨.hbm, 247, rfl⟩
abbrev main_v112 : Ref sig .tc := ⟨.hbm, 248, rfl⟩
abbrev main_v113 : Ref sig .tc := ⟨.hbm, 249, rfl⟩
abbrev main_v114 : Ref sig .tc := ⟨.hbm, 250, rfl⟩
abbrev main_v115 : Ref sig .tc := ⟨.hbm, 251, rfl⟩
abbrev main_v116 : Ref sig .tc := ⟨.hbm, 252, rfl⟩
abbrev main_v117 : Ref sig .tc := ⟨.hbm, 253, rfl⟩
abbrev main_v118 : Ref sig .tc := ⟨.hbm, 254, rfl⟩
abbrev main_cst_43 : Ref sig .tc := ⟨.hbm, 255, rfl⟩
abbrev main_v119 : Ref sig .tc := ⟨.hbm, 256, rfl⟩
abbrev main_cst_44 : Ref sig .tc := ⟨.hbm, 257, rfl⟩
abbrev main_v120 : Ref sig .tc := ⟨.hbm, 258, rfl⟩
abbrev main_v121 : Ref sig .tc := ⟨.hbm, 259, rfl⟩
abbrev main_cst_45 : Ref sig .tc := ⟨.hbm, 260, rfl⟩
abbrev main_v122 : Ref sig .tc := ⟨.hbm, 261, rfl⟩
abbrev main_v123 : Ref sig .tc := ⟨.hbm, 262, rfl⟩
abbrev main_v124 : Ref sig .tc := ⟨.hbm, 263, rfl⟩
abbrev main_v125 : Ref sig .tc := ⟨.hbm, 264, rfl⟩
abbrev main_cst_46 : Ref sig .tc := ⟨.hbm, 265, rfl⟩
abbrev main_v126 : Ref sig .tc := ⟨.hbm, 266, rfl⟩
abbrev main_v127 : Ref sig .tc := ⟨.hbm, 267, rfl⟩
abbrev main_v128 : Ref sig .tc := ⟨.hbm, 268, rfl⟩
abbrev main_v129 : Ref sig .tc := ⟨.hbm, 269, rfl⟩
abbrev main_v130 : Ref sig .tc := ⟨.hbm, 270, rfl⟩
abbrev main_v131 : Ref sig .tc := ⟨.hbm, 271, rfl⟩
abbrev main_v132 : Ref sig .tc := ⟨.hbm, 272, rfl⟩
abbrev main_v133 : Ref sig .tc := ⟨.hbm, 273, rfl⟩
abbrev main_v134 : Ref sig .tc := ⟨.hbm, 274, rfl⟩
abbrev main_cst_47 : Ref sig .tc := ⟨.hbm, 275, rfl⟩
abbrev main_v135 : Ref sig .tc := ⟨.hbm, 276, rfl⟩
abbrev main_v136 : Ref sig .tc := ⟨.hbm, 277, rfl⟩
abbrev main_cst_48 : Ref sig .tc := ⟨.hbm, 278, rfl⟩
abbrev main_v137 : Ref sig .tc := ⟨.hbm, 279, rfl⟩
abbrev main_v138 : Ref sig .tc := ⟨.hbm, 280, rfl⟩
abbrev main_v139 : Ref sig .tc := ⟨.hbm, 281, rfl⟩
abbrev main_v140 : Ref sig .tc := ⟨.hbm, 282, rfl⟩
abbrev main_v141 : Ref sig .tc := ⟨.hbm, 283, rfl⟩
abbrev main_v142 : Ref sig .tc := ⟨.hbm, 284, rfl⟩
abbrev main_cst_49 : Ref sig .tc := ⟨.hbm, 285, rfl⟩
abbrev main_cst_50 : Ref sig .tc := ⟨.hbm, 286, rfl⟩
abbrev main_call18_v0 : Ref sig .tc := ⟨.hbm, 287, rfl⟩
abbrev main_call18_v1 : Ref sig .tc := ⟨.hbm, 288, rfl⟩
abbrev main_call18_v2 : Ref sig .tc := ⟨.hbm, 289, rfl⟩
abbrev main_call18_v3 : Ref sig .tc := ⟨.hbm, 290, rfl⟩
abbrev main_call18_v4 : Ref sig .tc := ⟨.hbm, 291, rfl⟩
abbrev main_v143 : Ref sig .tc := ⟨.hbm, 292, rfl⟩
abbrev main_cst_51 : Ref sig .tc := ⟨.hbm, 293, rfl⟩
abbrev main_cst_52 : Ref sig .tc := ⟨.hbm, 294, rfl⟩
abbrev main_call19_v0 : Ref sig .tc := ⟨.hbm, 295, rfl⟩
abbrev main_call19_v1 : Ref sig .tc := ⟨.hbm, 296, rfl⟩
abbrev main_call19_v2 : Ref sig .tc := ⟨.hbm, 297, rfl⟩
abbrev main_call19_v3 : Ref sig .tc := ⟨.hbm, 298, rfl⟩
abbrev main_call19_v4 : Ref sig .tc := ⟨.hbm, 299, rfl⟩
abbrev main_v144 : Ref sig .tc := ⟨.hbm, 300, rfl⟩
abbrev main_v145 : Ref sig .tc := ⟨.hbm, 301, rfl⟩
abbrev main_v146 : Ref sig .tc := ⟨.hbm, 302, rfl⟩
abbrev main_v147 : Ref sig .tc := ⟨.hbm, 303, rfl⟩
abbrev main_v148 : Ref sig .tc := ⟨.hbm, 304, rfl⟩
abbrev main_v149 : Ref sig .tc := ⟨.hbm, 305, rfl⟩
abbrev main_v150 : Ref sig .tc := ⟨.hbm, 306, rfl⟩
abbrev main_v151 : Ref sig .tc := ⟨.hbm, 307, rfl⟩
abbrev main_v152 : Ref sig .tc := ⟨.hbm, 308, rfl⟩
abbrev main_v153 : Ref sig .tc := ⟨.hbm, 309, rfl⟩
abbrev main_cst_53 : Ref sig .tc := ⟨.hbm, 310, rfl⟩
abbrev main_cst_54 : Ref sig .tc := ⟨.hbm, 311, rfl⟩
abbrev main_call20_v0 : Ref sig .tc := ⟨.hbm, 312, rfl⟩
abbrev main_call20_v1 : Ref sig .tc := ⟨.hbm, 313, rfl⟩
abbrev main_call20_v2 : Ref sig .tc := ⟨.hbm, 314, rfl⟩
abbrev main_call20_v3 : Ref sig .tc := ⟨.hbm, 315, rfl⟩
abbrev main_call20_v4 : Ref sig .tc := ⟨.hbm, 316, rfl⟩
abbrev main_v154 : Ref sig .tc := ⟨.hbm, 317, rfl⟩
abbrev main_cst_55 : Ref sig .tc := ⟨.hbm, 318, rfl⟩
abbrev main_cst_56 : Ref sig .tc := ⟨.hbm, 319, rfl⟩
abbrev main_call21_v0 : Ref sig .tc := ⟨.hbm, 320, rfl⟩
abbrev main_call21_v1 : Ref sig .tc := ⟨.hbm, 321, rfl⟩
abbrev main_call21_v2 : Ref sig .tc := ⟨.hbm, 322, rfl⟩
abbrev main_call21_v3 : Ref sig .tc := ⟨.hbm, 323, rfl⟩
abbrev main_call21_v4 : Ref sig .tc := ⟨.hbm, 324, rfl⟩
abbrev main_v155 : Ref sig .tc := ⟨.hbm, 325, rfl⟩
abbrev main_v156 : Ref sig .tc := ⟨.hbm, 326, rfl⟩
abbrev main_v157 : Ref sig .tc := ⟨.hbm, 327, rfl⟩
abbrev main_v158 : Ref sig .tc := ⟨.hbm, 328, rfl⟩
abbrev main_v159 : Ref sig .tc := ⟨.hbm, 329, rfl⟩
abbrev main_v160 : Ref sig .tc := ⟨.hbm, 330, rfl⟩
abbrev main_v161 : Ref sig .tc := ⟨.hbm, 331, rfl⟩
abbrev main_v162 : Ref sig .tc := ⟨.hbm, 332, rfl⟩
abbrev main_cst_57 : Ref sig .tc := ⟨.hbm, 333, rfl⟩
abbrev main_v163 : Ref sig .tc := ⟨.hbm, 334, rfl⟩
abbrev main_cst_58 : Ref sig .tc := ⟨.hbm, 335, rfl⟩
abbrev main_v164 : Ref sig .tc := ⟨.hbm, 336, rfl⟩
abbrev main_v165 : Ref sig .tc := ⟨.hbm, 337, rfl⟩
abbrev main_cst_59 : Ref sig .tc := ⟨.hbm, 338, rfl⟩
abbrev main_v166 : Ref sig .tc := ⟨.hbm, 339, rfl⟩
abbrev main_v167 : Ref sig .tc := ⟨.hbm, 340, rfl⟩
abbrev main_v168 : Ref sig .tc := ⟨.hbm, 341, rfl⟩
abbrev main_v169 : Ref sig .tc := ⟨.hbm, 342, rfl⟩
abbrev main_cst_60 : Ref sig .tc := ⟨.hbm, 343, rfl⟩
abbrev main_v170 : Ref sig .tc := ⟨.hbm, 344, rfl⟩
abbrev main_v171 : Ref sig .tc := ⟨.hbm, 345, rfl⟩
abbrev main_v172 : Ref sig .tc := ⟨.hbm, 346, rfl⟩
abbrev main_v173 : Ref sig .tc := ⟨.hbm, 347, rfl⟩
abbrev main_v174 : Ref sig .tc := ⟨.hbm, 348, rfl⟩
abbrev main_cst_61 : Ref sig .tc := ⟨.hbm, 349, rfl⟩
abbrev main_v175 : Ref sig .tc := ⟨.hbm, 350, rfl⟩
abbrev main_v176 : Ref sig .tc := ⟨.hbm, 351, rfl⟩
abbrev main_cst_62 : Ref sig .tc := ⟨.hbm, 352, rfl⟩
abbrev main_v177 : Ref sig .tc := ⟨.hbm, 353, rfl⟩
abbrev main_v178 : Ref sig .tc := ⟨.hbm, 354, rfl⟩
abbrev main_v179 : Ref sig .tc := ⟨.hbm, 355, rfl⟩
abbrev main_v180 : Ref sig .tc := ⟨.hbm, 356, rfl⟩
abbrev main_v181 : Ref sig .tc := ⟨.hbm, 357, rfl⟩
abbrev main_v182 : Ref sig .tc := ⟨.hbm, 358, rfl⟩
abbrev main_cst_63 : Ref sig .tc := ⟨.hbm, 359, rfl⟩
abbrev main_cst_64 : Ref sig .tc := ⟨.hbm, 360, rfl⟩
abbrev main_call22_v0 : Ref sig .tc := ⟨.hbm, 361, rfl⟩
abbrev main_call22_v1 : Ref sig .tc := ⟨.hbm, 362, rfl⟩
abbrev main_call22_v2 : Ref sig .tc := ⟨.hbm, 363, rfl⟩
abbrev main_call22_v3 : Ref sig .tc := ⟨.hbm, 364, rfl⟩
abbrev main_call22_v4 : Ref sig .tc := ⟨.hbm, 365, rfl⟩
abbrev main_v183 : Ref sig .tc := ⟨.hbm, 366, rfl⟩
abbrev main_cst_65 : Ref sig .tc := ⟨.hbm, 367, rfl⟩
abbrev main_cst_66 : Ref sig .tc := ⟨.hbm, 368, rfl⟩
abbrev main_call23_v0 : Ref sig .tc := ⟨.hbm, 369, rfl⟩
abbrev main_call23_v1 : Ref sig .tc := ⟨.hbm, 370, rfl⟩
abbrev main_call23_v2 : Ref sig .tc := ⟨.hbm, 371, rfl⟩
abbrev main_call23_v3 : Ref sig .tc := ⟨.hbm, 372, rfl⟩
abbrev main_call23_v4 : Ref sig .tc := ⟨.hbm, 373, rfl⟩
abbrev main_v184 : Ref sig .tc := ⟨.hbm, 374, rfl⟩
abbrev main_v185 : Ref sig .tc := ⟨.hbm, 375, rfl⟩
abbrev main_v186 : Ref sig .tc := ⟨.hbm, 376, rfl⟩
abbrev main_v187 : Ref sig .tc := ⟨.hbm, 377, rfl⟩
abbrev main_v188 : Ref sig .tc := ⟨.hbm, 378, rfl⟩
abbrev main_v189 : Ref sig .tc := ⟨.hbm, 379, rfl⟩
abbrev main_v190 : Ref sig .tc := ⟨.hbm, 380, rfl⟩
abbrev main_v191 : Ref sig .tc := ⟨.hbm, 381, rfl⟩
abbrev main_cst_67 : Ref sig .tc := ⟨.hbm, 382, rfl⟩
abbrev main_v192 : Ref sig .tc := ⟨.hbm, 383, rfl⟩
abbrev main_cst_68 : Ref sig .tc := ⟨.hbm, 384, rfl⟩
abbrev main_v193 : Ref sig .tc := ⟨.hbm, 385, rfl⟩
abbrev main_v194 : Ref sig .tc := ⟨.hbm, 386, rfl⟩
abbrev main_cst_69 : Ref sig .tc := ⟨.hbm, 387, rfl⟩
abbrev main_v195 : Ref sig .tc := ⟨.hbm, 388, rfl⟩
abbrev main_v196 : Ref sig .tc := ⟨.hbm, 389, rfl⟩
abbrev main_v197 : Ref sig .tc := ⟨.hbm, 390, rfl⟩
abbrev main_v198 : Ref sig .tc := ⟨.hbm, 391, rfl⟩
abbrev main_cst_70 : Ref sig .tc := ⟨.hbm, 392, rfl⟩
abbrev main_v199 : Ref sig .tc := ⟨.hbm, 393, rfl⟩
abbrev main_v200 : Ref sig .tc := ⟨.hbm, 394, rfl⟩
abbrev main_v201 : Ref sig .tc := ⟨.hbm, 395, rfl⟩
abbrev main_v202 : Ref sig .tc := ⟨.hbm, 396, rfl⟩
abbrev main_v203 : Ref sig .tc := ⟨.hbm, 397, rfl⟩
abbrev main_v204 : Ref sig .tc := ⟨.hbm, 398, rfl⟩
abbrev main_v205 : Ref sig .tc := ⟨.hbm, 399, rfl⟩
abbrev main_v206 : Ref sig .tc := ⟨.hbm, 400, rfl⟩
abbrev main_v207 : Ref sig .tc := ⟨.hbm, 401, rfl⟩
abbrev main_v208 : Ref sig .tc := ⟨.hbm, 402, rfl⟩
abbrev main_v209 : Ref sig .tc := ⟨.hbm, 403, rfl⟩
abbrev main_v210 : Ref sig .tc := ⟨.hbm, 404, rfl⟩
abbrev main_v211 : Ref sig .tc := ⟨.hbm, 405, rfl⟩
abbrev main_cst_71 : Ref sig .tc := ⟨.hbm, 406, rfl⟩
abbrev main_v212 : Ref sig .tc := ⟨.hbm, 407, rfl⟩
abbrev main_v213 : Ref sig .tc := ⟨.hbm, 408, rfl⟩
abbrev main_cst_72 : Ref sig .tc := ⟨.hbm, 409, rfl⟩
abbrev main_v214 : Ref sig .tc := ⟨.hbm, 410, rfl⟩
abbrev main_v215 : Ref sig .tc := ⟨.hbm, 411, rfl⟩
abbrev main_v216 : Ref sig .tc := ⟨.hbm, 412, rfl⟩
abbrev main_v217 : Ref sig .tc := ⟨.hbm, 413, rfl⟩
abbrev main_v218 : Ref sig .tc := ⟨.hbm, 414, rfl⟩
abbrev main_v219 : Ref sig .tc := ⟨.hbm, 415, rfl⟩
abbrev main_cst_73 : Ref sig .tc := ⟨.hbm, 416, rfl⟩
abbrev main_cst_74 : Ref sig .tc := ⟨.hbm, 417, rfl⟩
abbrev main_call24_v0 : Ref sig .tc := ⟨.hbm, 418, rfl⟩
abbrev main_call24_v1 : Ref sig .tc := ⟨.hbm, 419, rfl⟩
abbrev main_call24_v2 : Ref sig .tc := ⟨.hbm, 420, rfl⟩
abbrev main_call24_v3 : Ref sig .tc := ⟨.hbm, 421, rfl⟩
abbrev main_call24_v4 : Ref sig .tc := ⟨.hbm, 422, rfl⟩
abbrev main_v220 : Ref sig .tc := ⟨.hbm, 423, rfl⟩
abbrev main_cst_75 : Ref sig .tc := ⟨.hbm, 424, rfl⟩
abbrev main_cst_76 : Ref sig .tc := ⟨.hbm, 425, rfl⟩
abbrev main_call25_v0 : Ref sig .tc := ⟨.hbm, 426, rfl⟩
abbrev main_call25_v1 : Ref sig .tc := ⟨.hbm, 427, rfl⟩
abbrev main_call25_v2 : Ref sig .tc := ⟨.hbm, 428, rfl⟩
abbrev main_call25_v3 : Ref sig .tc := ⟨.hbm, 429, rfl⟩
abbrev main_call25_v4 : Ref sig .tc := ⟨.hbm, 430, rfl⟩
abbrev main_v221 : Ref sig .tc := ⟨.hbm, 431, rfl⟩
abbrev main_v222 : Ref sig .tc := ⟨.hbm, 432, rfl⟩
abbrev main_v223 : Ref sig .tc := ⟨.hbm, 433, rfl⟩
abbrev main_v224 : Ref sig .tc := ⟨.hbm, 434, rfl⟩
abbrev main_v225 : Ref sig .tc := ⟨.hbm, 435, rfl⟩
abbrev main_v226 : Ref sig .tc := ⟨.hbm, 436, rfl⟩
abbrev main_v227 : Ref sig .tc := ⟨.hbm, 437, rfl⟩
abbrev main_v228 : Ref sig .tc := ⟨.hbm, 438, rfl⟩
abbrev main_v229 : Ref sig .tc := ⟨.hbm, 439, rfl⟩
abbrev main_v230 : Ref sig .tc := ⟨.hbm, 440, rfl⟩
abbrev main_cst_77 : Ref sig .tc := ⟨.hbm, 441, rfl⟩
abbrev main_cst_78 : Ref sig .tc := ⟨.hbm, 442, rfl⟩
abbrev main_call26_v0 : Ref sig .tc := ⟨.hbm, 443, rfl⟩
abbrev main_call26_v1 : Ref sig .tc := ⟨.hbm, 444, rfl⟩
abbrev main_call26_v2 : Ref sig .tc := ⟨.hbm, 445, rfl⟩
abbrev main_call26_v3 : Ref sig .tc := ⟨.hbm, 446, rfl⟩
abbrev main_call26_v4 : Ref sig .tc := ⟨.hbm, 447, rfl⟩
abbrev main_v231 : Ref sig .tc := ⟨.hbm, 448, rfl⟩
abbrev main_cst_79 : Ref sig .tc := ⟨.hbm, 449, rfl⟩
abbrev main_cst_80 : Ref sig .tc := ⟨.hbm, 450, rfl⟩
abbrev main_call27_v0 : Ref sig .tc := ⟨.hbm, 451, rfl⟩
abbrev main_call27_v1 : Ref sig .tc := ⟨.hbm, 452, rfl⟩
abbrev main_call27_v2 : Ref sig .tc := ⟨.hbm, 453, rfl⟩
abbrev main_call27_v3 : Ref sig .tc := ⟨.hbm, 454, rfl⟩
abbrev main_call27_v4 : Ref sig .tc := ⟨.hbm, 455, rfl⟩
abbrev main_v232 : Ref sig .tc := ⟨.hbm, 456, rfl⟩
abbrev main_v233 : Ref sig .tc := ⟨.hbm, 457, rfl⟩
abbrev main_v234 : Ref sig .tc := ⟨.hbm, 458, rfl⟩
abbrev main_v235 : Ref sig .tc := ⟨.hbm, 459, rfl⟩
abbrev main_v236 : Ref sig .tc := ⟨.hbm, 460, rfl⟩
abbrev main_v237 : Ref sig .tc := ⟨.hbm, 461, rfl⟩
abbrev main_v238 : Ref sig .tc := ⟨.hbm, 462, rfl⟩
abbrev main_v239 : Ref sig .tc := ⟨.hbm, 463, rfl⟩
abbrev main_v240 : Ref sig .tc := ⟨.hbm, 464, rfl⟩
abbrev main_v241 : Ref sig .tc := ⟨.hbm, 465, rfl⟩
abbrev main_cst_81 : Ref sig .tc := ⟨.hbm, 466, rfl⟩
abbrev main_cst_82 : Ref sig .tc := ⟨.hbm, 467, rfl⟩
abbrev main_call28_v0 : Ref sig .tc := ⟨.hbm, 468, rfl⟩
abbrev main_call28_v1 : Ref sig .tc := ⟨.hbm, 469, rfl⟩
abbrev main_call28_v2 : Ref sig .tc := ⟨.hbm, 470, rfl⟩
abbrev main_call28_v3 : Ref sig .tc := ⟨.hbm, 471, rfl⟩
abbrev main_call28_v4 : Ref sig .tc := ⟨.hbm, 472, rfl⟩
abbrev main_v242 : Ref sig .tc := ⟨.hbm, 473, rfl⟩
abbrev main_cst_83 : Ref sig .tc := ⟨.hbm, 474, rfl⟩
abbrev main_cst_84 : Ref sig .tc := ⟨.hbm, 475, rfl⟩
abbrev main_call29_v0 : Ref sig .tc := ⟨.hbm, 476, rfl⟩
abbrev main_call29_v1 : Ref sig .tc := ⟨.hbm, 477, rfl⟩
abbrev main_call29_v2 : Ref sig .tc := ⟨.hbm, 478, rfl⟩
abbrev main_call29_v3 : Ref sig .tc := ⟨.hbm, 479, rfl⟩
abbrev main_call29_v4 : Ref sig .tc := ⟨.hbm, 480, rfl⟩
abbrev main_v243 : Ref sig .tc := ⟨.hbm, 481, rfl⟩
abbrev main_v244 : Ref sig .tc := ⟨.hbm, 482, rfl⟩
abbrev main_v245 : Ref sig .tc := ⟨.hbm, 483, rfl⟩
abbrev main_v246 : Ref sig .tc := ⟨.hbm, 484, rfl⟩
abbrev main_v247 : Ref sig .tc := ⟨.hbm, 485, rfl⟩
abbrev main_v248 : Ref sig .tc := ⟨.hbm, 486, rfl⟩
abbrev main_v249 : Ref sig .tc := ⟨.hbm, 487, rfl⟩
abbrev main_v250 : Ref sig .tc := ⟨.hbm, 488, rfl⟩
abbrev main_cst_85 : Ref sig .tc := ⟨.hbm, 489, rfl⟩
abbrev main_v251 : Ref sig .tc := ⟨.hbm, 490, rfl⟩
abbrev main_cst_86 : Ref sig .tc := ⟨.hbm, 491, rfl⟩
abbrev main_v252 : Ref sig .tc := ⟨.hbm, 492, rfl⟩
abbrev main_v253 : Ref sig .tc := ⟨.hbm, 493, rfl⟩
abbrev main_cst_87 : Ref sig .tc := ⟨.hbm, 494, rfl⟩
abbrev main_v254 : Ref sig .tc := ⟨.hbm, 495, rfl⟩
abbrev main_v255 : Ref sig .tc := ⟨.hbm, 496, rfl⟩
abbrev main_v256 : Ref sig .tc := ⟨.hbm, 497, rfl⟩
abbrev main_v257 : Ref sig .tc := ⟨.hbm, 498, rfl⟩
abbrev main_cst_88 : Ref sig .tc := ⟨.hbm, 499, rfl⟩
abbrev main_v258 : Ref sig .tc := ⟨.hbm, 500, rfl⟩
abbrev main_v259 : Ref sig .tc := ⟨.hbm, 501, rfl⟩
abbrev main_v260 : Ref sig .tc := ⟨.hbm, 502, rfl⟩
abbrev main_v261 : Ref sig .tc := ⟨.hbm, 503, rfl⟩
abbrev main_v262 : Ref sig .tc := ⟨.hbm, 504, rfl⟩
abbrev main_cst_89 : Ref sig .tc := ⟨.hbm, 505, rfl⟩
abbrev main_v263 : Ref sig .tc := ⟨.hbm, 506, rfl⟩
abbrev main_v264 : Ref sig .tc := ⟨.hbm, 507, rfl⟩
abbrev main_cst_90 : Ref sig .tc := ⟨.hbm, 508, rfl⟩
abbrev main_v265 : Ref sig .tc := ⟨.hbm, 509, rfl⟩
abbrev main_v266 : Ref sig .tc := ⟨.hbm, 510, rfl⟩
abbrev main_v267 : Ref sig .tc := ⟨.hbm, 511, rfl⟩
abbrev main_v268 : Ref sig .tc := ⟨.hbm, 512, rfl⟩
abbrev main_v269 : Ref sig .tc := ⟨.hbm, 513, rfl⟩
abbrev main_v270 : Ref sig .tc := ⟨.hbm, 514, rfl⟩
abbrev main_cst_91 : Ref sig .tc := ⟨.hbm, 515, rfl⟩
abbrev main_cst_92 : Ref sig .tc := ⟨.hbm, 516, rfl⟩
abbrev main_call30_v0 : Ref sig .tc := ⟨.hbm, 517, rfl⟩
abbrev main_call30_v1 : Ref sig .tc := ⟨.hbm, 518, rfl⟩
abbrev main_call30_v2 : Ref sig .tc := ⟨.hbm, 519, rfl⟩
abbrev main_call30_v3 : Ref sig .tc := ⟨.hbm, 520, rfl⟩
abbrev main_call30_v4 : Ref sig .tc := ⟨.hbm, 521, rfl⟩
abbrev main_v271 : Ref sig .tc := ⟨.hbm, 522, rfl⟩
abbrev main_cst_93 : Ref sig .tc := ⟨.hbm, 523, rfl⟩
abbrev main_cst_94 : Ref sig .tc := ⟨.hbm, 524, rfl⟩
abbrev main_call31_v0 : Ref sig .tc := ⟨.hbm, 525, rfl⟩
abbrev main_call31_v1 : Ref sig .tc := ⟨.hbm, 526, rfl⟩
abbrev main_call31_v2 : Ref sig .tc := ⟨.hbm, 527, rfl⟩
abbrev main_call31_v3 : Ref sig .tc := ⟨.hbm, 528, rfl⟩
abbrev main_call31_v4 : Ref sig .tc := ⟨.hbm, 529, rfl⟩
abbrev main_v272 : Ref sig .tc := ⟨.hbm, 530, rfl⟩
abbrev main_v273 : Ref sig .tc := ⟨.hbm, 531, rfl⟩
abbrev main_v274 : Ref sig .tc := ⟨.hbm, 532, rfl⟩
abbrev main_v275 : Ref sig .tc := ⟨.hbm, 533, rfl⟩
abbrev main_v276 : Ref sig .tc := ⟨.hbm, 534, rfl⟩
abbrev main_v277 : Ref sig .tc := ⟨.hbm, 535, rfl⟩
abbrev main_v278 : Ref sig .tc := ⟨.hbm, 536, rfl⟩
abbrev main_v279 : Ref sig .tc := ⟨.hbm, 537, rfl⟩
abbrev main_cst_95 : Ref sig .tc := ⟨.hbm, 538, rfl⟩
abbrev main_v280 : Ref sig .tc := ⟨.hbm, 539, rfl⟩
abbrev main_cst_96 : Ref sig .tc := ⟨.hbm, 540, rfl⟩
abbrev main_v281 : Ref sig .tc := ⟨.hbm, 541, rfl⟩
abbrev main_v282 : Ref sig .tc := ⟨.hbm, 542, rfl⟩
abbrev main_cst_97 : Ref sig .tc := ⟨.hbm, 543, rfl⟩
abbrev main_v283 : Ref sig .tc := ⟨.hbm, 544, rfl⟩
abbrev main_v284 : Ref sig .tc := ⟨.hbm, 545, rfl⟩
abbrev main_v285 : Ref sig .tc := ⟨.hbm, 546, rfl⟩
abbrev main_v286 : Ref sig .tc := ⟨.hbm, 547, rfl⟩
abbrev main_cst_98 : Ref sig .tc := ⟨.hbm, 548, rfl⟩
abbrev main_v287 : Ref sig .tc := ⟨.hbm, 549, rfl⟩
abbrev main_v288 : Ref sig .tc := ⟨.hbm, 550, rfl⟩
abbrev main_v289 : Ref sig .tc := ⟨.hbm, 551, rfl⟩
abbrev main_v290 : Ref sig .tc := ⟨.hbm, 552, rfl⟩
abbrev main_v291 : Ref sig .tc := ⟨.hbm, 553, rfl⟩
abbrev main_v292 : Ref sig .tc := ⟨.hbm, 554, rfl⟩
abbrev main_v293 : Ref sig .tc := ⟨.hbm, 555, rfl⟩
abbrev main_v294 : Ref sig .tc := ⟨.hbm, 556, rfl⟩
abbrev main_v295 : Ref sig .tc := ⟨.hbm, 557, rfl⟩
abbrev main_cst_99 : Ref sig .tc := ⟨.hbm, 558, rfl⟩
abbrev main_v296 : Ref sig .tc := ⟨.hbm, 559, rfl⟩
abbrev main_v297 : Ref sig .tc := ⟨.hbm, 560, rfl⟩
abbrev main_cst_100 : Ref sig .tc := ⟨.hbm, 561, rfl⟩
abbrev main_v298 : Ref sig .tc := ⟨.hbm, 562, rfl⟩
abbrev main_v299 : Ref sig .tc := ⟨.hbm, 563, rfl⟩
abbrev main_v300 : Ref sig .tc := ⟨.hbm, 564, rfl⟩
abbrev main_v301 : Ref sig .tc := ⟨.hbm, 565, rfl⟩
abbrev main_v302 : Ref sig .tc := ⟨.hbm, 566, rfl⟩
abbrev main_v303 : Ref sig .tc := ⟨.hbm, 567, rfl⟩
abbrev main_cst_101 : Ref sig .tc := ⟨.hbm, 568, rfl⟩
abbrev main_cst_102 : Ref sig .tc := ⟨.hbm, 569, rfl⟩
abbrev main_call32_v0 : Ref sig .tc := ⟨.hbm, 570, rfl⟩
abbrev main_call32_v1 : Ref sig .tc := ⟨.hbm, 571, rfl⟩
abbrev main_call32_v2 : Ref sig .tc := ⟨.hbm, 572, rfl⟩
abbrev main_call32_v3 : Ref sig .tc := ⟨.hbm, 573, rfl⟩
abbrev main_call32_v4 : Ref sig .tc := ⟨.hbm, 574, rfl⟩
abbrev main_v304 : Ref sig .tc := ⟨.hbm, 575, rfl⟩
abbrev main_cst_103 : Ref sig .tc := ⟨.hbm, 576, rfl⟩
abbrev main_cst_104 : Ref sig .tc := ⟨.hbm, 577, rfl⟩
abbrev main_call33_v0 : Ref sig .tc := ⟨.hbm, 578, rfl⟩
abbrev main_call33_v1 : Ref sig .tc := ⟨.hbm, 579, rfl⟩
abbrev main_call33_v2 : Ref sig .tc := ⟨.hbm, 580, rfl⟩
abbrev main_call33_v3 : Ref sig .tc := ⟨.hbm, 581, rfl⟩
abbrev main_call33_v4 : Ref sig .tc := ⟨.hbm, 582, rfl⟩
abbrev main_v305 : Ref sig .tc := ⟨.hbm, 583, rfl⟩
abbrev main_v306 : Ref sig .tc := ⟨.hbm, 584, rfl⟩
abbrev main_v307 : Ref sig .tc := ⟨.hbm, 585, rfl⟩
abbrev main_v308 : Ref sig .tc := ⟨.hbm, 586, rfl⟩
abbrev main_v309 : Ref sig .tc := ⟨.hbm, 587, rfl⟩
abbrev main_v310 : Ref sig .tc := ⟨.hbm, 588, rfl⟩
abbrev main_v311 : Ref sig .tc := ⟨.hbm, 589, rfl⟩
abbrev main_v312 : Ref sig .tc := ⟨.hbm, 590, rfl⟩
abbrev main_v313 : Ref sig .tc := ⟨.hbm, 591, rfl⟩
abbrev main_v314 : Ref sig .tc := ⟨.hbm, 592, rfl⟩
abbrev main_cst_105 : Ref sig .tc := ⟨.hbm, 593, rfl⟩
abbrev main_cst_106 : Ref sig .tc := ⟨.hbm, 594, rfl⟩
abbrev main_call34_v0 : Ref sig .tc := ⟨.hbm, 595, rfl⟩
abbrev main_call34_v1 : Ref sig .tc := ⟨.hbm, 596, rfl⟩
abbrev main_call34_v2 : Ref sig .tc := ⟨.hbm, 597, rfl⟩
abbrev main_call34_v3 : Ref sig .tc := ⟨.hbm, 598, rfl⟩
abbrev main_call34_v4 : Ref sig .tc := ⟨.hbm, 599, rfl⟩
abbrev main_v315 : Ref sig .tc := ⟨.hbm, 600, rfl⟩
abbrev main_cst_107 : Ref sig .tc := ⟨.hbm, 601, rfl⟩
abbrev main_cst_108 : Ref sig .tc := ⟨.hbm, 602, rfl⟩
abbrev main_call35_v0 : Ref sig .tc := ⟨.hbm, 603, rfl⟩
abbrev main_call35_v1 : Ref sig .tc := ⟨.hbm, 604, rfl⟩
abbrev main_call35_v2 : Ref sig .tc := ⟨.hbm, 605, rfl⟩
abbrev main_call35_v3 : Ref sig .tc := ⟨.hbm, 606, rfl⟩
abbrev main_call35_v4 : Ref sig .tc := ⟨.hbm, 607, rfl⟩
abbrev main_v316 : Ref sig .tc := ⟨.hbm, 608, rfl⟩
abbrev main_v317 : Ref sig .tc := ⟨.hbm, 609, rfl⟩
abbrev main_v318 : Ref sig .tc := ⟨.hbm, 610, rfl⟩
abbrev main_v319 : Ref sig .tc := ⟨.hbm, 611, rfl⟩
abbrev main_v320 : Ref sig .tc := ⟨.hbm, 612, rfl⟩
abbrev main_v321 : Ref sig .tc := ⟨.hbm, 613, rfl⟩
abbrev main_v322 : Ref sig .tc := ⟨.hbm, 614, rfl⟩
abbrev main_v323 : Ref sig .tc := ⟨.hbm, 615, rfl⟩
abbrev main_cst_109 : Ref sig .tc := ⟨.hbm, 616, rfl⟩
abbrev main_v324 : Ref sig .tc := ⟨.hbm, 617, rfl⟩
abbrev main_cst_110 : Ref sig .tc := ⟨.hbm, 618, rfl⟩
abbrev main_v325 : Ref sig .tc := ⟨.hbm, 619, rfl⟩
abbrev main_v326 : Ref sig .tc := ⟨.hbm, 620, rfl⟩
abbrev main_cst_111 : Ref sig .tc := ⟨.hbm, 621, rfl⟩
abbrev main_v327 : Ref sig .tc := ⟨.hbm, 622, rfl⟩
abbrev main_v328 : Ref sig .tc := ⟨.hbm, 623, rfl⟩
abbrev main_v329 : Ref sig .tc := ⟨.hbm, 624, rfl⟩
abbrev main_v330 : Ref sig .tc := ⟨.hbm, 625, rfl⟩
abbrev main_cst_112 : Ref sig .tc := ⟨.hbm, 626, rfl⟩
abbrev main_v331 : Ref sig .tc := ⟨.hbm, 627, rfl⟩
abbrev main_v332 : Ref sig .tc := ⟨.hbm, 628, rfl⟩
abbrev main_v333 : Ref sig .tc := ⟨.hbm, 629, rfl⟩
abbrev main_v334 : Ref sig .tc := ⟨.hbm, 630, rfl⟩
abbrev main_v335 : Ref sig .tc := ⟨.hbm, 631, rfl⟩
abbrev main_cst_113 : Ref sig .tc := ⟨.hbm, 632, rfl⟩
abbrev main_v336 : Ref sig .tc := ⟨.hbm, 633, rfl⟩
abbrev main_v337 : Ref sig .tc := ⟨.hbm, 634, rfl⟩
abbrev main_cst_114 : Ref sig .tc := ⟨.hbm, 635, rfl⟩
abbrev main_v338 : Ref sig .tc := ⟨.hbm, 636, rfl⟩
abbrev main_v339 : Ref sig .tc := ⟨.hbm, 637, rfl⟩
abbrev main_v340 : Ref sig .tc := ⟨.hbm, 638, rfl⟩
abbrev main_v341 : Ref sig .tc := ⟨.hbm, 639, rfl⟩
abbrev main_v342 : Ref sig .tc := ⟨.hbm, 640, rfl⟩
abbrev main_v343 : Ref sig .tc := ⟨.hbm, 641, rfl⟩
abbrev main_cst_115 : Ref sig .tc := ⟨.hbm, 642, rfl⟩
abbrev main_cst_116 : Ref sig .tc := ⟨.hbm, 643, rfl⟩
abbrev main_call36_v0 : Ref sig .tc := ⟨.hbm, 644, rfl⟩
abbrev main_call36_v1 : Ref sig .tc := ⟨.hbm, 645, rfl⟩
abbrev main_call36_v2 : Ref sig .tc := ⟨.hbm, 646, rfl⟩
abbrev main_call36_v3 : Ref sig .tc := ⟨.hbm, 647, rfl⟩
abbrev main_call36_v4 : Ref sig .tc := ⟨.hbm, 648, rfl⟩
abbrev main_v344 : Ref sig .tc := ⟨.hbm, 649, rfl⟩
abbrev main_cst_117 : Ref sig .tc := ⟨.hbm, 650, rfl⟩
abbrev main_cst_118 : Ref sig .tc := ⟨.hbm, 651, rfl⟩
abbrev main_call37_v0 : Ref sig .tc := ⟨.hbm, 652, rfl⟩
abbrev main_call37_v1 : Ref sig .tc := ⟨.hbm, 653, rfl⟩
abbrev main_call37_v2 : Ref sig .tc := ⟨.hbm, 654, rfl⟩
abbrev main_call37_v3 : Ref sig .tc := ⟨.hbm, 655, rfl⟩
abbrev main_call37_v4 : Ref sig .tc := ⟨.hbm, 656, rfl⟩
abbrev main_v345 : Ref sig .tc := ⟨.hbm, 657, rfl⟩
abbrev main_v346 : Ref sig .tc := ⟨.hbm, 658, rfl⟩
abbrev main_v347 : Ref sig .tc := ⟨.hbm, 659, rfl⟩
abbrev main_v348 : Ref sig .tc := ⟨.hbm, 660, rfl⟩
abbrev main_v349 : Ref sig .tc := ⟨.hbm, 661, rfl⟩
abbrev main_v350 : Ref sig .tc := ⟨.hbm, 662, rfl⟩
abbrev main_v351 : Ref sig .tc := ⟨.hbm, 663, rfl⟩
abbrev main_v352 : Ref sig .tc := ⟨.hbm, 664, rfl⟩
abbrev main_cst_119 : Ref sig .tc := ⟨.hbm, 665, rfl⟩
abbrev main_v353 : Ref sig .tc := ⟨.hbm, 666, rfl⟩
abbrev main_cst_120 : Ref sig .tc := ⟨.hbm, 667, rfl⟩
abbrev main_v354 : Ref sig .tc := ⟨.hbm, 668, rfl⟩
abbrev main_v355 : Ref sig .tc := ⟨.hbm, 669, rfl⟩
abbrev main_cst_121 : Ref sig .tc := ⟨.hbm, 670, rfl⟩
abbrev main_v356 : Ref sig .tc := ⟨.hbm, 671, rfl⟩
abbrev main_v357 : Ref sig .tc := ⟨.hbm, 672, rfl⟩
abbrev main_v358 : Ref sig .tc := ⟨.hbm, 673, rfl⟩
abbrev main_v359 : Ref sig .tc := ⟨.hbm, 674, rfl⟩
abbrev main_cst_122 : Ref sig .tc := ⟨.hbm, 675, rfl⟩
abbrev main_v360 : Ref sig .tc := ⟨.hbm, 676, rfl⟩
abbrev main_v361 : Ref sig .tc := ⟨.hbm, 677, rfl⟩
abbrev main_v362 : Ref sig .tc := ⟨.hbm, 678, rfl⟩
abbrev main_v363 : Ref sig .tc := ⟨.hbm, 679, rfl⟩
abbrev main_v364 : Ref sig .tc := ⟨.hbm, 680, rfl⟩
abbrev main_v365 : Ref sig .tc := ⟨.hbm, 681, rfl⟩
abbrev main_v366 : Ref sig .tc := ⟨.hbm, 682, rfl⟩
abbrev main_v367 : Ref sig .tc := ⟨.hbm, 683, rfl⟩
abbrev main_v368 : Ref sig .tc := ⟨.hbm, 684, rfl⟩
abbrev main_v369 : Ref sig .tc := ⟨.hbm, 685, rfl⟩
abbrev main_v370 : Ref sig .tc := ⟨.hbm, 686, rfl⟩
abbrev main_v371 : Ref sig .tc := ⟨.hbm, 687, rfl⟩
abbrev main_v372 : Ref sig .tc := ⟨.hbm, 688, rfl⟩
abbrev main_v373 : Ref sig .tc := ⟨.hbm, 689, rfl⟩
abbrev main_v374 : Ref sig .tc := ⟨.hbm, 690, rfl⟩
abbrev main_v375 : Ref sig .tc := ⟨.hbm, 691, rfl⟩
abbrev main_v376 : Ref sig .tc := ⟨.hbm, 692, rfl⟩
abbrev main_cst_123 : Ref sig .tc := ⟨.hbm, 693, rfl⟩
abbrev main_v377 : Ref sig .tc := ⟨.hbm, 694, rfl⟩
abbrev main_v378 : Ref sig .tc := ⟨.hbm, 695, rfl⟩
abbrev main_cst_124 : Ref sig .tc := ⟨.hbm, 696, rfl⟩
abbrev main_v379 : Ref sig .tc := ⟨.hbm, 697, rfl⟩
abbrev main_v380 : Ref sig .tc := ⟨.hbm, 698, rfl⟩
abbrev main_v381 : Ref sig .tc := ⟨.hbm, 699, rfl⟩
abbrev main_v382 : Ref sig .tc := ⟨.hbm, 700, rfl⟩
abbrev main_v383 : Ref sig .tc := ⟨.hbm, 701, rfl⟩
abbrev main_v384 : Ref sig .tc := ⟨.hbm, 702, rfl⟩
abbrev main_cst_125 : Ref sig .tc := ⟨.hbm, 703, rfl⟩
abbrev main_cst_126 : Ref sig .tc := ⟨.hbm, 704, rfl⟩
abbrev main_call38_v0 : Ref sig .tc := ⟨.hbm, 705, rfl⟩
abbrev main_call38_v1 : Ref sig .tc := ⟨.hbm, 706, rfl⟩
abbrev main_call38_v2 : Ref sig .tc := ⟨.hbm, 707, rfl⟩
abbrev main_call38_v3 : Ref sig .tc := ⟨.hbm, 708, rfl⟩
abbrev main_call38_v4 : Ref sig .tc := ⟨.hbm, 709, rfl⟩
abbrev main_v385 : Ref sig .tc := ⟨.hbm, 710, rfl⟩
abbrev main_cst_127 : Ref sig .tc := ⟨.hbm, 711, rfl⟩
abbrev main_cst_128 : Ref sig .tc := ⟨.hbm, 712, rfl⟩
abbrev main_call39_v0 : Ref sig .tc := ⟨.hbm, 713, rfl⟩
abbrev main_call39_v1 : Ref sig .tc := ⟨.hbm, 714, rfl⟩
abbrev main_call39_v2 : Ref sig .tc := ⟨.hbm, 715, rfl⟩
abbrev main_call39_v3 : Ref sig .tc := ⟨.hbm, 716, rfl⟩
abbrev main_call39_v4 : Ref sig .tc := ⟨.hbm, 717, rfl⟩
abbrev main_v386 : Ref sig .tc := ⟨.hbm, 718, rfl⟩
abbrev main_v387 : Ref sig .tc := ⟨.hbm, 719, rfl⟩
abbrev main_v388 : Ref sig .tc := ⟨.hbm, 720, rfl⟩
abbrev main_v389 : Ref sig .tc := ⟨.hbm, 721, rfl⟩
abbrev main_v390 : Ref sig .tc := ⟨.hbm, 722, rfl⟩
abbrev main_v391 : Ref sig .tc := ⟨.hbm, 723, rfl⟩
abbrev main_v392 : Ref sig .tc := ⟨.hbm, 724, rfl⟩
abbrev main_v393 : Ref sig .tc := ⟨.hbm, 725, rfl⟩
abbrev main_v394 : Ref sig .tc := ⟨.hbm, 726, rfl⟩
abbrev main_v395 : Ref sig .tc := ⟨.hbm, 727, rfl⟩
abbrev main_cst_129 : Ref sig .tc := ⟨.hbm, 728, rfl⟩
abbrev main_cst_130 : Ref sig .tc := ⟨.hbm, 729, rfl⟩
abbrev main_call40_v0 : Ref sig .tc := ⟨.hbm, 730, rfl⟩
abbrev main_call40_v1 : Ref sig .tc := ⟨.hbm, 731, rfl⟩
abbrev main_call40_v2 : Ref sig .tc := ⟨.hbm, 732, rfl⟩
abbrev main_call40_v3 : Ref sig .tc := ⟨.hbm, 733, rfl⟩
abbrev main_call40_v4 : Ref sig .tc := ⟨.hbm, 734, rfl⟩
abbrev main_v396 : Ref sig .tc := ⟨.hbm, 735, rfl⟩
abbrev main_cst_131 : Ref sig .tc := ⟨.hbm, 736, rfl⟩
abbrev main_cst_132 : Ref sig .tc := ⟨.hbm, 737, rfl⟩
abbrev main_call41_v0 : Ref sig .tc := ⟨.hbm, 738, rfl⟩
abbrev main_call41_v1 : Ref sig .tc := ⟨.hbm, 739, rfl⟩
abbrev main_call41_v2 : Ref sig .tc := ⟨.hbm, 740, rfl⟩
abbrev main_call41_v3 : Ref sig .tc := ⟨.hbm, 741, rfl⟩
abbrev main_call41_v4 : Ref sig .tc := ⟨.hbm, 742, rfl⟩
abbrev main_v397 : Ref sig .tc := ⟨.hbm, 743, rfl⟩
abbrev main_v398 : Ref sig .tc := ⟨.hbm, 744, rfl⟩
abbrev main_v399 : Ref sig .tc := ⟨.hbm, 745, rfl⟩
abbrev main_v400 : Ref sig .tc := ⟨.hbm, 746, rfl⟩
abbrev main_v401 : Ref sig .tc := ⟨.hbm, 747, rfl⟩
abbrev main_v402 : Ref sig .tc := ⟨.hbm, 748, rfl⟩
abbrev main_v403 : Ref sig .tc := ⟨.hbm, 749, rfl⟩
abbrev main_v404 : Ref sig .tc := ⟨.hbm, 750, rfl⟩
abbrev main_v405 : Ref sig .tc := ⟨.hbm, 751, rfl⟩
abbrev main_v406 : Ref sig .tc := ⟨.hbm, 752, rfl⟩
abbrev main_cst_133 : Ref sig .tc := ⟨.hbm, 753, rfl⟩
abbrev main_cst_134 : Ref sig .tc := ⟨.hbm, 754, rfl⟩
abbrev main_call42_v0 : Ref sig .tc := ⟨.hbm, 755, rfl⟩
abbrev main_call42_v1 : Ref sig .tc := ⟨.hbm, 756, rfl⟩
abbrev main_call42_v2 : Ref sig .tc := ⟨.hbm, 757, rfl⟩
abbrev main_call42_v3 : Ref sig .tc := ⟨.hbm, 758, rfl⟩
abbrev main_call42_v4 : Ref sig .tc := ⟨.hbm, 759, rfl⟩
abbrev main_v407 : Ref sig .tc := ⟨.hbm, 760, rfl⟩
abbrev main_cst_135 : Ref sig .tc := ⟨.hbm, 761, rfl⟩
abbrev main_cst_136 : Ref sig .tc := ⟨.hbm, 762, rfl⟩
abbrev main_call43_v0 : Ref sig .tc := ⟨.hbm, 763, rfl⟩
abbrev main_call43_v1 : Ref sig .tc := ⟨.hbm, 764, rfl⟩
abbrev main_call43_v2 : Ref sig .tc := ⟨.hbm, 765, rfl⟩
abbrev main_call43_v3 : Ref sig .tc := ⟨.hbm, 766, rfl⟩
abbrev main_call43_v4 : Ref sig .tc := ⟨.hbm, 767, rfl⟩
abbrev main_v408 : Ref sig .tc := ⟨.hbm, 768, rfl⟩
abbrev main_v409 : Ref sig .tc := ⟨.hbm, 769, rfl⟩
abbrev main_v410 : Ref sig .tc := ⟨.hbm, 770, rfl⟩
abbrev main_v411 : Ref sig .tc := ⟨.hbm, 771, rfl⟩
abbrev main_v412 : Ref sig .tc := ⟨.hbm, 772, rfl⟩
abbrev main_v413 : Ref sig .tc := ⟨.hbm, 773, rfl⟩
abbrev main_v414 : Ref sig .tc := ⟨.hbm, 774, rfl⟩
abbrev main_v415 : Ref sig .tc := ⟨.hbm, 775, rfl⟩
abbrev main_v416 : Ref sig .tc := ⟨.hbm, 776, rfl⟩
abbrev main_v417 : Ref sig .tc := ⟨.hbm, 777, rfl⟩
abbrev main_cst_137 : Ref sig .tc := ⟨.hbm, 778, rfl⟩
abbrev main_cst_138 : Ref sig .tc := ⟨.hbm, 779, rfl⟩
abbrev main_call44_v0 : Ref sig .tc := ⟨.hbm, 780, rfl⟩
abbrev main_call44_v1 : Ref sig .tc := ⟨.hbm, 781, rfl⟩
abbrev main_call44_v2 : Ref sig .tc := ⟨.hbm, 782, rfl⟩
abbrev main_call44_v3 : Ref sig .tc := ⟨.hbm, 783, rfl⟩
abbrev main_call44_v4 : Ref sig .tc := ⟨.hbm, 784, rfl⟩
abbrev main_v418 : Ref sig .tc := ⟨.hbm, 785, rfl⟩
abbrev main_cst_139 : Ref sig .tc := ⟨.hbm, 786, rfl⟩
abbrev main_cst_140 : Ref sig .tc := ⟨.hbm, 787, rfl⟩
abbrev main_call45_v0 : Ref sig .tc := ⟨.hbm, 788, rfl⟩
abbrev main_call45_v1 : Ref sig .tc := ⟨.hbm, 789, rfl⟩
abbrev main_call45_v2 : Ref sig .tc := ⟨.hbm, 790, rfl⟩
abbrev main_call45_v3 : Ref sig .tc := ⟨.hbm, 791, rfl⟩
abbrev main_call45_v4 : Ref sig .tc := ⟨.hbm, 792, rfl⟩
abbrev main_v419 : Ref sig .tc := ⟨.hbm, 793, rfl⟩
abbrev main_v420 : Ref sig .tc := ⟨.hbm, 794, rfl⟩
abbrev main_v421 : Ref sig .tc := ⟨.hbm, 795, rfl⟩
abbrev main_v422 : Ref sig .tc := ⟨.hbm, 796, rfl⟩
abbrev main_v423 : Ref sig .tc := ⟨.hbm, 797, rfl⟩
abbrev main_v424 : Ref sig .tc := ⟨.hbm, 798, rfl⟩
abbrev main_v425 : Ref sig .tc := ⟨.hbm, 799, rfl⟩
abbrev main_v426 : Ref sig .tc := ⟨.hbm, 800, rfl⟩
abbrev main_cst_141 : Ref sig .tc := ⟨.hbm, 801, rfl⟩
abbrev main_v427 : Ref sig .tc := ⟨.hbm, 802, rfl⟩
abbrev main_cst_142 : Ref sig .tc := ⟨.hbm, 803, rfl⟩
abbrev main_v428 : Ref sig .tc := ⟨.hbm, 804, rfl⟩
abbrev main_v429 : Ref sig .tc := ⟨.hbm, 805, rfl⟩
abbrev main_cst_143 : Ref sig .tc := ⟨.hbm, 806, rfl⟩
abbrev main_v430 : Ref sig .tc := ⟨.hbm, 807, rfl⟩
abbrev main_v431 : Ref sig .tc := ⟨.hbm, 808, rfl⟩
abbrev main_v432 : Ref sig .tc := ⟨.hbm, 809, rfl⟩
abbrev main_v433 : Ref sig .tc := ⟨.hbm, 810, rfl⟩
abbrev main_cst_144 : Ref sig .tc := ⟨.hbm, 811, rfl⟩
abbrev main_v434 : Ref sig .tc := ⟨.hbm, 812, rfl⟩
abbrev main_v435 : Ref sig .tc := ⟨.hbm, 813, rfl⟩
abbrev main_v436 : Ref sig .tc := ⟨.hbm, 814, rfl⟩
abbrev main_v437 : Ref sig .tc := ⟨.hbm, 815, rfl⟩
abbrev main_v438 : Ref sig .tc := ⟨.hbm, 816, rfl⟩
abbrev main_cst_145 : Ref sig .tc := ⟨.hbm, 817, rfl⟩
abbrev main_v439 : Ref sig .tc := ⟨.hbm, 818, rfl⟩
abbrev main_v440 : Ref sig .tc := ⟨.hbm, 819, rfl⟩
abbrev main_cst_146 : Ref sig .tc := ⟨.hbm, 820, rfl⟩
abbrev main_v441 : Ref sig .tc := ⟨.hbm, 821, rfl⟩
abbrev main_v442 : Ref sig .tc := ⟨.hbm, 822, rfl⟩
abbrev main_v443 : Ref sig .tc := ⟨.hbm, 823, rfl⟩
abbrev main_v444 : Ref sig .tc := ⟨.hbm, 824, rfl⟩
abbrev main_v445 : Ref sig .tc := ⟨.hbm, 825, rfl⟩
abbrev main_v446 : Ref sig .tc := ⟨.hbm, 826, rfl⟩
abbrev main_cst_147 : Ref sig .tc := ⟨.hbm, 827, rfl⟩
abbrev main_cst_148 : Ref sig .tc := ⟨.hbm, 828, rfl⟩
abbrev main_call46_v0 : Ref sig .tc := ⟨.hbm, 829, rfl⟩
abbrev main_call46_v1 : Ref sig .tc := ⟨.hbm, 830, rfl⟩
abbrev main_call46_v2 : Ref sig .tc := ⟨.hbm, 831, rfl⟩
abbrev main_call46_v3 : Ref sig .tc := ⟨.hbm, 832, rfl⟩
abbrev main_call46_v4 : Ref sig .tc := ⟨.hbm, 833, rfl⟩
abbrev main_v447 : Ref sig .tc := ⟨.hbm, 834, rfl⟩
abbrev main_cst_149 : Ref sig .tc := ⟨.hbm, 835, rfl⟩
abbrev main_cst_150 : Ref sig .tc := ⟨.hbm, 836, rfl⟩
abbrev main_call47_v0 : Ref sig .tc := ⟨.hbm, 837, rfl⟩
abbrev main_call47_v1 : Ref sig .tc := ⟨.hbm, 838, rfl⟩
abbrev main_call47_v2 : Ref sig .tc := ⟨.hbm, 839, rfl⟩
abbrev main_call47_v3 : Ref sig .tc := ⟨.hbm, 840, rfl⟩
abbrev main_call47_v4 : Ref sig .tc := ⟨.hbm, 841, rfl⟩
abbrev main_v448 : Ref sig .tc := ⟨.hbm, 842, rfl⟩
abbrev main_v449 : Ref sig .tc := ⟨.hbm, 843, rfl⟩
abbrev main_v450 : Ref sig .tc := ⟨.hbm, 844, rfl⟩
abbrev main_v451 : Ref sig .tc := ⟨.hbm, 845, rfl⟩
abbrev main_v452 : Ref sig .tc := ⟨.hbm, 846, rfl⟩
abbrev main_v453 : Ref sig .tc := ⟨.hbm, 847, rfl⟩
abbrev main_v454 : Ref sig .tc := ⟨.hbm, 848, rfl⟩
abbrev main_v455 : Ref sig .tc := ⟨.hbm, 849, rfl⟩
abbrev main_cst_151 : Ref sig .tc := ⟨.hbm, 850, rfl⟩
abbrev main_v456 : Ref sig .tc := ⟨.hbm, 851, rfl⟩
abbrev main_cst_152 : Ref sig .tc := ⟨.hbm, 852, rfl⟩
abbrev main_v457 : Ref sig .tc := ⟨.hbm, 853, rfl⟩
abbrev main_v458 : Ref sig .tc := ⟨.hbm, 854, rfl⟩
abbrev main_cst_153 : Ref sig .tc := ⟨.hbm, 855, rfl⟩
abbrev main_v459 : Ref sig .tc := ⟨.hbm, 856, rfl⟩
abbrev main_v460 : Ref sig .tc := ⟨.hbm, 857, rfl⟩
abbrev main_v461 : Ref sig .tc := ⟨.hbm, 858, rfl⟩
abbrev main_v462 : Ref sig .tc := ⟨.hbm, 859, rfl⟩
abbrev main_cst_154 : Ref sig .tc := ⟨.hbm, 860, rfl⟩
abbrev main_v463 : Ref sig .tc := ⟨.hbm, 861, rfl⟩
abbrev main_v464 : Ref sig .tc := ⟨.hbm, 862, rfl⟩
abbrev main_v465 : Ref sig .tc := ⟨.hbm, 863, rfl⟩
abbrev main_v466 : Ref sig .tc := ⟨.hbm, 864, rfl⟩
abbrev main_v467 : Ref sig .tc := ⟨.hbm, 865, rfl⟩
abbrev main_v468 : Ref sig .tc := ⟨.hbm, 866, rfl⟩
abbrev main_v469 : Ref sig .tc := ⟨.hbm, 867, rfl⟩
abbrev main_v470 : Ref sig .tc := ⟨.hbm, 868, rfl⟩
abbrev main_v471 : Ref sig .tc := ⟨.hbm, 869, rfl⟩
abbrev main_cst_155 : Ref sig .tc := ⟨.hbm, 870, rfl⟩
abbrev main_v472 : Ref sig .tc := ⟨.hbm, 871, rfl⟩
abbrev main_v473 : Ref sig .tc := ⟨.hbm, 872, rfl⟩
abbrev main_cst_156 : Ref sig .tc := ⟨.hbm, 873, rfl⟩
abbrev main_v474 : Ref sig .tc := ⟨.hbm, 874, rfl⟩
abbrev main_v475 : Ref sig .tc := ⟨.hbm, 875, rfl⟩
abbrev main_v476 : Ref sig .tc := ⟨.hbm, 876, rfl⟩
abbrev main_v477 : Ref sig .tc := ⟨.hbm, 877, rfl⟩
abbrev main_v478 : Ref sig .tc := ⟨.hbm, 878, rfl⟩
abbrev main_v479 : Ref sig .tc := ⟨.hbm, 879, rfl⟩
abbrev main_cst_157 : Ref sig .tc := ⟨.hbm, 880, rfl⟩
abbrev main_cst_158 : Ref sig .tc := ⟨.hbm, 881, rfl⟩
abbrev main_call48_v0 : Ref sig .tc := ⟨.hbm, 882, rfl⟩
abbrev main_call48_v1 : Ref sig .tc := ⟨.hbm, 883, rfl⟩
abbrev main_call48_v2 : Ref sig .tc := ⟨.hbm, 884, rfl⟩
abbrev main_call48_v3 : Ref sig .tc := ⟨.hbm, 885, rfl⟩
abbrev main_call48_v4 : Ref sig .tc := ⟨.hbm, 886, rfl⟩
abbrev main_v480 : Ref sig .tc := ⟨.hbm, 887, rfl⟩
abbrev main_cst_159 : Ref sig .tc := ⟨.hbm, 888, rfl⟩
abbrev main_cst_160 : Ref sig .tc := ⟨.hbm, 889, rfl⟩
abbrev main_call49_v0 : Ref sig .tc := ⟨.hbm, 890, rfl⟩
abbrev main_call49_v1 : Ref sig .tc := ⟨.hbm, 891, rfl⟩
abbrev main_call49_v2 : Ref sig .tc := ⟨.hbm, 892, rfl⟩
abbrev main_call49_v3 : Ref sig .tc := ⟨.hbm, 893, rfl⟩
abbrev main_call49_v4 : Ref sig .tc := ⟨.hbm, 894, rfl⟩
abbrev main_v481 : Ref sig .tc := ⟨.hbm, 895, rfl⟩
abbrev main_v482 : Ref sig .tc := ⟨.hbm, 896, rfl⟩
abbrev main_v483 : Ref sig .tc := ⟨.hbm, 897, rfl⟩
abbrev main_v484 : Ref sig .tc := ⟨.hbm, 898, rfl⟩
abbrev main_v485 : Ref sig .tc := ⟨.hbm, 899, rfl⟩
abbrev main_v486 : Ref sig .tc := ⟨.hbm, 900, rfl⟩
abbrev main_v487 : Ref sig .tc := ⟨.hbm, 901, rfl⟩
abbrev main_v488 : Ref sig .tc := ⟨.hbm, 902, rfl⟩
abbrev main_v489 : Ref sig .tc := ⟨.hbm, 903, rfl⟩
abbrev main_v490 : Ref sig .tc := ⟨.hbm, 904, rfl⟩
abbrev main_cst_161 : Ref sig .tc := ⟨.hbm, 905, rfl⟩
abbrev main_cst_162 : Ref sig .tc := ⟨.hbm, 906, rfl⟩
abbrev main_call50_v0 : Ref sig .tc := ⟨.hbm, 907, rfl⟩
abbrev main_call50_v1 : Ref sig .tc := ⟨.hbm, 908, rfl⟩
abbrev main_call50_v2 : Ref sig .tc := ⟨.hbm, 909, rfl⟩
abbrev main_call50_v3 : Ref sig .tc := ⟨.hbm, 910, rfl⟩
abbrev main_call50_v4 : Ref sig .tc := ⟨.hbm, 911, rfl⟩
abbrev main_v491 : Ref sig .tc := ⟨.hbm, 912, rfl⟩
abbrev main_cst_163 : Ref sig .tc := ⟨.hbm, 913, rfl⟩
abbrev main_cst_164 : Ref sig .tc := ⟨.hbm, 914, rfl⟩
abbrev main_call51_v0 : Ref sig .tc := ⟨.hbm, 915, rfl⟩
abbrev main_call51_v1 : Ref sig .tc := ⟨.hbm, 916, rfl⟩
abbrev main_call51_v2 : Ref sig .tc := ⟨.hbm, 917, rfl⟩
abbrev main_call51_v3 : Ref sig .tc := ⟨.hbm, 918, rfl⟩
abbrev main_call51_v4 : Ref sig .tc := ⟨.hbm, 919, rfl⟩
abbrev main_v492 : Ref sig .tc := ⟨.hbm, 920, rfl⟩
abbrev main_v493 : Ref sig .tc := ⟨.hbm, 921, rfl⟩
abbrev main_v494 : Ref sig .tc := ⟨.hbm, 922, rfl⟩
abbrev main_v495 : Ref sig .tc := ⟨.hbm, 923, rfl⟩
abbrev main_v496 : Ref sig .tc := ⟨.hbm, 924, rfl⟩
abbrev main_v497 : Ref sig .tc := ⟨.hbm, 925, rfl⟩
abbrev main_v498 : Ref sig .tc := ⟨.hbm, 926, rfl⟩
abbrev main_v499 : Ref sig .tc := ⟨.hbm, 927, rfl⟩
abbrev main_cst_165 : Ref sig .tc := ⟨.hbm, 928, rfl⟩
abbrev main_v500 : Ref sig .tc := ⟨.hbm, 929, rfl⟩
abbrev main_cst_166 : Ref sig .tc := ⟨.hbm, 930, rfl⟩
abbrev main_v501 : Ref sig .tc := ⟨.hbm, 931, rfl⟩
abbrev main_v502 : Ref sig .tc := ⟨.hbm, 932, rfl⟩
abbrev main_cst_167 : Ref sig .tc := ⟨.hbm, 933, rfl⟩
abbrev main_v503 : Ref sig .tc := ⟨.hbm, 934, rfl⟩
abbrev main_v504 : Ref sig .tc := ⟨.hbm, 935, rfl⟩
abbrev main_v505 : Ref sig .tc := ⟨.hbm, 936, rfl⟩
abbrev main_v506 : Ref sig .tc := ⟨.hbm, 937, rfl⟩
abbrev main_cst_168 : Ref sig .tc := ⟨.hbm, 938, rfl⟩
abbrev main_v507 : Ref sig .tc := ⟨.hbm, 939, rfl⟩
abbrev main_v508 : Ref sig .tc := ⟨.hbm, 940, rfl⟩
abbrev main_v509 : Ref sig .tc := ⟨.hbm, 941, rfl⟩
abbrev main_v510 : Ref sig .tc := ⟨.hbm, 942, rfl⟩
abbrev main_v511 : Ref sig .tc := ⟨.hbm, 943, rfl⟩
abbrev main_cst_169 : Ref sig .tc := ⟨.hbm, 944, rfl⟩
abbrev main_v512 : Ref sig .tc := ⟨.hbm, 945, rfl⟩
abbrev main_v513 : Ref sig .tc := ⟨.hbm, 946, rfl⟩
abbrev main_cst_170 : Ref sig .tc := ⟨.hbm, 947, rfl⟩
abbrev main_v514 : Ref sig .tc := ⟨.hbm, 948, rfl⟩
abbrev main_v515 : Ref sig .tc := ⟨.hbm, 949, rfl⟩
abbrev main_v516 : Ref sig .tc := ⟨.hbm, 950, rfl⟩
abbrev main_v517 : Ref sig .tc := ⟨.hbm, 951, rfl⟩
abbrev main_v518 : Ref sig .tc := ⟨.hbm, 952, rfl⟩
abbrev main_v519 : Ref sig .tc := ⟨.hbm, 953, rfl⟩
abbrev main_cst_171 : Ref sig .tc := ⟨.hbm, 954, rfl⟩
abbrev main_cst_172 : Ref sig .tc := ⟨.hbm, 955, rfl⟩
abbrev main_call52_v0 : Ref sig .tc := ⟨.hbm, 956, rfl⟩
abbrev main_call52_v1 : Ref sig .tc := ⟨.hbm, 957, rfl⟩
abbrev main_call52_v2 : Ref sig .tc := ⟨.hbm, 958, rfl⟩
abbrev main_call52_v3 : Ref sig .tc := ⟨.hbm, 959, rfl⟩
abbrev main_call52_v4 : Ref sig .tc := ⟨.hbm, 960, rfl⟩
abbrev main_v520 : Ref sig .tc := ⟨.hbm, 961, rfl⟩
abbrev main_cst_173 : Ref sig .tc := ⟨.hbm, 962, rfl⟩
abbrev main_cst_174 : Ref sig .tc := ⟨.hbm, 963, rfl⟩
abbrev main_call53_v0 : Ref sig .tc := ⟨.hbm, 964, rfl⟩
abbrev main_call53_v1 : Ref sig .tc := ⟨.hbm, 965, rfl⟩
abbrev main_call53_v2 : Ref sig .tc := ⟨.hbm, 966, rfl⟩
abbrev main_call53_v3 : Ref sig .tc := ⟨.hbm, 967, rfl⟩
abbrev main_call53_v4 : Ref sig .tc := ⟨.hbm, 968, rfl⟩
abbrev main_v521 : Ref sig .tc := ⟨.hbm, 969, rfl⟩
abbrev main_v522 : Ref sig .tc := ⟨.hbm, 970, rfl⟩
abbrev main_v523 : Ref sig .tc := ⟨.hbm, 971, rfl⟩
abbrev main_v524 : Ref sig .tc := ⟨.hbm, 972, rfl⟩
abbrev main_v525 : Ref sig .tc := ⟨.hbm, 973, rfl⟩
abbrev main_v526 : Ref sig .tc := ⟨.hbm, 974, rfl⟩
abbrev main_v527 : Ref sig .tc := ⟨.hbm, 975, rfl⟩
abbrev main_v528 : Ref sig .tc := ⟨.hbm, 976, rfl⟩
abbrev main_cst_175 : Ref sig .tc := ⟨.hbm, 977, rfl⟩
abbrev main_v529 : Ref sig .tc := ⟨.hbm, 978, rfl⟩
abbrev main_cst_176 : Ref sig .tc := ⟨.hbm, 979, rfl⟩
abbrev main_v530 : Ref sig .tc := ⟨.hbm, 980, rfl⟩
abbrev main_v531 : Ref sig .tc := ⟨.hbm, 981, rfl⟩
abbrev main_cst_177 : Ref sig .tc := ⟨.hbm, 982, rfl⟩
abbrev main_v532 : Ref sig .tc := ⟨.hbm, 983, rfl⟩
abbrev main_v533 : Ref sig .tc := ⟨.hbm, 984, rfl⟩
abbrev main_v534 : Ref sig .tc := ⟨.hbm, 985, rfl⟩
abbrev main_v535 : Ref sig .tc := ⟨.hbm, 986, rfl⟩
abbrev main_cst_178 : Ref sig .tc := ⟨.hbm, 987, rfl⟩
abbrev main_v536 : Ref sig .tc := ⟨.hbm, 988, rfl⟩
abbrev main_v537 : Ref sig .tc := ⟨.hbm, 989, rfl⟩
abbrev main_v538 : Ref sig .tc := ⟨.hbm, 990, rfl⟩
abbrev main_v539 : Ref sig .tc := ⟨.hbm, 991, rfl⟩
abbrev main_v540 : Ref sig .tc := ⟨.hbm, 992, rfl⟩
abbrev main_v541 : Ref sig .tc := ⟨.hbm, 993, rfl⟩
abbrev main_v542 : Ref sig .tc := ⟨.hbm, 994, rfl⟩
abbrev main_v543 : Ref sig .tc := ⟨.hbm, 995, rfl⟩
abbrev main_v544 : Ref sig .tc := ⟨.hbm, 996, rfl⟩
abbrev main_v545 : Ref sig .tc := ⟨.hbm, 997, rfl⟩
abbrev main_v546 : Ref sig .tc := ⟨.hbm, 998, rfl⟩
abbrev main_v547 : Ref sig .tc := ⟨.hbm, 999, rfl⟩
abbrev main_v548 : Ref sig .tc := ⟨.hbm, 1000, rfl⟩
abbrev main_cst_179 : Ref sig .tc := ⟨.hbm, 1001, rfl⟩
abbrev main_v549 : Ref sig .tc := ⟨.hbm, 1002, rfl⟩
abbrev main_v550 : Ref sig .tc := ⟨.hbm, 1003, rfl⟩
abbrev main_cst_180 : Ref sig .tc := ⟨.hbm, 1004, rfl⟩
abbrev main_v551 : Ref sig .tc := ⟨.hbm, 1005, rfl⟩
abbrev main_v552 : Ref sig .tc := ⟨.hbm, 1006, rfl⟩
abbrev main_v553 : Ref sig .tc := ⟨.hbm, 1007, rfl⟩
abbrev main_v554 : Ref sig .tc := ⟨.hbm, 1008, rfl⟩
abbrev main_v555 : Ref sig .tc := ⟨.hbm, 1009, rfl⟩
abbrev main_v556 : Ref sig .tc := ⟨.hbm, 1010, rfl⟩
abbrev main_cst_181 : Ref sig .tc := ⟨.hbm, 1011, rfl⟩
abbrev main_cst_182 : Ref sig .tc := ⟨.hbm, 1012, rfl⟩
abbrev main_call54_v0 : Ref sig .tc := ⟨.hbm, 1013, rfl⟩
abbrev main_call54_v1 : Ref sig .tc := ⟨.hbm, 1014, rfl⟩
abbrev main_call54_v2 : Ref sig .tc := ⟨.hbm, 1015, rfl⟩
abbrev main_call54_v3 : Ref sig .tc := ⟨.hbm, 1016, rfl⟩
abbrev main_call54_v4 : Ref sig .tc := ⟨.hbm, 1017, rfl⟩
abbrev main_v557 : Ref sig .tc := ⟨.hbm, 1018, rfl⟩
abbrev main_cst_183 : Ref sig .tc := ⟨.hbm, 1019, rfl⟩
abbrev main_cst_184 : Ref sig .tc := ⟨.hbm, 1020, rfl⟩
abbrev main_call55_v0 : Ref sig .tc := ⟨.hbm, 1021, rfl⟩
abbrev main_call55_v1 : Ref sig .tc := ⟨.hbm, 1022, rfl⟩
abbrev main_call55_v2 : Ref sig .tc := ⟨.hbm, 1023, rfl⟩
abbrev main_call55_v3 : Ref sig .tc := ⟨.hbm, 1024, rfl⟩
abbrev main_call55_v4 : Ref sig .tc := ⟨.hbm, 1025, rfl⟩
abbrev main_v558 : Ref sig .tc := ⟨.hbm, 1026, rfl⟩
abbrev main_v559 : Ref sig .tc := ⟨.hbm, 1027, rfl⟩
abbrev main_v560 : Ref sig .tc := ⟨.hbm, 1028, rfl⟩
abbrev main_v561 : Ref sig .tc := ⟨.hbm, 1029, rfl⟩
abbrev main_v562 : Ref sig .tc := ⟨.hbm, 1030, rfl⟩
abbrev main_v563 : Ref sig .tc := ⟨.hbm, 1031, rfl⟩
abbrev main_v564 : Ref sig .tc := ⟨.hbm, 1032, rfl⟩
abbrev main_v565 : Ref sig .tc := ⟨.hbm, 1033, rfl⟩
abbrev main_v566 : Ref sig .tc := ⟨.hbm, 1034, rfl⟩
abbrev main_v567 : Ref sig .tc := ⟨.hbm, 1035, rfl⟩
abbrev main_cst_185 : Ref sig .tc := ⟨.hbm, 1036, rfl⟩
abbrev main_cst_186 : Ref sig .tc := ⟨.hbm, 1037, rfl⟩
abbrev main_call56_v0 : Ref sig .tc := ⟨.hbm, 1038, rfl⟩
abbrev main_call56_v1 : Ref sig .tc := ⟨.hbm, 1039, rfl⟩
abbrev main_call56_v2 : Ref sig .tc := ⟨.hbm, 1040, rfl⟩
abbrev main_call56_v3 : Ref sig .tc := ⟨.hbm, 1041, rfl⟩
abbrev main_call56_v4 : Ref sig .tc := ⟨.hbm, 1042, rfl⟩
abbrev main_v568 : Ref sig .tc := ⟨.hbm, 1043, rfl⟩
abbrev main_cst_187 : Ref sig .tc := ⟨.hbm, 1044, rfl⟩
abbrev main_cst_188 : Ref sig .tc := ⟨.hbm, 1045, rfl⟩
abbrev main_call57_v0 : Ref sig .tc := ⟨.hbm, 1046, rfl⟩
abbrev main_call57_v1 : Ref sig .tc := ⟨.hbm, 1047, rfl⟩
abbrev main_call57_v2 : Ref sig .tc := ⟨.hbm, 1048, rfl⟩
abbrev main_call57_v3 : Ref sig .tc := ⟨.hbm, 1049, rfl⟩
abbrev main_call57_v4 : Ref sig .tc := ⟨.hbm, 1050, rfl⟩
abbrev main_v569 : Ref sig .tc := ⟨.hbm, 1051, rfl⟩
abbrev main_v570 : Ref sig .tc := ⟨.hbm, 1052, rfl⟩
abbrev main_v571 : Ref sig .tc := ⟨.hbm, 1053, rfl⟩
abbrev main_v572 : Ref sig .tc := ⟨.hbm, 1054, rfl⟩
abbrev main_v573 : Ref sig .tc := ⟨.hbm, 1055, rfl⟩
abbrev main_v574 : Ref sig .tc := ⟨.hbm, 1056, rfl⟩
abbrev main_v575 : Ref sig .tc := ⟨.hbm, 1057, rfl⟩
abbrev main_v576 : Ref sig .tc := ⟨.hbm, 1058, rfl⟩
abbrev main_v577 : Ref sig .tc := ⟨.hbm, 1059, rfl⟩
abbrev main_v578 : Ref sig .tc := ⟨.hbm, 1060, rfl⟩
abbrev main_cst_189 : Ref sig .tc := ⟨.hbm, 1061, rfl⟩
abbrev main_cst_190 : Ref sig .tc := ⟨.hbm, 1062, rfl⟩
abbrev main_call58_v0 : Ref sig .tc := ⟨.hbm, 1063, rfl⟩
abbrev main_call58_v1 : Ref sig .tc := ⟨.hbm, 1064, rfl⟩
abbrev main_call58_v2 : Ref sig .tc := ⟨.hbm, 1065, rfl⟩
abbrev main_call58_v3 : Ref sig .tc := ⟨.hbm, 1066, rfl⟩
abbrev main_call58_v4 : Ref sig .tc := ⟨.hbm, 1067, rfl⟩
abbrev main_v579 : Ref sig .tc := ⟨.hbm, 1068, rfl⟩
abbrev main_cst_191 : Ref sig .tc := ⟨.hbm, 1069, rfl⟩
abbrev main_cst_192 : Ref sig .tc := ⟨.hbm, 1070, rfl⟩
abbrev main_call59_v0 : Ref sig .tc := ⟨.hbm, 1071, rfl⟩
abbrev main_call59_v1 : Ref sig .tc := ⟨.hbm, 1072, rfl⟩
abbrev main_call59_v2 : Ref sig .tc := ⟨.hbm, 1073, rfl⟩
abbrev main_call59_v3 : Ref sig .tc := ⟨.hbm, 1074, rfl⟩
abbrev main_call59_v4 : Ref sig .tc := ⟨.hbm, 1075, rfl⟩
abbrev main_v580 : Ref sig .tc := ⟨.hbm, 1076, rfl⟩
abbrev main_v581 : Ref sig .tc := ⟨.hbm, 1077, rfl⟩
abbrev main_v582 : Ref sig .tc := ⟨.hbm, 1078, rfl⟩
abbrev main_v583 : Ref sig .tc := ⟨.hbm, 1079, rfl⟩
abbrev main_v584 : Ref sig .tc := ⟨.hbm, 1080, rfl⟩
abbrev main_v585 : Ref sig .tc := ⟨.hbm, 1081, rfl⟩
abbrev main_v586 : Ref sig .tc := ⟨.hbm, 1082, rfl⟩
abbrev main_v587 : Ref sig .tc := ⟨.hbm, 1083, rfl⟩
abbrev main_cst_193 : Ref sig .tc := ⟨.hbm, 1084, rfl⟩
abbrev main_v588 : Ref sig .tc := ⟨.hbm, 1085, rfl⟩
abbrev main_cst_194 : Ref sig .tc := ⟨.hbm, 1086, rfl⟩
abbrev main_v589 : Ref sig .tc := ⟨.hbm, 1087, rfl⟩
abbrev main_v590 : Ref sig .tc := ⟨.hbm, 1088, rfl⟩
abbrev main_cst_195 : Ref sig .tc := ⟨.hbm, 1089, rfl⟩
abbrev main_v591 : Ref sig .tc := ⟨.hbm, 1090, rfl⟩
abbrev main_v592 : Ref sig .tc := ⟨.hbm, 1091, rfl⟩
abbrev main_v593 : Ref sig .tc := ⟨.hbm, 1092, rfl⟩
abbrev main_v594 : Ref sig .tc := ⟨.hbm, 1093, rfl⟩
abbrev main_cst_196 : Ref sig .tc := ⟨.hbm, 1094, rfl⟩
abbrev main_v595 : Ref sig .tc := ⟨.hbm, 1095, rfl⟩
abbrev main_v596 : Ref sig .tc := ⟨.hbm, 1096, rfl⟩
abbrev main_v597 : Ref sig .tc := ⟨.hbm, 1097, rfl⟩
abbrev main_v598 : Ref sig .tc := ⟨.hbm, 1098, rfl⟩
abbrev main_v599 : Ref sig .tc := ⟨.hbm, 1099, rfl⟩
abbrev main_cst_197 : Ref sig .tc := ⟨.hbm, 1100, rfl⟩
abbrev main_v600 : Ref sig .tc := ⟨.hbm, 1101, rfl⟩
abbrev main_v601 : Ref sig .tc := ⟨.hbm, 1102, rfl⟩
abbrev main_cst_198 : Ref sig .tc := ⟨.hbm, 1103, rfl⟩
abbrev main_v602 : Ref sig .tc := ⟨.hbm, 1104, rfl⟩
abbrev main_v603 : Ref sig .tc := ⟨.hbm, 1105, rfl⟩
abbrev main_v604 : Ref sig .tc := ⟨.hbm, 1106, rfl⟩
abbrev main_v605 : Ref sig .tc := ⟨.hbm, 1107, rfl⟩
abbrev main_v606 : Ref sig .tc := ⟨.hbm, 1108, rfl⟩
abbrev main_v607 : Ref sig .tc := ⟨.hbm, 1109, rfl⟩
abbrev main_cst_199 : Ref sig .tc := ⟨.hbm, 1110, rfl⟩
abbrev main_cst_200 : Ref sig .tc := ⟨.hbm, 1111, rfl⟩
abbrev main_call60_v0 : Ref sig .tc := ⟨.hbm, 1112, rfl⟩
abbrev main_call60_v1 : Ref sig .tc := ⟨.hbm, 1113, rfl⟩
abbrev main_call60_v2 : Ref sig .tc := ⟨.hbm, 1114, rfl⟩
abbrev main_call60_v3 : Ref sig .tc := ⟨.hbm, 1115, rfl⟩
abbrev main_call60_v4 : Ref sig .tc := ⟨.hbm, 1116, rfl⟩
abbrev main_v608 : Ref sig .tc := ⟨.hbm, 1117, rfl⟩
abbrev main_cst_201 : Ref sig .tc := ⟨.hbm, 1118, rfl⟩
abbrev main_cst_202 : Ref sig .tc := ⟨.hbm, 1119, rfl⟩
abbrev main_call61_v0 : Ref sig .tc := ⟨.hbm, 1120, rfl⟩
abbrev main_call61_v1 : Ref sig .tc := ⟨.hbm, 1121, rfl⟩
abbrev main_call61_v2 : Ref sig .tc := ⟨.hbm, 1122, rfl⟩
abbrev main_call61_v3 : Ref sig .tc := ⟨.hbm, 1123, rfl⟩
abbrev main_call61_v4 : Ref sig .tc := ⟨.hbm, 1124, rfl⟩
abbrev main_v609 : Ref sig .tc := ⟨.hbm, 1125, rfl⟩
abbrev main_v610 : Ref sig .tc := ⟨.hbm, 1126, rfl⟩
abbrev main_v611 : Ref sig .tc := ⟨.hbm, 1127, rfl⟩
abbrev main_v612 : Ref sig .tc := ⟨.hbm, 1128, rfl⟩
abbrev main_v613 : Ref sig .tc := ⟨.hbm, 1129, rfl⟩
abbrev main_v614 : Ref sig .tc := ⟨.hbm, 1130, rfl⟩
abbrev main_v615 : Ref sig .tc := ⟨.hbm, 1131, rfl⟩
abbrev main_v616 : Ref sig .tc := ⟨.hbm, 1132, rfl⟩
abbrev main_cst_203 : Ref sig .tc := ⟨.hbm, 1133, rfl⟩
abbrev main_v617 : Ref sig .tc := ⟨.hbm, 1134, rfl⟩
abbrev main_cst_204 : Ref sig .tc := ⟨.hbm, 1135, rfl⟩
abbrev main_v618 : Ref sig .tc := ⟨.hbm, 1136, rfl⟩
abbrev main_v619 : Ref sig .tc := ⟨.hbm, 1137, rfl⟩
abbrev main_cst_205 : Ref sig .tc := ⟨.hbm, 1138, rfl⟩
abbrev main_v620 : Ref sig .tc := ⟨.hbm, 1139, rfl⟩
abbrev main_v621 : Ref sig .tc := ⟨.hbm, 1140, rfl⟩
abbrev main_v622 : Ref sig .tc := ⟨.hbm, 1141, rfl⟩
abbrev main_v623 : Ref sig .tc := ⟨.hbm, 1142, rfl⟩
abbrev main_cst_206 : Ref sig .tc := ⟨.hbm, 1143, rfl⟩
abbrev main_v624 : Ref sig .tc := ⟨.hbm, 1144, rfl⟩
abbrev main_v625 : Ref sig .tc := ⟨.hbm, 1145, rfl⟩
abbrev main_v626 : Ref sig .tc := ⟨.hbm, 1146, rfl⟩
abbrev main_v627 : Ref sig .tc := ⟨.hbm, 1147, rfl⟩
abbrev main_v628 : Ref sig .tc := ⟨.hbm, 1148, rfl⟩
abbrev main_v629 : Ref sig .tc := ⟨.hbm, 1149, rfl⟩
abbrev main_v630 : Ref sig .tc := ⟨.hbm, 1150, rfl⟩
abbrev main_v631 : Ref sig .tc := ⟨.hbm, 1151, rfl⟩
abbrev main_v632 : Ref sig .tc := ⟨.hbm, 1152, rfl⟩
abbrev main_cst_207 : Ref sig .tc := ⟨.hbm, 1153, rfl⟩
abbrev main_v633 : Ref sig .tc := ⟨.hbm, 1154, rfl⟩
abbrev main_v634 : Ref sig .tc := ⟨.hbm, 1155, rfl⟩
abbrev main_cst_208 : Ref sig .tc := ⟨.hbm, 1156, rfl⟩
abbrev main_v635 : Ref sig .tc := ⟨.hbm, 1157, rfl⟩
abbrev main_v636 : Ref sig .tc := ⟨.hbm, 1158, rfl⟩
abbrev main_v637 : Ref sig .tc := ⟨.hbm, 1159, rfl⟩
abbrev main_v638 : Ref sig .tc := ⟨.hbm, 1160, rfl⟩
abbrev main_v639 : Ref sig .tc := ⟨.hbm, 1161, rfl⟩
abbrev main_v640 : Ref sig .tc := ⟨.hbm, 1162, rfl⟩
abbrev main_cst_209 : Ref sig .tc := ⟨.hbm, 1163, rfl⟩
abbrev main_cst_210 : Ref sig .tc := ⟨.hbm, 1164, rfl⟩
abbrev main_call62_v0 : Ref sig .tc := ⟨.hbm, 1165, rfl⟩
abbrev main_call62_v1 : Ref sig .tc := ⟨.hbm, 1166, rfl⟩
abbrev main_call62_v2 : Ref sig .tc := ⟨.hbm, 1167, rfl⟩
abbrev main_call62_v3 : Ref sig .tc := ⟨.hbm, 1168, rfl⟩
abbrev main_call62_v4 : Ref sig .tc := ⟨.hbm, 1169, rfl⟩
abbrev main_v641 : Ref sig .tc := ⟨.hbm, 1170, rfl⟩
abbrev main_cst_211 : Ref sig .tc := ⟨.hbm, 1171, rfl⟩
abbrev main_cst_212 : Ref sig .tc := ⟨.hbm, 1172, rfl⟩
abbrev main_call63_v0 : Ref sig .tc := ⟨.hbm, 1173, rfl⟩
abbrev main_call63_v1 : Ref sig .tc := ⟨.hbm, 1174, rfl⟩
abbrev main_call63_v2 : Ref sig .tc := ⟨.hbm, 1175, rfl⟩
abbrev main_call63_v3 : Ref sig .tc := ⟨.hbm, 1176, rfl⟩
abbrev main_call63_v4 : Ref sig .tc := ⟨.hbm, 1177, rfl⟩
abbrev main_v642 : Ref sig .tc := ⟨.hbm, 1178, rfl⟩
abbrev main_v643 : Ref sig .tc := ⟨.hbm, 1179, rfl⟩
abbrev main_v644 : Ref sig .tc := ⟨.hbm, 1180, rfl⟩
abbrev main_v645 : Ref sig .tc := ⟨.hbm, 1181, rfl⟩
abbrev main_v646 : Ref sig .tc := ⟨.hbm, 1182, rfl⟩
abbrev main_v647 : Ref sig .tc := ⟨.hbm, 1183, rfl⟩
abbrev main_v648 : Ref sig .tc := ⟨.hbm, 1184, rfl⟩
abbrev main_v649 : Ref sig .tc := ⟨.hbm, 1185, rfl⟩
abbrev main_v650 : Ref sig .tc := ⟨.hbm, 1186, rfl⟩
abbrev main_v651 : Ref sig .tc := ⟨.hbm, 1187, rfl⟩
abbrev main_cst_213 : Ref sig .tc := ⟨.hbm, 1188, rfl⟩
abbrev main_cst_214 : Ref sig .tc := ⟨.hbm, 1189, rfl⟩
abbrev main_call64_v0 : Ref sig .tc := ⟨.hbm, 1190, rfl⟩
abbrev main_call64_v1 : Ref sig .tc := ⟨.hbm, 1191, rfl⟩
abbrev main_call64_v2 : Ref sig .tc := ⟨.hbm, 1192, rfl⟩
abbrev main_call64_v3 : Ref sig .tc := ⟨.hbm, 1193, rfl⟩
abbrev main_call64_v4 : Ref sig .tc := ⟨.hbm, 1194, rfl⟩
abbrev main_v652 : Ref sig .tc := ⟨.hbm, 1195, rfl⟩
abbrev main_cst_215 : Ref sig .tc := ⟨.hbm, 1196, rfl⟩
abbrev main_cst_216 : Ref sig .tc := ⟨.hbm, 1197, rfl⟩
abbrev main_call65_v0 : Ref sig .tc := ⟨.hbm, 1198, rfl⟩
abbrev main_call65_v1 : Ref sig .tc := ⟨.hbm, 1199, rfl⟩
abbrev main_call65_v2 : Ref sig .tc := ⟨.hbm, 1200, rfl⟩
abbrev main_call65_v3 : Ref sig .tc := ⟨.hbm, 1201, rfl⟩
abbrev main_call65_v4 : Ref sig .tc := ⟨.hbm, 1202, rfl⟩
abbrev main_v653 : Ref sig .tc := ⟨.hbm, 1203, rfl⟩
abbrev main_v654 : Ref sig .tc := ⟨.hbm, 1204, rfl⟩
abbrev main_v655 : Ref sig .tc := ⟨.hbm, 1205, rfl⟩
abbrev main_v656 : Ref sig .tc := ⟨.hbm, 1206, rfl⟩
abbrev main_v657 : Ref sig .tc := ⟨.hbm, 1207, rfl⟩
abbrev main_v658 : Ref sig .tc := ⟨.hbm, 1208, rfl⟩
abbrev main_v659 : Ref sig .tc := ⟨.hbm, 1209, rfl⟩
abbrev main_v660 : Ref sig .tc := ⟨.hbm, 1210, rfl⟩
abbrev main_cst_217 : Ref sig .tc := ⟨.hbm, 1211, rfl⟩
abbrev main_v661 : Ref sig .tc := ⟨.hbm, 1212, rfl⟩
abbrev main_cst_218 : Ref sig .tc := ⟨.hbm, 1213, rfl⟩
abbrev main_v662 : Ref sig .tc := ⟨.hbm, 1214, rfl⟩
abbrev main_v663 : Ref sig .tc := ⟨.hbm, 1215, rfl⟩
abbrev main_cst_219 : Ref sig .tc := ⟨.hbm, 1216, rfl⟩
abbrev main_v664 : Ref sig .tc := ⟨.hbm, 1217, rfl⟩
abbrev main_v665 : Ref sig .tc := ⟨.hbm, 1218, rfl⟩
abbrev main_v666 : Ref sig .tc := ⟨.hbm, 1219, rfl⟩
abbrev main_v667 : Ref sig .tc := ⟨.hbm, 1220, rfl⟩
abbrev main_cst_220 : Ref sig .tc := ⟨.hbm, 1221, rfl⟩
abbrev main_v668 : Ref sig .tc := ⟨.hbm, 1222, rfl⟩
abbrev main_v669 : Ref sig .tc := ⟨.hbm, 1223, rfl⟩
abbrev main_v670 : Ref sig .tc := ⟨.hbm, 1224, rfl⟩
abbrev main_v671 : Ref sig .tc := ⟨.hbm, 1225, rfl⟩
abbrev main_v672 : Ref sig .tc := ⟨.hbm, 1226, rfl⟩
abbrev main_cst_221 : Ref sig .tc := ⟨.hbm, 1227, rfl⟩
abbrev main_v673 : Ref sig .tc := ⟨.hbm, 1228, rfl⟩
abbrev main_v674 : Ref sig .tc := ⟨.hbm, 1229, rfl⟩
abbrev main_cst_222 : Ref sig .tc := ⟨.hbm, 1230, rfl⟩
abbrev main_v675 : Ref sig .tc := ⟨.hbm, 1231, rfl⟩
abbrev main_v676 : Ref sig .tc := ⟨.hbm, 1232, rfl⟩
abbrev main_v677 : Ref sig .tc := ⟨.hbm, 1233, rfl⟩
abbrev main_v678 : Ref sig .tc := ⟨.hbm, 1234, rfl⟩
abbrev main_v679 : Ref sig .tc := ⟨.hbm, 1235, rfl⟩
abbrev main_v680 : Ref sig .tc := ⟨.hbm, 1236, rfl⟩
abbrev main_cst_223 : Ref sig .tc := ⟨.hbm, 1237, rfl⟩
abbrev main_cst_224 : Ref sig .tc := ⟨.hbm, 1238, rfl⟩
abbrev main_call66_v0 : Ref sig .tc := ⟨.hbm, 1239, rfl⟩
abbrev main_call66_v1 : Ref sig .tc := ⟨.hbm, 1240, rfl⟩
abbrev main_call66_v2 : Ref sig .tc := ⟨.hbm, 1241, rfl⟩
abbrev main_call66_v3 : Ref sig .tc := ⟨.hbm, 1242, rfl⟩
abbrev main_call66_v4 : Ref sig .tc := ⟨.hbm, 1243, rfl⟩
abbrev main_v681 : Ref sig .tc := ⟨.hbm, 1244, rfl⟩
abbrev main_cst_225 : Ref sig .tc := ⟨.hbm, 1245, rfl⟩
abbrev main_cst_226 : Ref sig .tc := ⟨.hbm, 1246, rfl⟩
abbrev main_call67_v0 : Ref sig .tc := ⟨.hbm, 1247, rfl⟩
abbrev main_call67_v1 : Ref sig .tc := ⟨.hbm, 1248, rfl⟩
abbrev main_call67_v2 : Ref sig .tc := ⟨.hbm, 1249, rfl⟩
abbrev main_call67_v3 : Ref sig .tc := ⟨.hbm, 1250, rfl⟩
abbrev main_call67_v4 : Ref sig .tc := ⟨.hbm, 1251, rfl⟩
abbrev main_v682 : Ref sig .tc := ⟨.hbm, 1252, rfl⟩
abbrev main_v683 : Ref sig .tc := ⟨.hbm, 1253, rfl⟩
abbrev main_v684 : Ref sig .tc := ⟨.hbm, 1254, rfl⟩
abbrev main_v685 : Ref sig .tc := ⟨.hbm, 1255, rfl⟩
abbrev main_v686 : Ref sig .tc := ⟨.hbm, 1256, rfl⟩
abbrev main_v687 : Ref sig .tc := ⟨.hbm, 1257, rfl⟩
abbrev main_v688 : Ref sig .tc := ⟨.hbm, 1258, rfl⟩
abbrev main_v689 : Ref sig .tc := ⟨.hbm, 1259, rfl⟩
abbrev main_cst_227 : Ref sig .tc := ⟨.hbm, 1260, rfl⟩
abbrev main_v690 : Ref sig .tc := ⟨.hbm, 1261, rfl⟩
abbrev main_cst_228 : Ref sig .tc := ⟨.hbm, 1262, rfl⟩
abbrev main_v691 : Ref sig .tc := ⟨.hbm, 1263, rfl⟩
abbrev main_v692 : Ref sig .tc := ⟨.hbm, 1264, rfl⟩
abbrev main_cst_229 : Ref sig .tc := ⟨.hbm, 1265, rfl⟩
abbrev main_v693 : Ref sig .tc := ⟨.hbm, 1266, rfl⟩
abbrev main_v694 : Ref sig .tc := ⟨.hbm, 1267, rfl⟩
abbrev main_v695 : Ref sig .tc := ⟨.hbm, 1268, rfl⟩
abbrev main_v696 : Ref sig .tc := ⟨.hbm, 1269, rfl⟩
abbrev main_cst_230 : Ref sig .tc := ⟨.hbm, 1270, rfl⟩
abbrev main_v697 : Ref sig .tc := ⟨.hbm, 1271, rfl⟩
abbrev main_v698 : Ref sig .tc := ⟨.hbm, 1272, rfl⟩
abbrev main_v699 : Ref sig .tc := ⟨.hbm, 1273, rfl⟩
abbrev main_v700 : Ref sig .tc := ⟨.hbm, 1274, rfl⟩
abbrev main_v701 : Ref sig .tc := ⟨.hbm, 1275, rfl⟩
abbrev main_v702 : Ref sig .tc := ⟨.hbm, 1276, rfl⟩
abbrev main_v703 : Ref sig .tc := ⟨.hbm, 1277, rfl⟩
abbrev main_v704 : Ref sig .tc := ⟨.hbm, 1278, rfl⟩
abbrev main_v705 : Ref sig .tc := ⟨.hbm, 1279, rfl⟩
abbrev main_v706 : Ref sig .tc := ⟨.hbm, 1280, rfl⟩
abbrev main_v707 : Ref sig .tc := ⟨.hbm, 1281, rfl⟩
abbrev main_v708 : Ref sig .tc := ⟨.hbm, 1282, rfl⟩
abbrev main_v709 : Ref sig .tc := ⟨.hbm, 1283, rfl⟩
abbrev main_v710 : Ref sig .tc := ⟨.hbm, 1284, rfl⟩
abbrev main_v711 : Ref sig .tc := ⟨.hbm, 1285, rfl⟩
abbrev main_v712 : Ref sig .tc := ⟨.hbm, 1286, rfl⟩
abbrev main_v713 : Ref sig .tc := ⟨.hbm, 1287, rfl⟩
abbrev main_v714 : Ref sig .tc := ⟨.hbm, 1288, rfl⟩
abbrev main_v715 : Ref sig .tc := ⟨.hbm, 1289, rfl⟩
abbrev main_v716 : Ref sig .tc := ⟨.hbm, 1290, rfl⟩
abbrev main_v717 : Ref sig .tc := ⟨.hbm, 1291, rfl⟩
abbrev main_cst_231 : Ref sig .tc := ⟨.hbm, 1292, rfl⟩
abbrev main_v718 : Ref sig .tc := ⟨.hbm, 1293, rfl⟩
abbrev main_v719 : Ref sig .tc := ⟨.hbm, 1294, rfl⟩
abbrev main_cst_232 : Ref sig .tc := ⟨.hbm, 1295, rfl⟩
abbrev main_v720 : Ref sig .tc := ⟨.hbm, 1296, rfl⟩
abbrev main_v721 : Ref sig .tc := ⟨.hbm, 1297, rfl⟩
abbrev main_v722 : Ref sig .tc := ⟨.hbm, 1298, rfl⟩
abbrev main_v723 : Ref sig .tc := ⟨.hbm, 1299, rfl⟩
abbrev main_v724 : Ref sig .tc := ⟨.hbm, 1300, rfl⟩
abbrev main_v725 : Ref sig .tc := ⟨.hbm, 1301, rfl⟩
abbrev main_cst_233 : Ref sig .tc := ⟨.hbm, 1302, rfl⟩
abbrev main_cst_234 : Ref sig .tc := ⟨.hbm, 1303, rfl⟩
abbrev main_call68_v0 : Ref sig .tc := ⟨.hbm, 1304, rfl⟩
abbrev main_call68_v1 : Ref sig .tc := ⟨.hbm, 1305, rfl⟩
abbrev main_call68_v2 : Ref sig .tc := ⟨.hbm, 1306, rfl⟩
abbrev main_call68_v3 : Ref sig .tc := ⟨.hbm, 1307, rfl⟩
abbrev main_call68_v4 : Ref sig .tc := ⟨.hbm, 1308, rfl⟩
abbrev main_v726 : Ref sig .tc := ⟨.hbm, 1309, rfl⟩
abbrev main_cst_235 : Ref sig .tc := ⟨.hbm, 1310, rfl⟩
abbrev main_cst_236 : Ref sig .tc := ⟨.hbm, 1311, rfl⟩
abbrev main_call69_v0 : Ref sig .tc := ⟨.hbm, 1312, rfl⟩
abbrev main_call69_v1 : Ref sig .tc := ⟨.hbm, 1313, rfl⟩
abbrev main_call69_v2 : Ref sig .tc := ⟨.hbm, 1314, rfl⟩
abbrev main_call69_v3 : Ref sig .tc := ⟨.hbm, 1315, rfl⟩
abbrev main_call69_v4 : Ref sig .tc := ⟨.hbm, 1316, rfl⟩
abbrev main_v727 : Ref sig .tc := ⟨.hbm, 1317, rfl⟩
abbrev main_v728 : Ref sig .tc := ⟨.hbm, 1318, rfl⟩
abbrev main_v729 : Ref sig .tc := ⟨.hbm, 1319, rfl⟩
abbrev main_v730 : Ref sig .tc := ⟨.hbm, 1320, rfl⟩
abbrev main_v731 : Ref sig .tc := ⟨.hbm, 1321, rfl⟩
abbrev main_v732 : Ref sig .tc := ⟨.hbm, 1322, rfl⟩
abbrev main_v733 : Ref sig .tc := ⟨.hbm, 1323, rfl⟩
abbrev main_v734 : Ref sig .tc := ⟨.hbm, 1324, rfl⟩
abbrev main_v735 : Ref sig .tc := ⟨.hbm, 1325, rfl⟩
abbrev main_v736 : Ref sig .tc := ⟨.hbm, 1326, rfl⟩
abbrev main_cst_237 : Ref sig .tc := ⟨.hbm, 1327, rfl⟩
abbrev main_cst_238 : Ref sig .tc := ⟨.hbm, 1328, rfl⟩
abbrev main_call70_v0 : Ref sig .tc := ⟨.hbm, 1329, rfl⟩
abbrev main_call70_v1 : Ref sig .tc := ⟨.hbm, 1330, rfl⟩
abbrev main_call70_v2 : Ref sig .tc := ⟨.hbm, 1331, rfl⟩
abbrev main_call70_v3 : Ref sig .tc := ⟨.hbm, 1332, rfl⟩
abbrev main_call70_v4 : Ref sig .tc := ⟨.hbm, 1333, rfl⟩
abbrev main_v737 : Ref sig .tc := ⟨.hbm, 1334, rfl⟩
abbrev main_cst_239 : Ref sig .tc := ⟨.hbm, 1335, rfl⟩
abbrev main_cst_240 : Ref sig .tc := ⟨.hbm, 1336, rfl⟩
abbrev main_call71_v0 : Ref sig .tc := ⟨.hbm, 1337, rfl⟩
abbrev main_call71_v1 : Ref sig .tc := ⟨.hbm, 1338, rfl⟩
abbrev main_call71_v2 : Ref sig .tc := ⟨.hbm, 1339, rfl⟩
abbrev main_call71_v3 : Ref sig .tc := ⟨.hbm, 1340, rfl⟩
abbrev main_call71_v4 : Ref sig .tc := ⟨.hbm, 1341, rfl⟩
abbrev main_v738 : Ref sig .tc := ⟨.hbm, 1342, rfl⟩
abbrev main_v739 : Ref sig .tc := ⟨.hbm, 1343, rfl⟩
abbrev main_v740 : Ref sig .tc := ⟨.hbm, 1344, rfl⟩
abbrev main_v741 : Ref sig .tc := ⟨.hbm, 1345, rfl⟩
abbrev main_v742 : Ref sig .tc := ⟨.hbm, 1346, rfl⟩
abbrev main_v743 : Ref sig .tc := ⟨.hbm, 1347, rfl⟩
abbrev main_v744 : Ref sig .tc := ⟨.hbm, 1348, rfl⟩
abbrev main_v745 : Ref sig .tc := ⟨.hbm, 1349, rfl⟩
abbrev main_v746 : Ref sig .tc := ⟨.hbm, 1350, rfl⟩
abbrev main_v747 : Ref sig .tc := ⟨.hbm, 1351, rfl⟩
abbrev main_cst_241 : Ref sig .tc := ⟨.hbm, 1352, rfl⟩
abbrev main_cst_242 : Ref sig .tc := ⟨.hbm, 1353, rfl⟩
abbrev main_call72_v0 : Ref sig .tc := ⟨.hbm, 1354, rfl⟩
abbrev main_call72_v1 : Ref sig .tc := ⟨.hbm, 1355, rfl⟩
abbrev main_call72_v2 : Ref sig .tc := ⟨.hbm, 1356, rfl⟩
abbrev main_call72_v3 : Ref sig .tc := ⟨.hbm, 1357, rfl⟩
abbrev main_call72_v4 : Ref sig .tc := ⟨.hbm, 1358, rfl⟩
abbrev main_v748 : Ref sig .tc := ⟨.hbm, 1359, rfl⟩
abbrev main_cst_243 : Ref sig .tc := ⟨.hbm, 1360, rfl⟩
abbrev main_cst_244 : Ref sig .tc := ⟨.hbm, 1361, rfl⟩
abbrev main_call73_v0 : Ref sig .tc := ⟨.hbm, 1362, rfl⟩
abbrev main_call73_v1 : Ref sig .tc := ⟨.hbm, 1363, rfl⟩
abbrev main_call73_v2 : Ref sig .tc := ⟨.hbm, 1364, rfl⟩
abbrev main_call73_v3 : Ref sig .tc := ⟨.hbm, 1365, rfl⟩
abbrev main_call73_v4 : Ref sig .tc := ⟨.hbm, 1366, rfl⟩
abbrev main_v749 : Ref sig .tc := ⟨.hbm, 1367, rfl⟩
abbrev main_v750 : Ref sig .tc := ⟨.hbm, 1368, rfl⟩
abbrev main_v751 : Ref sig .tc := ⟨.hbm, 1369, rfl⟩
abbrev main_v752 : Ref sig .tc := ⟨.hbm, 1370, rfl⟩
abbrev main_v753 : Ref sig .tc := ⟨.hbm, 1371, rfl⟩
abbrev main_v754 : Ref sig .tc := ⟨.hbm, 1372, rfl⟩
abbrev main_v755 : Ref sig .tc := ⟨.hbm, 1373, rfl⟩
abbrev main_v756 : Ref sig .tc := ⟨.hbm, 1374, rfl⟩
abbrev main_v757 : Ref sig .tc := ⟨.hbm, 1375, rfl⟩
abbrev main_v758 : Ref sig .tc := ⟨.hbm, 1376, rfl⟩
abbrev main_cst_245 : Ref sig .tc := ⟨.hbm, 1377, rfl⟩
abbrev main_cst_246 : Ref sig .tc := ⟨.hbm, 1378, rfl⟩
abbrev main_call74_v0 : Ref sig .tc := ⟨.hbm, 1379, rfl⟩
abbrev main_call74_v1 : Ref sig .tc := ⟨.hbm, 1380, rfl⟩
abbrev main_call74_v2 : Ref sig .tc := ⟨.hbm, 1381, rfl⟩
abbrev main_call74_v3 : Ref sig .tc := ⟨.hbm, 1382, rfl⟩
abbrev main_call74_v4 : Ref sig .tc := ⟨.hbm, 1383, rfl⟩
abbrev main_v759 : Ref sig .tc := ⟨.hbm, 1384, rfl⟩
abbrev main_cst_247 : Ref sig .tc := ⟨.hbm, 1385, rfl⟩
abbrev main_cst_248 : Ref sig .tc := ⟨.hbm, 1386, rfl⟩
abbrev main_call75_v0 : Ref sig .tc := ⟨.hbm, 1387, rfl⟩
abbrev main_call75_v1 : Ref sig .tc := ⟨.hbm, 1388, rfl⟩
abbrev main_call75_v2 : Ref sig .tc := ⟨.hbm, 1389, rfl⟩
abbrev main_call75_v3 : Ref sig .tc := ⟨.hbm, 1390, rfl⟩
abbrev main_call75_v4 : Ref sig .tc := ⟨.hbm, 1391, rfl⟩
abbrev main_v760 : Ref sig .tc := ⟨.hbm, 1392, rfl⟩
abbrev main_v761 : Ref sig .tc := ⟨.hbm, 1393, rfl⟩
abbrev main_v762 : Ref sig .tc := ⟨.hbm, 1394, rfl⟩
abbrev main_v763 : Ref sig .tc := ⟨.hbm, 1395, rfl⟩
abbrev main_v764 : Ref sig .tc := ⟨.hbm, 1396, rfl⟩
abbrev main_v765 : Ref sig .tc := ⟨.hbm, 1397, rfl⟩
abbrev main_v766 : Ref sig .tc := ⟨.hbm, 1398, rfl⟩
abbrev main_v767 : Ref sig .tc := ⟨.hbm, 1399, rfl⟩
abbrev main_v768 : Ref sig .tc := ⟨.hbm, 1400, rfl⟩
abbrev main_v769 : Ref sig .tc := ⟨.hbm, 1401, rfl⟩
abbrev main_cst_249 : Ref sig .tc := ⟨.hbm, 1402, rfl⟩
abbrev main_cst_250 : Ref sig .tc := ⟨.hbm, 1403, rfl⟩
abbrev main_call76_v0 : Ref sig .tc := ⟨.hbm, 1404, rfl⟩
abbrev main_call76_v1 : Ref sig .tc := ⟨.hbm, 1405, rfl⟩
abbrev main_call76_v2 : Ref sig .tc := ⟨.hbm, 1406, rfl⟩
abbrev main_call76_v3 : Ref sig .tc := ⟨.hbm, 1407, rfl⟩
abbrev main_call76_v4 : Ref sig .tc := ⟨.hbm, 1408, rfl⟩
abbrev main_v770 : Ref sig .tc := ⟨.hbm, 1409, rfl⟩
abbrev main_cst_251 : Ref sig .tc := ⟨.hbm, 1410, rfl⟩
abbrev main_cst_252 : Ref sig .tc := ⟨.hbm, 1411, rfl⟩
abbrev main_call77_v0 : Ref sig .tc := ⟨.hbm, 1412, rfl⟩
abbrev main_call77_v1 : Ref sig .tc := ⟨.hbm, 1413, rfl⟩
abbrev main_call77_v2 : Ref sig .tc := ⟨.hbm, 1414, rfl⟩
abbrev main_call77_v3 : Ref sig .tc := ⟨.hbm, 1415, rfl⟩
abbrev main_call77_v4 : Ref sig .tc := ⟨.hbm, 1416, rfl⟩
abbrev main_v771 : Ref sig .tc := ⟨.hbm, 1417, rfl⟩
abbrev main_v772 : Ref sig .tc := ⟨.hbm, 1418, rfl⟩
abbrev main_v773 : Ref sig .tc := ⟨.hbm, 1419, rfl⟩
abbrev main_v774 : Ref sig .tc := ⟨.hbm, 1420, rfl⟩
abbrev main_v775 : Ref sig .tc := ⟨.hbm, 1421, rfl⟩
abbrev main_v776 : Ref sig .tc := ⟨.hbm, 1422, rfl⟩
abbrev main_v777 : Ref sig .tc := ⟨.hbm, 1423, rfl⟩
abbrev main_v778 : Ref sig .tc := ⟨.hbm, 1424, rfl⟩
abbrev main_cst_253 : Ref sig .tc := ⟨.hbm, 1425, rfl⟩
abbrev main_v779 : Ref sig .tc := ⟨.hbm, 1426, rfl⟩
abbrev main_cst_254 : Ref sig .tc := ⟨.hbm, 1427, rfl⟩
abbrev main_v780 : Ref sig .tc := ⟨.hbm, 1428, rfl⟩
abbrev main_v781 : Ref sig .tc := ⟨.hbm, 1429, rfl⟩
abbrev main_cst_255 : Ref sig .tc := ⟨.hbm, 1430, rfl⟩
abbrev main_v782 : Ref sig .tc := ⟨.hbm, 1431, rfl⟩
abbrev main_v783 : Ref sig .tc := ⟨.hbm, 1432, rfl⟩
abbrev main_v784 : Ref sig .tc := ⟨.hbm, 1433, rfl⟩
abbrev main_v785 : Ref sig .tc := ⟨.hbm, 1434, rfl⟩
abbrev main_cst_256 : Ref sig .tc := ⟨.hbm, 1435, rfl⟩
abbrev main_v786 : Ref sig .tc := ⟨.hbm, 1436, rfl⟩
abbrev main_v787 : Ref sig .tc := ⟨.hbm, 1437, rfl⟩
abbrev main_v788 : Ref sig .tc := ⟨.hbm, 1438, rfl⟩
abbrev main_v789 : Ref sig .tc := ⟨.hbm, 1439, rfl⟩
abbrev main_v790 : Ref sig .tc := ⟨.hbm, 1440, rfl⟩
abbrev main_cst_257 : Ref sig .tc := ⟨.hbm, 1441, rfl⟩
abbrev main_v791 : Ref sig .tc := ⟨.hbm, 1442, rfl⟩
abbrev main_v792 : Ref sig .tc := ⟨.hbm, 1443, rfl⟩
abbrev main_cst_258 : Ref sig .tc := ⟨.hbm, 1444, rfl⟩
abbrev main_v793 : Ref sig .tc := ⟨.hbm, 1445, rfl⟩
abbrev main_v794 : Ref sig .tc := ⟨.hbm, 1446, rfl⟩
abbrev main_v795 : Ref sig .tc := ⟨.hbm, 1447, rfl⟩
abbrev main_v796 : Ref sig .tc := ⟨.hbm, 1448, rfl⟩
abbrev main_v797 : Ref sig .tc := ⟨.hbm, 1449, rfl⟩
abbrev main_v798 : Ref sig .tc := ⟨.hbm, 1450, rfl⟩
abbrev main_cst_259 : Ref sig .tc := ⟨.hbm, 1451, rfl⟩
abbrev main_cst_260 : Ref sig .tc := ⟨.hbm, 1452, rfl⟩
abbrev main_call78_v0 : Ref sig .tc := ⟨.hbm, 1453, rfl⟩
abbrev main_call78_v1 : Ref sig .tc := ⟨.hbm, 1454, rfl⟩
abbrev main_call78_v2 : Ref sig .tc := ⟨.hbm, 1455, rfl⟩
abbrev main_call78_v3 : Ref sig .tc := ⟨.hbm, 1456, rfl⟩
abbrev main_call78_v4 : Ref sig .tc := ⟨.hbm, 1457, rfl⟩
abbrev main_v799 : Ref sig .tc := ⟨.hbm, 1458, rfl⟩
abbrev main_cst_261 : Ref sig .tc := ⟨.hbm, 1459, rfl⟩
abbrev main_cst_262 : Ref sig .tc := ⟨.hbm, 1460, rfl⟩
abbrev main_call79_v0 : Ref sig .tc := ⟨.hbm, 1461, rfl⟩
abbrev main_call79_v1 : Ref sig .tc := ⟨.hbm, 1462, rfl⟩
abbrev main_call79_v2 : Ref sig .tc := ⟨.hbm, 1463, rfl⟩
abbrev main_call79_v3 : Ref sig .tc := ⟨.hbm, 1464, rfl⟩
abbrev main_call79_v4 : Ref sig .tc := ⟨.hbm, 1465, rfl⟩
abbrev main_v800 : Ref sig .tc := ⟨.hbm, 1466, rfl⟩
abbrev main_v801 : Ref sig .tc := ⟨.hbm, 1467, rfl⟩
abbrev main_v802 : Ref sig .tc := ⟨.hbm, 1468, rfl⟩
abbrev main_v803 : Ref sig .tc := ⟨.hbm, 1469, rfl⟩
abbrev main_v804 : Ref sig .tc := ⟨.hbm, 1470, rfl⟩
abbrev main_v805 : Ref sig .tc := ⟨.hbm, 1471, rfl⟩
abbrev main_v806 : Ref sig .tc := ⟨.hbm, 1472, rfl⟩
abbrev main_v807 : Ref sig .tc := ⟨.hbm, 1473, rfl⟩
abbrev main_cst_263 : Ref sig .tc := ⟨.hbm, 1474, rfl⟩
abbrev main_v808 : Ref sig .tc := ⟨.hbm, 1475, rfl⟩
abbrev main_cst_264 : Ref sig .tc := ⟨.hbm, 1476, rfl⟩
abbrev main_v809 : Ref sig .tc := ⟨.hbm, 1477, rfl⟩
abbrev main_v810 : Ref sig .tc := ⟨.hbm, 1478, rfl⟩
abbrev main_cst_265 : Ref sig .tc := ⟨.hbm, 1479, rfl⟩
abbrev main_v811 : Ref sig .tc := ⟨.hbm, 1480, rfl⟩
abbrev main_v812 : Ref sig .tc := ⟨.hbm, 1481, rfl⟩
abbrev main_v813 : Ref sig .tc := ⟨.hbm, 1482, rfl⟩
abbrev main_v814 : Ref sig .tc := ⟨.hbm, 1483, rfl⟩
abbrev main_cst_266 : Ref sig .tc := ⟨.hbm, 1484, rfl⟩
abbrev main_v815 : Ref sig .tc := ⟨.hbm, 1485, rfl⟩
abbrev main_v816 : Ref sig .tc := ⟨.hbm, 1486, rfl⟩
abbrev main_v817 : Ref sig .tc := ⟨.hbm, 1487, rfl⟩
abbrev main_v818 : Ref sig .tc := ⟨.hbm, 1488, rfl⟩
abbrev main_v819 : Ref sig .tc := ⟨.hbm, 1489, rfl⟩
abbrev main_v820 : Ref sig .tc := ⟨.hbm, 1490, rfl⟩
abbrev main_v821 : Ref sig .tc := ⟨.hbm, 1491, rfl⟩
abbrev main_v822 : Ref sig .tc := ⟨.hbm, 1492, rfl⟩
abbrev main_v823 : Ref sig .tc := ⟨.hbm, 1493, rfl⟩
abbrev main_cst_267 : Ref sig .tc := ⟨.hbm, 1494, rfl⟩
abbrev main_v824 : Ref sig .tc := ⟨.hbm, 1495, rfl⟩
abbrev main_v825 : Ref sig .tc := ⟨.hbm, 1496, rfl⟩
abbrev main_cst_268 : Ref sig .tc := ⟨.hbm, 1497, rfl⟩
abbrev main_v826 : Ref sig .tc := ⟨.hbm, 1498, rfl⟩
abbrev main_v827 : Ref sig .tc := ⟨.hbm, 1499, rfl⟩
abbrev main_v828 : Ref sig .tc := ⟨.hbm, 1500, rfl⟩
abbrev main_v829 : Ref sig .tc := ⟨.hbm, 1501, rfl⟩
abbrev main_v830 : Ref sig .tc := ⟨.hbm, 1502, rfl⟩
abbrev main_v831 : Ref sig .tc := ⟨.hbm, 1503, rfl⟩
abbrev main_cst_269 : Ref sig .tc := ⟨.hbm, 1504, rfl⟩
abbrev main_cst_270 : Ref sig .tc := ⟨.hbm, 1505, rfl⟩
abbrev main_call80_v0 : Ref sig .tc := ⟨.hbm, 1506, rfl⟩
abbrev main_call80_v1 : Ref sig .tc := ⟨.hbm, 1507, rfl⟩
abbrev main_call80_v2 : Ref sig .tc := ⟨.hbm, 1508, rfl⟩
abbrev main_call80_v3 : Ref sig .tc := ⟨.hbm, 1509, rfl⟩
abbrev main_call80_v4 : Ref sig .tc := ⟨.hbm, 1510, rfl⟩
abbrev main_v832 : Ref sig .tc := ⟨.hbm, 1511, rfl⟩
abbrev main_cst_271 : Ref sig .tc := ⟨.hbm, 1512, rfl⟩
abbrev main_cst_272 : Ref sig .tc := ⟨.hbm, 1513, rfl⟩
abbrev main_call81_v0 : Ref sig .tc := ⟨.hbm, 1514, rfl⟩
abbrev main_call81_v1 : Ref sig .tc := ⟨.hbm, 1515, rfl⟩
abbrev main_call81_v2 : Ref sig .tc := ⟨.hbm, 1516, rfl⟩
abbrev main_call81_v3 : Ref sig .tc := ⟨.hbm, 1517, rfl⟩
abbrev main_call81_v4 : Ref sig .tc := ⟨.hbm, 1518, rfl⟩
abbrev main_v833 : Ref sig .tc := ⟨.hbm, 1519, rfl⟩
abbrev main_v834 : Ref sig .tc := ⟨.hbm, 1520, rfl⟩
abbrev main_v835 : Ref sig .tc := ⟨.hbm, 1521, rfl⟩
abbrev main_v836 : Ref sig .tc := ⟨.hbm, 1522, rfl⟩
abbrev main_v837 : Ref sig .tc := ⟨.hbm, 1523, rfl⟩
abbrev main_v838 : Ref sig .tc := ⟨.hbm, 1524, rfl⟩
abbrev main_v839 : Ref sig .tc := ⟨.hbm, 1525, rfl⟩
abbrev main_v840 : Ref sig .tc := ⟨.hbm, 1526, rfl⟩
abbrev main_v841 : Ref sig .tc := ⟨.hbm, 1527, rfl⟩
abbrev main_v842 : Ref sig .tc := ⟨.hbm, 1528, rfl⟩
abbrev main_cst_273 : Ref sig .tc := ⟨.hbm, 1529, rfl⟩
abbrev main_cst_274 : Ref sig .tc := ⟨.hbm, 1530, rfl⟩
abbrev main_call82_v0 : Ref sig .tc := ⟨.hbm, 1531, rfl⟩
abbrev main_call82_v1 : Ref sig .tc := ⟨.hbm, 1532, rfl⟩
abbrev main_call82_v2 : Ref sig .tc := ⟨.hbm, 1533, rfl⟩
abbrev main_call82_v3 : Ref sig .tc := ⟨.hbm, 1534, rfl⟩
abbrev main_call82_v4 : Ref sig .tc := ⟨.hbm, 1535, rfl⟩
abbrev main_v843 : Ref sig .tc := ⟨.hbm, 1536, rfl⟩
abbrev main_cst_275 : Ref sig .tc := ⟨.hbm, 1537, rfl⟩
abbrev main_cst_276 : Ref sig .tc := ⟨.hbm, 1538, rfl⟩
abbrev main_call83_v0 : Ref sig .tc := ⟨.hbm, 1539, rfl⟩
abbrev main_call83_v1 : Ref sig .tc := ⟨.hbm, 1540, rfl⟩
abbrev main_call83_v2 : Ref sig .tc := ⟨.hbm, 1541, rfl⟩
abbrev main_call83_v3 : Ref sig .tc := ⟨.hbm, 1542, rfl⟩
abbrev main_call83_v4 : Ref sig .tc := ⟨.hbm, 1543, rfl⟩
abbrev main_v844 : Ref sig .tc := ⟨.hbm, 1544, rfl⟩
abbrev main_v845 : Ref sig .tc := ⟨.hbm, 1545, rfl⟩
abbrev main_v846 : Ref sig .tc := ⟨.hbm, 1546, rfl⟩
abbrev main_v847 : Ref sig .tc := ⟨.hbm, 1547, rfl⟩
abbrev main_v848 : Ref sig .tc := ⟨.hbm, 1548, rfl⟩
abbrev main_v849 : Ref sig .tc := ⟨.hbm, 1549, rfl⟩
abbrev main_v850 : Ref sig .tc := ⟨.hbm, 1550, rfl⟩
abbrev main_v851 : Ref sig .tc := ⟨.hbm, 1551, rfl⟩
abbrev main_cst_277 : Ref sig .tc := ⟨.hbm, 1552, rfl⟩
abbrev main_v852 : Ref sig .tc := ⟨.hbm, 1553, rfl⟩
abbrev main_cst_278 : Ref sig .tc := ⟨.hbm, 1554, rfl⟩
abbrev main_v853 : Ref sig .tc := ⟨.hbm, 1555, rfl⟩
abbrev main_v854 : Ref sig .tc := ⟨.hbm, 1556, rfl⟩
abbrev main_cst_279 : Ref sig .tc := ⟨.hbm, 1557, rfl⟩
abbrev main_v855 : Ref sig .tc := ⟨.hbm, 1558, rfl⟩
abbrev main_v856 : Ref sig .tc := ⟨.hbm, 1559, rfl⟩
abbrev main_v857 : Ref sig .tc := ⟨.hbm, 1560, rfl⟩
abbrev main_v858 : Ref sig .tc := ⟨.hbm, 1561, rfl⟩
abbrev main_cst_280 : Ref sig .tc := ⟨.hbm, 1562, rfl⟩
abbrev main_v859 : Ref sig .tc := ⟨.hbm, 1563, rfl⟩
abbrev main_v860 : Ref sig .tc := ⟨.hbm, 1564, rfl⟩
abbrev main_v861 : Ref sig .tc := ⟨.hbm, 1565, rfl⟩
abbrev main_v862 : Ref sig .tc := ⟨.hbm, 1566, rfl⟩
abbrev main_v863 : Ref sig .tc := ⟨.hbm, 1567, rfl⟩
abbrev main_cst_281 : Ref sig .tc := ⟨.hbm, 1568, rfl⟩
abbrev main_v864 : Ref sig .tc := ⟨.hbm, 1569, rfl⟩
abbrev main_v865 : Ref sig .tc := ⟨.hbm, 1570, rfl⟩
abbrev main_cst_282 : Ref sig .tc := ⟨.hbm, 1571, rfl⟩
abbrev main_v866 : Ref sig .tc := ⟨.hbm, 1572, rfl⟩
abbrev main_v867 : Ref sig .tc := ⟨.hbm, 1573, rfl⟩
abbrev main_v868 : Ref sig .tc := ⟨.hbm, 1574, rfl⟩
abbrev main_v869 : Ref sig .tc := ⟨.hbm, 1575, rfl⟩
abbrev main_v870 : Ref sig .tc := ⟨.hbm, 1576, rfl⟩
abbrev main_v871 : Ref sig .tc := ⟨.hbm, 1577, rfl⟩
abbrev main_cst_283 : Ref sig .tc := ⟨.hbm, 1578, rfl⟩
abbrev main_cst_284 : Ref sig .tc := ⟨.hbm, 1579, rfl⟩
abbrev main_call84_v0 : Ref sig .tc := ⟨.hbm, 1580, rfl⟩
abbrev main_call84_v1 : Ref sig .tc := ⟨.hbm, 1581, rfl⟩
abbrev main_call84_v2 : Ref sig .tc := ⟨.hbm, 1582, rfl⟩
abbrev main_call84_v3 : Ref sig .tc := ⟨.hbm, 1583, rfl⟩
abbrev main_call84_v4 : Ref sig .tc := ⟨.hbm, 1584, rfl⟩
abbrev main_v872 : Ref sig .tc := ⟨.hbm, 1585, rfl⟩
abbrev main_cst_285 : Ref sig .tc := ⟨.hbm, 1586, rfl⟩
abbrev main_cst_286 : Ref sig .tc := ⟨.hbm, 1587, rfl⟩
abbrev main_call85_v0 : Ref sig .tc := ⟨.hbm, 1588, rfl⟩
abbrev main_call85_v1 : Ref sig .tc := ⟨.hbm, 1589, rfl⟩
abbrev main_call85_v2 : Ref sig .tc := ⟨.hbm, 1590, rfl⟩
abbrev main_call85_v3 : Ref sig .tc := ⟨.hbm, 1591, rfl⟩
abbrev main_call85_v4 : Ref sig .tc := ⟨.hbm, 1592, rfl⟩
abbrev main_v873 : Ref sig .tc := ⟨.hbm, 1593, rfl⟩
abbrev main_v874 : Ref sig .tc := ⟨.hbm, 1594, rfl⟩
abbrev main_v875 : Ref sig .tc := ⟨.hbm, 1595, rfl⟩
abbrev main_v876 : Ref sig .tc := ⟨.hbm, 1596, rfl⟩
abbrev main_v877 : Ref sig .tc := ⟨.hbm, 1597, rfl⟩
abbrev main_v878 : Ref sig .tc := ⟨.hbm, 1598, rfl⟩
abbrev main_v879 : Ref sig .tc := ⟨.hbm, 1599, rfl⟩
abbrev main_v880 : Ref sig .tc := ⟨.hbm, 1600, rfl⟩
abbrev main_cst_287 : Ref sig .tc := ⟨.hbm, 1601, rfl⟩
abbrev main_v881 : Ref sig .tc := ⟨.hbm, 1602, rfl⟩
abbrev main_cst_288 : Ref sig .tc := ⟨.hbm, 1603, rfl⟩
abbrev main_v882 : Ref sig .tc := ⟨.hbm, 1604, rfl⟩
abbrev main_v883 : Ref sig .tc := ⟨.hbm, 1605, rfl⟩
abbrev main_cst_289 : Ref sig .tc := ⟨.hbm, 1606, rfl⟩
abbrev main_v884 : Ref sig .tc := ⟨.hbm, 1607, rfl⟩
abbrev main_v885 : Ref sig .tc := ⟨.hbm, 1608, rfl⟩
abbrev main_v886 : Ref sig .tc := ⟨.hbm, 1609, rfl⟩
abbrev main_v887 : Ref sig .tc := ⟨.hbm, 1610, rfl⟩
abbrev main_cst_290 : Ref sig .tc := ⟨.hbm, 1611, rfl⟩
abbrev main_v888 : Ref sig .tc := ⟨.hbm, 1612, rfl⟩
abbrev main_v889 : Ref sig .tc := ⟨.hbm, 1613, rfl⟩
abbrev main_v890 : Ref sig .tc := ⟨.hbm, 1614, rfl⟩
abbrev main_v891 : Ref sig .tc := ⟨.hbm, 1615, rfl⟩
abbrev main_v892 : Ref sig .tc := ⟨.hbm, 1616, rfl⟩
abbrev main_v893 : Ref sig .tc := ⟨.hbm, 1617, rfl⟩
abbrev main_v894 : Ref sig .tc := ⟨.hbm, 1618, rfl⟩
abbrev main_v895 : Ref sig .tc := ⟨.hbm, 1619, rfl⟩
abbrev main_v896 : Ref sig .tc := ⟨.hbm, 1620, rfl⟩
abbrev main_v897 : Ref sig .tc := ⟨.hbm, 1621, rfl⟩
abbrev main_v898 : Ref sig .tc := ⟨.hbm, 1622, rfl⟩
abbrev main_v899 : Ref sig .tc := ⟨.hbm, 1623, rfl⟩
abbrev main_v900 : Ref sig .tc := ⟨.hbm, 1624, rfl⟩
abbrev main_cst_291 : Ref sig .tc := ⟨.hbm, 1625, rfl⟩
abbrev main_v901 : Ref sig .tc := ⟨.hbm, 1626, rfl⟩
abbrev main_v902 : Ref sig .tc := ⟨.hbm, 1627, rfl⟩
abbrev main_cst_292 : Ref sig .tc := ⟨.hbm, 1628, rfl⟩
abbrev main_v903 : Ref sig .tc := ⟨.hbm, 1629, rfl⟩
abbrev main_v904 : Ref sig .tc := ⟨.hbm, 1630, rfl⟩
abbrev main_v905 : Ref sig .tc := ⟨.hbm, 1631, rfl⟩
abbrev main_v906 : Ref sig .tc := ⟨.hbm, 1632, rfl⟩
abbrev main_v907 : Ref sig .tc := ⟨.hbm, 1633, rfl⟩
abbrev main_v908 : Ref sig .tc := ⟨.hbm, 1634, rfl⟩
abbrev main_cst_293 : Ref sig .tc := ⟨.hbm, 1635, rfl⟩
abbrev main_cst_294 : Ref sig .tc := ⟨.hbm, 1636, rfl⟩
abbrev main_call86_v0 : Ref sig .tc := ⟨.hbm, 1637, rfl⟩
abbrev main_call86_v1 : Ref sig .tc := ⟨.hbm, 1638, rfl⟩
abbrev main_call86_v2 : Ref sig .tc := ⟨.hbm, 1639, rfl⟩
abbrev main_call86_v3 : Ref sig .tc := ⟨.hbm, 1640, rfl⟩
abbrev main_call86_v4 : Ref sig .tc := ⟨.hbm, 1641, rfl⟩
abbrev main_v909 : Ref sig .tc := ⟨.hbm, 1642, rfl⟩
abbrev main_cst_295 : Ref sig .tc := ⟨.hbm, 1643, rfl⟩
abbrev main_cst_296 : Ref sig .tc := ⟨.hbm, 1644, rfl⟩
abbrev main_call87_v0 : Ref sig .tc := ⟨.hbm, 1645, rfl⟩
abbrev main_call87_v1 : Ref sig .tc := ⟨.hbm, 1646, rfl⟩
abbrev main_call87_v2 : Ref sig .tc := ⟨.hbm, 1647, rfl⟩
abbrev main_call87_v3 : Ref sig .tc := ⟨.hbm, 1648, rfl⟩
abbrev main_call87_v4 : Ref sig .tc := ⟨.hbm, 1649, rfl⟩
abbrev main_v910 : Ref sig .tc := ⟨.hbm, 1650, rfl⟩
abbrev main_v911 : Ref sig .tc := ⟨.hbm, 1651, rfl⟩
abbrev main_v912 : Ref sig .tc := ⟨.hbm, 1652, rfl⟩
abbrev main_v913 : Ref sig .tc := ⟨.hbm, 1653, rfl⟩
abbrev main_v914 : Ref sig .tc := ⟨.hbm, 1654, rfl⟩
abbrev main_v915 : Ref sig .tc := ⟨.hbm, 1655, rfl⟩
abbrev main_v916 : Ref sig .tc := ⟨.hbm, 1656, rfl⟩
abbrev main_v917 : Ref sig .tc := ⟨.hbm, 1657, rfl⟩
abbrev main_v918 : Ref sig .tc := ⟨.hbm, 1658, rfl⟩
abbrev main_v919 : Ref sig .tc := ⟨.hbm, 1659, rfl⟩
abbrev main_cst_297 : Ref sig .tc := ⟨.hbm, 1660, rfl⟩
abbrev main_cst_298 : Ref sig .tc := ⟨.hbm, 1661, rfl⟩
abbrev main_call88_v0 : Ref sig .tc := ⟨.hbm, 1662, rfl⟩
abbrev main_call88_v1 : Ref sig .tc := ⟨.hbm, 1663, rfl⟩
abbrev main_call88_v2 : Ref sig .tc := ⟨.hbm, 1664, rfl⟩
abbrev main_call88_v3 : Ref sig .tc := ⟨.hbm, 1665, rfl⟩
abbrev main_call88_v4 : Ref sig .tc := ⟨.hbm, 1666, rfl⟩
abbrev main_v920 : Ref sig .tc := ⟨.hbm, 1667, rfl⟩
abbrev main_cst_299 : Ref sig .tc := ⟨.hbm, 1668, rfl⟩
abbrev main_cst_300 : Ref sig .tc := ⟨.hbm, 1669, rfl⟩
abbrev main_call89_v0 : Ref sig .tc := ⟨.hbm, 1670, rfl⟩
abbrev main_call89_v1 : Ref sig .tc := ⟨.hbm, 1671, rfl⟩
abbrev main_call89_v2 : Ref sig .tc := ⟨.hbm, 1672, rfl⟩
abbrev main_call89_v3 : Ref sig .tc := ⟨.hbm, 1673, rfl⟩
abbrev main_call89_v4 : Ref sig .tc := ⟨.hbm, 1674, rfl⟩
abbrev main_v921 : Ref sig .tc := ⟨.hbm, 1675, rfl⟩
abbrev main_v922 : Ref sig .tc := ⟨.hbm, 1676, rfl⟩
abbrev main_v923 : Ref sig .tc := ⟨.hbm, 1677, rfl⟩
abbrev main_v924 : Ref sig .tc := ⟨.hbm, 1678, rfl⟩
abbrev main_v925 : Ref sig .tc := ⟨.hbm, 1679, rfl⟩
abbrev main_v926 : Ref sig .tc := ⟨.hbm, 1680, rfl⟩
abbrev main_v927 : Ref sig .tc := ⟨.hbm, 1681, rfl⟩
abbrev main_v928 : Ref sig .tc := ⟨.hbm, 1682, rfl⟩
abbrev main_v929 : Ref sig .tc := ⟨.hbm, 1683, rfl⟩
abbrev main_v930 : Ref sig .tc := ⟨.hbm, 1684, rfl⟩
abbrev main_cst_301 : Ref sig .tc := ⟨.hbm, 1685, rfl⟩
abbrev main_cst_302 : Ref sig .tc := ⟨.hbm, 1686, rfl⟩
abbrev main_call90_v0 : Ref sig .tc := ⟨.hbm, 1687, rfl⟩
abbrev main_call90_v1 : Ref sig .tc := ⟨.hbm, 1688, rfl⟩
abbrev main_call90_v2 : Ref sig .tc := ⟨.hbm, 1689, rfl⟩
abbrev main_call90_v3 : Ref sig .tc := ⟨.hbm, 1690, rfl⟩
abbrev main_call90_v4 : Ref sig .tc := ⟨.hbm, 1691, rfl⟩
abbrev main_v931 : Ref sig .tc := ⟨.hbm, 1692, rfl⟩
abbrev main_cst_303 : Ref sig .tc := ⟨.hbm, 1693, rfl⟩
abbrev main_cst_304 : Ref sig .tc := ⟨.hbm, 1694, rfl⟩
abbrev main_call91_v0 : Ref sig .tc := ⟨.hbm, 1695, rfl⟩
abbrev main_call91_v1 : Ref sig .tc := ⟨.hbm, 1696, rfl⟩
abbrev main_call91_v2 : Ref sig .tc := ⟨.hbm, 1697, rfl⟩
abbrev main_call91_v3 : Ref sig .tc := ⟨.hbm, 1698, rfl⟩
abbrev main_call91_v4 : Ref sig .tc := ⟨.hbm, 1699, rfl⟩
abbrev main_v932 : Ref sig .tc := ⟨.hbm, 1700, rfl⟩
abbrev main_v933 : Ref sig .tc := ⟨.hbm, 1701, rfl⟩
abbrev main_v934 : Ref sig .tc := ⟨.hbm, 1702, rfl⟩
abbrev main_v935 : Ref sig .tc := ⟨.hbm, 1703, rfl⟩
abbrev main_v936 : Ref sig .tc := ⟨.hbm, 1704, rfl⟩
abbrev main_v937 : Ref sig .tc := ⟨.hbm, 1705, rfl⟩
abbrev main_v938 : Ref sig .tc := ⟨.hbm, 1706, rfl⟩
abbrev main_v939 : Ref sig .tc := ⟨.hbm, 1707, rfl⟩
abbrev main_cst_305 : Ref sig .tc := ⟨.hbm, 1708, rfl⟩
abbrev main_v940 : Ref sig .tc := ⟨.hbm, 1709, rfl⟩
abbrev main_cst_306 : Ref sig .tc := ⟨.hbm, 1710, rfl⟩
abbrev main_v941 : Ref sig .tc := ⟨.hbm, 1711, rfl⟩
abbrev main_v942 : Ref sig .tc := ⟨.hbm, 1712, rfl⟩
abbrev main_cst_307 : Ref sig .tc := ⟨.hbm, 1713, rfl⟩
abbrev main_v943 : Ref sig .tc := ⟨.hbm, 1714, rfl⟩
abbrev main_v944 : Ref sig .tc := ⟨.hbm, 1715, rfl⟩
abbrev main_v945 : Ref sig .tc := ⟨.hbm, 1716, rfl⟩
abbrev main_v946 : Ref sig .tc := ⟨.hbm, 1717, rfl⟩
abbrev main_cst_308 : Ref sig .tc := ⟨.hbm, 1718, rfl⟩
abbrev main_v947 : Ref sig .tc := ⟨.hbm, 1719, rfl⟩
abbrev main_v948 : Ref sig .tc := ⟨.hbm, 1720, rfl⟩
abbrev main_v949 : Ref sig .tc := ⟨.hbm, 1721, rfl⟩
abbrev main_v950 : Ref sig .tc := ⟨.hbm, 1722, rfl⟩
abbrev main_v951 : Ref sig .tc := ⟨.hbm, 1723, rfl⟩
abbrev main_cst_309 : Ref sig .tc := ⟨.hbm, 1724, rfl⟩
abbrev main_v952 : Ref sig .tc := ⟨.hbm, 1725, rfl⟩
abbrev main_v953 : Ref sig .tc := ⟨.hbm, 1726, rfl⟩
abbrev main_cst_310 : Ref sig .tc := ⟨.hbm, 1727, rfl⟩
abbrev main_v954 : Ref sig .tc := ⟨.hbm, 1728, rfl⟩
abbrev main_v955 : Ref sig .tc := ⟨.hbm, 1729, rfl⟩
abbrev main_v956 : Ref sig .tc := ⟨.hbm, 1730, rfl⟩
abbrev main_v957 : Ref sig .tc := ⟨.hbm, 1731, rfl⟩
abbrev main_v958 : Ref sig .tc := ⟨.hbm, 1732, rfl⟩
abbrev main_v959 : Ref sig .tc := ⟨.hbm, 1733, rfl⟩
abbrev main_cst_311 : Ref sig .tc := ⟨.hbm, 1734, rfl⟩
abbrev main_cst_312 : Ref sig .tc := ⟨.hbm, 1735, rfl⟩
abbrev main_call92_v0 : Ref sig .tc := ⟨.hbm, 1736, rfl⟩
abbrev main_call92_v1 : Ref sig .tc := ⟨.hbm, 1737, rfl⟩
abbrev main_call92_v2 : Ref sig .tc := ⟨.hbm, 1738, rfl⟩
abbrev main_call92_v3 : Ref sig .tc := ⟨.hbm, 1739, rfl⟩
abbrev main_call92_v4 : Ref sig .tc := ⟨.hbm, 1740, rfl⟩
abbrev main_v960 : Ref sig .tc := ⟨.hbm, 1741, rfl⟩
abbrev main_cst_313 : Ref sig .tc := ⟨.hbm, 1742, rfl⟩
abbrev main_cst_314 : Ref sig .tc := ⟨.hbm, 1743, rfl⟩
abbrev main_call93_v0 : Ref sig .tc := ⟨.hbm, 1744, rfl⟩
abbrev main_call93_v1 : Ref sig .tc := ⟨.hbm, 1745, rfl⟩
abbrev main_call93_v2 : Ref sig .tc := ⟨.hbm, 1746, rfl⟩
abbrev main_call93_v3 : Ref sig .tc := ⟨.hbm, 1747, rfl⟩
abbrev main_call93_v4 : Ref sig .tc := ⟨.hbm, 1748, rfl⟩
abbrev main_v961 : Ref sig .tc := ⟨.hbm, 1749, rfl⟩
abbrev main_v962 : Ref sig .tc := ⟨.hbm, 1750, rfl⟩
abbrev main_v963 : Ref sig .tc := ⟨.hbm, 1751, rfl⟩
abbrev main_v964 : Ref sig .tc := ⟨.hbm, 1752, rfl⟩
abbrev main_v965 : Ref sig .tc := ⟨.hbm, 1753, rfl⟩
abbrev main_v966 : Ref sig .tc := ⟨.hbm, 1754, rfl⟩
abbrev main_v967 : Ref sig .tc := ⟨.hbm, 1755, rfl⟩
abbrev main_v968 : Ref sig .tc := ⟨.hbm, 1756, rfl⟩
abbrev main_cst_315 : Ref sig .tc := ⟨.hbm, 1757, rfl⟩
abbrev main_v969 : Ref sig .tc := ⟨.hbm, 1758, rfl⟩
abbrev main_cst_316 : Ref sig .tc := ⟨.hbm, 1759, rfl⟩
abbrev main_v970 : Ref sig .tc := ⟨.hbm, 1760, rfl⟩
abbrev main_v971 : Ref sig .tc := ⟨.hbm, 1761, rfl⟩
abbrev main_cst_317 : Ref sig .tc := ⟨.hbm, 1762, rfl⟩
abbrev main_v972 : Ref sig .tc := ⟨.hbm, 1763, rfl⟩
abbrev main_v973 : Ref sig .tc := ⟨.hbm, 1764, rfl⟩
abbrev main_v974 : Ref sig .tc := ⟨.hbm, 1765, rfl⟩
abbrev main_v975 : Ref sig .tc := ⟨.hbm, 1766, rfl⟩
abbrev main_cst_318 : Ref sig .tc := ⟨.hbm, 1767, rfl⟩
abbrev main_v976 : Ref sig .tc := ⟨.hbm, 1768, rfl⟩
abbrev main_v977 : Ref sig .tc := ⟨.hbm, 1769, rfl⟩
abbrev main_v978 : Ref sig .tc := ⟨.hbm, 1770, rfl⟩
abbrev main_v979 : Ref sig .tc := ⟨.hbm, 1771, rfl⟩
abbrev main_v980 : Ref sig .tc := ⟨.hbm, 1772, rfl⟩
abbrev main_v981 : Ref sig .tc := ⟨.hbm, 1773, rfl⟩
abbrev main_v982 : Ref sig .tc := ⟨.hbm, 1774, rfl⟩
abbrev main_v983 : Ref sig .tc := ⟨.hbm, 1775, rfl⟩
abbrev main_v984 : Ref sig .tc := ⟨.hbm, 1776, rfl⟩
abbrev main_cst_319 : Ref sig .tc := ⟨.hbm, 1777, rfl⟩
abbrev main_v985 : Ref sig .tc := ⟨.hbm, 1778, rfl⟩
abbrev main_v986 : Ref sig .tc := ⟨.hbm, 1779, rfl⟩
abbrev main_cst_320 : Ref sig .tc := ⟨.hbm, 1780, rfl⟩
abbrev main_v987 : Ref sig .tc := ⟨.hbm, 1781, rfl⟩
abbrev main_v988 : Ref sig .tc := ⟨.hbm, 1782, rfl⟩
abbrev main_v989 : Ref sig .tc := ⟨.hbm, 1783, rfl⟩
abbrev main_v990 : Ref sig .tc := ⟨.hbm, 1784, rfl⟩
abbrev main_v991 : Ref sig .tc := ⟨.hbm, 1785, rfl⟩
abbrev main_v992 : Ref sig .tc := ⟨.hbm, 1786, rfl⟩
abbrev main_cst_321 : Ref sig .tc := ⟨.hbm, 1787, rfl⟩
abbrev main_cst_322 : Ref sig .tc := ⟨.hbm, 1788, rfl⟩
abbrev main_call94_v0 : Ref sig .tc := ⟨.hbm, 1789, rfl⟩
abbrev main_call94_v1 : Ref sig .tc := ⟨.hbm, 1790, rfl⟩
abbrev main_call94_v2 : Ref sig .tc := ⟨.hbm, 1791, rfl⟩
abbrev main_call94_v3 : Ref sig .tc := ⟨.hbm, 1792, rfl⟩
abbrev main_call94_v4 : Ref sig .tc := ⟨.hbm, 1793, rfl⟩
abbrev main_v993 : Ref sig .tc := ⟨.hbm, 1794, rfl⟩
abbrev main_cst_323 : Ref sig .tc := ⟨.hbm, 1795, rfl⟩
abbrev main_cst_324 : Ref sig .tc := ⟨.hbm, 1796, rfl⟩
abbrev main_call95_v0 : Ref sig .tc := ⟨.hbm, 1797, rfl⟩
abbrev main_call95_v1 : Ref sig .tc := ⟨.hbm, 1798, rfl⟩
abbrev main_call95_v2 : Ref sig .tc := ⟨.hbm, 1799, rfl⟩
abbrev main_call95_v3 : Ref sig .tc := ⟨.hbm, 1800, rfl⟩
abbrev main_call95_v4 : Ref sig .tc := ⟨.hbm, 1801, rfl⟩
abbrev main_v994 : Ref sig .tc := ⟨.hbm, 1802, rfl⟩
abbrev main_v995 : Ref sig .tc := ⟨.hbm, 1803, rfl⟩
abbrev main_v996 : Ref sig .tc := ⟨.hbm, 1804, rfl⟩
abbrev main_v997 : Ref sig .tc := ⟨.hbm, 1805, rfl⟩
abbrev main_v998 : Ref sig .tc := ⟨.hbm, 1806, rfl⟩
abbrev main_v999 : Ref sig .tc := ⟨.hbm, 1807, rfl⟩
abbrev main_v1000 : Ref sig .tc := ⟨.hbm, 1808, rfl⟩
abbrev main_v1001 : Ref sig .tc := ⟨.hbm, 1809, rfl⟩
abbrev main_v1002 : Ref sig .tc := ⟨.hbm, 1810, rfl⟩
abbrev main_v1003 : Ref sig .tc := ⟨.hbm, 1811, rfl⟩
abbrev main_cst_325 : Ref sig .tc := ⟨.hbm, 1812, rfl⟩
abbrev main_cst_326 : Ref sig .tc := ⟨.hbm, 1813, rfl⟩
abbrev main_call96_v0 : Ref sig .tc := ⟨.hbm, 1814, rfl⟩
abbrev main_call96_v1 : Ref sig .tc := ⟨.hbm, 1815, rfl⟩
abbrev main_call96_v2 : Ref sig .tc := ⟨.hbm, 1816, rfl⟩
abbrev main_call96_v3 : Ref sig .tc := ⟨.hbm, 1817, rfl⟩
abbrev main_call96_v4 : Ref sig .tc := ⟨.hbm, 1818, rfl⟩
abbrev main_v1004 : Ref sig .tc := ⟨.hbm, 1819, rfl⟩
abbrev main_cst_327 : Ref sig .tc := ⟨.hbm, 1820, rfl⟩
abbrev main_cst_328 : Ref sig .tc := ⟨.hbm, 1821, rfl⟩
abbrev main_call97_v0 : Ref sig .tc := ⟨.hbm, 1822, rfl⟩
abbrev main_call97_v1 : Ref sig .tc := ⟨.hbm, 1823, rfl⟩
abbrev main_call97_v2 : Ref sig .tc := ⟨.hbm, 1824, rfl⟩
abbrev main_call97_v3 : Ref sig .tc := ⟨.hbm, 1825, rfl⟩
abbrev main_call97_v4 : Ref sig .tc := ⟨.hbm, 1826, rfl⟩
abbrev main_v1005 : Ref sig .tc := ⟨.hbm, 1827, rfl⟩
abbrev main_v1006 : Ref sig .tc := ⟨.hbm, 1828, rfl⟩
abbrev main_v1007 : Ref sig .tc := ⟨.hbm, 1829, rfl⟩
abbrev main_v1008 : Ref sig .tc := ⟨.hbm, 1830, rfl⟩
abbrev main_v1009 : Ref sig .tc := ⟨.hbm, 1831, rfl⟩
abbrev main_v1010 : Ref sig .tc := ⟨.hbm, 1832, rfl⟩
abbrev main_v1011 : Ref sig .tc := ⟨.hbm, 1833, rfl⟩
abbrev main_v1012 : Ref sig .tc := ⟨.hbm, 1834, rfl⟩
abbrev main_cst_329 : Ref sig .tc := ⟨.hbm, 1835, rfl⟩
abbrev main_v1013 : Ref sig .tc := ⟨.hbm, 1836, rfl⟩
abbrev main_cst_330 : Ref sig .tc := ⟨.hbm, 1837, rfl⟩
abbrev main_v1014 : Ref sig .tc := ⟨.hbm, 1838, rfl⟩
abbrev main_v1015 : Ref sig .tc := ⟨.hbm, 1839, rfl⟩
abbrev main_cst_331 : Ref sig .tc := ⟨.hbm, 1840, rfl⟩
abbrev main_v1016 : Ref sig .tc := ⟨.hbm, 1841, rfl⟩
abbrev main_v1017 : Ref sig .tc := ⟨.hbm, 1842, rfl⟩
abbrev main_v1018 : Ref sig .tc := ⟨.hbm, 1843, rfl⟩
abbrev main_v1019 : Ref sig .tc := ⟨.hbm, 1844, rfl⟩
abbrev main_cst_332 : Ref sig .tc := ⟨.hbm, 1845, rfl⟩
abbrev main_v1020 : Ref sig .tc := ⟨.hbm, 1846, rfl⟩
abbrev main_v1021 : Ref sig .tc := ⟨.hbm, 1847, rfl⟩
abbrev main_v1022 : Ref sig .tc := ⟨.hbm, 1848, rfl⟩
abbrev main_v1023 : Ref sig .tc := ⟨.hbm, 1849, rfl⟩
abbrev main_v1024 : Ref sig .tc := ⟨.hbm, 1850, rfl⟩
abbrev main_cst_333 : Ref sig .tc := ⟨.hbm, 1851, rfl⟩
abbrev main_v1025 : Ref sig .tc := ⟨.hbm, 1852, rfl⟩
abbrev main_v1026 : Ref sig .tc := ⟨.hbm, 1853, rfl⟩
abbrev main_cst_334 : Ref sig .tc := ⟨.hbm, 1854, rfl⟩
abbrev main_v1027 : Ref sig .tc := ⟨.hbm, 1855, rfl⟩
abbrev main_v1028 : Ref sig .tc := ⟨.hbm, 1856, rfl⟩
abbrev main_v1029 : Ref sig .tc := ⟨.hbm, 1857, rfl⟩
abbrev main_v1030 : Ref sig .tc := ⟨.hbm, 1858, rfl⟩
abbrev main_v1031 : Ref sig .tc := ⟨.hbm, 1859, rfl⟩
abbrev main_v1032 : Ref sig .tc := ⟨.hbm, 1860, rfl⟩
abbrev main_cst_335 : Ref sig .tc := ⟨.hbm, 1861, rfl⟩
abbrev main_cst_336 : Ref sig .tc := ⟨.hbm, 1862, rfl⟩
abbrev main_call98_v0 : Ref sig .tc := ⟨.hbm, 1863, rfl⟩
abbrev main_call98_v1 : Ref sig .tc := ⟨.hbm, 1864, rfl⟩
abbrev main_call98_v2 : Ref sig .tc := ⟨.hbm, 1865, rfl⟩
abbrev main_call98_v3 : Ref sig .tc := ⟨.hbm, 1866, rfl⟩
abbrev main_call98_v4 : Ref sig .tc := ⟨.hbm, 1867, rfl⟩
abbrev main_v1033 : Ref sig .tc := ⟨.hbm, 1868, rfl⟩
abbrev main_cst_337 : Ref sig .tc := ⟨.hbm, 1869, rfl⟩
abbrev main_cst_338 : Ref sig .tc := ⟨.hbm, 1870, rfl⟩
abbrev main_call99_v0 : Ref sig .tc := ⟨.hbm, 1871, rfl⟩
abbrev main_call99_v1 : Ref sig .tc := ⟨.hbm, 1872, rfl⟩
abbrev main_call99_v2 : Ref sig .tc := ⟨.hbm, 1873, rfl⟩
abbrev main_call99_v3 : Ref sig .tc := ⟨.hbm, 1874, rfl⟩
abbrev main_call99_v4 : Ref sig .tc := ⟨.hbm, 1875, rfl⟩
abbrev main_v1034 : Ref sig .tc := ⟨.hbm, 1876, rfl⟩
abbrev main_v1035 : Ref sig .tc := ⟨.hbm, 1877, rfl⟩
abbrev main_v1036 : Ref sig .tc := ⟨.hbm, 1878, rfl⟩
abbrev main_v1037 : Ref sig .tc := ⟨.hbm, 1879, rfl⟩
abbrev main_v1038 : Ref sig .tc := ⟨.hbm, 1880, rfl⟩
abbrev main_v1039 : Ref sig .tc := ⟨.hbm, 1881, rfl⟩
abbrev main_v1040 : Ref sig .tc := ⟨.hbm, 1882, rfl⟩
abbrev main_v1041 : Ref sig .tc := ⟨.hbm, 1883, rfl⟩
abbrev main_cst_339 : Ref sig .tc := ⟨.hbm, 1884, rfl⟩
abbrev main_v1042 : Ref sig .tc := ⟨.hbm, 1885, rfl⟩
abbrev main_cst_340 : Ref sig .tc := ⟨.hbm, 1886, rfl⟩
abbrev main_v1043 : Ref sig .tc := ⟨.hbm, 1887, rfl⟩
abbrev main_v1044 : Ref sig .tc := ⟨.hbm, 1888, rfl⟩
abbrev main_cst_341 : Ref sig .tc := ⟨.hbm, 1889, rfl⟩
abbrev main_v1045 : Ref sig .tc := ⟨.hbm, 1890, rfl⟩
abbrev main_v1046 : Ref sig .tc := ⟨.hbm, 1891, rfl⟩
abbrev main_v1047 : Ref sig .tc := ⟨.hbm, 1892, rfl⟩
abbrev main_v1048 : Ref sig .tc := ⟨.hbm, 1893, rfl⟩
abbrev main_cst_342 : Ref sig .tc := ⟨.hbm, 1894, rfl⟩
abbrev main_v1049 : Ref sig .tc := ⟨.hbm, 1895, rfl⟩
abbrev main_v1050 : Ref sig .tc := ⟨.hbm, 1896, rfl⟩
abbrev main_v1051 : Ref sig .tc := ⟨.hbm, 1897, rfl⟩
abbrev main_v1052 : Ref sig .tc := ⟨.hbm, 1898, rfl⟩
abbrev main_v1053 : Ref sig .tc := ⟨.hbm, 1899, rfl⟩
abbrev main_v1054 : Ref sig .tc := ⟨.hbm, 1900, rfl⟩
abbrev main_v1055 : Ref sig .tc := ⟨.hbm, 1901, rfl⟩
abbrev main_v1056 : Ref sig .tc := ⟨.hbm, 1902, rfl⟩
abbrev main_v1057 : Ref sig .tc := ⟨.hbm, 1903, rfl⟩
abbrev main_v1058 : Ref sig .tc := ⟨.hbm, 1904, rfl⟩
abbrev main_v1059 : Ref sig .tc := ⟨.hbm, 1905, rfl⟩
abbrev main_v1060 : Ref sig .tc := ⟨.hbm, 1906, rfl⟩
abbrev main_v1061 : Ref sig .tc := ⟨.hbm, 1907, rfl⟩
abbrev main_v1062 : Ref sig .tc := ⟨.hbm, 1908, rfl⟩
abbrev main_v1063 : Ref sig .tc := ⟨.hbm, 1909, rfl⟩
abbrev main_v1064 : Ref sig .tc := ⟨.hbm, 1910, rfl⟩
abbrev main_v1065 : Ref sig .tc := ⟨.hbm, 1911, rfl⟩
abbrev main_cst_343 : Ref sig .tc := ⟨.hbm, 1912, rfl⟩
abbrev main_v1066 : Ref sig .tc := ⟨.hbm, 1913, rfl⟩
abbrev main_v1067 : Ref sig .tc := ⟨.hbm, 1914, rfl⟩
abbrev main_cst_344 : Ref sig .tc := ⟨.hbm, 1915, rfl⟩
abbrev main_v1068 : Ref sig .tc := ⟨.hbm, 1916, rfl⟩
abbrev main_v1069 : Ref sig .tc := ⟨.hbm, 1917, rfl⟩
abbrev main_v1070 : Ref sig .tc := ⟨.hbm, 1918, rfl⟩
abbrev main_v1071 : Ref sig .tc := ⟨.hbm, 1919, rfl⟩
abbrev main_v1072 : Ref sig .tc := ⟨.hbm, 1920, rfl⟩
abbrev main_v1073 : Ref sig .tc := ⟨.hbm, 1921, rfl⟩
abbrev main_cst_345 : Ref sig .tc := ⟨.hbm, 1922, rfl⟩
abbrev main_cst_346 : Ref sig .tc := ⟨.hbm, 1923, rfl⟩
abbrev main_call100_v0 : Ref sig .tc := ⟨.hbm, 1924, rfl⟩
abbrev main_call100_v1 : Ref sig .tc := ⟨.hbm, 1925, rfl⟩
abbrev main_call100_v2 : Ref sig .tc := ⟨.hbm, 1926, rfl⟩
abbrev main_call100_v3 : Ref sig .tc := ⟨.hbm, 1927, rfl⟩
abbrev main_call100_v4 : Ref sig .tc := ⟨.hbm, 1928, rfl⟩
abbrev main_v1074 : Ref sig .tc := ⟨.hbm, 1929, rfl⟩
abbrev main_cst_347 : Ref sig .tc := ⟨.hbm, 1930, rfl⟩
abbrev main_cst_348 : Ref sig .tc := ⟨.hbm, 1931, rfl⟩
abbrev main_call101_v0 : Ref sig .tc := ⟨.hbm, 1932, rfl⟩
abbrev main_call101_v1 : Ref sig .tc := ⟨.hbm, 1933, rfl⟩
abbrev main_call101_v2 : Ref sig .tc := ⟨.hbm, 1934, rfl⟩
abbrev main_call101_v3 : Ref sig .tc := ⟨.hbm, 1935, rfl⟩
abbrev main_call101_v4 : Ref sig .tc := ⟨.hbm, 1936, rfl⟩
abbrev main_v1075 : Ref sig .tc := ⟨.hbm, 1937, rfl⟩
abbrev main_v1076 : Ref sig .tc := ⟨.hbm, 1938, rfl⟩
abbrev main_v1077 : Ref sig .tc := ⟨.hbm, 1939, rfl⟩
abbrev main_v1078 : Ref sig .tc := ⟨.hbm, 1940, rfl⟩
abbrev main_v1079 : Ref sig .tc := ⟨.hbm, 1941, rfl⟩
abbrev main_v1080 : Ref sig .tc := ⟨.hbm, 1942, rfl⟩
abbrev main_v1081 : Ref sig .tc := ⟨.hbm, 1943, rfl⟩
abbrev main_v1082 : Ref sig .tc := ⟨.hbm, 1944, rfl⟩
abbrev main_v1083 : Ref sig .tc := ⟨.hbm, 1945, rfl⟩
abbrev main_v1084 : Ref sig .tc := ⟨.hbm, 1946, rfl⟩
abbrev main_cst_349 : Ref sig .tc := ⟨.hbm, 1947, rfl⟩
abbrev main_cst_350 : Ref sig .tc := ⟨.hbm, 1948, rfl⟩
abbrev main_call102_v0 : Ref sig .tc := ⟨.hbm, 1949, rfl⟩
abbrev main_call102_v1 : Ref sig .tc := ⟨.hbm, 1950, rfl⟩
abbrev main_call102_v2 : Ref sig .tc := ⟨.hbm, 1951, rfl⟩
abbrev main_call102_v3 : Ref sig .tc := ⟨.hbm, 1952, rfl⟩
abbrev main_call102_v4 : Ref sig .tc := ⟨.hbm, 1953, rfl⟩
abbrev main_v1085 : Ref sig .tc := ⟨.hbm, 1954, rfl⟩
abbrev main_cst_351 : Ref sig .tc := ⟨.hbm, 1955, rfl⟩
abbrev main_cst_352 : Ref sig .tc := ⟨.hbm, 1956, rfl⟩
abbrev main_call103_v0 : Ref sig .tc := ⟨.hbm, 1957, rfl⟩
abbrev main_call103_v1 : Ref sig .tc := ⟨.hbm, 1958, rfl⟩
abbrev main_call103_v2 : Ref sig .tc := ⟨.hbm, 1959, rfl⟩
abbrev main_call103_v3 : Ref sig .tc := ⟨.hbm, 1960, rfl⟩
abbrev main_call103_v4 : Ref sig .tc := ⟨.hbm, 1961, rfl⟩
abbrev main_v1086 : Ref sig .tc := ⟨.hbm, 1962, rfl⟩
abbrev main_v1087 : Ref sig .tc := ⟨.hbm, 1963, rfl⟩
abbrev main_v1088 : Ref sig .tc := ⟨.hbm, 1964, rfl⟩
abbrev main_v1089 : Ref sig .tc := ⟨.hbm, 1965, rfl⟩
abbrev main_v1090 : Ref sig .tc := ⟨.hbm, 1966, rfl⟩
abbrev main_v1091 : Ref sig .tc := ⟨.hbm, 1967, rfl⟩
abbrev main_v1092 : Ref sig .tc := ⟨.hbm, 1968, rfl⟩
abbrev main_v1093 : Ref sig .tc := ⟨.hbm, 1969, rfl⟩
abbrev main_v1094 : Ref sig .tc := ⟨.hbm, 1970, rfl⟩
abbrev main_v1095 : Ref sig .tc := ⟨.hbm, 1971, rfl⟩
abbrev main_cst_353 : Ref sig .tc := ⟨.hbm, 1972, rfl⟩
abbrev main_cst_354 : Ref sig .tc := ⟨.hbm, 1973, rfl⟩
abbrev main_call104_v0 : Ref sig .tc := ⟨.hbm, 1974, rfl⟩
abbrev main_call104_v1 : Ref sig .tc := ⟨.hbm, 1975, rfl⟩
abbrev main_call104_v2 : Ref sig .tc := ⟨.hbm, 1976, rfl⟩
abbrev main_call104_v3 : Ref sig .tc := ⟨.hbm, 1977, rfl⟩
abbrev main_call104_v4 : Ref sig .tc := ⟨.hbm, 1978, rfl⟩
abbrev main_v1096 : Ref sig .tc := ⟨.hbm, 1979, rfl⟩
abbrev main_cst_355 : Ref sig .tc := ⟨.hbm, 1980, rfl⟩
abbrev main_cst_356 : Ref sig .tc := ⟨.hbm, 1981, rfl⟩
abbrev main_call105_v0 : Ref sig .tc := ⟨.hbm, 1982, rfl⟩
abbrev main_call105_v1 : Ref sig .tc := ⟨.hbm, 1983, rfl⟩
abbrev main_call105_v2 : Ref sig .tc := ⟨.hbm, 1984, rfl⟩
abbrev main_call105_v3 : Ref sig .tc := ⟨.hbm, 1985, rfl⟩
abbrev main_call105_v4 : Ref sig .tc := ⟨.hbm, 1986, rfl⟩
abbrev main_v1097 : Ref sig .tc := ⟨.hbm, 1987, rfl⟩
abbrev main_v1098 : Ref sig .tc := ⟨.hbm, 1988, rfl⟩
abbrev main_v1099 : Ref sig .tc := ⟨.hbm, 1989, rfl⟩
abbrev main_v1100 : Ref sig .tc := ⟨.hbm, 1990, rfl⟩
abbrev main_v1101 : Ref sig .tc := ⟨.hbm, 1991, rfl⟩
abbrev main_v1102 : Ref sig .tc := ⟨.hbm, 1992, rfl⟩
abbrev main_v1103 : Ref sig .tc := ⟨.hbm, 1993, rfl⟩
abbrev main_v1104 : Ref sig .tc := ⟨.hbm, 1994, rfl⟩
abbrev main_v1105 : Ref sig .tc := ⟨.hbm, 1995, rfl⟩
abbrev main_v1106 : Ref sig .tc := ⟨.hbm, 1996, rfl⟩
abbrev main_cst_357 : Ref sig .tc := ⟨.hbm, 1997, rfl⟩
abbrev main_cst_358 : Ref sig .tc := ⟨.hbm, 1998, rfl⟩
abbrev main_call106_v0 : Ref sig .tc := ⟨.hbm, 1999, rfl⟩
abbrev main_call106_v1 : Ref sig .tc := ⟨.hbm, 2000, rfl⟩
abbrev main_call106_v2 : Ref sig .tc := ⟨.hbm, 2001, rfl⟩
abbrev main_call106_v3 : Ref sig .tc := ⟨.hbm, 2002, rfl⟩
abbrev main_call106_v4 : Ref sig .tc := ⟨.hbm, 2003, rfl⟩
abbrev main_v1107 : Ref sig .tc := ⟨.hbm, 2004, rfl⟩
abbrev main_cst_359 : Ref sig .tc := ⟨.hbm, 2005, rfl⟩
abbrev main_cst_360 : Ref sig .tc := ⟨.hbm, 2006, rfl⟩
abbrev main_call107_v0 : Ref sig .tc := ⟨.hbm, 2007, rfl⟩
abbrev main_call107_v1 : Ref sig .tc := ⟨.hbm, 2008, rfl⟩
abbrev main_call107_v2 : Ref sig .tc := ⟨.hbm, 2009, rfl⟩
abbrev main_call107_v3 : Ref sig .tc := ⟨.hbm, 2010, rfl⟩
abbrev main_call107_v4 : Ref sig .tc := ⟨.hbm, 2011, rfl⟩
abbrev main_v1108 : Ref sig .tc := ⟨.hbm, 2012, rfl⟩
abbrev main_v1109 : Ref sig .tc := ⟨.hbm, 2013, rfl⟩
abbrev main_v1110 : Ref sig .tc := ⟨.hbm, 2014, rfl⟩
abbrev main_v1111 : Ref sig .tc := ⟨.hbm, 2015, rfl⟩
abbrev main_v1112 : Ref sig .tc := ⟨.hbm, 2016, rfl⟩
abbrev main_v1113 : Ref sig .tc := ⟨.hbm, 2017, rfl⟩
abbrev main_v1114 : Ref sig .tc := ⟨.hbm, 2018, rfl⟩
abbrev main_v1115 : Ref sig .tc := ⟨.hbm, 2019, rfl⟩
abbrev main_cst_361 : Ref sig .tc := ⟨.hbm, 2020, rfl⟩
abbrev main_v1116 : Ref sig .tc := ⟨.hbm, 2021, rfl⟩
abbrev main_cst_362 : Ref sig .tc := ⟨.hbm, 2022, rfl⟩
abbrev main_v1117 : Ref sig .tc := ⟨.hbm, 2023, rfl⟩
abbrev main_v1118 : Ref sig .tc := ⟨.hbm, 2024, rfl⟩
abbrev main_cst_363 : Ref sig .tc := ⟨.hbm, 2025, rfl⟩
abbrev main_v1119 : Ref sig .tc := ⟨.hbm, 2026, rfl⟩
abbrev main_v1120 : Ref sig .tc := ⟨.hbm, 2027, rfl⟩
abbrev main_v1121 : Ref sig .tc := ⟨.hbm, 2028, rfl⟩
abbrev main_v1122 : Ref sig .tc := ⟨.hbm, 2029, rfl⟩
abbrev main_cst_364 : Ref sig .tc := ⟨.hbm, 2030, rfl⟩
abbrev main_v1123 : Ref sig .tc := ⟨.hbm, 2031, rfl⟩
abbrev main_v1124 : Ref sig .tc := ⟨.hbm, 2032, rfl⟩
abbrev main_v1125 : Ref sig .tc := ⟨.hbm, 2033, rfl⟩
abbrev main_v1126 : Ref sig .tc := ⟨.hbm, 2034, rfl⟩
abbrev main_v1127 : Ref sig .tc := ⟨.hbm, 2035, rfl⟩
abbrev main_cst_365 : Ref sig .tc := ⟨.hbm, 2036, rfl⟩
abbrev main_v1128 : Ref sig .tc := ⟨.hbm, 2037, rfl⟩
abbrev main_v1129 : Ref sig .tc := ⟨.hbm, 2038, rfl⟩
abbrev main_cst_366 : Ref sig .tc := ⟨.hbm, 2039, rfl⟩
abbrev main_v1130 : Ref sig .tc := ⟨.hbm, 2040, rfl⟩
abbrev main_v1131 : Ref sig .tc := ⟨.hbm, 2041, rfl⟩
abbrev main_v1132 : Ref sig .tc := ⟨.hbm, 2042, rfl⟩
abbrev main_v1133 : Ref sig .tc := ⟨.hbm, 2043, rfl⟩
abbrev main_v1134 : Ref sig .tc := ⟨.hbm, 2044, rfl⟩
abbrev main_v1135 : Ref sig .tc := ⟨.hbm, 2045, rfl⟩
abbrev main_cst_367 : Ref sig .tc := ⟨.hbm, 2046, rfl⟩
abbrev main_cst_368 : Ref sig .tc := ⟨.hbm, 2047, rfl⟩
abbrev main_call108_v0 : Ref sig .tc := ⟨.hbm, 2048, rfl⟩
abbrev main_call108_v1 : Ref sig .tc := ⟨.hbm, 2049, rfl⟩
abbrev main_call108_v2 : Ref sig .tc := ⟨.hbm, 2050, rfl⟩
abbrev main_call108_v3 : Ref sig .tc := ⟨.hbm, 2051, rfl⟩
abbrev main_call108_v4 : Ref sig .tc := ⟨.hbm, 2052, rfl⟩
abbrev main_v1136 : Ref sig .tc := ⟨.hbm, 2053, rfl⟩
abbrev main_cst_369 : Ref sig .tc := ⟨.hbm, 2054, rfl⟩
abbrev main_cst_370 : Ref sig .tc := ⟨.hbm, 2055, rfl⟩
abbrev main_call109_v0 : Ref sig .tc := ⟨.hbm, 2056, rfl⟩
abbrev main_call109_v1 : Ref sig .tc := ⟨.hbm, 2057, rfl⟩
abbrev main_call109_v2 : Ref sig .tc := ⟨.hbm, 2058, rfl⟩
abbrev main_call109_v3 : Ref sig .tc := ⟨.hbm, 2059, rfl⟩
abbrev main_call109_v4 : Ref sig .tc := ⟨.hbm, 2060, rfl⟩
abbrev main_v1137 : Ref sig .tc := ⟨.hbm, 2061, rfl⟩
abbrev main_v1138 : Ref sig .tc := ⟨.hbm, 2062, rfl⟩
abbrev main_v1139 : Ref sig .tc := ⟨.hbm, 2063, rfl⟩
abbrev main_v1140 : Ref sig .tc := ⟨.hbm, 2064, rfl⟩
abbrev main_v1141 : Ref sig .tc := ⟨.hbm, 2065, rfl⟩
abbrev main_v1142 : Ref sig .tc := ⟨.hbm, 2066, rfl⟩
abbrev main_v1143 : Ref sig .tc := ⟨.hbm, 2067, rfl⟩
abbrev main_v1144 : Ref sig .tc := ⟨.hbm, 2068, rfl⟩
abbrev main_cst_371 : Ref sig .tc := ⟨.hbm, 2069, rfl⟩
abbrev main_v1145 : Ref sig .tc := ⟨.hbm, 2070, rfl⟩
abbrev main_cst_372 : Ref sig .tc := ⟨.hbm, 2071, rfl⟩
abbrev main_v1146 : Ref sig .tc := ⟨.hbm, 2072, rfl⟩
abbrev main_v1147 : Ref sig .tc := ⟨.hbm, 2073, rfl⟩
abbrev main_cst_373 : Ref sig .tc := ⟨.hbm, 2074, rfl⟩
abbrev main_v1148 : Ref sig .tc := ⟨.hbm, 2075, rfl⟩
abbrev main_v1149 : Ref sig .tc := ⟨.hbm, 2076, rfl⟩
abbrev main_v1150 : Ref sig .tc := ⟨.hbm, 2077, rfl⟩
abbrev main_v1151 : Ref sig .tc := ⟨.hbm, 2078, rfl⟩
abbrev main_cst_374 : Ref sig .tc := ⟨.hbm, 2079, rfl⟩
abbrev main_v1152 : Ref sig .tc := ⟨.hbm, 2080, rfl⟩
abbrev main_v1153 : Ref sig .tc := ⟨.hbm, 2081, rfl⟩
abbrev main_v1154 : Ref sig .tc := ⟨.hbm, 2082, rfl⟩
abbrev main_v1155 : Ref sig .tc := ⟨.hbm, 2083, rfl⟩
abbrev main_v1156 : Ref sig .tc := ⟨.hbm, 2084, rfl⟩
abbrev main_v1157 : Ref sig .tc := ⟨.hbm, 2085, rfl⟩
abbrev main_v1158 : Ref sig .tc := ⟨.hbm, 2086, rfl⟩
abbrev main_v1159 : Ref sig .tc := ⟨.hbm, 2087, rfl⟩
abbrev main_v1160 : Ref sig .tc := ⟨.hbm, 2088, rfl⟩
abbrev main_cst_375 : Ref sig .tc := ⟨.hbm, 2089, rfl⟩
abbrev main_v1161 : Ref sig .tc := ⟨.hbm, 2090, rfl⟩
abbrev main_v1162 : Ref sig .tc := ⟨.hbm, 2091, rfl⟩
abbrev main_cst_376 : Ref sig .tc := ⟨.hbm, 2092, rfl⟩
abbrev main_v1163 : Ref sig .tc := ⟨.hbm, 2093, rfl⟩
abbrev main_v1164 : Ref sig .tc := ⟨.hbm, 2094, rfl⟩
abbrev main_v1165 : Ref sig .tc := ⟨.hbm, 2095, rfl⟩
abbrev main_v1166 : Ref sig .tc := ⟨.hbm, 2096, rfl⟩
abbrev main_v1167 : Ref sig .tc := ⟨.hbm, 2097, rfl⟩
abbrev main_v1168 : Ref sig .tc := ⟨.hbm, 2098, rfl⟩
abbrev main_cst_377 : Ref sig .tc := ⟨.hbm, 2099, rfl⟩
abbrev main_cst_378 : Ref sig .tc := ⟨.hbm, 2100, rfl⟩
abbrev main_call110_v0 : Ref sig .tc := ⟨.hbm, 2101, rfl⟩
abbrev main_call110_v1 : Ref sig .tc := ⟨.hbm, 2102, rfl⟩
abbrev main_call110_v2 : Ref sig .tc := ⟨.hbm, 2103, rfl⟩
abbrev main_call110_v3 : Ref sig .tc := ⟨.hbm, 2104, rfl⟩
abbrev main_call110_v4 : Ref sig .tc := ⟨.hbm, 2105, rfl⟩
abbrev main_v1169 : Ref sig .tc := ⟨.hbm, 2106, rfl⟩
abbrev main_cst_379 : Ref sig .tc := ⟨.hbm, 2107, rfl⟩
abbrev main_cst_380 : Ref sig .tc := ⟨.hbm, 2108, rfl⟩
abbrev main_call111_v0 : Ref sig .tc := ⟨.hbm, 2109, rfl⟩
abbrev main_call111_v1 : Ref sig .tc := ⟨.hbm, 2110, rfl⟩
abbrev main_call111_v2 : Ref sig .tc := ⟨.hbm, 2111, rfl⟩
abbrev main_call111_v3 : Ref sig .tc := ⟨.hbm, 2112, rfl⟩
abbrev main_call111_v4 : Ref sig .tc := ⟨.hbm, 2113, rfl⟩
abbrev main_v1170 : Ref sig .tc := ⟨.hbm, 2114, rfl⟩
abbrev main_v1171 : Ref sig .tc := ⟨.hbm, 2115, rfl⟩
abbrev main_v1172 : Ref sig .tc := ⟨.hbm, 2116, rfl⟩
abbrev main_v1173 : Ref sig .tc := ⟨.hbm, 2117, rfl⟩
abbrev main_v1174 : Ref sig .tc := ⟨.hbm, 2118, rfl⟩
abbrev main_v1175 : Ref sig .tc := ⟨.hbm, 2119, rfl⟩
abbrev main_v1176 : Ref sig .tc := ⟨.hbm, 2120, rfl⟩
abbrev main_v1177 : Ref sig .tc := ⟨.hbm, 2121, rfl⟩
abbrev main_v1178 : Ref sig .tc := ⟨.hbm, 2122, rfl⟩
abbrev main_v1179 : Ref sig .tc := ⟨.hbm, 2123, rfl⟩
abbrev main_cst_381 : Ref sig .tc := ⟨.hbm, 2124, rfl⟩
abbrev main_cst_382 : Ref sig .tc := ⟨.hbm, 2125, rfl⟩
abbrev main_call112_v0 : Ref sig .tc := ⟨.hbm, 2126, rfl⟩
abbrev main_call112_v1 : Ref sig .tc := ⟨.hbm, 2127, rfl⟩
abbrev main_call112_v2 : Ref sig .tc := ⟨.hbm, 2128, rfl⟩
abbrev main_call112_v3 : Ref sig .tc := ⟨.hbm, 2129, rfl⟩
abbrev main_call112_v4 : Ref sig .tc := ⟨.hbm, 2130, rfl⟩
abbrev main_v1180 : Ref sig .tc := ⟨.hbm, 2131, rfl⟩
abbrev main_cst_383 : Ref sig .tc := ⟨.hbm, 2132, rfl⟩
abbrev main_cst_384 : Ref sig .tc := ⟨.hbm, 2133, rfl⟩
abbrev main_call113_v0 : Ref sig .tc := ⟨.hbm, 2134, rfl⟩
abbrev main_call113_v1 : Ref sig .tc := ⟨.hbm, 2135, rfl⟩
abbrev main_call113_v2 : Ref sig .tc := ⟨.hbm, 2136, rfl⟩
abbrev main_call113_v3 : Ref sig .tc := ⟨.hbm, 2137, rfl⟩
abbrev main_call113_v4 : Ref sig .tc := ⟨.hbm, 2138, rfl⟩
abbrev main_v1181 : Ref sig .tc := ⟨.hbm, 2139, rfl⟩
abbrev main_v1182 : Ref sig .tc := ⟨.hbm, 2140, rfl⟩
abbrev main_v1183 : Ref sig .tc := ⟨.hbm, 2141, rfl⟩
abbrev main_v1184 : Ref sig .tc := ⟨.hbm, 2142, rfl⟩
abbrev main_v1185 : Ref sig .tc := ⟨.hbm, 2143, rfl⟩
abbrev main_v1186 : Ref sig .tc := ⟨.hbm, 2144, rfl⟩
abbrev main_v1187 : Ref sig .tc := ⟨.hbm, 2145, rfl⟩
abbrev main_v1188 : Ref sig .tc := ⟨.hbm, 2146, rfl⟩
abbrev main_cst_385 : Ref sig .tc := ⟨.hbm, 2147, rfl⟩
abbrev main_v1189 : Ref sig .tc := ⟨.hbm, 2148, rfl⟩
abbrev main_cst_386 : Ref sig .tc := ⟨.hbm, 2149, rfl⟩
abbrev main_v1190 : Ref sig .tc := ⟨.hbm, 2150, rfl⟩
abbrev main_v1191 : Ref sig .tc := ⟨.hbm, 2151, rfl⟩
abbrev main_cst_387 : Ref sig .tc := ⟨.hbm, 2152, rfl⟩
abbrev main_v1192 : Ref sig .tc := ⟨.hbm, 2153, rfl⟩
abbrev main_v1193 : Ref sig .tc := ⟨.hbm, 2154, rfl⟩
abbrev main_v1194 : Ref sig .tc := ⟨.hbm, 2155, rfl⟩
abbrev main_v1195 : Ref sig .tc := ⟨.hbm, 2156, rfl⟩
abbrev main_cst_388 : Ref sig .tc := ⟨.hbm, 2157, rfl⟩
abbrev main_v1196 : Ref sig .tc := ⟨.hbm, 2158, rfl⟩
abbrev main_v1197 : Ref sig .tc := ⟨.hbm, 2159, rfl⟩
abbrev main_v1198 : Ref sig .tc := ⟨.hbm, 2160, rfl⟩
abbrev main_v1199 : Ref sig .tc := ⟨.hbm, 2161, rfl⟩
abbrev main_v1200 : Ref sig .tc := ⟨.hbm, 2162, rfl⟩
abbrev main_cst_389 : Ref sig .tc := ⟨.hbm, 2163, rfl⟩
abbrev main_v1201 : Ref sig .tc := ⟨.hbm, 2164, rfl⟩
abbrev main_v1202 : Ref sig .tc := ⟨.hbm, 2165, rfl⟩
abbrev main_cst_390 : Ref sig .tc := ⟨.hbm, 2166, rfl⟩
abbrev main_v1203 : Ref sig .tc := ⟨.hbm, 2167, rfl⟩
abbrev main_v1204 : Ref sig .tc := ⟨.hbm, 2168, rfl⟩
abbrev main_v1205 : Ref sig .tc := ⟨.hbm, 2169, rfl⟩
abbrev main_v1206 : Ref sig .tc := ⟨.hbm, 2170, rfl⟩
abbrev main_v1207 : Ref sig .tc := ⟨.hbm, 2171, rfl⟩
abbrev main_v1208 : Ref sig .tc := ⟨.hbm, 2172, rfl⟩
abbrev main_cst_391 : Ref sig .tc := ⟨.hbm, 2173, rfl⟩
abbrev main_cst_392 : Ref sig .tc := ⟨.hbm, 2174, rfl⟩
abbrev main_call114_v0 : Ref sig .tc := ⟨.hbm, 2175, rfl⟩
abbrev main_call114_v1 : Ref sig .tc := ⟨.hbm, 2176, rfl⟩
abbrev main_call114_v2 : Ref sig .tc := ⟨.hbm, 2177, rfl⟩
abbrev main_call114_v3 : Ref sig .tc := ⟨.hbm, 2178, rfl⟩
abbrev main_call114_v4 : Ref sig .tc := ⟨.hbm, 2179, rfl⟩
abbrev main_v1209 : Ref sig .tc := ⟨.hbm, 2180, rfl⟩
abbrev main_cst_393 : Ref sig .tc := ⟨.hbm, 2181, rfl⟩
abbrev main_cst_394 : Ref sig .tc := ⟨.hbm, 2182, rfl⟩
abbrev main_call115_v0 : Ref sig .tc := ⟨.hbm, 2183, rfl⟩
abbrev main_call115_v1 : Ref sig .tc := ⟨.hbm, 2184, rfl⟩
abbrev main_call115_v2 : Ref sig .tc := ⟨.hbm, 2185, rfl⟩
abbrev main_call115_v3 : Ref sig .tc := ⟨.hbm, 2186, rfl⟩
abbrev main_call115_v4 : Ref sig .tc := ⟨.hbm, 2187, rfl⟩
abbrev main_v1210 : Ref sig .tc := ⟨.hbm, 2188, rfl⟩
abbrev main_v1211 : Ref sig .tc := ⟨.hbm, 2189, rfl⟩
abbrev main_v1212 : Ref sig .tc := ⟨.hbm, 2190, rfl⟩
abbrev main_v1213 : Ref sig .tc := ⟨.hbm, 2191, rfl⟩
abbrev main_v1214 : Ref sig .tc := ⟨.hbm, 2192, rfl⟩
abbrev main_v1215 : Ref sig .tc := ⟨.hbm, 2193, rfl⟩
abbrev main_v1216 : Ref sig .tc := ⟨.hbm, 2194, rfl⟩
abbrev main_v1217 : Ref sig .tc := ⟨.hbm, 2195, rfl⟩
abbrev main_cst_395 : Ref sig .tc := ⟨.hbm, 2196, rfl⟩
abbrev main_v1218 : Ref sig .tc := ⟨.hbm, 2197, rfl⟩
abbrev main_cst_396 : Ref sig .tc := ⟨.hbm, 2198, rfl⟩
abbrev main_v1219 : Ref sig .tc := ⟨.hbm, 2199, rfl⟩
abbrev main_v1220 : Ref sig .tc := ⟨.hbm, 2200, rfl⟩
abbrev main_cst_397 : Ref sig .tc := ⟨.hbm, 2201, rfl⟩
abbrev main_v1221 : Ref sig .tc := ⟨.hbm, 2202, rfl⟩
abbrev main_v1222 : Ref sig .tc := ⟨.hbm, 2203, rfl⟩
abbrev main_v1223 : Ref sig .tc := ⟨.hbm, 2204, rfl⟩
abbrev main_v1224 : Ref sig .tc := ⟨.hbm, 2205, rfl⟩
abbrev main_cst_398 : Ref sig .tc := ⟨.hbm, 2206, rfl⟩
abbrev main_v1225 : Ref sig .tc := ⟨.hbm, 2207, rfl⟩
abbrev main_v1226 : Ref sig .tc := ⟨.hbm, 2208, rfl⟩
abbrev main_v1227 : Ref sig .tc := ⟨.hbm, 2209, rfl⟩
abbrev main_v1228 : Ref sig .tc := ⟨.hbm, 2210, rfl⟩
abbrev main_v1229 : Ref sig .tc := ⟨.hbm, 2211, rfl⟩
abbrev main_v1230 : Ref sig .tc := ⟨.hbm, 2212, rfl⟩
abbrev main_v1231 : Ref sig .tc := ⟨.hbm, 2213, rfl⟩
abbrev main_v1232 : Ref sig .tc := ⟨.hbm, 2214, rfl⟩
abbrev main_v1233 : Ref sig .tc := ⟨.hbm, 2215, rfl⟩
abbrev main_v1234 : Ref sig .tc := ⟨.hbm, 2216, rfl⟩
abbrev main_v1235 : Ref sig .tc := ⟨.hbm, 2217, rfl⟩
abbrev main_v1236 : Ref sig .tc := ⟨.hbm, 2218, rfl⟩
abbrev main_v1237 : Ref sig .tc := ⟨.hbm, 2219, rfl⟩
abbrev main_cst_399 : Ref sig .tc := ⟨.hbm, 2220, rfl⟩
abbrev main_v1238 : Ref sig .tc := ⟨.hbm, 2221, rfl⟩
abbrev main_v1239 : Ref sig .tc := ⟨.hbm, 2222, rfl⟩
abbrev main_cst_400 : Ref sig .tc := ⟨.hbm, 2223, rfl⟩
abbrev main_v1240 : Ref sig .tc := ⟨.hbm, 2224, rfl⟩
abbrev main_v1241 : Ref sig .tc := ⟨.hbm, 2225, rfl⟩
abbrev main_v1242 : Ref sig .tc := ⟨.hbm, 2226, rfl⟩
abbrev main_v1243 : Ref sig .tc := ⟨.hbm, 2227, rfl⟩
abbrev main_v1244 : Ref sig .tc := ⟨.hbm, 2228, rfl⟩
abbrev main_v1245 : Ref sig .tc := ⟨.hbm, 2229, rfl⟩
abbrev main_cst_401 : Ref sig .tc := ⟨.hbm, 2230, rfl⟩
abbrev main_cst_402 : Ref sig .tc := ⟨.hbm, 2231, rfl⟩
abbrev main_call116_v0 : Ref sig .tc := ⟨.hbm, 2232, rfl⟩
abbrev main_call116_v1 : Ref sig .tc := ⟨.hbm, 2233, rfl⟩
abbrev main_call116_v2 : Ref sig .tc := ⟨.hbm, 2234, rfl⟩
abbrev main_call116_v3 : Ref sig .tc := ⟨.hbm, 2235, rfl⟩
abbrev main_call116_v4 : Ref sig .tc := ⟨.hbm, 2236, rfl⟩
abbrev main_v1246 : Ref sig .tc := ⟨.hbm, 2237, rfl⟩
abbrev main_cst_403 : Ref sig .tc := ⟨.hbm, 2238, rfl⟩
abbrev main_cst_404 : Ref sig .tc := ⟨.hbm, 2239, rfl⟩
abbrev main_call117_v0 : Ref sig .tc := ⟨.hbm, 2240, rfl⟩
abbrev main_call117_v1 : Ref sig .tc := ⟨.hbm, 2241, rfl⟩
abbrev main_call117_v2 : Ref sig .tc := ⟨.hbm, 2242, rfl⟩
abbrev main_call117_v3 : Ref sig .tc := ⟨.hbm, 2243, rfl⟩
abbrev main_call117_v4 : Ref sig .tc := ⟨.hbm, 2244, rfl⟩
abbrev main_v1247 : Ref sig .tc := ⟨.hbm, 2245, rfl⟩
abbrev main_v1248 : Ref sig .tc := ⟨.hbm, 2246, rfl⟩
abbrev main_v1249 : Ref sig .tc := ⟨.hbm, 2247, rfl⟩
abbrev main_v1250 : Ref sig .tc := ⟨.hbm, 2248, rfl⟩
abbrev main_v1251 : Ref sig .tc := ⟨.hbm, 2249, rfl⟩
abbrev main_v1252 : Ref sig .tc := ⟨.hbm, 2250, rfl⟩
abbrev main_v1253 : Ref sig .tc := ⟨.hbm, 2251, rfl⟩
abbrev main_v1254 : Ref sig .tc := ⟨.hbm, 2252, rfl⟩
abbrev main_v1255 : Ref sig .tc := ⟨.hbm, 2253, rfl⟩
abbrev main_v1256 : Ref sig .tc := ⟨.hbm, 2254, rfl⟩
abbrev main_cst_405 : Ref sig .tc := ⟨.hbm, 2255, rfl⟩
abbrev main_cst_406 : Ref sig .tc := ⟨.hbm, 2256, rfl⟩
abbrev main_call118_v0 : Ref sig .tc := ⟨.hbm, 2257, rfl⟩
abbrev main_call118_v1 : Ref sig .tc := ⟨.hbm, 2258, rfl⟩
abbrev main_call118_v2 : Ref sig .tc := ⟨.hbm, 2259, rfl⟩
abbrev main_call118_v3 : Ref sig .tc := ⟨.hbm, 2260, rfl⟩
abbrev main_call118_v4 : Ref sig .tc := ⟨.hbm, 2261, rfl⟩
abbrev main_v1257 : Ref sig .tc := ⟨.hbm, 2262, rfl⟩
abbrev main_cst_407 : Ref sig .tc := ⟨.hbm, 2263, rfl⟩
abbrev main_cst_408 : Ref sig .tc := ⟨.hbm, 2264, rfl⟩
abbrev main_call119_v0 : Ref sig .tc := ⟨.hbm, 2265, rfl⟩
abbrev main_call119_v1 : Ref sig .tc := ⟨.hbm, 2266, rfl⟩
abbrev main_call119_v2 : Ref sig .tc := ⟨.hbm, 2267, rfl⟩
abbrev main_call119_v3 : Ref sig .tc := ⟨.hbm, 2268, rfl⟩
abbrev main_call119_v4 : Ref sig .tc := ⟨.hbm, 2269, rfl⟩
abbrev main_v1258 : Ref sig .tc := ⟨.hbm, 2270, rfl⟩
abbrev main_v1259 : Ref sig .tc := ⟨.hbm, 2271, rfl⟩
abbrev main_v1260 : Ref sig .tc := ⟨.hbm, 2272, rfl⟩
abbrev main_v1261 : Ref sig .tc := ⟨.hbm, 2273, rfl⟩
abbrev main_v1262 : Ref sig .tc := ⟨.hbm, 2274, rfl⟩
abbrev main_v1263 : Ref sig .tc := ⟨.hbm, 2275, rfl⟩
abbrev main_v1264 : Ref sig .tc := ⟨.hbm, 2276, rfl⟩
abbrev main_v1265 : Ref sig .tc := ⟨.hbm, 2277, rfl⟩
abbrev main_v1266 : Ref sig .tc := ⟨.hbm, 2278, rfl⟩
abbrev main_v1267 : Ref sig .tc := ⟨.hbm, 2279, rfl⟩
abbrev main_cst_409 : Ref sig .tc := ⟨.hbm, 2280, rfl⟩
abbrev main_cst_410 : Ref sig .tc := ⟨.hbm, 2281, rfl⟩
abbrev main_call120_v0 : Ref sig .tc := ⟨.hbm, 2282, rfl⟩
abbrev main_call120_v1 : Ref sig .tc := ⟨.hbm, 2283, rfl⟩
abbrev main_call120_v2 : Ref sig .tc := ⟨.hbm, 2284, rfl⟩
abbrev main_call120_v3 : Ref sig .tc := ⟨.hbm, 2285, rfl⟩
abbrev main_call120_v4 : Ref sig .tc := ⟨.hbm, 2286, rfl⟩
abbrev main_v1268 : Ref sig .tc := ⟨.hbm, 2287, rfl⟩
abbrev main_cst_411 : Ref sig .tc := ⟨.hbm, 2288, rfl⟩
abbrev main_cst_412 : Ref sig .tc := ⟨.hbm, 2289, rfl⟩
abbrev main_call121_v0 : Ref sig .tc := ⟨.hbm, 2290, rfl⟩
abbrev main_call121_v1 : Ref sig .tc := ⟨.hbm, 2291, rfl⟩
abbrev main_call121_v2 : Ref sig .tc := ⟨.hbm, 2292, rfl⟩
abbrev main_call121_v3 : Ref sig .tc := ⟨.hbm, 2293, rfl⟩
abbrev main_call121_v4 : Ref sig .tc := ⟨.hbm, 2294, rfl⟩
abbrev main_v1269 : Ref sig .tc := ⟨.hbm, 2295, rfl⟩
abbrev main_v1270 : Ref sig .tc := ⟨.hbm, 2296, rfl⟩
abbrev main_v1271 : Ref sig .tc := ⟨.hbm, 2297, rfl⟩
abbrev main_v1272 : Ref sig .tc := ⟨.hbm, 2298, rfl⟩
abbrev main_v1273 : Ref sig .tc := ⟨.hbm, 2299, rfl⟩
abbrev main_v1274 : Ref sig .tc := ⟨.hbm, 2300, rfl⟩
abbrev main_v1275 : Ref sig .tc := ⟨.hbm, 2301, rfl⟩
abbrev main_v1276 : Ref sig .tc := ⟨.hbm, 2302, rfl⟩
abbrev main_cst_413 : Ref sig .tc := ⟨.hbm, 2303, rfl⟩
abbrev main_v1277 : Ref sig .tc := ⟨.hbm, 2304, rfl⟩
abbrev main_cst_414 : Ref sig .tc := ⟨.hbm, 2305, rfl⟩
abbrev main_v1278 : Ref sig .tc := ⟨.hbm, 2306, rfl⟩
abbrev main_v1279 : Ref sig .tc := ⟨.hbm, 2307, rfl⟩
abbrev main_cst_415 : Ref sig .tc := ⟨.hbm, 2308, rfl⟩
abbrev main_v1280 : Ref sig .tc := ⟨.hbm, 2309, rfl⟩
abbrev main_v1281 : Ref sig .tc := ⟨.hbm, 2310, rfl⟩
abbrev main_v1282 : Ref sig .tc := ⟨.hbm, 2311, rfl⟩
abbrev main_v1283 : Ref sig .tc := ⟨.hbm, 2312, rfl⟩
abbrev main_cst_416 : Ref sig .tc := ⟨.hbm, 2313, rfl⟩
abbrev main_v1284 : Ref sig .tc := ⟨.hbm, 2314, rfl⟩
abbrev main_v1285 : Ref sig .tc := ⟨.hbm, 2315, rfl⟩
abbrev main_v1286 : Ref sig .tc := ⟨.hbm, 2316, rfl⟩
abbrev main_v1287 : Ref sig .tc := ⟨.hbm, 2317, rfl⟩
abbrev main_v1288 : Ref sig .tc := ⟨.hbm, 2318, rfl⟩
abbrev main_cst_417 : Ref sig .tc := ⟨.hbm, 2319, rfl⟩
abbrev main_v1289 : Ref sig .tc := ⟨.hbm, 2320, rfl⟩
abbrev main_v1290 : Ref sig .tc := ⟨.hbm, 2321, rfl⟩
abbrev main_cst_418 : Ref sig .tc := ⟨.hbm, 2322, rfl⟩
abbrev main_v1291 : Ref sig .tc := ⟨.hbm, 2323, rfl⟩
abbrev main_v1292 : Ref sig .tc := ⟨.hbm, 2324, rfl⟩
abbrev main_v1293 : Ref sig .tc := ⟨.hbm, 2325, rfl⟩
abbrev main_v1294 : Ref sig .tc := ⟨.hbm, 2326, rfl⟩
abbrev main_v1295 : Ref sig .tc := ⟨.hbm, 2327, rfl⟩
abbrev main_v1296 : Ref sig .tc := ⟨.hbm, 2328, rfl⟩
abbrev main_cst_419 : Ref sig .tc := ⟨.hbm, 2329, rfl⟩
abbrev main_cst_420 : Ref sig .tc := ⟨.hbm, 2330, rfl⟩
abbrev main_call122_v0 : Ref sig .tc := ⟨.hbm, 2331, rfl⟩
abbrev main_call122_v1 : Ref sig .tc := ⟨.hbm, 2332, rfl⟩
abbrev main_call122_v2 : Ref sig .tc := ⟨.hbm, 2333, rfl⟩
abbrev main_call122_v3 : Ref sig .tc := ⟨.hbm, 2334, rfl⟩
abbrev main_call122_v4 : Ref sig .tc := ⟨.hbm, 2335, rfl⟩
abbrev main_v1297 : Ref sig .tc := ⟨.hbm, 2336, rfl⟩
abbrev main_cst_421 : Ref sig .tc := ⟨.hbm, 2337, rfl⟩
abbrev main_cst_422 : Ref sig .tc := ⟨.hbm, 2338, rfl⟩
abbrev main_call123_v0 : Ref sig .tc := ⟨.hbm, 2339, rfl⟩
abbrev main_call123_v1 : Ref sig .tc := ⟨.hbm, 2340, rfl⟩
abbrev main_call123_v2 : Ref sig .tc := ⟨.hbm, 2341, rfl⟩
abbrev main_call123_v3 : Ref sig .tc := ⟨.hbm, 2342, rfl⟩
abbrev main_call123_v4 : Ref sig .tc := ⟨.hbm, 2343, rfl⟩
abbrev main_v1298 : Ref sig .tc := ⟨.hbm, 2344, rfl⟩
abbrev main_v1299 : Ref sig .tc := ⟨.hbm, 2345, rfl⟩
abbrev main_v1300 : Ref sig .tc := ⟨.hbm, 2346, rfl⟩
abbrev main_v1301 : Ref sig .tc := ⟨.hbm, 2347, rfl⟩
abbrev main_v1302 : Ref sig .tc := ⟨.hbm, 2348, rfl⟩
abbrev main_v1303 : Ref sig .tc := ⟨.hbm, 2349, rfl⟩
abbrev main_v1304 : Ref sig .tc := ⟨.hbm, 2350, rfl⟩
abbrev main_v1305 : Ref sig .tc := ⟨.hbm, 2351, rfl⟩
abbrev main_cst_423 : Ref sig .tc := ⟨.hbm, 2352, rfl⟩
abbrev main_v1306 : Ref sig .tc := ⟨.hbm, 2353, rfl⟩
abbrev main_cst_424 : Ref sig .tc := ⟨.hbm, 2354, rfl⟩
abbrev main_v1307 : Ref sig .tc := ⟨.hbm, 2355, rfl⟩
abbrev main_v1308 : Ref sig .tc := ⟨.hbm, 2356, rfl⟩
abbrev main_cst_425 : Ref sig .tc := ⟨.hbm, 2357, rfl⟩
abbrev main_v1309 : Ref sig .tc := ⟨.hbm, 2358, rfl⟩
abbrev main_v1310 : Ref sig .tc := ⟨.hbm, 2359, rfl⟩
abbrev main_v1311 : Ref sig .tc := ⟨.hbm, 2360, rfl⟩
abbrev main_v1312 : Ref sig .tc := ⟨.hbm, 2361, rfl⟩
abbrev main_cst_426 : Ref sig .tc := ⟨.hbm, 2362, rfl⟩
abbrev main_v1313 : Ref sig .tc := ⟨.hbm, 2363, rfl⟩
abbrev main_v1314 : Ref sig .tc := ⟨.hbm, 2364, rfl⟩
abbrev main_v1315 : Ref sig .tc := ⟨.hbm, 2365, rfl⟩
abbrev main_v1316 : Ref sig .tc := ⟨.hbm, 2366, rfl⟩
abbrev main_v1317 : Ref sig .tc := ⟨.hbm, 2367, rfl⟩
abbrev main_v1318 : Ref sig .tc := ⟨.hbm, 2368, rfl⟩
abbrev main_v1319 : Ref sig .tc := ⟨.hbm, 2369, rfl⟩
abbrev main_v1320 : Ref sig .tc := ⟨.hbm, 2370, rfl⟩
abbrev main_v1321 : Ref sig .tc := ⟨.hbm, 2371, rfl⟩
abbrev main_cst_427 : Ref sig .tc := ⟨.hbm, 2372, rfl⟩
abbrev main_v1322 : Ref sig .tc := ⟨.hbm, 2373, rfl⟩
abbrev main_v1323 : Ref sig .tc := ⟨.hbm, 2374, rfl⟩
abbrev main_cst_428 : Ref sig .tc := ⟨.hbm, 2375, rfl⟩
abbrev main_v1324 : Ref sig .tc := ⟨.hbm, 2376, rfl⟩
abbrev main_v1325 : Ref sig .tc := ⟨.hbm, 2377, rfl⟩
abbrev main_v1326 : Ref sig .tc := ⟨.hbm, 2378, rfl⟩
abbrev main_v1327 : Ref sig .tc := ⟨.hbm, 2379, rfl⟩
abbrev main_v1328 : Ref sig .tc := ⟨.hbm, 2380, rfl⟩
abbrev main_v1329 : Ref sig .tc := ⟨.hbm, 2381, rfl⟩
abbrev main_cst_429 : Ref sig .tc := ⟨.hbm, 2382, rfl⟩
abbrev main_cst_430 : Ref sig .tc := ⟨.hbm, 2383, rfl⟩
abbrev main_call124_v0 : Ref sig .tc := ⟨.hbm, 2384, rfl⟩
abbrev main_call124_v1 : Ref sig .tc := ⟨.hbm, 2385, rfl⟩
abbrev main_call124_v2 : Ref sig .tc := ⟨.hbm, 2386, rfl⟩
abbrev main_call124_v3 : Ref sig .tc := ⟨.hbm, 2387, rfl⟩
abbrev main_call124_v4 : Ref sig .tc := ⟨.hbm, 2388, rfl⟩
abbrev main_v1330 : Ref sig .tc := ⟨.hbm, 2389, rfl⟩
abbrev main_cst_431 : Ref sig .tc := ⟨.hbm, 2390, rfl⟩
abbrev main_cst_432 : Ref sig .tc := ⟨.hbm, 2391, rfl⟩
abbrev main_call125_v0 : Ref sig .tc := ⟨.hbm, 2392, rfl⟩
abbrev main_call125_v1 : Ref sig .tc := ⟨.hbm, 2393, rfl⟩
abbrev main_call125_v2 : Ref sig .tc := ⟨.hbm, 2394, rfl⟩
abbrev main_call125_v3 : Ref sig .tc := ⟨.hbm, 2395, rfl⟩
abbrev main_call125_v4 : Ref sig .tc := ⟨.hbm, 2396, rfl⟩
abbrev main_v1331 : Ref sig .tc := ⟨.hbm, 2397, rfl⟩
abbrev main_v1332 : Ref sig .tc := ⟨.hbm, 2398, rfl⟩
abbrev main_v1333 : Ref sig .tc := ⟨.hbm, 2399, rfl⟩
abbrev main_v1334 : Ref sig .tc := ⟨.hbm, 2400, rfl⟩
abbrev main_v1335 : Ref sig .tc := ⟨.hbm, 2401, rfl⟩
abbrev main_v1336 : Ref sig .tc := ⟨.hbm, 2402, rfl⟩
abbrev main_v1337 : Ref sig .tc := ⟨.hbm, 2403, rfl⟩
abbrev main_v1338 : Ref sig .tc := ⟨.hbm, 2404, rfl⟩
abbrev main_v1339 : Ref sig .tc := ⟨.hbm, 2405, rfl⟩
abbrev main_v1340 : Ref sig .tc := ⟨.hbm, 2406, rfl⟩
abbrev main_cst_433 : Ref sig .tc := ⟨.hbm, 2407, rfl⟩
abbrev main_cst_434 : Ref sig .tc := ⟨.hbm, 2408, rfl⟩
abbrev main_call126_v0 : Ref sig .tc := ⟨.hbm, 2409, rfl⟩
abbrev main_call126_v1 : Ref sig .tc := ⟨.hbm, 2410, rfl⟩
abbrev main_call126_v2 : Ref sig .tc := ⟨.hbm, 2411, rfl⟩
abbrev main_call126_v3 : Ref sig .tc := ⟨.hbm, 2412, rfl⟩
abbrev main_call126_v4 : Ref sig .tc := ⟨.hbm, 2413, rfl⟩
abbrev main_v1341 : Ref sig .tc := ⟨.hbm, 2414, rfl⟩
abbrev main_cst_435 : Ref sig .tc := ⟨.hbm, 2415, rfl⟩
abbrev main_cst_436 : Ref sig .tc := ⟨.hbm, 2416, rfl⟩
abbrev main_call127_v0 : Ref sig .tc := ⟨.hbm, 2417, rfl⟩
abbrev main_call127_v1 : Ref sig .tc := ⟨.hbm, 2418, rfl⟩
abbrev main_call127_v2 : Ref sig .tc := ⟨.hbm, 2419, rfl⟩
abbrev main_call127_v3 : Ref sig .tc := ⟨.hbm, 2420, rfl⟩
abbrev main_call127_v4 : Ref sig .tc := ⟨.hbm, 2421, rfl⟩
abbrev main_v1342 : Ref sig .tc := ⟨.hbm, 2422, rfl⟩
abbrev main_v1343 : Ref sig .tc := ⟨.hbm, 2423, rfl⟩
abbrev main_v1344 : Ref sig .tc := ⟨.hbm, 2424, rfl⟩
abbrev main_v1345 : Ref sig .tc := ⟨.hbm, 2425, rfl⟩
abbrev main_v1346 : Ref sig .tc := ⟨.hbm, 2426, rfl⟩
abbrev main_v1347 : Ref sig .tc := ⟨.hbm, 2427, rfl⟩
abbrev main_v1348 : Ref sig .tc := ⟨.hbm, 2428, rfl⟩
abbrev main_v1349 : Ref sig .tc := ⟨.hbm, 2429, rfl⟩
abbrev main_cst_437 : Ref sig .tc := ⟨.hbm, 2430, rfl⟩
abbrev main_v1350 : Ref sig .tc := ⟨.hbm, 2431, rfl⟩
abbrev main_cst_438 : Ref sig .tc := ⟨.hbm, 2432, rfl⟩
abbrev main_v1351 : Ref sig .tc := ⟨.hbm, 2433, rfl⟩
abbrev main_v1352 : Ref sig .tc := ⟨.hbm, 2434, rfl⟩
abbrev main_cst_439 : Ref sig .tc := ⟨.hbm, 2435, rfl⟩
abbrev main_v1353 : Ref sig .tc := ⟨.hbm, 2436, rfl⟩
abbrev main_v1354 : Ref sig .tc := ⟨.hbm, 2437, rfl⟩
abbrev main_v1355 : Ref sig .tc := ⟨.hbm, 2438, rfl⟩
abbrev main_v1356 : Ref sig .tc := ⟨.hbm, 2439, rfl⟩
abbrev main_cst_440 : Ref sig .tc := ⟨.hbm, 2440, rfl⟩
abbrev main_v1357 : Ref sig .tc := ⟨.hbm, 2441, rfl⟩
abbrev main_v1358 : Ref sig .tc := ⟨.hbm, 2442, rfl⟩
abbrev main_v1359 : Ref sig .tc := ⟨.hbm, 2443, rfl⟩
abbrev main_v1360 : Ref sig .tc := ⟨.hbm, 2444, rfl⟩
abbrev main_v1361 : Ref sig .tc := ⟨.hbm, 2445, rfl⟩
abbrev main_cst_441 : Ref sig .tc := ⟨.hbm, 2446, rfl⟩
abbrev main_v1362 : Ref sig .tc := ⟨.hbm, 2447, rfl⟩
abbrev main_v1363 : Ref sig .tc := ⟨.hbm, 2448, rfl⟩
abbrev main_cst_442 : Ref sig .tc := ⟨.hbm, 2449, rfl⟩
abbrev main_v1364 : Ref sig .tc := ⟨.hbm, 2450, rfl⟩
abbrev main_v1365 : Ref sig .tc := ⟨.hbm, 2451, rfl⟩
abbrev main_v1366 : Ref sig .tc := ⟨.hbm, 2452, rfl⟩
abbrev main_v1367 : Ref sig .tc := ⟨.hbm, 2453, rfl⟩
abbrev main_v1368 : Ref sig .tc := ⟨.hbm, 2454, rfl⟩
abbrev main_v1369 : Ref sig .tc := ⟨.hbm, 2455, rfl⟩
abbrev main_cst_443 : Ref sig .tc := ⟨.hbm, 2456, rfl⟩
abbrev main_cst_444 : Ref sig .tc := ⟨.hbm, 2457, rfl⟩
abbrev main_call128_v0 : Ref sig .tc := ⟨.hbm, 2458, rfl⟩
abbrev main_call128_v1 : Ref sig .tc := ⟨.hbm, 2459, rfl⟩
abbrev main_call128_v2 : Ref sig .tc := ⟨.hbm, 2460, rfl⟩
abbrev main_call128_v3 : Ref sig .tc := ⟨.hbm, 2461, rfl⟩
abbrev main_call128_v4 : Ref sig .tc := ⟨.hbm, 2462, rfl⟩
abbrev main_v1370 : Ref sig .tc := ⟨.hbm, 2463, rfl⟩
abbrev main_cst_445 : Ref sig .tc := ⟨.hbm, 2464, rfl⟩
abbrev main_cst_446 : Ref sig .tc := ⟨.hbm, 2465, rfl⟩
abbrev main_call129_v0 : Ref sig .tc := ⟨.hbm, 2466, rfl⟩
abbrev main_call129_v1 : Ref sig .tc := ⟨.hbm, 2467, rfl⟩
abbrev main_call129_v2 : Ref sig .tc := ⟨.hbm, 2468, rfl⟩
abbrev main_call129_v3 : Ref sig .tc := ⟨.hbm, 2469, rfl⟩
abbrev main_call129_v4 : Ref sig .tc := ⟨.hbm, 2470, rfl⟩
abbrev main_v1371 : Ref sig .tc := ⟨.hbm, 2471, rfl⟩
abbrev main_v1372 : Ref sig .tc := ⟨.hbm, 2472, rfl⟩
abbrev main_v1373 : Ref sig .tc := ⟨.hbm, 2473, rfl⟩
abbrev main_v1374 : Ref sig .tc := ⟨.hbm, 2474, rfl⟩
abbrev main_v1375 : Ref sig .tc := ⟨.hbm, 2475, rfl⟩
abbrev main_v1376 : Ref sig .tc := ⟨.hbm, 2476, rfl⟩
abbrev main_v1377 : Ref sig .tc := ⟨.hbm, 2477, rfl⟩
abbrev main_v1378 : Ref sig .tc := ⟨.hbm, 2478, rfl⟩
abbrev main_cst_447 : Ref sig .tc := ⟨.hbm, 2479, rfl⟩
abbrev main_v1379 : Ref sig .tc := ⟨.hbm, 2480, rfl⟩
abbrev main_cst_448 : Ref sig .tc := ⟨.hbm, 2481, rfl⟩
abbrev main_v1380 : Ref sig .tc := ⟨.hbm, 2482, rfl⟩
abbrev main_v1381 : Ref sig .tc := ⟨.hbm, 2483, rfl⟩
abbrev main_cst_449 : Ref sig .tc := ⟨.hbm, 2484, rfl⟩
abbrev main_v1382 : Ref sig .tc := ⟨.hbm, 2485, rfl⟩
abbrev main_v1383 : Ref sig .tc := ⟨.hbm, 2486, rfl⟩
abbrev main_v1384 : Ref sig .tc := ⟨.hbm, 2487, rfl⟩
abbrev main_v1385 : Ref sig .tc := ⟨.hbm, 2488, rfl⟩
abbrev main_cst_450 : Ref sig .tc := ⟨.hbm, 2489, rfl⟩
abbrev main_v1386 : Ref sig .tc := ⟨.hbm, 2490, rfl⟩
abbrev main_v1387 : Ref sig .tc := ⟨.hbm, 2491, rfl⟩
abbrev main_v1388 : Ref sig .tc := ⟨.hbm, 2492, rfl⟩
abbrev main_v1389 : Ref sig .tc := ⟨.hbm, 2493, rfl⟩
abbrev main_v1390 : Ref sig .tc := ⟨.hbm, 2494, rfl⟩
abbrev main_v1391 : Ref sig .tc := ⟨.hbm, 2495, rfl⟩
abbrev main_v1392 : Ref sig .tc := ⟨.hbm, 2496, rfl⟩
abbrev main_v1393 : Ref sig .tc := ⟨.hbm, 2497, rfl⟩
abbrev main_v1394 : Ref sig .tc := ⟨.hbm, 2498, rfl⟩
abbrev main_v1395 : Ref sig .tc := ⟨.hbm, 2499, rfl⟩
abbrev main_v1396 : Ref sig .tc := ⟨.hbm, 2500, rfl⟩
abbrev main_v1397 : Ref sig .tc := ⟨.hbm, 2501, rfl⟩
abbrev main_v1398 : Ref sig .tc := ⟨.hbm, 2502, rfl⟩
abbrev main_v1399 : Ref sig .tc := ⟨.hbm, 2503, rfl⟩
abbrev main_v1400 : Ref sig .tc := ⟨.hbm, 2504, rfl⟩
abbrev main_v1401 : Ref sig .tc := ⟨.hbm, 2505, rfl⟩
abbrev main_v1402 : Ref sig .tc := ⟨.hbm, 2506, rfl⟩
abbrev main_v1403 : Ref sig .tc := ⟨.hbm, 2507, rfl⟩
abbrev main_v1404 : Ref sig .tc := ⟨.hbm, 2508, rfl⟩
abbrev main_v1405 : Ref sig .tc := ⟨.hbm, 2509, rfl⟩
abbrev main_v1406 : Ref sig .tc := ⟨.hbm, 2510, rfl⟩
abbrev main_v1407 : Ref sig .tc := ⟨.hbm, 2511, rfl⟩
abbrev main_v1408 : Ref sig .tc := ⟨.hbm, 2512, rfl⟩
abbrev main_v1409 : Ref sig .tc := ⟨.hbm, 2513, rfl⟩
abbrev main_v1410 : Ref sig .tc := ⟨.hbm, 2514, rfl⟩
abbrev main_cst_451 : Ref sig .tc := ⟨.hbm, 2515, rfl⟩
abbrev main_v1411 : Ref sig .tc := ⟨.hbm, 2516, rfl⟩
abbrev main_v1412 : Ref sig .tc := ⟨.hbm, 2517, rfl⟩
abbrev main_cst_452 : Ref sig .tc := ⟨.hbm, 2518, rfl⟩
abbrev main_v1413 : Ref sig .tc := ⟨.hbm, 2519, rfl⟩
abbrev main_v1414 : Ref sig .tc := ⟨.hbm, 2520, rfl⟩
abbrev main_v1415 : Ref sig .tc := ⟨.hbm, 2521, rfl⟩
abbrev main_v1416 : Ref sig .tc := ⟨.hbm, 2522, rfl⟩
abbrev main_v1417 : Ref sig .tc := ⟨.hbm, 2523, rfl⟩
abbrev main_v1418 : Ref sig .tc := ⟨.hbm, 2524, rfl⟩
abbrev main_cst_453 : Ref sig .tc := ⟨.hbm, 2525, rfl⟩
abbrev main_cst_454 : Ref sig .tc := ⟨.hbm, 2526, rfl⟩
abbrev main_call130_v0 : Ref sig .tc := ⟨.hbm, 2527, rfl⟩
abbrev main_call130_v1 : Ref sig .tc := ⟨.hbm, 2528, rfl⟩
abbrev main_call130_v2 : Ref sig .tc := ⟨.hbm, 2529, rfl⟩
abbrev main_call130_v3 : Ref sig .tc := ⟨.hbm, 2530, rfl⟩
abbrev main_call130_v4 : Ref sig .tc := ⟨.hbm, 2531, rfl⟩
abbrev main_v1419 : Ref sig .tc := ⟨.hbm, 2532, rfl⟩
abbrev main_cst_455 : Ref sig .tc := ⟨.hbm, 2533, rfl⟩
abbrev main_cst_456 : Ref sig .tc := ⟨.hbm, 2534, rfl⟩
abbrev main_call131_v0 : Ref sig .tc := ⟨.hbm, 2535, rfl⟩
abbrev main_call131_v1 : Ref sig .tc := ⟨.hbm, 2536, rfl⟩
abbrev main_call131_v2 : Ref sig .tc := ⟨.hbm, 2537, rfl⟩
abbrev main_call131_v3 : Ref sig .tc := ⟨.hbm, 2538, rfl⟩
abbrev main_call131_v4 : Ref sig .tc := ⟨.hbm, 2539, rfl⟩
abbrev main_v1420 : Ref sig .tc := ⟨.hbm, 2540, rfl⟩
abbrev main_v1421 : Ref sig .tc := ⟨.hbm, 2541, rfl⟩
abbrev main_v1422 : Ref sig .tc := ⟨.hbm, 2542, rfl⟩
abbrev main_v1423 : Ref sig .tc := ⟨.hbm, 2543, rfl⟩
abbrev main_v1424 : Ref sig .tc := ⟨.hbm, 2544, rfl⟩
abbrev main_v1425 : Ref sig .tc := ⟨.hbm, 2545, rfl⟩
abbrev main_v1426 : Ref sig .tc := ⟨.hbm, 2546, rfl⟩
abbrev main_v1427 : Ref sig .tc := ⟨.hbm, 2547, rfl⟩
abbrev main_v1428 : Ref sig .tc := ⟨.hbm, 2548, rfl⟩
abbrev main_v1429 : Ref sig .tc := ⟨.hbm, 2549, rfl⟩
abbrev main_cst_457 : Ref sig .tc := ⟨.hbm, 2550, rfl⟩
abbrev main_cst_458 : Ref sig .tc := ⟨.hbm, 2551, rfl⟩
abbrev main_call132_v0 : Ref sig .tc := ⟨.hbm, 2552, rfl⟩
abbrev main_call132_v1 : Ref sig .tc := ⟨.hbm, 2553, rfl⟩
abbrev main_call132_v2 : Ref sig .tc := ⟨.hbm, 2554, rfl⟩
abbrev main_call132_v3 : Ref sig .tc := ⟨.hbm, 2555, rfl⟩
abbrev main_call132_v4 : Ref sig .tc := ⟨.hbm, 2556, rfl⟩
abbrev main_v1430 : Ref sig .tc := ⟨.hbm, 2557, rfl⟩
abbrev main_cst_459 : Ref sig .tc := ⟨.hbm, 2558, rfl⟩
abbrev main_cst_460 : Ref sig .tc := ⟨.hbm, 2559, rfl⟩
abbrev main_call133_v0 : Ref sig .tc := ⟨.hbm, 2560, rfl⟩
abbrev main_call133_v1 : Ref sig .tc := ⟨.hbm, 2561, rfl⟩
abbrev main_call133_v2 : Ref sig .tc := ⟨.hbm, 2562, rfl⟩
abbrev main_call133_v3 : Ref sig .tc := ⟨.hbm, 2563, rfl⟩
abbrev main_call133_v4 : Ref sig .tc := ⟨.hbm, 2564, rfl⟩
abbrev main_v1431 : Ref sig .tc := ⟨.hbm, 2565, rfl⟩
abbrev main_v1432 : Ref sig .tc := ⟨.hbm, 2566, rfl⟩
abbrev main_v1433 : Ref sig .tc := ⟨.hbm, 2567, rfl⟩
abbrev main_v1434 : Ref sig .tc := ⟨.hbm, 2568, rfl⟩
abbrev main_v1435 : Ref sig .tc := ⟨.hbm, 2569, rfl⟩
abbrev main_v1436 : Ref sig .tc := ⟨.hbm, 2570, rfl⟩
abbrev main_v1437 : Ref sig .tc := ⟨.hbm, 2571, rfl⟩
abbrev main_v1438 : Ref sig .tc := ⟨.hbm, 2572, rfl⟩
abbrev main_v1439 : Ref sig .tc := ⟨.hbm, 2573, rfl⟩
abbrev main_v1440 : Ref sig .tc := ⟨.hbm, 2574, rfl⟩
abbrev main_cst_461 : Ref sig .tc := ⟨.hbm, 2575, rfl⟩
abbrev main_cst_462 : Ref sig .tc := ⟨.hbm, 2576, rfl⟩
abbrev main_call134_v0 : Ref sig .tc := ⟨.hbm, 2577, rfl⟩
abbrev main_call134_v1 : Ref sig .tc := ⟨.hbm, 2578, rfl⟩
abbrev main_call134_v2 : Ref sig .tc := ⟨.hbm, 2579, rfl⟩
abbrev main_call134_v3 : Ref sig .tc := ⟨.hbm, 2580, rfl⟩
abbrev main_call134_v4 : Ref sig .tc := ⟨.hbm, 2581, rfl⟩
abbrev main_v1441 : Ref sig .tc := ⟨.hbm, 2582, rfl⟩
abbrev main_cst_463 : Ref sig .tc := ⟨.hbm, 2583, rfl⟩
abbrev main_cst_464 : Ref sig .tc := ⟨.hbm, 2584, rfl⟩
abbrev main_call135_v0 : Ref sig .tc := ⟨.hbm, 2585, rfl⟩
abbrev main_call135_v1 : Ref sig .tc := ⟨.hbm, 2586, rfl⟩
abbrev main_call135_v2 : Ref sig .tc := ⟨.hbm, 2587, rfl⟩
abbrev main_call135_v3 : Ref sig .tc := ⟨.hbm, 2588, rfl⟩
abbrev main_call135_v4 : Ref sig .tc := ⟨.hbm, 2589, rfl⟩
abbrev main_v1442 : Ref sig .tc := ⟨.hbm, 2590, rfl⟩
abbrev main_v1443 : Ref sig .tc := ⟨.hbm, 2591, rfl⟩
abbrev main_v1444 : Ref sig .tc := ⟨.hbm, 2592, rfl⟩
abbrev main_v1445 : Ref sig .tc := ⟨.hbm, 2593, rfl⟩
abbrev main_v1446 : Ref sig .tc := ⟨.hbm, 2594, rfl⟩
abbrev main_v1447 : Ref sig .tc := ⟨.hbm, 2595, rfl⟩
abbrev main_v1448 : Ref sig .tc := ⟨.hbm, 2596, rfl⟩
abbrev main_v1449 : Ref sig .tc := ⟨.hbm, 2597, rfl⟩
abbrev main_v1450 : Ref sig .tc := ⟨.hbm, 2598, rfl⟩
abbrev main_v1451 : Ref sig .tc := ⟨.hbm, 2599, rfl⟩
abbrev main_cst_465 : Ref sig .tc := ⟨.hbm, 2600, rfl⟩
abbrev main_cst_466 : Ref sig .tc := ⟨.hbm, 2601, rfl⟩
abbrev main_call136_v0 : Ref sig .tc := ⟨.hbm, 2602, rfl⟩
abbrev main_call136_v1 : Ref sig .tc := ⟨.hbm, 2603, rfl⟩
abbrev main_call136_v2 : Ref sig .tc := ⟨.hbm, 2604, rfl⟩
abbrev main_call136_v3 : Ref sig .tc := ⟨.hbm, 2605, rfl⟩
abbrev main_call136_v4 : Ref sig .tc := ⟨.hbm, 2606, rfl⟩
abbrev main_v1452 : Ref sig .tc := ⟨.hbm, 2607, rfl⟩
abbrev main_cst_467 : Ref sig .tc := ⟨.hbm, 2608, rfl⟩
abbrev main_cst_468 : Ref sig .tc := ⟨.hbm, 2609, rfl⟩
abbrev main_call137_v0 : Ref sig .tc := ⟨.hbm, 2610, rfl⟩
abbrev main_call137_v1 : Ref sig .tc := ⟨.hbm, 2611, rfl⟩
abbrev main_call137_v2 : Ref sig .tc := ⟨.hbm, 2612, rfl⟩
abbrev main_call137_v3 : Ref sig .tc := ⟨.hbm, 2613, rfl⟩
abbrev main_call137_v4 : Ref sig .tc := ⟨.hbm, 2614, rfl⟩
abbrev main_v1453 : Ref sig .tc := ⟨.hbm, 2615, rfl⟩
abbrev main_v1454 : Ref sig .tc := ⟨.hbm, 2616, rfl⟩
abbrev main_v1455 : Ref sig .tc := ⟨.hbm, 2617, rfl⟩
abbrev main_v1456 : Ref sig .tc := ⟨.hbm, 2618, rfl⟩
abbrev main_v1457 : Ref sig .tc := ⟨.hbm, 2619, rfl⟩
abbrev main_v1458 : Ref sig .tc := ⟨.hbm, 2620, rfl⟩
abbrev main_v1459 : Ref sig .tc := ⟨.hbm, 2621, rfl⟩
abbrev main_v1460 : Ref sig .tc := ⟨.hbm, 2622, rfl⟩
abbrev main_v1461 : Ref sig .tc := ⟨.hbm, 2623, rfl⟩
abbrev main_v1462 : Ref sig .tc := ⟨.hbm, 2624, rfl⟩
abbrev main_cst_469 : Ref sig .tc := ⟨.hbm, 2625, rfl⟩
abbrev main_cst_470 : Ref sig .tc := ⟨.hbm, 2626, rfl⟩
abbrev main_call138_v0 : Ref sig .tc := ⟨.hbm, 2627, rfl⟩
abbrev main_call138_v1 : Ref sig .tc := ⟨.hbm, 2628, rfl⟩
abbrev main_call138_v2 : Ref sig .tc := ⟨.hbm, 2629, rfl⟩
abbrev main_call138_v3 : Ref sig .tc := ⟨.hbm, 2630, rfl⟩
abbrev main_call138_v4 : Ref sig .tc := ⟨.hbm, 2631, rfl⟩
abbrev main_v1463 : Ref sig .tc := ⟨.hbm, 2632, rfl⟩
abbrev main_cst_471 : Ref sig .tc := ⟨.hbm, 2633, rfl⟩
abbrev main_cst_472 : Ref sig .tc := ⟨.hbm, 2634, rfl⟩
abbrev main_call139_v0 : Ref sig .tc := ⟨.hbm, 2635, rfl⟩
abbrev main_call139_v1 : Ref sig .tc := ⟨.hbm, 2636, rfl⟩
abbrev main_call139_v2 : Ref sig .tc := ⟨.hbm, 2637, rfl⟩
abbrev main_call139_v3 : Ref sig .tc := ⟨.hbm, 2638, rfl⟩
abbrev main_call139_v4 : Ref sig .tc := ⟨.hbm, 2639, rfl⟩
abbrev main_v1464 : Ref sig .tc := ⟨.hbm, 2640, rfl⟩
abbrev main_v1465 : Ref sig .tc := ⟨.hbm, 2641, rfl⟩
abbrev main_v1466 : Ref sig .tc := ⟨.hbm, 2642, rfl⟩
abbrev main_v1467 : Ref sig .tc := ⟨.hbm, 2643, rfl⟩
abbrev main_v1468 : Ref sig .tc := ⟨.hbm, 2644, rfl⟩
abbrev main_v1469 : Ref sig .tc := ⟨.hbm, 2645, rfl⟩
abbrev main_v1470 : Ref sig .tc := ⟨.hbm, 2646, rfl⟩
abbrev main_v1471 : Ref sig .tc := ⟨.hbm, 2647, rfl⟩
abbrev main_v1472 : Ref sig .tc := ⟨.hbm, 2648, rfl⟩
abbrev main_v1473 : Ref sig .tc := ⟨.hbm, 2649, rfl⟩
abbrev main_cst_473 : Ref sig .tc := ⟨.hbm, 2650, rfl⟩
abbrev main_cst_474 : Ref sig .tc := ⟨.hbm, 2651, rfl⟩
abbrev main_call140_v0 : Ref sig .tc := ⟨.hbm, 2652, rfl⟩
abbrev main_call140_v1 : Ref sig .tc := ⟨.hbm, 2653, rfl⟩
abbrev main_call140_v2 : Ref sig .tc := ⟨.hbm, 2654, rfl⟩
abbrev main_call140_v3 : Ref sig .tc := ⟨.hbm, 2655, rfl⟩
abbrev main_call140_v4 : Ref sig .tc := ⟨.hbm, 2656, rfl⟩
abbrev main_v1474 : Ref sig .tc := ⟨.hbm, 2657, rfl⟩
abbrev main_cst_475 : Ref sig .tc := ⟨.hbm, 2658, rfl⟩
abbrev main_cst_476 : Ref sig .tc := ⟨.hbm, 2659, rfl⟩
abbrev main_call141_v0 : Ref sig .tc := ⟨.hbm, 2660, rfl⟩
abbrev main_call141_v1 : Ref sig .tc := ⟨.hbm, 2661, rfl⟩
abbrev main_call141_v2 : Ref sig .tc := ⟨.hbm, 2662, rfl⟩
abbrev main_call141_v3 : Ref sig .tc := ⟨.hbm, 2663, rfl⟩
abbrev main_call141_v4 : Ref sig .tc := ⟨.hbm, 2664, rfl⟩
abbrev main_v1475 : Ref sig .tc := ⟨.hbm, 2665, rfl⟩
abbrev main_v1476 : Ref sig .tc := ⟨.hbm, 2666, rfl⟩
abbrev main_v1477 : Ref sig .tc := ⟨.hbm, 2667, rfl⟩
abbrev main_v1478 : Ref sig .tc := ⟨.hbm, 2668, rfl⟩
abbrev main_v1479 : Ref sig .tc := ⟨.hbm, 2669, rfl⟩
abbrev main_v1480 : Ref sig .tc := ⟨.hbm, 2670, rfl⟩
abbrev main_v1481 : Ref sig .tc := ⟨.hbm, 2671, rfl⟩
abbrev main_v1482 : Ref sig .tc := ⟨.hbm, 2672, rfl⟩
abbrev main_cst_477 : Ref sig .tc := ⟨.hbm, 2673, rfl⟩
abbrev main_v1483 : Ref sig .tc := ⟨.hbm, 2674, rfl⟩
abbrev main_cst_478 : Ref sig .tc := ⟨.hbm, 2675, rfl⟩
abbrev main_v1484 : Ref sig .tc := ⟨.hbm, 2676, rfl⟩
abbrev main_v1485 : Ref sig .tc := ⟨.hbm, 2677, rfl⟩
abbrev main_cst_479 : Ref sig .tc := ⟨.hbm, 2678, rfl⟩
abbrev main_v1486 : Ref sig .tc := ⟨.hbm, 2679, rfl⟩
abbrev main_v1487 : Ref sig .tc := ⟨.hbm, 2680, rfl⟩
abbrev main_v1488 : Ref sig .tc := ⟨.hbm, 2681, rfl⟩
abbrev main_v1489 : Ref sig .tc := ⟨.hbm, 2682, rfl⟩
abbrev main_cst_480 : Ref sig .tc := ⟨.hbm, 2683, rfl⟩
abbrev main_v1490 : Ref sig .tc := ⟨.hbm, 2684, rfl⟩
abbrev main_v1491 : Ref sig .tc := ⟨.hbm, 2685, rfl⟩
abbrev main_v1492 : Ref sig .tc := ⟨.hbm, 2686, rfl⟩
abbrev main_v1493 : Ref sig .tc := ⟨.hbm, 2687, rfl⟩
abbrev main_v1494 : Ref sig .tc := ⟨.hbm, 2688, rfl⟩
abbrev main_cst_481 : Ref sig .tc := ⟨.hbm, 2689, rfl⟩
abbrev main_v1495 : Ref sig .tc := ⟨.hbm, 2690, rfl⟩
abbrev main_v1496 : Ref sig .tc := ⟨.hbm, 2691, rfl⟩
abbrev main_cst_482 : Ref sig .tc := ⟨.hbm, 2692, rfl⟩
abbrev main_v1497 : Ref sig .tc := ⟨.hbm, 2693, rfl⟩
abbrev main_v1498 : Ref sig .tc := ⟨.hbm, 2694, rfl⟩
abbrev main_v1499 : Ref sig .tc := ⟨.hbm, 2695, rfl⟩
abbrev main_v1500 : Ref sig .tc := ⟨.hbm, 2696, rfl⟩
abbrev main_v1501 : Ref sig .tc := ⟨.hbm, 2697, rfl⟩
abbrev main_v1502 : Ref sig .tc := ⟨.hbm, 2698, rfl⟩
abbrev main_cst_483 : Ref sig .tc := ⟨.hbm, 2699, rfl⟩
abbrev main_cst_484 : Ref sig .tc := ⟨.hbm, 2700, rfl⟩
abbrev main_call142_v0 : Ref sig .tc := ⟨.hbm, 2701, rfl⟩
abbrev main_call142_v1 : Ref sig .tc := ⟨.hbm, 2702, rfl⟩
abbrev main_call142_v2 : Ref sig .tc := ⟨.hbm, 2703, rfl⟩
abbrev main_call142_v3 : Ref sig .tc := ⟨.hbm, 2704, rfl⟩
abbrev main_call142_v4 : Ref sig .tc := ⟨.hbm, 2705, rfl⟩
abbrev main_v1503 : Ref sig .tc := ⟨.hbm, 2706, rfl⟩
abbrev main_cst_485 : Ref sig .tc := ⟨.hbm, 2707, rfl⟩
abbrev main_cst_486 : Ref sig .tc := ⟨.hbm, 2708, rfl⟩
abbrev main_call143_v0 : Ref sig .tc := ⟨.hbm, 2709, rfl⟩
abbrev main_call143_v1 : Ref sig .tc := ⟨.hbm, 2710, rfl⟩
abbrev main_call143_v2 : Ref sig .tc := ⟨.hbm, 2711, rfl⟩
abbrev main_call143_v3 : Ref sig .tc := ⟨.hbm, 2712, rfl⟩
abbrev main_call143_v4 : Ref sig .tc := ⟨.hbm, 2713, rfl⟩
abbrev main_v1504 : Ref sig .tc := ⟨.hbm, 2714, rfl⟩
abbrev main_v1505 : Ref sig .tc := ⟨.hbm, 2715, rfl⟩
abbrev main_v1506 : Ref sig .tc := ⟨.hbm, 2716, rfl⟩
abbrev main_v1507 : Ref sig .tc := ⟨.hbm, 2717, rfl⟩
abbrev main_v1508 : Ref sig .tc := ⟨.hbm, 2718, rfl⟩
abbrev main_v1509 : Ref sig .tc := ⟨.hbm, 2719, rfl⟩
abbrev main_v1510 : Ref sig .tc := ⟨.hbm, 2720, rfl⟩
abbrev main_v1511 : Ref sig .tc := ⟨.hbm, 2721, rfl⟩
abbrev main_cst_487 : Ref sig .tc := ⟨.hbm, 2722, rfl⟩
abbrev main_v1512 : Ref sig .tc := ⟨.hbm, 2723, rfl⟩
abbrev main_cst_488 : Ref sig .tc := ⟨.hbm, 2724, rfl⟩
abbrev main_v1513 : Ref sig .tc := ⟨.hbm, 2725, rfl⟩
abbrev main_v1514 : Ref sig .tc := ⟨.hbm, 2726, rfl⟩
abbrev main_cst_489 : Ref sig .tc := ⟨.hbm, 2727, rfl⟩
abbrev main_v1515 : Ref sig .tc := ⟨.hbm, 2728, rfl⟩
abbrev main_v1516 : Ref sig .tc := ⟨.hbm, 2729, rfl⟩
abbrev main_v1517 : Ref sig .tc := ⟨.hbm, 2730, rfl⟩
abbrev main_v1518 : Ref sig .tc := ⟨.hbm, 2731, rfl⟩
abbrev main_cst_490 : Ref sig .tc := ⟨.hbm, 2732, rfl⟩
abbrev main_v1519 : Ref sig .tc := ⟨.hbm, 2733, rfl⟩
abbrev main_v1520 : Ref sig .tc := ⟨.hbm, 2734, rfl⟩
abbrev main_v1521 : Ref sig .tc := ⟨.hbm, 2735, rfl⟩
abbrev main_v1522 : Ref sig .tc := ⟨.hbm, 2736, rfl⟩
abbrev main_v1523 : Ref sig .tc := ⟨.hbm, 2737, rfl⟩
abbrev main_v1524 : Ref sig .tc := ⟨.hbm, 2738, rfl⟩
abbrev main_v1525 : Ref sig .tc := ⟨.hbm, 2739, rfl⟩
abbrev main_v1526 : Ref sig .tc := ⟨.hbm, 2740, rfl⟩
abbrev main_v1527 : Ref sig .tc := ⟨.hbm, 2741, rfl⟩
abbrev main_cst_491 : Ref sig .tc := ⟨.hbm, 2742, rfl⟩
abbrev main_v1528 : Ref sig .tc := ⟨.hbm, 2743, rfl⟩
abbrev main_v1529 : Ref sig .tc := ⟨.hbm, 2744, rfl⟩
abbrev main_cst_492 : Ref sig .tc := ⟨.hbm, 2745, rfl⟩
abbrev main_v1530 : Ref sig .tc := ⟨.hbm, 2746, rfl⟩
abbrev main_v1531 : Ref sig .tc := ⟨.hbm, 2747, rfl⟩
abbrev main_v1532 : Ref sig .tc := ⟨.hbm, 2748, rfl⟩
abbrev main_v1533 : Ref sig .tc := ⟨.hbm, 2749, rfl⟩
abbrev main_v1534 : Ref sig .tc := ⟨.hbm, 2750, rfl⟩
abbrev main_v1535 : Ref sig .tc := ⟨.hbm, 2751, rfl⟩
abbrev main_cst_493 : Ref sig .tc := ⟨.hbm, 2752, rfl⟩
abbrev main_cst_494 : Ref sig .tc := ⟨.hbm, 2753, rfl⟩
abbrev main_call144_v0 : Ref sig .tc := ⟨.hbm, 2754, rfl⟩
abbrev main_call144_v1 : Ref sig .tc := ⟨.hbm, 2755, rfl⟩
abbrev main_call144_v2 : Ref sig .tc := ⟨.hbm, 2756, rfl⟩
abbrev main_call144_v3 : Ref sig .tc := ⟨.hbm, 2757, rfl⟩
abbrev main_call144_v4 : Ref sig .tc := ⟨.hbm, 2758, rfl⟩
abbrev main_v1536 : Ref sig .tc := ⟨.hbm, 2759, rfl⟩
abbrev main_cst_495 : Ref sig .tc := ⟨.hbm, 2760, rfl⟩
abbrev main_cst_496 : Ref sig .tc := ⟨.hbm, 2761, rfl⟩
abbrev main_call145_v0 : Ref sig .tc := ⟨.hbm, 2762, rfl⟩
abbrev main_call145_v1 : Ref sig .tc := ⟨.hbm, 2763, rfl⟩
abbrev main_call145_v2 : Ref sig .tc := ⟨.hbm, 2764, rfl⟩
abbrev main_call145_v3 : Ref sig .tc := ⟨.hbm, 2765, rfl⟩
abbrev main_call145_v4 : Ref sig .tc := ⟨.hbm, 2766, rfl⟩
abbrev main_v1537 : Ref sig .tc := ⟨.hbm, 2767, rfl⟩
abbrev main_v1538 : Ref sig .tc := ⟨.hbm, 2768, rfl⟩
abbrev main_v1539 : Ref sig .tc := ⟨.hbm, 2769, rfl⟩
abbrev main_v1540 : Ref sig .tc := ⟨.hbm, 2770, rfl⟩
abbrev main_v1541 : Ref sig .tc := ⟨.hbm, 2771, rfl⟩
abbrev main_v1542 : Ref sig .tc := ⟨.hbm, 2772, rfl⟩
abbrev main_v1543 : Ref sig .tc := ⟨.hbm, 2773, rfl⟩
abbrev main_v1544 : Ref sig .tc := ⟨.hbm, 2774, rfl⟩
abbrev main_v1545 : Ref sig .tc := ⟨.hbm, 2775, rfl⟩
abbrev main_v1546 : Ref sig .tc := ⟨.hbm, 2776, rfl⟩
abbrev main_cst_497 : Ref sig .tc := ⟨.hbm, 2777, rfl⟩
abbrev main_cst_498 : Ref sig .tc := ⟨.hbm, 2778, rfl⟩
abbrev main_call146_v0 : Ref sig .tc := ⟨.hbm, 2779, rfl⟩
abbrev main_call146_v1 : Ref sig .tc := ⟨.hbm, 2780, rfl⟩
abbrev main_call146_v2 : Ref sig .tc := ⟨.hbm, 2781, rfl⟩
abbrev main_call146_v3 : Ref sig .tc := ⟨.hbm, 2782, rfl⟩
abbrev main_call146_v4 : Ref sig .tc := ⟨.hbm, 2783, rfl⟩
abbrev main_v1547 : Ref sig .tc := ⟨.hbm, 2784, rfl⟩
abbrev main_cst_499 : Ref sig .tc := ⟨.hbm, 2785, rfl⟩
abbrev main_cst_500 : Ref sig .tc := ⟨.hbm, 2786, rfl⟩
abbrev main_call147_v0 : Ref sig .tc := ⟨.hbm, 2787, rfl⟩
abbrev main_call147_v1 : Ref sig .tc := ⟨.hbm, 2788, rfl⟩
abbrev main_call147_v2 : Ref sig .tc := ⟨.hbm, 2789, rfl⟩
abbrev main_call147_v3 : Ref sig .tc := ⟨.hbm, 2790, rfl⟩
abbrev main_call147_v4 : Ref sig .tc := ⟨.hbm, 2791, rfl⟩
abbrev main_v1548 : Ref sig .tc := ⟨.hbm, 2792, rfl⟩
abbrev main_v1549 : Ref sig .tc := ⟨.hbm, 2793, rfl⟩
abbrev main_v1550 : Ref sig .tc := ⟨.hbm, 2794, rfl⟩
abbrev main_v1551 : Ref sig .tc := ⟨.hbm, 2795, rfl⟩
abbrev main_v1552 : Ref sig .tc := ⟨.hbm, 2796, rfl⟩
abbrev main_v1553 : Ref sig .tc := ⟨.hbm, 2797, rfl⟩
abbrev main_v1554 : Ref sig .tc := ⟨.hbm, 2798, rfl⟩
abbrev main_v1555 : Ref sig .tc := ⟨.hbm, 2799, rfl⟩
abbrev main_cst_501 : Ref sig .tc := ⟨.hbm, 2800, rfl⟩
abbrev main_v1556 : Ref sig .tc := ⟨.hbm, 2801, rfl⟩
abbrev main_cst_502 : Ref sig .tc := ⟨.hbm, 2802, rfl⟩
abbrev main_v1557 : Ref sig .tc := ⟨.hbm, 2803, rfl⟩
abbrev main_v1558 : Ref sig .tc := ⟨.hbm, 2804, rfl⟩
abbrev main_cst_503 : Ref sig .tc := ⟨.hbm, 2805, rfl⟩
abbrev main_v1559 : Ref sig .tc := ⟨.hbm, 2806, rfl⟩
abbrev main_v1560 : Ref sig .tc := ⟨.hbm, 2807, rfl⟩
abbrev main_v1561 : Ref sig .tc := ⟨.hbm, 2808, rfl⟩
abbrev main_v1562 : Ref sig .tc := ⟨.hbm, 2809, rfl⟩
abbrev main_cst_504 : Ref sig .tc := ⟨.hbm, 2810, rfl⟩
abbrev main_v1563 : Ref sig .tc := ⟨.hbm, 2811, rfl⟩
abbrev main_v1564 : Ref sig .tc := ⟨.hbm, 2812, rfl⟩
abbrev main_v1565 : Ref sig .tc := ⟨.hbm, 2813, rfl⟩
abbrev main_v1566 : Ref sig .tc := ⟨.hbm, 2814, rfl⟩
abbrev main_v1567 : Ref sig .tc := ⟨.hbm, 2815, rfl⟩
abbrev main_cst_505 : Ref sig .tc := ⟨.hbm, 2816, rfl⟩
abbrev main_v1568 : Ref sig .tc := ⟨.hbm, 2817, rfl⟩
abbrev main_v1569 : Ref sig .tc := ⟨.hbm, 2818, rfl⟩
abbrev main_cst_506 : Ref sig .tc := ⟨.hbm, 2819, rfl⟩
abbrev main_v1570 : Ref sig .tc := ⟨.hbm, 2820, rfl⟩
abbrev main_v1571 : Ref sig .tc := ⟨.hbm, 2821, rfl⟩
abbrev main_v1572 : Ref sig .tc := ⟨.hbm, 2822, rfl⟩
abbrev main_v1573 : Ref sig .tc := ⟨.hbm, 2823, rfl⟩
abbrev main_v1574 : Ref sig .tc := ⟨.hbm, 2824, rfl⟩
abbrev main_v1575 : Ref sig .tc := ⟨.hbm, 2825, rfl⟩
abbrev main_cst_507 : Ref sig .tc := ⟨.hbm, 2826, rfl⟩
abbrev main_cst_508 : Ref sig .tc := ⟨.hbm, 2827, rfl⟩
abbrev main_call148_v0 : Ref sig .tc := ⟨.hbm, 2828, rfl⟩
abbrev main_call148_v1 : Ref sig .tc := ⟨.hbm, 2829, rfl⟩
abbrev main_call148_v2 : Ref sig .tc := ⟨.hbm, 2830, rfl⟩
abbrev main_call148_v3 : Ref sig .tc := ⟨.hbm, 2831, rfl⟩
abbrev main_call148_v4 : Ref sig .tc := ⟨.hbm, 2832, rfl⟩
abbrev main_v1576 : Ref sig .tc := ⟨.hbm, 2833, rfl⟩
abbrev main_cst_509 : Ref sig .tc := ⟨.hbm, 2834, rfl⟩
abbrev main_cst_510 : Ref sig .tc := ⟨.hbm, 2835, rfl⟩
abbrev main_call149_v0 : Ref sig .tc := ⟨.hbm, 2836, rfl⟩
abbrev main_call149_v1 : Ref sig .tc := ⟨.hbm, 2837, rfl⟩
abbrev main_call149_v2 : Ref sig .tc := ⟨.hbm, 2838, rfl⟩
abbrev main_call149_v3 : Ref sig .tc := ⟨.hbm, 2839, rfl⟩
abbrev main_call149_v4 : Ref sig .tc := ⟨.hbm, 2840, rfl⟩
abbrev main_v1577 : Ref sig .tc := ⟨.hbm, 2841, rfl⟩
abbrev main_v1578 : Ref sig .tc := ⟨.hbm, 2842, rfl⟩
abbrev main_v1579 : Ref sig .tc := ⟨.hbm, 2843, rfl⟩
abbrev main_v1580 : Ref sig .tc := ⟨.hbm, 2844, rfl⟩
abbrev main_v1581 : Ref sig .tc := ⟨.hbm, 2845, rfl⟩
abbrev main_v1582 : Ref sig .tc := ⟨.hbm, 2846, rfl⟩
abbrev main_v1583 : Ref sig .tc := ⟨.hbm, 2847, rfl⟩
abbrev main_v1584 : Ref sig .tc := ⟨.hbm, 2848, rfl⟩
abbrev main_cst_511 : Ref sig .tc := ⟨.hbm, 2849, rfl⟩
abbrev main_v1585 : Ref sig .tc := ⟨.hbm, 2850, rfl⟩
abbrev main_cst_512 : Ref sig .tc := ⟨.hbm, 2851, rfl⟩
abbrev main_v1586 : Ref sig .tc := ⟨.hbm, 2852, rfl⟩
abbrev main_v1587 : Ref sig .tc := ⟨.hbm, 2853, rfl⟩
abbrev main_cst_513 : Ref sig .tc := ⟨.hbm, 2854, rfl⟩
abbrev main_v1588 : Ref sig .tc := ⟨.hbm, 2855, rfl⟩
abbrev main_v1589 : Ref sig .tc := ⟨.hbm, 2856, rfl⟩
abbrev main_v1590 : Ref sig .tc := ⟨.hbm, 2857, rfl⟩
abbrev main_v1591 : Ref sig .tc := ⟨.hbm, 2858, rfl⟩
abbrev main_cst_514 : Ref sig .tc := ⟨.hbm, 2859, rfl⟩
abbrev main_v1592 : Ref sig .tc := ⟨.hbm, 2860, rfl⟩
abbrev main_v1593 : Ref sig .tc := ⟨.hbm, 2861, rfl⟩
abbrev main_v1594 : Ref sig .tc := ⟨.hbm, 2862, rfl⟩
abbrev main_v1595 : Ref sig .tc := ⟨.hbm, 2863, rfl⟩
abbrev main_v1596 : Ref sig .tc := ⟨.hbm, 2864, rfl⟩
abbrev main_v1597 : Ref sig .tc := ⟨.hbm, 2865, rfl⟩
abbrev main_v1598 : Ref sig .tc := ⟨.hbm, 2866, rfl⟩
abbrev main_v1599 : Ref sig .tc := ⟨.hbm, 2867, rfl⟩
abbrev main_v1600 : Ref sig .tc := ⟨.hbm, 2868, rfl⟩
abbrev main_v1601 : Ref sig .tc := ⟨.hbm, 2869, rfl⟩
abbrev main_v1602 : Ref sig .tc := ⟨.hbm, 2870, rfl⟩
abbrev main_v1603 : Ref sig .tc := ⟨.hbm, 2871, rfl⟩
abbrev main_v1604 : Ref sig .tc := ⟨.hbm, 2872, rfl⟩
abbrev main_cst_515 : Ref sig .tc := ⟨.hbm, 2873, rfl⟩
abbrev main_v1605 : Ref sig .tc := ⟨.hbm, 2874, rfl⟩
abbrev main_v1606 : Ref sig .tc := ⟨.hbm, 2875, rfl⟩
abbrev main_cst_516 : Ref sig .tc := ⟨.hbm, 2876, rfl⟩
abbrev main_v1607 : Ref sig .tc := ⟨.hbm, 2877, rfl⟩
abbrev main_v1608 : Ref sig .tc := ⟨.hbm, 2878, rfl⟩
abbrev main_v1609 : Ref sig .tc := ⟨.hbm, 2879, rfl⟩
abbrev main_v1610 : Ref sig .tc := ⟨.hbm, 2880, rfl⟩
abbrev main_v1611 : Ref sig .tc := ⟨.hbm, 2881, rfl⟩
abbrev main_v1612 : Ref sig .tc := ⟨.hbm, 2882, rfl⟩
abbrev main_cst_517 : Ref sig .tc := ⟨.hbm, 2883, rfl⟩
abbrev main_cst_518 : Ref sig .tc := ⟨.hbm, 2884, rfl⟩
abbrev main_call150_v0 : Ref sig .tc := ⟨.hbm, 2885, rfl⟩
abbrev main_call150_v1 : Ref sig .tc := ⟨.hbm, 2886, rfl⟩
abbrev main_call150_v2 : Ref sig .tc := ⟨.hbm, 2887, rfl⟩
abbrev main_call150_v3 : Ref sig .tc := ⟨.hbm, 2888, rfl⟩
abbrev main_call150_v4 : Ref sig .tc := ⟨.hbm, 2889, rfl⟩
abbrev main_v1613 : Ref sig .tc := ⟨.hbm, 2890, rfl⟩
abbrev main_cst_519 : Ref sig .tc := ⟨.hbm, 2891, rfl⟩
abbrev main_cst_520 : Ref sig .tc := ⟨.hbm, 2892, rfl⟩
abbrev main_call151_v0 : Ref sig .tc := ⟨.hbm, 2893, rfl⟩
abbrev main_call151_v1 : Ref sig .tc := ⟨.hbm, 2894, rfl⟩
abbrev main_call151_v2 : Ref sig .tc := ⟨.hbm, 2895, rfl⟩
abbrev main_call151_v3 : Ref sig .tc := ⟨.hbm, 2896, rfl⟩
abbrev main_call151_v4 : Ref sig .tc := ⟨.hbm, 2897, rfl⟩
abbrev main_v1614 : Ref sig .tc := ⟨.hbm, 2898, rfl⟩
abbrev main_v1615 : Ref sig .tc := ⟨.hbm, 2899, rfl⟩
abbrev main_v1616 : Ref sig .tc := ⟨.hbm, 2900, rfl⟩
abbrev main_v1617 : Ref sig .tc := ⟨.hbm, 2901, rfl⟩
abbrev main_v1618 : Ref sig .tc := ⟨.hbm, 2902, rfl⟩
abbrev main_v1619 : Ref sig .tc := ⟨.hbm, 2903, rfl⟩
abbrev main_v1620 : Ref sig .tc := ⟨.hbm, 2904, rfl⟩
abbrev main_v1621 : Ref sig .tc := ⟨.hbm, 2905, rfl⟩
abbrev main_v1622 : Ref sig .tc := ⟨.hbm, 2906, rfl⟩
abbrev main_v1623 : Ref sig .tc := ⟨.hbm, 2907, rfl⟩
abbrev main_cst_521 : Ref sig .tc := ⟨.hbm, 2908, rfl⟩
abbrev main_cst_522 : Ref sig .tc := ⟨.hbm, 2909, rfl⟩
abbrev main_call152_v0 : Ref sig .tc := ⟨.hbm, 2910, rfl⟩
abbrev main_call152_v1 : Ref sig .tc := ⟨.hbm, 2911, rfl⟩
abbrev main_call152_v2 : Ref sig .tc := ⟨.hbm, 2912, rfl⟩
abbrev main_call152_v3 : Ref sig .tc := ⟨.hbm, 2913, rfl⟩
abbrev main_call152_v4 : Ref sig .tc := ⟨.hbm, 2914, rfl⟩
abbrev main_v1624 : Ref sig .tc := ⟨.hbm, 2915, rfl⟩
abbrev main_cst_523 : Ref sig .tc := ⟨.hbm, 2916, rfl⟩
abbrev main_cst_524 : Ref sig .tc := ⟨.hbm, 2917, rfl⟩
abbrev main_call153_v0 : Ref sig .tc := ⟨.hbm, 2918, rfl⟩
abbrev main_call153_v1 : Ref sig .tc := ⟨.hbm, 2919, rfl⟩
abbrev main_call153_v2 : Ref sig .tc := ⟨.hbm, 2920, rfl⟩
abbrev main_call153_v3 : Ref sig .tc := ⟨.hbm, 2921, rfl⟩
abbrev main_call153_v4 : Ref sig .tc := ⟨.hbm, 2922, rfl⟩
abbrev main_v1625 : Ref sig .tc := ⟨.hbm, 2923, rfl⟩
abbrev main_v1626 : Ref sig .tc := ⟨.hbm, 2924, rfl⟩
abbrev main_v1627 : Ref sig .tc := ⟨.hbm, 2925, rfl⟩
abbrev main_v1628 : Ref sig .tc := ⟨.hbm, 2926, rfl⟩
abbrev main_v1629 : Ref sig .tc := ⟨.hbm, 2927, rfl⟩
abbrev main_v1630 : Ref sig .tc := ⟨.hbm, 2928, rfl⟩
abbrev main_v1631 : Ref sig .tc := ⟨.hbm, 2929, rfl⟩
abbrev main_v1632 : Ref sig .tc := ⟨.hbm, 2930, rfl⟩
abbrev main_v1633 : Ref sig .tc := ⟨.hbm, 2931, rfl⟩
abbrev main_v1634 : Ref sig .tc := ⟨.hbm, 2932, rfl⟩
abbrev main_cst_525 : Ref sig .tc := ⟨.hbm, 2933, rfl⟩
abbrev main_cst_526 : Ref sig .tc := ⟨.hbm, 2934, rfl⟩
abbrev main_call154_v0 : Ref sig .tc := ⟨.hbm, 2935, rfl⟩
abbrev main_call154_v1 : Ref sig .tc := ⟨.hbm, 2936, rfl⟩
abbrev main_call154_v2 : Ref sig .tc := ⟨.hbm, 2937, rfl⟩
abbrev main_call154_v3 : Ref sig .tc := ⟨.hbm, 2938, rfl⟩
abbrev main_call154_v4 : Ref sig .tc := ⟨.hbm, 2939, rfl⟩
abbrev main_v1635 : Ref sig .tc := ⟨.hbm, 2940, rfl⟩
abbrev main_cst_527 : Ref sig .tc := ⟨.hbm, 2941, rfl⟩
abbrev main_cst_528 : Ref sig .tc := ⟨.hbm, 2942, rfl⟩
abbrev main_call155_v0 : Ref sig .tc := ⟨.hbm, 2943, rfl⟩
abbrev main_call155_v1 : Ref sig .tc := ⟨.hbm, 2944, rfl⟩
abbrev main_call155_v2 : Ref sig .tc := ⟨.hbm, 2945, rfl⟩
abbrev main_call155_v3 : Ref sig .tc := ⟨.hbm, 2946, rfl⟩
abbrev main_call155_v4 : Ref sig .tc := ⟨.hbm, 2947, rfl⟩
abbrev main_v1636 : Ref sig .tc := ⟨.hbm, 2948, rfl⟩
abbrev main_v1637 : Ref sig .tc := ⟨.hbm, 2949, rfl⟩
abbrev main_v1638 : Ref sig .tc := ⟨.hbm, 2950, rfl⟩
abbrev main_v1639 : Ref sig .tc := ⟨.hbm, 2951, rfl⟩
abbrev main_v1640 : Ref sig .tc := ⟨.hbm, 2952, rfl⟩
abbrev main_v1641 : Ref sig .tc := ⟨.hbm, 2953, rfl⟩
abbrev main_v1642 : Ref sig .tc := ⟨.hbm, 2954, rfl⟩
abbrev main_v1643 : Ref sig .tc := ⟨.hbm, 2955, rfl⟩
abbrev main_cst_529 : Ref sig .tc := ⟨.hbm, 2956, rfl⟩
abbrev main_v1644 : Ref sig .tc := ⟨.hbm, 2957, rfl⟩
abbrev main_cst_530 : Ref sig .tc := ⟨.hbm, 2958, rfl⟩
abbrev main_v1645 : Ref sig .tc := ⟨.hbm, 2959, rfl⟩
abbrev main_v1646 : Ref sig .tc := ⟨.hbm, 2960, rfl⟩
abbrev main_cst_531 : Ref sig .tc := ⟨.hbm, 2961, rfl⟩
abbrev main_v1647 : Ref sig .tc := ⟨.hbm, 2962, rfl⟩
abbrev main_v1648 : Ref sig .tc := ⟨.hbm, 2963, rfl⟩
abbrev main_v1649 : Ref sig .tc := ⟨.hbm, 2964, rfl⟩
abbrev main_v1650 : Ref sig .tc := ⟨.hbm, 2965, rfl⟩
abbrev main_cst_532 : Ref sig .tc := ⟨.hbm, 2966, rfl⟩
abbrev main_v1651 : Ref sig .tc := ⟨.hbm, 2967, rfl⟩
abbrev main_v1652 : Ref sig .tc := ⟨.hbm, 2968, rfl⟩
abbrev main_v1653 : Ref sig .tc := ⟨.hbm, 2969, rfl⟩
abbrev main_v1654 : Ref sig .tc := ⟨.hbm, 2970, rfl⟩
abbrev main_v1655 : Ref sig .tc := ⟨.hbm, 2971, rfl⟩
abbrev main_cst_533 : Ref sig .tc := ⟨.hbm, 2972, rfl⟩
abbrev main_v1656 : Ref sig .tc := ⟨.hbm, 2973, rfl⟩
abbrev main_v1657 : Ref sig .tc := ⟨.hbm, 2974, rfl⟩
abbrev main_cst_534 : Ref sig .tc := ⟨.hbm, 2975, rfl⟩
abbrev main_v1658 : Ref sig .tc := ⟨.hbm, 2976, rfl⟩
abbrev main_v1659 : Ref sig .tc := ⟨.hbm, 2977, rfl⟩
abbrev main_v1660 : Ref sig .tc := ⟨.hbm, 2978, rfl⟩
abbrev main_v1661 : Ref sig .tc := ⟨.hbm, 2979, rfl⟩
abbrev main_v1662 : Ref sig .tc := ⟨.hbm, 2980, rfl⟩
abbrev main_v1663 : Ref sig .tc := ⟨.hbm, 2981, rfl⟩
abbrev main_cst_535 : Ref sig .tc := ⟨.hbm, 2982, rfl⟩
abbrev main_cst_536 : Ref sig .tc := ⟨.hbm, 2983, rfl⟩
abbrev main_call156_v0 : Ref sig .tc := ⟨.hbm, 2984, rfl⟩
abbrev main_call156_v1 : Ref sig .tc := ⟨.hbm, 2985, rfl⟩
abbrev main_call156_v2 : Ref sig .tc := ⟨.hbm, 2986, rfl⟩
abbrev main_call156_v3 : Ref sig .tc := ⟨.hbm, 2987, rfl⟩
abbrev main_call156_v4 : Ref sig .tc := ⟨.hbm, 2988, rfl⟩
abbrev main_v1664 : Ref sig .tc := ⟨.hbm, 2989, rfl⟩
abbrev main_cst_537 : Ref sig .tc := ⟨.hbm, 2990, rfl⟩
abbrev main_cst_538 : Ref sig .tc := ⟨.hbm, 2991, rfl⟩
abbrev main_call157_v0 : Ref sig .tc := ⟨.hbm, 2992, rfl⟩
abbrev main_call157_v1 : Ref sig .tc := ⟨.hbm, 2993, rfl⟩
abbrev main_call157_v2 : Ref sig .tc := ⟨.hbm, 2994, rfl⟩
abbrev main_call157_v3 : Ref sig .tc := ⟨.hbm, 2995, rfl⟩
abbrev main_call157_v4 : Ref sig .tc := ⟨.hbm, 2996, rfl⟩
abbrev main_v1665 : Ref sig .tc := ⟨.hbm, 2997, rfl⟩
abbrev main_v1666 : Ref sig .tc := ⟨.hbm, 2998, rfl⟩
abbrev main_v1667 : Ref sig .tc := ⟨.hbm, 2999, rfl⟩
abbrev main_v1668 : Ref sig .tc := ⟨.hbm, 3000, rfl⟩
abbrev main_v1669 : Ref sig .tc := ⟨.hbm, 3001, rfl⟩
abbrev main_v1670 : Ref sig .tc := ⟨.hbm, 3002, rfl⟩
abbrev main_v1671 : Ref sig .tc := ⟨.hbm, 3003, rfl⟩
abbrev main_v1672 : Ref sig .tc := ⟨.hbm, 3004, rfl⟩
abbrev main_cst_539 : Ref sig .tc := ⟨.hbm, 3005, rfl⟩
abbrev main_v1673 : Ref sig .tc := ⟨.hbm, 3006, rfl⟩
abbrev main_cst_540 : Ref sig .tc := ⟨.hbm, 3007, rfl⟩
abbrev main_v1674 : Ref sig .tc := ⟨.hbm, 3008, rfl⟩
abbrev main_v1675 : Ref sig .tc := ⟨.hbm, 3009, rfl⟩
abbrev main_cst_541 : Ref sig .tc := ⟨.hbm, 3010, rfl⟩
abbrev main_v1676 : Ref sig .tc := ⟨.hbm, 3011, rfl⟩
abbrev main_v1677 : Ref sig .tc := ⟨.hbm, 3012, rfl⟩
abbrev main_v1678 : Ref sig .tc := ⟨.hbm, 3013, rfl⟩
abbrev main_v1679 : Ref sig .tc := ⟨.hbm, 3014, rfl⟩
abbrev main_cst_542 : Ref sig .tc := ⟨.hbm, 3015, rfl⟩
abbrev main_v1680 : Ref sig .tc := ⟨.hbm, 3016, rfl⟩
abbrev main_v1681 : Ref sig .tc := ⟨.hbm, 3017, rfl⟩
abbrev main_v1682 : Ref sig .tc := ⟨.hbm, 3018, rfl⟩
abbrev main_v1683 : Ref sig .tc := ⟨.hbm, 3019, rfl⟩
abbrev main_v1684 : Ref sig .tc := ⟨.hbm, 3020, rfl⟩
abbrev main_v1685 : Ref sig .tc := ⟨.hbm, 3021, rfl⟩
abbrev main_v1686 : Ref sig .tc := ⟨.hbm, 3022, rfl⟩
abbrev main_v1687 : Ref sig .tc := ⟨.hbm, 3023, rfl⟩
abbrev main_v1688 : Ref sig .tc := ⟨.hbm, 3024, rfl⟩
abbrev main_cst_543 : Ref sig .tc := ⟨.hbm, 3025, rfl⟩
abbrev main_v1689 : Ref sig .tc := ⟨.hbm, 3026, rfl⟩
abbrev main_v1690 : Ref sig .tc := ⟨.hbm, 3027, rfl⟩
abbrev main_cst_544 : Ref sig .tc := ⟨.hbm, 3028, rfl⟩
abbrev main_v1691 : Ref sig .tc := ⟨.hbm, 3029, rfl⟩
abbrev main_v1692 : Ref sig .tc := ⟨.hbm, 3030, rfl⟩
abbrev main_v1693 : Ref sig .tc := ⟨.hbm, 3031, rfl⟩
abbrev main_v1694 : Ref sig .tc := ⟨.hbm, 3032, rfl⟩
abbrev main_v1695 : Ref sig .tc := ⟨.hbm, 3033, rfl⟩
abbrev main_v1696 : Ref sig .tc := ⟨.hbm, 3034, rfl⟩
abbrev main_cst_545 : Ref sig .tc := ⟨.hbm, 3035, rfl⟩
abbrev main_cst_546 : Ref sig .tc := ⟨.hbm, 3036, rfl⟩
abbrev main_call158_v0 : Ref sig .tc := ⟨.hbm, 3037, rfl⟩
abbrev main_call158_v1 : Ref sig .tc := ⟨.hbm, 3038, rfl⟩
abbrev main_call158_v2 : Ref sig .tc := ⟨.hbm, 3039, rfl⟩
abbrev main_call158_v3 : Ref sig .tc := ⟨.hbm, 3040, rfl⟩
abbrev main_call158_v4 : Ref sig .tc := ⟨.hbm, 3041, rfl⟩
abbrev main_v1697 : Ref sig .tc := ⟨.hbm, 3042, rfl⟩
abbrev main_cst_547 : Ref sig .tc := ⟨.hbm, 3043, rfl⟩
abbrev main_cst_548 : Ref sig .tc := ⟨.hbm, 3044, rfl⟩
abbrev main_call159_v0 : Ref sig .tc := ⟨.hbm, 3045, rfl⟩
abbrev main_call159_v1 : Ref sig .tc := ⟨.hbm, 3046, rfl⟩
abbrev main_call159_v2 : Ref sig .tc := ⟨.hbm, 3047, rfl⟩
abbrev main_call159_v3 : Ref sig .tc := ⟨.hbm, 3048, rfl⟩
abbrev main_call159_v4 : Ref sig .tc := ⟨.hbm, 3049, rfl⟩
abbrev main_v1698 : Ref sig .tc := ⟨.hbm, 3050, rfl⟩
abbrev main_v1699 : Ref sig .tc := ⟨.hbm, 3051, rfl⟩
abbrev main_v1700 : Ref sig .tc := ⟨.hbm, 3052, rfl⟩
abbrev main_v1701 : Ref sig .tc := ⟨.hbm, 3053, rfl⟩
abbrev main_v1702 : Ref sig .tc := ⟨.hbm, 3054, rfl⟩
abbrev main_v1703 : Ref sig .tc := ⟨.hbm, 3055, rfl⟩
abbrev main_v1704 : Ref sig .tc := ⟨.hbm, 3056, rfl⟩
abbrev main_v1705 : Ref sig .tc := ⟨.hbm, 3057, rfl⟩
abbrev main_v1706 : Ref sig .tc := ⟨.hbm, 3058, rfl⟩
abbrev main_v1707 : Ref sig .tc := ⟨.hbm, 3059, rfl⟩
abbrev main_cst_549 : Ref sig .tc := ⟨.hbm, 3060, rfl⟩
abbrev main_cst_550 : Ref sig .tc := ⟨.hbm, 3061, rfl⟩
abbrev main_call160_v0 : Ref sig .tc := ⟨.hbm, 3062, rfl⟩
abbrev main_call160_v1 : Ref sig .tc := ⟨.hbm, 3063, rfl⟩
abbrev main_call160_v2 : Ref sig .tc := ⟨.hbm, 3064, rfl⟩
abbrev main_call160_v3 : Ref sig .tc := ⟨.hbm, 3065, rfl⟩
abbrev main_call160_v4 : Ref sig .tc := ⟨.hbm, 3066, rfl⟩
abbrev main_v1708 : Ref sig .tc := ⟨.hbm, 3067, rfl⟩
abbrev main_cst_551 : Ref sig .tc := ⟨.hbm, 3068, rfl⟩
abbrev main_cst_552 : Ref sig .tc := ⟨.hbm, 3069, rfl⟩
abbrev main_call161_v0 : Ref sig .tc := ⟨.hbm, 3070, rfl⟩
abbrev main_call161_v1 : Ref sig .tc := ⟨.hbm, 3071, rfl⟩
abbrev main_call161_v2 : Ref sig .tc := ⟨.hbm, 3072, rfl⟩
abbrev main_call161_v3 : Ref sig .tc := ⟨.hbm, 3073, rfl⟩
abbrev main_call161_v4 : Ref sig .tc := ⟨.hbm, 3074, rfl⟩
abbrev main_v1709 : Ref sig .tc := ⟨.hbm, 3075, rfl⟩
abbrev main_v1710 : Ref sig .tc := ⟨.hbm, 3076, rfl⟩
abbrev main_v1711 : Ref sig .tc := ⟨.hbm, 3077, rfl⟩
abbrev main_v1712 : Ref sig .tc := ⟨.hbm, 3078, rfl⟩
abbrev main_v1713 : Ref sig .tc := ⟨.hbm, 3079, rfl⟩
abbrev main_v1714 : Ref sig .tc := ⟨.hbm, 3080, rfl⟩
abbrev main_v1715 : Ref sig .tc := ⟨.hbm, 3081, rfl⟩
abbrev main_v1716 : Ref sig .tc := ⟨.hbm, 3082, rfl⟩
abbrev main_cst_553 : Ref sig .tc := ⟨.hbm, 3083, rfl⟩
abbrev main_v1717 : Ref sig .tc := ⟨.hbm, 3084, rfl⟩
abbrev main_cst_554 : Ref sig .tc := ⟨.hbm, 3085, rfl⟩
abbrev main_v1718 : Ref sig .tc := ⟨.hbm, 3086, rfl⟩
abbrev main_v1719 : Ref sig .tc := ⟨.hbm, 3087, rfl⟩
abbrev main_cst_555 : Ref sig .tc := ⟨.hbm, 3088, rfl⟩
abbrev main_v1720 : Ref sig .tc := ⟨.hbm, 3089, rfl⟩
abbrev main_v1721 : Ref sig .tc := ⟨.hbm, 3090, rfl⟩
abbrev main_v1722 : Ref sig .tc := ⟨.hbm, 3091, rfl⟩
abbrev main_v1723 : Ref sig .tc := ⟨.hbm, 3092, rfl⟩
abbrev main_cst_556 : Ref sig .tc := ⟨.hbm, 3093, rfl⟩
abbrev main_v1724 : Ref sig .tc := ⟨.hbm, 3094, rfl⟩
abbrev main_v1725 : Ref sig .tc := ⟨.hbm, 3095, rfl⟩
abbrev main_v1726 : Ref sig .tc := ⟨.hbm, 3096, rfl⟩
abbrev main_v1727 : Ref sig .tc := ⟨.hbm, 3097, rfl⟩
abbrev main_v1728 : Ref sig .tc := ⟨.hbm, 3098, rfl⟩
abbrev main_cst_557 : Ref sig .tc := ⟨.hbm, 3099, rfl⟩
abbrev main_v1729 : Ref sig .tc := ⟨.hbm, 3100, rfl⟩
abbrev main_v1730 : Ref sig .tc := ⟨.hbm, 3101, rfl⟩
abbrev main_cst_558 : Ref sig .tc := ⟨.hbm, 3102, rfl⟩
abbrev main_v1731 : Ref sig .tc := ⟨.hbm, 3103, rfl⟩
abbrev main_v1732 : Ref sig .tc := ⟨.hbm, 3104, rfl⟩
abbrev main_v1733 : Ref sig .tc := ⟨.hbm, 3105, rfl⟩
abbrev main_v1734 : Ref sig .tc := ⟨.hbm, 3106, rfl⟩
abbrev main_v1735 : Ref sig .tc := ⟨.hbm, 3107, rfl⟩
abbrev main_v1736 : Ref sig .tc := ⟨.hbm, 3108, rfl⟩
abbrev main_cst_559 : Ref sig .tc := ⟨.hbm, 3109, rfl⟩
abbrev main_cst_560 : Ref sig .tc := ⟨.hbm, 3110, rfl⟩
abbrev main_call162_v0 : Ref sig .tc := ⟨.hbm, 3111, rfl⟩
abbrev main_call162_v1 : Ref sig .tc := ⟨.hbm, 3112, rfl⟩
abbrev main_call162_v2 : Ref sig .tc := ⟨.hbm, 3113, rfl⟩
abbrev main_call162_v3 : Ref sig .tc := ⟨.hbm, 3114, rfl⟩
abbrev main_call162_v4 : Ref sig .tc := ⟨.hbm, 3115, rfl⟩
abbrev main_v1737 : Ref sig .tc := ⟨.hbm, 3116, rfl⟩
abbrev main_cst_561 : Ref sig .tc := ⟨.hbm, 3117, rfl⟩
abbrev main_cst_562 : Ref sig .tc := ⟨.hbm, 3118, rfl⟩
abbrev main_call163_v0 : Ref sig .tc := ⟨.hbm, 3119, rfl⟩
abbrev main_call163_v1 : Ref sig .tc := ⟨.hbm, 3120, rfl⟩
abbrev main_call163_v2 : Ref sig .tc := ⟨.hbm, 3121, rfl⟩
abbrev main_call163_v3 : Ref sig .tc := ⟨.hbm, 3122, rfl⟩
abbrev main_call163_v4 : Ref sig .tc := ⟨.hbm, 3123, rfl⟩
abbrev main_v1738 : Ref sig .tc := ⟨.hbm, 3124, rfl⟩
abbrev main_v1739 : Ref sig .tc := ⟨.hbm, 3125, rfl⟩
abbrev main_v1740 : Ref sig .tc := ⟨.hbm, 3126, rfl⟩
abbrev main_v1741 : Ref sig .tc := ⟨.hbm, 3127, rfl⟩
abbrev main_v1742 : Ref sig .tc := ⟨.hbm, 3128, rfl⟩
abbrev main_v1743 : Ref sig .tc := ⟨.hbm, 3129, rfl⟩
abbrev main_v1744 : Ref sig .tc := ⟨.hbm, 3130, rfl⟩
abbrev main_v1745 : Ref sig .tc := ⟨.hbm, 3131, rfl⟩
abbrev main_cst_563 : Ref sig .tc := ⟨.hbm, 3132, rfl⟩
abbrev main_v1746 : Ref sig .tc := ⟨.hbm, 3133, rfl⟩
abbrev main_cst_564 : Ref sig .tc := ⟨.hbm, 3134, rfl⟩
abbrev main_v1747 : Ref sig .tc := ⟨.hbm, 3135, rfl⟩
abbrev main_v1748 : Ref sig .tc := ⟨.hbm, 3136, rfl⟩
abbrev main_cst_565 : Ref sig .tc := ⟨.hbm, 3137, rfl⟩
abbrev main_v1749 : Ref sig .tc := ⟨.hbm, 3138, rfl⟩
abbrev main_v1750 : Ref sig .tc := ⟨.hbm, 3139, rfl⟩
abbrev main_v1751 : Ref sig .tc := ⟨.hbm, 3140, rfl⟩
abbrev main_v1752 : Ref sig .tc := ⟨.hbm, 3141, rfl⟩
abbrev main_cst_566 : Ref sig .tc := ⟨.hbm, 3142, rfl⟩
abbrev main_v1753 : Ref sig .tc := ⟨.hbm, 3143, rfl⟩
abbrev main_v1754 : Ref sig .tc := ⟨.hbm, 3144, rfl⟩
abbrev main_v1755 : Ref sig .tc := ⟨.hbm, 3145, rfl⟩
abbrev main_v1756 : Ref sig .tc := ⟨.hbm, 3146, rfl⟩
abbrev main_v1757 : Ref sig .tc := ⟨.hbm, 3147, rfl⟩
abbrev main_v1758 : Ref sig .tc := ⟨.hbm, 3148, rfl⟩
abbrev main_v1759 : Ref sig .tc := ⟨.hbm, 3149, rfl⟩
abbrev main_v1760 : Ref sig .tc := ⟨.hbm, 3150, rfl⟩
abbrev main_v1761 : Ref sig .tc := ⟨.hbm, 3151, rfl⟩
abbrev main_v1762 : Ref sig .tc := ⟨.hbm, 3152, rfl⟩
abbrev main_v1763 : Ref sig .tc := ⟨.hbm, 3153, rfl⟩
abbrev main_v1764 : Ref sig .tc := ⟨.hbm, 3154, rfl⟩
abbrev main_v1765 : Ref sig .tc := ⟨.hbm, 3155, rfl⟩
abbrev main_v1766 : Ref sig .tc := ⟨.hbm, 3156, rfl⟩
abbrev main_v1767 : Ref sig .tc := ⟨.hbm, 3157, rfl⟩
abbrev main_v1768 : Ref sig .tc := ⟨.hbm, 3158, rfl⟩
abbrev main_v1769 : Ref sig .tc := ⟨.hbm, 3159, rfl⟩
abbrev main_cst_567 : Ref sig .tc := ⟨.hbm, 3160, rfl⟩
abbrev main_v1770 : Ref sig .tc := ⟨.hbm, 3161, rfl⟩
abbrev main_v1771 : Ref sig .tc := ⟨.hbm, 3162, rfl⟩
abbrev main_cst_568 : Ref sig .tc := ⟨.hbm, 3163, rfl⟩
abbrev main_v1772 : Ref sig .tc := ⟨.hbm, 3164, rfl⟩
abbrev main_v1773 : Ref sig .tc := ⟨.hbm, 3165, rfl⟩
abbrev main_v1774 : Ref sig .tc := ⟨.hbm, 3166, rfl⟩
abbrev main_v1775 : Ref sig .tc := ⟨.hbm, 3167, rfl⟩
abbrev main_v1776 : Ref sig .tc := ⟨.hbm, 3168, rfl⟩
abbrev main_v1777 : Ref sig .tc := ⟨.hbm, 3169, rfl⟩
abbrev main_cst_569 : Ref sig .tc := ⟨.hbm, 3170, rfl⟩
abbrev main_cst_570 : Ref sig .tc := ⟨.hbm, 3171, rfl⟩
abbrev main_call164_v0 : Ref sig .tc := ⟨.hbm, 3172, rfl⟩
abbrev main_call164_v1 : Ref sig .tc := ⟨.hbm, 3173, rfl⟩
abbrev main_call164_v2 : Ref sig .tc := ⟨.hbm, 3174, rfl⟩
abbrev main_call164_v3 : Ref sig .tc := ⟨.hbm, 3175, rfl⟩
abbrev main_call164_v4 : Ref sig .tc := ⟨.hbm, 3176, rfl⟩
abbrev main_v1778 : Ref sig .tc := ⟨.hbm, 3177, rfl⟩
abbrev main_cst_571 : Ref sig .tc := ⟨.hbm, 3178, rfl⟩
abbrev main_cst_572 : Ref sig .tc := ⟨.hbm, 3179, rfl⟩
abbrev main_call165_v0 : Ref sig .tc := ⟨.hbm, 3180, rfl⟩
abbrev main_call165_v1 : Ref sig .tc := ⟨.hbm, 3181, rfl⟩
abbrev main_call165_v2 : Ref sig .tc := ⟨.hbm, 3182, rfl⟩
abbrev main_call165_v3 : Ref sig .tc := ⟨.hbm, 3183, rfl⟩
abbrev main_call165_v4 : Ref sig .tc := ⟨.hbm, 3184, rfl⟩
abbrev main_v1779 : Ref sig .tc := ⟨.hbm, 3185, rfl⟩
abbrev main_v1780 : Ref sig .tc := ⟨.hbm, 3186, rfl⟩
abbrev main_v1781 : Ref sig .tc := ⟨.hbm, 3187, rfl⟩
abbrev main_v1782 : Ref sig .tc := ⟨.hbm, 3188, rfl⟩
abbrev main_v1783 : Ref sig .tc := ⟨.hbm, 3189, rfl⟩
abbrev main_v1784 : Ref sig .tc := ⟨.hbm, 3190, rfl⟩
abbrev main_v1785 : Ref sig .tc := ⟨.hbm, 3191, rfl⟩
abbrev main_v1786 : Ref sig .tc := ⟨.hbm, 3192, rfl⟩
abbrev main_v1787 : Ref sig .tc := ⟨.hbm, 3193, rfl⟩
abbrev main_v1788 : Ref sig .tc := ⟨.hbm, 3194, rfl⟩
abbrev main_cst_573 : Ref sig .tc := ⟨.hbm, 3195, rfl⟩
abbrev main_cst_574 : Ref sig .tc := ⟨.hbm, 3196, rfl⟩
abbrev main_call166_v0 : Ref sig .tc := ⟨.hbm, 3197, rfl⟩
abbrev main_call166_v1 : Ref sig .tc := ⟨.hbm, 3198, rfl⟩
abbrev main_call166_v2 : Ref sig .tc := ⟨.hbm, 3199, rfl⟩
abbrev main_call166_v3 : Ref sig .tc := ⟨.hbm, 3200, rfl⟩
abbrev main_call166_v4 : Ref sig .tc := ⟨.hbm, 3201, rfl⟩
abbrev main_v1789 : Ref sig .tc := ⟨.hbm, 3202, rfl⟩
abbrev main_cst_575 : Ref sig .tc := ⟨.hbm, 3203, rfl⟩
abbrev main_cst_576 : Ref sig .tc := ⟨.hbm, 3204, rfl⟩
abbrev main_call167_v0 : Ref sig .tc := ⟨.hbm, 3205, rfl⟩
abbrev main_call167_v1 : Ref sig .tc := ⟨.hbm, 3206, rfl⟩
abbrev main_call167_v2 : Ref sig .tc := ⟨.hbm, 3207, rfl⟩
abbrev main_call167_v3 : Ref sig .tc := ⟨.hbm, 3208, rfl⟩
abbrev main_call167_v4 : Ref sig .tc := ⟨.hbm, 3209, rfl⟩
abbrev main_v1790 : Ref sig .tc := ⟨.hbm, 3210, rfl⟩
abbrev main_v1791 : Ref sig .tc := ⟨.hbm, 3211, rfl⟩
abbrev main_v1792 : Ref sig .tc := ⟨.hbm, 3212, rfl⟩
abbrev main_v1793 : Ref sig .tc := ⟨.hbm, 3213, rfl⟩
abbrev main_v1794 : Ref sig .tc := ⟨.hbm, 3214, rfl⟩
abbrev main_v1795 : Ref sig .tc := ⟨.hbm, 3215, rfl⟩
abbrev main_v1796 : Ref sig .tc := ⟨.hbm, 3216, rfl⟩
abbrev main_v1797 : Ref sig .tc := ⟨.hbm, 3217, rfl⟩
abbrev main_v1798 : Ref sig .tc := ⟨.hbm, 3218, rfl⟩
abbrev main_v1799 : Ref sig .tc := ⟨.hbm, 3219, rfl⟩
abbrev main_cst_577 : Ref sig .tc := ⟨.hbm, 3220, rfl⟩
abbrev main_cst_578 : Ref sig .tc := ⟨.hbm, 3221, rfl⟩
abbrev main_call168_v0 : Ref sig .tc := ⟨.hbm, 3222, rfl⟩
abbrev main_call168_v1 : Ref sig .tc := ⟨.hbm, 3223, rfl⟩
abbrev main_call168_v2 : Ref sig .tc := ⟨.hbm, 3224, rfl⟩
abbrev main_call168_v3 : Ref sig .tc := ⟨.hbm, 3225, rfl⟩
abbrev main_call168_v4 : Ref sig .tc := ⟨.hbm, 3226, rfl⟩
abbrev main_v1800 : Ref sig .tc := ⟨.hbm, 3227, rfl⟩
abbrev main_cst_579 : Ref sig .tc := ⟨.hbm, 3228, rfl⟩
abbrev main_cst_580 : Ref sig .tc := ⟨.hbm, 3229, rfl⟩
abbrev main_call169_v0 : Ref sig .tc := ⟨.hbm, 3230, rfl⟩
abbrev main_call169_v1 : Ref sig .tc := ⟨.hbm, 3231, rfl⟩
abbrev main_call169_v2 : Ref sig .tc := ⟨.hbm, 3232, rfl⟩
abbrev main_call169_v3 : Ref sig .tc := ⟨.hbm, 3233, rfl⟩
abbrev main_call169_v4 : Ref sig .tc := ⟨.hbm, 3234, rfl⟩
abbrev main_v1801 : Ref sig .tc := ⟨.hbm, 3235, rfl⟩
abbrev main_v1802 : Ref sig .tc := ⟨.hbm, 3236, rfl⟩
abbrev main_v1803 : Ref sig .tc := ⟨.hbm, 3237, rfl⟩
abbrev main_v1804 : Ref sig .tc := ⟨.hbm, 3238, rfl⟩
abbrev main_v1805 : Ref sig .tc := ⟨.hbm, 3239, rfl⟩
abbrev main_v1806 : Ref sig .tc := ⟨.hbm, 3240, rfl⟩
abbrev main_v1807 : Ref sig .tc := ⟨.hbm, 3241, rfl⟩
abbrev main_v1808 : Ref sig .tc := ⟨.hbm, 3242, rfl⟩
abbrev main_v1809 : Ref sig .tc := ⟨.hbm, 3243, rfl⟩
abbrev main_v1810 : Ref sig .tc := ⟨.hbm, 3244, rfl⟩
abbrev main_cst_581 : Ref sig .tc := ⟨.hbm, 3245, rfl⟩
abbrev main_cst_582 : Ref sig .tc := ⟨.hbm, 3246, rfl⟩
abbrev main_call170_v0 : Ref sig .tc := ⟨.hbm, 3247, rfl⟩
abbrev main_call170_v1 : Ref sig .tc := ⟨.hbm, 3248, rfl⟩
abbrev main_call170_v2 : Ref sig .tc := ⟨.hbm, 3249, rfl⟩
abbrev main_call170_v3 : Ref sig .tc := ⟨.hbm, 3250, rfl⟩
abbrev main_call170_v4 : Ref sig .tc := ⟨.hbm, 3251, rfl⟩
abbrev main_v1811 : Ref sig .tc := ⟨.hbm, 3252, rfl⟩
abbrev main_cst_583 : Ref sig .tc := ⟨.hbm, 3253, rfl⟩
abbrev main_cst_584 : Ref sig .tc := ⟨.hbm, 3254, rfl⟩
abbrev main_call171_v0 : Ref sig .tc := ⟨.hbm, 3255, rfl⟩
abbrev main_call171_v1 : Ref sig .tc := ⟨.hbm, 3256, rfl⟩
abbrev main_call171_v2 : Ref sig .tc := ⟨.hbm, 3257, rfl⟩
abbrev main_call171_v3 : Ref sig .tc := ⟨.hbm, 3258, rfl⟩
abbrev main_call171_v4 : Ref sig .tc := ⟨.hbm, 3259, rfl⟩
abbrev main_v1812 : Ref sig .tc := ⟨.hbm, 3260, rfl⟩
abbrev main_v1813 : Ref sig .tc := ⟨.hbm, 3261, rfl⟩
abbrev main_v1814 : Ref sig .tc := ⟨.hbm, 3262, rfl⟩
abbrev main_v1815 : Ref sig .tc := ⟨.hbm, 3263, rfl⟩
abbrev main_v1816 : Ref sig .tc := ⟨.hbm, 3264, rfl⟩
abbrev main_v1817 : Ref sig .tc := ⟨.hbm, 3265, rfl⟩
abbrev main_v1818 : Ref sig .tc := ⟨.hbm, 3266, rfl⟩
abbrev main_v1819 : Ref sig .tc := ⟨.hbm, 3267, rfl⟩
abbrev main_cst_585 : Ref sig .tc := ⟨.hbm, 3268, rfl⟩
abbrev main_v1820 : Ref sig .tc := ⟨.hbm, 3269, rfl⟩
abbrev main_cst_586 : Ref sig .tc := ⟨.hbm, 3270, rfl⟩
abbrev main_v1821 : Ref sig .tc := ⟨.hbm, 3271, rfl⟩
abbrev main_v1822 : Ref sig .tc := ⟨.hbm, 3272, rfl⟩
abbrev main_cst_587 : Ref sig .tc := ⟨.hbm, 3273, rfl⟩
abbrev main_v1823 : Ref sig .tc := ⟨.hbm, 3274, rfl⟩
abbrev main_v1824 : Ref sig .tc := ⟨.hbm, 3275, rfl⟩
abbrev main_v1825 : Ref sig .tc := ⟨.hbm, 3276, rfl⟩
abbrev main_v1826 : Ref sig .tc := ⟨.hbm, 3277, rfl⟩
abbrev main_cst_588 : Ref sig .tc := ⟨.hbm, 3278, rfl⟩
abbrev main_v1827 : Ref sig .tc := ⟨.hbm, 3279, rfl⟩
abbrev main_v1828 : Ref sig .tc := ⟨.hbm, 3280, rfl⟩
abbrev main_v1829 : Ref sig .tc := ⟨.hbm, 3281, rfl⟩
abbrev main_v1830 : Ref sig .tc := ⟨.hbm, 3282, rfl⟩
abbrev main_v1831 : Ref sig .tc := ⟨.hbm, 3283, rfl⟩
abbrev main_cst_589 : Ref sig .tc := ⟨.hbm, 3284, rfl⟩
abbrev main_v1832 : Ref sig .tc := ⟨.hbm, 3285, rfl⟩
abbrev main_v1833 : Ref sig .tc := ⟨.hbm, 3286, rfl⟩
abbrev main_cst_590 : Ref sig .tc := ⟨.hbm, 3287, rfl⟩
abbrev main_v1834 : Ref sig .tc := ⟨.hbm, 3288, rfl⟩
abbrev main_v1835 : Ref sig .tc := ⟨.hbm, 3289, rfl⟩
abbrev main_v1836 : Ref sig .tc := ⟨.hbm, 3290, rfl⟩
abbrev main_v1837 : Ref sig .tc := ⟨.hbm, 3291, rfl⟩
abbrev main_v1838 : Ref sig .tc := ⟨.hbm, 3292, rfl⟩
abbrev main_v1839 : Ref sig .tc := ⟨.hbm, 3293, rfl⟩
abbrev main_cst_591 : Ref sig .tc := ⟨.hbm, 3294, rfl⟩
abbrev main_cst_592 : Ref sig .tc := ⟨.hbm, 3295, rfl⟩
abbrev main_call172_v0 : Ref sig .tc := ⟨.hbm, 3296, rfl⟩
abbrev main_call172_v1 : Ref sig .tc := ⟨.hbm, 3297, rfl⟩
abbrev main_call172_v2 : Ref sig .tc := ⟨.hbm, 3298, rfl⟩
abbrev main_call172_v3 : Ref sig .tc := ⟨.hbm, 3299, rfl⟩
abbrev main_call172_v4 : Ref sig .tc := ⟨.hbm, 3300, rfl⟩
abbrev main_v1840 : Ref sig .tc := ⟨.hbm, 3301, rfl⟩
abbrev main_cst_593 : Ref sig .tc := ⟨.hbm, 3302, rfl⟩
abbrev main_cst_594 : Ref sig .tc := ⟨.hbm, 3303, rfl⟩
abbrev main_call173_v0 : Ref sig .tc := ⟨.hbm, 3304, rfl⟩
abbrev main_call173_v1 : Ref sig .tc := ⟨.hbm, 3305, rfl⟩
abbrev main_call173_v2 : Ref sig .tc := ⟨.hbm, 3306, rfl⟩
abbrev main_call173_v3 : Ref sig .tc := ⟨.hbm, 3307, rfl⟩
abbrev main_call173_v4 : Ref sig .tc := ⟨.hbm, 3308, rfl⟩
abbrev main_v1841 : Ref sig .tc := ⟨.hbm, 3309, rfl⟩
abbrev main_v1842 : Ref sig .tc := ⟨.hbm, 3310, rfl⟩
abbrev main_v1843 : Ref sig .tc := ⟨.hbm, 3311, rfl⟩
abbrev main_v1844 : Ref sig .tc := ⟨.hbm, 3312, rfl⟩
abbrev main_v1845 : Ref sig .tc := ⟨.hbm, 3313, rfl⟩
abbrev main_v1846 : Ref sig .tc := ⟨.hbm, 3314, rfl⟩
abbrev main_v1847 : Ref sig .tc := ⟨.hbm, 3315, rfl⟩
abbrev main_v1848 : Ref sig .tc := ⟨.hbm, 3316, rfl⟩
abbrev main_cst_595 : Ref sig .tc := ⟨.hbm, 3317, rfl⟩
abbrev main_v1849 : Ref sig .tc := ⟨.hbm, 3318, rfl⟩
abbrev main_cst_596 : Ref sig .tc := ⟨.hbm, 3319, rfl⟩
abbrev main_v1850 : Ref sig .tc := ⟨.hbm, 3320, rfl⟩
abbrev main_v1851 : Ref sig .tc := ⟨.hbm, 3321, rfl⟩
abbrev main_cst_597 : Ref sig .tc := ⟨.hbm, 3322, rfl⟩
abbrev main_v1852 : Ref sig .tc := ⟨.hbm, 3323, rfl⟩
abbrev main_v1853 : Ref sig .tc := ⟨.hbm, 3324, rfl⟩
abbrev main_v1854 : Ref sig .tc := ⟨.hbm, 3325, rfl⟩
abbrev main_v1855 : Ref sig .tc := ⟨.hbm, 3326, rfl⟩
abbrev main_cst_598 : Ref sig .tc := ⟨.hbm, 3327, rfl⟩
abbrev main_v1856 : Ref sig .tc := ⟨.hbm, 3328, rfl⟩
abbrev main_v1857 : Ref sig .tc := ⟨.hbm, 3329, rfl⟩
abbrev main_v1858 : Ref sig .tc := ⟨.hbm, 3330, rfl⟩
abbrev main_v1859 : Ref sig .tc := ⟨.hbm, 3331, rfl⟩
abbrev main_v1860 : Ref sig .tc := ⟨.hbm, 3332, rfl⟩
abbrev main_v1861 : Ref sig .tc := ⟨.hbm, 3333, rfl⟩
abbrev main_v1862 : Ref sig .tc := ⟨.hbm, 3334, rfl⟩
abbrev main_v1863 : Ref sig .tc := ⟨.hbm, 3335, rfl⟩
abbrev main_v1864 : Ref sig .tc := ⟨.hbm, 3336, rfl⟩
abbrev main_cst_599 : Ref sig .tc := ⟨.hbm, 3337, rfl⟩
abbrev main_v1865 : Ref sig .tc := ⟨.hbm, 3338, rfl⟩
abbrev main_v1866 : Ref sig .tc := ⟨.hbm, 3339, rfl⟩
abbrev main_cst_600 : Ref sig .tc := ⟨.hbm, 3340, rfl⟩
abbrev main_v1867 : Ref sig .tc := ⟨.hbm, 3341, rfl⟩
abbrev main_v1868 : Ref sig .tc := ⟨.hbm, 3342, rfl⟩
abbrev main_v1869 : Ref sig .tc := ⟨.hbm, 3343, rfl⟩
abbrev main_v1870 : Ref sig .tc := ⟨.hbm, 3344, rfl⟩
abbrev main_v1871 : Ref sig .tc := ⟨.hbm, 3345, rfl⟩
abbrev main_v1872 : Ref sig .tc := ⟨.hbm, 3346, rfl⟩
abbrev main_cst_601 : Ref sig .tc := ⟨.hbm, 3347, rfl⟩
abbrev main_cst_602 : Ref sig .tc := ⟨.hbm, 3348, rfl⟩
abbrev main_call174_v0 : Ref sig .tc := ⟨.hbm, 3349, rfl⟩
abbrev main_call174_v1 : Ref sig .tc := ⟨.hbm, 3350, rfl⟩
abbrev main_call174_v2 : Ref sig .tc := ⟨.hbm, 3351, rfl⟩
abbrev main_call174_v3 : Ref sig .tc := ⟨.hbm, 3352, rfl⟩
abbrev main_call174_v4 : Ref sig .tc := ⟨.hbm, 3353, rfl⟩
abbrev main_v1873 : Ref sig .tc := ⟨.hbm, 3354, rfl⟩
abbrev main_cst_603 : Ref sig .tc := ⟨.hbm, 3355, rfl⟩
abbrev main_cst_604 : Ref sig .tc := ⟨.hbm, 3356, rfl⟩
abbrev main_call175_v0 : Ref sig .tc := ⟨.hbm, 3357, rfl⟩
abbrev main_call175_v1 : Ref sig .tc := ⟨.hbm, 3358, rfl⟩
abbrev main_call175_v2 : Ref sig .tc := ⟨.hbm, 3359, rfl⟩
abbrev main_call175_v3 : Ref sig .tc := ⟨.hbm, 3360, rfl⟩
abbrev main_call175_v4 : Ref sig .tc := ⟨.hbm, 3361, rfl⟩
abbrev main_v1874 : Ref sig .tc := ⟨.hbm, 3362, rfl⟩
abbrev main_v1875 : Ref sig .tc := ⟨.hbm, 3363, rfl⟩
abbrev main_v1876 : Ref sig .tc := ⟨.hbm, 3364, rfl⟩
abbrev main_v1877 : Ref sig .tc := ⟨.hbm, 3365, rfl⟩
abbrev main_v1878 : Ref sig .tc := ⟨.hbm, 3366, rfl⟩
abbrev main_v1879 : Ref sig .tc := ⟨.hbm, 3367, rfl⟩
abbrev main_v1880 : Ref sig .tc := ⟨.hbm, 3368, rfl⟩
abbrev main_v1881 : Ref sig .tc := ⟨.hbm, 3369, rfl⟩
abbrev main_v1882 : Ref sig .tc := ⟨.hbm, 3370, rfl⟩
abbrev main_v1883 : Ref sig .tc := ⟨.hbm, 3371, rfl⟩
abbrev main_cst_605 : Ref sig .tc := ⟨.hbm, 3372, rfl⟩
abbrev main_cst_606 : Ref sig .tc := ⟨.hbm, 3373, rfl⟩
abbrev main_call176_v0 : Ref sig .tc := ⟨.hbm, 3374, rfl⟩
abbrev main_call176_v1 : Ref sig .tc := ⟨.hbm, 3375, rfl⟩
abbrev main_call176_v2 : Ref sig .tc := ⟨.hbm, 3376, rfl⟩
abbrev main_call176_v3 : Ref sig .tc := ⟨.hbm, 3377, rfl⟩
abbrev main_call176_v4 : Ref sig .tc := ⟨.hbm, 3378, rfl⟩
abbrev main_v1884 : Ref sig .tc := ⟨.hbm, 3379, rfl⟩
abbrev main_cst_607 : Ref sig .tc := ⟨.hbm, 3380, rfl⟩
abbrev main_cst_608 : Ref sig .tc := ⟨.hbm, 3381, rfl⟩
abbrev main_call177_v0 : Ref sig .tc := ⟨.hbm, 3382, rfl⟩
abbrev main_call177_v1 : Ref sig .tc := ⟨.hbm, 3383, rfl⟩
abbrev main_call177_v2 : Ref sig .tc := ⟨.hbm, 3384, rfl⟩
abbrev main_call177_v3 : Ref sig .tc := ⟨.hbm, 3385, rfl⟩
abbrev main_call177_v4 : Ref sig .tc := ⟨.hbm, 3386, rfl⟩
abbrev main_v1885 : Ref sig .tc := ⟨.hbm, 3387, rfl⟩
abbrev main_v1886 : Ref sig .tc := ⟨.hbm, 3388, rfl⟩
abbrev main_v1887 : Ref sig .tc := ⟨.hbm, 3389, rfl⟩
abbrev main_v1888 : Ref sig .tc := ⟨.hbm, 3390, rfl⟩
abbrev main_v1889 : Ref sig .tc := ⟨.hbm, 3391, rfl⟩
abbrev main_v1890 : Ref sig .tc := ⟨.hbm, 3392, rfl⟩
abbrev main_v1891 : Ref sig .tc := ⟨.hbm, 3393, rfl⟩
abbrev main_v1892 : Ref sig .tc := ⟨.hbm, 3394, rfl⟩
abbrev main_cst_609 : Ref sig .tc := ⟨.hbm, 3395, rfl⟩
abbrev main_v1893 : Ref sig .tc := ⟨.hbm, 3396, rfl⟩
abbrev main_cst_610 : Ref sig .tc := ⟨.hbm, 3397, rfl⟩
abbrev main_v1894 : Ref sig .tc := ⟨.hbm, 3398, rfl⟩
abbrev main_v1895 : Ref sig .tc := ⟨.hbm, 3399, rfl⟩
abbrev main_cst_611 : Ref sig .tc := ⟨.hbm, 3400, rfl⟩
abbrev main_v1896 : Ref sig .tc := ⟨.hbm, 3401, rfl⟩
abbrev main_v1897 : Ref sig .tc := ⟨.hbm, 3402, rfl⟩
abbrev main_v1898 : Ref sig .tc := ⟨.hbm, 3403, rfl⟩
abbrev main_v1899 : Ref sig .tc := ⟨.hbm, 3404, rfl⟩
abbrev main_cst_612 : Ref sig .tc := ⟨.hbm, 3405, rfl⟩
abbrev main_v1900 : Ref sig .tc := ⟨.hbm, 3406, rfl⟩
abbrev main_v1901 : Ref sig .tc := ⟨.hbm, 3407, rfl⟩
abbrev main_v1902 : Ref sig .tc := ⟨.hbm, 3408, rfl⟩
abbrev main_v1903 : Ref sig .tc := ⟨.hbm, 3409, rfl⟩
abbrev main_v1904 : Ref sig .tc := ⟨.hbm, 3410, rfl⟩
abbrev main_cst_613 : Ref sig .tc := ⟨.hbm, 3411, rfl⟩
abbrev main_v1905 : Ref sig .tc := ⟨.hbm, 3412, rfl⟩
abbrev main_v1906 : Ref sig .tc := ⟨.hbm, 3413, rfl⟩
abbrev main_cst_614 : Ref sig .tc := ⟨.hbm, 3414, rfl⟩
abbrev main_v1907 : Ref sig .tc := ⟨.hbm, 3415, rfl⟩
abbrev main_v1908 : Ref sig .tc := ⟨.hbm, 3416, rfl⟩
abbrev main_v1909 : Ref sig .tc := ⟨.hbm, 3417, rfl⟩
abbrev main_v1910 : Ref sig .tc := ⟨.hbm, 3418, rfl⟩
abbrev main_v1911 : Ref sig .tc := ⟨.hbm, 3419, rfl⟩
abbrev main_v1912 : Ref sig .tc := ⟨.hbm, 3420, rfl⟩
abbrev main_cst_615 : Ref sig .tc := ⟨.hbm, 3421, rfl⟩
abbrev main_cst_616 : Ref sig .tc := ⟨.hbm, 3422, rfl⟩
abbrev main_call178_v0 : Ref sig .tc := ⟨.hbm, 3423, rfl⟩
abbrev main_call178_v1 : Ref sig .tc := ⟨.hbm, 3424, rfl⟩
abbrev main_call178_v2 : Ref sig .tc := ⟨.hbm, 3425, rfl⟩
abbrev main_call178_v3 : Ref sig .tc := ⟨.hbm, 3426, rfl⟩
abbrev main_call178_v4 : Ref sig .tc := ⟨.hbm, 3427, rfl⟩
abbrev main_v1913 : Ref sig .tc := ⟨.hbm, 3428, rfl⟩
abbrev main_cst_617 : Ref sig .tc := ⟨.hbm, 3429, rfl⟩
abbrev main_cst_618 : Ref sig .tc := ⟨.hbm, 3430, rfl⟩
abbrev main_call179_v0 : Ref sig .tc := ⟨.hbm, 3431, rfl⟩
abbrev main_call179_v1 : Ref sig .tc := ⟨.hbm, 3432, rfl⟩
abbrev main_call179_v2 : Ref sig .tc := ⟨.hbm, 3433, rfl⟩
abbrev main_call179_v3 : Ref sig .tc := ⟨.hbm, 3434, rfl⟩
abbrev main_call179_v4 : Ref sig .tc := ⟨.hbm, 3435, rfl⟩
abbrev main_v1914 : Ref sig .tc := ⟨.hbm, 3436, rfl⟩
abbrev main_v1915 : Ref sig .tc := ⟨.hbm, 3437, rfl⟩
abbrev main_v1916 : Ref sig .tc := ⟨.hbm, 3438, rfl⟩
abbrev main_v1917 : Ref sig .tc := ⟨.hbm, 3439, rfl⟩
abbrev main_v1918 : Ref sig .tc := ⟨.hbm, 3440, rfl⟩
abbrev main_v1919 : Ref sig .tc := ⟨.hbm, 3441, rfl⟩
abbrev main_v1920 : Ref sig .tc := ⟨.hbm, 3442, rfl⟩
abbrev main_v1921 : Ref sig .tc := ⟨.hbm, 3443, rfl⟩
abbrev main_cst_619 : Ref sig .tc := ⟨.hbm, 3444, rfl⟩
abbrev main_v1922 : Ref sig .tc := ⟨.hbm, 3445, rfl⟩
abbrev main_cst_620 : Ref sig .tc := ⟨.hbm, 3446, rfl⟩
abbrev main_v1923 : Ref sig .tc := ⟨.hbm, 3447, rfl⟩
abbrev main_v1924 : Ref sig .tc := ⟨.hbm, 3448, rfl⟩
abbrev main_cst_621 : Ref sig .tc := ⟨.hbm, 3449, rfl⟩
abbrev main_v1925 : Ref sig .tc := ⟨.hbm, 3450, rfl⟩
abbrev main_v1926 : Ref sig .tc := ⟨.hbm, 3451, rfl⟩
abbrev main_v1927 : Ref sig .tc := ⟨.hbm, 3452, rfl⟩
abbrev main_v1928 : Ref sig .tc := ⟨.hbm, 3453, rfl⟩
abbrev main_cst_622 : Ref sig .tc := ⟨.hbm, 3454, rfl⟩
abbrev main_v1929 : Ref sig .tc := ⟨.hbm, 3455, rfl⟩
abbrev main_v1930 : Ref sig .tc := ⟨.hbm, 3456, rfl⟩
abbrev main_v1931 : Ref sig .tc := ⟨.hbm, 3457, rfl⟩
abbrev main_v1932 : Ref sig .tc := ⟨.hbm, 3458, rfl⟩
abbrev main_v1933 : Ref sig .tc := ⟨.hbm, 3459, rfl⟩
abbrev main_v1934 : Ref sig .tc := ⟨.hbm, 3460, rfl⟩
abbrev main_v1935 : Ref sig .tc := ⟨.hbm, 3461, rfl⟩
abbrev main_v1936 : Ref sig .tc := ⟨.hbm, 3462, rfl⟩
abbrev main_v1937 : Ref sig .tc := ⟨.hbm, 3463, rfl⟩
abbrev main_v1938 : Ref sig .tc := ⟨.hbm, 3464, rfl⟩
abbrev main_v1939 : Ref sig .tc := ⟨.hbm, 3465, rfl⟩
abbrev main_v1940 : Ref sig .tc := ⟨.hbm, 3466, rfl⟩
abbrev main_v1941 : Ref sig .tc := ⟨.hbm, 3467, rfl⟩
abbrev main_cst_623 : Ref sig .tc := ⟨.hbm, 3468, rfl⟩
abbrev main_v1942 : Ref sig .tc := ⟨.hbm, 3469, rfl⟩
abbrev main_v1943 : Ref sig .tc := ⟨.hbm, 3470, rfl⟩
abbrev main_cst_624 : Ref sig .tc := ⟨.hbm, 3471, rfl⟩
abbrev main_v1944 : Ref sig .tc := ⟨.hbm, 3472, rfl⟩
abbrev main_v1945 : Ref sig .tc := ⟨.hbm, 3473, rfl⟩
abbrev main_v1946 : Ref sig .tc := ⟨.hbm, 3474, rfl⟩
abbrev main_v1947 : Ref sig .tc := ⟨.hbm, 3475, rfl⟩
abbrev main_v1948 : Ref sig .tc := ⟨.hbm, 3476, rfl⟩
abbrev main_v1949 : Ref sig .tc := ⟨.hbm, 3477, rfl⟩
abbrev main_cst_625 : Ref sig .tc := ⟨.hbm, 3478, rfl⟩
abbrev main_cst_626 : Ref sig .tc := ⟨.hbm, 3479, rfl⟩
abbrev main_call180_v0 : Ref sig .tc := ⟨.hbm, 3480, rfl⟩
abbrev main_call180_v1 : Ref sig .tc := ⟨.hbm, 3481, rfl⟩
abbrev main_call180_v2 : Ref sig .tc := ⟨.hbm, 3482, rfl⟩
abbrev main_call180_v3 : Ref sig .tc := ⟨.hbm, 3483, rfl⟩
abbrev main_call180_v4 : Ref sig .tc := ⟨.hbm, 3484, rfl⟩
abbrev main_v1950 : Ref sig .tc := ⟨.hbm, 3485, rfl⟩
abbrev main_cst_627 : Ref sig .tc := ⟨.hbm, 3486, rfl⟩
abbrev main_cst_628 : Ref sig .tc := ⟨.hbm, 3487, rfl⟩
abbrev main_call181_v0 : Ref sig .tc := ⟨.hbm, 3488, rfl⟩
abbrev main_call181_v1 : Ref sig .tc := ⟨.hbm, 3489, rfl⟩
abbrev main_call181_v2 : Ref sig .tc := ⟨.hbm, 3490, rfl⟩
abbrev main_call181_v3 : Ref sig .tc := ⟨.hbm, 3491, rfl⟩
abbrev main_call181_v4 : Ref sig .tc := ⟨.hbm, 3492, rfl⟩
abbrev main_v1951 : Ref sig .tc := ⟨.hbm, 3493, rfl⟩
abbrev main_v1952 : Ref sig .tc := ⟨.hbm, 3494, rfl⟩
abbrev main_v1953 : Ref sig .tc := ⟨.hbm, 3495, rfl⟩
abbrev main_v1954 : Ref sig .tc := ⟨.hbm, 3496, rfl⟩
abbrev main_v1955 : Ref sig .tc := ⟨.hbm, 3497, rfl⟩
abbrev main_v1956 : Ref sig .tc := ⟨.hbm, 3498, rfl⟩
abbrev main_v1957 : Ref sig .tc := ⟨.hbm, 3499, rfl⟩
abbrev main_v1958 : Ref sig .tc := ⟨.hbm, 3500, rfl⟩
abbrev main_v1959 : Ref sig .tc := ⟨.hbm, 3501, rfl⟩
abbrev main_v1960 : Ref sig .tc := ⟨.hbm, 3502, rfl⟩
abbrev main_cst_629 : Ref sig .tc := ⟨.hbm, 3503, rfl⟩
abbrev main_cst_630 : Ref sig .tc := ⟨.hbm, 3504, rfl⟩
abbrev main_call182_v0 : Ref sig .tc := ⟨.hbm, 3505, rfl⟩
abbrev main_call182_v1 : Ref sig .tc := ⟨.hbm, 3506, rfl⟩
abbrev main_call182_v2 : Ref sig .tc := ⟨.hbm, 3507, rfl⟩
abbrev main_call182_v3 : Ref sig .tc := ⟨.hbm, 3508, rfl⟩
abbrev main_call182_v4 : Ref sig .tc := ⟨.hbm, 3509, rfl⟩
abbrev main_v1961 : Ref sig .tc := ⟨.hbm, 3510, rfl⟩
abbrev main_cst_631 : Ref sig .tc := ⟨.hbm, 3511, rfl⟩
abbrev main_cst_632 : Ref sig .tc := ⟨.hbm, 3512, rfl⟩
abbrev main_call183_v0 : Ref sig .tc := ⟨.hbm, 3513, rfl⟩
abbrev main_call183_v1 : Ref sig .tc := ⟨.hbm, 3514, rfl⟩
abbrev main_call183_v2 : Ref sig .tc := ⟨.hbm, 3515, rfl⟩
abbrev main_call183_v3 : Ref sig .tc := ⟨.hbm, 3516, rfl⟩
abbrev main_call183_v4 : Ref sig .tc := ⟨.hbm, 3517, rfl⟩
abbrev main_v1962 : Ref sig .tc := ⟨.hbm, 3518, rfl⟩
abbrev main_v1963 : Ref sig .tc := ⟨.hbm, 3519, rfl⟩
abbrev main_v1964 : Ref sig .tc := ⟨.hbm, 3520, rfl⟩
abbrev main_v1965 : Ref sig .tc := ⟨.hbm, 3521, rfl⟩
abbrev main_v1966 : Ref sig .tc := ⟨.hbm, 3522, rfl⟩
abbrev main_v1967 : Ref sig .tc := ⟨.hbm, 3523, rfl⟩
abbrev main_v1968 : Ref sig .tc := ⟨.hbm, 3524, rfl⟩
abbrev main_v1969 : Ref sig .tc := ⟨.hbm, 3525, rfl⟩
abbrev main_v1970 : Ref sig .tc := ⟨.hbm, 3526, rfl⟩
abbrev main_v1971 : Ref sig .tc := ⟨.hbm, 3527, rfl⟩
abbrev main_cst_633 : Ref sig .tc := ⟨.hbm, 3528, rfl⟩
abbrev main_cst_634 : Ref sig .tc := ⟨.hbm, 3529, rfl⟩
abbrev main_call184_v0 : Ref sig .tc := ⟨.hbm, 3530, rfl⟩
abbrev main_call184_v1 : Ref sig .tc := ⟨.hbm, 3531, rfl⟩
abbrev main_call184_v2 : Ref sig .tc := ⟨.hbm, 3532, rfl⟩
abbrev main_call184_v3 : Ref sig .tc := ⟨.hbm, 3533, rfl⟩
abbrev main_call184_v4 : Ref sig .tc := ⟨.hbm, 3534, rfl⟩
abbrev main_v1972 : Ref sig .tc := ⟨.hbm, 3535, rfl⟩
abbrev main_cst_635 : Ref sig .tc := ⟨.hbm, 3536, rfl⟩
abbrev main_cst_636 : Ref sig .tc := ⟨.hbm, 3537, rfl⟩
abbrev main_call185_v0 : Ref sig .tc := ⟨.hbm, 3538, rfl⟩
abbrev main_call185_v1 : Ref sig .tc := ⟨.hbm, 3539, rfl⟩
abbrev main_call185_v2 : Ref sig .tc := ⟨.hbm, 3540, rfl⟩
abbrev main_call185_v3 : Ref sig .tc := ⟨.hbm, 3541, rfl⟩
abbrev main_call185_v4 : Ref sig .tc := ⟨.hbm, 3542, rfl⟩
abbrev main_v1973 : Ref sig .tc := ⟨.hbm, 3543, rfl⟩
abbrev main_v1974 : Ref sig .tc := ⟨.hbm, 3544, rfl⟩
abbrev main_v1975 : Ref sig .tc := ⟨.hbm, 3545, rfl⟩
abbrev main_v1976 : Ref sig .tc := ⟨.hbm, 3546, rfl⟩
abbrev main_v1977 : Ref sig .tc := ⟨.hbm, 3547, rfl⟩
abbrev main_v1978 : Ref sig .tc := ⟨.hbm, 3548, rfl⟩
abbrev main_v1979 : Ref sig .tc := ⟨.hbm, 3549, rfl⟩
abbrev main_v1980 : Ref sig .tc := ⟨.hbm, 3550, rfl⟩
abbrev main_cst_637 : Ref sig .tc := ⟨.hbm, 3551, rfl⟩
abbrev main_v1981 : Ref sig .tc := ⟨.hbm, 3552, rfl⟩
abbrev main_cst_638 : Ref sig .tc := ⟨.hbm, 3553, rfl⟩
abbrev main_v1982 : Ref sig .tc := ⟨.hbm, 3554, rfl⟩
abbrev main_v1983 : Ref sig .tc := ⟨.hbm, 3555, rfl⟩
abbrev main_cst_639 : Ref sig .tc := ⟨.hbm, 3556, rfl⟩
abbrev main_v1984 : Ref sig .tc := ⟨.hbm, 3557, rfl⟩
abbrev main_v1985 : Ref sig .tc := ⟨.hbm, 3558, rfl⟩
abbrev main_v1986 : Ref sig .tc := ⟨.hbm, 3559, rfl⟩
abbrev main_v1987 : Ref sig .tc := ⟨.hbm, 3560, rfl⟩
abbrev main_cst_640 : Ref sig .tc := ⟨.hbm, 3561, rfl⟩
abbrev main_v1988 : Ref sig .tc := ⟨.hbm, 3562, rfl⟩
abbrev main_v1989 : Ref sig .tc := ⟨.hbm, 3563, rfl⟩
abbrev main_v1990 : Ref sig .tc := ⟨.hbm, 3564, rfl⟩
abbrev main_v1991 : Ref sig .tc := ⟨.hbm, 3565, rfl⟩
abbrev main_v1992 : Ref sig .tc := ⟨.hbm, 3566, rfl⟩
abbrev main_cst_641 : Ref sig .tc := ⟨.hbm, 3567, rfl⟩
abbrev main_v1993 : Ref sig .tc := ⟨.hbm, 3568, rfl⟩
abbrev main_v1994 : Ref sig .tc := ⟨.hbm, 3569, rfl⟩
abbrev main_cst_642 : Ref sig .tc := ⟨.hbm, 3570, rfl⟩
abbrev main_v1995 : Ref sig .tc := ⟨.hbm, 3571, rfl⟩
abbrev main_v1996 : Ref sig .tc := ⟨.hbm, 3572, rfl⟩
abbrev main_v1997 : Ref sig .tc := ⟨.hbm, 3573, rfl⟩
abbrev main_v1998 : Ref sig .tc := ⟨.hbm, 3574, rfl⟩
abbrev main_v1999 : Ref sig .tc := ⟨.hbm, 3575, rfl⟩
abbrev main_v2000 : Ref sig .tc := ⟨.hbm, 3576, rfl⟩
abbrev main_cst_643 : Ref sig .tc := ⟨.hbm, 3577, rfl⟩
abbrev main_cst_644 : Ref sig .tc := ⟨.hbm, 3578, rfl⟩
abbrev main_call186_v0 : Ref sig .tc := ⟨.hbm, 3579, rfl⟩
abbrev main_call186_v1 : Ref sig .tc := ⟨.hbm, 3580, rfl⟩
abbrev main_call186_v2 : Ref sig .tc := ⟨.hbm, 3581, rfl⟩
abbrev main_call186_v3 : Ref sig .tc := ⟨.hbm, 3582, rfl⟩
abbrev main_call186_v4 : Ref sig .tc := ⟨.hbm, 3583, rfl⟩
abbrev main_v2001 : Ref sig .tc := ⟨.hbm, 3584, rfl⟩
abbrev main_cst_645 : Ref sig .tc := ⟨.hbm, 3585, rfl⟩
abbrev main_cst_646 : Ref sig .tc := ⟨.hbm, 3586, rfl⟩
abbrev main_call187_v0 : Ref sig .tc := ⟨.hbm, 3587, rfl⟩
abbrev main_call187_v1 : Ref sig .tc := ⟨.hbm, 3588, rfl⟩
abbrev main_call187_v2 : Ref sig .tc := ⟨.hbm, 3589, rfl⟩
abbrev main_call187_v3 : Ref sig .tc := ⟨.hbm, 3590, rfl⟩
abbrev main_call187_v4 : Ref sig .tc := ⟨.hbm, 3591, rfl⟩
abbrev main_v2002 : Ref sig .tc := ⟨.hbm, 3592, rfl⟩
abbrev main_v2003 : Ref sig .tc := ⟨.hbm, 3593, rfl⟩
abbrev main_v2004 : Ref sig .tc := ⟨.hbm, 3594, rfl⟩
abbrev main_v2005 : Ref sig .tc := ⟨.hbm, 3595, rfl⟩
abbrev main_v2006 : Ref sig .tc := ⟨.hbm, 3596, rfl⟩
abbrev main_v2007 : Ref sig .tc := ⟨.hbm, 3597, rfl⟩
abbrev main_v2008 : Ref sig .tc := ⟨.hbm, 3598, rfl⟩
abbrev main_v2009 : Ref sig .tc := ⟨.hbm, 3599, rfl⟩
abbrev main_cst_647 : Ref sig .tc := ⟨.hbm, 3600, rfl⟩
abbrev main_v2010 : Ref sig .tc := ⟨.hbm, 3601, rfl⟩
abbrev main_cst_648 : Ref sig .tc := ⟨.hbm, 3602, rfl⟩
abbrev main_v2011 : Ref sig .tc := ⟨.hbm, 3603, rfl⟩
abbrev main_v2012 : Ref sig .tc := ⟨.hbm, 3604, rfl⟩
abbrev main_cst_649 : Ref sig .tc := ⟨.hbm, 3605, rfl⟩
abbrev main_v2013 : Ref sig .tc := ⟨.hbm, 3606, rfl⟩
abbrev main_v2014 : Ref sig .tc := ⟨.hbm, 3607, rfl⟩
abbrev main_v2015 : Ref sig .tc := ⟨.hbm, 3608, rfl⟩
abbrev main_v2016 : Ref sig .tc := ⟨.hbm, 3609, rfl⟩
abbrev main_cst_650 : Ref sig .tc := ⟨.hbm, 3610, rfl⟩
abbrev main_v2017 : Ref sig .tc := ⟨.hbm, 3611, rfl⟩
abbrev main_v2018 : Ref sig .tc := ⟨.hbm, 3612, rfl⟩
abbrev main_v2019 : Ref sig .tc := ⟨.hbm, 3613, rfl⟩
abbrev main_v2020 : Ref sig .tc := ⟨.hbm, 3614, rfl⟩
abbrev main_v2021 : Ref sig .tc := ⟨.hbm, 3615, rfl⟩
abbrev main_v2022 : Ref sig .tc := ⟨.hbm, 3616, rfl⟩
abbrev main_v2023 : Ref sig .tc := ⟨.hbm, 3617, rfl⟩
abbrev main_v2024 : Ref sig .tc := ⟨.hbm, 3618, rfl⟩
abbrev main_v2025 : Ref sig .tc := ⟨.hbm, 3619, rfl⟩
abbrev main_cst_651 : Ref sig .tc := ⟨.hbm, 3620, rfl⟩
abbrev main_v2026 : Ref sig .tc := ⟨.hbm, 3621, rfl⟩
abbrev main_v2027 : Ref sig .tc := ⟨.hbm, 3622, rfl⟩
abbrev main_cst_652 : Ref sig .tc := ⟨.hbm, 3623, rfl⟩
abbrev main_v2028 : Ref sig .tc := ⟨.hbm, 3624, rfl⟩
abbrev main_v2029 : Ref sig .tc := ⟨.hbm, 3625, rfl⟩
abbrev main_v2030 : Ref sig .tc := ⟨.hbm, 3626, rfl⟩
abbrev main_v2031 : Ref sig .tc := ⟨.hbm, 3627, rfl⟩
abbrev main_v2032 : Ref sig .tc := ⟨.hbm, 3628, rfl⟩
abbrev main_v2033 : Ref sig .tc := ⟨.hbm, 3629, rfl⟩
abbrev main_cst_653 : Ref sig .tc := ⟨.hbm, 3630, rfl⟩
abbrev main_cst_654 : Ref sig .tc := ⟨.hbm, 3631, rfl⟩
abbrev main_call188_v0 : Ref sig .tc := ⟨.hbm, 3632, rfl⟩
abbrev main_call188_v1 : Ref sig .tc := ⟨.hbm, 3633, rfl⟩
abbrev main_call188_v2 : Ref sig .tc := ⟨.hbm, 3634, rfl⟩
abbrev main_call188_v3 : Ref sig .tc := ⟨.hbm, 3635, rfl⟩
abbrev main_call188_v4 : Ref sig .tc := ⟨.hbm, 3636, rfl⟩
abbrev main_v2034 : Ref sig .tc := ⟨.hbm, 3637, rfl⟩
abbrev main_cst_655 : Ref sig .tc := ⟨.hbm, 3638, rfl⟩
abbrev main_cst_656 : Ref sig .tc := ⟨.hbm, 3639, rfl⟩
abbrev main_call189_v0 : Ref sig .tc := ⟨.hbm, 3640, rfl⟩
abbrev main_call189_v1 : Ref sig .tc := ⟨.hbm, 3641, rfl⟩
abbrev main_call189_v2 : Ref sig .tc := ⟨.hbm, 3642, rfl⟩
abbrev main_call189_v3 : Ref sig .tc := ⟨.hbm, 3643, rfl⟩
abbrev main_call189_v4 : Ref sig .tc := ⟨.hbm, 3644, rfl⟩
abbrev main_v2035 : Ref sig .tc := ⟨.hbm, 3645, rfl⟩
abbrev main_v2036 : Ref sig .tc := ⟨.hbm, 3646, rfl⟩
abbrev main_v2037 : Ref sig .tc := ⟨.hbm, 3647, rfl⟩
abbrev main_v2038 : Ref sig .tc := ⟨.hbm, 3648, rfl⟩
abbrev main_v2039 : Ref sig .tc := ⟨.hbm, 3649, rfl⟩
abbrev main_v2040 : Ref sig .tc := ⟨.hbm, 3650, rfl⟩
abbrev main_v2041 : Ref sig .tc := ⟨.hbm, 3651, rfl⟩
abbrev main_v2042 : Ref sig .tc := ⟨.hbm, 3652, rfl⟩
abbrev main_v2043 : Ref sig .tc := ⟨.hbm, 3653, rfl⟩
abbrev main_v2044 : Ref sig .tc := ⟨.hbm, 3654, rfl⟩
abbrev main_cst_657 : Ref sig .tc := ⟨.hbm, 3655, rfl⟩
abbrev main_cst_658 : Ref sig .tc := ⟨.hbm, 3656, rfl⟩
abbrev main_call190_v0 : Ref sig .tc := ⟨.hbm, 3657, rfl⟩
abbrev main_call190_v1 : Ref sig .tc := ⟨.hbm, 3658, rfl⟩
abbrev main_call190_v2 : Ref sig .tc := ⟨.hbm, 3659, rfl⟩
abbrev main_call190_v3 : Ref sig .tc := ⟨.hbm, 3660, rfl⟩
abbrev main_call190_v4 : Ref sig .tc := ⟨.hbm, 3661, rfl⟩
abbrev main_v2045 : Ref sig .tc := ⟨.hbm, 3662, rfl⟩
abbrev main_cst_659 : Ref sig .tc := ⟨.hbm, 3663, rfl⟩
abbrev main_cst_660 : Ref sig .tc := ⟨.hbm, 3664, rfl⟩
abbrev main_call191_v0 : Ref sig .tc := ⟨.hbm, 3665, rfl⟩
abbrev main_call191_v1 : Ref sig .tc := ⟨.hbm, 3666, rfl⟩
abbrev main_call191_v2 : Ref sig .tc := ⟨.hbm, 3667, rfl⟩
abbrev main_call191_v3 : Ref sig .tc := ⟨.hbm, 3668, rfl⟩
abbrev main_call191_v4 : Ref sig .tc := ⟨.hbm, 3669, rfl⟩
abbrev main_v2046 : Ref sig .tc := ⟨.hbm, 3670, rfl⟩
abbrev main_v2047 : Ref sig .tc := ⟨.hbm, 3671, rfl⟩
abbrev main_v2048 : Ref sig .tc := ⟨.hbm, 3672, rfl⟩
abbrev main_v2049 : Ref sig .tc := ⟨.hbm, 3673, rfl⟩
abbrev main_v2050 : Ref sig .tc := ⟨.hbm, 3674, rfl⟩
abbrev main_v2051 : Ref sig .tc := ⟨.hbm, 3675, rfl⟩
abbrev main_v2052 : Ref sig .tc := ⟨.hbm, 3676, rfl⟩
abbrev main_v2053 : Ref sig .tc := ⟨.hbm, 3677, rfl⟩
abbrev main_cst_661 : Ref sig .tc := ⟨.hbm, 3678, rfl⟩
abbrev main_v2054 : Ref sig .tc := ⟨.hbm, 3679, rfl⟩
abbrev main_cst_662 : Ref sig .tc := ⟨.hbm, 3680, rfl⟩
abbrev main_v2055 : Ref sig .tc := ⟨.hbm, 3681, rfl⟩
abbrev main_v2056 : Ref sig .tc := ⟨.hbm, 3682, rfl⟩
abbrev main_cst_663 : Ref sig .tc := ⟨.hbm, 3683, rfl⟩
abbrev main_v2057 : Ref sig .tc := ⟨.hbm, 3684, rfl⟩
abbrev main_v2058 : Ref sig .tc := ⟨.hbm, 3685, rfl⟩
abbrev main_v2059 : Ref sig .tc := ⟨.hbm, 3686, rfl⟩
abbrev main_v2060 : Ref sig .tc := ⟨.hbm, 3687, rfl⟩
abbrev main_cst_664 : Ref sig .tc := ⟨.hbm, 3688, rfl⟩
abbrev main_v2061 : Ref sig .tc := ⟨.hbm, 3689, rfl⟩
abbrev main_v2062 : Ref sig .tc := ⟨.hbm, 3690, rfl⟩
abbrev main_v2063 : Ref sig .tc := ⟨.hbm, 3691, rfl⟩
abbrev main_v2064 : Ref sig .tc := ⟨.hbm, 3692, rfl⟩
abbrev main_v2065 : Ref sig .tc := ⟨.hbm, 3693, rfl⟩
abbrev main_cst_665 : Ref sig .tc := ⟨.hbm, 3694, rfl⟩
abbrev main_v2066 : Ref sig .tc := ⟨.hbm, 3695, rfl⟩
abbrev main_v2067 : Ref sig .tc := ⟨.hbm, 3696, rfl⟩
abbrev main_cst_666 : Ref sig .tc := ⟨.hbm, 3697, rfl⟩
abbrev main_v2068 : Ref sig .tc := ⟨.hbm, 3698, rfl⟩
abbrev main_v2069 : Ref sig .tc := ⟨.hbm, 3699, rfl⟩
abbrev main_v2070 : Ref sig .tc := ⟨.hbm, 3700, rfl⟩
abbrev main_v2071 : Ref sig .tc := ⟨.hbm, 3701, rfl⟩
abbrev main_v2072 : Ref sig .tc := ⟨.hbm, 3702, rfl⟩
abbrev main_v2073 : Ref sig .tc := ⟨.hbm, 3703, rfl⟩
abbrev main_cst_667 : Ref sig .tc := ⟨.hbm, 3704, rfl⟩
abbrev main_cst_668 : Ref sig .tc := ⟨.hbm, 3705, rfl⟩
abbrev main_call192_v0 : Ref sig .tc := ⟨.hbm, 3706, rfl⟩
abbrev main_call192_v1 : Ref sig .tc := ⟨.hbm, 3707, rfl⟩
abbrev main_call192_v2 : Ref sig .tc := ⟨.hbm, 3708, rfl⟩
abbrev main_call192_v3 : Ref sig .tc := ⟨.hbm, 3709, rfl⟩
abbrev main_call192_v4 : Ref sig .tc := ⟨.hbm, 3710, rfl⟩
abbrev main_v2074 : Ref sig .tc := ⟨.hbm, 3711, rfl⟩
abbrev main_cst_669 : Ref sig .tc := ⟨.hbm, 3712, rfl⟩
abbrev main_cst_670 : Ref sig .tc := ⟨.hbm, 3713, rfl⟩
abbrev main_call193_v0 : Ref sig .tc := ⟨.hbm, 3714, rfl⟩
abbrev main_call193_v1 : Ref sig .tc := ⟨.hbm, 3715, rfl⟩
abbrev main_call193_v2 : Ref sig .tc := ⟨.hbm, 3716, rfl⟩
abbrev main_call193_v3 : Ref sig .tc := ⟨.hbm, 3717, rfl⟩
abbrev main_call193_v4 : Ref sig .tc := ⟨.hbm, 3718, rfl⟩
abbrev main_v2075 : Ref sig .tc := ⟨.hbm, 3719, rfl⟩
abbrev main_v2076 : Ref sig .tc := ⟨.hbm, 3720, rfl⟩
abbrev main_v2077 : Ref sig .tc := ⟨.hbm, 3721, rfl⟩
abbrev main_v2078 : Ref sig .tc := ⟨.hbm, 3722, rfl⟩
abbrev main_v2079 : Ref sig .tc := ⟨.hbm, 3723, rfl⟩
abbrev main_v2080 : Ref sig .tc := ⟨.hbm, 3724, rfl⟩
abbrev main_v2081 : Ref sig .tc := ⟨.hbm, 3725, rfl⟩
abbrev main_v2082 : Ref sig .tc := ⟨.hbm, 3726, rfl⟩
abbrev main_cst_671 : Ref sig .tc := ⟨.hbm, 3727, rfl⟩
abbrev main_v2083 : Ref sig .tc := ⟨.hbm, 3728, rfl⟩
abbrev main_cst_672 : Ref sig .tc := ⟨.hbm, 3729, rfl⟩
abbrev main_v2084 : Ref sig .tc := ⟨.hbm, 3730, rfl⟩
abbrev main_v2085 : Ref sig .tc := ⟨.hbm, 3731, rfl⟩
abbrev main_cst_673 : Ref sig .tc := ⟨.hbm, 3732, rfl⟩
abbrev main_v2086 : Ref sig .tc := ⟨.hbm, 3733, rfl⟩
abbrev main_v2087 : Ref sig .tc := ⟨.hbm, 3734, rfl⟩
abbrev main_v2088 : Ref sig .tc := ⟨.hbm, 3735, rfl⟩
abbrev main_v2089 : Ref sig .tc := ⟨.hbm, 3736, rfl⟩
abbrev main_cst_674 : Ref sig .tc := ⟨.hbm, 3737, rfl⟩
abbrev main_v2090 : Ref sig .tc := ⟨.hbm, 3738, rfl⟩
abbrev main_v2091 : Ref sig .tc := ⟨.hbm, 3739, rfl⟩
abbrev main_v2092 : Ref sig .tc := ⟨.hbm, 3740, rfl⟩
abbrev main_v2093 : Ref sig .tc := ⟨.hbm, 3741, rfl⟩
abbrev main_v2094 : Ref sig .tc := ⟨.hbm, 3742, rfl⟩
abbrev main_v2095 : Ref sig .tc := ⟨.hbm, 3743, rfl⟩
abbrev main_v2096 : Ref sig .tc := ⟨.hbm, 3744, rfl⟩
abbrev main_v2097 : Ref sig .tc := ⟨.hbm, 3745, rfl⟩
abbrev main_v2098 : Ref sig .tc := ⟨.hbm, 3746, rfl⟩
abbrev main_v2099 : Ref sig .tc := ⟨.hbm, 3747, rfl⟩
abbrev main_v2100 : Ref sig .tc := ⟨.hbm, 3748, rfl⟩
abbrev main_v2101 : Ref sig .tc := ⟨.hbm, 3749, rfl⟩
abbrev main_v2102 : Ref sig .tc := ⟨.hbm, 3750, rfl⟩
abbrev main_v2103 : Ref sig .tc := ⟨.hbm, 3751, rfl⟩
abbrev main_v2104 : Ref sig .tc := ⟨.hbm, 3752, rfl⟩
abbrev main_v2105 : Ref sig .tc := ⟨.hbm, 3753, rfl⟩
abbrev main_v2106 : Ref sig .tc := ⟨.hbm, 3754, rfl⟩
abbrev main_v2107 : Ref sig .tc := ⟨.hbm, 3755, rfl⟩
abbrev main_v2108 : Ref sig .tc := ⟨.hbm, 3756, rfl⟩
abbrev main_v2109 : Ref sig .tc := ⟨.hbm, 3757, rfl⟩
abbrev main_v2110 : Ref sig .tc := ⟨.hbm, 3758, rfl⟩
abbrev main_cst_675 : Ref sig .tc := ⟨.hbm, 3759, rfl⟩
abbrev main_v2111 : Ref sig .tc := ⟨.hbm, 3760, rfl⟩
abbrev main_v2112 : Ref sig .tc := ⟨.hbm, 3761, rfl⟩
abbrev main_cst_676 : Ref sig .tc := ⟨.hbm, 3762, rfl⟩
abbrev main_v2113 : Ref sig .tc := ⟨.hbm, 3763, rfl⟩
abbrev main_v2114 : Ref sig .tc := ⟨.hbm, 3764, rfl⟩
abbrev main_v2115 : Ref sig .tc := ⟨.hbm, 3765, rfl⟩
abbrev main_v2116 : Ref sig .tc := ⟨.hbm, 3766, rfl⟩
abbrev main_v2117 : Ref sig .tc := ⟨.hbm, 3767, rfl⟩
abbrev main_v2118 : Ref sig .tc := ⟨.hbm, 3768, rfl⟩
abbrev main_cst_677 : Ref sig .tc := ⟨.hbm, 3769, rfl⟩
abbrev main_cst_678 : Ref sig .tc := ⟨.hbm, 3770, rfl⟩
abbrev main_call194_v0 : Ref sig .tc := ⟨.hbm, 3771, rfl⟩
abbrev main_call194_v1 : Ref sig .tc := ⟨.hbm, 3772, rfl⟩
abbrev main_call194_v2 : Ref sig .tc := ⟨.hbm, 3773, rfl⟩
abbrev main_call194_v3 : Ref sig .tc := ⟨.hbm, 3774, rfl⟩
abbrev main_call194_v4 : Ref sig .tc := ⟨.hbm, 3775, rfl⟩
abbrev main_v2119 : Ref sig .tc := ⟨.hbm, 3776, rfl⟩
abbrev main_cst_679 : Ref sig .tc := ⟨.hbm, 3777, rfl⟩
abbrev main_cst_680 : Ref sig .tc := ⟨.hbm, 3778, rfl⟩
abbrev main_call195_v0 : Ref sig .tc := ⟨.hbm, 3779, rfl⟩
abbrev main_call195_v1 : Ref sig .tc := ⟨.hbm, 3780, rfl⟩
abbrev main_call195_v2 : Ref sig .tc := ⟨.hbm, 3781, rfl⟩
abbrev main_call195_v3 : Ref sig .tc := ⟨.hbm, 3782, rfl⟩
abbrev main_call195_v4 : Ref sig .tc := ⟨.hbm, 3783, rfl⟩
abbrev main_v2120 : Ref sig .tc := ⟨.hbm, 3784, rfl⟩
abbrev main_v2121 : Ref sig .tc := ⟨.hbm, 3785, rfl⟩
abbrev main_v2122 : Ref sig .tc := ⟨.hbm, 3786, rfl⟩
abbrev main_v2123 : Ref sig .tc := ⟨.hbm, 3787, rfl⟩
abbrev main_v2124 : Ref sig .tc := ⟨.hbm, 3788, rfl⟩
abbrev main_v2125 : Ref sig .tc := ⟨.hbm, 3789, rfl⟩
abbrev main_v2126 : Ref sig .tc := ⟨.hbm, 3790, rfl⟩
abbrev main_v2127 : Ref sig .tc := ⟨.hbm, 3791, rfl⟩
abbrev main_v2128 : Ref sig .tc := ⟨.hbm, 3792, rfl⟩
abbrev main_v2129 : Ref sig .tc := ⟨.hbm, 3793, rfl⟩
abbrev main_cst_681 : Ref sig .tc := ⟨.hbm, 3794, rfl⟩
abbrev main_cst_682 : Ref sig .tc := ⟨.hbm, 3795, rfl⟩
abbrev main_call196_v0 : Ref sig .tc := ⟨.hbm, 3796, rfl⟩
abbrev main_call196_v1 : Ref sig .tc := ⟨.hbm, 3797, rfl⟩
abbrev main_call196_v2 : Ref sig .tc := ⟨.hbm, 3798, rfl⟩
abbrev main_call196_v3 : Ref sig .tc := ⟨.hbm, 3799, rfl⟩
abbrev main_call196_v4 : Ref sig .tc := ⟨.hbm, 3800, rfl⟩
abbrev main_v2130 : Ref sig .tc := ⟨.hbm, 3801, rfl⟩
abbrev main_cst_683 : Ref sig .tc := ⟨.hbm, 3802, rfl⟩
abbrev main_cst_684 : Ref sig .tc := ⟨.hbm, 3803, rfl⟩
abbrev main_call197_v0 : Ref sig .tc := ⟨.hbm, 3804, rfl⟩
abbrev main_call197_v1 : Ref sig .tc := ⟨.hbm, 3805, rfl⟩
abbrev main_call197_v2 : Ref sig .tc := ⟨.hbm, 3806, rfl⟩
abbrev main_call197_v3 : Ref sig .tc := ⟨.hbm, 3807, rfl⟩
abbrev main_call197_v4 : Ref sig .tc := ⟨.hbm, 3808, rfl⟩
abbrev main_v2131 : Ref sig .tc := ⟨.hbm, 3809, rfl⟩
abbrev main_v2132 : Ref sig .tc := ⟨.hbm, 3810, rfl⟩
abbrev main_v2133 : Ref sig .tc := ⟨.hbm, 3811, rfl⟩
abbrev main_v2134 : Ref sig .tc := ⟨.hbm, 3812, rfl⟩
abbrev main_v2135 : Ref sig .tc := ⟨.hbm, 3813, rfl⟩
abbrev main_v2136 : Ref sig .tc := ⟨.hbm, 3814, rfl⟩
abbrev main_v2137 : Ref sig .tc := ⟨.hbm, 3815, rfl⟩
abbrev main_v2138 : Ref sig .tc := ⟨.hbm, 3816, rfl⟩
abbrev main_v2139 : Ref sig .tc := ⟨.hbm, 3817, rfl⟩
abbrev main_v2140 : Ref sig .tc := ⟨.hbm, 3818, rfl⟩
abbrev main_cst_685 : Ref sig .tc := ⟨.hbm, 3819, rfl⟩
abbrev main_cst_686 : Ref sig .tc := ⟨.hbm, 3820, rfl⟩
abbrev main_call198_v0 : Ref sig .tc := ⟨.hbm, 3821, rfl⟩
abbrev main_call198_v1 : Ref sig .tc := ⟨.hbm, 3822, rfl⟩
abbrev main_call198_v2 : Ref sig .tc := ⟨.hbm, 3823, rfl⟩
abbrev main_call198_v3 : Ref sig .tc := ⟨.hbm, 3824, rfl⟩
abbrev main_call198_v4 : Ref sig .tc := ⟨.hbm, 3825, rfl⟩
abbrev main_v2141 : Ref sig .tc := ⟨.hbm, 3826, rfl⟩
abbrev main_cst_687 : Ref sig .tc := ⟨.hbm, 3827, rfl⟩
abbrev main_cst_688 : Ref sig .tc := ⟨.hbm, 3828, rfl⟩
abbrev main_call199_v0 : Ref sig .tc := ⟨.hbm, 3829, rfl⟩
abbrev main_call199_v1 : Ref sig .tc := ⟨.hbm, 3830, rfl⟩
abbrev main_call199_v2 : Ref sig .tc := ⟨.hbm, 3831, rfl⟩
abbrev main_call199_v3 : Ref sig .tc := ⟨.hbm, 3832, rfl⟩
abbrev main_call199_v4 : Ref sig .tc := ⟨.hbm, 3833, rfl⟩
abbrev main_v2142 : Ref sig .tc := ⟨.hbm, 3834, rfl⟩
abbrev main_v2143 : Ref sig .tc := ⟨.hbm, 3835, rfl⟩
abbrev main_v2144 : Ref sig .tc := ⟨.hbm, 3836, rfl⟩
abbrev main_v2145 : Ref sig .tc := ⟨.hbm, 3837, rfl⟩
abbrev main_v2146 : Ref sig .tc := ⟨.hbm, 3838, rfl⟩
abbrev main_v2147 : Ref sig .tc := ⟨.hbm, 3839, rfl⟩
abbrev main_v2148 : Ref sig .tc := ⟨.hbm, 3840, rfl⟩
abbrev main_v2149 : Ref sig .tc := ⟨.hbm, 3841, rfl⟩
abbrev main_v2150 : Ref sig .tc := ⟨.hbm, 3842, rfl⟩
abbrev main_v2151 : Ref sig .tc := ⟨.hbm, 3843, rfl⟩
abbrev main_cst_689 : Ref sig .tc := ⟨.hbm, 3844, rfl⟩
abbrev main_cst_690 : Ref sig .tc := ⟨.hbm, 3845, rfl⟩
abbrev main_call200_v0 : Ref sig .tc := ⟨.hbm, 3846, rfl⟩
abbrev main_call200_v1 : Ref sig .tc := ⟨.hbm, 3847, rfl⟩
abbrev main_call200_v2 : Ref sig .tc := ⟨.hbm, 3848, rfl⟩
abbrev main_call200_v3 : Ref sig .tc := ⟨.hbm, 3849, rfl⟩
abbrev main_call200_v4 : Ref sig .tc := ⟨.hbm, 3850, rfl⟩
abbrev main_v2152 : Ref sig .tc := ⟨.hbm, 3851, rfl⟩
abbrev main_cst_691 : Ref sig .tc := ⟨.hbm, 3852, rfl⟩
abbrev main_cst_692 : Ref sig .tc := ⟨.hbm, 3853, rfl⟩
abbrev main_call201_v0 : Ref sig .tc := ⟨.hbm, 3854, rfl⟩
abbrev main_call201_v1 : Ref sig .tc := ⟨.hbm, 3855, rfl⟩
abbrev main_call201_v2 : Ref sig .tc := ⟨.hbm, 3856, rfl⟩
abbrev main_call201_v3 : Ref sig .tc := ⟨.hbm, 3857, rfl⟩
abbrev main_call201_v4 : Ref sig .tc := ⟨.hbm, 3858, rfl⟩
abbrev main_v2153 : Ref sig .tc := ⟨.hbm, 3859, rfl⟩
abbrev main_v2154 : Ref sig .tc := ⟨.hbm, 3860, rfl⟩
abbrev main_v2155 : Ref sig .tc := ⟨.hbm, 3861, rfl⟩
abbrev main_v2156 : Ref sig .tc := ⟨.hbm, 3862, rfl⟩
abbrev main_v2157 : Ref sig .tc := ⟨.hbm, 3863, rfl⟩
abbrev main_v2158 : Ref sig .tc := ⟨.hbm, 3864, rfl⟩
abbrev main_v2159 : Ref sig .tc := ⟨.hbm, 3865, rfl⟩
abbrev main_v2160 : Ref sig .tc := ⟨.hbm, 3866, rfl⟩
abbrev main_v2161 : Ref sig .tc := ⟨.hbm, 3867, rfl⟩
abbrev main_v2162 : Ref sig .tc := ⟨.hbm, 3868, rfl⟩
abbrev main_cst_693 : Ref sig .tc := ⟨.hbm, 3869, rfl⟩
abbrev main_cst_694 : Ref sig .tc := ⟨.hbm, 3870, rfl⟩
abbrev main_call202_v0 : Ref sig .tc := ⟨.hbm, 3871, rfl⟩
abbrev main_call202_v1 : Ref sig .tc := ⟨.hbm, 3872, rfl⟩
abbrev main_call202_v2 : Ref sig .tc := ⟨.hbm, 3873, rfl⟩
abbrev main_call202_v3 : Ref sig .tc := ⟨.hbm, 3874, rfl⟩
abbrev main_call202_v4 : Ref sig .tc := ⟨.hbm, 3875, rfl⟩
abbrev main_v2163 : Ref sig .tc := ⟨.hbm, 3876, rfl⟩
abbrev main_cst_695 : Ref sig .tc := ⟨.hbm, 3877, rfl⟩
abbrev main_cst_696 : Ref sig .tc := ⟨.hbm, 3878, rfl⟩
abbrev main_call203_v0 : Ref sig .tc := ⟨.hbm, 3879, rfl⟩
abbrev main_call203_v1 : Ref sig .tc := ⟨.hbm, 3880, rfl⟩
abbrev main_call203_v2 : Ref sig .tc := ⟨.hbm, 3881, rfl⟩
abbrev main_call203_v3 : Ref sig .tc := ⟨.hbm, 3882, rfl⟩
abbrev main_call203_v4 : Ref sig .tc := ⟨.hbm, 3883, rfl⟩
abbrev main_v2164 : Ref sig .tc := ⟨.hbm, 3884, rfl⟩
abbrev main_v2165 : Ref sig .tc := ⟨.hbm, 3885, rfl⟩
abbrev main_v2166 : Ref sig .tc := ⟨.hbm, 3886, rfl⟩
abbrev main_v2167 : Ref sig .tc := ⟨.hbm, 3887, rfl⟩
abbrev main_v2168 : Ref sig .tc := ⟨.hbm, 3888, rfl⟩
abbrev main_v2169 : Ref sig .tc := ⟨.hbm, 3889, rfl⟩
abbrev main_v2170 : Ref sig .tc := ⟨.hbm, 3890, rfl⟩
abbrev main_v2171 : Ref sig .tc := ⟨.hbm, 3891, rfl⟩
abbrev main_cst_697 : Ref sig .tc := ⟨.hbm, 3892, rfl⟩
abbrev main_v2172 : Ref sig .tc := ⟨.hbm, 3893, rfl⟩
abbrev main_cst_698 : Ref sig .tc := ⟨.hbm, 3894, rfl⟩
abbrev main_v2173 : Ref sig .tc := ⟨.hbm, 3895, rfl⟩
abbrev main_v2174 : Ref sig .tc := ⟨.hbm, 3896, rfl⟩
abbrev main_cst_699 : Ref sig .tc := ⟨.hbm, 3897, rfl⟩
abbrev main_v2175 : Ref sig .tc := ⟨.hbm, 3898, rfl⟩
abbrev main_v2176 : Ref sig .tc := ⟨.hbm, 3899, rfl⟩
abbrev main_v2177 : Ref sig .tc := ⟨.hbm, 3900, rfl⟩
abbrev main_v2178 : Ref sig .tc := ⟨.hbm, 3901, rfl⟩
abbrev main_cst_700 : Ref sig .tc := ⟨.hbm, 3902, rfl⟩
abbrev main_v2179 : Ref sig .tc := ⟨.hbm, 3903, rfl⟩
abbrev main_v2180 : Ref sig .tc := ⟨.hbm, 3904, rfl⟩
abbrev main_v2181 : Ref sig .tc := ⟨.hbm, 3905, rfl⟩
abbrev main_v2182 : Ref sig .tc := ⟨.hbm, 3906, rfl⟩
abbrev main_v2183 : Ref sig .tc := ⟨.hbm, 3907, rfl⟩
abbrev main_cst_701 : Ref sig .tc := ⟨.hbm, 3908, rfl⟩
abbrev main_v2184 : Ref sig .tc := ⟨.hbm, 3909, rfl⟩
abbrev main_v2185 : Ref sig .tc := ⟨.hbm, 3910, rfl⟩
abbrev main_cst_702 : Ref sig .tc := ⟨.hbm, 3911, rfl⟩
abbrev main_v2186 : Ref sig .tc := ⟨.hbm, 3912, rfl⟩
abbrev main_v2187 : Ref sig .tc := ⟨.hbm, 3913, rfl⟩
abbrev main_v2188 : Ref sig .tc := ⟨.hbm, 3914, rfl⟩
abbrev main_v2189 : Ref sig .tc := ⟨.hbm, 3915, rfl⟩
abbrev main_v2190 : Ref sig .tc := ⟨.hbm, 3916, rfl⟩
abbrev main_v2191 : Ref sig .tc := ⟨.hbm, 3917, rfl⟩
abbrev main_cst_703 : Ref sig .tc := ⟨.hbm, 3918, rfl⟩
abbrev main_cst_704 : Ref sig .tc := ⟨.hbm, 3919, rfl⟩
abbrev main_call204_v0 : Ref sig .tc := ⟨.hbm, 3920, rfl⟩
abbrev main_call204_v1 : Ref sig .tc := ⟨.hbm, 3921, rfl⟩
abbrev main_call204_v2 : Ref sig .tc := ⟨.hbm, 3922, rfl⟩
abbrev main_call204_v3 : Ref sig .tc := ⟨.hbm, 3923, rfl⟩
abbrev main_call204_v4 : Ref sig .tc := ⟨.hbm, 3924, rfl⟩
abbrev main_v2192 : Ref sig .tc := ⟨.hbm, 3925, rfl⟩
abbrev main_cst_705 : Ref sig .tc := ⟨.hbm, 3926, rfl⟩
abbrev main_cst_706 : Ref sig .tc := ⟨.hbm, 3927, rfl⟩
abbrev main_call205_v0 : Ref sig .tc := ⟨.hbm, 3928, rfl⟩
abbrev main_call205_v1 : Ref sig .tc := ⟨.hbm, 3929, rfl⟩
abbrev main_call205_v2 : Ref sig .tc := ⟨.hbm, 3930, rfl⟩
abbrev main_call205_v3 : Ref sig .tc := ⟨.hbm, 3931, rfl⟩
abbrev main_call205_v4 : Ref sig .tc := ⟨.hbm, 3932, rfl⟩
abbrev main_v2193 : Ref sig .tc := ⟨.hbm, 3933, rfl⟩
abbrev main_v2194 : Ref sig .tc := ⟨.hbm, 3934, rfl⟩
abbrev main_v2195 : Ref sig .tc := ⟨.hbm, 3935, rfl⟩
abbrev main_v2196 : Ref sig .tc := ⟨.hbm, 3936, rfl⟩
abbrev main_v2197 : Ref sig .tc := ⟨.hbm, 3937, rfl⟩
abbrev main_v2198 : Ref sig .tc := ⟨.hbm, 3938, rfl⟩
abbrev main_v2199 : Ref sig .tc := ⟨.hbm, 3939, rfl⟩
abbrev main_v2200 : Ref sig .tc := ⟨.hbm, 3940, rfl⟩
abbrev main_cst_707 : Ref sig .tc := ⟨.hbm, 3941, rfl⟩
abbrev main_v2201 : Ref sig .tc := ⟨.hbm, 3942, rfl⟩
abbrev main_cst_708 : Ref sig .tc := ⟨.hbm, 3943, rfl⟩
abbrev main_v2202 : Ref sig .tc := ⟨.hbm, 3944, rfl⟩
abbrev main_v2203 : Ref sig .tc := ⟨.hbm, 3945, rfl⟩
abbrev main_cst_709 : Ref sig .tc := ⟨.hbm, 3946, rfl⟩
abbrev main_v2204 : Ref sig .tc := ⟨.hbm, 3947, rfl⟩
abbrev main_v2205 : Ref sig .tc := ⟨.hbm, 3948, rfl⟩
abbrev main_v2206 : Ref sig .tc := ⟨.hbm, 3949, rfl⟩
abbrev main_v2207 : Ref sig .tc := ⟨.hbm, 3950, rfl⟩
abbrev main_cst_710 : Ref sig .tc := ⟨.hbm, 3951, rfl⟩
abbrev main_v2208 : Ref sig .tc := ⟨.hbm, 3952, rfl⟩
abbrev main_v2209 : Ref sig .tc := ⟨.hbm, 3953, rfl⟩
abbrev main_v2210 : Ref sig .tc := ⟨.hbm, 3954, rfl⟩
abbrev main_v2211 : Ref sig .tc := ⟨.hbm, 3955, rfl⟩
abbrev main_v2212 : Ref sig .tc := ⟨.hbm, 3956, rfl⟩
abbrev main_v2213 : Ref sig .tc := ⟨.hbm, 3957, rfl⟩
abbrev main_v2214 : Ref sig .tc := ⟨.hbm, 3958, rfl⟩
abbrev main_v2215 : Ref sig .tc := ⟨.hbm, 3959, rfl⟩
abbrev main_v2216 : Ref sig .tc := ⟨.hbm, 3960, rfl⟩
abbrev main_cst_711 : Ref sig .tc := ⟨.hbm, 3961, rfl⟩
abbrev main_v2217 : Ref sig .tc := ⟨.hbm, 3962, rfl⟩
abbrev main_v2218 : Ref sig .tc := ⟨.hbm, 3963, rfl⟩
abbrev main_cst_712 : Ref sig .tc := ⟨.hbm, 3964, rfl⟩
abbrev main_v2219 : Ref sig .tc := ⟨.hbm, 3965, rfl⟩
abbrev main_v2220 : Ref sig .tc := ⟨.hbm, 3966, rfl⟩
abbrev main_v2221 : Ref sig .tc := ⟨.hbm, 3967, rfl⟩
abbrev main_v2222 : Ref sig .tc := ⟨.hbm, 3968, rfl⟩
abbrev main_v2223 : Ref sig .tc := ⟨.hbm, 3969, rfl⟩
abbrev main_v2224 : Ref sig .tc := ⟨.hbm, 3970, rfl⟩
abbrev main_cst_713 : Ref sig .tc := ⟨.hbm, 3971, rfl⟩
abbrev main_cst_714 : Ref sig .tc := ⟨.hbm, 3972, rfl⟩
abbrev main_call206_v0 : Ref sig .tc := ⟨.hbm, 3973, rfl⟩
abbrev main_call206_v1 : Ref sig .tc := ⟨.hbm, 3974, rfl⟩
abbrev main_call206_v2 : Ref sig .tc := ⟨.hbm, 3975, rfl⟩
abbrev main_call206_v3 : Ref sig .tc := ⟨.hbm, 3976, rfl⟩
abbrev main_call206_v4 : Ref sig .tc := ⟨.hbm, 3977, rfl⟩
abbrev main_v2225 : Ref sig .tc := ⟨.hbm, 3978, rfl⟩
abbrev main_cst_715 : Ref sig .tc := ⟨.hbm, 3979, rfl⟩
abbrev main_cst_716 : Ref sig .tc := ⟨.hbm, 3980, rfl⟩
abbrev main_call207_v0 : Ref sig .tc := ⟨.hbm, 3981, rfl⟩
abbrev main_call207_v1 : Ref sig .tc := ⟨.hbm, 3982, rfl⟩
abbrev main_call207_v2 : Ref sig .tc := ⟨.hbm, 3983, rfl⟩
abbrev main_call207_v3 : Ref sig .tc := ⟨.hbm, 3984, rfl⟩
abbrev main_call207_v4 : Ref sig .tc := ⟨.hbm, 3985, rfl⟩
abbrev main_v2226 : Ref sig .tc := ⟨.hbm, 3986, rfl⟩
abbrev main_v2227 : Ref sig .tc := ⟨.hbm, 3987, rfl⟩
abbrev main_v2228 : Ref sig .tc := ⟨.hbm, 3988, rfl⟩
abbrev main_v2229 : Ref sig .tc := ⟨.hbm, 3989, rfl⟩
abbrev main_v2230 : Ref sig .tc := ⟨.hbm, 3990, rfl⟩
abbrev main_v2231 : Ref sig .tc := ⟨.hbm, 3991, rfl⟩
abbrev main_v2232 : Ref sig .tc := ⟨.hbm, 3992, rfl⟩
abbrev main_v2233 : Ref sig .tc := ⟨.hbm, 3993, rfl⟩
abbrev main_v2234 : Ref sig .tc := ⟨.hbm, 3994, rfl⟩
abbrev main_v2235 : Ref sig .tc := ⟨.hbm, 3995, rfl⟩
abbrev main_cst_717 : Ref sig .tc := ⟨.hbm, 3996, rfl⟩
abbrev main_cst_718 : Ref sig .tc := ⟨.hbm, 3997, rfl⟩
abbrev main_call208_v0 : Ref sig .tc := ⟨.hbm, 3998, rfl⟩
abbrev main_call208_v1 : Ref sig .tc := ⟨.hbm, 3999, rfl⟩
abbrev main_call208_v2 : Ref sig .tc := ⟨.hbm, 4000, rfl⟩
abbrev main_call208_v3 : Ref sig .tc := ⟨.hbm, 4001, rfl⟩
abbrev main_call208_v4 : Ref sig .tc := ⟨.hbm, 4002, rfl⟩
abbrev main_v2236 : Ref sig .tc := ⟨.hbm, 4003, rfl⟩
abbrev main_cst_719 : Ref sig .tc := ⟨.hbm, 4004, rfl⟩
abbrev main_cst_720 : Ref sig .tc := ⟨.hbm, 4005, rfl⟩
abbrev main_call209_v0 : Ref sig .tc := ⟨.hbm, 4006, rfl⟩
abbrev main_call209_v1 : Ref sig .tc := ⟨.hbm, 4007, rfl⟩
abbrev main_call209_v2 : Ref sig .tc := ⟨.hbm, 4008, rfl⟩
abbrev main_call209_v3 : Ref sig .tc := ⟨.hbm, 4009, rfl⟩
abbrev main_call209_v4 : Ref sig .tc := ⟨.hbm, 4010, rfl⟩
abbrev main_v2237 : Ref sig .tc := ⟨.hbm, 4011, rfl⟩
abbrev main_v2238 : Ref sig .tc := ⟨.hbm, 4012, rfl⟩
abbrev main_v2239 : Ref sig .tc := ⟨.hbm, 4013, rfl⟩
abbrev main_v2240 : Ref sig .tc := ⟨.hbm, 4014, rfl⟩
abbrev main_v2241 : Ref sig .tc := ⟨.hbm, 4015, rfl⟩
abbrev main_v2242 : Ref sig .tc := ⟨.hbm, 4016, rfl⟩
abbrev main_v2243 : Ref sig .tc := ⟨.hbm, 4017, rfl⟩
abbrev main_v2244 : Ref sig .tc := ⟨.hbm, 4018, rfl⟩
abbrev main_cst_721 : Ref sig .tc := ⟨.hbm, 4019, rfl⟩
abbrev main_v2245 : Ref sig .tc := ⟨.hbm, 4020, rfl⟩
abbrev main_cst_722 : Ref sig .tc := ⟨.hbm, 4021, rfl⟩
abbrev main_v2246 : Ref sig .tc := ⟨.hbm, 4022, rfl⟩
abbrev main_v2247 : Ref sig .tc := ⟨.hbm, 4023, rfl⟩
abbrev main_cst_723 : Ref sig .tc := ⟨.hbm, 4024, rfl⟩
abbrev main_v2248 : Ref sig .tc := ⟨.hbm, 4025, rfl⟩
abbrev main_v2249 : Ref sig .tc := ⟨.hbm, 4026, rfl⟩
abbrev main_v2250 : Ref sig .tc := ⟨.hbm, 4027, rfl⟩
abbrev main_v2251 : Ref sig .tc := ⟨.hbm, 4028, rfl⟩
abbrev main_cst_724 : Ref sig .tc := ⟨.hbm, 4029, rfl⟩
abbrev main_v2252 : Ref sig .tc := ⟨.hbm, 4030, rfl⟩
abbrev main_v2253 : Ref sig .tc := ⟨.hbm, 4031, rfl⟩
abbrev main_v2254 : Ref sig .tc := ⟨.hbm, 4032, rfl⟩
abbrev main_v2255 : Ref sig .tc := ⟨.hbm, 4033, rfl⟩
abbrev main_v2256 : Ref sig .tc := ⟨.hbm, 4034, rfl⟩
abbrev main_cst_725 : Ref sig .tc := ⟨.hbm, 4035, rfl⟩
abbrev main_v2257 : Ref sig .tc := ⟨.hbm, 4036, rfl⟩
abbrev main_v2258 : Ref sig .tc := ⟨.hbm, 4037, rfl⟩
abbrev main_cst_726 : Ref sig .tc := ⟨.hbm, 4038, rfl⟩
abbrev main_v2259 : Ref sig .tc := ⟨.hbm, 4039, rfl⟩
abbrev main_v2260 : Ref sig .tc := ⟨.hbm, 4040, rfl⟩
abbrev main_v2261 : Ref sig .tc := ⟨.hbm, 4041, rfl⟩
abbrev main_v2262 : Ref sig .tc := ⟨.hbm, 4042, rfl⟩
abbrev main_v2263 : Ref sig .tc := ⟨.hbm, 4043, rfl⟩
abbrev main_v2264 : Ref sig .tc := ⟨.hbm, 4044, rfl⟩
abbrev main_cst_727 : Ref sig .tc := ⟨.hbm, 4045, rfl⟩
abbrev main_cst_728 : Ref sig .tc := ⟨.hbm, 4046, rfl⟩
abbrev main_call210_v0 : Ref sig .tc := ⟨.hbm, 4047, rfl⟩
abbrev main_call210_v1 : Ref sig .tc := ⟨.hbm, 4048, rfl⟩
abbrev main_call210_v2 : Ref sig .tc := ⟨.hbm, 4049, rfl⟩
abbrev main_call210_v3 : Ref sig .tc := ⟨.hbm, 4050, rfl⟩
abbrev main_call210_v4 : Ref sig .tc := ⟨.hbm, 4051, rfl⟩
abbrev main_v2265 : Ref sig .tc := ⟨.hbm, 4052, rfl⟩
abbrev main_cst_729 : Ref sig .tc := ⟨.hbm, 4053, rfl⟩
abbrev main_cst_730 : Ref sig .tc := ⟨.hbm, 4054, rfl⟩
abbrev main_call211_v0 : Ref sig .tc := ⟨.hbm, 4055, rfl⟩
abbrev main_call211_v1 : Ref sig .tc := ⟨.hbm, 4056, rfl⟩
abbrev main_call211_v2 : Ref sig .tc := ⟨.hbm, 4057, rfl⟩
abbrev main_call211_v3 : Ref sig .tc := ⟨.hbm, 4058, rfl⟩
abbrev main_call211_v4 : Ref sig .tc := ⟨.hbm, 4059, rfl⟩
abbrev main_v2266 : Ref sig .tc := ⟨.hbm, 4060, rfl⟩
abbrev main_v2267 : Ref sig .tc := ⟨.hbm, 4061, rfl⟩
abbrev main_v2268 : Ref sig .tc := ⟨.hbm, 4062, rfl⟩
abbrev main_v2269 : Ref sig .tc := ⟨.hbm, 4063, rfl⟩
abbrev main_v2270 : Ref sig .tc := ⟨.hbm, 4064, rfl⟩
abbrev main_v2271 : Ref sig .tc := ⟨.hbm, 4065, rfl⟩
abbrev main_v2272 : Ref sig .tc := ⟨.hbm, 4066, rfl⟩
abbrev main_v2273 : Ref sig .tc := ⟨.hbm, 4067, rfl⟩
abbrev main_cst_731 : Ref sig .tc := ⟨.hbm, 4068, rfl⟩
abbrev main_v2274 : Ref sig .tc := ⟨.hbm, 4069, rfl⟩
abbrev main_cst_732 : Ref sig .tc := ⟨.hbm, 4070, rfl⟩
abbrev main_v2275 : Ref sig .tc := ⟨.hbm, 4071, rfl⟩
abbrev main_v2276 : Ref sig .tc := ⟨.hbm, 4072, rfl⟩
abbrev main_cst_733 : Ref sig .tc := ⟨.hbm, 4073, rfl⟩
abbrev main_v2277 : Ref sig .tc := ⟨.hbm, 4074, rfl⟩
abbrev main_v2278 : Ref sig .tc := ⟨.hbm, 4075, rfl⟩
abbrev main_v2279 : Ref sig .tc := ⟨.hbm, 4076, rfl⟩
abbrev main_v2280 : Ref sig .tc := ⟨.hbm, 4077, rfl⟩
abbrev main_cst_734 : Ref sig .tc := ⟨.hbm, 4078, rfl⟩
abbrev main_v2281 : Ref sig .tc := ⟨.hbm, 4079, rfl⟩
abbrev main_v2282 : Ref sig .tc := ⟨.hbm, 4080, rfl⟩
abbrev main_v2283 : Ref sig .tc := ⟨.hbm, 4081, rfl⟩
abbrev main_v2284 : Ref sig .tc := ⟨.hbm, 4082, rfl⟩
abbrev main_v2285 : Ref sig .tc := ⟨.hbm, 4083, rfl⟩
abbrev main_v2286 : Ref sig .tc := ⟨.hbm, 4084, rfl⟩
abbrev main_v2287 : Ref sig .tc := ⟨.hbm, 4085, rfl⟩
abbrev main_v2288 : Ref sig .tc := ⟨.hbm, 4086, rfl⟩
abbrev main_v2289 : Ref sig .tc := ⟨.hbm, 4087, rfl⟩
abbrev main_v2290 : Ref sig .tc := ⟨.hbm, 4088, rfl⟩
abbrev main_v2291 : Ref sig .tc := ⟨.hbm, 4089, rfl⟩
abbrev main_v2292 : Ref sig .tc := ⟨.hbm, 4090, rfl⟩
abbrev main_v2293 : Ref sig .tc := ⟨.hbm, 4091, rfl⟩
abbrev main_cst_735 : Ref sig .tc := ⟨.hbm, 4092, rfl⟩
abbrev main_v2294 : Ref sig .tc := ⟨.hbm, 4093, rfl⟩
abbrev main_v2295 : Ref sig .tc := ⟨.hbm, 4094, rfl⟩
abbrev main_cst_736 : Ref sig .tc := ⟨.hbm, 4095, rfl⟩
abbrev main_v2296 : Ref sig .tc := ⟨.hbm, 4096, rfl⟩
abbrev main_v2297 : Ref sig .tc := ⟨.hbm, 4097, rfl⟩
abbrev main_v2298 : Ref sig .tc := ⟨.hbm, 4098, rfl⟩
abbrev main_v2299 : Ref sig .tc := ⟨.hbm, 4099, rfl⟩
abbrev main_v2300 : Ref sig .tc := ⟨.hbm, 4100, rfl⟩
abbrev main_v2301 : Ref sig .tc := ⟨.hbm, 4101, rfl⟩
abbrev main_cst_737 : Ref sig .tc := ⟨.hbm, 4102, rfl⟩
abbrev main_cst_738 : Ref sig .tc := ⟨.hbm, 4103, rfl⟩
abbrev main_call212_v0 : Ref sig .tc := ⟨.hbm, 4104, rfl⟩
abbrev main_call212_v1 : Ref sig .tc := ⟨.hbm, 4105, rfl⟩
abbrev main_call212_v2 : Ref sig .tc := ⟨.hbm, 4106, rfl⟩
abbrev main_call212_v3 : Ref sig .tc := ⟨.hbm, 4107, rfl⟩
abbrev main_call212_v4 : Ref sig .tc := ⟨.hbm, 4108, rfl⟩
abbrev main_v2302 : Ref sig .tc := ⟨.hbm, 4109, rfl⟩
abbrev main_cst_739 : Ref sig .tc := ⟨.hbm, 4110, rfl⟩
abbrev main_cst_740 : Ref sig .tc := ⟨.hbm, 4111, rfl⟩
abbrev main_call213_v0 : Ref sig .tc := ⟨.hbm, 4112, rfl⟩
abbrev main_call213_v1 : Ref sig .tc := ⟨.hbm, 4113, rfl⟩
abbrev main_call213_v2 : Ref sig .tc := ⟨.hbm, 4114, rfl⟩
abbrev main_call213_v3 : Ref sig .tc := ⟨.hbm, 4115, rfl⟩
abbrev main_call213_v4 : Ref sig .tc := ⟨.hbm, 4116, rfl⟩
abbrev main_v2303 : Ref sig .tc := ⟨.hbm, 4117, rfl⟩
abbrev main_v2304 : Ref sig .tc := ⟨.hbm, 4118, rfl⟩
abbrev main_v2305 : Ref sig .tc := ⟨.hbm, 4119, rfl⟩
abbrev main_v2306 : Ref sig .tc := ⟨.hbm, 4120, rfl⟩
abbrev main_v2307 : Ref sig .tc := ⟨.hbm, 4121, rfl⟩
abbrev main_v2308 : Ref sig .tc := ⟨.hbm, 4122, rfl⟩
abbrev main_v2309 : Ref sig .tc := ⟨.hbm, 4123, rfl⟩
abbrev main_v2310 : Ref sig .tc := ⟨.hbm, 4124, rfl⟩
abbrev main_v2311 : Ref sig .tc := ⟨.hbm, 4125, rfl⟩
abbrev main_v2312 : Ref sig .tc := ⟨.hbm, 4126, rfl⟩
abbrev main_cst_741 : Ref sig .tc := ⟨.hbm, 4127, rfl⟩
abbrev main_cst_742 : Ref sig .tc := ⟨.hbm, 4128, rfl⟩
abbrev main_call214_v0 : Ref sig .tc := ⟨.hbm, 4129, rfl⟩
abbrev main_call214_v1 : Ref sig .tc := ⟨.hbm, 4130, rfl⟩
abbrev main_call214_v2 : Ref sig .tc := ⟨.hbm, 4131, rfl⟩
abbrev main_call214_v3 : Ref sig .tc := ⟨.hbm, 4132, rfl⟩
abbrev main_call214_v4 : Ref sig .tc := ⟨.hbm, 4133, rfl⟩
abbrev main_v2313 : Ref sig .tc := ⟨.hbm, 4134, rfl⟩
abbrev main_cst_743 : Ref sig .tc := ⟨.hbm, 4135, rfl⟩
abbrev main_cst_744 : Ref sig .tc := ⟨.hbm, 4136, rfl⟩
abbrev main_call215_v0 : Ref sig .tc := ⟨.hbm, 4137, rfl⟩
abbrev main_call215_v1 : Ref sig .tc := ⟨.hbm, 4138, rfl⟩
abbrev main_call215_v2 : Ref sig .tc := ⟨.hbm, 4139, rfl⟩
abbrev main_call215_v3 : Ref sig .tc := ⟨.hbm, 4140, rfl⟩
abbrev main_call215_v4 : Ref sig .tc := ⟨.hbm, 4141, rfl⟩
abbrev main_v2314 : Ref sig .tc := ⟨.hbm, 4142, rfl⟩
abbrev main_v2315 : Ref sig .tc := ⟨.hbm, 4143, rfl⟩
abbrev main_v2316 : Ref sig .tc := ⟨.hbm, 4144, rfl⟩
abbrev main_v2317 : Ref sig .tc := ⟨.hbm, 4145, rfl⟩
abbrev main_v2318 : Ref sig .tc := ⟨.hbm, 4146, rfl⟩
abbrev main_v2319 : Ref sig .tc := ⟨.hbm, 4147, rfl⟩
abbrev main_v2320 : Ref sig .tc := ⟨.hbm, 4148, rfl⟩
abbrev main_v2321 : Ref sig .tc := ⟨.hbm, 4149, rfl⟩
abbrev main_v2322 : Ref sig .tc := ⟨.hbm, 4150, rfl⟩
abbrev main_v2323 : Ref sig .tc := ⟨.hbm, 4151, rfl⟩
abbrev main_cst_745 : Ref sig .tc := ⟨.hbm, 4152, rfl⟩
abbrev main_cst_746 : Ref sig .tc := ⟨.hbm, 4153, rfl⟩
abbrev main_call216_v0 : Ref sig .tc := ⟨.hbm, 4154, rfl⟩
abbrev main_call216_v1 : Ref sig .tc := ⟨.hbm, 4155, rfl⟩
abbrev main_call216_v2 : Ref sig .tc := ⟨.hbm, 4156, rfl⟩
abbrev main_call216_v3 : Ref sig .tc := ⟨.hbm, 4157, rfl⟩
abbrev main_call216_v4 : Ref sig .tc := ⟨.hbm, 4158, rfl⟩
abbrev main_v2324 : Ref sig .tc := ⟨.hbm, 4159, rfl⟩
abbrev main_cst_747 : Ref sig .tc := ⟨.hbm, 4160, rfl⟩
abbrev main_cst_748 : Ref sig .tc := ⟨.hbm, 4161, rfl⟩
abbrev main_call217_v0 : Ref sig .tc := ⟨.hbm, 4162, rfl⟩
abbrev main_call217_v1 : Ref sig .tc := ⟨.hbm, 4163, rfl⟩
abbrev main_call217_v2 : Ref sig .tc := ⟨.hbm, 4164, rfl⟩
abbrev main_call217_v3 : Ref sig .tc := ⟨.hbm, 4165, rfl⟩
abbrev main_call217_v4 : Ref sig .tc := ⟨.hbm, 4166, rfl⟩
abbrev main_v2325 : Ref sig .tc := ⟨.hbm, 4167, rfl⟩
abbrev main_v2326 : Ref sig .tc := ⟨.hbm, 4168, rfl⟩
abbrev main_v2327 : Ref sig .tc := ⟨.hbm, 4169, rfl⟩
abbrev main_v2328 : Ref sig .tc := ⟨.hbm, 4170, rfl⟩
abbrev main_v2329 : Ref sig .tc := ⟨.hbm, 4171, rfl⟩
abbrev main_v2330 : Ref sig .tc := ⟨.hbm, 4172, rfl⟩
abbrev main_v2331 : Ref sig .tc := ⟨.hbm, 4173, rfl⟩
abbrev main_v2332 : Ref sig .tc := ⟨.hbm, 4174, rfl⟩
abbrev main_cst_749 : Ref sig .tc := ⟨.hbm, 4175, rfl⟩
abbrev main_v2333 : Ref sig .tc := ⟨.hbm, 4176, rfl⟩
abbrev main_cst_750 : Ref sig .tc := ⟨.hbm, 4177, rfl⟩
abbrev main_v2334 : Ref sig .tc := ⟨.hbm, 4178, rfl⟩
abbrev main_v2335 : Ref sig .tc := ⟨.hbm, 4179, rfl⟩
abbrev main_cst_751 : Ref sig .tc := ⟨.hbm, 4180, rfl⟩
abbrev main_v2336 : Ref sig .tc := ⟨.hbm, 4181, rfl⟩
abbrev main_v2337 : Ref sig .tc := ⟨.hbm, 4182, rfl⟩
abbrev main_v2338 : Ref sig .tc := ⟨.hbm, 4183, rfl⟩
abbrev main_v2339 : Ref sig .tc := ⟨.hbm, 4184, rfl⟩
abbrev main_cst_752 : Ref sig .tc := ⟨.hbm, 4185, rfl⟩
abbrev main_v2340 : Ref sig .tc := ⟨.hbm, 4186, rfl⟩
abbrev main_v2341 : Ref sig .tc := ⟨.hbm, 4187, rfl⟩
abbrev main_v2342 : Ref sig .tc := ⟨.hbm, 4188, rfl⟩
abbrev main_v2343 : Ref sig .tc := ⟨.hbm, 4189, rfl⟩
abbrev main_v2344 : Ref sig .tc := ⟨.hbm, 4190, rfl⟩
abbrev main_cst_753 : Ref sig .tc := ⟨.hbm, 4191, rfl⟩
abbrev main_v2345 : Ref sig .tc := ⟨.hbm, 4192, rfl⟩
abbrev main_v2346 : Ref sig .tc := ⟨.hbm, 4193, rfl⟩
abbrev main_cst_754 : Ref sig .tc := ⟨.hbm, 4194, rfl⟩
abbrev main_v2347 : Ref sig .tc := ⟨.hbm, 4195, rfl⟩
abbrev main_v2348 : Ref sig .tc := ⟨.hbm, 4196, rfl⟩
abbrev main_v2349 : Ref sig .tc := ⟨.hbm, 4197, rfl⟩
abbrev main_v2350 : Ref sig .tc := ⟨.hbm, 4198, rfl⟩
abbrev main_v2351 : Ref sig .tc := ⟨.hbm, 4199, rfl⟩
abbrev main_v2352 : Ref sig .tc := ⟨.hbm, 4200, rfl⟩
abbrev main_cst_755 : Ref sig .tc := ⟨.hbm, 4201, rfl⟩
abbrev main_cst_756 : Ref sig .tc := ⟨.hbm, 4202, rfl⟩
abbrev main_call218_v0 : Ref sig .tc := ⟨.hbm, 4203, rfl⟩
abbrev main_call218_v1 : Ref sig .tc := ⟨.hbm, 4204, rfl⟩
abbrev main_call218_v2 : Ref sig .tc := ⟨.hbm, 4205, rfl⟩
abbrev main_call218_v3 : Ref sig .tc := ⟨.hbm, 4206, rfl⟩
abbrev main_call218_v4 : Ref sig .tc := ⟨.hbm, 4207, rfl⟩
abbrev main_v2353 : Ref sig .tc := ⟨.hbm, 4208, rfl⟩
abbrev main_cst_757 : Ref sig .tc := ⟨.hbm, 4209, rfl⟩
abbrev main_cst_758 : Ref sig .tc := ⟨.hbm, 4210, rfl⟩
abbrev main_call219_v0 : Ref sig .tc := ⟨.hbm, 4211, rfl⟩
abbrev main_call219_v1 : Ref sig .tc := ⟨.hbm, 4212, rfl⟩
abbrev main_call219_v2 : Ref sig .tc := ⟨.hbm, 4213, rfl⟩
abbrev main_call219_v3 : Ref sig .tc := ⟨.hbm, 4214, rfl⟩
abbrev main_call219_v4 : Ref sig .tc := ⟨.hbm, 4215, rfl⟩
abbrev main_v2354 : Ref sig .tc := ⟨.hbm, 4216, rfl⟩
abbrev main_v2355 : Ref sig .tc := ⟨.hbm, 4217, rfl⟩
abbrev main_v2356 : Ref sig .tc := ⟨.hbm, 4218, rfl⟩
abbrev main_v2357 : Ref sig .tc := ⟨.hbm, 4219, rfl⟩
abbrev main_v2358 : Ref sig .tc := ⟨.hbm, 4220, rfl⟩
abbrev main_v2359 : Ref sig .tc := ⟨.hbm, 4221, rfl⟩
abbrev main_v2360 : Ref sig .tc := ⟨.hbm, 4222, rfl⟩
abbrev main_v2361 : Ref sig .tc := ⟨.hbm, 4223, rfl⟩
abbrev main_cst_759 : Ref sig .tc := ⟨.hbm, 4224, rfl⟩
abbrev main_v2362 : Ref sig .tc := ⟨.hbm, 4225, rfl⟩
abbrev main_cst_760 : Ref sig .tc := ⟨.hbm, 4226, rfl⟩
abbrev main_v2363 : Ref sig .tc := ⟨.hbm, 4227, rfl⟩
abbrev main_v2364 : Ref sig .tc := ⟨.hbm, 4228, rfl⟩
abbrev main_cst_761 : Ref sig .tc := ⟨.hbm, 4229, rfl⟩
abbrev main_v2365 : Ref sig .tc := ⟨.hbm, 4230, rfl⟩
abbrev main_v2366 : Ref sig .tc := ⟨.hbm, 4231, rfl⟩
abbrev main_v2367 : Ref sig .tc := ⟨.hbm, 4232, rfl⟩
abbrev main_v2368 : Ref sig .tc := ⟨.hbm, 4233, rfl⟩
abbrev main_cst_762 : Ref sig .tc := ⟨.hbm, 4234, rfl⟩
abbrev main_v2369 : Ref sig .tc := ⟨.hbm, 4235, rfl⟩
abbrev main_v2370 : Ref sig .tc := ⟨.hbm, 4236, rfl⟩
abbrev main_v2371 : Ref sig .tc := ⟨.hbm, 4237, rfl⟩
abbrev main_v2372 : Ref sig .tc := ⟨.hbm, 4238, rfl⟩
abbrev main_v2373 : Ref sig .tc := ⟨.hbm, 4239, rfl⟩
abbrev main_v2374 : Ref sig .tc := ⟨.hbm, 4240, rfl⟩
abbrev main_v2375 : Ref sig .tc := ⟨.hbm, 4241, rfl⟩
abbrev main_v2376 : Ref sig .tc := ⟨.hbm, 4242, rfl⟩
abbrev main_v2377 : Ref sig .tc := ⟨.hbm, 4243, rfl⟩
abbrev main_cst_763 : Ref sig .tc := ⟨.hbm, 4244, rfl⟩
abbrev main_v2378 : Ref sig .tc := ⟨.hbm, 4245, rfl⟩
abbrev main_v2379 : Ref sig .tc := ⟨.hbm, 4246, rfl⟩
abbrev main_cst_764 : Ref sig .tc := ⟨.hbm, 4247, rfl⟩
abbrev main_v2380 : Ref sig .tc := ⟨.hbm, 4248, rfl⟩
abbrev main_v2381 : Ref sig .tc := ⟨.hbm, 4249, rfl⟩
abbrev main_v2382 : Ref sig .tc := ⟨.hbm, 4250, rfl⟩
abbrev main_v2383 : Ref sig .tc := ⟨.hbm, 4251, rfl⟩
abbrev main_v2384 : Ref sig .tc := ⟨.hbm, 4252, rfl⟩
abbrev main_v2385 : Ref sig .tc := ⟨.hbm, 4253, rfl⟩
abbrev main_cst_765 : Ref sig .tc := ⟨.hbm, 4254, rfl⟩
abbrev main_cst_766 : Ref sig .tc := ⟨.hbm, 4255, rfl⟩
abbrev main_call220_v0 : Ref sig .tc := ⟨.hbm, 4256, rfl⟩
abbrev main_call220_v1 : Ref sig .tc := ⟨.hbm, 4257, rfl⟩
abbrev main_call220_v2 : Ref sig .tc := ⟨.hbm, 4258, rfl⟩
abbrev main_call220_v3 : Ref sig .tc := ⟨.hbm, 4259, rfl⟩
abbrev main_call220_v4 : Ref sig .tc := ⟨.hbm, 4260, rfl⟩
abbrev main_v2386 : Ref sig .tc := ⟨.hbm, 4261, rfl⟩
abbrev main_cst_767 : Ref sig .tc := ⟨.hbm, 4262, rfl⟩
abbrev main_cst_768 : Ref sig .tc := ⟨.hbm, 4263, rfl⟩
abbrev main_call221_v0 : Ref sig .tc := ⟨.hbm, 4264, rfl⟩
abbrev main_call221_v1 : Ref sig .tc := ⟨.hbm, 4265, rfl⟩
abbrev main_call221_v2 : Ref sig .tc := ⟨.hbm, 4266, rfl⟩
abbrev main_call221_v3 : Ref sig .tc := ⟨.hbm, 4267, rfl⟩
abbrev main_call221_v4 : Ref sig .tc := ⟨.hbm, 4268, rfl⟩
abbrev main_v2387 : Ref sig .tc := ⟨.hbm, 4269, rfl⟩
abbrev main_v2388 : Ref sig .tc := ⟨.hbm, 4270, rfl⟩
abbrev main_v2389 : Ref sig .tc := ⟨.hbm, 4271, rfl⟩
abbrev main_v2390 : Ref sig .tc := ⟨.hbm, 4272, rfl⟩
abbrev main_v2391 : Ref sig .tc := ⟨.hbm, 4273, rfl⟩
abbrev main_v2392 : Ref sig .tc := ⟨.hbm, 4274, rfl⟩
abbrev main_v2393 : Ref sig .tc := ⟨.hbm, 4275, rfl⟩
abbrev main_v2394 : Ref sig .tc := ⟨.hbm, 4276, rfl⟩
abbrev main_v2395 : Ref sig .tc := ⟨.hbm, 4277, rfl⟩
abbrev main_v2396 : Ref sig .tc := ⟨.hbm, 4278, rfl⟩
abbrev main_cst_769 : Ref sig .tc := ⟨.hbm, 4279, rfl⟩
abbrev main_cst_770 : Ref sig .tc := ⟨.hbm, 4280, rfl⟩
abbrev main_call222_v0 : Ref sig .tc := ⟨.hbm, 4281, rfl⟩
abbrev main_call222_v1 : Ref sig .tc := ⟨.hbm, 4282, rfl⟩
abbrev main_call222_v2 : Ref sig .tc := ⟨.hbm, 4283, rfl⟩
abbrev main_call222_v3 : Ref sig .tc := ⟨.hbm, 4284, rfl⟩
abbrev main_call222_v4 : Ref sig .tc := ⟨.hbm, 4285, rfl⟩
abbrev main_v2397 : Ref sig .tc := ⟨.hbm, 4286, rfl⟩
abbrev main_cst_771 : Ref sig .tc := ⟨.hbm, 4287, rfl⟩
abbrev main_cst_772 : Ref sig .tc := ⟨.hbm, 4288, rfl⟩
abbrev main_call223_v0 : Ref sig .tc := ⟨.hbm, 4289, rfl⟩
abbrev main_call223_v1 : Ref sig .tc := ⟨.hbm, 4290, rfl⟩
abbrev main_call223_v2 : Ref sig .tc := ⟨.hbm, 4291, rfl⟩
abbrev main_call223_v3 : Ref sig .tc := ⟨.hbm, 4292, rfl⟩
abbrev main_call223_v4 : Ref sig .tc := ⟨.hbm, 4293, rfl⟩
abbrev main_v2398 : Ref sig .tc := ⟨.hbm, 4294, rfl⟩
abbrev main_v2399 : Ref sig .tc := ⟨.hbm, 4295, rfl⟩
abbrev main_v2400 : Ref sig .tc := ⟨.hbm, 4296, rfl⟩
abbrev main_v2401 : Ref sig .tc := ⟨.hbm, 4297, rfl⟩
abbrev main_v2402 : Ref sig .tc := ⟨.hbm, 4298, rfl⟩
abbrev main_v2403 : Ref sig .tc := ⟨.hbm, 4299, rfl⟩
abbrev main_v2404 : Ref sig .tc := ⟨.hbm, 4300, rfl⟩
abbrev main_v2405 : Ref sig .tc := ⟨.hbm, 4301, rfl⟩
abbrev main_cst_773 : Ref sig .tc := ⟨.hbm, 4302, rfl⟩
abbrev main_v2406 : Ref sig .tc := ⟨.hbm, 4303, rfl⟩
abbrev main_cst_774 : Ref sig .tc := ⟨.hbm, 4304, rfl⟩
abbrev main_v2407 : Ref sig .tc := ⟨.hbm, 4305, rfl⟩
abbrev main_v2408 : Ref sig .tc := ⟨.hbm, 4306, rfl⟩
abbrev main_cst_775 : Ref sig .tc := ⟨.hbm, 4307, rfl⟩
abbrev main_v2409 : Ref sig .tc := ⟨.hbm, 4308, rfl⟩
abbrev main_v2410 : Ref sig .tc := ⟨.hbm, 4309, rfl⟩
abbrev main_v2411 : Ref sig .tc := ⟨.hbm, 4310, rfl⟩
abbrev main_v2412 : Ref sig .tc := ⟨.hbm, 4311, rfl⟩
abbrev main_cst_776 : Ref sig .tc := ⟨.hbm, 4312, rfl⟩
abbrev main_v2413 : Ref sig .tc := ⟨.hbm, 4313, rfl⟩
abbrev main_v2414 : Ref sig .tc := ⟨.hbm, 4314, rfl⟩
abbrev main_v2415 : Ref sig .tc := ⟨.hbm, 4315, rfl⟩
abbrev main_v2416 : Ref sig .tc := ⟨.hbm, 4316, rfl⟩
abbrev main_v2417 : Ref sig .tc := ⟨.hbm, 4317, rfl⟩
abbrev main_cst_777 : Ref sig .tc := ⟨.hbm, 4318, rfl⟩
abbrev main_v2418 : Ref sig .tc := ⟨.hbm, 4319, rfl⟩
abbrev main_v2419 : Ref sig .tc := ⟨.hbm, 4320, rfl⟩
abbrev main_cst_778 : Ref sig .tc := ⟨.hbm, 4321, rfl⟩
abbrev main_v2420 : Ref sig .tc := ⟨.hbm, 4322, rfl⟩
abbrev main_v2421 : Ref sig .tc := ⟨.hbm, 4323, rfl⟩
abbrev main_v2422 : Ref sig .tc := ⟨.hbm, 4324, rfl⟩
abbrev main_v2423 : Ref sig .tc := ⟨.hbm, 4325, rfl⟩
abbrev main_v2424 : Ref sig .tc := ⟨.hbm, 4326, rfl⟩
abbrev main_v2425 : Ref sig .tc := ⟨.hbm, 4327, rfl⟩
abbrev main_cst_779 : Ref sig .tc := ⟨.hbm, 4328, rfl⟩
abbrev main_cst_780 : Ref sig .tc := ⟨.hbm, 4329, rfl⟩
abbrev main_call224_v0 : Ref sig .tc := ⟨.hbm, 4330, rfl⟩
abbrev main_call224_v1 : Ref sig .tc := ⟨.hbm, 4331, rfl⟩
abbrev main_call224_v2 : Ref sig .tc := ⟨.hbm, 4332, rfl⟩
abbrev main_call224_v3 : Ref sig .tc := ⟨.hbm, 4333, rfl⟩
abbrev main_call224_v4 : Ref sig .tc := ⟨.hbm, 4334, rfl⟩
abbrev main_v2426 : Ref sig .tc := ⟨.hbm, 4335, rfl⟩
abbrev main_cst_781 : Ref sig .tc := ⟨.hbm, 4336, rfl⟩
abbrev main_cst_782 : Ref sig .tc := ⟨.hbm, 4337, rfl⟩
abbrev main_call225_v0 : Ref sig .tc := ⟨.hbm, 4338, rfl⟩
abbrev main_call225_v1 : Ref sig .tc := ⟨.hbm, 4339, rfl⟩
abbrev main_call225_v2 : Ref sig .tc := ⟨.hbm, 4340, rfl⟩
abbrev main_call225_v3 : Ref sig .tc := ⟨.hbm, 4341, rfl⟩
abbrev main_call225_v4 : Ref sig .tc := ⟨.hbm, 4342, rfl⟩
abbrev main_v2427 : Ref sig .tc := ⟨.hbm, 4343, rfl⟩
abbrev main_v2428 : Ref sig .tc := ⟨.hbm, 4344, rfl⟩
abbrev main_v2429 : Ref sig .tc := ⟨.hbm, 4345, rfl⟩
abbrev main_v2430 : Ref sig .tc := ⟨.hbm, 4346, rfl⟩
abbrev main_v2431 : Ref sig .tc := ⟨.hbm, 4347, rfl⟩
abbrev main_v2432 : Ref sig .tc := ⟨.hbm, 4348, rfl⟩
abbrev main_v2433 : Ref sig .tc := ⟨.hbm, 4349, rfl⟩
abbrev main_v2434 : Ref sig .tc := ⟨.hbm, 4350, rfl⟩
abbrev main_cst_783 : Ref sig .tc := ⟨.hbm, 4351, rfl⟩
abbrev main_v2435 : Ref sig .tc := ⟨.hbm, 4352, rfl⟩
abbrev main_cst_784 : Ref sig .tc := ⟨.hbm, 4353, rfl⟩
abbrev main_v2436 : Ref sig .tc := ⟨.hbm, 4354, rfl⟩
abbrev main_v2437 : Ref sig .tc := ⟨.hbm, 4355, rfl⟩
abbrev main_cst_785 : Ref sig .tc := ⟨.hbm, 4356, rfl⟩
abbrev main_v2438 : Ref sig .tc := ⟨.hbm, 4357, rfl⟩
abbrev main_v2439 : Ref sig .tc := ⟨.hbm, 4358, rfl⟩
abbrev main_v2440 : Ref sig .tc := ⟨.hbm, 4359, rfl⟩
abbrev main_v2441 : Ref sig .tc := ⟨.hbm, 4360, rfl⟩
abbrev main_cst_786 : Ref sig .tc := ⟨.hbm, 4361, rfl⟩
abbrev main_v2442 : Ref sig .tc := ⟨.hbm, 4362, rfl⟩
abbrev main_v2443 : Ref sig .tc := ⟨.hbm, 4363, rfl⟩
abbrev main_v2444 : Ref sig .tc := ⟨.hbm, 4364, rfl⟩
abbrev main_v2445 : Ref sig .tc := ⟨.hbm, 4365, rfl⟩
abbrev main_v2446 : Ref sig .tc := ⟨.hbm, 4366, rfl⟩
abbrev main_v2447 : Ref sig .tc := ⟨.hbm, 4367, rfl⟩
abbrev main_v2448 : Ref sig .tc := ⟨.hbm, 4368, rfl⟩
abbrev main_v2449 : Ref sig .tc := ⟨.hbm, 4369, rfl⟩
abbrev main_v2450 : Ref sig .tc := ⟨.hbm, 4370, rfl⟩
abbrev main_v2451 : Ref sig .tc := ⟨.hbm, 4371, rfl⟩
abbrev main_v2452 : Ref sig .tc := ⟨.hbm, 4372, rfl⟩
abbrev main_v2453 : Ref sig .tc := ⟨.hbm, 4373, rfl⟩
abbrev main_v2454 : Ref sig .tc := ⟨.hbm, 4374, rfl⟩
abbrev main_v2455 : Ref sig .tc := ⟨.hbm, 4375, rfl⟩
abbrev main_v2456 : Ref sig .tc := ⟨.hbm, 4376, rfl⟩
abbrev main_v2457 : Ref sig .tc := ⟨.hbm, 4377, rfl⟩
abbrev main_v2458 : Ref sig .tc := ⟨.hbm, 4378, rfl⟩
abbrev main_cst_787 : Ref sig .tc := ⟨.hbm, 4379, rfl⟩
abbrev main_v2459 : Ref sig .tc := ⟨.hbm, 4380, rfl⟩
abbrev main_v2460 : Ref sig .tc := ⟨.hbm, 4381, rfl⟩
abbrev main_cst_788 : Ref sig .tc := ⟨.hbm, 4382, rfl⟩
abbrev main_v2461 : Ref sig .tc := ⟨.hbm, 4383, rfl⟩
abbrev main_v2462 : Ref sig .tc := ⟨.hbm, 4384, rfl⟩
abbrev main_v2463 : Ref sig .tc := ⟨.hbm, 4385, rfl⟩
abbrev main_v2464 : Ref sig .tc := ⟨.hbm, 4386, rfl⟩
abbrev main_v2465 : Ref sig .tc := ⟨.hbm, 4387, rfl⟩
abbrev main_v2466 : Ref sig .tc := ⟨.hbm, 4388, rfl⟩
abbrev main_cst_789 : Ref sig .tc := ⟨.hbm, 4389, rfl⟩
abbrev main_cst_790 : Ref sig .tc := ⟨.hbm, 4390, rfl⟩
abbrev main_call226_v0 : Ref sig .tc := ⟨.hbm, 4391, rfl⟩
abbrev main_call226_v1 : Ref sig .tc := ⟨.hbm, 4392, rfl⟩
abbrev main_call226_v2 : Ref sig .tc := ⟨.hbm, 4393, rfl⟩
abbrev main_call226_v3 : Ref sig .tc := ⟨.hbm, 4394, rfl⟩
abbrev main_call226_v4 : Ref sig .tc := ⟨.hbm, 4395, rfl⟩
abbrev main_v2467 : Ref sig .tc := ⟨.hbm, 4396, rfl⟩
abbrev main_cst_791 : Ref sig .tc := ⟨.hbm, 4397, rfl⟩
abbrev main_cst_792 : Ref sig .tc := ⟨.hbm, 4398, rfl⟩
abbrev main_call227_v0 : Ref sig .tc := ⟨.hbm, 4399, rfl⟩
abbrev main_call227_v1 : Ref sig .tc := ⟨.hbm, 4400, rfl⟩
abbrev main_call227_v2 : Ref sig .tc := ⟨.hbm, 4401, rfl⟩
abbrev main_call227_v3 : Ref sig .tc := ⟨.hbm, 4402, rfl⟩
abbrev main_call227_v4 : Ref sig .tc := ⟨.hbm, 4403, rfl⟩
abbrev main_v2468 : Ref sig .tc := ⟨.hbm, 4404, rfl⟩
abbrev main_v2469 : Ref sig .tc := ⟨.hbm, 4405, rfl⟩
abbrev main_v2470 : Ref sig .tc := ⟨.hbm, 4406, rfl⟩
abbrev main_v2471 : Ref sig .tc := ⟨.hbm, 4407, rfl⟩
abbrev main_v2472 : Ref sig .tc := ⟨.hbm, 4408, rfl⟩
abbrev main_v2473 : Ref sig .tc := ⟨.hbm, 4409, rfl⟩
abbrev main_v2474 : Ref sig .tc := ⟨.hbm, 4410, rfl⟩
abbrev main_v2475 : Ref sig .tc := ⟨.hbm, 4411, rfl⟩
abbrev main_v2476 : Ref sig .tc := ⟨.hbm, 4412, rfl⟩
abbrev main_v2477 : Ref sig .tc := ⟨.hbm, 4413, rfl⟩
abbrev main_cst_793 : Ref sig .tc := ⟨.hbm, 4414, rfl⟩
abbrev main_cst_794 : Ref sig .tc := ⟨.hbm, 4415, rfl⟩
abbrev main_call228_v0 : Ref sig .tc := ⟨.hbm, 4416, rfl⟩
abbrev main_call228_v1 : Ref sig .tc := ⟨.hbm, 4417, rfl⟩
abbrev main_call228_v2 : Ref sig .tc := ⟨.hbm, 4418, rfl⟩
abbrev main_call228_v3 : Ref sig .tc := ⟨.hbm, 4419, rfl⟩
abbrev main_call228_v4 : Ref sig .tc := ⟨.hbm, 4420, rfl⟩
abbrev main_v2478 : Ref sig .tc := ⟨.hbm, 4421, rfl⟩
abbrev main_cst_795 : Ref sig .tc := ⟨.hbm, 4422, rfl⟩
abbrev main_cst_796 : Ref sig .tc := ⟨.hbm, 4423, rfl⟩
abbrev main_call229_v0 : Ref sig .tc := ⟨.hbm, 4424, rfl⟩
abbrev main_call229_v1 : Ref sig .tc := ⟨.hbm, 4425, rfl⟩
abbrev main_call229_v2 : Ref sig .tc := ⟨.hbm, 4426, rfl⟩
abbrev main_call229_v3 : Ref sig .tc := ⟨.hbm, 4427, rfl⟩
abbrev main_call229_v4 : Ref sig .tc := ⟨.hbm, 4428, rfl⟩
abbrev main_v2479 : Ref sig .tc := ⟨.hbm, 4429, rfl⟩
abbrev main_v2480 : Ref sig .tc := ⟨.hbm, 4430, rfl⟩
abbrev main_v2481 : Ref sig .tc := ⟨.hbm, 4431, rfl⟩
abbrev main_v2482 : Ref sig .tc := ⟨.hbm, 4432, rfl⟩
abbrev main_v2483 : Ref sig .tc := ⟨.hbm, 4433, rfl⟩
abbrev main_v2484 : Ref sig .tc := ⟨.hbm, 4434, rfl⟩
abbrev main_v2485 : Ref sig .tc := ⟨.hbm, 4435, rfl⟩
abbrev main_v2486 : Ref sig .tc := ⟨.hbm, 4436, rfl⟩
abbrev main_v2487 : Ref sig .tc := ⟨.hbm, 4437, rfl⟩
abbrev main_v2488 : Ref sig .tc := ⟨.hbm, 4438, rfl⟩
abbrev main_cst_797 : Ref sig .tc := ⟨.hbm, 4439, rfl⟩
abbrev main_cst_798 : Ref sig .tc := ⟨.hbm, 4440, rfl⟩
abbrev main_call230_v0 : Ref sig .tc := ⟨.hbm, 4441, rfl⟩
abbrev main_call230_v1 : Ref sig .tc := ⟨.hbm, 4442, rfl⟩
abbrev main_call230_v2 : Ref sig .tc := ⟨.hbm, 4443, rfl⟩
abbrev main_call230_v3 : Ref sig .tc := ⟨.hbm, 4444, rfl⟩
abbrev main_call230_v4 : Ref sig .tc := ⟨.hbm, 4445, rfl⟩
abbrev main_v2489 : Ref sig .tc := ⟨.hbm, 4446, rfl⟩
abbrev main_cst_799 : Ref sig .tc := ⟨.hbm, 4447, rfl⟩
abbrev main_cst_800 : Ref sig .tc := ⟨.hbm, 4448, rfl⟩
abbrev main_call231_v0 : Ref sig .tc := ⟨.hbm, 4449, rfl⟩
abbrev main_call231_v1 : Ref sig .tc := ⟨.hbm, 4450, rfl⟩
abbrev main_call231_v2 : Ref sig .tc := ⟨.hbm, 4451, rfl⟩
abbrev main_call231_v3 : Ref sig .tc := ⟨.hbm, 4452, rfl⟩
abbrev main_call231_v4 : Ref sig .tc := ⟨.hbm, 4453, rfl⟩
abbrev main_v2490 : Ref sig .tc := ⟨.hbm, 4454, rfl⟩
abbrev main_v2491 : Ref sig .tc := ⟨.hbm, 4455, rfl⟩
abbrev main_v2492 : Ref sig .tc := ⟨.hbm, 4456, rfl⟩
abbrev main_v2493 : Ref sig .tc := ⟨.hbm, 4457, rfl⟩
abbrev main_v2494 : Ref sig .tc := ⟨.hbm, 4458, rfl⟩
abbrev main_v2495 : Ref sig .tc := ⟨.hbm, 4459, rfl⟩
abbrev main_v2496 : Ref sig .tc := ⟨.hbm, 4460, rfl⟩
abbrev main_v2497 : Ref sig .tc := ⟨.hbm, 4461, rfl⟩
abbrev main_v2498 : Ref sig .tc := ⟨.hbm, 4462, rfl⟩
abbrev main_v2499 : Ref sig .tc := ⟨.hbm, 4463, rfl⟩
abbrev main_cst_801 : Ref sig .tc := ⟨.hbm, 4464, rfl⟩
abbrev main_cst_802 : Ref sig .tc := ⟨.hbm, 4465, rfl⟩
abbrev main_call232_v0 : Ref sig .tc := ⟨.hbm, 4466, rfl⟩
abbrev main_call232_v1 : Ref sig .tc := ⟨.hbm, 4467, rfl⟩
abbrev main_call232_v2 : Ref sig .tc := ⟨.hbm, 4468, rfl⟩
abbrev main_call232_v3 : Ref sig .tc := ⟨.hbm, 4469, rfl⟩
abbrev main_call232_v4 : Ref sig .tc := ⟨.hbm, 4470, rfl⟩
abbrev main_v2500 : Ref sig .tc := ⟨.hbm, 4471, rfl⟩
abbrev main_cst_803 : Ref sig .tc := ⟨.hbm, 4472, rfl⟩
abbrev main_cst_804 : Ref sig .tc := ⟨.hbm, 4473, rfl⟩
abbrev main_call233_v0 : Ref sig .tc := ⟨.hbm, 4474, rfl⟩
abbrev main_call233_v1 : Ref sig .tc := ⟨.hbm, 4475, rfl⟩
abbrev main_call233_v2 : Ref sig .tc := ⟨.hbm, 4476, rfl⟩
abbrev main_call233_v3 : Ref sig .tc := ⟨.hbm, 4477, rfl⟩
abbrev main_call233_v4 : Ref sig .tc := ⟨.hbm, 4478, rfl⟩
abbrev main_v2501 : Ref sig .tc := ⟨.hbm, 4479, rfl⟩
abbrev main_v2502 : Ref sig .tc := ⟨.hbm, 4480, rfl⟩
abbrev main_v2503 : Ref sig .tc := ⟨.hbm, 4481, rfl⟩
abbrev main_v2504 : Ref sig .tc := ⟨.hbm, 4482, rfl⟩
abbrev main_v2505 : Ref sig .tc := ⟨.hbm, 4483, rfl⟩
abbrev main_v2506 : Ref sig .tc := ⟨.hbm, 4484, rfl⟩
abbrev main_v2507 : Ref sig .tc := ⟨.hbm, 4485, rfl⟩
abbrev main_v2508 : Ref sig .tc := ⟨.hbm, 4486, rfl⟩
abbrev main_cst_805 : Ref sig .tc := ⟨.hbm, 4487, rfl⟩
abbrev main_v2509 : Ref sig .tc := ⟨.hbm, 4488, rfl⟩
abbrev main_cst_806 : Ref sig .tc := ⟨.hbm, 4489, rfl⟩
abbrev main_v2510 : Ref sig .tc := ⟨.hbm, 4490, rfl⟩
abbrev main_v2511 : Ref sig .tc := ⟨.hbm, 4491, rfl⟩
abbrev main_cst_807 : Ref sig .tc := ⟨.hbm, 4492, rfl⟩
abbrev main_v2512 : Ref sig .tc := ⟨.hbm, 4493, rfl⟩
abbrev main_v2513 : Ref sig .tc := ⟨.hbm, 4494, rfl⟩
abbrev main_v2514 : Ref sig .tc := ⟨.hbm, 4495, rfl⟩
abbrev main_v2515 : Ref sig .tc := ⟨.hbm, 4496, rfl⟩
abbrev main_cst_808 : Ref sig .tc := ⟨.hbm, 4497, rfl⟩
abbrev main_v2516 : Ref sig .tc := ⟨.hbm, 4498, rfl⟩
abbrev main_v2517 : Ref sig .tc := ⟨.hbm, 4499, rfl⟩
abbrev main_v2518 : Ref sig .tc := ⟨.hbm, 4500, rfl⟩
abbrev main_v2519 : Ref sig .tc := ⟨.hbm, 4501, rfl⟩
abbrev main_v2520 : Ref sig .tc := ⟨.hbm, 4502, rfl⟩
abbrev main_cst_809 : Ref sig .tc := ⟨.hbm, 4503, rfl⟩
abbrev main_v2521 : Ref sig .tc := ⟨.hbm, 4504, rfl⟩
abbrev main_v2522 : Ref sig .tc := ⟨.hbm, 4505, rfl⟩
abbrev main_cst_810 : Ref sig .tc := ⟨.hbm, 4506, rfl⟩
abbrev main_v2523 : Ref sig .tc := ⟨.hbm, 4507, rfl⟩
abbrev main_v2524 : Ref sig .tc := ⟨.hbm, 4508, rfl⟩
abbrev main_v2525 : Ref sig .tc := ⟨.hbm, 4509, rfl⟩
abbrev main_v2526 : Ref sig .tc := ⟨.hbm, 4510, rfl⟩
abbrev main_v2527 : Ref sig .tc := ⟨.hbm, 4511, rfl⟩
abbrev main_v2528 : Ref sig .tc := ⟨.hbm, 4512, rfl⟩
abbrev main_cst_811 : Ref sig .tc := ⟨.hbm, 4513, rfl⟩
abbrev main_cst_812 : Ref sig .tc := ⟨.hbm, 4514, rfl⟩
abbrev main_call234_v0 : Ref sig .tc := ⟨.hbm, 4515, rfl⟩
abbrev main_call234_v1 : Ref sig .tc := ⟨.hbm, 4516, rfl⟩
abbrev main_call234_v2 : Ref sig .tc := ⟨.hbm, 4517, rfl⟩
abbrev main_call234_v3 : Ref sig .tc := ⟨.hbm, 4518, rfl⟩
abbrev main_call234_v4 : Ref sig .tc := ⟨.hbm, 4519, rfl⟩
abbrev main_v2529 : Ref sig .tc := ⟨.hbm, 4520, rfl⟩
abbrev main_cst_813 : Ref sig .tc := ⟨.hbm, 4521, rfl⟩
abbrev main_cst_814 : Ref sig .tc := ⟨.hbm, 4522, rfl⟩
abbrev main_call235_v0 : Ref sig .tc := ⟨.hbm, 4523, rfl⟩
abbrev main_call235_v1 : Ref sig .tc := ⟨.hbm, 4524, rfl⟩
abbrev main_call235_v2 : Ref sig .tc := ⟨.hbm, 4525, rfl⟩
abbrev main_call235_v3 : Ref sig .tc := ⟨.hbm, 4526, rfl⟩
abbrev main_call235_v4 : Ref sig .tc := ⟨.hbm, 4527, rfl⟩
abbrev main_v2530 : Ref sig .tc := ⟨.hbm, 4528, rfl⟩
abbrev main_v2531 : Ref sig .tc := ⟨.hbm, 4529, rfl⟩
abbrev main_v2532 : Ref sig .tc := ⟨.hbm, 4530, rfl⟩
abbrev main_v2533 : Ref sig .tc := ⟨.hbm, 4531, rfl⟩
abbrev main_v2534 : Ref sig .tc := ⟨.hbm, 4532, rfl⟩
abbrev main_v2535 : Ref sig .tc := ⟨.hbm, 4533, rfl⟩
abbrev main_v2536 : Ref sig .tc := ⟨.hbm, 4534, rfl⟩
abbrev main_v2537 : Ref sig .tc := ⟨.hbm, 4535, rfl⟩
abbrev main_cst_815 : Ref sig .tc := ⟨.hbm, 4536, rfl⟩
abbrev main_v2538 : Ref sig .tc := ⟨.hbm, 4537, rfl⟩
abbrev main_cst_816 : Ref sig .tc := ⟨.hbm, 4538, rfl⟩
abbrev main_v2539 : Ref sig .tc := ⟨.hbm, 4539, rfl⟩
abbrev main_v2540 : Ref sig .tc := ⟨.hbm, 4540, rfl⟩
abbrev main_cst_817 : Ref sig .tc := ⟨.hbm, 4541, rfl⟩
abbrev main_v2541 : Ref sig .tc := ⟨.hbm, 4542, rfl⟩
abbrev main_v2542 : Ref sig .tc := ⟨.hbm, 4543, rfl⟩
abbrev main_v2543 : Ref sig .tc := ⟨.hbm, 4544, rfl⟩
abbrev main_v2544 : Ref sig .tc := ⟨.hbm, 4545, rfl⟩
abbrev main_cst_818 : Ref sig .tc := ⟨.hbm, 4546, rfl⟩
abbrev main_v2545 : Ref sig .tc := ⟨.hbm, 4547, rfl⟩
abbrev main_v2546 : Ref sig .tc := ⟨.hbm, 4548, rfl⟩
abbrev main_v2547 : Ref sig .tc := ⟨.hbm, 4549, rfl⟩
abbrev main_v2548 : Ref sig .tc := ⟨.hbm, 4550, rfl⟩
abbrev main_v2549 : Ref sig .tc := ⟨.hbm, 4551, rfl⟩
abbrev main_v2550 : Ref sig .tc := ⟨.hbm, 4552, rfl⟩
abbrev main_v2551 : Ref sig .tc := ⟨.hbm, 4553, rfl⟩
abbrev main_v2552 : Ref sig .tc := ⟨.hbm, 4554, rfl⟩
abbrev main_v2553 : Ref sig .tc := ⟨.hbm, 4555, rfl⟩
abbrev main_cst_819 : Ref sig .tc := ⟨.hbm, 4556, rfl⟩
abbrev main_v2554 : Ref sig .tc := ⟨.hbm, 4557, rfl⟩
abbrev main_v2555 : Ref sig .tc := ⟨.hbm, 4558, rfl⟩
abbrev main_cst_820 : Ref sig .tc := ⟨.hbm, 4559, rfl⟩
abbrev main_v2556 : Ref sig .tc := ⟨.hbm, 4560, rfl⟩
abbrev main_v2557 : Ref sig .tc := ⟨.hbm, 4561, rfl⟩
abbrev main_v2558 : Ref sig .tc := ⟨.hbm, 4562, rfl⟩
abbrev main_v2559 : Ref sig .tc := ⟨.hbm, 4563, rfl⟩
abbrev main_v2560 : Ref sig .tc := ⟨.hbm, 4564, rfl⟩
abbrev main_v2561 : Ref sig .tc := ⟨.hbm, 4565, rfl⟩
abbrev main_cst_821 : Ref sig .tc := ⟨.hbm, 4566, rfl⟩
abbrev main_cst_822 : Ref sig .tc := ⟨.hbm, 4567, rfl⟩
abbrev main_call236_v0 : Ref sig .tc := ⟨.hbm, 4568, rfl⟩
abbrev main_call236_v1 : Ref sig .tc := ⟨.hbm, 4569, rfl⟩
abbrev main_call236_v2 : Ref sig .tc := ⟨.hbm, 4570, rfl⟩
abbrev main_call236_v3 : Ref sig .tc := ⟨.hbm, 4571, rfl⟩
abbrev main_call236_v4 : Ref sig .tc := ⟨.hbm, 4572, rfl⟩
abbrev main_v2562 : Ref sig .tc := ⟨.hbm, 4573, rfl⟩
abbrev main_cst_823 : Ref sig .tc := ⟨.hbm, 4574, rfl⟩
abbrev main_cst_824 : Ref sig .tc := ⟨.hbm, 4575, rfl⟩
abbrev main_call237_v0 : Ref sig .tc := ⟨.hbm, 4576, rfl⟩
abbrev main_call237_v1 : Ref sig .tc := ⟨.hbm, 4577, rfl⟩
abbrev main_call237_v2 : Ref sig .tc := ⟨.hbm, 4578, rfl⟩
abbrev main_call237_v3 : Ref sig .tc := ⟨.hbm, 4579, rfl⟩
abbrev main_call237_v4 : Ref sig .tc := ⟨.hbm, 4580, rfl⟩
abbrev main_v2563 : Ref sig .tc := ⟨.hbm, 4581, rfl⟩
abbrev main_v2564 : Ref sig .tc := ⟨.hbm, 4582, rfl⟩
abbrev main_v2565 : Ref sig .tc := ⟨.hbm, 4583, rfl⟩
abbrev main_v2566 : Ref sig .tc := ⟨.hbm, 4584, rfl⟩
abbrev main_v2567 : Ref sig .tc := ⟨.hbm, 4585, rfl⟩
abbrev main_v2568 : Ref sig .tc := ⟨.hbm, 4586, rfl⟩
abbrev main_v2569 : Ref sig .tc := ⟨.hbm, 4587, rfl⟩
abbrev main_v2570 : Ref sig .tc := ⟨.hbm, 4588, rfl⟩
abbrev main_v2571 : Ref sig .tc := ⟨.hbm, 4589, rfl⟩
abbrev main_v2572 : Ref sig .tc := ⟨.hbm, 4590, rfl⟩
abbrev main_cst_825 : Ref sig .tc := ⟨.hbm, 4591, rfl⟩
abbrev main_cst_826 : Ref sig .tc := ⟨.hbm, 4592, rfl⟩
abbrev main_call238_v0 : Ref sig .tc := ⟨.hbm, 4593, rfl⟩
abbrev main_call238_v1 : Ref sig .tc := ⟨.hbm, 4594, rfl⟩
abbrev main_call238_v2 : Ref sig .tc := ⟨.hbm, 4595, rfl⟩
abbrev main_call238_v3 : Ref sig .tc := ⟨.hbm, 4596, rfl⟩
abbrev main_call238_v4 : Ref sig .tc := ⟨.hbm, 4597, rfl⟩
abbrev main_v2573 : Ref sig .tc := ⟨.hbm, 4598, rfl⟩
abbrev main_cst_827 : Ref sig .tc := ⟨.hbm, 4599, rfl⟩
abbrev main_cst_828 : Ref sig .tc := ⟨.hbm, 4600, rfl⟩
abbrev main_call239_v0 : Ref sig .tc := ⟨.hbm, 4601, rfl⟩
abbrev main_call239_v1 : Ref sig .tc := ⟨.hbm, 4602, rfl⟩
abbrev main_call239_v2 : Ref sig .tc := ⟨.hbm, 4603, rfl⟩
abbrev main_call239_v3 : Ref sig .tc := ⟨.hbm, 4604, rfl⟩
abbrev main_call239_v4 : Ref sig .tc := ⟨.hbm, 4605, rfl⟩
abbrev main_v2574 : Ref sig .tc := ⟨.hbm, 4606, rfl⟩
abbrev main_v2575 : Ref sig .tc := ⟨.hbm, 4607, rfl⟩
abbrev main_v2576 : Ref sig .tc := ⟨.hbm, 4608, rfl⟩
abbrev main_v2577 : Ref sig .tc := ⟨.hbm, 4609, rfl⟩
abbrev main_v2578 : Ref sig .tc := ⟨.hbm, 4610, rfl⟩
abbrev main_v2579 : Ref sig .tc := ⟨.hbm, 4611, rfl⟩
abbrev main_v2580 : Ref sig .tc := ⟨.hbm, 4612, rfl⟩
abbrev main_v2581 : Ref sig .tc := ⟨.hbm, 4613, rfl⟩
abbrev main_cst_829 : Ref sig .tc := ⟨.hbm, 4614, rfl⟩
abbrev main_v2582 : Ref sig .tc := ⟨.hbm, 4615, rfl⟩
abbrev main_cst_830 : Ref sig .tc := ⟨.hbm, 4616, rfl⟩
abbrev main_v2583 : Ref sig .tc := ⟨.hbm, 4617, rfl⟩
abbrev main_v2584 : Ref sig .tc := ⟨.hbm, 4618, rfl⟩
abbrev main_cst_831 : Ref sig .tc := ⟨.hbm, 4619, rfl⟩
abbrev main_v2585 : Ref sig .tc := ⟨.hbm, 4620, rfl⟩
abbrev main_v2586 : Ref sig .tc := ⟨.hbm, 4621, rfl⟩
abbrev main_v2587 : Ref sig .tc := ⟨.hbm, 4622, rfl⟩
abbrev main_v2588 : Ref sig .tc := ⟨.hbm, 4623, rfl⟩
abbrev main_cst_832 : Ref sig .tc := ⟨.hbm, 4624, rfl⟩
abbrev main_v2589 : Ref sig .tc := ⟨.hbm, 4625, rfl⟩
abbrev main_v2590 : Ref sig .tc := ⟨.hbm, 4626, rfl⟩
abbrev main_v2591 : Ref sig .tc := ⟨.hbm, 4627, rfl⟩
abbrev main_v2592 : Ref sig .tc := ⟨.hbm, 4628, rfl⟩
abbrev main_v2593 : Ref sig .tc := ⟨.hbm, 4629, rfl⟩
abbrev main_cst_833 : Ref sig .tc := ⟨.hbm, 4630, rfl⟩
abbrev main_v2594 : Ref sig .tc := ⟨.hbm, 4631, rfl⟩
abbrev main_v2595 : Ref sig .tc := ⟨.hbm, 4632, rfl⟩
abbrev main_cst_834 : Ref sig .tc := ⟨.hbm, 4633, rfl⟩
abbrev main_v2596 : Ref sig .tc := ⟨.hbm, 4634, rfl⟩
abbrev main_v2597 : Ref sig .tc := ⟨.hbm, 4635, rfl⟩
abbrev main_v2598 : Ref sig .tc := ⟨.hbm, 4636, rfl⟩
abbrev main_v2599 : Ref sig .tc := ⟨.hbm, 4637, rfl⟩
abbrev main_v2600 : Ref sig .tc := ⟨.hbm, 4638, rfl⟩
abbrev main_v2601 : Ref sig .tc := ⟨.hbm, 4639, rfl⟩
abbrev main_cst_835 : Ref sig .tc := ⟨.hbm, 4640, rfl⟩
abbrev main_cst_836 : Ref sig .tc := ⟨.hbm, 4641, rfl⟩
abbrev main_call240_v0 : Ref sig .tc := ⟨.hbm, 4642, rfl⟩
abbrev main_call240_v1 : Ref sig .tc := ⟨.hbm, 4643, rfl⟩
abbrev main_call240_v2 : Ref sig .tc := ⟨.hbm, 4644, rfl⟩
abbrev main_call240_v3 : Ref sig .tc := ⟨.hbm, 4645, rfl⟩
abbrev main_call240_v4 : Ref sig .tc := ⟨.hbm, 4646, rfl⟩
abbrev main_v2602 : Ref sig .tc := ⟨.hbm, 4647, rfl⟩
abbrev main_cst_837 : Ref sig .tc := ⟨.hbm, 4648, rfl⟩
abbrev main_cst_838 : Ref sig .tc := ⟨.hbm, 4649, rfl⟩
abbrev main_call241_v0 : Ref sig .tc := ⟨.hbm, 4650, rfl⟩
abbrev main_call241_v1 : Ref sig .tc := ⟨.hbm, 4651, rfl⟩
abbrev main_call241_v2 : Ref sig .tc := ⟨.hbm, 4652, rfl⟩
abbrev main_call241_v3 : Ref sig .tc := ⟨.hbm, 4653, rfl⟩
abbrev main_call241_v4 : Ref sig .tc := ⟨.hbm, 4654, rfl⟩
abbrev main_v2603 : Ref sig .tc := ⟨.hbm, 4655, rfl⟩
abbrev main_v2604 : Ref sig .tc := ⟨.hbm, 4656, rfl⟩
abbrev main_v2605 : Ref sig .tc := ⟨.hbm, 4657, rfl⟩
abbrev main_v2606 : Ref sig .tc := ⟨.hbm, 4658, rfl⟩
abbrev main_v2607 : Ref sig .tc := ⟨.hbm, 4659, rfl⟩
abbrev main_v2608 : Ref sig .tc := ⟨.hbm, 4660, rfl⟩
abbrev main_v2609 : Ref sig .tc := ⟨.hbm, 4661, rfl⟩
abbrev main_v2610 : Ref sig .tc := ⟨.hbm, 4662, rfl⟩
abbrev main_cst_839 : Ref sig .tc := ⟨.hbm, 4663, rfl⟩
abbrev main_v2611 : Ref sig .tc := ⟨.hbm, 4664, rfl⟩
abbrev main_cst_840 : Ref sig .tc := ⟨.hbm, 4665, rfl⟩
abbrev main_v2612 : Ref sig .tc := ⟨.hbm, 4666, rfl⟩
abbrev main_v2613 : Ref sig .tc := ⟨.hbm, 4667, rfl⟩
abbrev main_cst_841 : Ref sig .tc := ⟨.hbm, 4668, rfl⟩
abbrev main_v2614 : Ref sig .tc := ⟨.hbm, 4669, rfl⟩
abbrev main_v2615 : Ref sig .tc := ⟨.hbm, 4670, rfl⟩
abbrev main_v2616 : Ref sig .tc := ⟨.hbm, 4671, rfl⟩
abbrev main_v2617 : Ref sig .tc := ⟨.hbm, 4672, rfl⟩
abbrev main_cst_842 : Ref sig .tc := ⟨.hbm, 4673, rfl⟩
abbrev main_v2618 : Ref sig .tc := ⟨.hbm, 4674, rfl⟩
abbrev main_v2619 : Ref sig .tc := ⟨.hbm, 4675, rfl⟩
abbrev main_v2620 : Ref sig .tc := ⟨.hbm, 4676, rfl⟩
abbrev main_v2621 : Ref sig .tc := ⟨.hbm, 4677, rfl⟩
abbrev main_v2622 : Ref sig .tc := ⟨.hbm, 4678, rfl⟩
abbrev main_v2623 : Ref sig .tc := ⟨.hbm, 4679, rfl⟩
abbrev main_v2624 : Ref sig .tc := ⟨.hbm, 4680, rfl⟩
abbrev main_v2625 : Ref sig .tc := ⟨.hbm, 4681, rfl⟩
abbrev main_v2626 : Ref sig .tc := ⟨.hbm, 4682, rfl⟩
abbrev main_v2627 : Ref sig .tc := ⟨.hbm, 4683, rfl⟩
abbrev main_v2628 : Ref sig .tc := ⟨.hbm, 4684, rfl⟩
abbrev main_v2629 : Ref sig .tc := ⟨.hbm, 4685, rfl⟩
abbrev main_v2630 : Ref sig .tc := ⟨.hbm, 4686, rfl⟩
abbrev main_cst_843 : Ref sig .tc := ⟨.hbm, 4687, rfl⟩
abbrev main_v2631 : Ref sig .tc := ⟨.hbm, 4688, rfl⟩
abbrev main_v2632 : Ref sig .tc := ⟨.hbm, 4689, rfl⟩
abbrev main_cst_844 : Ref sig .tc := ⟨.hbm, 4690, rfl⟩
abbrev main_v2633 : Ref sig .tc := ⟨.hbm, 4691, rfl⟩
abbrev main_v2634 : Ref sig .tc := ⟨.hbm, 4692, rfl⟩
abbrev main_v2635 : Ref sig .tc := ⟨.hbm, 4693, rfl⟩
abbrev main_v2636 : Ref sig .tc := ⟨.hbm, 4694, rfl⟩
abbrev main_v2637 : Ref sig .tc := ⟨.hbm, 4695, rfl⟩
abbrev main_v2638 : Ref sig .tc := ⟨.hbm, 4696, rfl⟩
abbrev main_cst_845 : Ref sig .tc := ⟨.hbm, 4697, rfl⟩
abbrev main_cst_846 : Ref sig .tc := ⟨.hbm, 4698, rfl⟩
abbrev main_call242_v0 : Ref sig .tc := ⟨.hbm, 4699, rfl⟩
abbrev main_call242_v1 : Ref sig .tc := ⟨.hbm, 4700, rfl⟩
abbrev main_call242_v2 : Ref sig .tc := ⟨.hbm, 4701, rfl⟩
abbrev main_call242_v3 : Ref sig .tc := ⟨.hbm, 4702, rfl⟩
abbrev main_call242_v4 : Ref sig .tc := ⟨.hbm, 4703, rfl⟩
abbrev main_v2639 : Ref sig .tc := ⟨.hbm, 4704, rfl⟩
abbrev main_cst_847 : Ref sig .tc := ⟨.hbm, 4705, rfl⟩
abbrev main_cst_848 : Ref sig .tc := ⟨.hbm, 4706, rfl⟩
abbrev main_call243_v0 : Ref sig .tc := ⟨.hbm, 4707, rfl⟩
abbrev main_call243_v1 : Ref sig .tc := ⟨.hbm, 4708, rfl⟩
abbrev main_call243_v2 : Ref sig .tc := ⟨.hbm, 4709, rfl⟩
abbrev main_call243_v3 : Ref sig .tc := ⟨.hbm, 4710, rfl⟩
abbrev main_call243_v4 : Ref sig .tc := ⟨.hbm, 4711, rfl⟩
abbrev main_v2640 : Ref sig .tc := ⟨.hbm, 4712, rfl⟩
abbrev main_v2641 : Ref sig .tc := ⟨.hbm, 4713, rfl⟩
abbrev main_v2642 : Ref sig .tc := ⟨.hbm, 4714, rfl⟩
abbrev main_v2643 : Ref sig .tc := ⟨.hbm, 4715, rfl⟩
abbrev main_v2644 : Ref sig .tc := ⟨.hbm, 4716, rfl⟩
abbrev main_v2645 : Ref sig .tc := ⟨.hbm, 4717, rfl⟩
abbrev main_v2646 : Ref sig .tc := ⟨.hbm, 4718, rfl⟩
abbrev main_v2647 : Ref sig .tc := ⟨.hbm, 4719, rfl⟩
abbrev main_v2648 : Ref sig .tc := ⟨.hbm, 4720, rfl⟩
abbrev main_v2649 : Ref sig .tc := ⟨.hbm, 4721, rfl⟩
abbrev main_cst_849 : Ref sig .tc := ⟨.hbm, 4722, rfl⟩
abbrev main_cst_850 : Ref sig .tc := ⟨.hbm, 4723, rfl⟩
abbrev main_call244_v0 : Ref sig .tc := ⟨.hbm, 4724, rfl⟩
abbrev main_call244_v1 : Ref sig .tc := ⟨.hbm, 4725, rfl⟩
abbrev main_call244_v2 : Ref sig .tc := ⟨.hbm, 4726, rfl⟩
abbrev main_call244_v3 : Ref sig .tc := ⟨.hbm, 4727, rfl⟩
abbrev main_call244_v4 : Ref sig .tc := ⟨.hbm, 4728, rfl⟩
abbrev main_v2650 : Ref sig .tc := ⟨.hbm, 4729, rfl⟩
abbrev main_cst_851 : Ref sig .tc := ⟨.hbm, 4730, rfl⟩
abbrev main_cst_852 : Ref sig .tc := ⟨.hbm, 4731, rfl⟩
abbrev main_call245_v0 : Ref sig .tc := ⟨.hbm, 4732, rfl⟩
abbrev main_call245_v1 : Ref sig .tc := ⟨.hbm, 4733, rfl⟩
abbrev main_call245_v2 : Ref sig .tc := ⟨.hbm, 4734, rfl⟩
abbrev main_call245_v3 : Ref sig .tc := ⟨.hbm, 4735, rfl⟩
abbrev main_call245_v4 : Ref sig .tc := ⟨.hbm, 4736, rfl⟩
abbrev main_v2651 : Ref sig .tc := ⟨.hbm, 4737, rfl⟩
abbrev main_v2652 : Ref sig .tc := ⟨.hbm, 4738, rfl⟩
abbrev main_v2653 : Ref sig .tc := ⟨.hbm, 4739, rfl⟩
abbrev main_v2654 : Ref sig .tc := ⟨.hbm, 4740, rfl⟩
abbrev main_v2655 : Ref sig .tc := ⟨.hbm, 4741, rfl⟩
abbrev main_v2656 : Ref sig .tc := ⟨.hbm, 4742, rfl⟩
abbrev main_v2657 : Ref sig .tc := ⟨.hbm, 4743, rfl⟩
abbrev main_v2658 : Ref sig .tc := ⟨.hbm, 4744, rfl⟩
abbrev main_v2659 : Ref sig .tc := ⟨.hbm, 4745, rfl⟩
abbrev main_v2660 : Ref sig .tc := ⟨.hbm, 4746, rfl⟩
abbrev main_cst_853 : Ref sig .tc := ⟨.hbm, 4747, rfl⟩
abbrev main_cst_854 : Ref sig .tc := ⟨.hbm, 4748, rfl⟩
abbrev main_call246_v0 : Ref sig .tc := ⟨.hbm, 4749, rfl⟩
abbrev main_call246_v1 : Ref sig .tc := ⟨.hbm, 4750, rfl⟩
abbrev main_call246_v2 : Ref sig .tc := ⟨.hbm, 4751, rfl⟩
abbrev main_call246_v3 : Ref sig .tc := ⟨.hbm, 4752, rfl⟩
abbrev main_call246_v4 : Ref sig .tc := ⟨.hbm, 4753, rfl⟩
abbrev main_v2661 : Ref sig .tc := ⟨.hbm, 4754, rfl⟩
abbrev main_cst_855 : Ref sig .tc := ⟨.hbm, 4755, rfl⟩
abbrev main_cst_856 : Ref sig .tc := ⟨.hbm, 4756, rfl⟩
abbrev main_call247_v0 : Ref sig .tc := ⟨.hbm, 4757, rfl⟩
abbrev main_call247_v1 : Ref sig .tc := ⟨.hbm, 4758, rfl⟩
abbrev main_call247_v2 : Ref sig .tc := ⟨.hbm, 4759, rfl⟩
abbrev main_call247_v3 : Ref sig .tc := ⟨.hbm, 4760, rfl⟩
abbrev main_call247_v4 : Ref sig .tc := ⟨.hbm, 4761, rfl⟩
abbrev main_v2662 : Ref sig .tc := ⟨.hbm, 4762, rfl⟩
abbrev main_v2663 : Ref sig .tc := ⟨.hbm, 4763, rfl⟩
abbrev main_v2664 : Ref sig .tc := ⟨.hbm, 4764, rfl⟩
abbrev main_v2665 : Ref sig .tc := ⟨.hbm, 4765, rfl⟩
abbrev main_v2666 : Ref sig .tc := ⟨.hbm, 4766, rfl⟩
abbrev main_v2667 : Ref sig .tc := ⟨.hbm, 4767, rfl⟩
abbrev main_v2668 : Ref sig .tc := ⟨.hbm, 4768, rfl⟩
abbrev main_v2669 : Ref sig .tc := ⟨.hbm, 4769, rfl⟩
abbrev main_cst_857 : Ref sig .tc := ⟨.hbm, 4770, rfl⟩
abbrev main_v2670 : Ref sig .tc := ⟨.hbm, 4771, rfl⟩
abbrev main_cst_858 : Ref sig .tc := ⟨.hbm, 4772, rfl⟩
abbrev main_v2671 : Ref sig .tc := ⟨.hbm, 4773, rfl⟩
abbrev main_v2672 : Ref sig .tc := ⟨.hbm, 4774, rfl⟩
abbrev main_cst_859 : Ref sig .tc := ⟨.hbm, 4775, rfl⟩
abbrev main_v2673 : Ref sig .tc := ⟨.hbm, 4776, rfl⟩
abbrev main_v2674 : Ref sig .tc := ⟨.hbm, 4777, rfl⟩
abbrev main_v2675 : Ref sig .tc := ⟨.hbm, 4778, rfl⟩
abbrev main_v2676 : Ref sig .tc := ⟨.hbm, 4779, rfl⟩
abbrev main_cst_860 : Ref sig .tc := ⟨.hbm, 4780, rfl⟩
abbrev main_v2677 : Ref sig .tc := ⟨.hbm, 4781, rfl⟩
abbrev main_v2678 : Ref sig .tc := ⟨.hbm, 4782, rfl⟩
abbrev main_v2679 : Ref sig .tc := ⟨.hbm, 4783, rfl⟩
abbrev main_v2680 : Ref sig .tc := ⟨.hbm, 4784, rfl⟩
abbrev main_v2681 : Ref sig .tc := ⟨.hbm, 4785, rfl⟩
abbrev main_cst_861 : Ref sig .tc := ⟨.hbm, 4786, rfl⟩
abbrev main_v2682 : Ref sig .tc := ⟨.hbm, 4787, rfl⟩
abbrev main_v2683 : Ref sig .tc := ⟨.hbm, 4788, rfl⟩
abbrev main_cst_862 : Ref sig .tc := ⟨.hbm, 4789, rfl⟩
abbrev main_v2684 : Ref sig .tc := ⟨.hbm, 4790, rfl⟩
abbrev main_v2685 : Ref sig .tc := ⟨.hbm, 4791, rfl⟩
abbrev main_v2686 : Ref sig .tc := ⟨.hbm, 4792, rfl⟩
abbrev main_v2687 : Ref sig .tc := ⟨.hbm, 4793, rfl⟩
abbrev main_v2688 : Ref sig .tc := ⟨.hbm, 4794, rfl⟩
abbrev main_v2689 : Ref sig .tc := ⟨.hbm, 4795, rfl⟩
abbrev main_cst_863 : Ref sig .tc := ⟨.hbm, 4796, rfl⟩
abbrev main_cst_864 : Ref sig .tc := ⟨.hbm, 4797, rfl⟩
abbrev main_call248_v0 : Ref sig .tc := ⟨.hbm, 4798, rfl⟩
abbrev main_call248_v1 : Ref sig .tc := ⟨.hbm, 4799, rfl⟩
abbrev main_call248_v2 : Ref sig .tc := ⟨.hbm, 4800, rfl⟩
abbrev main_call248_v3 : Ref sig .tc := ⟨.hbm, 4801, rfl⟩
abbrev main_call248_v4 : Ref sig .tc := ⟨.hbm, 4802, rfl⟩
abbrev main_v2690 : Ref sig .tc := ⟨.hbm, 4803, rfl⟩
abbrev main_cst_865 : Ref sig .tc := ⟨.hbm, 4804, rfl⟩
abbrev main_cst_866 : Ref sig .tc := ⟨.hbm, 4805, rfl⟩
abbrev main_call249_v0 : Ref sig .tc := ⟨.hbm, 4806, rfl⟩
abbrev main_call249_v1 : Ref sig .tc := ⟨.hbm, 4807, rfl⟩
abbrev main_call249_v2 : Ref sig .tc := ⟨.hbm, 4808, rfl⟩
abbrev main_call249_v3 : Ref sig .tc := ⟨.hbm, 4809, rfl⟩
abbrev main_call249_v4 : Ref sig .tc := ⟨.hbm, 4810, rfl⟩
abbrev main_v2691 : Ref sig .tc := ⟨.hbm, 4811, rfl⟩
abbrev main_v2692 : Ref sig .tc := ⟨.hbm, 4812, rfl⟩
abbrev main_v2693 : Ref sig .tc := ⟨.hbm, 4813, rfl⟩
abbrev main_v2694 : Ref sig .tc := ⟨.hbm, 4814, rfl⟩
abbrev main_v2695 : Ref sig .tc := ⟨.hbm, 4815, rfl⟩
abbrev main_v2696 : Ref sig .tc := ⟨.hbm, 4816, rfl⟩
abbrev main_v2697 : Ref sig .tc := ⟨.hbm, 4817, rfl⟩
abbrev main_v2698 : Ref sig .tc := ⟨.hbm, 4818, rfl⟩
abbrev main_cst_867 : Ref sig .tc := ⟨.hbm, 4819, rfl⟩
abbrev main_v2699 : Ref sig .tc := ⟨.hbm, 4820, rfl⟩
abbrev main_cst_868 : Ref sig .tc := ⟨.hbm, 4821, rfl⟩
abbrev main_v2700 : Ref sig .tc := ⟨.hbm, 4822, rfl⟩
abbrev main_v2701 : Ref sig .tc := ⟨.hbm, 4823, rfl⟩
abbrev main_cst_869 : Ref sig .tc := ⟨.hbm, 4824, rfl⟩
abbrev main_v2702 : Ref sig .tc := ⟨.hbm, 4825, rfl⟩
abbrev main_v2703 : Ref sig .tc := ⟨.hbm, 4826, rfl⟩
abbrev main_v2704 : Ref sig .tc := ⟨.hbm, 4827, rfl⟩
abbrev main_v2705 : Ref sig .tc := ⟨.hbm, 4828, rfl⟩
abbrev main_cst_870 : Ref sig .tc := ⟨.hbm, 4829, rfl⟩
abbrev main_v2706 : Ref sig .tc := ⟨.hbm, 4830, rfl⟩
abbrev main_v2707 : Ref sig .tc := ⟨.hbm, 4831, rfl⟩
abbrev main_v2708 : Ref sig .tc := ⟨.hbm, 4832, rfl⟩
abbrev main_v2709 : Ref sig .tc := ⟨.hbm, 4833, rfl⟩
abbrev main_v2710 : Ref sig .tc := ⟨.hbm, 4834, rfl⟩
abbrev main_v2711 : Ref sig .tc := ⟨.hbm, 4835, rfl⟩
abbrev main_v2712 : Ref sig .tc := ⟨.hbm, 4836, rfl⟩
abbrev main_v2713 : Ref sig .tc := ⟨.hbm, 4837, rfl⟩
abbrev main_v2714 : Ref sig .tc := ⟨.hbm, 4838, rfl⟩
abbrev main_cst_871 : Ref sig .tc := ⟨.hbm, 4839, rfl⟩
abbrev main_v2715 : Ref sig .tc := ⟨.hbm, 4840, rfl⟩
abbrev main_v2716 : Ref sig .tc := ⟨.hbm, 4841, rfl⟩
abbrev main_cst_872 : Ref sig .tc := ⟨.hbm, 4842, rfl⟩
abbrev main_v2717 : Ref sig .tc := ⟨.hbm, 4843, rfl⟩
abbrev main_v2718 : Ref sig .tc := ⟨.hbm, 4844, rfl⟩
abbrev main_v2719 : Ref sig .tc := ⟨.hbm, 4845, rfl⟩
abbrev main_v2720 : Ref sig .tc := ⟨.hbm, 4846, rfl⟩
abbrev main_v2721 : Ref sig .tc := ⟨.hbm, 4847, rfl⟩
abbrev main_v2722 : Ref sig .tc := ⟨.hbm, 4848, rfl⟩
abbrev main_cst_873 : Ref sig .tc := ⟨.hbm, 4849, rfl⟩
abbrev main_cst_874 : Ref sig .tc := ⟨.hbm, 4850, rfl⟩
abbrev main_call250_v0 : Ref sig .tc := ⟨.hbm, 4851, rfl⟩
abbrev main_call250_v1 : Ref sig .tc := ⟨.hbm, 4852, rfl⟩
abbrev main_call250_v2 : Ref sig .tc := ⟨.hbm, 4853, rfl⟩
abbrev main_call250_v3 : Ref sig .tc := ⟨.hbm, 4854, rfl⟩
abbrev main_call250_v4 : Ref sig .tc := ⟨.hbm, 4855, rfl⟩
abbrev main_v2723 : Ref sig .tc := ⟨.hbm, 4856, rfl⟩
abbrev main_cst_875 : Ref sig .tc := ⟨.hbm, 4857, rfl⟩
abbrev main_cst_876 : Ref sig .tc := ⟨.hbm, 4858, rfl⟩
abbrev main_call251_v0 : Ref sig .tc := ⟨.hbm, 4859, rfl⟩
abbrev main_call251_v1 : Ref sig .tc := ⟨.hbm, 4860, rfl⟩
abbrev main_call251_v2 : Ref sig .tc := ⟨.hbm, 4861, rfl⟩
abbrev main_call251_v3 : Ref sig .tc := ⟨.hbm, 4862, rfl⟩
abbrev main_call251_v4 : Ref sig .tc := ⟨.hbm, 4863, rfl⟩
abbrev main_v2724 : Ref sig .tc := ⟨.hbm, 4864, rfl⟩
abbrev main_v2725 : Ref sig .tc := ⟨.hbm, 4865, rfl⟩
abbrev main_v2726 : Ref sig .tc := ⟨.hbm, 4866, rfl⟩
abbrev main_v2727 : Ref sig .tc := ⟨.hbm, 4867, rfl⟩
abbrev main_v2728 : Ref sig .tc := ⟨.hbm, 4868, rfl⟩
abbrev main_v2729 : Ref sig .tc := ⟨.hbm, 4869, rfl⟩
abbrev main_v2730 : Ref sig .tc := ⟨.hbm, 4870, rfl⟩
abbrev main_v2731 : Ref sig .tc := ⟨.hbm, 4871, rfl⟩
abbrev main_v2732 : Ref sig .tc := ⟨.hbm, 4872, rfl⟩
abbrev main_v2733 : Ref sig .tc := ⟨.hbm, 4873, rfl⟩
abbrev main_cst_877 : Ref sig .tc := ⟨.hbm, 4874, rfl⟩
abbrev main_cst_878 : Ref sig .tc := ⟨.hbm, 4875, rfl⟩
abbrev main_call252_v0 : Ref sig .tc := ⟨.hbm, 4876, rfl⟩
abbrev main_call252_v1 : Ref sig .tc := ⟨.hbm, 4877, rfl⟩
abbrev main_call252_v2 : Ref sig .tc := ⟨.hbm, 4878, rfl⟩
abbrev main_call252_v3 : Ref sig .tc := ⟨.hbm, 4879, rfl⟩
abbrev main_call252_v4 : Ref sig .tc := ⟨.hbm, 4880, rfl⟩
abbrev main_v2734 : Ref sig .tc := ⟨.hbm, 4881, rfl⟩
abbrev main_cst_879 : Ref sig .tc := ⟨.hbm, 4882, rfl⟩
abbrev main_cst_880 : Ref sig .tc := ⟨.hbm, 4883, rfl⟩
abbrev main_call253_v0 : Ref sig .tc := ⟨.hbm, 4884, rfl⟩
abbrev main_call253_v1 : Ref sig .tc := ⟨.hbm, 4885, rfl⟩
abbrev main_call253_v2 : Ref sig .tc := ⟨.hbm, 4886, rfl⟩
abbrev main_call253_v3 : Ref sig .tc := ⟨.hbm, 4887, rfl⟩
abbrev main_call253_v4 : Ref sig .tc := ⟨.hbm, 4888, rfl⟩
abbrev main_v2735 : Ref sig .tc := ⟨.hbm, 4889, rfl⟩
abbrev main_v2736 : Ref sig .tc := ⟨.hbm, 4890, rfl⟩
abbrev main_v2737 : Ref sig .tc := ⟨.hbm, 4891, rfl⟩
abbrev main_v2738 : Ref sig .tc := ⟨.hbm, 4892, rfl⟩
abbrev main_v2739 : Ref sig .tc := ⟨.hbm, 4893, rfl⟩
abbrev main_v2740 : Ref sig .tc := ⟨.hbm, 4894, rfl⟩
abbrev main_v2741 : Ref sig .tc := ⟨.hbm, 4895, rfl⟩
abbrev main_v2742 : Ref sig .tc := ⟨.hbm, 4896, rfl⟩
abbrev main_cst_881 : Ref sig .tc := ⟨.hbm, 4897, rfl⟩
abbrev main_v2743 : Ref sig .tc := ⟨.hbm, 4898, rfl⟩
abbrev main_cst_882 : Ref sig .tc := ⟨.hbm, 4899, rfl⟩
abbrev main_v2744 : Ref sig .tc := ⟨.hbm, 4900, rfl⟩
abbrev main_v2745 : Ref sig .tc := ⟨.hbm, 4901, rfl⟩
abbrev main_cst_883 : Ref sig .tc := ⟨.hbm, 4902, rfl⟩
abbrev main_v2746 : Ref sig .tc := ⟨.hbm, 4903, rfl⟩
abbrev main_v2747 : Ref sig .tc := ⟨.hbm, 4904, rfl⟩
abbrev main_v2748 : Ref sig .tc := ⟨.hbm, 4905, rfl⟩
abbrev main_v2749 : Ref sig .tc := ⟨.hbm, 4906, rfl⟩
abbrev main_cst_884 : Ref sig .tc := ⟨.hbm, 4907, rfl⟩
abbrev main_v2750 : Ref sig .tc := ⟨.hbm, 4908, rfl⟩
abbrev main_v2751 : Ref sig .tc := ⟨.hbm, 4909, rfl⟩
abbrev main_v2752 : Ref sig .tc := ⟨.hbm, 4910, rfl⟩
abbrev main_v2753 : Ref sig .tc := ⟨.hbm, 4911, rfl⟩
abbrev main_v2754 : Ref sig .tc := ⟨.hbm, 4912, rfl⟩
abbrev main_cst_885 : Ref sig .tc := ⟨.hbm, 4913, rfl⟩
abbrev main_v2755 : Ref sig .tc := ⟨.hbm, 4914, rfl⟩
abbrev main_v2756 : Ref sig .tc := ⟨.hbm, 4915, rfl⟩
abbrev main_cst_886 : Ref sig .tc := ⟨.hbm, 4916, rfl⟩
abbrev main_v2757 : Ref sig .tc := ⟨.hbm, 4917, rfl⟩
abbrev main_v2758 : Ref sig .tc := ⟨.hbm, 4918, rfl⟩
abbrev main_v2759 : Ref sig .tc := ⟨.hbm, 4919, rfl⟩
abbrev main_v2760 : Ref sig .tc := ⟨.hbm, 4920, rfl⟩
abbrev main_v2761 : Ref sig .tc := ⟨.hbm, 4921, rfl⟩
abbrev main_v2762 : Ref sig .tc := ⟨.hbm, 4922, rfl⟩
abbrev main_cst_887 : Ref sig .tc := ⟨.hbm, 4923, rfl⟩
abbrev main_cst_888 : Ref sig .tc := ⟨.hbm, 4924, rfl⟩
abbrev main_call254_v0 : Ref sig .tc := ⟨.hbm, 4925, rfl⟩
abbrev main_call254_v1 : Ref sig .tc := ⟨.hbm, 4926, rfl⟩
abbrev main_call254_v2 : Ref sig .tc := ⟨.hbm, 4927, rfl⟩
abbrev main_call254_v3 : Ref sig .tc := ⟨.hbm, 4928, rfl⟩
abbrev main_call254_v4 : Ref sig .tc := ⟨.hbm, 4929, rfl⟩
abbrev main_v2763 : Ref sig .tc := ⟨.hbm, 4930, rfl⟩
abbrev main_cst_889 : Ref sig .tc := ⟨.hbm, 4931, rfl⟩
abbrev main_cst_890 : Ref sig .tc := ⟨.hbm, 4932, rfl⟩
abbrev main_call255_v0 : Ref sig .tc := ⟨.hbm, 4933, rfl⟩
abbrev main_call255_v1 : Ref sig .tc := ⟨.hbm, 4934, rfl⟩
abbrev main_call255_v2 : Ref sig .tc := ⟨.hbm, 4935, rfl⟩
abbrev main_call255_v3 : Ref sig .tc := ⟨.hbm, 4936, rfl⟩
abbrev main_call255_v4 : Ref sig .tc := ⟨.hbm, 4937, rfl⟩
abbrev main_v2764 : Ref sig .tc := ⟨.hbm, 4938, rfl⟩
abbrev main_v2765 : Ref sig .tc := ⟨.hbm, 4939, rfl⟩
abbrev main_v2766 : Ref sig .tc := ⟨.hbm, 4940, rfl⟩
abbrev main_v2767 : Ref sig .tc := ⟨.hbm, 4941, rfl⟩
abbrev main_v2768 : Ref sig .tc := ⟨.hbm, 4942, rfl⟩
abbrev main_v2769 : Ref sig .tc := ⟨.hbm, 4943, rfl⟩
abbrev main_v2770 : Ref sig .tc := ⟨.hbm, 4944, rfl⟩
abbrev main_v2771 : Ref sig .tc := ⟨.hbm, 4945, rfl⟩
abbrev main_cst_891 : Ref sig .tc := ⟨.hbm, 4946, rfl⟩
abbrev main_v2772 : Ref sig .tc := ⟨.hbm, 4947, rfl⟩
abbrev main_cst_892 : Ref sig .tc := ⟨.hbm, 4948, rfl⟩
abbrev main_v2773 : Ref sig .tc := ⟨.hbm, 4949, rfl⟩
abbrev main_v2774 : Ref sig .tc := ⟨.hbm, 4950, rfl⟩
abbrev main_cst_893 : Ref sig .tc := ⟨.hbm, 4951, rfl⟩
abbrev main_v2775 : Ref sig .tc := ⟨.hbm, 4952, rfl⟩
abbrev main_v2776 : Ref sig .tc := ⟨.hbm, 4953, rfl⟩
abbrev main_v2777 : Ref sig .tc := ⟨.hbm, 4954, rfl⟩
abbrev main_v2778 : Ref sig .tc := ⟨.hbm, 4955, rfl⟩
abbrev main_cst_894 : Ref sig .tc := ⟨.hbm, 4956, rfl⟩
abbrev main_v2779 : Ref sig .tc := ⟨.hbm, 4957, rfl⟩
abbrev main_v2780 : Ref sig .tc := ⟨.hbm, 4958, rfl⟩
abbrev main_v2781 : Ref sig .tc := ⟨.hbm, 4959, rfl⟩
abbrev main_v2782 : Ref sig .tc := ⟨.hbm, 4960, rfl⟩
abbrev main_v2783 : Ref sig .tc := ⟨.hbm, 4961, rfl⟩
abbrev main_v2784 : Ref sig .tc := ⟨.hbm, 4962, rfl⟩
abbrev main_v2785 : Ref sig .tc := ⟨.hbm, 4963, rfl⟩
abbrev main_v2786 : Ref sig .tc := ⟨.hbm, 4964, rfl⟩
abbrev main_v2787 : Ref sig .tc := ⟨.hbm, 4965, rfl⟩
abbrev main_v2788 : Ref sig .tc := ⟨.hbm, 4966, rfl⟩
abbrev main_v2789 : Ref sig .tc := ⟨.hbm, 4967, rfl⟩
abbrev main_v2790 : Ref sig .tc := ⟨.hbm, 4968, rfl⟩
abbrev main_v2791 : Ref sig .tc := ⟨.hbm, 4969, rfl⟩
abbrev main_v2792 : Ref sig .tc := ⟨.hbm, 4970, rfl⟩
abbrev main_v2793 : Ref sig .tc := ⟨.hbm, 4971, rfl⟩
abbrev main_v2794 : Ref sig .tc := ⟨.hbm, 4972, rfl⟩
abbrev main_v2795 : Ref sig .tc := ⟨.hbm, 4973, rfl⟩
abbrev main_v2796 : Ref sig .tc := ⟨.hbm, 4974, rfl⟩
abbrev main_v2797 : Ref sig .tc := ⟨.hbm, 4975, rfl⟩
abbrev main_v2798 : Ref sig .tc := ⟨.hbm, 4976, rfl⟩
abbrev main_v2799 : Ref sig .tc := ⟨.hbm, 4977, rfl⟩
abbrev main_v2800 : Ref sig .tc := ⟨.hbm, 4978, rfl⟩
abbrev main_v2801 : Ref sig .tc := ⟨.hbm, 4979, rfl⟩
abbrev main_v2802 : Ref sig .tc := ⟨.hbm, 4980, rfl⟩
abbrev main_v2803 : Ref sig .tc := ⟨.hbm, 4981, rfl⟩
abbrev main_v2804 : Ref sig .tc := ⟨.hbm, 4982, rfl⟩
abbrev main_v2805 : Ref sig .tc := ⟨.hbm, 4983, rfl⟩
abbrev main_v2806 : Ref sig .tc := ⟨.hbm, 4984, rfl⟩
abbrev main_v2807 : Ref sig .tc := ⟨.hbm, 4985, rfl⟩
abbrev main_cst_895 : Ref sig .tc := ⟨.hbm, 4986, rfl⟩
abbrev main_v2808 : Ref sig .tc := ⟨.hbm, 4987, rfl⟩
abbrev main_v2809 : Ref sig .tc := ⟨.hbm, 4988, rfl⟩
abbrev main_cst_896 : Ref sig .tc := ⟨.hbm, 4989, rfl⟩
abbrev main_v2810 : Ref sig .tc := ⟨.hbm, 4990, rfl⟩
abbrev main_v2811 : Ref sig .tc := ⟨.hbm, 4991, rfl⟩
abbrev main_v2812 : Ref sig .tc := ⟨.hbm, 4992, rfl⟩
abbrev main_v2813 : Ref sig .tc := ⟨.hbm, 4993, rfl⟩
abbrev main_v2814 : Ref sig .tc := ⟨.hbm, 4994, rfl⟩
abbrev main_v2815 : Ref sig .tc := ⟨.hbm, 4995, rfl⟩
abbrev main_cst_897 : Ref sig .tc := ⟨.hbm, 4996, rfl⟩
abbrev main_cst_898 : Ref sig .tc := ⟨.hbm, 4997, rfl⟩
abbrev main_call256_v0 : Ref sig .tc := ⟨.hbm, 4998, rfl⟩
abbrev main_call256_v1 : Ref sig .tc := ⟨.hbm, 4999, rfl⟩
abbrev main_call256_v2 : Ref sig .tc := ⟨.hbm, 5000, rfl⟩
abbrev main_call256_v3 : Ref sig .tc := ⟨.hbm, 5001, rfl⟩
abbrev main_call256_v4 : Ref sig .tc := ⟨.hbm, 5002, rfl⟩
abbrev main_v2816 : Ref sig .tc := ⟨.hbm, 5003, rfl⟩
abbrev main_cst_899 : Ref sig .tc := ⟨.hbm, 5004, rfl⟩
abbrev main_cst_900 : Ref sig .tc := ⟨.hbm, 5005, rfl⟩
abbrev main_call257_v0 : Ref sig .tc := ⟨.hbm, 5006, rfl⟩
abbrev main_call257_v1 : Ref sig .tc := ⟨.hbm, 5007, rfl⟩
abbrev main_call257_v2 : Ref sig .tc := ⟨.hbm, 5008, rfl⟩
abbrev main_call257_v3 : Ref sig .tc := ⟨.hbm, 5009, rfl⟩
abbrev main_call257_v4 : Ref sig .tc := ⟨.hbm, 5010, rfl⟩
abbrev main_v2817 : Ref sig .tc := ⟨.hbm, 5011, rfl⟩
abbrev main_v2818 : Ref sig .tc := ⟨.hbm, 5012, rfl⟩
abbrev main_v2819 : Ref sig .tc := ⟨.hbm, 5013, rfl⟩
abbrev main_v2820 : Ref sig .tc := ⟨.hbm, 5014, rfl⟩
abbrev main_v2821 : Ref sig .tc := ⟨.hbm, 5015, rfl⟩
abbrev main_v2822 : Ref sig .tc := ⟨.hbm, 5016, rfl⟩
abbrev main_v2823 : Ref sig .tc := ⟨.hbm, 5017, rfl⟩
abbrev main_v2824 : Ref sig .tc := ⟨.hbm, 5018, rfl⟩
abbrev main_v2825 : Ref sig .tc := ⟨.hbm, 5019, rfl⟩
abbrev main_v2826 : Ref sig .tc := ⟨.hbm, 5020, rfl⟩
abbrev main_cst_901 : Ref sig .tc := ⟨.hbm, 5021, rfl⟩
abbrev main_cst_902 : Ref sig .tc := ⟨.hbm, 5022, rfl⟩
abbrev main_call258_v0 : Ref sig .tc := ⟨.hbm, 5023, rfl⟩
abbrev main_call258_v1 : Ref sig .tc := ⟨.hbm, 5024, rfl⟩
abbrev main_call258_v2 : Ref sig .tc := ⟨.hbm, 5025, rfl⟩
abbrev main_call258_v3 : Ref sig .tc := ⟨.hbm, 5026, rfl⟩
abbrev main_call258_v4 : Ref sig .tc := ⟨.hbm, 5027, rfl⟩
abbrev main_v2827 : Ref sig .tc := ⟨.hbm, 5028, rfl⟩
abbrev main_cst_903 : Ref sig .tc := ⟨.hbm, 5029, rfl⟩
abbrev main_cst_904 : Ref sig .tc := ⟨.hbm, 5030, rfl⟩
abbrev main_call259_v0 : Ref sig .tc := ⟨.hbm, 5031, rfl⟩
abbrev main_call259_v1 : Ref sig .tc := ⟨.hbm, 5032, rfl⟩
abbrev main_call259_v2 : Ref sig .tc := ⟨.hbm, 5033, rfl⟩
abbrev main_call259_v3 : Ref sig .tc := ⟨.hbm, 5034, rfl⟩
abbrev main_call259_v4 : Ref sig .tc := ⟨.hbm, 5035, rfl⟩
abbrev main_v2828 : Ref sig .tc := ⟨.hbm, 5036, rfl⟩
abbrev main_v2829 : Ref sig .tc := ⟨.hbm, 5037, rfl⟩
abbrev main_v2830 : Ref sig .tc := ⟨.hbm, 5038, rfl⟩
abbrev main_v2831 : Ref sig .tc := ⟨.hbm, 5039, rfl⟩
abbrev main_v2832 : Ref sig .tc := ⟨.hbm, 5040, rfl⟩
abbrev main_v2833 : Ref sig .tc := ⟨.hbm, 5041, rfl⟩
abbrev main_v2834 : Ref sig .tc := ⟨.hbm, 5042, rfl⟩
abbrev main_v2835 : Ref sig .tc := ⟨.hbm, 5043, rfl⟩
abbrev main_v2836 : Ref sig .tc := ⟨.hbm, 5044, rfl⟩
abbrev main_v2837 : Ref sig .tc := ⟨.hbm, 5045, rfl⟩
abbrev main_cst_905 : Ref sig .tc := ⟨.hbm, 5046, rfl⟩
abbrev main_cst_906 : Ref sig .tc := ⟨.hbm, 5047, rfl⟩
abbrev main_call260_v0 : Ref sig .tc := ⟨.hbm, 5048, rfl⟩
abbrev main_call260_v1 : Ref sig .tc := ⟨.hbm, 5049, rfl⟩
abbrev main_call260_v2 : Ref sig .tc := ⟨.hbm, 5050, rfl⟩
abbrev main_call260_v3 : Ref sig .tc := ⟨.hbm, 5051, rfl⟩
abbrev main_call260_v4 : Ref sig .tc := ⟨.hbm, 5052, rfl⟩
abbrev main_v2838 : Ref sig .tc := ⟨.hbm, 5053, rfl⟩
abbrev main_cst_907 : Ref sig .tc := ⟨.hbm, 5054, rfl⟩
abbrev main_cst_908 : Ref sig .tc := ⟨.hbm, 5055, rfl⟩
abbrev main_call261_v0 : Ref sig .tc := ⟨.hbm, 5056, rfl⟩
abbrev main_call261_v1 : Ref sig .tc := ⟨.hbm, 5057, rfl⟩
abbrev main_call261_v2 : Ref sig .tc := ⟨.hbm, 5058, rfl⟩
abbrev main_call261_v3 : Ref sig .tc := ⟨.hbm, 5059, rfl⟩
abbrev main_call261_v4 : Ref sig .tc := ⟨.hbm, 5060, rfl⟩
abbrev main_v2839 : Ref sig .tc := ⟨.hbm, 5061, rfl⟩
abbrev main_v2840 : Ref sig .tc := ⟨.hbm, 5062, rfl⟩
abbrev main_v2841 : Ref sig .tc := ⟨.hbm, 5063, rfl⟩
abbrev main_v2842 : Ref sig .tc := ⟨.hbm, 5064, rfl⟩
abbrev main_v2843 : Ref sig .tc := ⟨.hbm, 5065, rfl⟩
abbrev main_v2844 : Ref sig .tc := ⟨.hbm, 5066, rfl⟩
abbrev main_v2845 : Ref sig .tc := ⟨.hbm, 5067, rfl⟩
abbrev main_v2846 : Ref sig .tc := ⟨.hbm, 5068, rfl⟩
abbrev main_v2847 : Ref sig .tc := ⟨.hbm, 5069, rfl⟩
abbrev main_v2848 : Ref sig .tc := ⟨.hbm, 5070, rfl⟩
abbrev main_cst_909 : Ref sig .tc := ⟨.hbm, 5071, rfl⟩
abbrev main_cst_910 : Ref sig .tc := ⟨.hbm, 5072, rfl⟩
abbrev main_call262_v0 : Ref sig .tc := ⟨.hbm, 5073, rfl⟩
abbrev main_call262_v1 : Ref sig .tc := ⟨.hbm, 5074, rfl⟩
abbrev main_call262_v2 : Ref sig .tc := ⟨.hbm, 5075, rfl⟩
abbrev main_call262_v3 : Ref sig .tc := ⟨.hbm, 5076, rfl⟩
abbrev main_call262_v4 : Ref sig .tc := ⟨.hbm, 5077, rfl⟩
abbrev main_v2849 : Ref sig .tc := ⟨.hbm, 5078, rfl⟩
abbrev main_cst_911 : Ref sig .tc := ⟨.hbm, 5079, rfl⟩
abbrev main_cst_912 : Ref sig .tc := ⟨.hbm, 5080, rfl⟩
abbrev main_call263_v0 : Ref sig .tc := ⟨.hbm, 5081, rfl⟩
abbrev main_call263_v1 : Ref sig .tc := ⟨.hbm, 5082, rfl⟩
abbrev main_call263_v2 : Ref sig .tc := ⟨.hbm, 5083, rfl⟩
abbrev main_call263_v3 : Ref sig .tc := ⟨.hbm, 5084, rfl⟩
abbrev main_call263_v4 : Ref sig .tc := ⟨.hbm, 5085, rfl⟩
abbrev main_v2850 : Ref sig .tc := ⟨.hbm, 5086, rfl⟩
abbrev main_v2851 : Ref sig .tc := ⟨.hbm, 5087, rfl⟩
abbrev main_v2852 : Ref sig .tc := ⟨.hbm, 5088, rfl⟩
abbrev main_v2853 : Ref sig .tc := ⟨.hbm, 5089, rfl⟩
abbrev main_v2854 : Ref sig .tc := ⟨.hbm, 5090, rfl⟩
abbrev main_v2855 : Ref sig .tc := ⟨.hbm, 5091, rfl⟩
abbrev main_v2856 : Ref sig .tc := ⟨.hbm, 5092, rfl⟩
abbrev main_v2857 : Ref sig .tc := ⟨.hbm, 5093, rfl⟩
abbrev main_v2858 : Ref sig .tc := ⟨.hbm, 5094, rfl⟩
abbrev main_v2859 : Ref sig .tc := ⟨.hbm, 5095, rfl⟩
abbrev main_cst_913 : Ref sig .tc := ⟨.hbm, 5096, rfl⟩
abbrev main_cst_914 : Ref sig .tc := ⟨.hbm, 5097, rfl⟩
abbrev main_call264_v0 : Ref sig .tc := ⟨.hbm, 5098, rfl⟩
abbrev main_call264_v1 : Ref sig .tc := ⟨.hbm, 5099, rfl⟩
abbrev main_call264_v2 : Ref sig .tc := ⟨.hbm, 5100, rfl⟩
abbrev main_call264_v3 : Ref sig .tc := ⟨.hbm, 5101, rfl⟩
abbrev main_call264_v4 : Ref sig .tc := ⟨.hbm, 5102, rfl⟩
abbrev main_v2860 : Ref sig .tc := ⟨.hbm, 5103, rfl⟩
abbrev main_cst_915 : Ref sig .tc := ⟨.hbm, 5104, rfl⟩
abbrev main_cst_916 : Ref sig .tc := ⟨.hbm, 5105, rfl⟩
abbrev main_call265_v0 : Ref sig .tc := ⟨.hbm, 5106, rfl⟩
abbrev main_call265_v1 : Ref sig .tc := ⟨.hbm, 5107, rfl⟩
abbrev main_call265_v2 : Ref sig .tc := ⟨.hbm, 5108, rfl⟩
abbrev main_call265_v3 : Ref sig .tc := ⟨.hbm, 5109, rfl⟩
abbrev main_call265_v4 : Ref sig .tc := ⟨.hbm, 5110, rfl⟩
abbrev main_v2861 : Ref sig .tc := ⟨.hbm, 5111, rfl⟩
abbrev main_v2862 : Ref sig .tc := ⟨.hbm, 5112, rfl⟩
abbrev main_v2863 : Ref sig .tc := ⟨.hbm, 5113, rfl⟩
abbrev main_v2864 : Ref sig .tc := ⟨.hbm, 5114, rfl⟩
abbrev main_v2865 : Ref sig .tc := ⟨.hbm, 5115, rfl⟩
abbrev main_v2866 : Ref sig .tc := ⟨.hbm, 5116, rfl⟩
abbrev main_v2867 : Ref sig .tc := ⟨.hbm, 5117, rfl⟩
abbrev main_v2868 : Ref sig .tc := ⟨.hbm, 5118, rfl⟩
abbrev main_v2869 : Ref sig .tc := ⟨.hbm, 5119, rfl⟩
abbrev main_v2870 : Ref sig .tc := ⟨.hbm, 5120, rfl⟩
abbrev main_cst_917 : Ref sig .tc := ⟨.hbm, 5121, rfl⟩
abbrev main_cst_918 : Ref sig .tc := ⟨.hbm, 5122, rfl⟩
abbrev main_call266_v0 : Ref sig .tc := ⟨.hbm, 5123, rfl⟩
abbrev main_call266_v1 : Ref sig .tc := ⟨.hbm, 5124, rfl⟩
abbrev main_call266_v2 : Ref sig .tc := ⟨.hbm, 5125, rfl⟩
abbrev main_call266_v3 : Ref sig .tc := ⟨.hbm, 5126, rfl⟩
abbrev main_call266_v4 : Ref sig .tc := ⟨.hbm, 5127, rfl⟩
abbrev main_v2871 : Ref sig .tc := ⟨.hbm, 5128, rfl⟩
abbrev main_cst_919 : Ref sig .tc := ⟨.hbm, 5129, rfl⟩
abbrev main_cst_920 : Ref sig .tc := ⟨.hbm, 5130, rfl⟩
abbrev main_call267_v0 : Ref sig .tc := ⟨.hbm, 5131, rfl⟩
abbrev main_call267_v1 : Ref sig .tc := ⟨.hbm, 5132, rfl⟩
abbrev main_call267_v2 : Ref sig .tc := ⟨.hbm, 5133, rfl⟩
abbrev main_call267_v3 : Ref sig .tc := ⟨.hbm, 5134, rfl⟩
abbrev main_call267_v4 : Ref sig .tc := ⟨.hbm, 5135, rfl⟩
abbrev main_v2872 : Ref sig .tc := ⟨.hbm, 5136, rfl⟩
abbrev main_v2873 : Ref sig .tc := ⟨.hbm, 5137, rfl⟩
abbrev main_v2874 : Ref sig .tc := ⟨.hbm, 5138, rfl⟩
abbrev main_v2875 : Ref sig .tc := ⟨.hbm, 5139, rfl⟩
abbrev main_v2876 : Ref sig .tc := ⟨.hbm, 5140, rfl⟩
abbrev main_v2877 : Ref sig .tc := ⟨.hbm, 5141, rfl⟩
abbrev main_v2878 : Ref sig .tc := ⟨.hbm, 5142, rfl⟩
abbrev main_v2879 : Ref sig .tc := ⟨.hbm, 5143, rfl⟩
abbrev main_v2880 : Ref sig .tc := ⟨.hbm, 5144, rfl⟩
abbrev main_v2881 : Ref sig .tc := ⟨.hbm, 5145, rfl⟩
abbrev main_cst_921 : Ref sig .tc := ⟨.hbm, 5146, rfl⟩
abbrev main_cst_922 : Ref sig .tc := ⟨.hbm, 5147, rfl⟩
abbrev main_call268_v0 : Ref sig .tc := ⟨.hbm, 5148, rfl⟩
abbrev main_call268_v1 : Ref sig .tc := ⟨.hbm, 5149, rfl⟩
abbrev main_call268_v2 : Ref sig .tc := ⟨.hbm, 5150, rfl⟩
abbrev main_call268_v3 : Ref sig .tc := ⟨.hbm, 5151, rfl⟩
abbrev main_call268_v4 : Ref sig .tc := ⟨.hbm, 5152, rfl⟩
abbrev main_v2882 : Ref sig .tc := ⟨.hbm, 5153, rfl⟩
abbrev main_cst_923 : Ref sig .tc := ⟨.hbm, 5154, rfl⟩
abbrev main_cst_924 : Ref sig .tc := ⟨.hbm, 5155, rfl⟩
abbrev main_call269_v0 : Ref sig .tc := ⟨.hbm, 5156, rfl⟩
abbrev main_call269_v1 : Ref sig .tc := ⟨.hbm, 5157, rfl⟩
abbrev main_call269_v2 : Ref sig .tc := ⟨.hbm, 5158, rfl⟩
abbrev main_call269_v3 : Ref sig .tc := ⟨.hbm, 5159, rfl⟩
abbrev main_call269_v4 : Ref sig .tc := ⟨.hbm, 5160, rfl⟩
abbrev main_v2883 : Ref sig .tc := ⟨.hbm, 5161, rfl⟩
abbrev main_v2884 : Ref sig .tc := ⟨.hbm, 5162, rfl⟩
abbrev main_v2885 : Ref sig .tc := ⟨.hbm, 5163, rfl⟩
abbrev main_v2886 : Ref sig .tc := ⟨.hbm, 5164, rfl⟩
abbrev main_v2887 : Ref sig .tc := ⟨.hbm, 5165, rfl⟩
abbrev main_v2888 : Ref sig .tc := ⟨.hbm, 5166, rfl⟩
abbrev main_v2889 : Ref sig .tc := ⟨.hbm, 5167, rfl⟩
abbrev main_v2890 : Ref sig .tc := ⟨.hbm, 5168, rfl⟩
abbrev main_cst_925 : Ref sig .tc := ⟨.hbm, 5169, rfl⟩
abbrev main_v2891 : Ref sig .tc := ⟨.hbm, 5170, rfl⟩
abbrev main_v2892 : Ref sig .tc := ⟨.hbm, 5171, rfl⟩
abbrev main_v2893 : Ref sig .tc := ⟨.hbm, 5172, rfl⟩
abbrev main_cst_926 : Ref sig .tc := ⟨.hbm, 5173, rfl⟩
abbrev main_v2894 : Ref sig .tc := ⟨.hbm, 5174, rfl⟩
abbrev main_v2895 : Ref sig .tc := ⟨.hbm, 5175, rfl⟩
abbrev main_cst_927 : Ref sig .tc := ⟨.hbm, 5176, rfl⟩
abbrev main_v2896 : Ref sig .tc := ⟨.hbm, 5177, rfl⟩
abbrev main_v2897 : Ref sig .tc := ⟨.hbm, 5178, rfl⟩
abbrev main_v2898 : Ref sig .tc := ⟨.hbm, 5179, rfl⟩
abbrev main_v2899 : Ref sig .tc := ⟨.hbm, 5180, rfl⟩
abbrev main_cst_928 : Ref sig .tc := ⟨.hbm, 5181, rfl⟩
abbrev main_v2900 : Ref sig .tc := ⟨.hbm, 5182, rfl⟩
abbrev main_v2901 : Ref sig .tc := ⟨.hbm, 5183, rfl⟩
abbrev main_v2902 : Ref sig .tc := ⟨.hbm, 5184, rfl⟩
abbrev main_v2903 : Ref sig .tc := ⟨.hbm, 5185, rfl⟩
abbrev main_v2904 : Ref sig .tc := ⟨.hbm, 5186, rfl⟩
abbrev main_v2905 : Ref sig .tc := ⟨.hbm, 5187, rfl⟩
abbrev main_v2906 : Ref sig .tc := ⟨.hbm, 5188, rfl⟩
abbrev main_cst_929 : Ref sig .tc := ⟨.hbm, 5189, rfl⟩
abbrev main_v2907 : Ref sig .tc := ⟨.hbm, 5190, rfl⟩
abbrev main_v2908 : Ref sig .tc := ⟨.hbm, 5191, rfl⟩
abbrev main_cst_930 : Ref sig .tc := ⟨.hbm, 5192, rfl⟩
abbrev main_v2909 : Ref sig .tc := ⟨.hbm, 5193, rfl⟩
abbrev main_v2910 : Ref sig .tc := ⟨.hbm, 5194, rfl⟩
abbrev main_v2911 : Ref sig .tc := ⟨.hbm, 5195, rfl⟩
abbrev main_v2912 : Ref sig .tc := ⟨.hbm, 5196, rfl⟩
abbrev main_v2913 : Ref sig .tc := ⟨.hbm, 5197, rfl⟩
abbrev main_v2914 : Ref sig .tc := ⟨.hbm, 5198, rfl⟩
abbrev main_cst_931 : Ref sig .tc := ⟨.hbm, 5199, rfl⟩
abbrev main_cst_932 : Ref sig .tc := ⟨.hbm, 5200, rfl⟩
abbrev main_call270_v0 : Ref sig .tc := ⟨.hbm, 5201, rfl⟩
abbrev main_call270_v1 : Ref sig .tc := ⟨.hbm, 5202, rfl⟩
abbrev main_call270_v2 : Ref sig .tc := ⟨.hbm, 5203, rfl⟩
abbrev main_call270_v3 : Ref sig .tc := ⟨.hbm, 5204, rfl⟩
abbrev main_call270_v4 : Ref sig .tc := ⟨.hbm, 5205, rfl⟩
abbrev main_v2915 : Ref sig .tc := ⟨.hbm, 5206, rfl⟩
abbrev main_cst_933 : Ref sig .tc := ⟨.hbm, 5207, rfl⟩
abbrev main_cst_934 : Ref sig .tc := ⟨.hbm, 5208, rfl⟩
abbrev main_call271_v0 : Ref sig .tc := ⟨.hbm, 5209, rfl⟩
abbrev main_call271_v1 : Ref sig .tc := ⟨.hbm, 5210, rfl⟩
abbrev main_call271_v2 : Ref sig .tc := ⟨.hbm, 5211, rfl⟩
abbrev main_call271_v3 : Ref sig .tc := ⟨.hbm, 5212, rfl⟩
abbrev main_call271_v4 : Ref sig .tc := ⟨.hbm, 5213, rfl⟩
abbrev main_v2916 : Ref sig .tc := ⟨.hbm, 5214, rfl⟩
abbrev main_v2917 : Ref sig .tc := ⟨.hbm, 5215, rfl⟩
abbrev main_v2918 : Ref sig .tc := ⟨.hbm, 5216, rfl⟩
abbrev main_v2919 : Ref sig .tc := ⟨.hbm, 5217, rfl⟩
abbrev main_v2920 : Ref sig .tc := ⟨.hbm, 5218, rfl⟩
abbrev main_v2921 : Ref sig .tc := ⟨.hbm, 5219, rfl⟩
abbrev main_v2922 : Ref sig .tc := ⟨.hbm, 5220, rfl⟩
abbrev main_v2923 : Ref sig .tc := ⟨.hbm, 5221, rfl⟩
abbrev main_cst_935 : Ref sig .tc := ⟨.hbm, 5222, rfl⟩
abbrev main_v2924 : Ref sig .tc := ⟨.hbm, 5223, rfl⟩
abbrev main_v2925 : Ref sig .tc := ⟨.hbm, 5224, rfl⟩
abbrev main_v2926 : Ref sig .tc := ⟨.hbm, 5225, rfl⟩
abbrev main_cst_936 : Ref sig .tc := ⟨.hbm, 5226, rfl⟩
abbrev main_v2927 : Ref sig .tc := ⟨.hbm, 5227, rfl⟩
abbrev main_v2928 : Ref sig .tc := ⟨.hbm, 5228, rfl⟩
abbrev main_cst_937 : Ref sig .tc := ⟨.hbm, 5229, rfl⟩
abbrev main_v2929 : Ref sig .tc := ⟨.hbm, 5230, rfl⟩
abbrev main_v2930 : Ref sig .tc := ⟨.hbm, 5231, rfl⟩
abbrev main_v2931 : Ref sig .tc := ⟨.hbm, 5232, rfl⟩
abbrev main_v2932 : Ref sig .tc := ⟨.hbm, 5233, rfl⟩
abbrev main_cst_938 : Ref sig .tc := ⟨.hbm, 5234, rfl⟩
abbrev main_v2933 : Ref sig .tc := ⟨.hbm, 5235, rfl⟩
abbrev main_v2934 : Ref sig .tc := ⟨.hbm, 5236, rfl⟩
abbrev main_v2935 : Ref sig .tc := ⟨.hbm, 5237, rfl⟩
abbrev main_v2936 : Ref sig .tc := ⟨.hbm, 5238, rfl⟩
abbrev main_v2937 : Ref sig .tc := ⟨.hbm, 5239, rfl⟩
abbrev main_v2938 : Ref sig .tc := ⟨.hbm, 5240, rfl⟩
abbrev main_v2939 : Ref sig .tc := ⟨.hbm, 5241, rfl⟩
abbrev main_v2940 : Ref sig .tc := ⟨.hbm, 5242, rfl⟩
abbrev main_v2941 : Ref sig .tc := ⟨.hbm, 5243, rfl⟩
abbrev main_v2942 : Ref sig .tc := ⟨.hbm, 5244, rfl⟩
abbrev main_v2943 : Ref sig .tc := ⟨.hbm, 5245, rfl⟩
abbrev main_cst_939 : Ref sig .tc := ⟨.hbm, 5246, rfl⟩
abbrev main_v2944 : Ref sig .tc := ⟨.hbm, 5247, rfl⟩
abbrev main_v2945 : Ref sig .tc := ⟨.hbm, 5248, rfl⟩
abbrev main_cst_940 : Ref sig .tc := ⟨.hbm, 5249, rfl⟩
abbrev main_v2946 : Ref sig .tc := ⟨.hbm, 5250, rfl⟩
abbrev main_v2947 : Ref sig .tc := ⟨.hbm, 5251, rfl⟩
abbrev main_v2948 : Ref sig .tc := ⟨.hbm, 5252, rfl⟩
abbrev main_v2949 : Ref sig .tc := ⟨.hbm, 5253, rfl⟩
abbrev main_v2950 : Ref sig .tc := ⟨.hbm, 5254, rfl⟩
abbrev main_v2951 : Ref sig .tc := ⟨.hbm, 5255, rfl⟩
abbrev main_cst_941 : Ref sig .tc := ⟨.hbm, 5256, rfl⟩
abbrev main_cst_942 : Ref sig .tc := ⟨.hbm, 5257, rfl⟩
abbrev main_call272_v0 : Ref sig .tc := ⟨.hbm, 5258, rfl⟩
abbrev main_call272_v1 : Ref sig .tc := ⟨.hbm, 5259, rfl⟩
abbrev main_call272_v2 : Ref sig .tc := ⟨.hbm, 5260, rfl⟩
abbrev main_call272_v3 : Ref sig .tc := ⟨.hbm, 5261, rfl⟩
abbrev main_call272_v4 : Ref sig .tc := ⟨.hbm, 5262, rfl⟩
abbrev main_v2952 : Ref sig .tc := ⟨.hbm, 5263, rfl⟩
abbrev main_cst_943 : Ref sig .tc := ⟨.hbm, 5264, rfl⟩
abbrev main_cst_944 : Ref sig .tc := ⟨.hbm, 5265, rfl⟩
abbrev main_call273_v0 : Ref sig .tc := ⟨.hbm, 5266, rfl⟩
abbrev main_call273_v1 : Ref sig .tc := ⟨.hbm, 5267, rfl⟩
abbrev main_call273_v2 : Ref sig .tc := ⟨.hbm, 5268, rfl⟩
abbrev main_call273_v3 : Ref sig .tc := ⟨.hbm, 5269, rfl⟩
abbrev main_call273_v4 : Ref sig .tc := ⟨.hbm, 5270, rfl⟩
abbrev main_v2953 : Ref sig .tc := ⟨.hbm, 5271, rfl⟩
abbrev main_v2954 : Ref sig .tc := ⟨.hbm, 5272, rfl⟩
abbrev main_v2955 : Ref sig .tc := ⟨.hbm, 5273, rfl⟩
abbrev main_v2956 : Ref sig .tc := ⟨.hbm, 5274, rfl⟩
abbrev main_v2957 : Ref sig .tc := ⟨.hbm, 5275, rfl⟩
abbrev main_v2958 : Ref sig .tc := ⟨.hbm, 5276, rfl⟩
abbrev main_v2959 : Ref sig .tc := ⟨.hbm, 5277, rfl⟩
abbrev main_v2960 : Ref sig .tc := ⟨.hbm, 5278, rfl⟩
abbrev main_v2961 : Ref sig .tc := ⟨.hbm, 5279, rfl⟩
abbrev main_v2962 : Ref sig .tc := ⟨.hbm, 5280, rfl⟩
abbrev main_cst_945 : Ref sig .tc := ⟨.hbm, 5281, rfl⟩
abbrev main_cst_946 : Ref sig .tc := ⟨.hbm, 5282, rfl⟩
abbrev main_call274_v0 : Ref sig .tc := ⟨.hbm, 5283, rfl⟩
abbrev main_call274_v1 : Ref sig .tc := ⟨.hbm, 5284, rfl⟩
abbrev main_call274_v2 : Ref sig .tc := ⟨.hbm, 5285, rfl⟩
abbrev main_call274_v3 : Ref sig .tc := ⟨.hbm, 5286, rfl⟩
abbrev main_call274_v4 : Ref sig .tc := ⟨.hbm, 5287, rfl⟩
abbrev main_v2963 : Ref sig .tc := ⟨.hbm, 5288, rfl⟩
abbrev main_cst_947 : Ref sig .tc := ⟨.hbm, 5289, rfl⟩
abbrev main_cst_948 : Ref sig .tc := ⟨.hbm, 5290, rfl⟩
abbrev main_call275_v0 : Ref sig .tc := ⟨.hbm, 5291, rfl⟩
abbrev main_call275_v1 : Ref sig .tc := ⟨.hbm, 5292, rfl⟩
abbrev main_call275_v2 : Ref sig .tc := ⟨.hbm, 5293, rfl⟩
abbrev main_call275_v3 : Ref sig .tc := ⟨.hbm, 5294, rfl⟩
abbrev main_call275_v4 : Ref sig .tc := ⟨.hbm, 5295, rfl⟩
abbrev main_v2964 : Ref sig .tc := ⟨.hbm, 5296, rfl⟩
abbrev main_v2965 : Ref sig .tc := ⟨.hbm, 5297, rfl⟩
abbrev main_v2966 : Ref sig .tc := ⟨.hbm, 5298, rfl⟩
abbrev main_v2967 : Ref sig .tc := ⟨.hbm, 5299, rfl⟩
abbrev main_v2968 : Ref sig .tc := ⟨.hbm, 5300, rfl⟩
abbrev main_v2969 : Ref sig .tc := ⟨.hbm, 5301, rfl⟩
abbrev main_v2970 : Ref sig .tc := ⟨.hbm, 5302, rfl⟩
abbrev main_v2971 : Ref sig .tc := ⟨.hbm, 5303, rfl⟩
abbrev main_cst_949 : Ref sig .tc := ⟨.hbm, 5304, rfl⟩
abbrev main_v2972 : Ref sig .tc := ⟨.hbm, 5305, rfl⟩
abbrev main_v2973 : Ref sig .tc := ⟨.hbm, 5306, rfl⟩
abbrev main_v2974 : Ref sig .tc := ⟨.hbm, 5307, rfl⟩
abbrev main_cst_950 : Ref sig .tc := ⟨.hbm, 5308, rfl⟩
abbrev main_v2975 : Ref sig .tc := ⟨.hbm, 5309, rfl⟩
abbrev main_v2976 : Ref sig .tc := ⟨.hbm, 5310, rfl⟩
abbrev main_cst_951 : Ref sig .tc := ⟨.hbm, 5311, rfl⟩
abbrev main_v2977 : Ref sig .tc := ⟨.hbm, 5312, rfl⟩
abbrev main_v2978 : Ref sig .tc := ⟨.hbm, 5313, rfl⟩
abbrev main_v2979 : Ref sig .tc := ⟨.hbm, 5314, rfl⟩
abbrev main_v2980 : Ref sig .tc := ⟨.hbm, 5315, rfl⟩
abbrev main_cst_952 : Ref sig .tc := ⟨.hbm, 5316, rfl⟩
abbrev main_v2981 : Ref sig .tc := ⟨.hbm, 5317, rfl⟩
abbrev main_v2982 : Ref sig .tc := ⟨.hbm, 5318, rfl⟩
abbrev main_v2983 : Ref sig .tc := ⟨.hbm, 5319, rfl⟩
abbrev main_v2984 : Ref sig .tc := ⟨.hbm, 5320, rfl⟩
abbrev main_v2985 : Ref sig .tc := ⟨.hbm, 5321, rfl⟩
abbrev main_v2986 : Ref sig .tc := ⟨.hbm, 5322, rfl⟩
abbrev main_v2987 : Ref sig .tc := ⟨.hbm, 5323, rfl⟩
abbrev main_cst_953 : Ref sig .tc := ⟨.hbm, 5324, rfl⟩
abbrev main_v2988 : Ref sig .tc := ⟨.hbm, 5325, rfl⟩
abbrev main_v2989 : Ref sig .tc := ⟨.hbm, 5326, rfl⟩
abbrev main_cst_954 : Ref sig .tc := ⟨.hbm, 5327, rfl⟩
abbrev main_v2990 : Ref sig .tc := ⟨.hbm, 5328, rfl⟩
abbrev main_v2991 : Ref sig .tc := ⟨.hbm, 5329, rfl⟩
abbrev main_v2992 : Ref sig .tc := ⟨.hbm, 5330, rfl⟩
abbrev main_v2993 : Ref sig .tc := ⟨.hbm, 5331, rfl⟩
abbrev main_v2994 : Ref sig .tc := ⟨.hbm, 5332, rfl⟩
abbrev main_v2995 : Ref sig .tc := ⟨.hbm, 5333, rfl⟩
abbrev main_cst_955 : Ref sig .tc := ⟨.hbm, 5334, rfl⟩
abbrev main_cst_956 : Ref sig .tc := ⟨.hbm, 5335, rfl⟩
abbrev main_call276_v0 : Ref sig .tc := ⟨.hbm, 5336, rfl⟩
abbrev main_call276_v1 : Ref sig .tc := ⟨.hbm, 5337, rfl⟩
abbrev main_call276_v2 : Ref sig .tc := ⟨.hbm, 5338, rfl⟩
abbrev main_call276_v3 : Ref sig .tc := ⟨.hbm, 5339, rfl⟩
abbrev main_call276_v4 : Ref sig .tc := ⟨.hbm, 5340, rfl⟩
abbrev main_v2996 : Ref sig .tc := ⟨.hbm, 5341, rfl⟩
abbrev main_cst_957 : Ref sig .tc := ⟨.hbm, 5342, rfl⟩
abbrev main_cst_958 : Ref sig .tc := ⟨.hbm, 5343, rfl⟩
abbrev main_call277_v0 : Ref sig .tc := ⟨.hbm, 5344, rfl⟩
abbrev main_call277_v1 : Ref sig .tc := ⟨.hbm, 5345, rfl⟩
abbrev main_call277_v2 : Ref sig .tc := ⟨.hbm, 5346, rfl⟩
abbrev main_call277_v3 : Ref sig .tc := ⟨.hbm, 5347, rfl⟩
abbrev main_call277_v4 : Ref sig .tc := ⟨.hbm, 5348, rfl⟩
abbrev main_v2997 : Ref sig .tc := ⟨.hbm, 5349, rfl⟩
abbrev main_v2998 : Ref sig .tc := ⟨.hbm, 5350, rfl⟩
abbrev main_v2999 : Ref sig .tc := ⟨.hbm, 5351, rfl⟩
abbrev main_v3000 : Ref sig .tc := ⟨.hbm, 5352, rfl⟩
abbrev main_v3001 : Ref sig .tc := ⟨.hbm, 5353, rfl⟩
abbrev main_v3002 : Ref sig .tc := ⟨.hbm, 5354, rfl⟩
abbrev main_v3003 : Ref sig .tc := ⟨.hbm, 5355, rfl⟩
abbrev main_v3004 : Ref sig .tc := ⟨.hbm, 5356, rfl⟩
abbrev main_cst_959 : Ref sig .tc := ⟨.hbm, 5357, rfl⟩
abbrev main_v3005 : Ref sig .tc := ⟨.hbm, 5358, rfl⟩
abbrev main_v3006 : Ref sig .tc := ⟨.hbm, 5359, rfl⟩
abbrev main_v3007 : Ref sig .tc := ⟨.hbm, 5360, rfl⟩
abbrev main_cst_960 : Ref sig .tc := ⟨.hbm, 5361, rfl⟩
abbrev main_v3008 : Ref sig .tc := ⟨.hbm, 5362, rfl⟩
abbrev main_v3009 : Ref sig .tc := ⟨.hbm, 5363, rfl⟩
abbrev main_cst_961 : Ref sig .tc := ⟨.hbm, 5364, rfl⟩
abbrev main_v3010 : Ref sig .tc := ⟨.hbm, 5365, rfl⟩
abbrev main_v3011 : Ref sig .tc := ⟨.hbm, 5366, rfl⟩
abbrev main_v3012 : Ref sig .tc := ⟨.hbm, 5367, rfl⟩
abbrev main_v3013 : Ref sig .tc := ⟨.hbm, 5368, rfl⟩
abbrev main_cst_962 : Ref sig .tc := ⟨.hbm, 5369, rfl⟩
abbrev main_v3014 : Ref sig .tc := ⟨.hbm, 5370, rfl⟩
abbrev main_v3015 : Ref sig .tc := ⟨.hbm, 5371, rfl⟩
abbrev main_v3016 : Ref sig .tc := ⟨.hbm, 5372, rfl⟩
abbrev main_v3017 : Ref sig .tc := ⟨.hbm, 5373, rfl⟩
abbrev main_v3018 : Ref sig .tc := ⟨.hbm, 5374, rfl⟩
abbrev main_v3019 : Ref sig .tc := ⟨.hbm, 5375, rfl⟩
abbrev main_v3020 : Ref sig .tc := ⟨.hbm, 5376, rfl⟩
abbrev main_v3021 : Ref sig .tc := ⟨.hbm, 5377, rfl⟩
abbrev main_v3022 : Ref sig .tc := ⟨.hbm, 5378, rfl⟩
abbrev main_v3023 : Ref sig .tc := ⟨.hbm, 5379, rfl⟩
abbrev main_v3024 : Ref sig .tc := ⟨.hbm, 5380, rfl⟩
abbrev main_v3025 : Ref sig .tc := ⟨.hbm, 5381, rfl⟩
abbrev main_v3026 : Ref sig .tc := ⟨.hbm, 5382, rfl⟩
abbrev main_v3027 : Ref sig .tc := ⟨.hbm, 5383, rfl⟩
abbrev main_v3028 : Ref sig .tc := ⟨.hbm, 5384, rfl⟩
abbrev main_cst_963 : Ref sig .tc := ⟨.hbm, 5385, rfl⟩
abbrev main_v3029 : Ref sig .tc := ⟨.hbm, 5386, rfl⟩
abbrev main_v3030 : Ref sig .tc := ⟨.hbm, 5387, rfl⟩
abbrev main_cst_964 : Ref sig .tc := ⟨.hbm, 5388, rfl⟩
abbrev main_v3031 : Ref sig .tc := ⟨.hbm, 5389, rfl⟩
abbrev main_v3032 : Ref sig .tc := ⟨.hbm, 5390, rfl⟩
abbrev main_v3033 : Ref sig .tc := ⟨.hbm, 5391, rfl⟩
abbrev main_v3034 : Ref sig .tc := ⟨.hbm, 5392, rfl⟩
abbrev main_v3035 : Ref sig .tc := ⟨.hbm, 5393, rfl⟩
abbrev main_v3036 : Ref sig .tc := ⟨.hbm, 5394, rfl⟩
abbrev main_cst_965 : Ref sig .tc := ⟨.hbm, 5395, rfl⟩
abbrev main_cst_966 : Ref sig .tc := ⟨.hbm, 5396, rfl⟩
abbrev main_call278_v0 : Ref sig .tc := ⟨.hbm, 5397, rfl⟩
abbrev main_call278_v1 : Ref sig .tc := ⟨.hbm, 5398, rfl⟩
abbrev main_call278_v2 : Ref sig .tc := ⟨.hbm, 5399, rfl⟩
abbrev main_call278_v3 : Ref sig .tc := ⟨.hbm, 5400, rfl⟩
abbrev main_call278_v4 : Ref sig .tc := ⟨.hbm, 5401, rfl⟩
abbrev main_v3037 : Ref sig .tc := ⟨.hbm, 5402, rfl⟩
abbrev main_cst_967 : Ref sig .tc := ⟨.hbm, 5403, rfl⟩
abbrev main_cst_968 : Ref sig .tc := ⟨.hbm, 5404, rfl⟩
abbrev main_call279_v0 : Ref sig .tc := ⟨.hbm, 5405, rfl⟩
abbrev main_call279_v1 : Ref sig .tc := ⟨.hbm, 5406, rfl⟩
abbrev main_call279_v2 : Ref sig .tc := ⟨.hbm, 5407, rfl⟩
abbrev main_call279_v3 : Ref sig .tc := ⟨.hbm, 5408, rfl⟩
abbrev main_call279_v4 : Ref sig .tc := ⟨.hbm, 5409, rfl⟩
abbrev main_v3038 : Ref sig .tc := ⟨.hbm, 5410, rfl⟩
abbrev main_v3039 : Ref sig .tc := ⟨.hbm, 5411, rfl⟩
abbrev main_v3040 : Ref sig .tc := ⟨.hbm, 5412, rfl⟩
abbrev main_v3041 : Ref sig .tc := ⟨.hbm, 5413, rfl⟩
abbrev main_v3042 : Ref sig .tc := ⟨.hbm, 5414, rfl⟩
abbrev main_v3043 : Ref sig .tc := ⟨.hbm, 5415, rfl⟩
abbrev main_v3044 : Ref sig .tc := ⟨.hbm, 5416, rfl⟩
abbrev main_v3045 : Ref sig .tc := ⟨.hbm, 5417, rfl⟩
abbrev main_v3046 : Ref sig .tc := ⟨.hbm, 5418, rfl⟩
abbrev main_v3047 : Ref sig .tc := ⟨.hbm, 5419, rfl⟩
abbrev main_cst_969 : Ref sig .tc := ⟨.hbm, 5420, rfl⟩
abbrev main_cst_970 : Ref sig .tc := ⟨.hbm, 5421, rfl⟩
abbrev main_call280_v0 : Ref sig .tc := ⟨.hbm, 5422, rfl⟩
abbrev main_call280_v1 : Ref sig .tc := ⟨.hbm, 5423, rfl⟩
abbrev main_call280_v2 : Ref sig .tc := ⟨.hbm, 5424, rfl⟩
abbrev main_call280_v3 : Ref sig .tc := ⟨.hbm, 5425, rfl⟩
abbrev main_call280_v4 : Ref sig .tc := ⟨.hbm, 5426, rfl⟩
abbrev main_v3048 : Ref sig .tc := ⟨.hbm, 5427, rfl⟩
abbrev main_cst_971 : Ref sig .tc := ⟨.hbm, 5428, rfl⟩
abbrev main_cst_972 : Ref sig .tc := ⟨.hbm, 5429, rfl⟩
abbrev main_call281_v0 : Ref sig .tc := ⟨.hbm, 5430, rfl⟩
abbrev main_call281_v1 : Ref sig .tc := ⟨.hbm, 5431, rfl⟩
abbrev main_call281_v2 : Ref sig .tc := ⟨.hbm, 5432, rfl⟩
abbrev main_call281_v3 : Ref sig .tc := ⟨.hbm, 5433, rfl⟩
abbrev main_call281_v4 : Ref sig .tc := ⟨.hbm, 5434, rfl⟩
abbrev main_v3049 : Ref sig .tc := ⟨.hbm, 5435, rfl⟩
abbrev main_v3050 : Ref sig .tc := ⟨.hbm, 5436, rfl⟩
abbrev main_v3051 : Ref sig .tc := ⟨.hbm, 5437, rfl⟩
abbrev main_v3052 : Ref sig .tc := ⟨.hbm, 5438, rfl⟩
abbrev main_v3053 : Ref sig .tc := ⟨.hbm, 5439, rfl⟩
abbrev main_v3054 : Ref sig .tc := ⟨.hbm, 5440, rfl⟩
abbrev main_v3055 : Ref sig .tc := ⟨.hbm, 5441, rfl⟩
abbrev main_v3056 : Ref sig .tc := ⟨.hbm, 5442, rfl⟩
abbrev main_v3057 : Ref sig .tc := ⟨.hbm, 5443, rfl⟩
abbrev main_v3058 : Ref sig .tc := ⟨.hbm, 5444, rfl⟩
abbrev main_cst_973 : Ref sig .tc := ⟨.hbm, 5445, rfl⟩
abbrev main_cst_974 : Ref sig .tc := ⟨.hbm, 5446, rfl⟩
abbrev main_call282_v0 : Ref sig .tc := ⟨.hbm, 5447, rfl⟩
abbrev main_call282_v1 : Ref sig .tc := ⟨.hbm, 5448, rfl⟩
abbrev main_call282_v2 : Ref sig .tc := ⟨.hbm, 5449, rfl⟩
abbrev main_call282_v3 : Ref sig .tc := ⟨.hbm, 5450, rfl⟩
abbrev main_call282_v4 : Ref sig .tc := ⟨.hbm, 5451, rfl⟩
abbrev main_v3059 : Ref sig .tc := ⟨.hbm, 5452, rfl⟩
abbrev main_cst_975 : Ref sig .tc := ⟨.hbm, 5453, rfl⟩
abbrev main_cst_976 : Ref sig .tc := ⟨.hbm, 5454, rfl⟩
abbrev main_call283_v0 : Ref sig .tc := ⟨.hbm, 5455, rfl⟩
abbrev main_call283_v1 : Ref sig .tc := ⟨.hbm, 5456, rfl⟩
abbrev main_call283_v2 : Ref sig .tc := ⟨.hbm, 5457, rfl⟩
abbrev main_call283_v3 : Ref sig .tc := ⟨.hbm, 5458, rfl⟩
abbrev main_call283_v4 : Ref sig .tc := ⟨.hbm, 5459, rfl⟩
abbrev main_v3060 : Ref sig .tc := ⟨.hbm, 5460, rfl⟩
abbrev main_v3061 : Ref sig .tc := ⟨.hbm, 5461, rfl⟩
abbrev main_v3062 : Ref sig .tc := ⟨.hbm, 5462, rfl⟩
abbrev main_v3063 : Ref sig .tc := ⟨.hbm, 5463, rfl⟩
abbrev main_v3064 : Ref sig .tc := ⟨.hbm, 5464, rfl⟩
abbrev main_v3065 : Ref sig .tc := ⟨.hbm, 5465, rfl⟩
abbrev main_v3066 : Ref sig .tc := ⟨.hbm, 5466, rfl⟩
abbrev main_v3067 : Ref sig .tc := ⟨.hbm, 5467, rfl⟩
abbrev main_cst_977 : Ref sig .tc := ⟨.hbm, 5468, rfl⟩
abbrev main_v3068 : Ref sig .tc := ⟨.hbm, 5469, rfl⟩
abbrev main_v3069 : Ref sig .tc := ⟨.hbm, 5470, rfl⟩
abbrev main_v3070 : Ref sig .tc := ⟨.hbm, 5471, rfl⟩
abbrev main_cst_978 : Ref sig .tc := ⟨.hbm, 5472, rfl⟩
abbrev main_v3071 : Ref sig .tc := ⟨.hbm, 5473, rfl⟩
abbrev main_v3072 : Ref sig .tc := ⟨.hbm, 5474, rfl⟩
abbrev main_cst_979 : Ref sig .tc := ⟨.hbm, 5475, rfl⟩
abbrev main_v3073 : Ref sig .tc := ⟨.hbm, 5476, rfl⟩
abbrev main_v3074 : Ref sig .tc := ⟨.hbm, 5477, rfl⟩
abbrev main_v3075 : Ref sig .tc := ⟨.hbm, 5478, rfl⟩
abbrev main_v3076 : Ref sig .tc := ⟨.hbm, 5479, rfl⟩
abbrev main_cst_980 : Ref sig .tc := ⟨.hbm, 5480, rfl⟩
abbrev main_v3077 : Ref sig .tc := ⟨.hbm, 5481, rfl⟩
abbrev main_v3078 : Ref sig .tc := ⟨.hbm, 5482, rfl⟩
abbrev main_v3079 : Ref sig .tc := ⟨.hbm, 5483, rfl⟩
abbrev main_v3080 : Ref sig .tc := ⟨.hbm, 5484, rfl⟩
abbrev main_v3081 : Ref sig .tc := ⟨.hbm, 5485, rfl⟩
abbrev main_v3082 : Ref sig .tc := ⟨.hbm, 5486, rfl⟩
abbrev main_v3083 : Ref sig .tc := ⟨.hbm, 5487, rfl⟩
abbrev main_cst_981 : Ref sig .tc := ⟨.hbm, 5488, rfl⟩
abbrev main_v3084 : Ref sig .tc := ⟨.hbm, 5489, rfl⟩
abbrev main_v3085 : Ref sig .tc := ⟨.hbm, 5490, rfl⟩
abbrev main_cst_982 : Ref sig .tc := ⟨.hbm, 5491, rfl⟩
abbrev main_v3086 : Ref sig .tc := ⟨.hbm, 5492, rfl⟩
abbrev main_v3087 : Ref sig .tc := ⟨.hbm, 5493, rfl⟩
abbrev main_v3088 : Ref sig .tc := ⟨.hbm, 5494, rfl⟩
abbrev main_v3089 : Ref sig .tc := ⟨.hbm, 5495, rfl⟩
abbrev main_v3090 : Ref sig .tc := ⟨.hbm, 5496, rfl⟩
abbrev main_v3091 : Ref sig .tc := ⟨.hbm, 5497, rfl⟩
abbrev main_cst_983 : Ref sig .tc := ⟨.hbm, 5498, rfl⟩
abbrev main_cst_984 : Ref sig .tc := ⟨.hbm, 5499, rfl⟩
abbrev main_call284_v0 : Ref sig .tc := ⟨.hbm, 5500, rfl⟩
abbrev main_call284_v1 : Ref sig .tc := ⟨.hbm, 5501, rfl⟩
abbrev main_call284_v2 : Ref sig .tc := ⟨.hbm, 5502, rfl⟩
abbrev main_call284_v3 : Ref sig .tc := ⟨.hbm, 5503, rfl⟩
abbrev main_call284_v4 : Ref sig .tc := ⟨.hbm, 5504, rfl⟩
abbrev main_v3092 : Ref sig .tc := ⟨.hbm, 5505, rfl⟩
abbrev main_cst_985 : Ref sig .tc := ⟨.hbm, 5506, rfl⟩
abbrev main_cst_986 : Ref sig .tc := ⟨.hbm, 5507, rfl⟩
abbrev main_call285_v0 : Ref sig .tc := ⟨.hbm, 5508, rfl⟩
abbrev main_call285_v1 : Ref sig .tc := ⟨.hbm, 5509, rfl⟩
abbrev main_call285_v2 : Ref sig .tc := ⟨.hbm, 5510, rfl⟩
abbrev main_call285_v3 : Ref sig .tc := ⟨.hbm, 5511, rfl⟩
abbrev main_call285_v4 : Ref sig .tc := ⟨.hbm, 5512, rfl⟩
abbrev main_v3093 : Ref sig .tc := ⟨.hbm, 5513, rfl⟩
abbrev main_v3094 : Ref sig .tc := ⟨.hbm, 5514, rfl⟩
abbrev main_v3095 : Ref sig .tc := ⟨.hbm, 5515, rfl⟩
abbrev main_v3096 : Ref sig .tc := ⟨.hbm, 5516, rfl⟩
abbrev main_v3097 : Ref sig .tc := ⟨.hbm, 5517, rfl⟩
abbrev main_v3098 : Ref sig .tc := ⟨.hbm, 5518, rfl⟩
abbrev main_v3099 : Ref sig .tc := ⟨.hbm, 5519, rfl⟩
abbrev main_v3100 : Ref sig .tc := ⟨.hbm, 5520, rfl⟩
abbrev main_cst_987 : Ref sig .tc := ⟨.hbm, 5521, rfl⟩
abbrev main_v3101 : Ref sig .tc := ⟨.hbm, 5522, rfl⟩
abbrev main_v3102 : Ref sig .tc := ⟨.hbm, 5523, rfl⟩
abbrev main_v3103 : Ref sig .tc := ⟨.hbm, 5524, rfl⟩
abbrev main_cst_988 : Ref sig .tc := ⟨.hbm, 5525, rfl⟩
abbrev main_v3104 : Ref sig .tc := ⟨.hbm, 5526, rfl⟩
abbrev main_v3105 : Ref sig .tc := ⟨.hbm, 5527, rfl⟩
abbrev main_cst_989 : Ref sig .tc := ⟨.hbm, 5528, rfl⟩
abbrev main_v3106 : Ref sig .tc := ⟨.hbm, 5529, rfl⟩
abbrev main_v3107 : Ref sig .tc := ⟨.hbm, 5530, rfl⟩
abbrev main_v3108 : Ref sig .tc := ⟨.hbm, 5531, rfl⟩
abbrev main_v3109 : Ref sig .tc := ⟨.hbm, 5532, rfl⟩
abbrev main_cst_990 : Ref sig .tc := ⟨.hbm, 5533, rfl⟩
abbrev main_v3110 : Ref sig .tc := ⟨.hbm, 5534, rfl⟩
abbrev main_v3111 : Ref sig .tc := ⟨.hbm, 5535, rfl⟩
abbrev main_v3112 : Ref sig .tc := ⟨.hbm, 5536, rfl⟩
abbrev main_v3113 : Ref sig .tc := ⟨.hbm, 5537, rfl⟩
abbrev main_v3114 : Ref sig .tc := ⟨.hbm, 5538, rfl⟩
abbrev main_v3115 : Ref sig .tc := ⟨.hbm, 5539, rfl⟩
abbrev main_v3116 : Ref sig .tc := ⟨.hbm, 5540, rfl⟩
abbrev main_v3117 : Ref sig .tc := ⟨.hbm, 5541, rfl⟩
abbrev main_v3118 : Ref sig .tc := ⟨.hbm, 5542, rfl⟩
abbrev main_v3119 : Ref sig .tc := ⟨.hbm, 5543, rfl⟩
abbrev main_v3120 : Ref sig .tc := ⟨.hbm, 5544, rfl⟩
abbrev main_cst_991 : Ref sig .tc := ⟨.hbm, 5545, rfl⟩
abbrev main_v3121 : Ref sig .tc := ⟨.hbm, 5546, rfl⟩
abbrev main_v3122 : Ref sig .tc := ⟨.hbm, 5547, rfl⟩
abbrev main_cst_992 : Ref sig .tc := ⟨.hbm, 5548, rfl⟩
abbrev main_v3123 : Ref sig .tc := ⟨.hbm, 5549, rfl⟩
abbrev main_v3124 : Ref sig .tc := ⟨.hbm, 5550, rfl⟩
abbrev main_v3125 : Ref sig .tc := ⟨.hbm, 5551, rfl⟩
abbrev main_v3126 : Ref sig .tc := ⟨.hbm, 5552, rfl⟩
abbrev main_v3127 : Ref sig .tc := ⟨.hbm, 5553, rfl⟩
abbrev main_v3128 : Ref sig .tc := ⟨.hbm, 5554, rfl⟩
abbrev main_cst_993 : Ref sig .tc := ⟨.hbm, 5555, rfl⟩
abbrev main_cst_994 : Ref sig .tc := ⟨.hbm, 5556, rfl⟩
abbrev main_call286_v0 : Ref sig .tc := ⟨.hbm, 5557, rfl⟩
abbrev main_call286_v1 : Ref sig .tc := ⟨.hbm, 5558, rfl⟩
abbrev main_call286_v2 : Ref sig .tc := ⟨.hbm, 5559, rfl⟩
abbrev main_call286_v3 : Ref sig .tc := ⟨.hbm, 5560, rfl⟩
abbrev main_call286_v4 : Ref sig .tc := ⟨.hbm, 5561, rfl⟩
abbrev main_v3129 : Ref sig .tc := ⟨.hbm, 5562, rfl⟩
abbrev main_cst_995 : Ref sig .tc := ⟨.hbm, 5563, rfl⟩
abbrev main_cst_996 : Ref sig .tc := ⟨.hbm, 5564, rfl⟩
abbrev main_call287_v0 : Ref sig .tc := ⟨.hbm, 5565, rfl⟩
abbrev main_call287_v1 : Ref sig .tc := ⟨.hbm, 5566, rfl⟩
abbrev main_call287_v2 : Ref sig .tc := ⟨.hbm, 5567, rfl⟩
abbrev main_call287_v3 : Ref sig .tc := ⟨.hbm, 5568, rfl⟩
abbrev main_call287_v4 : Ref sig .tc := ⟨.hbm, 5569, rfl⟩
abbrev main_v3130 : Ref sig .tc := ⟨.hbm, 5570, rfl⟩
abbrev main_v3131 : Ref sig .tc := ⟨.hbm, 5571, rfl⟩
abbrev main_v3132 : Ref sig .tc := ⟨.hbm, 5572, rfl⟩
abbrev main_v3133 : Ref sig .tc := ⟨.hbm, 5573, rfl⟩
abbrev main_v3134 : Ref sig .tc := ⟨.hbm, 5574, rfl⟩
abbrev main_v3135 : Ref sig .tc := ⟨.hbm, 5575, rfl⟩
abbrev main_v3136 : Ref sig .tc := ⟨.hbm, 5576, rfl⟩
abbrev main_v3137 : Ref sig .tc := ⟨.hbm, 5577, rfl⟩
abbrev main_v3138 : Ref sig .tc := ⟨.hbm, 5578, rfl⟩
abbrev main_v3139 : Ref sig .tc := ⟨.hbm, 5579, rfl⟩
abbrev main_cst_997 : Ref sig .tc := ⟨.hbm, 5580, rfl⟩
abbrev main_cst_998 : Ref sig .tc := ⟨.hbm, 5581, rfl⟩
abbrev main_call288_v0 : Ref sig .tc := ⟨.hbm, 5582, rfl⟩
abbrev main_call288_v1 : Ref sig .tc := ⟨.hbm, 5583, rfl⟩
abbrev main_call288_v2 : Ref sig .tc := ⟨.hbm, 5584, rfl⟩
abbrev main_call288_v3 : Ref sig .tc := ⟨.hbm, 5585, rfl⟩
abbrev main_call288_v4 : Ref sig .tc := ⟨.hbm, 5586, rfl⟩
abbrev main_v3140 : Ref sig .tc := ⟨.hbm, 5587, rfl⟩
abbrev main_cst_999 : Ref sig .tc := ⟨.hbm, 5588, rfl⟩
abbrev main_cst_1000 : Ref sig .tc := ⟨.hbm, 5589, rfl⟩
abbrev main_call289_v0 : Ref sig .tc := ⟨.hbm, 5590, rfl⟩
abbrev main_call289_v1 : Ref sig .tc := ⟨.hbm, 5591, rfl⟩
abbrev main_call289_v2 : Ref sig .tc := ⟨.hbm, 5592, rfl⟩
abbrev main_call289_v3 : Ref sig .tc := ⟨.hbm, 5593, rfl⟩
abbrev main_call289_v4 : Ref sig .tc := ⟨.hbm, 5594, rfl⟩
abbrev main_v3141 : Ref sig .tc := ⟨.hbm, 5595, rfl⟩
abbrev main_v3142 : Ref sig .tc := ⟨.hbm, 5596, rfl⟩
abbrev main_v3143 : Ref sig .tc := ⟨.hbm, 5597, rfl⟩
abbrev main_v3144 : Ref sig .tc := ⟨.hbm, 5598, rfl⟩
abbrev main_v3145 : Ref sig .tc := ⟨.hbm, 5599, rfl⟩
abbrev main_v3146 : Ref sig .tc := ⟨.hbm, 5600, rfl⟩
abbrev main_v3147 : Ref sig .tc := ⟨.hbm, 5601, rfl⟩
abbrev main_v3148 : Ref sig .tc := ⟨.hbm, 5602, rfl⟩
abbrev main_cst_1001 : Ref sig .tc := ⟨.hbm, 5603, rfl⟩
abbrev main_v3149 : Ref sig .tc := ⟨.hbm, 5604, rfl⟩
abbrev main_v3150 : Ref sig .tc := ⟨.hbm, 5605, rfl⟩
abbrev main_v3151 : Ref sig .tc := ⟨.hbm, 5606, rfl⟩
abbrev main_cst_1002 : Ref sig .tc := ⟨.hbm, 5607, rfl⟩
abbrev main_v3152 : Ref sig .tc := ⟨.hbm, 5608, rfl⟩
abbrev main_v3153 : Ref sig .tc := ⟨.hbm, 5609, rfl⟩
abbrev main_cst_1003 : Ref sig .tc := ⟨.hbm, 5610, rfl⟩
abbrev main_v3154 : Ref sig .tc := ⟨.hbm, 5611, rfl⟩
abbrev main_v3155 : Ref sig .tc := ⟨.hbm, 5612, rfl⟩
abbrev main_v3156 : Ref sig .tc := ⟨.hbm, 5613, rfl⟩
abbrev main_v3157 : Ref sig .tc := ⟨.hbm, 5614, rfl⟩
abbrev main_cst_1004 : Ref sig .tc := ⟨.hbm, 5615, rfl⟩
abbrev main_v3158 : Ref sig .tc := ⟨.hbm, 5616, rfl⟩
abbrev main_v3159 : Ref sig .tc := ⟨.hbm, 5617, rfl⟩
abbrev main_v3160 : Ref sig .tc := ⟨.hbm, 5618, rfl⟩
abbrev main_v3161 : Ref sig .tc := ⟨.hbm, 5619, rfl⟩
abbrev main_v3162 : Ref sig .tc := ⟨.hbm, 5620, rfl⟩
abbrev main_v3163 : Ref sig .tc := ⟨.hbm, 5621, rfl⟩
abbrev main_v3164 : Ref sig .tc := ⟨.hbm, 5622, rfl⟩
abbrev main_cst_1005 : Ref sig .tc := ⟨.hbm, 5623, rfl⟩
abbrev main_v3165 : Ref sig .tc := ⟨.hbm, 5624, rfl⟩
abbrev main_v3166 : Ref sig .tc := ⟨.hbm, 5625, rfl⟩
abbrev main_cst_1006 : Ref sig .tc := ⟨.hbm, 5626, rfl⟩
abbrev main_v3167 : Ref sig .tc := ⟨.hbm, 5627, rfl⟩
abbrev main_v3168 : Ref sig .tc := ⟨.hbm, 5628, rfl⟩
abbrev main_v3169 : Ref sig .tc := ⟨.hbm, 5629, rfl⟩
abbrev main_v3170 : Ref sig .tc := ⟨.hbm, 5630, rfl⟩
abbrev main_v3171 : Ref sig .tc := ⟨.hbm, 5631, rfl⟩
abbrev main_v3172 : Ref sig .tc := ⟨.hbm, 5632, rfl⟩
abbrev main_cst_1007 : Ref sig .tc := ⟨.hbm, 5633, rfl⟩
abbrev main_cst_1008 : Ref sig .tc := ⟨.hbm, 5634, rfl⟩
abbrev main_call290_v0 : Ref sig .tc := ⟨.hbm, 5635, rfl⟩
abbrev main_call290_v1 : Ref sig .tc := ⟨.hbm, 5636, rfl⟩
abbrev main_call290_v2 : Ref sig .tc := ⟨.hbm, 5637, rfl⟩
abbrev main_call290_v3 : Ref sig .tc := ⟨.hbm, 5638, rfl⟩
abbrev main_call290_v4 : Ref sig .tc := ⟨.hbm, 5639, rfl⟩
abbrev main_v3173 : Ref sig .tc := ⟨.hbm, 5640, rfl⟩
abbrev main_cst_1009 : Ref sig .tc := ⟨.hbm, 5641, rfl⟩
abbrev main_cst_1010 : Ref sig .tc := ⟨.hbm, 5642, rfl⟩
abbrev main_call291_v0 : Ref sig .tc := ⟨.hbm, 5643, rfl⟩
abbrev main_call291_v1 : Ref sig .tc := ⟨.hbm, 5644, rfl⟩
abbrev main_call291_v2 : Ref sig .tc := ⟨.hbm, 5645, rfl⟩
abbrev main_call291_v3 : Ref sig .tc := ⟨.hbm, 5646, rfl⟩
abbrev main_call291_v4 : Ref sig .tc := ⟨.hbm, 5647, rfl⟩
abbrev main_v3174 : Ref sig .tc := ⟨.hbm, 5648, rfl⟩
abbrev main_v3175 : Ref sig .tc := ⟨.hbm, 5649, rfl⟩
abbrev main_v3176 : Ref sig .tc := ⟨.hbm, 5650, rfl⟩
abbrev main_v3177 : Ref sig .tc := ⟨.hbm, 5651, rfl⟩
abbrev main_v3178 : Ref sig .tc := ⟨.hbm, 5652, rfl⟩
abbrev main_v3179 : Ref sig .tc := ⟨.hbm, 5653, rfl⟩
abbrev main_v3180 : Ref sig .tc := ⟨.hbm, 5654, rfl⟩
abbrev main_v3181 : Ref sig .tc := ⟨.hbm, 5655, rfl⟩
abbrev main_cst_1011 : Ref sig .tc := ⟨.hbm, 5656, rfl⟩
abbrev main_v3182 : Ref sig .tc := ⟨.hbm, 5657, rfl⟩
abbrev main_v3183 : Ref sig .tc := ⟨.hbm, 5658, rfl⟩
abbrev main_v3184 : Ref sig .tc := ⟨.hbm, 5659, rfl⟩
abbrev main_cst_1012 : Ref sig .tc := ⟨.hbm, 5660, rfl⟩
abbrev main_v3185 : Ref sig .tc := ⟨.hbm, 5661, rfl⟩
abbrev main_v3186 : Ref sig .tc := ⟨.hbm, 5662, rfl⟩
abbrev main_cst_1013 : Ref sig .tc := ⟨.hbm, 5663, rfl⟩
abbrev main_v3187 : Ref sig .tc := ⟨.hbm, 5664, rfl⟩
abbrev main_v3188 : Ref sig .tc := ⟨.hbm, 5665, rfl⟩
abbrev main_v3189 : Ref sig .tc := ⟨.hbm, 5666, rfl⟩
abbrev main_v3190 : Ref sig .tc := ⟨.hbm, 5667, rfl⟩
abbrev main_cst_1014 : Ref sig .tc := ⟨.hbm, 5668, rfl⟩
abbrev main_v3191 : Ref sig .tc := ⟨.hbm, 5669, rfl⟩
abbrev main_v3192 : Ref sig .tc := ⟨.hbm, 5670, rfl⟩
abbrev main_v3193 : Ref sig .tc := ⟨.hbm, 5671, rfl⟩
abbrev main_v3194 : Ref sig .tc := ⟨.hbm, 5672, rfl⟩
abbrev main_v3195 : Ref sig .tc := ⟨.hbm, 5673, rfl⟩
abbrev main_v3196 : Ref sig .tc := ⟨.hbm, 5674, rfl⟩
abbrev main_v3197 : Ref sig .tc := ⟨.hbm, 5675, rfl⟩
abbrev main_v3198 : Ref sig .tc := ⟨.hbm, 5676, rfl⟩
abbrev main_v3199 : Ref sig .tc := ⟨.hbm, 5677, rfl⟩
abbrev main_v3200 : Ref sig .tc := ⟨.hbm, 5678, rfl⟩
abbrev main_v3201 : Ref sig .tc := ⟨.hbm, 5679, rfl⟩
abbrev main_v3202 : Ref sig .tc := ⟨.hbm, 5680, rfl⟩
abbrev main_v3203 : Ref sig .tc := ⟨.hbm, 5681, rfl⟩
abbrev main_v3204 : Ref sig .tc := ⟨.hbm, 5682, rfl⟩
abbrev main_v3205 : Ref sig .tc := ⟨.hbm, 5683, rfl⟩
abbrev main_v3206 : Ref sig .tc := ⟨.hbm, 5684, rfl⟩
abbrev main_v3207 : Ref sig .tc := ⟨.hbm, 5685, rfl⟩
abbrev main_v3208 : Ref sig .tc := ⟨.hbm, 5686, rfl⟩
abbrev main_v3209 : Ref sig .tc := ⟨.hbm, 5687, rfl⟩
abbrev main_cst_1015 : Ref sig .tc := ⟨.hbm, 5688, rfl⟩
abbrev main_v3210 : Ref sig .tc := ⟨.hbm, 5689, rfl⟩
abbrev main_v3211 : Ref sig .tc := ⟨.hbm, 5690, rfl⟩
abbrev main_cst_1016 : Ref sig .tc := ⟨.hbm, 5691, rfl⟩
abbrev main_v3212 : Ref sig .tc := ⟨.hbm, 5692, rfl⟩
abbrev main_v3213 : Ref sig .tc := ⟨.hbm, 5693, rfl⟩
abbrev main_v3214 : Ref sig .tc := ⟨.hbm, 5694, rfl⟩
abbrev main_v3215 : Ref sig .tc := ⟨.hbm, 5695, rfl⟩
abbrev main_v3216 : Ref sig .tc := ⟨.hbm, 5696, rfl⟩
abbrev main_v3217 : Ref sig .tc := ⟨.hbm, 5697, rfl⟩
abbrev main_cst_1017 : Ref sig .tc := ⟨.hbm, 5698, rfl⟩
abbrev main_cst_1018 : Ref sig .tc := ⟨.hbm, 5699, rfl⟩
abbrev main_call292_v0 : Ref sig .tc := ⟨.hbm, 5700, rfl⟩
abbrev main_call292_v1 : Ref sig .tc := ⟨.hbm, 5701, rfl⟩
abbrev main_call292_v2 : Ref sig .tc := ⟨.hbm, 5702, rfl⟩
abbrev main_call292_v3 : Ref sig .tc := ⟨.hbm, 5703, rfl⟩
abbrev main_call292_v4 : Ref sig .tc := ⟨.hbm, 5704, rfl⟩
abbrev main_v3218 : Ref sig .tc := ⟨.hbm, 5705, rfl⟩
abbrev main_cst_1019 : Ref sig .tc := ⟨.hbm, 5706, rfl⟩
abbrev main_cst_1020 : Ref sig .tc := ⟨.hbm, 5707, rfl⟩
abbrev main_call293_v0 : Ref sig .tc := ⟨.hbm, 5708, rfl⟩
abbrev main_call293_v1 : Ref sig .tc := ⟨.hbm, 5709, rfl⟩
abbrev main_call293_v2 : Ref sig .tc := ⟨.hbm, 5710, rfl⟩
abbrev main_call293_v3 : Ref sig .tc := ⟨.hbm, 5711, rfl⟩
abbrev main_call293_v4 : Ref sig .tc := ⟨.hbm, 5712, rfl⟩
abbrev main_v3219 : Ref sig .tc := ⟨.hbm, 5713, rfl⟩
abbrev main_v3220 : Ref sig .tc := ⟨.hbm, 5714, rfl⟩
abbrev main_v3221 : Ref sig .tc := ⟨.hbm, 5715, rfl⟩
abbrev main_v3222 : Ref sig .tc := ⟨.hbm, 5716, rfl⟩
abbrev main_v3223 : Ref sig .tc := ⟨.hbm, 5717, rfl⟩
abbrev main_v3224 : Ref sig .tc := ⟨.hbm, 5718, rfl⟩
abbrev main_v3225 : Ref sig .tc := ⟨.hbm, 5719, rfl⟩
abbrev main_v3226 : Ref sig .tc := ⟨.hbm, 5720, rfl⟩
abbrev main_v3227 : Ref sig .tc := ⟨.hbm, 5721, rfl⟩
abbrev main_v3228 : Ref sig .tc := ⟨.hbm, 5722, rfl⟩
abbrev main_cst_1021 : Ref sig .tc := ⟨.hbm, 5723, rfl⟩
abbrev main_cst_1022 : Ref sig .tc := ⟨.hbm, 5724, rfl⟩
abbrev main_call294_v0 : Ref sig .tc := ⟨.hbm, 5725, rfl⟩
abbrev main_call294_v1 : Ref sig .tc := ⟨.hbm, 5726, rfl⟩
abbrev main_call294_v2 : Ref sig .tc := ⟨.hbm, 5727, rfl⟩
abbrev main_call294_v3 : Ref sig .tc := ⟨.hbm, 5728, rfl⟩
abbrev main_call294_v4 : Ref sig .tc := ⟨.hbm, 5729, rfl⟩
abbrev main_v3229 : Ref sig .tc := ⟨.hbm, 5730, rfl⟩
abbrev main_cst_1023 : Ref sig .tc := ⟨.hbm, 5731, rfl⟩
abbrev main_cst_1024 : Ref sig .tc := ⟨.hbm, 5732, rfl⟩
abbrev main_call295_v0 : Ref sig .tc := ⟨.hbm, 5733, rfl⟩
abbrev main_call295_v1 : Ref sig .tc := ⟨.hbm, 5734, rfl⟩
abbrev main_call295_v2 : Ref sig .tc := ⟨.hbm, 5735, rfl⟩
abbrev main_call295_v3 : Ref sig .tc := ⟨.hbm, 5736, rfl⟩
abbrev main_call295_v4 : Ref sig .tc := ⟨.hbm, 5737, rfl⟩
abbrev main_v3230 : Ref sig .tc := ⟨.hbm, 5738, rfl⟩
abbrev main_v3231 : Ref sig .tc := ⟨.hbm, 5739, rfl⟩
abbrev main_v3232 : Ref sig .tc := ⟨.hbm, 5740, rfl⟩
abbrev main_v3233 : Ref sig .tc := ⟨.hbm, 5741, rfl⟩
abbrev main_v3234 : Ref sig .tc := ⟨.hbm, 5742, rfl⟩
abbrev main_v3235 : Ref sig .tc := ⟨.hbm, 5743, rfl⟩
abbrev main_v3236 : Ref sig .tc := ⟨.hbm, 5744, rfl⟩
abbrev main_v3237 : Ref sig .tc := ⟨.hbm, 5745, rfl⟩
abbrev main_v3238 : Ref sig .tc := ⟨.hbm, 5746, rfl⟩
abbrev main_v3239 : Ref sig .tc := ⟨.hbm, 5747, rfl⟩
abbrev main_cst_1025 : Ref sig .tc := ⟨.hbm, 5748, rfl⟩
abbrev main_cst_1026 : Ref sig .tc := ⟨.hbm, 5749, rfl⟩
abbrev main_call296_v0 : Ref sig .tc := ⟨.hbm, 5750, rfl⟩
abbrev main_call296_v1 : Ref sig .tc := ⟨.hbm, 5751, rfl⟩
abbrev main_call296_v2 : Ref sig .tc := ⟨.hbm, 5752, rfl⟩
abbrev main_call296_v3 : Ref sig .tc := ⟨.hbm, 5753, rfl⟩
abbrev main_call296_v4 : Ref sig .tc := ⟨.hbm, 5754, rfl⟩
abbrev main_v3240 : Ref sig .tc := ⟨.hbm, 5755, rfl⟩
abbrev main_cst_1027 : Ref sig .tc := ⟨.hbm, 5756, rfl⟩
abbrev main_cst_1028 : Ref sig .tc := ⟨.hbm, 5757, rfl⟩
abbrev main_call297_v0 : Ref sig .tc := ⟨.hbm, 5758, rfl⟩
abbrev main_call297_v1 : Ref sig .tc := ⟨.hbm, 5759, rfl⟩
abbrev main_call297_v2 : Ref sig .tc := ⟨.hbm, 5760, rfl⟩
abbrev main_call297_v3 : Ref sig .tc := ⟨.hbm, 5761, rfl⟩
abbrev main_call297_v4 : Ref sig .tc := ⟨.hbm, 5762, rfl⟩
abbrev main_v3241 : Ref sig .tc := ⟨.hbm, 5763, rfl⟩
abbrev main_v3242 : Ref sig .tc := ⟨.hbm, 5764, rfl⟩
abbrev main_v3243 : Ref sig .tc := ⟨.hbm, 5765, rfl⟩
abbrev main_v3244 : Ref sig .tc := ⟨.hbm, 5766, rfl⟩
abbrev main_v3245 : Ref sig .tc := ⟨.hbm, 5767, rfl⟩
abbrev main_v3246 : Ref sig .tc := ⟨.hbm, 5768, rfl⟩
abbrev main_v3247 : Ref sig .tc := ⟨.hbm, 5769, rfl⟩
abbrev main_v3248 : Ref sig .tc := ⟨.hbm, 5770, rfl⟩
abbrev main_v3249 : Ref sig .tc := ⟨.hbm, 5771, rfl⟩
abbrev main_v3250 : Ref sig .tc := ⟨.hbm, 5772, rfl⟩
abbrev main_cst_1029 : Ref sig .tc := ⟨.hbm, 5773, rfl⟩
abbrev main_cst_1030 : Ref sig .tc := ⟨.hbm, 5774, rfl⟩
abbrev main_call298_v0 : Ref sig .tc := ⟨.hbm, 5775, rfl⟩
abbrev main_call298_v1 : Ref sig .tc := ⟨.hbm, 5776, rfl⟩
abbrev main_call298_v2 : Ref sig .tc := ⟨.hbm, 5777, rfl⟩
abbrev main_call298_v3 : Ref sig .tc := ⟨.hbm, 5778, rfl⟩
abbrev main_call298_v4 : Ref sig .tc := ⟨.hbm, 5779, rfl⟩
abbrev main_v3251 : Ref sig .tc := ⟨.hbm, 5780, rfl⟩
abbrev main_cst_1031 : Ref sig .tc := ⟨.hbm, 5781, rfl⟩
abbrev main_cst_1032 : Ref sig .tc := ⟨.hbm, 5782, rfl⟩
abbrev main_call299_v0 : Ref sig .tc := ⟨.hbm, 5783, rfl⟩
abbrev main_call299_v1 : Ref sig .tc := ⟨.hbm, 5784, rfl⟩
abbrev main_call299_v2 : Ref sig .tc := ⟨.hbm, 5785, rfl⟩
abbrev main_call299_v3 : Ref sig .tc := ⟨.hbm, 5786, rfl⟩
abbrev main_call299_v4 : Ref sig .tc := ⟨.hbm, 5787, rfl⟩
abbrev main_v3252 : Ref sig .tc := ⟨.hbm, 5788, rfl⟩
abbrev main_v3253 : Ref sig .tc := ⟨.hbm, 5789, rfl⟩
abbrev main_v3254 : Ref sig .tc := ⟨.hbm, 5790, rfl⟩
abbrev main_v3255 : Ref sig .tc := ⟨.hbm, 5791, rfl⟩
abbrev main_v3256 : Ref sig .tc := ⟨.hbm, 5792, rfl⟩
abbrev main_v3257 : Ref sig .tc := ⟨.hbm, 5793, rfl⟩
abbrev main_v3258 : Ref sig .tc := ⟨.hbm, 5794, rfl⟩
abbrev main_v3259 : Ref sig .tc := ⟨.hbm, 5795, rfl⟩
abbrev main_cst_1033 : Ref sig .tc := ⟨.hbm, 5796, rfl⟩
abbrev main_v3260 : Ref sig .tc := ⟨.hbm, 5797, rfl⟩
abbrev main_v3261 : Ref sig .tc := ⟨.hbm, 5798, rfl⟩
abbrev main_v3262 : Ref sig .tc := ⟨.hbm, 5799, rfl⟩
abbrev main_cst_1034 : Ref sig .tc := ⟨.hbm, 5800, rfl⟩
abbrev main_v3263 : Ref sig .tc := ⟨.hbm, 5801, rfl⟩
abbrev main_v3264 : Ref sig .tc := ⟨.hbm, 5802, rfl⟩
abbrev main_cst_1035 : Ref sig .tc := ⟨.hbm, 5803, rfl⟩
abbrev main_v3265 : Ref sig .tc := ⟨.hbm, 5804, rfl⟩
abbrev main_v3266 : Ref sig .tc := ⟨.hbm, 5805, rfl⟩
abbrev main_v3267 : Ref sig .tc := ⟨.hbm, 5806, rfl⟩
abbrev main_v3268 : Ref sig .tc := ⟨.hbm, 5807, rfl⟩
abbrev main_cst_1036 : Ref sig .tc := ⟨.hbm, 5808, rfl⟩
abbrev main_v3269 : Ref sig .tc := ⟨.hbm, 5809, rfl⟩
abbrev main_v3270 : Ref sig .tc := ⟨.hbm, 5810, rfl⟩
abbrev main_v3271 : Ref sig .tc := ⟨.hbm, 5811, rfl⟩
abbrev main_v3272 : Ref sig .tc := ⟨.hbm, 5812, rfl⟩
abbrev main_v3273 : Ref sig .tc := ⟨.hbm, 5813, rfl⟩
abbrev main_v3274 : Ref sig .tc := ⟨.hbm, 5814, rfl⟩
abbrev main_v3275 : Ref sig .tc := ⟨.hbm, 5815, rfl⟩
abbrev main_cst_1037 : Ref sig .tc := ⟨.hbm, 5816, rfl⟩
abbrev main_v3276 : Ref sig .tc := ⟨.hbm, 5817, rfl⟩
abbrev main_v3277 : Ref sig .tc := ⟨.hbm, 5818, rfl⟩
abbrev main_cst_1038 : Ref sig .tc := ⟨.hbm, 5819, rfl⟩
abbrev main_v3278 : Ref sig .tc := ⟨.hbm, 5820, rfl⟩
abbrev main_v3279 : Ref sig .tc := ⟨.hbm, 5821, rfl⟩
abbrev main_v3280 : Ref sig .tc := ⟨.hbm, 5822, rfl⟩
abbrev main_v3281 : Ref sig .tc := ⟨.hbm, 5823, rfl⟩
abbrev main_v3282 : Ref sig .tc := ⟨.hbm, 5824, rfl⟩
abbrev main_v3283 : Ref sig .tc := ⟨.hbm, 5825, rfl⟩
abbrev main_cst_1039 : Ref sig .tc := ⟨.hbm, 5826, rfl⟩
abbrev main_cst_1040 : Ref sig .tc := ⟨.hbm, 5827, rfl⟩
abbrev main_call300_v0 : Ref sig .tc := ⟨.hbm, 5828, rfl⟩
abbrev main_call300_v1 : Ref sig .tc := ⟨.hbm, 5829, rfl⟩
abbrev main_call300_v2 : Ref sig .tc := ⟨.hbm, 5830, rfl⟩
abbrev main_call300_v3 : Ref sig .tc := ⟨.hbm, 5831, rfl⟩
abbrev main_call300_v4 : Ref sig .tc := ⟨.hbm, 5832, rfl⟩
abbrev main_v3284 : Ref sig .tc := ⟨.hbm, 5833, rfl⟩
abbrev main_cst_1041 : Ref sig .tc := ⟨.hbm, 5834, rfl⟩
abbrev main_cst_1042 : Ref sig .tc := ⟨.hbm, 5835, rfl⟩
abbrev main_call301_v0 : Ref sig .tc := ⟨.hbm, 5836, rfl⟩
abbrev main_call301_v1 : Ref sig .tc := ⟨.hbm, 5837, rfl⟩
abbrev main_call301_v2 : Ref sig .tc := ⟨.hbm, 5838, rfl⟩
abbrev main_call301_v3 : Ref sig .tc := ⟨.hbm, 5839, rfl⟩
abbrev main_call301_v4 : Ref sig .tc := ⟨.hbm, 5840, rfl⟩
abbrev main_v3285 : Ref sig .tc := ⟨.hbm, 5841, rfl⟩
abbrev main_v3286 : Ref sig .tc := ⟨.hbm, 5842, rfl⟩
abbrev main_v3287 : Ref sig .tc := ⟨.hbm, 5843, rfl⟩
abbrev main_v3288 : Ref sig .tc := ⟨.hbm, 5844, rfl⟩
abbrev main_v3289 : Ref sig .tc := ⟨.hbm, 5845, rfl⟩
abbrev main_v3290 : Ref sig .tc := ⟨.hbm, 5846, rfl⟩
abbrev main_v3291 : Ref sig .tc := ⟨.hbm, 5847, rfl⟩
abbrev main_v3292 : Ref sig .tc := ⟨.hbm, 5848, rfl⟩
abbrev main_cst_1043 : Ref sig .tc := ⟨.hbm, 5849, rfl⟩
abbrev main_v3293 : Ref sig .tc := ⟨.hbm, 5850, rfl⟩
abbrev main_v3294 : Ref sig .tc := ⟨.hbm, 5851, rfl⟩
abbrev main_v3295 : Ref sig .tc := ⟨.hbm, 5852, rfl⟩
abbrev main_cst_1044 : Ref sig .tc := ⟨.hbm, 5853, rfl⟩
abbrev main_v3296 : Ref sig .tc := ⟨.hbm, 5854, rfl⟩
abbrev main_v3297 : Ref sig .tc := ⟨.hbm, 5855, rfl⟩
abbrev main_cst_1045 : Ref sig .tc := ⟨.hbm, 5856, rfl⟩
abbrev main_v3298 : Ref sig .tc := ⟨.hbm, 5857, rfl⟩
abbrev main_v3299 : Ref sig .tc := ⟨.hbm, 5858, rfl⟩
abbrev main_v3300 : Ref sig .tc := ⟨.hbm, 5859, rfl⟩
abbrev main_v3301 : Ref sig .tc := ⟨.hbm, 5860, rfl⟩
abbrev main_cst_1046 : Ref sig .tc := ⟨.hbm, 5861, rfl⟩
abbrev main_v3302 : Ref sig .tc := ⟨.hbm, 5862, rfl⟩
abbrev main_v3303 : Ref sig .tc := ⟨.hbm, 5863, rfl⟩
abbrev main_v3304 : Ref sig .tc := ⟨.hbm, 5864, rfl⟩
abbrev main_v3305 : Ref sig .tc := ⟨.hbm, 5865, rfl⟩
abbrev main_v3306 : Ref sig .tc := ⟨.hbm, 5866, rfl⟩
abbrev main_v3307 : Ref sig .tc := ⟨.hbm, 5867, rfl⟩
abbrev main_v3308 : Ref sig .tc := ⟨.hbm, 5868, rfl⟩
abbrev main_v3309 : Ref sig .tc := ⟨.hbm, 5869, rfl⟩
abbrev main_v3310 : Ref sig .tc := ⟨.hbm, 5870, rfl⟩
abbrev main_v3311 : Ref sig .tc := ⟨.hbm, 5871, rfl⟩
abbrev main_v3312 : Ref sig .tc := ⟨.hbm, 5872, rfl⟩
abbrev main_cst_1047 : Ref sig .tc := ⟨.hbm, 5873, rfl⟩
abbrev main_v3313 : Ref sig .tc := ⟨.hbm, 5874, rfl⟩
abbrev main_v3314 : Ref sig .tc := ⟨.hbm, 5875, rfl⟩
abbrev main_cst_1048 : Ref sig .tc := ⟨.hbm, 5876, rfl⟩
abbrev main_v3315 : Ref sig .tc := ⟨.hbm, 5877, rfl⟩
abbrev main_v3316 : Ref sig .tc := ⟨.hbm, 5878, rfl⟩
abbrev main_v3317 : Ref sig .tc := ⟨.hbm, 5879, rfl⟩
abbrev main_v3318 : Ref sig .tc := ⟨.hbm, 5880, rfl⟩
abbrev main_v3319 : Ref sig .tc := ⟨.hbm, 5881, rfl⟩
abbrev main_v3320 : Ref sig .tc := ⟨.hbm, 5882, rfl⟩
abbrev main_cst_1049 : Ref sig .tc := ⟨.hbm, 5883, rfl⟩
abbrev main_cst_1050 : Ref sig .tc := ⟨.hbm, 5884, rfl⟩
abbrev main_call302_v0 : Ref sig .tc := ⟨.hbm, 5885, rfl⟩
abbrev main_call302_v1 : Ref sig .tc := ⟨.hbm, 5886, rfl⟩
abbrev main_call302_v2 : Ref sig .tc := ⟨.hbm, 5887, rfl⟩
abbrev main_call302_v3 : Ref sig .tc := ⟨.hbm, 5888, rfl⟩
abbrev main_call302_v4 : Ref sig .tc := ⟨.hbm, 5889, rfl⟩
abbrev main_v3321 : Ref sig .tc := ⟨.hbm, 5890, rfl⟩
abbrev main_cst_1051 : Ref sig .tc := ⟨.hbm, 5891, rfl⟩
abbrev main_cst_1052 : Ref sig .tc := ⟨.hbm, 5892, rfl⟩
abbrev main_call303_v0 : Ref sig .tc := ⟨.hbm, 5893, rfl⟩
abbrev main_call303_v1 : Ref sig .tc := ⟨.hbm, 5894, rfl⟩
abbrev main_call303_v2 : Ref sig .tc := ⟨.hbm, 5895, rfl⟩
abbrev main_call303_v3 : Ref sig .tc := ⟨.hbm, 5896, rfl⟩
abbrev main_call303_v4 : Ref sig .tc := ⟨.hbm, 5897, rfl⟩
abbrev main_v3322 : Ref sig .tc := ⟨.hbm, 5898, rfl⟩
abbrev main_v3323 : Ref sig .tc := ⟨.hbm, 5899, rfl⟩
abbrev main_v3324 : Ref sig .tc := ⟨.hbm, 5900, rfl⟩
abbrev main_v3325 : Ref sig .tc := ⟨.hbm, 5901, rfl⟩
abbrev main_v3326 : Ref sig .tc := ⟨.hbm, 5902, rfl⟩
abbrev main_v3327 : Ref sig .tc := ⟨.hbm, 5903, rfl⟩
abbrev main_v3328 : Ref sig .tc := ⟨.hbm, 5904, rfl⟩
abbrev main_v3329 : Ref sig .tc := ⟨.hbm, 5905, rfl⟩
abbrev main_v3330 : Ref sig .tc := ⟨.hbm, 5906, rfl⟩
abbrev main_v3331 : Ref sig .tc := ⟨.hbm, 5907, rfl⟩
abbrev main_cst_1053 : Ref sig .tc := ⟨.hbm, 5908, rfl⟩
abbrev main_cst_1054 : Ref sig .tc := ⟨.hbm, 5909, rfl⟩
abbrev main_call304_v0 : Ref sig .tc := ⟨.hbm, 5910, rfl⟩
abbrev main_call304_v1 : Ref sig .tc := ⟨.hbm, 5911, rfl⟩
abbrev main_call304_v2 : Ref sig .tc := ⟨.hbm, 5912, rfl⟩
abbrev main_call304_v3 : Ref sig .tc := ⟨.hbm, 5913, rfl⟩
abbrev main_call304_v4 : Ref sig .tc := ⟨.hbm, 5914, rfl⟩
abbrev main_v3332 : Ref sig .tc := ⟨.hbm, 5915, rfl⟩
abbrev main_cst_1055 : Ref sig .tc := ⟨.hbm, 5916, rfl⟩
abbrev main_cst_1056 : Ref sig .tc := ⟨.hbm, 5917, rfl⟩
abbrev main_call305_v0 : Ref sig .tc := ⟨.hbm, 5918, rfl⟩
abbrev main_call305_v1 : Ref sig .tc := ⟨.hbm, 5919, rfl⟩
abbrev main_call305_v2 : Ref sig .tc := ⟨.hbm, 5920, rfl⟩
abbrev main_call305_v3 : Ref sig .tc := ⟨.hbm, 5921, rfl⟩
abbrev main_call305_v4 : Ref sig .tc := ⟨.hbm, 5922, rfl⟩
abbrev main_v3333 : Ref sig .tc := ⟨.hbm, 5923, rfl⟩
abbrev main_v3334 : Ref sig .tc := ⟨.hbm, 5924, rfl⟩
abbrev main_v3335 : Ref sig .tc := ⟨.hbm, 5925, rfl⟩
abbrev main_v3336 : Ref sig .tc := ⟨.hbm, 5926, rfl⟩
abbrev main_v3337 : Ref sig .tc := ⟨.hbm, 5927, rfl⟩
abbrev main_v3338 : Ref sig .tc := ⟨.hbm, 5928, rfl⟩
abbrev main_v3339 : Ref sig .tc := ⟨.hbm, 5929, rfl⟩
abbrev main_v3340 : Ref sig .tc := ⟨.hbm, 5930, rfl⟩
abbrev main_cst_1057 : Ref sig .tc := ⟨.hbm, 5931, rfl⟩
abbrev main_v3341 : Ref sig .tc := ⟨.hbm, 5932, rfl⟩
abbrev main_v3342 : Ref sig .tc := ⟨.hbm, 5933, rfl⟩
abbrev main_v3343 : Ref sig .tc := ⟨.hbm, 5934, rfl⟩
abbrev main_cst_1058 : Ref sig .tc := ⟨.hbm, 5935, rfl⟩
abbrev main_v3344 : Ref sig .tc := ⟨.hbm, 5936, rfl⟩
abbrev main_v3345 : Ref sig .tc := ⟨.hbm, 5937, rfl⟩
abbrev main_cst_1059 : Ref sig .tc := ⟨.hbm, 5938, rfl⟩
abbrev main_v3346 : Ref sig .tc := ⟨.hbm, 5939, rfl⟩
abbrev main_v3347 : Ref sig .tc := ⟨.hbm, 5940, rfl⟩
abbrev main_v3348 : Ref sig .tc := ⟨.hbm, 5941, rfl⟩
abbrev main_v3349 : Ref sig .tc := ⟨.hbm, 5942, rfl⟩
abbrev main_cst_1060 : Ref sig .tc := ⟨.hbm, 5943, rfl⟩
abbrev main_v3350 : Ref sig .tc := ⟨.hbm, 5944, rfl⟩
abbrev main_v3351 : Ref sig .tc := ⟨.hbm, 5945, rfl⟩
abbrev main_v3352 : Ref sig .tc := ⟨.hbm, 5946, rfl⟩
abbrev main_v3353 : Ref sig .tc := ⟨.hbm, 5947, rfl⟩
abbrev main_v3354 : Ref sig .tc := ⟨.hbm, 5948, rfl⟩
abbrev main_v3355 : Ref sig .tc := ⟨.hbm, 5949, rfl⟩
abbrev main_v3356 : Ref sig .tc := ⟨.hbm, 5950, rfl⟩
abbrev main_cst_1061 : Ref sig .tc := ⟨.hbm, 5951, rfl⟩
abbrev main_v3357 : Ref sig .tc := ⟨.hbm, 5952, rfl⟩
abbrev main_v3358 : Ref sig .tc := ⟨.hbm, 5953, rfl⟩
abbrev main_cst_1062 : Ref sig .tc := ⟨.hbm, 5954, rfl⟩
abbrev main_v3359 : Ref sig .tc := ⟨.hbm, 5955, rfl⟩
abbrev main_v3360 : Ref sig .tc := ⟨.hbm, 5956, rfl⟩
abbrev main_v3361 : Ref sig .tc := ⟨.hbm, 5957, rfl⟩
abbrev main_v3362 : Ref sig .tc := ⟨.hbm, 5958, rfl⟩
abbrev main_v3363 : Ref sig .tc := ⟨.hbm, 5959, rfl⟩
abbrev main_v3364 : Ref sig .tc := ⟨.hbm, 5960, rfl⟩
abbrev main_cst_1063 : Ref sig .tc := ⟨.hbm, 5961, rfl⟩
abbrev main_cst_1064 : Ref sig .tc := ⟨.hbm, 5962, rfl⟩
abbrev main_call306_v0 : Ref sig .tc := ⟨.hbm, 5963, rfl⟩
abbrev main_call306_v1 : Ref sig .tc := ⟨.hbm, 5964, rfl⟩
abbrev main_call306_v2 : Ref sig .tc := ⟨.hbm, 5965, rfl⟩
abbrev main_call306_v3 : Ref sig .tc := ⟨.hbm, 5966, rfl⟩
abbrev main_call306_v4 : Ref sig .tc := ⟨.hbm, 5967, rfl⟩
abbrev main_v3365 : Ref sig .tc := ⟨.hbm, 5968, rfl⟩
abbrev main_cst_1065 : Ref sig .tc := ⟨.hbm, 5969, rfl⟩
abbrev main_cst_1066 : Ref sig .tc := ⟨.hbm, 5970, rfl⟩
abbrev main_call307_v0 : Ref sig .tc := ⟨.hbm, 5971, rfl⟩
abbrev main_call307_v1 : Ref sig .tc := ⟨.hbm, 5972, rfl⟩
abbrev main_call307_v2 : Ref sig .tc := ⟨.hbm, 5973, rfl⟩
abbrev main_call307_v3 : Ref sig .tc := ⟨.hbm, 5974, rfl⟩
abbrev main_call307_v4 : Ref sig .tc := ⟨.hbm, 5975, rfl⟩
abbrev main_v3366 : Ref sig .tc := ⟨.hbm, 5976, rfl⟩
abbrev main_v3367 : Ref sig .tc := ⟨.hbm, 5977, rfl⟩
abbrev main_v3368 : Ref sig .tc := ⟨.hbm, 5978, rfl⟩
abbrev main_v3369 : Ref sig .tc := ⟨.hbm, 5979, rfl⟩
abbrev main_v3370 : Ref sig .tc := ⟨.hbm, 5980, rfl⟩
abbrev main_v3371 : Ref sig .tc := ⟨.hbm, 5981, rfl⟩
abbrev main_v3372 : Ref sig .tc := ⟨.hbm, 5982, rfl⟩
abbrev main_v3373 : Ref sig .tc := ⟨.hbm, 5983, rfl⟩
abbrev main_cst_1067 : Ref sig .tc := ⟨.hbm, 5984, rfl⟩
abbrev main_v3374 : Ref sig .tc := ⟨.hbm, 5985, rfl⟩
abbrev main_v3375 : Ref sig .tc := ⟨.hbm, 5986, rfl⟩
abbrev main_v3376 : Ref sig .tc := ⟨.hbm, 5987, rfl⟩
abbrev main_cst_1068 : Ref sig .tc := ⟨.hbm, 5988, rfl⟩
abbrev main_v3377 : Ref sig .tc := ⟨.hbm, 5989, rfl⟩
abbrev main_v3378 : Ref sig .tc := ⟨.hbm, 5990, rfl⟩
abbrev main_cst_1069 : Ref sig .tc := ⟨.hbm, 5991, rfl⟩
abbrev main_v3379 : Ref sig .tc := ⟨.hbm, 5992, rfl⟩
abbrev main_v3380 : Ref sig .tc := ⟨.hbm, 5993, rfl⟩
abbrev main_v3381 : Ref sig .tc := ⟨.hbm, 5994, rfl⟩
abbrev main_v3382 : Ref sig .tc := ⟨.hbm, 5995, rfl⟩
abbrev main_cst_1070 : Ref sig .tc := ⟨.hbm, 5996, rfl⟩
abbrev main_v3383 : Ref sig .tc := ⟨.hbm, 5997, rfl⟩
abbrev main_v3384 : Ref sig .tc := ⟨.hbm, 5998, rfl⟩
abbrev main_v3385 : Ref sig .tc := ⟨.hbm, 5999, rfl⟩
abbrev main_v3386 : Ref sig .tc := ⟨.hbm, 6000, rfl⟩
abbrev main_v3387 : Ref sig .tc := ⟨.hbm, 6001, rfl⟩
abbrev main_v3388 : Ref sig .tc := ⟨.hbm, 6002, rfl⟩
abbrev main_v3389 : Ref sig .tc := ⟨.hbm, 6003, rfl⟩
abbrev main_v3390 : Ref sig .tc := ⟨.hbm, 6004, rfl⟩
abbrev main_v3391 : Ref sig .tc := ⟨.hbm, 6005, rfl⟩
abbrev main_v3392 : Ref sig .tc := ⟨.hbm, 6006, rfl⟩
abbrev main_v3393 : Ref sig .tc := ⟨.hbm, 6007, rfl⟩
abbrev main_v3394 : Ref sig .tc := ⟨.hbm, 6008, rfl⟩
abbrev main_v3395 : Ref sig .tc := ⟨.hbm, 6009, rfl⟩
abbrev main_v3396 : Ref sig .tc := ⟨.hbm, 6010, rfl⟩
abbrev main_v3397 : Ref sig .tc := ⟨.hbm, 6011, rfl⟩
abbrev main_cst_1071 : Ref sig .tc := ⟨.hbm, 6012, rfl⟩
abbrev main_v3398 : Ref sig .tc := ⟨.hbm, 6013, rfl⟩
abbrev main_v3399 : Ref sig .tc := ⟨.hbm, 6014, rfl⟩
abbrev main_cst_1072 : Ref sig .tc := ⟨.hbm, 6015, rfl⟩
abbrev main_v3400 : Ref sig .tc := ⟨.hbm, 6016, rfl⟩
abbrev main_v3401 : Ref sig .tc := ⟨.hbm, 6017, rfl⟩
abbrev main_v3402 : Ref sig .tc := ⟨.hbm, 6018, rfl⟩
abbrev main_v3403 : Ref sig .tc := ⟨.hbm, 6019, rfl⟩
abbrev main_v3404 : Ref sig .tc := ⟨.hbm, 6020, rfl⟩
abbrev main_v3405 : Ref sig .tc := ⟨.hbm, 6021, rfl⟩
abbrev main_cst_1073 : Ref sig .tc := ⟨.hbm, 6022, rfl⟩
abbrev main_cst_1074 : Ref sig .tc := ⟨.hbm, 6023, rfl⟩
abbrev main_call308_v0 : Ref sig .tc := ⟨.hbm, 6024, rfl⟩
abbrev main_call308_v1 : Ref sig .tc := ⟨.hbm, 6025, rfl⟩
abbrev main_call308_v2 : Ref sig .tc := ⟨.hbm, 6026, rfl⟩
abbrev main_call308_v3 : Ref sig .tc := ⟨.hbm, 6027, rfl⟩
abbrev main_call308_v4 : Ref sig .tc := ⟨.hbm, 6028, rfl⟩
abbrev main_v3406 : Ref sig .tc := ⟨.hbm, 6029, rfl⟩
abbrev main_cst_1075 : Ref sig .tc := ⟨.hbm, 6030, rfl⟩
abbrev main_cst_1076 : Ref sig .tc := ⟨.hbm, 6031, rfl⟩
abbrev main_call309_v0 : Ref sig .tc := ⟨.hbm, 6032, rfl⟩
abbrev main_call309_v1 : Ref sig .tc := ⟨.hbm, 6033, rfl⟩
abbrev main_call309_v2 : Ref sig .tc := ⟨.hbm, 6034, rfl⟩
abbrev main_call309_v3 : Ref sig .tc := ⟨.hbm, 6035, rfl⟩
abbrev main_call309_v4 : Ref sig .tc := ⟨.hbm, 6036, rfl⟩
abbrev main_v3407 : Ref sig .tc := ⟨.hbm, 6037, rfl⟩
abbrev main_v3408 : Ref sig .tc := ⟨.hbm, 6038, rfl⟩
abbrev main_v3409 : Ref sig .tc := ⟨.hbm, 6039, rfl⟩
abbrev main_v3410 : Ref sig .tc := ⟨.hbm, 6040, rfl⟩
abbrev main_v3411 : Ref sig .tc := ⟨.hbm, 6041, rfl⟩
abbrev main_v3412 : Ref sig .tc := ⟨.hbm, 6042, rfl⟩
abbrev main_v3413 : Ref sig .tc := ⟨.hbm, 6043, rfl⟩
abbrev main_v3414 : Ref sig .tc := ⟨.hbm, 6044, rfl⟩
abbrev main_v3415 : Ref sig .tc := ⟨.hbm, 6045, rfl⟩
abbrev main_v3416 : Ref sig .tc := ⟨.hbm, 6046, rfl⟩
abbrev main_cst_1077 : Ref sig .tc := ⟨.hbm, 6047, rfl⟩
abbrev main_cst_1078 : Ref sig .tc := ⟨.hbm, 6048, rfl⟩
abbrev main_call310_v0 : Ref sig .tc := ⟨.hbm, 6049, rfl⟩
abbrev main_call310_v1 : Ref sig .tc := ⟨.hbm, 6050, rfl⟩
abbrev main_call310_v2 : Ref sig .tc := ⟨.hbm, 6051, rfl⟩
abbrev main_call310_v3 : Ref sig .tc := ⟨.hbm, 6052, rfl⟩
abbrev main_call310_v4 : Ref sig .tc := ⟨.hbm, 6053, rfl⟩
abbrev main_v3417 : Ref sig .tc := ⟨.hbm, 6054, rfl⟩
abbrev main_cst_1079 : Ref sig .tc := ⟨.hbm, 6055, rfl⟩
abbrev main_cst_1080 : Ref sig .tc := ⟨.hbm, 6056, rfl⟩
abbrev main_call311_v0 : Ref sig .tc := ⟨.hbm, 6057, rfl⟩
abbrev main_call311_v1 : Ref sig .tc := ⟨.hbm, 6058, rfl⟩
abbrev main_call311_v2 : Ref sig .tc := ⟨.hbm, 6059, rfl⟩
abbrev main_call311_v3 : Ref sig .tc := ⟨.hbm, 6060, rfl⟩
abbrev main_call311_v4 : Ref sig .tc := ⟨.hbm, 6061, rfl⟩
abbrev main_v3418 : Ref sig .tc := ⟨.hbm, 6062, rfl⟩
abbrev main_v3419 : Ref sig .tc := ⟨.hbm, 6063, rfl⟩
abbrev main_v3420 : Ref sig .tc := ⟨.hbm, 6064, rfl⟩
abbrev main_v3421 : Ref sig .tc := ⟨.hbm, 6065, rfl⟩
abbrev main_v3422 : Ref sig .tc := ⟨.hbm, 6066, rfl⟩
abbrev main_v3423 : Ref sig .tc := ⟨.hbm, 6067, rfl⟩
abbrev main_v3424 : Ref sig .tc := ⟨.hbm, 6068, rfl⟩
abbrev main_v3425 : Ref sig .tc := ⟨.hbm, 6069, rfl⟩
abbrev main_v3426 : Ref sig .tc := ⟨.hbm, 6070, rfl⟩
abbrev main_v3427 : Ref sig .tc := ⟨.hbm, 6071, rfl⟩
abbrev main_cst_1081 : Ref sig .tc := ⟨.hbm, 6072, rfl⟩
abbrev main_cst_1082 : Ref sig .tc := ⟨.hbm, 6073, rfl⟩
abbrev main_call312_v0 : Ref sig .tc := ⟨.hbm, 6074, rfl⟩
abbrev main_call312_v1 : Ref sig .tc := ⟨.hbm, 6075, rfl⟩
abbrev main_call312_v2 : Ref sig .tc := ⟨.hbm, 6076, rfl⟩
abbrev main_call312_v3 : Ref sig .tc := ⟨.hbm, 6077, rfl⟩
abbrev main_call312_v4 : Ref sig .tc := ⟨.hbm, 6078, rfl⟩
abbrev main_v3428 : Ref sig .tc := ⟨.hbm, 6079, rfl⟩
abbrev main_cst_1083 : Ref sig .tc := ⟨.hbm, 6080, rfl⟩
abbrev main_cst_1084 : Ref sig .tc := ⟨.hbm, 6081, rfl⟩
abbrev main_call313_v0 : Ref sig .tc := ⟨.hbm, 6082, rfl⟩
abbrev main_call313_v1 : Ref sig .tc := ⟨.hbm, 6083, rfl⟩
abbrev main_call313_v2 : Ref sig .tc := ⟨.hbm, 6084, rfl⟩
abbrev main_call313_v3 : Ref sig .tc := ⟨.hbm, 6085, rfl⟩
abbrev main_call313_v4 : Ref sig .tc := ⟨.hbm, 6086, rfl⟩
abbrev main_v3429 : Ref sig .tc := ⟨.hbm, 6087, rfl⟩
abbrev main_v3430 : Ref sig .tc := ⟨.hbm, 6088, rfl⟩
abbrev main_v3431 : Ref sig .tc := ⟨.hbm, 6089, rfl⟩
abbrev main_v3432 : Ref sig .tc := ⟨.hbm, 6090, rfl⟩
abbrev main_v3433 : Ref sig .tc := ⟨.hbm, 6091, rfl⟩
abbrev main_v3434 : Ref sig .tc := ⟨.hbm, 6092, rfl⟩
abbrev main_v3435 : Ref sig .tc := ⟨.hbm, 6093, rfl⟩
abbrev main_v3436 : Ref sig .tc := ⟨.hbm, 6094, rfl⟩
abbrev main_cst_1085 : Ref sig .tc := ⟨.hbm, 6095, rfl⟩
abbrev main_v3437 : Ref sig .tc := ⟨.hbm, 6096, rfl⟩
abbrev main_v3438 : Ref sig .tc := ⟨.hbm, 6097, rfl⟩
abbrev main_v3439 : Ref sig .tc := ⟨.hbm, 6098, rfl⟩
abbrev main_cst_1086 : Ref sig .tc := ⟨.hbm, 6099, rfl⟩
abbrev main_v3440 : Ref sig .tc := ⟨.hbm, 6100, rfl⟩
abbrev main_v3441 : Ref sig .tc := ⟨.hbm, 6101, rfl⟩
abbrev main_cst_1087 : Ref sig .tc := ⟨.hbm, 6102, rfl⟩
abbrev main_v3442 : Ref sig .tc := ⟨.hbm, 6103, rfl⟩
abbrev main_v3443 : Ref sig .tc := ⟨.hbm, 6104, rfl⟩
abbrev main_v3444 : Ref sig .tc := ⟨.hbm, 6105, rfl⟩
abbrev main_v3445 : Ref sig .tc := ⟨.hbm, 6106, rfl⟩
abbrev main_cst_1088 : Ref sig .tc := ⟨.hbm, 6107, rfl⟩
abbrev main_v3446 : Ref sig .tc := ⟨.hbm, 6108, rfl⟩
abbrev main_v3447 : Ref sig .tc := ⟨.hbm, 6109, rfl⟩
abbrev main_v3448 : Ref sig .tc := ⟨.hbm, 6110, rfl⟩
abbrev main_v3449 : Ref sig .tc := ⟨.hbm, 6111, rfl⟩
abbrev main_v3450 : Ref sig .tc := ⟨.hbm, 6112, rfl⟩
abbrev main_v3451 : Ref sig .tc := ⟨.hbm, 6113, rfl⟩
abbrev main_v3452 : Ref sig .tc := ⟨.hbm, 6114, rfl⟩
abbrev main_cst_1089 : Ref sig .tc := ⟨.hbm, 6115, rfl⟩
abbrev main_v3453 : Ref sig .tc := ⟨.hbm, 6116, rfl⟩
abbrev main_v3454 : Ref sig .tc := ⟨.hbm, 6117, rfl⟩
abbrev main_cst_1090 : Ref sig .tc := ⟨.hbm, 6118, rfl⟩
abbrev main_v3455 : Ref sig .tc := ⟨.hbm, 6119, rfl⟩
abbrev main_v3456 : Ref sig .tc := ⟨.hbm, 6120, rfl⟩
abbrev main_v3457 : Ref sig .tc := ⟨.hbm, 6121, rfl⟩
abbrev main_v3458 : Ref sig .tc := ⟨.hbm, 6122, rfl⟩
abbrev main_v3459 : Ref sig .tc := ⟨.hbm, 6123, rfl⟩
abbrev main_v3460 : Ref sig .tc := ⟨.hbm, 6124, rfl⟩
abbrev main_cst_1091 : Ref sig .tc := ⟨.hbm, 6125, rfl⟩
abbrev main_cst_1092 : Ref sig .tc := ⟨.hbm, 6126, rfl⟩
abbrev main_call314_v0 : Ref sig .tc := ⟨.hbm, 6127, rfl⟩
abbrev main_call314_v1 : Ref sig .tc := ⟨.hbm, 6128, rfl⟩
abbrev main_call314_v2 : Ref sig .tc := ⟨.hbm, 6129, rfl⟩
abbrev main_call314_v3 : Ref sig .tc := ⟨.hbm, 6130, rfl⟩
abbrev main_call314_v4 : Ref sig .tc := ⟨.hbm, 6131, rfl⟩
abbrev main_v3461 : Ref sig .tc := ⟨.hbm, 6132, rfl⟩
abbrev main_cst_1093 : Ref sig .tc := ⟨.hbm, 6133, rfl⟩
abbrev main_cst_1094 : Ref sig .tc := ⟨.hbm, 6134, rfl⟩
abbrev main_call315_v0 : Ref sig .tc := ⟨.hbm, 6135, rfl⟩
abbrev main_call315_v1 : Ref sig .tc := ⟨.hbm, 6136, rfl⟩
abbrev main_call315_v2 : Ref sig .tc := ⟨.hbm, 6137, rfl⟩
abbrev main_call315_v3 : Ref sig .tc := ⟨.hbm, 6138, rfl⟩
abbrev main_call315_v4 : Ref sig .tc := ⟨.hbm, 6139, rfl⟩
abbrev main_v3462 : Ref sig .tc := ⟨.hbm, 6140, rfl⟩
abbrev main_v3463 : Ref sig .tc := ⟨.hbm, 6141, rfl⟩
abbrev main_v3464 : Ref sig .tc := ⟨.hbm, 6142, rfl⟩
abbrev main_v3465 : Ref sig .tc := ⟨.hbm, 6143, rfl⟩
abbrev main_v3466 : Ref sig .tc := ⟨.hbm, 6144, rfl⟩
abbrev main_v3467 : Ref sig .tc := ⟨.hbm, 6145, rfl⟩
abbrev main_v3468 : Ref sig .tc := ⟨.hbm, 6146, rfl⟩
abbrev main_v3469 : Ref sig .tc := ⟨.hbm, 6147, rfl⟩
abbrev main_cst_1095 : Ref sig .tc := ⟨.hbm, 6148, rfl⟩
abbrev main_v3470 : Ref sig .tc := ⟨.hbm, 6149, rfl⟩
abbrev main_v3471 : Ref sig .tc := ⟨.hbm, 6150, rfl⟩
abbrev main_v3472 : Ref sig .tc := ⟨.hbm, 6151, rfl⟩
abbrev main_cst_1096 : Ref sig .tc := ⟨.hbm, 6152, rfl⟩
abbrev main_v3473 : Ref sig .tc := ⟨.hbm, 6153, rfl⟩
abbrev main_v3474 : Ref sig .tc := ⟨.hbm, 6154, rfl⟩
abbrev main_cst_1097 : Ref sig .tc := ⟨.hbm, 6155, rfl⟩
abbrev main_v3475 : Ref sig .tc := ⟨.hbm, 6156, rfl⟩
abbrev main_v3476 : Ref sig .tc := ⟨.hbm, 6157, rfl⟩
abbrev main_v3477 : Ref sig .tc := ⟨.hbm, 6158, rfl⟩
abbrev main_v3478 : Ref sig .tc := ⟨.hbm, 6159, rfl⟩
abbrev main_cst_1098 : Ref sig .tc := ⟨.hbm, 6160, rfl⟩
abbrev main_v3479 : Ref sig .tc := ⟨.hbm, 6161, rfl⟩
abbrev main_v3480 : Ref sig .tc := ⟨.hbm, 6162, rfl⟩
abbrev main_v3481 : Ref sig .tc := ⟨.hbm, 6163, rfl⟩
abbrev main_v3482 : Ref sig .tc := ⟨.hbm, 6164, rfl⟩
abbrev main_v3483 : Ref sig .tc := ⟨.hbm, 6165, rfl⟩
abbrev main_v3484 : Ref sig .tc := ⟨.hbm, 6166, rfl⟩
abbrev main_v3485 : Ref sig .tc := ⟨.hbm, 6167, rfl⟩
abbrev main_v3486 : Ref sig .tc := ⟨.hbm, 6168, rfl⟩
abbrev main_v3487 : Ref sig .tc := ⟨.hbm, 6169, rfl⟩
abbrev main_v3488 : Ref sig .tc := ⟨.hbm, 6170, rfl⟩
abbrev main_v3489 : Ref sig .tc := ⟨.hbm, 6171, rfl⟩
abbrev main_cst_1099 : Ref sig .tc := ⟨.hbm, 6172, rfl⟩
abbrev main_v3490 : Ref sig .tc := ⟨.hbm, 6173, rfl⟩
abbrev main_v3491 : Ref sig .tc := ⟨.hbm, 6174, rfl⟩
abbrev main_cst_1100 : Ref sig .tc := ⟨.hbm, 6175, rfl⟩
abbrev main_v3492 : Ref sig .tc := ⟨.hbm, 6176, rfl⟩
abbrev main_v3493 : Ref sig .tc := ⟨.hbm, 6177, rfl⟩
abbrev main_v3494 : Ref sig .tc := ⟨.hbm, 6178, rfl⟩
abbrev main_v3495 : Ref sig .tc := ⟨.hbm, 6179, rfl⟩
abbrev main_v3496 : Ref sig .tc := ⟨.hbm, 6180, rfl⟩
abbrev main_v3497 : Ref sig .tc := ⟨.hbm, 6181, rfl⟩
abbrev main_cst_1101 : Ref sig .tc := ⟨.hbm, 6182, rfl⟩
abbrev main_cst_1102 : Ref sig .tc := ⟨.hbm, 6183, rfl⟩
abbrev main_call316_v0 : Ref sig .tc := ⟨.hbm, 6184, rfl⟩
abbrev main_call316_v1 : Ref sig .tc := ⟨.hbm, 6185, rfl⟩
abbrev main_call316_v2 : Ref sig .tc := ⟨.hbm, 6186, rfl⟩
abbrev main_call316_v3 : Ref sig .tc := ⟨.hbm, 6187, rfl⟩
abbrev main_call316_v4 : Ref sig .tc := ⟨.hbm, 6188, rfl⟩
abbrev main_v3498 : Ref sig .tc := ⟨.hbm, 6189, rfl⟩
abbrev main_cst_1103 : Ref sig .tc := ⟨.hbm, 6190, rfl⟩
abbrev main_cst_1104 : Ref sig .tc := ⟨.hbm, 6191, rfl⟩
abbrev main_call317_v0 : Ref sig .tc := ⟨.hbm, 6192, rfl⟩
abbrev main_call317_v1 : Ref sig .tc := ⟨.hbm, 6193, rfl⟩
abbrev main_call317_v2 : Ref sig .tc := ⟨.hbm, 6194, rfl⟩
abbrev main_call317_v3 : Ref sig .tc := ⟨.hbm, 6195, rfl⟩
abbrev main_call317_v4 : Ref sig .tc := ⟨.hbm, 6196, rfl⟩
abbrev main_v3499 : Ref sig .tc := ⟨.hbm, 6197, rfl⟩
abbrev main_v3500 : Ref sig .tc := ⟨.hbm, 6198, rfl⟩
abbrev main_v3501 : Ref sig .tc := ⟨.hbm, 6199, rfl⟩
abbrev main_v3502 : Ref sig .tc := ⟨.hbm, 6200, rfl⟩
abbrev main_v3503 : Ref sig .tc := ⟨.hbm, 6201, rfl⟩
abbrev main_v3504 : Ref sig .tc := ⟨.hbm, 6202, rfl⟩
abbrev main_v3505 : Ref sig .tc := ⟨.hbm, 6203, rfl⟩
abbrev main_v3506 : Ref sig .tc := ⟨.hbm, 6204, rfl⟩
abbrev main_v3507 : Ref sig .tc := ⟨.hbm, 6205, rfl⟩
abbrev main_v3508 : Ref sig .tc := ⟨.hbm, 6206, rfl⟩
abbrev main_cst_1105 : Ref sig .tc := ⟨.hbm, 6207, rfl⟩
abbrev main_cst_1106 : Ref sig .tc := ⟨.hbm, 6208, rfl⟩
abbrev main_call318_v0 : Ref sig .tc := ⟨.hbm, 6209, rfl⟩
abbrev main_call318_v1 : Ref sig .tc := ⟨.hbm, 6210, rfl⟩
abbrev main_call318_v2 : Ref sig .tc := ⟨.hbm, 6211, rfl⟩
abbrev main_call318_v3 : Ref sig .tc := ⟨.hbm, 6212, rfl⟩
abbrev main_call318_v4 : Ref sig .tc := ⟨.hbm, 6213, rfl⟩
abbrev main_v3509 : Ref sig .tc := ⟨.hbm, 6214, rfl⟩
abbrev main_cst_1107 : Ref sig .tc := ⟨.hbm, 6215, rfl⟩
abbrev main_cst_1108 : Ref sig .tc := ⟨.hbm, 6216, rfl⟩
abbrev main_call319_v0 : Ref sig .tc := ⟨.hbm, 6217, rfl⟩
abbrev main_call319_v1 : Ref sig .tc := ⟨.hbm, 6218, rfl⟩
abbrev main_call319_v2 : Ref sig .tc := ⟨.hbm, 6219, rfl⟩
abbrev main_call319_v3 : Ref sig .tc := ⟨.hbm, 6220, rfl⟩
abbrev main_call319_v4 : Ref sig .tc := ⟨.hbm, 6221, rfl⟩
abbrev main_v3510 : Ref sig .tc := ⟨.hbm, 6222, rfl⟩
abbrev main_v3511 : Ref sig .tc := ⟨.hbm, 6223, rfl⟩
abbrev main_v3512 : Ref sig .tc := ⟨.hbm, 6224, rfl⟩
abbrev main_v3513 : Ref sig .tc := ⟨.hbm, 6225, rfl⟩
abbrev main_v3514 : Ref sig .tc := ⟨.hbm, 6226, rfl⟩
abbrev main_v3515 : Ref sig .tc := ⟨.hbm, 6227, rfl⟩
abbrev main_v3516 : Ref sig .tc := ⟨.hbm, 6228, rfl⟩
abbrev main_v3517 : Ref sig .tc := ⟨.hbm, 6229, rfl⟩
abbrev main_cst_1109 : Ref sig .tc := ⟨.hbm, 6230, rfl⟩
abbrev main_v3518 : Ref sig .tc := ⟨.hbm, 6231, rfl⟩
abbrev main_v3519 : Ref sig .tc := ⟨.hbm, 6232, rfl⟩
abbrev main_v3520 : Ref sig .tc := ⟨.hbm, 6233, rfl⟩
abbrev main_cst_1110 : Ref sig .tc := ⟨.hbm, 6234, rfl⟩
abbrev main_v3521 : Ref sig .tc := ⟨.hbm, 6235, rfl⟩
abbrev main_v3522 : Ref sig .tc := ⟨.hbm, 6236, rfl⟩
abbrev main_cst_1111 : Ref sig .tc := ⟨.hbm, 6237, rfl⟩
abbrev main_v3523 : Ref sig .tc := ⟨.hbm, 6238, rfl⟩
abbrev main_v3524 : Ref sig .tc := ⟨.hbm, 6239, rfl⟩
abbrev main_v3525 : Ref sig .tc := ⟨.hbm, 6240, rfl⟩
abbrev main_v3526 : Ref sig .tc := ⟨.hbm, 6241, rfl⟩
abbrev main_cst_1112 : Ref sig .tc := ⟨.hbm, 6242, rfl⟩
abbrev main_v3527 : Ref sig .tc := ⟨.hbm, 6243, rfl⟩
abbrev main_v3528 : Ref sig .tc := ⟨.hbm, 6244, rfl⟩
abbrev main_v3529 : Ref sig .tc := ⟨.hbm, 6245, rfl⟩
abbrev main_v3530 : Ref sig .tc := ⟨.hbm, 6246, rfl⟩
abbrev main_v3531 : Ref sig .tc := ⟨.hbm, 6247, rfl⟩
abbrev main_v3532 : Ref sig .tc := ⟨.hbm, 6248, rfl⟩
abbrev main_v3533 : Ref sig .tc := ⟨.hbm, 6249, rfl⟩
abbrev main_cst_1113 : Ref sig .tc := ⟨.hbm, 6250, rfl⟩
abbrev main_v3534 : Ref sig .tc := ⟨.hbm, 6251, rfl⟩
abbrev main_v3535 : Ref sig .tc := ⟨.hbm, 6252, rfl⟩
abbrev main_cst_1114 : Ref sig .tc := ⟨.hbm, 6253, rfl⟩
abbrev main_v3536 : Ref sig .tc := ⟨.hbm, 6254, rfl⟩
abbrev main_v3537 : Ref sig .tc := ⟨.hbm, 6255, rfl⟩
abbrev main_v3538 : Ref sig .tc := ⟨.hbm, 6256, rfl⟩
abbrev main_v3539 : Ref sig .tc := ⟨.hbm, 6257, rfl⟩
abbrev main_v3540 : Ref sig .tc := ⟨.hbm, 6258, rfl⟩
abbrev main_v3541 : Ref sig .tc := ⟨.hbm, 6259, rfl⟩
abbrev main_cst_1115 : Ref sig .tc := ⟨.hbm, 6260, rfl⟩
abbrev main_cst_1116 : Ref sig .tc := ⟨.hbm, 6261, rfl⟩
abbrev main_call320_v0 : Ref sig .tc := ⟨.hbm, 6262, rfl⟩
abbrev main_call320_v1 : Ref sig .tc := ⟨.hbm, 6263, rfl⟩
abbrev main_call320_v2 : Ref sig .tc := ⟨.hbm, 6264, rfl⟩
abbrev main_call320_v3 : Ref sig .tc := ⟨.hbm, 6265, rfl⟩
abbrev main_call320_v4 : Ref sig .tc := ⟨.hbm, 6266, rfl⟩
abbrev main_v3542 : Ref sig .tc := ⟨.hbm, 6267, rfl⟩
abbrev main_cst_1117 : Ref sig .tc := ⟨.hbm, 6268, rfl⟩
abbrev main_cst_1118 : Ref sig .tc := ⟨.hbm, 6269, rfl⟩
abbrev main_call321_v0 : Ref sig .tc := ⟨.hbm, 6270, rfl⟩
abbrev main_call321_v1 : Ref sig .tc := ⟨.hbm, 6271, rfl⟩
abbrev main_call321_v2 : Ref sig .tc := ⟨.hbm, 6272, rfl⟩
abbrev main_call321_v3 : Ref sig .tc := ⟨.hbm, 6273, rfl⟩
abbrev main_call321_v4 : Ref sig .tc := ⟨.hbm, 6274, rfl⟩
abbrev main_v3543 : Ref sig .tc := ⟨.hbm, 6275, rfl⟩
abbrev main_v3544 : Ref sig .tc := ⟨.hbm, 6276, rfl⟩
abbrev main_v3545 : Ref sig .tc := ⟨.hbm, 6277, rfl⟩
abbrev main_v3546 : Ref sig .tc := ⟨.hbm, 6278, rfl⟩
abbrev main_v3547 : Ref sig .tc := ⟨.hbm, 6279, rfl⟩
abbrev main_v3548 : Ref sig .tc := ⟨.hbm, 6280, rfl⟩
abbrev main_v3549 : Ref sig .tc := ⟨.hbm, 6281, rfl⟩
abbrev main_v3550 : Ref sig .tc := ⟨.hbm, 6282, rfl⟩
abbrev main_cst_1119 : Ref sig .tc := ⟨.hbm, 6283, rfl⟩
abbrev main_v3551 : Ref sig .tc := ⟨.hbm, 6284, rfl⟩
abbrev main_v3552 : Ref sig .tc := ⟨.hbm, 6285, rfl⟩
abbrev main_v3553 : Ref sig .tc := ⟨.hbm, 6286, rfl⟩
abbrev main_cst_1120 : Ref sig .tc := ⟨.hbm, 6287, rfl⟩
abbrev main_v3554 : Ref sig .tc := ⟨.hbm, 6288, rfl⟩
abbrev main_v3555 : Ref sig .tc := ⟨.hbm, 6289, rfl⟩
abbrev main_cst_1121 : Ref sig .tc := ⟨.hbm, 6290, rfl⟩
abbrev main_v3556 : Ref sig .tc := ⟨.hbm, 6291, rfl⟩
abbrev main_v3557 : Ref sig .tc := ⟨.hbm, 6292, rfl⟩
abbrev main_v3558 : Ref sig .tc := ⟨.hbm, 6293, rfl⟩
abbrev main_v3559 : Ref sig .tc := ⟨.hbm, 6294, rfl⟩
abbrev main_cst_1122 : Ref sig .tc := ⟨.hbm, 6295, rfl⟩
abbrev main_v3560 : Ref sig .tc := ⟨.hbm, 6296, rfl⟩
abbrev main_v3561 : Ref sig .tc := ⟨.hbm, 6297, rfl⟩
abbrev main_v3562 : Ref sig .tc := ⟨.hbm, 6298, rfl⟩
abbrev main_v3563 : Ref sig .tc := ⟨.hbm, 6299, rfl⟩
abbrev main_v3564 : Ref sig .tc := ⟨.hbm, 6300, rfl⟩
abbrev main_v3565 : Ref sig .tc := ⟨.hbm, 6301, rfl⟩
abbrev main_v3566 : Ref sig .tc := ⟨.hbm, 6302, rfl⟩
abbrev main_v3567 : Ref sig .tc := ⟨.hbm, 6303, rfl⟩
abbrev main_v3568 : Ref sig .tc := ⟨.hbm, 6304, rfl⟩
abbrev main_v3569 : Ref sig .tc := ⟨.hbm, 6305, rfl⟩
abbrev main_v3570 : Ref sig .tc := ⟨.hbm, 6306, rfl⟩
abbrev main_v3571 : Ref sig .tc := ⟨.hbm, 6307, rfl⟩
abbrev main_v3572 : Ref sig .tc := ⟨.hbm, 6308, rfl⟩
abbrev main_v3573 : Ref sig .tc := ⟨.hbm, 6309, rfl⟩
abbrev main_v3574 : Ref sig .tc := ⟨.hbm, 6310, rfl⟩
abbrev main_v3575 : Ref sig .tc := ⟨.hbm, 6311, rfl⟩
abbrev main_v3576 : Ref sig .tc := ⟨.hbm, 6312, rfl⟩
abbrev main_v3577 : Ref sig .tc := ⟨.hbm, 6313, rfl⟩
abbrev main_v3578 : Ref sig .tc := ⟨.hbm, 6314, rfl⟩
abbrev main_v3579 : Ref sig .tc := ⟨.hbm, 6315, rfl⟩
abbrev main_v3580 : Ref sig .tc := ⟨.hbm, 6316, rfl⟩
abbrev main_v3581 : Ref sig .tc := ⟨.hbm, 6317, rfl⟩
abbrev main_v3582 : Ref sig .tc := ⟨.hbm, 6318, rfl⟩
abbrev main_cst_1123 : Ref sig .tc := ⟨.hbm, 6319, rfl⟩
abbrev main_v3583 : Ref sig .tc := ⟨.hbm, 6320, rfl⟩
abbrev main_v3584 : Ref sig .tc := ⟨.hbm, 6321, rfl⟩
abbrev main_cst_1124 : Ref sig .tc := ⟨.hbm, 6322, rfl⟩
abbrev main_v3585 : Ref sig .tc := ⟨.hbm, 6323, rfl⟩
abbrev main_v3586 : Ref sig .tc := ⟨.hbm, 6324, rfl⟩
abbrev main_v3587 : Ref sig .tc := ⟨.hbm, 6325, rfl⟩
abbrev main_v3588 : Ref sig .tc := ⟨.hbm, 6326, rfl⟩
abbrev main_v3589 : Ref sig .tc := ⟨.hbm, 6327, rfl⟩
abbrev main_v3590 : Ref sig .tc := ⟨.hbm, 6328, rfl⟩
abbrev main_cst_1125 : Ref sig .tc := ⟨.hbm, 6329, rfl⟩
abbrev main_cst_1126 : Ref sig .tc := ⟨.hbm, 6330, rfl⟩
abbrev main_call322_v0 : Ref sig .tc := ⟨.hbm, 6331, rfl⟩
abbrev main_call322_v1 : Ref sig .tc := ⟨.hbm, 6332, rfl⟩
abbrev main_call322_v2 : Ref sig .tc := ⟨.hbm, 6333, rfl⟩
abbrev main_call322_v3 : Ref sig .tc := ⟨.hbm, 6334, rfl⟩
abbrev main_call322_v4 : Ref sig .tc := ⟨.hbm, 6335, rfl⟩
abbrev main_v3591 : Ref sig .tc := ⟨.hbm, 6336, rfl⟩
abbrev main_cst_1127 : Ref sig .tc := ⟨.hbm, 6337, rfl⟩
abbrev main_cst_1128 : Ref sig .tc := ⟨.hbm, 6338, rfl⟩
abbrev main_call323_v0 : Ref sig .tc := ⟨.hbm, 6339, rfl⟩
abbrev main_call323_v1 : Ref sig .tc := ⟨.hbm, 6340, rfl⟩
abbrev main_call323_v2 : Ref sig .tc := ⟨.hbm, 6341, rfl⟩
abbrev main_call323_v3 : Ref sig .tc := ⟨.hbm, 6342, rfl⟩
abbrev main_call323_v4 : Ref sig .tc := ⟨.hbm, 6343, rfl⟩
abbrev main_v3592 : Ref sig .tc := ⟨.hbm, 6344, rfl⟩
abbrev main_v3593 : Ref sig .tc := ⟨.hbm, 6345, rfl⟩
abbrev main_v3594 : Ref sig .tc := ⟨.hbm, 6346, rfl⟩
abbrev main_v3595 : Ref sig .tc := ⟨.hbm, 6347, rfl⟩
abbrev main_v3596 : Ref sig .tc := ⟨.hbm, 6348, rfl⟩
abbrev main_v3597 : Ref sig .tc := ⟨.hbm, 6349, rfl⟩
abbrev main_v3598 : Ref sig .tc := ⟨.hbm, 6350, rfl⟩
abbrev main_v3599 : Ref sig .tc := ⟨.hbm, 6351, rfl⟩
abbrev main_v3600 : Ref sig .tc := ⟨.hbm, 6352, rfl⟩
abbrev main_v3601 : Ref sig .tc := ⟨.hbm, 6353, rfl⟩
abbrev main_cst_1129 : Ref sig .tc := ⟨.hbm, 6354, rfl⟩
abbrev main_cst_1130 : Ref sig .tc := ⟨.hbm, 6355, rfl⟩
abbrev main_call324_v0 : Ref sig .tc := ⟨.hbm, 6356, rfl⟩
abbrev main_call324_v1 : Ref sig .tc := ⟨.hbm, 6357, rfl⟩
abbrev main_call324_v2 : Ref sig .tc := ⟨.hbm, 6358, rfl⟩
abbrev main_call324_v3 : Ref sig .tc := ⟨.hbm, 6359, rfl⟩
abbrev main_call324_v4 : Ref sig .tc := ⟨.hbm, 6360, rfl⟩
abbrev main_v3602 : Ref sig .tc := ⟨.hbm, 6361, rfl⟩
abbrev main_cst_1131 : Ref sig .tc := ⟨.hbm, 6362, rfl⟩
abbrev main_cst_1132 : Ref sig .tc := ⟨.hbm, 6363, rfl⟩
abbrev main_call325_v0 : Ref sig .tc := ⟨.hbm, 6364, rfl⟩
abbrev main_call325_v1 : Ref sig .tc := ⟨.hbm, 6365, rfl⟩
abbrev main_call325_v2 : Ref sig .tc := ⟨.hbm, 6366, rfl⟩
abbrev main_call325_v3 : Ref sig .tc := ⟨.hbm, 6367, rfl⟩
abbrev main_call325_v4 : Ref sig .tc := ⟨.hbm, 6368, rfl⟩
abbrev main_v3603 : Ref sig .tc := ⟨.hbm, 6369, rfl⟩
abbrev main_v3604 : Ref sig .tc := ⟨.hbm, 6370, rfl⟩
abbrev main_v3605 : Ref sig .tc := ⟨.hbm, 6371, rfl⟩
abbrev main_v3606 : Ref sig .tc := ⟨.hbm, 6372, rfl⟩
abbrev main_v3607 : Ref sig .tc := ⟨.hbm, 6373, rfl⟩
abbrev main_v3608 : Ref sig .tc := ⟨.hbm, 6374, rfl⟩
abbrev main_v3609 : Ref sig .tc := ⟨.hbm, 6375, rfl⟩
abbrev main_v3610 : Ref sig .tc := ⟨.hbm, 6376, rfl⟩
abbrev main_v3611 : Ref sig .tc := ⟨.hbm, 6377, rfl⟩
abbrev main_v3612 : Ref sig .tc := ⟨.hbm, 6378, rfl⟩
abbrev main_cst_1133 : Ref sig .tc := ⟨.hbm, 6379, rfl⟩
abbrev main_cst_1134 : Ref sig .tc := ⟨.hbm, 6380, rfl⟩
abbrev main_call326_v0 : Ref sig .tc := ⟨.hbm, 6381, rfl⟩
abbrev main_call326_v1 : Ref sig .tc := ⟨.hbm, 6382, rfl⟩
abbrev main_call326_v2 : Ref sig .tc := ⟨.hbm, 6383, rfl⟩
abbrev main_call326_v3 : Ref sig .tc := ⟨.hbm, 6384, rfl⟩
abbrev main_call326_v4 : Ref sig .tc := ⟨.hbm, 6385, rfl⟩
abbrev main_v3613 : Ref sig .tc := ⟨.hbm, 6386, rfl⟩
abbrev main_cst_1135 : Ref sig .tc := ⟨.hbm, 6387, rfl⟩
abbrev main_cst_1136 : Ref sig .tc := ⟨.hbm, 6388, rfl⟩
abbrev main_call327_v0 : Ref sig .tc := ⟨.hbm, 6389, rfl⟩
abbrev main_call327_v1 : Ref sig .tc := ⟨.hbm, 6390, rfl⟩
abbrev main_call327_v2 : Ref sig .tc := ⟨.hbm, 6391, rfl⟩
abbrev main_call327_v3 : Ref sig .tc := ⟨.hbm, 6392, rfl⟩
abbrev main_call327_v4 : Ref sig .tc := ⟨.hbm, 6393, rfl⟩
abbrev main_v3614 : Ref sig .tc := ⟨.hbm, 6394, rfl⟩
abbrev main_v3615 : Ref sig .tc := ⟨.hbm, 6395, rfl⟩
abbrev main_v3616 : Ref sig .tc := ⟨.hbm, 6396, rfl⟩
abbrev main_v3617 : Ref sig .tc := ⟨.hbm, 6397, rfl⟩
abbrev main_v3618 : Ref sig .tc := ⟨.hbm, 6398, rfl⟩
abbrev main_v3619 : Ref sig .tc := ⟨.hbm, 6399, rfl⟩
abbrev main_v3620 : Ref sig .tc := ⟨.hbm, 6400, rfl⟩
abbrev main_v3621 : Ref sig .tc := ⟨.hbm, 6401, rfl⟩
abbrev main_v3622 : Ref sig .tc := ⟨.hbm, 6402, rfl⟩
abbrev main_v3623 : Ref sig .tc := ⟨.hbm, 6403, rfl⟩
abbrev main_cst_1137 : Ref sig .tc := ⟨.hbm, 6404, rfl⟩
abbrev main_cst_1138 : Ref sig .tc := ⟨.hbm, 6405, rfl⟩
abbrev main_call328_v0 : Ref sig .tc := ⟨.hbm, 6406, rfl⟩
abbrev main_call328_v1 : Ref sig .tc := ⟨.hbm, 6407, rfl⟩
abbrev main_call328_v2 : Ref sig .tc := ⟨.hbm, 6408, rfl⟩
abbrev main_call328_v3 : Ref sig .tc := ⟨.hbm, 6409, rfl⟩
abbrev main_call328_v4 : Ref sig .tc := ⟨.hbm, 6410, rfl⟩
abbrev main_v3624 : Ref sig .tc := ⟨.hbm, 6411, rfl⟩
abbrev main_cst_1139 : Ref sig .tc := ⟨.hbm, 6412, rfl⟩
abbrev main_cst_1140 : Ref sig .tc := ⟨.hbm, 6413, rfl⟩
abbrev main_call329_v0 : Ref sig .tc := ⟨.hbm, 6414, rfl⟩
abbrev main_call329_v1 : Ref sig .tc := ⟨.hbm, 6415, rfl⟩
abbrev main_call329_v2 : Ref sig .tc := ⟨.hbm, 6416, rfl⟩
abbrev main_call329_v3 : Ref sig .tc := ⟨.hbm, 6417, rfl⟩
abbrev main_call329_v4 : Ref sig .tc := ⟨.hbm, 6418, rfl⟩
abbrev main_v3625 : Ref sig .tc := ⟨.hbm, 6419, rfl⟩
abbrev main_v3626 : Ref sig .tc := ⟨.hbm, 6420, rfl⟩
abbrev main_v3627 : Ref sig .tc := ⟨.hbm, 6421, rfl⟩
abbrev main_v3628 : Ref sig .tc := ⟨.hbm, 6422, rfl⟩
abbrev main_v3629 : Ref sig .tc := ⟨.hbm, 6423, rfl⟩
abbrev main_v3630 : Ref sig .tc := ⟨.hbm, 6424, rfl⟩
abbrev main_v3631 : Ref sig .tc := ⟨.hbm, 6425, rfl⟩
abbrev main_v3632 : Ref sig .tc := ⟨.hbm, 6426, rfl⟩
abbrev main_v3633 : Ref sig .tc := ⟨.hbm, 6427, rfl⟩
abbrev main_v3634 : Ref sig .tc := ⟨.hbm, 6428, rfl⟩
abbrev main_cst_1141 : Ref sig .tc := ⟨.hbm, 6429, rfl⟩
abbrev main_cst_1142 : Ref sig .tc := ⟨.hbm, 6430, rfl⟩
abbrev main_call330_v0 : Ref sig .tc := ⟨.hbm, 6431, rfl⟩
abbrev main_call330_v1 : Ref sig .tc := ⟨.hbm, 6432, rfl⟩
abbrev main_call330_v2 : Ref sig .tc := ⟨.hbm, 6433, rfl⟩
abbrev main_call330_v3 : Ref sig .tc := ⟨.hbm, 6434, rfl⟩
abbrev main_call330_v4 : Ref sig .tc := ⟨.hbm, 6435, rfl⟩
abbrev main_v3635 : Ref sig .tc := ⟨.hbm, 6436, rfl⟩
abbrev main_cst_1143 : Ref sig .tc := ⟨.hbm, 6437, rfl⟩
abbrev main_cst_1144 : Ref sig .tc := ⟨.hbm, 6438, rfl⟩
abbrev main_call331_v0 : Ref sig .tc := ⟨.hbm, 6439, rfl⟩
abbrev main_call331_v1 : Ref sig .tc := ⟨.hbm, 6440, rfl⟩
abbrev main_call331_v2 : Ref sig .tc := ⟨.hbm, 6441, rfl⟩
abbrev main_call331_v3 : Ref sig .tc := ⟨.hbm, 6442, rfl⟩
abbrev main_call331_v4 : Ref sig .tc := ⟨.hbm, 6443, rfl⟩
abbrev main_v3636 : Ref sig .tc := ⟨.hbm, 6444, rfl⟩
abbrev main_v3637 : Ref sig .tc := ⟨.hbm, 6445, rfl⟩
abbrev main_v3638 : Ref sig .tc := ⟨.hbm, 6446, rfl⟩
abbrev main_v3639 : Ref sig .tc := ⟨.hbm, 6447, rfl⟩
abbrev main_v3640 : Ref sig .tc := ⟨.hbm, 6448, rfl⟩
abbrev main_v3641 : Ref sig .tc := ⟨.hbm, 6449, rfl⟩
abbrev main_v3642 : Ref sig .tc := ⟨.hbm, 6450, rfl⟩
abbrev main_v3643 : Ref sig .tc := ⟨.hbm, 6451, rfl⟩
abbrev main_cst_1145 : Ref sig .tc := ⟨.hbm, 6452, rfl⟩
abbrev main_v3644 : Ref sig .tc := ⟨.hbm, 6453, rfl⟩
abbrev main_v3645 : Ref sig .tc := ⟨.hbm, 6454, rfl⟩
abbrev main_v3646 : Ref sig .tc := ⟨.hbm, 6455, rfl⟩
abbrev main_cst_1146 : Ref sig .tc := ⟨.hbm, 6456, rfl⟩
abbrev main_v3647 : Ref sig .tc := ⟨.hbm, 6457, rfl⟩
abbrev main_v3648 : Ref sig .tc := ⟨.hbm, 6458, rfl⟩
abbrev main_cst_1147 : Ref sig .tc := ⟨.hbm, 6459, rfl⟩
abbrev main_v3649 : Ref sig .tc := ⟨.hbm, 6460, rfl⟩
abbrev main_v3650 : Ref sig .tc := ⟨.hbm, 6461, rfl⟩
abbrev main_v3651 : Ref sig .tc := ⟨.hbm, 6462, rfl⟩
abbrev main_v3652 : Ref sig .tc := ⟨.hbm, 6463, rfl⟩
abbrev main_cst_1148 : Ref sig .tc := ⟨.hbm, 6464, rfl⟩
abbrev main_v3653 : Ref sig .tc := ⟨.hbm, 6465, rfl⟩
abbrev main_v3654 : Ref sig .tc := ⟨.hbm, 6466, rfl⟩
abbrev main_v3655 : Ref sig .tc := ⟨.hbm, 6467, rfl⟩
abbrev main_v3656 : Ref sig .tc := ⟨.hbm, 6468, rfl⟩
abbrev main_v3657 : Ref sig .tc := ⟨.hbm, 6469, rfl⟩
abbrev main_v3658 : Ref sig .tc := ⟨.hbm, 6470, rfl⟩
abbrev main_v3659 : Ref sig .tc := ⟨.hbm, 6471, rfl⟩
abbrev main_cst_1149 : Ref sig .tc := ⟨.hbm, 6472, rfl⟩
abbrev main_v3660 : Ref sig .tc := ⟨.hbm, 6473, rfl⟩
abbrev main_v3661 : Ref sig .tc := ⟨.hbm, 6474, rfl⟩
abbrev main_cst_1150 : Ref sig .tc := ⟨.hbm, 6475, rfl⟩
abbrev main_v3662 : Ref sig .tc := ⟨.hbm, 6476, rfl⟩
abbrev main_v3663 : Ref sig .tc := ⟨.hbm, 6477, rfl⟩
abbrev main_v3664 : Ref sig .tc := ⟨.hbm, 6478, rfl⟩
abbrev main_v3665 : Ref sig .tc := ⟨.hbm, 6479, rfl⟩
abbrev main_v3666 : Ref sig .tc := ⟨.hbm, 6480, rfl⟩
abbrev main_v3667 : Ref sig .tc := ⟨.hbm, 6481, rfl⟩
abbrev main_cst_1151 : Ref sig .tc := ⟨.hbm, 6482, rfl⟩
abbrev main_cst_1152 : Ref sig .tc := ⟨.hbm, 6483, rfl⟩
abbrev main_call332_v0 : Ref sig .tc := ⟨.hbm, 6484, rfl⟩
abbrev main_call332_v1 : Ref sig .tc := ⟨.hbm, 6485, rfl⟩
abbrev main_call332_v2 : Ref sig .tc := ⟨.hbm, 6486, rfl⟩
abbrev main_call332_v3 : Ref sig .tc := ⟨.hbm, 6487, rfl⟩
abbrev main_call332_v4 : Ref sig .tc := ⟨.hbm, 6488, rfl⟩
abbrev main_v3668 : Ref sig .tc := ⟨.hbm, 6489, rfl⟩
abbrev main_cst_1153 : Ref sig .tc := ⟨.hbm, 6490, rfl⟩
abbrev main_cst_1154 : Ref sig .tc := ⟨.hbm, 6491, rfl⟩
abbrev main_call333_v0 : Ref sig .tc := ⟨.hbm, 6492, rfl⟩
abbrev main_call333_v1 : Ref sig .tc := ⟨.hbm, 6493, rfl⟩
abbrev main_call333_v2 : Ref sig .tc := ⟨.hbm, 6494, rfl⟩
abbrev main_call333_v3 : Ref sig .tc := ⟨.hbm, 6495, rfl⟩
abbrev main_call333_v4 : Ref sig .tc := ⟨.hbm, 6496, rfl⟩
abbrev main_v3669 : Ref sig .tc := ⟨.hbm, 6497, rfl⟩
abbrev main_v3670 : Ref sig .tc := ⟨.hbm, 6498, rfl⟩
abbrev main_v3671 : Ref sig .tc := ⟨.hbm, 6499, rfl⟩
abbrev main_v3672 : Ref sig .tc := ⟨.hbm, 6500, rfl⟩
abbrev main_v3673 : Ref sig .tc := ⟨.hbm, 6501, rfl⟩
abbrev main_v3674 : Ref sig .tc := ⟨.hbm, 6502, rfl⟩
abbrev main_v3675 : Ref sig .tc := ⟨.hbm, 6503, rfl⟩
abbrev main_v3676 : Ref sig .tc := ⟨.hbm, 6504, rfl⟩
abbrev main_cst_1155 : Ref sig .tc := ⟨.hbm, 6505, rfl⟩
abbrev main_v3677 : Ref sig .tc := ⟨.hbm, 6506, rfl⟩
abbrev main_v3678 : Ref sig .tc := ⟨.hbm, 6507, rfl⟩
abbrev main_v3679 : Ref sig .tc := ⟨.hbm, 6508, rfl⟩
abbrev main_cst_1156 : Ref sig .tc := ⟨.hbm, 6509, rfl⟩
abbrev main_v3680 : Ref sig .tc := ⟨.hbm, 6510, rfl⟩
abbrev main_v3681 : Ref sig .tc := ⟨.hbm, 6511, rfl⟩
abbrev main_cst_1157 : Ref sig .tc := ⟨.hbm, 6512, rfl⟩
abbrev main_v3682 : Ref sig .tc := ⟨.hbm, 6513, rfl⟩
abbrev main_v3683 : Ref sig .tc := ⟨.hbm, 6514, rfl⟩
abbrev main_v3684 : Ref sig .tc := ⟨.hbm, 6515, rfl⟩
abbrev main_v3685 : Ref sig .tc := ⟨.hbm, 6516, rfl⟩
abbrev main_cst_1158 : Ref sig .tc := ⟨.hbm, 6517, rfl⟩
abbrev main_v3686 : Ref sig .tc := ⟨.hbm, 6518, rfl⟩
abbrev main_v3687 : Ref sig .tc := ⟨.hbm, 6519, rfl⟩
abbrev main_v3688 : Ref sig .tc := ⟨.hbm, 6520, rfl⟩
abbrev main_v3689 : Ref sig .tc := ⟨.hbm, 6521, rfl⟩
abbrev main_v3690 : Ref sig .tc := ⟨.hbm, 6522, rfl⟩
abbrev main_v3691 : Ref sig .tc := ⟨.hbm, 6523, rfl⟩
abbrev main_v3692 : Ref sig .tc := ⟨.hbm, 6524, rfl⟩
abbrev main_v3693 : Ref sig .tc := ⟨.hbm, 6525, rfl⟩
abbrev main_v3694 : Ref sig .tc := ⟨.hbm, 6526, rfl⟩
abbrev main_v3695 : Ref sig .tc := ⟨.hbm, 6527, rfl⟩
abbrev main_v3696 : Ref sig .tc := ⟨.hbm, 6528, rfl⟩
abbrev main_cst_1159 : Ref sig .tc := ⟨.hbm, 6529, rfl⟩
abbrev main_v3697 : Ref sig .tc := ⟨.hbm, 6530, rfl⟩
abbrev main_v3698 : Ref sig .tc := ⟨.hbm, 6531, rfl⟩
abbrev main_cst_1160 : Ref sig .tc := ⟨.hbm, 6532, rfl⟩
abbrev main_v3699 : Ref sig .tc := ⟨.hbm, 6533, rfl⟩
abbrev main_v3700 : Ref sig .tc := ⟨.hbm, 6534, rfl⟩
abbrev main_v3701 : Ref sig .tc := ⟨.hbm, 6535, rfl⟩
abbrev main_v3702 : Ref sig .tc := ⟨.hbm, 6536, rfl⟩
abbrev main_v3703 : Ref sig .tc := ⟨.hbm, 6537, rfl⟩
abbrev main_v3704 : Ref sig .tc := ⟨.hbm, 6538, rfl⟩
abbrev main_cst_1161 : Ref sig .tc := ⟨.hbm, 6539, rfl⟩
abbrev main_cst_1162 : Ref sig .tc := ⟨.hbm, 6540, rfl⟩
abbrev main_call334_v0 : Ref sig .tc := ⟨.hbm, 6541, rfl⟩
abbrev main_call334_v1 : Ref sig .tc := ⟨.hbm, 6542, rfl⟩
abbrev main_call334_v2 : Ref sig .tc := ⟨.hbm, 6543, rfl⟩
abbrev main_call334_v3 : Ref sig .tc := ⟨.hbm, 6544, rfl⟩
abbrev main_call334_v4 : Ref sig .tc := ⟨.hbm, 6545, rfl⟩
abbrev main_v3705 : Ref sig .tc := ⟨.hbm, 6546, rfl⟩
abbrev main_cst_1163 : Ref sig .tc := ⟨.hbm, 6547, rfl⟩
abbrev main_cst_1164 : Ref sig .tc := ⟨.hbm, 6548, rfl⟩
abbrev main_call335_v0 : Ref sig .tc := ⟨.hbm, 6549, rfl⟩
abbrev main_call335_v1 : Ref sig .tc := ⟨.hbm, 6550, rfl⟩
abbrev main_call335_v2 : Ref sig .tc := ⟨.hbm, 6551, rfl⟩
abbrev main_call335_v3 : Ref sig .tc := ⟨.hbm, 6552, rfl⟩
abbrev main_call335_v4 : Ref sig .tc := ⟨.hbm, 6553, rfl⟩
abbrev main_v3706 : Ref sig .tc := ⟨.hbm, 6554, rfl⟩
abbrev main_v3707 : Ref sig .tc := ⟨.hbm, 6555, rfl⟩
abbrev main_v3708 : Ref sig .tc := ⟨.hbm, 6556, rfl⟩
abbrev main_v3709 : Ref sig .tc := ⟨.hbm, 6557, rfl⟩
abbrev main_v3710 : Ref sig .tc := ⟨.hbm, 6558, rfl⟩
abbrev main_v3711 : Ref sig .tc := ⟨.hbm, 6559, rfl⟩
abbrev main_v3712 : Ref sig .tc := ⟨.hbm, 6560, rfl⟩
abbrev main_v3713 : Ref sig .tc := ⟨.hbm, 6561, rfl⟩
abbrev main_v3714 : Ref sig .tc := ⟨.hbm, 6562, rfl⟩
abbrev main_v3715 : Ref sig .tc := ⟨.hbm, 6563, rfl⟩
abbrev main_cst_1165 : Ref sig .tc := ⟨.hbm, 6564, rfl⟩
abbrev main_cst_1166 : Ref sig .tc := ⟨.hbm, 6565, rfl⟩
abbrev main_call336_v0 : Ref sig .tc := ⟨.hbm, 6566, rfl⟩
abbrev main_call336_v1 : Ref sig .tc := ⟨.hbm, 6567, rfl⟩
abbrev main_call336_v2 : Ref sig .tc := ⟨.hbm, 6568, rfl⟩
abbrev main_call336_v3 : Ref sig .tc := ⟨.hbm, 6569, rfl⟩
abbrev main_call336_v4 : Ref sig .tc := ⟨.hbm, 6570, rfl⟩
abbrev main_v3716 : Ref sig .tc := ⟨.hbm, 6571, rfl⟩
abbrev main_cst_1167 : Ref sig .tc := ⟨.hbm, 6572, rfl⟩
abbrev main_cst_1168 : Ref sig .tc := ⟨.hbm, 6573, rfl⟩
abbrev main_call337_v0 : Ref sig .tc := ⟨.hbm, 6574, rfl⟩
abbrev main_call337_v1 : Ref sig .tc := ⟨.hbm, 6575, rfl⟩
abbrev main_call337_v2 : Ref sig .tc := ⟨.hbm, 6576, rfl⟩
abbrev main_call337_v3 : Ref sig .tc := ⟨.hbm, 6577, rfl⟩
abbrev main_call337_v4 : Ref sig .tc := ⟨.hbm, 6578, rfl⟩
abbrev main_v3717 : Ref sig .tc := ⟨.hbm, 6579, rfl⟩
abbrev main_v3718 : Ref sig .tc := ⟨.hbm, 6580, rfl⟩
abbrev main_v3719 : Ref sig .tc := ⟨.hbm, 6581, rfl⟩
abbrev main_v3720 : Ref sig .tc := ⟨.hbm, 6582, rfl⟩
abbrev main_v3721 : Ref sig .tc := ⟨.hbm, 6583, rfl⟩
abbrev main_v3722 : Ref sig .tc := ⟨.hbm, 6584, rfl⟩
abbrev main_v3723 : Ref sig .tc := ⟨.hbm, 6585, rfl⟩
abbrev main_v3724 : Ref sig .tc := ⟨.hbm, 6586, rfl⟩
abbrev main_cst_1169 : Ref sig .tc := ⟨.hbm, 6587, rfl⟩
abbrev main_v3725 : Ref sig .tc := ⟨.hbm, 6588, rfl⟩
abbrev main_v3726 : Ref sig .tc := ⟨.hbm, 6589, rfl⟩
abbrev main_v3727 : Ref sig .tc := ⟨.hbm, 6590, rfl⟩
abbrev main_cst_1170 : Ref sig .tc := ⟨.hbm, 6591, rfl⟩
abbrev main_v3728 : Ref sig .tc := ⟨.hbm, 6592, rfl⟩
abbrev main_v3729 : Ref sig .tc := ⟨.hbm, 6593, rfl⟩
abbrev main_cst_1171 : Ref sig .tc := ⟨.hbm, 6594, rfl⟩
abbrev main_v3730 : Ref sig .tc := ⟨.hbm, 6595, rfl⟩
abbrev main_v3731 : Ref sig .tc := ⟨.hbm, 6596, rfl⟩
abbrev main_v3732 : Ref sig .tc := ⟨.hbm, 6597, rfl⟩
abbrev main_v3733 : Ref sig .tc := ⟨.hbm, 6598, rfl⟩
abbrev main_cst_1172 : Ref sig .tc := ⟨.hbm, 6599, rfl⟩
abbrev main_v3734 : Ref sig .tc := ⟨.hbm, 6600, rfl⟩
abbrev main_v3735 : Ref sig .tc := ⟨.hbm, 6601, rfl⟩
abbrev main_v3736 : Ref sig .tc := ⟨.hbm, 6602, rfl⟩
abbrev main_v3737 : Ref sig .tc := ⟨.hbm, 6603, rfl⟩
abbrev main_v3738 : Ref sig .tc := ⟨.hbm, 6604, rfl⟩
abbrev main_v3739 : Ref sig .tc := ⟨.hbm, 6605, rfl⟩
abbrev main_v3740 : Ref sig .tc := ⟨.hbm, 6606, rfl⟩
abbrev main_cst_1173 : Ref sig .tc := ⟨.hbm, 6607, rfl⟩
abbrev main_v3741 : Ref sig .tc := ⟨.hbm, 6608, rfl⟩
abbrev main_v3742 : Ref sig .tc := ⟨.hbm, 6609, rfl⟩
abbrev main_cst_1174 : Ref sig .tc := ⟨.hbm, 6610, rfl⟩
abbrev main_v3743 : Ref sig .tc := ⟨.hbm, 6611, rfl⟩
abbrev main_v3744 : Ref sig .tc := ⟨.hbm, 6612, rfl⟩
abbrev main_v3745 : Ref sig .tc := ⟨.hbm, 6613, rfl⟩
abbrev main_v3746 : Ref sig .tc := ⟨.hbm, 6614, rfl⟩
abbrev main_v3747 : Ref sig .tc := ⟨.hbm, 6615, rfl⟩
abbrev main_v3748 : Ref sig .tc := ⟨.hbm, 6616, rfl⟩
abbrev main_cst_1175 : Ref sig .tc := ⟨.hbm, 6617, rfl⟩
abbrev main_cst_1176 : Ref sig .tc := ⟨.hbm, 6618, rfl⟩
abbrev main_call338_v0 : Ref sig .tc := ⟨.hbm, 6619, rfl⟩
abbrev main_call338_v1 : Ref sig .tc := ⟨.hbm, 6620, rfl⟩
abbrev main_call338_v2 : Ref sig .tc := ⟨.hbm, 6621, rfl⟩
abbrev main_call338_v3 : Ref sig .tc := ⟨.hbm, 6622, rfl⟩
abbrev main_call338_v4 : Ref sig .tc := ⟨.hbm, 6623, rfl⟩
abbrev main_v3749 : Ref sig .tc := ⟨.hbm, 6624, rfl⟩
abbrev main_cst_1177 : Ref sig .tc := ⟨.hbm, 6625, rfl⟩
abbrev main_cst_1178 : Ref sig .tc := ⟨.hbm, 6626, rfl⟩
abbrev main_call339_v0 : Ref sig .tc := ⟨.hbm, 6627, rfl⟩
abbrev main_call339_v1 : Ref sig .tc := ⟨.hbm, 6628, rfl⟩
abbrev main_call339_v2 : Ref sig .tc := ⟨.hbm, 6629, rfl⟩
abbrev main_call339_v3 : Ref sig .tc := ⟨.hbm, 6630, rfl⟩
abbrev main_call339_v4 : Ref sig .tc := ⟨.hbm, 6631, rfl⟩
abbrev main_v3750 : Ref sig .tc := ⟨.hbm, 6632, rfl⟩
abbrev main_v3751 : Ref sig .tc := ⟨.hbm, 6633, rfl⟩
abbrev main_v3752 : Ref sig .tc := ⟨.hbm, 6634, rfl⟩
abbrev main_v3753 : Ref sig .tc := ⟨.hbm, 6635, rfl⟩
abbrev main_v3754 : Ref sig .tc := ⟨.hbm, 6636, rfl⟩
abbrev main_v3755 : Ref sig .tc := ⟨.hbm, 6637, rfl⟩
abbrev main_v3756 : Ref sig .tc := ⟨.hbm, 6638, rfl⟩
abbrev main_v3757 : Ref sig .tc := ⟨.hbm, 6639, rfl⟩
abbrev main_cst_1179 : Ref sig .tc := ⟨.hbm, 6640, rfl⟩
abbrev main_v3758 : Ref sig .tc := ⟨.hbm, 6641, rfl⟩
abbrev main_v3759 : Ref sig .tc := ⟨.hbm, 6642, rfl⟩
abbrev main_v3760 : Ref sig .tc := ⟨.hbm, 6643, rfl⟩
abbrev main_cst_1180 : Ref sig .tc := ⟨.hbm, 6644, rfl⟩
abbrev main_v3761 : Ref sig .tc := ⟨.hbm, 6645, rfl⟩
abbrev main_v3762 : Ref sig .tc := ⟨.hbm, 6646, rfl⟩
abbrev main_cst_1181 : Ref sig .tc := ⟨.hbm, 6647, rfl⟩
abbrev main_v3763 : Ref sig .tc := ⟨.hbm, 6648, rfl⟩
abbrev main_v3764 : Ref sig .tc := ⟨.hbm, 6649, rfl⟩
abbrev main_v3765 : Ref sig .tc := ⟨.hbm, 6650, rfl⟩
abbrev main_v3766 : Ref sig .tc := ⟨.hbm, 6651, rfl⟩
abbrev main_cst_1182 : Ref sig .tc := ⟨.hbm, 6652, rfl⟩
abbrev main_v3767 : Ref sig .tc := ⟨.hbm, 6653, rfl⟩
abbrev main_v3768 : Ref sig .tc := ⟨.hbm, 6654, rfl⟩
abbrev main_v3769 : Ref sig .tc := ⟨.hbm, 6655, rfl⟩
abbrev main_v3770 : Ref sig .tc := ⟨.hbm, 6656, rfl⟩
abbrev main_v3771 : Ref sig .tc := ⟨.hbm, 6657, rfl⟩
abbrev main_v3772 : Ref sig .tc := ⟨.hbm, 6658, rfl⟩
abbrev main_v3773 : Ref sig .tc := ⟨.hbm, 6659, rfl⟩
abbrev main_v3774 : Ref sig .tc := ⟨.hbm, 6660, rfl⟩
abbrev main_v3775 : Ref sig .tc := ⟨.hbm, 6661, rfl⟩
abbrev main_v3776 : Ref sig .tc := ⟨.hbm, 6662, rfl⟩
abbrev main_v3777 : Ref sig .tc := ⟨.hbm, 6663, rfl⟩
abbrev main_v3778 : Ref sig .tc := ⟨.hbm, 6664, rfl⟩
abbrev main_v3779 : Ref sig .tc := ⟨.hbm, 6665, rfl⟩
abbrev main_v3780 : Ref sig .tc := ⟨.hbm, 6666, rfl⟩
abbrev main_v3781 : Ref sig .tc := ⟨.hbm, 6667, rfl⟩
abbrev main_cst_1183 : Ref sig .tc := ⟨.hbm, 6668, rfl⟩
abbrev main_v3782 : Ref sig .tc := ⟨.hbm, 6669, rfl⟩
abbrev main_v3783 : Ref sig .tc := ⟨.hbm, 6670, rfl⟩
abbrev main_cst_1184 : Ref sig .tc := ⟨.hbm, 6671, rfl⟩
abbrev main_v3784 : Ref sig .tc := ⟨.hbm, 6672, rfl⟩
abbrev main_v3785 : Ref sig .tc := ⟨.hbm, 6673, rfl⟩
abbrev main_v3786 : Ref sig .tc := ⟨.hbm, 6674, rfl⟩
abbrev main_v3787 : Ref sig .tc := ⟨.hbm, 6675, rfl⟩
abbrev main_v3788 : Ref sig .tc := ⟨.hbm, 6676, rfl⟩
abbrev main_v3789 : Ref sig .tc := ⟨.hbm, 6677, rfl⟩
abbrev main_cst_1185 : Ref sig .tc := ⟨.hbm, 6678, rfl⟩
abbrev main_cst_1186 : Ref sig .tc := ⟨.hbm, 6679, rfl⟩
abbrev main_call340_v0 : Ref sig .tc := ⟨.hbm, 6680, rfl⟩
abbrev main_call340_v1 : Ref sig .tc := ⟨.hbm, 6681, rfl⟩
abbrev main_call340_v2 : Ref sig .tc := ⟨.hbm, 6682, rfl⟩
abbrev main_call340_v3 : Ref sig .tc := ⟨.hbm, 6683, rfl⟩
abbrev main_call340_v4 : Ref sig .tc := ⟨.hbm, 6684, rfl⟩
abbrev main_v3790 : Ref sig .tc := ⟨.hbm, 6685, rfl⟩
abbrev main_cst_1187 : Ref sig .tc := ⟨.hbm, 6686, rfl⟩
abbrev main_cst_1188 : Ref sig .tc := ⟨.hbm, 6687, rfl⟩
abbrev main_call341_v0 : Ref sig .tc := ⟨.hbm, 6688, rfl⟩
abbrev main_call341_v1 : Ref sig .tc := ⟨.hbm, 6689, rfl⟩
abbrev main_call341_v2 : Ref sig .tc := ⟨.hbm, 6690, rfl⟩
abbrev main_call341_v3 : Ref sig .tc := ⟨.hbm, 6691, rfl⟩
abbrev main_call341_v4 : Ref sig .tc := ⟨.hbm, 6692, rfl⟩
abbrev main_v3791 : Ref sig .tc := ⟨.hbm, 6693, rfl⟩
abbrev main_v3792 : Ref sig .tc := ⟨.hbm, 6694, rfl⟩
abbrev main_v3793 : Ref sig .tc := ⟨.hbm, 6695, rfl⟩
abbrev main_v3794 : Ref sig .tc := ⟨.hbm, 6696, rfl⟩
abbrev main_v3795 : Ref sig .tc := ⟨.hbm, 6697, rfl⟩
abbrev main_v3796 : Ref sig .tc := ⟨.hbm, 6698, rfl⟩
abbrev main_v3797 : Ref sig .tc := ⟨.hbm, 6699, rfl⟩
abbrev main_v3798 : Ref sig .tc := ⟨.hbm, 6700, rfl⟩
abbrev main_v3799 : Ref sig .tc := ⟨.hbm, 6701, rfl⟩
abbrev main_v3800 : Ref sig .tc := ⟨.hbm, 6702, rfl⟩
abbrev main_cst_1189 : Ref sig .tc := ⟨.hbm, 6703, rfl⟩
abbrev main_cst_1190 : Ref sig .tc := ⟨.hbm, 6704, rfl⟩
abbrev main_call342_v0 : Ref sig .tc := ⟨.hbm, 6705, rfl⟩
abbrev main_call342_v1 : Ref sig .tc := ⟨.hbm, 6706, rfl⟩
abbrev main_call342_v2 : Ref sig .tc := ⟨.hbm, 6707, rfl⟩
abbrev main_call342_v3 : Ref sig .tc := ⟨.hbm, 6708, rfl⟩
abbrev main_call342_v4 : Ref sig .tc := ⟨.hbm, 6709, rfl⟩
abbrev main_v3801 : Ref sig .tc := ⟨.hbm, 6710, rfl⟩
abbrev main_cst_1191 : Ref sig .tc := ⟨.hbm, 6711, rfl⟩
abbrev main_cst_1192 : Ref sig .tc := ⟨.hbm, 6712, rfl⟩
abbrev main_call343_v0 : Ref sig .tc := ⟨.hbm, 6713, rfl⟩
abbrev main_call343_v1 : Ref sig .tc := ⟨.hbm, 6714, rfl⟩
abbrev main_call343_v2 : Ref sig .tc := ⟨.hbm, 6715, rfl⟩
abbrev main_call343_v3 : Ref sig .tc := ⟨.hbm, 6716, rfl⟩
abbrev main_call343_v4 : Ref sig .tc := ⟨.hbm, 6717, rfl⟩
abbrev main_v3802 : Ref sig .tc := ⟨.hbm, 6718, rfl⟩
abbrev main_v3803 : Ref sig .tc := ⟨.hbm, 6719, rfl⟩
abbrev main_v3804 : Ref sig .tc := ⟨.hbm, 6720, rfl⟩
abbrev main_v3805 : Ref sig .tc := ⟨.hbm, 6721, rfl⟩
abbrev main_v3806 : Ref sig .tc := ⟨.hbm, 6722, rfl⟩
abbrev main_v3807 : Ref sig .tc := ⟨.hbm, 6723, rfl⟩
abbrev main_v3808 : Ref sig .tc := ⟨.hbm, 6724, rfl⟩
abbrev main_v3809 : Ref sig .tc := ⟨.hbm, 6725, rfl⟩
abbrev main_v3810 : Ref sig .tc := ⟨.hbm, 6726, rfl⟩
abbrev main_v3811 : Ref sig .tc := ⟨.hbm, 6727, rfl⟩
abbrev main_cst_1193 : Ref sig .tc := ⟨.hbm, 6728, rfl⟩
abbrev main_cst_1194 : Ref sig .tc := ⟨.hbm, 6729, rfl⟩
abbrev main_call344_v0 : Ref sig .tc := ⟨.hbm, 6730, rfl⟩
abbrev main_call344_v1 : Ref sig .tc := ⟨.hbm, 6731, rfl⟩
abbrev main_call344_v2 : Ref sig .tc := ⟨.hbm, 6732, rfl⟩
abbrev main_call344_v3 : Ref sig .tc := ⟨.hbm, 6733, rfl⟩
abbrev main_call344_v4 : Ref sig .tc := ⟨.hbm, 6734, rfl⟩
abbrev main_v3812 : Ref sig .tc := ⟨.hbm, 6735, rfl⟩
abbrev main_cst_1195 : Ref sig .tc := ⟨.hbm, 6736, rfl⟩
abbrev main_cst_1196 : Ref sig .tc := ⟨.hbm, 6737, rfl⟩
abbrev main_call345_v0 : Ref sig .tc := ⟨.hbm, 6738, rfl⟩
abbrev main_call345_v1 : Ref sig .tc := ⟨.hbm, 6739, rfl⟩
abbrev main_call345_v2 : Ref sig .tc := ⟨.hbm, 6740, rfl⟩
abbrev main_call345_v3 : Ref sig .tc := ⟨.hbm, 6741, rfl⟩
abbrev main_call345_v4 : Ref sig .tc := ⟨.hbm, 6742, rfl⟩
abbrev main_v3813 : Ref sig .tc := ⟨.hbm, 6743, rfl⟩
abbrev main_v3814 : Ref sig .tc := ⟨.hbm, 6744, rfl⟩
abbrev main_v3815 : Ref sig .tc := ⟨.hbm, 6745, rfl⟩
abbrev main_v3816 : Ref sig .tc := ⟨.hbm, 6746, rfl⟩
abbrev main_v3817 : Ref sig .tc := ⟨.hbm, 6747, rfl⟩
abbrev main_v3818 : Ref sig .tc := ⟨.hbm, 6748, rfl⟩
abbrev main_v3819 : Ref sig .tc := ⟨.hbm, 6749, rfl⟩
abbrev main_v3820 : Ref sig .tc := ⟨.hbm, 6750, rfl⟩
abbrev main_cst_1197 : Ref sig .tc := ⟨.hbm, 6751, rfl⟩
abbrev main_v3821 : Ref sig .tc := ⟨.hbm, 6752, rfl⟩
abbrev main_v3822 : Ref sig .tc := ⟨.hbm, 6753, rfl⟩
abbrev main_v3823 : Ref sig .tc := ⟨.hbm, 6754, rfl⟩
abbrev main_cst_1198 : Ref sig .tc := ⟨.hbm, 6755, rfl⟩
abbrev main_v3824 : Ref sig .tc := ⟨.hbm, 6756, rfl⟩
abbrev main_v3825 : Ref sig .tc := ⟨.hbm, 6757, rfl⟩
abbrev main_cst_1199 : Ref sig .tc := ⟨.hbm, 6758, rfl⟩
abbrev main_v3826 : Ref sig .tc := ⟨.hbm, 6759, rfl⟩
abbrev main_v3827 : Ref sig .tc := ⟨.hbm, 6760, rfl⟩
abbrev main_v3828 : Ref sig .tc := ⟨.hbm, 6761, rfl⟩
abbrev main_v3829 : Ref sig .tc := ⟨.hbm, 6762, rfl⟩
abbrev main_cst_1200 : Ref sig .tc := ⟨.hbm, 6763, rfl⟩
abbrev main_v3830 : Ref sig .tc := ⟨.hbm, 6764, rfl⟩
abbrev main_v3831 : Ref sig .tc := ⟨.hbm, 6765, rfl⟩
abbrev main_v3832 : Ref sig .tc := ⟨.hbm, 6766, rfl⟩
abbrev main_v3833 : Ref sig .tc := ⟨.hbm, 6767, rfl⟩
abbrev main_v3834 : Ref sig .tc := ⟨.hbm, 6768, rfl⟩
abbrev main_v3835 : Ref sig .tc := ⟨.hbm, 6769, rfl⟩
abbrev main_v3836 : Ref sig .tc := ⟨.hbm, 6770, rfl⟩
abbrev main_cst_1201 : Ref sig .tc := ⟨.hbm, 6771, rfl⟩
abbrev main_v3837 : Ref sig .tc := ⟨.hbm, 6772, rfl⟩
abbrev main_v3838 : Ref sig .tc := ⟨.hbm, 6773, rfl⟩
abbrev main_cst_1202 : Ref sig .tc := ⟨.hbm, 6774, rfl⟩
abbrev main_v3839 : Ref sig .tc := ⟨.hbm, 6775, rfl⟩
abbrev main_v3840 : Ref sig .tc := ⟨.hbm, 6776, rfl⟩
abbrev main_v3841 : Ref sig .tc := ⟨.hbm, 6777, rfl⟩
abbrev main_v3842 : Ref sig .tc := ⟨.hbm, 6778, rfl⟩
abbrev main_v3843 : Ref sig .tc := ⟨.hbm, 6779, rfl⟩
abbrev main_v3844 : Ref sig .tc := ⟨.hbm, 6780, rfl⟩
abbrev main_cst_1203 : Ref sig .tc := ⟨.hbm, 6781, rfl⟩
abbrev main_cst_1204 : Ref sig .tc := ⟨.hbm, 6782, rfl⟩
abbrev main_call346_v0 : Ref sig .tc := ⟨.hbm, 6783, rfl⟩
abbrev main_call346_v1 : Ref sig .tc := ⟨.hbm, 6784, rfl⟩
abbrev main_call346_v2 : Ref sig .tc := ⟨.hbm, 6785, rfl⟩
abbrev main_call346_v3 : Ref sig .tc := ⟨.hbm, 6786, rfl⟩
abbrev main_call346_v4 : Ref sig .tc := ⟨.hbm, 6787, rfl⟩
abbrev main_v3845 : Ref sig .tc := ⟨.hbm, 6788, rfl⟩
abbrev main_cst_1205 : Ref sig .tc := ⟨.hbm, 6789, rfl⟩
abbrev main_cst_1206 : Ref sig .tc := ⟨.hbm, 6790, rfl⟩
abbrev main_call347_v0 : Ref sig .tc := ⟨.hbm, 6791, rfl⟩
abbrev main_call347_v1 : Ref sig .tc := ⟨.hbm, 6792, rfl⟩
abbrev main_call347_v2 : Ref sig .tc := ⟨.hbm, 6793, rfl⟩
abbrev main_call347_v3 : Ref sig .tc := ⟨.hbm, 6794, rfl⟩
abbrev main_call347_v4 : Ref sig .tc := ⟨.hbm, 6795, rfl⟩
abbrev main_v3846 : Ref sig .tc := ⟨.hbm, 6796, rfl⟩
abbrev main_v3847 : Ref sig .tc := ⟨.hbm, 6797, rfl⟩
abbrev main_v3848 : Ref sig .tc := ⟨.hbm, 6798, rfl⟩
abbrev main_v3849 : Ref sig .tc := ⟨.hbm, 6799, rfl⟩
abbrev main_v3850 : Ref sig .tc := ⟨.hbm, 6800, rfl⟩
abbrev main_v3851 : Ref sig .tc := ⟨.hbm, 6801, rfl⟩
abbrev main_v3852 : Ref sig .tc := ⟨.hbm, 6802, rfl⟩
abbrev main_v3853 : Ref sig .tc := ⟨.hbm, 6803, rfl⟩
abbrev main_cst_1207 : Ref sig .tc := ⟨.hbm, 6804, rfl⟩
abbrev main_v3854 : Ref sig .tc := ⟨.hbm, 6805, rfl⟩
abbrev main_v3855 : Ref sig .tc := ⟨.hbm, 6806, rfl⟩
abbrev main_v3856 : Ref sig .tc := ⟨.hbm, 6807, rfl⟩
abbrev main_cst_1208 : Ref sig .tc := ⟨.hbm, 6808, rfl⟩
abbrev main_v3857 : Ref sig .tc := ⟨.hbm, 6809, rfl⟩
abbrev main_v3858 : Ref sig .tc := ⟨.hbm, 6810, rfl⟩
abbrev main_cst_1209 : Ref sig .tc := ⟨.hbm, 6811, rfl⟩
abbrev main_v3859 : Ref sig .tc := ⟨.hbm, 6812, rfl⟩
abbrev main_v3860 : Ref sig .tc := ⟨.hbm, 6813, rfl⟩
abbrev main_v3861 : Ref sig .tc := ⟨.hbm, 6814, rfl⟩
abbrev main_v3862 : Ref sig .tc := ⟨.hbm, 6815, rfl⟩
abbrev main_cst_1210 : Ref sig .tc := ⟨.hbm, 6816, rfl⟩
abbrev main_v3863 : Ref sig .tc := ⟨.hbm, 6817, rfl⟩
abbrev main_v3864 : Ref sig .tc := ⟨.hbm, 6818, rfl⟩
abbrev main_v3865 : Ref sig .tc := ⟨.hbm, 6819, rfl⟩
abbrev main_v3866 : Ref sig .tc := ⟨.hbm, 6820, rfl⟩
abbrev main_v3867 : Ref sig .tc := ⟨.hbm, 6821, rfl⟩
abbrev main_v3868 : Ref sig .tc := ⟨.hbm, 6822, rfl⟩
abbrev main_v3869 : Ref sig .tc := ⟨.hbm, 6823, rfl⟩
abbrev main_v3870 : Ref sig .tc := ⟨.hbm, 6824, rfl⟩
abbrev main_v3871 : Ref sig .tc := ⟨.hbm, 6825, rfl⟩
abbrev main_v3872 : Ref sig .tc := ⟨.hbm, 6826, rfl⟩
abbrev main_v3873 : Ref sig .tc := ⟨.hbm, 6827, rfl⟩
abbrev main_cst_1211 : Ref sig .tc := ⟨.hbm, 6828, rfl⟩
abbrev main_v3874 : Ref sig .tc := ⟨.hbm, 6829, rfl⟩
abbrev main_v3875 : Ref sig .tc := ⟨.hbm, 6830, rfl⟩
abbrev main_cst_1212 : Ref sig .tc := ⟨.hbm, 6831, rfl⟩
abbrev main_v3876 : Ref sig .tc := ⟨.hbm, 6832, rfl⟩
abbrev main_v3877 : Ref sig .tc := ⟨.hbm, 6833, rfl⟩
abbrev main_v3878 : Ref sig .tc := ⟨.hbm, 6834, rfl⟩
abbrev main_v3879 : Ref sig .tc := ⟨.hbm, 6835, rfl⟩
abbrev main_v3880 : Ref sig .tc := ⟨.hbm, 6836, rfl⟩
abbrev main_v3881 : Ref sig .tc := ⟨.hbm, 6837, rfl⟩
abbrev main_cst_1213 : Ref sig .tc := ⟨.hbm, 6838, rfl⟩
abbrev main_cst_1214 : Ref sig .tc := ⟨.hbm, 6839, rfl⟩
abbrev main_call348_v0 : Ref sig .tc := ⟨.hbm, 6840, rfl⟩
abbrev main_call348_v1 : Ref sig .tc := ⟨.hbm, 6841, rfl⟩
abbrev main_call348_v2 : Ref sig .tc := ⟨.hbm, 6842, rfl⟩
abbrev main_call348_v3 : Ref sig .tc := ⟨.hbm, 6843, rfl⟩
abbrev main_call348_v4 : Ref sig .tc := ⟨.hbm, 6844, rfl⟩
abbrev main_v3882 : Ref sig .tc := ⟨.hbm, 6845, rfl⟩
abbrev main_cst_1215 : Ref sig .tc := ⟨.hbm, 6846, rfl⟩
abbrev main_cst_1216 : Ref sig .tc := ⟨.hbm, 6847, rfl⟩
abbrev main_call349_v0 : Ref sig .tc := ⟨.hbm, 6848, rfl⟩
abbrev main_call349_v1 : Ref sig .tc := ⟨.hbm, 6849, rfl⟩
abbrev main_call349_v2 : Ref sig .tc := ⟨.hbm, 6850, rfl⟩
abbrev main_call349_v3 : Ref sig .tc := ⟨.hbm, 6851, rfl⟩
abbrev main_call349_v4 : Ref sig .tc := ⟨.hbm, 6852, rfl⟩
abbrev main_v3883 : Ref sig .tc := ⟨.hbm, 6853, rfl⟩
abbrev main_v3884 : Ref sig .tc := ⟨.hbm, 6854, rfl⟩
abbrev main_v3885 : Ref sig .tc := ⟨.hbm, 6855, rfl⟩
abbrev main_v3886 : Ref sig .tc := ⟨.hbm, 6856, rfl⟩
abbrev main_v3887 : Ref sig .tc := ⟨.hbm, 6857, rfl⟩
abbrev main_v3888 : Ref sig .tc := ⟨.hbm, 6858, rfl⟩
abbrev main_v3889 : Ref sig .tc := ⟨.hbm, 6859, rfl⟩
abbrev main_v3890 : Ref sig .tc := ⟨.hbm, 6860, rfl⟩
abbrev main_v3891 : Ref sig .tc := ⟨.hbm, 6861, rfl⟩
abbrev main_v3892 : Ref sig .tc := ⟨.hbm, 6862, rfl⟩
abbrev main_cst_1217 : Ref sig .tc := ⟨.hbm, 6863, rfl⟩
abbrev main_cst_1218 : Ref sig .tc := ⟨.hbm, 6864, rfl⟩
abbrev main_call350_v0 : Ref sig .tc := ⟨.hbm, 6865, rfl⟩
abbrev main_call350_v1 : Ref sig .tc := ⟨.hbm, 6866, rfl⟩
abbrev main_call350_v2 : Ref sig .tc := ⟨.hbm, 6867, rfl⟩
abbrev main_call350_v3 : Ref sig .tc := ⟨.hbm, 6868, rfl⟩
abbrev main_call350_v4 : Ref sig .tc := ⟨.hbm, 6869, rfl⟩
abbrev main_v3893 : Ref sig .tc := ⟨.hbm, 6870, rfl⟩
abbrev main_cst_1219 : Ref sig .tc := ⟨.hbm, 6871, rfl⟩
abbrev main_cst_1220 : Ref sig .tc := ⟨.hbm, 6872, rfl⟩
abbrev main_call351_v0 : Ref sig .tc := ⟨.hbm, 6873, rfl⟩
abbrev main_call351_v1 : Ref sig .tc := ⟨.hbm, 6874, rfl⟩
abbrev main_call351_v2 : Ref sig .tc := ⟨.hbm, 6875, rfl⟩
abbrev main_call351_v3 : Ref sig .tc := ⟨.hbm, 6876, rfl⟩
abbrev main_call351_v4 : Ref sig .tc := ⟨.hbm, 6877, rfl⟩
abbrev main_v3894 : Ref sig .tc := ⟨.hbm, 6878, rfl⟩
abbrev main_v3895 : Ref sig .tc := ⟨.hbm, 6879, rfl⟩
abbrev main_v3896 : Ref sig .tc := ⟨.hbm, 6880, rfl⟩
abbrev main_v3897 : Ref sig .tc := ⟨.hbm, 6881, rfl⟩
abbrev main_v3898 : Ref sig .tc := ⟨.hbm, 6882, rfl⟩
abbrev main_v3899 : Ref sig .tc := ⟨.hbm, 6883, rfl⟩
abbrev main_v3900 : Ref sig .tc := ⟨.hbm, 6884, rfl⟩
abbrev main_v3901 : Ref sig .tc := ⟨.hbm, 6885, rfl⟩
abbrev main_cst_1221 : Ref sig .tc := ⟨.hbm, 6886, rfl⟩
abbrev main_v3902 : Ref sig .tc := ⟨.hbm, 6887, rfl⟩
abbrev main_v3903 : Ref sig .tc := ⟨.hbm, 6888, rfl⟩
abbrev main_v3904 : Ref sig .tc := ⟨.hbm, 6889, rfl⟩
abbrev main_cst_1222 : Ref sig .tc := ⟨.hbm, 6890, rfl⟩
abbrev main_v3905 : Ref sig .tc := ⟨.hbm, 6891, rfl⟩
abbrev main_v3906 : Ref sig .tc := ⟨.hbm, 6892, rfl⟩
abbrev main_cst_1223 : Ref sig .tc := ⟨.hbm, 6893, rfl⟩
abbrev main_v3907 : Ref sig .tc := ⟨.hbm, 6894, rfl⟩
abbrev main_v3908 : Ref sig .tc := ⟨.hbm, 6895, rfl⟩
abbrev main_v3909 : Ref sig .tc := ⟨.hbm, 6896, rfl⟩
abbrev main_v3910 : Ref sig .tc := ⟨.hbm, 6897, rfl⟩
abbrev main_cst_1224 : Ref sig .tc := ⟨.hbm, 6898, rfl⟩
abbrev main_v3911 : Ref sig .tc := ⟨.hbm, 6899, rfl⟩
abbrev main_v3912 : Ref sig .tc := ⟨.hbm, 6900, rfl⟩
abbrev main_v3913 : Ref sig .tc := ⟨.hbm, 6901, rfl⟩
abbrev main_v3914 : Ref sig .tc := ⟨.hbm, 6902, rfl⟩
abbrev main_v3915 : Ref sig .tc := ⟨.hbm, 6903, rfl⟩
abbrev main_v3916 : Ref sig .tc := ⟨.hbm, 6904, rfl⟩
abbrev main_v3917 : Ref sig .tc := ⟨.hbm, 6905, rfl⟩
abbrev main_cst_1225 : Ref sig .tc := ⟨.hbm, 6906, rfl⟩
abbrev main_v3918 : Ref sig .tc := ⟨.hbm, 6907, rfl⟩
abbrev main_v3919 : Ref sig .tc := ⟨.hbm, 6908, rfl⟩
abbrev main_cst_1226 : Ref sig .tc := ⟨.hbm, 6909, rfl⟩
abbrev main_v3920 : Ref sig .tc := ⟨.hbm, 6910, rfl⟩
abbrev main_v3921 : Ref sig .tc := ⟨.hbm, 6911, rfl⟩
abbrev main_v3922 : Ref sig .tc := ⟨.hbm, 6912, rfl⟩
abbrev main_v3923 : Ref sig .tc := ⟨.hbm, 6913, rfl⟩
abbrev main_v3924 : Ref sig .tc := ⟨.hbm, 6914, rfl⟩
abbrev main_v3925 : Ref sig .tc := ⟨.hbm, 6915, rfl⟩
abbrev main_cst_1227 : Ref sig .tc := ⟨.hbm, 6916, rfl⟩
abbrev main_cst_1228 : Ref sig .tc := ⟨.hbm, 6917, rfl⟩
abbrev main_call352_v0 : Ref sig .tc := ⟨.hbm, 6918, rfl⟩
abbrev main_call352_v1 : Ref sig .tc := ⟨.hbm, 6919, rfl⟩
abbrev main_call352_v2 : Ref sig .tc := ⟨.hbm, 6920, rfl⟩
abbrev main_call352_v3 : Ref sig .tc := ⟨.hbm, 6921, rfl⟩
abbrev main_call352_v4 : Ref sig .tc := ⟨.hbm, 6922, rfl⟩
abbrev main_v3926 : Ref sig .tc := ⟨.hbm, 6923, rfl⟩
abbrev main_cst_1229 : Ref sig .tc := ⟨.hbm, 6924, rfl⟩
abbrev main_cst_1230 : Ref sig .tc := ⟨.hbm, 6925, rfl⟩
abbrev main_call353_v0 : Ref sig .tc := ⟨.hbm, 6926, rfl⟩
abbrev main_call353_v1 : Ref sig .tc := ⟨.hbm, 6927, rfl⟩
abbrev main_call353_v2 : Ref sig .tc := ⟨.hbm, 6928, rfl⟩
abbrev main_call353_v3 : Ref sig .tc := ⟨.hbm, 6929, rfl⟩
abbrev main_call353_v4 : Ref sig .tc := ⟨.hbm, 6930, rfl⟩
abbrev main_v3927 : Ref sig .tc := ⟨.hbm, 6931, rfl⟩
abbrev main_v3928 : Ref sig .tc := ⟨.hbm, 6932, rfl⟩
abbrev main_v3929 : Ref sig .tc := ⟨.hbm, 6933, rfl⟩
abbrev main_v3930 : Ref sig .tc := ⟨.hbm, 6934, rfl⟩
abbrev main_v3931 : Ref sig .tc := ⟨.hbm, 6935, rfl⟩
abbrev main_v3932 : Ref sig .tc := ⟨.hbm, 6936, rfl⟩
abbrev main_v3933 : Ref sig .tc := ⟨.hbm, 6937, rfl⟩
abbrev main_v3934 : Ref sig .tc := ⟨.hbm, 6938, rfl⟩
abbrev main_cst_1231 : Ref sig .tc := ⟨.hbm, 6939, rfl⟩
abbrev main_v3935 : Ref sig .tc := ⟨.hbm, 6940, rfl⟩
abbrev main_v3936 : Ref sig .tc := ⟨.hbm, 6941, rfl⟩
abbrev main_v3937 : Ref sig .tc := ⟨.hbm, 6942, rfl⟩
abbrev main_cst_1232 : Ref sig .tc := ⟨.hbm, 6943, rfl⟩
abbrev main_v3938 : Ref sig .tc := ⟨.hbm, 6944, rfl⟩
abbrev main_v3939 : Ref sig .tc := ⟨.hbm, 6945, rfl⟩
abbrev main_cst_1233 : Ref sig .tc := ⟨.hbm, 6946, rfl⟩
abbrev main_v3940 : Ref sig .tc := ⟨.hbm, 6947, rfl⟩
abbrev main_v3941 : Ref sig .tc := ⟨.hbm, 6948, rfl⟩
abbrev main_v3942 : Ref sig .tc := ⟨.hbm, 6949, rfl⟩
abbrev main_v3943 : Ref sig .tc := ⟨.hbm, 6950, rfl⟩
abbrev main_cst_1234 : Ref sig .tc := ⟨.hbm, 6951, rfl⟩
abbrev main_v3944 : Ref sig .tc := ⟨.hbm, 6952, rfl⟩
abbrev main_v3945 : Ref sig .tc := ⟨.hbm, 6953, rfl⟩
abbrev main_v3946 : Ref sig .tc := ⟨.hbm, 6954, rfl⟩
abbrev main_v3947 : Ref sig .tc := ⟨.hbm, 6955, rfl⟩
abbrev main_v3948 : Ref sig .tc := ⟨.hbm, 6956, rfl⟩
abbrev main_v3949 : Ref sig .tc := ⟨.hbm, 6957, rfl⟩
abbrev main_v3950 : Ref sig .tc := ⟨.hbm, 6958, rfl⟩
abbrev main_v3951 : Ref sig .tc := ⟨.hbm, 6959, rfl⟩
abbrev main_v3952 : Ref sig .tc := ⟨.hbm, 6960, rfl⟩
abbrev main_v3953 : Ref sig .tc := ⟨.hbm, 6961, rfl⟩
abbrev main_v3954 : Ref sig .tc := ⟨.hbm, 6962, rfl⟩
abbrev main_v3955 : Ref sig .tc := ⟨.hbm, 6963, rfl⟩
abbrev main_v3956 : Ref sig .tc := ⟨.hbm, 6964, rfl⟩
abbrev main_v3957 : Ref sig .tc := ⟨.hbm, 6965, rfl⟩
abbrev main_v3958 : Ref sig .tc := ⟨.hbm, 6966, rfl⟩
abbrev main_v3959 : Ref sig .tc := ⟨.hbm, 6967, rfl⟩
abbrev main_v3960 : Ref sig .tc := ⟨.hbm, 6968, rfl⟩
abbrev main_v3961 : Ref sig .tc := ⟨.hbm, 6969, rfl⟩
abbrev main_v3962 : Ref sig .tc := ⟨.hbm, 6970, rfl⟩
abbrev main_cst_1235 : Ref sig .tc := ⟨.hbm, 6971, rfl⟩
abbrev main_v3963 : Ref sig .tc := ⟨.hbm, 6972, rfl⟩
abbrev main_v3964 : Ref sig .tc := ⟨.hbm, 6973, rfl⟩
abbrev main_cst_1236 : Ref sig .tc := ⟨.hbm, 6974, rfl⟩
abbrev main_v3965 : Ref sig .tc := ⟨.hbm, 6975, rfl⟩
abbrev main_v3966 : Ref sig .tc := ⟨.hbm, 6976, rfl⟩
abbrev main_v3967 : Ref sig .tc := ⟨.hbm, 6977, rfl⟩
abbrev main_v3968 : Ref sig .tc := ⟨.hbm, 6978, rfl⟩
abbrev main_v3969 : Ref sig .tc := ⟨.hbm, 6979, rfl⟩
abbrev main_v3970 : Ref sig .tc := ⟨.hbm, 6980, rfl⟩
abbrev main_cst_1237 : Ref sig .tc := ⟨.hbm, 6981, rfl⟩
abbrev main_cst_1238 : Ref sig .tc := ⟨.hbm, 6982, rfl⟩
abbrev main_call354_v0 : Ref sig .tc := ⟨.hbm, 6983, rfl⟩
abbrev main_call354_v1 : Ref sig .tc := ⟨.hbm, 6984, rfl⟩
abbrev main_call354_v2 : Ref sig .tc := ⟨.hbm, 6985, rfl⟩
abbrev main_call354_v3 : Ref sig .tc := ⟨.hbm, 6986, rfl⟩
abbrev main_call354_v4 : Ref sig .tc := ⟨.hbm, 6987, rfl⟩
abbrev main_v3971 : Ref sig .tc := ⟨.hbm, 6988, rfl⟩
abbrev main_cst_1239 : Ref sig .tc := ⟨.hbm, 6989, rfl⟩
abbrev main_cst_1240 : Ref sig .tc := ⟨.hbm, 6990, rfl⟩
abbrev main_call355_v0 : Ref sig .tc := ⟨.hbm, 6991, rfl⟩
abbrev main_call355_v1 : Ref sig .tc := ⟨.hbm, 6992, rfl⟩
abbrev main_call355_v2 : Ref sig .tc := ⟨.hbm, 6993, rfl⟩
abbrev main_call355_v3 : Ref sig .tc := ⟨.hbm, 6994, rfl⟩
abbrev main_call355_v4 : Ref sig .tc := ⟨.hbm, 6995, rfl⟩
abbrev main_v3972 : Ref sig .tc := ⟨.hbm, 6996, rfl⟩
abbrev main_v3973 : Ref sig .tc := ⟨.hbm, 6997, rfl⟩
abbrev main_v3974 : Ref sig .tc := ⟨.hbm, 6998, rfl⟩
abbrev main_v3975 : Ref sig .tc := ⟨.hbm, 6999, rfl⟩
abbrev main_v3976 : Ref sig .tc := ⟨.hbm, 7000, rfl⟩
abbrev main_v3977 : Ref sig .tc := ⟨.hbm, 7001, rfl⟩
abbrev main_v3978 : Ref sig .tc := ⟨.hbm, 7002, rfl⟩
abbrev main_v3979 : Ref sig .tc := ⟨.hbm, 7003, rfl⟩
abbrev main_v3980 : Ref sig .tc := ⟨.hbm, 7004, rfl⟩
abbrev main_v3981 : Ref sig .tc := ⟨.hbm, 7005, rfl⟩
abbrev main_cst_1241 : Ref sig .tc := ⟨.hbm, 7006, rfl⟩
abbrev main_cst_1242 : Ref sig .tc := ⟨.hbm, 7007, rfl⟩
abbrev main_call356_v0 : Ref sig .tc := ⟨.hbm, 7008, rfl⟩
abbrev main_call356_v1 : Ref sig .tc := ⟨.hbm, 7009, rfl⟩
abbrev main_call356_v2 : Ref sig .tc := ⟨.hbm, 7010, rfl⟩
abbrev main_call356_v3 : Ref sig .tc := ⟨.hbm, 7011, rfl⟩
abbrev main_call356_v4 : Ref sig .tc := ⟨.hbm, 7012, rfl⟩
abbrev main_v3982 : Ref sig .tc := ⟨.hbm, 7013, rfl⟩
abbrev main_cst_1243 : Ref sig .tc := ⟨.hbm, 7014, rfl⟩
abbrev main_cst_1244 : Ref sig .tc := ⟨.hbm, 7015, rfl⟩
abbrev main_call357_v0 : Ref sig .tc := ⟨.hbm, 7016, rfl⟩
abbrev main_call357_v1 : Ref sig .tc := ⟨.hbm, 7017, rfl⟩
abbrev main_call357_v2 : Ref sig .tc := ⟨.hbm, 7018, rfl⟩
abbrev main_call357_v3 : Ref sig .tc := ⟨.hbm, 7019, rfl⟩
abbrev main_call357_v4 : Ref sig .tc := ⟨.hbm, 7020, rfl⟩
abbrev main_v3983 : Ref sig .tc := ⟨.hbm, 7021, rfl⟩
abbrev main_v3984 : Ref sig .tc := ⟨.hbm, 7022, rfl⟩
abbrev main_v3985 : Ref sig .tc := ⟨.hbm, 7023, rfl⟩
abbrev main_v3986 : Ref sig .tc := ⟨.hbm, 7024, rfl⟩
abbrev main_v3987 : Ref sig .tc := ⟨.hbm, 7025, rfl⟩
abbrev main_v3988 : Ref sig .tc := ⟨.hbm, 7026, rfl⟩
abbrev main_v3989 : Ref sig .tc := ⟨.hbm, 7027, rfl⟩
abbrev main_v3990 : Ref sig .tc := ⟨.hbm, 7028, rfl⟩
abbrev main_v3991 : Ref sig .tc := ⟨.hbm, 7029, rfl⟩
abbrev main_v3992 : Ref sig .tc := ⟨.hbm, 7030, rfl⟩
abbrev main_cst_1245 : Ref sig .tc := ⟨.hbm, 7031, rfl⟩
abbrev main_cst_1246 : Ref sig .tc := ⟨.hbm, 7032, rfl⟩
abbrev main_call358_v0 : Ref sig .tc := ⟨.hbm, 7033, rfl⟩
abbrev main_call358_v1 : Ref sig .tc := ⟨.hbm, 7034, rfl⟩
abbrev main_call358_v2 : Ref sig .tc := ⟨.hbm, 7035, rfl⟩
abbrev main_call358_v3 : Ref sig .tc := ⟨.hbm, 7036, rfl⟩
abbrev main_call358_v4 : Ref sig .tc := ⟨.hbm, 7037, rfl⟩
abbrev main_v3993 : Ref sig .tc := ⟨.hbm, 7038, rfl⟩
abbrev main_cst_1247 : Ref sig .tc := ⟨.hbm, 7039, rfl⟩
abbrev main_cst_1248 : Ref sig .tc := ⟨.hbm, 7040, rfl⟩
abbrev main_call359_v0 : Ref sig .tc := ⟨.hbm, 7041, rfl⟩
abbrev main_call359_v1 : Ref sig .tc := ⟨.hbm, 7042, rfl⟩
abbrev main_call359_v2 : Ref sig .tc := ⟨.hbm, 7043, rfl⟩
abbrev main_call359_v3 : Ref sig .tc := ⟨.hbm, 7044, rfl⟩
abbrev main_call359_v4 : Ref sig .tc := ⟨.hbm, 7045, rfl⟩
abbrev main_v3994 : Ref sig .tc := ⟨.hbm, 7046, rfl⟩
abbrev main_v3995 : Ref sig .tc := ⟨.hbm, 7047, rfl⟩
abbrev main_v3996 : Ref sig .tc := ⟨.hbm, 7048, rfl⟩
abbrev main_v3997 : Ref sig .tc := ⟨.hbm, 7049, rfl⟩
abbrev main_v3998 : Ref sig .tc := ⟨.hbm, 7050, rfl⟩
abbrev main_v3999 : Ref sig .tc := ⟨.hbm, 7051, rfl⟩
abbrev main_v4000 : Ref sig .tc := ⟨.hbm, 7052, rfl⟩
abbrev main_v4001 : Ref sig .tc := ⟨.hbm, 7053, rfl⟩
abbrev main_v4002 : Ref sig .tc := ⟨.hbm, 7054, rfl⟩
abbrev main_v4003 : Ref sig .tc := ⟨.hbm, 7055, rfl⟩
abbrev main_cst_1249 : Ref sig .tc := ⟨.hbm, 7056, rfl⟩
abbrev main_cst_1250 : Ref sig .tc := ⟨.hbm, 7057, rfl⟩
abbrev main_call360_v0 : Ref sig .tc := ⟨.hbm, 7058, rfl⟩
abbrev main_call360_v1 : Ref sig .tc := ⟨.hbm, 7059, rfl⟩
abbrev main_call360_v2 : Ref sig .tc := ⟨.hbm, 7060, rfl⟩
abbrev main_call360_v3 : Ref sig .tc := ⟨.hbm, 7061, rfl⟩
abbrev main_call360_v4 : Ref sig .tc := ⟨.hbm, 7062, rfl⟩
abbrev main_v4004 : Ref sig .tc := ⟨.hbm, 7063, rfl⟩
abbrev main_cst_1251 : Ref sig .tc := ⟨.hbm, 7064, rfl⟩
abbrev main_cst_1252 : Ref sig .tc := ⟨.hbm, 7065, rfl⟩
abbrev main_call361_v0 : Ref sig .tc := ⟨.hbm, 7066, rfl⟩
abbrev main_call361_v1 : Ref sig .tc := ⟨.hbm, 7067, rfl⟩
abbrev main_call361_v2 : Ref sig .tc := ⟨.hbm, 7068, rfl⟩
abbrev main_call361_v3 : Ref sig .tc := ⟨.hbm, 7069, rfl⟩
abbrev main_call361_v4 : Ref sig .tc := ⟨.hbm, 7070, rfl⟩
abbrev main_v4005 : Ref sig .tc := ⟨.hbm, 7071, rfl⟩
abbrev main_v4006 : Ref sig .tc := ⟨.hbm, 7072, rfl⟩
abbrev main_v4007 : Ref sig .tc := ⟨.hbm, 7073, rfl⟩
abbrev main_v4008 : Ref sig .tc := ⟨.hbm, 7074, rfl⟩
abbrev main_v4009 : Ref sig .tc := ⟨.hbm, 7075, rfl⟩
abbrev main_v4010 : Ref sig .tc := ⟨.hbm, 7076, rfl⟩
abbrev main_v4011 : Ref sig .tc := ⟨.hbm, 7077, rfl⟩
abbrev main_v4012 : Ref sig .tc := ⟨.hbm, 7078, rfl⟩
abbrev main_cst_1253 : Ref sig .tc := ⟨.hbm, 7079, rfl⟩
abbrev main_v4013 : Ref sig .tc := ⟨.hbm, 7080, rfl⟩
abbrev main_v4014 : Ref sig .tc := ⟨.hbm, 7081, rfl⟩
abbrev main_v4015 : Ref sig .tc := ⟨.hbm, 7082, rfl⟩
abbrev main_cst_1254 : Ref sig .tc := ⟨.hbm, 7083, rfl⟩
abbrev main_v4016 : Ref sig .tc := ⟨.hbm, 7084, rfl⟩
abbrev main_v4017 : Ref sig .tc := ⟨.hbm, 7085, rfl⟩
abbrev main_cst_1255 : Ref sig .tc := ⟨.hbm, 7086, rfl⟩
abbrev main_v4018 : Ref sig .tc := ⟨.hbm, 7087, rfl⟩
abbrev main_v4019 : Ref sig .tc := ⟨.hbm, 7088, rfl⟩
abbrev main_v4020 : Ref sig .tc := ⟨.hbm, 7089, rfl⟩
abbrev main_v4021 : Ref sig .tc := ⟨.hbm, 7090, rfl⟩
abbrev main_cst_1256 : Ref sig .tc := ⟨.hbm, 7091, rfl⟩
abbrev main_v4022 : Ref sig .tc := ⟨.hbm, 7092, rfl⟩
abbrev main_v4023 : Ref sig .tc := ⟨.hbm, 7093, rfl⟩
abbrev main_v4024 : Ref sig .tc := ⟨.hbm, 7094, rfl⟩
abbrev main_v4025 : Ref sig .tc := ⟨.hbm, 7095, rfl⟩
abbrev main_v4026 : Ref sig .tc := ⟨.hbm, 7096, rfl⟩
abbrev main_v4027 : Ref sig .tc := ⟨.hbm, 7097, rfl⟩
abbrev main_v4028 : Ref sig .tc := ⟨.hbm, 7098, rfl⟩
abbrev main_cst_1257 : Ref sig .tc := ⟨.hbm, 7099, rfl⟩
abbrev main_v4029 : Ref sig .tc := ⟨.hbm, 7100, rfl⟩
abbrev main_v4030 : Ref sig .tc := ⟨.hbm, 7101, rfl⟩
abbrev main_cst_1258 : Ref sig .tc := ⟨.hbm, 7102, rfl⟩
abbrev main_v4031 : Ref sig .tc := ⟨.hbm, 7103, rfl⟩
abbrev main_v4032 : Ref sig .tc := ⟨.hbm, 7104, rfl⟩
abbrev main_v4033 : Ref sig .tc := ⟨.hbm, 7105, rfl⟩
abbrev main_v4034 : Ref sig .tc := ⟨.hbm, 7106, rfl⟩
abbrev main_v4035 : Ref sig .tc := ⟨.hbm, 7107, rfl⟩
abbrev main_v4036 : Ref sig .tc := ⟨.hbm, 7108, rfl⟩
abbrev main_cst_1259 : Ref sig .tc := ⟨.hbm, 7109, rfl⟩
abbrev main_cst_1260 : Ref sig .tc := ⟨.hbm, 7110, rfl⟩
abbrev main_call362_v0 : Ref sig .tc := ⟨.hbm, 7111, rfl⟩
abbrev main_call362_v1 : Ref sig .tc := ⟨.hbm, 7112, rfl⟩
abbrev main_call362_v2 : Ref sig .tc := ⟨.hbm, 7113, rfl⟩
abbrev main_call362_v3 : Ref sig .tc := ⟨.hbm, 7114, rfl⟩
abbrev main_call362_v4 : Ref sig .tc := ⟨.hbm, 7115, rfl⟩
abbrev main_v4037 : Ref sig .tc := ⟨.hbm, 7116, rfl⟩
abbrev main_cst_1261 : Ref sig .tc := ⟨.hbm, 7117, rfl⟩
abbrev main_cst_1262 : Ref sig .tc := ⟨.hbm, 7118, rfl⟩
abbrev main_call363_v0 : Ref sig .tc := ⟨.hbm, 7119, rfl⟩
abbrev main_call363_v1 : Ref sig .tc := ⟨.hbm, 7120, rfl⟩
abbrev main_call363_v2 : Ref sig .tc := ⟨.hbm, 7121, rfl⟩
abbrev main_call363_v3 : Ref sig .tc := ⟨.hbm, 7122, rfl⟩
abbrev main_call363_v4 : Ref sig .tc := ⟨.hbm, 7123, rfl⟩
abbrev main_v4038 : Ref sig .tc := ⟨.hbm, 7124, rfl⟩
abbrev main_v4039 : Ref sig .tc := ⟨.hbm, 7125, rfl⟩
abbrev main_v4040 : Ref sig .tc := ⟨.hbm, 7126, rfl⟩
abbrev main_v4041 : Ref sig .tc := ⟨.hbm, 7127, rfl⟩
abbrev main_v4042 : Ref sig .tc := ⟨.hbm, 7128, rfl⟩
abbrev main_v4043 : Ref sig .tc := ⟨.hbm, 7129, rfl⟩
abbrev main_v4044 : Ref sig .tc := ⟨.hbm, 7130, rfl⟩
abbrev main_v4045 : Ref sig .tc := ⟨.hbm, 7131, rfl⟩
abbrev main_cst_1263 : Ref sig .tc := ⟨.hbm, 7132, rfl⟩
abbrev main_v4046 : Ref sig .tc := ⟨.hbm, 7133, rfl⟩
abbrev main_v4047 : Ref sig .tc := ⟨.hbm, 7134, rfl⟩
abbrev main_v4048 : Ref sig .tc := ⟨.hbm, 7135, rfl⟩
abbrev main_cst_1264 : Ref sig .tc := ⟨.hbm, 7136, rfl⟩
abbrev main_v4049 : Ref sig .tc := ⟨.hbm, 7137, rfl⟩
abbrev main_v4050 : Ref sig .tc := ⟨.hbm, 7138, rfl⟩
abbrev main_cst_1265 : Ref sig .tc := ⟨.hbm, 7139, rfl⟩
abbrev main_v4051 : Ref sig .tc := ⟨.hbm, 7140, rfl⟩
abbrev main_v4052 : Ref sig .tc := ⟨.hbm, 7141, rfl⟩
abbrev main_v4053 : Ref sig .tc := ⟨.hbm, 7142, rfl⟩
abbrev main_v4054 : Ref sig .tc := ⟨.hbm, 7143, rfl⟩
abbrev main_cst_1266 : Ref sig .tc := ⟨.hbm, 7144, rfl⟩
abbrev main_v4055 : Ref sig .tc := ⟨.hbm, 7145, rfl⟩
abbrev main_v4056 : Ref sig .tc := ⟨.hbm, 7146, rfl⟩
abbrev main_v4057 : Ref sig .tc := ⟨.hbm, 7147, rfl⟩
abbrev main_v4058 : Ref sig .tc := ⟨.hbm, 7148, rfl⟩
abbrev main_v4059 : Ref sig .tc := ⟨.hbm, 7149, rfl⟩
abbrev main_v4060 : Ref sig .tc := ⟨.hbm, 7150, rfl⟩
abbrev main_v4061 : Ref sig .tc := ⟨.hbm, 7151, rfl⟩
abbrev main_v4062 : Ref sig .tc := ⟨.hbm, 7152, rfl⟩
abbrev main_v4063 : Ref sig .tc := ⟨.hbm, 7153, rfl⟩
abbrev main_v4064 : Ref sig .tc := ⟨.hbm, 7154, rfl⟩
abbrev main_v4065 : Ref sig .tc := ⟨.hbm, 7155, rfl⟩
abbrev main_cst_1267 : Ref sig .tc := ⟨.hbm, 7156, rfl⟩
abbrev main_v4066 : Ref sig .tc := ⟨.hbm, 7157, rfl⟩
abbrev main_v4067 : Ref sig .tc := ⟨.hbm, 7158, rfl⟩
abbrev main_cst_1268 : Ref sig .tc := ⟨.hbm, 7159, rfl⟩
abbrev main_v4068 : Ref sig .tc := ⟨.hbm, 7160, rfl⟩
abbrev main_v4069 : Ref sig .tc := ⟨.hbm, 7161, rfl⟩
abbrev main_v4070 : Ref sig .tc := ⟨.hbm, 7162, rfl⟩
abbrev main_v4071 : Ref sig .tc := ⟨.hbm, 7163, rfl⟩
abbrev main_v4072 : Ref sig .tc := ⟨.hbm, 7164, rfl⟩
abbrev main_v4073 : Ref sig .tc := ⟨.hbm, 7165, rfl⟩
abbrev main_cst_1269 : Ref sig .tc := ⟨.hbm, 7166, rfl⟩
abbrev main_cst_1270 : Ref sig .tc := ⟨.hbm, 7167, rfl⟩
abbrev main_call364_v0 : Ref sig .tc := ⟨.hbm, 7168, rfl⟩
abbrev main_call364_v1 : Ref sig .tc := ⟨.hbm, 7169, rfl⟩
abbrev main_call364_v2 : Ref sig .tc := ⟨.hbm, 7170, rfl⟩
abbrev main_call364_v3 : Ref sig .tc := ⟨.hbm, 7171, rfl⟩
abbrev main_call364_v4 : Ref sig .tc := ⟨.hbm, 7172, rfl⟩
abbrev main_v4074 : Ref sig .tc := ⟨.hbm, 7173, rfl⟩
abbrev main_cst_1271 : Ref sig .tc := ⟨.hbm, 7174, rfl⟩
abbrev main_cst_1272 : Ref sig .tc := ⟨.hbm, 7175, rfl⟩
abbrev main_call365_v0 : Ref sig .tc := ⟨.hbm, 7176, rfl⟩
abbrev main_call365_v1 : Ref sig .tc := ⟨.hbm, 7177, rfl⟩
abbrev main_call365_v2 : Ref sig .tc := ⟨.hbm, 7178, rfl⟩
abbrev main_call365_v3 : Ref sig .tc := ⟨.hbm, 7179, rfl⟩
abbrev main_call365_v4 : Ref sig .tc := ⟨.hbm, 7180, rfl⟩
abbrev main_v4075 : Ref sig .tc := ⟨.hbm, 7181, rfl⟩
abbrev main_v4076 : Ref sig .tc := ⟨.hbm, 7182, rfl⟩
abbrev main_v4077 : Ref sig .tc := ⟨.hbm, 7183, rfl⟩
abbrev main_v4078 : Ref sig .tc := ⟨.hbm, 7184, rfl⟩
abbrev main_v4079 : Ref sig .tc := ⟨.hbm, 7185, rfl⟩
abbrev main_v4080 : Ref sig .tc := ⟨.hbm, 7186, rfl⟩
abbrev main_v4081 : Ref sig .tc := ⟨.hbm, 7187, rfl⟩
abbrev main_v4082 : Ref sig .tc := ⟨.hbm, 7188, rfl⟩
abbrev main_v4083 : Ref sig .tc := ⟨.hbm, 7189, rfl⟩
abbrev main_v4084 : Ref sig .tc := ⟨.hbm, 7190, rfl⟩
abbrev main_cst_1273 : Ref sig .tc := ⟨.hbm, 7191, rfl⟩
abbrev main_cst_1274 : Ref sig .tc := ⟨.hbm, 7192, rfl⟩
abbrev main_call366_v0 : Ref sig .tc := ⟨.hbm, 7193, rfl⟩
abbrev main_call366_v1 : Ref sig .tc := ⟨.hbm, 7194, rfl⟩
abbrev main_call366_v2 : Ref sig .tc := ⟨.hbm, 7195, rfl⟩
abbrev main_call366_v3 : Ref sig .tc := ⟨.hbm, 7196, rfl⟩
abbrev main_call366_v4 : Ref sig .tc := ⟨.hbm, 7197, rfl⟩
abbrev main_v4085 : Ref sig .tc := ⟨.hbm, 7198, rfl⟩
abbrev main_cst_1275 : Ref sig .tc := ⟨.hbm, 7199, rfl⟩
abbrev main_cst_1276 : Ref sig .tc := ⟨.hbm, 7200, rfl⟩
abbrev main_call367_v0 : Ref sig .tc := ⟨.hbm, 7201, rfl⟩
abbrev main_call367_v1 : Ref sig .tc := ⟨.hbm, 7202, rfl⟩
abbrev main_call367_v2 : Ref sig .tc := ⟨.hbm, 7203, rfl⟩
abbrev main_call367_v3 : Ref sig .tc := ⟨.hbm, 7204, rfl⟩
abbrev main_call367_v4 : Ref sig .tc := ⟨.hbm, 7205, rfl⟩
abbrev main_v4086 : Ref sig .tc := ⟨.hbm, 7206, rfl⟩
abbrev main_v4087 : Ref sig .tc := ⟨.hbm, 7207, rfl⟩
abbrev main_v4088 : Ref sig .tc := ⟨.hbm, 7208, rfl⟩
abbrev main_v4089 : Ref sig .tc := ⟨.hbm, 7209, rfl⟩
abbrev main_v4090 : Ref sig .tc := ⟨.hbm, 7210, rfl⟩
abbrev main_v4091 : Ref sig .tc := ⟨.hbm, 7211, rfl⟩
abbrev main_v4092 : Ref sig .tc := ⟨.hbm, 7212, rfl⟩
abbrev main_v4093 : Ref sig .tc := ⟨.hbm, 7213, rfl⟩
abbrev main_cst_1277 : Ref sig .tc := ⟨.hbm, 7214, rfl⟩
abbrev main_v4094 : Ref sig .tc := ⟨.hbm, 7215, rfl⟩
abbrev main_v4095 : Ref sig .tc := ⟨.hbm, 7216, rfl⟩
abbrev main_v4096 : Ref sig .tc := ⟨.hbm, 7217, rfl⟩
abbrev main_cst_1278 : Ref sig .tc := ⟨.hbm, 7218, rfl⟩
abbrev main_v4097 : Ref sig .tc := ⟨.hbm, 7219, rfl⟩
abbrev main_v4098 : Ref sig .tc := ⟨.hbm, 7220, rfl⟩
abbrev main_cst_1279 : Ref sig .tc := ⟨.hbm, 7221, rfl⟩
abbrev main_v4099 : Ref sig .tc := ⟨.hbm, 7222, rfl⟩
abbrev main_v4100 : Ref sig .tc := ⟨.hbm, 7223, rfl⟩
abbrev main_v4101 : Ref sig .tc := ⟨.hbm, 7224, rfl⟩
abbrev main_v4102 : Ref sig .tc := ⟨.hbm, 7225, rfl⟩
abbrev main_cst_1280 : Ref sig .tc := ⟨.hbm, 7226, rfl⟩
abbrev main_v4103 : Ref sig .tc := ⟨.hbm, 7227, rfl⟩
abbrev main_v4104 : Ref sig .tc := ⟨.hbm, 7228, rfl⟩
abbrev main_v4105 : Ref sig .tc := ⟨.hbm, 7229, rfl⟩
abbrev main_v4106 : Ref sig .tc := ⟨.hbm, 7230, rfl⟩
abbrev main_v4107 : Ref sig .tc := ⟨.hbm, 7231, rfl⟩
abbrev main_v4108 : Ref sig .tc := ⟨.hbm, 7232, rfl⟩
abbrev main_v4109 : Ref sig .tc := ⟨.hbm, 7233, rfl⟩
abbrev main_cst_1281 : Ref sig .tc := ⟨.hbm, 7234, rfl⟩
abbrev main_v4110 : Ref sig .tc := ⟨.hbm, 7235, rfl⟩
abbrev main_v4111 : Ref sig .tc := ⟨.hbm, 7236, rfl⟩
abbrev main_cst_1282 : Ref sig .tc := ⟨.hbm, 7237, rfl⟩
abbrev main_v4112 : Ref sig .tc := ⟨.hbm, 7238, rfl⟩
abbrev main_v4113 : Ref sig .tc := ⟨.hbm, 7239, rfl⟩
abbrev main_v4114 : Ref sig .tc := ⟨.hbm, 7240, rfl⟩
abbrev main_v4115 : Ref sig .tc := ⟨.hbm, 7241, rfl⟩
abbrev main_v4116 : Ref sig .tc := ⟨.hbm, 7242, rfl⟩
abbrev main_v4117 : Ref sig .tc := ⟨.hbm, 7243, rfl⟩
abbrev main_cst_1283 : Ref sig .tc := ⟨.hbm, 7244, rfl⟩
abbrev main_cst_1284 : Ref sig .tc := ⟨.hbm, 7245, rfl⟩
abbrev main_call368_v0 : Ref sig .tc := ⟨.hbm, 7246, rfl⟩
abbrev main_call368_v1 : Ref sig .tc := ⟨.hbm, 7247, rfl⟩
abbrev main_call368_v2 : Ref sig .tc := ⟨.hbm, 7248, rfl⟩
abbrev main_call368_v3 : Ref sig .tc := ⟨.hbm, 7249, rfl⟩
abbrev main_call368_v4 : Ref sig .tc := ⟨.hbm, 7250, rfl⟩
abbrev main_v4118 : Ref sig .tc := ⟨.hbm, 7251, rfl⟩
abbrev main_cst_1285 : Ref sig .tc := ⟨.hbm, 7252, rfl⟩
abbrev main_cst_1286 : Ref sig .tc := ⟨.hbm, 7253, rfl⟩
abbrev main_call369_v0 : Ref sig .tc := ⟨.hbm, 7254, rfl⟩
abbrev main_call369_v1 : Ref sig .tc := ⟨.hbm, 7255, rfl⟩
abbrev main_call369_v2 : Ref sig .tc := ⟨.hbm, 7256, rfl⟩
abbrev main_call369_v3 : Ref sig .tc := ⟨.hbm, 7257, rfl⟩
abbrev main_call369_v4 : Ref sig .tc := ⟨.hbm, 7258, rfl⟩
abbrev main_v4119 : Ref sig .tc := ⟨.hbm, 7259, rfl⟩
abbrev main_v4120 : Ref sig .tc := ⟨.hbm, 7260, rfl⟩
abbrev main_v4121 : Ref sig .tc := ⟨.hbm, 7261, rfl⟩
abbrev main_v4122 : Ref sig .tc := ⟨.hbm, 7262, rfl⟩
abbrev main_v4123 : Ref sig .tc := ⟨.hbm, 7263, rfl⟩
abbrev main_v4124 : Ref sig .tc := ⟨.hbm, 7264, rfl⟩
abbrev main_v4125 : Ref sig .tc := ⟨.hbm, 7265, rfl⟩
abbrev main_v4126 : Ref sig .tc := ⟨.hbm, 7266, rfl⟩
abbrev main_cst_1287 : Ref sig .tc := ⟨.hbm, 7267, rfl⟩
abbrev main_v4127 : Ref sig .tc := ⟨.hbm, 7268, rfl⟩
abbrev main_v4128 : Ref sig .tc := ⟨.hbm, 7269, rfl⟩
abbrev main_v4129 : Ref sig .tc := ⟨.hbm, 7270, rfl⟩
abbrev main_cst_1288 : Ref sig .tc := ⟨.hbm, 7271, rfl⟩
abbrev main_v4130 : Ref sig .tc := ⟨.hbm, 7272, rfl⟩
abbrev main_v4131 : Ref sig .tc := ⟨.hbm, 7273, rfl⟩
abbrev main_cst_1289 : Ref sig .tc := ⟨.hbm, 7274, rfl⟩
abbrev main_v4132 : Ref sig .tc := ⟨.hbm, 7275, rfl⟩
abbrev main_v4133 : Ref sig .tc := ⟨.hbm, 7276, rfl⟩
abbrev main_v4134 : Ref sig .tc := ⟨.hbm, 7277, rfl⟩
abbrev main_v4135 : Ref sig .tc := ⟨.hbm, 7278, rfl⟩
abbrev main_cst_1290 : Ref sig .tc := ⟨.hbm, 7279, rfl⟩
abbrev main_v4136 : Ref sig .tc := ⟨.hbm, 7280, rfl⟩
abbrev main_v4137 : Ref sig .tc := ⟨.hbm, 7281, rfl⟩
abbrev main_v4138 : Ref sig .tc := ⟨.hbm, 7282, rfl⟩
abbrev main_v4139 : Ref sig .tc := ⟨.hbm, 7283, rfl⟩
abbrev main_v4140 : Ref sig .tc := ⟨.hbm, 7284, rfl⟩
abbrev main_v4141 : Ref sig .tc := ⟨.hbm, 7285, rfl⟩
abbrev main_v4142 : Ref sig .tc := ⟨.hbm, 7286, rfl⟩
abbrev main_v4143 : Ref sig .tc := ⟨.hbm, 7287, rfl⟩
abbrev main_v4144 : Ref sig .tc := ⟨.hbm, 7288, rfl⟩
abbrev main_v4145 : Ref sig .tc := ⟨.hbm, 7289, rfl⟩
abbrev main_v4146 : Ref sig .tc := ⟨.hbm, 7290, rfl⟩
abbrev main_v4147 : Ref sig .tc := ⟨.hbm, 7291, rfl⟩
abbrev main_v4148 : Ref sig .tc := ⟨.hbm, 7292, rfl⟩
abbrev main_v4149 : Ref sig .tc := ⟨.hbm, 7293, rfl⟩
abbrev main_v4150 : Ref sig .tc := ⟨.hbm, 7294, rfl⟩
abbrev main_cst_1291 : Ref sig .tc := ⟨.hbm, 7295, rfl⟩
abbrev main_v4151 : Ref sig .tc := ⟨.hbm, 7296, rfl⟩
abbrev main_v4152 : Ref sig .tc := ⟨.hbm, 7297, rfl⟩
abbrev main_cst_1292 : Ref sig .tc := ⟨.hbm, 7298, rfl⟩
abbrev main_v4153 : Ref sig .tc := ⟨.hbm, 7299, rfl⟩
abbrev main_v4154 : Ref sig .tc := ⟨.hbm, 7300, rfl⟩
abbrev main_v4155 : Ref sig .tc := ⟨.hbm, 7301, rfl⟩
abbrev main_v4156 : Ref sig .tc := ⟨.hbm, 7302, rfl⟩
abbrev main_v4157 : Ref sig .tc := ⟨.hbm, 7303, rfl⟩
abbrev main_v4158 : Ref sig .tc := ⟨.hbm, 7304, rfl⟩
abbrev main_cst_1293 : Ref sig .tc := ⟨.hbm, 7305, rfl⟩
abbrev main_cst_1294 : Ref sig .tc := ⟨.hbm, 7306, rfl⟩
abbrev main_call370_v0 : Ref sig .tc := ⟨.hbm, 7307, rfl⟩
abbrev main_call370_v1 : Ref sig .tc := ⟨.hbm, 7308, rfl⟩
abbrev main_call370_v2 : Ref sig .tc := ⟨.hbm, 7309, rfl⟩
abbrev main_call370_v3 : Ref sig .tc := ⟨.hbm, 7310, rfl⟩
abbrev main_call370_v4 : Ref sig .tc := ⟨.hbm, 7311, rfl⟩
abbrev main_v4159 : Ref sig .tc := ⟨.hbm, 7312, rfl⟩
abbrev main_cst_1295 : Ref sig .tc := ⟨.hbm, 7313, rfl⟩
abbrev main_cst_1296 : Ref sig .tc := ⟨.hbm, 7314, rfl⟩
abbrev main_call371_v0 : Ref sig .tc := ⟨.hbm, 7315, rfl⟩
abbrev main_call371_v1 : Ref sig .tc := ⟨.hbm, 7316, rfl⟩
abbrev main_call371_v2 : Ref sig .tc := ⟨.hbm, 7317, rfl⟩
abbrev main_call371_v3 : Ref sig .tc := ⟨.hbm, 7318, rfl⟩
abbrev main_call371_v4 : Ref sig .tc := ⟨.hbm, 7319, rfl⟩
abbrev main_v4160 : Ref sig .tc := ⟨.hbm, 7320, rfl⟩
abbrev main_v4161 : Ref sig .tc := ⟨.hbm, 7321, rfl⟩
abbrev main_v4162 : Ref sig .tc := ⟨.hbm, 7322, rfl⟩
abbrev main_v4163 : Ref sig .tc := ⟨.hbm, 7323, rfl⟩
abbrev main_v4164 : Ref sig .tc := ⟨.hbm, 7324, rfl⟩
abbrev main_v4165 : Ref sig .tc := ⟨.hbm, 7325, rfl⟩
abbrev main_v4166 : Ref sig .tc := ⟨.hbm, 7326, rfl⟩
abbrev main_v4167 : Ref sig .tc := ⟨.hbm, 7327, rfl⟩
abbrev main_v4168 : Ref sig .tc := ⟨.hbm, 7328, rfl⟩
abbrev main_v4169 : Ref sig .tc := ⟨.hbm, 7329, rfl⟩
abbrev main_cst_1297 : Ref sig .tc := ⟨.hbm, 7330, rfl⟩
abbrev main_cst_1298 : Ref sig .tc := ⟨.hbm, 7331, rfl⟩
abbrev main_call372_v0 : Ref sig .tc := ⟨.hbm, 7332, rfl⟩
abbrev main_call372_v1 : Ref sig .tc := ⟨.hbm, 7333, rfl⟩
abbrev main_call372_v2 : Ref sig .tc := ⟨.hbm, 7334, rfl⟩
abbrev main_call372_v3 : Ref sig .tc := ⟨.hbm, 7335, rfl⟩
abbrev main_call372_v4 : Ref sig .tc := ⟨.hbm, 7336, rfl⟩
abbrev main_v4170 : Ref sig .tc := ⟨.hbm, 7337, rfl⟩
abbrev main_cst_1299 : Ref sig .tc := ⟨.hbm, 7338, rfl⟩
abbrev main_cst_1300 : Ref sig .tc := ⟨.hbm, 7339, rfl⟩
abbrev main_call373_v0 : Ref sig .tc := ⟨.hbm, 7340, rfl⟩
abbrev main_call373_v1 : Ref sig .tc := ⟨.hbm, 7341, rfl⟩
abbrev main_call373_v2 : Ref sig .tc := ⟨.hbm, 7342, rfl⟩
abbrev main_call373_v3 : Ref sig .tc := ⟨.hbm, 7343, rfl⟩
abbrev main_call373_v4 : Ref sig .tc := ⟨.hbm, 7344, rfl⟩
abbrev main_v4171 : Ref sig .tc := ⟨.hbm, 7345, rfl⟩
abbrev main_v4172 : Ref sig .tc := ⟨.hbm, 7346, rfl⟩
abbrev main_v4173 : Ref sig .tc := ⟨.hbm, 7347, rfl⟩
abbrev main_v4174 : Ref sig .tc := ⟨.hbm, 7348, rfl⟩
abbrev main_v4175 : Ref sig .tc := ⟨.hbm, 7349, rfl⟩
abbrev main_v4176 : Ref sig .tc := ⟨.hbm, 7350, rfl⟩
abbrev main_v4177 : Ref sig .tc := ⟨.hbm, 7351, rfl⟩
abbrev main_v4178 : Ref sig .tc := ⟨.hbm, 7352, rfl⟩
abbrev main_v4179 : Ref sig .tc := ⟨.hbm, 7353, rfl⟩
abbrev main_v4180 : Ref sig .tc := ⟨.hbm, 7354, rfl⟩
abbrev main_cst_1301 : Ref sig .tc := ⟨.hbm, 7355, rfl⟩
abbrev main_cst_1302 : Ref sig .tc := ⟨.hbm, 7356, rfl⟩
abbrev main_call374_v0 : Ref sig .tc := ⟨.hbm, 7357, rfl⟩
abbrev main_call374_v1 : Ref sig .tc := ⟨.hbm, 7358, rfl⟩
abbrev main_call374_v2 : Ref sig .tc := ⟨.hbm, 7359, rfl⟩
abbrev main_call374_v3 : Ref sig .tc := ⟨.hbm, 7360, rfl⟩
abbrev main_call374_v4 : Ref sig .tc := ⟨.hbm, 7361, rfl⟩
abbrev main_v4181 : Ref sig .tc := ⟨.hbm, 7362, rfl⟩
abbrev main_cst_1303 : Ref sig .tc := ⟨.hbm, 7363, rfl⟩
abbrev main_cst_1304 : Ref sig .tc := ⟨.hbm, 7364, rfl⟩
abbrev main_call375_v0 : Ref sig .tc := ⟨.hbm, 7365, rfl⟩
abbrev main_call375_v1 : Ref sig .tc := ⟨.hbm, 7366, rfl⟩
abbrev main_call375_v2 : Ref sig .tc := ⟨.hbm, 7367, rfl⟩
abbrev main_call375_v3 : Ref sig .tc := ⟨.hbm, 7368, rfl⟩
abbrev main_call375_v4 : Ref sig .tc := ⟨.hbm, 7369, rfl⟩
abbrev main_v4182 : Ref sig .tc := ⟨.hbm, 7370, rfl⟩
abbrev main_v4183 : Ref sig .tc := ⟨.hbm, 7371, rfl⟩
abbrev main_v4184 : Ref sig .tc := ⟨.hbm, 7372, rfl⟩
abbrev main_v4185 : Ref sig .tc := ⟨.hbm, 7373, rfl⟩
abbrev main_v4186 : Ref sig .tc := ⟨.hbm, 7374, rfl⟩
abbrev main_v4187 : Ref sig .tc := ⟨.hbm, 7375, rfl⟩
abbrev main_v4188 : Ref sig .tc := ⟨.hbm, 7376, rfl⟩
abbrev main_v4189 : Ref sig .tc := ⟨.hbm, 7377, rfl⟩
abbrev main_cst_1305 : Ref sig .tc := ⟨.hbm, 7378, rfl⟩
abbrev main_v4190 : Ref sig .tc := ⟨.hbm, 7379, rfl⟩
abbrev main_v4191 : Ref sig .tc := ⟨.hbm, 7380, rfl⟩
abbrev main_v4192 : Ref sig .tc := ⟨.hbm, 7381, rfl⟩
abbrev main_cst_1306 : Ref sig .tc := ⟨.hbm, 7382, rfl⟩
abbrev main_v4193 : Ref sig .tc := ⟨.hbm, 7383, rfl⟩
abbrev main_v4194 : Ref sig .tc := ⟨.hbm, 7384, rfl⟩
abbrev main_cst_1307 : Ref sig .tc := ⟨.hbm, 7385, rfl⟩
abbrev main_v4195 : Ref sig .tc := ⟨.hbm, 7386, rfl⟩
abbrev main_v4196 : Ref sig .tc := ⟨.hbm, 7387, rfl⟩
abbrev main_v4197 : Ref sig .tc := ⟨.hbm, 7388, rfl⟩
abbrev main_v4198 : Ref sig .tc := ⟨.hbm, 7389, rfl⟩
abbrev main_cst_1308 : Ref sig .tc := ⟨.hbm, 7390, rfl⟩
abbrev main_v4199 : Ref sig .tc := ⟨.hbm, 7391, rfl⟩
abbrev main_v4200 : Ref sig .tc := ⟨.hbm, 7392, rfl⟩
abbrev main_v4201 : Ref sig .tc := ⟨.hbm, 7393, rfl⟩
abbrev main_v4202 : Ref sig .tc := ⟨.hbm, 7394, rfl⟩
abbrev main_v4203 : Ref sig .tc := ⟨.hbm, 7395, rfl⟩
abbrev main_v4204 : Ref sig .tc := ⟨.hbm, 7396, rfl⟩
abbrev main_v4205 : Ref sig .tc := ⟨.hbm, 7397, rfl⟩
abbrev main_cst_1309 : Ref sig .tc := ⟨.hbm, 7398, rfl⟩
abbrev main_v4206 : Ref sig .tc := ⟨.hbm, 7399, rfl⟩
abbrev main_v4207 : Ref sig .tc := ⟨.hbm, 7400, rfl⟩
abbrev main_cst_1310 : Ref sig .tc := ⟨.hbm, 7401, rfl⟩
abbrev main_v4208 : Ref sig .tc := ⟨.hbm, 7402, rfl⟩
abbrev main_v4209 : Ref sig .tc := ⟨.hbm, 7403, rfl⟩
abbrev main_v4210 : Ref sig .tc := ⟨.hbm, 7404, rfl⟩
abbrev main_v4211 : Ref sig .tc := ⟨.hbm, 7405, rfl⟩
abbrev main_v4212 : Ref sig .tc := ⟨.hbm, 7406, rfl⟩
abbrev main_v4213 : Ref sig .tc := ⟨.hbm, 7407, rfl⟩
abbrev main_cst_1311 : Ref sig .tc := ⟨.hbm, 7408, rfl⟩
abbrev main_cst_1312 : Ref sig .tc := ⟨.hbm, 7409, rfl⟩
abbrev main_call376_v0 : Ref sig .tc := ⟨.hbm, 7410, rfl⟩
abbrev main_call376_v1 : Ref sig .tc := ⟨.hbm, 7411, rfl⟩
abbrev main_call376_v2 : Ref sig .tc := ⟨.hbm, 7412, rfl⟩
abbrev main_call376_v3 : Ref sig .tc := ⟨.hbm, 7413, rfl⟩
abbrev main_call376_v4 : Ref sig .tc := ⟨.hbm, 7414, rfl⟩
abbrev main_v4214 : Ref sig .tc := ⟨.hbm, 7415, rfl⟩
abbrev main_cst_1313 : Ref sig .tc := ⟨.hbm, 7416, rfl⟩
abbrev main_cst_1314 : Ref sig .tc := ⟨.hbm, 7417, rfl⟩
abbrev main_call377_v0 : Ref sig .tc := ⟨.hbm, 7418, rfl⟩
abbrev main_call377_v1 : Ref sig .tc := ⟨.hbm, 7419, rfl⟩
abbrev main_call377_v2 : Ref sig .tc := ⟨.hbm, 7420, rfl⟩
abbrev main_call377_v3 : Ref sig .tc := ⟨.hbm, 7421, rfl⟩
abbrev main_call377_v4 : Ref sig .tc := ⟨.hbm, 7422, rfl⟩
abbrev main_v4215 : Ref sig .tc := ⟨.hbm, 7423, rfl⟩
abbrev main_v4216 : Ref sig .tc := ⟨.hbm, 7424, rfl⟩
abbrev main_v4217 : Ref sig .tc := ⟨.hbm, 7425, rfl⟩
abbrev main_v4218 : Ref sig .tc := ⟨.hbm, 7426, rfl⟩
abbrev main_v4219 : Ref sig .tc := ⟨.hbm, 7427, rfl⟩
abbrev main_v4220 : Ref sig .tc := ⟨.hbm, 7428, rfl⟩
abbrev main_v4221 : Ref sig .tc := ⟨.hbm, 7429, rfl⟩
abbrev main_v4222 : Ref sig .tc := ⟨.hbm, 7430, rfl⟩
abbrev main_cst_1315 : Ref sig .tc := ⟨.hbm, 7431, rfl⟩
abbrev main_v4223 : Ref sig .tc := ⟨.hbm, 7432, rfl⟩
abbrev main_v4224 : Ref sig .tc := ⟨.hbm, 7433, rfl⟩
abbrev main_v4225 : Ref sig .tc := ⟨.hbm, 7434, rfl⟩
abbrev main_cst_1316 : Ref sig .tc := ⟨.hbm, 7435, rfl⟩
abbrev main_v4226 : Ref sig .tc := ⟨.hbm, 7436, rfl⟩
abbrev main_v4227 : Ref sig .tc := ⟨.hbm, 7437, rfl⟩
abbrev main_cst_1317 : Ref sig .tc := ⟨.hbm, 7438, rfl⟩
abbrev main_v4228 : Ref sig .tc := ⟨.hbm, 7439, rfl⟩
abbrev main_v4229 : Ref sig .tc := ⟨.hbm, 7440, rfl⟩
abbrev main_v4230 : Ref sig .tc := ⟨.hbm, 7441, rfl⟩
abbrev main_v4231 : Ref sig .tc := ⟨.hbm, 7442, rfl⟩
abbrev main_cst_1318 : Ref sig .tc := ⟨.hbm, 7443, rfl⟩
abbrev main_v4232 : Ref sig .tc := ⟨.hbm, 7444, rfl⟩
abbrev main_v4233 : Ref sig .tc := ⟨.hbm, 7445, rfl⟩
abbrev main_v4234 : Ref sig .tc := ⟨.hbm, 7446, rfl⟩
abbrev main_v4235 : Ref sig .tc := ⟨.hbm, 7447, rfl⟩
abbrev main_v4236 : Ref sig .tc := ⟨.hbm, 7448, rfl⟩
abbrev main_v4237 : Ref sig .tc := ⟨.hbm, 7449, rfl⟩
abbrev main_v4238 : Ref sig .tc := ⟨.hbm, 7450, rfl⟩
abbrev main_v4239 : Ref sig .tc := ⟨.hbm, 7451, rfl⟩
abbrev main_v4240 : Ref sig .tc := ⟨.hbm, 7452, rfl⟩
abbrev main_v4241 : Ref sig .tc := ⟨.hbm, 7453, rfl⟩
abbrev main_v4242 : Ref sig .tc := ⟨.hbm, 7454, rfl⟩
abbrev main_cst_1319 : Ref sig .tc := ⟨.hbm, 7455, rfl⟩
abbrev main_v4243 : Ref sig .tc := ⟨.hbm, 7456, rfl⟩
abbrev main_v4244 : Ref sig .tc := ⟨.hbm, 7457, rfl⟩
abbrev main_cst_1320 : Ref sig .tc := ⟨.hbm, 7458, rfl⟩
abbrev main_v4245 : Ref sig .tc := ⟨.hbm, 7459, rfl⟩
abbrev main_v4246 : Ref sig .tc := ⟨.hbm, 7460, rfl⟩
abbrev main_v4247 : Ref sig .tc := ⟨.hbm, 7461, rfl⟩
abbrev main_v4248 : Ref sig .tc := ⟨.hbm, 7462, rfl⟩
abbrev main_v4249 : Ref sig .tc := ⟨.hbm, 7463, rfl⟩
abbrev main_v4250 : Ref sig .tc := ⟨.hbm, 7464, rfl⟩
abbrev main_cst_1321 : Ref sig .tc := ⟨.hbm, 7465, rfl⟩
abbrev main_cst_1322 : Ref sig .tc := ⟨.hbm, 7466, rfl⟩
abbrev main_call378_v0 : Ref sig .tc := ⟨.hbm, 7467, rfl⟩
abbrev main_call378_v1 : Ref sig .tc := ⟨.hbm, 7468, rfl⟩
abbrev main_call378_v2 : Ref sig .tc := ⟨.hbm, 7469, rfl⟩
abbrev main_call378_v3 : Ref sig .tc := ⟨.hbm, 7470, rfl⟩
abbrev main_call378_v4 : Ref sig .tc := ⟨.hbm, 7471, rfl⟩
abbrev main_v4251 : Ref sig .tc := ⟨.hbm, 7472, rfl⟩
abbrev main_cst_1323 : Ref sig .tc := ⟨.hbm, 7473, rfl⟩
abbrev main_cst_1324 : Ref sig .tc := ⟨.hbm, 7474, rfl⟩
abbrev main_call379_v0 : Ref sig .tc := ⟨.hbm, 7475, rfl⟩
abbrev main_call379_v1 : Ref sig .tc := ⟨.hbm, 7476, rfl⟩
abbrev main_call379_v2 : Ref sig .tc := ⟨.hbm, 7477, rfl⟩
abbrev main_call379_v3 : Ref sig .tc := ⟨.hbm, 7478, rfl⟩
abbrev main_call379_v4 : Ref sig .tc := ⟨.hbm, 7479, rfl⟩
abbrev main_v4252 : Ref sig .tc := ⟨.hbm, 7480, rfl⟩
abbrev main_v4253 : Ref sig .tc := ⟨.hbm, 7481, rfl⟩
abbrev main_v4254 : Ref sig .tc := ⟨.hbm, 7482, rfl⟩
abbrev main_v4255 : Ref sig .tc := ⟨.hbm, 7483, rfl⟩
abbrev main_v4256 : Ref sig .tc := ⟨.hbm, 7484, rfl⟩
abbrev main_v4257 : Ref sig .tc := ⟨.hbm, 7485, rfl⟩
abbrev main_v4258 : Ref sig .tc := ⟨.hbm, 7486, rfl⟩
abbrev main_v4259 : Ref sig .tc := ⟨.hbm, 7487, rfl⟩
abbrev main_v4260 : Ref sig .tc := ⟨.hbm, 7488, rfl⟩
abbrev main_v4261 : Ref sig .tc := ⟨.hbm, 7489, rfl⟩
abbrev main_cst_1325 : Ref sig .tc := ⟨.hbm, 7490, rfl⟩
abbrev main_cst_1326 : Ref sig .tc := ⟨.hbm, 7491, rfl⟩
abbrev main_call380_v0 : Ref sig .tc := ⟨.hbm, 7492, rfl⟩
abbrev main_call380_v1 : Ref sig .tc := ⟨.hbm, 7493, rfl⟩
abbrev main_call380_v2 : Ref sig .tc := ⟨.hbm, 7494, rfl⟩
abbrev main_call380_v3 : Ref sig .tc := ⟨.hbm, 7495, rfl⟩
abbrev main_call380_v4 : Ref sig .tc := ⟨.hbm, 7496, rfl⟩
abbrev main_v4262 : Ref sig .tc := ⟨.hbm, 7497, rfl⟩
abbrev main_cst_1327 : Ref sig .tc := ⟨.hbm, 7498, rfl⟩
abbrev main_cst_1328 : Ref sig .tc := ⟨.hbm, 7499, rfl⟩
abbrev main_call381_v0 : Ref sig .tc := ⟨.hbm, 7500, rfl⟩
abbrev main_call381_v1 : Ref sig .tc := ⟨.hbm, 7501, rfl⟩
abbrev main_call381_v2 : Ref sig .tc := ⟨.hbm, 7502, rfl⟩
abbrev main_call381_v3 : Ref sig .tc := ⟨.hbm, 7503, rfl⟩
abbrev main_call381_v4 : Ref sig .tc := ⟨.hbm, 7504, rfl⟩
abbrev main_v4263 : Ref sig .tc := ⟨.hbm, 7505, rfl⟩
abbrev main_v4264 : Ref sig .tc := ⟨.hbm, 7506, rfl⟩
abbrev main_v4265 : Ref sig .tc := ⟨.hbm, 7507, rfl⟩
abbrev main_v4266 : Ref sig .tc := ⟨.hbm, 7508, rfl⟩
abbrev main_v4267 : Ref sig .tc := ⟨.hbm, 7509, rfl⟩
abbrev main_v4268 : Ref sig .tc := ⟨.hbm, 7510, rfl⟩
abbrev main_v4269 : Ref sig .tc := ⟨.hbm, 7511, rfl⟩
abbrev main_v4270 : Ref sig .tc := ⟨.hbm, 7512, rfl⟩
abbrev main_cst_1329 : Ref sig .tc := ⟨.hbm, 7513, rfl⟩
abbrev main_v4271 : Ref sig .tc := ⟨.hbm, 7514, rfl⟩
abbrev main_v4272 : Ref sig .tc := ⟨.hbm, 7515, rfl⟩
abbrev main_v4273 : Ref sig .tc := ⟨.hbm, 7516, rfl⟩
abbrev main_cst_1330 : Ref sig .tc := ⟨.hbm, 7517, rfl⟩
abbrev main_v4274 : Ref sig .tc := ⟨.hbm, 7518, rfl⟩
abbrev main_v4275 : Ref sig .tc := ⟨.hbm, 7519, rfl⟩
abbrev main_cst_1331 : Ref sig .tc := ⟨.hbm, 7520, rfl⟩
abbrev main_v4276 : Ref sig .tc := ⟨.hbm, 7521, rfl⟩
abbrev main_v4277 : Ref sig .tc := ⟨.hbm, 7522, rfl⟩
abbrev main_v4278 : Ref sig .tc := ⟨.hbm, 7523, rfl⟩
abbrev main_v4279 : Ref sig .tc := ⟨.hbm, 7524, rfl⟩
abbrev main_cst_1332 : Ref sig .tc := ⟨.hbm, 7525, rfl⟩
abbrev main_v4280 : Ref sig .tc := ⟨.hbm, 7526, rfl⟩
abbrev main_v4281 : Ref sig .tc := ⟨.hbm, 7527, rfl⟩
abbrev main_v4282 : Ref sig .tc := ⟨.hbm, 7528, rfl⟩
abbrev main_v4283 : Ref sig .tc := ⟨.hbm, 7529, rfl⟩
abbrev main_v4284 : Ref sig .tc := ⟨.hbm, 7530, rfl⟩
abbrev main_v4285 : Ref sig .tc := ⟨.hbm, 7531, rfl⟩
abbrev main_v4286 : Ref sig .tc := ⟨.hbm, 7532, rfl⟩
abbrev main_cst_1333 : Ref sig .tc := ⟨.hbm, 7533, rfl⟩
abbrev main_v4287 : Ref sig .tc := ⟨.hbm, 7534, rfl⟩
abbrev main_v4288 : Ref sig .tc := ⟨.hbm, 7535, rfl⟩
abbrev main_cst_1334 : Ref sig .tc := ⟨.hbm, 7536, rfl⟩
abbrev main_v4289 : Ref sig .tc := ⟨.hbm, 7537, rfl⟩
abbrev main_v4290 : Ref sig .tc := ⟨.hbm, 7538, rfl⟩
abbrev main_v4291 : Ref sig .tc := ⟨.hbm, 7539, rfl⟩
abbrev main_v4292 : Ref sig .tc := ⟨.hbm, 7540, rfl⟩
abbrev main_v4293 : Ref sig .tc := ⟨.hbm, 7541, rfl⟩
abbrev main_v4294 : Ref sig .tc := ⟨.hbm, 7542, rfl⟩
abbrev main_cst_1335 : Ref sig .tc := ⟨.hbm, 7543, rfl⟩
abbrev main_cst_1336 : Ref sig .tc := ⟨.hbm, 7544, rfl⟩
abbrev main_call382_v0 : Ref sig .tc := ⟨.hbm, 7545, rfl⟩
abbrev main_call382_v1 : Ref sig .tc := ⟨.hbm, 7546, rfl⟩
abbrev main_call382_v2 : Ref sig .tc := ⟨.hbm, 7547, rfl⟩
abbrev main_call382_v3 : Ref sig .tc := ⟨.hbm, 7548, rfl⟩
abbrev main_call382_v4 : Ref sig .tc := ⟨.hbm, 7549, rfl⟩
abbrev main_v4295 : Ref sig .tc := ⟨.hbm, 7550, rfl⟩
abbrev main_cst_1337 : Ref sig .tc := ⟨.hbm, 7551, rfl⟩
abbrev main_cst_1338 : Ref sig .tc := ⟨.hbm, 7552, rfl⟩
abbrev main_call383_v0 : Ref sig .tc := ⟨.hbm, 7553, rfl⟩
abbrev main_call383_v1 : Ref sig .tc := ⟨.hbm, 7554, rfl⟩
abbrev main_call383_v2 : Ref sig .tc := ⟨.hbm, 7555, rfl⟩
abbrev main_call383_v3 : Ref sig .tc := ⟨.hbm, 7556, rfl⟩
abbrev main_call383_v4 : Ref sig .tc := ⟨.hbm, 7557, rfl⟩
abbrev main_v4296 : Ref sig .tc := ⟨.hbm, 7558, rfl⟩
abbrev main_v4297 : Ref sig .tc := ⟨.hbm, 7559, rfl⟩
abbrev main_v4298 : Ref sig .tc := ⟨.hbm, 7560, rfl⟩
abbrev main_v4299 : Ref sig .tc := ⟨.hbm, 7561, rfl⟩
abbrev main_v4300 : Ref sig .tc := ⟨.hbm, 7562, rfl⟩
abbrev main_v4301 : Ref sig .tc := ⟨.hbm, 7563, rfl⟩
abbrev main_v4302 : Ref sig .tc := ⟨.hbm, 7564, rfl⟩
abbrev main_v4303 : Ref sig .tc := ⟨.hbm, 7565, rfl⟩
abbrev main_cst_1339 : Ref sig .tc := ⟨.hbm, 7566, rfl⟩
abbrev main_v4304 : Ref sig .tc := ⟨.hbm, 7567, rfl⟩
abbrev main_v4305 : Ref sig .tc := ⟨.hbm, 7568, rfl⟩
abbrev main_v4306 : Ref sig .tc := ⟨.hbm, 7569, rfl⟩
abbrev main_cst_1340 : Ref sig .tc := ⟨.hbm, 7570, rfl⟩
abbrev main_v4307 : Ref sig .tc := ⟨.hbm, 7571, rfl⟩
abbrev main_v4308 : Ref sig .tc := ⟨.hbm, 7572, rfl⟩
abbrev main_cst_1341 : Ref sig .tc := ⟨.hbm, 7573, rfl⟩
abbrev main_v4309 : Ref sig .tc := ⟨.hbm, 7574, rfl⟩
abbrev main_v4310 : Ref sig .tc := ⟨.hbm, 7575, rfl⟩
abbrev main_v4311 : Ref sig .tc := ⟨.hbm, 7576, rfl⟩
abbrev main_v4312 : Ref sig .tc := ⟨.hbm, 7577, rfl⟩
abbrev main_cst_1342 : Ref sig .tc := ⟨.hbm, 7578, rfl⟩
abbrev main_v4313 : Ref sig .tc := ⟨.hbm, 7579, rfl⟩
abbrev main_v4314 : Ref sig .tc := ⟨.hbm, 7580, rfl⟩
abbrev main_v4315 : Ref sig .tc := ⟨.hbm, 7581, rfl⟩
abbrev main_v4316 : Ref sig .tc := ⟨.hbm, 7582, rfl⟩
abbrev main_v4317 : Ref sig .tc := ⟨.hbm, 7583, rfl⟩
abbrev main_v4318 : Ref sig .tc := ⟨.hbm, 7584, rfl⟩
abbrev main_v4319 : Ref sig .tc := ⟨.hbm, 7585, rfl⟩
abbrev main_v4320 : Ref sig .tc := ⟨.hbm, 7586, rfl⟩
abbrev main_v4321 : Ref sig .tc := ⟨.hbm, 7587, rfl⟩
abbrev main_v4322 : Ref sig .tc := ⟨.hbm, 7588, rfl⟩
abbrev main_v4323 : Ref sig .tc := ⟨.hbm, 7589, rfl⟩
abbrev main_v4324 : Ref sig .tc := ⟨.hbm, 7590, rfl⟩
abbrev main_v4325 : Ref sig .tc := ⟨.hbm, 7591, rfl⟩
abbrev main_v4326 : Ref sig .tc := ⟨.hbm, 7592, rfl⟩
abbrev main_v4327 : Ref sig .tc := ⟨.hbm, 7593, rfl⟩
abbrev main_v4328 : Ref sig .tc := ⟨.hbm, 7594, rfl⟩
abbrev main_v4329 : Ref sig .tc := ⟨.hbm, 7595, rfl⟩
abbrev main_v4330 : Ref sig .tc := ⟨.hbm, 7596, rfl⟩
abbrev main_v4331 : Ref sig .tc := ⟨.hbm, 7597, rfl⟩
abbrev main_v4332 : Ref sig .tc := ⟨.hbm, 7598, rfl⟩
abbrev main_v4333 : Ref sig .tc := ⟨.hbm, 7599, rfl⟩
abbrev main_v4334 : Ref sig .tc := ⟨.hbm, 7600, rfl⟩
abbrev main_v4335 : Ref sig .tc := ⟨.hbm, 7601, rfl⟩
abbrev main_v4336 : Ref sig .tc := ⟨.hbm, 7602, rfl⟩
abbrev main_v4337 : Ref sig .tc := ⟨.hbm, 7603, rfl⟩
abbrev main_v4338 : Ref sig .tc := ⟨.hbm, 7604, rfl⟩
abbrev main_v4339 : Ref sig .tc := ⟨.hbm, 7605, rfl⟩
abbrev main_cst_1343 : Ref sig .tc := ⟨.hbm, 7606, rfl⟩
abbrev main_v4340 : Ref sig .tc := ⟨.hbm, 7607, rfl⟩
abbrev main_v4341 : Ref sig .tc := ⟨.hbm, 7608, rfl⟩
abbrev main_cst_1344 : Ref sig .tc := ⟨.hbm, 7609, rfl⟩
abbrev main_v4342 : Ref sig .tc := ⟨.hbm, 7610, rfl⟩
abbrev main_v4343 : Ref sig .tc := ⟨.hbm, 7611, rfl⟩
abbrev main_v4344 : Ref sig .tc := ⟨.hbm, 7612, rfl⟩
abbrev main_v4345 : Ref sig .tc := ⟨.hbm, 7613, rfl⟩
abbrev main_v4346 : Ref sig .tc := ⟨.hbm, 7614, rfl⟩
abbrev main_v4347 : Ref sig .tc := ⟨.hbm, 7615, rfl⟩
abbrev main_cst_1345 : Ref sig .tc := ⟨.hbm, 7616, rfl⟩
abbrev main_cst_1346 : Ref sig .tc := ⟨.hbm, 7617, rfl⟩
abbrev main_call384_v0 : Ref sig .tc := ⟨.hbm, 7618, rfl⟩
abbrev main_call384_v1 : Ref sig .tc := ⟨.hbm, 7619, rfl⟩
abbrev main_call384_v2 : Ref sig .tc := ⟨.hbm, 7620, rfl⟩
abbrev main_call384_v3 : Ref sig .tc := ⟨.hbm, 7621, rfl⟩
abbrev main_call384_v4 : Ref sig .tc := ⟨.hbm, 7622, rfl⟩
abbrev main_v4348 : Ref sig .tc := ⟨.hbm, 7623, rfl⟩
abbrev main_cst_1347 : Ref sig .tc := ⟨.hbm, 7624, rfl⟩
abbrev main_cst_1348 : Ref sig .tc := ⟨.hbm, 7625, rfl⟩
abbrev main_call385_v0 : Ref sig .tc := ⟨.hbm, 7626, rfl⟩
abbrev main_call385_v1 : Ref sig .tc := ⟨.hbm, 7627, rfl⟩
abbrev main_call385_v2 : Ref sig .tc := ⟨.hbm, 7628, rfl⟩
abbrev main_call385_v3 : Ref sig .tc := ⟨.hbm, 7629, rfl⟩
abbrev main_call385_v4 : Ref sig .tc := ⟨.hbm, 7630, rfl⟩
abbrev main_v4349 : Ref sig .tc := ⟨.hbm, 7631, rfl⟩
abbrev main_v4350 : Ref sig .tc := ⟨.hbm, 7632, rfl⟩
abbrev main_v4351 : Ref sig .tc := ⟨.hbm, 7633, rfl⟩
abbrev main_v4352 : Ref sig .tc := ⟨.hbm, 7634, rfl⟩
abbrev main_v4353 : Ref sig .tc := ⟨.hbm, 7635, rfl⟩
abbrev main_v4354 : Ref sig .tc := ⟨.hbm, 7636, rfl⟩
abbrev main_v4355 : Ref sig .tc := ⟨.hbm, 7637, rfl⟩
abbrev main_v4356 : Ref sig .tc := ⟨.hbm, 7638, rfl⟩
abbrev main_v4357 : Ref sig .tc := ⟨.hbm, 7639, rfl⟩
abbrev main_v4358 : Ref sig .tc := ⟨.hbm, 7640, rfl⟩
abbrev main_cst_1349 : Ref sig .tc := ⟨.hbm, 7641, rfl⟩
abbrev main_cst_1350 : Ref sig .tc := ⟨.hbm, 7642, rfl⟩
abbrev main_call386_v0 : Ref sig .tc := ⟨.hbm, 7643, rfl⟩
abbrev main_call386_v1 : Ref sig .tc := ⟨.hbm, 7644, rfl⟩
abbrev main_call386_v2 : Ref sig .tc := ⟨.hbm, 7645, rfl⟩
abbrev main_call386_v3 : Ref sig .tc := ⟨.hbm, 7646, rfl⟩
abbrev main_call386_v4 : Ref sig .tc := ⟨.hbm, 7647, rfl⟩
abbrev main_v4359 : Ref sig .tc := ⟨.hbm, 7648, rfl⟩
abbrev main_cst_1351 : Ref sig .tc := ⟨.hbm, 7649, rfl⟩
abbrev main_cst_1352 : Ref sig .tc := ⟨.hbm, 7650, rfl⟩
abbrev main_call387_v0 : Ref sig .tc := ⟨.hbm, 7651, rfl⟩
abbrev main_call387_v1 : Ref sig .tc := ⟨.hbm, 7652, rfl⟩
abbrev main_call387_v2 : Ref sig .tc := ⟨.hbm, 7653, rfl⟩
abbrev main_call387_v3 : Ref sig .tc := ⟨.hbm, 7654, rfl⟩
abbrev main_call387_v4 : Ref sig .tc := ⟨.hbm, 7655, rfl⟩
abbrev main_v4360 : Ref sig .tc := ⟨.hbm, 7656, rfl⟩
abbrev main_v4361 : Ref sig .tc := ⟨.hbm, 7657, rfl⟩
abbrev main_v4362 : Ref sig .tc := ⟨.hbm, 7658, rfl⟩
abbrev main_v4363 : Ref sig .tc := ⟨.hbm, 7659, rfl⟩
abbrev main_v4364 : Ref sig .tc := ⟨.hbm, 7660, rfl⟩
abbrev main_v4365 : Ref sig .tc := ⟨.hbm, 7661, rfl⟩
abbrev main_v4366 : Ref sig .tc := ⟨.hbm, 7662, rfl⟩
abbrev main_v4367 : Ref sig .tc := ⟨.hbm, 7663, rfl⟩
abbrev main_v4368 : Ref sig .tc := ⟨.hbm, 7664, rfl⟩
abbrev main_v4369 : Ref sig .tc := ⟨.hbm, 7665, rfl⟩
abbrev main_cst_1353 : Ref sig .tc := ⟨.hbm, 7666, rfl⟩
abbrev main_cst_1354 : Ref sig .tc := ⟨.hbm, 7667, rfl⟩
abbrev main_call388_v0 : Ref sig .tc := ⟨.hbm, 7668, rfl⟩
abbrev main_call388_v1 : Ref sig .tc := ⟨.hbm, 7669, rfl⟩
abbrev main_call388_v2 : Ref sig .tc := ⟨.hbm, 7670, rfl⟩
abbrev main_call388_v3 : Ref sig .tc := ⟨.hbm, 7671, rfl⟩
abbrev main_call388_v4 : Ref sig .tc := ⟨.hbm, 7672, rfl⟩
abbrev main_v4370 : Ref sig .tc := ⟨.hbm, 7673, rfl⟩
abbrev main_cst_1355 : Ref sig .tc := ⟨.hbm, 7674, rfl⟩
abbrev main_cst_1356 : Ref sig .tc := ⟨.hbm, 7675, rfl⟩
abbrev main_call389_v0 : Ref sig .tc := ⟨.hbm, 7676, rfl⟩
abbrev main_call389_v1 : Ref sig .tc := ⟨.hbm, 7677, rfl⟩
abbrev main_call389_v2 : Ref sig .tc := ⟨.hbm, 7678, rfl⟩
abbrev main_call389_v3 : Ref sig .tc := ⟨.hbm, 7679, rfl⟩
abbrev main_call389_v4 : Ref sig .tc := ⟨.hbm, 7680, rfl⟩
abbrev main_v4371 : Ref sig .tc := ⟨.hbm, 7681, rfl⟩
abbrev main_v4372 : Ref sig .tc := ⟨.hbm, 7682, rfl⟩
abbrev main_v4373 : Ref sig .tc := ⟨.hbm, 7683, rfl⟩
abbrev main_v4374 : Ref sig .tc := ⟨.hbm, 7684, rfl⟩
abbrev main_v4375 : Ref sig .tc := ⟨.hbm, 7685, rfl⟩
abbrev main_v4376 : Ref sig .tc := ⟨.hbm, 7686, rfl⟩
abbrev main_v4377 : Ref sig .tc := ⟨.hbm, 7687, rfl⟩
abbrev main_v4378 : Ref sig .tc := ⟨.hbm, 7688, rfl⟩
abbrev main_v4379 : Ref sig .tc := ⟨.hbm, 7689, rfl⟩
abbrev main_v4380 : Ref sig .tc := ⟨.hbm, 7690, rfl⟩
abbrev main_cst_1357 : Ref sig .tc := ⟨.hbm, 7691, rfl⟩
abbrev main_cst_1358 : Ref sig .tc := ⟨.hbm, 7692, rfl⟩
abbrev main_call390_v0 : Ref sig .tc := ⟨.hbm, 7693, rfl⟩
abbrev main_call390_v1 : Ref sig .tc := ⟨.hbm, 7694, rfl⟩
abbrev main_call390_v2 : Ref sig .tc := ⟨.hbm, 7695, rfl⟩
abbrev main_call390_v3 : Ref sig .tc := ⟨.hbm, 7696, rfl⟩
abbrev main_call390_v4 : Ref sig .tc := ⟨.hbm, 7697, rfl⟩
abbrev main_v4381 : Ref sig .tc := ⟨.hbm, 7698, rfl⟩
abbrev main_cst_1359 : Ref sig .tc := ⟨.hbm, 7699, rfl⟩
abbrev main_cst_1360 : Ref sig .tc := ⟨.hbm, 7700, rfl⟩
abbrev main_call391_v0 : Ref sig .tc := ⟨.hbm, 7701, rfl⟩
abbrev main_call391_v1 : Ref sig .tc := ⟨.hbm, 7702, rfl⟩
abbrev main_call391_v2 : Ref sig .tc := ⟨.hbm, 7703, rfl⟩
abbrev main_call391_v3 : Ref sig .tc := ⟨.hbm, 7704, rfl⟩
abbrev main_call391_v4 : Ref sig .tc := ⟨.hbm, 7705, rfl⟩
abbrev main_v4382 : Ref sig .tc := ⟨.hbm, 7706, rfl⟩
abbrev main_v4383 : Ref sig .tc := ⟨.hbm, 7707, rfl⟩
abbrev main_v4384 : Ref sig .tc := ⟨.hbm, 7708, rfl⟩
abbrev main_v4385 : Ref sig .tc := ⟨.hbm, 7709, rfl⟩
abbrev main_v4386 : Ref sig .tc := ⟨.hbm, 7710, rfl⟩
abbrev main_v4387 : Ref sig .tc := ⟨.hbm, 7711, rfl⟩
abbrev main_v4388 : Ref sig .tc := ⟨.hbm, 7712, rfl⟩
abbrev main_v4389 : Ref sig .tc := ⟨.hbm, 7713, rfl⟩
abbrev main_v4390 : Ref sig .tc := ⟨.hbm, 7714, rfl⟩
abbrev main_v4391 : Ref sig .tc := ⟨.hbm, 7715, rfl⟩
abbrev main_cst_1361 : Ref sig .tc := ⟨.hbm, 7716, rfl⟩
abbrev main_cst_1362 : Ref sig .tc := ⟨.hbm, 7717, rfl⟩
abbrev main_call392_v0 : Ref sig .tc := ⟨.hbm, 7718, rfl⟩
abbrev main_call392_v1 : Ref sig .tc := ⟨.hbm, 7719, rfl⟩
abbrev main_call392_v2 : Ref sig .tc := ⟨.hbm, 7720, rfl⟩
abbrev main_call392_v3 : Ref sig .tc := ⟨.hbm, 7721, rfl⟩
abbrev main_call392_v4 : Ref sig .tc := ⟨.hbm, 7722, rfl⟩
abbrev main_v4392 : Ref sig .tc := ⟨.hbm, 7723, rfl⟩
abbrev main_cst_1363 : Ref sig .tc := ⟨.hbm, 7724, rfl⟩
abbrev main_cst_1364 : Ref sig .tc := ⟨.hbm, 7725, rfl⟩
abbrev main_call393_v0 : Ref sig .tc := ⟨.hbm, 7726, rfl⟩
abbrev main_call393_v1 : Ref sig .tc := ⟨.hbm, 7727, rfl⟩
abbrev main_call393_v2 : Ref sig .tc := ⟨.hbm, 7728, rfl⟩
abbrev main_call393_v3 : Ref sig .tc := ⟨.hbm, 7729, rfl⟩
abbrev main_call393_v4 : Ref sig .tc := ⟨.hbm, 7730, rfl⟩
abbrev main_v4393 : Ref sig .tc := ⟨.hbm, 7731, rfl⟩
abbrev main_v4394 : Ref sig .tc := ⟨.hbm, 7732, rfl⟩
abbrev main_v4395 : Ref sig .tc := ⟨.hbm, 7733, rfl⟩
abbrev main_v4396 : Ref sig .tc := ⟨.hbm, 7734, rfl⟩
abbrev main_v4397 : Ref sig .tc := ⟨.hbm, 7735, rfl⟩
abbrev main_v4398 : Ref sig .tc := ⟨.hbm, 7736, rfl⟩
abbrev main_v4399 : Ref sig .tc := ⟨.hbm, 7737, rfl⟩
abbrev main_v4400 : Ref sig .tc := ⟨.hbm, 7738, rfl⟩
abbrev main_v4401 : Ref sig .tc := ⟨.hbm, 7739, rfl⟩
abbrev main_v4402 : Ref sig .tc := ⟨.hbm, 7740, rfl⟩
abbrev main_cst_1365 : Ref sig .tc := ⟨.hbm, 7741, rfl⟩
abbrev main_cst_1366 : Ref sig .tc := ⟨.hbm, 7742, rfl⟩
abbrev main_call394_v0 : Ref sig .tc := ⟨.hbm, 7743, rfl⟩
abbrev main_call394_v1 : Ref sig .tc := ⟨.hbm, 7744, rfl⟩
abbrev main_call394_v2 : Ref sig .tc := ⟨.hbm, 7745, rfl⟩
abbrev main_call394_v3 : Ref sig .tc := ⟨.hbm, 7746, rfl⟩
abbrev main_call394_v4 : Ref sig .tc := ⟨.hbm, 7747, rfl⟩
abbrev main_v4403 : Ref sig .tc := ⟨.hbm, 7748, rfl⟩
abbrev main_cst_1367 : Ref sig .tc := ⟨.hbm, 7749, rfl⟩
abbrev main_cst_1368 : Ref sig .tc := ⟨.hbm, 7750, rfl⟩
abbrev main_call395_v0 : Ref sig .tc := ⟨.hbm, 7751, rfl⟩
abbrev main_call395_v1 : Ref sig .tc := ⟨.hbm, 7752, rfl⟩
abbrev main_call395_v2 : Ref sig .tc := ⟨.hbm, 7753, rfl⟩
abbrev main_call395_v3 : Ref sig .tc := ⟨.hbm, 7754, rfl⟩
abbrev main_call395_v4 : Ref sig .tc := ⟨.hbm, 7755, rfl⟩
abbrev main_v4404 : Ref sig .tc := ⟨.hbm, 7756, rfl⟩
abbrev main_v4405 : Ref sig .tc := ⟨.hbm, 7757, rfl⟩
abbrev main_v4406 : Ref sig .tc := ⟨.hbm, 7758, rfl⟩
abbrev main_v4407 : Ref sig .tc := ⟨.hbm, 7759, rfl⟩
abbrev main_v4408 : Ref sig .tc := ⟨.hbm, 7760, rfl⟩
abbrev main_v4409 : Ref sig .tc := ⟨.hbm, 7761, rfl⟩
abbrev main_v4410 : Ref sig .tc := ⟨.hbm, 7762, rfl⟩
abbrev main_v4411 : Ref sig .tc := ⟨.hbm, 7763, rfl⟩
abbrev main_cst_1369 : Ref sig .tc := ⟨.hbm, 7764, rfl⟩
abbrev main_v4412 : Ref sig .tc := ⟨.hbm, 7765, rfl⟩
abbrev main_v4413 : Ref sig .tc := ⟨.hbm, 7766, rfl⟩
abbrev main_v4414 : Ref sig .tc := ⟨.hbm, 7767, rfl⟩
abbrev main_cst_1370 : Ref sig .tc := ⟨.hbm, 7768, rfl⟩
abbrev main_v4415 : Ref sig .tc := ⟨.hbm, 7769, rfl⟩
abbrev main_v4416 : Ref sig .tc := ⟨.hbm, 7770, rfl⟩
abbrev main_cst_1371 : Ref sig .tc := ⟨.hbm, 7771, rfl⟩
abbrev main_v4417 : Ref sig .tc := ⟨.hbm, 7772, rfl⟩
abbrev main_v4418 : Ref sig .tc := ⟨.hbm, 7773, rfl⟩
abbrev main_v4419 : Ref sig .tc := ⟨.hbm, 7774, rfl⟩
abbrev main_v4420 : Ref sig .tc := ⟨.hbm, 7775, rfl⟩
abbrev main_cst_1372 : Ref sig .tc := ⟨.hbm, 7776, rfl⟩
abbrev main_v4421 : Ref sig .tc := ⟨.hbm, 7777, rfl⟩
abbrev main_v4422 : Ref sig .tc := ⟨.hbm, 7778, rfl⟩
abbrev main_v4423 : Ref sig .tc := ⟨.hbm, 7779, rfl⟩
abbrev main_v4424 : Ref sig .tc := ⟨.hbm, 7780, rfl⟩
abbrev main_v4425 : Ref sig .tc := ⟨.hbm, 7781, rfl⟩
abbrev main_v4426 : Ref sig .tc := ⟨.hbm, 7782, rfl⟩
abbrev main_v4427 : Ref sig .tc := ⟨.hbm, 7783, rfl⟩
abbrev main_cst_1373 : Ref sig .tc := ⟨.hbm, 7784, rfl⟩
abbrev main_v4428 : Ref sig .tc := ⟨.hbm, 7785, rfl⟩
abbrev main_v4429 : Ref sig .tc := ⟨.hbm, 7786, rfl⟩
abbrev main_cst_1374 : Ref sig .tc := ⟨.hbm, 7787, rfl⟩
abbrev main_v4430 : Ref sig .tc := ⟨.hbm, 7788, rfl⟩
abbrev main_v4431 : Ref sig .tc := ⟨.hbm, 7789, rfl⟩
abbrev main_v4432 : Ref sig .tc := ⟨.hbm, 7790, rfl⟩
abbrev main_v4433 : Ref sig .tc := ⟨.hbm, 7791, rfl⟩
abbrev main_v4434 : Ref sig .tc := ⟨.hbm, 7792, rfl⟩
abbrev main_v4435 : Ref sig .tc := ⟨.hbm, 7793, rfl⟩
abbrev main_cst_1375 : Ref sig .tc := ⟨.hbm, 7794, rfl⟩
abbrev main_cst_1376 : Ref sig .tc := ⟨.hbm, 7795, rfl⟩
abbrev main_call396_v0 : Ref sig .tc := ⟨.hbm, 7796, rfl⟩
abbrev main_call396_v1 : Ref sig .tc := ⟨.hbm, 7797, rfl⟩
abbrev main_call396_v2 : Ref sig .tc := ⟨.hbm, 7798, rfl⟩
abbrev main_call396_v3 : Ref sig .tc := ⟨.hbm, 7799, rfl⟩
abbrev main_call396_v4 : Ref sig .tc := ⟨.hbm, 7800, rfl⟩
abbrev main_v4436 : Ref sig .tc := ⟨.hbm, 7801, rfl⟩
abbrev main_cst_1377 : Ref sig .tc := ⟨.hbm, 7802, rfl⟩
abbrev main_cst_1378 : Ref sig .tc := ⟨.hbm, 7803, rfl⟩
abbrev main_call397_v0 : Ref sig .tc := ⟨.hbm, 7804, rfl⟩
abbrev main_call397_v1 : Ref sig .tc := ⟨.hbm, 7805, rfl⟩
abbrev main_call397_v2 : Ref sig .tc := ⟨.hbm, 7806, rfl⟩
abbrev main_call397_v3 : Ref sig .tc := ⟨.hbm, 7807, rfl⟩
abbrev main_call397_v4 : Ref sig .tc := ⟨.hbm, 7808, rfl⟩
abbrev main_v4437 : Ref sig .tc := ⟨.hbm, 7809, rfl⟩
abbrev main_v4438 : Ref sig .tc := ⟨.hbm, 7810, rfl⟩
abbrev main_v4439 : Ref sig .tc := ⟨.hbm, 7811, rfl⟩
abbrev main_v4440 : Ref sig .tc := ⟨.hbm, 7812, rfl⟩
abbrev main_v4441 : Ref sig .tc := ⟨.hbm, 7813, rfl⟩
abbrev main_v4442 : Ref sig .tc := ⟨.hbm, 7814, rfl⟩
abbrev main_v4443 : Ref sig .tc := ⟨.hbm, 7815, rfl⟩
abbrev main_v4444 : Ref sig .tc := ⟨.hbm, 7816, rfl⟩
abbrev main_cst_1379 : Ref sig .tc := ⟨.hbm, 7817, rfl⟩
abbrev main_v4445 : Ref sig .tc := ⟨.hbm, 7818, rfl⟩
abbrev main_v4446 : Ref sig .tc := ⟨.hbm, 7819, rfl⟩
abbrev main_v4447 : Ref sig .tc := ⟨.hbm, 7820, rfl⟩
abbrev main_cst_1380 : Ref sig .tc := ⟨.hbm, 7821, rfl⟩
abbrev main_v4448 : Ref sig .tc := ⟨.hbm, 7822, rfl⟩
abbrev main_v4449 : Ref sig .tc := ⟨.hbm, 7823, rfl⟩
abbrev main_cst_1381 : Ref sig .tc := ⟨.hbm, 7824, rfl⟩
abbrev main_v4450 : Ref sig .tc := ⟨.hbm, 7825, rfl⟩
abbrev main_v4451 : Ref sig .tc := ⟨.hbm, 7826, rfl⟩
abbrev main_v4452 : Ref sig .tc := ⟨.hbm, 7827, rfl⟩
abbrev main_v4453 : Ref sig .tc := ⟨.hbm, 7828, rfl⟩
abbrev main_cst_1382 : Ref sig .tc := ⟨.hbm, 7829, rfl⟩
abbrev main_v4454 : Ref sig .tc := ⟨.hbm, 7830, rfl⟩
abbrev main_v4455 : Ref sig .tc := ⟨.hbm, 7831, rfl⟩
abbrev main_v4456 : Ref sig .tc := ⟨.hbm, 7832, rfl⟩
abbrev main_v4457 : Ref sig .tc := ⟨.hbm, 7833, rfl⟩
abbrev main_v4458 : Ref sig .tc := ⟨.hbm, 7834, rfl⟩
abbrev main_v4459 : Ref sig .tc := ⟨.hbm, 7835, rfl⟩
abbrev main_v4460 : Ref sig .tc := ⟨.hbm, 7836, rfl⟩
abbrev main_v4461 : Ref sig .tc := ⟨.hbm, 7837, rfl⟩
abbrev main_v4462 : Ref sig .tc := ⟨.hbm, 7838, rfl⟩
abbrev main_v4463 : Ref sig .tc := ⟨.hbm, 7839, rfl⟩
abbrev main_v4464 : Ref sig .tc := ⟨.hbm, 7840, rfl⟩
abbrev main_cst_1383 : Ref sig .tc := ⟨.hbm, 7841, rfl⟩
abbrev main_v4465 : Ref sig .tc := ⟨.hbm, 7842, rfl⟩
abbrev main_v4466 : Ref sig .tc := ⟨.hbm, 7843, rfl⟩
abbrev main_cst_1384 : Ref sig .tc := ⟨.hbm, 7844, rfl⟩
abbrev main_v4467 : Ref sig .tc := ⟨.hbm, 7845, rfl⟩
abbrev main_v4468 : Ref sig .tc := ⟨.hbm, 7846, rfl⟩
abbrev main_v4469 : Ref sig .tc := ⟨.hbm, 7847, rfl⟩
abbrev main_v4470 : Ref sig .tc := ⟨.hbm, 7848, rfl⟩
abbrev main_v4471 : Ref sig .tc := ⟨.hbm, 7849, rfl⟩
abbrev main_v4472 : Ref sig .tc := ⟨.hbm, 7850, rfl⟩
abbrev main_cst_1385 : Ref sig .tc := ⟨.hbm, 7851, rfl⟩
abbrev main_cst_1386 : Ref sig .tc := ⟨.hbm, 7852, rfl⟩
abbrev main_call398_v0 : Ref sig .tc := ⟨.hbm, 7853, rfl⟩
abbrev main_call398_v1 : Ref sig .tc := ⟨.hbm, 7854, rfl⟩
abbrev main_call398_v2 : Ref sig .tc := ⟨.hbm, 7855, rfl⟩
abbrev main_call398_v3 : Ref sig .tc := ⟨.hbm, 7856, rfl⟩
abbrev main_call398_v4 : Ref sig .tc := ⟨.hbm, 7857, rfl⟩
abbrev main_v4473 : Ref sig .tc := ⟨.hbm, 7858, rfl⟩
abbrev main_cst_1387 : Ref sig .tc := ⟨.hbm, 7859, rfl⟩
abbrev main_cst_1388 : Ref sig .tc := ⟨.hbm, 7860, rfl⟩
abbrev main_call399_v0 : Ref sig .tc := ⟨.hbm, 7861, rfl⟩
abbrev main_call399_v1 : Ref sig .tc := ⟨.hbm, 7862, rfl⟩
abbrev main_call399_v2 : Ref sig .tc := ⟨.hbm, 7863, rfl⟩
abbrev main_call399_v3 : Ref sig .tc := ⟨.hbm, 7864, rfl⟩
abbrev main_call399_v4 : Ref sig .tc := ⟨.hbm, 7865, rfl⟩
abbrev main_v4474 : Ref sig .tc := ⟨.hbm, 7866, rfl⟩
abbrev main_v4475 : Ref sig .tc := ⟨.hbm, 7867, rfl⟩
abbrev main_v4476 : Ref sig .tc := ⟨.hbm, 7868, rfl⟩
abbrev main_v4477 : Ref sig .tc := ⟨.hbm, 7869, rfl⟩
abbrev main_v4478 : Ref sig .tc := ⟨.hbm, 7870, rfl⟩
abbrev main_v4479 : Ref sig .tc := ⟨.hbm, 7871, rfl⟩
abbrev main_v4480 : Ref sig .tc := ⟨.hbm, 7872, rfl⟩
abbrev main_v4481 : Ref sig .tc := ⟨.hbm, 7873, rfl⟩
abbrev main_v4482 : Ref sig .tc := ⟨.hbm, 7874, rfl⟩
abbrev main_v4483 : Ref sig .tc := ⟨.hbm, 7875, rfl⟩
abbrev main_cst_1389 : Ref sig .tc := ⟨.hbm, 7876, rfl⟩
abbrev main_cst_1390 : Ref sig .tc := ⟨.hbm, 7877, rfl⟩
abbrev main_call400_v0 : Ref sig .tc := ⟨.hbm, 7878, rfl⟩
abbrev main_call400_v1 : Ref sig .tc := ⟨.hbm, 7879, rfl⟩
abbrev main_call400_v2 : Ref sig .tc := ⟨.hbm, 7880, rfl⟩
abbrev main_call400_v3 : Ref sig .tc := ⟨.hbm, 7881, rfl⟩
abbrev main_call400_v4 : Ref sig .tc := ⟨.hbm, 7882, rfl⟩
abbrev main_v4484 : Ref sig .tc := ⟨.hbm, 7883, rfl⟩
abbrev main_cst_1391 : Ref sig .tc := ⟨.hbm, 7884, rfl⟩
abbrev main_cst_1392 : Ref sig .tc := ⟨.hbm, 7885, rfl⟩
abbrev main_call401_v0 : Ref sig .tc := ⟨.hbm, 7886, rfl⟩
abbrev main_call401_v1 : Ref sig .tc := ⟨.hbm, 7887, rfl⟩
abbrev main_call401_v2 : Ref sig .tc := ⟨.hbm, 7888, rfl⟩
abbrev main_call401_v3 : Ref sig .tc := ⟨.hbm, 7889, rfl⟩
abbrev main_call401_v4 : Ref sig .tc := ⟨.hbm, 7890, rfl⟩
abbrev main_v4485 : Ref sig .tc := ⟨.hbm, 7891, rfl⟩
abbrev main_v4486 : Ref sig .tc := ⟨.hbm, 7892, rfl⟩
abbrev main_v4487 : Ref sig .tc := ⟨.hbm, 7893, rfl⟩
abbrev main_v4488 : Ref sig .tc := ⟨.hbm, 7894, rfl⟩
abbrev main_v4489 : Ref sig .tc := ⟨.hbm, 7895, rfl⟩
abbrev main_v4490 : Ref sig .tc := ⟨.hbm, 7896, rfl⟩
abbrev main_v4491 : Ref sig .tc := ⟨.hbm, 7897, rfl⟩
abbrev main_v4492 : Ref sig .tc := ⟨.hbm, 7898, rfl⟩
abbrev main_cst_1393 : Ref sig .tc := ⟨.hbm, 7899, rfl⟩
abbrev main_v4493 : Ref sig .tc := ⟨.hbm, 7900, rfl⟩
abbrev main_v4494 : Ref sig .tc := ⟨.hbm, 7901, rfl⟩
abbrev main_v4495 : Ref sig .tc := ⟨.hbm, 7902, rfl⟩
abbrev main_cst_1394 : Ref sig .tc := ⟨.hbm, 7903, rfl⟩
abbrev main_v4496 : Ref sig .tc := ⟨.hbm, 7904, rfl⟩
abbrev main_v4497 : Ref sig .tc := ⟨.hbm, 7905, rfl⟩
abbrev main_cst_1395 : Ref sig .tc := ⟨.hbm, 7906, rfl⟩
abbrev main_v4498 : Ref sig .tc := ⟨.hbm, 7907, rfl⟩
abbrev main_v4499 : Ref sig .tc := ⟨.hbm, 7908, rfl⟩
abbrev main_v4500 : Ref sig .tc := ⟨.hbm, 7909, rfl⟩
abbrev main_v4501 : Ref sig .tc := ⟨.hbm, 7910, rfl⟩
abbrev main_cst_1396 : Ref sig .tc := ⟨.hbm, 7911, rfl⟩
abbrev main_v4502 : Ref sig .tc := ⟨.hbm, 7912, rfl⟩
abbrev main_v4503 : Ref sig .tc := ⟨.hbm, 7913, rfl⟩
abbrev main_v4504 : Ref sig .tc := ⟨.hbm, 7914, rfl⟩
abbrev main_v4505 : Ref sig .tc := ⟨.hbm, 7915, rfl⟩
abbrev main_v4506 : Ref sig .tc := ⟨.hbm, 7916, rfl⟩
abbrev main_v4507 : Ref sig .tc := ⟨.hbm, 7917, rfl⟩
abbrev main_v4508 : Ref sig .tc := ⟨.hbm, 7918, rfl⟩
abbrev main_cst_1397 : Ref sig .tc := ⟨.hbm, 7919, rfl⟩
abbrev main_v4509 : Ref sig .tc := ⟨.hbm, 7920, rfl⟩
abbrev main_v4510 : Ref sig .tc := ⟨.hbm, 7921, rfl⟩
abbrev main_cst_1398 : Ref sig .tc := ⟨.hbm, 7922, rfl⟩
abbrev main_v4511 : Ref sig .tc := ⟨.hbm, 7923, rfl⟩
abbrev main_v4512 : Ref sig .tc := ⟨.hbm, 7924, rfl⟩
abbrev main_v4513 : Ref sig .tc := ⟨.hbm, 7925, rfl⟩
abbrev main_v4514 : Ref sig .tc := ⟨.hbm, 7926, rfl⟩
abbrev main_v4515 : Ref sig .tc := ⟨.hbm, 7927, rfl⟩
abbrev main_v4516 : Ref sig .tc := ⟨.hbm, 7928, rfl⟩
abbrev main_cst_1399 : Ref sig .tc := ⟨.hbm, 7929, rfl⟩
abbrev main_cst_1400 : Ref sig .tc := ⟨.hbm, 7930, rfl⟩
abbrev main_call402_v0 : Ref sig .tc := ⟨.hbm, 7931, rfl⟩
abbrev main_call402_v1 : Ref sig .tc := ⟨.hbm, 7932, rfl⟩
abbrev main_call402_v2 : Ref sig .tc := ⟨.hbm, 7933, rfl⟩
abbrev main_call402_v3 : Ref sig .tc := ⟨.hbm, 7934, rfl⟩
abbrev main_call402_v4 : Ref sig .tc := ⟨.hbm, 7935, rfl⟩
abbrev main_v4517 : Ref sig .tc := ⟨.hbm, 7936, rfl⟩
abbrev main_cst_1401 : Ref sig .tc := ⟨.hbm, 7937, rfl⟩
abbrev main_cst_1402 : Ref sig .tc := ⟨.hbm, 7938, rfl⟩
abbrev main_call403_v0 : Ref sig .tc := ⟨.hbm, 7939, rfl⟩
abbrev main_call403_v1 : Ref sig .tc := ⟨.hbm, 7940, rfl⟩
abbrev main_call403_v2 : Ref sig .tc := ⟨.hbm, 7941, rfl⟩
abbrev main_call403_v3 : Ref sig .tc := ⟨.hbm, 7942, rfl⟩
abbrev main_call403_v4 : Ref sig .tc := ⟨.hbm, 7943, rfl⟩
abbrev main_v4518 : Ref sig .tc := ⟨.hbm, 7944, rfl⟩
abbrev main_v4519 : Ref sig .tc := ⟨.hbm, 7945, rfl⟩
abbrev main_v4520 : Ref sig .tc := ⟨.hbm, 7946, rfl⟩
abbrev main_v4521 : Ref sig .tc := ⟨.hbm, 7947, rfl⟩
abbrev main_v4522 : Ref sig .tc := ⟨.hbm, 7948, rfl⟩
abbrev main_v4523 : Ref sig .tc := ⟨.hbm, 7949, rfl⟩
abbrev main_v4524 : Ref sig .tc := ⟨.hbm, 7950, rfl⟩
abbrev main_v4525 : Ref sig .tc := ⟨.hbm, 7951, rfl⟩
abbrev main_cst_1403 : Ref sig .tc := ⟨.hbm, 7952, rfl⟩
abbrev main_v4526 : Ref sig .tc := ⟨.hbm, 7953, rfl⟩
abbrev main_v4527 : Ref sig .tc := ⟨.hbm, 7954, rfl⟩
abbrev main_v4528 : Ref sig .tc := ⟨.hbm, 7955, rfl⟩
abbrev main_cst_1404 : Ref sig .tc := ⟨.hbm, 7956, rfl⟩
abbrev main_v4529 : Ref sig .tc := ⟨.hbm, 7957, rfl⟩
abbrev main_v4530 : Ref sig .tc := ⟨.hbm, 7958, rfl⟩
abbrev main_cst_1405 : Ref sig .tc := ⟨.hbm, 7959, rfl⟩
abbrev main_v4531 : Ref sig .tc := ⟨.hbm, 7960, rfl⟩
abbrev main_v4532 : Ref sig .tc := ⟨.hbm, 7961, rfl⟩
abbrev main_v4533 : Ref sig .tc := ⟨.hbm, 7962, rfl⟩
abbrev main_v4534 : Ref sig .tc := ⟨.hbm, 7963, rfl⟩
abbrev main_cst_1406 : Ref sig .tc := ⟨.hbm, 7964, rfl⟩
abbrev main_v4535 : Ref sig .tc := ⟨.hbm, 7965, rfl⟩
abbrev main_v4536 : Ref sig .tc := ⟨.hbm, 7966, rfl⟩
abbrev main_v4537 : Ref sig .tc := ⟨.hbm, 7967, rfl⟩
abbrev main_v4538 : Ref sig .tc := ⟨.hbm, 7968, rfl⟩
abbrev main_v4539 : Ref sig .tc := ⟨.hbm, 7969, rfl⟩
abbrev main_v4540 : Ref sig .tc := ⟨.hbm, 7970, rfl⟩
abbrev main_v4541 : Ref sig .tc := ⟨.hbm, 7971, rfl⟩
abbrev main_v4542 : Ref sig .tc := ⟨.hbm, 7972, rfl⟩
abbrev main_v4543 : Ref sig .tc := ⟨.hbm, 7973, rfl⟩
abbrev main_v4544 : Ref sig .tc := ⟨.hbm, 7974, rfl⟩
abbrev main_v4545 : Ref sig .tc := ⟨.hbm, 7975, rfl⟩
abbrev main_v4546 : Ref sig .tc := ⟨.hbm, 7976, rfl⟩
abbrev main_v4547 : Ref sig .tc := ⟨.hbm, 7977, rfl⟩
abbrev main_v4548 : Ref sig .tc := ⟨.hbm, 7978, rfl⟩
abbrev main_v4549 : Ref sig .tc := ⟨.hbm, 7979, rfl⟩
abbrev main_cst_1407 : Ref sig .tc := ⟨.hbm, 7980, rfl⟩
abbrev main_v4550 : Ref sig .tc := ⟨.hbm, 7981, rfl⟩
abbrev main_v4551 : Ref sig .tc := ⟨.hbm, 7982, rfl⟩
abbrev main_cst_1408 : Ref sig .tc := ⟨.hbm, 7983, rfl⟩
abbrev main_v4552 : Ref sig .tc := ⟨.hbm, 7984, rfl⟩
abbrev main_v4553 : Ref sig .tc := ⟨.hbm, 7985, rfl⟩
abbrev main_v4554 : Ref sig .tc := ⟨.hbm, 7986, rfl⟩
abbrev main_v4555 : Ref sig .tc := ⟨.hbm, 7987, rfl⟩
abbrev main_v4556 : Ref sig .tc := ⟨.hbm, 7988, rfl⟩
abbrev main_v4557 : Ref sig .tc := ⟨.hbm, 7989, rfl⟩
abbrev main_cst_1409 : Ref sig .tc := ⟨.hbm, 7990, rfl⟩
abbrev main_cst_1410 : Ref sig .tc := ⟨.hbm, 7991, rfl⟩
abbrev main_call404_v0 : Ref sig .tc := ⟨.hbm, 7992, rfl⟩
abbrev main_call404_v1 : Ref sig .tc := ⟨.hbm, 7993, rfl⟩
abbrev main_call404_v2 : Ref sig .tc := ⟨.hbm, 7994, rfl⟩
abbrev main_call404_v3 : Ref sig .tc := ⟨.hbm, 7995, rfl⟩
abbrev main_call404_v4 : Ref sig .tc := ⟨.hbm, 7996, rfl⟩
abbrev main_v4558 : Ref sig .tc := ⟨.hbm, 7997, rfl⟩
abbrev main_cst_1411 : Ref sig .tc := ⟨.hbm, 7998, rfl⟩
abbrev main_cst_1412 : Ref sig .tc := ⟨.hbm, 7999, rfl⟩
abbrev main_call405_v0 : Ref sig .tc := ⟨.hbm, 8000, rfl⟩
abbrev main_call405_v1 : Ref sig .tc := ⟨.hbm, 8001, rfl⟩
abbrev main_call405_v2 : Ref sig .tc := ⟨.hbm, 8002, rfl⟩
abbrev main_call405_v3 : Ref sig .tc := ⟨.hbm, 8003, rfl⟩
abbrev main_call405_v4 : Ref sig .tc := ⟨.hbm, 8004, rfl⟩
abbrev main_v4559 : Ref sig .tc := ⟨.hbm, 8005, rfl⟩
abbrev main_v4560 : Ref sig .tc := ⟨.hbm, 8006, rfl⟩
abbrev main_v4561 : Ref sig .tc := ⟨.hbm, 8007, rfl⟩
abbrev main_v4562 : Ref sig .tc := ⟨.hbm, 8008, rfl⟩
abbrev main_v4563 : Ref sig .tc := ⟨.hbm, 8009, rfl⟩
abbrev main_v4564 : Ref sig .tc := ⟨.hbm, 8010, rfl⟩
abbrev main_v4565 : Ref sig .tc := ⟨.hbm, 8011, rfl⟩
abbrev main_v4566 : Ref sig .tc := ⟨.hbm, 8012, rfl⟩
abbrev main_v4567 : Ref sig .tc := ⟨.hbm, 8013, rfl⟩
abbrev main_v4568 : Ref sig .tc := ⟨.hbm, 8014, rfl⟩
abbrev main_cst_1413 : Ref sig .tc := ⟨.hbm, 8015, rfl⟩
abbrev main_cst_1414 : Ref sig .tc := ⟨.hbm, 8016, rfl⟩
abbrev main_call406_v0 : Ref sig .tc := ⟨.hbm, 8017, rfl⟩
abbrev main_call406_v1 : Ref sig .tc := ⟨.hbm, 8018, rfl⟩
abbrev main_call406_v2 : Ref sig .tc := ⟨.hbm, 8019, rfl⟩
abbrev main_call406_v3 : Ref sig .tc := ⟨.hbm, 8020, rfl⟩
abbrev main_call406_v4 : Ref sig .tc := ⟨.hbm, 8021, rfl⟩
abbrev main_v4569 : Ref sig .tc := ⟨.hbm, 8022, rfl⟩
abbrev main_cst_1415 : Ref sig .tc := ⟨.hbm, 8023, rfl⟩
abbrev main_cst_1416 : Ref sig .tc := ⟨.hbm, 8024, rfl⟩
abbrev main_call407_v0 : Ref sig .tc := ⟨.hbm, 8025, rfl⟩
abbrev main_call407_v1 : Ref sig .tc := ⟨.hbm, 8026, rfl⟩
abbrev main_call407_v2 : Ref sig .tc := ⟨.hbm, 8027, rfl⟩
abbrev main_call407_v3 : Ref sig .tc := ⟨.hbm, 8028, rfl⟩
abbrev main_call407_v4 : Ref sig .tc := ⟨.hbm, 8029, rfl⟩
abbrev main_v4570 : Ref sig .tc := ⟨.hbm, 8030, rfl⟩
abbrev main_v4571 : Ref sig .tc := ⟨.hbm, 8031, rfl⟩
abbrev main_v4572 : Ref sig .tc := ⟨.hbm, 8032, rfl⟩
abbrev main_v4573 : Ref sig .tc := ⟨.hbm, 8033, rfl⟩
abbrev main_v4574 : Ref sig .tc := ⟨.hbm, 8034, rfl⟩
abbrev main_v4575 : Ref sig .tc := ⟨.hbm, 8035, rfl⟩
abbrev main_v4576 : Ref sig .tc := ⟨.hbm, 8036, rfl⟩
abbrev main_v4577 : Ref sig .tc := ⟨.hbm, 8037, rfl⟩
abbrev main_v4578 : Ref sig .tc := ⟨.hbm, 8038, rfl⟩
abbrev main_v4579 : Ref sig .tc := ⟨.hbm, 8039, rfl⟩
abbrev main_cst_1417 : Ref sig .tc := ⟨.hbm, 8040, rfl⟩
abbrev main_cst_1418 : Ref sig .tc := ⟨.hbm, 8041, rfl⟩
abbrev main_call408_v0 : Ref sig .tc := ⟨.hbm, 8042, rfl⟩
abbrev main_call408_v1 : Ref sig .tc := ⟨.hbm, 8043, rfl⟩
abbrev main_call408_v2 : Ref sig .tc := ⟨.hbm, 8044, rfl⟩
abbrev main_call408_v3 : Ref sig .tc := ⟨.hbm, 8045, rfl⟩
abbrev main_call408_v4 : Ref sig .tc := ⟨.hbm, 8046, rfl⟩
abbrev main_v4580 : Ref sig .tc := ⟨.hbm, 8047, rfl⟩
abbrev main_cst_1419 : Ref sig .tc := ⟨.hbm, 8048, rfl⟩
abbrev main_cst_1420 : Ref sig .tc := ⟨.hbm, 8049, rfl⟩
abbrev main_call409_v0 : Ref sig .tc := ⟨.hbm, 8050, rfl⟩
abbrev main_call409_v1 : Ref sig .tc := ⟨.hbm, 8051, rfl⟩
abbrev main_call409_v2 : Ref sig .tc := ⟨.hbm, 8052, rfl⟩
abbrev main_call409_v3 : Ref sig .tc := ⟨.hbm, 8053, rfl⟩
abbrev main_call409_v4 : Ref sig .tc := ⟨.hbm, 8054, rfl⟩
abbrev main_v4581 : Ref sig .tc := ⟨.hbm, 8055, rfl⟩
abbrev main_v4582 : Ref sig .tc := ⟨.hbm, 8056, rfl⟩
abbrev main_v4583 : Ref sig .tc := ⟨.hbm, 8057, rfl⟩
abbrev main_v4584 : Ref sig .tc := ⟨.hbm, 8058, rfl⟩
abbrev main_v4585 : Ref sig .tc := ⟨.hbm, 8059, rfl⟩
abbrev main_v4586 : Ref sig .tc := ⟨.hbm, 8060, rfl⟩
abbrev main_v4587 : Ref sig .tc := ⟨.hbm, 8061, rfl⟩
abbrev main_v4588 : Ref sig .tc := ⟨.hbm, 8062, rfl⟩
abbrev main_cst_1421 : Ref sig .tc := ⟨.hbm, 8063, rfl⟩
abbrev main_v4589 : Ref sig .tc := ⟨.hbm, 8064, rfl⟩
abbrev main_v4590 : Ref sig .tc := ⟨.hbm, 8065, rfl⟩
abbrev main_v4591 : Ref sig .tc := ⟨.hbm, 8066, rfl⟩
abbrev main_cst_1422 : Ref sig .tc := ⟨.hbm, 8067, rfl⟩
abbrev main_v4592 : Ref sig .tc := ⟨.hbm, 8068, rfl⟩
abbrev main_v4593 : Ref sig .tc := ⟨.hbm, 8069, rfl⟩
abbrev main_cst_1423 : Ref sig .tc := ⟨.hbm, 8070, rfl⟩
abbrev main_v4594 : Ref sig .tc := ⟨.hbm, 8071, rfl⟩
abbrev main_v4595 : Ref sig .tc := ⟨.hbm, 8072, rfl⟩
abbrev main_v4596 : Ref sig .tc := ⟨.hbm, 8073, rfl⟩
abbrev main_v4597 : Ref sig .tc := ⟨.hbm, 8074, rfl⟩
abbrev main_cst_1424 : Ref sig .tc := ⟨.hbm, 8075, rfl⟩
abbrev main_v4598 : Ref sig .tc := ⟨.hbm, 8076, rfl⟩
abbrev main_v4599 : Ref sig .tc := ⟨.hbm, 8077, rfl⟩
abbrev main_v4600 : Ref sig .tc := ⟨.hbm, 8078, rfl⟩
abbrev main_v4601 : Ref sig .tc := ⟨.hbm, 8079, rfl⟩
abbrev main_v4602 : Ref sig .tc := ⟨.hbm, 8080, rfl⟩
abbrev main_v4603 : Ref sig .tc := ⟨.hbm, 8081, rfl⟩
abbrev main_v4604 : Ref sig .tc := ⟨.hbm, 8082, rfl⟩
abbrev main_cst_1425 : Ref sig .tc := ⟨.hbm, 8083, rfl⟩
abbrev main_v4605 : Ref sig .tc := ⟨.hbm, 8084, rfl⟩
abbrev main_v4606 : Ref sig .tc := ⟨.hbm, 8085, rfl⟩
abbrev main_cst_1426 : Ref sig .tc := ⟨.hbm, 8086, rfl⟩
abbrev main_v4607 : Ref sig .tc := ⟨.hbm, 8087, rfl⟩
abbrev main_v4608 : Ref sig .tc := ⟨.hbm, 8088, rfl⟩
abbrev main_v4609 : Ref sig .tc := ⟨.hbm, 8089, rfl⟩
abbrev main_v4610 : Ref sig .tc := ⟨.hbm, 8090, rfl⟩
abbrev main_v4611 : Ref sig .tc := ⟨.hbm, 8091, rfl⟩
abbrev main_v4612 : Ref sig .tc := ⟨.hbm, 8092, rfl⟩
abbrev main_cst_1427 : Ref sig .tc := ⟨.hbm, 8093, rfl⟩
abbrev main_cst_1428 : Ref sig .tc := ⟨.hbm, 8094, rfl⟩
abbrev main_call410_v0 : Ref sig .tc := ⟨.hbm, 8095, rfl⟩
abbrev main_call410_v1 : Ref sig .tc := ⟨.hbm, 8096, rfl⟩
abbrev main_call410_v2 : Ref sig .tc := ⟨.hbm, 8097, rfl⟩
abbrev main_call410_v3 : Ref sig .tc := ⟨.hbm, 8098, rfl⟩
abbrev main_call410_v4 : Ref sig .tc := ⟨.hbm, 8099, rfl⟩
abbrev main_v4613 : Ref sig .tc := ⟨.hbm, 8100, rfl⟩
abbrev main_cst_1429 : Ref sig .tc := ⟨.hbm, 8101, rfl⟩
abbrev main_cst_1430 : Ref sig .tc := ⟨.hbm, 8102, rfl⟩
abbrev main_call411_v0 : Ref sig .tc := ⟨.hbm, 8103, rfl⟩
abbrev main_call411_v1 : Ref sig .tc := ⟨.hbm, 8104, rfl⟩
abbrev main_call411_v2 : Ref sig .tc := ⟨.hbm, 8105, rfl⟩
abbrev main_call411_v3 : Ref sig .tc := ⟨.hbm, 8106, rfl⟩
abbrev main_call411_v4 : Ref sig .tc := ⟨.hbm, 8107, rfl⟩
abbrev main_v4614 : Ref sig .tc := ⟨.hbm, 8108, rfl⟩
abbrev main_v4615 : Ref sig .tc := ⟨.hbm, 8109, rfl⟩
abbrev main_v4616 : Ref sig .tc := ⟨.hbm, 8110, rfl⟩
abbrev main_v4617 : Ref sig .tc := ⟨.hbm, 8111, rfl⟩
abbrev main_v4618 : Ref sig .tc := ⟨.hbm, 8112, rfl⟩
abbrev main_v4619 : Ref sig .tc := ⟨.hbm, 8113, rfl⟩
abbrev main_v4620 : Ref sig .tc := ⟨.hbm, 8114, rfl⟩
abbrev main_v4621 : Ref sig .tc := ⟨.hbm, 8115, rfl⟩
abbrev main_cst_1431 : Ref sig .tc := ⟨.hbm, 8116, rfl⟩
abbrev main_v4622 : Ref sig .tc := ⟨.hbm, 8117, rfl⟩
abbrev main_v4623 : Ref sig .tc := ⟨.hbm, 8118, rfl⟩
abbrev main_v4624 : Ref sig .tc := ⟨.hbm, 8119, rfl⟩
abbrev main_cst_1432 : Ref sig .tc := ⟨.hbm, 8120, rfl⟩
abbrev main_v4625 : Ref sig .tc := ⟨.hbm, 8121, rfl⟩
abbrev main_v4626 : Ref sig .tc := ⟨.hbm, 8122, rfl⟩
abbrev main_cst_1433 : Ref sig .tc := ⟨.hbm, 8123, rfl⟩
abbrev main_v4627 : Ref sig .tc := ⟨.hbm, 8124, rfl⟩
abbrev main_v4628 : Ref sig .tc := ⟨.hbm, 8125, rfl⟩
abbrev main_v4629 : Ref sig .tc := ⟨.hbm, 8126, rfl⟩
abbrev main_v4630 : Ref sig .tc := ⟨.hbm, 8127, rfl⟩
abbrev main_cst_1434 : Ref sig .tc := ⟨.hbm, 8128, rfl⟩
abbrev main_v4631 : Ref sig .tc := ⟨.hbm, 8129, rfl⟩
abbrev main_v4632 : Ref sig .tc := ⟨.hbm, 8130, rfl⟩
abbrev main_v4633 : Ref sig .tc := ⟨.hbm, 8131, rfl⟩
abbrev main_v4634 : Ref sig .tc := ⟨.hbm, 8132, rfl⟩
abbrev main_v4635 : Ref sig .tc := ⟨.hbm, 8133, rfl⟩
abbrev main_v4636 : Ref sig .tc := ⟨.hbm, 8134, rfl⟩
abbrev main_v4637 : Ref sig .tc := ⟨.hbm, 8135, rfl⟩
abbrev main_v4638 : Ref sig .tc := ⟨.hbm, 8136, rfl⟩
abbrev main_v4639 : Ref sig .tc := ⟨.hbm, 8137, rfl⟩
abbrev main_v4640 : Ref sig .tc := ⟨.hbm, 8138, rfl⟩
abbrev main_v4641 : Ref sig .tc := ⟨.hbm, 8139, rfl⟩
abbrev main_cst_1435 : Ref sig .tc := ⟨.hbm, 8140, rfl⟩
abbrev main_v4642 : Ref sig .tc := ⟨.hbm, 8141, rfl⟩
abbrev main_v4643 : Ref sig .tc := ⟨.hbm, 8142, rfl⟩
abbrev main_cst_1436 : Ref sig .tc := ⟨.hbm, 8143, rfl⟩
abbrev main_v4644 : Ref sig .tc := ⟨.hbm, 8144, rfl⟩
abbrev main_v4645 : Ref sig .tc := ⟨.hbm, 8145, rfl⟩
abbrev main_v4646 : Ref sig .tc := ⟨.hbm, 8146, rfl⟩
abbrev main_v4647 : Ref sig .tc := ⟨.hbm, 8147, rfl⟩
abbrev main_v4648 : Ref sig .tc := ⟨.hbm, 8148, rfl⟩
abbrev main_v4649 : Ref sig .tc := ⟨.hbm, 8149, rfl⟩
abbrev main_cst_1437 : Ref sig .tc := ⟨.hbm, 8150, rfl⟩
abbrev main_cst_1438 : Ref sig .tc := ⟨.hbm, 8151, rfl⟩
abbrev main_call412_v0 : Ref sig .tc := ⟨.hbm, 8152, rfl⟩
abbrev main_call412_v1 : Ref sig .tc := ⟨.hbm, 8153, rfl⟩
abbrev main_call412_v2 : Ref sig .tc := ⟨.hbm, 8154, rfl⟩
abbrev main_call412_v3 : Ref sig .tc := ⟨.hbm, 8155, rfl⟩
abbrev main_call412_v4 : Ref sig .tc := ⟨.hbm, 8156, rfl⟩
abbrev main_v4650 : Ref sig .tc := ⟨.hbm, 8157, rfl⟩
abbrev main_cst_1439 : Ref sig .tc := ⟨.hbm, 8158, rfl⟩
abbrev main_cst_1440 : Ref sig .tc := ⟨.hbm, 8159, rfl⟩
abbrev main_call413_v0 : Ref sig .tc := ⟨.hbm, 8160, rfl⟩
abbrev main_call413_v1 : Ref sig .tc := ⟨.hbm, 8161, rfl⟩
abbrev main_call413_v2 : Ref sig .tc := ⟨.hbm, 8162, rfl⟩
abbrev main_call413_v3 : Ref sig .tc := ⟨.hbm, 8163, rfl⟩
abbrev main_call413_v4 : Ref sig .tc := ⟨.hbm, 8164, rfl⟩
abbrev main_v4651 : Ref sig .tc := ⟨.hbm, 8165, rfl⟩
abbrev main_v4652 : Ref sig .tc := ⟨.hbm, 8166, rfl⟩
abbrev main_v4653 : Ref sig .tc := ⟨.hbm, 8167, rfl⟩
abbrev main_v4654 : Ref sig .tc := ⟨.hbm, 8168, rfl⟩
abbrev main_v4655 : Ref sig .tc := ⟨.hbm, 8169, rfl⟩
abbrev main_v4656 : Ref sig .tc := ⟨.hbm, 8170, rfl⟩
abbrev main_v4657 : Ref sig .tc := ⟨.hbm, 8171, rfl⟩
abbrev main_v4658 : Ref sig .tc := ⟨.hbm, 8172, rfl⟩
abbrev main_v4659 : Ref sig .tc := ⟨.hbm, 8173, rfl⟩
abbrev main_v4660 : Ref sig .tc := ⟨.hbm, 8174, rfl⟩
abbrev main_cst_1441 : Ref sig .tc := ⟨.hbm, 8175, rfl⟩
abbrev main_cst_1442 : Ref sig .tc := ⟨.hbm, 8176, rfl⟩
abbrev main_call414_v0 : Ref sig .tc := ⟨.hbm, 8177, rfl⟩
abbrev main_call414_v1 : Ref sig .tc := ⟨.hbm, 8178, rfl⟩
abbrev main_call414_v2 : Ref sig .tc := ⟨.hbm, 8179, rfl⟩
abbrev main_call414_v3 : Ref sig .tc := ⟨.hbm, 8180, rfl⟩
abbrev main_call414_v4 : Ref sig .tc := ⟨.hbm, 8181, rfl⟩
abbrev main_v4661 : Ref sig .tc := ⟨.hbm, 8182, rfl⟩
abbrev main_cst_1443 : Ref sig .tc := ⟨.hbm, 8183, rfl⟩
abbrev main_cst_1444 : Ref sig .tc := ⟨.hbm, 8184, rfl⟩
abbrev main_call415_v0 : Ref sig .tc := ⟨.hbm, 8185, rfl⟩
abbrev main_call415_v1 : Ref sig .tc := ⟨.hbm, 8186, rfl⟩
abbrev main_call415_v2 : Ref sig .tc := ⟨.hbm, 8187, rfl⟩
abbrev main_call415_v3 : Ref sig .tc := ⟨.hbm, 8188, rfl⟩
abbrev main_call415_v4 : Ref sig .tc := ⟨.hbm, 8189, rfl⟩
abbrev main_v4662 : Ref sig .tc := ⟨.hbm, 8190, rfl⟩
abbrev main_v4663 : Ref sig .tc := ⟨.hbm, 8191, rfl⟩
abbrev main_v4664 : Ref sig .tc := ⟨.hbm, 8192, rfl⟩
abbrev main_v4665 : Ref sig .tc := ⟨.hbm, 8193, rfl⟩
abbrev main_v4666 : Ref sig .tc := ⟨.hbm, 8194, rfl⟩
abbrev main_v4667 : Ref sig .tc := ⟨.hbm, 8195, rfl⟩
abbrev main_v4668 : Ref sig .tc := ⟨.hbm, 8196, rfl⟩
abbrev main_v4669 : Ref sig .tc := ⟨.hbm, 8197, rfl⟩
abbrev main_cst_1445 : Ref sig .tc := ⟨.hbm, 8198, rfl⟩
abbrev main_v4670 : Ref sig .tc := ⟨.hbm, 8199, rfl⟩
abbrev main_v4671 : Ref sig .tc := ⟨.hbm, 8200, rfl⟩
abbrev main_v4672 : Ref sig .tc := ⟨.hbm, 8201, rfl⟩
abbrev main_cst_1446 : Ref sig .tc := ⟨.hbm, 8202, rfl⟩
abbrev main_v4673 : Ref sig .tc := ⟨.hbm, 8203, rfl⟩
abbrev main_v4674 : Ref sig .tc := ⟨.hbm, 8204, rfl⟩
abbrev main_cst_1447 : Ref sig .tc := ⟨.hbm, 8205, rfl⟩
abbrev main_v4675 : Ref sig .tc := ⟨.hbm, 8206, rfl⟩
abbrev main_v4676 : Ref sig .tc := ⟨.hbm, 8207, rfl⟩
abbrev main_v4677 : Ref sig .tc := ⟨.hbm, 8208, rfl⟩
abbrev main_v4678 : Ref sig .tc := ⟨.hbm, 8209, rfl⟩
abbrev main_cst_1448 : Ref sig .tc := ⟨.hbm, 8210, rfl⟩
abbrev main_v4679 : Ref sig .tc := ⟨.hbm, 8211, rfl⟩
abbrev main_v4680 : Ref sig .tc := ⟨.hbm, 8212, rfl⟩
abbrev main_v4681 : Ref sig .tc := ⟨.hbm, 8213, rfl⟩
abbrev main_v4682 : Ref sig .tc := ⟨.hbm, 8214, rfl⟩
abbrev main_v4683 : Ref sig .tc := ⟨.hbm, 8215, rfl⟩
abbrev main_v4684 : Ref sig .tc := ⟨.hbm, 8216, rfl⟩
abbrev main_v4685 : Ref sig .tc := ⟨.hbm, 8217, rfl⟩
abbrev main_cst_1449 : Ref sig .tc := ⟨.hbm, 8218, rfl⟩
abbrev main_v4686 : Ref sig .tc := ⟨.hbm, 8219, rfl⟩
abbrev main_v4687 : Ref sig .tc := ⟨.hbm, 8220, rfl⟩
abbrev main_cst_1450 : Ref sig .tc := ⟨.hbm, 8221, rfl⟩
abbrev main_v4688 : Ref sig .tc := ⟨.hbm, 8222, rfl⟩
abbrev main_v4689 : Ref sig .tc := ⟨.hbm, 8223, rfl⟩
abbrev main_v4690 : Ref sig .tc := ⟨.hbm, 8224, rfl⟩
abbrev main_v4691 : Ref sig .tc := ⟨.hbm, 8225, rfl⟩
abbrev main_v4692 : Ref sig .tc := ⟨.hbm, 8226, rfl⟩
abbrev main_v4693 : Ref sig .tc := ⟨.hbm, 8227, rfl⟩
abbrev main_cst_1451 : Ref sig .tc := ⟨.hbm, 8228, rfl⟩
abbrev main_cst_1452 : Ref sig .tc := ⟨.hbm, 8229, rfl⟩
abbrev main_call416_v0 : Ref sig .tc := ⟨.hbm, 8230, rfl⟩
abbrev main_call416_v1 : Ref sig .tc := ⟨.hbm, 8231, rfl⟩
abbrev main_call416_v2 : Ref sig .tc := ⟨.hbm, 8232, rfl⟩
abbrev main_call416_v3 : Ref sig .tc := ⟨.hbm, 8233, rfl⟩
abbrev main_call416_v4 : Ref sig .tc := ⟨.hbm, 8234, rfl⟩
abbrev main_v4694 : Ref sig .tc := ⟨.hbm, 8235, rfl⟩
abbrev main_cst_1453 : Ref sig .tc := ⟨.hbm, 8236, rfl⟩
abbrev main_cst_1454 : Ref sig .tc := ⟨.hbm, 8237, rfl⟩
abbrev main_call417_v0 : Ref sig .tc := ⟨.hbm, 8238, rfl⟩
abbrev main_call417_v1 : Ref sig .tc := ⟨.hbm, 8239, rfl⟩
abbrev main_call417_v2 : Ref sig .tc := ⟨.hbm, 8240, rfl⟩
abbrev main_call417_v3 : Ref sig .tc := ⟨.hbm, 8241, rfl⟩
abbrev main_call417_v4 : Ref sig .tc := ⟨.hbm, 8242, rfl⟩
abbrev main_v4695 : Ref sig .tc := ⟨.hbm, 8243, rfl⟩
abbrev main_v4696 : Ref sig .tc := ⟨.hbm, 8244, rfl⟩
abbrev main_v4697 : Ref sig .tc := ⟨.hbm, 8245, rfl⟩
abbrev main_v4698 : Ref sig .tc := ⟨.hbm, 8246, rfl⟩
abbrev main_v4699 : Ref sig .tc := ⟨.hbm, 8247, rfl⟩
abbrev main_v4700 : Ref sig .tc := ⟨.hbm, 8248, rfl⟩
abbrev main_v4701 : Ref sig .tc := ⟨.hbm, 8249, rfl⟩
abbrev main_v4702 : Ref sig .tc := ⟨.hbm, 8250, rfl⟩
abbrev main_cst_1455 : Ref sig .tc := ⟨.hbm, 8251, rfl⟩
abbrev main_v4703 : Ref sig .tc := ⟨.hbm, 8252, rfl⟩
abbrev main_v4704 : Ref sig .tc := ⟨.hbm, 8253, rfl⟩
abbrev main_v4705 : Ref sig .tc := ⟨.hbm, 8254, rfl⟩
abbrev main_cst_1456 : Ref sig .tc := ⟨.hbm, 8255, rfl⟩
abbrev main_v4706 : Ref sig .tc := ⟨.hbm, 8256, rfl⟩
abbrev main_v4707 : Ref sig .tc := ⟨.hbm, 8257, rfl⟩
abbrev main_cst_1457 : Ref sig .tc := ⟨.hbm, 8258, rfl⟩
abbrev main_v4708 : Ref sig .tc := ⟨.hbm, 8259, rfl⟩
abbrev main_v4709 : Ref sig .tc := ⟨.hbm, 8260, rfl⟩
abbrev main_v4710 : Ref sig .tc := ⟨.hbm, 8261, rfl⟩
abbrev main_v4711 : Ref sig .tc := ⟨.hbm, 8262, rfl⟩
abbrev main_cst_1458 : Ref sig .tc := ⟨.hbm, 8263, rfl⟩
abbrev main_v4712 : Ref sig .tc := ⟨.hbm, 8264, rfl⟩
abbrev main_v4713 : Ref sig .tc := ⟨.hbm, 8265, rfl⟩
abbrev main_v4714 : Ref sig .tc := ⟨.hbm, 8266, rfl⟩
abbrev main_v4715 : Ref sig .tc := ⟨.hbm, 8267, rfl⟩
abbrev main_v4716 : Ref sig .tc := ⟨.hbm, 8268, rfl⟩
abbrev main_v4717 : Ref sig .tc := ⟨.hbm, 8269, rfl⟩
abbrev main_v4718 : Ref sig .tc := ⟨.hbm, 8270, rfl⟩
abbrev main_v4719 : Ref sig .tc := ⟨.hbm, 8271, rfl⟩
abbrev main_v4720 : Ref sig .tc := ⟨.hbm, 8272, rfl⟩
abbrev main_v4721 : Ref sig .tc := ⟨.hbm, 8273, rfl⟩
abbrev main_v4722 : Ref sig .tc := ⟨.hbm, 8274, rfl⟩
abbrev main_v4723 : Ref sig .tc := ⟨.hbm, 8275, rfl⟩
abbrev main_v4724 : Ref sig .tc := ⟨.hbm, 8276, rfl⟩
abbrev main_v4725 : Ref sig .tc := ⟨.hbm, 8277, rfl⟩
abbrev main_v4726 : Ref sig .tc := ⟨.hbm, 8278, rfl⟩
abbrev main_v4727 : Ref sig .tc := ⟨.hbm, 8279, rfl⟩
abbrev main_v4728 : Ref sig .tc := ⟨.hbm, 8280, rfl⟩
abbrev main_v4729 : Ref sig .tc := ⟨.hbm, 8281, rfl⟩
abbrev main_v4730 : Ref sig .tc := ⟨.hbm, 8282, rfl⟩
abbrev main_cst_1459 : Ref sig .tc := ⟨.hbm, 8283, rfl⟩
abbrev main_v4731 : Ref sig .tc := ⟨.hbm, 8284, rfl⟩
abbrev main_v4732 : Ref sig .tc := ⟨.hbm, 8285, rfl⟩
abbrev main_cst_1460 : Ref sig .tc := ⟨.hbm, 8286, rfl⟩
abbrev main_v4733 : Ref sig .tc := ⟨.hbm, 8287, rfl⟩
abbrev main_v4734 : Ref sig .tc := ⟨.hbm, 8288, rfl⟩
abbrev main_v4735 : Ref sig .tc := ⟨.hbm, 8289, rfl⟩
abbrev main_v4736 : Ref sig .tc := ⟨.hbm, 8290, rfl⟩
abbrev main_v4737 : Ref sig .tc := ⟨.hbm, 8291, rfl⟩
abbrev main_v4738 : Ref sig .tc := ⟨.hbm, 8292, rfl⟩
abbrev main_cst_1461 : Ref sig .tc := ⟨.hbm, 8293, rfl⟩
abbrev main_cst_1462 : Ref sig .tc := ⟨.hbm, 8294, rfl⟩
abbrev main_call418_v0 : Ref sig .tc := ⟨.hbm, 8295, rfl⟩
abbrev main_call418_v1 : Ref sig .tc := ⟨.hbm, 8296, rfl⟩
abbrev main_call418_v2 : Ref sig .tc := ⟨.hbm, 8297, rfl⟩
abbrev main_call418_v3 : Ref sig .tc := ⟨.hbm, 8298, rfl⟩
abbrev main_call418_v4 : Ref sig .tc := ⟨.hbm, 8299, rfl⟩
abbrev main_v4739 : Ref sig .tc := ⟨.hbm, 8300, rfl⟩
abbrev main_cst_1463 : Ref sig .tc := ⟨.hbm, 8301, rfl⟩
abbrev main_cst_1464 : Ref sig .tc := ⟨.hbm, 8302, rfl⟩
abbrev main_call419_v0 : Ref sig .tc := ⟨.hbm, 8303, rfl⟩
abbrev main_call419_v1 : Ref sig .tc := ⟨.hbm, 8304, rfl⟩
abbrev main_call419_v2 : Ref sig .tc := ⟨.hbm, 8305, rfl⟩
abbrev main_call419_v3 : Ref sig .tc := ⟨.hbm, 8306, rfl⟩
abbrev main_call419_v4 : Ref sig .tc := ⟨.hbm, 8307, rfl⟩
abbrev main_v4740 : Ref sig .tc := ⟨.hbm, 8308, rfl⟩
abbrev main_v4741 : Ref sig .tc := ⟨.hbm, 8309, rfl⟩
abbrev main_v4742 : Ref sig .tc := ⟨.hbm, 8310, rfl⟩
abbrev main_v4743 : Ref sig .tc := ⟨.hbm, 8311, rfl⟩
abbrev main_v4744 : Ref sig .tc := ⟨.hbm, 8312, rfl⟩
abbrev main_v4745 : Ref sig .tc := ⟨.hbm, 8313, rfl⟩
abbrev main_v4746 : Ref sig .tc := ⟨.hbm, 8314, rfl⟩
abbrev main_v4747 : Ref sig .tc := ⟨.hbm, 8315, rfl⟩
abbrev main_v4748 : Ref sig .tc := ⟨.hbm, 8316, rfl⟩
abbrev main_v4749 : Ref sig .tc := ⟨.hbm, 8317, rfl⟩
abbrev main_cst_1465 : Ref sig .tc := ⟨.hbm, 8318, rfl⟩
abbrev main_cst_1466 : Ref sig .tc := ⟨.hbm, 8319, rfl⟩
abbrev main_call420_v0 : Ref sig .tc := ⟨.hbm, 8320, rfl⟩
abbrev main_call420_v1 : Ref sig .tc := ⟨.hbm, 8321, rfl⟩
abbrev main_call420_v2 : Ref sig .tc := ⟨.hbm, 8322, rfl⟩
abbrev main_call420_v3 : Ref sig .tc := ⟨.hbm, 8323, rfl⟩
abbrev main_call420_v4 : Ref sig .tc := ⟨.hbm, 8324, rfl⟩
abbrev main_v4750 : Ref sig .tc := ⟨.hbm, 8325, rfl⟩
abbrev main_cst_1467 : Ref sig .tc := ⟨.hbm, 8326, rfl⟩
abbrev main_cst_1468 : Ref sig .tc := ⟨.hbm, 8327, rfl⟩
abbrev main_call421_v0 : Ref sig .tc := ⟨.hbm, 8328, rfl⟩
abbrev main_call421_v1 : Ref sig .tc := ⟨.hbm, 8329, rfl⟩
abbrev main_call421_v2 : Ref sig .tc := ⟨.hbm, 8330, rfl⟩
abbrev main_call421_v3 : Ref sig .tc := ⟨.hbm, 8331, rfl⟩
abbrev main_call421_v4 : Ref sig .tc := ⟨.hbm, 8332, rfl⟩
abbrev main_v4751 : Ref sig .tc := ⟨.hbm, 8333, rfl⟩
abbrev main_v4752 : Ref sig .tc := ⟨.hbm, 8334, rfl⟩
abbrev main_v4753 : Ref sig .tc := ⟨.hbm, 8335, rfl⟩
abbrev main_v4754 : Ref sig .tc := ⟨.hbm, 8336, rfl⟩
abbrev main_v4755 : Ref sig .tc := ⟨.hbm, 8337, rfl⟩
abbrev main_v4756 : Ref sig .tc := ⟨.hbm, 8338, rfl⟩
abbrev main_v4757 : Ref sig .tc := ⟨.hbm, 8339, rfl⟩
abbrev main_v4758 : Ref sig .tc := ⟨.hbm, 8340, rfl⟩
abbrev main_v4759 : Ref sig .tc := ⟨.hbm, 8341, rfl⟩
abbrev main_v4760 : Ref sig .tc := ⟨.hbm, 8342, rfl⟩
abbrev main_cst_1469 : Ref sig .tc := ⟨.hbm, 8343, rfl⟩
abbrev main_cst_1470 : Ref sig .tc := ⟨.hbm, 8344, rfl⟩
abbrev main_call422_v0 : Ref sig .tc := ⟨.hbm, 8345, rfl⟩
abbrev main_call422_v1 : Ref sig .tc := ⟨.hbm, 8346, rfl⟩
abbrev main_call422_v2 : Ref sig .tc := ⟨.hbm, 8347, rfl⟩
abbrev main_call422_v3 : Ref sig .tc := ⟨.hbm, 8348, rfl⟩
abbrev main_call422_v4 : Ref sig .tc := ⟨.hbm, 8349, rfl⟩
abbrev main_v4761 : Ref sig .tc := ⟨.hbm, 8350, rfl⟩
abbrev main_cst_1471 : Ref sig .tc := ⟨.hbm, 8351, rfl⟩
abbrev main_cst_1472 : Ref sig .tc := ⟨.hbm, 8352, rfl⟩
abbrev main_call423_v0 : Ref sig .tc := ⟨.hbm, 8353, rfl⟩
abbrev main_call423_v1 : Ref sig .tc := ⟨.hbm, 8354, rfl⟩
abbrev main_call423_v2 : Ref sig .tc := ⟨.hbm, 8355, rfl⟩
abbrev main_call423_v3 : Ref sig .tc := ⟨.hbm, 8356, rfl⟩
abbrev main_call423_v4 : Ref sig .tc := ⟨.hbm, 8357, rfl⟩
abbrev main_v4762 : Ref sig .tc := ⟨.hbm, 8358, rfl⟩
abbrev main_v4763 : Ref sig .tc := ⟨.hbm, 8359, rfl⟩
abbrev main_v4764 : Ref sig .tc := ⟨.hbm, 8360, rfl⟩
abbrev main_v4765 : Ref sig .tc := ⟨.hbm, 8361, rfl⟩
abbrev main_v4766 : Ref sig .tc := ⟨.hbm, 8362, rfl⟩
abbrev main_v4767 : Ref sig .tc := ⟨.hbm, 8363, rfl⟩
abbrev main_v4768 : Ref sig .tc := ⟨.hbm, 8364, rfl⟩
abbrev main_v4769 : Ref sig .tc := ⟨.hbm, 8365, rfl⟩
abbrev main_v4770 : Ref sig .tc := ⟨.hbm, 8366, rfl⟩
abbrev main_v4771 : Ref sig .tc := ⟨.hbm, 8367, rfl⟩
abbrev main_cst_1473 : Ref sig .tc := ⟨.hbm, 8368, rfl⟩
abbrev main_cst_1474 : Ref sig .tc := ⟨.hbm, 8369, rfl⟩
abbrev main_call424_v0 : Ref sig .tc := ⟨.hbm, 8370, rfl⟩
abbrev main_call424_v1 : Ref sig .tc := ⟨.hbm, 8371, rfl⟩
abbrev main_call424_v2 : Ref sig .tc := ⟨.hbm, 8372, rfl⟩
abbrev main_call424_v3 : Ref sig .tc := ⟨.hbm, 8373, rfl⟩
abbrev main_call424_v4 : Ref sig .tc := ⟨.hbm, 8374, rfl⟩
abbrev main_v4772 : Ref sig .tc := ⟨.hbm, 8375, rfl⟩
abbrev main_cst_1475 : Ref sig .tc := ⟨.hbm, 8376, rfl⟩
abbrev main_cst_1476 : Ref sig .tc := ⟨.hbm, 8377, rfl⟩
abbrev main_call425_v0 : Ref sig .tc := ⟨.hbm, 8378, rfl⟩
abbrev main_call425_v1 : Ref sig .tc := ⟨.hbm, 8379, rfl⟩
abbrev main_call425_v2 : Ref sig .tc := ⟨.hbm, 8380, rfl⟩
abbrev main_call425_v3 : Ref sig .tc := ⟨.hbm, 8381, rfl⟩
abbrev main_call425_v4 : Ref sig .tc := ⟨.hbm, 8382, rfl⟩
abbrev main_v4773 : Ref sig .tc := ⟨.hbm, 8383, rfl⟩
abbrev main_v4774 : Ref sig .tc := ⟨.hbm, 8384, rfl⟩
abbrev main_v4775 : Ref sig .tc := ⟨.hbm, 8385, rfl⟩
abbrev main_v4776 : Ref sig .tc := ⟨.hbm, 8386, rfl⟩
abbrev main_v4777 : Ref sig .tc := ⟨.hbm, 8387, rfl⟩
abbrev main_v4778 : Ref sig .tc := ⟨.hbm, 8388, rfl⟩
abbrev main_v4779 : Ref sig .tc := ⟨.hbm, 8389, rfl⟩
abbrev main_v4780 : Ref sig .tc := ⟨.hbm, 8390, rfl⟩
abbrev main_cst_1477 : Ref sig .tc := ⟨.hbm, 8391, rfl⟩
abbrev main_v4781 : Ref sig .tc := ⟨.hbm, 8392, rfl⟩
abbrev main_v4782 : Ref sig .tc := ⟨.hbm, 8393, rfl⟩
abbrev main_v4783 : Ref sig .tc := ⟨.hbm, 8394, rfl⟩
abbrev main_cst_1478 : Ref sig .tc := ⟨.hbm, 8395, rfl⟩
abbrev main_v4784 : Ref sig .tc := ⟨.hbm, 8396, rfl⟩
abbrev main_v4785 : Ref sig .tc := ⟨.hbm, 8397, rfl⟩
abbrev main_cst_1479 : Ref sig .tc := ⟨.hbm, 8398, rfl⟩
abbrev main_v4786 : Ref sig .tc := ⟨.hbm, 8399, rfl⟩
abbrev main_v4787 : Ref sig .tc := ⟨.hbm, 8400, rfl⟩
abbrev main_v4788 : Ref sig .tc := ⟨.hbm, 8401, rfl⟩
abbrev main_v4789 : Ref sig .tc := ⟨.hbm, 8402, rfl⟩
abbrev main_cst_1480 : Ref sig .tc := ⟨.hbm, 8403, rfl⟩
abbrev main_v4790 : Ref sig .tc := ⟨.hbm, 8404, rfl⟩
abbrev main_v4791 : Ref sig .tc := ⟨.hbm, 8405, rfl⟩
abbrev main_v4792 : Ref sig .tc := ⟨.hbm, 8406, rfl⟩
abbrev main_v4793 : Ref sig .tc := ⟨.hbm, 8407, rfl⟩
abbrev main_v4794 : Ref sig .tc := ⟨.hbm, 8408, rfl⟩
abbrev main_v4795 : Ref sig .tc := ⟨.hbm, 8409, rfl⟩
abbrev main_v4796 : Ref sig .tc := ⟨.hbm, 8410, rfl⟩
abbrev main_cst_1481 : Ref sig .tc := ⟨.hbm, 8411, rfl⟩
abbrev main_v4797 : Ref sig .tc := ⟨.hbm, 8412, rfl⟩
abbrev main_v4798 : Ref sig .tc := ⟨.hbm, 8413, rfl⟩
abbrev main_cst_1482 : Ref sig .tc := ⟨.hbm, 8414, rfl⟩
abbrev main_v4799 : Ref sig .tc := ⟨.hbm, 8415, rfl⟩
abbrev main_v4800 : Ref sig .tc := ⟨.hbm, 8416, rfl⟩
abbrev main_v4801 : Ref sig .tc := ⟨.hbm, 8417, rfl⟩
abbrev main_v4802 : Ref sig .tc := ⟨.hbm, 8418, rfl⟩
abbrev main_v4803 : Ref sig .tc := ⟨.hbm, 8419, rfl⟩
abbrev main_v4804 : Ref sig .tc := ⟨.hbm, 8420, rfl⟩
abbrev main_cst_1483 : Ref sig .tc := ⟨.hbm, 8421, rfl⟩
abbrev main_cst_1484 : Ref sig .tc := ⟨.hbm, 8422, rfl⟩
abbrev main_call426_v0 : Ref sig .tc := ⟨.hbm, 8423, rfl⟩
abbrev main_call426_v1 : Ref sig .tc := ⟨.hbm, 8424, rfl⟩
abbrev main_call426_v2 : Ref sig .tc := ⟨.hbm, 8425, rfl⟩
abbrev main_call426_v3 : Ref sig .tc := ⟨.hbm, 8426, rfl⟩
abbrev main_call426_v4 : Ref sig .tc := ⟨.hbm, 8427, rfl⟩
abbrev main_v4805 : Ref sig .tc := ⟨.hbm, 8428, rfl⟩
abbrev main_cst_1485 : Ref sig .tc := ⟨.hbm, 8429, rfl⟩
abbrev main_cst_1486 : Ref sig .tc := ⟨.hbm, 8430, rfl⟩
abbrev main_call427_v0 : Ref sig .tc := ⟨.hbm, 8431, rfl⟩
abbrev main_call427_v1 : Ref sig .tc := ⟨.hbm, 8432, rfl⟩
abbrev main_call427_v2 : Ref sig .tc := ⟨.hbm, 8433, rfl⟩
abbrev main_call427_v3 : Ref sig .tc := ⟨.hbm, 8434, rfl⟩
abbrev main_call427_v4 : Ref sig .tc := ⟨.hbm, 8435, rfl⟩
abbrev main_v4806 : Ref sig .tc := ⟨.hbm, 8436, rfl⟩
abbrev main_v4807 : Ref sig .tc := ⟨.hbm, 8437, rfl⟩
abbrev main_v4808 : Ref sig .tc := ⟨.hbm, 8438, rfl⟩
abbrev main_v4809 : Ref sig .tc := ⟨.hbm, 8439, rfl⟩
abbrev main_v4810 : Ref sig .tc := ⟨.hbm, 8440, rfl⟩
abbrev main_v4811 : Ref sig .tc := ⟨.hbm, 8441, rfl⟩
abbrev main_v4812 : Ref sig .tc := ⟨.hbm, 8442, rfl⟩
abbrev main_v4813 : Ref sig .tc := ⟨.hbm, 8443, rfl⟩
abbrev main_cst_1487 : Ref sig .tc := ⟨.hbm, 8444, rfl⟩
abbrev main_v4814 : Ref sig .tc := ⟨.hbm, 8445, rfl⟩
abbrev main_v4815 : Ref sig .tc := ⟨.hbm, 8446, rfl⟩
abbrev main_v4816 : Ref sig .tc := ⟨.hbm, 8447, rfl⟩
abbrev main_cst_1488 : Ref sig .tc := ⟨.hbm, 8448, rfl⟩
abbrev main_v4817 : Ref sig .tc := ⟨.hbm, 8449, rfl⟩
abbrev main_v4818 : Ref sig .tc := ⟨.hbm, 8450, rfl⟩
abbrev main_cst_1489 : Ref sig .tc := ⟨.hbm, 8451, rfl⟩
abbrev main_v4819 : Ref sig .tc := ⟨.hbm, 8452, rfl⟩
abbrev main_v4820 : Ref sig .tc := ⟨.hbm, 8453, rfl⟩
abbrev main_v4821 : Ref sig .tc := ⟨.hbm, 8454, rfl⟩
abbrev main_v4822 : Ref sig .tc := ⟨.hbm, 8455, rfl⟩
abbrev main_cst_1490 : Ref sig .tc := ⟨.hbm, 8456, rfl⟩
abbrev main_v4823 : Ref sig .tc := ⟨.hbm, 8457, rfl⟩
abbrev main_v4824 : Ref sig .tc := ⟨.hbm, 8458, rfl⟩
abbrev main_v4825 : Ref sig .tc := ⟨.hbm, 8459, rfl⟩
abbrev main_v4826 : Ref sig .tc := ⟨.hbm, 8460, rfl⟩
abbrev main_v4827 : Ref sig .tc := ⟨.hbm, 8461, rfl⟩
abbrev main_v4828 : Ref sig .tc := ⟨.hbm, 8462, rfl⟩
abbrev main_v4829 : Ref sig .tc := ⟨.hbm, 8463, rfl⟩
abbrev main_v4830 : Ref sig .tc := ⟨.hbm, 8464, rfl⟩
abbrev main_v4831 : Ref sig .tc := ⟨.hbm, 8465, rfl⟩
abbrev main_v4832 : Ref sig .tc := ⟨.hbm, 8466, rfl⟩
abbrev main_v4833 : Ref sig .tc := ⟨.hbm, 8467, rfl⟩
abbrev main_cst_1491 : Ref sig .tc := ⟨.hbm, 8468, rfl⟩
abbrev main_v4834 : Ref sig .tc := ⟨.hbm, 8469, rfl⟩
abbrev main_v4835 : Ref sig .tc := ⟨.hbm, 8470, rfl⟩
abbrev main_cst_1492 : Ref sig .tc := ⟨.hbm, 8471, rfl⟩
abbrev main_v4836 : Ref sig .tc := ⟨.hbm, 8472, rfl⟩
abbrev main_v4837 : Ref sig .tc := ⟨.hbm, 8473, rfl⟩
abbrev main_v4838 : Ref sig .tc := ⟨.hbm, 8474, rfl⟩
abbrev main_v4839 : Ref sig .tc := ⟨.hbm, 8475, rfl⟩
abbrev main_v4840 : Ref sig .tc := ⟨.hbm, 8476, rfl⟩
abbrev main_v4841 : Ref sig .tc := ⟨.hbm, 8477, rfl⟩
abbrev main_cst_1493 : Ref sig .tc := ⟨.hbm, 8478, rfl⟩
abbrev main_cst_1494 : Ref sig .tc := ⟨.hbm, 8479, rfl⟩
abbrev main_call428_v0 : Ref sig .tc := ⟨.hbm, 8480, rfl⟩
abbrev main_call428_v1 : Ref sig .tc := ⟨.hbm, 8481, rfl⟩
abbrev main_call428_v2 : Ref sig .tc := ⟨.hbm, 8482, rfl⟩
abbrev main_call428_v3 : Ref sig .tc := ⟨.hbm, 8483, rfl⟩
abbrev main_call428_v4 : Ref sig .tc := ⟨.hbm, 8484, rfl⟩
abbrev main_v4842 : Ref sig .tc := ⟨.hbm, 8485, rfl⟩
abbrev main_cst_1495 : Ref sig .tc := ⟨.hbm, 8486, rfl⟩
abbrev main_cst_1496 : Ref sig .tc := ⟨.hbm, 8487, rfl⟩
abbrev main_call429_v0 : Ref sig .tc := ⟨.hbm, 8488, rfl⟩
abbrev main_call429_v1 : Ref sig .tc := ⟨.hbm, 8489, rfl⟩
abbrev main_call429_v2 : Ref sig .tc := ⟨.hbm, 8490, rfl⟩
abbrev main_call429_v3 : Ref sig .tc := ⟨.hbm, 8491, rfl⟩
abbrev main_call429_v4 : Ref sig .tc := ⟨.hbm, 8492, rfl⟩
abbrev main_v4843 : Ref sig .tc := ⟨.hbm, 8493, rfl⟩
abbrev main_v4844 : Ref sig .tc := ⟨.hbm, 8494, rfl⟩
abbrev main_v4845 : Ref sig .tc := ⟨.hbm, 8495, rfl⟩
abbrev main_v4846 : Ref sig .tc := ⟨.hbm, 8496, rfl⟩
abbrev main_v4847 : Ref sig .tc := ⟨.hbm, 8497, rfl⟩
abbrev main_v4848 : Ref sig .tc := ⟨.hbm, 8498, rfl⟩
abbrev main_v4849 : Ref sig .tc := ⟨.hbm, 8499, rfl⟩
abbrev main_v4850 : Ref sig .tc := ⟨.hbm, 8500, rfl⟩
abbrev main_v4851 : Ref sig .tc := ⟨.hbm, 8501, rfl⟩
abbrev main_v4852 : Ref sig .tc := ⟨.hbm, 8502, rfl⟩
abbrev main_cst_1497 : Ref sig .tc := ⟨.hbm, 8503, rfl⟩
abbrev main_cst_1498 : Ref sig .tc := ⟨.hbm, 8504, rfl⟩
abbrev main_call430_v0 : Ref sig .tc := ⟨.hbm, 8505, rfl⟩
abbrev main_call430_v1 : Ref sig .tc := ⟨.hbm, 8506, rfl⟩
abbrev main_call430_v2 : Ref sig .tc := ⟨.hbm, 8507, rfl⟩
abbrev main_call430_v3 : Ref sig .tc := ⟨.hbm, 8508, rfl⟩
abbrev main_call430_v4 : Ref sig .tc := ⟨.hbm, 8509, rfl⟩
abbrev main_v4853 : Ref sig .tc := ⟨.hbm, 8510, rfl⟩
abbrev main_cst_1499 : Ref sig .tc := ⟨.hbm, 8511, rfl⟩
abbrev main_cst_1500 : Ref sig .tc := ⟨.hbm, 8512, rfl⟩
abbrev main_call431_v0 : Ref sig .tc := ⟨.hbm, 8513, rfl⟩
abbrev main_call431_v1 : Ref sig .tc := ⟨.hbm, 8514, rfl⟩
abbrev main_call431_v2 : Ref sig .tc := ⟨.hbm, 8515, rfl⟩
abbrev main_call431_v3 : Ref sig .tc := ⟨.hbm, 8516, rfl⟩
abbrev main_call431_v4 : Ref sig .tc := ⟨.hbm, 8517, rfl⟩
abbrev main_v4854 : Ref sig .tc := ⟨.hbm, 8518, rfl⟩
abbrev main_v4855 : Ref sig .tc := ⟨.hbm, 8519, rfl⟩
abbrev main_v4856 : Ref sig .tc := ⟨.hbm, 8520, rfl⟩
abbrev main_v4857 : Ref sig .tc := ⟨.hbm, 8521, rfl⟩
abbrev main_v4858 : Ref sig .tc := ⟨.hbm, 8522, rfl⟩
abbrev main_v4859 : Ref sig .tc := ⟨.hbm, 8523, rfl⟩
abbrev main_v4860 : Ref sig .tc := ⟨.hbm, 8524, rfl⟩
abbrev main_v4861 : Ref sig .tc := ⟨.hbm, 8525, rfl⟩
abbrev main_cst_1501 : Ref sig .tc := ⟨.hbm, 8526, rfl⟩
abbrev main_v4862 : Ref sig .tc := ⟨.hbm, 8527, rfl⟩
abbrev main_v4863 : Ref sig .tc := ⟨.hbm, 8528, rfl⟩
abbrev main_v4864 : Ref sig .tc := ⟨.hbm, 8529, rfl⟩
abbrev main_cst_1502 : Ref sig .tc := ⟨.hbm, 8530, rfl⟩
abbrev main_v4865 : Ref sig .tc := ⟨.hbm, 8531, rfl⟩
abbrev main_v4866 : Ref sig .tc := ⟨.hbm, 8532, rfl⟩
abbrev main_cst_1503 : Ref sig .tc := ⟨.hbm, 8533, rfl⟩
abbrev main_v4867 : Ref sig .tc := ⟨.hbm, 8534, rfl⟩
abbrev main_v4868 : Ref sig .tc := ⟨.hbm, 8535, rfl⟩
abbrev main_v4869 : Ref sig .tc := ⟨.hbm, 8536, rfl⟩
abbrev main_v4870 : Ref sig .tc := ⟨.hbm, 8537, rfl⟩
abbrev main_cst_1504 : Ref sig .tc := ⟨.hbm, 8538, rfl⟩
abbrev main_v4871 : Ref sig .tc := ⟨.hbm, 8539, rfl⟩
abbrev main_v4872 : Ref sig .tc := ⟨.hbm, 8540, rfl⟩
abbrev main_v4873 : Ref sig .tc := ⟨.hbm, 8541, rfl⟩
abbrev main_v4874 : Ref sig .tc := ⟨.hbm, 8542, rfl⟩
abbrev main_v4875 : Ref sig .tc := ⟨.hbm, 8543, rfl⟩
abbrev main_v4876 : Ref sig .tc := ⟨.hbm, 8544, rfl⟩
abbrev main_v4877 : Ref sig .tc := ⟨.hbm, 8545, rfl⟩
abbrev main_cst_1505 : Ref sig .tc := ⟨.hbm, 8546, rfl⟩
abbrev main_v4878 : Ref sig .tc := ⟨.hbm, 8547, rfl⟩
abbrev main_v4879 : Ref sig .tc := ⟨.hbm, 8548, rfl⟩
abbrev main_cst_1506 : Ref sig .tc := ⟨.hbm, 8549, rfl⟩
abbrev main_v4880 : Ref sig .tc := ⟨.hbm, 8550, rfl⟩
abbrev main_v4881 : Ref sig .tc := ⟨.hbm, 8551, rfl⟩
abbrev main_v4882 : Ref sig .tc := ⟨.hbm, 8552, rfl⟩
abbrev main_v4883 : Ref sig .tc := ⟨.hbm, 8553, rfl⟩
abbrev main_v4884 : Ref sig .tc := ⟨.hbm, 8554, rfl⟩
abbrev main_v4885 : Ref sig .tc := ⟨.hbm, 8555, rfl⟩
abbrev main_cst_1507 : Ref sig .tc := ⟨.hbm, 8556, rfl⟩
abbrev main_cst_1508 : Ref sig .tc := ⟨.hbm, 8557, rfl⟩
abbrev main_call432_v0 : Ref sig .tc := ⟨.hbm, 8558, rfl⟩
abbrev main_call432_v1 : Ref sig .tc := ⟨.hbm, 8559, rfl⟩
abbrev main_call432_v2 : Ref sig .tc := ⟨.hbm, 8560, rfl⟩
abbrev main_call432_v3 : Ref sig .tc := ⟨.hbm, 8561, rfl⟩
abbrev main_call432_v4 : Ref sig .tc := ⟨.hbm, 8562, rfl⟩
abbrev main_v4886 : Ref sig .tc := ⟨.hbm, 8563, rfl⟩
abbrev main_cst_1509 : Ref sig .tc := ⟨.hbm, 8564, rfl⟩
abbrev main_cst_1510 : Ref sig .tc := ⟨.hbm, 8565, rfl⟩
abbrev main_call433_v0 : Ref sig .tc := ⟨.hbm, 8566, rfl⟩
abbrev main_call433_v1 : Ref sig .tc := ⟨.hbm, 8567, rfl⟩
abbrev main_call433_v2 : Ref sig .tc := ⟨.hbm, 8568, rfl⟩
abbrev main_call433_v3 : Ref sig .tc := ⟨.hbm, 8569, rfl⟩
abbrev main_call433_v4 : Ref sig .tc := ⟨.hbm, 8570, rfl⟩
abbrev main_v4887 : Ref sig .tc := ⟨.hbm, 8571, rfl⟩
abbrev main_v4888 : Ref sig .tc := ⟨.hbm, 8572, rfl⟩
abbrev main_v4889 : Ref sig .tc := ⟨.hbm, 8573, rfl⟩
abbrev main_v4890 : Ref sig .tc := ⟨.hbm, 8574, rfl⟩
abbrev main_v4891 : Ref sig .tc := ⟨.hbm, 8575, rfl⟩
abbrev main_v4892 : Ref sig .tc := ⟨.hbm, 8576, rfl⟩
abbrev main_v4893 : Ref sig .tc := ⟨.hbm, 8577, rfl⟩
abbrev main_v4894 : Ref sig .tc := ⟨.hbm, 8578, rfl⟩
abbrev main_cst_1511 : Ref sig .tc := ⟨.hbm, 8579, rfl⟩
abbrev main_v4895 : Ref sig .tc := ⟨.hbm, 8580, rfl⟩
abbrev main_v4896 : Ref sig .tc := ⟨.hbm, 8581, rfl⟩
abbrev main_v4897 : Ref sig .tc := ⟨.hbm, 8582, rfl⟩
abbrev main_cst_1512 : Ref sig .tc := ⟨.hbm, 8583, rfl⟩
abbrev main_v4898 : Ref sig .tc := ⟨.hbm, 8584, rfl⟩
abbrev main_v4899 : Ref sig .tc := ⟨.hbm, 8585, rfl⟩
abbrev main_cst_1513 : Ref sig .tc := ⟨.hbm, 8586, rfl⟩
abbrev main_v4900 : Ref sig .tc := ⟨.hbm, 8587, rfl⟩
abbrev main_v4901 : Ref sig .tc := ⟨.hbm, 8588, rfl⟩
abbrev main_v4902 : Ref sig .tc := ⟨.hbm, 8589, rfl⟩
abbrev main_v4903 : Ref sig .tc := ⟨.hbm, 8590, rfl⟩
abbrev main_cst_1514 : Ref sig .tc := ⟨.hbm, 8591, rfl⟩
abbrev main_v4904 : Ref sig .tc := ⟨.hbm, 8592, rfl⟩
abbrev main_v4905 : Ref sig .tc := ⟨.hbm, 8593, rfl⟩
abbrev main_v4906 : Ref sig .tc := ⟨.hbm, 8594, rfl⟩
abbrev main_v4907 : Ref sig .tc := ⟨.hbm, 8595, rfl⟩
abbrev main_v4908 : Ref sig .tc := ⟨.hbm, 8596, rfl⟩
abbrev main_v4909 : Ref sig .tc := ⟨.hbm, 8597, rfl⟩
abbrev main_v4910 : Ref sig .tc := ⟨.hbm, 8598, rfl⟩
abbrev main_v4911 : Ref sig .tc := ⟨.hbm, 8599, rfl⟩
abbrev main_v4912 : Ref sig .tc := ⟨.hbm, 8600, rfl⟩
abbrev main_v4913 : Ref sig .tc := ⟨.hbm, 8601, rfl⟩
abbrev main_v4914 : Ref sig .tc := ⟨.hbm, 8602, rfl⟩
abbrev main_v4915 : Ref sig .tc := ⟨.hbm, 8603, rfl⟩
abbrev main_v4916 : Ref sig .tc := ⟨.hbm, 8604, rfl⟩
abbrev main_v4917 : Ref sig .tc := ⟨.hbm, 8605, rfl⟩
abbrev main_v4918 : Ref sig .tc := ⟨.hbm, 8606, rfl⟩
abbrev main_cst_1515 : Ref sig .tc := ⟨.hbm, 8607, rfl⟩
abbrev main_v4919 : Ref sig .tc := ⟨.hbm, 8608, rfl⟩
abbrev main_v4920 : Ref sig .tc := ⟨.hbm, 8609, rfl⟩
abbrev main_cst_1516 : Ref sig .tc := ⟨.hbm, 8610, rfl⟩
abbrev main_v4921 : Ref sig .tc := ⟨.hbm, 8611, rfl⟩
abbrev main_v4922 : Ref sig .tc := ⟨.hbm, 8612, rfl⟩
abbrev main_v4923 : Ref sig .tc := ⟨.hbm, 8613, rfl⟩
abbrev main_v4924 : Ref sig .tc := ⟨.hbm, 8614, rfl⟩
abbrev main_v4925 : Ref sig .tc := ⟨.hbm, 8615, rfl⟩
abbrev main_v4926 : Ref sig .tc := ⟨.hbm, 8616, rfl⟩
abbrev main_cst_1517 : Ref sig .tc := ⟨.hbm, 8617, rfl⟩
abbrev main_cst_1518 : Ref sig .tc := ⟨.hbm, 8618, rfl⟩
abbrev main_call434_v0 : Ref sig .tc := ⟨.hbm, 8619, rfl⟩
abbrev main_call434_v1 : Ref sig .tc := ⟨.hbm, 8620, rfl⟩
abbrev main_call434_v2 : Ref sig .tc := ⟨.hbm, 8621, rfl⟩
abbrev main_call434_v3 : Ref sig .tc := ⟨.hbm, 8622, rfl⟩
abbrev main_call434_v4 : Ref sig .tc := ⟨.hbm, 8623, rfl⟩
abbrev main_v4927 : Ref sig .tc := ⟨.hbm, 8624, rfl⟩
abbrev main_cst_1519 : Ref sig .tc := ⟨.hbm, 8625, rfl⟩
abbrev main_cst_1520 : Ref sig .tc := ⟨.hbm, 8626, rfl⟩
abbrev main_call435_v0 : Ref sig .tc := ⟨.hbm, 8627, rfl⟩
abbrev main_call435_v1 : Ref sig .tc := ⟨.hbm, 8628, rfl⟩
abbrev main_call435_v2 : Ref sig .tc := ⟨.hbm, 8629, rfl⟩
abbrev main_call435_v3 : Ref sig .tc := ⟨.hbm, 8630, rfl⟩
abbrev main_call435_v4 : Ref sig .tc := ⟨.hbm, 8631, rfl⟩
abbrev main_v4928 : Ref sig .tc := ⟨.hbm, 8632, rfl⟩
abbrev main_v4929 : Ref sig .tc := ⟨.hbm, 8633, rfl⟩
abbrev main_v4930 : Ref sig .tc := ⟨.hbm, 8634, rfl⟩
abbrev main_v4931 : Ref sig .tc := ⟨.hbm, 8635, rfl⟩
abbrev main_v4932 : Ref sig .tc := ⟨.hbm, 8636, rfl⟩
abbrev main_v4933 : Ref sig .tc := ⟨.hbm, 8637, rfl⟩
abbrev main_v4934 : Ref sig .tc := ⟨.hbm, 8638, rfl⟩
abbrev main_v4935 : Ref sig .tc := ⟨.hbm, 8639, rfl⟩
abbrev main_v4936 : Ref sig .tc := ⟨.hbm, 8640, rfl⟩
abbrev main_v4937 : Ref sig .tc := ⟨.hbm, 8641, rfl⟩
abbrev main_cst_1521 : Ref sig .tc := ⟨.hbm, 8642, rfl⟩
abbrev main_cst_1522 : Ref sig .tc := ⟨.hbm, 8643, rfl⟩
abbrev main_call436_v0 : Ref sig .tc := ⟨.hbm, 8644, rfl⟩
abbrev main_call436_v1 : Ref sig .tc := ⟨.hbm, 8645, rfl⟩
abbrev main_call436_v2 : Ref sig .tc := ⟨.hbm, 8646, rfl⟩
abbrev main_call436_v3 : Ref sig .tc := ⟨.hbm, 8647, rfl⟩
abbrev main_call436_v4 : Ref sig .tc := ⟨.hbm, 8648, rfl⟩
abbrev main_v4938 : Ref sig .tc := ⟨.hbm, 8649, rfl⟩
abbrev main_cst_1523 : Ref sig .tc := ⟨.hbm, 8650, rfl⟩
abbrev main_cst_1524 : Ref sig .tc := ⟨.hbm, 8651, rfl⟩
abbrev main_call437_v0 : Ref sig .tc := ⟨.hbm, 8652, rfl⟩
abbrev main_call437_v1 : Ref sig .tc := ⟨.hbm, 8653, rfl⟩
abbrev main_call437_v2 : Ref sig .tc := ⟨.hbm, 8654, rfl⟩
abbrev main_call437_v3 : Ref sig .tc := ⟨.hbm, 8655, rfl⟩
abbrev main_call437_v4 : Ref sig .tc := ⟨.hbm, 8656, rfl⟩
abbrev main_v4939 : Ref sig .tc := ⟨.hbm, 8657, rfl⟩
abbrev main_v4940 : Ref sig .tc := ⟨.hbm, 8658, rfl⟩
abbrev main_v4941 : Ref sig .tc := ⟨.hbm, 8659, rfl⟩
abbrev main_v4942 : Ref sig .tc := ⟨.hbm, 8660, rfl⟩
abbrev main_v4943 : Ref sig .tc := ⟨.hbm, 8661, rfl⟩
abbrev main_v4944 : Ref sig .tc := ⟨.hbm, 8662, rfl⟩
abbrev main_v4945 : Ref sig .tc := ⟨.hbm, 8663, rfl⟩
abbrev main_v4946 : Ref sig .tc := ⟨.hbm, 8664, rfl⟩
abbrev main_v4947 : Ref sig .tc := ⟨.hbm, 8665, rfl⟩
abbrev main_v4948 : Ref sig .tc := ⟨.hbm, 8666, rfl⟩
abbrev main_cst_1525 : Ref sig .tc := ⟨.hbm, 8667, rfl⟩
abbrev main_cst_1526 : Ref sig .tc := ⟨.hbm, 8668, rfl⟩
abbrev main_call438_v0 : Ref sig .tc := ⟨.hbm, 8669, rfl⟩
abbrev main_call438_v1 : Ref sig .tc := ⟨.hbm, 8670, rfl⟩
abbrev main_call438_v2 : Ref sig .tc := ⟨.hbm, 8671, rfl⟩
abbrev main_call438_v3 : Ref sig .tc := ⟨.hbm, 8672, rfl⟩
abbrev main_call438_v4 : Ref sig .tc := ⟨.hbm, 8673, rfl⟩
abbrev main_v4949 : Ref sig .tc := ⟨.hbm, 8674, rfl⟩
abbrev main_cst_1527 : Ref sig .tc := ⟨.hbm, 8675, rfl⟩
abbrev main_cst_1528 : Ref sig .tc := ⟨.hbm, 8676, rfl⟩
abbrev main_call439_v0 : Ref sig .tc := ⟨.hbm, 8677, rfl⟩
abbrev main_call439_v1 : Ref sig .tc := ⟨.hbm, 8678, rfl⟩
abbrev main_call439_v2 : Ref sig .tc := ⟨.hbm, 8679, rfl⟩
abbrev main_call439_v3 : Ref sig .tc := ⟨.hbm, 8680, rfl⟩
abbrev main_call439_v4 : Ref sig .tc := ⟨.hbm, 8681, rfl⟩
abbrev main_v4950 : Ref sig .tc := ⟨.hbm, 8682, rfl⟩
abbrev main_v4951 : Ref sig .tc := ⟨.hbm, 8683, rfl⟩
abbrev main_v4952 : Ref sig .tc := ⟨.hbm, 8684, rfl⟩
abbrev main_v4953 : Ref sig .tc := ⟨.hbm, 8685, rfl⟩
abbrev main_v4954 : Ref sig .tc := ⟨.hbm, 8686, rfl⟩
abbrev main_v4955 : Ref sig .tc := ⟨.hbm, 8687, rfl⟩
abbrev main_v4956 : Ref sig .tc := ⟨.hbm, 8688, rfl⟩
abbrev main_v4957 : Ref sig .tc := ⟨.hbm, 8689, rfl⟩
abbrev main_cst_1529 : Ref sig .tc := ⟨.hbm, 8690, rfl⟩
abbrev main_v4958 : Ref sig .tc := ⟨.hbm, 8691, rfl⟩
abbrev main_v4959 : Ref sig .tc := ⟨.hbm, 8692, rfl⟩
abbrev main_v4960 : Ref sig .tc := ⟨.hbm, 8693, rfl⟩
abbrev main_cst_1530 : Ref sig .tc := ⟨.hbm, 8694, rfl⟩
abbrev main_v4961 : Ref sig .tc := ⟨.hbm, 8695, rfl⟩
abbrev main_v4962 : Ref sig .tc := ⟨.hbm, 8696, rfl⟩
abbrev main_cst_1531 : Ref sig .tc := ⟨.hbm, 8697, rfl⟩
abbrev main_v4963 : Ref sig .tc := ⟨.hbm, 8698, rfl⟩
abbrev main_v4964 : Ref sig .tc := ⟨.hbm, 8699, rfl⟩
abbrev main_v4965 : Ref sig .tc := ⟨.hbm, 8700, rfl⟩
abbrev main_v4966 : Ref sig .tc := ⟨.hbm, 8701, rfl⟩
abbrev main_cst_1532 : Ref sig .tc := ⟨.hbm, 8702, rfl⟩
abbrev main_v4967 : Ref sig .tc := ⟨.hbm, 8703, rfl⟩
abbrev main_v4968 : Ref sig .tc := ⟨.hbm, 8704, rfl⟩
abbrev main_v4969 : Ref sig .tc := ⟨.hbm, 8705, rfl⟩
abbrev main_v4970 : Ref sig .tc := ⟨.hbm, 8706, rfl⟩
abbrev main_v4971 : Ref sig .tc := ⟨.hbm, 8707, rfl⟩
abbrev main_v4972 : Ref sig .tc := ⟨.hbm, 8708, rfl⟩
abbrev main_v4973 : Ref sig .tc := ⟨.hbm, 8709, rfl⟩
abbrev main_cst_1533 : Ref sig .tc := ⟨.hbm, 8710, rfl⟩
abbrev main_v4974 : Ref sig .tc := ⟨.hbm, 8711, rfl⟩
abbrev main_v4975 : Ref sig .tc := ⟨.hbm, 8712, rfl⟩
abbrev main_cst_1534 : Ref sig .tc := ⟨.hbm, 8713, rfl⟩
abbrev main_v4976 : Ref sig .tc := ⟨.hbm, 8714, rfl⟩
abbrev main_v4977 : Ref sig .tc := ⟨.hbm, 8715, rfl⟩
abbrev main_v4978 : Ref sig .tc := ⟨.hbm, 8716, rfl⟩
abbrev main_v4979 : Ref sig .tc := ⟨.hbm, 8717, rfl⟩
abbrev main_v4980 : Ref sig .tc := ⟨.hbm, 8718, rfl⟩
abbrev main_v4981 : Ref sig .tc := ⟨.hbm, 8719, rfl⟩
abbrev main_cst_1535 : Ref sig .tc := ⟨.hbm, 8720, rfl⟩
abbrev main_cst_1536 : Ref sig .tc := ⟨.hbm, 8721, rfl⟩
abbrev main_call440_v0 : Ref sig .tc := ⟨.hbm, 8722, rfl⟩
abbrev main_call440_v1 : Ref sig .tc := ⟨.hbm, 8723, rfl⟩
abbrev main_call440_v2 : Ref sig .tc := ⟨.hbm, 8724, rfl⟩
abbrev main_call440_v3 : Ref sig .tc := ⟨.hbm, 8725, rfl⟩
abbrev main_call440_v4 : Ref sig .tc := ⟨.hbm, 8726, rfl⟩
abbrev main_v4982 : Ref sig .tc := ⟨.hbm, 8727, rfl⟩
abbrev main_cst_1537 : Ref sig .tc := ⟨.hbm, 8728, rfl⟩
abbrev main_cst_1538 : Ref sig .tc := ⟨.hbm, 8729, rfl⟩
abbrev main_call441_v0 : Ref sig .tc := ⟨.hbm, 8730, rfl⟩
abbrev main_call441_v1 : Ref sig .tc := ⟨.hbm, 8731, rfl⟩
abbrev main_call441_v2 : Ref sig .tc := ⟨.hbm, 8732, rfl⟩
abbrev main_call441_v3 : Ref sig .tc := ⟨.hbm, 8733, rfl⟩
abbrev main_call441_v4 : Ref sig .tc := ⟨.hbm, 8734, rfl⟩
abbrev main_v4983 : Ref sig .tc := ⟨.hbm, 8735, rfl⟩
abbrev main_v4984 : Ref sig .tc := ⟨.hbm, 8736, rfl⟩
abbrev main_v4985 : Ref sig .tc := ⟨.hbm, 8737, rfl⟩
abbrev main_v4986 : Ref sig .tc := ⟨.hbm, 8738, rfl⟩
abbrev main_v4987 : Ref sig .tc := ⟨.hbm, 8739, rfl⟩
abbrev main_v4988 : Ref sig .tc := ⟨.hbm, 8740, rfl⟩
abbrev main_v4989 : Ref sig .tc := ⟨.hbm, 8741, rfl⟩
abbrev main_v4990 : Ref sig .tc := ⟨.hbm, 8742, rfl⟩
abbrev main_cst_1539 : Ref sig .tc := ⟨.hbm, 8743, rfl⟩
abbrev main_v4991 : Ref sig .tc := ⟨.hbm, 8744, rfl⟩
abbrev main_v4992 : Ref sig .tc := ⟨.hbm, 8745, rfl⟩
abbrev main_v4993 : Ref sig .tc := ⟨.hbm, 8746, rfl⟩
abbrev main_cst_1540 : Ref sig .tc := ⟨.hbm, 8747, rfl⟩
abbrev main_v4994 : Ref sig .tc := ⟨.hbm, 8748, rfl⟩
abbrev main_v4995 : Ref sig .tc := ⟨.hbm, 8749, rfl⟩
abbrev main_cst_1541 : Ref sig .tc := ⟨.hbm, 8750, rfl⟩
abbrev main_v4996 : Ref sig .tc := ⟨.hbm, 8751, rfl⟩
abbrev main_v4997 : Ref sig .tc := ⟨.hbm, 8752, rfl⟩
abbrev main_v4998 : Ref sig .tc := ⟨.hbm, 8753, rfl⟩
abbrev main_v4999 : Ref sig .tc := ⟨.hbm, 8754, rfl⟩
abbrev main_cst_1542 : Ref sig .tc := ⟨.hbm, 8755, rfl⟩
abbrev main_v5000 : Ref sig .tc := ⟨.hbm, 8756, rfl⟩
abbrev main_v5001 : Ref sig .tc := ⟨.hbm, 8757, rfl⟩
abbrev main_v5002 : Ref sig .tc := ⟨.hbm, 8758, rfl⟩
abbrev main_v5003 : Ref sig .tc := ⟨.hbm, 8759, rfl⟩
abbrev main_v5004 : Ref sig .tc := ⟨.hbm, 8760, rfl⟩
abbrev main_v5005 : Ref sig .tc := ⟨.hbm, 8761, rfl⟩
abbrev main_v5006 : Ref sig .tc := ⟨.hbm, 8762, rfl⟩
abbrev main_v5007 : Ref sig .tc := ⟨.hbm, 8763, rfl⟩
abbrev main_v5008 : Ref sig .tc := ⟨.hbm, 8764, rfl⟩
abbrev main_v5009 : Ref sig .tc := ⟨.hbm, 8765, rfl⟩
abbrev main_v5010 : Ref sig .tc := ⟨.hbm, 8766, rfl⟩
abbrev main_cst_1543 : Ref sig .tc := ⟨.hbm, 8767, rfl⟩
abbrev main_v5011 : Ref sig .tc := ⟨.hbm, 8768, rfl⟩
abbrev main_v5012 : Ref sig .tc := ⟨.hbm, 8769, rfl⟩
abbrev main_cst_1544 : Ref sig .tc := ⟨.hbm, 8770, rfl⟩
abbrev main_v5013 : Ref sig .tc := ⟨.hbm, 8771, rfl⟩
abbrev main_v5014 : Ref sig .tc := ⟨.hbm, 8772, rfl⟩
abbrev main_v5015 : Ref sig .tc := ⟨.hbm, 8773, rfl⟩
abbrev main_v5016 : Ref sig .tc := ⟨.hbm, 8774, rfl⟩
abbrev main_v5017 : Ref sig .tc := ⟨.hbm, 8775, rfl⟩
abbrev main_v5018 : Ref sig .tc := ⟨.hbm, 8776, rfl⟩
abbrev main_cst_1545 : Ref sig .tc := ⟨.hbm, 8777, rfl⟩
abbrev main_cst_1546 : Ref sig .tc := ⟨.hbm, 8778, rfl⟩
abbrev main_call442_v0 : Ref sig .tc := ⟨.hbm, 8779, rfl⟩
abbrev main_call442_v1 : Ref sig .tc := ⟨.hbm, 8780, rfl⟩
abbrev main_call442_v2 : Ref sig .tc := ⟨.hbm, 8781, rfl⟩
abbrev main_call442_v3 : Ref sig .tc := ⟨.hbm, 8782, rfl⟩
abbrev main_call442_v4 : Ref sig .tc := ⟨.hbm, 8783, rfl⟩
abbrev main_v5019 : Ref sig .tc := ⟨.hbm, 8784, rfl⟩
abbrev main_cst_1547 : Ref sig .tc := ⟨.hbm, 8785, rfl⟩
abbrev main_cst_1548 : Ref sig .tc := ⟨.hbm, 8786, rfl⟩
abbrev main_call443_v0 : Ref sig .tc := ⟨.hbm, 8787, rfl⟩
abbrev main_call443_v1 : Ref sig .tc := ⟨.hbm, 8788, rfl⟩
abbrev main_call443_v2 : Ref sig .tc := ⟨.hbm, 8789, rfl⟩
abbrev main_call443_v3 : Ref sig .tc := ⟨.hbm, 8790, rfl⟩
abbrev main_call443_v4 : Ref sig .tc := ⟨.hbm, 8791, rfl⟩
abbrev main_v5020 : Ref sig .tc := ⟨.hbm, 8792, rfl⟩
abbrev main_v5021 : Ref sig .tc := ⟨.hbm, 8793, rfl⟩
abbrev main_v5022 : Ref sig .tc := ⟨.hbm, 8794, rfl⟩
abbrev main_v5023 : Ref sig .tc := ⟨.hbm, 8795, rfl⟩
abbrev main_v5024 : Ref sig .tc := ⟨.hbm, 8796, rfl⟩
abbrev main_v5025 : Ref sig .tc := ⟨.hbm, 8797, rfl⟩
abbrev main_v5026 : Ref sig .tc := ⟨.hbm, 8798, rfl⟩
abbrev main_v5027 : Ref sig .tc := ⟨.hbm, 8799, rfl⟩
abbrev main_v5028 : Ref sig .tc := ⟨.hbm, 8800, rfl⟩
abbrev main_v5029 : Ref sig .tc := ⟨.hbm, 8801, rfl⟩
abbrev main_cst_1549 : Ref sig .tc := ⟨.hbm, 8802, rfl⟩
abbrev main_cst_1550 : Ref sig .tc := ⟨.hbm, 8803, rfl⟩
abbrev main_call444_v0 : Ref sig .tc := ⟨.hbm, 8804, rfl⟩
abbrev main_call444_v1 : Ref sig .tc := ⟨.hbm, 8805, rfl⟩
abbrev main_call444_v2 : Ref sig .tc := ⟨.hbm, 8806, rfl⟩
abbrev main_call444_v3 : Ref sig .tc := ⟨.hbm, 8807, rfl⟩
abbrev main_call444_v4 : Ref sig .tc := ⟨.hbm, 8808, rfl⟩
abbrev main_v5030 : Ref sig .tc := ⟨.hbm, 8809, rfl⟩
abbrev main_cst_1551 : Ref sig .tc := ⟨.hbm, 8810, rfl⟩
abbrev main_cst_1552 : Ref sig .tc := ⟨.hbm, 8811, rfl⟩
abbrev main_call445_v0 : Ref sig .tc := ⟨.hbm, 8812, rfl⟩
abbrev main_call445_v1 : Ref sig .tc := ⟨.hbm, 8813, rfl⟩
abbrev main_call445_v2 : Ref sig .tc := ⟨.hbm, 8814, rfl⟩
abbrev main_call445_v3 : Ref sig .tc := ⟨.hbm, 8815, rfl⟩
abbrev main_call445_v4 : Ref sig .tc := ⟨.hbm, 8816, rfl⟩
abbrev main_v5031 : Ref sig .tc := ⟨.hbm, 8817, rfl⟩
abbrev main_v5032 : Ref sig .tc := ⟨.hbm, 8818, rfl⟩
abbrev main_v5033 : Ref sig .tc := ⟨.hbm, 8819, rfl⟩
abbrev main_v5034 : Ref sig .tc := ⟨.hbm, 8820, rfl⟩
abbrev main_v5035 : Ref sig .tc := ⟨.hbm, 8821, rfl⟩
abbrev main_v5036 : Ref sig .tc := ⟨.hbm, 8822, rfl⟩
abbrev main_v5037 : Ref sig .tc := ⟨.hbm, 8823, rfl⟩
abbrev main_v5038 : Ref sig .tc := ⟨.hbm, 8824, rfl⟩
abbrev main_cst_1553 : Ref sig .tc := ⟨.hbm, 8825, rfl⟩
abbrev main_v5039 : Ref sig .tc := ⟨.hbm, 8826, rfl⟩
abbrev main_v5040 : Ref sig .tc := ⟨.hbm, 8827, rfl⟩
abbrev main_v5041 : Ref sig .tc := ⟨.hbm, 8828, rfl⟩
abbrev main_cst_1554 : Ref sig .tc := ⟨.hbm, 8829, rfl⟩
abbrev main_v5042 : Ref sig .tc := ⟨.hbm, 8830, rfl⟩
abbrev main_v5043 : Ref sig .tc := ⟨.hbm, 8831, rfl⟩
abbrev main_cst_1555 : Ref sig .tc := ⟨.hbm, 8832, rfl⟩
abbrev main_v5044 : Ref sig .tc := ⟨.hbm, 8833, rfl⟩
abbrev main_v5045 : Ref sig .tc := ⟨.hbm, 8834, rfl⟩
abbrev main_v5046 : Ref sig .tc := ⟨.hbm, 8835, rfl⟩
abbrev main_v5047 : Ref sig .tc := ⟨.hbm, 8836, rfl⟩
abbrev main_cst_1556 : Ref sig .tc := ⟨.hbm, 8837, rfl⟩
abbrev main_v5048 : Ref sig .tc := ⟨.hbm, 8838, rfl⟩
abbrev main_v5049 : Ref sig .tc := ⟨.hbm, 8839, rfl⟩
abbrev main_v5050 : Ref sig .tc := ⟨.hbm, 8840, rfl⟩
abbrev main_v5051 : Ref sig .tc := ⟨.hbm, 8841, rfl⟩
abbrev main_v5052 : Ref sig .tc := ⟨.hbm, 8842, rfl⟩
abbrev main_v5053 : Ref sig .tc := ⟨.hbm, 8843, rfl⟩
abbrev main_v5054 : Ref sig .tc := ⟨.hbm, 8844, rfl⟩
abbrev main_cst_1557 : Ref sig .tc := ⟨.hbm, 8845, rfl⟩
abbrev main_v5055 : Ref sig .tc := ⟨.hbm, 8846, rfl⟩
abbrev main_v5056 : Ref sig .tc := ⟨.hbm, 8847, rfl⟩
abbrev main_cst_1558 : Ref sig .tc := ⟨.hbm, 8848, rfl⟩
abbrev main_v5057 : Ref sig .tc := ⟨.hbm, 8849, rfl⟩
abbrev main_v5058 : Ref sig .tc := ⟨.hbm, 8850, rfl⟩
abbrev main_v5059 : Ref sig .tc := ⟨.hbm, 8851, rfl⟩
abbrev main_v5060 : Ref sig .tc := ⟨.hbm, 8852, rfl⟩
abbrev main_v5061 : Ref sig .tc := ⟨.hbm, 8853, rfl⟩
abbrev main_v5062 : Ref sig .tc := ⟨.hbm, 8854, rfl⟩
abbrev main_cst_1559 : Ref sig .tc := ⟨.hbm, 8855, rfl⟩
abbrev main_cst_1560 : Ref sig .tc := ⟨.hbm, 8856, rfl⟩
abbrev main_call446_v0 : Ref sig .tc := ⟨.hbm, 8857, rfl⟩
abbrev main_call446_v1 : Ref sig .tc := ⟨.hbm, 8858, rfl⟩
abbrev main_call446_v2 : Ref sig .tc := ⟨.hbm, 8859, rfl⟩
abbrev main_call446_v3 : Ref sig .tc := ⟨.hbm, 8860, rfl⟩
abbrev main_call446_v4 : Ref sig .tc := ⟨.hbm, 8861, rfl⟩
abbrev main_v5063 : Ref sig .tc := ⟨.hbm, 8862, rfl⟩
abbrev main_cst_1561 : Ref sig .tc := ⟨.hbm, 8863, rfl⟩
abbrev main_cst_1562 : Ref sig .tc := ⟨.hbm, 8864, rfl⟩
abbrev main_call447_v0 : Ref sig .tc := ⟨.hbm, 8865, rfl⟩
abbrev main_call447_v1 : Ref sig .tc := ⟨.hbm, 8866, rfl⟩
abbrev main_call447_v2 : Ref sig .tc := ⟨.hbm, 8867, rfl⟩
abbrev main_call447_v3 : Ref sig .tc := ⟨.hbm, 8868, rfl⟩
abbrev main_call447_v4 : Ref sig .tc := ⟨.hbm, 8869, rfl⟩
abbrev main_v5064 : Ref sig .tc := ⟨.hbm, 8870, rfl⟩
abbrev main_v5065 : Ref sig .tc := ⟨.hbm, 8871, rfl⟩
abbrev main_v5066 : Ref sig .tc := ⟨.hbm, 8872, rfl⟩
abbrev main_v5067 : Ref sig .tc := ⟨.hbm, 8873, rfl⟩
abbrev main_v5068 : Ref sig .tc := ⟨.hbm, 8874, rfl⟩
abbrev main_v5069 : Ref sig .tc := ⟨.hbm, 8875, rfl⟩
abbrev main_v5070 : Ref sig .tc := ⟨.hbm, 8876, rfl⟩
abbrev main_v5071 : Ref sig .tc := ⟨.hbm, 8877, rfl⟩
abbrev main_cst_1563 : Ref sig .tc := ⟨.hbm, 8878, rfl⟩
abbrev main_v5072 : Ref sig .tc := ⟨.hbm, 8879, rfl⟩
abbrev main_v5073 : Ref sig .tc := ⟨.hbm, 8880, rfl⟩
abbrev main_v5074 : Ref sig .tc := ⟨.hbm, 8881, rfl⟩
abbrev main_cst_1564 : Ref sig .tc := ⟨.hbm, 8882, rfl⟩
abbrev main_v5075 : Ref sig .tc := ⟨.hbm, 8883, rfl⟩
abbrev main_v5076 : Ref sig .tc := ⟨.hbm, 8884, rfl⟩
abbrev main_cst_1565 : Ref sig .tc := ⟨.hbm, 8885, rfl⟩
abbrev main_v5077 : Ref sig .tc := ⟨.hbm, 8886, rfl⟩
abbrev main_v5078 : Ref sig .tc := ⟨.hbm, 8887, rfl⟩
abbrev main_v5079 : Ref sig .tc := ⟨.hbm, 8888, rfl⟩
abbrev main_v5080 : Ref sig .tc := ⟨.hbm, 8889, rfl⟩
abbrev main_cst_1566 : Ref sig .tc := ⟨.hbm, 8890, rfl⟩
abbrev main_v5081 : Ref sig .tc := ⟨.hbm, 8891, rfl⟩
abbrev main_v5082 : Ref sig .tc := ⟨.hbm, 8892, rfl⟩
abbrev main_v5083 : Ref sig .tc := ⟨.hbm, 8893, rfl⟩
abbrev main_v5084 : Ref sig .tc := ⟨.hbm, 8894, rfl⟩
abbrev main_v5085 : Ref sig .tc := ⟨.hbm, 8895, rfl⟩
abbrev main_v5086 : Ref sig .tc := ⟨.hbm, 8896, rfl⟩
abbrev main_v5087 : Ref sig .tc := ⟨.hbm, 8897, rfl⟩
abbrev main_v5088 : Ref sig .tc := ⟨.hbm, 8898, rfl⟩
abbrev main_v5089 : Ref sig .tc := ⟨.hbm, 8899, rfl⟩
abbrev main_v5090 : Ref sig .tc := ⟨.hbm, 8900, rfl⟩
abbrev main_v5091 : Ref sig .tc := ⟨.hbm, 8901, rfl⟩
abbrev main_v5092 : Ref sig .tc := ⟨.hbm, 8902, rfl⟩
abbrev main_v5093 : Ref sig .tc := ⟨.hbm, 8903, rfl⟩
abbrev main_v5094 : Ref sig .tc := ⟨.hbm, 8904, rfl⟩
abbrev main_v5095 : Ref sig .tc := ⟨.hbm, 8905, rfl⟩
abbrev main_v5096 : Ref sig .tc := ⟨.hbm, 8906, rfl⟩
abbrev main_v5097 : Ref sig .tc := ⟨.hbm, 8907, rfl⟩
abbrev main_v5098 : Ref sig .tc := ⟨.hbm, 8908, rfl⟩
abbrev main_v5099 : Ref sig .tc := ⟨.hbm, 8909, rfl⟩
abbrev main_v5100 : Ref sig .tc := ⟨.hbm, 8910, rfl⟩
abbrev main_v5101 : Ref sig .tc := ⟨.hbm, 8911, rfl⟩
abbrev main_v5102 : Ref sig .tc := ⟨.hbm, 8912, rfl⟩
abbrev main_v5103 : Ref sig .tc := ⟨.hbm, 8913, rfl⟩
abbrev main_cst_1567 : Ref sig .tc := ⟨.hbm, 8914, rfl⟩
abbrev main_v5104 : Ref sig .tc := ⟨.hbm, 8915, rfl⟩
abbrev main_v5105 : Ref sig .tc := ⟨.hbm, 8916, rfl⟩
abbrev main_cst_1568 : Ref sig .tc := ⟨.hbm, 8917, rfl⟩
abbrev main_v5106 : Ref sig .tc := ⟨.hbm, 8918, rfl⟩
abbrev main_v5107 : Ref sig .tc := ⟨.hbm, 8919, rfl⟩
abbrev main_v5108 : Ref sig .tc := ⟨.hbm, 8920, rfl⟩
abbrev main_v5109 : Ref sig .tc := ⟨.hbm, 8921, rfl⟩
abbrev main_v5110 : Ref sig .tc := ⟨.hbm, 8922, rfl⟩
abbrev main_v5111 : Ref sig .tc := ⟨.hbm, 8923, rfl⟩
abbrev main_cst_1569 : Ref sig .tc := ⟨.hbm, 8924, rfl⟩
abbrev main_cst_1570 : Ref sig .tc := ⟨.hbm, 8925, rfl⟩
abbrev main_call448_v0 : Ref sig .tc := ⟨.hbm, 8926, rfl⟩
abbrev main_call448_v1 : Ref sig .tc := ⟨.hbm, 8927, rfl⟩
abbrev main_call448_v2 : Ref sig .tc := ⟨.hbm, 8928, rfl⟩
abbrev main_call448_v3 : Ref sig .tc := ⟨.hbm, 8929, rfl⟩
abbrev main_call448_v4 : Ref sig .tc := ⟨.hbm, 8930, rfl⟩
abbrev main_v5112 : Ref sig .tc := ⟨.hbm, 8931, rfl⟩
abbrev main_cst_1571 : Ref sig .tc := ⟨.hbm, 8932, rfl⟩
abbrev main_cst_1572 : Ref sig .tc := ⟨.hbm, 8933, rfl⟩
abbrev main_call449_v0 : Ref sig .tc := ⟨.hbm, 8934, rfl⟩
abbrev main_call449_v1 : Ref sig .tc := ⟨.hbm, 8935, rfl⟩
abbrev main_call449_v2 : Ref sig .tc := ⟨.hbm, 8936, rfl⟩
abbrev main_call449_v3 : Ref sig .tc := ⟨.hbm, 8937, rfl⟩
abbrev main_call449_v4 : Ref sig .tc := ⟨.hbm, 8938, rfl⟩
abbrev main_v5113 : Ref sig .tc := ⟨.hbm, 8939, rfl⟩
abbrev main_v5114 : Ref sig .tc := ⟨.hbm, 8940, rfl⟩
abbrev main_v5115 : Ref sig .tc := ⟨.hbm, 8941, rfl⟩
abbrev main_v5116 : Ref sig .tc := ⟨.hbm, 8942, rfl⟩
abbrev main_v5117 : Ref sig .tc := ⟨.hbm, 8943, rfl⟩
abbrev main_v5118 : Ref sig .tc := ⟨.hbm, 8944, rfl⟩
abbrev main_v5119 : Ref sig .tc := ⟨.hbm, 8945, rfl⟩
abbrev main_v5120 : Ref sig .tc := ⟨.hbm, 8946, rfl⟩
abbrev main_v5121 : Ref sig .tc := ⟨.hbm, 8947, rfl⟩
abbrev main_v5122 : Ref sig .tc := ⟨.hbm, 8948, rfl⟩
abbrev main_cst_1573 : Ref sig .tc := ⟨.hbm, 8949, rfl⟩
abbrev main_cst_1574 : Ref sig .tc := ⟨.hbm, 8950, rfl⟩
abbrev main_call450_v0 : Ref sig .tc := ⟨.hbm, 8951, rfl⟩
abbrev main_call450_v1 : Ref sig .tc := ⟨.hbm, 8952, rfl⟩
abbrev main_call450_v2 : Ref sig .tc := ⟨.hbm, 8953, rfl⟩
abbrev main_call450_v3 : Ref sig .tc := ⟨.hbm, 8954, rfl⟩
abbrev main_call450_v4 : Ref sig .tc := ⟨.hbm, 8955, rfl⟩
abbrev main_v5123 : Ref sig .tc := ⟨.hbm, 8956, rfl⟩
abbrev main_cst_1575 : Ref sig .tc := ⟨.hbm, 8957, rfl⟩
abbrev main_cst_1576 : Ref sig .tc := ⟨.hbm, 8958, rfl⟩
abbrev main_call451_v0 : Ref sig .tc := ⟨.hbm, 8959, rfl⟩
abbrev main_call451_v1 : Ref sig .tc := ⟨.hbm, 8960, rfl⟩
abbrev main_call451_v2 : Ref sig .tc := ⟨.hbm, 8961, rfl⟩
abbrev main_call451_v3 : Ref sig .tc := ⟨.hbm, 8962, rfl⟩
abbrev main_call451_v4 : Ref sig .tc := ⟨.hbm, 8963, rfl⟩
abbrev main_v5124 : Ref sig .tc := ⟨.hbm, 8964, rfl⟩
abbrev main_v5125 : Ref sig .tc := ⟨.hbm, 8965, rfl⟩
abbrev main_v5126 : Ref sig .tc := ⟨.hbm, 8966, rfl⟩
abbrev main_v5127 : Ref sig .tc := ⟨.hbm, 8967, rfl⟩
abbrev main_v5128 : Ref sig .tc := ⟨.hbm, 8968, rfl⟩
abbrev main_v5129 : Ref sig .tc := ⟨.hbm, 8969, rfl⟩
abbrev main_v5130 : Ref sig .tc := ⟨.hbm, 8970, rfl⟩
abbrev main_v5131 : Ref sig .tc := ⟨.hbm, 8971, rfl⟩
abbrev main_v5132 : Ref sig .tc := ⟨.hbm, 8972, rfl⟩
abbrev main_v5133 : Ref sig .tc := ⟨.hbm, 8973, rfl⟩
abbrev main_cst_1577 : Ref sig .tc := ⟨.hbm, 8974, rfl⟩
abbrev main_cst_1578 : Ref sig .tc := ⟨.hbm, 8975, rfl⟩
abbrev main_call452_v0 : Ref sig .tc := ⟨.hbm, 8976, rfl⟩
abbrev main_call452_v1 : Ref sig .tc := ⟨.hbm, 8977, rfl⟩
abbrev main_call452_v2 : Ref sig .tc := ⟨.hbm, 8978, rfl⟩
abbrev main_call452_v3 : Ref sig .tc := ⟨.hbm, 8979, rfl⟩
abbrev main_call452_v4 : Ref sig .tc := ⟨.hbm, 8980, rfl⟩
abbrev main_v5134 : Ref sig .tc := ⟨.hbm, 8981, rfl⟩
abbrev main_cst_1579 : Ref sig .tc := ⟨.hbm, 8982, rfl⟩
abbrev main_cst_1580 : Ref sig .tc := ⟨.hbm, 8983, rfl⟩
abbrev main_call453_v0 : Ref sig .tc := ⟨.hbm, 8984, rfl⟩
abbrev main_call453_v1 : Ref sig .tc := ⟨.hbm, 8985, rfl⟩
abbrev main_call453_v2 : Ref sig .tc := ⟨.hbm, 8986, rfl⟩
abbrev main_call453_v3 : Ref sig .tc := ⟨.hbm, 8987, rfl⟩
abbrev main_call453_v4 : Ref sig .tc := ⟨.hbm, 8988, rfl⟩
abbrev main_v5135 : Ref sig .tc := ⟨.hbm, 8989, rfl⟩
abbrev main_v5136 : Ref sig .tc := ⟨.hbm, 8990, rfl⟩
abbrev main_v5137 : Ref sig .tc := ⟨.hbm, 8991, rfl⟩
abbrev main_v5138 : Ref sig .tc := ⟨.hbm, 8992, rfl⟩
abbrev main_v5139 : Ref sig .tc := ⟨.hbm, 8993, rfl⟩
abbrev main_v5140 : Ref sig .tc := ⟨.hbm, 8994, rfl⟩
abbrev main_v5141 : Ref sig .tc := ⟨.hbm, 8995, rfl⟩
abbrev main_v5142 : Ref sig .tc := ⟨.hbm, 8996, rfl⟩
abbrev main_v5143 : Ref sig .tc := ⟨.hbm, 8997, rfl⟩
abbrev main_v5144 : Ref sig .tc := ⟨.hbm, 8998, rfl⟩
abbrev main_cst_1581 : Ref sig .tc := ⟨.hbm, 8999, rfl⟩
abbrev main_cst_1582 : Ref sig .tc := ⟨.hbm, 9000, rfl⟩
abbrev main_call454_v0 : Ref sig .tc := ⟨.hbm, 9001, rfl⟩
abbrev main_call454_v1 : Ref sig .tc := ⟨.hbm, 9002, rfl⟩
abbrev main_call454_v2 : Ref sig .tc := ⟨.hbm, 9003, rfl⟩
abbrev main_call454_v3 : Ref sig .tc := ⟨.hbm, 9004, rfl⟩
abbrev main_call454_v4 : Ref sig .tc := ⟨.hbm, 9005, rfl⟩
abbrev main_v5145 : Ref sig .tc := ⟨.hbm, 9006, rfl⟩
abbrev main_cst_1583 : Ref sig .tc := ⟨.hbm, 9007, rfl⟩
abbrev main_cst_1584 : Ref sig .tc := ⟨.hbm, 9008, rfl⟩
abbrev main_call455_v0 : Ref sig .tc := ⟨.hbm, 9009, rfl⟩
abbrev main_call455_v1 : Ref sig .tc := ⟨.hbm, 9010, rfl⟩
abbrev main_call455_v2 : Ref sig .tc := ⟨.hbm, 9011, rfl⟩
abbrev main_call455_v3 : Ref sig .tc := ⟨.hbm, 9012, rfl⟩
abbrev main_call455_v4 : Ref sig .tc := ⟨.hbm, 9013, rfl⟩
abbrev main_v5146 : Ref sig .tc := ⟨.hbm, 9014, rfl⟩
abbrev main_v5147 : Ref sig .tc := ⟨.hbm, 9015, rfl⟩
abbrev main_v5148 : Ref sig .tc := ⟨.hbm, 9016, rfl⟩
abbrev main_v5149 : Ref sig .tc := ⟨.hbm, 9017, rfl⟩
abbrev main_v5150 : Ref sig .tc := ⟨.hbm, 9018, rfl⟩
abbrev main_v5151 : Ref sig .tc := ⟨.hbm, 9019, rfl⟩
abbrev main_v5152 : Ref sig .tc := ⟨.hbm, 9020, rfl⟩
abbrev main_v5153 : Ref sig .tc := ⟨.hbm, 9021, rfl⟩
abbrev main_v5154 : Ref sig .tc := ⟨.hbm, 9022, rfl⟩
abbrev main_v5155 : Ref sig .tc := ⟨.hbm, 9023, rfl⟩
abbrev main_cst_1585 : Ref sig .tc := ⟨.hbm, 9024, rfl⟩
abbrev main_cst_1586 : Ref sig .tc := ⟨.hbm, 9025, rfl⟩
abbrev main_call456_v0 : Ref sig .tc := ⟨.hbm, 9026, rfl⟩
abbrev main_call456_v1 : Ref sig .tc := ⟨.hbm, 9027, rfl⟩
abbrev main_call456_v2 : Ref sig .tc := ⟨.hbm, 9028, rfl⟩
abbrev main_call456_v3 : Ref sig .tc := ⟨.hbm, 9029, rfl⟩
abbrev main_call456_v4 : Ref sig .tc := ⟨.hbm, 9030, rfl⟩
abbrev main_v5156 : Ref sig .tc := ⟨.hbm, 9031, rfl⟩
abbrev main_cst_1587 : Ref sig .tc := ⟨.hbm, 9032, rfl⟩
abbrev main_cst_1588 : Ref sig .tc := ⟨.hbm, 9033, rfl⟩
abbrev main_call457_v0 : Ref sig .tc := ⟨.hbm, 9034, rfl⟩
abbrev main_call457_v1 : Ref sig .tc := ⟨.hbm, 9035, rfl⟩
abbrev main_call457_v2 : Ref sig .tc := ⟨.hbm, 9036, rfl⟩
abbrev main_call457_v3 : Ref sig .tc := ⟨.hbm, 9037, rfl⟩
abbrev main_call457_v4 : Ref sig .tc := ⟨.hbm, 9038, rfl⟩
abbrev main_v5157 : Ref sig .tc := ⟨.hbm, 9039, rfl⟩
abbrev main_v5158 : Ref sig .tc := ⟨.hbm, 9040, rfl⟩
abbrev main_v5159 : Ref sig .tc := ⟨.hbm, 9041, rfl⟩
abbrev main_v5160 : Ref sig .tc := ⟨.hbm, 9042, rfl⟩
abbrev main_v5161 : Ref sig .tc := ⟨.hbm, 9043, rfl⟩
abbrev main_v5162 : Ref sig .tc := ⟨.hbm, 9044, rfl⟩
abbrev main_v5163 : Ref sig .tc := ⟨.hbm, 9045, rfl⟩
abbrev main_v5164 : Ref sig .tc := ⟨.hbm, 9046, rfl⟩
abbrev main_cst_1589 : Ref sig .tc := ⟨.hbm, 9047, rfl⟩
abbrev main_v5165 : Ref sig .tc := ⟨.hbm, 9048, rfl⟩
abbrev main_v5166 : Ref sig .tc := ⟨.hbm, 9049, rfl⟩
abbrev main_v5167 : Ref sig .tc := ⟨.hbm, 9050, rfl⟩
abbrev main_cst_1590 : Ref sig .tc := ⟨.hbm, 9051, rfl⟩
abbrev main_v5168 : Ref sig .tc := ⟨.hbm, 9052, rfl⟩
abbrev main_v5169 : Ref sig .tc := ⟨.hbm, 9053, rfl⟩
abbrev main_cst_1591 : Ref sig .tc := ⟨.hbm, 9054, rfl⟩
abbrev main_v5170 : Ref sig .tc := ⟨.hbm, 9055, rfl⟩
abbrev main_v5171 : Ref sig .tc := ⟨.hbm, 9056, rfl⟩
abbrev main_v5172 : Ref sig .tc := ⟨.hbm, 9057, rfl⟩
abbrev main_v5173 : Ref sig .tc := ⟨.hbm, 9058, rfl⟩
abbrev main_cst_1592 : Ref sig .tc := ⟨.hbm, 9059, rfl⟩
abbrev main_v5174 : Ref sig .tc := ⟨.hbm, 9060, rfl⟩
abbrev main_v5175 : Ref sig .tc := ⟨.hbm, 9061, rfl⟩
abbrev main_v5176 : Ref sig .tc := ⟨.hbm, 9062, rfl⟩
abbrev main_v5177 : Ref sig .tc := ⟨.hbm, 9063, rfl⟩
abbrev main_v5178 : Ref sig .tc := ⟨.hbm, 9064, rfl⟩
abbrev main_v5179 : Ref sig .tc := ⟨.hbm, 9065, rfl⟩
abbrev main_v5180 : Ref sig .tc := ⟨.hbm, 9066, rfl⟩
abbrev main_cst_1593 : Ref sig .tc := ⟨.hbm, 9067, rfl⟩
abbrev main_v5181 : Ref sig .tc := ⟨.hbm, 9068, rfl⟩
abbrev main_v5182 : Ref sig .tc := ⟨.hbm, 9069, rfl⟩
abbrev main_cst_1594 : Ref sig .tc := ⟨.hbm, 9070, rfl⟩
abbrev main_v5183 : Ref sig .tc := ⟨.hbm, 9071, rfl⟩
abbrev main_v5184 : Ref sig .tc := ⟨.hbm, 9072, rfl⟩
abbrev main_v5185 : Ref sig .tc := ⟨.hbm, 9073, rfl⟩
abbrev main_v5186 : Ref sig .tc := ⟨.hbm, 9074, rfl⟩
abbrev main_v5187 : Ref sig .tc := ⟨.hbm, 9075, rfl⟩
abbrev main_v5188 : Ref sig .tc := ⟨.hbm, 9076, rfl⟩
abbrev main_cst_1595 : Ref sig .tc := ⟨.hbm, 9077, rfl⟩
abbrev main_cst_1596 : Ref sig .tc := ⟨.hbm, 9078, rfl⟩
abbrev main_call458_v0 : Ref sig .tc := ⟨.hbm, 9079, rfl⟩
abbrev main_call458_v1 : Ref sig .tc := ⟨.hbm, 9080, rfl⟩
abbrev main_call458_v2 : Ref sig .tc := ⟨.hbm, 9081, rfl⟩
abbrev main_call458_v3 : Ref sig .tc := ⟨.hbm, 9082, rfl⟩
abbrev main_call458_v4 : Ref sig .tc := ⟨.hbm, 9083, rfl⟩
abbrev main_v5189 : Ref sig .tc := ⟨.hbm, 9084, rfl⟩
abbrev main_cst_1597 : Ref sig .tc := ⟨.hbm, 9085, rfl⟩
abbrev main_cst_1598 : Ref sig .tc := ⟨.hbm, 9086, rfl⟩
abbrev main_call459_v0 : Ref sig .tc := ⟨.hbm, 9087, rfl⟩
abbrev main_call459_v1 : Ref sig .tc := ⟨.hbm, 9088, rfl⟩
abbrev main_call459_v2 : Ref sig .tc := ⟨.hbm, 9089, rfl⟩
abbrev main_call459_v3 : Ref sig .tc := ⟨.hbm, 9090, rfl⟩
abbrev main_call459_v4 : Ref sig .tc := ⟨.hbm, 9091, rfl⟩
abbrev main_v5190 : Ref sig .tc := ⟨.hbm, 9092, rfl⟩
abbrev main_v5191 : Ref sig .tc := ⟨.hbm, 9093, rfl⟩
abbrev main_v5192 : Ref sig .tc := ⟨.hbm, 9094, rfl⟩
abbrev main_v5193 : Ref sig .tc := ⟨.hbm, 9095, rfl⟩
abbrev main_v5194 : Ref sig .tc := ⟨.hbm, 9096, rfl⟩
abbrev main_v5195 : Ref sig .tc := ⟨.hbm, 9097, rfl⟩
abbrev main_v5196 : Ref sig .tc := ⟨.hbm, 9098, rfl⟩
abbrev main_v5197 : Ref sig .tc := ⟨.hbm, 9099, rfl⟩
abbrev main_cst_1599 : Ref sig .tc := ⟨.hbm, 9100, rfl⟩
abbrev main_v5198 : Ref sig .tc := ⟨.hbm, 9101, rfl⟩
abbrev main_v5199 : Ref sig .tc := ⟨.hbm, 9102, rfl⟩
abbrev main_v5200 : Ref sig .tc := ⟨.hbm, 9103, rfl⟩
abbrev main_cst_1600 : Ref sig .tc := ⟨.hbm, 9104, rfl⟩
abbrev main_v5201 : Ref sig .tc := ⟨.hbm, 9105, rfl⟩
abbrev main_v5202 : Ref sig .tc := ⟨.hbm, 9106, rfl⟩
abbrev main_cst_1601 : Ref sig .tc := ⟨.hbm, 9107, rfl⟩
abbrev main_v5203 : Ref sig .tc := ⟨.hbm, 9108, rfl⟩
abbrev main_v5204 : Ref sig .tc := ⟨.hbm, 9109, rfl⟩
abbrev main_v5205 : Ref sig .tc := ⟨.hbm, 9110, rfl⟩
abbrev main_v5206 : Ref sig .tc := ⟨.hbm, 9111, rfl⟩
abbrev main_cst_1602 : Ref sig .tc := ⟨.hbm, 9112, rfl⟩
abbrev main_v5207 : Ref sig .tc := ⟨.hbm, 9113, rfl⟩
abbrev main_v5208 : Ref sig .tc := ⟨.hbm, 9114, rfl⟩
abbrev main_v5209 : Ref sig .tc := ⟨.hbm, 9115, rfl⟩
abbrev main_v5210 : Ref sig .tc := ⟨.hbm, 9116, rfl⟩
abbrev main_v5211 : Ref sig .tc := ⟨.hbm, 9117, rfl⟩
abbrev main_v5212 : Ref sig .tc := ⟨.hbm, 9118, rfl⟩
abbrev main_v5213 : Ref sig .tc := ⟨.hbm, 9119, rfl⟩
abbrev main_v5214 : Ref sig .tc := ⟨.hbm, 9120, rfl⟩
abbrev main_v5215 : Ref sig .tc := ⟨.hbm, 9121, rfl⟩
abbrev main_v5216 : Ref sig .tc := ⟨.hbm, 9122, rfl⟩
abbrev main_v5217 : Ref sig .tc := ⟨.hbm, 9123, rfl⟩
abbrev main_cst_1603 : Ref sig .tc := ⟨.hbm, 9124, rfl⟩
abbrev main_v5218 : Ref sig .tc := ⟨.hbm, 9125, rfl⟩
abbrev main_v5219 : Ref sig .tc := ⟨.hbm, 9126, rfl⟩
abbrev main_cst_1604 : Ref sig .tc := ⟨.hbm, 9127, rfl⟩
abbrev main_v5220 : Ref sig .tc := ⟨.hbm, 9128, rfl⟩
abbrev main_v5221 : Ref sig .tc := ⟨.hbm, 9129, rfl⟩
abbrev main_v5222 : Ref sig .tc := ⟨.hbm, 9130, rfl⟩
abbrev main_v5223 : Ref sig .tc := ⟨.hbm, 9131, rfl⟩
abbrev main_v5224 : Ref sig .tc := ⟨.hbm, 9132, rfl⟩
abbrev main_v5225 : Ref sig .tc := ⟨.hbm, 9133, rfl⟩
abbrev main_cst_1605 : Ref sig .tc := ⟨.hbm, 9134, rfl⟩
abbrev main_cst_1606 : Ref sig .tc := ⟨.hbm, 9135, rfl⟩
abbrev main_call460_v0 : Ref sig .tc := ⟨.hbm, 9136, rfl⟩
abbrev main_call460_v1 : Ref sig .tc := ⟨.hbm, 9137, rfl⟩
abbrev main_call460_v2 : Ref sig .tc := ⟨.hbm, 9138, rfl⟩
abbrev main_call460_v3 : Ref sig .tc := ⟨.hbm, 9139, rfl⟩
abbrev main_call460_v4 : Ref sig .tc := ⟨.hbm, 9140, rfl⟩
abbrev main_v5226 : Ref sig .tc := ⟨.hbm, 9141, rfl⟩
abbrev main_cst_1607 : Ref sig .tc := ⟨.hbm, 9142, rfl⟩
abbrev main_cst_1608 : Ref sig .tc := ⟨.hbm, 9143, rfl⟩
abbrev main_call461_v0 : Ref sig .tc := ⟨.hbm, 9144, rfl⟩
abbrev main_call461_v1 : Ref sig .tc := ⟨.hbm, 9145, rfl⟩
abbrev main_call461_v2 : Ref sig .tc := ⟨.hbm, 9146, rfl⟩
abbrev main_call461_v3 : Ref sig .tc := ⟨.hbm, 9147, rfl⟩
abbrev main_call461_v4 : Ref sig .tc := ⟨.hbm, 9148, rfl⟩
abbrev main_v5227 : Ref sig .tc := ⟨.hbm, 9149, rfl⟩
abbrev main_v5228 : Ref sig .tc := ⟨.hbm, 9150, rfl⟩
abbrev main_v5229 : Ref sig .tc := ⟨.hbm, 9151, rfl⟩
abbrev main_v5230 : Ref sig .tc := ⟨.hbm, 9152, rfl⟩
abbrev main_v5231 : Ref sig .tc := ⟨.hbm, 9153, rfl⟩
abbrev main_v5232 : Ref sig .tc := ⟨.hbm, 9154, rfl⟩
abbrev main_v5233 : Ref sig .tc := ⟨.hbm, 9155, rfl⟩
abbrev main_v5234 : Ref sig .tc := ⟨.hbm, 9156, rfl⟩
abbrev main_v5235 : Ref sig .tc := ⟨.hbm, 9157, rfl⟩
abbrev main_v5236 : Ref sig .tc := ⟨.hbm, 9158, rfl⟩
abbrev main_cst_1609 : Ref sig .tc := ⟨.hbm, 9159, rfl⟩
abbrev main_cst_1610 : Ref sig .tc := ⟨.hbm, 9160, rfl⟩
abbrev main_call462_v0 : Ref sig .tc := ⟨.hbm, 9161, rfl⟩
abbrev main_call462_v1 : Ref sig .tc := ⟨.hbm, 9162, rfl⟩
abbrev main_call462_v2 : Ref sig .tc := ⟨.hbm, 9163, rfl⟩
abbrev main_call462_v3 : Ref sig .tc := ⟨.hbm, 9164, rfl⟩
abbrev main_call462_v4 : Ref sig .tc := ⟨.hbm, 9165, rfl⟩
abbrev main_v5237 : Ref sig .tc := ⟨.hbm, 9166, rfl⟩
abbrev main_cst_1611 : Ref sig .tc := ⟨.hbm, 9167, rfl⟩
abbrev main_cst_1612 : Ref sig .tc := ⟨.hbm, 9168, rfl⟩
abbrev main_call463_v0 : Ref sig .tc := ⟨.hbm, 9169, rfl⟩
abbrev main_call463_v1 : Ref sig .tc := ⟨.hbm, 9170, rfl⟩
abbrev main_call463_v2 : Ref sig .tc := ⟨.hbm, 9171, rfl⟩
abbrev main_call463_v3 : Ref sig .tc := ⟨.hbm, 9172, rfl⟩
abbrev main_call463_v4 : Ref sig .tc := ⟨.hbm, 9173, rfl⟩
abbrev main_v5238 : Ref sig .tc := ⟨.hbm, 9174, rfl⟩
abbrev main_v5239 : Ref sig .tc := ⟨.hbm, 9175, rfl⟩
abbrev main_v5240 : Ref sig .tc := ⟨.hbm, 9176, rfl⟩
abbrev main_v5241 : Ref sig .tc := ⟨.hbm, 9177, rfl⟩
abbrev main_v5242 : Ref sig .tc := ⟨.hbm, 9178, rfl⟩
abbrev main_v5243 : Ref sig .tc := ⟨.hbm, 9179, rfl⟩
abbrev main_v5244 : Ref sig .tc := ⟨.hbm, 9180, rfl⟩
abbrev main_v5245 : Ref sig .tc := ⟨.hbm, 9181, rfl⟩
abbrev main_cst_1613 : Ref sig .tc := ⟨.hbm, 9182, rfl⟩
abbrev main_v5246 : Ref sig .tc := ⟨.hbm, 9183, rfl⟩
abbrev main_v5247 : Ref sig .tc := ⟨.hbm, 9184, rfl⟩
abbrev main_v5248 : Ref sig .tc := ⟨.hbm, 9185, rfl⟩
abbrev main_cst_1614 : Ref sig .tc := ⟨.hbm, 9186, rfl⟩
abbrev main_v5249 : Ref sig .tc := ⟨.hbm, 9187, rfl⟩
abbrev main_v5250 : Ref sig .tc := ⟨.hbm, 9188, rfl⟩
abbrev main_cst_1615 : Ref sig .tc := ⟨.hbm, 9189, rfl⟩
abbrev main_v5251 : Ref sig .tc := ⟨.hbm, 9190, rfl⟩
abbrev main_v5252 : Ref sig .tc := ⟨.hbm, 9191, rfl⟩
abbrev main_v5253 : Ref sig .tc := ⟨.hbm, 9192, rfl⟩
abbrev main_v5254 : Ref sig .tc := ⟨.hbm, 9193, rfl⟩
abbrev main_cst_1616 : Ref sig .tc := ⟨.hbm, 9194, rfl⟩
abbrev main_v5255 : Ref sig .tc := ⟨.hbm, 9195, rfl⟩
abbrev main_v5256 : Ref sig .tc := ⟨.hbm, 9196, rfl⟩
abbrev main_v5257 : Ref sig .tc := ⟨.hbm, 9197, rfl⟩
abbrev main_v5258 : Ref sig .tc := ⟨.hbm, 9198, rfl⟩
abbrev main_v5259 : Ref sig .tc := ⟨.hbm, 9199, rfl⟩
abbrev main_v5260 : Ref sig .tc := ⟨.hbm, 9200, rfl⟩
abbrev main_v5261 : Ref sig .tc := ⟨.hbm, 9201, rfl⟩
abbrev main_cst_1617 : Ref sig .tc := ⟨.hbm, 9202, rfl⟩
abbrev main_v5262 : Ref sig .tc := ⟨.hbm, 9203, rfl⟩
abbrev main_v5263 : Ref sig .tc := ⟨.hbm, 9204, rfl⟩
abbrev main_cst_1618 : Ref sig .tc := ⟨.hbm, 9205, rfl⟩
abbrev main_v5264 : Ref sig .tc := ⟨.hbm, 9206, rfl⟩
abbrev main_v5265 : Ref sig .tc := ⟨.hbm, 9207, rfl⟩
abbrev main_v5266 : Ref sig .tc := ⟨.hbm, 9208, rfl⟩
abbrev main_v5267 : Ref sig .tc := ⟨.hbm, 9209, rfl⟩
abbrev main_v5268 : Ref sig .tc := ⟨.hbm, 9210, rfl⟩
abbrev main_v5269 : Ref sig .tc := ⟨.hbm, 9211, rfl⟩
abbrev main_cst_1619 : Ref sig .tc := ⟨.hbm, 9212, rfl⟩
abbrev main_cst_1620 : Ref sig .tc := ⟨.hbm, 9213, rfl⟩
abbrev main_call464_v0 : Ref sig .tc := ⟨.hbm, 9214, rfl⟩
abbrev main_call464_v1 : Ref sig .tc := ⟨.hbm, 9215, rfl⟩
abbrev main_call464_v2 : Ref sig .tc := ⟨.hbm, 9216, rfl⟩
abbrev main_call464_v3 : Ref sig .tc := ⟨.hbm, 9217, rfl⟩
abbrev main_call464_v4 : Ref sig .tc := ⟨.hbm, 9218, rfl⟩
abbrev main_v5270 : Ref sig .tc := ⟨.hbm, 9219, rfl⟩
abbrev main_cst_1621 : Ref sig .tc := ⟨.hbm, 9220, rfl⟩
abbrev main_cst_1622 : Ref sig .tc := ⟨.hbm, 9221, rfl⟩
abbrev main_call465_v0 : Ref sig .tc := ⟨.hbm, 9222, rfl⟩
abbrev main_call465_v1 : Ref sig .tc := ⟨.hbm, 9223, rfl⟩
abbrev main_call465_v2 : Ref sig .tc := ⟨.hbm, 9224, rfl⟩
abbrev main_call465_v3 : Ref sig .tc := ⟨.hbm, 9225, rfl⟩
abbrev main_call465_v4 : Ref sig .tc := ⟨.hbm, 9226, rfl⟩
abbrev main_v5271 : Ref sig .tc := ⟨.hbm, 9227, rfl⟩
abbrev main_v5272 : Ref sig .tc := ⟨.hbm, 9228, rfl⟩
abbrev main_v5273 : Ref sig .tc := ⟨.hbm, 9229, rfl⟩
abbrev main_v5274 : Ref sig .tc := ⟨.hbm, 9230, rfl⟩
abbrev main_v5275 : Ref sig .tc := ⟨.hbm, 9231, rfl⟩
abbrev main_v5276 : Ref sig .tc := ⟨.hbm, 9232, rfl⟩
abbrev main_v5277 : Ref sig .tc := ⟨.hbm, 9233, rfl⟩
abbrev main_v5278 : Ref sig .tc := ⟨.hbm, 9234, rfl⟩
abbrev main_cst_1623 : Ref sig .tc := ⟨.hbm, 9235, rfl⟩
abbrev main_v5279 : Ref sig .tc := ⟨.hbm, 9236, rfl⟩
abbrev main_v5280 : Ref sig .tc := ⟨.hbm, 9237, rfl⟩
abbrev main_v5281 : Ref sig .tc := ⟨.hbm, 9238, rfl⟩
abbrev main_cst_1624 : Ref sig .tc := ⟨.hbm, 9239, rfl⟩
abbrev main_v5282 : Ref sig .tc := ⟨.hbm, 9240, rfl⟩
abbrev main_v5283 : Ref sig .tc := ⟨.hbm, 9241, rfl⟩
abbrev main_cst_1625 : Ref sig .tc := ⟨.hbm, 9242, rfl⟩
abbrev main_v5284 : Ref sig .tc := ⟨.hbm, 9243, rfl⟩
abbrev main_v5285 : Ref sig .tc := ⟨.hbm, 9244, rfl⟩
abbrev main_v5286 : Ref sig .tc := ⟨.hbm, 9245, rfl⟩
abbrev main_v5287 : Ref sig .tc := ⟨.hbm, 9246, rfl⟩
abbrev main_cst_1626 : Ref sig .tc := ⟨.hbm, 9247, rfl⟩
abbrev main_v5288 : Ref sig .tc := ⟨.hbm, 9248, rfl⟩
abbrev main_v5289 : Ref sig .tc := ⟨.hbm, 9249, rfl⟩
abbrev main_v5290 : Ref sig .tc := ⟨.hbm, 9250, rfl⟩
abbrev main_v5291 : Ref sig .tc := ⟨.hbm, 9251, rfl⟩
abbrev main_v5292 : Ref sig .tc := ⟨.hbm, 9252, rfl⟩
abbrev main_v5293 : Ref sig .tc := ⟨.hbm, 9253, rfl⟩
abbrev main_v5294 : Ref sig .tc := ⟨.hbm, 9254, rfl⟩
abbrev main_v5295 : Ref sig .tc := ⟨.hbm, 9255, rfl⟩
abbrev main_v5296 : Ref sig .tc := ⟨.hbm, 9256, rfl⟩
abbrev main_v5297 : Ref sig .tc := ⟨.hbm, 9257, rfl⟩
abbrev main_v5298 : Ref sig .tc := ⟨.hbm, 9258, rfl⟩
abbrev main_v5299 : Ref sig .tc := ⟨.hbm, 9259, rfl⟩
abbrev main_v5300 : Ref sig .tc := ⟨.hbm, 9260, rfl⟩
abbrev main_v5301 : Ref sig .tc := ⟨.hbm, 9261, rfl⟩
abbrev main_v5302 : Ref sig .tc := ⟨.hbm, 9262, rfl⟩
abbrev main_cst_1627 : Ref sig .tc := ⟨.hbm, 9263, rfl⟩
abbrev main_v5303 : Ref sig .tc := ⟨.hbm, 9264, rfl⟩
abbrev main_v5304 : Ref sig .tc := ⟨.hbm, 9265, rfl⟩
abbrev main_cst_1628 : Ref sig .tc := ⟨.hbm, 9266, rfl⟩
abbrev main_v5305 : Ref sig .tc := ⟨.hbm, 9267, rfl⟩
abbrev main_v5306 : Ref sig .tc := ⟨.hbm, 9268, rfl⟩
abbrev main_v5307 : Ref sig .tc := ⟨.hbm, 9269, rfl⟩
abbrev main_v5308 : Ref sig .tc := ⟨.hbm, 9270, rfl⟩
abbrev main_v5309 : Ref sig .tc := ⟨.hbm, 9271, rfl⟩
abbrev main_v5310 : Ref sig .tc := ⟨.hbm, 9272, rfl⟩
abbrev main_cst_1629 : Ref sig .tc := ⟨.hbm, 9273, rfl⟩
abbrev main_cst_1630 : Ref sig .tc := ⟨.hbm, 9274, rfl⟩
abbrev main_call466_v0 : Ref sig .tc := ⟨.hbm, 9275, rfl⟩
abbrev main_call466_v1 : Ref sig .tc := ⟨.hbm, 9276, rfl⟩
abbrev main_call466_v2 : Ref sig .tc := ⟨.hbm, 9277, rfl⟩
abbrev main_call466_v3 : Ref sig .tc := ⟨.hbm, 9278, rfl⟩
abbrev main_call466_v4 : Ref sig .tc := ⟨.hbm, 9279, rfl⟩
abbrev main_v5311 : Ref sig .tc := ⟨.hbm, 9280, rfl⟩
abbrev main_cst_1631 : Ref sig .tc := ⟨.hbm, 9281, rfl⟩
abbrev main_cst_1632 : Ref sig .tc := ⟨.hbm, 9282, rfl⟩
abbrev main_call467_v0 : Ref sig .tc := ⟨.hbm, 9283, rfl⟩
abbrev main_call467_v1 : Ref sig .tc := ⟨.hbm, 9284, rfl⟩
abbrev main_call467_v2 : Ref sig .tc := ⟨.hbm, 9285, rfl⟩
abbrev main_call467_v3 : Ref sig .tc := ⟨.hbm, 9286, rfl⟩
abbrev main_call467_v4 : Ref sig .tc := ⟨.hbm, 9287, rfl⟩
abbrev main_v5312 : Ref sig .tc := ⟨.hbm, 9288, rfl⟩
abbrev main_v5313 : Ref sig .tc := ⟨.hbm, 9289, rfl⟩
abbrev main_v5314 : Ref sig .tc := ⟨.hbm, 9290, rfl⟩
abbrev main_v5315 : Ref sig .tc := ⟨.hbm, 9291, rfl⟩
abbrev main_v5316 : Ref sig .tc := ⟨.hbm, 9292, rfl⟩
abbrev main_v5317 : Ref sig .tc := ⟨.hbm, 9293, rfl⟩
abbrev main_v5318 : Ref sig .tc := ⟨.hbm, 9294, rfl⟩
abbrev main_v5319 : Ref sig .tc := ⟨.hbm, 9295, rfl⟩
abbrev main_v5320 : Ref sig .tc := ⟨.hbm, 9296, rfl⟩
abbrev main_v5321 : Ref sig .tc := ⟨.hbm, 9297, rfl⟩
abbrev main_cst_1633 : Ref sig .tc := ⟨.hbm, 9298, rfl⟩
abbrev main_cst_1634 : Ref sig .tc := ⟨.hbm, 9299, rfl⟩
abbrev main_call468_v0 : Ref sig .tc := ⟨.hbm, 9300, rfl⟩
abbrev main_call468_v1 : Ref sig .tc := ⟨.hbm, 9301, rfl⟩
abbrev main_call468_v2 : Ref sig .tc := ⟨.hbm, 9302, rfl⟩
abbrev main_call468_v3 : Ref sig .tc := ⟨.hbm, 9303, rfl⟩
abbrev main_call468_v4 : Ref sig .tc := ⟨.hbm, 9304, rfl⟩
abbrev main_v5322 : Ref sig .tc := ⟨.hbm, 9305, rfl⟩
abbrev main_cst_1635 : Ref sig .tc := ⟨.hbm, 9306, rfl⟩
abbrev main_cst_1636 : Ref sig .tc := ⟨.hbm, 9307, rfl⟩
abbrev main_call469_v0 : Ref sig .tc := ⟨.hbm, 9308, rfl⟩
abbrev main_call469_v1 : Ref sig .tc := ⟨.hbm, 9309, rfl⟩
abbrev main_call469_v2 : Ref sig .tc := ⟨.hbm, 9310, rfl⟩
abbrev main_call469_v3 : Ref sig .tc := ⟨.hbm, 9311, rfl⟩
abbrev main_call469_v4 : Ref sig .tc := ⟨.hbm, 9312, rfl⟩
abbrev main_v5323 : Ref sig .tc := ⟨.hbm, 9313, rfl⟩
abbrev main_v5324 : Ref sig .tc := ⟨.hbm, 9314, rfl⟩
abbrev main_v5325 : Ref sig .tc := ⟨.hbm, 9315, rfl⟩
abbrev main_v5326 : Ref sig .tc := ⟨.hbm, 9316, rfl⟩
abbrev main_v5327 : Ref sig .tc := ⟨.hbm, 9317, rfl⟩
abbrev main_v5328 : Ref sig .tc := ⟨.hbm, 9318, rfl⟩
abbrev main_v5329 : Ref sig .tc := ⟨.hbm, 9319, rfl⟩
abbrev main_v5330 : Ref sig .tc := ⟨.hbm, 9320, rfl⟩
abbrev main_v5331 : Ref sig .tc := ⟨.hbm, 9321, rfl⟩
abbrev main_v5332 : Ref sig .tc := ⟨.hbm, 9322, rfl⟩
abbrev main_cst_1637 : Ref sig .tc := ⟨.hbm, 9323, rfl⟩
abbrev main_cst_1638 : Ref sig .tc := ⟨.hbm, 9324, rfl⟩
abbrev main_call470_v0 : Ref sig .tc := ⟨.hbm, 9325, rfl⟩
abbrev main_call470_v1 : Ref sig .tc := ⟨.hbm, 9326, rfl⟩
abbrev main_call470_v2 : Ref sig .tc := ⟨.hbm, 9327, rfl⟩
abbrev main_call470_v3 : Ref sig .tc := ⟨.hbm, 9328, rfl⟩
abbrev main_call470_v4 : Ref sig .tc := ⟨.hbm, 9329, rfl⟩
abbrev main_v5333 : Ref sig .tc := ⟨.hbm, 9330, rfl⟩
abbrev main_cst_1639 : Ref sig .tc := ⟨.hbm, 9331, rfl⟩
abbrev main_cst_1640 : Ref sig .tc := ⟨.hbm, 9332, rfl⟩
abbrev main_call471_v0 : Ref sig .tc := ⟨.hbm, 9333, rfl⟩
abbrev main_call471_v1 : Ref sig .tc := ⟨.hbm, 9334, rfl⟩
abbrev main_call471_v2 : Ref sig .tc := ⟨.hbm, 9335, rfl⟩
abbrev main_call471_v3 : Ref sig .tc := ⟨.hbm, 9336, rfl⟩
abbrev main_call471_v4 : Ref sig .tc := ⟨.hbm, 9337, rfl⟩
abbrev main_v5334 : Ref sig .tc := ⟨.hbm, 9338, rfl⟩
abbrev main_v5335 : Ref sig .tc := ⟨.hbm, 9339, rfl⟩
abbrev main_v5336 : Ref sig .tc := ⟨.hbm, 9340, rfl⟩
abbrev main_v5337 : Ref sig .tc := ⟨.hbm, 9341, rfl⟩
abbrev main_v5338 : Ref sig .tc := ⟨.hbm, 9342, rfl⟩
abbrev main_v5339 : Ref sig .tc := ⟨.hbm, 9343, rfl⟩
abbrev main_v5340 : Ref sig .tc := ⟨.hbm, 9344, rfl⟩
abbrev main_v5341 : Ref sig .tc := ⟨.hbm, 9345, rfl⟩
abbrev main_cst_1641 : Ref sig .tc := ⟨.hbm, 9346, rfl⟩
abbrev main_v5342 : Ref sig .tc := ⟨.hbm, 9347, rfl⟩
abbrev main_v5343 : Ref sig .tc := ⟨.hbm, 9348, rfl⟩
abbrev main_v5344 : Ref sig .tc := ⟨.hbm, 9349, rfl⟩
abbrev main_cst_1642 : Ref sig .tc := ⟨.hbm, 9350, rfl⟩
abbrev main_v5345 : Ref sig .tc := ⟨.hbm, 9351, rfl⟩
abbrev main_v5346 : Ref sig .tc := ⟨.hbm, 9352, rfl⟩
abbrev main_cst_1643 : Ref sig .tc := ⟨.hbm, 9353, rfl⟩
abbrev main_v5347 : Ref sig .tc := ⟨.hbm, 9354, rfl⟩
abbrev main_v5348 : Ref sig .tc := ⟨.hbm, 9355, rfl⟩
abbrev main_v5349 : Ref sig .tc := ⟨.hbm, 9356, rfl⟩
abbrev main_v5350 : Ref sig .tc := ⟨.hbm, 9357, rfl⟩
abbrev main_cst_1644 : Ref sig .tc := ⟨.hbm, 9358, rfl⟩
abbrev main_v5351 : Ref sig .tc := ⟨.hbm, 9359, rfl⟩
abbrev main_v5352 : Ref sig .tc := ⟨.hbm, 9360, rfl⟩
abbrev main_v5353 : Ref sig .tc := ⟨.hbm, 9361, rfl⟩
abbrev main_v5354 : Ref sig .tc := ⟨.hbm, 9362, rfl⟩
abbrev main_v5355 : Ref sig .tc := ⟨.hbm, 9363, rfl⟩
abbrev main_v5356 : Ref sig .tc := ⟨.hbm, 9364, rfl⟩
abbrev main_v5357 : Ref sig .tc := ⟨.hbm, 9365, rfl⟩
abbrev main_cst_1645 : Ref sig .tc := ⟨.hbm, 9366, rfl⟩
abbrev main_v5358 : Ref sig .tc := ⟨.hbm, 9367, rfl⟩
abbrev main_v5359 : Ref sig .tc := ⟨.hbm, 9368, rfl⟩
abbrev main_cst_1646 : Ref sig .tc := ⟨.hbm, 9369, rfl⟩
abbrev main_v5360 : Ref sig .tc := ⟨.hbm, 9370, rfl⟩
abbrev main_v5361 : Ref sig .tc := ⟨.hbm, 9371, rfl⟩
abbrev main_v5362 : Ref sig .tc := ⟨.hbm, 9372, rfl⟩
abbrev main_v5363 : Ref sig .tc := ⟨.hbm, 9373, rfl⟩
abbrev main_v5364 : Ref sig .tc := ⟨.hbm, 9374, rfl⟩
abbrev main_v5365 : Ref sig .tc := ⟨.hbm, 9375, rfl⟩
abbrev main_cst_1647 : Ref sig .tc := ⟨.hbm, 9376, rfl⟩
abbrev main_cst_1648 : Ref sig .tc := ⟨.hbm, 9377, rfl⟩
abbrev main_call472_v0 : Ref sig .tc := ⟨.hbm, 9378, rfl⟩
abbrev main_call472_v1 : Ref sig .tc := ⟨.hbm, 9379, rfl⟩
abbrev main_call472_v2 : Ref sig .tc := ⟨.hbm, 9380, rfl⟩
abbrev main_call472_v3 : Ref sig .tc := ⟨.hbm, 9381, rfl⟩
abbrev main_call472_v4 : Ref sig .tc := ⟨.hbm, 9382, rfl⟩
abbrev main_v5366 : Ref sig .tc := ⟨.hbm, 9383, rfl⟩
abbrev main_cst_1649 : Ref sig .tc := ⟨.hbm, 9384, rfl⟩
abbrev main_cst_1650 : Ref sig .tc := ⟨.hbm, 9385, rfl⟩
abbrev main_call473_v0 : Ref sig .tc := ⟨.hbm, 9386, rfl⟩
abbrev main_call473_v1 : Ref sig .tc := ⟨.hbm, 9387, rfl⟩
abbrev main_call473_v2 : Ref sig .tc := ⟨.hbm, 9388, rfl⟩
abbrev main_call473_v3 : Ref sig .tc := ⟨.hbm, 9389, rfl⟩
abbrev main_call473_v4 : Ref sig .tc := ⟨.hbm, 9390, rfl⟩
abbrev main_v5367 : Ref sig .tc := ⟨.hbm, 9391, rfl⟩
abbrev main_v5368 : Ref sig .tc := ⟨.hbm, 9392, rfl⟩
abbrev main_v5369 : Ref sig .tc := ⟨.hbm, 9393, rfl⟩
abbrev main_v5370 : Ref sig .tc := ⟨.hbm, 9394, rfl⟩
abbrev main_v5371 : Ref sig .tc := ⟨.hbm, 9395, rfl⟩
abbrev main_v5372 : Ref sig .tc := ⟨.hbm, 9396, rfl⟩
abbrev main_v5373 : Ref sig .tc := ⟨.hbm, 9397, rfl⟩
abbrev main_v5374 : Ref sig .tc := ⟨.hbm, 9398, rfl⟩
abbrev main_cst_1651 : Ref sig .tc := ⟨.hbm, 9399, rfl⟩
abbrev main_v5375 : Ref sig .tc := ⟨.hbm, 9400, rfl⟩
abbrev main_v5376 : Ref sig .tc := ⟨.hbm, 9401, rfl⟩
abbrev main_v5377 : Ref sig .tc := ⟨.hbm, 9402, rfl⟩
abbrev main_cst_1652 : Ref sig .tc := ⟨.hbm, 9403, rfl⟩
abbrev main_v5378 : Ref sig .tc := ⟨.hbm, 9404, rfl⟩
abbrev main_v5379 : Ref sig .tc := ⟨.hbm, 9405, rfl⟩
abbrev main_cst_1653 : Ref sig .tc := ⟨.hbm, 9406, rfl⟩
abbrev main_v5380 : Ref sig .tc := ⟨.hbm, 9407, rfl⟩
abbrev main_v5381 : Ref sig .tc := ⟨.hbm, 9408, rfl⟩
abbrev main_v5382 : Ref sig .tc := ⟨.hbm, 9409, rfl⟩
abbrev main_v5383 : Ref sig .tc := ⟨.hbm, 9410, rfl⟩
abbrev main_cst_1654 : Ref sig .tc := ⟨.hbm, 9411, rfl⟩
abbrev main_v5384 : Ref sig .tc := ⟨.hbm, 9412, rfl⟩
abbrev main_v5385 : Ref sig .tc := ⟨.hbm, 9413, rfl⟩
abbrev main_v5386 : Ref sig .tc := ⟨.hbm, 9414, rfl⟩
abbrev main_v5387 : Ref sig .tc := ⟨.hbm, 9415, rfl⟩
abbrev main_v5388 : Ref sig .tc := ⟨.hbm, 9416, rfl⟩
abbrev main_v5389 : Ref sig .tc := ⟨.hbm, 9417, rfl⟩
abbrev main_v5390 : Ref sig .tc := ⟨.hbm, 9418, rfl⟩
abbrev main_v5391 : Ref sig .tc := ⟨.hbm, 9419, rfl⟩
abbrev main_v5392 : Ref sig .tc := ⟨.hbm, 9420, rfl⟩
abbrev main_v5393 : Ref sig .tc := ⟨.hbm, 9421, rfl⟩
abbrev main_v5394 : Ref sig .tc := ⟨.hbm, 9422, rfl⟩
abbrev main_cst_1655 : Ref sig .tc := ⟨.hbm, 9423, rfl⟩
abbrev main_v5395 : Ref sig .tc := ⟨.hbm, 9424, rfl⟩
abbrev main_v5396 : Ref sig .tc := ⟨.hbm, 9425, rfl⟩
abbrev main_cst_1656 : Ref sig .tc := ⟨.hbm, 9426, rfl⟩
abbrev main_v5397 : Ref sig .tc := ⟨.hbm, 9427, rfl⟩
abbrev main_v5398 : Ref sig .tc := ⟨.hbm, 9428, rfl⟩
abbrev main_v5399 : Ref sig .tc := ⟨.hbm, 9429, rfl⟩
abbrev main_v5400 : Ref sig .tc := ⟨.hbm, 9430, rfl⟩
abbrev main_v5401 : Ref sig .tc := ⟨.hbm, 9431, rfl⟩
abbrev main_v5402 : Ref sig .tc := ⟨.hbm, 9432, rfl⟩
abbrev main_cst_1657 : Ref sig .tc := ⟨.hbm, 9433, rfl⟩
abbrev main_cst_1658 : Ref sig .tc := ⟨.hbm, 9434, rfl⟩
abbrev main_call474_v0 : Ref sig .tc := ⟨.hbm, 9435, rfl⟩
abbrev main_call474_v1 : Ref sig .tc := ⟨.hbm, 9436, rfl⟩
abbrev main_call474_v2 : Ref sig .tc := ⟨.hbm, 9437, rfl⟩
abbrev main_call474_v3 : Ref sig .tc := ⟨.hbm, 9438, rfl⟩
abbrev main_call474_v4 : Ref sig .tc := ⟨.hbm, 9439, rfl⟩
abbrev main_v5403 : Ref sig .tc := ⟨.hbm, 9440, rfl⟩
abbrev main_cst_1659 : Ref sig .tc := ⟨.hbm, 9441, rfl⟩
abbrev main_cst_1660 : Ref sig .tc := ⟨.hbm, 9442, rfl⟩
abbrev main_call475_v0 : Ref sig .tc := ⟨.hbm, 9443, rfl⟩
abbrev main_call475_v1 : Ref sig .tc := ⟨.hbm, 9444, rfl⟩
abbrev main_call475_v2 : Ref sig .tc := ⟨.hbm, 9445, rfl⟩
abbrev main_call475_v3 : Ref sig .tc := ⟨.hbm, 9446, rfl⟩
abbrev main_call475_v4 : Ref sig .tc := ⟨.hbm, 9447, rfl⟩
abbrev main_v5404 : Ref sig .tc := ⟨.hbm, 9448, rfl⟩
abbrev main_v5405 : Ref sig .tc := ⟨.hbm, 9449, rfl⟩
abbrev main_v5406 : Ref sig .tc := ⟨.hbm, 9450, rfl⟩
abbrev main_v5407 : Ref sig .tc := ⟨.hbm, 9451, rfl⟩
abbrev main_v5408 : Ref sig .tc := ⟨.hbm, 9452, rfl⟩
abbrev main_v5409 : Ref sig .tc := ⟨.hbm, 9453, rfl⟩
abbrev main_v5410 : Ref sig .tc := ⟨.hbm, 9454, rfl⟩
abbrev main_v5411 : Ref sig .tc := ⟨.hbm, 9455, rfl⟩
abbrev main_v5412 : Ref sig .tc := ⟨.hbm, 9456, rfl⟩
abbrev main_v5413 : Ref sig .tc := ⟨.hbm, 9457, rfl⟩
abbrev main_cst_1661 : Ref sig .tc := ⟨.hbm, 9458, rfl⟩
abbrev main_cst_1662 : Ref sig .tc := ⟨.hbm, 9459, rfl⟩
abbrev main_call476_v0 : Ref sig .tc := ⟨.hbm, 9460, rfl⟩
abbrev main_call476_v1 : Ref sig .tc := ⟨.hbm, 9461, rfl⟩
abbrev main_call476_v2 : Ref sig .tc := ⟨.hbm, 9462, rfl⟩
abbrev main_call476_v3 : Ref sig .tc := ⟨.hbm, 9463, rfl⟩
abbrev main_call476_v4 : Ref sig .tc := ⟨.hbm, 9464, rfl⟩
abbrev main_v5414 : Ref sig .tc := ⟨.hbm, 9465, rfl⟩
abbrev main_cst_1663 : Ref sig .tc := ⟨.hbm, 9466, rfl⟩
abbrev main_cst_1664 : Ref sig .tc := ⟨.hbm, 9467, rfl⟩
abbrev main_call477_v0 : Ref sig .tc := ⟨.hbm, 9468, rfl⟩
abbrev main_call477_v1 : Ref sig .tc := ⟨.hbm, 9469, rfl⟩
abbrev main_call477_v2 : Ref sig .tc := ⟨.hbm, 9470, rfl⟩
abbrev main_call477_v3 : Ref sig .tc := ⟨.hbm, 9471, rfl⟩
abbrev main_call477_v4 : Ref sig .tc := ⟨.hbm, 9472, rfl⟩
abbrev main_v5415 : Ref sig .tc := ⟨.hbm, 9473, rfl⟩
abbrev main_v5416 : Ref sig .tc := ⟨.hbm, 9474, rfl⟩
abbrev main_v5417 : Ref sig .tc := ⟨.hbm, 9475, rfl⟩
abbrev main_v5418 : Ref sig .tc := ⟨.hbm, 9476, rfl⟩
abbrev main_v5419 : Ref sig .tc := ⟨.hbm, 9477, rfl⟩
abbrev main_v5420 : Ref sig .tc := ⟨.hbm, 9478, rfl⟩
abbrev main_v5421 : Ref sig .tc := ⟨.hbm, 9479, rfl⟩
abbrev main_v5422 : Ref sig .tc := ⟨.hbm, 9480, rfl⟩
abbrev main_cst_1665 : Ref sig .tc := ⟨.hbm, 9481, rfl⟩
abbrev main_v5423 : Ref sig .tc := ⟨.hbm, 9482, rfl⟩
abbrev main_v5424 : Ref sig .tc := ⟨.hbm, 9483, rfl⟩
abbrev main_v5425 : Ref sig .tc := ⟨.hbm, 9484, rfl⟩
abbrev main_cst_1666 : Ref sig .tc := ⟨.hbm, 9485, rfl⟩
abbrev main_v5426 : Ref sig .tc := ⟨.hbm, 9486, rfl⟩
abbrev main_v5427 : Ref sig .tc := ⟨.hbm, 9487, rfl⟩
abbrev main_cst_1667 : Ref sig .tc := ⟨.hbm, 9488, rfl⟩
abbrev main_v5428 : Ref sig .tc := ⟨.hbm, 9489, rfl⟩
abbrev main_v5429 : Ref sig .tc := ⟨.hbm, 9490, rfl⟩
abbrev main_v5430 : Ref sig .tc := ⟨.hbm, 9491, rfl⟩
abbrev main_v5431 : Ref sig .tc := ⟨.hbm, 9492, rfl⟩
abbrev main_cst_1668 : Ref sig .tc := ⟨.hbm, 9493, rfl⟩
abbrev main_v5432 : Ref sig .tc := ⟨.hbm, 9494, rfl⟩
abbrev main_v5433 : Ref sig .tc := ⟨.hbm, 9495, rfl⟩
abbrev main_v5434 : Ref sig .tc := ⟨.hbm, 9496, rfl⟩
abbrev main_v5435 : Ref sig .tc := ⟨.hbm, 9497, rfl⟩
abbrev main_v5436 : Ref sig .tc := ⟨.hbm, 9498, rfl⟩
abbrev main_v5437 : Ref sig .tc := ⟨.hbm, 9499, rfl⟩
abbrev main_v5438 : Ref sig .tc := ⟨.hbm, 9500, rfl⟩
abbrev main_cst_1669 : Ref sig .tc := ⟨.hbm, 9501, rfl⟩
abbrev main_v5439 : Ref sig .tc := ⟨.hbm, 9502, rfl⟩
abbrev main_v5440 : Ref sig .tc := ⟨.hbm, 9503, rfl⟩
abbrev main_cst_1670 : Ref sig .tc := ⟨.hbm, 9504, rfl⟩
abbrev main_v5441 : Ref sig .tc := ⟨.hbm, 9505, rfl⟩
abbrev main_v5442 : Ref sig .tc := ⟨.hbm, 9506, rfl⟩
abbrev main_v5443 : Ref sig .tc := ⟨.hbm, 9507, rfl⟩
abbrev main_v5444 : Ref sig .tc := ⟨.hbm, 9508, rfl⟩
abbrev main_v5445 : Ref sig .tc := ⟨.hbm, 9509, rfl⟩
abbrev main_v5446 : Ref sig .tc := ⟨.hbm, 9510, rfl⟩
abbrev main_cst_1671 : Ref sig .tc := ⟨.hbm, 9511, rfl⟩
abbrev main_cst_1672 : Ref sig .tc := ⟨.hbm, 9512, rfl⟩
abbrev main_call478_v0 : Ref sig .tc := ⟨.hbm, 9513, rfl⟩
abbrev main_call478_v1 : Ref sig .tc := ⟨.hbm, 9514, rfl⟩
abbrev main_call478_v2 : Ref sig .tc := ⟨.hbm, 9515, rfl⟩
abbrev main_call478_v3 : Ref sig .tc := ⟨.hbm, 9516, rfl⟩
abbrev main_call478_v4 : Ref sig .tc := ⟨.hbm, 9517, rfl⟩
abbrev main_v5447 : Ref sig .tc := ⟨.hbm, 9518, rfl⟩
abbrev main_cst_1673 : Ref sig .tc := ⟨.hbm, 9519, rfl⟩
abbrev main_cst_1674 : Ref sig .tc := ⟨.hbm, 9520, rfl⟩
abbrev main_call479_v0 : Ref sig .tc := ⟨.hbm, 9521, rfl⟩
abbrev main_call479_v1 : Ref sig .tc := ⟨.hbm, 9522, rfl⟩
abbrev main_call479_v2 : Ref sig .tc := ⟨.hbm, 9523, rfl⟩
abbrev main_call479_v3 : Ref sig .tc := ⟨.hbm, 9524, rfl⟩
abbrev main_call479_v4 : Ref sig .tc := ⟨.hbm, 9525, rfl⟩
abbrev main_v5448 : Ref sig .tc := ⟨.hbm, 9526, rfl⟩
abbrev main_v5449 : Ref sig .tc := ⟨.hbm, 9527, rfl⟩
abbrev main_v5450 : Ref sig .tc := ⟨.hbm, 9528, rfl⟩
abbrev main_v5451 : Ref sig .tc := ⟨.hbm, 9529, rfl⟩
abbrev main_v5452 : Ref sig .tc := ⟨.hbm, 9530, rfl⟩
abbrev main_v5453 : Ref sig .tc := ⟨.hbm, 9531, rfl⟩
abbrev main_v5454 : Ref sig .tc := ⟨.hbm, 9532, rfl⟩
abbrev main_v5455 : Ref sig .tc := ⟨.hbm, 9533, rfl⟩
abbrev main_cst_1675 : Ref sig .tc := ⟨.hbm, 9534, rfl⟩
abbrev main_v5456 : Ref sig .tc := ⟨.hbm, 9535, rfl⟩
abbrev main_v5457 : Ref sig .tc := ⟨.hbm, 9536, rfl⟩
abbrev main_v5458 : Ref sig .tc := ⟨.hbm, 9537, rfl⟩
abbrev main_cst_1676 : Ref sig .tc := ⟨.hbm, 9538, rfl⟩
abbrev main_v5459 : Ref sig .tc := ⟨.hbm, 9539, rfl⟩
abbrev main_v5460 : Ref sig .tc := ⟨.hbm, 9540, rfl⟩
abbrev main_cst_1677 : Ref sig .tc := ⟨.hbm, 9541, rfl⟩
abbrev main_v5461 : Ref sig .tc := ⟨.hbm, 9542, rfl⟩
abbrev main_v5462 : Ref sig .tc := ⟨.hbm, 9543, rfl⟩
abbrev main_v5463 : Ref sig .tc := ⟨.hbm, 9544, rfl⟩
abbrev main_v5464 : Ref sig .tc := ⟨.hbm, 9545, rfl⟩
abbrev main_cst_1678 : Ref sig .tc := ⟨.hbm, 9546, rfl⟩
abbrev main_v5465 : Ref sig .tc := ⟨.hbm, 9547, rfl⟩
abbrev main_v5466 : Ref sig .tc := ⟨.hbm, 9548, rfl⟩
abbrev main_v5467 : Ref sig .tc := ⟨.hbm, 9549, rfl⟩
abbrev main_v5468 : Ref sig .tc := ⟨.hbm, 9550, rfl⟩
abbrev main_v5469 : Ref sig .tc := ⟨.hbm, 9551, rfl⟩
abbrev main_v5470 : Ref sig .tc := ⟨.hbm, 9552, rfl⟩
abbrev main_v5471 : Ref sig .tc := ⟨.hbm, 9553, rfl⟩
abbrev main_v5472 : Ref sig .tc := ⟨.hbm, 9554, rfl⟩
abbrev main_v5473 : Ref sig .tc := ⟨.hbm, 9555, rfl⟩
abbrev main_v5474 : Ref sig .tc := ⟨.hbm, 9556, rfl⟩
abbrev main_v5475 : Ref sig .tc := ⟨.hbm, 9557, rfl⟩
abbrev main_v5476 : Ref sig .tc := ⟨.hbm, 9558, rfl⟩
abbrev main_v5477 : Ref sig .tc := ⟨.hbm, 9559, rfl⟩
abbrev main_v5478 : Ref sig .tc := ⟨.hbm, 9560, rfl⟩
abbrev main_v5479 : Ref sig .tc := ⟨.hbm, 9561, rfl⟩
abbrev main_v5480 : Ref sig .tc := ⟨.hbm, 9562, rfl⟩
abbrev main_v5481 : Ref sig .tc := ⟨.hbm, 9563, rfl⟩
abbrev main_v5482 : Ref sig .tc := ⟨.hbm, 9564, rfl⟩
abbrev main_v5483 : Ref sig .tc := ⟨.hbm, 9565, rfl⟩
abbrev main_cst_1679 : Ref sig .tc := ⟨.hbm, 9566, rfl⟩
abbrev main_v5484 : Ref sig .tc := ⟨.hbm, 9567, rfl⟩
abbrev main_v5485 : Ref sig .tc := ⟨.hbm, 9568, rfl⟩
abbrev main_cst_1680 : Ref sig .tc := ⟨.hbm, 9569, rfl⟩
abbrev main_v5486 : Ref sig .tc := ⟨.hbm, 9570, rfl⟩
abbrev main_v5487 : Ref sig .tc := ⟨.hbm, 9571, rfl⟩
abbrev main_v5488 : Ref sig .tc := ⟨.hbm, 9572, rfl⟩
abbrev main_v5489 : Ref sig .tc := ⟨.hbm, 9573, rfl⟩
abbrev main_v5490 : Ref sig .tc := ⟨.hbm, 9574, rfl⟩
abbrev main_v5491 : Ref sig .tc := ⟨.hbm, 9575, rfl⟩
abbrev main_cst_1681 : Ref sig .tc := ⟨.hbm, 9576, rfl⟩
abbrev main_cst_1682 : Ref sig .tc := ⟨.hbm, 9577, rfl⟩
abbrev main_call480_v0 : Ref sig .tc := ⟨.hbm, 9578, rfl⟩
abbrev main_call480_v1 : Ref sig .tc := ⟨.hbm, 9579, rfl⟩
abbrev main_call480_v2 : Ref sig .tc := ⟨.hbm, 9580, rfl⟩
abbrev main_call480_v3 : Ref sig .tc := ⟨.hbm, 9581, rfl⟩
abbrev main_call480_v4 : Ref sig .tc := ⟨.hbm, 9582, rfl⟩
abbrev main_v5492 : Ref sig .tc := ⟨.hbm, 9583, rfl⟩
abbrev main_cst_1683 : Ref sig .tc := ⟨.hbm, 9584, rfl⟩
abbrev main_cst_1684 : Ref sig .tc := ⟨.hbm, 9585, rfl⟩
abbrev main_call481_v0 : Ref sig .tc := ⟨.hbm, 9586, rfl⟩
abbrev main_call481_v1 : Ref sig .tc := ⟨.hbm, 9587, rfl⟩
abbrev main_call481_v2 : Ref sig .tc := ⟨.hbm, 9588, rfl⟩
abbrev main_call481_v3 : Ref sig .tc := ⟨.hbm, 9589, rfl⟩
abbrev main_call481_v4 : Ref sig .tc := ⟨.hbm, 9590, rfl⟩
abbrev main_v5493 : Ref sig .tc := ⟨.hbm, 9591, rfl⟩
abbrev main_v5494 : Ref sig .tc := ⟨.hbm, 9592, rfl⟩
abbrev main_v5495 : Ref sig .tc := ⟨.hbm, 9593, rfl⟩
abbrev main_v5496 : Ref sig .tc := ⟨.hbm, 9594, rfl⟩
abbrev main_v5497 : Ref sig .tc := ⟨.hbm, 9595, rfl⟩
abbrev main_v5498 : Ref sig .tc := ⟨.hbm, 9596, rfl⟩
abbrev main_v5499 : Ref sig .tc := ⟨.hbm, 9597, rfl⟩
abbrev main_v5500 : Ref sig .tc := ⟨.hbm, 9598, rfl⟩
abbrev main_v5501 : Ref sig .tc := ⟨.hbm, 9599, rfl⟩
abbrev main_v5502 : Ref sig .tc := ⟨.hbm, 9600, rfl⟩
abbrev main_cst_1685 : Ref sig .tc := ⟨.hbm, 9601, rfl⟩
abbrev main_cst_1686 : Ref sig .tc := ⟨.hbm, 9602, rfl⟩
abbrev main_call482_v0 : Ref sig .tc := ⟨.hbm, 9603, rfl⟩
abbrev main_call482_v1 : Ref sig .tc := ⟨.hbm, 9604, rfl⟩
abbrev main_call482_v2 : Ref sig .tc := ⟨.hbm, 9605, rfl⟩
abbrev main_call482_v3 : Ref sig .tc := ⟨.hbm, 9606, rfl⟩
abbrev main_call482_v4 : Ref sig .tc := ⟨.hbm, 9607, rfl⟩
abbrev main_v5503 : Ref sig .tc := ⟨.hbm, 9608, rfl⟩
abbrev main_cst_1687 : Ref sig .tc := ⟨.hbm, 9609, rfl⟩
abbrev main_cst_1688 : Ref sig .tc := ⟨.hbm, 9610, rfl⟩
abbrev main_call483_v0 : Ref sig .tc := ⟨.hbm, 9611, rfl⟩
abbrev main_call483_v1 : Ref sig .tc := ⟨.hbm, 9612, rfl⟩
abbrev main_call483_v2 : Ref sig .tc := ⟨.hbm, 9613, rfl⟩
abbrev main_call483_v3 : Ref sig .tc := ⟨.hbm, 9614, rfl⟩
abbrev main_call483_v4 : Ref sig .tc := ⟨.hbm, 9615, rfl⟩
abbrev main_v5504 : Ref sig .tc := ⟨.hbm, 9616, rfl⟩
abbrev main_v5505 : Ref sig .tc := ⟨.hbm, 9617, rfl⟩
abbrev main_v5506 : Ref sig .tc := ⟨.hbm, 9618, rfl⟩
abbrev main_v5507 : Ref sig .tc := ⟨.hbm, 9619, rfl⟩
abbrev main_v5508 : Ref sig .tc := ⟨.hbm, 9620, rfl⟩
abbrev main_v5509 : Ref sig .tc := ⟨.hbm, 9621, rfl⟩
abbrev main_v5510 : Ref sig .tc := ⟨.hbm, 9622, rfl⟩
abbrev main_v5511 : Ref sig .tc := ⟨.hbm, 9623, rfl⟩
abbrev main_v5512 : Ref sig .tc := ⟨.hbm, 9624, rfl⟩
abbrev main_v5513 : Ref sig .tc := ⟨.hbm, 9625, rfl⟩
abbrev main_cst_1689 : Ref sig .tc := ⟨.hbm, 9626, rfl⟩
abbrev main_cst_1690 : Ref sig .tc := ⟨.hbm, 9627, rfl⟩
abbrev main_call484_v0 : Ref sig .tc := ⟨.hbm, 9628, rfl⟩
abbrev main_call484_v1 : Ref sig .tc := ⟨.hbm, 9629, rfl⟩
abbrev main_call484_v2 : Ref sig .tc := ⟨.hbm, 9630, rfl⟩
abbrev main_call484_v3 : Ref sig .tc := ⟨.hbm, 9631, rfl⟩
abbrev main_call484_v4 : Ref sig .tc := ⟨.hbm, 9632, rfl⟩
abbrev main_v5514 : Ref sig .tc := ⟨.hbm, 9633, rfl⟩
abbrev main_cst_1691 : Ref sig .tc := ⟨.hbm, 9634, rfl⟩
abbrev main_cst_1692 : Ref sig .tc := ⟨.hbm, 9635, rfl⟩
abbrev main_call485_v0 : Ref sig .tc := ⟨.hbm, 9636, rfl⟩
abbrev main_call485_v1 : Ref sig .tc := ⟨.hbm, 9637, rfl⟩
abbrev main_call485_v2 : Ref sig .tc := ⟨.hbm, 9638, rfl⟩
abbrev main_call485_v3 : Ref sig .tc := ⟨.hbm, 9639, rfl⟩
abbrev main_call485_v4 : Ref sig .tc := ⟨.hbm, 9640, rfl⟩
abbrev main_v5515 : Ref sig .tc := ⟨.hbm, 9641, rfl⟩
abbrev main_v5516 : Ref sig .tc := ⟨.hbm, 9642, rfl⟩
abbrev main_v5517 : Ref sig .tc := ⟨.hbm, 9643, rfl⟩
abbrev main_v5518 : Ref sig .tc := ⟨.hbm, 9644, rfl⟩
abbrev main_v5519 : Ref sig .tc := ⟨.hbm, 9645, rfl⟩
abbrev main_v5520 : Ref sig .tc := ⟨.hbm, 9646, rfl⟩
abbrev main_v5521 : Ref sig .tc := ⟨.hbm, 9647, rfl⟩
abbrev main_v5522 : Ref sig .tc := ⟨.hbm, 9648, rfl⟩
abbrev main_v5523 : Ref sig .tc := ⟨.hbm, 9649, rfl⟩
abbrev main_v5524 : Ref sig .tc := ⟨.hbm, 9650, rfl⟩
abbrev main_cst_1693 : Ref sig .tc := ⟨.hbm, 9651, rfl⟩
abbrev main_cst_1694 : Ref sig .tc := ⟨.hbm, 9652, rfl⟩
abbrev main_call486_v0 : Ref sig .tc := ⟨.hbm, 9653, rfl⟩
abbrev main_call486_v1 : Ref sig .tc := ⟨.hbm, 9654, rfl⟩
abbrev main_call486_v2 : Ref sig .tc := ⟨.hbm, 9655, rfl⟩
abbrev main_call486_v3 : Ref sig .tc := ⟨.hbm, 9656, rfl⟩
abbrev main_call486_v4 : Ref sig .tc := ⟨.hbm, 9657, rfl⟩
abbrev main_v5525 : Ref sig .tc := ⟨.hbm, 9658, rfl⟩
abbrev main_cst_1695 : Ref sig .tc := ⟨.hbm, 9659, rfl⟩
abbrev main_cst_1696 : Ref sig .tc := ⟨.hbm, 9660, rfl⟩
abbrev main_call487_v0 : Ref sig .tc := ⟨.hbm, 9661, rfl⟩
abbrev main_call487_v1 : Ref sig .tc := ⟨.hbm, 9662, rfl⟩
abbrev main_call487_v2 : Ref sig .tc := ⟨.hbm, 9663, rfl⟩
abbrev main_call487_v3 : Ref sig .tc := ⟨.hbm, 9664, rfl⟩
abbrev main_call487_v4 : Ref sig .tc := ⟨.hbm, 9665, rfl⟩
abbrev main_v5526 : Ref sig .tc := ⟨.hbm, 9666, rfl⟩
abbrev main_v5527 : Ref sig .tc := ⟨.hbm, 9667, rfl⟩
abbrev main_v5528 : Ref sig .tc := ⟨.hbm, 9668, rfl⟩
abbrev main_v5529 : Ref sig .tc := ⟨.hbm, 9669, rfl⟩
abbrev main_v5530 : Ref sig .tc := ⟨.hbm, 9670, rfl⟩
abbrev main_v5531 : Ref sig .tc := ⟨.hbm, 9671, rfl⟩
abbrev main_v5532 : Ref sig .tc := ⟨.hbm, 9672, rfl⟩
abbrev main_v5533 : Ref sig .tc := ⟨.hbm, 9673, rfl⟩
abbrev main_cst_1697 : Ref sig .tc := ⟨.hbm, 9674, rfl⟩
abbrev main_v5534 : Ref sig .tc := ⟨.hbm, 9675, rfl⟩
abbrev main_v5535 : Ref sig .tc := ⟨.hbm, 9676, rfl⟩
abbrev main_v5536 : Ref sig .tc := ⟨.hbm, 9677, rfl⟩
abbrev main_cst_1698 : Ref sig .tc := ⟨.hbm, 9678, rfl⟩
abbrev main_v5537 : Ref sig .tc := ⟨.hbm, 9679, rfl⟩
abbrev main_v5538 : Ref sig .tc := ⟨.hbm, 9680, rfl⟩
abbrev main_cst_1699 : Ref sig .tc := ⟨.hbm, 9681, rfl⟩
abbrev main_v5539 : Ref sig .tc := ⟨.hbm, 9682, rfl⟩
abbrev main_v5540 : Ref sig .tc := ⟨.hbm, 9683, rfl⟩
abbrev main_v5541 : Ref sig .tc := ⟨.hbm, 9684, rfl⟩
abbrev main_v5542 : Ref sig .tc := ⟨.hbm, 9685, rfl⟩
abbrev main_cst_1700 : Ref sig .tc := ⟨.hbm, 9686, rfl⟩
abbrev main_v5543 : Ref sig .tc := ⟨.hbm, 9687, rfl⟩
abbrev main_v5544 : Ref sig .tc := ⟨.hbm, 9688, rfl⟩
abbrev main_v5545 : Ref sig .tc := ⟨.hbm, 9689, rfl⟩
abbrev main_v5546 : Ref sig .tc := ⟨.hbm, 9690, rfl⟩
abbrev main_v5547 : Ref sig .tc := ⟨.hbm, 9691, rfl⟩
abbrev main_v5548 : Ref sig .tc := ⟨.hbm, 9692, rfl⟩
abbrev main_v5549 : Ref sig .tc := ⟨.hbm, 9693, rfl⟩
abbrev main_cst_1701 : Ref sig .tc := ⟨.hbm, 9694, rfl⟩
abbrev main_v5550 : Ref sig .tc := ⟨.hbm, 9695, rfl⟩
abbrev main_v5551 : Ref sig .tc := ⟨.hbm, 9696, rfl⟩
abbrev main_cst_1702 : Ref sig .tc := ⟨.hbm, 9697, rfl⟩
abbrev main_v5552 : Ref sig .tc := ⟨.hbm, 9698, rfl⟩
abbrev main_v5553 : Ref sig .tc := ⟨.hbm, 9699, rfl⟩
abbrev main_v5554 : Ref sig .tc := ⟨.hbm, 9700, rfl⟩
abbrev main_v5555 : Ref sig .tc := ⟨.hbm, 9701, rfl⟩
abbrev main_v5556 : Ref sig .tc := ⟨.hbm, 9702, rfl⟩
abbrev main_v5557 : Ref sig .tc := ⟨.hbm, 9703, rfl⟩
abbrev main_cst_1703 : Ref sig .tc := ⟨.hbm, 9704, rfl⟩
abbrev main_cst_1704 : Ref sig .tc := ⟨.hbm, 9705, rfl⟩
abbrev main_call488_v0 : Ref sig .tc := ⟨.hbm, 9706, rfl⟩
abbrev main_call488_v1 : Ref sig .tc := ⟨.hbm, 9707, rfl⟩
abbrev main_call488_v2 : Ref sig .tc := ⟨.hbm, 9708, rfl⟩
abbrev main_call488_v3 : Ref sig .tc := ⟨.hbm, 9709, rfl⟩
abbrev main_call488_v4 : Ref sig .tc := ⟨.hbm, 9710, rfl⟩
abbrev main_v5558 : Ref sig .tc := ⟨.hbm, 9711, rfl⟩
abbrev main_cst_1705 : Ref sig .tc := ⟨.hbm, 9712, rfl⟩
abbrev main_cst_1706 : Ref sig .tc := ⟨.hbm, 9713, rfl⟩
abbrev main_call489_v0 : Ref sig .tc := ⟨.hbm, 9714, rfl⟩
abbrev main_call489_v1 : Ref sig .tc := ⟨.hbm, 9715, rfl⟩
abbrev main_call489_v2 : Ref sig .tc := ⟨.hbm, 9716, rfl⟩
abbrev main_call489_v3 : Ref sig .tc := ⟨.hbm, 9717, rfl⟩
abbrev main_call489_v4 : Ref sig .tc := ⟨.hbm, 9718, rfl⟩
abbrev main_v5559 : Ref sig .tc := ⟨.hbm, 9719, rfl⟩
abbrev main_v5560 : Ref sig .tc := ⟨.hbm, 9720, rfl⟩
abbrev main_v5561 : Ref sig .tc := ⟨.hbm, 9721, rfl⟩
abbrev main_v5562 : Ref sig .tc := ⟨.hbm, 9722, rfl⟩
abbrev main_v5563 : Ref sig .tc := ⟨.hbm, 9723, rfl⟩
abbrev main_v5564 : Ref sig .tc := ⟨.hbm, 9724, rfl⟩
abbrev main_v5565 : Ref sig .tc := ⟨.hbm, 9725, rfl⟩
abbrev main_v5566 : Ref sig .tc := ⟨.hbm, 9726, rfl⟩
abbrev main_cst_1707 : Ref sig .tc := ⟨.hbm, 9727, rfl⟩
abbrev main_v5567 : Ref sig .tc := ⟨.hbm, 9728, rfl⟩
abbrev main_v5568 : Ref sig .tc := ⟨.hbm, 9729, rfl⟩
abbrev main_v5569 : Ref sig .tc := ⟨.hbm, 9730, rfl⟩
abbrev main_cst_1708 : Ref sig .tc := ⟨.hbm, 9731, rfl⟩
abbrev main_v5570 : Ref sig .tc := ⟨.hbm, 9732, rfl⟩
abbrev main_v5571 : Ref sig .tc := ⟨.hbm, 9733, rfl⟩
abbrev main_cst_1709 : Ref sig .tc := ⟨.hbm, 9734, rfl⟩
abbrev main_v5572 : Ref sig .tc := ⟨.hbm, 9735, rfl⟩
abbrev main_v5573 : Ref sig .tc := ⟨.hbm, 9736, rfl⟩
abbrev main_v5574 : Ref sig .tc := ⟨.hbm, 9737, rfl⟩
abbrev main_v5575 : Ref sig .tc := ⟨.hbm, 9738, rfl⟩
abbrev main_cst_1710 : Ref sig .tc := ⟨.hbm, 9739, rfl⟩
abbrev main_v5576 : Ref sig .tc := ⟨.hbm, 9740, rfl⟩
abbrev main_v5577 : Ref sig .tc := ⟨.hbm, 9741, rfl⟩
abbrev main_v5578 : Ref sig .tc := ⟨.hbm, 9742, rfl⟩
abbrev main_v5579 : Ref sig .tc := ⟨.hbm, 9743, rfl⟩
abbrev main_v5580 : Ref sig .tc := ⟨.hbm, 9744, rfl⟩
abbrev main_v5581 : Ref sig .tc := ⟨.hbm, 9745, rfl⟩
abbrev main_v5582 : Ref sig .tc := ⟨.hbm, 9746, rfl⟩
abbrev main_v5583 : Ref sig .tc := ⟨.hbm, 9747, rfl⟩
abbrev main_v5584 : Ref sig .tc := ⟨.hbm, 9748, rfl⟩
abbrev main_v5585 : Ref sig .tc := ⟨.hbm, 9749, rfl⟩
abbrev main_v5586 : Ref sig .tc := ⟨.hbm, 9750, rfl⟩
abbrev main_cst_1711 : Ref sig .tc := ⟨.hbm, 9751, rfl⟩
abbrev main_v5587 : Ref sig .tc := ⟨.hbm, 9752, rfl⟩
abbrev main_v5588 : Ref sig .tc := ⟨.hbm, 9753, rfl⟩
abbrev main_cst_1712 : Ref sig .tc := ⟨.hbm, 9754, rfl⟩
abbrev main_v5589 : Ref sig .tc := ⟨.hbm, 9755, rfl⟩
abbrev main_v5590 : Ref sig .tc := ⟨.hbm, 9756, rfl⟩
abbrev main_v5591 : Ref sig .tc := ⟨.hbm, 9757, rfl⟩
abbrev main_v5592 : Ref sig .tc := ⟨.hbm, 9758, rfl⟩
abbrev main_v5593 : Ref sig .tc := ⟨.hbm, 9759, rfl⟩
abbrev main_v5594 : Ref sig .tc := ⟨.hbm, 9760, rfl⟩
abbrev main_cst_1713 : Ref sig .tc := ⟨.hbm, 9761, rfl⟩
abbrev main_cst_1714 : Ref sig .tc := ⟨.hbm, 9762, rfl⟩
abbrev main_call490_v0 : Ref sig .tc := ⟨.hbm, 9763, rfl⟩
abbrev main_call490_v1 : Ref sig .tc := ⟨.hbm, 9764, rfl⟩
abbrev main_call490_v2 : Ref sig .tc := ⟨.hbm, 9765, rfl⟩
abbrev main_call490_v3 : Ref sig .tc := ⟨.hbm, 9766, rfl⟩
abbrev main_call490_v4 : Ref sig .tc := ⟨.hbm, 9767, rfl⟩
abbrev main_v5595 : Ref sig .tc := ⟨.hbm, 9768, rfl⟩
abbrev main_cst_1715 : Ref sig .tc := ⟨.hbm, 9769, rfl⟩
abbrev main_cst_1716 : Ref sig .tc := ⟨.hbm, 9770, rfl⟩
abbrev main_call491_v0 : Ref sig .tc := ⟨.hbm, 9771, rfl⟩
abbrev main_call491_v1 : Ref sig .tc := ⟨.hbm, 9772, rfl⟩
abbrev main_call491_v2 : Ref sig .tc := ⟨.hbm, 9773, rfl⟩
abbrev main_call491_v3 : Ref sig .tc := ⟨.hbm, 9774, rfl⟩
abbrev main_call491_v4 : Ref sig .tc := ⟨.hbm, 9775, rfl⟩
abbrev main_v5596 : Ref sig .tc := ⟨.hbm, 9776, rfl⟩
abbrev main_v5597 : Ref sig .tc := ⟨.hbm, 9777, rfl⟩
abbrev main_v5598 : Ref sig .tc := ⟨.hbm, 9778, rfl⟩
abbrev main_v5599 : Ref sig .tc := ⟨.hbm, 9779, rfl⟩
abbrev main_v5600 : Ref sig .tc := ⟨.hbm, 9780, rfl⟩
abbrev main_v5601 : Ref sig .tc := ⟨.hbm, 9781, rfl⟩
abbrev main_v5602 : Ref sig .tc := ⟨.hbm, 9782, rfl⟩
abbrev main_v5603 : Ref sig .tc := ⟨.hbm, 9783, rfl⟩
abbrev main_v5604 : Ref sig .tc := ⟨.hbm, 9784, rfl⟩
abbrev main_v5605 : Ref sig .tc := ⟨.hbm, 9785, rfl⟩
abbrev main_cst_1717 : Ref sig .tc := ⟨.hbm, 9786, rfl⟩
abbrev main_cst_1718 : Ref sig .tc := ⟨.hbm, 9787, rfl⟩
abbrev main_call492_v0 : Ref sig .tc := ⟨.hbm, 9788, rfl⟩
abbrev main_call492_v1 : Ref sig .tc := ⟨.hbm, 9789, rfl⟩
abbrev main_call492_v2 : Ref sig .tc := ⟨.hbm, 9790, rfl⟩
abbrev main_call492_v3 : Ref sig .tc := ⟨.hbm, 9791, rfl⟩
abbrev main_call492_v4 : Ref sig .tc := ⟨.hbm, 9792, rfl⟩
abbrev main_v5606 : Ref sig .tc := ⟨.hbm, 9793, rfl⟩
abbrev main_cst_1719 : Ref sig .tc := ⟨.hbm, 9794, rfl⟩
abbrev main_cst_1720 : Ref sig .tc := ⟨.hbm, 9795, rfl⟩
abbrev main_call493_v0 : Ref sig .tc := ⟨.hbm, 9796, rfl⟩
abbrev main_call493_v1 : Ref sig .tc := ⟨.hbm, 9797, rfl⟩
abbrev main_call493_v2 : Ref sig .tc := ⟨.hbm, 9798, rfl⟩
abbrev main_call493_v3 : Ref sig .tc := ⟨.hbm, 9799, rfl⟩
abbrev main_call493_v4 : Ref sig .tc := ⟨.hbm, 9800, rfl⟩
abbrev main_v5607 : Ref sig .tc := ⟨.hbm, 9801, rfl⟩
abbrev main_v5608 : Ref sig .tc := ⟨.hbm, 9802, rfl⟩
abbrev main_v5609 : Ref sig .tc := ⟨.hbm, 9803, rfl⟩
abbrev main_v5610 : Ref sig .tc := ⟨.hbm, 9804, rfl⟩
abbrev main_v5611 : Ref sig .tc := ⟨.hbm, 9805, rfl⟩
abbrev main_v5612 : Ref sig .tc := ⟨.hbm, 9806, rfl⟩
abbrev main_v5613 : Ref sig .tc := ⟨.hbm, 9807, rfl⟩
abbrev main_v5614 : Ref sig .tc := ⟨.hbm, 9808, rfl⟩
abbrev main_cst_1721 : Ref sig .tc := ⟨.hbm, 9809, rfl⟩
abbrev main_v5615 : Ref sig .tc := ⟨.hbm, 9810, rfl⟩
abbrev main_v5616 : Ref sig .tc := ⟨.hbm, 9811, rfl⟩
abbrev main_v5617 : Ref sig .tc := ⟨.hbm, 9812, rfl⟩
abbrev main_cst_1722 : Ref sig .tc := ⟨.hbm, 9813, rfl⟩
abbrev main_v5618 : Ref sig .tc := ⟨.hbm, 9814, rfl⟩
abbrev main_v5619 : Ref sig .tc := ⟨.hbm, 9815, rfl⟩
abbrev main_cst_1723 : Ref sig .tc := ⟨.hbm, 9816, rfl⟩
abbrev main_v5620 : Ref sig .tc := ⟨.hbm, 9817, rfl⟩
abbrev main_v5621 : Ref sig .tc := ⟨.hbm, 9818, rfl⟩
abbrev main_v5622 : Ref sig .tc := ⟨.hbm, 9819, rfl⟩
abbrev main_v5623 : Ref sig .tc := ⟨.hbm, 9820, rfl⟩
abbrev main_cst_1724 : Ref sig .tc := ⟨.hbm, 9821, rfl⟩
abbrev main_v5624 : Ref sig .tc := ⟨.hbm, 9822, rfl⟩
abbrev main_v5625 : Ref sig .tc := ⟨.hbm, 9823, rfl⟩
abbrev main_v5626 : Ref sig .tc := ⟨.hbm, 9824, rfl⟩
abbrev main_v5627 : Ref sig .tc := ⟨.hbm, 9825, rfl⟩
abbrev main_v5628 : Ref sig .tc := ⟨.hbm, 9826, rfl⟩
abbrev main_v5629 : Ref sig .tc := ⟨.hbm, 9827, rfl⟩
abbrev main_v5630 : Ref sig .tc := ⟨.hbm, 9828, rfl⟩
abbrev main_cst_1725 : Ref sig .tc := ⟨.hbm, 9829, rfl⟩
abbrev main_v5631 : Ref sig .tc := ⟨.hbm, 9830, rfl⟩
abbrev main_v5632 : Ref sig .tc := ⟨.hbm, 9831, rfl⟩
abbrev main_cst_1726 : Ref sig .tc := ⟨.hbm, 9832, rfl⟩
abbrev main_v5633 : Ref sig .tc := ⟨.hbm, 9833, rfl⟩
abbrev main_v5634 : Ref sig .tc := ⟨.hbm, 9834, rfl⟩
abbrev main_v5635 : Ref sig .tc := ⟨.hbm, 9835, rfl⟩
abbrev main_v5636 : Ref sig .tc := ⟨.hbm, 9836, rfl⟩
abbrev main_v5637 : Ref sig .tc := ⟨.hbm, 9837, rfl⟩
abbrev main_v5638 : Ref sig .tc := ⟨.hbm, 9838, rfl⟩
abbrev main_cst_1727 : Ref sig .tc := ⟨.hbm, 9839, rfl⟩
abbrev main_cst_1728 : Ref sig .tc := ⟨.hbm, 9840, rfl⟩
abbrev main_call494_v0 : Ref sig .tc := ⟨.hbm, 9841, rfl⟩
abbrev main_call494_v1 : Ref sig .tc := ⟨.hbm, 9842, rfl⟩
abbrev main_call494_v2 : Ref sig .tc := ⟨.hbm, 9843, rfl⟩
abbrev main_call494_v3 : Ref sig .tc := ⟨.hbm, 9844, rfl⟩
abbrev main_call494_v4 : Ref sig .tc := ⟨.hbm, 9845, rfl⟩
abbrev main_v5639 : Ref sig .tc := ⟨.hbm, 9846, rfl⟩
abbrev main_cst_1729 : Ref sig .tc := ⟨.hbm, 9847, rfl⟩
abbrev main_cst_1730 : Ref sig .tc := ⟨.hbm, 9848, rfl⟩
abbrev main_call495_v0 : Ref sig .tc := ⟨.hbm, 9849, rfl⟩
abbrev main_call495_v1 : Ref sig .tc := ⟨.hbm, 9850, rfl⟩
abbrev main_call495_v2 : Ref sig .tc := ⟨.hbm, 9851, rfl⟩
abbrev main_call495_v3 : Ref sig .tc := ⟨.hbm, 9852, rfl⟩
abbrev main_call495_v4 : Ref sig .tc := ⟨.hbm, 9853, rfl⟩
abbrev main_v5640 : Ref sig .tc := ⟨.hbm, 9854, rfl⟩
abbrev main_v5641 : Ref sig .tc := ⟨.hbm, 9855, rfl⟩
abbrev main_v5642 : Ref sig .tc := ⟨.hbm, 9856, rfl⟩
abbrev main_v5643 : Ref sig .tc := ⟨.hbm, 9857, rfl⟩
abbrev main_v5644 : Ref sig .tc := ⟨.hbm, 9858, rfl⟩
abbrev main_v5645 : Ref sig .tc := ⟨.hbm, 9859, rfl⟩
abbrev main_v5646 : Ref sig .tc := ⟨.hbm, 9860, rfl⟩
abbrev main_v5647 : Ref sig .tc := ⟨.hbm, 9861, rfl⟩
abbrev main_cst_1731 : Ref sig .tc := ⟨.hbm, 9862, rfl⟩
abbrev main_v5648 : Ref sig .tc := ⟨.hbm, 9863, rfl⟩
abbrev main_v5649 : Ref sig .tc := ⟨.hbm, 9864, rfl⟩
abbrev main_v5650 : Ref sig .tc := ⟨.hbm, 9865, rfl⟩
abbrev main_cst_1732 : Ref sig .tc := ⟨.hbm, 9866, rfl⟩
abbrev main_v5651 : Ref sig .tc := ⟨.hbm, 9867, rfl⟩
abbrev main_v5652 : Ref sig .tc := ⟨.hbm, 9868, rfl⟩
abbrev main_cst_1733 : Ref sig .tc := ⟨.hbm, 9869, rfl⟩
abbrev main_v5653 : Ref sig .tc := ⟨.hbm, 9870, rfl⟩
abbrev main_v5654 : Ref sig .tc := ⟨.hbm, 9871, rfl⟩
abbrev main_v5655 : Ref sig .tc := ⟨.hbm, 9872, rfl⟩
abbrev main_v5656 : Ref sig .tc := ⟨.hbm, 9873, rfl⟩
abbrev main_cst_1734 : Ref sig .tc := ⟨.hbm, 9874, rfl⟩
abbrev main_v5657 : Ref sig .tc := ⟨.hbm, 9875, rfl⟩
abbrev main_v5658 : Ref sig .tc := ⟨.hbm, 9876, rfl⟩
abbrev main_v5659 : Ref sig .tc := ⟨.hbm, 9877, rfl⟩
abbrev main_v5660 : Ref sig .tc := ⟨.hbm, 9878, rfl⟩
abbrev main_v5661 : Ref sig .tc := ⟨.hbm, 9879, rfl⟩
abbrev main_v5662 : Ref sig .tc := ⟨.hbm, 9880, rfl⟩
abbrev main_v5663 : Ref sig .tc := ⟨.hbm, 9881, rfl⟩
abbrev main_v5664 : Ref sig .tc := ⟨.hbm, 9882, rfl⟩
abbrev main_v5665 : Ref sig .tc := ⟨.hbm, 9883, rfl⟩
abbrev main_v5666 : Ref sig .tc := ⟨.hbm, 9884, rfl⟩
abbrev main_v5667 : Ref sig .tc := ⟨.hbm, 9885, rfl⟩
abbrev main_v5668 : Ref sig .tc := ⟨.hbm, 9886, rfl⟩
abbrev main_v5669 : Ref sig .tc := ⟨.hbm, 9887, rfl⟩
abbrev main_v5670 : Ref sig .tc := ⟨.hbm, 9888, rfl⟩
abbrev main_v5671 : Ref sig .tc := ⟨.hbm, 9889, rfl⟩
abbrev main_cst_1735 : Ref sig .tc := ⟨.hbm, 9890, rfl⟩
abbrev main_v5672 : Ref sig .tc := ⟨.hbm, 9891, rfl⟩
abbrev main_v5673 : Ref sig .tc := ⟨.hbm, 9892, rfl⟩
abbrev main_cst_1736 : Ref sig .tc := ⟨.hbm, 9893, rfl⟩
abbrev main_v5674 : Ref sig .tc := ⟨.hbm, 9894, rfl⟩
abbrev main_v5675 : Ref sig .tc := ⟨.hbm, 9895, rfl⟩
abbrev main_v5676 : Ref sig .tc := ⟨.hbm, 9896, rfl⟩
abbrev main_v5677 : Ref sig .tc := ⟨.hbm, 9897, rfl⟩
abbrev main_v5678 : Ref sig .tc := ⟨.hbm, 9898, rfl⟩
abbrev main_v5679 : Ref sig .tc := ⟨.hbm, 9899, rfl⟩
abbrev main_cst_1737 : Ref sig .tc := ⟨.hbm, 9900, rfl⟩
abbrev main_cst_1738 : Ref sig .tc := ⟨.hbm, 9901, rfl⟩
abbrev main_call496_v0 : Ref sig .tc := ⟨.hbm, 9902, rfl⟩
abbrev main_call496_v1 : Ref sig .tc := ⟨.hbm, 9903, rfl⟩
abbrev main_call496_v2 : Ref sig .tc := ⟨.hbm, 9904, rfl⟩
abbrev main_call496_v3 : Ref sig .tc := ⟨.hbm, 9905, rfl⟩
abbrev main_call496_v4 : Ref sig .tc := ⟨.hbm, 9906, rfl⟩
abbrev main_v5680 : Ref sig .tc := ⟨.hbm, 9907, rfl⟩
abbrev main_cst_1739 : Ref sig .tc := ⟨.hbm, 9908, rfl⟩
abbrev main_cst_1740 : Ref sig .tc := ⟨.hbm, 9909, rfl⟩
abbrev main_call497_v0 : Ref sig .tc := ⟨.hbm, 9910, rfl⟩
abbrev main_call497_v1 : Ref sig .tc := ⟨.hbm, 9911, rfl⟩
abbrev main_call497_v2 : Ref sig .tc := ⟨.hbm, 9912, rfl⟩
abbrev main_call497_v3 : Ref sig .tc := ⟨.hbm, 9913, rfl⟩
abbrev main_call497_v4 : Ref sig .tc := ⟨.hbm, 9914, rfl⟩
abbrev main_v5681 : Ref sig .tc := ⟨.hbm, 9915, rfl⟩
abbrev main_v5682 : Ref sig .tc := ⟨.hbm, 9916, rfl⟩
abbrev main_v5683 : Ref sig .tc := ⟨.hbm, 9917, rfl⟩
abbrev main_v5684 : Ref sig .tc := ⟨.hbm, 9918, rfl⟩
abbrev main_v5685 : Ref sig .tc := ⟨.hbm, 9919, rfl⟩
abbrev main_v5686 : Ref sig .tc := ⟨.hbm, 9920, rfl⟩
abbrev main_v5687 : Ref sig .tc := ⟨.hbm, 9921, rfl⟩
abbrev main_v5688 : Ref sig .tc := ⟨.hbm, 9922, rfl⟩
abbrev main_v5689 : Ref sig .tc := ⟨.hbm, 9923, rfl⟩
abbrev main_v5690 : Ref sig .tc := ⟨.hbm, 9924, rfl⟩
abbrev main_cst_1741 : Ref sig .tc := ⟨.hbm, 9925, rfl⟩
abbrev main_cst_1742 : Ref sig .tc := ⟨.hbm, 9926, rfl⟩
abbrev main_call498_v0 : Ref sig .tc := ⟨.hbm, 9927, rfl⟩
abbrev main_call498_v1 : Ref sig .tc := ⟨.hbm, 9928, rfl⟩
abbrev main_call498_v2 : Ref sig .tc := ⟨.hbm, 9929, rfl⟩
abbrev main_call498_v3 : Ref sig .tc := ⟨.hbm, 9930, rfl⟩
abbrev main_call498_v4 : Ref sig .tc := ⟨.hbm, 9931, rfl⟩
abbrev main_v5691 : Ref sig .tc := ⟨.hbm, 9932, rfl⟩
abbrev main_cst_1743 : Ref sig .tc := ⟨.hbm, 9933, rfl⟩
abbrev main_cst_1744 : Ref sig .tc := ⟨.hbm, 9934, rfl⟩
abbrev main_call499_v0 : Ref sig .tc := ⟨.hbm, 9935, rfl⟩
abbrev main_call499_v1 : Ref sig .tc := ⟨.hbm, 9936, rfl⟩
abbrev main_call499_v2 : Ref sig .tc := ⟨.hbm, 9937, rfl⟩
abbrev main_call499_v3 : Ref sig .tc := ⟨.hbm, 9938, rfl⟩
abbrev main_call499_v4 : Ref sig .tc := ⟨.hbm, 9939, rfl⟩
abbrev main_v5692 : Ref sig .tc := ⟨.hbm, 9940, rfl⟩
abbrev main_v5693 : Ref sig .tc := ⟨.hbm, 9941, rfl⟩
abbrev main_v5694 : Ref sig .tc := ⟨.hbm, 9942, rfl⟩
abbrev main_v5695 : Ref sig .tc := ⟨.hbm, 9943, rfl⟩
abbrev main_v5696 : Ref sig .tc := ⟨.hbm, 9944, rfl⟩
abbrev main_v5697 : Ref sig .tc := ⟨.hbm, 9945, rfl⟩
abbrev main_v5698 : Ref sig .tc := ⟨.hbm, 9946, rfl⟩
abbrev main_v5699 : Ref sig .tc := ⟨.hbm, 9947, rfl⟩
abbrev main_v5700 : Ref sig .tc := ⟨.hbm, 9948, rfl⟩
abbrev main_v5701 : Ref sig .tc := ⟨.hbm, 9949, rfl⟩
abbrev main_cst_1745 : Ref sig .tc := ⟨.hbm, 9950, rfl⟩
abbrev main_cst_1746 : Ref sig .tc := ⟨.hbm, 9951, rfl⟩
abbrev main_call500_v0 : Ref sig .tc := ⟨.hbm, 9952, rfl⟩
abbrev main_call500_v1 : Ref sig .tc := ⟨.hbm, 9953, rfl⟩
abbrev main_call500_v2 : Ref sig .tc := ⟨.hbm, 9954, rfl⟩
abbrev main_call500_v3 : Ref sig .tc := ⟨.hbm, 9955, rfl⟩
abbrev main_call500_v4 : Ref sig .tc := ⟨.hbm, 9956, rfl⟩
abbrev main_v5702 : Ref sig .tc := ⟨.hbm, 9957, rfl⟩
abbrev main_cst_1747 : Ref sig .tc := ⟨.hbm, 9958, rfl⟩
abbrev main_cst_1748 : Ref sig .tc := ⟨.hbm, 9959, rfl⟩
abbrev main_call501_v0 : Ref sig .tc := ⟨.hbm, 9960, rfl⟩
abbrev main_call501_v1 : Ref sig .tc := ⟨.hbm, 9961, rfl⟩
abbrev main_call501_v2 : Ref sig .tc := ⟨.hbm, 9962, rfl⟩
abbrev main_call501_v3 : Ref sig .tc := ⟨.hbm, 9963, rfl⟩
abbrev main_call501_v4 : Ref sig .tc := ⟨.hbm, 9964, rfl⟩
abbrev main_v5703 : Ref sig .tc := ⟨.hbm, 9965, rfl⟩
abbrev main_v5704 : Ref sig .tc := ⟨.hbm, 9966, rfl⟩
abbrev main_v5705 : Ref sig .tc := ⟨.hbm, 9967, rfl⟩
abbrev main_v5706 : Ref sig .tc := ⟨.hbm, 9968, rfl⟩
abbrev main_v5707 : Ref sig .tc := ⟨.hbm, 9969, rfl⟩
abbrev main_v5708 : Ref sig .tc := ⟨.hbm, 9970, rfl⟩
abbrev main_v5709 : Ref sig .tc := ⟨.hbm, 9971, rfl⟩
abbrev main_v5710 : Ref sig .tc := ⟨.hbm, 9972, rfl⟩
abbrev main_cst_1749 : Ref sig .tc := ⟨.hbm, 9973, rfl⟩
abbrev main_v5711 : Ref sig .tc := ⟨.hbm, 9974, rfl⟩
abbrev main_v5712 : Ref sig .tc := ⟨.hbm, 9975, rfl⟩
abbrev main_v5713 : Ref sig .tc := ⟨.hbm, 9976, rfl⟩
abbrev main_cst_1750 : Ref sig .tc := ⟨.hbm, 9977, rfl⟩
abbrev main_v5714 : Ref sig .tc := ⟨.hbm, 9978, rfl⟩
abbrev main_v5715 : Ref sig .tc := ⟨.hbm, 9979, rfl⟩
abbrev main_cst_1751 : Ref sig .tc := ⟨.hbm, 9980, rfl⟩
abbrev main_v5716 : Ref sig .tc := ⟨.hbm, 9981, rfl⟩
abbrev main_v5717 : Ref sig .tc := ⟨.hbm, 9982, rfl⟩
abbrev main_v5718 : Ref sig .tc := ⟨.hbm, 9983, rfl⟩
abbrev main_v5719 : Ref sig .tc := ⟨.hbm, 9984, rfl⟩
abbrev main_cst_1752 : Ref sig .tc := ⟨.hbm, 9985, rfl⟩
abbrev main_v5720 : Ref sig .tc := ⟨.hbm, 9986, rfl⟩
abbrev main_v5721 : Ref sig .tc := ⟨.hbm, 9987, rfl⟩
abbrev main_v5722 : Ref sig .tc := ⟨.hbm, 9988, rfl⟩
abbrev main_v5723 : Ref sig .tc := ⟨.hbm, 9989, rfl⟩
abbrev main_v5724 : Ref sig .tc := ⟨.hbm, 9990, rfl⟩
abbrev main_v5725 : Ref sig .tc := ⟨.hbm, 9991, rfl⟩
abbrev main_v5726 : Ref sig .tc := ⟨.hbm, 9992, rfl⟩
abbrev main_cst_1753 : Ref sig .tc := ⟨.hbm, 9993, rfl⟩
abbrev main_v5727 : Ref sig .tc := ⟨.hbm, 9994, rfl⟩
abbrev main_v5728 : Ref sig .tc := ⟨.hbm, 9995, rfl⟩
abbrev main_cst_1754 : Ref sig .tc := ⟨.hbm, 9996, rfl⟩
abbrev main_v5729 : Ref sig .tc := ⟨.hbm, 9997, rfl⟩
abbrev main_v5730 : Ref sig .tc := ⟨.hbm, 9998, rfl⟩
abbrev main_v5731 : Ref sig .tc := ⟨.hbm, 9999, rfl⟩
abbrev main_v5732 : Ref sig .tc := ⟨.hbm, 10000, rfl⟩
abbrev main_v5733 : Ref sig .tc := ⟨.hbm, 10001, rfl⟩
abbrev main_v5734 : Ref sig .tc := ⟨.hbm, 10002, rfl⟩
abbrev main_cst_1755 : Ref sig .tc := ⟨.hbm, 10003, rfl⟩
abbrev main_cst_1756 : Ref sig .tc := ⟨.hbm, 10004, rfl⟩
abbrev main_call502_v0 : Ref sig .tc := ⟨.hbm, 10005, rfl⟩
abbrev main_call502_v1 : Ref sig .tc := ⟨.hbm, 10006, rfl⟩
abbrev main_call502_v2 : Ref sig .tc := ⟨.hbm, 10007, rfl⟩
abbrev main_call502_v3 : Ref sig .tc := ⟨.hbm, 10008, rfl⟩
abbrev main_call502_v4 : Ref sig .tc := ⟨.hbm, 10009, rfl⟩
abbrev main_v5735 : Ref sig .tc := ⟨.hbm, 10010, rfl⟩
abbrev main_cst_1757 : Ref sig .tc := ⟨.hbm, 10011, rfl⟩
abbrev main_cst_1758 : Ref sig .tc := ⟨.hbm, 10012, rfl⟩
abbrev main_call503_v0 : Ref sig .tc := ⟨.hbm, 10013, rfl⟩
abbrev main_call503_v1 : Ref sig .tc := ⟨.hbm, 10014, rfl⟩
abbrev main_call503_v2 : Ref sig .tc := ⟨.hbm, 10015, rfl⟩
abbrev main_call503_v3 : Ref sig .tc := ⟨.hbm, 10016, rfl⟩
abbrev main_call503_v4 : Ref sig .tc := ⟨.hbm, 10017, rfl⟩
abbrev main_v5736 : Ref sig .tc := ⟨.hbm, 10018, rfl⟩
abbrev main_v5737 : Ref sig .tc := ⟨.hbm, 10019, rfl⟩
abbrev main_v5738 : Ref sig .tc := ⟨.hbm, 10020, rfl⟩
abbrev main_v5739 : Ref sig .tc := ⟨.hbm, 10021, rfl⟩
abbrev main_v5740 : Ref sig .tc := ⟨.hbm, 10022, rfl⟩
abbrev main_v5741 : Ref sig .tc := ⟨.hbm, 10023, rfl⟩
abbrev main_v5742 : Ref sig .tc := ⟨.hbm, 10024, rfl⟩
abbrev main_v5743 : Ref sig .tc := ⟨.hbm, 10025, rfl⟩
abbrev main_cst_1759 : Ref sig .tc := ⟨.hbm, 10026, rfl⟩
abbrev main_v5744 : Ref sig .tc := ⟨.hbm, 10027, rfl⟩
abbrev main_v5745 : Ref sig .tc := ⟨.hbm, 10028, rfl⟩
abbrev main_v5746 : Ref sig .tc := ⟨.hbm, 10029, rfl⟩
abbrev main_cst_1760 : Ref sig .tc := ⟨.hbm, 10030, rfl⟩
abbrev main_v5747 : Ref sig .tc := ⟨.hbm, 10031, rfl⟩
abbrev main_v5748 : Ref sig .tc := ⟨.hbm, 10032, rfl⟩
abbrev main_cst_1761 : Ref sig .tc := ⟨.hbm, 10033, rfl⟩
abbrev main_v5749 : Ref sig .tc := ⟨.hbm, 10034, rfl⟩
abbrev main_v5750 : Ref sig .tc := ⟨.hbm, 10035, rfl⟩
abbrev main_v5751 : Ref sig .tc := ⟨.hbm, 10036, rfl⟩
abbrev main_v5752 : Ref sig .tc := ⟨.hbm, 10037, rfl⟩
abbrev main_cst_1762 : Ref sig .tc := ⟨.hbm, 10038, rfl⟩
abbrev main_v5753 : Ref sig .tc := ⟨.hbm, 10039, rfl⟩
abbrev main_v5754 : Ref sig .tc := ⟨.hbm, 10040, rfl⟩
abbrev main_v5755 : Ref sig .tc := ⟨.hbm, 10041, rfl⟩
abbrev main_v5756 : Ref sig .tc := ⟨.hbm, 10042, rfl⟩
abbrev main_v5757 : Ref sig .tc := ⟨.hbm, 10043, rfl⟩
abbrev main_v5758 : Ref sig .tc := ⟨.hbm, 10044, rfl⟩
abbrev main_v5759 : Ref sig .tc := ⟨.hbm, 10045, rfl⟩
abbrev main_v5760 : Ref sig .tc := ⟨.hbm, 10046, rfl⟩
abbrev main_v5761 : Ref sig .tc := ⟨.hbm, 10047, rfl⟩
abbrev main_v5762 : Ref sig .tc := ⟨.hbm, 10048, rfl⟩
abbrev main_v5763 : Ref sig .tc := ⟨.hbm, 10049, rfl⟩
abbrev main_cst_1763 : Ref sig .tc := ⟨.hbm, 10050, rfl⟩
abbrev main_v5764 : Ref sig .tc := ⟨.hbm, 10051, rfl⟩
abbrev main_v5765 : Ref sig .tc := ⟨.hbm, 10052, rfl⟩
abbrev main_cst_1764 : Ref sig .tc := ⟨.hbm, 10053, rfl⟩
abbrev main_v5766 : Ref sig .tc := ⟨.hbm, 10054, rfl⟩
abbrev main_v5767 : Ref sig .tc := ⟨.hbm, 10055, rfl⟩
abbrev main_v5768 : Ref sig .tc := ⟨.hbm, 10056, rfl⟩
abbrev main_v5769 : Ref sig .tc := ⟨.hbm, 10057, rfl⟩
abbrev main_v5770 : Ref sig .tc := ⟨.hbm, 10058, rfl⟩
abbrev main_v5771 : Ref sig .tc := ⟨.hbm, 10059, rfl⟩
abbrev main_cst_1765 : Ref sig .tc := ⟨.hbm, 10060, rfl⟩
abbrev main_cst_1766 : Ref sig .tc := ⟨.hbm, 10061, rfl⟩
abbrev main_call504_v0 : Ref sig .tc := ⟨.hbm, 10062, rfl⟩
abbrev main_call504_v1 : Ref sig .tc := ⟨.hbm, 10063, rfl⟩
abbrev main_call504_v2 : Ref sig .tc := ⟨.hbm, 10064, rfl⟩
abbrev main_call504_v3 : Ref sig .tc := ⟨.hbm, 10065, rfl⟩
abbrev main_call504_v4 : Ref sig .tc := ⟨.hbm, 10066, rfl⟩
abbrev main_v5772 : Ref sig .tc := ⟨.hbm, 10067, rfl⟩
abbrev main_cst_1767 : Ref sig .tc := ⟨.hbm, 10068, rfl⟩
abbrev main_cst_1768 : Ref sig .tc := ⟨.hbm, 10069, rfl⟩
abbrev main_call505_v0 : Ref sig .tc := ⟨.hbm, 10070, rfl⟩
abbrev main_call505_v1 : Ref sig .tc := ⟨.hbm, 10071, rfl⟩
abbrev main_call505_v2 : Ref sig .tc := ⟨.hbm, 10072, rfl⟩
abbrev main_call505_v3 : Ref sig .tc := ⟨.hbm, 10073, rfl⟩
abbrev main_call505_v4 : Ref sig .tc := ⟨.hbm, 10074, rfl⟩
abbrev main_v5773 : Ref sig .tc := ⟨.hbm, 10075, rfl⟩
abbrev main_v5774 : Ref sig .tc := ⟨.hbm, 10076, rfl⟩
abbrev main_v5775 : Ref sig .tc := ⟨.hbm, 10077, rfl⟩
abbrev main_v5776 : Ref sig .tc := ⟨.hbm, 10078, rfl⟩
abbrev main_v5777 : Ref sig .tc := ⟨.hbm, 10079, rfl⟩
abbrev main_v5778 : Ref sig .tc := ⟨.hbm, 10080, rfl⟩
abbrev main_v5779 : Ref sig .tc := ⟨.hbm, 10081, rfl⟩
abbrev main_v5780 : Ref sig .tc := ⟨.hbm, 10082, rfl⟩
abbrev main_v5781 : Ref sig .tc := ⟨.hbm, 10083, rfl⟩
abbrev main_v5782 : Ref sig .tc := ⟨.hbm, 10084, rfl⟩
abbrev main_cst_1769 : Ref sig .tc := ⟨.hbm, 10085, rfl⟩
abbrev main_cst_1770 : Ref sig .tc := ⟨.hbm, 10086, rfl⟩
abbrev main_call506_v0 : Ref sig .tc := ⟨.hbm, 10087, rfl⟩
abbrev main_call506_v1 : Ref sig .tc := ⟨.hbm, 10088, rfl⟩
abbrev main_call506_v2 : Ref sig .tc := ⟨.hbm, 10089, rfl⟩
abbrev main_call506_v3 : Ref sig .tc := ⟨.hbm, 10090, rfl⟩
abbrev main_call506_v4 : Ref sig .tc := ⟨.hbm, 10091, rfl⟩
abbrev main_v5783 : Ref sig .tc := ⟨.hbm, 10092, rfl⟩
abbrev main_cst_1771 : Ref sig .tc := ⟨.hbm, 10093, rfl⟩
abbrev main_cst_1772 : Ref sig .tc := ⟨.hbm, 10094, rfl⟩
abbrev main_call507_v0 : Ref sig .tc := ⟨.hbm, 10095, rfl⟩
abbrev main_call507_v1 : Ref sig .tc := ⟨.hbm, 10096, rfl⟩
abbrev main_call507_v2 : Ref sig .tc := ⟨.hbm, 10097, rfl⟩
abbrev main_call507_v3 : Ref sig .tc := ⟨.hbm, 10098, rfl⟩
abbrev main_call507_v4 : Ref sig .tc := ⟨.hbm, 10099, rfl⟩
abbrev main_v5784 : Ref sig .tc := ⟨.hbm, 10100, rfl⟩
abbrev main_v5785 : Ref sig .tc := ⟨.hbm, 10101, rfl⟩
abbrev main_v5786 : Ref sig .tc := ⟨.hbm, 10102, rfl⟩
abbrev main_v5787 : Ref sig .tc := ⟨.hbm, 10103, rfl⟩
abbrev main_v5788 : Ref sig .tc := ⟨.hbm, 10104, rfl⟩
abbrev main_v5789 : Ref sig .tc := ⟨.hbm, 10105, rfl⟩
abbrev main_v5790 : Ref sig .tc := ⟨.hbm, 10106, rfl⟩
abbrev main_v5791 : Ref sig .tc := ⟨.hbm, 10107, rfl⟩
abbrev main_cst_1773 : Ref sig .tc := ⟨.hbm, 10108, rfl⟩
abbrev main_v5792 : Ref sig .tc := ⟨.hbm, 10109, rfl⟩
abbrev main_v5793 : Ref sig .tc := ⟨.hbm, 10110, rfl⟩
abbrev main_v5794 : Ref sig .tc := ⟨.hbm, 10111, rfl⟩
abbrev main_cst_1774 : Ref sig .tc := ⟨.hbm, 10112, rfl⟩
abbrev main_v5795 : Ref sig .tc := ⟨.hbm, 10113, rfl⟩
abbrev main_v5796 : Ref sig .tc := ⟨.hbm, 10114, rfl⟩
abbrev main_cst_1775 : Ref sig .tc := ⟨.hbm, 10115, rfl⟩
abbrev main_v5797 : Ref sig .tc := ⟨.hbm, 10116, rfl⟩
abbrev main_v5798 : Ref sig .tc := ⟨.hbm, 10117, rfl⟩
abbrev main_v5799 : Ref sig .tc := ⟨.hbm, 10118, rfl⟩
abbrev main_v5800 : Ref sig .tc := ⟨.hbm, 10119, rfl⟩
abbrev main_cst_1776 : Ref sig .tc := ⟨.hbm, 10120, rfl⟩
abbrev main_v5801 : Ref sig .tc := ⟨.hbm, 10121, rfl⟩
abbrev main_v5802 : Ref sig .tc := ⟨.hbm, 10122, rfl⟩
abbrev main_v5803 : Ref sig .tc := ⟨.hbm, 10123, rfl⟩
abbrev main_v5804 : Ref sig .tc := ⟨.hbm, 10124, rfl⟩
abbrev main_v5805 : Ref sig .tc := ⟨.hbm, 10125, rfl⟩
abbrev main_v5806 : Ref sig .tc := ⟨.hbm, 10126, rfl⟩
abbrev main_v5807 : Ref sig .tc := ⟨.hbm, 10127, rfl⟩
abbrev main_cst_1777 : Ref sig .tc := ⟨.hbm, 10128, rfl⟩
abbrev main_v5808 : Ref sig .tc := ⟨.hbm, 10129, rfl⟩
abbrev main_v5809 : Ref sig .tc := ⟨.hbm, 10130, rfl⟩
abbrev main_cst_1778 : Ref sig .tc := ⟨.hbm, 10131, rfl⟩
abbrev main_v5810 : Ref sig .tc := ⟨.hbm, 10132, rfl⟩
abbrev main_v5811 : Ref sig .tc := ⟨.hbm, 10133, rfl⟩
abbrev main_v5812 : Ref sig .tc := ⟨.hbm, 10134, rfl⟩
abbrev main_v5813 : Ref sig .tc := ⟨.hbm, 10135, rfl⟩
abbrev main_v5814 : Ref sig .tc := ⟨.hbm, 10136, rfl⟩
abbrev main_v5815 : Ref sig .tc := ⟨.hbm, 10137, rfl⟩
abbrev main_cst_1779 : Ref sig .tc := ⟨.hbm, 10138, rfl⟩
abbrev main_cst_1780 : Ref sig .tc := ⟨.hbm, 10139, rfl⟩
abbrev main_call508_v0 : Ref sig .tc := ⟨.hbm, 10140, rfl⟩
abbrev main_call508_v1 : Ref sig .tc := ⟨.hbm, 10141, rfl⟩
abbrev main_call508_v2 : Ref sig .tc := ⟨.hbm, 10142, rfl⟩
abbrev main_call508_v3 : Ref sig .tc := ⟨.hbm, 10143, rfl⟩
abbrev main_call508_v4 : Ref sig .tc := ⟨.hbm, 10144, rfl⟩
abbrev main_v5816 : Ref sig .tc := ⟨.hbm, 10145, rfl⟩
abbrev main_cst_1781 : Ref sig .tc := ⟨.hbm, 10146, rfl⟩
abbrev main_cst_1782 : Ref sig .tc := ⟨.hbm, 10147, rfl⟩
abbrev main_call509_v0 : Ref sig .tc := ⟨.hbm, 10148, rfl⟩
abbrev main_call509_v1 : Ref sig .tc := ⟨.hbm, 10149, rfl⟩
abbrev main_call509_v2 : Ref sig .tc := ⟨.hbm, 10150, rfl⟩
abbrev main_call509_v3 : Ref sig .tc := ⟨.hbm, 10151, rfl⟩
abbrev main_call509_v4 : Ref sig .tc := ⟨.hbm, 10152, rfl⟩
abbrev main_v5817 : Ref sig .tc := ⟨.hbm, 10153, rfl⟩
abbrev main_v5818 : Ref sig .tc := ⟨.hbm, 10154, rfl⟩
abbrev main_v5819 : Ref sig .tc := ⟨.hbm, 10155, rfl⟩
abbrev main_v5820 : Ref sig .tc := ⟨.hbm, 10156, rfl⟩
abbrev main_v5821 : Ref sig .tc := ⟨.hbm, 10157, rfl⟩
abbrev main_v5822 : Ref sig .tc := ⟨.hbm, 10158, rfl⟩
abbrev main_v5823 : Ref sig .tc := ⟨.hbm, 10159, rfl⟩
abbrev main_v5824 : Ref sig .tc := ⟨.hbm, 10160, rfl⟩
abbrev main_cst_1783 : Ref sig .tc := ⟨.hbm, 10161, rfl⟩
abbrev main_v5825 : Ref sig .tc := ⟨.hbm, 10162, rfl⟩
abbrev main_v5826 : Ref sig .tc := ⟨.hbm, 10163, rfl⟩
abbrev main_v5827 : Ref sig .tc := ⟨.hbm, 10164, rfl⟩
abbrev main_cst_1784 : Ref sig .tc := ⟨.hbm, 10165, rfl⟩
abbrev main_v5828 : Ref sig .tc := ⟨.hbm, 10166, rfl⟩
abbrev main_v5829 : Ref sig .tc := ⟨.hbm, 10167, rfl⟩
abbrev main_cst_1785 : Ref sig .tc := ⟨.hbm, 10168, rfl⟩
abbrev main_v5830 : Ref sig .tc := ⟨.hbm, 10169, rfl⟩
abbrev main_v5831 : Ref sig .tc := ⟨.hbm, 10170, rfl⟩
abbrev main_v5832 : Ref sig .tc := ⟨.hbm, 10171, rfl⟩
abbrev main_v5833 : Ref sig .tc := ⟨.hbm, 10172, rfl⟩
abbrev main_cst_1786 : Ref sig .tc := ⟨.hbm, 10173, rfl⟩
abbrev main_v5834 : Ref sig .tc := ⟨.hbm, 10174, rfl⟩
abbrev main_v5835 : Ref sig .tc := ⟨.hbm, 10175, rfl⟩
abbrev main_v5836 : Ref sig .tc := ⟨.hbm, 10176, rfl⟩
abbrev main_v5837 : Ref sig .tc := ⟨.hbm, 10177, rfl⟩
abbrev main_v5838 : Ref sig .tc := ⟨.hbm, 10178, rfl⟩
abbrev main_v5839 : Ref sig .tc := ⟨.hbm, 10179, rfl⟩
abbrev main_v5840 : Ref sig .tc := ⟨.hbm, 10180, rfl⟩
abbrev main_v5841 : Ref sig .tc := ⟨.hbm, 10181, rfl⟩
abbrev main_v5842 : Ref sig .tc := ⟨.hbm, 10182, rfl⟩
abbrev main_v5843 : Ref sig .tc := ⟨.hbm, 10183, rfl⟩
abbrev main_v5844 : Ref sig .tc := ⟨.hbm, 10184, rfl⟩
abbrev main_v5845 : Ref sig .tc := ⟨.hbm, 10185, rfl⟩
abbrev main_v5846 : Ref sig .tc := ⟨.hbm, 10186, rfl⟩
abbrev main_v5847 : Ref sig .tc := ⟨.hbm, 10187, rfl⟩
abbrev main_v5848 : Ref sig .tc := ⟨.hbm, 10188, rfl⟩
abbrev main_v5849 : Ref sig .tc := ⟨.hbm, 10189, rfl⟩
abbrev main_v5850 : Ref sig .tc := ⟨.hbm, 10190, rfl⟩
abbrev main_v5851 : Ref sig .tc := ⟨.hbm, 10191, rfl⟩
abbrev main_v5852 : Ref sig .tc := ⟨.hbm, 10192, rfl⟩
abbrev main_v5853 : Ref sig .tc := ⟨.hbm, 10193, rfl⟩
abbrev main_v5854 : Ref sig .tc := ⟨.hbm, 10194, rfl⟩
abbrev main_v5855 : Ref sig .tc := ⟨.hbm, 10195, rfl⟩
abbrev main_v5856 : Ref sig .tc := ⟨.hbm, 10196, rfl⟩
abbrev main_v5857 : Ref sig .tc := ⟨.hbm, 10197, rfl⟩
abbrev main_v5858 : Ref sig .tc := ⟨.hbm, 10198, rfl⟩
abbrev main_v5859 : Ref sig .tc := ⟨.hbm, 10199, rfl⟩
abbrev main_v5860 : Ref sig .tc := ⟨.hbm, 10200, rfl⟩
abbrev main_v5861 : Ref sig .tc := ⟨.hbm, 10201, rfl⟩
abbrev main_v5862 : Ref sig .tc := ⟨.hbm, 10202, rfl⟩
abbrev main_v5863 : Ref sig .tc := ⟨.hbm, 10203, rfl⟩
abbrev main_v5864 : Ref sig .tc := ⟨.hbm, 10204, rfl⟩
abbrev main_v5865 : Ref sig .tc := ⟨.hbm, 10205, rfl⟩
abbrev main_v5866 : Ref sig .tc := ⟨.hbm, 10206, rfl⟩
abbrev main_v5867 : Ref sig .tc := ⟨.hbm, 10207, rfl⟩
abbrev main_v5868 : Ref sig .tc := ⟨.hbm, 10208, rfl⟩
abbrev main_c_1787 : Ref sig .tc := ⟨.hbm, 10209, rfl⟩
abbrev main_v5869 : Ref sig .tc := ⟨.hbm, 10210, rfl⟩
abbrev main_v5870 : Ref sig .tc := ⟨.hbm, 10211, rfl⟩
abbrev main_v5871 : Ref sig .tc := ⟨.hbm, 10212, rfl⟩
abbrev main_v5872 : Ref sig .tc := ⟨.hbm, 10213, rfl⟩
abbrev main_v5873 : Ref sig .tc := ⟨.hbm, 10214, rfl⟩

abbrev nD : Nat := 1
abbrev τ : Topo := Topo.v7x

variable {F : FTy → Type} [FloatOps F]

class Facts₀ : Prop where
  bcast_S_S32768x256 : S_.BroadcastsInDim S32768x256 (![] : Fin 0 → Fin S32768x256.rank)
  slices_S32768x256_S32768x128_0_0 : S32768x256.Slices ![0, 0] S32768x128
  slices_S32768x256_S32768x128_0_128 : S32768x256.Slices ![0, 128] S32768x128
  bcast_S_S32768x128 : S_.BroadcastsInDim S32768x128 (![] : Fin 0 → Fin S32768x128.rank)
  slices_S32768x128_S32768x64_0_0 : S32768x128.Slices ![0, 0] S32768x64
  slices_S32768x128_S32768x64_0_64 : S32768x128.Slices ![0, 64] S32768x64
  bcast_S_S32768x64 : S_.BroadcastsInDim S32768x64 (![] : Fin 0 → Fin S32768x64.rank)
  slices_S32768x64_S32768x32_0_0 : S32768x64.Slices ![0, 0] S32768x32
  slices_S32768x64_S32768x32_0_32 : S32768x64.Slices ![0, 32] S32768x32
  bcast_S_S32768x32 : S_.BroadcastsInDim S32768x32 (![] : Fin 0 → Fin S32768x32.rank)
  slices_S32768x32_S32768x16_0_0 : S32768x32.Slices ![0, 0] S32768x16
  slices_S32768x32_S32768x16_0_16 : S32768x32.Slices ![0, 16] S32768x16
  bcast_S_S32768x16 : S_.BroadcastsInDim S32768x16 (![] : Fin 0 → Fin S32768x16.rank)
  slices_S32768x16_S32768x8_0_0 : S32768x16.Slices ![0, 0] S32768x8
  slices_S32768x16_S32768x8_0_8 : S32768x16.Slices ![0, 8] S32768x8
  bcast_S_S32768x8 : S_.BroadcastsInDim S32768x8 (![] : Fin 0 → Fin S32768x8.rank)
  slices_S32768x8_S32768x4_0_0 : S32768x8.Slices ![0, 0] S32768x4
  slices_S32768x8_S32768x4_0_4 : S32768x8.Slices ![0, 4] S32768x4
  bcast_S_S32768x4 : S_.BroadcastsInDim S32768x4 (![] : Fin 0 → Fin S32768x4.rank)
  slices_S32768x4_S32768x2_0_0 : S32768x4.Slices ![0, 0] S32768x2
  slices_S32768x4_S32768x2_0_2 : S32768x4.Slices ![0, 2] S32768x2
  bcast_S_S32768x2 : S_.BroadcastsInDim S32768x2 (![] : Fin 0 → Fin S32768x2.rank)
  slices_S32768x2_S32768x1_0_0 : S32768x2.Slices ![0, 0] S32768x1
  slices_S32768x2_S32768x1_0_1 : S32768x2.Slices ![0, 1] S32768x1
  bcast_S_S32768x1 : S_.BroadcastsInDim S32768x1 (![] : Fin 0 → Fin S32768x1.rank)
  concatenates_S32768x1_S32768x1_S32768x2_d1 : Shape.Concatenates [S32768x1, S32768x1] S32768x2 1
  concatenates_S32768x2_S32768x2_S32768x4_d1 : Shape.Concatenates [S32768x2, S32768x2] S32768x4 1
  concatenates_S32768x4_S32768x4_S32768x8_d1 : Shape.Concatenates [S32768x4, S32768x4] S32768x8 1
  concatenates_S32768x8_S32768x8_S32768x16_d1 : Shape.Concatenates [S32768x8, S32768x8] S32768x16 1
  concatenates_S32768x16_S32768x16_S32768x32_d1 : Shape.Concatenates [S32768x16, S32768x16] S32768x32 1
  concatenates_S32768x32_S32768x32_S32768x64_d1 : Shape.Concatenates [S32768x32, S32768x32] S32768x64 1
  concatenates_S32768x64_S32768x64_S32768x128_d1 : Shape.Concatenates [S32768x64, S32768x64] S32768x128 1
  concatenates_S32768x128_S32768x128_S32768x256_d1 : Shape.Concatenates [S32768x128, S32768x128] S32768x256 1
  bcast_S_S128 : S_.BroadcastsInDim S128 (![] : Fin 0 → Fin S128.rank)
  bcast_S128_S128x1_0 : S128.BroadcastsInDim S128x1 (![0] : Fin 1 → Fin S128x1.rank)
  gather_S32768x256_S128x1_S32768x128_0_1_n_n_1_1_327681_wf : GatherDims.WF S32768x256 S128x1 S32768x128 [0] [1] [] [1] [] 1 ![32768, 1]

variable [Facts₀]

def gather_S32768x256_S128x1_S32768x128_0_1_n_n_1_1_327681 : GatherDims S32768x256 S128x1 S32768x128 where
  offsetDims := [0]
  collapsedSliceDims := [1]
  operandBatchingDims := []
  startIndicesBatchingDims := []
  startIndexMap := [1]
  indexVectorDim := 1
  sliceSizes := ![32768, 1]
  wf := gather_S32768x256_S128x1_S32768x128_0_1_n_n_1_1_327681_wf

class Facts : Prop extends Facts₀ where

variable [Facts]
-- ==== Proof.Preserves.lean ====
/-
  The idealized kernel differs from the kernel in one kind of place only: where the kernel builds ±1 from the
  sign bit of a word (the word's sign bit or-ed onto the pattern of 1.0), the idealized kernel selects -1
  below zero and 1 otherwise. Each of the 254 such places (two per inner node of the 128-leaf subtree) is an
  instance of the same statement about a vector shape, which holds at every shape.
-/
import proofs.«134088_j24077586662034_2_alg».proof.Defs

namespace Cert.Proof.Polar

open Idealize.ShloMosaic

theorem preserves : Cert.preserves_Kernel_KernelIdeal := by
  unfold Cert.preserves_Kernel_KernelIdeal
  repeat' (first | exact IdealRules.sign_bit.statement _ _ | apply And.intro)

end Cert.Proof.Polar
-- ==== Proof.RefRun.W00.lean ====
import proofs.«134088_j24077586662034_2_alg».proof.Defs
import proofs.«134088_j24077586662034_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 1 … 60, in order (100 of them): a statement's own operation, or, for a call
    of a clip function, the six operations of its body over that call's buffers. -/
abbrev ops0 : List (HloOp τ sig (Elt F)) :=
  [ StableHlo.nullary main_c (fun i => lit0 (S128.rowMajor i)),
    StableHlo.nullary main_c_0 (constantI S128 1 0#1),
    StableHlo.nullary main_cst (constant S_ .f32 0xBF800000#32),
    StableHlo.unary main_cst main_v0 (broadcastInDim S32768x256 ![] bcast_S_S32768x256 : (⟨S_, .f32⟩ : BufTy).Contents (Elt F) → (⟨S32768x256, .f32⟩ : BufTy).Contents (Elt F)),
    StableHlo.binary main_v0 main_arg0 main_v1 (mulf : (⟨S32768x256, .f32⟩ : BufTy).Contents (Elt F) → (⟨S32768x256, .f32⟩ : BufTy).Contents (Elt F) → (⟨S32768x256, .f32⟩ : BufTy).Contents (Elt F)),
    StableHlo.unary main_v1 main_v2 ((extractStridedSlice S32768x128 ![0, 0] · slices_S32768x256_S32768x128_0_0) : (⟨S32768x256, .f32⟩ : BufTy).Contents (Elt F) → (⟨S32768x128, .f32⟩ : BufTy).Contents (Elt F)),
    StableHlo.unary main_v1 main_v3 ((extractStridedSlice S32768x128 ![0, 128] · slices_S32768x256_S32768x128_0_128) : (⟨S32768x256, .f32⟩ : BufTy).Contents (Elt F) → (⟨S32768x128, .f32⟩ : BufTy).Contents (Elt F)),
    StableHlo.nullary main_cst_1 (constant S_ .f32 0xC1F00000#32),
    StableHlo.nullary main_cst_2 (constant S_ .f32 0x41F00000#32),
    StableHlo.TRef.unary (.of main_cst_1 : StableHlo.TRef sig ⟨S_, .f32⟩) main_call0.v0 id,
    StableHlo.TRef.unary main_call0.v0 main_call0.v1 (broadcastInDim S32768x128 ![] bcast_S_S32768x128),
    StableHlo.TRef.binary main_call0.v1 (.of main_v2 : StableHlo.TRef sig ⟨S32768x128, .f32⟩) main_call0.v2 maximumf,
    StableHlo.TRef.unary (.of main_cst_2 : StableHlo.TRef sig ⟨S_, .f32⟩) main_call0.v3 id,
    StableHlo.TRef.unary main_call0.v3 main_call0.v4 (broadcastInDim S32768x128 ![] bcast_S_S32768x128),
    StableHlo.TRef.binary main_call0.v4 main_call0.v2 main_call0.v5 minimumf,
    StableHlo.nullary main_cst_3 (constant S_ .f32 0xC1F00000#32),
    StableHlo.nullary main_cst_4 (constant S_ .f32 0x41F00000#32),
    StableHlo.TRef.unary (.of main_cst_3 : StableHlo.TRef sig ⟨S_, .f32⟩) main_call1.v0 id,
    StableHlo.TRef.unary main_call1.v0 main_call1.v1 (broadcastInDim S32768x128 ![] bcast_S_S32768x128),
    StableHlo.TRef.binary main_call1.v1 (.of main_v3 : StableHlo.TRef sig ⟨S32768x128, .f32⟩) main_call1.v2 maximumf,
    StableHlo.TRef.unary (.of main_cst_4 : StableHlo.TRef sig ⟨S_, .f32⟩) main_call1.v3 id,
    StableHlo.TRef.unary main_call1.v3 main_call1.v4 (broadcastInDim S32768x128 ![] bcast_S_S32768x128),
    StableHlo.TRef.binary main_call1.v4 main_call1.v2 main_call1.v5 minimumf,
    StableHlo.unary main_v4 main_v6 (Host.sign : (⟨S32768x128, .f32⟩ : BufTy).Contents (Elt F) → (⟨S32768x128, .f32⟩ : BufTy).Contents (Elt F)),
    StableHlo.unary main_v5 main_v7 (Host.sign : (⟨S32768x128, .f32⟩ : BufTy).Contents (Elt F) → (⟨S32768x128, .f32⟩ : BufTy).Contents (Elt F)),
    StableHlo.binary main_v6 main_v7 main_v8 (mulf : (⟨S32768x128, .f32⟩ : BufTy).Contents (Elt F) → (⟨S32768x128, .f32⟩ : BufTy).Contents (Elt F) → (⟨S32768x128, .f32⟩ : BufTy).Contents (Elt F)),
    StableHlo.unary main_v4 main_v9 (Host.absf : (⟨S32768x128, .f32⟩ : BufTy).Contents (Elt F) → (⟨S32768x128, .f32⟩ : BufTy).Contents (Elt F)),
    StableHlo.unary main_v5 main_v10 (Host.absf : (⟨S32768x128, .f32⟩ : BufTy).Contents (Elt F) → (⟨S32768x128, .f32⟩ : BufTy).Contents (Elt F)),
    StableHlo.binary main_v9 main_v10 main_v11 (minimumf : (⟨S32768x128, .f32⟩ : BufTy).Contents (Elt F) → (⟨S32768x128, .f32⟩ : BufTy).Contents (Elt F) → (⟨S32768x128, .f32⟩ : BufTy).Contents (Elt F)),
    StableHlo.binary main_v8 main_v11 main_v12 (mulf : (⟨S32768x128, .f32⟩ : BufTy).Contents (Elt F) → (⟨S32768x128, .f32⟩ : BufTy).Contents (Elt F) → (⟨S32768x128, .f32⟩ : BufTy).Contents (Elt F)),
    StableHlo.unary main_v12 main_v13 ((extractStridedSlice S32768x64 ![0, 0] · slices_S32768x128_S32768x64_0_0) : (⟨S32768x128, .f32⟩ : BufTy).Contents (Elt F) → (⟨S32768x64, .f32⟩ : BufTy).Contents (Elt F)),
    StableHlo.unary main_v12 main_v14 ((extractStridedSlice S32768x64 ![0, 64] · slices_S32768x128_S32768x64_0_64) : (⟨S32768x128, .f32⟩ : BufTy).Contents (Elt F) → (⟨S32768x64, .f32⟩ : BufTy).Contents (Elt F)),
    StableHlo.nullary main_cst_5 (constant S_ .f32 0xC1F00000#32),
    StableHlo.nullary main_cst_6 (constant S_ .f32 0x41F00000#32),
    StableHlo.TRef.unary (.of main_cst_5 : StableHlo.TRef sig ⟨S_, .f32⟩) main_call2.v0 id,
    StableHlo.TRef.unary main_call2.v0 main_call2.v1 (broadcastInDim S32768x64 ![] bcast_S_S32768x64),
    StableHlo.TRef.binary main_call2.v1 (.of main_v13 : StableHlo.TRef sig ⟨S32768x64, .f32⟩) main_call2.v2 maximumf,
    StableHlo.TRef.unary (.of main_cst_6 : StableHlo.TRef sig ⟨S_, .f32⟩) main_call2.v3 id,
    StableHlo.TRef.unary main_call2.v3 main_call2.v4 (broadcastInDim S32768x64 ![] bcast_S_S32768x64),
    StableHlo.TRef.binary main_call2.v4 main_call2.v2 main_call2.v5 minimumf,
    StableHlo.nullary main_cst_7 (constant S_ .f32 0xC1F00000#32),
    StableHlo.nullary main_cst_8 (constant S_ .f32 0x41F00000#32),
    StableHlo.TRef.unary (.of main_cst_7 : StableHlo.TRef sig ⟨S_, .f32⟩) main_call3.v0 id,
    StableHlo.TRef.unary main_call3.v0 main_call3.v1 (broadcastInDim S32768x64 ![] bcast_S_S32768x64),
    StableHlo.TRef.binary main_call3.v1 (.of main_v14 : StableHlo.TRef sig ⟨S32768x64, .f32⟩) main_call3.v2 maximumf,
    StableHlo.TRef.unary (.of main_cst_8 : StableHlo.TRef sig ⟨S_, .f32⟩) main_call3.v3 id,
    StableHlo.TRef.unary main_call3.v3 main_call3.v4 (broadcastInDim S32768x64 ![] bcast_S_S32768x64),
    StableHlo.TRef.binary main_call3.v4 main_call3.v2 main_call3.v5 minimumf,
    StableHlo.unary main_v15 main_v17 (Host.sign : (⟨S32768x64, .f32⟩ : BufTy).Contents (Elt F) → (⟨S32768x64, .f32⟩ : BufTy).Contents (Elt F)),
    StableHlo.unary main_v16 main_v18 (Host.sign : (⟨S32768x64, .f32⟩ : BufTy).Contents (Elt F) → (⟨S32768x64, .f32⟩ : BufTy).Contents (Elt F)),
    StableHlo.binary main_v17 main_v18 main_v19 (mulf : (⟨S32768x64, .f32⟩ : BufTy).Contents (Elt F) → (⟨S32768x64, .f32⟩ : BufTy).Contents (Elt F) → (⟨S32768x64, .f32⟩ : BufTy).Contents (Elt F)),
    StableHlo.unary main_v15 main_v20 (Host.absf : (⟨S32768x64, .f32⟩ : BufTy).Contents (Elt F) → (⟨S32768x64, .f32⟩ : BufTy).Contents (Elt F)),
    StableHlo.unary main_v16 main_v21 (Host.absf : (⟨S32768x64, .f32⟩ : BufTy).Contents (Elt F) → (⟨S32768x64, .f32⟩ : BufTy).Contents (Elt F)),
    StableHlo.binary main_v20 main_v21 main_v22 (minimumf : (⟨S32768x64, .f32⟩ : BufTy).Contents (Elt F) → (⟨S32768x64, .f32⟩ : BufTy).Contents (Elt F) → (⟨S32768x64, .f32⟩ : BufTy).Contents (Elt F)),
    StableHlo.binary main_v19 main_v22 main_v23 (mulf : (⟨S32768x64, .f32⟩ : BufTy).Contents (Elt F) → (⟨S32768x64, .f32⟩ : BufTy).Contents (Elt F) → (⟨S32768x64, .f32⟩ : BufTy).Contents (Elt F)),
    StableHlo.unary main_v23 main_v24 ((extractStridedSlice S32768x32 ![0, 0] · slices_S32768x64_S32768x32_0_0) : (⟨S32768x64, .f32⟩ : BufTy).Contents (Elt F) → (⟨S32768x32, .f32⟩ : BufTy).Contents (Elt F)),
    StableHlo.unary main_v23 main_v25 ((extractStridedSlice S32768x32 ![0, 32] · slices_S32768x64_S32768x32_0_32) : (⟨S32768x64, .f32⟩ : BufTy).Contents (Elt F) → (⟨S32768x32, .f32⟩ : BufTy).Contents (Elt F)),
    StableHlo.nullary main_cst_9 (constant S_ .f32 0xC1F00000#32),
    StableHlo.nullary main_cst_10 (constant S_ .f32 0x41F00000#32),
    StableHlo.TRef.unary (.of main_cst_9 : StableHlo.TRef sig ⟨S_, .f32⟩) main_call4.v0 id,
    StableHlo.TRef.unary main_call4.v0 main_call4.v1 (broadcastInDim S32768x32 ![] bcast_S_S32768x32),
    StableHlo.TRef.binary main_call4.v1 (.of main_v24 : StableHlo.TRef sig ⟨S32768x32, .f32⟩) main_call4.v2 maximumf,
    StableHlo.TRef.unary (.of main_cst_10 : StableHlo.TRef sig ⟨S_, .f32⟩) main_call4.v3 id,
    StableHlo.TRef.unary main_call4.v3 main_call4.v4 (broadcastInDim S32768x32 ![] bcast_S_S32768x32),
    StableHlo.TRef.binary main_call4.v4 main_call4.v2 main_call4.v5 minimumf,
    StableHlo.nullary main_cst_11 (constant S_ .f32 0xC1F00000#32),
    StableHlo.nullary main_cst_12 (constant S_ .f32 0x41F00000#32),
    StableHlo.TRef.unary (.of main_cst_11 : StableHlo.TRef sig ⟨S_, .f32⟩) main_call5.v0 id,
    StableHlo.TRef.unary main_call5.v0 main_call5.v1 (broadcastInDim S32768x32 ![] bcast_S_S32768x32),
    StableHlo.TRef.binary main_call5.v1 (.of main_v25 : StableHlo.TRef sig ⟨S32768x32, .f32⟩) main_call5.v2 maximumf,
    StableHlo.TRef.unary (.of main_cst_12 : StableHlo.TRef sig ⟨S_, .f32⟩) main_call5.v3 id,
    StableHlo.TRef.unary main_call5.v3 main_call5.v4 (broadcastInDim S32768x32 ![] bcast_S_S32768x32),
    StableHlo.TRef.binary main_call5.v4 main_call5.v2 main_call5.v5 minimumf,
    StableHlo.unary main_v26 main_v28 (Host.sign : (⟨S32768x32, .f32⟩ : BufTy).Contents (Elt F) → (⟨S32768x32, .f32⟩ : BufTy).Contents (Elt F)),
    StableHlo.unary main_v27 main_v29 (Host.sign : (⟨S32768x32, .f32⟩ : BufTy).Contents (Elt F) → (⟨S32768x32, .f32⟩ : BufTy).Contents (Elt F)),
    StableHlo.binary main_v28 main_v29 main_v30 (mulf : (⟨S32768x32, .f32⟩ : BufTy).Contents (Elt F) → (⟨S32768x32, .f32⟩ : BufTy).Contents (Elt F) → (⟨S32768x32, .f32⟩ : BufTy).Contents (Elt F)),
    StableHlo.unary main_v26 main_v31 (Host.absf : (⟨S32768x32, .f32⟩ : BufTy).Contents (Elt F) → (⟨S32768x32, .f32⟩ : BufTy).Contents (Elt F)),
    StableHlo.unary main_v27 main_v32 (Host.absf : (⟨S32768x32, .f32⟩ : BufTy).Contents (Elt F) → (⟨S32768x32, .f32⟩ : BufTy).Contents (Elt F)),
    StableHlo.binary main_v31 main_v32 main_v33 (minimumf : (⟨S32768x32, .f32⟩ : BufTy).Contents (Elt F) → (⟨S32768x32, .f32⟩ : BufTy).Contents (Elt F) → (⟨S32768x32, .f32⟩ : BufTy).Contents (Elt F)),
    StableHlo.binary main_v30 main_v33 main_v34 (mulf : (⟨S32768x32, .f32⟩ : BufTy).Contents (Elt F) → (⟨S32768x32, .f32⟩ : BufTy).Contents (Elt F) → (⟨S32768x32, .f32⟩ : BufTy).Contents (Elt F)),
    StableHlo.unary main_v34 main_v35 ((extractStridedSlice S32768x16 ![0, 0] · slices_S32768x32_S32768x16_0_0) : (⟨S32768x32, .f32⟩ : BufTy).Contents (Elt F) → (⟨S32768x16, .f32⟩ : BufTy).Contents (Elt F)),
    StableHlo.unary main_v34 main_v36 ((extractStridedSlice S32768x16 ![0, 16] · slices_S32768x32_S32768x16_0_16) : (⟨S32768x32, .f32⟩ : BufTy).Contents (Elt F) → (⟨S32768x16, .f32⟩ : BufTy).Contents (Elt F)),
    StableHlo.nullary main_cst_13 (constant S_ .f32 0xC1F00000#32),
    StableHlo.nullary main_cst_14 (constant S_ .f32 0x41F00000#32),
    StableHlo.TRef.unary (.of main_cst_13 : StableHlo.TRef sig ⟨S_, .f32⟩) main_call6.v0 id,
    StableHlo.TRef.unary main_call6.v0 main_call6.v1 (broadcastInDim S32768x16 ![] bcast_S_S32768x16),
    StableHlo.TRef.binary main_call6.v1 (.of main_v35 : StableHlo.TRef sig ⟨S32768x16, .f32⟩) main_call6.v2 maximumf,
    StableHlo.TRef.unary (.of main_cst_14 : StableHlo.TRef sig ⟨S_, .f32⟩) main_call6.v3 id,
    StableHlo.TRef.unary main_call6.v3 main_call6.v4 (broadcastInDim S32768x16 ![] bcast_S_S32768x16),
    StableHlo.TRef.binary main_call6.v4 main_call6.v2 main_call6.v5 minimumf,
    StableHlo.nullary main_cst_15 (constant S_ .f32 0xC1F00000#32),
    StableHlo.nullary main_cst_16 (constant S_ .f32 0x41F00000#32),
    StableHlo.TRef.unary (.of main_cst_15 : StableHlo.TRef sig ⟨S_, .f32⟩) main_call7.v0 id,
    StableHlo.TRef.unary main_call7.v0 main_call7.v1 (broadcastInDim S32768x16 ![] bcast_S_S32768x16),
    StableHlo.TRef.binary main_call7.v1 (.of main_v36 : StableHlo.TRef sig ⟨S32768x16, .f32⟩) main_call7.v2 maximumf,
    StableHlo.TRef.unary (.of main_cst_16 : StableHlo.TRef sig ⟨S_, .f32⟩) main_call7.v3 id,
    StableHlo.TRef.unary main_call7.v3 main_call7.v4 (broadcastInDim S32768x16 ![] bcast_S_S32768x16),
    StableHlo.TRef.binary main_call7.v4 main_call7.v2 main_call7.v5 minimumf,
    StableHlo.unary main_v37 main_v39 (Host.sign : (⟨S32768x16, .f32⟩ : BufTy).Contents (Elt F) → (⟨S32768x16, .f32⟩ : BufTy).Contents (Elt F)),
    StableHlo.unary main_v38 main_v40 (Host.sign : (⟨S32768x16, .f32⟩ : BufTy).Contents (Elt F) → (⟨S32768x16, .f32⟩ : BufTy).Contents (Elt F)) ]

set_option maxRecDepth 8192 in
/-- The window is that straight line: each clip function unfolded at its calls, the sequencing reassociated. -/
theorem part_eq_0 (d : Dev nD) : main_part0 (F := F) d = seq ops0 := by
  simp only [main_part0, fn_clip.body, fn_clip_0.body, fn_clip_1.body, fn_clip_2.body, seq, bind_assoc, pure_bind]
  rfl

/-- Every operation of the window touches TensorCore references only. -/
theorem sub_0 : (ops0 : List (HloOp τ sig (Elt F))).Forall fun op => op.bufs ⊆ tcRefs τ sig :=
  ⟨nullary_bufs_sub .., nullary_bufs_sub .., nullary_bufs_sub .., unary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub ..⟩

/-- Every operation of the window determines all it writes. -/
theorem fresh_0 : (ops0 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_0 (V : Valuation τ sig (Elt F)) :
    after ops0 V (main_arg0 : DevRef τ sig) = V (main_arg0 : DevRef τ sig) := by
  simp only [after_cons, after_nil]
  rfl

/-- The operations of @main's statements 61 … 120, in order (100 of them): a statement's own operation, or, for a call
    of a clip function, the six operations of its body over that call's buffers. -/
abbrev ops1 : List (HloOp τ sig (Elt F)) :=
  [ StableHlo.binary main_v39 main_v40 main_v41 (mulf : (⟨S32768x16, .f32⟩ : BufTy).Contents (Elt F) → (⟨S32768x16, .f32⟩ : BufTy).Contents (Elt F) → (⟨S32768x16, .f32⟩ : BufTy).Contents (Elt F)),
    StableHlo.unary main_v37 main_v42 (Host.absf : (⟨S32768x16, .f32⟩ : BufTy).Contents (Elt F) → (⟨S32768x16, .f32⟩ : BufTy).Contents (Elt F)),
    StableHlo.unary main_v38 main_v43 (Host.absf : (⟨S32768x16, .f32⟩ : BufTy).Contents (Elt F) → (⟨S32768x16, .f32⟩ : BufTy).Contents (Elt F)),
    StableHlo.binary main_v42 main_v43 main_v44 (minimumf : (⟨S32768x16, .f32⟩ : BufTy).Contents (Elt F) → (⟨S32768x16, .f32⟩ : BufTy).Contents (Elt F) → (⟨S32768x16, .f32⟩ : BufTy).Contents (Elt F)),
    StableHlo.binary main_v41 main_v44 main_v45 (mulf : (⟨S32768x16, .f32⟩ : BufTy).Contents (Elt F) → (⟨S32768x16, .f32⟩ : BufTy).Contents (Elt F) → (⟨S32768x16, .f32⟩ : BufTy).Contents (Elt F)),
    StableHlo.unary main_v45 main_v46 ((extractStridedSlice S32768x8 ![0, 0] · slices_S32768x16_S32768x8_0_0) : (⟨S32768x16, .f32⟩ : BufTy).Contents (Elt F) → (⟨S32768x8, .f32⟩ : BufTy).Contents (Elt F)),
    StableHlo.unary main_v45 main_v47 ((extractStridedSlice S32768x8 ![0, 8] · slices_S32768x16_S32768x8_0_8) : (⟨S32768x16, .f32⟩ : BufTy).Contents (Elt F) → (⟨S32768x8, .f32⟩ : BufTy).Contents (Elt F)),
    StableHlo.nullary main_cst_17 (constant S_ .f32 0xC1F00000#32),
    StableHlo.nullary main_cst_18 (constant S_ .f32 0x41F00000#32),
    StableHlo.TRef.unary (.of main_cst_17 : StableHlo.TRef sig ⟨S_, .f32⟩) main_call8.v0 id,
    StableHlo.TRef.unary main_call8.v0 main_call8.v1 (broadcastInDim S32768x8 ![] bcast_S_S32768x8),
    StableHlo.TRef.binary main_call8.v1 (.of main_v46 : StableHlo.TRef sig ⟨S32768x8, .f32⟩) main_call8.v2 maximumf,
    StableHlo.TRef.unary (.of main_cst_18 : StableHlo.TRef sig ⟨S_, .f32⟩) main_call8.v3 id,
    StableHlo.TRef.unary main_call8.v3 main_call8.v4 (broadcastInDim S32768x8 ![] bcast_S_S32768x8),
    StableHlo.TRef.binary main_call8.v4 main_call8.v2 main_call8.v5 minimumf,
    StableHlo.nullary main_cst_19 (constant S_ .f32 0xC1F00000#32),
    StableHlo.nullary main_cst_20 (constant S_ .f32 0x41F00000#32),
    StableHlo.TRef.unary (.of main_cst_19 : StableHlo.TRef sig ⟨S_, .f32⟩) main_call9.v0 id,
    StableHlo.TRef.unary main_call9.v0 main_call9.v1 (broadcastInDim S32768x8 ![] bcast_S_S32768x8),
    StableHlo.TRef.binary main_call9.v1 (.of main_v47 : StableHlo.TRef sig ⟨S32768x8, .f32⟩) main_call9.v2 maximumf,
    StableHlo.TRef.unary (.of main_cst_20 : StableHlo.TRef sig ⟨S_, .f32⟩) main_call9.v3 id,
    StableHlo.TRef.unary main_call9.v3 main_call9.v4 (broadcastInDim S32768x8 ![] bcast_S_S32768x8),
    StableHlo.TRef.binary main_call9.v4 main_call9.v2 main_call9.v5 minimumf,
    StableHlo.unary main_v48 main_v50 (Host.sign : (⟨S32768x8, .f32⟩ : BufTy).Contents (Elt F) → (⟨S32768x8, .f32⟩ : BufTy).Contents (Elt F)),
    StableHlo.unary main_v49 main_v51 (Host.sign : (⟨S32768x8, .f32⟩ : BufTy).Contents (Elt F) → (⟨S32768x8, .f32⟩ : BufTy).Contents (Elt F)),
    StableHlo.binary main_v50 main_v51 main_v52 (mulf : (⟨S32768x8, .f32⟩ : BufTy).Contents (Elt F) → (⟨S32768x8, .f32⟩ : BufTy).Contents (Elt F) → (⟨S32768x8, .f32⟩ : BufTy).Contents (Elt F)),
    StableHlo.unary main_v48 main_v53 (Host.absf : (⟨S32768x8, .f32⟩ : BufTy).Contents (Elt F) → (⟨S32768x8, .f32⟩ : BufTy).Contents (Elt F)),
    StableHlo.unary main_v49 main_v54 (Host.absf : (⟨S32768x8, .f32⟩ : BufTy).Contents (Elt F) → (⟨S32768x8, .f32⟩ : BufTy).Contents (Elt F)),
    StableHlo.binary main_v53 main_v54 main_v55 (minimumf : (⟨S32768x8, .f32⟩ : BufTy).Contents (Elt F) → (⟨S32768x8, .f32⟩ : BufTy).Contents (Elt F) → (⟨S32768x8, .f32⟩ : BufTy).Contents (Elt F)),
    StableHlo.binary main_v52 main_v55 main_v56 (mulf : (⟨S32768x8, .f32⟩ : BufTy).Contents (Elt F) → (⟨S32768x8, .f32⟩ : BufTy).Contents (Elt F) → (⟨S32768x8, .f32⟩ : BufTy).Contents (Elt F)),
    StableHlo.unary main_v56 main_v57 ((extractStridedSlice S32768x4 ![0, 0] · slices_S32768x8_S32768x4_0_0) : (⟨S32768x8, .f32⟩ : BufTy).Contents (Elt F) → (⟨S32768x4, .f32⟩ : BufTy).Contents (Elt F)),
    StableHlo.unary main_v56 main_v58 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_21 (constant S_ .f32 0xC1F00000#32),
    StableHlo.nullary main_cst_22 (constant S_ .f32 0x41F00000#32),
    StableHlo.TRef.unary (.of main_cst_21 : StableHlo.TRef sig ⟨S_, .f32⟩) main_call10.v0 id,
    StableHlo.TRef.unary main_call10.v0 main_call10.v1 (broadcastInDim S32768x4 ![] bcast_S_S32768x4),
    StableHlo.TRef.binary main_call10.v1 (.of main_v57 : StableHlo.TRef sig ⟨S32768x4, .f32⟩) main_call10.v2 maximumf,
    StableHlo.TRef.unary (.of main_cst_22 : StableHlo.TRef sig ⟨S_, .f32⟩) main_call10.v3 id,
    StableHlo.TRef.unary main_call10.v3 main_call10.v4 (broadcastInDim S32768x4 ![] bcast_S_S32768x4),
    StableHlo.TRef.binary main_call10.v4 main_call10.v2 main_call10.v5 minimumf,
    StableHlo.nullary main_cst_23 (constant S_ .f32 0xC1F00000#32),
    StableHlo.nullary main_cst_24 (constant S_ .f32 0x41F00000#32),
    StableHlo.TRef.unary (.of main_cst_23 : StableHlo.TRef sig ⟨S_, .f32⟩) main_call11.v0 id,
    StableHlo.TRef.unary main_call11.v0 main_call11.v1 (broadcastInDim S32768x4 ![] bcast_S_S32768x4),
    StableHlo.TRef.binary main_call11.v1 (.of main_v58 : StableHlo.TRef sig ⟨S32768x4, .f32⟩) main_call11.v2 maximumf,
    StableHlo.TRef.unary (.of main_cst_24 : StableHlo.TRef sig ⟨S_, .f32⟩) main_call11.v3 id,
    StableHlo.TRef.unary main_call11.v3 main_call11.v4 (broadcastInDim S32768x4 ![] bcast_S_S32768x4),
    StableHlo.TRef.binary main_call11.v4 main_call11.v2 main_call11.v5 minimumf,
    StableHlo.unary main_v59 main_v61 (Host.sign : (⟨S32768x4, .f32⟩ : BufTy).Contents (Elt F) → (⟨S32768x4, .f32⟩ : BufTy).Contents (Elt F)),
    StableHlo.unary main_v60 main_v62 (Host.sign : (⟨S32768x4, .f32⟩ : BufTy).Contents (Elt F) → (⟨S32768x4, .f32⟩ : BufTy).Contents (Elt F)),
    StableHlo.binary main_v61 main_v62 main_v63 (mulf : (⟨S32768x4, .f32⟩ : BufTy).Contents (Elt F) → (⟨S32768x4, .f32⟩ : BufTy).Contents (Elt F) → (⟨S32768x4, .f32⟩ : BufTy).Contents (Elt F)),
    StableHlo.unary main_v59 main_v64 (Host.absf : (⟨S32768x4, .f32⟩ : BufTy).Contents (Elt F) → (⟨S32768x4, .f32⟩ : BufTy).Contents (Elt F)),
    StableHlo.unary main_v60 main_v65 (Host.absf : (⟨S32768x4, .f32⟩ : BufTy).Contents (Elt F) → (⟨S32768x4, .f32⟩ : BufTy).Contents (Elt F)),
    StableHlo.binary main_v64 main_v65 main_v66 (minimumf : (⟨S32768x4, .f32⟩ : BufTy).Contents (Elt F) → (⟨S32768x4, .f32⟩ : BufTy).Contents (Elt F) → (⟨S32768x4, .f32⟩ : BufTy).Contents (Elt F)),
    StableHlo.binary main_v63 main_v66 main_v67 (mulf : (⟨S32768x4, .f32⟩ : BufTy).Contents (Elt F) → (⟨S32768x4, .f32⟩ : BufTy).Contents (Elt F) → (⟨S32768x4, .f32⟩ : BufTy).Contents (Elt F)),
    StableHlo.unary main_v67 main_v68 ((extractStridedSlice S32768x2 ![0, 0] · slices_S32768x4_S32768x2_0_0) : (⟨S32768x4, .f32⟩ : BufTy).Contents (Elt F) → (⟨S32768x2, .f32⟩ : BufTy).Contents (Elt F)),
    StableHlo.unary main_v67 main_v69 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_25 (constant S_ .f32 0xC1F00000#32),
    StableHlo.nullary main_cst_26 (constant S_ .f32 0x41F00000#32),
    StableHlo.TRef.unary (.of main_cst_25 : StableHlo.TRef sig ⟨S_, .f32⟩) main_call12.v0 id,
    StableHlo.TRef.unary main_call12.v0 main_call12.v1 (broadcastInDim S32768x2 ![] bcast_S_S32768x2),
    StableHlo.TRef.binary main_call12.v1 (.of main_v68 : StableHlo.TRef sig ⟨S32768x2, .f32⟩) main_call12.v2 maximumf,
    StableHlo.TRef.unary (.of main_cst_26 : StableHlo.TRef sig ⟨S_, .f32⟩) main_call12.v3 id,
    StableHlo.TRef.unary main_call12.v3 main_call12.v4 (broadcastInDim S32768x2 ![] bcast_S_S32768x2),
    StableHlo.TRef.binary main_call12.v4 main_call12.v2 main_call12.v5 minimumf,
    StableHlo.nullary main_cst_27 (constant S_ .f32 0xC1F00000#32),
    StableHlo.nullary main_cst_28 (constant S_ .f32 0x41F00000#32),
    StableHlo.TRef.unary (.of main_cst_27 : StableHlo.TRef sig ⟨S_, .f32⟩) main_call13.v0 id,
    StableHlo.TRef.unary main_call13.v0 main_call13.v1 (broadcastInDim S32768x2 ![] bcast_S_S32768x2),
    StableHlo.TRef.binary main_call13.v1 (.of main_v69 : StableHlo.TRef sig ⟨S32768x2, .f32⟩) main_call13.v2 maximumf,
    StableHlo.TRef.unary (.of main_cst_28 : StableHlo.TRef sig ⟨S_, .f32⟩) main_call13.v3 id,
    StableHlo.TRef.unary main_call13.v3 main_call13.v4 (broadcastInDim S32768x2 ![] bcast_S_S32768x2),
    StableHlo.TRef.binary main_call13.v4 main_call13.v2 main_call13.v5 minimumf,
    StableHlo.unary main_v70 main_v72 (Host.sign : (⟨S32768x2, .f32⟩ : BufTy).Contents (Elt F) → (⟨S32768x2, .f32⟩ : BufTy).Contents (Elt F)),
    StableHlo.unary main_v71 main_v73 (Host.sign : (⟨S32768x2, .f32⟩ : BufTy).Contents (Elt F) → (⟨S32768x2, .f32⟩ : BufTy).Contents (Elt F)),
    StableHlo.binary main_v72 main_v73 main_v74 (mulf : (⟨S32768x2, .f32⟩ : BufTy).Contents (Elt F) → (⟨S32768x2, .f32⟩ : BufTy).Contents (Elt F) → (⟨S32768x2, .f32⟩ : BufTy).Contents (Elt F)),
    StableHlo.unary main_v70 main_v75 (Host.absf : (⟨S32768x2, .f32⟩ : BufTy).Contents (Elt F) → (⟨S32768x2, .f32⟩ : BufTy).Contents (Elt F)),
    StableHlo.unary main_v71 main_v76 (Host.absf : (⟨S32768x2, .f32⟩ : BufTy).Contents (Elt F) → (⟨S32768x2, .f32⟩ : BufTy).Contents (Elt F)),
    StableHlo.binary main_v75 main_v76 main_v77 (minimumf : (⟨S32768x2, .f32⟩ : BufTy).Contents (Elt F) → (⟨S32768x2, .f32⟩ : BufTy).Contents (Elt F) → (⟨S32768x2, .f32⟩ : BufTy).Contents (Elt F)),
    StableHlo.binary main_v74 main_v77 main_v78 (mulf : (⟨S32768x2, .f32⟩ : BufTy).Contents (Elt F) → (⟨S32768x2, .f32⟩ : BufTy).Contents (Elt F) → (⟨S32768x2, .f32⟩ : BufTy).Contents (Elt F)),
    StableHlo.unary main_v78 main_v79 ((extractStridedSlice S32768x1 ![0, 0] · slices_S32768x2_S32768x1_0_0) : (⟨S32768x2, .f32⟩ : BufTy).Contents (Elt F) → (⟨S32768x1, .f32⟩ : BufTy).Contents (Elt F)),
    StableHlo.unary main_v78 main_v80 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_29 (constant S_ .f32 0xC1F00000#32),
    StableHlo.nullary main_cst_30 (constant S_ .f32 0x41F00000#32),
    StableHlo.TRef.unary (.of main_cst_29 : StableHlo.TRef sig ⟨S_, .f32⟩) main_call14.v0 id,
    StableHlo.TRef.unary main_call14.v0 main_call14.v1 (broadcastInDim S32768x1 ![] bcast_S_S32768x1),
    StableHlo.TRef.binary main_call14.v1 (.of main_v79 : StableHlo.TRef sig ⟨S32768x1, .f32⟩) main_call14.v2 maximumf,
    StableHlo.TRef.unary (.of main_cst_30 : StableHlo.TRef sig ⟨S_, .f32⟩) main_call14.v3 id,
    StableHlo.TRef.unary main_call14.v3 main_call14.v4 (broadcastInDim S32768x1 ![] bcast_S_S32768x1),
    StableHlo.TRef.binary main_call14.v4 main_call14.v2 main_call14.v5 minimumf,
    StableHlo.nullary main_cst_31 (constant S_ .f32 0xC1F00000#32),
    StableHlo.nullary main_cst_32 (constant S_ .f32 0x41F00000#32),
    StableHlo.TRef.unary (.of main_cst_31 : StableHlo.TRef sig ⟨S_, .f32⟩) main_call15.v0 id,
    StableHlo.TRef.unary main_call15.v0 main_call15.v1 (broadcastInDim S32768x1 ![] bcast_S_S32768x1),
    StableHlo.TRef.binary main_call15.v1 (.of main_v80 : StableHlo.TRef sig ⟨S32768x1, .f32⟩) main_call15.v2 maximumf,
    StableHlo.TRef.unary (.of main_cst_32 : StableHlo.TRef sig ⟨S_, .f32⟩) main_call15.v3 id,
    StableHlo.TRef.unary main_call15.v3 main_call15.v4 (broadcastInDim S32768x1 ![] bcast_S_S32768x1),
    StableHlo.TRef.binary main_call15.v4 main_call15.v2 main_call15.v5 minimumf,
    StableHlo.unary main_v81 main_v83 (Host.sign : (⟨S32768x1, .f32⟩ : BufTy).Contents (Elt F) → (⟨S32768x1, .f32⟩ : BufTy).Contents (Elt F)),
    StableHlo.unary main_v82 main_v84 (Host.sign : (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_1 (d : Dev nD) : main_part1 (F := F) d = seq ops1 := by
  simp only [main_part1, fn_clip_3.body, fn_clip_4.body, fn_clip_5.body, fn_clip_6.body, seq, bind_assoc, pure_bind]
  rfl

/-- Every operation of the window touches TensorCore references only. -/
theorem sub_1 : (ops1 : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub ..⟩

/-- Every operation of the window determines all it writes. -/
theorem fresh_1 : (ops1 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_1 (V : Valuation τ sig (Elt F)) :
    after ops1 V (main_arg0 : DevRef τ sig) = V (main_arg0 : DevRef τ sig) := by
  simp only [after_cons, after_nil]
  rfl

/-- The operations of @main's statements 121 … 180, in order (70 of them): a statement's own operation, or, for a call
    of a clip function, the six operations of its body over that call's buffers. -/
abbrev ops2 : List (HloOp τ sig (Elt F)) :=
  [ StableHlo.binary main_v83 main_v84 main_v85 (mulf : (⟨S32768x1, .f32⟩ : BufTy).Contents (Elt F) → (⟨S32768x1, .f32⟩ : BufTy).Contents (Elt F) → (⟨S32768x1, .f32⟩ : BufTy).Contents (Elt F)),
    StableHlo.unary main_v81 main_v86 (Host.absf : (⟨S32768x1, .f32⟩ : BufTy).Contents (Elt F) → (⟨S32768x1, .f32⟩ : BufTy).Contents (Elt F)),
    StableHlo.unary main_v82 main_v87 (Host.absf : (⟨S32768x1, .f32⟩ : BufTy).Contents (Elt F) → (⟨S32768x1, .f32⟩ : BufTy).Contents (Elt F)),
    StableHlo.binary main_v86 main_v87 main_v88 (minimumf : (⟨S32768x1, .f32⟩ : BufTy).Contents (Elt F) → (⟨S32768x1, .f32⟩ : BufTy).Contents (Elt F) → (⟨S32768x1, .f32⟩ : BufTy).Contents (Elt F)),
    StableHlo.binary main_v85 main_v88 main_v89 (mulf : (⟨S32768x1, .f32⟩ : BufTy).Contents (Elt F) → (⟨S32768x1, .f32⟩ : BufTy).Contents (Elt F) → (⟨S32768x1, .f32⟩ : BufTy).Contents (Elt F)),
    StableHlo.nullary main_cst_33 (constant S_ .f32 0x00000000#32),
    StableHlo.unary main_cst_33 main_v90 (broadcastInDim S32768x1 ![] bcast_S_S32768x1 : (⟨S_, .f32⟩ : BufTy).Contents (Elt F) → (⟨S32768x1, .f32⟩ : BufTy).Contents (Elt F)),
    StableHlo.nullary main_cst_34 (constant S_ .f32 0x40000000#32),
    StableHlo.unary main_cst_34 main_v91 (broadcastInDim S32768x1 ![] bcast_S_S32768x1 : (⟨S_, .f32⟩ : BufTy).Contents (Elt F) → (⟨S32768x1, .f32⟩ : BufTy).Contents (Elt F)),
    StableHlo.binary main_v91 main_v90 main_v92 (mulf : (⟨S32768x1, .f32⟩ : BufTy).Contents (Elt F) → (⟨S32768x1, .f32⟩ : BufTy).Contents (Elt F) → (⟨S32768x1, .f32⟩ : BufTy).Contents (Elt F)),
    StableHlo.nullary main_cst_35 (constant S_ .f32 0x3F800000#32),
    StableHlo.unary main_cst_35 main_v93 (broadcastInDim S32768x1 ![] bcast_S_S32768x1 : (⟨S_, .f32⟩ : BufTy).Contents (Elt F) → (⟨S32768x1, .f32⟩ : BufTy).Contents (Elt F)),
    StableHlo.binary main_v93 main_v92 main_v94 (subf : (⟨S32768x1, .f32⟩ : BufTy).Contents (Elt F) → (⟨S32768x1, .f32⟩ : BufTy).Contents (Elt F) → (⟨S32768x1, .f32⟩ : BufTy).Contents (Elt F)),
    StableHlo.binary main_v94 main_v79 main_v95 (mulf : (⟨S32768x1, .f32⟩ : BufTy).Contents (Elt F) → (⟨S32768x1, .f32⟩ : BufTy).Contents (Elt F) → (⟨S32768x1, .f32⟩ : BufTy).Contents (Elt F)),
    StableHlo.binary main_v95 main_v80 main_v96 (addf : (⟨S32768x1, .f32⟩ : BufTy).Contents (Elt F) → (⟨S32768x1, .f32⟩ : BufTy).Contents (Elt F) → (⟨S32768x1, .f32⟩ : BufTy).Contents (Elt F)),
    StableHlo.nullary main_cst_36 (constant S_ .f32 0x00000000#32),
    StableHlo.unary main_cst_36 main_v97 (broadcastInDim S32768x1 ![] bcast_S_S32768x1 : (⟨S_, .f32⟩ : BufTy).Contents (Elt F) → (⟨S32768x1, .f32⟩ : BufTy).Contents (Elt F)),
    StableHlo.binary main_v90 main_v97 main_v98 (cmpf .une : (⟨S32768x1, .f32⟩ : BufTy).Contents (Elt F) → (⟨S32768x1, .f32⟩ : BufTy).Contents (Elt F) → (⟨S32768x1, .i1⟩ : BufTy).Contents (Elt F)),
    StableHlo.unary main_v98 main_v99 (uitofp .f32 : (⟨S32768x1, .i1⟩ : BufTy).Contents (Elt F) → (⟨S32768x1, .f32⟩ : BufTy).Contents (Elt F)),
    StableHlo.binary main_v99 main_v97 main_v100 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v90 main_v97 main_v101 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_37 (constant S_ .f32 0x40000000#32),
    StableHlo.unary main_cst_37 main_v102 (broadcastInDim S32768x2 ![] bcast_S_S32768x2 : (⟨S_, .f32⟩ : BufTy).Contents (Elt F) → (⟨S32768x2, .f32⟩ : BufTy).Contents (Elt F)),
    StableHlo.binary main_v102 main_v100 main_v103 (mulf : (⟨S32768x2, .f32⟩ : BufTy).Contents (Elt F) → (⟨S32768x2, .f32⟩ : BufTy).Contents (Elt F) → (⟨S32768x2, .f32⟩ : BufTy).Contents (Elt F)),
    StableHlo.nullary main_cst_38 (constant S_ .f32 0x3F800000#32),
    StableHlo.unary main_cst_38 main_v104 (broadcastInDim S32768x2 ![] bcast_S_S32768x2 : (⟨S_, .f32⟩ : BufTy).Contents (Elt F) → (⟨S32768x2, .f32⟩ : BufTy).Contents (Elt F)),
    StableHlo.binary main_v104 main_v103 main_v105 (subf : (⟨S32768x2, .f32⟩ : BufTy).Contents (Elt F) → (⟨S32768x2, .f32⟩ : BufTy).Contents (Elt F) → (⟨S32768x2, .f32⟩ : BufTy).Contents (Elt F)),
    StableHlo.binary main_v105 main_v68 main_v106 (mulf : (⟨S32768x2, .f32⟩ : BufTy).Contents (Elt F) → (⟨S32768x2, .f32⟩ : BufTy).Contents (Elt F) → (⟨S32768x2, .f32⟩ : BufTy).Contents (Elt F)),
    StableHlo.binary main_v106 main_v69 main_v107 (addf : (⟨S32768x2, .f32⟩ : BufTy).Contents (Elt F) → (⟨S32768x2, .f32⟩ : BufTy).Contents (Elt F) → (⟨S32768x2, .f32⟩ : BufTy).Contents (Elt F)),
    StableHlo.unary main_v107 main_v108 ((extractStridedSlice S32768x1 ![0, 0] · slices_S32768x2_S32768x1_0_0) : (⟨S32768x2, .f32⟩ : BufTy).Contents (Elt F) → (⟨S32768x1, .f32⟩ : BufTy).Contents (Elt F)),
    StableHlo.unary main_v107 main_v109 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_39 (constant S_ .f32 0xC1F00000#32),
    StableHlo.nullary main_cst_40 (constant S_ .f32 0x41F00000#32),
    StableHlo.TRef.unary (.of main_cst_39 : StableHlo.TRef sig ⟨S_, .f32⟩) main_call16.v0 id,
    StableHlo.TRef.unary main_call16.v0 main_call16.v1 (broadcastInDim S32768x1 ![] bcast_S_S32768x1),
    StableHlo.TRef.binary main_call16.v1 (.of main_v108 : StableHlo.TRef sig ⟨S32768x1, .f32⟩) main_call16.v2 maximumf,
    StableHlo.TRef.unary (.of main_cst_40 : StableHlo.TRef sig ⟨S_, .f32⟩) main_call16.v3 id,
    StableHlo.TRef.unary main_call16.v3 main_call16.v4 (broadcastInDim S32768x1 ![] bcast_S_S32768x1),
    StableHlo.TRef.binary main_call16.v4 main_call16.v2 main_call16.v5 minimumf,
    StableHlo.nullary main_cst_41 (constant S_ .f32 0xC1F00000#32),
    StableHlo.nullary main_cst_42 (constant S_ .f32 0x41F00000#32),
    StableHlo.TRef.unary (.of main_cst_41 : StableHlo.TRef sig ⟨S_, .f32⟩) main_call17.v0 id,
    StableHlo.TRef.unary main_call17.v0 main_call17.v1 (broadcastInDim S32768x1 ![] bcast_S_S32768x1),
    StableHlo.TRef.binary main_call17.v1 (.of main_v109 : StableHlo.TRef sig ⟨S32768x1, .f32⟩) main_call17.v2 maximumf,
    StableHlo.TRef.unary (.of main_cst_42 : StableHlo.TRef sig ⟨S_, .f32⟩) main_call17.v3 id,
    StableHlo.TRef.unary main_call17.v3 main_call17.v4 (broadcastInDim S32768x1 ![] bcast_S_S32768x1),
    StableHlo.TRef.binary main_call17.v4 main_call17.v2 main_call17.v5 minimumf,
    StableHlo.unary main_v110 main_v112 (Host.sign : (⟨S32768x1, .f32⟩ : BufTy).Contents (Elt F) → (⟨S32768x1, .f32⟩ : BufTy).Contents (Elt F)),
    StableHlo.unary main_v111 main_v113 (Host.sign : (⟨S32768x1, .f32⟩ : BufTy).Contents (Elt F) → (⟨S32768x1, .f32⟩ : BufTy).Contents (Elt F)),
    StableHlo.binary main_v112 main_v113 main_v114 (mulf : (⟨S32768x1, .f32⟩ : BufTy).Contents (Elt F) → (⟨S32768x1, .f32⟩ : BufTy).Contents (Elt F) → (⟨S32768x1, .f32⟩ : BufTy).Contents (Elt F)),
    StableHlo.unary main_v110 main_v115 (Host.absf : (⟨S32768x1, .f32⟩ : BufTy).Contents (Elt F) → (⟨S32768x1, .f32⟩ : BufTy).Contents (Elt F)),
    StableHlo.unary main_v111 main_v116 (Host.absf : (⟨S32768x1, .f32⟩ : BufTy).Contents (Elt F) → (⟨S32768x1, .f32⟩ : BufTy).Contents (Elt F)),
    StableHlo.binary main_v115 main_v116 main_v117 (minimumf : (⟨S32768x1, .f32⟩ : BufTy).Contents (Elt F) → (⟨S32768x1, .f32⟩ : BufTy).Contents (Elt F) → (⟨S32768x1, .f32⟩ : BufTy).Contents (Elt F)),
    StableHlo.binary main_v114 main_v117 main_v118 (mulf : (⟨S32768x1, .f32⟩ : BufTy).Contents (Elt F) → (⟨S32768x1, .f32⟩ : BufTy).Contents (Elt F) → (⟨S32768x1, .f32⟩ : BufTy).Contents (Elt F)),
    StableHlo.nullary main_cst_43 (constant S_ .f32 0x00000000#32),
    StableHlo.unary main_cst_43 main_v119 (broadcastInDim S32768x1 ![] bcast_S_S32768x1 : (⟨S_, .f32⟩ : BufTy).Contents (Elt F) → (⟨S32768x1, .f32⟩ : BufTy).Contents (Elt F)),
    StableHlo.nullary main_cst_44 (constant S_ .f32 0x40000000#32),
    StableHlo.unary main_cst_44 main_v120 (broadcastInDim S32768x1 ![] bcast_S_S32768x1 : (⟨S_, .f32⟩ : BufTy).Contents (Elt F) → (⟨S32768x1, .f32⟩ : BufTy).Contents (Elt F)),
    StableHlo.binary main_v120 main_v119 main_v121 (mulf : (⟨S32768x1, .f32⟩ : BufTy).Contents (Elt F) → (⟨S32768x1, .f32⟩ : BufTy).Contents (Elt F) → (⟨S32768x1, .f32⟩ : BufTy).Contents (Elt F)),
    StableHlo.nullary main_cst_45 (constant S_ .f32 0x3F800000#32),
    StableHlo.unary main_cst_45 main_v122 (broadcastInDim S32768x1 ![] bcast_S_S32768x1 : (⟨S_, .f32⟩ : BufTy).Contents (Elt F) → (⟨S32768x1, .f32⟩ : BufTy).Contents (Elt F)),
    StableHlo.binary main_v122 main_v121 main_v123 (subf : (⟨S32768x1, .f32⟩ : BufTy).Contents (Elt F) → (⟨S32768x1, .f32⟩ : BufTy).Contents (Elt F) → (⟨S32768x1, .f32⟩ : BufTy).Contents (Elt F)),
    StableHlo.binary main_v123 main_v108 main_v124 (mulf : (⟨S32768x1, .f32⟩ : BufTy).Contents (Elt F) → (⟨S32768x1, .f32⟩ : BufTy).Contents (Elt F) → (⟨S32768x1, .f32⟩ : BufTy).Contents (Elt F)),
    StableHlo.binary main_v124 main_v109 main_v125 (addf : (⟨S32768x1, .f32⟩ : BufTy).Contents (Elt F) → (⟨S32768x1, .f32⟩ : BufTy).Contents (Elt F) → (⟨S32768x1, .f32⟩ : BufTy).Contents (Elt F)),
    StableHlo.nullary main_cst_46 (constant S_ .f32 0x00000000#32),
    StableHlo.unary main_cst_46 main_v126 (broadcastInDim S32768x1 ![] bcast_S_S32768x1 : (⟨S_, .f32⟩ : BufTy).Contents (Elt F) → (⟨S32768x1, .f32⟩ : BufTy).Contents (Elt F)),
    StableHlo.binary main_v119 main_v126 main_v127 (cmpf .une : (⟨S32768x1, .f32⟩ : BufTy).Contents (Elt F) → (⟨S32768x1, .f32⟩ : BufTy).Contents (Elt F) → (⟨S32768x1, .i1⟩ : BufTy).Contents (Elt F)),
    StableHlo.unary main_v127 main_v128 (uitofp .f32 : (⟨S32768x1, .i1⟩ : BufTy).Contents (Elt F) → (⟨S32768x1, .f32⟩ : BufTy).Contents (Elt F)),
    StableHlo.binary main_v128 main_v126 main_v129 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v119 main_v126 main_v130 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)) ]

set_option maxRecDepth 8192 in
/-- The window is that straight line: each clip function unfolded at its calls, the sequencing reassociated. -/
theorem part_eq_2 (d : Dev nD) : main_part2 (F := F) d = seq ops2 := by
  simp only [main_part2, fn_clip_6.body, seq, bind_assoc, pure_bind]
  rfl

/-- Every operation of the window touches TensorCore references only. -/
theorem sub_2 : (ops2 : List (HloOp τ sig (Elt F))).Forall fun op => op.bufs ⊆ tcRefs τ sig :=
  ⟨binary_bufs_sub .., unary_bufs_sub .., unary_bufs_sub .., binary_bufs_sub .., binary_bufs_sub .., nullary_bufs_sub ..,
    unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., nullary_bufs_sub .., unary_bufs_sub .., binary_bufs_sub .., nullary_bufs_sub ..,
    unary_bufs_sub .., binary_bufs_sub .., binary_bufs_sub .., binary_bufs_sub .., nullary_bufs_sub .., unary_bufs_sub ..,
    binary_bufs_sub .., unary_bufs_sub .., binary_bufs_sub .., binary_bufs_sub ..⟩

/-- Every operation of the window determines all it writes. -/
theorem fresh_2 : (ops2 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_2 (V : Valuation τ sig (Elt F)) :
    after ops2 V (main_arg0 : DevRef τ sig) = V (main_arg0 : DevRef τ sig) := by
  simp only [after_cons, after_nil]
  rfl

/-- The operations of @main's statements 181 … 240, in order (80 of them): a statement's own operation, or, for a call
    of a clip function, the six operations of its body over that call's buffers. -/
abbrev ops3 : List (HloOp τ sig (Elt F)) :=
  [ StableHlo.binary main_v100 main_v129 main_v131 (cmpf .une : (⟨S32768x2, .f32⟩ : BufTy).Contents (Elt F) → (⟨S32768x2, .f32⟩ : BufTy).Contents (Elt F) → (⟨S32768x2, .i1⟩ : BufTy).Contents (Elt F)),
    StableHlo.unary main_v131 main_v132 (uitofp .f32 : (⟨S32768x2, .i1⟩ : BufTy).Contents (Elt F) → (⟨S32768x2, .f32⟩ : BufTy).Contents (Elt F)),
    StableHlo.binary main_v132 main_v129 main_v133 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v101 main_v130 main_v134 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_47 (constant S_ .f32 0x40000000#32),
    StableHlo.unary main_cst_47 main_v135 (broadcastInDim S32768x4 ![] bcast_S_S32768x4 : (⟨S_, .f32⟩ : BufTy).Contents (Elt F) → (⟨S32768x4, .f32⟩ : BufTy).Contents (Elt F)),
    StableHlo.binary main_v135 main_v133 main_v136 (mulf : (⟨S32768x4, .f32⟩ : BufTy).Contents (Elt F) → (⟨S32768x4, .f32⟩ : BufTy).Contents (Elt F) → (⟨S32768x4, .f32⟩ : BufTy).Contents (Elt F)),
    StableHlo.nullary main_cst_48 (constant S_ .f32 0x3F800000#32),
    StableHlo.unary main_cst_48 main_v137 (broadcastInDim S32768x4 ![] bcast_S_S32768x4 : (⟨S_, .f32⟩ : BufTy).Contents (Elt F) → (⟨S32768x4, .f32⟩ : BufTy).Contents (Elt F)),
    StableHlo.binary main_v137 main_v136 main_v138 (subf : (⟨S32768x4, .f32⟩ : BufTy).Contents (Elt F) → (⟨S32768x4, .f32⟩ : BufTy).Contents (Elt F) → (⟨S32768x4, .f32⟩ : BufTy).Contents (Elt F)),
    StableHlo.binary main_v138 main_v57 main_v139 (mulf : (⟨S32768x4, .f32⟩ : BufTy).Contents (Elt F) → (⟨S32768x4, .f32⟩ : BufTy).Contents (Elt F) → (⟨S32768x4, .f32⟩ : BufTy).Contents (Elt F)),
    StableHlo.binary main_v139 main_v58 main_v140 (addf : (⟨S32768x4, .f32⟩ : BufTy).Contents (Elt F) → (⟨S32768x4, .f32⟩ : BufTy).Contents (Elt F) → (⟨S32768x4, .f32⟩ : BufTy).Contents (Elt F)),
    StableHlo.unary main_v140 main_v141 ((extractStridedSlice S32768x2 ![0, 0] · slices_S32768x4_S32768x2_0_0) : (⟨S32768x4, .f32⟩ : BufTy).Contents (Elt F) → (⟨S32768x2, .f32⟩ : BufTy).Contents (Elt F)),
    StableHlo.unary main_v140 main_v142 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_49 (constant S_ .f32 0xC1F00000#32),
    StableHlo.nullary main_cst_50 (constant S_ .f32 0x41F00000#32),
    StableHlo.TRef.unary (.of main_cst_49 : StableHlo.TRef sig ⟨S_, .f32⟩) main_call18.v0 id,
    StableHlo.TRef.unary main_call18.v0 main_call18.v1 (broadcastInDim S32768x2 ![] bcast_S_S32768x2),
    StableHlo.TRef.binary main_call18.v1 (.of main_v141 : StableHlo.TRef sig ⟨S32768x2, .f32⟩) main_call18.v2 maximumf,
    StableHlo.TRef.unary (.of main_cst_50 : StableHlo.TRef sig ⟨S_, .f32⟩) main_call18.v3 id,
    StableHlo.TRef.unary main_call18.v3 main_call18.v4 (broadcastInDim S32768x2 ![] bcast_S_S32768x2),
    StableHlo.TRef.binary main_call18.v4 main_call18.v2 main_call18.v5 minimumf,
    StableHlo.nullary main_cst_51 (constant S_ .f32 0xC1F00000#32),
    StableHlo.nullary main_cst_52 (constant S_ .f32 0x41F00000#32),
    StableHlo.TRef.unary (.of main_cst_51 : StableHlo.TRef sig ⟨S_, .f32⟩) main_call19.v0 id,
    StableHlo.TRef.unary main_call19.v0 main_call19.v1 (broadcastInDim S32768x2 ![] bcast_S_S32768x2),
    StableHlo.TRef.binary main_call19.v1 (.of main_v142 : StableHlo.TRef sig ⟨S32768x2, .f32⟩) main_call19.v2 maximumf,
    StableHlo.TRef.unary (.of main_cst_52 : StableHlo.TRef sig ⟨S_, .f32⟩) main_call19.v3 id,
    StableHlo.TRef.unary main_call19.v3 main_call19.v4 (broadcastInDim S32768x2 ![] bcast_S_S32768x2),
    StableHlo.TRef.binary main_call19.v4 main_call19.v2 main_call19.v5 minimumf,
    StableHlo.unary main_v143 main_v145 (Host.sign : (⟨S32768x2, .f32⟩ : BufTy).Contents (Elt F) → (⟨S32768x2, .f32⟩ : BufTy).Contents (Elt F)),
    StableHlo.unary main_v144 main_v146 (Host.sign : (⟨S32768x2, .f32⟩ : BufTy).Contents (Elt F) → (⟨S32768x2, .f32⟩ : BufTy).Contents (Elt F)),
    StableHlo.binary main_v145 main_v146 main_v147 (mulf : (⟨S32768x2, .f32⟩ : BufTy).Contents (Elt F) → (⟨S32768x2, .f32⟩ : BufTy).Contents (Elt F) → (⟨S32768x2, .f32⟩ : BufTy).Contents (Elt F)),
    StableHlo.unary main_v143 main_v148 (Host.absf : (⟨S32768x2, .f32⟩ : BufTy).Contents (Elt F) → (⟨S32768x2, .f32⟩ : BufTy).Contents (Elt F)),
    StableHlo.unary main_v144 main_v149 (Host.absf : (⟨S32768x2, .f32⟩ : BufTy).Contents (Elt F) → (⟨S32768x2, .f32⟩ : BufTy).Contents (Elt F)),
    StableHlo.binary main_v148 main_v149 main_v150 (minimumf : (⟨S32768x2, .f32⟩ : BufTy).Contents (Elt F) → (⟨S32768x2, .f32⟩ : BufTy).Contents (Elt F) → (⟨S32768x2, .f32⟩ : BufTy).Contents (Elt F)),
    StableHlo.binary main_v147 main_v150 main_v151 (mulf : (⟨S32768x2, .f32⟩ : BufTy).Contents (Elt F) → (⟨S32768x2, .f32⟩ : BufTy).Contents (Elt F) → (⟨S32768x2, .f32⟩ : BufTy).Contents (Elt F)),
    StableHlo.unary main_v151 main_v152 ((extractStridedSlice S32768x1 ![0, 0] · slices_S32768x2_S32768x1_0_0) : (⟨S32768x2, .f32⟩ : BufTy).Contents (Elt F) → (⟨S32768x1, .f32⟩ : BufTy).Contents (Elt F)),
    StableHlo.unary main_v151 main_v153 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_53 (constant S_ .f32 0xC1F00000#32),
    StableHlo.nullary main_cst_54 (constant S_ .f32 0x41F00000#32),
    StableHlo.TRef.unary (.of main_cst_53 : StableHlo.TRef sig ⟨S_, .f32⟩) main_call20.v0 id,
    StableHlo.TRef.unary main_call20.v0 main_call20.v1 (broadcastInDim S32768x1 ![] bcast_S_S32768x1),
    StableHlo.TRef.binary main_call20.v1 (.of main_v152 : StableHlo.TRef sig ⟨S32768x1, .f32⟩) main_call20.v2 maximumf,
    StableHlo.TRef.unary (.of main_cst_54 : StableHlo.TRef sig ⟨S_, .f32⟩) main_call20.v3 id,
    StableHlo.TRef.unary main_call20.v3 main_call20.v4 (broadcastInDim S32768x1 ![] bcast_S_S32768x1),
    StableHlo.TRef.binary main_call20.v4 main_call20.v2 main_call20.v5 minimumf,
    StableHlo.nullary main_cst_55 (constant S_ .f32 0xC1F00000#32),
    StableHlo.nullary main_cst_56 (constant S_ .f32 0x41F00000#32),
    StableHlo.TRef.unary (.of main_cst_55 : StableHlo.TRef sig ⟨S_, .f32⟩) main_call21.v0 id,
    StableHlo.TRef.unary main_call21.v0 main_call21.v1 (broadcastInDim S32768x1 ![] bcast_S_S32768x1),
    StableHlo.TRef.binary main_call21.v1 (.of main_v153 : StableHlo.TRef sig ⟨S32768x1, .f32⟩) main_call21.v2 maximumf,
    StableHlo.TRef.unary (.of main_cst_56 : StableHlo.TRef sig ⟨S_, .f32⟩) main_call21.v3 id,
    StableHlo.TRef.unary main_call21.v3 main_call21.v4 (broadcastInDim S32768x1 ![] bcast_S_S32768x1),
    StableHlo.TRef.binary main_call21.v4 main_call21.v2 main_call21.v5 minimumf,
    StableHlo.unary main_v154 main_v156 (Host.sign : (⟨S32768x1, .f32⟩ : BufTy).Contents (Elt F) → (⟨S32768x1, .f32⟩ : BufTy).Contents (Elt F)),
    StableHlo.unary main_v155 main_v157 (Host.sign : (⟨S32768x1, .f32⟩ : BufTy).Contents (Elt F) → (⟨S32768x1, .f32⟩ : BufTy).Contents (Elt F)),
    StableHlo.binary main_v156 main_v157 main_v158 (mulf : (⟨S32768x1, .f32⟩ : BufTy).Contents (Elt F) → (⟨S32768x1, .f32⟩ : BufTy).Contents (Elt F) → (⟨S32768x1, .f32⟩ : BufTy).Contents (Elt F)),
    StableHlo.unary main_v154 main_v159 (Host.absf : (⟨S32768x1, .f32⟩ : BufTy).Contents (Elt F) → (⟨S32768x1, .f32⟩ : BufTy).Contents (Elt F)),
    StableHlo.unary main_v155 main_v160 (Host.absf : (⟨S32768x1, .f32⟩ : BufTy).Contents (Elt F) → (⟨S32768x1, .f32⟩ : BufTy).Contents (Elt F)),
    StableHlo.binary main_v159 main_v160 main_v161 (minimumf : (⟨S32768x1, .f32⟩ : BufTy).Contents (Elt F) → (⟨S32768x1, .f32⟩ : BufTy).Contents (Elt F) → (⟨S32768x1, .f32⟩ : BufTy).Contents (Elt F)),
    StableHlo.binary main_v158 main_v161 main_v162 (mulf : (⟨S32768x1, .f32⟩ : BufTy).Contents (Elt F) → (⟨S32768x1, .f32⟩ : BufTy).Contents (Elt F) → (⟨S32768x1, .f32⟩ : BufTy).Contents (Elt F)),
    StableHlo.nullary main_cst_57 (constant S_ .f32 0x00000000#32),
    StableHlo.unary main_cst_57 main_v163 (broadcastInDim S32768x1 ![] bcast_S_S32768x1 : (⟨S_, .f32⟩ : BufTy).Contents (Elt F) → (⟨S32768x1, .f32⟩ : BufTy).Contents (Elt F)),
    StableHlo.nullary main_cst_58 (constant S_ .f32 0x40000000#32),
    StableHlo.unary main_cst_58 main_v164 (broadcastInDim S32768x1 ![] bcast_S_S32768x1 : (⟨S_, .f32⟩ : BufTy).Contents (Elt F) → (⟨S32768x1, .f32⟩ : BufTy).Contents (Elt F)),
    StableHlo.binary main_v164 main_v163 main_v165 (mulf : (⟨S32768x1, .f32⟩ : BufTy).Contents (Elt F) → (⟨S32768x1, .f32⟩ : BufTy).Contents (Elt F) → (⟨S32768x1, .f32⟩ : BufTy).Contents (Elt F)),
    StableHlo.nullary main_cst_59 (constant S_ .f32 0x3F800000#32),
    StableHlo.unary main_cst_59 main_v166 (broadcastInDim S32768x1 ![] bcast_S_S32768x1 : (⟨S_, .f32⟩ : BufTy).Contents (Elt F) → (⟨S32768x1, .f32⟩ : BufTy).Contents (Elt F)),
    StableHlo.binary main_v166 main_v165 main_v167 (subf : (⟨S32768x1, .f32⟩ : BufTy).Contents (Elt F) → (⟨S32768x1, .f32⟩ : BufTy).Contents (Elt F) → (⟨S32768x1, .f32⟩ : BufTy).Contents (Elt F)),
    StableHlo.binary main_v167 main_v152 main_v168 (mulf : (⟨S32768x1, .f32⟩ : BufTy).Contents (Elt F) → (⟨S32768x1, .f32⟩ : BufTy).Contents (Elt F) → (⟨S32768x1, .f32⟩ : BufTy).Contents (Elt F)),
    StableHlo.binary main_v168 main_v153 main_v169 (addf : (⟨S32768x1, .f32⟩ : BufTy).Contents (Elt F) → (⟨S32768x1, .f32⟩ : BufTy).Contents (Elt F) → (⟨S32768x1, .f32⟩ : BufTy).Contents (Elt F)),
    StableHlo.nullary main_cst_60 (constant S_ .f32 0x00000000#32),
    StableHlo.unary main_cst_60 main_v170 (broadcastInDim S32768x1 ![] bcast_S_S32768x1 : (⟨S_, .f32⟩ : BufTy).Contents (Elt F) → (⟨S32768x1, .f32⟩ : BufTy).Contents (Elt F)),
    StableHlo.binary main_v163 main_v170 main_v171 (cmpf .une : (⟨S32768x1, .f32⟩ : BufTy).Contents (Elt F) → (⟨S32768x1, .f32⟩ : BufTy).Contents (Elt F) → (⟨S32768x1, .i1⟩ : BufTy).Contents (Elt F)),
    StableHlo.unary main_v171 main_v172 (uitofp .f32 : (⟨S32768x1, .i1⟩ : BufTy).Contents (Elt F) → (⟨S32768x1, .f32⟩ : BufTy).Contents (Elt F)),
    StableHlo.binary main_v172 main_v170 main_v173 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v163 main_v170 main_v174 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_61 (constant S_ .f32 0x40000000#32),
    StableHlo.unary main_cst_61 main_v175 (broadcastInDim S32768x2 ![] bcast_S_S32768x2 : (⟨S_, .f32⟩ : BufTy).Contents (Elt F) → (⟨S32768x2, .f32⟩ : BufTy).Contents (Elt F)) ]

set_option maxRecDepth 8192 in
/-- The window is that straight line: each clip function unfolded at its calls, the sequencing reassociated. -/
theorem part_eq_3 (d : Dev nD) : main_part3 (F := F) d = seq ops3 := by
  simp only [main_part3, fn_clip_5.body, fn_clip_6.body, seq, bind_assoc, pure_bind]
  rfl

/-- Every operation of the window touches TensorCore references only. -/
theorem sub_3 : (ops3 : List (HloOp τ sig (Elt F))).Forall fun op => op.bufs ⊆ tcRefs τ sig :=
  ⟨binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., nullary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., unary_bufs_sub .., binary_bufs_sub .., binary_bufs_sub ..,
    nullary_bufs_sub .., unary_bufs_sub ..⟩

/-- Every operation of the window determines all it writes. -/
theorem fresh_3 : (ops3 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_3 (V : Valuation τ sig (Elt F)) :
    after ops3 V (main_arg0 : DevRef τ sig) = V (main_arg0 : DevRef τ sig) := by
  simp only [after_cons, after_nil]
  rfl

/-- The operations of @main's statements 241 … 300, in order (75 of them): a statement's own operation, or, for a call
    of a clip function, the six operations of its body over that call's buffers. -/
abbrev ops4 : List (HloOp τ sig (Elt F)) :=
  [ StableHlo.binary main_v175 main_v173 main_v176 (mulf : (⟨S32768x2, .f32⟩ : BufTy).Contents (Elt F) → (⟨S32768x2, .f32⟩ : BufTy).Contents (Elt F) → (⟨S32768x2, .f32⟩ : BufTy).Contents (Elt F)),
    StableHlo.nullary main_cst_62 (constant S_ .f32 0x3F800000#32),
    StableHlo.unary main_cst_62 main_v177 (broadcastInDim S32768x2 ![] bcast_S_S32768x2 : (⟨S_, .f32⟩ : BufTy).Contents (Elt F) → (⟨S32768x2, .f32⟩ : BufTy).Contents (Elt F)),
    StableHlo.binary main_v177 main_v176 main_v178 (subf : (⟨S32768x2, .f32⟩ : BufTy).Contents (Elt F) → (⟨S32768x2, .f32⟩ : BufTy).Contents (Elt F) → (⟨S32768x2, .f32⟩ : BufTy).Contents (Elt F)),
    StableHlo.binary main_v178 main_v141 main_v179 (mulf : (⟨S32768x2, .f32⟩ : BufTy).Contents (Elt F) → (⟨S32768x2, .f32⟩ : BufTy).Contents (Elt F) → (⟨S32768x2, .f32⟩ : BufTy).Contents (Elt F)),
    StableHlo.binary main_v179 main_v142 main_v180 (addf : (⟨S32768x2, .f32⟩ : BufTy).Contents (Elt F) → (⟨S32768x2, .f32⟩ : BufTy).Contents (Elt F) → (⟨S32768x2, .f32⟩ : BufTy).Contents (Elt F)),
    StableHlo.unary main_v180 main_v181 ((extractStridedSlice S32768x1 ![0, 0] · slices_S32768x2_S32768x1_0_0) : (⟨S32768x2, .f32⟩ : BufTy).Contents (Elt F) → (⟨S32768x1, .f32⟩ : BufTy).Contents (Elt F)),
    StableHlo.unary main_v180 main_v182 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_63 (constant S_ .f32 0xC1F00000#32),
    StableHlo.nullary main_cst_64 (constant S_ .f32 0x41F00000#32),
    StableHlo.TRef.unary (.of main_cst_63 : StableHlo.TRef sig ⟨S_, .f32⟩) main_call22.v0 id,
    StableHlo.TRef.unary main_call22.v0 main_call22.v1 (broadcastInDim S32768x1 ![] bcast_S_S32768x1),
    StableHlo.TRef.binary main_call22.v1 (.of main_v181 : StableHlo.TRef sig ⟨S32768x1, .f32⟩) main_call22.v2 maximumf,
    StableHlo.TRef.unary (.of main_cst_64 : StableHlo.TRef sig ⟨S_, .f32⟩) main_call22.v3 id,
    StableHlo.TRef.unary main_call22.v3 main_call22.v4 (broadcastInDim S32768x1 ![] bcast_S_S32768x1),
    StableHlo.TRef.binary main_call22.v4 main_call22.v2 main_call22.v5 minimumf,
    StableHlo.nullary main_cst_65 (constant S_ .f32 0xC1F00000#32),
    StableHlo.nullary main_cst_66 (constant S_ .f32 0x41F00000#32),
    StableHlo.TRef.unary (.of main_cst_65 : StableHlo.TRef sig ⟨S_, .f32⟩) main_call23.v0 id,
    StableHlo.TRef.unary main_call23.v0 main_call23.v1 (broadcastInDim S32768x1 ![] bcast_S_S32768x1),
    StableHlo.TRef.binary main_call23.v1 (.of main_v182 : StableHlo.TRef sig ⟨S32768x1, .f32⟩) main_call23.v2 maximumf,
    StableHlo.TRef.unary (.of main_cst_66 : StableHlo.TRef sig ⟨S_, .f32⟩) main_call23.v3 id,
    StableHlo.TRef.unary main_call23.v3 main_call23.v4 (broadcastInDim S32768x1 ![] bcast_S_S32768x1),
    StableHlo.TRef.binary main_call23.v4 main_call23.v2 main_call23.v5 minimumf,
    StableHlo.unary main_v183 main_v185 (Host.sign : (⟨S32768x1, .f32⟩ : BufTy).Contents (Elt F) → (⟨S32768x1, .f32⟩ : BufTy).Contents (Elt F)),
    StableHlo.unary main_v184 main_v186 (Host.sign : (⟨S32768x1, .f32⟩ : BufTy).Contents (Elt F) → (⟨S32768x1, .f32⟩ : BufTy).Contents (Elt F)),
    StableHlo.binary main_v185 main_v186 main_v187 (mulf : (⟨S32768x1, .f32⟩ : BufTy).Contents (Elt F) → (⟨S32768x1, .f32⟩ : BufTy).Contents (Elt F) → (⟨S32768x1, .f32⟩ : BufTy).Contents (Elt F)),
    StableHlo.unary main_v183 main_v188 (Host.absf : (⟨S32768x1, .f32⟩ : BufTy).Contents (Elt F) → (⟨S32768x1, .f32⟩ : BufTy).Contents (Elt F)),
    StableHlo.unary main_v184 main_v189 (Host.absf : (⟨S32768x1, .f32⟩ : BufTy).Contents (Elt F) → (⟨S32768x1, .f32⟩ : BufTy).Contents (Elt F)),
    StableHlo.binary main_v188 main_v189 main_v190 (minimumf : (⟨S32768x1, .f32⟩ : BufTy).Contents (Elt F) → (⟨S32768x1, .f32⟩ : BufTy).Contents (Elt F) → (⟨S32768x1, .f32⟩ : BufTy).Contents (Elt F)),
    StableHlo.binary main_v187 main_v190 main_v191 (mulf : (⟨S32768x1, .f32⟩ : BufTy).Contents (Elt F) → (⟨S32768x1, .f32⟩ : BufTy).Contents (Elt F) → (⟨S32768x1, .f32⟩ : BufTy).Contents (Elt F)),
    StableHlo.nullary main_cst_67 (constant S_ .f32 0x00000000#32),
    StableHlo.unary main_cst_67 main_v192 (broadcastInDim S32768x1 ![] bcast_S_S32768x1 : (⟨S_, .f32⟩ : BufTy).Contents (Elt F) → (⟨S32768x1, .f32⟩ : BufTy).Contents (Elt F)),
    StableHlo.nullary main_cst_68 (constant S_ .f32 0x40000000#32),
    StableHlo.unary main_cst_68 main_v193 (broadcastInDim S32768x1 ![] bcast_S_S32768x1 : (⟨S_, .f32⟩ : BufTy).Contents (Elt F) → (⟨S32768x1, .f32⟩ : BufTy).Contents (Elt F)),
    StableHlo.binary main_v193 main_v192 main_v194 (mulf : (⟨S32768x1, .f32⟩ : BufTy).Contents (Elt F) → (⟨S32768x1, .f32⟩ : BufTy).Contents (Elt F) → (⟨S32768x1, .f32⟩ : BufTy).Contents (Elt F)),
    StableHlo.nullary main_cst_69 (constant S_ .f32 0x3F800000#32),
    StableHlo.unary main_cst_69 main_v195 (broadcastInDim S32768x1 ![] bcast_S_S32768x1 : (⟨S_, .f32⟩ : BufTy).Contents (Elt F) → (⟨S32768x1, .f32⟩ : BufTy).Contents (Elt F)),
    StableHlo.binary main_v195 main_v194 main_v196 (subf : (⟨S32768x1, .f32⟩ : BufTy).Contents (Elt F) → (⟨S32768x1, .f32⟩ : BufTy).Contents (Elt F) → (⟨S32768x1, .f32⟩ : BufTy).Contents (Elt F)),
    StableHlo.binary main_v196 main_v181 main_v197 (mulf : (⟨S32768x1, .f32⟩ : BufTy).Contents (Elt F) → (⟨S32768x1, .f32⟩ : BufTy).Contents (Elt F) → (⟨S32768x1, .f32⟩ : BufTy).Contents (Elt F)),
    StableHlo.binary main_v197 main_v182 main_v198 (addf : (⟨S32768x1, .f32⟩ : BufTy).Contents (Elt F) → (⟨S32768x1, .f32⟩ : BufTy).Contents (Elt F) → (⟨S32768x1, .f32⟩ : BufTy).Contents (Elt F)),
    StableHlo.nullary main_cst_70 (constant S_ .f32 0x00000000#32),
    StableHlo.unary main_cst_70 main_v199 (broadcastInDim S32768x1 ![] bcast_S_S32768x1 : (⟨S_, .f32⟩ : BufTy).Contents (Elt F) → (⟨S32768x1, .f32⟩ : BufTy).Contents (Elt F)),
    StableHlo.binary main_v192 main_v199 main_v200 (cmpf .une : (⟨S32768x1, .f32⟩ : BufTy).Contents (Elt F) → (⟨S32768x1, .f32⟩ : BufTy).Contents (Elt F) → (⟨S32768x1, .i1⟩ : BufTy).Contents (Elt F)),
    StableHlo.unary main_v200 main_v201 (uitofp .f32 : (⟨S32768x1, .i1⟩ : BufTy).Contents (Elt F) → (⟨S32768x1, .f32⟩ : BufTy).Contents (Elt F)),
    StableHlo.binary main_v201 main_v199 main_v202 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v192 main_v199 main_v203 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v173 main_v202 main_v204 (cmpf .une : (⟨S32768x2, .f32⟩ : BufTy).Contents (Elt F) → (⟨S32768x2, .f32⟩ : BufTy).Contents (Elt F) → (⟨S32768x2, .i1⟩ : BufTy).Contents (Elt F)),
    StableHlo.unary main_v204 main_v205 (uitofp .f32 : (⟨S32768x2, .i1⟩ : BufTy).Contents (Elt F) → (⟨S32768x2, .f32⟩ : BufTy).Contents (Elt F)),
    StableHlo.binary main_v205 main_v202 main_v206 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v174 main_v203 main_v207 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v133 main_v206 main_v208 (cmpf .une : (⟨S32768x4, .f32⟩ : BufTy).Contents (Elt F) → (⟨S32768x4, .f32⟩ : BufTy).Contents (Elt F) → (⟨S32768x4, .i1⟩ : BufTy).Contents (Elt F)),
    StableHlo.unary main_v208 main_v209 (uitofp .f32 : (⟨S32768x4, .i1⟩ : BufTy).Contents (Elt F) → (⟨S32768x4, .f32⟩ : BufTy).Contents (Elt F)),
    StableHlo.binary main_v209 main_v206 main_v210 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v134 main_v207 main_v211 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.nullary main_cst_71 (constant S_ .f32 0x40000000#32),
    StableHlo.unary main_cst_71 main_v212 (broadcastInDim S32768x8 ![] bcast_S_S32768x8 : (⟨S_, .f32⟩ : BufTy).Contents (Elt F) → (⟨S32768x8, .f32⟩ : BufTy).Contents (Elt F)),
    StableHlo.binary main_v212 main_v210 main_v213 (mulf : (⟨S32768x8, .f32⟩ : BufTy).Contents (Elt F) → (⟨S32768x8, .f32⟩ : BufTy).Contents (Elt F) → (⟨S32768x8, .f32⟩ : BufTy).Contents (Elt F)),
    StableHlo.nullary main_cst_72 (constant S_ .f32 0x3F800000#32),
    StableHlo.unary main_cst_72 main_v214 (broadcastInDim S32768x8 ![] bcast_S_S32768x8 : (⟨S_, .f32⟩ : BufTy).Contents (Elt F) → (⟨S32768x8, .f32⟩ : BufTy).Contents (Elt F)),
    StableHlo.binary main_v214 main_v213 main_v215 (subf : (⟨S32768x8, .f32⟩ : BufTy).Contents (Elt F) → (⟨S32768x8, .f32⟩ : BufTy).Contents (Elt F) → (⟨S32768x8, .f32⟩ : BufTy).Contents (Elt F)),
    StableHlo.binary main_v215 main_v46 main_v216 (mulf : (⟨S32768x8, .f32⟩ : BufTy).Contents (Elt F) → (⟨S32768x8, .f32⟩ : BufTy).Contents (Elt F) → (⟨S32768x8, .f32⟩ : BufTy).Contents (Elt F)),
    StableHlo.binary main_v216 main_v47 main_v217 (addf : (⟨S32768x8, .f32⟩ : BufTy).Contents (Elt F) → (⟨S32768x8, .f32⟩ : BufTy).Contents (Elt F) → (⟨S32768x8, .f32⟩ : BufTy).Contents (Elt F)),
    StableHlo.unary main_v217 main_v218 ((extractStridedSlice S32768x4 ![0, 0] · slices_S32768x8_S32768x4_0_0) : (⟨S32768x8, .f32⟩ : BufTy).Contents (Elt F) → (⟨S32768x4, .f32⟩ : BufTy).Contents (Elt F)),
    StableHlo.unary main_v217 main_v219 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_73 (constant S_ .f32 0xC1F00000#32),
    StableHlo.nullary main_cst_74 (constant S_ .f32 0x41F00000#32),
    StableHlo.TRef.unary (.of main_cst_73 : StableHlo.TRef sig ⟨S_, .f32⟩) main_call24.v0 id,
    StableHlo.TRef.unary main_call24.v0 main_call24.v1 (broadcastInDim S32768x4 ![] bcast_S_S32768x4),
    StableHlo.TRef.binary main_call24.v1 (.of main_v218 : StableHlo.TRef sig ⟨S32768x4, .f32⟩) main_call24.v2 maximumf,
    StableHlo.TRef.unary (.of main_cst_74 : StableHlo.TRef sig ⟨S_, .f32⟩) main_call24.v3 id,
    StableHlo.TRef.unary main_call24.v3 main_call24.v4 (broadcastInDim S32768x4 ![] bcast_S_S32768x4),
    StableHlo.TRef.binary main_call24.v4 main_call24.v2 main_call24.v5 minimumf,
    StableHlo.nullary main_cst_75 (constant S_ .f32 0xC1F00000#32),
    StableHlo.nullary main_cst_76 (constant S_ .f32 0x41F00000#32) ]

set_option maxRecDepth 8192 in
/-- The window is that straight line: each clip function unfolded at its calls, the sequencing reassociated. -/
theorem part_eq_4 (d : Dev nD) : main_part4 (F := F) d = seq ops4 := by
  simp only [main_part4, fn_clip_6.body, fn_clip_4.body, seq, bind_assoc, pure_bind]
  rfl

/-- Every operation of the window touches TensorCore references only. -/
theorem sub_4 : (ops4 : List (HloOp τ sig (Elt F))).Forall fun op => op.bufs ⊆ tcRefs τ sig :=
  ⟨binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., nullary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., binary_bufs_sub .., binary_bufs_sub ..,
    unary_bufs_sub .., binary_bufs_sub .., binary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub ..⟩

/-- Every operation of the window determines all it writes. -/
theorem fresh_4 : (ops4 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
/-- The window writes no argument of @main: the argument's buffer holds after it what it held before. -/
theorem keep_4 (V : Valuation τ sig (Elt F)) :
    after ops4 V (main_arg0 : DevRef τ sig) = V (main_arg0 : DevRef τ sig) := by
  simp only [after_cons, after_nil]
  rfl

/-- The operations of @main's statements 301 … 360, in order (85 of them): a statement's own operation, or, for a call
    of a clip function, the six operations of its body over that call's buffers. -/
abbrev ops5 : List (HloOp τ sig (Elt F)) :=
  [ StableHlo.TRef.unary (.of main_cst_75 : StableHlo.TRef sig ⟨S_, .f32⟩) main_call25.v0 id,
    StableHlo.TRef.unary main_call25.v0 main_call25.v1 (broadcastInDim S32768x4 ![] bcast_S_S32768x4),
    StableHlo.TRef.binary main_call25.v1 (.of main_v219 : StableHlo.TRef sig ⟨S32768x4, .f32⟩) main_call25.v2 maximumf,
    StableHlo.TRef.unary (.of main_cst_76 : StableHlo.TRef sig ⟨S_, .f32⟩) main_call25.v3 id,
    StableHlo.TRef.unary main_call25.v3 main_call25.v4 (broadcastInDim S32768x4 ![] bcast_S_S32768x4),
    StableHlo.TRef.binary main_call25.v4 main_call25.v2 main_call25.v5 minimumf,
    StableHlo.unary main_v220 main_v222 (Host.sign : (⟨S32768x4, .f32⟩ : BufTy).Contents (Elt F) → (⟨S32768x4, .f32⟩ : BufTy).Contents (Elt F)),
    StableHlo.unary main_v221 main_v223 (Host.sign : (⟨S32768x4, .f32⟩ : BufTy).Contents (Elt F) → (⟨S32768x4, .f32⟩ : BufTy).Contents (Elt F)),
    StableHlo.binary main_v222 main_v223 main_v224 (mulf : (⟨S32768x4, .f32⟩ : BufTy).Contents (Elt F) → (⟨S32768x4, .f32⟩ : BufTy).Contents (Elt F) → (⟨S32768x4, .f32⟩ : BufTy).Contents (Elt F)),
    StableHlo.unary main_v220 main_v225 (Host.absf : (⟨S32768x4, .f32⟩ : BufTy).Contents (Elt F) → (⟨S32768x4, .f32⟩ : BufTy).Contents (Elt F)),
    StableHlo.unary main_v221 main_v226 (Host.absf : (⟨S32768x4, .f32⟩ : BufTy).Contents (Elt F) → (⟨S32768x4, .f32⟩ : BufTy).Contents (Elt F)),
    StableHlo.binary main_v225 main_v226 main_v227 (minimumf : (⟨S32768x4, .f32⟩ : BufTy).Contents (Elt F) → (⟨S32768x4, .f32⟩ : BufTy).Contents (Elt F) → (⟨S32768x4, .f32⟩ : BufTy).Contents (Elt F)),
    StableHlo.binary main_v224 main_v227 main_v228 (mulf : (⟨S32768x4, .f32⟩ : BufTy).Contents (Elt F) → (⟨S32768x4, .f32⟩ : BufTy).Contents (Elt F) → (⟨S32768x4, .f32⟩ : BufTy).Contents (Elt F)),
    StableHlo.unary main_v228 main_v229 ((extractStridedSlice S32768x2 ![0, 0] · slices_S32768x4_S32768x2_0_0) : (⟨S32768x4, .f32⟩ : BufTy).Contents (Elt F) → (⟨S32768x2, .f32⟩ : BufTy).Contents (Elt F)),
    StableHlo.unary main_v228 main_v230 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_77 (constant S_ .f32 0xC1F00000#32),
    StableHlo.nullary main_cst_78 (constant S_ .f32 0x41F00000#32),
    StableHlo.TRef.unary (.of main_cst_77 : StableHlo.TRef sig ⟨S_, .f32⟩) main_call26.v0 id,
    StableHlo.TRef.unary main_call26.v0 main_call26.v1 (broadcastInDim S32768x2 ![] bcast_S_S32768x2),
    StableHlo.TRef.binary main_call26.v1 (.of main_v229 : StableHlo.TRef sig ⟨S32768x2, .f32⟩) main_call26.v2 maximumf,
    StableHlo.TRef.unary (.of main_cst_78 : StableHlo.TRef sig ⟨S_, .f32⟩) main_call26.v3 id,
    StableHlo.TRef.unary main_call26.v3 main_call26.v4 (broadcastInDim S32768x2 ![] bcast_S_S32768x2),
    StableHlo.TRef.binary main_call26.v4 main_call26.v2 main_call26.v5 minimumf,
    StableHlo.nullary main_cst_79 (constant S_ .f32 0xC1F00000#32),
    StableHlo.nullary main_cst_80 (constant S_ .f32 0x41F00000#32),
    StableHlo.TRef.unary (.of main_cst_79 : StableHlo.TRef sig ⟨S_, .f32⟩) main_call27.v0 id,
    StableHlo.TRef.unary main_call27.v0 main_call27.v1 (broadcastInDim S32768x2 ![] bcast_S_S32768x2),
    StableHlo.TRef.binary main_call27.v1 (.of main_v230 : StableHlo.TRef sig ⟨S32768x2, .f32⟩) main_call27.v2 maximumf,
    StableHlo.TRef.unary (.of main_cst_80 : StableHlo.TRef sig ⟨S_, .f32⟩) main_call27.v3 id,
    StableHlo.TRef.unary main_call27.v3 main_call27.v4 (broadcastInDim S32768x2 ![] bcast_S_S32768x2),
    StableHlo.TRef.binary main_call27.v4 main_call27.v2 main_call27.v5 minimumf,
    StableHlo.unary main_v231 main_v233 (Host.sign : (⟨S32768x2, .f32⟩ : BufTy).Contents (Elt F) → (⟨S32768x2, .f32⟩ : BufTy).Contents (Elt F)),
    StableHlo.unary main_v232 main_v234 (Host.sign : (⟨S32768x2, .f32⟩ : BufTy).Contents (Elt F) → (⟨S32768x2, .f32⟩ : BufTy).Contents (Elt F)),
    StableHlo.binary main_v233 main_v234 main_v235 (mulf : (⟨S32768x2, .f32⟩ : BufTy).Contents (Elt F) → (⟨S32768x2, .f32⟩ : BufTy).Contents (Elt F) → (⟨S32768x2, .f32⟩ : BufTy).Contents (Elt F)),
    StableHlo.unary main_v231 main_v236 (Host.absf : (⟨S32768x2, .f32⟩ : BufTy).Contents (Elt F) → (⟨S32768x2, .f32⟩ : BufTy).Contents (Elt F)),
    StableHlo.unary main_v232 main_v237 (Host.absf : (⟨S32768x2, .f32⟩ : BufTy).Contents (Elt F) → (⟨S32768x2, .f32⟩ : BufTy).Contents (Elt F)),
    StableHlo.binary main_v236 main_v237 main_v238 (minimumf : (⟨S32768x2, .f32⟩ : BufTy).Contents (Elt F) → (⟨S32768x2, .f32⟩ : BufTy).Contents (Elt F) → (⟨S32768x2, .f32⟩ : BufTy).Contents (Elt F)),
    StableHlo.binary main_v235 main_v238 main_v239 (mulf : (⟨S32768x2, .f32⟩ : BufTy).Contents (Elt F) → (⟨S32768x2, .f32⟩ : BufTy).Contents (Elt F) → (⟨S32768x2, .f32⟩ : BufTy).Contents (Elt F)),
    StableHlo.unary main_v239 main_v240 ((extractStridedSlice S32768x1 ![0, 0] · slices_S32768x2_S32768x1_0_0) : (⟨S32768x2, .f32⟩ : BufTy).Contents (Elt F) → (⟨S32768x1, .f32⟩ : BufTy).Contents (Elt F)),
    StableHlo.unary main_v239 main_v241 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_81 (constant S_ .f32 0xC1F00000#32),
    StableHlo.nullary main_cst_82 (constant S_ .f32 0x41F00000#32),
    StableHlo.TRef.unary (.of main_cst_81 : StableHlo.TRef sig ⟨S_, .f32⟩) main_call28.v0 id,
    StableHlo.TRef.unary main_call28.v0 main_call28.v1 (broadcastInDim S32768x1 ![] bcast_S_S32768x1),
    StableHlo.TRef.binary main_call28.v1 (.of main_v240 : StableHlo.TRef sig ⟨S32768x1, .f32⟩) main_call28.v2 maximumf,
    StableHlo.TRef.unary (.of main_cst_82 : StableHlo.TRef sig ⟨S_, .f32⟩) main_call28.v3 id,
    StableHlo.TRef.unary main_call28.v3 main_call28.v4 (broadcastInDim S32768x1 ![] bcast_S_S32768x1),
    StableHlo.TRef.binary main_call28.v4 main_call28.v2 main_call28.v5 minimumf,
    StableHlo.nullary main_cst_83 (constant S_ .f32 0xC1F00000#32),
    StableHlo.nullary main_cst_84 (constant S_ .f32 0x41F00000#32),
    StableHlo.TRef.unary (.of main_cst_83 : StableHlo.TRef sig ⟨S_, .f32⟩) main_call29.v0 id,
    StableHlo.TRef.unary main_call29.v0 main_call29.v1 (broadcastInDim S32768x1 ![] bcast_S_S32768x1),
    StableHlo.TRef.binary main_call29.v1 (.of main_v241 : StableHlo.TRef sig ⟨S32768x1, .f32⟩) main_call29.v2 maximumf,
    StableHlo.TRef.unary (.of main_cst_84 : StableHlo.TRef sig ⟨S_, .f32⟩) main_call29.v3 id,
    StableHlo.TRef.unary main_call29.v3 main_call29.v4 (broadcastInDim S32768x1 ![] bcast_S_S32768x1),
    StableHlo.TRef.binary main_call29.v4 main_call29.v2 main_call29.v5 minimumf,
    StableHlo.unary main_v242 main_v244 (Host.sign : (⟨S32768x1, .f32⟩ : BufTy).Contents (Elt F) → (⟨S32768x1, .f32⟩ : BufTy).Contents (Elt F)),
    StableHlo.unary main_v243 main_v245 (Host.sign : (⟨S32768x1, .f32⟩ : BufTy).Contents (Elt F) → (⟨S32768x1, .f32⟩ : BufTy).Contents (Elt F)),
    StableHlo.binary main_v244 main_v245 main_v246 (mulf : (⟨S32768x1, .f32⟩ : BufTy).Contents (Elt F) → (⟨S32768x1, .f32⟩ : BufTy).Contents (Elt F) → (⟨S32768x1, .f32⟩ : BufTy).Contents (Elt F)),
    StableHlo.unary main_v242 main_v247 (Host.absf : (⟨S32768x1, .f32⟩ : BufTy).Contents (Elt F) → (⟨S32768x1, .f32⟩ : BufTy).Contents (Elt F)),
    StableHlo.unary main_v243 main_v248 (Host.absf : (⟨S32768x1, .f32⟩ : BufTy).Contents (Elt F) → (⟨S32768x1, .f32⟩ : BufTy).Contents (Elt F)),
    StableHlo.binary main_v247 main_v248 main_v249 (minimumf : (⟨S32768x1, .f32⟩ : BufTy).Contents (Elt F) → (⟨S32768x1, .f32⟩ : BufTy).Contents (Elt F) → (⟨S32768x1, .f32⟩ : BufTy).Contents (Elt F)),
    StableHlo.binary main_v246 main_v249 main_v250 (mulf : (⟨S32768x1, .f32⟩ : BufTy).Contents (Elt F) → (⟨S32768x1, .f32⟩ : BufTy).Contents (Elt F) → (⟨S32768x1, .f32⟩ : BufTy).Contents (Elt F)),
    StableHlo.nullary main_cst_85 (constant S_ .f32 0x00000000#32),
    StableHlo.unary main_cst_85 main_v251 (broadcastInDim S32768x1 ![] bcast_S_S32768x1 : (⟨S_, .f32⟩ : BufTy).Contents (Elt F) → (⟨S32768x1, .f32⟩ : BufTy).Contents (Elt F)),
    StableHlo.nullary main_cst_86 (constant S_ .f32 0x40000000#32),
    StableHlo.unary main_cst_86 main_v252 (broadcastInDim S32768x1 ![] bcast_S_S32768x1 : (⟨S_, .f32⟩ : BufTy).Contents (Elt F) → (⟨S32768x1, .f32⟩ : BufTy).Contents (Elt F)),
    StableHlo.binary main_v252 main_v251 main_v253 (mulf : (⟨S32768x1, .f32⟩ : BufTy).Contents (Elt F) → (⟨S32768x1, .f32⟩ : BufTy).Contents (Elt F) → (⟨S32768x1, .f32⟩ : BufTy).Contents (Elt F)),
    StableHlo.nullary main_cst_87 (constant S_ .f32 0x3F800000#32),
    StableHlo.unary main_cst_87 main_v254 (broadcastInDim S32768x1 ![] bcast_S_S32768x1 : (⟨S_, .f32⟩ : BufTy).Contents (Elt F) → (⟨S32768x1, .f32⟩ : BufTy).Contents (Elt F)),
    StableHlo.binary main_v254 main_v253 main_v255 (subf : (⟨S32768x1, .f32⟩ : BufTy).Contents (Elt F) → (⟨S32768x1, .f32⟩ : BufTy).Contents (Elt F) → (⟨S32768x1, .f32⟩ : BufTy).Contents (Elt F)),
    StableHlo.binary main_v255 main_v240 main_v256 (mulf : (⟨S32768x1, .f32⟩ : BufTy).Contents (Elt F) → (⟨S32768x1, .f32⟩ : BufTy).Contents (Elt F) → (⟨S32768x1, .f32⟩ : BufTy).Contents (Elt F)),
    StableHlo.binary main_v256 main_v241 main_v257 (addf : (⟨S32768x1, .f32⟩ : BufTy).Contents (Elt F) → (⟨S32768x1, .f32⟩ : BufTy).Contents (Elt F) → (⟨S32768x1, .f32⟩ : BufTy).Contents (Elt F)),
    StableHlo.nullary main_cst_88 (constant S_ .f32 0x00000000#32),
    StableHlo.unary main_cst_88 main_v258 (broadcastInDim S32768x1 ![] bcast_S_S32768x1 : (⟨S_, .f32⟩ : BufTy).Contents (Elt F) → (⟨S32768x1, .f32⟩ : BufTy).Contents (Elt F)),
    StableHlo.binary main_v251 main_v258 main_v259 (cmpf .une : (⟨S32768x1, .f32⟩ : BufTy).Contents (Elt F) → (⟨S32768x1, .f32⟩ : BufTy).Contents (Elt F) → (⟨S32768x1, .i1⟩ : BufTy).Contents (Elt F)),
    StableHlo.unary main_v259 main_v260 (uitofp .f32 : (⟨S32768x1, .i1⟩ : BufTy).Contents (Elt F) → (⟨S32768x1, .f32⟩ : BufTy).Contents (Elt F)),
    StableHlo.binary main_v260 main_v258 main_v261 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v251 main_v258 main_v262 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_89 (constant S_ .f32 0x40000000#32),
    StableHlo.unary main_cst_89 main_v263 (broadcastInDim S32768x2 ![] bcast_S_S32768x2 : (⟨S_, .f32⟩ : BufTy).Contents (Elt F) → (⟨S32768x2, .f32⟩ : BufTy).Contents (Elt F)),
    StableHlo.binary main_v263 main_v261 main_v264 (mulf : (⟨S32768x2, .f32⟩ : BufTy).Contents (Elt F) → (⟨S32768x2, .f32⟩ : BufTy).Contents (Elt F) → (⟨S32768x2, .f32⟩ : BufTy).Contents (Elt F)),
    StableHlo.nullary main_cst_90 (constant S_ .f32 0x3F800000#32),
    StableHlo.unary main_cst_90 main_v265 (broadcastInDim S32768x2 ![] bcast_S_S32768x2 : (⟨S_, .f32⟩ : BufTy).Contents (Elt F) → (⟨S32768x2, .f32⟩ : BufTy).Contents (Elt F)),
    StableHlo.binary main_v265 main_v264 main_v266 (subf : (⟨S32768x2, .f32⟩ : BufTy).Contents (Elt F) → (⟨S32768x2, .f32⟩ : BufTy).Contents (Elt F) → (⟨S32768x2, .f32⟩ : BufTy).Contents (Elt F)) ]

set_option maxRecDepth 8192 in
/-- The window is that straight line: each clip function unfolded at its calls, the sequencing reassociated. -/
theorem part_eq_5 (d : Dev nD) : main_part5 (F := F) d = seq ops5 := by
  simp only [main_part5, fn_clip_4.body, fn_clip_5.body, fn_clip_6.body, seq, bind_assoc, pure_bind]
  rfl

/-- Every operation of the window touches TensorCore references only. -/
theorem sub_5 : (ops5 : List (HloOp τ sig (Elt F))).Forall fun op => op.bufs ⊆ tcRefs τ sig :=
  ⟨unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub ..⟩

/-- Every operation of the window determines all it writes. -/
theorem fresh_5 : (ops5 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_5 (V : Valuation τ sig (Elt F)) :
    after ops5 V (main_arg0 : DevRef τ sig) = V (main_arg0 : DevRef τ sig) := by
  simp only [after_cons, after_nil]
  rfl

/-- The operations of @main's statements 361 … 420, in order (80 of them): a statement's own operation, or, for a call
    of a clip function, the six operations of its body over that call's buffers. -/
abbrev ops6 : List (HloOp τ sig (Elt F)) :=
  [ StableHlo.binary main_v266 main_v229 main_v267 (mulf : (⟨S32768x2, .f32⟩ : BufTy).Contents (Elt F) → (⟨S32768x2, .f32⟩ : BufTy).Contents (Elt F) → (⟨S32768x2, .f32⟩ : BufTy).Contents (Elt F)),
    StableHlo.binary main_v267 main_v230 main_v268 (addf : (⟨S32768x2, .f32⟩ : BufTy).Contents (Elt F) → (⟨S32768x2, .f32⟩ : BufTy).Contents (Elt F) → (⟨S32768x2, .f32⟩ : BufTy).Contents (Elt F)),
    StableHlo.unary main_v268 main_v269 ((extractStridedSlice S32768x1 ![0, 0] · slices_S32768x2_S32768x1_0_0) : (⟨S32768x2, .f32⟩ : BufTy).Contents (Elt F) → (⟨S32768x1, .f32⟩ : BufTy).Contents (Elt F)),
    StableHlo.unary main_v268 main_v270 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_91 (constant S_ .f32 0xC1F00000#32),
    StableHlo.nullary main_cst_92 (constant S_ .f32 0x41F00000#32),
    StableHlo.TRef.unary (.of main_cst_91 : StableHlo.TRef sig ⟨S_, .f32⟩) main_call30.v0 id,
    StableHlo.TRef.unary main_call30.v0 main_call30.v1 (broadcastInDim S32768x1 ![] bcast_S_S32768x1),
    StableHlo.TRef.binary main_call30.v1 (.of main_v269 : StableHlo.TRef sig ⟨S32768x1, .f32⟩) main_call30.v2 maximumf,
    StableHlo.TRef.unary (.of main_cst_92 : StableHlo.TRef sig ⟨S_, .f32⟩) main_call30.v3 id,
    StableHlo.TRef.unary main_call30.v3 main_call30.v4 (broadcastInDim S32768x1 ![] bcast_S_S32768x1),
    StableHlo.TRef.binary main_call30.v4 main_call30.v2 main_call30.v5 minimumf,
    StableHlo.nullary main_cst_93 (constant S_ .f32 0xC1F00000#32),
    StableHlo.nullary main_cst_94 (constant S_ .f32 0x41F00000#32),
    StableHlo.TRef.unary (.of main_cst_93 : StableHlo.TRef sig ⟨S_, .f32⟩) main_call31.v0 id,
    StableHlo.TRef.unary main_call31.v0 main_call31.v1 (broadcastInDim S32768x1 ![] bcast_S_S32768x1),
    StableHlo.TRef.binary main_call31.v1 (.of main_v270 : StableHlo.TRef sig ⟨S32768x1, .f32⟩) main_call31.v2 maximumf,
    StableHlo.TRef.unary (.of main_cst_94 : StableHlo.TRef sig ⟨S_, .f32⟩) main_call31.v3 id,
    StableHlo.TRef.unary main_call31.v3 main_call31.v4 (broadcastInDim S32768x1 ![] bcast_S_S32768x1),
    StableHlo.TRef.binary main_call31.v4 main_call31.v2 main_call31.v5 minimumf,
    StableHlo.unary main_v271 main_v273 (Host.sign : (⟨S32768x1, .f32⟩ : BufTy).Contents (Elt F) → (⟨S32768x1, .f32⟩ : BufTy).Contents (Elt F)),
    StableHlo.unary main_v272 main_v274 (Host.sign : (⟨S32768x1, .f32⟩ : BufTy).Contents (Elt F) → (⟨S32768x1, .f32⟩ : BufTy).Contents (Elt F)),
    StableHlo.binary main_v273 main_v274 main_v275 (mulf : (⟨S32768x1, .f32⟩ : BufTy).Contents (Elt F) → (⟨S32768x1, .f32⟩ : BufTy).Contents (Elt F) → (⟨S32768x1, .f32⟩ : BufTy).Contents (Elt F)),
    StableHlo.unary main_v271 main_v276 (Host.absf : (⟨S32768x1, .f32⟩ : BufTy).Contents (Elt F) → (⟨S32768x1, .f32⟩ : BufTy).Contents (Elt F)),
    StableHlo.unary main_v272 main_v277 (Host.absf : (⟨S32768x1, .f32⟩ : BufTy).Contents (Elt F) → (⟨S32768x1, .f32⟩ : BufTy).Contents (Elt F)),
    StableHlo.binary main_v276 main_v277 main_v278 (minimumf : (⟨S32768x1, .f32⟩ : BufTy).Contents (Elt F) → (⟨S32768x1, .f32⟩ : BufTy).Contents (Elt F) → (⟨S32768x1, .f32⟩ : BufTy).Contents (Elt F)),
    StableHlo.binary main_v275 main_v278 main_v279 (mulf : (⟨S32768x1, .f32⟩ : BufTy).Contents (Elt F) → (⟨S32768x1, .f32⟩ : BufTy).Contents (Elt F) → (⟨S32768x1, .f32⟩ : BufTy).Contents (Elt F)),
    StableHlo.nullary main_cst_95 (constant S_ .f32 0x00000000#32),
    StableHlo.unary main_cst_95 main_v280 (broadcastInDim S32768x1 ![] bcast_S_S32768x1 : (⟨S_, .f32⟩ : BufTy).Contents (Elt F) → (⟨S32768x1, .f32⟩ : BufTy).Contents (Elt F)),
    StableHlo.nullary main_cst_96 (constant S_ .f32 0x40000000#32),
    StableHlo.unary main_cst_96 main_v281 (broadcastInDim S32768x1 ![] bcast_S_S32768x1 : (⟨S_, .f32⟩ : BufTy).Contents (Elt F) → (⟨S32768x1, .f32⟩ : BufTy).Contents (Elt F)),
    StableHlo.binary main_v281 main_v280 main_v282 (mulf : (⟨S32768x1, .f32⟩ : BufTy).Contents (Elt F) → (⟨S32768x1, .f32⟩ : BufTy).Contents (Elt F) → (⟨S32768x1, .f32⟩ : BufTy).Contents (Elt F)),
    StableHlo.nullary main_cst_97 (constant S_ .f32 0x3F800000#32),
    StableHlo.unary main_cst_97 main_v283 (broadcastInDim S32768x1 ![] bcast_S_S32768x1 : (⟨S_, .f32⟩ : BufTy).Contents (Elt F) → (⟨S32768x1, .f32⟩ : BufTy).Contents (Elt F)),
    StableHlo.binary main_v283 main_v282 main_v284 (subf : (⟨S32768x1, .f32⟩ : BufTy).Contents (Elt F) → (⟨S32768x1, .f32⟩ : BufTy).Contents (Elt F) → (⟨S32768x1, .f32⟩ : BufTy).Contents (Elt F)),
    StableHlo.binary main_v284 main_v269 main_v285 (mulf : (⟨S32768x1, .f32⟩ : BufTy).Contents (Elt F) → (⟨S32768x1, .f32⟩ : BufTy).Contents (Elt F) → (⟨S32768x1, .f32⟩ : BufTy).Contents (Elt F)),
    StableHlo.binary main_v285 main_v270 main_v286 (addf : (⟨S32768x1, .f32⟩ : BufTy).Contents (Elt F) → (⟨S32768x1, .f32⟩ : BufTy).Contents (Elt F) → (⟨S32768x1, .f32⟩ : BufTy).Contents (Elt F)),
    StableHlo.nullary main_cst_98 (constant S_ .f32 0x00000000#32),
    StableHlo.unary main_cst_98 main_v287 (broadcastInDim S32768x1 ![] bcast_S_S32768x1 : (⟨S_, .f32⟩ : BufTy).Contents (Elt F) → (⟨S32768x1, .f32⟩ : BufTy).Contents (Elt F)),
    StableHlo.binary main_v280 main_v287 main_v288 (cmpf .une : (⟨S32768x1, .f32⟩ : BufTy).Contents (Elt F) → (⟨S32768x1, .f32⟩ : BufTy).Contents (Elt F) → (⟨S32768x1, .i1⟩ : BufTy).Contents (Elt F)),
    StableHlo.unary main_v288 main_v289 (uitofp .f32 : (⟨S32768x1, .i1⟩ : BufTy).Contents (Elt F) → (⟨S32768x1, .f32⟩ : BufTy).Contents (Elt F)),
    StableHlo.binary main_v289 main_v287 main_v290 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v280 main_v287 main_v291 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v261 main_v290 main_v292 (cmpf .une : (⟨S32768x2, .f32⟩ : BufTy).Contents (Elt F) → (⟨S32768x2, .f32⟩ : BufTy).Contents (Elt F) → (⟨S32768x2, .i1⟩ : BufTy).Contents (Elt F)),
    StableHlo.unary main_v292 main_v293 (uitofp .f32 : (⟨S32768x2, .i1⟩ : BufTy).Contents (Elt F) → (⟨S32768x2, .f32⟩ : BufTy).Contents (Elt F)),
    StableHlo.binary main_v293 main_v290 main_v294 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v262 main_v291 main_v295 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_99 (constant S_ .f32 0x40000000#32),
    StableHlo.unary main_cst_99 main_v296 (broadcastInDim S32768x4 ![] bcast_S_S32768x4 : (⟨S_, .f32⟩ : BufTy).Contents (Elt F) → (⟨S32768x4, .f32⟩ : BufTy).Contents (Elt F)),
    StableHlo.binary main_v296 main_v294 main_v297 (mulf : (⟨S32768x4, .f32⟩ : BufTy).Contents (Elt F) → (⟨S32768x4, .f32⟩ : BufTy).Contents (Elt F) → (⟨S32768x4, .f32⟩ : BufTy).Contents (Elt F)),
    StableHlo.nullary main_cst_100 (constant S_ .f32 0x3F800000#32),
    StableHlo.unary main_cst_100 main_v298 (broadcastInDim S32768x4 ![] bcast_S_S32768x4 : (⟨S_, .f32⟩ : BufTy).Contents (Elt F) → (⟨S32768x4, .f32⟩ : BufTy).Contents (Elt F)),
    StableHlo.binary main_v298 main_v297 main_v299 (subf : (⟨S32768x4, .f32⟩ : BufTy).Contents (Elt F) → (⟨S32768x4, .f32⟩ : BufTy).Contents (Elt F) → (⟨S32768x4, .f32⟩ : BufTy).Contents (Elt F)),
    StableHlo.binary main_v299 main_v218 main_v300 (mulf : (⟨S32768x4, .f32⟩ : BufTy).Contents (Elt F) → (⟨S32768x4, .f32⟩ : BufTy).Contents (Elt F) → (⟨S32768x4, .f32⟩ : BufTy).Contents (Elt F)),
    StableHlo.binary main_v300 main_v219 main_v301 (addf : (⟨S32768x4, .f32⟩ : BufTy).Contents (Elt F) → (⟨S32768x4, .f32⟩ : BufTy).Contents (Elt F) → (⟨S32768x4, .f32⟩ : BufTy).Contents (Elt F)),
    StableHlo.unary main_v301 main_v302 ((extractStridedSlice S32768x2 ![0, 0] · slices_S32768x4_S32768x2_0_0) : (⟨S32768x4, .f32⟩ : BufTy).Contents (Elt F) → (⟨S32768x2, .f32⟩ : BufTy).Contents (Elt F)),
    StableHlo.unary main_v301 main_v303 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_101 (constant S_ .f32 0xC1F00000#32),
    StableHlo.nullary main_cst_102 (constant S_ .f32 0x41F00000#32),
    StableHlo.TRef.unary (.of main_cst_101 : StableHlo.TRef sig ⟨S_, .f32⟩) main_call32.v0 id,
    StableHlo.TRef.unary main_call32.v0 main_call32.v1 (broadcastInDim S32768x2 ![] bcast_S_S32768x2),
    StableHlo.TRef.binary main_call32.v1 (.of main_v302 : StableHlo.TRef sig ⟨S32768x2, .f32⟩) main_call32.v2 maximumf,
    StableHlo.TRef.unary (.of main_cst_102 : StableHlo.TRef sig ⟨S_, .f32⟩) main_call32.v3 id,
    StableHlo.TRef.unary main_call32.v3 main_call32.v4 (broadcastInDim S32768x2 ![] bcast_S_S32768x2),
    StableHlo.TRef.binary main_call32.v4 main_call32.v2 main_call32.v5 minimumf,
    StableHlo.nullary main_cst_103 (constant S_ .f32 0xC1F00000#32),
    StableHlo.nullary main_cst_104 (constant S_ .f32 0x41F00000#32),
    StableHlo.TRef.unary (.of main_cst_103 : StableHlo.TRef sig ⟨S_, .f32⟩) main_call33.v0 id,
    StableHlo.TRef.unary main_call33.v0 main_call33.v1 (broadcastInDim S32768x2 ![] bcast_S_S32768x2),
    StableHlo.TRef.binary main_call33.v1 (.of main_v303 : StableHlo.TRef sig ⟨S32768x2, .f32⟩) main_call33.v2 maximumf,
    StableHlo.TRef.unary (.of main_cst_104 : StableHlo.TRef sig ⟨S_, .f32⟩) main_call33.v3 id,
    StableHlo.TRef.unary main_call33.v3 main_call33.v4 (broadcastInDim S32768x2 ![] bcast_S_S32768x2),
    StableHlo.TRef.binary main_call33.v4 main_call33.v2 main_call33.v5 minimumf,
    StableHlo.unary main_v304 main_v306 (Host.sign : (⟨S32768x2, .f32⟩ : BufTy).Contents (Elt F) → (⟨S32768x2, .f32⟩ : BufTy).Contents (Elt F)),
    StableHlo.unary main_v305 main_v307 (Host.sign : (⟨S32768x2, .f32⟩ : BufTy).Contents (Elt F) → (⟨S32768x2, .f32⟩ : BufTy).Contents (Elt F)),
    StableHlo.binary main_v306 main_v307 main_v308 (mulf : (⟨S32768x2, .f32⟩ : BufTy).Contents (Elt F) → (⟨S32768x2, .f32⟩ : BufTy).Contents (Elt F) → (⟨S32768x2, .f32⟩ : BufTy).Contents (Elt F)),
    StableHlo.unary main_v304 main_v309 (Host.absf : (⟨S32768x2, .f32⟩ : BufTy).Contents (Elt F) → (⟨S32768x2, .f32⟩ : BufTy).Contents (Elt F)),
    StableHlo.unary main_v305 main_v310 (Host.absf : (⟨S32768x2, .f32⟩ : BufTy).Contents (Elt F) → (⟨S32768x2, .f32⟩ : BufTy).Contents (Elt F)),
    StableHlo.binary main_v309 main_v310 main_v311 (minimumf : (⟨S32768x2, .f32⟩ : BufTy).Contents (Elt F) → (⟨S32768x2, .f32⟩ : BufTy).Contents (Elt F) → (⟨S32768x2, .f32⟩ : BufTy).Contents (Elt F)),
    StableHlo.binary main_v308 main_v311 main_v312 (mulf : (⟨S32768x2, .f32⟩ : BufTy).Contents (Elt F) → (⟨S32768x2, .f32⟩ : BufTy).Contents (Elt F) → (⟨S32768x2, .f32⟩ : BufTy).Contents (Elt F)) ]

set_option maxRecDepth 8192 in
/-- The window is that straight line: each clip function unfolded at its calls, the sequencing reassociated. -/
theorem part_eq_6 (d : Dev nD) : main_part6 (F := F) d = seq ops6 := by
  simp only [main_part6, fn_clip_6.body, fn_clip_5.body, seq, bind_assoc, pure_bind]
  rfl

/-- Every operation of the window touches TensorCore references only. -/
theorem sub_6 : (ops6 : List (HloOp τ sig (Elt F))).Forall fun op => op.bufs ⊆ tcRefs τ sig :=
  ⟨binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    binary_bufs_sub .., binary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub ..⟩

/-- Every operation of the window determines all it writes. -/
theorem fresh_6 : (ops6 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_6 (V : Valuation τ sig (Elt F)) :
    after ops6 V (main_arg0 : DevRef τ sig) = V (main_arg0 : DevRef τ sig) := by
  simp only [after_cons, after_nil]
  rfl

/-- The operations of @main's statements 421 … 480, in order (80 of them): a statement's own operation, or, for a call
    of a clip function, the six operations of its body over that call's buffers. -/
abbrev ops7 : List (HloOp τ sig (Elt F)) :=
  [ StableHlo.unary main_v312 main_v313 ((extractStridedSlice S32768x1 ![0, 0] · slices_S32768x2_S32768x1_0_0) : (⟨S32768x2, .f32⟩ : BufTy).Contents (Elt F) → (⟨S32768x1, .f32⟩ : BufTy).Contents (Elt F)),
    StableHlo.unary main_v312 main_v314 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_105 (constant S_ .f32 0xC1F00000#32),
    StableHlo.nullary main_cst_106 (constant S_ .f32 0x41F00000#32),
    StableHlo.TRef.unary (.of main_cst_105 : StableHlo.TRef sig ⟨S_, .f32⟩) main_call34.v0 id,
    StableHlo.TRef.unary main_call34.v0 main_call34.v1 (broadcastInDim S32768x1 ![] bcast_S_S32768x1),
    StableHlo.TRef.binary main_call34.v1 (.of main_v313 : StableHlo.TRef sig ⟨S32768x1, .f32⟩) main_call34.v2 maximumf,
    StableHlo.TRef.unary (.of main_cst_106 : StableHlo.TRef sig ⟨S_, .f32⟩) main_call34.v3 id,
    StableHlo.TRef.unary main_call34.v3 main_call34.v4 (broadcastInDim S32768x1 ![] bcast_S_S32768x1),
    StableHlo.TRef.binary main_call34.v4 main_call34.v2 main_call34.v5 minimumf,
    StableHlo.nullary main_cst_107 (constant S_ .f32 0xC1F00000#32),
    StableHlo.nullary main_cst_108 (constant S_ .f32 0x41F00000#32),
    StableHlo.TRef.unary (.of main_cst_107 : StableHlo.TRef sig ⟨S_, .f32⟩) main_call35.v0 id,
    StableHlo.TRef.unary main_call35.v0 main_call35.v1 (broadcastInDim S32768x1 ![] bcast_S_S32768x1),
    StableHlo.TRef.binary main_call35.v1 (.of main_v314 : StableHlo.TRef sig ⟨S32768x1, .f32⟩) main_call35.v2 maximumf,
    StableHlo.TRef.unary (.of main_cst_108 : StableHlo.TRef sig ⟨S_, .f32⟩) main_call35.v3 id,
    StableHlo.TRef.unary main_call35.v3 main_call35.v4 (broadcastInDim S32768x1 ![] bcast_S_S32768x1),
    StableHlo.TRef.binary main_call35.v4 main_call35.v2 main_call35.v5 minimumf,
    StableHlo.unary main_v315 main_v317 (Host.sign : (⟨S32768x1, .f32⟩ : BufTy).Contents (Elt F) → (⟨S32768x1, .f32⟩ : BufTy).Contents (Elt F)),
    StableHlo.unary main_v316 main_v318 (Host.sign : (⟨S32768x1, .f32⟩ : BufTy).Contents (Elt F) → (⟨S32768x1, .f32⟩ : BufTy).Contents (Elt F)),
    StableHlo.binary main_v317 main_v318 main_v319 (mulf : (⟨S32768x1, .f32⟩ : BufTy).Contents (Elt F) → (⟨S32768x1, .f32⟩ : BufTy).Contents (Elt F) → (⟨S32768x1, .f32⟩ : BufTy).Contents (Elt F)),
    StableHlo.unary main_v315 main_v320 (Host.absf : (⟨S32768x1, .f32⟩ : BufTy).Contents (Elt F) → (⟨S32768x1, .f32⟩ : BufTy).Contents (Elt F)),
    StableHlo.unary main_v316 main_v321 (Host.absf : (⟨S32768x1, .f32⟩ : BufTy).Contents (Elt F) → (⟨S32768x1, .f32⟩ : BufTy).Contents (Elt F)),
    StableHlo.binary main_v320 main_v321 main_v322 (minimumf : (⟨S32768x1, .f32⟩ : BufTy).Contents (Elt F) → (⟨S32768x1, .f32⟩ : BufTy).Contents (Elt F) → (⟨S32768x1, .f32⟩ : BufTy).Contents (Elt F)),
    StableHlo.binary main_v319 main_v322 main_v323 (mulf : (⟨S32768x1, .f32⟩ : BufTy).Contents (Elt F) → (⟨S32768x1, .f32⟩ : BufTy).Contents (Elt F) → (⟨S32768x1, .f32⟩ : BufTy).Contents (Elt F)),
    StableHlo.nullary main_cst_109 (constant S_ .f32 0x00000000#32),
    StableHlo.unary main_cst_109 main_v324 (broadcastInDim S32768x1 ![] bcast_S_S32768x1 : (⟨S_, .f32⟩ : BufTy).Contents (Elt F) → (⟨S32768x1, .f32⟩ : BufTy).Contents (Elt F)),
    StableHlo.nullary main_cst_110 (constant S_ .f32 0x40000000#32),
    StableHlo.unary main_cst_110 main_v325 (broadcastInDim S32768x1 ![] bcast_S_S32768x1 : (⟨S_, .f32⟩ : BufTy).Contents (Elt F) → (⟨S32768x1, .f32⟩ : BufTy).Contents (Elt F)),
    StableHlo.binary main_v325 main_v324 main_v326 (mulf : (⟨S32768x1, .f32⟩ : BufTy).Contents (Elt F) → (⟨S32768x1, .f32⟩ : BufTy).Contents (Elt F) → (⟨S32768x1, .f32⟩ : BufTy).Contents (Elt F)),
    StableHlo.nullary main_cst_111 (constant S_ .f32 0x3F800000#32),
    StableHlo.unary main_cst_111 main_v327 (broadcastInDim S32768x1 ![] bcast_S_S32768x1 : (⟨S_, .f32⟩ : BufTy).Contents (Elt F) → (⟨S32768x1, .f32⟩ : BufTy).Contents (Elt F)),
    StableHlo.binary main_v327 main_v326 main_v328 (subf : (⟨S32768x1, .f32⟩ : BufTy).Contents (Elt F) → (⟨S32768x1, .f32⟩ : BufTy).Contents (Elt F) → (⟨S32768x1, .f32⟩ : BufTy).Contents (Elt F)),
    StableHlo.binary main_v328 main_v313 main_v329 (mulf : (⟨S32768x1, .f32⟩ : BufTy).Contents (Elt F) → (⟨S32768x1, .f32⟩ : BufTy).Contents (Elt F) → (⟨S32768x1, .f32⟩ : BufTy).Contents (Elt F)),
    StableHlo.binary main_v329 main_v314 main_v330 (addf : (⟨S32768x1, .f32⟩ : BufTy).Contents (Elt F) → (⟨S32768x1, .f32⟩ : BufTy).Contents (Elt F) → (⟨S32768x1, .f32⟩ : BufTy).Contents (Elt F)),
    StableHlo.nullary main_cst_112 (constant S_ .f32 0x00000000#32),
    StableHlo.unary main_cst_112 main_v331 (broadcastInDim S32768x1 ![] bcast_S_S32768x1 : (⟨S_, .f32⟩ : BufTy).Contents (Elt F) → (⟨S32768x1, .f32⟩ : BufTy).Contents (Elt F)),
    StableHlo.binary main_v324 main_v331 main_v332 (cmpf .une : (⟨S32768x1, .f32⟩ : BufTy).Contents (Elt F) → (⟨S32768x1, .f32⟩ : BufTy).Contents (Elt F) → (⟨S32768x1, .i1⟩ : BufTy).Contents (Elt F)),
    StableHlo.unary main_v332 main_v333 (uitofp .f32 : (⟨S32768x1, .i1⟩ : BufTy).Contents (Elt F) → (⟨S32768x1, .f32⟩ : BufTy).Contents (Elt F)),
    StableHlo.binary main_v333 main_v331 main_v334 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v324 main_v331 main_v335 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_113 (constant S_ .f32 0x40000000#32),
    StableHlo.unary main_cst_113 main_v336 (broadcastInDim S32768x2 ![] bcast_S_S32768x2 : (⟨S_, .f32⟩ : BufTy).Contents (Elt F) → (⟨S32768x2, .f32⟩ : BufTy).Contents (Elt F)),
    StableHlo.binary main_v336 main_v334 main_v337 (mulf : (⟨S32768x2, .f32⟩ : BufTy).Contents (Elt F) → (⟨S32768x2, .f32⟩ : BufTy).Contents (Elt F) → (⟨S32768x2, .f32⟩ : BufTy).Contents (Elt F)),
    StableHlo.nullary main_cst_114 (constant S_ .f32 0x3F800000#32),
    StableHlo.unary main_cst_114 main_v338 (broadcastInDim S32768x2 ![] bcast_S_S32768x2 : (⟨S_, .f32⟩ : BufTy).Contents (Elt F) → (⟨S32768x2, .f32⟩ : BufTy).Contents (Elt F)),
    StableHlo.binary main_v338 main_v337 main_v339 (subf : (⟨S32768x2, .f32⟩ : BufTy).Contents (Elt F) → (⟨S32768x2, .f32⟩ : BufTy).Contents (Elt F) → (⟨S32768x2, .f32⟩ : BufTy).Contents (Elt F)),
    StableHlo.binary main_v339 main_v302 main_v340 (mulf : (⟨S32768x2, .f32⟩ : BufTy).Contents (Elt F) → (⟨S32768x2, .f32⟩ : BufTy).Contents (Elt F) → (⟨S32768x2, .f32⟩ : BufTy).Contents (Elt F)),
    StableHlo.binary main_v340 main_v303 main_v341 (addf : (⟨S32768x2, .f32⟩ : BufTy).Contents (Elt F) → (⟨S32768x2, .f32⟩ : BufTy).Contents (Elt F) → (⟨S32768x2, .f32⟩ : BufTy).Contents (Elt F)),
    StableHlo.unary main_v341 main_v342 ((extractStridedSlice S32768x1 ![0, 0] · slices_S32768x2_S32768x1_0_0) : (⟨S32768x2, .f32⟩ : BufTy).Contents (Elt F) → (⟨S32768x1, .f32⟩ : BufTy).Contents (Elt F)),
    StableHlo.unary main_v341 main_v343 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_115 (constant S_ .f32 0xC1F00000#32),
    StableHlo.nullary main_cst_116 (constant S_ .f32 0x41F00000#32),
    StableHlo.TRef.unary (.of main_cst_115 : StableHlo.TRef sig ⟨S_, .f32⟩) main_call36.v0 id,
    StableHlo.TRef.unary main_call36.v0 main_call36.v1 (broadcastInDim S32768x1 ![] bcast_S_S32768x1),
    StableHlo.TRef.binary main_call36.v1 (.of main_v342 : StableHlo.TRef sig ⟨S32768x1, .f32⟩) main_call36.v2 maximumf,
    StableHlo.TRef.unary (.of main_cst_116 : StableHlo.TRef sig ⟨S_, .f32⟩) main_call36.v3 id,
    StableHlo.TRef.unary main_call36.v3 main_call36.v4 (broadcastInDim S32768x1 ![] bcast_S_S32768x1),
    StableHlo.TRef.binary main_call36.v4 main_call36.v2 main_call36.v5 minimumf,
    StableHlo.nullary main_cst_117 (constant S_ .f32 0xC1F00000#32),
    StableHlo.nullary main_cst_118 (constant S_ .f32 0x41F00000#32),
    StableHlo.TRef.unary (.of main_cst_117 : StableHlo.TRef sig ⟨S_, .f32⟩) main_call37.v0 id,
    StableHlo.TRef.unary main_call37.v0 main_call37.v1 (broadcastInDim S32768x1 ![] bcast_S_S32768x1),
    StableHlo.TRef.binary main_call37.v1 (.of main_v343 : StableHlo.TRef sig ⟨S32768x1, .f32⟩) main_call37.v2 maximumf,
    StableHlo.TRef.unary (.of main_cst_118 : StableHlo.TRef sig ⟨S_, .f32⟩) main_call37.v3 id,
    StableHlo.TRef.unary main_call37.v3 main_call37.v4 (broadcastInDim S32768x1 ![] bcast_S_S32768x1),
    StableHlo.TRef.binary main_call37.v4 main_call37.v2 main_call37.v5 minimumf,
    StableHlo.unary main_v344 main_v346 (Host.sign : (⟨S32768x1, .f32⟩ : BufTy).Contents (Elt F) → (⟨S32768x1, .f32⟩ : BufTy).Contents (Elt F)),
    StableHlo.unary main_v345 main_v347 (Host.sign : (⟨S32768x1, .f32⟩ : BufTy).Contents (Elt F) → (⟨S32768x1, .f32⟩ : BufTy).Contents (Elt F)),
    StableHlo.binary main_v346 main_v347 main_v348 (mulf : (⟨S32768x1, .f32⟩ : BufTy).Contents (Elt F) → (⟨S32768x1, .f32⟩ : BufTy).Contents (Elt F) → (⟨S32768x1, .f32⟩ : BufTy).Contents (Elt F)),
    StableHlo.unary main_v344 main_v349 (Host.absf : (⟨S32768x1, .f32⟩ : BufTy).Contents (Elt F) → (⟨S32768x1, .f32⟩ : BufTy).Contents (Elt F)),
    StableHlo.unary main_v345 main_v350 (Host.absf : (⟨S32768x1, .f32⟩ : BufTy).Contents (Elt F) → (⟨S32768x1, .f32⟩ : BufTy).Contents (Elt F)),
    StableHlo.binary main_v349 main_v350 main_v351 (minimumf : (⟨S32768x1, .f32⟩ : BufTy).Contents (Elt F) → (⟨S32768x1, .f32⟩ : BufTy).Contents (Elt F) → (⟨S32768x1, .f32⟩ : BufTy).Contents (Elt F)),
    StableHlo.binary main_v348 main_v351 main_v352 (mulf : (⟨S32768x1, .f32⟩ : BufTy).Contents (Elt F) → (⟨S32768x1, .f32⟩ : BufTy).Contents (Elt F) → (⟨S32768x1, .f32⟩ : BufTy).Contents (Elt F)),
    StableHlo.nullary main_cst_119 (constant S_ .f32 0x00000000#32),
    StableHlo.unary main_cst_119 main_v353 (broadcastInDim S32768x1 ![] bcast_S_S32768x1 : (⟨S_, .f32⟩ : BufTy).Contents (Elt F) → (⟨S32768x1, .f32⟩ : BufTy).Contents (Elt F)),
    StableHlo.nullary main_cst_120 (constant S_ .f32 0x40000000#32),
    StableHlo.unary main_cst_120 main_v354 (broadcastInDim S32768x1 ![] bcast_S_S32768x1 : (⟨S_, .f32⟩ : BufTy).Contents (Elt F) → (⟨S32768x1, .f32⟩ : BufTy).Contents (Elt F)),
    StableHlo.binary main_v354 main_v353 main_v355 (mulf : (⟨S32768x1, .f32⟩ : BufTy).Contents (Elt F) → (⟨S32768x1, .f32⟩ : BufTy).Contents (Elt F) → (⟨S32768x1, .f32⟩ : BufTy).Contents (Elt F)),
    StableHlo.nullary main_cst_121 (constant S_ .f32 0x3F800000#32) ]

set_option maxRecDepth 8192 in
/-- The window is that straight line: each clip function unfolded at its calls, the sequencing reassociated. -/
theorem part_eq_7 (d : Dev nD) : main_part7 (F := F) d = seq ops7 := by
  simp only [main_part7, fn_clip_6.body, seq, bind_assoc, pure_bind]
  rfl

/-- Every operation of the window touches TensorCore references only. -/
theorem sub_7 : (ops7 : List (HloOp τ sig (Elt F))).Forall fun op => op.bufs ⊆ tcRefs τ sig :=
  ⟨unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., nullary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., nullary_bufs_sub .., unary_bufs_sub ..,
    binary_bufs_sub .., nullary_bufs_sub ..⟩

/-- Every operation of the window determines all it writes. -/
theorem fresh_7 : (ops7 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_7 (V : Valuation τ sig (Elt F)) :
    after ops7 V (main_arg0 : DevRef τ sig) = V (main_arg0 : DevRef τ sig) := by
  simp only [after_cons, after_nil]
  rfl

end Cert.ReferenceIdeal.RefRun

end
-- ==== Proof.RefRun.W01.lean ====
import proofs.«134088_j24077586662034_2_alg».proof.Defs
import proofs.«134088_j24077586662034_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 481 … 540, in order (80 of them): a statement's own operation, or, for a call
    of a clip function, the six operations of its body over that call's buffers. -/
abbrev ops8 : List (HloOp τ sig (Elt F)) :=
  [ StableHlo.unary main_cst_121 main_v356 (broadcastInDim S32768x1 ![] bcast_S_S32768x1 : (⟨S_, .f32⟩ : BufTy).Contents (Elt F) → (⟨S32768x1, .f32⟩ : BufTy).Contents (Elt F)),
    StableHlo.binary main_v356 main_v355 main_v357 (subf : (⟨S32768x1, .f32⟩ : BufTy).Contents (Elt F) → (⟨S32768x1, .f32⟩ : BufTy).Contents (Elt F) → (⟨S32768x1, .f32⟩ : BufTy).Contents (Elt F)),
    StableHlo.binary main_v357 main_v342 main_v358 (mulf : (⟨S32768x1, .f32⟩ : BufTy).Contents (Elt F) → (⟨S32768x1, .f32⟩ : BufTy).Contents (Elt F) → (⟨S32768x1, .f32⟩ : BufTy).Contents (Elt F)),
    StableHlo.binary main_v358 main_v343 main_v359 (addf : (⟨S32768x1, .f32⟩ : BufTy).Contents (Elt F) → (⟨S32768x1, .f32⟩ : BufTy).Contents (Elt F) → (⟨S32768x1, .f32⟩ : BufTy).Contents (Elt F)),
    StableHlo.nullary main_cst_122 (constant S_ .f32 0x00000000#32),
    StableHlo.unary main_cst_122 main_v360 (broadcastInDim S32768x1 ![] bcast_S_S32768x1 : (⟨S_, .f32⟩ : BufTy).Contents (Elt F) → (⟨S32768x1, .f32⟩ : BufTy).Contents (Elt F)),
    StableHlo.binary main_v353 main_v360 main_v361 (cmpf .une : (⟨S32768x1, .f32⟩ : BufTy).Contents (Elt F) → (⟨S32768x1, .f32⟩ : BufTy).Contents (Elt F) → (⟨S32768x1, .i1⟩ : BufTy).Contents (Elt F)),
    StableHlo.unary main_v361 main_v362 (uitofp .f32 : (⟨S32768x1, .i1⟩ : BufTy).Contents (Elt F) → (⟨S32768x1, .f32⟩ : BufTy).Contents (Elt F)),
    StableHlo.binary main_v362 main_v360 main_v363 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v353 main_v360 main_v364 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v334 main_v363 main_v365 (cmpf .une : (⟨S32768x2, .f32⟩ : BufTy).Contents (Elt F) → (⟨S32768x2, .f32⟩ : BufTy).Contents (Elt F) → (⟨S32768x2, .i1⟩ : BufTy).Contents (Elt F)),
    StableHlo.unary main_v365 main_v366 (uitofp .f32 : (⟨S32768x2, .i1⟩ : BufTy).Contents (Elt F) → (⟨S32768x2, .f32⟩ : BufTy).Contents (Elt F)),
    StableHlo.binary main_v366 main_v363 main_v367 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v335 main_v364 main_v368 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v294 main_v367 main_v369 (cmpf .une : (⟨S32768x4, .f32⟩ : BufTy).Contents (Elt F) → (⟨S32768x4, .f32⟩ : BufTy).Contents (Elt F) → (⟨S32768x4, .i1⟩ : BufTy).Contents (Elt F)),
    StableHlo.unary main_v369 main_v370 (uitofp .f32 : (⟨S32768x4, .i1⟩ : BufTy).Contents (Elt F) → (⟨S32768x4, .f32⟩ : BufTy).Contents (Elt F)),
    StableHlo.binary main_v370 main_v367 main_v371 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v295 main_v368 main_v372 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v210 main_v371 main_v373 (cmpf .une : (⟨S32768x8, .f32⟩ : BufTy).Contents (Elt F) → (⟨S32768x8, .f32⟩ : BufTy).Contents (Elt F) → (⟨S32768x8, .i1⟩ : BufTy).Contents (Elt F)),
    StableHlo.unary main_v373 main_v374 (uitofp .f32 : (⟨S32768x8, .i1⟩ : BufTy).Contents (Elt F) → (⟨S32768x8, .f32⟩ : BufTy).Contents (Elt F)),
    StableHlo.binary main_v374 main_v371 main_v375 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v211 main_v372 main_v376 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.nullary main_cst_123 (constant S_ .f32 0x40000000#32),
    StableHlo.unary main_cst_123 main_v377 (broadcastInDim S32768x16 ![] bcast_S_S32768x16 : (⟨S_, .f32⟩ : BufTy).Contents (Elt F) → (⟨S32768x16, .f32⟩ : BufTy).Contents (Elt F)),
    StableHlo.binary main_v377 main_v375 main_v378 (mulf : (⟨S32768x16, .f32⟩ : BufTy).Contents (Elt F) → (⟨S32768x16, .f32⟩ : BufTy).Contents (Elt F) → (⟨S32768x16, .f32⟩ : BufTy).Contents (Elt F)),
    StableHlo.nullary main_cst_124 (constant S_ .f32 0x3F800000#32),
    StableHlo.unary main_cst_124 main_v379 (broadcastInDim S32768x16 ![] bcast_S_S32768x16 : (⟨S_, .f32⟩ : BufTy).Contents (Elt F) → (⟨S32768x16, .f32⟩ : BufTy).Contents (Elt F)),
    StableHlo.binary main_v379 main_v378 main_v380 (subf : (⟨S32768x16, .f32⟩ : BufTy).Contents (Elt F) → (⟨S32768x16, .f32⟩ : BufTy).Contents (Elt F) → (⟨S32768x16, .f32⟩ : BufTy).Contents (Elt F)),
    StableHlo.binary main_v380 main_v35 main_v381 (mulf : (⟨S32768x16, .f32⟩ : BufTy).Contents (Elt F) → (⟨S32768x16, .f32⟩ : BufTy).Contents (Elt F) → (⟨S32768x16, .f32⟩ : BufTy).Contents (Elt F)),
    StableHlo.binary main_v381 main_v36 main_v382 (addf : (⟨S32768x16, .f32⟩ : BufTy).Contents (Elt F) → (⟨S32768x16, .f32⟩ : BufTy).Contents (Elt F) → (⟨S32768x16, .f32⟩ : BufTy).Contents (Elt F)),
    StableHlo.unary main_v382 main_v383 ((extractStridedSlice S32768x8 ![0, 0] · slices_S32768x16_S32768x8_0_0) : (⟨S32768x16, .f32⟩ : BufTy).Contents (Elt F) → (⟨S32768x8, .f32⟩ : BufTy).Contents (Elt F)),
    StableHlo.unary main_v382 main_v384 ((extractStridedSlice S32768x8 ![0, 8] · slices_S32768x16_S32768x8_0_8) : (⟨S32768x16, .f32⟩ : BufTy).Contents (Elt F) → (⟨S32768x8, .f32⟩ : BufTy).Contents (Elt F)),
    StableHlo.nullary main_cst_125 (constant S_ .f32 0xC1F00000#32),
    StableHlo.nullary main_cst_126 (constant S_ .f32 0x41F00000#32),
    StableHlo.TRef.unary (.of main_cst_125 : StableHlo.TRef sig ⟨S_, .f32⟩) main_call38.v0 id,
    StableHlo.TRef.unary main_call38.v0 main_call38.v1 (broadcastInDim S32768x8 ![] bcast_S_S32768x8),
    StableHlo.TRef.binary main_call38.v1 (.of main_v383 : StableHlo.TRef sig ⟨S32768x8, .f32⟩) main_call38.v2 maximumf,
    StableHlo.TRef.unary (.of main_cst_126 : StableHlo.TRef sig ⟨S_, .f32⟩) main_call38.v3 id,
    StableHlo.TRef.unary main_call38.v3 main_call38.v4 (broadcastInDim S32768x8 ![] bcast_S_S32768x8),
    StableHlo.TRef.binary main_call38.v4 main_call38.v2 main_call38.v5 minimumf,
    StableHlo.nullary main_cst_127 (constant S_ .f32 0xC1F00000#32),
    StableHlo.nullary main_cst_128 (constant S_ .f32 0x41F00000#32),
    StableHlo.TRef.unary (.of main_cst_127 : StableHlo.TRef sig ⟨S_, .f32⟩) main_call39.v0 id,
    StableHlo.TRef.unary main_call39.v0 main_call39.v1 (broadcastInDim S32768x8 ![] bcast_S_S32768x8),
    StableHlo.TRef.binary main_call39.v1 (.of main_v384 : StableHlo.TRef sig ⟨S32768x8, .f32⟩) main_call39.v2 maximumf,
    StableHlo.TRef.unary (.of main_cst_128 : StableHlo.TRef sig ⟨S_, .f32⟩) main_call39.v3 id,
    StableHlo.TRef.unary main_call39.v3 main_call39.v4 (broadcastInDim S32768x8 ![] bcast_S_S32768x8),
    StableHlo.TRef.binary main_call39.v4 main_call39.v2 main_call39.v5 minimumf,
    StableHlo.unary main_v385 main_v387 (Host.sign : (⟨S32768x8, .f32⟩ : BufTy).Contents (Elt F) → (⟨S32768x8, .f32⟩ : BufTy).Contents (Elt F)),
    StableHlo.unary main_v386 main_v388 (Host.sign : (⟨S32768x8, .f32⟩ : BufTy).Contents (Elt F) → (⟨S32768x8, .f32⟩ : BufTy).Contents (Elt F)),
    StableHlo.binary main_v387 main_v388 main_v389 (mulf : (⟨S32768x8, .f32⟩ : BufTy).Contents (Elt F) → (⟨S32768x8, .f32⟩ : BufTy).Contents (Elt F) → (⟨S32768x8, .f32⟩ : BufTy).Contents (Elt F)),
    StableHlo.unary main_v385 main_v390 (Host.absf : (⟨S32768x8, .f32⟩ : BufTy).Contents (Elt F) → (⟨S32768x8, .f32⟩ : BufTy).Contents (Elt F)),
    StableHlo.unary main_v386 main_v391 (Host.absf : (⟨S32768x8, .f32⟩ : BufTy).Contents (Elt F) → (⟨S32768x8, .f32⟩ : BufTy).Contents (Elt F)),
    StableHlo.binary main_v390 main_v391 main_v392 (minimumf : (⟨S32768x8, .f32⟩ : BufTy).Contents (Elt F) → (⟨S32768x8, .f32⟩ : BufTy).Contents (Elt F) → (⟨S32768x8, .f32⟩ : BufTy).Contents (Elt F)),
    StableHlo.binary main_v389 main_v392 main_v393 (mulf : (⟨S32768x8, .f32⟩ : BufTy).Contents (Elt F) → (⟨S32768x8, .f32⟩ : BufTy).Contents (Elt F) → (⟨S32768x8, .f32⟩ : BufTy).Contents (Elt F)),
    StableHlo.unary main_v393 main_v394 ((extractStridedSlice S32768x4 ![0, 0] · slices_S32768x8_S32768x4_0_0) : (⟨S32768x8, .f32⟩ : BufTy).Contents (Elt F) → (⟨S32768x4, .f32⟩ : BufTy).Contents (Elt F)),
    StableHlo.unary main_v393 main_v395 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_129 (constant S_ .f32 0xC1F00000#32),
    StableHlo.nullary main_cst_130 (constant S_ .f32 0x41F00000#32),
    StableHlo.TRef.unary (.of main_cst_129 : StableHlo.TRef sig ⟨S_, .f32⟩) main_call40.v0 id,
    StableHlo.TRef.unary main_call40.v0 main_call40.v1 (broadcastInDim S32768x4 ![] bcast_S_S32768x4),
    StableHlo.TRef.binary main_call40.v1 (.of main_v394 : StableHlo.TRef sig ⟨S32768x4, .f32⟩) main_call40.v2 maximumf,
    StableHlo.TRef.unary (.of main_cst_130 : StableHlo.TRef sig ⟨S_, .f32⟩) main_call40.v3 id,
    StableHlo.TRef.unary main_call40.v3 main_call40.v4 (broadcastInDim S32768x4 ![] bcast_S_S32768x4),
    StableHlo.TRef.binary main_call40.v4 main_call40.v2 main_call40.v5 minimumf,
    StableHlo.nullary main_cst_131 (constant S_ .f32 0xC1F00000#32),
    StableHlo.nullary main_cst_132 (constant S_ .f32 0x41F00000#32),
    StableHlo.TRef.unary (.of main_cst_131 : StableHlo.TRef sig ⟨S_, .f32⟩) main_call41.v0 id,
    StableHlo.TRef.unary main_call41.v0 main_call41.v1 (broadcastInDim S32768x4 ![] bcast_S_S32768x4),
    StableHlo.TRef.binary main_call41.v1 (.of main_v395 : StableHlo.TRef sig ⟨S32768x4, .f32⟩) main_call41.v2 maximumf,
    StableHlo.TRef.unary (.of main_cst_132 : StableHlo.TRef sig ⟨S_, .f32⟩) main_call41.v3 id,
    StableHlo.TRef.unary main_call41.v3 main_call41.v4 (broadcastInDim S32768x4 ![] bcast_S_S32768x4),
    StableHlo.TRef.binary main_call41.v4 main_call41.v2 main_call41.v5 minimumf,
    StableHlo.unary main_v396 main_v398 (Host.sign : (⟨S32768x4, .f32⟩ : BufTy).Contents (Elt F) → (⟨S32768x4, .f32⟩ : BufTy).Contents (Elt F)),
    StableHlo.unary main_v397 main_v399 (Host.sign : (⟨S32768x4, .f32⟩ : BufTy).Contents (Elt F) → (⟨S32768x4, .f32⟩ : BufTy).Contents (Elt F)),
    StableHlo.binary main_v398 main_v399 main_v400 (mulf : (⟨S32768x4, .f32⟩ : BufTy).Contents (Elt F) → (⟨S32768x4, .f32⟩ : BufTy).Contents (Elt F) → (⟨S32768x4, .f32⟩ : BufTy).Contents (Elt F)),
    StableHlo.unary main_v396 main_v401 (Host.absf : (⟨S32768x4, .f32⟩ : BufTy).Contents (Elt F) → (⟨S32768x4, .f32⟩ : BufTy).Contents (Elt F)),
    StableHlo.unary main_v397 main_v402 (Host.absf : (⟨S32768x4, .f32⟩ : BufTy).Contents (Elt F) → (⟨S32768x4, .f32⟩ : BufTy).Contents (Elt F)),
    StableHlo.binary main_v401 main_v402 main_v403 (minimumf : (⟨S32768x4, .f32⟩ : BufTy).Contents (Elt F) → (⟨S32768x4, .f32⟩ : BufTy).Contents (Elt F) → (⟨S32768x4, .f32⟩ : BufTy).Contents (Elt F)),
    StableHlo.binary main_v400 main_v403 main_v404 (mulf : (⟨S32768x4, .f32⟩ : BufTy).Contents (Elt F) → (⟨S32768x4, .f32⟩ : BufTy).Contents (Elt F) → (⟨S32768x4, .f32⟩ : BufTy).Contents (Elt F)) ]

set_option maxRecDepth 8192 in
/-- The window is that straight line: each clip function unfolded at its calls, the sequencing reassociated. -/
theorem part_eq_8 (d : Dev nD) : main_part8 (F := F) d = seq ops8 := by
  simp only [main_part8, fn_clip_3.body, fn_clip_4.body, seq, bind_assoc, pure_bind]
  rfl

/-- Every operation of the window touches TensorCore references only. -/
theorem sub_8 : (ops8 : List (HloOp τ sig (Elt F))).Forall fun op => op.bufs ⊆ tcRefs τ sig :=
  ⟨unary_bufs_sub .., binary_bufs_sub .., binary_bufs_sub .., binary_bufs_sub .., nullary_bufs_sub .., unary_bufs_sub ..,
    binary_bufs_sub .., unary_bufs_sub .., binary_bufs_sub .., binary_bufs_sub .., binary_bufs_sub .., unary_bufs_sub ..,
    binary_bufs_sub .., binary_bufs_sub .., binary_bufs_sub .., unary_bufs_sub .., binary_bufs_sub .., binary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub ..⟩

/-- Every operation of the window determines all it writes. -/
theorem fresh_8 : (ops8 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_8 (V : Valuation τ sig (Elt F)) :
    after ops8 V (main_arg0 : DevRef τ sig) = V (main_arg0 : DevRef τ sig) := by
  simp only [after_cons, after_nil]
  rfl

/-- The operations of @main's statements 541 … 600, in order (85 of them): a statement's own operation, or, for a call
    of a clip function, the six operations of its body over that call's buffers. -/
abbrev ops9 : List (HloOp τ sig (Elt F)) :=
  [ StableHlo.unary main_v404 main_v405 ((extractStridedSlice S32768x2 ![0, 0] · slices_S32768x4_S32768x2_0_0) : (⟨S32768x4, .f32⟩ : BufTy).Contents (Elt F) → (⟨S32768x2, .f32⟩ : BufTy).Contents (Elt F)),
    StableHlo.unary main_v404 main_v406 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_133 (constant S_ .f32 0xC1F00000#32),
    StableHlo.nullary main_cst_134 (constant S_ .f32 0x41F00000#32),
    StableHlo.TRef.unary (.of main_cst_133 : StableHlo.TRef sig ⟨S_, .f32⟩) main_call42.v0 id,
    StableHlo.TRef.unary main_call42.v0 main_call42.v1 (broadcastInDim S32768x2 ![] bcast_S_S32768x2),
    StableHlo.TRef.binary main_call42.v1 (.of main_v405 : StableHlo.TRef sig ⟨S32768x2, .f32⟩) main_call42.v2 maximumf,
    StableHlo.TRef.unary (.of main_cst_134 : StableHlo.TRef sig ⟨S_, .f32⟩) main_call42.v3 id,
    StableHlo.TRef.unary main_call42.v3 main_call42.v4 (broadcastInDim S32768x2 ![] bcast_S_S32768x2),
    StableHlo.TRef.binary main_call42.v4 main_call42.v2 main_call42.v5 minimumf,
    StableHlo.nullary main_cst_135 (constant S_ .f32 0xC1F00000#32),
    StableHlo.nullary main_cst_136 (constant S_ .f32 0x41F00000#32),
    StableHlo.TRef.unary (.of main_cst_135 : StableHlo.TRef sig ⟨S_, .f32⟩) main_call43.v0 id,
    StableHlo.TRef.unary main_call43.v0 main_call43.v1 (broadcastInDim S32768x2 ![] bcast_S_S32768x2),
    StableHlo.TRef.binary main_call43.v1 (.of main_v406 : StableHlo.TRef sig ⟨S32768x2, .f32⟩) main_call43.v2 maximumf,
    StableHlo.TRef.unary (.of main_cst_136 : StableHlo.TRef sig ⟨S_, .f32⟩) main_call43.v3 id,
    StableHlo.TRef.unary main_call43.v3 main_call43.v4 (broadcastInDim S32768x2 ![] bcast_S_S32768x2),
    StableHlo.TRef.binary main_call43.v4 main_call43.v2 main_call43.v5 minimumf,
    StableHlo.unary main_v407 main_v409 (Host.sign : (⟨S32768x2, .f32⟩ : BufTy).Contents (Elt F) → (⟨S32768x2, .f32⟩ : BufTy).Contents (Elt F)),
    StableHlo.unary main_v408 main_v410 (Host.sign : (⟨S32768x2, .f32⟩ : BufTy).Contents (Elt F) → (⟨S32768x2, .f32⟩ : BufTy).Contents (Elt F)),
    StableHlo.binary main_v409 main_v410 main_v411 (mulf : (⟨S32768x2, .f32⟩ : BufTy).Contents (Elt F) → (⟨S32768x2, .f32⟩ : BufTy).Contents (Elt F) → (⟨S32768x2, .f32⟩ : BufTy).Contents (Elt F)),
    StableHlo.unary main_v407 main_v412 (Host.absf : (⟨S32768x2, .f32⟩ : BufTy).Contents (Elt F) → (⟨S32768x2, .f32⟩ : BufTy).Contents (Elt F)),
    StableHlo.unary main_v408 main_v413 (Host.absf : (⟨S32768x2, .f32⟩ : BufTy).Contents (Elt F) → (⟨S32768x2, .f32⟩ : BufTy).Contents (Elt F)),
    StableHlo.binary main_v412 main_v413 main_v414 (minimumf : (⟨S32768x2, .f32⟩ : BufTy).Contents (Elt F) → (⟨S32768x2, .f32⟩ : BufTy).Contents (Elt F) → (⟨S32768x2, .f32⟩ : BufTy).Contents (Elt F)),
    StableHlo.binary main_v411 main_v414 main_v415 (mulf : (⟨S32768x2, .f32⟩ : BufTy).Contents (Elt F) → (⟨S32768x2, .f32⟩ : BufTy).Contents (Elt F) → (⟨S32768x2, .f32⟩ : BufTy).Contents (Elt F)),
    StableHlo.unary main_v415 main_v416 ((extractStridedSlice S32768x1 ![0, 0] · slices_S32768x2_S32768x1_0_0) : (⟨S32768x2, .f32⟩ : BufTy).Contents (Elt F) → (⟨S32768x1, .f32⟩ : BufTy).Contents (Elt F)),
    StableHlo.unary main_v415 main_v417 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_137 (constant S_ .f32 0xC1F00000#32),
    StableHlo.nullary main_cst_138 (constant S_ .f32 0x41F00000#32),
    StableHlo.TRef.unary (.of main_cst_137 : StableHlo.TRef sig ⟨S_, .f32⟩) main_call44.v0 id,
    StableHlo.TRef.unary main_call44.v0 main_call44.v1 (broadcastInDim S32768x1 ![] bcast_S_S32768x1),
    StableHlo.TRef.binary main_call44.v1 (.of main_v416 : StableHlo.TRef sig ⟨S32768x1, .f32⟩) main_call44.v2 maximumf,
    StableHlo.TRef.unary (.of main_cst_138 : StableHlo.TRef sig ⟨S_, .f32⟩) main_call44.v3 id,
    StableHlo.TRef.unary main_call44.v3 main_call44.v4 (broadcastInDim S32768x1 ![] bcast_S_S32768x1),
    StableHlo.TRef.binary main_call44.v4 main_call44.v2 main_call44.v5 minimumf,
    StableHlo.nullary main_cst_139 (constant S_ .f32 0xC1F00000#32),
    StableHlo.nullary main_cst_140 (constant S_ .f32 0x41F00000#32),
    StableHlo.TRef.unary (.of main_cst_139 : StableHlo.TRef sig ⟨S_, .f32⟩) main_call45.v0 id,
    StableHlo.TRef.unary main_call45.v0 main_call45.v1 (broadcastInDim S32768x1 ![] bcast_S_S32768x1),
    StableHlo.TRef.binary main_call45.v1 (.of main_v417 : StableHlo.TRef sig ⟨S32768x1, .f32⟩) main_call45.v2 maximumf,
    StableHlo.TRef.unary (.of main_cst_140 : StableHlo.TRef sig ⟨S_, .f32⟩) main_call45.v3 id,
    StableHlo.TRef.unary main_call45.v3 main_call45.v4 (broadcastInDim S32768x1 ![] bcast_S_S32768x1),
    StableHlo.TRef.binary main_call45.v4 main_call45.v2 main_call45.v5 minimumf,
    StableHlo.unary main_v418 main_v420 (Host.sign : (⟨S32768x1, .f32⟩ : BufTy).Contents (Elt F) → (⟨S32768x1, .f32⟩ : BufTy).Contents (Elt F)),
    StableHlo.unary main_v419 main_v421 (Host.sign : (⟨S32768x1, .f32⟩ : BufTy).Contents (Elt F) → (⟨S32768x1, .f32⟩ : BufTy).Contents (Elt F)),
    StableHlo.binary main_v420 main_v421 main_v422 (mulf : (⟨S32768x1, .f32⟩ : BufTy).Contents (Elt F) → (⟨S32768x1, .f32⟩ : BufTy).Contents (Elt F) → (⟨S32768x1, .f32⟩ : BufTy).Contents (Elt F)),
    StableHlo.unary main_v418 main_v423 (Host.absf : (⟨S32768x1, .f32⟩ : BufTy).Contents (Elt F) → (⟨S32768x1, .f32⟩ : BufTy).Contents (Elt F)),
    StableHlo.unary main_v419 main_v424 (Host.absf : (⟨S32768x1, .f32⟩ : BufTy).Contents (Elt F) → (⟨S32768x1, .f32⟩ : BufTy).Contents (Elt F)),
    StableHlo.binary main_v423 main_v424 main_v425 (minimumf : (⟨S32768x1, .f32⟩ : BufTy).Contents (Elt F) → (⟨S32768x1, .f32⟩ : BufTy).Contents (Elt F) → (⟨S32768x1, .f32⟩ : BufTy).Contents (Elt F)),
    StableHlo.binary main_v422 main_v425 main_v426 (mulf : (⟨S32768x1, .f32⟩ : BufTy).Contents (Elt F) → (⟨S32768x1, .f32⟩ : BufTy).Contents (Elt F) → (⟨S32768x1, .f32⟩ : BufTy).Contents (Elt F)),
    StableHlo.nullary main_cst_141 (constant S_ .f32 0x00000000#32),
    StableHlo.unary main_cst_141 main_v427 (broadcastInDim S32768x1 ![] bcast_S_S32768x1 : (⟨S_, .f32⟩ : BufTy).Contents (Elt F) → (⟨S32768x1, .f32⟩ : BufTy).Contents (Elt F)),
    StableHlo.nullary main_cst_142 (constant S_ .f32 0x40000000#32),
    StableHlo.unary main_cst_142 main_v428 (broadcastInDim S32768x1 ![] bcast_S_S32768x1 : (⟨S_, .f32⟩ : BufTy).Contents (Elt F) → (⟨S32768x1, .f32⟩ : BufTy).Contents (Elt F)),
    StableHlo.binary main_v428 main_v427 main_v429 (mulf : (⟨S32768x1, .f32⟩ : BufTy).Contents (Elt F) → (⟨S32768x1, .f32⟩ : BufTy).Contents (Elt F) → (⟨S32768x1, .f32⟩ : BufTy).Contents (Elt F)),
    StableHlo.nullary main_cst_143 (constant S_ .f32 0x3F800000#32),
    StableHlo.unary main_cst_143 main_v430 (broadcastInDim S32768x1 ![] bcast_S_S32768x1 : (⟨S_, .f32⟩ : BufTy).Contents (Elt F) → (⟨S32768x1, .f32⟩ : BufTy).Contents (Elt F)),
    StableHlo.binary main_v430 main_v429 main_v431 (subf : (⟨S32768x1, .f32⟩ : BufTy).Contents (Elt F) → (⟨S32768x1, .f32⟩ : BufTy).Contents (Elt F) → (⟨S32768x1, .f32⟩ : BufTy).Contents (Elt F)),
    StableHlo.binary main_v431 main_v416 main_v432 (mulf : (⟨S32768x1, .f32⟩ : BufTy).Contents (Elt F) → (⟨S32768x1, .f32⟩ : BufTy).Contents (Elt F) → (⟨S32768x1, .f32⟩ : BufTy).Contents (Elt F)),
    StableHlo.binary main_v432 main_v417 main_v433 (addf : (⟨S32768x1, .f32⟩ : BufTy).Contents (Elt F) → (⟨S32768x1, .f32⟩ : BufTy).Contents (Elt F) → (⟨S32768x1, .f32⟩ : BufTy).Contents (Elt F)),
    StableHlo.nullary main_cst_144 (constant S_ .f32 0x00000000#32),
    StableHlo.unary main_cst_144 main_v434 (broadcastInDim S32768x1 ![] bcast_S_S32768x1 : (⟨S_, .f32⟩ : BufTy).Contents (Elt F) → (⟨S32768x1, .f32⟩ : BufTy).Contents (Elt F)),
    StableHlo.binary main_v427 main_v434 main_v435 (cmpf .une : (⟨S32768x1, .f32⟩ : BufTy).Contents (Elt F) → (⟨S32768x1, .f32⟩ : BufTy).Contents (Elt F) → (⟨S32768x1, .i1⟩ : BufTy).Contents (Elt F)),
    StableHlo.unary main_v435 main_v436 (uitofp .f32 : (⟨S32768x1, .i1⟩ : BufTy).Contents (Elt F) → (⟨S32768x1, .f32⟩ : BufTy).Contents (Elt F)),
    StableHlo.binary main_v436 main_v434 main_v437 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v427 main_v434 main_v438 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_145 (constant S_ .f32 0x40000000#32),
    StableHlo.unary main_cst_145 main_v439 (broadcastInDim S32768x2 ![] bcast_S_S32768x2 : (⟨S_, .f32⟩ : BufTy).Contents (Elt F) → (⟨S32768x2, .f32⟩ : BufTy).Contents (Elt F)),
    StableHlo.binary main_v439 main_v437 main_v440 (mulf : (⟨S32768x2, .f32⟩ : BufTy).Contents (Elt F) → (⟨S32768x2, .f32⟩ : BufTy).Contents (Elt F) → (⟨S32768x2, .f32⟩ : BufTy).Contents (Elt F)),
    StableHlo.nullary main_cst_146 (constant S_ .f32 0x3F800000#32),
    StableHlo.unary main_cst_146 main_v441 (broadcastInDim S32768x2 ![] bcast_S_S32768x2 : (⟨S_, .f32⟩ : BufTy).Contents (Elt F) → (⟨S32768x2, .f32⟩ : BufTy).Contents (Elt F)),
    StableHlo.binary main_v441 main_v440 main_v442 (subf : (⟨S32768x2, .f32⟩ : BufTy).Contents (Elt F) → (⟨S32768x2, .f32⟩ : BufTy).Contents (Elt F) → (⟨S32768x2, .f32⟩ : BufTy).Contents (Elt F)),
    StableHlo.binary main_v442 main_v405 main_v443 (mulf : (⟨S32768x2, .f32⟩ : BufTy).Contents (Elt F) → (⟨S32768x2, .f32⟩ : BufTy).Contents (Elt F) → (⟨S32768x2, .f32⟩ : BufTy).Contents (Elt F)),
    StableHlo.binary main_v443 main_v406 main_v444 (addf : (⟨S32768x2, .f32⟩ : BufTy).Contents (Elt F) → (⟨S32768x2, .f32⟩ : BufTy).Contents (Elt F) → (⟨S32768x2, .f32⟩ : BufTy).Contents (Elt F)),
    StableHlo.unary main_v444 main_v445 ((extractStridedSlice S32768x1 ![0, 0] · slices_S32768x2_S32768x1_0_0) : (⟨S32768x2, .f32⟩ : BufTy).Contents (Elt F) → (⟨S32768x1, .f32⟩ : BufTy).Contents (Elt F)),
    StableHlo.unary main_v444 main_v446 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_147 (constant S_ .f32 0xC1F00000#32),
    StableHlo.nullary main_cst_148 (constant S_ .f32 0x41F00000#32),
    StableHlo.TRef.unary (.of main_cst_147 : StableHlo.TRef sig ⟨S_, .f32⟩) main_call46.v0 id,
    StableHlo.TRef.unary main_call46.v0 main_call46.v1 (broadcastInDim S32768x1 ![] bcast_S_S32768x1),
    StableHlo.TRef.binary main_call46.v1 (.of main_v445 : StableHlo.TRef sig ⟨S32768x1, .f32⟩) main_call46.v2 maximumf,
    StableHlo.TRef.unary (.of main_cst_148 : StableHlo.TRef sig ⟨S_, .f32⟩) main_call46.v3 id,
    StableHlo.TRef.unary main_call46.v3 main_call46.v4 (broadcastInDim S32768x1 ![] bcast_S_S32768x1),
    StableHlo.TRef.binary main_call46.v4 main_call46.v2 main_call46.v5 minimumf,
    StableHlo.nullary main_cst_149 (constant S_ .f32 0xC1F00000#32) ]

set_option maxRecDepth 8192 in
/-- The window is that straight line: each clip function unfolded at its calls, the sequencing reassociated. -/
theorem part_eq_9 (d : Dev nD) : main_part9 (F := F) d = seq ops9 := by
  simp only [main_part9, fn_clip_5.body, fn_clip_6.body, seq, bind_assoc, pure_bind]
  rfl

/-- Every operation of the window touches TensorCore references only. -/
theorem sub_9 : (ops9 : List (HloOp τ sig (Elt F))).Forall fun op => op.bufs ⊆ tcRefs τ sig :=
  ⟨unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., nullary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub ..⟩

/-- Every operation of the window determines all it writes. -/
theorem fresh_9 : (ops9 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_9 (V : Valuation τ sig (Elt F)) :
    after ops9 V (main_arg0 : DevRef τ sig) = V (main_arg0 : DevRef τ sig) := by
  simp only [after_cons, after_nil]
  rfl

/-- The operations of @main's statements 601 … 660, in order (85 of them): a statement's own operation, or, for a call
    of a clip function, the six operations of its body over that call's buffers. -/
abbrev ops10 : List (HloOp τ sig (Elt F)) :=
  [ StableHlo.nullary main_cst_150 (constant S_ .f32 0x41F00000#32),
    StableHlo.TRef.unary (.of main_cst_149 : StableHlo.TRef sig ⟨S_, .f32⟩) main_call47.v0 id,
    StableHlo.TRef.unary main_call47.v0 main_call47.v1 (broadcastInDim S32768x1 ![] bcast_S_S32768x1),
    StableHlo.TRef.binary main_call47.v1 (.of main_v446 : StableHlo.TRef sig ⟨S32768x1, .f32⟩) main_call47.v2 maximumf,
    StableHlo.TRef.unary (.of main_cst_150 : StableHlo.TRef sig ⟨S_, .f32⟩) main_call47.v3 id,
    StableHlo.TRef.unary main_call47.v3 main_call47.v4 (broadcastInDim S32768x1 ![] bcast_S_S32768x1),
    StableHlo.TRef.binary main_call47.v4 main_call47.v2 main_call47.v5 minimumf,
    StableHlo.unary main_v447 main_v449 (Host.sign : (⟨S32768x1, .f32⟩ : BufTy).Contents (Elt F) → (⟨S32768x1, .f32⟩ : BufTy).Contents (Elt F)),
    StableHlo.unary main_v448 main_v450 (Host.sign : (⟨S32768x1, .f32⟩ : BufTy).Contents (Elt F) → (⟨S32768x1, .f32⟩ : BufTy).Contents (Elt F)),
    StableHlo.binary main_v449 main_v450 main_v451 (mulf : (⟨S32768x1, .f32⟩ : BufTy).Contents (Elt F) → (⟨S32768x1, .f32⟩ : BufTy).Contents (Elt F) → (⟨S32768x1, .f32⟩ : BufTy).Contents (Elt F)),
    StableHlo.unary main_v447 main_v452 (Host.absf : (⟨S32768x1, .f32⟩ : BufTy).Contents (Elt F) → (⟨S32768x1, .f32⟩ : BufTy).Contents (Elt F)),
    StableHlo.unary main_v448 main_v453 (Host.absf : (⟨S32768x1, .f32⟩ : BufTy).Contents (Elt F) → (⟨S32768x1, .f32⟩ : BufTy).Contents (Elt F)),
    StableHlo.binary main_v452 main_v453 main_v454 (minimumf : (⟨S32768x1, .f32⟩ : BufTy).Contents (Elt F) → (⟨S32768x1, .f32⟩ : BufTy).Contents (Elt F) → (⟨S32768x1, .f32⟩ : BufTy).Contents (Elt F)),
    StableHlo.binary main_v451 main_v454 main_v455 (mulf : (⟨S32768x1, .f32⟩ : BufTy).Contents (Elt F) → (⟨S32768x1, .f32⟩ : BufTy).Contents (Elt F) → (⟨S32768x1, .f32⟩ : BufTy).Contents (Elt F)),
    StableHlo.nullary main_cst_151 (constant S_ .f32 0x00000000#32),
    StableHlo.unary main_cst_151 main_v456 (broadcastInDim S32768x1 ![] bcast_S_S32768x1 : (⟨S_, .f32⟩ : BufTy).Contents (Elt F) → (⟨S32768x1, .f32⟩ : BufTy).Contents (Elt F)),
    StableHlo.nullary main_cst_152 (constant S_ .f32 0x40000000#32),
    StableHlo.unary main_cst_152 main_v457 (broadcastInDim S32768x1 ![] bcast_S_S32768x1 : (⟨S_, .f32⟩ : BufTy).Contents (Elt F) → (⟨S32768x1, .f32⟩ : BufTy).Contents (Elt F)),
    StableHlo.binary main_v457 main_v456 main_v458 (mulf : (⟨S32768x1, .f32⟩ : BufTy).Contents (Elt F) → (⟨S32768x1, .f32⟩ : BufTy).Contents (Elt F) → (⟨S32768x1, .f32⟩ : BufTy).Contents (Elt F)),
    StableHlo.nullary main_cst_153 (constant S_ .f32 0x3F800000#32),
    StableHlo.unary main_cst_153 main_v459 (broadcastInDim S32768x1 ![] bcast_S_S32768x1 : (⟨S_, .f32⟩ : BufTy).Contents (Elt F) → (⟨S32768x1, .f32⟩ : BufTy).Contents (Elt F)),
    StableHlo.binary main_v459 main_v458 main_v460 (subf : (⟨S32768x1, .f32⟩ : BufTy).Contents (Elt F) → (⟨S32768x1, .f32⟩ : BufTy).Contents (Elt F) → (⟨S32768x1, .f32⟩ : BufTy).Contents (Elt F)),
    StableHlo.binary main_v460 main_v445 main_v461 (mulf : (⟨S32768x1, .f32⟩ : BufTy).Contents (Elt F) → (⟨S32768x1, .f32⟩ : BufTy).Contents (Elt F) → (⟨S32768x1, .f32⟩ : BufTy).Contents (Elt F)),
    StableHlo.binary main_v461 main_v446 main_v462 (addf : (⟨S32768x1, .f32⟩ : BufTy).Contents (Elt F) → (⟨S32768x1, .f32⟩ : BufTy).Contents (Elt F) → (⟨S32768x1, .f32⟩ : BufTy).Contents (Elt F)),
    StableHlo.nullary main_cst_154 (constant S_ .f32 0x00000000#32),
    StableHlo.unary main_cst_154 main_v463 (broadcastInDim S32768x1 ![] bcast_S_S32768x1 : (⟨S_, .f32⟩ : BufTy).Contents (Elt F) → (⟨S32768x1, .f32⟩ : BufTy).Contents (Elt F)),
    StableHlo.binary main_v456 main_v463 main_v464 (cmpf .une : (⟨S32768x1, .f32⟩ : BufTy).Contents (Elt F) → (⟨S32768x1, .f32⟩ : BufTy).Contents (Elt F) → (⟨S32768x1, .i1⟩ : BufTy).Contents (Elt F)),
    StableHlo.unary main_v464 main_v465 (uitofp .f32 : (⟨S32768x1, .i1⟩ : BufTy).Contents (Elt F) → (⟨S32768x1, .f32⟩ : BufTy).Contents (Elt F)),
    StableHlo.binary main_v465 main_v463 main_v466 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v456 main_v463 main_v467 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v437 main_v466 main_v468 (cmpf .une : (⟨S32768x2, .f32⟩ : BufTy).Contents (Elt F) → (⟨S32768x2, .f32⟩ : BufTy).Contents (Elt F) → (⟨S32768x2, .i1⟩ : BufTy).Contents (Elt F)),
    StableHlo.unary main_v468 main_v469 (uitofp .f32 : (⟨S32768x2, .i1⟩ : BufTy).Contents (Elt F) → (⟨S32768x2, .f32⟩ : BufTy).Contents (Elt F)),
    StableHlo.binary main_v469 main_v466 main_v470 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v438 main_v467 main_v471 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_155 (constant S_ .f32 0x40000000#32),
    StableHlo.unary main_cst_155 main_v472 (broadcastInDim S32768x4 ![] bcast_S_S32768x4 : (⟨S_, .f32⟩ : BufTy).Contents (Elt F) → (⟨S32768x4, .f32⟩ : BufTy).Contents (Elt F)),
    StableHlo.binary main_v472 main_v470 main_v473 (mulf : (⟨S32768x4, .f32⟩ : BufTy).Contents (Elt F) → (⟨S32768x4, .f32⟩ : BufTy).Contents (Elt F) → (⟨S32768x4, .f32⟩ : BufTy).Contents (Elt F)),
    StableHlo.nullary main_cst_156 (constant S_ .f32 0x3F800000#32),
    StableHlo.unary main_cst_156 main_v474 (broadcastInDim S32768x4 ![] bcast_S_S32768x4 : (⟨S_, .f32⟩ : BufTy).Contents (Elt F) → (⟨S32768x4, .f32⟩ : BufTy).Contents (Elt F)),
    StableHlo.binary main_v474 main_v473 main_v475 (subf : (⟨S32768x4, .f32⟩ : BufTy).Contents (Elt F) → (⟨S32768x4, .f32⟩ : BufTy).Contents (Elt F) → (⟨S32768x4, .f32⟩ : BufTy).Contents (Elt F)),
    StableHlo.binary main_v475 main_v394 main_v476 (mulf : (⟨S32768x4, .f32⟩ : BufTy).Contents (Elt F) → (⟨S32768x4, .f32⟩ : BufTy).Contents (Elt F) → (⟨S32768x4, .f32⟩ : BufTy).Contents (Elt F)),
    StableHlo.binary main_v476 main_v395 main_v477 (addf : (⟨S32768x4, .f32⟩ : BufTy).Contents (Elt F) → (⟨S32768x4, .f32⟩ : BufTy).Contents (Elt F) → (⟨S32768x4, .f32⟩ : BufTy).Contents (Elt F)),
    StableHlo.unary main_v477 main_v478 ((extractStridedSlice S32768x2 ![0, 0] · slices_S32768x4_S32768x2_0_0) : (⟨S32768x4, .f32⟩ : BufTy).Contents (Elt F) → (⟨S32768x2, .f32⟩ : BufTy).Contents (Elt F)),
    StableHlo.unary main_v477 main_v479 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_157 (constant S_ .f32 0xC1F00000#32),
    StableHlo.nullary main_cst_158 (constant S_ .f32 0x41F00000#32),
    StableHlo.TRef.unary (.of main_cst_157 : StableHlo.TRef sig ⟨S_, .f32⟩) main_call48.v0 id,
    StableHlo.TRef.unary main_call48.v0 main_call48.v1 (broadcastInDim S32768x2 ![] bcast_S_S32768x2),
    StableHlo.TRef.binary main_call48.v1 (.of main_v478 : StableHlo.TRef sig ⟨S32768x2, .f32⟩) main_call48.v2 maximumf,
    StableHlo.TRef.unary (.of main_cst_158 : StableHlo.TRef sig ⟨S_, .f32⟩) main_call48.v3 id,
    StableHlo.TRef.unary main_call48.v3 main_call48.v4 (broadcastInDim S32768x2 ![] bcast_S_S32768x2),
    StableHlo.TRef.binary main_call48.v4 main_call48.v2 main_call48.v5 minimumf,
    StableHlo.nullary main_cst_159 (constant S_ .f32 0xC1F00000#32),
    StableHlo.nullary main_cst_160 (constant S_ .f32 0x41F00000#32),
    StableHlo.TRef.unary (.of main_cst_159 : StableHlo.TRef sig ⟨S_, .f32⟩) main_call49.v0 id,
    StableHlo.TRef.unary main_call49.v0 main_call49.v1 (broadcastInDim S32768x2 ![] bcast_S_S32768x2),
    StableHlo.TRef.binary main_call49.v1 (.of main_v479 : StableHlo.TRef sig ⟨S32768x2, .f32⟩) main_call49.v2 maximumf,
    StableHlo.TRef.unary (.of main_cst_160 : StableHlo.TRef sig ⟨S_, .f32⟩) main_call49.v3 id,
    StableHlo.TRef.unary main_call49.v3 main_call49.v4 (broadcastInDim S32768x2 ![] bcast_S_S32768x2),
    StableHlo.TRef.binary main_call49.v4 main_call49.v2 main_call49.v5 minimumf,
    StableHlo.unary main_v480 main_v482 (Host.sign : (⟨S32768x2, .f32⟩ : BufTy).Contents (Elt F) → (⟨S32768x2, .f32⟩ : BufTy).Contents (Elt F)),
    StableHlo.unary main_v481 main_v483 (Host.sign : (⟨S32768x2, .f32⟩ : BufTy).Contents (Elt F) → (⟨S32768x2, .f32⟩ : BufTy).Contents (Elt F)),
    StableHlo.binary main_v482 main_v483 main_v484 (mulf : (⟨S32768x2, .f32⟩ : BufTy).Contents (Elt F) → (⟨S32768x2, .f32⟩ : BufTy).Contents (Elt F) → (⟨S32768x2, .f32⟩ : BufTy).Contents (Elt F)),
    StableHlo.unary main_v480 main_v485 (Host.absf : (⟨S32768x2, .f32⟩ : BufTy).Contents (Elt F) → (⟨S32768x2, .f32⟩ : BufTy).Contents (Elt F)),
    StableHlo.unary main_v481 main_v486 (Host.absf : (⟨S32768x2, .f32⟩ : BufTy).Contents (Elt F) → (⟨S32768x2, .f32⟩ : BufTy).Contents (Elt F)),
    StableHlo.binary main_v485 main_v486 main_v487 (minimumf : (⟨S32768x2, .f32⟩ : BufTy).Contents (Elt F) → (⟨S32768x2, .f32⟩ : BufTy).Contents (Elt F) → (⟨S32768x2, .f32⟩ : BufTy).Contents (Elt F)),
    StableHlo.binary main_v484 main_v487 main_v488 (mulf : (⟨S32768x2, .f32⟩ : BufTy).Contents (Elt F) → (⟨S32768x2, .f32⟩ : BufTy).Contents (Elt F) → (⟨S32768x2, .f32⟩ : BufTy).Contents (Elt F)),
    StableHlo.unary main_v488 main_v489 ((extractStridedSlice S32768x1 ![0, 0] · slices_S32768x2_S32768x1_0_0) : (⟨S32768x2, .f32⟩ : BufTy).Contents (Elt F) → (⟨S32768x1, .f32⟩ : BufTy).Contents (Elt F)),
    StableHlo.unary main_v488 main_v490 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_161 (constant S_ .f32 0xC1F00000#32),
    StableHlo.nullary main_cst_162 (constant S_ .f32 0x41F00000#32),
    StableHlo.TRef.unary (.of main_cst_161 : StableHlo.TRef sig ⟨S_, .f32⟩) main_call50.v0 id,
    StableHlo.TRef.unary main_call50.v0 main_call50.v1 (broadcastInDim S32768x1 ![] bcast_S_S32768x1),
    StableHlo.TRef.binary main_call50.v1 (.of main_v489 : StableHlo.TRef sig ⟨S32768x1, .f32⟩) main_call50.v2 maximumf,
    StableHlo.TRef.unary (.of main_cst_162 : StableHlo.TRef sig ⟨S_, .f32⟩) main_call50.v3 id,
    StableHlo.TRef.unary main_call50.v3 main_call50.v4 (broadcastInDim S32768x1 ![] bcast_S_S32768x1),
    StableHlo.TRef.binary main_call50.v4 main_call50.v2 main_call50.v5 minimumf,
    StableHlo.nullary main_cst_163 (constant S_ .f32 0xC1F00000#32),
    StableHlo.nullary main_cst_164 (constant S_ .f32 0x41F00000#32),
    StableHlo.TRef.unary (.of main_cst_163 : StableHlo.TRef sig ⟨S_, .f32⟩) main_call51.v0 id,
    StableHlo.TRef.unary main_call51.v0 main_call51.v1 (broadcastInDim S32768x1 ![] bcast_S_S32768x1),
    StableHlo.TRef.binary main_call51.v1 (.of main_v490 : StableHlo.TRef sig ⟨S32768x1, .f32⟩) main_call51.v2 maximumf,
    StableHlo.TRef.unary (.of main_cst_164 : StableHlo.TRef sig ⟨S_, .f32⟩) main_call51.v3 id,
    StableHlo.TRef.unary main_call51.v3 main_call51.v4 (broadcastInDim S32768x1 ![] bcast_S_S32768x1),
    StableHlo.TRef.binary main_call51.v4 main_call51.v2 main_call51.v5 minimumf ]

set_option maxRecDepth 8192 in
/-- The window is that straight line: each clip function unfolded at its calls, the sequencing reassociated. -/
theorem part_eq_10 (d : Dev nD) : main_part10 (F := F) d = seq ops10 := by
  simp only [main_part10, fn_clip_6.body, fn_clip_5.body, seq, bind_assoc, pure_bind]

/-- Every operation of the window touches TensorCore references only. -/
theorem sub_10 : (ops10 : List (HloOp τ sig (Elt F))).Forall fun op => op.bufs ⊆ tcRefs τ sig :=
  ⟨nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., nullary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., unary_bufs_sub .., binary_bufs_sub .., binary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub ..⟩

/-- Every operation of the window determines all it writes. -/
theorem fresh_10 : (ops10 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_10 (V : Valuation τ sig (Elt F)) :
    after ops10 V (main_arg0 : DevRef τ sig) = V (main_arg0 : DevRef τ sig) := by
  simp only [after_cons, after_nil]
  rfl

/-- The operations of @main's statements 661 … 720, in order (70 of them): a statement's own operation, or, for a call
    of a clip function, the six operations of its body over that call's buffers. -/
abbrev ops11 : List (HloOp τ sig (Elt F)) :=
  [ StableHlo.unary main_v491 main_v493 (Host.sign : (⟨S32768x1, .f32⟩ : BufTy).Contents (Elt F) → (⟨S32768x1, .f32⟩ : BufTy).Contents (Elt F)),
    StableHlo.unary main_v492 main_v494 (Host.sign : (⟨S32768x1, .f32⟩ : BufTy).Contents (Elt F) → (⟨S32768x1, .f32⟩ : BufTy).Contents (Elt F)),
    StableHlo.binary main_v493 main_v494 main_v495 (mulf : (⟨S32768x1, .f32⟩ : BufTy).Contents (Elt F) → (⟨S32768x1, .f32⟩ : BufTy).Contents (Elt F) → (⟨S32768x1, .f32⟩ : BufTy).Contents (Elt F)),
    StableHlo.unary main_v491 main_v496 (Host.absf : (⟨S32768x1, .f32⟩ : BufTy).Contents (Elt F) → (⟨S32768x1, .f32⟩ : BufTy).Contents (Elt F)),
    StableHlo.unary main_v492 main_v497 (Host.absf : (⟨S32768x1, .f32⟩ : BufTy).Contents (Elt F) → (⟨S32768x1, .f32⟩ : BufTy).Contents (Elt F)),
    StableHlo.binary main_v496 main_v497 main_v498 (minimumf : (⟨S32768x1, .f32⟩ : BufTy).Contents (Elt F) → (⟨S32768x1, .f32⟩ : BufTy).Contents (Elt F) → (⟨S32768x1, .f32⟩ : BufTy).Contents (Elt F)),
    StableHlo.binary main_v495 main_v498 main_v499 (mulf : (⟨S32768x1, .f32⟩ : BufTy).Contents (Elt F) → (⟨S32768x1, .f32⟩ : BufTy).Contents (Elt F) → (⟨S32768x1, .f32⟩ : BufTy).Contents (Elt F)),
    StableHlo.nullary main_cst_165 (constant S_ .f32 0x00000000#32),
    StableHlo.unary main_cst_165 main_v500 (broadcastInDim S32768x1 ![] bcast_S_S32768x1 : (⟨S_, .f32⟩ : BufTy).Contents (Elt F) → (⟨S32768x1, .f32⟩ : BufTy).Contents (Elt F)),
    StableHlo.nullary main_cst_166 (constant S_ .f32 0x40000000#32),
    StableHlo.unary main_cst_166 main_v501 (broadcastInDim S32768x1 ![] bcast_S_S32768x1 : (⟨S_, .f32⟩ : BufTy).Contents (Elt F) → (⟨S32768x1, .f32⟩ : BufTy).Contents (Elt F)),
    StableHlo.binary main_v501 main_v500 main_v502 (mulf : (⟨S32768x1, .f32⟩ : BufTy).Contents (Elt F) → (⟨S32768x1, .f32⟩ : BufTy).Contents (Elt F) → (⟨S32768x1, .f32⟩ : BufTy).Contents (Elt F)),
    StableHlo.nullary main_cst_167 (constant S_ .f32 0x3F800000#32),
    StableHlo.unary main_cst_167 main_v503 (broadcastInDim S32768x1 ![] bcast_S_S32768x1 : (⟨S_, .f32⟩ : BufTy).Contents (Elt F) → (⟨S32768x1, .f32⟩ : BufTy).Contents (Elt F)),
    StableHlo.binary main_v503 main_v502 main_v504 (subf : (⟨S32768x1, .f32⟩ : BufTy).Contents (Elt F) → (⟨S32768x1, .f32⟩ : BufTy).Contents (Elt F) → (⟨S32768x1, .f32⟩ : BufTy).Contents (Elt F)),
    StableHlo.binary main_v504 main_v489 main_v505 (mulf : (⟨S32768x1, .f32⟩ : BufTy).Contents (Elt F) → (⟨S32768x1, .f32⟩ : BufTy).Contents (Elt F) → (⟨S32768x1, .f32⟩ : BufTy).Contents (Elt F)),
    StableHlo.binary main_v505 main_v490 main_v506 (addf : (⟨S32768x1, .f32⟩ : BufTy).Contents (Elt F) → (⟨S32768x1, .f32⟩ : BufTy).Contents (Elt F) → (⟨S32768x1, .f32⟩ : BufTy).Contents (Elt F)),
    StableHlo.nullary main_cst_168 (constant S_ .f32 0x00000000#32),
    StableHlo.unary main_cst_168 main_v507 (broadcastInDim S32768x1 ![] bcast_S_S32768x1 : (⟨S_, .f32⟩ : BufTy).Contents (Elt F) → (⟨S32768x1, .f32⟩ : BufTy).Contents (Elt F)),
    StableHlo.binary main_v500 main_v507 main_v508 (cmpf .une : (⟨S32768x1, .f32⟩ : BufTy).Contents (Elt F) → (⟨S32768x1, .f32⟩ : BufTy).Contents (Elt F) → (⟨S32768x1, .i1⟩ : BufTy).Contents (Elt F)),
    StableHlo.unary main_v508 main_v509 (uitofp .f32 : (⟨S32768x1, .i1⟩ : BufTy).Contents (Elt F) → (⟨S32768x1, .f32⟩ : BufTy).Contents (Elt F)),
    StableHlo.binary main_v509 main_v507 main_v510 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v500 main_v507 main_v511 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_169 (constant S_ .f32 0x40000000#32),
    StableHlo.unary main_cst_169 main_v512 (broadcastInDim S32768x2 ![] bcast_S_S32768x2 : (⟨S_, .f32⟩ : BufTy).Contents (Elt F) → (⟨S32768x2, .f32⟩ : BufTy).Contents (Elt F)),
    StableHlo.binary main_v512 main_v510 main_v513 (mulf : (⟨S32768x2, .f32⟩ : BufTy).Contents (Elt F) → (⟨S32768x2, .f32⟩ : BufTy).Contents (Elt F) → (⟨S32768x2, .f32⟩ : BufTy).Contents (Elt F)),
    StableHlo.nullary main_cst_170 (constant S_ .f32 0x3F800000#32),
    StableHlo.unary main_cst_170 main_v514 (broadcastInDim S32768x2 ![] bcast_S_S32768x2 : (⟨S_, .f32⟩ : BufTy).Contents (Elt F) → (⟨S32768x2, .f32⟩ : BufTy).Contents (Elt F)),
    StableHlo.binary main_v514 main_v513 main_v515 (subf : (⟨S32768x2, .f32⟩ : BufTy).Contents (Elt F) → (⟨S32768x2, .f32⟩ : BufTy).Contents (Elt F) → (⟨S32768x2, .f32⟩ : BufTy).Contents (Elt F)),
    StableHlo.binary main_v515 main_v478 main_v516 (mulf : (⟨S32768x2, .f32⟩ : BufTy).Contents (Elt F) → (⟨S32768x2, .f32⟩ : BufTy).Contents (Elt F) → (⟨S32768x2, .f32⟩ : BufTy).Contents (Elt F)),
    StableHlo.binary main_v516 main_v479 main_v517 (addf : (⟨S32768x2, .f32⟩ : BufTy).Contents (Elt F) → (⟨S32768x2, .f32⟩ : BufTy).Contents (Elt F) → (⟨S32768x2, .f32⟩ : BufTy).Contents (Elt F)),
    StableHlo.unary main_v517 main_v518 ((extractStridedSlice S32768x1 ![0, 0] · slices_S32768x2_S32768x1_0_0) : (⟨S32768x2, .f32⟩ : BufTy).Contents (Elt F) → (⟨S32768x1, .f32⟩ : BufTy).Contents (Elt F)),
    StableHlo.unary main_v517 main_v519 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_171 (constant S_ .f32 0xC1F00000#32),
    StableHlo.nullary main_cst_172 (constant S_ .f32 0x41F00000#32),
    StableHlo.TRef.unary (.of main_cst_171 : StableHlo.TRef sig ⟨S_, .f32⟩) main_call52.v0 id,
    StableHlo.TRef.unary main_call52.v0 main_call52.v1 (broadcastInDim S32768x1 ![] bcast_S_S32768x1),
    StableHlo.TRef.binary main_call52.v1 (.of main_v518 : StableHlo.TRef sig ⟨S32768x1, .f32⟩) main_call52.v2 maximumf,
    StableHlo.TRef.unary (.of main_cst_172 : StableHlo.TRef sig ⟨S_, .f32⟩) main_call52.v3 id,
    StableHlo.TRef.unary main_call52.v3 main_call52.v4 (broadcastInDim S32768x1 ![] bcast_S_S32768x1),
    StableHlo.TRef.binary main_call52.v4 main_call52.v2 main_call52.v5 minimumf,
    StableHlo.nullary main_cst_173 (constant S_ .f32 0xC1F00000#32),
    StableHlo.nullary main_cst_174 (constant S_ .f32 0x41F00000#32),
    StableHlo.TRef.unary (.of main_cst_173 : StableHlo.TRef sig ⟨S_, .f32⟩) main_call53.v0 id,
    StableHlo.TRef.unary main_call53.v0 main_call53.v1 (broadcastInDim S32768x1 ![] bcast_S_S32768x1),
    StableHlo.TRef.binary main_call53.v1 (.of main_v519 : StableHlo.TRef sig ⟨S32768x1, .f32⟩) main_call53.v2 maximumf,
    StableHlo.TRef.unary (.of main_cst_174 : StableHlo.TRef sig ⟨S_, .f32⟩) main_call53.v3 id,
    StableHlo.TRef.unary main_call53.v3 main_call53.v4 (broadcastInDim S32768x1 ![] bcast_S_S32768x1),
    StableHlo.TRef.binary main_call53.v4 main_call53.v2 main_call53.v5 minimumf,
    StableHlo.unary main_v520 main_v522 (Host.sign : (⟨S32768x1, .f32⟩ : BufTy).Contents (Elt F) → (⟨S32768x1, .f32⟩ : BufTy).Contents (Elt F)),
    StableHlo.unary main_v521 main_v523 (Host.sign : (⟨S32768x1, .f32⟩ : BufTy).Contents (Elt F) → (⟨S32768x1, .f32⟩ : BufTy).Contents (Elt F)),
    StableHlo.binary main_v522 main_v523 main_v524 (mulf : (⟨S32768x1, .f32⟩ : BufTy).Contents (Elt F) → (⟨S32768x1, .f32⟩ : BufTy).Contents (Elt F) → (⟨S32768x1, .f32⟩ : BufTy).Contents (Elt F)),
    StableHlo.unary main_v520 main_v525 (Host.absf : (⟨S32768x1, .f32⟩ : BufTy).Contents (Elt F) → (⟨S32768x1, .f32⟩ : BufTy).Contents (Elt F)),
    StableHlo.unary main_v521 main_v526 (Host.absf : (⟨S32768x1, .f32⟩ : BufTy).Contents (Elt F) → (⟨S32768x1, .f32⟩ : BufTy).Contents (Elt F)),
    StableHlo.binary main_v525 main_v526 main_v527 (minimumf : (⟨S32768x1, .f32⟩ : BufTy).Contents (Elt F) → (⟨S32768x1, .f32⟩ : BufTy).Contents (Elt F) → (⟨S32768x1, .f32⟩ : BufTy).Contents (Elt F)),
    StableHlo.binary main_v524 main_v527 main_v528 (mulf : (⟨S32768x1, .f32⟩ : BufTy).Contents (Elt F) → (⟨S32768x1, .f32⟩ : BufTy).Contents (Elt F) → (⟨S32768x1, .f32⟩ : BufTy).Contents (Elt F)),
    StableHlo.nullary main_cst_175 (constant S_ .f32 0x00000000#32),
    StableHlo.unary main_cst_175 main_v529 (broadcastInDim S32768x1 ![] bcast_S_S32768x1 : (⟨S_, .f32⟩ : BufTy).Contents (Elt F) → (⟨S32768x1, .f32⟩ : BufTy).Contents (Elt F)),
    StableHlo.nullary main_cst_176 (constant S_ .f32 0x40000000#32),
    StableHlo.unary main_cst_176 main_v530 (broadcastInDim S32768x1 ![] bcast_S_S32768x1 : (⟨S_, .f32⟩ : BufTy).Contents (Elt F) → (⟨S32768x1, .f32⟩ : BufTy).Contents (Elt F)),
    StableHlo.binary main_v530 main_v529 main_v531 (mulf : (⟨S32768x1, .f32⟩ : BufTy).Contents (Elt F) → (⟨S32768x1, .f32⟩ : BufTy).Contents (Elt F) → (⟨S32768x1, .f32⟩ : BufTy).Contents (Elt F)),
    StableHlo.nullary main_cst_177 (constant S_ .f32 0x3F800000#32),
    StableHlo.unary main_cst_177 main_v532 (broadcastInDim S32768x1 ![] bcast_S_S32768x1 : (⟨S_, .f32⟩ : BufTy).Contents (Elt F) → (⟨S32768x1, .f32⟩ : BufTy).Contents (Elt F)),
    StableHlo.binary main_v532 main_v531 main_v533 (subf : (⟨S32768x1, .f32⟩ : BufTy).Contents (Elt F) → (⟨S32768x1, .f32⟩ : BufTy).Contents (Elt F) → (⟨S32768x1, .f32⟩ : BufTy).Contents (Elt F)),
    StableHlo.binary main_v533 main_v518 main_v534 (mulf : (⟨S32768x1, .f32⟩ : BufTy).Contents (Elt F) → (⟨S32768x1, .f32⟩ : BufTy).Contents (Elt F) → (⟨S32768x1, .f32⟩ : BufTy).Contents (Elt F)),
    StableHlo.binary main_v534 main_v519 main_v535 (addf : (⟨S32768x1, .f32⟩ : BufTy).Contents (Elt F) → (⟨S32768x1, .f32⟩ : BufTy).Contents (Elt F) → (⟨S32768x1, .f32⟩ : BufTy).Contents (Elt F)),
    StableHlo.nullary main_cst_178 (constant S_ .f32 0x00000000#32),
    StableHlo.unary main_cst_178 main_v536 (broadcastInDim S32768x1 ![] bcast_S_S32768x1 : (⟨S_, .f32⟩ : BufTy).Contents (Elt F) → (⟨S32768x1, .f32⟩ : BufTy).Contents (Elt F)),
    StableHlo.binary main_v529 main_v536 main_v537 (cmpf .une : (⟨S32768x1, .f32⟩ : BufTy).Contents (Elt F) → (⟨S32768x1, .f32⟩ : BufTy).Contents (Elt F) → (⟨S32768x1, .i1⟩ : BufTy).Contents (Elt F)),
    StableHlo.unary main_v537 main_v538 (uitofp .f32 : (⟨S32768x1, .i1⟩ : BufTy).Contents (Elt F) → (⟨S32768x1, .f32⟩ : BufTy).Contents (Elt F)) ]

set_option maxRecDepth 8192 in
/-- The window is that straight line: each clip function unfolded at its calls, the sequencing reassociated. -/
theorem part_eq_11 (d : Dev nD) : main_part11 (F := F) d = seq ops11 := by
  simp only [main_part11, fn_clip_6.body, seq, bind_assoc, pure_bind]
  rfl

/-- Every operation of the window touches TensorCore references only. -/
theorem sub_11 : (ops11 : List (HloOp τ sig (Elt F))).Forall fun op => op.bufs ⊆ tcRefs τ sig :=
  ⟨unary_bufs_sub .., unary_bufs_sub .., binary_bufs_sub .., unary_bufs_sub .., unary_bufs_sub .., binary_bufs_sub ..,
    binary_bufs_sub .., nullary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., nullary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., unary_bufs_sub ..⟩

/-- Every operation of the window determines all it writes. -/
theorem fresh_11 : (ops11 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_11 (V : Valuation τ sig (Elt F)) :
    after ops11 V (main_arg0 : DevRef τ sig) = V (main_arg0 : DevRef τ sig) := by
  simp only [after_cons, after_nil]
  rfl

/-- The operations of @main's statements 721 … 780, in order (90 of them): a statement's own operation, or, for a call
    of a clip function, the six operations of its body over that call's buffers. -/
abbrev ops12 : List (HloOp τ sig (Elt F)) :=
  [ StableHlo.binary main_v538 main_v536 main_v539 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v529 main_v536 main_v540 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v510 main_v539 main_v541 (cmpf .une : (⟨S32768x2, .f32⟩ : BufTy).Contents (Elt F) → (⟨S32768x2, .f32⟩ : BufTy).Contents (Elt F) → (⟨S32768x2, .i1⟩ : BufTy).Contents (Elt F)),
    StableHlo.unary main_v541 main_v542 (uitofp .f32 : (⟨S32768x2, .i1⟩ : BufTy).Contents (Elt F) → (⟨S32768x2, .f32⟩ : BufTy).Contents (Elt F)),
    StableHlo.binary main_v542 main_v539 main_v543 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v511 main_v540 main_v544 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v470 main_v543 main_v545 (cmpf .une : (⟨S32768x4, .f32⟩ : BufTy).Contents (Elt F) → (⟨S32768x4, .f32⟩ : BufTy).Contents (Elt F) → (⟨S32768x4, .i1⟩ : BufTy).Contents (Elt F)),
    StableHlo.unary main_v545 main_v546 (uitofp .f32 : (⟨S32768x4, .i1⟩ : BufTy).Contents (Elt F) → (⟨S32768x4, .f32⟩ : BufTy).Contents (Elt F)),
    StableHlo.binary main_v546 main_v543 main_v547 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v471 main_v544 main_v548 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.nullary main_cst_179 (constant S_ .f32 0x40000000#32),
    StableHlo.unary main_cst_179 main_v549 (broadcastInDim S32768x8 ![] bcast_S_S32768x8 : (⟨S_, .f32⟩ : BufTy).Contents (Elt F) → (⟨S32768x8, .f32⟩ : BufTy).Contents (Elt F)),
    StableHlo.binary main_v549 main_v547 main_v550 (mulf : (⟨S32768x8, .f32⟩ : BufTy).Contents (Elt F) → (⟨S32768x8, .f32⟩ : BufTy).Contents (Elt F) → (⟨S32768x8, .f32⟩ : BufTy).Contents (Elt F)),
    StableHlo.nullary main_cst_180 (constant S_ .f32 0x3F800000#32),
    StableHlo.unary main_cst_180 main_v551 (broadcastInDim S32768x8 ![] bcast_S_S32768x8 : (⟨S_, .f32⟩ : BufTy).Contents (Elt F) → (⟨S32768x8, .f32⟩ : BufTy).Contents (Elt F)),
    StableHlo.binary main_v551 main_v550 main_v552 (subf : (⟨S32768x8, .f32⟩ : BufTy).Contents (Elt F) → (⟨S32768x8, .f32⟩ : BufTy).Contents (Elt F) → (⟨S32768x8, .f32⟩ : BufTy).Contents (Elt F)),
    StableHlo.binary main_v552 main_v383 main_v553 (mulf : (⟨S32768x8, .f32⟩ : BufTy).Contents (Elt F) → (⟨S32768x8, .f32⟩ : BufTy).Contents (Elt F) → (⟨S32768x8, .f32⟩ : BufTy).Contents (Elt F)),
    StableHlo.binary main_v553 main_v384 main_v554 (addf : (⟨S32768x8, .f32⟩ : BufTy).Contents (Elt F) → (⟨S32768x8, .f32⟩ : BufTy).Contents (Elt F) → (⟨S32768x8, .f32⟩ : BufTy).Contents (Elt F)),
    StableHlo.unary main_v554 main_v555 ((extractStridedSlice S32768x4 ![0, 0] · slices_S32768x8_S32768x4_0_0) : (⟨S32768x8, .f32⟩ : BufTy).Contents (Elt F) → (⟨S32768x4, .f32⟩ : BufTy).Contents (Elt F)),
    StableHlo.unary main_v554 main_v556 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_181 (constant S_ .f32 0xC1F00000#32),
    StableHlo.nullary main_cst_182 (constant S_ .f32 0x41F00000#32),
    StableHlo.TRef.unary (.of main_cst_181 : StableHlo.TRef sig ⟨S_, .f32⟩) main_call54.v0 id,
    StableHlo.TRef.unary main_call54.v0 main_call54.v1 (broadcastInDim S32768x4 ![] bcast_S_S32768x4),
    StableHlo.TRef.binary main_call54.v1 (.of main_v555 : StableHlo.TRef sig ⟨S32768x4, .f32⟩) main_call54.v2 maximumf,
    StableHlo.TRef.unary (.of main_cst_182 : StableHlo.TRef sig ⟨S_, .f32⟩) main_call54.v3 id,
    StableHlo.TRef.unary main_call54.v3 main_call54.v4 (broadcastInDim S32768x4 ![] bcast_S_S32768x4),
    StableHlo.TRef.binary main_call54.v4 main_call54.v2 main_call54.v5 minimumf,
    StableHlo.nullary main_cst_183 (constant S_ .f32 0xC1F00000#32),
    StableHlo.nullary main_cst_184 (constant S_ .f32 0x41F00000#32),
    StableHlo.TRef.unary (.of main_cst_183 : StableHlo.TRef sig ⟨S_, .f32⟩) main_call55.v0 id,
    StableHlo.TRef.unary main_call55.v0 main_call55.v1 (broadcastInDim S32768x4 ![] bcast_S_S32768x4),
    StableHlo.TRef.binary main_call55.v1 (.of main_v556 : StableHlo.TRef sig ⟨S32768x4, .f32⟩) main_call55.v2 maximumf,
    StableHlo.TRef.unary (.of main_cst_184 : StableHlo.TRef sig ⟨S_, .f32⟩) main_call55.v3 id,
    StableHlo.TRef.unary main_call55.v3 main_call55.v4 (broadcastInDim S32768x4 ![] bcast_S_S32768x4),
    StableHlo.TRef.binary main_call55.v4 main_call55.v2 main_call55.v5 minimumf,
    StableHlo.unary main_v557 main_v559 (Host.sign : (⟨S32768x4, .f32⟩ : BufTy).Contents (Elt F) → (⟨S32768x4, .f32⟩ : BufTy).Contents (Elt F)),
    StableHlo.unary main_v558 main_v560 (Host.sign : (⟨S32768x4, .f32⟩ : BufTy).Contents (Elt F) → (⟨S32768x4, .f32⟩ : BufTy).Contents (Elt F)),
    StableHlo.binary main_v559 main_v560 main_v561 (mulf : (⟨S32768x4, .f32⟩ : BufTy).Contents (Elt F) → (⟨S32768x4, .f32⟩ : BufTy).Contents (Elt F) → (⟨S32768x4, .f32⟩ : BufTy).Contents (Elt F)),
    StableHlo.unary main_v557 main_v562 (Host.absf : (⟨S32768x4, .f32⟩ : BufTy).Contents (Elt F) → (⟨S32768x4, .f32⟩ : BufTy).Contents (Elt F)),
    StableHlo.unary main_v558 main_v563 (Host.absf : (⟨S32768x4, .f32⟩ : BufTy).Contents (Elt F) → (⟨S32768x4, .f32⟩ : BufTy).Contents (Elt F)),
    StableHlo.binary main_v562 main_v563 main_v564 (minimumf : (⟨S32768x4, .f32⟩ : BufTy).Contents (Elt F) → (⟨S32768x4, .f32⟩ : BufTy).Contents (Elt F) → (⟨S32768x4, .f32⟩ : BufTy).Contents (Elt F)),
    StableHlo.binary main_v561 main_v564 main_v565 (mulf : (⟨S32768x4, .f32⟩ : BufTy).Contents (Elt F) → (⟨S32768x4, .f32⟩ : BufTy).Contents (Elt F) → (⟨S32768x4, .f32⟩ : BufTy).Contents (Elt F)),
    StableHlo.unary main_v565 main_v566 ((extractStridedSlice S32768x2 ![0, 0] · slices_S32768x4_S32768x2_0_0) : (⟨S32768x4, .f32⟩ : BufTy).Contents (Elt F) → (⟨S32768x2, .f32⟩ : BufTy).Contents (Elt F)),
    StableHlo.unary main_v565 main_v567 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_185 (constant S_ .f32 0xC1F00000#32),
    StableHlo.nullary main_cst_186 (constant S_ .f32 0x41F00000#32),
    StableHlo.TRef.unary (.of main_cst_185 : StableHlo.TRef sig ⟨S_, .f32⟩) main_call56.v0 id,
    StableHlo.TRef.unary main_call56.v0 main_call56.v1 (broadcastInDim S32768x2 ![] bcast_S_S32768x2),
    StableHlo.TRef.binary main_call56.v1 (.of main_v566 : StableHlo.TRef sig ⟨S32768x2, .f32⟩) main_call56.v2 maximumf,
    StableHlo.TRef.unary (.of main_cst_186 : StableHlo.TRef sig ⟨S_, .f32⟩) main_call56.v3 id,
    StableHlo.TRef.unary main_call56.v3 main_call56.v4 (broadcastInDim S32768x2 ![] bcast_S_S32768x2),
    StableHlo.TRef.binary main_call56.v4 main_call56.v2 main_call56.v5 minimumf,
    StableHlo.nullary main_cst_187 (constant S_ .f32 0xC1F00000#32),
    StableHlo.nullary main_cst_188 (constant S_ .f32 0x41F00000#32),
    StableHlo.TRef.unary (.of main_cst_187 : StableHlo.TRef sig ⟨S_, .f32⟩) main_call57.v0 id,
    StableHlo.TRef.unary main_call57.v0 main_call57.v1 (broadcastInDim S32768x2 ![] bcast_S_S32768x2),
    StableHlo.TRef.binary main_call57.v1 (.of main_v567 : StableHlo.TRef sig ⟨S32768x2, .f32⟩) main_call57.v2 maximumf,
    StableHlo.TRef.unary (.of main_cst_188 : StableHlo.TRef sig ⟨S_, .f32⟩) main_call57.v3 id,
    StableHlo.TRef.unary main_call57.v3 main_call57.v4 (broadcastInDim S32768x2 ![] bcast_S_S32768x2),
    StableHlo.TRef.binary main_call57.v4 main_call57.v2 main_call57.v5 minimumf,
    StableHlo.unary main_v568 main_v570 (Host.sign : (⟨S32768x2, .f32⟩ : BufTy).Contents (Elt F) → (⟨S32768x2, .f32⟩ : BufTy).Contents (Elt F)),
    StableHlo.unary main_v569 main_v571 (Host.sign : (⟨S32768x2, .f32⟩ : BufTy).Contents (Elt F) → (⟨S32768x2, .f32⟩ : BufTy).Contents (Elt F)),
    StableHlo.binary main_v570 main_v571 main_v572 (mulf : (⟨S32768x2, .f32⟩ : BufTy).Contents (Elt F) → (⟨S32768x2, .f32⟩ : BufTy).Contents (Elt F) → (⟨S32768x2, .f32⟩ : BufTy).Contents (Elt F)),
    StableHlo.unary main_v568 main_v573 (Host.absf : (⟨S32768x2, .f32⟩ : BufTy).Contents (Elt F) → (⟨S32768x2, .f32⟩ : BufTy).Contents (Elt F)),
    StableHlo.unary main_v569 main_v574 (Host.absf : (⟨S32768x2, .f32⟩ : BufTy).Contents (Elt F) → (⟨S32768x2, .f32⟩ : BufTy).Contents (Elt F)),
    StableHlo.binary main_v573 main_v574 main_v575 (minimumf : (⟨S32768x2, .f32⟩ : BufTy).Contents (Elt F) → (⟨S32768x2, .f32⟩ : BufTy).Contents (Elt F) → (⟨S32768x2, .f32⟩ : BufTy).Contents (Elt F)),
    StableHlo.binary main_v572 main_v575 main_v576 (mulf : (⟨S32768x2, .f32⟩ : BufTy).Contents (Elt F) → (⟨S32768x2, .f32⟩ : BufTy).Contents (Elt F) → (⟨S32768x2, .f32⟩ : BufTy).Contents (Elt F)),
    StableHlo.unary main_v576 main_v577 ((extractStridedSlice S32768x1 ![0, 0] · slices_S32768x2_S32768x1_0_0) : (⟨S32768x2, .f32⟩ : BufTy).Contents (Elt F) → (⟨S32768x1, .f32⟩ : BufTy).Contents (Elt F)),
    StableHlo.unary main_v576 main_v578 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_189 (constant S_ .f32 0xC1F00000#32),
    StableHlo.nullary main_cst_190 (constant S_ .f32 0x41F00000#32),
    StableHlo.TRef.unary (.of main_cst_189 : StableHlo.TRef sig ⟨S_, .f32⟩) main_call58.v0 id,
    StableHlo.TRef.unary main_call58.v0 main_call58.v1 (broadcastInDim S32768x1 ![] bcast_S_S32768x1),
    StableHlo.TRef.binary main_call58.v1 (.of main_v577 : StableHlo.TRef sig ⟨S32768x1, .f32⟩) main_call58.v2 maximumf,
    StableHlo.TRef.unary (.of main_cst_190 : StableHlo.TRef sig ⟨S_, .f32⟩) main_call58.v3 id,
    StableHlo.TRef.unary main_call58.v3 main_call58.v4 (broadcastInDim S32768x1 ![] bcast_S_S32768x1),
    StableHlo.TRef.binary main_call58.v4 main_call58.v2 main_call58.v5 minimumf,
    StableHlo.nullary main_cst_191 (constant S_ .f32 0xC1F00000#32),
    StableHlo.nullary main_cst_192 (constant S_ .f32 0x41F00000#32),
    StableHlo.TRef.unary (.of main_cst_191 : StableHlo.TRef sig ⟨S_, .f32⟩) main_call59.v0 id,
    StableHlo.TRef.unary main_call59.v0 main_call59.v1 (broadcastInDim S32768x1 ![] bcast_S_S32768x1),
    StableHlo.TRef.binary main_call59.v1 (.of main_v578 : StableHlo.TRef sig ⟨S32768x1, .f32⟩) main_call59.v2 maximumf,
    StableHlo.TRef.unary (.of main_cst_192 : StableHlo.TRef sig ⟨S_, .f32⟩) main_call59.v3 id,
    StableHlo.TRef.unary main_call59.v3 main_call59.v4 (broadcastInDim S32768x1 ![] bcast_S_S32768x1),
    StableHlo.TRef.binary main_call59.v4 main_call59.v2 main_call59.v5 minimumf,
    StableHlo.unary main_v579 main_v581 (Host.sign : (⟨S32768x1, .f32⟩ : BufTy).Contents (Elt F) → (⟨S32768x1, .f32⟩ : BufTy).Contents (Elt F)),
    StableHlo.unary main_v580 main_v582 (Host.sign : (⟨S32768x1, .f32⟩ : BufTy).Contents (Elt F) → (⟨S32768x1, .f32⟩ : BufTy).Contents (Elt F)),
    StableHlo.binary main_v581 main_v582 main_v583 (mulf : (⟨S32768x1, .f32⟩ : BufTy).Contents (Elt F) → (⟨S32768x1, .f32⟩ : BufTy).Contents (Elt F) → (⟨S32768x1, .f32⟩ : BufTy).Contents (Elt F)),
    StableHlo.unary main_v579 main_v584 (Host.absf : (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_12 (d : Dev nD) : main_part12 (F := F) d = seq ops12 := by
  simp only [main_part12, fn_clip_4.body, fn_clip_5.body, fn_clip_6.body, seq, bind_assoc, pure_bind]
  rfl

/-- Every operation of the window touches TensorCore references only. -/
theorem sub_12 : (ops12 : List (HloOp τ sig (Elt F))).Forall fun op => op.bufs ⊆ tcRefs τ sig :=
  ⟨binary_bufs_sub .., binary_bufs_sub .., binary_bufs_sub .., unary_bufs_sub .., binary_bufs_sub .., binary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..⟩

/-- Every operation of the window determines all it writes. -/
theorem fresh_12 : (ops12 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_12 (V : Valuation τ sig (Elt F)) :
    after ops12 V (main_arg0 : DevRef τ sig) = V (main_arg0 : DevRef τ sig) := by
  simp only [after_cons, after_nil]
  rfl

/-- The operations of @main's statements 781 … 840, in order (70 of them): a statement's own operation, or, for a call
    of a clip function, the six operations of its body over that call's buffers. -/
abbrev ops13 : List (HloOp τ sig (Elt F)) :=
  [ StableHlo.unary main_v580 main_v585 (Host.absf : (⟨S32768x1, .f32⟩ : BufTy).Contents (Elt F) → (⟨S32768x1, .f32⟩ : BufTy).Contents (Elt F)),
    StableHlo.binary main_v584 main_v585 main_v586 (minimumf : (⟨S32768x1, .f32⟩ : BufTy).Contents (Elt F) → (⟨S32768x1, .f32⟩ : BufTy).Contents (Elt F) → (⟨S32768x1, .f32⟩ : BufTy).Contents (Elt F)),
    StableHlo.binary main_v583 main_v586 main_v587 (mulf : (⟨S32768x1, .f32⟩ : BufTy).Contents (Elt F) → (⟨S32768x1, .f32⟩ : BufTy).Contents (Elt F) → (⟨S32768x1, .f32⟩ : BufTy).Contents (Elt F)),
    StableHlo.nullary main_cst_193 (constant S_ .f32 0x00000000#32),
    StableHlo.unary main_cst_193 main_v588 (broadcastInDim S32768x1 ![] bcast_S_S32768x1 : (⟨S_, .f32⟩ : BufTy).Contents (Elt F) → (⟨S32768x1, .f32⟩ : BufTy).Contents (Elt F)),
    StableHlo.nullary main_cst_194 (constant S_ .f32 0x40000000#32),
    StableHlo.unary main_cst_194 main_v589 (broadcastInDim S32768x1 ![] bcast_S_S32768x1 : (⟨S_, .f32⟩ : BufTy).Contents (Elt F) → (⟨S32768x1, .f32⟩ : BufTy).Contents (Elt F)),
    StableHlo.binary main_v589 main_v588 main_v590 (mulf : (⟨S32768x1, .f32⟩ : BufTy).Contents (Elt F) → (⟨S32768x1, .f32⟩ : BufTy).Contents (Elt F) → (⟨S32768x1, .f32⟩ : BufTy).Contents (Elt F)),
    StableHlo.nullary main_cst_195 (constant S_ .f32 0x3F800000#32),
    StableHlo.unary main_cst_195 main_v591 (broadcastInDim S32768x1 ![] bcast_S_S32768x1 : (⟨S_, .f32⟩ : BufTy).Contents (Elt F) → (⟨S32768x1, .f32⟩ : BufTy).Contents (Elt F)),
    StableHlo.binary main_v591 main_v590 main_v592 (subf : (⟨S32768x1, .f32⟩ : BufTy).Contents (Elt F) → (⟨S32768x1, .f32⟩ : BufTy).Contents (Elt F) → (⟨S32768x1, .f32⟩ : BufTy).Contents (Elt F)),
    StableHlo.binary main_v592 main_v577 main_v593 (mulf : (⟨S32768x1, .f32⟩ : BufTy).Contents (Elt F) → (⟨S32768x1, .f32⟩ : BufTy).Contents (Elt F) → (⟨S32768x1, .f32⟩ : BufTy).Contents (Elt F)),
    StableHlo.binary main_v593 main_v578 main_v594 (addf : (⟨S32768x1, .f32⟩ : BufTy).Contents (Elt F) → (⟨S32768x1, .f32⟩ : BufTy).Contents (Elt F) → (⟨S32768x1, .f32⟩ : BufTy).Contents (Elt F)),
    StableHlo.nullary main_cst_196 (constant S_ .f32 0x00000000#32),
    StableHlo.unary main_cst_196 main_v595 (broadcastInDim S32768x1 ![] bcast_S_S32768x1 : (⟨S_, .f32⟩ : BufTy).Contents (Elt F) → (⟨S32768x1, .f32⟩ : BufTy).Contents (Elt F)),
    StableHlo.binary main_v588 main_v595 main_v596 (cmpf .une : (⟨S32768x1, .f32⟩ : BufTy).Contents (Elt F) → (⟨S32768x1, .f32⟩ : BufTy).Contents (Elt F) → (⟨S32768x1, .i1⟩ : BufTy).Contents (Elt F)),
    StableHlo.unary main_v596 main_v597 (uitofp .f32 : (⟨S32768x1, .i1⟩ : BufTy).Contents (Elt F) → (⟨S32768x1, .f32⟩ : BufTy).Contents (Elt F)),
    StableHlo.binary main_v597 main_v595 main_v598 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v588 main_v595 main_v599 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_197 (constant S_ .f32 0x40000000#32),
    StableHlo.unary main_cst_197 main_v600 (broadcastInDim S32768x2 ![] bcast_S_S32768x2 : (⟨S_, .f32⟩ : BufTy).Contents (Elt F) → (⟨S32768x2, .f32⟩ : BufTy).Contents (Elt F)),
    StableHlo.binary main_v600 main_v598 main_v601 (mulf : (⟨S32768x2, .f32⟩ : BufTy).Contents (Elt F) → (⟨S32768x2, .f32⟩ : BufTy).Contents (Elt F) → (⟨S32768x2, .f32⟩ : BufTy).Contents (Elt F)),
    StableHlo.nullary main_cst_198 (constant S_ .f32 0x3F800000#32),
    StableHlo.unary main_cst_198 main_v602 (broadcastInDim S32768x2 ![] bcast_S_S32768x2 : (⟨S_, .f32⟩ : BufTy).Contents (Elt F) → (⟨S32768x2, .f32⟩ : BufTy).Contents (Elt F)),
    StableHlo.binary main_v602 main_v601 main_v603 (subf : (⟨S32768x2, .f32⟩ : BufTy).Contents (Elt F) → (⟨S32768x2, .f32⟩ : BufTy).Contents (Elt F) → (⟨S32768x2, .f32⟩ : BufTy).Contents (Elt F)),
    StableHlo.binary main_v603 main_v566 main_v604 (mulf : (⟨S32768x2, .f32⟩ : BufTy).Contents (Elt F) → (⟨S32768x2, .f32⟩ : BufTy).Contents (Elt F) → (⟨S32768x2, .f32⟩ : BufTy).Contents (Elt F)),
    StableHlo.binary main_v604 main_v567 main_v605 (addf : (⟨S32768x2, .f32⟩ : BufTy).Contents (Elt F) → (⟨S32768x2, .f32⟩ : BufTy).Contents (Elt F) → (⟨S32768x2, .f32⟩ : BufTy).Contents (Elt F)),
    StableHlo.unary main_v605 main_v606 ((extractStridedSlice S32768x1 ![0, 0] · slices_S32768x2_S32768x1_0_0) : (⟨S32768x2, .f32⟩ : BufTy).Contents (Elt F) → (⟨S32768x1, .f32⟩ : BufTy).Contents (Elt F)),
    StableHlo.unary main_v605 main_v607 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_199 (constant S_ .f32 0xC1F00000#32),
    StableHlo.nullary main_cst_200 (constant S_ .f32 0x41F00000#32),
    StableHlo.TRef.unary (.of main_cst_199 : StableHlo.TRef sig ⟨S_, .f32⟩) main_call60.v0 id,
    StableHlo.TRef.unary main_call60.v0 main_call60.v1 (broadcastInDim S32768x1 ![] bcast_S_S32768x1),
    StableHlo.TRef.binary main_call60.v1 (.of main_v606 : StableHlo.TRef sig ⟨S32768x1, .f32⟩) main_call60.v2 maximumf,
    StableHlo.TRef.unary (.of main_cst_200 : StableHlo.TRef sig ⟨S_, .f32⟩) main_call60.v3 id,
    StableHlo.TRef.unary main_call60.v3 main_call60.v4 (broadcastInDim S32768x1 ![] bcast_S_S32768x1),
    StableHlo.TRef.binary main_call60.v4 main_call60.v2 main_call60.v5 minimumf,
    StableHlo.nullary main_cst_201 (constant S_ .f32 0xC1F00000#32),
    StableHlo.nullary main_cst_202 (constant S_ .f32 0x41F00000#32),
    StableHlo.TRef.unary (.of main_cst_201 : StableHlo.TRef sig ⟨S_, .f32⟩) main_call61.v0 id,
    StableHlo.TRef.unary main_call61.v0 main_call61.v1 (broadcastInDim S32768x1 ![] bcast_S_S32768x1),
    StableHlo.TRef.binary main_call61.v1 (.of main_v607 : StableHlo.TRef sig ⟨S32768x1, .f32⟩) main_call61.v2 maximumf,
    StableHlo.TRef.unary (.of main_cst_202 : StableHlo.TRef sig ⟨S_, .f32⟩) main_call61.v3 id,
    StableHlo.TRef.unary main_call61.v3 main_call61.v4 (broadcastInDim S32768x1 ![] bcast_S_S32768x1),
    StableHlo.TRef.binary main_call61.v4 main_call61.v2 main_call61.v5 minimumf,
    StableHlo.unary main_v608 main_v610 (Host.sign : (⟨S32768x1, .f32⟩ : BufTy).Contents (Elt F) → (⟨S32768x1, .f32⟩ : BufTy).Contents (Elt F)),
    StableHlo.unary main_v609 main_v611 (Host.sign : (⟨S32768x1, .f32⟩ : BufTy).Contents (Elt F) → (⟨S32768x1, .f32⟩ : BufTy).Contents (Elt F)),
    StableHlo.binary main_v610 main_v611 main_v612 (mulf : (⟨S32768x1, .f32⟩ : BufTy).Contents (Elt F) → (⟨S32768x1, .f32⟩ : BufTy).Contents (Elt F) → (⟨S32768x1, .f32⟩ : BufTy).Contents (Elt F)),
    StableHlo.unary main_v608 main_v613 (Host.absf : (⟨S32768x1, .f32⟩ : BufTy).Contents (Elt F) → (⟨S32768x1, .f32⟩ : BufTy).Contents (Elt F)),
    StableHlo.unary main_v609 main_v614 (Host.absf : (⟨S32768x1, .f32⟩ : BufTy).Contents (Elt F) → (⟨S32768x1, .f32⟩ : BufTy).Contents (Elt F)),
    StableHlo.binary main_v613 main_v614 main_v615 (minimumf : (⟨S32768x1, .f32⟩ : BufTy).Contents (Elt F) → (⟨S32768x1, .f32⟩ : BufTy).Contents (Elt F) → (⟨S32768x1, .f32⟩ : BufTy).Contents (Elt F)),
    StableHlo.binary main_v612 main_v615 main_v616 (mulf : (⟨S32768x1, .f32⟩ : BufTy).Contents (Elt F) → (⟨S32768x1, .f32⟩ : BufTy).Contents (Elt F) → (⟨S32768x1, .f32⟩ : BufTy).Contents (Elt F)),
    StableHlo.nullary main_cst_203 (constant S_ .f32 0x00000000#32),
    StableHlo.unary main_cst_203 main_v617 (broadcastInDim S32768x1 ![] bcast_S_S32768x1 : (⟨S_, .f32⟩ : BufTy).Contents (Elt F) → (⟨S32768x1, .f32⟩ : BufTy).Contents (Elt F)),
    StableHlo.nullary main_cst_204 (constant S_ .f32 0x40000000#32),
    StableHlo.unary main_cst_204 main_v618 (broadcastInDim S32768x1 ![] bcast_S_S32768x1 : (⟨S_, .f32⟩ : BufTy).Contents (Elt F) → (⟨S32768x1, .f32⟩ : BufTy).Contents (Elt F)),
    StableHlo.binary main_v618 main_v617 main_v619 (mulf : (⟨S32768x1, .f32⟩ : BufTy).Contents (Elt F) → (⟨S32768x1, .f32⟩ : BufTy).Contents (Elt F) → (⟨S32768x1, .f32⟩ : BufTy).Contents (Elt F)),
    StableHlo.nullary main_cst_205 (constant S_ .f32 0x3F800000#32),
    StableHlo.unary main_cst_205 main_v620 (broadcastInDim S32768x1 ![] bcast_S_S32768x1 : (⟨S_, .f32⟩ : BufTy).Contents (Elt F) → (⟨S32768x1, .f32⟩ : BufTy).Contents (Elt F)),
    StableHlo.binary main_v620 main_v619 main_v621 (subf : (⟨S32768x1, .f32⟩ : BufTy).Contents (Elt F) → (⟨S32768x1, .f32⟩ : BufTy).Contents (Elt F) → (⟨S32768x1, .f32⟩ : BufTy).Contents (Elt F)),
    StableHlo.binary main_v621 main_v606 main_v622 (mulf : (⟨S32768x1, .f32⟩ : BufTy).Contents (Elt F) → (⟨S32768x1, .f32⟩ : BufTy).Contents (Elt F) → (⟨S32768x1, .f32⟩ : BufTy).Contents (Elt F)),
    StableHlo.binary main_v622 main_v607 main_v623 (addf : (⟨S32768x1, .f32⟩ : BufTy).Contents (Elt F) → (⟨S32768x1, .f32⟩ : BufTy).Contents (Elt F) → (⟨S32768x1, .f32⟩ : BufTy).Contents (Elt F)),
    StableHlo.nullary main_cst_206 (constant S_ .f32 0x00000000#32),
    StableHlo.unary main_cst_206 main_v624 (broadcastInDim S32768x1 ![] bcast_S_S32768x1 : (⟨S_, .f32⟩ : BufTy).Contents (Elt F) → (⟨S32768x1, .f32⟩ : BufTy).Contents (Elt F)),
    StableHlo.binary main_v617 main_v624 main_v625 (cmpf .une : (⟨S32768x1, .f32⟩ : BufTy).Contents (Elt F) → (⟨S32768x1, .f32⟩ : BufTy).Contents (Elt F) → (⟨S32768x1, .i1⟩ : BufTy).Contents (Elt F)),
    StableHlo.unary main_v625 main_v626 (uitofp .f32 : (⟨S32768x1, .i1⟩ : BufTy).Contents (Elt F) → (⟨S32768x1, .f32⟩ : BufTy).Contents (Elt F)),
    StableHlo.binary main_v626 main_v624 main_v627 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v617 main_v624 main_v628 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v598 main_v627 main_v629 (cmpf .une : (⟨S32768x2, .f32⟩ : BufTy).Contents (Elt F) → (⟨S32768x2, .f32⟩ : BufTy).Contents (Elt F) → (⟨S32768x2, .i1⟩ : BufTy).Contents (Elt F)),
    StableHlo.unary main_v629 main_v630 (uitofp .f32 : (⟨S32768x2, .i1⟩ : BufTy).Contents (Elt F) → (⟨S32768x2, .f32⟩ : BufTy).Contents (Elt F)) ]

set_option maxRecDepth 8192 in
/-- The window is that straight line: each clip function unfolded at its calls, the sequencing reassociated. -/
theorem part_eq_13 (d : Dev nD) : main_part13 (F := F) d = seq ops13 := by
  simp only [main_part13, fn_clip_6.body, seq, bind_assoc, pure_bind]
  rfl

/-- Every operation of the window touches TensorCore references only. -/
theorem sub_13 : (ops13 : List (HloOp τ sig (Elt F))).Forall fun op => op.bufs ⊆ tcRefs τ sig :=
  ⟨unary_bufs_sub .., binary_bufs_sub .., binary_bufs_sub .., nullary_bufs_sub .., unary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., nullary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., binary_bufs_sub .., binary_bufs_sub .., unary_bufs_sub ..⟩

/-- Every operation of the window determines all it writes. -/
theorem fresh_13 : (ops13 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_13 (V : Valuation τ sig (Elt F)) :
    after ops13 V (main_arg0 : DevRef τ sig) = V (main_arg0 : DevRef τ sig) := by
  simp only [after_cons, after_nil]
  rfl

/-- The operations of @main's statements 841 … 900, in order (80 of them): a statement's own operation, or, for a call
    of a clip function, the six operations of its body over that call's buffers. -/
abbrev ops14 : List (HloOp τ sig (Elt F)) :=
  [ StableHlo.binary main_v630 main_v627 main_v631 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v599 main_v628 main_v632 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_207 (constant S_ .f32 0x40000000#32),
    StableHlo.unary main_cst_207 main_v633 (broadcastInDim S32768x4 ![] bcast_S_S32768x4 : (⟨S_, .f32⟩ : BufTy).Contents (Elt F) → (⟨S32768x4, .f32⟩ : BufTy).Contents (Elt F)),
    StableHlo.binary main_v633 main_v631 main_v634 (mulf : (⟨S32768x4, .f32⟩ : BufTy).Contents (Elt F) → (⟨S32768x4, .f32⟩ : BufTy).Contents (Elt F) → (⟨S32768x4, .f32⟩ : BufTy).Contents (Elt F)),
    StableHlo.nullary main_cst_208 (constant S_ .f32 0x3F800000#32),
    StableHlo.unary main_cst_208 main_v635 (broadcastInDim S32768x4 ![] bcast_S_S32768x4 : (⟨S_, .f32⟩ : BufTy).Contents (Elt F) → (⟨S32768x4, .f32⟩ : BufTy).Contents (Elt F)),
    StableHlo.binary main_v635 main_v634 main_v636 (subf : (⟨S32768x4, .f32⟩ : BufTy).Contents (Elt F) → (⟨S32768x4, .f32⟩ : BufTy).Contents (Elt F) → (⟨S32768x4, .f32⟩ : BufTy).Contents (Elt F)),
    StableHlo.binary main_v636 main_v555 main_v637 (mulf : (⟨S32768x4, .f32⟩ : BufTy).Contents (Elt F) → (⟨S32768x4, .f32⟩ : BufTy).Contents (Elt F) → (⟨S32768x4, .f32⟩ : BufTy).Contents (Elt F)),
    StableHlo.binary main_v637 main_v556 main_v638 (addf : (⟨S32768x4, .f32⟩ : BufTy).Contents (Elt F) → (⟨S32768x4, .f32⟩ : BufTy).Contents (Elt F) → (⟨S32768x4, .f32⟩ : BufTy).Contents (Elt F)),
    StableHlo.unary main_v638 main_v639 ((extractStridedSlice S32768x2 ![0, 0] · slices_S32768x4_S32768x2_0_0) : (⟨S32768x4, .f32⟩ : BufTy).Contents (Elt F) → (⟨S32768x2, .f32⟩ : BufTy).Contents (Elt F)),
    StableHlo.unary main_v638 main_v640 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_209 (constant S_ .f32 0xC1F00000#32),
    StableHlo.nullary main_cst_210 (constant S_ .f32 0x41F00000#32),
    StableHlo.TRef.unary (.of main_cst_209 : StableHlo.TRef sig ⟨S_, .f32⟩) main_call62.v0 id,
    StableHlo.TRef.unary main_call62.v0 main_call62.v1 (broadcastInDim S32768x2 ![] bcast_S_S32768x2),
    StableHlo.TRef.binary main_call62.v1 (.of main_v639 : StableHlo.TRef sig ⟨S32768x2, .f32⟩) main_call62.v2 maximumf,
    StableHlo.TRef.unary (.of main_cst_210 : StableHlo.TRef sig ⟨S_, .f32⟩) main_call62.v3 id,
    StableHlo.TRef.unary main_call62.v3 main_call62.v4 (broadcastInDim S32768x2 ![] bcast_S_S32768x2),
    StableHlo.TRef.binary main_call62.v4 main_call62.v2 main_call62.v5 minimumf,
    StableHlo.nullary main_cst_211 (constant S_ .f32 0xC1F00000#32),
    StableHlo.nullary main_cst_212 (constant S_ .f32 0x41F00000#32),
    StableHlo.TRef.unary (.of main_cst_211 : StableHlo.TRef sig ⟨S_, .f32⟩) main_call63.v0 id,
    StableHlo.TRef.unary main_call63.v0 main_call63.v1 (broadcastInDim S32768x2 ![] bcast_S_S32768x2),
    StableHlo.TRef.binary main_call63.v1 (.of main_v640 : StableHlo.TRef sig ⟨S32768x2, .f32⟩) main_call63.v2 maximumf,
    StableHlo.TRef.unary (.of main_cst_212 : StableHlo.TRef sig ⟨S_, .f32⟩) main_call63.v3 id,
    StableHlo.TRef.unary main_call63.v3 main_call63.v4 (broadcastInDim S32768x2 ![] bcast_S_S32768x2),
    StableHlo.TRef.binary main_call63.v4 main_call63.v2 main_call63.v5 minimumf,
    StableHlo.unary main_v641 main_v643 (Host.sign : (⟨S32768x2, .f32⟩ : BufTy).Contents (Elt F) → (⟨S32768x2, .f32⟩ : BufTy).Contents (Elt F)),
    StableHlo.unary main_v642 main_v644 (Host.sign : (⟨S32768x2, .f32⟩ : BufTy).Contents (Elt F) → (⟨S32768x2, .f32⟩ : BufTy).Contents (Elt F)),
    StableHlo.binary main_v643 main_v644 main_v645 (mulf : (⟨S32768x2, .f32⟩ : BufTy).Contents (Elt F) → (⟨S32768x2, .f32⟩ : BufTy).Contents (Elt F) → (⟨S32768x2, .f32⟩ : BufTy).Contents (Elt F)),
    StableHlo.unary main_v641 main_v646 (Host.absf : (⟨S32768x2, .f32⟩ : BufTy).Contents (Elt F) → (⟨S32768x2, .f32⟩ : BufTy).Contents (Elt F)),
    StableHlo.unary main_v642 main_v647 (Host.absf : (⟨S32768x2, .f32⟩ : BufTy).Contents (Elt F) → (⟨S32768x2, .f32⟩ : BufTy).Contents (Elt F)),
    StableHlo.binary main_v646 main_v647 main_v648 (minimumf : (⟨S32768x2, .f32⟩ : BufTy).Contents (Elt F) → (⟨S32768x2, .f32⟩ : BufTy).Contents (Elt F) → (⟨S32768x2, .f32⟩ : BufTy).Contents (Elt F)),
    StableHlo.binary main_v645 main_v648 main_v649 (mulf : (⟨S32768x2, .f32⟩ : BufTy).Contents (Elt F) → (⟨S32768x2, .f32⟩ : BufTy).Contents (Elt F) → (⟨S32768x2, .f32⟩ : BufTy).Contents (Elt F)),
    StableHlo.unary main_v649 main_v650 ((extractStridedSlice S32768x1 ![0, 0] · slices_S32768x2_S32768x1_0_0) : (⟨S32768x2, .f32⟩ : BufTy).Contents (Elt F) → (⟨S32768x1, .f32⟩ : BufTy).Contents (Elt F)),
    StableHlo.unary main_v649 main_v651 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_213 (constant S_ .f32 0xC1F00000#32),
    StableHlo.nullary main_cst_214 (constant S_ .f32 0x41F00000#32),
    StableHlo.TRef.unary (.of main_cst_213 : StableHlo.TRef sig ⟨S_, .f32⟩) main_call64.v0 id,
    StableHlo.TRef.unary main_call64.v0 main_call64.v1 (broadcastInDim S32768x1 ![] bcast_S_S32768x1),
    StableHlo.TRef.binary main_call64.v1 (.of main_v650 : StableHlo.TRef sig ⟨S32768x1, .f32⟩) main_call64.v2 maximumf,
    StableHlo.TRef.unary (.of main_cst_214 : StableHlo.TRef sig ⟨S_, .f32⟩) main_call64.v3 id,
    StableHlo.TRef.unary main_call64.v3 main_call64.v4 (broadcastInDim S32768x1 ![] bcast_S_S32768x1),
    StableHlo.TRef.binary main_call64.v4 main_call64.v2 main_call64.v5 minimumf,
    StableHlo.nullary main_cst_215 (constant S_ .f32 0xC1F00000#32),
    StableHlo.nullary main_cst_216 (constant S_ .f32 0x41F00000#32),
    StableHlo.TRef.unary (.of main_cst_215 : StableHlo.TRef sig ⟨S_, .f32⟩) main_call65.v0 id,
    StableHlo.TRef.unary main_call65.v0 main_call65.v1 (broadcastInDim S32768x1 ![] bcast_S_S32768x1),
    StableHlo.TRef.binary main_call65.v1 (.of main_v651 : StableHlo.TRef sig ⟨S32768x1, .f32⟩) main_call65.v2 maximumf,
    StableHlo.TRef.unary (.of main_cst_216 : StableHlo.TRef sig ⟨S_, .f32⟩) main_call65.v3 id,
    StableHlo.TRef.unary main_call65.v3 main_call65.v4 (broadcastInDim S32768x1 ![] bcast_S_S32768x1),
    StableHlo.TRef.binary main_call65.v4 main_call65.v2 main_call65.v5 minimumf,
    StableHlo.unary main_v652 main_v654 (Host.sign : (⟨S32768x1, .f32⟩ : BufTy).Contents (Elt F) → (⟨S32768x1, .f32⟩ : BufTy).Contents (Elt F)),
    StableHlo.unary main_v653 main_v655 (Host.sign : (⟨S32768x1, .f32⟩ : BufTy).Contents (Elt F) → (⟨S32768x1, .f32⟩ : BufTy).Contents (Elt F)),
    StableHlo.binary main_v654 main_v655 main_v656 (mulf : (⟨S32768x1, .f32⟩ : BufTy).Contents (Elt F) → (⟨S32768x1, .f32⟩ : BufTy).Contents (Elt F) → (⟨S32768x1, .f32⟩ : BufTy).Contents (Elt F)),
    StableHlo.unary main_v652 main_v657 (Host.absf : (⟨S32768x1, .f32⟩ : BufTy).Contents (Elt F) → (⟨S32768x1, .f32⟩ : BufTy).Contents (Elt F)),
    StableHlo.unary main_v653 main_v658 (Host.absf : (⟨S32768x1, .f32⟩ : BufTy).Contents (Elt F) → (⟨S32768x1, .f32⟩ : BufTy).Contents (Elt F)),
    StableHlo.binary main_v657 main_v658 main_v659 (minimumf : (⟨S32768x1, .f32⟩ : BufTy).Contents (Elt F) → (⟨S32768x1, .f32⟩ : BufTy).Contents (Elt F) → (⟨S32768x1, .f32⟩ : BufTy).Contents (Elt F)),
    StableHlo.binary main_v656 main_v659 main_v660 (mulf : (⟨S32768x1, .f32⟩ : BufTy).Contents (Elt F) → (⟨S32768x1, .f32⟩ : BufTy).Contents (Elt F) → (⟨S32768x1, .f32⟩ : BufTy).Contents (Elt F)),
    StableHlo.nullary main_cst_217 (constant S_ .f32 0x00000000#32),
    StableHlo.unary main_cst_217 main_v661 (broadcastInDim S32768x1 ![] bcast_S_S32768x1 : (⟨S_, .f32⟩ : BufTy).Contents (Elt F) → (⟨S32768x1, .f32⟩ : BufTy).Contents (Elt F)),
    StableHlo.nullary main_cst_218 (constant S_ .f32 0x40000000#32),
    StableHlo.unary main_cst_218 main_v662 (broadcastInDim S32768x1 ![] bcast_S_S32768x1 : (⟨S_, .f32⟩ : BufTy).Contents (Elt F) → (⟨S32768x1, .f32⟩ : BufTy).Contents (Elt F)),
    StableHlo.binary main_v662 main_v661 main_v663 (mulf : (⟨S32768x1, .f32⟩ : BufTy).Contents (Elt F) → (⟨S32768x1, .f32⟩ : BufTy).Contents (Elt F) → (⟨S32768x1, .f32⟩ : BufTy).Contents (Elt F)),
    StableHlo.nullary main_cst_219 (constant S_ .f32 0x3F800000#32),
    StableHlo.unary main_cst_219 main_v664 (broadcastInDim S32768x1 ![] bcast_S_S32768x1 : (⟨S_, .f32⟩ : BufTy).Contents (Elt F) → (⟨S32768x1, .f32⟩ : BufTy).Contents (Elt F)),
    StableHlo.binary main_v664 main_v663 main_v665 (subf : (⟨S32768x1, .f32⟩ : BufTy).Contents (Elt F) → (⟨S32768x1, .f32⟩ : BufTy).Contents (Elt F) → (⟨S32768x1, .f32⟩ : BufTy).Contents (Elt F)),
    StableHlo.binary main_v665 main_v650 main_v666 (mulf : (⟨S32768x1, .f32⟩ : BufTy).Contents (Elt F) → (⟨S32768x1, .f32⟩ : BufTy).Contents (Elt F) → (⟨S32768x1, .f32⟩ : BufTy).Contents (Elt F)),
    StableHlo.binary main_v666 main_v651 main_v667 (addf : (⟨S32768x1, .f32⟩ : BufTy).Contents (Elt F) → (⟨S32768x1, .f32⟩ : BufTy).Contents (Elt F) → (⟨S32768x1, .f32⟩ : BufTy).Contents (Elt F)),
    StableHlo.nullary main_cst_220 (constant S_ .f32 0x00000000#32),
    StableHlo.unary main_cst_220 main_v668 (broadcastInDim S32768x1 ![] bcast_S_S32768x1 : (⟨S_, .f32⟩ : BufTy).Contents (Elt F) → (⟨S32768x1, .f32⟩ : BufTy).Contents (Elt F)),
    StableHlo.binary main_v661 main_v668 main_v669 (cmpf .une : (⟨S32768x1, .f32⟩ : BufTy).Contents (Elt F) → (⟨S32768x1, .f32⟩ : BufTy).Contents (Elt F) → (⟨S32768x1, .i1⟩ : BufTy).Contents (Elt F)),
    StableHlo.unary main_v669 main_v670 (uitofp .f32 : (⟨S32768x1, .i1⟩ : BufTy).Contents (Elt F) → (⟨S32768x1, .f32⟩ : BufTy).Contents (Elt F)),
    StableHlo.binary main_v670 main_v668 main_v671 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v661 main_v668 main_v672 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_221 (constant S_ .f32 0x40000000#32),
    StableHlo.unary main_cst_221 main_v673 (broadcastInDim S32768x2 ![] bcast_S_S32768x2 : (⟨S_, .f32⟩ : BufTy).Contents (Elt F) → (⟨S32768x2, .f32⟩ : BufTy).Contents (Elt F)),
    StableHlo.binary main_v673 main_v671 main_v674 (mulf : (⟨S32768x2, .f32⟩ : BufTy).Contents (Elt F) → (⟨S32768x2, .f32⟩ : BufTy).Contents (Elt F) → (⟨S32768x2, .f32⟩ : BufTy).Contents (Elt F)),
    StableHlo.nullary main_cst_222 (constant S_ .f32 0x3F800000#32) ]

set_option maxRecDepth 8192 in
/-- The window is that straight line: each clip function unfolded at its calls, the sequencing reassociated. -/
theorem part_eq_14 (d : Dev nD) : main_part14 (F := F) d = seq ops14 := by
  simp only [main_part14, fn_clip_5.body, fn_clip_6.body, seq, bind_assoc, pure_bind]
  rfl

/-- Every operation of the window touches TensorCore references only. -/
theorem sub_14 : (ops14 : List (HloOp τ sig (Elt F))).Forall fun op => op.bufs ⊆ tcRefs τ sig :=
  ⟨binary_bufs_sub .., binary_bufs_sub .., nullary_bufs_sub .., unary_bufs_sub .., binary_bufs_sub .., nullary_bufs_sub ..,
    unary_bufs_sub .., binary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., nullary_bufs_sub .., unary_bufs_sub .., binary_bufs_sub .., nullary_bufs_sub ..,
    unary_bufs_sub .., binary_bufs_sub .., binary_bufs_sub .., binary_bufs_sub .., nullary_bufs_sub .., unary_bufs_sub ..,
    binary_bufs_sub .., unary_bufs_sub .., binary_bufs_sub .., binary_bufs_sub .., nullary_bufs_sub .., unary_bufs_sub ..,
    binary_bufs_sub .., nullary_bufs_sub ..⟩

/-- Every operation of the window determines all it writes. -/
theorem fresh_14 : (ops14 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_14 (V : Valuation τ sig (Elt F)) :
    after ops14 V (main_arg0 : DevRef τ sig) = V (main_arg0 : DevRef τ sig) := by
  simp only [after_cons, after_nil]
  rfl

/-- The operations of @main's statements 901 … 960, in order (70 of them): a statement's own operation, or, for a call
    of a clip function, the six operations of its body over that call's buffers. -/
abbrev ops15 : List (HloOp τ sig (Elt F)) :=
  [ StableHlo.unary main_cst_222 main_v675 (broadcastInDim S32768x2 ![] bcast_S_S32768x2 : (⟨S_, .f32⟩ : BufTy).Contents (Elt F) → (⟨S32768x2, .f32⟩ : BufTy).Contents (Elt F)),
    StableHlo.binary main_v675 main_v674 main_v676 (subf : (⟨S32768x2, .f32⟩ : BufTy).Contents (Elt F) → (⟨S32768x2, .f32⟩ : BufTy).Contents (Elt F) → (⟨S32768x2, .f32⟩ : BufTy).Contents (Elt F)),
    StableHlo.binary main_v676 main_v639 main_v677 (mulf : (⟨S32768x2, .f32⟩ : BufTy).Contents (Elt F) → (⟨S32768x2, .f32⟩ : BufTy).Contents (Elt F) → (⟨S32768x2, .f32⟩ : BufTy).Contents (Elt F)),
    StableHlo.binary main_v677 main_v640 main_v678 (addf : (⟨S32768x2, .f32⟩ : BufTy).Contents (Elt F) → (⟨S32768x2, .f32⟩ : BufTy).Contents (Elt F) → (⟨S32768x2, .f32⟩ : BufTy).Contents (Elt F)),
    StableHlo.unary main_v678 main_v679 ((extractStridedSlice S32768x1 ![0, 0] · slices_S32768x2_S32768x1_0_0) : (⟨S32768x2, .f32⟩ : BufTy).Contents (Elt F) → (⟨S32768x1, .f32⟩ : BufTy).Contents (Elt F)),
    StableHlo.unary main_v678 main_v680 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_223 (constant S_ .f32 0xC1F00000#32),
    StableHlo.nullary main_cst_224 (constant S_ .f32 0x41F00000#32),
    StableHlo.TRef.unary (.of main_cst_223 : StableHlo.TRef sig ⟨S_, .f32⟩) main_call66.v0 id,
    StableHlo.TRef.unary main_call66.v0 main_call66.v1 (broadcastInDim S32768x1 ![] bcast_S_S32768x1),
    StableHlo.TRef.binary main_call66.v1 (.of main_v679 : StableHlo.TRef sig ⟨S32768x1, .f32⟩) main_call66.v2 maximumf,
    StableHlo.TRef.unary (.of main_cst_224 : StableHlo.TRef sig ⟨S_, .f32⟩) main_call66.v3 id,
    StableHlo.TRef.unary main_call66.v3 main_call66.v4 (broadcastInDim S32768x1 ![] bcast_S_S32768x1),
    StableHlo.TRef.binary main_call66.v4 main_call66.v2 main_call66.v5 minimumf,
    StableHlo.nullary main_cst_225 (constant S_ .f32 0xC1F00000#32),
    StableHlo.nullary main_cst_226 (constant S_ .f32 0x41F00000#32),
    StableHlo.TRef.unary (.of main_cst_225 : StableHlo.TRef sig ⟨S_, .f32⟩) main_call67.v0 id,
    StableHlo.TRef.unary main_call67.v0 main_call67.v1 (broadcastInDim S32768x1 ![] bcast_S_S32768x1),
    StableHlo.TRef.binary main_call67.v1 (.of main_v680 : StableHlo.TRef sig ⟨S32768x1, .f32⟩) main_call67.v2 maximumf,
    StableHlo.TRef.unary (.of main_cst_226 : StableHlo.TRef sig ⟨S_, .f32⟩) main_call67.v3 id,
    StableHlo.TRef.unary main_call67.v3 main_call67.v4 (broadcastInDim S32768x1 ![] bcast_S_S32768x1),
    StableHlo.TRef.binary main_call67.v4 main_call67.v2 main_call67.v5 minimumf,
    StableHlo.unary main_v681 main_v683 (Host.sign : (⟨S32768x1, .f32⟩ : BufTy).Contents (Elt F) → (⟨S32768x1, .f32⟩ : BufTy).Contents (Elt F)),
    StableHlo.unary main_v682 main_v684 (Host.sign : (⟨S32768x1, .f32⟩ : BufTy).Contents (Elt F) → (⟨S32768x1, .f32⟩ : BufTy).Contents (Elt F)),
    StableHlo.binary main_v683 main_v684 main_v685 (mulf : (⟨S32768x1, .f32⟩ : BufTy).Contents (Elt F) → (⟨S32768x1, .f32⟩ : BufTy).Contents (Elt F) → (⟨S32768x1, .f32⟩ : BufTy).Contents (Elt F)),
    StableHlo.unary main_v681 main_v686 (Host.absf : (⟨S32768x1, .f32⟩ : BufTy).Contents (Elt F) → (⟨S32768x1, .f32⟩ : BufTy).Contents (Elt F)),
    StableHlo.unary main_v682 main_v687 (Host.absf : (⟨S32768x1, .f32⟩ : BufTy).Contents (Elt F) → (⟨S32768x1, .f32⟩ : BufTy).Contents (Elt F)),
    StableHlo.binary main_v686 main_v687 main_v688 (minimumf : (⟨S32768x1, .f32⟩ : BufTy).Contents (Elt F) → (⟨S32768x1, .f32⟩ : BufTy).Contents (Elt F) → (⟨S32768x1, .f32⟩ : BufTy).Contents (Elt F)),
    StableHlo.binary main_v685 main_v688 main_v689 (mulf : (⟨S32768x1, .f32⟩ : BufTy).Contents (Elt F) → (⟨S32768x1, .f32⟩ : BufTy).Contents (Elt F) → (⟨S32768x1, .f32⟩ : BufTy).Contents (Elt F)),
    StableHlo.nullary main_cst_227 (constant S_ .f32 0x00000000#32),
    StableHlo.unary main_cst_227 main_v690 (broadcastInDim S32768x1 ![] bcast_S_S32768x1 : (⟨S_, .f32⟩ : BufTy).Contents (Elt F) → (⟨S32768x1, .f32⟩ : BufTy).Contents (Elt F)),
    StableHlo.nullary main_cst_228 (constant S_ .f32 0x40000000#32),
    StableHlo.unary main_cst_228 main_v691 (broadcastInDim S32768x1 ![] bcast_S_S32768x1 : (⟨S_, .f32⟩ : BufTy).Contents (Elt F) → (⟨S32768x1, .f32⟩ : BufTy).Contents (Elt F)),
    StableHlo.binary main_v691 main_v690 main_v692 (mulf : (⟨S32768x1, .f32⟩ : BufTy).Contents (Elt F) → (⟨S32768x1, .f32⟩ : BufTy).Contents (Elt F) → (⟨S32768x1, .f32⟩ : BufTy).Contents (Elt F)),
    StableHlo.nullary main_cst_229 (constant S_ .f32 0x3F800000#32),
    StableHlo.unary main_cst_229 main_v693 (broadcastInDim S32768x1 ![] bcast_S_S32768x1 : (⟨S_, .f32⟩ : BufTy).Contents (Elt F) → (⟨S32768x1, .f32⟩ : BufTy).Contents (Elt F)),
    StableHlo.binary main_v693 main_v692 main_v694 (subf : (⟨S32768x1, .f32⟩ : BufTy).Contents (Elt F) → (⟨S32768x1, .f32⟩ : BufTy).Contents (Elt F) → (⟨S32768x1, .f32⟩ : BufTy).Contents (Elt F)),
    StableHlo.binary main_v694 main_v679 main_v695 (mulf : (⟨S32768x1, .f32⟩ : BufTy).Contents (Elt F) → (⟨S32768x1, .f32⟩ : BufTy).Contents (Elt F) → (⟨S32768x1, .f32⟩ : BufTy).Contents (Elt F)),
    StableHlo.binary main_v695 main_v680 main_v696 (addf : (⟨S32768x1, .f32⟩ : BufTy).Contents (Elt F) → (⟨S32768x1, .f32⟩ : BufTy).Contents (Elt F) → (⟨S32768x1, .f32⟩ : BufTy).Contents (Elt F)),
    StableHlo.nullary main_cst_230 (constant S_ .f32 0x00000000#32),
    StableHlo.unary main_cst_230 main_v697 (broadcastInDim S32768x1 ![] bcast_S_S32768x1 : (⟨S_, .f32⟩ : BufTy).Contents (Elt F) → (⟨S32768x1, .f32⟩ : BufTy).Contents (Elt F)),
    StableHlo.binary main_v690 main_v697 main_v698 (cmpf .une : (⟨S32768x1, .f32⟩ : BufTy).Contents (Elt F) → (⟨S32768x1, .f32⟩ : BufTy).Contents (Elt F) → (⟨S32768x1, .i1⟩ : BufTy).Contents (Elt F)),
    StableHlo.unary main_v698 main_v699 (uitofp .f32 : (⟨S32768x1, .i1⟩ : BufTy).Contents (Elt F) → (⟨S32768x1, .f32⟩ : BufTy).Contents (Elt F)),
    StableHlo.binary main_v699 main_v697 main_v700 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v690 main_v697 main_v701 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v671 main_v700 main_v702 (cmpf .une : (⟨S32768x2, .f32⟩ : BufTy).Contents (Elt F) → (⟨S32768x2, .f32⟩ : BufTy).Contents (Elt F) → (⟨S32768x2, .i1⟩ : BufTy).Contents (Elt F)),
    StableHlo.unary main_v702 main_v703 (uitofp .f32 : (⟨S32768x2, .i1⟩ : BufTy).Contents (Elt F) → (⟨S32768x2, .f32⟩ : BufTy).Contents (Elt F)),
    StableHlo.binary main_v703 main_v700 main_v704 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v672 main_v701 main_v705 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v631 main_v704 main_v706 (cmpf .une : (⟨S32768x4, .f32⟩ : BufTy).Contents (Elt F) → (⟨S32768x4, .f32⟩ : BufTy).Contents (Elt F) → (⟨S32768x4, .i1⟩ : BufTy).Contents (Elt F)),
    StableHlo.unary main_v706 main_v707 (uitofp .f32 : (⟨S32768x4, .i1⟩ : BufTy).Contents (Elt F) → (⟨S32768x4, .f32⟩ : BufTy).Contents (Elt F)),
    StableHlo.binary main_v707 main_v704 main_v708 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v632 main_v705 main_v709 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v547 main_v708 main_v710 (cmpf .une : (⟨S32768x8, .f32⟩ : BufTy).Contents (Elt F) → (⟨S32768x8, .f32⟩ : BufTy).Contents (Elt F) → (⟨S32768x8, .i1⟩ : BufTy).Contents (Elt F)),
    StableHlo.unary main_v710 main_v711 (uitofp .f32 : (⟨S32768x8, .i1⟩ : BufTy).Contents (Elt F) → (⟨S32768x8, .f32⟩ : BufTy).Contents (Elt F)),
    StableHlo.binary main_v711 main_v708 main_v712 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v548 main_v709 main_v713 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v375 main_v712 main_v714 (cmpf .une : (⟨S32768x16, .f32⟩ : BufTy).Contents (Elt F) → (⟨S32768x16, .f32⟩ : BufTy).Contents (Elt F) → (⟨S32768x16, .i1⟩ : BufTy).Contents (Elt F)),
    StableHlo.unary main_v714 main_v715 (uitofp .f32 : (⟨S32768x16, .i1⟩ : BufTy).Contents (Elt F) → (⟨S32768x16, .f32⟩ : BufTy).Contents (Elt F)),
    StableHlo.binary main_v715 main_v712 main_v716 ((fun a b => concatenate S32768x32 1 [⟨S32768x16, a⟩, ⟨S32768x16, b⟩] concatenates_S32768x16_S32768x16_S32768x32_d1) : (⟨S32768x16, .f32⟩ : BufTy).Contents (Elt F) → (⟨S32768x16, .f32⟩ : BufTy).Contents (Elt F) → (⟨S32768x32, .f32⟩ : BufTy).Contents (Elt F)),
    StableHlo.binary main_v376 main_v713 main_v717 ((fun a b => concatenate S32768x32 1 [⟨S32768x16, a⟩, ⟨S32768x16, b⟩] concatenates_S32768x16_S32768x16_S32768x32_d1) : (⟨S32768x16, .f32⟩ : BufTy).Contents (Elt F) → (⟨S32768x16, .f32⟩ : BufTy).Contents (Elt F) → (⟨S32768x32, .f32⟩ : BufTy).Contents (Elt F)),
    StableHlo.nullary main_cst_231 (constant S_ .f32 0x40000000#32),
    StableHlo.unary main_cst_231 main_v718 (broadcastInDim S32768x32 ![] bcast_S_S32768x32 : (⟨S_, .f32⟩ : BufTy).Contents (Elt F) → (⟨S32768x32, .f32⟩ : BufTy).Contents (Elt F)),
    StableHlo.binary main_v718 main_v716 main_v719 (mulf : (⟨S32768x32, .f32⟩ : BufTy).Contents (Elt F) → (⟨S32768x32, .f32⟩ : BufTy).Contents (Elt F) → (⟨S32768x32, .f32⟩ : BufTy).Contents (Elt F)),
    StableHlo.nullary main_cst_232 (constant S_ .f32 0x3F800000#32),
    StableHlo.unary main_cst_232 main_v720 (broadcastInDim S32768x32 ![] bcast_S_S32768x32 : (⟨S_, .f32⟩ : BufTy).Contents (Elt F) → (⟨S32768x32, .f32⟩ : BufTy).Contents (Elt F)),
    StableHlo.binary main_v720 main_v719 main_v721 (subf : (⟨S32768x32, .f32⟩ : BufTy).Contents (Elt F) → (⟨S32768x32, .f32⟩ : BufTy).Contents (Elt F) → (⟨S32768x32, .f32⟩ : BufTy).Contents (Elt F)),
    StableHlo.binary main_v721 main_v24 main_v722 (mulf : (⟨S32768x32, .f32⟩ : BufTy).Contents (Elt F) → (⟨S32768x32, .f32⟩ : BufTy).Contents (Elt F) → (⟨S32768x32, .f32⟩ : BufTy).Contents (Elt F)),
    StableHlo.binary main_v722 main_v25 main_v723 (addf : (⟨S32768x32, .f32⟩ : BufTy).Contents (Elt F) → (⟨S32768x32, .f32⟩ : BufTy).Contents (Elt F) → (⟨S32768x32, .f32⟩ : BufTy).Contents (Elt F)),
    StableHlo.unary main_v723 main_v724 ((extractStridedSlice S32768x16 ![0, 0] · slices_S32768x32_S32768x16_0_0) : (⟨S32768x32, .f32⟩ : BufTy).Contents (Elt F) → (⟨S32768x16, .f32⟩ : BufTy).Contents (Elt F)) ]

set_option maxRecDepth 8192 in
/-- The window is that straight line: each clip function unfolded at its calls, the sequencing reassociated. -/
theorem part_eq_15 (d : Dev nD) : main_part15 (F := F) d = seq ops15 := by
  simp only [main_part15, fn_clip_6.body, seq, bind_assoc, pure_bind]
  rfl

/-- Every operation of the window touches TensorCore references only. -/
theorem sub_15 : (ops15 : List (HloOp τ sig (Elt F))).Forall fun op => op.bufs ⊆ tcRefs τ sig :=
  ⟨unary_bufs_sub .., binary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., nullary_bufs_sub ..,
    unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    unary_bufs_sub .., binary_bufs_sub .., binary_bufs_sub .., binary_bufs_sub .., unary_bufs_sub .., binary_bufs_sub ..,
    binary_bufs_sub .., binary_bufs_sub .., unary_bufs_sub .., binary_bufs_sub .., binary_bufs_sub .., binary_bufs_sub ..,
    unary_bufs_sub .., binary_bufs_sub .., binary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub ..⟩

/-- Every operation of the window determines all it writes. -/
theorem fresh_15 : (ops15 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_15 (V : Valuation τ sig (Elt F)) :
    after ops15 V (main_arg0 : DevRef τ sig) = V (main_arg0 : DevRef τ sig) := by
  simp only [after_cons, after_nil]
  rfl

end Cert.ReferenceIdeal.RefRun

end
-- ==== Proof.RefRun.W02.lean ====
import proofs.«134088_j24077586662034_2_alg».proof.Defs
import proofs.«134088_j24077586662034_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 961 … 1020, in order (100 of them): a statement's own operation, or, for a call
    of a clip function, the six operations of its body over that call's buffers. -/
abbrev ops16 : List (HloOp τ sig (Elt F)) :=
  [ StableHlo.unary main_v723 main_v725 ((extractStridedSlice S32768x16 ![0, 16] · slices_S32768x32_S32768x16_0_16) : (⟨S32768x32, .f32⟩ : BufTy).Contents (Elt F) → (⟨S32768x16, .f32⟩ : BufTy).Contents (Elt F)),
    StableHlo.nullary main_cst_233 (constant S_ .f32 0xC1F00000#32),
    StableHlo.nullary main_cst_234 (constant S_ .f32 0x41F00000#32),
    StableHlo.TRef.unary (.of main_cst_233 : StableHlo.TRef sig ⟨S_, .f32⟩) main_call68.v0 id,
    StableHlo.TRef.unary main_call68.v0 main_call68.v1 (broadcastInDim S32768x16 ![] bcast_S_S32768x16),
    StableHlo.TRef.binary main_call68.v1 (.of main_v724 : StableHlo.TRef sig ⟨S32768x16, .f32⟩) main_call68.v2 maximumf,
    StableHlo.TRef.unary (.of main_cst_234 : StableHlo.TRef sig ⟨S_, .f32⟩) main_call68.v3 id,
    StableHlo.TRef.unary main_call68.v3 main_call68.v4 (broadcastInDim S32768x16 ![] bcast_S_S32768x16),
    StableHlo.TRef.binary main_call68.v4 main_call68.v2 main_call68.v5 minimumf,
    StableHlo.nullary main_cst_235 (constant S_ .f32 0xC1F00000#32),
    StableHlo.nullary main_cst_236 (constant S_ .f32 0x41F00000#32),
    StableHlo.TRef.unary (.of main_cst_235 : StableHlo.TRef sig ⟨S_, .f32⟩) main_call69.v0 id,
    StableHlo.TRef.unary main_call69.v0 main_call69.v1 (broadcastInDim S32768x16 ![] bcast_S_S32768x16),
    StableHlo.TRef.binary main_call69.v1 (.of main_v725 : StableHlo.TRef sig ⟨S32768x16, .f32⟩) main_call69.v2 maximumf,
    StableHlo.TRef.unary (.of main_cst_236 : StableHlo.TRef sig ⟨S_, .f32⟩) main_call69.v3 id,
    StableHlo.TRef.unary main_call69.v3 main_call69.v4 (broadcastInDim S32768x16 ![] bcast_S_S32768x16),
    StableHlo.TRef.binary main_call69.v4 main_call69.v2 main_call69.v5 minimumf,
    StableHlo.unary main_v726 main_v728 (Host.sign : (⟨S32768x16, .f32⟩ : BufTy).Contents (Elt F) → (⟨S32768x16, .f32⟩ : BufTy).Contents (Elt F)),
    StableHlo.unary main_v727 main_v729 (Host.sign : (⟨S32768x16, .f32⟩ : BufTy).Contents (Elt F) → (⟨S32768x16, .f32⟩ : BufTy).Contents (Elt F)),
    StableHlo.binary main_v728 main_v729 main_v730 (mulf : (⟨S32768x16, .f32⟩ : BufTy).Contents (Elt F) → (⟨S32768x16, .f32⟩ : BufTy).Contents (Elt F) → (⟨S32768x16, .f32⟩ : BufTy).Contents (Elt F)),
    StableHlo.unary main_v726 main_v731 (Host.absf : (⟨S32768x16, .f32⟩ : BufTy).Contents (Elt F) → (⟨S32768x16, .f32⟩ : BufTy).Contents (Elt F)),
    StableHlo.unary main_v727 main_v732 (Host.absf : (⟨S32768x16, .f32⟩ : BufTy).Contents (Elt F) → (⟨S32768x16, .f32⟩ : BufTy).Contents (Elt F)),
    StableHlo.binary main_v731 main_v732 main_v733 (minimumf : (⟨S32768x16, .f32⟩ : BufTy).Contents (Elt F) → (⟨S32768x16, .f32⟩ : BufTy).Contents (Elt F) → (⟨S32768x16, .f32⟩ : BufTy).Contents (Elt F)),
    StableHlo.binary main_v730 main_v733 main_v734 (mulf : (⟨S32768x16, .f32⟩ : BufTy).Contents (Elt F) → (⟨S32768x16, .f32⟩ : BufTy).Contents (Elt F) → (⟨S32768x16, .f32⟩ : BufTy).Contents (Elt F)),
    StableHlo.unary main_v734 main_v735 ((extractStridedSlice S32768x8 ![0, 0] · slices_S32768x16_S32768x8_0_0) : (⟨S32768x16, .f32⟩ : BufTy).Contents (Elt F) → (⟨S32768x8, .f32⟩ : BufTy).Contents (Elt F)),
    StableHlo.unary main_v734 main_v736 ((extractStridedSlice S32768x8 ![0, 8] · slices_S32768x16_S32768x8_0_8) : (⟨S32768x16, .f32⟩ : BufTy).Contents (Elt F) → (⟨S32768x8, .f32⟩ : BufTy).Contents (Elt F)),
    StableHlo.nullary main_cst_237 (constant S_ .f32 0xC1F00000#32),
    StableHlo.nullary main_cst_238 (constant S_ .f32 0x41F00000#32),
    StableHlo.TRef.unary (.of main_cst_237 : StableHlo.TRef sig ⟨S_, .f32⟩) main_call70.v0 id,
    StableHlo.TRef.unary main_call70.v0 main_call70.v1 (broadcastInDim S32768x8 ![] bcast_S_S32768x8),
    StableHlo.TRef.binary main_call70.v1 (.of main_v735 : StableHlo.TRef sig ⟨S32768x8, .f32⟩) main_call70.v2 maximumf,
    StableHlo.TRef.unary (.of main_cst_238 : StableHlo.TRef sig ⟨S_, .f32⟩) main_call70.v3 id,
    StableHlo.TRef.unary main_call70.v3 main_call70.v4 (broadcastInDim S32768x8 ![] bcast_S_S32768x8),
    StableHlo.TRef.binary main_call70.v4 main_call70.v2 main_call70.v5 minimumf,
    StableHlo.nullary main_cst_239 (constant S_ .f32 0xC1F00000#32),
    StableHlo.nullary main_cst_240 (constant S_ .f32 0x41F00000#32),
    StableHlo.TRef.unary (.of main_cst_239 : StableHlo.TRef sig ⟨S_, .f32⟩) main_call71.v0 id,
    StableHlo.TRef.unary main_call71.v0 main_call71.v1 (broadcastInDim S32768x8 ![] bcast_S_S32768x8),
    StableHlo.TRef.binary main_call71.v1 (.of main_v736 : StableHlo.TRef sig ⟨S32768x8, .f32⟩) main_call71.v2 maximumf,
    StableHlo.TRef.unary (.of main_cst_240 : StableHlo.TRef sig ⟨S_, .f32⟩) main_call71.v3 id,
    StableHlo.TRef.unary main_call71.v3 main_call71.v4 (broadcastInDim S32768x8 ![] bcast_S_S32768x8),
    StableHlo.TRef.binary main_call71.v4 main_call71.v2 main_call71.v5 minimumf,
    StableHlo.unary main_v737 main_v739 (Host.sign : (⟨S32768x8, .f32⟩ : BufTy).Contents (Elt F) → (⟨S32768x8, .f32⟩ : BufTy).Contents (Elt F)),
    StableHlo.unary main_v738 main_v740 (Host.sign : (⟨S32768x8, .f32⟩ : BufTy).Contents (Elt F) → (⟨S32768x8, .f32⟩ : BufTy).Contents (Elt F)),
    StableHlo.binary main_v739 main_v740 main_v741 (mulf : (⟨S32768x8, .f32⟩ : BufTy).Contents (Elt F) → (⟨S32768x8, .f32⟩ : BufTy).Contents (Elt F) → (⟨S32768x8, .f32⟩ : BufTy).Contents (Elt F)),
    StableHlo.unary main_v737 main_v742 (Host.absf : (⟨S32768x8, .f32⟩ : BufTy).Contents (Elt F) → (⟨S32768x8, .f32⟩ : BufTy).Contents (Elt F)),
    StableHlo.unary main_v738 main_v743 (Host.absf : (⟨S32768x8, .f32⟩ : BufTy).Contents (Elt F) → (⟨S32768x8, .f32⟩ : BufTy).Contents (Elt F)),
    StableHlo.binary main_v742 main_v743 main_v744 (minimumf : (⟨S32768x8, .f32⟩ : BufTy).Contents (Elt F) → (⟨S32768x8, .f32⟩ : BufTy).Contents (Elt F) → (⟨S32768x8, .f32⟩ : BufTy).Contents (Elt F)),
    StableHlo.binary main_v741 main_v744 main_v745 (mulf : (⟨S32768x8, .f32⟩ : BufTy).Contents (Elt F) → (⟨S32768x8, .f32⟩ : BufTy).Contents (Elt F) → (⟨S32768x8, .f32⟩ : BufTy).Contents (Elt F)),
    StableHlo.unary main_v745 main_v746 ((extractStridedSlice S32768x4 ![0, 0] · slices_S32768x8_S32768x4_0_0) : (⟨S32768x8, .f32⟩ : BufTy).Contents (Elt F) → (⟨S32768x4, .f32⟩ : BufTy).Contents (Elt F)),
    StableHlo.unary main_v745 main_v747 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_241 (constant S_ .f32 0xC1F00000#32),
    StableHlo.nullary main_cst_242 (constant S_ .f32 0x41F00000#32),
    StableHlo.TRef.unary (.of main_cst_241 : StableHlo.TRef sig ⟨S_, .f32⟩) main_call72.v0 id,
    StableHlo.TRef.unary main_call72.v0 main_call72.v1 (broadcastInDim S32768x4 ![] bcast_S_S32768x4),
    StableHlo.TRef.binary main_call72.v1 (.of main_v746 : StableHlo.TRef sig ⟨S32768x4, .f32⟩) main_call72.v2 maximumf,
    StableHlo.TRef.unary (.of main_cst_242 : StableHlo.TRef sig ⟨S_, .f32⟩) main_call72.v3 id,
    StableHlo.TRef.unary main_call72.v3 main_call72.v4 (broadcastInDim S32768x4 ![] bcast_S_S32768x4),
    StableHlo.TRef.binary main_call72.v4 main_call72.v2 main_call72.v5 minimumf,
    StableHlo.nullary main_cst_243 (constant S_ .f32 0xC1F00000#32),
    StableHlo.nullary main_cst_244 (constant S_ .f32 0x41F00000#32),
    StableHlo.TRef.unary (.of main_cst_243 : StableHlo.TRef sig ⟨S_, .f32⟩) main_call73.v0 id,
    StableHlo.TRef.unary main_call73.v0 main_call73.v1 (broadcastInDim S32768x4 ![] bcast_S_S32768x4),
    StableHlo.TRef.binary main_call73.v1 (.of main_v747 : StableHlo.TRef sig ⟨S32768x4, .f32⟩) main_call73.v2 maximumf,
    StableHlo.TRef.unary (.of main_cst_244 : StableHlo.TRef sig ⟨S_, .f32⟩) main_call73.v3 id,
    StableHlo.TRef.unary main_call73.v3 main_call73.v4 (broadcastInDim S32768x4 ![] bcast_S_S32768x4),
    StableHlo.TRef.binary main_call73.v4 main_call73.v2 main_call73.v5 minimumf,
    StableHlo.unary main_v748 main_v750 (Host.sign : (⟨S32768x4, .f32⟩ : BufTy).Contents (Elt F) → (⟨S32768x4, .f32⟩ : BufTy).Contents (Elt F)),
    StableHlo.unary main_v749 main_v751 (Host.sign : (⟨S32768x4, .f32⟩ : BufTy).Contents (Elt F) → (⟨S32768x4, .f32⟩ : BufTy).Contents (Elt F)),
    StableHlo.binary main_v750 main_v751 main_v752 (mulf : (⟨S32768x4, .f32⟩ : BufTy).Contents (Elt F) → (⟨S32768x4, .f32⟩ : BufTy).Contents (Elt F) → (⟨S32768x4, .f32⟩ : BufTy).Contents (Elt F)),
    StableHlo.unary main_v748 main_v753 (Host.absf : (⟨S32768x4, .f32⟩ : BufTy).Contents (Elt F) → (⟨S32768x4, .f32⟩ : BufTy).Contents (Elt F)),
    StableHlo.unary main_v749 main_v754 (Host.absf : (⟨S32768x4, .f32⟩ : BufTy).Contents (Elt F) → (⟨S32768x4, .f32⟩ : BufTy).Contents (Elt F)),
    StableHlo.binary main_v753 main_v754 main_v755 (minimumf : (⟨S32768x4, .f32⟩ : BufTy).Contents (Elt F) → (⟨S32768x4, .f32⟩ : BufTy).Contents (Elt F) → (⟨S32768x4, .f32⟩ : BufTy).Contents (Elt F)),
    StableHlo.binary main_v752 main_v755 main_v756 (mulf : (⟨S32768x4, .f32⟩ : BufTy).Contents (Elt F) → (⟨S32768x4, .f32⟩ : BufTy).Contents (Elt F) → (⟨S32768x4, .f32⟩ : BufTy).Contents (Elt F)),
    StableHlo.unary main_v756 main_v757 ((extractStridedSlice S32768x2 ![0, 0] · slices_S32768x4_S32768x2_0_0) : (⟨S32768x4, .f32⟩ : BufTy).Contents (Elt F) → (⟨S32768x2, .f32⟩ : BufTy).Contents (Elt F)),
    StableHlo.unary main_v756 main_v758 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_245 (constant S_ .f32 0xC1F00000#32),
    StableHlo.nullary main_cst_246 (constant S_ .f32 0x41F00000#32),
    StableHlo.TRef.unary (.of main_cst_245 : StableHlo.TRef sig ⟨S_, .f32⟩) main_call74.v0 id,
    StableHlo.TRef.unary main_call74.v0 main_call74.v1 (broadcastInDim S32768x2 ![] bcast_S_S32768x2),
    StableHlo.TRef.binary main_call74.v1 (.of main_v757 : StableHlo.TRef sig ⟨S32768x2, .f32⟩) main_call74.v2 maximumf,
    StableHlo.TRef.unary (.of main_cst_246 : StableHlo.TRef sig ⟨S_, .f32⟩) main_call74.v3 id,
    StableHlo.TRef.unary main_call74.v3 main_call74.v4 (broadcastInDim S32768x2 ![] bcast_S_S32768x2),
    StableHlo.TRef.binary main_call74.v4 main_call74.v2 main_call74.v5 minimumf,
    StableHlo.nullary main_cst_247 (constant S_ .f32 0xC1F00000#32),
    StableHlo.nullary main_cst_248 (constant S_ .f32 0x41F00000#32),
    StableHlo.TRef.unary (.of main_cst_247 : StableHlo.TRef sig ⟨S_, .f32⟩) main_call75.v0 id,
    StableHlo.TRef.unary main_call75.v0 main_call75.v1 (broadcastInDim S32768x2 ![] bcast_S_S32768x2),
    StableHlo.TRef.binary main_call75.v1 (.of main_v758 : StableHlo.TRef sig ⟨S32768x2, .f32⟩) main_call75.v2 maximumf,
    StableHlo.TRef.unary (.of main_cst_248 : StableHlo.TRef sig ⟨S_, .f32⟩) main_call75.v3 id,
    StableHlo.TRef.unary main_call75.v3 main_call75.v4 (broadcastInDim S32768x2 ![] bcast_S_S32768x2),
    StableHlo.TRef.binary main_call75.v4 main_call75.v2 main_call75.v5 minimumf,
    StableHlo.unary main_v759 main_v761 (Host.sign : (⟨S32768x2, .f32⟩ : BufTy).Contents (Elt F) → (⟨S32768x2, .f32⟩ : BufTy).Contents (Elt F)),
    StableHlo.unary main_v760 main_v762 (Host.sign : (⟨S32768x2, .f32⟩ : BufTy).Contents (Elt F) → (⟨S32768x2, .f32⟩ : BufTy).Contents (Elt F)),
    StableHlo.binary main_v761 main_v762 main_v763 (mulf : (⟨S32768x2, .f32⟩ : BufTy).Contents (Elt F) → (⟨S32768x2, .f32⟩ : BufTy).Contents (Elt F) → (⟨S32768x2, .f32⟩ : BufTy).Contents (Elt F)),
    StableHlo.unary main_v759 main_v764 (Host.absf : (⟨S32768x2, .f32⟩ : BufTy).Contents (Elt F) → (⟨S32768x2, .f32⟩ : BufTy).Contents (Elt F)),
    StableHlo.unary main_v760 main_v765 (Host.absf : (⟨S32768x2, .f32⟩ : BufTy).Contents (Elt F) → (⟨S32768x2, .f32⟩ : BufTy).Contents (Elt F)),
    StableHlo.binary main_v764 main_v765 main_v766 (minimumf : (⟨S32768x2, .f32⟩ : BufTy).Contents (Elt F) → (⟨S32768x2, .f32⟩ : BufTy).Contents (Elt F) → (⟨S32768x2, .f32⟩ : BufTy).Contents (Elt F)),
    StableHlo.binary main_v763 main_v766 main_v767 (mulf : (⟨S32768x2, .f32⟩ : BufTy).Contents (Elt F) → (⟨S32768x2, .f32⟩ : BufTy).Contents (Elt F) → (⟨S32768x2, .f32⟩ : BufTy).Contents (Elt F)),
    StableHlo.unary main_v767 main_v768 ((extractStridedSlice S32768x1 ![0, 0] · slices_S32768x2_S32768x1_0_0) : (⟨S32768x2, .f32⟩ : BufTy).Contents (Elt F) → (⟨S32768x1, .f32⟩ : BufTy).Contents (Elt F)) ]

set_option maxRecDepth 8192 in
/-- The window is that straight line: each clip function unfolded at its calls, the sequencing reassociated. -/
theorem part_eq_16 (d : Dev nD) : main_part16 (F := F) d = seq ops16 := by
  simp only [main_part16, fn_clip_2.body, fn_clip_3.body, fn_clip_4.body, fn_clip_5.body, seq, bind_assoc, pure_bind]
  rfl

/-- Every operation of the window touches TensorCore references only. -/
theorem sub_16 : (ops16 : List (HloOp τ sig (Elt F))).Forall fun op => op.bufs ⊆ tcRefs τ sig :=
  ⟨unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub ..⟩

/-- Every operation of the window determines all it writes. -/
theorem fresh_16 : (ops16 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_16 (V : Valuation τ sig (Elt F)) :
    after ops16 V (main_arg0 : DevRef τ sig) = V (main_arg0 : DevRef τ sig) := by
  simp only [after_cons, after_nil]
  rfl

/-- The operations of @main's statements 1021 … 1080, in order (80 of them): a statement's own operation, or, for a call
    of a clip function, the six operations of its body over that call's buffers. -/
abbrev ops17 : List (HloOp τ sig (Elt F)) :=
  [ StableHlo.unary main_v767 main_v769 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_249 (constant S_ .f32 0xC1F00000#32),
    StableHlo.nullary main_cst_250 (constant S_ .f32 0x41F00000#32),
    StableHlo.TRef.unary (.of main_cst_249 : StableHlo.TRef sig ⟨S_, .f32⟩) main_call76.v0 id,
    StableHlo.TRef.unary main_call76.v0 main_call76.v1 (broadcastInDim S32768x1 ![] bcast_S_S32768x1),
    StableHlo.TRef.binary main_call76.v1 (.of main_v768 : StableHlo.TRef sig ⟨S32768x1, .f32⟩) main_call76.v2 maximumf,
    StableHlo.TRef.unary (.of main_cst_250 : StableHlo.TRef sig ⟨S_, .f32⟩) main_call76.v3 id,
    StableHlo.TRef.unary main_call76.v3 main_call76.v4 (broadcastInDim S32768x1 ![] bcast_S_S32768x1),
    StableHlo.TRef.binary main_call76.v4 main_call76.v2 main_call76.v5 minimumf,
    StableHlo.nullary main_cst_251 (constant S_ .f32 0xC1F00000#32),
    StableHlo.nullary main_cst_252 (constant S_ .f32 0x41F00000#32),
    StableHlo.TRef.unary (.of main_cst_251 : StableHlo.TRef sig ⟨S_, .f32⟩) main_call77.v0 id,
    StableHlo.TRef.unary main_call77.v0 main_call77.v1 (broadcastInDim S32768x1 ![] bcast_S_S32768x1),
    StableHlo.TRef.binary main_call77.v1 (.of main_v769 : StableHlo.TRef sig ⟨S32768x1, .f32⟩) main_call77.v2 maximumf,
    StableHlo.TRef.unary (.of main_cst_252 : StableHlo.TRef sig ⟨S_, .f32⟩) main_call77.v3 id,
    StableHlo.TRef.unary main_call77.v3 main_call77.v4 (broadcastInDim S32768x1 ![] bcast_S_S32768x1),
    StableHlo.TRef.binary main_call77.v4 main_call77.v2 main_call77.v5 minimumf,
    StableHlo.unary main_v770 main_v772 (Host.sign : (⟨S32768x1, .f32⟩ : BufTy).Contents (Elt F) → (⟨S32768x1, .f32⟩ : BufTy).Contents (Elt F)),
    StableHlo.unary main_v771 main_v773 (Host.sign : (⟨S32768x1, .f32⟩ : BufTy).Contents (Elt F) → (⟨S32768x1, .f32⟩ : BufTy).Contents (Elt F)),
    StableHlo.binary main_v772 main_v773 main_v774 (mulf : (⟨S32768x1, .f32⟩ : BufTy).Contents (Elt F) → (⟨S32768x1, .f32⟩ : BufTy).Contents (Elt F) → (⟨S32768x1, .f32⟩ : BufTy).Contents (Elt F)),
    StableHlo.unary main_v770 main_v775 (Host.absf : (⟨S32768x1, .f32⟩ : BufTy).Contents (Elt F) → (⟨S32768x1, .f32⟩ : BufTy).Contents (Elt F)),
    StableHlo.unary main_v771 main_v776 (Host.absf : (⟨S32768x1, .f32⟩ : BufTy).Contents (Elt F) → (⟨S32768x1, .f32⟩ : BufTy).Contents (Elt F)),
    StableHlo.binary main_v775 main_v776 main_v777 (minimumf : (⟨S32768x1, .f32⟩ : BufTy).Contents (Elt F) → (⟨S32768x1, .f32⟩ : BufTy).Contents (Elt F) → (⟨S32768x1, .f32⟩ : BufTy).Contents (Elt F)),
    StableHlo.binary main_v774 main_v777 main_v778 (mulf : (⟨S32768x1, .f32⟩ : BufTy).Contents (Elt F) → (⟨S32768x1, .f32⟩ : BufTy).Contents (Elt F) → (⟨S32768x1, .f32⟩ : BufTy).Contents (Elt F)),
    StableHlo.nullary main_cst_253 (constant S_ .f32 0x00000000#32),
    StableHlo.unary main_cst_253 main_v779 (broadcastInDim S32768x1 ![] bcast_S_S32768x1 : (⟨S_, .f32⟩ : BufTy).Contents (Elt F) → (⟨S32768x1, .f32⟩ : BufTy).Contents (Elt F)),
    StableHlo.nullary main_cst_254 (constant S_ .f32 0x40000000#32),
    StableHlo.unary main_cst_254 main_v780 (broadcastInDim S32768x1 ![] bcast_S_S32768x1 : (⟨S_, .f32⟩ : BufTy).Contents (Elt F) → (⟨S32768x1, .f32⟩ : BufTy).Contents (Elt F)),
    StableHlo.binary main_v780 main_v779 main_v781 (mulf : (⟨S32768x1, .f32⟩ : BufTy).Contents (Elt F) → (⟨S32768x1, .f32⟩ : BufTy).Contents (Elt F) → (⟨S32768x1, .f32⟩ : BufTy).Contents (Elt F)),
    StableHlo.nullary main_cst_255 (constant S_ .f32 0x3F800000#32),
    StableHlo.unary main_cst_255 main_v782 (broadcastInDim S32768x1 ![] bcast_S_S32768x1 : (⟨S_, .f32⟩ : BufTy).Contents (Elt F) → (⟨S32768x1, .f32⟩ : BufTy).Contents (Elt F)),
    StableHlo.binary main_v782 main_v781 main_v783 (subf : (⟨S32768x1, .f32⟩ : BufTy).Contents (Elt F) → (⟨S32768x1, .f32⟩ : BufTy).Contents (Elt F) → (⟨S32768x1, .f32⟩ : BufTy).Contents (Elt F)),
    StableHlo.binary main_v783 main_v768 main_v784 (mulf : (⟨S32768x1, .f32⟩ : BufTy).Contents (Elt F) → (⟨S32768x1, .f32⟩ : BufTy).Contents (Elt F) → (⟨S32768x1, .f32⟩ : BufTy).Contents (Elt F)),
    StableHlo.binary main_v784 main_v769 main_v785 (addf : (⟨S32768x1, .f32⟩ : BufTy).Contents (Elt F) → (⟨S32768x1, .f32⟩ : BufTy).Contents (Elt F) → (⟨S32768x1, .f32⟩ : BufTy).Contents (Elt F)),
    StableHlo.nullary main_cst_256 (constant S_ .f32 0x00000000#32),
    StableHlo.unary main_cst_256 main_v786 (broadcastInDim S32768x1 ![] bcast_S_S32768x1 : (⟨S_, .f32⟩ : BufTy).Contents (Elt F) → (⟨S32768x1, .f32⟩ : BufTy).Contents (Elt F)),
    StableHlo.binary main_v779 main_v786 main_v787 (cmpf .une : (⟨S32768x1, .f32⟩ : BufTy).Contents (Elt F) → (⟨S32768x1, .f32⟩ : BufTy).Contents (Elt F) → (⟨S32768x1, .i1⟩ : BufTy).Contents (Elt F)),
    StableHlo.unary main_v787 main_v788 (uitofp .f32 : (⟨S32768x1, .i1⟩ : BufTy).Contents (Elt F) → (⟨S32768x1, .f32⟩ : BufTy).Contents (Elt F)),
    StableHlo.binary main_v788 main_v786 main_v789 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v779 main_v786 main_v790 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_257 (constant S_ .f32 0x40000000#32),
    StableHlo.unary main_cst_257 main_v791 (broadcastInDim S32768x2 ![] bcast_S_S32768x2 : (⟨S_, .f32⟩ : BufTy).Contents (Elt F) → (⟨S32768x2, .f32⟩ : BufTy).Contents (Elt F)),
    StableHlo.binary main_v791 main_v789 main_v792 (mulf : (⟨S32768x2, .f32⟩ : BufTy).Contents (Elt F) → (⟨S32768x2, .f32⟩ : BufTy).Contents (Elt F) → (⟨S32768x2, .f32⟩ : BufTy).Contents (Elt F)),
    StableHlo.nullary main_cst_258 (constant S_ .f32 0x3F800000#32),
    StableHlo.unary main_cst_258 main_v793 (broadcastInDim S32768x2 ![] bcast_S_S32768x2 : (⟨S_, .f32⟩ : BufTy).Contents (Elt F) → (⟨S32768x2, .f32⟩ : BufTy).Contents (Elt F)),
    StableHlo.binary main_v793 main_v792 main_v794 (subf : (⟨S32768x2, .f32⟩ : BufTy).Contents (Elt F) → (⟨S32768x2, .f32⟩ : BufTy).Contents (Elt F) → (⟨S32768x2, .f32⟩ : BufTy).Contents (Elt F)),
    StableHlo.binary main_v794 main_v757 main_v795 (mulf : (⟨S32768x2, .f32⟩ : BufTy).Contents (Elt F) → (⟨S32768x2, .f32⟩ : BufTy).Contents (Elt F) → (⟨S32768x2, .f32⟩ : BufTy).Contents (Elt F)),
    StableHlo.binary main_v795 main_v758 main_v796 (addf : (⟨S32768x2, .f32⟩ : BufTy).Contents (Elt F) → (⟨S32768x2, .f32⟩ : BufTy).Contents (Elt F) → (⟨S32768x2, .f32⟩ : BufTy).Contents (Elt F)),
    StableHlo.unary main_v796 main_v797 ((extractStridedSlice S32768x1 ![0, 0] · slices_S32768x2_S32768x1_0_0) : (⟨S32768x2, .f32⟩ : BufTy).Contents (Elt F) → (⟨S32768x1, .f32⟩ : BufTy).Contents (Elt F)),
    StableHlo.unary main_v796 main_v798 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_259 (constant S_ .f32 0xC1F00000#32),
    StableHlo.nullary main_cst_260 (constant S_ .f32 0x41F00000#32),
    StableHlo.TRef.unary (.of main_cst_259 : StableHlo.TRef sig ⟨S_, .f32⟩) main_call78.v0 id,
    StableHlo.TRef.unary main_call78.v0 main_call78.v1 (broadcastInDim S32768x1 ![] bcast_S_S32768x1),
    StableHlo.TRef.binary main_call78.v1 (.of main_v797 : StableHlo.TRef sig ⟨S32768x1, .f32⟩) main_call78.v2 maximumf,
    StableHlo.TRef.unary (.of main_cst_260 : StableHlo.TRef sig ⟨S_, .f32⟩) main_call78.v3 id,
    StableHlo.TRef.unary main_call78.v3 main_call78.v4 (broadcastInDim S32768x1 ![] bcast_S_S32768x1),
    StableHlo.TRef.binary main_call78.v4 main_call78.v2 main_call78.v5 minimumf,
    StableHlo.nullary main_cst_261 (constant S_ .f32 0xC1F00000#32),
    StableHlo.nullary main_cst_262 (constant S_ .f32 0x41F00000#32),
    StableHlo.TRef.unary (.of main_cst_261 : StableHlo.TRef sig ⟨S_, .f32⟩) main_call79.v0 id,
    StableHlo.TRef.unary main_call79.v0 main_call79.v1 (broadcastInDim S32768x1 ![] bcast_S_S32768x1),
    StableHlo.TRef.binary main_call79.v1 (.of main_v798 : StableHlo.TRef sig ⟨S32768x1, .f32⟩) main_call79.v2 maximumf,
    StableHlo.TRef.unary (.of main_cst_262 : StableHlo.TRef sig ⟨S_, .f32⟩) main_call79.v3 id,
    StableHlo.TRef.unary main_call79.v3 main_call79.v4 (broadcastInDim S32768x1 ![] bcast_S_S32768x1),
    StableHlo.TRef.binary main_call79.v4 main_call79.v2 main_call79.v5 minimumf,
    StableHlo.unary main_v799 main_v801 (Host.sign : (⟨S32768x1, .f32⟩ : BufTy).Contents (Elt F) → (⟨S32768x1, .f32⟩ : BufTy).Contents (Elt F)),
    StableHlo.unary main_v800 main_v802 (Host.sign : (⟨S32768x1, .f32⟩ : BufTy).Contents (Elt F) → (⟨S32768x1, .f32⟩ : BufTy).Contents (Elt F)),
    StableHlo.binary main_v801 main_v802 main_v803 (mulf : (⟨S32768x1, .f32⟩ : BufTy).Contents (Elt F) → (⟨S32768x1, .f32⟩ : BufTy).Contents (Elt F) → (⟨S32768x1, .f32⟩ : BufTy).Contents (Elt F)),
    StableHlo.unary main_v799 main_v804 (Host.absf : (⟨S32768x1, .f32⟩ : BufTy).Contents (Elt F) → (⟨S32768x1, .f32⟩ : BufTy).Contents (Elt F)),
    StableHlo.unary main_v800 main_v805 (Host.absf : (⟨S32768x1, .f32⟩ : BufTy).Contents (Elt F) → (⟨S32768x1, .f32⟩ : BufTy).Contents (Elt F)),
    StableHlo.binary main_v804 main_v805 main_v806 (minimumf : (⟨S32768x1, .f32⟩ : BufTy).Contents (Elt F) → (⟨S32768x1, .f32⟩ : BufTy).Contents (Elt F) → (⟨S32768x1, .f32⟩ : BufTy).Contents (Elt F)),
    StableHlo.binary main_v803 main_v806 main_v807 (mulf : (⟨S32768x1, .f32⟩ : BufTy).Contents (Elt F) → (⟨S32768x1, .f32⟩ : BufTy).Contents (Elt F) → (⟨S32768x1, .f32⟩ : BufTy).Contents (Elt F)),
    StableHlo.nullary main_cst_263 (constant S_ .f32 0x00000000#32),
    StableHlo.unary main_cst_263 main_v808 (broadcastInDim S32768x1 ![] bcast_S_S32768x1 : (⟨S_, .f32⟩ : BufTy).Contents (Elt F) → (⟨S32768x1, .f32⟩ : BufTy).Contents (Elt F)),
    StableHlo.nullary main_cst_264 (constant S_ .f32 0x40000000#32),
    StableHlo.unary main_cst_264 main_v809 (broadcastInDim S32768x1 ![] bcast_S_S32768x1 : (⟨S_, .f32⟩ : BufTy).Contents (Elt F) → (⟨S32768x1, .f32⟩ : BufTy).Contents (Elt F)),
    StableHlo.binary main_v809 main_v808 main_v810 (mulf : (⟨S32768x1, .f32⟩ : BufTy).Contents (Elt F) → (⟨S32768x1, .f32⟩ : BufTy).Contents (Elt F) → (⟨S32768x1, .f32⟩ : BufTy).Contents (Elt F)),
    StableHlo.nullary main_cst_265 (constant S_ .f32 0x3F800000#32),
    StableHlo.unary main_cst_265 main_v811 (broadcastInDim S32768x1 ![] bcast_S_S32768x1 : (⟨S_, .f32⟩ : BufTy).Contents (Elt F) → (⟨S32768x1, .f32⟩ : BufTy).Contents (Elt F)) ]

set_option maxRecDepth 8192 in
/-- The window is that straight line: each clip function unfolded at its calls, the sequencing reassociated. -/
theorem part_eq_17 (d : Dev nD) : main_part17 (F := F) d = seq ops17 := by
  simp only [main_part17, fn_clip_6.body, seq, bind_assoc, pure_bind]
  rfl

/-- Every operation of the window touches TensorCore references only. -/
theorem sub_17 : (ops17 : List (HloOp τ sig (Elt F))).Forall fun op => op.bufs ⊆ tcRefs τ sig :=
  ⟨unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., nullary_bufs_sub .., unary_bufs_sub .., binary_bufs_sub .., nullary_bufs_sub ..,
    unary_bufs_sub .., binary_bufs_sub .., binary_bufs_sub .., binary_bufs_sub .., nullary_bufs_sub .., unary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., nullary_bufs_sub .., unary_bufs_sub .., nullary_bufs_sub .., unary_bufs_sub .., binary_bufs_sub ..,
    nullary_bufs_sub .., unary_bufs_sub ..⟩

/-- Every operation of the window determines all it writes. -/
theorem fresh_17 : (ops17 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_17 (V : Valuation τ sig (Elt F)) :
    after ops17 V (main_arg0 : DevRef τ sig) = V (main_arg0 : DevRef τ sig) := by
  simp only [after_cons, after_nil]
  rfl

/-- The operations of @main's statements 1081 … 1140, in order (80 of them): a statement's own operation, or, for a call
    of a clip function, the six operations of its body over that call's buffers. -/
abbrev ops18 : List (HloOp τ sig (Elt F)) :=
  [ StableHlo.binary main_v811 main_v810 main_v812 (subf : (⟨S32768x1, .f32⟩ : BufTy).Contents (Elt F) → (⟨S32768x1, .f32⟩ : BufTy).Contents (Elt F) → (⟨S32768x1, .f32⟩ : BufTy).Contents (Elt F)),
    StableHlo.binary main_v812 main_v797 main_v813 (mulf : (⟨S32768x1, .f32⟩ : BufTy).Contents (Elt F) → (⟨S32768x1, .f32⟩ : BufTy).Contents (Elt F) → (⟨S32768x1, .f32⟩ : BufTy).Contents (Elt F)),
    StableHlo.binary main_v813 main_v798 main_v814 (addf : (⟨S32768x1, .f32⟩ : BufTy).Contents (Elt F) → (⟨S32768x1, .f32⟩ : BufTy).Contents (Elt F) → (⟨S32768x1, .f32⟩ : BufTy).Contents (Elt F)),
    StableHlo.nullary main_cst_266 (constant S_ .f32 0x00000000#32),
    StableHlo.unary main_cst_266 main_v815 (broadcastInDim S32768x1 ![] bcast_S_S32768x1 : (⟨S_, .f32⟩ : BufTy).Contents (Elt F) → (⟨S32768x1, .f32⟩ : BufTy).Contents (Elt F)),
    StableHlo.binary main_v808 main_v815 main_v816 (cmpf .une : (⟨S32768x1, .f32⟩ : BufTy).Contents (Elt F) → (⟨S32768x1, .f32⟩ : BufTy).Contents (Elt F) → (⟨S32768x1, .i1⟩ : BufTy).Contents (Elt F)),
    StableHlo.unary main_v816 main_v817 (uitofp .f32 : (⟨S32768x1, .i1⟩ : BufTy).Contents (Elt F) → (⟨S32768x1, .f32⟩ : BufTy).Contents (Elt F)),
    StableHlo.binary main_v817 main_v815 main_v818 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v808 main_v815 main_v819 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v789 main_v818 main_v820 (cmpf .une : (⟨S32768x2, .f32⟩ : BufTy).Contents (Elt F) → (⟨S32768x2, .f32⟩ : BufTy).Contents (Elt F) → (⟨S32768x2, .i1⟩ : BufTy).Contents (Elt F)),
    StableHlo.unary main_v820 main_v821 (uitofp .f32 : (⟨S32768x2, .i1⟩ : BufTy).Contents (Elt F) → (⟨S32768x2, .f32⟩ : BufTy).Contents (Elt F)),
    StableHlo.binary main_v821 main_v818 main_v822 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v790 main_v819 main_v823 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_267 (constant S_ .f32 0x40000000#32),
    StableHlo.unary main_cst_267 main_v824 (broadcastInDim S32768x4 ![] bcast_S_S32768x4 : (⟨S_, .f32⟩ : BufTy).Contents (Elt F) → (⟨S32768x4, .f32⟩ : BufTy).Contents (Elt F)),
    StableHlo.binary main_v824 main_v822 main_v825 (mulf : (⟨S32768x4, .f32⟩ : BufTy).Contents (Elt F) → (⟨S32768x4, .f32⟩ : BufTy).Contents (Elt F) → (⟨S32768x4, .f32⟩ : BufTy).Contents (Elt F)),
    StableHlo.nullary main_cst_268 (constant S_ .f32 0x3F800000#32),
    StableHlo.unary main_cst_268 main_v826 (broadcastInDim S32768x4 ![] bcast_S_S32768x4 : (⟨S_, .f32⟩ : BufTy).Contents (Elt F) → (⟨S32768x4, .f32⟩ : BufTy).Contents (Elt F)),
    StableHlo.binary main_v826 main_v825 main_v827 (subf : (⟨S32768x4, .f32⟩ : BufTy).Contents (Elt F) → (⟨S32768x4, .f32⟩ : BufTy).Contents (Elt F) → (⟨S32768x4, .f32⟩ : BufTy).Contents (Elt F)),
    StableHlo.binary main_v827 main_v746 main_v828 (mulf : (⟨S32768x4, .f32⟩ : BufTy).Contents (Elt F) → (⟨S32768x4, .f32⟩ : BufTy).Contents (Elt F) → (⟨S32768x4, .f32⟩ : BufTy).Contents (Elt F)),
    StableHlo.binary main_v828 main_v747 main_v829 (addf : (⟨S32768x4, .f32⟩ : BufTy).Contents (Elt F) → (⟨S32768x4, .f32⟩ : BufTy).Contents (Elt F) → (⟨S32768x4, .f32⟩ : BufTy).Contents (Elt F)),
    StableHlo.unary main_v829 main_v830 ((extractStridedSlice S32768x2 ![0, 0] · slices_S32768x4_S32768x2_0_0) : (⟨S32768x4, .f32⟩ : BufTy).Contents (Elt F) → (⟨S32768x2, .f32⟩ : BufTy).Contents (Elt F)),
    StableHlo.unary main_v829 main_v831 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_269 (constant S_ .f32 0xC1F00000#32),
    StableHlo.nullary main_cst_270 (constant S_ .f32 0x41F00000#32),
    StableHlo.TRef.unary (.of main_cst_269 : StableHlo.TRef sig ⟨S_, .f32⟩) main_call80.v0 id,
    StableHlo.TRef.unary main_call80.v0 main_call80.v1 (broadcastInDim S32768x2 ![] bcast_S_S32768x2),
    StableHlo.TRef.binary main_call80.v1 (.of main_v830 : StableHlo.TRef sig ⟨S32768x2, .f32⟩) main_call80.v2 maximumf,
    StableHlo.TRef.unary (.of main_cst_270 : StableHlo.TRef sig ⟨S_, .f32⟩) main_call80.v3 id,
    StableHlo.TRef.unary main_call80.v3 main_call80.v4 (broadcastInDim S32768x2 ![] bcast_S_S32768x2),
    StableHlo.TRef.binary main_call80.v4 main_call80.v2 main_call80.v5 minimumf,
    StableHlo.nullary main_cst_271 (constant S_ .f32 0xC1F00000#32),
    StableHlo.nullary main_cst_272 (constant S_ .f32 0x41F00000#32),
    StableHlo.TRef.unary (.of main_cst_271 : StableHlo.TRef sig ⟨S_, .f32⟩) main_call81.v0 id,
    StableHlo.TRef.unary main_call81.v0 main_call81.v1 (broadcastInDim S32768x2 ![] bcast_S_S32768x2),
    StableHlo.TRef.binary main_call81.v1 (.of main_v831 : StableHlo.TRef sig ⟨S32768x2, .f32⟩) main_call81.v2 maximumf,
    StableHlo.TRef.unary (.of main_cst_272 : StableHlo.TRef sig ⟨S_, .f32⟩) main_call81.v3 id,
    StableHlo.TRef.unary main_call81.v3 main_call81.v4 (broadcastInDim S32768x2 ![] bcast_S_S32768x2),
    StableHlo.TRef.binary main_call81.v4 main_call81.v2 main_call81.v5 minimumf,
    StableHlo.unary main_v832 main_v834 (Host.sign : (⟨S32768x2, .f32⟩ : BufTy).Contents (Elt F) → (⟨S32768x2, .f32⟩ : BufTy).Contents (Elt F)),
    StableHlo.unary main_v833 main_v835 (Host.sign : (⟨S32768x2, .f32⟩ : BufTy).Contents (Elt F) → (⟨S32768x2, .f32⟩ : BufTy).Contents (Elt F)),
    StableHlo.binary main_v834 main_v835 main_v836 (mulf : (⟨S32768x2, .f32⟩ : BufTy).Contents (Elt F) → (⟨S32768x2, .f32⟩ : BufTy).Contents (Elt F) → (⟨S32768x2, .f32⟩ : BufTy).Contents (Elt F)),
    StableHlo.unary main_v832 main_v837 (Host.absf : (⟨S32768x2, .f32⟩ : BufTy).Contents (Elt F) → (⟨S32768x2, .f32⟩ : BufTy).Contents (Elt F)),
    StableHlo.unary main_v833 main_v838 (Host.absf : (⟨S32768x2, .f32⟩ : BufTy).Contents (Elt F) → (⟨S32768x2, .f32⟩ : BufTy).Contents (Elt F)),
    StableHlo.binary main_v837 main_v838 main_v839 (minimumf : (⟨S32768x2, .f32⟩ : BufTy).Contents (Elt F) → (⟨S32768x2, .f32⟩ : BufTy).Contents (Elt F) → (⟨S32768x2, .f32⟩ : BufTy).Contents (Elt F)),
    StableHlo.binary main_v836 main_v839 main_v840 (mulf : (⟨S32768x2, .f32⟩ : BufTy).Contents (Elt F) → (⟨S32768x2, .f32⟩ : BufTy).Contents (Elt F) → (⟨S32768x2, .f32⟩ : BufTy).Contents (Elt F)),
    StableHlo.unary main_v840 main_v841 ((extractStridedSlice S32768x1 ![0, 0] · slices_S32768x2_S32768x1_0_0) : (⟨S32768x2, .f32⟩ : BufTy).Contents (Elt F) → (⟨S32768x1, .f32⟩ : BufTy).Contents (Elt F)),
    StableHlo.unary main_v840 main_v842 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_273 (constant S_ .f32 0xC1F00000#32),
    StableHlo.nullary main_cst_274 (constant S_ .f32 0x41F00000#32),
    StableHlo.TRef.unary (.of main_cst_273 : StableHlo.TRef sig ⟨S_, .f32⟩) main_call82.v0 id,
    StableHlo.TRef.unary main_call82.v0 main_call82.v1 (broadcastInDim S32768x1 ![] bcast_S_S32768x1),
    StableHlo.TRef.binary main_call82.v1 (.of main_v841 : StableHlo.TRef sig ⟨S32768x1, .f32⟩) main_call82.v2 maximumf,
    StableHlo.TRef.unary (.of main_cst_274 : StableHlo.TRef sig ⟨S_, .f32⟩) main_call82.v3 id,
    StableHlo.TRef.unary main_call82.v3 main_call82.v4 (broadcastInDim S32768x1 ![] bcast_S_S32768x1),
    StableHlo.TRef.binary main_call82.v4 main_call82.v2 main_call82.v5 minimumf,
    StableHlo.nullary main_cst_275 (constant S_ .f32 0xC1F00000#32),
    StableHlo.nullary main_cst_276 (constant S_ .f32 0x41F00000#32),
    StableHlo.TRef.unary (.of main_cst_275 : StableHlo.TRef sig ⟨S_, .f32⟩) main_call83.v0 id,
    StableHlo.TRef.unary main_call83.v0 main_call83.v1 (broadcastInDim S32768x1 ![] bcast_S_S32768x1),
    StableHlo.TRef.binary main_call83.v1 (.of main_v842 : StableHlo.TRef sig ⟨S32768x1, .f32⟩) main_call83.v2 maximumf,
    StableHlo.TRef.unary (.of main_cst_276 : StableHlo.TRef sig ⟨S_, .f32⟩) main_call83.v3 id,
    StableHlo.TRef.unary main_call83.v3 main_call83.v4 (broadcastInDim S32768x1 ![] bcast_S_S32768x1),
    StableHlo.TRef.binary main_call83.v4 main_call83.v2 main_call83.v5 minimumf,
    StableHlo.unary main_v843 main_v845 (Host.sign : (⟨S32768x1, .f32⟩ : BufTy).Contents (Elt F) → (⟨S32768x1, .f32⟩ : BufTy).Contents (Elt F)),
    StableHlo.unary main_v844 main_v846 (Host.sign : (⟨S32768x1, .f32⟩ : BufTy).Contents (Elt F) → (⟨S32768x1, .f32⟩ : BufTy).Contents (Elt F)),
    StableHlo.binary main_v845 main_v846 main_v847 (mulf : (⟨S32768x1, .f32⟩ : BufTy).Contents (Elt F) → (⟨S32768x1, .f32⟩ : BufTy).Contents (Elt F) → (⟨S32768x1, .f32⟩ : BufTy).Contents (Elt F)),
    StableHlo.unary main_v843 main_v848 (Host.absf : (⟨S32768x1, .f32⟩ : BufTy).Contents (Elt F) → (⟨S32768x1, .f32⟩ : BufTy).Contents (Elt F)),
    StableHlo.unary main_v844 main_v849 (Host.absf : (⟨S32768x1, .f32⟩ : BufTy).Contents (Elt F) → (⟨S32768x1, .f32⟩ : BufTy).Contents (Elt F)),
    StableHlo.binary main_v848 main_v849 main_v850 (minimumf : (⟨S32768x1, .f32⟩ : BufTy).Contents (Elt F) → (⟨S32768x1, .f32⟩ : BufTy).Contents (Elt F) → (⟨S32768x1, .f32⟩ : BufTy).Contents (Elt F)),
    StableHlo.binary main_v847 main_v850 main_v851 (mulf : (⟨S32768x1, .f32⟩ : BufTy).Contents (Elt F) → (⟨S32768x1, .f32⟩ : BufTy).Contents (Elt F) → (⟨S32768x1, .f32⟩ : BufTy).Contents (Elt F)),
    StableHlo.nullary main_cst_277 (constant S_ .f32 0x00000000#32),
    StableHlo.unary main_cst_277 main_v852 (broadcastInDim S32768x1 ![] bcast_S_S32768x1 : (⟨S_, .f32⟩ : BufTy).Contents (Elt F) → (⟨S32768x1, .f32⟩ : BufTy).Contents (Elt F)),
    StableHlo.nullary main_cst_278 (constant S_ .f32 0x40000000#32),
    StableHlo.unary main_cst_278 main_v853 (broadcastInDim S32768x1 ![] bcast_S_S32768x1 : (⟨S_, .f32⟩ : BufTy).Contents (Elt F) → (⟨S32768x1, .f32⟩ : BufTy).Contents (Elt F)),
    StableHlo.binary main_v853 main_v852 main_v854 (mulf : (⟨S32768x1, .f32⟩ : BufTy).Contents (Elt F) → (⟨S32768x1, .f32⟩ : BufTy).Contents (Elt F) → (⟨S32768x1, .f32⟩ : BufTy).Contents (Elt F)),
    StableHlo.nullary main_cst_279 (constant S_ .f32 0x3F800000#32),
    StableHlo.unary main_cst_279 main_v855 (broadcastInDim S32768x1 ![] bcast_S_S32768x1 : (⟨S_, .f32⟩ : BufTy).Contents (Elt F) → (⟨S32768x1, .f32⟩ : BufTy).Contents (Elt F)),
    StableHlo.binary main_v855 main_v854 main_v856 (subf : (⟨S32768x1, .f32⟩ : BufTy).Contents (Elt F) → (⟨S32768x1, .f32⟩ : BufTy).Contents (Elt F) → (⟨S32768x1, .f32⟩ : BufTy).Contents (Elt F)),
    StableHlo.binary main_v856 main_v841 main_v857 (mulf : (⟨S32768x1, .f32⟩ : BufTy).Contents (Elt F) → (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_18 (d : Dev nD) : main_part18 (F := F) d = seq ops18 := by
  simp only [main_part18, fn_clip_5.body, fn_clip_6.body, seq, bind_assoc, pure_bind]
  rfl

/-- Every operation of the window touches TensorCore references only. -/
theorem sub_18 : (ops18 : List (HloOp τ sig (Elt F))).Forall fun op => op.bufs ⊆ tcRefs τ sig :=
  ⟨binary_bufs_sub .., binary_bufs_sub .., binary_bufs_sub .., nullary_bufs_sub .., unary_bufs_sub .., binary_bufs_sub ..,
    unary_bufs_sub .., binary_bufs_sub .., binary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., nullary_bufs_sub ..,
    unary_bufs_sub .., nullary_bufs_sub .., unary_bufs_sub .., binary_bufs_sub .., nullary_bufs_sub .., unary_bufs_sub ..,
    binary_bufs_sub .., binary_bufs_sub ..⟩

/-- Every operation of the window determines all it writes. -/
theorem fresh_18 : (ops18 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_18 (V : Valuation τ sig (Elt F)) :
    after ops18 V (main_arg0 : DevRef τ sig) = V (main_arg0 : DevRef τ sig) := by
  simp only [after_cons, after_nil]
  rfl

/-- The operations of @main's statements 1141 … 1200, in order (70 of them): a statement's own operation, or, for a call
    of a clip function, the six operations of its body over that call's buffers. -/
abbrev ops19 : List (HloOp τ sig (Elt F)) :=
  [ StableHlo.binary main_v857 main_v842 main_v858 (addf : (⟨S32768x1, .f32⟩ : BufTy).Contents (Elt F) → (⟨S32768x1, .f32⟩ : BufTy).Contents (Elt F) → (⟨S32768x1, .f32⟩ : BufTy).Contents (Elt F)),
    StableHlo.nullary main_cst_280 (constant S_ .f32 0x00000000#32),
    StableHlo.unary main_cst_280 main_v859 (broadcastInDim S32768x1 ![] bcast_S_S32768x1 : (⟨S_, .f32⟩ : BufTy).Contents (Elt F) → (⟨S32768x1, .f32⟩ : BufTy).Contents (Elt F)),
    StableHlo.binary main_v852 main_v859 main_v860 (cmpf .une : (⟨S32768x1, .f32⟩ : BufTy).Contents (Elt F) → (⟨S32768x1, .f32⟩ : BufTy).Contents (Elt F) → (⟨S32768x1, .i1⟩ : BufTy).Contents (Elt F)),
    StableHlo.unary main_v860 main_v861 (uitofp .f32 : (⟨S32768x1, .i1⟩ : BufTy).Contents (Elt F) → (⟨S32768x1, .f32⟩ : BufTy).Contents (Elt F)),
    StableHlo.binary main_v861 main_v859 main_v862 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v852 main_v859 main_v863 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_281 (constant S_ .f32 0x40000000#32),
    StableHlo.unary main_cst_281 main_v864 (broadcastInDim S32768x2 ![] bcast_S_S32768x2 : (⟨S_, .f32⟩ : BufTy).Contents (Elt F) → (⟨S32768x2, .f32⟩ : BufTy).Contents (Elt F)),
    StableHlo.binary main_v864 main_v862 main_v865 (mulf : (⟨S32768x2, .f32⟩ : BufTy).Contents (Elt F) → (⟨S32768x2, .f32⟩ : BufTy).Contents (Elt F) → (⟨S32768x2, .f32⟩ : BufTy).Contents (Elt F)),
    StableHlo.nullary main_cst_282 (constant S_ .f32 0x3F800000#32),
    StableHlo.unary main_cst_282 main_v866 (broadcastInDim S32768x2 ![] bcast_S_S32768x2 : (⟨S_, .f32⟩ : BufTy).Contents (Elt F) → (⟨S32768x2, .f32⟩ : BufTy).Contents (Elt F)),
    StableHlo.binary main_v866 main_v865 main_v867 (subf : (⟨S32768x2, .f32⟩ : BufTy).Contents (Elt F) → (⟨S32768x2, .f32⟩ : BufTy).Contents (Elt F) → (⟨S32768x2, .f32⟩ : BufTy).Contents (Elt F)),
    StableHlo.binary main_v867 main_v830 main_v868 (mulf : (⟨S32768x2, .f32⟩ : BufTy).Contents (Elt F) → (⟨S32768x2, .f32⟩ : BufTy).Contents (Elt F) → (⟨S32768x2, .f32⟩ : BufTy).Contents (Elt F)),
    StableHlo.binary main_v868 main_v831 main_v869 (addf : (⟨S32768x2, .f32⟩ : BufTy).Contents (Elt F) → (⟨S32768x2, .f32⟩ : BufTy).Contents (Elt F) → (⟨S32768x2, .f32⟩ : BufTy).Contents (Elt F)),
    StableHlo.unary main_v869 main_v870 ((extractStridedSlice S32768x1 ![0, 0] · slices_S32768x2_S32768x1_0_0) : (⟨S32768x2, .f32⟩ : BufTy).Contents (Elt F) → (⟨S32768x1, .f32⟩ : BufTy).Contents (Elt F)),
    StableHlo.unary main_v869 main_v871 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_283 (constant S_ .f32 0xC1F00000#32),
    StableHlo.nullary main_cst_284 (constant S_ .f32 0x41F00000#32),
    StableHlo.TRef.unary (.of main_cst_283 : StableHlo.TRef sig ⟨S_, .f32⟩) main_call84.v0 id,
    StableHlo.TRef.unary main_call84.v0 main_call84.v1 (broadcastInDim S32768x1 ![] bcast_S_S32768x1),
    StableHlo.TRef.binary main_call84.v1 (.of main_v870 : StableHlo.TRef sig ⟨S32768x1, .f32⟩) main_call84.v2 maximumf,
    StableHlo.TRef.unary (.of main_cst_284 : StableHlo.TRef sig ⟨S_, .f32⟩) main_call84.v3 id,
    StableHlo.TRef.unary main_call84.v3 main_call84.v4 (broadcastInDim S32768x1 ![] bcast_S_S32768x1),
    StableHlo.TRef.binary main_call84.v4 main_call84.v2 main_call84.v5 minimumf,
    StableHlo.nullary main_cst_285 (constant S_ .f32 0xC1F00000#32),
    StableHlo.nullary main_cst_286 (constant S_ .f32 0x41F00000#32),
    StableHlo.TRef.unary (.of main_cst_285 : StableHlo.TRef sig ⟨S_, .f32⟩) main_call85.v0 id,
    StableHlo.TRef.unary main_call85.v0 main_call85.v1 (broadcastInDim S32768x1 ![] bcast_S_S32768x1),
    StableHlo.TRef.binary main_call85.v1 (.of main_v871 : StableHlo.TRef sig ⟨S32768x1, .f32⟩) main_call85.v2 maximumf,
    StableHlo.TRef.unary (.of main_cst_286 : StableHlo.TRef sig ⟨S_, .f32⟩) main_call85.v3 id,
    StableHlo.TRef.unary main_call85.v3 main_call85.v4 (broadcastInDim S32768x1 ![] bcast_S_S32768x1),
    StableHlo.TRef.binary main_call85.v4 main_call85.v2 main_call85.v5 minimumf,
    StableHlo.unary main_v872 main_v874 (Host.sign : (⟨S32768x1, .f32⟩ : BufTy).Contents (Elt F) → (⟨S32768x1, .f32⟩ : BufTy).Contents (Elt F)),
    StableHlo.unary main_v873 main_v875 (Host.sign : (⟨S32768x1, .f32⟩ : BufTy).Contents (Elt F) → (⟨S32768x1, .f32⟩ : BufTy).Contents (Elt F)),
    StableHlo.binary main_v874 main_v875 main_v876 (mulf : (⟨S32768x1, .f32⟩ : BufTy).Contents (Elt F) → (⟨S32768x1, .f32⟩ : BufTy).Contents (Elt F) → (⟨S32768x1, .f32⟩ : BufTy).Contents (Elt F)),
    StableHlo.unary main_v872 main_v877 (Host.absf : (⟨S32768x1, .f32⟩ : BufTy).Contents (Elt F) → (⟨S32768x1, .f32⟩ : BufTy).Contents (Elt F)),
    StableHlo.unary main_v873 main_v878 (Host.absf : (⟨S32768x1, .f32⟩ : BufTy).Contents (Elt F) → (⟨S32768x1, .f32⟩ : BufTy).Contents (Elt F)),
    StableHlo.binary main_v877 main_v878 main_v879 (minimumf : (⟨S32768x1, .f32⟩ : BufTy).Contents (Elt F) → (⟨S32768x1, .f32⟩ : BufTy).Contents (Elt F) → (⟨S32768x1, .f32⟩ : BufTy).Contents (Elt F)),
    StableHlo.binary main_v876 main_v879 main_v880 (mulf : (⟨S32768x1, .f32⟩ : BufTy).Contents (Elt F) → (⟨S32768x1, .f32⟩ : BufTy).Contents (Elt F) → (⟨S32768x1, .f32⟩ : BufTy).Contents (Elt F)),
    StableHlo.nullary main_cst_287 (constant S_ .f32 0x00000000#32),
    StableHlo.unary main_cst_287 main_v881 (broadcastInDim S32768x1 ![] bcast_S_S32768x1 : (⟨S_, .f32⟩ : BufTy).Contents (Elt F) → (⟨S32768x1, .f32⟩ : BufTy).Contents (Elt F)),
    StableHlo.nullary main_cst_288 (constant S_ .f32 0x40000000#32),
    StableHlo.unary main_cst_288 main_v882 (broadcastInDim S32768x1 ![] bcast_S_S32768x1 : (⟨S_, .f32⟩ : BufTy).Contents (Elt F) → (⟨S32768x1, .f32⟩ : BufTy).Contents (Elt F)),
    StableHlo.binary main_v882 main_v881 main_v883 (mulf : (⟨S32768x1, .f32⟩ : BufTy).Contents (Elt F) → (⟨S32768x1, .f32⟩ : BufTy).Contents (Elt F) → (⟨S32768x1, .f32⟩ : BufTy).Contents (Elt F)),
    StableHlo.nullary main_cst_289 (constant S_ .f32 0x3F800000#32),
    StableHlo.unary main_cst_289 main_v884 (broadcastInDim S32768x1 ![] bcast_S_S32768x1 : (⟨S_, .f32⟩ : BufTy).Contents (Elt F) → (⟨S32768x1, .f32⟩ : BufTy).Contents (Elt F)),
    StableHlo.binary main_v884 main_v883 main_v885 (subf : (⟨S32768x1, .f32⟩ : BufTy).Contents (Elt F) → (⟨S32768x1, .f32⟩ : BufTy).Contents (Elt F) → (⟨S32768x1, .f32⟩ : BufTy).Contents (Elt F)),
    StableHlo.binary main_v885 main_v870 main_v886 (mulf : (⟨S32768x1, .f32⟩ : BufTy).Contents (Elt F) → (⟨S32768x1, .f32⟩ : BufTy).Contents (Elt F) → (⟨S32768x1, .f32⟩ : BufTy).Contents (Elt F)),
    StableHlo.binary main_v886 main_v871 main_v887 (addf : (⟨S32768x1, .f32⟩ : BufTy).Contents (Elt F) → (⟨S32768x1, .f32⟩ : BufTy).Contents (Elt F) → (⟨S32768x1, .f32⟩ : BufTy).Contents (Elt F)),
    StableHlo.nullary main_cst_290 (constant S_ .f32 0x00000000#32),
    StableHlo.unary main_cst_290 main_v888 (broadcastInDim S32768x1 ![] bcast_S_S32768x1 : (⟨S_, .f32⟩ : BufTy).Contents (Elt F) → (⟨S32768x1, .f32⟩ : BufTy).Contents (Elt F)),
    StableHlo.binary main_v881 main_v888 main_v889 (cmpf .une : (⟨S32768x1, .f32⟩ : BufTy).Contents (Elt F) → (⟨S32768x1, .f32⟩ : BufTy).Contents (Elt F) → (⟨S32768x1, .i1⟩ : BufTy).Contents (Elt F)),
    StableHlo.unary main_v889 main_v890 (uitofp .f32 : (⟨S32768x1, .i1⟩ : BufTy).Contents (Elt F) → (⟨S32768x1, .f32⟩ : BufTy).Contents (Elt F)),
    StableHlo.binary main_v890 main_v888 main_v891 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v881 main_v888 main_v892 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v862 main_v891 main_v893 (cmpf .une : (⟨S32768x2, .f32⟩ : BufTy).Contents (Elt F) → (⟨S32768x2, .f32⟩ : BufTy).Contents (Elt F) → (⟨S32768x2, .i1⟩ : BufTy).Contents (Elt F)),
    StableHlo.unary main_v893 main_v894 (uitofp .f32 : (⟨S32768x2, .i1⟩ : BufTy).Contents (Elt F) → (⟨S32768x2, .f32⟩ : BufTy).Contents (Elt F)),
    StableHlo.binary main_v894 main_v891 main_v895 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v863 main_v892 main_v896 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v822 main_v895 main_v897 (cmpf .une : (⟨S32768x4, .f32⟩ : BufTy).Contents (Elt F) → (⟨S32768x4, .f32⟩ : BufTy).Contents (Elt F) → (⟨S32768x4, .i1⟩ : BufTy).Contents (Elt F)),
    StableHlo.unary main_v897 main_v898 (uitofp .f32 : (⟨S32768x4, .i1⟩ : BufTy).Contents (Elt F) → (⟨S32768x4, .f32⟩ : BufTy).Contents (Elt F)),
    StableHlo.binary main_v898 main_v895 main_v899 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v823 main_v896 main_v900 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.nullary main_cst_291 (constant S_ .f32 0x40000000#32),
    StableHlo.unary main_cst_291 main_v901 (broadcastInDim S32768x8 ![] bcast_S_S32768x8 : (⟨S_, .f32⟩ : BufTy).Contents (Elt F) → (⟨S32768x8, .f32⟩ : BufTy).Contents (Elt F)),
    StableHlo.binary main_v901 main_v899 main_v902 (mulf : (⟨S32768x8, .f32⟩ : BufTy).Contents (Elt F) → (⟨S32768x8, .f32⟩ : BufTy).Contents (Elt F) → (⟨S32768x8, .f32⟩ : BufTy).Contents (Elt F)),
    StableHlo.nullary main_cst_292 (constant S_ .f32 0x3F800000#32),
    StableHlo.unary main_cst_292 main_v903 (broadcastInDim S32768x8 ![] bcast_S_S32768x8 : (⟨S_, .f32⟩ : BufTy).Contents (Elt F) → (⟨S32768x8, .f32⟩ : BufTy).Contents (Elt F)),
    StableHlo.binary main_v903 main_v902 main_v904 (subf : (⟨S32768x8, .f32⟩ : BufTy).Contents (Elt F) → (⟨S32768x8, .f32⟩ : BufTy).Contents (Elt F) → (⟨S32768x8, .f32⟩ : BufTy).Contents (Elt F)) ]

set_option maxRecDepth 8192 in
/-- The window is that straight line: each clip function unfolded at its calls, the sequencing reassociated. -/
theorem part_eq_19 (d : Dev nD) : main_part19 (F := F) d = seq ops19 := by
  simp only [main_part19, fn_clip_6.body, seq, bind_assoc, pure_bind]
  rfl

/-- Every operation of the window touches TensorCore references only. -/
theorem sub_19 : (ops19 : List (HloOp τ sig (Elt F))).Forall fun op => op.bufs ⊆ tcRefs τ sig :=
  ⟨binary_bufs_sub .., nullary_bufs_sub .., unary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., nullary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., binary_bufs_sub .., binary_bufs_sub .., unary_bufs_sub .., binary_bufs_sub .., binary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub ..⟩

/-- Every operation of the window determines all it writes. -/
theorem fresh_19 : (ops19 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_19 (V : Valuation τ sig (Elt F)) :
    after ops19 V (main_arg0 : DevRef τ sig) = V (main_arg0 : DevRef τ sig) := by
  simp only [after_cons, after_nil]
  rfl

/-- The operations of @main's statements 1201 … 1260, in order (90 of them): a statement's own operation, or, for a call
    of a clip function, the six operations of its body over that call's buffers. -/
abbrev ops20 : List (HloOp τ sig (Elt F)) :=
  [ StableHlo.binary main_v904 main_v735 main_v905 (mulf : (⟨S32768x8, .f32⟩ : BufTy).Contents (Elt F) → (⟨S32768x8, .f32⟩ : BufTy).Contents (Elt F) → (⟨S32768x8, .f32⟩ : BufTy).Contents (Elt F)),
    StableHlo.binary main_v905 main_v736 main_v906 (addf : (⟨S32768x8, .f32⟩ : BufTy).Contents (Elt F) → (⟨S32768x8, .f32⟩ : BufTy).Contents (Elt F) → (⟨S32768x8, .f32⟩ : BufTy).Contents (Elt F)),
    StableHlo.unary main_v906 main_v907 ((extractStridedSlice S32768x4 ![0, 0] · slices_S32768x8_S32768x4_0_0) : (⟨S32768x8, .f32⟩ : BufTy).Contents (Elt F) → (⟨S32768x4, .f32⟩ : BufTy).Contents (Elt F)),
    StableHlo.unary main_v906 main_v908 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_293 (constant S_ .f32 0xC1F00000#32),
    StableHlo.nullary main_cst_294 (constant S_ .f32 0x41F00000#32),
    StableHlo.TRef.unary (.of main_cst_293 : StableHlo.TRef sig ⟨S_, .f32⟩) main_call86.v0 id,
    StableHlo.TRef.unary main_call86.v0 main_call86.v1 (broadcastInDim S32768x4 ![] bcast_S_S32768x4),
    StableHlo.TRef.binary main_call86.v1 (.of main_v907 : StableHlo.TRef sig ⟨S32768x4, .f32⟩) main_call86.v2 maximumf,
    StableHlo.TRef.unary (.of main_cst_294 : StableHlo.TRef sig ⟨S_, .f32⟩) main_call86.v3 id,
    StableHlo.TRef.unary main_call86.v3 main_call86.v4 (broadcastInDim S32768x4 ![] bcast_S_S32768x4),
    StableHlo.TRef.binary main_call86.v4 main_call86.v2 main_call86.v5 minimumf,
    StableHlo.nullary main_cst_295 (constant S_ .f32 0xC1F00000#32),
    StableHlo.nullary main_cst_296 (constant S_ .f32 0x41F00000#32),
    StableHlo.TRef.unary (.of main_cst_295 : StableHlo.TRef sig ⟨S_, .f32⟩) main_call87.v0 id,
    StableHlo.TRef.unary main_call87.v0 main_call87.v1 (broadcastInDim S32768x4 ![] bcast_S_S32768x4),
    StableHlo.TRef.binary main_call87.v1 (.of main_v908 : StableHlo.TRef sig ⟨S32768x4, .f32⟩) main_call87.v2 maximumf,
    StableHlo.TRef.unary (.of main_cst_296 : StableHlo.TRef sig ⟨S_, .f32⟩) main_call87.v3 id,
    StableHlo.TRef.unary main_call87.v3 main_call87.v4 (broadcastInDim S32768x4 ![] bcast_S_S32768x4),
    StableHlo.TRef.binary main_call87.v4 main_call87.v2 main_call87.v5 minimumf,
    StableHlo.unary main_v909 main_v911 (Host.sign : (⟨S32768x4, .f32⟩ : BufTy).Contents (Elt F) → (⟨S32768x4, .f32⟩ : BufTy).Contents (Elt F)),
    StableHlo.unary main_v910 main_v912 (Host.sign : (⟨S32768x4, .f32⟩ : BufTy).Contents (Elt F) → (⟨S32768x4, .f32⟩ : BufTy).Contents (Elt F)),
    StableHlo.binary main_v911 main_v912 main_v913 (mulf : (⟨S32768x4, .f32⟩ : BufTy).Contents (Elt F) → (⟨S32768x4, .f32⟩ : BufTy).Contents (Elt F) → (⟨S32768x4, .f32⟩ : BufTy).Contents (Elt F)),
    StableHlo.unary main_v909 main_v914 (Host.absf : (⟨S32768x4, .f32⟩ : BufTy).Contents (Elt F) → (⟨S32768x4, .f32⟩ : BufTy).Contents (Elt F)),
    StableHlo.unary main_v910 main_v915 (Host.absf : (⟨S32768x4, .f32⟩ : BufTy).Contents (Elt F) → (⟨S32768x4, .f32⟩ : BufTy).Contents (Elt F)),
    StableHlo.binary main_v914 main_v915 main_v916 (minimumf : (⟨S32768x4, .f32⟩ : BufTy).Contents (Elt F) → (⟨S32768x4, .f32⟩ : BufTy).Contents (Elt F) → (⟨S32768x4, .f32⟩ : BufTy).Contents (Elt F)),
    StableHlo.binary main_v913 main_v916 main_v917 (mulf : (⟨S32768x4, .f32⟩ : BufTy).Contents (Elt F) → (⟨S32768x4, .f32⟩ : BufTy).Contents (Elt F) → (⟨S32768x4, .f32⟩ : BufTy).Contents (Elt F)),
    StableHlo.unary main_v917 main_v918 ((extractStridedSlice S32768x2 ![0, 0] · slices_S32768x4_S32768x2_0_0) : (⟨S32768x4, .f32⟩ : BufTy).Contents (Elt F) → (⟨S32768x2, .f32⟩ : BufTy).Contents (Elt F)),
    StableHlo.unary main_v917 main_v919 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_297 (constant S_ .f32 0xC1F00000#32),
    StableHlo.nullary main_cst_298 (constant S_ .f32 0x41F00000#32),
    StableHlo.TRef.unary (.of main_cst_297 : StableHlo.TRef sig ⟨S_, .f32⟩) main_call88.v0 id,
    StableHlo.TRef.unary main_call88.v0 main_call88.v1 (broadcastInDim S32768x2 ![] bcast_S_S32768x2),
    StableHlo.TRef.binary main_call88.v1 (.of main_v918 : StableHlo.TRef sig ⟨S32768x2, .f32⟩) main_call88.v2 maximumf,
    StableHlo.TRef.unary (.of main_cst_298 : StableHlo.TRef sig ⟨S_, .f32⟩) main_call88.v3 id,
    StableHlo.TRef.unary main_call88.v3 main_call88.v4 (broadcastInDim S32768x2 ![] bcast_S_S32768x2),
    StableHlo.TRef.binary main_call88.v4 main_call88.v2 main_call88.v5 minimumf,
    StableHlo.nullary main_cst_299 (constant S_ .f32 0xC1F00000#32),
    StableHlo.nullary main_cst_300 (constant S_ .f32 0x41F00000#32),
    StableHlo.TRef.unary (.of main_cst_299 : StableHlo.TRef sig ⟨S_, .f32⟩) main_call89.v0 id,
    StableHlo.TRef.unary main_call89.v0 main_call89.v1 (broadcastInDim S32768x2 ![] bcast_S_S32768x2),
    StableHlo.TRef.binary main_call89.v1 (.of main_v919 : StableHlo.TRef sig ⟨S32768x2, .f32⟩) main_call89.v2 maximumf,
    StableHlo.TRef.unary (.of main_cst_300 : StableHlo.TRef sig ⟨S_, .f32⟩) main_call89.v3 id,
    StableHlo.TRef.unary main_call89.v3 main_call89.v4 (broadcastInDim S32768x2 ![] bcast_S_S32768x2),
    StableHlo.TRef.binary main_call89.v4 main_call89.v2 main_call89.v5 minimumf,
    StableHlo.unary main_v920 main_v922 (Host.sign : (⟨S32768x2, .f32⟩ : BufTy).Contents (Elt F) → (⟨S32768x2, .f32⟩ : BufTy).Contents (Elt F)),
    StableHlo.unary main_v921 main_v923 (Host.sign : (⟨S32768x2, .f32⟩ : BufTy).Contents (Elt F) → (⟨S32768x2, .f32⟩ : BufTy).Contents (Elt F)),
    StableHlo.binary main_v922 main_v923 main_v924 (mulf : (⟨S32768x2, .f32⟩ : BufTy).Contents (Elt F) → (⟨S32768x2, .f32⟩ : BufTy).Contents (Elt F) → (⟨S32768x2, .f32⟩ : BufTy).Contents (Elt F)),
    StableHlo.unary main_v920 main_v925 (Host.absf : (⟨S32768x2, .f32⟩ : BufTy).Contents (Elt F) → (⟨S32768x2, .f32⟩ : BufTy).Contents (Elt F)),
    StableHlo.unary main_v921 main_v926 (Host.absf : (⟨S32768x2, .f32⟩ : BufTy).Contents (Elt F) → (⟨S32768x2, .f32⟩ : BufTy).Contents (Elt F)),
    StableHlo.binary main_v925 main_v926 main_v927 (minimumf : (⟨S32768x2, .f32⟩ : BufTy).Contents (Elt F) → (⟨S32768x2, .f32⟩ : BufTy).Contents (Elt F) → (⟨S32768x2, .f32⟩ : BufTy).Contents (Elt F)),
    StableHlo.binary main_v924 main_v927 main_v928 (mulf : (⟨S32768x2, .f32⟩ : BufTy).Contents (Elt F) → (⟨S32768x2, .f32⟩ : BufTy).Contents (Elt F) → (⟨S32768x2, .f32⟩ : BufTy).Contents (Elt F)),
    StableHlo.unary main_v928 main_v929 ((extractStridedSlice S32768x1 ![0, 0] · slices_S32768x2_S32768x1_0_0) : (⟨S32768x2, .f32⟩ : BufTy).Contents (Elt F) → (⟨S32768x1, .f32⟩ : BufTy).Contents (Elt F)),
    StableHlo.unary main_v928 main_v930 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_301 (constant S_ .f32 0xC1F00000#32),
    StableHlo.nullary main_cst_302 (constant S_ .f32 0x41F00000#32),
    StableHlo.TRef.unary (.of main_cst_301 : StableHlo.TRef sig ⟨S_, .f32⟩) main_call90.v0 id,
    StableHlo.TRef.unary main_call90.v0 main_call90.v1 (broadcastInDim S32768x1 ![] bcast_S_S32768x1),
    StableHlo.TRef.binary main_call90.v1 (.of main_v929 : StableHlo.TRef sig ⟨S32768x1, .f32⟩) main_call90.v2 maximumf,
    StableHlo.TRef.unary (.of main_cst_302 : StableHlo.TRef sig ⟨S_, .f32⟩) main_call90.v3 id,
    StableHlo.TRef.unary main_call90.v3 main_call90.v4 (broadcastInDim S32768x1 ![] bcast_S_S32768x1),
    StableHlo.TRef.binary main_call90.v4 main_call90.v2 main_call90.v5 minimumf,
    StableHlo.nullary main_cst_303 (constant S_ .f32 0xC1F00000#32),
    StableHlo.nullary main_cst_304 (constant S_ .f32 0x41F00000#32),
    StableHlo.TRef.unary (.of main_cst_303 : StableHlo.TRef sig ⟨S_, .f32⟩) main_call91.v0 id,
    StableHlo.TRef.unary main_call91.v0 main_call91.v1 (broadcastInDim S32768x1 ![] bcast_S_S32768x1),
    StableHlo.TRef.binary main_call91.v1 (.of main_v930 : StableHlo.TRef sig ⟨S32768x1, .f32⟩) main_call91.v2 maximumf,
    StableHlo.TRef.unary (.of main_cst_304 : StableHlo.TRef sig ⟨S_, .f32⟩) main_call91.v3 id,
    StableHlo.TRef.unary main_call91.v3 main_call91.v4 (broadcastInDim S32768x1 ![] bcast_S_S32768x1),
    StableHlo.TRef.binary main_call91.v4 main_call91.v2 main_call91.v5 minimumf,
    StableHlo.unary main_v931 main_v933 (Host.sign : (⟨S32768x1, .f32⟩ : BufTy).Contents (Elt F) → (⟨S32768x1, .f32⟩ : BufTy).Contents (Elt F)),
    StableHlo.unary main_v932 main_v934 (Host.sign : (⟨S32768x1, .f32⟩ : BufTy).Contents (Elt F) → (⟨S32768x1, .f32⟩ : BufTy).Contents (Elt F)),
    StableHlo.binary main_v933 main_v934 main_v935 (mulf : (⟨S32768x1, .f32⟩ : BufTy).Contents (Elt F) → (⟨S32768x1, .f32⟩ : BufTy).Contents (Elt F) → (⟨S32768x1, .f32⟩ : BufTy).Contents (Elt F)),
    StableHlo.unary main_v931 main_v936 (Host.absf : (⟨S32768x1, .f32⟩ : BufTy).Contents (Elt F) → (⟨S32768x1, .f32⟩ : BufTy).Contents (Elt F)),
    StableHlo.unary main_v932 main_v937 (Host.absf : (⟨S32768x1, .f32⟩ : BufTy).Contents (Elt F) → (⟨S32768x1, .f32⟩ : BufTy).Contents (Elt F)),
    StableHlo.binary main_v936 main_v937 main_v938 (minimumf : (⟨S32768x1, .f32⟩ : BufTy).Contents (Elt F) → (⟨S32768x1, .f32⟩ : BufTy).Contents (Elt F) → (⟨S32768x1, .f32⟩ : BufTy).Contents (Elt F)),
    StableHlo.binary main_v935 main_v938 main_v939 (mulf : (⟨S32768x1, .f32⟩ : BufTy).Contents (Elt F) → (⟨S32768x1, .f32⟩ : BufTy).Contents (Elt F) → (⟨S32768x1, .f32⟩ : BufTy).Contents (Elt F)),
    StableHlo.nullary main_cst_305 (constant S_ .f32 0x00000000#32),
    StableHlo.unary main_cst_305 main_v940 (broadcastInDim S32768x1 ![] bcast_S_S32768x1 : (⟨S_, .f32⟩ : BufTy).Contents (Elt F) → (⟨S32768x1, .f32⟩ : BufTy).Contents (Elt F)),
    StableHlo.nullary main_cst_306 (constant S_ .f32 0x40000000#32),
    StableHlo.unary main_cst_306 main_v941 (broadcastInDim S32768x1 ![] bcast_S_S32768x1 : (⟨S_, .f32⟩ : BufTy).Contents (Elt F) → (⟨S32768x1, .f32⟩ : BufTy).Contents (Elt F)),
    StableHlo.binary main_v941 main_v940 main_v942 (mulf : (⟨S32768x1, .f32⟩ : BufTy).Contents (Elt F) → (⟨S32768x1, .f32⟩ : BufTy).Contents (Elt F) → (⟨S32768x1, .f32⟩ : BufTy).Contents (Elt F)),
    StableHlo.nullary main_cst_307 (constant S_ .f32 0x3F800000#32),
    StableHlo.unary main_cst_307 main_v943 (broadcastInDim S32768x1 ![] bcast_S_S32768x1 : (⟨S_, .f32⟩ : BufTy).Contents (Elt F) → (⟨S32768x1, .f32⟩ : BufTy).Contents (Elt F)),
    StableHlo.binary main_v943 main_v942 main_v944 (subf : (⟨S32768x1, .f32⟩ : BufTy).Contents (Elt F) → (⟨S32768x1, .f32⟩ : BufTy).Contents (Elt F) → (⟨S32768x1, .f32⟩ : BufTy).Contents (Elt F)),
    StableHlo.binary main_v944 main_v929 main_v945 (mulf : (⟨S32768x1, .f32⟩ : BufTy).Contents (Elt F) → (⟨S32768x1, .f32⟩ : BufTy).Contents (Elt F) → (⟨S32768x1, .f32⟩ : BufTy).Contents (Elt F)),
    StableHlo.binary main_v945 main_v930 main_v946 (addf : (⟨S32768x1, .f32⟩ : BufTy).Contents (Elt F) → (⟨S32768x1, .f32⟩ : BufTy).Contents (Elt F) → (⟨S32768x1, .f32⟩ : BufTy).Contents (Elt F)),
    StableHlo.nullary main_cst_308 (constant S_ .f32 0x00000000#32),
    StableHlo.unary main_cst_308 main_v947 (broadcastInDim S32768x1 ![] bcast_S_S32768x1 : (⟨S_, .f32⟩ : BufTy).Contents (Elt F) → (⟨S32768x1, .f32⟩ : BufTy).Contents (Elt F)),
    StableHlo.binary main_v940 main_v947 main_v948 (cmpf .une : (⟨S32768x1, .f32⟩ : BufTy).Contents (Elt F) → (⟨S32768x1, .f32⟩ : BufTy).Contents (Elt F) → (⟨S32768x1, .i1⟩ : BufTy).Contents (Elt F)) ]

set_option maxRecDepth 8192 in
/-- The window is that straight line: each clip function unfolded at its calls, the sequencing reassociated. -/
theorem part_eq_20 (d : Dev nD) : main_part20 (F := F) d = seq ops20 := by
  simp only [main_part20, fn_clip_4.body, fn_clip_5.body, fn_clip_6.body, seq, bind_assoc, pure_bind]
  rfl

/-- Every operation of the window touches TensorCore references only. -/
theorem sub_20 : (ops20 : List (HloOp τ sig (Elt F))).Forall fun op => op.bufs ⊆ tcRefs τ sig :=
  ⟨binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., nullary_bufs_sub ..,
    unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..⟩

/-- Every operation of the window determines all it writes. -/
theorem fresh_20 : (ops20 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_20 (V : Valuation τ sig (Elt F)) :
    after ops20 V (main_arg0 : DevRef τ sig) = V (main_arg0 : DevRef τ sig) := by
  simp only [after_cons, after_nil]
  rfl

/-- The operations of @main's statements 1261 … 1320, in order (75 of them): a statement's own operation, or, for a call
    of a clip function, the six operations of its body over that call's buffers. -/
abbrev ops21 : List (HloOp τ sig (Elt F)) :=
  [ StableHlo.unary main_v948 main_v949 (uitofp .f32 : (⟨S32768x1, .i1⟩ : BufTy).Contents (Elt F) → (⟨S32768x1, .f32⟩ : BufTy).Contents (Elt F)),
    StableHlo.binary main_v949 main_v947 main_v950 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v940 main_v947 main_v951 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_309 (constant S_ .f32 0x40000000#32),
    StableHlo.unary main_cst_309 main_v952 (broadcastInDim S32768x2 ![] bcast_S_S32768x2 : (⟨S_, .f32⟩ : BufTy).Contents (Elt F) → (⟨S32768x2, .f32⟩ : BufTy).Contents (Elt F)),
    StableHlo.binary main_v952 main_v950 main_v953 (mulf : (⟨S32768x2, .f32⟩ : BufTy).Contents (Elt F) → (⟨S32768x2, .f32⟩ : BufTy).Contents (Elt F) → (⟨S32768x2, .f32⟩ : BufTy).Contents (Elt F)),
    StableHlo.nullary main_cst_310 (constant S_ .f32 0x3F800000#32),
    StableHlo.unary main_cst_310 main_v954 (broadcastInDim S32768x2 ![] bcast_S_S32768x2 : (⟨S_, .f32⟩ : BufTy).Contents (Elt F) → (⟨S32768x2, .f32⟩ : BufTy).Contents (Elt F)),
    StableHlo.binary main_v954 main_v953 main_v955 (subf : (⟨S32768x2, .f32⟩ : BufTy).Contents (Elt F) → (⟨S32768x2, .f32⟩ : BufTy).Contents (Elt F) → (⟨S32768x2, .f32⟩ : BufTy).Contents (Elt F)),
    StableHlo.binary main_v955 main_v918 main_v956 (mulf : (⟨S32768x2, .f32⟩ : BufTy).Contents (Elt F) → (⟨S32768x2, .f32⟩ : BufTy).Contents (Elt F) → (⟨S32768x2, .f32⟩ : BufTy).Contents (Elt F)),
    StableHlo.binary main_v956 main_v919 main_v957 (addf : (⟨S32768x2, .f32⟩ : BufTy).Contents (Elt F) → (⟨S32768x2, .f32⟩ : BufTy).Contents (Elt F) → (⟨S32768x2, .f32⟩ : BufTy).Contents (Elt F)),
    StableHlo.unary main_v957 main_v958 ((extractStridedSlice S32768x1 ![0, 0] · slices_S32768x2_S32768x1_0_0) : (⟨S32768x2, .f32⟩ : BufTy).Contents (Elt F) → (⟨S32768x1, .f32⟩ : BufTy).Contents (Elt F)),
    StableHlo.unary main_v957 main_v959 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_311 (constant S_ .f32 0xC1F00000#32),
    StableHlo.nullary main_cst_312 (constant S_ .f32 0x41F00000#32),
    StableHlo.TRef.unary (.of main_cst_311 : StableHlo.TRef sig ⟨S_, .f32⟩) main_call92.v0 id,
    StableHlo.TRef.unary main_call92.v0 main_call92.v1 (broadcastInDim S32768x1 ![] bcast_S_S32768x1),
    StableHlo.TRef.binary main_call92.v1 (.of main_v958 : StableHlo.TRef sig ⟨S32768x1, .f32⟩) main_call92.v2 maximumf,
    StableHlo.TRef.unary (.of main_cst_312 : StableHlo.TRef sig ⟨S_, .f32⟩) main_call92.v3 id,
    StableHlo.TRef.unary main_call92.v3 main_call92.v4 (broadcastInDim S32768x1 ![] bcast_S_S32768x1),
    StableHlo.TRef.binary main_call92.v4 main_call92.v2 main_call92.v5 minimumf,
    StableHlo.nullary main_cst_313 (constant S_ .f32 0xC1F00000#32),
    StableHlo.nullary main_cst_314 (constant S_ .f32 0x41F00000#32),
    StableHlo.TRef.unary (.of main_cst_313 : StableHlo.TRef sig ⟨S_, .f32⟩) main_call93.v0 id,
    StableHlo.TRef.unary main_call93.v0 main_call93.v1 (broadcastInDim S32768x1 ![] bcast_S_S32768x1),
    StableHlo.TRef.binary main_call93.v1 (.of main_v959 : StableHlo.TRef sig ⟨S32768x1, .f32⟩) main_call93.v2 maximumf,
    StableHlo.TRef.unary (.of main_cst_314 : StableHlo.TRef sig ⟨S_, .f32⟩) main_call93.v3 id,
    StableHlo.TRef.unary main_call93.v3 main_call93.v4 (broadcastInDim S32768x1 ![] bcast_S_S32768x1),
    StableHlo.TRef.binary main_call93.v4 main_call93.v2 main_call93.v5 minimumf,
    StableHlo.unary main_v960 main_v962 (Host.sign : (⟨S32768x1, .f32⟩ : BufTy).Contents (Elt F) → (⟨S32768x1, .f32⟩ : BufTy).Contents (Elt F)),
    StableHlo.unary main_v961 main_v963 (Host.sign : (⟨S32768x1, .f32⟩ : BufTy).Contents (Elt F) → (⟨S32768x1, .f32⟩ : BufTy).Contents (Elt F)),
    StableHlo.binary main_v962 main_v963 main_v964 (mulf : (⟨S32768x1, .f32⟩ : BufTy).Contents (Elt F) → (⟨S32768x1, .f32⟩ : BufTy).Contents (Elt F) → (⟨S32768x1, .f32⟩ : BufTy).Contents (Elt F)),
    StableHlo.unary main_v960 main_v965 (Host.absf : (⟨S32768x1, .f32⟩ : BufTy).Contents (Elt F) → (⟨S32768x1, .f32⟩ : BufTy).Contents (Elt F)),
    StableHlo.unary main_v961 main_v966 (Host.absf : (⟨S32768x1, .f32⟩ : BufTy).Contents (Elt F) → (⟨S32768x1, .f32⟩ : BufTy).Contents (Elt F)),
    StableHlo.binary main_v965 main_v966 main_v967 (minimumf : (⟨S32768x1, .f32⟩ : BufTy).Contents (Elt F) → (⟨S32768x1, .f32⟩ : BufTy).Contents (Elt F) → (⟨S32768x1, .f32⟩ : BufTy).Contents (Elt F)),
    StableHlo.binary main_v964 main_v967 main_v968 (mulf : (⟨S32768x1, .f32⟩ : BufTy).Contents (Elt F) → (⟨S32768x1, .f32⟩ : BufTy).Contents (Elt F) → (⟨S32768x1, .f32⟩ : BufTy).Contents (Elt F)),
    StableHlo.nullary main_cst_315 (constant S_ .f32 0x00000000#32),
    StableHlo.unary main_cst_315 main_v969 (broadcastInDim S32768x1 ![] bcast_S_S32768x1 : (⟨S_, .f32⟩ : BufTy).Contents (Elt F) → (⟨S32768x1, .f32⟩ : BufTy).Contents (Elt F)),
    StableHlo.nullary main_cst_316 (constant S_ .f32 0x40000000#32),
    StableHlo.unary main_cst_316 main_v970 (broadcastInDim S32768x1 ![] bcast_S_S32768x1 : (⟨S_, .f32⟩ : BufTy).Contents (Elt F) → (⟨S32768x1, .f32⟩ : BufTy).Contents (Elt F)),
    StableHlo.binary main_v970 main_v969 main_v971 (mulf : (⟨S32768x1, .f32⟩ : BufTy).Contents (Elt F) → (⟨S32768x1, .f32⟩ : BufTy).Contents (Elt F) → (⟨S32768x1, .f32⟩ : BufTy).Contents (Elt F)),
    StableHlo.nullary main_cst_317 (constant S_ .f32 0x3F800000#32),
    StableHlo.unary main_cst_317 main_v972 (broadcastInDim S32768x1 ![] bcast_S_S32768x1 : (⟨S_, .f32⟩ : BufTy).Contents (Elt F) → (⟨S32768x1, .f32⟩ : BufTy).Contents (Elt F)),
    StableHlo.binary main_v972 main_v971 main_v973 (subf : (⟨S32768x1, .f32⟩ : BufTy).Contents (Elt F) → (⟨S32768x1, .f32⟩ : BufTy).Contents (Elt F) → (⟨S32768x1, .f32⟩ : BufTy).Contents (Elt F)),
    StableHlo.binary main_v973 main_v958 main_v974 (mulf : (⟨S32768x1, .f32⟩ : BufTy).Contents (Elt F) → (⟨S32768x1, .f32⟩ : BufTy).Contents (Elt F) → (⟨S32768x1, .f32⟩ : BufTy).Contents (Elt F)),
    StableHlo.binary main_v974 main_v959 main_v975 (addf : (⟨S32768x1, .f32⟩ : BufTy).Contents (Elt F) → (⟨S32768x1, .f32⟩ : BufTy).Contents (Elt F) → (⟨S32768x1, .f32⟩ : BufTy).Contents (Elt F)),
    StableHlo.nullary main_cst_318 (constant S_ .f32 0x00000000#32),
    StableHlo.unary main_cst_318 main_v976 (broadcastInDim S32768x1 ![] bcast_S_S32768x1 : (⟨S_, .f32⟩ : BufTy).Contents (Elt F) → (⟨S32768x1, .f32⟩ : BufTy).Contents (Elt F)),
    StableHlo.binary main_v969 main_v976 main_v977 (cmpf .une : (⟨S32768x1, .f32⟩ : BufTy).Contents (Elt F) → (⟨S32768x1, .f32⟩ : BufTy).Contents (Elt F) → (⟨S32768x1, .i1⟩ : BufTy).Contents (Elt F)),
    StableHlo.unary main_v977 main_v978 (uitofp .f32 : (⟨S32768x1, .i1⟩ : BufTy).Contents (Elt F) → (⟨S32768x1, .f32⟩ : BufTy).Contents (Elt F)),
    StableHlo.binary main_v978 main_v976 main_v979 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v969 main_v976 main_v980 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v950 main_v979 main_v981 (cmpf .une : (⟨S32768x2, .f32⟩ : BufTy).Contents (Elt F) → (⟨S32768x2, .f32⟩ : BufTy).Contents (Elt F) → (⟨S32768x2, .i1⟩ : BufTy).Contents (Elt F)),
    StableHlo.unary main_v981 main_v982 (uitofp .f32 : (⟨S32768x2, .i1⟩ : BufTy).Contents (Elt F) → (⟨S32768x2, .f32⟩ : BufTy).Contents (Elt F)),
    StableHlo.binary main_v982 main_v979 main_v983 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v951 main_v980 main_v984 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_319 (constant S_ .f32 0x40000000#32),
    StableHlo.unary main_cst_319 main_v985 (broadcastInDim S32768x4 ![] bcast_S_S32768x4 : (⟨S_, .f32⟩ : BufTy).Contents (Elt F) → (⟨S32768x4, .f32⟩ : BufTy).Contents (Elt F)),
    StableHlo.binary main_v985 main_v983 main_v986 (mulf : (⟨S32768x4, .f32⟩ : BufTy).Contents (Elt F) → (⟨S32768x4, .f32⟩ : BufTy).Contents (Elt F) → (⟨S32768x4, .f32⟩ : BufTy).Contents (Elt F)),
    StableHlo.nullary main_cst_320 (constant S_ .f32 0x3F800000#32),
    StableHlo.unary main_cst_320 main_v987 (broadcastInDim S32768x4 ![] bcast_S_S32768x4 : (⟨S_, .f32⟩ : BufTy).Contents (Elt F) → (⟨S32768x4, .f32⟩ : BufTy).Contents (Elt F)),
    StableHlo.binary main_v987 main_v986 main_v988 (subf : (⟨S32768x4, .f32⟩ : BufTy).Contents (Elt F) → (⟨S32768x4, .f32⟩ : BufTy).Contents (Elt F) → (⟨S32768x4, .f32⟩ : BufTy).Contents (Elt F)),
    StableHlo.binary main_v988 main_v907 main_v989 (mulf : (⟨S32768x4, .f32⟩ : BufTy).Contents (Elt F) → (⟨S32768x4, .f32⟩ : BufTy).Contents (Elt F) → (⟨S32768x4, .f32⟩ : BufTy).Contents (Elt F)),
    StableHlo.binary main_v989 main_v908 main_v990 (addf : (⟨S32768x4, .f32⟩ : BufTy).Contents (Elt F) → (⟨S32768x4, .f32⟩ : BufTy).Contents (Elt F) → (⟨S32768x4, .f32⟩ : BufTy).Contents (Elt F)),
    StableHlo.unary main_v990 main_v991 ((extractStridedSlice S32768x2 ![0, 0] · slices_S32768x4_S32768x2_0_0) : (⟨S32768x4, .f32⟩ : BufTy).Contents (Elt F) → (⟨S32768x2, .f32⟩ : BufTy).Contents (Elt F)),
    StableHlo.unary main_v990 main_v992 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_321 (constant S_ .f32 0xC1F00000#32),
    StableHlo.nullary main_cst_322 (constant S_ .f32 0x41F00000#32),
    StableHlo.TRef.unary (.of main_cst_321 : StableHlo.TRef sig ⟨S_, .f32⟩) main_call94.v0 id,
    StableHlo.TRef.unary main_call94.v0 main_call94.v1 (broadcastInDim S32768x2 ![] bcast_S_S32768x2),
    StableHlo.TRef.binary main_call94.v1 (.of main_v991 : StableHlo.TRef sig ⟨S32768x2, .f32⟩) main_call94.v2 maximumf,
    StableHlo.TRef.unary (.of main_cst_322 : StableHlo.TRef sig ⟨S_, .f32⟩) main_call94.v3 id,
    StableHlo.TRef.unary main_call94.v3 main_call94.v4 (broadcastInDim S32768x2 ![] bcast_S_S32768x2),
    StableHlo.TRef.binary main_call94.v4 main_call94.v2 main_call94.v5 minimumf,
    StableHlo.nullary main_cst_323 (constant S_ .f32 0xC1F00000#32) ]

set_option maxRecDepth 8192 in
/-- The window is that straight line: each clip function unfolded at its calls, the sequencing reassociated. -/
theorem part_eq_21 (d : Dev nD) : main_part21 (F := F) d = seq ops21 := by
  simp only [main_part21, fn_clip_6.body, fn_clip_5.body, seq, bind_assoc, pure_bind]
  rfl

/-- Every operation of the window touches TensorCore references only. -/
theorem sub_21 : (ops21 : List (HloOp τ sig (Elt F))).Forall fun op => op.bufs ⊆ tcRefs τ sig :=
  ⟨unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., nullary_bufs_sub .., unary_bufs_sub .., binary_bufs_sub .., nullary_bufs_sub ..,
    unary_bufs_sub .., binary_bufs_sub .., binary_bufs_sub .., binary_bufs_sub .., nullary_bufs_sub .., unary_bufs_sub ..,
    binary_bufs_sub .., unary_bufs_sub .., binary_bufs_sub .., binary_bufs_sub .., binary_bufs_sub .., unary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub ..⟩

/-- Every operation of the window determines all it writes. -/
theorem fresh_21 : (ops21 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
/-- The window writes no argument of @main: the argument's buffer holds after it what it held before. -/
theorem keep_21 (V : Valuation τ sig (Elt F)) :
    after ops21 V (main_arg0 : DevRef τ sig) = V (main_arg0 : DevRef τ sig) := by
  simp only [after_cons, after_nil]
  rfl

/-- The operations of @main's statements 1321 … 1380, in order (85 of them): a statement's own operation, or, for a call
    of a clip function, the six operations of its body over that call's buffers. -/
abbrev ops22 : List (HloOp τ sig (Elt F)) :=
  [ StableHlo.nullary main_cst_324 (constant S_ .f32 0x41F00000#32),
    StableHlo.TRef.unary (.of main_cst_323 : StableHlo.TRef sig ⟨S_, .f32⟩) main_call95.v0 id,
    StableHlo.TRef.unary main_call95.v0 main_call95.v1 (broadcastInDim S32768x2 ![] bcast_S_S32768x2),
    StableHlo.TRef.binary main_call95.v1 (.of main_v992 : StableHlo.TRef sig ⟨S32768x2, .f32⟩) main_call95.v2 maximumf,
    StableHlo.TRef.unary (.of main_cst_324 : StableHlo.TRef sig ⟨S_, .f32⟩) main_call95.v3 id,
    StableHlo.TRef.unary main_call95.v3 main_call95.v4 (broadcastInDim S32768x2 ![] bcast_S_S32768x2),
    StableHlo.TRef.binary main_call95.v4 main_call95.v2 main_call95.v5 minimumf,
    StableHlo.unary main_v993 main_v995 (Host.sign : (⟨S32768x2, .f32⟩ : BufTy).Contents (Elt F) → (⟨S32768x2, .f32⟩ : BufTy).Contents (Elt F)),
    StableHlo.unary main_v994 main_v996 (Host.sign : (⟨S32768x2, .f32⟩ : BufTy).Contents (Elt F) → (⟨S32768x2, .f32⟩ : BufTy).Contents (Elt F)),
    StableHlo.binary main_v995 main_v996 main_v997 (mulf : (⟨S32768x2, .f32⟩ : BufTy).Contents (Elt F) → (⟨S32768x2, .f32⟩ : BufTy).Contents (Elt F) → (⟨S32768x2, .f32⟩ : BufTy).Contents (Elt F)),
    StableHlo.unary main_v993 main_v998 (Host.absf : (⟨S32768x2, .f32⟩ : BufTy).Contents (Elt F) → (⟨S32768x2, .f32⟩ : BufTy).Contents (Elt F)),
    StableHlo.unary main_v994 main_v999 (Host.absf : (⟨S32768x2, .f32⟩ : BufTy).Contents (Elt F) → (⟨S32768x2, .f32⟩ : BufTy).Contents (Elt F)),
    StableHlo.binary main_v998 main_v999 main_v1000 (minimumf : (⟨S32768x2, .f32⟩ : BufTy).Contents (Elt F) → (⟨S32768x2, .f32⟩ : BufTy).Contents (Elt F) → (⟨S32768x2, .f32⟩ : BufTy).Contents (Elt F)),
    StableHlo.binary main_v997 main_v1000 main_v1001 (mulf : (⟨S32768x2, .f32⟩ : BufTy).Contents (Elt F) → (⟨S32768x2, .f32⟩ : BufTy).Contents (Elt F) → (⟨S32768x2, .f32⟩ : BufTy).Contents (Elt F)),
    StableHlo.unary main_v1001 main_v1002 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1001 main_v1003 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_325 (constant S_ .f32 0xC1F00000#32),
    StableHlo.nullary main_cst_326 (constant S_ .f32 0x41F00000#32),
    StableHlo.TRef.unary (.of main_cst_325 : StableHlo.TRef sig ⟨S_, .f32⟩) main_call96.v0 id,
    StableHlo.TRef.unary main_call96.v0 main_call96.v1 (broadcastInDim S32768x1 ![] bcast_S_S32768x1),
    StableHlo.TRef.binary main_call96.v1 (.of main_v1002 : StableHlo.TRef sig ⟨S32768x1, .f32⟩) main_call96.v2 maximumf,
    StableHlo.TRef.unary (.of main_cst_326 : StableHlo.TRef sig ⟨S_, .f32⟩) main_call96.v3 id,
    StableHlo.TRef.unary main_call96.v3 main_call96.v4 (broadcastInDim S32768x1 ![] bcast_S_S32768x1),
    StableHlo.TRef.binary main_call96.v4 main_call96.v2 main_call96.v5 minimumf,
    StableHlo.nullary main_cst_327 (constant S_ .f32 0xC1F00000#32),
    StableHlo.nullary main_cst_328 (constant S_ .f32 0x41F00000#32),
    StableHlo.TRef.unary (.of main_cst_327 : StableHlo.TRef sig ⟨S_, .f32⟩) main_call97.v0 id,
    StableHlo.TRef.unary main_call97.v0 main_call97.v1 (broadcastInDim S32768x1 ![] bcast_S_S32768x1),
    StableHlo.TRef.binary main_call97.v1 (.of main_v1003 : StableHlo.TRef sig ⟨S32768x1, .f32⟩) main_call97.v2 maximumf,
    StableHlo.TRef.unary (.of main_cst_328 : StableHlo.TRef sig ⟨S_, .f32⟩) main_call97.v3 id,
    StableHlo.TRef.unary main_call97.v3 main_call97.v4 (broadcastInDim S32768x1 ![] bcast_S_S32768x1),
    StableHlo.TRef.binary main_call97.v4 main_call97.v2 main_call97.v5 minimumf,
    StableHlo.unary main_v1004 main_v1006 (Host.sign : (⟨S32768x1, .f32⟩ : BufTy).Contents (Elt F) → (⟨S32768x1, .f32⟩ : BufTy).Contents (Elt F)),
    StableHlo.unary main_v1005 main_v1007 (Host.sign : (⟨S32768x1, .f32⟩ : BufTy).Contents (Elt F) → (⟨S32768x1, .f32⟩ : BufTy).Contents (Elt F)),
    StableHlo.binary main_v1006 main_v1007 main_v1008 (mulf : (⟨S32768x1, .f32⟩ : BufTy).Contents (Elt F) → (⟨S32768x1, .f32⟩ : BufTy).Contents (Elt F) → (⟨S32768x1, .f32⟩ : BufTy).Contents (Elt F)),
    StableHlo.unary main_v1004 main_v1009 (Host.absf : (⟨S32768x1, .f32⟩ : BufTy).Contents (Elt F) → (⟨S32768x1, .f32⟩ : BufTy).Contents (Elt F)),
    StableHlo.unary main_v1005 main_v1010 (Host.absf : (⟨S32768x1, .f32⟩ : BufTy).Contents (Elt F) → (⟨S32768x1, .f32⟩ : BufTy).Contents (Elt F)),
    StableHlo.binary main_v1009 main_v1010 main_v1011 (minimumf : (⟨S32768x1, .f32⟩ : BufTy).Contents (Elt F) → (⟨S32768x1, .f32⟩ : BufTy).Contents (Elt F) → (⟨S32768x1, .f32⟩ : BufTy).Contents (Elt F)),
    StableHlo.binary main_v1008 main_v1011 main_v1012 (mulf : (⟨S32768x1, .f32⟩ : BufTy).Contents (Elt F) → (⟨S32768x1, .f32⟩ : BufTy).Contents (Elt F) → (⟨S32768x1, .f32⟩ : BufTy).Contents (Elt F)),
    StableHlo.nullary main_cst_329 (constant S_ .f32 0x00000000#32),
    StableHlo.unary main_cst_329 main_v1013 (broadcastInDim S32768x1 ![] bcast_S_S32768x1 : (⟨S_, .f32⟩ : BufTy).Contents (Elt F) → (⟨S32768x1, .f32⟩ : BufTy).Contents (Elt F)),
    StableHlo.nullary main_cst_330 (constant S_ .f32 0x40000000#32),
    StableHlo.unary main_cst_330 main_v1014 (broadcastInDim S32768x1 ![] bcast_S_S32768x1 : (⟨S_, .f32⟩ : BufTy).Contents (Elt F) → (⟨S32768x1, .f32⟩ : BufTy).Contents (Elt F)),
    StableHlo.binary main_v1014 main_v1013 main_v1015 (mulf : (⟨S32768x1, .f32⟩ : BufTy).Contents (Elt F) → (⟨S32768x1, .f32⟩ : BufTy).Contents (Elt F) → (⟨S32768x1, .f32⟩ : BufTy).Contents (Elt F)),
    StableHlo.nullary main_cst_331 (constant S_ .f32 0x3F800000#32),
    StableHlo.unary main_cst_331 main_v1016 (broadcastInDim S32768x1 ![] bcast_S_S32768x1 : (⟨S_, .f32⟩ : BufTy).Contents (Elt F) → (⟨S32768x1, .f32⟩ : BufTy).Contents (Elt F)),
    StableHlo.binary main_v1016 main_v1015 main_v1017 (subf : (⟨S32768x1, .f32⟩ : BufTy).Contents (Elt F) → (⟨S32768x1, .f32⟩ : BufTy).Contents (Elt F) → (⟨S32768x1, .f32⟩ : BufTy).Contents (Elt F)),
    StableHlo.binary main_v1017 main_v1002 main_v1018 (mulf : (⟨S32768x1, .f32⟩ : BufTy).Contents (Elt F) → (⟨S32768x1, .f32⟩ : BufTy).Contents (Elt F) → (⟨S32768x1, .f32⟩ : BufTy).Contents (Elt F)),
    StableHlo.binary main_v1018 main_v1003 main_v1019 (addf : (⟨S32768x1, .f32⟩ : BufTy).Contents (Elt F) → (⟨S32768x1, .f32⟩ : BufTy).Contents (Elt F) → (⟨S32768x1, .f32⟩ : BufTy).Contents (Elt F)),
    StableHlo.nullary main_cst_332 (constant S_ .f32 0x00000000#32),
    StableHlo.unary main_cst_332 main_v1020 (broadcastInDim S32768x1 ![] bcast_S_S32768x1 : (⟨S_, .f32⟩ : BufTy).Contents (Elt F) → (⟨S32768x1, .f32⟩ : BufTy).Contents (Elt F)),
    StableHlo.binary main_v1013 main_v1020 main_v1021 (cmpf .une : (⟨S32768x1, .f32⟩ : BufTy).Contents (Elt F) → (⟨S32768x1, .f32⟩ : BufTy).Contents (Elt F) → (⟨S32768x1, .i1⟩ : BufTy).Contents (Elt F)),
    StableHlo.unary main_v1021 main_v1022 (uitofp .f32 : (⟨S32768x1, .i1⟩ : BufTy).Contents (Elt F) → (⟨S32768x1, .f32⟩ : BufTy).Contents (Elt F)),
    StableHlo.binary main_v1022 main_v1020 main_v1023 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1013 main_v1020 main_v1024 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_333 (constant S_ .f32 0x40000000#32),
    StableHlo.unary main_cst_333 main_v1025 (broadcastInDim S32768x2 ![] bcast_S_S32768x2 : (⟨S_, .f32⟩ : BufTy).Contents (Elt F) → (⟨S32768x2, .f32⟩ : BufTy).Contents (Elt F)),
    StableHlo.binary main_v1025 main_v1023 main_v1026 (mulf : (⟨S32768x2, .f32⟩ : BufTy).Contents (Elt F) → (⟨S32768x2, .f32⟩ : BufTy).Contents (Elt F) → (⟨S32768x2, .f32⟩ : BufTy).Contents (Elt F)),
    StableHlo.nullary main_cst_334 (constant S_ .f32 0x3F800000#32),
    StableHlo.unary main_cst_334 main_v1027 (broadcastInDim S32768x2 ![] bcast_S_S32768x2 : (⟨S_, .f32⟩ : BufTy).Contents (Elt F) → (⟨S32768x2, .f32⟩ : BufTy).Contents (Elt F)),
    StableHlo.binary main_v1027 main_v1026 main_v1028 (subf : (⟨S32768x2, .f32⟩ : BufTy).Contents (Elt F) → (⟨S32768x2, .f32⟩ : BufTy).Contents (Elt F) → (⟨S32768x2, .f32⟩ : BufTy).Contents (Elt F)),
    StableHlo.binary main_v1028 main_v991 main_v1029 (mulf : (⟨S32768x2, .f32⟩ : BufTy).Contents (Elt F) → (⟨S32768x2, .f32⟩ : BufTy).Contents (Elt F) → (⟨S32768x2, .f32⟩ : BufTy).Contents (Elt F)),
    StableHlo.binary main_v1029 main_v992 main_v1030 (addf : (⟨S32768x2, .f32⟩ : BufTy).Contents (Elt F) → (⟨S32768x2, .f32⟩ : BufTy).Contents (Elt F) → (⟨S32768x2, .f32⟩ : BufTy).Contents (Elt F)),
    StableHlo.unary main_v1030 main_v1031 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1030 main_v1032 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_335 (constant S_ .f32 0xC1F00000#32),
    StableHlo.nullary main_cst_336 (constant S_ .f32 0x41F00000#32),
    StableHlo.TRef.unary (.of main_cst_335 : StableHlo.TRef sig ⟨S_, .f32⟩) main_call98.v0 id,
    StableHlo.TRef.unary main_call98.v0 main_call98.v1 (broadcastInDim S32768x1 ![] bcast_S_S32768x1),
    StableHlo.TRef.binary main_call98.v1 (.of main_v1031 : StableHlo.TRef sig ⟨S32768x1, .f32⟩) main_call98.v2 maximumf,
    StableHlo.TRef.unary (.of main_cst_336 : StableHlo.TRef sig ⟨S_, .f32⟩) main_call98.v3 id,
    StableHlo.TRef.unary main_call98.v3 main_call98.v4 (broadcastInDim S32768x1 ![] bcast_S_S32768x1),
    StableHlo.TRef.binary main_call98.v4 main_call98.v2 main_call98.v5 minimumf,
    StableHlo.nullary main_cst_337 (constant S_ .f32 0xC1F00000#32),
    StableHlo.nullary main_cst_338 (constant S_ .f32 0x41F00000#32),
    StableHlo.TRef.unary (.of main_cst_337 : StableHlo.TRef sig ⟨S_, .f32⟩) main_call99.v0 id,
    StableHlo.TRef.unary main_call99.v0 main_call99.v1 (broadcastInDim S32768x1 ![] bcast_S_S32768x1),
    StableHlo.TRef.binary main_call99.v1 (.of main_v1032 : StableHlo.TRef sig ⟨S32768x1, .f32⟩) main_call99.v2 maximumf,
    StableHlo.TRef.unary (.of main_cst_338 : StableHlo.TRef sig ⟨S_, .f32⟩) main_call99.v3 id,
    StableHlo.TRef.unary main_call99.v3 main_call99.v4 (broadcastInDim S32768x1 ![] bcast_S_S32768x1),
    StableHlo.TRef.binary main_call99.v4 main_call99.v2 main_call99.v5 minimumf,
    StableHlo.unary main_v1033 main_v1035 (Host.sign : (⟨S32768x1, .f32⟩ : BufTy).Contents (Elt F) → (⟨S32768x1, .f32⟩ : BufTy).Contents (Elt F)),
    StableHlo.unary main_v1034 main_v1036 (Host.sign : (⟨S32768x1, .f32⟩ : BufTy).Contents (Elt F) → (⟨S32768x1, .f32⟩ : BufTy).Contents (Elt F)),
    StableHlo.binary main_v1035 main_v1036 main_v1037 (mulf : (⟨S32768x1, .f32⟩ : BufTy).Contents (Elt F) → (⟨S32768x1, .f32⟩ : BufTy).Contents (Elt F) → (⟨S32768x1, .f32⟩ : BufTy).Contents (Elt F)),
    StableHlo.unary main_v1033 main_v1038 (Host.absf : (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_22 (d : Dev nD) : main_part22 (F := F) d = seq ops22 := by
  simp only [main_part22, fn_clip_5.body, fn_clip_6.body, seq, bind_assoc, pure_bind]
  rfl

/-- Every operation of the window touches TensorCore references only. -/
theorem sub_22 : (ops22 : List (HloOp τ sig (Elt F))).Forall fun op => op.bufs ⊆ tcRefs τ sig :=
  ⟨nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub ..⟩

/-- Every operation of the window determines all it writes. -/
theorem fresh_22 : (ops22 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_22 (V : Valuation τ sig (Elt F)) :
    after ops22 V (main_arg0 : DevRef τ sig) = V (main_arg0 : DevRef τ sig) := by
  simp only [after_cons, after_nil]
  rfl

/-- The operations of @main's statements 1381 … 1440, in order (75 of them): a statement's own operation, or, for a call
    of a clip function, the six operations of its body over that call's buffers. -/
abbrev ops23 : List (HloOp τ sig (Elt F)) :=
  [ StableHlo.unary main_v1034 main_v1039 (Host.absf : (⟨S32768x1, .f32⟩ : BufTy).Contents (Elt F) → (⟨S32768x1, .f32⟩ : BufTy).Contents (Elt F)),
    StableHlo.binary main_v1038 main_v1039 main_v1040 (minimumf : (⟨S32768x1, .f32⟩ : BufTy).Contents (Elt F) → (⟨S32768x1, .f32⟩ : BufTy).Contents (Elt F) → (⟨S32768x1, .f32⟩ : BufTy).Contents (Elt F)),
    StableHlo.binary main_v1037 main_v1040 main_v1041 (mulf : (⟨S32768x1, .f32⟩ : BufTy).Contents (Elt F) → (⟨S32768x1, .f32⟩ : BufTy).Contents (Elt F) → (⟨S32768x1, .f32⟩ : BufTy).Contents (Elt F)),
    StableHlo.nullary main_cst_339 (constant S_ .f32 0x00000000#32),
    StableHlo.unary main_cst_339 main_v1042 (broadcastInDim S32768x1 ![] bcast_S_S32768x1 : (⟨S_, .f32⟩ : BufTy).Contents (Elt F) → (⟨S32768x1, .f32⟩ : BufTy).Contents (Elt F)),
    StableHlo.nullary main_cst_340 (constant S_ .f32 0x40000000#32),
    StableHlo.unary main_cst_340 main_v1043 (broadcastInDim S32768x1 ![] bcast_S_S32768x1 : (⟨S_, .f32⟩ : BufTy).Contents (Elt F) → (⟨S32768x1, .f32⟩ : BufTy).Contents (Elt F)),
    StableHlo.binary main_v1043 main_v1042 main_v1044 (mulf : (⟨S32768x1, .f32⟩ : BufTy).Contents (Elt F) → (⟨S32768x1, .f32⟩ : BufTy).Contents (Elt F) → (⟨S32768x1, .f32⟩ : BufTy).Contents (Elt F)),
    StableHlo.nullary main_cst_341 (constant S_ .f32 0x3F800000#32),
    StableHlo.unary main_cst_341 main_v1045 (broadcastInDim S32768x1 ![] bcast_S_S32768x1 : (⟨S_, .f32⟩ : BufTy).Contents (Elt F) → (⟨S32768x1, .f32⟩ : BufTy).Contents (Elt F)),
    StableHlo.binary main_v1045 main_v1044 main_v1046 (subf : (⟨S32768x1, .f32⟩ : BufTy).Contents (Elt F) → (⟨S32768x1, .f32⟩ : BufTy).Contents (Elt F) → (⟨S32768x1, .f32⟩ : BufTy).Contents (Elt F)),
    StableHlo.binary main_v1046 main_v1031 main_v1047 (mulf : (⟨S32768x1, .f32⟩ : BufTy).Contents (Elt F) → (⟨S32768x1, .f32⟩ : BufTy).Contents (Elt F) → (⟨S32768x1, .f32⟩ : BufTy).Contents (Elt F)),
    StableHlo.binary main_v1047 main_v1032 main_v1048 (addf : (⟨S32768x1, .f32⟩ : BufTy).Contents (Elt F) → (⟨S32768x1, .f32⟩ : BufTy).Contents (Elt F) → (⟨S32768x1, .f32⟩ : BufTy).Contents (Elt F)),
    StableHlo.nullary main_cst_342 (constant S_ .f32 0x00000000#32),
    StableHlo.unary main_cst_342 main_v1049 (broadcastInDim S32768x1 ![] bcast_S_S32768x1 : (⟨S_, .f32⟩ : BufTy).Contents (Elt F) → (⟨S32768x1, .f32⟩ : BufTy).Contents (Elt F)),
    StableHlo.binary main_v1042 main_v1049 main_v1050 (cmpf .une : (⟨S32768x1, .f32⟩ : BufTy).Contents (Elt F) → (⟨S32768x1, .f32⟩ : BufTy).Contents (Elt F) → (⟨S32768x1, .i1⟩ : BufTy).Contents (Elt F)),
    StableHlo.unary main_v1050 main_v1051 (uitofp .f32 : (⟨S32768x1, .i1⟩ : BufTy).Contents (Elt F) → (⟨S32768x1, .f32⟩ : BufTy).Contents (Elt F)),
    StableHlo.binary main_v1051 main_v1049 main_v1052 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1042 main_v1049 main_v1053 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1023 main_v1052 main_v1054 (cmpf .une : (⟨S32768x2, .f32⟩ : BufTy).Contents (Elt F) → (⟨S32768x2, .f32⟩ : BufTy).Contents (Elt F) → (⟨S32768x2, .i1⟩ : BufTy).Contents (Elt F)),
    StableHlo.unary main_v1054 main_v1055 (uitofp .f32 : (⟨S32768x2, .i1⟩ : BufTy).Contents (Elt F) → (⟨S32768x2, .f32⟩ : BufTy).Contents (Elt F)),
    StableHlo.binary main_v1055 main_v1052 main_v1056 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v1024 main_v1053 main_v1057 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v983 main_v1056 main_v1058 (cmpf .une : (⟨S32768x4, .f32⟩ : BufTy).Contents (Elt F) → (⟨S32768x4, .f32⟩ : BufTy).Contents (Elt F) → (⟨S32768x4, .i1⟩ : BufTy).Contents (Elt F)),
    StableHlo.unary main_v1058 main_v1059 (uitofp .f32 : (⟨S32768x4, .i1⟩ : BufTy).Contents (Elt F) → (⟨S32768x4, .f32⟩ : BufTy).Contents (Elt F)),
    StableHlo.binary main_v1059 main_v1056 main_v1060 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v984 main_v1057 main_v1061 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v899 main_v1060 main_v1062 (cmpf .une : (⟨S32768x8, .f32⟩ : BufTy).Contents (Elt F) → (⟨S32768x8, .f32⟩ : BufTy).Contents (Elt F) → (⟨S32768x8, .i1⟩ : BufTy).Contents (Elt F)),
    StableHlo.unary main_v1062 main_v1063 (uitofp .f32 : (⟨S32768x8, .i1⟩ : BufTy).Contents (Elt F) → (⟨S32768x8, .f32⟩ : BufTy).Contents (Elt F)),
    StableHlo.binary main_v1063 main_v1060 main_v1064 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v900 main_v1061 main_v1065 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.nullary main_cst_343 (constant S_ .f32 0x40000000#32),
    StableHlo.unary main_cst_343 main_v1066 (broadcastInDim S32768x16 ![] bcast_S_S32768x16 : (⟨S_, .f32⟩ : BufTy).Contents (Elt F) → (⟨S32768x16, .f32⟩ : BufTy).Contents (Elt F)),
    StableHlo.binary main_v1066 main_v1064 main_v1067 (mulf : (⟨S32768x16, .f32⟩ : BufTy).Contents (Elt F) → (⟨S32768x16, .f32⟩ : BufTy).Contents (Elt F) → (⟨S32768x16, .f32⟩ : BufTy).Contents (Elt F)),
    StableHlo.nullary main_cst_344 (constant S_ .f32 0x3F800000#32),
    StableHlo.unary main_cst_344 main_v1068 (broadcastInDim S32768x16 ![] bcast_S_S32768x16 : (⟨S_, .f32⟩ : BufTy).Contents (Elt F) → (⟨S32768x16, .f32⟩ : BufTy).Contents (Elt F)),
    StableHlo.binary main_v1068 main_v1067 main_v1069 (subf : (⟨S32768x16, .f32⟩ : BufTy).Contents (Elt F) → (⟨S32768x16, .f32⟩ : BufTy).Contents (Elt F) → (⟨S32768x16, .f32⟩ : BufTy).Contents (Elt F)),
    StableHlo.binary main_v1069 main_v724 main_v1070 (mulf : (⟨S32768x16, .f32⟩ : BufTy).Contents (Elt F) → (⟨S32768x16, .f32⟩ : BufTy).Contents (Elt F) → (⟨S32768x16, .f32⟩ : BufTy).Contents (Elt F)),
    StableHlo.binary main_v1070 main_v725 main_v1071 (addf : (⟨S32768x16, .f32⟩ : BufTy).Contents (Elt F) → (⟨S32768x16, .f32⟩ : BufTy).Contents (Elt F) → (⟨S32768x16, .f32⟩ : BufTy).Contents (Elt F)),
    StableHlo.unary main_v1071 main_v1072 ((extractStridedSlice S32768x8 ![0, 0] · slices_S32768x16_S32768x8_0_0) : (⟨S32768x16, .f32⟩ : BufTy).Contents (Elt F) → (⟨S32768x8, .f32⟩ : BufTy).Contents (Elt F)),
    StableHlo.unary main_v1071 main_v1073 ((extractStridedSlice S32768x8 ![0, 8] · slices_S32768x16_S32768x8_0_8) : (⟨S32768x16, .f32⟩ : BufTy).Contents (Elt F) → (⟨S32768x8, .f32⟩ : BufTy).Contents (Elt F)),
    StableHlo.nullary main_cst_345 (constant S_ .f32 0xC1F00000#32),
    StableHlo.nullary main_cst_346 (constant S_ .f32 0x41F00000#32),
    StableHlo.TRef.unary (.of main_cst_345 : StableHlo.TRef sig ⟨S_, .f32⟩) main_call100.v0 id,
    StableHlo.TRef.unary main_call100.v0 main_call100.v1 (broadcastInDim S32768x8 ![] bcast_S_S32768x8),
    StableHlo.TRef.binary main_call100.v1 (.of main_v1072 : StableHlo.TRef sig ⟨S32768x8, .f32⟩) main_call100.v2 maximumf,
    StableHlo.TRef.unary (.of main_cst_346 : StableHlo.TRef sig ⟨S_, .f32⟩) main_call100.v3 id,
    StableHlo.TRef.unary main_call100.v3 main_call100.v4 (broadcastInDim S32768x8 ![] bcast_S_S32768x8),
    StableHlo.TRef.binary main_call100.v4 main_call100.v2 main_call100.v5 minimumf,
    StableHlo.nullary main_cst_347 (constant S_ .f32 0xC1F00000#32),
    StableHlo.nullary main_cst_348 (constant S_ .f32 0x41F00000#32),
    StableHlo.TRef.unary (.of main_cst_347 : StableHlo.TRef sig ⟨S_, .f32⟩) main_call101.v0 id,
    StableHlo.TRef.unary main_call101.v0 main_call101.v1 (broadcastInDim S32768x8 ![] bcast_S_S32768x8),
    StableHlo.TRef.binary main_call101.v1 (.of main_v1073 : StableHlo.TRef sig ⟨S32768x8, .f32⟩) main_call101.v2 maximumf,
    StableHlo.TRef.unary (.of main_cst_348 : StableHlo.TRef sig ⟨S_, .f32⟩) main_call101.v3 id,
    StableHlo.TRef.unary main_call101.v3 main_call101.v4 (broadcastInDim S32768x8 ![] bcast_S_S32768x8),
    StableHlo.TRef.binary main_call101.v4 main_call101.v2 main_call101.v5 minimumf,
    StableHlo.unary main_v1074 main_v1076 (Host.sign : (⟨S32768x8, .f32⟩ : BufTy).Contents (Elt F) → (⟨S32768x8, .f32⟩ : BufTy).Contents (Elt F)),
    StableHlo.unary main_v1075 main_v1077 (Host.sign : (⟨S32768x8, .f32⟩ : BufTy).Contents (Elt F) → (⟨S32768x8, .f32⟩ : BufTy).Contents (Elt F)),
    StableHlo.binary main_v1076 main_v1077 main_v1078 (mulf : (⟨S32768x8, .f32⟩ : BufTy).Contents (Elt F) → (⟨S32768x8, .f32⟩ : BufTy).Contents (Elt F) → (⟨S32768x8, .f32⟩ : BufTy).Contents (Elt F)),
    StableHlo.unary main_v1074 main_v1079 (Host.absf : (⟨S32768x8, .f32⟩ : BufTy).Contents (Elt F) → (⟨S32768x8, .f32⟩ : BufTy).Contents (Elt F)),
    StableHlo.unary main_v1075 main_v1080 (Host.absf : (⟨S32768x8, .f32⟩ : BufTy).Contents (Elt F) → (⟨S32768x8, .f32⟩ : BufTy).Contents (Elt F)),
    StableHlo.binary main_v1079 main_v1080 main_v1081 (minimumf : (⟨S32768x8, .f32⟩ : BufTy).Contents (Elt F) → (⟨S32768x8, .f32⟩ : BufTy).Contents (Elt F) → (⟨S32768x8, .f32⟩ : BufTy).Contents (Elt F)),
    StableHlo.binary main_v1078 main_v1081 main_v1082 (mulf : (⟨S32768x8, .f32⟩ : BufTy).Contents (Elt F) → (⟨S32768x8, .f32⟩ : BufTy).Contents (Elt F) → (⟨S32768x8, .f32⟩ : BufTy).Contents (Elt F)),
    StableHlo.unary main_v1082 main_v1083 ((extractStridedSlice S32768x4 ![0, 0] · slices_S32768x8_S32768x4_0_0) : (⟨S32768x8, .f32⟩ : BufTy).Contents (Elt F) → (⟨S32768x4, .f32⟩ : BufTy).Contents (Elt F)),
    StableHlo.unary main_v1082 main_v1084 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_349 (constant S_ .f32 0xC1F00000#32),
    StableHlo.nullary main_cst_350 (constant S_ .f32 0x41F00000#32),
    StableHlo.TRef.unary (.of main_cst_349 : StableHlo.TRef sig ⟨S_, .f32⟩) main_call102.v0 id,
    StableHlo.TRef.unary main_call102.v0 main_call102.v1 (broadcastInDim S32768x4 ![] bcast_S_S32768x4),
    StableHlo.TRef.binary main_call102.v1 (.of main_v1083 : StableHlo.TRef sig ⟨S32768x4, .f32⟩) main_call102.v2 maximumf,
    StableHlo.TRef.unary (.of main_cst_350 : StableHlo.TRef sig ⟨S_, .f32⟩) main_call102.v3 id,
    StableHlo.TRef.unary main_call102.v3 main_call102.v4 (broadcastInDim S32768x4 ![] bcast_S_S32768x4),
    StableHlo.TRef.binary main_call102.v4 main_call102.v2 main_call102.v5 minimumf,
    StableHlo.nullary main_cst_351 (constant S_ .f32 0xC1F00000#32) ]

set_option maxRecDepth 8192 in
/-- The window is that straight line: each clip function unfolded at its calls, the sequencing reassociated. -/
theorem part_eq_23 (d : Dev nD) : main_part23 (F := F) d = seq ops23 := by
  simp only [main_part23, fn_clip_3.body, fn_clip_4.body, seq, bind_assoc, pure_bind]
  rfl

/-- Every operation of the window touches TensorCore references only. -/
theorem sub_23 : (ops23 : List (HloOp τ sig (Elt F))).Forall fun op => op.bufs ⊆ tcRefs τ sig :=
  ⟨unary_bufs_sub .., binary_bufs_sub .., binary_bufs_sub .., nullary_bufs_sub .., unary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    binary_bufs_sub .., binary_bufs_sub .., unary_bufs_sub .., binary_bufs_sub .., binary_bufs_sub .., binary_bufs_sub ..,
    unary_bufs_sub .., binary_bufs_sub .., binary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub ..⟩

/-- Every operation of the window determines all it writes. -/
theorem fresh_23 : (ops23 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
/-- The window writes no argument of @main: the argument's buffer holds after it what it held before. -/
theorem keep_23 (V : Valuation τ sig (Elt F)) :
    after ops23 V (main_arg0 : DevRef τ sig) = V (main_arg0 : DevRef τ sig) := by
  simp only [after_cons, after_nil]
  rfl

end Cert.ReferenceIdeal.RefRun

end
-- ==== Proof.RefRun.W03.lean ====
import proofs.«134088_j24077586662034_2_alg».proof.Defs
import proofs.«134088_j24077586662034_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 1441 … 1500, in order (85 of them): a statement's own operation, or, for a call
    of a clip function, the six operations of its body over that call's buffers. -/
abbrev ops24 : List (HloOp τ sig (Elt F)) :=
  [ StableHlo.nullary main_cst_352 (constant S_ .f32 0x41F00000#32),
    StableHlo.TRef.unary (.of main_cst_351 : StableHlo.TRef sig ⟨S_, .f32⟩) main_call103.v0 id,
    StableHlo.TRef.unary main_call103.v0 main_call103.v1 (broadcastInDim S32768x4 ![] bcast_S_S32768x4),
    StableHlo.TRef.binary main_call103.v1 (.of main_v1084 : StableHlo.TRef sig ⟨S32768x4, .f32⟩) main_call103.v2 maximumf,
    StableHlo.TRef.unary (.of main_cst_352 : StableHlo.TRef sig ⟨S_, .f32⟩) main_call103.v3 id,
    StableHlo.TRef.unary main_call103.v3 main_call103.v4 (broadcastInDim S32768x4 ![] bcast_S_S32768x4),
    StableHlo.TRef.binary main_call103.v4 main_call103.v2 main_call103.v5 minimumf,
    StableHlo.unary main_v1085 main_v1087 (Host.sign : (⟨S32768x4, .f32⟩ : BufTy).Contents (Elt F) → (⟨S32768x4, .f32⟩ : BufTy).Contents (Elt F)),
    StableHlo.unary main_v1086 main_v1088 (Host.sign : (⟨S32768x4, .f32⟩ : BufTy).Contents (Elt F) → (⟨S32768x4, .f32⟩ : BufTy).Contents (Elt F)),
    StableHlo.binary main_v1087 main_v1088 main_v1089 (mulf : (⟨S32768x4, .f32⟩ : BufTy).Contents (Elt F) → (⟨S32768x4, .f32⟩ : BufTy).Contents (Elt F) → (⟨S32768x4, .f32⟩ : BufTy).Contents (Elt F)),
    StableHlo.unary main_v1085 main_v1090 (Host.absf : (⟨S32768x4, .f32⟩ : BufTy).Contents (Elt F) → (⟨S32768x4, .f32⟩ : BufTy).Contents (Elt F)),
    StableHlo.unary main_v1086 main_v1091 (Host.absf : (⟨S32768x4, .f32⟩ : BufTy).Contents (Elt F) → (⟨S32768x4, .f32⟩ : BufTy).Contents (Elt F)),
    StableHlo.binary main_v1090 main_v1091 main_v1092 (minimumf : (⟨S32768x4, .f32⟩ : BufTy).Contents (Elt F) → (⟨S32768x4, .f32⟩ : BufTy).Contents (Elt F) → (⟨S32768x4, .f32⟩ : BufTy).Contents (Elt F)),
    StableHlo.binary main_v1089 main_v1092 main_v1093 (mulf : (⟨S32768x4, .f32⟩ : BufTy).Contents (Elt F) → (⟨S32768x4, .f32⟩ : BufTy).Contents (Elt F) → (⟨S32768x4, .f32⟩ : BufTy).Contents (Elt F)),
    StableHlo.unary main_v1093 main_v1094 ((extractStridedSlice S32768x2 ![0, 0] · slices_S32768x4_S32768x2_0_0) : (⟨S32768x4, .f32⟩ : BufTy).Contents (Elt F) → (⟨S32768x2, .f32⟩ : BufTy).Contents (Elt F)),
    StableHlo.unary main_v1093 main_v1095 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_353 (constant S_ .f32 0xC1F00000#32),
    StableHlo.nullary main_cst_354 (constant S_ .f32 0x41F00000#32),
    StableHlo.TRef.unary (.of main_cst_353 : StableHlo.TRef sig ⟨S_, .f32⟩) main_call104.v0 id,
    StableHlo.TRef.unary main_call104.v0 main_call104.v1 (broadcastInDim S32768x2 ![] bcast_S_S32768x2),
    StableHlo.TRef.binary main_call104.v1 (.of main_v1094 : StableHlo.TRef sig ⟨S32768x2, .f32⟩) main_call104.v2 maximumf,
    StableHlo.TRef.unary (.of main_cst_354 : StableHlo.TRef sig ⟨S_, .f32⟩) main_call104.v3 id,
    StableHlo.TRef.unary main_call104.v3 main_call104.v4 (broadcastInDim S32768x2 ![] bcast_S_S32768x2),
    StableHlo.TRef.binary main_call104.v4 main_call104.v2 main_call104.v5 minimumf,
    StableHlo.nullary main_cst_355 (constant S_ .f32 0xC1F00000#32),
    StableHlo.nullary main_cst_356 (constant S_ .f32 0x41F00000#32),
    StableHlo.TRef.unary (.of main_cst_355 : StableHlo.TRef sig ⟨S_, .f32⟩) main_call105.v0 id,
    StableHlo.TRef.unary main_call105.v0 main_call105.v1 (broadcastInDim S32768x2 ![] bcast_S_S32768x2),
    StableHlo.TRef.binary main_call105.v1 (.of main_v1095 : StableHlo.TRef sig ⟨S32768x2, .f32⟩) main_call105.v2 maximumf,
    StableHlo.TRef.unary (.of main_cst_356 : StableHlo.TRef sig ⟨S_, .f32⟩) main_call105.v3 id,
    StableHlo.TRef.unary main_call105.v3 main_call105.v4 (broadcastInDim S32768x2 ![] bcast_S_S32768x2),
    StableHlo.TRef.binary main_call105.v4 main_call105.v2 main_call105.v5 minimumf,
    StableHlo.unary main_v1096 main_v1098 (Host.sign : (⟨S32768x2, .f32⟩ : BufTy).Contents (Elt F) → (⟨S32768x2, .f32⟩ : BufTy).Contents (Elt F)),
    StableHlo.unary main_v1097 main_v1099 (Host.sign : (⟨S32768x2, .f32⟩ : BufTy).Contents (Elt F) → (⟨S32768x2, .f32⟩ : BufTy).Contents (Elt F)),
    StableHlo.binary main_v1098 main_v1099 main_v1100 (mulf : (⟨S32768x2, .f32⟩ : BufTy).Contents (Elt F) → (⟨S32768x2, .f32⟩ : BufTy).Contents (Elt F) → (⟨S32768x2, .f32⟩ : BufTy).Contents (Elt F)),
    StableHlo.unary main_v1096 main_v1101 (Host.absf : (⟨S32768x2, .f32⟩ : BufTy).Contents (Elt F) → (⟨S32768x2, .f32⟩ : BufTy).Contents (Elt F)),
    StableHlo.unary main_v1097 main_v1102 (Host.absf : (⟨S32768x2, .f32⟩ : BufTy).Contents (Elt F) → (⟨S32768x2, .f32⟩ : BufTy).Contents (Elt F)),
    StableHlo.binary main_v1101 main_v1102 main_v1103 (minimumf : (⟨S32768x2, .f32⟩ : BufTy).Contents (Elt F) → (⟨S32768x2, .f32⟩ : BufTy).Contents (Elt F) → (⟨S32768x2, .f32⟩ : BufTy).Contents (Elt F)),
    StableHlo.binary main_v1100 main_v1103 main_v1104 (mulf : (⟨S32768x2, .f32⟩ : BufTy).Contents (Elt F) → (⟨S32768x2, .f32⟩ : BufTy).Contents (Elt F) → (⟨S32768x2, .f32⟩ : BufTy).Contents (Elt F)),
    StableHlo.unary main_v1104 main_v1105 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1104 main_v1106 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_357 (constant S_ .f32 0xC1F00000#32),
    StableHlo.nullary main_cst_358 (constant S_ .f32 0x41F00000#32),
    StableHlo.TRef.unary (.of main_cst_357 : StableHlo.TRef sig ⟨S_, .f32⟩) main_call106.v0 id,
    StableHlo.TRef.unary main_call106.v0 main_call106.v1 (broadcastInDim S32768x1 ![] bcast_S_S32768x1),
    StableHlo.TRef.binary main_call106.v1 (.of main_v1105 : StableHlo.TRef sig ⟨S32768x1, .f32⟩) main_call106.v2 maximumf,
    StableHlo.TRef.unary (.of main_cst_358 : StableHlo.TRef sig ⟨S_, .f32⟩) main_call106.v3 id,
    StableHlo.TRef.unary main_call106.v3 main_call106.v4 (broadcastInDim S32768x1 ![] bcast_S_S32768x1),
    StableHlo.TRef.binary main_call106.v4 main_call106.v2 main_call106.v5 minimumf,
    StableHlo.nullary main_cst_359 (constant S_ .f32 0xC1F00000#32),
    StableHlo.nullary main_cst_360 (constant S_ .f32 0x41F00000#32),
    StableHlo.TRef.unary (.of main_cst_359 : StableHlo.TRef sig ⟨S_, .f32⟩) main_call107.v0 id,
    StableHlo.TRef.unary main_call107.v0 main_call107.v1 (broadcastInDim S32768x1 ![] bcast_S_S32768x1),
    StableHlo.TRef.binary main_call107.v1 (.of main_v1106 : StableHlo.TRef sig ⟨S32768x1, .f32⟩) main_call107.v2 maximumf,
    StableHlo.TRef.unary (.of main_cst_360 : StableHlo.TRef sig ⟨S_, .f32⟩) main_call107.v3 id,
    StableHlo.TRef.unary main_call107.v3 main_call107.v4 (broadcastInDim S32768x1 ![] bcast_S_S32768x1),
    StableHlo.TRef.binary main_call107.v4 main_call107.v2 main_call107.v5 minimumf,
    StableHlo.unary main_v1107 main_v1109 (Host.sign : (⟨S32768x1, .f32⟩ : BufTy).Contents (Elt F) → (⟨S32768x1, .f32⟩ : BufTy).Contents (Elt F)),
    StableHlo.unary main_v1108 main_v1110 (Host.sign : (⟨S32768x1, .f32⟩ : BufTy).Contents (Elt F) → (⟨S32768x1, .f32⟩ : BufTy).Contents (Elt F)),
    StableHlo.binary main_v1109 main_v1110 main_v1111 (mulf : (⟨S32768x1, .f32⟩ : BufTy).Contents (Elt F) → (⟨S32768x1, .f32⟩ : BufTy).Contents (Elt F) → (⟨S32768x1, .f32⟩ : BufTy).Contents (Elt F)),
    StableHlo.unary main_v1107 main_v1112 (Host.absf : (⟨S32768x1, .f32⟩ : BufTy).Contents (Elt F) → (⟨S32768x1, .f32⟩ : BufTy).Contents (Elt F)),
    StableHlo.unary main_v1108 main_v1113 (Host.absf : (⟨S32768x1, .f32⟩ : BufTy).Contents (Elt F) → (⟨S32768x1, .f32⟩ : BufTy).Contents (Elt F)),
    StableHlo.binary main_v1112 main_v1113 main_v1114 (minimumf : (⟨S32768x1, .f32⟩ : BufTy).Contents (Elt F) → (⟨S32768x1, .f32⟩ : BufTy).Contents (Elt F) → (⟨S32768x1, .f32⟩ : BufTy).Contents (Elt F)),
    StableHlo.binary main_v1111 main_v1114 main_v1115 (mulf : (⟨S32768x1, .f32⟩ : BufTy).Contents (Elt F) → (⟨S32768x1, .f32⟩ : BufTy).Contents (Elt F) → (⟨S32768x1, .f32⟩ : BufTy).Contents (Elt F)),
    StableHlo.nullary main_cst_361 (constant S_ .f32 0x00000000#32),
    StableHlo.unary main_cst_361 main_v1116 (broadcastInDim S32768x1 ![] bcast_S_S32768x1 : (⟨S_, .f32⟩ : BufTy).Contents (Elt F) → (⟨S32768x1, .f32⟩ : BufTy).Contents (Elt F)),
    StableHlo.nullary main_cst_362 (constant S_ .f32 0x40000000#32),
    StableHlo.unary main_cst_362 main_v1117 (broadcastInDim S32768x1 ![] bcast_S_S32768x1 : (⟨S_, .f32⟩ : BufTy).Contents (Elt F) → (⟨S32768x1, .f32⟩ : BufTy).Contents (Elt F)),
    StableHlo.binary main_v1117 main_v1116 main_v1118 (mulf : (⟨S32768x1, .f32⟩ : BufTy).Contents (Elt F) → (⟨S32768x1, .f32⟩ : BufTy).Contents (Elt F) → (⟨S32768x1, .f32⟩ : BufTy).Contents (Elt F)),
    StableHlo.nullary main_cst_363 (constant S_ .f32 0x3F800000#32),
    StableHlo.unary main_cst_363 main_v1119 (broadcastInDim S32768x1 ![] bcast_S_S32768x1 : (⟨S_, .f32⟩ : BufTy).Contents (Elt F) → (⟨S32768x1, .f32⟩ : BufTy).Contents (Elt F)),
    StableHlo.binary main_v1119 main_v1118 main_v1120 (subf : (⟨S32768x1, .f32⟩ : BufTy).Contents (Elt F) → (⟨S32768x1, .f32⟩ : BufTy).Contents (Elt F) → (⟨S32768x1, .f32⟩ : BufTy).Contents (Elt F)),
    StableHlo.binary main_v1120 main_v1105 main_v1121 (mulf : (⟨S32768x1, .f32⟩ : BufTy).Contents (Elt F) → (⟨S32768x1, .f32⟩ : BufTy).Contents (Elt F) → (⟨S32768x1, .f32⟩ : BufTy).Contents (Elt F)),
    StableHlo.binary main_v1121 main_v1106 main_v1122 (addf : (⟨S32768x1, .f32⟩ : BufTy).Contents (Elt F) → (⟨S32768x1, .f32⟩ : BufTy).Contents (Elt F) → (⟨S32768x1, .f32⟩ : BufTy).Contents (Elt F)),
    StableHlo.nullary main_cst_364 (constant S_ .f32 0x00000000#32),
    StableHlo.unary main_cst_364 main_v1123 (broadcastInDim S32768x1 ![] bcast_S_S32768x1 : (⟨S_, .f32⟩ : BufTy).Contents (Elt F) → (⟨S32768x1, .f32⟩ : BufTy).Contents (Elt F)),
    StableHlo.binary main_v1116 main_v1123 main_v1124 (cmpf .une : (⟨S32768x1, .f32⟩ : BufTy).Contents (Elt F) → (⟨S32768x1, .f32⟩ : BufTy).Contents (Elt F) → (⟨S32768x1, .i1⟩ : BufTy).Contents (Elt F)),
    StableHlo.unary main_v1124 main_v1125 (uitofp .f32 : (⟨S32768x1, .i1⟩ : BufTy).Contents (Elt F) → (⟨S32768x1, .f32⟩ : BufTy).Contents (Elt F)),
    StableHlo.binary main_v1125 main_v1123 main_v1126 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1116 main_v1123 main_v1127 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_365 (constant S_ .f32 0x40000000#32),
    StableHlo.unary main_cst_365 main_v1128 (broadcastInDim S32768x2 ![] bcast_S_S32768x2 : (⟨S_, .f32⟩ : BufTy).Contents (Elt F) → (⟨S32768x2, .f32⟩ : BufTy).Contents (Elt F)),
    StableHlo.binary main_v1128 main_v1126 main_v1129 (mulf : (⟨S32768x2, .f32⟩ : BufTy).Contents (Elt F) → (⟨S32768x2, .f32⟩ : BufTy).Contents (Elt F) → (⟨S32768x2, .f32⟩ : BufTy).Contents (Elt F)),
    StableHlo.nullary main_cst_366 (constant S_ .f32 0x3F800000#32),
    StableHlo.unary main_cst_366 main_v1130 (broadcastInDim S32768x2 ![] bcast_S_S32768x2 : (⟨S_, .f32⟩ : BufTy).Contents (Elt F) → (⟨S32768x2, .f32⟩ : BufTy).Contents (Elt F)) ]

set_option maxRecDepth 8192 in
/-- The window is that straight line: each clip function unfolded at its calls, the sequencing reassociated. -/
theorem part_eq_24 (d : Dev nD) : main_part24 (F := F) d = seq ops24 := by
  simp only [main_part24, fn_clip_4.body, fn_clip_5.body, fn_clip_6.body, seq, bind_assoc, pure_bind]
  rfl

/-- Every operation of the window touches TensorCore references only. -/
theorem sub_24 : (ops24 : List (HloOp τ sig (Elt F))).Forall fun op => op.bufs ⊆ tcRefs τ sig :=
  ⟨nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., nullary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., binary_bufs_sub .., nullary_bufs_sub .., unary_bufs_sub .., binary_bufs_sub .., nullary_bufs_sub ..,
    unary_bufs_sub ..⟩

/-- Every operation of the window determines all it writes. -/
theorem fresh_24 : (ops24 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_24 (V : Valuation τ sig (Elt F)) :
    after ops24 V (main_arg0 : DevRef τ sig) = V (main_arg0 : DevRef τ sig) := by
  simp only [after_cons, after_nil]
  rfl

/-- The operations of @main's statements 1501 … 1560, in order (80 of them): a statement's own operation, or, for a call
    of a clip function, the six operations of its body over that call's buffers. -/
abbrev ops25 : List (HloOp τ sig (Elt F)) :=
  [ StableHlo.binary main_v1130 main_v1129 main_v1131 (subf : (⟨S32768x2, .f32⟩ : BufTy).Contents (Elt F) → (⟨S32768x2, .f32⟩ : BufTy).Contents (Elt F) → (⟨S32768x2, .f32⟩ : BufTy).Contents (Elt F)),
    StableHlo.binary main_v1131 main_v1094 main_v1132 (mulf : (⟨S32768x2, .f32⟩ : BufTy).Contents (Elt F) → (⟨S32768x2, .f32⟩ : BufTy).Contents (Elt F) → (⟨S32768x2, .f32⟩ : BufTy).Contents (Elt F)),
    StableHlo.binary main_v1132 main_v1095 main_v1133 (addf : (⟨S32768x2, .f32⟩ : BufTy).Contents (Elt F) → (⟨S32768x2, .f32⟩ : BufTy).Contents (Elt F) → (⟨S32768x2, .f32⟩ : BufTy).Contents (Elt F)),
    StableHlo.unary main_v1133 main_v1134 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1133 main_v1135 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_367 (constant S_ .f32 0xC1F00000#32),
    StableHlo.nullary main_cst_368 (constant S_ .f32 0x41F00000#32),
    StableHlo.TRef.unary (.of main_cst_367 : StableHlo.TRef sig ⟨S_, .f32⟩) main_call108.v0 id,
    StableHlo.TRef.unary main_call108.v0 main_call108.v1 (broadcastInDim S32768x1 ![] bcast_S_S32768x1),
    StableHlo.TRef.binary main_call108.v1 (.of main_v1134 : StableHlo.TRef sig ⟨S32768x1, .f32⟩) main_call108.v2 maximumf,
    StableHlo.TRef.unary (.of main_cst_368 : StableHlo.TRef sig ⟨S_, .f32⟩) main_call108.v3 id,
    StableHlo.TRef.unary main_call108.v3 main_call108.v4 (broadcastInDim S32768x1 ![] bcast_S_S32768x1),
    StableHlo.TRef.binary main_call108.v4 main_call108.v2 main_call108.v5 minimumf,
    StableHlo.nullary main_cst_369 (constant S_ .f32 0xC1F00000#32),
    StableHlo.nullary main_cst_370 (constant S_ .f32 0x41F00000#32),
    StableHlo.TRef.unary (.of main_cst_369 : StableHlo.TRef sig ⟨S_, .f32⟩) main_call109.v0 id,
    StableHlo.TRef.unary main_call109.v0 main_call109.v1 (broadcastInDim S32768x1 ![] bcast_S_S32768x1),
    StableHlo.TRef.binary main_call109.v1 (.of main_v1135 : StableHlo.TRef sig ⟨S32768x1, .f32⟩) main_call109.v2 maximumf,
    StableHlo.TRef.unary (.of main_cst_370 : StableHlo.TRef sig ⟨S_, .f32⟩) main_call109.v3 id,
    StableHlo.TRef.unary main_call109.v3 main_call109.v4 (broadcastInDim S32768x1 ![] bcast_S_S32768x1),
    StableHlo.TRef.binary main_call109.v4 main_call109.v2 main_call109.v5 minimumf,
    StableHlo.unary main_v1136 main_v1138 (Host.sign : (⟨S32768x1, .f32⟩ : BufTy).Contents (Elt F) → (⟨S32768x1, .f32⟩ : BufTy).Contents (Elt F)),
    StableHlo.unary main_v1137 main_v1139 (Host.sign : (⟨S32768x1, .f32⟩ : BufTy).Contents (Elt F) → (⟨S32768x1, .f32⟩ : BufTy).Contents (Elt F)),
    StableHlo.binary main_v1138 main_v1139 main_v1140 (mulf : (⟨S32768x1, .f32⟩ : BufTy).Contents (Elt F) → (⟨S32768x1, .f32⟩ : BufTy).Contents (Elt F) → (⟨S32768x1, .f32⟩ : BufTy).Contents (Elt F)),
    StableHlo.unary main_v1136 main_v1141 (Host.absf : (⟨S32768x1, .f32⟩ : BufTy).Contents (Elt F) → (⟨S32768x1, .f32⟩ : BufTy).Contents (Elt F)),
    StableHlo.unary main_v1137 main_v1142 (Host.absf : (⟨S32768x1, .f32⟩ : BufTy).Contents (Elt F) → (⟨S32768x1, .f32⟩ : BufTy).Contents (Elt F)),
    StableHlo.binary main_v1141 main_v1142 main_v1143 (minimumf : (⟨S32768x1, .f32⟩ : BufTy).Contents (Elt F) → (⟨S32768x1, .f32⟩ : BufTy).Contents (Elt F) → (⟨S32768x1, .f32⟩ : BufTy).Contents (Elt F)),
    StableHlo.binary main_v1140 main_v1143 main_v1144 (mulf : (⟨S32768x1, .f32⟩ : BufTy).Contents (Elt F) → (⟨S32768x1, .f32⟩ : BufTy).Contents (Elt F) → (⟨S32768x1, .f32⟩ : BufTy).Contents (Elt F)),
    StableHlo.nullary main_cst_371 (constant S_ .f32 0x00000000#32),
    StableHlo.unary main_cst_371 main_v1145 (broadcastInDim S32768x1 ![] bcast_S_S32768x1 : (⟨S_, .f32⟩ : BufTy).Contents (Elt F) → (⟨S32768x1, .f32⟩ : BufTy).Contents (Elt F)),
    StableHlo.nullary main_cst_372 (constant S_ .f32 0x40000000#32),
    StableHlo.unary main_cst_372 main_v1146 (broadcastInDim S32768x1 ![] bcast_S_S32768x1 : (⟨S_, .f32⟩ : BufTy).Contents (Elt F) → (⟨S32768x1, .f32⟩ : BufTy).Contents (Elt F)),
    StableHlo.binary main_v1146 main_v1145 main_v1147 (mulf : (⟨S32768x1, .f32⟩ : BufTy).Contents (Elt F) → (⟨S32768x1, .f32⟩ : BufTy).Contents (Elt F) → (⟨S32768x1, .f32⟩ : BufTy).Contents (Elt F)),
    StableHlo.nullary main_cst_373 (constant S_ .f32 0x3F800000#32),
    StableHlo.unary main_cst_373 main_v1148 (broadcastInDim S32768x1 ![] bcast_S_S32768x1 : (⟨S_, .f32⟩ : BufTy).Contents (Elt F) → (⟨S32768x1, .f32⟩ : BufTy).Contents (Elt F)),
    StableHlo.binary main_v1148 main_v1147 main_v1149 (subf : (⟨S32768x1, .f32⟩ : BufTy).Contents (Elt F) → (⟨S32768x1, .f32⟩ : BufTy).Contents (Elt F) → (⟨S32768x1, .f32⟩ : BufTy).Contents (Elt F)),
    StableHlo.binary main_v1149 main_v1134 main_v1150 (mulf : (⟨S32768x1, .f32⟩ : BufTy).Contents (Elt F) → (⟨S32768x1, .f32⟩ : BufTy).Contents (Elt F) → (⟨S32768x1, .f32⟩ : BufTy).Contents (Elt F)),
    StableHlo.binary main_v1150 main_v1135 main_v1151 (addf : (⟨S32768x1, .f32⟩ : BufTy).Contents (Elt F) → (⟨S32768x1, .f32⟩ : BufTy).Contents (Elt F) → (⟨S32768x1, .f32⟩ : BufTy).Contents (Elt F)),
    StableHlo.nullary main_cst_374 (constant S_ .f32 0x00000000#32),
    StableHlo.unary main_cst_374 main_v1152 (broadcastInDim S32768x1 ![] bcast_S_S32768x1 : (⟨S_, .f32⟩ : BufTy).Contents (Elt F) → (⟨S32768x1, .f32⟩ : BufTy).Contents (Elt F)),
    StableHlo.binary main_v1145 main_v1152 main_v1153 (cmpf .une : (⟨S32768x1, .f32⟩ : BufTy).Contents (Elt F) → (⟨S32768x1, .f32⟩ : BufTy).Contents (Elt F) → (⟨S32768x1, .i1⟩ : BufTy).Contents (Elt F)),
    StableHlo.unary main_v1153 main_v1154 (uitofp .f32 : (⟨S32768x1, .i1⟩ : BufTy).Contents (Elt F) → (⟨S32768x1, .f32⟩ : BufTy).Contents (Elt F)),
    StableHlo.binary main_v1154 main_v1152 main_v1155 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1145 main_v1152 main_v1156 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1126 main_v1155 main_v1157 (cmpf .une : (⟨S32768x2, .f32⟩ : BufTy).Contents (Elt F) → (⟨S32768x2, .f32⟩ : BufTy).Contents (Elt F) → (⟨S32768x2, .i1⟩ : BufTy).Contents (Elt F)),
    StableHlo.unary main_v1157 main_v1158 (uitofp .f32 : (⟨S32768x2, .i1⟩ : BufTy).Contents (Elt F) → (⟨S32768x2, .f32⟩ : BufTy).Contents (Elt F)),
    StableHlo.binary main_v1158 main_v1155 main_v1159 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v1127 main_v1156 main_v1160 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_375 (constant S_ .f32 0x40000000#32),
    StableHlo.unary main_cst_375 main_v1161 (broadcastInDim S32768x4 ![] bcast_S_S32768x4 : (⟨S_, .f32⟩ : BufTy).Contents (Elt F) → (⟨S32768x4, .f32⟩ : BufTy).Contents (Elt F)),
    StableHlo.binary main_v1161 main_v1159 main_v1162 (mulf : (⟨S32768x4, .f32⟩ : BufTy).Contents (Elt F) → (⟨S32768x4, .f32⟩ : BufTy).Contents (Elt F) → (⟨S32768x4, .f32⟩ : BufTy).Contents (Elt F)),
    StableHlo.nullary main_cst_376 (constant S_ .f32 0x3F800000#32),
    StableHlo.unary main_cst_376 main_v1163 (broadcastInDim S32768x4 ![] bcast_S_S32768x4 : (⟨S_, .f32⟩ : BufTy).Contents (Elt F) → (⟨S32768x4, .f32⟩ : BufTy).Contents (Elt F)),
    StableHlo.binary main_v1163 main_v1162 main_v1164 (subf : (⟨S32768x4, .f32⟩ : BufTy).Contents (Elt F) → (⟨S32768x4, .f32⟩ : BufTy).Contents (Elt F) → (⟨S32768x4, .f32⟩ : BufTy).Contents (Elt F)),
    StableHlo.binary main_v1164 main_v1083 main_v1165 (mulf : (⟨S32768x4, .f32⟩ : BufTy).Contents (Elt F) → (⟨S32768x4, .f32⟩ : BufTy).Contents (Elt F) → (⟨S32768x4, .f32⟩ : BufTy).Contents (Elt F)),
    StableHlo.binary main_v1165 main_v1084 main_v1166 (addf : (⟨S32768x4, .f32⟩ : BufTy).Contents (Elt F) → (⟨S32768x4, .f32⟩ : BufTy).Contents (Elt F) → (⟨S32768x4, .f32⟩ : BufTy).Contents (Elt F)),
    StableHlo.unary main_v1166 main_v1167 ((extractStridedSlice S32768x2 ![0, 0] · slices_S32768x4_S32768x2_0_0) : (⟨S32768x4, .f32⟩ : BufTy).Contents (Elt F) → (⟨S32768x2, .f32⟩ : BufTy).Contents (Elt F)),
    StableHlo.unary main_v1166 main_v1168 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_377 (constant S_ .f32 0xC1F00000#32),
    StableHlo.nullary main_cst_378 (constant S_ .f32 0x41F00000#32),
    StableHlo.TRef.unary (.of main_cst_377 : StableHlo.TRef sig ⟨S_, .f32⟩) main_call110.v0 id,
    StableHlo.TRef.unary main_call110.v0 main_call110.v1 (broadcastInDim S32768x2 ![] bcast_S_S32768x2),
    StableHlo.TRef.binary main_call110.v1 (.of main_v1167 : StableHlo.TRef sig ⟨S32768x2, .f32⟩) main_call110.v2 maximumf,
    StableHlo.TRef.unary (.of main_cst_378 : StableHlo.TRef sig ⟨S_, .f32⟩) main_call110.v3 id,
    StableHlo.TRef.unary main_call110.v3 main_call110.v4 (broadcastInDim S32768x2 ![] bcast_S_S32768x2),
    StableHlo.TRef.binary main_call110.v4 main_call110.v2 main_call110.v5 minimumf,
    StableHlo.nullary main_cst_379 (constant S_ .f32 0xC1F00000#32),
    StableHlo.nullary main_cst_380 (constant S_ .f32 0x41F00000#32),
    StableHlo.TRef.unary (.of main_cst_379 : StableHlo.TRef sig ⟨S_, .f32⟩) main_call111.v0 id,
    StableHlo.TRef.unary main_call111.v0 main_call111.v1 (broadcastInDim S32768x2 ![] bcast_S_S32768x2),
    StableHlo.TRef.binary main_call111.v1 (.of main_v1168 : StableHlo.TRef sig ⟨S32768x2, .f32⟩) main_call111.v2 maximumf,
    StableHlo.TRef.unary (.of main_cst_380 : StableHlo.TRef sig ⟨S_, .f32⟩) main_call111.v3 id,
    StableHlo.TRef.unary main_call111.v3 main_call111.v4 (broadcastInDim S32768x2 ![] bcast_S_S32768x2),
    StableHlo.TRef.binary main_call111.v4 main_call111.v2 main_call111.v5 minimumf,
    StableHlo.unary main_v1169 main_v1171 (Host.sign : (⟨S32768x2, .f32⟩ : BufTy).Contents (Elt F) → (⟨S32768x2, .f32⟩ : BufTy).Contents (Elt F)),
    StableHlo.unary main_v1170 main_v1172 (Host.sign : (⟨S32768x2, .f32⟩ : BufTy).Contents (Elt F) → (⟨S32768x2, .f32⟩ : BufTy).Contents (Elt F)),
    StableHlo.binary main_v1171 main_v1172 main_v1173 (mulf : (⟨S32768x2, .f32⟩ : BufTy).Contents (Elt F) → (⟨S32768x2, .f32⟩ : BufTy).Contents (Elt F) → (⟨S32768x2, .f32⟩ : BufTy).Contents (Elt F)),
    StableHlo.unary main_v1169 main_v1174 (Host.absf : (⟨S32768x2, .f32⟩ : BufTy).Contents (Elt F) → (⟨S32768x2, .f32⟩ : BufTy).Contents (Elt F)),
    StableHlo.unary main_v1170 main_v1175 (Host.absf : (⟨S32768x2, .f32⟩ : BufTy).Contents (Elt F) → (⟨S32768x2, .f32⟩ : BufTy).Contents (Elt F)),
    StableHlo.binary main_v1174 main_v1175 main_v1176 (minimumf : (⟨S32768x2, .f32⟩ : BufTy).Contents (Elt F) → (⟨S32768x2, .f32⟩ : BufTy).Contents (Elt F) → (⟨S32768x2, .f32⟩ : BufTy).Contents (Elt F)) ]

set_option maxRecDepth 8192 in
/-- The window is that straight line: each clip function unfolded at its calls, the sequencing reassociated. -/
theorem part_eq_25 (d : Dev nD) : main_part25 (F := F) d = seq ops25 := by
  simp only [main_part25, fn_clip_6.body, fn_clip_5.body, seq, bind_assoc, pure_bind]
  rfl

/-- Every operation of the window touches TensorCore references only. -/
theorem sub_25 : (ops25 : List (HloOp τ sig (Elt F))).Forall fun op => op.bufs ⊆ tcRefs τ sig :=
  ⟨binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., nullary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., binary_bufs_sub .., binary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-- Every operation of the window determines all it writes. -/
theorem fresh_25 : (ops25 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_25 (V : Valuation τ sig (Elt F)) :
    after ops25 V (main_arg0 : DevRef τ sig) = V (main_arg0 : DevRef τ sig) := by
  simp only [after_cons, after_nil]
  rfl

/-- The operations of @main's statements 1561 … 1620, in order (80 of them): a statement's own operation, or, for a call
    of a clip function, the six operations of its body over that call's buffers. -/
abbrev ops26 : List (HloOp τ sig (Elt F)) :=
  [ StableHlo.binary main_v1173 main_v1176 main_v1177 (mulf : (⟨S32768x2, .f32⟩ : BufTy).Contents (Elt F) → (⟨S32768x2, .f32⟩ : BufTy).Contents (Elt F) → (⟨S32768x2, .f32⟩ : BufTy).Contents (Elt F)),
    StableHlo.unary main_v1177 main_v1178 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1177 main_v1179 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_381 (constant S_ .f32 0xC1F00000#32),
    StableHlo.nullary main_cst_382 (constant S_ .f32 0x41F00000#32),
    StableHlo.TRef.unary (.of main_cst_381 : StableHlo.TRef sig ⟨S_, .f32⟩) main_call112.v0 id,
    StableHlo.TRef.unary main_call112.v0 main_call112.v1 (broadcastInDim S32768x1 ![] bcast_S_S32768x1),
    StableHlo.TRef.binary main_call112.v1 (.of main_v1178 : StableHlo.TRef sig ⟨S32768x1, .f32⟩) main_call112.v2 maximumf,
    StableHlo.TRef.unary (.of main_cst_382 : StableHlo.TRef sig ⟨S_, .f32⟩) main_call112.v3 id,
    StableHlo.TRef.unary main_call112.v3 main_call112.v4 (broadcastInDim S32768x1 ![] bcast_S_S32768x1),
    StableHlo.TRef.binary main_call112.v4 main_call112.v2 main_call112.v5 minimumf,
    StableHlo.nullary main_cst_383 (constant S_ .f32 0xC1F00000#32),
    StableHlo.nullary main_cst_384 (constant S_ .f32 0x41F00000#32),
    StableHlo.TRef.unary (.of main_cst_383 : StableHlo.TRef sig ⟨S_, .f32⟩) main_call113.v0 id,
    StableHlo.TRef.unary main_call113.v0 main_call113.v1 (broadcastInDim S32768x1 ![] bcast_S_S32768x1),
    StableHlo.TRef.binary main_call113.v1 (.of main_v1179 : StableHlo.TRef sig ⟨S32768x1, .f32⟩) main_call113.v2 maximumf,
    StableHlo.TRef.unary (.of main_cst_384 : StableHlo.TRef sig ⟨S_, .f32⟩) main_call113.v3 id,
    StableHlo.TRef.unary main_call113.v3 main_call113.v4 (broadcastInDim S32768x1 ![] bcast_S_S32768x1),
    StableHlo.TRef.binary main_call113.v4 main_call113.v2 main_call113.v5 minimumf,
    StableHlo.unary main_v1180 main_v1182 (Host.sign : (⟨S32768x1, .f32⟩ : BufTy).Contents (Elt F) → (⟨S32768x1, .f32⟩ : BufTy).Contents (Elt F)),
    StableHlo.unary main_v1181 main_v1183 (Host.sign : (⟨S32768x1, .f32⟩ : BufTy).Contents (Elt F) → (⟨S32768x1, .f32⟩ : BufTy).Contents (Elt F)),
    StableHlo.binary main_v1182 main_v1183 main_v1184 (mulf : (⟨S32768x1, .f32⟩ : BufTy).Contents (Elt F) → (⟨S32768x1, .f32⟩ : BufTy).Contents (Elt F) → (⟨S32768x1, .f32⟩ : BufTy).Contents (Elt F)),
    StableHlo.unary main_v1180 main_v1185 (Host.absf : (⟨S32768x1, .f32⟩ : BufTy).Contents (Elt F) → (⟨S32768x1, .f32⟩ : BufTy).Contents (Elt F)),
    StableHlo.unary main_v1181 main_v1186 (Host.absf : (⟨S32768x1, .f32⟩ : BufTy).Contents (Elt F) → (⟨S32768x1, .f32⟩ : BufTy).Contents (Elt F)),
    StableHlo.binary main_v1185 main_v1186 main_v1187 (minimumf : (⟨S32768x1, .f32⟩ : BufTy).Contents (Elt F) → (⟨S32768x1, .f32⟩ : BufTy).Contents (Elt F) → (⟨S32768x1, .f32⟩ : BufTy).Contents (Elt F)),
    StableHlo.binary main_v1184 main_v1187 main_v1188 (mulf : (⟨S32768x1, .f32⟩ : BufTy).Contents (Elt F) → (⟨S32768x1, .f32⟩ : BufTy).Contents (Elt F) → (⟨S32768x1, .f32⟩ : BufTy).Contents (Elt F)),
    StableHlo.nullary main_cst_385 (constant S_ .f32 0x00000000#32),
    StableHlo.unary main_cst_385 main_v1189 (broadcastInDim S32768x1 ![] bcast_S_S32768x1 : (⟨S_, .f32⟩ : BufTy).Contents (Elt F) → (⟨S32768x1, .f32⟩ : BufTy).Contents (Elt F)),
    StableHlo.nullary main_cst_386 (constant S_ .f32 0x40000000#32),
    StableHlo.unary main_cst_386 main_v1190 (broadcastInDim S32768x1 ![] bcast_S_S32768x1 : (⟨S_, .f32⟩ : BufTy).Contents (Elt F) → (⟨S32768x1, .f32⟩ : BufTy).Contents (Elt F)),
    StableHlo.binary main_v1190 main_v1189 main_v1191 (mulf : (⟨S32768x1, .f32⟩ : BufTy).Contents (Elt F) → (⟨S32768x1, .f32⟩ : BufTy).Contents (Elt F) → (⟨S32768x1, .f32⟩ : BufTy).Contents (Elt F)),
    StableHlo.nullary main_cst_387 (constant S_ .f32 0x3F800000#32),
    StableHlo.unary main_cst_387 main_v1192 (broadcastInDim S32768x1 ![] bcast_S_S32768x1 : (⟨S_, .f32⟩ : BufTy).Contents (Elt F) → (⟨S32768x1, .f32⟩ : BufTy).Contents (Elt F)),
    StableHlo.binary main_v1192 main_v1191 main_v1193 (subf : (⟨S32768x1, .f32⟩ : BufTy).Contents (Elt F) → (⟨S32768x1, .f32⟩ : BufTy).Contents (Elt F) → (⟨S32768x1, .f32⟩ : BufTy).Contents (Elt F)),
    StableHlo.binary main_v1193 main_v1178 main_v1194 (mulf : (⟨S32768x1, .f32⟩ : BufTy).Contents (Elt F) → (⟨S32768x1, .f32⟩ : BufTy).Contents (Elt F) → (⟨S32768x1, .f32⟩ : BufTy).Contents (Elt F)),
    StableHlo.binary main_v1194 main_v1179 main_v1195 (addf : (⟨S32768x1, .f32⟩ : BufTy).Contents (Elt F) → (⟨S32768x1, .f32⟩ : BufTy).Contents (Elt F) → (⟨S32768x1, .f32⟩ : BufTy).Contents (Elt F)),
    StableHlo.nullary main_cst_388 (constant S_ .f32 0x00000000#32),
    StableHlo.unary main_cst_388 main_v1196 (broadcastInDim S32768x1 ![] bcast_S_S32768x1 : (⟨S_, .f32⟩ : BufTy).Contents (Elt F) → (⟨S32768x1, .f32⟩ : BufTy).Contents (Elt F)),
    StableHlo.binary main_v1189 main_v1196 main_v1197 (cmpf .une : (⟨S32768x1, .f32⟩ : BufTy).Contents (Elt F) → (⟨S32768x1, .f32⟩ : BufTy).Contents (Elt F) → (⟨S32768x1, .i1⟩ : BufTy).Contents (Elt F)),
    StableHlo.unary main_v1197 main_v1198 (uitofp .f32 : (⟨S32768x1, .i1⟩ : BufTy).Contents (Elt F) → (⟨S32768x1, .f32⟩ : BufTy).Contents (Elt F)),
    StableHlo.binary main_v1198 main_v1196 main_v1199 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1189 main_v1196 main_v1200 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_389 (constant S_ .f32 0x40000000#32),
    StableHlo.unary main_cst_389 main_v1201 (broadcastInDim S32768x2 ![] bcast_S_S32768x2 : (⟨S_, .f32⟩ : BufTy).Contents (Elt F) → (⟨S32768x2, .f32⟩ : BufTy).Contents (Elt F)),
    StableHlo.binary main_v1201 main_v1199 main_v1202 (mulf : (⟨S32768x2, .f32⟩ : BufTy).Contents (Elt F) → (⟨S32768x2, .f32⟩ : BufTy).Contents (Elt F) → (⟨S32768x2, .f32⟩ : BufTy).Contents (Elt F)),
    StableHlo.nullary main_cst_390 (constant S_ .f32 0x3F800000#32),
    StableHlo.unary main_cst_390 main_v1203 (broadcastInDim S32768x2 ![] bcast_S_S32768x2 : (⟨S_, .f32⟩ : BufTy).Contents (Elt F) → (⟨S32768x2, .f32⟩ : BufTy).Contents (Elt F)),
    StableHlo.binary main_v1203 main_v1202 main_v1204 (subf : (⟨S32768x2, .f32⟩ : BufTy).Contents (Elt F) → (⟨S32768x2, .f32⟩ : BufTy).Contents (Elt F) → (⟨S32768x2, .f32⟩ : BufTy).Contents (Elt F)),
    StableHlo.binary main_v1204 main_v1167 main_v1205 (mulf : (⟨S32768x2, .f32⟩ : BufTy).Contents (Elt F) → (⟨S32768x2, .f32⟩ : BufTy).Contents (Elt F) → (⟨S32768x2, .f32⟩ : BufTy).Contents (Elt F)),
    StableHlo.binary main_v1205 main_v1168 main_v1206 (addf : (⟨S32768x2, .f32⟩ : BufTy).Contents (Elt F) → (⟨S32768x2, .f32⟩ : BufTy).Contents (Elt F) → (⟨S32768x2, .f32⟩ : BufTy).Contents (Elt F)),
    StableHlo.unary main_v1206 main_v1207 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1206 main_v1208 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_391 (constant S_ .f32 0xC1F00000#32),
    StableHlo.nullary main_cst_392 (constant S_ .f32 0x41F00000#32),
    StableHlo.TRef.unary (.of main_cst_391 : StableHlo.TRef sig ⟨S_, .f32⟩) main_call114.v0 id,
    StableHlo.TRef.unary main_call114.v0 main_call114.v1 (broadcastInDim S32768x1 ![] bcast_S_S32768x1),
    StableHlo.TRef.binary main_call114.v1 (.of main_v1207 : StableHlo.TRef sig ⟨S32768x1, .f32⟩) main_call114.v2 maximumf,
    StableHlo.TRef.unary (.of main_cst_392 : StableHlo.TRef sig ⟨S_, .f32⟩) main_call114.v3 id,
    StableHlo.TRef.unary main_call114.v3 main_call114.v4 (broadcastInDim S32768x1 ![] bcast_S_S32768x1),
    StableHlo.TRef.binary main_call114.v4 main_call114.v2 main_call114.v5 minimumf,
    StableHlo.nullary main_cst_393 (constant S_ .f32 0xC1F00000#32),
    StableHlo.nullary main_cst_394 (constant S_ .f32 0x41F00000#32),
    StableHlo.TRef.unary (.of main_cst_393 : StableHlo.TRef sig ⟨S_, .f32⟩) main_call115.v0 id,
    StableHlo.TRef.unary main_call115.v0 main_call115.v1 (broadcastInDim S32768x1 ![] bcast_S_S32768x1),
    StableHlo.TRef.binary main_call115.v1 (.of main_v1208 : StableHlo.TRef sig ⟨S32768x1, .f32⟩) main_call115.v2 maximumf,
    StableHlo.TRef.unary (.of main_cst_394 : StableHlo.TRef sig ⟨S_, .f32⟩) main_call115.v3 id,
    StableHlo.TRef.unary main_call115.v3 main_call115.v4 (broadcastInDim S32768x1 ![] bcast_S_S32768x1),
    StableHlo.TRef.binary main_call115.v4 main_call115.v2 main_call115.v5 minimumf,
    StableHlo.unary main_v1209 main_v1211 (Host.sign : (⟨S32768x1, .f32⟩ : BufTy).Contents (Elt F) → (⟨S32768x1, .f32⟩ : BufTy).Contents (Elt F)),
    StableHlo.unary main_v1210 main_v1212 (Host.sign : (⟨S32768x1, .f32⟩ : BufTy).Contents (Elt F) → (⟨S32768x1, .f32⟩ : BufTy).Contents (Elt F)),
    StableHlo.binary main_v1211 main_v1212 main_v1213 (mulf : (⟨S32768x1, .f32⟩ : BufTy).Contents (Elt F) → (⟨S32768x1, .f32⟩ : BufTy).Contents (Elt F) → (⟨S32768x1, .f32⟩ : BufTy).Contents (Elt F)),
    StableHlo.unary main_v1209 main_v1214 (Host.absf : (⟨S32768x1, .f32⟩ : BufTy).Contents (Elt F) → (⟨S32768x1, .f32⟩ : BufTy).Contents (Elt F)),
    StableHlo.unary main_v1210 main_v1215 (Host.absf : (⟨S32768x1, .f32⟩ : BufTy).Contents (Elt F) → (⟨S32768x1, .f32⟩ : BufTy).Contents (Elt F)),
    StableHlo.binary main_v1214 main_v1215 main_v1216 (minimumf : (⟨S32768x1, .f32⟩ : BufTy).Contents (Elt F) → (⟨S32768x1, .f32⟩ : BufTy).Contents (Elt F) → (⟨S32768x1, .f32⟩ : BufTy).Contents (Elt F)),
    StableHlo.binary main_v1213 main_v1216 main_v1217 (mulf : (⟨S32768x1, .f32⟩ : BufTy).Contents (Elt F) → (⟨S32768x1, .f32⟩ : BufTy).Contents (Elt F) → (⟨S32768x1, .f32⟩ : BufTy).Contents (Elt F)),
    StableHlo.nullary main_cst_395 (constant S_ .f32 0x00000000#32),
    StableHlo.unary main_cst_395 main_v1218 (broadcastInDim S32768x1 ![] bcast_S_S32768x1 : (⟨S_, .f32⟩ : BufTy).Contents (Elt F) → (⟨S32768x1, .f32⟩ : BufTy).Contents (Elt F)),
    StableHlo.nullary main_cst_396 (constant S_ .f32 0x40000000#32),
    StableHlo.unary main_cst_396 main_v1219 (broadcastInDim S32768x1 ![] bcast_S_S32768x1 : (⟨S_, .f32⟩ : BufTy).Contents (Elt F) → (⟨S32768x1, .f32⟩ : BufTy).Contents (Elt F)),
    StableHlo.binary main_v1219 main_v1218 main_v1220 (mulf : (⟨S32768x1, .f32⟩ : BufTy).Contents (Elt F) → (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_26 (d : Dev nD) : main_part26 (F := F) d = seq ops26 := by
  simp only [main_part26, fn_clip_6.body, seq, bind_assoc, pure_bind]
  rfl

/-- Every operation of the window touches TensorCore references only. -/
theorem sub_26 : (ops26 : List (HloOp τ sig (Elt F))).Forall fun op => op.bufs ⊆ tcRefs τ sig :=
  ⟨binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., nullary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., nullary_bufs_sub ..,
    unary_bufs_sub .., binary_bufs_sub ..⟩

/-- Every operation of the window determines all it writes. -/
theorem fresh_26 : (ops26 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_26 (V : Valuation τ sig (Elt F)) :
    after ops26 V (main_arg0 : DevRef τ sig) = V (main_arg0 : DevRef τ sig) := by
  simp only [after_cons, after_nil]
  rfl

/-- The operations of @main's statements 1621 … 1680, in order (80 of them): a statement's own operation, or, for a call
    of a clip function, the six operations of its body over that call's buffers. -/
abbrev ops27 : List (HloOp τ sig (Elt F)) :=
  [ StableHlo.nullary main_cst_397 (constant S_ .f32 0x3F800000#32),
    StableHlo.unary main_cst_397 main_v1221 (broadcastInDim S32768x1 ![] bcast_S_S32768x1 : (⟨S_, .f32⟩ : BufTy).Contents (Elt F) → (⟨S32768x1, .f32⟩ : BufTy).Contents (Elt F)),
    StableHlo.binary main_v1221 main_v1220 main_v1222 (subf : (⟨S32768x1, .f32⟩ : BufTy).Contents (Elt F) → (⟨S32768x1, .f32⟩ : BufTy).Contents (Elt F) → (⟨S32768x1, .f32⟩ : BufTy).Contents (Elt F)),
    StableHlo.binary main_v1222 main_v1207 main_v1223 (mulf : (⟨S32768x1, .f32⟩ : BufTy).Contents (Elt F) → (⟨S32768x1, .f32⟩ : BufTy).Contents (Elt F) → (⟨S32768x1, .f32⟩ : BufTy).Contents (Elt F)),
    StableHlo.binary main_v1223 main_v1208 main_v1224 (addf : (⟨S32768x1, .f32⟩ : BufTy).Contents (Elt F) → (⟨S32768x1, .f32⟩ : BufTy).Contents (Elt F) → (⟨S32768x1, .f32⟩ : BufTy).Contents (Elt F)),
    StableHlo.nullary main_cst_398 (constant S_ .f32 0x00000000#32),
    StableHlo.unary main_cst_398 main_v1225 (broadcastInDim S32768x1 ![] bcast_S_S32768x1 : (⟨S_, .f32⟩ : BufTy).Contents (Elt F) → (⟨S32768x1, .f32⟩ : BufTy).Contents (Elt F)),
    StableHlo.binary main_v1218 main_v1225 main_v1226 (cmpf .une : (⟨S32768x1, .f32⟩ : BufTy).Contents (Elt F) → (⟨S32768x1, .f32⟩ : BufTy).Contents (Elt F) → (⟨S32768x1, .i1⟩ : BufTy).Contents (Elt F)),
    StableHlo.unary main_v1226 main_v1227 (uitofp .f32 : (⟨S32768x1, .i1⟩ : BufTy).Contents (Elt F) → (⟨S32768x1, .f32⟩ : BufTy).Contents (Elt F)),
    StableHlo.binary main_v1227 main_v1225 main_v1228 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1218 main_v1225 main_v1229 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1199 main_v1228 main_v1230 (cmpf .une : (⟨S32768x2, .f32⟩ : BufTy).Contents (Elt F) → (⟨S32768x2, .f32⟩ : BufTy).Contents (Elt F) → (⟨S32768x2, .i1⟩ : BufTy).Contents (Elt F)),
    StableHlo.unary main_v1230 main_v1231 (uitofp .f32 : (⟨S32768x2, .i1⟩ : BufTy).Contents (Elt F) → (⟨S32768x2, .f32⟩ : BufTy).Contents (Elt F)),
    StableHlo.binary main_v1231 main_v1228 main_v1232 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v1200 main_v1229 main_v1233 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v1159 main_v1232 main_v1234 (cmpf .une : (⟨S32768x4, .f32⟩ : BufTy).Contents (Elt F) → (⟨S32768x4, .f32⟩ : BufTy).Contents (Elt F) → (⟨S32768x4, .i1⟩ : BufTy).Contents (Elt F)),
    StableHlo.unary main_v1234 main_v1235 (uitofp .f32 : (⟨S32768x4, .i1⟩ : BufTy).Contents (Elt F) → (⟨S32768x4, .f32⟩ : BufTy).Contents (Elt F)),
    StableHlo.binary main_v1235 main_v1232 main_v1236 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v1160 main_v1233 main_v1237 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.nullary main_cst_399 (constant S_ .f32 0x40000000#32),
    StableHlo.unary main_cst_399 main_v1238 (broadcastInDim S32768x8 ![] bcast_S_S32768x8 : (⟨S_, .f32⟩ : BufTy).Contents (Elt F) → (⟨S32768x8, .f32⟩ : BufTy).Contents (Elt F)),
    StableHlo.binary main_v1238 main_v1236 main_v1239 (mulf : (⟨S32768x8, .f32⟩ : BufTy).Contents (Elt F) → (⟨S32768x8, .f32⟩ : BufTy).Contents (Elt F) → (⟨S32768x8, .f32⟩ : BufTy).Contents (Elt F)),
    StableHlo.nullary main_cst_400 (constant S_ .f32 0x3F800000#32),
    StableHlo.unary main_cst_400 main_v1240 (broadcastInDim S32768x8 ![] bcast_S_S32768x8 : (⟨S_, .f32⟩ : BufTy).Contents (Elt F) → (⟨S32768x8, .f32⟩ : BufTy).Contents (Elt F)),
    StableHlo.binary main_v1240 main_v1239 main_v1241 (subf : (⟨S32768x8, .f32⟩ : BufTy).Contents (Elt F) → (⟨S32768x8, .f32⟩ : BufTy).Contents (Elt F) → (⟨S32768x8, .f32⟩ : BufTy).Contents (Elt F)),
    StableHlo.binary main_v1241 main_v1072 main_v1242 (mulf : (⟨S32768x8, .f32⟩ : BufTy).Contents (Elt F) → (⟨S32768x8, .f32⟩ : BufTy).Contents (Elt F) → (⟨S32768x8, .f32⟩ : BufTy).Contents (Elt F)),
    StableHlo.binary main_v1242 main_v1073 main_v1243 (addf : (⟨S32768x8, .f32⟩ : BufTy).Contents (Elt F) → (⟨S32768x8, .f32⟩ : BufTy).Contents (Elt F) → (⟨S32768x8, .f32⟩ : BufTy).Contents (Elt F)),
    StableHlo.unary main_v1243 main_v1244 ((extractStridedSlice S32768x4 ![0, 0] · slices_S32768x8_S32768x4_0_0) : (⟨S32768x8, .f32⟩ : BufTy).Contents (Elt F) → (⟨S32768x4, .f32⟩ : BufTy).Contents (Elt F)),
    StableHlo.unary main_v1243 main_v1245 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_401 (constant S_ .f32 0xC1F00000#32),
    StableHlo.nullary main_cst_402 (constant S_ .f32 0x41F00000#32),
    StableHlo.TRef.unary (.of main_cst_401 : StableHlo.TRef sig ⟨S_, .f32⟩) main_call116.v0 id,
    StableHlo.TRef.unary main_call116.v0 main_call116.v1 (broadcastInDim S32768x4 ![] bcast_S_S32768x4),
    StableHlo.TRef.binary main_call116.v1 (.of main_v1244 : StableHlo.TRef sig ⟨S32768x4, .f32⟩) main_call116.v2 maximumf,
    StableHlo.TRef.unary (.of main_cst_402 : StableHlo.TRef sig ⟨S_, .f32⟩) main_call116.v3 id,
    StableHlo.TRef.unary main_call116.v3 main_call116.v4 (broadcastInDim S32768x4 ![] bcast_S_S32768x4),
    StableHlo.TRef.binary main_call116.v4 main_call116.v2 main_call116.v5 minimumf,
    StableHlo.nullary main_cst_403 (constant S_ .f32 0xC1F00000#32),
    StableHlo.nullary main_cst_404 (constant S_ .f32 0x41F00000#32),
    StableHlo.TRef.unary (.of main_cst_403 : StableHlo.TRef sig ⟨S_, .f32⟩) main_call117.v0 id,
    StableHlo.TRef.unary main_call117.v0 main_call117.v1 (broadcastInDim S32768x4 ![] bcast_S_S32768x4),
    StableHlo.TRef.binary main_call117.v1 (.of main_v1245 : StableHlo.TRef sig ⟨S32768x4, .f32⟩) main_call117.v2 maximumf,
    StableHlo.TRef.unary (.of main_cst_404 : StableHlo.TRef sig ⟨S_, .f32⟩) main_call117.v3 id,
    StableHlo.TRef.unary main_call117.v3 main_call117.v4 (broadcastInDim S32768x4 ![] bcast_S_S32768x4),
    StableHlo.TRef.binary main_call117.v4 main_call117.v2 main_call117.v5 minimumf,
    StableHlo.unary main_v1246 main_v1248 (Host.sign : (⟨S32768x4, .f32⟩ : BufTy).Contents (Elt F) → (⟨S32768x4, .f32⟩ : BufTy).Contents (Elt F)),
    StableHlo.unary main_v1247 main_v1249 (Host.sign : (⟨S32768x4, .f32⟩ : BufTy).Contents (Elt F) → (⟨S32768x4, .f32⟩ : BufTy).Contents (Elt F)),
    StableHlo.binary main_v1248 main_v1249 main_v1250 (mulf : (⟨S32768x4, .f32⟩ : BufTy).Contents (Elt F) → (⟨S32768x4, .f32⟩ : BufTy).Contents (Elt F) → (⟨S32768x4, .f32⟩ : BufTy).Contents (Elt F)),
    StableHlo.unary main_v1246 main_v1251 (Host.absf : (⟨S32768x4, .f32⟩ : BufTy).Contents (Elt F) → (⟨S32768x4, .f32⟩ : BufTy).Contents (Elt F)),
    StableHlo.unary main_v1247 main_v1252 (Host.absf : (⟨S32768x4, .f32⟩ : BufTy).Contents (Elt F) → (⟨S32768x4, .f32⟩ : BufTy).Contents (Elt F)),
    StableHlo.binary main_v1251 main_v1252 main_v1253 (minimumf : (⟨S32768x4, .f32⟩ : BufTy).Contents (Elt F) → (⟨S32768x4, .f32⟩ : BufTy).Contents (Elt F) → (⟨S32768x4, .f32⟩ : BufTy).Contents (Elt F)),
    StableHlo.binary main_v1250 main_v1253 main_v1254 (mulf : (⟨S32768x4, .f32⟩ : BufTy).Contents (Elt F) → (⟨S32768x4, .f32⟩ : BufTy).Contents (Elt F) → (⟨S32768x4, .f32⟩ : BufTy).Contents (Elt F)),
    StableHlo.unary main_v1254 main_v1255 ((extractStridedSlice S32768x2 ![0, 0] · slices_S32768x4_S32768x2_0_0) : (⟨S32768x4, .f32⟩ : BufTy).Contents (Elt F) → (⟨S32768x2, .f32⟩ : BufTy).Contents (Elt F)),
    StableHlo.unary main_v1254 main_v1256 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_405 (constant S_ .f32 0xC1F00000#32),
    StableHlo.nullary main_cst_406 (constant S_ .f32 0x41F00000#32),
    StableHlo.TRef.unary (.of main_cst_405 : StableHlo.TRef sig ⟨S_, .f32⟩) main_call118.v0 id,
    StableHlo.TRef.unary main_call118.v0 main_call118.v1 (broadcastInDim S32768x2 ![] bcast_S_S32768x2),
    StableHlo.TRef.binary main_call118.v1 (.of main_v1255 : StableHlo.TRef sig ⟨S32768x2, .f32⟩) main_call118.v2 maximumf,
    StableHlo.TRef.unary (.of main_cst_406 : StableHlo.TRef sig ⟨S_, .f32⟩) main_call118.v3 id,
    StableHlo.TRef.unary main_call118.v3 main_call118.v4 (broadcastInDim S32768x2 ![] bcast_S_S32768x2),
    StableHlo.TRef.binary main_call118.v4 main_call118.v2 main_call118.v5 minimumf,
    StableHlo.nullary main_cst_407 (constant S_ .f32 0xC1F00000#32),
    StableHlo.nullary main_cst_408 (constant S_ .f32 0x41F00000#32),
    StableHlo.TRef.unary (.of main_cst_407 : StableHlo.TRef sig ⟨S_, .f32⟩) main_call119.v0 id,
    StableHlo.TRef.unary main_call119.v0 main_call119.v1 (broadcastInDim S32768x2 ![] bcast_S_S32768x2),
    StableHlo.TRef.binary main_call119.v1 (.of main_v1256 : StableHlo.TRef sig ⟨S32768x2, .f32⟩) main_call119.v2 maximumf,
    StableHlo.TRef.unary (.of main_cst_408 : StableHlo.TRef sig ⟨S_, .f32⟩) main_call119.v3 id,
    StableHlo.TRef.unary main_call119.v3 main_call119.v4 (broadcastInDim S32768x2 ![] bcast_S_S32768x2),
    StableHlo.TRef.binary main_call119.v4 main_call119.v2 main_call119.v5 minimumf,
    StableHlo.unary main_v1257 main_v1259 (Host.sign : (⟨S32768x2, .f32⟩ : BufTy).Contents (Elt F) → (⟨S32768x2, .f32⟩ : BufTy).Contents (Elt F)),
    StableHlo.unary main_v1258 main_v1260 (Host.sign : (⟨S32768x2, .f32⟩ : BufTy).Contents (Elt F) → (⟨S32768x2, .f32⟩ : BufTy).Contents (Elt F)),
    StableHlo.binary main_v1259 main_v1260 main_v1261 (mulf : (⟨S32768x2, .f32⟩ : BufTy).Contents (Elt F) → (⟨S32768x2, .f32⟩ : BufTy).Contents (Elt F) → (⟨S32768x2, .f32⟩ : BufTy).Contents (Elt F)),
    StableHlo.unary main_v1257 main_v1262 (Host.absf : (⟨S32768x2, .f32⟩ : BufTy).Contents (Elt F) → (⟨S32768x2, .f32⟩ : BufTy).Contents (Elt F)),
    StableHlo.unary main_v1258 main_v1263 (Host.absf : (⟨S32768x2, .f32⟩ : BufTy).Contents (Elt F) → (⟨S32768x2, .f32⟩ : BufTy).Contents (Elt F)),
    StableHlo.binary main_v1262 main_v1263 main_v1264 (minimumf : (⟨S32768x2, .f32⟩ : BufTy).Contents (Elt F) → (⟨S32768x2, .f32⟩ : BufTy).Contents (Elt F) → (⟨S32768x2, .f32⟩ : BufTy).Contents (Elt F)),
    StableHlo.binary main_v1261 main_v1264 main_v1265 (mulf : (⟨S32768x2, .f32⟩ : BufTy).Contents (Elt F) → (⟨S32768x2, .f32⟩ : BufTy).Contents (Elt F) → (⟨S32768x2, .f32⟩ : BufTy).Contents (Elt F)),
    StableHlo.unary main_v1265 main_v1266 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1265 main_v1267 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_409 (constant S_ .f32 0xC1F00000#32) ]

set_option maxRecDepth 8192 in
/-- The window is that straight line: each clip function unfolded at its calls, the sequencing reassociated. -/
theorem part_eq_27 (d : Dev nD) : main_part27 (F := F) d = seq ops27 := by
  simp only [main_part27, fn_clip_4.body, fn_clip_5.body, seq, bind_assoc, pure_bind]
  rfl

/-- Every operation of the window touches TensorCore references only. -/
theorem sub_27 : (ops27 : List (HloOp τ sig (Elt F))).Forall fun op => op.bufs ⊆ tcRefs τ sig :=
  ⟨nullary_bufs_sub .., unary_bufs_sub .., binary_bufs_sub .., binary_bufs_sub .., binary_bufs_sub .., nullary_bufs_sub ..,
    unary_bufs_sub .., binary_bufs_sub .., unary_bufs_sub .., binary_bufs_sub .., binary_bufs_sub .., binary_bufs_sub ..,
    unary_bufs_sub .., binary_bufs_sub .., binary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., unary_bufs_sub ..,
    unary_bufs_sub .., nullary_bufs_sub ..⟩

/-- Every operation of the window determines all it writes. -/
theorem fresh_27 : (ops27 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_27 (V : Valuation τ sig (Elt F)) :
    after ops27 V (main_arg0 : DevRef τ sig) = V (main_arg0 : DevRef τ sig) := by
  simp only [after_cons, after_nil]
  rfl

/-- The operations of @main's statements 1681 … 1740, in order (80 of them): a statement's own operation, or, for a call
    of a clip function, the six operations of its body over that call's buffers. -/
abbrev ops28 : List (HloOp τ sig (Elt F)) :=
  [ StableHlo.nullary main_cst_410 (constant S_ .f32 0x41F00000#32),
    StableHlo.TRef.unary (.of main_cst_409 : StableHlo.TRef sig ⟨S_, .f32⟩) main_call120.v0 id,
    StableHlo.TRef.unary main_call120.v0 main_call120.v1 (broadcastInDim S32768x1 ![] bcast_S_S32768x1),
    StableHlo.TRef.binary main_call120.v1 (.of main_v1266 : StableHlo.TRef sig ⟨S32768x1, .f32⟩) main_call120.v2 maximumf,
    StableHlo.TRef.unary (.of main_cst_410 : StableHlo.TRef sig ⟨S_, .f32⟩) main_call120.v3 id,
    StableHlo.TRef.unary main_call120.v3 main_call120.v4 (broadcastInDim S32768x1 ![] bcast_S_S32768x1),
    StableHlo.TRef.binary main_call120.v4 main_call120.v2 main_call120.v5 minimumf,
    StableHlo.nullary main_cst_411 (constant S_ .f32 0xC1F00000#32),
    StableHlo.nullary main_cst_412 (constant S_ .f32 0x41F00000#32),
    StableHlo.TRef.unary (.of main_cst_411 : StableHlo.TRef sig ⟨S_, .f32⟩) main_call121.v0 id,
    StableHlo.TRef.unary main_call121.v0 main_call121.v1 (broadcastInDim S32768x1 ![] bcast_S_S32768x1),
    StableHlo.TRef.binary main_call121.v1 (.of main_v1267 : StableHlo.TRef sig ⟨S32768x1, .f32⟩) main_call121.v2 maximumf,
    StableHlo.TRef.unary (.of main_cst_412 : StableHlo.TRef sig ⟨S_, .f32⟩) main_call121.v3 id,
    StableHlo.TRef.unary main_call121.v3 main_call121.v4 (broadcastInDim S32768x1 ![] bcast_S_S32768x1),
    StableHlo.TRef.binary main_call121.v4 main_call121.v2 main_call121.v5 minimumf,
    StableHlo.unary main_v1268 main_v1270 (Host.sign : (⟨S32768x1, .f32⟩ : BufTy).Contents (Elt F) → (⟨S32768x1, .f32⟩ : BufTy).Contents (Elt F)),
    StableHlo.unary main_v1269 main_v1271 (Host.sign : (⟨S32768x1, .f32⟩ : BufTy).Contents (Elt F) → (⟨S32768x1, .f32⟩ : BufTy).Contents (Elt F)),
    StableHlo.binary main_v1270 main_v1271 main_v1272 (mulf : (⟨S32768x1, .f32⟩ : BufTy).Contents (Elt F) → (⟨S32768x1, .f32⟩ : BufTy).Contents (Elt F) → (⟨S32768x1, .f32⟩ : BufTy).Contents (Elt F)),
    StableHlo.unary main_v1268 main_v1273 (Host.absf : (⟨S32768x1, .f32⟩ : BufTy).Contents (Elt F) → (⟨S32768x1, .f32⟩ : BufTy).Contents (Elt F)),
    StableHlo.unary main_v1269 main_v1274 (Host.absf : (⟨S32768x1, .f32⟩ : BufTy).Contents (Elt F) → (⟨S32768x1, .f32⟩ : BufTy).Contents (Elt F)),
    StableHlo.binary main_v1273 main_v1274 main_v1275 (minimumf : (⟨S32768x1, .f32⟩ : BufTy).Contents (Elt F) → (⟨S32768x1, .f32⟩ : BufTy).Contents (Elt F) → (⟨S32768x1, .f32⟩ : BufTy).Contents (Elt F)),
    StableHlo.binary main_v1272 main_v1275 main_v1276 (mulf : (⟨S32768x1, .f32⟩ : BufTy).Contents (Elt F) → (⟨S32768x1, .f32⟩ : BufTy).Contents (Elt F) → (⟨S32768x1, .f32⟩ : BufTy).Contents (Elt F)),
    StableHlo.nullary main_cst_413 (constant S_ .f32 0x00000000#32),
    StableHlo.unary main_cst_413 main_v1277 (broadcastInDim S32768x1 ![] bcast_S_S32768x1 : (⟨S_, .f32⟩ : BufTy).Contents (Elt F) → (⟨S32768x1, .f32⟩ : BufTy).Contents (Elt F)),
    StableHlo.nullary main_cst_414 (constant S_ .f32 0x40000000#32),
    StableHlo.unary main_cst_414 main_v1278 (broadcastInDim S32768x1 ![] bcast_S_S32768x1 : (⟨S_, .f32⟩ : BufTy).Contents (Elt F) → (⟨S32768x1, .f32⟩ : BufTy).Contents (Elt F)),
    StableHlo.binary main_v1278 main_v1277 main_v1279 (mulf : (⟨S32768x1, .f32⟩ : BufTy).Contents (Elt F) → (⟨S32768x1, .f32⟩ : BufTy).Contents (Elt F) → (⟨S32768x1, .f32⟩ : BufTy).Contents (Elt F)),
    StableHlo.nullary main_cst_415 (constant S_ .f32 0x3F800000#32),
    StableHlo.unary main_cst_415 main_v1280 (broadcastInDim S32768x1 ![] bcast_S_S32768x1 : (⟨S_, .f32⟩ : BufTy).Contents (Elt F) → (⟨S32768x1, .f32⟩ : BufTy).Contents (Elt F)),
    StableHlo.binary main_v1280 main_v1279 main_v1281 (subf : (⟨S32768x1, .f32⟩ : BufTy).Contents (Elt F) → (⟨S32768x1, .f32⟩ : BufTy).Contents (Elt F) → (⟨S32768x1, .f32⟩ : BufTy).Contents (Elt F)),
    StableHlo.binary main_v1281 main_v1266 main_v1282 (mulf : (⟨S32768x1, .f32⟩ : BufTy).Contents (Elt F) → (⟨S32768x1, .f32⟩ : BufTy).Contents (Elt F) → (⟨S32768x1, .f32⟩ : BufTy).Contents (Elt F)),
    StableHlo.binary main_v1282 main_v1267 main_v1283 (addf : (⟨S32768x1, .f32⟩ : BufTy).Contents (Elt F) → (⟨S32768x1, .f32⟩ : BufTy).Contents (Elt F) → (⟨S32768x1, .f32⟩ : BufTy).Contents (Elt F)),
    StableHlo.nullary main_cst_416 (constant S_ .f32 0x00000000#32),
    StableHlo.unary main_cst_416 main_v1284 (broadcastInDim S32768x1 ![] bcast_S_S32768x1 : (⟨S_, .f32⟩ : BufTy).Contents (Elt F) → (⟨S32768x1, .f32⟩ : BufTy).Contents (Elt F)),
    StableHlo.binary main_v1277 main_v1284 main_v1285 (cmpf .une : (⟨S32768x1, .f32⟩ : BufTy).Contents (Elt F) → (⟨S32768x1, .f32⟩ : BufTy).Contents (Elt F) → (⟨S32768x1, .i1⟩ : BufTy).Contents (Elt F)),
    StableHlo.unary main_v1285 main_v1286 (uitofp .f32 : (⟨S32768x1, .i1⟩ : BufTy).Contents (Elt F) → (⟨S32768x1, .f32⟩ : BufTy).Contents (Elt F)),
    StableHlo.binary main_v1286 main_v1284 main_v1287 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1277 main_v1284 main_v1288 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_417 (constant S_ .f32 0x40000000#32),
    StableHlo.unary main_cst_417 main_v1289 (broadcastInDim S32768x2 ![] bcast_S_S32768x2 : (⟨S_, .f32⟩ : BufTy).Contents (Elt F) → (⟨S32768x2, .f32⟩ : BufTy).Contents (Elt F)),
    StableHlo.binary main_v1289 main_v1287 main_v1290 (mulf : (⟨S32768x2, .f32⟩ : BufTy).Contents (Elt F) → (⟨S32768x2, .f32⟩ : BufTy).Contents (Elt F) → (⟨S32768x2, .f32⟩ : BufTy).Contents (Elt F)),
    StableHlo.nullary main_cst_418 (constant S_ .f32 0x3F800000#32),
    StableHlo.unary main_cst_418 main_v1291 (broadcastInDim S32768x2 ![] bcast_S_S32768x2 : (⟨S_, .f32⟩ : BufTy).Contents (Elt F) → (⟨S32768x2, .f32⟩ : BufTy).Contents (Elt F)),
    StableHlo.binary main_v1291 main_v1290 main_v1292 (subf : (⟨S32768x2, .f32⟩ : BufTy).Contents (Elt F) → (⟨S32768x2, .f32⟩ : BufTy).Contents (Elt F) → (⟨S32768x2, .f32⟩ : BufTy).Contents (Elt F)),
    StableHlo.binary main_v1292 main_v1255 main_v1293 (mulf : (⟨S32768x2, .f32⟩ : BufTy).Contents (Elt F) → (⟨S32768x2, .f32⟩ : BufTy).Contents (Elt F) → (⟨S32768x2, .f32⟩ : BufTy).Contents (Elt F)),
    StableHlo.binary main_v1293 main_v1256 main_v1294 (addf : (⟨S32768x2, .f32⟩ : BufTy).Contents (Elt F) → (⟨S32768x2, .f32⟩ : BufTy).Contents (Elt F) → (⟨S32768x2, .f32⟩ : BufTy).Contents (Elt F)),
    StableHlo.unary main_v1294 main_v1295 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1294 main_v1296 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_419 (constant S_ .f32 0xC1F00000#32),
    StableHlo.nullary main_cst_420 (constant S_ .f32 0x41F00000#32),
    StableHlo.TRef.unary (.of main_cst_419 : StableHlo.TRef sig ⟨S_, .f32⟩) main_call122.v0 id,
    StableHlo.TRef.unary main_call122.v0 main_call122.v1 (broadcastInDim S32768x1 ![] bcast_S_S32768x1),
    StableHlo.TRef.binary main_call122.v1 (.of main_v1295 : StableHlo.TRef sig ⟨S32768x1, .f32⟩) main_call122.v2 maximumf,
    StableHlo.TRef.unary (.of main_cst_420 : StableHlo.TRef sig ⟨S_, .f32⟩) main_call122.v3 id,
    StableHlo.TRef.unary main_call122.v3 main_call122.v4 (broadcastInDim S32768x1 ![] bcast_S_S32768x1),
    StableHlo.TRef.binary main_call122.v4 main_call122.v2 main_call122.v5 minimumf,
    StableHlo.nullary main_cst_421 (constant S_ .f32 0xC1F00000#32),
    StableHlo.nullary main_cst_422 (constant S_ .f32 0x41F00000#32),
    StableHlo.TRef.unary (.of main_cst_421 : StableHlo.TRef sig ⟨S_, .f32⟩) main_call123.v0 id,
    StableHlo.TRef.unary main_call123.v0 main_call123.v1 (broadcastInDim S32768x1 ![] bcast_S_S32768x1),
    StableHlo.TRef.binary main_call123.v1 (.of main_v1296 : StableHlo.TRef sig ⟨S32768x1, .f32⟩) main_call123.v2 maximumf,
    StableHlo.TRef.unary (.of main_cst_422 : StableHlo.TRef sig ⟨S_, .f32⟩) main_call123.v3 id,
    StableHlo.TRef.unary main_call123.v3 main_call123.v4 (broadcastInDim S32768x1 ![] bcast_S_S32768x1),
    StableHlo.TRef.binary main_call123.v4 main_call123.v2 main_call123.v5 minimumf,
    StableHlo.unary main_v1297 main_v1299 (Host.sign : (⟨S32768x1, .f32⟩ : BufTy).Contents (Elt F) → (⟨S32768x1, .f32⟩ : BufTy).Contents (Elt F)),
    StableHlo.unary main_v1298 main_v1300 (Host.sign : (⟨S32768x1, .f32⟩ : BufTy).Contents (Elt F) → (⟨S32768x1, .f32⟩ : BufTy).Contents (Elt F)),
    StableHlo.binary main_v1299 main_v1300 main_v1301 (mulf : (⟨S32768x1, .f32⟩ : BufTy).Contents (Elt F) → (⟨S32768x1, .f32⟩ : BufTy).Contents (Elt F) → (⟨S32768x1, .f32⟩ : BufTy).Contents (Elt F)),
    StableHlo.unary main_v1297 main_v1302 (Host.absf : (⟨S32768x1, .f32⟩ : BufTy).Contents (Elt F) → (⟨S32768x1, .f32⟩ : BufTy).Contents (Elt F)),
    StableHlo.unary main_v1298 main_v1303 (Host.absf : (⟨S32768x1, .f32⟩ : BufTy).Contents (Elt F) → (⟨S32768x1, .f32⟩ : BufTy).Contents (Elt F)),
    StableHlo.binary main_v1302 main_v1303 main_v1304 (minimumf : (⟨S32768x1, .f32⟩ : BufTy).Contents (Elt F) → (⟨S32768x1, .f32⟩ : BufTy).Contents (Elt F) → (⟨S32768x1, .f32⟩ : BufTy).Contents (Elt F)),
    StableHlo.binary main_v1301 main_v1304 main_v1305 (mulf : (⟨S32768x1, .f32⟩ : BufTy).Contents (Elt F) → (⟨S32768x1, .f32⟩ : BufTy).Contents (Elt F) → (⟨S32768x1, .f32⟩ : BufTy).Contents (Elt F)),
    StableHlo.nullary main_cst_423 (constant S_ .f32 0x00000000#32),
    StableHlo.unary main_cst_423 main_v1306 (broadcastInDim S32768x1 ![] bcast_S_S32768x1 : (⟨S_, .f32⟩ : BufTy).Contents (Elt F) → (⟨S32768x1, .f32⟩ : BufTy).Contents (Elt F)),
    StableHlo.nullary main_cst_424 (constant S_ .f32 0x40000000#32),
    StableHlo.unary main_cst_424 main_v1307 (broadcastInDim S32768x1 ![] bcast_S_S32768x1 : (⟨S_, .f32⟩ : BufTy).Contents (Elt F) → (⟨S32768x1, .f32⟩ : BufTy).Contents (Elt F)),
    StableHlo.binary main_v1307 main_v1306 main_v1308 (mulf : (⟨S32768x1, .f32⟩ : BufTy).Contents (Elt F) → (⟨S32768x1, .f32⟩ : BufTy).Contents (Elt F) → (⟨S32768x1, .f32⟩ : BufTy).Contents (Elt F)),
    StableHlo.nullary main_cst_425 (constant S_ .f32 0x3F800000#32),
    StableHlo.unary main_cst_425 main_v1309 (broadcastInDim S32768x1 ![] bcast_S_S32768x1 : (⟨S_, .f32⟩ : BufTy).Contents (Elt F) → (⟨S32768x1, .f32⟩ : BufTy).Contents (Elt F)),
    StableHlo.binary main_v1309 main_v1308 main_v1310 (subf : (⟨S32768x1, .f32⟩ : BufTy).Contents (Elt F) → (⟨S32768x1, .f32⟩ : BufTy).Contents (Elt F) → (⟨S32768x1, .f32⟩ : BufTy).Contents (Elt F)),
    StableHlo.binary main_v1310 main_v1295 main_v1311 (mulf : (⟨S32768x1, .f32⟩ : BufTy).Contents (Elt F) → (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_28 (d : Dev nD) : main_part28 (F := F) d = seq ops28 := by
  simp only [main_part28, fn_clip_6.body, seq, bind_assoc, pure_bind]
  rfl

/-- Every operation of the window touches TensorCore references only. -/
theorem sub_28 : (ops28 : List (HloOp τ sig (Elt F))).Forall fun op => op.bufs ⊆ tcRefs τ sig :=
  ⟨nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., nullary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., nullary_bufs_sub ..,
    unary_bufs_sub .., nullary_bufs_sub .., unary_bufs_sub .., binary_bufs_sub .., nullary_bufs_sub .., unary_bufs_sub ..,
    binary_bufs_sub .., binary_bufs_sub ..⟩

/-- Every operation of the window determines all it writes. -/
theorem fresh_28 : (ops28 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_28 (V : Valuation τ sig (Elt F)) :
    after ops28 V (main_arg0 : DevRef τ sig) = V (main_arg0 : DevRef τ sig) := by
  simp only [after_cons, after_nil]
  rfl

/-- The operations of @main's statements 1741 … 1800, in order (80 of them): a statement's own operation, or, for a call
    of a clip function, the six operations of its body over that call's buffers. -/
abbrev ops29 : List (HloOp τ sig (Elt F)) :=
  [ StableHlo.binary main_v1311 main_v1296 main_v1312 (addf : (⟨S32768x1, .f32⟩ : BufTy).Contents (Elt F) → (⟨S32768x1, .f32⟩ : BufTy).Contents (Elt F) → (⟨S32768x1, .f32⟩ : BufTy).Contents (Elt F)),
    StableHlo.nullary main_cst_426 (constant S_ .f32 0x00000000#32),
    StableHlo.unary main_cst_426 main_v1313 (broadcastInDim S32768x1 ![] bcast_S_S32768x1 : (⟨S_, .f32⟩ : BufTy).Contents (Elt F) → (⟨S32768x1, .f32⟩ : BufTy).Contents (Elt F)),
    StableHlo.binary main_v1306 main_v1313 main_v1314 (cmpf .une : (⟨S32768x1, .f32⟩ : BufTy).Contents (Elt F) → (⟨S32768x1, .f32⟩ : BufTy).Contents (Elt F) → (⟨S32768x1, .i1⟩ : BufTy).Contents (Elt F)),
    StableHlo.unary main_v1314 main_v1315 (uitofp .f32 : (⟨S32768x1, .i1⟩ : BufTy).Contents (Elt F) → (⟨S32768x1, .f32⟩ : BufTy).Contents (Elt F)),
    StableHlo.binary main_v1315 main_v1313 main_v1316 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1306 main_v1313 main_v1317 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1287 main_v1316 main_v1318 (cmpf .une : (⟨S32768x2, .f32⟩ : BufTy).Contents (Elt F) → (⟨S32768x2, .f32⟩ : BufTy).Contents (Elt F) → (⟨S32768x2, .i1⟩ : BufTy).Contents (Elt F)),
    StableHlo.unary main_v1318 main_v1319 (uitofp .f32 : (⟨S32768x2, .i1⟩ : BufTy).Contents (Elt F) → (⟨S32768x2, .f32⟩ : BufTy).Contents (Elt F)),
    StableHlo.binary main_v1319 main_v1316 main_v1320 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v1288 main_v1317 main_v1321 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_427 (constant S_ .f32 0x40000000#32),
    StableHlo.unary main_cst_427 main_v1322 (broadcastInDim S32768x4 ![] bcast_S_S32768x4 : (⟨S_, .f32⟩ : BufTy).Contents (Elt F) → (⟨S32768x4, .f32⟩ : BufTy).Contents (Elt F)),
    StableHlo.binary main_v1322 main_v1320 main_v1323 (mulf : (⟨S32768x4, .f32⟩ : BufTy).Contents (Elt F) → (⟨S32768x4, .f32⟩ : BufTy).Contents (Elt F) → (⟨S32768x4, .f32⟩ : BufTy).Contents (Elt F)),
    StableHlo.nullary main_cst_428 (constant S_ .f32 0x3F800000#32),
    StableHlo.unary main_cst_428 main_v1324 (broadcastInDim S32768x4 ![] bcast_S_S32768x4 : (⟨S_, .f32⟩ : BufTy).Contents (Elt F) → (⟨S32768x4, .f32⟩ : BufTy).Contents (Elt F)),
    StableHlo.binary main_v1324 main_v1323 main_v1325 (subf : (⟨S32768x4, .f32⟩ : BufTy).Contents (Elt F) → (⟨S32768x4, .f32⟩ : BufTy).Contents (Elt F) → (⟨S32768x4, .f32⟩ : BufTy).Contents (Elt F)),
    StableHlo.binary main_v1325 main_v1244 main_v1326 (mulf : (⟨S32768x4, .f32⟩ : BufTy).Contents (Elt F) → (⟨S32768x4, .f32⟩ : BufTy).Contents (Elt F) → (⟨S32768x4, .f32⟩ : BufTy).Contents (Elt F)),
    StableHlo.binary main_v1326 main_v1245 main_v1327 (addf : (⟨S32768x4, .f32⟩ : BufTy).Contents (Elt F) → (⟨S32768x4, .f32⟩ : BufTy).Contents (Elt F) → (⟨S32768x4, .f32⟩ : BufTy).Contents (Elt F)),
    StableHlo.unary main_v1327 main_v1328 ((extractStridedSlice S32768x2 ![0, 0] · slices_S32768x4_S32768x2_0_0) : (⟨S32768x4, .f32⟩ : BufTy).Contents (Elt F) → (⟨S32768x2, .f32⟩ : BufTy).Contents (Elt F)),
    StableHlo.unary main_v1327 main_v1329 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_429 (constant S_ .f32 0xC1F00000#32),
    StableHlo.nullary main_cst_430 (constant S_ .f32 0x41F00000#32),
    StableHlo.TRef.unary (.of main_cst_429 : StableHlo.TRef sig ⟨S_, .f32⟩) main_call124.v0 id,
    StableHlo.TRef.unary main_call124.v0 main_call124.v1 (broadcastInDim S32768x2 ![] bcast_S_S32768x2),
    StableHlo.TRef.binary main_call124.v1 (.of main_v1328 : StableHlo.TRef sig ⟨S32768x2, .f32⟩) main_call124.v2 maximumf,
    StableHlo.TRef.unary (.of main_cst_430 : StableHlo.TRef sig ⟨S_, .f32⟩) main_call124.v3 id,
    StableHlo.TRef.unary main_call124.v3 main_call124.v4 (broadcastInDim S32768x2 ![] bcast_S_S32768x2),
    StableHlo.TRef.binary main_call124.v4 main_call124.v2 main_call124.v5 minimumf,
    StableHlo.nullary main_cst_431 (constant S_ .f32 0xC1F00000#32),
    StableHlo.nullary main_cst_432 (constant S_ .f32 0x41F00000#32),
    StableHlo.TRef.unary (.of main_cst_431 : StableHlo.TRef sig ⟨S_, .f32⟩) main_call125.v0 id,
    StableHlo.TRef.unary main_call125.v0 main_call125.v1 (broadcastInDim S32768x2 ![] bcast_S_S32768x2),
    StableHlo.TRef.binary main_call125.v1 (.of main_v1329 : StableHlo.TRef sig ⟨S32768x2, .f32⟩) main_call125.v2 maximumf,
    StableHlo.TRef.unary (.of main_cst_432 : StableHlo.TRef sig ⟨S_, .f32⟩) main_call125.v3 id,
    StableHlo.TRef.unary main_call125.v3 main_call125.v4 (broadcastInDim S32768x2 ![] bcast_S_S32768x2),
    StableHlo.TRef.binary main_call125.v4 main_call125.v2 main_call125.v5 minimumf,
    StableHlo.unary main_v1330 main_v1332 (Host.sign : (⟨S32768x2, .f32⟩ : BufTy).Contents (Elt F) → (⟨S32768x2, .f32⟩ : BufTy).Contents (Elt F)),
    StableHlo.unary main_v1331 main_v1333 (Host.sign : (⟨S32768x2, .f32⟩ : BufTy).Contents (Elt F) → (⟨S32768x2, .f32⟩ : BufTy).Contents (Elt F)),
    StableHlo.binary main_v1332 main_v1333 main_v1334 (mulf : (⟨S32768x2, .f32⟩ : BufTy).Contents (Elt F) → (⟨S32768x2, .f32⟩ : BufTy).Contents (Elt F) → (⟨S32768x2, .f32⟩ : BufTy).Contents (Elt F)),
    StableHlo.unary main_v1330 main_v1335 (Host.absf : (⟨S32768x2, .f32⟩ : BufTy).Contents (Elt F) → (⟨S32768x2, .f32⟩ : BufTy).Contents (Elt F)),
    StableHlo.unary main_v1331 main_v1336 (Host.absf : (⟨S32768x2, .f32⟩ : BufTy).Contents (Elt F) → (⟨S32768x2, .f32⟩ : BufTy).Contents (Elt F)),
    StableHlo.binary main_v1335 main_v1336 main_v1337 (minimumf : (⟨S32768x2, .f32⟩ : BufTy).Contents (Elt F) → (⟨S32768x2, .f32⟩ : BufTy).Contents (Elt F) → (⟨S32768x2, .f32⟩ : BufTy).Contents (Elt F)),
    StableHlo.binary main_v1334 main_v1337 main_v1338 (mulf : (⟨S32768x2, .f32⟩ : BufTy).Contents (Elt F) → (⟨S32768x2, .f32⟩ : BufTy).Contents (Elt F) → (⟨S32768x2, .f32⟩ : BufTy).Contents (Elt F)),
    StableHlo.unary main_v1338 main_v1339 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1338 main_v1340 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_433 (constant S_ .f32 0xC1F00000#32),
    StableHlo.nullary main_cst_434 (constant S_ .f32 0x41F00000#32),
    StableHlo.TRef.unary (.of main_cst_433 : StableHlo.TRef sig ⟨S_, .f32⟩) main_call126.v0 id,
    StableHlo.TRef.unary main_call126.v0 main_call126.v1 (broadcastInDim S32768x1 ![] bcast_S_S32768x1),
    StableHlo.TRef.binary main_call126.v1 (.of main_v1339 : StableHlo.TRef sig ⟨S32768x1, .f32⟩) main_call126.v2 maximumf,
    StableHlo.TRef.unary (.of main_cst_434 : StableHlo.TRef sig ⟨S_, .f32⟩) main_call126.v3 id,
    StableHlo.TRef.unary main_call126.v3 main_call126.v4 (broadcastInDim S32768x1 ![] bcast_S_S32768x1),
    StableHlo.TRef.binary main_call126.v4 main_call126.v2 main_call126.v5 minimumf,
    StableHlo.nullary main_cst_435 (constant S_ .f32 0xC1F00000#32),
    StableHlo.nullary main_cst_436 (constant S_ .f32 0x41F00000#32),
    StableHlo.TRef.unary (.of main_cst_435 : StableHlo.TRef sig ⟨S_, .f32⟩) main_call127.v0 id,
    StableHlo.TRef.unary main_call127.v0 main_call127.v1 (broadcastInDim S32768x1 ![] bcast_S_S32768x1),
    StableHlo.TRef.binary main_call127.v1 (.of main_v1340 : StableHlo.TRef sig ⟨S32768x1, .f32⟩) main_call127.v2 maximumf,
    StableHlo.TRef.unary (.of main_cst_436 : StableHlo.TRef sig ⟨S_, .f32⟩) main_call127.v3 id,
    StableHlo.TRef.unary main_call127.v3 main_call127.v4 (broadcastInDim S32768x1 ![] bcast_S_S32768x1),
    StableHlo.TRef.binary main_call127.v4 main_call127.v2 main_call127.v5 minimumf,
    StableHlo.unary main_v1341 main_v1343 (Host.sign : (⟨S32768x1, .f32⟩ : BufTy).Contents (Elt F) → (⟨S32768x1, .f32⟩ : BufTy).Contents (Elt F)),
    StableHlo.unary main_v1342 main_v1344 (Host.sign : (⟨S32768x1, .f32⟩ : BufTy).Contents (Elt F) → (⟨S32768x1, .f32⟩ : BufTy).Contents (Elt F)),
    StableHlo.binary main_v1343 main_v1344 main_v1345 (mulf : (⟨S32768x1, .f32⟩ : BufTy).Contents (Elt F) → (⟨S32768x1, .f32⟩ : BufTy).Contents (Elt F) → (⟨S32768x1, .f32⟩ : BufTy).Contents (Elt F)),
    StableHlo.unary main_v1341 main_v1346 (Host.absf : (⟨S32768x1, .f32⟩ : BufTy).Contents (Elt F) → (⟨S32768x1, .f32⟩ : BufTy).Contents (Elt F)),
    StableHlo.unary main_v1342 main_v1347 (Host.absf : (⟨S32768x1, .f32⟩ : BufTy).Contents (Elt F) → (⟨S32768x1, .f32⟩ : BufTy).Contents (Elt F)),
    StableHlo.binary main_v1346 main_v1347 main_v1348 (minimumf : (⟨S32768x1, .f32⟩ : BufTy).Contents (Elt F) → (⟨S32768x1, .f32⟩ : BufTy).Contents (Elt F) → (⟨S32768x1, .f32⟩ : BufTy).Contents (Elt F)),
    StableHlo.binary main_v1345 main_v1348 main_v1349 (mulf : (⟨S32768x1, .f32⟩ : BufTy).Contents (Elt F) → (⟨S32768x1, .f32⟩ : BufTy).Contents (Elt F) → (⟨S32768x1, .f32⟩ : BufTy).Contents (Elt F)),
    StableHlo.nullary main_cst_437 (constant S_ .f32 0x00000000#32),
    StableHlo.unary main_cst_437 main_v1350 (broadcastInDim S32768x1 ![] bcast_S_S32768x1 : (⟨S_, .f32⟩ : BufTy).Contents (Elt F) → (⟨S32768x1, .f32⟩ : BufTy).Contents (Elt F)),
    StableHlo.nullary main_cst_438 (constant S_ .f32 0x40000000#32),
    StableHlo.unary main_cst_438 main_v1351 (broadcastInDim S32768x1 ![] bcast_S_S32768x1 : (⟨S_, .f32⟩ : BufTy).Contents (Elt F) → (⟨S32768x1, .f32⟩ : BufTy).Contents (Elt F)),
    StableHlo.binary main_v1351 main_v1350 main_v1352 (mulf : (⟨S32768x1, .f32⟩ : BufTy).Contents (Elt F) → (⟨S32768x1, .f32⟩ : BufTy).Contents (Elt F) → (⟨S32768x1, .f32⟩ : BufTy).Contents (Elt F)),
    StableHlo.nullary main_cst_439 (constant S_ .f32 0x3F800000#32),
    StableHlo.unary main_cst_439 main_v1353 (broadcastInDim S32768x1 ![] bcast_S_S32768x1 : (⟨S_, .f32⟩ : BufTy).Contents (Elt F) → (⟨S32768x1, .f32⟩ : BufTy).Contents (Elt F)),
    StableHlo.binary main_v1353 main_v1352 main_v1354 (subf : (⟨S32768x1, .f32⟩ : BufTy).Contents (Elt F) → (⟨S32768x1, .f32⟩ : BufTy).Contents (Elt F) → (⟨S32768x1, .f32⟩ : BufTy).Contents (Elt F)),
    StableHlo.binary main_v1354 main_v1339 main_v1355 (mulf : (⟨S32768x1, .f32⟩ : BufTy).Contents (Elt F) → (⟨S32768x1, .f32⟩ : BufTy).Contents (Elt F) → (⟨S32768x1, .f32⟩ : BufTy).Contents (Elt F)),
    StableHlo.binary main_v1355 main_v1340 main_v1356 (addf : (⟨S32768x1, .f32⟩ : BufTy).Contents (Elt F) → (⟨S32768x1, .f32⟩ : BufTy).Contents (Elt F) → (⟨S32768x1, .f32⟩ : BufTy).Contents (Elt F)),
    StableHlo.nullary main_cst_440 (constant S_ .f32 0x00000000#32) ]

set_option maxRecDepth 8192 in
/-- The window is that straight line: each clip function unfolded at its calls, the sequencing reassociated. -/
theorem part_eq_29 (d : Dev nD) : main_part29 (F := F) d = seq ops29 := by
  simp only [main_part29, fn_clip_5.body, fn_clip_6.body, seq, bind_assoc, pure_bind]
  rfl

/-- Every operation of the window touches TensorCore references only. -/
theorem sub_29 : (ops29 : List (HloOp τ sig (Elt F))).Forall fun op => op.bufs ⊆ tcRefs τ sig :=
  ⟨binary_bufs_sub .., nullary_bufs_sub .., unary_bufs_sub .., binary_bufs_sub .., unary_bufs_sub .., binary_bufs_sub ..,
    binary_bufs_sub .., binary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., nullary_bufs_sub ..,
    unary_bufs_sub .., binary_bufs_sub .., nullary_bufs_sub .., unary_bufs_sub .., binary_bufs_sub .., binary_bufs_sub ..,
    binary_bufs_sub .., nullary_bufs_sub ..⟩

/-- Every operation of the window determines all it writes. -/
theorem fresh_29 : (ops29 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_29 (V : Valuation τ sig (Elt F)) :
    after ops29 V (main_arg0 : DevRef τ sig) = V (main_arg0 : DevRef τ sig) := by
  simp only [after_cons, after_nil]
  rfl

/-- The operations of @main's statements 1801 … 1860, in order (70 of them): a statement's own operation, or, for a call
    of a clip function, the six operations of its body over that call's buffers. -/
abbrev ops30 : List (HloOp τ sig (Elt F)) :=
  [ StableHlo.unary main_cst_440 main_v1357 (broadcastInDim S32768x1 ![] bcast_S_S32768x1 : (⟨S_, .f32⟩ : BufTy).Contents (Elt F) → (⟨S32768x1, .f32⟩ : BufTy).Contents (Elt F)),
    StableHlo.binary main_v1350 main_v1357 main_v1358 (cmpf .une : (⟨S32768x1, .f32⟩ : BufTy).Contents (Elt F) → (⟨S32768x1, .f32⟩ : BufTy).Contents (Elt F) → (⟨S32768x1, .i1⟩ : BufTy).Contents (Elt F)),
    StableHlo.unary main_v1358 main_v1359 (uitofp .f32 : (⟨S32768x1, .i1⟩ : BufTy).Contents (Elt F) → (⟨S32768x1, .f32⟩ : BufTy).Contents (Elt F)),
    StableHlo.binary main_v1359 main_v1357 main_v1360 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1350 main_v1357 main_v1361 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_441 (constant S_ .f32 0x40000000#32),
    StableHlo.unary main_cst_441 main_v1362 (broadcastInDim S32768x2 ![] bcast_S_S32768x2 : (⟨S_, .f32⟩ : BufTy).Contents (Elt F) → (⟨S32768x2, .f32⟩ : BufTy).Contents (Elt F)),
    StableHlo.binary main_v1362 main_v1360 main_v1363 (mulf : (⟨S32768x2, .f32⟩ : BufTy).Contents (Elt F) → (⟨S32768x2, .f32⟩ : BufTy).Contents (Elt F) → (⟨S32768x2, .f32⟩ : BufTy).Contents (Elt F)),
    StableHlo.nullary main_cst_442 (constant S_ .f32 0x3F800000#32),
    StableHlo.unary main_cst_442 main_v1364 (broadcastInDim S32768x2 ![] bcast_S_S32768x2 : (⟨S_, .f32⟩ : BufTy).Contents (Elt F) → (⟨S32768x2, .f32⟩ : BufTy).Contents (Elt F)),
    StableHlo.binary main_v1364 main_v1363 main_v1365 (subf : (⟨S32768x2, .f32⟩ : BufTy).Contents (Elt F) → (⟨S32768x2, .f32⟩ : BufTy).Contents (Elt F) → (⟨S32768x2, .f32⟩ : BufTy).Contents (Elt F)),
    StableHlo.binary main_v1365 main_v1328 main_v1366 (mulf : (⟨S32768x2, .f32⟩ : BufTy).Contents (Elt F) → (⟨S32768x2, .f32⟩ : BufTy).Contents (Elt F) → (⟨S32768x2, .f32⟩ : BufTy).Contents (Elt F)),
    StableHlo.binary main_v1366 main_v1329 main_v1367 (addf : (⟨S32768x2, .f32⟩ : BufTy).Contents (Elt F) → (⟨S32768x2, .f32⟩ : BufTy).Contents (Elt F) → (⟨S32768x2, .f32⟩ : BufTy).Contents (Elt F)),
    StableHlo.unary main_v1367 main_v1368 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1367 main_v1369 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_443 (constant S_ .f32 0xC1F00000#32),
    StableHlo.nullary main_cst_444 (constant S_ .f32 0x41F00000#32),
    StableHlo.TRef.unary (.of main_cst_443 : StableHlo.TRef sig ⟨S_, .f32⟩) main_call128.v0 id,
    StableHlo.TRef.unary main_call128.v0 main_call128.v1 (broadcastInDim S32768x1 ![] bcast_S_S32768x1),
    StableHlo.TRef.binary main_call128.v1 (.of main_v1368 : StableHlo.TRef sig ⟨S32768x1, .f32⟩) main_call128.v2 maximumf,
    StableHlo.TRef.unary (.of main_cst_444 : StableHlo.TRef sig ⟨S_, .f32⟩) main_call128.v3 id,
    StableHlo.TRef.unary main_call128.v3 main_call128.v4 (broadcastInDim S32768x1 ![] bcast_S_S32768x1),
    StableHlo.TRef.binary main_call128.v4 main_call128.v2 main_call128.v5 minimumf,
    StableHlo.nullary main_cst_445 (constant S_ .f32 0xC1F00000#32),
    StableHlo.nullary main_cst_446 (constant S_ .f32 0x41F00000#32),
    StableHlo.TRef.unary (.of main_cst_445 : StableHlo.TRef sig ⟨S_, .f32⟩) main_call129.v0 id,
    StableHlo.TRef.unary main_call129.v0 main_call129.v1 (broadcastInDim S32768x1 ![] bcast_S_S32768x1),
    StableHlo.TRef.binary main_call129.v1 (.of main_v1369 : StableHlo.TRef sig ⟨S32768x1, .f32⟩) main_call129.v2 maximumf,
    StableHlo.TRef.unary (.of main_cst_446 : StableHlo.TRef sig ⟨S_, .f32⟩) main_call129.v3 id,
    StableHlo.TRef.unary main_call129.v3 main_call129.v4 (broadcastInDim S32768x1 ![] bcast_S_S32768x1),
    StableHlo.TRef.binary main_call129.v4 main_call129.v2 main_call129.v5 minimumf,
    StableHlo.unary main_v1370 main_v1372 (Host.sign : (⟨S32768x1, .f32⟩ : BufTy).Contents (Elt F) → (⟨S32768x1, .f32⟩ : BufTy).Contents (Elt F)),
    StableHlo.unary main_v1371 main_v1373 (Host.sign : (⟨S32768x1, .f32⟩ : BufTy).Contents (Elt F) → (⟨S32768x1, .f32⟩ : BufTy).Contents (Elt F)),
    StableHlo.binary main_v1372 main_v1373 main_v1374 (mulf : (⟨S32768x1, .f32⟩ : BufTy).Contents (Elt F) → (⟨S32768x1, .f32⟩ : BufTy).Contents (Elt F) → (⟨S32768x1, .f32⟩ : BufTy).Contents (Elt F)),
    StableHlo.unary main_v1370 main_v1375 (Host.absf : (⟨S32768x1, .f32⟩ : BufTy).Contents (Elt F) → (⟨S32768x1, .f32⟩ : BufTy).Contents (Elt F)),
    StableHlo.unary main_v1371 main_v1376 (Host.absf : (⟨S32768x1, .f32⟩ : BufTy).Contents (Elt F) → (⟨S32768x1, .f32⟩ : BufTy).Contents (Elt F)),
    StableHlo.binary main_v1375 main_v1376 main_v1377 (minimumf : (⟨S32768x1, .f32⟩ : BufTy).Contents (Elt F) → (⟨S32768x1, .f32⟩ : BufTy).Contents (Elt F) → (⟨S32768x1, .f32⟩ : BufTy).Contents (Elt F)),
    StableHlo.binary main_v1374 main_v1377 main_v1378 (mulf : (⟨S32768x1, .f32⟩ : BufTy).Contents (Elt F) → (⟨S32768x1, .f32⟩ : BufTy).Contents (Elt F) → (⟨S32768x1, .f32⟩ : BufTy).Contents (Elt F)),
    StableHlo.nullary main_cst_447 (constant S_ .f32 0x00000000#32),
    StableHlo.unary main_cst_447 main_v1379 (broadcastInDim S32768x1 ![] bcast_S_S32768x1 : (⟨S_, .f32⟩ : BufTy).Contents (Elt F) → (⟨S32768x1, .f32⟩ : BufTy).Contents (Elt F)),
    StableHlo.nullary main_cst_448 (constant S_ .f32 0x40000000#32),
    StableHlo.unary main_cst_448 main_v1380 (broadcastInDim S32768x1 ![] bcast_S_S32768x1 : (⟨S_, .f32⟩ : BufTy).Contents (Elt F) → (⟨S32768x1, .f32⟩ : BufTy).Contents (Elt F)),
    StableHlo.binary main_v1380 main_v1379 main_v1381 (mulf : (⟨S32768x1, .f32⟩ : BufTy).Contents (Elt F) → (⟨S32768x1, .f32⟩ : BufTy).Contents (Elt F) → (⟨S32768x1, .f32⟩ : BufTy).Contents (Elt F)),
    StableHlo.nullary main_cst_449 (constant S_ .f32 0x3F800000#32),
    StableHlo.unary main_cst_449 main_v1382 (broadcastInDim S32768x1 ![] bcast_S_S32768x1 : (⟨S_, .f32⟩ : BufTy).Contents (Elt F) → (⟨S32768x1, .f32⟩ : BufTy).Contents (Elt F)),
    StableHlo.binary main_v1382 main_v1381 main_v1383 (subf : (⟨S32768x1, .f32⟩ : BufTy).Contents (Elt F) → (⟨S32768x1, .f32⟩ : BufTy).Contents (Elt F) → (⟨S32768x1, .f32⟩ : BufTy).Contents (Elt F)),
    StableHlo.binary main_v1383 main_v1368 main_v1384 (mulf : (⟨S32768x1, .f32⟩ : BufTy).Contents (Elt F) → (⟨S32768x1, .f32⟩ : BufTy).Contents (Elt F) → (⟨S32768x1, .f32⟩ : BufTy).Contents (Elt F)),
    StableHlo.binary main_v1384 main_v1369 main_v1385 (addf : (⟨S32768x1, .f32⟩ : BufTy).Contents (Elt F) → (⟨S32768x1, .f32⟩ : BufTy).Contents (Elt F) → (⟨S32768x1, .f32⟩ : BufTy).Contents (Elt F)),
    StableHlo.nullary main_cst_450 (constant S_ .f32 0x00000000#32),
    StableHlo.unary main_cst_450 main_v1386 (broadcastInDim S32768x1 ![] bcast_S_S32768x1 : (⟨S_, .f32⟩ : BufTy).Contents (Elt F) → (⟨S32768x1, .f32⟩ : BufTy).Contents (Elt F)),
    StableHlo.binary main_v1379 main_v1386 main_v1387 (cmpf .une : (⟨S32768x1, .f32⟩ : BufTy).Contents (Elt F) → (⟨S32768x1, .f32⟩ : BufTy).Contents (Elt F) → (⟨S32768x1, .i1⟩ : BufTy).Contents (Elt F)),
    StableHlo.unary main_v1387 main_v1388 (uitofp .f32 : (⟨S32768x1, .i1⟩ : BufTy).Contents (Elt F) → (⟨S32768x1, .f32⟩ : BufTy).Contents (Elt F)),
    StableHlo.binary main_v1388 main_v1386 main_v1389 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1379 main_v1386 main_v1390 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1360 main_v1389 main_v1391 (cmpf .une : (⟨S32768x2, .f32⟩ : BufTy).Contents (Elt F) → (⟨S32768x2, .f32⟩ : BufTy).Contents (Elt F) → (⟨S32768x2, .i1⟩ : BufTy).Contents (Elt F)),
    StableHlo.unary main_v1391 main_v1392 (uitofp .f32 : (⟨S32768x2, .i1⟩ : BufTy).Contents (Elt F) → (⟨S32768x2, .f32⟩ : BufTy).Contents (Elt F)),
    StableHlo.binary main_v1392 main_v1389 main_v1393 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v1361 main_v1390 main_v1394 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v1320 main_v1393 main_v1395 (cmpf .une : (⟨S32768x4, .f32⟩ : BufTy).Contents (Elt F) → (⟨S32768x4, .f32⟩ : BufTy).Contents (Elt F) → (⟨S32768x4, .i1⟩ : BufTy).Contents (Elt F)),
    StableHlo.unary main_v1395 main_v1396 (uitofp .f32 : (⟨S32768x4, .i1⟩ : BufTy).Contents (Elt F) → (⟨S32768x4, .f32⟩ : BufTy).Contents (Elt F)),
    StableHlo.binary main_v1396 main_v1393 main_v1397 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v1321 main_v1394 main_v1398 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v1236 main_v1397 main_v1399 (cmpf .une : (⟨S32768x8, .f32⟩ : BufTy).Contents (Elt F) → (⟨S32768x8, .f32⟩ : BufTy).Contents (Elt F) → (⟨S32768x8, .i1⟩ : BufTy).Contents (Elt F)),
    StableHlo.unary main_v1399 main_v1400 (uitofp .f32 : (⟨S32768x8, .i1⟩ : BufTy).Contents (Elt F) → (⟨S32768x8, .f32⟩ : BufTy).Contents (Elt F)),
    StableHlo.binary main_v1400 main_v1397 main_v1401 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v1237 main_v1398 main_v1402 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v1064 main_v1401 main_v1403 (cmpf .une : (⟨S32768x16, .f32⟩ : BufTy).Contents (Elt F) → (⟨S32768x16, .f32⟩ : BufTy).Contents (Elt F) → (⟨S32768x16, .i1⟩ : BufTy).Contents (Elt F)),
    StableHlo.unary main_v1403 main_v1404 (uitofp .f32 : (⟨S32768x16, .i1⟩ : BufTy).Contents (Elt F) → (⟨S32768x16, .f32⟩ : BufTy).Contents (Elt F)),
    StableHlo.binary main_v1404 main_v1401 main_v1405 ((fun a b => concatenate S32768x32 1 [⟨S32768x16, a⟩, ⟨S32768x16, b⟩] concatenates_S32768x16_S32768x16_S32768x32_d1) : (⟨S32768x16, .f32⟩ : BufTy).Contents (Elt F) → (⟨S32768x16, .f32⟩ : BufTy).Contents (Elt F) → (⟨S32768x32, .f32⟩ : BufTy).Contents (Elt F)),
    StableHlo.binary main_v1065 main_v1402 main_v1406 ((fun a b => concatenate S32768x32 1 [⟨S32768x16, a⟩, ⟨S32768x16, b⟩] concatenates_S32768x16_S32768x16_S32768x32_d1) : (⟨S32768x16, .f32⟩ : BufTy).Contents (Elt F) → (⟨S32768x16, .f32⟩ : BufTy).Contents (Elt F) → (⟨S32768x32, .f32⟩ : BufTy).Contents (Elt F)) ]

set_option maxRecDepth 8192 in
/-- The window is that straight line: each clip function unfolded at its calls, the sequencing reassociated. -/
theorem part_eq_30 (d : Dev nD) : main_part30 (F := F) d = seq ops30 := by
  simp only [main_part30, fn_clip_6.body, seq, bind_assoc, pure_bind]
  rfl

/-- Every operation of the window touches TensorCore references only. -/
theorem sub_30 : (ops30 : List (HloOp τ sig (Elt F))).Forall fun op => op.bufs ⊆ tcRefs τ sig :=
  ⟨unary_bufs_sub .., binary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., nullary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., unary_bufs_sub .., binary_bufs_sub .., binary_bufs_sub ..,
    binary_bufs_sub .., unary_bufs_sub .., binary_bufs_sub .., binary_bufs_sub .., binary_bufs_sub .., unary_bufs_sub ..,
    binary_bufs_sub .., binary_bufs_sub .., binary_bufs_sub .., unary_bufs_sub .., binary_bufs_sub .., binary_bufs_sub ..,
    binary_bufs_sub .., unary_bufs_sub .., binary_bufs_sub .., binary_bufs_sub ..⟩

/-- Every operation of the window determines all it writes. -/
theorem fresh_30 : (ops30 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_30 (V : Valuation τ sig (Elt F)) :
    after ops30 V (main_arg0 : DevRef τ sig) = V (main_arg0 : DevRef τ sig) := by
  simp only [after_cons, after_nil]
  rfl

/-- The operations of @main's statements 1861 … 1920, in order (90 of them): a statement's own operation, or, for a call
    of a clip function, the six operations of its body over that call's buffers. -/
abbrev ops31 : List (HloOp τ sig (Elt F)) :=
  [ StableHlo.binary main_v716 main_v1405 main_v1407 (cmpf .une : (⟨S32768x32, .f32⟩ : BufTy).Contents (Elt F) → (⟨S32768x32, .f32⟩ : BufTy).Contents (Elt F) → (⟨S32768x32, .i1⟩ : BufTy).Contents (Elt F)),
    StableHlo.unary main_v1407 main_v1408 (uitofp .f32 : (⟨S32768x32, .i1⟩ : BufTy).Contents (Elt F) → (⟨S32768x32, .f32⟩ : BufTy).Contents (Elt F)),
    StableHlo.binary main_v1408 main_v1405 main_v1409 ((fun a b => concatenate S32768x64 1 [⟨S32768x32, a⟩, ⟨S32768x32, b⟩] concatenates_S32768x32_S32768x32_S32768x64_d1) : (⟨S32768x32, .f32⟩ : BufTy).Contents (Elt F) → (⟨S32768x32, .f32⟩ : BufTy).Contents (Elt F) → (⟨S32768x64, .f32⟩ : BufTy).Contents (Elt F)),
    StableHlo.binary main_v717 main_v1406 main_v1410 ((fun a b => concatenate S32768x64 1 [⟨S32768x32, a⟩, ⟨S32768x32, b⟩] concatenates_S32768x32_S32768x32_S32768x64_d1) : (⟨S32768x32, .f32⟩ : BufTy).Contents (Elt F) → (⟨S32768x32, .f32⟩ : BufTy).Contents (Elt F) → (⟨S32768x64, .f32⟩ : BufTy).Contents (Elt F)),
    StableHlo.nullary main_cst_451 (constant S_ .f32 0x40000000#32),
    StableHlo.unary main_cst_451 main_v1411 (broadcastInDim S32768x64 ![] bcast_S_S32768x64 : (⟨S_, .f32⟩ : BufTy).Contents (Elt F) → (⟨S32768x64, .f32⟩ : BufTy).Contents (Elt F)),
    StableHlo.binary main_v1411 main_v1409 main_v1412 (mulf : (⟨S32768x64, .f32⟩ : BufTy).Contents (Elt F) → (⟨S32768x64, .f32⟩ : BufTy).Contents (Elt F) → (⟨S32768x64, .f32⟩ : BufTy).Contents (Elt F)),
    StableHlo.nullary main_cst_452 (constant S_ .f32 0x3F800000#32),
    StableHlo.unary main_cst_452 main_v1413 (broadcastInDim S32768x64 ![] bcast_S_S32768x64 : (⟨S_, .f32⟩ : BufTy).Contents (Elt F) → (⟨S32768x64, .f32⟩ : BufTy).Contents (Elt F)),
    StableHlo.binary main_v1413 main_v1412 main_v1414 (subf : (⟨S32768x64, .f32⟩ : BufTy).Contents (Elt F) → (⟨S32768x64, .f32⟩ : BufTy).Contents (Elt F) → (⟨S32768x64, .f32⟩ : BufTy).Contents (Elt F)),
    StableHlo.binary main_v1414 main_v13 main_v1415 (mulf : (⟨S32768x64, .f32⟩ : BufTy).Contents (Elt F) → (⟨S32768x64, .f32⟩ : BufTy).Contents (Elt F) → (⟨S32768x64, .f32⟩ : BufTy).Contents (Elt F)),
    StableHlo.binary main_v1415 main_v14 main_v1416 (addf : (⟨S32768x64, .f32⟩ : BufTy).Contents (Elt F) → (⟨S32768x64, .f32⟩ : BufTy).Contents (Elt F) → (⟨S32768x64, .f32⟩ : BufTy).Contents (Elt F)),
    StableHlo.unary main_v1416 main_v1417 ((extractStridedSlice S32768x32 ![0, 0] · slices_S32768x64_S32768x32_0_0) : (⟨S32768x64, .f32⟩ : BufTy).Contents (Elt F) → (⟨S32768x32, .f32⟩ : BufTy).Contents (Elt F)),
    StableHlo.unary main_v1416 main_v1418 ((extractStridedSlice S32768x32 ![0, 32] · slices_S32768x64_S32768x32_0_32) : (⟨S32768x64, .f32⟩ : BufTy).Contents (Elt F) → (⟨S32768x32, .f32⟩ : BufTy).Contents (Elt F)),
    StableHlo.nullary main_cst_453 (constant S_ .f32 0xC1F00000#32),
    StableHlo.nullary main_cst_454 (constant S_ .f32 0x41F00000#32),
    StableHlo.TRef.unary (.of main_cst_453 : StableHlo.TRef sig ⟨S_, .f32⟩) main_call130.v0 id,
    StableHlo.TRef.unary main_call130.v0 main_call130.v1 (broadcastInDim S32768x32 ![] bcast_S_S32768x32),
    StableHlo.TRef.binary main_call130.v1 (.of main_v1417 : StableHlo.TRef sig ⟨S32768x32, .f32⟩) main_call130.v2 maximumf,
    StableHlo.TRef.unary (.of main_cst_454 : StableHlo.TRef sig ⟨S_, .f32⟩) main_call130.v3 id,
    StableHlo.TRef.unary main_call130.v3 main_call130.v4 (broadcastInDim S32768x32 ![] bcast_S_S32768x32),
    StableHlo.TRef.binary main_call130.v4 main_call130.v2 main_call130.v5 minimumf,
    StableHlo.nullary main_cst_455 (constant S_ .f32 0xC1F00000#32),
    StableHlo.nullary main_cst_456 (constant S_ .f32 0x41F00000#32),
    StableHlo.TRef.unary (.of main_cst_455 : StableHlo.TRef sig ⟨S_, .f32⟩) main_call131.v0 id,
    StableHlo.TRef.unary main_call131.v0 main_call131.v1 (broadcastInDim S32768x32 ![] bcast_S_S32768x32),
    StableHlo.TRef.binary main_call131.v1 (.of main_v1418 : StableHlo.TRef sig ⟨S32768x32, .f32⟩) main_call131.v2 maximumf,
    StableHlo.TRef.unary (.of main_cst_456 : StableHlo.TRef sig ⟨S_, .f32⟩) main_call131.v3 id,
    StableHlo.TRef.unary main_call131.v3 main_call131.v4 (broadcastInDim S32768x32 ![] bcast_S_S32768x32),
    StableHlo.TRef.binary main_call131.v4 main_call131.v2 main_call131.v5 minimumf,
    StableHlo.unary main_v1419 main_v1421 (Host.sign : (⟨S32768x32, .f32⟩ : BufTy).Contents (Elt F) → (⟨S32768x32, .f32⟩ : BufTy).Contents (Elt F)),
    StableHlo.unary main_v1420 main_v1422 (Host.sign : (⟨S32768x32, .f32⟩ : BufTy).Contents (Elt F) → (⟨S32768x32, .f32⟩ : BufTy).Contents (Elt F)),
    StableHlo.binary main_v1421 main_v1422 main_v1423 (mulf : (⟨S32768x32, .f32⟩ : BufTy).Contents (Elt F) → (⟨S32768x32, .f32⟩ : BufTy).Contents (Elt F) → (⟨S32768x32, .f32⟩ : BufTy).Contents (Elt F)),
    StableHlo.unary main_v1419 main_v1424 (Host.absf : (⟨S32768x32, .f32⟩ : BufTy).Contents (Elt F) → (⟨S32768x32, .f32⟩ : BufTy).Contents (Elt F)),
    StableHlo.unary main_v1420 main_v1425 (Host.absf : (⟨S32768x32, .f32⟩ : BufTy).Contents (Elt F) → (⟨S32768x32, .f32⟩ : BufTy).Contents (Elt F)),
    StableHlo.binary main_v1424 main_v1425 main_v1426 (minimumf : (⟨S32768x32, .f32⟩ : BufTy).Contents (Elt F) → (⟨S32768x32, .f32⟩ : BufTy).Contents (Elt F) → (⟨S32768x32, .f32⟩ : BufTy).Contents (Elt F)),
    StableHlo.binary main_v1423 main_v1426 main_v1427 (mulf : (⟨S32768x32, .f32⟩ : BufTy).Contents (Elt F) → (⟨S32768x32, .f32⟩ : BufTy).Contents (Elt F) → (⟨S32768x32, .f32⟩ : BufTy).Contents (Elt F)),
    StableHlo.unary main_v1427 main_v1428 ((extractStridedSlice S32768x16 ![0, 0] · slices_S32768x32_S32768x16_0_0) : (⟨S32768x32, .f32⟩ : BufTy).Contents (Elt F) → (⟨S32768x16, .f32⟩ : BufTy).Contents (Elt F)),
    StableHlo.unary main_v1427 main_v1429 ((extractStridedSlice S32768x16 ![0, 16] · slices_S32768x32_S32768x16_0_16) : (⟨S32768x32, .f32⟩ : BufTy).Contents (Elt F) → (⟨S32768x16, .f32⟩ : BufTy).Contents (Elt F)),
    StableHlo.nullary main_cst_457 (constant S_ .f32 0xC1F00000#32),
    StableHlo.nullary main_cst_458 (constant S_ .f32 0x41F00000#32),
    StableHlo.TRef.unary (.of main_cst_457 : StableHlo.TRef sig ⟨S_, .f32⟩) main_call132.v0 id,
    StableHlo.TRef.unary main_call132.v0 main_call132.v1 (broadcastInDim S32768x16 ![] bcast_S_S32768x16),
    StableHlo.TRef.binary main_call132.v1 (.of main_v1428 : StableHlo.TRef sig ⟨S32768x16, .f32⟩) main_call132.v2 maximumf,
    StableHlo.TRef.unary (.of main_cst_458 : StableHlo.TRef sig ⟨S_, .f32⟩) main_call132.v3 id,
    StableHlo.TRef.unary main_call132.v3 main_call132.v4 (broadcastInDim S32768x16 ![] bcast_S_S32768x16),
    StableHlo.TRef.binary main_call132.v4 main_call132.v2 main_call132.v5 minimumf,
    StableHlo.nullary main_cst_459 (constant S_ .f32 0xC1F00000#32),
    StableHlo.nullary main_cst_460 (constant S_ .f32 0x41F00000#32),
    StableHlo.TRef.unary (.of main_cst_459 : StableHlo.TRef sig ⟨S_, .f32⟩) main_call133.v0 id,
    StableHlo.TRef.unary main_call133.v0 main_call133.v1 (broadcastInDim S32768x16 ![] bcast_S_S32768x16),
    StableHlo.TRef.binary main_call133.v1 (.of main_v1429 : StableHlo.TRef sig ⟨S32768x16, .f32⟩) main_call133.v2 maximumf,
    StableHlo.TRef.unary (.of main_cst_460 : StableHlo.TRef sig ⟨S_, .f32⟩) main_call133.v3 id,
    StableHlo.TRef.unary main_call133.v3 main_call133.v4 (broadcastInDim S32768x16 ![] bcast_S_S32768x16),
    StableHlo.TRef.binary main_call133.v4 main_call133.v2 main_call133.v5 minimumf,
    StableHlo.unary main_v1430 main_v1432 (Host.sign : (⟨S32768x16, .f32⟩ : BufTy).Contents (Elt F) → (⟨S32768x16, .f32⟩ : BufTy).Contents (Elt F)),
    StableHlo.unary main_v1431 main_v1433 (Host.sign : (⟨S32768x16, .f32⟩ : BufTy).Contents (Elt F) → (⟨S32768x16, .f32⟩ : BufTy).Contents (Elt F)),
    StableHlo.binary main_v1432 main_v1433 main_v1434 (mulf : (⟨S32768x16, .f32⟩ : BufTy).Contents (Elt F) → (⟨S32768x16, .f32⟩ : BufTy).Contents (Elt F) → (⟨S32768x16, .f32⟩ : BufTy).Contents (Elt F)),
    StableHlo.unary main_v1430 main_v1435 (Host.absf : (⟨S32768x16, .f32⟩ : BufTy).Contents (Elt F) → (⟨S32768x16, .f32⟩ : BufTy).Contents (Elt F)),
    StableHlo.unary main_v1431 main_v1436 (Host.absf : (⟨S32768x16, .f32⟩ : BufTy).Contents (Elt F) → (⟨S32768x16, .f32⟩ : BufTy).Contents (Elt F)),
    StableHlo.binary main_v1435 main_v1436 main_v1437 (minimumf : (⟨S32768x16, .f32⟩ : BufTy).Contents (Elt F) → (⟨S32768x16, .f32⟩ : BufTy).Contents (Elt F) → (⟨S32768x16, .f32⟩ : BufTy).Contents (Elt F)),
    StableHlo.binary main_v1434 main_v1437 main_v1438 (mulf : (⟨S32768x16, .f32⟩ : BufTy).Contents (Elt F) → (⟨S32768x16, .f32⟩ : BufTy).Contents (Elt F) → (⟨S32768x16, .f32⟩ : BufTy).Contents (Elt F)),
    StableHlo.unary main_v1438 main_v1439 ((extractStridedSlice S32768x8 ![0, 0] · slices_S32768x16_S32768x8_0_0) : (⟨S32768x16, .f32⟩ : BufTy).Contents (Elt F) → (⟨S32768x8, .f32⟩ : BufTy).Contents (Elt F)),
    StableHlo.unary main_v1438 main_v1440 ((extractStridedSlice S32768x8 ![0, 8] · slices_S32768x16_S32768x8_0_8) : (⟨S32768x16, .f32⟩ : BufTy).Contents (Elt F) → (⟨S32768x8, .f32⟩ : BufTy).Contents (Elt F)),
    StableHlo.nullary main_cst_461 (constant S_ .f32 0xC1F00000#32),
    StableHlo.nullary main_cst_462 (constant S_ .f32 0x41F00000#32),
    StableHlo.TRef.unary (.of main_cst_461 : StableHlo.TRef sig ⟨S_, .f32⟩) main_call134.v0 id,
    StableHlo.TRef.unary main_call134.v0 main_call134.v1 (broadcastInDim S32768x8 ![] bcast_S_S32768x8),
    StableHlo.TRef.binary main_call134.v1 (.of main_v1439 : StableHlo.TRef sig ⟨S32768x8, .f32⟩) main_call134.v2 maximumf,
    StableHlo.TRef.unary (.of main_cst_462 : StableHlo.TRef sig ⟨S_, .f32⟩) main_call134.v3 id,
    StableHlo.TRef.unary main_call134.v3 main_call134.v4 (broadcastInDim S32768x8 ![] bcast_S_S32768x8),
    StableHlo.TRef.binary main_call134.v4 main_call134.v2 main_call134.v5 minimumf,
    StableHlo.nullary main_cst_463 (constant S_ .f32 0xC1F00000#32),
    StableHlo.nullary main_cst_464 (constant S_ .f32 0x41F00000#32),
    StableHlo.TRef.unary (.of main_cst_463 : StableHlo.TRef sig ⟨S_, .f32⟩) main_call135.v0 id,
    StableHlo.TRef.unary main_call135.v0 main_call135.v1 (broadcastInDim S32768x8 ![] bcast_S_S32768x8),
    StableHlo.TRef.binary main_call135.v1 (.of main_v1440 : StableHlo.TRef sig ⟨S32768x8, .f32⟩) main_call135.v2 maximumf,
    StableHlo.TRef.unary (.of main_cst_464 : StableHlo.TRef sig ⟨S_, .f32⟩) main_call135.v3 id,
    StableHlo.TRef.unary main_call135.v3 main_call135.v4 (broadcastInDim S32768x8 ![] bcast_S_S32768x8),
    StableHlo.TRef.binary main_call135.v4 main_call135.v2 main_call135.v5 minimumf,
    StableHlo.unary main_v1441 main_v1443 (Host.sign : (⟨S32768x8, .f32⟩ : BufTy).Contents (Elt F) → (⟨S32768x8, .f32⟩ : BufTy).Contents (Elt F)),
    StableHlo.unary main_v1442 main_v1444 (Host.sign : (⟨S32768x8, .f32⟩ : BufTy).Contents (Elt F) → (⟨S32768x8, .f32⟩ : BufTy).Contents (Elt F)),
    StableHlo.binary main_v1443 main_v1444 main_v1445 (mulf : (⟨S32768x8, .f32⟩ : BufTy).Contents (Elt F) → (⟨S32768x8, .f32⟩ : BufTy).Contents (Elt F) → (⟨S32768x8, .f32⟩ : BufTy).Contents (Elt F)),
    StableHlo.unary main_v1441 main_v1446 (Host.absf : (⟨S32768x8, .f32⟩ : BufTy).Contents (Elt F) → (⟨S32768x8, .f32⟩ : BufTy).Contents (Elt F)),
    StableHlo.unary main_v1442 main_v1447 (Host.absf : (⟨S32768x8, .f32⟩ : BufTy).Contents (Elt F) → (⟨S32768x8, .f32⟩ : BufTy).Contents (Elt F)),
    StableHlo.binary main_v1446 main_v1447 main_v1448 (minimumf : (⟨S32768x8, .f32⟩ : BufTy).Contents (Elt F) → (⟨S32768x8, .f32⟩ : BufTy).Contents (Elt F) → (⟨S32768x8, .f32⟩ : BufTy).Contents (Elt F)),
    StableHlo.binary main_v1445 main_v1448 main_v1449 (mulf : (⟨S32768x8, .f32⟩ : BufTy).Contents (Elt F) → (⟨S32768x8, .f32⟩ : BufTy).Contents (Elt F) → (⟨S32768x8, .f32⟩ : BufTy).Contents (Elt F)),
    StableHlo.unary main_v1449 main_v1450 ((extractStridedSlice S32768x4 ![0, 0] · slices_S32768x8_S32768x4_0_0) : (⟨S32768x8, .f32⟩ : BufTy).Contents (Elt F) → (⟨S32768x4, .f32⟩ : BufTy).Contents (Elt F)),
    StableHlo.unary main_v1449 main_v1451 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_465 (constant S_ .f32 0xC1F00000#32) ]

set_option maxRecDepth 8192 in
/-- The window is that straight line: each clip function unfolded at its calls, the sequencing reassociated. -/
theorem part_eq_31 (d : Dev nD) : main_part31 (F := F) d = seq ops31 := by
  simp only [main_part31, fn_clip_1.body, fn_clip_2.body, fn_clip_3.body, seq, bind_assoc, pure_bind]
  rfl

/-- Every operation of the window touches TensorCore references only. -/
theorem sub_31 : (ops31 : List (HloOp τ sig (Elt F))).Forall fun op => op.bufs ⊆ tcRefs τ sig :=
  ⟨binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., nullary_bufs_sub ..⟩

/-- Every operation of the window determines all it writes. -/
theorem fresh_31 : (ops31 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_31 (V : Valuation τ sig (Elt F)) :
    after ops31 V (main_arg0 : DevRef τ sig) = V (main_arg0 : DevRef τ sig) := by
  simp only [after_cons, after_nil]
  rfl

end Cert.ReferenceIdeal.RefRun

end
-- ==== Proof.RefRun.W04.lean ====
import proofs.«134088_j24077586662034_2_alg».proof.Defs
import proofs.«134088_j24077586662034_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 1921 … 1980, in order (90 of them): a statement's own operation, or, for a call
    of a clip function, the six operations of its body over that call's buffers. -/
abbrev ops32 : List (HloOp τ sig (Elt F)) :=
  [ StableHlo.nullary main_cst_466 (constant S_ .f32 0x41F00000#32),
    StableHlo.TRef.unary (.of main_cst_465 : StableHlo.TRef sig ⟨S_, .f32⟩) main_call136.v0 id,
    StableHlo.TRef.unary main_call136.v0 main_call136.v1 (broadcastInDim S32768x4 ![] bcast_S_S32768x4),
    StableHlo.TRef.binary main_call136.v1 (.of main_v1450 : StableHlo.TRef sig ⟨S32768x4, .f32⟩) main_call136.v2 maximumf,
    StableHlo.TRef.unary (.of main_cst_466 : StableHlo.TRef sig ⟨S_, .f32⟩) main_call136.v3 id,
    StableHlo.TRef.unary main_call136.v3 main_call136.v4 (broadcastInDim S32768x4 ![] bcast_S_S32768x4),
    StableHlo.TRef.binary main_call136.v4 main_call136.v2 main_call136.v5 minimumf,
    StableHlo.nullary main_cst_467 (constant S_ .f32 0xC1F00000#32),
    StableHlo.nullary main_cst_468 (constant S_ .f32 0x41F00000#32),
    StableHlo.TRef.unary (.of main_cst_467 : StableHlo.TRef sig ⟨S_, .f32⟩) main_call137.v0 id,
    StableHlo.TRef.unary main_call137.v0 main_call137.v1 (broadcastInDim S32768x4 ![] bcast_S_S32768x4),
    StableHlo.TRef.binary main_call137.v1 (.of main_v1451 : StableHlo.TRef sig ⟨S32768x4, .f32⟩) main_call137.v2 maximumf,
    StableHlo.TRef.unary (.of main_cst_468 : StableHlo.TRef sig ⟨S_, .f32⟩) main_call137.v3 id,
    StableHlo.TRef.unary main_call137.v3 main_call137.v4 (broadcastInDim S32768x4 ![] bcast_S_S32768x4),
    StableHlo.TRef.binary main_call137.v4 main_call137.v2 main_call137.v5 minimumf,
    StableHlo.unary main_v1452 main_v1454 (Host.sign : (⟨S32768x4, .f32⟩ : BufTy).Contents (Elt F) → (⟨S32768x4, .f32⟩ : BufTy).Contents (Elt F)),
    StableHlo.unary main_v1453 main_v1455 (Host.sign : (⟨S32768x4, .f32⟩ : BufTy).Contents (Elt F) → (⟨S32768x4, .f32⟩ : BufTy).Contents (Elt F)),
    StableHlo.binary main_v1454 main_v1455 main_v1456 (mulf : (⟨S32768x4, .f32⟩ : BufTy).Contents (Elt F) → (⟨S32768x4, .f32⟩ : BufTy).Contents (Elt F) → (⟨S32768x4, .f32⟩ : BufTy).Contents (Elt F)),
    StableHlo.unary main_v1452 main_v1457 (Host.absf : (⟨S32768x4, .f32⟩ : BufTy).Contents (Elt F) → (⟨S32768x4, .f32⟩ : BufTy).Contents (Elt F)),
    StableHlo.unary main_v1453 main_v1458 (Host.absf : (⟨S32768x4, .f32⟩ : BufTy).Contents (Elt F) → (⟨S32768x4, .f32⟩ : BufTy).Contents (Elt F)),
    StableHlo.binary main_v1457 main_v1458 main_v1459 (minimumf : (⟨S32768x4, .f32⟩ : BufTy).Contents (Elt F) → (⟨S32768x4, .f32⟩ : BufTy).Contents (Elt F) → (⟨S32768x4, .f32⟩ : BufTy).Contents (Elt F)),
    StableHlo.binary main_v1456 main_v1459 main_v1460 (mulf : (⟨S32768x4, .f32⟩ : BufTy).Contents (Elt F) → (⟨S32768x4, .f32⟩ : BufTy).Contents (Elt F) → (⟨S32768x4, .f32⟩ : BufTy).Contents (Elt F)),
    StableHlo.unary main_v1460 main_v1461 ((extractStridedSlice S32768x2 ![0, 0] · slices_S32768x4_S32768x2_0_0) : (⟨S32768x4, .f32⟩ : BufTy).Contents (Elt F) → (⟨S32768x2, .f32⟩ : BufTy).Contents (Elt F)),
    StableHlo.unary main_v1460 main_v1462 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_469 (constant S_ .f32 0xC1F00000#32),
    StableHlo.nullary main_cst_470 (constant S_ .f32 0x41F00000#32),
    StableHlo.TRef.unary (.of main_cst_469 : StableHlo.TRef sig ⟨S_, .f32⟩) main_call138.v0 id,
    StableHlo.TRef.unary main_call138.v0 main_call138.v1 (broadcastInDim S32768x2 ![] bcast_S_S32768x2),
    StableHlo.TRef.binary main_call138.v1 (.of main_v1461 : StableHlo.TRef sig ⟨S32768x2, .f32⟩) main_call138.v2 maximumf,
    StableHlo.TRef.unary (.of main_cst_470 : StableHlo.TRef sig ⟨S_, .f32⟩) main_call138.v3 id,
    StableHlo.TRef.unary main_call138.v3 main_call138.v4 (broadcastInDim S32768x2 ![] bcast_S_S32768x2),
    StableHlo.TRef.binary main_call138.v4 main_call138.v2 main_call138.v5 minimumf,
    StableHlo.nullary main_cst_471 (constant S_ .f32 0xC1F00000#32),
    StableHlo.nullary main_cst_472 (constant S_ .f32 0x41F00000#32),
    StableHlo.TRef.unary (.of main_cst_471 : StableHlo.TRef sig ⟨S_, .f32⟩) main_call139.v0 id,
    StableHlo.TRef.unary main_call139.v0 main_call139.v1 (broadcastInDim S32768x2 ![] bcast_S_S32768x2),
    StableHlo.TRef.binary main_call139.v1 (.of main_v1462 : StableHlo.TRef sig ⟨S32768x2, .f32⟩) main_call139.v2 maximumf,
    StableHlo.TRef.unary (.of main_cst_472 : StableHlo.TRef sig ⟨S_, .f32⟩) main_call139.v3 id,
    StableHlo.TRef.unary main_call139.v3 main_call139.v4 (broadcastInDim S32768x2 ![] bcast_S_S32768x2),
    StableHlo.TRef.binary main_call139.v4 main_call139.v2 main_call139.v5 minimumf,
    StableHlo.unary main_v1463 main_v1465 (Host.sign : (⟨S32768x2, .f32⟩ : BufTy).Contents (Elt F) → (⟨S32768x2, .f32⟩ : BufTy).Contents (Elt F)),
    StableHlo.unary main_v1464 main_v1466 (Host.sign : (⟨S32768x2, .f32⟩ : BufTy).Contents (Elt F) → (⟨S32768x2, .f32⟩ : BufTy).Contents (Elt F)),
    StableHlo.binary main_v1465 main_v1466 main_v1467 (mulf : (⟨S32768x2, .f32⟩ : BufTy).Contents (Elt F) → (⟨S32768x2, .f32⟩ : BufTy).Contents (Elt F) → (⟨S32768x2, .f32⟩ : BufTy).Contents (Elt F)),
    StableHlo.unary main_v1463 main_v1468 (Host.absf : (⟨S32768x2, .f32⟩ : BufTy).Contents (Elt F) → (⟨S32768x2, .f32⟩ : BufTy).Contents (Elt F)),
    StableHlo.unary main_v1464 main_v1469 (Host.absf : (⟨S32768x2, .f32⟩ : BufTy).Contents (Elt F) → (⟨S32768x2, .f32⟩ : BufTy).Contents (Elt F)),
    StableHlo.binary main_v1468 main_v1469 main_v1470 (minimumf : (⟨S32768x2, .f32⟩ : BufTy).Contents (Elt F) → (⟨S32768x2, .f32⟩ : BufTy).Contents (Elt F) → (⟨S32768x2, .f32⟩ : BufTy).Contents (Elt F)),
    StableHlo.binary main_v1467 main_v1470 main_v1471 (mulf : (⟨S32768x2, .f32⟩ : BufTy).Contents (Elt F) → (⟨S32768x2, .f32⟩ : BufTy).Contents (Elt F) → (⟨S32768x2, .f32⟩ : BufTy).Contents (Elt F)),
    StableHlo.unary main_v1471 main_v1472 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1471 main_v1473 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_473 (constant S_ .f32 0xC1F00000#32),
    StableHlo.nullary main_cst_474 (constant S_ .f32 0x41F00000#32),
    StableHlo.TRef.unary (.of main_cst_473 : StableHlo.TRef sig ⟨S_, .f32⟩) main_call140.v0 id,
    StableHlo.TRef.unary main_call140.v0 main_call140.v1 (broadcastInDim S32768x1 ![] bcast_S_S32768x1),
    StableHlo.TRef.binary main_call140.v1 (.of main_v1472 : StableHlo.TRef sig ⟨S32768x1, .f32⟩) main_call140.v2 maximumf,
    StableHlo.TRef.unary (.of main_cst_474 : StableHlo.TRef sig ⟨S_, .f32⟩) main_call140.v3 id,
    StableHlo.TRef.unary main_call140.v3 main_call140.v4 (broadcastInDim S32768x1 ![] bcast_S_S32768x1),
    StableHlo.TRef.binary main_call140.v4 main_call140.v2 main_call140.v5 minimumf,
    StableHlo.nullary main_cst_475 (constant S_ .f32 0xC1F00000#32),
    StableHlo.nullary main_cst_476 (constant S_ .f32 0x41F00000#32),
    StableHlo.TRef.unary (.of main_cst_475 : StableHlo.TRef sig ⟨S_, .f32⟩) main_call141.v0 id,
    StableHlo.TRef.unary main_call141.v0 main_call141.v1 (broadcastInDim S32768x1 ![] bcast_S_S32768x1),
    StableHlo.TRef.binary main_call141.v1 (.of main_v1473 : StableHlo.TRef sig ⟨S32768x1, .f32⟩) main_call141.v2 maximumf,
    StableHlo.TRef.unary (.of main_cst_476 : StableHlo.TRef sig ⟨S_, .f32⟩) main_call141.v3 id,
    StableHlo.TRef.unary main_call141.v3 main_call141.v4 (broadcastInDim S32768x1 ![] bcast_S_S32768x1),
    StableHlo.TRef.binary main_call141.v4 main_call141.v2 main_call141.v5 minimumf,
    StableHlo.unary main_v1474 main_v1476 (Host.sign : (⟨S32768x1, .f32⟩ : BufTy).Contents (Elt F) → (⟨S32768x1, .f32⟩ : BufTy).Contents (Elt F)),
    StableHlo.unary main_v1475 main_v1477 (Host.sign : (⟨S32768x1, .f32⟩ : BufTy).Contents (Elt F) → (⟨S32768x1, .f32⟩ : BufTy).Contents (Elt F)),
    StableHlo.binary main_v1476 main_v1477 main_v1478 (mulf : (⟨S32768x1, .f32⟩ : BufTy).Contents (Elt F) → (⟨S32768x1, .f32⟩ : BufTy).Contents (Elt F) → (⟨S32768x1, .f32⟩ : BufTy).Contents (Elt F)),
    StableHlo.unary main_v1474 main_v1479 (Host.absf : (⟨S32768x1, .f32⟩ : BufTy).Contents (Elt F) → (⟨S32768x1, .f32⟩ : BufTy).Contents (Elt F)),
    StableHlo.unary main_v1475 main_v1480 (Host.absf : (⟨S32768x1, .f32⟩ : BufTy).Contents (Elt F) → (⟨S32768x1, .f32⟩ : BufTy).Contents (Elt F)),
    StableHlo.binary main_v1479 main_v1480 main_v1481 (minimumf : (⟨S32768x1, .f32⟩ : BufTy).Contents (Elt F) → (⟨S32768x1, .f32⟩ : BufTy).Contents (Elt F) → (⟨S32768x1, .f32⟩ : BufTy).Contents (Elt F)),
    StableHlo.binary main_v1478 main_v1481 main_v1482 (mulf : (⟨S32768x1, .f32⟩ : BufTy).Contents (Elt F) → (⟨S32768x1, .f32⟩ : BufTy).Contents (Elt F) → (⟨S32768x1, .f32⟩ : BufTy).Contents (Elt F)),
    StableHlo.nullary main_cst_477 (constant S_ .f32 0x00000000#32),
    StableHlo.unary main_cst_477 main_v1483 (broadcastInDim S32768x1 ![] bcast_S_S32768x1 : (⟨S_, .f32⟩ : BufTy).Contents (Elt F) → (⟨S32768x1, .f32⟩ : BufTy).Contents (Elt F)),
    StableHlo.nullary main_cst_478 (constant S_ .f32 0x40000000#32),
    StableHlo.unary main_cst_478 main_v1484 (broadcastInDim S32768x1 ![] bcast_S_S32768x1 : (⟨S_, .f32⟩ : BufTy).Contents (Elt F) → (⟨S32768x1, .f32⟩ : BufTy).Contents (Elt F)),
    StableHlo.binary main_v1484 main_v1483 main_v1485 (mulf : (⟨S32768x1, .f32⟩ : BufTy).Contents (Elt F) → (⟨S32768x1, .f32⟩ : BufTy).Contents (Elt F) → (⟨S32768x1, .f32⟩ : BufTy).Contents (Elt F)),
    StableHlo.nullary main_cst_479 (constant S_ .f32 0x3F800000#32),
    StableHlo.unary main_cst_479 main_v1486 (broadcastInDim S32768x1 ![] bcast_S_S32768x1 : (⟨S_, .f32⟩ : BufTy).Contents (Elt F) → (⟨S32768x1, .f32⟩ : BufTy).Contents (Elt F)),
    StableHlo.binary main_v1486 main_v1485 main_v1487 (subf : (⟨S32768x1, .f32⟩ : BufTy).Contents (Elt F) → (⟨S32768x1, .f32⟩ : BufTy).Contents (Elt F) → (⟨S32768x1, .f32⟩ : BufTy).Contents (Elt F)),
    StableHlo.binary main_v1487 main_v1472 main_v1488 (mulf : (⟨S32768x1, .f32⟩ : BufTy).Contents (Elt F) → (⟨S32768x1, .f32⟩ : BufTy).Contents (Elt F) → (⟨S32768x1, .f32⟩ : BufTy).Contents (Elt F)),
    StableHlo.binary main_v1488 main_v1473 main_v1489 (addf : (⟨S32768x1, .f32⟩ : BufTy).Contents (Elt F) → (⟨S32768x1, .f32⟩ : BufTy).Contents (Elt F) → (⟨S32768x1, .f32⟩ : BufTy).Contents (Elt F)),
    StableHlo.nullary main_cst_480 (constant S_ .f32 0x00000000#32),
    StableHlo.unary main_cst_480 main_v1490 (broadcastInDim S32768x1 ![] bcast_S_S32768x1 : (⟨S_, .f32⟩ : BufTy).Contents (Elt F) → (⟨S32768x1, .f32⟩ : BufTy).Contents (Elt F)),
    StableHlo.binary main_v1483 main_v1490 main_v1491 (cmpf .une : (⟨S32768x1, .f32⟩ : BufTy).Contents (Elt F) → (⟨S32768x1, .f32⟩ : BufTy).Contents (Elt F) → (⟨S32768x1, .i1⟩ : BufTy).Contents (Elt F)),
    StableHlo.unary main_v1491 main_v1492 (uitofp .f32 : (⟨S32768x1, .i1⟩ : BufTy).Contents (Elt F) → (⟨S32768x1, .f32⟩ : BufTy).Contents (Elt F)),
    StableHlo.binary main_v1492 main_v1490 main_v1493 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1483 main_v1490 main_v1494 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_481 (constant S_ .f32 0x40000000#32),
    StableHlo.unary main_cst_481 main_v1495 (broadcastInDim S32768x2 ![] bcast_S_S32768x2 : (⟨S_, .f32⟩ : BufTy).Contents (Elt F) → (⟨S32768x2, .f32⟩ : BufTy).Contents (Elt F)) ]

set_option maxRecDepth 8192 in
/-- The window is that straight line: each clip function unfolded at its calls, the sequencing reassociated. -/
theorem part_eq_32 (d : Dev nD) : main_part32 (F := F) d = seq ops32 := by
  simp only [main_part32, fn_clip_4.body, fn_clip_5.body, fn_clip_6.body, seq, bind_assoc, pure_bind]
  rfl

/-- Every operation of the window touches TensorCore references only. -/
theorem sub_32 : (ops32 : List (HloOp τ sig (Elt F))).Forall fun op => op.bufs ⊆ tcRefs τ sig :=
  ⟨nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., nullary_bufs_sub .., unary_bufs_sub .., binary_bufs_sub .., nullary_bufs_sub ..,
    unary_bufs_sub .., binary_bufs_sub .., binary_bufs_sub .., binary_bufs_sub .., nullary_bufs_sub .., unary_bufs_sub ..,
    binary_bufs_sub .., unary_bufs_sub .., binary_bufs_sub .., binary_bufs_sub .., nullary_bufs_sub .., unary_bufs_sub ..⟩

/-- Every operation of the window determines all it writes. -/
theorem fresh_32 : (ops32 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_32 (V : Valuation τ sig (Elt F)) :
    after ops32 V (main_arg0 : DevRef τ sig) = V (main_arg0 : DevRef τ sig) := by
  simp only [after_cons, after_nil]
  rfl

/-- The operations of @main's statements 1981 … 2040, in order (80 of them): a statement's own operation, or, for a call
    of a clip function, the six operations of its body over that call's buffers. -/
abbrev ops33 : List (HloOp τ sig (Elt F)) :=
  [ StableHlo.binary main_v1495 main_v1493 main_v1496 (mulf : (⟨S32768x2, .f32⟩ : BufTy).Contents (Elt F) → (⟨S32768x2, .f32⟩ : BufTy).Contents (Elt F) → (⟨S32768x2, .f32⟩ : BufTy).Contents (Elt F)),
    StableHlo.nullary main_cst_482 (constant S_ .f32 0x3F800000#32),
    StableHlo.unary main_cst_482 main_v1497 (broadcastInDim S32768x2 ![] bcast_S_S32768x2 : (⟨S_, .f32⟩ : BufTy).Contents (Elt F) → (⟨S32768x2, .f32⟩ : BufTy).Contents (Elt F)),
    StableHlo.binary main_v1497 main_v1496 main_v1498 (subf : (⟨S32768x2, .f32⟩ : BufTy).Contents (Elt F) → (⟨S32768x2, .f32⟩ : BufTy).Contents (Elt F) → (⟨S32768x2, .f32⟩ : BufTy).Contents (Elt F)),
    StableHlo.binary main_v1498 main_v1461 main_v1499 (mulf : (⟨S32768x2, .f32⟩ : BufTy).Contents (Elt F) → (⟨S32768x2, .f32⟩ : BufTy).Contents (Elt F) → (⟨S32768x2, .f32⟩ : BufTy).Contents (Elt F)),
    StableHlo.binary main_v1499 main_v1462 main_v1500 (addf : (⟨S32768x2, .f32⟩ : BufTy).Contents (Elt F) → (⟨S32768x2, .f32⟩ : BufTy).Contents (Elt F) → (⟨S32768x2, .f32⟩ : BufTy).Contents (Elt F)),
    StableHlo.unary main_v1500 main_v1501 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1500 main_v1502 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_483 (constant S_ .f32 0xC1F00000#32),
    StableHlo.nullary main_cst_484 (constant S_ .f32 0x41F00000#32),
    StableHlo.TRef.unary (.of main_cst_483 : StableHlo.TRef sig ⟨S_, .f32⟩) main_call142.v0 id,
    StableHlo.TRef.unary main_call142.v0 main_call142.v1 (broadcastInDim S32768x1 ![] bcast_S_S32768x1),
    StableHlo.TRef.binary main_call142.v1 (.of main_v1501 : StableHlo.TRef sig ⟨S32768x1, .f32⟩) main_call142.v2 maximumf,
    StableHlo.TRef.unary (.of main_cst_484 : StableHlo.TRef sig ⟨S_, .f32⟩) main_call142.v3 id,
    StableHlo.TRef.unary main_call142.v3 main_call142.v4 (broadcastInDim S32768x1 ![] bcast_S_S32768x1),
    StableHlo.TRef.binary main_call142.v4 main_call142.v2 main_call142.v5 minimumf,
    StableHlo.nullary main_cst_485 (constant S_ .f32 0xC1F00000#32),
    StableHlo.nullary main_cst_486 (constant S_ .f32 0x41F00000#32),
    StableHlo.TRef.unary (.of main_cst_485 : StableHlo.TRef sig ⟨S_, .f32⟩) main_call143.v0 id,
    StableHlo.TRef.unary main_call143.v0 main_call143.v1 (broadcastInDim S32768x1 ![] bcast_S_S32768x1),
    StableHlo.TRef.binary main_call143.v1 (.of main_v1502 : StableHlo.TRef sig ⟨S32768x1, .f32⟩) main_call143.v2 maximumf,
    StableHlo.TRef.unary (.of main_cst_486 : StableHlo.TRef sig ⟨S_, .f32⟩) main_call143.v3 id,
    StableHlo.TRef.unary main_call143.v3 main_call143.v4 (broadcastInDim S32768x1 ![] bcast_S_S32768x1),
    StableHlo.TRef.binary main_call143.v4 main_call143.v2 main_call143.v5 minimumf,
    StableHlo.unary main_v1503 main_v1505 (Host.sign : (⟨S32768x1, .f32⟩ : BufTy).Contents (Elt F) → (⟨S32768x1, .f32⟩ : BufTy).Contents (Elt F)),
    StableHlo.unary main_v1504 main_v1506 (Host.sign : (⟨S32768x1, .f32⟩ : BufTy).Contents (Elt F) → (⟨S32768x1, .f32⟩ : BufTy).Contents (Elt F)),
    StableHlo.binary main_v1505 main_v1506 main_v1507 (mulf : (⟨S32768x1, .f32⟩ : BufTy).Contents (Elt F) → (⟨S32768x1, .f32⟩ : BufTy).Contents (Elt F) → (⟨S32768x1, .f32⟩ : BufTy).Contents (Elt F)),
    StableHlo.unary main_v1503 main_v1508 (Host.absf : (⟨S32768x1, .f32⟩ : BufTy).Contents (Elt F) → (⟨S32768x1, .f32⟩ : BufTy).Contents (Elt F)),
    StableHlo.unary main_v1504 main_v1509 (Host.absf : (⟨S32768x1, .f32⟩ : BufTy).Contents (Elt F) → (⟨S32768x1, .f32⟩ : BufTy).Contents (Elt F)),
    StableHlo.binary main_v1508 main_v1509 main_v1510 (minimumf : (⟨S32768x1, .f32⟩ : BufTy).Contents (Elt F) → (⟨S32768x1, .f32⟩ : BufTy).Contents (Elt F) → (⟨S32768x1, .f32⟩ : BufTy).Contents (Elt F)),
    StableHlo.binary main_v1507 main_v1510 main_v1511 (mulf : (⟨S32768x1, .f32⟩ : BufTy).Contents (Elt F) → (⟨S32768x1, .f32⟩ : BufTy).Contents (Elt F) → (⟨S32768x1, .f32⟩ : BufTy).Contents (Elt F)),
    StableHlo.nullary main_cst_487 (constant S_ .f32 0x00000000#32),
    StableHlo.unary main_cst_487 main_v1512 (broadcastInDim S32768x1 ![] bcast_S_S32768x1 : (⟨S_, .f32⟩ : BufTy).Contents (Elt F) → (⟨S32768x1, .f32⟩ : BufTy).Contents (Elt F)),
    StableHlo.nullary main_cst_488 (constant S_ .f32 0x40000000#32),
    StableHlo.unary main_cst_488 main_v1513 (broadcastInDim S32768x1 ![] bcast_S_S32768x1 : (⟨S_, .f32⟩ : BufTy).Contents (Elt F) → (⟨S32768x1, .f32⟩ : BufTy).Contents (Elt F)),
    StableHlo.binary main_v1513 main_v1512 main_v1514 (mulf : (⟨S32768x1, .f32⟩ : BufTy).Contents (Elt F) → (⟨S32768x1, .f32⟩ : BufTy).Contents (Elt F) → (⟨S32768x1, .f32⟩ : BufTy).Contents (Elt F)),
    StableHlo.nullary main_cst_489 (constant S_ .f32 0x3F800000#32),
    StableHlo.unary main_cst_489 main_v1515 (broadcastInDim S32768x1 ![] bcast_S_S32768x1 : (⟨S_, .f32⟩ : BufTy).Contents (Elt F) → (⟨S32768x1, .f32⟩ : BufTy).Contents (Elt F)),
    StableHlo.binary main_v1515 main_v1514 main_v1516 (subf : (⟨S32768x1, .f32⟩ : BufTy).Contents (Elt F) → (⟨S32768x1, .f32⟩ : BufTy).Contents (Elt F) → (⟨S32768x1, .f32⟩ : BufTy).Contents (Elt F)),
    StableHlo.binary main_v1516 main_v1501 main_v1517 (mulf : (⟨S32768x1, .f32⟩ : BufTy).Contents (Elt F) → (⟨S32768x1, .f32⟩ : BufTy).Contents (Elt F) → (⟨S32768x1, .f32⟩ : BufTy).Contents (Elt F)),
    StableHlo.binary main_v1517 main_v1502 main_v1518 (addf : (⟨S32768x1, .f32⟩ : BufTy).Contents (Elt F) → (⟨S32768x1, .f32⟩ : BufTy).Contents (Elt F) → (⟨S32768x1, .f32⟩ : BufTy).Contents (Elt F)),
    StableHlo.nullary main_cst_490 (constant S_ .f32 0x00000000#32),
    StableHlo.unary main_cst_490 main_v1519 (broadcastInDim S32768x1 ![] bcast_S_S32768x1 : (⟨S_, .f32⟩ : BufTy).Contents (Elt F) → (⟨S32768x1, .f32⟩ : BufTy).Contents (Elt F)),
    StableHlo.binary main_v1512 main_v1519 main_v1520 (cmpf .une : (⟨S32768x1, .f32⟩ : BufTy).Contents (Elt F) → (⟨S32768x1, .f32⟩ : BufTy).Contents (Elt F) → (⟨S32768x1, .i1⟩ : BufTy).Contents (Elt F)),
    StableHlo.unary main_v1520 main_v1521 (uitofp .f32 : (⟨S32768x1, .i1⟩ : BufTy).Contents (Elt F) → (⟨S32768x1, .f32⟩ : BufTy).Contents (Elt F)),
    StableHlo.binary main_v1521 main_v1519 main_v1522 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1512 main_v1519 main_v1523 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1493 main_v1522 main_v1524 (cmpf .une : (⟨S32768x2, .f32⟩ : BufTy).Contents (Elt F) → (⟨S32768x2, .f32⟩ : BufTy).Contents (Elt F) → (⟨S32768x2, .i1⟩ : BufTy).Contents (Elt F)),
    StableHlo.unary main_v1524 main_v1525 (uitofp .f32 : (⟨S32768x2, .i1⟩ : BufTy).Contents (Elt F) → (⟨S32768x2, .f32⟩ : BufTy).Contents (Elt F)),
    StableHlo.binary main_v1525 main_v1522 main_v1526 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v1494 main_v1523 main_v1527 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_491 (constant S_ .f32 0x40000000#32),
    StableHlo.unary main_cst_491 main_v1528 (broadcastInDim S32768x4 ![] bcast_S_S32768x4 : (⟨S_, .f32⟩ : BufTy).Contents (Elt F) → (⟨S32768x4, .f32⟩ : BufTy).Contents (Elt F)),
    StableHlo.binary main_v1528 main_v1526 main_v1529 (mulf : (⟨S32768x4, .f32⟩ : BufTy).Contents (Elt F) → (⟨S32768x4, .f32⟩ : BufTy).Contents (Elt F) → (⟨S32768x4, .f32⟩ : BufTy).Contents (Elt F)),
    StableHlo.nullary main_cst_492 (constant S_ .f32 0x3F800000#32),
    StableHlo.unary main_cst_492 main_v1530 (broadcastInDim S32768x4 ![] bcast_S_S32768x4 : (⟨S_, .f32⟩ : BufTy).Contents (Elt F) → (⟨S32768x4, .f32⟩ : BufTy).Contents (Elt F)),
    StableHlo.binary main_v1530 main_v1529 main_v1531 (subf : (⟨S32768x4, .f32⟩ : BufTy).Contents (Elt F) → (⟨S32768x4, .f32⟩ : BufTy).Contents (Elt F) → (⟨S32768x4, .f32⟩ : BufTy).Contents (Elt F)),
    StableHlo.binary main_v1531 main_v1450 main_v1532 (mulf : (⟨S32768x4, .f32⟩ : BufTy).Contents (Elt F) → (⟨S32768x4, .f32⟩ : BufTy).Contents (Elt F) → (⟨S32768x4, .f32⟩ : BufTy).Contents (Elt F)),
    StableHlo.binary main_v1532 main_v1451 main_v1533 (addf : (⟨S32768x4, .f32⟩ : BufTy).Contents (Elt F) → (⟨S32768x4, .f32⟩ : BufTy).Contents (Elt F) → (⟨S32768x4, .f32⟩ : BufTy).Contents (Elt F)),
    StableHlo.unary main_v1533 main_v1534 ((extractStridedSlice S32768x2 ![0, 0] · slices_S32768x4_S32768x2_0_0) : (⟨S32768x4, .f32⟩ : BufTy).Contents (Elt F) → (⟨S32768x2, .f32⟩ : BufTy).Contents (Elt F)),
    StableHlo.unary main_v1533 main_v1535 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_493 (constant S_ .f32 0xC1F00000#32),
    StableHlo.nullary main_cst_494 (constant S_ .f32 0x41F00000#32),
    StableHlo.TRef.unary (.of main_cst_493 : StableHlo.TRef sig ⟨S_, .f32⟩) main_call144.v0 id,
    StableHlo.TRef.unary main_call144.v0 main_call144.v1 (broadcastInDim S32768x2 ![] bcast_S_S32768x2),
    StableHlo.TRef.binary main_call144.v1 (.of main_v1534 : StableHlo.TRef sig ⟨S32768x2, .f32⟩) main_call144.v2 maximumf,
    StableHlo.TRef.unary (.of main_cst_494 : StableHlo.TRef sig ⟨S_, .f32⟩) main_call144.v3 id,
    StableHlo.TRef.unary main_call144.v3 main_call144.v4 (broadcastInDim S32768x2 ![] bcast_S_S32768x2),
    StableHlo.TRef.binary main_call144.v4 main_call144.v2 main_call144.v5 minimumf,
    StableHlo.nullary main_cst_495 (constant S_ .f32 0xC1F00000#32),
    StableHlo.nullary main_cst_496 (constant S_ .f32 0x41F00000#32),
    StableHlo.TRef.unary (.of main_cst_495 : StableHlo.TRef sig ⟨S_, .f32⟩) main_call145.v0 id,
    StableHlo.TRef.unary main_call145.v0 main_call145.v1 (broadcastInDim S32768x2 ![] bcast_S_S32768x2),
    StableHlo.TRef.binary main_call145.v1 (.of main_v1535 : StableHlo.TRef sig ⟨S32768x2, .f32⟩) main_call145.v2 maximumf,
    StableHlo.TRef.unary (.of main_cst_496 : StableHlo.TRef sig ⟨S_, .f32⟩) main_call145.v3 id,
    StableHlo.TRef.unary main_call145.v3 main_call145.v4 (broadcastInDim S32768x2 ![] bcast_S_S32768x2),
    StableHlo.TRef.binary main_call145.v4 main_call145.v2 main_call145.v5 minimumf,
    StableHlo.unary main_v1536 main_v1538 (Host.sign : (⟨S32768x2, .f32⟩ : BufTy).Contents (Elt F) → (⟨S32768x2, .f32⟩ : BufTy).Contents (Elt F)),
    StableHlo.unary main_v1537 main_v1539 (Host.sign : (⟨S32768x2, .f32⟩ : BufTy).Contents (Elt F) → (⟨S32768x2, .f32⟩ : BufTy).Contents (Elt F)),
    StableHlo.binary main_v1538 main_v1539 main_v1540 (mulf : (⟨S32768x2, .f32⟩ : BufTy).Contents (Elt F) → (⟨S32768x2, .f32⟩ : BufTy).Contents (Elt F) → (⟨S32768x2, .f32⟩ : BufTy).Contents (Elt F)) ]

set_option maxRecDepth 8192 in
/-- The window is that straight line: each clip function unfolded at its calls, the sequencing reassociated. -/
theorem part_eq_33 (d : Dev nD) : main_part33 (F := F) d = seq ops33 := by
  simp only [main_part33, fn_clip_6.body, fn_clip_5.body, seq, bind_assoc, pure_bind]
  rfl

/-- Every operation of the window touches TensorCore references only. -/
theorem sub_33 : (ops33 : List (HloOp τ sig (Elt F))).Forall fun op => op.bufs ⊆ tcRefs τ sig :=
  ⟨binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., nullary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., binary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub ..⟩

/-- Every operation of the window determines all it writes. -/
theorem fresh_33 : (ops33 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_33 (V : Valuation τ sig (Elt F)) :
    after ops33 V (main_arg0 : DevRef τ sig) = V (main_arg0 : DevRef τ sig) := by
  simp only [after_cons, after_nil]
  rfl

/-- The operations of @main's statements 2041 … 2100, in order (80 of them): a statement's own operation, or, for a call
    of a clip function, the six operations of its body over that call's buffers. -/
abbrev ops34 : List (HloOp τ sig (Elt F)) :=
  [ StableHlo.unary main_v1536 main_v1541 (Host.absf : (⟨S32768x2, .f32⟩ : BufTy).Contents (Elt F) → (⟨S32768x2, .f32⟩ : BufTy).Contents (Elt F)),
    StableHlo.unary main_v1537 main_v1542 (Host.absf : (⟨S32768x2, .f32⟩ : BufTy).Contents (Elt F) → (⟨S32768x2, .f32⟩ : BufTy).Contents (Elt F)),
    StableHlo.binary main_v1541 main_v1542 main_v1543 (minimumf : (⟨S32768x2, .f32⟩ : BufTy).Contents (Elt F) → (⟨S32768x2, .f32⟩ : BufTy).Contents (Elt F) → (⟨S32768x2, .f32⟩ : BufTy).Contents (Elt F)),
    StableHlo.binary main_v1540 main_v1543 main_v1544 (mulf : (⟨S32768x2, .f32⟩ : BufTy).Contents (Elt F) → (⟨S32768x2, .f32⟩ : BufTy).Contents (Elt F) → (⟨S32768x2, .f32⟩ : BufTy).Contents (Elt F)),
    StableHlo.unary main_v1544 main_v1545 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1544 main_v1546 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_497 (constant S_ .f32 0xC1F00000#32),
    StableHlo.nullary main_cst_498 (constant S_ .f32 0x41F00000#32),
    StableHlo.TRef.unary (.of main_cst_497 : StableHlo.TRef sig ⟨S_, .f32⟩) main_call146.v0 id,
    StableHlo.TRef.unary main_call146.v0 main_call146.v1 (broadcastInDim S32768x1 ![] bcast_S_S32768x1),
    StableHlo.TRef.binary main_call146.v1 (.of main_v1545 : StableHlo.TRef sig ⟨S32768x1, .f32⟩) main_call146.v2 maximumf,
    StableHlo.TRef.unary (.of main_cst_498 : StableHlo.TRef sig ⟨S_, .f32⟩) main_call146.v3 id,
    StableHlo.TRef.unary main_call146.v3 main_call146.v4 (broadcastInDim S32768x1 ![] bcast_S_S32768x1),
    StableHlo.TRef.binary main_call146.v4 main_call146.v2 main_call146.v5 minimumf,
    StableHlo.nullary main_cst_499 (constant S_ .f32 0xC1F00000#32),
    StableHlo.nullary main_cst_500 (constant S_ .f32 0x41F00000#32),
    StableHlo.TRef.unary (.of main_cst_499 : StableHlo.TRef sig ⟨S_, .f32⟩) main_call147.v0 id,
    StableHlo.TRef.unary main_call147.v0 main_call147.v1 (broadcastInDim S32768x1 ![] bcast_S_S32768x1),
    StableHlo.TRef.binary main_call147.v1 (.of main_v1546 : StableHlo.TRef sig ⟨S32768x1, .f32⟩) main_call147.v2 maximumf,
    StableHlo.TRef.unary (.of main_cst_500 : StableHlo.TRef sig ⟨S_, .f32⟩) main_call147.v3 id,
    StableHlo.TRef.unary main_call147.v3 main_call147.v4 (broadcastInDim S32768x1 ![] bcast_S_S32768x1),
    StableHlo.TRef.binary main_call147.v4 main_call147.v2 main_call147.v5 minimumf,
    StableHlo.unary main_v1547 main_v1549 (Host.sign : (⟨S32768x1, .f32⟩ : BufTy).Contents (Elt F) → (⟨S32768x1, .f32⟩ : BufTy).Contents (Elt F)),
    StableHlo.unary main_v1548 main_v1550 (Host.sign : (⟨S32768x1, .f32⟩ : BufTy).Contents (Elt F) → (⟨S32768x1, .f32⟩ : BufTy).Contents (Elt F)),
    StableHlo.binary main_v1549 main_v1550 main_v1551 (mulf : (⟨S32768x1, .f32⟩ : BufTy).Contents (Elt F) → (⟨S32768x1, .f32⟩ : BufTy).Contents (Elt F) → (⟨S32768x1, .f32⟩ : BufTy).Contents (Elt F)),
    StableHlo.unary main_v1547 main_v1552 (Host.absf : (⟨S32768x1, .f32⟩ : BufTy).Contents (Elt F) → (⟨S32768x1, .f32⟩ : BufTy).Contents (Elt F)),
    StableHlo.unary main_v1548 main_v1553 (Host.absf : (⟨S32768x1, .f32⟩ : BufTy).Contents (Elt F) → (⟨S32768x1, .f32⟩ : BufTy).Contents (Elt F)),
    StableHlo.binary main_v1552 main_v1553 main_v1554 (minimumf : (⟨S32768x1, .f32⟩ : BufTy).Contents (Elt F) → (⟨S32768x1, .f32⟩ : BufTy).Contents (Elt F) → (⟨S32768x1, .f32⟩ : BufTy).Contents (Elt F)),
    StableHlo.binary main_v1551 main_v1554 main_v1555 (mulf : (⟨S32768x1, .f32⟩ : BufTy).Contents (Elt F) → (⟨S32768x1, .f32⟩ : BufTy).Contents (Elt F) → (⟨S32768x1, .f32⟩ : BufTy).Contents (Elt F)),
    StableHlo.nullary main_cst_501 (constant S_ .f32 0x00000000#32),
    StableHlo.unary main_cst_501 main_v1556 (broadcastInDim S32768x1 ![] bcast_S_S32768x1 : (⟨S_, .f32⟩ : BufTy).Contents (Elt F) → (⟨S32768x1, .f32⟩ : BufTy).Contents (Elt F)),
    StableHlo.nullary main_cst_502 (constant S_ .f32 0x40000000#32),
    StableHlo.unary main_cst_502 main_v1557 (broadcastInDim S32768x1 ![] bcast_S_S32768x1 : (⟨S_, .f32⟩ : BufTy).Contents (Elt F) → (⟨S32768x1, .f32⟩ : BufTy).Contents (Elt F)),
    StableHlo.binary main_v1557 main_v1556 main_v1558 (mulf : (⟨S32768x1, .f32⟩ : BufTy).Contents (Elt F) → (⟨S32768x1, .f32⟩ : BufTy).Contents (Elt F) → (⟨S32768x1, .f32⟩ : BufTy).Contents (Elt F)),
    StableHlo.nullary main_cst_503 (constant S_ .f32 0x3F800000#32),
    StableHlo.unary main_cst_503 main_v1559 (broadcastInDim S32768x1 ![] bcast_S_S32768x1 : (⟨S_, .f32⟩ : BufTy).Contents (Elt F) → (⟨S32768x1, .f32⟩ : BufTy).Contents (Elt F)),
    StableHlo.binary main_v1559 main_v1558 main_v1560 (subf : (⟨S32768x1, .f32⟩ : BufTy).Contents (Elt F) → (⟨S32768x1, .f32⟩ : BufTy).Contents (Elt F) → (⟨S32768x1, .f32⟩ : BufTy).Contents (Elt F)),
    StableHlo.binary main_v1560 main_v1545 main_v1561 (mulf : (⟨S32768x1, .f32⟩ : BufTy).Contents (Elt F) → (⟨S32768x1, .f32⟩ : BufTy).Contents (Elt F) → (⟨S32768x1, .f32⟩ : BufTy).Contents (Elt F)),
    StableHlo.binary main_v1561 main_v1546 main_v1562 (addf : (⟨S32768x1, .f32⟩ : BufTy).Contents (Elt F) → (⟨S32768x1, .f32⟩ : BufTy).Contents (Elt F) → (⟨S32768x1, .f32⟩ : BufTy).Contents (Elt F)),
    StableHlo.nullary main_cst_504 (constant S_ .f32 0x00000000#32),
    StableHlo.unary main_cst_504 main_v1563 (broadcastInDim S32768x1 ![] bcast_S_S32768x1 : (⟨S_, .f32⟩ : BufTy).Contents (Elt F) → (⟨S32768x1, .f32⟩ : BufTy).Contents (Elt F)),
    StableHlo.binary main_v1556 main_v1563 main_v1564 (cmpf .une : (⟨S32768x1, .f32⟩ : BufTy).Contents (Elt F) → (⟨S32768x1, .f32⟩ : BufTy).Contents (Elt F) → (⟨S32768x1, .i1⟩ : BufTy).Contents (Elt F)),
    StableHlo.unary main_v1564 main_v1565 (uitofp .f32 : (⟨S32768x1, .i1⟩ : BufTy).Contents (Elt F) → (⟨S32768x1, .f32⟩ : BufTy).Contents (Elt F)),
    StableHlo.binary main_v1565 main_v1563 main_v1566 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1556 main_v1563 main_v1567 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_505 (constant S_ .f32 0x40000000#32),
    StableHlo.unary main_cst_505 main_v1568 (broadcastInDim S32768x2 ![] bcast_S_S32768x2 : (⟨S_, .f32⟩ : BufTy).Contents (Elt F) → (⟨S32768x2, .f32⟩ : BufTy).Contents (Elt F)),
    StableHlo.binary main_v1568 main_v1566 main_v1569 (mulf : (⟨S32768x2, .f32⟩ : BufTy).Contents (Elt F) → (⟨S32768x2, .f32⟩ : BufTy).Contents (Elt F) → (⟨S32768x2, .f32⟩ : BufTy).Contents (Elt F)),
    StableHlo.nullary main_cst_506 (constant S_ .f32 0x3F800000#32),
    StableHlo.unary main_cst_506 main_v1570 (broadcastInDim S32768x2 ![] bcast_S_S32768x2 : (⟨S_, .f32⟩ : BufTy).Contents (Elt F) → (⟨S32768x2, .f32⟩ : BufTy).Contents (Elt F)),
    StableHlo.binary main_v1570 main_v1569 main_v1571 (subf : (⟨S32768x2, .f32⟩ : BufTy).Contents (Elt F) → (⟨S32768x2, .f32⟩ : BufTy).Contents (Elt F) → (⟨S32768x2, .f32⟩ : BufTy).Contents (Elt F)),
    StableHlo.binary main_v1571 main_v1534 main_v1572 (mulf : (⟨S32768x2, .f32⟩ : BufTy).Contents (Elt F) → (⟨S32768x2, .f32⟩ : BufTy).Contents (Elt F) → (⟨S32768x2, .f32⟩ : BufTy).Contents (Elt F)),
    StableHlo.binary main_v1572 main_v1535 main_v1573 (addf : (⟨S32768x2, .f32⟩ : BufTy).Contents (Elt F) → (⟨S32768x2, .f32⟩ : BufTy).Contents (Elt F) → (⟨S32768x2, .f32⟩ : BufTy).Contents (Elt F)),
    StableHlo.unary main_v1573 main_v1574 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1573 main_v1575 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_507 (constant S_ .f32 0xC1F00000#32),
    StableHlo.nullary main_cst_508 (constant S_ .f32 0x41F00000#32),
    StableHlo.TRef.unary (.of main_cst_507 : StableHlo.TRef sig ⟨S_, .f32⟩) main_call148.v0 id,
    StableHlo.TRef.unary main_call148.v0 main_call148.v1 (broadcastInDim S32768x1 ![] bcast_S_S32768x1),
    StableHlo.TRef.binary main_call148.v1 (.of main_v1574 : StableHlo.TRef sig ⟨S32768x1, .f32⟩) main_call148.v2 maximumf,
    StableHlo.TRef.unary (.of main_cst_508 : StableHlo.TRef sig ⟨S_, .f32⟩) main_call148.v3 id,
    StableHlo.TRef.unary main_call148.v3 main_call148.v4 (broadcastInDim S32768x1 ![] bcast_S_S32768x1),
    StableHlo.TRef.binary main_call148.v4 main_call148.v2 main_call148.v5 minimumf,
    StableHlo.nullary main_cst_509 (constant S_ .f32 0xC1F00000#32),
    StableHlo.nullary main_cst_510 (constant S_ .f32 0x41F00000#32),
    StableHlo.TRef.unary (.of main_cst_509 : StableHlo.TRef sig ⟨S_, .f32⟩) main_call149.v0 id,
    StableHlo.TRef.unary main_call149.v0 main_call149.v1 (broadcastInDim S32768x1 ![] bcast_S_S32768x1),
    StableHlo.TRef.binary main_call149.v1 (.of main_v1575 : StableHlo.TRef sig ⟨S32768x1, .f32⟩) main_call149.v2 maximumf,
    StableHlo.TRef.unary (.of main_cst_510 : StableHlo.TRef sig ⟨S_, .f32⟩) main_call149.v3 id,
    StableHlo.TRef.unary main_call149.v3 main_call149.v4 (broadcastInDim S32768x1 ![] bcast_S_S32768x1),
    StableHlo.TRef.binary main_call149.v4 main_call149.v2 main_call149.v5 minimumf,
    StableHlo.unary main_v1576 main_v1578 (Host.sign : (⟨S32768x1, .f32⟩ : BufTy).Contents (Elt F) → (⟨S32768x1, .f32⟩ : BufTy).Contents (Elt F)),
    StableHlo.unary main_v1577 main_v1579 (Host.sign : (⟨S32768x1, .f32⟩ : BufTy).Contents (Elt F) → (⟨S32768x1, .f32⟩ : BufTy).Contents (Elt F)),
    StableHlo.binary main_v1578 main_v1579 main_v1580 (mulf : (⟨S32768x1, .f32⟩ : BufTy).Contents (Elt F) → (⟨S32768x1, .f32⟩ : BufTy).Contents (Elt F) → (⟨S32768x1, .f32⟩ : BufTy).Contents (Elt F)),
    StableHlo.unary main_v1576 main_v1581 (Host.absf : (⟨S32768x1, .f32⟩ : BufTy).Contents (Elt F) → (⟨S32768x1, .f32⟩ : BufTy).Contents (Elt F)),
    StableHlo.unary main_v1577 main_v1582 (Host.absf : (⟨S32768x1, .f32⟩ : BufTy).Contents (Elt F) → (⟨S32768x1, .f32⟩ : BufTy).Contents (Elt F)),
    StableHlo.binary main_v1581 main_v1582 main_v1583 (minimumf : (⟨S32768x1, .f32⟩ : BufTy).Contents (Elt F) → (⟨S32768x1, .f32⟩ : BufTy).Contents (Elt F) → (⟨S32768x1, .f32⟩ : BufTy).Contents (Elt F)),
    StableHlo.binary main_v1580 main_v1583 main_v1584 (mulf : (⟨S32768x1, .f32⟩ : BufTy).Contents (Elt F) → (⟨S32768x1, .f32⟩ : BufTy).Contents (Elt F) → (⟨S32768x1, .f32⟩ : BufTy).Contents (Elt F)),
    StableHlo.nullary main_cst_511 (constant S_ .f32 0x00000000#32),
    StableHlo.unary main_cst_511 main_v1585 (broadcastInDim S32768x1 ![] bcast_S_S32768x1 : (⟨S_, .f32⟩ : BufTy).Contents (Elt F) → (⟨S32768x1, .f32⟩ : BufTy).Contents (Elt F)) ]

set_option maxRecDepth 8192 in
/-- The window is that straight line: each clip function unfolded at its calls, the sequencing reassociated. -/
theorem part_eq_34 (d : Dev nD) : main_part34 (F := F) d = seq ops34 := by
  simp only [main_part34, fn_clip_6.body, seq, bind_assoc, pure_bind]
  rfl

/-- Every operation of the window touches TensorCore references only. -/
theorem sub_34 : (ops34 : List (HloOp τ sig (Elt F))).Forall fun op => op.bufs ⊆ tcRefs τ sig :=
  ⟨unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., nullary_bufs_sub ..,
    unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub ..⟩

/-- Every operation of the window determines all it writes. -/
theorem fresh_34 : (ops34 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_34 (V : Valuation τ sig (Elt F)) :
    after ops34 V (main_arg0 : DevRef τ sig) = V (main_arg0 : DevRef τ sig) := by
  simp only [after_cons, after_nil]
  rfl

/-- The operations of @main's statements 2101 … 2160, in order (80 of them): a statement's own operation, or, for a call
    of a clip function, the six operations of its body over that call's buffers. -/
abbrev ops35 : List (HloOp τ sig (Elt F)) :=
  [ StableHlo.nullary main_cst_512 (constant S_ .f32 0x40000000#32),
    StableHlo.unary main_cst_512 main_v1586 (broadcastInDim S32768x1 ![] bcast_S_S32768x1 : (⟨S_, .f32⟩ : BufTy).Contents (Elt F) → (⟨S32768x1, .f32⟩ : BufTy).Contents (Elt F)),
    StableHlo.binary main_v1586 main_v1585 main_v1587 (mulf : (⟨S32768x1, .f32⟩ : BufTy).Contents (Elt F) → (⟨S32768x1, .f32⟩ : BufTy).Contents (Elt F) → (⟨S32768x1, .f32⟩ : BufTy).Contents (Elt F)),
    StableHlo.nullary main_cst_513 (constant S_ .f32 0x3F800000#32),
    StableHlo.unary main_cst_513 main_v1588 (broadcastInDim S32768x1 ![] bcast_S_S32768x1 : (⟨S_, .f32⟩ : BufTy).Contents (Elt F) → (⟨S32768x1, .f32⟩ : BufTy).Contents (Elt F)),
    StableHlo.binary main_v1588 main_v1587 main_v1589 (subf : (⟨S32768x1, .f32⟩ : BufTy).Contents (Elt F) → (⟨S32768x1, .f32⟩ : BufTy).Contents (Elt F) → (⟨S32768x1, .f32⟩ : BufTy).Contents (Elt F)),
    StableHlo.binary main_v1589 main_v1574 main_v1590 (mulf : (⟨S32768x1, .f32⟩ : BufTy).Contents (Elt F) → (⟨S32768x1, .f32⟩ : BufTy).Contents (Elt F) → (⟨S32768x1, .f32⟩ : BufTy).Contents (Elt F)),
    StableHlo.binary main_v1590 main_v1575 main_v1591 (addf : (⟨S32768x1, .f32⟩ : BufTy).Contents (Elt F) → (⟨S32768x1, .f32⟩ : BufTy).Contents (Elt F) → (⟨S32768x1, .f32⟩ : BufTy).Contents (Elt F)),
    StableHlo.nullary main_cst_514 (constant S_ .f32 0x00000000#32),
    StableHlo.unary main_cst_514 main_v1592 (broadcastInDim S32768x1 ![] bcast_S_S32768x1 : (⟨S_, .f32⟩ : BufTy).Contents (Elt F) → (⟨S32768x1, .f32⟩ : BufTy).Contents (Elt F)),
    StableHlo.binary main_v1585 main_v1592 main_v1593 (cmpf .une : (⟨S32768x1, .f32⟩ : BufTy).Contents (Elt F) → (⟨S32768x1, .f32⟩ : BufTy).Contents (Elt F) → (⟨S32768x1, .i1⟩ : BufTy).Contents (Elt F)),
    StableHlo.unary main_v1593 main_v1594 (uitofp .f32 : (⟨S32768x1, .i1⟩ : BufTy).Contents (Elt F) → (⟨S32768x1, .f32⟩ : BufTy).Contents (Elt F)),
    StableHlo.binary main_v1594 main_v1592 main_v1595 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1585 main_v1592 main_v1596 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1566 main_v1595 main_v1597 (cmpf .une : (⟨S32768x2, .f32⟩ : BufTy).Contents (Elt F) → (⟨S32768x2, .f32⟩ : BufTy).Contents (Elt F) → (⟨S32768x2, .i1⟩ : BufTy).Contents (Elt F)),
    StableHlo.unary main_v1597 main_v1598 (uitofp .f32 : (⟨S32768x2, .i1⟩ : BufTy).Contents (Elt F) → (⟨S32768x2, .f32⟩ : BufTy).Contents (Elt F)),
    StableHlo.binary main_v1598 main_v1595 main_v1599 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v1567 main_v1596 main_v1600 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v1526 main_v1599 main_v1601 (cmpf .une : (⟨S32768x4, .f32⟩ : BufTy).Contents (Elt F) → (⟨S32768x4, .f32⟩ : BufTy).Contents (Elt F) → (⟨S32768x4, .i1⟩ : BufTy).Contents (Elt F)),
    StableHlo.unary main_v1601 main_v1602 (uitofp .f32 : (⟨S32768x4, .i1⟩ : BufTy).Contents (Elt F) → (⟨S32768x4, .f32⟩ : BufTy).Contents (Elt F)),
    StableHlo.binary main_v1602 main_v1599 main_v1603 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v1527 main_v1600 main_v1604 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.nullary main_cst_515 (constant S_ .f32 0x40000000#32),
    StableHlo.unary main_cst_515 main_v1605 (broadcastInDim S32768x8 ![] bcast_S_S32768x8 : (⟨S_, .f32⟩ : BufTy).Contents (Elt F) → (⟨S32768x8, .f32⟩ : BufTy).Contents (Elt F)),
    StableHlo.binary main_v1605 main_v1603 main_v1606 (mulf : (⟨S32768x8, .f32⟩ : BufTy).Contents (Elt F) → (⟨S32768x8, .f32⟩ : BufTy).Contents (Elt F) → (⟨S32768x8, .f32⟩ : BufTy).Contents (Elt F)),
    StableHlo.nullary main_cst_516 (constant S_ .f32 0x3F800000#32),
    StableHlo.unary main_cst_516 main_v1607 (broadcastInDim S32768x8 ![] bcast_S_S32768x8 : (⟨S_, .f32⟩ : BufTy).Contents (Elt F) → (⟨S32768x8, .f32⟩ : BufTy).Contents (Elt F)),
    StableHlo.binary main_v1607 main_v1606 main_v1608 (subf : (⟨S32768x8, .f32⟩ : BufTy).Contents (Elt F) → (⟨S32768x8, .f32⟩ : BufTy).Contents (Elt F) → (⟨S32768x8, .f32⟩ : BufTy).Contents (Elt F)),
    StableHlo.binary main_v1608 main_v1439 main_v1609 (mulf : (⟨S32768x8, .f32⟩ : BufTy).Contents (Elt F) → (⟨S32768x8, .f32⟩ : BufTy).Contents (Elt F) → (⟨S32768x8, .f32⟩ : BufTy).Contents (Elt F)),
    StableHlo.binary main_v1609 main_v1440 main_v1610 (addf : (⟨S32768x8, .f32⟩ : BufTy).Contents (Elt F) → (⟨S32768x8, .f32⟩ : BufTy).Contents (Elt F) → (⟨S32768x8, .f32⟩ : BufTy).Contents (Elt F)),
    StableHlo.unary main_v1610 main_v1611 ((extractStridedSlice S32768x4 ![0, 0] · slices_S32768x8_S32768x4_0_0) : (⟨S32768x8, .f32⟩ : BufTy).Contents (Elt F) → (⟨S32768x4, .f32⟩ : BufTy).Contents (Elt F)),
    StableHlo.unary main_v1610 main_v1612 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_517 (constant S_ .f32 0xC1F00000#32),
    StableHlo.nullary main_cst_518 (constant S_ .f32 0x41F00000#32),
    StableHlo.TRef.unary (.of main_cst_517 : StableHlo.TRef sig ⟨S_, .f32⟩) main_call150.v0 id,
    StableHlo.TRef.unary main_call150.v0 main_call150.v1 (broadcastInDim S32768x4 ![] bcast_S_S32768x4),
    StableHlo.TRef.binary main_call150.v1 (.of main_v1611 : StableHlo.TRef sig ⟨S32768x4, .f32⟩) main_call150.v2 maximumf,
    StableHlo.TRef.unary (.of main_cst_518 : StableHlo.TRef sig ⟨S_, .f32⟩) main_call150.v3 id,
    StableHlo.TRef.unary main_call150.v3 main_call150.v4 (broadcastInDim S32768x4 ![] bcast_S_S32768x4),
    StableHlo.TRef.binary main_call150.v4 main_call150.v2 main_call150.v5 minimumf,
    StableHlo.nullary main_cst_519 (constant S_ .f32 0xC1F00000#32),
    StableHlo.nullary main_cst_520 (constant S_ .f32 0x41F00000#32),
    StableHlo.TRef.unary (.of main_cst_519 : StableHlo.TRef sig ⟨S_, .f32⟩) main_call151.v0 id,
    StableHlo.TRef.unary main_call151.v0 main_call151.v1 (broadcastInDim S32768x4 ![] bcast_S_S32768x4),
    StableHlo.TRef.binary main_call151.v1 (.of main_v1612 : StableHlo.TRef sig ⟨S32768x4, .f32⟩) main_call151.v2 maximumf,
    StableHlo.TRef.unary (.of main_cst_520 : StableHlo.TRef sig ⟨S_, .f32⟩) main_call151.v3 id,
    StableHlo.TRef.unary main_call151.v3 main_call151.v4 (broadcastInDim S32768x4 ![] bcast_S_S32768x4),
    StableHlo.TRef.binary main_call151.v4 main_call151.v2 main_call151.v5 minimumf,
    StableHlo.unary main_v1613 main_v1615 (Host.sign : (⟨S32768x4, .f32⟩ : BufTy).Contents (Elt F) → (⟨S32768x4, .f32⟩ : BufTy).Contents (Elt F)),
    StableHlo.unary main_v1614 main_v1616 (Host.sign : (⟨S32768x4, .f32⟩ : BufTy).Contents (Elt F) → (⟨S32768x4, .f32⟩ : BufTy).Contents (Elt F)),
    StableHlo.binary main_v1615 main_v1616 main_v1617 (mulf : (⟨S32768x4, .f32⟩ : BufTy).Contents (Elt F) → (⟨S32768x4, .f32⟩ : BufTy).Contents (Elt F) → (⟨S32768x4, .f32⟩ : BufTy).Contents (Elt F)),
    StableHlo.unary main_v1613 main_v1618 (Host.absf : (⟨S32768x4, .f32⟩ : BufTy).Contents (Elt F) → (⟨S32768x4, .f32⟩ : BufTy).Contents (Elt F)),
    StableHlo.unary main_v1614 main_v1619 (Host.absf : (⟨S32768x4, .f32⟩ : BufTy).Contents (Elt F) → (⟨S32768x4, .f32⟩ : BufTy).Contents (Elt F)),
    StableHlo.binary main_v1618 main_v1619 main_v1620 (minimumf : (⟨S32768x4, .f32⟩ : BufTy).Contents (Elt F) → (⟨S32768x4, .f32⟩ : BufTy).Contents (Elt F) → (⟨S32768x4, .f32⟩ : BufTy).Contents (Elt F)),
    StableHlo.binary main_v1617 main_v1620 main_v1621 (mulf : (⟨S32768x4, .f32⟩ : BufTy).Contents (Elt F) → (⟨S32768x4, .f32⟩ : BufTy).Contents (Elt F) → (⟨S32768x4, .f32⟩ : BufTy).Contents (Elt F)),
    StableHlo.unary main_v1621 main_v1622 ((extractStridedSlice S32768x2 ![0, 0] · slices_S32768x4_S32768x2_0_0) : (⟨S32768x4, .f32⟩ : BufTy).Contents (Elt F) → (⟨S32768x2, .f32⟩ : BufTy).Contents (Elt F)),
    StableHlo.unary main_v1621 main_v1623 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_521 (constant S_ .f32 0xC1F00000#32),
    StableHlo.nullary main_cst_522 (constant S_ .f32 0x41F00000#32),
    StableHlo.TRef.unary (.of main_cst_521 : StableHlo.TRef sig ⟨S_, .f32⟩) main_call152.v0 id,
    StableHlo.TRef.unary main_call152.v0 main_call152.v1 (broadcastInDim S32768x2 ![] bcast_S_S32768x2),
    StableHlo.TRef.binary main_call152.v1 (.of main_v1622 : StableHlo.TRef sig ⟨S32768x2, .f32⟩) main_call152.v2 maximumf,
    StableHlo.TRef.unary (.of main_cst_522 : StableHlo.TRef sig ⟨S_, .f32⟩) main_call152.v3 id,
    StableHlo.TRef.unary main_call152.v3 main_call152.v4 (broadcastInDim S32768x2 ![] bcast_S_S32768x2),
    StableHlo.TRef.binary main_call152.v4 main_call152.v2 main_call152.v5 minimumf,
    StableHlo.nullary main_cst_523 (constant S_ .f32 0xC1F00000#32),
    StableHlo.nullary main_cst_524 (constant S_ .f32 0x41F00000#32),
    StableHlo.TRef.unary (.of main_cst_523 : StableHlo.TRef sig ⟨S_, .f32⟩) main_call153.v0 id,
    StableHlo.TRef.unary main_call153.v0 main_call153.v1 (broadcastInDim S32768x2 ![] bcast_S_S32768x2),
    StableHlo.TRef.binary main_call153.v1 (.of main_v1623 : StableHlo.TRef sig ⟨S32768x2, .f32⟩) main_call153.v2 maximumf,
    StableHlo.TRef.unary (.of main_cst_524 : StableHlo.TRef sig ⟨S_, .f32⟩) main_call153.v3 id,
    StableHlo.TRef.unary main_call153.v3 main_call153.v4 (broadcastInDim S32768x2 ![] bcast_S_S32768x2),
    StableHlo.TRef.binary main_call153.v4 main_call153.v2 main_call153.v5 minimumf,
    StableHlo.unary main_v1624 main_v1626 (Host.sign : (⟨S32768x2, .f32⟩ : BufTy).Contents (Elt F) → (⟨S32768x2, .f32⟩ : BufTy).Contents (Elt F)),
    StableHlo.unary main_v1625 main_v1627 (Host.sign : (⟨S32768x2, .f32⟩ : BufTy).Contents (Elt F) → (⟨S32768x2, .f32⟩ : BufTy).Contents (Elt F)),
    StableHlo.binary main_v1626 main_v1627 main_v1628 (mulf : (⟨S32768x2, .f32⟩ : BufTy).Contents (Elt F) → (⟨S32768x2, .f32⟩ : BufTy).Contents (Elt F) → (⟨S32768x2, .f32⟩ : BufTy).Contents (Elt F)),
    StableHlo.unary main_v1624 main_v1629 (Host.absf : (⟨S32768x2, .f32⟩ : BufTy).Contents (Elt F) → (⟨S32768x2, .f32⟩ : BufTy).Contents (Elt F)),
    StableHlo.unary main_v1625 main_v1630 (Host.absf : (⟨S32768x2, .f32⟩ : BufTy).Contents (Elt F) → (⟨S32768x2, .f32⟩ : BufTy).Contents (Elt F)),
    StableHlo.binary main_v1629 main_v1630 main_v1631 (minimumf : (⟨S32768x2, .f32⟩ : BufTy).Contents (Elt F) → (⟨S32768x2, .f32⟩ : BufTy).Contents (Elt F) → (⟨S32768x2, .f32⟩ : BufTy).Contents (Elt F)),
    StableHlo.binary main_v1628 main_v1631 main_v1632 (mulf : (⟨S32768x2, .f32⟩ : BufTy).Contents (Elt F) → (⟨S32768x2, .f32⟩ : BufTy).Contents (Elt F) → (⟨S32768x2, .f32⟩ : BufTy).Contents (Elt F)) ]

set_option maxRecDepth 8192 in
/-- The window is that straight line: each clip function unfolded at its calls, the sequencing reassociated. -/
theorem part_eq_35 (d : Dev nD) : main_part35 (F := F) d = seq ops35 := by
  simp only [main_part35, fn_clip_4.body, fn_clip_5.body, seq, bind_assoc, pure_bind]
  rfl

/-- Every operation of the window touches TensorCore references only. -/
theorem sub_35 : (ops35 : List (HloOp τ sig (Elt F))).Forall fun op => op.bufs ⊆ tcRefs τ sig :=
  ⟨nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., binary_bufs_sub .., binary_bufs_sub .., unary_bufs_sub .., binary_bufs_sub .., binary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub ..⟩

/-- Every operation of the window determines all it writes. -/
theorem fresh_35 : (ops35 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_35 (V : Valuation τ sig (Elt F)) :
    after ops35 V (main_arg0 : DevRef τ sig) = V (main_arg0 : DevRef τ sig) := by
  simp only [after_cons, after_nil]
  rfl

/-- The operations of @main's statements 2161 … 2220, in order (80 of them): a statement's own operation, or, for a call
    of a clip function, the six operations of its body over that call's buffers. -/
abbrev ops36 : List (HloOp τ sig (Elt F)) :=
  [ StableHlo.unary main_v1632 main_v1633 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1632 main_v1634 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_525 (constant S_ .f32 0xC1F00000#32),
    StableHlo.nullary main_cst_526 (constant S_ .f32 0x41F00000#32),
    StableHlo.TRef.unary (.of main_cst_525 : StableHlo.TRef sig ⟨S_, .f32⟩) main_call154.v0 id,
    StableHlo.TRef.unary main_call154.v0 main_call154.v1 (broadcastInDim S32768x1 ![] bcast_S_S32768x1),
    StableHlo.TRef.binary main_call154.v1 (.of main_v1633 : StableHlo.TRef sig ⟨S32768x1, .f32⟩) main_call154.v2 maximumf,
    StableHlo.TRef.unary (.of main_cst_526 : StableHlo.TRef sig ⟨S_, .f32⟩) main_call154.v3 id,
    StableHlo.TRef.unary main_call154.v3 main_call154.v4 (broadcastInDim S32768x1 ![] bcast_S_S32768x1),
    StableHlo.TRef.binary main_call154.v4 main_call154.v2 main_call154.v5 minimumf,
    StableHlo.nullary main_cst_527 (constant S_ .f32 0xC1F00000#32),
    StableHlo.nullary main_cst_528 (constant S_ .f32 0x41F00000#32),
    StableHlo.TRef.unary (.of main_cst_527 : StableHlo.TRef sig ⟨S_, .f32⟩) main_call155.v0 id,
    StableHlo.TRef.unary main_call155.v0 main_call155.v1 (broadcastInDim S32768x1 ![] bcast_S_S32768x1),
    StableHlo.TRef.binary main_call155.v1 (.of main_v1634 : StableHlo.TRef sig ⟨S32768x1, .f32⟩) main_call155.v2 maximumf,
    StableHlo.TRef.unary (.of main_cst_528 : StableHlo.TRef sig ⟨S_, .f32⟩) main_call155.v3 id,
    StableHlo.TRef.unary main_call155.v3 main_call155.v4 (broadcastInDim S32768x1 ![] bcast_S_S32768x1),
    StableHlo.TRef.binary main_call155.v4 main_call155.v2 main_call155.v5 minimumf,
    StableHlo.unary main_v1635 main_v1637 (Host.sign : (⟨S32768x1, .f32⟩ : BufTy).Contents (Elt F) → (⟨S32768x1, .f32⟩ : BufTy).Contents (Elt F)),
    StableHlo.unary main_v1636 main_v1638 (Host.sign : (⟨S32768x1, .f32⟩ : BufTy).Contents (Elt F) → (⟨S32768x1, .f32⟩ : BufTy).Contents (Elt F)),
    StableHlo.binary main_v1637 main_v1638 main_v1639 (mulf : (⟨S32768x1, .f32⟩ : BufTy).Contents (Elt F) → (⟨S32768x1, .f32⟩ : BufTy).Contents (Elt F) → (⟨S32768x1, .f32⟩ : BufTy).Contents (Elt F)),
    StableHlo.unary main_v1635 main_v1640 (Host.absf : (⟨S32768x1, .f32⟩ : BufTy).Contents (Elt F) → (⟨S32768x1, .f32⟩ : BufTy).Contents (Elt F)),
    StableHlo.unary main_v1636 main_v1641 (Host.absf : (⟨S32768x1, .f32⟩ : BufTy).Contents (Elt F) → (⟨S32768x1, .f32⟩ : BufTy).Contents (Elt F)),
    StableHlo.binary main_v1640 main_v1641 main_v1642 (minimumf : (⟨S32768x1, .f32⟩ : BufTy).Contents (Elt F) → (⟨S32768x1, .f32⟩ : BufTy).Contents (Elt F) → (⟨S32768x1, .f32⟩ : BufTy).Contents (Elt F)),
    StableHlo.binary main_v1639 main_v1642 main_v1643 (mulf : (⟨S32768x1, .f32⟩ : BufTy).Contents (Elt F) → (⟨S32768x1, .f32⟩ : BufTy).Contents (Elt F) → (⟨S32768x1, .f32⟩ : BufTy).Contents (Elt F)),
    StableHlo.nullary main_cst_529 (constant S_ .f32 0x00000000#32),
    StableHlo.unary main_cst_529 main_v1644 (broadcastInDim S32768x1 ![] bcast_S_S32768x1 : (⟨S_, .f32⟩ : BufTy).Contents (Elt F) → (⟨S32768x1, .f32⟩ : BufTy).Contents (Elt F)),
    StableHlo.nullary main_cst_530 (constant S_ .f32 0x40000000#32),
    StableHlo.unary main_cst_530 main_v1645 (broadcastInDim S32768x1 ![] bcast_S_S32768x1 : (⟨S_, .f32⟩ : BufTy).Contents (Elt F) → (⟨S32768x1, .f32⟩ : BufTy).Contents (Elt F)),
    StableHlo.binary main_v1645 main_v1644 main_v1646 (mulf : (⟨S32768x1, .f32⟩ : BufTy).Contents (Elt F) → (⟨S32768x1, .f32⟩ : BufTy).Contents (Elt F) → (⟨S32768x1, .f32⟩ : BufTy).Contents (Elt F)),
    StableHlo.nullary main_cst_531 (constant S_ .f32 0x3F800000#32),
    StableHlo.unary main_cst_531 main_v1647 (broadcastInDim S32768x1 ![] bcast_S_S32768x1 : (⟨S_, .f32⟩ : BufTy).Contents (Elt F) → (⟨S32768x1, .f32⟩ : BufTy).Contents (Elt F)),
    StableHlo.binary main_v1647 main_v1646 main_v1648 (subf : (⟨S32768x1, .f32⟩ : BufTy).Contents (Elt F) → (⟨S32768x1, .f32⟩ : BufTy).Contents (Elt F) → (⟨S32768x1, .f32⟩ : BufTy).Contents (Elt F)),
    StableHlo.binary main_v1648 main_v1633 main_v1649 (mulf : (⟨S32768x1, .f32⟩ : BufTy).Contents (Elt F) → (⟨S32768x1, .f32⟩ : BufTy).Contents (Elt F) → (⟨S32768x1, .f32⟩ : BufTy).Contents (Elt F)),
    StableHlo.binary main_v1649 main_v1634 main_v1650 (addf : (⟨S32768x1, .f32⟩ : BufTy).Contents (Elt F) → (⟨S32768x1, .f32⟩ : BufTy).Contents (Elt F) → (⟨S32768x1, .f32⟩ : BufTy).Contents (Elt F)),
    StableHlo.nullary main_cst_532 (constant S_ .f32 0x00000000#32),
    StableHlo.unary main_cst_532 main_v1651 (broadcastInDim S32768x1 ![] bcast_S_S32768x1 : (⟨S_, .f32⟩ : BufTy).Contents (Elt F) → (⟨S32768x1, .f32⟩ : BufTy).Contents (Elt F)),
    StableHlo.binary main_v1644 main_v1651 main_v1652 (cmpf .une : (⟨S32768x1, .f32⟩ : BufTy).Contents (Elt F) → (⟨S32768x1, .f32⟩ : BufTy).Contents (Elt F) → (⟨S32768x1, .i1⟩ : BufTy).Contents (Elt F)),
    StableHlo.unary main_v1652 main_v1653 (uitofp .f32 : (⟨S32768x1, .i1⟩ : BufTy).Contents (Elt F) → (⟨S32768x1, .f32⟩ : BufTy).Contents (Elt F)),
    StableHlo.binary main_v1653 main_v1651 main_v1654 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1644 main_v1651 main_v1655 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_533 (constant S_ .f32 0x40000000#32),
    StableHlo.unary main_cst_533 main_v1656 (broadcastInDim S32768x2 ![] bcast_S_S32768x2 : (⟨S_, .f32⟩ : BufTy).Contents (Elt F) → (⟨S32768x2, .f32⟩ : BufTy).Contents (Elt F)),
    StableHlo.binary main_v1656 main_v1654 main_v1657 (mulf : (⟨S32768x2, .f32⟩ : BufTy).Contents (Elt F) → (⟨S32768x2, .f32⟩ : BufTy).Contents (Elt F) → (⟨S32768x2, .f32⟩ : BufTy).Contents (Elt F)),
    StableHlo.nullary main_cst_534 (constant S_ .f32 0x3F800000#32),
    StableHlo.unary main_cst_534 main_v1658 (broadcastInDim S32768x2 ![] bcast_S_S32768x2 : (⟨S_, .f32⟩ : BufTy).Contents (Elt F) → (⟨S32768x2, .f32⟩ : BufTy).Contents (Elt F)),
    StableHlo.binary main_v1658 main_v1657 main_v1659 (subf : (⟨S32768x2, .f32⟩ : BufTy).Contents (Elt F) → (⟨S32768x2, .f32⟩ : BufTy).Contents (Elt F) → (⟨S32768x2, .f32⟩ : BufTy).Contents (Elt F)),
    StableHlo.binary main_v1659 main_v1622 main_v1660 (mulf : (⟨S32768x2, .f32⟩ : BufTy).Contents (Elt F) → (⟨S32768x2, .f32⟩ : BufTy).Contents (Elt F) → (⟨S32768x2, .f32⟩ : BufTy).Contents (Elt F)),
    StableHlo.binary main_v1660 main_v1623 main_v1661 (addf : (⟨S32768x2, .f32⟩ : BufTy).Contents (Elt F) → (⟨S32768x2, .f32⟩ : BufTy).Contents (Elt F) → (⟨S32768x2, .f32⟩ : BufTy).Contents (Elt F)),
    StableHlo.unary main_v1661 main_v1662 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1661 main_v1663 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_535 (constant S_ .f32 0xC1F00000#32),
    StableHlo.nullary main_cst_536 (constant S_ .f32 0x41F00000#32),
    StableHlo.TRef.unary (.of main_cst_535 : StableHlo.TRef sig ⟨S_, .f32⟩) main_call156.v0 id,
    StableHlo.TRef.unary main_call156.v0 main_call156.v1 (broadcastInDim S32768x1 ![] bcast_S_S32768x1),
    StableHlo.TRef.binary main_call156.v1 (.of main_v1662 : StableHlo.TRef sig ⟨S32768x1, .f32⟩) main_call156.v2 maximumf,
    StableHlo.TRef.unary (.of main_cst_536 : StableHlo.TRef sig ⟨S_, .f32⟩) main_call156.v3 id,
    StableHlo.TRef.unary main_call156.v3 main_call156.v4 (broadcastInDim S32768x1 ![] bcast_S_S32768x1),
    StableHlo.TRef.binary main_call156.v4 main_call156.v2 main_call156.v5 minimumf,
    StableHlo.nullary main_cst_537 (constant S_ .f32 0xC1F00000#32),
    StableHlo.nullary main_cst_538 (constant S_ .f32 0x41F00000#32),
    StableHlo.TRef.unary (.of main_cst_537 : StableHlo.TRef sig ⟨S_, .f32⟩) main_call157.v0 id,
    StableHlo.TRef.unary main_call157.v0 main_call157.v1 (broadcastInDim S32768x1 ![] bcast_S_S32768x1),
    StableHlo.TRef.binary main_call157.v1 (.of main_v1663 : StableHlo.TRef sig ⟨S32768x1, .f32⟩) main_call157.v2 maximumf,
    StableHlo.TRef.unary (.of main_cst_538 : StableHlo.TRef sig ⟨S_, .f32⟩) main_call157.v3 id,
    StableHlo.TRef.unary main_call157.v3 main_call157.v4 (broadcastInDim S32768x1 ![] bcast_S_S32768x1),
    StableHlo.TRef.binary main_call157.v4 main_call157.v2 main_call157.v5 minimumf,
    StableHlo.unary main_v1664 main_v1666 (Host.sign : (⟨S32768x1, .f32⟩ : BufTy).Contents (Elt F) → (⟨S32768x1, .f32⟩ : BufTy).Contents (Elt F)),
    StableHlo.unary main_v1665 main_v1667 (Host.sign : (⟨S32768x1, .f32⟩ : BufTy).Contents (Elt F) → (⟨S32768x1, .f32⟩ : BufTy).Contents (Elt F)),
    StableHlo.binary main_v1666 main_v1667 main_v1668 (mulf : (⟨S32768x1, .f32⟩ : BufTy).Contents (Elt F) → (⟨S32768x1, .f32⟩ : BufTy).Contents (Elt F) → (⟨S32768x1, .f32⟩ : BufTy).Contents (Elt F)),
    StableHlo.unary main_v1664 main_v1669 (Host.absf : (⟨S32768x1, .f32⟩ : BufTy).Contents (Elt F) → (⟨S32768x1, .f32⟩ : BufTy).Contents (Elt F)),
    StableHlo.unary main_v1665 main_v1670 (Host.absf : (⟨S32768x1, .f32⟩ : BufTy).Contents (Elt F) → (⟨S32768x1, .f32⟩ : BufTy).Contents (Elt F)),
    StableHlo.binary main_v1669 main_v1670 main_v1671 (minimumf : (⟨S32768x1, .f32⟩ : BufTy).Contents (Elt F) → (⟨S32768x1, .f32⟩ : BufTy).Contents (Elt F) → (⟨S32768x1, .f32⟩ : BufTy).Contents (Elt F)),
    StableHlo.binary main_v1668 main_v1671 main_v1672 (mulf : (⟨S32768x1, .f32⟩ : BufTy).Contents (Elt F) → (⟨S32768x1, .f32⟩ : BufTy).Contents (Elt F) → (⟨S32768x1, .f32⟩ : BufTy).Contents (Elt F)),
    StableHlo.nullary main_cst_539 (constant S_ .f32 0x00000000#32),
    StableHlo.unary main_cst_539 main_v1673 (broadcastInDim S32768x1 ![] bcast_S_S32768x1 : (⟨S_, .f32⟩ : BufTy).Contents (Elt F) → (⟨S32768x1, .f32⟩ : BufTy).Contents (Elt F)),
    StableHlo.nullary main_cst_540 (constant S_ .f32 0x40000000#32),
    StableHlo.unary main_cst_540 main_v1674 (broadcastInDim S32768x1 ![] bcast_S_S32768x1 : (⟨S_, .f32⟩ : BufTy).Contents (Elt F) → (⟨S32768x1, .f32⟩ : BufTy).Contents (Elt F)),
    StableHlo.binary main_v1674 main_v1673 main_v1675 (mulf : (⟨S32768x1, .f32⟩ : BufTy).Contents (Elt F) → (⟨S32768x1, .f32⟩ : BufTy).Contents (Elt F) → (⟨S32768x1, .f32⟩ : BufTy).Contents (Elt F)),
    StableHlo.nullary main_cst_541 (constant S_ .f32 0x3F800000#32) ]

set_option maxRecDepth 8192 in
/-- The window is that straight line: each clip function unfolded at its calls, the sequencing reassociated. -/
theorem part_eq_36 (d : Dev nD) : main_part36 (F := F) d = seq ops36 := by
  simp only [main_part36, fn_clip_6.body, seq, bind_assoc, pure_bind]
  rfl

/-- Every operation of the window touches TensorCore references only. -/
theorem sub_36 : (ops36 : List (HloOp τ sig (Elt F))).Forall fun op => op.bufs ⊆ tcRefs τ sig :=
  ⟨unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., nullary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., nullary_bufs_sub .., unary_bufs_sub ..,
    binary_bufs_sub .., nullary_bufs_sub ..⟩

/-- Every operation of the window determines all it writes. -/
theorem fresh_36 : (ops36 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_36 (V : Valuation τ sig (Elt F)) :
    after ops36 V (main_arg0 : DevRef τ sig) = V (main_arg0 : DevRef τ sig) := by
  simp only [after_cons, after_nil]
  rfl

/-- The operations of @main's statements 2221 … 2280, in order (80 of them): a statement's own operation, or, for a call
    of a clip function, the six operations of its body over that call's buffers. -/
abbrev ops37 : List (HloOp τ sig (Elt F)) :=
  [ StableHlo.unary main_cst_541 main_v1676 (broadcastInDim S32768x1 ![] bcast_S_S32768x1 : (⟨S_, .f32⟩ : BufTy).Contents (Elt F) → (⟨S32768x1, .f32⟩ : BufTy).Contents (Elt F)),
    StableHlo.binary main_v1676 main_v1675 main_v1677 (subf : (⟨S32768x1, .f32⟩ : BufTy).Contents (Elt F) → (⟨S32768x1, .f32⟩ : BufTy).Contents (Elt F) → (⟨S32768x1, .f32⟩ : BufTy).Contents (Elt F)),
    StableHlo.binary main_v1677 main_v1662 main_v1678 (mulf : (⟨S32768x1, .f32⟩ : BufTy).Contents (Elt F) → (⟨S32768x1, .f32⟩ : BufTy).Contents (Elt F) → (⟨S32768x1, .f32⟩ : BufTy).Contents (Elt F)),
    StableHlo.binary main_v1678 main_v1663 main_v1679 (addf : (⟨S32768x1, .f32⟩ : BufTy).Contents (Elt F) → (⟨S32768x1, .f32⟩ : BufTy).Contents (Elt F) → (⟨S32768x1, .f32⟩ : BufTy).Contents (Elt F)),
    StableHlo.nullary main_cst_542 (constant S_ .f32 0x00000000#32),
    StableHlo.unary main_cst_542 main_v1680 (broadcastInDim S32768x1 ![] bcast_S_S32768x1 : (⟨S_, .f32⟩ : BufTy).Contents (Elt F) → (⟨S32768x1, .f32⟩ : BufTy).Contents (Elt F)),
    StableHlo.binary main_v1673 main_v1680 main_v1681 (cmpf .une : (⟨S32768x1, .f32⟩ : BufTy).Contents (Elt F) → (⟨S32768x1, .f32⟩ : BufTy).Contents (Elt F) → (⟨S32768x1, .i1⟩ : BufTy).Contents (Elt F)),
    StableHlo.unary main_v1681 main_v1682 (uitofp .f32 : (⟨S32768x1, .i1⟩ : BufTy).Contents (Elt F) → (⟨S32768x1, .f32⟩ : BufTy).Contents (Elt F)),
    StableHlo.binary main_v1682 main_v1680 main_v1683 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1673 main_v1680 main_v1684 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1654 main_v1683 main_v1685 (cmpf .une : (⟨S32768x2, .f32⟩ : BufTy).Contents (Elt F) → (⟨S32768x2, .f32⟩ : BufTy).Contents (Elt F) → (⟨S32768x2, .i1⟩ : BufTy).Contents (Elt F)),
    StableHlo.unary main_v1685 main_v1686 (uitofp .f32 : (⟨S32768x2, .i1⟩ : BufTy).Contents (Elt F) → (⟨S32768x2, .f32⟩ : BufTy).Contents (Elt F)),
    StableHlo.binary main_v1686 main_v1683 main_v1687 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v1655 main_v1684 main_v1688 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_543 (constant S_ .f32 0x40000000#32),
    StableHlo.unary main_cst_543 main_v1689 (broadcastInDim S32768x4 ![] bcast_S_S32768x4 : (⟨S_, .f32⟩ : BufTy).Contents (Elt F) → (⟨S32768x4, .f32⟩ : BufTy).Contents (Elt F)),
    StableHlo.binary main_v1689 main_v1687 main_v1690 (mulf : (⟨S32768x4, .f32⟩ : BufTy).Contents (Elt F) → (⟨S32768x4, .f32⟩ : BufTy).Contents (Elt F) → (⟨S32768x4, .f32⟩ : BufTy).Contents (Elt F)),
    StableHlo.nullary main_cst_544 (constant S_ .f32 0x3F800000#32),
    StableHlo.unary main_cst_544 main_v1691 (broadcastInDim S32768x4 ![] bcast_S_S32768x4 : (⟨S_, .f32⟩ : BufTy).Contents (Elt F) → (⟨S32768x4, .f32⟩ : BufTy).Contents (Elt F)),
    StableHlo.binary main_v1691 main_v1690 main_v1692 (subf : (⟨S32768x4, .f32⟩ : BufTy).Contents (Elt F) → (⟨S32768x4, .f32⟩ : BufTy).Contents (Elt F) → (⟨S32768x4, .f32⟩ : BufTy).Contents (Elt F)),
    StableHlo.binary main_v1692 main_v1611 main_v1693 (mulf : (⟨S32768x4, .f32⟩ : BufTy).Contents (Elt F) → (⟨S32768x4, .f32⟩ : BufTy).Contents (Elt F) → (⟨S32768x4, .f32⟩ : BufTy).Contents (Elt F)),
    StableHlo.binary main_v1693 main_v1612 main_v1694 (addf : (⟨S32768x4, .f32⟩ : BufTy).Contents (Elt F) → (⟨S32768x4, .f32⟩ : BufTy).Contents (Elt F) → (⟨S32768x4, .f32⟩ : BufTy).Contents (Elt F)),
    StableHlo.unary main_v1694 main_v1695 ((extractStridedSlice S32768x2 ![0, 0] · slices_S32768x4_S32768x2_0_0) : (⟨S32768x4, .f32⟩ : BufTy).Contents (Elt F) → (⟨S32768x2, .f32⟩ : BufTy).Contents (Elt F)),
    StableHlo.unary main_v1694 main_v1696 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_545 (constant S_ .f32 0xC1F00000#32),
    StableHlo.nullary main_cst_546 (constant S_ .f32 0x41F00000#32),
    StableHlo.TRef.unary (.of main_cst_545 : StableHlo.TRef sig ⟨S_, .f32⟩) main_call158.v0 id,
    StableHlo.TRef.unary main_call158.v0 main_call158.v1 (broadcastInDim S32768x2 ![] bcast_S_S32768x2),
    StableHlo.TRef.binary main_call158.v1 (.of main_v1695 : StableHlo.TRef sig ⟨S32768x2, .f32⟩) main_call158.v2 maximumf,
    StableHlo.TRef.unary (.of main_cst_546 : StableHlo.TRef sig ⟨S_, .f32⟩) main_call158.v3 id,
    StableHlo.TRef.unary main_call158.v3 main_call158.v4 (broadcastInDim S32768x2 ![] bcast_S_S32768x2),
    StableHlo.TRef.binary main_call158.v4 main_call158.v2 main_call158.v5 minimumf,
    StableHlo.nullary main_cst_547 (constant S_ .f32 0xC1F00000#32),
    StableHlo.nullary main_cst_548 (constant S_ .f32 0x41F00000#32),
    StableHlo.TRef.unary (.of main_cst_547 : StableHlo.TRef sig ⟨S_, .f32⟩) main_call159.v0 id,
    StableHlo.TRef.unary main_call159.v0 main_call159.v1 (broadcastInDim S32768x2 ![] bcast_S_S32768x2),
    StableHlo.TRef.binary main_call159.v1 (.of main_v1696 : StableHlo.TRef sig ⟨S32768x2, .f32⟩) main_call159.v2 maximumf,
    StableHlo.TRef.unary (.of main_cst_548 : StableHlo.TRef sig ⟨S_, .f32⟩) main_call159.v3 id,
    StableHlo.TRef.unary main_call159.v3 main_call159.v4 (broadcastInDim S32768x2 ![] bcast_S_S32768x2),
    StableHlo.TRef.binary main_call159.v4 main_call159.v2 main_call159.v5 minimumf,
    StableHlo.unary main_v1697 main_v1699 (Host.sign : (⟨S32768x2, .f32⟩ : BufTy).Contents (Elt F) → (⟨S32768x2, .f32⟩ : BufTy).Contents (Elt F)),
    StableHlo.unary main_v1698 main_v1700 (Host.sign : (⟨S32768x2, .f32⟩ : BufTy).Contents (Elt F) → (⟨S32768x2, .f32⟩ : BufTy).Contents (Elt F)),
    StableHlo.binary main_v1699 main_v1700 main_v1701 (mulf : (⟨S32768x2, .f32⟩ : BufTy).Contents (Elt F) → (⟨S32768x2, .f32⟩ : BufTy).Contents (Elt F) → (⟨S32768x2, .f32⟩ : BufTy).Contents (Elt F)),
    StableHlo.unary main_v1697 main_v1702 (Host.absf : (⟨S32768x2, .f32⟩ : BufTy).Contents (Elt F) → (⟨S32768x2, .f32⟩ : BufTy).Contents (Elt F)),
    StableHlo.unary main_v1698 main_v1703 (Host.absf : (⟨S32768x2, .f32⟩ : BufTy).Contents (Elt F) → (⟨S32768x2, .f32⟩ : BufTy).Contents (Elt F)),
    StableHlo.binary main_v1702 main_v1703 main_v1704 (minimumf : (⟨S32768x2, .f32⟩ : BufTy).Contents (Elt F) → (⟨S32768x2, .f32⟩ : BufTy).Contents (Elt F) → (⟨S32768x2, .f32⟩ : BufTy).Contents (Elt F)),
    StableHlo.binary main_v1701 main_v1704 main_v1705 (mulf : (⟨S32768x2, .f32⟩ : BufTy).Contents (Elt F) → (⟨S32768x2, .f32⟩ : BufTy).Contents (Elt F) → (⟨S32768x2, .f32⟩ : BufTy).Contents (Elt F)),
    StableHlo.unary main_v1705 main_v1706 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1705 main_v1707 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_549 (constant S_ .f32 0xC1F00000#32),
    StableHlo.nullary main_cst_550 (constant S_ .f32 0x41F00000#32),
    StableHlo.TRef.unary (.of main_cst_549 : StableHlo.TRef sig ⟨S_, .f32⟩) main_call160.v0 id,
    StableHlo.TRef.unary main_call160.v0 main_call160.v1 (broadcastInDim S32768x1 ![] bcast_S_S32768x1),
    StableHlo.TRef.binary main_call160.v1 (.of main_v1706 : StableHlo.TRef sig ⟨S32768x1, .f32⟩) main_call160.v2 maximumf,
    StableHlo.TRef.unary (.of main_cst_550 : StableHlo.TRef sig ⟨S_, .f32⟩) main_call160.v3 id,
    StableHlo.TRef.unary main_call160.v3 main_call160.v4 (broadcastInDim S32768x1 ![] bcast_S_S32768x1),
    StableHlo.TRef.binary main_call160.v4 main_call160.v2 main_call160.v5 minimumf,
    StableHlo.nullary main_cst_551 (constant S_ .f32 0xC1F00000#32),
    StableHlo.nullary main_cst_552 (constant S_ .f32 0x41F00000#32),
    StableHlo.TRef.unary (.of main_cst_551 : StableHlo.TRef sig ⟨S_, .f32⟩) main_call161.v0 id,
    StableHlo.TRef.unary main_call161.v0 main_call161.v1 (broadcastInDim S32768x1 ![] bcast_S_S32768x1),
    StableHlo.TRef.binary main_call161.v1 (.of main_v1707 : StableHlo.TRef sig ⟨S32768x1, .f32⟩) main_call161.v2 maximumf,
    StableHlo.TRef.unary (.of main_cst_552 : StableHlo.TRef sig ⟨S_, .f32⟩) main_call161.v3 id,
    StableHlo.TRef.unary main_call161.v3 main_call161.v4 (broadcastInDim S32768x1 ![] bcast_S_S32768x1),
    StableHlo.TRef.binary main_call161.v4 main_call161.v2 main_call161.v5 minimumf,
    StableHlo.unary main_v1708 main_v1710 (Host.sign : (⟨S32768x1, .f32⟩ : BufTy).Contents (Elt F) → (⟨S32768x1, .f32⟩ : BufTy).Contents (Elt F)),
    StableHlo.unary main_v1709 main_v1711 (Host.sign : (⟨S32768x1, .f32⟩ : BufTy).Contents (Elt F) → (⟨S32768x1, .f32⟩ : BufTy).Contents (Elt F)),
    StableHlo.binary main_v1710 main_v1711 main_v1712 (mulf : (⟨S32768x1, .f32⟩ : BufTy).Contents (Elt F) → (⟨S32768x1, .f32⟩ : BufTy).Contents (Elt F) → (⟨S32768x1, .f32⟩ : BufTy).Contents (Elt F)),
    StableHlo.unary main_v1708 main_v1713 (Host.absf : (⟨S32768x1, .f32⟩ : BufTy).Contents (Elt F) → (⟨S32768x1, .f32⟩ : BufTy).Contents (Elt F)),
    StableHlo.unary main_v1709 main_v1714 (Host.absf : (⟨S32768x1, .f32⟩ : BufTy).Contents (Elt F) → (⟨S32768x1, .f32⟩ : BufTy).Contents (Elt F)),
    StableHlo.binary main_v1713 main_v1714 main_v1715 (minimumf : (⟨S32768x1, .f32⟩ : BufTy).Contents (Elt F) → (⟨S32768x1, .f32⟩ : BufTy).Contents (Elt F) → (⟨S32768x1, .f32⟩ : BufTy).Contents (Elt F)),
    StableHlo.binary main_v1712 main_v1715 main_v1716 (mulf : (⟨S32768x1, .f32⟩ : BufTy).Contents (Elt F) → (⟨S32768x1, .f32⟩ : BufTy).Contents (Elt F) → (⟨S32768x1, .f32⟩ : BufTy).Contents (Elt F)),
    StableHlo.nullary main_cst_553 (constant S_ .f32 0x00000000#32),
    StableHlo.unary main_cst_553 main_v1717 (broadcastInDim S32768x1 ![] bcast_S_S32768x1 : (⟨S_, .f32⟩ : BufTy).Contents (Elt F) → (⟨S32768x1, .f32⟩ : BufTy).Contents (Elt F)),
    StableHlo.nullary main_cst_554 (constant S_ .f32 0x40000000#32),
    StableHlo.unary main_cst_554 main_v1718 (broadcastInDim S32768x1 ![] bcast_S_S32768x1 : (⟨S_, .f32⟩ : BufTy).Contents (Elt F) → (⟨S32768x1, .f32⟩ : BufTy).Contents (Elt F)),
    StableHlo.binary main_v1718 main_v1717 main_v1719 (mulf : (⟨S32768x1, .f32⟩ : BufTy).Contents (Elt F) → (⟨S32768x1, .f32⟩ : BufTy).Contents (Elt F) → (⟨S32768x1, .f32⟩ : BufTy).Contents (Elt F)),
    StableHlo.nullary main_cst_555 (constant S_ .f32 0x3F800000#32),
    StableHlo.unary main_cst_555 main_v1720 (broadcastInDim S32768x1 ![] bcast_S_S32768x1 : (⟨S_, .f32⟩ : BufTy).Contents (Elt F) → (⟨S32768x1, .f32⟩ : BufTy).Contents (Elt F)),
    StableHlo.binary main_v1720 main_v1719 main_v1721 (subf : (⟨S32768x1, .f32⟩ : BufTy).Contents (Elt F) → (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_37 (d : Dev nD) : main_part37 (F := F) d = seq ops37 := by
  simp only [main_part37, fn_clip_5.body, fn_clip_6.body, seq, bind_assoc, pure_bind]
  rfl

/-- Every operation of the window touches TensorCore references only. -/
theorem sub_37 : (ops37 : List (HloOp τ sig (Elt F))).Forall fun op => op.bufs ⊆ tcRefs τ sig :=
  ⟨unary_bufs_sub .., binary_bufs_sub .., binary_bufs_sub .., binary_bufs_sub .., nullary_bufs_sub .., unary_bufs_sub ..,
    binary_bufs_sub .., unary_bufs_sub .., binary_bufs_sub .., binary_bufs_sub .., binary_bufs_sub .., unary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., nullary_bufs_sub .., unary_bufs_sub .., binary_bufs_sub .., nullary_bufs_sub ..,
    unary_bufs_sub .., binary_bufs_sub ..⟩

/-- Every operation of the window determines all it writes. -/
theorem fresh_37 : (ops37 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_37 (V : Valuation τ sig (Elt F)) :
    after ops37 V (main_arg0 : DevRef τ sig) = V (main_arg0 : DevRef τ sig) := by
  simp only [after_cons, after_nil]
  rfl

/-- The operations of @main's statements 2281 … 2340, in order (70 of them): a statement's own operation, or, for a call
    of a clip function, the six operations of its body over that call's buffers. -/
abbrev ops38 : List (HloOp τ sig (Elt F)) :=
  [ StableHlo.binary main_v1721 main_v1706 main_v1722 (mulf : (⟨S32768x1, .f32⟩ : BufTy).Contents (Elt F) → (⟨S32768x1, .f32⟩ : BufTy).Contents (Elt F) → (⟨S32768x1, .f32⟩ : BufTy).Contents (Elt F)),
    StableHlo.binary main_v1722 main_v1707 main_v1723 (addf : (⟨S32768x1, .f32⟩ : BufTy).Contents (Elt F) → (⟨S32768x1, .f32⟩ : BufTy).Contents (Elt F) → (⟨S32768x1, .f32⟩ : BufTy).Contents (Elt F)),
    StableHlo.nullary main_cst_556 (constant S_ .f32 0x00000000#32),
    StableHlo.unary main_cst_556 main_v1724 (broadcastInDim S32768x1 ![] bcast_S_S32768x1 : (⟨S_, .f32⟩ : BufTy).Contents (Elt F) → (⟨S32768x1, .f32⟩ : BufTy).Contents (Elt F)),
    StableHlo.binary main_v1717 main_v1724 main_v1725 (cmpf .une : (⟨S32768x1, .f32⟩ : BufTy).Contents (Elt F) → (⟨S32768x1, .f32⟩ : BufTy).Contents (Elt F) → (⟨S32768x1, .i1⟩ : BufTy).Contents (Elt F)),
    StableHlo.unary main_v1725 main_v1726 (uitofp .f32 : (⟨S32768x1, .i1⟩ : BufTy).Contents (Elt F) → (⟨S32768x1, .f32⟩ : BufTy).Contents (Elt F)),
    StableHlo.binary main_v1726 main_v1724 main_v1727 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1717 main_v1724 main_v1728 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_557 (constant S_ .f32 0x40000000#32),
    StableHlo.unary main_cst_557 main_v1729 (broadcastInDim S32768x2 ![] bcast_S_S32768x2 : (⟨S_, .f32⟩ : BufTy).Contents (Elt F) → (⟨S32768x2, .f32⟩ : BufTy).Contents (Elt F)),
    StableHlo.binary main_v1729 main_v1727 main_v1730 (mulf : (⟨S32768x2, .f32⟩ : BufTy).Contents (Elt F) → (⟨S32768x2, .f32⟩ : BufTy).Contents (Elt F) → (⟨S32768x2, .f32⟩ : BufTy).Contents (Elt F)),
    StableHlo.nullary main_cst_558 (constant S_ .f32 0x3F800000#32),
    StableHlo.unary main_cst_558 main_v1731 (broadcastInDim S32768x2 ![] bcast_S_S32768x2 : (⟨S_, .f32⟩ : BufTy).Contents (Elt F) → (⟨S32768x2, .f32⟩ : BufTy).Contents (Elt F)),
    StableHlo.binary main_v1731 main_v1730 main_v1732 (subf : (⟨S32768x2, .f32⟩ : BufTy).Contents (Elt F) → (⟨S32768x2, .f32⟩ : BufTy).Contents (Elt F) → (⟨S32768x2, .f32⟩ : BufTy).Contents (Elt F)),
    StableHlo.binary main_v1732 main_v1695 main_v1733 (mulf : (⟨S32768x2, .f32⟩ : BufTy).Contents (Elt F) → (⟨S32768x2, .f32⟩ : BufTy).Contents (Elt F) → (⟨S32768x2, .f32⟩ : BufTy).Contents (Elt F)),
    StableHlo.binary main_v1733 main_v1696 main_v1734 (addf : (⟨S32768x2, .f32⟩ : BufTy).Contents (Elt F) → (⟨S32768x2, .f32⟩ : BufTy).Contents (Elt F) → (⟨S32768x2, .f32⟩ : BufTy).Contents (Elt F)),
    StableHlo.unary main_v1734 main_v1735 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1734 main_v1736 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_559 (constant S_ .f32 0xC1F00000#32),
    StableHlo.nullary main_cst_560 (constant S_ .f32 0x41F00000#32),
    StableHlo.TRef.unary (.of main_cst_559 : StableHlo.TRef sig ⟨S_, .f32⟩) main_call162.v0 id,
    StableHlo.TRef.unary main_call162.v0 main_call162.v1 (broadcastInDim S32768x1 ![] bcast_S_S32768x1),
    StableHlo.TRef.binary main_call162.v1 (.of main_v1735 : StableHlo.TRef sig ⟨S32768x1, .f32⟩) main_call162.v2 maximumf,
    StableHlo.TRef.unary (.of main_cst_560 : StableHlo.TRef sig ⟨S_, .f32⟩) main_call162.v3 id,
    StableHlo.TRef.unary main_call162.v3 main_call162.v4 (broadcastInDim S32768x1 ![] bcast_S_S32768x1),
    StableHlo.TRef.binary main_call162.v4 main_call162.v2 main_call162.v5 minimumf,
    StableHlo.nullary main_cst_561 (constant S_ .f32 0xC1F00000#32),
    StableHlo.nullary main_cst_562 (constant S_ .f32 0x41F00000#32),
    StableHlo.TRef.unary (.of main_cst_561 : StableHlo.TRef sig ⟨S_, .f32⟩) main_call163.v0 id,
    StableHlo.TRef.unary main_call163.v0 main_call163.v1 (broadcastInDim S32768x1 ![] bcast_S_S32768x1),
    StableHlo.TRef.binary main_call163.v1 (.of main_v1736 : StableHlo.TRef sig ⟨S32768x1, .f32⟩) main_call163.v2 maximumf,
    StableHlo.TRef.unary (.of main_cst_562 : StableHlo.TRef sig ⟨S_, .f32⟩) main_call163.v3 id,
    StableHlo.TRef.unary main_call163.v3 main_call163.v4 (broadcastInDim S32768x1 ![] bcast_S_S32768x1),
    StableHlo.TRef.binary main_call163.v4 main_call163.v2 main_call163.v5 minimumf,
    StableHlo.unary main_v1737 main_v1739 (Host.sign : (⟨S32768x1, .f32⟩ : BufTy).Contents (Elt F) → (⟨S32768x1, .f32⟩ : BufTy).Contents (Elt F)),
    StableHlo.unary main_v1738 main_v1740 (Host.sign : (⟨S32768x1, .f32⟩ : BufTy).Contents (Elt F) → (⟨S32768x1, .f32⟩ : BufTy).Contents (Elt F)),
    StableHlo.binary main_v1739 main_v1740 main_v1741 (mulf : (⟨S32768x1, .f32⟩ : BufTy).Contents (Elt F) → (⟨S32768x1, .f32⟩ : BufTy).Contents (Elt F) → (⟨S32768x1, .f32⟩ : BufTy).Contents (Elt F)),
    StableHlo.unary main_v1737 main_v1742 (Host.absf : (⟨S32768x1, .f32⟩ : BufTy).Contents (Elt F) → (⟨S32768x1, .f32⟩ : BufTy).Contents (Elt F)),
    StableHlo.unary main_v1738 main_v1743 (Host.absf : (⟨S32768x1, .f32⟩ : BufTy).Contents (Elt F) → (⟨S32768x1, .f32⟩ : BufTy).Contents (Elt F)),
    StableHlo.binary main_v1742 main_v1743 main_v1744 (minimumf : (⟨S32768x1, .f32⟩ : BufTy).Contents (Elt F) → (⟨S32768x1, .f32⟩ : BufTy).Contents (Elt F) → (⟨S32768x1, .f32⟩ : BufTy).Contents (Elt F)),
    StableHlo.binary main_v1741 main_v1744 main_v1745 (mulf : (⟨S32768x1, .f32⟩ : BufTy).Contents (Elt F) → (⟨S32768x1, .f32⟩ : BufTy).Contents (Elt F) → (⟨S32768x1, .f32⟩ : BufTy).Contents (Elt F)),
    StableHlo.nullary main_cst_563 (constant S_ .f32 0x00000000#32),
    StableHlo.unary main_cst_563 main_v1746 (broadcastInDim S32768x1 ![] bcast_S_S32768x1 : (⟨S_, .f32⟩ : BufTy).Contents (Elt F) → (⟨S32768x1, .f32⟩ : BufTy).Contents (Elt F)),
    StableHlo.nullary main_cst_564 (constant S_ .f32 0x40000000#32),
    StableHlo.unary main_cst_564 main_v1747 (broadcastInDim S32768x1 ![] bcast_S_S32768x1 : (⟨S_, .f32⟩ : BufTy).Contents (Elt F) → (⟨S32768x1, .f32⟩ : BufTy).Contents (Elt F)),
    StableHlo.binary main_v1747 main_v1746 main_v1748 (mulf : (⟨S32768x1, .f32⟩ : BufTy).Contents (Elt F) → (⟨S32768x1, .f32⟩ : BufTy).Contents (Elt F) → (⟨S32768x1, .f32⟩ : BufTy).Contents (Elt F)),
    StableHlo.nullary main_cst_565 (constant S_ .f32 0x3F800000#32),
    StableHlo.unary main_cst_565 main_v1749 (broadcastInDim S32768x1 ![] bcast_S_S32768x1 : (⟨S_, .f32⟩ : BufTy).Contents (Elt F) → (⟨S32768x1, .f32⟩ : BufTy).Contents (Elt F)),
    StableHlo.binary main_v1749 main_v1748 main_v1750 (subf : (⟨S32768x1, .f32⟩ : BufTy).Contents (Elt F) → (⟨S32768x1, .f32⟩ : BufTy).Contents (Elt F) → (⟨S32768x1, .f32⟩ : BufTy).Contents (Elt F)),
    StableHlo.binary main_v1750 main_v1735 main_v1751 (mulf : (⟨S32768x1, .f32⟩ : BufTy).Contents (Elt F) → (⟨S32768x1, .f32⟩ : BufTy).Contents (Elt F) → (⟨S32768x1, .f32⟩ : BufTy).Contents (Elt F)),
    StableHlo.binary main_v1751 main_v1736 main_v1752 (addf : (⟨S32768x1, .f32⟩ : BufTy).Contents (Elt F) → (⟨S32768x1, .f32⟩ : BufTy).Contents (Elt F) → (⟨S32768x1, .f32⟩ : BufTy).Contents (Elt F)),
    StableHlo.nullary main_cst_566 (constant S_ .f32 0x00000000#32),
    StableHlo.unary main_cst_566 main_v1753 (broadcastInDim S32768x1 ![] bcast_S_S32768x1 : (⟨S_, .f32⟩ : BufTy).Contents (Elt F) → (⟨S32768x1, .f32⟩ : BufTy).Contents (Elt F)),
    StableHlo.binary main_v1746 main_v1753 main_v1754 (cmpf .une : (⟨S32768x1, .f32⟩ : BufTy).Contents (Elt F) → (⟨S32768x1, .f32⟩ : BufTy).Contents (Elt F) → (⟨S32768x1, .i1⟩ : BufTy).Contents (Elt F)),
    StableHlo.unary main_v1754 main_v1755 (uitofp .f32 : (⟨S32768x1, .i1⟩ : BufTy).Contents (Elt F) → (⟨S32768x1, .f32⟩ : BufTy).Contents (Elt F)),
    StableHlo.binary main_v1755 main_v1753 main_v1756 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1746 main_v1753 main_v1757 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1727 main_v1756 main_v1758 (cmpf .une : (⟨S32768x2, .f32⟩ : BufTy).Contents (Elt F) → (⟨S32768x2, .f32⟩ : BufTy).Contents (Elt F) → (⟨S32768x2, .i1⟩ : BufTy).Contents (Elt F)),
    StableHlo.unary main_v1758 main_v1759 (uitofp .f32 : (⟨S32768x2, .i1⟩ : BufTy).Contents (Elt F) → (⟨S32768x2, .f32⟩ : BufTy).Contents (Elt F)),
    StableHlo.binary main_v1759 main_v1756 main_v1760 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v1728 main_v1757 main_v1761 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v1687 main_v1760 main_v1762 (cmpf .une : (⟨S32768x4, .f32⟩ : BufTy).Contents (Elt F) → (⟨S32768x4, .f32⟩ : BufTy).Contents (Elt F) → (⟨S32768x4, .i1⟩ : BufTy).Contents (Elt F)),
    StableHlo.unary main_v1762 main_v1763 (uitofp .f32 : (⟨S32768x4, .i1⟩ : BufTy).Contents (Elt F) → (⟨S32768x4, .f32⟩ : BufTy).Contents (Elt F)),
    StableHlo.binary main_v1763 main_v1760 main_v1764 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v1688 main_v1761 main_v1765 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v1603 main_v1764 main_v1766 (cmpf .une : (⟨S32768x8, .f32⟩ : BufTy).Contents (Elt F) → (⟨S32768x8, .f32⟩ : BufTy).Contents (Elt F) → (⟨S32768x8, .i1⟩ : BufTy).Contents (Elt F)),
    StableHlo.unary main_v1766 main_v1767 (uitofp .f32 : (⟨S32768x8, .i1⟩ : BufTy).Contents (Elt F) → (⟨S32768x8, .f32⟩ : BufTy).Contents (Elt F)),
    StableHlo.binary main_v1767 main_v1764 main_v1768 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v1604 main_v1765 main_v1769 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.nullary main_cst_567 (constant S_ .f32 0x40000000#32) ]

set_option maxRecDepth 8192 in
/-- The window is that straight line: each clip function unfolded at its calls, the sequencing reassociated. -/
theorem part_eq_38 (d : Dev nD) : main_part38 (F := F) d = seq ops38 := by
  simp only [main_part38, fn_clip_6.body, seq, bind_assoc, pure_bind]
  rfl

/-- Every operation of the window touches TensorCore references only. -/
theorem sub_38 : (ops38 : List (HloOp τ sig (Elt F))).Forall fun op => op.bufs ⊆ tcRefs τ sig :=
  ⟨binary_bufs_sub .., binary_bufs_sub .., nullary_bufs_sub .., unary_bufs_sub .., binary_bufs_sub .., unary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., nullary_bufs_sub ..,
    unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    unary_bufs_sub .., binary_bufs_sub .., binary_bufs_sub .., binary_bufs_sub .., unary_bufs_sub .., binary_bufs_sub ..,
    binary_bufs_sub .., binary_bufs_sub .., unary_bufs_sub .., binary_bufs_sub .., binary_bufs_sub .., binary_bufs_sub ..,
    unary_bufs_sub .., binary_bufs_sub .., binary_bufs_sub .., nullary_bufs_sub ..⟩

/-- Every operation of the window determines all it writes. -/
theorem fresh_38 : (ops38 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_38 (V : Valuation τ sig (Elt F)) :
    after ops38 V (main_arg0 : DevRef τ sig) = V (main_arg0 : DevRef τ sig) := by
  simp only [after_cons, after_nil]
  rfl

/-- The operations of @main's statements 2341 … 2400, in order (100 of them): a statement's own operation, or, for a call
    of a clip function, the six operations of its body over that call's buffers. -/
abbrev ops39 : List (HloOp τ sig (Elt F)) :=
  [ StableHlo.unary main_cst_567 main_v1770 (broadcastInDim S32768x16 ![] bcast_S_S32768x16 : (⟨S_, .f32⟩ : BufTy).Contents (Elt F) → (⟨S32768x16, .f32⟩ : BufTy).Contents (Elt F)),
    StableHlo.binary main_v1770 main_v1768 main_v1771 (mulf : (⟨S32768x16, .f32⟩ : BufTy).Contents (Elt F) → (⟨S32768x16, .f32⟩ : BufTy).Contents (Elt F) → (⟨S32768x16, .f32⟩ : BufTy).Contents (Elt F)),
    StableHlo.nullary main_cst_568 (constant S_ .f32 0x3F800000#32),
    StableHlo.unary main_cst_568 main_v1772 (broadcastInDim S32768x16 ![] bcast_S_S32768x16 : (⟨S_, .f32⟩ : BufTy).Contents (Elt F) → (⟨S32768x16, .f32⟩ : BufTy).Contents (Elt F)),
    StableHlo.binary main_v1772 main_v1771 main_v1773 (subf : (⟨S32768x16, .f32⟩ : BufTy).Contents (Elt F) → (⟨S32768x16, .f32⟩ : BufTy).Contents (Elt F) → (⟨S32768x16, .f32⟩ : BufTy).Contents (Elt F)),
    StableHlo.binary main_v1773 main_v1428 main_v1774 (mulf : (⟨S32768x16, .f32⟩ : BufTy).Contents (Elt F) → (⟨S32768x16, .f32⟩ : BufTy).Contents (Elt F) → (⟨S32768x16, .f32⟩ : BufTy).Contents (Elt F)),
    StableHlo.binary main_v1774 main_v1429 main_v1775 (addf : (⟨S32768x16, .f32⟩ : BufTy).Contents (Elt F) → (⟨S32768x16, .f32⟩ : BufTy).Contents (Elt F) → (⟨S32768x16, .f32⟩ : BufTy).Contents (Elt F)),
    StableHlo.unary main_v1775 main_v1776 ((extractStridedSlice S32768x8 ![0, 0] · slices_S32768x16_S32768x8_0_0) : (⟨S32768x16, .f32⟩ : BufTy).Contents (Elt F) → (⟨S32768x8, .f32⟩ : BufTy).Contents (Elt F)),
    StableHlo.unary main_v1775 main_v1777 ((extractStridedSlice S32768x8 ![0, 8] · slices_S32768x16_S32768x8_0_8) : (⟨S32768x16, .f32⟩ : BufTy).Contents (Elt F) → (⟨S32768x8, .f32⟩ : BufTy).Contents (Elt F)),
    StableHlo.nullary main_cst_569 (constant S_ .f32 0xC1F00000#32),
    StableHlo.nullary main_cst_570 (constant S_ .f32 0x41F00000#32),
    StableHlo.TRef.unary (.of main_cst_569 : StableHlo.TRef sig ⟨S_, .f32⟩) main_call164.v0 id,
    StableHlo.TRef.unary main_call164.v0 main_call164.v1 (broadcastInDim S32768x8 ![] bcast_S_S32768x8),
    StableHlo.TRef.binary main_call164.v1 (.of main_v1776 : StableHlo.TRef sig ⟨S32768x8, .f32⟩) main_call164.v2 maximumf,
    StableHlo.TRef.unary (.of main_cst_570 : StableHlo.TRef sig ⟨S_, .f32⟩) main_call164.v3 id,
    StableHlo.TRef.unary main_call164.v3 main_call164.v4 (broadcastInDim S32768x8 ![] bcast_S_S32768x8),
    StableHlo.TRef.binary main_call164.v4 main_call164.v2 main_call164.v5 minimumf,
    StableHlo.nullary main_cst_571 (constant S_ .f32 0xC1F00000#32),
    StableHlo.nullary main_cst_572 (constant S_ .f32 0x41F00000#32),
    StableHlo.TRef.unary (.of main_cst_571 : StableHlo.TRef sig ⟨S_, .f32⟩) main_call165.v0 id,
    StableHlo.TRef.unary main_call165.v0 main_call165.v1 (broadcastInDim S32768x8 ![] bcast_S_S32768x8),
    StableHlo.TRef.binary main_call165.v1 (.of main_v1777 : StableHlo.TRef sig ⟨S32768x8, .f32⟩) main_call165.v2 maximumf,
    StableHlo.TRef.unary (.of main_cst_572 : StableHlo.TRef sig ⟨S_, .f32⟩) main_call165.v3 id,
    StableHlo.TRef.unary main_call165.v3 main_call165.v4 (broadcastInDim S32768x8 ![] bcast_S_S32768x8),
    StableHlo.TRef.binary main_call165.v4 main_call165.v2 main_call165.v5 minimumf,
    StableHlo.unary main_v1778 main_v1780 (Host.sign : (⟨S32768x8, .f32⟩ : BufTy).Contents (Elt F) → (⟨S32768x8, .f32⟩ : BufTy).Contents (Elt F)),
    StableHlo.unary main_v1779 main_v1781 (Host.sign : (⟨S32768x8, .f32⟩ : BufTy).Contents (Elt F) → (⟨S32768x8, .f32⟩ : BufTy).Contents (Elt F)),
    StableHlo.binary main_v1780 main_v1781 main_v1782 (mulf : (⟨S32768x8, .f32⟩ : BufTy).Contents (Elt F) → (⟨S32768x8, .f32⟩ : BufTy).Contents (Elt F) → (⟨S32768x8, .f32⟩ : BufTy).Contents (Elt F)),
    StableHlo.unary main_v1778 main_v1783 (Host.absf : (⟨S32768x8, .f32⟩ : BufTy).Contents (Elt F) → (⟨S32768x8, .f32⟩ : BufTy).Contents (Elt F)),
    StableHlo.unary main_v1779 main_v1784 (Host.absf : (⟨S32768x8, .f32⟩ : BufTy).Contents (Elt F) → (⟨S32768x8, .f32⟩ : BufTy).Contents (Elt F)),
    StableHlo.binary main_v1783 main_v1784 main_v1785 (minimumf : (⟨S32768x8, .f32⟩ : BufTy).Contents (Elt F) → (⟨S32768x8, .f32⟩ : BufTy).Contents (Elt F) → (⟨S32768x8, .f32⟩ : BufTy).Contents (Elt F)),
    StableHlo.binary main_v1782 main_v1785 main_v1786 (mulf : (⟨S32768x8, .f32⟩ : BufTy).Contents (Elt F) → (⟨S32768x8, .f32⟩ : BufTy).Contents (Elt F) → (⟨S32768x8, .f32⟩ : BufTy).Contents (Elt F)),
    StableHlo.unary main_v1786 main_v1787 ((extractStridedSlice S32768x4 ![0, 0] · slices_S32768x8_S32768x4_0_0) : (⟨S32768x8, .f32⟩ : BufTy).Contents (Elt F) → (⟨S32768x4, .f32⟩ : BufTy).Contents (Elt F)),
    StableHlo.unary main_v1786 main_v1788 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_573 (constant S_ .f32 0xC1F00000#32),
    StableHlo.nullary main_cst_574 (constant S_ .f32 0x41F00000#32),
    StableHlo.TRef.unary (.of main_cst_573 : StableHlo.TRef sig ⟨S_, .f32⟩) main_call166.v0 id,
    StableHlo.TRef.unary main_call166.v0 main_call166.v1 (broadcastInDim S32768x4 ![] bcast_S_S32768x4),
    StableHlo.TRef.binary main_call166.v1 (.of main_v1787 : StableHlo.TRef sig ⟨S32768x4, .f32⟩) main_call166.v2 maximumf,
    StableHlo.TRef.unary (.of main_cst_574 : StableHlo.TRef sig ⟨S_, .f32⟩) main_call166.v3 id,
    StableHlo.TRef.unary main_call166.v3 main_call166.v4 (broadcastInDim S32768x4 ![] bcast_S_S32768x4),
    StableHlo.TRef.binary main_call166.v4 main_call166.v2 main_call166.v5 minimumf,
    StableHlo.nullary main_cst_575 (constant S_ .f32 0xC1F00000#32),
    StableHlo.nullary main_cst_576 (constant S_ .f32 0x41F00000#32),
    StableHlo.TRef.unary (.of main_cst_575 : StableHlo.TRef sig ⟨S_, .f32⟩) main_call167.v0 id,
    StableHlo.TRef.unary main_call167.v0 main_call167.v1 (broadcastInDim S32768x4 ![] bcast_S_S32768x4),
    StableHlo.TRef.binary main_call167.v1 (.of main_v1788 : StableHlo.TRef sig ⟨S32768x4, .f32⟩) main_call167.v2 maximumf,
    StableHlo.TRef.unary (.of main_cst_576 : StableHlo.TRef sig ⟨S_, .f32⟩) main_call167.v3 id,
    StableHlo.TRef.unary main_call167.v3 main_call167.v4 (broadcastInDim S32768x4 ![] bcast_S_S32768x4),
    StableHlo.TRef.binary main_call167.v4 main_call167.v2 main_call167.v5 minimumf,
    StableHlo.unary main_v1789 main_v1791 (Host.sign : (⟨S32768x4, .f32⟩ : BufTy).Contents (Elt F) → (⟨S32768x4, .f32⟩ : BufTy).Contents (Elt F)),
    StableHlo.unary main_v1790 main_v1792 (Host.sign : (⟨S32768x4, .f32⟩ : BufTy).Contents (Elt F) → (⟨S32768x4, .f32⟩ : BufTy).Contents (Elt F)),
    StableHlo.binary main_v1791 main_v1792 main_v1793 (mulf : (⟨S32768x4, .f32⟩ : BufTy).Contents (Elt F) → (⟨S32768x4, .f32⟩ : BufTy).Contents (Elt F) → (⟨S32768x4, .f32⟩ : BufTy).Contents (Elt F)),
    StableHlo.unary main_v1789 main_v1794 (Host.absf : (⟨S32768x4, .f32⟩ : BufTy).Contents (Elt F) → (⟨S32768x4, .f32⟩ : BufTy).Contents (Elt F)),
    StableHlo.unary main_v1790 main_v1795 (Host.absf : (⟨S32768x4, .f32⟩ : BufTy).Contents (Elt F) → (⟨S32768x4, .f32⟩ : BufTy).Contents (Elt F)),
    StableHlo.binary main_v1794 main_v1795 main_v1796 (minimumf : (⟨S32768x4, .f32⟩ : BufTy).Contents (Elt F) → (⟨S32768x4, .f32⟩ : BufTy).Contents (Elt F) → (⟨S32768x4, .f32⟩ : BufTy).Contents (Elt F)),
    StableHlo.binary main_v1793 main_v1796 main_v1797 (mulf : (⟨S32768x4, .f32⟩ : BufTy).Contents (Elt F) → (⟨S32768x4, .f32⟩ : BufTy).Contents (Elt F) → (⟨S32768x4, .f32⟩ : BufTy).Contents (Elt F)),
    StableHlo.unary main_v1797 main_v1798 ((extractStridedSlice S32768x2 ![0, 0] · slices_S32768x4_S32768x2_0_0) : (⟨S32768x4, .f32⟩ : BufTy).Contents (Elt F) → (⟨S32768x2, .f32⟩ : BufTy).Contents (Elt F)),
    StableHlo.unary main_v1797 main_v1799 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_577 (constant S_ .f32 0xC1F00000#32),
    StableHlo.nullary main_cst_578 (constant S_ .f32 0x41F00000#32),
    StableHlo.TRef.unary (.of main_cst_577 : StableHlo.TRef sig ⟨S_, .f32⟩) main_call168.v0 id,
    StableHlo.TRef.unary main_call168.v0 main_call168.v1 (broadcastInDim S32768x2 ![] bcast_S_S32768x2),
    StableHlo.TRef.binary main_call168.v1 (.of main_v1798 : StableHlo.TRef sig ⟨S32768x2, .f32⟩) main_call168.v2 maximumf,
    StableHlo.TRef.unary (.of main_cst_578 : StableHlo.TRef sig ⟨S_, .f32⟩) main_call168.v3 id,
    StableHlo.TRef.unary main_call168.v3 main_call168.v4 (broadcastInDim S32768x2 ![] bcast_S_S32768x2),
    StableHlo.TRef.binary main_call168.v4 main_call168.v2 main_call168.v5 minimumf,
    StableHlo.nullary main_cst_579 (constant S_ .f32 0xC1F00000#32),
    StableHlo.nullary main_cst_580 (constant S_ .f32 0x41F00000#32),
    StableHlo.TRef.unary (.of main_cst_579 : StableHlo.TRef sig ⟨S_, .f32⟩) main_call169.v0 id,
    StableHlo.TRef.unary main_call169.v0 main_call169.v1 (broadcastInDim S32768x2 ![] bcast_S_S32768x2),
    StableHlo.TRef.binary main_call169.v1 (.of main_v1799 : StableHlo.TRef sig ⟨S32768x2, .f32⟩) main_call169.v2 maximumf,
    StableHlo.TRef.unary (.of main_cst_580 : StableHlo.TRef sig ⟨S_, .f32⟩) main_call169.v3 id,
    StableHlo.TRef.unary main_call169.v3 main_call169.v4 (broadcastInDim S32768x2 ![] bcast_S_S32768x2),
    StableHlo.TRef.binary main_call169.v4 main_call169.v2 main_call169.v5 minimumf,
    StableHlo.unary main_v1800 main_v1802 (Host.sign : (⟨S32768x2, .f32⟩ : BufTy).Contents (Elt F) → (⟨S32768x2, .f32⟩ : BufTy).Contents (Elt F)),
    StableHlo.unary main_v1801 main_v1803 (Host.sign : (⟨S32768x2, .f32⟩ : BufTy).Contents (Elt F) → (⟨S32768x2, .f32⟩ : BufTy).Contents (Elt F)),
    StableHlo.binary main_v1802 main_v1803 main_v1804 (mulf : (⟨S32768x2, .f32⟩ : BufTy).Contents (Elt F) → (⟨S32768x2, .f32⟩ : BufTy).Contents (Elt F) → (⟨S32768x2, .f32⟩ : BufTy).Contents (Elt F)),
    StableHlo.unary main_v1800 main_v1805 (Host.absf : (⟨S32768x2, .f32⟩ : BufTy).Contents (Elt F) → (⟨S32768x2, .f32⟩ : BufTy).Contents (Elt F)),
    StableHlo.unary main_v1801 main_v1806 (Host.absf : (⟨S32768x2, .f32⟩ : BufTy).Contents (Elt F) → (⟨S32768x2, .f32⟩ : BufTy).Contents (Elt F)),
    StableHlo.binary main_v1805 main_v1806 main_v1807 (minimumf : (⟨S32768x2, .f32⟩ : BufTy).Contents (Elt F) → (⟨S32768x2, .f32⟩ : BufTy).Contents (Elt F) → (⟨S32768x2, .f32⟩ : BufTy).Contents (Elt F)),
    StableHlo.binary main_v1804 main_v1807 main_v1808 (mulf : (⟨S32768x2, .f32⟩ : BufTy).Contents (Elt F) → (⟨S32768x2, .f32⟩ : BufTy).Contents (Elt F) → (⟨S32768x2, .f32⟩ : BufTy).Contents (Elt F)),
    StableHlo.unary main_v1808 main_v1809 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1808 main_v1810 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_581 (constant S_ .f32 0xC1F00000#32),
    StableHlo.nullary main_cst_582 (constant S_ .f32 0x41F00000#32),
    StableHlo.TRef.unary (.of main_cst_581 : StableHlo.TRef sig ⟨S_, .f32⟩) main_call170.v0 id,
    StableHlo.TRef.unary main_call170.v0 main_call170.v1 (broadcastInDim S32768x1 ![] bcast_S_S32768x1),
    StableHlo.TRef.binary main_call170.v1 (.of main_v1809 : StableHlo.TRef sig ⟨S32768x1, .f32⟩) main_call170.v2 maximumf,
    StableHlo.TRef.unary (.of main_cst_582 : StableHlo.TRef sig ⟨S_, .f32⟩) main_call170.v3 id,
    StableHlo.TRef.unary main_call170.v3 main_call170.v4 (broadcastInDim S32768x1 ![] bcast_S_S32768x1),
    StableHlo.TRef.binary main_call170.v4 main_call170.v2 main_call170.v5 minimumf,
    StableHlo.nullary main_cst_583 (constant S_ .f32 0xC1F00000#32),
    StableHlo.nullary main_cst_584 (constant S_ .f32 0x41F00000#32),
    StableHlo.TRef.unary (.of main_cst_583 : StableHlo.TRef sig ⟨S_, .f32⟩) main_call171.v0 id,
    StableHlo.TRef.unary main_call171.v0 main_call171.v1 (broadcastInDim S32768x1 ![] bcast_S_S32768x1),
    StableHlo.TRef.binary main_call171.v1 (.of main_v1810 : StableHlo.TRef sig ⟨S32768x1, .f32⟩) main_call171.v2 maximumf,
    StableHlo.TRef.unary (.of main_cst_584 : StableHlo.TRef sig ⟨S_, .f32⟩) main_call171.v3 id,
    StableHlo.TRef.unary main_call171.v3 main_call171.v4 (broadcastInDim S32768x1 ![] bcast_S_S32768x1),
    StableHlo.TRef.binary main_call171.v4 main_call171.v2 main_call171.v5 minimumf ]

set_option maxRecDepth 8192 in
/-- The window is that straight line: each clip function unfolded at its calls, the sequencing reassociated. -/
theorem part_eq_39 (d : Dev nD) : main_part39 (F := F) d = seq ops39 := by
  simp only [main_part39, fn_clip_3.body, fn_clip_4.body, fn_clip_5.body, fn_clip_6.body, seq, bind_assoc, pure_bind]

/-- Every operation of the window touches TensorCore references only. -/
theorem sub_39 : (ops39 : List (HloOp τ sig (Elt F))).Forall fun op => op.bufs ⊆ tcRefs τ sig :=
  ⟨unary_bufs_sub .., binary_bufs_sub .., nullary_bufs_sub .., unary_bufs_sub .., binary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub ..⟩

/-- Every operation of the window determines all it writes. -/
theorem fresh_39 : (ops39 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_39 (V : Valuation τ sig (Elt F)) :
    after ops39 V (main_arg0 : DevRef τ sig) = V (main_arg0 : DevRef τ sig) := by
  simp only [after_cons, after_nil]
  rfl

end Cert.ReferenceIdeal.RefRun

end
-- ==== Proof.RefRun.W05.lean ====
import proofs.«134088_j24077586662034_2_alg».proof.Defs
import proofs.«134088_j24077586662034_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 2401 … 2460, in order (70 of them): a statement's own operation, or, for a call
    of a clip function, the six operations of its body over that call's buffers. -/
abbrev ops40 : List (HloOp τ sig (Elt F)) :=
  [ StableHlo.unary main_v1811 main_v1813 (Host.sign : (⟨S32768x1, .f32⟩ : BufTy).Contents (Elt F) → (⟨S32768x1, .f32⟩ : BufTy).Contents (Elt F)),
    StableHlo.unary main_v1812 main_v1814 (Host.sign : (⟨S32768x1, .f32⟩ : BufTy).Contents (Elt F) → (⟨S32768x1, .f32⟩ : BufTy).Contents (Elt F)),
    StableHlo.binary main_v1813 main_v1814 main_v1815 (mulf : (⟨S32768x1, .f32⟩ : BufTy).Contents (Elt F) → (⟨S32768x1, .f32⟩ : BufTy).Contents (Elt F) → (⟨S32768x1, .f32⟩ : BufTy).Contents (Elt F)),
    StableHlo.unary main_v1811 main_v1816 (Host.absf : (⟨S32768x1, .f32⟩ : BufTy).Contents (Elt F) → (⟨S32768x1, .f32⟩ : BufTy).Contents (Elt F)),
    StableHlo.unary main_v1812 main_v1817 (Host.absf : (⟨S32768x1, .f32⟩ : BufTy).Contents (Elt F) → (⟨S32768x1, .f32⟩ : BufTy).Contents (Elt F)),
    StableHlo.binary main_v1816 main_v1817 main_v1818 (minimumf : (⟨S32768x1, .f32⟩ : BufTy).Contents (Elt F) → (⟨S32768x1, .f32⟩ : BufTy).Contents (Elt F) → (⟨S32768x1, .f32⟩ : BufTy).Contents (Elt F)),
    StableHlo.binary main_v1815 main_v1818 main_v1819 (mulf : (⟨S32768x1, .f32⟩ : BufTy).Contents (Elt F) → (⟨S32768x1, .f32⟩ : BufTy).Contents (Elt F) → (⟨S32768x1, .f32⟩ : BufTy).Contents (Elt F)),
    StableHlo.nullary main_cst_585 (constant S_ .f32 0x00000000#32),
    StableHlo.unary main_cst_585 main_v1820 (broadcastInDim S32768x1 ![] bcast_S_S32768x1 : (⟨S_, .f32⟩ : BufTy).Contents (Elt F) → (⟨S32768x1, .f32⟩ : BufTy).Contents (Elt F)),
    StableHlo.nullary main_cst_586 (constant S_ .f32 0x40000000#32),
    StableHlo.unary main_cst_586 main_v1821 (broadcastInDim S32768x1 ![] bcast_S_S32768x1 : (⟨S_, .f32⟩ : BufTy).Contents (Elt F) → (⟨S32768x1, .f32⟩ : BufTy).Contents (Elt F)),
    StableHlo.binary main_v1821 main_v1820 main_v1822 (mulf : (⟨S32768x1, .f32⟩ : BufTy).Contents (Elt F) → (⟨S32768x1, .f32⟩ : BufTy).Contents (Elt F) → (⟨S32768x1, .f32⟩ : BufTy).Contents (Elt F)),
    StableHlo.nullary main_cst_587 (constant S_ .f32 0x3F800000#32),
    StableHlo.unary main_cst_587 main_v1823 (broadcastInDim S32768x1 ![] bcast_S_S32768x1 : (⟨S_, .f32⟩ : BufTy).Contents (Elt F) → (⟨S32768x1, .f32⟩ : BufTy).Contents (Elt F)),
    StableHlo.binary main_v1823 main_v1822 main_v1824 (subf : (⟨S32768x1, .f32⟩ : BufTy).Contents (Elt F) → (⟨S32768x1, .f32⟩ : BufTy).Contents (Elt F) → (⟨S32768x1, .f32⟩ : BufTy).Contents (Elt F)),
    StableHlo.binary main_v1824 main_v1809 main_v1825 (mulf : (⟨S32768x1, .f32⟩ : BufTy).Contents (Elt F) → (⟨S32768x1, .f32⟩ : BufTy).Contents (Elt F) → (⟨S32768x1, .f32⟩ : BufTy).Contents (Elt F)),
    StableHlo.binary main_v1825 main_v1810 main_v1826 (addf : (⟨S32768x1, .f32⟩ : BufTy).Contents (Elt F) → (⟨S32768x1, .f32⟩ : BufTy).Contents (Elt F) → (⟨S32768x1, .f32⟩ : BufTy).Contents (Elt F)),
    StableHlo.nullary main_cst_588 (constant S_ .f32 0x00000000#32),
    StableHlo.unary main_cst_588 main_v1827 (broadcastInDim S32768x1 ![] bcast_S_S32768x1 : (⟨S_, .f32⟩ : BufTy).Contents (Elt F) → (⟨S32768x1, .f32⟩ : BufTy).Contents (Elt F)),
    StableHlo.binary main_v1820 main_v1827 main_v1828 (cmpf .une : (⟨S32768x1, .f32⟩ : BufTy).Contents (Elt F) → (⟨S32768x1, .f32⟩ : BufTy).Contents (Elt F) → (⟨S32768x1, .i1⟩ : BufTy).Contents (Elt F)),
    StableHlo.unary main_v1828 main_v1829 (uitofp .f32 : (⟨S32768x1, .i1⟩ : BufTy).Contents (Elt F) → (⟨S32768x1, .f32⟩ : BufTy).Contents (Elt F)),
    StableHlo.binary main_v1829 main_v1827 main_v1830 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1820 main_v1827 main_v1831 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_589 (constant S_ .f32 0x40000000#32),
    StableHlo.unary main_cst_589 main_v1832 (broadcastInDim S32768x2 ![] bcast_S_S32768x2 : (⟨S_, .f32⟩ : BufTy).Contents (Elt F) → (⟨S32768x2, .f32⟩ : BufTy).Contents (Elt F)),
    StableHlo.binary main_v1832 main_v1830 main_v1833 (mulf : (⟨S32768x2, .f32⟩ : BufTy).Contents (Elt F) → (⟨S32768x2, .f32⟩ : BufTy).Contents (Elt F) → (⟨S32768x2, .f32⟩ : BufTy).Contents (Elt F)),
    StableHlo.nullary main_cst_590 (constant S_ .f32 0x3F800000#32),
    StableHlo.unary main_cst_590 main_v1834 (broadcastInDim S32768x2 ![] bcast_S_S32768x2 : (⟨S_, .f32⟩ : BufTy).Contents (Elt F) → (⟨S32768x2, .f32⟩ : BufTy).Contents (Elt F)),
    StableHlo.binary main_v1834 main_v1833 main_v1835 (subf : (⟨S32768x2, .f32⟩ : BufTy).Contents (Elt F) → (⟨S32768x2, .f32⟩ : BufTy).Contents (Elt F) → (⟨S32768x2, .f32⟩ : BufTy).Contents (Elt F)),
    StableHlo.binary main_v1835 main_v1798 main_v1836 (mulf : (⟨S32768x2, .f32⟩ : BufTy).Contents (Elt F) → (⟨S32768x2, .f32⟩ : BufTy).Contents (Elt F) → (⟨S32768x2, .f32⟩ : BufTy).Contents (Elt F)),
    StableHlo.binary main_v1836 main_v1799 main_v1837 (addf : (⟨S32768x2, .f32⟩ : BufTy).Contents (Elt F) → (⟨S32768x2, .f32⟩ : BufTy).Contents (Elt F) → (⟨S32768x2, .f32⟩ : BufTy).Contents (Elt F)),
    StableHlo.unary main_v1837 main_v1838 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1837 main_v1839 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_591 (constant S_ .f32 0xC1F00000#32),
    StableHlo.nullary main_cst_592 (constant S_ .f32 0x41F00000#32),
    StableHlo.TRef.unary (.of main_cst_591 : StableHlo.TRef sig ⟨S_, .f32⟩) main_call172.v0 id,
    StableHlo.TRef.unary main_call172.v0 main_call172.v1 (broadcastInDim S32768x1 ![] bcast_S_S32768x1),
    StableHlo.TRef.binary main_call172.v1 (.of main_v1838 : StableHlo.TRef sig ⟨S32768x1, .f32⟩) main_call172.v2 maximumf,
    StableHlo.TRef.unary (.of main_cst_592 : StableHlo.TRef sig ⟨S_, .f32⟩) main_call172.v3 id,
    StableHlo.TRef.unary main_call172.v3 main_call172.v4 (broadcastInDim S32768x1 ![] bcast_S_S32768x1),
    StableHlo.TRef.binary main_call172.v4 main_call172.v2 main_call172.v5 minimumf,
    StableHlo.nullary main_cst_593 (constant S_ .f32 0xC1F00000#32),
    StableHlo.nullary main_cst_594 (constant S_ .f32 0x41F00000#32),
    StableHlo.TRef.unary (.of main_cst_593 : StableHlo.TRef sig ⟨S_, .f32⟩) main_call173.v0 id,
    StableHlo.TRef.unary main_call173.v0 main_call173.v1 (broadcastInDim S32768x1 ![] bcast_S_S32768x1),
    StableHlo.TRef.binary main_call173.v1 (.of main_v1839 : StableHlo.TRef sig ⟨S32768x1, .f32⟩) main_call173.v2 maximumf,
    StableHlo.TRef.unary (.of main_cst_594 : StableHlo.TRef sig ⟨S_, .f32⟩) main_call173.v3 id,
    StableHlo.TRef.unary main_call173.v3 main_call173.v4 (broadcastInDim S32768x1 ![] bcast_S_S32768x1),
    StableHlo.TRef.binary main_call173.v4 main_call173.v2 main_call173.v5 minimumf,
    StableHlo.unary main_v1840 main_v1842 (Host.sign : (⟨S32768x1, .f32⟩ : BufTy).Contents (Elt F) → (⟨S32768x1, .f32⟩ : BufTy).Contents (Elt F)),
    StableHlo.unary main_v1841 main_v1843 (Host.sign : (⟨S32768x1, .f32⟩ : BufTy).Contents (Elt F) → (⟨S32768x1, .f32⟩ : BufTy).Contents (Elt F)),
    StableHlo.binary main_v1842 main_v1843 main_v1844 (mulf : (⟨S32768x1, .f32⟩ : BufTy).Contents (Elt F) → (⟨S32768x1, .f32⟩ : BufTy).Contents (Elt F) → (⟨S32768x1, .f32⟩ : BufTy).Contents (Elt F)),
    StableHlo.unary main_v1840 main_v1845 (Host.absf : (⟨S32768x1, .f32⟩ : BufTy).Contents (Elt F) → (⟨S32768x1, .f32⟩ : BufTy).Contents (Elt F)),
    StableHlo.unary main_v1841 main_v1846 (Host.absf : (⟨S32768x1, .f32⟩ : BufTy).Contents (Elt F) → (⟨S32768x1, .f32⟩ : BufTy).Contents (Elt F)),
    StableHlo.binary main_v1845 main_v1846 main_v1847 (minimumf : (⟨S32768x1, .f32⟩ : BufTy).Contents (Elt F) → (⟨S32768x1, .f32⟩ : BufTy).Contents (Elt F) → (⟨S32768x1, .f32⟩ : BufTy).Contents (Elt F)),
    StableHlo.binary main_v1844 main_v1847 main_v1848 (mulf : (⟨S32768x1, .f32⟩ : BufTy).Contents (Elt F) → (⟨S32768x1, .f32⟩ : BufTy).Contents (Elt F) → (⟨S32768x1, .f32⟩ : BufTy).Contents (Elt F)),
    StableHlo.nullary main_cst_595 (constant S_ .f32 0x00000000#32),
    StableHlo.unary main_cst_595 main_v1849 (broadcastInDim S32768x1 ![] bcast_S_S32768x1 : (⟨S_, .f32⟩ : BufTy).Contents (Elt F) → (⟨S32768x1, .f32⟩ : BufTy).Contents (Elt F)),
    StableHlo.nullary main_cst_596 (constant S_ .f32 0x40000000#32),
    StableHlo.unary main_cst_596 main_v1850 (broadcastInDim S32768x1 ![] bcast_S_S32768x1 : (⟨S_, .f32⟩ : BufTy).Contents (Elt F) → (⟨S32768x1, .f32⟩ : BufTy).Contents (Elt F)),
    StableHlo.binary main_v1850 main_v1849 main_v1851 (mulf : (⟨S32768x1, .f32⟩ : BufTy).Contents (Elt F) → (⟨S32768x1, .f32⟩ : BufTy).Contents (Elt F) → (⟨S32768x1, .f32⟩ : BufTy).Contents (Elt F)),
    StableHlo.nullary main_cst_597 (constant S_ .f32 0x3F800000#32),
    StableHlo.unary main_cst_597 main_v1852 (broadcastInDim S32768x1 ![] bcast_S_S32768x1 : (⟨S_, .f32⟩ : BufTy).Contents (Elt F) → (⟨S32768x1, .f32⟩ : BufTy).Contents (Elt F)),
    StableHlo.binary main_v1852 main_v1851 main_v1853 (subf : (⟨S32768x1, .f32⟩ : BufTy).Contents (Elt F) → (⟨S32768x1, .f32⟩ : BufTy).Contents (Elt F) → (⟨S32768x1, .f32⟩ : BufTy).Contents (Elt F)),
    StableHlo.binary main_v1853 main_v1838 main_v1854 (mulf : (⟨S32768x1, .f32⟩ : BufTy).Contents (Elt F) → (⟨S32768x1, .f32⟩ : BufTy).Contents (Elt F) → (⟨S32768x1, .f32⟩ : BufTy).Contents (Elt F)),
    StableHlo.binary main_v1854 main_v1839 main_v1855 (addf : (⟨S32768x1, .f32⟩ : BufTy).Contents (Elt F) → (⟨S32768x1, .f32⟩ : BufTy).Contents (Elt F) → (⟨S32768x1, .f32⟩ : BufTy).Contents (Elt F)),
    StableHlo.nullary main_cst_598 (constant S_ .f32 0x00000000#32),
    StableHlo.unary main_cst_598 main_v1856 (broadcastInDim S32768x1 ![] bcast_S_S32768x1 : (⟨S_, .f32⟩ : BufTy).Contents (Elt F) → (⟨S32768x1, .f32⟩ : BufTy).Contents (Elt F)),
    StableHlo.binary main_v1849 main_v1856 main_v1857 (cmpf .une : (⟨S32768x1, .f32⟩ : BufTy).Contents (Elt F) → (⟨S32768x1, .f32⟩ : BufTy).Contents (Elt F) → (⟨S32768x1, .i1⟩ : BufTy).Contents (Elt F)),
    StableHlo.unary main_v1857 main_v1858 (uitofp .f32 : (⟨S32768x1, .i1⟩ : BufTy).Contents (Elt F) → (⟨S32768x1, .f32⟩ : BufTy).Contents (Elt F)) ]

set_option maxRecDepth 8192 in
/-- The window is that straight line: each clip function unfolded at its calls, the sequencing reassociated. -/
theorem part_eq_40 (d : Dev nD) : main_part40 (F := F) d = seq ops40 := by
  simp only [main_part40, fn_clip_6.body, seq, bind_assoc, pure_bind]
  rfl

/-- Every operation of the window touches TensorCore references only. -/
theorem sub_40 : (ops40 : List (HloOp τ sig (Elt F))).Forall fun op => op.bufs ⊆ tcRefs τ sig :=
  ⟨unary_bufs_sub .., unary_bufs_sub .., binary_bufs_sub .., unary_bufs_sub .., unary_bufs_sub .., binary_bufs_sub ..,
    binary_bufs_sub .., nullary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., nullary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., unary_bufs_sub ..⟩

/-- Every operation of the window determines all it writes. -/
theorem fresh_40 : (ops40 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_40 (V : Valuation τ sig (Elt F)) :
    after ops40 V (main_arg0 : DevRef τ sig) = V (main_arg0 : DevRef τ sig) := by
  simp only [after_cons, after_nil]
  rfl

/-- The operations of @main's statements 2461 … 2520, in order (80 of them): a statement's own operation, or, for a call
    of a clip function, the six operations of its body over that call's buffers. -/
abbrev ops41 : List (HloOp τ sig (Elt F)) :=
  [ StableHlo.binary main_v1858 main_v1856 main_v1859 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1849 main_v1856 main_v1860 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1830 main_v1859 main_v1861 (cmpf .une : (⟨S32768x2, .f32⟩ : BufTy).Contents (Elt F) → (⟨S32768x2, .f32⟩ : BufTy).Contents (Elt F) → (⟨S32768x2, .i1⟩ : BufTy).Contents (Elt F)),
    StableHlo.unary main_v1861 main_v1862 (uitofp .f32 : (⟨S32768x2, .i1⟩ : BufTy).Contents (Elt F) → (⟨S32768x2, .f32⟩ : BufTy).Contents (Elt F)),
    StableHlo.binary main_v1862 main_v1859 main_v1863 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v1831 main_v1860 main_v1864 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_599 (constant S_ .f32 0x40000000#32),
    StableHlo.unary main_cst_599 main_v1865 (broadcastInDim S32768x4 ![] bcast_S_S32768x4 : (⟨S_, .f32⟩ : BufTy).Contents (Elt F) → (⟨S32768x4, .f32⟩ : BufTy).Contents (Elt F)),
    StableHlo.binary main_v1865 main_v1863 main_v1866 (mulf : (⟨S32768x4, .f32⟩ : BufTy).Contents (Elt F) → (⟨S32768x4, .f32⟩ : BufTy).Contents (Elt F) → (⟨S32768x4, .f32⟩ : BufTy).Contents (Elt F)),
    StableHlo.nullary main_cst_600 (constant S_ .f32 0x3F800000#32),
    StableHlo.unary main_cst_600 main_v1867 (broadcastInDim S32768x4 ![] bcast_S_S32768x4 : (⟨S_, .f32⟩ : BufTy).Contents (Elt F) → (⟨S32768x4, .f32⟩ : BufTy).Contents (Elt F)),
    StableHlo.binary main_v1867 main_v1866 main_v1868 (subf : (⟨S32768x4, .f32⟩ : BufTy).Contents (Elt F) → (⟨S32768x4, .f32⟩ : BufTy).Contents (Elt F) → (⟨S32768x4, .f32⟩ : BufTy).Contents (Elt F)),
    StableHlo.binary main_v1868 main_v1787 main_v1869 (mulf : (⟨S32768x4, .f32⟩ : BufTy).Contents (Elt F) → (⟨S32768x4, .f32⟩ : BufTy).Contents (Elt F) → (⟨S32768x4, .f32⟩ : BufTy).Contents (Elt F)),
    StableHlo.binary main_v1869 main_v1788 main_v1870 (addf : (⟨S32768x4, .f32⟩ : BufTy).Contents (Elt F) → (⟨S32768x4, .f32⟩ : BufTy).Contents (Elt F) → (⟨S32768x4, .f32⟩ : BufTy).Contents (Elt F)),
    StableHlo.unary main_v1870 main_v1871 ((extractStridedSlice S32768x2 ![0, 0] · slices_S32768x4_S32768x2_0_0) : (⟨S32768x4, .f32⟩ : BufTy).Contents (Elt F) → (⟨S32768x2, .f32⟩ : BufTy).Contents (Elt F)),
    StableHlo.unary main_v1870 main_v1872 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_601 (constant S_ .f32 0xC1F00000#32),
    StableHlo.nullary main_cst_602 (constant S_ .f32 0x41F00000#32),
    StableHlo.TRef.unary (.of main_cst_601 : StableHlo.TRef sig ⟨S_, .f32⟩) main_call174.v0 id,
    StableHlo.TRef.unary main_call174.v0 main_call174.v1 (broadcastInDim S32768x2 ![] bcast_S_S32768x2),
    StableHlo.TRef.binary main_call174.v1 (.of main_v1871 : StableHlo.TRef sig ⟨S32768x2, .f32⟩) main_call174.v2 maximumf,
    StableHlo.TRef.unary (.of main_cst_602 : StableHlo.TRef sig ⟨S_, .f32⟩) main_call174.v3 id,
    StableHlo.TRef.unary main_call174.v3 main_call174.v4 (broadcastInDim S32768x2 ![] bcast_S_S32768x2),
    StableHlo.TRef.binary main_call174.v4 main_call174.v2 main_call174.v5 minimumf,
    StableHlo.nullary main_cst_603 (constant S_ .f32 0xC1F00000#32),
    StableHlo.nullary main_cst_604 (constant S_ .f32 0x41F00000#32),
    StableHlo.TRef.unary (.of main_cst_603 : StableHlo.TRef sig ⟨S_, .f32⟩) main_call175.v0 id,
    StableHlo.TRef.unary main_call175.v0 main_call175.v1 (broadcastInDim S32768x2 ![] bcast_S_S32768x2),
    StableHlo.TRef.binary main_call175.v1 (.of main_v1872 : StableHlo.TRef sig ⟨S32768x2, .f32⟩) main_call175.v2 maximumf,
    StableHlo.TRef.unary (.of main_cst_604 : StableHlo.TRef sig ⟨S_, .f32⟩) main_call175.v3 id,
    StableHlo.TRef.unary main_call175.v3 main_call175.v4 (broadcastInDim S32768x2 ![] bcast_S_S32768x2),
    StableHlo.TRef.binary main_call175.v4 main_call175.v2 main_call175.v5 minimumf,
    StableHlo.unary main_v1873 main_v1875 (Host.sign : (⟨S32768x2, .f32⟩ : BufTy).Contents (Elt F) → (⟨S32768x2, .f32⟩ : BufTy).Contents (Elt F)),
    StableHlo.unary main_v1874 main_v1876 (Host.sign : (⟨S32768x2, .f32⟩ : BufTy).Contents (Elt F) → (⟨S32768x2, .f32⟩ : BufTy).Contents (Elt F)),
    StableHlo.binary main_v1875 main_v1876 main_v1877 (mulf : (⟨S32768x2, .f32⟩ : BufTy).Contents (Elt F) → (⟨S32768x2, .f32⟩ : BufTy).Contents (Elt F) → (⟨S32768x2, .f32⟩ : BufTy).Contents (Elt F)),
    StableHlo.unary main_v1873 main_v1878 (Host.absf : (⟨S32768x2, .f32⟩ : BufTy).Contents (Elt F) → (⟨S32768x2, .f32⟩ : BufTy).Contents (Elt F)),
    StableHlo.unary main_v1874 main_v1879 (Host.absf : (⟨S32768x2, .f32⟩ : BufTy).Contents (Elt F) → (⟨S32768x2, .f32⟩ : BufTy).Contents (Elt F)),
    StableHlo.binary main_v1878 main_v1879 main_v1880 (minimumf : (⟨S32768x2, .f32⟩ : BufTy).Contents (Elt F) → (⟨S32768x2, .f32⟩ : BufTy).Contents (Elt F) → (⟨S32768x2, .f32⟩ : BufTy).Contents (Elt F)),
    StableHlo.binary main_v1877 main_v1880 main_v1881 (mulf : (⟨S32768x2, .f32⟩ : BufTy).Contents (Elt F) → (⟨S32768x2, .f32⟩ : BufTy).Contents (Elt F) → (⟨S32768x2, .f32⟩ : BufTy).Contents (Elt F)),
    StableHlo.unary main_v1881 main_v1882 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1881 main_v1883 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_605 (constant S_ .f32 0xC1F00000#32),
    StableHlo.nullary main_cst_606 (constant S_ .f32 0x41F00000#32),
    StableHlo.TRef.unary (.of main_cst_605 : StableHlo.TRef sig ⟨S_, .f32⟩) main_call176.v0 id,
    StableHlo.TRef.unary main_call176.v0 main_call176.v1 (broadcastInDim S32768x1 ![] bcast_S_S32768x1),
    StableHlo.TRef.binary main_call176.v1 (.of main_v1882 : StableHlo.TRef sig ⟨S32768x1, .f32⟩) main_call176.v2 maximumf,
    StableHlo.TRef.unary (.of main_cst_606 : StableHlo.TRef sig ⟨S_, .f32⟩) main_call176.v3 id,
    StableHlo.TRef.unary main_call176.v3 main_call176.v4 (broadcastInDim S32768x1 ![] bcast_S_S32768x1),
    StableHlo.TRef.binary main_call176.v4 main_call176.v2 main_call176.v5 minimumf,
    StableHlo.nullary main_cst_607 (constant S_ .f32 0xC1F00000#32),
    StableHlo.nullary main_cst_608 (constant S_ .f32 0x41F00000#32),
    StableHlo.TRef.unary (.of main_cst_607 : StableHlo.TRef sig ⟨S_, .f32⟩) main_call177.v0 id,
    StableHlo.TRef.unary main_call177.v0 main_call177.v1 (broadcastInDim S32768x1 ![] bcast_S_S32768x1),
    StableHlo.TRef.binary main_call177.v1 (.of main_v1883 : StableHlo.TRef sig ⟨S32768x1, .f32⟩) main_call177.v2 maximumf,
    StableHlo.TRef.unary (.of main_cst_608 : StableHlo.TRef sig ⟨S_, .f32⟩) main_call177.v3 id,
    StableHlo.TRef.unary main_call177.v3 main_call177.v4 (broadcastInDim S32768x1 ![] bcast_S_S32768x1),
    StableHlo.TRef.binary main_call177.v4 main_call177.v2 main_call177.v5 minimumf,
    StableHlo.unary main_v1884 main_v1886 (Host.sign : (⟨S32768x1, .f32⟩ : BufTy).Contents (Elt F) → (⟨S32768x1, .f32⟩ : BufTy).Contents (Elt F)),
    StableHlo.unary main_v1885 main_v1887 (Host.sign : (⟨S32768x1, .f32⟩ : BufTy).Contents (Elt F) → (⟨S32768x1, .f32⟩ : BufTy).Contents (Elt F)),
    StableHlo.binary main_v1886 main_v1887 main_v1888 (mulf : (⟨S32768x1, .f32⟩ : BufTy).Contents (Elt F) → (⟨S32768x1, .f32⟩ : BufTy).Contents (Elt F) → (⟨S32768x1, .f32⟩ : BufTy).Contents (Elt F)),
    StableHlo.unary main_v1884 main_v1889 (Host.absf : (⟨S32768x1, .f32⟩ : BufTy).Contents (Elt F) → (⟨S32768x1, .f32⟩ : BufTy).Contents (Elt F)),
    StableHlo.unary main_v1885 main_v1890 (Host.absf : (⟨S32768x1, .f32⟩ : BufTy).Contents (Elt F) → (⟨S32768x1, .f32⟩ : BufTy).Contents (Elt F)),
    StableHlo.binary main_v1889 main_v1890 main_v1891 (minimumf : (⟨S32768x1, .f32⟩ : BufTy).Contents (Elt F) → (⟨S32768x1, .f32⟩ : BufTy).Contents (Elt F) → (⟨S32768x1, .f32⟩ : BufTy).Contents (Elt F)),
    StableHlo.binary main_v1888 main_v1891 main_v1892 (mulf : (⟨S32768x1, .f32⟩ : BufTy).Contents (Elt F) → (⟨S32768x1, .f32⟩ : BufTy).Contents (Elt F) → (⟨S32768x1, .f32⟩ : BufTy).Contents (Elt F)),
    StableHlo.nullary main_cst_609 (constant S_ .f32 0x00000000#32),
    StableHlo.unary main_cst_609 main_v1893 (broadcastInDim S32768x1 ![] bcast_S_S32768x1 : (⟨S_, .f32⟩ : BufTy).Contents (Elt F) → (⟨S32768x1, .f32⟩ : BufTy).Contents (Elt F)),
    StableHlo.nullary main_cst_610 (constant S_ .f32 0x40000000#32),
    StableHlo.unary main_cst_610 main_v1894 (broadcastInDim S32768x1 ![] bcast_S_S32768x1 : (⟨S_, .f32⟩ : BufTy).Contents (Elt F) → (⟨S32768x1, .f32⟩ : BufTy).Contents (Elt F)),
    StableHlo.binary main_v1894 main_v1893 main_v1895 (mulf : (⟨S32768x1, .f32⟩ : BufTy).Contents (Elt F) → (⟨S32768x1, .f32⟩ : BufTy).Contents (Elt F) → (⟨S32768x1, .f32⟩ : BufTy).Contents (Elt F)),
    StableHlo.nullary main_cst_611 (constant S_ .f32 0x3F800000#32),
    StableHlo.unary main_cst_611 main_v1896 (broadcastInDim S32768x1 ![] bcast_S_S32768x1 : (⟨S_, .f32⟩ : BufTy).Contents (Elt F) → (⟨S32768x1, .f32⟩ : BufTy).Contents (Elt F)),
    StableHlo.binary main_v1896 main_v1895 main_v1897 (subf : (⟨S32768x1, .f32⟩ : BufTy).Contents (Elt F) → (⟨S32768x1, .f32⟩ : BufTy).Contents (Elt F) → (⟨S32768x1, .f32⟩ : BufTy).Contents (Elt F)),
    StableHlo.binary main_v1897 main_v1882 main_v1898 (mulf : (⟨S32768x1, .f32⟩ : BufTy).Contents (Elt F) → (⟨S32768x1, .f32⟩ : BufTy).Contents (Elt F) → (⟨S32768x1, .f32⟩ : BufTy).Contents (Elt F)),
    StableHlo.binary main_v1898 main_v1883 main_v1899 (addf : (⟨S32768x1, .f32⟩ : BufTy).Contents (Elt F) → (⟨S32768x1, .f32⟩ : BufTy).Contents (Elt F) → (⟨S32768x1, .f32⟩ : BufTy).Contents (Elt F)),
    StableHlo.nullary main_cst_612 (constant S_ .f32 0x00000000#32),
    StableHlo.unary main_cst_612 main_v1900 (broadcastInDim S32768x1 ![] bcast_S_S32768x1 : (⟨S_, .f32⟩ : BufTy).Contents (Elt F) → (⟨S32768x1, .f32⟩ : BufTy).Contents (Elt F)),
    StableHlo.binary main_v1893 main_v1900 main_v1901 (cmpf .une : (⟨S32768x1, .f32⟩ : BufTy).Contents (Elt F) → (⟨S32768x1, .f32⟩ : BufTy).Contents (Elt F) → (⟨S32768x1, .i1⟩ : BufTy).Contents (Elt F)),
    StableHlo.unary main_v1901 main_v1902 (uitofp .f32 : (⟨S32768x1, .i1⟩ : BufTy).Contents (Elt F) → (⟨S32768x1, .f32⟩ : BufTy).Contents (Elt F)),
    StableHlo.binary main_v1902 main_v1900 main_v1903 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1893 main_v1900 main_v1904 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)) ]

set_option maxRecDepth 8192 in
/-- The window is that straight line: each clip function unfolded at its calls, the sequencing reassociated. -/
theorem part_eq_41 (d : Dev nD) : main_part41 (F := F) d = seq ops41 := by
  simp only [main_part41, fn_clip_5.body, fn_clip_6.body, seq, bind_assoc, pure_bind]
  rfl

/-- Every operation of the window touches TensorCore references only. -/
theorem sub_41 : (ops41 : List (HloOp τ sig (Elt F))).Forall fun op => op.bufs ⊆ tcRefs τ sig :=
  ⟨binary_bufs_sub .., binary_bufs_sub .., binary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., nullary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., binary_bufs_sub ..⟩

/-- Every operation of the window determines all it writes. -/
theorem fresh_41 : (ops41 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_41 (V : Valuation τ sig (Elt F)) :
    after ops41 V (main_arg0 : DevRef τ sig) = V (main_arg0 : DevRef τ sig) := by
  simp only [after_cons, after_nil]
  rfl

/-- The operations of @main's statements 2521 … 2580, in order (75 of them): a statement's own operation, or, for a call
    of a clip function, the six operations of its body over that call's buffers. -/
abbrev ops42 : List (HloOp τ sig (Elt F)) :=
  [ StableHlo.nullary main_cst_613 (constant S_ .f32 0x40000000#32),
    StableHlo.unary main_cst_613 main_v1905 (broadcastInDim S32768x2 ![] bcast_S_S32768x2 : (⟨S_, .f32⟩ : BufTy).Contents (Elt F) → (⟨S32768x2, .f32⟩ : BufTy).Contents (Elt F)),
    StableHlo.binary main_v1905 main_v1903 main_v1906 (mulf : (⟨S32768x2, .f32⟩ : BufTy).Contents (Elt F) → (⟨S32768x2, .f32⟩ : BufTy).Contents (Elt F) → (⟨S32768x2, .f32⟩ : BufTy).Contents (Elt F)),
    StableHlo.nullary main_cst_614 (constant S_ .f32 0x3F800000#32),
    StableHlo.unary main_cst_614 main_v1907 (broadcastInDim S32768x2 ![] bcast_S_S32768x2 : (⟨S_, .f32⟩ : BufTy).Contents (Elt F) → (⟨S32768x2, .f32⟩ : BufTy).Contents (Elt F)),
    StableHlo.binary main_v1907 main_v1906 main_v1908 (subf : (⟨S32768x2, .f32⟩ : BufTy).Contents (Elt F) → (⟨S32768x2, .f32⟩ : BufTy).Contents (Elt F) → (⟨S32768x2, .f32⟩ : BufTy).Contents (Elt F)),
    StableHlo.binary main_v1908 main_v1871 main_v1909 (mulf : (⟨S32768x2, .f32⟩ : BufTy).Contents (Elt F) → (⟨S32768x2, .f32⟩ : BufTy).Contents (Elt F) → (⟨S32768x2, .f32⟩ : BufTy).Contents (Elt F)),
    StableHlo.binary main_v1909 main_v1872 main_v1910 (addf : (⟨S32768x2, .f32⟩ : BufTy).Contents (Elt F) → (⟨S32768x2, .f32⟩ : BufTy).Contents (Elt F) → (⟨S32768x2, .f32⟩ : BufTy).Contents (Elt F)),
    StableHlo.unary main_v1910 main_v1911 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1910 main_v1912 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_615 (constant S_ .f32 0xC1F00000#32),
    StableHlo.nullary main_cst_616 (constant S_ .f32 0x41F00000#32),
    StableHlo.TRef.unary (.of main_cst_615 : StableHlo.TRef sig ⟨S_, .f32⟩) main_call178.v0 id,
    StableHlo.TRef.unary main_call178.v0 main_call178.v1 (broadcastInDim S32768x1 ![] bcast_S_S32768x1),
    StableHlo.TRef.binary main_call178.v1 (.of main_v1911 : StableHlo.TRef sig ⟨S32768x1, .f32⟩) main_call178.v2 maximumf,
    StableHlo.TRef.unary (.of main_cst_616 : StableHlo.TRef sig ⟨S_, .f32⟩) main_call178.v3 id,
    StableHlo.TRef.unary main_call178.v3 main_call178.v4 (broadcastInDim S32768x1 ![] bcast_S_S32768x1),
    StableHlo.TRef.binary main_call178.v4 main_call178.v2 main_call178.v5 minimumf,
    StableHlo.nullary main_cst_617 (constant S_ .f32 0xC1F00000#32),
    StableHlo.nullary main_cst_618 (constant S_ .f32 0x41F00000#32),
    StableHlo.TRef.unary (.of main_cst_617 : StableHlo.TRef sig ⟨S_, .f32⟩) main_call179.v0 id,
    StableHlo.TRef.unary main_call179.v0 main_call179.v1 (broadcastInDim S32768x1 ![] bcast_S_S32768x1),
    StableHlo.TRef.binary main_call179.v1 (.of main_v1912 : StableHlo.TRef sig ⟨S32768x1, .f32⟩) main_call179.v2 maximumf,
    StableHlo.TRef.unary (.of main_cst_618 : StableHlo.TRef sig ⟨S_, .f32⟩) main_call179.v3 id,
    StableHlo.TRef.unary main_call179.v3 main_call179.v4 (broadcastInDim S32768x1 ![] bcast_S_S32768x1),
    StableHlo.TRef.binary main_call179.v4 main_call179.v2 main_call179.v5 minimumf,
    StableHlo.unary main_v1913 main_v1915 (Host.sign : (⟨S32768x1, .f32⟩ : BufTy).Contents (Elt F) → (⟨S32768x1, .f32⟩ : BufTy).Contents (Elt F)),
    StableHlo.unary main_v1914 main_v1916 (Host.sign : (⟨S32768x1, .f32⟩ : BufTy).Contents (Elt F) → (⟨S32768x1, .f32⟩ : BufTy).Contents (Elt F)),
    StableHlo.binary main_v1915 main_v1916 main_v1917 (mulf : (⟨S32768x1, .f32⟩ : BufTy).Contents (Elt F) → (⟨S32768x1, .f32⟩ : BufTy).Contents (Elt F) → (⟨S32768x1, .f32⟩ : BufTy).Contents (Elt F)),
    StableHlo.unary main_v1913 main_v1918 (Host.absf : (⟨S32768x1, .f32⟩ : BufTy).Contents (Elt F) → (⟨S32768x1, .f32⟩ : BufTy).Contents (Elt F)),
    StableHlo.unary main_v1914 main_v1919 (Host.absf : (⟨S32768x1, .f32⟩ : BufTy).Contents (Elt F) → (⟨S32768x1, .f32⟩ : BufTy).Contents (Elt F)),
    StableHlo.binary main_v1918 main_v1919 main_v1920 (minimumf : (⟨S32768x1, .f32⟩ : BufTy).Contents (Elt F) → (⟨S32768x1, .f32⟩ : BufTy).Contents (Elt F) → (⟨S32768x1, .f32⟩ : BufTy).Contents (Elt F)),
    StableHlo.binary main_v1917 main_v1920 main_v1921 (mulf : (⟨S32768x1, .f32⟩ : BufTy).Contents (Elt F) → (⟨S32768x1, .f32⟩ : BufTy).Contents (Elt F) → (⟨S32768x1, .f32⟩ : BufTy).Contents (Elt F)),
    StableHlo.nullary main_cst_619 (constant S_ .f32 0x00000000#32),
    StableHlo.unary main_cst_619 main_v1922 (broadcastInDim S32768x1 ![] bcast_S_S32768x1 : (⟨S_, .f32⟩ : BufTy).Contents (Elt F) → (⟨S32768x1, .f32⟩ : BufTy).Contents (Elt F)),
    StableHlo.nullary main_cst_620 (constant S_ .f32 0x40000000#32),
    StableHlo.unary main_cst_620 main_v1923 (broadcastInDim S32768x1 ![] bcast_S_S32768x1 : (⟨S_, .f32⟩ : BufTy).Contents (Elt F) → (⟨S32768x1, .f32⟩ : BufTy).Contents (Elt F)),
    StableHlo.binary main_v1923 main_v1922 main_v1924 (mulf : (⟨S32768x1, .f32⟩ : BufTy).Contents (Elt F) → (⟨S32768x1, .f32⟩ : BufTy).Contents (Elt F) → (⟨S32768x1, .f32⟩ : BufTy).Contents (Elt F)),
    StableHlo.nullary main_cst_621 (constant S_ .f32 0x3F800000#32),
    StableHlo.unary main_cst_621 main_v1925 (broadcastInDim S32768x1 ![] bcast_S_S32768x1 : (⟨S_, .f32⟩ : BufTy).Contents (Elt F) → (⟨S32768x1, .f32⟩ : BufTy).Contents (Elt F)),
    StableHlo.binary main_v1925 main_v1924 main_v1926 (subf : (⟨S32768x1, .f32⟩ : BufTy).Contents (Elt F) → (⟨S32768x1, .f32⟩ : BufTy).Contents (Elt F) → (⟨S32768x1, .f32⟩ : BufTy).Contents (Elt F)),
    StableHlo.binary main_v1926 main_v1911 main_v1927 (mulf : (⟨S32768x1, .f32⟩ : BufTy).Contents (Elt F) → (⟨S32768x1, .f32⟩ : BufTy).Contents (Elt F) → (⟨S32768x1, .f32⟩ : BufTy).Contents (Elt F)),
    StableHlo.binary main_v1927 main_v1912 main_v1928 (addf : (⟨S32768x1, .f32⟩ : BufTy).Contents (Elt F) → (⟨S32768x1, .f32⟩ : BufTy).Contents (Elt F) → (⟨S32768x1, .f32⟩ : BufTy).Contents (Elt F)),
    StableHlo.nullary main_cst_622 (constant S_ .f32 0x00000000#32),
    StableHlo.unary main_cst_622 main_v1929 (broadcastInDim S32768x1 ![] bcast_S_S32768x1 : (⟨S_, .f32⟩ : BufTy).Contents (Elt F) → (⟨S32768x1, .f32⟩ : BufTy).Contents (Elt F)),
    StableHlo.binary main_v1922 main_v1929 main_v1930 (cmpf .une : (⟨S32768x1, .f32⟩ : BufTy).Contents (Elt F) → (⟨S32768x1, .f32⟩ : BufTy).Contents (Elt F) → (⟨S32768x1, .i1⟩ : BufTy).Contents (Elt F)),
    StableHlo.unary main_v1930 main_v1931 (uitofp .f32 : (⟨S32768x1, .i1⟩ : BufTy).Contents (Elt F) → (⟨S32768x1, .f32⟩ : BufTy).Contents (Elt F)),
    StableHlo.binary main_v1931 main_v1929 main_v1932 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1922 main_v1929 main_v1933 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1903 main_v1932 main_v1934 (cmpf .une : (⟨S32768x2, .f32⟩ : BufTy).Contents (Elt F) → (⟨S32768x2, .f32⟩ : BufTy).Contents (Elt F) → (⟨S32768x2, .i1⟩ : BufTy).Contents (Elt F)),
    StableHlo.unary main_v1934 main_v1935 (uitofp .f32 : (⟨S32768x2, .i1⟩ : BufTy).Contents (Elt F) → (⟨S32768x2, .f32⟩ : BufTy).Contents (Elt F)),
    StableHlo.binary main_v1935 main_v1932 main_v1936 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v1904 main_v1933 main_v1937 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v1863 main_v1936 main_v1938 (cmpf .une : (⟨S32768x4, .f32⟩ : BufTy).Contents (Elt F) → (⟨S32768x4, .f32⟩ : BufTy).Contents (Elt F) → (⟨S32768x4, .i1⟩ : BufTy).Contents (Elt F)),
    StableHlo.unary main_v1938 main_v1939 (uitofp .f32 : (⟨S32768x4, .i1⟩ : BufTy).Contents (Elt F) → (⟨S32768x4, .f32⟩ : BufTy).Contents (Elt F)),
    StableHlo.binary main_v1939 main_v1936 main_v1940 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v1864 main_v1937 main_v1941 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.nullary main_cst_623 (constant S_ .f32 0x40000000#32),
    StableHlo.unary main_cst_623 main_v1942 (broadcastInDim S32768x8 ![] bcast_S_S32768x8 : (⟨S_, .f32⟩ : BufTy).Contents (Elt F) → (⟨S32768x8, .f32⟩ : BufTy).Contents (Elt F)),
    StableHlo.binary main_v1942 main_v1940 main_v1943 (mulf : (⟨S32768x8, .f32⟩ : BufTy).Contents (Elt F) → (⟨S32768x8, .f32⟩ : BufTy).Contents (Elt F) → (⟨S32768x8, .f32⟩ : BufTy).Contents (Elt F)),
    StableHlo.nullary main_cst_624 (constant S_ .f32 0x3F800000#32),
    StableHlo.unary main_cst_624 main_v1944 (broadcastInDim S32768x8 ![] bcast_S_S32768x8 : (⟨S_, .f32⟩ : BufTy).Contents (Elt F) → (⟨S32768x8, .f32⟩ : BufTy).Contents (Elt F)),
    StableHlo.binary main_v1944 main_v1943 main_v1945 (subf : (⟨S32768x8, .f32⟩ : BufTy).Contents (Elt F) → (⟨S32768x8, .f32⟩ : BufTy).Contents (Elt F) → (⟨S32768x8, .f32⟩ : BufTy).Contents (Elt F)),
    StableHlo.binary main_v1945 main_v1776 main_v1946 (mulf : (⟨S32768x8, .f32⟩ : BufTy).Contents (Elt F) → (⟨S32768x8, .f32⟩ : BufTy).Contents (Elt F) → (⟨S32768x8, .f32⟩ : BufTy).Contents (Elt F)),
    StableHlo.binary main_v1946 main_v1777 main_v1947 (addf : (⟨S32768x8, .f32⟩ : BufTy).Contents (Elt F) → (⟨S32768x8, .f32⟩ : BufTy).Contents (Elt F) → (⟨S32768x8, .f32⟩ : BufTy).Contents (Elt F)),
    StableHlo.unary main_v1947 main_v1948 ((extractStridedSlice S32768x4 ![0, 0] · slices_S32768x8_S32768x4_0_0) : (⟨S32768x8, .f32⟩ : BufTy).Contents (Elt F) → (⟨S32768x4, .f32⟩ : BufTy).Contents (Elt F)),
    StableHlo.unary main_v1947 main_v1949 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_625 (constant S_ .f32 0xC1F00000#32),
    StableHlo.nullary main_cst_626 (constant S_ .f32 0x41F00000#32),
    StableHlo.TRef.unary (.of main_cst_625 : StableHlo.TRef sig ⟨S_, .f32⟩) main_call180.v0 id,
    StableHlo.TRef.unary main_call180.v0 main_call180.v1 (broadcastInDim S32768x4 ![] bcast_S_S32768x4),
    StableHlo.TRef.binary main_call180.v1 (.of main_v1948 : StableHlo.TRef sig ⟨S32768x4, .f32⟩) main_call180.v2 maximumf,
    StableHlo.TRef.unary (.of main_cst_626 : StableHlo.TRef sig ⟨S_, .f32⟩) main_call180.v3 id,
    StableHlo.TRef.unary main_call180.v3 main_call180.v4 (broadcastInDim S32768x4 ![] bcast_S_S32768x4),
    StableHlo.TRef.binary main_call180.v4 main_call180.v2 main_call180.v5 minimumf ]

set_option maxRecDepth 8192 in
/-- The window is that straight line: each clip function unfolded at its calls, the sequencing reassociated. -/
theorem part_eq_42 (d : Dev nD) : main_part42 (F := F) d = seq ops42 := by
  simp only [main_part42, fn_clip_6.body, fn_clip_4.body, seq, bind_assoc, pure_bind]

/-- Every operation of the window touches TensorCore references only. -/
theorem sub_42 : (ops42 : List (HloOp τ sig (Elt F))).Forall fun op => op.bufs ⊆ tcRefs τ sig :=
  ⟨nullary_bufs_sub .., unary_bufs_sub .., binary_bufs_sub .., nullary_bufs_sub .., unary_bufs_sub .., binary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    binary_bufs_sub .., binary_bufs_sub .., unary_bufs_sub .., binary_bufs_sub .., binary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub ..⟩

/-- Every operation of the window determines all it writes. -/
theorem fresh_42 : (ops42 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
/-- The window writes no argument of @main: the argument's buffer holds after it what it held before. -/
theorem keep_42 (V : Valuation τ sig (Elt F)) :
    after ops42 V (main_arg0 : DevRef τ sig) = V (main_arg0 : DevRef τ sig) := by
  simp only [after_cons, after_nil]
  rfl

/-- The operations of @main's statements 2581 … 2640, in order (85 of them): a statement's own operation, or, for a call
    of a clip function, the six operations of its body over that call's buffers. -/
abbrev ops43 : List (HloOp τ sig (Elt F)) :=
  [ StableHlo.nullary main_cst_627 (constant S_ .f32 0xC1F00000#32),
    StableHlo.nullary main_cst_628 (constant S_ .f32 0x41F00000#32),
    StableHlo.TRef.unary (.of main_cst_627 : StableHlo.TRef sig ⟨S_, .f32⟩) main_call181.v0 id,
    StableHlo.TRef.unary main_call181.v0 main_call181.v1 (broadcastInDim S32768x4 ![] bcast_S_S32768x4),
    StableHlo.TRef.binary main_call181.v1 (.of main_v1949 : StableHlo.TRef sig ⟨S32768x4, .f32⟩) main_call181.v2 maximumf,
    StableHlo.TRef.unary (.of main_cst_628 : StableHlo.TRef sig ⟨S_, .f32⟩) main_call181.v3 id,
    StableHlo.TRef.unary main_call181.v3 main_call181.v4 (broadcastInDim S32768x4 ![] bcast_S_S32768x4),
    StableHlo.TRef.binary main_call181.v4 main_call181.v2 main_call181.v5 minimumf,
    StableHlo.unary main_v1950 main_v1952 (Host.sign : (⟨S32768x4, .f32⟩ : BufTy).Contents (Elt F) → (⟨S32768x4, .f32⟩ : BufTy).Contents (Elt F)),
    StableHlo.unary main_v1951 main_v1953 (Host.sign : (⟨S32768x4, .f32⟩ : BufTy).Contents (Elt F) → (⟨S32768x4, .f32⟩ : BufTy).Contents (Elt F)),
    StableHlo.binary main_v1952 main_v1953 main_v1954 (mulf : (⟨S32768x4, .f32⟩ : BufTy).Contents (Elt F) → (⟨S32768x4, .f32⟩ : BufTy).Contents (Elt F) → (⟨S32768x4, .f32⟩ : BufTy).Contents (Elt F)),
    StableHlo.unary main_v1950 main_v1955 (Host.absf : (⟨S32768x4, .f32⟩ : BufTy).Contents (Elt F) → (⟨S32768x4, .f32⟩ : BufTy).Contents (Elt F)),
    StableHlo.unary main_v1951 main_v1956 (Host.absf : (⟨S32768x4, .f32⟩ : BufTy).Contents (Elt F) → (⟨S32768x4, .f32⟩ : BufTy).Contents (Elt F)),
    StableHlo.binary main_v1955 main_v1956 main_v1957 (minimumf : (⟨S32768x4, .f32⟩ : BufTy).Contents (Elt F) → (⟨S32768x4, .f32⟩ : BufTy).Contents (Elt F) → (⟨S32768x4, .f32⟩ : BufTy).Contents (Elt F)),
    StableHlo.binary main_v1954 main_v1957 main_v1958 (mulf : (⟨S32768x4, .f32⟩ : BufTy).Contents (Elt F) → (⟨S32768x4, .f32⟩ : BufTy).Contents (Elt F) → (⟨S32768x4, .f32⟩ : BufTy).Contents (Elt F)),
    StableHlo.unary main_v1958 main_v1959 ((extractStridedSlice S32768x2 ![0, 0] · slices_S32768x4_S32768x2_0_0) : (⟨S32768x4, .f32⟩ : BufTy).Contents (Elt F) → (⟨S32768x2, .f32⟩ : BufTy).Contents (Elt F)),
    StableHlo.unary main_v1958 main_v1960 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_629 (constant S_ .f32 0xC1F00000#32),
    StableHlo.nullary main_cst_630 (constant S_ .f32 0x41F00000#32),
    StableHlo.TRef.unary (.of main_cst_629 : StableHlo.TRef sig ⟨S_, .f32⟩) main_call182.v0 id,
    StableHlo.TRef.unary main_call182.v0 main_call182.v1 (broadcastInDim S32768x2 ![] bcast_S_S32768x2),
    StableHlo.TRef.binary main_call182.v1 (.of main_v1959 : StableHlo.TRef sig ⟨S32768x2, .f32⟩) main_call182.v2 maximumf,
    StableHlo.TRef.unary (.of main_cst_630 : StableHlo.TRef sig ⟨S_, .f32⟩) main_call182.v3 id,
    StableHlo.TRef.unary main_call182.v3 main_call182.v4 (broadcastInDim S32768x2 ![] bcast_S_S32768x2),
    StableHlo.TRef.binary main_call182.v4 main_call182.v2 main_call182.v5 minimumf,
    StableHlo.nullary main_cst_631 (constant S_ .f32 0xC1F00000#32),
    StableHlo.nullary main_cst_632 (constant S_ .f32 0x41F00000#32),
    StableHlo.TRef.unary (.of main_cst_631 : StableHlo.TRef sig ⟨S_, .f32⟩) main_call183.v0 id,
    StableHlo.TRef.unary main_call183.v0 main_call183.v1 (broadcastInDim S32768x2 ![] bcast_S_S32768x2),
    StableHlo.TRef.binary main_call183.v1 (.of main_v1960 : StableHlo.TRef sig ⟨S32768x2, .f32⟩) main_call183.v2 maximumf,
    StableHlo.TRef.unary (.of main_cst_632 : StableHlo.TRef sig ⟨S_, .f32⟩) main_call183.v3 id,
    StableHlo.TRef.unary main_call183.v3 main_call183.v4 (broadcastInDim S32768x2 ![] bcast_S_S32768x2),
    StableHlo.TRef.binary main_call183.v4 main_call183.v2 main_call183.v5 minimumf,
    StableHlo.unary main_v1961 main_v1963 (Host.sign : (⟨S32768x2, .f32⟩ : BufTy).Contents (Elt F) → (⟨S32768x2, .f32⟩ : BufTy).Contents (Elt F)),
    StableHlo.unary main_v1962 main_v1964 (Host.sign : (⟨S32768x2, .f32⟩ : BufTy).Contents (Elt F) → (⟨S32768x2, .f32⟩ : BufTy).Contents (Elt F)),
    StableHlo.binary main_v1963 main_v1964 main_v1965 (mulf : (⟨S32768x2, .f32⟩ : BufTy).Contents (Elt F) → (⟨S32768x2, .f32⟩ : BufTy).Contents (Elt F) → (⟨S32768x2, .f32⟩ : BufTy).Contents (Elt F)),
    StableHlo.unary main_v1961 main_v1966 (Host.absf : (⟨S32768x2, .f32⟩ : BufTy).Contents (Elt F) → (⟨S32768x2, .f32⟩ : BufTy).Contents (Elt F)),
    StableHlo.unary main_v1962 main_v1967 (Host.absf : (⟨S32768x2, .f32⟩ : BufTy).Contents (Elt F) → (⟨S32768x2, .f32⟩ : BufTy).Contents (Elt F)),
    StableHlo.binary main_v1966 main_v1967 main_v1968 (minimumf : (⟨S32768x2, .f32⟩ : BufTy).Contents (Elt F) → (⟨S32768x2, .f32⟩ : BufTy).Contents (Elt F) → (⟨S32768x2, .f32⟩ : BufTy).Contents (Elt F)),
    StableHlo.binary main_v1965 main_v1968 main_v1969 (mulf : (⟨S32768x2, .f32⟩ : BufTy).Contents (Elt F) → (⟨S32768x2, .f32⟩ : BufTy).Contents (Elt F) → (⟨S32768x2, .f32⟩ : BufTy).Contents (Elt F)),
    StableHlo.unary main_v1969 main_v1970 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1969 main_v1971 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_633 (constant S_ .f32 0xC1F00000#32),
    StableHlo.nullary main_cst_634 (constant S_ .f32 0x41F00000#32),
    StableHlo.TRef.unary (.of main_cst_633 : StableHlo.TRef sig ⟨S_, .f32⟩) main_call184.v0 id,
    StableHlo.TRef.unary main_call184.v0 main_call184.v1 (broadcastInDim S32768x1 ![] bcast_S_S32768x1),
    StableHlo.TRef.binary main_call184.v1 (.of main_v1970 : StableHlo.TRef sig ⟨S32768x1, .f32⟩) main_call184.v2 maximumf,
    StableHlo.TRef.unary (.of main_cst_634 : StableHlo.TRef sig ⟨S_, .f32⟩) main_call184.v3 id,
    StableHlo.TRef.unary main_call184.v3 main_call184.v4 (broadcastInDim S32768x1 ![] bcast_S_S32768x1),
    StableHlo.TRef.binary main_call184.v4 main_call184.v2 main_call184.v5 minimumf,
    StableHlo.nullary main_cst_635 (constant S_ .f32 0xC1F00000#32),
    StableHlo.nullary main_cst_636 (constant S_ .f32 0x41F00000#32),
    StableHlo.TRef.unary (.of main_cst_635 : StableHlo.TRef sig ⟨S_, .f32⟩) main_call185.v0 id,
    StableHlo.TRef.unary main_call185.v0 main_call185.v1 (broadcastInDim S32768x1 ![] bcast_S_S32768x1),
    StableHlo.TRef.binary main_call185.v1 (.of main_v1971 : StableHlo.TRef sig ⟨S32768x1, .f32⟩) main_call185.v2 maximumf,
    StableHlo.TRef.unary (.of main_cst_636 : StableHlo.TRef sig ⟨S_, .f32⟩) main_call185.v3 id,
    StableHlo.TRef.unary main_call185.v3 main_call185.v4 (broadcastInDim S32768x1 ![] bcast_S_S32768x1),
    StableHlo.TRef.binary main_call185.v4 main_call185.v2 main_call185.v5 minimumf,
    StableHlo.unary main_v1972 main_v1974 (Host.sign : (⟨S32768x1, .f32⟩ : BufTy).Contents (Elt F) → (⟨S32768x1, .f32⟩ : BufTy).Contents (Elt F)),
    StableHlo.unary main_v1973 main_v1975 (Host.sign : (⟨S32768x1, .f32⟩ : BufTy).Contents (Elt F) → (⟨S32768x1, .f32⟩ : BufTy).Contents (Elt F)),
    StableHlo.binary main_v1974 main_v1975 main_v1976 (mulf : (⟨S32768x1, .f32⟩ : BufTy).Contents (Elt F) → (⟨S32768x1, .f32⟩ : BufTy).Contents (Elt F) → (⟨S32768x1, .f32⟩ : BufTy).Contents (Elt F)),
    StableHlo.unary main_v1972 main_v1977 (Host.absf : (⟨S32768x1, .f32⟩ : BufTy).Contents (Elt F) → (⟨S32768x1, .f32⟩ : BufTy).Contents (Elt F)),
    StableHlo.unary main_v1973 main_v1978 (Host.absf : (⟨S32768x1, .f32⟩ : BufTy).Contents (Elt F) → (⟨S32768x1, .f32⟩ : BufTy).Contents (Elt F)),
    StableHlo.binary main_v1977 main_v1978 main_v1979 (minimumf : (⟨S32768x1, .f32⟩ : BufTy).Contents (Elt F) → (⟨S32768x1, .f32⟩ : BufTy).Contents (Elt F) → (⟨S32768x1, .f32⟩ : BufTy).Contents (Elt F)),
    StableHlo.binary main_v1976 main_v1979 main_v1980 (mulf : (⟨S32768x1, .f32⟩ : BufTy).Contents (Elt F) → (⟨S32768x1, .f32⟩ : BufTy).Contents (Elt F) → (⟨S32768x1, .f32⟩ : BufTy).Contents (Elt F)),
    StableHlo.nullary main_cst_637 (constant S_ .f32 0x00000000#32),
    StableHlo.unary main_cst_637 main_v1981 (broadcastInDim S32768x1 ![] bcast_S_S32768x1 : (⟨S_, .f32⟩ : BufTy).Contents (Elt F) → (⟨S32768x1, .f32⟩ : BufTy).Contents (Elt F)),
    StableHlo.nullary main_cst_638 (constant S_ .f32 0x40000000#32),
    StableHlo.unary main_cst_638 main_v1982 (broadcastInDim S32768x1 ![] bcast_S_S32768x1 : (⟨S_, .f32⟩ : BufTy).Contents (Elt F) → (⟨S32768x1, .f32⟩ : BufTy).Contents (Elt F)),
    StableHlo.binary main_v1982 main_v1981 main_v1983 (mulf : (⟨S32768x1, .f32⟩ : BufTy).Contents (Elt F) → (⟨S32768x1, .f32⟩ : BufTy).Contents (Elt F) → (⟨S32768x1, .f32⟩ : BufTy).Contents (Elt F)),
    StableHlo.nullary main_cst_639 (constant S_ .f32 0x3F800000#32),
    StableHlo.unary main_cst_639 main_v1984 (broadcastInDim S32768x1 ![] bcast_S_S32768x1 : (⟨S_, .f32⟩ : BufTy).Contents (Elt F) → (⟨S32768x1, .f32⟩ : BufTy).Contents (Elt F)),
    StableHlo.binary main_v1984 main_v1983 main_v1985 (subf : (⟨S32768x1, .f32⟩ : BufTy).Contents (Elt F) → (⟨S32768x1, .f32⟩ : BufTy).Contents (Elt F) → (⟨S32768x1, .f32⟩ : BufTy).Contents (Elt F)),
    StableHlo.binary main_v1985 main_v1970 main_v1986 (mulf : (⟨S32768x1, .f32⟩ : BufTy).Contents (Elt F) → (⟨S32768x1, .f32⟩ : BufTy).Contents (Elt F) → (⟨S32768x1, .f32⟩ : BufTy).Contents (Elt F)),
    StableHlo.binary main_v1986 main_v1971 main_v1987 (addf : (⟨S32768x1, .f32⟩ : BufTy).Contents (Elt F) → (⟨S32768x1, .f32⟩ : BufTy).Contents (Elt F) → (⟨S32768x1, .f32⟩ : BufTy).Contents (Elt F)),
    StableHlo.nullary main_cst_640 (constant S_ .f32 0x00000000#32),
    StableHlo.unary main_cst_640 main_v1988 (broadcastInDim S32768x1 ![] bcast_S_S32768x1 : (⟨S_, .f32⟩ : BufTy).Contents (Elt F) → (⟨S32768x1, .f32⟩ : BufTy).Contents (Elt F)),
    StableHlo.binary main_v1981 main_v1988 main_v1989 (cmpf .une : (⟨S32768x1, .f32⟩ : BufTy).Contents (Elt F) → (⟨S32768x1, .f32⟩ : BufTy).Contents (Elt F) → (⟨S32768x1, .i1⟩ : BufTy).Contents (Elt F)),
    StableHlo.unary main_v1989 main_v1990 (uitofp .f32 : (⟨S32768x1, .i1⟩ : BufTy).Contents (Elt F) → (⟨S32768x1, .f32⟩ : BufTy).Contents (Elt F)),
    StableHlo.binary main_v1990 main_v1988 main_v1991 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1981 main_v1988 main_v1992 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_641 (constant S_ .f32 0x40000000#32),
    StableHlo.unary main_cst_641 main_v1993 (broadcastInDim S32768x2 ![] bcast_S_S32768x2 : (⟨S_, .f32⟩ : BufTy).Contents (Elt F) → (⟨S32768x2, .f32⟩ : BufTy).Contents (Elt F)),
    StableHlo.binary main_v1993 main_v1991 main_v1994 (mulf : (⟨S32768x2, .f32⟩ : BufTy).Contents (Elt F) → (⟨S32768x2, .f32⟩ : BufTy).Contents (Elt F) → (⟨S32768x2, .f32⟩ : BufTy).Contents (Elt F)),
    StableHlo.nullary main_cst_642 (constant S_ .f32 0x3F800000#32) ]

set_option maxRecDepth 8192 in
/-- The window is that straight line: each clip function unfolded at its calls, the sequencing reassociated. -/
theorem part_eq_43 (d : Dev nD) : main_part43 (F := F) d = seq ops43 := by
  simp only [main_part43, fn_clip_4.body, fn_clip_5.body, fn_clip_6.body, seq, bind_assoc, pure_bind]
  rfl

/-- Every operation of the window touches TensorCore references only. -/
theorem sub_43 : (ops43 : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., nullary_bufs_sub ..,
    unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    unary_bufs_sub .., binary_bufs_sub .., binary_bufs_sub .., nullary_bufs_sub .., unary_bufs_sub .., binary_bufs_sub ..,
    nullary_bufs_sub ..⟩

/-- Every operation of the window determines all it writes. -/
theorem fresh_43 : (ops43 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_43 (V : Valuation τ sig (Elt F)) :
    after ops43 V (main_arg0 : DevRef τ sig) = V (main_arg0 : DevRef τ sig) := by
  simp only [after_cons, after_nil]
  rfl

/-- The operations of @main's statements 2641 … 2700, in order (80 of them): a statement's own operation, or, for a call
    of a clip function, the six operations of its body over that call's buffers. -/
abbrev ops44 : List (HloOp τ sig (Elt F)) :=
  [ StableHlo.unary main_cst_642 main_v1995 (broadcastInDim S32768x2 ![] bcast_S_S32768x2 : (⟨S_, .f32⟩ : BufTy).Contents (Elt F) → (⟨S32768x2, .f32⟩ : BufTy).Contents (Elt F)),
    StableHlo.binary main_v1995 main_v1994 main_v1996 (subf : (⟨S32768x2, .f32⟩ : BufTy).Contents (Elt F) → (⟨S32768x2, .f32⟩ : BufTy).Contents (Elt F) → (⟨S32768x2, .f32⟩ : BufTy).Contents (Elt F)),
    StableHlo.binary main_v1996 main_v1959 main_v1997 (mulf : (⟨S32768x2, .f32⟩ : BufTy).Contents (Elt F) → (⟨S32768x2, .f32⟩ : BufTy).Contents (Elt F) → (⟨S32768x2, .f32⟩ : BufTy).Contents (Elt F)),
    StableHlo.binary main_v1997 main_v1960 main_v1998 (addf : (⟨S32768x2, .f32⟩ : BufTy).Contents (Elt F) → (⟨S32768x2, .f32⟩ : BufTy).Contents (Elt F) → (⟨S32768x2, .f32⟩ : BufTy).Contents (Elt F)),
    StableHlo.unary main_v1998 main_v1999 ((extractStridedSlice S32768x1 ![0, 0] · slices_S32768x2_S32768x1_0_0) : (⟨S32768x2, .f32⟩ : BufTy).Contents (Elt F) → (⟨S32768x1, .f32⟩ : BufTy).Contents (Elt F)),
    StableHlo.unary main_v1998 main_v2000 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_643 (constant S_ .f32 0xC1F00000#32),
    StableHlo.nullary main_cst_644 (constant S_ .f32 0x41F00000#32),
    StableHlo.TRef.unary (.of main_cst_643 : StableHlo.TRef sig ⟨S_, .f32⟩) main_call186.v0 id,
    StableHlo.TRef.unary main_call186.v0 main_call186.v1 (broadcastInDim S32768x1 ![] bcast_S_S32768x1),
    StableHlo.TRef.binary main_call186.v1 (.of main_v1999 : StableHlo.TRef sig ⟨S32768x1, .f32⟩) main_call186.v2 maximumf,
    StableHlo.TRef.unary (.of main_cst_644 : StableHlo.TRef sig ⟨S_, .f32⟩) main_call186.v3 id,
    StableHlo.TRef.unary main_call186.v3 main_call186.v4 (broadcastInDim S32768x1 ![] bcast_S_S32768x1),
    StableHlo.TRef.binary main_call186.v4 main_call186.v2 main_call186.v5 minimumf,
    StableHlo.nullary main_cst_645 (constant S_ .f32 0xC1F00000#32),
    StableHlo.nullary main_cst_646 (constant S_ .f32 0x41F00000#32),
    StableHlo.TRef.unary (.of main_cst_645 : StableHlo.TRef sig ⟨S_, .f32⟩) main_call187.v0 id,
    StableHlo.TRef.unary main_call187.v0 main_call187.v1 (broadcastInDim S32768x1 ![] bcast_S_S32768x1),
    StableHlo.TRef.binary main_call187.v1 (.of main_v2000 : StableHlo.TRef sig ⟨S32768x1, .f32⟩) main_call187.v2 maximumf,
    StableHlo.TRef.unary (.of main_cst_646 : StableHlo.TRef sig ⟨S_, .f32⟩) main_call187.v3 id,
    StableHlo.TRef.unary main_call187.v3 main_call187.v4 (broadcastInDim S32768x1 ![] bcast_S_S32768x1),
    StableHlo.TRef.binary main_call187.v4 main_call187.v2 main_call187.v5 minimumf,
    StableHlo.unary main_v2001 main_v2003 (Host.sign : (⟨S32768x1, .f32⟩ : BufTy).Contents (Elt F) → (⟨S32768x1, .f32⟩ : BufTy).Contents (Elt F)),
    StableHlo.unary main_v2002 main_v2004 (Host.sign : (⟨S32768x1, .f32⟩ : BufTy).Contents (Elt F) → (⟨S32768x1, .f32⟩ : BufTy).Contents (Elt F)),
    StableHlo.binary main_v2003 main_v2004 main_v2005 (mulf : (⟨S32768x1, .f32⟩ : BufTy).Contents (Elt F) → (⟨S32768x1, .f32⟩ : BufTy).Contents (Elt F) → (⟨S32768x1, .f32⟩ : BufTy).Contents (Elt F)),
    StableHlo.unary main_v2001 main_v2006 (Host.absf : (⟨S32768x1, .f32⟩ : BufTy).Contents (Elt F) → (⟨S32768x1, .f32⟩ : BufTy).Contents (Elt F)),
    StableHlo.unary main_v2002 main_v2007 (Host.absf : (⟨S32768x1, .f32⟩ : BufTy).Contents (Elt F) → (⟨S32768x1, .f32⟩ : BufTy).Contents (Elt F)),
    StableHlo.binary main_v2006 main_v2007 main_v2008 (minimumf : (⟨S32768x1, .f32⟩ : BufTy).Contents (Elt F) → (⟨S32768x1, .f32⟩ : BufTy).Contents (Elt F) → (⟨S32768x1, .f32⟩ : BufTy).Contents (Elt F)),
    StableHlo.binary main_v2005 main_v2008 main_v2009 (mulf : (⟨S32768x1, .f32⟩ : BufTy).Contents (Elt F) → (⟨S32768x1, .f32⟩ : BufTy).Contents (Elt F) → (⟨S32768x1, .f32⟩ : BufTy).Contents (Elt F)),
    StableHlo.nullary main_cst_647 (constant S_ .f32 0x00000000#32),
    StableHlo.unary main_cst_647 main_v2010 (broadcastInDim S32768x1 ![] bcast_S_S32768x1 : (⟨S_, .f32⟩ : BufTy).Contents (Elt F) → (⟨S32768x1, .f32⟩ : BufTy).Contents (Elt F)),
    StableHlo.nullary main_cst_648 (constant S_ .f32 0x40000000#32),
    StableHlo.unary main_cst_648 main_v2011 (broadcastInDim S32768x1 ![] bcast_S_S32768x1 : (⟨S_, .f32⟩ : BufTy).Contents (Elt F) → (⟨S32768x1, .f32⟩ : BufTy).Contents (Elt F)),
    StableHlo.binary main_v2011 main_v2010 main_v2012 (mulf : (⟨S32768x1, .f32⟩ : BufTy).Contents (Elt F) → (⟨S32768x1, .f32⟩ : BufTy).Contents (Elt F) → (⟨S32768x1, .f32⟩ : BufTy).Contents (Elt F)),
    StableHlo.nullary main_cst_649 (constant S_ .f32 0x3F800000#32),
    StableHlo.unary main_cst_649 main_v2013 (broadcastInDim S32768x1 ![] bcast_S_S32768x1 : (⟨S_, .f32⟩ : BufTy).Contents (Elt F) → (⟨S32768x1, .f32⟩ : BufTy).Contents (Elt F)),
    StableHlo.binary main_v2013 main_v2012 main_v2014 (subf : (⟨S32768x1, .f32⟩ : BufTy).Contents (Elt F) → (⟨S32768x1, .f32⟩ : BufTy).Contents (Elt F) → (⟨S32768x1, .f32⟩ : BufTy).Contents (Elt F)),
    StableHlo.binary main_v2014 main_v1999 main_v2015 (mulf : (⟨S32768x1, .f32⟩ : BufTy).Contents (Elt F) → (⟨S32768x1, .f32⟩ : BufTy).Contents (Elt F) → (⟨S32768x1, .f32⟩ : BufTy).Contents (Elt F)),
    StableHlo.binary main_v2015 main_v2000 main_v2016 (addf : (⟨S32768x1, .f32⟩ : BufTy).Contents (Elt F) → (⟨S32768x1, .f32⟩ : BufTy).Contents (Elt F) → (⟨S32768x1, .f32⟩ : BufTy).Contents (Elt F)),
    StableHlo.nullary main_cst_650 (constant S_ .f32 0x00000000#32),
    StableHlo.unary main_cst_650 main_v2017 (broadcastInDim S32768x1 ![] bcast_S_S32768x1 : (⟨S_, .f32⟩ : BufTy).Contents (Elt F) → (⟨S32768x1, .f32⟩ : BufTy).Contents (Elt F)),
    StableHlo.binary main_v2010 main_v2017 main_v2018 (cmpf .une : (⟨S32768x1, .f32⟩ : BufTy).Contents (Elt F) → (⟨S32768x1, .f32⟩ : BufTy).Contents (Elt F) → (⟨S32768x1, .i1⟩ : BufTy).Contents (Elt F)),
    StableHlo.unary main_v2018 main_v2019 (uitofp .f32 : (⟨S32768x1, .i1⟩ : BufTy).Contents (Elt F) → (⟨S32768x1, .f32⟩ : BufTy).Contents (Elt F)),
    StableHlo.binary main_v2019 main_v2017 main_v2020 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2010 main_v2017 main_v2021 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v1991 main_v2020 main_v2022 (cmpf .une : (⟨S32768x2, .f32⟩ : BufTy).Contents (Elt F) → (⟨S32768x2, .f32⟩ : BufTy).Contents (Elt F) → (⟨S32768x2, .i1⟩ : BufTy).Contents (Elt F)),
    StableHlo.unary main_v2022 main_v2023 (uitofp .f32 : (⟨S32768x2, .i1⟩ : BufTy).Contents (Elt F) → (⟨S32768x2, .f32⟩ : BufTy).Contents (Elt F)),
    StableHlo.binary main_v2023 main_v2020 main_v2024 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v1992 main_v2021 main_v2025 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_651 (constant S_ .f32 0x40000000#32),
    StableHlo.unary main_cst_651 main_v2026 (broadcastInDim S32768x4 ![] bcast_S_S32768x4 : (⟨S_, .f32⟩ : BufTy).Contents (Elt F) → (⟨S32768x4, .f32⟩ : BufTy).Contents (Elt F)),
    StableHlo.binary main_v2026 main_v2024 main_v2027 (mulf : (⟨S32768x4, .f32⟩ : BufTy).Contents (Elt F) → (⟨S32768x4, .f32⟩ : BufTy).Contents (Elt F) → (⟨S32768x4, .f32⟩ : BufTy).Contents (Elt F)),
    StableHlo.nullary main_cst_652 (constant S_ .f32 0x3F800000#32),
    StableHlo.unary main_cst_652 main_v2028 (broadcastInDim S32768x4 ![] bcast_S_S32768x4 : (⟨S_, .f32⟩ : BufTy).Contents (Elt F) → (⟨S32768x4, .f32⟩ : BufTy).Contents (Elt F)),
    StableHlo.binary main_v2028 main_v2027 main_v2029 (subf : (⟨S32768x4, .f32⟩ : BufTy).Contents (Elt F) → (⟨S32768x4, .f32⟩ : BufTy).Contents (Elt F) → (⟨S32768x4, .f32⟩ : BufTy).Contents (Elt F)),
    StableHlo.binary main_v2029 main_v1948 main_v2030 (mulf : (⟨S32768x4, .f32⟩ : BufTy).Contents (Elt F) → (⟨S32768x4, .f32⟩ : BufTy).Contents (Elt F) → (⟨S32768x4, .f32⟩ : BufTy).Contents (Elt F)),
    StableHlo.binary main_v2030 main_v1949 main_v2031 (addf : (⟨S32768x4, .f32⟩ : BufTy).Contents (Elt F) → (⟨S32768x4, .f32⟩ : BufTy).Contents (Elt F) → (⟨S32768x4, .f32⟩ : BufTy).Contents (Elt F)),
    StableHlo.unary main_v2031 main_v2032 ((extractStridedSlice S32768x2 ![0, 0] · slices_S32768x4_S32768x2_0_0) : (⟨S32768x4, .f32⟩ : BufTy).Contents (Elt F) → (⟨S32768x2, .f32⟩ : BufTy).Contents (Elt F)),
    StableHlo.unary main_v2031 main_v2033 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_653 (constant S_ .f32 0xC1F00000#32),
    StableHlo.nullary main_cst_654 (constant S_ .f32 0x41F00000#32),
    StableHlo.TRef.unary (.of main_cst_653 : StableHlo.TRef sig ⟨S_, .f32⟩) main_call188.v0 id,
    StableHlo.TRef.unary main_call188.v0 main_call188.v1 (broadcastInDim S32768x2 ![] bcast_S_S32768x2),
    StableHlo.TRef.binary main_call188.v1 (.of main_v2032 : StableHlo.TRef sig ⟨S32768x2, .f32⟩) main_call188.v2 maximumf,
    StableHlo.TRef.unary (.of main_cst_654 : StableHlo.TRef sig ⟨S_, .f32⟩) main_call188.v3 id,
    StableHlo.TRef.unary main_call188.v3 main_call188.v4 (broadcastInDim S32768x2 ![] bcast_S_S32768x2),
    StableHlo.TRef.binary main_call188.v4 main_call188.v2 main_call188.v5 minimumf,
    StableHlo.nullary main_cst_655 (constant S_ .f32 0xC1F00000#32),
    StableHlo.nullary main_cst_656 (constant S_ .f32 0x41F00000#32),
    StableHlo.TRef.unary (.of main_cst_655 : StableHlo.TRef sig ⟨S_, .f32⟩) main_call189.v0 id,
    StableHlo.TRef.unary main_call189.v0 main_call189.v1 (broadcastInDim S32768x2 ![] bcast_S_S32768x2),
    StableHlo.TRef.binary main_call189.v1 (.of main_v2033 : StableHlo.TRef sig ⟨S32768x2, .f32⟩) main_call189.v2 maximumf,
    StableHlo.TRef.unary (.of main_cst_656 : StableHlo.TRef sig ⟨S_, .f32⟩) main_call189.v3 id,
    StableHlo.TRef.unary main_call189.v3 main_call189.v4 (broadcastInDim S32768x2 ![] bcast_S_S32768x2),
    StableHlo.TRef.binary main_call189.v4 main_call189.v2 main_call189.v5 minimumf,
    StableHlo.unary main_v2034 main_v2036 (Host.sign : (⟨S32768x2, .f32⟩ : BufTy).Contents (Elt F) → (⟨S32768x2, .f32⟩ : BufTy).Contents (Elt F)),
    StableHlo.unary main_v2035 main_v2037 (Host.sign : (⟨S32768x2, .f32⟩ : BufTy).Contents (Elt F) → (⟨S32768x2, .f32⟩ : BufTy).Contents (Elt F)),
    StableHlo.binary main_v2036 main_v2037 main_v2038 (mulf : (⟨S32768x2, .f32⟩ : BufTy).Contents (Elt F) → (⟨S32768x2, .f32⟩ : BufTy).Contents (Elt F) → (⟨S32768x2, .f32⟩ : BufTy).Contents (Elt F)),
    StableHlo.unary main_v2034 main_v2039 (Host.absf : (⟨S32768x2, .f32⟩ : BufTy).Contents (Elt F) → (⟨S32768x2, .f32⟩ : BufTy).Contents (Elt F)),
    StableHlo.unary main_v2035 main_v2040 (Host.absf : (⟨S32768x2, .f32⟩ : BufTy).Contents (Elt F) → (⟨S32768x2, .f32⟩ : BufTy).Contents (Elt F)) ]

set_option maxRecDepth 8192 in
/-- The window is that straight line: each clip function unfolded at its calls, the sequencing reassociated. -/
theorem part_eq_44 (d : Dev nD) : main_part44 (F := F) d = seq ops44 := by
  simp only [main_part44, fn_clip_6.body, fn_clip_5.body, seq, bind_assoc, pure_bind]
  rfl

/-- Every operation of the window touches TensorCore references only. -/
theorem sub_44 : (ops44 : List (HloOp τ sig (Elt F))).Forall fun op => op.bufs ⊆ tcRefs τ sig :=
  ⟨unary_bufs_sub .., binary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., nullary_bufs_sub ..,
    unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    unary_bufs_sub .., binary_bufs_sub .., binary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub ..⟩

/-- Every operation of the window determines all it writes. -/
theorem fresh_44 : (ops44 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_44 (V : Valuation τ sig (Elt F)) :
    after ops44 V (main_arg0 : DevRef τ sig) = V (main_arg0 : DevRef τ sig) := by
  simp only [after_cons, after_nil]
  rfl

/-- The operations of @main's statements 2701 … 2760, in order (80 of them): a statement's own operation, or, for a call
    of a clip function, the six operations of its body over that call's buffers. -/
abbrev ops45 : List (HloOp τ sig (Elt F)) :=
  [ StableHlo.binary main_v2039 main_v2040 main_v2041 (minimumf : (⟨S32768x2, .f32⟩ : BufTy).Contents (Elt F) → (⟨S32768x2, .f32⟩ : BufTy).Contents (Elt F) → (⟨S32768x2, .f32⟩ : BufTy).Contents (Elt F)),
    StableHlo.binary main_v2038 main_v2041 main_v2042 (mulf : (⟨S32768x2, .f32⟩ : BufTy).Contents (Elt F) → (⟨S32768x2, .f32⟩ : BufTy).Contents (Elt F) → (⟨S32768x2, .f32⟩ : BufTy).Contents (Elt F)),
    StableHlo.unary main_v2042 main_v2043 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2042 main_v2044 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_657 (constant S_ .f32 0xC1F00000#32),
    StableHlo.nullary main_cst_658 (constant S_ .f32 0x41F00000#32),
    StableHlo.TRef.unary (.of main_cst_657 : StableHlo.TRef sig ⟨S_, .f32⟩) main_call190.v0 id,
    StableHlo.TRef.unary main_call190.v0 main_call190.v1 (broadcastInDim S32768x1 ![] bcast_S_S32768x1),
    StableHlo.TRef.binary main_call190.v1 (.of main_v2043 : StableHlo.TRef sig ⟨S32768x1, .f32⟩) main_call190.v2 maximumf,
    StableHlo.TRef.unary (.of main_cst_658 : StableHlo.TRef sig ⟨S_, .f32⟩) main_call190.v3 id,
    StableHlo.TRef.unary main_call190.v3 main_call190.v4 (broadcastInDim S32768x1 ![] bcast_S_S32768x1),
    StableHlo.TRef.binary main_call190.v4 main_call190.v2 main_call190.v5 minimumf,
    StableHlo.nullary main_cst_659 (constant S_ .f32 0xC1F00000#32),
    StableHlo.nullary main_cst_660 (constant S_ .f32 0x41F00000#32),
    StableHlo.TRef.unary (.of main_cst_659 : StableHlo.TRef sig ⟨S_, .f32⟩) main_call191.v0 id,
    StableHlo.TRef.unary main_call191.v0 main_call191.v1 (broadcastInDim S32768x1 ![] bcast_S_S32768x1),
    StableHlo.TRef.binary main_call191.v1 (.of main_v2044 : StableHlo.TRef sig ⟨S32768x1, .f32⟩) main_call191.v2 maximumf,
    StableHlo.TRef.unary (.of main_cst_660 : StableHlo.TRef sig ⟨S_, .f32⟩) main_call191.v3 id,
    StableHlo.TRef.unary main_call191.v3 main_call191.v4 (broadcastInDim S32768x1 ![] bcast_S_S32768x1),
    StableHlo.TRef.binary main_call191.v4 main_call191.v2 main_call191.v5 minimumf,
    StableHlo.unary main_v2045 main_v2047 (Host.sign : (⟨S32768x1, .f32⟩ : BufTy).Contents (Elt F) → (⟨S32768x1, .f32⟩ : BufTy).Contents (Elt F)),
    StableHlo.unary main_v2046 main_v2048 (Host.sign : (⟨S32768x1, .f32⟩ : BufTy).Contents (Elt F) → (⟨S32768x1, .f32⟩ : BufTy).Contents (Elt F)),
    StableHlo.binary main_v2047 main_v2048 main_v2049 (mulf : (⟨S32768x1, .f32⟩ : BufTy).Contents (Elt F) → (⟨S32768x1, .f32⟩ : BufTy).Contents (Elt F) → (⟨S32768x1, .f32⟩ : BufTy).Contents (Elt F)),
    StableHlo.unary main_v2045 main_v2050 (Host.absf : (⟨S32768x1, .f32⟩ : BufTy).Contents (Elt F) → (⟨S32768x1, .f32⟩ : BufTy).Contents (Elt F)),
    StableHlo.unary main_v2046 main_v2051 (Host.absf : (⟨S32768x1, .f32⟩ : BufTy).Contents (Elt F) → (⟨S32768x1, .f32⟩ : BufTy).Contents (Elt F)),
    StableHlo.binary main_v2050 main_v2051 main_v2052 (minimumf : (⟨S32768x1, .f32⟩ : BufTy).Contents (Elt F) → (⟨S32768x1, .f32⟩ : BufTy).Contents (Elt F) → (⟨S32768x1, .f32⟩ : BufTy).Contents (Elt F)),
    StableHlo.binary main_v2049 main_v2052 main_v2053 (mulf : (⟨S32768x1, .f32⟩ : BufTy).Contents (Elt F) → (⟨S32768x1, .f32⟩ : BufTy).Contents (Elt F) → (⟨S32768x1, .f32⟩ : BufTy).Contents (Elt F)),
    StableHlo.nullary main_cst_661 (constant S_ .f32 0x00000000#32),
    StableHlo.unary main_cst_661 main_v2054 (broadcastInDim S32768x1 ![] bcast_S_S32768x1 : (⟨S_, .f32⟩ : BufTy).Contents (Elt F) → (⟨S32768x1, .f32⟩ : BufTy).Contents (Elt F)),
    StableHlo.nullary main_cst_662 (constant S_ .f32 0x40000000#32),
    StableHlo.unary main_cst_662 main_v2055 (broadcastInDim S32768x1 ![] bcast_S_S32768x1 : (⟨S_, .f32⟩ : BufTy).Contents (Elt F) → (⟨S32768x1, .f32⟩ : BufTy).Contents (Elt F)),
    StableHlo.binary main_v2055 main_v2054 main_v2056 (mulf : (⟨S32768x1, .f32⟩ : BufTy).Contents (Elt F) → (⟨S32768x1, .f32⟩ : BufTy).Contents (Elt F) → (⟨S32768x1, .f32⟩ : BufTy).Contents (Elt F)),
    StableHlo.nullary main_cst_663 (constant S_ .f32 0x3F800000#32),
    StableHlo.unary main_cst_663 main_v2057 (broadcastInDim S32768x1 ![] bcast_S_S32768x1 : (⟨S_, .f32⟩ : BufTy).Contents (Elt F) → (⟨S32768x1, .f32⟩ : BufTy).Contents (Elt F)),
    StableHlo.binary main_v2057 main_v2056 main_v2058 (subf : (⟨S32768x1, .f32⟩ : BufTy).Contents (Elt F) → (⟨S32768x1, .f32⟩ : BufTy).Contents (Elt F) → (⟨S32768x1, .f32⟩ : BufTy).Contents (Elt F)),
    StableHlo.binary main_v2058 main_v2043 main_v2059 (mulf : (⟨S32768x1, .f32⟩ : BufTy).Contents (Elt F) → (⟨S32768x1, .f32⟩ : BufTy).Contents (Elt F) → (⟨S32768x1, .f32⟩ : BufTy).Contents (Elt F)),
    StableHlo.binary main_v2059 main_v2044 main_v2060 (addf : (⟨S32768x1, .f32⟩ : BufTy).Contents (Elt F) → (⟨S32768x1, .f32⟩ : BufTy).Contents (Elt F) → (⟨S32768x1, .f32⟩ : BufTy).Contents (Elt F)),
    StableHlo.nullary main_cst_664 (constant S_ .f32 0x00000000#32),
    StableHlo.unary main_cst_664 main_v2061 (broadcastInDim S32768x1 ![] bcast_S_S32768x1 : (⟨S_, .f32⟩ : BufTy).Contents (Elt F) → (⟨S32768x1, .f32⟩ : BufTy).Contents (Elt F)),
    StableHlo.binary main_v2054 main_v2061 main_v2062 (cmpf .une : (⟨S32768x1, .f32⟩ : BufTy).Contents (Elt F) → (⟨S32768x1, .f32⟩ : BufTy).Contents (Elt F) → (⟨S32768x1, .i1⟩ : BufTy).Contents (Elt F)),
    StableHlo.unary main_v2062 main_v2063 (uitofp .f32 : (⟨S32768x1, .i1⟩ : BufTy).Contents (Elt F) → (⟨S32768x1, .f32⟩ : BufTy).Contents (Elt F)),
    StableHlo.binary main_v2063 main_v2061 main_v2064 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2054 main_v2061 main_v2065 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_665 (constant S_ .f32 0x40000000#32),
    StableHlo.unary main_cst_665 main_v2066 (broadcastInDim S32768x2 ![] bcast_S_S32768x2 : (⟨S_, .f32⟩ : BufTy).Contents (Elt F) → (⟨S32768x2, .f32⟩ : BufTy).Contents (Elt F)),
    StableHlo.binary main_v2066 main_v2064 main_v2067 (mulf : (⟨S32768x2, .f32⟩ : BufTy).Contents (Elt F) → (⟨S32768x2, .f32⟩ : BufTy).Contents (Elt F) → (⟨S32768x2, .f32⟩ : BufTy).Contents (Elt F)),
    StableHlo.nullary main_cst_666 (constant S_ .f32 0x3F800000#32),
    StableHlo.unary main_cst_666 main_v2068 (broadcastInDim S32768x2 ![] bcast_S_S32768x2 : (⟨S_, .f32⟩ : BufTy).Contents (Elt F) → (⟨S32768x2, .f32⟩ : BufTy).Contents (Elt F)),
    StableHlo.binary main_v2068 main_v2067 main_v2069 (subf : (⟨S32768x2, .f32⟩ : BufTy).Contents (Elt F) → (⟨S32768x2, .f32⟩ : BufTy).Contents (Elt F) → (⟨S32768x2, .f32⟩ : BufTy).Contents (Elt F)),
    StableHlo.binary main_v2069 main_v2032 main_v2070 (mulf : (⟨S32768x2, .f32⟩ : BufTy).Contents (Elt F) → (⟨S32768x2, .f32⟩ : BufTy).Contents (Elt F) → (⟨S32768x2, .f32⟩ : BufTy).Contents (Elt F)),
    StableHlo.binary main_v2070 main_v2033 main_v2071 (addf : (⟨S32768x2, .f32⟩ : BufTy).Contents (Elt F) → (⟨S32768x2, .f32⟩ : BufTy).Contents (Elt F) → (⟨S32768x2, .f32⟩ : BufTy).Contents (Elt F)),
    StableHlo.unary main_v2071 main_v2072 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2071 main_v2073 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_667 (constant S_ .f32 0xC1F00000#32),
    StableHlo.nullary main_cst_668 (constant S_ .f32 0x41F00000#32),
    StableHlo.TRef.unary (.of main_cst_667 : StableHlo.TRef sig ⟨S_, .f32⟩) main_call192.v0 id,
    StableHlo.TRef.unary main_call192.v0 main_call192.v1 (broadcastInDim S32768x1 ![] bcast_S_S32768x1),
    StableHlo.TRef.binary main_call192.v1 (.of main_v2072 : StableHlo.TRef sig ⟨S32768x1, .f32⟩) main_call192.v2 maximumf,
    StableHlo.TRef.unary (.of main_cst_668 : StableHlo.TRef sig ⟨S_, .f32⟩) main_call192.v3 id,
    StableHlo.TRef.unary main_call192.v3 main_call192.v4 (broadcastInDim S32768x1 ![] bcast_S_S32768x1),
    StableHlo.TRef.binary main_call192.v4 main_call192.v2 main_call192.v5 minimumf,
    StableHlo.nullary main_cst_669 (constant S_ .f32 0xC1F00000#32),
    StableHlo.nullary main_cst_670 (constant S_ .f32 0x41F00000#32),
    StableHlo.TRef.unary (.of main_cst_669 : StableHlo.TRef sig ⟨S_, .f32⟩) main_call193.v0 id,
    StableHlo.TRef.unary main_call193.v0 main_call193.v1 (broadcastInDim S32768x1 ![] bcast_S_S32768x1),
    StableHlo.TRef.binary main_call193.v1 (.of main_v2073 : StableHlo.TRef sig ⟨S32768x1, .f32⟩) main_call193.v2 maximumf,
    StableHlo.TRef.unary (.of main_cst_670 : StableHlo.TRef sig ⟨S_, .f32⟩) main_call193.v3 id,
    StableHlo.TRef.unary main_call193.v3 main_call193.v4 (broadcastInDim S32768x1 ![] bcast_S_S32768x1),
    StableHlo.TRef.binary main_call193.v4 main_call193.v2 main_call193.v5 minimumf,
    StableHlo.unary main_v2074 main_v2076 (Host.sign : (⟨S32768x1, .f32⟩ : BufTy).Contents (Elt F) → (⟨S32768x1, .f32⟩ : BufTy).Contents (Elt F)),
    StableHlo.unary main_v2075 main_v2077 (Host.sign : (⟨S32768x1, .f32⟩ : BufTy).Contents (Elt F) → (⟨S32768x1, .f32⟩ : BufTy).Contents (Elt F)),
    StableHlo.binary main_v2076 main_v2077 main_v2078 (mulf : (⟨S32768x1, .f32⟩ : BufTy).Contents (Elt F) → (⟨S32768x1, .f32⟩ : BufTy).Contents (Elt F) → (⟨S32768x1, .f32⟩ : BufTy).Contents (Elt F)),
    StableHlo.unary main_v2074 main_v2079 (Host.absf : (⟨S32768x1, .f32⟩ : BufTy).Contents (Elt F) → (⟨S32768x1, .f32⟩ : BufTy).Contents (Elt F)),
    StableHlo.unary main_v2075 main_v2080 (Host.absf : (⟨S32768x1, .f32⟩ : BufTy).Contents (Elt F) → (⟨S32768x1, .f32⟩ : BufTy).Contents (Elt F)),
    StableHlo.binary main_v2079 main_v2080 main_v2081 (minimumf : (⟨S32768x1, .f32⟩ : BufTy).Contents (Elt F) → (⟨S32768x1, .f32⟩ : BufTy).Contents (Elt F) → (⟨S32768x1, .f32⟩ : BufTy).Contents (Elt F)),
    StableHlo.binary main_v2078 main_v2081 main_v2082 (mulf : (⟨S32768x1, .f32⟩ : BufTy).Contents (Elt F) → (⟨S32768x1, .f32⟩ : BufTy).Contents (Elt F) → (⟨S32768x1, .f32⟩ : BufTy).Contents (Elt F)),
    StableHlo.nullary main_cst_671 (constant S_ .f32 0x00000000#32),
    StableHlo.unary main_cst_671 main_v2083 (broadcastInDim S32768x1 ![] bcast_S_S32768x1 : (⟨S_, .f32⟩ : BufTy).Contents (Elt F) → (⟨S32768x1, .f32⟩ : BufTy).Contents (Elt F)),
    StableHlo.nullary main_cst_672 (constant S_ .f32 0x40000000#32),
    StableHlo.unary main_cst_672 main_v2084 (broadcastInDim S32768x1 ![] bcast_S_S32768x1 : (⟨S_, .f32⟩ : BufTy).Contents (Elt F) → (⟨S32768x1, .f32⟩ : BufTy).Contents (Elt F)) ]

set_option maxRecDepth 8192 in
/-- The window is that straight line: each clip function unfolded at its calls, the sequencing reassociated. -/
theorem part_eq_45 (d : Dev nD) : main_part45 (F := F) d = seq ops45 := by
  simp only [main_part45, fn_clip_6.body, seq, bind_assoc, pure_bind]
  rfl

/-- Every operation of the window touches TensorCore references only. -/
theorem sub_45 : (ops45 : List (HloOp τ sig (Elt F))).Forall fun op => op.bufs ⊆ tcRefs τ sig :=
  ⟨binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., nullary_bufs_sub .., unary_bufs_sub ..,
    nullary_bufs_sub .., unary_bufs_sub ..⟩

/-- Every operation of the window determines all it writes. -/
theorem fresh_45 : (ops45 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_45 (V : Valuation τ sig (Elt F)) :
    after ops45 V (main_arg0 : DevRef τ sig) = V (main_arg0 : DevRef τ sig) := by
  simp only [after_cons, after_nil]
  rfl

/-- The operations of @main's statements 2761 … 2820, in order (80 of them): a statement's own operation, or, for a call
    of a clip function, the six operations of its body over that call's buffers. -/
abbrev ops46 : List (HloOp τ sig (Elt F)) :=
  [ StableHlo.binary main_v2084 main_v2083 main_v2085 (mulf : (⟨S32768x1, .f32⟩ : BufTy).Contents (Elt F) → (⟨S32768x1, .f32⟩ : BufTy).Contents (Elt F) → (⟨S32768x1, .f32⟩ : BufTy).Contents (Elt F)),
    StableHlo.nullary main_cst_673 (constant S_ .f32 0x3F800000#32),
    StableHlo.unary main_cst_673 main_v2086 (broadcastInDim S32768x1 ![] bcast_S_S32768x1 : (⟨S_, .f32⟩ : BufTy).Contents (Elt F) → (⟨S32768x1, .f32⟩ : BufTy).Contents (Elt F)),
    StableHlo.binary main_v2086 main_v2085 main_v2087 (subf : (⟨S32768x1, .f32⟩ : BufTy).Contents (Elt F) → (⟨S32768x1, .f32⟩ : BufTy).Contents (Elt F) → (⟨S32768x1, .f32⟩ : BufTy).Contents (Elt F)),
    StableHlo.binary main_v2087 main_v2072 main_v2088 (mulf : (⟨S32768x1, .f32⟩ : BufTy).Contents (Elt F) → (⟨S32768x1, .f32⟩ : BufTy).Contents (Elt F) → (⟨S32768x1, .f32⟩ : BufTy).Contents (Elt F)),
    StableHlo.binary main_v2088 main_v2073 main_v2089 (addf : (⟨S32768x1, .f32⟩ : BufTy).Contents (Elt F) → (⟨S32768x1, .f32⟩ : BufTy).Contents (Elt F) → (⟨S32768x1, .f32⟩ : BufTy).Contents (Elt F)),
    StableHlo.nullary main_cst_674 (constant S_ .f32 0x00000000#32),
    StableHlo.unary main_cst_674 main_v2090 (broadcastInDim S32768x1 ![] bcast_S_S32768x1 : (⟨S_, .f32⟩ : BufTy).Contents (Elt F) → (⟨S32768x1, .f32⟩ : BufTy).Contents (Elt F)),
    StableHlo.binary main_v2083 main_v2090 main_v2091 (cmpf .une : (⟨S32768x1, .f32⟩ : BufTy).Contents (Elt F) → (⟨S32768x1, .f32⟩ : BufTy).Contents (Elt F) → (⟨S32768x1, .i1⟩ : BufTy).Contents (Elt F)),
    StableHlo.unary main_v2091 main_v2092 (uitofp .f32 : (⟨S32768x1, .i1⟩ : BufTy).Contents (Elt F) → (⟨S32768x1, .f32⟩ : BufTy).Contents (Elt F)),
    StableHlo.binary main_v2092 main_v2090 main_v2093 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2083 main_v2090 main_v2094 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2064 main_v2093 main_v2095 (cmpf .une : (⟨S32768x2, .f32⟩ : BufTy).Contents (Elt F) → (⟨S32768x2, .f32⟩ : BufTy).Contents (Elt F) → (⟨S32768x2, .i1⟩ : BufTy).Contents (Elt F)),
    StableHlo.unary main_v2095 main_v2096 (uitofp .f32 : (⟨S32768x2, .i1⟩ : BufTy).Contents (Elt F) → (⟨S32768x2, .f32⟩ : BufTy).Contents (Elt F)),
    StableHlo.binary main_v2096 main_v2093 main_v2097 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v2065 main_v2094 main_v2098 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v2024 main_v2097 main_v2099 (cmpf .une : (⟨S32768x4, .f32⟩ : BufTy).Contents (Elt F) → (⟨S32768x4, .f32⟩ : BufTy).Contents (Elt F) → (⟨S32768x4, .i1⟩ : BufTy).Contents (Elt F)),
    StableHlo.unary main_v2099 main_v2100 (uitofp .f32 : (⟨S32768x4, .i1⟩ : BufTy).Contents (Elt F) → (⟨S32768x4, .f32⟩ : BufTy).Contents (Elt F)),
    StableHlo.binary main_v2100 main_v2097 main_v2101 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v2025 main_v2098 main_v2102 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v1940 main_v2101 main_v2103 (cmpf .une : (⟨S32768x8, .f32⟩ : BufTy).Contents (Elt F) → (⟨S32768x8, .f32⟩ : BufTy).Contents (Elt F) → (⟨S32768x8, .i1⟩ : BufTy).Contents (Elt F)),
    StableHlo.unary main_v2103 main_v2104 (uitofp .f32 : (⟨S32768x8, .i1⟩ : BufTy).Contents (Elt F) → (⟨S32768x8, .f32⟩ : BufTy).Contents (Elt F)),
    StableHlo.binary main_v2104 main_v2101 main_v2105 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v1941 main_v2102 main_v2106 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v1768 main_v2105 main_v2107 (cmpf .une : (⟨S32768x16, .f32⟩ : BufTy).Contents (Elt F) → (⟨S32768x16, .f32⟩ : BufTy).Contents (Elt F) → (⟨S32768x16, .i1⟩ : BufTy).Contents (Elt F)),
    StableHlo.unary main_v2107 main_v2108 (uitofp .f32 : (⟨S32768x16, .i1⟩ : BufTy).Contents (Elt F) → (⟨S32768x16, .f32⟩ : BufTy).Contents (Elt F)),
    StableHlo.binary main_v2108 main_v2105 main_v2109 ((fun a b => concatenate S32768x32 1 [⟨S32768x16, a⟩, ⟨S32768x16, b⟩] concatenates_S32768x16_S32768x16_S32768x32_d1) : (⟨S32768x16, .f32⟩ : BufTy).Contents (Elt F) → (⟨S32768x16, .f32⟩ : BufTy).Contents (Elt F) → (⟨S32768x32, .f32⟩ : BufTy).Contents (Elt F)),
    StableHlo.binary main_v1769 main_v2106 main_v2110 ((fun a b => concatenate S32768x32 1 [⟨S32768x16, a⟩, ⟨S32768x16, b⟩] concatenates_S32768x16_S32768x16_S32768x32_d1) : (⟨S32768x16, .f32⟩ : BufTy).Contents (Elt F) → (⟨S32768x16, .f32⟩ : BufTy).Contents (Elt F) → (⟨S32768x32, .f32⟩ : BufTy).Contents (Elt F)),
    StableHlo.nullary main_cst_675 (constant S_ .f32 0x40000000#32),
    StableHlo.unary main_cst_675 main_v2111 (broadcastInDim S32768x32 ![] bcast_S_S32768x32 : (⟨S_, .f32⟩ : BufTy).Contents (Elt F) → (⟨S32768x32, .f32⟩ : BufTy).Contents (Elt F)),
    StableHlo.binary main_v2111 main_v2109 main_v2112 (mulf : (⟨S32768x32, .f32⟩ : BufTy).Contents (Elt F) → (⟨S32768x32, .f32⟩ : BufTy).Contents (Elt F) → (⟨S32768x32, .f32⟩ : BufTy).Contents (Elt F)),
    StableHlo.nullary main_cst_676 (constant S_ .f32 0x3F800000#32),
    StableHlo.unary main_cst_676 main_v2113 (broadcastInDim S32768x32 ![] bcast_S_S32768x32 : (⟨S_, .f32⟩ : BufTy).Contents (Elt F) → (⟨S32768x32, .f32⟩ : BufTy).Contents (Elt F)),
    StableHlo.binary main_v2113 main_v2112 main_v2114 (subf : (⟨S32768x32, .f32⟩ : BufTy).Contents (Elt F) → (⟨S32768x32, .f32⟩ : BufTy).Contents (Elt F) → (⟨S32768x32, .f32⟩ : BufTy).Contents (Elt F)),
    StableHlo.binary main_v2114 main_v1417 main_v2115 (mulf : (⟨S32768x32, .f32⟩ : BufTy).Contents (Elt F) → (⟨S32768x32, .f32⟩ : BufTy).Contents (Elt F) → (⟨S32768x32, .f32⟩ : BufTy).Contents (Elt F)),
    StableHlo.binary main_v2115 main_v1418 main_v2116 (addf : (⟨S32768x32, .f32⟩ : BufTy).Contents (Elt F) → (⟨S32768x32, .f32⟩ : BufTy).Contents (Elt F) → (⟨S32768x32, .f32⟩ : BufTy).Contents (Elt F)),
    StableHlo.unary main_v2116 main_v2117 ((extractStridedSlice S32768x16 ![0, 0] · slices_S32768x32_S32768x16_0_0) : (⟨S32768x32, .f32⟩ : BufTy).Contents (Elt F) → (⟨S32768x16, .f32⟩ : BufTy).Contents (Elt F)),
    StableHlo.unary main_v2116 main_v2118 ((extractStridedSlice S32768x16 ![0, 16] · slices_S32768x32_S32768x16_0_16) : (⟨S32768x32, .f32⟩ : BufTy).Contents (Elt F) → (⟨S32768x16, .f32⟩ : BufTy).Contents (Elt F)),
    StableHlo.nullary main_cst_677 (constant S_ .f32 0xC1F00000#32),
    StableHlo.nullary main_cst_678 (constant S_ .f32 0x41F00000#32),
    StableHlo.TRef.unary (.of main_cst_677 : StableHlo.TRef sig ⟨S_, .f32⟩) main_call194.v0 id,
    StableHlo.TRef.unary main_call194.v0 main_call194.v1 (broadcastInDim S32768x16 ![] bcast_S_S32768x16),
    StableHlo.TRef.binary main_call194.v1 (.of main_v2117 : StableHlo.TRef sig ⟨S32768x16, .f32⟩) main_call194.v2 maximumf,
    StableHlo.TRef.unary (.of main_cst_678 : StableHlo.TRef sig ⟨S_, .f32⟩) main_call194.v3 id,
    StableHlo.TRef.unary main_call194.v3 main_call194.v4 (broadcastInDim S32768x16 ![] bcast_S_S32768x16),
    StableHlo.TRef.binary main_call194.v4 main_call194.v2 main_call194.v5 minimumf,
    StableHlo.nullary main_cst_679 (constant S_ .f32 0xC1F00000#32),
    StableHlo.nullary main_cst_680 (constant S_ .f32 0x41F00000#32),
    StableHlo.TRef.unary (.of main_cst_679 : StableHlo.TRef sig ⟨S_, .f32⟩) main_call195.v0 id,
    StableHlo.TRef.unary main_call195.v0 main_call195.v1 (broadcastInDim S32768x16 ![] bcast_S_S32768x16),
    StableHlo.TRef.binary main_call195.v1 (.of main_v2118 : StableHlo.TRef sig ⟨S32768x16, .f32⟩) main_call195.v2 maximumf,
    StableHlo.TRef.unary (.of main_cst_680 : StableHlo.TRef sig ⟨S_, .f32⟩) main_call195.v3 id,
    StableHlo.TRef.unary main_call195.v3 main_call195.v4 (broadcastInDim S32768x16 ![] bcast_S_S32768x16),
    StableHlo.TRef.binary main_call195.v4 main_call195.v2 main_call195.v5 minimumf,
    StableHlo.unary main_v2119 main_v2121 (Host.sign : (⟨S32768x16, .f32⟩ : BufTy).Contents (Elt F) → (⟨S32768x16, .f32⟩ : BufTy).Contents (Elt F)),
    StableHlo.unary main_v2120 main_v2122 (Host.sign : (⟨S32768x16, .f32⟩ : BufTy).Contents (Elt F) → (⟨S32768x16, .f32⟩ : BufTy).Contents (Elt F)),
    StableHlo.binary main_v2121 main_v2122 main_v2123 (mulf : (⟨S32768x16, .f32⟩ : BufTy).Contents (Elt F) → (⟨S32768x16, .f32⟩ : BufTy).Contents (Elt F) → (⟨S32768x16, .f32⟩ : BufTy).Contents (Elt F)),
    StableHlo.unary main_v2119 main_v2124 (Host.absf : (⟨S32768x16, .f32⟩ : BufTy).Contents (Elt F) → (⟨S32768x16, .f32⟩ : BufTy).Contents (Elt F)),
    StableHlo.unary main_v2120 main_v2125 (Host.absf : (⟨S32768x16, .f32⟩ : BufTy).Contents (Elt F) → (⟨S32768x16, .f32⟩ : BufTy).Contents (Elt F)),
    StableHlo.binary main_v2124 main_v2125 main_v2126 (minimumf : (⟨S32768x16, .f32⟩ : BufTy).Contents (Elt F) → (⟨S32768x16, .f32⟩ : BufTy).Contents (Elt F) → (⟨S32768x16, .f32⟩ : BufTy).Contents (Elt F)),
    StableHlo.binary main_v2123 main_v2126 main_v2127 (mulf : (⟨S32768x16, .f32⟩ : BufTy).Contents (Elt F) → (⟨S32768x16, .f32⟩ : BufTy).Contents (Elt F) → (⟨S32768x16, .f32⟩ : BufTy).Contents (Elt F)),
    StableHlo.unary main_v2127 main_v2128 ((extractStridedSlice S32768x8 ![0, 0] · slices_S32768x16_S32768x8_0_0) : (⟨S32768x16, .f32⟩ : BufTy).Contents (Elt F) → (⟨S32768x8, .f32⟩ : BufTy).Contents (Elt F)),
    StableHlo.unary main_v2127 main_v2129 ((extractStridedSlice S32768x8 ![0, 8] · slices_S32768x16_S32768x8_0_8) : (⟨S32768x16, .f32⟩ : BufTy).Contents (Elt F) → (⟨S32768x8, .f32⟩ : BufTy).Contents (Elt F)),
    StableHlo.nullary main_cst_681 (constant S_ .f32 0xC1F00000#32),
    StableHlo.nullary main_cst_682 (constant S_ .f32 0x41F00000#32),
    StableHlo.TRef.unary (.of main_cst_681 : StableHlo.TRef sig ⟨S_, .f32⟩) main_call196.v0 id,
    StableHlo.TRef.unary main_call196.v0 main_call196.v1 (broadcastInDim S32768x8 ![] bcast_S_S32768x8),
    StableHlo.TRef.binary main_call196.v1 (.of main_v2128 : StableHlo.TRef sig ⟨S32768x8, .f32⟩) main_call196.v2 maximumf,
    StableHlo.TRef.unary (.of main_cst_682 : StableHlo.TRef sig ⟨S_, .f32⟩) main_call196.v3 id,
    StableHlo.TRef.unary main_call196.v3 main_call196.v4 (broadcastInDim S32768x8 ![] bcast_S_S32768x8),
    StableHlo.TRef.binary main_call196.v4 main_call196.v2 main_call196.v5 minimumf,
    StableHlo.nullary main_cst_683 (constant S_ .f32 0xC1F00000#32),
    StableHlo.nullary main_cst_684 (constant S_ .f32 0x41F00000#32),
    StableHlo.TRef.unary (.of main_cst_683 : StableHlo.TRef sig ⟨S_, .f32⟩) main_call197.v0 id,
    StableHlo.TRef.unary main_call197.v0 main_call197.v1 (broadcastInDim S32768x8 ![] bcast_S_S32768x8),
    StableHlo.TRef.binary main_call197.v1 (.of main_v2129 : StableHlo.TRef sig ⟨S32768x8, .f32⟩) main_call197.v2 maximumf,
    StableHlo.TRef.unary (.of main_cst_684 : StableHlo.TRef sig ⟨S_, .f32⟩) main_call197.v3 id,
    StableHlo.TRef.unary main_call197.v3 main_call197.v4 (broadcastInDim S32768x8 ![] bcast_S_S32768x8),
    StableHlo.TRef.binary main_call197.v4 main_call197.v2 main_call197.v5 minimumf,
    StableHlo.unary main_v2130 main_v2132 (Host.sign : (⟨S32768x8, .f32⟩ : BufTy).Contents (Elt F) → (⟨S32768x8, .f32⟩ : BufTy).Contents (Elt F)) ]

set_option maxRecDepth 8192 in
/-- The window is that straight line: each clip function unfolded at its calls, the sequencing reassociated. -/
theorem part_eq_46 (d : Dev nD) : main_part46 (F := F) d = seq ops46 := by
  simp only [main_part46, fn_clip_2.body, fn_clip_3.body, seq, bind_assoc, pure_bind]
  rfl

/-- Every operation of the window touches TensorCore references only. -/
theorem sub_46 : (ops46 : List (HloOp τ sig (Elt F))).Forall fun op => op.bufs ⊆ tcRefs τ sig :=
  ⟨binary_bufs_sub .., nullary_bufs_sub .., unary_bufs_sub .., binary_bufs_sub .., binary_bufs_sub .., binary_bufs_sub ..,
    nullary_bufs_sub .., unary_bufs_sub .., binary_bufs_sub .., unary_bufs_sub .., binary_bufs_sub .., binary_bufs_sub ..,
    binary_bufs_sub .., unary_bufs_sub .., binary_bufs_sub .., binary_bufs_sub .., binary_bufs_sub .., unary_bufs_sub ..,
    binary_bufs_sub .., binary_bufs_sub .., binary_bufs_sub .., unary_bufs_sub .., binary_bufs_sub .., binary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub ..⟩

/-- Every operation of the window determines all it writes. -/
theorem fresh_46 : (ops46 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_46 (V : Valuation τ sig (Elt F)) :
    after ops46 V (main_arg0 : DevRef τ sig) = V (main_arg0 : DevRef τ sig) := by
  simp only [after_cons, after_nil]
  rfl

/-- The operations of @main's statements 2821 … 2880, in order (90 of them): a statement's own operation, or, for a call
    of a clip function, the six operations of its body over that call's buffers. -/
abbrev ops47 : List (HloOp τ sig (Elt F)) :=
  [ StableHlo.unary main_v2131 main_v2133 (Host.sign : (⟨S32768x8, .f32⟩ : BufTy).Contents (Elt F) → (⟨S32768x8, .f32⟩ : BufTy).Contents (Elt F)),
    StableHlo.binary main_v2132 main_v2133 main_v2134 (mulf : (⟨S32768x8, .f32⟩ : BufTy).Contents (Elt F) → (⟨S32768x8, .f32⟩ : BufTy).Contents (Elt F) → (⟨S32768x8, .f32⟩ : BufTy).Contents (Elt F)),
    StableHlo.unary main_v2130 main_v2135 (Host.absf : (⟨S32768x8, .f32⟩ : BufTy).Contents (Elt F) → (⟨S32768x8, .f32⟩ : BufTy).Contents (Elt F)),
    StableHlo.unary main_v2131 main_v2136 (Host.absf : (⟨S32768x8, .f32⟩ : BufTy).Contents (Elt F) → (⟨S32768x8, .f32⟩ : BufTy).Contents (Elt F)),
    StableHlo.binary main_v2135 main_v2136 main_v2137 (minimumf : (⟨S32768x8, .f32⟩ : BufTy).Contents (Elt F) → (⟨S32768x8, .f32⟩ : BufTy).Contents (Elt F) → (⟨S32768x8, .f32⟩ : BufTy).Contents (Elt F)),
    StableHlo.binary main_v2134 main_v2137 main_v2138 (mulf : (⟨S32768x8, .f32⟩ : BufTy).Contents (Elt F) → (⟨S32768x8, .f32⟩ : BufTy).Contents (Elt F) → (⟨S32768x8, .f32⟩ : BufTy).Contents (Elt F)),
    StableHlo.unary main_v2138 main_v2139 ((extractStridedSlice S32768x4 ![0, 0] · slices_S32768x8_S32768x4_0_0) : (⟨S32768x8, .f32⟩ : BufTy).Contents (Elt F) → (⟨S32768x4, .f32⟩ : BufTy).Contents (Elt F)),
    StableHlo.unary main_v2138 main_v2140 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_685 (constant S_ .f32 0xC1F00000#32),
    StableHlo.nullary main_cst_686 (constant S_ .f32 0x41F00000#32),
    StableHlo.TRef.unary (.of main_cst_685 : StableHlo.TRef sig ⟨S_, .f32⟩) main_call198.v0 id,
    StableHlo.TRef.unary main_call198.v0 main_call198.v1 (broadcastInDim S32768x4 ![] bcast_S_S32768x4),
    StableHlo.TRef.binary main_call198.v1 (.of main_v2139 : StableHlo.TRef sig ⟨S32768x4, .f32⟩) main_call198.v2 maximumf,
    StableHlo.TRef.unary (.of main_cst_686 : StableHlo.TRef sig ⟨S_, .f32⟩) main_call198.v3 id,
    StableHlo.TRef.unary main_call198.v3 main_call198.v4 (broadcastInDim S32768x4 ![] bcast_S_S32768x4),
    StableHlo.TRef.binary main_call198.v4 main_call198.v2 main_call198.v5 minimumf,
    StableHlo.nullary main_cst_687 (constant S_ .f32 0xC1F00000#32),
    StableHlo.nullary main_cst_688 (constant S_ .f32 0x41F00000#32),
    StableHlo.TRef.unary (.of main_cst_687 : StableHlo.TRef sig ⟨S_, .f32⟩) main_call199.v0 id,
    StableHlo.TRef.unary main_call199.v0 main_call199.v1 (broadcastInDim S32768x4 ![] bcast_S_S32768x4),
    StableHlo.TRef.binary main_call199.v1 (.of main_v2140 : StableHlo.TRef sig ⟨S32768x4, .f32⟩) main_call199.v2 maximumf,
    StableHlo.TRef.unary (.of main_cst_688 : StableHlo.TRef sig ⟨S_, .f32⟩) main_call199.v3 id,
    StableHlo.TRef.unary main_call199.v3 main_call199.v4 (broadcastInDim S32768x4 ![] bcast_S_S32768x4),
    StableHlo.TRef.binary main_call199.v4 main_call199.v2 main_call199.v5 minimumf,
    StableHlo.unary main_v2141 main_v2143 (Host.sign : (⟨S32768x4, .f32⟩ : BufTy).Contents (Elt F) → (⟨S32768x4, .f32⟩ : BufTy).Contents (Elt F)),
    StableHlo.unary main_v2142 main_v2144 (Host.sign : (⟨S32768x4, .f32⟩ : BufTy).Contents (Elt F) → (⟨S32768x4, .f32⟩ : BufTy).Contents (Elt F)),
    StableHlo.binary main_v2143 main_v2144 main_v2145 (mulf : (⟨S32768x4, .f32⟩ : BufTy).Contents (Elt F) → (⟨S32768x4, .f32⟩ : BufTy).Contents (Elt F) → (⟨S32768x4, .f32⟩ : BufTy).Contents (Elt F)),
    StableHlo.unary main_v2141 main_v2146 (Host.absf : (⟨S32768x4, .f32⟩ : BufTy).Contents (Elt F) → (⟨S32768x4, .f32⟩ : BufTy).Contents (Elt F)),
    StableHlo.unary main_v2142 main_v2147 (Host.absf : (⟨S32768x4, .f32⟩ : BufTy).Contents (Elt F) → (⟨S32768x4, .f32⟩ : BufTy).Contents (Elt F)),
    StableHlo.binary main_v2146 main_v2147 main_v2148 (minimumf : (⟨S32768x4, .f32⟩ : BufTy).Contents (Elt F) → (⟨S32768x4, .f32⟩ : BufTy).Contents (Elt F) → (⟨S32768x4, .f32⟩ : BufTy).Contents (Elt F)),
    StableHlo.binary main_v2145 main_v2148 main_v2149 (mulf : (⟨S32768x4, .f32⟩ : BufTy).Contents (Elt F) → (⟨S32768x4, .f32⟩ : BufTy).Contents (Elt F) → (⟨S32768x4, .f32⟩ : BufTy).Contents (Elt F)),
    StableHlo.unary main_v2149 main_v2150 ((extractStridedSlice S32768x2 ![0, 0] · slices_S32768x4_S32768x2_0_0) : (⟨S32768x4, .f32⟩ : BufTy).Contents (Elt F) → (⟨S32768x2, .f32⟩ : BufTy).Contents (Elt F)),
    StableHlo.unary main_v2149 main_v2151 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_689 (constant S_ .f32 0xC1F00000#32),
    StableHlo.nullary main_cst_690 (constant S_ .f32 0x41F00000#32),
    StableHlo.TRef.unary (.of main_cst_689 : StableHlo.TRef sig ⟨S_, .f32⟩) main_call200.v0 id,
    StableHlo.TRef.unary main_call200.v0 main_call200.v1 (broadcastInDim S32768x2 ![] bcast_S_S32768x2),
    StableHlo.TRef.binary main_call200.v1 (.of main_v2150 : StableHlo.TRef sig ⟨S32768x2, .f32⟩) main_call200.v2 maximumf,
    StableHlo.TRef.unary (.of main_cst_690 : StableHlo.TRef sig ⟨S_, .f32⟩) main_call200.v3 id,
    StableHlo.TRef.unary main_call200.v3 main_call200.v4 (broadcastInDim S32768x2 ![] bcast_S_S32768x2),
    StableHlo.TRef.binary main_call200.v4 main_call200.v2 main_call200.v5 minimumf,
    StableHlo.nullary main_cst_691 (constant S_ .f32 0xC1F00000#32),
    StableHlo.nullary main_cst_692 (constant S_ .f32 0x41F00000#32),
    StableHlo.TRef.unary (.of main_cst_691 : StableHlo.TRef sig ⟨S_, .f32⟩) main_call201.v0 id,
    StableHlo.TRef.unary main_call201.v0 main_call201.v1 (broadcastInDim S32768x2 ![] bcast_S_S32768x2),
    StableHlo.TRef.binary main_call201.v1 (.of main_v2151 : StableHlo.TRef sig ⟨S32768x2, .f32⟩) main_call201.v2 maximumf,
    StableHlo.TRef.unary (.of main_cst_692 : StableHlo.TRef sig ⟨S_, .f32⟩) main_call201.v3 id,
    StableHlo.TRef.unary main_call201.v3 main_call201.v4 (broadcastInDim S32768x2 ![] bcast_S_S32768x2),
    StableHlo.TRef.binary main_call201.v4 main_call201.v2 main_call201.v5 minimumf,
    StableHlo.unary main_v2152 main_v2154 (Host.sign : (⟨S32768x2, .f32⟩ : BufTy).Contents (Elt F) → (⟨S32768x2, .f32⟩ : BufTy).Contents (Elt F)),
    StableHlo.unary main_v2153 main_v2155 (Host.sign : (⟨S32768x2, .f32⟩ : BufTy).Contents (Elt F) → (⟨S32768x2, .f32⟩ : BufTy).Contents (Elt F)),
    StableHlo.binary main_v2154 main_v2155 main_v2156 (mulf : (⟨S32768x2, .f32⟩ : BufTy).Contents (Elt F) → (⟨S32768x2, .f32⟩ : BufTy).Contents (Elt F) → (⟨S32768x2, .f32⟩ : BufTy).Contents (Elt F)),
    StableHlo.unary main_v2152 main_v2157 (Host.absf : (⟨S32768x2, .f32⟩ : BufTy).Contents (Elt F) → (⟨S32768x2, .f32⟩ : BufTy).Contents (Elt F)),
    StableHlo.unary main_v2153 main_v2158 (Host.absf : (⟨S32768x2, .f32⟩ : BufTy).Contents (Elt F) → (⟨S32768x2, .f32⟩ : BufTy).Contents (Elt F)),
    StableHlo.binary main_v2157 main_v2158 main_v2159 (minimumf : (⟨S32768x2, .f32⟩ : BufTy).Contents (Elt F) → (⟨S32768x2, .f32⟩ : BufTy).Contents (Elt F) → (⟨S32768x2, .f32⟩ : BufTy).Contents (Elt F)),
    StableHlo.binary main_v2156 main_v2159 main_v2160 (mulf : (⟨S32768x2, .f32⟩ : BufTy).Contents (Elt F) → (⟨S32768x2, .f32⟩ : BufTy).Contents (Elt F) → (⟨S32768x2, .f32⟩ : BufTy).Contents (Elt F)),
    StableHlo.unary main_v2160 main_v2161 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2160 main_v2162 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_693 (constant S_ .f32 0xC1F00000#32),
    StableHlo.nullary main_cst_694 (constant S_ .f32 0x41F00000#32),
    StableHlo.TRef.unary (.of main_cst_693 : StableHlo.TRef sig ⟨S_, .f32⟩) main_call202.v0 id,
    StableHlo.TRef.unary main_call202.v0 main_call202.v1 (broadcastInDim S32768x1 ![] bcast_S_S32768x1),
    StableHlo.TRef.binary main_call202.v1 (.of main_v2161 : StableHlo.TRef sig ⟨S32768x1, .f32⟩) main_call202.v2 maximumf,
    StableHlo.TRef.unary (.of main_cst_694 : StableHlo.TRef sig ⟨S_, .f32⟩) main_call202.v3 id,
    StableHlo.TRef.unary main_call202.v3 main_call202.v4 (broadcastInDim S32768x1 ![] bcast_S_S32768x1),
    StableHlo.TRef.binary main_call202.v4 main_call202.v2 main_call202.v5 minimumf,
    StableHlo.nullary main_cst_695 (constant S_ .f32 0xC1F00000#32),
    StableHlo.nullary main_cst_696 (constant S_ .f32 0x41F00000#32),
    StableHlo.TRef.unary (.of main_cst_695 : StableHlo.TRef sig ⟨S_, .f32⟩) main_call203.v0 id,
    StableHlo.TRef.unary main_call203.v0 main_call203.v1 (broadcastInDim S32768x1 ![] bcast_S_S32768x1),
    StableHlo.TRef.binary main_call203.v1 (.of main_v2162 : StableHlo.TRef sig ⟨S32768x1, .f32⟩) main_call203.v2 maximumf,
    StableHlo.TRef.unary (.of main_cst_696 : StableHlo.TRef sig ⟨S_, .f32⟩) main_call203.v3 id,
    StableHlo.TRef.unary main_call203.v3 main_call203.v4 (broadcastInDim S32768x1 ![] bcast_S_S32768x1),
    StableHlo.TRef.binary main_call203.v4 main_call203.v2 main_call203.v5 minimumf,
    StableHlo.unary main_v2163 main_v2165 (Host.sign : (⟨S32768x1, .f32⟩ : BufTy).Contents (Elt F) → (⟨S32768x1, .f32⟩ : BufTy).Contents (Elt F)),
    StableHlo.unary main_v2164 main_v2166 (Host.sign : (⟨S32768x1, .f32⟩ : BufTy).Contents (Elt F) → (⟨S32768x1, .f32⟩ : BufTy).Contents (Elt F)),
    StableHlo.binary main_v2165 main_v2166 main_v2167 (mulf : (⟨S32768x1, .f32⟩ : BufTy).Contents (Elt F) → (⟨S32768x1, .f32⟩ : BufTy).Contents (Elt F) → (⟨S32768x1, .f32⟩ : BufTy).Contents (Elt F)),
    StableHlo.unary main_v2163 main_v2168 (Host.absf : (⟨S32768x1, .f32⟩ : BufTy).Contents (Elt F) → (⟨S32768x1, .f32⟩ : BufTy).Contents (Elt F)),
    StableHlo.unary main_v2164 main_v2169 (Host.absf : (⟨S32768x1, .f32⟩ : BufTy).Contents (Elt F) → (⟨S32768x1, .f32⟩ : BufTy).Contents (Elt F)),
    StableHlo.binary main_v2168 main_v2169 main_v2170 (minimumf : (⟨S32768x1, .f32⟩ : BufTy).Contents (Elt F) → (⟨S32768x1, .f32⟩ : BufTy).Contents (Elt F) → (⟨S32768x1, .f32⟩ : BufTy).Contents (Elt F)),
    StableHlo.binary main_v2167 main_v2170 main_v2171 (mulf : (⟨S32768x1, .f32⟩ : BufTy).Contents (Elt F) → (⟨S32768x1, .f32⟩ : BufTy).Contents (Elt F) → (⟨S32768x1, .f32⟩ : BufTy).Contents (Elt F)),
    StableHlo.nullary main_cst_697 (constant S_ .f32 0x00000000#32),
    StableHlo.unary main_cst_697 main_v2172 (broadcastInDim S32768x1 ![] bcast_S_S32768x1 : (⟨S_, .f32⟩ : BufTy).Contents (Elt F) → (⟨S32768x1, .f32⟩ : BufTy).Contents (Elt F)),
    StableHlo.nullary main_cst_698 (constant S_ .f32 0x40000000#32),
    StableHlo.unary main_cst_698 main_v2173 (broadcastInDim S32768x1 ![] bcast_S_S32768x1 : (⟨S_, .f32⟩ : BufTy).Contents (Elt F) → (⟨S32768x1, .f32⟩ : BufTy).Contents (Elt F)),
    StableHlo.binary main_v2173 main_v2172 main_v2174 (mulf : (⟨S32768x1, .f32⟩ : BufTy).Contents (Elt F) → (⟨S32768x1, .f32⟩ : BufTy).Contents (Elt F) → (⟨S32768x1, .f32⟩ : BufTy).Contents (Elt F)),
    StableHlo.nullary main_cst_699 (constant S_ .f32 0x3F800000#32),
    StableHlo.unary main_cst_699 main_v2175 (broadcastInDim S32768x1 ![] bcast_S_S32768x1 : (⟨S_, .f32⟩ : BufTy).Contents (Elt F) → (⟨S32768x1, .f32⟩ : BufTy).Contents (Elt F)),
    StableHlo.binary main_v2175 main_v2174 main_v2176 (subf : (⟨S32768x1, .f32⟩ : BufTy).Contents (Elt F) → (⟨S32768x1, .f32⟩ : BufTy).Contents (Elt F) → (⟨S32768x1, .f32⟩ : BufTy).Contents (Elt F)),
    StableHlo.binary main_v2176 main_v2161 main_v2177 (mulf : (⟨S32768x1, .f32⟩ : BufTy).Contents (Elt F) → (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_47 (d : Dev nD) : main_part47 (F := F) d = seq ops47 := by
  simp only [main_part47, fn_clip_4.body, fn_clip_5.body, fn_clip_6.body, seq, bind_assoc, pure_bind]
  rfl

/-- Every operation of the window touches TensorCore references only. -/
theorem sub_47 : (ops47 : List (HloOp τ sig (Elt F))).Forall fun op => op.bufs ⊆ tcRefs τ sig :=
  ⟨unary_bufs_sub .., binary_bufs_sub .., unary_bufs_sub .., unary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., nullary_bufs_sub ..,
    unary_bufs_sub .., binary_bufs_sub .., nullary_bufs_sub .., unary_bufs_sub .., binary_bufs_sub .., binary_bufs_sub ..⟩

/-- Every operation of the window determines all it writes. -/
theorem fresh_47 : (ops47 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_47 (V : Valuation τ sig (Elt F)) :
    after ops47 V (main_arg0 : DevRef τ sig) = V (main_arg0 : DevRef τ sig) := by
  simp only [after_cons, after_nil]
  rfl

end Cert.ReferenceIdeal.RefRun

end
-- ==== Proof.RefRun.W06.lean ====
import proofs.«134088_j24077586662034_2_alg».proof.Defs
import proofs.«134088_j24077586662034_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 2881 … 2940, in order (70 of them): a statement's own operation, or, for a call
    of a clip function, the six operations of its body over that call's buffers. -/
abbrev ops48 : List (HloOp τ sig (Elt F)) :=
  [ StableHlo.binary main_v2177 main_v2162 main_v2178 (addf : (⟨S32768x1, .f32⟩ : BufTy).Contents (Elt F) → (⟨S32768x1, .f32⟩ : BufTy).Contents (Elt F) → (⟨S32768x1, .f32⟩ : BufTy).Contents (Elt F)),
    StableHlo.nullary main_cst_700 (constant S_ .f32 0x00000000#32),
    StableHlo.unary main_cst_700 main_v2179 (broadcastInDim S32768x1 ![] bcast_S_S32768x1 : (⟨S_, .f32⟩ : BufTy).Contents (Elt F) → (⟨S32768x1, .f32⟩ : BufTy).Contents (Elt F)),
    StableHlo.binary main_v2172 main_v2179 main_v2180 (cmpf .une : (⟨S32768x1, .f32⟩ : BufTy).Contents (Elt F) → (⟨S32768x1, .f32⟩ : BufTy).Contents (Elt F) → (⟨S32768x1, .i1⟩ : BufTy).Contents (Elt F)),
    StableHlo.unary main_v2180 main_v2181 (uitofp .f32 : (⟨S32768x1, .i1⟩ : BufTy).Contents (Elt F) → (⟨S32768x1, .f32⟩ : BufTy).Contents (Elt F)),
    StableHlo.binary main_v2181 main_v2179 main_v2182 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2172 main_v2179 main_v2183 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_701 (constant S_ .f32 0x40000000#32),
    StableHlo.unary main_cst_701 main_v2184 (broadcastInDim S32768x2 ![] bcast_S_S32768x2 : (⟨S_, .f32⟩ : BufTy).Contents (Elt F) → (⟨S32768x2, .f32⟩ : BufTy).Contents (Elt F)),
    StableHlo.binary main_v2184 main_v2182 main_v2185 (mulf : (⟨S32768x2, .f32⟩ : BufTy).Contents (Elt F) → (⟨S32768x2, .f32⟩ : BufTy).Contents (Elt F) → (⟨S32768x2, .f32⟩ : BufTy).Contents (Elt F)),
    StableHlo.nullary main_cst_702 (constant S_ .f32 0x3F800000#32),
    StableHlo.unary main_cst_702 main_v2186 (broadcastInDim S32768x2 ![] bcast_S_S32768x2 : (⟨S_, .f32⟩ : BufTy).Contents (Elt F) → (⟨S32768x2, .f32⟩ : BufTy).Contents (Elt F)),
    StableHlo.binary main_v2186 main_v2185 main_v2187 (subf : (⟨S32768x2, .f32⟩ : BufTy).Contents (Elt F) → (⟨S32768x2, .f32⟩ : BufTy).Contents (Elt F) → (⟨S32768x2, .f32⟩ : BufTy).Contents (Elt F)),
    StableHlo.binary main_v2187 main_v2150 main_v2188 (mulf : (⟨S32768x2, .f32⟩ : BufTy).Contents (Elt F) → (⟨S32768x2, .f32⟩ : BufTy).Contents (Elt F) → (⟨S32768x2, .f32⟩ : BufTy).Contents (Elt F)),
    StableHlo.binary main_v2188 main_v2151 main_v2189 (addf : (⟨S32768x2, .f32⟩ : BufTy).Contents (Elt F) → (⟨S32768x2, .f32⟩ : BufTy).Contents (Elt F) → (⟨S32768x2, .f32⟩ : BufTy).Contents (Elt F)),
    StableHlo.unary main_v2189 main_v2190 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2189 main_v2191 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_703 (constant S_ .f32 0xC1F00000#32),
    StableHlo.nullary main_cst_704 (constant S_ .f32 0x41F00000#32),
    StableHlo.TRef.unary (.of main_cst_703 : StableHlo.TRef sig ⟨S_, .f32⟩) main_call204.v0 id,
    StableHlo.TRef.unary main_call204.v0 main_call204.v1 (broadcastInDim S32768x1 ![] bcast_S_S32768x1),
    StableHlo.TRef.binary main_call204.v1 (.of main_v2190 : StableHlo.TRef sig ⟨S32768x1, .f32⟩) main_call204.v2 maximumf,
    StableHlo.TRef.unary (.of main_cst_704 : StableHlo.TRef sig ⟨S_, .f32⟩) main_call204.v3 id,
    StableHlo.TRef.unary main_call204.v3 main_call204.v4 (broadcastInDim S32768x1 ![] bcast_S_S32768x1),
    StableHlo.TRef.binary main_call204.v4 main_call204.v2 main_call204.v5 minimumf,
    StableHlo.nullary main_cst_705 (constant S_ .f32 0xC1F00000#32),
    StableHlo.nullary main_cst_706 (constant S_ .f32 0x41F00000#32),
    StableHlo.TRef.unary (.of main_cst_705 : StableHlo.TRef sig ⟨S_, .f32⟩) main_call205.v0 id,
    StableHlo.TRef.unary main_call205.v0 main_call205.v1 (broadcastInDim S32768x1 ![] bcast_S_S32768x1),
    StableHlo.TRef.binary main_call205.v1 (.of main_v2191 : StableHlo.TRef sig ⟨S32768x1, .f32⟩) main_call205.v2 maximumf,
    StableHlo.TRef.unary (.of main_cst_706 : StableHlo.TRef sig ⟨S_, .f32⟩) main_call205.v3 id,
    StableHlo.TRef.unary main_call205.v3 main_call205.v4 (broadcastInDim S32768x1 ![] bcast_S_S32768x1),
    StableHlo.TRef.binary main_call205.v4 main_call205.v2 main_call205.v5 minimumf,
    StableHlo.unary main_v2192 main_v2194 (Host.sign : (⟨S32768x1, .f32⟩ : BufTy).Contents (Elt F) → (⟨S32768x1, .f32⟩ : BufTy).Contents (Elt F)),
    StableHlo.unary main_v2193 main_v2195 (Host.sign : (⟨S32768x1, .f32⟩ : BufTy).Contents (Elt F) → (⟨S32768x1, .f32⟩ : BufTy).Contents (Elt F)),
    StableHlo.binary main_v2194 main_v2195 main_v2196 (mulf : (⟨S32768x1, .f32⟩ : BufTy).Contents (Elt F) → (⟨S32768x1, .f32⟩ : BufTy).Contents (Elt F) → (⟨S32768x1, .f32⟩ : BufTy).Contents (Elt F)),
    StableHlo.unary main_v2192 main_v2197 (Host.absf : (⟨S32768x1, .f32⟩ : BufTy).Contents (Elt F) → (⟨S32768x1, .f32⟩ : BufTy).Contents (Elt F)),
    StableHlo.unary main_v2193 main_v2198 (Host.absf : (⟨S32768x1, .f32⟩ : BufTy).Contents (Elt F) → (⟨S32768x1, .f32⟩ : BufTy).Contents (Elt F)),
    StableHlo.binary main_v2197 main_v2198 main_v2199 (minimumf : (⟨S32768x1, .f32⟩ : BufTy).Contents (Elt F) → (⟨S32768x1, .f32⟩ : BufTy).Contents (Elt F) → (⟨S32768x1, .f32⟩ : BufTy).Contents (Elt F)),
    StableHlo.binary main_v2196 main_v2199 main_v2200 (mulf : (⟨S32768x1, .f32⟩ : BufTy).Contents (Elt F) → (⟨S32768x1, .f32⟩ : BufTy).Contents (Elt F) → (⟨S32768x1, .f32⟩ : BufTy).Contents (Elt F)),
    StableHlo.nullary main_cst_707 (constant S_ .f32 0x00000000#32),
    StableHlo.unary main_cst_707 main_v2201 (broadcastInDim S32768x1 ![] bcast_S_S32768x1 : (⟨S_, .f32⟩ : BufTy).Contents (Elt F) → (⟨S32768x1, .f32⟩ : BufTy).Contents (Elt F)),
    StableHlo.nullary main_cst_708 (constant S_ .f32 0x40000000#32),
    StableHlo.unary main_cst_708 main_v2202 (broadcastInDim S32768x1 ![] bcast_S_S32768x1 : (⟨S_, .f32⟩ : BufTy).Contents (Elt F) → (⟨S32768x1, .f32⟩ : BufTy).Contents (Elt F)),
    StableHlo.binary main_v2202 main_v2201 main_v2203 (mulf : (⟨S32768x1, .f32⟩ : BufTy).Contents (Elt F) → (⟨S32768x1, .f32⟩ : BufTy).Contents (Elt F) → (⟨S32768x1, .f32⟩ : BufTy).Contents (Elt F)),
    StableHlo.nullary main_cst_709 (constant S_ .f32 0x3F800000#32),
    StableHlo.unary main_cst_709 main_v2204 (broadcastInDim S32768x1 ![] bcast_S_S32768x1 : (⟨S_, .f32⟩ : BufTy).Contents (Elt F) → (⟨S32768x1, .f32⟩ : BufTy).Contents (Elt F)),
    StableHlo.binary main_v2204 main_v2203 main_v2205 (subf : (⟨S32768x1, .f32⟩ : BufTy).Contents (Elt F) → (⟨S32768x1, .f32⟩ : BufTy).Contents (Elt F) → (⟨S32768x1, .f32⟩ : BufTy).Contents (Elt F)),
    StableHlo.binary main_v2205 main_v2190 main_v2206 (mulf : (⟨S32768x1, .f32⟩ : BufTy).Contents (Elt F) → (⟨S32768x1, .f32⟩ : BufTy).Contents (Elt F) → (⟨S32768x1, .f32⟩ : BufTy).Contents (Elt F)),
    StableHlo.binary main_v2206 main_v2191 main_v2207 (addf : (⟨S32768x1, .f32⟩ : BufTy).Contents (Elt F) → (⟨S32768x1, .f32⟩ : BufTy).Contents (Elt F) → (⟨S32768x1, .f32⟩ : BufTy).Contents (Elt F)),
    StableHlo.nullary main_cst_710 (constant S_ .f32 0x00000000#32),
    StableHlo.unary main_cst_710 main_v2208 (broadcastInDim S32768x1 ![] bcast_S_S32768x1 : (⟨S_, .f32⟩ : BufTy).Contents (Elt F) → (⟨S32768x1, .f32⟩ : BufTy).Contents (Elt F)),
    StableHlo.binary main_v2201 main_v2208 main_v2209 (cmpf .une : (⟨S32768x1, .f32⟩ : BufTy).Contents (Elt F) → (⟨S32768x1, .f32⟩ : BufTy).Contents (Elt F) → (⟨S32768x1, .i1⟩ : BufTy).Contents (Elt F)),
    StableHlo.unary main_v2209 main_v2210 (uitofp .f32 : (⟨S32768x1, .i1⟩ : BufTy).Contents (Elt F) → (⟨S32768x1, .f32⟩ : BufTy).Contents (Elt F)),
    StableHlo.binary main_v2210 main_v2208 main_v2211 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2201 main_v2208 main_v2212 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2182 main_v2211 main_v2213 (cmpf .une : (⟨S32768x2, .f32⟩ : BufTy).Contents (Elt F) → (⟨S32768x2, .f32⟩ : BufTy).Contents (Elt F) → (⟨S32768x2, .i1⟩ : BufTy).Contents (Elt F)),
    StableHlo.unary main_v2213 main_v2214 (uitofp .f32 : (⟨S32768x2, .i1⟩ : BufTy).Contents (Elt F) → (⟨S32768x2, .f32⟩ : BufTy).Contents (Elt F)),
    StableHlo.binary main_v2214 main_v2211 main_v2215 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v2183 main_v2212 main_v2216 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_711 (constant S_ .f32 0x40000000#32),
    StableHlo.unary main_cst_711 main_v2217 (broadcastInDim S32768x4 ![] bcast_S_S32768x4 : (⟨S_, .f32⟩ : BufTy).Contents (Elt F) → (⟨S32768x4, .f32⟩ : BufTy).Contents (Elt F)),
    StableHlo.binary main_v2217 main_v2215 main_v2218 (mulf : (⟨S32768x4, .f32⟩ : BufTy).Contents (Elt F) → (⟨S32768x4, .f32⟩ : BufTy).Contents (Elt F) → (⟨S32768x4, .f32⟩ : BufTy).Contents (Elt F)),
    StableHlo.nullary main_cst_712 (constant S_ .f32 0x3F800000#32),
    StableHlo.unary main_cst_712 main_v2219 (broadcastInDim S32768x4 ![] bcast_S_S32768x4 : (⟨S_, .f32⟩ : BufTy).Contents (Elt F) → (⟨S32768x4, .f32⟩ : BufTy).Contents (Elt F)),
    StableHlo.binary main_v2219 main_v2218 main_v2220 (subf : (⟨S32768x4, .f32⟩ : BufTy).Contents (Elt F) → (⟨S32768x4, .f32⟩ : BufTy).Contents (Elt F) → (⟨S32768x4, .f32⟩ : BufTy).Contents (Elt F)),
    StableHlo.binary main_v2220 main_v2139 main_v2221 (mulf : (⟨S32768x4, .f32⟩ : BufTy).Contents (Elt F) → (⟨S32768x4, .f32⟩ : BufTy).Contents (Elt F) → (⟨S32768x4, .f32⟩ : BufTy).Contents (Elt F)),
    StableHlo.binary main_v2221 main_v2140 main_v2222 (addf : (⟨S32768x4, .f32⟩ : BufTy).Contents (Elt F) → (⟨S32768x4, .f32⟩ : BufTy).Contents (Elt F) → (⟨S32768x4, .f32⟩ : BufTy).Contents (Elt F)),
    StableHlo.unary main_v2222 main_v2223 ((extractStridedSlice S32768x2 ![0, 0] · slices_S32768x4_S32768x2_0_0) : (⟨S32768x4, .f32⟩ : BufTy).Contents (Elt F) → (⟨S32768x2, .f32⟩ : BufTy).Contents (Elt F)),
    StableHlo.unary main_v2222 main_v2224 ((extractStridedSlice S32768x2 ![0, 2] · slices_S32768x4_S32768x2_0_2) : (⟨S32768x4, .f32⟩ : BufTy).Contents (Elt F) → (⟨S32768x2, .f32⟩ : BufTy).Contents (Elt F)) ]

set_option maxRecDepth 8192 in
/-- The window is that straight line: each clip function unfolded at its calls, the sequencing reassociated. -/
theorem part_eq_48 (d : Dev nD) : main_part48 (F := F) d = seq ops48 := by
  simp only [main_part48, fn_clip_6.body, seq, bind_assoc, pure_bind]
  rfl

/-- Every operation of the window touches TensorCore references only. -/
theorem sub_48 : (ops48 : List (HloOp τ sig (Elt F))).Forall fun op => op.bufs ⊆ tcRefs τ sig :=
  ⟨binary_bufs_sub .., nullary_bufs_sub .., unary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., nullary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., binary_bufs_sub .., binary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., unary_bufs_sub .., unary_bufs_sub ..⟩

/-- Every operation of the window determines all it writes. -/
theorem fresh_48 : (ops48 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_48 (V : Valuation τ sig (Elt F)) :
    after ops48 V (main_arg0 : DevRef τ sig) = V (main_arg0 : DevRef τ sig) := by
  simp only [after_cons, after_nil]
  rfl

/-- The operations of @main's statements 2941 … 3000, in order (90 of them): a statement's own operation, or, for a call
    of a clip function, the six operations of its body over that call's buffers. -/
abbrev ops49 : List (HloOp τ sig (Elt F)) :=
  [ StableHlo.nullary main_cst_713 (constant S_ .f32 0xC1F00000#32),
    StableHlo.nullary main_cst_714 (constant S_ .f32 0x41F00000#32),
    StableHlo.TRef.unary (.of main_cst_713 : StableHlo.TRef sig ⟨S_, .f32⟩) main_call206.v0 id,
    StableHlo.TRef.unary main_call206.v0 main_call206.v1 (broadcastInDim S32768x2 ![] bcast_S_S32768x2),
    StableHlo.TRef.binary main_call206.v1 (.of main_v2223 : StableHlo.TRef sig ⟨S32768x2, .f32⟩) main_call206.v2 maximumf,
    StableHlo.TRef.unary (.of main_cst_714 : StableHlo.TRef sig ⟨S_, .f32⟩) main_call206.v3 id,
    StableHlo.TRef.unary main_call206.v3 main_call206.v4 (broadcastInDim S32768x2 ![] bcast_S_S32768x2),
    StableHlo.TRef.binary main_call206.v4 main_call206.v2 main_call206.v5 minimumf,
    StableHlo.nullary main_cst_715 (constant S_ .f32 0xC1F00000#32),
    StableHlo.nullary main_cst_716 (constant S_ .f32 0x41F00000#32),
    StableHlo.TRef.unary (.of main_cst_715 : StableHlo.TRef sig ⟨S_, .f32⟩) main_call207.v0 id,
    StableHlo.TRef.unary main_call207.v0 main_call207.v1 (broadcastInDim S32768x2 ![] bcast_S_S32768x2),
    StableHlo.TRef.binary main_call207.v1 (.of main_v2224 : StableHlo.TRef sig ⟨S32768x2, .f32⟩) main_call207.v2 maximumf,
    StableHlo.TRef.unary (.of main_cst_716 : StableHlo.TRef sig ⟨S_, .f32⟩) main_call207.v3 id,
    StableHlo.TRef.unary main_call207.v3 main_call207.v4 (broadcastInDim S32768x2 ![] bcast_S_S32768x2),
    StableHlo.TRef.binary main_call207.v4 main_call207.v2 main_call207.v5 minimumf,
    StableHlo.unary main_v2225 main_v2227 (Host.sign : (⟨S32768x2, .f32⟩ : BufTy).Contents (Elt F) → (⟨S32768x2, .f32⟩ : BufTy).Contents (Elt F)),
    StableHlo.unary main_v2226 main_v2228 (Host.sign : (⟨S32768x2, .f32⟩ : BufTy).Contents (Elt F) → (⟨S32768x2, .f32⟩ : BufTy).Contents (Elt F)),
    StableHlo.binary main_v2227 main_v2228 main_v2229 (mulf : (⟨S32768x2, .f32⟩ : BufTy).Contents (Elt F) → (⟨S32768x2, .f32⟩ : BufTy).Contents (Elt F) → (⟨S32768x2, .f32⟩ : BufTy).Contents (Elt F)),
    StableHlo.unary main_v2225 main_v2230 (Host.absf : (⟨S32768x2, .f32⟩ : BufTy).Contents (Elt F) → (⟨S32768x2, .f32⟩ : BufTy).Contents (Elt F)),
    StableHlo.unary main_v2226 main_v2231 (Host.absf : (⟨S32768x2, .f32⟩ : BufTy).Contents (Elt F) → (⟨S32768x2, .f32⟩ : BufTy).Contents (Elt F)),
    StableHlo.binary main_v2230 main_v2231 main_v2232 (minimumf : (⟨S32768x2, .f32⟩ : BufTy).Contents (Elt F) → (⟨S32768x2, .f32⟩ : BufTy).Contents (Elt F) → (⟨S32768x2, .f32⟩ : BufTy).Contents (Elt F)),
    StableHlo.binary main_v2229 main_v2232 main_v2233 (mulf : (⟨S32768x2, .f32⟩ : BufTy).Contents (Elt F) → (⟨S32768x2, .f32⟩ : BufTy).Contents (Elt F) → (⟨S32768x2, .f32⟩ : BufTy).Contents (Elt F)),
    StableHlo.unary main_v2233 main_v2234 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2233 main_v2235 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_717 (constant S_ .f32 0xC1F00000#32),
    StableHlo.nullary main_cst_718 (constant S_ .f32 0x41F00000#32),
    StableHlo.TRef.unary (.of main_cst_717 : StableHlo.TRef sig ⟨S_, .f32⟩) main_call208.v0 id,
    StableHlo.TRef.unary main_call208.v0 main_call208.v1 (broadcastInDim S32768x1 ![] bcast_S_S32768x1),
    StableHlo.TRef.binary main_call208.v1 (.of main_v2234 : StableHlo.TRef sig ⟨S32768x1, .f32⟩) main_call208.v2 maximumf,
    StableHlo.TRef.unary (.of main_cst_718 : StableHlo.TRef sig ⟨S_, .f32⟩) main_call208.v3 id,
    StableHlo.TRef.unary main_call208.v3 main_call208.v4 (broadcastInDim S32768x1 ![] bcast_S_S32768x1),
    StableHlo.TRef.binary main_call208.v4 main_call208.v2 main_call208.v5 minimumf,
    StableHlo.nullary main_cst_719 (constant S_ .f32 0xC1F00000#32),
    StableHlo.nullary main_cst_720 (constant S_ .f32 0x41F00000#32),
    StableHlo.TRef.unary (.of main_cst_719 : StableHlo.TRef sig ⟨S_, .f32⟩) main_call209.v0 id,
    StableHlo.TRef.unary main_call209.v0 main_call209.v1 (broadcastInDim S32768x1 ![] bcast_S_S32768x1),
    StableHlo.TRef.binary main_call209.v1 (.of main_v2235 : StableHlo.TRef sig ⟨S32768x1, .f32⟩) main_call209.v2 maximumf,
    StableHlo.TRef.unary (.of main_cst_720 : StableHlo.TRef sig ⟨S_, .f32⟩) main_call209.v3 id,
    StableHlo.TRef.unary main_call209.v3 main_call209.v4 (broadcastInDim S32768x1 ![] bcast_S_S32768x1),
    StableHlo.TRef.binary main_call209.v4 main_call209.v2 main_call209.v5 minimumf,
    StableHlo.unary main_v2236 main_v2238 (Host.sign : (⟨S32768x1, .f32⟩ : BufTy).Contents (Elt F) → (⟨S32768x1, .f32⟩ : BufTy).Contents (Elt F)),
    StableHlo.unary main_v2237 main_v2239 (Host.sign : (⟨S32768x1, .f32⟩ : BufTy).Contents (Elt F) → (⟨S32768x1, .f32⟩ : BufTy).Contents (Elt F)),
    StableHlo.binary main_v2238 main_v2239 main_v2240 (mulf : (⟨S32768x1, .f32⟩ : BufTy).Contents (Elt F) → (⟨S32768x1, .f32⟩ : BufTy).Contents (Elt F) → (⟨S32768x1, .f32⟩ : BufTy).Contents (Elt F)),
    StableHlo.unary main_v2236 main_v2241 (Host.absf : (⟨S32768x1, .f32⟩ : BufTy).Contents (Elt F) → (⟨S32768x1, .f32⟩ : BufTy).Contents (Elt F)),
    StableHlo.unary main_v2237 main_v2242 (Host.absf : (⟨S32768x1, .f32⟩ : BufTy).Contents (Elt F) → (⟨S32768x1, .f32⟩ : BufTy).Contents (Elt F)),
    StableHlo.binary main_v2241 main_v2242 main_v2243 (minimumf : (⟨S32768x1, .f32⟩ : BufTy).Contents (Elt F) → (⟨S32768x1, .f32⟩ : BufTy).Contents (Elt F) → (⟨S32768x1, .f32⟩ : BufTy).Contents (Elt F)),
    StableHlo.binary main_v2240 main_v2243 main_v2244 (mulf : (⟨S32768x1, .f32⟩ : BufTy).Contents (Elt F) → (⟨S32768x1, .f32⟩ : BufTy).Contents (Elt F) → (⟨S32768x1, .f32⟩ : BufTy).Contents (Elt F)),
    StableHlo.nullary main_cst_721 (constant S_ .f32 0x00000000#32),
    StableHlo.unary main_cst_721 main_v2245 (broadcastInDim S32768x1 ![] bcast_S_S32768x1 : (⟨S_, .f32⟩ : BufTy).Contents (Elt F) → (⟨S32768x1, .f32⟩ : BufTy).Contents (Elt F)),
    StableHlo.nullary main_cst_722 (constant S_ .f32 0x40000000#32),
    StableHlo.unary main_cst_722 main_v2246 (broadcastInDim S32768x1 ![] bcast_S_S32768x1 : (⟨S_, .f32⟩ : BufTy).Contents (Elt F) → (⟨S32768x1, .f32⟩ : BufTy).Contents (Elt F)),
    StableHlo.binary main_v2246 main_v2245 main_v2247 (mulf : (⟨S32768x1, .f32⟩ : BufTy).Contents (Elt F) → (⟨S32768x1, .f32⟩ : BufTy).Contents (Elt F) → (⟨S32768x1, .f32⟩ : BufTy).Contents (Elt F)),
    StableHlo.nullary main_cst_723 (constant S_ .f32 0x3F800000#32),
    StableHlo.unary main_cst_723 main_v2248 (broadcastInDim S32768x1 ![] bcast_S_S32768x1 : (⟨S_, .f32⟩ : BufTy).Contents (Elt F) → (⟨S32768x1, .f32⟩ : BufTy).Contents (Elt F)),
    StableHlo.binary main_v2248 main_v2247 main_v2249 (subf : (⟨S32768x1, .f32⟩ : BufTy).Contents (Elt F) → (⟨S32768x1, .f32⟩ : BufTy).Contents (Elt F) → (⟨S32768x1, .f32⟩ : BufTy).Contents (Elt F)),
    StableHlo.binary main_v2249 main_v2234 main_v2250 (mulf : (⟨S32768x1, .f32⟩ : BufTy).Contents (Elt F) → (⟨S32768x1, .f32⟩ : BufTy).Contents (Elt F) → (⟨S32768x1, .f32⟩ : BufTy).Contents (Elt F)),
    StableHlo.binary main_v2250 main_v2235 main_v2251 (addf : (⟨S32768x1, .f32⟩ : BufTy).Contents (Elt F) → (⟨S32768x1, .f32⟩ : BufTy).Contents (Elt F) → (⟨S32768x1, .f32⟩ : BufTy).Contents (Elt F)),
    StableHlo.nullary main_cst_724 (constant S_ .f32 0x00000000#32),
    StableHlo.unary main_cst_724 main_v2252 (broadcastInDim S32768x1 ![] bcast_S_S32768x1 : (⟨S_, .f32⟩ : BufTy).Contents (Elt F) → (⟨S32768x1, .f32⟩ : BufTy).Contents (Elt F)),
    StableHlo.binary main_v2245 main_v2252 main_v2253 (cmpf .une : (⟨S32768x1, .f32⟩ : BufTy).Contents (Elt F) → (⟨S32768x1, .f32⟩ : BufTy).Contents (Elt F) → (⟨S32768x1, .i1⟩ : BufTy).Contents (Elt F)),
    StableHlo.unary main_v2253 main_v2254 (uitofp .f32 : (⟨S32768x1, .i1⟩ : BufTy).Contents (Elt F) → (⟨S32768x1, .f32⟩ : BufTy).Contents (Elt F)),
    StableHlo.binary main_v2254 main_v2252 main_v2255 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2245 main_v2252 main_v2256 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_725 (constant S_ .f32 0x40000000#32),
    StableHlo.unary main_cst_725 main_v2257 (broadcastInDim S32768x2 ![] bcast_S_S32768x2 : (⟨S_, .f32⟩ : BufTy).Contents (Elt F) → (⟨S32768x2, .f32⟩ : BufTy).Contents (Elt F)),
    StableHlo.binary main_v2257 main_v2255 main_v2258 (mulf : (⟨S32768x2, .f32⟩ : BufTy).Contents (Elt F) → (⟨S32768x2, .f32⟩ : BufTy).Contents (Elt F) → (⟨S32768x2, .f32⟩ : BufTy).Contents (Elt F)),
    StableHlo.nullary main_cst_726 (constant S_ .f32 0x3F800000#32),
    StableHlo.unary main_cst_726 main_v2259 (broadcastInDim S32768x2 ![] bcast_S_S32768x2 : (⟨S_, .f32⟩ : BufTy).Contents (Elt F) → (⟨S32768x2, .f32⟩ : BufTy).Contents (Elt F)),
    StableHlo.binary main_v2259 main_v2258 main_v2260 (subf : (⟨S32768x2, .f32⟩ : BufTy).Contents (Elt F) → (⟨S32768x2, .f32⟩ : BufTy).Contents (Elt F) → (⟨S32768x2, .f32⟩ : BufTy).Contents (Elt F)),
    StableHlo.binary main_v2260 main_v2223 main_v2261 (mulf : (⟨S32768x2, .f32⟩ : BufTy).Contents (Elt F) → (⟨S32768x2, .f32⟩ : BufTy).Contents (Elt F) → (⟨S32768x2, .f32⟩ : BufTy).Contents (Elt F)),
    StableHlo.binary main_v2261 main_v2224 main_v2262 (addf : (⟨S32768x2, .f32⟩ : BufTy).Contents (Elt F) → (⟨S32768x2, .f32⟩ : BufTy).Contents (Elt F) → (⟨S32768x2, .f32⟩ : BufTy).Contents (Elt F)),
    StableHlo.unary main_v2262 main_v2263 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2262 main_v2264 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_727 (constant S_ .f32 0xC1F00000#32),
    StableHlo.nullary main_cst_728 (constant S_ .f32 0x41F00000#32),
    StableHlo.TRef.unary (.of main_cst_727 : StableHlo.TRef sig ⟨S_, .f32⟩) main_call210.v0 id,
    StableHlo.TRef.unary main_call210.v0 main_call210.v1 (broadcastInDim S32768x1 ![] bcast_S_S32768x1),
    StableHlo.TRef.binary main_call210.v1 (.of main_v2263 : StableHlo.TRef sig ⟨S32768x1, .f32⟩) main_call210.v2 maximumf,
    StableHlo.TRef.unary (.of main_cst_728 : StableHlo.TRef sig ⟨S_, .f32⟩) main_call210.v3 id,
    StableHlo.TRef.unary main_call210.v3 main_call210.v4 (broadcastInDim S32768x1 ![] bcast_S_S32768x1),
    StableHlo.TRef.binary main_call210.v4 main_call210.v2 main_call210.v5 minimumf,
    StableHlo.nullary main_cst_729 (constant S_ .f32 0xC1F00000#32),
    StableHlo.nullary main_cst_730 (constant S_ .f32 0x41F00000#32),
    StableHlo.TRef.unary (.of main_cst_729 : StableHlo.TRef sig ⟨S_, .f32⟩) main_call211.v0 id,
    StableHlo.TRef.unary main_call211.v0 main_call211.v1 (broadcastInDim S32768x1 ![] bcast_S_S32768x1),
    StableHlo.TRef.binary main_call211.v1 (.of main_v2264 : StableHlo.TRef sig ⟨S32768x1, .f32⟩) main_call211.v2 maximumf,
    StableHlo.TRef.unary (.of main_cst_730 : StableHlo.TRef sig ⟨S_, .f32⟩) main_call211.v3 id,
    StableHlo.TRef.unary main_call211.v3 main_call211.v4 (broadcastInDim S32768x1 ![] bcast_S_S32768x1),
    StableHlo.TRef.binary main_call211.v4 main_call211.v2 main_call211.v5 minimumf ]

set_option maxRecDepth 8192 in
/-- The window is that straight line: each clip function unfolded at its calls, the sequencing reassociated. -/
theorem part_eq_49 (d : Dev nD) : main_part49 (F := F) d = seq ops49 := by
  simp only [main_part49, fn_clip_5.body, fn_clip_6.body, seq, bind_assoc, pure_bind]

/-- Every operation of the window touches TensorCore references only. -/
theorem sub_49 : (ops49 : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., nullary_bufs_sub .., unary_bufs_sub .., binary_bufs_sub .., nullary_bufs_sub ..,
    unary_bufs_sub .., binary_bufs_sub .., binary_bufs_sub .., binary_bufs_sub .., nullary_bufs_sub .., unary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..⟩

/-- Every operation of the window determines all it writes. -/
theorem fresh_49 : (ops49 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_49 (V : Valuation τ sig (Elt F)) :
    after ops49 V (main_arg0 : DevRef τ sig) = V (main_arg0 : DevRef τ sig) := by
  simp only [after_cons, after_nil]
  rfl

/-- The operations of @main's statements 3001 … 3060, in order (75 of them): a statement's own operation, or, for a call
    of a clip function, the six operations of its body over that call's buffers. -/
abbrev ops50 : List (HloOp τ sig (Elt F)) :=
  [ StableHlo.unary main_v2265 main_v2267 (Host.sign : (⟨S32768x1, .f32⟩ : BufTy).Contents (Elt F) → (⟨S32768x1, .f32⟩ : BufTy).Contents (Elt F)),
    StableHlo.unary main_v2266 main_v2268 (Host.sign : (⟨S32768x1, .f32⟩ : BufTy).Contents (Elt F) → (⟨S32768x1, .f32⟩ : BufTy).Contents (Elt F)),
    StableHlo.binary main_v2267 main_v2268 main_v2269 (mulf : (⟨S32768x1, .f32⟩ : BufTy).Contents (Elt F) → (⟨S32768x1, .f32⟩ : BufTy).Contents (Elt F) → (⟨S32768x1, .f32⟩ : BufTy).Contents (Elt F)),
    StableHlo.unary main_v2265 main_v2270 (Host.absf : (⟨S32768x1, .f32⟩ : BufTy).Contents (Elt F) → (⟨S32768x1, .f32⟩ : BufTy).Contents (Elt F)),
    StableHlo.unary main_v2266 main_v2271 (Host.absf : (⟨S32768x1, .f32⟩ : BufTy).Contents (Elt F) → (⟨S32768x1, .f32⟩ : BufTy).Contents (Elt F)),
    StableHlo.binary main_v2270 main_v2271 main_v2272 (minimumf : (⟨S32768x1, .f32⟩ : BufTy).Contents (Elt F) → (⟨S32768x1, .f32⟩ : BufTy).Contents (Elt F) → (⟨S32768x1, .f32⟩ : BufTy).Contents (Elt F)),
    StableHlo.binary main_v2269 main_v2272 main_v2273 (mulf : (⟨S32768x1, .f32⟩ : BufTy).Contents (Elt F) → (⟨S32768x1, .f32⟩ : BufTy).Contents (Elt F) → (⟨S32768x1, .f32⟩ : BufTy).Contents (Elt F)),
    StableHlo.nullary main_cst_731 (constant S_ .f32 0x00000000#32),
    StableHlo.unary main_cst_731 main_v2274 (broadcastInDim S32768x1 ![] bcast_S_S32768x1 : (⟨S_, .f32⟩ : BufTy).Contents (Elt F) → (⟨S32768x1, .f32⟩ : BufTy).Contents (Elt F)),
    StableHlo.nullary main_cst_732 (constant S_ .f32 0x40000000#32),
    StableHlo.unary main_cst_732 main_v2275 (broadcastInDim S32768x1 ![] bcast_S_S32768x1 : (⟨S_, .f32⟩ : BufTy).Contents (Elt F) → (⟨S32768x1, .f32⟩ : BufTy).Contents (Elt F)),
    StableHlo.binary main_v2275 main_v2274 main_v2276 (mulf : (⟨S32768x1, .f32⟩ : BufTy).Contents (Elt F) → (⟨S32768x1, .f32⟩ : BufTy).Contents (Elt F) → (⟨S32768x1, .f32⟩ : BufTy).Contents (Elt F)),
    StableHlo.nullary main_cst_733 (constant S_ .f32 0x3F800000#32),
    StableHlo.unary main_cst_733 main_v2277 (broadcastInDim S32768x1 ![] bcast_S_S32768x1 : (⟨S_, .f32⟩ : BufTy).Contents (Elt F) → (⟨S32768x1, .f32⟩ : BufTy).Contents (Elt F)),
    StableHlo.binary main_v2277 main_v2276 main_v2278 (subf : (⟨S32768x1, .f32⟩ : BufTy).Contents (Elt F) → (⟨S32768x1, .f32⟩ : BufTy).Contents (Elt F) → (⟨S32768x1, .f32⟩ : BufTy).Contents (Elt F)),
    StableHlo.binary main_v2278 main_v2263 main_v2279 (mulf : (⟨S32768x1, .f32⟩ : BufTy).Contents (Elt F) → (⟨S32768x1, .f32⟩ : BufTy).Contents (Elt F) → (⟨S32768x1, .f32⟩ : BufTy).Contents (Elt F)),
    StableHlo.binary main_v2279 main_v2264 main_v2280 (addf : (⟨S32768x1, .f32⟩ : BufTy).Contents (Elt F) → (⟨S32768x1, .f32⟩ : BufTy).Contents (Elt F) → (⟨S32768x1, .f32⟩ : BufTy).Contents (Elt F)),
    StableHlo.nullary main_cst_734 (constant S_ .f32 0x00000000#32),
    StableHlo.unary main_cst_734 main_v2281 (broadcastInDim S32768x1 ![] bcast_S_S32768x1 : (⟨S_, .f32⟩ : BufTy).Contents (Elt F) → (⟨S32768x1, .f32⟩ : BufTy).Contents (Elt F)),
    StableHlo.binary main_v2274 main_v2281 main_v2282 (cmpf .une : (⟨S32768x1, .f32⟩ : BufTy).Contents (Elt F) → (⟨S32768x1, .f32⟩ : BufTy).Contents (Elt F) → (⟨S32768x1, .i1⟩ : BufTy).Contents (Elt F)),
    StableHlo.unary main_v2282 main_v2283 (uitofp .f32 : (⟨S32768x1, .i1⟩ : BufTy).Contents (Elt F) → (⟨S32768x1, .f32⟩ : BufTy).Contents (Elt F)),
    StableHlo.binary main_v2283 main_v2281 main_v2284 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2274 main_v2281 main_v2285 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2255 main_v2284 main_v2286 (cmpf .une : (⟨S32768x2, .f32⟩ : BufTy).Contents (Elt F) → (⟨S32768x2, .f32⟩ : BufTy).Contents (Elt F) → (⟨S32768x2, .i1⟩ : BufTy).Contents (Elt F)),
    StableHlo.unary main_v2286 main_v2287 (uitofp .f32 : (⟨S32768x2, .i1⟩ : BufTy).Contents (Elt F) → (⟨S32768x2, .f32⟩ : BufTy).Contents (Elt F)),
    StableHlo.binary main_v2287 main_v2284 main_v2288 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v2256 main_v2285 main_v2289 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v2215 main_v2288 main_v2290 (cmpf .une : (⟨S32768x4, .f32⟩ : BufTy).Contents (Elt F) → (⟨S32768x4, .f32⟩ : BufTy).Contents (Elt F) → (⟨S32768x4, .i1⟩ : BufTy).Contents (Elt F)),
    StableHlo.unary main_v2290 main_v2291 (uitofp .f32 : (⟨S32768x4, .i1⟩ : BufTy).Contents (Elt F) → (⟨S32768x4, .f32⟩ : BufTy).Contents (Elt F)),
    StableHlo.binary main_v2291 main_v2288 main_v2292 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v2216 main_v2289 main_v2293 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.nullary main_cst_735 (constant S_ .f32 0x40000000#32),
    StableHlo.unary main_cst_735 main_v2294 (broadcastInDim S32768x8 ![] bcast_S_S32768x8 : (⟨S_, .f32⟩ : BufTy).Contents (Elt F) → (⟨S32768x8, .f32⟩ : BufTy).Contents (Elt F)),
    StableHlo.binary main_v2294 main_v2292 main_v2295 (mulf : (⟨S32768x8, .f32⟩ : BufTy).Contents (Elt F) → (⟨S32768x8, .f32⟩ : BufTy).Contents (Elt F) → (⟨S32768x8, .f32⟩ : BufTy).Contents (Elt F)),
    StableHlo.nullary main_cst_736 (constant S_ .f32 0x3F800000#32),
    StableHlo.unary main_cst_736 main_v2296 (broadcastInDim S32768x8 ![] bcast_S_S32768x8 : (⟨S_, .f32⟩ : BufTy).Contents (Elt F) → (⟨S32768x8, .f32⟩ : BufTy).Contents (Elt F)),
    StableHlo.binary main_v2296 main_v2295 main_v2297 (subf : (⟨S32768x8, .f32⟩ : BufTy).Contents (Elt F) → (⟨S32768x8, .f32⟩ : BufTy).Contents (Elt F) → (⟨S32768x8, .f32⟩ : BufTy).Contents (Elt F)),
    StableHlo.binary main_v2297 main_v2128 main_v2298 (mulf : (⟨S32768x8, .f32⟩ : BufTy).Contents (Elt F) → (⟨S32768x8, .f32⟩ : BufTy).Contents (Elt F) → (⟨S32768x8, .f32⟩ : BufTy).Contents (Elt F)),
    StableHlo.binary main_v2298 main_v2129 main_v2299 (addf : (⟨S32768x8, .f32⟩ : BufTy).Contents (Elt F) → (⟨S32768x8, .f32⟩ : BufTy).Contents (Elt F) → (⟨S32768x8, .f32⟩ : BufTy).Contents (Elt F)),
    StableHlo.unary main_v2299 main_v2300 ((extractStridedSlice S32768x4 ![0, 0] · slices_S32768x8_S32768x4_0_0) : (⟨S32768x8, .f32⟩ : BufTy).Contents (Elt F) → (⟨S32768x4, .f32⟩ : BufTy).Contents (Elt F)),
    StableHlo.unary main_v2299 main_v2301 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_737 (constant S_ .f32 0xC1F00000#32),
    StableHlo.nullary main_cst_738 (constant S_ .f32 0x41F00000#32),
    StableHlo.TRef.unary (.of main_cst_737 : StableHlo.TRef sig ⟨S_, .f32⟩) main_call212.v0 id,
    StableHlo.TRef.unary main_call212.v0 main_call212.v1 (broadcastInDim S32768x4 ![] bcast_S_S32768x4),
    StableHlo.TRef.binary main_call212.v1 (.of main_v2300 : StableHlo.TRef sig ⟨S32768x4, .f32⟩) main_call212.v2 maximumf,
    StableHlo.TRef.unary (.of main_cst_738 : StableHlo.TRef sig ⟨S_, .f32⟩) main_call212.v3 id,
    StableHlo.TRef.unary main_call212.v3 main_call212.v4 (broadcastInDim S32768x4 ![] bcast_S_S32768x4),
    StableHlo.TRef.binary main_call212.v4 main_call212.v2 main_call212.v5 minimumf,
    StableHlo.nullary main_cst_739 (constant S_ .f32 0xC1F00000#32),
    StableHlo.nullary main_cst_740 (constant S_ .f32 0x41F00000#32),
    StableHlo.TRef.unary (.of main_cst_739 : StableHlo.TRef sig ⟨S_, .f32⟩) main_call213.v0 id,
    StableHlo.TRef.unary main_call213.v0 main_call213.v1 (broadcastInDim S32768x4 ![] bcast_S_S32768x4),
    StableHlo.TRef.binary main_call213.v1 (.of main_v2301 : StableHlo.TRef sig ⟨S32768x4, .f32⟩) main_call213.v2 maximumf,
    StableHlo.TRef.unary (.of main_cst_740 : StableHlo.TRef sig ⟨S_, .f32⟩) main_call213.v3 id,
    StableHlo.TRef.unary main_call213.v3 main_call213.v4 (broadcastInDim S32768x4 ![] bcast_S_S32768x4),
    StableHlo.TRef.binary main_call213.v4 main_call213.v2 main_call213.v5 minimumf,
    StableHlo.unary main_v2302 main_v2304 (Host.sign : (⟨S32768x4, .f32⟩ : BufTy).Contents (Elt F) → (⟨S32768x4, .f32⟩ : BufTy).Contents (Elt F)),
    StableHlo.unary main_v2303 main_v2305 (Host.sign : (⟨S32768x4, .f32⟩ : BufTy).Contents (Elt F) → (⟨S32768x4, .f32⟩ : BufTy).Contents (Elt F)),
    StableHlo.binary main_v2304 main_v2305 main_v2306 (mulf : (⟨S32768x4, .f32⟩ : BufTy).Contents (Elt F) → (⟨S32768x4, .f32⟩ : BufTy).Contents (Elt F) → (⟨S32768x4, .f32⟩ : BufTy).Contents (Elt F)),
    StableHlo.unary main_v2302 main_v2307 (Host.absf : (⟨S32768x4, .f32⟩ : BufTy).Contents (Elt F) → (⟨S32768x4, .f32⟩ : BufTy).Contents (Elt F)),
    StableHlo.unary main_v2303 main_v2308 (Host.absf : (⟨S32768x4, .f32⟩ : BufTy).Contents (Elt F) → (⟨S32768x4, .f32⟩ : BufTy).Contents (Elt F)),
    StableHlo.binary main_v2307 main_v2308 main_v2309 (minimumf : (⟨S32768x4, .f32⟩ : BufTy).Contents (Elt F) → (⟨S32768x4, .f32⟩ : BufTy).Contents (Elt F) → (⟨S32768x4, .f32⟩ : BufTy).Contents (Elt F)),
    StableHlo.binary main_v2306 main_v2309 main_v2310 (mulf : (⟨S32768x4, .f32⟩ : BufTy).Contents (Elt F) → (⟨S32768x4, .f32⟩ : BufTy).Contents (Elt F) → (⟨S32768x4, .f32⟩ : BufTy).Contents (Elt F)),
    StableHlo.unary main_v2310 main_v2311 ((extractStridedSlice S32768x2 ![0, 0] · slices_S32768x4_S32768x2_0_0) : (⟨S32768x4, .f32⟩ : BufTy).Contents (Elt F) → (⟨S32768x2, .f32⟩ : BufTy).Contents (Elt F)),
    StableHlo.unary main_v2310 main_v2312 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_741 (constant S_ .f32 0xC1F00000#32),
    StableHlo.nullary main_cst_742 (constant S_ .f32 0x41F00000#32),
    StableHlo.TRef.unary (.of main_cst_741 : StableHlo.TRef sig ⟨S_, .f32⟩) main_call214.v0 id,
    StableHlo.TRef.unary main_call214.v0 main_call214.v1 (broadcastInDim S32768x2 ![] bcast_S_S32768x2),
    StableHlo.TRef.binary main_call214.v1 (.of main_v2311 : StableHlo.TRef sig ⟨S32768x2, .f32⟩) main_call214.v2 maximumf,
    StableHlo.TRef.unary (.of main_cst_742 : StableHlo.TRef sig ⟨S_, .f32⟩) main_call214.v3 id,
    StableHlo.TRef.unary main_call214.v3 main_call214.v4 (broadcastInDim S32768x2 ![] bcast_S_S32768x2),
    StableHlo.TRef.binary main_call214.v4 main_call214.v2 main_call214.v5 minimumf,
    StableHlo.nullary main_cst_743 (constant S_ .f32 0xC1F00000#32) ]

set_option maxRecDepth 8192 in
/-- The window is that straight line: each clip function unfolded at its calls, the sequencing reassociated. -/
theorem part_eq_50 (d : Dev nD) : main_part50 (F := F) d = seq ops50 := by
  simp only [main_part50, fn_clip_4.body, fn_clip_5.body, seq, bind_assoc, pure_bind]
  rfl

/-- Every operation of the window touches TensorCore references only. -/
theorem sub_50 : (ops50 : List (HloOp τ sig (Elt F))).Forall fun op => op.bufs ⊆ tcRefs τ sig :=
  ⟨unary_bufs_sub .., unary_bufs_sub .., binary_bufs_sub .., unary_bufs_sub .., unary_bufs_sub .., binary_bufs_sub ..,
    binary_bufs_sub .., nullary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., binary_bufs_sub .., binary_bufs_sub ..,
    unary_bufs_sub .., binary_bufs_sub .., binary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub ..⟩

/-- Every operation of the window determines all it writes. -/
theorem fresh_50 : (ops50 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
/-- The window writes no argument of @main: the argument's buffer holds after it what it held before. -/
theorem keep_50 (V : Valuation τ sig (Elt F)) :
    after ops50 V (main_arg0 : DevRef τ sig) = V (main_arg0 : DevRef τ sig) := by
  simp only [after_cons, after_nil]
  rfl

/-- The operations of @main's statements 3061 … 3120, in order (85 of them): a statement's own operation, or, for a call
    of a clip function, the six operations of its body over that call's buffers. -/
abbrev ops51 : List (HloOp τ sig (Elt F)) :=
  [ StableHlo.nullary main_cst_744 (constant S_ .f32 0x41F00000#32),
    StableHlo.TRef.unary (.of main_cst_743 : StableHlo.TRef sig ⟨S_, .f32⟩) main_call215.v0 id,
    StableHlo.TRef.unary main_call215.v0 main_call215.v1 (broadcastInDim S32768x2 ![] bcast_S_S32768x2),
    StableHlo.TRef.binary main_call215.v1 (.of main_v2312 : StableHlo.TRef sig ⟨S32768x2, .f32⟩) main_call215.v2 maximumf,
    StableHlo.TRef.unary (.of main_cst_744 : StableHlo.TRef sig ⟨S_, .f32⟩) main_call215.v3 id,
    StableHlo.TRef.unary main_call215.v3 main_call215.v4 (broadcastInDim S32768x2 ![] bcast_S_S32768x2),
    StableHlo.TRef.binary main_call215.v4 main_call215.v2 main_call215.v5 minimumf,
    StableHlo.unary main_v2313 main_v2315 (Host.sign : (⟨S32768x2, .f32⟩ : BufTy).Contents (Elt F) → (⟨S32768x2, .f32⟩ : BufTy).Contents (Elt F)),
    StableHlo.unary main_v2314 main_v2316 (Host.sign : (⟨S32768x2, .f32⟩ : BufTy).Contents (Elt F) → (⟨S32768x2, .f32⟩ : BufTy).Contents (Elt F)),
    StableHlo.binary main_v2315 main_v2316 main_v2317 (mulf : (⟨S32768x2, .f32⟩ : BufTy).Contents (Elt F) → (⟨S32768x2, .f32⟩ : BufTy).Contents (Elt F) → (⟨S32768x2, .f32⟩ : BufTy).Contents (Elt F)),
    StableHlo.unary main_v2313 main_v2318 (Host.absf : (⟨S32768x2, .f32⟩ : BufTy).Contents (Elt F) → (⟨S32768x2, .f32⟩ : BufTy).Contents (Elt F)),
    StableHlo.unary main_v2314 main_v2319 (Host.absf : (⟨S32768x2, .f32⟩ : BufTy).Contents (Elt F) → (⟨S32768x2, .f32⟩ : BufTy).Contents (Elt F)),
    StableHlo.binary main_v2318 main_v2319 main_v2320 (minimumf : (⟨S32768x2, .f32⟩ : BufTy).Contents (Elt F) → (⟨S32768x2, .f32⟩ : BufTy).Contents (Elt F) → (⟨S32768x2, .f32⟩ : BufTy).Contents (Elt F)),
    StableHlo.binary main_v2317 main_v2320 main_v2321 (mulf : (⟨S32768x2, .f32⟩ : BufTy).Contents (Elt F) → (⟨S32768x2, .f32⟩ : BufTy).Contents (Elt F) → (⟨S32768x2, .f32⟩ : BufTy).Contents (Elt F)),
    StableHlo.unary main_v2321 main_v2322 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2321 main_v2323 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_745 (constant S_ .f32 0xC1F00000#32),
    StableHlo.nullary main_cst_746 (constant S_ .f32 0x41F00000#32),
    StableHlo.TRef.unary (.of main_cst_745 : StableHlo.TRef sig ⟨S_, .f32⟩) main_call216.v0 id,
    StableHlo.TRef.unary main_call216.v0 main_call216.v1 (broadcastInDim S32768x1 ![] bcast_S_S32768x1),
    StableHlo.TRef.binary main_call216.v1 (.of main_v2322 : StableHlo.TRef sig ⟨S32768x1, .f32⟩) main_call216.v2 maximumf,
    StableHlo.TRef.unary (.of main_cst_746 : StableHlo.TRef sig ⟨S_, .f32⟩) main_call216.v3 id,
    StableHlo.TRef.unary main_call216.v3 main_call216.v4 (broadcastInDim S32768x1 ![] bcast_S_S32768x1),
    StableHlo.TRef.binary main_call216.v4 main_call216.v2 main_call216.v5 minimumf,
    StableHlo.nullary main_cst_747 (constant S_ .f32 0xC1F00000#32),
    StableHlo.nullary main_cst_748 (constant S_ .f32 0x41F00000#32),
    StableHlo.TRef.unary (.of main_cst_747 : StableHlo.TRef sig ⟨S_, .f32⟩) main_call217.v0 id,
    StableHlo.TRef.unary main_call217.v0 main_call217.v1 (broadcastInDim S32768x1 ![] bcast_S_S32768x1),
    StableHlo.TRef.binary main_call217.v1 (.of main_v2323 : StableHlo.TRef sig ⟨S32768x1, .f32⟩) main_call217.v2 maximumf,
    StableHlo.TRef.unary (.of main_cst_748 : StableHlo.TRef sig ⟨S_, .f32⟩) main_call217.v3 id,
    StableHlo.TRef.unary main_call217.v3 main_call217.v4 (broadcastInDim S32768x1 ![] bcast_S_S32768x1),
    StableHlo.TRef.binary main_call217.v4 main_call217.v2 main_call217.v5 minimumf,
    StableHlo.unary main_v2324 main_v2326 (Host.sign : (⟨S32768x1, .f32⟩ : BufTy).Contents (Elt F) → (⟨S32768x1, .f32⟩ : BufTy).Contents (Elt F)),
    StableHlo.unary main_v2325 main_v2327 (Host.sign : (⟨S32768x1, .f32⟩ : BufTy).Contents (Elt F) → (⟨S32768x1, .f32⟩ : BufTy).Contents (Elt F)),
    StableHlo.binary main_v2326 main_v2327 main_v2328 (mulf : (⟨S32768x1, .f32⟩ : BufTy).Contents (Elt F) → (⟨S32768x1, .f32⟩ : BufTy).Contents (Elt F) → (⟨S32768x1, .f32⟩ : BufTy).Contents (Elt F)),
    StableHlo.unary main_v2324 main_v2329 (Host.absf : (⟨S32768x1, .f32⟩ : BufTy).Contents (Elt F) → (⟨S32768x1, .f32⟩ : BufTy).Contents (Elt F)),
    StableHlo.unary main_v2325 main_v2330 (Host.absf : (⟨S32768x1, .f32⟩ : BufTy).Contents (Elt F) → (⟨S32768x1, .f32⟩ : BufTy).Contents (Elt F)),
    StableHlo.binary main_v2329 main_v2330 main_v2331 (minimumf : (⟨S32768x1, .f32⟩ : BufTy).Contents (Elt F) → (⟨S32768x1, .f32⟩ : BufTy).Contents (Elt F) → (⟨S32768x1, .f32⟩ : BufTy).Contents (Elt F)),
    StableHlo.binary main_v2328 main_v2331 main_v2332 (mulf : (⟨S32768x1, .f32⟩ : BufTy).Contents (Elt F) → (⟨S32768x1, .f32⟩ : BufTy).Contents (Elt F) → (⟨S32768x1, .f32⟩ : BufTy).Contents (Elt F)),
    StableHlo.nullary main_cst_749 (constant S_ .f32 0x00000000#32),
    StableHlo.unary main_cst_749 main_v2333 (broadcastInDim S32768x1 ![] bcast_S_S32768x1 : (⟨S_, .f32⟩ : BufTy).Contents (Elt F) → (⟨S32768x1, .f32⟩ : BufTy).Contents (Elt F)),
    StableHlo.nullary main_cst_750 (constant S_ .f32 0x40000000#32),
    StableHlo.unary main_cst_750 main_v2334 (broadcastInDim S32768x1 ![] bcast_S_S32768x1 : (⟨S_, .f32⟩ : BufTy).Contents (Elt F) → (⟨S32768x1, .f32⟩ : BufTy).Contents (Elt F)),
    StableHlo.binary main_v2334 main_v2333 main_v2335 (mulf : (⟨S32768x1, .f32⟩ : BufTy).Contents (Elt F) → (⟨S32768x1, .f32⟩ : BufTy).Contents (Elt F) → (⟨S32768x1, .f32⟩ : BufTy).Contents (Elt F)),
    StableHlo.nullary main_cst_751 (constant S_ .f32 0x3F800000#32),
    StableHlo.unary main_cst_751 main_v2336 (broadcastInDim S32768x1 ![] bcast_S_S32768x1 : (⟨S_, .f32⟩ : BufTy).Contents (Elt F) → (⟨S32768x1, .f32⟩ : BufTy).Contents (Elt F)),
    StableHlo.binary main_v2336 main_v2335 main_v2337 (subf : (⟨S32768x1, .f32⟩ : BufTy).Contents (Elt F) → (⟨S32768x1, .f32⟩ : BufTy).Contents (Elt F) → (⟨S32768x1, .f32⟩ : BufTy).Contents (Elt F)),
    StableHlo.binary main_v2337 main_v2322 main_v2338 (mulf : (⟨S32768x1, .f32⟩ : BufTy).Contents (Elt F) → (⟨S32768x1, .f32⟩ : BufTy).Contents (Elt F) → (⟨S32768x1, .f32⟩ : BufTy).Contents (Elt F)),
    StableHlo.binary main_v2338 main_v2323 main_v2339 (addf : (⟨S32768x1, .f32⟩ : BufTy).Contents (Elt F) → (⟨S32768x1, .f32⟩ : BufTy).Contents (Elt F) → (⟨S32768x1, .f32⟩ : BufTy).Contents (Elt F)),
    StableHlo.nullary main_cst_752 (constant S_ .f32 0x00000000#32),
    StableHlo.unary main_cst_752 main_v2340 (broadcastInDim S32768x1 ![] bcast_S_S32768x1 : (⟨S_, .f32⟩ : BufTy).Contents (Elt F) → (⟨S32768x1, .f32⟩ : BufTy).Contents (Elt F)),
    StableHlo.binary main_v2333 main_v2340 main_v2341 (cmpf .une : (⟨S32768x1, .f32⟩ : BufTy).Contents (Elt F) → (⟨S32768x1, .f32⟩ : BufTy).Contents (Elt F) → (⟨S32768x1, .i1⟩ : BufTy).Contents (Elt F)),
    StableHlo.unary main_v2341 main_v2342 (uitofp .f32 : (⟨S32768x1, .i1⟩ : BufTy).Contents (Elt F) → (⟨S32768x1, .f32⟩ : BufTy).Contents (Elt F)),
    StableHlo.binary main_v2342 main_v2340 main_v2343 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2333 main_v2340 main_v2344 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_753 (constant S_ .f32 0x40000000#32),
    StableHlo.unary main_cst_753 main_v2345 (broadcastInDim S32768x2 ![] bcast_S_S32768x2 : (⟨S_, .f32⟩ : BufTy).Contents (Elt F) → (⟨S32768x2, .f32⟩ : BufTy).Contents (Elt F)),
    StableHlo.binary main_v2345 main_v2343 main_v2346 (mulf : (⟨S32768x2, .f32⟩ : BufTy).Contents (Elt F) → (⟨S32768x2, .f32⟩ : BufTy).Contents (Elt F) → (⟨S32768x2, .f32⟩ : BufTy).Contents (Elt F)),
    StableHlo.nullary main_cst_754 (constant S_ .f32 0x3F800000#32),
    StableHlo.unary main_cst_754 main_v2347 (broadcastInDim S32768x2 ![] bcast_S_S32768x2 : (⟨S_, .f32⟩ : BufTy).Contents (Elt F) → (⟨S32768x2, .f32⟩ : BufTy).Contents (Elt F)),
    StableHlo.binary main_v2347 main_v2346 main_v2348 (subf : (⟨S32768x2, .f32⟩ : BufTy).Contents (Elt F) → (⟨S32768x2, .f32⟩ : BufTy).Contents (Elt F) → (⟨S32768x2, .f32⟩ : BufTy).Contents (Elt F)),
    StableHlo.binary main_v2348 main_v2311 main_v2349 (mulf : (⟨S32768x2, .f32⟩ : BufTy).Contents (Elt F) → (⟨S32768x2, .f32⟩ : BufTy).Contents (Elt F) → (⟨S32768x2, .f32⟩ : BufTy).Contents (Elt F)),
    StableHlo.binary main_v2349 main_v2312 main_v2350 (addf : (⟨S32768x2, .f32⟩ : BufTy).Contents (Elt F) → (⟨S32768x2, .f32⟩ : BufTy).Contents (Elt F) → (⟨S32768x2, .f32⟩ : BufTy).Contents (Elt F)),
    StableHlo.unary main_v2350 main_v2351 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2350 main_v2352 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_755 (constant S_ .f32 0xC1F00000#32),
    StableHlo.nullary main_cst_756 (constant S_ .f32 0x41F00000#32),
    StableHlo.TRef.unary (.of main_cst_755 : StableHlo.TRef sig ⟨S_, .f32⟩) main_call218.v0 id,
    StableHlo.TRef.unary main_call218.v0 main_call218.v1 (broadcastInDim S32768x1 ![] bcast_S_S32768x1),
    StableHlo.TRef.binary main_call218.v1 (.of main_v2351 : StableHlo.TRef sig ⟨S32768x1, .f32⟩) main_call218.v2 maximumf,
    StableHlo.TRef.unary (.of main_cst_756 : StableHlo.TRef sig ⟨S_, .f32⟩) main_call218.v3 id,
    StableHlo.TRef.unary main_call218.v3 main_call218.v4 (broadcastInDim S32768x1 ![] bcast_S_S32768x1),
    StableHlo.TRef.binary main_call218.v4 main_call218.v2 main_call218.v5 minimumf,
    StableHlo.nullary main_cst_757 (constant S_ .f32 0xC1F00000#32),
    StableHlo.nullary main_cst_758 (constant S_ .f32 0x41F00000#32),
    StableHlo.TRef.unary (.of main_cst_757 : StableHlo.TRef sig ⟨S_, .f32⟩) main_call219.v0 id,
    StableHlo.TRef.unary main_call219.v0 main_call219.v1 (broadcastInDim S32768x1 ![] bcast_S_S32768x1),
    StableHlo.TRef.binary main_call219.v1 (.of main_v2352 : StableHlo.TRef sig ⟨S32768x1, .f32⟩) main_call219.v2 maximumf,
    StableHlo.TRef.unary (.of main_cst_758 : StableHlo.TRef sig ⟨S_, .f32⟩) main_call219.v3 id,
    StableHlo.TRef.unary main_call219.v3 main_call219.v4 (broadcastInDim S32768x1 ![] bcast_S_S32768x1),
    StableHlo.TRef.binary main_call219.v4 main_call219.v2 main_call219.v5 minimumf,
    StableHlo.unary main_v2353 main_v2355 (Host.sign : (⟨S32768x1, .f32⟩ : BufTy).Contents (Elt F) → (⟨S32768x1, .f32⟩ : BufTy).Contents (Elt F)),
    StableHlo.unary main_v2354 main_v2356 (Host.sign : (⟨S32768x1, .f32⟩ : BufTy).Contents (Elt F) → (⟨S32768x1, .f32⟩ : BufTy).Contents (Elt F)),
    StableHlo.binary main_v2355 main_v2356 main_v2357 (mulf : (⟨S32768x1, .f32⟩ : BufTy).Contents (Elt F) → (⟨S32768x1, .f32⟩ : BufTy).Contents (Elt F) → (⟨S32768x1, .f32⟩ : BufTy).Contents (Elt F)),
    StableHlo.unary main_v2353 main_v2358 (Host.absf : (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_51 (d : Dev nD) : main_part51 (F := F) d = seq ops51 := by
  simp only [main_part51, fn_clip_5.body, fn_clip_6.body, seq, bind_assoc, pure_bind]
  rfl

/-- Every operation of the window touches TensorCore references only. -/
theorem sub_51 : (ops51 : List (HloOp τ sig (Elt F))).Forall fun op => op.bufs ⊆ tcRefs τ sig :=
  ⟨nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub ..⟩

/-- Every operation of the window determines all it writes. -/
theorem fresh_51 : (ops51 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_51 (V : Valuation τ sig (Elt F)) :
    after ops51 V (main_arg0 : DevRef τ sig) = V (main_arg0 : DevRef τ sig) := by
  simp only [after_cons, after_nil]
  rfl

/-- The operations of @main's statements 3121 … 3180, in order (80 of them): a statement's own operation, or, for a call
    of a clip function, the six operations of its body over that call's buffers. -/
abbrev ops52 : List (HloOp τ sig (Elt F)) :=
  [ StableHlo.unary main_v2354 main_v2359 (Host.absf : (⟨S32768x1, .f32⟩ : BufTy).Contents (Elt F) → (⟨S32768x1, .f32⟩ : BufTy).Contents (Elt F)),
    StableHlo.binary main_v2358 main_v2359 main_v2360 (minimumf : (⟨S32768x1, .f32⟩ : BufTy).Contents (Elt F) → (⟨S32768x1, .f32⟩ : BufTy).Contents (Elt F) → (⟨S32768x1, .f32⟩ : BufTy).Contents (Elt F)),
    StableHlo.binary main_v2357 main_v2360 main_v2361 (mulf : (⟨S32768x1, .f32⟩ : BufTy).Contents (Elt F) → (⟨S32768x1, .f32⟩ : BufTy).Contents (Elt F) → (⟨S32768x1, .f32⟩ : BufTy).Contents (Elt F)),
    StableHlo.nullary main_cst_759 (constant S_ .f32 0x00000000#32),
    StableHlo.unary main_cst_759 main_v2362 (broadcastInDim S32768x1 ![] bcast_S_S32768x1 : (⟨S_, .f32⟩ : BufTy).Contents (Elt F) → (⟨S32768x1, .f32⟩ : BufTy).Contents (Elt F)),
    StableHlo.nullary main_cst_760 (constant S_ .f32 0x40000000#32),
    StableHlo.unary main_cst_760 main_v2363 (broadcastInDim S32768x1 ![] bcast_S_S32768x1 : (⟨S_, .f32⟩ : BufTy).Contents (Elt F) → (⟨S32768x1, .f32⟩ : BufTy).Contents (Elt F)),
    StableHlo.binary main_v2363 main_v2362 main_v2364 (mulf : (⟨S32768x1, .f32⟩ : BufTy).Contents (Elt F) → (⟨S32768x1, .f32⟩ : BufTy).Contents (Elt F) → (⟨S32768x1, .f32⟩ : BufTy).Contents (Elt F)),
    StableHlo.nullary main_cst_761 (constant S_ .f32 0x3F800000#32),
    StableHlo.unary main_cst_761 main_v2365 (broadcastInDim S32768x1 ![] bcast_S_S32768x1 : (⟨S_, .f32⟩ : BufTy).Contents (Elt F) → (⟨S32768x1, .f32⟩ : BufTy).Contents (Elt F)),
    StableHlo.binary main_v2365 main_v2364 main_v2366 (subf : (⟨S32768x1, .f32⟩ : BufTy).Contents (Elt F) → (⟨S32768x1, .f32⟩ : BufTy).Contents (Elt F) → (⟨S32768x1, .f32⟩ : BufTy).Contents (Elt F)),
    StableHlo.binary main_v2366 main_v2351 main_v2367 (mulf : (⟨S32768x1, .f32⟩ : BufTy).Contents (Elt F) → (⟨S32768x1, .f32⟩ : BufTy).Contents (Elt F) → (⟨S32768x1, .f32⟩ : BufTy).Contents (Elt F)),
    StableHlo.binary main_v2367 main_v2352 main_v2368 (addf : (⟨S32768x1, .f32⟩ : BufTy).Contents (Elt F) → (⟨S32768x1, .f32⟩ : BufTy).Contents (Elt F) → (⟨S32768x1, .f32⟩ : BufTy).Contents (Elt F)),
    StableHlo.nullary main_cst_762 (constant S_ .f32 0x00000000#32),
    StableHlo.unary main_cst_762 main_v2369 (broadcastInDim S32768x1 ![] bcast_S_S32768x1 : (⟨S_, .f32⟩ : BufTy).Contents (Elt F) → (⟨S32768x1, .f32⟩ : BufTy).Contents (Elt F)),
    StableHlo.binary main_v2362 main_v2369 main_v2370 (cmpf .une : (⟨S32768x1, .f32⟩ : BufTy).Contents (Elt F) → (⟨S32768x1, .f32⟩ : BufTy).Contents (Elt F) → (⟨S32768x1, .i1⟩ : BufTy).Contents (Elt F)),
    StableHlo.unary main_v2370 main_v2371 (uitofp .f32 : (⟨S32768x1, .i1⟩ : BufTy).Contents (Elt F) → (⟨S32768x1, .f32⟩ : BufTy).Contents (Elt F)),
    StableHlo.binary main_v2371 main_v2369 main_v2372 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2362 main_v2369 main_v2373 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2343 main_v2372 main_v2374 (cmpf .une : (⟨S32768x2, .f32⟩ : BufTy).Contents (Elt F) → (⟨S32768x2, .f32⟩ : BufTy).Contents (Elt F) → (⟨S32768x2, .i1⟩ : BufTy).Contents (Elt F)),
    StableHlo.unary main_v2374 main_v2375 (uitofp .f32 : (⟨S32768x2, .i1⟩ : BufTy).Contents (Elt F) → (⟨S32768x2, .f32⟩ : BufTy).Contents (Elt F)),
    StableHlo.binary main_v2375 main_v2372 main_v2376 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v2344 main_v2373 main_v2377 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_763 (constant S_ .f32 0x40000000#32),
    StableHlo.unary main_cst_763 main_v2378 (broadcastInDim S32768x4 ![] bcast_S_S32768x4 : (⟨S_, .f32⟩ : BufTy).Contents (Elt F) → (⟨S32768x4, .f32⟩ : BufTy).Contents (Elt F)),
    StableHlo.binary main_v2378 main_v2376 main_v2379 (mulf : (⟨S32768x4, .f32⟩ : BufTy).Contents (Elt F) → (⟨S32768x4, .f32⟩ : BufTy).Contents (Elt F) → (⟨S32768x4, .f32⟩ : BufTy).Contents (Elt F)),
    StableHlo.nullary main_cst_764 (constant S_ .f32 0x3F800000#32),
    StableHlo.unary main_cst_764 main_v2380 (broadcastInDim S32768x4 ![] bcast_S_S32768x4 : (⟨S_, .f32⟩ : BufTy).Contents (Elt F) → (⟨S32768x4, .f32⟩ : BufTy).Contents (Elt F)),
    StableHlo.binary main_v2380 main_v2379 main_v2381 (subf : (⟨S32768x4, .f32⟩ : BufTy).Contents (Elt F) → (⟨S32768x4, .f32⟩ : BufTy).Contents (Elt F) → (⟨S32768x4, .f32⟩ : BufTy).Contents (Elt F)),
    StableHlo.binary main_v2381 main_v2300 main_v2382 (mulf : (⟨S32768x4, .f32⟩ : BufTy).Contents (Elt F) → (⟨S32768x4, .f32⟩ : BufTy).Contents (Elt F) → (⟨S32768x4, .f32⟩ : BufTy).Contents (Elt F)),
    StableHlo.binary main_v2382 main_v2301 main_v2383 (addf : (⟨S32768x4, .f32⟩ : BufTy).Contents (Elt F) → (⟨S32768x4, .f32⟩ : BufTy).Contents (Elt F) → (⟨S32768x4, .f32⟩ : BufTy).Contents (Elt F)),
    StableHlo.unary main_v2383 main_v2384 ((extractStridedSlice S32768x2 ![0, 0] · slices_S32768x4_S32768x2_0_0) : (⟨S32768x4, .f32⟩ : BufTy).Contents (Elt F) → (⟨S32768x2, .f32⟩ : BufTy).Contents (Elt F)),
    StableHlo.unary main_v2383 main_v2385 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_765 (constant S_ .f32 0xC1F00000#32),
    StableHlo.nullary main_cst_766 (constant S_ .f32 0x41F00000#32),
    StableHlo.TRef.unary (.of main_cst_765 : StableHlo.TRef sig ⟨S_, .f32⟩) main_call220.v0 id,
    StableHlo.TRef.unary main_call220.v0 main_call220.v1 (broadcastInDim S32768x2 ![] bcast_S_S32768x2),
    StableHlo.TRef.binary main_call220.v1 (.of main_v2384 : StableHlo.TRef sig ⟨S32768x2, .f32⟩) main_call220.v2 maximumf,
    StableHlo.TRef.unary (.of main_cst_766 : StableHlo.TRef sig ⟨S_, .f32⟩) main_call220.v3 id,
    StableHlo.TRef.unary main_call220.v3 main_call220.v4 (broadcastInDim S32768x2 ![] bcast_S_S32768x2),
    StableHlo.TRef.binary main_call220.v4 main_call220.v2 main_call220.v5 minimumf,
    StableHlo.nullary main_cst_767 (constant S_ .f32 0xC1F00000#32),
    StableHlo.nullary main_cst_768 (constant S_ .f32 0x41F00000#32),
    StableHlo.TRef.unary (.of main_cst_767 : StableHlo.TRef sig ⟨S_, .f32⟩) main_call221.v0 id,
    StableHlo.TRef.unary main_call221.v0 main_call221.v1 (broadcastInDim S32768x2 ![] bcast_S_S32768x2),
    StableHlo.TRef.binary main_call221.v1 (.of main_v2385 : StableHlo.TRef sig ⟨S32768x2, .f32⟩) main_call221.v2 maximumf,
    StableHlo.TRef.unary (.of main_cst_768 : StableHlo.TRef sig ⟨S_, .f32⟩) main_call221.v3 id,
    StableHlo.TRef.unary main_call221.v3 main_call221.v4 (broadcastInDim S32768x2 ![] bcast_S_S32768x2),
    StableHlo.TRef.binary main_call221.v4 main_call221.v2 main_call221.v5 minimumf,
    StableHlo.unary main_v2386 main_v2388 (Host.sign : (⟨S32768x2, .f32⟩ : BufTy).Contents (Elt F) → (⟨S32768x2, .f32⟩ : BufTy).Contents (Elt F)),
    StableHlo.unary main_v2387 main_v2389 (Host.sign : (⟨S32768x2, .f32⟩ : BufTy).Contents (Elt F) → (⟨S32768x2, .f32⟩ : BufTy).Contents (Elt F)),
    StableHlo.binary main_v2388 main_v2389 main_v2390 (mulf : (⟨S32768x2, .f32⟩ : BufTy).Contents (Elt F) → (⟨S32768x2, .f32⟩ : BufTy).Contents (Elt F) → (⟨S32768x2, .f32⟩ : BufTy).Contents (Elt F)),
    StableHlo.unary main_v2386 main_v2391 (Host.absf : (⟨S32768x2, .f32⟩ : BufTy).Contents (Elt F) → (⟨S32768x2, .f32⟩ : BufTy).Contents (Elt F)),
    StableHlo.unary main_v2387 main_v2392 (Host.absf : (⟨S32768x2, .f32⟩ : BufTy).Contents (Elt F) → (⟨S32768x2, .f32⟩ : BufTy).Contents (Elt F)),
    StableHlo.binary main_v2391 main_v2392 main_v2393 (minimumf : (⟨S32768x2, .f32⟩ : BufTy).Contents (Elt F) → (⟨S32768x2, .f32⟩ : BufTy).Contents (Elt F) → (⟨S32768x2, .f32⟩ : BufTy).Contents (Elt F)),
    StableHlo.binary main_v2390 main_v2393 main_v2394 (mulf : (⟨S32768x2, .f32⟩ : BufTy).Contents (Elt F) → (⟨S32768x2, .f32⟩ : BufTy).Contents (Elt F) → (⟨S32768x2, .f32⟩ : BufTy).Contents (Elt F)),
    StableHlo.unary main_v2394 main_v2395 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2394 main_v2396 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_769 (constant S_ .f32 0xC1F00000#32),
    StableHlo.nullary main_cst_770 (constant S_ .f32 0x41F00000#32),
    StableHlo.TRef.unary (.of main_cst_769 : StableHlo.TRef sig ⟨S_, .f32⟩) main_call222.v0 id,
    StableHlo.TRef.unary main_call222.v0 main_call222.v1 (broadcastInDim S32768x1 ![] bcast_S_S32768x1),
    StableHlo.TRef.binary main_call222.v1 (.of main_v2395 : StableHlo.TRef sig ⟨S32768x1, .f32⟩) main_call222.v2 maximumf,
    StableHlo.TRef.unary (.of main_cst_770 : StableHlo.TRef sig ⟨S_, .f32⟩) main_call222.v3 id,
    StableHlo.TRef.unary main_call222.v3 main_call222.v4 (broadcastInDim S32768x1 ![] bcast_S_S32768x1),
    StableHlo.TRef.binary main_call222.v4 main_call222.v2 main_call222.v5 minimumf,
    StableHlo.nullary main_cst_771 (constant S_ .f32 0xC1F00000#32),
    StableHlo.nullary main_cst_772 (constant S_ .f32 0x41F00000#32),
    StableHlo.TRef.unary (.of main_cst_771 : StableHlo.TRef sig ⟨S_, .f32⟩) main_call223.v0 id,
    StableHlo.TRef.unary main_call223.v0 main_call223.v1 (broadcastInDim S32768x1 ![] bcast_S_S32768x1),
    StableHlo.TRef.binary main_call223.v1 (.of main_v2396 : StableHlo.TRef sig ⟨S32768x1, .f32⟩) main_call223.v2 maximumf,
    StableHlo.TRef.unary (.of main_cst_772 : StableHlo.TRef sig ⟨S_, .f32⟩) main_call223.v3 id,
    StableHlo.TRef.unary main_call223.v3 main_call223.v4 (broadcastInDim S32768x1 ![] bcast_S_S32768x1),
    StableHlo.TRef.binary main_call223.v4 main_call223.v2 main_call223.v5 minimumf,
    StableHlo.unary main_v2397 main_v2399 (Host.sign : (⟨S32768x1, .f32⟩ : BufTy).Contents (Elt F) → (⟨S32768x1, .f32⟩ : BufTy).Contents (Elt F)),
    StableHlo.unary main_v2398 main_v2400 (Host.sign : (⟨S32768x1, .f32⟩ : BufTy).Contents (Elt F) → (⟨S32768x1, .f32⟩ : BufTy).Contents (Elt F)),
    StableHlo.binary main_v2399 main_v2400 main_v2401 (mulf : (⟨S32768x1, .f32⟩ : BufTy).Contents (Elt F) → (⟨S32768x1, .f32⟩ : BufTy).Contents (Elt F) → (⟨S32768x1, .f32⟩ : BufTy).Contents (Elt F)),
    StableHlo.unary main_v2397 main_v2402 (Host.absf : (⟨S32768x1, .f32⟩ : BufTy).Contents (Elt F) → (⟨S32768x1, .f32⟩ : BufTy).Contents (Elt F)),
    StableHlo.unary main_v2398 main_v2403 (Host.absf : (⟨S32768x1, .f32⟩ : BufTy).Contents (Elt F) → (⟨S32768x1, .f32⟩ : BufTy).Contents (Elt F)),
    StableHlo.binary main_v2402 main_v2403 main_v2404 (minimumf : (⟨S32768x1, .f32⟩ : BufTy).Contents (Elt F) → (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_52 (d : Dev nD) : main_part52 (F := F) d = seq ops52 := by
  simp only [main_part52, fn_clip_5.body, fn_clip_6.body, seq, bind_assoc, pure_bind]
  rfl

/-- Every operation of the window touches TensorCore references only. -/
theorem sub_52 : (ops52 : List (HloOp τ sig (Elt F))).Forall fun op => op.bufs ⊆ tcRefs τ sig :=
  ⟨unary_bufs_sub .., binary_bufs_sub .., binary_bufs_sub .., nullary_bufs_sub .., unary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    binary_bufs_sub .., binary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-- Every operation of the window determines all it writes. -/
theorem fresh_52 : (ops52 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_52 (V : Valuation τ sig (Elt F)) :
    after ops52 V (main_arg0 : DevRef τ sig) = V (main_arg0 : DevRef τ sig) := by
  simp only [after_cons, after_nil]
  rfl

/-- The operations of @main's statements 3181 … 3240, in order (70 of them): a statement's own operation, or, for a call
    of a clip function, the six operations of its body over that call's buffers. -/
abbrev ops53 : List (HloOp τ sig (Elt F)) :=
  [ StableHlo.binary main_v2401 main_v2404 main_v2405 (mulf : (⟨S32768x1, .f32⟩ : BufTy).Contents (Elt F) → (⟨S32768x1, .f32⟩ : BufTy).Contents (Elt F) → (⟨S32768x1, .f32⟩ : BufTy).Contents (Elt F)),
    StableHlo.nullary main_cst_773 (constant S_ .f32 0x00000000#32),
    StableHlo.unary main_cst_773 main_v2406 (broadcastInDim S32768x1 ![] bcast_S_S32768x1 : (⟨S_, .f32⟩ : BufTy).Contents (Elt F) → (⟨S32768x1, .f32⟩ : BufTy).Contents (Elt F)),
    StableHlo.nullary main_cst_774 (constant S_ .f32 0x40000000#32),
    StableHlo.unary main_cst_774 main_v2407 (broadcastInDim S32768x1 ![] bcast_S_S32768x1 : (⟨S_, .f32⟩ : BufTy).Contents (Elt F) → (⟨S32768x1, .f32⟩ : BufTy).Contents (Elt F)),
    StableHlo.binary main_v2407 main_v2406 main_v2408 (mulf : (⟨S32768x1, .f32⟩ : BufTy).Contents (Elt F) → (⟨S32768x1, .f32⟩ : BufTy).Contents (Elt F) → (⟨S32768x1, .f32⟩ : BufTy).Contents (Elt F)),
    StableHlo.nullary main_cst_775 (constant S_ .f32 0x3F800000#32),
    StableHlo.unary main_cst_775 main_v2409 (broadcastInDim S32768x1 ![] bcast_S_S32768x1 : (⟨S_, .f32⟩ : BufTy).Contents (Elt F) → (⟨S32768x1, .f32⟩ : BufTy).Contents (Elt F)),
    StableHlo.binary main_v2409 main_v2408 main_v2410 (subf : (⟨S32768x1, .f32⟩ : BufTy).Contents (Elt F) → (⟨S32768x1, .f32⟩ : BufTy).Contents (Elt F) → (⟨S32768x1, .f32⟩ : BufTy).Contents (Elt F)),
    StableHlo.binary main_v2410 main_v2395 main_v2411 (mulf : (⟨S32768x1, .f32⟩ : BufTy).Contents (Elt F) → (⟨S32768x1, .f32⟩ : BufTy).Contents (Elt F) → (⟨S32768x1, .f32⟩ : BufTy).Contents (Elt F)),
    StableHlo.binary main_v2411 main_v2396 main_v2412 (addf : (⟨S32768x1, .f32⟩ : BufTy).Contents (Elt F) → (⟨S32768x1, .f32⟩ : BufTy).Contents (Elt F) → (⟨S32768x1, .f32⟩ : BufTy).Contents (Elt F)),
    StableHlo.nullary main_cst_776 (constant S_ .f32 0x00000000#32),
    StableHlo.unary main_cst_776 main_v2413 (broadcastInDim S32768x1 ![] bcast_S_S32768x1 : (⟨S_, .f32⟩ : BufTy).Contents (Elt F) → (⟨S32768x1, .f32⟩ : BufTy).Contents (Elt F)),
    StableHlo.binary main_v2406 main_v2413 main_v2414 (cmpf .une : (⟨S32768x1, .f32⟩ : BufTy).Contents (Elt F) → (⟨S32768x1, .f32⟩ : BufTy).Contents (Elt F) → (⟨S32768x1, .i1⟩ : BufTy).Contents (Elt F)),
    StableHlo.unary main_v2414 main_v2415 (uitofp .f32 : (⟨S32768x1, .i1⟩ : BufTy).Contents (Elt F) → (⟨S32768x1, .f32⟩ : BufTy).Contents (Elt F)),
    StableHlo.binary main_v2415 main_v2413 main_v2416 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2406 main_v2413 main_v2417 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_777 (constant S_ .f32 0x40000000#32),
    StableHlo.unary main_cst_777 main_v2418 (broadcastInDim S32768x2 ![] bcast_S_S32768x2 : (⟨S_, .f32⟩ : BufTy).Contents (Elt F) → (⟨S32768x2, .f32⟩ : BufTy).Contents (Elt F)),
    StableHlo.binary main_v2418 main_v2416 main_v2419 (mulf : (⟨S32768x2, .f32⟩ : BufTy).Contents (Elt F) → (⟨S32768x2, .f32⟩ : BufTy).Contents (Elt F) → (⟨S32768x2, .f32⟩ : BufTy).Contents (Elt F)),
    StableHlo.nullary main_cst_778 (constant S_ .f32 0x3F800000#32),
    StableHlo.unary main_cst_778 main_v2420 (broadcastInDim S32768x2 ![] bcast_S_S32768x2 : (⟨S_, .f32⟩ : BufTy).Contents (Elt F) → (⟨S32768x2, .f32⟩ : BufTy).Contents (Elt F)),
    StableHlo.binary main_v2420 main_v2419 main_v2421 (subf : (⟨S32768x2, .f32⟩ : BufTy).Contents (Elt F) → (⟨S32768x2, .f32⟩ : BufTy).Contents (Elt F) → (⟨S32768x2, .f32⟩ : BufTy).Contents (Elt F)),
    StableHlo.binary main_v2421 main_v2384 main_v2422 (mulf : (⟨S32768x2, .f32⟩ : BufTy).Contents (Elt F) → (⟨S32768x2, .f32⟩ : BufTy).Contents (Elt F) → (⟨S32768x2, .f32⟩ : BufTy).Contents (Elt F)),
    StableHlo.binary main_v2422 main_v2385 main_v2423 (addf : (⟨S32768x2, .f32⟩ : BufTy).Contents (Elt F) → (⟨S32768x2, .f32⟩ : BufTy).Contents (Elt F) → (⟨S32768x2, .f32⟩ : BufTy).Contents (Elt F)),
    StableHlo.unary main_v2423 main_v2424 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2423 main_v2425 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_779 (constant S_ .f32 0xC1F00000#32),
    StableHlo.nullary main_cst_780 (constant S_ .f32 0x41F00000#32),
    StableHlo.TRef.unary (.of main_cst_779 : StableHlo.TRef sig ⟨S_, .f32⟩) main_call224.v0 id,
    StableHlo.TRef.unary main_call224.v0 main_call224.v1 (broadcastInDim S32768x1 ![] bcast_S_S32768x1),
    StableHlo.TRef.binary main_call224.v1 (.of main_v2424 : StableHlo.TRef sig ⟨S32768x1, .f32⟩) main_call224.v2 maximumf,
    StableHlo.TRef.unary (.of main_cst_780 : StableHlo.TRef sig ⟨S_, .f32⟩) main_call224.v3 id,
    StableHlo.TRef.unary main_call224.v3 main_call224.v4 (broadcastInDim S32768x1 ![] bcast_S_S32768x1),
    StableHlo.TRef.binary main_call224.v4 main_call224.v2 main_call224.v5 minimumf,
    StableHlo.nullary main_cst_781 (constant S_ .f32 0xC1F00000#32),
    StableHlo.nullary main_cst_782 (constant S_ .f32 0x41F00000#32),
    StableHlo.TRef.unary (.of main_cst_781 : StableHlo.TRef sig ⟨S_, .f32⟩) main_call225.v0 id,
    StableHlo.TRef.unary main_call225.v0 main_call225.v1 (broadcastInDim S32768x1 ![] bcast_S_S32768x1),
    StableHlo.TRef.binary main_call225.v1 (.of main_v2425 : StableHlo.TRef sig ⟨S32768x1, .f32⟩) main_call225.v2 maximumf,
    StableHlo.TRef.unary (.of main_cst_782 : StableHlo.TRef sig ⟨S_, .f32⟩) main_call225.v3 id,
    StableHlo.TRef.unary main_call225.v3 main_call225.v4 (broadcastInDim S32768x1 ![] bcast_S_S32768x1),
    StableHlo.TRef.binary main_call225.v4 main_call225.v2 main_call225.v5 minimumf,
    StableHlo.unary main_v2426 main_v2428 (Host.sign : (⟨S32768x1, .f32⟩ : BufTy).Contents (Elt F) → (⟨S32768x1, .f32⟩ : BufTy).Contents (Elt F)),
    StableHlo.unary main_v2427 main_v2429 (Host.sign : (⟨S32768x1, .f32⟩ : BufTy).Contents (Elt F) → (⟨S32768x1, .f32⟩ : BufTy).Contents (Elt F)),
    StableHlo.binary main_v2428 main_v2429 main_v2430 (mulf : (⟨S32768x1, .f32⟩ : BufTy).Contents (Elt F) → (⟨S32768x1, .f32⟩ : BufTy).Contents (Elt F) → (⟨S32768x1, .f32⟩ : BufTy).Contents (Elt F)),
    StableHlo.unary main_v2426 main_v2431 (Host.absf : (⟨S32768x1, .f32⟩ : BufTy).Contents (Elt F) → (⟨S32768x1, .f32⟩ : BufTy).Contents (Elt F)),
    StableHlo.unary main_v2427 main_v2432 (Host.absf : (⟨S32768x1, .f32⟩ : BufTy).Contents (Elt F) → (⟨S32768x1, .f32⟩ : BufTy).Contents (Elt F)),
    StableHlo.binary main_v2431 main_v2432 main_v2433 (minimumf : (⟨S32768x1, .f32⟩ : BufTy).Contents (Elt F) → (⟨S32768x1, .f32⟩ : BufTy).Contents (Elt F) → (⟨S32768x1, .f32⟩ : BufTy).Contents (Elt F)),
    StableHlo.binary main_v2430 main_v2433 main_v2434 (mulf : (⟨S32768x1, .f32⟩ : BufTy).Contents (Elt F) → (⟨S32768x1, .f32⟩ : BufTy).Contents (Elt F) → (⟨S32768x1, .f32⟩ : BufTy).Contents (Elt F)),
    StableHlo.nullary main_cst_783 (constant S_ .f32 0x00000000#32),
    StableHlo.unary main_cst_783 main_v2435 (broadcastInDim S32768x1 ![] bcast_S_S32768x1 : (⟨S_, .f32⟩ : BufTy).Contents (Elt F) → (⟨S32768x1, .f32⟩ : BufTy).Contents (Elt F)),
    StableHlo.nullary main_cst_784 (constant S_ .f32 0x40000000#32),
    StableHlo.unary main_cst_784 main_v2436 (broadcastInDim S32768x1 ![] bcast_S_S32768x1 : (⟨S_, .f32⟩ : BufTy).Contents (Elt F) → (⟨S32768x1, .f32⟩ : BufTy).Contents (Elt F)),
    StableHlo.binary main_v2436 main_v2435 main_v2437 (mulf : (⟨S32768x1, .f32⟩ : BufTy).Contents (Elt F) → (⟨S32768x1, .f32⟩ : BufTy).Contents (Elt F) → (⟨S32768x1, .f32⟩ : BufTy).Contents (Elt F)),
    StableHlo.nullary main_cst_785 (constant S_ .f32 0x3F800000#32),
    StableHlo.unary main_cst_785 main_v2438 (broadcastInDim S32768x1 ![] bcast_S_S32768x1 : (⟨S_, .f32⟩ : BufTy).Contents (Elt F) → (⟨S32768x1, .f32⟩ : BufTy).Contents (Elt F)),
    StableHlo.binary main_v2438 main_v2437 main_v2439 (subf : (⟨S32768x1, .f32⟩ : BufTy).Contents (Elt F) → (⟨S32768x1, .f32⟩ : BufTy).Contents (Elt F) → (⟨S32768x1, .f32⟩ : BufTy).Contents (Elt F)),
    StableHlo.binary main_v2439 main_v2424 main_v2440 (mulf : (⟨S32768x1, .f32⟩ : BufTy).Contents (Elt F) → (⟨S32768x1, .f32⟩ : BufTy).Contents (Elt F) → (⟨S32768x1, .f32⟩ : BufTy).Contents (Elt F)),
    StableHlo.binary main_v2440 main_v2425 main_v2441 (addf : (⟨S32768x1, .f32⟩ : BufTy).Contents (Elt F) → (⟨S32768x1, .f32⟩ : BufTy).Contents (Elt F) → (⟨S32768x1, .f32⟩ : BufTy).Contents (Elt F)),
    StableHlo.nullary main_cst_786 (constant S_ .f32 0x00000000#32),
    StableHlo.unary main_cst_786 main_v2442 (broadcastInDim S32768x1 ![] bcast_S_S32768x1 : (⟨S_, .f32⟩ : BufTy).Contents (Elt F) → (⟨S32768x1, .f32⟩ : BufTy).Contents (Elt F)),
    StableHlo.binary main_v2435 main_v2442 main_v2443 (cmpf .une : (⟨S32768x1, .f32⟩ : BufTy).Contents (Elt F) → (⟨S32768x1, .f32⟩ : BufTy).Contents (Elt F) → (⟨S32768x1, .i1⟩ : BufTy).Contents (Elt F)),
    StableHlo.unary main_v2443 main_v2444 (uitofp .f32 : (⟨S32768x1, .i1⟩ : BufTy).Contents (Elt F) → (⟨S32768x1, .f32⟩ : BufTy).Contents (Elt F)),
    StableHlo.binary main_v2444 main_v2442 main_v2445 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2435 main_v2442 main_v2446 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2416 main_v2445 main_v2447 (cmpf .une : (⟨S32768x2, .f32⟩ : BufTy).Contents (Elt F) → (⟨S32768x2, .f32⟩ : BufTy).Contents (Elt F) → (⟨S32768x2, .i1⟩ : BufTy).Contents (Elt F)),
    StableHlo.unary main_v2447 main_v2448 (uitofp .f32 : (⟨S32768x2, .i1⟩ : BufTy).Contents (Elt F) → (⟨S32768x2, .f32⟩ : BufTy).Contents (Elt F)),
    StableHlo.binary main_v2448 main_v2445 main_v2449 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v2417 main_v2446 main_v2450 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)) ]

set_option maxRecDepth 8192 in
/-- The window is that straight line: each clip function unfolded at its calls, the sequencing reassociated. -/
theorem part_eq_53 (d : Dev nD) : main_part53 (F := F) d = seq ops53 := by
  simp only [main_part53, fn_clip_6.body, seq, bind_assoc, pure_bind]
  rfl

/-- Every operation of the window touches TensorCore references only. -/
theorem sub_53 : (ops53 : List (HloOp τ sig (Elt F))).Forall fun op => op.bufs ⊆ tcRefs τ sig :=
  ⟨binary_bufs_sub .., nullary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., nullary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., unary_bufs_sub .., binary_bufs_sub .., binary_bufs_sub ..,
    binary_bufs_sub .., unary_bufs_sub .., binary_bufs_sub .., binary_bufs_sub ..⟩

/-- Every operation of the window determines all it writes. -/
theorem fresh_53 : (ops53 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_53 (V : Valuation τ sig (Elt F)) :
    after ops53 V (main_arg0 : DevRef τ sig) = V (main_arg0 : DevRef τ sig) := by
  simp only [after_cons, after_nil]
  rfl

/-- The operations of @main's statements 3241 … 3300, in order (90 of them): a statement's own operation, or, for a call
    of a clip function, the six operations of its body over that call's buffers. -/
abbrev ops54 : List (HloOp τ sig (Elt F)) :=
  [ StableHlo.binary main_v2376 main_v2449 main_v2451 (cmpf .une : (⟨S32768x4, .f32⟩ : BufTy).Contents (Elt F) → (⟨S32768x4, .f32⟩ : BufTy).Contents (Elt F) → (⟨S32768x4, .i1⟩ : BufTy).Contents (Elt F)),
    StableHlo.unary main_v2451 main_v2452 (uitofp .f32 : (⟨S32768x4, .i1⟩ : BufTy).Contents (Elt F) → (⟨S32768x4, .f32⟩ : BufTy).Contents (Elt F)),
    StableHlo.binary main_v2452 main_v2449 main_v2453 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v2377 main_v2450 main_v2454 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v2292 main_v2453 main_v2455 (cmpf .une : (⟨S32768x8, .f32⟩ : BufTy).Contents (Elt F) → (⟨S32768x8, .f32⟩ : BufTy).Contents (Elt F) → (⟨S32768x8, .i1⟩ : BufTy).Contents (Elt F)),
    StableHlo.unary main_v2455 main_v2456 (uitofp .f32 : (⟨S32768x8, .i1⟩ : BufTy).Contents (Elt F) → (⟨S32768x8, .f32⟩ : BufTy).Contents (Elt F)),
    StableHlo.binary main_v2456 main_v2453 main_v2457 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v2293 main_v2454 main_v2458 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.nullary main_cst_787 (constant S_ .f32 0x40000000#32),
    StableHlo.unary main_cst_787 main_v2459 (broadcastInDim S32768x16 ![] bcast_S_S32768x16 : (⟨S_, .f32⟩ : BufTy).Contents (Elt F) → (⟨S32768x16, .f32⟩ : BufTy).Contents (Elt F)),
    StableHlo.binary main_v2459 main_v2457 main_v2460 (mulf : (⟨S32768x16, .f32⟩ : BufTy).Contents (Elt F) → (⟨S32768x16, .f32⟩ : BufTy).Contents (Elt F) → (⟨S32768x16, .f32⟩ : BufTy).Contents (Elt F)),
    StableHlo.nullary main_cst_788 (constant S_ .f32 0x3F800000#32),
    StableHlo.unary main_cst_788 main_v2461 (broadcastInDim S32768x16 ![] bcast_S_S32768x16 : (⟨S_, .f32⟩ : BufTy).Contents (Elt F) → (⟨S32768x16, .f32⟩ : BufTy).Contents (Elt F)),
    StableHlo.binary main_v2461 main_v2460 main_v2462 (subf : (⟨S32768x16, .f32⟩ : BufTy).Contents (Elt F) → (⟨S32768x16, .f32⟩ : BufTy).Contents (Elt F) → (⟨S32768x16, .f32⟩ : BufTy).Contents (Elt F)),
    StableHlo.binary main_v2462 main_v2117 main_v2463 (mulf : (⟨S32768x16, .f32⟩ : BufTy).Contents (Elt F) → (⟨S32768x16, .f32⟩ : BufTy).Contents (Elt F) → (⟨S32768x16, .f32⟩ : BufTy).Contents (Elt F)),
    StableHlo.binary main_v2463 main_v2118 main_v2464 (addf : (⟨S32768x16, .f32⟩ : BufTy).Contents (Elt F) → (⟨S32768x16, .f32⟩ : BufTy).Contents (Elt F) → (⟨S32768x16, .f32⟩ : BufTy).Contents (Elt F)),
    StableHlo.unary main_v2464 main_v2465 ((extractStridedSlice S32768x8 ![0, 0] · slices_S32768x16_S32768x8_0_0) : (⟨S32768x16, .f32⟩ : BufTy).Contents (Elt F) → (⟨S32768x8, .f32⟩ : BufTy).Contents (Elt F)),
    StableHlo.unary main_v2464 main_v2466 ((extractStridedSlice S32768x8 ![0, 8] · slices_S32768x16_S32768x8_0_8) : (⟨S32768x16, .f32⟩ : BufTy).Contents (Elt F) → (⟨S32768x8, .f32⟩ : BufTy).Contents (Elt F)),
    StableHlo.nullary main_cst_789 (constant S_ .f32 0xC1F00000#32),
    StableHlo.nullary main_cst_790 (constant S_ .f32 0x41F00000#32),
    StableHlo.TRef.unary (.of main_cst_789 : StableHlo.TRef sig ⟨S_, .f32⟩) main_call226.v0 id,
    StableHlo.TRef.unary main_call226.v0 main_call226.v1 (broadcastInDim S32768x8 ![] bcast_S_S32768x8),
    StableHlo.TRef.binary main_call226.v1 (.of main_v2465 : StableHlo.TRef sig ⟨S32768x8, .f32⟩) main_call226.v2 maximumf,
    StableHlo.TRef.unary (.of main_cst_790 : StableHlo.TRef sig ⟨S_, .f32⟩) main_call226.v3 id,
    StableHlo.TRef.unary main_call226.v3 main_call226.v4 (broadcastInDim S32768x8 ![] bcast_S_S32768x8),
    StableHlo.TRef.binary main_call226.v4 main_call226.v2 main_call226.v5 minimumf,
    StableHlo.nullary main_cst_791 (constant S_ .f32 0xC1F00000#32),
    StableHlo.nullary main_cst_792 (constant S_ .f32 0x41F00000#32),
    StableHlo.TRef.unary (.of main_cst_791 : StableHlo.TRef sig ⟨S_, .f32⟩) main_call227.v0 id,
    StableHlo.TRef.unary main_call227.v0 main_call227.v1 (broadcastInDim S32768x8 ![] bcast_S_S32768x8),
    StableHlo.TRef.binary main_call227.v1 (.of main_v2466 : StableHlo.TRef sig ⟨S32768x8, .f32⟩) main_call227.v2 maximumf,
    StableHlo.TRef.unary (.of main_cst_792 : StableHlo.TRef sig ⟨S_, .f32⟩) main_call227.v3 id,
    StableHlo.TRef.unary main_call227.v3 main_call227.v4 (broadcastInDim S32768x8 ![] bcast_S_S32768x8),
    StableHlo.TRef.binary main_call227.v4 main_call227.v2 main_call227.v5 minimumf,
    StableHlo.unary main_v2467 main_v2469 (Host.sign : (⟨S32768x8, .f32⟩ : BufTy).Contents (Elt F) → (⟨S32768x8, .f32⟩ : BufTy).Contents (Elt F)),
    StableHlo.unary main_v2468 main_v2470 (Host.sign : (⟨S32768x8, .f32⟩ : BufTy).Contents (Elt F) → (⟨S32768x8, .f32⟩ : BufTy).Contents (Elt F)),
    StableHlo.binary main_v2469 main_v2470 main_v2471 (mulf : (⟨S32768x8, .f32⟩ : BufTy).Contents (Elt F) → (⟨S32768x8, .f32⟩ : BufTy).Contents (Elt F) → (⟨S32768x8, .f32⟩ : BufTy).Contents (Elt F)),
    StableHlo.unary main_v2467 main_v2472 (Host.absf : (⟨S32768x8, .f32⟩ : BufTy).Contents (Elt F) → (⟨S32768x8, .f32⟩ : BufTy).Contents (Elt F)),
    StableHlo.unary main_v2468 main_v2473 (Host.absf : (⟨S32768x8, .f32⟩ : BufTy).Contents (Elt F) → (⟨S32768x8, .f32⟩ : BufTy).Contents (Elt F)),
    StableHlo.binary main_v2472 main_v2473 main_v2474 (minimumf : (⟨S32768x8, .f32⟩ : BufTy).Contents (Elt F) → (⟨S32768x8, .f32⟩ : BufTy).Contents (Elt F) → (⟨S32768x8, .f32⟩ : BufTy).Contents (Elt F)),
    StableHlo.binary main_v2471 main_v2474 main_v2475 (mulf : (⟨S32768x8, .f32⟩ : BufTy).Contents (Elt F) → (⟨S32768x8, .f32⟩ : BufTy).Contents (Elt F) → (⟨S32768x8, .f32⟩ : BufTy).Contents (Elt F)),
    StableHlo.unary main_v2475 main_v2476 ((extractStridedSlice S32768x4 ![0, 0] · slices_S32768x8_S32768x4_0_0) : (⟨S32768x8, .f32⟩ : BufTy).Contents (Elt F) → (⟨S32768x4, .f32⟩ : BufTy).Contents (Elt F)),
    StableHlo.unary main_v2475 main_v2477 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_793 (constant S_ .f32 0xC1F00000#32),
    StableHlo.nullary main_cst_794 (constant S_ .f32 0x41F00000#32),
    StableHlo.TRef.unary (.of main_cst_793 : StableHlo.TRef sig ⟨S_, .f32⟩) main_call228.v0 id,
    StableHlo.TRef.unary main_call228.v0 main_call228.v1 (broadcastInDim S32768x4 ![] bcast_S_S32768x4),
    StableHlo.TRef.binary main_call228.v1 (.of main_v2476 : StableHlo.TRef sig ⟨S32768x4, .f32⟩) main_call228.v2 maximumf,
    StableHlo.TRef.unary (.of main_cst_794 : StableHlo.TRef sig ⟨S_, .f32⟩) main_call228.v3 id,
    StableHlo.TRef.unary main_call228.v3 main_call228.v4 (broadcastInDim S32768x4 ![] bcast_S_S32768x4),
    StableHlo.TRef.binary main_call228.v4 main_call228.v2 main_call228.v5 minimumf,
    StableHlo.nullary main_cst_795 (constant S_ .f32 0xC1F00000#32),
    StableHlo.nullary main_cst_796 (constant S_ .f32 0x41F00000#32),
    StableHlo.TRef.unary (.of main_cst_795 : StableHlo.TRef sig ⟨S_, .f32⟩) main_call229.v0 id,
    StableHlo.TRef.unary main_call229.v0 main_call229.v1 (broadcastInDim S32768x4 ![] bcast_S_S32768x4),
    StableHlo.TRef.binary main_call229.v1 (.of main_v2477 : StableHlo.TRef sig ⟨S32768x4, .f32⟩) main_call229.v2 maximumf,
    StableHlo.TRef.unary (.of main_cst_796 : StableHlo.TRef sig ⟨S_, .f32⟩) main_call229.v3 id,
    StableHlo.TRef.unary main_call229.v3 main_call229.v4 (broadcastInDim S32768x4 ![] bcast_S_S32768x4),
    StableHlo.TRef.binary main_call229.v4 main_call229.v2 main_call229.v5 minimumf,
    StableHlo.unary main_v2478 main_v2480 (Host.sign : (⟨S32768x4, .f32⟩ : BufTy).Contents (Elt F) → (⟨S32768x4, .f32⟩ : BufTy).Contents (Elt F)),
    StableHlo.unary main_v2479 main_v2481 (Host.sign : (⟨S32768x4, .f32⟩ : BufTy).Contents (Elt F) → (⟨S32768x4, .f32⟩ : BufTy).Contents (Elt F)),
    StableHlo.binary main_v2480 main_v2481 main_v2482 (mulf : (⟨S32768x4, .f32⟩ : BufTy).Contents (Elt F) → (⟨S32768x4, .f32⟩ : BufTy).Contents (Elt F) → (⟨S32768x4, .f32⟩ : BufTy).Contents (Elt F)),
    StableHlo.unary main_v2478 main_v2483 (Host.absf : (⟨S32768x4, .f32⟩ : BufTy).Contents (Elt F) → (⟨S32768x4, .f32⟩ : BufTy).Contents (Elt F)),
    StableHlo.unary main_v2479 main_v2484 (Host.absf : (⟨S32768x4, .f32⟩ : BufTy).Contents (Elt F) → (⟨S32768x4, .f32⟩ : BufTy).Contents (Elt F)),
    StableHlo.binary main_v2483 main_v2484 main_v2485 (minimumf : (⟨S32768x4, .f32⟩ : BufTy).Contents (Elt F) → (⟨S32768x4, .f32⟩ : BufTy).Contents (Elt F) → (⟨S32768x4, .f32⟩ : BufTy).Contents (Elt F)),
    StableHlo.binary main_v2482 main_v2485 main_v2486 (mulf : (⟨S32768x4, .f32⟩ : BufTy).Contents (Elt F) → (⟨S32768x4, .f32⟩ : BufTy).Contents (Elt F) → (⟨S32768x4, .f32⟩ : BufTy).Contents (Elt F)),
    StableHlo.unary main_v2486 main_v2487 ((extractStridedSlice S32768x2 ![0, 0] · slices_S32768x4_S32768x2_0_0) : (⟨S32768x4, .f32⟩ : BufTy).Contents (Elt F) → (⟨S32768x2, .f32⟩ : BufTy).Contents (Elt F)),
    StableHlo.unary main_v2486 main_v2488 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_797 (constant S_ .f32 0xC1F00000#32),
    StableHlo.nullary main_cst_798 (constant S_ .f32 0x41F00000#32),
    StableHlo.TRef.unary (.of main_cst_797 : StableHlo.TRef sig ⟨S_, .f32⟩) main_call230.v0 id,
    StableHlo.TRef.unary main_call230.v0 main_call230.v1 (broadcastInDim S32768x2 ![] bcast_S_S32768x2),
    StableHlo.TRef.binary main_call230.v1 (.of main_v2487 : StableHlo.TRef sig ⟨S32768x2, .f32⟩) main_call230.v2 maximumf,
    StableHlo.TRef.unary (.of main_cst_798 : StableHlo.TRef sig ⟨S_, .f32⟩) main_call230.v3 id,
    StableHlo.TRef.unary main_call230.v3 main_call230.v4 (broadcastInDim S32768x2 ![] bcast_S_S32768x2),
    StableHlo.TRef.binary main_call230.v4 main_call230.v2 main_call230.v5 minimumf,
    StableHlo.nullary main_cst_799 (constant S_ .f32 0xC1F00000#32),
    StableHlo.nullary main_cst_800 (constant S_ .f32 0x41F00000#32),
    StableHlo.TRef.unary (.of main_cst_799 : StableHlo.TRef sig ⟨S_, .f32⟩) main_call231.v0 id,
    StableHlo.TRef.unary main_call231.v0 main_call231.v1 (broadcastInDim S32768x2 ![] bcast_S_S32768x2),
    StableHlo.TRef.binary main_call231.v1 (.of main_v2488 : StableHlo.TRef sig ⟨S32768x2, .f32⟩) main_call231.v2 maximumf,
    StableHlo.TRef.unary (.of main_cst_800 : StableHlo.TRef sig ⟨S_, .f32⟩) main_call231.v3 id,
    StableHlo.TRef.unary main_call231.v3 main_call231.v4 (broadcastInDim S32768x2 ![] bcast_S_S32768x2),
    StableHlo.TRef.binary main_call231.v4 main_call231.v2 main_call231.v5 minimumf,
    StableHlo.unary main_v2489 main_v2491 (Host.sign : (⟨S32768x2, .f32⟩ : BufTy).Contents (Elt F) → (⟨S32768x2, .f32⟩ : BufTy).Contents (Elt F)),
    StableHlo.unary main_v2490 main_v2492 (Host.sign : (⟨S32768x2, .f32⟩ : BufTy).Contents (Elt F) → (⟨S32768x2, .f32⟩ : BufTy).Contents (Elt F)),
    StableHlo.binary main_v2491 main_v2492 main_v2493 (mulf : (⟨S32768x2, .f32⟩ : BufTy).Contents (Elt F) → (⟨S32768x2, .f32⟩ : BufTy).Contents (Elt F) → (⟨S32768x2, .f32⟩ : BufTy).Contents (Elt F)),
    StableHlo.unary main_v2489 main_v2494 (Host.absf : (⟨S32768x2, .f32⟩ : BufTy).Contents (Elt F) → (⟨S32768x2, .f32⟩ : BufTy).Contents (Elt F)),
    StableHlo.unary main_v2490 main_v2495 (Host.absf : (⟨S32768x2, .f32⟩ : BufTy).Contents (Elt F) → (⟨S32768x2, .f32⟩ : BufTy).Contents (Elt F)),
    StableHlo.binary main_v2494 main_v2495 main_v2496 (minimumf : (⟨S32768x2, .f32⟩ : BufTy).Contents (Elt F) → (⟨S32768x2, .f32⟩ : BufTy).Contents (Elt F) → (⟨S32768x2, .f32⟩ : BufTy).Contents (Elt F)) ]

set_option maxRecDepth 8192 in
/-- The window is that straight line: each clip function unfolded at its calls, the sequencing reassociated. -/
theorem part_eq_54 (d : Dev nD) : main_part54 (F := F) d = seq ops54 := by
  simp only [main_part54, fn_clip_3.body, fn_clip_4.body, fn_clip_5.body, seq, bind_assoc, pure_bind]
  rfl

/-- Every operation of the window touches TensorCore references only. -/
theorem sub_54 : (ops54 : List (HloOp τ sig (Elt F))).Forall fun op => op.bufs ⊆ tcRefs τ sig :=
  ⟨binary_bufs_sub .., unary_bufs_sub .., binary_bufs_sub .., binary_bufs_sub .., binary_bufs_sub .., unary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..⟩

/-- Every operation of the window determines all it writes. -/
theorem fresh_54 : (ops54 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_54 (V : Valuation τ sig (Elt F)) :
    after ops54 V (main_arg0 : DevRef τ sig) = V (main_arg0 : DevRef τ sig) := by
  simp only [after_cons, after_nil]
  rfl

/-- The operations of @main's statements 3301 … 3360, in order (80 of them): a statement's own operation, or, for a call
    of a clip function, the six operations of its body over that call's buffers. -/
abbrev ops55 : List (HloOp τ sig (Elt F)) :=
  [ StableHlo.binary main_v2493 main_v2496 main_v2497 (mulf : (⟨S32768x2, .f32⟩ : BufTy).Contents (Elt F) → (⟨S32768x2, .f32⟩ : BufTy).Contents (Elt F) → (⟨S32768x2, .f32⟩ : BufTy).Contents (Elt F)),
    StableHlo.unary main_v2497 main_v2498 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2497 main_v2499 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_801 (constant S_ .f32 0xC1F00000#32),
    StableHlo.nullary main_cst_802 (constant S_ .f32 0x41F00000#32),
    StableHlo.TRef.unary (.of main_cst_801 : StableHlo.TRef sig ⟨S_, .f32⟩) main_call232.v0 id,
    StableHlo.TRef.unary main_call232.v0 main_call232.v1 (broadcastInDim S32768x1 ![] bcast_S_S32768x1),
    StableHlo.TRef.binary main_call232.v1 (.of main_v2498 : StableHlo.TRef sig ⟨S32768x1, .f32⟩) main_call232.v2 maximumf,
    StableHlo.TRef.unary (.of main_cst_802 : StableHlo.TRef sig ⟨S_, .f32⟩) main_call232.v3 id,
    StableHlo.TRef.unary main_call232.v3 main_call232.v4 (broadcastInDim S32768x1 ![] bcast_S_S32768x1),
    StableHlo.TRef.binary main_call232.v4 main_call232.v2 main_call232.v5 minimumf,
    StableHlo.nullary main_cst_803 (constant S_ .f32 0xC1F00000#32),
    StableHlo.nullary main_cst_804 (constant S_ .f32 0x41F00000#32),
    StableHlo.TRef.unary (.of main_cst_803 : StableHlo.TRef sig ⟨S_, .f32⟩) main_call233.v0 id,
    StableHlo.TRef.unary main_call233.v0 main_call233.v1 (broadcastInDim S32768x1 ![] bcast_S_S32768x1),
    StableHlo.TRef.binary main_call233.v1 (.of main_v2499 : StableHlo.TRef sig ⟨S32768x1, .f32⟩) main_call233.v2 maximumf,
    StableHlo.TRef.unary (.of main_cst_804 : StableHlo.TRef sig ⟨S_, .f32⟩) main_call233.v3 id,
    StableHlo.TRef.unary main_call233.v3 main_call233.v4 (broadcastInDim S32768x1 ![] bcast_S_S32768x1),
    StableHlo.TRef.binary main_call233.v4 main_call233.v2 main_call233.v5 minimumf,
    StableHlo.unary main_v2500 main_v2502 (Host.sign : (⟨S32768x1, .f32⟩ : BufTy).Contents (Elt F) → (⟨S32768x1, .f32⟩ : BufTy).Contents (Elt F)),
    StableHlo.unary main_v2501 main_v2503 (Host.sign : (⟨S32768x1, .f32⟩ : BufTy).Contents (Elt F) → (⟨S32768x1, .f32⟩ : BufTy).Contents (Elt F)),
    StableHlo.binary main_v2502 main_v2503 main_v2504 (mulf : (⟨S32768x1, .f32⟩ : BufTy).Contents (Elt F) → (⟨S32768x1, .f32⟩ : BufTy).Contents (Elt F) → (⟨S32768x1, .f32⟩ : BufTy).Contents (Elt F)),
    StableHlo.unary main_v2500 main_v2505 (Host.absf : (⟨S32768x1, .f32⟩ : BufTy).Contents (Elt F) → (⟨S32768x1, .f32⟩ : BufTy).Contents (Elt F)),
    StableHlo.unary main_v2501 main_v2506 (Host.absf : (⟨S32768x1, .f32⟩ : BufTy).Contents (Elt F) → (⟨S32768x1, .f32⟩ : BufTy).Contents (Elt F)),
    StableHlo.binary main_v2505 main_v2506 main_v2507 (minimumf : (⟨S32768x1, .f32⟩ : BufTy).Contents (Elt F) → (⟨S32768x1, .f32⟩ : BufTy).Contents (Elt F) → (⟨S32768x1, .f32⟩ : BufTy).Contents (Elt F)),
    StableHlo.binary main_v2504 main_v2507 main_v2508 (mulf : (⟨S32768x1, .f32⟩ : BufTy).Contents (Elt F) → (⟨S32768x1, .f32⟩ : BufTy).Contents (Elt F) → (⟨S32768x1, .f32⟩ : BufTy).Contents (Elt F)),
    StableHlo.nullary main_cst_805 (constant S_ .f32 0x00000000#32),
    StableHlo.unary main_cst_805 main_v2509 (broadcastInDim S32768x1 ![] bcast_S_S32768x1 : (⟨S_, .f32⟩ : BufTy).Contents (Elt F) → (⟨S32768x1, .f32⟩ : BufTy).Contents (Elt F)),
    StableHlo.nullary main_cst_806 (constant S_ .f32 0x40000000#32),
    StableHlo.unary main_cst_806 main_v2510 (broadcastInDim S32768x1 ![] bcast_S_S32768x1 : (⟨S_, .f32⟩ : BufTy).Contents (Elt F) → (⟨S32768x1, .f32⟩ : BufTy).Contents (Elt F)),
    StableHlo.binary main_v2510 main_v2509 main_v2511 (mulf : (⟨S32768x1, .f32⟩ : BufTy).Contents (Elt F) → (⟨S32768x1, .f32⟩ : BufTy).Contents (Elt F) → (⟨S32768x1, .f32⟩ : BufTy).Contents (Elt F)),
    StableHlo.nullary main_cst_807 (constant S_ .f32 0x3F800000#32),
    StableHlo.unary main_cst_807 main_v2512 (broadcastInDim S32768x1 ![] bcast_S_S32768x1 : (⟨S_, .f32⟩ : BufTy).Contents (Elt F) → (⟨S32768x1, .f32⟩ : BufTy).Contents (Elt F)),
    StableHlo.binary main_v2512 main_v2511 main_v2513 (subf : (⟨S32768x1, .f32⟩ : BufTy).Contents (Elt F) → (⟨S32768x1, .f32⟩ : BufTy).Contents (Elt F) → (⟨S32768x1, .f32⟩ : BufTy).Contents (Elt F)),
    StableHlo.binary main_v2513 main_v2498 main_v2514 (mulf : (⟨S32768x1, .f32⟩ : BufTy).Contents (Elt F) → (⟨S32768x1, .f32⟩ : BufTy).Contents (Elt F) → (⟨S32768x1, .f32⟩ : BufTy).Contents (Elt F)),
    StableHlo.binary main_v2514 main_v2499 main_v2515 (addf : (⟨S32768x1, .f32⟩ : BufTy).Contents (Elt F) → (⟨S32768x1, .f32⟩ : BufTy).Contents (Elt F) → (⟨S32768x1, .f32⟩ : BufTy).Contents (Elt F)),
    StableHlo.nullary main_cst_808 (constant S_ .f32 0x00000000#32),
    StableHlo.unary main_cst_808 main_v2516 (broadcastInDim S32768x1 ![] bcast_S_S32768x1 : (⟨S_, .f32⟩ : BufTy).Contents (Elt F) → (⟨S32768x1, .f32⟩ : BufTy).Contents (Elt F)),
    StableHlo.binary main_v2509 main_v2516 main_v2517 (cmpf .une : (⟨S32768x1, .f32⟩ : BufTy).Contents (Elt F) → (⟨S32768x1, .f32⟩ : BufTy).Contents (Elt F) → (⟨S32768x1, .i1⟩ : BufTy).Contents (Elt F)),
    StableHlo.unary main_v2517 main_v2518 (uitofp .f32 : (⟨S32768x1, .i1⟩ : BufTy).Contents (Elt F) → (⟨S32768x1, .f32⟩ : BufTy).Contents (Elt F)),
    StableHlo.binary main_v2518 main_v2516 main_v2519 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2509 main_v2516 main_v2520 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_809 (constant S_ .f32 0x40000000#32),
    StableHlo.unary main_cst_809 main_v2521 (broadcastInDim S32768x2 ![] bcast_S_S32768x2 : (⟨S_, .f32⟩ : BufTy).Contents (Elt F) → (⟨S32768x2, .f32⟩ : BufTy).Contents (Elt F)),
    StableHlo.binary main_v2521 main_v2519 main_v2522 (mulf : (⟨S32768x2, .f32⟩ : BufTy).Contents (Elt F) → (⟨S32768x2, .f32⟩ : BufTy).Contents (Elt F) → (⟨S32768x2, .f32⟩ : BufTy).Contents (Elt F)),
    StableHlo.nullary main_cst_810 (constant S_ .f32 0x3F800000#32),
    StableHlo.unary main_cst_810 main_v2523 (broadcastInDim S32768x2 ![] bcast_S_S32768x2 : (⟨S_, .f32⟩ : BufTy).Contents (Elt F) → (⟨S32768x2, .f32⟩ : BufTy).Contents (Elt F)),
    StableHlo.binary main_v2523 main_v2522 main_v2524 (subf : (⟨S32768x2, .f32⟩ : BufTy).Contents (Elt F) → (⟨S32768x2, .f32⟩ : BufTy).Contents (Elt F) → (⟨S32768x2, .f32⟩ : BufTy).Contents (Elt F)),
    StableHlo.binary main_v2524 main_v2487 main_v2525 (mulf : (⟨S32768x2, .f32⟩ : BufTy).Contents (Elt F) → (⟨S32768x2, .f32⟩ : BufTy).Contents (Elt F) → (⟨S32768x2, .f32⟩ : BufTy).Contents (Elt F)),
    StableHlo.binary main_v2525 main_v2488 main_v2526 (addf : (⟨S32768x2, .f32⟩ : BufTy).Contents (Elt F) → (⟨S32768x2, .f32⟩ : BufTy).Contents (Elt F) → (⟨S32768x2, .f32⟩ : BufTy).Contents (Elt F)),
    StableHlo.unary main_v2526 main_v2527 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2526 main_v2528 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_811 (constant S_ .f32 0xC1F00000#32),
    StableHlo.nullary main_cst_812 (constant S_ .f32 0x41F00000#32),
    StableHlo.TRef.unary (.of main_cst_811 : StableHlo.TRef sig ⟨S_, .f32⟩) main_call234.v0 id,
    StableHlo.TRef.unary main_call234.v0 main_call234.v1 (broadcastInDim S32768x1 ![] bcast_S_S32768x1),
    StableHlo.TRef.binary main_call234.v1 (.of main_v2527 : StableHlo.TRef sig ⟨S32768x1, .f32⟩) main_call234.v2 maximumf,
    StableHlo.TRef.unary (.of main_cst_812 : StableHlo.TRef sig ⟨S_, .f32⟩) main_call234.v3 id,
    StableHlo.TRef.unary main_call234.v3 main_call234.v4 (broadcastInDim S32768x1 ![] bcast_S_S32768x1),
    StableHlo.TRef.binary main_call234.v4 main_call234.v2 main_call234.v5 minimumf,
    StableHlo.nullary main_cst_813 (constant S_ .f32 0xC1F00000#32),
    StableHlo.nullary main_cst_814 (constant S_ .f32 0x41F00000#32),
    StableHlo.TRef.unary (.of main_cst_813 : StableHlo.TRef sig ⟨S_, .f32⟩) main_call235.v0 id,
    StableHlo.TRef.unary main_call235.v0 main_call235.v1 (broadcastInDim S32768x1 ![] bcast_S_S32768x1),
    StableHlo.TRef.binary main_call235.v1 (.of main_v2528 : StableHlo.TRef sig ⟨S32768x1, .f32⟩) main_call235.v2 maximumf,
    StableHlo.TRef.unary (.of main_cst_814 : StableHlo.TRef sig ⟨S_, .f32⟩) main_call235.v3 id,
    StableHlo.TRef.unary main_call235.v3 main_call235.v4 (broadcastInDim S32768x1 ![] bcast_S_S32768x1),
    StableHlo.TRef.binary main_call235.v4 main_call235.v2 main_call235.v5 minimumf,
    StableHlo.unary main_v2529 main_v2531 (Host.sign : (⟨S32768x1, .f32⟩ : BufTy).Contents (Elt F) → (⟨S32768x1, .f32⟩ : BufTy).Contents (Elt F)),
    StableHlo.unary main_v2530 main_v2532 (Host.sign : (⟨S32768x1, .f32⟩ : BufTy).Contents (Elt F) → (⟨S32768x1, .f32⟩ : BufTy).Contents (Elt F)),
    StableHlo.binary main_v2531 main_v2532 main_v2533 (mulf : (⟨S32768x1, .f32⟩ : BufTy).Contents (Elt F) → (⟨S32768x1, .f32⟩ : BufTy).Contents (Elt F) → (⟨S32768x1, .f32⟩ : BufTy).Contents (Elt F)),
    StableHlo.unary main_v2529 main_v2534 (Host.absf : (⟨S32768x1, .f32⟩ : BufTy).Contents (Elt F) → (⟨S32768x1, .f32⟩ : BufTy).Contents (Elt F)),
    StableHlo.unary main_v2530 main_v2535 (Host.absf : (⟨S32768x1, .f32⟩ : BufTy).Contents (Elt F) → (⟨S32768x1, .f32⟩ : BufTy).Contents (Elt F)),
    StableHlo.binary main_v2534 main_v2535 main_v2536 (minimumf : (⟨S32768x1, .f32⟩ : BufTy).Contents (Elt F) → (⟨S32768x1, .f32⟩ : BufTy).Contents (Elt F) → (⟨S32768x1, .f32⟩ : BufTy).Contents (Elt F)),
    StableHlo.binary main_v2533 main_v2536 main_v2537 (mulf : (⟨S32768x1, .f32⟩ : BufTy).Contents (Elt F) → (⟨S32768x1, .f32⟩ : BufTy).Contents (Elt F) → (⟨S32768x1, .f32⟩ : BufTy).Contents (Elt F)),
    StableHlo.nullary main_cst_815 (constant S_ .f32 0x00000000#32),
    StableHlo.unary main_cst_815 main_v2538 (broadcastInDim S32768x1 ![] bcast_S_S32768x1 : (⟨S_, .f32⟩ : BufTy).Contents (Elt F) → (⟨S32768x1, .f32⟩ : BufTy).Contents (Elt F)),
    StableHlo.nullary main_cst_816 (constant S_ .f32 0x40000000#32),
    StableHlo.unary main_cst_816 main_v2539 (broadcastInDim S32768x1 ![] bcast_S_S32768x1 : (⟨S_, .f32⟩ : BufTy).Contents (Elt F) → (⟨S32768x1, .f32⟩ : BufTy).Contents (Elt F)),
    StableHlo.binary main_v2539 main_v2538 main_v2540 (mulf : (⟨S32768x1, .f32⟩ : BufTy).Contents (Elt F) → (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_55 (d : Dev nD) : main_part55 (F := F) d = seq ops55 := by
  simp only [main_part55, fn_clip_6.body, seq, bind_assoc, pure_bind]
  rfl

/-- Every operation of the window touches TensorCore references only. -/
theorem sub_55 : (ops55 : List (HloOp τ sig (Elt F))).Forall fun op => op.bufs ⊆ tcRefs τ sig :=
  ⟨binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., nullary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., nullary_bufs_sub ..,
    unary_bufs_sub .., binary_bufs_sub ..⟩

/-- Every operation of the window determines all it writes. -/
theorem fresh_55 : (ops55 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_55 (V : Valuation τ sig (Elt F)) :
    after ops55 V (main_arg0 : DevRef τ sig) = V (main_arg0 : DevRef τ sig) := by
  simp only [after_cons, after_nil]
  rfl

end Cert.ReferenceIdeal.RefRun

end
-- ==== Proof.RefRun.W07.lean ====
import proofs.«134088_j24077586662034_2_alg».proof.Defs
import proofs.«134088_j24077586662034_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 3361 … 3420, in order (80 of them): a statement's own operation, or, for a call
    of a clip function, the six operations of its body over that call's buffers. -/
abbrev ops56 : List (HloOp τ sig (Elt F)) :=
  [ StableHlo.nullary main_cst_817 (constant S_ .f32 0x3F800000#32),
    StableHlo.unary main_cst_817 main_v2541 (broadcastInDim S32768x1 ![] bcast_S_S32768x1 : (⟨S_, .f32⟩ : BufTy).Contents (Elt F) → (⟨S32768x1, .f32⟩ : BufTy).Contents (Elt F)),
    StableHlo.binary main_v2541 main_v2540 main_v2542 (subf : (⟨S32768x1, .f32⟩ : BufTy).Contents (Elt F) → (⟨S32768x1, .f32⟩ : BufTy).Contents (Elt F) → (⟨S32768x1, .f32⟩ : BufTy).Contents (Elt F)),
    StableHlo.binary main_v2542 main_v2527 main_v2543 (mulf : (⟨S32768x1, .f32⟩ : BufTy).Contents (Elt F) → (⟨S32768x1, .f32⟩ : BufTy).Contents (Elt F) → (⟨S32768x1, .f32⟩ : BufTy).Contents (Elt F)),
    StableHlo.binary main_v2543 main_v2528 main_v2544 (addf : (⟨S32768x1, .f32⟩ : BufTy).Contents (Elt F) → (⟨S32768x1, .f32⟩ : BufTy).Contents (Elt F) → (⟨S32768x1, .f32⟩ : BufTy).Contents (Elt F)),
    StableHlo.nullary main_cst_818 (constant S_ .f32 0x00000000#32),
    StableHlo.unary main_cst_818 main_v2545 (broadcastInDim S32768x1 ![] bcast_S_S32768x1 : (⟨S_, .f32⟩ : BufTy).Contents (Elt F) → (⟨S32768x1, .f32⟩ : BufTy).Contents (Elt F)),
    StableHlo.binary main_v2538 main_v2545 main_v2546 (cmpf .une : (⟨S32768x1, .f32⟩ : BufTy).Contents (Elt F) → (⟨S32768x1, .f32⟩ : BufTy).Contents (Elt F) → (⟨S32768x1, .i1⟩ : BufTy).Contents (Elt F)),
    StableHlo.unary main_v2546 main_v2547 (uitofp .f32 : (⟨S32768x1, .i1⟩ : BufTy).Contents (Elt F) → (⟨S32768x1, .f32⟩ : BufTy).Contents (Elt F)),
    StableHlo.binary main_v2547 main_v2545 main_v2548 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2538 main_v2545 main_v2549 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2519 main_v2548 main_v2550 (cmpf .une : (⟨S32768x2, .f32⟩ : BufTy).Contents (Elt F) → (⟨S32768x2, .f32⟩ : BufTy).Contents (Elt F) → (⟨S32768x2, .i1⟩ : BufTy).Contents (Elt F)),
    StableHlo.unary main_v2550 main_v2551 (uitofp .f32 : (⟨S32768x2, .i1⟩ : BufTy).Contents (Elt F) → (⟨S32768x2, .f32⟩ : BufTy).Contents (Elt F)),
    StableHlo.binary main_v2551 main_v2548 main_v2552 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v2520 main_v2549 main_v2553 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_819 (constant S_ .f32 0x40000000#32),
    StableHlo.unary main_cst_819 main_v2554 (broadcastInDim S32768x4 ![] bcast_S_S32768x4 : (⟨S_, .f32⟩ : BufTy).Contents (Elt F) → (⟨S32768x4, .f32⟩ : BufTy).Contents (Elt F)),
    StableHlo.binary main_v2554 main_v2552 main_v2555 (mulf : (⟨S32768x4, .f32⟩ : BufTy).Contents (Elt F) → (⟨S32768x4, .f32⟩ : BufTy).Contents (Elt F) → (⟨S32768x4, .f32⟩ : BufTy).Contents (Elt F)),
    StableHlo.nullary main_cst_820 (constant S_ .f32 0x3F800000#32),
    StableHlo.unary main_cst_820 main_v2556 (broadcastInDim S32768x4 ![] bcast_S_S32768x4 : (⟨S_, .f32⟩ : BufTy).Contents (Elt F) → (⟨S32768x4, .f32⟩ : BufTy).Contents (Elt F)),
    StableHlo.binary main_v2556 main_v2555 main_v2557 (subf : (⟨S32768x4, .f32⟩ : BufTy).Contents (Elt F) → (⟨S32768x4, .f32⟩ : BufTy).Contents (Elt F) → (⟨S32768x4, .f32⟩ : BufTy).Contents (Elt F)),
    StableHlo.binary main_v2557 main_v2476 main_v2558 (mulf : (⟨S32768x4, .f32⟩ : BufTy).Contents (Elt F) → (⟨S32768x4, .f32⟩ : BufTy).Contents (Elt F) → (⟨S32768x4, .f32⟩ : BufTy).Contents (Elt F)),
    StableHlo.binary main_v2558 main_v2477 main_v2559 (addf : (⟨S32768x4, .f32⟩ : BufTy).Contents (Elt F) → (⟨S32768x4, .f32⟩ : BufTy).Contents (Elt F) → (⟨S32768x4, .f32⟩ : BufTy).Contents (Elt F)),
    StableHlo.unary main_v2559 main_v2560 ((extractStridedSlice S32768x2 ![0, 0] · slices_S32768x4_S32768x2_0_0) : (⟨S32768x4, .f32⟩ : BufTy).Contents (Elt F) → (⟨S32768x2, .f32⟩ : BufTy).Contents (Elt F)),
    StableHlo.unary main_v2559 main_v2561 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_821 (constant S_ .f32 0xC1F00000#32),
    StableHlo.nullary main_cst_822 (constant S_ .f32 0x41F00000#32),
    StableHlo.TRef.unary (.of main_cst_821 : StableHlo.TRef sig ⟨S_, .f32⟩) main_call236.v0 id,
    StableHlo.TRef.unary main_call236.v0 main_call236.v1 (broadcastInDim S32768x2 ![] bcast_S_S32768x2),
    StableHlo.TRef.binary main_call236.v1 (.of main_v2560 : StableHlo.TRef sig ⟨S32768x2, .f32⟩) main_call236.v2 maximumf,
    StableHlo.TRef.unary (.of main_cst_822 : StableHlo.TRef sig ⟨S_, .f32⟩) main_call236.v3 id,
    StableHlo.TRef.unary main_call236.v3 main_call236.v4 (broadcastInDim S32768x2 ![] bcast_S_S32768x2),
    StableHlo.TRef.binary main_call236.v4 main_call236.v2 main_call236.v5 minimumf,
    StableHlo.nullary main_cst_823 (constant S_ .f32 0xC1F00000#32),
    StableHlo.nullary main_cst_824 (constant S_ .f32 0x41F00000#32),
    StableHlo.TRef.unary (.of main_cst_823 : StableHlo.TRef sig ⟨S_, .f32⟩) main_call237.v0 id,
    StableHlo.TRef.unary main_call237.v0 main_call237.v1 (broadcastInDim S32768x2 ![] bcast_S_S32768x2),
    StableHlo.TRef.binary main_call237.v1 (.of main_v2561 : StableHlo.TRef sig ⟨S32768x2, .f32⟩) main_call237.v2 maximumf,
    StableHlo.TRef.unary (.of main_cst_824 : StableHlo.TRef sig ⟨S_, .f32⟩) main_call237.v3 id,
    StableHlo.TRef.unary main_call237.v3 main_call237.v4 (broadcastInDim S32768x2 ![] bcast_S_S32768x2),
    StableHlo.TRef.binary main_call237.v4 main_call237.v2 main_call237.v5 minimumf,
    StableHlo.unary main_v2562 main_v2564 (Host.sign : (⟨S32768x2, .f32⟩ : BufTy).Contents (Elt F) → (⟨S32768x2, .f32⟩ : BufTy).Contents (Elt F)),
    StableHlo.unary main_v2563 main_v2565 (Host.sign : (⟨S32768x2, .f32⟩ : BufTy).Contents (Elt F) → (⟨S32768x2, .f32⟩ : BufTy).Contents (Elt F)),
    StableHlo.binary main_v2564 main_v2565 main_v2566 (mulf : (⟨S32768x2, .f32⟩ : BufTy).Contents (Elt F) → (⟨S32768x2, .f32⟩ : BufTy).Contents (Elt F) → (⟨S32768x2, .f32⟩ : BufTy).Contents (Elt F)),
    StableHlo.unary main_v2562 main_v2567 (Host.absf : (⟨S32768x2, .f32⟩ : BufTy).Contents (Elt F) → (⟨S32768x2, .f32⟩ : BufTy).Contents (Elt F)),
    StableHlo.unary main_v2563 main_v2568 (Host.absf : (⟨S32768x2, .f32⟩ : BufTy).Contents (Elt F) → (⟨S32768x2, .f32⟩ : BufTy).Contents (Elt F)),
    StableHlo.binary main_v2567 main_v2568 main_v2569 (minimumf : (⟨S32768x2, .f32⟩ : BufTy).Contents (Elt F) → (⟨S32768x2, .f32⟩ : BufTy).Contents (Elt F) → (⟨S32768x2, .f32⟩ : BufTy).Contents (Elt F)),
    StableHlo.binary main_v2566 main_v2569 main_v2570 (mulf : (⟨S32768x2, .f32⟩ : BufTy).Contents (Elt F) → (⟨S32768x2, .f32⟩ : BufTy).Contents (Elt F) → (⟨S32768x2, .f32⟩ : BufTy).Contents (Elt F)),
    StableHlo.unary main_v2570 main_v2571 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2570 main_v2572 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_825 (constant S_ .f32 0xC1F00000#32),
    StableHlo.nullary main_cst_826 (constant S_ .f32 0x41F00000#32),
    StableHlo.TRef.unary (.of main_cst_825 : StableHlo.TRef sig ⟨S_, .f32⟩) main_call238.v0 id,
    StableHlo.TRef.unary main_call238.v0 main_call238.v1 (broadcastInDim S32768x1 ![] bcast_S_S32768x1),
    StableHlo.TRef.binary main_call238.v1 (.of main_v2571 : StableHlo.TRef sig ⟨S32768x1, .f32⟩) main_call238.v2 maximumf,
    StableHlo.TRef.unary (.of main_cst_826 : StableHlo.TRef sig ⟨S_, .f32⟩) main_call238.v3 id,
    StableHlo.TRef.unary main_call238.v3 main_call238.v4 (broadcastInDim S32768x1 ![] bcast_S_S32768x1),
    StableHlo.TRef.binary main_call238.v4 main_call238.v2 main_call238.v5 minimumf,
    StableHlo.nullary main_cst_827 (constant S_ .f32 0xC1F00000#32),
    StableHlo.nullary main_cst_828 (constant S_ .f32 0x41F00000#32),
    StableHlo.TRef.unary (.of main_cst_827 : StableHlo.TRef sig ⟨S_, .f32⟩) main_call239.v0 id,
    StableHlo.TRef.unary main_call239.v0 main_call239.v1 (broadcastInDim S32768x1 ![] bcast_S_S32768x1),
    StableHlo.TRef.binary main_call239.v1 (.of main_v2572 : StableHlo.TRef sig ⟨S32768x1, .f32⟩) main_call239.v2 maximumf,
    StableHlo.TRef.unary (.of main_cst_828 : StableHlo.TRef sig ⟨S_, .f32⟩) main_call239.v3 id,
    StableHlo.TRef.unary main_call239.v3 main_call239.v4 (broadcastInDim S32768x1 ![] bcast_S_S32768x1),
    StableHlo.TRef.binary main_call239.v4 main_call239.v2 main_call239.v5 minimumf,
    StableHlo.unary main_v2573 main_v2575 (Host.sign : (⟨S32768x1, .f32⟩ : BufTy).Contents (Elt F) → (⟨S32768x1, .f32⟩ : BufTy).Contents (Elt F)),
    StableHlo.unary main_v2574 main_v2576 (Host.sign : (⟨S32768x1, .f32⟩ : BufTy).Contents (Elt F) → (⟨S32768x1, .f32⟩ : BufTy).Contents (Elt F)),
    StableHlo.binary main_v2575 main_v2576 main_v2577 (mulf : (⟨S32768x1, .f32⟩ : BufTy).Contents (Elt F) → (⟨S32768x1, .f32⟩ : BufTy).Contents (Elt F) → (⟨S32768x1, .f32⟩ : BufTy).Contents (Elt F)),
    StableHlo.unary main_v2573 main_v2578 (Host.absf : (⟨S32768x1, .f32⟩ : BufTy).Contents (Elt F) → (⟨S32768x1, .f32⟩ : BufTy).Contents (Elt F)),
    StableHlo.unary main_v2574 main_v2579 (Host.absf : (⟨S32768x1, .f32⟩ : BufTy).Contents (Elt F) → (⟨S32768x1, .f32⟩ : BufTy).Contents (Elt F)),
    StableHlo.binary main_v2578 main_v2579 main_v2580 (minimumf : (⟨S32768x1, .f32⟩ : BufTy).Contents (Elt F) → (⟨S32768x1, .f32⟩ : BufTy).Contents (Elt F) → (⟨S32768x1, .f32⟩ : BufTy).Contents (Elt F)),
    StableHlo.binary main_v2577 main_v2580 main_v2581 (mulf : (⟨S32768x1, .f32⟩ : BufTy).Contents (Elt F) → (⟨S32768x1, .f32⟩ : BufTy).Contents (Elt F) → (⟨S32768x1, .f32⟩ : BufTy).Contents (Elt F)),
    StableHlo.nullary main_cst_829 (constant S_ .f32 0x00000000#32),
    StableHlo.unary main_cst_829 main_v2582 (broadcastInDim S32768x1 ![] bcast_S_S32768x1 : (⟨S_, .f32⟩ : BufTy).Contents (Elt F) → (⟨S32768x1, .f32⟩ : BufTy).Contents (Elt F)),
    StableHlo.nullary main_cst_830 (constant S_ .f32 0x40000000#32),
    StableHlo.unary main_cst_830 main_v2583 (broadcastInDim S32768x1 ![] bcast_S_S32768x1 : (⟨S_, .f32⟩ : BufTy).Contents (Elt F) → (⟨S32768x1, .f32⟩ : BufTy).Contents (Elt F)),
    StableHlo.binary main_v2583 main_v2582 main_v2584 (mulf : (⟨S32768x1, .f32⟩ : BufTy).Contents (Elt F) → (⟨S32768x1, .f32⟩ : BufTy).Contents (Elt F) → (⟨S32768x1, .f32⟩ : BufTy).Contents (Elt F)),
    StableHlo.nullary main_cst_831 (constant S_ .f32 0x3F800000#32),
    StableHlo.unary main_cst_831 main_v2585 (broadcastInDim S32768x1 ![] bcast_S_S32768x1 : (⟨S_, .f32⟩ : BufTy).Contents (Elt F) → (⟨S32768x1, .f32⟩ : BufTy).Contents (Elt F)) ]

set_option maxRecDepth 8192 in
/-- The window is that straight line: each clip function unfolded at its calls, the sequencing reassociated. -/
theorem part_eq_56 (d : Dev nD) : main_part56 (F := F) d = seq ops56 := by
  simp only [main_part56, fn_clip_5.body, fn_clip_6.body, seq, bind_assoc, pure_bind]
  rfl

/-- Every operation of the window touches TensorCore references only. -/
theorem sub_56 : (ops56 : List (HloOp τ sig (Elt F))).Forall fun op => op.bufs ⊆ tcRefs τ sig :=
  ⟨nullary_bufs_sub .., unary_bufs_sub .., binary_bufs_sub .., binary_bufs_sub .., binary_bufs_sub .., nullary_bufs_sub ..,
    unary_bufs_sub .., binary_bufs_sub .., unary_bufs_sub .., binary_bufs_sub .., binary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., nullary_bufs_sub .., unary_bufs_sub .., nullary_bufs_sub .., unary_bufs_sub .., binary_bufs_sub ..,
    nullary_bufs_sub .., unary_bufs_sub ..⟩

/-- Every operation of the window determines all it writes. -/
theorem fresh_56 : (ops56 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_56 (V : Valuation τ sig (Elt F)) :
    after ops56 V (main_arg0 : DevRef τ sig) = V (main_arg0 : DevRef τ sig) := by
  simp only [after_cons, after_nil]
  rfl

/-- The operations of @main's statements 3421 … 3480, in order (70 of them): a statement's own operation, or, for a call
    of a clip function, the six operations of its body over that call's buffers. -/
abbrev ops57 : List (HloOp τ sig (Elt F)) :=
  [ StableHlo.binary main_v2585 main_v2584 main_v2586 (subf : (⟨S32768x1, .f32⟩ : BufTy).Contents (Elt F) → (⟨S32768x1, .f32⟩ : BufTy).Contents (Elt F) → (⟨S32768x1, .f32⟩ : BufTy).Contents (Elt F)),
    StableHlo.binary main_v2586 main_v2571 main_v2587 (mulf : (⟨S32768x1, .f32⟩ : BufTy).Contents (Elt F) → (⟨S32768x1, .f32⟩ : BufTy).Contents (Elt F) → (⟨S32768x1, .f32⟩ : BufTy).Contents (Elt F)),
    StableHlo.binary main_v2587 main_v2572 main_v2588 (addf : (⟨S32768x1, .f32⟩ : BufTy).Contents (Elt F) → (⟨S32768x1, .f32⟩ : BufTy).Contents (Elt F) → (⟨S32768x1, .f32⟩ : BufTy).Contents (Elt F)),
    StableHlo.nullary main_cst_832 (constant S_ .f32 0x00000000#32),
    StableHlo.unary main_cst_832 main_v2589 (broadcastInDim S32768x1 ![] bcast_S_S32768x1 : (⟨S_, .f32⟩ : BufTy).Contents (Elt F) → (⟨S32768x1, .f32⟩ : BufTy).Contents (Elt F)),
    StableHlo.binary main_v2582 main_v2589 main_v2590 (cmpf .une : (⟨S32768x1, .f32⟩ : BufTy).Contents (Elt F) → (⟨S32768x1, .f32⟩ : BufTy).Contents (Elt F) → (⟨S32768x1, .i1⟩ : BufTy).Contents (Elt F)),
    StableHlo.unary main_v2590 main_v2591 (uitofp .f32 : (⟨S32768x1, .i1⟩ : BufTy).Contents (Elt F) → (⟨S32768x1, .f32⟩ : BufTy).Contents (Elt F)),
    StableHlo.binary main_v2591 main_v2589 main_v2592 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2582 main_v2589 main_v2593 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_833 (constant S_ .f32 0x40000000#32),
    StableHlo.unary main_cst_833 main_v2594 (broadcastInDim S32768x2 ![] bcast_S_S32768x2 : (⟨S_, .f32⟩ : BufTy).Contents (Elt F) → (⟨S32768x2, .f32⟩ : BufTy).Contents (Elt F)),
    StableHlo.binary main_v2594 main_v2592 main_v2595 (mulf : (⟨S32768x2, .f32⟩ : BufTy).Contents (Elt F) → (⟨S32768x2, .f32⟩ : BufTy).Contents (Elt F) → (⟨S32768x2, .f32⟩ : BufTy).Contents (Elt F)),
    StableHlo.nullary main_cst_834 (constant S_ .f32 0x3F800000#32),
    StableHlo.unary main_cst_834 main_v2596 (broadcastInDim S32768x2 ![] bcast_S_S32768x2 : (⟨S_, .f32⟩ : BufTy).Contents (Elt F) → (⟨S32768x2, .f32⟩ : BufTy).Contents (Elt F)),
    StableHlo.binary main_v2596 main_v2595 main_v2597 (subf : (⟨S32768x2, .f32⟩ : BufTy).Contents (Elt F) → (⟨S32768x2, .f32⟩ : BufTy).Contents (Elt F) → (⟨S32768x2, .f32⟩ : BufTy).Contents (Elt F)),
    StableHlo.binary main_v2597 main_v2560 main_v2598 (mulf : (⟨S32768x2, .f32⟩ : BufTy).Contents (Elt F) → (⟨S32768x2, .f32⟩ : BufTy).Contents (Elt F) → (⟨S32768x2, .f32⟩ : BufTy).Contents (Elt F)),
    StableHlo.binary main_v2598 main_v2561 main_v2599 (addf : (⟨S32768x2, .f32⟩ : BufTy).Contents (Elt F) → (⟨S32768x2, .f32⟩ : BufTy).Contents (Elt F) → (⟨S32768x2, .f32⟩ : BufTy).Contents (Elt F)),
    StableHlo.unary main_v2599 main_v2600 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2599 main_v2601 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_835 (constant S_ .f32 0xC1F00000#32),
    StableHlo.nullary main_cst_836 (constant S_ .f32 0x41F00000#32),
    StableHlo.TRef.unary (.of main_cst_835 : StableHlo.TRef sig ⟨S_, .f32⟩) main_call240.v0 id,
    StableHlo.TRef.unary main_call240.v0 main_call240.v1 (broadcastInDim S32768x1 ![] bcast_S_S32768x1),
    StableHlo.TRef.binary main_call240.v1 (.of main_v2600 : StableHlo.TRef sig ⟨S32768x1, .f32⟩) main_call240.v2 maximumf,
    StableHlo.TRef.unary (.of main_cst_836 : StableHlo.TRef sig ⟨S_, .f32⟩) main_call240.v3 id,
    StableHlo.TRef.unary main_call240.v3 main_call240.v4 (broadcastInDim S32768x1 ![] bcast_S_S32768x1),
    StableHlo.TRef.binary main_call240.v4 main_call240.v2 main_call240.v5 minimumf,
    StableHlo.nullary main_cst_837 (constant S_ .f32 0xC1F00000#32),
    StableHlo.nullary main_cst_838 (constant S_ .f32 0x41F00000#32),
    StableHlo.TRef.unary (.of main_cst_837 : StableHlo.TRef sig ⟨S_, .f32⟩) main_call241.v0 id,
    StableHlo.TRef.unary main_call241.v0 main_call241.v1 (broadcastInDim S32768x1 ![] bcast_S_S32768x1),
    StableHlo.TRef.binary main_call241.v1 (.of main_v2601 : StableHlo.TRef sig ⟨S32768x1, .f32⟩) main_call241.v2 maximumf,
    StableHlo.TRef.unary (.of main_cst_838 : StableHlo.TRef sig ⟨S_, .f32⟩) main_call241.v3 id,
    StableHlo.TRef.unary main_call241.v3 main_call241.v4 (broadcastInDim S32768x1 ![] bcast_S_S32768x1),
    StableHlo.TRef.binary main_call241.v4 main_call241.v2 main_call241.v5 minimumf,
    StableHlo.unary main_v2602 main_v2604 (Host.sign : (⟨S32768x1, .f32⟩ : BufTy).Contents (Elt F) → (⟨S32768x1, .f32⟩ : BufTy).Contents (Elt F)),
    StableHlo.unary main_v2603 main_v2605 (Host.sign : (⟨S32768x1, .f32⟩ : BufTy).Contents (Elt F) → (⟨S32768x1, .f32⟩ : BufTy).Contents (Elt F)),
    StableHlo.binary main_v2604 main_v2605 main_v2606 (mulf : (⟨S32768x1, .f32⟩ : BufTy).Contents (Elt F) → (⟨S32768x1, .f32⟩ : BufTy).Contents (Elt F) → (⟨S32768x1, .f32⟩ : BufTy).Contents (Elt F)),
    StableHlo.unary main_v2602 main_v2607 (Host.absf : (⟨S32768x1, .f32⟩ : BufTy).Contents (Elt F) → (⟨S32768x1, .f32⟩ : BufTy).Contents (Elt F)),
    StableHlo.unary main_v2603 main_v2608 (Host.absf : (⟨S32768x1, .f32⟩ : BufTy).Contents (Elt F) → (⟨S32768x1, .f32⟩ : BufTy).Contents (Elt F)),
    StableHlo.binary main_v2607 main_v2608 main_v2609 (minimumf : (⟨S32768x1, .f32⟩ : BufTy).Contents (Elt F) → (⟨S32768x1, .f32⟩ : BufTy).Contents (Elt F) → (⟨S32768x1, .f32⟩ : BufTy).Contents (Elt F)),
    StableHlo.binary main_v2606 main_v2609 main_v2610 (mulf : (⟨S32768x1, .f32⟩ : BufTy).Contents (Elt F) → (⟨S32768x1, .f32⟩ : BufTy).Contents (Elt F) → (⟨S32768x1, .f32⟩ : BufTy).Contents (Elt F)),
    StableHlo.nullary main_cst_839 (constant S_ .f32 0x00000000#32),
    StableHlo.unary main_cst_839 main_v2611 (broadcastInDim S32768x1 ![] bcast_S_S32768x1 : (⟨S_, .f32⟩ : BufTy).Contents (Elt F) → (⟨S32768x1, .f32⟩ : BufTy).Contents (Elt F)),
    StableHlo.nullary main_cst_840 (constant S_ .f32 0x40000000#32),
    StableHlo.unary main_cst_840 main_v2612 (broadcastInDim S32768x1 ![] bcast_S_S32768x1 : (⟨S_, .f32⟩ : BufTy).Contents (Elt F) → (⟨S32768x1, .f32⟩ : BufTy).Contents (Elt F)),
    StableHlo.binary main_v2612 main_v2611 main_v2613 (mulf : (⟨S32768x1, .f32⟩ : BufTy).Contents (Elt F) → (⟨S32768x1, .f32⟩ : BufTy).Contents (Elt F) → (⟨S32768x1, .f32⟩ : BufTy).Contents (Elt F)),
    StableHlo.nullary main_cst_841 (constant S_ .f32 0x3F800000#32),
    StableHlo.unary main_cst_841 main_v2614 (broadcastInDim S32768x1 ![] bcast_S_S32768x1 : (⟨S_, .f32⟩ : BufTy).Contents (Elt F) → (⟨S32768x1, .f32⟩ : BufTy).Contents (Elt F)),
    StableHlo.binary main_v2614 main_v2613 main_v2615 (subf : (⟨S32768x1, .f32⟩ : BufTy).Contents (Elt F) → (⟨S32768x1, .f32⟩ : BufTy).Contents (Elt F) → (⟨S32768x1, .f32⟩ : BufTy).Contents (Elt F)),
    StableHlo.binary main_v2615 main_v2600 main_v2616 (mulf : (⟨S32768x1, .f32⟩ : BufTy).Contents (Elt F) → (⟨S32768x1, .f32⟩ : BufTy).Contents (Elt F) → (⟨S32768x1, .f32⟩ : BufTy).Contents (Elt F)),
    StableHlo.binary main_v2616 main_v2601 main_v2617 (addf : (⟨S32768x1, .f32⟩ : BufTy).Contents (Elt F) → (⟨S32768x1, .f32⟩ : BufTy).Contents (Elt F) → (⟨S32768x1, .f32⟩ : BufTy).Contents (Elt F)),
    StableHlo.nullary main_cst_842 (constant S_ .f32 0x00000000#32),
    StableHlo.unary main_cst_842 main_v2618 (broadcastInDim S32768x1 ![] bcast_S_S32768x1 : (⟨S_, .f32⟩ : BufTy).Contents (Elt F) → (⟨S32768x1, .f32⟩ : BufTy).Contents (Elt F)),
    StableHlo.binary main_v2611 main_v2618 main_v2619 (cmpf .une : (⟨S32768x1, .f32⟩ : BufTy).Contents (Elt F) → (⟨S32768x1, .f32⟩ : BufTy).Contents (Elt F) → (⟨S32768x1, .i1⟩ : BufTy).Contents (Elt F)),
    StableHlo.unary main_v2619 main_v2620 (uitofp .f32 : (⟨S32768x1, .i1⟩ : BufTy).Contents (Elt F) → (⟨S32768x1, .f32⟩ : BufTy).Contents (Elt F)),
    StableHlo.binary main_v2620 main_v2618 main_v2621 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2611 main_v2618 main_v2622 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2592 main_v2621 main_v2623 (cmpf .une : (⟨S32768x2, .f32⟩ : BufTy).Contents (Elt F) → (⟨S32768x2, .f32⟩ : BufTy).Contents (Elt F) → (⟨S32768x2, .i1⟩ : BufTy).Contents (Elt F)),
    StableHlo.unary main_v2623 main_v2624 (uitofp .f32 : (⟨S32768x2, .i1⟩ : BufTy).Contents (Elt F) → (⟨S32768x2, .f32⟩ : BufTy).Contents (Elt F)),
    StableHlo.binary main_v2624 main_v2621 main_v2625 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v2593 main_v2622 main_v2626 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v2552 main_v2625 main_v2627 (cmpf .une : (⟨S32768x4, .f32⟩ : BufTy).Contents (Elt F) → (⟨S32768x4, .f32⟩ : BufTy).Contents (Elt F) → (⟨S32768x4, .i1⟩ : BufTy).Contents (Elt F)),
    StableHlo.unary main_v2627 main_v2628 (uitofp .f32 : (⟨S32768x4, .i1⟩ : BufTy).Contents (Elt F) → (⟨S32768x4, .f32⟩ : BufTy).Contents (Elt F)),
    StableHlo.binary main_v2628 main_v2625 main_v2629 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v2553 main_v2626 main_v2630 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.nullary main_cst_843 (constant S_ .f32 0x40000000#32),
    StableHlo.unary main_cst_843 main_v2631 (broadcastInDim S32768x8 ![] bcast_S_S32768x8 : (⟨S_, .f32⟩ : BufTy).Contents (Elt F) → (⟨S32768x8, .f32⟩ : BufTy).Contents (Elt F)),
    StableHlo.binary main_v2631 main_v2629 main_v2632 (mulf : (⟨S32768x8, .f32⟩ : BufTy).Contents (Elt F) → (⟨S32768x8, .f32⟩ : BufTy).Contents (Elt F) → (⟨S32768x8, .f32⟩ : BufTy).Contents (Elt F)),
    StableHlo.nullary main_cst_844 (constant S_ .f32 0x3F800000#32) ]

set_option maxRecDepth 8192 in
/-- The window is that straight line: each clip function unfolded at its calls, the sequencing reassociated. -/
theorem part_eq_57 (d : Dev nD) : main_part57 (F := F) d = seq ops57 := by
  simp only [main_part57, fn_clip_6.body, seq, bind_assoc, pure_bind]
  rfl

/-- Every operation of the window touches TensorCore references only. -/
theorem sub_57 : (ops57 : List (HloOp τ sig (Elt F))).Forall fun op => op.bufs ⊆ tcRefs τ sig :=
  ⟨binary_bufs_sub .., binary_bufs_sub .., binary_bufs_sub .., nullary_bufs_sub .., unary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., nullary_bufs_sub .., unary_bufs_sub .., binary_bufs_sub .., nullary_bufs_sub ..,
    unary_bufs_sub .., binary_bufs_sub .., binary_bufs_sub .., binary_bufs_sub .., nullary_bufs_sub .., unary_bufs_sub ..,
    binary_bufs_sub .., unary_bufs_sub .., binary_bufs_sub .., binary_bufs_sub .., binary_bufs_sub .., unary_bufs_sub ..,
    binary_bufs_sub .., binary_bufs_sub .., binary_bufs_sub .., unary_bufs_sub .., binary_bufs_sub .., binary_bufs_sub ..,
    nullary_bufs_sub .., unary_bufs_sub .., binary_bufs_sub .., nullary_bufs_sub ..⟩

/-- Every operation of the window determines all it writes. -/
theorem fresh_57 : (ops57 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_57 (V : Valuation τ sig (Elt F)) :
    after ops57 V (main_arg0 : DevRef τ sig) = V (main_arg0 : DevRef τ sig) := by
  simp only [after_cons, after_nil]
  rfl

/-- The operations of @main's statements 3481 … 3540, in order (90 of them): a statement's own operation, or, for a call
    of a clip function, the six operations of its body over that call's buffers. -/
abbrev ops58 : List (HloOp τ sig (Elt F)) :=
  [ StableHlo.unary main_cst_844 main_v2633 (broadcastInDim S32768x8 ![] bcast_S_S32768x8 : (⟨S_, .f32⟩ : BufTy).Contents (Elt F) → (⟨S32768x8, .f32⟩ : BufTy).Contents (Elt F)),
    StableHlo.binary main_v2633 main_v2632 main_v2634 (subf : (⟨S32768x8, .f32⟩ : BufTy).Contents (Elt F) → (⟨S32768x8, .f32⟩ : BufTy).Contents (Elt F) → (⟨S32768x8, .f32⟩ : BufTy).Contents (Elt F)),
    StableHlo.binary main_v2634 main_v2465 main_v2635 (mulf : (⟨S32768x8, .f32⟩ : BufTy).Contents (Elt F) → (⟨S32768x8, .f32⟩ : BufTy).Contents (Elt F) → (⟨S32768x8, .f32⟩ : BufTy).Contents (Elt F)),
    StableHlo.binary main_v2635 main_v2466 main_v2636 (addf : (⟨S32768x8, .f32⟩ : BufTy).Contents (Elt F) → (⟨S32768x8, .f32⟩ : BufTy).Contents (Elt F) → (⟨S32768x8, .f32⟩ : BufTy).Contents (Elt F)),
    StableHlo.unary main_v2636 main_v2637 ((extractStridedSlice S32768x4 ![0, 0] · slices_S32768x8_S32768x4_0_0) : (⟨S32768x8, .f32⟩ : BufTy).Contents (Elt F) → (⟨S32768x4, .f32⟩ : BufTy).Contents (Elt F)),
    StableHlo.unary main_v2636 main_v2638 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_845 (constant S_ .f32 0xC1F00000#32),
    StableHlo.nullary main_cst_846 (constant S_ .f32 0x41F00000#32),
    StableHlo.TRef.unary (.of main_cst_845 : StableHlo.TRef sig ⟨S_, .f32⟩) main_call242.v0 id,
    StableHlo.TRef.unary main_call242.v0 main_call242.v1 (broadcastInDim S32768x4 ![] bcast_S_S32768x4),
    StableHlo.TRef.binary main_call242.v1 (.of main_v2637 : StableHlo.TRef sig ⟨S32768x4, .f32⟩) main_call242.v2 maximumf,
    StableHlo.TRef.unary (.of main_cst_846 : StableHlo.TRef sig ⟨S_, .f32⟩) main_call242.v3 id,
    StableHlo.TRef.unary main_call242.v3 main_call242.v4 (broadcastInDim S32768x4 ![] bcast_S_S32768x4),
    StableHlo.TRef.binary main_call242.v4 main_call242.v2 main_call242.v5 minimumf,
    StableHlo.nullary main_cst_847 (constant S_ .f32 0xC1F00000#32),
    StableHlo.nullary main_cst_848 (constant S_ .f32 0x41F00000#32),
    StableHlo.TRef.unary (.of main_cst_847 : StableHlo.TRef sig ⟨S_, .f32⟩) main_call243.v0 id,
    StableHlo.TRef.unary main_call243.v0 main_call243.v1 (broadcastInDim S32768x4 ![] bcast_S_S32768x4),
    StableHlo.TRef.binary main_call243.v1 (.of main_v2638 : StableHlo.TRef sig ⟨S32768x4, .f32⟩) main_call243.v2 maximumf,
    StableHlo.TRef.unary (.of main_cst_848 : StableHlo.TRef sig ⟨S_, .f32⟩) main_call243.v3 id,
    StableHlo.TRef.unary main_call243.v3 main_call243.v4 (broadcastInDim S32768x4 ![] bcast_S_S32768x4),
    StableHlo.TRef.binary main_call243.v4 main_call243.v2 main_call243.v5 minimumf,
    StableHlo.unary main_v2639 main_v2641 (Host.sign : (⟨S32768x4, .f32⟩ : BufTy).Contents (Elt F) → (⟨S32768x4, .f32⟩ : BufTy).Contents (Elt F)),
    StableHlo.unary main_v2640 main_v2642 (Host.sign : (⟨S32768x4, .f32⟩ : BufTy).Contents (Elt F) → (⟨S32768x4, .f32⟩ : BufTy).Contents (Elt F)),
    StableHlo.binary main_v2641 main_v2642 main_v2643 (mulf : (⟨S32768x4, .f32⟩ : BufTy).Contents (Elt F) → (⟨S32768x4, .f32⟩ : BufTy).Contents (Elt F) → (⟨S32768x4, .f32⟩ : BufTy).Contents (Elt F)),
    StableHlo.unary main_v2639 main_v2644 (Host.absf : (⟨S32768x4, .f32⟩ : BufTy).Contents (Elt F) → (⟨S32768x4, .f32⟩ : BufTy).Contents (Elt F)),
    StableHlo.unary main_v2640 main_v2645 (Host.absf : (⟨S32768x4, .f32⟩ : BufTy).Contents (Elt F) → (⟨S32768x4, .f32⟩ : BufTy).Contents (Elt F)),
    StableHlo.binary main_v2644 main_v2645 main_v2646 (minimumf : (⟨S32768x4, .f32⟩ : BufTy).Contents (Elt F) → (⟨S32768x4, .f32⟩ : BufTy).Contents (Elt F) → (⟨S32768x4, .f32⟩ : BufTy).Contents (Elt F)),
    StableHlo.binary main_v2643 main_v2646 main_v2647 (mulf : (⟨S32768x4, .f32⟩ : BufTy).Contents (Elt F) → (⟨S32768x4, .f32⟩ : BufTy).Contents (Elt F) → (⟨S32768x4, .f32⟩ : BufTy).Contents (Elt F)),
    StableHlo.unary main_v2647 main_v2648 ((extractStridedSlice S32768x2 ![0, 0] · slices_S32768x4_S32768x2_0_0) : (⟨S32768x4, .f32⟩ : BufTy).Contents (Elt F) → (⟨S32768x2, .f32⟩ : BufTy).Contents (Elt F)),
    StableHlo.unary main_v2647 main_v2649 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_849 (constant S_ .f32 0xC1F00000#32),
    StableHlo.nullary main_cst_850 (constant S_ .f32 0x41F00000#32),
    StableHlo.TRef.unary (.of main_cst_849 : StableHlo.TRef sig ⟨S_, .f32⟩) main_call244.v0 id,
    StableHlo.TRef.unary main_call244.v0 main_call244.v1 (broadcastInDim S32768x2 ![] bcast_S_S32768x2),
    StableHlo.TRef.binary main_call244.v1 (.of main_v2648 : StableHlo.TRef sig ⟨S32768x2, .f32⟩) main_call244.v2 maximumf,
    StableHlo.TRef.unary (.of main_cst_850 : StableHlo.TRef sig ⟨S_, .f32⟩) main_call244.v3 id,
    StableHlo.TRef.unary main_call244.v3 main_call244.v4 (broadcastInDim S32768x2 ![] bcast_S_S32768x2),
    StableHlo.TRef.binary main_call244.v4 main_call244.v2 main_call244.v5 minimumf,
    StableHlo.nullary main_cst_851 (constant S_ .f32 0xC1F00000#32),
    StableHlo.nullary main_cst_852 (constant S_ .f32 0x41F00000#32),
    StableHlo.TRef.unary (.of main_cst_851 : StableHlo.TRef sig ⟨S_, .f32⟩) main_call245.v0 id,
    StableHlo.TRef.unary main_call245.v0 main_call245.v1 (broadcastInDim S32768x2 ![] bcast_S_S32768x2),
    StableHlo.TRef.binary main_call245.v1 (.of main_v2649 : StableHlo.TRef sig ⟨S32768x2, .f32⟩) main_call245.v2 maximumf,
    StableHlo.TRef.unary (.of main_cst_852 : StableHlo.TRef sig ⟨S_, .f32⟩) main_call245.v3 id,
    StableHlo.TRef.unary main_call245.v3 main_call245.v4 (broadcastInDim S32768x2 ![] bcast_S_S32768x2),
    StableHlo.TRef.binary main_call245.v4 main_call245.v2 main_call245.v5 minimumf,
    StableHlo.unary main_v2650 main_v2652 (Host.sign : (⟨S32768x2, .f32⟩ : BufTy).Contents (Elt F) → (⟨S32768x2, .f32⟩ : BufTy).Contents (Elt F)),
    StableHlo.unary main_v2651 main_v2653 (Host.sign : (⟨S32768x2, .f32⟩ : BufTy).Contents (Elt F) → (⟨S32768x2, .f32⟩ : BufTy).Contents (Elt F)),
    StableHlo.binary main_v2652 main_v2653 main_v2654 (mulf : (⟨S32768x2, .f32⟩ : BufTy).Contents (Elt F) → (⟨S32768x2, .f32⟩ : BufTy).Contents (Elt F) → (⟨S32768x2, .f32⟩ : BufTy).Contents (Elt F)),
    StableHlo.unary main_v2650 main_v2655 (Host.absf : (⟨S32768x2, .f32⟩ : BufTy).Contents (Elt F) → (⟨S32768x2, .f32⟩ : BufTy).Contents (Elt F)),
    StableHlo.unary main_v2651 main_v2656 (Host.absf : (⟨S32768x2, .f32⟩ : BufTy).Contents (Elt F) → (⟨S32768x2, .f32⟩ : BufTy).Contents (Elt F)),
    StableHlo.binary main_v2655 main_v2656 main_v2657 (minimumf : (⟨S32768x2, .f32⟩ : BufTy).Contents (Elt F) → (⟨S32768x2, .f32⟩ : BufTy).Contents (Elt F) → (⟨S32768x2, .f32⟩ : BufTy).Contents (Elt F)),
    StableHlo.binary main_v2654 main_v2657 main_v2658 (mulf : (⟨S32768x2, .f32⟩ : BufTy).Contents (Elt F) → (⟨S32768x2, .f32⟩ : BufTy).Contents (Elt F) → (⟨S32768x2, .f32⟩ : BufTy).Contents (Elt F)),
    StableHlo.unary main_v2658 main_v2659 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2658 main_v2660 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_853 (constant S_ .f32 0xC1F00000#32),
    StableHlo.nullary main_cst_854 (constant S_ .f32 0x41F00000#32),
    StableHlo.TRef.unary (.of main_cst_853 : StableHlo.TRef sig ⟨S_, .f32⟩) main_call246.v0 id,
    StableHlo.TRef.unary main_call246.v0 main_call246.v1 (broadcastInDim S32768x1 ![] bcast_S_S32768x1),
    StableHlo.TRef.binary main_call246.v1 (.of main_v2659 : StableHlo.TRef sig ⟨S32768x1, .f32⟩) main_call246.v2 maximumf,
    StableHlo.TRef.unary (.of main_cst_854 : StableHlo.TRef sig ⟨S_, .f32⟩) main_call246.v3 id,
    StableHlo.TRef.unary main_call246.v3 main_call246.v4 (broadcastInDim S32768x1 ![] bcast_S_S32768x1),
    StableHlo.TRef.binary main_call246.v4 main_call246.v2 main_call246.v5 minimumf,
    StableHlo.nullary main_cst_855 (constant S_ .f32 0xC1F00000#32),
    StableHlo.nullary main_cst_856 (constant S_ .f32 0x41F00000#32),
    StableHlo.TRef.unary (.of main_cst_855 : StableHlo.TRef sig ⟨S_, .f32⟩) main_call247.v0 id,
    StableHlo.TRef.unary main_call247.v0 main_call247.v1 (broadcastInDim S32768x1 ![] bcast_S_S32768x1),
    StableHlo.TRef.binary main_call247.v1 (.of main_v2660 : StableHlo.TRef sig ⟨S32768x1, .f32⟩) main_call247.v2 maximumf,
    StableHlo.TRef.unary (.of main_cst_856 : StableHlo.TRef sig ⟨S_, .f32⟩) main_call247.v3 id,
    StableHlo.TRef.unary main_call247.v3 main_call247.v4 (broadcastInDim S32768x1 ![] bcast_S_S32768x1),
    StableHlo.TRef.binary main_call247.v4 main_call247.v2 main_call247.v5 minimumf,
    StableHlo.unary main_v2661 main_v2663 (Host.sign : (⟨S32768x1, .f32⟩ : BufTy).Contents (Elt F) → (⟨S32768x1, .f32⟩ : BufTy).Contents (Elt F)),
    StableHlo.unary main_v2662 main_v2664 (Host.sign : (⟨S32768x1, .f32⟩ : BufTy).Contents (Elt F) → (⟨S32768x1, .f32⟩ : BufTy).Contents (Elt F)),
    StableHlo.binary main_v2663 main_v2664 main_v2665 (mulf : (⟨S32768x1, .f32⟩ : BufTy).Contents (Elt F) → (⟨S32768x1, .f32⟩ : BufTy).Contents (Elt F) → (⟨S32768x1, .f32⟩ : BufTy).Contents (Elt F)),
    StableHlo.unary main_v2661 main_v2666 (Host.absf : (⟨S32768x1, .f32⟩ : BufTy).Contents (Elt F) → (⟨S32768x1, .f32⟩ : BufTy).Contents (Elt F)),
    StableHlo.unary main_v2662 main_v2667 (Host.absf : (⟨S32768x1, .f32⟩ : BufTy).Contents (Elt F) → (⟨S32768x1, .f32⟩ : BufTy).Contents (Elt F)),
    StableHlo.binary main_v2666 main_v2667 main_v2668 (minimumf : (⟨S32768x1, .f32⟩ : BufTy).Contents (Elt F) → (⟨S32768x1, .f32⟩ : BufTy).Contents (Elt F) → (⟨S32768x1, .f32⟩ : BufTy).Contents (Elt F)),
    StableHlo.binary main_v2665 main_v2668 main_v2669 (mulf : (⟨S32768x1, .f32⟩ : BufTy).Contents (Elt F) → (⟨S32768x1, .f32⟩ : BufTy).Contents (Elt F) → (⟨S32768x1, .f32⟩ : BufTy).Contents (Elt F)),
    StableHlo.nullary main_cst_857 (constant S_ .f32 0x00000000#32),
    StableHlo.unary main_cst_857 main_v2670 (broadcastInDim S32768x1 ![] bcast_S_S32768x1 : (⟨S_, .f32⟩ : BufTy).Contents (Elt F) → (⟨S32768x1, .f32⟩ : BufTy).Contents (Elt F)),
    StableHlo.nullary main_cst_858 (constant S_ .f32 0x40000000#32),
    StableHlo.unary main_cst_858 main_v2671 (broadcastInDim S32768x1 ![] bcast_S_S32768x1 : (⟨S_, .f32⟩ : BufTy).Contents (Elt F) → (⟨S32768x1, .f32⟩ : BufTy).Contents (Elt F)),
    StableHlo.binary main_v2671 main_v2670 main_v2672 (mulf : (⟨S32768x1, .f32⟩ : BufTy).Contents (Elt F) → (⟨S32768x1, .f32⟩ : BufTy).Contents (Elt F) → (⟨S32768x1, .f32⟩ : BufTy).Contents (Elt F)),
    StableHlo.nullary main_cst_859 (constant S_ .f32 0x3F800000#32),
    StableHlo.unary main_cst_859 main_v2673 (broadcastInDim S32768x1 ![] bcast_S_S32768x1 : (⟨S_, .f32⟩ : BufTy).Contents (Elt F) → (⟨S32768x1, .f32⟩ : BufTy).Contents (Elt F)),
    StableHlo.binary main_v2673 main_v2672 main_v2674 (subf : (⟨S32768x1, .f32⟩ : BufTy).Contents (Elt F) → (⟨S32768x1, .f32⟩ : BufTy).Contents (Elt F) → (⟨S32768x1, .f32⟩ : BufTy).Contents (Elt F)),
    StableHlo.binary main_v2674 main_v2659 main_v2675 (mulf : (⟨S32768x1, .f32⟩ : BufTy).Contents (Elt F) → (⟨S32768x1, .f32⟩ : BufTy).Contents (Elt F) → (⟨S32768x1, .f32⟩ : BufTy).Contents (Elt F)),
    StableHlo.binary main_v2675 main_v2660 main_v2676 (addf : (⟨S32768x1, .f32⟩ : BufTy).Contents (Elt F) → (⟨S32768x1, .f32⟩ : BufTy).Contents (Elt F) → (⟨S32768x1, .f32⟩ : BufTy).Contents (Elt F)),
    StableHlo.nullary main_cst_860 (constant S_ .f32 0x00000000#32) ]

set_option maxRecDepth 8192 in
/-- The window is that straight line: each clip function unfolded at its calls, the sequencing reassociated. -/
theorem part_eq_58 (d : Dev nD) : main_part58 (F := F) d = seq ops58 := by
  simp only [main_part58, fn_clip_4.body, fn_clip_5.body, fn_clip_6.body, seq, bind_assoc, pure_bind]
  rfl

/-- Every operation of the window touches TensorCore references only. -/
theorem sub_58 : (ops58 : List (HloOp τ sig (Elt F))).Forall fun op => op.bufs ⊆ tcRefs τ sig :=
  ⟨unary_bufs_sub .., binary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., nullary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..⟩

/-- Every operation of the window determines all it writes. -/
theorem fresh_58 : (ops58 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_58 (V : Valuation τ sig (Elt F)) :
    after ops58 V (main_arg0 : DevRef τ sig) = V (main_arg0 : DevRef τ sig) := by
  simp only [after_cons, after_nil]
  rfl

/-- The operations of @main's statements 3541 … 3600, in order (70 of them): a statement's own operation, or, for a call
    of a clip function, the six operations of its body over that call's buffers. -/
abbrev ops59 : List (HloOp τ sig (Elt F)) :=
  [ StableHlo.unary main_cst_860 main_v2677 (broadcastInDim S32768x1 ![] bcast_S_S32768x1 : (⟨S_, .f32⟩ : BufTy).Contents (Elt F) → (⟨S32768x1, .f32⟩ : BufTy).Contents (Elt F)),
    StableHlo.binary main_v2670 main_v2677 main_v2678 (cmpf .une : (⟨S32768x1, .f32⟩ : BufTy).Contents (Elt F) → (⟨S32768x1, .f32⟩ : BufTy).Contents (Elt F) → (⟨S32768x1, .i1⟩ : BufTy).Contents (Elt F)),
    StableHlo.unary main_v2678 main_v2679 (uitofp .f32 : (⟨S32768x1, .i1⟩ : BufTy).Contents (Elt F) → (⟨S32768x1, .f32⟩ : BufTy).Contents (Elt F)),
    StableHlo.binary main_v2679 main_v2677 main_v2680 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2670 main_v2677 main_v2681 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_861 (constant S_ .f32 0x40000000#32),
    StableHlo.unary main_cst_861 main_v2682 (broadcastInDim S32768x2 ![] bcast_S_S32768x2 : (⟨S_, .f32⟩ : BufTy).Contents (Elt F) → (⟨S32768x2, .f32⟩ : BufTy).Contents (Elt F)),
    StableHlo.binary main_v2682 main_v2680 main_v2683 (mulf : (⟨S32768x2, .f32⟩ : BufTy).Contents (Elt F) → (⟨S32768x2, .f32⟩ : BufTy).Contents (Elt F) → (⟨S32768x2, .f32⟩ : BufTy).Contents (Elt F)),
    StableHlo.nullary main_cst_862 (constant S_ .f32 0x3F800000#32),
    StableHlo.unary main_cst_862 main_v2684 (broadcastInDim S32768x2 ![] bcast_S_S32768x2 : (⟨S_, .f32⟩ : BufTy).Contents (Elt F) → (⟨S32768x2, .f32⟩ : BufTy).Contents (Elt F)),
    StableHlo.binary main_v2684 main_v2683 main_v2685 (subf : (⟨S32768x2, .f32⟩ : BufTy).Contents (Elt F) → (⟨S32768x2, .f32⟩ : BufTy).Contents (Elt F) → (⟨S32768x2, .f32⟩ : BufTy).Contents (Elt F)),
    StableHlo.binary main_v2685 main_v2648 main_v2686 (mulf : (⟨S32768x2, .f32⟩ : BufTy).Contents (Elt F) → (⟨S32768x2, .f32⟩ : BufTy).Contents (Elt F) → (⟨S32768x2, .f32⟩ : BufTy).Contents (Elt F)),
    StableHlo.binary main_v2686 main_v2649 main_v2687 (addf : (⟨S32768x2, .f32⟩ : BufTy).Contents (Elt F) → (⟨S32768x2, .f32⟩ : BufTy).Contents (Elt F) → (⟨S32768x2, .f32⟩ : BufTy).Contents (Elt F)),
    StableHlo.unary main_v2687 main_v2688 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2687 main_v2689 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_863 (constant S_ .f32 0xC1F00000#32),
    StableHlo.nullary main_cst_864 (constant S_ .f32 0x41F00000#32),
    StableHlo.TRef.unary (.of main_cst_863 : StableHlo.TRef sig ⟨S_, .f32⟩) main_call248.v0 id,
    StableHlo.TRef.unary main_call248.v0 main_call248.v1 (broadcastInDim S32768x1 ![] bcast_S_S32768x1),
    StableHlo.TRef.binary main_call248.v1 (.of main_v2688 : StableHlo.TRef sig ⟨S32768x1, .f32⟩) main_call248.v2 maximumf,
    StableHlo.TRef.unary (.of main_cst_864 : StableHlo.TRef sig ⟨S_, .f32⟩) main_call248.v3 id,
    StableHlo.TRef.unary main_call248.v3 main_call248.v4 (broadcastInDim S32768x1 ![] bcast_S_S32768x1),
    StableHlo.TRef.binary main_call248.v4 main_call248.v2 main_call248.v5 minimumf,
    StableHlo.nullary main_cst_865 (constant S_ .f32 0xC1F00000#32),
    StableHlo.nullary main_cst_866 (constant S_ .f32 0x41F00000#32),
    StableHlo.TRef.unary (.of main_cst_865 : StableHlo.TRef sig ⟨S_, .f32⟩) main_call249.v0 id,
    StableHlo.TRef.unary main_call249.v0 main_call249.v1 (broadcastInDim S32768x1 ![] bcast_S_S32768x1),
    StableHlo.TRef.binary main_call249.v1 (.of main_v2689 : StableHlo.TRef sig ⟨S32768x1, .f32⟩) main_call249.v2 maximumf,
    StableHlo.TRef.unary (.of main_cst_866 : StableHlo.TRef sig ⟨S_, .f32⟩) main_call249.v3 id,
    StableHlo.TRef.unary main_call249.v3 main_call249.v4 (broadcastInDim S32768x1 ![] bcast_S_S32768x1),
    StableHlo.TRef.binary main_call249.v4 main_call249.v2 main_call249.v5 minimumf,
    StableHlo.unary main_v2690 main_v2692 (Host.sign : (⟨S32768x1, .f32⟩ : BufTy).Contents (Elt F) → (⟨S32768x1, .f32⟩ : BufTy).Contents (Elt F)),
    StableHlo.unary main_v2691 main_v2693 (Host.sign : (⟨S32768x1, .f32⟩ : BufTy).Contents (Elt F) → (⟨S32768x1, .f32⟩ : BufTy).Contents (Elt F)),
    StableHlo.binary main_v2692 main_v2693 main_v2694 (mulf : (⟨S32768x1, .f32⟩ : BufTy).Contents (Elt F) → (⟨S32768x1, .f32⟩ : BufTy).Contents (Elt F) → (⟨S32768x1, .f32⟩ : BufTy).Contents (Elt F)),
    StableHlo.unary main_v2690 main_v2695 (Host.absf : (⟨S32768x1, .f32⟩ : BufTy).Contents (Elt F) → (⟨S32768x1, .f32⟩ : BufTy).Contents (Elt F)),
    StableHlo.unary main_v2691 main_v2696 (Host.absf : (⟨S32768x1, .f32⟩ : BufTy).Contents (Elt F) → (⟨S32768x1, .f32⟩ : BufTy).Contents (Elt F)),
    StableHlo.binary main_v2695 main_v2696 main_v2697 (minimumf : (⟨S32768x1, .f32⟩ : BufTy).Contents (Elt F) → (⟨S32768x1, .f32⟩ : BufTy).Contents (Elt F) → (⟨S32768x1, .f32⟩ : BufTy).Contents (Elt F)),
    StableHlo.binary main_v2694 main_v2697 main_v2698 (mulf : (⟨S32768x1, .f32⟩ : BufTy).Contents (Elt F) → (⟨S32768x1, .f32⟩ : BufTy).Contents (Elt F) → (⟨S32768x1, .f32⟩ : BufTy).Contents (Elt F)),
    StableHlo.nullary main_cst_867 (constant S_ .f32 0x00000000#32),
    StableHlo.unary main_cst_867 main_v2699 (broadcastInDim S32768x1 ![] bcast_S_S32768x1 : (⟨S_, .f32⟩ : BufTy).Contents (Elt F) → (⟨S32768x1, .f32⟩ : BufTy).Contents (Elt F)),
    StableHlo.nullary main_cst_868 (constant S_ .f32 0x40000000#32),
    StableHlo.unary main_cst_868 main_v2700 (broadcastInDim S32768x1 ![] bcast_S_S32768x1 : (⟨S_, .f32⟩ : BufTy).Contents (Elt F) → (⟨S32768x1, .f32⟩ : BufTy).Contents (Elt F)),
    StableHlo.binary main_v2700 main_v2699 main_v2701 (mulf : (⟨S32768x1, .f32⟩ : BufTy).Contents (Elt F) → (⟨S32768x1, .f32⟩ : BufTy).Contents (Elt F) → (⟨S32768x1, .f32⟩ : BufTy).Contents (Elt F)),
    StableHlo.nullary main_cst_869 (constant S_ .f32 0x3F800000#32),
    StableHlo.unary main_cst_869 main_v2702 (broadcastInDim S32768x1 ![] bcast_S_S32768x1 : (⟨S_, .f32⟩ : BufTy).Contents (Elt F) → (⟨S32768x1, .f32⟩ : BufTy).Contents (Elt F)),
    StableHlo.binary main_v2702 main_v2701 main_v2703 (subf : (⟨S32768x1, .f32⟩ : BufTy).Contents (Elt F) → (⟨S32768x1, .f32⟩ : BufTy).Contents (Elt F) → (⟨S32768x1, .f32⟩ : BufTy).Contents (Elt F)),
    StableHlo.binary main_v2703 main_v2688 main_v2704 (mulf : (⟨S32768x1, .f32⟩ : BufTy).Contents (Elt F) → (⟨S32768x1, .f32⟩ : BufTy).Contents (Elt F) → (⟨S32768x1, .f32⟩ : BufTy).Contents (Elt F)),
    StableHlo.binary main_v2704 main_v2689 main_v2705 (addf : (⟨S32768x1, .f32⟩ : BufTy).Contents (Elt F) → (⟨S32768x1, .f32⟩ : BufTy).Contents (Elt F) → (⟨S32768x1, .f32⟩ : BufTy).Contents (Elt F)),
    StableHlo.nullary main_cst_870 (constant S_ .f32 0x00000000#32),
    StableHlo.unary main_cst_870 main_v2706 (broadcastInDim S32768x1 ![] bcast_S_S32768x1 : (⟨S_, .f32⟩ : BufTy).Contents (Elt F) → (⟨S32768x1, .f32⟩ : BufTy).Contents (Elt F)),
    StableHlo.binary main_v2699 main_v2706 main_v2707 (cmpf .une : (⟨S32768x1, .f32⟩ : BufTy).Contents (Elt F) → (⟨S32768x1, .f32⟩ : BufTy).Contents (Elt F) → (⟨S32768x1, .i1⟩ : BufTy).Contents (Elt F)),
    StableHlo.unary main_v2707 main_v2708 (uitofp .f32 : (⟨S32768x1, .i1⟩ : BufTy).Contents (Elt F) → (⟨S32768x1, .f32⟩ : BufTy).Contents (Elt F)),
    StableHlo.binary main_v2708 main_v2706 main_v2709 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2699 main_v2706 main_v2710 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2680 main_v2709 main_v2711 (cmpf .une : (⟨S32768x2, .f32⟩ : BufTy).Contents (Elt F) → (⟨S32768x2, .f32⟩ : BufTy).Contents (Elt F) → (⟨S32768x2, .i1⟩ : BufTy).Contents (Elt F)),
    StableHlo.unary main_v2711 main_v2712 (uitofp .f32 : (⟨S32768x2, .i1⟩ : BufTy).Contents (Elt F) → (⟨S32768x2, .f32⟩ : BufTy).Contents (Elt F)),
    StableHlo.binary main_v2712 main_v2709 main_v2713 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v2681 main_v2710 main_v2714 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_871 (constant S_ .f32 0x40000000#32),
    StableHlo.unary main_cst_871 main_v2715 (broadcastInDim S32768x4 ![] bcast_S_S32768x4 : (⟨S_, .f32⟩ : BufTy).Contents (Elt F) → (⟨S32768x4, .f32⟩ : BufTy).Contents (Elt F)),
    StableHlo.binary main_v2715 main_v2713 main_v2716 (mulf : (⟨S32768x4, .f32⟩ : BufTy).Contents (Elt F) → (⟨S32768x4, .f32⟩ : BufTy).Contents (Elt F) → (⟨S32768x4, .f32⟩ : BufTy).Contents (Elt F)),
    StableHlo.nullary main_cst_872 (constant S_ .f32 0x3F800000#32),
    StableHlo.unary main_cst_872 main_v2717 (broadcastInDim S32768x4 ![] bcast_S_S32768x4 : (⟨S_, .f32⟩ : BufTy).Contents (Elt F) → (⟨S32768x4, .f32⟩ : BufTy).Contents (Elt F)),
    StableHlo.binary main_v2717 main_v2716 main_v2718 (subf : (⟨S32768x4, .f32⟩ : BufTy).Contents (Elt F) → (⟨S32768x4, .f32⟩ : BufTy).Contents (Elt F) → (⟨S32768x4, .f32⟩ : BufTy).Contents (Elt F)),
    StableHlo.binary main_v2718 main_v2637 main_v2719 (mulf : (⟨S32768x4, .f32⟩ : BufTy).Contents (Elt F) → (⟨S32768x4, .f32⟩ : BufTy).Contents (Elt F) → (⟨S32768x4, .f32⟩ : BufTy).Contents (Elt F)),
    StableHlo.binary main_v2719 main_v2638 main_v2720 (addf : (⟨S32768x4, .f32⟩ : BufTy).Contents (Elt F) → (⟨S32768x4, .f32⟩ : BufTy).Contents (Elt F) → (⟨S32768x4, .f32⟩ : BufTy).Contents (Elt F)),
    StableHlo.unary main_v2720 main_v2721 ((extractStridedSlice S32768x2 ![0, 0] · slices_S32768x4_S32768x2_0_0) : (⟨S32768x4, .f32⟩ : BufTy).Contents (Elt F) → (⟨S32768x2, .f32⟩ : BufTy).Contents (Elt F)),
    StableHlo.unary main_v2720 main_v2722 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_873 (constant S_ .f32 0xC1F00000#32),
    StableHlo.nullary main_cst_874 (constant S_ .f32 0x41F00000#32) ]

set_option maxRecDepth 8192 in
/-- The window is that straight line: each clip function unfolded at its calls, the sequencing reassociated. -/
theorem part_eq_59 (d : Dev nD) : main_part59 (F := F) d = seq ops59 := by
  simp only [main_part59, fn_clip_6.body, seq, bind_assoc, pure_bind]
  rfl

/-- Every operation of the window touches TensorCore references only. -/
theorem sub_59 : (ops59 : List (HloOp τ sig (Elt F))).Forall fun op => op.bufs ⊆ tcRefs τ sig :=
  ⟨unary_bufs_sub .., binary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., nullary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., unary_bufs_sub .., binary_bufs_sub .., binary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub ..⟩

/-- Every operation of the window determines all it writes. -/
theorem fresh_59 : (ops59 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_59 (V : Valuation τ sig (Elt F)) :
    after ops59 V (main_arg0 : DevRef τ sig) = V (main_arg0 : DevRef τ sig) := by
  simp only [after_cons, after_nil]
  rfl

/-- The operations of @main's statements 3601 … 3660, in order (90 of them): a statement's own operation, or, for a call
    of a clip function, the six operations of its body over that call's buffers. -/
abbrev ops60 : List (HloOp τ sig (Elt F)) :=
  [ StableHlo.TRef.unary (.of main_cst_873 : StableHlo.TRef sig ⟨S_, .f32⟩) main_call250.v0 id,
    StableHlo.TRef.unary main_call250.v0 main_call250.v1 (broadcastInDim S32768x2 ![] bcast_S_S32768x2),
    StableHlo.TRef.binary main_call250.v1 (.of main_v2721 : StableHlo.TRef sig ⟨S32768x2, .f32⟩) main_call250.v2 maximumf,
    StableHlo.TRef.unary (.of main_cst_874 : StableHlo.TRef sig ⟨S_, .f32⟩) main_call250.v3 id,
    StableHlo.TRef.unary main_call250.v3 main_call250.v4 (broadcastInDim S32768x2 ![] bcast_S_S32768x2),
    StableHlo.TRef.binary main_call250.v4 main_call250.v2 main_call250.v5 minimumf,
    StableHlo.nullary main_cst_875 (constant S_ .f32 0xC1F00000#32),
    StableHlo.nullary main_cst_876 (constant S_ .f32 0x41F00000#32),
    StableHlo.TRef.unary (.of main_cst_875 : StableHlo.TRef sig ⟨S_, .f32⟩) main_call251.v0 id,
    StableHlo.TRef.unary main_call251.v0 main_call251.v1 (broadcastInDim S32768x2 ![] bcast_S_S32768x2),
    StableHlo.TRef.binary main_call251.v1 (.of main_v2722 : StableHlo.TRef sig ⟨S32768x2, .f32⟩) main_call251.v2 maximumf,
    StableHlo.TRef.unary (.of main_cst_876 : StableHlo.TRef sig ⟨S_, .f32⟩) main_call251.v3 id,
    StableHlo.TRef.unary main_call251.v3 main_call251.v4 (broadcastInDim S32768x2 ![] bcast_S_S32768x2),
    StableHlo.TRef.binary main_call251.v4 main_call251.v2 main_call251.v5 minimumf,
    StableHlo.unary main_v2723 main_v2725 (Host.sign : (⟨S32768x2, .f32⟩ : BufTy).Contents (Elt F) → (⟨S32768x2, .f32⟩ : BufTy).Contents (Elt F)),
    StableHlo.unary main_v2724 main_v2726 (Host.sign : (⟨S32768x2, .f32⟩ : BufTy).Contents (Elt F) → (⟨S32768x2, .f32⟩ : BufTy).Contents (Elt F)),
    StableHlo.binary main_v2725 main_v2726 main_v2727 (mulf : (⟨S32768x2, .f32⟩ : BufTy).Contents (Elt F) → (⟨S32768x2, .f32⟩ : BufTy).Contents (Elt F) → (⟨S32768x2, .f32⟩ : BufTy).Contents (Elt F)),
    StableHlo.unary main_v2723 main_v2728 (Host.absf : (⟨S32768x2, .f32⟩ : BufTy).Contents (Elt F) → (⟨S32768x2, .f32⟩ : BufTy).Contents (Elt F)),
    StableHlo.unary main_v2724 main_v2729 (Host.absf : (⟨S32768x2, .f32⟩ : BufTy).Contents (Elt F) → (⟨S32768x2, .f32⟩ : BufTy).Contents (Elt F)),
    StableHlo.binary main_v2728 main_v2729 main_v2730 (minimumf : (⟨S32768x2, .f32⟩ : BufTy).Contents (Elt F) → (⟨S32768x2, .f32⟩ : BufTy).Contents (Elt F) → (⟨S32768x2, .f32⟩ : BufTy).Contents (Elt F)),
    StableHlo.binary main_v2727 main_v2730 main_v2731 (mulf : (⟨S32768x2, .f32⟩ : BufTy).Contents (Elt F) → (⟨S32768x2, .f32⟩ : BufTy).Contents (Elt F) → (⟨S32768x2, .f32⟩ : BufTy).Contents (Elt F)),
    StableHlo.unary main_v2731 main_v2732 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2731 main_v2733 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_877 (constant S_ .f32 0xC1F00000#32),
    StableHlo.nullary main_cst_878 (constant S_ .f32 0x41F00000#32),
    StableHlo.TRef.unary (.of main_cst_877 : StableHlo.TRef sig ⟨S_, .f32⟩) main_call252.v0 id,
    StableHlo.TRef.unary main_call252.v0 main_call252.v1 (broadcastInDim S32768x1 ![] bcast_S_S32768x1),
    StableHlo.TRef.binary main_call252.v1 (.of main_v2732 : StableHlo.TRef sig ⟨S32768x1, .f32⟩) main_call252.v2 maximumf,
    StableHlo.TRef.unary (.of main_cst_878 : StableHlo.TRef sig ⟨S_, .f32⟩) main_call252.v3 id,
    StableHlo.TRef.unary main_call252.v3 main_call252.v4 (broadcastInDim S32768x1 ![] bcast_S_S32768x1),
    StableHlo.TRef.binary main_call252.v4 main_call252.v2 main_call252.v5 minimumf,
    StableHlo.nullary main_cst_879 (constant S_ .f32 0xC1F00000#32),
    StableHlo.nullary main_cst_880 (constant S_ .f32 0x41F00000#32),
    StableHlo.TRef.unary (.of main_cst_879 : StableHlo.TRef sig ⟨S_, .f32⟩) main_call253.v0 id,
    StableHlo.TRef.unary main_call253.v0 main_call253.v1 (broadcastInDim S32768x1 ![] bcast_S_S32768x1),
    StableHlo.TRef.binary main_call253.v1 (.of main_v2733 : StableHlo.TRef sig ⟨S32768x1, .f32⟩) main_call253.v2 maximumf,
    StableHlo.TRef.unary (.of main_cst_880 : StableHlo.TRef sig ⟨S_, .f32⟩) main_call253.v3 id,
    StableHlo.TRef.unary main_call253.v3 main_call253.v4 (broadcastInDim S32768x1 ![] bcast_S_S32768x1),
    StableHlo.TRef.binary main_call253.v4 main_call253.v2 main_call253.v5 minimumf,
    StableHlo.unary main_v2734 main_v2736 (Host.sign : (⟨S32768x1, .f32⟩ : BufTy).Contents (Elt F) → (⟨S32768x1, .f32⟩ : BufTy).Contents (Elt F)),
    StableHlo.unary main_v2735 main_v2737 (Host.sign : (⟨S32768x1, .f32⟩ : BufTy).Contents (Elt F) → (⟨S32768x1, .f32⟩ : BufTy).Contents (Elt F)),
    StableHlo.binary main_v2736 main_v2737 main_v2738 (mulf : (⟨S32768x1, .f32⟩ : BufTy).Contents (Elt F) → (⟨S32768x1, .f32⟩ : BufTy).Contents (Elt F) → (⟨S32768x1, .f32⟩ : BufTy).Contents (Elt F)),
    StableHlo.unary main_v2734 main_v2739 (Host.absf : (⟨S32768x1, .f32⟩ : BufTy).Contents (Elt F) → (⟨S32768x1, .f32⟩ : BufTy).Contents (Elt F)),
    StableHlo.unary main_v2735 main_v2740 (Host.absf : (⟨S32768x1, .f32⟩ : BufTy).Contents (Elt F) → (⟨S32768x1, .f32⟩ : BufTy).Contents (Elt F)),
    StableHlo.binary main_v2739 main_v2740 main_v2741 (minimumf : (⟨S32768x1, .f32⟩ : BufTy).Contents (Elt F) → (⟨S32768x1, .f32⟩ : BufTy).Contents (Elt F) → (⟨S32768x1, .f32⟩ : BufTy).Contents (Elt F)),
    StableHlo.binary main_v2738 main_v2741 main_v2742 (mulf : (⟨S32768x1, .f32⟩ : BufTy).Contents (Elt F) → (⟨S32768x1, .f32⟩ : BufTy).Contents (Elt F) → (⟨S32768x1, .f32⟩ : BufTy).Contents (Elt F)),
    StableHlo.nullary main_cst_881 (constant S_ .f32 0x00000000#32),
    StableHlo.unary main_cst_881 main_v2743 (broadcastInDim S32768x1 ![] bcast_S_S32768x1 : (⟨S_, .f32⟩ : BufTy).Contents (Elt F) → (⟨S32768x1, .f32⟩ : BufTy).Contents (Elt F)),
    StableHlo.nullary main_cst_882 (constant S_ .f32 0x40000000#32),
    StableHlo.unary main_cst_882 main_v2744 (broadcastInDim S32768x1 ![] bcast_S_S32768x1 : (⟨S_, .f32⟩ : BufTy).Contents (Elt F) → (⟨S32768x1, .f32⟩ : BufTy).Contents (Elt F)),
    StableHlo.binary main_v2744 main_v2743 main_v2745 (mulf : (⟨S32768x1, .f32⟩ : BufTy).Contents (Elt F) → (⟨S32768x1, .f32⟩ : BufTy).Contents (Elt F) → (⟨S32768x1, .f32⟩ : BufTy).Contents (Elt F)),
    StableHlo.nullary main_cst_883 (constant S_ .f32 0x3F800000#32),
    StableHlo.unary main_cst_883 main_v2746 (broadcastInDim S32768x1 ![] bcast_S_S32768x1 : (⟨S_, .f32⟩ : BufTy).Contents (Elt F) → (⟨S32768x1, .f32⟩ : BufTy).Contents (Elt F)),
    StableHlo.binary main_v2746 main_v2745 main_v2747 (subf : (⟨S32768x1, .f32⟩ : BufTy).Contents (Elt F) → (⟨S32768x1, .f32⟩ : BufTy).Contents (Elt F) → (⟨S32768x1, .f32⟩ : BufTy).Contents (Elt F)),
    StableHlo.binary main_v2747 main_v2732 main_v2748 (mulf : (⟨S32768x1, .f32⟩ : BufTy).Contents (Elt F) → (⟨S32768x1, .f32⟩ : BufTy).Contents (Elt F) → (⟨S32768x1, .f32⟩ : BufTy).Contents (Elt F)),
    StableHlo.binary main_v2748 main_v2733 main_v2749 (addf : (⟨S32768x1, .f32⟩ : BufTy).Contents (Elt F) → (⟨S32768x1, .f32⟩ : BufTy).Contents (Elt F) → (⟨S32768x1, .f32⟩ : BufTy).Contents (Elt F)),
    StableHlo.nullary main_cst_884 (constant S_ .f32 0x00000000#32),
    StableHlo.unary main_cst_884 main_v2750 (broadcastInDim S32768x1 ![] bcast_S_S32768x1 : (⟨S_, .f32⟩ : BufTy).Contents (Elt F) → (⟨S32768x1, .f32⟩ : BufTy).Contents (Elt F)),
    StableHlo.binary main_v2743 main_v2750 main_v2751 (cmpf .une : (⟨S32768x1, .f32⟩ : BufTy).Contents (Elt F) → (⟨S32768x1, .f32⟩ : BufTy).Contents (Elt F) → (⟨S32768x1, .i1⟩ : BufTy).Contents (Elt F)),
    StableHlo.unary main_v2751 main_v2752 (uitofp .f32 : (⟨S32768x1, .i1⟩ : BufTy).Contents (Elt F) → (⟨S32768x1, .f32⟩ : BufTy).Contents (Elt F)),
    StableHlo.binary main_v2752 main_v2750 main_v2753 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2743 main_v2750 main_v2754 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_885 (constant S_ .f32 0x40000000#32),
    StableHlo.unary main_cst_885 main_v2755 (broadcastInDim S32768x2 ![] bcast_S_S32768x2 : (⟨S_, .f32⟩ : BufTy).Contents (Elt F) → (⟨S32768x2, .f32⟩ : BufTy).Contents (Elt F)),
    StableHlo.binary main_v2755 main_v2753 main_v2756 (mulf : (⟨S32768x2, .f32⟩ : BufTy).Contents (Elt F) → (⟨S32768x2, .f32⟩ : BufTy).Contents (Elt F) → (⟨S32768x2, .f32⟩ : BufTy).Contents (Elt F)),
    StableHlo.nullary main_cst_886 (constant S_ .f32 0x3F800000#32),
    StableHlo.unary main_cst_886 main_v2757 (broadcastInDim S32768x2 ![] bcast_S_S32768x2 : (⟨S_, .f32⟩ : BufTy).Contents (Elt F) → (⟨S32768x2, .f32⟩ : BufTy).Contents (Elt F)),
    StableHlo.binary main_v2757 main_v2756 main_v2758 (subf : (⟨S32768x2, .f32⟩ : BufTy).Contents (Elt F) → (⟨S32768x2, .f32⟩ : BufTy).Contents (Elt F) → (⟨S32768x2, .f32⟩ : BufTy).Contents (Elt F)),
    StableHlo.binary main_v2758 main_v2721 main_v2759 (mulf : (⟨S32768x2, .f32⟩ : BufTy).Contents (Elt F) → (⟨S32768x2, .f32⟩ : BufTy).Contents (Elt F) → (⟨S32768x2, .f32⟩ : BufTy).Contents (Elt F)),
    StableHlo.binary main_v2759 main_v2722 main_v2760 (addf : (⟨S32768x2, .f32⟩ : BufTy).Contents (Elt F) → (⟨S32768x2, .f32⟩ : BufTy).Contents (Elt F) → (⟨S32768x2, .f32⟩ : BufTy).Contents (Elt F)),
    StableHlo.unary main_v2760 main_v2761 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2760 main_v2762 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_887 (constant S_ .f32 0xC1F00000#32),
    StableHlo.nullary main_cst_888 (constant S_ .f32 0x41F00000#32),
    StableHlo.TRef.unary (.of main_cst_887 : StableHlo.TRef sig ⟨S_, .f32⟩) main_call254.v0 id,
    StableHlo.TRef.unary main_call254.v0 main_call254.v1 (broadcastInDim S32768x1 ![] bcast_S_S32768x1),
    StableHlo.TRef.binary main_call254.v1 (.of main_v2761 : StableHlo.TRef sig ⟨S32768x1, .f32⟩) main_call254.v2 maximumf,
    StableHlo.TRef.unary (.of main_cst_888 : StableHlo.TRef sig ⟨S_, .f32⟩) main_call254.v3 id,
    StableHlo.TRef.unary main_call254.v3 main_call254.v4 (broadcastInDim S32768x1 ![] bcast_S_S32768x1),
    StableHlo.TRef.binary main_call254.v4 main_call254.v2 main_call254.v5 minimumf,
    StableHlo.nullary main_cst_889 (constant S_ .f32 0xC1F00000#32),
    StableHlo.nullary main_cst_890 (constant S_ .f32 0x41F00000#32),
    StableHlo.TRef.unary (.of main_cst_889 : StableHlo.TRef sig ⟨S_, .f32⟩) main_call255.v0 id,
    StableHlo.TRef.unary main_call255.v0 main_call255.v1 (broadcastInDim S32768x1 ![] bcast_S_S32768x1),
    StableHlo.TRef.binary main_call255.v1 (.of main_v2762 : StableHlo.TRef sig ⟨S32768x1, .f32⟩) main_call255.v2 maximumf,
    StableHlo.TRef.unary (.of main_cst_890 : StableHlo.TRef sig ⟨S_, .f32⟩) main_call255.v3 id,
    StableHlo.TRef.unary main_call255.v3 main_call255.v4 (broadcastInDim S32768x1 ![] bcast_S_S32768x1),
    StableHlo.TRef.binary main_call255.v4 main_call255.v2 main_call255.v5 minimumf,
    StableHlo.unary main_v2763 main_v2765 (Host.sign : (⟨S32768x1, .f32⟩ : BufTy).Contents (Elt F) → (⟨S32768x1, .f32⟩ : BufTy).Contents (Elt F)),
    StableHlo.unary main_v2764 main_v2766 (Host.sign : (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_60 (d : Dev nD) : main_part60 (F := F) d = seq ops60 := by
  simp only [main_part60, fn_clip_5.body, fn_clip_6.body, seq, bind_assoc, pure_bind]
  rfl

/-- Every operation of the window touches TensorCore references only. -/
theorem sub_60 : (ops60 : List (HloOp τ sig (Elt F))).Forall fun op => op.bufs ⊆ tcRefs τ sig :=
  ⟨unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., nullary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..⟩

/-- Every operation of the window determines all it writes. -/
theorem fresh_60 : (ops60 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_60 (V : Valuation τ sig (Elt F)) :
    after ops60 V (main_arg0 : DevRef τ sig) = V (main_arg0 : DevRef τ sig) := by
  simp only [after_cons, after_nil]
  rfl

/-- The operations of @main's statements 3661 … 3720, in order (65 of them): a statement's own operation, or, for a call
    of a clip function, the six operations of its body over that call's buffers. -/
abbrev ops61 : List (HloOp τ sig (Elt F)) :=
  [ StableHlo.binary main_v2765 main_v2766 main_v2767 (mulf : (⟨S32768x1, .f32⟩ : BufTy).Contents (Elt F) → (⟨S32768x1, .f32⟩ : BufTy).Contents (Elt F) → (⟨S32768x1, .f32⟩ : BufTy).Contents (Elt F)),
    StableHlo.unary main_v2763 main_v2768 (Host.absf : (⟨S32768x1, .f32⟩ : BufTy).Contents (Elt F) → (⟨S32768x1, .f32⟩ : BufTy).Contents (Elt F)),
    StableHlo.unary main_v2764 main_v2769 (Host.absf : (⟨S32768x1, .f32⟩ : BufTy).Contents (Elt F) → (⟨S32768x1, .f32⟩ : BufTy).Contents (Elt F)),
    StableHlo.binary main_v2768 main_v2769 main_v2770 (minimumf : (⟨S32768x1, .f32⟩ : BufTy).Contents (Elt F) → (⟨S32768x1, .f32⟩ : BufTy).Contents (Elt F) → (⟨S32768x1, .f32⟩ : BufTy).Contents (Elt F)),
    StableHlo.binary main_v2767 main_v2770 main_v2771 (mulf : (⟨S32768x1, .f32⟩ : BufTy).Contents (Elt F) → (⟨S32768x1, .f32⟩ : BufTy).Contents (Elt F) → (⟨S32768x1, .f32⟩ : BufTy).Contents (Elt F)),
    StableHlo.nullary main_cst_891 (constant S_ .f32 0x00000000#32),
    StableHlo.unary main_cst_891 main_v2772 (broadcastInDim S32768x1 ![] bcast_S_S32768x1 : (⟨S_, .f32⟩ : BufTy).Contents (Elt F) → (⟨S32768x1, .f32⟩ : BufTy).Contents (Elt F)),
    StableHlo.nullary main_cst_892 (constant S_ .f32 0x40000000#32),
    StableHlo.unary main_cst_892 main_v2773 (broadcastInDim S32768x1 ![] bcast_S_S32768x1 : (⟨S_, .f32⟩ : BufTy).Contents (Elt F) → (⟨S32768x1, .f32⟩ : BufTy).Contents (Elt F)),
    StableHlo.binary main_v2773 main_v2772 main_v2774 (mulf : (⟨S32768x1, .f32⟩ : BufTy).Contents (Elt F) → (⟨S32768x1, .f32⟩ : BufTy).Contents (Elt F) → (⟨S32768x1, .f32⟩ : BufTy).Contents (Elt F)),
    StableHlo.nullary main_cst_893 (constant S_ .f32 0x3F800000#32),
    StableHlo.unary main_cst_893 main_v2775 (broadcastInDim S32768x1 ![] bcast_S_S32768x1 : (⟨S_, .f32⟩ : BufTy).Contents (Elt F) → (⟨S32768x1, .f32⟩ : BufTy).Contents (Elt F)),
    StableHlo.binary main_v2775 main_v2774 main_v2776 (subf : (⟨S32768x1, .f32⟩ : BufTy).Contents (Elt F) → (⟨S32768x1, .f32⟩ : BufTy).Contents (Elt F) → (⟨S32768x1, .f32⟩ : BufTy).Contents (Elt F)),
    StableHlo.binary main_v2776 main_v2761 main_v2777 (mulf : (⟨S32768x1, .f32⟩ : BufTy).Contents (Elt F) → (⟨S32768x1, .f32⟩ : BufTy).Contents (Elt F) → (⟨S32768x1, .f32⟩ : BufTy).Contents (Elt F)),
    StableHlo.binary main_v2777 main_v2762 main_v2778 (addf : (⟨S32768x1, .f32⟩ : BufTy).Contents (Elt F) → (⟨S32768x1, .f32⟩ : BufTy).Contents (Elt F) → (⟨S32768x1, .f32⟩ : BufTy).Contents (Elt F)),
    StableHlo.nullary main_cst_894 (constant S_ .f32 0x00000000#32),
    StableHlo.unary main_cst_894 main_v2779 (broadcastInDim S32768x1 ![] bcast_S_S32768x1 : (⟨S_, .f32⟩ : BufTy).Contents (Elt F) → (⟨S32768x1, .f32⟩ : BufTy).Contents (Elt F)),
    StableHlo.binary main_v2772 main_v2779 main_v2780 (cmpf .une : (⟨S32768x1, .f32⟩ : BufTy).Contents (Elt F) → (⟨S32768x1, .f32⟩ : BufTy).Contents (Elt F) → (⟨S32768x1, .i1⟩ : BufTy).Contents (Elt F)),
    StableHlo.unary main_v2780 main_v2781 (uitofp .f32 : (⟨S32768x1, .i1⟩ : BufTy).Contents (Elt F) → (⟨S32768x1, .f32⟩ : BufTy).Contents (Elt F)),
    StableHlo.binary main_v2781 main_v2779 main_v2782 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2772 main_v2779 main_v2783 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2753 main_v2782 main_v2784 (cmpf .une : (⟨S32768x2, .f32⟩ : BufTy).Contents (Elt F) → (⟨S32768x2, .f32⟩ : BufTy).Contents (Elt F) → (⟨S32768x2, .i1⟩ : BufTy).Contents (Elt F)),
    StableHlo.unary main_v2784 main_v2785 (uitofp .f32 : (⟨S32768x2, .i1⟩ : BufTy).Contents (Elt F) → (⟨S32768x2, .f32⟩ : BufTy).Contents (Elt F)),
    StableHlo.binary main_v2785 main_v2782 main_v2786 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v2754 main_v2783 main_v2787 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v2713 main_v2786 main_v2788 (cmpf .une : (⟨S32768x4, .f32⟩ : BufTy).Contents (Elt F) → (⟨S32768x4, .f32⟩ : BufTy).Contents (Elt F) → (⟨S32768x4, .i1⟩ : BufTy).Contents (Elt F)),
    StableHlo.unary main_v2788 main_v2789 (uitofp .f32 : (⟨S32768x4, .i1⟩ : BufTy).Contents (Elt F) → (⟨S32768x4, .f32⟩ : BufTy).Contents (Elt F)),
    StableHlo.binary main_v2789 main_v2786 main_v2790 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v2714 main_v2787 main_v2791 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v2629 main_v2790 main_v2792 (cmpf .une : (⟨S32768x8, .f32⟩ : BufTy).Contents (Elt F) → (⟨S32768x8, .f32⟩ : BufTy).Contents (Elt F) → (⟨S32768x8, .i1⟩ : BufTy).Contents (Elt F)),
    StableHlo.unary main_v2792 main_v2793 (uitofp .f32 : (⟨S32768x8, .i1⟩ : BufTy).Contents (Elt F) → (⟨S32768x8, .f32⟩ : BufTy).Contents (Elt F)),
    StableHlo.binary main_v2793 main_v2790 main_v2794 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v2630 main_v2791 main_v2795 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v2457 main_v2794 main_v2796 (cmpf .une : (⟨S32768x16, .f32⟩ : BufTy).Contents (Elt F) → (⟨S32768x16, .f32⟩ : BufTy).Contents (Elt F) → (⟨S32768x16, .i1⟩ : BufTy).Contents (Elt F)),
    StableHlo.unary main_v2796 main_v2797 (uitofp .f32 : (⟨S32768x16, .i1⟩ : BufTy).Contents (Elt F) → (⟨S32768x16, .f32⟩ : BufTy).Contents (Elt F)),
    StableHlo.binary main_v2797 main_v2794 main_v2798 ((fun a b => concatenate S32768x32 1 [⟨S32768x16, a⟩, ⟨S32768x16, b⟩] concatenates_S32768x16_S32768x16_S32768x32_d1) : (⟨S32768x16, .f32⟩ : BufTy).Contents (Elt F) → (⟨S32768x16, .f32⟩ : BufTy).Contents (Elt F) → (⟨S32768x32, .f32⟩ : BufTy).Contents (Elt F)),
    StableHlo.binary main_v2458 main_v2795 main_v2799 ((fun a b => concatenate S32768x32 1 [⟨S32768x16, a⟩, ⟨S32768x16, b⟩] concatenates_S32768x16_S32768x16_S32768x32_d1) : (⟨S32768x16, .f32⟩ : BufTy).Contents (Elt F) → (⟨S32768x16, .f32⟩ : BufTy).Contents (Elt F) → (⟨S32768x32, .f32⟩ : BufTy).Contents (Elt F)),
    StableHlo.binary main_v2109 main_v2798 main_v2800 (cmpf .une : (⟨S32768x32, .f32⟩ : BufTy).Contents (Elt F) → (⟨S32768x32, .f32⟩ : BufTy).Contents (Elt F) → (⟨S32768x32, .i1⟩ : BufTy).Contents (Elt F)),
    StableHlo.unary main_v2800 main_v2801 (uitofp .f32 : (⟨S32768x32, .i1⟩ : BufTy).Contents (Elt F) → (⟨S32768x32, .f32⟩ : BufTy).Contents (Elt F)),
    StableHlo.binary main_v2801 main_v2798 main_v2802 ((fun a b => concatenate S32768x64 1 [⟨S32768x32, a⟩, ⟨S32768x32, b⟩] concatenates_S32768x32_S32768x32_S32768x64_d1) : (⟨S32768x32, .f32⟩ : BufTy).Contents (Elt F) → (⟨S32768x32, .f32⟩ : BufTy).Contents (Elt F) → (⟨S32768x64, .f32⟩ : BufTy).Contents (Elt F)),
    StableHlo.binary main_v2110 main_v2799 main_v2803 ((fun a b => concatenate S32768x64 1 [⟨S32768x32, a⟩, ⟨S32768x32, b⟩] concatenates_S32768x32_S32768x32_S32768x64_d1) : (⟨S32768x32, .f32⟩ : BufTy).Contents (Elt F) → (⟨S32768x32, .f32⟩ : BufTy).Contents (Elt F) → (⟨S32768x64, .f32⟩ : BufTy).Contents (Elt F)),
    StableHlo.binary main_v1409 main_v2802 main_v2804 (cmpf .une : (⟨S32768x64, .f32⟩ : BufTy).Contents (Elt F) → (⟨S32768x64, .f32⟩ : BufTy).Contents (Elt F) → (⟨S32768x64, .i1⟩ : BufTy).Contents (Elt F)),
    StableHlo.unary main_v2804 main_v2805 (uitofp .f32 : (⟨S32768x64, .i1⟩ : BufTy).Contents (Elt F) → (⟨S32768x64, .f32⟩ : BufTy).Contents (Elt F)),
    StableHlo.binary main_v2805 main_v2802 main_v2806 ((fun a b => concatenate S32768x128 1 [⟨S32768x64, a⟩, ⟨S32768x64, b⟩] concatenates_S32768x64_S32768x64_S32768x128_d1) : (⟨S32768x64, .f32⟩ : BufTy).Contents (Elt F) → (⟨S32768x64, .f32⟩ : BufTy).Contents (Elt F) → (⟨S32768x128, .f32⟩ : BufTy).Contents (Elt F)),
    StableHlo.binary main_v1410 main_v2803 main_v2807 ((fun a b => concatenate S32768x128 1 [⟨S32768x64, a⟩, ⟨S32768x64, b⟩] concatenates_S32768x64_S32768x64_S32768x128_d1) : (⟨S32768x64, .f32⟩ : BufTy).Contents (Elt F) → (⟨S32768x64, .f32⟩ : BufTy).Contents (Elt F) → (⟨S32768x128, .f32⟩ : BufTy).Contents (Elt F)),
    StableHlo.nullary main_cst_895 (constant S_ .f32 0x40000000#32),
    StableHlo.unary main_cst_895 main_v2808 (broadcastInDim S32768x128 ![] bcast_S_S32768x128 : (⟨S_, .f32⟩ : BufTy).Contents (Elt F) → (⟨S32768x128, .f32⟩ : BufTy).Contents (Elt F)),
    StableHlo.binary main_v2808 main_v2806 main_v2809 (mulf : (⟨S32768x128, .f32⟩ : BufTy).Contents (Elt F) → (⟨S32768x128, .f32⟩ : BufTy).Contents (Elt F) → (⟨S32768x128, .f32⟩ : BufTy).Contents (Elt F)),
    StableHlo.nullary main_cst_896 (constant S_ .f32 0x3F800000#32),
    StableHlo.unary main_cst_896 main_v2810 (broadcastInDim S32768x128 ![] bcast_S_S32768x128 : (⟨S_, .f32⟩ : BufTy).Contents (Elt F) → (⟨S32768x128, .f32⟩ : BufTy).Contents (Elt F)),
    StableHlo.binary main_v2810 main_v2809 main_v2811 (subf : (⟨S32768x128, .f32⟩ : BufTy).Contents (Elt F) → (⟨S32768x128, .f32⟩ : BufTy).Contents (Elt F) → (⟨S32768x128, .f32⟩ : BufTy).Contents (Elt F)),
    StableHlo.binary main_v2811 main_v2 main_v2812 (mulf : (⟨S32768x128, .f32⟩ : BufTy).Contents (Elt F) → (⟨S32768x128, .f32⟩ : BufTy).Contents (Elt F) → (⟨S32768x128, .f32⟩ : BufTy).Contents (Elt F)),
    StableHlo.binary main_v2812 main_v3 main_v2813 (addf : (⟨S32768x128, .f32⟩ : BufTy).Contents (Elt F) → (⟨S32768x128, .f32⟩ : BufTy).Contents (Elt F) → (⟨S32768x128, .f32⟩ : BufTy).Contents (Elt F)),
    StableHlo.unary main_v2813 main_v2814 ((extractStridedSlice S32768x64 ![0, 0] · slices_S32768x128_S32768x64_0_0) : (⟨S32768x128, .f32⟩ : BufTy).Contents (Elt F) → (⟨S32768x64, .f32⟩ : BufTy).Contents (Elt F)),
    StableHlo.unary main_v2813 main_v2815 ((extractStridedSlice S32768x64 ![0, 64] · slices_S32768x128_S32768x64_0_64) : (⟨S32768x128, .f32⟩ : BufTy).Contents (Elt F) → (⟨S32768x64, .f32⟩ : BufTy).Contents (Elt F)),
    StableHlo.nullary main_cst_897 (constant S_ .f32 0xC1F00000#32),
    StableHlo.nullary main_cst_898 (constant S_ .f32 0x41F00000#32),
    StableHlo.TRef.unary (.of main_cst_897 : StableHlo.TRef sig ⟨S_, .f32⟩) main_call256.v0 id,
    StableHlo.TRef.unary main_call256.v0 main_call256.v1 (broadcastInDim S32768x64 ![] bcast_S_S32768x64),
    StableHlo.TRef.binary main_call256.v1 (.of main_v2814 : StableHlo.TRef sig ⟨S32768x64, .f32⟩) main_call256.v2 maximumf,
    StableHlo.TRef.unary (.of main_cst_898 : StableHlo.TRef sig ⟨S_, .f32⟩) main_call256.v3 id,
    StableHlo.TRef.unary main_call256.v3 main_call256.v4 (broadcastInDim S32768x64 ![] bcast_S_S32768x64),
    StableHlo.TRef.binary main_call256.v4 main_call256.v2 main_call256.v5 minimumf,
    StableHlo.nullary main_cst_899 (constant S_ .f32 0xC1F00000#32),
    StableHlo.nullary main_cst_900 (constant S_ .f32 0x41F00000#32) ]

set_option maxRecDepth 8192 in
/-- The window is that straight line: each clip function unfolded at its calls, the sequencing reassociated. -/
theorem part_eq_61 (d : Dev nD) : main_part61 (F := F) d = seq ops61 := by
  simp only [main_part61, fn_clip_0.body, seq, bind_assoc, pure_bind]
  rfl

/-- Every operation of the window touches TensorCore references only. -/
theorem sub_61 : (ops61 : List (HloOp τ sig (Elt F))).Forall fun op => op.bufs ⊆ tcRefs τ sig :=
  ⟨binary_bufs_sub .., unary_bufs_sub .., unary_bufs_sub .., binary_bufs_sub .., binary_bufs_sub .., nullary_bufs_sub ..,
    unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    unary_bufs_sub .., binary_bufs_sub .., binary_bufs_sub .., binary_bufs_sub .., unary_bufs_sub .., binary_bufs_sub ..,
    binary_bufs_sub .., binary_bufs_sub .., unary_bufs_sub .., binary_bufs_sub .., binary_bufs_sub .., binary_bufs_sub ..,
    unary_bufs_sub .., binary_bufs_sub .., binary_bufs_sub .., binary_bufs_sub .., unary_bufs_sub .., binary_bufs_sub ..,
    binary_bufs_sub .., binary_bufs_sub .., unary_bufs_sub .., binary_bufs_sub .., binary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub ..⟩

/-- Every operation of the window determines all it writes. -/
theorem fresh_61 : (ops61 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl⟩

set_option maxRecDepth 8192 in
/-- The window writes no argument of @main: the argument's buffer holds after it what it held before. -/
theorem keep_61 (V : Valuation τ sig (Elt F)) :
    after ops61 V (main_arg0 : DevRef τ sig) = V (main_arg0 : DevRef τ sig) := by
  simp only [after_cons, after_nil]
  rfl

/-- The operations of @main's statements 3721 … 3780, in order (100 of them): a statement's own operation, or, for a call
    of a clip function, the six operations of its body over that call's buffers. -/
abbrev ops62 : List (HloOp τ sig (Elt F)) :=
  [ StableHlo.TRef.unary (.of main_cst_899 : StableHlo.TRef sig ⟨S_, .f32⟩) main_call257.v0 id,
    StableHlo.TRef.unary main_call257.v0 main_call257.v1 (broadcastInDim S32768x64 ![] bcast_S_S32768x64),
    StableHlo.TRef.binary main_call257.v1 (.of main_v2815 : StableHlo.TRef sig ⟨S32768x64, .f32⟩) main_call257.v2 maximumf,
    StableHlo.TRef.unary (.of main_cst_900 : StableHlo.TRef sig ⟨S_, .f32⟩) main_call257.v3 id,
    StableHlo.TRef.unary main_call257.v3 main_call257.v4 (broadcastInDim S32768x64 ![] bcast_S_S32768x64),
    StableHlo.TRef.binary main_call257.v4 main_call257.v2 main_call257.v5 minimumf,
    StableHlo.unary main_v2816 main_v2818 (Host.sign : (⟨S32768x64, .f32⟩ : BufTy).Contents (Elt F) → (⟨S32768x64, .f32⟩ : BufTy).Contents (Elt F)),
    StableHlo.unary main_v2817 main_v2819 (Host.sign : (⟨S32768x64, .f32⟩ : BufTy).Contents (Elt F) → (⟨S32768x64, .f32⟩ : BufTy).Contents (Elt F)),
    StableHlo.binary main_v2818 main_v2819 main_v2820 (mulf : (⟨S32768x64, .f32⟩ : BufTy).Contents (Elt F) → (⟨S32768x64, .f32⟩ : BufTy).Contents (Elt F) → (⟨S32768x64, .f32⟩ : BufTy).Contents (Elt F)),
    StableHlo.unary main_v2816 main_v2821 (Host.absf : (⟨S32768x64, .f32⟩ : BufTy).Contents (Elt F) → (⟨S32768x64, .f32⟩ : BufTy).Contents (Elt F)),
    StableHlo.unary main_v2817 main_v2822 (Host.absf : (⟨S32768x64, .f32⟩ : BufTy).Contents (Elt F) → (⟨S32768x64, .f32⟩ : BufTy).Contents (Elt F)),
    StableHlo.binary main_v2821 main_v2822 main_v2823 (minimumf : (⟨S32768x64, .f32⟩ : BufTy).Contents (Elt F) → (⟨S32768x64, .f32⟩ : BufTy).Contents (Elt F) → (⟨S32768x64, .f32⟩ : BufTy).Contents (Elt F)),
    StableHlo.binary main_v2820 main_v2823 main_v2824 (mulf : (⟨S32768x64, .f32⟩ : BufTy).Contents (Elt F) → (⟨S32768x64, .f32⟩ : BufTy).Contents (Elt F) → (⟨S32768x64, .f32⟩ : BufTy).Contents (Elt F)),
    StableHlo.unary main_v2824 main_v2825 ((extractStridedSlice S32768x32 ![0, 0] · slices_S32768x64_S32768x32_0_0) : (⟨S32768x64, .f32⟩ : BufTy).Contents (Elt F) → (⟨S32768x32, .f32⟩ : BufTy).Contents (Elt F)),
    StableHlo.unary main_v2824 main_v2826 ((extractStridedSlice S32768x32 ![0, 32] · slices_S32768x64_S32768x32_0_32) : (⟨S32768x64, .f32⟩ : BufTy).Contents (Elt F) → (⟨S32768x32, .f32⟩ : BufTy).Contents (Elt F)),
    StableHlo.nullary main_cst_901 (constant S_ .f32 0xC1F00000#32),
    StableHlo.nullary main_cst_902 (constant S_ .f32 0x41F00000#32),
    StableHlo.TRef.unary (.of main_cst_901 : StableHlo.TRef sig ⟨S_, .f32⟩) main_call258.v0 id,
    StableHlo.TRef.unary main_call258.v0 main_call258.v1 (broadcastInDim S32768x32 ![] bcast_S_S32768x32),
    StableHlo.TRef.binary main_call258.v1 (.of main_v2825 : StableHlo.TRef sig ⟨S32768x32, .f32⟩) main_call258.v2 maximumf,
    StableHlo.TRef.unary (.of main_cst_902 : StableHlo.TRef sig ⟨S_, .f32⟩) main_call258.v3 id,
    StableHlo.TRef.unary main_call258.v3 main_call258.v4 (broadcastInDim S32768x32 ![] bcast_S_S32768x32),
    StableHlo.TRef.binary main_call258.v4 main_call258.v2 main_call258.v5 minimumf,
    StableHlo.nullary main_cst_903 (constant S_ .f32 0xC1F00000#32),
    StableHlo.nullary main_cst_904 (constant S_ .f32 0x41F00000#32),
    StableHlo.TRef.unary (.of main_cst_903 : StableHlo.TRef sig ⟨S_, .f32⟩) main_call259.v0 id,
    StableHlo.TRef.unary main_call259.v0 main_call259.v1 (broadcastInDim S32768x32 ![] bcast_S_S32768x32),
    StableHlo.TRef.binary main_call259.v1 (.of main_v2826 : StableHlo.TRef sig ⟨S32768x32, .f32⟩) main_call259.v2 maximumf,
    StableHlo.TRef.unary (.of main_cst_904 : StableHlo.TRef sig ⟨S_, .f32⟩) main_call259.v3 id,
    StableHlo.TRef.unary main_call259.v3 main_call259.v4 (broadcastInDim S32768x32 ![] bcast_S_S32768x32),
    StableHlo.TRef.binary main_call259.v4 main_call259.v2 main_call259.v5 minimumf,
    StableHlo.unary main_v2827 main_v2829 (Host.sign : (⟨S32768x32, .f32⟩ : BufTy).Contents (Elt F) → (⟨S32768x32, .f32⟩ : BufTy).Contents (Elt F)),
    StableHlo.unary main_v2828 main_v2830 (Host.sign : (⟨S32768x32, .f32⟩ : BufTy).Contents (Elt F) → (⟨S32768x32, .f32⟩ : BufTy).Contents (Elt F)),
    StableHlo.binary main_v2829 main_v2830 main_v2831 (mulf : (⟨S32768x32, .f32⟩ : BufTy).Contents (Elt F) → (⟨S32768x32, .f32⟩ : BufTy).Contents (Elt F) → (⟨S32768x32, .f32⟩ : BufTy).Contents (Elt F)),
    StableHlo.unary main_v2827 main_v2832 (Host.absf : (⟨S32768x32, .f32⟩ : BufTy).Contents (Elt F) → (⟨S32768x32, .f32⟩ : BufTy).Contents (Elt F)),
    StableHlo.unary main_v2828 main_v2833 (Host.absf : (⟨S32768x32, .f32⟩ : BufTy).Contents (Elt F) → (⟨S32768x32, .f32⟩ : BufTy).Contents (Elt F)),
    StableHlo.binary main_v2832 main_v2833 main_v2834 (minimumf : (⟨S32768x32, .f32⟩ : BufTy).Contents (Elt F) → (⟨S32768x32, .f32⟩ : BufTy).Contents (Elt F) → (⟨S32768x32, .f32⟩ : BufTy).Contents (Elt F)),
    StableHlo.binary main_v2831 main_v2834 main_v2835 (mulf : (⟨S32768x32, .f32⟩ : BufTy).Contents (Elt F) → (⟨S32768x32, .f32⟩ : BufTy).Contents (Elt F) → (⟨S32768x32, .f32⟩ : BufTy).Contents (Elt F)),
    StableHlo.unary main_v2835 main_v2836 ((extractStridedSlice S32768x16 ![0, 0] · slices_S32768x32_S32768x16_0_0) : (⟨S32768x32, .f32⟩ : BufTy).Contents (Elt F) → (⟨S32768x16, .f32⟩ : BufTy).Contents (Elt F)),
    StableHlo.unary main_v2835 main_v2837 ((extractStridedSlice S32768x16 ![0, 16] · slices_S32768x32_S32768x16_0_16) : (⟨S32768x32, .f32⟩ : BufTy).Contents (Elt F) → (⟨S32768x16, .f32⟩ : BufTy).Contents (Elt F)),
    StableHlo.nullary main_cst_905 (constant S_ .f32 0xC1F00000#32),
    StableHlo.nullary main_cst_906 (constant S_ .f32 0x41F00000#32),
    StableHlo.TRef.unary (.of main_cst_905 : StableHlo.TRef sig ⟨S_, .f32⟩) main_call260.v0 id,
    StableHlo.TRef.unary main_call260.v0 main_call260.v1 (broadcastInDim S32768x16 ![] bcast_S_S32768x16),
    StableHlo.TRef.binary main_call260.v1 (.of main_v2836 : StableHlo.TRef sig ⟨S32768x16, .f32⟩) main_call260.v2 maximumf,
    StableHlo.TRef.unary (.of main_cst_906 : StableHlo.TRef sig ⟨S_, .f32⟩) main_call260.v3 id,
    StableHlo.TRef.unary main_call260.v3 main_call260.v4 (broadcastInDim S32768x16 ![] bcast_S_S32768x16),
    StableHlo.TRef.binary main_call260.v4 main_call260.v2 main_call260.v5 minimumf,
    StableHlo.nullary main_cst_907 (constant S_ .f32 0xC1F00000#32),
    StableHlo.nullary main_cst_908 (constant S_ .f32 0x41F00000#32),
    StableHlo.TRef.unary (.of main_cst_907 : StableHlo.TRef sig ⟨S_, .f32⟩) main_call261.v0 id,
    StableHlo.TRef.unary main_call261.v0 main_call261.v1 (broadcastInDim S32768x16 ![] bcast_S_S32768x16),
    StableHlo.TRef.binary main_call261.v1 (.of main_v2837 : StableHlo.TRef sig ⟨S32768x16, .f32⟩) main_call261.v2 maximumf,
    StableHlo.TRef.unary (.of main_cst_908 : StableHlo.TRef sig ⟨S_, .f32⟩) main_call261.v3 id,
    StableHlo.TRef.unary main_call261.v3 main_call261.v4 (broadcastInDim S32768x16 ![] bcast_S_S32768x16),
    StableHlo.TRef.binary main_call261.v4 main_call261.v2 main_call261.v5 minimumf,
    StableHlo.unary main_v2838 main_v2840 (Host.sign : (⟨S32768x16, .f32⟩ : BufTy).Contents (Elt F) → (⟨S32768x16, .f32⟩ : BufTy).Contents (Elt F)),
    StableHlo.unary main_v2839 main_v2841 (Host.sign : (⟨S32768x16, .f32⟩ : BufTy).Contents (Elt F) → (⟨S32768x16, .f32⟩ : BufTy).Contents (Elt F)),
    StableHlo.binary main_v2840 main_v2841 main_v2842 (mulf : (⟨S32768x16, .f32⟩ : BufTy).Contents (Elt F) → (⟨S32768x16, .f32⟩ : BufTy).Contents (Elt F) → (⟨S32768x16, .f32⟩ : BufTy).Contents (Elt F)),
    StableHlo.unary main_v2838 main_v2843 (Host.absf : (⟨S32768x16, .f32⟩ : BufTy).Contents (Elt F) → (⟨S32768x16, .f32⟩ : BufTy).Contents (Elt F)),
    StableHlo.unary main_v2839 main_v2844 (Host.absf : (⟨S32768x16, .f32⟩ : BufTy).Contents (Elt F) → (⟨S32768x16, .f32⟩ : BufTy).Contents (Elt F)),
    StableHlo.binary main_v2843 main_v2844 main_v2845 (minimumf : (⟨S32768x16, .f32⟩ : BufTy).Contents (Elt F) → (⟨S32768x16, .f32⟩ : BufTy).Contents (Elt F) → (⟨S32768x16, .f32⟩ : BufTy).Contents (Elt F)),
    StableHlo.binary main_v2842 main_v2845 main_v2846 (mulf : (⟨S32768x16, .f32⟩ : BufTy).Contents (Elt F) → (⟨S32768x16, .f32⟩ : BufTy).Contents (Elt F) → (⟨S32768x16, .f32⟩ : BufTy).Contents (Elt F)),
    StableHlo.unary main_v2846 main_v2847 ((extractStridedSlice S32768x8 ![0, 0] · slices_S32768x16_S32768x8_0_0) : (⟨S32768x16, .f32⟩ : BufTy).Contents (Elt F) → (⟨S32768x8, .f32⟩ : BufTy).Contents (Elt F)),
    StableHlo.unary main_v2846 main_v2848 ((extractStridedSlice S32768x8 ![0, 8] · slices_S32768x16_S32768x8_0_8) : (⟨S32768x16, .f32⟩ : BufTy).Contents (Elt F) → (⟨S32768x8, .f32⟩ : BufTy).Contents (Elt F)),
    StableHlo.nullary main_cst_909 (constant S_ .f32 0xC1F00000#32),
    StableHlo.nullary main_cst_910 (constant S_ .f32 0x41F00000#32),
    StableHlo.TRef.unary (.of main_cst_909 : StableHlo.TRef sig ⟨S_, .f32⟩) main_call262.v0 id,
    StableHlo.TRef.unary main_call262.v0 main_call262.v1 (broadcastInDim S32768x8 ![] bcast_S_S32768x8),
    StableHlo.TRef.binary main_call262.v1 (.of main_v2847 : StableHlo.TRef sig ⟨S32768x8, .f32⟩) main_call262.v2 maximumf,
    StableHlo.TRef.unary (.of main_cst_910 : StableHlo.TRef sig ⟨S_, .f32⟩) main_call262.v3 id,
    StableHlo.TRef.unary main_call262.v3 main_call262.v4 (broadcastInDim S32768x8 ![] bcast_S_S32768x8),
    StableHlo.TRef.binary main_call262.v4 main_call262.v2 main_call262.v5 minimumf,
    StableHlo.nullary main_cst_911 (constant S_ .f32 0xC1F00000#32),
    StableHlo.nullary main_cst_912 (constant S_ .f32 0x41F00000#32),
    StableHlo.TRef.unary (.of main_cst_911 : StableHlo.TRef sig ⟨S_, .f32⟩) main_call263.v0 id,
    StableHlo.TRef.unary main_call263.v0 main_call263.v1 (broadcastInDim S32768x8 ![] bcast_S_S32768x8),
    StableHlo.TRef.binary main_call263.v1 (.of main_v2848 : StableHlo.TRef sig ⟨S32768x8, .f32⟩) main_call263.v2 maximumf,
    StableHlo.TRef.unary (.of main_cst_912 : StableHlo.TRef sig ⟨S_, .f32⟩) main_call263.v3 id,
    StableHlo.TRef.unary main_call263.v3 main_call263.v4 (broadcastInDim S32768x8 ![] bcast_S_S32768x8),
    StableHlo.TRef.binary main_call263.v4 main_call263.v2 main_call263.v5 minimumf,
    StableHlo.unary main_v2849 main_v2851 (Host.sign : (⟨S32768x8, .f32⟩ : BufTy).Contents (Elt F) → (⟨S32768x8, .f32⟩ : BufTy).Contents (Elt F)),
    StableHlo.unary main_v2850 main_v2852 (Host.sign : (⟨S32768x8, .f32⟩ : BufTy).Contents (Elt F) → (⟨S32768x8, .f32⟩ : BufTy).Contents (Elt F)),
    StableHlo.binary main_v2851 main_v2852 main_v2853 (mulf : (⟨S32768x8, .f32⟩ : BufTy).Contents (Elt F) → (⟨S32768x8, .f32⟩ : BufTy).Contents (Elt F) → (⟨S32768x8, .f32⟩ : BufTy).Contents (Elt F)),
    StableHlo.unary main_v2849 main_v2854 (Host.absf : (⟨S32768x8, .f32⟩ : BufTy).Contents (Elt F) → (⟨S32768x8, .f32⟩ : BufTy).Contents (Elt F)),
    StableHlo.unary main_v2850 main_v2855 (Host.absf : (⟨S32768x8, .f32⟩ : BufTy).Contents (Elt F) → (⟨S32768x8, .f32⟩ : BufTy).Contents (Elt F)),
    StableHlo.binary main_v2854 main_v2855 main_v2856 (minimumf : (⟨S32768x8, .f32⟩ : BufTy).Contents (Elt F) → (⟨S32768x8, .f32⟩ : BufTy).Contents (Elt F) → (⟨S32768x8, .f32⟩ : BufTy).Contents (Elt F)),
    StableHlo.binary main_v2853 main_v2856 main_v2857 (mulf : (⟨S32768x8, .f32⟩ : BufTy).Contents (Elt F) → (⟨S32768x8, .f32⟩ : BufTy).Contents (Elt F) → (⟨S32768x8, .f32⟩ : BufTy).Contents (Elt F)),
    StableHlo.unary main_v2857 main_v2858 ((extractStridedSlice S32768x4 ![0, 0] · slices_S32768x8_S32768x4_0_0) : (⟨S32768x8, .f32⟩ : BufTy).Contents (Elt F) → (⟨S32768x4, .f32⟩ : BufTy).Contents (Elt F)),
    StableHlo.unary main_v2857 main_v2859 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_913 (constant S_ .f32 0xC1F00000#32),
    StableHlo.nullary main_cst_914 (constant S_ .f32 0x41F00000#32),
    StableHlo.TRef.unary (.of main_cst_913 : StableHlo.TRef sig ⟨S_, .f32⟩) main_call264.v0 id,
    StableHlo.TRef.unary main_call264.v0 main_call264.v1 (broadcastInDim S32768x4 ![] bcast_S_S32768x4),
    StableHlo.TRef.binary main_call264.v1 (.of main_v2858 : StableHlo.TRef sig ⟨S32768x4, .f32⟩) main_call264.v2 maximumf,
    StableHlo.TRef.unary (.of main_cst_914 : StableHlo.TRef sig ⟨S_, .f32⟩) main_call264.v3 id,
    StableHlo.TRef.unary main_call264.v3 main_call264.v4 (broadcastInDim S32768x4 ![] bcast_S_S32768x4),
    StableHlo.TRef.binary main_call264.v4 main_call264.v2 main_call264.v5 minimumf,
    StableHlo.nullary main_cst_915 (constant S_ .f32 0xC1F00000#32),
    StableHlo.nullary main_cst_916 (constant S_ .f32 0x41F00000#32) ]

set_option maxRecDepth 8192 in
/-- The window is that straight line: each clip function unfolded at its calls, the sequencing reassociated. -/
theorem part_eq_62 (d : Dev nD) : main_part62 (F := F) d = seq ops62 := by
  simp only [main_part62, fn_clip_0.body, fn_clip_1.body, fn_clip_2.body, fn_clip_3.body, fn_clip_4.body, seq, bind_assoc, pure_bind]
  rfl

/-- Every operation of the window touches TensorCore references only. -/
theorem sub_62 : (ops62 : List (HloOp τ sig (Elt F))).Forall fun op => op.bufs ⊆ tcRefs τ sig :=
  ⟨unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub ..⟩

/-- Every operation of the window determines all it writes. -/
theorem fresh_62 : (ops62 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_62 (V : Valuation τ sig (Elt F)) :
    after ops62 V (main_arg0 : DevRef τ sig) = V (main_arg0 : DevRef τ sig) := by
  simp only [after_cons, after_nil]
  rfl

/-- The operations of @main's statements 3781 … 3840, in order (85 of them): a statement's own operation, or, for a call
    of a clip function, the six operations of its body over that call's buffers. -/
abbrev ops63 : List (HloOp τ sig (Elt F)) :=
  [ StableHlo.TRef.unary (.of main_cst_915 : StableHlo.TRef sig ⟨S_, .f32⟩) main_call265.v0 id,
    StableHlo.TRef.unary main_call265.v0 main_call265.v1 (broadcastInDim S32768x4 ![] bcast_S_S32768x4),
    StableHlo.TRef.binary main_call265.v1 (.of main_v2859 : StableHlo.TRef sig ⟨S32768x4, .f32⟩) main_call265.v2 maximumf,
    StableHlo.TRef.unary (.of main_cst_916 : StableHlo.TRef sig ⟨S_, .f32⟩) main_call265.v3 id,
    StableHlo.TRef.unary main_call265.v3 main_call265.v4 (broadcastInDim S32768x4 ![] bcast_S_S32768x4),
    StableHlo.TRef.binary main_call265.v4 main_call265.v2 main_call265.v5 minimumf,
    StableHlo.unary main_v2860 main_v2862 (Host.sign : (⟨S32768x4, .f32⟩ : BufTy).Contents (Elt F) → (⟨S32768x4, .f32⟩ : BufTy).Contents (Elt F)),
    StableHlo.unary main_v2861 main_v2863 (Host.sign : (⟨S32768x4, .f32⟩ : BufTy).Contents (Elt F) → (⟨S32768x4, .f32⟩ : BufTy).Contents (Elt F)),
    StableHlo.binary main_v2862 main_v2863 main_v2864 (mulf : (⟨S32768x4, .f32⟩ : BufTy).Contents (Elt F) → (⟨S32768x4, .f32⟩ : BufTy).Contents (Elt F) → (⟨S32768x4, .f32⟩ : BufTy).Contents (Elt F)),
    StableHlo.unary main_v2860 main_v2865 (Host.absf : (⟨S32768x4, .f32⟩ : BufTy).Contents (Elt F) → (⟨S32768x4, .f32⟩ : BufTy).Contents (Elt F)),
    StableHlo.unary main_v2861 main_v2866 (Host.absf : (⟨S32768x4, .f32⟩ : BufTy).Contents (Elt F) → (⟨S32768x4, .f32⟩ : BufTy).Contents (Elt F)),
    StableHlo.binary main_v2865 main_v2866 main_v2867 (minimumf : (⟨S32768x4, .f32⟩ : BufTy).Contents (Elt F) → (⟨S32768x4, .f32⟩ : BufTy).Contents (Elt F) → (⟨S32768x4, .f32⟩ : BufTy).Contents (Elt F)),
    StableHlo.binary main_v2864 main_v2867 main_v2868 (mulf : (⟨S32768x4, .f32⟩ : BufTy).Contents (Elt F) → (⟨S32768x4, .f32⟩ : BufTy).Contents (Elt F) → (⟨S32768x4, .f32⟩ : BufTy).Contents (Elt F)),
    StableHlo.unary main_v2868 main_v2869 ((extractStridedSlice S32768x2 ![0, 0] · slices_S32768x4_S32768x2_0_0) : (⟨S32768x4, .f32⟩ : BufTy).Contents (Elt F) → (⟨S32768x2, .f32⟩ : BufTy).Contents (Elt F)),
    StableHlo.unary main_v2868 main_v2870 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_917 (constant S_ .f32 0xC1F00000#32),
    StableHlo.nullary main_cst_918 (constant S_ .f32 0x41F00000#32),
    StableHlo.TRef.unary (.of main_cst_917 : StableHlo.TRef sig ⟨S_, .f32⟩) main_call266.v0 id,
    StableHlo.TRef.unary main_call266.v0 main_call266.v1 (broadcastInDim S32768x2 ![] bcast_S_S32768x2),
    StableHlo.TRef.binary main_call266.v1 (.of main_v2869 : StableHlo.TRef sig ⟨S32768x2, .f32⟩) main_call266.v2 maximumf,
    StableHlo.TRef.unary (.of main_cst_918 : StableHlo.TRef sig ⟨S_, .f32⟩) main_call266.v3 id,
    StableHlo.TRef.unary main_call266.v3 main_call266.v4 (broadcastInDim S32768x2 ![] bcast_S_S32768x2),
    StableHlo.TRef.binary main_call266.v4 main_call266.v2 main_call266.v5 minimumf,
    StableHlo.nullary main_cst_919 (constant S_ .f32 0xC1F00000#32),
    StableHlo.nullary main_cst_920 (constant S_ .f32 0x41F00000#32),
    StableHlo.TRef.unary (.of main_cst_919 : StableHlo.TRef sig ⟨S_, .f32⟩) main_call267.v0 id,
    StableHlo.TRef.unary main_call267.v0 main_call267.v1 (broadcastInDim S32768x2 ![] bcast_S_S32768x2),
    StableHlo.TRef.binary main_call267.v1 (.of main_v2870 : StableHlo.TRef sig ⟨S32768x2, .f32⟩) main_call267.v2 maximumf,
    StableHlo.TRef.unary (.of main_cst_920 : StableHlo.TRef sig ⟨S_, .f32⟩) main_call267.v3 id,
    StableHlo.TRef.unary main_call267.v3 main_call267.v4 (broadcastInDim S32768x2 ![] bcast_S_S32768x2),
    StableHlo.TRef.binary main_call267.v4 main_call267.v2 main_call267.v5 minimumf,
    StableHlo.unary main_v2871 main_v2873 (Host.sign : (⟨S32768x2, .f32⟩ : BufTy).Contents (Elt F) → (⟨S32768x2, .f32⟩ : BufTy).Contents (Elt F)),
    StableHlo.unary main_v2872 main_v2874 (Host.sign : (⟨S32768x2, .f32⟩ : BufTy).Contents (Elt F) → (⟨S32768x2, .f32⟩ : BufTy).Contents (Elt F)),
    StableHlo.binary main_v2873 main_v2874 main_v2875 (mulf : (⟨S32768x2, .f32⟩ : BufTy).Contents (Elt F) → (⟨S32768x2, .f32⟩ : BufTy).Contents (Elt F) → (⟨S32768x2, .f32⟩ : BufTy).Contents (Elt F)),
    StableHlo.unary main_v2871 main_v2876 (Host.absf : (⟨S32768x2, .f32⟩ : BufTy).Contents (Elt F) → (⟨S32768x2, .f32⟩ : BufTy).Contents (Elt F)),
    StableHlo.unary main_v2872 main_v2877 (Host.absf : (⟨S32768x2, .f32⟩ : BufTy).Contents (Elt F) → (⟨S32768x2, .f32⟩ : BufTy).Contents (Elt F)),
    StableHlo.binary main_v2876 main_v2877 main_v2878 (minimumf : (⟨S32768x2, .f32⟩ : BufTy).Contents (Elt F) → (⟨S32768x2, .f32⟩ : BufTy).Contents (Elt F) → (⟨S32768x2, .f32⟩ : BufTy).Contents (Elt F)),
    StableHlo.binary main_v2875 main_v2878 main_v2879 (mulf : (⟨S32768x2, .f32⟩ : BufTy).Contents (Elt F) → (⟨S32768x2, .f32⟩ : BufTy).Contents (Elt F) → (⟨S32768x2, .f32⟩ : BufTy).Contents (Elt F)),
    StableHlo.unary main_v2879 main_v2880 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2879 main_v2881 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_921 (constant S_ .f32 0xC1F00000#32),
    StableHlo.nullary main_cst_922 (constant S_ .f32 0x41F00000#32),
    StableHlo.TRef.unary (.of main_cst_921 : StableHlo.TRef sig ⟨S_, .f32⟩) main_call268.v0 id,
    StableHlo.TRef.unary main_call268.v0 main_call268.v1 (broadcastInDim S32768x1 ![] bcast_S_S32768x1),
    StableHlo.TRef.binary main_call268.v1 (.of main_v2880 : StableHlo.TRef sig ⟨S32768x1, .f32⟩) main_call268.v2 maximumf,
    StableHlo.TRef.unary (.of main_cst_922 : StableHlo.TRef sig ⟨S_, .f32⟩) main_call268.v3 id,
    StableHlo.TRef.unary main_call268.v3 main_call268.v4 (broadcastInDim S32768x1 ![] bcast_S_S32768x1),
    StableHlo.TRef.binary main_call268.v4 main_call268.v2 main_call268.v5 minimumf,
    StableHlo.nullary main_cst_923 (constant S_ .f32 0xC1F00000#32),
    StableHlo.nullary main_cst_924 (constant S_ .f32 0x41F00000#32),
    StableHlo.TRef.unary (.of main_cst_923 : StableHlo.TRef sig ⟨S_, .f32⟩) main_call269.v0 id,
    StableHlo.TRef.unary main_call269.v0 main_call269.v1 (broadcastInDim S32768x1 ![] bcast_S_S32768x1),
    StableHlo.TRef.binary main_call269.v1 (.of main_v2881 : StableHlo.TRef sig ⟨S32768x1, .f32⟩) main_call269.v2 maximumf,
    StableHlo.TRef.unary (.of main_cst_924 : StableHlo.TRef sig ⟨S_, .f32⟩) main_call269.v3 id,
    StableHlo.TRef.unary main_call269.v3 main_call269.v4 (broadcastInDim S32768x1 ![] bcast_S_S32768x1),
    StableHlo.TRef.binary main_call269.v4 main_call269.v2 main_call269.v5 minimumf,
    StableHlo.unary main_v2882 main_v2884 (Host.sign : (⟨S32768x1, .f32⟩ : BufTy).Contents (Elt F) → (⟨S32768x1, .f32⟩ : BufTy).Contents (Elt F)),
    StableHlo.unary main_v2883 main_v2885 (Host.sign : (⟨S32768x1, .f32⟩ : BufTy).Contents (Elt F) → (⟨S32768x1, .f32⟩ : BufTy).Contents (Elt F)),
    StableHlo.binary main_v2884 main_v2885 main_v2886 (mulf : (⟨S32768x1, .f32⟩ : BufTy).Contents (Elt F) → (⟨S32768x1, .f32⟩ : BufTy).Contents (Elt F) → (⟨S32768x1, .f32⟩ : BufTy).Contents (Elt F)),
    StableHlo.unary main_v2882 main_v2887 (Host.absf : (⟨S32768x1, .f32⟩ : BufTy).Contents (Elt F) → (⟨S32768x1, .f32⟩ : BufTy).Contents (Elt F)),
    StableHlo.unary main_v2883 main_v2888 (Host.absf : (⟨S32768x1, .f32⟩ : BufTy).Contents (Elt F) → (⟨S32768x1, .f32⟩ : BufTy).Contents (Elt F)),
    StableHlo.binary main_v2887 main_v2888 main_v2889 (minimumf : (⟨S32768x1, .f32⟩ : BufTy).Contents (Elt F) → (⟨S32768x1, .f32⟩ : BufTy).Contents (Elt F) → (⟨S32768x1, .f32⟩ : BufTy).Contents (Elt F)),
    StableHlo.binary main_v2886 main_v2889 main_v2890 (mulf : (⟨S32768x1, .f32⟩ : BufTy).Contents (Elt F) → (⟨S32768x1, .f32⟩ : BufTy).Contents (Elt F) → (⟨S32768x1, .f32⟩ : BufTy).Contents (Elt F)),
    StableHlo.nullary main_cst_925 (constant S_ .f32 0x00000000#32),
    StableHlo.unary main_cst_925 main_v2891 (broadcastInDim S32768x1 ![] bcast_S_S32768x1 : (⟨S_, .f32⟩ : BufTy).Contents (Elt F) → (⟨S32768x1, .f32⟩ : BufTy).Contents (Elt F)),
    StableHlo.binary main_v2890 main_v2891 main_v2892 (cmpf .ole : (⟨S32768x1, .f32⟩ : BufTy).Contents (Elt F) → (⟨S32768x1, .f32⟩ : BufTy).Contents (Elt F) → (⟨S32768x1, .i1⟩ : BufTy).Contents (Elt F)),
    StableHlo.unary main_v2892 main_v2893 (uitofp .f32 : (⟨S32768x1, .i1⟩ : BufTy).Contents (Elt F) → (⟨S32768x1, .f32⟩ : BufTy).Contents (Elt F)),
    StableHlo.nullary main_cst_926 (constant S_ .f32 0x40000000#32),
    StableHlo.unary main_cst_926 main_v2894 (broadcastInDim S32768x1 ![] bcast_S_S32768x1 : (⟨S_, .f32⟩ : BufTy).Contents (Elt F) → (⟨S32768x1, .f32⟩ : BufTy).Contents (Elt F)),
    StableHlo.binary main_v2894 main_v2893 main_v2895 (mulf : (⟨S32768x1, .f32⟩ : BufTy).Contents (Elt F) → (⟨S32768x1, .f32⟩ : BufTy).Contents (Elt F) → (⟨S32768x1, .f32⟩ : BufTy).Contents (Elt F)),
    StableHlo.nullary main_cst_927 (constant S_ .f32 0x3F800000#32),
    StableHlo.unary main_cst_927 main_v2896 (broadcastInDim S32768x1 ![] bcast_S_S32768x1 : (⟨S_, .f32⟩ : BufTy).Contents (Elt F) → (⟨S32768x1, .f32⟩ : BufTy).Contents (Elt F)),
    StableHlo.binary main_v2896 main_v2895 main_v2897 (subf : (⟨S32768x1, .f32⟩ : BufTy).Contents (Elt F) → (⟨S32768x1, .f32⟩ : BufTy).Contents (Elt F) → (⟨S32768x1, .f32⟩ : BufTy).Contents (Elt F)),
    StableHlo.binary main_v2897 main_v2880 main_v2898 (mulf : (⟨S32768x1, .f32⟩ : BufTy).Contents (Elt F) → (⟨S32768x1, .f32⟩ : BufTy).Contents (Elt F) → (⟨S32768x1, .f32⟩ : BufTy).Contents (Elt F)),
    StableHlo.binary main_v2898 main_v2881 main_v2899 (addf : (⟨S32768x1, .f32⟩ : BufTy).Contents (Elt F) → (⟨S32768x1, .f32⟩ : BufTy).Contents (Elt F) → (⟨S32768x1, .f32⟩ : BufTy).Contents (Elt F)),
    StableHlo.nullary main_cst_928 (constant S_ .f32 0x00000000#32),
    StableHlo.unary main_cst_928 main_v2900 (broadcastInDim S32768x1 ![] bcast_S_S32768x1 : (⟨S_, .f32⟩ : BufTy).Contents (Elt F) → (⟨S32768x1, .f32⟩ : BufTy).Contents (Elt F)),
    StableHlo.binary main_v2899 main_v2900 main_v2901 (cmpf .ole : (⟨S32768x1, .f32⟩ : BufTy).Contents (Elt F) → (⟨S32768x1, .f32⟩ : BufTy).Contents (Elt F) → (⟨S32768x1, .i1⟩ : BufTy).Contents (Elt F)),
    StableHlo.unary main_v2901 main_v2902 (uitofp .f32 : (⟨S32768x1, .i1⟩ : BufTy).Contents (Elt F) → (⟨S32768x1, .f32⟩ : BufTy).Contents (Elt F)),
    StableHlo.binary main_v2893 main_v2902 main_v2903 (cmpf .une : (⟨S32768x1, .f32⟩ : BufTy).Contents (Elt F) → (⟨S32768x1, .f32⟩ : BufTy).Contents (Elt F) → (⟨S32768x1, .i1⟩ : BufTy).Contents (Elt F)),
    StableHlo.unary main_v2903 main_v2904 (uitofp .f32 : (⟨S32768x1, .i1⟩ : BufTy).Contents (Elt F) → (⟨S32768x1, .f32⟩ : BufTy).Contents (Elt F)),
    StableHlo.binary main_v2904 main_v2902 main_v2905 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2893 main_v2902 main_v2906 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_929 (constant S_ .f32 0x40000000#32),
    StableHlo.unary main_cst_929 main_v2907 (broadcastInDim S32768x2 ![] bcast_S_S32768x2 : (⟨S_, .f32⟩ : BufTy).Contents (Elt F) → (⟨S32768x2, .f32⟩ : BufTy).Contents (Elt F)) ]

set_option maxRecDepth 8192 in
/-- The window is that straight line: each clip function unfolded at its calls, the sequencing reassociated. -/
theorem part_eq_63 (d : Dev nD) : main_part63 (F := F) d = seq ops63 := by
  simp only [main_part63, fn_clip_4.body, fn_clip_5.body, fn_clip_6.body, seq, bind_assoc, pure_bind]
  rfl

/-- Every operation of the window touches TensorCore references only. -/
theorem sub_63 : (ops63 : List (HloOp τ sig (Elt F))).Forall fun op => op.bufs ⊆ tcRefs τ sig :=
  ⟨unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    unary_bufs_sub .., binary_bufs_sub .., unary_bufs_sub .., binary_bufs_sub .., binary_bufs_sub .., nullary_bufs_sub ..,
    unary_bufs_sub ..⟩

/-- Every operation of the window determines all it writes. -/
theorem fresh_63 : (ops63 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_63 (V : Valuation τ sig (Elt F)) :
    after ops63 V (main_arg0 : DevRef τ sig) = V (main_arg0 : DevRef τ sig) := by
  simp only [after_cons, after_nil]
  rfl

end Cert.ReferenceIdeal.RefRun

end
-- ==== Proof.RefRun.W08.lean ====
import proofs.«134088_j24077586662034_2_alg».proof.Defs
import proofs.«134088_j24077586662034_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 3841 … 3900, in order (75 of them): a statement's own operation, or, for a call
    of a clip function, the six operations of its body over that call's buffers. -/
abbrev ops64 : List (HloOp τ sig (Elt F)) :=
  [ StableHlo.binary main_v2907 main_v2905 main_v2908 (mulf : (⟨S32768x2, .f32⟩ : BufTy).Contents (Elt F) → (⟨S32768x2, .f32⟩ : BufTy).Contents (Elt F) → (⟨S32768x2, .f32⟩ : BufTy).Contents (Elt F)),
    StableHlo.nullary main_cst_930 (constant S_ .f32 0x3F800000#32),
    StableHlo.unary main_cst_930 main_v2909 (broadcastInDim S32768x2 ![] bcast_S_S32768x2 : (⟨S_, .f32⟩ : BufTy).Contents (Elt F) → (⟨S32768x2, .f32⟩ : BufTy).Contents (Elt F)),
    StableHlo.binary main_v2909 main_v2908 main_v2910 (subf : (⟨S32768x2, .f32⟩ : BufTy).Contents (Elt F) → (⟨S32768x2, .f32⟩ : BufTy).Contents (Elt F) → (⟨S32768x2, .f32⟩ : BufTy).Contents (Elt F)),
    StableHlo.binary main_v2910 main_v2869 main_v2911 (mulf : (⟨S32768x2, .f32⟩ : BufTy).Contents (Elt F) → (⟨S32768x2, .f32⟩ : BufTy).Contents (Elt F) → (⟨S32768x2, .f32⟩ : BufTy).Contents (Elt F)),
    StableHlo.binary main_v2911 main_v2870 main_v2912 (addf : (⟨S32768x2, .f32⟩ : BufTy).Contents (Elt F) → (⟨S32768x2, .f32⟩ : BufTy).Contents (Elt F) → (⟨S32768x2, .f32⟩ : BufTy).Contents (Elt F)),
    StableHlo.unary main_v2912 main_v2913 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2912 main_v2914 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_931 (constant S_ .f32 0xC1F00000#32),
    StableHlo.nullary main_cst_932 (constant S_ .f32 0x41F00000#32),
    StableHlo.TRef.unary (.of main_cst_931 : StableHlo.TRef sig ⟨S_, .f32⟩) main_call270.v0 id,
    StableHlo.TRef.unary main_call270.v0 main_call270.v1 (broadcastInDim S32768x1 ![] bcast_S_S32768x1),
    StableHlo.TRef.binary main_call270.v1 (.of main_v2913 : StableHlo.TRef sig ⟨S32768x1, .f32⟩) main_call270.v2 maximumf,
    StableHlo.TRef.unary (.of main_cst_932 : StableHlo.TRef sig ⟨S_, .f32⟩) main_call270.v3 id,
    StableHlo.TRef.unary main_call270.v3 main_call270.v4 (broadcastInDim S32768x1 ![] bcast_S_S32768x1),
    StableHlo.TRef.binary main_call270.v4 main_call270.v2 main_call270.v5 minimumf,
    StableHlo.nullary main_cst_933 (constant S_ .f32 0xC1F00000#32),
    StableHlo.nullary main_cst_934 (constant S_ .f32 0x41F00000#32),
    StableHlo.TRef.unary (.of main_cst_933 : StableHlo.TRef sig ⟨S_, .f32⟩) main_call271.v0 id,
    StableHlo.TRef.unary main_call271.v0 main_call271.v1 (broadcastInDim S32768x1 ![] bcast_S_S32768x1),
    StableHlo.TRef.binary main_call271.v1 (.of main_v2914 : StableHlo.TRef sig ⟨S32768x1, .f32⟩) main_call271.v2 maximumf,
    StableHlo.TRef.unary (.of main_cst_934 : StableHlo.TRef sig ⟨S_, .f32⟩) main_call271.v3 id,
    StableHlo.TRef.unary main_call271.v3 main_call271.v4 (broadcastInDim S32768x1 ![] bcast_S_S32768x1),
    StableHlo.TRef.binary main_call271.v4 main_call271.v2 main_call271.v5 minimumf,
    StableHlo.unary main_v2915 main_v2917 (Host.sign : (⟨S32768x1, .f32⟩ : BufTy).Contents (Elt F) → (⟨S32768x1, .f32⟩ : BufTy).Contents (Elt F)),
    StableHlo.unary main_v2916 main_v2918 (Host.sign : (⟨S32768x1, .f32⟩ : BufTy).Contents (Elt F) → (⟨S32768x1, .f32⟩ : BufTy).Contents (Elt F)),
    StableHlo.binary main_v2917 main_v2918 main_v2919 (mulf : (⟨S32768x1, .f32⟩ : BufTy).Contents (Elt F) → (⟨S32768x1, .f32⟩ : BufTy).Contents (Elt F) → (⟨S32768x1, .f32⟩ : BufTy).Contents (Elt F)),
    StableHlo.unary main_v2915 main_v2920 (Host.absf : (⟨S32768x1, .f32⟩ : BufTy).Contents (Elt F) → (⟨S32768x1, .f32⟩ : BufTy).Contents (Elt F)),
    StableHlo.unary main_v2916 main_v2921 (Host.absf : (⟨S32768x1, .f32⟩ : BufTy).Contents (Elt F) → (⟨S32768x1, .f32⟩ : BufTy).Contents (Elt F)),
    StableHlo.binary main_v2920 main_v2921 main_v2922 (minimumf : (⟨S32768x1, .f32⟩ : BufTy).Contents (Elt F) → (⟨S32768x1, .f32⟩ : BufTy).Contents (Elt F) → (⟨S32768x1, .f32⟩ : BufTy).Contents (Elt F)),
    StableHlo.binary main_v2919 main_v2922 main_v2923 (mulf : (⟨S32768x1, .f32⟩ : BufTy).Contents (Elt F) → (⟨S32768x1, .f32⟩ : BufTy).Contents (Elt F) → (⟨S32768x1, .f32⟩ : BufTy).Contents (Elt F)),
    StableHlo.nullary main_cst_935 (constant S_ .f32 0x00000000#32),
    StableHlo.unary main_cst_935 main_v2924 (broadcastInDim S32768x1 ![] bcast_S_S32768x1 : (⟨S_, .f32⟩ : BufTy).Contents (Elt F) → (⟨S32768x1, .f32⟩ : BufTy).Contents (Elt F)),
    StableHlo.binary main_v2923 main_v2924 main_v2925 (cmpf .ole : (⟨S32768x1, .f32⟩ : BufTy).Contents (Elt F) → (⟨S32768x1, .f32⟩ : BufTy).Contents (Elt F) → (⟨S32768x1, .i1⟩ : BufTy).Contents (Elt F)),
    StableHlo.unary main_v2925 main_v2926 (uitofp .f32 : (⟨S32768x1, .i1⟩ : BufTy).Contents (Elt F) → (⟨S32768x1, .f32⟩ : BufTy).Contents (Elt F)),
    StableHlo.nullary main_cst_936 (constant S_ .f32 0x40000000#32),
    StableHlo.unary main_cst_936 main_v2927 (broadcastInDim S32768x1 ![] bcast_S_S32768x1 : (⟨S_, .f32⟩ : BufTy).Contents (Elt F) → (⟨S32768x1, .f32⟩ : BufTy).Contents (Elt F)),
    StableHlo.binary main_v2927 main_v2926 main_v2928 (mulf : (⟨S32768x1, .f32⟩ : BufTy).Contents (Elt F) → (⟨S32768x1, .f32⟩ : BufTy).Contents (Elt F) → (⟨S32768x1, .f32⟩ : BufTy).Contents (Elt F)),
    StableHlo.nullary main_cst_937 (constant S_ .f32 0x3F800000#32),
    StableHlo.unary main_cst_937 main_v2929 (broadcastInDim S32768x1 ![] bcast_S_S32768x1 : (⟨S_, .f32⟩ : BufTy).Contents (Elt F) → (⟨S32768x1, .f32⟩ : BufTy).Contents (Elt F)),
    StableHlo.binary main_v2929 main_v2928 main_v2930 (subf : (⟨S32768x1, .f32⟩ : BufTy).Contents (Elt F) → (⟨S32768x1, .f32⟩ : BufTy).Contents (Elt F) → (⟨S32768x1, .f32⟩ : BufTy).Contents (Elt F)),
    StableHlo.binary main_v2930 main_v2913 main_v2931 (mulf : (⟨S32768x1, .f32⟩ : BufTy).Contents (Elt F) → (⟨S32768x1, .f32⟩ : BufTy).Contents (Elt F) → (⟨S32768x1, .f32⟩ : BufTy).Contents (Elt F)),
    StableHlo.binary main_v2931 main_v2914 main_v2932 (addf : (⟨S32768x1, .f32⟩ : BufTy).Contents (Elt F) → (⟨S32768x1, .f32⟩ : BufTy).Contents (Elt F) → (⟨S32768x1, .f32⟩ : BufTy).Contents (Elt F)),
    StableHlo.nullary main_cst_938 (constant S_ .f32 0x00000000#32),
    StableHlo.unary main_cst_938 main_v2933 (broadcastInDim S32768x1 ![] bcast_S_S32768x1 : (⟨S_, .f32⟩ : BufTy).Contents (Elt F) → (⟨S32768x1, .f32⟩ : BufTy).Contents (Elt F)),
    StableHlo.binary main_v2932 main_v2933 main_v2934 (cmpf .ole : (⟨S32768x1, .f32⟩ : BufTy).Contents (Elt F) → (⟨S32768x1, .f32⟩ : BufTy).Contents (Elt F) → (⟨S32768x1, .i1⟩ : BufTy).Contents (Elt F)),
    StableHlo.unary main_v2934 main_v2935 (uitofp .f32 : (⟨S32768x1, .i1⟩ : BufTy).Contents (Elt F) → (⟨S32768x1, .f32⟩ : BufTy).Contents (Elt F)),
    StableHlo.binary main_v2926 main_v2935 main_v2936 (cmpf .une : (⟨S32768x1, .f32⟩ : BufTy).Contents (Elt F) → (⟨S32768x1, .f32⟩ : BufTy).Contents (Elt F) → (⟨S32768x1, .i1⟩ : BufTy).Contents (Elt F)),
    StableHlo.unary main_v2936 main_v2937 (uitofp .f32 : (⟨S32768x1, .i1⟩ : BufTy).Contents (Elt F) → (⟨S32768x1, .f32⟩ : BufTy).Contents (Elt F)),
    StableHlo.binary main_v2937 main_v2935 main_v2938 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2926 main_v2935 main_v2939 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2905 main_v2938 main_v2940 (cmpf .une : (⟨S32768x2, .f32⟩ : BufTy).Contents (Elt F) → (⟨S32768x2, .f32⟩ : BufTy).Contents (Elt F) → (⟨S32768x2, .i1⟩ : BufTy).Contents (Elt F)),
    StableHlo.unary main_v2940 main_v2941 (uitofp .f32 : (⟨S32768x2, .i1⟩ : BufTy).Contents (Elt F) → (⟨S32768x2, .f32⟩ : BufTy).Contents (Elt F)),
    StableHlo.binary main_v2941 main_v2938 main_v2942 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v2906 main_v2939 main_v2943 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_939 (constant S_ .f32 0x40000000#32),
    StableHlo.unary main_cst_939 main_v2944 (broadcastInDim S32768x4 ![] bcast_S_S32768x4 : (⟨S_, .f32⟩ : BufTy).Contents (Elt F) → (⟨S32768x4, .f32⟩ : BufTy).Contents (Elt F)),
    StableHlo.binary main_v2944 main_v2942 main_v2945 (mulf : (⟨S32768x4, .f32⟩ : BufTy).Contents (Elt F) → (⟨S32768x4, .f32⟩ : BufTy).Contents (Elt F) → (⟨S32768x4, .f32⟩ : BufTy).Contents (Elt F)),
    StableHlo.nullary main_cst_940 (constant S_ .f32 0x3F800000#32),
    StableHlo.unary main_cst_940 main_v2946 (broadcastInDim S32768x4 ![] bcast_S_S32768x4 : (⟨S_, .f32⟩ : BufTy).Contents (Elt F) → (⟨S32768x4, .f32⟩ : BufTy).Contents (Elt F)),
    StableHlo.binary main_v2946 main_v2945 main_v2947 (subf : (⟨S32768x4, .f32⟩ : BufTy).Contents (Elt F) → (⟨S32768x4, .f32⟩ : BufTy).Contents (Elt F) → (⟨S32768x4, .f32⟩ : BufTy).Contents (Elt F)),
    StableHlo.binary main_v2947 main_v2858 main_v2948 (mulf : (⟨S32768x4, .f32⟩ : BufTy).Contents (Elt F) → (⟨S32768x4, .f32⟩ : BufTy).Contents (Elt F) → (⟨S32768x4, .f32⟩ : BufTy).Contents (Elt F)),
    StableHlo.binary main_v2948 main_v2859 main_v2949 (addf : (⟨S32768x4, .f32⟩ : BufTy).Contents (Elt F) → (⟨S32768x4, .f32⟩ : BufTy).Contents (Elt F) → (⟨S32768x4, .f32⟩ : BufTy).Contents (Elt F)),
    StableHlo.unary main_v2949 main_v2950 ((extractStridedSlice S32768x2 ![0, 0] · slices_S32768x4_S32768x2_0_0) : (⟨S32768x4, .f32⟩ : BufTy).Contents (Elt F) → (⟨S32768x2, .f32⟩ : BufTy).Contents (Elt F)),
    StableHlo.unary main_v2949 main_v2951 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_941 (constant S_ .f32 0xC1F00000#32),
    StableHlo.nullary main_cst_942 (constant S_ .f32 0x41F00000#32),
    StableHlo.TRef.unary (.of main_cst_941 : StableHlo.TRef sig ⟨S_, .f32⟩) main_call272.v0 id,
    StableHlo.TRef.unary main_call272.v0 main_call272.v1 (broadcastInDim S32768x2 ![] bcast_S_S32768x2),
    StableHlo.TRef.binary main_call272.v1 (.of main_v2950 : StableHlo.TRef sig ⟨S32768x2, .f32⟩) main_call272.v2 maximumf,
    StableHlo.TRef.unary (.of main_cst_942 : StableHlo.TRef sig ⟨S_, .f32⟩) main_call272.v3 id,
    StableHlo.TRef.unary main_call272.v3 main_call272.v4 (broadcastInDim S32768x2 ![] bcast_S_S32768x2),
    StableHlo.TRef.binary main_call272.v4 main_call272.v2 main_call272.v5 minimumf,
    StableHlo.nullary main_cst_943 (constant S_ .f32 0xC1F00000#32),
    StableHlo.nullary main_cst_944 (constant S_ .f32 0x41F00000#32) ]

set_option maxRecDepth 8192 in
/-- The window is that straight line: each clip function unfolded at its calls, the sequencing reassociated. -/
theorem part_eq_64 (d : Dev nD) : main_part64 (F := F) d = seq ops64 := by
  simp only [main_part64, fn_clip_6.body, fn_clip_5.body, seq, bind_assoc, pure_bind]
  rfl

/-- Every operation of the window touches TensorCore references only. -/
theorem sub_64 : (ops64 : List (HloOp τ sig (Elt F))).Forall fun op => op.bufs ⊆ tcRefs τ sig :=
  ⟨binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    unary_bufs_sub .., binary_bufs_sub .., binary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub ..⟩

/-- Every operation of the window determines all it writes. -/
theorem fresh_64 : (ops64 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
/-- The window writes no argument of @main: the argument's buffer holds after it what it held before. -/
theorem keep_64 (V : Valuation τ sig (Elt F)) :
    after ops64 V (main_arg0 : DevRef τ sig) = V (main_arg0 : DevRef τ sig) := by
  simp only [after_cons, after_nil]
  rfl

/-- The operations of @main's statements 3901 … 3960, in order (85 of them): a statement's own operation, or, for a call
    of a clip function, the six operations of its body over that call's buffers. -/
abbrev ops65 : List (HloOp τ sig (Elt F)) :=
  [ StableHlo.TRef.unary (.of main_cst_943 : StableHlo.TRef sig ⟨S_, .f32⟩) main_call273.v0 id,
    StableHlo.TRef.unary main_call273.v0 main_call273.v1 (broadcastInDim S32768x2 ![] bcast_S_S32768x2),
    StableHlo.TRef.binary main_call273.v1 (.of main_v2951 : StableHlo.TRef sig ⟨S32768x2, .f32⟩) main_call273.v2 maximumf,
    StableHlo.TRef.unary (.of main_cst_944 : StableHlo.TRef sig ⟨S_, .f32⟩) main_call273.v3 id,
    StableHlo.TRef.unary main_call273.v3 main_call273.v4 (broadcastInDim S32768x2 ![] bcast_S_S32768x2),
    StableHlo.TRef.binary main_call273.v4 main_call273.v2 main_call273.v5 minimumf,
    StableHlo.unary main_v2952 main_v2954 (Host.sign : (⟨S32768x2, .f32⟩ : BufTy).Contents (Elt F) → (⟨S32768x2, .f32⟩ : BufTy).Contents (Elt F)),
    StableHlo.unary main_v2953 main_v2955 (Host.sign : (⟨S32768x2, .f32⟩ : BufTy).Contents (Elt F) → (⟨S32768x2, .f32⟩ : BufTy).Contents (Elt F)),
    StableHlo.binary main_v2954 main_v2955 main_v2956 (mulf : (⟨S32768x2, .f32⟩ : BufTy).Contents (Elt F) → (⟨S32768x2, .f32⟩ : BufTy).Contents (Elt F) → (⟨S32768x2, .f32⟩ : BufTy).Contents (Elt F)),
    StableHlo.unary main_v2952 main_v2957 (Host.absf : (⟨S32768x2, .f32⟩ : BufTy).Contents (Elt F) → (⟨S32768x2, .f32⟩ : BufTy).Contents (Elt F)),
    StableHlo.unary main_v2953 main_v2958 (Host.absf : (⟨S32768x2, .f32⟩ : BufTy).Contents (Elt F) → (⟨S32768x2, .f32⟩ : BufTy).Contents (Elt F)),
    StableHlo.binary main_v2957 main_v2958 main_v2959 (minimumf : (⟨S32768x2, .f32⟩ : BufTy).Contents (Elt F) → (⟨S32768x2, .f32⟩ : BufTy).Contents (Elt F) → (⟨S32768x2, .f32⟩ : BufTy).Contents (Elt F)),
    StableHlo.binary main_v2956 main_v2959 main_v2960 (mulf : (⟨S32768x2, .f32⟩ : BufTy).Contents (Elt F) → (⟨S32768x2, .f32⟩ : BufTy).Contents (Elt F) → (⟨S32768x2, .f32⟩ : BufTy).Contents (Elt F)),
    StableHlo.unary main_v2960 main_v2961 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2960 main_v2962 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_945 (constant S_ .f32 0xC1F00000#32),
    StableHlo.nullary main_cst_946 (constant S_ .f32 0x41F00000#32),
    StableHlo.TRef.unary (.of main_cst_945 : StableHlo.TRef sig ⟨S_, .f32⟩) main_call274.v0 id,
    StableHlo.TRef.unary main_call274.v0 main_call274.v1 (broadcastInDim S32768x1 ![] bcast_S_S32768x1),
    StableHlo.TRef.binary main_call274.v1 (.of main_v2961 : StableHlo.TRef sig ⟨S32768x1, .f32⟩) main_call274.v2 maximumf,
    StableHlo.TRef.unary (.of main_cst_946 : StableHlo.TRef sig ⟨S_, .f32⟩) main_call274.v3 id,
    StableHlo.TRef.unary main_call274.v3 main_call274.v4 (broadcastInDim S32768x1 ![] bcast_S_S32768x1),
    StableHlo.TRef.binary main_call274.v4 main_call274.v2 main_call274.v5 minimumf,
    StableHlo.nullary main_cst_947 (constant S_ .f32 0xC1F00000#32),
    StableHlo.nullary main_cst_948 (constant S_ .f32 0x41F00000#32),
    StableHlo.TRef.unary (.of main_cst_947 : StableHlo.TRef sig ⟨S_, .f32⟩) main_call275.v0 id,
    StableHlo.TRef.unary main_call275.v0 main_call275.v1 (broadcastInDim S32768x1 ![] bcast_S_S32768x1),
    StableHlo.TRef.binary main_call275.v1 (.of main_v2962 : StableHlo.TRef sig ⟨S32768x1, .f32⟩) main_call275.v2 maximumf,
    StableHlo.TRef.unary (.of main_cst_948 : StableHlo.TRef sig ⟨S_, .f32⟩) main_call275.v3 id,
    StableHlo.TRef.unary main_call275.v3 main_call275.v4 (broadcastInDim S32768x1 ![] bcast_S_S32768x1),
    StableHlo.TRef.binary main_call275.v4 main_call275.v2 main_call275.v5 minimumf,
    StableHlo.unary main_v2963 main_v2965 (Host.sign : (⟨S32768x1, .f32⟩ : BufTy).Contents (Elt F) → (⟨S32768x1, .f32⟩ : BufTy).Contents (Elt F)),
    StableHlo.unary main_v2964 main_v2966 (Host.sign : (⟨S32768x1, .f32⟩ : BufTy).Contents (Elt F) → (⟨S32768x1, .f32⟩ : BufTy).Contents (Elt F)),
    StableHlo.binary main_v2965 main_v2966 main_v2967 (mulf : (⟨S32768x1, .f32⟩ : BufTy).Contents (Elt F) → (⟨S32768x1, .f32⟩ : BufTy).Contents (Elt F) → (⟨S32768x1, .f32⟩ : BufTy).Contents (Elt F)),
    StableHlo.unary main_v2963 main_v2968 (Host.absf : (⟨S32768x1, .f32⟩ : BufTy).Contents (Elt F) → (⟨S32768x1, .f32⟩ : BufTy).Contents (Elt F)),
    StableHlo.unary main_v2964 main_v2969 (Host.absf : (⟨S32768x1, .f32⟩ : BufTy).Contents (Elt F) → (⟨S32768x1, .f32⟩ : BufTy).Contents (Elt F)),
    StableHlo.binary main_v2968 main_v2969 main_v2970 (minimumf : (⟨S32768x1, .f32⟩ : BufTy).Contents (Elt F) → (⟨S32768x1, .f32⟩ : BufTy).Contents (Elt F) → (⟨S32768x1, .f32⟩ : BufTy).Contents (Elt F)),
    StableHlo.binary main_v2967 main_v2970 main_v2971 (mulf : (⟨S32768x1, .f32⟩ : BufTy).Contents (Elt F) → (⟨S32768x1, .f32⟩ : BufTy).Contents (Elt F) → (⟨S32768x1, .f32⟩ : BufTy).Contents (Elt F)),
    StableHlo.nullary main_cst_949 (constant S_ .f32 0x00000000#32),
    StableHlo.unary main_cst_949 main_v2972 (broadcastInDim S32768x1 ![] bcast_S_S32768x1 : (⟨S_, .f32⟩ : BufTy).Contents (Elt F) → (⟨S32768x1, .f32⟩ : BufTy).Contents (Elt F)),
    StableHlo.binary main_v2971 main_v2972 main_v2973 (cmpf .ole : (⟨S32768x1, .f32⟩ : BufTy).Contents (Elt F) → (⟨S32768x1, .f32⟩ : BufTy).Contents (Elt F) → (⟨S32768x1, .i1⟩ : BufTy).Contents (Elt F)),
    StableHlo.unary main_v2973 main_v2974 (uitofp .f32 : (⟨S32768x1, .i1⟩ : BufTy).Contents (Elt F) → (⟨S32768x1, .f32⟩ : BufTy).Contents (Elt F)),
    StableHlo.nullary main_cst_950 (constant S_ .f32 0x40000000#32),
    StableHlo.unary main_cst_950 main_v2975 (broadcastInDim S32768x1 ![] bcast_S_S32768x1 : (⟨S_, .f32⟩ : BufTy).Contents (Elt F) → (⟨S32768x1, .f32⟩ : BufTy).Contents (Elt F)),
    StableHlo.binary main_v2975 main_v2974 main_v2976 (mulf : (⟨S32768x1, .f32⟩ : BufTy).Contents (Elt F) → (⟨S32768x1, .f32⟩ : BufTy).Contents (Elt F) → (⟨S32768x1, .f32⟩ : BufTy).Contents (Elt F)),
    StableHlo.nullary main_cst_951 (constant S_ .f32 0x3F800000#32),
    StableHlo.unary main_cst_951 main_v2977 (broadcastInDim S32768x1 ![] bcast_S_S32768x1 : (⟨S_, .f32⟩ : BufTy).Contents (Elt F) → (⟨S32768x1, .f32⟩ : BufTy).Contents (Elt F)),
    StableHlo.binary main_v2977 main_v2976 main_v2978 (subf : (⟨S32768x1, .f32⟩ : BufTy).Contents (Elt F) → (⟨S32768x1, .f32⟩ : BufTy).Contents (Elt F) → (⟨S32768x1, .f32⟩ : BufTy).Contents (Elt F)),
    StableHlo.binary main_v2978 main_v2961 main_v2979 (mulf : (⟨S32768x1, .f32⟩ : BufTy).Contents (Elt F) → (⟨S32768x1, .f32⟩ : BufTy).Contents (Elt F) → (⟨S32768x1, .f32⟩ : BufTy).Contents (Elt F)),
    StableHlo.binary main_v2979 main_v2962 main_v2980 (addf : (⟨S32768x1, .f32⟩ : BufTy).Contents (Elt F) → (⟨S32768x1, .f32⟩ : BufTy).Contents (Elt F) → (⟨S32768x1, .f32⟩ : BufTy).Contents (Elt F)),
    StableHlo.nullary main_cst_952 (constant S_ .f32 0x00000000#32),
    StableHlo.unary main_cst_952 main_v2981 (broadcastInDim S32768x1 ![] bcast_S_S32768x1 : (⟨S_, .f32⟩ : BufTy).Contents (Elt F) → (⟨S32768x1, .f32⟩ : BufTy).Contents (Elt F)),
    StableHlo.binary main_v2980 main_v2981 main_v2982 (cmpf .ole : (⟨S32768x1, .f32⟩ : BufTy).Contents (Elt F) → (⟨S32768x1, .f32⟩ : BufTy).Contents (Elt F) → (⟨S32768x1, .i1⟩ : BufTy).Contents (Elt F)),
    StableHlo.unary main_v2982 main_v2983 (uitofp .f32 : (⟨S32768x1, .i1⟩ : BufTy).Contents (Elt F) → (⟨S32768x1, .f32⟩ : BufTy).Contents (Elt F)),
    StableHlo.binary main_v2974 main_v2983 main_v2984 (cmpf .une : (⟨S32768x1, .f32⟩ : BufTy).Contents (Elt F) → (⟨S32768x1, .f32⟩ : BufTy).Contents (Elt F) → (⟨S32768x1, .i1⟩ : BufTy).Contents (Elt F)),
    StableHlo.unary main_v2984 main_v2985 (uitofp .f32 : (⟨S32768x1, .i1⟩ : BufTy).Contents (Elt F) → (⟨S32768x1, .f32⟩ : BufTy).Contents (Elt F)),
    StableHlo.binary main_v2985 main_v2983 main_v2986 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2974 main_v2983 main_v2987 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_953 (constant S_ .f32 0x40000000#32),
    StableHlo.unary main_cst_953 main_v2988 (broadcastInDim S32768x2 ![] bcast_S_S32768x2 : (⟨S_, .f32⟩ : BufTy).Contents (Elt F) → (⟨S32768x2, .f32⟩ : BufTy).Contents (Elt F)),
    StableHlo.binary main_v2988 main_v2986 main_v2989 (mulf : (⟨S32768x2, .f32⟩ : BufTy).Contents (Elt F) → (⟨S32768x2, .f32⟩ : BufTy).Contents (Elt F) → (⟨S32768x2, .f32⟩ : BufTy).Contents (Elt F)),
    StableHlo.nullary main_cst_954 (constant S_ .f32 0x3F800000#32),
    StableHlo.unary main_cst_954 main_v2990 (broadcastInDim S32768x2 ![] bcast_S_S32768x2 : (⟨S_, .f32⟩ : BufTy).Contents (Elt F) → (⟨S32768x2, .f32⟩ : BufTy).Contents (Elt F)),
    StableHlo.binary main_v2990 main_v2989 main_v2991 (subf : (⟨S32768x2, .f32⟩ : BufTy).Contents (Elt F) → (⟨S32768x2, .f32⟩ : BufTy).Contents (Elt F) → (⟨S32768x2, .f32⟩ : BufTy).Contents (Elt F)),
    StableHlo.binary main_v2991 main_v2950 main_v2992 (mulf : (⟨S32768x2, .f32⟩ : BufTy).Contents (Elt F) → (⟨S32768x2, .f32⟩ : BufTy).Contents (Elt F) → (⟨S32768x2, .f32⟩ : BufTy).Contents (Elt F)),
    StableHlo.binary main_v2992 main_v2951 main_v2993 (addf : (⟨S32768x2, .f32⟩ : BufTy).Contents (Elt F) → (⟨S32768x2, .f32⟩ : BufTy).Contents (Elt F) → (⟨S32768x2, .f32⟩ : BufTy).Contents (Elt F)),
    StableHlo.unary main_v2993 main_v2994 ((extractStridedSlice S32768x1 ![0, 0] · slices_S32768x2_S32768x1_0_0) : (⟨S32768x2, .f32⟩ : BufTy).Contents (Elt F) → (⟨S32768x1, .f32⟩ : BufTy).Contents (Elt F)),
    StableHlo.unary main_v2993 main_v2995 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_955 (constant S_ .f32 0xC1F00000#32),
    StableHlo.nullary main_cst_956 (constant S_ .f32 0x41F00000#32),
    StableHlo.TRef.unary (.of main_cst_955 : StableHlo.TRef sig ⟨S_, .f32⟩) main_call276.v0 id,
    StableHlo.TRef.unary main_call276.v0 main_call276.v1 (broadcastInDim S32768x1 ![] bcast_S_S32768x1),
    StableHlo.TRef.binary main_call276.v1 (.of main_v2994 : StableHlo.TRef sig ⟨S32768x1, .f32⟩) main_call276.v2 maximumf,
    StableHlo.TRef.unary (.of main_cst_956 : StableHlo.TRef sig ⟨S_, .f32⟩) main_call276.v3 id,
    StableHlo.TRef.unary main_call276.v3 main_call276.v4 (broadcastInDim S32768x1 ![] bcast_S_S32768x1),
    StableHlo.TRef.binary main_call276.v4 main_call276.v2 main_call276.v5 minimumf,
    StableHlo.nullary main_cst_957 (constant S_ .f32 0xC1F00000#32),
    StableHlo.nullary main_cst_958 (constant S_ .f32 0x41F00000#32),
    StableHlo.TRef.unary (.of main_cst_957 : StableHlo.TRef sig ⟨S_, .f32⟩) main_call277.v0 id,
    StableHlo.TRef.unary main_call277.v0 main_call277.v1 (broadcastInDim S32768x1 ![] bcast_S_S32768x1),
    StableHlo.TRef.binary main_call277.v1 (.of main_v2995 : StableHlo.TRef sig ⟨S32768x1, .f32⟩) main_call277.v2 maximumf,
    StableHlo.TRef.unary (.of main_cst_958 : StableHlo.TRef sig ⟨S_, .f32⟩) main_call277.v3 id,
    StableHlo.TRef.unary main_call277.v3 main_call277.v4 (broadcastInDim S32768x1 ![] bcast_S_S32768x1),
    StableHlo.TRef.binary main_call277.v4 main_call277.v2 main_call277.v5 minimumf,
    StableHlo.unary main_v2996 main_v2998 (Host.sign : (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_65 (d : Dev nD) : main_part65 (F := F) d = seq ops65 := by
  simp only [main_part65, fn_clip_5.body, fn_clip_6.body, seq, bind_assoc, pure_bind]
  rfl

/-- Every operation of the window touches TensorCore references only. -/
theorem sub_65 : (ops65 : List (HloOp τ sig (Elt F))).Forall fun op => op.bufs ⊆ tcRefs τ sig :=
  ⟨unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub ..⟩

/-- Every operation of the window determines all it writes. -/
theorem fresh_65 : (ops65 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_65 (V : Valuation τ sig (Elt F)) :
    after ops65 V (main_arg0 : DevRef τ sig) = V (main_arg0 : DevRef τ sig) := by
  simp only [after_cons, after_nil]
  rfl

/-- The operations of @main's statements 3961 … 4020, in order (70 of them): a statement's own operation, or, for a call
    of a clip function, the six operations of its body over that call's buffers. -/
abbrev ops66 : List (HloOp τ sig (Elt F)) :=
  [ StableHlo.unary main_v2997 main_v2999 (Host.sign : (⟨S32768x1, .f32⟩ : BufTy).Contents (Elt F) → (⟨S32768x1, .f32⟩ : BufTy).Contents (Elt F)),
    StableHlo.binary main_v2998 main_v2999 main_v3000 (mulf : (⟨S32768x1, .f32⟩ : BufTy).Contents (Elt F) → (⟨S32768x1, .f32⟩ : BufTy).Contents (Elt F) → (⟨S32768x1, .f32⟩ : BufTy).Contents (Elt F)),
    StableHlo.unary main_v2996 main_v3001 (Host.absf : (⟨S32768x1, .f32⟩ : BufTy).Contents (Elt F) → (⟨S32768x1, .f32⟩ : BufTy).Contents (Elt F)),
    StableHlo.unary main_v2997 main_v3002 (Host.absf : (⟨S32768x1, .f32⟩ : BufTy).Contents (Elt F) → (⟨S32768x1, .f32⟩ : BufTy).Contents (Elt F)),
    StableHlo.binary main_v3001 main_v3002 main_v3003 (minimumf : (⟨S32768x1, .f32⟩ : BufTy).Contents (Elt F) → (⟨S32768x1, .f32⟩ : BufTy).Contents (Elt F) → (⟨S32768x1, .f32⟩ : BufTy).Contents (Elt F)),
    StableHlo.binary main_v3000 main_v3003 main_v3004 (mulf : (⟨S32768x1, .f32⟩ : BufTy).Contents (Elt F) → (⟨S32768x1, .f32⟩ : BufTy).Contents (Elt F) → (⟨S32768x1, .f32⟩ : BufTy).Contents (Elt F)),
    StableHlo.nullary main_cst_959 (constant S_ .f32 0x00000000#32),
    StableHlo.unary main_cst_959 main_v3005 (broadcastInDim S32768x1 ![] bcast_S_S32768x1 : (⟨S_, .f32⟩ : BufTy).Contents (Elt F) → (⟨S32768x1, .f32⟩ : BufTy).Contents (Elt F)),
    StableHlo.binary main_v3004 main_v3005 main_v3006 (cmpf .ole : (⟨S32768x1, .f32⟩ : BufTy).Contents (Elt F) → (⟨S32768x1, .f32⟩ : BufTy).Contents (Elt F) → (⟨S32768x1, .i1⟩ : BufTy).Contents (Elt F)),
    StableHlo.unary main_v3006 main_v3007 (uitofp .f32 : (⟨S32768x1, .i1⟩ : BufTy).Contents (Elt F) → (⟨S32768x1, .f32⟩ : BufTy).Contents (Elt F)),
    StableHlo.nullary main_cst_960 (constant S_ .f32 0x40000000#32),
    StableHlo.unary main_cst_960 main_v3008 (broadcastInDim S32768x1 ![] bcast_S_S32768x1 : (⟨S_, .f32⟩ : BufTy).Contents (Elt F) → (⟨S32768x1, .f32⟩ : BufTy).Contents (Elt F)),
    StableHlo.binary main_v3008 main_v3007 main_v3009 (mulf : (⟨S32768x1, .f32⟩ : BufTy).Contents (Elt F) → (⟨S32768x1, .f32⟩ : BufTy).Contents (Elt F) → (⟨S32768x1, .f32⟩ : BufTy).Contents (Elt F)),
    StableHlo.nullary main_cst_961 (constant S_ .f32 0x3F800000#32),
    StableHlo.unary main_cst_961 main_v3010 (broadcastInDim S32768x1 ![] bcast_S_S32768x1 : (⟨S_, .f32⟩ : BufTy).Contents (Elt F) → (⟨S32768x1, .f32⟩ : BufTy).Contents (Elt F)),
    StableHlo.binary main_v3010 main_v3009 main_v3011 (subf : (⟨S32768x1, .f32⟩ : BufTy).Contents (Elt F) → (⟨S32768x1, .f32⟩ : BufTy).Contents (Elt F) → (⟨S32768x1, .f32⟩ : BufTy).Contents (Elt F)),
    StableHlo.binary main_v3011 main_v2994 main_v3012 (mulf : (⟨S32768x1, .f32⟩ : BufTy).Contents (Elt F) → (⟨S32768x1, .f32⟩ : BufTy).Contents (Elt F) → (⟨S32768x1, .f32⟩ : BufTy).Contents (Elt F)),
    StableHlo.binary main_v3012 main_v2995 main_v3013 (addf : (⟨S32768x1, .f32⟩ : BufTy).Contents (Elt F) → (⟨S32768x1, .f32⟩ : BufTy).Contents (Elt F) → (⟨S32768x1, .f32⟩ : BufTy).Contents (Elt F)),
    StableHlo.nullary main_cst_962 (constant S_ .f32 0x00000000#32),
    StableHlo.unary main_cst_962 main_v3014 (broadcastInDim S32768x1 ![] bcast_S_S32768x1 : (⟨S_, .f32⟩ : BufTy).Contents (Elt F) → (⟨S32768x1, .f32⟩ : BufTy).Contents (Elt F)),
    StableHlo.binary main_v3013 main_v3014 main_v3015 (cmpf .ole : (⟨S32768x1, .f32⟩ : BufTy).Contents (Elt F) → (⟨S32768x1, .f32⟩ : BufTy).Contents (Elt F) → (⟨S32768x1, .i1⟩ : BufTy).Contents (Elt F)),
    StableHlo.unary main_v3015 main_v3016 (uitofp .f32 : (⟨S32768x1, .i1⟩ : BufTy).Contents (Elt F) → (⟨S32768x1, .f32⟩ : BufTy).Contents (Elt F)),
    StableHlo.binary main_v3007 main_v3016 main_v3017 (cmpf .une : (⟨S32768x1, .f32⟩ : BufTy).Contents (Elt F) → (⟨S32768x1, .f32⟩ : BufTy).Contents (Elt F) → (⟨S32768x1, .i1⟩ : BufTy).Contents (Elt F)),
    StableHlo.unary main_v3017 main_v3018 (uitofp .f32 : (⟨S32768x1, .i1⟩ : BufTy).Contents (Elt F) → (⟨S32768x1, .f32⟩ : BufTy).Contents (Elt F)),
    StableHlo.binary main_v3018 main_v3016 main_v3019 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3007 main_v3016 main_v3020 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v2986 main_v3019 main_v3021 (cmpf .une : (⟨S32768x2, .f32⟩ : BufTy).Contents (Elt F) → (⟨S32768x2, .f32⟩ : BufTy).Contents (Elt F) → (⟨S32768x2, .i1⟩ : BufTy).Contents (Elt F)),
    StableHlo.unary main_v3021 main_v3022 (uitofp .f32 : (⟨S32768x2, .i1⟩ : BufTy).Contents (Elt F) → (⟨S32768x2, .f32⟩ : BufTy).Contents (Elt F)),
    StableHlo.binary main_v3022 main_v3019 main_v3023 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v2987 main_v3020 main_v3024 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v2942 main_v3023 main_v3025 (cmpf .une : (⟨S32768x4, .f32⟩ : BufTy).Contents (Elt F) → (⟨S32768x4, .f32⟩ : BufTy).Contents (Elt F) → (⟨S32768x4, .i1⟩ : BufTy).Contents (Elt F)),
    StableHlo.unary main_v3025 main_v3026 (uitofp .f32 : (⟨S32768x4, .i1⟩ : BufTy).Contents (Elt F) → (⟨S32768x4, .f32⟩ : BufTy).Contents (Elt F)),
    StableHlo.binary main_v3026 main_v3023 main_v3027 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v2943 main_v3024 main_v3028 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.nullary main_cst_963 (constant S_ .f32 0x40000000#32),
    StableHlo.unary main_cst_963 main_v3029 (broadcastInDim S32768x8 ![] bcast_S_S32768x8 : (⟨S_, .f32⟩ : BufTy).Contents (Elt F) → (⟨S32768x8, .f32⟩ : BufTy).Contents (Elt F)),
    StableHlo.binary main_v3029 main_v3027 main_v3030 (mulf : (⟨S32768x8, .f32⟩ : BufTy).Contents (Elt F) → (⟨S32768x8, .f32⟩ : BufTy).Contents (Elt F) → (⟨S32768x8, .f32⟩ : BufTy).Contents (Elt F)),
    StableHlo.nullary main_cst_964 (constant S_ .f32 0x3F800000#32),
    StableHlo.unary main_cst_964 main_v3031 (broadcastInDim S32768x8 ![] bcast_S_S32768x8 : (⟨S_, .f32⟩ : BufTy).Contents (Elt F) → (⟨S32768x8, .f32⟩ : BufTy).Contents (Elt F)),
    StableHlo.binary main_v3031 main_v3030 main_v3032 (subf : (⟨S32768x8, .f32⟩ : BufTy).Contents (Elt F) → (⟨S32768x8, .f32⟩ : BufTy).Contents (Elt F) → (⟨S32768x8, .f32⟩ : BufTy).Contents (Elt F)),
    StableHlo.binary main_v3032 main_v2847 main_v3033 (mulf : (⟨S32768x8, .f32⟩ : BufTy).Contents (Elt F) → (⟨S32768x8, .f32⟩ : BufTy).Contents (Elt F) → (⟨S32768x8, .f32⟩ : BufTy).Contents (Elt F)),
    StableHlo.binary main_v3033 main_v2848 main_v3034 (addf : (⟨S32768x8, .f32⟩ : BufTy).Contents (Elt F) → (⟨S32768x8, .f32⟩ : BufTy).Contents (Elt F) → (⟨S32768x8, .f32⟩ : BufTy).Contents (Elt F)),
    StableHlo.unary main_v3034 main_v3035 ((extractStridedSlice S32768x4 ![0, 0] · slices_S32768x8_S32768x4_0_0) : (⟨S32768x8, .f32⟩ : BufTy).Contents (Elt F) → (⟨S32768x4, .f32⟩ : BufTy).Contents (Elt F)),
    StableHlo.unary main_v3034 main_v3036 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_965 (constant S_ .f32 0xC1F00000#32),
    StableHlo.nullary main_cst_966 (constant S_ .f32 0x41F00000#32),
    StableHlo.TRef.unary (.of main_cst_965 : StableHlo.TRef sig ⟨S_, .f32⟩) main_call278.v0 id,
    StableHlo.TRef.unary main_call278.v0 main_call278.v1 (broadcastInDim S32768x4 ![] bcast_S_S32768x4),
    StableHlo.TRef.binary main_call278.v1 (.of main_v3035 : StableHlo.TRef sig ⟨S32768x4, .f32⟩) main_call278.v2 maximumf,
    StableHlo.TRef.unary (.of main_cst_966 : StableHlo.TRef sig ⟨S_, .f32⟩) main_call278.v3 id,
    StableHlo.TRef.unary main_call278.v3 main_call278.v4 (broadcastInDim S32768x4 ![] bcast_S_S32768x4),
    StableHlo.TRef.binary main_call278.v4 main_call278.v2 main_call278.v5 minimumf,
    StableHlo.nullary main_cst_967 (constant S_ .f32 0xC1F00000#32),
    StableHlo.nullary main_cst_968 (constant S_ .f32 0x41F00000#32),
    StableHlo.TRef.unary (.of main_cst_967 : StableHlo.TRef sig ⟨S_, .f32⟩) main_call279.v0 id,
    StableHlo.TRef.unary main_call279.v0 main_call279.v1 (broadcastInDim S32768x4 ![] bcast_S_S32768x4),
    StableHlo.TRef.binary main_call279.v1 (.of main_v3036 : StableHlo.TRef sig ⟨S32768x4, .f32⟩) main_call279.v2 maximumf,
    StableHlo.TRef.unary (.of main_cst_968 : StableHlo.TRef sig ⟨S_, .f32⟩) main_call279.v3 id,
    StableHlo.TRef.unary main_call279.v3 main_call279.v4 (broadcastInDim S32768x4 ![] bcast_S_S32768x4),
    StableHlo.TRef.binary main_call279.v4 main_call279.v2 main_call279.v5 minimumf,
    StableHlo.unary main_v3037 main_v3039 (Host.sign : (⟨S32768x4, .f32⟩ : BufTy).Contents (Elt F) → (⟨S32768x4, .f32⟩ : BufTy).Contents (Elt F)),
    StableHlo.unary main_v3038 main_v3040 (Host.sign : (⟨S32768x4, .f32⟩ : BufTy).Contents (Elt F) → (⟨S32768x4, .f32⟩ : BufTy).Contents (Elt F)),
    StableHlo.binary main_v3039 main_v3040 main_v3041 (mulf : (⟨S32768x4, .f32⟩ : BufTy).Contents (Elt F) → (⟨S32768x4, .f32⟩ : BufTy).Contents (Elt F) → (⟨S32768x4, .f32⟩ : BufTy).Contents (Elt F)),
    StableHlo.unary main_v3037 main_v3042 (Host.absf : (⟨S32768x4, .f32⟩ : BufTy).Contents (Elt F) → (⟨S32768x4, .f32⟩ : BufTy).Contents (Elt F)),
    StableHlo.unary main_v3038 main_v3043 (Host.absf : (⟨S32768x4, .f32⟩ : BufTy).Contents (Elt F) → (⟨S32768x4, .f32⟩ : BufTy).Contents (Elt F)),
    StableHlo.binary main_v3042 main_v3043 main_v3044 (minimumf : (⟨S32768x4, .f32⟩ : BufTy).Contents (Elt F) → (⟨S32768x4, .f32⟩ : BufTy).Contents (Elt F) → (⟨S32768x4, .f32⟩ : BufTy).Contents (Elt F)),
    StableHlo.binary main_v3041 main_v3044 main_v3045 (mulf : (⟨S32768x4, .f32⟩ : BufTy).Contents (Elt F) → (⟨S32768x4, .f32⟩ : BufTy).Contents (Elt F) → (⟨S32768x4, .f32⟩ : BufTy).Contents (Elt F)),
    StableHlo.unary main_v3045 main_v3046 ((extractStridedSlice S32768x2 ![0, 0] · slices_S32768x4_S32768x2_0_0) : (⟨S32768x4, .f32⟩ : BufTy).Contents (Elt F) → (⟨S32768x2, .f32⟩ : BufTy).Contents (Elt F)),
    StableHlo.unary main_v3045 main_v3047 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_969 (constant S_ .f32 0xC1F00000#32) ]

set_option maxRecDepth 8192 in
/-- The window is that straight line: each clip function unfolded at its calls, the sequencing reassociated. -/
theorem part_eq_66 (d : Dev nD) : main_part66 (F := F) d = seq ops66 := by
  simp only [main_part66, fn_clip_4.body, seq, bind_assoc, pure_bind]
  rfl

/-- Every operation of the window touches TensorCore references only. -/
theorem sub_66 : (ops66 : List (HloOp τ sig (Elt F))).Forall fun op => op.bufs ⊆ tcRefs τ sig :=
  ⟨unary_bufs_sub .., binary_bufs_sub .., unary_bufs_sub .., unary_bufs_sub .., binary_bufs_sub .., binary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., unary_bufs_sub .., binary_bufs_sub .., unary_bufs_sub ..,
    binary_bufs_sub .., binary_bufs_sub .., binary_bufs_sub .., unary_bufs_sub .., binary_bufs_sub .., binary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub ..⟩

/-- Every operation of the window determines all it writes. -/
theorem fresh_66 : (ops66 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_66 (V : Valuation τ sig (Elt F)) :
    after ops66 V (main_arg0 : DevRef τ sig) = V (main_arg0 : DevRef τ sig) := by
  simp only [after_cons, after_nil]
  rfl

/-- The operations of @main's statements 4021 … 4080, in order (85 of them): a statement's own operation, or, for a call
    of a clip function, the six operations of its body over that call's buffers. -/
abbrev ops67 : List (HloOp τ sig (Elt F)) :=
  [ StableHlo.nullary main_cst_970 (constant S_ .f32 0x41F00000#32),
    StableHlo.TRef.unary (.of main_cst_969 : StableHlo.TRef sig ⟨S_, .f32⟩) main_call280.v0 id,
    StableHlo.TRef.unary main_call280.v0 main_call280.v1 (broadcastInDim S32768x2 ![] bcast_S_S32768x2),
    StableHlo.TRef.binary main_call280.v1 (.of main_v3046 : StableHlo.TRef sig ⟨S32768x2, .f32⟩) main_call280.v2 maximumf,
    StableHlo.TRef.unary (.of main_cst_970 : StableHlo.TRef sig ⟨S_, .f32⟩) main_call280.v3 id,
    StableHlo.TRef.unary main_call280.v3 main_call280.v4 (broadcastInDim S32768x2 ![] bcast_S_S32768x2),
    StableHlo.TRef.binary main_call280.v4 main_call280.v2 main_call280.v5 minimumf,
    StableHlo.nullary main_cst_971 (constant S_ .f32 0xC1F00000#32),
    StableHlo.nullary main_cst_972 (constant S_ .f32 0x41F00000#32),
    StableHlo.TRef.unary (.of main_cst_971 : StableHlo.TRef sig ⟨S_, .f32⟩) main_call281.v0 id,
    StableHlo.TRef.unary main_call281.v0 main_call281.v1 (broadcastInDim S32768x2 ![] bcast_S_S32768x2),
    StableHlo.TRef.binary main_call281.v1 (.of main_v3047 : StableHlo.TRef sig ⟨S32768x2, .f32⟩) main_call281.v2 maximumf,
    StableHlo.TRef.unary (.of main_cst_972 : StableHlo.TRef sig ⟨S_, .f32⟩) main_call281.v3 id,
    StableHlo.TRef.unary main_call281.v3 main_call281.v4 (broadcastInDim S32768x2 ![] bcast_S_S32768x2),
    StableHlo.TRef.binary main_call281.v4 main_call281.v2 main_call281.v5 minimumf,
    StableHlo.unary main_v3048 main_v3050 (Host.sign : (⟨S32768x2, .f32⟩ : BufTy).Contents (Elt F) → (⟨S32768x2, .f32⟩ : BufTy).Contents (Elt F)),
    StableHlo.unary main_v3049 main_v3051 (Host.sign : (⟨S32768x2, .f32⟩ : BufTy).Contents (Elt F) → (⟨S32768x2, .f32⟩ : BufTy).Contents (Elt F)),
    StableHlo.binary main_v3050 main_v3051 main_v3052 (mulf : (⟨S32768x2, .f32⟩ : BufTy).Contents (Elt F) → (⟨S32768x2, .f32⟩ : BufTy).Contents (Elt F) → (⟨S32768x2, .f32⟩ : BufTy).Contents (Elt F)),
    StableHlo.unary main_v3048 main_v3053 (Host.absf : (⟨S32768x2, .f32⟩ : BufTy).Contents (Elt F) → (⟨S32768x2, .f32⟩ : BufTy).Contents (Elt F)),
    StableHlo.unary main_v3049 main_v3054 (Host.absf : (⟨S32768x2, .f32⟩ : BufTy).Contents (Elt F) → (⟨S32768x2, .f32⟩ : BufTy).Contents (Elt F)),
    StableHlo.binary main_v3053 main_v3054 main_v3055 (minimumf : (⟨S32768x2, .f32⟩ : BufTy).Contents (Elt F) → (⟨S32768x2, .f32⟩ : BufTy).Contents (Elt F) → (⟨S32768x2, .f32⟩ : BufTy).Contents (Elt F)),
    StableHlo.binary main_v3052 main_v3055 main_v3056 (mulf : (⟨S32768x2, .f32⟩ : BufTy).Contents (Elt F) → (⟨S32768x2, .f32⟩ : BufTy).Contents (Elt F) → (⟨S32768x2, .f32⟩ : BufTy).Contents (Elt F)),
    StableHlo.unary main_v3056 main_v3057 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3056 main_v3058 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_973 (constant S_ .f32 0xC1F00000#32),
    StableHlo.nullary main_cst_974 (constant S_ .f32 0x41F00000#32),
    StableHlo.TRef.unary (.of main_cst_973 : StableHlo.TRef sig ⟨S_, .f32⟩) main_call282.v0 id,
    StableHlo.TRef.unary main_call282.v0 main_call282.v1 (broadcastInDim S32768x1 ![] bcast_S_S32768x1),
    StableHlo.TRef.binary main_call282.v1 (.of main_v3057 : StableHlo.TRef sig ⟨S32768x1, .f32⟩) main_call282.v2 maximumf,
    StableHlo.TRef.unary (.of main_cst_974 : StableHlo.TRef sig ⟨S_, .f32⟩) main_call282.v3 id,
    StableHlo.TRef.unary main_call282.v3 main_call282.v4 (broadcastInDim S32768x1 ![] bcast_S_S32768x1),
    StableHlo.TRef.binary main_call282.v4 main_call282.v2 main_call282.v5 minimumf,
    StableHlo.nullary main_cst_975 (constant S_ .f32 0xC1F00000#32),
    StableHlo.nullary main_cst_976 (constant S_ .f32 0x41F00000#32),
    StableHlo.TRef.unary (.of main_cst_975 : StableHlo.TRef sig ⟨S_, .f32⟩) main_call283.v0 id,
    StableHlo.TRef.unary main_call283.v0 main_call283.v1 (broadcastInDim S32768x1 ![] bcast_S_S32768x1),
    StableHlo.TRef.binary main_call283.v1 (.of main_v3058 : StableHlo.TRef sig ⟨S32768x1, .f32⟩) main_call283.v2 maximumf,
    StableHlo.TRef.unary (.of main_cst_976 : StableHlo.TRef sig ⟨S_, .f32⟩) main_call283.v3 id,
    StableHlo.TRef.unary main_call283.v3 main_call283.v4 (broadcastInDim S32768x1 ![] bcast_S_S32768x1),
    StableHlo.TRef.binary main_call283.v4 main_call283.v2 main_call283.v5 minimumf,
    StableHlo.unary main_v3059 main_v3061 (Host.sign : (⟨S32768x1, .f32⟩ : BufTy).Contents (Elt F) → (⟨S32768x1, .f32⟩ : BufTy).Contents (Elt F)),
    StableHlo.unary main_v3060 main_v3062 (Host.sign : (⟨S32768x1, .f32⟩ : BufTy).Contents (Elt F) → (⟨S32768x1, .f32⟩ : BufTy).Contents (Elt F)),
    StableHlo.binary main_v3061 main_v3062 main_v3063 (mulf : (⟨S32768x1, .f32⟩ : BufTy).Contents (Elt F) → (⟨S32768x1, .f32⟩ : BufTy).Contents (Elt F) → (⟨S32768x1, .f32⟩ : BufTy).Contents (Elt F)),
    StableHlo.unary main_v3059 main_v3064 (Host.absf : (⟨S32768x1, .f32⟩ : BufTy).Contents (Elt F) → (⟨S32768x1, .f32⟩ : BufTy).Contents (Elt F)),
    StableHlo.unary main_v3060 main_v3065 (Host.absf : (⟨S32768x1, .f32⟩ : BufTy).Contents (Elt F) → (⟨S32768x1, .f32⟩ : BufTy).Contents (Elt F)),
    StableHlo.binary main_v3064 main_v3065 main_v3066 (minimumf : (⟨S32768x1, .f32⟩ : BufTy).Contents (Elt F) → (⟨S32768x1, .f32⟩ : BufTy).Contents (Elt F) → (⟨S32768x1, .f32⟩ : BufTy).Contents (Elt F)),
    StableHlo.binary main_v3063 main_v3066 main_v3067 (mulf : (⟨S32768x1, .f32⟩ : BufTy).Contents (Elt F) → (⟨S32768x1, .f32⟩ : BufTy).Contents (Elt F) → (⟨S32768x1, .f32⟩ : BufTy).Contents (Elt F)),
    StableHlo.nullary main_cst_977 (constant S_ .f32 0x00000000#32),
    StableHlo.unary main_cst_977 main_v3068 (broadcastInDim S32768x1 ![] bcast_S_S32768x1 : (⟨S_, .f32⟩ : BufTy).Contents (Elt F) → (⟨S32768x1, .f32⟩ : BufTy).Contents (Elt F)),
    StableHlo.binary main_v3067 main_v3068 main_v3069 (cmpf .ole : (⟨S32768x1, .f32⟩ : BufTy).Contents (Elt F) → (⟨S32768x1, .f32⟩ : BufTy).Contents (Elt F) → (⟨S32768x1, .i1⟩ : BufTy).Contents (Elt F)),
    StableHlo.unary main_v3069 main_v3070 (uitofp .f32 : (⟨S32768x1, .i1⟩ : BufTy).Contents (Elt F) → (⟨S32768x1, .f32⟩ : BufTy).Contents (Elt F)),
    StableHlo.nullary main_cst_978 (constant S_ .f32 0x40000000#32),
    StableHlo.unary main_cst_978 main_v3071 (broadcastInDim S32768x1 ![] bcast_S_S32768x1 : (⟨S_, .f32⟩ : BufTy).Contents (Elt F) → (⟨S32768x1, .f32⟩ : BufTy).Contents (Elt F)),
    StableHlo.binary main_v3071 main_v3070 main_v3072 (mulf : (⟨S32768x1, .f32⟩ : BufTy).Contents (Elt F) → (⟨S32768x1, .f32⟩ : BufTy).Contents (Elt F) → (⟨S32768x1, .f32⟩ : BufTy).Contents (Elt F)),
    StableHlo.nullary main_cst_979 (constant S_ .f32 0x3F800000#32),
    StableHlo.unary main_cst_979 main_v3073 (broadcastInDim S32768x1 ![] bcast_S_S32768x1 : (⟨S_, .f32⟩ : BufTy).Contents (Elt F) → (⟨S32768x1, .f32⟩ : BufTy).Contents (Elt F)),
    StableHlo.binary main_v3073 main_v3072 main_v3074 (subf : (⟨S32768x1, .f32⟩ : BufTy).Contents (Elt F) → (⟨S32768x1, .f32⟩ : BufTy).Contents (Elt F) → (⟨S32768x1, .f32⟩ : BufTy).Contents (Elt F)),
    StableHlo.binary main_v3074 main_v3057 main_v3075 (mulf : (⟨S32768x1, .f32⟩ : BufTy).Contents (Elt F) → (⟨S32768x1, .f32⟩ : BufTy).Contents (Elt F) → (⟨S32768x1, .f32⟩ : BufTy).Contents (Elt F)),
    StableHlo.binary main_v3075 main_v3058 main_v3076 (addf : (⟨S32768x1, .f32⟩ : BufTy).Contents (Elt F) → (⟨S32768x1, .f32⟩ : BufTy).Contents (Elt F) → (⟨S32768x1, .f32⟩ : BufTy).Contents (Elt F)),
    StableHlo.nullary main_cst_980 (constant S_ .f32 0x00000000#32),
    StableHlo.unary main_cst_980 main_v3077 (broadcastInDim S32768x1 ![] bcast_S_S32768x1 : (⟨S_, .f32⟩ : BufTy).Contents (Elt F) → (⟨S32768x1, .f32⟩ : BufTy).Contents (Elt F)),
    StableHlo.binary main_v3076 main_v3077 main_v3078 (cmpf .ole : (⟨S32768x1, .f32⟩ : BufTy).Contents (Elt F) → (⟨S32768x1, .f32⟩ : BufTy).Contents (Elt F) → (⟨S32768x1, .i1⟩ : BufTy).Contents (Elt F)),
    StableHlo.unary main_v3078 main_v3079 (uitofp .f32 : (⟨S32768x1, .i1⟩ : BufTy).Contents (Elt F) → (⟨S32768x1, .f32⟩ : BufTy).Contents (Elt F)),
    StableHlo.binary main_v3070 main_v3079 main_v3080 (cmpf .une : (⟨S32768x1, .f32⟩ : BufTy).Contents (Elt F) → (⟨S32768x1, .f32⟩ : BufTy).Contents (Elt F) → (⟨S32768x1, .i1⟩ : BufTy).Contents (Elt F)),
    StableHlo.unary main_v3080 main_v3081 (uitofp .f32 : (⟨S32768x1, .i1⟩ : BufTy).Contents (Elt F) → (⟨S32768x1, .f32⟩ : BufTy).Contents (Elt F)),
    StableHlo.binary main_v3081 main_v3079 main_v3082 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3070 main_v3079 main_v3083 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_981 (constant S_ .f32 0x40000000#32),
    StableHlo.unary main_cst_981 main_v3084 (broadcastInDim S32768x2 ![] bcast_S_S32768x2 : (⟨S_, .f32⟩ : BufTy).Contents (Elt F) → (⟨S32768x2, .f32⟩ : BufTy).Contents (Elt F)),
    StableHlo.binary main_v3084 main_v3082 main_v3085 (mulf : (⟨S32768x2, .f32⟩ : BufTy).Contents (Elt F) → (⟨S32768x2, .f32⟩ : BufTy).Contents (Elt F) → (⟨S32768x2, .f32⟩ : BufTy).Contents (Elt F)),
    StableHlo.nullary main_cst_982 (constant S_ .f32 0x3F800000#32),
    StableHlo.unary main_cst_982 main_v3086 (broadcastInDim S32768x2 ![] bcast_S_S32768x2 : (⟨S_, .f32⟩ : BufTy).Contents (Elt F) → (⟨S32768x2, .f32⟩ : BufTy).Contents (Elt F)),
    StableHlo.binary main_v3086 main_v3085 main_v3087 (subf : (⟨S32768x2, .f32⟩ : BufTy).Contents (Elt F) → (⟨S32768x2, .f32⟩ : BufTy).Contents (Elt F) → (⟨S32768x2, .f32⟩ : BufTy).Contents (Elt F)),
    StableHlo.binary main_v3087 main_v3046 main_v3088 (mulf : (⟨S32768x2, .f32⟩ : BufTy).Contents (Elt F) → (⟨S32768x2, .f32⟩ : BufTy).Contents (Elt F) → (⟨S32768x2, .f32⟩ : BufTy).Contents (Elt F)),
    StableHlo.binary main_v3088 main_v3047 main_v3089 (addf : (⟨S32768x2, .f32⟩ : BufTy).Contents (Elt F) → (⟨S32768x2, .f32⟩ : BufTy).Contents (Elt F) → (⟨S32768x2, .f32⟩ : BufTy).Contents (Elt F)),
    StableHlo.unary main_v3089 main_v3090 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3089 main_v3091 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_983 (constant S_ .f32 0xC1F00000#32),
    StableHlo.nullary main_cst_984 (constant S_ .f32 0x41F00000#32),
    StableHlo.TRef.unary (.of main_cst_983 : StableHlo.TRef sig ⟨S_, .f32⟩) main_call284.v0 id,
    StableHlo.TRef.unary main_call284.v0 main_call284.v1 (broadcastInDim S32768x1 ![] bcast_S_S32768x1),
    StableHlo.TRef.binary main_call284.v1 (.of main_v3090 : StableHlo.TRef sig ⟨S32768x1, .f32⟩) main_call284.v2 maximumf,
    StableHlo.TRef.unary (.of main_cst_984 : StableHlo.TRef sig ⟨S_, .f32⟩) main_call284.v3 id,
    StableHlo.TRef.unary main_call284.v3 main_call284.v4 (broadcastInDim S32768x1 ![] bcast_S_S32768x1),
    StableHlo.TRef.binary main_call284.v4 main_call284.v2 main_call284.v5 minimumf ]

set_option maxRecDepth 8192 in
/-- The window is that straight line: each clip function unfolded at its calls, the sequencing reassociated. -/
theorem part_eq_67 (d : Dev nD) : main_part67 (F := F) d = seq ops67 := by
  simp only [main_part67, fn_clip_5.body, fn_clip_6.body, seq, bind_assoc, pure_bind]

/-- Every operation of the window touches TensorCore references only. -/
theorem sub_67 : (ops67 : List (HloOp τ sig (Elt F))).Forall fun op => op.bufs ⊆ tcRefs τ sig :=
  ⟨nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub ..⟩

/-- Every operation of the window determines all it writes. -/
theorem fresh_67 : (ops67 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_67 (V : Valuation τ sig (Elt F)) :
    after ops67 V (main_arg0 : DevRef τ sig) = V (main_arg0 : DevRef τ sig) := by
  simp only [after_cons, after_nil]
  rfl

/-- The operations of @main's statements 4081 … 4140, in order (75 of them): a statement's own operation, or, for a call
    of a clip function, the six operations of its body over that call's buffers. -/
abbrev ops68 : List (HloOp τ sig (Elt F)) :=
  [ StableHlo.nullary main_cst_985 (constant S_ .f32 0xC1F00000#32),
    StableHlo.nullary main_cst_986 (constant S_ .f32 0x41F00000#32),
    StableHlo.TRef.unary (.of main_cst_985 : StableHlo.TRef sig ⟨S_, .f32⟩) main_call285.v0 id,
    StableHlo.TRef.unary main_call285.v0 main_call285.v1 (broadcastInDim S32768x1 ![] bcast_S_S32768x1),
    StableHlo.TRef.binary main_call285.v1 (.of main_v3091 : StableHlo.TRef sig ⟨S32768x1, .f32⟩) main_call285.v2 maximumf,
    StableHlo.TRef.unary (.of main_cst_986 : StableHlo.TRef sig ⟨S_, .f32⟩) main_call285.v3 id,
    StableHlo.TRef.unary main_call285.v3 main_call285.v4 (broadcastInDim S32768x1 ![] bcast_S_S32768x1),
    StableHlo.TRef.binary main_call285.v4 main_call285.v2 main_call285.v5 minimumf,
    StableHlo.unary main_v3092 main_v3094 (Host.sign : (⟨S32768x1, .f32⟩ : BufTy).Contents (Elt F) → (⟨S32768x1, .f32⟩ : BufTy).Contents (Elt F)),
    StableHlo.unary main_v3093 main_v3095 (Host.sign : (⟨S32768x1, .f32⟩ : BufTy).Contents (Elt F) → (⟨S32768x1, .f32⟩ : BufTy).Contents (Elt F)),
    StableHlo.binary main_v3094 main_v3095 main_v3096 (mulf : (⟨S32768x1, .f32⟩ : BufTy).Contents (Elt F) → (⟨S32768x1, .f32⟩ : BufTy).Contents (Elt F) → (⟨S32768x1, .f32⟩ : BufTy).Contents (Elt F)),
    StableHlo.unary main_v3092 main_v3097 (Host.absf : (⟨S32768x1, .f32⟩ : BufTy).Contents (Elt F) → (⟨S32768x1, .f32⟩ : BufTy).Contents (Elt F)),
    StableHlo.unary main_v3093 main_v3098 (Host.absf : (⟨S32768x1, .f32⟩ : BufTy).Contents (Elt F) → (⟨S32768x1, .f32⟩ : BufTy).Contents (Elt F)),
    StableHlo.binary main_v3097 main_v3098 main_v3099 (minimumf : (⟨S32768x1, .f32⟩ : BufTy).Contents (Elt F) → (⟨S32768x1, .f32⟩ : BufTy).Contents (Elt F) → (⟨S32768x1, .f32⟩ : BufTy).Contents (Elt F)),
    StableHlo.binary main_v3096 main_v3099 main_v3100 (mulf : (⟨S32768x1, .f32⟩ : BufTy).Contents (Elt F) → (⟨S32768x1, .f32⟩ : BufTy).Contents (Elt F) → (⟨S32768x1, .f32⟩ : BufTy).Contents (Elt F)),
    StableHlo.nullary main_cst_987 (constant S_ .f32 0x00000000#32),
    StableHlo.unary main_cst_987 main_v3101 (broadcastInDim S32768x1 ![] bcast_S_S32768x1 : (⟨S_, .f32⟩ : BufTy).Contents (Elt F) → (⟨S32768x1, .f32⟩ : BufTy).Contents (Elt F)),
    StableHlo.binary main_v3100 main_v3101 main_v3102 (cmpf .ole : (⟨S32768x1, .f32⟩ : BufTy).Contents (Elt F) → (⟨S32768x1, .f32⟩ : BufTy).Contents (Elt F) → (⟨S32768x1, .i1⟩ : BufTy).Contents (Elt F)),
    StableHlo.unary main_v3102 main_v3103 (uitofp .f32 : (⟨S32768x1, .i1⟩ : BufTy).Contents (Elt F) → (⟨S32768x1, .f32⟩ : BufTy).Contents (Elt F)),
    StableHlo.nullary main_cst_988 (constant S_ .f32 0x40000000#32),
    StableHlo.unary main_cst_988 main_v3104 (broadcastInDim S32768x1 ![] bcast_S_S32768x1 : (⟨S_, .f32⟩ : BufTy).Contents (Elt F) → (⟨S32768x1, .f32⟩ : BufTy).Contents (Elt F)),
    StableHlo.binary main_v3104 main_v3103 main_v3105 (mulf : (⟨S32768x1, .f32⟩ : BufTy).Contents (Elt F) → (⟨S32768x1, .f32⟩ : BufTy).Contents (Elt F) → (⟨S32768x1, .f32⟩ : BufTy).Contents (Elt F)),
    StableHlo.nullary main_cst_989 (constant S_ .f32 0x3F800000#32),
    StableHlo.unary main_cst_989 main_v3106 (broadcastInDim S32768x1 ![] bcast_S_S32768x1 : (⟨S_, .f32⟩ : BufTy).Contents (Elt F) → (⟨S32768x1, .f32⟩ : BufTy).Contents (Elt F)),
    StableHlo.binary main_v3106 main_v3105 main_v3107 (subf : (⟨S32768x1, .f32⟩ : BufTy).Contents (Elt F) → (⟨S32768x1, .f32⟩ : BufTy).Contents (Elt F) → (⟨S32768x1, .f32⟩ : BufTy).Contents (Elt F)),
    StableHlo.binary main_v3107 main_v3090 main_v3108 (mulf : (⟨S32768x1, .f32⟩ : BufTy).Contents (Elt F) → (⟨S32768x1, .f32⟩ : BufTy).Contents (Elt F) → (⟨S32768x1, .f32⟩ : BufTy).Contents (Elt F)),
    StableHlo.binary main_v3108 main_v3091 main_v3109 (addf : (⟨S32768x1, .f32⟩ : BufTy).Contents (Elt F) → (⟨S32768x1, .f32⟩ : BufTy).Contents (Elt F) → (⟨S32768x1, .f32⟩ : BufTy).Contents (Elt F)),
    StableHlo.nullary main_cst_990 (constant S_ .f32 0x00000000#32),
    StableHlo.unary main_cst_990 main_v3110 (broadcastInDim S32768x1 ![] bcast_S_S32768x1 : (⟨S_, .f32⟩ : BufTy).Contents (Elt F) → (⟨S32768x1, .f32⟩ : BufTy).Contents (Elt F)),
    StableHlo.binary main_v3109 main_v3110 main_v3111 (cmpf .ole : (⟨S32768x1, .f32⟩ : BufTy).Contents (Elt F) → (⟨S32768x1, .f32⟩ : BufTy).Contents (Elt F) → (⟨S32768x1, .i1⟩ : BufTy).Contents (Elt F)),
    StableHlo.unary main_v3111 main_v3112 (uitofp .f32 : (⟨S32768x1, .i1⟩ : BufTy).Contents (Elt F) → (⟨S32768x1, .f32⟩ : BufTy).Contents (Elt F)),
    StableHlo.binary main_v3103 main_v3112 main_v3113 (cmpf .une : (⟨S32768x1, .f32⟩ : BufTy).Contents (Elt F) → (⟨S32768x1, .f32⟩ : BufTy).Contents (Elt F) → (⟨S32768x1, .i1⟩ : BufTy).Contents (Elt F)),
    StableHlo.unary main_v3113 main_v3114 (uitofp .f32 : (⟨S32768x1, .i1⟩ : BufTy).Contents (Elt F) → (⟨S32768x1, .f32⟩ : BufTy).Contents (Elt F)),
    StableHlo.binary main_v3114 main_v3112 main_v3115 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3103 main_v3112 main_v3116 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3082 main_v3115 main_v3117 (cmpf .une : (⟨S32768x2, .f32⟩ : BufTy).Contents (Elt F) → (⟨S32768x2, .f32⟩ : BufTy).Contents (Elt F) → (⟨S32768x2, .i1⟩ : BufTy).Contents (Elt F)),
    StableHlo.unary main_v3117 main_v3118 (uitofp .f32 : (⟨S32768x2, .i1⟩ : BufTy).Contents (Elt F) → (⟨S32768x2, .f32⟩ : BufTy).Contents (Elt F)),
    StableHlo.binary main_v3118 main_v3115 main_v3119 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v3083 main_v3116 main_v3120 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_991 (constant S_ .f32 0x40000000#32),
    StableHlo.unary main_cst_991 main_v3121 (broadcastInDim S32768x4 ![] bcast_S_S32768x4 : (⟨S_, .f32⟩ : BufTy).Contents (Elt F) → (⟨S32768x4, .f32⟩ : BufTy).Contents (Elt F)),
    StableHlo.binary main_v3121 main_v3119 main_v3122 (mulf : (⟨S32768x4, .f32⟩ : BufTy).Contents (Elt F) → (⟨S32768x4, .f32⟩ : BufTy).Contents (Elt F) → (⟨S32768x4, .f32⟩ : BufTy).Contents (Elt F)),
    StableHlo.nullary main_cst_992 (constant S_ .f32 0x3F800000#32),
    StableHlo.unary main_cst_992 main_v3123 (broadcastInDim S32768x4 ![] bcast_S_S32768x4 : (⟨S_, .f32⟩ : BufTy).Contents (Elt F) → (⟨S32768x4, .f32⟩ : BufTy).Contents (Elt F)),
    StableHlo.binary main_v3123 main_v3122 main_v3124 (subf : (⟨S32768x4, .f32⟩ : BufTy).Contents (Elt F) → (⟨S32768x4, .f32⟩ : BufTy).Contents (Elt F) → (⟨S32768x4, .f32⟩ : BufTy).Contents (Elt F)),
    StableHlo.binary main_v3124 main_v3035 main_v3125 (mulf : (⟨S32768x4, .f32⟩ : BufTy).Contents (Elt F) → (⟨S32768x4, .f32⟩ : BufTy).Contents (Elt F) → (⟨S32768x4, .f32⟩ : BufTy).Contents (Elt F)),
    StableHlo.binary main_v3125 main_v3036 main_v3126 (addf : (⟨S32768x4, .f32⟩ : BufTy).Contents (Elt F) → (⟨S32768x4, .f32⟩ : BufTy).Contents (Elt F) → (⟨S32768x4, .f32⟩ : BufTy).Contents (Elt F)),
    StableHlo.unary main_v3126 main_v3127 ((extractStridedSlice S32768x2 ![0, 0] · slices_S32768x4_S32768x2_0_0) : (⟨S32768x4, .f32⟩ : BufTy).Contents (Elt F) → (⟨S32768x2, .f32⟩ : BufTy).Contents (Elt F)),
    StableHlo.unary main_v3126 main_v3128 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_993 (constant S_ .f32 0xC1F00000#32),
    StableHlo.nullary main_cst_994 (constant S_ .f32 0x41F00000#32),
    StableHlo.TRef.unary (.of main_cst_993 : StableHlo.TRef sig ⟨S_, .f32⟩) main_call286.v0 id,
    StableHlo.TRef.unary main_call286.v0 main_call286.v1 (broadcastInDim S32768x2 ![] bcast_S_S32768x2),
    StableHlo.TRef.binary main_call286.v1 (.of main_v3127 : StableHlo.TRef sig ⟨S32768x2, .f32⟩) main_call286.v2 maximumf,
    StableHlo.TRef.unary (.of main_cst_994 : StableHlo.TRef sig ⟨S_, .f32⟩) main_call286.v3 id,
    StableHlo.TRef.unary main_call286.v3 main_call286.v4 (broadcastInDim S32768x2 ![] bcast_S_S32768x2),
    StableHlo.TRef.binary main_call286.v4 main_call286.v2 main_call286.v5 minimumf,
    StableHlo.nullary main_cst_995 (constant S_ .f32 0xC1F00000#32),
    StableHlo.nullary main_cst_996 (constant S_ .f32 0x41F00000#32),
    StableHlo.TRef.unary (.of main_cst_995 : StableHlo.TRef sig ⟨S_, .f32⟩) main_call287.v0 id,
    StableHlo.TRef.unary main_call287.v0 main_call287.v1 (broadcastInDim S32768x2 ![] bcast_S_S32768x2),
    StableHlo.TRef.binary main_call287.v1 (.of main_v3128 : StableHlo.TRef sig ⟨S32768x2, .f32⟩) main_call287.v2 maximumf,
    StableHlo.TRef.unary (.of main_cst_996 : StableHlo.TRef sig ⟨S_, .f32⟩) main_call287.v3 id,
    StableHlo.TRef.unary main_call287.v3 main_call287.v4 (broadcastInDim S32768x2 ![] bcast_S_S32768x2),
    StableHlo.TRef.binary main_call287.v4 main_call287.v2 main_call287.v5 minimumf,
    StableHlo.unary main_v3129 main_v3131 (Host.sign : (⟨S32768x2, .f32⟩ : BufTy).Contents (Elt F) → (⟨S32768x2, .f32⟩ : BufTy).Contents (Elt F)),
    StableHlo.unary main_v3130 main_v3132 (Host.sign : (⟨S32768x2, .f32⟩ : BufTy).Contents (Elt F) → (⟨S32768x2, .f32⟩ : BufTy).Contents (Elt F)),
    StableHlo.binary main_v3131 main_v3132 main_v3133 (mulf : (⟨S32768x2, .f32⟩ : BufTy).Contents (Elt F) → (⟨S32768x2, .f32⟩ : BufTy).Contents (Elt F) → (⟨S32768x2, .f32⟩ : BufTy).Contents (Elt F)),
    StableHlo.unary main_v3129 main_v3134 (Host.absf : (⟨S32768x2, .f32⟩ : BufTy).Contents (Elt F) → (⟨S32768x2, .f32⟩ : BufTy).Contents (Elt F)),
    StableHlo.unary main_v3130 main_v3135 (Host.absf : (⟨S32768x2, .f32⟩ : BufTy).Contents (Elt F) → (⟨S32768x2, .f32⟩ : BufTy).Contents (Elt F)),
    StableHlo.binary main_v3134 main_v3135 main_v3136 (minimumf : (⟨S32768x2, .f32⟩ : BufTy).Contents (Elt F) → (⟨S32768x2, .f32⟩ : BufTy).Contents (Elt F) → (⟨S32768x2, .f32⟩ : BufTy).Contents (Elt F)),
    StableHlo.binary main_v3133 main_v3136 main_v3137 (mulf : (⟨S32768x2, .f32⟩ : BufTy).Contents (Elt F) → (⟨S32768x2, .f32⟩ : BufTy).Contents (Elt F) → (⟨S32768x2, .f32⟩ : BufTy).Contents (Elt F)),
    StableHlo.unary main_v3137 main_v3138 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3137 main_v3139 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_997 (constant S_ .f32 0xC1F00000#32) ]

set_option maxRecDepth 8192 in
/-- The window is that straight line: each clip function unfolded at its calls, the sequencing reassociated. -/
theorem part_eq_68 (d : Dev nD) : main_part68 (F := F) d = seq ops68 := by
  simp only [main_part68, fn_clip_6.body, fn_clip_5.body, seq, bind_assoc, pure_bind]
  rfl

/-- Every operation of the window touches TensorCore references only. -/
theorem sub_68 : (ops68 : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    unary_bufs_sub .., binary_bufs_sub .., unary_bufs_sub .., binary_bufs_sub .., binary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    unary_bufs_sub .., unary_bufs_sub .., nullary_bufs_sub ..⟩

/-- Every operation of the window determines all it writes. -/
theorem fresh_68 : (ops68 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
/-- The window writes no argument of @main: the argument's buffer holds after it what it held before. -/
theorem keep_68 (V : Valuation τ sig (Elt F)) :
    after ops68 V (main_arg0 : DevRef τ sig) = V (main_arg0 : DevRef τ sig) := by
  simp only [after_cons, after_nil]
  rfl

/-- The operations of @main's statements 4141 … 4200, in order (80 of them): a statement's own operation, or, for a call
    of a clip function, the six operations of its body over that call's buffers. -/
abbrev ops69 : List (HloOp τ sig (Elt F)) :=
  [ StableHlo.nullary main_cst_998 (constant S_ .f32 0x41F00000#32),
    StableHlo.TRef.unary (.of main_cst_997 : StableHlo.TRef sig ⟨S_, .f32⟩) main_call288.v0 id,
    StableHlo.TRef.unary main_call288.v0 main_call288.v1 (broadcastInDim S32768x1 ![] bcast_S_S32768x1),
    StableHlo.TRef.binary main_call288.v1 (.of main_v3138 : StableHlo.TRef sig ⟨S32768x1, .f32⟩) main_call288.v2 maximumf,
    StableHlo.TRef.unary (.of main_cst_998 : StableHlo.TRef sig ⟨S_, .f32⟩) main_call288.v3 id,
    StableHlo.TRef.unary main_call288.v3 main_call288.v4 (broadcastInDim S32768x1 ![] bcast_S_S32768x1),
    StableHlo.TRef.binary main_call288.v4 main_call288.v2 main_call288.v5 minimumf,
    StableHlo.nullary main_cst_999 (constant S_ .f32 0xC1F00000#32),
    StableHlo.nullary main_cst_1000 (constant S_ .f32 0x41F00000#32),
    StableHlo.TRef.unary (.of main_cst_999 : StableHlo.TRef sig ⟨S_, .f32⟩) main_call289.v0 id,
    StableHlo.TRef.unary main_call289.v0 main_call289.v1 (broadcastInDim S32768x1 ![] bcast_S_S32768x1),
    StableHlo.TRef.binary main_call289.v1 (.of main_v3139 : StableHlo.TRef sig ⟨S32768x1, .f32⟩) main_call289.v2 maximumf,
    StableHlo.TRef.unary (.of main_cst_1000 : StableHlo.TRef sig ⟨S_, .f32⟩) main_call289.v3 id,
    StableHlo.TRef.unary main_call289.v3 main_call289.v4 (broadcastInDim S32768x1 ![] bcast_S_S32768x1),
    StableHlo.TRef.binary main_call289.v4 main_call289.v2 main_call289.v5 minimumf,
    StableHlo.unary main_v3140 main_v3142 (Host.sign : (⟨S32768x1, .f32⟩ : BufTy).Contents (Elt F) → (⟨S32768x1, .f32⟩ : BufTy).Contents (Elt F)),
    StableHlo.unary main_v3141 main_v3143 (Host.sign : (⟨S32768x1, .f32⟩ : BufTy).Contents (Elt F) → (⟨S32768x1, .f32⟩ : BufTy).Contents (Elt F)),
    StableHlo.binary main_v3142 main_v3143 main_v3144 (mulf : (⟨S32768x1, .f32⟩ : BufTy).Contents (Elt F) → (⟨S32768x1, .f32⟩ : BufTy).Contents (Elt F) → (⟨S32768x1, .f32⟩ : BufTy).Contents (Elt F)),
    StableHlo.unary main_v3140 main_v3145 (Host.absf : (⟨S32768x1, .f32⟩ : BufTy).Contents (Elt F) → (⟨S32768x1, .f32⟩ : BufTy).Contents (Elt F)),
    StableHlo.unary main_v3141 main_v3146 (Host.absf : (⟨S32768x1, .f32⟩ : BufTy).Contents (Elt F) → (⟨S32768x1, .f32⟩ : BufTy).Contents (Elt F)),
    StableHlo.binary main_v3145 main_v3146 main_v3147 (minimumf : (⟨S32768x1, .f32⟩ : BufTy).Contents (Elt F) → (⟨S32768x1, .f32⟩ : BufTy).Contents (Elt F) → (⟨S32768x1, .f32⟩ : BufTy).Contents (Elt F)),
    StableHlo.binary main_v3144 main_v3147 main_v3148 (mulf : (⟨S32768x1, .f32⟩ : BufTy).Contents (Elt F) → (⟨S32768x1, .f32⟩ : BufTy).Contents (Elt F) → (⟨S32768x1, .f32⟩ : BufTy).Contents (Elt F)),
    StableHlo.nullary main_cst_1001 (constant S_ .f32 0x00000000#32),
    StableHlo.unary main_cst_1001 main_v3149 (broadcastInDim S32768x1 ![] bcast_S_S32768x1 : (⟨S_, .f32⟩ : BufTy).Contents (Elt F) → (⟨S32768x1, .f32⟩ : BufTy).Contents (Elt F)),
    StableHlo.binary main_v3148 main_v3149 main_v3150 (cmpf .ole : (⟨S32768x1, .f32⟩ : BufTy).Contents (Elt F) → (⟨S32768x1, .f32⟩ : BufTy).Contents (Elt F) → (⟨S32768x1, .i1⟩ : BufTy).Contents (Elt F)),
    StableHlo.unary main_v3150 main_v3151 (uitofp .f32 : (⟨S32768x1, .i1⟩ : BufTy).Contents (Elt F) → (⟨S32768x1, .f32⟩ : BufTy).Contents (Elt F)),
    StableHlo.nullary main_cst_1002 (constant S_ .f32 0x40000000#32),
    StableHlo.unary main_cst_1002 main_v3152 (broadcastInDim S32768x1 ![] bcast_S_S32768x1 : (⟨S_, .f32⟩ : BufTy).Contents (Elt F) → (⟨S32768x1, .f32⟩ : BufTy).Contents (Elt F)),
    StableHlo.binary main_v3152 main_v3151 main_v3153 (mulf : (⟨S32768x1, .f32⟩ : BufTy).Contents (Elt F) → (⟨S32768x1, .f32⟩ : BufTy).Contents (Elt F) → (⟨S32768x1, .f32⟩ : BufTy).Contents (Elt F)),
    StableHlo.nullary main_cst_1003 (constant S_ .f32 0x3F800000#32),
    StableHlo.unary main_cst_1003 main_v3154 (broadcastInDim S32768x1 ![] bcast_S_S32768x1 : (⟨S_, .f32⟩ : BufTy).Contents (Elt F) → (⟨S32768x1, .f32⟩ : BufTy).Contents (Elt F)),
    StableHlo.binary main_v3154 main_v3153 main_v3155 (subf : (⟨S32768x1, .f32⟩ : BufTy).Contents (Elt F) → (⟨S32768x1, .f32⟩ : BufTy).Contents (Elt F) → (⟨S32768x1, .f32⟩ : BufTy).Contents (Elt F)),
    StableHlo.binary main_v3155 main_v3138 main_v3156 (mulf : (⟨S32768x1, .f32⟩ : BufTy).Contents (Elt F) → (⟨S32768x1, .f32⟩ : BufTy).Contents (Elt F) → (⟨S32768x1, .f32⟩ : BufTy).Contents (Elt F)),
    StableHlo.binary main_v3156 main_v3139 main_v3157 (addf : (⟨S32768x1, .f32⟩ : BufTy).Contents (Elt F) → (⟨S32768x1, .f32⟩ : BufTy).Contents (Elt F) → (⟨S32768x1, .f32⟩ : BufTy).Contents (Elt F)),
    StableHlo.nullary main_cst_1004 (constant S_ .f32 0x00000000#32),
    StableHlo.unary main_cst_1004 main_v3158 (broadcastInDim S32768x1 ![] bcast_S_S32768x1 : (⟨S_, .f32⟩ : BufTy).Contents (Elt F) → (⟨S32768x1, .f32⟩ : BufTy).Contents (Elt F)),
    StableHlo.binary main_v3157 main_v3158 main_v3159 (cmpf .ole : (⟨S32768x1, .f32⟩ : BufTy).Contents (Elt F) → (⟨S32768x1, .f32⟩ : BufTy).Contents (Elt F) → (⟨S32768x1, .i1⟩ : BufTy).Contents (Elt F)),
    StableHlo.unary main_v3159 main_v3160 (uitofp .f32 : (⟨S32768x1, .i1⟩ : BufTy).Contents (Elt F) → (⟨S32768x1, .f32⟩ : BufTy).Contents (Elt F)),
    StableHlo.binary main_v3151 main_v3160 main_v3161 (cmpf .une : (⟨S32768x1, .f32⟩ : BufTy).Contents (Elt F) → (⟨S32768x1, .f32⟩ : BufTy).Contents (Elt F) → (⟨S32768x1, .i1⟩ : BufTy).Contents (Elt F)),
    StableHlo.unary main_v3161 main_v3162 (uitofp .f32 : (⟨S32768x1, .i1⟩ : BufTy).Contents (Elt F) → (⟨S32768x1, .f32⟩ : BufTy).Contents (Elt F)),
    StableHlo.binary main_v3162 main_v3160 main_v3163 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3151 main_v3160 main_v3164 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1005 (constant S_ .f32 0x40000000#32),
    StableHlo.unary main_cst_1005 main_v3165 (broadcastInDim S32768x2 ![] bcast_S_S32768x2 : (⟨S_, .f32⟩ : BufTy).Contents (Elt F) → (⟨S32768x2, .f32⟩ : BufTy).Contents (Elt F)),
    StableHlo.binary main_v3165 main_v3163 main_v3166 (mulf : (⟨S32768x2, .f32⟩ : BufTy).Contents (Elt F) → (⟨S32768x2, .f32⟩ : BufTy).Contents (Elt F) → (⟨S32768x2, .f32⟩ : BufTy).Contents (Elt F)),
    StableHlo.nullary main_cst_1006 (constant S_ .f32 0x3F800000#32),
    StableHlo.unary main_cst_1006 main_v3167 (broadcastInDim S32768x2 ![] bcast_S_S32768x2 : (⟨S_, .f32⟩ : BufTy).Contents (Elt F) → (⟨S32768x2, .f32⟩ : BufTy).Contents (Elt F)),
    StableHlo.binary main_v3167 main_v3166 main_v3168 (subf : (⟨S32768x2, .f32⟩ : BufTy).Contents (Elt F) → (⟨S32768x2, .f32⟩ : BufTy).Contents (Elt F) → (⟨S32768x2, .f32⟩ : BufTy).Contents (Elt F)),
    StableHlo.binary main_v3168 main_v3127 main_v3169 (mulf : (⟨S32768x2, .f32⟩ : BufTy).Contents (Elt F) → (⟨S32768x2, .f32⟩ : BufTy).Contents (Elt F) → (⟨S32768x2, .f32⟩ : BufTy).Contents (Elt F)),
    StableHlo.binary main_v3169 main_v3128 main_v3170 (addf : (⟨S32768x2, .f32⟩ : BufTy).Contents (Elt F) → (⟨S32768x2, .f32⟩ : BufTy).Contents (Elt F) → (⟨S32768x2, .f32⟩ : BufTy).Contents (Elt F)),
    StableHlo.unary main_v3170 main_v3171 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3170 main_v3172 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1007 (constant S_ .f32 0xC1F00000#32),
    StableHlo.nullary main_cst_1008 (constant S_ .f32 0x41F00000#32),
    StableHlo.TRef.unary (.of main_cst_1007 : StableHlo.TRef sig ⟨S_, .f32⟩) main_call290.v0 id,
    StableHlo.TRef.unary main_call290.v0 main_call290.v1 (broadcastInDim S32768x1 ![] bcast_S_S32768x1),
    StableHlo.TRef.binary main_call290.v1 (.of main_v3171 : StableHlo.TRef sig ⟨S32768x1, .f32⟩) main_call290.v2 maximumf,
    StableHlo.TRef.unary (.of main_cst_1008 : StableHlo.TRef sig ⟨S_, .f32⟩) main_call290.v3 id,
    StableHlo.TRef.unary main_call290.v3 main_call290.v4 (broadcastInDim S32768x1 ![] bcast_S_S32768x1),
    StableHlo.TRef.binary main_call290.v4 main_call290.v2 main_call290.v5 minimumf,
    StableHlo.nullary main_cst_1009 (constant S_ .f32 0xC1F00000#32),
    StableHlo.nullary main_cst_1010 (constant S_ .f32 0x41F00000#32),
    StableHlo.TRef.unary (.of main_cst_1009 : StableHlo.TRef sig ⟨S_, .f32⟩) main_call291.v0 id,
    StableHlo.TRef.unary main_call291.v0 main_call291.v1 (broadcastInDim S32768x1 ![] bcast_S_S32768x1),
    StableHlo.TRef.binary main_call291.v1 (.of main_v3172 : StableHlo.TRef sig ⟨S32768x1, .f32⟩) main_call291.v2 maximumf,
    StableHlo.TRef.unary (.of main_cst_1010 : StableHlo.TRef sig ⟨S_, .f32⟩) main_call291.v3 id,
    StableHlo.TRef.unary main_call291.v3 main_call291.v4 (broadcastInDim S32768x1 ![] bcast_S_S32768x1),
    StableHlo.TRef.binary main_call291.v4 main_call291.v2 main_call291.v5 minimumf,
    StableHlo.unary main_v3173 main_v3175 (Host.sign : (⟨S32768x1, .f32⟩ : BufTy).Contents (Elt F) → (⟨S32768x1, .f32⟩ : BufTy).Contents (Elt F)),
    StableHlo.unary main_v3174 main_v3176 (Host.sign : (⟨S32768x1, .f32⟩ : BufTy).Contents (Elt F) → (⟨S32768x1, .f32⟩ : BufTy).Contents (Elt F)),
    StableHlo.binary main_v3175 main_v3176 main_v3177 (mulf : (⟨S32768x1, .f32⟩ : BufTy).Contents (Elt F) → (⟨S32768x1, .f32⟩ : BufTy).Contents (Elt F) → (⟨S32768x1, .f32⟩ : BufTy).Contents (Elt F)),
    StableHlo.unary main_v3173 main_v3178 (Host.absf : (⟨S32768x1, .f32⟩ : BufTy).Contents (Elt F) → (⟨S32768x1, .f32⟩ : BufTy).Contents (Elt F)),
    StableHlo.unary main_v3174 main_v3179 (Host.absf : (⟨S32768x1, .f32⟩ : BufTy).Contents (Elt F) → (⟨S32768x1, .f32⟩ : BufTy).Contents (Elt F)),
    StableHlo.binary main_v3178 main_v3179 main_v3180 (minimumf : (⟨S32768x1, .f32⟩ : BufTy).Contents (Elt F) → (⟨S32768x1, .f32⟩ : BufTy).Contents (Elt F) → (⟨S32768x1, .f32⟩ : BufTy).Contents (Elt F)),
    StableHlo.binary main_v3177 main_v3180 main_v3181 (mulf : (⟨S32768x1, .f32⟩ : BufTy).Contents (Elt F) → (⟨S32768x1, .f32⟩ : BufTy).Contents (Elt F) → (⟨S32768x1, .f32⟩ : BufTy).Contents (Elt F)),
    StableHlo.nullary main_cst_1011 (constant S_ .f32 0x00000000#32),
    StableHlo.unary main_cst_1011 main_v3182 (broadcastInDim S32768x1 ![] bcast_S_S32768x1 : (⟨S_, .f32⟩ : BufTy).Contents (Elt F) → (⟨S32768x1, .f32⟩ : BufTy).Contents (Elt F)),
    StableHlo.binary main_v3181 main_v3182 main_v3183 (cmpf .ole : (⟨S32768x1, .f32⟩ : BufTy).Contents (Elt F) → (⟨S32768x1, .f32⟩ : BufTy).Contents (Elt F) → (⟨S32768x1, .i1⟩ : BufTy).Contents (Elt F)),
    StableHlo.unary main_v3183 main_v3184 (uitofp .f32 : (⟨S32768x1, .i1⟩ : BufTy).Contents (Elt F) → (⟨S32768x1, .f32⟩ : BufTy).Contents (Elt F)),
    StableHlo.nullary main_cst_1012 (constant S_ .f32 0x40000000#32) ]

set_option maxRecDepth 8192 in
/-- The window is that straight line: each clip function unfolded at its calls, the sequencing reassociated. -/
theorem part_eq_69 (d : Dev nD) : main_part69 (F := F) d = seq ops69 := by
  simp only [main_part69, fn_clip_6.body, seq, bind_assoc, pure_bind]
  rfl

/-- Every operation of the window touches TensorCore references only. -/
theorem sub_69 : (ops69 : List (HloOp τ sig (Elt F))).Forall fun op => op.bufs ⊆ tcRefs τ sig :=
  ⟨nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., binary_bufs_sub .., binary_bufs_sub .., nullary_bufs_sub .., unary_bufs_sub ..,
    binary_bufs_sub .., unary_bufs_sub .., binary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., binary_bufs_sub ..,
    unary_bufs_sub .., nullary_bufs_sub ..⟩

/-- Every operation of the window determines all it writes. -/
theorem fresh_69 : (ops69 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_69 (V : Valuation τ sig (Elt F)) :
    after ops69 V (main_arg0 : DevRef τ sig) = V (main_arg0 : DevRef τ sig) := by
  simp only [after_cons, after_nil]
  rfl

/-- The operations of @main's statements 4201 … 4260, in order (80 of them): a statement's own operation, or, for a call
    of a clip function, the six operations of its body over that call's buffers. -/
abbrev ops70 : List (HloOp τ sig (Elt F)) :=
  [ StableHlo.unary main_cst_1012 main_v3185 (broadcastInDim S32768x1 ![] bcast_S_S32768x1 : (⟨S_, .f32⟩ : BufTy).Contents (Elt F) → (⟨S32768x1, .f32⟩ : BufTy).Contents (Elt F)),
    StableHlo.binary main_v3185 main_v3184 main_v3186 (mulf : (⟨S32768x1, .f32⟩ : BufTy).Contents (Elt F) → (⟨S32768x1, .f32⟩ : BufTy).Contents (Elt F) → (⟨S32768x1, .f32⟩ : BufTy).Contents (Elt F)),
    StableHlo.nullary main_cst_1013 (constant S_ .f32 0x3F800000#32),
    StableHlo.unary main_cst_1013 main_v3187 (broadcastInDim S32768x1 ![] bcast_S_S32768x1 : (⟨S_, .f32⟩ : BufTy).Contents (Elt F) → (⟨S32768x1, .f32⟩ : BufTy).Contents (Elt F)),
    StableHlo.binary main_v3187 main_v3186 main_v3188 (subf : (⟨S32768x1, .f32⟩ : BufTy).Contents (Elt F) → (⟨S32768x1, .f32⟩ : BufTy).Contents (Elt F) → (⟨S32768x1, .f32⟩ : BufTy).Contents (Elt F)),
    StableHlo.binary main_v3188 main_v3171 main_v3189 (mulf : (⟨S32768x1, .f32⟩ : BufTy).Contents (Elt F) → (⟨S32768x1, .f32⟩ : BufTy).Contents (Elt F) → (⟨S32768x1, .f32⟩ : BufTy).Contents (Elt F)),
    StableHlo.binary main_v3189 main_v3172 main_v3190 (addf : (⟨S32768x1, .f32⟩ : BufTy).Contents (Elt F) → (⟨S32768x1, .f32⟩ : BufTy).Contents (Elt F) → (⟨S32768x1, .f32⟩ : BufTy).Contents (Elt F)),
    StableHlo.nullary main_cst_1014 (constant S_ .f32 0x00000000#32),
    StableHlo.unary main_cst_1014 main_v3191 (broadcastInDim S32768x1 ![] bcast_S_S32768x1 : (⟨S_, .f32⟩ : BufTy).Contents (Elt F) → (⟨S32768x1, .f32⟩ : BufTy).Contents (Elt F)),
    StableHlo.binary main_v3190 main_v3191 main_v3192 (cmpf .ole : (⟨S32768x1, .f32⟩ : BufTy).Contents (Elt F) → (⟨S32768x1, .f32⟩ : BufTy).Contents (Elt F) → (⟨S32768x1, .i1⟩ : BufTy).Contents (Elt F)),
    StableHlo.unary main_v3192 main_v3193 (uitofp .f32 : (⟨S32768x1, .i1⟩ : BufTy).Contents (Elt F) → (⟨S32768x1, .f32⟩ : BufTy).Contents (Elt F)),
    StableHlo.binary main_v3184 main_v3193 main_v3194 (cmpf .une : (⟨S32768x1, .f32⟩ : BufTy).Contents (Elt F) → (⟨S32768x1, .f32⟩ : BufTy).Contents (Elt F) → (⟨S32768x1, .i1⟩ : BufTy).Contents (Elt F)),
    StableHlo.unary main_v3194 main_v3195 (uitofp .f32 : (⟨S32768x1, .i1⟩ : BufTy).Contents (Elt F) → (⟨S32768x1, .f32⟩ : BufTy).Contents (Elt F)),
    StableHlo.binary main_v3195 main_v3193 main_v3196 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3184 main_v3193 main_v3197 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3163 main_v3196 main_v3198 (cmpf .une : (⟨S32768x2, .f32⟩ : BufTy).Contents (Elt F) → (⟨S32768x2, .f32⟩ : BufTy).Contents (Elt F) → (⟨S32768x2, .i1⟩ : BufTy).Contents (Elt F)),
    StableHlo.unary main_v3198 main_v3199 (uitofp .f32 : (⟨S32768x2, .i1⟩ : BufTy).Contents (Elt F) → (⟨S32768x2, .f32⟩ : BufTy).Contents (Elt F)),
    StableHlo.binary main_v3199 main_v3196 main_v3200 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v3164 main_v3197 main_v3201 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v3119 main_v3200 main_v3202 (cmpf .une : (⟨S32768x4, .f32⟩ : BufTy).Contents (Elt F) → (⟨S32768x4, .f32⟩ : BufTy).Contents (Elt F) → (⟨S32768x4, .i1⟩ : BufTy).Contents (Elt F)),
    StableHlo.unary main_v3202 main_v3203 (uitofp .f32 : (⟨S32768x4, .i1⟩ : BufTy).Contents (Elt F) → (⟨S32768x4, .f32⟩ : BufTy).Contents (Elt F)),
    StableHlo.binary main_v3203 main_v3200 main_v3204 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v3120 main_v3201 main_v3205 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v3027 main_v3204 main_v3206 (cmpf .une : (⟨S32768x8, .f32⟩ : BufTy).Contents (Elt F) → (⟨S32768x8, .f32⟩ : BufTy).Contents (Elt F) → (⟨S32768x8, .i1⟩ : BufTy).Contents (Elt F)),
    StableHlo.unary main_v3206 main_v3207 (uitofp .f32 : (⟨S32768x8, .i1⟩ : BufTy).Contents (Elt F) → (⟨S32768x8, .f32⟩ : BufTy).Contents (Elt F)),
    StableHlo.binary main_v3207 main_v3204 main_v3208 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v3028 main_v3205 main_v3209 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.nullary main_cst_1015 (constant S_ .f32 0x40000000#32),
    StableHlo.unary main_cst_1015 main_v3210 (broadcastInDim S32768x16 ![] bcast_S_S32768x16 : (⟨S_, .f32⟩ : BufTy).Contents (Elt F) → (⟨S32768x16, .f32⟩ : BufTy).Contents (Elt F)),
    StableHlo.binary main_v3210 main_v3208 main_v3211 (mulf : (⟨S32768x16, .f32⟩ : BufTy).Contents (Elt F) → (⟨S32768x16, .f32⟩ : BufTy).Contents (Elt F) → (⟨S32768x16, .f32⟩ : BufTy).Contents (Elt F)),
    StableHlo.nullary main_cst_1016 (constant S_ .f32 0x3F800000#32),
    StableHlo.unary main_cst_1016 main_v3212 (broadcastInDim S32768x16 ![] bcast_S_S32768x16 : (⟨S_, .f32⟩ : BufTy).Contents (Elt F) → (⟨S32768x16, .f32⟩ : BufTy).Contents (Elt F)),
    StableHlo.binary main_v3212 main_v3211 main_v3213 (subf : (⟨S32768x16, .f32⟩ : BufTy).Contents (Elt F) → (⟨S32768x16, .f32⟩ : BufTy).Contents (Elt F) → (⟨S32768x16, .f32⟩ : BufTy).Contents (Elt F)),
    StableHlo.binary main_v3213 main_v2836 main_v3214 (mulf : (⟨S32768x16, .f32⟩ : BufTy).Contents (Elt F) → (⟨S32768x16, .f32⟩ : BufTy).Contents (Elt F) → (⟨S32768x16, .f32⟩ : BufTy).Contents (Elt F)),
    StableHlo.binary main_v3214 main_v2837 main_v3215 (addf : (⟨S32768x16, .f32⟩ : BufTy).Contents (Elt F) → (⟨S32768x16, .f32⟩ : BufTy).Contents (Elt F) → (⟨S32768x16, .f32⟩ : BufTy).Contents (Elt F)),
    StableHlo.unary main_v3215 main_v3216 ((extractStridedSlice S32768x8 ![0, 0] · slices_S32768x16_S32768x8_0_0) : (⟨S32768x16, .f32⟩ : BufTy).Contents (Elt F) → (⟨S32768x8, .f32⟩ : BufTy).Contents (Elt F)),
    StableHlo.unary main_v3215 main_v3217 ((extractStridedSlice S32768x8 ![0, 8] · slices_S32768x16_S32768x8_0_8) : (⟨S32768x16, .f32⟩ : BufTy).Contents (Elt F) → (⟨S32768x8, .f32⟩ : BufTy).Contents (Elt F)),
    StableHlo.nullary main_cst_1017 (constant S_ .f32 0xC1F00000#32),
    StableHlo.nullary main_cst_1018 (constant S_ .f32 0x41F00000#32),
    StableHlo.TRef.unary (.of main_cst_1017 : StableHlo.TRef sig ⟨S_, .f32⟩) main_call292.v0 id,
    StableHlo.TRef.unary main_call292.v0 main_call292.v1 (broadcastInDim S32768x8 ![] bcast_S_S32768x8),
    StableHlo.TRef.binary main_call292.v1 (.of main_v3216 : StableHlo.TRef sig ⟨S32768x8, .f32⟩) main_call292.v2 maximumf,
    StableHlo.TRef.unary (.of main_cst_1018 : StableHlo.TRef sig ⟨S_, .f32⟩) main_call292.v3 id,
    StableHlo.TRef.unary main_call292.v3 main_call292.v4 (broadcastInDim S32768x8 ![] bcast_S_S32768x8),
    StableHlo.TRef.binary main_call292.v4 main_call292.v2 main_call292.v5 minimumf,
    StableHlo.nullary main_cst_1019 (constant S_ .f32 0xC1F00000#32),
    StableHlo.nullary main_cst_1020 (constant S_ .f32 0x41F00000#32),
    StableHlo.TRef.unary (.of main_cst_1019 : StableHlo.TRef sig ⟨S_, .f32⟩) main_call293.v0 id,
    StableHlo.TRef.unary main_call293.v0 main_call293.v1 (broadcastInDim S32768x8 ![] bcast_S_S32768x8),
    StableHlo.TRef.binary main_call293.v1 (.of main_v3217 : StableHlo.TRef sig ⟨S32768x8, .f32⟩) main_call293.v2 maximumf,
    StableHlo.TRef.unary (.of main_cst_1020 : StableHlo.TRef sig ⟨S_, .f32⟩) main_call293.v3 id,
    StableHlo.TRef.unary main_call293.v3 main_call293.v4 (broadcastInDim S32768x8 ![] bcast_S_S32768x8),
    StableHlo.TRef.binary main_call293.v4 main_call293.v2 main_call293.v5 minimumf,
    StableHlo.unary main_v3218 main_v3220 (Host.sign : (⟨S32768x8, .f32⟩ : BufTy).Contents (Elt F) → (⟨S32768x8, .f32⟩ : BufTy).Contents (Elt F)),
    StableHlo.unary main_v3219 main_v3221 (Host.sign : (⟨S32768x8, .f32⟩ : BufTy).Contents (Elt F) → (⟨S32768x8, .f32⟩ : BufTy).Contents (Elt F)),
    StableHlo.binary main_v3220 main_v3221 main_v3222 (mulf : (⟨S32768x8, .f32⟩ : BufTy).Contents (Elt F) → (⟨S32768x8, .f32⟩ : BufTy).Contents (Elt F) → (⟨S32768x8, .f32⟩ : BufTy).Contents (Elt F)),
    StableHlo.unary main_v3218 main_v3223 (Host.absf : (⟨S32768x8, .f32⟩ : BufTy).Contents (Elt F) → (⟨S32768x8, .f32⟩ : BufTy).Contents (Elt F)),
    StableHlo.unary main_v3219 main_v3224 (Host.absf : (⟨S32768x8, .f32⟩ : BufTy).Contents (Elt F) → (⟨S32768x8, .f32⟩ : BufTy).Contents (Elt F)),
    StableHlo.binary main_v3223 main_v3224 main_v3225 (minimumf : (⟨S32768x8, .f32⟩ : BufTy).Contents (Elt F) → (⟨S32768x8, .f32⟩ : BufTy).Contents (Elt F) → (⟨S32768x8, .f32⟩ : BufTy).Contents (Elt F)),
    StableHlo.binary main_v3222 main_v3225 main_v3226 (mulf : (⟨S32768x8, .f32⟩ : BufTy).Contents (Elt F) → (⟨S32768x8, .f32⟩ : BufTy).Contents (Elt F) → (⟨S32768x8, .f32⟩ : BufTy).Contents (Elt F)),
    StableHlo.unary main_v3226 main_v3227 ((extractStridedSlice S32768x4 ![0, 0] · slices_S32768x8_S32768x4_0_0) : (⟨S32768x8, .f32⟩ : BufTy).Contents (Elt F) → (⟨S32768x4, .f32⟩ : BufTy).Contents (Elt F)),
    StableHlo.unary main_v3226 main_v3228 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_1021 (constant S_ .f32 0xC1F00000#32),
    StableHlo.nullary main_cst_1022 (constant S_ .f32 0x41F00000#32),
    StableHlo.TRef.unary (.of main_cst_1021 : StableHlo.TRef sig ⟨S_, .f32⟩) main_call294.v0 id,
    StableHlo.TRef.unary main_call294.v0 main_call294.v1 (broadcastInDim S32768x4 ![] bcast_S_S32768x4),
    StableHlo.TRef.binary main_call294.v1 (.of main_v3227 : StableHlo.TRef sig ⟨S32768x4, .f32⟩) main_call294.v2 maximumf,
    StableHlo.TRef.unary (.of main_cst_1022 : StableHlo.TRef sig ⟨S_, .f32⟩) main_call294.v3 id,
    StableHlo.TRef.unary main_call294.v3 main_call294.v4 (broadcastInDim S32768x4 ![] bcast_S_S32768x4),
    StableHlo.TRef.binary main_call294.v4 main_call294.v2 main_call294.v5 minimumf,
    StableHlo.nullary main_cst_1023 (constant S_ .f32 0xC1F00000#32),
    StableHlo.nullary main_cst_1024 (constant S_ .f32 0x41F00000#32),
    StableHlo.TRef.unary (.of main_cst_1023 : StableHlo.TRef sig ⟨S_, .f32⟩) main_call295.v0 id,
    StableHlo.TRef.unary main_call295.v0 main_call295.v1 (broadcastInDim S32768x4 ![] bcast_S_S32768x4),
    StableHlo.TRef.binary main_call295.v1 (.of main_v3228 : StableHlo.TRef sig ⟨S32768x4, .f32⟩) main_call295.v2 maximumf,
    StableHlo.TRef.unary (.of main_cst_1024 : StableHlo.TRef sig ⟨S_, .f32⟩) main_call295.v3 id,
    StableHlo.TRef.unary main_call295.v3 main_call295.v4 (broadcastInDim S32768x4 ![] bcast_S_S32768x4),
    StableHlo.TRef.binary main_call295.v4 main_call295.v2 main_call295.v5 minimumf,
    StableHlo.unary main_v3229 main_v3231 (Host.sign : (⟨S32768x4, .f32⟩ : BufTy).Contents (Elt F) → (⟨S32768x4, .f32⟩ : BufTy).Contents (Elt F)),
    StableHlo.unary main_v3230 main_v3232 (Host.sign : (⟨S32768x4, .f32⟩ : BufTy).Contents (Elt F) → (⟨S32768x4, .f32⟩ : BufTy).Contents (Elt F)) ]

set_option maxRecDepth 8192 in
/-- The window is that straight line: each clip function unfolded at its calls, the sequencing reassociated. -/
theorem part_eq_70 (d : Dev nD) : main_part70 (F := F) d = seq ops70 := by
  simp only [main_part70, fn_clip_3.body, fn_clip_4.body, seq, bind_assoc, pure_bind]
  rfl

/-- Every operation of the window touches TensorCore references only. -/
theorem sub_70 : (ops70 : List (HloOp τ sig (Elt F))).Forall fun op => op.bufs ⊆ tcRefs τ sig :=
  ⟨unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    unary_bufs_sub .., binary_bufs_sub .., binary_bufs_sub .., binary_bufs_sub .., unary_bufs_sub .., binary_bufs_sub ..,
    binary_bufs_sub .., binary_bufs_sub .., unary_bufs_sub .., binary_bufs_sub .., binary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub ..⟩

/-- Every operation of the window determines all it writes. -/
theorem fresh_70 : (ops70 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_70 (V : Valuation τ sig (Elt F)) :
    after ops70 V (main_arg0 : DevRef τ sig) = V (main_arg0 : DevRef τ sig) := by
  simp only [after_cons, after_nil]
  rfl

/-- The operations of @main's statements 4261 … 4320, in order (80 of them): a statement's own operation, or, for a call
    of a clip function, the six operations of its body over that call's buffers. -/
abbrev ops71 : List (HloOp τ sig (Elt F)) :=
  [ StableHlo.binary main_v3231 main_v3232 main_v3233 (mulf : (⟨S32768x4, .f32⟩ : BufTy).Contents (Elt F) → (⟨S32768x4, .f32⟩ : BufTy).Contents (Elt F) → (⟨S32768x4, .f32⟩ : BufTy).Contents (Elt F)),
    StableHlo.unary main_v3229 main_v3234 (Host.absf : (⟨S32768x4, .f32⟩ : BufTy).Contents (Elt F) → (⟨S32768x4, .f32⟩ : BufTy).Contents (Elt F)),
    StableHlo.unary main_v3230 main_v3235 (Host.absf : (⟨S32768x4, .f32⟩ : BufTy).Contents (Elt F) → (⟨S32768x4, .f32⟩ : BufTy).Contents (Elt F)),
    StableHlo.binary main_v3234 main_v3235 main_v3236 (minimumf : (⟨S32768x4, .f32⟩ : BufTy).Contents (Elt F) → (⟨S32768x4, .f32⟩ : BufTy).Contents (Elt F) → (⟨S32768x4, .f32⟩ : BufTy).Contents (Elt F)),
    StableHlo.binary main_v3233 main_v3236 main_v3237 (mulf : (⟨S32768x4, .f32⟩ : BufTy).Contents (Elt F) → (⟨S32768x4, .f32⟩ : BufTy).Contents (Elt F) → (⟨S32768x4, .f32⟩ : BufTy).Contents (Elt F)),
    StableHlo.unary main_v3237 main_v3238 ((extractStridedSlice S32768x2 ![0, 0] · slices_S32768x4_S32768x2_0_0) : (⟨S32768x4, .f32⟩ : BufTy).Contents (Elt F) → (⟨S32768x2, .f32⟩ : BufTy).Contents (Elt F)),
    StableHlo.unary main_v3237 main_v3239 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1025 (constant S_ .f32 0xC1F00000#32),
    StableHlo.nullary main_cst_1026 (constant S_ .f32 0x41F00000#32),
    StableHlo.TRef.unary (.of main_cst_1025 : StableHlo.TRef sig ⟨S_, .f32⟩) main_call296.v0 id,
    StableHlo.TRef.unary main_call296.v0 main_call296.v1 (broadcastInDim S32768x2 ![] bcast_S_S32768x2),
    StableHlo.TRef.binary main_call296.v1 (.of main_v3238 : StableHlo.TRef sig ⟨S32768x2, .f32⟩) main_call296.v2 maximumf,
    StableHlo.TRef.unary (.of main_cst_1026 : StableHlo.TRef sig ⟨S_, .f32⟩) main_call296.v3 id,
    StableHlo.TRef.unary main_call296.v3 main_call296.v4 (broadcastInDim S32768x2 ![] bcast_S_S32768x2),
    StableHlo.TRef.binary main_call296.v4 main_call296.v2 main_call296.v5 minimumf,
    StableHlo.nullary main_cst_1027 (constant S_ .f32 0xC1F00000#32),
    StableHlo.nullary main_cst_1028 (constant S_ .f32 0x41F00000#32),
    StableHlo.TRef.unary (.of main_cst_1027 : StableHlo.TRef sig ⟨S_, .f32⟩) main_call297.v0 id,
    StableHlo.TRef.unary main_call297.v0 main_call297.v1 (broadcastInDim S32768x2 ![] bcast_S_S32768x2),
    StableHlo.TRef.binary main_call297.v1 (.of main_v3239 : StableHlo.TRef sig ⟨S32768x2, .f32⟩) main_call297.v2 maximumf,
    StableHlo.TRef.unary (.of main_cst_1028 : StableHlo.TRef sig ⟨S_, .f32⟩) main_call297.v3 id,
    StableHlo.TRef.unary main_call297.v3 main_call297.v4 (broadcastInDim S32768x2 ![] bcast_S_S32768x2),
    StableHlo.TRef.binary main_call297.v4 main_call297.v2 main_call297.v5 minimumf,
    StableHlo.unary main_v3240 main_v3242 (Host.sign : (⟨S32768x2, .f32⟩ : BufTy).Contents (Elt F) → (⟨S32768x2, .f32⟩ : BufTy).Contents (Elt F)),
    StableHlo.unary main_v3241 main_v3243 (Host.sign : (⟨S32768x2, .f32⟩ : BufTy).Contents (Elt F) → (⟨S32768x2, .f32⟩ : BufTy).Contents (Elt F)),
    StableHlo.binary main_v3242 main_v3243 main_v3244 (mulf : (⟨S32768x2, .f32⟩ : BufTy).Contents (Elt F) → (⟨S32768x2, .f32⟩ : BufTy).Contents (Elt F) → (⟨S32768x2, .f32⟩ : BufTy).Contents (Elt F)),
    StableHlo.unary main_v3240 main_v3245 (Host.absf : (⟨S32768x2, .f32⟩ : BufTy).Contents (Elt F) → (⟨S32768x2, .f32⟩ : BufTy).Contents (Elt F)),
    StableHlo.unary main_v3241 main_v3246 (Host.absf : (⟨S32768x2, .f32⟩ : BufTy).Contents (Elt F) → (⟨S32768x2, .f32⟩ : BufTy).Contents (Elt F)),
    StableHlo.binary main_v3245 main_v3246 main_v3247 (minimumf : (⟨S32768x2, .f32⟩ : BufTy).Contents (Elt F) → (⟨S32768x2, .f32⟩ : BufTy).Contents (Elt F) → (⟨S32768x2, .f32⟩ : BufTy).Contents (Elt F)),
    StableHlo.binary main_v3244 main_v3247 main_v3248 (mulf : (⟨S32768x2, .f32⟩ : BufTy).Contents (Elt F) → (⟨S32768x2, .f32⟩ : BufTy).Contents (Elt F) → (⟨S32768x2, .f32⟩ : BufTy).Contents (Elt F)),
    StableHlo.unary main_v3248 main_v3249 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3248 main_v3250 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1029 (constant S_ .f32 0xC1F00000#32),
    StableHlo.nullary main_cst_1030 (constant S_ .f32 0x41F00000#32),
    StableHlo.TRef.unary (.of main_cst_1029 : StableHlo.TRef sig ⟨S_, .f32⟩) main_call298.v0 id,
    StableHlo.TRef.unary main_call298.v0 main_call298.v1 (broadcastInDim S32768x1 ![] bcast_S_S32768x1),
    StableHlo.TRef.binary main_call298.v1 (.of main_v3249 : StableHlo.TRef sig ⟨S32768x1, .f32⟩) main_call298.v2 maximumf,
    StableHlo.TRef.unary (.of main_cst_1030 : StableHlo.TRef sig ⟨S_, .f32⟩) main_call298.v3 id,
    StableHlo.TRef.unary main_call298.v3 main_call298.v4 (broadcastInDim S32768x1 ![] bcast_S_S32768x1),
    StableHlo.TRef.binary main_call298.v4 main_call298.v2 main_call298.v5 minimumf,
    StableHlo.nullary main_cst_1031 (constant S_ .f32 0xC1F00000#32),
    StableHlo.nullary main_cst_1032 (constant S_ .f32 0x41F00000#32),
    StableHlo.TRef.unary (.of main_cst_1031 : StableHlo.TRef sig ⟨S_, .f32⟩) main_call299.v0 id,
    StableHlo.TRef.unary main_call299.v0 main_call299.v1 (broadcastInDim S32768x1 ![] bcast_S_S32768x1),
    StableHlo.TRef.binary main_call299.v1 (.of main_v3250 : StableHlo.TRef sig ⟨S32768x1, .f32⟩) main_call299.v2 maximumf,
    StableHlo.TRef.unary (.of main_cst_1032 : StableHlo.TRef sig ⟨S_, .f32⟩) main_call299.v3 id,
    StableHlo.TRef.unary main_call299.v3 main_call299.v4 (broadcastInDim S32768x1 ![] bcast_S_S32768x1),
    StableHlo.TRef.binary main_call299.v4 main_call299.v2 main_call299.v5 minimumf,
    StableHlo.unary main_v3251 main_v3253 (Host.sign : (⟨S32768x1, .f32⟩ : BufTy).Contents (Elt F) → (⟨S32768x1, .f32⟩ : BufTy).Contents (Elt F)),
    StableHlo.unary main_v3252 main_v3254 (Host.sign : (⟨S32768x1, .f32⟩ : BufTy).Contents (Elt F) → (⟨S32768x1, .f32⟩ : BufTy).Contents (Elt F)),
    StableHlo.binary main_v3253 main_v3254 main_v3255 (mulf : (⟨S32768x1, .f32⟩ : BufTy).Contents (Elt F) → (⟨S32768x1, .f32⟩ : BufTy).Contents (Elt F) → (⟨S32768x1, .f32⟩ : BufTy).Contents (Elt F)),
    StableHlo.unary main_v3251 main_v3256 (Host.absf : (⟨S32768x1, .f32⟩ : BufTy).Contents (Elt F) → (⟨S32768x1, .f32⟩ : BufTy).Contents (Elt F)),
    StableHlo.unary main_v3252 main_v3257 (Host.absf : (⟨S32768x1, .f32⟩ : BufTy).Contents (Elt F) → (⟨S32768x1, .f32⟩ : BufTy).Contents (Elt F)),
    StableHlo.binary main_v3256 main_v3257 main_v3258 (minimumf : (⟨S32768x1, .f32⟩ : BufTy).Contents (Elt F) → (⟨S32768x1, .f32⟩ : BufTy).Contents (Elt F) → (⟨S32768x1, .f32⟩ : BufTy).Contents (Elt F)),
    StableHlo.binary main_v3255 main_v3258 main_v3259 (mulf : (⟨S32768x1, .f32⟩ : BufTy).Contents (Elt F) → (⟨S32768x1, .f32⟩ : BufTy).Contents (Elt F) → (⟨S32768x1, .f32⟩ : BufTy).Contents (Elt F)),
    StableHlo.nullary main_cst_1033 (constant S_ .f32 0x00000000#32),
    StableHlo.unary main_cst_1033 main_v3260 (broadcastInDim S32768x1 ![] bcast_S_S32768x1 : (⟨S_, .f32⟩ : BufTy).Contents (Elt F) → (⟨S32768x1, .f32⟩ : BufTy).Contents (Elt F)),
    StableHlo.binary main_v3259 main_v3260 main_v3261 (cmpf .ole : (⟨S32768x1, .f32⟩ : BufTy).Contents (Elt F) → (⟨S32768x1, .f32⟩ : BufTy).Contents (Elt F) → (⟨S32768x1, .i1⟩ : BufTy).Contents (Elt F)),
    StableHlo.unary main_v3261 main_v3262 (uitofp .f32 : (⟨S32768x1, .i1⟩ : BufTy).Contents (Elt F) → (⟨S32768x1, .f32⟩ : BufTy).Contents (Elt F)),
    StableHlo.nullary main_cst_1034 (constant S_ .f32 0x40000000#32),
    StableHlo.unary main_cst_1034 main_v3263 (broadcastInDim S32768x1 ![] bcast_S_S32768x1 : (⟨S_, .f32⟩ : BufTy).Contents (Elt F) → (⟨S32768x1, .f32⟩ : BufTy).Contents (Elt F)),
    StableHlo.binary main_v3263 main_v3262 main_v3264 (mulf : (⟨S32768x1, .f32⟩ : BufTy).Contents (Elt F) → (⟨S32768x1, .f32⟩ : BufTy).Contents (Elt F) → (⟨S32768x1, .f32⟩ : BufTy).Contents (Elt F)),
    StableHlo.nullary main_cst_1035 (constant S_ .f32 0x3F800000#32),
    StableHlo.unary main_cst_1035 main_v3265 (broadcastInDim S32768x1 ![] bcast_S_S32768x1 : (⟨S_, .f32⟩ : BufTy).Contents (Elt F) → (⟨S32768x1, .f32⟩ : BufTy).Contents (Elt F)),
    StableHlo.binary main_v3265 main_v3264 main_v3266 (subf : (⟨S32768x1, .f32⟩ : BufTy).Contents (Elt F) → (⟨S32768x1, .f32⟩ : BufTy).Contents (Elt F) → (⟨S32768x1, .f32⟩ : BufTy).Contents (Elt F)),
    StableHlo.binary main_v3266 main_v3249 main_v3267 (mulf : (⟨S32768x1, .f32⟩ : BufTy).Contents (Elt F) → (⟨S32768x1, .f32⟩ : BufTy).Contents (Elt F) → (⟨S32768x1, .f32⟩ : BufTy).Contents (Elt F)),
    StableHlo.binary main_v3267 main_v3250 main_v3268 (addf : (⟨S32768x1, .f32⟩ : BufTy).Contents (Elt F) → (⟨S32768x1, .f32⟩ : BufTy).Contents (Elt F) → (⟨S32768x1, .f32⟩ : BufTy).Contents (Elt F)),
    StableHlo.nullary main_cst_1036 (constant S_ .f32 0x00000000#32),
    StableHlo.unary main_cst_1036 main_v3269 (broadcastInDim S32768x1 ![] bcast_S_S32768x1 : (⟨S_, .f32⟩ : BufTy).Contents (Elt F) → (⟨S32768x1, .f32⟩ : BufTy).Contents (Elt F)),
    StableHlo.binary main_v3268 main_v3269 main_v3270 (cmpf .ole : (⟨S32768x1, .f32⟩ : BufTy).Contents (Elt F) → (⟨S32768x1, .f32⟩ : BufTy).Contents (Elt F) → (⟨S32768x1, .i1⟩ : BufTy).Contents (Elt F)),
    StableHlo.unary main_v3270 main_v3271 (uitofp .f32 : (⟨S32768x1, .i1⟩ : BufTy).Contents (Elt F) → (⟨S32768x1, .f32⟩ : BufTy).Contents (Elt F)),
    StableHlo.binary main_v3262 main_v3271 main_v3272 (cmpf .une : (⟨S32768x1, .f32⟩ : BufTy).Contents (Elt F) → (⟨S32768x1, .f32⟩ : BufTy).Contents (Elt F) → (⟨S32768x1, .i1⟩ : BufTy).Contents (Elt F)),
    StableHlo.unary main_v3272 main_v3273 (uitofp .f32 : (⟨S32768x1, .i1⟩ : BufTy).Contents (Elt F) → (⟨S32768x1, .f32⟩ : BufTy).Contents (Elt F)),
    StableHlo.binary main_v3273 main_v3271 main_v3274 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3262 main_v3271 main_v3275 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1037 (constant S_ .f32 0x40000000#32),
    StableHlo.unary main_cst_1037 main_v3276 (broadcastInDim S32768x2 ![] bcast_S_S32768x2 : (⟨S_, .f32⟩ : BufTy).Contents (Elt F) → (⟨S32768x2, .f32⟩ : BufTy).Contents (Elt F)),
    StableHlo.binary main_v3276 main_v3274 main_v3277 (mulf : (⟨S32768x2, .f32⟩ : BufTy).Contents (Elt F) → (⟨S32768x2, .f32⟩ : BufTy).Contents (Elt F) → (⟨S32768x2, .f32⟩ : BufTy).Contents (Elt F)),
    StableHlo.nullary main_cst_1038 (constant S_ .f32 0x3F800000#32),
    StableHlo.unary main_cst_1038 main_v3278 (broadcastInDim S32768x2 ![] bcast_S_S32768x2 : (⟨S_, .f32⟩ : BufTy).Contents (Elt F) → (⟨S32768x2, .f32⟩ : BufTy).Contents (Elt F)) ]

set_option maxRecDepth 8192 in
/-- The window is that straight line: each clip function unfolded at its calls, the sequencing reassociated. -/
theorem part_eq_71 (d : Dev nD) : main_part71 (F := F) d = seq ops71 := by
  simp only [main_part71, fn_clip_5.body, fn_clip_6.body, seq, bind_assoc, pure_bind]
  rfl

/-- Every operation of the window touches TensorCore references only. -/
theorem sub_71 : (ops71 : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    unary_bufs_sub .., binary_bufs_sub .., binary_bufs_sub .., nullary_bufs_sub .., unary_bufs_sub .., binary_bufs_sub ..,
    nullary_bufs_sub .., unary_bufs_sub ..⟩

/-- Every operation of the window determines all it writes. -/
theorem fresh_71 : (ops71 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_71 (V : Valuation τ sig (Elt F)) :
    after ops71 V (main_arg0 : DevRef τ sig) = V (main_arg0 : DevRef τ sig) := by
  simp only [after_cons, after_nil]
  rfl

end Cert.ReferenceIdeal.RefRun

end
-- ==== Proof.RefRun.W09.lean ====
import proofs.«134088_j24077586662034_2_alg».proof.Defs
import proofs.«134088_j24077586662034_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 4321 … 4380, in order (80 of them): a statement's own operation, or, for a call
    of a clip function, the six operations of its body over that call's buffers. -/
abbrev ops72 : List (HloOp τ sig (Elt F)) :=
  [ StableHlo.binary main_v3278 main_v3277 main_v3279 (subf : (⟨S32768x2, .f32⟩ : BufTy).Contents (Elt F) → (⟨S32768x2, .f32⟩ : BufTy).Contents (Elt F) → (⟨S32768x2, .f32⟩ : BufTy).Contents (Elt F)),
    StableHlo.binary main_v3279 main_v3238 main_v3280 (mulf : (⟨S32768x2, .f32⟩ : BufTy).Contents (Elt F) → (⟨S32768x2, .f32⟩ : BufTy).Contents (Elt F) → (⟨S32768x2, .f32⟩ : BufTy).Contents (Elt F)),
    StableHlo.binary main_v3280 main_v3239 main_v3281 (addf : (⟨S32768x2, .f32⟩ : BufTy).Contents (Elt F) → (⟨S32768x2, .f32⟩ : BufTy).Contents (Elt F) → (⟨S32768x2, .f32⟩ : BufTy).Contents (Elt F)),
    StableHlo.unary main_v3281 main_v3282 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3281 main_v3283 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1039 (constant S_ .f32 0xC1F00000#32),
    StableHlo.nullary main_cst_1040 (constant S_ .f32 0x41F00000#32),
    StableHlo.TRef.unary (.of main_cst_1039 : StableHlo.TRef sig ⟨S_, .f32⟩) main_call300.v0 id,
    StableHlo.TRef.unary main_call300.v0 main_call300.v1 (broadcastInDim S32768x1 ![] bcast_S_S32768x1),
    StableHlo.TRef.binary main_call300.v1 (.of main_v3282 : StableHlo.TRef sig ⟨S32768x1, .f32⟩) main_call300.v2 maximumf,
    StableHlo.TRef.unary (.of main_cst_1040 : StableHlo.TRef sig ⟨S_, .f32⟩) main_call300.v3 id,
    StableHlo.TRef.unary main_call300.v3 main_call300.v4 (broadcastInDim S32768x1 ![] bcast_S_S32768x1),
    StableHlo.TRef.binary main_call300.v4 main_call300.v2 main_call300.v5 minimumf,
    StableHlo.nullary main_cst_1041 (constant S_ .f32 0xC1F00000#32),
    StableHlo.nullary main_cst_1042 (constant S_ .f32 0x41F00000#32),
    StableHlo.TRef.unary (.of main_cst_1041 : StableHlo.TRef sig ⟨S_, .f32⟩) main_call301.v0 id,
    StableHlo.TRef.unary main_call301.v0 main_call301.v1 (broadcastInDim S32768x1 ![] bcast_S_S32768x1),
    StableHlo.TRef.binary main_call301.v1 (.of main_v3283 : StableHlo.TRef sig ⟨S32768x1, .f32⟩) main_call301.v2 maximumf,
    StableHlo.TRef.unary (.of main_cst_1042 : StableHlo.TRef sig ⟨S_, .f32⟩) main_call301.v3 id,
    StableHlo.TRef.unary main_call301.v3 main_call301.v4 (broadcastInDim S32768x1 ![] bcast_S_S32768x1),
    StableHlo.TRef.binary main_call301.v4 main_call301.v2 main_call301.v5 minimumf,
    StableHlo.unary main_v3284 main_v3286 (Host.sign : (⟨S32768x1, .f32⟩ : BufTy).Contents (Elt F) → (⟨S32768x1, .f32⟩ : BufTy).Contents (Elt F)),
    StableHlo.unary main_v3285 main_v3287 (Host.sign : (⟨S32768x1, .f32⟩ : BufTy).Contents (Elt F) → (⟨S32768x1, .f32⟩ : BufTy).Contents (Elt F)),
    StableHlo.binary main_v3286 main_v3287 main_v3288 (mulf : (⟨S32768x1, .f32⟩ : BufTy).Contents (Elt F) → (⟨S32768x1, .f32⟩ : BufTy).Contents (Elt F) → (⟨S32768x1, .f32⟩ : BufTy).Contents (Elt F)),
    StableHlo.unary main_v3284 main_v3289 (Host.absf : (⟨S32768x1, .f32⟩ : BufTy).Contents (Elt F) → (⟨S32768x1, .f32⟩ : BufTy).Contents (Elt F)),
    StableHlo.unary main_v3285 main_v3290 (Host.absf : (⟨S32768x1, .f32⟩ : BufTy).Contents (Elt F) → (⟨S32768x1, .f32⟩ : BufTy).Contents (Elt F)),
    StableHlo.binary main_v3289 main_v3290 main_v3291 (minimumf : (⟨S32768x1, .f32⟩ : BufTy).Contents (Elt F) → (⟨S32768x1, .f32⟩ : BufTy).Contents (Elt F) → (⟨S32768x1, .f32⟩ : BufTy).Contents (Elt F)),
    StableHlo.binary main_v3288 main_v3291 main_v3292 (mulf : (⟨S32768x1, .f32⟩ : BufTy).Contents (Elt F) → (⟨S32768x1, .f32⟩ : BufTy).Contents (Elt F) → (⟨S32768x1, .f32⟩ : BufTy).Contents (Elt F)),
    StableHlo.nullary main_cst_1043 (constant S_ .f32 0x00000000#32),
    StableHlo.unary main_cst_1043 main_v3293 (broadcastInDim S32768x1 ![] bcast_S_S32768x1 : (⟨S_, .f32⟩ : BufTy).Contents (Elt F) → (⟨S32768x1, .f32⟩ : BufTy).Contents (Elt F)),
    StableHlo.binary main_v3292 main_v3293 main_v3294 (cmpf .ole : (⟨S32768x1, .f32⟩ : BufTy).Contents (Elt F) → (⟨S32768x1, .f32⟩ : BufTy).Contents (Elt F) → (⟨S32768x1, .i1⟩ : BufTy).Contents (Elt F)),
    StableHlo.unary main_v3294 main_v3295 (uitofp .f32 : (⟨S32768x1, .i1⟩ : BufTy).Contents (Elt F) → (⟨S32768x1, .f32⟩ : BufTy).Contents (Elt F)),
    StableHlo.nullary main_cst_1044 (constant S_ .f32 0x40000000#32),
    StableHlo.unary main_cst_1044 main_v3296 (broadcastInDim S32768x1 ![] bcast_S_S32768x1 : (⟨S_, .f32⟩ : BufTy).Contents (Elt F) → (⟨S32768x1, .f32⟩ : BufTy).Contents (Elt F)),
    StableHlo.binary main_v3296 main_v3295 main_v3297 (mulf : (⟨S32768x1, .f32⟩ : BufTy).Contents (Elt F) → (⟨S32768x1, .f32⟩ : BufTy).Contents (Elt F) → (⟨S32768x1, .f32⟩ : BufTy).Contents (Elt F)),
    StableHlo.nullary main_cst_1045 (constant S_ .f32 0x3F800000#32),
    StableHlo.unary main_cst_1045 main_v3298 (broadcastInDim S32768x1 ![] bcast_S_S32768x1 : (⟨S_, .f32⟩ : BufTy).Contents (Elt F) → (⟨S32768x1, .f32⟩ : BufTy).Contents (Elt F)),
    StableHlo.binary main_v3298 main_v3297 main_v3299 (subf : (⟨S32768x1, .f32⟩ : BufTy).Contents (Elt F) → (⟨S32768x1, .f32⟩ : BufTy).Contents (Elt F) → (⟨S32768x1, .f32⟩ : BufTy).Contents (Elt F)),
    StableHlo.binary main_v3299 main_v3282 main_v3300 (mulf : (⟨S32768x1, .f32⟩ : BufTy).Contents (Elt F) → (⟨S32768x1, .f32⟩ : BufTy).Contents (Elt F) → (⟨S32768x1, .f32⟩ : BufTy).Contents (Elt F)),
    StableHlo.binary main_v3300 main_v3283 main_v3301 (addf : (⟨S32768x1, .f32⟩ : BufTy).Contents (Elt F) → (⟨S32768x1, .f32⟩ : BufTy).Contents (Elt F) → (⟨S32768x1, .f32⟩ : BufTy).Contents (Elt F)),
    StableHlo.nullary main_cst_1046 (constant S_ .f32 0x00000000#32),
    StableHlo.unary main_cst_1046 main_v3302 (broadcastInDim S32768x1 ![] bcast_S_S32768x1 : (⟨S_, .f32⟩ : BufTy).Contents (Elt F) → (⟨S32768x1, .f32⟩ : BufTy).Contents (Elt F)),
    StableHlo.binary main_v3301 main_v3302 main_v3303 (cmpf .ole : (⟨S32768x1, .f32⟩ : BufTy).Contents (Elt F) → (⟨S32768x1, .f32⟩ : BufTy).Contents (Elt F) → (⟨S32768x1, .i1⟩ : BufTy).Contents (Elt F)),
    StableHlo.unary main_v3303 main_v3304 (uitofp .f32 : (⟨S32768x1, .i1⟩ : BufTy).Contents (Elt F) → (⟨S32768x1, .f32⟩ : BufTy).Contents (Elt F)),
    StableHlo.binary main_v3295 main_v3304 main_v3305 (cmpf .une : (⟨S32768x1, .f32⟩ : BufTy).Contents (Elt F) → (⟨S32768x1, .f32⟩ : BufTy).Contents (Elt F) → (⟨S32768x1, .i1⟩ : BufTy).Contents (Elt F)),
    StableHlo.unary main_v3305 main_v3306 (uitofp .f32 : (⟨S32768x1, .i1⟩ : BufTy).Contents (Elt F) → (⟨S32768x1, .f32⟩ : BufTy).Contents (Elt F)),
    StableHlo.binary main_v3306 main_v3304 main_v3307 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3295 main_v3304 main_v3308 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3274 main_v3307 main_v3309 (cmpf .une : (⟨S32768x2, .f32⟩ : BufTy).Contents (Elt F) → (⟨S32768x2, .f32⟩ : BufTy).Contents (Elt F) → (⟨S32768x2, .i1⟩ : BufTy).Contents (Elt F)),
    StableHlo.unary main_v3309 main_v3310 (uitofp .f32 : (⟨S32768x2, .i1⟩ : BufTy).Contents (Elt F) → (⟨S32768x2, .f32⟩ : BufTy).Contents (Elt F)),
    StableHlo.binary main_v3310 main_v3307 main_v3311 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v3275 main_v3308 main_v3312 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_1047 (constant S_ .f32 0x40000000#32),
    StableHlo.unary main_cst_1047 main_v3313 (broadcastInDim S32768x4 ![] bcast_S_S32768x4 : (⟨S_, .f32⟩ : BufTy).Contents (Elt F) → (⟨S32768x4, .f32⟩ : BufTy).Contents (Elt F)),
    StableHlo.binary main_v3313 main_v3311 main_v3314 (mulf : (⟨S32768x4, .f32⟩ : BufTy).Contents (Elt F) → (⟨S32768x4, .f32⟩ : BufTy).Contents (Elt F) → (⟨S32768x4, .f32⟩ : BufTy).Contents (Elt F)),
    StableHlo.nullary main_cst_1048 (constant S_ .f32 0x3F800000#32),
    StableHlo.unary main_cst_1048 main_v3315 (broadcastInDim S32768x4 ![] bcast_S_S32768x4 : (⟨S_, .f32⟩ : BufTy).Contents (Elt F) → (⟨S32768x4, .f32⟩ : BufTy).Contents (Elt F)),
    StableHlo.binary main_v3315 main_v3314 main_v3316 (subf : (⟨S32768x4, .f32⟩ : BufTy).Contents (Elt F) → (⟨S32768x4, .f32⟩ : BufTy).Contents (Elt F) → (⟨S32768x4, .f32⟩ : BufTy).Contents (Elt F)),
    StableHlo.binary main_v3316 main_v3227 main_v3317 (mulf : (⟨S32768x4, .f32⟩ : BufTy).Contents (Elt F) → (⟨S32768x4, .f32⟩ : BufTy).Contents (Elt F) → (⟨S32768x4, .f32⟩ : BufTy).Contents (Elt F)),
    StableHlo.binary main_v3317 main_v3228 main_v3318 (addf : (⟨S32768x4, .f32⟩ : BufTy).Contents (Elt F) → (⟨S32768x4, .f32⟩ : BufTy).Contents (Elt F) → (⟨S32768x4, .f32⟩ : BufTy).Contents (Elt F)),
    StableHlo.unary main_v3318 main_v3319 ((extractStridedSlice S32768x2 ![0, 0] · slices_S32768x4_S32768x2_0_0) : (⟨S32768x4, .f32⟩ : BufTy).Contents (Elt F) → (⟨S32768x2, .f32⟩ : BufTy).Contents (Elt F)),
    StableHlo.unary main_v3318 main_v3320 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1049 (constant S_ .f32 0xC1F00000#32),
    StableHlo.nullary main_cst_1050 (constant S_ .f32 0x41F00000#32),
    StableHlo.TRef.unary (.of main_cst_1049 : StableHlo.TRef sig ⟨S_, .f32⟩) main_call302.v0 id,
    StableHlo.TRef.unary main_call302.v0 main_call302.v1 (broadcastInDim S32768x2 ![] bcast_S_S32768x2),
    StableHlo.TRef.binary main_call302.v1 (.of main_v3319 : StableHlo.TRef sig ⟨S32768x2, .f32⟩) main_call302.v2 maximumf,
    StableHlo.TRef.unary (.of main_cst_1050 : StableHlo.TRef sig ⟨S_, .f32⟩) main_call302.v3 id,
    StableHlo.TRef.unary main_call302.v3 main_call302.v4 (broadcastInDim S32768x2 ![] bcast_S_S32768x2),
    StableHlo.TRef.binary main_call302.v4 main_call302.v2 main_call302.v5 minimumf,
    StableHlo.nullary main_cst_1051 (constant S_ .f32 0xC1F00000#32),
    StableHlo.nullary main_cst_1052 (constant S_ .f32 0x41F00000#32),
    StableHlo.TRef.unary (.of main_cst_1051 : StableHlo.TRef sig ⟨S_, .f32⟩) main_call303.v0 id,
    StableHlo.TRef.unary main_call303.v0 main_call303.v1 (broadcastInDim S32768x2 ![] bcast_S_S32768x2),
    StableHlo.TRef.binary main_call303.v1 (.of main_v3320 : StableHlo.TRef sig ⟨S32768x2, .f32⟩) main_call303.v2 maximumf,
    StableHlo.TRef.unary (.of main_cst_1052 : StableHlo.TRef sig ⟨S_, .f32⟩) main_call303.v3 id,
    StableHlo.TRef.unary main_call303.v3 main_call303.v4 (broadcastInDim S32768x2 ![] bcast_S_S32768x2),
    StableHlo.TRef.binary main_call303.v4 main_call303.v2 main_call303.v5 minimumf,
    StableHlo.unary main_v3321 main_v3323 (Host.sign : (⟨S32768x2, .f32⟩ : BufTy).Contents (Elt F) → (⟨S32768x2, .f32⟩ : BufTy).Contents (Elt F)),
    StableHlo.unary main_v3322 main_v3324 (Host.sign : (⟨S32768x2, .f32⟩ : BufTy).Contents (Elt F) → (⟨S32768x2, .f32⟩ : BufTy).Contents (Elt F)) ]

set_option maxRecDepth 8192 in
/-- The window is that straight line: each clip function unfolded at its calls, the sequencing reassociated. -/
theorem part_eq_72 (d : Dev nD) : main_part72 (F := F) d = seq ops72 := by
  simp only [main_part72, fn_clip_6.body, fn_clip_5.body, seq, bind_assoc, pure_bind]
  rfl

/-- Every operation of the window touches TensorCore references only. -/
theorem sub_72 : (ops72 : List (HloOp τ sig (Elt F))).Forall fun op => op.bufs ⊆ tcRefs τ sig :=
  ⟨binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., binary_bufs_sub .., binary_bufs_sub .., nullary_bufs_sub .., unary_bufs_sub ..,
    binary_bufs_sub .., unary_bufs_sub .., binary_bufs_sub .., unary_bufs_sub .., binary_bufs_sub .., binary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub ..⟩

/-- Every operation of the window determines all it writes. -/
theorem fresh_72 : (ops72 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_72 (V : Valuation τ sig (Elt F)) :
    after ops72 V (main_arg0 : DevRef τ sig) = V (main_arg0 : DevRef τ sig) := by
  simp only [after_cons, after_nil]
  rfl

/-- The operations of @main's statements 4381 … 4440, in order (80 of them): a statement's own operation, or, for a call
    of a clip function, the six operations of its body over that call's buffers. -/
abbrev ops73 : List (HloOp τ sig (Elt F)) :=
  [ StableHlo.binary main_v3323 main_v3324 main_v3325 (mulf : (⟨S32768x2, .f32⟩ : BufTy).Contents (Elt F) → (⟨S32768x2, .f32⟩ : BufTy).Contents (Elt F) → (⟨S32768x2, .f32⟩ : BufTy).Contents (Elt F)),
    StableHlo.unary main_v3321 main_v3326 (Host.absf : (⟨S32768x2, .f32⟩ : BufTy).Contents (Elt F) → (⟨S32768x2, .f32⟩ : BufTy).Contents (Elt F)),
    StableHlo.unary main_v3322 main_v3327 (Host.absf : (⟨S32768x2, .f32⟩ : BufTy).Contents (Elt F) → (⟨S32768x2, .f32⟩ : BufTy).Contents (Elt F)),
    StableHlo.binary main_v3326 main_v3327 main_v3328 (minimumf : (⟨S32768x2, .f32⟩ : BufTy).Contents (Elt F) → (⟨S32768x2, .f32⟩ : BufTy).Contents (Elt F) → (⟨S32768x2, .f32⟩ : BufTy).Contents (Elt F)),
    StableHlo.binary main_v3325 main_v3328 main_v3329 (mulf : (⟨S32768x2, .f32⟩ : BufTy).Contents (Elt F) → (⟨S32768x2, .f32⟩ : BufTy).Contents (Elt F) → (⟨S32768x2, .f32⟩ : BufTy).Contents (Elt F)),
    StableHlo.unary main_v3329 main_v3330 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3329 main_v3331 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1053 (constant S_ .f32 0xC1F00000#32),
    StableHlo.nullary main_cst_1054 (constant S_ .f32 0x41F00000#32),
    StableHlo.TRef.unary (.of main_cst_1053 : StableHlo.TRef sig ⟨S_, .f32⟩) main_call304.v0 id,
    StableHlo.TRef.unary main_call304.v0 main_call304.v1 (broadcastInDim S32768x1 ![] bcast_S_S32768x1),
    StableHlo.TRef.binary main_call304.v1 (.of main_v3330 : StableHlo.TRef sig ⟨S32768x1, .f32⟩) main_call304.v2 maximumf,
    StableHlo.TRef.unary (.of main_cst_1054 : StableHlo.TRef sig ⟨S_, .f32⟩) main_call304.v3 id,
    StableHlo.TRef.unary main_call304.v3 main_call304.v4 (broadcastInDim S32768x1 ![] bcast_S_S32768x1),
    StableHlo.TRef.binary main_call304.v4 main_call304.v2 main_call304.v5 minimumf,
    StableHlo.nullary main_cst_1055 (constant S_ .f32 0xC1F00000#32),
    StableHlo.nullary main_cst_1056 (constant S_ .f32 0x41F00000#32),
    StableHlo.TRef.unary (.of main_cst_1055 : StableHlo.TRef sig ⟨S_, .f32⟩) main_call305.v0 id,
    StableHlo.TRef.unary main_call305.v0 main_call305.v1 (broadcastInDim S32768x1 ![] bcast_S_S32768x1),
    StableHlo.TRef.binary main_call305.v1 (.of main_v3331 : StableHlo.TRef sig ⟨S32768x1, .f32⟩) main_call305.v2 maximumf,
    StableHlo.TRef.unary (.of main_cst_1056 : StableHlo.TRef sig ⟨S_, .f32⟩) main_call305.v3 id,
    StableHlo.TRef.unary main_call305.v3 main_call305.v4 (broadcastInDim S32768x1 ![] bcast_S_S32768x1),
    StableHlo.TRef.binary main_call305.v4 main_call305.v2 main_call305.v5 minimumf,
    StableHlo.unary main_v3332 main_v3334 (Host.sign : (⟨S32768x1, .f32⟩ : BufTy).Contents (Elt F) → (⟨S32768x1, .f32⟩ : BufTy).Contents (Elt F)),
    StableHlo.unary main_v3333 main_v3335 (Host.sign : (⟨S32768x1, .f32⟩ : BufTy).Contents (Elt F) → (⟨S32768x1, .f32⟩ : BufTy).Contents (Elt F)),
    StableHlo.binary main_v3334 main_v3335 main_v3336 (mulf : (⟨S32768x1, .f32⟩ : BufTy).Contents (Elt F) → (⟨S32768x1, .f32⟩ : BufTy).Contents (Elt F) → (⟨S32768x1, .f32⟩ : BufTy).Contents (Elt F)),
    StableHlo.unary main_v3332 main_v3337 (Host.absf : (⟨S32768x1, .f32⟩ : BufTy).Contents (Elt F) → (⟨S32768x1, .f32⟩ : BufTy).Contents (Elt F)),
    StableHlo.unary main_v3333 main_v3338 (Host.absf : (⟨S32768x1, .f32⟩ : BufTy).Contents (Elt F) → (⟨S32768x1, .f32⟩ : BufTy).Contents (Elt F)),
    StableHlo.binary main_v3337 main_v3338 main_v3339 (minimumf : (⟨S32768x1, .f32⟩ : BufTy).Contents (Elt F) → (⟨S32768x1, .f32⟩ : BufTy).Contents (Elt F) → (⟨S32768x1, .f32⟩ : BufTy).Contents (Elt F)),
    StableHlo.binary main_v3336 main_v3339 main_v3340 (mulf : (⟨S32768x1, .f32⟩ : BufTy).Contents (Elt F) → (⟨S32768x1, .f32⟩ : BufTy).Contents (Elt F) → (⟨S32768x1, .f32⟩ : BufTy).Contents (Elt F)),
    StableHlo.nullary main_cst_1057 (constant S_ .f32 0x00000000#32),
    StableHlo.unary main_cst_1057 main_v3341 (broadcastInDim S32768x1 ![] bcast_S_S32768x1 : (⟨S_, .f32⟩ : BufTy).Contents (Elt F) → (⟨S32768x1, .f32⟩ : BufTy).Contents (Elt F)),
    StableHlo.binary main_v3340 main_v3341 main_v3342 (cmpf .ole : (⟨S32768x1, .f32⟩ : BufTy).Contents (Elt F) → (⟨S32768x1, .f32⟩ : BufTy).Contents (Elt F) → (⟨S32768x1, .i1⟩ : BufTy).Contents (Elt F)),
    StableHlo.unary main_v3342 main_v3343 (uitofp .f32 : (⟨S32768x1, .i1⟩ : BufTy).Contents (Elt F) → (⟨S32768x1, .f32⟩ : BufTy).Contents (Elt F)),
    StableHlo.nullary main_cst_1058 (constant S_ .f32 0x40000000#32),
    StableHlo.unary main_cst_1058 main_v3344 (broadcastInDim S32768x1 ![] bcast_S_S32768x1 : (⟨S_, .f32⟩ : BufTy).Contents (Elt F) → (⟨S32768x1, .f32⟩ : BufTy).Contents (Elt F)),
    StableHlo.binary main_v3344 main_v3343 main_v3345 (mulf : (⟨S32768x1, .f32⟩ : BufTy).Contents (Elt F) → (⟨S32768x1, .f32⟩ : BufTy).Contents (Elt F) → (⟨S32768x1, .f32⟩ : BufTy).Contents (Elt F)),
    StableHlo.nullary main_cst_1059 (constant S_ .f32 0x3F800000#32),
    StableHlo.unary main_cst_1059 main_v3346 (broadcastInDim S32768x1 ![] bcast_S_S32768x1 : (⟨S_, .f32⟩ : BufTy).Contents (Elt F) → (⟨S32768x1, .f32⟩ : BufTy).Contents (Elt F)),
    StableHlo.binary main_v3346 main_v3345 main_v3347 (subf : (⟨S32768x1, .f32⟩ : BufTy).Contents (Elt F) → (⟨S32768x1, .f32⟩ : BufTy).Contents (Elt F) → (⟨S32768x1, .f32⟩ : BufTy).Contents (Elt F)),
    StableHlo.binary main_v3347 main_v3330 main_v3348 (mulf : (⟨S32768x1, .f32⟩ : BufTy).Contents (Elt F) → (⟨S32768x1, .f32⟩ : BufTy).Contents (Elt F) → (⟨S32768x1, .f32⟩ : BufTy).Contents (Elt F)),
    StableHlo.binary main_v3348 main_v3331 main_v3349 (addf : (⟨S32768x1, .f32⟩ : BufTy).Contents (Elt F) → (⟨S32768x1, .f32⟩ : BufTy).Contents (Elt F) → (⟨S32768x1, .f32⟩ : BufTy).Contents (Elt F)),
    StableHlo.nullary main_cst_1060 (constant S_ .f32 0x00000000#32),
    StableHlo.unary main_cst_1060 main_v3350 (broadcastInDim S32768x1 ![] bcast_S_S32768x1 : (⟨S_, .f32⟩ : BufTy).Contents (Elt F) → (⟨S32768x1, .f32⟩ : BufTy).Contents (Elt F)),
    StableHlo.binary main_v3349 main_v3350 main_v3351 (cmpf .ole : (⟨S32768x1, .f32⟩ : BufTy).Contents (Elt F) → (⟨S32768x1, .f32⟩ : BufTy).Contents (Elt F) → (⟨S32768x1, .i1⟩ : BufTy).Contents (Elt F)),
    StableHlo.unary main_v3351 main_v3352 (uitofp .f32 : (⟨S32768x1, .i1⟩ : BufTy).Contents (Elt F) → (⟨S32768x1, .f32⟩ : BufTy).Contents (Elt F)),
    StableHlo.binary main_v3343 main_v3352 main_v3353 (cmpf .une : (⟨S32768x1, .f32⟩ : BufTy).Contents (Elt F) → (⟨S32768x1, .f32⟩ : BufTy).Contents (Elt F) → (⟨S32768x1, .i1⟩ : BufTy).Contents (Elt F)),
    StableHlo.unary main_v3353 main_v3354 (uitofp .f32 : (⟨S32768x1, .i1⟩ : BufTy).Contents (Elt F) → (⟨S32768x1, .f32⟩ : BufTy).Contents (Elt F)),
    StableHlo.binary main_v3354 main_v3352 main_v3355 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3343 main_v3352 main_v3356 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1061 (constant S_ .f32 0x40000000#32),
    StableHlo.unary main_cst_1061 main_v3357 (broadcastInDim S32768x2 ![] bcast_S_S32768x2 : (⟨S_, .f32⟩ : BufTy).Contents (Elt F) → (⟨S32768x2, .f32⟩ : BufTy).Contents (Elt F)),
    StableHlo.binary main_v3357 main_v3355 main_v3358 (mulf : (⟨S32768x2, .f32⟩ : BufTy).Contents (Elt F) → (⟨S32768x2, .f32⟩ : BufTy).Contents (Elt F) → (⟨S32768x2, .f32⟩ : BufTy).Contents (Elt F)),
    StableHlo.nullary main_cst_1062 (constant S_ .f32 0x3F800000#32),
    StableHlo.unary main_cst_1062 main_v3359 (broadcastInDim S32768x2 ![] bcast_S_S32768x2 : (⟨S_, .f32⟩ : BufTy).Contents (Elt F) → (⟨S32768x2, .f32⟩ : BufTy).Contents (Elt F)),
    StableHlo.binary main_v3359 main_v3358 main_v3360 (subf : (⟨S32768x2, .f32⟩ : BufTy).Contents (Elt F) → (⟨S32768x2, .f32⟩ : BufTy).Contents (Elt F) → (⟨S32768x2, .f32⟩ : BufTy).Contents (Elt F)),
    StableHlo.binary main_v3360 main_v3319 main_v3361 (mulf : (⟨S32768x2, .f32⟩ : BufTy).Contents (Elt F) → (⟨S32768x2, .f32⟩ : BufTy).Contents (Elt F) → (⟨S32768x2, .f32⟩ : BufTy).Contents (Elt F)),
    StableHlo.binary main_v3361 main_v3320 main_v3362 (addf : (⟨S32768x2, .f32⟩ : BufTy).Contents (Elt F) → (⟨S32768x2, .f32⟩ : BufTy).Contents (Elt F) → (⟨S32768x2, .f32⟩ : BufTy).Contents (Elt F)),
    StableHlo.unary main_v3362 main_v3363 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3362 main_v3364 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1063 (constant S_ .f32 0xC1F00000#32),
    StableHlo.nullary main_cst_1064 (constant S_ .f32 0x41F00000#32),
    StableHlo.TRef.unary (.of main_cst_1063 : StableHlo.TRef sig ⟨S_, .f32⟩) main_call306.v0 id,
    StableHlo.TRef.unary main_call306.v0 main_call306.v1 (broadcastInDim S32768x1 ![] bcast_S_S32768x1),
    StableHlo.TRef.binary main_call306.v1 (.of main_v3363 : StableHlo.TRef sig ⟨S32768x1, .f32⟩) main_call306.v2 maximumf,
    StableHlo.TRef.unary (.of main_cst_1064 : StableHlo.TRef sig ⟨S_, .f32⟩) main_call306.v3 id,
    StableHlo.TRef.unary main_call306.v3 main_call306.v4 (broadcastInDim S32768x1 ![] bcast_S_S32768x1),
    StableHlo.TRef.binary main_call306.v4 main_call306.v2 main_call306.v5 minimumf,
    StableHlo.nullary main_cst_1065 (constant S_ .f32 0xC1F00000#32),
    StableHlo.nullary main_cst_1066 (constant S_ .f32 0x41F00000#32),
    StableHlo.TRef.unary (.of main_cst_1065 : StableHlo.TRef sig ⟨S_, .f32⟩) main_call307.v0 id,
    StableHlo.TRef.unary main_call307.v0 main_call307.v1 (broadcastInDim S32768x1 ![] bcast_S_S32768x1),
    StableHlo.TRef.binary main_call307.v1 (.of main_v3364 : StableHlo.TRef sig ⟨S32768x1, .f32⟩) main_call307.v2 maximumf,
    StableHlo.TRef.unary (.of main_cst_1066 : StableHlo.TRef sig ⟨S_, .f32⟩) main_call307.v3 id,
    StableHlo.TRef.unary main_call307.v3 main_call307.v4 (broadcastInDim S32768x1 ![] bcast_S_S32768x1),
    StableHlo.TRef.binary main_call307.v4 main_call307.v2 main_call307.v5 minimumf,
    StableHlo.unary main_v3365 main_v3367 (Host.sign : (⟨S32768x1, .f32⟩ : BufTy).Contents (Elt F) → (⟨S32768x1, .f32⟩ : BufTy).Contents (Elt F)),
    StableHlo.unary main_v3366 main_v3368 (Host.sign : (⟨S32768x1, .f32⟩ : BufTy).Contents (Elt F) → (⟨S32768x1, .f32⟩ : BufTy).Contents (Elt F)),
    StableHlo.binary main_v3367 main_v3368 main_v3369 (mulf : (⟨S32768x1, .f32⟩ : BufTy).Contents (Elt F) → (⟨S32768x1, .f32⟩ : BufTy).Contents (Elt F) → (⟨S32768x1, .f32⟩ : BufTy).Contents (Elt F)),
    StableHlo.unary main_v3365 main_v3370 (Host.absf : (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_73 (d : Dev nD) : main_part73 (F := F) d = seq ops73 := by
  simp only [main_part73, fn_clip_6.body, seq, bind_assoc, pure_bind]
  rfl

/-- Every operation of the window touches TensorCore references only. -/
theorem sub_73 : (ops73 : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., unary_bufs_sub .., binary_bufs_sub .., unary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub ..⟩

/-- Every operation of the window determines all it writes. -/
theorem fresh_73 : (ops73 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_73 (V : Valuation τ sig (Elt F)) :
    after ops73 V (main_arg0 : DevRef τ sig) = V (main_arg0 : DevRef τ sig) := by
  simp only [after_cons, after_nil]
  rfl

/-- The operations of @main's statements 4441 … 4500, in order (75 of them): a statement's own operation, or, for a call
    of a clip function, the six operations of its body over that call's buffers. -/
abbrev ops74 : List (HloOp τ sig (Elt F)) :=
  [ StableHlo.unary main_v3366 main_v3371 (Host.absf : (⟨S32768x1, .f32⟩ : BufTy).Contents (Elt F) → (⟨S32768x1, .f32⟩ : BufTy).Contents (Elt F)),
    StableHlo.binary main_v3370 main_v3371 main_v3372 (minimumf : (⟨S32768x1, .f32⟩ : BufTy).Contents (Elt F) → (⟨S32768x1, .f32⟩ : BufTy).Contents (Elt F) → (⟨S32768x1, .f32⟩ : BufTy).Contents (Elt F)),
    StableHlo.binary main_v3369 main_v3372 main_v3373 (mulf : (⟨S32768x1, .f32⟩ : BufTy).Contents (Elt F) → (⟨S32768x1, .f32⟩ : BufTy).Contents (Elt F) → (⟨S32768x1, .f32⟩ : BufTy).Contents (Elt F)),
    StableHlo.nullary main_cst_1067 (constant S_ .f32 0x00000000#32),
    StableHlo.unary main_cst_1067 main_v3374 (broadcastInDim S32768x1 ![] bcast_S_S32768x1 : (⟨S_, .f32⟩ : BufTy).Contents (Elt F) → (⟨S32768x1, .f32⟩ : BufTy).Contents (Elt F)),
    StableHlo.binary main_v3373 main_v3374 main_v3375 (cmpf .ole : (⟨S32768x1, .f32⟩ : BufTy).Contents (Elt F) → (⟨S32768x1, .f32⟩ : BufTy).Contents (Elt F) → (⟨S32768x1, .i1⟩ : BufTy).Contents (Elt F)),
    StableHlo.unary main_v3375 main_v3376 (uitofp .f32 : (⟨S32768x1, .i1⟩ : BufTy).Contents (Elt F) → (⟨S32768x1, .f32⟩ : BufTy).Contents (Elt F)),
    StableHlo.nullary main_cst_1068 (constant S_ .f32 0x40000000#32),
    StableHlo.unary main_cst_1068 main_v3377 (broadcastInDim S32768x1 ![] bcast_S_S32768x1 : (⟨S_, .f32⟩ : BufTy).Contents (Elt F) → (⟨S32768x1, .f32⟩ : BufTy).Contents (Elt F)),
    StableHlo.binary main_v3377 main_v3376 main_v3378 (mulf : (⟨S32768x1, .f32⟩ : BufTy).Contents (Elt F) → (⟨S32768x1, .f32⟩ : BufTy).Contents (Elt F) → (⟨S32768x1, .f32⟩ : BufTy).Contents (Elt F)),
    StableHlo.nullary main_cst_1069 (constant S_ .f32 0x3F800000#32),
    StableHlo.unary main_cst_1069 main_v3379 (broadcastInDim S32768x1 ![] bcast_S_S32768x1 : (⟨S_, .f32⟩ : BufTy).Contents (Elt F) → (⟨S32768x1, .f32⟩ : BufTy).Contents (Elt F)),
    StableHlo.binary main_v3379 main_v3378 main_v3380 (subf : (⟨S32768x1, .f32⟩ : BufTy).Contents (Elt F) → (⟨S32768x1, .f32⟩ : BufTy).Contents (Elt F) → (⟨S32768x1, .f32⟩ : BufTy).Contents (Elt F)),
    StableHlo.binary main_v3380 main_v3363 main_v3381 (mulf : (⟨S32768x1, .f32⟩ : BufTy).Contents (Elt F) → (⟨S32768x1, .f32⟩ : BufTy).Contents (Elt F) → (⟨S32768x1, .f32⟩ : BufTy).Contents (Elt F)),
    StableHlo.binary main_v3381 main_v3364 main_v3382 (addf : (⟨S32768x1, .f32⟩ : BufTy).Contents (Elt F) → (⟨S32768x1, .f32⟩ : BufTy).Contents (Elt F) → (⟨S32768x1, .f32⟩ : BufTy).Contents (Elt F)),
    StableHlo.nullary main_cst_1070 (constant S_ .f32 0x00000000#32),
    StableHlo.unary main_cst_1070 main_v3383 (broadcastInDim S32768x1 ![] bcast_S_S32768x1 : (⟨S_, .f32⟩ : BufTy).Contents (Elt F) → (⟨S32768x1, .f32⟩ : BufTy).Contents (Elt F)),
    StableHlo.binary main_v3382 main_v3383 main_v3384 (cmpf .ole : (⟨S32768x1, .f32⟩ : BufTy).Contents (Elt F) → (⟨S32768x1, .f32⟩ : BufTy).Contents (Elt F) → (⟨S32768x1, .i1⟩ : BufTy).Contents (Elt F)),
    StableHlo.unary main_v3384 main_v3385 (uitofp .f32 : (⟨S32768x1, .i1⟩ : BufTy).Contents (Elt F) → (⟨S32768x1, .f32⟩ : BufTy).Contents (Elt F)),
    StableHlo.binary main_v3376 main_v3385 main_v3386 (cmpf .une : (⟨S32768x1, .f32⟩ : BufTy).Contents (Elt F) → (⟨S32768x1, .f32⟩ : BufTy).Contents (Elt F) → (⟨S32768x1, .i1⟩ : BufTy).Contents (Elt F)),
    StableHlo.unary main_v3386 main_v3387 (uitofp .f32 : (⟨S32768x1, .i1⟩ : BufTy).Contents (Elt F) → (⟨S32768x1, .f32⟩ : BufTy).Contents (Elt F)),
    StableHlo.binary main_v3387 main_v3385 main_v3388 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3376 main_v3385 main_v3389 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3355 main_v3388 main_v3390 (cmpf .une : (⟨S32768x2, .f32⟩ : BufTy).Contents (Elt F) → (⟨S32768x2, .f32⟩ : BufTy).Contents (Elt F) → (⟨S32768x2, .i1⟩ : BufTy).Contents (Elt F)),
    StableHlo.unary main_v3390 main_v3391 (uitofp .f32 : (⟨S32768x2, .i1⟩ : BufTy).Contents (Elt F) → (⟨S32768x2, .f32⟩ : BufTy).Contents (Elt F)),
    StableHlo.binary main_v3391 main_v3388 main_v3392 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v3356 main_v3389 main_v3393 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v3311 main_v3392 main_v3394 (cmpf .une : (⟨S32768x4, .f32⟩ : BufTy).Contents (Elt F) → (⟨S32768x4, .f32⟩ : BufTy).Contents (Elt F) → (⟨S32768x4, .i1⟩ : BufTy).Contents (Elt F)),
    StableHlo.unary main_v3394 main_v3395 (uitofp .f32 : (⟨S32768x4, .i1⟩ : BufTy).Contents (Elt F) → (⟨S32768x4, .f32⟩ : BufTy).Contents (Elt F)),
    StableHlo.binary main_v3395 main_v3392 main_v3396 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v3312 main_v3393 main_v3397 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.nullary main_cst_1071 (constant S_ .f32 0x40000000#32),
    StableHlo.unary main_cst_1071 main_v3398 (broadcastInDim S32768x8 ![] bcast_S_S32768x8 : (⟨S_, .f32⟩ : BufTy).Contents (Elt F) → (⟨S32768x8, .f32⟩ : BufTy).Contents (Elt F)),
    StableHlo.binary main_v3398 main_v3396 main_v3399 (mulf : (⟨S32768x8, .f32⟩ : BufTy).Contents (Elt F) → (⟨S32768x8, .f32⟩ : BufTy).Contents (Elt F) → (⟨S32768x8, .f32⟩ : BufTy).Contents (Elt F)),
    StableHlo.nullary main_cst_1072 (constant S_ .f32 0x3F800000#32),
    StableHlo.unary main_cst_1072 main_v3400 (broadcastInDim S32768x8 ![] bcast_S_S32768x8 : (⟨S_, .f32⟩ : BufTy).Contents (Elt F) → (⟨S32768x8, .f32⟩ : BufTy).Contents (Elt F)),
    StableHlo.binary main_v3400 main_v3399 main_v3401 (subf : (⟨S32768x8, .f32⟩ : BufTy).Contents (Elt F) → (⟨S32768x8, .f32⟩ : BufTy).Contents (Elt F) → (⟨S32768x8, .f32⟩ : BufTy).Contents (Elt F)),
    StableHlo.binary main_v3401 main_v3216 main_v3402 (mulf : (⟨S32768x8, .f32⟩ : BufTy).Contents (Elt F) → (⟨S32768x8, .f32⟩ : BufTy).Contents (Elt F) → (⟨S32768x8, .f32⟩ : BufTy).Contents (Elt F)),
    StableHlo.binary main_v3402 main_v3217 main_v3403 (addf : (⟨S32768x8, .f32⟩ : BufTy).Contents (Elt F) → (⟨S32768x8, .f32⟩ : BufTy).Contents (Elt F) → (⟨S32768x8, .f32⟩ : BufTy).Contents (Elt F)),
    StableHlo.unary main_v3403 main_v3404 ((extractStridedSlice S32768x4 ![0, 0] · slices_S32768x8_S32768x4_0_0) : (⟨S32768x8, .f32⟩ : BufTy).Contents (Elt F) → (⟨S32768x4, .f32⟩ : BufTy).Contents (Elt F)),
    StableHlo.unary main_v3403 main_v3405 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_1073 (constant S_ .f32 0xC1F00000#32),
    StableHlo.nullary main_cst_1074 (constant S_ .f32 0x41F00000#32),
    StableHlo.TRef.unary (.of main_cst_1073 : StableHlo.TRef sig ⟨S_, .f32⟩) main_call308.v0 id,
    StableHlo.TRef.unary main_call308.v0 main_call308.v1 (broadcastInDim S32768x4 ![] bcast_S_S32768x4),
    StableHlo.TRef.binary main_call308.v1 (.of main_v3404 : StableHlo.TRef sig ⟨S32768x4, .f32⟩) main_call308.v2 maximumf,
    StableHlo.TRef.unary (.of main_cst_1074 : StableHlo.TRef sig ⟨S_, .f32⟩) main_call308.v3 id,
    StableHlo.TRef.unary main_call308.v3 main_call308.v4 (broadcastInDim S32768x4 ![] bcast_S_S32768x4),
    StableHlo.TRef.binary main_call308.v4 main_call308.v2 main_call308.v5 minimumf,
    StableHlo.nullary main_cst_1075 (constant S_ .f32 0xC1F00000#32),
    StableHlo.nullary main_cst_1076 (constant S_ .f32 0x41F00000#32),
    StableHlo.TRef.unary (.of main_cst_1075 : StableHlo.TRef sig ⟨S_, .f32⟩) main_call309.v0 id,
    StableHlo.TRef.unary main_call309.v0 main_call309.v1 (broadcastInDim S32768x4 ![] bcast_S_S32768x4),
    StableHlo.TRef.binary main_call309.v1 (.of main_v3405 : StableHlo.TRef sig ⟨S32768x4, .f32⟩) main_call309.v2 maximumf,
    StableHlo.TRef.unary (.of main_cst_1076 : StableHlo.TRef sig ⟨S_, .f32⟩) main_call309.v3 id,
    StableHlo.TRef.unary main_call309.v3 main_call309.v4 (broadcastInDim S32768x4 ![] bcast_S_S32768x4),
    StableHlo.TRef.binary main_call309.v4 main_call309.v2 main_call309.v5 minimumf,
    StableHlo.unary main_v3406 main_v3408 (Host.sign : (⟨S32768x4, .f32⟩ : BufTy).Contents (Elt F) → (⟨S32768x4, .f32⟩ : BufTy).Contents (Elt F)),
    StableHlo.unary main_v3407 main_v3409 (Host.sign : (⟨S32768x4, .f32⟩ : BufTy).Contents (Elt F) → (⟨S32768x4, .f32⟩ : BufTy).Contents (Elt F)),
    StableHlo.binary main_v3408 main_v3409 main_v3410 (mulf : (⟨S32768x4, .f32⟩ : BufTy).Contents (Elt F) → (⟨S32768x4, .f32⟩ : BufTy).Contents (Elt F) → (⟨S32768x4, .f32⟩ : BufTy).Contents (Elt F)),
    StableHlo.unary main_v3406 main_v3411 (Host.absf : (⟨S32768x4, .f32⟩ : BufTy).Contents (Elt F) → (⟨S32768x4, .f32⟩ : BufTy).Contents (Elt F)),
    StableHlo.unary main_v3407 main_v3412 (Host.absf : (⟨S32768x4, .f32⟩ : BufTy).Contents (Elt F) → (⟨S32768x4, .f32⟩ : BufTy).Contents (Elt F)),
    StableHlo.binary main_v3411 main_v3412 main_v3413 (minimumf : (⟨S32768x4, .f32⟩ : BufTy).Contents (Elt F) → (⟨S32768x4, .f32⟩ : BufTy).Contents (Elt F) → (⟨S32768x4, .f32⟩ : BufTy).Contents (Elt F)),
    StableHlo.binary main_v3410 main_v3413 main_v3414 (mulf : (⟨S32768x4, .f32⟩ : BufTy).Contents (Elt F) → (⟨S32768x4, .f32⟩ : BufTy).Contents (Elt F) → (⟨S32768x4, .f32⟩ : BufTy).Contents (Elt F)),
    StableHlo.unary main_v3414 main_v3415 ((extractStridedSlice S32768x2 ![0, 0] · slices_S32768x4_S32768x2_0_0) : (⟨S32768x4, .f32⟩ : BufTy).Contents (Elt F) → (⟨S32768x2, .f32⟩ : BufTy).Contents (Elt F)),
    StableHlo.unary main_v3414 main_v3416 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1077 (constant S_ .f32 0xC1F00000#32),
    StableHlo.nullary main_cst_1078 (constant S_ .f32 0x41F00000#32),
    StableHlo.TRef.unary (.of main_cst_1077 : StableHlo.TRef sig ⟨S_, .f32⟩) main_call310.v0 id,
    StableHlo.TRef.unary main_call310.v0 main_call310.v1 (broadcastInDim S32768x2 ![] bcast_S_S32768x2),
    StableHlo.TRef.binary main_call310.v1 (.of main_v3415 : StableHlo.TRef sig ⟨S32768x2, .f32⟩) main_call310.v2 maximumf,
    StableHlo.TRef.unary (.of main_cst_1078 : StableHlo.TRef sig ⟨S_, .f32⟩) main_call310.v3 id,
    StableHlo.TRef.unary main_call310.v3 main_call310.v4 (broadcastInDim S32768x2 ![] bcast_S_S32768x2),
    StableHlo.TRef.binary main_call310.v4 main_call310.v2 main_call310.v5 minimumf,
    StableHlo.nullary main_cst_1079 (constant S_ .f32 0xC1F00000#32) ]

set_option maxRecDepth 8192 in
/-- The window is that straight line: each clip function unfolded at its calls, the sequencing reassociated. -/
theorem part_eq_74 (d : Dev nD) : main_part74 (F := F) d = seq ops74 := by
  simp only [main_part74, fn_clip_4.body, fn_clip_5.body, seq, bind_assoc, pure_bind]
  rfl

/-- Every operation of the window touches TensorCore references only. -/
theorem sub_74 : (ops74 : List (HloOp τ sig (Elt F))).Forall fun op => op.bufs ⊆ tcRefs τ sig :=
  ⟨unary_bufs_sub .., binary_bufs_sub .., binary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    unary_bufs_sub .., binary_bufs_sub .., unary_bufs_sub .., binary_bufs_sub .., binary_bufs_sub .., binary_bufs_sub ..,
    unary_bufs_sub .., binary_bufs_sub .., binary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub ..⟩

/-- Every operation of the window determines all it writes. -/
theorem fresh_74 : (ops74 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
/-- The window writes no argument of @main: the argument's buffer holds after it what it held before. -/
theorem keep_74 (V : Valuation τ sig (Elt F)) :
    after ops74 V (main_arg0 : DevRef τ sig) = V (main_arg0 : DevRef τ sig) := by
  simp only [after_cons, after_nil]
  rfl

/-- The operations of @main's statements 4501 … 4560, in order (85 of them): a statement's own operation, or, for a call
    of a clip function, the six operations of its body over that call's buffers. -/
abbrev ops75 : List (HloOp τ sig (Elt F)) :=
  [ StableHlo.nullary main_cst_1080 (constant S_ .f32 0x41F00000#32),
    StableHlo.TRef.unary (.of main_cst_1079 : StableHlo.TRef sig ⟨S_, .f32⟩) main_call311.v0 id,
    StableHlo.TRef.unary main_call311.v0 main_call311.v1 (broadcastInDim S32768x2 ![] bcast_S_S32768x2),
    StableHlo.TRef.binary main_call311.v1 (.of main_v3416 : StableHlo.TRef sig ⟨S32768x2, .f32⟩) main_call311.v2 maximumf,
    StableHlo.TRef.unary (.of main_cst_1080 : StableHlo.TRef sig ⟨S_, .f32⟩) main_call311.v3 id,
    StableHlo.TRef.unary main_call311.v3 main_call311.v4 (broadcastInDim S32768x2 ![] bcast_S_S32768x2),
    StableHlo.TRef.binary main_call311.v4 main_call311.v2 main_call311.v5 minimumf,
    StableHlo.unary main_v3417 main_v3419 (Host.sign : (⟨S32768x2, .f32⟩ : BufTy).Contents (Elt F) → (⟨S32768x2, .f32⟩ : BufTy).Contents (Elt F)),
    StableHlo.unary main_v3418 main_v3420 (Host.sign : (⟨S32768x2, .f32⟩ : BufTy).Contents (Elt F) → (⟨S32768x2, .f32⟩ : BufTy).Contents (Elt F)),
    StableHlo.binary main_v3419 main_v3420 main_v3421 (mulf : (⟨S32768x2, .f32⟩ : BufTy).Contents (Elt F) → (⟨S32768x2, .f32⟩ : BufTy).Contents (Elt F) → (⟨S32768x2, .f32⟩ : BufTy).Contents (Elt F)),
    StableHlo.unary main_v3417 main_v3422 (Host.absf : (⟨S32768x2, .f32⟩ : BufTy).Contents (Elt F) → (⟨S32768x2, .f32⟩ : BufTy).Contents (Elt F)),
    StableHlo.unary main_v3418 main_v3423 (Host.absf : (⟨S32768x2, .f32⟩ : BufTy).Contents (Elt F) → (⟨S32768x2, .f32⟩ : BufTy).Contents (Elt F)),
    StableHlo.binary main_v3422 main_v3423 main_v3424 (minimumf : (⟨S32768x2, .f32⟩ : BufTy).Contents (Elt F) → (⟨S32768x2, .f32⟩ : BufTy).Contents (Elt F) → (⟨S32768x2, .f32⟩ : BufTy).Contents (Elt F)),
    StableHlo.binary main_v3421 main_v3424 main_v3425 (mulf : (⟨S32768x2, .f32⟩ : BufTy).Contents (Elt F) → (⟨S32768x2, .f32⟩ : BufTy).Contents (Elt F) → (⟨S32768x2, .f32⟩ : BufTy).Contents (Elt F)),
    StableHlo.unary main_v3425 main_v3426 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3425 main_v3427 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1081 (constant S_ .f32 0xC1F00000#32),
    StableHlo.nullary main_cst_1082 (constant S_ .f32 0x41F00000#32),
    StableHlo.TRef.unary (.of main_cst_1081 : StableHlo.TRef sig ⟨S_, .f32⟩) main_call312.v0 id,
    StableHlo.TRef.unary main_call312.v0 main_call312.v1 (broadcastInDim S32768x1 ![] bcast_S_S32768x1),
    StableHlo.TRef.binary main_call312.v1 (.of main_v3426 : StableHlo.TRef sig ⟨S32768x1, .f32⟩) main_call312.v2 maximumf,
    StableHlo.TRef.unary (.of main_cst_1082 : StableHlo.TRef sig ⟨S_, .f32⟩) main_call312.v3 id,
    StableHlo.TRef.unary main_call312.v3 main_call312.v4 (broadcastInDim S32768x1 ![] bcast_S_S32768x1),
    StableHlo.TRef.binary main_call312.v4 main_call312.v2 main_call312.v5 minimumf,
    StableHlo.nullary main_cst_1083 (constant S_ .f32 0xC1F00000#32),
    StableHlo.nullary main_cst_1084 (constant S_ .f32 0x41F00000#32),
    StableHlo.TRef.unary (.of main_cst_1083 : StableHlo.TRef sig ⟨S_, .f32⟩) main_call313.v0 id,
    StableHlo.TRef.unary main_call313.v0 main_call313.v1 (broadcastInDim S32768x1 ![] bcast_S_S32768x1),
    StableHlo.TRef.binary main_call313.v1 (.of main_v3427 : StableHlo.TRef sig ⟨S32768x1, .f32⟩) main_call313.v2 maximumf,
    StableHlo.TRef.unary (.of main_cst_1084 : StableHlo.TRef sig ⟨S_, .f32⟩) main_call313.v3 id,
    StableHlo.TRef.unary main_call313.v3 main_call313.v4 (broadcastInDim S32768x1 ![] bcast_S_S32768x1),
    StableHlo.TRef.binary main_call313.v4 main_call313.v2 main_call313.v5 minimumf,
    StableHlo.unary main_v3428 main_v3430 (Host.sign : (⟨S32768x1, .f32⟩ : BufTy).Contents (Elt F) → (⟨S32768x1, .f32⟩ : BufTy).Contents (Elt F)),
    StableHlo.unary main_v3429 main_v3431 (Host.sign : (⟨S32768x1, .f32⟩ : BufTy).Contents (Elt F) → (⟨S32768x1, .f32⟩ : BufTy).Contents (Elt F)),
    StableHlo.binary main_v3430 main_v3431 main_v3432 (mulf : (⟨S32768x1, .f32⟩ : BufTy).Contents (Elt F) → (⟨S32768x1, .f32⟩ : BufTy).Contents (Elt F) → (⟨S32768x1, .f32⟩ : BufTy).Contents (Elt F)),
    StableHlo.unary main_v3428 main_v3433 (Host.absf : (⟨S32768x1, .f32⟩ : BufTy).Contents (Elt F) → (⟨S32768x1, .f32⟩ : BufTy).Contents (Elt F)),
    StableHlo.unary main_v3429 main_v3434 (Host.absf : (⟨S32768x1, .f32⟩ : BufTy).Contents (Elt F) → (⟨S32768x1, .f32⟩ : BufTy).Contents (Elt F)),
    StableHlo.binary main_v3433 main_v3434 main_v3435 (minimumf : (⟨S32768x1, .f32⟩ : BufTy).Contents (Elt F) → (⟨S32768x1, .f32⟩ : BufTy).Contents (Elt F) → (⟨S32768x1, .f32⟩ : BufTy).Contents (Elt F)),
    StableHlo.binary main_v3432 main_v3435 main_v3436 (mulf : (⟨S32768x1, .f32⟩ : BufTy).Contents (Elt F) → (⟨S32768x1, .f32⟩ : BufTy).Contents (Elt F) → (⟨S32768x1, .f32⟩ : BufTy).Contents (Elt F)),
    StableHlo.nullary main_cst_1085 (constant S_ .f32 0x00000000#32),
    StableHlo.unary main_cst_1085 main_v3437 (broadcastInDim S32768x1 ![] bcast_S_S32768x1 : (⟨S_, .f32⟩ : BufTy).Contents (Elt F) → (⟨S32768x1, .f32⟩ : BufTy).Contents (Elt F)),
    StableHlo.binary main_v3436 main_v3437 main_v3438 (cmpf .ole : (⟨S32768x1, .f32⟩ : BufTy).Contents (Elt F) → (⟨S32768x1, .f32⟩ : BufTy).Contents (Elt F) → (⟨S32768x1, .i1⟩ : BufTy).Contents (Elt F)),
    StableHlo.unary main_v3438 main_v3439 (uitofp .f32 : (⟨S32768x1, .i1⟩ : BufTy).Contents (Elt F) → (⟨S32768x1, .f32⟩ : BufTy).Contents (Elt F)),
    StableHlo.nullary main_cst_1086 (constant S_ .f32 0x40000000#32),
    StableHlo.unary main_cst_1086 main_v3440 (broadcastInDim S32768x1 ![] bcast_S_S32768x1 : (⟨S_, .f32⟩ : BufTy).Contents (Elt F) → (⟨S32768x1, .f32⟩ : BufTy).Contents (Elt F)),
    StableHlo.binary main_v3440 main_v3439 main_v3441 (mulf : (⟨S32768x1, .f32⟩ : BufTy).Contents (Elt F) → (⟨S32768x1, .f32⟩ : BufTy).Contents (Elt F) → (⟨S32768x1, .f32⟩ : BufTy).Contents (Elt F)),
    StableHlo.nullary main_cst_1087 (constant S_ .f32 0x3F800000#32),
    StableHlo.unary main_cst_1087 main_v3442 (broadcastInDim S32768x1 ![] bcast_S_S32768x1 : (⟨S_, .f32⟩ : BufTy).Contents (Elt F) → (⟨S32768x1, .f32⟩ : BufTy).Contents (Elt F)),
    StableHlo.binary main_v3442 main_v3441 main_v3443 (subf : (⟨S32768x1, .f32⟩ : BufTy).Contents (Elt F) → (⟨S32768x1, .f32⟩ : BufTy).Contents (Elt F) → (⟨S32768x1, .f32⟩ : BufTy).Contents (Elt F)),
    StableHlo.binary main_v3443 main_v3426 main_v3444 (mulf : (⟨S32768x1, .f32⟩ : BufTy).Contents (Elt F) → (⟨S32768x1, .f32⟩ : BufTy).Contents (Elt F) → (⟨S32768x1, .f32⟩ : BufTy).Contents (Elt F)),
    StableHlo.binary main_v3444 main_v3427 main_v3445 (addf : (⟨S32768x1, .f32⟩ : BufTy).Contents (Elt F) → (⟨S32768x1, .f32⟩ : BufTy).Contents (Elt F) → (⟨S32768x1, .f32⟩ : BufTy).Contents (Elt F)),
    StableHlo.nullary main_cst_1088 (constant S_ .f32 0x00000000#32),
    StableHlo.unary main_cst_1088 main_v3446 (broadcastInDim S32768x1 ![] bcast_S_S32768x1 : (⟨S_, .f32⟩ : BufTy).Contents (Elt F) → (⟨S32768x1, .f32⟩ : BufTy).Contents (Elt F)),
    StableHlo.binary main_v3445 main_v3446 main_v3447 (cmpf .ole : (⟨S32768x1, .f32⟩ : BufTy).Contents (Elt F) → (⟨S32768x1, .f32⟩ : BufTy).Contents (Elt F) → (⟨S32768x1, .i1⟩ : BufTy).Contents (Elt F)),
    StableHlo.unary main_v3447 main_v3448 (uitofp .f32 : (⟨S32768x1, .i1⟩ : BufTy).Contents (Elt F) → (⟨S32768x1, .f32⟩ : BufTy).Contents (Elt F)),
    StableHlo.binary main_v3439 main_v3448 main_v3449 (cmpf .une : (⟨S32768x1, .f32⟩ : BufTy).Contents (Elt F) → (⟨S32768x1, .f32⟩ : BufTy).Contents (Elt F) → (⟨S32768x1, .i1⟩ : BufTy).Contents (Elt F)),
    StableHlo.unary main_v3449 main_v3450 (uitofp .f32 : (⟨S32768x1, .i1⟩ : BufTy).Contents (Elt F) → (⟨S32768x1, .f32⟩ : BufTy).Contents (Elt F)),
    StableHlo.binary main_v3450 main_v3448 main_v3451 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3439 main_v3448 main_v3452 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1089 (constant S_ .f32 0x40000000#32),
    StableHlo.unary main_cst_1089 main_v3453 (broadcastInDim S32768x2 ![] bcast_S_S32768x2 : (⟨S_, .f32⟩ : BufTy).Contents (Elt F) → (⟨S32768x2, .f32⟩ : BufTy).Contents (Elt F)),
    StableHlo.binary main_v3453 main_v3451 main_v3454 (mulf : (⟨S32768x2, .f32⟩ : BufTy).Contents (Elt F) → (⟨S32768x2, .f32⟩ : BufTy).Contents (Elt F) → (⟨S32768x2, .f32⟩ : BufTy).Contents (Elt F)),
    StableHlo.nullary main_cst_1090 (constant S_ .f32 0x3F800000#32),
    StableHlo.unary main_cst_1090 main_v3455 (broadcastInDim S32768x2 ![] bcast_S_S32768x2 : (⟨S_, .f32⟩ : BufTy).Contents (Elt F) → (⟨S32768x2, .f32⟩ : BufTy).Contents (Elt F)),
    StableHlo.binary main_v3455 main_v3454 main_v3456 (subf : (⟨S32768x2, .f32⟩ : BufTy).Contents (Elt F) → (⟨S32768x2, .f32⟩ : BufTy).Contents (Elt F) → (⟨S32768x2, .f32⟩ : BufTy).Contents (Elt F)),
    StableHlo.binary main_v3456 main_v3415 main_v3457 (mulf : (⟨S32768x2, .f32⟩ : BufTy).Contents (Elt F) → (⟨S32768x2, .f32⟩ : BufTy).Contents (Elt F) → (⟨S32768x2, .f32⟩ : BufTy).Contents (Elt F)),
    StableHlo.binary main_v3457 main_v3416 main_v3458 (addf : (⟨S32768x2, .f32⟩ : BufTy).Contents (Elt F) → (⟨S32768x2, .f32⟩ : BufTy).Contents (Elt F) → (⟨S32768x2, .f32⟩ : BufTy).Contents (Elt F)),
    StableHlo.unary main_v3458 main_v3459 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3458 main_v3460 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1091 (constant S_ .f32 0xC1F00000#32),
    StableHlo.nullary main_cst_1092 (constant S_ .f32 0x41F00000#32),
    StableHlo.TRef.unary (.of main_cst_1091 : StableHlo.TRef sig ⟨S_, .f32⟩) main_call314.v0 id,
    StableHlo.TRef.unary main_call314.v0 main_call314.v1 (broadcastInDim S32768x1 ![] bcast_S_S32768x1),
    StableHlo.TRef.binary main_call314.v1 (.of main_v3459 : StableHlo.TRef sig ⟨S32768x1, .f32⟩) main_call314.v2 maximumf,
    StableHlo.TRef.unary (.of main_cst_1092 : StableHlo.TRef sig ⟨S_, .f32⟩) main_call314.v3 id,
    StableHlo.TRef.unary main_call314.v3 main_call314.v4 (broadcastInDim S32768x1 ![] bcast_S_S32768x1),
    StableHlo.TRef.binary main_call314.v4 main_call314.v2 main_call314.v5 minimumf,
    StableHlo.nullary main_cst_1093 (constant S_ .f32 0xC1F00000#32),
    StableHlo.nullary main_cst_1094 (constant S_ .f32 0x41F00000#32),
    StableHlo.TRef.unary (.of main_cst_1093 : StableHlo.TRef sig ⟨S_, .f32⟩) main_call315.v0 id,
    StableHlo.TRef.unary main_call315.v0 main_call315.v1 (broadcastInDim S32768x1 ![] bcast_S_S32768x1),
    StableHlo.TRef.binary main_call315.v1 (.of main_v3460 : StableHlo.TRef sig ⟨S32768x1, .f32⟩) main_call315.v2 maximumf,
    StableHlo.TRef.unary (.of main_cst_1094 : StableHlo.TRef sig ⟨S_, .f32⟩) main_call315.v3 id,
    StableHlo.TRef.unary main_call315.v3 main_call315.v4 (broadcastInDim S32768x1 ![] bcast_S_S32768x1),
    StableHlo.TRef.binary main_call315.v4 main_call315.v2 main_call315.v5 minimumf ]

set_option maxRecDepth 8192 in
/-- The window is that straight line: each clip function unfolded at its calls, the sequencing reassociated. -/
theorem part_eq_75 (d : Dev nD) : main_part75 (F := F) d = seq ops75 := by
  simp only [main_part75, fn_clip_5.body, fn_clip_6.body, seq, bind_assoc, pure_bind]

/-- Every operation of the window touches TensorCore references only. -/
theorem sub_75 : (ops75 : List (HloOp τ sig (Elt F))).Forall fun op => op.bufs ⊆ tcRefs τ sig :=
  ⟨nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    unary_bufs_sub .., binary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub ..⟩

/-- Every operation of the window determines all it writes. -/
theorem fresh_75 : (ops75 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_75 (V : Valuation τ sig (Elt F)) :
    after ops75 V (main_arg0 : DevRef τ sig) = V (main_arg0 : DevRef τ sig) := by
  simp only [after_cons, after_nil]
  rfl

/-- The operations of @main's statements 4561 … 4620, in order (75 of them): a statement's own operation, or, for a call
    of a clip function, the six operations of its body over that call's buffers. -/
abbrev ops76 : List (HloOp τ sig (Elt F)) :=
  [ StableHlo.unary main_v3461 main_v3463 (Host.sign : (⟨S32768x1, .f32⟩ : BufTy).Contents (Elt F) → (⟨S32768x1, .f32⟩ : BufTy).Contents (Elt F)),
    StableHlo.unary main_v3462 main_v3464 (Host.sign : (⟨S32768x1, .f32⟩ : BufTy).Contents (Elt F) → (⟨S32768x1, .f32⟩ : BufTy).Contents (Elt F)),
    StableHlo.binary main_v3463 main_v3464 main_v3465 (mulf : (⟨S32768x1, .f32⟩ : BufTy).Contents (Elt F) → (⟨S32768x1, .f32⟩ : BufTy).Contents (Elt F) → (⟨S32768x1, .f32⟩ : BufTy).Contents (Elt F)),
    StableHlo.unary main_v3461 main_v3466 (Host.absf : (⟨S32768x1, .f32⟩ : BufTy).Contents (Elt F) → (⟨S32768x1, .f32⟩ : BufTy).Contents (Elt F)),
    StableHlo.unary main_v3462 main_v3467 (Host.absf : (⟨S32768x1, .f32⟩ : BufTy).Contents (Elt F) → (⟨S32768x1, .f32⟩ : BufTy).Contents (Elt F)),
    StableHlo.binary main_v3466 main_v3467 main_v3468 (minimumf : (⟨S32768x1, .f32⟩ : BufTy).Contents (Elt F) → (⟨S32768x1, .f32⟩ : BufTy).Contents (Elt F) → (⟨S32768x1, .f32⟩ : BufTy).Contents (Elt F)),
    StableHlo.binary main_v3465 main_v3468 main_v3469 (mulf : (⟨S32768x1, .f32⟩ : BufTy).Contents (Elt F) → (⟨S32768x1, .f32⟩ : BufTy).Contents (Elt F) → (⟨S32768x1, .f32⟩ : BufTy).Contents (Elt F)),
    StableHlo.nullary main_cst_1095 (constant S_ .f32 0x00000000#32),
    StableHlo.unary main_cst_1095 main_v3470 (broadcastInDim S32768x1 ![] bcast_S_S32768x1 : (⟨S_, .f32⟩ : BufTy).Contents (Elt F) → (⟨S32768x1, .f32⟩ : BufTy).Contents (Elt F)),
    StableHlo.binary main_v3469 main_v3470 main_v3471 (cmpf .ole : (⟨S32768x1, .f32⟩ : BufTy).Contents (Elt F) → (⟨S32768x1, .f32⟩ : BufTy).Contents (Elt F) → (⟨S32768x1, .i1⟩ : BufTy).Contents (Elt F)),
    StableHlo.unary main_v3471 main_v3472 (uitofp .f32 : (⟨S32768x1, .i1⟩ : BufTy).Contents (Elt F) → (⟨S32768x1, .f32⟩ : BufTy).Contents (Elt F)),
    StableHlo.nullary main_cst_1096 (constant S_ .f32 0x40000000#32),
    StableHlo.unary main_cst_1096 main_v3473 (broadcastInDim S32768x1 ![] bcast_S_S32768x1 : (⟨S_, .f32⟩ : BufTy).Contents (Elt F) → (⟨S32768x1, .f32⟩ : BufTy).Contents (Elt F)),
    StableHlo.binary main_v3473 main_v3472 main_v3474 (mulf : (⟨S32768x1, .f32⟩ : BufTy).Contents (Elt F) → (⟨S32768x1, .f32⟩ : BufTy).Contents (Elt F) → (⟨S32768x1, .f32⟩ : BufTy).Contents (Elt F)),
    StableHlo.nullary main_cst_1097 (constant S_ .f32 0x3F800000#32),
    StableHlo.unary main_cst_1097 main_v3475 (broadcastInDim S32768x1 ![] bcast_S_S32768x1 : (⟨S_, .f32⟩ : BufTy).Contents (Elt F) → (⟨S32768x1, .f32⟩ : BufTy).Contents (Elt F)),
    StableHlo.binary main_v3475 main_v3474 main_v3476 (subf : (⟨S32768x1, .f32⟩ : BufTy).Contents (Elt F) → (⟨S32768x1, .f32⟩ : BufTy).Contents (Elt F) → (⟨S32768x1, .f32⟩ : BufTy).Contents (Elt F)),
    StableHlo.binary main_v3476 main_v3459 main_v3477 (mulf : (⟨S32768x1, .f32⟩ : BufTy).Contents (Elt F) → (⟨S32768x1, .f32⟩ : BufTy).Contents (Elt F) → (⟨S32768x1, .f32⟩ : BufTy).Contents (Elt F)),
    StableHlo.binary main_v3477 main_v3460 main_v3478 (addf : (⟨S32768x1, .f32⟩ : BufTy).Contents (Elt F) → (⟨S32768x1, .f32⟩ : BufTy).Contents (Elt F) → (⟨S32768x1, .f32⟩ : BufTy).Contents (Elt F)),
    StableHlo.nullary main_cst_1098 (constant S_ .f32 0x00000000#32),
    StableHlo.unary main_cst_1098 main_v3479 (broadcastInDim S32768x1 ![] bcast_S_S32768x1 : (⟨S_, .f32⟩ : BufTy).Contents (Elt F) → (⟨S32768x1, .f32⟩ : BufTy).Contents (Elt F)),
    StableHlo.binary main_v3478 main_v3479 main_v3480 (cmpf .ole : (⟨S32768x1, .f32⟩ : BufTy).Contents (Elt F) → (⟨S32768x1, .f32⟩ : BufTy).Contents (Elt F) → (⟨S32768x1, .i1⟩ : BufTy).Contents (Elt F)),
    StableHlo.unary main_v3480 main_v3481 (uitofp .f32 : (⟨S32768x1, .i1⟩ : BufTy).Contents (Elt F) → (⟨S32768x1, .f32⟩ : BufTy).Contents (Elt F)),
    StableHlo.binary main_v3472 main_v3481 main_v3482 (cmpf .une : (⟨S32768x1, .f32⟩ : BufTy).Contents (Elt F) → (⟨S32768x1, .f32⟩ : BufTy).Contents (Elt F) → (⟨S32768x1, .i1⟩ : BufTy).Contents (Elt F)),
    StableHlo.unary main_v3482 main_v3483 (uitofp .f32 : (⟨S32768x1, .i1⟩ : BufTy).Contents (Elt F) → (⟨S32768x1, .f32⟩ : BufTy).Contents (Elt F)),
    StableHlo.binary main_v3483 main_v3481 main_v3484 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3472 main_v3481 main_v3485 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3451 main_v3484 main_v3486 (cmpf .une : (⟨S32768x2, .f32⟩ : BufTy).Contents (Elt F) → (⟨S32768x2, .f32⟩ : BufTy).Contents (Elt F) → (⟨S32768x2, .i1⟩ : BufTy).Contents (Elt F)),
    StableHlo.unary main_v3486 main_v3487 (uitofp .f32 : (⟨S32768x2, .i1⟩ : BufTy).Contents (Elt F) → (⟨S32768x2, .f32⟩ : BufTy).Contents (Elt F)),
    StableHlo.binary main_v3487 main_v3484 main_v3488 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v3452 main_v3485 main_v3489 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_1099 (constant S_ .f32 0x40000000#32),
    StableHlo.unary main_cst_1099 main_v3490 (broadcastInDim S32768x4 ![] bcast_S_S32768x4 : (⟨S_, .f32⟩ : BufTy).Contents (Elt F) → (⟨S32768x4, .f32⟩ : BufTy).Contents (Elt F)),
    StableHlo.binary main_v3490 main_v3488 main_v3491 (mulf : (⟨S32768x4, .f32⟩ : BufTy).Contents (Elt F) → (⟨S32768x4, .f32⟩ : BufTy).Contents (Elt F) → (⟨S32768x4, .f32⟩ : BufTy).Contents (Elt F)),
    StableHlo.nullary main_cst_1100 (constant S_ .f32 0x3F800000#32),
    StableHlo.unary main_cst_1100 main_v3492 (broadcastInDim S32768x4 ![] bcast_S_S32768x4 : (⟨S_, .f32⟩ : BufTy).Contents (Elt F) → (⟨S32768x4, .f32⟩ : BufTy).Contents (Elt F)),
    StableHlo.binary main_v3492 main_v3491 main_v3493 (subf : (⟨S32768x4, .f32⟩ : BufTy).Contents (Elt F) → (⟨S32768x4, .f32⟩ : BufTy).Contents (Elt F) → (⟨S32768x4, .f32⟩ : BufTy).Contents (Elt F)),
    StableHlo.binary main_v3493 main_v3404 main_v3494 (mulf : (⟨S32768x4, .f32⟩ : BufTy).Contents (Elt F) → (⟨S32768x4, .f32⟩ : BufTy).Contents (Elt F) → (⟨S32768x4, .f32⟩ : BufTy).Contents (Elt F)),
    StableHlo.binary main_v3494 main_v3405 main_v3495 (addf : (⟨S32768x4, .f32⟩ : BufTy).Contents (Elt F) → (⟨S32768x4, .f32⟩ : BufTy).Contents (Elt F) → (⟨S32768x4, .f32⟩ : BufTy).Contents (Elt F)),
    StableHlo.unary main_v3495 main_v3496 ((extractStridedSlice S32768x2 ![0, 0] · slices_S32768x4_S32768x2_0_0) : (⟨S32768x4, .f32⟩ : BufTy).Contents (Elt F) → (⟨S32768x2, .f32⟩ : BufTy).Contents (Elt F)),
    StableHlo.unary main_v3495 main_v3497 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1101 (constant S_ .f32 0xC1F00000#32),
    StableHlo.nullary main_cst_1102 (constant S_ .f32 0x41F00000#32),
    StableHlo.TRef.unary (.of main_cst_1101 : StableHlo.TRef sig ⟨S_, .f32⟩) main_call316.v0 id,
    StableHlo.TRef.unary main_call316.v0 main_call316.v1 (broadcastInDim S32768x2 ![] bcast_S_S32768x2),
    StableHlo.TRef.binary main_call316.v1 (.of main_v3496 : StableHlo.TRef sig ⟨S32768x2, .f32⟩) main_call316.v2 maximumf,
    StableHlo.TRef.unary (.of main_cst_1102 : StableHlo.TRef sig ⟨S_, .f32⟩) main_call316.v3 id,
    StableHlo.TRef.unary main_call316.v3 main_call316.v4 (broadcastInDim S32768x2 ![] bcast_S_S32768x2),
    StableHlo.TRef.binary main_call316.v4 main_call316.v2 main_call316.v5 minimumf,
    StableHlo.nullary main_cst_1103 (constant S_ .f32 0xC1F00000#32),
    StableHlo.nullary main_cst_1104 (constant S_ .f32 0x41F00000#32),
    StableHlo.TRef.unary (.of main_cst_1103 : StableHlo.TRef sig ⟨S_, .f32⟩) main_call317.v0 id,
    StableHlo.TRef.unary main_call317.v0 main_call317.v1 (broadcastInDim S32768x2 ![] bcast_S_S32768x2),
    StableHlo.TRef.binary main_call317.v1 (.of main_v3497 : StableHlo.TRef sig ⟨S32768x2, .f32⟩) main_call317.v2 maximumf,
    StableHlo.TRef.unary (.of main_cst_1104 : StableHlo.TRef sig ⟨S_, .f32⟩) main_call317.v3 id,
    StableHlo.TRef.unary main_call317.v3 main_call317.v4 (broadcastInDim S32768x2 ![] bcast_S_S32768x2),
    StableHlo.TRef.binary main_call317.v4 main_call317.v2 main_call317.v5 minimumf,
    StableHlo.unary main_v3498 main_v3500 (Host.sign : (⟨S32768x2, .f32⟩ : BufTy).Contents (Elt F) → (⟨S32768x2, .f32⟩ : BufTy).Contents (Elt F)),
    StableHlo.unary main_v3499 main_v3501 (Host.sign : (⟨S32768x2, .f32⟩ : BufTy).Contents (Elt F) → (⟨S32768x2, .f32⟩ : BufTy).Contents (Elt F)),
    StableHlo.binary main_v3500 main_v3501 main_v3502 (mulf : (⟨S32768x2, .f32⟩ : BufTy).Contents (Elt F) → (⟨S32768x2, .f32⟩ : BufTy).Contents (Elt F) → (⟨S32768x2, .f32⟩ : BufTy).Contents (Elt F)),
    StableHlo.unary main_v3498 main_v3503 (Host.absf : (⟨S32768x2, .f32⟩ : BufTy).Contents (Elt F) → (⟨S32768x2, .f32⟩ : BufTy).Contents (Elt F)),
    StableHlo.unary main_v3499 main_v3504 (Host.absf : (⟨S32768x2, .f32⟩ : BufTy).Contents (Elt F) → (⟨S32768x2, .f32⟩ : BufTy).Contents (Elt F)),
    StableHlo.binary main_v3503 main_v3504 main_v3505 (minimumf : (⟨S32768x2, .f32⟩ : BufTy).Contents (Elt F) → (⟨S32768x2, .f32⟩ : BufTy).Contents (Elt F) → (⟨S32768x2, .f32⟩ : BufTy).Contents (Elt F)),
    StableHlo.binary main_v3502 main_v3505 main_v3506 (mulf : (⟨S32768x2, .f32⟩ : BufTy).Contents (Elt F) → (⟨S32768x2, .f32⟩ : BufTy).Contents (Elt F) → (⟨S32768x2, .f32⟩ : BufTy).Contents (Elt F)),
    StableHlo.unary main_v3506 main_v3507 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3506 main_v3508 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1105 (constant S_ .f32 0xC1F00000#32),
    StableHlo.nullary main_cst_1106 (constant S_ .f32 0x41F00000#32),
    StableHlo.TRef.unary (.of main_cst_1105 : StableHlo.TRef sig ⟨S_, .f32⟩) main_call318.v0 id,
    StableHlo.TRef.unary main_call318.v0 main_call318.v1 (broadcastInDim S32768x1 ![] bcast_S_S32768x1),
    StableHlo.TRef.binary main_call318.v1 (.of main_v3507 : StableHlo.TRef sig ⟨S32768x1, .f32⟩) main_call318.v2 maximumf,
    StableHlo.TRef.unary (.of main_cst_1106 : StableHlo.TRef sig ⟨S_, .f32⟩) main_call318.v3 id,
    StableHlo.TRef.unary main_call318.v3 main_call318.v4 (broadcastInDim S32768x1 ![] bcast_S_S32768x1),
    StableHlo.TRef.binary main_call318.v4 main_call318.v2 main_call318.v5 minimumf,
    StableHlo.nullary main_cst_1107 (constant S_ .f32 0xC1F00000#32) ]

set_option maxRecDepth 8192 in
/-- The window is that straight line: each clip function unfolded at its calls, the sequencing reassociated. -/
theorem part_eq_76 (d : Dev nD) : main_part76 (F := F) d = seq ops76 := by
  simp only [main_part76, fn_clip_5.body, fn_clip_6.body, seq, bind_assoc, pure_bind]
  rfl

/-- Every operation of the window touches TensorCore references only. -/
theorem sub_76 : (ops76 : List (HloOp τ sig (Elt F))).Forall fun op => op.bufs ⊆ tcRefs τ sig :=
  ⟨unary_bufs_sub .., unary_bufs_sub .., binary_bufs_sub .., unary_bufs_sub .., unary_bufs_sub .., binary_bufs_sub ..,
    binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    unary_bufs_sub .., binary_bufs_sub .., binary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub ..⟩

/-- Every operation of the window determines all it writes. -/
theorem fresh_76 : (ops76 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
/-- The window writes no argument of @main: the argument's buffer holds after it what it held before. -/
theorem keep_76 (V : Valuation τ sig (Elt F)) :
    after ops76 V (main_arg0 : DevRef τ sig) = V (main_arg0 : DevRef τ sig) := by
  simp only [after_cons, after_nil]
  rfl

/-- The operations of @main's statements 4621 … 4680, in order (75 of them): a statement's own operation, or, for a call
    of a clip function, the six operations of its body over that call's buffers. -/
abbrev ops77 : List (HloOp τ sig (Elt F)) :=
  [ StableHlo.nullary main_cst_1108 (constant S_ .f32 0x41F00000#32),
    StableHlo.TRef.unary (.of main_cst_1107 : StableHlo.TRef sig ⟨S_, .f32⟩) main_call319.v0 id,
    StableHlo.TRef.unary main_call319.v0 main_call319.v1 (broadcastInDim S32768x1 ![] bcast_S_S32768x1),
    StableHlo.TRef.binary main_call319.v1 (.of main_v3508 : StableHlo.TRef sig ⟨S32768x1, .f32⟩) main_call319.v2 maximumf,
    StableHlo.TRef.unary (.of main_cst_1108 : StableHlo.TRef sig ⟨S_, .f32⟩) main_call319.v3 id,
    StableHlo.TRef.unary main_call319.v3 main_call319.v4 (broadcastInDim S32768x1 ![] bcast_S_S32768x1),
    StableHlo.TRef.binary main_call319.v4 main_call319.v2 main_call319.v5 minimumf,
    StableHlo.unary main_v3509 main_v3511 (Host.sign : (⟨S32768x1, .f32⟩ : BufTy).Contents (Elt F) → (⟨S32768x1, .f32⟩ : BufTy).Contents (Elt F)),
    StableHlo.unary main_v3510 main_v3512 (Host.sign : (⟨S32768x1, .f32⟩ : BufTy).Contents (Elt F) → (⟨S32768x1, .f32⟩ : BufTy).Contents (Elt F)),
    StableHlo.binary main_v3511 main_v3512 main_v3513 (mulf : (⟨S32768x1, .f32⟩ : BufTy).Contents (Elt F) → (⟨S32768x1, .f32⟩ : BufTy).Contents (Elt F) → (⟨S32768x1, .f32⟩ : BufTy).Contents (Elt F)),
    StableHlo.unary main_v3509 main_v3514 (Host.absf : (⟨S32768x1, .f32⟩ : BufTy).Contents (Elt F) → (⟨S32768x1, .f32⟩ : BufTy).Contents (Elt F)),
    StableHlo.unary main_v3510 main_v3515 (Host.absf : (⟨S32768x1, .f32⟩ : BufTy).Contents (Elt F) → (⟨S32768x1, .f32⟩ : BufTy).Contents (Elt F)),
    StableHlo.binary main_v3514 main_v3515 main_v3516 (minimumf : (⟨S32768x1, .f32⟩ : BufTy).Contents (Elt F) → (⟨S32768x1, .f32⟩ : BufTy).Contents (Elt F) → (⟨S32768x1, .f32⟩ : BufTy).Contents (Elt F)),
    StableHlo.binary main_v3513 main_v3516 main_v3517 (mulf : (⟨S32768x1, .f32⟩ : BufTy).Contents (Elt F) → (⟨S32768x1, .f32⟩ : BufTy).Contents (Elt F) → (⟨S32768x1, .f32⟩ : BufTy).Contents (Elt F)),
    StableHlo.nullary main_cst_1109 (constant S_ .f32 0x00000000#32),
    StableHlo.unary main_cst_1109 main_v3518 (broadcastInDim S32768x1 ![] bcast_S_S32768x1 : (⟨S_, .f32⟩ : BufTy).Contents (Elt F) → (⟨S32768x1, .f32⟩ : BufTy).Contents (Elt F)),
    StableHlo.binary main_v3517 main_v3518 main_v3519 (cmpf .ole : (⟨S32768x1, .f32⟩ : BufTy).Contents (Elt F) → (⟨S32768x1, .f32⟩ : BufTy).Contents (Elt F) → (⟨S32768x1, .i1⟩ : BufTy).Contents (Elt F)),
    StableHlo.unary main_v3519 main_v3520 (uitofp .f32 : (⟨S32768x1, .i1⟩ : BufTy).Contents (Elt F) → (⟨S32768x1, .f32⟩ : BufTy).Contents (Elt F)),
    StableHlo.nullary main_cst_1110 (constant S_ .f32 0x40000000#32),
    StableHlo.unary main_cst_1110 main_v3521 (broadcastInDim S32768x1 ![] bcast_S_S32768x1 : (⟨S_, .f32⟩ : BufTy).Contents (Elt F) → (⟨S32768x1, .f32⟩ : BufTy).Contents (Elt F)),
    StableHlo.binary main_v3521 main_v3520 main_v3522 (mulf : (⟨S32768x1, .f32⟩ : BufTy).Contents (Elt F) → (⟨S32768x1, .f32⟩ : BufTy).Contents (Elt F) → (⟨S32768x1, .f32⟩ : BufTy).Contents (Elt F)),
    StableHlo.nullary main_cst_1111 (constant S_ .f32 0x3F800000#32),
    StableHlo.unary main_cst_1111 main_v3523 (broadcastInDim S32768x1 ![] bcast_S_S32768x1 : (⟨S_, .f32⟩ : BufTy).Contents (Elt F) → (⟨S32768x1, .f32⟩ : BufTy).Contents (Elt F)),
    StableHlo.binary main_v3523 main_v3522 main_v3524 (subf : (⟨S32768x1, .f32⟩ : BufTy).Contents (Elt F) → (⟨S32768x1, .f32⟩ : BufTy).Contents (Elt F) → (⟨S32768x1, .f32⟩ : BufTy).Contents (Elt F)),
    StableHlo.binary main_v3524 main_v3507 main_v3525 (mulf : (⟨S32768x1, .f32⟩ : BufTy).Contents (Elt F) → (⟨S32768x1, .f32⟩ : BufTy).Contents (Elt F) → (⟨S32768x1, .f32⟩ : BufTy).Contents (Elt F)),
    StableHlo.binary main_v3525 main_v3508 main_v3526 (addf : (⟨S32768x1, .f32⟩ : BufTy).Contents (Elt F) → (⟨S32768x1, .f32⟩ : BufTy).Contents (Elt F) → (⟨S32768x1, .f32⟩ : BufTy).Contents (Elt F)),
    StableHlo.nullary main_cst_1112 (constant S_ .f32 0x00000000#32),
    StableHlo.unary main_cst_1112 main_v3527 (broadcastInDim S32768x1 ![] bcast_S_S32768x1 : (⟨S_, .f32⟩ : BufTy).Contents (Elt F) → (⟨S32768x1, .f32⟩ : BufTy).Contents (Elt F)),
    StableHlo.binary main_v3526 main_v3527 main_v3528 (cmpf .ole : (⟨S32768x1, .f32⟩ : BufTy).Contents (Elt F) → (⟨S32768x1, .f32⟩ : BufTy).Contents (Elt F) → (⟨S32768x1, .i1⟩ : BufTy).Contents (Elt F)),
    StableHlo.unary main_v3528 main_v3529 (uitofp .f32 : (⟨S32768x1, .i1⟩ : BufTy).Contents (Elt F) → (⟨S32768x1, .f32⟩ : BufTy).Contents (Elt F)),
    StableHlo.binary main_v3520 main_v3529 main_v3530 (cmpf .une : (⟨S32768x1, .f32⟩ : BufTy).Contents (Elt F) → (⟨S32768x1, .f32⟩ : BufTy).Contents (Elt F) → (⟨S32768x1, .i1⟩ : BufTy).Contents (Elt F)),
    StableHlo.unary main_v3530 main_v3531 (uitofp .f32 : (⟨S32768x1, .i1⟩ : BufTy).Contents (Elt F) → (⟨S32768x1, .f32⟩ : BufTy).Contents (Elt F)),
    StableHlo.binary main_v3531 main_v3529 main_v3532 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3520 main_v3529 main_v3533 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1113 (constant S_ .f32 0x40000000#32),
    StableHlo.unary main_cst_1113 main_v3534 (broadcastInDim S32768x2 ![] bcast_S_S32768x2 : (⟨S_, .f32⟩ : BufTy).Contents (Elt F) → (⟨S32768x2, .f32⟩ : BufTy).Contents (Elt F)),
    StableHlo.binary main_v3534 main_v3532 main_v3535 (mulf : (⟨S32768x2, .f32⟩ : BufTy).Contents (Elt F) → (⟨S32768x2, .f32⟩ : BufTy).Contents (Elt F) → (⟨S32768x2, .f32⟩ : BufTy).Contents (Elt F)),
    StableHlo.nullary main_cst_1114 (constant S_ .f32 0x3F800000#32),
    StableHlo.unary main_cst_1114 main_v3536 (broadcastInDim S32768x2 ![] bcast_S_S32768x2 : (⟨S_, .f32⟩ : BufTy).Contents (Elt F) → (⟨S32768x2, .f32⟩ : BufTy).Contents (Elt F)),
    StableHlo.binary main_v3536 main_v3535 main_v3537 (subf : (⟨S32768x2, .f32⟩ : BufTy).Contents (Elt F) → (⟨S32768x2, .f32⟩ : BufTy).Contents (Elt F) → (⟨S32768x2, .f32⟩ : BufTy).Contents (Elt F)),
    StableHlo.binary main_v3537 main_v3496 main_v3538 (mulf : (⟨S32768x2, .f32⟩ : BufTy).Contents (Elt F) → (⟨S32768x2, .f32⟩ : BufTy).Contents (Elt F) → (⟨S32768x2, .f32⟩ : BufTy).Contents (Elt F)),
    StableHlo.binary main_v3538 main_v3497 main_v3539 (addf : (⟨S32768x2, .f32⟩ : BufTy).Contents (Elt F) → (⟨S32768x2, .f32⟩ : BufTy).Contents (Elt F) → (⟨S32768x2, .f32⟩ : BufTy).Contents (Elt F)),
    StableHlo.unary main_v3539 main_v3540 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3539 main_v3541 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1115 (constant S_ .f32 0xC1F00000#32),
    StableHlo.nullary main_cst_1116 (constant S_ .f32 0x41F00000#32),
    StableHlo.TRef.unary (.of main_cst_1115 : StableHlo.TRef sig ⟨S_, .f32⟩) main_call320.v0 id,
    StableHlo.TRef.unary main_call320.v0 main_call320.v1 (broadcastInDim S32768x1 ![] bcast_S_S32768x1),
    StableHlo.TRef.binary main_call320.v1 (.of main_v3540 : StableHlo.TRef sig ⟨S32768x1, .f32⟩) main_call320.v2 maximumf,
    StableHlo.TRef.unary (.of main_cst_1116 : StableHlo.TRef sig ⟨S_, .f32⟩) main_call320.v3 id,
    StableHlo.TRef.unary main_call320.v3 main_call320.v4 (broadcastInDim S32768x1 ![] bcast_S_S32768x1),
    StableHlo.TRef.binary main_call320.v4 main_call320.v2 main_call320.v5 minimumf,
    StableHlo.nullary main_cst_1117 (constant S_ .f32 0xC1F00000#32),
    StableHlo.nullary main_cst_1118 (constant S_ .f32 0x41F00000#32),
    StableHlo.TRef.unary (.of main_cst_1117 : StableHlo.TRef sig ⟨S_, .f32⟩) main_call321.v0 id,
    StableHlo.TRef.unary main_call321.v0 main_call321.v1 (broadcastInDim S32768x1 ![] bcast_S_S32768x1),
    StableHlo.TRef.binary main_call321.v1 (.of main_v3541 : StableHlo.TRef sig ⟨S32768x1, .f32⟩) main_call321.v2 maximumf,
    StableHlo.TRef.unary (.of main_cst_1118 : StableHlo.TRef sig ⟨S_, .f32⟩) main_call321.v3 id,
    StableHlo.TRef.unary main_call321.v3 main_call321.v4 (broadcastInDim S32768x1 ![] bcast_S_S32768x1),
    StableHlo.TRef.binary main_call321.v4 main_call321.v2 main_call321.v5 minimumf,
    StableHlo.unary main_v3542 main_v3544 (Host.sign : (⟨S32768x1, .f32⟩ : BufTy).Contents (Elt F) → (⟨S32768x1, .f32⟩ : BufTy).Contents (Elt F)),
    StableHlo.unary main_v3543 main_v3545 (Host.sign : (⟨S32768x1, .f32⟩ : BufTy).Contents (Elt F) → (⟨S32768x1, .f32⟩ : BufTy).Contents (Elt F)),
    StableHlo.binary main_v3544 main_v3545 main_v3546 (mulf : (⟨S32768x1, .f32⟩ : BufTy).Contents (Elt F) → (⟨S32768x1, .f32⟩ : BufTy).Contents (Elt F) → (⟨S32768x1, .f32⟩ : BufTy).Contents (Elt F)),
    StableHlo.unary main_v3542 main_v3547 (Host.absf : (⟨S32768x1, .f32⟩ : BufTy).Contents (Elt F) → (⟨S32768x1, .f32⟩ : BufTy).Contents (Elt F)),
    StableHlo.unary main_v3543 main_v3548 (Host.absf : (⟨S32768x1, .f32⟩ : BufTy).Contents (Elt F) → (⟨S32768x1, .f32⟩ : BufTy).Contents (Elt F)),
    StableHlo.binary main_v3547 main_v3548 main_v3549 (minimumf : (⟨S32768x1, .f32⟩ : BufTy).Contents (Elt F) → (⟨S32768x1, .f32⟩ : BufTy).Contents (Elt F) → (⟨S32768x1, .f32⟩ : BufTy).Contents (Elt F)),
    StableHlo.binary main_v3546 main_v3549 main_v3550 (mulf : (⟨S32768x1, .f32⟩ : BufTy).Contents (Elt F) → (⟨S32768x1, .f32⟩ : BufTy).Contents (Elt F) → (⟨S32768x1, .f32⟩ : BufTy).Contents (Elt F)),
    StableHlo.nullary main_cst_1119 (constant S_ .f32 0x00000000#32),
    StableHlo.unary main_cst_1119 main_v3551 (broadcastInDim S32768x1 ![] bcast_S_S32768x1 : (⟨S_, .f32⟩ : BufTy).Contents (Elt F) → (⟨S32768x1, .f32⟩ : BufTy).Contents (Elt F)),
    StableHlo.binary main_v3550 main_v3551 main_v3552 (cmpf .ole : (⟨S32768x1, .f32⟩ : BufTy).Contents (Elt F) → (⟨S32768x1, .f32⟩ : BufTy).Contents (Elt F) → (⟨S32768x1, .i1⟩ : BufTy).Contents (Elt F)),
    StableHlo.unary main_v3552 main_v3553 (uitofp .f32 : (⟨S32768x1, .i1⟩ : BufTy).Contents (Elt F) → (⟨S32768x1, .f32⟩ : BufTy).Contents (Elt F)),
    StableHlo.nullary main_cst_1120 (constant S_ .f32 0x40000000#32),
    StableHlo.unary main_cst_1120 main_v3554 (broadcastInDim S32768x1 ![] bcast_S_S32768x1 : (⟨S_, .f32⟩ : BufTy).Contents (Elt F) → (⟨S32768x1, .f32⟩ : BufTy).Contents (Elt F)),
    StableHlo.binary main_v3554 main_v3553 main_v3555 (mulf : (⟨S32768x1, .f32⟩ : BufTy).Contents (Elt F) → (⟨S32768x1, .f32⟩ : BufTy).Contents (Elt F) → (⟨S32768x1, .f32⟩ : BufTy).Contents (Elt F)),
    StableHlo.nullary main_cst_1121 (constant S_ .f32 0x3F800000#32) ]

set_option maxRecDepth 8192 in
/-- The window is that straight line: each clip function unfolded at its calls, the sequencing reassociated. -/
theorem part_eq_77 (d : Dev nD) : main_part77 (F := F) d = seq ops77 := by
  simp only [main_part77, fn_clip_6.body, seq, bind_assoc, pure_bind]
  rfl

/-- Every operation of the window touches TensorCore references only. -/
theorem sub_77 : (ops77 : List (HloOp τ sig (Elt F))).Forall fun op => op.bufs ⊆ tcRefs τ sig :=
  ⟨nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., nullary_bufs_sub .., unary_bufs_sub .., binary_bufs_sub .., unary_bufs_sub .., nullary_bufs_sub ..,
    unary_bufs_sub .., binary_bufs_sub .., nullary_bufs_sub ..⟩

/-- Every operation of the window determines all it writes. -/
theorem fresh_77 : (ops77 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
/-- The window writes no argument of @main: the argument's buffer holds after it what it held before. -/
theorem keep_77 (V : Valuation τ sig (Elt F)) :
    after ops77 V (main_arg0 : DevRef τ sig) = V (main_arg0 : DevRef τ sig) := by
  simp only [after_cons, after_nil]
  rfl

/-- The operations of @main's statements 4681 … 4740, in order (80 of them): a statement's own operation, or, for a call
    of a clip function, the six operations of its body over that call's buffers. -/
abbrev ops78 : List (HloOp τ sig (Elt F)) :=
  [ StableHlo.unary main_cst_1121 main_v3556 (broadcastInDim S32768x1 ![] bcast_S_S32768x1 : (⟨S_, .f32⟩ : BufTy).Contents (Elt F) → (⟨S32768x1, .f32⟩ : BufTy).Contents (Elt F)),
    StableHlo.binary main_v3556 main_v3555 main_v3557 (subf : (⟨S32768x1, .f32⟩ : BufTy).Contents (Elt F) → (⟨S32768x1, .f32⟩ : BufTy).Contents (Elt F) → (⟨S32768x1, .f32⟩ : BufTy).Contents (Elt F)),
    StableHlo.binary main_v3557 main_v3540 main_v3558 (mulf : (⟨S32768x1, .f32⟩ : BufTy).Contents (Elt F) → (⟨S32768x1, .f32⟩ : BufTy).Contents (Elt F) → (⟨S32768x1, .f32⟩ : BufTy).Contents (Elt F)),
    StableHlo.binary main_v3558 main_v3541 main_v3559 (addf : (⟨S32768x1, .f32⟩ : BufTy).Contents (Elt F) → (⟨S32768x1, .f32⟩ : BufTy).Contents (Elt F) → (⟨S32768x1, .f32⟩ : BufTy).Contents (Elt F)),
    StableHlo.nullary main_cst_1122 (constant S_ .f32 0x00000000#32),
    StableHlo.unary main_cst_1122 main_v3560 (broadcastInDim S32768x1 ![] bcast_S_S32768x1 : (⟨S_, .f32⟩ : BufTy).Contents (Elt F) → (⟨S32768x1, .f32⟩ : BufTy).Contents (Elt F)),
    StableHlo.binary main_v3559 main_v3560 main_v3561 (cmpf .ole : (⟨S32768x1, .f32⟩ : BufTy).Contents (Elt F) → (⟨S32768x1, .f32⟩ : BufTy).Contents (Elt F) → (⟨S32768x1, .i1⟩ : BufTy).Contents (Elt F)),
    StableHlo.unary main_v3561 main_v3562 (uitofp .f32 : (⟨S32768x1, .i1⟩ : BufTy).Contents (Elt F) → (⟨S32768x1, .f32⟩ : BufTy).Contents (Elt F)),
    StableHlo.binary main_v3553 main_v3562 main_v3563 (cmpf .une : (⟨S32768x1, .f32⟩ : BufTy).Contents (Elt F) → (⟨S32768x1, .f32⟩ : BufTy).Contents (Elt F) → (⟨S32768x1, .i1⟩ : BufTy).Contents (Elt F)),
    StableHlo.unary main_v3563 main_v3564 (uitofp .f32 : (⟨S32768x1, .i1⟩ : BufTy).Contents (Elt F) → (⟨S32768x1, .f32⟩ : BufTy).Contents (Elt F)),
    StableHlo.binary main_v3564 main_v3562 main_v3565 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3553 main_v3562 main_v3566 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3532 main_v3565 main_v3567 (cmpf .une : (⟨S32768x2, .f32⟩ : BufTy).Contents (Elt F) → (⟨S32768x2, .f32⟩ : BufTy).Contents (Elt F) → (⟨S32768x2, .i1⟩ : BufTy).Contents (Elt F)),
    StableHlo.unary main_v3567 main_v3568 (uitofp .f32 : (⟨S32768x2, .i1⟩ : BufTy).Contents (Elt F) → (⟨S32768x2, .f32⟩ : BufTy).Contents (Elt F)),
    StableHlo.binary main_v3568 main_v3565 main_v3569 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v3533 main_v3566 main_v3570 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v3488 main_v3569 main_v3571 (cmpf .une : (⟨S32768x4, .f32⟩ : BufTy).Contents (Elt F) → (⟨S32768x4, .f32⟩ : BufTy).Contents (Elt F) → (⟨S32768x4, .i1⟩ : BufTy).Contents (Elt F)),
    StableHlo.unary main_v3571 main_v3572 (uitofp .f32 : (⟨S32768x4, .i1⟩ : BufTy).Contents (Elt F) → (⟨S32768x4, .f32⟩ : BufTy).Contents (Elt F)),
    StableHlo.binary main_v3572 main_v3569 main_v3573 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v3489 main_v3570 main_v3574 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v3396 main_v3573 main_v3575 (cmpf .une : (⟨S32768x8, .f32⟩ : BufTy).Contents (Elt F) → (⟨S32768x8, .f32⟩ : BufTy).Contents (Elt F) → (⟨S32768x8, .i1⟩ : BufTy).Contents (Elt F)),
    StableHlo.unary main_v3575 main_v3576 (uitofp .f32 : (⟨S32768x8, .i1⟩ : BufTy).Contents (Elt F) → (⟨S32768x8, .f32⟩ : BufTy).Contents (Elt F)),
    StableHlo.binary main_v3576 main_v3573 main_v3577 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v3397 main_v3574 main_v3578 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v3208 main_v3577 main_v3579 (cmpf .une : (⟨S32768x16, .f32⟩ : BufTy).Contents (Elt F) → (⟨S32768x16, .f32⟩ : BufTy).Contents (Elt F) → (⟨S32768x16, .i1⟩ : BufTy).Contents (Elt F)),
    StableHlo.unary main_v3579 main_v3580 (uitofp .f32 : (⟨S32768x16, .i1⟩ : BufTy).Contents (Elt F) → (⟨S32768x16, .f32⟩ : BufTy).Contents (Elt F)),
    StableHlo.binary main_v3580 main_v3577 main_v3581 ((fun a b => concatenate S32768x32 1 [⟨S32768x16, a⟩, ⟨S32768x16, b⟩] concatenates_S32768x16_S32768x16_S32768x32_d1) : (⟨S32768x16, .f32⟩ : BufTy).Contents (Elt F) → (⟨S32768x16, .f32⟩ : BufTy).Contents (Elt F) → (⟨S32768x32, .f32⟩ : BufTy).Contents (Elt F)),
    StableHlo.binary main_v3209 main_v3578 main_v3582 ((fun a b => concatenate S32768x32 1 [⟨S32768x16, a⟩, ⟨S32768x16, b⟩] concatenates_S32768x16_S32768x16_S32768x32_d1) : (⟨S32768x16, .f32⟩ : BufTy).Contents (Elt F) → (⟨S32768x16, .f32⟩ : BufTy).Contents (Elt F) → (⟨S32768x32, .f32⟩ : BufTy).Contents (Elt F)),
    StableHlo.nullary main_cst_1123 (constant S_ .f32 0x40000000#32),
    StableHlo.unary main_cst_1123 main_v3583 (broadcastInDim S32768x32 ![] bcast_S_S32768x32 : (⟨S_, .f32⟩ : BufTy).Contents (Elt F) → (⟨S32768x32, .f32⟩ : BufTy).Contents (Elt F)),
    StableHlo.binary main_v3583 main_v3581 main_v3584 (mulf : (⟨S32768x32, .f32⟩ : BufTy).Contents (Elt F) → (⟨S32768x32, .f32⟩ : BufTy).Contents (Elt F) → (⟨S32768x32, .f32⟩ : BufTy).Contents (Elt F)),
    StableHlo.nullary main_cst_1124 (constant S_ .f32 0x3F800000#32),
    StableHlo.unary main_cst_1124 main_v3585 (broadcastInDim S32768x32 ![] bcast_S_S32768x32 : (⟨S_, .f32⟩ : BufTy).Contents (Elt F) → (⟨S32768x32, .f32⟩ : BufTy).Contents (Elt F)),
    StableHlo.binary main_v3585 main_v3584 main_v3586 (subf : (⟨S32768x32, .f32⟩ : BufTy).Contents (Elt F) → (⟨S32768x32, .f32⟩ : BufTy).Contents (Elt F) → (⟨S32768x32, .f32⟩ : BufTy).Contents (Elt F)),
    StableHlo.binary main_v3586 main_v2825 main_v3587 (mulf : (⟨S32768x32, .f32⟩ : BufTy).Contents (Elt F) → (⟨S32768x32, .f32⟩ : BufTy).Contents (Elt F) → (⟨S32768x32, .f32⟩ : BufTy).Contents (Elt F)),
    StableHlo.binary main_v3587 main_v2826 main_v3588 (addf : (⟨S32768x32, .f32⟩ : BufTy).Contents (Elt F) → (⟨S32768x32, .f32⟩ : BufTy).Contents (Elt F) → (⟨S32768x32, .f32⟩ : BufTy).Contents (Elt F)),
    StableHlo.unary main_v3588 main_v3589 ((extractStridedSlice S32768x16 ![0, 0] · slices_S32768x32_S32768x16_0_0) : (⟨S32768x32, .f32⟩ : BufTy).Contents (Elt F) → (⟨S32768x16, .f32⟩ : BufTy).Contents (Elt F)),
    StableHlo.unary main_v3588 main_v3590 ((extractStridedSlice S32768x16 ![0, 16] · slices_S32768x32_S32768x16_0_16) : (⟨S32768x32, .f32⟩ : BufTy).Contents (Elt F) → (⟨S32768x16, .f32⟩ : BufTy).Contents (Elt F)),
    StableHlo.nullary main_cst_1125 (constant S_ .f32 0xC1F00000#32),
    StableHlo.nullary main_cst_1126 (constant S_ .f32 0x41F00000#32),
    StableHlo.TRef.unary (.of main_cst_1125 : StableHlo.TRef sig ⟨S_, .f32⟩) main_call322.v0 id,
    StableHlo.TRef.unary main_call322.v0 main_call322.v1 (broadcastInDim S32768x16 ![] bcast_S_S32768x16),
    StableHlo.TRef.binary main_call322.v1 (.of main_v3589 : StableHlo.TRef sig ⟨S32768x16, .f32⟩) main_call322.v2 maximumf,
    StableHlo.TRef.unary (.of main_cst_1126 : StableHlo.TRef sig ⟨S_, .f32⟩) main_call322.v3 id,
    StableHlo.TRef.unary main_call322.v3 main_call322.v4 (broadcastInDim S32768x16 ![] bcast_S_S32768x16),
    StableHlo.TRef.binary main_call322.v4 main_call322.v2 main_call322.v5 minimumf,
    StableHlo.nullary main_cst_1127 (constant S_ .f32 0xC1F00000#32),
    StableHlo.nullary main_cst_1128 (constant S_ .f32 0x41F00000#32),
    StableHlo.TRef.unary (.of main_cst_1127 : StableHlo.TRef sig ⟨S_, .f32⟩) main_call323.v0 id,
    StableHlo.TRef.unary main_call323.v0 main_call323.v1 (broadcastInDim S32768x16 ![] bcast_S_S32768x16),
    StableHlo.TRef.binary main_call323.v1 (.of main_v3590 : StableHlo.TRef sig ⟨S32768x16, .f32⟩) main_call323.v2 maximumf,
    StableHlo.TRef.unary (.of main_cst_1128 : StableHlo.TRef sig ⟨S_, .f32⟩) main_call323.v3 id,
    StableHlo.TRef.unary main_call323.v3 main_call323.v4 (broadcastInDim S32768x16 ![] bcast_S_S32768x16),
    StableHlo.TRef.binary main_call323.v4 main_call323.v2 main_call323.v5 minimumf,
    StableHlo.unary main_v3591 main_v3593 (Host.sign : (⟨S32768x16, .f32⟩ : BufTy).Contents (Elt F) → (⟨S32768x16, .f32⟩ : BufTy).Contents (Elt F)),
    StableHlo.unary main_v3592 main_v3594 (Host.sign : (⟨S32768x16, .f32⟩ : BufTy).Contents (Elt F) → (⟨S32768x16, .f32⟩ : BufTy).Contents (Elt F)),
    StableHlo.binary main_v3593 main_v3594 main_v3595 (mulf : (⟨S32768x16, .f32⟩ : BufTy).Contents (Elt F) → (⟨S32768x16, .f32⟩ : BufTy).Contents (Elt F) → (⟨S32768x16, .f32⟩ : BufTy).Contents (Elt F)),
    StableHlo.unary main_v3591 main_v3596 (Host.absf : (⟨S32768x16, .f32⟩ : BufTy).Contents (Elt F) → (⟨S32768x16, .f32⟩ : BufTy).Contents (Elt F)),
    StableHlo.unary main_v3592 main_v3597 (Host.absf : (⟨S32768x16, .f32⟩ : BufTy).Contents (Elt F) → (⟨S32768x16, .f32⟩ : BufTy).Contents (Elt F)),
    StableHlo.binary main_v3596 main_v3597 main_v3598 (minimumf : (⟨S32768x16, .f32⟩ : BufTy).Contents (Elt F) → (⟨S32768x16, .f32⟩ : BufTy).Contents (Elt F) → (⟨S32768x16, .f32⟩ : BufTy).Contents (Elt F)),
    StableHlo.binary main_v3595 main_v3598 main_v3599 (mulf : (⟨S32768x16, .f32⟩ : BufTy).Contents (Elt F) → (⟨S32768x16, .f32⟩ : BufTy).Contents (Elt F) → (⟨S32768x16, .f32⟩ : BufTy).Contents (Elt F)),
    StableHlo.unary main_v3599 main_v3600 ((extractStridedSlice S32768x8 ![0, 0] · slices_S32768x16_S32768x8_0_0) : (⟨S32768x16, .f32⟩ : BufTy).Contents (Elt F) → (⟨S32768x8, .f32⟩ : BufTy).Contents (Elt F)),
    StableHlo.unary main_v3599 main_v3601 ((extractStridedSlice S32768x8 ![0, 8] · slices_S32768x16_S32768x8_0_8) : (⟨S32768x16, .f32⟩ : BufTy).Contents (Elt F) → (⟨S32768x8, .f32⟩ : BufTy).Contents (Elt F)),
    StableHlo.nullary main_cst_1129 (constant S_ .f32 0xC1F00000#32),
    StableHlo.nullary main_cst_1130 (constant S_ .f32 0x41F00000#32),
    StableHlo.TRef.unary (.of main_cst_1129 : StableHlo.TRef sig ⟨S_, .f32⟩) main_call324.v0 id,
    StableHlo.TRef.unary main_call324.v0 main_call324.v1 (broadcastInDim S32768x8 ![] bcast_S_S32768x8),
    StableHlo.TRef.binary main_call324.v1 (.of main_v3600 : StableHlo.TRef sig ⟨S32768x8, .f32⟩) main_call324.v2 maximumf,
    StableHlo.TRef.unary (.of main_cst_1130 : StableHlo.TRef sig ⟨S_, .f32⟩) main_call324.v3 id,
    StableHlo.TRef.unary main_call324.v3 main_call324.v4 (broadcastInDim S32768x8 ![] bcast_S_S32768x8),
    StableHlo.TRef.binary main_call324.v4 main_call324.v2 main_call324.v5 minimumf,
    StableHlo.nullary main_cst_1131 (constant S_ .f32 0xC1F00000#32),
    StableHlo.nullary main_cst_1132 (constant S_ .f32 0x41F00000#32),
    StableHlo.TRef.unary (.of main_cst_1131 : StableHlo.TRef sig ⟨S_, .f32⟩) main_call325.v0 id,
    StableHlo.TRef.unary main_call325.v0 main_call325.v1 (broadcastInDim S32768x8 ![] bcast_S_S32768x8),
    StableHlo.TRef.binary main_call325.v1 (.of main_v3601 : StableHlo.TRef sig ⟨S32768x8, .f32⟩) main_call325.v2 maximumf,
    StableHlo.TRef.unary (.of main_cst_1132 : StableHlo.TRef sig ⟨S_, .f32⟩) main_call325.v3 id,
    StableHlo.TRef.unary main_call325.v3 main_call325.v4 (broadcastInDim S32768x8 ![] bcast_S_S32768x8),
    StableHlo.TRef.binary main_call325.v4 main_call325.v2 main_call325.v5 minimumf,
    StableHlo.unary main_v3602 main_v3604 (Host.sign : (⟨S32768x8, .f32⟩ : BufTy).Contents (Elt F) → (⟨S32768x8, .f32⟩ : BufTy).Contents (Elt F)) ]

set_option maxRecDepth 8192 in
/-- The window is that straight line: each clip function unfolded at its calls, the sequencing reassociated. -/
theorem part_eq_78 (d : Dev nD) : main_part78 (F := F) d = seq ops78 := by
  simp only [main_part78, fn_clip_2.body, fn_clip_3.body, seq, bind_assoc, pure_bind]
  rfl

/-- Every operation of the window touches TensorCore references only. -/
theorem sub_78 : (ops78 : List (HloOp τ sig (Elt F))).Forall fun op => op.bufs ⊆ tcRefs τ sig :=
  ⟨unary_bufs_sub .., binary_bufs_sub .., binary_bufs_sub .., binary_bufs_sub .., nullary_bufs_sub .., unary_bufs_sub ..,
    binary_bufs_sub .., unary_bufs_sub .., binary_bufs_sub .., unary_bufs_sub .., binary_bufs_sub .., binary_bufs_sub ..,
    binary_bufs_sub .., unary_bufs_sub .., binary_bufs_sub .., binary_bufs_sub .., binary_bufs_sub .., unary_bufs_sub ..,
    binary_bufs_sub .., binary_bufs_sub .., binary_bufs_sub .., unary_bufs_sub .., binary_bufs_sub .., binary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub ..⟩

/-- Every operation of the window determines all it writes. -/
theorem fresh_78 : (ops78 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_78 (V : Valuation τ sig (Elt F)) :
    after ops78 V (main_arg0 : DevRef τ sig) = V (main_arg0 : DevRef τ sig) := by
  simp only [after_cons, after_nil]
  rfl

/-- The operations of @main's statements 4741 … 4800, in order (90 of them): a statement's own operation, or, for a call
    of a clip function, the six operations of its body over that call's buffers. -/
abbrev ops79 : List (HloOp τ sig (Elt F)) :=
  [ StableHlo.unary main_v3603 main_v3605 (Host.sign : (⟨S32768x8, .f32⟩ : BufTy).Contents (Elt F) → (⟨S32768x8, .f32⟩ : BufTy).Contents (Elt F)),
    StableHlo.binary main_v3604 main_v3605 main_v3606 (mulf : (⟨S32768x8, .f32⟩ : BufTy).Contents (Elt F) → (⟨S32768x8, .f32⟩ : BufTy).Contents (Elt F) → (⟨S32768x8, .f32⟩ : BufTy).Contents (Elt F)),
    StableHlo.unary main_v3602 main_v3607 (Host.absf : (⟨S32768x8, .f32⟩ : BufTy).Contents (Elt F) → (⟨S32768x8, .f32⟩ : BufTy).Contents (Elt F)),
    StableHlo.unary main_v3603 main_v3608 (Host.absf : (⟨S32768x8, .f32⟩ : BufTy).Contents (Elt F) → (⟨S32768x8, .f32⟩ : BufTy).Contents (Elt F)),
    StableHlo.binary main_v3607 main_v3608 main_v3609 (minimumf : (⟨S32768x8, .f32⟩ : BufTy).Contents (Elt F) → (⟨S32768x8, .f32⟩ : BufTy).Contents (Elt F) → (⟨S32768x8, .f32⟩ : BufTy).Contents (Elt F)),
    StableHlo.binary main_v3606 main_v3609 main_v3610 (mulf : (⟨S32768x8, .f32⟩ : BufTy).Contents (Elt F) → (⟨S32768x8, .f32⟩ : BufTy).Contents (Elt F) → (⟨S32768x8, .f32⟩ : BufTy).Contents (Elt F)),
    StableHlo.unary main_v3610 main_v3611 ((extractStridedSlice S32768x4 ![0, 0] · slices_S32768x8_S32768x4_0_0) : (⟨S32768x8, .f32⟩ : BufTy).Contents (Elt F) → (⟨S32768x4, .f32⟩ : BufTy).Contents (Elt F)),
    StableHlo.unary main_v3610 main_v3612 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_1133 (constant S_ .f32 0xC1F00000#32),
    StableHlo.nullary main_cst_1134 (constant S_ .f32 0x41F00000#32),
    StableHlo.TRef.unary (.of main_cst_1133 : StableHlo.TRef sig ⟨S_, .f32⟩) main_call326.v0 id,
    StableHlo.TRef.unary main_call326.v0 main_call326.v1 (broadcastInDim S32768x4 ![] bcast_S_S32768x4),
    StableHlo.TRef.binary main_call326.v1 (.of main_v3611 : StableHlo.TRef sig ⟨S32768x4, .f32⟩) main_call326.v2 maximumf,
    StableHlo.TRef.unary (.of main_cst_1134 : StableHlo.TRef sig ⟨S_, .f32⟩) main_call326.v3 id,
    StableHlo.TRef.unary main_call326.v3 main_call326.v4 (broadcastInDim S32768x4 ![] bcast_S_S32768x4),
    StableHlo.TRef.binary main_call326.v4 main_call326.v2 main_call326.v5 minimumf,
    StableHlo.nullary main_cst_1135 (constant S_ .f32 0xC1F00000#32),
    StableHlo.nullary main_cst_1136 (constant S_ .f32 0x41F00000#32),
    StableHlo.TRef.unary (.of main_cst_1135 : StableHlo.TRef sig ⟨S_, .f32⟩) main_call327.v0 id,
    StableHlo.TRef.unary main_call327.v0 main_call327.v1 (broadcastInDim S32768x4 ![] bcast_S_S32768x4),
    StableHlo.TRef.binary main_call327.v1 (.of main_v3612 : StableHlo.TRef sig ⟨S32768x4, .f32⟩) main_call327.v2 maximumf,
    StableHlo.TRef.unary (.of main_cst_1136 : StableHlo.TRef sig ⟨S_, .f32⟩) main_call327.v3 id,
    StableHlo.TRef.unary main_call327.v3 main_call327.v4 (broadcastInDim S32768x4 ![] bcast_S_S32768x4),
    StableHlo.TRef.binary main_call327.v4 main_call327.v2 main_call327.v5 minimumf,
    StableHlo.unary main_v3613 main_v3615 (Host.sign : (⟨S32768x4, .f32⟩ : BufTy).Contents (Elt F) → (⟨S32768x4, .f32⟩ : BufTy).Contents (Elt F)),
    StableHlo.unary main_v3614 main_v3616 (Host.sign : (⟨S32768x4, .f32⟩ : BufTy).Contents (Elt F) → (⟨S32768x4, .f32⟩ : BufTy).Contents (Elt F)),
    StableHlo.binary main_v3615 main_v3616 main_v3617 (mulf : (⟨S32768x4, .f32⟩ : BufTy).Contents (Elt F) → (⟨S32768x4, .f32⟩ : BufTy).Contents (Elt F) → (⟨S32768x4, .f32⟩ : BufTy).Contents (Elt F)),
    StableHlo.unary main_v3613 main_v3618 (Host.absf : (⟨S32768x4, .f32⟩ : BufTy).Contents (Elt F) → (⟨S32768x4, .f32⟩ : BufTy).Contents (Elt F)),
    StableHlo.unary main_v3614 main_v3619 (Host.absf : (⟨S32768x4, .f32⟩ : BufTy).Contents (Elt F) → (⟨S32768x4, .f32⟩ : BufTy).Contents (Elt F)),
    StableHlo.binary main_v3618 main_v3619 main_v3620 (minimumf : (⟨S32768x4, .f32⟩ : BufTy).Contents (Elt F) → (⟨S32768x4, .f32⟩ : BufTy).Contents (Elt F) → (⟨S32768x4, .f32⟩ : BufTy).Contents (Elt F)),
    StableHlo.binary main_v3617 main_v3620 main_v3621 (mulf : (⟨S32768x4, .f32⟩ : BufTy).Contents (Elt F) → (⟨S32768x4, .f32⟩ : BufTy).Contents (Elt F) → (⟨S32768x4, .f32⟩ : BufTy).Contents (Elt F)),
    StableHlo.unary main_v3621 main_v3622 ((extractStridedSlice S32768x2 ![0, 0] · slices_S32768x4_S32768x2_0_0) : (⟨S32768x4, .f32⟩ : BufTy).Contents (Elt F) → (⟨S32768x2, .f32⟩ : BufTy).Contents (Elt F)),
    StableHlo.unary main_v3621 main_v3623 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1137 (constant S_ .f32 0xC1F00000#32),
    StableHlo.nullary main_cst_1138 (constant S_ .f32 0x41F00000#32),
    StableHlo.TRef.unary (.of main_cst_1137 : StableHlo.TRef sig ⟨S_, .f32⟩) main_call328.v0 id,
    StableHlo.TRef.unary main_call328.v0 main_call328.v1 (broadcastInDim S32768x2 ![] bcast_S_S32768x2),
    StableHlo.TRef.binary main_call328.v1 (.of main_v3622 : StableHlo.TRef sig ⟨S32768x2, .f32⟩) main_call328.v2 maximumf,
    StableHlo.TRef.unary (.of main_cst_1138 : StableHlo.TRef sig ⟨S_, .f32⟩) main_call328.v3 id,
    StableHlo.TRef.unary main_call328.v3 main_call328.v4 (broadcastInDim S32768x2 ![] bcast_S_S32768x2),
    StableHlo.TRef.binary main_call328.v4 main_call328.v2 main_call328.v5 minimumf,
    StableHlo.nullary main_cst_1139 (constant S_ .f32 0xC1F00000#32),
    StableHlo.nullary main_cst_1140 (constant S_ .f32 0x41F00000#32),
    StableHlo.TRef.unary (.of main_cst_1139 : StableHlo.TRef sig ⟨S_, .f32⟩) main_call329.v0 id,
    StableHlo.TRef.unary main_call329.v0 main_call329.v1 (broadcastInDim S32768x2 ![] bcast_S_S32768x2),
    StableHlo.TRef.binary main_call329.v1 (.of main_v3623 : StableHlo.TRef sig ⟨S32768x2, .f32⟩) main_call329.v2 maximumf,
    StableHlo.TRef.unary (.of main_cst_1140 : StableHlo.TRef sig ⟨S_, .f32⟩) main_call329.v3 id,
    StableHlo.TRef.unary main_call329.v3 main_call329.v4 (broadcastInDim S32768x2 ![] bcast_S_S32768x2),
    StableHlo.TRef.binary main_call329.v4 main_call329.v2 main_call329.v5 minimumf,
    StableHlo.unary main_v3624 main_v3626 (Host.sign : (⟨S32768x2, .f32⟩ : BufTy).Contents (Elt F) → (⟨S32768x2, .f32⟩ : BufTy).Contents (Elt F)),
    StableHlo.unary main_v3625 main_v3627 (Host.sign : (⟨S32768x2, .f32⟩ : BufTy).Contents (Elt F) → (⟨S32768x2, .f32⟩ : BufTy).Contents (Elt F)),
    StableHlo.binary main_v3626 main_v3627 main_v3628 (mulf : (⟨S32768x2, .f32⟩ : BufTy).Contents (Elt F) → (⟨S32768x2, .f32⟩ : BufTy).Contents (Elt F) → (⟨S32768x2, .f32⟩ : BufTy).Contents (Elt F)),
    StableHlo.unary main_v3624 main_v3629 (Host.absf : (⟨S32768x2, .f32⟩ : BufTy).Contents (Elt F) → (⟨S32768x2, .f32⟩ : BufTy).Contents (Elt F)),
    StableHlo.unary main_v3625 main_v3630 (Host.absf : (⟨S32768x2, .f32⟩ : BufTy).Contents (Elt F) → (⟨S32768x2, .f32⟩ : BufTy).Contents (Elt F)),
    StableHlo.binary main_v3629 main_v3630 main_v3631 (minimumf : (⟨S32768x2, .f32⟩ : BufTy).Contents (Elt F) → (⟨S32768x2, .f32⟩ : BufTy).Contents (Elt F) → (⟨S32768x2, .f32⟩ : BufTy).Contents (Elt F)),
    StableHlo.binary main_v3628 main_v3631 main_v3632 (mulf : (⟨S32768x2, .f32⟩ : BufTy).Contents (Elt F) → (⟨S32768x2, .f32⟩ : BufTy).Contents (Elt F) → (⟨S32768x2, .f32⟩ : BufTy).Contents (Elt F)),
    StableHlo.unary main_v3632 main_v3633 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3632 main_v3634 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1141 (constant S_ .f32 0xC1F00000#32),
    StableHlo.nullary main_cst_1142 (constant S_ .f32 0x41F00000#32),
    StableHlo.TRef.unary (.of main_cst_1141 : StableHlo.TRef sig ⟨S_, .f32⟩) main_call330.v0 id,
    StableHlo.TRef.unary main_call330.v0 main_call330.v1 (broadcastInDim S32768x1 ![] bcast_S_S32768x1),
    StableHlo.TRef.binary main_call330.v1 (.of main_v3633 : StableHlo.TRef sig ⟨S32768x1, .f32⟩) main_call330.v2 maximumf,
    StableHlo.TRef.unary (.of main_cst_1142 : StableHlo.TRef sig ⟨S_, .f32⟩) main_call330.v3 id,
    StableHlo.TRef.unary main_call330.v3 main_call330.v4 (broadcastInDim S32768x1 ![] bcast_S_S32768x1),
    StableHlo.TRef.binary main_call330.v4 main_call330.v2 main_call330.v5 minimumf,
    StableHlo.nullary main_cst_1143 (constant S_ .f32 0xC1F00000#32),
    StableHlo.nullary main_cst_1144 (constant S_ .f32 0x41F00000#32),
    StableHlo.TRef.unary (.of main_cst_1143 : StableHlo.TRef sig ⟨S_, .f32⟩) main_call331.v0 id,
    StableHlo.TRef.unary main_call331.v0 main_call331.v1 (broadcastInDim S32768x1 ![] bcast_S_S32768x1),
    StableHlo.TRef.binary main_call331.v1 (.of main_v3634 : StableHlo.TRef sig ⟨S32768x1, .f32⟩) main_call331.v2 maximumf,
    StableHlo.TRef.unary (.of main_cst_1144 : StableHlo.TRef sig ⟨S_, .f32⟩) main_call331.v3 id,
    StableHlo.TRef.unary main_call331.v3 main_call331.v4 (broadcastInDim S32768x1 ![] bcast_S_S32768x1),
    StableHlo.TRef.binary main_call331.v4 main_call331.v2 main_call331.v5 minimumf,
    StableHlo.unary main_v3635 main_v3637 (Host.sign : (⟨S32768x1, .f32⟩ : BufTy).Contents (Elt F) → (⟨S32768x1, .f32⟩ : BufTy).Contents (Elt F)),
    StableHlo.unary main_v3636 main_v3638 (Host.sign : (⟨S32768x1, .f32⟩ : BufTy).Contents (Elt F) → (⟨S32768x1, .f32⟩ : BufTy).Contents (Elt F)),
    StableHlo.binary main_v3637 main_v3638 main_v3639 (mulf : (⟨S32768x1, .f32⟩ : BufTy).Contents (Elt F) → (⟨S32768x1, .f32⟩ : BufTy).Contents (Elt F) → (⟨S32768x1, .f32⟩ : BufTy).Contents (Elt F)),
    StableHlo.unary main_v3635 main_v3640 (Host.absf : (⟨S32768x1, .f32⟩ : BufTy).Contents (Elt F) → (⟨S32768x1, .f32⟩ : BufTy).Contents (Elt F)),
    StableHlo.unary main_v3636 main_v3641 (Host.absf : (⟨S32768x1, .f32⟩ : BufTy).Contents (Elt F) → (⟨S32768x1, .f32⟩ : BufTy).Contents (Elt F)),
    StableHlo.binary main_v3640 main_v3641 main_v3642 (minimumf : (⟨S32768x1, .f32⟩ : BufTy).Contents (Elt F) → (⟨S32768x1, .f32⟩ : BufTy).Contents (Elt F) → (⟨S32768x1, .f32⟩ : BufTy).Contents (Elt F)),
    StableHlo.binary main_v3639 main_v3642 main_v3643 (mulf : (⟨S32768x1, .f32⟩ : BufTy).Contents (Elt F) → (⟨S32768x1, .f32⟩ : BufTy).Contents (Elt F) → (⟨S32768x1, .f32⟩ : BufTy).Contents (Elt F)),
    StableHlo.nullary main_cst_1145 (constant S_ .f32 0x00000000#32),
    StableHlo.unary main_cst_1145 main_v3644 (broadcastInDim S32768x1 ![] bcast_S_S32768x1 : (⟨S_, .f32⟩ : BufTy).Contents (Elt F) → (⟨S32768x1, .f32⟩ : BufTy).Contents (Elt F)),
    StableHlo.binary main_v3643 main_v3644 main_v3645 (cmpf .ole : (⟨S32768x1, .f32⟩ : BufTy).Contents (Elt F) → (⟨S32768x1, .f32⟩ : BufTy).Contents (Elt F) → (⟨S32768x1, .i1⟩ : BufTy).Contents (Elt F)),
    StableHlo.unary main_v3645 main_v3646 (uitofp .f32 : (⟨S32768x1, .i1⟩ : BufTy).Contents (Elt F) → (⟨S32768x1, .f32⟩ : BufTy).Contents (Elt F)),
    StableHlo.nullary main_cst_1146 (constant S_ .f32 0x40000000#32),
    StableHlo.unary main_cst_1146 main_v3647 (broadcastInDim S32768x1 ![] bcast_S_S32768x1 : (⟨S_, .f32⟩ : BufTy).Contents (Elt F) → (⟨S32768x1, .f32⟩ : BufTy).Contents (Elt F)),
    StableHlo.binary main_v3647 main_v3646 main_v3648 (mulf : (⟨S32768x1, .f32⟩ : BufTy).Contents (Elt F) → (⟨S32768x1, .f32⟩ : BufTy).Contents (Elt F) → (⟨S32768x1, .f32⟩ : BufTy).Contents (Elt F)),
    StableHlo.nullary main_cst_1147 (constant S_ .f32 0x3F800000#32),
    StableHlo.unary main_cst_1147 main_v3649 (broadcastInDim S32768x1 ![] bcast_S_S32768x1 : (⟨S_, .f32⟩ : BufTy).Contents (Elt F) → (⟨S32768x1, .f32⟩ : BufTy).Contents (Elt F)) ]

set_option maxRecDepth 8192 in
/-- The window is that straight line: each clip function unfolded at its calls, the sequencing reassociated. -/
theorem part_eq_79 (d : Dev nD) : main_part79 (F := F) d = seq ops79 := by
  simp only [main_part79, fn_clip_4.body, fn_clip_5.body, fn_clip_6.body, seq, bind_assoc, pure_bind]
  rfl

/-- Every operation of the window touches TensorCore references only. -/
theorem sub_79 : (ops79 : List (HloOp τ sig (Elt F))).Forall fun op => op.bufs ⊆ tcRefs τ sig :=
  ⟨unary_bufs_sub .., binary_bufs_sub .., unary_bufs_sub .., unary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., binary_bufs_sub ..,
    unary_bufs_sub .., nullary_bufs_sub .., unary_bufs_sub .., binary_bufs_sub .., nullary_bufs_sub .., unary_bufs_sub ..⟩

/-- Every operation of the window determines all it writes. -/
theorem fresh_79 : (ops79 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_79 (V : Valuation τ sig (Elt F)) :
    after ops79 V (main_arg0 : DevRef τ sig) = V (main_arg0 : DevRef τ sig) := by
  simp only [after_cons, after_nil]
  rfl

end Cert.ReferenceIdeal.RefRun

end
-- ==== Proof.RefRun.W10.lean ====
import proofs.«134088_j24077586662034_2_alg».proof.Defs
import proofs.«134088_j24077586662034_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 4801 … 4860, in order (70 of them): a statement's own operation, or, for a call
    of a clip function, the six operations of its body over that call's buffers. -/
abbrev ops80 : List (HloOp τ sig (Elt F)) :=
  [ StableHlo.binary main_v3649 main_v3648 main_v3650 (subf : (⟨S32768x1, .f32⟩ : BufTy).Contents (Elt F) → (⟨S32768x1, .f32⟩ : BufTy).Contents (Elt F) → (⟨S32768x1, .f32⟩ : BufTy).Contents (Elt F)),
    StableHlo.binary main_v3650 main_v3633 main_v3651 (mulf : (⟨S32768x1, .f32⟩ : BufTy).Contents (Elt F) → (⟨S32768x1, .f32⟩ : BufTy).Contents (Elt F) → (⟨S32768x1, .f32⟩ : BufTy).Contents (Elt F)),
    StableHlo.binary main_v3651 main_v3634 main_v3652 (addf : (⟨S32768x1, .f32⟩ : BufTy).Contents (Elt F) → (⟨S32768x1, .f32⟩ : BufTy).Contents (Elt F) → (⟨S32768x1, .f32⟩ : BufTy).Contents (Elt F)),
    StableHlo.nullary main_cst_1148 (constant S_ .f32 0x00000000#32),
    StableHlo.unary main_cst_1148 main_v3653 (broadcastInDim S32768x1 ![] bcast_S_S32768x1 : (⟨S_, .f32⟩ : BufTy).Contents (Elt F) → (⟨S32768x1, .f32⟩ : BufTy).Contents (Elt F)),
    StableHlo.binary main_v3652 main_v3653 main_v3654 (cmpf .ole : (⟨S32768x1, .f32⟩ : BufTy).Contents (Elt F) → (⟨S32768x1, .f32⟩ : BufTy).Contents (Elt F) → (⟨S32768x1, .i1⟩ : BufTy).Contents (Elt F)),
    StableHlo.unary main_v3654 main_v3655 (uitofp .f32 : (⟨S32768x1, .i1⟩ : BufTy).Contents (Elt F) → (⟨S32768x1, .f32⟩ : BufTy).Contents (Elt F)),
    StableHlo.binary main_v3646 main_v3655 main_v3656 (cmpf .une : (⟨S32768x1, .f32⟩ : BufTy).Contents (Elt F) → (⟨S32768x1, .f32⟩ : BufTy).Contents (Elt F) → (⟨S32768x1, .i1⟩ : BufTy).Contents (Elt F)),
    StableHlo.unary main_v3656 main_v3657 (uitofp .f32 : (⟨S32768x1, .i1⟩ : BufTy).Contents (Elt F) → (⟨S32768x1, .f32⟩ : BufTy).Contents (Elt F)),
    StableHlo.binary main_v3657 main_v3655 main_v3658 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3646 main_v3655 main_v3659 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1149 (constant S_ .f32 0x40000000#32),
    StableHlo.unary main_cst_1149 main_v3660 (broadcastInDim S32768x2 ![] bcast_S_S32768x2 : (⟨S_, .f32⟩ : BufTy).Contents (Elt F) → (⟨S32768x2, .f32⟩ : BufTy).Contents (Elt F)),
    StableHlo.binary main_v3660 main_v3658 main_v3661 (mulf : (⟨S32768x2, .f32⟩ : BufTy).Contents (Elt F) → (⟨S32768x2, .f32⟩ : BufTy).Contents (Elt F) → (⟨S32768x2, .f32⟩ : BufTy).Contents (Elt F)),
    StableHlo.nullary main_cst_1150 (constant S_ .f32 0x3F800000#32),
    StableHlo.unary main_cst_1150 main_v3662 (broadcastInDim S32768x2 ![] bcast_S_S32768x2 : (⟨S_, .f32⟩ : BufTy).Contents (Elt F) → (⟨S32768x2, .f32⟩ : BufTy).Contents (Elt F)),
    StableHlo.binary main_v3662 main_v3661 main_v3663 (subf : (⟨S32768x2, .f32⟩ : BufTy).Contents (Elt F) → (⟨S32768x2, .f32⟩ : BufTy).Contents (Elt F) → (⟨S32768x2, .f32⟩ : BufTy).Contents (Elt F)),
    StableHlo.binary main_v3663 main_v3622 main_v3664 (mulf : (⟨S32768x2, .f32⟩ : BufTy).Contents (Elt F) → (⟨S32768x2, .f32⟩ : BufTy).Contents (Elt F) → (⟨S32768x2, .f32⟩ : BufTy).Contents (Elt F)),
    StableHlo.binary main_v3664 main_v3623 main_v3665 (addf : (⟨S32768x2, .f32⟩ : BufTy).Contents (Elt F) → (⟨S32768x2, .f32⟩ : BufTy).Contents (Elt F) → (⟨S32768x2, .f32⟩ : BufTy).Contents (Elt F)),
    StableHlo.unary main_v3665 main_v3666 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3665 main_v3667 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1151 (constant S_ .f32 0xC1F00000#32),
    StableHlo.nullary main_cst_1152 (constant S_ .f32 0x41F00000#32),
    StableHlo.TRef.unary (.of main_cst_1151 : StableHlo.TRef sig ⟨S_, .f32⟩) main_call332.v0 id,
    StableHlo.TRef.unary main_call332.v0 main_call332.v1 (broadcastInDim S32768x1 ![] bcast_S_S32768x1),
    StableHlo.TRef.binary main_call332.v1 (.of main_v3666 : StableHlo.TRef sig ⟨S32768x1, .f32⟩) main_call332.v2 maximumf,
    StableHlo.TRef.unary (.of main_cst_1152 : StableHlo.TRef sig ⟨S_, .f32⟩) main_call332.v3 id,
    StableHlo.TRef.unary main_call332.v3 main_call332.v4 (broadcastInDim S32768x1 ![] bcast_S_S32768x1),
    StableHlo.TRef.binary main_call332.v4 main_call332.v2 main_call332.v5 minimumf,
    StableHlo.nullary main_cst_1153 (constant S_ .f32 0xC1F00000#32),
    StableHlo.nullary main_cst_1154 (constant S_ .f32 0x41F00000#32),
    StableHlo.TRef.unary (.of main_cst_1153 : StableHlo.TRef sig ⟨S_, .f32⟩) main_call333.v0 id,
    StableHlo.TRef.unary main_call333.v0 main_call333.v1 (broadcastInDim S32768x1 ![] bcast_S_S32768x1),
    StableHlo.TRef.binary main_call333.v1 (.of main_v3667 : StableHlo.TRef sig ⟨S32768x1, .f32⟩) main_call333.v2 maximumf,
    StableHlo.TRef.unary (.of main_cst_1154 : StableHlo.TRef sig ⟨S_, .f32⟩) main_call333.v3 id,
    StableHlo.TRef.unary main_call333.v3 main_call333.v4 (broadcastInDim S32768x1 ![] bcast_S_S32768x1),
    StableHlo.TRef.binary main_call333.v4 main_call333.v2 main_call333.v5 minimumf,
    StableHlo.unary main_v3668 main_v3670 (Host.sign : (⟨S32768x1, .f32⟩ : BufTy).Contents (Elt F) → (⟨S32768x1, .f32⟩ : BufTy).Contents (Elt F)),
    StableHlo.unary main_v3669 main_v3671 (Host.sign : (⟨S32768x1, .f32⟩ : BufTy).Contents (Elt F) → (⟨S32768x1, .f32⟩ : BufTy).Contents (Elt F)),
    StableHlo.binary main_v3670 main_v3671 main_v3672 (mulf : (⟨S32768x1, .f32⟩ : BufTy).Contents (Elt F) → (⟨S32768x1, .f32⟩ : BufTy).Contents (Elt F) → (⟨S32768x1, .f32⟩ : BufTy).Contents (Elt F)),
    StableHlo.unary main_v3668 main_v3673 (Host.absf : (⟨S32768x1, .f32⟩ : BufTy).Contents (Elt F) → (⟨S32768x1, .f32⟩ : BufTy).Contents (Elt F)),
    StableHlo.unary main_v3669 main_v3674 (Host.absf : (⟨S32768x1, .f32⟩ : BufTy).Contents (Elt F) → (⟨S32768x1, .f32⟩ : BufTy).Contents (Elt F)),
    StableHlo.binary main_v3673 main_v3674 main_v3675 (minimumf : (⟨S32768x1, .f32⟩ : BufTy).Contents (Elt F) → (⟨S32768x1, .f32⟩ : BufTy).Contents (Elt F) → (⟨S32768x1, .f32⟩ : BufTy).Contents (Elt F)),
    StableHlo.binary main_v3672 main_v3675 main_v3676 (mulf : (⟨S32768x1, .f32⟩ : BufTy).Contents (Elt F) → (⟨S32768x1, .f32⟩ : BufTy).Contents (Elt F) → (⟨S32768x1, .f32⟩ : BufTy).Contents (Elt F)),
    StableHlo.nullary main_cst_1155 (constant S_ .f32 0x00000000#32),
    StableHlo.unary main_cst_1155 main_v3677 (broadcastInDim S32768x1 ![] bcast_S_S32768x1 : (⟨S_, .f32⟩ : BufTy).Contents (Elt F) → (⟨S32768x1, .f32⟩ : BufTy).Contents (Elt F)),
    StableHlo.binary main_v3676 main_v3677 main_v3678 (cmpf .ole : (⟨S32768x1, .f32⟩ : BufTy).Contents (Elt F) → (⟨S32768x1, .f32⟩ : BufTy).Contents (Elt F) → (⟨S32768x1, .i1⟩ : BufTy).Contents (Elt F)),
    StableHlo.unary main_v3678 main_v3679 (uitofp .f32 : (⟨S32768x1, .i1⟩ : BufTy).Contents (Elt F) → (⟨S32768x1, .f32⟩ : BufTy).Contents (Elt F)),
    StableHlo.nullary main_cst_1156 (constant S_ .f32 0x40000000#32),
    StableHlo.unary main_cst_1156 main_v3680 (broadcastInDim S32768x1 ![] bcast_S_S32768x1 : (⟨S_, .f32⟩ : BufTy).Contents (Elt F) → (⟨S32768x1, .f32⟩ : BufTy).Contents (Elt F)),
    StableHlo.binary main_v3680 main_v3679 main_v3681 (mulf : (⟨S32768x1, .f32⟩ : BufTy).Contents (Elt F) → (⟨S32768x1, .f32⟩ : BufTy).Contents (Elt F) → (⟨S32768x1, .f32⟩ : BufTy).Contents (Elt F)),
    StableHlo.nullary main_cst_1157 (constant S_ .f32 0x3F800000#32),
    StableHlo.unary main_cst_1157 main_v3682 (broadcastInDim S32768x1 ![] bcast_S_S32768x1 : (⟨S_, .f32⟩ : BufTy).Contents (Elt F) → (⟨S32768x1, .f32⟩ : BufTy).Contents (Elt F)),
    StableHlo.binary main_v3682 main_v3681 main_v3683 (subf : (⟨S32768x1, .f32⟩ : BufTy).Contents (Elt F) → (⟨S32768x1, .f32⟩ : BufTy).Contents (Elt F) → (⟨S32768x1, .f32⟩ : BufTy).Contents (Elt F)),
    StableHlo.binary main_v3683 main_v3666 main_v3684 (mulf : (⟨S32768x1, .f32⟩ : BufTy).Contents (Elt F) → (⟨S32768x1, .f32⟩ : BufTy).Contents (Elt F) → (⟨S32768x1, .f32⟩ : BufTy).Contents (Elt F)),
    StableHlo.binary main_v3684 main_v3667 main_v3685 (addf : (⟨S32768x1, .f32⟩ : BufTy).Contents (Elt F) → (⟨S32768x1, .f32⟩ : BufTy).Contents (Elt F) → (⟨S32768x1, .f32⟩ : BufTy).Contents (Elt F)),
    StableHlo.nullary main_cst_1158 (constant S_ .f32 0x00000000#32),
    StableHlo.unary main_cst_1158 main_v3686 (broadcastInDim S32768x1 ![] bcast_S_S32768x1 : (⟨S_, .f32⟩ : BufTy).Contents (Elt F) → (⟨S32768x1, .f32⟩ : BufTy).Contents (Elt F)),
    StableHlo.binary main_v3685 main_v3686 main_v3687 (cmpf .ole : (⟨S32768x1, .f32⟩ : BufTy).Contents (Elt F) → (⟨S32768x1, .f32⟩ : BufTy).Contents (Elt F) → (⟨S32768x1, .i1⟩ : BufTy).Contents (Elt F)),
    StableHlo.unary main_v3687 main_v3688 (uitofp .f32 : (⟨S32768x1, .i1⟩ : BufTy).Contents (Elt F) → (⟨S32768x1, .f32⟩ : BufTy).Contents (Elt F)),
    StableHlo.binary main_v3679 main_v3688 main_v3689 (cmpf .une : (⟨S32768x1, .f32⟩ : BufTy).Contents (Elt F) → (⟨S32768x1, .f32⟩ : BufTy).Contents (Elt F) → (⟨S32768x1, .i1⟩ : BufTy).Contents (Elt F)),
    StableHlo.unary main_v3689 main_v3690 (uitofp .f32 : (⟨S32768x1, .i1⟩ : BufTy).Contents (Elt F) → (⟨S32768x1, .f32⟩ : BufTy).Contents (Elt F)),
    StableHlo.binary main_v3690 main_v3688 main_v3691 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3679 main_v3688 main_v3692 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3658 main_v3691 main_v3693 (cmpf .une : (⟨S32768x2, .f32⟩ : BufTy).Contents (Elt F) → (⟨S32768x2, .f32⟩ : BufTy).Contents (Elt F) → (⟨S32768x2, .i1⟩ : BufTy).Contents (Elt F)),
    StableHlo.unary main_v3693 main_v3694 (uitofp .f32 : (⟨S32768x2, .i1⟩ : BufTy).Contents (Elt F) → (⟨S32768x2, .f32⟩ : BufTy).Contents (Elt F)),
    StableHlo.binary main_v3694 main_v3691 main_v3695 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v3659 main_v3692 main_v3696 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_1159 (constant S_ .f32 0x40000000#32),
    StableHlo.unary main_cst_1159 main_v3697 (broadcastInDim S32768x4 ![] bcast_S_S32768x4 : (⟨S_, .f32⟩ : BufTy).Contents (Elt F) → (⟨S32768x4, .f32⟩ : BufTy).Contents (Elt F)) ]

set_option maxRecDepth 8192 in
/-- The window is that straight line: each clip function unfolded at its calls, the sequencing reassociated. -/
theorem part_eq_80 (d : Dev nD) : main_part80 (F := F) d = seq ops80 := by
  simp only [main_part80, fn_clip_6.body, seq, bind_assoc, pure_bind]
  rfl

/-- Every operation of the window touches TensorCore references only. -/
theorem sub_80 : (ops80 : List (HloOp τ sig (Elt F))).Forall fun op => op.bufs ⊆ tcRefs τ sig :=
  ⟨binary_bufs_sub .., binary_bufs_sub .., binary_bufs_sub .., nullary_bufs_sub .., unary_bufs_sub .., binary_bufs_sub ..,
    unary_bufs_sub .., binary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., unary_bufs_sub .., binary_bufs_sub .., binary_bufs_sub .., binary_bufs_sub .., unary_bufs_sub ..,
    binary_bufs_sub .., binary_bufs_sub .., nullary_bufs_sub .., unary_bufs_sub ..⟩

/-- Every operation of the window determines all it writes. -/
theorem fresh_80 : (ops80 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_80 (V : Valuation τ sig (Elt F)) :
    after ops80 V (main_arg0 : DevRef τ sig) = V (main_arg0 : DevRef τ sig) := by
  simp only [after_cons, after_nil]
  rfl

/-- The operations of @main's statements 4861 … 4920, in order (80 of them): a statement's own operation, or, for a call
    of a clip function, the six operations of its body over that call's buffers. -/
abbrev ops81 : List (HloOp τ sig (Elt F)) :=
  [ StableHlo.binary main_v3697 main_v3695 main_v3698 (mulf : (⟨S32768x4, .f32⟩ : BufTy).Contents (Elt F) → (⟨S32768x4, .f32⟩ : BufTy).Contents (Elt F) → (⟨S32768x4, .f32⟩ : BufTy).Contents (Elt F)),
    StableHlo.nullary main_cst_1160 (constant S_ .f32 0x3F800000#32),
    StableHlo.unary main_cst_1160 main_v3699 (broadcastInDim S32768x4 ![] bcast_S_S32768x4 : (⟨S_, .f32⟩ : BufTy).Contents (Elt F) → (⟨S32768x4, .f32⟩ : BufTy).Contents (Elt F)),
    StableHlo.binary main_v3699 main_v3698 main_v3700 (subf : (⟨S32768x4, .f32⟩ : BufTy).Contents (Elt F) → (⟨S32768x4, .f32⟩ : BufTy).Contents (Elt F) → (⟨S32768x4, .f32⟩ : BufTy).Contents (Elt F)),
    StableHlo.binary main_v3700 main_v3611 main_v3701 (mulf : (⟨S32768x4, .f32⟩ : BufTy).Contents (Elt F) → (⟨S32768x4, .f32⟩ : BufTy).Contents (Elt F) → (⟨S32768x4, .f32⟩ : BufTy).Contents (Elt F)),
    StableHlo.binary main_v3701 main_v3612 main_v3702 (addf : (⟨S32768x4, .f32⟩ : BufTy).Contents (Elt F) → (⟨S32768x4, .f32⟩ : BufTy).Contents (Elt F) → (⟨S32768x4, .f32⟩ : BufTy).Contents (Elt F)),
    StableHlo.unary main_v3702 main_v3703 ((extractStridedSlice S32768x2 ![0, 0] · slices_S32768x4_S32768x2_0_0) : (⟨S32768x4, .f32⟩ : BufTy).Contents (Elt F) → (⟨S32768x2, .f32⟩ : BufTy).Contents (Elt F)),
    StableHlo.unary main_v3702 main_v3704 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1161 (constant S_ .f32 0xC1F00000#32),
    StableHlo.nullary main_cst_1162 (constant S_ .f32 0x41F00000#32),
    StableHlo.TRef.unary (.of main_cst_1161 : StableHlo.TRef sig ⟨S_, .f32⟩) main_call334.v0 id,
    StableHlo.TRef.unary main_call334.v0 main_call334.v1 (broadcastInDim S32768x2 ![] bcast_S_S32768x2),
    StableHlo.TRef.binary main_call334.v1 (.of main_v3703 : StableHlo.TRef sig ⟨S32768x2, .f32⟩) main_call334.v2 maximumf,
    StableHlo.TRef.unary (.of main_cst_1162 : StableHlo.TRef sig ⟨S_, .f32⟩) main_call334.v3 id,
    StableHlo.TRef.unary main_call334.v3 main_call334.v4 (broadcastInDim S32768x2 ![] bcast_S_S32768x2),
    StableHlo.TRef.binary main_call334.v4 main_call334.v2 main_call334.v5 minimumf,
    StableHlo.nullary main_cst_1163 (constant S_ .f32 0xC1F00000#32),
    StableHlo.nullary main_cst_1164 (constant S_ .f32 0x41F00000#32),
    StableHlo.TRef.unary (.of main_cst_1163 : StableHlo.TRef sig ⟨S_, .f32⟩) main_call335.v0 id,
    StableHlo.TRef.unary main_call335.v0 main_call335.v1 (broadcastInDim S32768x2 ![] bcast_S_S32768x2),
    StableHlo.TRef.binary main_call335.v1 (.of main_v3704 : StableHlo.TRef sig ⟨S32768x2, .f32⟩) main_call335.v2 maximumf,
    StableHlo.TRef.unary (.of main_cst_1164 : StableHlo.TRef sig ⟨S_, .f32⟩) main_call335.v3 id,
    StableHlo.TRef.unary main_call335.v3 main_call335.v4 (broadcastInDim S32768x2 ![] bcast_S_S32768x2),
    StableHlo.TRef.binary main_call335.v4 main_call335.v2 main_call335.v5 minimumf,
    StableHlo.unary main_v3705 main_v3707 (Host.sign : (⟨S32768x2, .f32⟩ : BufTy).Contents (Elt F) → (⟨S32768x2, .f32⟩ : BufTy).Contents (Elt F)),
    StableHlo.unary main_v3706 main_v3708 (Host.sign : (⟨S32768x2, .f32⟩ : BufTy).Contents (Elt F) → (⟨S32768x2, .f32⟩ : BufTy).Contents (Elt F)),
    StableHlo.binary main_v3707 main_v3708 main_v3709 (mulf : (⟨S32768x2, .f32⟩ : BufTy).Contents (Elt F) → (⟨S32768x2, .f32⟩ : BufTy).Contents (Elt F) → (⟨S32768x2, .f32⟩ : BufTy).Contents (Elt F)),
    StableHlo.unary main_v3705 main_v3710 (Host.absf : (⟨S32768x2, .f32⟩ : BufTy).Contents (Elt F) → (⟨S32768x2, .f32⟩ : BufTy).Contents (Elt F)),
    StableHlo.unary main_v3706 main_v3711 (Host.absf : (⟨S32768x2, .f32⟩ : BufTy).Contents (Elt F) → (⟨S32768x2, .f32⟩ : BufTy).Contents (Elt F)),
    StableHlo.binary main_v3710 main_v3711 main_v3712 (minimumf : (⟨S32768x2, .f32⟩ : BufTy).Contents (Elt F) → (⟨S32768x2, .f32⟩ : BufTy).Contents (Elt F) → (⟨S32768x2, .f32⟩ : BufTy).Contents (Elt F)),
    StableHlo.binary main_v3709 main_v3712 main_v3713 (mulf : (⟨S32768x2, .f32⟩ : BufTy).Contents (Elt F) → (⟨S32768x2, .f32⟩ : BufTy).Contents (Elt F) → (⟨S32768x2, .f32⟩ : BufTy).Contents (Elt F)),
    StableHlo.unary main_v3713 main_v3714 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3713 main_v3715 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1165 (constant S_ .f32 0xC1F00000#32),
    StableHlo.nullary main_cst_1166 (constant S_ .f32 0x41F00000#32),
    StableHlo.TRef.unary (.of main_cst_1165 : StableHlo.TRef sig ⟨S_, .f32⟩) main_call336.v0 id,
    StableHlo.TRef.unary main_call336.v0 main_call336.v1 (broadcastInDim S32768x1 ![] bcast_S_S32768x1),
    StableHlo.TRef.binary main_call336.v1 (.of main_v3714 : StableHlo.TRef sig ⟨S32768x1, .f32⟩) main_call336.v2 maximumf,
    StableHlo.TRef.unary (.of main_cst_1166 : StableHlo.TRef sig ⟨S_, .f32⟩) main_call336.v3 id,
    StableHlo.TRef.unary main_call336.v3 main_call336.v4 (broadcastInDim S32768x1 ![] bcast_S_S32768x1),
    StableHlo.TRef.binary main_call336.v4 main_call336.v2 main_call336.v5 minimumf,
    StableHlo.nullary main_cst_1167 (constant S_ .f32 0xC1F00000#32),
    StableHlo.nullary main_cst_1168 (constant S_ .f32 0x41F00000#32),
    StableHlo.TRef.unary (.of main_cst_1167 : StableHlo.TRef sig ⟨S_, .f32⟩) main_call337.v0 id,
    StableHlo.TRef.unary main_call337.v0 main_call337.v1 (broadcastInDim S32768x1 ![] bcast_S_S32768x1),
    StableHlo.TRef.binary main_call337.v1 (.of main_v3715 : StableHlo.TRef sig ⟨S32768x1, .f32⟩) main_call337.v2 maximumf,
    StableHlo.TRef.unary (.of main_cst_1168 : StableHlo.TRef sig ⟨S_, .f32⟩) main_call337.v3 id,
    StableHlo.TRef.unary main_call337.v3 main_call337.v4 (broadcastInDim S32768x1 ![] bcast_S_S32768x1),
    StableHlo.TRef.binary main_call337.v4 main_call337.v2 main_call337.v5 minimumf,
    StableHlo.unary main_v3716 main_v3718 (Host.sign : (⟨S32768x1, .f32⟩ : BufTy).Contents (Elt F) → (⟨S32768x1, .f32⟩ : BufTy).Contents (Elt F)),
    StableHlo.unary main_v3717 main_v3719 (Host.sign : (⟨S32768x1, .f32⟩ : BufTy).Contents (Elt F) → (⟨S32768x1, .f32⟩ : BufTy).Contents (Elt F)),
    StableHlo.binary main_v3718 main_v3719 main_v3720 (mulf : (⟨S32768x1, .f32⟩ : BufTy).Contents (Elt F) → (⟨S32768x1, .f32⟩ : BufTy).Contents (Elt F) → (⟨S32768x1, .f32⟩ : BufTy).Contents (Elt F)),
    StableHlo.unary main_v3716 main_v3721 (Host.absf : (⟨S32768x1, .f32⟩ : BufTy).Contents (Elt F) → (⟨S32768x1, .f32⟩ : BufTy).Contents (Elt F)),
    StableHlo.unary main_v3717 main_v3722 (Host.absf : (⟨S32768x1, .f32⟩ : BufTy).Contents (Elt F) → (⟨S32768x1, .f32⟩ : BufTy).Contents (Elt F)),
    StableHlo.binary main_v3721 main_v3722 main_v3723 (minimumf : (⟨S32768x1, .f32⟩ : BufTy).Contents (Elt F) → (⟨S32768x1, .f32⟩ : BufTy).Contents (Elt F) → (⟨S32768x1, .f32⟩ : BufTy).Contents (Elt F)),
    StableHlo.binary main_v3720 main_v3723 main_v3724 (mulf : (⟨S32768x1, .f32⟩ : BufTy).Contents (Elt F) → (⟨S32768x1, .f32⟩ : BufTy).Contents (Elt F) → (⟨S32768x1, .f32⟩ : BufTy).Contents (Elt F)),
    StableHlo.nullary main_cst_1169 (constant S_ .f32 0x00000000#32),
    StableHlo.unary main_cst_1169 main_v3725 (broadcastInDim S32768x1 ![] bcast_S_S32768x1 : (⟨S_, .f32⟩ : BufTy).Contents (Elt F) → (⟨S32768x1, .f32⟩ : BufTy).Contents (Elt F)),
    StableHlo.binary main_v3724 main_v3725 main_v3726 (cmpf .ole : (⟨S32768x1, .f32⟩ : BufTy).Contents (Elt F) → (⟨S32768x1, .f32⟩ : BufTy).Contents (Elt F) → (⟨S32768x1, .i1⟩ : BufTy).Contents (Elt F)),
    StableHlo.unary main_v3726 main_v3727 (uitofp .f32 : (⟨S32768x1, .i1⟩ : BufTy).Contents (Elt F) → (⟨S32768x1, .f32⟩ : BufTy).Contents (Elt F)),
    StableHlo.nullary main_cst_1170 (constant S_ .f32 0x40000000#32),
    StableHlo.unary main_cst_1170 main_v3728 (broadcastInDim S32768x1 ![] bcast_S_S32768x1 : (⟨S_, .f32⟩ : BufTy).Contents (Elt F) → (⟨S32768x1, .f32⟩ : BufTy).Contents (Elt F)),
    StableHlo.binary main_v3728 main_v3727 main_v3729 (mulf : (⟨S32768x1, .f32⟩ : BufTy).Contents (Elt F) → (⟨S32768x1, .f32⟩ : BufTy).Contents (Elt F) → (⟨S32768x1, .f32⟩ : BufTy).Contents (Elt F)),
    StableHlo.nullary main_cst_1171 (constant S_ .f32 0x3F800000#32),
    StableHlo.unary main_cst_1171 main_v3730 (broadcastInDim S32768x1 ![] bcast_S_S32768x1 : (⟨S_, .f32⟩ : BufTy).Contents (Elt F) → (⟨S32768x1, .f32⟩ : BufTy).Contents (Elt F)),
    StableHlo.binary main_v3730 main_v3729 main_v3731 (subf : (⟨S32768x1, .f32⟩ : BufTy).Contents (Elt F) → (⟨S32768x1, .f32⟩ : BufTy).Contents (Elt F) → (⟨S32768x1, .f32⟩ : BufTy).Contents (Elt F)),
    StableHlo.binary main_v3731 main_v3714 main_v3732 (mulf : (⟨S32768x1, .f32⟩ : BufTy).Contents (Elt F) → (⟨S32768x1, .f32⟩ : BufTy).Contents (Elt F) → (⟨S32768x1, .f32⟩ : BufTy).Contents (Elt F)),
    StableHlo.binary main_v3732 main_v3715 main_v3733 (addf : (⟨S32768x1, .f32⟩ : BufTy).Contents (Elt F) → (⟨S32768x1, .f32⟩ : BufTy).Contents (Elt F) → (⟨S32768x1, .f32⟩ : BufTy).Contents (Elt F)),
    StableHlo.nullary main_cst_1172 (constant S_ .f32 0x00000000#32),
    StableHlo.unary main_cst_1172 main_v3734 (broadcastInDim S32768x1 ![] bcast_S_S32768x1 : (⟨S_, .f32⟩ : BufTy).Contents (Elt F) → (⟨S32768x1, .f32⟩ : BufTy).Contents (Elt F)),
    StableHlo.binary main_v3733 main_v3734 main_v3735 (cmpf .ole : (⟨S32768x1, .f32⟩ : BufTy).Contents (Elt F) → (⟨S32768x1, .f32⟩ : BufTy).Contents (Elt F) → (⟨S32768x1, .i1⟩ : BufTy).Contents (Elt F)),
    StableHlo.unary main_v3735 main_v3736 (uitofp .f32 : (⟨S32768x1, .i1⟩ : BufTy).Contents (Elt F) → (⟨S32768x1, .f32⟩ : BufTy).Contents (Elt F)),
    StableHlo.binary main_v3727 main_v3736 main_v3737 (cmpf .une : (⟨S32768x1, .f32⟩ : BufTy).Contents (Elt F) → (⟨S32768x1, .f32⟩ : BufTy).Contents (Elt F) → (⟨S32768x1, .i1⟩ : BufTy).Contents (Elt F)),
    StableHlo.unary main_v3737 main_v3738 (uitofp .f32 : (⟨S32768x1, .i1⟩ : BufTy).Contents (Elt F) → (⟨S32768x1, .f32⟩ : BufTy).Contents (Elt F)),
    StableHlo.binary main_v3738 main_v3736 main_v3739 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3727 main_v3736 main_v3740 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1173 (constant S_ .f32 0x40000000#32),
    StableHlo.unary main_cst_1173 main_v3741 (broadcastInDim S32768x2 ![] bcast_S_S32768x2 : (⟨S_, .f32⟩ : BufTy).Contents (Elt F) → (⟨S32768x2, .f32⟩ : BufTy).Contents (Elt F)),
    StableHlo.binary main_v3741 main_v3739 main_v3742 (mulf : (⟨S32768x2, .f32⟩ : BufTy).Contents (Elt F) → (⟨S32768x2, .f32⟩ : BufTy).Contents (Elt F) → (⟨S32768x2, .f32⟩ : BufTy).Contents (Elt F)),
    StableHlo.nullary main_cst_1174 (constant S_ .f32 0x3F800000#32) ]

set_option maxRecDepth 8192 in
/-- The window is that straight line: each clip function unfolded at its calls, the sequencing reassociated. -/
theorem part_eq_81 (d : Dev nD) : main_part81 (F := F) d = seq ops81 := by
  simp only [main_part81, fn_clip_5.body, fn_clip_6.body, seq, bind_assoc, pure_bind]
  rfl

/-- Every operation of the window touches TensorCore references only. -/
theorem sub_81 : (ops81 : List (HloOp τ sig (Elt F))).Forall fun op => op.bufs ⊆ tcRefs τ sig :=
  ⟨binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., unary_bufs_sub .., binary_bufs_sub .., binary_bufs_sub .., nullary_bufs_sub .., unary_bufs_sub ..,
    binary_bufs_sub .., nullary_bufs_sub ..⟩

/-- Every operation of the window determines all it writes. -/
theorem fresh_81 : (ops81 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_81 (V : Valuation τ sig (Elt F)) :
    after ops81 V (main_arg0 : DevRef τ sig) = V (main_arg0 : DevRef τ sig) := by
  simp only [after_cons, after_nil]
  rfl

/-- The operations of @main's statements 4921 … 4980, in order (75 of them): a statement's own operation, or, for a call
    of a clip function, the six operations of its body over that call's buffers. -/
abbrev ops82 : List (HloOp τ sig (Elt F)) :=
  [ StableHlo.unary main_cst_1174 main_v3743 (broadcastInDim S32768x2 ![] bcast_S_S32768x2 : (⟨S_, .f32⟩ : BufTy).Contents (Elt F) → (⟨S32768x2, .f32⟩ : BufTy).Contents (Elt F)),
    StableHlo.binary main_v3743 main_v3742 main_v3744 (subf : (⟨S32768x2, .f32⟩ : BufTy).Contents (Elt F) → (⟨S32768x2, .f32⟩ : BufTy).Contents (Elt F) → (⟨S32768x2, .f32⟩ : BufTy).Contents (Elt F)),
    StableHlo.binary main_v3744 main_v3703 main_v3745 (mulf : (⟨S32768x2, .f32⟩ : BufTy).Contents (Elt F) → (⟨S32768x2, .f32⟩ : BufTy).Contents (Elt F) → (⟨S32768x2, .f32⟩ : BufTy).Contents (Elt F)),
    StableHlo.binary main_v3745 main_v3704 main_v3746 (addf : (⟨S32768x2, .f32⟩ : BufTy).Contents (Elt F) → (⟨S32768x2, .f32⟩ : BufTy).Contents (Elt F) → (⟨S32768x2, .f32⟩ : BufTy).Contents (Elt F)),
    StableHlo.unary main_v3746 main_v3747 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3746 main_v3748 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1175 (constant S_ .f32 0xC1F00000#32),
    StableHlo.nullary main_cst_1176 (constant S_ .f32 0x41F00000#32),
    StableHlo.TRef.unary (.of main_cst_1175 : StableHlo.TRef sig ⟨S_, .f32⟩) main_call338.v0 id,
    StableHlo.TRef.unary main_call338.v0 main_call338.v1 (broadcastInDim S32768x1 ![] bcast_S_S32768x1),
    StableHlo.TRef.binary main_call338.v1 (.of main_v3747 : StableHlo.TRef sig ⟨S32768x1, .f32⟩) main_call338.v2 maximumf,
    StableHlo.TRef.unary (.of main_cst_1176 : StableHlo.TRef sig ⟨S_, .f32⟩) main_call338.v3 id,
    StableHlo.TRef.unary main_call338.v3 main_call338.v4 (broadcastInDim S32768x1 ![] bcast_S_S32768x1),
    StableHlo.TRef.binary main_call338.v4 main_call338.v2 main_call338.v5 minimumf,
    StableHlo.nullary main_cst_1177 (constant S_ .f32 0xC1F00000#32),
    StableHlo.nullary main_cst_1178 (constant S_ .f32 0x41F00000#32),
    StableHlo.TRef.unary (.of main_cst_1177 : StableHlo.TRef sig ⟨S_, .f32⟩) main_call339.v0 id,
    StableHlo.TRef.unary main_call339.v0 main_call339.v1 (broadcastInDim S32768x1 ![] bcast_S_S32768x1),
    StableHlo.TRef.binary main_call339.v1 (.of main_v3748 : StableHlo.TRef sig ⟨S32768x1, .f32⟩) main_call339.v2 maximumf,
    StableHlo.TRef.unary (.of main_cst_1178 : StableHlo.TRef sig ⟨S_, .f32⟩) main_call339.v3 id,
    StableHlo.TRef.unary main_call339.v3 main_call339.v4 (broadcastInDim S32768x1 ![] bcast_S_S32768x1),
    StableHlo.TRef.binary main_call339.v4 main_call339.v2 main_call339.v5 minimumf,
    StableHlo.unary main_v3749 main_v3751 (Host.sign : (⟨S32768x1, .f32⟩ : BufTy).Contents (Elt F) → (⟨S32768x1, .f32⟩ : BufTy).Contents (Elt F)),
    StableHlo.unary main_v3750 main_v3752 (Host.sign : (⟨S32768x1, .f32⟩ : BufTy).Contents (Elt F) → (⟨S32768x1, .f32⟩ : BufTy).Contents (Elt F)),
    StableHlo.binary main_v3751 main_v3752 main_v3753 (mulf : (⟨S32768x1, .f32⟩ : BufTy).Contents (Elt F) → (⟨S32768x1, .f32⟩ : BufTy).Contents (Elt F) → (⟨S32768x1, .f32⟩ : BufTy).Contents (Elt F)),
    StableHlo.unary main_v3749 main_v3754 (Host.absf : (⟨S32768x1, .f32⟩ : BufTy).Contents (Elt F) → (⟨S32768x1, .f32⟩ : BufTy).Contents (Elt F)),
    StableHlo.unary main_v3750 main_v3755 (Host.absf : (⟨S32768x1, .f32⟩ : BufTy).Contents (Elt F) → (⟨S32768x1, .f32⟩ : BufTy).Contents (Elt F)),
    StableHlo.binary main_v3754 main_v3755 main_v3756 (minimumf : (⟨S32768x1, .f32⟩ : BufTy).Contents (Elt F) → (⟨S32768x1, .f32⟩ : BufTy).Contents (Elt F) → (⟨S32768x1, .f32⟩ : BufTy).Contents (Elt F)),
    StableHlo.binary main_v3753 main_v3756 main_v3757 (mulf : (⟨S32768x1, .f32⟩ : BufTy).Contents (Elt F) → (⟨S32768x1, .f32⟩ : BufTy).Contents (Elt F) → (⟨S32768x1, .f32⟩ : BufTy).Contents (Elt F)),
    StableHlo.nullary main_cst_1179 (constant S_ .f32 0x00000000#32),
    StableHlo.unary main_cst_1179 main_v3758 (broadcastInDim S32768x1 ![] bcast_S_S32768x1 : (⟨S_, .f32⟩ : BufTy).Contents (Elt F) → (⟨S32768x1, .f32⟩ : BufTy).Contents (Elt F)),
    StableHlo.binary main_v3757 main_v3758 main_v3759 (cmpf .ole : (⟨S32768x1, .f32⟩ : BufTy).Contents (Elt F) → (⟨S32768x1, .f32⟩ : BufTy).Contents (Elt F) → (⟨S32768x1, .i1⟩ : BufTy).Contents (Elt F)),
    StableHlo.unary main_v3759 main_v3760 (uitofp .f32 : (⟨S32768x1, .i1⟩ : BufTy).Contents (Elt F) → (⟨S32768x1, .f32⟩ : BufTy).Contents (Elt F)),
    StableHlo.nullary main_cst_1180 (constant S_ .f32 0x40000000#32),
    StableHlo.unary main_cst_1180 main_v3761 (broadcastInDim S32768x1 ![] bcast_S_S32768x1 : (⟨S_, .f32⟩ : BufTy).Contents (Elt F) → (⟨S32768x1, .f32⟩ : BufTy).Contents (Elt F)),
    StableHlo.binary main_v3761 main_v3760 main_v3762 (mulf : (⟨S32768x1, .f32⟩ : BufTy).Contents (Elt F) → (⟨S32768x1, .f32⟩ : BufTy).Contents (Elt F) → (⟨S32768x1, .f32⟩ : BufTy).Contents (Elt F)),
    StableHlo.nullary main_cst_1181 (constant S_ .f32 0x3F800000#32),
    StableHlo.unary main_cst_1181 main_v3763 (broadcastInDim S32768x1 ![] bcast_S_S32768x1 : (⟨S_, .f32⟩ : BufTy).Contents (Elt F) → (⟨S32768x1, .f32⟩ : BufTy).Contents (Elt F)),
    StableHlo.binary main_v3763 main_v3762 main_v3764 (subf : (⟨S32768x1, .f32⟩ : BufTy).Contents (Elt F) → (⟨S32768x1, .f32⟩ : BufTy).Contents (Elt F) → (⟨S32768x1, .f32⟩ : BufTy).Contents (Elt F)),
    StableHlo.binary main_v3764 main_v3747 main_v3765 (mulf : (⟨S32768x1, .f32⟩ : BufTy).Contents (Elt F) → (⟨S32768x1, .f32⟩ : BufTy).Contents (Elt F) → (⟨S32768x1, .f32⟩ : BufTy).Contents (Elt F)),
    StableHlo.binary main_v3765 main_v3748 main_v3766 (addf : (⟨S32768x1, .f32⟩ : BufTy).Contents (Elt F) → (⟨S32768x1, .f32⟩ : BufTy).Contents (Elt F) → (⟨S32768x1, .f32⟩ : BufTy).Contents (Elt F)),
    StableHlo.nullary main_cst_1182 (constant S_ .f32 0x00000000#32),
    StableHlo.unary main_cst_1182 main_v3767 (broadcastInDim S32768x1 ![] bcast_S_S32768x1 : (⟨S_, .f32⟩ : BufTy).Contents (Elt F) → (⟨S32768x1, .f32⟩ : BufTy).Contents (Elt F)),
    StableHlo.binary main_v3766 main_v3767 main_v3768 (cmpf .ole : (⟨S32768x1, .f32⟩ : BufTy).Contents (Elt F) → (⟨S32768x1, .f32⟩ : BufTy).Contents (Elt F) → (⟨S32768x1, .i1⟩ : BufTy).Contents (Elt F)),
    StableHlo.unary main_v3768 main_v3769 (uitofp .f32 : (⟨S32768x1, .i1⟩ : BufTy).Contents (Elt F) → (⟨S32768x1, .f32⟩ : BufTy).Contents (Elt F)),
    StableHlo.binary main_v3760 main_v3769 main_v3770 (cmpf .une : (⟨S32768x1, .f32⟩ : BufTy).Contents (Elt F) → (⟨S32768x1, .f32⟩ : BufTy).Contents (Elt F) → (⟨S32768x1, .i1⟩ : BufTy).Contents (Elt F)),
    StableHlo.unary main_v3770 main_v3771 (uitofp .f32 : (⟨S32768x1, .i1⟩ : BufTy).Contents (Elt F) → (⟨S32768x1, .f32⟩ : BufTy).Contents (Elt F)),
    StableHlo.binary main_v3771 main_v3769 main_v3772 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3760 main_v3769 main_v3773 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3739 main_v3772 main_v3774 (cmpf .une : (⟨S32768x2, .f32⟩ : BufTy).Contents (Elt F) → (⟨S32768x2, .f32⟩ : BufTy).Contents (Elt F) → (⟨S32768x2, .i1⟩ : BufTy).Contents (Elt F)),
    StableHlo.unary main_v3774 main_v3775 (uitofp .f32 : (⟨S32768x2, .i1⟩ : BufTy).Contents (Elt F) → (⟨S32768x2, .f32⟩ : BufTy).Contents (Elt F)),
    StableHlo.binary main_v3775 main_v3772 main_v3776 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v3740 main_v3773 main_v3777 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v3695 main_v3776 main_v3778 (cmpf .une : (⟨S32768x4, .f32⟩ : BufTy).Contents (Elt F) → (⟨S32768x4, .f32⟩ : BufTy).Contents (Elt F) → (⟨S32768x4, .i1⟩ : BufTy).Contents (Elt F)),
    StableHlo.unary main_v3778 main_v3779 (uitofp .f32 : (⟨S32768x4, .i1⟩ : BufTy).Contents (Elt F) → (⟨S32768x4, .f32⟩ : BufTy).Contents (Elt F)),
    StableHlo.binary main_v3779 main_v3776 main_v3780 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v3696 main_v3777 main_v3781 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.nullary main_cst_1183 (constant S_ .f32 0x40000000#32),
    StableHlo.unary main_cst_1183 main_v3782 (broadcastInDim S32768x8 ![] bcast_S_S32768x8 : (⟨S_, .f32⟩ : BufTy).Contents (Elt F) → (⟨S32768x8, .f32⟩ : BufTy).Contents (Elt F)),
    StableHlo.binary main_v3782 main_v3780 main_v3783 (mulf : (⟨S32768x8, .f32⟩ : BufTy).Contents (Elt F) → (⟨S32768x8, .f32⟩ : BufTy).Contents (Elt F) → (⟨S32768x8, .f32⟩ : BufTy).Contents (Elt F)),
    StableHlo.nullary main_cst_1184 (constant S_ .f32 0x3F800000#32),
    StableHlo.unary main_cst_1184 main_v3784 (broadcastInDim S32768x8 ![] bcast_S_S32768x8 : (⟨S_, .f32⟩ : BufTy).Contents (Elt F) → (⟨S32768x8, .f32⟩ : BufTy).Contents (Elt F)),
    StableHlo.binary main_v3784 main_v3783 main_v3785 (subf : (⟨S32768x8, .f32⟩ : BufTy).Contents (Elt F) → (⟨S32768x8, .f32⟩ : BufTy).Contents (Elt F) → (⟨S32768x8, .f32⟩ : BufTy).Contents (Elt F)),
    StableHlo.binary main_v3785 main_v3600 main_v3786 (mulf : (⟨S32768x8, .f32⟩ : BufTy).Contents (Elt F) → (⟨S32768x8, .f32⟩ : BufTy).Contents (Elt F) → (⟨S32768x8, .f32⟩ : BufTy).Contents (Elt F)),
    StableHlo.binary main_v3786 main_v3601 main_v3787 (addf : (⟨S32768x8, .f32⟩ : BufTy).Contents (Elt F) → (⟨S32768x8, .f32⟩ : BufTy).Contents (Elt F) → (⟨S32768x8, .f32⟩ : BufTy).Contents (Elt F)),
    StableHlo.unary main_v3787 main_v3788 ((extractStridedSlice S32768x4 ![0, 0] · slices_S32768x8_S32768x4_0_0) : (⟨S32768x8, .f32⟩ : BufTy).Contents (Elt F) → (⟨S32768x4, .f32⟩ : BufTy).Contents (Elt F)),
    StableHlo.unary main_v3787 main_v3789 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_1185 (constant S_ .f32 0xC1F00000#32),
    StableHlo.nullary main_cst_1186 (constant S_ .f32 0x41F00000#32),
    StableHlo.TRef.unary (.of main_cst_1185 : StableHlo.TRef sig ⟨S_, .f32⟩) main_call340.v0 id,
    StableHlo.TRef.unary main_call340.v0 main_call340.v1 (broadcastInDim S32768x4 ![] bcast_S_S32768x4),
    StableHlo.TRef.binary main_call340.v1 (.of main_v3788 : StableHlo.TRef sig ⟨S32768x4, .f32⟩) main_call340.v2 maximumf,
    StableHlo.TRef.unary (.of main_cst_1186 : StableHlo.TRef sig ⟨S_, .f32⟩) main_call340.v3 id,
    StableHlo.TRef.unary main_call340.v3 main_call340.v4 (broadcastInDim S32768x4 ![] bcast_S_S32768x4),
    StableHlo.TRef.binary main_call340.v4 main_call340.v2 main_call340.v5 minimumf ]

set_option maxRecDepth 8192 in
/-- The window is that straight line: each clip function unfolded at its calls, the sequencing reassociated. -/
theorem part_eq_82 (d : Dev nD) : main_part82 (F := F) d = seq ops82 := by
  simp only [main_part82, fn_clip_6.body, fn_clip_4.body, seq, bind_assoc, pure_bind]

/-- Every operation of the window touches TensorCore references only. -/
theorem sub_82 : (ops82 : List (HloOp τ sig (Elt F))).Forall fun op => op.bufs ⊆ tcRefs τ sig :=
  ⟨unary_bufs_sub .., binary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., unary_bufs_sub .., binary_bufs_sub ..,
    binary_bufs_sub .., binary_bufs_sub .., unary_bufs_sub .., binary_bufs_sub .., binary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub ..⟩

/-- Every operation of the window determines all it writes. -/
theorem fresh_82 : (ops82 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
/-- The window writes no argument of @main: the argument's buffer holds after it what it held before. -/
theorem keep_82 (V : Valuation τ sig (Elt F)) :
    after ops82 V (main_arg0 : DevRef τ sig) = V (main_arg0 : DevRef τ sig) := by
  simp only [after_cons, after_nil]
  rfl

/-- The operations of @main's statements 4981 … 5040, in order (85 of them): a statement's own operation, or, for a call
    of a clip function, the six operations of its body over that call's buffers. -/
abbrev ops83 : List (HloOp τ sig (Elt F)) :=
  [ StableHlo.nullary main_cst_1187 (constant S_ .f32 0xC1F00000#32),
    StableHlo.nullary main_cst_1188 (constant S_ .f32 0x41F00000#32),
    StableHlo.TRef.unary (.of main_cst_1187 : StableHlo.TRef sig ⟨S_, .f32⟩) main_call341.v0 id,
    StableHlo.TRef.unary main_call341.v0 main_call341.v1 (broadcastInDim S32768x4 ![] bcast_S_S32768x4),
    StableHlo.TRef.binary main_call341.v1 (.of main_v3789 : StableHlo.TRef sig ⟨S32768x4, .f32⟩) main_call341.v2 maximumf,
    StableHlo.TRef.unary (.of main_cst_1188 : StableHlo.TRef sig ⟨S_, .f32⟩) main_call341.v3 id,
    StableHlo.TRef.unary main_call341.v3 main_call341.v4 (broadcastInDim S32768x4 ![] bcast_S_S32768x4),
    StableHlo.TRef.binary main_call341.v4 main_call341.v2 main_call341.v5 minimumf,
    StableHlo.unary main_v3790 main_v3792 (Host.sign : (⟨S32768x4, .f32⟩ : BufTy).Contents (Elt F) → (⟨S32768x4, .f32⟩ : BufTy).Contents (Elt F)),
    StableHlo.unary main_v3791 main_v3793 (Host.sign : (⟨S32768x4, .f32⟩ : BufTy).Contents (Elt F) → (⟨S32768x4, .f32⟩ : BufTy).Contents (Elt F)),
    StableHlo.binary main_v3792 main_v3793 main_v3794 (mulf : (⟨S32768x4, .f32⟩ : BufTy).Contents (Elt F) → (⟨S32768x4, .f32⟩ : BufTy).Contents (Elt F) → (⟨S32768x4, .f32⟩ : BufTy).Contents (Elt F)),
    StableHlo.unary main_v3790 main_v3795 (Host.absf : (⟨S32768x4, .f32⟩ : BufTy).Contents (Elt F) → (⟨S32768x4, .f32⟩ : BufTy).Contents (Elt F)),
    StableHlo.unary main_v3791 main_v3796 (Host.absf : (⟨S32768x4, .f32⟩ : BufTy).Contents (Elt F) → (⟨S32768x4, .f32⟩ : BufTy).Contents (Elt F)),
    StableHlo.binary main_v3795 main_v3796 main_v3797 (minimumf : (⟨S32768x4, .f32⟩ : BufTy).Contents (Elt F) → (⟨S32768x4, .f32⟩ : BufTy).Contents (Elt F) → (⟨S32768x4, .f32⟩ : BufTy).Contents (Elt F)),
    StableHlo.binary main_v3794 main_v3797 main_v3798 (mulf : (⟨S32768x4, .f32⟩ : BufTy).Contents (Elt F) → (⟨S32768x4, .f32⟩ : BufTy).Contents (Elt F) → (⟨S32768x4, .f32⟩ : BufTy).Contents (Elt F)),
    StableHlo.unary main_v3798 main_v3799 ((extractStridedSlice S32768x2 ![0, 0] · slices_S32768x4_S32768x2_0_0) : (⟨S32768x4, .f32⟩ : BufTy).Contents (Elt F) → (⟨S32768x2, .f32⟩ : BufTy).Contents (Elt F)),
    StableHlo.unary main_v3798 main_v3800 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1189 (constant S_ .f32 0xC1F00000#32),
    StableHlo.nullary main_cst_1190 (constant S_ .f32 0x41F00000#32),
    StableHlo.TRef.unary (.of main_cst_1189 : StableHlo.TRef sig ⟨S_, .f32⟩) main_call342.v0 id,
    StableHlo.TRef.unary main_call342.v0 main_call342.v1 (broadcastInDim S32768x2 ![] bcast_S_S32768x2),
    StableHlo.TRef.binary main_call342.v1 (.of main_v3799 : StableHlo.TRef sig ⟨S32768x2, .f32⟩) main_call342.v2 maximumf,
    StableHlo.TRef.unary (.of main_cst_1190 : StableHlo.TRef sig ⟨S_, .f32⟩) main_call342.v3 id,
    StableHlo.TRef.unary main_call342.v3 main_call342.v4 (broadcastInDim S32768x2 ![] bcast_S_S32768x2),
    StableHlo.TRef.binary main_call342.v4 main_call342.v2 main_call342.v5 minimumf,
    StableHlo.nullary main_cst_1191 (constant S_ .f32 0xC1F00000#32),
    StableHlo.nullary main_cst_1192 (constant S_ .f32 0x41F00000#32),
    StableHlo.TRef.unary (.of main_cst_1191 : StableHlo.TRef sig ⟨S_, .f32⟩) main_call343.v0 id,
    StableHlo.TRef.unary main_call343.v0 main_call343.v1 (broadcastInDim S32768x2 ![] bcast_S_S32768x2),
    StableHlo.TRef.binary main_call343.v1 (.of main_v3800 : StableHlo.TRef sig ⟨S32768x2, .f32⟩) main_call343.v2 maximumf,
    StableHlo.TRef.unary (.of main_cst_1192 : StableHlo.TRef sig ⟨S_, .f32⟩) main_call343.v3 id,
    StableHlo.TRef.unary main_call343.v3 main_call343.v4 (broadcastInDim S32768x2 ![] bcast_S_S32768x2),
    StableHlo.TRef.binary main_call343.v4 main_call343.v2 main_call343.v5 minimumf,
    StableHlo.unary main_v3801 main_v3803 (Host.sign : (⟨S32768x2, .f32⟩ : BufTy).Contents (Elt F) → (⟨S32768x2, .f32⟩ : BufTy).Contents (Elt F)),
    StableHlo.unary main_v3802 main_v3804 (Host.sign : (⟨S32768x2, .f32⟩ : BufTy).Contents (Elt F) → (⟨S32768x2, .f32⟩ : BufTy).Contents (Elt F)),
    StableHlo.binary main_v3803 main_v3804 main_v3805 (mulf : (⟨S32768x2, .f32⟩ : BufTy).Contents (Elt F) → (⟨S32768x2, .f32⟩ : BufTy).Contents (Elt F) → (⟨S32768x2, .f32⟩ : BufTy).Contents (Elt F)),
    StableHlo.unary main_v3801 main_v3806 (Host.absf : (⟨S32768x2, .f32⟩ : BufTy).Contents (Elt F) → (⟨S32768x2, .f32⟩ : BufTy).Contents (Elt F)),
    StableHlo.unary main_v3802 main_v3807 (Host.absf : (⟨S32768x2, .f32⟩ : BufTy).Contents (Elt F) → (⟨S32768x2, .f32⟩ : BufTy).Contents (Elt F)),
    StableHlo.binary main_v3806 main_v3807 main_v3808 (minimumf : (⟨S32768x2, .f32⟩ : BufTy).Contents (Elt F) → (⟨S32768x2, .f32⟩ : BufTy).Contents (Elt F) → (⟨S32768x2, .f32⟩ : BufTy).Contents (Elt F)),
    StableHlo.binary main_v3805 main_v3808 main_v3809 (mulf : (⟨S32768x2, .f32⟩ : BufTy).Contents (Elt F) → (⟨S32768x2, .f32⟩ : BufTy).Contents (Elt F) → (⟨S32768x2, .f32⟩ : BufTy).Contents (Elt F)),
    StableHlo.unary main_v3809 main_v3810 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3809 main_v3811 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1193 (constant S_ .f32 0xC1F00000#32),
    StableHlo.nullary main_cst_1194 (constant S_ .f32 0x41F00000#32),
    StableHlo.TRef.unary (.of main_cst_1193 : StableHlo.TRef sig ⟨S_, .f32⟩) main_call344.v0 id,
    StableHlo.TRef.unary main_call344.v0 main_call344.v1 (broadcastInDim S32768x1 ![] bcast_S_S32768x1),
    StableHlo.TRef.binary main_call344.v1 (.of main_v3810 : StableHlo.TRef sig ⟨S32768x1, .f32⟩) main_call344.v2 maximumf,
    StableHlo.TRef.unary (.of main_cst_1194 : StableHlo.TRef sig ⟨S_, .f32⟩) main_call344.v3 id,
    StableHlo.TRef.unary main_call344.v3 main_call344.v4 (broadcastInDim S32768x1 ![] bcast_S_S32768x1),
    StableHlo.TRef.binary main_call344.v4 main_call344.v2 main_call344.v5 minimumf,
    StableHlo.nullary main_cst_1195 (constant S_ .f32 0xC1F00000#32),
    StableHlo.nullary main_cst_1196 (constant S_ .f32 0x41F00000#32),
    StableHlo.TRef.unary (.of main_cst_1195 : StableHlo.TRef sig ⟨S_, .f32⟩) main_call345.v0 id,
    StableHlo.TRef.unary main_call345.v0 main_call345.v1 (broadcastInDim S32768x1 ![] bcast_S_S32768x1),
    StableHlo.TRef.binary main_call345.v1 (.of main_v3811 : StableHlo.TRef sig ⟨S32768x1, .f32⟩) main_call345.v2 maximumf,
    StableHlo.TRef.unary (.of main_cst_1196 : StableHlo.TRef sig ⟨S_, .f32⟩) main_call345.v3 id,
    StableHlo.TRef.unary main_call345.v3 main_call345.v4 (broadcastInDim S32768x1 ![] bcast_S_S32768x1),
    StableHlo.TRef.binary main_call345.v4 main_call345.v2 main_call345.v5 minimumf,
    StableHlo.unary main_v3812 main_v3814 (Host.sign : (⟨S32768x1, .f32⟩ : BufTy).Contents (Elt F) → (⟨S32768x1, .f32⟩ : BufTy).Contents (Elt F)),
    StableHlo.unary main_v3813 main_v3815 (Host.sign : (⟨S32768x1, .f32⟩ : BufTy).Contents (Elt F) → (⟨S32768x1, .f32⟩ : BufTy).Contents (Elt F)),
    StableHlo.binary main_v3814 main_v3815 main_v3816 (mulf : (⟨S32768x1, .f32⟩ : BufTy).Contents (Elt F) → (⟨S32768x1, .f32⟩ : BufTy).Contents (Elt F) → (⟨S32768x1, .f32⟩ : BufTy).Contents (Elt F)),
    StableHlo.unary main_v3812 main_v3817 (Host.absf : (⟨S32768x1, .f32⟩ : BufTy).Contents (Elt F) → (⟨S32768x1, .f32⟩ : BufTy).Contents (Elt F)),
    StableHlo.unary main_v3813 main_v3818 (Host.absf : (⟨S32768x1, .f32⟩ : BufTy).Contents (Elt F) → (⟨S32768x1, .f32⟩ : BufTy).Contents (Elt F)),
    StableHlo.binary main_v3817 main_v3818 main_v3819 (minimumf : (⟨S32768x1, .f32⟩ : BufTy).Contents (Elt F) → (⟨S32768x1, .f32⟩ : BufTy).Contents (Elt F) → (⟨S32768x1, .f32⟩ : BufTy).Contents (Elt F)),
    StableHlo.binary main_v3816 main_v3819 main_v3820 (mulf : (⟨S32768x1, .f32⟩ : BufTy).Contents (Elt F) → (⟨S32768x1, .f32⟩ : BufTy).Contents (Elt F) → (⟨S32768x1, .f32⟩ : BufTy).Contents (Elt F)),
    StableHlo.nullary main_cst_1197 (constant S_ .f32 0x00000000#32),
    StableHlo.unary main_cst_1197 main_v3821 (broadcastInDim S32768x1 ![] bcast_S_S32768x1 : (⟨S_, .f32⟩ : BufTy).Contents (Elt F) → (⟨S32768x1, .f32⟩ : BufTy).Contents (Elt F)),
    StableHlo.binary main_v3820 main_v3821 main_v3822 (cmpf .ole : (⟨S32768x1, .f32⟩ : BufTy).Contents (Elt F) → (⟨S32768x1, .f32⟩ : BufTy).Contents (Elt F) → (⟨S32768x1, .i1⟩ : BufTy).Contents (Elt F)),
    StableHlo.unary main_v3822 main_v3823 (uitofp .f32 : (⟨S32768x1, .i1⟩ : BufTy).Contents (Elt F) → (⟨S32768x1, .f32⟩ : BufTy).Contents (Elt F)),
    StableHlo.nullary main_cst_1198 (constant S_ .f32 0x40000000#32),
    StableHlo.unary main_cst_1198 main_v3824 (broadcastInDim S32768x1 ![] bcast_S_S32768x1 : (⟨S_, .f32⟩ : BufTy).Contents (Elt F) → (⟨S32768x1, .f32⟩ : BufTy).Contents (Elt F)),
    StableHlo.binary main_v3824 main_v3823 main_v3825 (mulf : (⟨S32768x1, .f32⟩ : BufTy).Contents (Elt F) → (⟨S32768x1, .f32⟩ : BufTy).Contents (Elt F) → (⟨S32768x1, .f32⟩ : BufTy).Contents (Elt F)),
    StableHlo.nullary main_cst_1199 (constant S_ .f32 0x3F800000#32),
    StableHlo.unary main_cst_1199 main_v3826 (broadcastInDim S32768x1 ![] bcast_S_S32768x1 : (⟨S_, .f32⟩ : BufTy).Contents (Elt F) → (⟨S32768x1, .f32⟩ : BufTy).Contents (Elt F)),
    StableHlo.binary main_v3826 main_v3825 main_v3827 (subf : (⟨S32768x1, .f32⟩ : BufTy).Contents (Elt F) → (⟨S32768x1, .f32⟩ : BufTy).Contents (Elt F) → (⟨S32768x1, .f32⟩ : BufTy).Contents (Elt F)),
    StableHlo.binary main_v3827 main_v3810 main_v3828 (mulf : (⟨S32768x1, .f32⟩ : BufTy).Contents (Elt F) → (⟨S32768x1, .f32⟩ : BufTy).Contents (Elt F) → (⟨S32768x1, .f32⟩ : BufTy).Contents (Elt F)),
    StableHlo.binary main_v3828 main_v3811 main_v3829 (addf : (⟨S32768x1, .f32⟩ : BufTy).Contents (Elt F) → (⟨S32768x1, .f32⟩ : BufTy).Contents (Elt F) → (⟨S32768x1, .f32⟩ : BufTy).Contents (Elt F)),
    StableHlo.nullary main_cst_1200 (constant S_ .f32 0x00000000#32),
    StableHlo.unary main_cst_1200 main_v3830 (broadcastInDim S32768x1 ![] bcast_S_S32768x1 : (⟨S_, .f32⟩ : BufTy).Contents (Elt F) → (⟨S32768x1, .f32⟩ : BufTy).Contents (Elt F)),
    StableHlo.binary main_v3829 main_v3830 main_v3831 (cmpf .ole : (⟨S32768x1, .f32⟩ : BufTy).Contents (Elt F) → (⟨S32768x1, .f32⟩ : BufTy).Contents (Elt F) → (⟨S32768x1, .i1⟩ : BufTy).Contents (Elt F)),
    StableHlo.unary main_v3831 main_v3832 (uitofp .f32 : (⟨S32768x1, .i1⟩ : BufTy).Contents (Elt F) → (⟨S32768x1, .f32⟩ : BufTy).Contents (Elt F)),
    StableHlo.binary main_v3823 main_v3832 main_v3833 (cmpf .une : (⟨S32768x1, .f32⟩ : BufTy).Contents (Elt F) → (⟨S32768x1, .f32⟩ : BufTy).Contents (Elt F) → (⟨S32768x1, .i1⟩ : BufTy).Contents (Elt F)),
    StableHlo.unary main_v3833 main_v3834 (uitofp .f32 : (⟨S32768x1, .i1⟩ : BufTy).Contents (Elt F) → (⟨S32768x1, .f32⟩ : BufTy).Contents (Elt F)),
    StableHlo.binary main_v3834 main_v3832 main_v3835 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3823 main_v3832 main_v3836 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)) ]

set_option maxRecDepth 8192 in
/-- The window is that straight line: each clip function unfolded at its calls, the sequencing reassociated. -/
theorem part_eq_83 (d : Dev nD) : main_part83 (F := F) d = seq ops83 := by
  simp only [main_part83, fn_clip_4.body, fn_clip_5.body, fn_clip_6.body, seq, bind_assoc, pure_bind]
  rfl

/-- Every operation of the window touches TensorCore references only. -/
theorem sub_83 : (ops83 : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., unary_bufs_sub .., binary_bufs_sub ..,
    binary_bufs_sub ..⟩

/-- Every operation of the window determines all it writes. -/
theorem fresh_83 : (ops83 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_83 (V : Valuation τ sig (Elt F)) :
    after ops83 V (main_arg0 : DevRef τ sig) = V (main_arg0 : DevRef τ sig) := by
  simp only [after_cons, after_nil]
  rfl

/-- The operations of @main's statements 5041 … 5100, in order (75 of them): a statement's own operation, or, for a call
    of a clip function, the six operations of its body over that call's buffers. -/
abbrev ops84 : List (HloOp τ sig (Elt F)) :=
  [ StableHlo.nullary main_cst_1201 (constant S_ .f32 0x40000000#32),
    StableHlo.unary main_cst_1201 main_v3837 (broadcastInDim S32768x2 ![] bcast_S_S32768x2 : (⟨S_, .f32⟩ : BufTy).Contents (Elt F) → (⟨S32768x2, .f32⟩ : BufTy).Contents (Elt F)),
    StableHlo.binary main_v3837 main_v3835 main_v3838 (mulf : (⟨S32768x2, .f32⟩ : BufTy).Contents (Elt F) → (⟨S32768x2, .f32⟩ : BufTy).Contents (Elt F) → (⟨S32768x2, .f32⟩ : BufTy).Contents (Elt F)),
    StableHlo.nullary main_cst_1202 (constant S_ .f32 0x3F800000#32),
    StableHlo.unary main_cst_1202 main_v3839 (broadcastInDim S32768x2 ![] bcast_S_S32768x2 : (⟨S_, .f32⟩ : BufTy).Contents (Elt F) → (⟨S32768x2, .f32⟩ : BufTy).Contents (Elt F)),
    StableHlo.binary main_v3839 main_v3838 main_v3840 (subf : (⟨S32768x2, .f32⟩ : BufTy).Contents (Elt F) → (⟨S32768x2, .f32⟩ : BufTy).Contents (Elt F) → (⟨S32768x2, .f32⟩ : BufTy).Contents (Elt F)),
    StableHlo.binary main_v3840 main_v3799 main_v3841 (mulf : (⟨S32768x2, .f32⟩ : BufTy).Contents (Elt F) → (⟨S32768x2, .f32⟩ : BufTy).Contents (Elt F) → (⟨S32768x2, .f32⟩ : BufTy).Contents (Elt F)),
    StableHlo.binary main_v3841 main_v3800 main_v3842 (addf : (⟨S32768x2, .f32⟩ : BufTy).Contents (Elt F) → (⟨S32768x2, .f32⟩ : BufTy).Contents (Elt F) → (⟨S32768x2, .f32⟩ : BufTy).Contents (Elt F)),
    StableHlo.unary main_v3842 main_v3843 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3842 main_v3844 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1203 (constant S_ .f32 0xC1F00000#32),
    StableHlo.nullary main_cst_1204 (constant S_ .f32 0x41F00000#32),
    StableHlo.TRef.unary (.of main_cst_1203 : StableHlo.TRef sig ⟨S_, .f32⟩) main_call346.v0 id,
    StableHlo.TRef.unary main_call346.v0 main_call346.v1 (broadcastInDim S32768x1 ![] bcast_S_S32768x1),
    StableHlo.TRef.binary main_call346.v1 (.of main_v3843 : StableHlo.TRef sig ⟨S32768x1, .f32⟩) main_call346.v2 maximumf,
    StableHlo.TRef.unary (.of main_cst_1204 : StableHlo.TRef sig ⟨S_, .f32⟩) main_call346.v3 id,
    StableHlo.TRef.unary main_call346.v3 main_call346.v4 (broadcastInDim S32768x1 ![] bcast_S_S32768x1),
    StableHlo.TRef.binary main_call346.v4 main_call346.v2 main_call346.v5 minimumf,
    StableHlo.nullary main_cst_1205 (constant S_ .f32 0xC1F00000#32),
    StableHlo.nullary main_cst_1206 (constant S_ .f32 0x41F00000#32),
    StableHlo.TRef.unary (.of main_cst_1205 : StableHlo.TRef sig ⟨S_, .f32⟩) main_call347.v0 id,
    StableHlo.TRef.unary main_call347.v0 main_call347.v1 (broadcastInDim S32768x1 ![] bcast_S_S32768x1),
    StableHlo.TRef.binary main_call347.v1 (.of main_v3844 : StableHlo.TRef sig ⟨S32768x1, .f32⟩) main_call347.v2 maximumf,
    StableHlo.TRef.unary (.of main_cst_1206 : StableHlo.TRef sig ⟨S_, .f32⟩) main_call347.v3 id,
    StableHlo.TRef.unary main_call347.v3 main_call347.v4 (broadcastInDim S32768x1 ![] bcast_S_S32768x1),
    StableHlo.TRef.binary main_call347.v4 main_call347.v2 main_call347.v5 minimumf,
    StableHlo.unary main_v3845 main_v3847 (Host.sign : (⟨S32768x1, .f32⟩ : BufTy).Contents (Elt F) → (⟨S32768x1, .f32⟩ : BufTy).Contents (Elt F)),
    StableHlo.unary main_v3846 main_v3848 (Host.sign : (⟨S32768x1, .f32⟩ : BufTy).Contents (Elt F) → (⟨S32768x1, .f32⟩ : BufTy).Contents (Elt F)),
    StableHlo.binary main_v3847 main_v3848 main_v3849 (mulf : (⟨S32768x1, .f32⟩ : BufTy).Contents (Elt F) → (⟨S32768x1, .f32⟩ : BufTy).Contents (Elt F) → (⟨S32768x1, .f32⟩ : BufTy).Contents (Elt F)),
    StableHlo.unary main_v3845 main_v3850 (Host.absf : (⟨S32768x1, .f32⟩ : BufTy).Contents (Elt F) → (⟨S32768x1, .f32⟩ : BufTy).Contents (Elt F)),
    StableHlo.unary main_v3846 main_v3851 (Host.absf : (⟨S32768x1, .f32⟩ : BufTy).Contents (Elt F) → (⟨S32768x1, .f32⟩ : BufTy).Contents (Elt F)),
    StableHlo.binary main_v3850 main_v3851 main_v3852 (minimumf : (⟨S32768x1, .f32⟩ : BufTy).Contents (Elt F) → (⟨S32768x1, .f32⟩ : BufTy).Contents (Elt F) → (⟨S32768x1, .f32⟩ : BufTy).Contents (Elt F)),
    StableHlo.binary main_v3849 main_v3852 main_v3853 (mulf : (⟨S32768x1, .f32⟩ : BufTy).Contents (Elt F) → (⟨S32768x1, .f32⟩ : BufTy).Contents (Elt F) → (⟨S32768x1, .f32⟩ : BufTy).Contents (Elt F)),
    StableHlo.nullary main_cst_1207 (constant S_ .f32 0x00000000#32),
    StableHlo.unary main_cst_1207 main_v3854 (broadcastInDim S32768x1 ![] bcast_S_S32768x1 : (⟨S_, .f32⟩ : BufTy).Contents (Elt F) → (⟨S32768x1, .f32⟩ : BufTy).Contents (Elt F)),
    StableHlo.binary main_v3853 main_v3854 main_v3855 (cmpf .ole : (⟨S32768x1, .f32⟩ : BufTy).Contents (Elt F) → (⟨S32768x1, .f32⟩ : BufTy).Contents (Elt F) → (⟨S32768x1, .i1⟩ : BufTy).Contents (Elt F)),
    StableHlo.unary main_v3855 main_v3856 (uitofp .f32 : (⟨S32768x1, .i1⟩ : BufTy).Contents (Elt F) → (⟨S32768x1, .f32⟩ : BufTy).Contents (Elt F)),
    StableHlo.nullary main_cst_1208 (constant S_ .f32 0x40000000#32),
    StableHlo.unary main_cst_1208 main_v3857 (broadcastInDim S32768x1 ![] bcast_S_S32768x1 : (⟨S_, .f32⟩ : BufTy).Contents (Elt F) → (⟨S32768x1, .f32⟩ : BufTy).Contents (Elt F)),
    StableHlo.binary main_v3857 main_v3856 main_v3858 (mulf : (⟨S32768x1, .f32⟩ : BufTy).Contents (Elt F) → (⟨S32768x1, .f32⟩ : BufTy).Contents (Elt F) → (⟨S32768x1, .f32⟩ : BufTy).Contents (Elt F)),
    StableHlo.nullary main_cst_1209 (constant S_ .f32 0x3F800000#32),
    StableHlo.unary main_cst_1209 main_v3859 (broadcastInDim S32768x1 ![] bcast_S_S32768x1 : (⟨S_, .f32⟩ : BufTy).Contents (Elt F) → (⟨S32768x1, .f32⟩ : BufTy).Contents (Elt F)),
    StableHlo.binary main_v3859 main_v3858 main_v3860 (subf : (⟨S32768x1, .f32⟩ : BufTy).Contents (Elt F) → (⟨S32768x1, .f32⟩ : BufTy).Contents (Elt F) → (⟨S32768x1, .f32⟩ : BufTy).Contents (Elt F)),
    StableHlo.binary main_v3860 main_v3843 main_v3861 (mulf : (⟨S32768x1, .f32⟩ : BufTy).Contents (Elt F) → (⟨S32768x1, .f32⟩ : BufTy).Contents (Elt F) → (⟨S32768x1, .f32⟩ : BufTy).Contents (Elt F)),
    StableHlo.binary main_v3861 main_v3844 main_v3862 (addf : (⟨S32768x1, .f32⟩ : BufTy).Contents (Elt F) → (⟨S32768x1, .f32⟩ : BufTy).Contents (Elt F) → (⟨S32768x1, .f32⟩ : BufTy).Contents (Elt F)),
    StableHlo.nullary main_cst_1210 (constant S_ .f32 0x00000000#32),
    StableHlo.unary main_cst_1210 main_v3863 (broadcastInDim S32768x1 ![] bcast_S_S32768x1 : (⟨S_, .f32⟩ : BufTy).Contents (Elt F) → (⟨S32768x1, .f32⟩ : BufTy).Contents (Elt F)),
    StableHlo.binary main_v3862 main_v3863 main_v3864 (cmpf .ole : (⟨S32768x1, .f32⟩ : BufTy).Contents (Elt F) → (⟨S32768x1, .f32⟩ : BufTy).Contents (Elt F) → (⟨S32768x1, .i1⟩ : BufTy).Contents (Elt F)),
    StableHlo.unary main_v3864 main_v3865 (uitofp .f32 : (⟨S32768x1, .i1⟩ : BufTy).Contents (Elt F) → (⟨S32768x1, .f32⟩ : BufTy).Contents (Elt F)),
    StableHlo.binary main_v3856 main_v3865 main_v3866 (cmpf .une : (⟨S32768x1, .f32⟩ : BufTy).Contents (Elt F) → (⟨S32768x1, .f32⟩ : BufTy).Contents (Elt F) → (⟨S32768x1, .i1⟩ : BufTy).Contents (Elt F)),
    StableHlo.unary main_v3866 main_v3867 (uitofp .f32 : (⟨S32768x1, .i1⟩ : BufTy).Contents (Elt F) → (⟨S32768x1, .f32⟩ : BufTy).Contents (Elt F)),
    StableHlo.binary main_v3867 main_v3865 main_v3868 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3856 main_v3865 main_v3869 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3835 main_v3868 main_v3870 (cmpf .une : (⟨S32768x2, .f32⟩ : BufTy).Contents (Elt F) → (⟨S32768x2, .f32⟩ : BufTy).Contents (Elt F) → (⟨S32768x2, .i1⟩ : BufTy).Contents (Elt F)),
    StableHlo.unary main_v3870 main_v3871 (uitofp .f32 : (⟨S32768x2, .i1⟩ : BufTy).Contents (Elt F) → (⟨S32768x2, .f32⟩ : BufTy).Contents (Elt F)),
    StableHlo.binary main_v3871 main_v3868 main_v3872 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v3836 main_v3869 main_v3873 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_1211 (constant S_ .f32 0x40000000#32),
    StableHlo.unary main_cst_1211 main_v3874 (broadcastInDim S32768x4 ![] bcast_S_S32768x4 : (⟨S_, .f32⟩ : BufTy).Contents (Elt F) → (⟨S32768x4, .f32⟩ : BufTy).Contents (Elt F)),
    StableHlo.binary main_v3874 main_v3872 main_v3875 (mulf : (⟨S32768x4, .f32⟩ : BufTy).Contents (Elt F) → (⟨S32768x4, .f32⟩ : BufTy).Contents (Elt F) → (⟨S32768x4, .f32⟩ : BufTy).Contents (Elt F)),
    StableHlo.nullary main_cst_1212 (constant S_ .f32 0x3F800000#32),
    StableHlo.unary main_cst_1212 main_v3876 (broadcastInDim S32768x4 ![] bcast_S_S32768x4 : (⟨S_, .f32⟩ : BufTy).Contents (Elt F) → (⟨S32768x4, .f32⟩ : BufTy).Contents (Elt F)),
    StableHlo.binary main_v3876 main_v3875 main_v3877 (subf : (⟨S32768x4, .f32⟩ : BufTy).Contents (Elt F) → (⟨S32768x4, .f32⟩ : BufTy).Contents (Elt F) → (⟨S32768x4, .f32⟩ : BufTy).Contents (Elt F)),
    StableHlo.binary main_v3877 main_v3788 main_v3878 (mulf : (⟨S32768x4, .f32⟩ : BufTy).Contents (Elt F) → (⟨S32768x4, .f32⟩ : BufTy).Contents (Elt F) → (⟨S32768x4, .f32⟩ : BufTy).Contents (Elt F)),
    StableHlo.binary main_v3878 main_v3789 main_v3879 (addf : (⟨S32768x4, .f32⟩ : BufTy).Contents (Elt F) → (⟨S32768x4, .f32⟩ : BufTy).Contents (Elt F) → (⟨S32768x4, .f32⟩ : BufTy).Contents (Elt F)),
    StableHlo.unary main_v3879 main_v3880 ((extractStridedSlice S32768x2 ![0, 0] · slices_S32768x4_S32768x2_0_0) : (⟨S32768x4, .f32⟩ : BufTy).Contents (Elt F) → (⟨S32768x2, .f32⟩ : BufTy).Contents (Elt F)),
    StableHlo.unary main_v3879 main_v3881 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1213 (constant S_ .f32 0xC1F00000#32),
    StableHlo.nullary main_cst_1214 (constant S_ .f32 0x41F00000#32),
    StableHlo.TRef.unary (.of main_cst_1213 : StableHlo.TRef sig ⟨S_, .f32⟩) main_call348.v0 id,
    StableHlo.TRef.unary main_call348.v0 main_call348.v1 (broadcastInDim S32768x2 ![] bcast_S_S32768x2),
    StableHlo.TRef.binary main_call348.v1 (.of main_v3880 : StableHlo.TRef sig ⟨S32768x2, .f32⟩) main_call348.v2 maximumf,
    StableHlo.TRef.unary (.of main_cst_1214 : StableHlo.TRef sig ⟨S_, .f32⟩) main_call348.v3 id,
    StableHlo.TRef.unary main_call348.v3 main_call348.v4 (broadcastInDim S32768x2 ![] bcast_S_S32768x2),
    StableHlo.TRef.binary main_call348.v4 main_call348.v2 main_call348.v5 minimumf ]

set_option maxRecDepth 8192 in
/-- The window is that straight line: each clip function unfolded at its calls, the sequencing reassociated. -/
theorem part_eq_84 (d : Dev nD) : main_part84 (F := F) d = seq ops84 := by
  simp only [main_part84, fn_clip_6.body, fn_clip_5.body, seq, bind_assoc, pure_bind]

/-- Every operation of the window touches TensorCore references only. -/
theorem sub_84 : (ops84 : List (HloOp τ sig (Elt F))).Forall fun op => op.bufs ⊆ tcRefs τ sig :=
  ⟨nullary_bufs_sub .., unary_bufs_sub .., binary_bufs_sub .., nullary_bufs_sub .., unary_bufs_sub .., binary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    unary_bufs_sub .., binary_bufs_sub .., unary_bufs_sub .., binary_bufs_sub .., binary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub ..⟩

/-- Every operation of the window determines all it writes. -/
theorem fresh_84 : (ops84 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
/-- The window writes no argument of @main: the argument's buffer holds after it what it held before. -/
theorem keep_84 (V : Valuation τ sig (Elt F)) :
    after ops84 V (main_arg0 : DevRef τ sig) = V (main_arg0 : DevRef τ sig) := by
  simp only [after_cons, after_nil]
  rfl

/-- The operations of @main's statements 5101 … 5160, in order (80 of them): a statement's own operation, or, for a call
    of a clip function, the six operations of its body over that call's buffers. -/
abbrev ops85 : List (HloOp τ sig (Elt F)) :=
  [ StableHlo.nullary main_cst_1215 (constant S_ .f32 0xC1F00000#32),
    StableHlo.nullary main_cst_1216 (constant S_ .f32 0x41F00000#32),
    StableHlo.TRef.unary (.of main_cst_1215 : StableHlo.TRef sig ⟨S_, .f32⟩) main_call349.v0 id,
    StableHlo.TRef.unary main_call349.v0 main_call349.v1 (broadcastInDim S32768x2 ![] bcast_S_S32768x2),
    StableHlo.TRef.binary main_call349.v1 (.of main_v3881 : StableHlo.TRef sig ⟨S32768x2, .f32⟩) main_call349.v2 maximumf,
    StableHlo.TRef.unary (.of main_cst_1216 : StableHlo.TRef sig ⟨S_, .f32⟩) main_call349.v3 id,
    StableHlo.TRef.unary main_call349.v3 main_call349.v4 (broadcastInDim S32768x2 ![] bcast_S_S32768x2),
    StableHlo.TRef.binary main_call349.v4 main_call349.v2 main_call349.v5 minimumf,
    StableHlo.unary main_v3882 main_v3884 (Host.sign : (⟨S32768x2, .f32⟩ : BufTy).Contents (Elt F) → (⟨S32768x2, .f32⟩ : BufTy).Contents (Elt F)),
    StableHlo.unary main_v3883 main_v3885 (Host.sign : (⟨S32768x2, .f32⟩ : BufTy).Contents (Elt F) → (⟨S32768x2, .f32⟩ : BufTy).Contents (Elt F)),
    StableHlo.binary main_v3884 main_v3885 main_v3886 (mulf : (⟨S32768x2, .f32⟩ : BufTy).Contents (Elt F) → (⟨S32768x2, .f32⟩ : BufTy).Contents (Elt F) → (⟨S32768x2, .f32⟩ : BufTy).Contents (Elt F)),
    StableHlo.unary main_v3882 main_v3887 (Host.absf : (⟨S32768x2, .f32⟩ : BufTy).Contents (Elt F) → (⟨S32768x2, .f32⟩ : BufTy).Contents (Elt F)),
    StableHlo.unary main_v3883 main_v3888 (Host.absf : (⟨S32768x2, .f32⟩ : BufTy).Contents (Elt F) → (⟨S32768x2, .f32⟩ : BufTy).Contents (Elt F)),
    StableHlo.binary main_v3887 main_v3888 main_v3889 (minimumf : (⟨S32768x2, .f32⟩ : BufTy).Contents (Elt F) → (⟨S32768x2, .f32⟩ : BufTy).Contents (Elt F) → (⟨S32768x2, .f32⟩ : BufTy).Contents (Elt F)),
    StableHlo.binary main_v3886 main_v3889 main_v3890 (mulf : (⟨S32768x2, .f32⟩ : BufTy).Contents (Elt F) → (⟨S32768x2, .f32⟩ : BufTy).Contents (Elt F) → (⟨S32768x2, .f32⟩ : BufTy).Contents (Elt F)),
    StableHlo.unary main_v3890 main_v3891 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3890 main_v3892 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1217 (constant S_ .f32 0xC1F00000#32),
    StableHlo.nullary main_cst_1218 (constant S_ .f32 0x41F00000#32),
    StableHlo.TRef.unary (.of main_cst_1217 : StableHlo.TRef sig ⟨S_, .f32⟩) main_call350.v0 id,
    StableHlo.TRef.unary main_call350.v0 main_call350.v1 (broadcastInDim S32768x1 ![] bcast_S_S32768x1),
    StableHlo.TRef.binary main_call350.v1 (.of main_v3891 : StableHlo.TRef sig ⟨S32768x1, .f32⟩) main_call350.v2 maximumf,
    StableHlo.TRef.unary (.of main_cst_1218 : StableHlo.TRef sig ⟨S_, .f32⟩) main_call350.v3 id,
    StableHlo.TRef.unary main_call350.v3 main_call350.v4 (broadcastInDim S32768x1 ![] bcast_S_S32768x1),
    StableHlo.TRef.binary main_call350.v4 main_call350.v2 main_call350.v5 minimumf,
    StableHlo.nullary main_cst_1219 (constant S_ .f32 0xC1F00000#32),
    StableHlo.nullary main_cst_1220 (constant S_ .f32 0x41F00000#32),
    StableHlo.TRef.unary (.of main_cst_1219 : StableHlo.TRef sig ⟨S_, .f32⟩) main_call351.v0 id,
    StableHlo.TRef.unary main_call351.v0 main_call351.v1 (broadcastInDim S32768x1 ![] bcast_S_S32768x1),
    StableHlo.TRef.binary main_call351.v1 (.of main_v3892 : StableHlo.TRef sig ⟨S32768x1, .f32⟩) main_call351.v2 maximumf,
    StableHlo.TRef.unary (.of main_cst_1220 : StableHlo.TRef sig ⟨S_, .f32⟩) main_call351.v3 id,
    StableHlo.TRef.unary main_call351.v3 main_call351.v4 (broadcastInDim S32768x1 ![] bcast_S_S32768x1),
    StableHlo.TRef.binary main_call351.v4 main_call351.v2 main_call351.v5 minimumf,
    StableHlo.unary main_v3893 main_v3895 (Host.sign : (⟨S32768x1, .f32⟩ : BufTy).Contents (Elt F) → (⟨S32768x1, .f32⟩ : BufTy).Contents (Elt F)),
    StableHlo.unary main_v3894 main_v3896 (Host.sign : (⟨S32768x1, .f32⟩ : BufTy).Contents (Elt F) → (⟨S32768x1, .f32⟩ : BufTy).Contents (Elt F)),
    StableHlo.binary main_v3895 main_v3896 main_v3897 (mulf : (⟨S32768x1, .f32⟩ : BufTy).Contents (Elt F) → (⟨S32768x1, .f32⟩ : BufTy).Contents (Elt F) → (⟨S32768x1, .f32⟩ : BufTy).Contents (Elt F)),
    StableHlo.unary main_v3893 main_v3898 (Host.absf : (⟨S32768x1, .f32⟩ : BufTy).Contents (Elt F) → (⟨S32768x1, .f32⟩ : BufTy).Contents (Elt F)),
    StableHlo.unary main_v3894 main_v3899 (Host.absf : (⟨S32768x1, .f32⟩ : BufTy).Contents (Elt F) → (⟨S32768x1, .f32⟩ : BufTy).Contents (Elt F)),
    StableHlo.binary main_v3898 main_v3899 main_v3900 (minimumf : (⟨S32768x1, .f32⟩ : BufTy).Contents (Elt F) → (⟨S32768x1, .f32⟩ : BufTy).Contents (Elt F) → (⟨S32768x1, .f32⟩ : BufTy).Contents (Elt F)),
    StableHlo.binary main_v3897 main_v3900 main_v3901 (mulf : (⟨S32768x1, .f32⟩ : BufTy).Contents (Elt F) → (⟨S32768x1, .f32⟩ : BufTy).Contents (Elt F) → (⟨S32768x1, .f32⟩ : BufTy).Contents (Elt F)),
    StableHlo.nullary main_cst_1221 (constant S_ .f32 0x00000000#32),
    StableHlo.unary main_cst_1221 main_v3902 (broadcastInDim S32768x1 ![] bcast_S_S32768x1 : (⟨S_, .f32⟩ : BufTy).Contents (Elt F) → (⟨S32768x1, .f32⟩ : BufTy).Contents (Elt F)),
    StableHlo.binary main_v3901 main_v3902 main_v3903 (cmpf .ole : (⟨S32768x1, .f32⟩ : BufTy).Contents (Elt F) → (⟨S32768x1, .f32⟩ : BufTy).Contents (Elt F) → (⟨S32768x1, .i1⟩ : BufTy).Contents (Elt F)),
    StableHlo.unary main_v3903 main_v3904 (uitofp .f32 : (⟨S32768x1, .i1⟩ : BufTy).Contents (Elt F) → (⟨S32768x1, .f32⟩ : BufTy).Contents (Elt F)),
    StableHlo.nullary main_cst_1222 (constant S_ .f32 0x40000000#32),
    StableHlo.unary main_cst_1222 main_v3905 (broadcastInDim S32768x1 ![] bcast_S_S32768x1 : (⟨S_, .f32⟩ : BufTy).Contents (Elt F) → (⟨S32768x1, .f32⟩ : BufTy).Contents (Elt F)),
    StableHlo.binary main_v3905 main_v3904 main_v3906 (mulf : (⟨S32768x1, .f32⟩ : BufTy).Contents (Elt F) → (⟨S32768x1, .f32⟩ : BufTy).Contents (Elt F) → (⟨S32768x1, .f32⟩ : BufTy).Contents (Elt F)),
    StableHlo.nullary main_cst_1223 (constant S_ .f32 0x3F800000#32),
    StableHlo.unary main_cst_1223 main_v3907 (broadcastInDim S32768x1 ![] bcast_S_S32768x1 : (⟨S_, .f32⟩ : BufTy).Contents (Elt F) → (⟨S32768x1, .f32⟩ : BufTy).Contents (Elt F)),
    StableHlo.binary main_v3907 main_v3906 main_v3908 (subf : (⟨S32768x1, .f32⟩ : BufTy).Contents (Elt F) → (⟨S32768x1, .f32⟩ : BufTy).Contents (Elt F) → (⟨S32768x1, .f32⟩ : BufTy).Contents (Elt F)),
    StableHlo.binary main_v3908 main_v3891 main_v3909 (mulf : (⟨S32768x1, .f32⟩ : BufTy).Contents (Elt F) → (⟨S32768x1, .f32⟩ : BufTy).Contents (Elt F) → (⟨S32768x1, .f32⟩ : BufTy).Contents (Elt F)),
    StableHlo.binary main_v3909 main_v3892 main_v3910 (addf : (⟨S32768x1, .f32⟩ : BufTy).Contents (Elt F) → (⟨S32768x1, .f32⟩ : BufTy).Contents (Elt F) → (⟨S32768x1, .f32⟩ : BufTy).Contents (Elt F)),
    StableHlo.nullary main_cst_1224 (constant S_ .f32 0x00000000#32),
    StableHlo.unary main_cst_1224 main_v3911 (broadcastInDim S32768x1 ![] bcast_S_S32768x1 : (⟨S_, .f32⟩ : BufTy).Contents (Elt F) → (⟨S32768x1, .f32⟩ : BufTy).Contents (Elt F)),
    StableHlo.binary main_v3910 main_v3911 main_v3912 (cmpf .ole : (⟨S32768x1, .f32⟩ : BufTy).Contents (Elt F) → (⟨S32768x1, .f32⟩ : BufTy).Contents (Elt F) → (⟨S32768x1, .i1⟩ : BufTy).Contents (Elt F)),
    StableHlo.unary main_v3912 main_v3913 (uitofp .f32 : (⟨S32768x1, .i1⟩ : BufTy).Contents (Elt F) → (⟨S32768x1, .f32⟩ : BufTy).Contents (Elt F)),
    StableHlo.binary main_v3904 main_v3913 main_v3914 (cmpf .une : (⟨S32768x1, .f32⟩ : BufTy).Contents (Elt F) → (⟨S32768x1, .f32⟩ : BufTy).Contents (Elt F) → (⟨S32768x1, .i1⟩ : BufTy).Contents (Elt F)),
    StableHlo.unary main_v3914 main_v3915 (uitofp .f32 : (⟨S32768x1, .i1⟩ : BufTy).Contents (Elt F) → (⟨S32768x1, .f32⟩ : BufTy).Contents (Elt F)),
    StableHlo.binary main_v3915 main_v3913 main_v3916 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3904 main_v3913 main_v3917 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1225 (constant S_ .f32 0x40000000#32),
    StableHlo.unary main_cst_1225 main_v3918 (broadcastInDim S32768x2 ![] bcast_S_S32768x2 : (⟨S_, .f32⟩ : BufTy).Contents (Elt F) → (⟨S32768x2, .f32⟩ : BufTy).Contents (Elt F)),
    StableHlo.binary main_v3918 main_v3916 main_v3919 (mulf : (⟨S32768x2, .f32⟩ : BufTy).Contents (Elt F) → (⟨S32768x2, .f32⟩ : BufTy).Contents (Elt F) → (⟨S32768x2, .f32⟩ : BufTy).Contents (Elt F)),
    StableHlo.nullary main_cst_1226 (constant S_ .f32 0x3F800000#32),
    StableHlo.unary main_cst_1226 main_v3920 (broadcastInDim S32768x2 ![] bcast_S_S32768x2 : (⟨S_, .f32⟩ : BufTy).Contents (Elt F) → (⟨S32768x2, .f32⟩ : BufTy).Contents (Elt F)),
    StableHlo.binary main_v3920 main_v3919 main_v3921 (subf : (⟨S32768x2, .f32⟩ : BufTy).Contents (Elt F) → (⟨S32768x2, .f32⟩ : BufTy).Contents (Elt F) → (⟨S32768x2, .f32⟩ : BufTy).Contents (Elt F)),
    StableHlo.binary main_v3921 main_v3880 main_v3922 (mulf : (⟨S32768x2, .f32⟩ : BufTy).Contents (Elt F) → (⟨S32768x2, .f32⟩ : BufTy).Contents (Elt F) → (⟨S32768x2, .f32⟩ : BufTy).Contents (Elt F)),
    StableHlo.binary main_v3922 main_v3881 main_v3923 (addf : (⟨S32768x2, .f32⟩ : BufTy).Contents (Elt F) → (⟨S32768x2, .f32⟩ : BufTy).Contents (Elt F) → (⟨S32768x2, .f32⟩ : BufTy).Contents (Elt F)),
    StableHlo.unary main_v3923 main_v3924 ((extractStridedSlice S32768x1 ![0, 0] · slices_S32768x2_S32768x1_0_0) : (⟨S32768x2, .f32⟩ : BufTy).Contents (Elt F) → (⟨S32768x1, .f32⟩ : BufTy).Contents (Elt F)),
    StableHlo.unary main_v3923 main_v3925 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1227 (constant S_ .f32 0xC1F00000#32),
    StableHlo.nullary main_cst_1228 (constant S_ .f32 0x41F00000#32),
    StableHlo.TRef.unary (.of main_cst_1227 : StableHlo.TRef sig ⟨S_, .f32⟩) main_call352.v0 id,
    StableHlo.TRef.unary main_call352.v0 main_call352.v1 (broadcastInDim S32768x1 ![] bcast_S_S32768x1),
    StableHlo.TRef.binary main_call352.v1 (.of main_v3924 : StableHlo.TRef sig ⟨S32768x1, .f32⟩) main_call352.v2 maximumf,
    StableHlo.TRef.unary (.of main_cst_1228 : StableHlo.TRef sig ⟨S_, .f32⟩) main_call352.v3 id,
    StableHlo.TRef.unary main_call352.v3 main_call352.v4 (broadcastInDim S32768x1 ![] bcast_S_S32768x1),
    StableHlo.TRef.binary main_call352.v4 main_call352.v2 main_call352.v5 minimumf,
    StableHlo.nullary main_cst_1229 (constant S_ .f32 0xC1F00000#32),
    StableHlo.nullary main_cst_1230 (constant S_ .f32 0x41F00000#32) ]

set_option maxRecDepth 8192 in
/-- The window is that straight line: each clip function unfolded at its calls, the sequencing reassociated. -/
theorem part_eq_85 (d : Dev nD) : main_part85 (F := F) d = seq ops85 := by
  simp only [main_part85, fn_clip_5.body, fn_clip_6.body, seq, bind_assoc, pure_bind]
  rfl

/-- Every operation of the window touches TensorCore references only. -/
theorem sub_85 : (ops85 : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., binary_bufs_sub .., binary_bufs_sub .., nullary_bufs_sub .., unary_bufs_sub ..,
    binary_bufs_sub .., unary_bufs_sub .., binary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub ..⟩

/-- Every operation of the window determines all it writes. -/
theorem fresh_85 : (ops85 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_85 (V : Valuation τ sig (Elt F)) :
    after ops85 V (main_arg0 : DevRef τ sig) = V (main_arg0 : DevRef τ sig) := by
  simp only [after_cons, after_nil]
  rfl

/-- The operations of @main's statements 5161 … 5220, in order (75 of them): a statement's own operation, or, for a call
    of a clip function, the six operations of its body over that call's buffers. -/
abbrev ops86 : List (HloOp τ sig (Elt F)) :=
  [ StableHlo.TRef.unary (.of main_cst_1229 : StableHlo.TRef sig ⟨S_, .f32⟩) main_call353.v0 id,
    StableHlo.TRef.unary main_call353.v0 main_call353.v1 (broadcastInDim S32768x1 ![] bcast_S_S32768x1),
    StableHlo.TRef.binary main_call353.v1 (.of main_v3925 : StableHlo.TRef sig ⟨S32768x1, .f32⟩) main_call353.v2 maximumf,
    StableHlo.TRef.unary (.of main_cst_1230 : StableHlo.TRef sig ⟨S_, .f32⟩) main_call353.v3 id,
    StableHlo.TRef.unary main_call353.v3 main_call353.v4 (broadcastInDim S32768x1 ![] bcast_S_S32768x1),
    StableHlo.TRef.binary main_call353.v4 main_call353.v2 main_call353.v5 minimumf,
    StableHlo.unary main_v3926 main_v3928 (Host.sign : (⟨S32768x1, .f32⟩ : BufTy).Contents (Elt F) → (⟨S32768x1, .f32⟩ : BufTy).Contents (Elt F)),
    StableHlo.unary main_v3927 main_v3929 (Host.sign : (⟨S32768x1, .f32⟩ : BufTy).Contents (Elt F) → (⟨S32768x1, .f32⟩ : BufTy).Contents (Elt F)),
    StableHlo.binary main_v3928 main_v3929 main_v3930 (mulf : (⟨S32768x1, .f32⟩ : BufTy).Contents (Elt F) → (⟨S32768x1, .f32⟩ : BufTy).Contents (Elt F) → (⟨S32768x1, .f32⟩ : BufTy).Contents (Elt F)),
    StableHlo.unary main_v3926 main_v3931 (Host.absf : (⟨S32768x1, .f32⟩ : BufTy).Contents (Elt F) → (⟨S32768x1, .f32⟩ : BufTy).Contents (Elt F)),
    StableHlo.unary main_v3927 main_v3932 (Host.absf : (⟨S32768x1, .f32⟩ : BufTy).Contents (Elt F) → (⟨S32768x1, .f32⟩ : BufTy).Contents (Elt F)),
    StableHlo.binary main_v3931 main_v3932 main_v3933 (minimumf : (⟨S32768x1, .f32⟩ : BufTy).Contents (Elt F) → (⟨S32768x1, .f32⟩ : BufTy).Contents (Elt F) → (⟨S32768x1, .f32⟩ : BufTy).Contents (Elt F)),
    StableHlo.binary main_v3930 main_v3933 main_v3934 (mulf : (⟨S32768x1, .f32⟩ : BufTy).Contents (Elt F) → (⟨S32768x1, .f32⟩ : BufTy).Contents (Elt F) → (⟨S32768x1, .f32⟩ : BufTy).Contents (Elt F)),
    StableHlo.nullary main_cst_1231 (constant S_ .f32 0x00000000#32),
    StableHlo.unary main_cst_1231 main_v3935 (broadcastInDim S32768x1 ![] bcast_S_S32768x1 : (⟨S_, .f32⟩ : BufTy).Contents (Elt F) → (⟨S32768x1, .f32⟩ : BufTy).Contents (Elt F)),
    StableHlo.binary main_v3934 main_v3935 main_v3936 (cmpf .ole : (⟨S32768x1, .f32⟩ : BufTy).Contents (Elt F) → (⟨S32768x1, .f32⟩ : BufTy).Contents (Elt F) → (⟨S32768x1, .i1⟩ : BufTy).Contents (Elt F)),
    StableHlo.unary main_v3936 main_v3937 (uitofp .f32 : (⟨S32768x1, .i1⟩ : BufTy).Contents (Elt F) → (⟨S32768x1, .f32⟩ : BufTy).Contents (Elt F)),
    StableHlo.nullary main_cst_1232 (constant S_ .f32 0x40000000#32),
    StableHlo.unary main_cst_1232 main_v3938 (broadcastInDim S32768x1 ![] bcast_S_S32768x1 : (⟨S_, .f32⟩ : BufTy).Contents (Elt F) → (⟨S32768x1, .f32⟩ : BufTy).Contents (Elt F)),
    StableHlo.binary main_v3938 main_v3937 main_v3939 (mulf : (⟨S32768x1, .f32⟩ : BufTy).Contents (Elt F) → (⟨S32768x1, .f32⟩ : BufTy).Contents (Elt F) → (⟨S32768x1, .f32⟩ : BufTy).Contents (Elt F)),
    StableHlo.nullary main_cst_1233 (constant S_ .f32 0x3F800000#32),
    StableHlo.unary main_cst_1233 main_v3940 (broadcastInDim S32768x1 ![] bcast_S_S32768x1 : (⟨S_, .f32⟩ : BufTy).Contents (Elt F) → (⟨S32768x1, .f32⟩ : BufTy).Contents (Elt F)),
    StableHlo.binary main_v3940 main_v3939 main_v3941 (subf : (⟨S32768x1, .f32⟩ : BufTy).Contents (Elt F) → (⟨S32768x1, .f32⟩ : BufTy).Contents (Elt F) → (⟨S32768x1, .f32⟩ : BufTy).Contents (Elt F)),
    StableHlo.binary main_v3941 main_v3924 main_v3942 (mulf : (⟨S32768x1, .f32⟩ : BufTy).Contents (Elt F) → (⟨S32768x1, .f32⟩ : BufTy).Contents (Elt F) → (⟨S32768x1, .f32⟩ : BufTy).Contents (Elt F)),
    StableHlo.binary main_v3942 main_v3925 main_v3943 (addf : (⟨S32768x1, .f32⟩ : BufTy).Contents (Elt F) → (⟨S32768x1, .f32⟩ : BufTy).Contents (Elt F) → (⟨S32768x1, .f32⟩ : BufTy).Contents (Elt F)),
    StableHlo.nullary main_cst_1234 (constant S_ .f32 0x00000000#32),
    StableHlo.unary main_cst_1234 main_v3944 (broadcastInDim S32768x1 ![] bcast_S_S32768x1 : (⟨S_, .f32⟩ : BufTy).Contents (Elt F) → (⟨S32768x1, .f32⟩ : BufTy).Contents (Elt F)),
    StableHlo.binary main_v3943 main_v3944 main_v3945 (cmpf .ole : (⟨S32768x1, .f32⟩ : BufTy).Contents (Elt F) → (⟨S32768x1, .f32⟩ : BufTy).Contents (Elt F) → (⟨S32768x1, .i1⟩ : BufTy).Contents (Elt F)),
    StableHlo.unary main_v3945 main_v3946 (uitofp .f32 : (⟨S32768x1, .i1⟩ : BufTy).Contents (Elt F) → (⟨S32768x1, .f32⟩ : BufTy).Contents (Elt F)),
    StableHlo.binary main_v3937 main_v3946 main_v3947 (cmpf .une : (⟨S32768x1, .f32⟩ : BufTy).Contents (Elt F) → (⟨S32768x1, .f32⟩ : BufTy).Contents (Elt F) → (⟨S32768x1, .i1⟩ : BufTy).Contents (Elt F)),
    StableHlo.unary main_v3947 main_v3948 (uitofp .f32 : (⟨S32768x1, .i1⟩ : BufTy).Contents (Elt F) → (⟨S32768x1, .f32⟩ : BufTy).Contents (Elt F)),
    StableHlo.binary main_v3948 main_v3946 main_v3949 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3937 main_v3946 main_v3950 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v3916 main_v3949 main_v3951 (cmpf .une : (⟨S32768x2, .f32⟩ : BufTy).Contents (Elt F) → (⟨S32768x2, .f32⟩ : BufTy).Contents (Elt F) → (⟨S32768x2, .i1⟩ : BufTy).Contents (Elt F)),
    StableHlo.unary main_v3951 main_v3952 (uitofp .f32 : (⟨S32768x2, .i1⟩ : BufTy).Contents (Elt F) → (⟨S32768x2, .f32⟩ : BufTy).Contents (Elt F)),
    StableHlo.binary main_v3952 main_v3949 main_v3953 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v3917 main_v3950 main_v3954 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v3872 main_v3953 main_v3955 (cmpf .une : (⟨S32768x4, .f32⟩ : BufTy).Contents (Elt F) → (⟨S32768x4, .f32⟩ : BufTy).Contents (Elt F) → (⟨S32768x4, .i1⟩ : BufTy).Contents (Elt F)),
    StableHlo.unary main_v3955 main_v3956 (uitofp .f32 : (⟨S32768x4, .i1⟩ : BufTy).Contents (Elt F) → (⟨S32768x4, .f32⟩ : BufTy).Contents (Elt F)),
    StableHlo.binary main_v3956 main_v3953 main_v3957 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v3873 main_v3954 main_v3958 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v3780 main_v3957 main_v3959 (cmpf .une : (⟨S32768x8, .f32⟩ : BufTy).Contents (Elt F) → (⟨S32768x8, .f32⟩ : BufTy).Contents (Elt F) → (⟨S32768x8, .i1⟩ : BufTy).Contents (Elt F)),
    StableHlo.unary main_v3959 main_v3960 (uitofp .f32 : (⟨S32768x8, .i1⟩ : BufTy).Contents (Elt F) → (⟨S32768x8, .f32⟩ : BufTy).Contents (Elt F)),
    StableHlo.binary main_v3960 main_v3957 main_v3961 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v3781 main_v3958 main_v3962 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.nullary main_cst_1235 (constant S_ .f32 0x40000000#32),
    StableHlo.unary main_cst_1235 main_v3963 (broadcastInDim S32768x16 ![] bcast_S_S32768x16 : (⟨S_, .f32⟩ : BufTy).Contents (Elt F) → (⟨S32768x16, .f32⟩ : BufTy).Contents (Elt F)),
    StableHlo.binary main_v3963 main_v3961 main_v3964 (mulf : (⟨S32768x16, .f32⟩ : BufTy).Contents (Elt F) → (⟨S32768x16, .f32⟩ : BufTy).Contents (Elt F) → (⟨S32768x16, .f32⟩ : BufTy).Contents (Elt F)),
    StableHlo.nullary main_cst_1236 (constant S_ .f32 0x3F800000#32),
    StableHlo.unary main_cst_1236 main_v3965 (broadcastInDim S32768x16 ![] bcast_S_S32768x16 : (⟨S_, .f32⟩ : BufTy).Contents (Elt F) → (⟨S32768x16, .f32⟩ : BufTy).Contents (Elt F)),
    StableHlo.binary main_v3965 main_v3964 main_v3966 (subf : (⟨S32768x16, .f32⟩ : BufTy).Contents (Elt F) → (⟨S32768x16, .f32⟩ : BufTy).Contents (Elt F) → (⟨S32768x16, .f32⟩ : BufTy).Contents (Elt F)),
    StableHlo.binary main_v3966 main_v3589 main_v3967 (mulf : (⟨S32768x16, .f32⟩ : BufTy).Contents (Elt F) → (⟨S32768x16, .f32⟩ : BufTy).Contents (Elt F) → (⟨S32768x16, .f32⟩ : BufTy).Contents (Elt F)),
    StableHlo.binary main_v3967 main_v3590 main_v3968 (addf : (⟨S32768x16, .f32⟩ : BufTy).Contents (Elt F) → (⟨S32768x16, .f32⟩ : BufTy).Contents (Elt F) → (⟨S32768x16, .f32⟩ : BufTy).Contents (Elt F)),
    StableHlo.unary main_v3968 main_v3969 ((extractStridedSlice S32768x8 ![0, 0] · slices_S32768x16_S32768x8_0_0) : (⟨S32768x16, .f32⟩ : BufTy).Contents (Elt F) → (⟨S32768x8, .f32⟩ : BufTy).Contents (Elt F)),
    StableHlo.unary main_v3968 main_v3970 ((extractStridedSlice S32768x8 ![0, 8] · slices_S32768x16_S32768x8_0_8) : (⟨S32768x16, .f32⟩ : BufTy).Contents (Elt F) → (⟨S32768x8, .f32⟩ : BufTy).Contents (Elt F)),
    StableHlo.nullary main_cst_1237 (constant S_ .f32 0xC1F00000#32),
    StableHlo.nullary main_cst_1238 (constant S_ .f32 0x41F00000#32),
    StableHlo.TRef.unary (.of main_cst_1237 : StableHlo.TRef sig ⟨S_, .f32⟩) main_call354.v0 id,
    StableHlo.TRef.unary main_call354.v0 main_call354.v1 (broadcastInDim S32768x8 ![] bcast_S_S32768x8),
    StableHlo.TRef.binary main_call354.v1 (.of main_v3969 : StableHlo.TRef sig ⟨S32768x8, .f32⟩) main_call354.v2 maximumf,
    StableHlo.TRef.unary (.of main_cst_1238 : StableHlo.TRef sig ⟨S_, .f32⟩) main_call354.v3 id,
    StableHlo.TRef.unary main_call354.v3 main_call354.v4 (broadcastInDim S32768x8 ![] bcast_S_S32768x8),
    StableHlo.TRef.binary main_call354.v4 main_call354.v2 main_call354.v5 minimumf,
    StableHlo.nullary main_cst_1239 (constant S_ .f32 0xC1F00000#32),
    StableHlo.nullary main_cst_1240 (constant S_ .f32 0x41F00000#32),
    StableHlo.TRef.unary (.of main_cst_1239 : StableHlo.TRef sig ⟨S_, .f32⟩) main_call355.v0 id,
    StableHlo.TRef.unary main_call355.v0 main_call355.v1 (broadcastInDim S32768x8 ![] bcast_S_S32768x8),
    StableHlo.TRef.binary main_call355.v1 (.of main_v3970 : StableHlo.TRef sig ⟨S32768x8, .f32⟩) main_call355.v2 maximumf,
    StableHlo.TRef.unary (.of main_cst_1240 : StableHlo.TRef sig ⟨S_, .f32⟩) main_call355.v3 id,
    StableHlo.TRef.unary main_call355.v3 main_call355.v4 (broadcastInDim S32768x8 ![] bcast_S_S32768x8),
    StableHlo.TRef.binary main_call355.v4 main_call355.v2 main_call355.v5 minimumf,
    StableHlo.unary main_v3971 main_v3973 (Host.sign : (⟨S32768x8, .f32⟩ : BufTy).Contents (Elt F) → (⟨S32768x8, .f32⟩ : BufTy).Contents (Elt F)),
    StableHlo.unary main_v3972 main_v3974 (Host.sign : (⟨S32768x8, .f32⟩ : BufTy).Contents (Elt F) → (⟨S32768x8, .f32⟩ : BufTy).Contents (Elt F)),
    StableHlo.binary main_v3973 main_v3974 main_v3975 (mulf : (⟨S32768x8, .f32⟩ : BufTy).Contents (Elt F) → (⟨S32768x8, .f32⟩ : BufTy).Contents (Elt F) → (⟨S32768x8, .f32⟩ : BufTy).Contents (Elt F)),
    StableHlo.unary main_v3971 main_v3976 (Host.absf : (⟨S32768x8, .f32⟩ : BufTy).Contents (Elt F) → (⟨S32768x8, .f32⟩ : BufTy).Contents (Elt F)) ]

set_option maxRecDepth 8192 in
/-- The window is that straight line: each clip function unfolded at its calls, the sequencing reassociated. -/
theorem part_eq_86 (d : Dev nD) : main_part86 (F := F) d = seq ops86 := by
  simp only [main_part86, fn_clip_6.body, fn_clip_3.body, seq, bind_assoc, pure_bind]
  rfl

/-- Every operation of the window touches TensorCore references only. -/
theorem sub_86 : (ops86 : List (HloOp τ sig (Elt F))).Forall fun op => op.bufs ⊆ tcRefs τ sig :=
  ⟨unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    unary_bufs_sub .., binary_bufs_sub .., binary_bufs_sub .., binary_bufs_sub .., unary_bufs_sub .., binary_bufs_sub ..,
    binary_bufs_sub .., binary_bufs_sub .., unary_bufs_sub .., binary_bufs_sub .., binary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub ..⟩

/-- Every operation of the window determines all it writes. -/
theorem fresh_86 : (ops86 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
/-- The window writes no argument of @main: the argument's buffer holds after it what it held before. -/
theorem keep_86 (V : Valuation τ sig (Elt F)) :
    after ops86 V (main_arg0 : DevRef τ sig) = V (main_arg0 : DevRef τ sig) := by
  simp only [after_cons, after_nil]
  rfl

/-- The operations of @main's statements 5221 … 5280, in order (90 of them): a statement's own operation, or, for a call
    of a clip function, the six operations of its body over that call's buffers. -/
abbrev ops87 : List (HloOp τ sig (Elt F)) :=
  [ StableHlo.unary main_v3972 main_v3977 (Host.absf : (⟨S32768x8, .f32⟩ : BufTy).Contents (Elt F) → (⟨S32768x8, .f32⟩ : BufTy).Contents (Elt F)),
    StableHlo.binary main_v3976 main_v3977 main_v3978 (minimumf : (⟨S32768x8, .f32⟩ : BufTy).Contents (Elt F) → (⟨S32768x8, .f32⟩ : BufTy).Contents (Elt F) → (⟨S32768x8, .f32⟩ : BufTy).Contents (Elt F)),
    StableHlo.binary main_v3975 main_v3978 main_v3979 (mulf : (⟨S32768x8, .f32⟩ : BufTy).Contents (Elt F) → (⟨S32768x8, .f32⟩ : BufTy).Contents (Elt F) → (⟨S32768x8, .f32⟩ : BufTy).Contents (Elt F)),
    StableHlo.unary main_v3979 main_v3980 ((extractStridedSlice S32768x4 ![0, 0] · slices_S32768x8_S32768x4_0_0) : (⟨S32768x8, .f32⟩ : BufTy).Contents (Elt F) → (⟨S32768x4, .f32⟩ : BufTy).Contents (Elt F)),
    StableHlo.unary main_v3979 main_v3981 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_1241 (constant S_ .f32 0xC1F00000#32),
    StableHlo.nullary main_cst_1242 (constant S_ .f32 0x41F00000#32),
    StableHlo.TRef.unary (.of main_cst_1241 : StableHlo.TRef sig ⟨S_, .f32⟩) main_call356.v0 id,
    StableHlo.TRef.unary main_call356.v0 main_call356.v1 (broadcastInDim S32768x4 ![] bcast_S_S32768x4),
    StableHlo.TRef.binary main_call356.v1 (.of main_v3980 : StableHlo.TRef sig ⟨S32768x4, .f32⟩) main_call356.v2 maximumf,
    StableHlo.TRef.unary (.of main_cst_1242 : StableHlo.TRef sig ⟨S_, .f32⟩) main_call356.v3 id,
    StableHlo.TRef.unary main_call356.v3 main_call356.v4 (broadcastInDim S32768x4 ![] bcast_S_S32768x4),
    StableHlo.TRef.binary main_call356.v4 main_call356.v2 main_call356.v5 minimumf,
    StableHlo.nullary main_cst_1243 (constant S_ .f32 0xC1F00000#32),
    StableHlo.nullary main_cst_1244 (constant S_ .f32 0x41F00000#32),
    StableHlo.TRef.unary (.of main_cst_1243 : StableHlo.TRef sig ⟨S_, .f32⟩) main_call357.v0 id,
    StableHlo.TRef.unary main_call357.v0 main_call357.v1 (broadcastInDim S32768x4 ![] bcast_S_S32768x4),
    StableHlo.TRef.binary main_call357.v1 (.of main_v3981 : StableHlo.TRef sig ⟨S32768x4, .f32⟩) main_call357.v2 maximumf,
    StableHlo.TRef.unary (.of main_cst_1244 : StableHlo.TRef sig ⟨S_, .f32⟩) main_call357.v3 id,
    StableHlo.TRef.unary main_call357.v3 main_call357.v4 (broadcastInDim S32768x4 ![] bcast_S_S32768x4),
    StableHlo.TRef.binary main_call357.v4 main_call357.v2 main_call357.v5 minimumf,
    StableHlo.unary main_v3982 main_v3984 (Host.sign : (⟨S32768x4, .f32⟩ : BufTy).Contents (Elt F) → (⟨S32768x4, .f32⟩ : BufTy).Contents (Elt F)),
    StableHlo.unary main_v3983 main_v3985 (Host.sign : (⟨S32768x4, .f32⟩ : BufTy).Contents (Elt F) → (⟨S32768x4, .f32⟩ : BufTy).Contents (Elt F)),
    StableHlo.binary main_v3984 main_v3985 main_v3986 (mulf : (⟨S32768x4, .f32⟩ : BufTy).Contents (Elt F) → (⟨S32768x4, .f32⟩ : BufTy).Contents (Elt F) → (⟨S32768x4, .f32⟩ : BufTy).Contents (Elt F)),
    StableHlo.unary main_v3982 main_v3987 (Host.absf : (⟨S32768x4, .f32⟩ : BufTy).Contents (Elt F) → (⟨S32768x4, .f32⟩ : BufTy).Contents (Elt F)),
    StableHlo.unary main_v3983 main_v3988 (Host.absf : (⟨S32768x4, .f32⟩ : BufTy).Contents (Elt F) → (⟨S32768x4, .f32⟩ : BufTy).Contents (Elt F)),
    StableHlo.binary main_v3987 main_v3988 main_v3989 (minimumf : (⟨S32768x4, .f32⟩ : BufTy).Contents (Elt F) → (⟨S32768x4, .f32⟩ : BufTy).Contents (Elt F) → (⟨S32768x4, .f32⟩ : BufTy).Contents (Elt F)),
    StableHlo.binary main_v3986 main_v3989 main_v3990 (mulf : (⟨S32768x4, .f32⟩ : BufTy).Contents (Elt F) → (⟨S32768x4, .f32⟩ : BufTy).Contents (Elt F) → (⟨S32768x4, .f32⟩ : BufTy).Contents (Elt F)),
    StableHlo.unary main_v3990 main_v3991 ((extractStridedSlice S32768x2 ![0, 0] · slices_S32768x4_S32768x2_0_0) : (⟨S32768x4, .f32⟩ : BufTy).Contents (Elt F) → (⟨S32768x2, .f32⟩ : BufTy).Contents (Elt F)),
    StableHlo.unary main_v3990 main_v3992 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1245 (constant S_ .f32 0xC1F00000#32),
    StableHlo.nullary main_cst_1246 (constant S_ .f32 0x41F00000#32),
    StableHlo.TRef.unary (.of main_cst_1245 : StableHlo.TRef sig ⟨S_, .f32⟩) main_call358.v0 id,
    StableHlo.TRef.unary main_call358.v0 main_call358.v1 (broadcastInDim S32768x2 ![] bcast_S_S32768x2),
    StableHlo.TRef.binary main_call358.v1 (.of main_v3991 : StableHlo.TRef sig ⟨S32768x2, .f32⟩) main_call358.v2 maximumf,
    StableHlo.TRef.unary (.of main_cst_1246 : StableHlo.TRef sig ⟨S_, .f32⟩) main_call358.v3 id,
    StableHlo.TRef.unary main_call358.v3 main_call358.v4 (broadcastInDim S32768x2 ![] bcast_S_S32768x2),
    StableHlo.TRef.binary main_call358.v4 main_call358.v2 main_call358.v5 minimumf,
    StableHlo.nullary main_cst_1247 (constant S_ .f32 0xC1F00000#32),
    StableHlo.nullary main_cst_1248 (constant S_ .f32 0x41F00000#32),
    StableHlo.TRef.unary (.of main_cst_1247 : StableHlo.TRef sig ⟨S_, .f32⟩) main_call359.v0 id,
    StableHlo.TRef.unary main_call359.v0 main_call359.v1 (broadcastInDim S32768x2 ![] bcast_S_S32768x2),
    StableHlo.TRef.binary main_call359.v1 (.of main_v3992 : StableHlo.TRef sig ⟨S32768x2, .f32⟩) main_call359.v2 maximumf,
    StableHlo.TRef.unary (.of main_cst_1248 : StableHlo.TRef sig ⟨S_, .f32⟩) main_call359.v3 id,
    StableHlo.TRef.unary main_call359.v3 main_call359.v4 (broadcastInDim S32768x2 ![] bcast_S_S32768x2),
    StableHlo.TRef.binary main_call359.v4 main_call359.v2 main_call359.v5 minimumf,
    StableHlo.unary main_v3993 main_v3995 (Host.sign : (⟨S32768x2, .f32⟩ : BufTy).Contents (Elt F) → (⟨S32768x2, .f32⟩ : BufTy).Contents (Elt F)),
    StableHlo.unary main_v3994 main_v3996 (Host.sign : (⟨S32768x2, .f32⟩ : BufTy).Contents (Elt F) → (⟨S32768x2, .f32⟩ : BufTy).Contents (Elt F)),
    StableHlo.binary main_v3995 main_v3996 main_v3997 (mulf : (⟨S32768x2, .f32⟩ : BufTy).Contents (Elt F) → (⟨S32768x2, .f32⟩ : BufTy).Contents (Elt F) → (⟨S32768x2, .f32⟩ : BufTy).Contents (Elt F)),
    StableHlo.unary main_v3993 main_v3998 (Host.absf : (⟨S32768x2, .f32⟩ : BufTy).Contents (Elt F) → (⟨S32768x2, .f32⟩ : BufTy).Contents (Elt F)),
    StableHlo.unary main_v3994 main_v3999 (Host.absf : (⟨S32768x2, .f32⟩ : BufTy).Contents (Elt F) → (⟨S32768x2, .f32⟩ : BufTy).Contents (Elt F)),
    StableHlo.binary main_v3998 main_v3999 main_v4000 (minimumf : (⟨S32768x2, .f32⟩ : BufTy).Contents (Elt F) → (⟨S32768x2, .f32⟩ : BufTy).Contents (Elt F) → (⟨S32768x2, .f32⟩ : BufTy).Contents (Elt F)),
    StableHlo.binary main_v3997 main_v4000 main_v4001 (mulf : (⟨S32768x2, .f32⟩ : BufTy).Contents (Elt F) → (⟨S32768x2, .f32⟩ : BufTy).Contents (Elt F) → (⟨S32768x2, .f32⟩ : BufTy).Contents (Elt F)),
    StableHlo.unary main_v4001 main_v4002 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4001 main_v4003 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1249 (constant S_ .f32 0xC1F00000#32),
    StableHlo.nullary main_cst_1250 (constant S_ .f32 0x41F00000#32),
    StableHlo.TRef.unary (.of main_cst_1249 : StableHlo.TRef sig ⟨S_, .f32⟩) main_call360.v0 id,
    StableHlo.TRef.unary main_call360.v0 main_call360.v1 (broadcastInDim S32768x1 ![] bcast_S_S32768x1),
    StableHlo.TRef.binary main_call360.v1 (.of main_v4002 : StableHlo.TRef sig ⟨S32768x1, .f32⟩) main_call360.v2 maximumf,
    StableHlo.TRef.unary (.of main_cst_1250 : StableHlo.TRef sig ⟨S_, .f32⟩) main_call360.v3 id,
    StableHlo.TRef.unary main_call360.v3 main_call360.v4 (broadcastInDim S32768x1 ![] bcast_S_S32768x1),
    StableHlo.TRef.binary main_call360.v4 main_call360.v2 main_call360.v5 minimumf,
    StableHlo.nullary main_cst_1251 (constant S_ .f32 0xC1F00000#32),
    StableHlo.nullary main_cst_1252 (constant S_ .f32 0x41F00000#32),
    StableHlo.TRef.unary (.of main_cst_1251 : StableHlo.TRef sig ⟨S_, .f32⟩) main_call361.v0 id,
    StableHlo.TRef.unary main_call361.v0 main_call361.v1 (broadcastInDim S32768x1 ![] bcast_S_S32768x1),
    StableHlo.TRef.binary main_call361.v1 (.of main_v4003 : StableHlo.TRef sig ⟨S32768x1, .f32⟩) main_call361.v2 maximumf,
    StableHlo.TRef.unary (.of main_cst_1252 : StableHlo.TRef sig ⟨S_, .f32⟩) main_call361.v3 id,
    StableHlo.TRef.unary main_call361.v3 main_call361.v4 (broadcastInDim S32768x1 ![] bcast_S_S32768x1),
    StableHlo.TRef.binary main_call361.v4 main_call361.v2 main_call361.v5 minimumf,
    StableHlo.unary main_v4004 main_v4006 (Host.sign : (⟨S32768x1, .f32⟩ : BufTy).Contents (Elt F) → (⟨S32768x1, .f32⟩ : BufTy).Contents (Elt F)),
    StableHlo.unary main_v4005 main_v4007 (Host.sign : (⟨S32768x1, .f32⟩ : BufTy).Contents (Elt F) → (⟨S32768x1, .f32⟩ : BufTy).Contents (Elt F)),
    StableHlo.binary main_v4006 main_v4007 main_v4008 (mulf : (⟨S32768x1, .f32⟩ : BufTy).Contents (Elt F) → (⟨S32768x1, .f32⟩ : BufTy).Contents (Elt F) → (⟨S32768x1, .f32⟩ : BufTy).Contents (Elt F)),
    StableHlo.unary main_v4004 main_v4009 (Host.absf : (⟨S32768x1, .f32⟩ : BufTy).Contents (Elt F) → (⟨S32768x1, .f32⟩ : BufTy).Contents (Elt F)),
    StableHlo.unary main_v4005 main_v4010 (Host.absf : (⟨S32768x1, .f32⟩ : BufTy).Contents (Elt F) → (⟨S32768x1, .f32⟩ : BufTy).Contents (Elt F)),
    StableHlo.binary main_v4009 main_v4010 main_v4011 (minimumf : (⟨S32768x1, .f32⟩ : BufTy).Contents (Elt F) → (⟨S32768x1, .f32⟩ : BufTy).Contents (Elt F) → (⟨S32768x1, .f32⟩ : BufTy).Contents (Elt F)),
    StableHlo.binary main_v4008 main_v4011 main_v4012 (mulf : (⟨S32768x1, .f32⟩ : BufTy).Contents (Elt F) → (⟨S32768x1, .f32⟩ : BufTy).Contents (Elt F) → (⟨S32768x1, .f32⟩ : BufTy).Contents (Elt F)),
    StableHlo.nullary main_cst_1253 (constant S_ .f32 0x00000000#32),
    StableHlo.unary main_cst_1253 main_v4013 (broadcastInDim S32768x1 ![] bcast_S_S32768x1 : (⟨S_, .f32⟩ : BufTy).Contents (Elt F) → (⟨S32768x1, .f32⟩ : BufTy).Contents (Elt F)),
    StableHlo.binary main_v4012 main_v4013 main_v4014 (cmpf .ole : (⟨S32768x1, .f32⟩ : BufTy).Contents (Elt F) → (⟨S32768x1, .f32⟩ : BufTy).Contents (Elt F) → (⟨S32768x1, .i1⟩ : BufTy).Contents (Elt F)),
    StableHlo.unary main_v4014 main_v4015 (uitofp .f32 : (⟨S32768x1, .i1⟩ : BufTy).Contents (Elt F) → (⟨S32768x1, .f32⟩ : BufTy).Contents (Elt F)),
    StableHlo.nullary main_cst_1254 (constant S_ .f32 0x40000000#32),
    StableHlo.unary main_cst_1254 main_v4016 (broadcastInDim S32768x1 ![] bcast_S_S32768x1 : (⟨S_, .f32⟩ : BufTy).Contents (Elt F) → (⟨S32768x1, .f32⟩ : BufTy).Contents (Elt F)),
    StableHlo.binary main_v4016 main_v4015 main_v4017 (mulf : (⟨S32768x1, .f32⟩ : BufTy).Contents (Elt F) → (⟨S32768x1, .f32⟩ : BufTy).Contents (Elt F) → (⟨S32768x1, .f32⟩ : BufTy).Contents (Elt F)),
    StableHlo.nullary main_cst_1255 (constant S_ .f32 0x3F800000#32),
    StableHlo.unary main_cst_1255 main_v4018 (broadcastInDim S32768x1 ![] bcast_S_S32768x1 : (⟨S_, .f32⟩ : BufTy).Contents (Elt F) → (⟨S32768x1, .f32⟩ : BufTy).Contents (Elt F)),
    StableHlo.binary main_v4018 main_v4017 main_v4019 (subf : (⟨S32768x1, .f32⟩ : BufTy).Contents (Elt F) → (⟨S32768x1, .f32⟩ : BufTy).Contents (Elt F) → (⟨S32768x1, .f32⟩ : BufTy).Contents (Elt F)),
    StableHlo.binary main_v4019 main_v4002 main_v4020 (mulf : (⟨S32768x1, .f32⟩ : BufTy).Contents (Elt F) → (⟨S32768x1, .f32⟩ : BufTy).Contents (Elt F) → (⟨S32768x1, .f32⟩ : BufTy).Contents (Elt F)),
    StableHlo.binary main_v4020 main_v4003 main_v4021 (addf : (⟨S32768x1, .f32⟩ : BufTy).Contents (Elt F) → (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_87 (d : Dev nD) : main_part87 (F := F) d = seq ops87 := by
  simp only [main_part87, fn_clip_4.body, fn_clip_5.body, fn_clip_6.body, seq, bind_assoc, pure_bind]
  rfl

/-- Every operation of the window touches TensorCore references only. -/
theorem sub_87 : (ops87 : List (HloOp τ sig (Elt F))).Forall fun op => op.bufs ⊆ tcRefs τ sig :=
  ⟨unary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., binary_bufs_sub .., binary_bufs_sub ..⟩

/-- Every operation of the window determines all it writes. -/
theorem fresh_87 : (ops87 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_87 (V : Valuation τ sig (Elt F)) :
    after ops87 V (main_arg0 : DevRef τ sig) = V (main_arg0 : DevRef τ sig) := by
  simp only [after_cons, after_nil]
  rfl

end Cert.ReferenceIdeal.RefRun

end
-- ==== Proof.RefRun.W11.lean ====
import proofs.«134088_j24077586662034_2_alg».proof.Defs
import proofs.«134088_j24077586662034_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 5281 … 5340, in order (70 of them): a statement's own operation, or, for a call
    of a clip function, the six operations of its body over that call's buffers. -/
abbrev ops88 : List (HloOp τ sig (Elt F)) :=
  [ StableHlo.nullary main_cst_1256 (constant S_ .f32 0x00000000#32),
    StableHlo.unary main_cst_1256 main_v4022 (broadcastInDim S32768x1 ![] bcast_S_S32768x1 : (⟨S_, .f32⟩ : BufTy).Contents (Elt F) → (⟨S32768x1, .f32⟩ : BufTy).Contents (Elt F)),
    StableHlo.binary main_v4021 main_v4022 main_v4023 (cmpf .ole : (⟨S32768x1, .f32⟩ : BufTy).Contents (Elt F) → (⟨S32768x1, .f32⟩ : BufTy).Contents (Elt F) → (⟨S32768x1, .i1⟩ : BufTy).Contents (Elt F)),
    StableHlo.unary main_v4023 main_v4024 (uitofp .f32 : (⟨S32768x1, .i1⟩ : BufTy).Contents (Elt F) → (⟨S32768x1, .f32⟩ : BufTy).Contents (Elt F)),
    StableHlo.binary main_v4015 main_v4024 main_v4025 (cmpf .une : (⟨S32768x1, .f32⟩ : BufTy).Contents (Elt F) → (⟨S32768x1, .f32⟩ : BufTy).Contents (Elt F) → (⟨S32768x1, .i1⟩ : BufTy).Contents (Elt F)),
    StableHlo.unary main_v4025 main_v4026 (uitofp .f32 : (⟨S32768x1, .i1⟩ : BufTy).Contents (Elt F) → (⟨S32768x1, .f32⟩ : BufTy).Contents (Elt F)),
    StableHlo.binary main_v4026 main_v4024 main_v4027 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4015 main_v4024 main_v4028 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1257 (constant S_ .f32 0x40000000#32),
    StableHlo.unary main_cst_1257 main_v4029 (broadcastInDim S32768x2 ![] bcast_S_S32768x2 : (⟨S_, .f32⟩ : BufTy).Contents (Elt F) → (⟨S32768x2, .f32⟩ : BufTy).Contents (Elt F)),
    StableHlo.binary main_v4029 main_v4027 main_v4030 (mulf : (⟨S32768x2, .f32⟩ : BufTy).Contents (Elt F) → (⟨S32768x2, .f32⟩ : BufTy).Contents (Elt F) → (⟨S32768x2, .f32⟩ : BufTy).Contents (Elt F)),
    StableHlo.nullary main_cst_1258 (constant S_ .f32 0x3F800000#32),
    StableHlo.unary main_cst_1258 main_v4031 (broadcastInDim S32768x2 ![] bcast_S_S32768x2 : (⟨S_, .f32⟩ : BufTy).Contents (Elt F) → (⟨S32768x2, .f32⟩ : BufTy).Contents (Elt F)),
    StableHlo.binary main_v4031 main_v4030 main_v4032 (subf : (⟨S32768x2, .f32⟩ : BufTy).Contents (Elt F) → (⟨S32768x2, .f32⟩ : BufTy).Contents (Elt F) → (⟨S32768x2, .f32⟩ : BufTy).Contents (Elt F)),
    StableHlo.binary main_v4032 main_v3991 main_v4033 (mulf : (⟨S32768x2, .f32⟩ : BufTy).Contents (Elt F) → (⟨S32768x2, .f32⟩ : BufTy).Contents (Elt F) → (⟨S32768x2, .f32⟩ : BufTy).Contents (Elt F)),
    StableHlo.binary main_v4033 main_v3992 main_v4034 (addf : (⟨S32768x2, .f32⟩ : BufTy).Contents (Elt F) → (⟨S32768x2, .f32⟩ : BufTy).Contents (Elt F) → (⟨S32768x2, .f32⟩ : BufTy).Contents (Elt F)),
    StableHlo.unary main_v4034 main_v4035 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4034 main_v4036 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1259 (constant S_ .f32 0xC1F00000#32),
    StableHlo.nullary main_cst_1260 (constant S_ .f32 0x41F00000#32),
    StableHlo.TRef.unary (.of main_cst_1259 : StableHlo.TRef sig ⟨S_, .f32⟩) main_call362.v0 id,
    StableHlo.TRef.unary main_call362.v0 main_call362.v1 (broadcastInDim S32768x1 ![] bcast_S_S32768x1),
    StableHlo.TRef.binary main_call362.v1 (.of main_v4035 : StableHlo.TRef sig ⟨S32768x1, .f32⟩) main_call362.v2 maximumf,
    StableHlo.TRef.unary (.of main_cst_1260 : StableHlo.TRef sig ⟨S_, .f32⟩) main_call362.v3 id,
    StableHlo.TRef.unary main_call362.v3 main_call362.v4 (broadcastInDim S32768x1 ![] bcast_S_S32768x1),
    StableHlo.TRef.binary main_call362.v4 main_call362.v2 main_call362.v5 minimumf,
    StableHlo.nullary main_cst_1261 (constant S_ .f32 0xC1F00000#32),
    StableHlo.nullary main_cst_1262 (constant S_ .f32 0x41F00000#32),
    StableHlo.TRef.unary (.of main_cst_1261 : StableHlo.TRef sig ⟨S_, .f32⟩) main_call363.v0 id,
    StableHlo.TRef.unary main_call363.v0 main_call363.v1 (broadcastInDim S32768x1 ![] bcast_S_S32768x1),
    StableHlo.TRef.binary main_call363.v1 (.of main_v4036 : StableHlo.TRef sig ⟨S32768x1, .f32⟩) main_call363.v2 maximumf,
    StableHlo.TRef.unary (.of main_cst_1262 : StableHlo.TRef sig ⟨S_, .f32⟩) main_call363.v3 id,
    StableHlo.TRef.unary main_call363.v3 main_call363.v4 (broadcastInDim S32768x1 ![] bcast_S_S32768x1),
    StableHlo.TRef.binary main_call363.v4 main_call363.v2 main_call363.v5 minimumf,
    StableHlo.unary main_v4037 main_v4039 (Host.sign : (⟨S32768x1, .f32⟩ : BufTy).Contents (Elt F) → (⟨S32768x1, .f32⟩ : BufTy).Contents (Elt F)),
    StableHlo.unary main_v4038 main_v4040 (Host.sign : (⟨S32768x1, .f32⟩ : BufTy).Contents (Elt F) → (⟨S32768x1, .f32⟩ : BufTy).Contents (Elt F)),
    StableHlo.binary main_v4039 main_v4040 main_v4041 (mulf : (⟨S32768x1, .f32⟩ : BufTy).Contents (Elt F) → (⟨S32768x1, .f32⟩ : BufTy).Contents (Elt F) → (⟨S32768x1, .f32⟩ : BufTy).Contents (Elt F)),
    StableHlo.unary main_v4037 main_v4042 (Host.absf : (⟨S32768x1, .f32⟩ : BufTy).Contents (Elt F) → (⟨S32768x1, .f32⟩ : BufTy).Contents (Elt F)),
    StableHlo.unary main_v4038 main_v4043 (Host.absf : (⟨S32768x1, .f32⟩ : BufTy).Contents (Elt F) → (⟨S32768x1, .f32⟩ : BufTy).Contents (Elt F)),
    StableHlo.binary main_v4042 main_v4043 main_v4044 (minimumf : (⟨S32768x1, .f32⟩ : BufTy).Contents (Elt F) → (⟨S32768x1, .f32⟩ : BufTy).Contents (Elt F) → (⟨S32768x1, .f32⟩ : BufTy).Contents (Elt F)),
    StableHlo.binary main_v4041 main_v4044 main_v4045 (mulf : (⟨S32768x1, .f32⟩ : BufTy).Contents (Elt F) → (⟨S32768x1, .f32⟩ : BufTy).Contents (Elt F) → (⟨S32768x1, .f32⟩ : BufTy).Contents (Elt F)),
    StableHlo.nullary main_cst_1263 (constant S_ .f32 0x00000000#32),
    StableHlo.unary main_cst_1263 main_v4046 (broadcastInDim S32768x1 ![] bcast_S_S32768x1 : (⟨S_, .f32⟩ : BufTy).Contents (Elt F) → (⟨S32768x1, .f32⟩ : BufTy).Contents (Elt F)),
    StableHlo.binary main_v4045 main_v4046 main_v4047 (cmpf .ole : (⟨S32768x1, .f32⟩ : BufTy).Contents (Elt F) → (⟨S32768x1, .f32⟩ : BufTy).Contents (Elt F) → (⟨S32768x1, .i1⟩ : BufTy).Contents (Elt F)),
    StableHlo.unary main_v4047 main_v4048 (uitofp .f32 : (⟨S32768x1, .i1⟩ : BufTy).Contents (Elt F) → (⟨S32768x1, .f32⟩ : BufTy).Contents (Elt F)),
    StableHlo.nullary main_cst_1264 (constant S_ .f32 0x40000000#32),
    StableHlo.unary main_cst_1264 main_v4049 (broadcastInDim S32768x1 ![] bcast_S_S32768x1 : (⟨S_, .f32⟩ : BufTy).Contents (Elt F) → (⟨S32768x1, .f32⟩ : BufTy).Contents (Elt F)),
    StableHlo.binary main_v4049 main_v4048 main_v4050 (mulf : (⟨S32768x1, .f32⟩ : BufTy).Contents (Elt F) → (⟨S32768x1, .f32⟩ : BufTy).Contents (Elt F) → (⟨S32768x1, .f32⟩ : BufTy).Contents (Elt F)),
    StableHlo.nullary main_cst_1265 (constant S_ .f32 0x3F800000#32),
    StableHlo.unary main_cst_1265 main_v4051 (broadcastInDim S32768x1 ![] bcast_S_S32768x1 : (⟨S_, .f32⟩ : BufTy).Contents (Elt F) → (⟨S32768x1, .f32⟩ : BufTy).Contents (Elt F)),
    StableHlo.binary main_v4051 main_v4050 main_v4052 (subf : (⟨S32768x1, .f32⟩ : BufTy).Contents (Elt F) → (⟨S32768x1, .f32⟩ : BufTy).Contents (Elt F) → (⟨S32768x1, .f32⟩ : BufTy).Contents (Elt F)),
    StableHlo.binary main_v4052 main_v4035 main_v4053 (mulf : (⟨S32768x1, .f32⟩ : BufTy).Contents (Elt F) → (⟨S32768x1, .f32⟩ : BufTy).Contents (Elt F) → (⟨S32768x1, .f32⟩ : BufTy).Contents (Elt F)),
    StableHlo.binary main_v4053 main_v4036 main_v4054 (addf : (⟨S32768x1, .f32⟩ : BufTy).Contents (Elt F) → (⟨S32768x1, .f32⟩ : BufTy).Contents (Elt F) → (⟨S32768x1, .f32⟩ : BufTy).Contents (Elt F)),
    StableHlo.nullary main_cst_1266 (constant S_ .f32 0x00000000#32),
    StableHlo.unary main_cst_1266 main_v4055 (broadcastInDim S32768x1 ![] bcast_S_S32768x1 : (⟨S_, .f32⟩ : BufTy).Contents (Elt F) → (⟨S32768x1, .f32⟩ : BufTy).Contents (Elt F)),
    StableHlo.binary main_v4054 main_v4055 main_v4056 (cmpf .ole : (⟨S32768x1, .f32⟩ : BufTy).Contents (Elt F) → (⟨S32768x1, .f32⟩ : BufTy).Contents (Elt F) → (⟨S32768x1, .i1⟩ : BufTy).Contents (Elt F)),
    StableHlo.unary main_v4056 main_v4057 (uitofp .f32 : (⟨S32768x1, .i1⟩ : BufTy).Contents (Elt F) → (⟨S32768x1, .f32⟩ : BufTy).Contents (Elt F)),
    StableHlo.binary main_v4048 main_v4057 main_v4058 (cmpf .une : (⟨S32768x1, .f32⟩ : BufTy).Contents (Elt F) → (⟨S32768x1, .f32⟩ : BufTy).Contents (Elt F) → (⟨S32768x1, .i1⟩ : BufTy).Contents (Elt F)),
    StableHlo.unary main_v4058 main_v4059 (uitofp .f32 : (⟨S32768x1, .i1⟩ : BufTy).Contents (Elt F) → (⟨S32768x1, .f32⟩ : BufTy).Contents (Elt F)),
    StableHlo.binary main_v4059 main_v4057 main_v4060 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4048 main_v4057 main_v4061 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4027 main_v4060 main_v4062 (cmpf .une : (⟨S32768x2, .f32⟩ : BufTy).Contents (Elt F) → (⟨S32768x2, .f32⟩ : BufTy).Contents (Elt F) → (⟨S32768x2, .i1⟩ : BufTy).Contents (Elt F)),
    StableHlo.unary main_v4062 main_v4063 (uitofp .f32 : (⟨S32768x2, .i1⟩ : BufTy).Contents (Elt F) → (⟨S32768x2, .f32⟩ : BufTy).Contents (Elt F)),
    StableHlo.binary main_v4063 main_v4060 main_v4064 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v4028 main_v4061 main_v4065 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_1267 (constant S_ .f32 0x40000000#32),
    StableHlo.unary main_cst_1267 main_v4066 (broadcastInDim S32768x4 ![] bcast_S_S32768x4 : (⟨S_, .f32⟩ : BufTy).Contents (Elt F) → (⟨S32768x4, .f32⟩ : BufTy).Contents (Elt F)),
    StableHlo.binary main_v4066 main_v4064 main_v4067 (mulf : (⟨S32768x4, .f32⟩ : BufTy).Contents (Elt F) → (⟨S32768x4, .f32⟩ : BufTy).Contents (Elt F) → (⟨S32768x4, .f32⟩ : BufTy).Contents (Elt F)),
    StableHlo.nullary main_cst_1268 (constant S_ .f32 0x3F800000#32),
    StableHlo.unary main_cst_1268 main_v4068 (broadcastInDim S32768x4 ![] bcast_S_S32768x4 : (⟨S_, .f32⟩ : BufTy).Contents (Elt F) → (⟨S32768x4, .f32⟩ : BufTy).Contents (Elt F)) ]

set_option maxRecDepth 8192 in
/-- The window is that straight line: each clip function unfolded at its calls, the sequencing reassociated. -/
theorem part_eq_88 (d : Dev nD) : main_part88 (F := F) d = seq ops88 := by
  simp only [main_part88, fn_clip_6.body, seq, bind_assoc, pure_bind]
  rfl

/-- Every operation of the window touches TensorCore references only. -/
theorem sub_88 : (ops88 : List (HloOp τ sig (Elt F))).Forall fun op => op.bufs ⊆ tcRefs τ sig :=
  ⟨nullary_bufs_sub .., unary_bufs_sub .., binary_bufs_sub .., unary_bufs_sub .., binary_bufs_sub .., unary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., unary_bufs_sub .., binary_bufs_sub ..,
    binary_bufs_sub .., binary_bufs_sub .., unary_bufs_sub .., binary_bufs_sub .., binary_bufs_sub .., nullary_bufs_sub ..,
    unary_bufs_sub .., binary_bufs_sub .., nullary_bufs_sub .., unary_bufs_sub ..⟩

/-- Every operation of the window determines all it writes. -/
theorem fresh_88 : (ops88 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_88 (V : Valuation τ sig (Elt F)) :
    after ops88 V (main_arg0 : DevRef τ sig) = V (main_arg0 : DevRef τ sig) := by
  simp only [after_cons, after_nil]
  rfl

/-- The operations of @main's statements 5341 … 5400, in order (80 of them): a statement's own operation, or, for a call
    of a clip function, the six operations of its body over that call's buffers. -/
abbrev ops89 : List (HloOp τ sig (Elt F)) :=
  [ StableHlo.binary main_v4068 main_v4067 main_v4069 (subf : (⟨S32768x4, .f32⟩ : BufTy).Contents (Elt F) → (⟨S32768x4, .f32⟩ : BufTy).Contents (Elt F) → (⟨S32768x4, .f32⟩ : BufTy).Contents (Elt F)),
    StableHlo.binary main_v4069 main_v3980 main_v4070 (mulf : (⟨S32768x4, .f32⟩ : BufTy).Contents (Elt F) → (⟨S32768x4, .f32⟩ : BufTy).Contents (Elt F) → (⟨S32768x4, .f32⟩ : BufTy).Contents (Elt F)),
    StableHlo.binary main_v4070 main_v3981 main_v4071 (addf : (⟨S32768x4, .f32⟩ : BufTy).Contents (Elt F) → (⟨S32768x4, .f32⟩ : BufTy).Contents (Elt F) → (⟨S32768x4, .f32⟩ : BufTy).Contents (Elt F)),
    StableHlo.unary main_v4071 main_v4072 ((extractStridedSlice S32768x2 ![0, 0] · slices_S32768x4_S32768x2_0_0) : (⟨S32768x4, .f32⟩ : BufTy).Contents (Elt F) → (⟨S32768x2, .f32⟩ : BufTy).Contents (Elt F)),
    StableHlo.unary main_v4071 main_v4073 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1269 (constant S_ .f32 0xC1F00000#32),
    StableHlo.nullary main_cst_1270 (constant S_ .f32 0x41F00000#32),
    StableHlo.TRef.unary (.of main_cst_1269 : StableHlo.TRef sig ⟨S_, .f32⟩) main_call364.v0 id,
    StableHlo.TRef.unary main_call364.v0 main_call364.v1 (broadcastInDim S32768x2 ![] bcast_S_S32768x2),
    StableHlo.TRef.binary main_call364.v1 (.of main_v4072 : StableHlo.TRef sig ⟨S32768x2, .f32⟩) main_call364.v2 maximumf,
    StableHlo.TRef.unary (.of main_cst_1270 : StableHlo.TRef sig ⟨S_, .f32⟩) main_call364.v3 id,
    StableHlo.TRef.unary main_call364.v3 main_call364.v4 (broadcastInDim S32768x2 ![] bcast_S_S32768x2),
    StableHlo.TRef.binary main_call364.v4 main_call364.v2 main_call364.v5 minimumf,
    StableHlo.nullary main_cst_1271 (constant S_ .f32 0xC1F00000#32),
    StableHlo.nullary main_cst_1272 (constant S_ .f32 0x41F00000#32),
    StableHlo.TRef.unary (.of main_cst_1271 : StableHlo.TRef sig ⟨S_, .f32⟩) main_call365.v0 id,
    StableHlo.TRef.unary main_call365.v0 main_call365.v1 (broadcastInDim S32768x2 ![] bcast_S_S32768x2),
    StableHlo.TRef.binary main_call365.v1 (.of main_v4073 : StableHlo.TRef sig ⟨S32768x2, .f32⟩) main_call365.v2 maximumf,
    StableHlo.TRef.unary (.of main_cst_1272 : StableHlo.TRef sig ⟨S_, .f32⟩) main_call365.v3 id,
    StableHlo.TRef.unary main_call365.v3 main_call365.v4 (broadcastInDim S32768x2 ![] bcast_S_S32768x2),
    StableHlo.TRef.binary main_call365.v4 main_call365.v2 main_call365.v5 minimumf,
    StableHlo.unary main_v4074 main_v4076 (Host.sign : (⟨S32768x2, .f32⟩ : BufTy).Contents (Elt F) → (⟨S32768x2, .f32⟩ : BufTy).Contents (Elt F)),
    StableHlo.unary main_v4075 main_v4077 (Host.sign : (⟨S32768x2, .f32⟩ : BufTy).Contents (Elt F) → (⟨S32768x2, .f32⟩ : BufTy).Contents (Elt F)),
    StableHlo.binary main_v4076 main_v4077 main_v4078 (mulf : (⟨S32768x2, .f32⟩ : BufTy).Contents (Elt F) → (⟨S32768x2, .f32⟩ : BufTy).Contents (Elt F) → (⟨S32768x2, .f32⟩ : BufTy).Contents (Elt F)),
    StableHlo.unary main_v4074 main_v4079 (Host.absf : (⟨S32768x2, .f32⟩ : BufTy).Contents (Elt F) → (⟨S32768x2, .f32⟩ : BufTy).Contents (Elt F)),
    StableHlo.unary main_v4075 main_v4080 (Host.absf : (⟨S32768x2, .f32⟩ : BufTy).Contents (Elt F) → (⟨S32768x2, .f32⟩ : BufTy).Contents (Elt F)),
    StableHlo.binary main_v4079 main_v4080 main_v4081 (minimumf : (⟨S32768x2, .f32⟩ : BufTy).Contents (Elt F) → (⟨S32768x2, .f32⟩ : BufTy).Contents (Elt F) → (⟨S32768x2, .f32⟩ : BufTy).Contents (Elt F)),
    StableHlo.binary main_v4078 main_v4081 main_v4082 (mulf : (⟨S32768x2, .f32⟩ : BufTy).Contents (Elt F) → (⟨S32768x2, .f32⟩ : BufTy).Contents (Elt F) → (⟨S32768x2, .f32⟩ : BufTy).Contents (Elt F)),
    StableHlo.unary main_v4082 main_v4083 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4082 main_v4084 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1273 (constant S_ .f32 0xC1F00000#32),
    StableHlo.nullary main_cst_1274 (constant S_ .f32 0x41F00000#32),
    StableHlo.TRef.unary (.of main_cst_1273 : StableHlo.TRef sig ⟨S_, .f32⟩) main_call366.v0 id,
    StableHlo.TRef.unary main_call366.v0 main_call366.v1 (broadcastInDim S32768x1 ![] bcast_S_S32768x1),
    StableHlo.TRef.binary main_call366.v1 (.of main_v4083 : StableHlo.TRef sig ⟨S32768x1, .f32⟩) main_call366.v2 maximumf,
    StableHlo.TRef.unary (.of main_cst_1274 : StableHlo.TRef sig ⟨S_, .f32⟩) main_call366.v3 id,
    StableHlo.TRef.unary main_call366.v3 main_call366.v4 (broadcastInDim S32768x1 ![] bcast_S_S32768x1),
    StableHlo.TRef.binary main_call366.v4 main_call366.v2 main_call366.v5 minimumf,
    StableHlo.nullary main_cst_1275 (constant S_ .f32 0xC1F00000#32),
    StableHlo.nullary main_cst_1276 (constant S_ .f32 0x41F00000#32),
    StableHlo.TRef.unary (.of main_cst_1275 : StableHlo.TRef sig ⟨S_, .f32⟩) main_call367.v0 id,
    StableHlo.TRef.unary main_call367.v0 main_call367.v1 (broadcastInDim S32768x1 ![] bcast_S_S32768x1),
    StableHlo.TRef.binary main_call367.v1 (.of main_v4084 : StableHlo.TRef sig ⟨S32768x1, .f32⟩) main_call367.v2 maximumf,
    StableHlo.TRef.unary (.of main_cst_1276 : StableHlo.TRef sig ⟨S_, .f32⟩) main_call367.v3 id,
    StableHlo.TRef.unary main_call367.v3 main_call367.v4 (broadcastInDim S32768x1 ![] bcast_S_S32768x1),
    StableHlo.TRef.binary main_call367.v4 main_call367.v2 main_call367.v5 minimumf,
    StableHlo.unary main_v4085 main_v4087 (Host.sign : (⟨S32768x1, .f32⟩ : BufTy).Contents (Elt F) → (⟨S32768x1, .f32⟩ : BufTy).Contents (Elt F)),
    StableHlo.unary main_v4086 main_v4088 (Host.sign : (⟨S32768x1, .f32⟩ : BufTy).Contents (Elt F) → (⟨S32768x1, .f32⟩ : BufTy).Contents (Elt F)),
    StableHlo.binary main_v4087 main_v4088 main_v4089 (mulf : (⟨S32768x1, .f32⟩ : BufTy).Contents (Elt F) → (⟨S32768x1, .f32⟩ : BufTy).Contents (Elt F) → (⟨S32768x1, .f32⟩ : BufTy).Contents (Elt F)),
    StableHlo.unary main_v4085 main_v4090 (Host.absf : (⟨S32768x1, .f32⟩ : BufTy).Contents (Elt F) → (⟨S32768x1, .f32⟩ : BufTy).Contents (Elt F)),
    StableHlo.unary main_v4086 main_v4091 (Host.absf : (⟨S32768x1, .f32⟩ : BufTy).Contents (Elt F) → (⟨S32768x1, .f32⟩ : BufTy).Contents (Elt F)),
    StableHlo.binary main_v4090 main_v4091 main_v4092 (minimumf : (⟨S32768x1, .f32⟩ : BufTy).Contents (Elt F) → (⟨S32768x1, .f32⟩ : BufTy).Contents (Elt F) → (⟨S32768x1, .f32⟩ : BufTy).Contents (Elt F)),
    StableHlo.binary main_v4089 main_v4092 main_v4093 (mulf : (⟨S32768x1, .f32⟩ : BufTy).Contents (Elt F) → (⟨S32768x1, .f32⟩ : BufTy).Contents (Elt F) → (⟨S32768x1, .f32⟩ : BufTy).Contents (Elt F)),
    StableHlo.nullary main_cst_1277 (constant S_ .f32 0x00000000#32),
    StableHlo.unary main_cst_1277 main_v4094 (broadcastInDim S32768x1 ![] bcast_S_S32768x1 : (⟨S_, .f32⟩ : BufTy).Contents (Elt F) → (⟨S32768x1, .f32⟩ : BufTy).Contents (Elt F)),
    StableHlo.binary main_v4093 main_v4094 main_v4095 (cmpf .ole : (⟨S32768x1, .f32⟩ : BufTy).Contents (Elt F) → (⟨S32768x1, .f32⟩ : BufTy).Contents (Elt F) → (⟨S32768x1, .i1⟩ : BufTy).Contents (Elt F)),
    StableHlo.unary main_v4095 main_v4096 (uitofp .f32 : (⟨S32768x1, .i1⟩ : BufTy).Contents (Elt F) → (⟨S32768x1, .f32⟩ : BufTy).Contents (Elt F)),
    StableHlo.nullary main_cst_1278 (constant S_ .f32 0x40000000#32),
    StableHlo.unary main_cst_1278 main_v4097 (broadcastInDim S32768x1 ![] bcast_S_S32768x1 : (⟨S_, .f32⟩ : BufTy).Contents (Elt F) → (⟨S32768x1, .f32⟩ : BufTy).Contents (Elt F)),
    StableHlo.binary main_v4097 main_v4096 main_v4098 (mulf : (⟨S32768x1, .f32⟩ : BufTy).Contents (Elt F) → (⟨S32768x1, .f32⟩ : BufTy).Contents (Elt F) → (⟨S32768x1, .f32⟩ : BufTy).Contents (Elt F)),
    StableHlo.nullary main_cst_1279 (constant S_ .f32 0x3F800000#32),
    StableHlo.unary main_cst_1279 main_v4099 (broadcastInDim S32768x1 ![] bcast_S_S32768x1 : (⟨S_, .f32⟩ : BufTy).Contents (Elt F) → (⟨S32768x1, .f32⟩ : BufTy).Contents (Elt F)),
    StableHlo.binary main_v4099 main_v4098 main_v4100 (subf : (⟨S32768x1, .f32⟩ : BufTy).Contents (Elt F) → (⟨S32768x1, .f32⟩ : BufTy).Contents (Elt F) → (⟨S32768x1, .f32⟩ : BufTy).Contents (Elt F)),
    StableHlo.binary main_v4100 main_v4083 main_v4101 (mulf : (⟨S32768x1, .f32⟩ : BufTy).Contents (Elt F) → (⟨S32768x1, .f32⟩ : BufTy).Contents (Elt F) → (⟨S32768x1, .f32⟩ : BufTy).Contents (Elt F)),
    StableHlo.binary main_v4101 main_v4084 main_v4102 (addf : (⟨S32768x1, .f32⟩ : BufTy).Contents (Elt F) → (⟨S32768x1, .f32⟩ : BufTy).Contents (Elt F) → (⟨S32768x1, .f32⟩ : BufTy).Contents (Elt F)),
    StableHlo.nullary main_cst_1280 (constant S_ .f32 0x00000000#32),
    StableHlo.unary main_cst_1280 main_v4103 (broadcastInDim S32768x1 ![] bcast_S_S32768x1 : (⟨S_, .f32⟩ : BufTy).Contents (Elt F) → (⟨S32768x1, .f32⟩ : BufTy).Contents (Elt F)),
    StableHlo.binary main_v4102 main_v4103 main_v4104 (cmpf .ole : (⟨S32768x1, .f32⟩ : BufTy).Contents (Elt F) → (⟨S32768x1, .f32⟩ : BufTy).Contents (Elt F) → (⟨S32768x1, .i1⟩ : BufTy).Contents (Elt F)),
    StableHlo.unary main_v4104 main_v4105 (uitofp .f32 : (⟨S32768x1, .i1⟩ : BufTy).Contents (Elt F) → (⟨S32768x1, .f32⟩ : BufTy).Contents (Elt F)),
    StableHlo.binary main_v4096 main_v4105 main_v4106 (cmpf .une : (⟨S32768x1, .f32⟩ : BufTy).Contents (Elt F) → (⟨S32768x1, .f32⟩ : BufTy).Contents (Elt F) → (⟨S32768x1, .i1⟩ : BufTy).Contents (Elt F)),
    StableHlo.unary main_v4106 main_v4107 (uitofp .f32 : (⟨S32768x1, .i1⟩ : BufTy).Contents (Elt F) → (⟨S32768x1, .f32⟩ : BufTy).Contents (Elt F)),
    StableHlo.binary main_v4107 main_v4105 main_v4108 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4096 main_v4105 main_v4109 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1281 (constant S_ .f32 0x40000000#32),
    StableHlo.unary main_cst_1281 main_v4110 (broadcastInDim S32768x2 ![] bcast_S_S32768x2 : (⟨S_, .f32⟩ : BufTy).Contents (Elt F) → (⟨S32768x2, .f32⟩ : BufTy).Contents (Elt F)),
    StableHlo.binary main_v4110 main_v4108 main_v4111 (mulf : (⟨S32768x2, .f32⟩ : BufTy).Contents (Elt F) → (⟨S32768x2, .f32⟩ : BufTy).Contents (Elt F) → (⟨S32768x2, .f32⟩ : BufTy).Contents (Elt F)),
    StableHlo.nullary main_cst_1282 (constant S_ .f32 0x3F800000#32),
    StableHlo.unary main_cst_1282 main_v4112 (broadcastInDim S32768x2 ![] bcast_S_S32768x2 : (⟨S_, .f32⟩ : BufTy).Contents (Elt F) → (⟨S32768x2, .f32⟩ : BufTy).Contents (Elt F)),
    StableHlo.binary main_v4112 main_v4111 main_v4113 (subf : (⟨S32768x2, .f32⟩ : BufTy).Contents (Elt F) → (⟨S32768x2, .f32⟩ : BufTy).Contents (Elt F) → (⟨S32768x2, .f32⟩ : BufTy).Contents (Elt F)),
    StableHlo.binary main_v4113 main_v4072 main_v4114 (mulf : (⟨S32768x2, .f32⟩ : BufTy).Contents (Elt F) → (⟨S32768x2, .f32⟩ : BufTy).Contents (Elt F) → (⟨S32768x2, .f32⟩ : BufTy).Contents (Elt F)) ]

set_option maxRecDepth 8192 in
/-- The window is that straight line: each clip function unfolded at its calls, the sequencing reassociated. -/
theorem part_eq_89 (d : Dev nD) : main_part89 (F := F) d = seq ops89 := by
  simp only [main_part89, fn_clip_5.body, fn_clip_6.body, seq, bind_assoc, pure_bind]
  rfl

/-- Every operation of the window touches TensorCore references only. -/
theorem sub_89 : (ops89 : List (HloOp τ sig (Elt F))).Forall fun op => op.bufs ⊆ tcRefs τ sig :=
  ⟨binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub ..⟩

/-- Every operation of the window determines all it writes. -/
theorem fresh_89 : (ops89 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_89 (V : Valuation τ sig (Elt F)) :
    after ops89 V (main_arg0 : DevRef τ sig) = V (main_arg0 : DevRef τ sig) := by
  simp only [after_cons, after_nil]
  rfl

/-- The operations of @main's statements 5401 … 5460, in order (80 of them): a statement's own operation, or, for a call
    of a clip function, the six operations of its body over that call's buffers. -/
abbrev ops90 : List (HloOp τ sig (Elt F)) :=
  [ StableHlo.binary main_v4114 main_v4073 main_v4115 (addf : (⟨S32768x2, .f32⟩ : BufTy).Contents (Elt F) → (⟨S32768x2, .f32⟩ : BufTy).Contents (Elt F) → (⟨S32768x2, .f32⟩ : BufTy).Contents (Elt F)),
    StableHlo.unary main_v4115 main_v4116 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4115 main_v4117 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1283 (constant S_ .f32 0xC1F00000#32),
    StableHlo.nullary main_cst_1284 (constant S_ .f32 0x41F00000#32),
    StableHlo.TRef.unary (.of main_cst_1283 : StableHlo.TRef sig ⟨S_, .f32⟩) main_call368.v0 id,
    StableHlo.TRef.unary main_call368.v0 main_call368.v1 (broadcastInDim S32768x1 ![] bcast_S_S32768x1),
    StableHlo.TRef.binary main_call368.v1 (.of main_v4116 : StableHlo.TRef sig ⟨S32768x1, .f32⟩) main_call368.v2 maximumf,
    StableHlo.TRef.unary (.of main_cst_1284 : StableHlo.TRef sig ⟨S_, .f32⟩) main_call368.v3 id,
    StableHlo.TRef.unary main_call368.v3 main_call368.v4 (broadcastInDim S32768x1 ![] bcast_S_S32768x1),
    StableHlo.TRef.binary main_call368.v4 main_call368.v2 main_call368.v5 minimumf,
    StableHlo.nullary main_cst_1285 (constant S_ .f32 0xC1F00000#32),
    StableHlo.nullary main_cst_1286 (constant S_ .f32 0x41F00000#32),
    StableHlo.TRef.unary (.of main_cst_1285 : StableHlo.TRef sig ⟨S_, .f32⟩) main_call369.v0 id,
    StableHlo.TRef.unary main_call369.v0 main_call369.v1 (broadcastInDim S32768x1 ![] bcast_S_S32768x1),
    StableHlo.TRef.binary main_call369.v1 (.of main_v4117 : StableHlo.TRef sig ⟨S32768x1, .f32⟩) main_call369.v2 maximumf,
    StableHlo.TRef.unary (.of main_cst_1286 : StableHlo.TRef sig ⟨S_, .f32⟩) main_call369.v3 id,
    StableHlo.TRef.unary main_call369.v3 main_call369.v4 (broadcastInDim S32768x1 ![] bcast_S_S32768x1),
    StableHlo.TRef.binary main_call369.v4 main_call369.v2 main_call369.v5 minimumf,
    StableHlo.unary main_v4118 main_v4120 (Host.sign : (⟨S32768x1, .f32⟩ : BufTy).Contents (Elt F) → (⟨S32768x1, .f32⟩ : BufTy).Contents (Elt F)),
    StableHlo.unary main_v4119 main_v4121 (Host.sign : (⟨S32768x1, .f32⟩ : BufTy).Contents (Elt F) → (⟨S32768x1, .f32⟩ : BufTy).Contents (Elt F)),
    StableHlo.binary main_v4120 main_v4121 main_v4122 (mulf : (⟨S32768x1, .f32⟩ : BufTy).Contents (Elt F) → (⟨S32768x1, .f32⟩ : BufTy).Contents (Elt F) → (⟨S32768x1, .f32⟩ : BufTy).Contents (Elt F)),
    StableHlo.unary main_v4118 main_v4123 (Host.absf : (⟨S32768x1, .f32⟩ : BufTy).Contents (Elt F) → (⟨S32768x1, .f32⟩ : BufTy).Contents (Elt F)),
    StableHlo.unary main_v4119 main_v4124 (Host.absf : (⟨S32768x1, .f32⟩ : BufTy).Contents (Elt F) → (⟨S32768x1, .f32⟩ : BufTy).Contents (Elt F)),
    StableHlo.binary main_v4123 main_v4124 main_v4125 (minimumf : (⟨S32768x1, .f32⟩ : BufTy).Contents (Elt F) → (⟨S32768x1, .f32⟩ : BufTy).Contents (Elt F) → (⟨S32768x1, .f32⟩ : BufTy).Contents (Elt F)),
    StableHlo.binary main_v4122 main_v4125 main_v4126 (mulf : (⟨S32768x1, .f32⟩ : BufTy).Contents (Elt F) → (⟨S32768x1, .f32⟩ : BufTy).Contents (Elt F) → (⟨S32768x1, .f32⟩ : BufTy).Contents (Elt F)),
    StableHlo.nullary main_cst_1287 (constant S_ .f32 0x00000000#32),
    StableHlo.unary main_cst_1287 main_v4127 (broadcastInDim S32768x1 ![] bcast_S_S32768x1 : (⟨S_, .f32⟩ : BufTy).Contents (Elt F) → (⟨S32768x1, .f32⟩ : BufTy).Contents (Elt F)),
    StableHlo.binary main_v4126 main_v4127 main_v4128 (cmpf .ole : (⟨S32768x1, .f32⟩ : BufTy).Contents (Elt F) → (⟨S32768x1, .f32⟩ : BufTy).Contents (Elt F) → (⟨S32768x1, .i1⟩ : BufTy).Contents (Elt F)),
    StableHlo.unary main_v4128 main_v4129 (uitofp .f32 : (⟨S32768x1, .i1⟩ : BufTy).Contents (Elt F) → (⟨S32768x1, .f32⟩ : BufTy).Contents (Elt F)),
    StableHlo.nullary main_cst_1288 (constant S_ .f32 0x40000000#32),
    StableHlo.unary main_cst_1288 main_v4130 (broadcastInDim S32768x1 ![] bcast_S_S32768x1 : (⟨S_, .f32⟩ : BufTy).Contents (Elt F) → (⟨S32768x1, .f32⟩ : BufTy).Contents (Elt F)),
    StableHlo.binary main_v4130 main_v4129 main_v4131 (mulf : (⟨S32768x1, .f32⟩ : BufTy).Contents (Elt F) → (⟨S32768x1, .f32⟩ : BufTy).Contents (Elt F) → (⟨S32768x1, .f32⟩ : BufTy).Contents (Elt F)),
    StableHlo.nullary main_cst_1289 (constant S_ .f32 0x3F800000#32),
    StableHlo.unary main_cst_1289 main_v4132 (broadcastInDim S32768x1 ![] bcast_S_S32768x1 : (⟨S_, .f32⟩ : BufTy).Contents (Elt F) → (⟨S32768x1, .f32⟩ : BufTy).Contents (Elt F)),
    StableHlo.binary main_v4132 main_v4131 main_v4133 (subf : (⟨S32768x1, .f32⟩ : BufTy).Contents (Elt F) → (⟨S32768x1, .f32⟩ : BufTy).Contents (Elt F) → (⟨S32768x1, .f32⟩ : BufTy).Contents (Elt F)),
    StableHlo.binary main_v4133 main_v4116 main_v4134 (mulf : (⟨S32768x1, .f32⟩ : BufTy).Contents (Elt F) → (⟨S32768x1, .f32⟩ : BufTy).Contents (Elt F) → (⟨S32768x1, .f32⟩ : BufTy).Contents (Elt F)),
    StableHlo.binary main_v4134 main_v4117 main_v4135 (addf : (⟨S32768x1, .f32⟩ : BufTy).Contents (Elt F) → (⟨S32768x1, .f32⟩ : BufTy).Contents (Elt F) → (⟨S32768x1, .f32⟩ : BufTy).Contents (Elt F)),
    StableHlo.nullary main_cst_1290 (constant S_ .f32 0x00000000#32),
    StableHlo.unary main_cst_1290 main_v4136 (broadcastInDim S32768x1 ![] bcast_S_S32768x1 : (⟨S_, .f32⟩ : BufTy).Contents (Elt F) → (⟨S32768x1, .f32⟩ : BufTy).Contents (Elt F)),
    StableHlo.binary main_v4135 main_v4136 main_v4137 (cmpf .ole : (⟨S32768x1, .f32⟩ : BufTy).Contents (Elt F) → (⟨S32768x1, .f32⟩ : BufTy).Contents (Elt F) → (⟨S32768x1, .i1⟩ : BufTy).Contents (Elt F)),
    StableHlo.unary main_v4137 main_v4138 (uitofp .f32 : (⟨S32768x1, .i1⟩ : BufTy).Contents (Elt F) → (⟨S32768x1, .f32⟩ : BufTy).Contents (Elt F)),
    StableHlo.binary main_v4129 main_v4138 main_v4139 (cmpf .une : (⟨S32768x1, .f32⟩ : BufTy).Contents (Elt F) → (⟨S32768x1, .f32⟩ : BufTy).Contents (Elt F) → (⟨S32768x1, .i1⟩ : BufTy).Contents (Elt F)),
    StableHlo.unary main_v4139 main_v4140 (uitofp .f32 : (⟨S32768x1, .i1⟩ : BufTy).Contents (Elt F) → (⟨S32768x1, .f32⟩ : BufTy).Contents (Elt F)),
    StableHlo.binary main_v4140 main_v4138 main_v4141 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4129 main_v4138 main_v4142 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4108 main_v4141 main_v4143 (cmpf .une : (⟨S32768x2, .f32⟩ : BufTy).Contents (Elt F) → (⟨S32768x2, .f32⟩ : BufTy).Contents (Elt F) → (⟨S32768x2, .i1⟩ : BufTy).Contents (Elt F)),
    StableHlo.unary main_v4143 main_v4144 (uitofp .f32 : (⟨S32768x2, .i1⟩ : BufTy).Contents (Elt F) → (⟨S32768x2, .f32⟩ : BufTy).Contents (Elt F)),
    StableHlo.binary main_v4144 main_v4141 main_v4145 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v4109 main_v4142 main_v4146 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v4064 main_v4145 main_v4147 (cmpf .une : (⟨S32768x4, .f32⟩ : BufTy).Contents (Elt F) → (⟨S32768x4, .f32⟩ : BufTy).Contents (Elt F) → (⟨S32768x4, .i1⟩ : BufTy).Contents (Elt F)),
    StableHlo.unary main_v4147 main_v4148 (uitofp .f32 : (⟨S32768x4, .i1⟩ : BufTy).Contents (Elt F) → (⟨S32768x4, .f32⟩ : BufTy).Contents (Elt F)),
    StableHlo.binary main_v4148 main_v4145 main_v4149 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v4065 main_v4146 main_v4150 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.nullary main_cst_1291 (constant S_ .f32 0x40000000#32),
    StableHlo.unary main_cst_1291 main_v4151 (broadcastInDim S32768x8 ![] bcast_S_S32768x8 : (⟨S_, .f32⟩ : BufTy).Contents (Elt F) → (⟨S32768x8, .f32⟩ : BufTy).Contents (Elt F)),
    StableHlo.binary main_v4151 main_v4149 main_v4152 (mulf : (⟨S32768x8, .f32⟩ : BufTy).Contents (Elt F) → (⟨S32768x8, .f32⟩ : BufTy).Contents (Elt F) → (⟨S32768x8, .f32⟩ : BufTy).Contents (Elt F)),
    StableHlo.nullary main_cst_1292 (constant S_ .f32 0x3F800000#32),
    StableHlo.unary main_cst_1292 main_v4153 (broadcastInDim S32768x8 ![] bcast_S_S32768x8 : (⟨S_, .f32⟩ : BufTy).Contents (Elt F) → (⟨S32768x8, .f32⟩ : BufTy).Contents (Elt F)),
    StableHlo.binary main_v4153 main_v4152 main_v4154 (subf : (⟨S32768x8, .f32⟩ : BufTy).Contents (Elt F) → (⟨S32768x8, .f32⟩ : BufTy).Contents (Elt F) → (⟨S32768x8, .f32⟩ : BufTy).Contents (Elt F)),
    StableHlo.binary main_v4154 main_v3969 main_v4155 (mulf : (⟨S32768x8, .f32⟩ : BufTy).Contents (Elt F) → (⟨S32768x8, .f32⟩ : BufTy).Contents (Elt F) → (⟨S32768x8, .f32⟩ : BufTy).Contents (Elt F)),
    StableHlo.binary main_v4155 main_v3970 main_v4156 (addf : (⟨S32768x8, .f32⟩ : BufTy).Contents (Elt F) → (⟨S32768x8, .f32⟩ : BufTy).Contents (Elt F) → (⟨S32768x8, .f32⟩ : BufTy).Contents (Elt F)),
    StableHlo.unary main_v4156 main_v4157 ((extractStridedSlice S32768x4 ![0, 0] · slices_S32768x8_S32768x4_0_0) : (⟨S32768x8, .f32⟩ : BufTy).Contents (Elt F) → (⟨S32768x4, .f32⟩ : BufTy).Contents (Elt F)),
    StableHlo.unary main_v4156 main_v4158 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_1293 (constant S_ .f32 0xC1F00000#32),
    StableHlo.nullary main_cst_1294 (constant S_ .f32 0x41F00000#32),
    StableHlo.TRef.unary (.of main_cst_1293 : StableHlo.TRef sig ⟨S_, .f32⟩) main_call370.v0 id,
    StableHlo.TRef.unary main_call370.v0 main_call370.v1 (broadcastInDim S32768x4 ![] bcast_S_S32768x4),
    StableHlo.TRef.binary main_call370.v1 (.of main_v4157 : StableHlo.TRef sig ⟨S32768x4, .f32⟩) main_call370.v2 maximumf,
    StableHlo.TRef.unary (.of main_cst_1294 : StableHlo.TRef sig ⟨S_, .f32⟩) main_call370.v3 id,
    StableHlo.TRef.unary main_call370.v3 main_call370.v4 (broadcastInDim S32768x4 ![] bcast_S_S32768x4),
    StableHlo.TRef.binary main_call370.v4 main_call370.v2 main_call370.v5 minimumf,
    StableHlo.nullary main_cst_1295 (constant S_ .f32 0xC1F00000#32),
    StableHlo.nullary main_cst_1296 (constant S_ .f32 0x41F00000#32),
    StableHlo.TRef.unary (.of main_cst_1295 : StableHlo.TRef sig ⟨S_, .f32⟩) main_call371.v0 id,
    StableHlo.TRef.unary main_call371.v0 main_call371.v1 (broadcastInDim S32768x4 ![] bcast_S_S32768x4),
    StableHlo.TRef.binary main_call371.v1 (.of main_v4158 : StableHlo.TRef sig ⟨S32768x4, .f32⟩) main_call371.v2 maximumf,
    StableHlo.TRef.unary (.of main_cst_1296 : StableHlo.TRef sig ⟨S_, .f32⟩) main_call371.v3 id,
    StableHlo.TRef.unary main_call371.v3 main_call371.v4 (broadcastInDim S32768x4 ![] bcast_S_S32768x4),
    StableHlo.TRef.binary main_call371.v4 main_call371.v2 main_call371.v5 minimumf ]

set_option maxRecDepth 8192 in
/-- The window is that straight line: each clip function unfolded at its calls, the sequencing reassociated. -/
theorem part_eq_90 (d : Dev nD) : main_part90 (F := F) d = seq ops90 := by
  simp only [main_part90, fn_clip_6.body, fn_clip_4.body, seq, bind_assoc, pure_bind]

/-- Every operation of the window touches TensorCore references only. -/
theorem sub_90 : (ops90 : List (HloOp τ sig (Elt F))).Forall fun op => op.bufs ⊆ tcRefs τ sig :=
  ⟨binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., unary_bufs_sub .., binary_bufs_sub .., binary_bufs_sub .., binary_bufs_sub .., unary_bufs_sub ..,
    binary_bufs_sub .., binary_bufs_sub .., binary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub ..⟩

/-- Every operation of the window determines all it writes. -/
theorem fresh_90 : (ops90 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_90 (V : Valuation τ sig (Elt F)) :
    after ops90 V (main_arg0 : DevRef τ sig) = V (main_arg0 : DevRef τ sig) := by
  simp only [after_cons, after_nil]
  rfl

/-- The operations of @main's statements 5461 … 5520, in order (80 of them): a statement's own operation, or, for a call
    of a clip function, the six operations of its body over that call's buffers. -/
abbrev ops91 : List (HloOp τ sig (Elt F)) :=
  [ StableHlo.unary main_v4159 main_v4161 (Host.sign : (⟨S32768x4, .f32⟩ : BufTy).Contents (Elt F) → (⟨S32768x4, .f32⟩ : BufTy).Contents (Elt F)),
    StableHlo.unary main_v4160 main_v4162 (Host.sign : (⟨S32768x4, .f32⟩ : BufTy).Contents (Elt F) → (⟨S32768x4, .f32⟩ : BufTy).Contents (Elt F)),
    StableHlo.binary main_v4161 main_v4162 main_v4163 (mulf : (⟨S32768x4, .f32⟩ : BufTy).Contents (Elt F) → (⟨S32768x4, .f32⟩ : BufTy).Contents (Elt F) → (⟨S32768x4, .f32⟩ : BufTy).Contents (Elt F)),
    StableHlo.unary main_v4159 main_v4164 (Host.absf : (⟨S32768x4, .f32⟩ : BufTy).Contents (Elt F) → (⟨S32768x4, .f32⟩ : BufTy).Contents (Elt F)),
    StableHlo.unary main_v4160 main_v4165 (Host.absf : (⟨S32768x4, .f32⟩ : BufTy).Contents (Elt F) → (⟨S32768x4, .f32⟩ : BufTy).Contents (Elt F)),
    StableHlo.binary main_v4164 main_v4165 main_v4166 (minimumf : (⟨S32768x4, .f32⟩ : BufTy).Contents (Elt F) → (⟨S32768x4, .f32⟩ : BufTy).Contents (Elt F) → (⟨S32768x4, .f32⟩ : BufTy).Contents (Elt F)),
    StableHlo.binary main_v4163 main_v4166 main_v4167 (mulf : (⟨S32768x4, .f32⟩ : BufTy).Contents (Elt F) → (⟨S32768x4, .f32⟩ : BufTy).Contents (Elt F) → (⟨S32768x4, .f32⟩ : BufTy).Contents (Elt F)),
    StableHlo.unary main_v4167 main_v4168 ((extractStridedSlice S32768x2 ![0, 0] · slices_S32768x4_S32768x2_0_0) : (⟨S32768x4, .f32⟩ : BufTy).Contents (Elt F) → (⟨S32768x2, .f32⟩ : BufTy).Contents (Elt F)),
    StableHlo.unary main_v4167 main_v4169 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1297 (constant S_ .f32 0xC1F00000#32),
    StableHlo.nullary main_cst_1298 (constant S_ .f32 0x41F00000#32),
    StableHlo.TRef.unary (.of main_cst_1297 : StableHlo.TRef sig ⟨S_, .f32⟩) main_call372.v0 id,
    StableHlo.TRef.unary main_call372.v0 main_call372.v1 (broadcastInDim S32768x2 ![] bcast_S_S32768x2),
    StableHlo.TRef.binary main_call372.v1 (.of main_v4168 : StableHlo.TRef sig ⟨S32768x2, .f32⟩) main_call372.v2 maximumf,
    StableHlo.TRef.unary (.of main_cst_1298 : StableHlo.TRef sig ⟨S_, .f32⟩) main_call372.v3 id,
    StableHlo.TRef.unary main_call372.v3 main_call372.v4 (broadcastInDim S32768x2 ![] bcast_S_S32768x2),
    StableHlo.TRef.binary main_call372.v4 main_call372.v2 main_call372.v5 minimumf,
    StableHlo.nullary main_cst_1299 (constant S_ .f32 0xC1F00000#32),
    StableHlo.nullary main_cst_1300 (constant S_ .f32 0x41F00000#32),
    StableHlo.TRef.unary (.of main_cst_1299 : StableHlo.TRef sig ⟨S_, .f32⟩) main_call373.v0 id,
    StableHlo.TRef.unary main_call373.v0 main_call373.v1 (broadcastInDim S32768x2 ![] bcast_S_S32768x2),
    StableHlo.TRef.binary main_call373.v1 (.of main_v4169 : StableHlo.TRef sig ⟨S32768x2, .f32⟩) main_call373.v2 maximumf,
    StableHlo.TRef.unary (.of main_cst_1300 : StableHlo.TRef sig ⟨S_, .f32⟩) main_call373.v3 id,
    StableHlo.TRef.unary main_call373.v3 main_call373.v4 (broadcastInDim S32768x2 ![] bcast_S_S32768x2),
    StableHlo.TRef.binary main_call373.v4 main_call373.v2 main_call373.v5 minimumf,
    StableHlo.unary main_v4170 main_v4172 (Host.sign : (⟨S32768x2, .f32⟩ : BufTy).Contents (Elt F) → (⟨S32768x2, .f32⟩ : BufTy).Contents (Elt F)),
    StableHlo.unary main_v4171 main_v4173 (Host.sign : (⟨S32768x2, .f32⟩ : BufTy).Contents (Elt F) → (⟨S32768x2, .f32⟩ : BufTy).Contents (Elt F)),
    StableHlo.binary main_v4172 main_v4173 main_v4174 (mulf : (⟨S32768x2, .f32⟩ : BufTy).Contents (Elt F) → (⟨S32768x2, .f32⟩ : BufTy).Contents (Elt F) → (⟨S32768x2, .f32⟩ : BufTy).Contents (Elt F)),
    StableHlo.unary main_v4170 main_v4175 (Host.absf : (⟨S32768x2, .f32⟩ : BufTy).Contents (Elt F) → (⟨S32768x2, .f32⟩ : BufTy).Contents (Elt F)),
    StableHlo.unary main_v4171 main_v4176 (Host.absf : (⟨S32768x2, .f32⟩ : BufTy).Contents (Elt F) → (⟨S32768x2, .f32⟩ : BufTy).Contents (Elt F)),
    StableHlo.binary main_v4175 main_v4176 main_v4177 (minimumf : (⟨S32768x2, .f32⟩ : BufTy).Contents (Elt F) → (⟨S32768x2, .f32⟩ : BufTy).Contents (Elt F) → (⟨S32768x2, .f32⟩ : BufTy).Contents (Elt F)),
    StableHlo.binary main_v4174 main_v4177 main_v4178 (mulf : (⟨S32768x2, .f32⟩ : BufTy).Contents (Elt F) → (⟨S32768x2, .f32⟩ : BufTy).Contents (Elt F) → (⟨S32768x2, .f32⟩ : BufTy).Contents (Elt F)),
    StableHlo.unary main_v4178 main_v4179 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4178 main_v4180 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1301 (constant S_ .f32 0xC1F00000#32),
    StableHlo.nullary main_cst_1302 (constant S_ .f32 0x41F00000#32),
    StableHlo.TRef.unary (.of main_cst_1301 : StableHlo.TRef sig ⟨S_, .f32⟩) main_call374.v0 id,
    StableHlo.TRef.unary main_call374.v0 main_call374.v1 (broadcastInDim S32768x1 ![] bcast_S_S32768x1),
    StableHlo.TRef.binary main_call374.v1 (.of main_v4179 : StableHlo.TRef sig ⟨S32768x1, .f32⟩) main_call374.v2 maximumf,
    StableHlo.TRef.unary (.of main_cst_1302 : StableHlo.TRef sig ⟨S_, .f32⟩) main_call374.v3 id,
    StableHlo.TRef.unary main_call374.v3 main_call374.v4 (broadcastInDim S32768x1 ![] bcast_S_S32768x1),
    StableHlo.TRef.binary main_call374.v4 main_call374.v2 main_call374.v5 minimumf,
    StableHlo.nullary main_cst_1303 (constant S_ .f32 0xC1F00000#32),
    StableHlo.nullary main_cst_1304 (constant S_ .f32 0x41F00000#32),
    StableHlo.TRef.unary (.of main_cst_1303 : StableHlo.TRef sig ⟨S_, .f32⟩) main_call375.v0 id,
    StableHlo.TRef.unary main_call375.v0 main_call375.v1 (broadcastInDim S32768x1 ![] bcast_S_S32768x1),
    StableHlo.TRef.binary main_call375.v1 (.of main_v4180 : StableHlo.TRef sig ⟨S32768x1, .f32⟩) main_call375.v2 maximumf,
    StableHlo.TRef.unary (.of main_cst_1304 : StableHlo.TRef sig ⟨S_, .f32⟩) main_call375.v3 id,
    StableHlo.TRef.unary main_call375.v3 main_call375.v4 (broadcastInDim S32768x1 ![] bcast_S_S32768x1),
    StableHlo.TRef.binary main_call375.v4 main_call375.v2 main_call375.v5 minimumf,
    StableHlo.unary main_v4181 main_v4183 (Host.sign : (⟨S32768x1, .f32⟩ : BufTy).Contents (Elt F) → (⟨S32768x1, .f32⟩ : BufTy).Contents (Elt F)),
    StableHlo.unary main_v4182 main_v4184 (Host.sign : (⟨S32768x1, .f32⟩ : BufTy).Contents (Elt F) → (⟨S32768x1, .f32⟩ : BufTy).Contents (Elt F)),
    StableHlo.binary main_v4183 main_v4184 main_v4185 (mulf : (⟨S32768x1, .f32⟩ : BufTy).Contents (Elt F) → (⟨S32768x1, .f32⟩ : BufTy).Contents (Elt F) → (⟨S32768x1, .f32⟩ : BufTy).Contents (Elt F)),
    StableHlo.unary main_v4181 main_v4186 (Host.absf : (⟨S32768x1, .f32⟩ : BufTy).Contents (Elt F) → (⟨S32768x1, .f32⟩ : BufTy).Contents (Elt F)),
    StableHlo.unary main_v4182 main_v4187 (Host.absf : (⟨S32768x1, .f32⟩ : BufTy).Contents (Elt F) → (⟨S32768x1, .f32⟩ : BufTy).Contents (Elt F)),
    StableHlo.binary main_v4186 main_v4187 main_v4188 (minimumf : (⟨S32768x1, .f32⟩ : BufTy).Contents (Elt F) → (⟨S32768x1, .f32⟩ : BufTy).Contents (Elt F) → (⟨S32768x1, .f32⟩ : BufTy).Contents (Elt F)),
    StableHlo.binary main_v4185 main_v4188 main_v4189 (mulf : (⟨S32768x1, .f32⟩ : BufTy).Contents (Elt F) → (⟨S32768x1, .f32⟩ : BufTy).Contents (Elt F) → (⟨S32768x1, .f32⟩ : BufTy).Contents (Elt F)),
    StableHlo.nullary main_cst_1305 (constant S_ .f32 0x00000000#32),
    StableHlo.unary main_cst_1305 main_v4190 (broadcastInDim S32768x1 ![] bcast_S_S32768x1 : (⟨S_, .f32⟩ : BufTy).Contents (Elt F) → (⟨S32768x1, .f32⟩ : BufTy).Contents (Elt F)),
    StableHlo.binary main_v4189 main_v4190 main_v4191 (cmpf .ole : (⟨S32768x1, .f32⟩ : BufTy).Contents (Elt F) → (⟨S32768x1, .f32⟩ : BufTy).Contents (Elt F) → (⟨S32768x1, .i1⟩ : BufTy).Contents (Elt F)),
    StableHlo.unary main_v4191 main_v4192 (uitofp .f32 : (⟨S32768x1, .i1⟩ : BufTy).Contents (Elt F) → (⟨S32768x1, .f32⟩ : BufTy).Contents (Elt F)),
    StableHlo.nullary main_cst_1306 (constant S_ .f32 0x40000000#32),
    StableHlo.unary main_cst_1306 main_v4193 (broadcastInDim S32768x1 ![] bcast_S_S32768x1 : (⟨S_, .f32⟩ : BufTy).Contents (Elt F) → (⟨S32768x1, .f32⟩ : BufTy).Contents (Elt F)),
    StableHlo.binary main_v4193 main_v4192 main_v4194 (mulf : (⟨S32768x1, .f32⟩ : BufTy).Contents (Elt F) → (⟨S32768x1, .f32⟩ : BufTy).Contents (Elt F) → (⟨S32768x1, .f32⟩ : BufTy).Contents (Elt F)),
    StableHlo.nullary main_cst_1307 (constant S_ .f32 0x3F800000#32),
    StableHlo.unary main_cst_1307 main_v4195 (broadcastInDim S32768x1 ![] bcast_S_S32768x1 : (⟨S_, .f32⟩ : BufTy).Contents (Elt F) → (⟨S32768x1, .f32⟩ : BufTy).Contents (Elt F)),
    StableHlo.binary main_v4195 main_v4194 main_v4196 (subf : (⟨S32768x1, .f32⟩ : BufTy).Contents (Elt F) → (⟨S32768x1, .f32⟩ : BufTy).Contents (Elt F) → (⟨S32768x1, .f32⟩ : BufTy).Contents (Elt F)),
    StableHlo.binary main_v4196 main_v4179 main_v4197 (mulf : (⟨S32768x1, .f32⟩ : BufTy).Contents (Elt F) → (⟨S32768x1, .f32⟩ : BufTy).Contents (Elt F) → (⟨S32768x1, .f32⟩ : BufTy).Contents (Elt F)),
    StableHlo.binary main_v4197 main_v4180 main_v4198 (addf : (⟨S32768x1, .f32⟩ : BufTy).Contents (Elt F) → (⟨S32768x1, .f32⟩ : BufTy).Contents (Elt F) → (⟨S32768x1, .f32⟩ : BufTy).Contents (Elt F)),
    StableHlo.nullary main_cst_1308 (constant S_ .f32 0x00000000#32),
    StableHlo.unary main_cst_1308 main_v4199 (broadcastInDim S32768x1 ![] bcast_S_S32768x1 : (⟨S_, .f32⟩ : BufTy).Contents (Elt F) → (⟨S32768x1, .f32⟩ : BufTy).Contents (Elt F)),
    StableHlo.binary main_v4198 main_v4199 main_v4200 (cmpf .ole : (⟨S32768x1, .f32⟩ : BufTy).Contents (Elt F) → (⟨S32768x1, .f32⟩ : BufTy).Contents (Elt F) → (⟨S32768x1, .i1⟩ : BufTy).Contents (Elt F)),
    StableHlo.unary main_v4200 main_v4201 (uitofp .f32 : (⟨S32768x1, .i1⟩ : BufTy).Contents (Elt F) → (⟨S32768x1, .f32⟩ : BufTy).Contents (Elt F)),
    StableHlo.binary main_v4192 main_v4201 main_v4202 (cmpf .une : (⟨S32768x1, .f32⟩ : BufTy).Contents (Elt F) → (⟨S32768x1, .f32⟩ : BufTy).Contents (Elt F) → (⟨S32768x1, .i1⟩ : BufTy).Contents (Elt F)),
    StableHlo.unary main_v4202 main_v4203 (uitofp .f32 : (⟨S32768x1, .i1⟩ : BufTy).Contents (Elt F) → (⟨S32768x1, .f32⟩ : BufTy).Contents (Elt F)),
    StableHlo.binary main_v4203 main_v4201 main_v4204 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4192 main_v4201 main_v4205 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1309 (constant S_ .f32 0x40000000#32),
    StableHlo.unary main_cst_1309 main_v4206 (broadcastInDim S32768x2 ![] bcast_S_S32768x2 : (⟨S_, .f32⟩ : BufTy).Contents (Elt F) → (⟨S32768x2, .f32⟩ : BufTy).Contents (Elt F)),
    StableHlo.binary main_v4206 main_v4204 main_v4207 (mulf : (⟨S32768x2, .f32⟩ : BufTy).Contents (Elt F) → (⟨S32768x2, .f32⟩ : BufTy).Contents (Elt F) → (⟨S32768x2, .f32⟩ : BufTy).Contents (Elt F)) ]

set_option maxRecDepth 8192 in
/-- The window is that straight line: each clip function unfolded at its calls, the sequencing reassociated. -/
theorem part_eq_91 (d : Dev nD) : main_part91 (F := F) d = seq ops91 := by
  simp only [main_part91, fn_clip_5.body, fn_clip_6.body, seq, bind_assoc, pure_bind]
  rfl

/-- Every operation of the window touches TensorCore references only. -/
theorem sub_91 : (ops91 : List (HloOp τ sig (Elt F))).Forall fun op => op.bufs ⊆ tcRefs τ sig :=
  ⟨unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    unary_bufs_sub .., binary_bufs_sub .., unary_bufs_sub .., binary_bufs_sub .., binary_bufs_sub .., nullary_bufs_sub ..,
    unary_bufs_sub .., binary_bufs_sub ..⟩

/-- Every operation of the window determines all it writes. -/
theorem fresh_91 : (ops91 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_91 (V : Valuation τ sig (Elt F)) :
    after ops91 V (main_arg0 : DevRef τ sig) = V (main_arg0 : DevRef τ sig) := by
  simp only [after_cons, after_nil]
  rfl

/-- The operations of @main's statements 5521 … 5580, in order (80 of them): a statement's own operation, or, for a call
    of a clip function, the six operations of its body over that call's buffers. -/
abbrev ops92 : List (HloOp τ sig (Elt F)) :=
  [ StableHlo.nullary main_cst_1310 (constant S_ .f32 0x3F800000#32),
    StableHlo.unary main_cst_1310 main_v4208 (broadcastInDim S32768x2 ![] bcast_S_S32768x2 : (⟨S_, .f32⟩ : BufTy).Contents (Elt F) → (⟨S32768x2, .f32⟩ : BufTy).Contents (Elt F)),
    StableHlo.binary main_v4208 main_v4207 main_v4209 (subf : (⟨S32768x2, .f32⟩ : BufTy).Contents (Elt F) → (⟨S32768x2, .f32⟩ : BufTy).Contents (Elt F) → (⟨S32768x2, .f32⟩ : BufTy).Contents (Elt F)),
    StableHlo.binary main_v4209 main_v4168 main_v4210 (mulf : (⟨S32768x2, .f32⟩ : BufTy).Contents (Elt F) → (⟨S32768x2, .f32⟩ : BufTy).Contents (Elt F) → (⟨S32768x2, .f32⟩ : BufTy).Contents (Elt F)),
    StableHlo.binary main_v4210 main_v4169 main_v4211 (addf : (⟨S32768x2, .f32⟩ : BufTy).Contents (Elt F) → (⟨S32768x2, .f32⟩ : BufTy).Contents (Elt F) → (⟨S32768x2, .f32⟩ : BufTy).Contents (Elt F)),
    StableHlo.unary main_v4211 main_v4212 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4211 main_v4213 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1311 (constant S_ .f32 0xC1F00000#32),
    StableHlo.nullary main_cst_1312 (constant S_ .f32 0x41F00000#32),
    StableHlo.TRef.unary (.of main_cst_1311 : StableHlo.TRef sig ⟨S_, .f32⟩) main_call376.v0 id,
    StableHlo.TRef.unary main_call376.v0 main_call376.v1 (broadcastInDim S32768x1 ![] bcast_S_S32768x1),
    StableHlo.TRef.binary main_call376.v1 (.of main_v4212 : StableHlo.TRef sig ⟨S32768x1, .f32⟩) main_call376.v2 maximumf,
    StableHlo.TRef.unary (.of main_cst_1312 : StableHlo.TRef sig ⟨S_, .f32⟩) main_call376.v3 id,
    StableHlo.TRef.unary main_call376.v3 main_call376.v4 (broadcastInDim S32768x1 ![] bcast_S_S32768x1),
    StableHlo.TRef.binary main_call376.v4 main_call376.v2 main_call376.v5 minimumf,
    StableHlo.nullary main_cst_1313 (constant S_ .f32 0xC1F00000#32),
    StableHlo.nullary main_cst_1314 (constant S_ .f32 0x41F00000#32),
    StableHlo.TRef.unary (.of main_cst_1313 : StableHlo.TRef sig ⟨S_, .f32⟩) main_call377.v0 id,
    StableHlo.TRef.unary main_call377.v0 main_call377.v1 (broadcastInDim S32768x1 ![] bcast_S_S32768x1),
    StableHlo.TRef.binary main_call377.v1 (.of main_v4213 : StableHlo.TRef sig ⟨S32768x1, .f32⟩) main_call377.v2 maximumf,
    StableHlo.TRef.unary (.of main_cst_1314 : StableHlo.TRef sig ⟨S_, .f32⟩) main_call377.v3 id,
    StableHlo.TRef.unary main_call377.v3 main_call377.v4 (broadcastInDim S32768x1 ![] bcast_S_S32768x1),
    StableHlo.TRef.binary main_call377.v4 main_call377.v2 main_call377.v5 minimumf,
    StableHlo.unary main_v4214 main_v4216 (Host.sign : (⟨S32768x1, .f32⟩ : BufTy).Contents (Elt F) → (⟨S32768x1, .f32⟩ : BufTy).Contents (Elt F)),
    StableHlo.unary main_v4215 main_v4217 (Host.sign : (⟨S32768x1, .f32⟩ : BufTy).Contents (Elt F) → (⟨S32768x1, .f32⟩ : BufTy).Contents (Elt F)),
    StableHlo.binary main_v4216 main_v4217 main_v4218 (mulf : (⟨S32768x1, .f32⟩ : BufTy).Contents (Elt F) → (⟨S32768x1, .f32⟩ : BufTy).Contents (Elt F) → (⟨S32768x1, .f32⟩ : BufTy).Contents (Elt F)),
    StableHlo.unary main_v4214 main_v4219 (Host.absf : (⟨S32768x1, .f32⟩ : BufTy).Contents (Elt F) → (⟨S32768x1, .f32⟩ : BufTy).Contents (Elt F)),
    StableHlo.unary main_v4215 main_v4220 (Host.absf : (⟨S32768x1, .f32⟩ : BufTy).Contents (Elt F) → (⟨S32768x1, .f32⟩ : BufTy).Contents (Elt F)),
    StableHlo.binary main_v4219 main_v4220 main_v4221 (minimumf : (⟨S32768x1, .f32⟩ : BufTy).Contents (Elt F) → (⟨S32768x1, .f32⟩ : BufTy).Contents (Elt F) → (⟨S32768x1, .f32⟩ : BufTy).Contents (Elt F)),
    StableHlo.binary main_v4218 main_v4221 main_v4222 (mulf : (⟨S32768x1, .f32⟩ : BufTy).Contents (Elt F) → (⟨S32768x1, .f32⟩ : BufTy).Contents (Elt F) → (⟨S32768x1, .f32⟩ : BufTy).Contents (Elt F)),
    StableHlo.nullary main_cst_1315 (constant S_ .f32 0x00000000#32),
    StableHlo.unary main_cst_1315 main_v4223 (broadcastInDim S32768x1 ![] bcast_S_S32768x1 : (⟨S_, .f32⟩ : BufTy).Contents (Elt F) → (⟨S32768x1, .f32⟩ : BufTy).Contents (Elt F)),
    StableHlo.binary main_v4222 main_v4223 main_v4224 (cmpf .ole : (⟨S32768x1, .f32⟩ : BufTy).Contents (Elt F) → (⟨S32768x1, .f32⟩ : BufTy).Contents (Elt F) → (⟨S32768x1, .i1⟩ : BufTy).Contents (Elt F)),
    StableHlo.unary main_v4224 main_v4225 (uitofp .f32 : (⟨S32768x1, .i1⟩ : BufTy).Contents (Elt F) → (⟨S32768x1, .f32⟩ : BufTy).Contents (Elt F)),
    StableHlo.nullary main_cst_1316 (constant S_ .f32 0x40000000#32),
    StableHlo.unary main_cst_1316 main_v4226 (broadcastInDim S32768x1 ![] bcast_S_S32768x1 : (⟨S_, .f32⟩ : BufTy).Contents (Elt F) → (⟨S32768x1, .f32⟩ : BufTy).Contents (Elt F)),
    StableHlo.binary main_v4226 main_v4225 main_v4227 (mulf : (⟨S32768x1, .f32⟩ : BufTy).Contents (Elt F) → (⟨S32768x1, .f32⟩ : BufTy).Contents (Elt F) → (⟨S32768x1, .f32⟩ : BufTy).Contents (Elt F)),
    StableHlo.nullary main_cst_1317 (constant S_ .f32 0x3F800000#32),
    StableHlo.unary main_cst_1317 main_v4228 (broadcastInDim S32768x1 ![] bcast_S_S32768x1 : (⟨S_, .f32⟩ : BufTy).Contents (Elt F) → (⟨S32768x1, .f32⟩ : BufTy).Contents (Elt F)),
    StableHlo.binary main_v4228 main_v4227 main_v4229 (subf : (⟨S32768x1, .f32⟩ : BufTy).Contents (Elt F) → (⟨S32768x1, .f32⟩ : BufTy).Contents (Elt F) → (⟨S32768x1, .f32⟩ : BufTy).Contents (Elt F)),
    StableHlo.binary main_v4229 main_v4212 main_v4230 (mulf : (⟨S32768x1, .f32⟩ : BufTy).Contents (Elt F) → (⟨S32768x1, .f32⟩ : BufTy).Contents (Elt F) → (⟨S32768x1, .f32⟩ : BufTy).Contents (Elt F)),
    StableHlo.binary main_v4230 main_v4213 main_v4231 (addf : (⟨S32768x1, .f32⟩ : BufTy).Contents (Elt F) → (⟨S32768x1, .f32⟩ : BufTy).Contents (Elt F) → (⟨S32768x1, .f32⟩ : BufTy).Contents (Elt F)),
    StableHlo.nullary main_cst_1318 (constant S_ .f32 0x00000000#32),
    StableHlo.unary main_cst_1318 main_v4232 (broadcastInDim S32768x1 ![] bcast_S_S32768x1 : (⟨S_, .f32⟩ : BufTy).Contents (Elt F) → (⟨S32768x1, .f32⟩ : BufTy).Contents (Elt F)),
    StableHlo.binary main_v4231 main_v4232 main_v4233 (cmpf .ole : (⟨S32768x1, .f32⟩ : BufTy).Contents (Elt F) → (⟨S32768x1, .f32⟩ : BufTy).Contents (Elt F) → (⟨S32768x1, .i1⟩ : BufTy).Contents (Elt F)),
    StableHlo.unary main_v4233 main_v4234 (uitofp .f32 : (⟨S32768x1, .i1⟩ : BufTy).Contents (Elt F) → (⟨S32768x1, .f32⟩ : BufTy).Contents (Elt F)),
    StableHlo.binary main_v4225 main_v4234 main_v4235 (cmpf .une : (⟨S32768x1, .f32⟩ : BufTy).Contents (Elt F) → (⟨S32768x1, .f32⟩ : BufTy).Contents (Elt F) → (⟨S32768x1, .i1⟩ : BufTy).Contents (Elt F)),
    StableHlo.unary main_v4235 main_v4236 (uitofp .f32 : (⟨S32768x1, .i1⟩ : BufTy).Contents (Elt F) → (⟨S32768x1, .f32⟩ : BufTy).Contents (Elt F)),
    StableHlo.binary main_v4236 main_v4234 main_v4237 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4225 main_v4234 main_v4238 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4204 main_v4237 main_v4239 (cmpf .une : (⟨S32768x2, .f32⟩ : BufTy).Contents (Elt F) → (⟨S32768x2, .f32⟩ : BufTy).Contents (Elt F) → (⟨S32768x2, .i1⟩ : BufTy).Contents (Elt F)),
    StableHlo.unary main_v4239 main_v4240 (uitofp .f32 : (⟨S32768x2, .i1⟩ : BufTy).Contents (Elt F) → (⟨S32768x2, .f32⟩ : BufTy).Contents (Elt F)),
    StableHlo.binary main_v4240 main_v4237 main_v4241 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v4205 main_v4238 main_v4242 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_1319 (constant S_ .f32 0x40000000#32),
    StableHlo.unary main_cst_1319 main_v4243 (broadcastInDim S32768x4 ![] bcast_S_S32768x4 : (⟨S_, .f32⟩ : BufTy).Contents (Elt F) → (⟨S32768x4, .f32⟩ : BufTy).Contents (Elt F)),
    StableHlo.binary main_v4243 main_v4241 main_v4244 (mulf : (⟨S32768x4, .f32⟩ : BufTy).Contents (Elt F) → (⟨S32768x4, .f32⟩ : BufTy).Contents (Elt F) → (⟨S32768x4, .f32⟩ : BufTy).Contents (Elt F)),
    StableHlo.nullary main_cst_1320 (constant S_ .f32 0x3F800000#32),
    StableHlo.unary main_cst_1320 main_v4245 (broadcastInDim S32768x4 ![] bcast_S_S32768x4 : (⟨S_, .f32⟩ : BufTy).Contents (Elt F) → (⟨S32768x4, .f32⟩ : BufTy).Contents (Elt F)),
    StableHlo.binary main_v4245 main_v4244 main_v4246 (subf : (⟨S32768x4, .f32⟩ : BufTy).Contents (Elt F) → (⟨S32768x4, .f32⟩ : BufTy).Contents (Elt F) → (⟨S32768x4, .f32⟩ : BufTy).Contents (Elt F)),
    StableHlo.binary main_v4246 main_v4157 main_v4247 (mulf : (⟨S32768x4, .f32⟩ : BufTy).Contents (Elt F) → (⟨S32768x4, .f32⟩ : BufTy).Contents (Elt F) → (⟨S32768x4, .f32⟩ : BufTy).Contents (Elt F)),
    StableHlo.binary main_v4247 main_v4158 main_v4248 (addf : (⟨S32768x4, .f32⟩ : BufTy).Contents (Elt F) → (⟨S32768x4, .f32⟩ : BufTy).Contents (Elt F) → (⟨S32768x4, .f32⟩ : BufTy).Contents (Elt F)),
    StableHlo.unary main_v4248 main_v4249 ((extractStridedSlice S32768x2 ![0, 0] · slices_S32768x4_S32768x2_0_0) : (⟨S32768x4, .f32⟩ : BufTy).Contents (Elt F) → (⟨S32768x2, .f32⟩ : BufTy).Contents (Elt F)),
    StableHlo.unary main_v4248 main_v4250 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1321 (constant S_ .f32 0xC1F00000#32),
    StableHlo.nullary main_cst_1322 (constant S_ .f32 0x41F00000#32),
    StableHlo.TRef.unary (.of main_cst_1321 : StableHlo.TRef sig ⟨S_, .f32⟩) main_call378.v0 id,
    StableHlo.TRef.unary main_call378.v0 main_call378.v1 (broadcastInDim S32768x2 ![] bcast_S_S32768x2),
    StableHlo.TRef.binary main_call378.v1 (.of main_v4249 : StableHlo.TRef sig ⟨S32768x2, .f32⟩) main_call378.v2 maximumf,
    StableHlo.TRef.unary (.of main_cst_1322 : StableHlo.TRef sig ⟨S_, .f32⟩) main_call378.v3 id,
    StableHlo.TRef.unary main_call378.v3 main_call378.v4 (broadcastInDim S32768x2 ![] bcast_S_S32768x2),
    StableHlo.TRef.binary main_call378.v4 main_call378.v2 main_call378.v5 minimumf,
    StableHlo.nullary main_cst_1323 (constant S_ .f32 0xC1F00000#32),
    StableHlo.nullary main_cst_1324 (constant S_ .f32 0x41F00000#32),
    StableHlo.TRef.unary (.of main_cst_1323 : StableHlo.TRef sig ⟨S_, .f32⟩) main_call379.v0 id,
    StableHlo.TRef.unary main_call379.v0 main_call379.v1 (broadcastInDim S32768x2 ![] bcast_S_S32768x2),
    StableHlo.TRef.binary main_call379.v1 (.of main_v4250 : StableHlo.TRef sig ⟨S32768x2, .f32⟩) main_call379.v2 maximumf,
    StableHlo.TRef.unary (.of main_cst_1324 : StableHlo.TRef sig ⟨S_, .f32⟩) main_call379.v3 id,
    StableHlo.TRef.unary main_call379.v3 main_call379.v4 (broadcastInDim S32768x2 ![] bcast_S_S32768x2),
    StableHlo.TRef.binary main_call379.v4 main_call379.v2 main_call379.v5 minimumf ]

set_option maxRecDepth 8192 in
/-- The window is that straight line: each clip function unfolded at its calls, the sequencing reassociated. -/
theorem part_eq_92 (d : Dev nD) : main_part92 (F := F) d = seq ops92 := by
  simp only [main_part92, fn_clip_6.body, fn_clip_5.body, seq, bind_assoc, pure_bind]

/-- Every operation of the window touches TensorCore references only. -/
theorem sub_92 : (ops92 : List (HloOp τ sig (Elt F))).Forall fun op => op.bufs ⊆ tcRefs τ sig :=
  ⟨nullary_bufs_sub .., unary_bufs_sub .., binary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., unary_bufs_sub .., binary_bufs_sub .., unary_bufs_sub ..,
    binary_bufs_sub .., binary_bufs_sub .., binary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub ..⟩

/-- Every operation of the window determines all it writes. -/
theorem fresh_92 : (ops92 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_92 (V : Valuation τ sig (Elt F)) :
    after ops92 V (main_arg0 : DevRef τ sig) = V (main_arg0 : DevRef τ sig) := by
  simp only [after_cons, after_nil]
  rfl

/-- The operations of @main's statements 5581 … 5640, in order (80 of them): a statement's own operation, or, for a call
    of a clip function, the six operations of its body over that call's buffers. -/
abbrev ops93 : List (HloOp τ sig (Elt F)) :=
  [ StableHlo.unary main_v4251 main_v4253 (Host.sign : (⟨S32768x2, .f32⟩ : BufTy).Contents (Elt F) → (⟨S32768x2, .f32⟩ : BufTy).Contents (Elt F)),
    StableHlo.unary main_v4252 main_v4254 (Host.sign : (⟨S32768x2, .f32⟩ : BufTy).Contents (Elt F) → (⟨S32768x2, .f32⟩ : BufTy).Contents (Elt F)),
    StableHlo.binary main_v4253 main_v4254 main_v4255 (mulf : (⟨S32768x2, .f32⟩ : BufTy).Contents (Elt F) → (⟨S32768x2, .f32⟩ : BufTy).Contents (Elt F) → (⟨S32768x2, .f32⟩ : BufTy).Contents (Elt F)),
    StableHlo.unary main_v4251 main_v4256 (Host.absf : (⟨S32768x2, .f32⟩ : BufTy).Contents (Elt F) → (⟨S32768x2, .f32⟩ : BufTy).Contents (Elt F)),
    StableHlo.unary main_v4252 main_v4257 (Host.absf : (⟨S32768x2, .f32⟩ : BufTy).Contents (Elt F) → (⟨S32768x2, .f32⟩ : BufTy).Contents (Elt F)),
    StableHlo.binary main_v4256 main_v4257 main_v4258 (minimumf : (⟨S32768x2, .f32⟩ : BufTy).Contents (Elt F) → (⟨S32768x2, .f32⟩ : BufTy).Contents (Elt F) → (⟨S32768x2, .f32⟩ : BufTy).Contents (Elt F)),
    StableHlo.binary main_v4255 main_v4258 main_v4259 (mulf : (⟨S32768x2, .f32⟩ : BufTy).Contents (Elt F) → (⟨S32768x2, .f32⟩ : BufTy).Contents (Elt F) → (⟨S32768x2, .f32⟩ : BufTy).Contents (Elt F)),
    StableHlo.unary main_v4259 main_v4260 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4259 main_v4261 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1325 (constant S_ .f32 0xC1F00000#32),
    StableHlo.nullary main_cst_1326 (constant S_ .f32 0x41F00000#32),
    StableHlo.TRef.unary (.of main_cst_1325 : StableHlo.TRef sig ⟨S_, .f32⟩) main_call380.v0 id,
    StableHlo.TRef.unary main_call380.v0 main_call380.v1 (broadcastInDim S32768x1 ![] bcast_S_S32768x1),
    StableHlo.TRef.binary main_call380.v1 (.of main_v4260 : StableHlo.TRef sig ⟨S32768x1, .f32⟩) main_call380.v2 maximumf,
    StableHlo.TRef.unary (.of main_cst_1326 : StableHlo.TRef sig ⟨S_, .f32⟩) main_call380.v3 id,
    StableHlo.TRef.unary main_call380.v3 main_call380.v4 (broadcastInDim S32768x1 ![] bcast_S_S32768x1),
    StableHlo.TRef.binary main_call380.v4 main_call380.v2 main_call380.v5 minimumf,
    StableHlo.nullary main_cst_1327 (constant S_ .f32 0xC1F00000#32),
    StableHlo.nullary main_cst_1328 (constant S_ .f32 0x41F00000#32),
    StableHlo.TRef.unary (.of main_cst_1327 : StableHlo.TRef sig ⟨S_, .f32⟩) main_call381.v0 id,
    StableHlo.TRef.unary main_call381.v0 main_call381.v1 (broadcastInDim S32768x1 ![] bcast_S_S32768x1),
    StableHlo.TRef.binary main_call381.v1 (.of main_v4261 : StableHlo.TRef sig ⟨S32768x1, .f32⟩) main_call381.v2 maximumf,
    StableHlo.TRef.unary (.of main_cst_1328 : StableHlo.TRef sig ⟨S_, .f32⟩) main_call381.v3 id,
    StableHlo.TRef.unary main_call381.v3 main_call381.v4 (broadcastInDim S32768x1 ![] bcast_S_S32768x1),
    StableHlo.TRef.binary main_call381.v4 main_call381.v2 main_call381.v5 minimumf,
    StableHlo.unary main_v4262 main_v4264 (Host.sign : (⟨S32768x1, .f32⟩ : BufTy).Contents (Elt F) → (⟨S32768x1, .f32⟩ : BufTy).Contents (Elt F)),
    StableHlo.unary main_v4263 main_v4265 (Host.sign : (⟨S32768x1, .f32⟩ : BufTy).Contents (Elt F) → (⟨S32768x1, .f32⟩ : BufTy).Contents (Elt F)),
    StableHlo.binary main_v4264 main_v4265 main_v4266 (mulf : (⟨S32768x1, .f32⟩ : BufTy).Contents (Elt F) → (⟨S32768x1, .f32⟩ : BufTy).Contents (Elt F) → (⟨S32768x1, .f32⟩ : BufTy).Contents (Elt F)),
    StableHlo.unary main_v4262 main_v4267 (Host.absf : (⟨S32768x1, .f32⟩ : BufTy).Contents (Elt F) → (⟨S32768x1, .f32⟩ : BufTy).Contents (Elt F)),
    StableHlo.unary main_v4263 main_v4268 (Host.absf : (⟨S32768x1, .f32⟩ : BufTy).Contents (Elt F) → (⟨S32768x1, .f32⟩ : BufTy).Contents (Elt F)),
    StableHlo.binary main_v4267 main_v4268 main_v4269 (minimumf : (⟨S32768x1, .f32⟩ : BufTy).Contents (Elt F) → (⟨S32768x1, .f32⟩ : BufTy).Contents (Elt F) → (⟨S32768x1, .f32⟩ : BufTy).Contents (Elt F)),
    StableHlo.binary main_v4266 main_v4269 main_v4270 (mulf : (⟨S32768x1, .f32⟩ : BufTy).Contents (Elt F) → (⟨S32768x1, .f32⟩ : BufTy).Contents (Elt F) → (⟨S32768x1, .f32⟩ : BufTy).Contents (Elt F)),
    StableHlo.nullary main_cst_1329 (constant S_ .f32 0x00000000#32),
    StableHlo.unary main_cst_1329 main_v4271 (broadcastInDim S32768x1 ![] bcast_S_S32768x1 : (⟨S_, .f32⟩ : BufTy).Contents (Elt F) → (⟨S32768x1, .f32⟩ : BufTy).Contents (Elt F)),
    StableHlo.binary main_v4270 main_v4271 main_v4272 (cmpf .ole : (⟨S32768x1, .f32⟩ : BufTy).Contents (Elt F) → (⟨S32768x1, .f32⟩ : BufTy).Contents (Elt F) → (⟨S32768x1, .i1⟩ : BufTy).Contents (Elt F)),
    StableHlo.unary main_v4272 main_v4273 (uitofp .f32 : (⟨S32768x1, .i1⟩ : BufTy).Contents (Elt F) → (⟨S32768x1, .f32⟩ : BufTy).Contents (Elt F)),
    StableHlo.nullary main_cst_1330 (constant S_ .f32 0x40000000#32),
    StableHlo.unary main_cst_1330 main_v4274 (broadcastInDim S32768x1 ![] bcast_S_S32768x1 : (⟨S_, .f32⟩ : BufTy).Contents (Elt F) → (⟨S32768x1, .f32⟩ : BufTy).Contents (Elt F)),
    StableHlo.binary main_v4274 main_v4273 main_v4275 (mulf : (⟨S32768x1, .f32⟩ : BufTy).Contents (Elt F) → (⟨S32768x1, .f32⟩ : BufTy).Contents (Elt F) → (⟨S32768x1, .f32⟩ : BufTy).Contents (Elt F)),
    StableHlo.nullary main_cst_1331 (constant S_ .f32 0x3F800000#32),
    StableHlo.unary main_cst_1331 main_v4276 (broadcastInDim S32768x1 ![] bcast_S_S32768x1 : (⟨S_, .f32⟩ : BufTy).Contents (Elt F) → (⟨S32768x1, .f32⟩ : BufTy).Contents (Elt F)),
    StableHlo.binary main_v4276 main_v4275 main_v4277 (subf : (⟨S32768x1, .f32⟩ : BufTy).Contents (Elt F) → (⟨S32768x1, .f32⟩ : BufTy).Contents (Elt F) → (⟨S32768x1, .f32⟩ : BufTy).Contents (Elt F)),
    StableHlo.binary main_v4277 main_v4260 main_v4278 (mulf : (⟨S32768x1, .f32⟩ : BufTy).Contents (Elt F) → (⟨S32768x1, .f32⟩ : BufTy).Contents (Elt F) → (⟨S32768x1, .f32⟩ : BufTy).Contents (Elt F)),
    StableHlo.binary main_v4278 main_v4261 main_v4279 (addf : (⟨S32768x1, .f32⟩ : BufTy).Contents (Elt F) → (⟨S32768x1, .f32⟩ : BufTy).Contents (Elt F) → (⟨S32768x1, .f32⟩ : BufTy).Contents (Elt F)),
    StableHlo.nullary main_cst_1332 (constant S_ .f32 0x00000000#32),
    StableHlo.unary main_cst_1332 main_v4280 (broadcastInDim S32768x1 ![] bcast_S_S32768x1 : (⟨S_, .f32⟩ : BufTy).Contents (Elt F) → (⟨S32768x1, .f32⟩ : BufTy).Contents (Elt F)),
    StableHlo.binary main_v4279 main_v4280 main_v4281 (cmpf .ole : (⟨S32768x1, .f32⟩ : BufTy).Contents (Elt F) → (⟨S32768x1, .f32⟩ : BufTy).Contents (Elt F) → (⟨S32768x1, .i1⟩ : BufTy).Contents (Elt F)),
    StableHlo.unary main_v4281 main_v4282 (uitofp .f32 : (⟨S32768x1, .i1⟩ : BufTy).Contents (Elt F) → (⟨S32768x1, .f32⟩ : BufTy).Contents (Elt F)),
    StableHlo.binary main_v4273 main_v4282 main_v4283 (cmpf .une : (⟨S32768x1, .f32⟩ : BufTy).Contents (Elt F) → (⟨S32768x1, .f32⟩ : BufTy).Contents (Elt F) → (⟨S32768x1, .i1⟩ : BufTy).Contents (Elt F)),
    StableHlo.unary main_v4283 main_v4284 (uitofp .f32 : (⟨S32768x1, .i1⟩ : BufTy).Contents (Elt F) → (⟨S32768x1, .f32⟩ : BufTy).Contents (Elt F)),
    StableHlo.binary main_v4284 main_v4282 main_v4285 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4273 main_v4282 main_v4286 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1333 (constant S_ .f32 0x40000000#32),
    StableHlo.unary main_cst_1333 main_v4287 (broadcastInDim S32768x2 ![] bcast_S_S32768x2 : (⟨S_, .f32⟩ : BufTy).Contents (Elt F) → (⟨S32768x2, .f32⟩ : BufTy).Contents (Elt F)),
    StableHlo.binary main_v4287 main_v4285 main_v4288 (mulf : (⟨S32768x2, .f32⟩ : BufTy).Contents (Elt F) → (⟨S32768x2, .f32⟩ : BufTy).Contents (Elt F) → (⟨S32768x2, .f32⟩ : BufTy).Contents (Elt F)),
    StableHlo.nullary main_cst_1334 (constant S_ .f32 0x3F800000#32),
    StableHlo.unary main_cst_1334 main_v4289 (broadcastInDim S32768x2 ![] bcast_S_S32768x2 : (⟨S_, .f32⟩ : BufTy).Contents (Elt F) → (⟨S32768x2, .f32⟩ : BufTy).Contents (Elt F)),
    StableHlo.binary main_v4289 main_v4288 main_v4290 (subf : (⟨S32768x2, .f32⟩ : BufTy).Contents (Elt F) → (⟨S32768x2, .f32⟩ : BufTy).Contents (Elt F) → (⟨S32768x2, .f32⟩ : BufTy).Contents (Elt F)),
    StableHlo.binary main_v4290 main_v4249 main_v4291 (mulf : (⟨S32768x2, .f32⟩ : BufTy).Contents (Elt F) → (⟨S32768x2, .f32⟩ : BufTy).Contents (Elt F) → (⟨S32768x2, .f32⟩ : BufTy).Contents (Elt F)),
    StableHlo.binary main_v4291 main_v4250 main_v4292 (addf : (⟨S32768x2, .f32⟩ : BufTy).Contents (Elt F) → (⟨S32768x2, .f32⟩ : BufTy).Contents (Elt F) → (⟨S32768x2, .f32⟩ : BufTy).Contents (Elt F)),
    StableHlo.unary main_v4292 main_v4293 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4292 main_v4294 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1335 (constant S_ .f32 0xC1F00000#32),
    StableHlo.nullary main_cst_1336 (constant S_ .f32 0x41F00000#32),
    StableHlo.TRef.unary (.of main_cst_1335 : StableHlo.TRef sig ⟨S_, .f32⟩) main_call382.v0 id,
    StableHlo.TRef.unary main_call382.v0 main_call382.v1 (broadcastInDim S32768x1 ![] bcast_S_S32768x1),
    StableHlo.TRef.binary main_call382.v1 (.of main_v4293 : StableHlo.TRef sig ⟨S32768x1, .f32⟩) main_call382.v2 maximumf,
    StableHlo.TRef.unary (.of main_cst_1336 : StableHlo.TRef sig ⟨S_, .f32⟩) main_call382.v3 id,
    StableHlo.TRef.unary main_call382.v3 main_call382.v4 (broadcastInDim S32768x1 ![] bcast_S_S32768x1),
    StableHlo.TRef.binary main_call382.v4 main_call382.v2 main_call382.v5 minimumf,
    StableHlo.nullary main_cst_1337 (constant S_ .f32 0xC1F00000#32),
    StableHlo.nullary main_cst_1338 (constant S_ .f32 0x41F00000#32),
    StableHlo.TRef.unary (.of main_cst_1337 : StableHlo.TRef sig ⟨S_, .f32⟩) main_call383.v0 id,
    StableHlo.TRef.unary main_call383.v0 main_call383.v1 (broadcastInDim S32768x1 ![] bcast_S_S32768x1),
    StableHlo.TRef.binary main_call383.v1 (.of main_v4294 : StableHlo.TRef sig ⟨S32768x1, .f32⟩) main_call383.v2 maximumf,
    StableHlo.TRef.unary (.of main_cst_1338 : StableHlo.TRef sig ⟨S_, .f32⟩) main_call383.v3 id,
    StableHlo.TRef.unary main_call383.v3 main_call383.v4 (broadcastInDim S32768x1 ![] bcast_S_S32768x1),
    StableHlo.TRef.binary main_call383.v4 main_call383.v2 main_call383.v5 minimumf,
    StableHlo.unary main_v4295 main_v4297 (Host.sign : (⟨S32768x1, .f32⟩ : BufTy).Contents (Elt F) → (⟨S32768x1, .f32⟩ : BufTy).Contents (Elt F)),
    StableHlo.unary main_v4296 main_v4298 (Host.sign : (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_93 (d : Dev nD) : main_part93 (F := F) d = seq ops93 := by
  simp only [main_part93, fn_clip_6.body, seq, bind_assoc, pure_bind]
  rfl

/-- Every operation of the window touches TensorCore references only. -/
theorem sub_93 : (ops93 : List (HloOp τ sig (Elt F))).Forall fun op => op.bufs ⊆ tcRefs τ sig :=
  ⟨unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub ..⟩

/-- Every operation of the window determines all it writes. -/
theorem fresh_93 : (ops93 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_93 (V : Valuation τ sig (Elt F)) :
    after ops93 V (main_arg0 : DevRef τ sig) = V (main_arg0 : DevRef τ sig) := by
  simp only [after_cons, after_nil]
  rfl

/-- The operations of @main's statements 5641 … 5700, in order (65 of them): a statement's own operation, or, for a call
    of a clip function, the six operations of its body over that call's buffers. -/
abbrev ops94 : List (HloOp τ sig (Elt F)) :=
  [ StableHlo.binary main_v4297 main_v4298 main_v4299 (mulf : (⟨S32768x1, .f32⟩ : BufTy).Contents (Elt F) → (⟨S32768x1, .f32⟩ : BufTy).Contents (Elt F) → (⟨S32768x1, .f32⟩ : BufTy).Contents (Elt F)),
    StableHlo.unary main_v4295 main_v4300 (Host.absf : (⟨S32768x1, .f32⟩ : BufTy).Contents (Elt F) → (⟨S32768x1, .f32⟩ : BufTy).Contents (Elt F)),
    StableHlo.unary main_v4296 main_v4301 (Host.absf : (⟨S32768x1, .f32⟩ : BufTy).Contents (Elt F) → (⟨S32768x1, .f32⟩ : BufTy).Contents (Elt F)),
    StableHlo.binary main_v4300 main_v4301 main_v4302 (minimumf : (⟨S32768x1, .f32⟩ : BufTy).Contents (Elt F) → (⟨S32768x1, .f32⟩ : BufTy).Contents (Elt F) → (⟨S32768x1, .f32⟩ : BufTy).Contents (Elt F)),
    StableHlo.binary main_v4299 main_v4302 main_v4303 (mulf : (⟨S32768x1, .f32⟩ : BufTy).Contents (Elt F) → (⟨S32768x1, .f32⟩ : BufTy).Contents (Elt F) → (⟨S32768x1, .f32⟩ : BufTy).Contents (Elt F)),
    StableHlo.nullary main_cst_1339 (constant S_ .f32 0x00000000#32),
    StableHlo.unary main_cst_1339 main_v4304 (broadcastInDim S32768x1 ![] bcast_S_S32768x1 : (⟨S_, .f32⟩ : BufTy).Contents (Elt F) → (⟨S32768x1, .f32⟩ : BufTy).Contents (Elt F)),
    StableHlo.binary main_v4303 main_v4304 main_v4305 (cmpf .ole : (⟨S32768x1, .f32⟩ : BufTy).Contents (Elt F) → (⟨S32768x1, .f32⟩ : BufTy).Contents (Elt F) → (⟨S32768x1, .i1⟩ : BufTy).Contents (Elt F)),
    StableHlo.unary main_v4305 main_v4306 (uitofp .f32 : (⟨S32768x1, .i1⟩ : BufTy).Contents (Elt F) → (⟨S32768x1, .f32⟩ : BufTy).Contents (Elt F)),
    StableHlo.nullary main_cst_1340 (constant S_ .f32 0x40000000#32),
    StableHlo.unary main_cst_1340 main_v4307 (broadcastInDim S32768x1 ![] bcast_S_S32768x1 : (⟨S_, .f32⟩ : BufTy).Contents (Elt F) → (⟨S32768x1, .f32⟩ : BufTy).Contents (Elt F)),
    StableHlo.binary main_v4307 main_v4306 main_v4308 (mulf : (⟨S32768x1, .f32⟩ : BufTy).Contents (Elt F) → (⟨S32768x1, .f32⟩ : BufTy).Contents (Elt F) → (⟨S32768x1, .f32⟩ : BufTy).Contents (Elt F)),
    StableHlo.nullary main_cst_1341 (constant S_ .f32 0x3F800000#32),
    StableHlo.unary main_cst_1341 main_v4309 (broadcastInDim S32768x1 ![] bcast_S_S32768x1 : (⟨S_, .f32⟩ : BufTy).Contents (Elt F) → (⟨S32768x1, .f32⟩ : BufTy).Contents (Elt F)),
    StableHlo.binary main_v4309 main_v4308 main_v4310 (subf : (⟨S32768x1, .f32⟩ : BufTy).Contents (Elt F) → (⟨S32768x1, .f32⟩ : BufTy).Contents (Elt F) → (⟨S32768x1, .f32⟩ : BufTy).Contents (Elt F)),
    StableHlo.binary main_v4310 main_v4293 main_v4311 (mulf : (⟨S32768x1, .f32⟩ : BufTy).Contents (Elt F) → (⟨S32768x1, .f32⟩ : BufTy).Contents (Elt F) → (⟨S32768x1, .f32⟩ : BufTy).Contents (Elt F)),
    StableHlo.binary main_v4311 main_v4294 main_v4312 (addf : (⟨S32768x1, .f32⟩ : BufTy).Contents (Elt F) → (⟨S32768x1, .f32⟩ : BufTy).Contents (Elt F) → (⟨S32768x1, .f32⟩ : BufTy).Contents (Elt F)),
    StableHlo.nullary main_cst_1342 (constant S_ .f32 0x00000000#32),
    StableHlo.unary main_cst_1342 main_v4313 (broadcastInDim S32768x1 ![] bcast_S_S32768x1 : (⟨S_, .f32⟩ : BufTy).Contents (Elt F) → (⟨S32768x1, .f32⟩ : BufTy).Contents (Elt F)),
    StableHlo.binary main_v4312 main_v4313 main_v4314 (cmpf .ole : (⟨S32768x1, .f32⟩ : BufTy).Contents (Elt F) → (⟨S32768x1, .f32⟩ : BufTy).Contents (Elt F) → (⟨S32768x1, .i1⟩ : BufTy).Contents (Elt F)),
    StableHlo.unary main_v4314 main_v4315 (uitofp .f32 : (⟨S32768x1, .i1⟩ : BufTy).Contents (Elt F) → (⟨S32768x1, .f32⟩ : BufTy).Contents (Elt F)),
    StableHlo.binary main_v4306 main_v4315 main_v4316 (cmpf .une : (⟨S32768x1, .f32⟩ : BufTy).Contents (Elt F) → (⟨S32768x1, .f32⟩ : BufTy).Contents (Elt F) → (⟨S32768x1, .i1⟩ : BufTy).Contents (Elt F)),
    StableHlo.unary main_v4316 main_v4317 (uitofp .f32 : (⟨S32768x1, .i1⟩ : BufTy).Contents (Elt F) → (⟨S32768x1, .f32⟩ : BufTy).Contents (Elt F)),
    StableHlo.binary main_v4317 main_v4315 main_v4318 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4306 main_v4315 main_v4319 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4285 main_v4318 main_v4320 (cmpf .une : (⟨S32768x2, .f32⟩ : BufTy).Contents (Elt F) → (⟨S32768x2, .f32⟩ : BufTy).Contents (Elt F) → (⟨S32768x2, .i1⟩ : BufTy).Contents (Elt F)),
    StableHlo.unary main_v4320 main_v4321 (uitofp .f32 : (⟨S32768x2, .i1⟩ : BufTy).Contents (Elt F) → (⟨S32768x2, .f32⟩ : BufTy).Contents (Elt F)),
    StableHlo.binary main_v4321 main_v4318 main_v4322 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v4286 main_v4319 main_v4323 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v4241 main_v4322 main_v4324 (cmpf .une : (⟨S32768x4, .f32⟩ : BufTy).Contents (Elt F) → (⟨S32768x4, .f32⟩ : BufTy).Contents (Elt F) → (⟨S32768x4, .i1⟩ : BufTy).Contents (Elt F)),
    StableHlo.unary main_v4324 main_v4325 (uitofp .f32 : (⟨S32768x4, .i1⟩ : BufTy).Contents (Elt F) → (⟨S32768x4, .f32⟩ : BufTy).Contents (Elt F)),
    StableHlo.binary main_v4325 main_v4322 main_v4326 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v4242 main_v4323 main_v4327 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v4149 main_v4326 main_v4328 (cmpf .une : (⟨S32768x8, .f32⟩ : BufTy).Contents (Elt F) → (⟨S32768x8, .f32⟩ : BufTy).Contents (Elt F) → (⟨S32768x8, .i1⟩ : BufTy).Contents (Elt F)),
    StableHlo.unary main_v4328 main_v4329 (uitofp .f32 : (⟨S32768x8, .i1⟩ : BufTy).Contents (Elt F) → (⟨S32768x8, .f32⟩ : BufTy).Contents (Elt F)),
    StableHlo.binary main_v4329 main_v4326 main_v4330 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v4150 main_v4327 main_v4331 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v3961 main_v4330 main_v4332 (cmpf .une : (⟨S32768x16, .f32⟩ : BufTy).Contents (Elt F) → (⟨S32768x16, .f32⟩ : BufTy).Contents (Elt F) → (⟨S32768x16, .i1⟩ : BufTy).Contents (Elt F)),
    StableHlo.unary main_v4332 main_v4333 (uitofp .f32 : (⟨S32768x16, .i1⟩ : BufTy).Contents (Elt F) → (⟨S32768x16, .f32⟩ : BufTy).Contents (Elt F)),
    StableHlo.binary main_v4333 main_v4330 main_v4334 ((fun a b => concatenate S32768x32 1 [⟨S32768x16, a⟩, ⟨S32768x16, b⟩] concatenates_S32768x16_S32768x16_S32768x32_d1) : (⟨S32768x16, .f32⟩ : BufTy).Contents (Elt F) → (⟨S32768x16, .f32⟩ : BufTy).Contents (Elt F) → (⟨S32768x32, .f32⟩ : BufTy).Contents (Elt F)),
    StableHlo.binary main_v3962 main_v4331 main_v4335 ((fun a b => concatenate S32768x32 1 [⟨S32768x16, a⟩, ⟨S32768x16, b⟩] concatenates_S32768x16_S32768x16_S32768x32_d1) : (⟨S32768x16, .f32⟩ : BufTy).Contents (Elt F) → (⟨S32768x16, .f32⟩ : BufTy).Contents (Elt F) → (⟨S32768x32, .f32⟩ : BufTy).Contents (Elt F)),
    StableHlo.binary main_v3581 main_v4334 main_v4336 (cmpf .une : (⟨S32768x32, .f32⟩ : BufTy).Contents (Elt F) → (⟨S32768x32, .f32⟩ : BufTy).Contents (Elt F) → (⟨S32768x32, .i1⟩ : BufTy).Contents (Elt F)),
    StableHlo.unary main_v4336 main_v4337 (uitofp .f32 : (⟨S32768x32, .i1⟩ : BufTy).Contents (Elt F) → (⟨S32768x32, .f32⟩ : BufTy).Contents (Elt F)),
    StableHlo.binary main_v4337 main_v4334 main_v4338 ((fun a b => concatenate S32768x64 1 [⟨S32768x32, a⟩, ⟨S32768x32, b⟩] concatenates_S32768x32_S32768x32_S32768x64_d1) : (⟨S32768x32, .f32⟩ : BufTy).Contents (Elt F) → (⟨S32768x32, .f32⟩ : BufTy).Contents (Elt F) → (⟨S32768x64, .f32⟩ : BufTy).Contents (Elt F)),
    StableHlo.binary main_v3582 main_v4335 main_v4339 ((fun a b => concatenate S32768x64 1 [⟨S32768x32, a⟩, ⟨S32768x32, b⟩] concatenates_S32768x32_S32768x32_S32768x64_d1) : (⟨S32768x32, .f32⟩ : BufTy).Contents (Elt F) → (⟨S32768x32, .f32⟩ : BufTy).Contents (Elt F) → (⟨S32768x64, .f32⟩ : BufTy).Contents (Elt F)),
    StableHlo.nullary main_cst_1343 (constant S_ .f32 0x40000000#32),
    StableHlo.unary main_cst_1343 main_v4340 (broadcastInDim S32768x64 ![] bcast_S_S32768x64 : (⟨S_, .f32⟩ : BufTy).Contents (Elt F) → (⟨S32768x64, .f32⟩ : BufTy).Contents (Elt F)),
    StableHlo.binary main_v4340 main_v4338 main_v4341 (mulf : (⟨S32768x64, .f32⟩ : BufTy).Contents (Elt F) → (⟨S32768x64, .f32⟩ : BufTy).Contents (Elt F) → (⟨S32768x64, .f32⟩ : BufTy).Contents (Elt F)),
    StableHlo.nullary main_cst_1344 (constant S_ .f32 0x3F800000#32),
    StableHlo.unary main_cst_1344 main_v4342 (broadcastInDim S32768x64 ![] bcast_S_S32768x64 : (⟨S_, .f32⟩ : BufTy).Contents (Elt F) → (⟨S32768x64, .f32⟩ : BufTy).Contents (Elt F)),
    StableHlo.binary main_v4342 main_v4341 main_v4343 (subf : (⟨S32768x64, .f32⟩ : BufTy).Contents (Elt F) → (⟨S32768x64, .f32⟩ : BufTy).Contents (Elt F) → (⟨S32768x64, .f32⟩ : BufTy).Contents (Elt F)),
    StableHlo.binary main_v4343 main_v2814 main_v4344 (mulf : (⟨S32768x64, .f32⟩ : BufTy).Contents (Elt F) → (⟨S32768x64, .f32⟩ : BufTy).Contents (Elt F) → (⟨S32768x64, .f32⟩ : BufTy).Contents (Elt F)),
    StableHlo.binary main_v4344 main_v2815 main_v4345 (addf : (⟨S32768x64, .f32⟩ : BufTy).Contents (Elt F) → (⟨S32768x64, .f32⟩ : BufTy).Contents (Elt F) → (⟨S32768x64, .f32⟩ : BufTy).Contents (Elt F)),
    StableHlo.unary main_v4345 main_v4346 ((extractStridedSlice S32768x32 ![0, 0] · slices_S32768x64_S32768x32_0_0) : (⟨S32768x64, .f32⟩ : BufTy).Contents (Elt F) → (⟨S32768x32, .f32⟩ : BufTy).Contents (Elt F)),
    StableHlo.unary main_v4345 main_v4347 ((extractStridedSlice S32768x32 ![0, 32] · slices_S32768x64_S32768x32_0_32) : (⟨S32768x64, .f32⟩ : BufTy).Contents (Elt F) → (⟨S32768x32, .f32⟩ : BufTy).Contents (Elt F)),
    StableHlo.nullary main_cst_1345 (constant S_ .f32 0xC1F00000#32),
    StableHlo.nullary main_cst_1346 (constant S_ .f32 0x41F00000#32),
    StableHlo.TRef.unary (.of main_cst_1345 : StableHlo.TRef sig ⟨S_, .f32⟩) main_call384.v0 id,
    StableHlo.TRef.unary main_call384.v0 main_call384.v1 (broadcastInDim S32768x32 ![] bcast_S_S32768x32),
    StableHlo.TRef.binary main_call384.v1 (.of main_v4346 : StableHlo.TRef sig ⟨S32768x32, .f32⟩) main_call384.v2 maximumf,
    StableHlo.TRef.unary (.of main_cst_1346 : StableHlo.TRef sig ⟨S_, .f32⟩) main_call384.v3 id,
    StableHlo.TRef.unary main_call384.v3 main_call384.v4 (broadcastInDim S32768x32 ![] bcast_S_S32768x32),
    StableHlo.TRef.binary main_call384.v4 main_call384.v2 main_call384.v5 minimumf,
    StableHlo.nullary main_cst_1347 (constant S_ .f32 0xC1F00000#32),
    StableHlo.nullary main_cst_1348 (constant S_ .f32 0x41F00000#32) ]

set_option maxRecDepth 8192 in
/-- The window is that straight line: each clip function unfolded at its calls, the sequencing reassociated. -/
theorem part_eq_94 (d : Dev nD) : main_part94 (F := F) d = seq ops94 := by
  simp only [main_part94, fn_clip_1.body, seq, bind_assoc, pure_bind]
  rfl

/-- Every operation of the window touches TensorCore references only. -/
theorem sub_94 : (ops94 : List (HloOp τ sig (Elt F))).Forall fun op => op.bufs ⊆ tcRefs τ sig :=
  ⟨binary_bufs_sub .., unary_bufs_sub .., unary_bufs_sub .., binary_bufs_sub .., binary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., unary_bufs_sub .., binary_bufs_sub ..,
    binary_bufs_sub .., binary_bufs_sub .., unary_bufs_sub .., binary_bufs_sub .., binary_bufs_sub .., binary_bufs_sub ..,
    unary_bufs_sub .., binary_bufs_sub .., binary_bufs_sub .., binary_bufs_sub .., unary_bufs_sub .., binary_bufs_sub ..,
    binary_bufs_sub .., binary_bufs_sub .., unary_bufs_sub .., binary_bufs_sub .., binary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub ..⟩

/-- Every operation of the window determines all it writes. -/
theorem fresh_94 : (ops94 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl⟩

set_option maxRecDepth 8192 in
/-- The window writes no argument of @main: the argument's buffer holds after it what it held before. -/
theorem keep_94 (V : Valuation τ sig (Elt F)) :
    after ops94 V (main_arg0 : DevRef τ sig) = V (main_arg0 : DevRef τ sig) := by
  simp only [after_cons, after_nil]
  rfl

/-- The operations of @main's statements 5701 … 5760, in order (100 of them): a statement's own operation, or, for a call
    of a clip function, the six operations of its body over that call's buffers. -/
abbrev ops95 : List (HloOp τ sig (Elt F)) :=
  [ StableHlo.TRef.unary (.of main_cst_1347 : StableHlo.TRef sig ⟨S_, .f32⟩) main_call385.v0 id,
    StableHlo.TRef.unary main_call385.v0 main_call385.v1 (broadcastInDim S32768x32 ![] bcast_S_S32768x32),
    StableHlo.TRef.binary main_call385.v1 (.of main_v4347 : StableHlo.TRef sig ⟨S32768x32, .f32⟩) main_call385.v2 maximumf,
    StableHlo.TRef.unary (.of main_cst_1348 : StableHlo.TRef sig ⟨S_, .f32⟩) main_call385.v3 id,
    StableHlo.TRef.unary main_call385.v3 main_call385.v4 (broadcastInDim S32768x32 ![] bcast_S_S32768x32),
    StableHlo.TRef.binary main_call385.v4 main_call385.v2 main_call385.v5 minimumf,
    StableHlo.unary main_v4348 main_v4350 (Host.sign : (⟨S32768x32, .f32⟩ : BufTy).Contents (Elt F) → (⟨S32768x32, .f32⟩ : BufTy).Contents (Elt F)),
    StableHlo.unary main_v4349 main_v4351 (Host.sign : (⟨S32768x32, .f32⟩ : BufTy).Contents (Elt F) → (⟨S32768x32, .f32⟩ : BufTy).Contents (Elt F)),
    StableHlo.binary main_v4350 main_v4351 main_v4352 (mulf : (⟨S32768x32, .f32⟩ : BufTy).Contents (Elt F) → (⟨S32768x32, .f32⟩ : BufTy).Contents (Elt F) → (⟨S32768x32, .f32⟩ : BufTy).Contents (Elt F)),
    StableHlo.unary main_v4348 main_v4353 (Host.absf : (⟨S32768x32, .f32⟩ : BufTy).Contents (Elt F) → (⟨S32768x32, .f32⟩ : BufTy).Contents (Elt F)),
    StableHlo.unary main_v4349 main_v4354 (Host.absf : (⟨S32768x32, .f32⟩ : BufTy).Contents (Elt F) → (⟨S32768x32, .f32⟩ : BufTy).Contents (Elt F)),
    StableHlo.binary main_v4353 main_v4354 main_v4355 (minimumf : (⟨S32768x32, .f32⟩ : BufTy).Contents (Elt F) → (⟨S32768x32, .f32⟩ : BufTy).Contents (Elt F) → (⟨S32768x32, .f32⟩ : BufTy).Contents (Elt F)),
    StableHlo.binary main_v4352 main_v4355 main_v4356 (mulf : (⟨S32768x32, .f32⟩ : BufTy).Contents (Elt F) → (⟨S32768x32, .f32⟩ : BufTy).Contents (Elt F) → (⟨S32768x32, .f32⟩ : BufTy).Contents (Elt F)),
    StableHlo.unary main_v4356 main_v4357 ((extractStridedSlice S32768x16 ![0, 0] · slices_S32768x32_S32768x16_0_0) : (⟨S32768x32, .f32⟩ : BufTy).Contents (Elt F) → (⟨S32768x16, .f32⟩ : BufTy).Contents (Elt F)),
    StableHlo.unary main_v4356 main_v4358 ((extractStridedSlice S32768x16 ![0, 16] · slices_S32768x32_S32768x16_0_16) : (⟨S32768x32, .f32⟩ : BufTy).Contents (Elt F) → (⟨S32768x16, .f32⟩ : BufTy).Contents (Elt F)),
    StableHlo.nullary main_cst_1349 (constant S_ .f32 0xC1F00000#32),
    StableHlo.nullary main_cst_1350 (constant S_ .f32 0x41F00000#32),
    StableHlo.TRef.unary (.of main_cst_1349 : StableHlo.TRef sig ⟨S_, .f32⟩) main_call386.v0 id,
    StableHlo.TRef.unary main_call386.v0 main_call386.v1 (broadcastInDim S32768x16 ![] bcast_S_S32768x16),
    StableHlo.TRef.binary main_call386.v1 (.of main_v4357 : StableHlo.TRef sig ⟨S32768x16, .f32⟩) main_call386.v2 maximumf,
    StableHlo.TRef.unary (.of main_cst_1350 : StableHlo.TRef sig ⟨S_, .f32⟩) main_call386.v3 id,
    StableHlo.TRef.unary main_call386.v3 main_call386.v4 (broadcastInDim S32768x16 ![] bcast_S_S32768x16),
    StableHlo.TRef.binary main_call386.v4 main_call386.v2 main_call386.v5 minimumf,
    StableHlo.nullary main_cst_1351 (constant S_ .f32 0xC1F00000#32),
    StableHlo.nullary main_cst_1352 (constant S_ .f32 0x41F00000#32),
    StableHlo.TRef.unary (.of main_cst_1351 : StableHlo.TRef sig ⟨S_, .f32⟩) main_call387.v0 id,
    StableHlo.TRef.unary main_call387.v0 main_call387.v1 (broadcastInDim S32768x16 ![] bcast_S_S32768x16),
    StableHlo.TRef.binary main_call387.v1 (.of main_v4358 : StableHlo.TRef sig ⟨S32768x16, .f32⟩) main_call387.v2 maximumf,
    StableHlo.TRef.unary (.of main_cst_1352 : StableHlo.TRef sig ⟨S_, .f32⟩) main_call387.v3 id,
    StableHlo.TRef.unary main_call387.v3 main_call387.v4 (broadcastInDim S32768x16 ![] bcast_S_S32768x16),
    StableHlo.TRef.binary main_call387.v4 main_call387.v2 main_call387.v5 minimumf,
    StableHlo.unary main_v4359 main_v4361 (Host.sign : (⟨S32768x16, .f32⟩ : BufTy).Contents (Elt F) → (⟨S32768x16, .f32⟩ : BufTy).Contents (Elt F)),
    StableHlo.unary main_v4360 main_v4362 (Host.sign : (⟨S32768x16, .f32⟩ : BufTy).Contents (Elt F) → (⟨S32768x16, .f32⟩ : BufTy).Contents (Elt F)),
    StableHlo.binary main_v4361 main_v4362 main_v4363 (mulf : (⟨S32768x16, .f32⟩ : BufTy).Contents (Elt F) → (⟨S32768x16, .f32⟩ : BufTy).Contents (Elt F) → (⟨S32768x16, .f32⟩ : BufTy).Contents (Elt F)),
    StableHlo.unary main_v4359 main_v4364 (Host.absf : (⟨S32768x16, .f32⟩ : BufTy).Contents (Elt F) → (⟨S32768x16, .f32⟩ : BufTy).Contents (Elt F)),
    StableHlo.unary main_v4360 main_v4365 (Host.absf : (⟨S32768x16, .f32⟩ : BufTy).Contents (Elt F) → (⟨S32768x16, .f32⟩ : BufTy).Contents (Elt F)),
    StableHlo.binary main_v4364 main_v4365 main_v4366 (minimumf : (⟨S32768x16, .f32⟩ : BufTy).Contents (Elt F) → (⟨S32768x16, .f32⟩ : BufTy).Contents (Elt F) → (⟨S32768x16, .f32⟩ : BufTy).Contents (Elt F)),
    StableHlo.binary main_v4363 main_v4366 main_v4367 (mulf : (⟨S32768x16, .f32⟩ : BufTy).Contents (Elt F) → (⟨S32768x16, .f32⟩ : BufTy).Contents (Elt F) → (⟨S32768x16, .f32⟩ : BufTy).Contents (Elt F)),
    StableHlo.unary main_v4367 main_v4368 ((extractStridedSlice S32768x8 ![0, 0] · slices_S32768x16_S32768x8_0_0) : (⟨S32768x16, .f32⟩ : BufTy).Contents (Elt F) → (⟨S32768x8, .f32⟩ : BufTy).Contents (Elt F)),
    StableHlo.unary main_v4367 main_v4369 ((extractStridedSlice S32768x8 ![0, 8] · slices_S32768x16_S32768x8_0_8) : (⟨S32768x16, .f32⟩ : BufTy).Contents (Elt F) → (⟨S32768x8, .f32⟩ : BufTy).Contents (Elt F)),
    StableHlo.nullary main_cst_1353 (constant S_ .f32 0xC1F00000#32),
    StableHlo.nullary main_cst_1354 (constant S_ .f32 0x41F00000#32),
    StableHlo.TRef.unary (.of main_cst_1353 : StableHlo.TRef sig ⟨S_, .f32⟩) main_call388.v0 id,
    StableHlo.TRef.unary main_call388.v0 main_call388.v1 (broadcastInDim S32768x8 ![] bcast_S_S32768x8),
    StableHlo.TRef.binary main_call388.v1 (.of main_v4368 : StableHlo.TRef sig ⟨S32768x8, .f32⟩) main_call388.v2 maximumf,
    StableHlo.TRef.unary (.of main_cst_1354 : StableHlo.TRef sig ⟨S_, .f32⟩) main_call388.v3 id,
    StableHlo.TRef.unary main_call388.v3 main_call388.v4 (broadcastInDim S32768x8 ![] bcast_S_S32768x8),
    StableHlo.TRef.binary main_call388.v4 main_call388.v2 main_call388.v5 minimumf,
    StableHlo.nullary main_cst_1355 (constant S_ .f32 0xC1F00000#32),
    StableHlo.nullary main_cst_1356 (constant S_ .f32 0x41F00000#32),
    StableHlo.TRef.unary (.of main_cst_1355 : StableHlo.TRef sig ⟨S_, .f32⟩) main_call389.v0 id,
    StableHlo.TRef.unary main_call389.v0 main_call389.v1 (broadcastInDim S32768x8 ![] bcast_S_S32768x8),
    StableHlo.TRef.binary main_call389.v1 (.of main_v4369 : StableHlo.TRef sig ⟨S32768x8, .f32⟩) main_call389.v2 maximumf,
    StableHlo.TRef.unary (.of main_cst_1356 : StableHlo.TRef sig ⟨S_, .f32⟩) main_call389.v3 id,
    StableHlo.TRef.unary main_call389.v3 main_call389.v4 (broadcastInDim S32768x8 ![] bcast_S_S32768x8),
    StableHlo.TRef.binary main_call389.v4 main_call389.v2 main_call389.v5 minimumf,
    StableHlo.unary main_v4370 main_v4372 (Host.sign : (⟨S32768x8, .f32⟩ : BufTy).Contents (Elt F) → (⟨S32768x8, .f32⟩ : BufTy).Contents (Elt F)),
    StableHlo.unary main_v4371 main_v4373 (Host.sign : (⟨S32768x8, .f32⟩ : BufTy).Contents (Elt F) → (⟨S32768x8, .f32⟩ : BufTy).Contents (Elt F)),
    StableHlo.binary main_v4372 main_v4373 main_v4374 (mulf : (⟨S32768x8, .f32⟩ : BufTy).Contents (Elt F) → (⟨S32768x8, .f32⟩ : BufTy).Contents (Elt F) → (⟨S32768x8, .f32⟩ : BufTy).Contents (Elt F)),
    StableHlo.unary main_v4370 main_v4375 (Host.absf : (⟨S32768x8, .f32⟩ : BufTy).Contents (Elt F) → (⟨S32768x8, .f32⟩ : BufTy).Contents (Elt F)),
    StableHlo.unary main_v4371 main_v4376 (Host.absf : (⟨S32768x8, .f32⟩ : BufTy).Contents (Elt F) → (⟨S32768x8, .f32⟩ : BufTy).Contents (Elt F)),
    StableHlo.binary main_v4375 main_v4376 main_v4377 (minimumf : (⟨S32768x8, .f32⟩ : BufTy).Contents (Elt F) → (⟨S32768x8, .f32⟩ : BufTy).Contents (Elt F) → (⟨S32768x8, .f32⟩ : BufTy).Contents (Elt F)),
    StableHlo.binary main_v4374 main_v4377 main_v4378 (mulf : (⟨S32768x8, .f32⟩ : BufTy).Contents (Elt F) → (⟨S32768x8, .f32⟩ : BufTy).Contents (Elt F) → (⟨S32768x8, .f32⟩ : BufTy).Contents (Elt F)),
    StableHlo.unary main_v4378 main_v4379 ((extractStridedSlice S32768x4 ![0, 0] · slices_S32768x8_S32768x4_0_0) : (⟨S32768x8, .f32⟩ : BufTy).Contents (Elt F) → (⟨S32768x4, .f32⟩ : BufTy).Contents (Elt F)),
    StableHlo.unary main_v4378 main_v4380 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_1357 (constant S_ .f32 0xC1F00000#32),
    StableHlo.nullary main_cst_1358 (constant S_ .f32 0x41F00000#32),
    StableHlo.TRef.unary (.of main_cst_1357 : StableHlo.TRef sig ⟨S_, .f32⟩) main_call390.v0 id,
    StableHlo.TRef.unary main_call390.v0 main_call390.v1 (broadcastInDim S32768x4 ![] bcast_S_S32768x4),
    StableHlo.TRef.binary main_call390.v1 (.of main_v4379 : StableHlo.TRef sig ⟨S32768x4, .f32⟩) main_call390.v2 maximumf,
    StableHlo.TRef.unary (.of main_cst_1358 : StableHlo.TRef sig ⟨S_, .f32⟩) main_call390.v3 id,
    StableHlo.TRef.unary main_call390.v3 main_call390.v4 (broadcastInDim S32768x4 ![] bcast_S_S32768x4),
    StableHlo.TRef.binary main_call390.v4 main_call390.v2 main_call390.v5 minimumf,
    StableHlo.nullary main_cst_1359 (constant S_ .f32 0xC1F00000#32),
    StableHlo.nullary main_cst_1360 (constant S_ .f32 0x41F00000#32),
    StableHlo.TRef.unary (.of main_cst_1359 : StableHlo.TRef sig ⟨S_, .f32⟩) main_call391.v0 id,
    StableHlo.TRef.unary main_call391.v0 main_call391.v1 (broadcastInDim S32768x4 ![] bcast_S_S32768x4),
    StableHlo.TRef.binary main_call391.v1 (.of main_v4380 : StableHlo.TRef sig ⟨S32768x4, .f32⟩) main_call391.v2 maximumf,
    StableHlo.TRef.unary (.of main_cst_1360 : StableHlo.TRef sig ⟨S_, .f32⟩) main_call391.v3 id,
    StableHlo.TRef.unary main_call391.v3 main_call391.v4 (broadcastInDim S32768x4 ![] bcast_S_S32768x4),
    StableHlo.TRef.binary main_call391.v4 main_call391.v2 main_call391.v5 minimumf,
    StableHlo.unary main_v4381 main_v4383 (Host.sign : (⟨S32768x4, .f32⟩ : BufTy).Contents (Elt F) → (⟨S32768x4, .f32⟩ : BufTy).Contents (Elt F)),
    StableHlo.unary main_v4382 main_v4384 (Host.sign : (⟨S32768x4, .f32⟩ : BufTy).Contents (Elt F) → (⟨S32768x4, .f32⟩ : BufTy).Contents (Elt F)),
    StableHlo.binary main_v4383 main_v4384 main_v4385 (mulf : (⟨S32768x4, .f32⟩ : BufTy).Contents (Elt F) → (⟨S32768x4, .f32⟩ : BufTy).Contents (Elt F) → (⟨S32768x4, .f32⟩ : BufTy).Contents (Elt F)),
    StableHlo.unary main_v4381 main_v4386 (Host.absf : (⟨S32768x4, .f32⟩ : BufTy).Contents (Elt F) → (⟨S32768x4, .f32⟩ : BufTy).Contents (Elt F)),
    StableHlo.unary main_v4382 main_v4387 (Host.absf : (⟨S32768x4, .f32⟩ : BufTy).Contents (Elt F) → (⟨S32768x4, .f32⟩ : BufTy).Contents (Elt F)),
    StableHlo.binary main_v4386 main_v4387 main_v4388 (minimumf : (⟨S32768x4, .f32⟩ : BufTy).Contents (Elt F) → (⟨S32768x4, .f32⟩ : BufTy).Contents (Elt F) → (⟨S32768x4, .f32⟩ : BufTy).Contents (Elt F)),
    StableHlo.binary main_v4385 main_v4388 main_v4389 (mulf : (⟨S32768x4, .f32⟩ : BufTy).Contents (Elt F) → (⟨S32768x4, .f32⟩ : BufTy).Contents (Elt F) → (⟨S32768x4, .f32⟩ : BufTy).Contents (Elt F)),
    StableHlo.unary main_v4389 main_v4390 ((extractStridedSlice S32768x2 ![0, 0] · slices_S32768x4_S32768x2_0_0) : (⟨S32768x4, .f32⟩ : BufTy).Contents (Elt F) → (⟨S32768x2, .f32⟩ : BufTy).Contents (Elt F)),
    StableHlo.unary main_v4389 main_v4391 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1361 (constant S_ .f32 0xC1F00000#32),
    StableHlo.nullary main_cst_1362 (constant S_ .f32 0x41F00000#32),
    StableHlo.TRef.unary (.of main_cst_1361 : StableHlo.TRef sig ⟨S_, .f32⟩) main_call392.v0 id,
    StableHlo.TRef.unary main_call392.v0 main_call392.v1 (broadcastInDim S32768x2 ![] bcast_S_S32768x2),
    StableHlo.TRef.binary main_call392.v1 (.of main_v4390 : StableHlo.TRef sig ⟨S32768x2, .f32⟩) main_call392.v2 maximumf,
    StableHlo.TRef.unary (.of main_cst_1362 : StableHlo.TRef sig ⟨S_, .f32⟩) main_call392.v3 id,
    StableHlo.TRef.unary main_call392.v3 main_call392.v4 (broadcastInDim S32768x2 ![] bcast_S_S32768x2),
    StableHlo.TRef.binary main_call392.v4 main_call392.v2 main_call392.v5 minimumf,
    StableHlo.nullary main_cst_1363 (constant S_ .f32 0xC1F00000#32),
    StableHlo.nullary main_cst_1364 (constant S_ .f32 0x41F00000#32) ]

set_option maxRecDepth 8192 in
/-- The window is that straight line: each clip function unfolded at its calls, the sequencing reassociated. -/
theorem part_eq_95 (d : Dev nD) : main_part95 (F := F) d = seq ops95 := by
  simp only [main_part95, fn_clip_1.body, fn_clip_2.body, fn_clip_3.body, fn_clip_4.body, fn_clip_5.body, seq, bind_assoc, pure_bind]
  rfl

/-- Every operation of the window touches TensorCore references only. -/
theorem sub_95 : (ops95 : List (HloOp τ sig (Elt F))).Forall fun op => op.bufs ⊆ tcRefs τ sig :=
  ⟨unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub ..⟩

/-- Every operation of the window determines all it writes. -/
theorem fresh_95 : (ops95 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_95 (V : Valuation τ sig (Elt F)) :
    after ops95 V (main_arg0 : DevRef τ sig) = V (main_arg0 : DevRef τ sig) := by
  simp only [after_cons, after_nil]
  rfl

end Cert.ReferenceIdeal.RefRun

end
-- ==== Proof.RefRun.W12.lean ====
import proofs.«134088_j24077586662034_2_alg».proof.Defs
import proofs.«134088_j24077586662034_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 5761 … 5820, in order (85 of them): a statement's own operation, or, for a call
    of a clip function, the six operations of its body over that call's buffers. -/
abbrev ops96 : List (HloOp τ sig (Elt F)) :=
  [ StableHlo.TRef.unary (.of main_cst_1363 : StableHlo.TRef sig ⟨S_, .f32⟩) main_call393.v0 id,
    StableHlo.TRef.unary main_call393.v0 main_call393.v1 (broadcastInDim S32768x2 ![] bcast_S_S32768x2),
    StableHlo.TRef.binary main_call393.v1 (.of main_v4391 : StableHlo.TRef sig ⟨S32768x2, .f32⟩) main_call393.v2 maximumf,
    StableHlo.TRef.unary (.of main_cst_1364 : StableHlo.TRef sig ⟨S_, .f32⟩) main_call393.v3 id,
    StableHlo.TRef.unary main_call393.v3 main_call393.v4 (broadcastInDim S32768x2 ![] bcast_S_S32768x2),
    StableHlo.TRef.binary main_call393.v4 main_call393.v2 main_call393.v5 minimumf,
    StableHlo.unary main_v4392 main_v4394 (Host.sign : (⟨S32768x2, .f32⟩ : BufTy).Contents (Elt F) → (⟨S32768x2, .f32⟩ : BufTy).Contents (Elt F)),
    StableHlo.unary main_v4393 main_v4395 (Host.sign : (⟨S32768x2, .f32⟩ : BufTy).Contents (Elt F) → (⟨S32768x2, .f32⟩ : BufTy).Contents (Elt F)),
    StableHlo.binary main_v4394 main_v4395 main_v4396 (mulf : (⟨S32768x2, .f32⟩ : BufTy).Contents (Elt F) → (⟨S32768x2, .f32⟩ : BufTy).Contents (Elt F) → (⟨S32768x2, .f32⟩ : BufTy).Contents (Elt F)),
    StableHlo.unary main_v4392 main_v4397 (Host.absf : (⟨S32768x2, .f32⟩ : BufTy).Contents (Elt F) → (⟨S32768x2, .f32⟩ : BufTy).Contents (Elt F)),
    StableHlo.unary main_v4393 main_v4398 (Host.absf : (⟨S32768x2, .f32⟩ : BufTy).Contents (Elt F) → (⟨S32768x2, .f32⟩ : BufTy).Contents (Elt F)),
    StableHlo.binary main_v4397 main_v4398 main_v4399 (minimumf : (⟨S32768x2, .f32⟩ : BufTy).Contents (Elt F) → (⟨S32768x2, .f32⟩ : BufTy).Contents (Elt F) → (⟨S32768x2, .f32⟩ : BufTy).Contents (Elt F)),
    StableHlo.binary main_v4396 main_v4399 main_v4400 (mulf : (⟨S32768x2, .f32⟩ : BufTy).Contents (Elt F) → (⟨S32768x2, .f32⟩ : BufTy).Contents (Elt F) → (⟨S32768x2, .f32⟩ : BufTy).Contents (Elt F)),
    StableHlo.unary main_v4400 main_v4401 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4400 main_v4402 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1365 (constant S_ .f32 0xC1F00000#32),
    StableHlo.nullary main_cst_1366 (constant S_ .f32 0x41F00000#32),
    StableHlo.TRef.unary (.of main_cst_1365 : StableHlo.TRef sig ⟨S_, .f32⟩) main_call394.v0 id,
    StableHlo.TRef.unary main_call394.v0 main_call394.v1 (broadcastInDim S32768x1 ![] bcast_S_S32768x1),
    StableHlo.TRef.binary main_call394.v1 (.of main_v4401 : StableHlo.TRef sig ⟨S32768x1, .f32⟩) main_call394.v2 maximumf,
    StableHlo.TRef.unary (.of main_cst_1366 : StableHlo.TRef sig ⟨S_, .f32⟩) main_call394.v3 id,
    StableHlo.TRef.unary main_call394.v3 main_call394.v4 (broadcastInDim S32768x1 ![] bcast_S_S32768x1),
    StableHlo.TRef.binary main_call394.v4 main_call394.v2 main_call394.v5 minimumf,
    StableHlo.nullary main_cst_1367 (constant S_ .f32 0xC1F00000#32),
    StableHlo.nullary main_cst_1368 (constant S_ .f32 0x41F00000#32),
    StableHlo.TRef.unary (.of main_cst_1367 : StableHlo.TRef sig ⟨S_, .f32⟩) main_call395.v0 id,
    StableHlo.TRef.unary main_call395.v0 main_call395.v1 (broadcastInDim S32768x1 ![] bcast_S_S32768x1),
    StableHlo.TRef.binary main_call395.v1 (.of main_v4402 : StableHlo.TRef sig ⟨S32768x1, .f32⟩) main_call395.v2 maximumf,
    StableHlo.TRef.unary (.of main_cst_1368 : StableHlo.TRef sig ⟨S_, .f32⟩) main_call395.v3 id,
    StableHlo.TRef.unary main_call395.v3 main_call395.v4 (broadcastInDim S32768x1 ![] bcast_S_S32768x1),
    StableHlo.TRef.binary main_call395.v4 main_call395.v2 main_call395.v5 minimumf,
    StableHlo.unary main_v4403 main_v4405 (Host.sign : (⟨S32768x1, .f32⟩ : BufTy).Contents (Elt F) → (⟨S32768x1, .f32⟩ : BufTy).Contents (Elt F)),
    StableHlo.unary main_v4404 main_v4406 (Host.sign : (⟨S32768x1, .f32⟩ : BufTy).Contents (Elt F) → (⟨S32768x1, .f32⟩ : BufTy).Contents (Elt F)),
    StableHlo.binary main_v4405 main_v4406 main_v4407 (mulf : (⟨S32768x1, .f32⟩ : BufTy).Contents (Elt F) → (⟨S32768x1, .f32⟩ : BufTy).Contents (Elt F) → (⟨S32768x1, .f32⟩ : BufTy).Contents (Elt F)),
    StableHlo.unary main_v4403 main_v4408 (Host.absf : (⟨S32768x1, .f32⟩ : BufTy).Contents (Elt F) → (⟨S32768x1, .f32⟩ : BufTy).Contents (Elt F)),
    StableHlo.unary main_v4404 main_v4409 (Host.absf : (⟨S32768x1, .f32⟩ : BufTy).Contents (Elt F) → (⟨S32768x1, .f32⟩ : BufTy).Contents (Elt F)),
    StableHlo.binary main_v4408 main_v4409 main_v4410 (minimumf : (⟨S32768x1, .f32⟩ : BufTy).Contents (Elt F) → (⟨S32768x1, .f32⟩ : BufTy).Contents (Elt F) → (⟨S32768x1, .f32⟩ : BufTy).Contents (Elt F)),
    StableHlo.binary main_v4407 main_v4410 main_v4411 (mulf : (⟨S32768x1, .f32⟩ : BufTy).Contents (Elt F) → (⟨S32768x1, .f32⟩ : BufTy).Contents (Elt F) → (⟨S32768x1, .f32⟩ : BufTy).Contents (Elt F)),
    StableHlo.nullary main_cst_1369 (constant S_ .f32 0x00000000#32),
    StableHlo.unary main_cst_1369 main_v4412 (broadcastInDim S32768x1 ![] bcast_S_S32768x1 : (⟨S_, .f32⟩ : BufTy).Contents (Elt F) → (⟨S32768x1, .f32⟩ : BufTy).Contents (Elt F)),
    StableHlo.binary main_v4411 main_v4412 main_v4413 (cmpf .ole : (⟨S32768x1, .f32⟩ : BufTy).Contents (Elt F) → (⟨S32768x1, .f32⟩ : BufTy).Contents (Elt F) → (⟨S32768x1, .i1⟩ : BufTy).Contents (Elt F)),
    StableHlo.unary main_v4413 main_v4414 (uitofp .f32 : (⟨S32768x1, .i1⟩ : BufTy).Contents (Elt F) → (⟨S32768x1, .f32⟩ : BufTy).Contents (Elt F)),
    StableHlo.nullary main_cst_1370 (constant S_ .f32 0x40000000#32),
    StableHlo.unary main_cst_1370 main_v4415 (broadcastInDim S32768x1 ![] bcast_S_S32768x1 : (⟨S_, .f32⟩ : BufTy).Contents (Elt F) → (⟨S32768x1, .f32⟩ : BufTy).Contents (Elt F)),
    StableHlo.binary main_v4415 main_v4414 main_v4416 (mulf : (⟨S32768x1, .f32⟩ : BufTy).Contents (Elt F) → (⟨S32768x1, .f32⟩ : BufTy).Contents (Elt F) → (⟨S32768x1, .f32⟩ : BufTy).Contents (Elt F)),
    StableHlo.nullary main_cst_1371 (constant S_ .f32 0x3F800000#32),
    StableHlo.unary main_cst_1371 main_v4417 (broadcastInDim S32768x1 ![] bcast_S_S32768x1 : (⟨S_, .f32⟩ : BufTy).Contents (Elt F) → (⟨S32768x1, .f32⟩ : BufTy).Contents (Elt F)),
    StableHlo.binary main_v4417 main_v4416 main_v4418 (subf : (⟨S32768x1, .f32⟩ : BufTy).Contents (Elt F) → (⟨S32768x1, .f32⟩ : BufTy).Contents (Elt F) → (⟨S32768x1, .f32⟩ : BufTy).Contents (Elt F)),
    StableHlo.binary main_v4418 main_v4401 main_v4419 (mulf : (⟨S32768x1, .f32⟩ : BufTy).Contents (Elt F) → (⟨S32768x1, .f32⟩ : BufTy).Contents (Elt F) → (⟨S32768x1, .f32⟩ : BufTy).Contents (Elt F)),
    StableHlo.binary main_v4419 main_v4402 main_v4420 (addf : (⟨S32768x1, .f32⟩ : BufTy).Contents (Elt F) → (⟨S32768x1, .f32⟩ : BufTy).Contents (Elt F) → (⟨S32768x1, .f32⟩ : BufTy).Contents (Elt F)),
    StableHlo.nullary main_cst_1372 (constant S_ .f32 0x00000000#32),
    StableHlo.unary main_cst_1372 main_v4421 (broadcastInDim S32768x1 ![] bcast_S_S32768x1 : (⟨S_, .f32⟩ : BufTy).Contents (Elt F) → (⟨S32768x1, .f32⟩ : BufTy).Contents (Elt F)),
    StableHlo.binary main_v4420 main_v4421 main_v4422 (cmpf .ole : (⟨S32768x1, .f32⟩ : BufTy).Contents (Elt F) → (⟨S32768x1, .f32⟩ : BufTy).Contents (Elt F) → (⟨S32768x1, .i1⟩ : BufTy).Contents (Elt F)),
    StableHlo.unary main_v4422 main_v4423 (uitofp .f32 : (⟨S32768x1, .i1⟩ : BufTy).Contents (Elt F) → (⟨S32768x1, .f32⟩ : BufTy).Contents (Elt F)),
    StableHlo.binary main_v4414 main_v4423 main_v4424 (cmpf .une : (⟨S32768x1, .f32⟩ : BufTy).Contents (Elt F) → (⟨S32768x1, .f32⟩ : BufTy).Contents (Elt F) → (⟨S32768x1, .i1⟩ : BufTy).Contents (Elt F)),
    StableHlo.unary main_v4424 main_v4425 (uitofp .f32 : (⟨S32768x1, .i1⟩ : BufTy).Contents (Elt F) → (⟨S32768x1, .f32⟩ : BufTy).Contents (Elt F)),
    StableHlo.binary main_v4425 main_v4423 main_v4426 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4414 main_v4423 main_v4427 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1373 (constant S_ .f32 0x40000000#32),
    StableHlo.unary main_cst_1373 main_v4428 (broadcastInDim S32768x2 ![] bcast_S_S32768x2 : (⟨S_, .f32⟩ : BufTy).Contents (Elt F) → (⟨S32768x2, .f32⟩ : BufTy).Contents (Elt F)),
    StableHlo.binary main_v4428 main_v4426 main_v4429 (mulf : (⟨S32768x2, .f32⟩ : BufTy).Contents (Elt F) → (⟨S32768x2, .f32⟩ : BufTy).Contents (Elt F) → (⟨S32768x2, .f32⟩ : BufTy).Contents (Elt F)),
    StableHlo.nullary main_cst_1374 (constant S_ .f32 0x3F800000#32),
    StableHlo.unary main_cst_1374 main_v4430 (broadcastInDim S32768x2 ![] bcast_S_S32768x2 : (⟨S_, .f32⟩ : BufTy).Contents (Elt F) → (⟨S32768x2, .f32⟩ : BufTy).Contents (Elt F)),
    StableHlo.binary main_v4430 main_v4429 main_v4431 (subf : (⟨S32768x2, .f32⟩ : BufTy).Contents (Elt F) → (⟨S32768x2, .f32⟩ : BufTy).Contents (Elt F) → (⟨S32768x2, .f32⟩ : BufTy).Contents (Elt F)),
    StableHlo.binary main_v4431 main_v4390 main_v4432 (mulf : (⟨S32768x2, .f32⟩ : BufTy).Contents (Elt F) → (⟨S32768x2, .f32⟩ : BufTy).Contents (Elt F) → (⟨S32768x2, .f32⟩ : BufTy).Contents (Elt F)),
    StableHlo.binary main_v4432 main_v4391 main_v4433 (addf : (⟨S32768x2, .f32⟩ : BufTy).Contents (Elt F) → (⟨S32768x2, .f32⟩ : BufTy).Contents (Elt F) → (⟨S32768x2, .f32⟩ : BufTy).Contents (Elt F)),
    StableHlo.unary main_v4433 main_v4434 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4433 main_v4435 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1375 (constant S_ .f32 0xC1F00000#32),
    StableHlo.nullary main_cst_1376 (constant S_ .f32 0x41F00000#32),
    StableHlo.TRef.unary (.of main_cst_1375 : StableHlo.TRef sig ⟨S_, .f32⟩) main_call396.v0 id,
    StableHlo.TRef.unary main_call396.v0 main_call396.v1 (broadcastInDim S32768x1 ![] bcast_S_S32768x1),
    StableHlo.TRef.binary main_call396.v1 (.of main_v4434 : StableHlo.TRef sig ⟨S32768x1, .f32⟩) main_call396.v2 maximumf,
    StableHlo.TRef.unary (.of main_cst_1376 : StableHlo.TRef sig ⟨S_, .f32⟩) main_call396.v3 id,
    StableHlo.TRef.unary main_call396.v3 main_call396.v4 (broadcastInDim S32768x1 ![] bcast_S_S32768x1),
    StableHlo.TRef.binary main_call396.v4 main_call396.v2 main_call396.v5 minimumf,
    StableHlo.nullary main_cst_1377 (constant S_ .f32 0xC1F00000#32),
    StableHlo.nullary main_cst_1378 (constant S_ .f32 0x41F00000#32),
    StableHlo.TRef.unary (.of main_cst_1377 : StableHlo.TRef sig ⟨S_, .f32⟩) main_call397.v0 id,
    StableHlo.TRef.unary main_call397.v0 main_call397.v1 (broadcastInDim S32768x1 ![] bcast_S_S32768x1),
    StableHlo.TRef.binary main_call397.v1 (.of main_v4435 : StableHlo.TRef sig ⟨S32768x1, .f32⟩) main_call397.v2 maximumf,
    StableHlo.TRef.unary (.of main_cst_1378 : StableHlo.TRef sig ⟨S_, .f32⟩) main_call397.v3 id,
    StableHlo.TRef.unary main_call397.v3 main_call397.v4 (broadcastInDim S32768x1 ![] bcast_S_S32768x1),
    StableHlo.TRef.binary main_call397.v4 main_call397.v2 main_call397.v5 minimumf,
    StableHlo.unary main_v4436 main_v4438 (Host.sign : (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_96 (d : Dev nD) : main_part96 (F := F) d = seq ops96 := by
  simp only [main_part96, fn_clip_5.body, fn_clip_6.body, seq, bind_assoc, pure_bind]
  rfl

/-- Every operation of the window touches TensorCore references only. -/
theorem sub_96 : (ops96 : List (HloOp τ sig (Elt F))).Forall fun op => op.bufs ⊆ tcRefs τ sig :=
  ⟨unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub ..⟩

/-- Every operation of the window determines all it writes. -/
theorem fresh_96 : (ops96 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_96 (V : Valuation τ sig (Elt F)) :
    after ops96 V (main_arg0 : DevRef τ sig) = V (main_arg0 : DevRef τ sig) := by
  simp only [after_cons, after_nil]
  rfl

/-- The operations of @main's statements 5821 … 5880, in order (75 of them): a statement's own operation, or, for a call
    of a clip function, the six operations of its body over that call's buffers. -/
abbrev ops97 : List (HloOp τ sig (Elt F)) :=
  [ StableHlo.unary main_v4437 main_v4439 (Host.sign : (⟨S32768x1, .f32⟩ : BufTy).Contents (Elt F) → (⟨S32768x1, .f32⟩ : BufTy).Contents (Elt F)),
    StableHlo.binary main_v4438 main_v4439 main_v4440 (mulf : (⟨S32768x1, .f32⟩ : BufTy).Contents (Elt F) → (⟨S32768x1, .f32⟩ : BufTy).Contents (Elt F) → (⟨S32768x1, .f32⟩ : BufTy).Contents (Elt F)),
    StableHlo.unary main_v4436 main_v4441 (Host.absf : (⟨S32768x1, .f32⟩ : BufTy).Contents (Elt F) → (⟨S32768x1, .f32⟩ : BufTy).Contents (Elt F)),
    StableHlo.unary main_v4437 main_v4442 (Host.absf : (⟨S32768x1, .f32⟩ : BufTy).Contents (Elt F) → (⟨S32768x1, .f32⟩ : BufTy).Contents (Elt F)),
    StableHlo.binary main_v4441 main_v4442 main_v4443 (minimumf : (⟨S32768x1, .f32⟩ : BufTy).Contents (Elt F) → (⟨S32768x1, .f32⟩ : BufTy).Contents (Elt F) → (⟨S32768x1, .f32⟩ : BufTy).Contents (Elt F)),
    StableHlo.binary main_v4440 main_v4443 main_v4444 (mulf : (⟨S32768x1, .f32⟩ : BufTy).Contents (Elt F) → (⟨S32768x1, .f32⟩ : BufTy).Contents (Elt F) → (⟨S32768x1, .f32⟩ : BufTy).Contents (Elt F)),
    StableHlo.nullary main_cst_1379 (constant S_ .f32 0x00000000#32),
    StableHlo.unary main_cst_1379 main_v4445 (broadcastInDim S32768x1 ![] bcast_S_S32768x1 : (⟨S_, .f32⟩ : BufTy).Contents (Elt F) → (⟨S32768x1, .f32⟩ : BufTy).Contents (Elt F)),
    StableHlo.binary main_v4444 main_v4445 main_v4446 (cmpf .ole : (⟨S32768x1, .f32⟩ : BufTy).Contents (Elt F) → (⟨S32768x1, .f32⟩ : BufTy).Contents (Elt F) → (⟨S32768x1, .i1⟩ : BufTy).Contents (Elt F)),
    StableHlo.unary main_v4446 main_v4447 (uitofp .f32 : (⟨S32768x1, .i1⟩ : BufTy).Contents (Elt F) → (⟨S32768x1, .f32⟩ : BufTy).Contents (Elt F)),
    StableHlo.nullary main_cst_1380 (constant S_ .f32 0x40000000#32),
    StableHlo.unary main_cst_1380 main_v4448 (broadcastInDim S32768x1 ![] bcast_S_S32768x1 : (⟨S_, .f32⟩ : BufTy).Contents (Elt F) → (⟨S32768x1, .f32⟩ : BufTy).Contents (Elt F)),
    StableHlo.binary main_v4448 main_v4447 main_v4449 (mulf : (⟨S32768x1, .f32⟩ : BufTy).Contents (Elt F) → (⟨S32768x1, .f32⟩ : BufTy).Contents (Elt F) → (⟨S32768x1, .f32⟩ : BufTy).Contents (Elt F)),
    StableHlo.nullary main_cst_1381 (constant S_ .f32 0x3F800000#32),
    StableHlo.unary main_cst_1381 main_v4450 (broadcastInDim S32768x1 ![] bcast_S_S32768x1 : (⟨S_, .f32⟩ : BufTy).Contents (Elt F) → (⟨S32768x1, .f32⟩ : BufTy).Contents (Elt F)),
    StableHlo.binary main_v4450 main_v4449 main_v4451 (subf : (⟨S32768x1, .f32⟩ : BufTy).Contents (Elt F) → (⟨S32768x1, .f32⟩ : BufTy).Contents (Elt F) → (⟨S32768x1, .f32⟩ : BufTy).Contents (Elt F)),
    StableHlo.binary main_v4451 main_v4434 main_v4452 (mulf : (⟨S32768x1, .f32⟩ : BufTy).Contents (Elt F) → (⟨S32768x1, .f32⟩ : BufTy).Contents (Elt F) → (⟨S32768x1, .f32⟩ : BufTy).Contents (Elt F)),
    StableHlo.binary main_v4452 main_v4435 main_v4453 (addf : (⟨S32768x1, .f32⟩ : BufTy).Contents (Elt F) → (⟨S32768x1, .f32⟩ : BufTy).Contents (Elt F) → (⟨S32768x1, .f32⟩ : BufTy).Contents (Elt F)),
    StableHlo.nullary main_cst_1382 (constant S_ .f32 0x00000000#32),
    StableHlo.unary main_cst_1382 main_v4454 (broadcastInDim S32768x1 ![] bcast_S_S32768x1 : (⟨S_, .f32⟩ : BufTy).Contents (Elt F) → (⟨S32768x1, .f32⟩ : BufTy).Contents (Elt F)),
    StableHlo.binary main_v4453 main_v4454 main_v4455 (cmpf .ole : (⟨S32768x1, .f32⟩ : BufTy).Contents (Elt F) → (⟨S32768x1, .f32⟩ : BufTy).Contents (Elt F) → (⟨S32768x1, .i1⟩ : BufTy).Contents (Elt F)),
    StableHlo.unary main_v4455 main_v4456 (uitofp .f32 : (⟨S32768x1, .i1⟩ : BufTy).Contents (Elt F) → (⟨S32768x1, .f32⟩ : BufTy).Contents (Elt F)),
    StableHlo.binary main_v4447 main_v4456 main_v4457 (cmpf .une : (⟨S32768x1, .f32⟩ : BufTy).Contents (Elt F) → (⟨S32768x1, .f32⟩ : BufTy).Contents (Elt F) → (⟨S32768x1, .i1⟩ : BufTy).Contents (Elt F)),
    StableHlo.unary main_v4457 main_v4458 (uitofp .f32 : (⟨S32768x1, .i1⟩ : BufTy).Contents (Elt F) → (⟨S32768x1, .f32⟩ : BufTy).Contents (Elt F)),
    StableHlo.binary main_v4458 main_v4456 main_v4459 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4447 main_v4456 main_v4460 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4426 main_v4459 main_v4461 (cmpf .une : (⟨S32768x2, .f32⟩ : BufTy).Contents (Elt F) → (⟨S32768x2, .f32⟩ : BufTy).Contents (Elt F) → (⟨S32768x2, .i1⟩ : BufTy).Contents (Elt F)),
    StableHlo.unary main_v4461 main_v4462 (uitofp .f32 : (⟨S32768x2, .i1⟩ : BufTy).Contents (Elt F) → (⟨S32768x2, .f32⟩ : BufTy).Contents (Elt F)),
    StableHlo.binary main_v4462 main_v4459 main_v4463 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v4427 main_v4460 main_v4464 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_1383 (constant S_ .f32 0x40000000#32),
    StableHlo.unary main_cst_1383 main_v4465 (broadcastInDim S32768x4 ![] bcast_S_S32768x4 : (⟨S_, .f32⟩ : BufTy).Contents (Elt F) → (⟨S32768x4, .f32⟩ : BufTy).Contents (Elt F)),
    StableHlo.binary main_v4465 main_v4463 main_v4466 (mulf : (⟨S32768x4, .f32⟩ : BufTy).Contents (Elt F) → (⟨S32768x4, .f32⟩ : BufTy).Contents (Elt F) → (⟨S32768x4, .f32⟩ : BufTy).Contents (Elt F)),
    StableHlo.nullary main_cst_1384 (constant S_ .f32 0x3F800000#32),
    StableHlo.unary main_cst_1384 main_v4467 (broadcastInDim S32768x4 ![] bcast_S_S32768x4 : (⟨S_, .f32⟩ : BufTy).Contents (Elt F) → (⟨S32768x4, .f32⟩ : BufTy).Contents (Elt F)),
    StableHlo.binary main_v4467 main_v4466 main_v4468 (subf : (⟨S32768x4, .f32⟩ : BufTy).Contents (Elt F) → (⟨S32768x4, .f32⟩ : BufTy).Contents (Elt F) → (⟨S32768x4, .f32⟩ : BufTy).Contents (Elt F)),
    StableHlo.binary main_v4468 main_v4379 main_v4469 (mulf : (⟨S32768x4, .f32⟩ : BufTy).Contents (Elt F) → (⟨S32768x4, .f32⟩ : BufTy).Contents (Elt F) → (⟨S32768x4, .f32⟩ : BufTy).Contents (Elt F)),
    StableHlo.binary main_v4469 main_v4380 main_v4470 (addf : (⟨S32768x4, .f32⟩ : BufTy).Contents (Elt F) → (⟨S32768x4, .f32⟩ : BufTy).Contents (Elt F) → (⟨S32768x4, .f32⟩ : BufTy).Contents (Elt F)),
    StableHlo.unary main_v4470 main_v4471 ((extractStridedSlice S32768x2 ![0, 0] · slices_S32768x4_S32768x2_0_0) : (⟨S32768x4, .f32⟩ : BufTy).Contents (Elt F) → (⟨S32768x2, .f32⟩ : BufTy).Contents (Elt F)),
    StableHlo.unary main_v4470 main_v4472 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1385 (constant S_ .f32 0xC1F00000#32),
    StableHlo.nullary main_cst_1386 (constant S_ .f32 0x41F00000#32),
    StableHlo.TRef.unary (.of main_cst_1385 : StableHlo.TRef sig ⟨S_, .f32⟩) main_call398.v0 id,
    StableHlo.TRef.unary main_call398.v0 main_call398.v1 (broadcastInDim S32768x2 ![] bcast_S_S32768x2),
    StableHlo.TRef.binary main_call398.v1 (.of main_v4471 : StableHlo.TRef sig ⟨S32768x2, .f32⟩) main_call398.v2 maximumf,
    StableHlo.TRef.unary (.of main_cst_1386 : StableHlo.TRef sig ⟨S_, .f32⟩) main_call398.v3 id,
    StableHlo.TRef.unary main_call398.v3 main_call398.v4 (broadcastInDim S32768x2 ![] bcast_S_S32768x2),
    StableHlo.TRef.binary main_call398.v4 main_call398.v2 main_call398.v5 minimumf,
    StableHlo.nullary main_cst_1387 (constant S_ .f32 0xC1F00000#32),
    StableHlo.nullary main_cst_1388 (constant S_ .f32 0x41F00000#32),
    StableHlo.TRef.unary (.of main_cst_1387 : StableHlo.TRef sig ⟨S_, .f32⟩) main_call399.v0 id,
    StableHlo.TRef.unary main_call399.v0 main_call399.v1 (broadcastInDim S32768x2 ![] bcast_S_S32768x2),
    StableHlo.TRef.binary main_call399.v1 (.of main_v4472 : StableHlo.TRef sig ⟨S32768x2, .f32⟩) main_call399.v2 maximumf,
    StableHlo.TRef.unary (.of main_cst_1388 : StableHlo.TRef sig ⟨S_, .f32⟩) main_call399.v3 id,
    StableHlo.TRef.unary main_call399.v3 main_call399.v4 (broadcastInDim S32768x2 ![] bcast_S_S32768x2),
    StableHlo.TRef.binary main_call399.v4 main_call399.v2 main_call399.v5 minimumf,
    StableHlo.unary main_v4473 main_v4475 (Host.sign : (⟨S32768x2, .f32⟩ : BufTy).Contents (Elt F) → (⟨S32768x2, .f32⟩ : BufTy).Contents (Elt F)),
    StableHlo.unary main_v4474 main_v4476 (Host.sign : (⟨S32768x2, .f32⟩ : BufTy).Contents (Elt F) → (⟨S32768x2, .f32⟩ : BufTy).Contents (Elt F)),
    StableHlo.binary main_v4475 main_v4476 main_v4477 (mulf : (⟨S32768x2, .f32⟩ : BufTy).Contents (Elt F) → (⟨S32768x2, .f32⟩ : BufTy).Contents (Elt F) → (⟨S32768x2, .f32⟩ : BufTy).Contents (Elt F)),
    StableHlo.unary main_v4473 main_v4478 (Host.absf : (⟨S32768x2, .f32⟩ : BufTy).Contents (Elt F) → (⟨S32768x2, .f32⟩ : BufTy).Contents (Elt F)),
    StableHlo.unary main_v4474 main_v4479 (Host.absf : (⟨S32768x2, .f32⟩ : BufTy).Contents (Elt F) → (⟨S32768x2, .f32⟩ : BufTy).Contents (Elt F)),
    StableHlo.binary main_v4478 main_v4479 main_v4480 (minimumf : (⟨S32768x2, .f32⟩ : BufTy).Contents (Elt F) → (⟨S32768x2, .f32⟩ : BufTy).Contents (Elt F) → (⟨S32768x2, .f32⟩ : BufTy).Contents (Elt F)),
    StableHlo.binary main_v4477 main_v4480 main_v4481 (mulf : (⟨S32768x2, .f32⟩ : BufTy).Contents (Elt F) → (⟨S32768x2, .f32⟩ : BufTy).Contents (Elt F) → (⟨S32768x2, .f32⟩ : BufTy).Contents (Elt F)),
    StableHlo.unary main_v4481 main_v4482 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4481 main_v4483 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1389 (constant S_ .f32 0xC1F00000#32),
    StableHlo.nullary main_cst_1390 (constant S_ .f32 0x41F00000#32),
    StableHlo.TRef.unary (.of main_cst_1389 : StableHlo.TRef sig ⟨S_, .f32⟩) main_call400.v0 id,
    StableHlo.TRef.unary main_call400.v0 main_call400.v1 (broadcastInDim S32768x1 ![] bcast_S_S32768x1),
    StableHlo.TRef.binary main_call400.v1 (.of main_v4482 : StableHlo.TRef sig ⟨S32768x1, .f32⟩) main_call400.v2 maximumf,
    StableHlo.TRef.unary (.of main_cst_1390 : StableHlo.TRef sig ⟨S_, .f32⟩) main_call400.v3 id,
    StableHlo.TRef.unary main_call400.v3 main_call400.v4 (broadcastInDim S32768x1 ![] bcast_S_S32768x1),
    StableHlo.TRef.binary main_call400.v4 main_call400.v2 main_call400.v5 minimumf,
    StableHlo.nullary main_cst_1391 (constant S_ .f32 0xC1F00000#32),
    StableHlo.nullary main_cst_1392 (constant S_ .f32 0x41F00000#32) ]

set_option maxRecDepth 8192 in
/-- The window is that straight line: each clip function unfolded at its calls, the sequencing reassociated. -/
theorem part_eq_97 (d : Dev nD) : main_part97 (F := F) d = seq ops97 := by
  simp only [main_part97, fn_clip_5.body, fn_clip_6.body, seq, bind_assoc, pure_bind]
  rfl

/-- Every operation of the window touches TensorCore references only. -/
theorem sub_97 : (ops97 : List (HloOp τ sig (Elt F))).Forall fun op => op.bufs ⊆ tcRefs τ sig :=
  ⟨unary_bufs_sub .., binary_bufs_sub .., unary_bufs_sub .., unary_bufs_sub .., binary_bufs_sub .., binary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., unary_bufs_sub .., binary_bufs_sub .., unary_bufs_sub ..,
    binary_bufs_sub .., binary_bufs_sub .., binary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub ..⟩

/-- Every operation of the window determines all it writes. -/
theorem fresh_97 : (ops97 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
/-- The window writes no argument of @main: the argument's buffer holds after it what it held before. -/
theorem keep_97 (V : Valuation τ sig (Elt F)) :
    after ops97 V (main_arg0 : DevRef τ sig) = V (main_arg0 : DevRef τ sig) := by
  simp only [after_cons, after_nil]
  rfl

/-- The operations of @main's statements 5881 … 5940, in order (75 of them): a statement's own operation, or, for a call
    of a clip function, the six operations of its body over that call's buffers. -/
abbrev ops98 : List (HloOp τ sig (Elt F)) :=
  [ StableHlo.TRef.unary (.of main_cst_1391 : StableHlo.TRef sig ⟨S_, .f32⟩) main_call401.v0 id,
    StableHlo.TRef.unary main_call401.v0 main_call401.v1 (broadcastInDim S32768x1 ![] bcast_S_S32768x1),
    StableHlo.TRef.binary main_call401.v1 (.of main_v4483 : StableHlo.TRef sig ⟨S32768x1, .f32⟩) main_call401.v2 maximumf,
    StableHlo.TRef.unary (.of main_cst_1392 : StableHlo.TRef sig ⟨S_, .f32⟩) main_call401.v3 id,
    StableHlo.TRef.unary main_call401.v3 main_call401.v4 (broadcastInDim S32768x1 ![] bcast_S_S32768x1),
    StableHlo.TRef.binary main_call401.v4 main_call401.v2 main_call401.v5 minimumf,
    StableHlo.unary main_v4484 main_v4486 (Host.sign : (⟨S32768x1, .f32⟩ : BufTy).Contents (Elt F) → (⟨S32768x1, .f32⟩ : BufTy).Contents (Elt F)),
    StableHlo.unary main_v4485 main_v4487 (Host.sign : (⟨S32768x1, .f32⟩ : BufTy).Contents (Elt F) → (⟨S32768x1, .f32⟩ : BufTy).Contents (Elt F)),
    StableHlo.binary main_v4486 main_v4487 main_v4488 (mulf : (⟨S32768x1, .f32⟩ : BufTy).Contents (Elt F) → (⟨S32768x1, .f32⟩ : BufTy).Contents (Elt F) → (⟨S32768x1, .f32⟩ : BufTy).Contents (Elt F)),
    StableHlo.unary main_v4484 main_v4489 (Host.absf : (⟨S32768x1, .f32⟩ : BufTy).Contents (Elt F) → (⟨S32768x1, .f32⟩ : BufTy).Contents (Elt F)),
    StableHlo.unary main_v4485 main_v4490 (Host.absf : (⟨S32768x1, .f32⟩ : BufTy).Contents (Elt F) → (⟨S32768x1, .f32⟩ : BufTy).Contents (Elt F)),
    StableHlo.binary main_v4489 main_v4490 main_v4491 (minimumf : (⟨S32768x1, .f32⟩ : BufTy).Contents (Elt F) → (⟨S32768x1, .f32⟩ : BufTy).Contents (Elt F) → (⟨S32768x1, .f32⟩ : BufTy).Contents (Elt F)),
    StableHlo.binary main_v4488 main_v4491 main_v4492 (mulf : (⟨S32768x1, .f32⟩ : BufTy).Contents (Elt F) → (⟨S32768x1, .f32⟩ : BufTy).Contents (Elt F) → (⟨S32768x1, .f32⟩ : BufTy).Contents (Elt F)),
    StableHlo.nullary main_cst_1393 (constant S_ .f32 0x00000000#32),
    StableHlo.unary main_cst_1393 main_v4493 (broadcastInDim S32768x1 ![] bcast_S_S32768x1 : (⟨S_, .f32⟩ : BufTy).Contents (Elt F) → (⟨S32768x1, .f32⟩ : BufTy).Contents (Elt F)),
    StableHlo.binary main_v4492 main_v4493 main_v4494 (cmpf .ole : (⟨S32768x1, .f32⟩ : BufTy).Contents (Elt F) → (⟨S32768x1, .f32⟩ : BufTy).Contents (Elt F) → (⟨S32768x1, .i1⟩ : BufTy).Contents (Elt F)),
    StableHlo.unary main_v4494 main_v4495 (uitofp .f32 : (⟨S32768x1, .i1⟩ : BufTy).Contents (Elt F) → (⟨S32768x1, .f32⟩ : BufTy).Contents (Elt F)),
    StableHlo.nullary main_cst_1394 (constant S_ .f32 0x40000000#32),
    StableHlo.unary main_cst_1394 main_v4496 (broadcastInDim S32768x1 ![] bcast_S_S32768x1 : (⟨S_, .f32⟩ : BufTy).Contents (Elt F) → (⟨S32768x1, .f32⟩ : BufTy).Contents (Elt F)),
    StableHlo.binary main_v4496 main_v4495 main_v4497 (mulf : (⟨S32768x1, .f32⟩ : BufTy).Contents (Elt F) → (⟨S32768x1, .f32⟩ : BufTy).Contents (Elt F) → (⟨S32768x1, .f32⟩ : BufTy).Contents (Elt F)),
    StableHlo.nullary main_cst_1395 (constant S_ .f32 0x3F800000#32),
    StableHlo.unary main_cst_1395 main_v4498 (broadcastInDim S32768x1 ![] bcast_S_S32768x1 : (⟨S_, .f32⟩ : BufTy).Contents (Elt F) → (⟨S32768x1, .f32⟩ : BufTy).Contents (Elt F)),
    StableHlo.binary main_v4498 main_v4497 main_v4499 (subf : (⟨S32768x1, .f32⟩ : BufTy).Contents (Elt F) → (⟨S32768x1, .f32⟩ : BufTy).Contents (Elt F) → (⟨S32768x1, .f32⟩ : BufTy).Contents (Elt F)),
    StableHlo.binary main_v4499 main_v4482 main_v4500 (mulf : (⟨S32768x1, .f32⟩ : BufTy).Contents (Elt F) → (⟨S32768x1, .f32⟩ : BufTy).Contents (Elt F) → (⟨S32768x1, .f32⟩ : BufTy).Contents (Elt F)),
    StableHlo.binary main_v4500 main_v4483 main_v4501 (addf : (⟨S32768x1, .f32⟩ : BufTy).Contents (Elt F) → (⟨S32768x1, .f32⟩ : BufTy).Contents (Elt F) → (⟨S32768x1, .f32⟩ : BufTy).Contents (Elt F)),
    StableHlo.nullary main_cst_1396 (constant S_ .f32 0x00000000#32),
    StableHlo.unary main_cst_1396 main_v4502 (broadcastInDim S32768x1 ![] bcast_S_S32768x1 : (⟨S_, .f32⟩ : BufTy).Contents (Elt F) → (⟨S32768x1, .f32⟩ : BufTy).Contents (Elt F)),
    StableHlo.binary main_v4501 main_v4502 main_v4503 (cmpf .ole : (⟨S32768x1, .f32⟩ : BufTy).Contents (Elt F) → (⟨S32768x1, .f32⟩ : BufTy).Contents (Elt F) → (⟨S32768x1, .i1⟩ : BufTy).Contents (Elt F)),
    StableHlo.unary main_v4503 main_v4504 (uitofp .f32 : (⟨S32768x1, .i1⟩ : BufTy).Contents (Elt F) → (⟨S32768x1, .f32⟩ : BufTy).Contents (Elt F)),
    StableHlo.binary main_v4495 main_v4504 main_v4505 (cmpf .une : (⟨S32768x1, .f32⟩ : BufTy).Contents (Elt F) → (⟨S32768x1, .f32⟩ : BufTy).Contents (Elt F) → (⟨S32768x1, .i1⟩ : BufTy).Contents (Elt F)),
    StableHlo.unary main_v4505 main_v4506 (uitofp .f32 : (⟨S32768x1, .i1⟩ : BufTy).Contents (Elt F) → (⟨S32768x1, .f32⟩ : BufTy).Contents (Elt F)),
    StableHlo.binary main_v4506 main_v4504 main_v4507 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4495 main_v4504 main_v4508 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1397 (constant S_ .f32 0x40000000#32),
    StableHlo.unary main_cst_1397 main_v4509 (broadcastInDim S32768x2 ![] bcast_S_S32768x2 : (⟨S_, .f32⟩ : BufTy).Contents (Elt F) → (⟨S32768x2, .f32⟩ : BufTy).Contents (Elt F)),
    StableHlo.binary main_v4509 main_v4507 main_v4510 (mulf : (⟨S32768x2, .f32⟩ : BufTy).Contents (Elt F) → (⟨S32768x2, .f32⟩ : BufTy).Contents (Elt F) → (⟨S32768x2, .f32⟩ : BufTy).Contents (Elt F)),
    StableHlo.nullary main_cst_1398 (constant S_ .f32 0x3F800000#32),
    StableHlo.unary main_cst_1398 main_v4511 (broadcastInDim S32768x2 ![] bcast_S_S32768x2 : (⟨S_, .f32⟩ : BufTy).Contents (Elt F) → (⟨S32768x2, .f32⟩ : BufTy).Contents (Elt F)),
    StableHlo.binary main_v4511 main_v4510 main_v4512 (subf : (⟨S32768x2, .f32⟩ : BufTy).Contents (Elt F) → (⟨S32768x2, .f32⟩ : BufTy).Contents (Elt F) → (⟨S32768x2, .f32⟩ : BufTy).Contents (Elt F)),
    StableHlo.binary main_v4512 main_v4471 main_v4513 (mulf : (⟨S32768x2, .f32⟩ : BufTy).Contents (Elt F) → (⟨S32768x2, .f32⟩ : BufTy).Contents (Elt F) → (⟨S32768x2, .f32⟩ : BufTy).Contents (Elt F)),
    StableHlo.binary main_v4513 main_v4472 main_v4514 (addf : (⟨S32768x2, .f32⟩ : BufTy).Contents (Elt F) → (⟨S32768x2, .f32⟩ : BufTy).Contents (Elt F) → (⟨S32768x2, .f32⟩ : BufTy).Contents (Elt F)),
    StableHlo.unary main_v4514 main_v4515 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4514 main_v4516 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1399 (constant S_ .f32 0xC1F00000#32),
    StableHlo.nullary main_cst_1400 (constant S_ .f32 0x41F00000#32),
    StableHlo.TRef.unary (.of main_cst_1399 : StableHlo.TRef sig ⟨S_, .f32⟩) main_call402.v0 id,
    StableHlo.TRef.unary main_call402.v0 main_call402.v1 (broadcastInDim S32768x1 ![] bcast_S_S32768x1),
    StableHlo.TRef.binary main_call402.v1 (.of main_v4515 : StableHlo.TRef sig ⟨S32768x1, .f32⟩) main_call402.v2 maximumf,
    StableHlo.TRef.unary (.of main_cst_1400 : StableHlo.TRef sig ⟨S_, .f32⟩) main_call402.v3 id,
    StableHlo.TRef.unary main_call402.v3 main_call402.v4 (broadcastInDim S32768x1 ![] bcast_S_S32768x1),
    StableHlo.TRef.binary main_call402.v4 main_call402.v2 main_call402.v5 minimumf,
    StableHlo.nullary main_cst_1401 (constant S_ .f32 0xC1F00000#32),
    StableHlo.nullary main_cst_1402 (constant S_ .f32 0x41F00000#32),
    StableHlo.TRef.unary (.of main_cst_1401 : StableHlo.TRef sig ⟨S_, .f32⟩) main_call403.v0 id,
    StableHlo.TRef.unary main_call403.v0 main_call403.v1 (broadcastInDim S32768x1 ![] bcast_S_S32768x1),
    StableHlo.TRef.binary main_call403.v1 (.of main_v4516 : StableHlo.TRef sig ⟨S32768x1, .f32⟩) main_call403.v2 maximumf,
    StableHlo.TRef.unary (.of main_cst_1402 : StableHlo.TRef sig ⟨S_, .f32⟩) main_call403.v3 id,
    StableHlo.TRef.unary main_call403.v3 main_call403.v4 (broadcastInDim S32768x1 ![] bcast_S_S32768x1),
    StableHlo.TRef.binary main_call403.v4 main_call403.v2 main_call403.v5 minimumf,
    StableHlo.unary main_v4517 main_v4519 (Host.sign : (⟨S32768x1, .f32⟩ : BufTy).Contents (Elt F) → (⟨S32768x1, .f32⟩ : BufTy).Contents (Elt F)),
    StableHlo.unary main_v4518 main_v4520 (Host.sign : (⟨S32768x1, .f32⟩ : BufTy).Contents (Elt F) → (⟨S32768x1, .f32⟩ : BufTy).Contents (Elt F)),
    StableHlo.binary main_v4519 main_v4520 main_v4521 (mulf : (⟨S32768x1, .f32⟩ : BufTy).Contents (Elt F) → (⟨S32768x1, .f32⟩ : BufTy).Contents (Elt F) → (⟨S32768x1, .f32⟩ : BufTy).Contents (Elt F)),
    StableHlo.unary main_v4517 main_v4522 (Host.absf : (⟨S32768x1, .f32⟩ : BufTy).Contents (Elt F) → (⟨S32768x1, .f32⟩ : BufTy).Contents (Elt F)),
    StableHlo.unary main_v4518 main_v4523 (Host.absf : (⟨S32768x1, .f32⟩ : BufTy).Contents (Elt F) → (⟨S32768x1, .f32⟩ : BufTy).Contents (Elt F)),
    StableHlo.binary main_v4522 main_v4523 main_v4524 (minimumf : (⟨S32768x1, .f32⟩ : BufTy).Contents (Elt F) → (⟨S32768x1, .f32⟩ : BufTy).Contents (Elt F) → (⟨S32768x1, .f32⟩ : BufTy).Contents (Elt F)),
    StableHlo.binary main_v4521 main_v4524 main_v4525 (mulf : (⟨S32768x1, .f32⟩ : BufTy).Contents (Elt F) → (⟨S32768x1, .f32⟩ : BufTy).Contents (Elt F) → (⟨S32768x1, .f32⟩ : BufTy).Contents (Elt F)),
    StableHlo.nullary main_cst_1403 (constant S_ .f32 0x00000000#32),
    StableHlo.unary main_cst_1403 main_v4526 (broadcastInDim S32768x1 ![] bcast_S_S32768x1 : (⟨S_, .f32⟩ : BufTy).Contents (Elt F) → (⟨S32768x1, .f32⟩ : BufTy).Contents (Elt F)),
    StableHlo.binary main_v4525 main_v4526 main_v4527 (cmpf .ole : (⟨S32768x1, .f32⟩ : BufTy).Contents (Elt F) → (⟨S32768x1, .f32⟩ : BufTy).Contents (Elt F) → (⟨S32768x1, .i1⟩ : BufTy).Contents (Elt F)),
    StableHlo.unary main_v4527 main_v4528 (uitofp .f32 : (⟨S32768x1, .i1⟩ : BufTy).Contents (Elt F) → (⟨S32768x1, .f32⟩ : BufTy).Contents (Elt F)),
    StableHlo.nullary main_cst_1404 (constant S_ .f32 0x40000000#32),
    StableHlo.unary main_cst_1404 main_v4529 (broadcastInDim S32768x1 ![] bcast_S_S32768x1 : (⟨S_, .f32⟩ : BufTy).Contents (Elt F) → (⟨S32768x1, .f32⟩ : BufTy).Contents (Elt F)),
    StableHlo.binary main_v4529 main_v4528 main_v4530 (mulf : (⟨S32768x1, .f32⟩ : BufTy).Contents (Elt F) → (⟨S32768x1, .f32⟩ : BufTy).Contents (Elt F) → (⟨S32768x1, .f32⟩ : BufTy).Contents (Elt F)),
    StableHlo.nullary main_cst_1405 (constant S_ .f32 0x3F800000#32),
    StableHlo.unary main_cst_1405 main_v4531 (broadcastInDim S32768x1 ![] bcast_S_S32768x1 : (⟨S_, .f32⟩ : BufTy).Contents (Elt F) → (⟨S32768x1, .f32⟩ : BufTy).Contents (Elt F)) ]

set_option maxRecDepth 8192 in
/-- The window is that straight line: each clip function unfolded at its calls, the sequencing reassociated. -/
theorem part_eq_98 (d : Dev nD) : main_part98 (F := F) d = seq ops98 := by
  simp only [main_part98, fn_clip_6.body, seq, bind_assoc, pure_bind]
  rfl

/-- Every operation of the window touches TensorCore references only. -/
theorem sub_98 : (ops98 : List (HloOp τ sig (Elt F))).Forall fun op => op.bufs ⊆ tcRefs τ sig :=
  ⟨unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., binary_bufs_sub .., unary_bufs_sub .., nullary_bufs_sub .., unary_bufs_sub ..,
    binary_bufs_sub .., nullary_bufs_sub .., unary_bufs_sub ..⟩

/-- Every operation of the window determines all it writes. -/
theorem fresh_98 : (ops98 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
/-- The window writes no argument of @main: the argument's buffer holds after it what it held before. -/
theorem keep_98 (V : Valuation τ sig (Elt F)) :
    after ops98 V (main_arg0 : DevRef τ sig) = V (main_arg0 : DevRef τ sig) := by
  simp only [after_cons, after_nil]
  rfl

/-- The operations of @main's statements 5941 … 6000, in order (80 of them): a statement's own operation, or, for a call
    of a clip function, the six operations of its body over that call's buffers. -/
abbrev ops99 : List (HloOp τ sig (Elt F)) :=
  [ StableHlo.binary main_v4531 main_v4530 main_v4532 (subf : (⟨S32768x1, .f32⟩ : BufTy).Contents (Elt F) → (⟨S32768x1, .f32⟩ : BufTy).Contents (Elt F) → (⟨S32768x1, .f32⟩ : BufTy).Contents (Elt F)),
    StableHlo.binary main_v4532 main_v4515 main_v4533 (mulf : (⟨S32768x1, .f32⟩ : BufTy).Contents (Elt F) → (⟨S32768x1, .f32⟩ : BufTy).Contents (Elt F) → (⟨S32768x1, .f32⟩ : BufTy).Contents (Elt F)),
    StableHlo.binary main_v4533 main_v4516 main_v4534 (addf : (⟨S32768x1, .f32⟩ : BufTy).Contents (Elt F) → (⟨S32768x1, .f32⟩ : BufTy).Contents (Elt F) → (⟨S32768x1, .f32⟩ : BufTy).Contents (Elt F)),
    StableHlo.nullary main_cst_1406 (constant S_ .f32 0x00000000#32),
    StableHlo.unary main_cst_1406 main_v4535 (broadcastInDim S32768x1 ![] bcast_S_S32768x1 : (⟨S_, .f32⟩ : BufTy).Contents (Elt F) → (⟨S32768x1, .f32⟩ : BufTy).Contents (Elt F)),
    StableHlo.binary main_v4534 main_v4535 main_v4536 (cmpf .ole : (⟨S32768x1, .f32⟩ : BufTy).Contents (Elt F) → (⟨S32768x1, .f32⟩ : BufTy).Contents (Elt F) → (⟨S32768x1, .i1⟩ : BufTy).Contents (Elt F)),
    StableHlo.unary main_v4536 main_v4537 (uitofp .f32 : (⟨S32768x1, .i1⟩ : BufTy).Contents (Elt F) → (⟨S32768x1, .f32⟩ : BufTy).Contents (Elt F)),
    StableHlo.binary main_v4528 main_v4537 main_v4538 (cmpf .une : (⟨S32768x1, .f32⟩ : BufTy).Contents (Elt F) → (⟨S32768x1, .f32⟩ : BufTy).Contents (Elt F) → (⟨S32768x1, .i1⟩ : BufTy).Contents (Elt F)),
    StableHlo.unary main_v4538 main_v4539 (uitofp .f32 : (⟨S32768x1, .i1⟩ : BufTy).Contents (Elt F) → (⟨S32768x1, .f32⟩ : BufTy).Contents (Elt F)),
    StableHlo.binary main_v4539 main_v4537 main_v4540 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4528 main_v4537 main_v4541 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4507 main_v4540 main_v4542 (cmpf .une : (⟨S32768x2, .f32⟩ : BufTy).Contents (Elt F) → (⟨S32768x2, .f32⟩ : BufTy).Contents (Elt F) → (⟨S32768x2, .i1⟩ : BufTy).Contents (Elt F)),
    StableHlo.unary main_v4542 main_v4543 (uitofp .f32 : (⟨S32768x2, .i1⟩ : BufTy).Contents (Elt F) → (⟨S32768x2, .f32⟩ : BufTy).Contents (Elt F)),
    StableHlo.binary main_v4543 main_v4540 main_v4544 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v4508 main_v4541 main_v4545 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v4463 main_v4544 main_v4546 (cmpf .une : (⟨S32768x4, .f32⟩ : BufTy).Contents (Elt F) → (⟨S32768x4, .f32⟩ : BufTy).Contents (Elt F) → (⟨S32768x4, .i1⟩ : BufTy).Contents (Elt F)),
    StableHlo.unary main_v4546 main_v4547 (uitofp .f32 : (⟨S32768x4, .i1⟩ : BufTy).Contents (Elt F) → (⟨S32768x4, .f32⟩ : BufTy).Contents (Elt F)),
    StableHlo.binary main_v4547 main_v4544 main_v4548 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v4464 main_v4545 main_v4549 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.nullary main_cst_1407 (constant S_ .f32 0x40000000#32),
    StableHlo.unary main_cst_1407 main_v4550 (broadcastInDim S32768x8 ![] bcast_S_S32768x8 : (⟨S_, .f32⟩ : BufTy).Contents (Elt F) → (⟨S32768x8, .f32⟩ : BufTy).Contents (Elt F)),
    StableHlo.binary main_v4550 main_v4548 main_v4551 (mulf : (⟨S32768x8, .f32⟩ : BufTy).Contents (Elt F) → (⟨S32768x8, .f32⟩ : BufTy).Contents (Elt F) → (⟨S32768x8, .f32⟩ : BufTy).Contents (Elt F)),
    StableHlo.nullary main_cst_1408 (constant S_ .f32 0x3F800000#32),
    StableHlo.unary main_cst_1408 main_v4552 (broadcastInDim S32768x8 ![] bcast_S_S32768x8 : (⟨S_, .f32⟩ : BufTy).Contents (Elt F) → (⟨S32768x8, .f32⟩ : BufTy).Contents (Elt F)),
    StableHlo.binary main_v4552 main_v4551 main_v4553 (subf : (⟨S32768x8, .f32⟩ : BufTy).Contents (Elt F) → (⟨S32768x8, .f32⟩ : BufTy).Contents (Elt F) → (⟨S32768x8, .f32⟩ : BufTy).Contents (Elt F)),
    StableHlo.binary main_v4553 main_v4368 main_v4554 (mulf : (⟨S32768x8, .f32⟩ : BufTy).Contents (Elt F) → (⟨S32768x8, .f32⟩ : BufTy).Contents (Elt F) → (⟨S32768x8, .f32⟩ : BufTy).Contents (Elt F)),
    StableHlo.binary main_v4554 main_v4369 main_v4555 (addf : (⟨S32768x8, .f32⟩ : BufTy).Contents (Elt F) → (⟨S32768x8, .f32⟩ : BufTy).Contents (Elt F) → (⟨S32768x8, .f32⟩ : BufTy).Contents (Elt F)),
    StableHlo.unary main_v4555 main_v4556 ((extractStridedSlice S32768x4 ![0, 0] · slices_S32768x8_S32768x4_0_0) : (⟨S32768x8, .f32⟩ : BufTy).Contents (Elt F) → (⟨S32768x4, .f32⟩ : BufTy).Contents (Elt F)),
    StableHlo.unary main_v4555 main_v4557 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_1409 (constant S_ .f32 0xC1F00000#32),
    StableHlo.nullary main_cst_1410 (constant S_ .f32 0x41F00000#32),
    StableHlo.TRef.unary (.of main_cst_1409 : StableHlo.TRef sig ⟨S_, .f32⟩) main_call404.v0 id,
    StableHlo.TRef.unary main_call404.v0 main_call404.v1 (broadcastInDim S32768x4 ![] bcast_S_S32768x4),
    StableHlo.TRef.binary main_call404.v1 (.of main_v4556 : StableHlo.TRef sig ⟨S32768x4, .f32⟩) main_call404.v2 maximumf,
    StableHlo.TRef.unary (.of main_cst_1410 : StableHlo.TRef sig ⟨S_, .f32⟩) main_call404.v3 id,
    StableHlo.TRef.unary main_call404.v3 main_call404.v4 (broadcastInDim S32768x4 ![] bcast_S_S32768x4),
    StableHlo.TRef.binary main_call404.v4 main_call404.v2 main_call404.v5 minimumf,
    StableHlo.nullary main_cst_1411 (constant S_ .f32 0xC1F00000#32),
    StableHlo.nullary main_cst_1412 (constant S_ .f32 0x41F00000#32),
    StableHlo.TRef.unary (.of main_cst_1411 : StableHlo.TRef sig ⟨S_, .f32⟩) main_call405.v0 id,
    StableHlo.TRef.unary main_call405.v0 main_call405.v1 (broadcastInDim S32768x4 ![] bcast_S_S32768x4),
    StableHlo.TRef.binary main_call405.v1 (.of main_v4557 : StableHlo.TRef sig ⟨S32768x4, .f32⟩) main_call405.v2 maximumf,
    StableHlo.TRef.unary (.of main_cst_1412 : StableHlo.TRef sig ⟨S_, .f32⟩) main_call405.v3 id,
    StableHlo.TRef.unary main_call405.v3 main_call405.v4 (broadcastInDim S32768x4 ![] bcast_S_S32768x4),
    StableHlo.TRef.binary main_call405.v4 main_call405.v2 main_call405.v5 minimumf,
    StableHlo.unary main_v4558 main_v4560 (Host.sign : (⟨S32768x4, .f32⟩ : BufTy).Contents (Elt F) → (⟨S32768x4, .f32⟩ : BufTy).Contents (Elt F)),
    StableHlo.unary main_v4559 main_v4561 (Host.sign : (⟨S32768x4, .f32⟩ : BufTy).Contents (Elt F) → (⟨S32768x4, .f32⟩ : BufTy).Contents (Elt F)),
    StableHlo.binary main_v4560 main_v4561 main_v4562 (mulf : (⟨S32768x4, .f32⟩ : BufTy).Contents (Elt F) → (⟨S32768x4, .f32⟩ : BufTy).Contents (Elt F) → (⟨S32768x4, .f32⟩ : BufTy).Contents (Elt F)),
    StableHlo.unary main_v4558 main_v4563 (Host.absf : (⟨S32768x4, .f32⟩ : BufTy).Contents (Elt F) → (⟨S32768x4, .f32⟩ : BufTy).Contents (Elt F)),
    StableHlo.unary main_v4559 main_v4564 (Host.absf : (⟨S32768x4, .f32⟩ : BufTy).Contents (Elt F) → (⟨S32768x4, .f32⟩ : BufTy).Contents (Elt F)),
    StableHlo.binary main_v4563 main_v4564 main_v4565 (minimumf : (⟨S32768x4, .f32⟩ : BufTy).Contents (Elt F) → (⟨S32768x4, .f32⟩ : BufTy).Contents (Elt F) → (⟨S32768x4, .f32⟩ : BufTy).Contents (Elt F)),
    StableHlo.binary main_v4562 main_v4565 main_v4566 (mulf : (⟨S32768x4, .f32⟩ : BufTy).Contents (Elt F) → (⟨S32768x4, .f32⟩ : BufTy).Contents (Elt F) → (⟨S32768x4, .f32⟩ : BufTy).Contents (Elt F)),
    StableHlo.unary main_v4566 main_v4567 ((extractStridedSlice S32768x2 ![0, 0] · slices_S32768x4_S32768x2_0_0) : (⟨S32768x4, .f32⟩ : BufTy).Contents (Elt F) → (⟨S32768x2, .f32⟩ : BufTy).Contents (Elt F)),
    StableHlo.unary main_v4566 main_v4568 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1413 (constant S_ .f32 0xC1F00000#32),
    StableHlo.nullary main_cst_1414 (constant S_ .f32 0x41F00000#32),
    StableHlo.TRef.unary (.of main_cst_1413 : StableHlo.TRef sig ⟨S_, .f32⟩) main_call406.v0 id,
    StableHlo.TRef.unary main_call406.v0 main_call406.v1 (broadcastInDim S32768x2 ![] bcast_S_S32768x2),
    StableHlo.TRef.binary main_call406.v1 (.of main_v4567 : StableHlo.TRef sig ⟨S32768x2, .f32⟩) main_call406.v2 maximumf,
    StableHlo.TRef.unary (.of main_cst_1414 : StableHlo.TRef sig ⟨S_, .f32⟩) main_call406.v3 id,
    StableHlo.TRef.unary main_call406.v3 main_call406.v4 (broadcastInDim S32768x2 ![] bcast_S_S32768x2),
    StableHlo.TRef.binary main_call406.v4 main_call406.v2 main_call406.v5 minimumf,
    StableHlo.nullary main_cst_1415 (constant S_ .f32 0xC1F00000#32),
    StableHlo.nullary main_cst_1416 (constant S_ .f32 0x41F00000#32),
    StableHlo.TRef.unary (.of main_cst_1415 : StableHlo.TRef sig ⟨S_, .f32⟩) main_call407.v0 id,
    StableHlo.TRef.unary main_call407.v0 main_call407.v1 (broadcastInDim S32768x2 ![] bcast_S_S32768x2),
    StableHlo.TRef.binary main_call407.v1 (.of main_v4568 : StableHlo.TRef sig ⟨S32768x2, .f32⟩) main_call407.v2 maximumf,
    StableHlo.TRef.unary (.of main_cst_1416 : StableHlo.TRef sig ⟨S_, .f32⟩) main_call407.v3 id,
    StableHlo.TRef.unary main_call407.v3 main_call407.v4 (broadcastInDim S32768x2 ![] bcast_S_S32768x2),
    StableHlo.TRef.binary main_call407.v4 main_call407.v2 main_call407.v5 minimumf,
    StableHlo.unary main_v4569 main_v4571 (Host.sign : (⟨S32768x2, .f32⟩ : BufTy).Contents (Elt F) → (⟨S32768x2, .f32⟩ : BufTy).Contents (Elt F)),
    StableHlo.unary main_v4570 main_v4572 (Host.sign : (⟨S32768x2, .f32⟩ : BufTy).Contents (Elt F) → (⟨S32768x2, .f32⟩ : BufTy).Contents (Elt F)),
    StableHlo.binary main_v4571 main_v4572 main_v4573 (mulf : (⟨S32768x2, .f32⟩ : BufTy).Contents (Elt F) → (⟨S32768x2, .f32⟩ : BufTy).Contents (Elt F) → (⟨S32768x2, .f32⟩ : BufTy).Contents (Elt F)),
    StableHlo.unary main_v4569 main_v4574 (Host.absf : (⟨S32768x2, .f32⟩ : BufTy).Contents (Elt F) → (⟨S32768x2, .f32⟩ : BufTy).Contents (Elt F)),
    StableHlo.unary main_v4570 main_v4575 (Host.absf : (⟨S32768x2, .f32⟩ : BufTy).Contents (Elt F) → (⟨S32768x2, .f32⟩ : BufTy).Contents (Elt F)),
    StableHlo.binary main_v4574 main_v4575 main_v4576 (minimumf : (⟨S32768x2, .f32⟩ : BufTy).Contents (Elt F) → (⟨S32768x2, .f32⟩ : BufTy).Contents (Elt F) → (⟨S32768x2, .f32⟩ : BufTy).Contents (Elt F)),
    StableHlo.binary main_v4573 main_v4576 main_v4577 (mulf : (⟨S32768x2, .f32⟩ : BufTy).Contents (Elt F) → (⟨S32768x2, .f32⟩ : BufTy).Contents (Elt F) → (⟨S32768x2, .f32⟩ : BufTy).Contents (Elt F)),
    StableHlo.unary main_v4577 main_v4578 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4577 main_v4579 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1417 (constant S_ .f32 0xC1F00000#32) ]

set_option maxRecDepth 8192 in
/-- The window is that straight line: each clip function unfolded at its calls, the sequencing reassociated. -/
theorem part_eq_99 (d : Dev nD) : main_part99 (F := F) d = seq ops99 := by
  simp only [main_part99, fn_clip_4.body, fn_clip_5.body, seq, bind_assoc, pure_bind]
  rfl

/-- Every operation of the window touches TensorCore references only. -/
theorem sub_99 : (ops99 : List (HloOp τ sig (Elt F))).Forall fun op => op.bufs ⊆ tcRefs τ sig :=
  ⟨binary_bufs_sub .., binary_bufs_sub .., binary_bufs_sub .., nullary_bufs_sub .., unary_bufs_sub .., binary_bufs_sub ..,
    unary_bufs_sub .., binary_bufs_sub .., unary_bufs_sub .., binary_bufs_sub .., binary_bufs_sub .., binary_bufs_sub ..,
    unary_bufs_sub .., binary_bufs_sub .., binary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., unary_bufs_sub ..,
    unary_bufs_sub .., nullary_bufs_sub ..⟩

/-- Every operation of the window determines all it writes. -/
theorem fresh_99 : (ops99 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_99 (V : Valuation τ sig (Elt F)) :
    after ops99 V (main_arg0 : DevRef τ sig) = V (main_arg0 : DevRef τ sig) := by
  simp only [after_cons, after_nil]
  rfl

/-- The operations of @main's statements 6001 … 6060, in order (80 of them): a statement's own operation, or, for a call
    of a clip function, the six operations of its body over that call's buffers. -/
abbrev ops100 : List (HloOp τ sig (Elt F)) :=
  [ StableHlo.nullary main_cst_1418 (constant S_ .f32 0x41F00000#32),
    StableHlo.TRef.unary (.of main_cst_1417 : StableHlo.TRef sig ⟨S_, .f32⟩) main_call408.v0 id,
    StableHlo.TRef.unary main_call408.v0 main_call408.v1 (broadcastInDim S32768x1 ![] bcast_S_S32768x1),
    StableHlo.TRef.binary main_call408.v1 (.of main_v4578 : StableHlo.TRef sig ⟨S32768x1, .f32⟩) main_call408.v2 maximumf,
    StableHlo.TRef.unary (.of main_cst_1418 : StableHlo.TRef sig ⟨S_, .f32⟩) main_call408.v3 id,
    StableHlo.TRef.unary main_call408.v3 main_call408.v4 (broadcastInDim S32768x1 ![] bcast_S_S32768x1),
    StableHlo.TRef.binary main_call408.v4 main_call408.v2 main_call408.v5 minimumf,
    StableHlo.nullary main_cst_1419 (constant S_ .f32 0xC1F00000#32),
    StableHlo.nullary main_cst_1420 (constant S_ .f32 0x41F00000#32),
    StableHlo.TRef.unary (.of main_cst_1419 : StableHlo.TRef sig ⟨S_, .f32⟩) main_call409.v0 id,
    StableHlo.TRef.unary main_call409.v0 main_call409.v1 (broadcastInDim S32768x1 ![] bcast_S_S32768x1),
    StableHlo.TRef.binary main_call409.v1 (.of main_v4579 : StableHlo.TRef sig ⟨S32768x1, .f32⟩) main_call409.v2 maximumf,
    StableHlo.TRef.unary (.of main_cst_1420 : StableHlo.TRef sig ⟨S_, .f32⟩) main_call409.v3 id,
    StableHlo.TRef.unary main_call409.v3 main_call409.v4 (broadcastInDim S32768x1 ![] bcast_S_S32768x1),
    StableHlo.TRef.binary main_call409.v4 main_call409.v2 main_call409.v5 minimumf,
    StableHlo.unary main_v4580 main_v4582 (Host.sign : (⟨S32768x1, .f32⟩ : BufTy).Contents (Elt F) → (⟨S32768x1, .f32⟩ : BufTy).Contents (Elt F)),
    StableHlo.unary main_v4581 main_v4583 (Host.sign : (⟨S32768x1, .f32⟩ : BufTy).Contents (Elt F) → (⟨S32768x1, .f32⟩ : BufTy).Contents (Elt F)),
    StableHlo.binary main_v4582 main_v4583 main_v4584 (mulf : (⟨S32768x1, .f32⟩ : BufTy).Contents (Elt F) → (⟨S32768x1, .f32⟩ : BufTy).Contents (Elt F) → (⟨S32768x1, .f32⟩ : BufTy).Contents (Elt F)),
    StableHlo.unary main_v4580 main_v4585 (Host.absf : (⟨S32768x1, .f32⟩ : BufTy).Contents (Elt F) → (⟨S32768x1, .f32⟩ : BufTy).Contents (Elt F)),
    StableHlo.unary main_v4581 main_v4586 (Host.absf : (⟨S32768x1, .f32⟩ : BufTy).Contents (Elt F) → (⟨S32768x1, .f32⟩ : BufTy).Contents (Elt F)),
    StableHlo.binary main_v4585 main_v4586 main_v4587 (minimumf : (⟨S32768x1, .f32⟩ : BufTy).Contents (Elt F) → (⟨S32768x1, .f32⟩ : BufTy).Contents (Elt F) → (⟨S32768x1, .f32⟩ : BufTy).Contents (Elt F)),
    StableHlo.binary main_v4584 main_v4587 main_v4588 (mulf : (⟨S32768x1, .f32⟩ : BufTy).Contents (Elt F) → (⟨S32768x1, .f32⟩ : BufTy).Contents (Elt F) → (⟨S32768x1, .f32⟩ : BufTy).Contents (Elt F)),
    StableHlo.nullary main_cst_1421 (constant S_ .f32 0x00000000#32),
    StableHlo.unary main_cst_1421 main_v4589 (broadcastInDim S32768x1 ![] bcast_S_S32768x1 : (⟨S_, .f32⟩ : BufTy).Contents (Elt F) → (⟨S32768x1, .f32⟩ : BufTy).Contents (Elt F)),
    StableHlo.binary main_v4588 main_v4589 main_v4590 (cmpf .ole : (⟨S32768x1, .f32⟩ : BufTy).Contents (Elt F) → (⟨S32768x1, .f32⟩ : BufTy).Contents (Elt F) → (⟨S32768x1, .i1⟩ : BufTy).Contents (Elt F)),
    StableHlo.unary main_v4590 main_v4591 (uitofp .f32 : (⟨S32768x1, .i1⟩ : BufTy).Contents (Elt F) → (⟨S32768x1, .f32⟩ : BufTy).Contents (Elt F)),
    StableHlo.nullary main_cst_1422 (constant S_ .f32 0x40000000#32),
    StableHlo.unary main_cst_1422 main_v4592 (broadcastInDim S32768x1 ![] bcast_S_S32768x1 : (⟨S_, .f32⟩ : BufTy).Contents (Elt F) → (⟨S32768x1, .f32⟩ : BufTy).Contents (Elt F)),
    StableHlo.binary main_v4592 main_v4591 main_v4593 (mulf : (⟨S32768x1, .f32⟩ : BufTy).Contents (Elt F) → (⟨S32768x1, .f32⟩ : BufTy).Contents (Elt F) → (⟨S32768x1, .f32⟩ : BufTy).Contents (Elt F)),
    StableHlo.nullary main_cst_1423 (constant S_ .f32 0x3F800000#32),
    StableHlo.unary main_cst_1423 main_v4594 (broadcastInDim S32768x1 ![] bcast_S_S32768x1 : (⟨S_, .f32⟩ : BufTy).Contents (Elt F) → (⟨S32768x1, .f32⟩ : BufTy).Contents (Elt F)),
    StableHlo.binary main_v4594 main_v4593 main_v4595 (subf : (⟨S32768x1, .f32⟩ : BufTy).Contents (Elt F) → (⟨S32768x1, .f32⟩ : BufTy).Contents (Elt F) → (⟨S32768x1, .f32⟩ : BufTy).Contents (Elt F)),
    StableHlo.binary main_v4595 main_v4578 main_v4596 (mulf : (⟨S32768x1, .f32⟩ : BufTy).Contents (Elt F) → (⟨S32768x1, .f32⟩ : BufTy).Contents (Elt F) → (⟨S32768x1, .f32⟩ : BufTy).Contents (Elt F)),
    StableHlo.binary main_v4596 main_v4579 main_v4597 (addf : (⟨S32768x1, .f32⟩ : BufTy).Contents (Elt F) → (⟨S32768x1, .f32⟩ : BufTy).Contents (Elt F) → (⟨S32768x1, .f32⟩ : BufTy).Contents (Elt F)),
    StableHlo.nullary main_cst_1424 (constant S_ .f32 0x00000000#32),
    StableHlo.unary main_cst_1424 main_v4598 (broadcastInDim S32768x1 ![] bcast_S_S32768x1 : (⟨S_, .f32⟩ : BufTy).Contents (Elt F) → (⟨S32768x1, .f32⟩ : BufTy).Contents (Elt F)),
    StableHlo.binary main_v4597 main_v4598 main_v4599 (cmpf .ole : (⟨S32768x1, .f32⟩ : BufTy).Contents (Elt F) → (⟨S32768x1, .f32⟩ : BufTy).Contents (Elt F) → (⟨S32768x1, .i1⟩ : BufTy).Contents (Elt F)),
    StableHlo.unary main_v4599 main_v4600 (uitofp .f32 : (⟨S32768x1, .i1⟩ : BufTy).Contents (Elt F) → (⟨S32768x1, .f32⟩ : BufTy).Contents (Elt F)),
    StableHlo.binary main_v4591 main_v4600 main_v4601 (cmpf .une : (⟨S32768x1, .f32⟩ : BufTy).Contents (Elt F) → (⟨S32768x1, .f32⟩ : BufTy).Contents (Elt F) → (⟨S32768x1, .i1⟩ : BufTy).Contents (Elt F)),
    StableHlo.unary main_v4601 main_v4602 (uitofp .f32 : (⟨S32768x1, .i1⟩ : BufTy).Contents (Elt F) → (⟨S32768x1, .f32⟩ : BufTy).Contents (Elt F)),
    StableHlo.binary main_v4602 main_v4600 main_v4603 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4591 main_v4600 main_v4604 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1425 (constant S_ .f32 0x40000000#32),
    StableHlo.unary main_cst_1425 main_v4605 (broadcastInDim S32768x2 ![] bcast_S_S32768x2 : (⟨S_, .f32⟩ : BufTy).Contents (Elt F) → (⟨S32768x2, .f32⟩ : BufTy).Contents (Elt F)),
    StableHlo.binary main_v4605 main_v4603 main_v4606 (mulf : (⟨S32768x2, .f32⟩ : BufTy).Contents (Elt F) → (⟨S32768x2, .f32⟩ : BufTy).Contents (Elt F) → (⟨S32768x2, .f32⟩ : BufTy).Contents (Elt F)),
    StableHlo.nullary main_cst_1426 (constant S_ .f32 0x3F800000#32),
    StableHlo.unary main_cst_1426 main_v4607 (broadcastInDim S32768x2 ![] bcast_S_S32768x2 : (⟨S_, .f32⟩ : BufTy).Contents (Elt F) → (⟨S32768x2, .f32⟩ : BufTy).Contents (Elt F)),
    StableHlo.binary main_v4607 main_v4606 main_v4608 (subf : (⟨S32768x2, .f32⟩ : BufTy).Contents (Elt F) → (⟨S32768x2, .f32⟩ : BufTy).Contents (Elt F) → (⟨S32768x2, .f32⟩ : BufTy).Contents (Elt F)),
    StableHlo.binary main_v4608 main_v4567 main_v4609 (mulf : (⟨S32768x2, .f32⟩ : BufTy).Contents (Elt F) → (⟨S32768x2, .f32⟩ : BufTy).Contents (Elt F) → (⟨S32768x2, .f32⟩ : BufTy).Contents (Elt F)),
    StableHlo.binary main_v4609 main_v4568 main_v4610 (addf : (⟨S32768x2, .f32⟩ : BufTy).Contents (Elt F) → (⟨S32768x2, .f32⟩ : BufTy).Contents (Elt F) → (⟨S32768x2, .f32⟩ : BufTy).Contents (Elt F)),
    StableHlo.unary main_v4610 main_v4611 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4610 main_v4612 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1427 (constant S_ .f32 0xC1F00000#32),
    StableHlo.nullary main_cst_1428 (constant S_ .f32 0x41F00000#32),
    StableHlo.TRef.unary (.of main_cst_1427 : StableHlo.TRef sig ⟨S_, .f32⟩) main_call410.v0 id,
    StableHlo.TRef.unary main_call410.v0 main_call410.v1 (broadcastInDim S32768x1 ![] bcast_S_S32768x1),
    StableHlo.TRef.binary main_call410.v1 (.of main_v4611 : StableHlo.TRef sig ⟨S32768x1, .f32⟩) main_call410.v2 maximumf,
    StableHlo.TRef.unary (.of main_cst_1428 : StableHlo.TRef sig ⟨S_, .f32⟩) main_call410.v3 id,
    StableHlo.TRef.unary main_call410.v3 main_call410.v4 (broadcastInDim S32768x1 ![] bcast_S_S32768x1),
    StableHlo.TRef.binary main_call410.v4 main_call410.v2 main_call410.v5 minimumf,
    StableHlo.nullary main_cst_1429 (constant S_ .f32 0xC1F00000#32),
    StableHlo.nullary main_cst_1430 (constant S_ .f32 0x41F00000#32),
    StableHlo.TRef.unary (.of main_cst_1429 : StableHlo.TRef sig ⟨S_, .f32⟩) main_call411.v0 id,
    StableHlo.TRef.unary main_call411.v0 main_call411.v1 (broadcastInDim S32768x1 ![] bcast_S_S32768x1),
    StableHlo.TRef.binary main_call411.v1 (.of main_v4612 : StableHlo.TRef sig ⟨S32768x1, .f32⟩) main_call411.v2 maximumf,
    StableHlo.TRef.unary (.of main_cst_1430 : StableHlo.TRef sig ⟨S_, .f32⟩) main_call411.v3 id,
    StableHlo.TRef.unary main_call411.v3 main_call411.v4 (broadcastInDim S32768x1 ![] bcast_S_S32768x1),
    StableHlo.TRef.binary main_call411.v4 main_call411.v2 main_call411.v5 minimumf,
    StableHlo.unary main_v4613 main_v4615 (Host.sign : (⟨S32768x1, .f32⟩ : BufTy).Contents (Elt F) → (⟨S32768x1, .f32⟩ : BufTy).Contents (Elt F)),
    StableHlo.unary main_v4614 main_v4616 (Host.sign : (⟨S32768x1, .f32⟩ : BufTy).Contents (Elt F) → (⟨S32768x1, .f32⟩ : BufTy).Contents (Elt F)),
    StableHlo.binary main_v4615 main_v4616 main_v4617 (mulf : (⟨S32768x1, .f32⟩ : BufTy).Contents (Elt F) → (⟨S32768x1, .f32⟩ : BufTy).Contents (Elt F) → (⟨S32768x1, .f32⟩ : BufTy).Contents (Elt F)),
    StableHlo.unary main_v4613 main_v4618 (Host.absf : (⟨S32768x1, .f32⟩ : BufTy).Contents (Elt F) → (⟨S32768x1, .f32⟩ : BufTy).Contents (Elt F)),
    StableHlo.unary main_v4614 main_v4619 (Host.absf : (⟨S32768x1, .f32⟩ : BufTy).Contents (Elt F) → (⟨S32768x1, .f32⟩ : BufTy).Contents (Elt F)),
    StableHlo.binary main_v4618 main_v4619 main_v4620 (minimumf : (⟨S32768x1, .f32⟩ : BufTy).Contents (Elt F) → (⟨S32768x1, .f32⟩ : BufTy).Contents (Elt F) → (⟨S32768x1, .f32⟩ : BufTy).Contents (Elt F)),
    StableHlo.binary main_v4617 main_v4620 main_v4621 (mulf : (⟨S32768x1, .f32⟩ : BufTy).Contents (Elt F) → (⟨S32768x1, .f32⟩ : BufTy).Contents (Elt F) → (⟨S32768x1, .f32⟩ : BufTy).Contents (Elt F)),
    StableHlo.nullary main_cst_1431 (constant S_ .f32 0x00000000#32),
    StableHlo.unary main_cst_1431 main_v4622 (broadcastInDim S32768x1 ![] bcast_S_S32768x1 : (⟨S_, .f32⟩ : BufTy).Contents (Elt F) → (⟨S32768x1, .f32⟩ : BufTy).Contents (Elt F)),
    StableHlo.binary main_v4621 main_v4622 main_v4623 (cmpf .ole : (⟨S32768x1, .f32⟩ : BufTy).Contents (Elt F) → (⟨S32768x1, .f32⟩ : BufTy).Contents (Elt F) → (⟨S32768x1, .i1⟩ : BufTy).Contents (Elt F)),
    StableHlo.unary main_v4623 main_v4624 (uitofp .f32 : (⟨S32768x1, .i1⟩ : BufTy).Contents (Elt F) → (⟨S32768x1, .f32⟩ : BufTy).Contents (Elt F)),
    StableHlo.nullary main_cst_1432 (constant S_ .f32 0x40000000#32) ]

set_option maxRecDepth 8192 in
/-- The window is that straight line: each clip function unfolded at its calls, the sequencing reassociated. -/
theorem part_eq_100 (d : Dev nD) : main_part100 (F := F) d = seq ops100 := by
  simp only [main_part100, fn_clip_6.body, seq, bind_assoc, pure_bind]
  rfl

/-- Every operation of the window touches TensorCore references only. -/
theorem sub_100 : (ops100 : List (HloOp τ sig (Elt F))).Forall fun op => op.bufs ⊆ tcRefs τ sig :=
  ⟨nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., binary_bufs_sub .., binary_bufs_sub .., nullary_bufs_sub .., unary_bufs_sub ..,
    binary_bufs_sub .., unary_bufs_sub .., binary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., binary_bufs_sub ..,
    unary_bufs_sub .., nullary_bufs_sub ..⟩

/-- Every operation of the window determines all it writes. -/
theorem fresh_100 : (ops100 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_100 (V : Valuation τ sig (Elt F)) :
    after ops100 V (main_arg0 : DevRef τ sig) = V (main_arg0 : DevRef τ sig) := by
  simp only [after_cons, after_nil]
  rfl

/-- The operations of @main's statements 6061 … 6120, in order (80 of them): a statement's own operation, or, for a call
    of a clip function, the six operations of its body over that call's buffers. -/
abbrev ops101 : List (HloOp τ sig (Elt F)) :=
  [ StableHlo.unary main_cst_1432 main_v4625 (broadcastInDim S32768x1 ![] bcast_S_S32768x1 : (⟨S_, .f32⟩ : BufTy).Contents (Elt F) → (⟨S32768x1, .f32⟩ : BufTy).Contents (Elt F)),
    StableHlo.binary main_v4625 main_v4624 main_v4626 (mulf : (⟨S32768x1, .f32⟩ : BufTy).Contents (Elt F) → (⟨S32768x1, .f32⟩ : BufTy).Contents (Elt F) → (⟨S32768x1, .f32⟩ : BufTy).Contents (Elt F)),
    StableHlo.nullary main_cst_1433 (constant S_ .f32 0x3F800000#32),
    StableHlo.unary main_cst_1433 main_v4627 (broadcastInDim S32768x1 ![] bcast_S_S32768x1 : (⟨S_, .f32⟩ : BufTy).Contents (Elt F) → (⟨S32768x1, .f32⟩ : BufTy).Contents (Elt F)),
    StableHlo.binary main_v4627 main_v4626 main_v4628 (subf : (⟨S32768x1, .f32⟩ : BufTy).Contents (Elt F) → (⟨S32768x1, .f32⟩ : BufTy).Contents (Elt F) → (⟨S32768x1, .f32⟩ : BufTy).Contents (Elt F)),
    StableHlo.binary main_v4628 main_v4611 main_v4629 (mulf : (⟨S32768x1, .f32⟩ : BufTy).Contents (Elt F) → (⟨S32768x1, .f32⟩ : BufTy).Contents (Elt F) → (⟨S32768x1, .f32⟩ : BufTy).Contents (Elt F)),
    StableHlo.binary main_v4629 main_v4612 main_v4630 (addf : (⟨S32768x1, .f32⟩ : BufTy).Contents (Elt F) → (⟨S32768x1, .f32⟩ : BufTy).Contents (Elt F) → (⟨S32768x1, .f32⟩ : BufTy).Contents (Elt F)),
    StableHlo.nullary main_cst_1434 (constant S_ .f32 0x00000000#32),
    StableHlo.unary main_cst_1434 main_v4631 (broadcastInDim S32768x1 ![] bcast_S_S32768x1 : (⟨S_, .f32⟩ : BufTy).Contents (Elt F) → (⟨S32768x1, .f32⟩ : BufTy).Contents (Elt F)),
    StableHlo.binary main_v4630 main_v4631 main_v4632 (cmpf .ole : (⟨S32768x1, .f32⟩ : BufTy).Contents (Elt F) → (⟨S32768x1, .f32⟩ : BufTy).Contents (Elt F) → (⟨S32768x1, .i1⟩ : BufTy).Contents (Elt F)),
    StableHlo.unary main_v4632 main_v4633 (uitofp .f32 : (⟨S32768x1, .i1⟩ : BufTy).Contents (Elt F) → (⟨S32768x1, .f32⟩ : BufTy).Contents (Elt F)),
    StableHlo.binary main_v4624 main_v4633 main_v4634 (cmpf .une : (⟨S32768x1, .f32⟩ : BufTy).Contents (Elt F) → (⟨S32768x1, .f32⟩ : BufTy).Contents (Elt F) → (⟨S32768x1, .i1⟩ : BufTy).Contents (Elt F)),
    StableHlo.unary main_v4634 main_v4635 (uitofp .f32 : (⟨S32768x1, .i1⟩ : BufTy).Contents (Elt F) → (⟨S32768x1, .f32⟩ : BufTy).Contents (Elt F)),
    StableHlo.binary main_v4635 main_v4633 main_v4636 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4624 main_v4633 main_v4637 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4603 main_v4636 main_v4638 (cmpf .une : (⟨S32768x2, .f32⟩ : BufTy).Contents (Elt F) → (⟨S32768x2, .f32⟩ : BufTy).Contents (Elt F) → (⟨S32768x2, .i1⟩ : BufTy).Contents (Elt F)),
    StableHlo.unary main_v4638 main_v4639 (uitofp .f32 : (⟨S32768x2, .i1⟩ : BufTy).Contents (Elt F) → (⟨S32768x2, .f32⟩ : BufTy).Contents (Elt F)),
    StableHlo.binary main_v4639 main_v4636 main_v4640 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v4604 main_v4637 main_v4641 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_1435 (constant S_ .f32 0x40000000#32),
    StableHlo.unary main_cst_1435 main_v4642 (broadcastInDim S32768x4 ![] bcast_S_S32768x4 : (⟨S_, .f32⟩ : BufTy).Contents (Elt F) → (⟨S32768x4, .f32⟩ : BufTy).Contents (Elt F)),
    StableHlo.binary main_v4642 main_v4640 main_v4643 (mulf : (⟨S32768x4, .f32⟩ : BufTy).Contents (Elt F) → (⟨S32768x4, .f32⟩ : BufTy).Contents (Elt F) → (⟨S32768x4, .f32⟩ : BufTy).Contents (Elt F)),
    StableHlo.nullary main_cst_1436 (constant S_ .f32 0x3F800000#32),
    StableHlo.unary main_cst_1436 main_v4644 (broadcastInDim S32768x4 ![] bcast_S_S32768x4 : (⟨S_, .f32⟩ : BufTy).Contents (Elt F) → (⟨S32768x4, .f32⟩ : BufTy).Contents (Elt F)),
    StableHlo.binary main_v4644 main_v4643 main_v4645 (subf : (⟨S32768x4, .f32⟩ : BufTy).Contents (Elt F) → (⟨S32768x4, .f32⟩ : BufTy).Contents (Elt F) → (⟨S32768x4, .f32⟩ : BufTy).Contents (Elt F)),
    StableHlo.binary main_v4645 main_v4556 main_v4646 (mulf : (⟨S32768x4, .f32⟩ : BufTy).Contents (Elt F) → (⟨S32768x4, .f32⟩ : BufTy).Contents (Elt F) → (⟨S32768x4, .f32⟩ : BufTy).Contents (Elt F)),
    StableHlo.binary main_v4646 main_v4557 main_v4647 (addf : (⟨S32768x4, .f32⟩ : BufTy).Contents (Elt F) → (⟨S32768x4, .f32⟩ : BufTy).Contents (Elt F) → (⟨S32768x4, .f32⟩ : BufTy).Contents (Elt F)),
    StableHlo.unary main_v4647 main_v4648 ((extractStridedSlice S32768x2 ![0, 0] · slices_S32768x4_S32768x2_0_0) : (⟨S32768x4, .f32⟩ : BufTy).Contents (Elt F) → (⟨S32768x2, .f32⟩ : BufTy).Contents (Elt F)),
    StableHlo.unary main_v4647 main_v4649 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1437 (constant S_ .f32 0xC1F00000#32),
    StableHlo.nullary main_cst_1438 (constant S_ .f32 0x41F00000#32),
    StableHlo.TRef.unary (.of main_cst_1437 : StableHlo.TRef sig ⟨S_, .f32⟩) main_call412.v0 id,
    StableHlo.TRef.unary main_call412.v0 main_call412.v1 (broadcastInDim S32768x2 ![] bcast_S_S32768x2),
    StableHlo.TRef.binary main_call412.v1 (.of main_v4648 : StableHlo.TRef sig ⟨S32768x2, .f32⟩) main_call412.v2 maximumf,
    StableHlo.TRef.unary (.of main_cst_1438 : StableHlo.TRef sig ⟨S_, .f32⟩) main_call412.v3 id,
    StableHlo.TRef.unary main_call412.v3 main_call412.v4 (broadcastInDim S32768x2 ![] bcast_S_S32768x2),
    StableHlo.TRef.binary main_call412.v4 main_call412.v2 main_call412.v5 minimumf,
    StableHlo.nullary main_cst_1439 (constant S_ .f32 0xC1F00000#32),
    StableHlo.nullary main_cst_1440 (constant S_ .f32 0x41F00000#32),
    StableHlo.TRef.unary (.of main_cst_1439 : StableHlo.TRef sig ⟨S_, .f32⟩) main_call413.v0 id,
    StableHlo.TRef.unary main_call413.v0 main_call413.v1 (broadcastInDim S32768x2 ![] bcast_S_S32768x2),
    StableHlo.TRef.binary main_call413.v1 (.of main_v4649 : StableHlo.TRef sig ⟨S32768x2, .f32⟩) main_call413.v2 maximumf,
    StableHlo.TRef.unary (.of main_cst_1440 : StableHlo.TRef sig ⟨S_, .f32⟩) main_call413.v3 id,
    StableHlo.TRef.unary main_call413.v3 main_call413.v4 (broadcastInDim S32768x2 ![] bcast_S_S32768x2),
    StableHlo.TRef.binary main_call413.v4 main_call413.v2 main_call413.v5 minimumf,
    StableHlo.unary main_v4650 main_v4652 (Host.sign : (⟨S32768x2, .f32⟩ : BufTy).Contents (Elt F) → (⟨S32768x2, .f32⟩ : BufTy).Contents (Elt F)),
    StableHlo.unary main_v4651 main_v4653 (Host.sign : (⟨S32768x2, .f32⟩ : BufTy).Contents (Elt F) → (⟨S32768x2, .f32⟩ : BufTy).Contents (Elt F)),
    StableHlo.binary main_v4652 main_v4653 main_v4654 (mulf : (⟨S32768x2, .f32⟩ : BufTy).Contents (Elt F) → (⟨S32768x2, .f32⟩ : BufTy).Contents (Elt F) → (⟨S32768x2, .f32⟩ : BufTy).Contents (Elt F)),
    StableHlo.unary main_v4650 main_v4655 (Host.absf : (⟨S32768x2, .f32⟩ : BufTy).Contents (Elt F) → (⟨S32768x2, .f32⟩ : BufTy).Contents (Elt F)),
    StableHlo.unary main_v4651 main_v4656 (Host.absf : (⟨S32768x2, .f32⟩ : BufTy).Contents (Elt F) → (⟨S32768x2, .f32⟩ : BufTy).Contents (Elt F)),
    StableHlo.binary main_v4655 main_v4656 main_v4657 (minimumf : (⟨S32768x2, .f32⟩ : BufTy).Contents (Elt F) → (⟨S32768x2, .f32⟩ : BufTy).Contents (Elt F) → (⟨S32768x2, .f32⟩ : BufTy).Contents (Elt F)),
    StableHlo.binary main_v4654 main_v4657 main_v4658 (mulf : (⟨S32768x2, .f32⟩ : BufTy).Contents (Elt F) → (⟨S32768x2, .f32⟩ : BufTy).Contents (Elt F) → (⟨S32768x2, .f32⟩ : BufTy).Contents (Elt F)),
    StableHlo.unary main_v4658 main_v4659 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4658 main_v4660 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1441 (constant S_ .f32 0xC1F00000#32),
    StableHlo.nullary main_cst_1442 (constant S_ .f32 0x41F00000#32),
    StableHlo.TRef.unary (.of main_cst_1441 : StableHlo.TRef sig ⟨S_, .f32⟩) main_call414.v0 id,
    StableHlo.TRef.unary main_call414.v0 main_call414.v1 (broadcastInDim S32768x1 ![] bcast_S_S32768x1),
    StableHlo.TRef.binary main_call414.v1 (.of main_v4659 : StableHlo.TRef sig ⟨S32768x1, .f32⟩) main_call414.v2 maximumf,
    StableHlo.TRef.unary (.of main_cst_1442 : StableHlo.TRef sig ⟨S_, .f32⟩) main_call414.v3 id,
    StableHlo.TRef.unary main_call414.v3 main_call414.v4 (broadcastInDim S32768x1 ![] bcast_S_S32768x1),
    StableHlo.TRef.binary main_call414.v4 main_call414.v2 main_call414.v5 minimumf,
    StableHlo.nullary main_cst_1443 (constant S_ .f32 0xC1F00000#32),
    StableHlo.nullary main_cst_1444 (constant S_ .f32 0x41F00000#32),
    StableHlo.TRef.unary (.of main_cst_1443 : StableHlo.TRef sig ⟨S_, .f32⟩) main_call415.v0 id,
    StableHlo.TRef.unary main_call415.v0 main_call415.v1 (broadcastInDim S32768x1 ![] bcast_S_S32768x1),
    StableHlo.TRef.binary main_call415.v1 (.of main_v4660 : StableHlo.TRef sig ⟨S32768x1, .f32⟩) main_call415.v2 maximumf,
    StableHlo.TRef.unary (.of main_cst_1444 : StableHlo.TRef sig ⟨S_, .f32⟩) main_call415.v3 id,
    StableHlo.TRef.unary main_call415.v3 main_call415.v4 (broadcastInDim S32768x1 ![] bcast_S_S32768x1),
    StableHlo.TRef.binary main_call415.v4 main_call415.v2 main_call415.v5 minimumf,
    StableHlo.unary main_v4661 main_v4663 (Host.sign : (⟨S32768x1, .f32⟩ : BufTy).Contents (Elt F) → (⟨S32768x1, .f32⟩ : BufTy).Contents (Elt F)),
    StableHlo.unary main_v4662 main_v4664 (Host.sign : (⟨S32768x1, .f32⟩ : BufTy).Contents (Elt F) → (⟨S32768x1, .f32⟩ : BufTy).Contents (Elt F)),
    StableHlo.binary main_v4663 main_v4664 main_v4665 (mulf : (⟨S32768x1, .f32⟩ : BufTy).Contents (Elt F) → (⟨S32768x1, .f32⟩ : BufTy).Contents (Elt F) → (⟨S32768x1, .f32⟩ : BufTy).Contents (Elt F)),
    StableHlo.unary main_v4661 main_v4666 (Host.absf : (⟨S32768x1, .f32⟩ : BufTy).Contents (Elt F) → (⟨S32768x1, .f32⟩ : BufTy).Contents (Elt F)),
    StableHlo.unary main_v4662 main_v4667 (Host.absf : (⟨S32768x1, .f32⟩ : BufTy).Contents (Elt F) → (⟨S32768x1, .f32⟩ : BufTy).Contents (Elt F)),
    StableHlo.binary main_v4666 main_v4667 main_v4668 (minimumf : (⟨S32768x1, .f32⟩ : BufTy).Contents (Elt F) → (⟨S32768x1, .f32⟩ : BufTy).Contents (Elt F) → (⟨S32768x1, .f32⟩ : BufTy).Contents (Elt F)),
    StableHlo.binary main_v4665 main_v4668 main_v4669 (mulf : (⟨S32768x1, .f32⟩ : BufTy).Contents (Elt F) → (⟨S32768x1, .f32⟩ : BufTy).Contents (Elt F) → (⟨S32768x1, .f32⟩ : BufTy).Contents (Elt F)),
    StableHlo.nullary main_cst_1445 (constant S_ .f32 0x00000000#32),
    StableHlo.unary main_cst_1445 main_v4670 (broadcastInDim S32768x1 ![] bcast_S_S32768x1 : (⟨S_, .f32⟩ : BufTy).Contents (Elt F) → (⟨S32768x1, .f32⟩ : BufTy).Contents (Elt F)),
    StableHlo.binary main_v4669 main_v4670 main_v4671 (cmpf .ole : (⟨S32768x1, .f32⟩ : BufTy).Contents (Elt F) → (⟨S32768x1, .f32⟩ : BufTy).Contents (Elt F) → (⟨S32768x1, .i1⟩ : BufTy).Contents (Elt F)) ]

set_option maxRecDepth 8192 in
/-- The window is that straight line: each clip function unfolded at its calls, the sequencing reassociated. -/
theorem part_eq_101 (d : Dev nD) : main_part101 (F := F) d = seq ops101 := by
  simp only [main_part101, fn_clip_5.body, fn_clip_6.body, seq, bind_assoc, pure_bind]
  rfl

/-- Every operation of the window touches TensorCore references only. -/
theorem sub_101 : (ops101 : List (HloOp τ sig (Elt F))).Forall fun op => op.bufs ⊆ tcRefs τ sig :=
  ⟨unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    unary_bufs_sub .., binary_bufs_sub .., binary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., nullary_bufs_sub ..,
    unary_bufs_sub .., binary_bufs_sub ..⟩

/-- Every operation of the window determines all it writes. -/
theorem fresh_101 : (ops101 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_101 (V : Valuation τ sig (Elt F)) :
    after ops101 V (main_arg0 : DevRef τ sig) = V (main_arg0 : DevRef τ sig) := by
  simp only [after_cons, after_nil]
  rfl

/-- The operations of @main's statements 6121 … 6180, in order (70 of them): a statement's own operation, or, for a call
    of a clip function, the six operations of its body over that call's buffers. -/
abbrev ops102 : List (HloOp τ sig (Elt F)) :=
  [ StableHlo.unary main_v4671 main_v4672 (uitofp .f32 : (⟨S32768x1, .i1⟩ : BufTy).Contents (Elt F) → (⟨S32768x1, .f32⟩ : BufTy).Contents (Elt F)),
    StableHlo.nullary main_cst_1446 (constant S_ .f32 0x40000000#32),
    StableHlo.unary main_cst_1446 main_v4673 (broadcastInDim S32768x1 ![] bcast_S_S32768x1 : (⟨S_, .f32⟩ : BufTy).Contents (Elt F) → (⟨S32768x1, .f32⟩ : BufTy).Contents (Elt F)),
    StableHlo.binary main_v4673 main_v4672 main_v4674 (mulf : (⟨S32768x1, .f32⟩ : BufTy).Contents (Elt F) → (⟨S32768x1, .f32⟩ : BufTy).Contents (Elt F) → (⟨S32768x1, .f32⟩ : BufTy).Contents (Elt F)),
    StableHlo.nullary main_cst_1447 (constant S_ .f32 0x3F800000#32),
    StableHlo.unary main_cst_1447 main_v4675 (broadcastInDim S32768x1 ![] bcast_S_S32768x1 : (⟨S_, .f32⟩ : BufTy).Contents (Elt F) → (⟨S32768x1, .f32⟩ : BufTy).Contents (Elt F)),
    StableHlo.binary main_v4675 main_v4674 main_v4676 (subf : (⟨S32768x1, .f32⟩ : BufTy).Contents (Elt F) → (⟨S32768x1, .f32⟩ : BufTy).Contents (Elt F) → (⟨S32768x1, .f32⟩ : BufTy).Contents (Elt F)),
    StableHlo.binary main_v4676 main_v4659 main_v4677 (mulf : (⟨S32768x1, .f32⟩ : BufTy).Contents (Elt F) → (⟨S32768x1, .f32⟩ : BufTy).Contents (Elt F) → (⟨S32768x1, .f32⟩ : BufTy).Contents (Elt F)),
    StableHlo.binary main_v4677 main_v4660 main_v4678 (addf : (⟨S32768x1, .f32⟩ : BufTy).Contents (Elt F) → (⟨S32768x1, .f32⟩ : BufTy).Contents (Elt F) → (⟨S32768x1, .f32⟩ : BufTy).Contents (Elt F)),
    StableHlo.nullary main_cst_1448 (constant S_ .f32 0x00000000#32),
    StableHlo.unary main_cst_1448 main_v4679 (broadcastInDim S32768x1 ![] bcast_S_S32768x1 : (⟨S_, .f32⟩ : BufTy).Contents (Elt F) → (⟨S32768x1, .f32⟩ : BufTy).Contents (Elt F)),
    StableHlo.binary main_v4678 main_v4679 main_v4680 (cmpf .ole : (⟨S32768x1, .f32⟩ : BufTy).Contents (Elt F) → (⟨S32768x1, .f32⟩ : BufTy).Contents (Elt F) → (⟨S32768x1, .i1⟩ : BufTy).Contents (Elt F)),
    StableHlo.unary main_v4680 main_v4681 (uitofp .f32 : (⟨S32768x1, .i1⟩ : BufTy).Contents (Elt F) → (⟨S32768x1, .f32⟩ : BufTy).Contents (Elt F)),
    StableHlo.binary main_v4672 main_v4681 main_v4682 (cmpf .une : (⟨S32768x1, .f32⟩ : BufTy).Contents (Elt F) → (⟨S32768x1, .f32⟩ : BufTy).Contents (Elt F) → (⟨S32768x1, .i1⟩ : BufTy).Contents (Elt F)),
    StableHlo.unary main_v4682 main_v4683 (uitofp .f32 : (⟨S32768x1, .i1⟩ : BufTy).Contents (Elt F) → (⟨S32768x1, .f32⟩ : BufTy).Contents (Elt F)),
    StableHlo.binary main_v4683 main_v4681 main_v4684 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4672 main_v4681 main_v4685 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1449 (constant S_ .f32 0x40000000#32),
    StableHlo.unary main_cst_1449 main_v4686 (broadcastInDim S32768x2 ![] bcast_S_S32768x2 : (⟨S_, .f32⟩ : BufTy).Contents (Elt F) → (⟨S32768x2, .f32⟩ : BufTy).Contents (Elt F)),
    StableHlo.binary main_v4686 main_v4684 main_v4687 (mulf : (⟨S32768x2, .f32⟩ : BufTy).Contents (Elt F) → (⟨S32768x2, .f32⟩ : BufTy).Contents (Elt F) → (⟨S32768x2, .f32⟩ : BufTy).Contents (Elt F)),
    StableHlo.nullary main_cst_1450 (constant S_ .f32 0x3F800000#32),
    StableHlo.unary main_cst_1450 main_v4688 (broadcastInDim S32768x2 ![] bcast_S_S32768x2 : (⟨S_, .f32⟩ : BufTy).Contents (Elt F) → (⟨S32768x2, .f32⟩ : BufTy).Contents (Elt F)),
    StableHlo.binary main_v4688 main_v4687 main_v4689 (subf : (⟨S32768x2, .f32⟩ : BufTy).Contents (Elt F) → (⟨S32768x2, .f32⟩ : BufTy).Contents (Elt F) → (⟨S32768x2, .f32⟩ : BufTy).Contents (Elt F)),
    StableHlo.binary main_v4689 main_v4648 main_v4690 (mulf : (⟨S32768x2, .f32⟩ : BufTy).Contents (Elt F) → (⟨S32768x2, .f32⟩ : BufTy).Contents (Elt F) → (⟨S32768x2, .f32⟩ : BufTy).Contents (Elt F)),
    StableHlo.binary main_v4690 main_v4649 main_v4691 (addf : (⟨S32768x2, .f32⟩ : BufTy).Contents (Elt F) → (⟨S32768x2, .f32⟩ : BufTy).Contents (Elt F) → (⟨S32768x2, .f32⟩ : BufTy).Contents (Elt F)),
    StableHlo.unary main_v4691 main_v4692 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4691 main_v4693 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1451 (constant S_ .f32 0xC1F00000#32),
    StableHlo.nullary main_cst_1452 (constant S_ .f32 0x41F00000#32),
    StableHlo.TRef.unary (.of main_cst_1451 : StableHlo.TRef sig ⟨S_, .f32⟩) main_call416.v0 id,
    StableHlo.TRef.unary main_call416.v0 main_call416.v1 (broadcastInDim S32768x1 ![] bcast_S_S32768x1),
    StableHlo.TRef.binary main_call416.v1 (.of main_v4692 : StableHlo.TRef sig ⟨S32768x1, .f32⟩) main_call416.v2 maximumf,
    StableHlo.TRef.unary (.of main_cst_1452 : StableHlo.TRef sig ⟨S_, .f32⟩) main_call416.v3 id,
    StableHlo.TRef.unary main_call416.v3 main_call416.v4 (broadcastInDim S32768x1 ![] bcast_S_S32768x1),
    StableHlo.TRef.binary main_call416.v4 main_call416.v2 main_call416.v5 minimumf,
    StableHlo.nullary main_cst_1453 (constant S_ .f32 0xC1F00000#32),
    StableHlo.nullary main_cst_1454 (constant S_ .f32 0x41F00000#32),
    StableHlo.TRef.unary (.of main_cst_1453 : StableHlo.TRef sig ⟨S_, .f32⟩) main_call417.v0 id,
    StableHlo.TRef.unary main_call417.v0 main_call417.v1 (broadcastInDim S32768x1 ![] bcast_S_S32768x1),
    StableHlo.TRef.binary main_call417.v1 (.of main_v4693 : StableHlo.TRef sig ⟨S32768x1, .f32⟩) main_call417.v2 maximumf,
    StableHlo.TRef.unary (.of main_cst_1454 : StableHlo.TRef sig ⟨S_, .f32⟩) main_call417.v3 id,
    StableHlo.TRef.unary main_call417.v3 main_call417.v4 (broadcastInDim S32768x1 ![] bcast_S_S32768x1),
    StableHlo.TRef.binary main_call417.v4 main_call417.v2 main_call417.v5 minimumf,
    StableHlo.unary main_v4694 main_v4696 (Host.sign : (⟨S32768x1, .f32⟩ : BufTy).Contents (Elt F) → (⟨S32768x1, .f32⟩ : BufTy).Contents (Elt F)),
    StableHlo.unary main_v4695 main_v4697 (Host.sign : (⟨S32768x1, .f32⟩ : BufTy).Contents (Elt F) → (⟨S32768x1, .f32⟩ : BufTy).Contents (Elt F)),
    StableHlo.binary main_v4696 main_v4697 main_v4698 (mulf : (⟨S32768x1, .f32⟩ : BufTy).Contents (Elt F) → (⟨S32768x1, .f32⟩ : BufTy).Contents (Elt F) → (⟨S32768x1, .f32⟩ : BufTy).Contents (Elt F)),
    StableHlo.unary main_v4694 main_v4699 (Host.absf : (⟨S32768x1, .f32⟩ : BufTy).Contents (Elt F) → (⟨S32768x1, .f32⟩ : BufTy).Contents (Elt F)),
    StableHlo.unary main_v4695 main_v4700 (Host.absf : (⟨S32768x1, .f32⟩ : BufTy).Contents (Elt F) → (⟨S32768x1, .f32⟩ : BufTy).Contents (Elt F)),
    StableHlo.binary main_v4699 main_v4700 main_v4701 (minimumf : (⟨S32768x1, .f32⟩ : BufTy).Contents (Elt F) → (⟨S32768x1, .f32⟩ : BufTy).Contents (Elt F) → (⟨S32768x1, .f32⟩ : BufTy).Contents (Elt F)),
    StableHlo.binary main_v4698 main_v4701 main_v4702 (mulf : (⟨S32768x1, .f32⟩ : BufTy).Contents (Elt F) → (⟨S32768x1, .f32⟩ : BufTy).Contents (Elt F) → (⟨S32768x1, .f32⟩ : BufTy).Contents (Elt F)),
    StableHlo.nullary main_cst_1455 (constant S_ .f32 0x00000000#32),
    StableHlo.unary main_cst_1455 main_v4703 (broadcastInDim S32768x1 ![] bcast_S_S32768x1 : (⟨S_, .f32⟩ : BufTy).Contents (Elt F) → (⟨S32768x1, .f32⟩ : BufTy).Contents (Elt F)),
    StableHlo.binary main_v4702 main_v4703 main_v4704 (cmpf .ole : (⟨S32768x1, .f32⟩ : BufTy).Contents (Elt F) → (⟨S32768x1, .f32⟩ : BufTy).Contents (Elt F) → (⟨S32768x1, .i1⟩ : BufTy).Contents (Elt F)),
    StableHlo.unary main_v4704 main_v4705 (uitofp .f32 : (⟨S32768x1, .i1⟩ : BufTy).Contents (Elt F) → (⟨S32768x1, .f32⟩ : BufTy).Contents (Elt F)),
    StableHlo.nullary main_cst_1456 (constant S_ .f32 0x40000000#32),
    StableHlo.unary main_cst_1456 main_v4706 (broadcastInDim S32768x1 ![] bcast_S_S32768x1 : (⟨S_, .f32⟩ : BufTy).Contents (Elt F) → (⟨S32768x1, .f32⟩ : BufTy).Contents (Elt F)),
    StableHlo.binary main_v4706 main_v4705 main_v4707 (mulf : (⟨S32768x1, .f32⟩ : BufTy).Contents (Elt F) → (⟨S32768x1, .f32⟩ : BufTy).Contents (Elt F) → (⟨S32768x1, .f32⟩ : BufTy).Contents (Elt F)),
    StableHlo.nullary main_cst_1457 (constant S_ .f32 0x3F800000#32),
    StableHlo.unary main_cst_1457 main_v4708 (broadcastInDim S32768x1 ![] bcast_S_S32768x1 : (⟨S_, .f32⟩ : BufTy).Contents (Elt F) → (⟨S32768x1, .f32⟩ : BufTy).Contents (Elt F)),
    StableHlo.binary main_v4708 main_v4707 main_v4709 (subf : (⟨S32768x1, .f32⟩ : BufTy).Contents (Elt F) → (⟨S32768x1, .f32⟩ : BufTy).Contents (Elt F) → (⟨S32768x1, .f32⟩ : BufTy).Contents (Elt F)),
    StableHlo.binary main_v4709 main_v4692 main_v4710 (mulf : (⟨S32768x1, .f32⟩ : BufTy).Contents (Elt F) → (⟨S32768x1, .f32⟩ : BufTy).Contents (Elt F) → (⟨S32768x1, .f32⟩ : BufTy).Contents (Elt F)),
    StableHlo.binary main_v4710 main_v4693 main_v4711 (addf : (⟨S32768x1, .f32⟩ : BufTy).Contents (Elt F) → (⟨S32768x1, .f32⟩ : BufTy).Contents (Elt F) → (⟨S32768x1, .f32⟩ : BufTy).Contents (Elt F)),
    StableHlo.nullary main_cst_1458 (constant S_ .f32 0x00000000#32),
    StableHlo.unary main_cst_1458 main_v4712 (broadcastInDim S32768x1 ![] bcast_S_S32768x1 : (⟨S_, .f32⟩ : BufTy).Contents (Elt F) → (⟨S32768x1, .f32⟩ : BufTy).Contents (Elt F)),
    StableHlo.binary main_v4711 main_v4712 main_v4713 (cmpf .ole : (⟨S32768x1, .f32⟩ : BufTy).Contents (Elt F) → (⟨S32768x1, .f32⟩ : BufTy).Contents (Elt F) → (⟨S32768x1, .i1⟩ : BufTy).Contents (Elt F)),
    StableHlo.unary main_v4713 main_v4714 (uitofp .f32 : (⟨S32768x1, .i1⟩ : BufTy).Contents (Elt F) → (⟨S32768x1, .f32⟩ : BufTy).Contents (Elt F)),
    StableHlo.binary main_v4705 main_v4714 main_v4715 (cmpf .une : (⟨S32768x1, .f32⟩ : BufTy).Contents (Elt F) → (⟨S32768x1, .f32⟩ : BufTy).Contents (Elt F) → (⟨S32768x1, .i1⟩ : BufTy).Contents (Elt F)),
    StableHlo.unary main_v4715 main_v4716 (uitofp .f32 : (⟨S32768x1, .i1⟩ : BufTy).Contents (Elt F) → (⟨S32768x1, .f32⟩ : BufTy).Contents (Elt F)),
    StableHlo.binary main_v4716 main_v4714 main_v4717 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4705 main_v4714 main_v4718 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)) ]

set_option maxRecDepth 8192 in
/-- The window is that straight line: each clip function unfolded at its calls, the sequencing reassociated. -/
theorem part_eq_102 (d : Dev nD) : main_part102 (F := F) d = seq ops102 := by
  simp only [main_part102, fn_clip_6.body, seq, bind_assoc, pure_bind]
  rfl

/-- Every operation of the window touches TensorCore references only. -/
theorem sub_102 : (ops102 : List (HloOp τ sig (Elt F))).Forall fun op => op.bufs ⊆ tcRefs τ sig :=
  ⟨unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    unary_bufs_sub .., binary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., unary_bufs_sub .., binary_bufs_sub .., binary_bufs_sub ..⟩

/-- Every operation of the window determines all it writes. -/
theorem fresh_102 : (ops102 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_102 (V : Valuation τ sig (Elt F)) :
    after ops102 V (main_arg0 : DevRef τ sig) = V (main_arg0 : DevRef τ sig) := by
  simp only [after_cons, after_nil]
  rfl

/-- The operations of @main's statements 6181 … 6240, in order (90 of them): a statement's own operation, or, for a call
    of a clip function, the six operations of its body over that call's buffers. -/
abbrev ops103 : List (HloOp τ sig (Elt F)) :=
  [ StableHlo.binary main_v4684 main_v4717 main_v4719 (cmpf .une : (⟨S32768x2, .f32⟩ : BufTy).Contents (Elt F) → (⟨S32768x2, .f32⟩ : BufTy).Contents (Elt F) → (⟨S32768x2, .i1⟩ : BufTy).Contents (Elt F)),
    StableHlo.unary main_v4719 main_v4720 (uitofp .f32 : (⟨S32768x2, .i1⟩ : BufTy).Contents (Elt F) → (⟨S32768x2, .f32⟩ : BufTy).Contents (Elt F)),
    StableHlo.binary main_v4720 main_v4717 main_v4721 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v4685 main_v4718 main_v4722 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v4640 main_v4721 main_v4723 (cmpf .une : (⟨S32768x4, .f32⟩ : BufTy).Contents (Elt F) → (⟨S32768x4, .f32⟩ : BufTy).Contents (Elt F) → (⟨S32768x4, .i1⟩ : BufTy).Contents (Elt F)),
    StableHlo.unary main_v4723 main_v4724 (uitofp .f32 : (⟨S32768x4, .i1⟩ : BufTy).Contents (Elt F) → (⟨S32768x4, .f32⟩ : BufTy).Contents (Elt F)),
    StableHlo.binary main_v4724 main_v4721 main_v4725 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v4641 main_v4722 main_v4726 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v4548 main_v4725 main_v4727 (cmpf .une : (⟨S32768x8, .f32⟩ : BufTy).Contents (Elt F) → (⟨S32768x8, .f32⟩ : BufTy).Contents (Elt F) → (⟨S32768x8, .i1⟩ : BufTy).Contents (Elt F)),
    StableHlo.unary main_v4727 main_v4728 (uitofp .f32 : (⟨S32768x8, .i1⟩ : BufTy).Contents (Elt F) → (⟨S32768x8, .f32⟩ : BufTy).Contents (Elt F)),
    StableHlo.binary main_v4728 main_v4725 main_v4729 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v4549 main_v4726 main_v4730 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.nullary main_cst_1459 (constant S_ .f32 0x40000000#32),
    StableHlo.unary main_cst_1459 main_v4731 (broadcastInDim S32768x16 ![] bcast_S_S32768x16 : (⟨S_, .f32⟩ : BufTy).Contents (Elt F) → (⟨S32768x16, .f32⟩ : BufTy).Contents (Elt F)),
    StableHlo.binary main_v4731 main_v4729 main_v4732 (mulf : (⟨S32768x16, .f32⟩ : BufTy).Contents (Elt F) → (⟨S32768x16, .f32⟩ : BufTy).Contents (Elt F) → (⟨S32768x16, .f32⟩ : BufTy).Contents (Elt F)),
    StableHlo.nullary main_cst_1460 (constant S_ .f32 0x3F800000#32),
    StableHlo.unary main_cst_1460 main_v4733 (broadcastInDim S32768x16 ![] bcast_S_S32768x16 : (⟨S_, .f32⟩ : BufTy).Contents (Elt F) → (⟨S32768x16, .f32⟩ : BufTy).Contents (Elt F)),
    StableHlo.binary main_v4733 main_v4732 main_v4734 (subf : (⟨S32768x16, .f32⟩ : BufTy).Contents (Elt F) → (⟨S32768x16, .f32⟩ : BufTy).Contents (Elt F) → (⟨S32768x16, .f32⟩ : BufTy).Contents (Elt F)),
    StableHlo.binary main_v4734 main_v4357 main_v4735 (mulf : (⟨S32768x16, .f32⟩ : BufTy).Contents (Elt F) → (⟨S32768x16, .f32⟩ : BufTy).Contents (Elt F) → (⟨S32768x16, .f32⟩ : BufTy).Contents (Elt F)),
    StableHlo.binary main_v4735 main_v4358 main_v4736 (addf : (⟨S32768x16, .f32⟩ : BufTy).Contents (Elt F) → (⟨S32768x16, .f32⟩ : BufTy).Contents (Elt F) → (⟨S32768x16, .f32⟩ : BufTy).Contents (Elt F)),
    StableHlo.unary main_v4736 main_v4737 ((extractStridedSlice S32768x8 ![0, 0] · slices_S32768x16_S32768x8_0_0) : (⟨S32768x16, .f32⟩ : BufTy).Contents (Elt F) → (⟨S32768x8, .f32⟩ : BufTy).Contents (Elt F)),
    StableHlo.unary main_v4736 main_v4738 ((extractStridedSlice S32768x8 ![0, 8] · slices_S32768x16_S32768x8_0_8) : (⟨S32768x16, .f32⟩ : BufTy).Contents (Elt F) → (⟨S32768x8, .f32⟩ : BufTy).Contents (Elt F)),
    StableHlo.nullary main_cst_1461 (constant S_ .f32 0xC1F00000#32),
    StableHlo.nullary main_cst_1462 (constant S_ .f32 0x41F00000#32),
    StableHlo.TRef.unary (.of main_cst_1461 : StableHlo.TRef sig ⟨S_, .f32⟩) main_call418.v0 id,
    StableHlo.TRef.unary main_call418.v0 main_call418.v1 (broadcastInDim S32768x8 ![] bcast_S_S32768x8),
    StableHlo.TRef.binary main_call418.v1 (.of main_v4737 : StableHlo.TRef sig ⟨S32768x8, .f32⟩) main_call418.v2 maximumf,
    StableHlo.TRef.unary (.of main_cst_1462 : StableHlo.TRef sig ⟨S_, .f32⟩) main_call418.v3 id,
    StableHlo.TRef.unary main_call418.v3 main_call418.v4 (broadcastInDim S32768x8 ![] bcast_S_S32768x8),
    StableHlo.TRef.binary main_call418.v4 main_call418.v2 main_call418.v5 minimumf,
    StableHlo.nullary main_cst_1463 (constant S_ .f32 0xC1F00000#32),
    StableHlo.nullary main_cst_1464 (constant S_ .f32 0x41F00000#32),
    StableHlo.TRef.unary (.of main_cst_1463 : StableHlo.TRef sig ⟨S_, .f32⟩) main_call419.v0 id,
    StableHlo.TRef.unary main_call419.v0 main_call419.v1 (broadcastInDim S32768x8 ![] bcast_S_S32768x8),
    StableHlo.TRef.binary main_call419.v1 (.of main_v4738 : StableHlo.TRef sig ⟨S32768x8, .f32⟩) main_call419.v2 maximumf,
    StableHlo.TRef.unary (.of main_cst_1464 : StableHlo.TRef sig ⟨S_, .f32⟩) main_call419.v3 id,
    StableHlo.TRef.unary main_call419.v3 main_call419.v4 (broadcastInDim S32768x8 ![] bcast_S_S32768x8),
    StableHlo.TRef.binary main_call419.v4 main_call419.v2 main_call419.v5 minimumf,
    StableHlo.unary main_v4739 main_v4741 (Host.sign : (⟨S32768x8, .f32⟩ : BufTy).Contents (Elt F) → (⟨S32768x8, .f32⟩ : BufTy).Contents (Elt F)),
    StableHlo.unary main_v4740 main_v4742 (Host.sign : (⟨S32768x8, .f32⟩ : BufTy).Contents (Elt F) → (⟨S32768x8, .f32⟩ : BufTy).Contents (Elt F)),
    StableHlo.binary main_v4741 main_v4742 main_v4743 (mulf : (⟨S32768x8, .f32⟩ : BufTy).Contents (Elt F) → (⟨S32768x8, .f32⟩ : BufTy).Contents (Elt F) → (⟨S32768x8, .f32⟩ : BufTy).Contents (Elt F)),
    StableHlo.unary main_v4739 main_v4744 (Host.absf : (⟨S32768x8, .f32⟩ : BufTy).Contents (Elt F) → (⟨S32768x8, .f32⟩ : BufTy).Contents (Elt F)),
    StableHlo.unary main_v4740 main_v4745 (Host.absf : (⟨S32768x8, .f32⟩ : BufTy).Contents (Elt F) → (⟨S32768x8, .f32⟩ : BufTy).Contents (Elt F)),
    StableHlo.binary main_v4744 main_v4745 main_v4746 (minimumf : (⟨S32768x8, .f32⟩ : BufTy).Contents (Elt F) → (⟨S32768x8, .f32⟩ : BufTy).Contents (Elt F) → (⟨S32768x8, .f32⟩ : BufTy).Contents (Elt F)),
    StableHlo.binary main_v4743 main_v4746 main_v4747 (mulf : (⟨S32768x8, .f32⟩ : BufTy).Contents (Elt F) → (⟨S32768x8, .f32⟩ : BufTy).Contents (Elt F) → (⟨S32768x8, .f32⟩ : BufTy).Contents (Elt F)),
    StableHlo.unary main_v4747 main_v4748 ((extractStridedSlice S32768x4 ![0, 0] · slices_S32768x8_S32768x4_0_0) : (⟨S32768x8, .f32⟩ : BufTy).Contents (Elt F) → (⟨S32768x4, .f32⟩ : BufTy).Contents (Elt F)),
    StableHlo.unary main_v4747 main_v4749 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_1465 (constant S_ .f32 0xC1F00000#32),
    StableHlo.nullary main_cst_1466 (constant S_ .f32 0x41F00000#32),
    StableHlo.TRef.unary (.of main_cst_1465 : StableHlo.TRef sig ⟨S_, .f32⟩) main_call420.v0 id,
    StableHlo.TRef.unary main_call420.v0 main_call420.v1 (broadcastInDim S32768x4 ![] bcast_S_S32768x4),
    StableHlo.TRef.binary main_call420.v1 (.of main_v4748 : StableHlo.TRef sig ⟨S32768x4, .f32⟩) main_call420.v2 maximumf,
    StableHlo.TRef.unary (.of main_cst_1466 : StableHlo.TRef sig ⟨S_, .f32⟩) main_call420.v3 id,
    StableHlo.TRef.unary main_call420.v3 main_call420.v4 (broadcastInDim S32768x4 ![] bcast_S_S32768x4),
    StableHlo.TRef.binary main_call420.v4 main_call420.v2 main_call420.v5 minimumf,
    StableHlo.nullary main_cst_1467 (constant S_ .f32 0xC1F00000#32),
    StableHlo.nullary main_cst_1468 (constant S_ .f32 0x41F00000#32),
    StableHlo.TRef.unary (.of main_cst_1467 : StableHlo.TRef sig ⟨S_, .f32⟩) main_call421.v0 id,
    StableHlo.TRef.unary main_call421.v0 main_call421.v1 (broadcastInDim S32768x4 ![] bcast_S_S32768x4),
    StableHlo.TRef.binary main_call421.v1 (.of main_v4749 : StableHlo.TRef sig ⟨S32768x4, .f32⟩) main_call421.v2 maximumf,
    StableHlo.TRef.unary (.of main_cst_1468 : StableHlo.TRef sig ⟨S_, .f32⟩) main_call421.v3 id,
    StableHlo.TRef.unary main_call421.v3 main_call421.v4 (broadcastInDim S32768x4 ![] bcast_S_S32768x4),
    StableHlo.TRef.binary main_call421.v4 main_call421.v2 main_call421.v5 minimumf,
    StableHlo.unary main_v4750 main_v4752 (Host.sign : (⟨S32768x4, .f32⟩ : BufTy).Contents (Elt F) → (⟨S32768x4, .f32⟩ : BufTy).Contents (Elt F)),
    StableHlo.unary main_v4751 main_v4753 (Host.sign : (⟨S32768x4, .f32⟩ : BufTy).Contents (Elt F) → (⟨S32768x4, .f32⟩ : BufTy).Contents (Elt F)),
    StableHlo.binary main_v4752 main_v4753 main_v4754 (mulf : (⟨S32768x4, .f32⟩ : BufTy).Contents (Elt F) → (⟨S32768x4, .f32⟩ : BufTy).Contents (Elt F) → (⟨S32768x4, .f32⟩ : BufTy).Contents (Elt F)),
    StableHlo.unary main_v4750 main_v4755 (Host.absf : (⟨S32768x4, .f32⟩ : BufTy).Contents (Elt F) → (⟨S32768x4, .f32⟩ : BufTy).Contents (Elt F)),
    StableHlo.unary main_v4751 main_v4756 (Host.absf : (⟨S32768x4, .f32⟩ : BufTy).Contents (Elt F) → (⟨S32768x4, .f32⟩ : BufTy).Contents (Elt F)),
    StableHlo.binary main_v4755 main_v4756 main_v4757 (minimumf : (⟨S32768x4, .f32⟩ : BufTy).Contents (Elt F) → (⟨S32768x4, .f32⟩ : BufTy).Contents (Elt F) → (⟨S32768x4, .f32⟩ : BufTy).Contents (Elt F)),
    StableHlo.binary main_v4754 main_v4757 main_v4758 (mulf : (⟨S32768x4, .f32⟩ : BufTy).Contents (Elt F) → (⟨S32768x4, .f32⟩ : BufTy).Contents (Elt F) → (⟨S32768x4, .f32⟩ : BufTy).Contents (Elt F)),
    StableHlo.unary main_v4758 main_v4759 ((extractStridedSlice S32768x2 ![0, 0] · slices_S32768x4_S32768x2_0_0) : (⟨S32768x4, .f32⟩ : BufTy).Contents (Elt F) → (⟨S32768x2, .f32⟩ : BufTy).Contents (Elt F)),
    StableHlo.unary main_v4758 main_v4760 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1469 (constant S_ .f32 0xC1F00000#32),
    StableHlo.nullary main_cst_1470 (constant S_ .f32 0x41F00000#32),
    StableHlo.TRef.unary (.of main_cst_1469 : StableHlo.TRef sig ⟨S_, .f32⟩) main_call422.v0 id,
    StableHlo.TRef.unary main_call422.v0 main_call422.v1 (broadcastInDim S32768x2 ![] bcast_S_S32768x2),
    StableHlo.TRef.binary main_call422.v1 (.of main_v4759 : StableHlo.TRef sig ⟨S32768x2, .f32⟩) main_call422.v2 maximumf,
    StableHlo.TRef.unary (.of main_cst_1470 : StableHlo.TRef sig ⟨S_, .f32⟩) main_call422.v3 id,
    StableHlo.TRef.unary main_call422.v3 main_call422.v4 (broadcastInDim S32768x2 ![] bcast_S_S32768x2),
    StableHlo.TRef.binary main_call422.v4 main_call422.v2 main_call422.v5 minimumf,
    StableHlo.nullary main_cst_1471 (constant S_ .f32 0xC1F00000#32),
    StableHlo.nullary main_cst_1472 (constant S_ .f32 0x41F00000#32),
    StableHlo.TRef.unary (.of main_cst_1471 : StableHlo.TRef sig ⟨S_, .f32⟩) main_call423.v0 id,
    StableHlo.TRef.unary main_call423.v0 main_call423.v1 (broadcastInDim S32768x2 ![] bcast_S_S32768x2),
    StableHlo.TRef.binary main_call423.v1 (.of main_v4760 : StableHlo.TRef sig ⟨S32768x2, .f32⟩) main_call423.v2 maximumf,
    StableHlo.TRef.unary (.of main_cst_1472 : StableHlo.TRef sig ⟨S_, .f32⟩) main_call423.v3 id,
    StableHlo.TRef.unary main_call423.v3 main_call423.v4 (broadcastInDim S32768x2 ![] bcast_S_S32768x2),
    StableHlo.TRef.binary main_call423.v4 main_call423.v2 main_call423.v5 minimumf,
    StableHlo.unary main_v4761 main_v4763 (Host.sign : (⟨S32768x2, .f32⟩ : BufTy).Contents (Elt F) → (⟨S32768x2, .f32⟩ : BufTy).Contents (Elt F)),
    StableHlo.unary main_v4762 main_v4764 (Host.sign : (⟨S32768x2, .f32⟩ : BufTy).Contents (Elt F) → (⟨S32768x2, .f32⟩ : BufTy).Contents (Elt F)) ]

set_option maxRecDepth 8192 in
/-- The window is that straight line: each clip function unfolded at its calls, the sequencing reassociated. -/
theorem part_eq_103 (d : Dev nD) : main_part103 (F := F) d = seq ops103 := by
  simp only [main_part103, fn_clip_3.body, fn_clip_4.body, fn_clip_5.body, seq, bind_assoc, pure_bind]
  rfl

/-- Every operation of the window touches TensorCore references only. -/
theorem sub_103 : (ops103 : List (HloOp τ sig (Elt F))).Forall fun op => op.bufs ⊆ tcRefs τ sig :=
  ⟨binary_bufs_sub .., unary_bufs_sub .., binary_bufs_sub .., binary_bufs_sub .., binary_bufs_sub .., unary_bufs_sub ..,
    binary_bufs_sub .., binary_bufs_sub .., binary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..⟩

/-- Every operation of the window determines all it writes. -/
theorem fresh_103 : (ops103 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_103 (V : Valuation τ sig (Elt F)) :
    after ops103 V (main_arg0 : DevRef τ sig) = V (main_arg0 : DevRef τ sig) := by
  simp only [after_cons, after_nil]
  rfl

end Cert.ReferenceIdeal.RefRun

end
-- ==== Proof.RefRun.W13.lean ====
import proofs.«134088_j24077586662034_2_alg».proof.Defs
import proofs.«134088_j24077586662034_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 6241 … 6300, in order (80 of them): a statement's own operation, or, for a call
    of a clip function, the six operations of its body over that call's buffers. -/
abbrev ops104 : List (HloOp τ sig (Elt F)) :=
  [ StableHlo.binary main_v4763 main_v4764 main_v4765 (mulf : (⟨S32768x2, .f32⟩ : BufTy).Contents (Elt F) → (⟨S32768x2, .f32⟩ : BufTy).Contents (Elt F) → (⟨S32768x2, .f32⟩ : BufTy).Contents (Elt F)),
    StableHlo.unary main_v4761 main_v4766 (Host.absf : (⟨S32768x2, .f32⟩ : BufTy).Contents (Elt F) → (⟨S32768x2, .f32⟩ : BufTy).Contents (Elt F)),
    StableHlo.unary main_v4762 main_v4767 (Host.absf : (⟨S32768x2, .f32⟩ : BufTy).Contents (Elt F) → (⟨S32768x2, .f32⟩ : BufTy).Contents (Elt F)),
    StableHlo.binary main_v4766 main_v4767 main_v4768 (minimumf : (⟨S32768x2, .f32⟩ : BufTy).Contents (Elt F) → (⟨S32768x2, .f32⟩ : BufTy).Contents (Elt F) → (⟨S32768x2, .f32⟩ : BufTy).Contents (Elt F)),
    StableHlo.binary main_v4765 main_v4768 main_v4769 (mulf : (⟨S32768x2, .f32⟩ : BufTy).Contents (Elt F) → (⟨S32768x2, .f32⟩ : BufTy).Contents (Elt F) → (⟨S32768x2, .f32⟩ : BufTy).Contents (Elt F)),
    StableHlo.unary main_v4769 main_v4770 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4769 main_v4771 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1473 (constant S_ .f32 0xC1F00000#32),
    StableHlo.nullary main_cst_1474 (constant S_ .f32 0x41F00000#32),
    StableHlo.TRef.unary (.of main_cst_1473 : StableHlo.TRef sig ⟨S_, .f32⟩) main_call424.v0 id,
    StableHlo.TRef.unary main_call424.v0 main_call424.v1 (broadcastInDim S32768x1 ![] bcast_S_S32768x1),
    StableHlo.TRef.binary main_call424.v1 (.of main_v4770 : StableHlo.TRef sig ⟨S32768x1, .f32⟩) main_call424.v2 maximumf,
    StableHlo.TRef.unary (.of main_cst_1474 : StableHlo.TRef sig ⟨S_, .f32⟩) main_call424.v3 id,
    StableHlo.TRef.unary main_call424.v3 main_call424.v4 (broadcastInDim S32768x1 ![] bcast_S_S32768x1),
    StableHlo.TRef.binary main_call424.v4 main_call424.v2 main_call424.v5 minimumf,
    StableHlo.nullary main_cst_1475 (constant S_ .f32 0xC1F00000#32),
    StableHlo.nullary main_cst_1476 (constant S_ .f32 0x41F00000#32),
    StableHlo.TRef.unary (.of main_cst_1475 : StableHlo.TRef sig ⟨S_, .f32⟩) main_call425.v0 id,
    StableHlo.TRef.unary main_call425.v0 main_call425.v1 (broadcastInDim S32768x1 ![] bcast_S_S32768x1),
    StableHlo.TRef.binary main_call425.v1 (.of main_v4771 : StableHlo.TRef sig ⟨S32768x1, .f32⟩) main_call425.v2 maximumf,
    StableHlo.TRef.unary (.of main_cst_1476 : StableHlo.TRef sig ⟨S_, .f32⟩) main_call425.v3 id,
    StableHlo.TRef.unary main_call425.v3 main_call425.v4 (broadcastInDim S32768x1 ![] bcast_S_S32768x1),
    StableHlo.TRef.binary main_call425.v4 main_call425.v2 main_call425.v5 minimumf,
    StableHlo.unary main_v4772 main_v4774 (Host.sign : (⟨S32768x1, .f32⟩ : BufTy).Contents (Elt F) → (⟨S32768x1, .f32⟩ : BufTy).Contents (Elt F)),
    StableHlo.unary main_v4773 main_v4775 (Host.sign : (⟨S32768x1, .f32⟩ : BufTy).Contents (Elt F) → (⟨S32768x1, .f32⟩ : BufTy).Contents (Elt F)),
    StableHlo.binary main_v4774 main_v4775 main_v4776 (mulf : (⟨S32768x1, .f32⟩ : BufTy).Contents (Elt F) → (⟨S32768x1, .f32⟩ : BufTy).Contents (Elt F) → (⟨S32768x1, .f32⟩ : BufTy).Contents (Elt F)),
    StableHlo.unary main_v4772 main_v4777 (Host.absf : (⟨S32768x1, .f32⟩ : BufTy).Contents (Elt F) → (⟨S32768x1, .f32⟩ : BufTy).Contents (Elt F)),
    StableHlo.unary main_v4773 main_v4778 (Host.absf : (⟨S32768x1, .f32⟩ : BufTy).Contents (Elt F) → (⟨S32768x1, .f32⟩ : BufTy).Contents (Elt F)),
    StableHlo.binary main_v4777 main_v4778 main_v4779 (minimumf : (⟨S32768x1, .f32⟩ : BufTy).Contents (Elt F) → (⟨S32768x1, .f32⟩ : BufTy).Contents (Elt F) → (⟨S32768x1, .f32⟩ : BufTy).Contents (Elt F)),
    StableHlo.binary main_v4776 main_v4779 main_v4780 (mulf : (⟨S32768x1, .f32⟩ : BufTy).Contents (Elt F) → (⟨S32768x1, .f32⟩ : BufTy).Contents (Elt F) → (⟨S32768x1, .f32⟩ : BufTy).Contents (Elt F)),
    StableHlo.nullary main_cst_1477 (constant S_ .f32 0x00000000#32),
    StableHlo.unary main_cst_1477 main_v4781 (broadcastInDim S32768x1 ![] bcast_S_S32768x1 : (⟨S_, .f32⟩ : BufTy).Contents (Elt F) → (⟨S32768x1, .f32⟩ : BufTy).Contents (Elt F)),
    StableHlo.binary main_v4780 main_v4781 main_v4782 (cmpf .ole : (⟨S32768x1, .f32⟩ : BufTy).Contents (Elt F) → (⟨S32768x1, .f32⟩ : BufTy).Contents (Elt F) → (⟨S32768x1, .i1⟩ : BufTy).Contents (Elt F)),
    StableHlo.unary main_v4782 main_v4783 (uitofp .f32 : (⟨S32768x1, .i1⟩ : BufTy).Contents (Elt F) → (⟨S32768x1, .f32⟩ : BufTy).Contents (Elt F)),
    StableHlo.nullary main_cst_1478 (constant S_ .f32 0x40000000#32),
    StableHlo.unary main_cst_1478 main_v4784 (broadcastInDim S32768x1 ![] bcast_S_S32768x1 : (⟨S_, .f32⟩ : BufTy).Contents (Elt F) → (⟨S32768x1, .f32⟩ : BufTy).Contents (Elt F)),
    StableHlo.binary main_v4784 main_v4783 main_v4785 (mulf : (⟨S32768x1, .f32⟩ : BufTy).Contents (Elt F) → (⟨S32768x1, .f32⟩ : BufTy).Contents (Elt F) → (⟨S32768x1, .f32⟩ : BufTy).Contents (Elt F)),
    StableHlo.nullary main_cst_1479 (constant S_ .f32 0x3F800000#32),
    StableHlo.unary main_cst_1479 main_v4786 (broadcastInDim S32768x1 ![] bcast_S_S32768x1 : (⟨S_, .f32⟩ : BufTy).Contents (Elt F) → (⟨S32768x1, .f32⟩ : BufTy).Contents (Elt F)),
    StableHlo.binary main_v4786 main_v4785 main_v4787 (subf : (⟨S32768x1, .f32⟩ : BufTy).Contents (Elt F) → (⟨S32768x1, .f32⟩ : BufTy).Contents (Elt F) → (⟨S32768x1, .f32⟩ : BufTy).Contents (Elt F)),
    StableHlo.binary main_v4787 main_v4770 main_v4788 (mulf : (⟨S32768x1, .f32⟩ : BufTy).Contents (Elt F) → (⟨S32768x1, .f32⟩ : BufTy).Contents (Elt F) → (⟨S32768x1, .f32⟩ : BufTy).Contents (Elt F)),
    StableHlo.binary main_v4788 main_v4771 main_v4789 (addf : (⟨S32768x1, .f32⟩ : BufTy).Contents (Elt F) → (⟨S32768x1, .f32⟩ : BufTy).Contents (Elt F) → (⟨S32768x1, .f32⟩ : BufTy).Contents (Elt F)),
    StableHlo.nullary main_cst_1480 (constant S_ .f32 0x00000000#32),
    StableHlo.unary main_cst_1480 main_v4790 (broadcastInDim S32768x1 ![] bcast_S_S32768x1 : (⟨S_, .f32⟩ : BufTy).Contents (Elt F) → (⟨S32768x1, .f32⟩ : BufTy).Contents (Elt F)),
    StableHlo.binary main_v4789 main_v4790 main_v4791 (cmpf .ole : (⟨S32768x1, .f32⟩ : BufTy).Contents (Elt F) → (⟨S32768x1, .f32⟩ : BufTy).Contents (Elt F) → (⟨S32768x1, .i1⟩ : BufTy).Contents (Elt F)),
    StableHlo.unary main_v4791 main_v4792 (uitofp .f32 : (⟨S32768x1, .i1⟩ : BufTy).Contents (Elt F) → (⟨S32768x1, .f32⟩ : BufTy).Contents (Elt F)),
    StableHlo.binary main_v4783 main_v4792 main_v4793 (cmpf .une : (⟨S32768x1, .f32⟩ : BufTy).Contents (Elt F) → (⟨S32768x1, .f32⟩ : BufTy).Contents (Elt F) → (⟨S32768x1, .i1⟩ : BufTy).Contents (Elt F)),
    StableHlo.unary main_v4793 main_v4794 (uitofp .f32 : (⟨S32768x1, .i1⟩ : BufTy).Contents (Elt F) → (⟨S32768x1, .f32⟩ : BufTy).Contents (Elt F)),
    StableHlo.binary main_v4794 main_v4792 main_v4795 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4783 main_v4792 main_v4796 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1481 (constant S_ .f32 0x40000000#32),
    StableHlo.unary main_cst_1481 main_v4797 (broadcastInDim S32768x2 ![] bcast_S_S32768x2 : (⟨S_, .f32⟩ : BufTy).Contents (Elt F) → (⟨S32768x2, .f32⟩ : BufTy).Contents (Elt F)),
    StableHlo.binary main_v4797 main_v4795 main_v4798 (mulf : (⟨S32768x2, .f32⟩ : BufTy).Contents (Elt F) → (⟨S32768x2, .f32⟩ : BufTy).Contents (Elt F) → (⟨S32768x2, .f32⟩ : BufTy).Contents (Elt F)),
    StableHlo.nullary main_cst_1482 (constant S_ .f32 0x3F800000#32),
    StableHlo.unary main_cst_1482 main_v4799 (broadcastInDim S32768x2 ![] bcast_S_S32768x2 : (⟨S_, .f32⟩ : BufTy).Contents (Elt F) → (⟨S32768x2, .f32⟩ : BufTy).Contents (Elt F)),
    StableHlo.binary main_v4799 main_v4798 main_v4800 (subf : (⟨S32768x2, .f32⟩ : BufTy).Contents (Elt F) → (⟨S32768x2, .f32⟩ : BufTy).Contents (Elt F) → (⟨S32768x2, .f32⟩ : BufTy).Contents (Elt F)),
    StableHlo.binary main_v4800 main_v4759 main_v4801 (mulf : (⟨S32768x2, .f32⟩ : BufTy).Contents (Elt F) → (⟨S32768x2, .f32⟩ : BufTy).Contents (Elt F) → (⟨S32768x2, .f32⟩ : BufTy).Contents (Elt F)),
    StableHlo.binary main_v4801 main_v4760 main_v4802 (addf : (⟨S32768x2, .f32⟩ : BufTy).Contents (Elt F) → (⟨S32768x2, .f32⟩ : BufTy).Contents (Elt F) → (⟨S32768x2, .f32⟩ : BufTy).Contents (Elt F)),
    StableHlo.unary main_v4802 main_v4803 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4802 main_v4804 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1483 (constant S_ .f32 0xC1F00000#32),
    StableHlo.nullary main_cst_1484 (constant S_ .f32 0x41F00000#32),
    StableHlo.TRef.unary (.of main_cst_1483 : StableHlo.TRef sig ⟨S_, .f32⟩) main_call426.v0 id,
    StableHlo.TRef.unary main_call426.v0 main_call426.v1 (broadcastInDim S32768x1 ![] bcast_S_S32768x1),
    StableHlo.TRef.binary main_call426.v1 (.of main_v4803 : StableHlo.TRef sig ⟨S32768x1, .f32⟩) main_call426.v2 maximumf,
    StableHlo.TRef.unary (.of main_cst_1484 : StableHlo.TRef sig ⟨S_, .f32⟩) main_call426.v3 id,
    StableHlo.TRef.unary main_call426.v3 main_call426.v4 (broadcastInDim S32768x1 ![] bcast_S_S32768x1),
    StableHlo.TRef.binary main_call426.v4 main_call426.v2 main_call426.v5 minimumf,
    StableHlo.nullary main_cst_1485 (constant S_ .f32 0xC1F00000#32),
    StableHlo.nullary main_cst_1486 (constant S_ .f32 0x41F00000#32),
    StableHlo.TRef.unary (.of main_cst_1485 : StableHlo.TRef sig ⟨S_, .f32⟩) main_call427.v0 id,
    StableHlo.TRef.unary main_call427.v0 main_call427.v1 (broadcastInDim S32768x1 ![] bcast_S_S32768x1),
    StableHlo.TRef.binary main_call427.v1 (.of main_v4804 : StableHlo.TRef sig ⟨S32768x1, .f32⟩) main_call427.v2 maximumf,
    StableHlo.TRef.unary (.of main_cst_1486 : StableHlo.TRef sig ⟨S_, .f32⟩) main_call427.v3 id,
    StableHlo.TRef.unary main_call427.v3 main_call427.v4 (broadcastInDim S32768x1 ![] bcast_S_S32768x1),
    StableHlo.TRef.binary main_call427.v4 main_call427.v2 main_call427.v5 minimumf,
    StableHlo.unary main_v4805 main_v4807 (Host.sign : (⟨S32768x1, .f32⟩ : BufTy).Contents (Elt F) → (⟨S32768x1, .f32⟩ : BufTy).Contents (Elt F)),
    StableHlo.unary main_v4806 main_v4808 (Host.sign : (⟨S32768x1, .f32⟩ : BufTy).Contents (Elt F) → (⟨S32768x1, .f32⟩ : BufTy).Contents (Elt F)),
    StableHlo.binary main_v4807 main_v4808 main_v4809 (mulf : (⟨S32768x1, .f32⟩ : BufTy).Contents (Elt F) → (⟨S32768x1, .f32⟩ : BufTy).Contents (Elt F) → (⟨S32768x1, .f32⟩ : BufTy).Contents (Elt F)),
    StableHlo.unary main_v4805 main_v4810 (Host.absf : (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_104 (d : Dev nD) : main_part104 (F := F) d = seq ops104 := by
  simp only [main_part104, fn_clip_6.body, seq, bind_assoc, pure_bind]
  rfl

/-- Every operation of the window touches TensorCore references only. -/
theorem sub_104 : (ops104 : List (HloOp τ sig (Elt F))).Forall fun op => op.bufs ⊆ tcRefs τ sig :=
  ⟨binary_bufs_sub .., unary_bufs_sub .., unary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub .., binary_bufs_sub .., binary_bufs_sub ..,
    nullary_bufs_sub .., unary_bufs_sub .., binary_bufs_sub .., unary_bufs_sub .., binary_bufs_sub .., unary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub ..⟩

/-- Every operation of the window determines all it writes. -/
theorem fresh_104 : (ops104 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_104 (V : Valuation τ sig (Elt F)) :
    after ops104 V (main_arg0 : DevRef τ sig) = V (main_arg0 : DevRef τ sig) := by
  simp only [after_cons, after_nil]
  rfl

/-- The operations of @main's statements 6301 … 6360, in order (80 of them): a statement's own operation, or, for a call
    of a clip function, the six operations of its body over that call's buffers. -/
abbrev ops105 : List (HloOp τ sig (Elt F)) :=
  [ StableHlo.unary main_v4806 main_v4811 (Host.absf : (⟨S32768x1, .f32⟩ : BufTy).Contents (Elt F) → (⟨S32768x1, .f32⟩ : BufTy).Contents (Elt F)),
    StableHlo.binary main_v4810 main_v4811 main_v4812 (minimumf : (⟨S32768x1, .f32⟩ : BufTy).Contents (Elt F) → (⟨S32768x1, .f32⟩ : BufTy).Contents (Elt F) → (⟨S32768x1, .f32⟩ : BufTy).Contents (Elt F)),
    StableHlo.binary main_v4809 main_v4812 main_v4813 (mulf : (⟨S32768x1, .f32⟩ : BufTy).Contents (Elt F) → (⟨S32768x1, .f32⟩ : BufTy).Contents (Elt F) → (⟨S32768x1, .f32⟩ : BufTy).Contents (Elt F)),
    StableHlo.nullary main_cst_1487 (constant S_ .f32 0x00000000#32),
    StableHlo.unary main_cst_1487 main_v4814 (broadcastInDim S32768x1 ![] bcast_S_S32768x1 : (⟨S_, .f32⟩ : BufTy).Contents (Elt F) → (⟨S32768x1, .f32⟩ : BufTy).Contents (Elt F)),
    StableHlo.binary main_v4813 main_v4814 main_v4815 (cmpf .ole : (⟨S32768x1, .f32⟩ : BufTy).Contents (Elt F) → (⟨S32768x1, .f32⟩ : BufTy).Contents (Elt F) → (⟨S32768x1, .i1⟩ : BufTy).Contents (Elt F)),
    StableHlo.unary main_v4815 main_v4816 (uitofp .f32 : (⟨S32768x1, .i1⟩ : BufTy).Contents (Elt F) → (⟨S32768x1, .f32⟩ : BufTy).Contents (Elt F)),
    StableHlo.nullary main_cst_1488 (constant S_ .f32 0x40000000#32),
    StableHlo.unary main_cst_1488 main_v4817 (broadcastInDim S32768x1 ![] bcast_S_S32768x1 : (⟨S_, .f32⟩ : BufTy).Contents (Elt F) → (⟨S32768x1, .f32⟩ : BufTy).Contents (Elt F)),
    StableHlo.binary main_v4817 main_v4816 main_v4818 (mulf : (⟨S32768x1, .f32⟩ : BufTy).Contents (Elt F) → (⟨S32768x1, .f32⟩ : BufTy).Contents (Elt F) → (⟨S32768x1, .f32⟩ : BufTy).Contents (Elt F)),
    StableHlo.nullary main_cst_1489 (constant S_ .f32 0x3F800000#32),
    StableHlo.unary main_cst_1489 main_v4819 (broadcastInDim S32768x1 ![] bcast_S_S32768x1 : (⟨S_, .f32⟩ : BufTy).Contents (Elt F) → (⟨S32768x1, .f32⟩ : BufTy).Contents (Elt F)),
    StableHlo.binary main_v4819 main_v4818 main_v4820 (subf : (⟨S32768x1, .f32⟩ : BufTy).Contents (Elt F) → (⟨S32768x1, .f32⟩ : BufTy).Contents (Elt F) → (⟨S32768x1, .f32⟩ : BufTy).Contents (Elt F)),
    StableHlo.binary main_v4820 main_v4803 main_v4821 (mulf : (⟨S32768x1, .f32⟩ : BufTy).Contents (Elt F) → (⟨S32768x1, .f32⟩ : BufTy).Contents (Elt F) → (⟨S32768x1, .f32⟩ : BufTy).Contents (Elt F)),
    StableHlo.binary main_v4821 main_v4804 main_v4822 (addf : (⟨S32768x1, .f32⟩ : BufTy).Contents (Elt F) → (⟨S32768x1, .f32⟩ : BufTy).Contents (Elt F) → (⟨S32768x1, .f32⟩ : BufTy).Contents (Elt F)),
    StableHlo.nullary main_cst_1490 (constant S_ .f32 0x00000000#32),
    StableHlo.unary main_cst_1490 main_v4823 (broadcastInDim S32768x1 ![] bcast_S_S32768x1 : (⟨S_, .f32⟩ : BufTy).Contents (Elt F) → (⟨S32768x1, .f32⟩ : BufTy).Contents (Elt F)),
    StableHlo.binary main_v4822 main_v4823 main_v4824 (cmpf .ole : (⟨S32768x1, .f32⟩ : BufTy).Contents (Elt F) → (⟨S32768x1, .f32⟩ : BufTy).Contents (Elt F) → (⟨S32768x1, .i1⟩ : BufTy).Contents (Elt F)),
    StableHlo.unary main_v4824 main_v4825 (uitofp .f32 : (⟨S32768x1, .i1⟩ : BufTy).Contents (Elt F) → (⟨S32768x1, .f32⟩ : BufTy).Contents (Elt F)),
    StableHlo.binary main_v4816 main_v4825 main_v4826 (cmpf .une : (⟨S32768x1, .f32⟩ : BufTy).Contents (Elt F) → (⟨S32768x1, .f32⟩ : BufTy).Contents (Elt F) → (⟨S32768x1, .i1⟩ : BufTy).Contents (Elt F)),
    StableHlo.unary main_v4826 main_v4827 (uitofp .f32 : (⟨S32768x1, .i1⟩ : BufTy).Contents (Elt F) → (⟨S32768x1, .f32⟩ : BufTy).Contents (Elt F)),
    StableHlo.binary main_v4827 main_v4825 main_v4828 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4816 main_v4825 main_v4829 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4795 main_v4828 main_v4830 (cmpf .une : (⟨S32768x2, .f32⟩ : BufTy).Contents (Elt F) → (⟨S32768x2, .f32⟩ : BufTy).Contents (Elt F) → (⟨S32768x2, .i1⟩ : BufTy).Contents (Elt F)),
    StableHlo.unary main_v4830 main_v4831 (uitofp .f32 : (⟨S32768x2, .i1⟩ : BufTy).Contents (Elt F) → (⟨S32768x2, .f32⟩ : BufTy).Contents (Elt F)),
    StableHlo.binary main_v4831 main_v4828 main_v4832 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v4796 main_v4829 main_v4833 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_1491 (constant S_ .f32 0x40000000#32),
    StableHlo.unary main_cst_1491 main_v4834 (broadcastInDim S32768x4 ![] bcast_S_S32768x4 : (⟨S_, .f32⟩ : BufTy).Contents (Elt F) → (⟨S32768x4, .f32⟩ : BufTy).Contents (Elt F)),
    StableHlo.binary main_v4834 main_v4832 main_v4835 (mulf : (⟨S32768x4, .f32⟩ : BufTy).Contents (Elt F) → (⟨S32768x4, .f32⟩ : BufTy).Contents (Elt F) → (⟨S32768x4, .f32⟩ : BufTy).Contents (Elt F)),
    StableHlo.nullary main_cst_1492 (constant S_ .f32 0x3F800000#32),
    StableHlo.unary main_cst_1492 main_v4836 (broadcastInDim S32768x4 ![] bcast_S_S32768x4 : (⟨S_, .f32⟩ : BufTy).Contents (Elt F) → (⟨S32768x4, .f32⟩ : BufTy).Contents (Elt F)),
    StableHlo.binary main_v4836 main_v4835 main_v4837 (subf : (⟨S32768x4, .f32⟩ : BufTy).Contents (Elt F) → (⟨S32768x4, .f32⟩ : BufTy).Contents (Elt F) → (⟨S32768x4, .f32⟩ : BufTy).Contents (Elt F)),
    StableHlo.binary main_v4837 main_v4748 main_v4838 (mulf : (⟨S32768x4, .f32⟩ : BufTy).Contents (Elt F) → (⟨S32768x4, .f32⟩ : BufTy).Contents (Elt F) → (⟨S32768x4, .f32⟩ : BufTy).Contents (Elt F)),
    StableHlo.binary main_v4838 main_v4749 main_v4839 (addf : (⟨S32768x4, .f32⟩ : BufTy).Contents (Elt F) → (⟨S32768x4, .f32⟩ : BufTy).Contents (Elt F) → (⟨S32768x4, .f32⟩ : BufTy).Contents (Elt F)),
    StableHlo.unary main_v4839 main_v4840 ((extractStridedSlice S32768x2 ![0, 0] · slices_S32768x4_S32768x2_0_0) : (⟨S32768x4, .f32⟩ : BufTy).Contents (Elt F) → (⟨S32768x2, .f32⟩ : BufTy).Contents (Elt F)),
    StableHlo.unary main_v4839 main_v4841 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1493 (constant S_ .f32 0xC1F00000#32),
    StableHlo.nullary main_cst_1494 (constant S_ .f32 0x41F00000#32),
    StableHlo.TRef.unary (.of main_cst_1493 : StableHlo.TRef sig ⟨S_, .f32⟩) main_call428.v0 id,
    StableHlo.TRef.unary main_call428.v0 main_call428.v1 (broadcastInDim S32768x2 ![] bcast_S_S32768x2),
    StableHlo.TRef.binary main_call428.v1 (.of main_v4840 : StableHlo.TRef sig ⟨S32768x2, .f32⟩) main_call428.v2 maximumf,
    StableHlo.TRef.unary (.of main_cst_1494 : StableHlo.TRef sig ⟨S_, .f32⟩) main_call428.v3 id,
    StableHlo.TRef.unary main_call428.v3 main_call428.v4 (broadcastInDim S32768x2 ![] bcast_S_S32768x2),
    StableHlo.TRef.binary main_call428.v4 main_call428.v2 main_call428.v5 minimumf,
    StableHlo.nullary main_cst_1495 (constant S_ .f32 0xC1F00000#32),
    StableHlo.nullary main_cst_1496 (constant S_ .f32 0x41F00000#32),
    StableHlo.TRef.unary (.of main_cst_1495 : StableHlo.TRef sig ⟨S_, .f32⟩) main_call429.v0 id,
    StableHlo.TRef.unary main_call429.v0 main_call429.v1 (broadcastInDim S32768x2 ![] bcast_S_S32768x2),
    StableHlo.TRef.binary main_call429.v1 (.of main_v4841 : StableHlo.TRef sig ⟨S32768x2, .f32⟩) main_call429.v2 maximumf,
    StableHlo.TRef.unary (.of main_cst_1496 : StableHlo.TRef sig ⟨S_, .f32⟩) main_call429.v3 id,
    StableHlo.TRef.unary main_call429.v3 main_call429.v4 (broadcastInDim S32768x2 ![] bcast_S_S32768x2),
    StableHlo.TRef.binary main_call429.v4 main_call429.v2 main_call429.v5 minimumf,
    StableHlo.unary main_v4842 main_v4844 (Host.sign : (⟨S32768x2, .f32⟩ : BufTy).Contents (Elt F) → (⟨S32768x2, .f32⟩ : BufTy).Contents (Elt F)),
    StableHlo.unary main_v4843 main_v4845 (Host.sign : (⟨S32768x2, .f32⟩ : BufTy).Contents (Elt F) → (⟨S32768x2, .f32⟩ : BufTy).Contents (Elt F)),
    StableHlo.binary main_v4844 main_v4845 main_v4846 (mulf : (⟨S32768x2, .f32⟩ : BufTy).Contents (Elt F) → (⟨S32768x2, .f32⟩ : BufTy).Contents (Elt F) → (⟨S32768x2, .f32⟩ : BufTy).Contents (Elt F)),
    StableHlo.unary main_v4842 main_v4847 (Host.absf : (⟨S32768x2, .f32⟩ : BufTy).Contents (Elt F) → (⟨S32768x2, .f32⟩ : BufTy).Contents (Elt F)),
    StableHlo.unary main_v4843 main_v4848 (Host.absf : (⟨S32768x2, .f32⟩ : BufTy).Contents (Elt F) → (⟨S32768x2, .f32⟩ : BufTy).Contents (Elt F)),
    StableHlo.binary main_v4847 main_v4848 main_v4849 (minimumf : (⟨S32768x2, .f32⟩ : BufTy).Contents (Elt F) → (⟨S32768x2, .f32⟩ : BufTy).Contents (Elt F) → (⟨S32768x2, .f32⟩ : BufTy).Contents (Elt F)),
    StableHlo.binary main_v4846 main_v4849 main_v4850 (mulf : (⟨S32768x2, .f32⟩ : BufTy).Contents (Elt F) → (⟨S32768x2, .f32⟩ : BufTy).Contents (Elt F) → (⟨S32768x2, .f32⟩ : BufTy).Contents (Elt F)),
    StableHlo.unary main_v4850 main_v4851 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4850 main_v4852 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1497 (constant S_ .f32 0xC1F00000#32),
    StableHlo.nullary main_cst_1498 (constant S_ .f32 0x41F00000#32),
    StableHlo.TRef.unary (.of main_cst_1497 : StableHlo.TRef sig ⟨S_, .f32⟩) main_call430.v0 id,
    StableHlo.TRef.unary main_call430.v0 main_call430.v1 (broadcastInDim S32768x1 ![] bcast_S_S32768x1),
    StableHlo.TRef.binary main_call430.v1 (.of main_v4851 : StableHlo.TRef sig ⟨S32768x1, .f32⟩) main_call430.v2 maximumf,
    StableHlo.TRef.unary (.of main_cst_1498 : StableHlo.TRef sig ⟨S_, .f32⟩) main_call430.v3 id,
    StableHlo.TRef.unary main_call430.v3 main_call430.v4 (broadcastInDim S32768x1 ![] bcast_S_S32768x1),
    StableHlo.TRef.binary main_call430.v4 main_call430.v2 main_call430.v5 minimumf,
    StableHlo.nullary main_cst_1499 (constant S_ .f32 0xC1F00000#32),
    StableHlo.nullary main_cst_1500 (constant S_ .f32 0x41F00000#32),
    StableHlo.TRef.unary (.of main_cst_1499 : StableHlo.TRef sig ⟨S_, .f32⟩) main_call431.v0 id,
    StableHlo.TRef.unary main_call431.v0 main_call431.v1 (broadcastInDim S32768x1 ![] bcast_S_S32768x1),
    StableHlo.TRef.binary main_call431.v1 (.of main_v4852 : StableHlo.TRef sig ⟨S32768x1, .f32⟩) main_call431.v2 maximumf,
    StableHlo.TRef.unary (.of main_cst_1500 : StableHlo.TRef sig ⟨S_, .f32⟩) main_call431.v3 id,
    StableHlo.TRef.unary main_call431.v3 main_call431.v4 (broadcastInDim S32768x1 ![] bcast_S_S32768x1),
    StableHlo.TRef.binary main_call431.v4 main_call431.v2 main_call431.v5 minimumf,
    StableHlo.unary main_v4853 main_v4855 (Host.sign : (⟨S32768x1, .f32⟩ : BufTy).Contents (Elt F) → (⟨S32768x1, .f32⟩ : BufTy).Contents (Elt F)),
    StableHlo.unary main_v4854 main_v4856 (Host.sign : (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_105 (d : Dev nD) : main_part105 (F := F) d = seq ops105 := by
  simp only [main_part105, fn_clip_5.body, fn_clip_6.body, seq, bind_assoc, pure_bind]
  rfl

/-- Every operation of the window touches TensorCore references only. -/
theorem sub_105 : (ops105 : List (HloOp τ sig (Elt F))).Forall fun op => op.bufs ⊆ tcRefs τ sig :=
  ⟨unary_bufs_sub .., binary_bufs_sub .., binary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    unary_bufs_sub .., binary_bufs_sub .., unary_bufs_sub .., binary_bufs_sub .., binary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub ..⟩

/-- Every operation of the window determines all it writes. -/
theorem fresh_105 : (ops105 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_105 (V : Valuation τ sig (Elt F)) :
    after ops105 V (main_arg0 : DevRef τ sig) = V (main_arg0 : DevRef τ sig) := by
  simp only [after_cons, after_nil]
  rfl

/-- The operations of @main's statements 6361 … 6420, in order (70 of them): a statement's own operation, or, for a call
    of a clip function, the six operations of its body over that call's buffers. -/
abbrev ops106 : List (HloOp τ sig (Elt F)) :=
  [ StableHlo.binary main_v4855 main_v4856 main_v4857 (mulf : (⟨S32768x1, .f32⟩ : BufTy).Contents (Elt F) → (⟨S32768x1, .f32⟩ : BufTy).Contents (Elt F) → (⟨S32768x1, .f32⟩ : BufTy).Contents (Elt F)),
    StableHlo.unary main_v4853 main_v4858 (Host.absf : (⟨S32768x1, .f32⟩ : BufTy).Contents (Elt F) → (⟨S32768x1, .f32⟩ : BufTy).Contents (Elt F)),
    StableHlo.unary main_v4854 main_v4859 (Host.absf : (⟨S32768x1, .f32⟩ : BufTy).Contents (Elt F) → (⟨S32768x1, .f32⟩ : BufTy).Contents (Elt F)),
    StableHlo.binary main_v4858 main_v4859 main_v4860 (minimumf : (⟨S32768x1, .f32⟩ : BufTy).Contents (Elt F) → (⟨S32768x1, .f32⟩ : BufTy).Contents (Elt F) → (⟨S32768x1, .f32⟩ : BufTy).Contents (Elt F)),
    StableHlo.binary main_v4857 main_v4860 main_v4861 (mulf : (⟨S32768x1, .f32⟩ : BufTy).Contents (Elt F) → (⟨S32768x1, .f32⟩ : BufTy).Contents (Elt F) → (⟨S32768x1, .f32⟩ : BufTy).Contents (Elt F)),
    StableHlo.nullary main_cst_1501 (constant S_ .f32 0x00000000#32),
    StableHlo.unary main_cst_1501 main_v4862 (broadcastInDim S32768x1 ![] bcast_S_S32768x1 : (⟨S_, .f32⟩ : BufTy).Contents (Elt F) → (⟨S32768x1, .f32⟩ : BufTy).Contents (Elt F)),
    StableHlo.binary main_v4861 main_v4862 main_v4863 (cmpf .ole : (⟨S32768x1, .f32⟩ : BufTy).Contents (Elt F) → (⟨S32768x1, .f32⟩ : BufTy).Contents (Elt F) → (⟨S32768x1, .i1⟩ : BufTy).Contents (Elt F)),
    StableHlo.unary main_v4863 main_v4864 (uitofp .f32 : (⟨S32768x1, .i1⟩ : BufTy).Contents (Elt F) → (⟨S32768x1, .f32⟩ : BufTy).Contents (Elt F)),
    StableHlo.nullary main_cst_1502 (constant S_ .f32 0x40000000#32),
    StableHlo.unary main_cst_1502 main_v4865 (broadcastInDim S32768x1 ![] bcast_S_S32768x1 : (⟨S_, .f32⟩ : BufTy).Contents (Elt F) → (⟨S32768x1, .f32⟩ : BufTy).Contents (Elt F)),
    StableHlo.binary main_v4865 main_v4864 main_v4866 (mulf : (⟨S32768x1, .f32⟩ : BufTy).Contents (Elt F) → (⟨S32768x1, .f32⟩ : BufTy).Contents (Elt F) → (⟨S32768x1, .f32⟩ : BufTy).Contents (Elt F)),
    StableHlo.nullary main_cst_1503 (constant S_ .f32 0x3F800000#32),
    StableHlo.unary main_cst_1503 main_v4867 (broadcastInDim S32768x1 ![] bcast_S_S32768x1 : (⟨S_, .f32⟩ : BufTy).Contents (Elt F) → (⟨S32768x1, .f32⟩ : BufTy).Contents (Elt F)),
    StableHlo.binary main_v4867 main_v4866 main_v4868 (subf : (⟨S32768x1, .f32⟩ : BufTy).Contents (Elt F) → (⟨S32768x1, .f32⟩ : BufTy).Contents (Elt F) → (⟨S32768x1, .f32⟩ : BufTy).Contents (Elt F)),
    StableHlo.binary main_v4868 main_v4851 main_v4869 (mulf : (⟨S32768x1, .f32⟩ : BufTy).Contents (Elt F) → (⟨S32768x1, .f32⟩ : BufTy).Contents (Elt F) → (⟨S32768x1, .f32⟩ : BufTy).Contents (Elt F)),
    StableHlo.binary main_v4869 main_v4852 main_v4870 (addf : (⟨S32768x1, .f32⟩ : BufTy).Contents (Elt F) → (⟨S32768x1, .f32⟩ : BufTy).Contents (Elt F) → (⟨S32768x1, .f32⟩ : BufTy).Contents (Elt F)),
    StableHlo.nullary main_cst_1504 (constant S_ .f32 0x00000000#32),
    StableHlo.unary main_cst_1504 main_v4871 (broadcastInDim S32768x1 ![] bcast_S_S32768x1 : (⟨S_, .f32⟩ : BufTy).Contents (Elt F) → (⟨S32768x1, .f32⟩ : BufTy).Contents (Elt F)),
    StableHlo.binary main_v4870 main_v4871 main_v4872 (cmpf .ole : (⟨S32768x1, .f32⟩ : BufTy).Contents (Elt F) → (⟨S32768x1, .f32⟩ : BufTy).Contents (Elt F) → (⟨S32768x1, .i1⟩ : BufTy).Contents (Elt F)),
    StableHlo.unary main_v4872 main_v4873 (uitofp .f32 : (⟨S32768x1, .i1⟩ : BufTy).Contents (Elt F) → (⟨S32768x1, .f32⟩ : BufTy).Contents (Elt F)),
    StableHlo.binary main_v4864 main_v4873 main_v4874 (cmpf .une : (⟨S32768x1, .f32⟩ : BufTy).Contents (Elt F) → (⟨S32768x1, .f32⟩ : BufTy).Contents (Elt F) → (⟨S32768x1, .i1⟩ : BufTy).Contents (Elt F)),
    StableHlo.unary main_v4874 main_v4875 (uitofp .f32 : (⟨S32768x1, .i1⟩ : BufTy).Contents (Elt F) → (⟨S32768x1, .f32⟩ : BufTy).Contents (Elt F)),
    StableHlo.binary main_v4875 main_v4873 main_v4876 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4864 main_v4873 main_v4877 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1505 (constant S_ .f32 0x40000000#32),
    StableHlo.unary main_cst_1505 main_v4878 (broadcastInDim S32768x2 ![] bcast_S_S32768x2 : (⟨S_, .f32⟩ : BufTy).Contents (Elt F) → (⟨S32768x2, .f32⟩ : BufTy).Contents (Elt F)),
    StableHlo.binary main_v4878 main_v4876 main_v4879 (mulf : (⟨S32768x2, .f32⟩ : BufTy).Contents (Elt F) → (⟨S32768x2, .f32⟩ : BufTy).Contents (Elt F) → (⟨S32768x2, .f32⟩ : BufTy).Contents (Elt F)),
    StableHlo.nullary main_cst_1506 (constant S_ .f32 0x3F800000#32),
    StableHlo.unary main_cst_1506 main_v4880 (broadcastInDim S32768x2 ![] bcast_S_S32768x2 : (⟨S_, .f32⟩ : BufTy).Contents (Elt F) → (⟨S32768x2, .f32⟩ : BufTy).Contents (Elt F)),
    StableHlo.binary main_v4880 main_v4879 main_v4881 (subf : (⟨S32768x2, .f32⟩ : BufTy).Contents (Elt F) → (⟨S32768x2, .f32⟩ : BufTy).Contents (Elt F) → (⟨S32768x2, .f32⟩ : BufTy).Contents (Elt F)),
    StableHlo.binary main_v4881 main_v4840 main_v4882 (mulf : (⟨S32768x2, .f32⟩ : BufTy).Contents (Elt F) → (⟨S32768x2, .f32⟩ : BufTy).Contents (Elt F) → (⟨S32768x2, .f32⟩ : BufTy).Contents (Elt F)),
    StableHlo.binary main_v4882 main_v4841 main_v4883 (addf : (⟨S32768x2, .f32⟩ : BufTy).Contents (Elt F) → (⟨S32768x2, .f32⟩ : BufTy).Contents (Elt F) → (⟨S32768x2, .f32⟩ : BufTy).Contents (Elt F)),
    StableHlo.unary main_v4883 main_v4884 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4883 main_v4885 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1507 (constant S_ .f32 0xC1F00000#32),
    StableHlo.nullary main_cst_1508 (constant S_ .f32 0x41F00000#32),
    StableHlo.TRef.unary (.of main_cst_1507 : StableHlo.TRef sig ⟨S_, .f32⟩) main_call432.v0 id,
    StableHlo.TRef.unary main_call432.v0 main_call432.v1 (broadcastInDim S32768x1 ![] bcast_S_S32768x1),
    StableHlo.TRef.binary main_call432.v1 (.of main_v4884 : StableHlo.TRef sig ⟨S32768x1, .f32⟩) main_call432.v2 maximumf,
    StableHlo.TRef.unary (.of main_cst_1508 : StableHlo.TRef sig ⟨S_, .f32⟩) main_call432.v3 id,
    StableHlo.TRef.unary main_call432.v3 main_call432.v4 (broadcastInDim S32768x1 ![] bcast_S_S32768x1),
    StableHlo.TRef.binary main_call432.v4 main_call432.v2 main_call432.v5 minimumf,
    StableHlo.nullary main_cst_1509 (constant S_ .f32 0xC1F00000#32),
    StableHlo.nullary main_cst_1510 (constant S_ .f32 0x41F00000#32),
    StableHlo.TRef.unary (.of main_cst_1509 : StableHlo.TRef sig ⟨S_, .f32⟩) main_call433.v0 id,
    StableHlo.TRef.unary main_call433.v0 main_call433.v1 (broadcastInDim S32768x1 ![] bcast_S_S32768x1),
    StableHlo.TRef.binary main_call433.v1 (.of main_v4885 : StableHlo.TRef sig ⟨S32768x1, .f32⟩) main_call433.v2 maximumf,
    StableHlo.TRef.unary (.of main_cst_1510 : StableHlo.TRef sig ⟨S_, .f32⟩) main_call433.v3 id,
    StableHlo.TRef.unary main_call433.v3 main_call433.v4 (broadcastInDim S32768x1 ![] bcast_S_S32768x1),
    StableHlo.TRef.binary main_call433.v4 main_call433.v2 main_call433.v5 minimumf,
    StableHlo.unary main_v4886 main_v4888 (Host.sign : (⟨S32768x1, .f32⟩ : BufTy).Contents (Elt F) → (⟨S32768x1, .f32⟩ : BufTy).Contents (Elt F)),
    StableHlo.unary main_v4887 main_v4889 (Host.sign : (⟨S32768x1, .f32⟩ : BufTy).Contents (Elt F) → (⟨S32768x1, .f32⟩ : BufTy).Contents (Elt F)),
    StableHlo.binary main_v4888 main_v4889 main_v4890 (mulf : (⟨S32768x1, .f32⟩ : BufTy).Contents (Elt F) → (⟨S32768x1, .f32⟩ : BufTy).Contents (Elt F) → (⟨S32768x1, .f32⟩ : BufTy).Contents (Elt F)),
    StableHlo.unary main_v4886 main_v4891 (Host.absf : (⟨S32768x1, .f32⟩ : BufTy).Contents (Elt F) → (⟨S32768x1, .f32⟩ : BufTy).Contents (Elt F)),
    StableHlo.unary main_v4887 main_v4892 (Host.absf : (⟨S32768x1, .f32⟩ : BufTy).Contents (Elt F) → (⟨S32768x1, .f32⟩ : BufTy).Contents (Elt F)),
    StableHlo.binary main_v4891 main_v4892 main_v4893 (minimumf : (⟨S32768x1, .f32⟩ : BufTy).Contents (Elt F) → (⟨S32768x1, .f32⟩ : BufTy).Contents (Elt F) → (⟨S32768x1, .f32⟩ : BufTy).Contents (Elt F)),
    StableHlo.binary main_v4890 main_v4893 main_v4894 (mulf : (⟨S32768x1, .f32⟩ : BufTy).Contents (Elt F) → (⟨S32768x1, .f32⟩ : BufTy).Contents (Elt F) → (⟨S32768x1, .f32⟩ : BufTy).Contents (Elt F)),
    StableHlo.nullary main_cst_1511 (constant S_ .f32 0x00000000#32),
    StableHlo.unary main_cst_1511 main_v4895 (broadcastInDim S32768x1 ![] bcast_S_S32768x1 : (⟨S_, .f32⟩ : BufTy).Contents (Elt F) → (⟨S32768x1, .f32⟩ : BufTy).Contents (Elt F)),
    StableHlo.binary main_v4894 main_v4895 main_v4896 (cmpf .ole : (⟨S32768x1, .f32⟩ : BufTy).Contents (Elt F) → (⟨S32768x1, .f32⟩ : BufTy).Contents (Elt F) → (⟨S32768x1, .i1⟩ : BufTy).Contents (Elt F)),
    StableHlo.unary main_v4896 main_v4897 (uitofp .f32 : (⟨S32768x1, .i1⟩ : BufTy).Contents (Elt F) → (⟨S32768x1, .f32⟩ : BufTy).Contents (Elt F)),
    StableHlo.nullary main_cst_1512 (constant S_ .f32 0x40000000#32),
    StableHlo.unary main_cst_1512 main_v4898 (broadcastInDim S32768x1 ![] bcast_S_S32768x1 : (⟨S_, .f32⟩ : BufTy).Contents (Elt F) → (⟨S32768x1, .f32⟩ : BufTy).Contents (Elt F)),
    StableHlo.binary main_v4898 main_v4897 main_v4899 (mulf : (⟨S32768x1, .f32⟩ : BufTy).Contents (Elt F) → (⟨S32768x1, .f32⟩ : BufTy).Contents (Elt F) → (⟨S32768x1, .f32⟩ : BufTy).Contents (Elt F)),
    StableHlo.nullary main_cst_1513 (constant S_ .f32 0x3F800000#32),
    StableHlo.unary main_cst_1513 main_v4900 (broadcastInDim S32768x1 ![] bcast_S_S32768x1 : (⟨S_, .f32⟩ : BufTy).Contents (Elt F) → (⟨S32768x1, .f32⟩ : BufTy).Contents (Elt F)),
    StableHlo.binary main_v4900 main_v4899 main_v4901 (subf : (⟨S32768x1, .f32⟩ : BufTy).Contents (Elt F) → (⟨S32768x1, .f32⟩ : BufTy).Contents (Elt F) → (⟨S32768x1, .f32⟩ : BufTy).Contents (Elt F)),
    StableHlo.binary main_v4901 main_v4884 main_v4902 (mulf : (⟨S32768x1, .f32⟩ : BufTy).Contents (Elt F) → (⟨S32768x1, .f32⟩ : BufTy).Contents (Elt F) → (⟨S32768x1, .f32⟩ : BufTy).Contents (Elt F)),
    StableHlo.binary main_v4902 main_v4885 main_v4903 (addf : (⟨S32768x1, .f32⟩ : BufTy).Contents (Elt F) → (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_106 (d : Dev nD) : main_part106 (F := F) d = seq ops106 := by
  simp only [main_part106, fn_clip_6.body, seq, bind_assoc, pure_bind]
  rfl

/-- Every operation of the window touches TensorCore references only. -/
theorem sub_106 : (ops106 : List (HloOp τ sig (Elt F))).Forall fun op => op.bufs ⊆ tcRefs τ sig :=
  ⟨binary_bufs_sub .., unary_bufs_sub .., unary_bufs_sub .., binary_bufs_sub .., binary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., binary_bufs_sub .., binary_bufs_sub ..⟩

/-- Every operation of the window determines all it writes. -/
theorem fresh_106 : (ops106 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_106 (V : Valuation τ sig (Elt F)) :
    after ops106 V (main_arg0 : DevRef τ sig) = V (main_arg0 : DevRef τ sig) := by
  simp only [after_cons, after_nil]
  rfl

/-- The operations of @main's statements 6421 … 6480, in order (85 of them): a statement's own operation, or, for a call
    of a clip function, the six operations of its body over that call's buffers. -/
abbrev ops107 : List (HloOp τ sig (Elt F)) :=
  [ StableHlo.nullary main_cst_1514 (constant S_ .f32 0x00000000#32),
    StableHlo.unary main_cst_1514 main_v4904 (broadcastInDim S32768x1 ![] bcast_S_S32768x1 : (⟨S_, .f32⟩ : BufTy).Contents (Elt F) → (⟨S32768x1, .f32⟩ : BufTy).Contents (Elt F)),
    StableHlo.binary main_v4903 main_v4904 main_v4905 (cmpf .ole : (⟨S32768x1, .f32⟩ : BufTy).Contents (Elt F) → (⟨S32768x1, .f32⟩ : BufTy).Contents (Elt F) → (⟨S32768x1, .i1⟩ : BufTy).Contents (Elt F)),
    StableHlo.unary main_v4905 main_v4906 (uitofp .f32 : (⟨S32768x1, .i1⟩ : BufTy).Contents (Elt F) → (⟨S32768x1, .f32⟩ : BufTy).Contents (Elt F)),
    StableHlo.binary main_v4897 main_v4906 main_v4907 (cmpf .une : (⟨S32768x1, .f32⟩ : BufTy).Contents (Elt F) → (⟨S32768x1, .f32⟩ : BufTy).Contents (Elt F) → (⟨S32768x1, .i1⟩ : BufTy).Contents (Elt F)),
    StableHlo.unary main_v4907 main_v4908 (uitofp .f32 : (⟨S32768x1, .i1⟩ : BufTy).Contents (Elt F) → (⟨S32768x1, .f32⟩ : BufTy).Contents (Elt F)),
    StableHlo.binary main_v4908 main_v4906 main_v4909 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4897 main_v4906 main_v4910 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4876 main_v4909 main_v4911 (cmpf .une : (⟨S32768x2, .f32⟩ : BufTy).Contents (Elt F) → (⟨S32768x2, .f32⟩ : BufTy).Contents (Elt F) → (⟨S32768x2, .i1⟩ : BufTy).Contents (Elt F)),
    StableHlo.unary main_v4911 main_v4912 (uitofp .f32 : (⟨S32768x2, .i1⟩ : BufTy).Contents (Elt F) → (⟨S32768x2, .f32⟩ : BufTy).Contents (Elt F)),
    StableHlo.binary main_v4912 main_v4909 main_v4913 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v4877 main_v4910 main_v4914 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v4832 main_v4913 main_v4915 (cmpf .une : (⟨S32768x4, .f32⟩ : BufTy).Contents (Elt F) → (⟨S32768x4, .f32⟩ : BufTy).Contents (Elt F) → (⟨S32768x4, .i1⟩ : BufTy).Contents (Elt F)),
    StableHlo.unary main_v4915 main_v4916 (uitofp .f32 : (⟨S32768x4, .i1⟩ : BufTy).Contents (Elt F) → (⟨S32768x4, .f32⟩ : BufTy).Contents (Elt F)),
    StableHlo.binary main_v4916 main_v4913 main_v4917 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v4833 main_v4914 main_v4918 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.nullary main_cst_1515 (constant S_ .f32 0x40000000#32),
    StableHlo.unary main_cst_1515 main_v4919 (broadcastInDim S32768x8 ![] bcast_S_S32768x8 : (⟨S_, .f32⟩ : BufTy).Contents (Elt F) → (⟨S32768x8, .f32⟩ : BufTy).Contents (Elt F)),
    StableHlo.binary main_v4919 main_v4917 main_v4920 (mulf : (⟨S32768x8, .f32⟩ : BufTy).Contents (Elt F) → (⟨S32768x8, .f32⟩ : BufTy).Contents (Elt F) → (⟨S32768x8, .f32⟩ : BufTy).Contents (Elt F)),
    StableHlo.nullary main_cst_1516 (constant S_ .f32 0x3F800000#32),
    StableHlo.unary main_cst_1516 main_v4921 (broadcastInDim S32768x8 ![] bcast_S_S32768x8 : (⟨S_, .f32⟩ : BufTy).Contents (Elt F) → (⟨S32768x8, .f32⟩ : BufTy).Contents (Elt F)),
    StableHlo.binary main_v4921 main_v4920 main_v4922 (subf : (⟨S32768x8, .f32⟩ : BufTy).Contents (Elt F) → (⟨S32768x8, .f32⟩ : BufTy).Contents (Elt F) → (⟨S32768x8, .f32⟩ : BufTy).Contents (Elt F)),
    StableHlo.binary main_v4922 main_v4737 main_v4923 (mulf : (⟨S32768x8, .f32⟩ : BufTy).Contents (Elt F) → (⟨S32768x8, .f32⟩ : BufTy).Contents (Elt F) → (⟨S32768x8, .f32⟩ : BufTy).Contents (Elt F)),
    StableHlo.binary main_v4923 main_v4738 main_v4924 (addf : (⟨S32768x8, .f32⟩ : BufTy).Contents (Elt F) → (⟨S32768x8, .f32⟩ : BufTy).Contents (Elt F) → (⟨S32768x8, .f32⟩ : BufTy).Contents (Elt F)),
    StableHlo.unary main_v4924 main_v4925 ((extractStridedSlice S32768x4 ![0, 0] · slices_S32768x8_S32768x4_0_0) : (⟨S32768x8, .f32⟩ : BufTy).Contents (Elt F) → (⟨S32768x4, .f32⟩ : BufTy).Contents (Elt F)),
    StableHlo.unary main_v4924 main_v4926 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_1517 (constant S_ .f32 0xC1F00000#32),
    StableHlo.nullary main_cst_1518 (constant S_ .f32 0x41F00000#32),
    StableHlo.TRef.unary (.of main_cst_1517 : StableHlo.TRef sig ⟨S_, .f32⟩) main_call434.v0 id,
    StableHlo.TRef.unary main_call434.v0 main_call434.v1 (broadcastInDim S32768x4 ![] bcast_S_S32768x4),
    StableHlo.TRef.binary main_call434.v1 (.of main_v4925 : StableHlo.TRef sig ⟨S32768x4, .f32⟩) main_call434.v2 maximumf,
    StableHlo.TRef.unary (.of main_cst_1518 : StableHlo.TRef sig ⟨S_, .f32⟩) main_call434.v3 id,
    StableHlo.TRef.unary main_call434.v3 main_call434.v4 (broadcastInDim S32768x4 ![] bcast_S_S32768x4),
    StableHlo.TRef.binary main_call434.v4 main_call434.v2 main_call434.v5 minimumf,
    StableHlo.nullary main_cst_1519 (constant S_ .f32 0xC1F00000#32),
    StableHlo.nullary main_cst_1520 (constant S_ .f32 0x41F00000#32),
    StableHlo.TRef.unary (.of main_cst_1519 : StableHlo.TRef sig ⟨S_, .f32⟩) main_call435.v0 id,
    StableHlo.TRef.unary main_call435.v0 main_call435.v1 (broadcastInDim S32768x4 ![] bcast_S_S32768x4),
    StableHlo.TRef.binary main_call435.v1 (.of main_v4926 : StableHlo.TRef sig ⟨S32768x4, .f32⟩) main_call435.v2 maximumf,
    StableHlo.TRef.unary (.of main_cst_1520 : StableHlo.TRef sig ⟨S_, .f32⟩) main_call435.v3 id,
    StableHlo.TRef.unary main_call435.v3 main_call435.v4 (broadcastInDim S32768x4 ![] bcast_S_S32768x4),
    StableHlo.TRef.binary main_call435.v4 main_call435.v2 main_call435.v5 minimumf,
    StableHlo.unary main_v4927 main_v4929 (Host.sign : (⟨S32768x4, .f32⟩ : BufTy).Contents (Elt F) → (⟨S32768x4, .f32⟩ : BufTy).Contents (Elt F)),
    StableHlo.unary main_v4928 main_v4930 (Host.sign : (⟨S32768x4, .f32⟩ : BufTy).Contents (Elt F) → (⟨S32768x4, .f32⟩ : BufTy).Contents (Elt F)),
    StableHlo.binary main_v4929 main_v4930 main_v4931 (mulf : (⟨S32768x4, .f32⟩ : BufTy).Contents (Elt F) → (⟨S32768x4, .f32⟩ : BufTy).Contents (Elt F) → (⟨S32768x4, .f32⟩ : BufTy).Contents (Elt F)),
    StableHlo.unary main_v4927 main_v4932 (Host.absf : (⟨S32768x4, .f32⟩ : BufTy).Contents (Elt F) → (⟨S32768x4, .f32⟩ : BufTy).Contents (Elt F)),
    StableHlo.unary main_v4928 main_v4933 (Host.absf : (⟨S32768x4, .f32⟩ : BufTy).Contents (Elt F) → (⟨S32768x4, .f32⟩ : BufTy).Contents (Elt F)),
    StableHlo.binary main_v4932 main_v4933 main_v4934 (minimumf : (⟨S32768x4, .f32⟩ : BufTy).Contents (Elt F) → (⟨S32768x4, .f32⟩ : BufTy).Contents (Elt F) → (⟨S32768x4, .f32⟩ : BufTy).Contents (Elt F)),
    StableHlo.binary main_v4931 main_v4934 main_v4935 (mulf : (⟨S32768x4, .f32⟩ : BufTy).Contents (Elt F) → (⟨S32768x4, .f32⟩ : BufTy).Contents (Elt F) → (⟨S32768x4, .f32⟩ : BufTy).Contents (Elt F)),
    StableHlo.unary main_v4935 main_v4936 ((extractStridedSlice S32768x2 ![0, 0] · slices_S32768x4_S32768x2_0_0) : (⟨S32768x4, .f32⟩ : BufTy).Contents (Elt F) → (⟨S32768x2, .f32⟩ : BufTy).Contents (Elt F)),
    StableHlo.unary main_v4935 main_v4937 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1521 (constant S_ .f32 0xC1F00000#32),
    StableHlo.nullary main_cst_1522 (constant S_ .f32 0x41F00000#32),
    StableHlo.TRef.unary (.of main_cst_1521 : StableHlo.TRef sig ⟨S_, .f32⟩) main_call436.v0 id,
    StableHlo.TRef.unary main_call436.v0 main_call436.v1 (broadcastInDim S32768x2 ![] bcast_S_S32768x2),
    StableHlo.TRef.binary main_call436.v1 (.of main_v4936 : StableHlo.TRef sig ⟨S32768x2, .f32⟩) main_call436.v2 maximumf,
    StableHlo.TRef.unary (.of main_cst_1522 : StableHlo.TRef sig ⟨S_, .f32⟩) main_call436.v3 id,
    StableHlo.TRef.unary main_call436.v3 main_call436.v4 (broadcastInDim S32768x2 ![] bcast_S_S32768x2),
    StableHlo.TRef.binary main_call436.v4 main_call436.v2 main_call436.v5 minimumf,
    StableHlo.nullary main_cst_1523 (constant S_ .f32 0xC1F00000#32),
    StableHlo.nullary main_cst_1524 (constant S_ .f32 0x41F00000#32),
    StableHlo.TRef.unary (.of main_cst_1523 : StableHlo.TRef sig ⟨S_, .f32⟩) main_call437.v0 id,
    StableHlo.TRef.unary main_call437.v0 main_call437.v1 (broadcastInDim S32768x2 ![] bcast_S_S32768x2),
    StableHlo.TRef.binary main_call437.v1 (.of main_v4937 : StableHlo.TRef sig ⟨S32768x2, .f32⟩) main_call437.v2 maximumf,
    StableHlo.TRef.unary (.of main_cst_1524 : StableHlo.TRef sig ⟨S_, .f32⟩) main_call437.v3 id,
    StableHlo.TRef.unary main_call437.v3 main_call437.v4 (broadcastInDim S32768x2 ![] bcast_S_S32768x2),
    StableHlo.TRef.binary main_call437.v4 main_call437.v2 main_call437.v5 minimumf,
    StableHlo.unary main_v4938 main_v4940 (Host.sign : (⟨S32768x2, .f32⟩ : BufTy).Contents (Elt F) → (⟨S32768x2, .f32⟩ : BufTy).Contents (Elt F)),
    StableHlo.unary main_v4939 main_v4941 (Host.sign : (⟨S32768x2, .f32⟩ : BufTy).Contents (Elt F) → (⟨S32768x2, .f32⟩ : BufTy).Contents (Elt F)),
    StableHlo.binary main_v4940 main_v4941 main_v4942 (mulf : (⟨S32768x2, .f32⟩ : BufTy).Contents (Elt F) → (⟨S32768x2, .f32⟩ : BufTy).Contents (Elt F) → (⟨S32768x2, .f32⟩ : BufTy).Contents (Elt F)),
    StableHlo.unary main_v4938 main_v4943 (Host.absf : (⟨S32768x2, .f32⟩ : BufTy).Contents (Elt F) → (⟨S32768x2, .f32⟩ : BufTy).Contents (Elt F)),
    StableHlo.unary main_v4939 main_v4944 (Host.absf : (⟨S32768x2, .f32⟩ : BufTy).Contents (Elt F) → (⟨S32768x2, .f32⟩ : BufTy).Contents (Elt F)),
    StableHlo.binary main_v4943 main_v4944 main_v4945 (minimumf : (⟨S32768x2, .f32⟩ : BufTy).Contents (Elt F) → (⟨S32768x2, .f32⟩ : BufTy).Contents (Elt F) → (⟨S32768x2, .f32⟩ : BufTy).Contents (Elt F)),
    StableHlo.binary main_v4942 main_v4945 main_v4946 (mulf : (⟨S32768x2, .f32⟩ : BufTy).Contents (Elt F) → (⟨S32768x2, .f32⟩ : BufTy).Contents (Elt F) → (⟨S32768x2, .f32⟩ : BufTy).Contents (Elt F)),
    StableHlo.unary main_v4946 main_v4947 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4946 main_v4948 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1525 (constant S_ .f32 0xC1F00000#32),
    StableHlo.nullary main_cst_1526 (constant S_ .f32 0x41F00000#32),
    StableHlo.TRef.unary (.of main_cst_1525 : StableHlo.TRef sig ⟨S_, .f32⟩) main_call438.v0 id,
    StableHlo.TRef.unary main_call438.v0 main_call438.v1 (broadcastInDim S32768x1 ![] bcast_S_S32768x1),
    StableHlo.TRef.binary main_call438.v1 (.of main_v4947 : StableHlo.TRef sig ⟨S32768x1, .f32⟩) main_call438.v2 maximumf,
    StableHlo.TRef.unary (.of main_cst_1526 : StableHlo.TRef sig ⟨S_, .f32⟩) main_call438.v3 id,
    StableHlo.TRef.unary main_call438.v3 main_call438.v4 (broadcastInDim S32768x1 ![] bcast_S_S32768x1),
    StableHlo.TRef.binary main_call438.v4 main_call438.v2 main_call438.v5 minimumf,
    StableHlo.nullary main_cst_1527 (constant S_ .f32 0xC1F00000#32) ]

set_option maxRecDepth 8192 in
/-- The window is that straight line: each clip function unfolded at its calls, the sequencing reassociated. -/
theorem part_eq_107 (d : Dev nD) : main_part107 (F := F) d = seq ops107 := by
  simp only [main_part107, fn_clip_4.body, fn_clip_5.body, fn_clip_6.body, seq, bind_assoc, pure_bind]
  rfl

/-- Every operation of the window touches TensorCore references only. -/
theorem sub_107 : (ops107 : List (HloOp τ sig (Elt F))).Forall fun op => op.bufs ⊆ tcRefs τ sig :=
  ⟨nullary_bufs_sub .., unary_bufs_sub .., binary_bufs_sub .., unary_bufs_sub .., binary_bufs_sub .., unary_bufs_sub ..,
    binary_bufs_sub .., binary_bufs_sub .., binary_bufs_sub .., unary_bufs_sub .., binary_bufs_sub .., binary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub ..⟩

/-- Every operation of the window determines all it writes. -/
theorem fresh_107 : (ops107 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_107 (V : Valuation τ sig (Elt F)) :
    after ops107 V (main_arg0 : DevRef τ sig) = V (main_arg0 : DevRef τ sig) := by
  simp only [after_cons, after_nil]
  rfl

/-- The operations of @main's statements 6481 … 6540, in order (75 of them): a statement's own operation, or, for a call
    of a clip function, the six operations of its body over that call's buffers. -/
abbrev ops108 : List (HloOp τ sig (Elt F)) :=
  [ StableHlo.nullary main_cst_1528 (constant S_ .f32 0x41F00000#32),
    StableHlo.TRef.unary (.of main_cst_1527 : StableHlo.TRef sig ⟨S_, .f32⟩) main_call439.v0 id,
    StableHlo.TRef.unary main_call439.v0 main_call439.v1 (broadcastInDim S32768x1 ![] bcast_S_S32768x1),
    StableHlo.TRef.binary main_call439.v1 (.of main_v4948 : StableHlo.TRef sig ⟨S32768x1, .f32⟩) main_call439.v2 maximumf,
    StableHlo.TRef.unary (.of main_cst_1528 : StableHlo.TRef sig ⟨S_, .f32⟩) main_call439.v3 id,
    StableHlo.TRef.unary main_call439.v3 main_call439.v4 (broadcastInDim S32768x1 ![] bcast_S_S32768x1),
    StableHlo.TRef.binary main_call439.v4 main_call439.v2 main_call439.v5 minimumf,
    StableHlo.unary main_v4949 main_v4951 (Host.sign : (⟨S32768x1, .f32⟩ : BufTy).Contents (Elt F) → (⟨S32768x1, .f32⟩ : BufTy).Contents (Elt F)),
    StableHlo.unary main_v4950 main_v4952 (Host.sign : (⟨S32768x1, .f32⟩ : BufTy).Contents (Elt F) → (⟨S32768x1, .f32⟩ : BufTy).Contents (Elt F)),
    StableHlo.binary main_v4951 main_v4952 main_v4953 (mulf : (⟨S32768x1, .f32⟩ : BufTy).Contents (Elt F) → (⟨S32768x1, .f32⟩ : BufTy).Contents (Elt F) → (⟨S32768x1, .f32⟩ : BufTy).Contents (Elt F)),
    StableHlo.unary main_v4949 main_v4954 (Host.absf : (⟨S32768x1, .f32⟩ : BufTy).Contents (Elt F) → (⟨S32768x1, .f32⟩ : BufTy).Contents (Elt F)),
    StableHlo.unary main_v4950 main_v4955 (Host.absf : (⟨S32768x1, .f32⟩ : BufTy).Contents (Elt F) → (⟨S32768x1, .f32⟩ : BufTy).Contents (Elt F)),
    StableHlo.binary main_v4954 main_v4955 main_v4956 (minimumf : (⟨S32768x1, .f32⟩ : BufTy).Contents (Elt F) → (⟨S32768x1, .f32⟩ : BufTy).Contents (Elt F) → (⟨S32768x1, .f32⟩ : BufTy).Contents (Elt F)),
    StableHlo.binary main_v4953 main_v4956 main_v4957 (mulf : (⟨S32768x1, .f32⟩ : BufTy).Contents (Elt F) → (⟨S32768x1, .f32⟩ : BufTy).Contents (Elt F) → (⟨S32768x1, .f32⟩ : BufTy).Contents (Elt F)),
    StableHlo.nullary main_cst_1529 (constant S_ .f32 0x00000000#32),
    StableHlo.unary main_cst_1529 main_v4958 (broadcastInDim S32768x1 ![] bcast_S_S32768x1 : (⟨S_, .f32⟩ : BufTy).Contents (Elt F) → (⟨S32768x1, .f32⟩ : BufTy).Contents (Elt F)),
    StableHlo.binary main_v4957 main_v4958 main_v4959 (cmpf .ole : (⟨S32768x1, .f32⟩ : BufTy).Contents (Elt F) → (⟨S32768x1, .f32⟩ : BufTy).Contents (Elt F) → (⟨S32768x1, .i1⟩ : BufTy).Contents (Elt F)),
    StableHlo.unary main_v4959 main_v4960 (uitofp .f32 : (⟨S32768x1, .i1⟩ : BufTy).Contents (Elt F) → (⟨S32768x1, .f32⟩ : BufTy).Contents (Elt F)),
    StableHlo.nullary main_cst_1530 (constant S_ .f32 0x40000000#32),
    StableHlo.unary main_cst_1530 main_v4961 (broadcastInDim S32768x1 ![] bcast_S_S32768x1 : (⟨S_, .f32⟩ : BufTy).Contents (Elt F) → (⟨S32768x1, .f32⟩ : BufTy).Contents (Elt F)),
    StableHlo.binary main_v4961 main_v4960 main_v4962 (mulf : (⟨S32768x1, .f32⟩ : BufTy).Contents (Elt F) → (⟨S32768x1, .f32⟩ : BufTy).Contents (Elt F) → (⟨S32768x1, .f32⟩ : BufTy).Contents (Elt F)),
    StableHlo.nullary main_cst_1531 (constant S_ .f32 0x3F800000#32),
    StableHlo.unary main_cst_1531 main_v4963 (broadcastInDim S32768x1 ![] bcast_S_S32768x1 : (⟨S_, .f32⟩ : BufTy).Contents (Elt F) → (⟨S32768x1, .f32⟩ : BufTy).Contents (Elt F)),
    StableHlo.binary main_v4963 main_v4962 main_v4964 (subf : (⟨S32768x1, .f32⟩ : BufTy).Contents (Elt F) → (⟨S32768x1, .f32⟩ : BufTy).Contents (Elt F) → (⟨S32768x1, .f32⟩ : BufTy).Contents (Elt F)),
    StableHlo.binary main_v4964 main_v4947 main_v4965 (mulf : (⟨S32768x1, .f32⟩ : BufTy).Contents (Elt F) → (⟨S32768x1, .f32⟩ : BufTy).Contents (Elt F) → (⟨S32768x1, .f32⟩ : BufTy).Contents (Elt F)),
    StableHlo.binary main_v4965 main_v4948 main_v4966 (addf : (⟨S32768x1, .f32⟩ : BufTy).Contents (Elt F) → (⟨S32768x1, .f32⟩ : BufTy).Contents (Elt F) → (⟨S32768x1, .f32⟩ : BufTy).Contents (Elt F)),
    StableHlo.nullary main_cst_1532 (constant S_ .f32 0x00000000#32),
    StableHlo.unary main_cst_1532 main_v4967 (broadcastInDim S32768x1 ![] bcast_S_S32768x1 : (⟨S_, .f32⟩ : BufTy).Contents (Elt F) → (⟨S32768x1, .f32⟩ : BufTy).Contents (Elt F)),
    StableHlo.binary main_v4966 main_v4967 main_v4968 (cmpf .ole : (⟨S32768x1, .f32⟩ : BufTy).Contents (Elt F) → (⟨S32768x1, .f32⟩ : BufTy).Contents (Elt F) → (⟨S32768x1, .i1⟩ : BufTy).Contents (Elt F)),
    StableHlo.unary main_v4968 main_v4969 (uitofp .f32 : (⟨S32768x1, .i1⟩ : BufTy).Contents (Elt F) → (⟨S32768x1, .f32⟩ : BufTy).Contents (Elt F)),
    StableHlo.binary main_v4960 main_v4969 main_v4970 (cmpf .une : (⟨S32768x1, .f32⟩ : BufTy).Contents (Elt F) → (⟨S32768x1, .f32⟩ : BufTy).Contents (Elt F) → (⟨S32768x1, .i1⟩ : BufTy).Contents (Elt F)),
    StableHlo.unary main_v4970 main_v4971 (uitofp .f32 : (⟨S32768x1, .i1⟩ : BufTy).Contents (Elt F) → (⟨S32768x1, .f32⟩ : BufTy).Contents (Elt F)),
    StableHlo.binary main_v4971 main_v4969 main_v4972 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4960 main_v4969 main_v4973 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1533 (constant S_ .f32 0x40000000#32),
    StableHlo.unary main_cst_1533 main_v4974 (broadcastInDim S32768x2 ![] bcast_S_S32768x2 : (⟨S_, .f32⟩ : BufTy).Contents (Elt F) → (⟨S32768x2, .f32⟩ : BufTy).Contents (Elt F)),
    StableHlo.binary main_v4974 main_v4972 main_v4975 (mulf : (⟨S32768x2, .f32⟩ : BufTy).Contents (Elt F) → (⟨S32768x2, .f32⟩ : BufTy).Contents (Elt F) → (⟨S32768x2, .f32⟩ : BufTy).Contents (Elt F)),
    StableHlo.nullary main_cst_1534 (constant S_ .f32 0x3F800000#32),
    StableHlo.unary main_cst_1534 main_v4976 (broadcastInDim S32768x2 ![] bcast_S_S32768x2 : (⟨S_, .f32⟩ : BufTy).Contents (Elt F) → (⟨S32768x2, .f32⟩ : BufTy).Contents (Elt F)),
    StableHlo.binary main_v4976 main_v4975 main_v4977 (subf : (⟨S32768x2, .f32⟩ : BufTy).Contents (Elt F) → (⟨S32768x2, .f32⟩ : BufTy).Contents (Elt F) → (⟨S32768x2, .f32⟩ : BufTy).Contents (Elt F)),
    StableHlo.binary main_v4977 main_v4936 main_v4978 (mulf : (⟨S32768x2, .f32⟩ : BufTy).Contents (Elt F) → (⟨S32768x2, .f32⟩ : BufTy).Contents (Elt F) → (⟨S32768x2, .f32⟩ : BufTy).Contents (Elt F)),
    StableHlo.binary main_v4978 main_v4937 main_v4979 (addf : (⟨S32768x2, .f32⟩ : BufTy).Contents (Elt F) → (⟨S32768x2, .f32⟩ : BufTy).Contents (Elt F) → (⟨S32768x2, .f32⟩ : BufTy).Contents (Elt F)),
    StableHlo.unary main_v4979 main_v4980 ((extractStridedSlice S32768x1 ![0, 0] · slices_S32768x2_S32768x1_0_0) : (⟨S32768x2, .f32⟩ : BufTy).Contents (Elt F) → (⟨S32768x1, .f32⟩ : BufTy).Contents (Elt F)),
    StableHlo.unary main_v4979 main_v4981 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1535 (constant S_ .f32 0xC1F00000#32),
    StableHlo.nullary main_cst_1536 (constant S_ .f32 0x41F00000#32),
    StableHlo.TRef.unary (.of main_cst_1535 : StableHlo.TRef sig ⟨S_, .f32⟩) main_call440.v0 id,
    StableHlo.TRef.unary main_call440.v0 main_call440.v1 (broadcastInDim S32768x1 ![] bcast_S_S32768x1),
    StableHlo.TRef.binary main_call440.v1 (.of main_v4980 : StableHlo.TRef sig ⟨S32768x1, .f32⟩) main_call440.v2 maximumf,
    StableHlo.TRef.unary (.of main_cst_1536 : StableHlo.TRef sig ⟨S_, .f32⟩) main_call440.v3 id,
    StableHlo.TRef.unary main_call440.v3 main_call440.v4 (broadcastInDim S32768x1 ![] bcast_S_S32768x1),
    StableHlo.TRef.binary main_call440.v4 main_call440.v2 main_call440.v5 minimumf,
    StableHlo.nullary main_cst_1537 (constant S_ .f32 0xC1F00000#32),
    StableHlo.nullary main_cst_1538 (constant S_ .f32 0x41F00000#32),
    StableHlo.TRef.unary (.of main_cst_1537 : StableHlo.TRef sig ⟨S_, .f32⟩) main_call441.v0 id,
    StableHlo.TRef.unary main_call441.v0 main_call441.v1 (broadcastInDim S32768x1 ![] bcast_S_S32768x1),
    StableHlo.TRef.binary main_call441.v1 (.of main_v4981 : StableHlo.TRef sig ⟨S32768x1, .f32⟩) main_call441.v2 maximumf,
    StableHlo.TRef.unary (.of main_cst_1538 : StableHlo.TRef sig ⟨S_, .f32⟩) main_call441.v3 id,
    StableHlo.TRef.unary main_call441.v3 main_call441.v4 (broadcastInDim S32768x1 ![] bcast_S_S32768x1),
    StableHlo.TRef.binary main_call441.v4 main_call441.v2 main_call441.v5 minimumf,
    StableHlo.unary main_v4982 main_v4984 (Host.sign : (⟨S32768x1, .f32⟩ : BufTy).Contents (Elt F) → (⟨S32768x1, .f32⟩ : BufTy).Contents (Elt F)),
    StableHlo.unary main_v4983 main_v4985 (Host.sign : (⟨S32768x1, .f32⟩ : BufTy).Contents (Elt F) → (⟨S32768x1, .f32⟩ : BufTy).Contents (Elt F)),
    StableHlo.binary main_v4984 main_v4985 main_v4986 (mulf : (⟨S32768x1, .f32⟩ : BufTy).Contents (Elt F) → (⟨S32768x1, .f32⟩ : BufTy).Contents (Elt F) → (⟨S32768x1, .f32⟩ : BufTy).Contents (Elt F)),
    StableHlo.unary main_v4982 main_v4987 (Host.absf : (⟨S32768x1, .f32⟩ : BufTy).Contents (Elt F) → (⟨S32768x1, .f32⟩ : BufTy).Contents (Elt F)),
    StableHlo.unary main_v4983 main_v4988 (Host.absf : (⟨S32768x1, .f32⟩ : BufTy).Contents (Elt F) → (⟨S32768x1, .f32⟩ : BufTy).Contents (Elt F)),
    StableHlo.binary main_v4987 main_v4988 main_v4989 (minimumf : (⟨S32768x1, .f32⟩ : BufTy).Contents (Elt F) → (⟨S32768x1, .f32⟩ : BufTy).Contents (Elt F) → (⟨S32768x1, .f32⟩ : BufTy).Contents (Elt F)),
    StableHlo.binary main_v4986 main_v4989 main_v4990 (mulf : (⟨S32768x1, .f32⟩ : BufTy).Contents (Elt F) → (⟨S32768x1, .f32⟩ : BufTy).Contents (Elt F) → (⟨S32768x1, .f32⟩ : BufTy).Contents (Elt F)),
    StableHlo.nullary main_cst_1539 (constant S_ .f32 0x00000000#32),
    StableHlo.unary main_cst_1539 main_v4991 (broadcastInDim S32768x1 ![] bcast_S_S32768x1 : (⟨S_, .f32⟩ : BufTy).Contents (Elt F) → (⟨S32768x1, .f32⟩ : BufTy).Contents (Elt F)),
    StableHlo.binary main_v4990 main_v4991 main_v4992 (cmpf .ole : (⟨S32768x1, .f32⟩ : BufTy).Contents (Elt F) → (⟨S32768x1, .f32⟩ : BufTy).Contents (Elt F) → (⟨S32768x1, .i1⟩ : BufTy).Contents (Elt F)),
    StableHlo.unary main_v4992 main_v4993 (uitofp .f32 : (⟨S32768x1, .i1⟩ : BufTy).Contents (Elt F) → (⟨S32768x1, .f32⟩ : BufTy).Contents (Elt F)),
    StableHlo.nullary main_cst_1540 (constant S_ .f32 0x40000000#32),
    StableHlo.unary main_cst_1540 main_v4994 (broadcastInDim S32768x1 ![] bcast_S_S32768x1 : (⟨S_, .f32⟩ : BufTy).Contents (Elt F) → (⟨S32768x1, .f32⟩ : BufTy).Contents (Elt F)),
    StableHlo.binary main_v4994 main_v4993 main_v4995 (mulf : (⟨S32768x1, .f32⟩ : BufTy).Contents (Elt F) → (⟨S32768x1, .f32⟩ : BufTy).Contents (Elt F) → (⟨S32768x1, .f32⟩ : BufTy).Contents (Elt F)),
    StableHlo.nullary main_cst_1541 (constant S_ .f32 0x3F800000#32) ]

set_option maxRecDepth 8192 in
/-- The window is that straight line: each clip function unfolded at its calls, the sequencing reassociated. -/
theorem part_eq_108 (d : Dev nD) : main_part108 (F := F) d = seq ops108 := by
  simp only [main_part108, fn_clip_6.body, seq, bind_assoc, pure_bind]
  rfl

/-- Every operation of the window touches TensorCore references only. -/
theorem sub_108 : (ops108 : List (HloOp τ sig (Elt F))).Forall fun op => op.bufs ⊆ tcRefs τ sig :=
  ⟨nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., nullary_bufs_sub .., unary_bufs_sub .., binary_bufs_sub .., unary_bufs_sub .., nullary_bufs_sub ..,
    unary_bufs_sub .., binary_bufs_sub .., nullary_bufs_sub ..⟩

/-- Every operation of the window determines all it writes. -/
theorem fresh_108 : (ops108 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
/-- The window writes no argument of @main: the argument's buffer holds after it what it held before. -/
theorem keep_108 (V : Valuation τ sig (Elt F)) :
    after ops108 V (main_arg0 : DevRef τ sig) = V (main_arg0 : DevRef τ sig) := by
  simp only [after_cons, after_nil]
  rfl

/-- The operations of @main's statements 6541 … 6600, in order (80 of them): a statement's own operation, or, for a call
    of a clip function, the six operations of its body over that call's buffers. -/
abbrev ops109 : List (HloOp τ sig (Elt F)) :=
  [ StableHlo.unary main_cst_1541 main_v4996 (broadcastInDim S32768x1 ![] bcast_S_S32768x1 : (⟨S_, .f32⟩ : BufTy).Contents (Elt F) → (⟨S32768x1, .f32⟩ : BufTy).Contents (Elt F)),
    StableHlo.binary main_v4996 main_v4995 main_v4997 (subf : (⟨S32768x1, .f32⟩ : BufTy).Contents (Elt F) → (⟨S32768x1, .f32⟩ : BufTy).Contents (Elt F) → (⟨S32768x1, .f32⟩ : BufTy).Contents (Elt F)),
    StableHlo.binary main_v4997 main_v4980 main_v4998 (mulf : (⟨S32768x1, .f32⟩ : BufTy).Contents (Elt F) → (⟨S32768x1, .f32⟩ : BufTy).Contents (Elt F) → (⟨S32768x1, .f32⟩ : BufTy).Contents (Elt F)),
    StableHlo.binary main_v4998 main_v4981 main_v4999 (addf : (⟨S32768x1, .f32⟩ : BufTy).Contents (Elt F) → (⟨S32768x1, .f32⟩ : BufTy).Contents (Elt F) → (⟨S32768x1, .f32⟩ : BufTy).Contents (Elt F)),
    StableHlo.nullary main_cst_1542 (constant S_ .f32 0x00000000#32),
    StableHlo.unary main_cst_1542 main_v5000 (broadcastInDim S32768x1 ![] bcast_S_S32768x1 : (⟨S_, .f32⟩ : BufTy).Contents (Elt F) → (⟨S32768x1, .f32⟩ : BufTy).Contents (Elt F)),
    StableHlo.binary main_v4999 main_v5000 main_v5001 (cmpf .ole : (⟨S32768x1, .f32⟩ : BufTy).Contents (Elt F) → (⟨S32768x1, .f32⟩ : BufTy).Contents (Elt F) → (⟨S32768x1, .i1⟩ : BufTy).Contents (Elt F)),
    StableHlo.unary main_v5001 main_v5002 (uitofp .f32 : (⟨S32768x1, .i1⟩ : BufTy).Contents (Elt F) → (⟨S32768x1, .f32⟩ : BufTy).Contents (Elt F)),
    StableHlo.binary main_v4993 main_v5002 main_v5003 (cmpf .une : (⟨S32768x1, .f32⟩ : BufTy).Contents (Elt F) → (⟨S32768x1, .f32⟩ : BufTy).Contents (Elt F) → (⟨S32768x1, .i1⟩ : BufTy).Contents (Elt F)),
    StableHlo.unary main_v5003 main_v5004 (uitofp .f32 : (⟨S32768x1, .i1⟩ : BufTy).Contents (Elt F) → (⟨S32768x1, .f32⟩ : BufTy).Contents (Elt F)),
    StableHlo.binary main_v5004 main_v5002 main_v5005 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4993 main_v5002 main_v5006 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v4972 main_v5005 main_v5007 (cmpf .une : (⟨S32768x2, .f32⟩ : BufTy).Contents (Elt F) → (⟨S32768x2, .f32⟩ : BufTy).Contents (Elt F) → (⟨S32768x2, .i1⟩ : BufTy).Contents (Elt F)),
    StableHlo.unary main_v5007 main_v5008 (uitofp .f32 : (⟨S32768x2, .i1⟩ : BufTy).Contents (Elt F) → (⟨S32768x2, .f32⟩ : BufTy).Contents (Elt F)),
    StableHlo.binary main_v5008 main_v5005 main_v5009 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v4973 main_v5006 main_v5010 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_1543 (constant S_ .f32 0x40000000#32),
    StableHlo.unary main_cst_1543 main_v5011 (broadcastInDim S32768x4 ![] bcast_S_S32768x4 : (⟨S_, .f32⟩ : BufTy).Contents (Elt F) → (⟨S32768x4, .f32⟩ : BufTy).Contents (Elt F)),
    StableHlo.binary main_v5011 main_v5009 main_v5012 (mulf : (⟨S32768x4, .f32⟩ : BufTy).Contents (Elt F) → (⟨S32768x4, .f32⟩ : BufTy).Contents (Elt F) → (⟨S32768x4, .f32⟩ : BufTy).Contents (Elt F)),
    StableHlo.nullary main_cst_1544 (constant S_ .f32 0x3F800000#32),
    StableHlo.unary main_cst_1544 main_v5013 (broadcastInDim S32768x4 ![] bcast_S_S32768x4 : (⟨S_, .f32⟩ : BufTy).Contents (Elt F) → (⟨S32768x4, .f32⟩ : BufTy).Contents (Elt F)),
    StableHlo.binary main_v5013 main_v5012 main_v5014 (subf : (⟨S32768x4, .f32⟩ : BufTy).Contents (Elt F) → (⟨S32768x4, .f32⟩ : BufTy).Contents (Elt F) → (⟨S32768x4, .f32⟩ : BufTy).Contents (Elt F)),
    StableHlo.binary main_v5014 main_v4925 main_v5015 (mulf : (⟨S32768x4, .f32⟩ : BufTy).Contents (Elt F) → (⟨S32768x4, .f32⟩ : BufTy).Contents (Elt F) → (⟨S32768x4, .f32⟩ : BufTy).Contents (Elt F)),
    StableHlo.binary main_v5015 main_v4926 main_v5016 (addf : (⟨S32768x4, .f32⟩ : BufTy).Contents (Elt F) → (⟨S32768x4, .f32⟩ : BufTy).Contents (Elt F) → (⟨S32768x4, .f32⟩ : BufTy).Contents (Elt F)),
    StableHlo.unary main_v5016 main_v5017 ((extractStridedSlice S32768x2 ![0, 0] · slices_S32768x4_S32768x2_0_0) : (⟨S32768x4, .f32⟩ : BufTy).Contents (Elt F) → (⟨S32768x2, .f32⟩ : BufTy).Contents (Elt F)),
    StableHlo.unary main_v5016 main_v5018 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1545 (constant S_ .f32 0xC1F00000#32),
    StableHlo.nullary main_cst_1546 (constant S_ .f32 0x41F00000#32),
    StableHlo.TRef.unary (.of main_cst_1545 : StableHlo.TRef sig ⟨S_, .f32⟩) main_call442.v0 id,
    StableHlo.TRef.unary main_call442.v0 main_call442.v1 (broadcastInDim S32768x2 ![] bcast_S_S32768x2),
    StableHlo.TRef.binary main_call442.v1 (.of main_v5017 : StableHlo.TRef sig ⟨S32768x2, .f32⟩) main_call442.v2 maximumf,
    StableHlo.TRef.unary (.of main_cst_1546 : StableHlo.TRef sig ⟨S_, .f32⟩) main_call442.v3 id,
    StableHlo.TRef.unary main_call442.v3 main_call442.v4 (broadcastInDim S32768x2 ![] bcast_S_S32768x2),
    StableHlo.TRef.binary main_call442.v4 main_call442.v2 main_call442.v5 minimumf,
    StableHlo.nullary main_cst_1547 (constant S_ .f32 0xC1F00000#32),
    StableHlo.nullary main_cst_1548 (constant S_ .f32 0x41F00000#32),
    StableHlo.TRef.unary (.of main_cst_1547 : StableHlo.TRef sig ⟨S_, .f32⟩) main_call443.v0 id,
    StableHlo.TRef.unary main_call443.v0 main_call443.v1 (broadcastInDim S32768x2 ![] bcast_S_S32768x2),
    StableHlo.TRef.binary main_call443.v1 (.of main_v5018 : StableHlo.TRef sig ⟨S32768x2, .f32⟩) main_call443.v2 maximumf,
    StableHlo.TRef.unary (.of main_cst_1548 : StableHlo.TRef sig ⟨S_, .f32⟩) main_call443.v3 id,
    StableHlo.TRef.unary main_call443.v3 main_call443.v4 (broadcastInDim S32768x2 ![] bcast_S_S32768x2),
    StableHlo.TRef.binary main_call443.v4 main_call443.v2 main_call443.v5 minimumf,
    StableHlo.unary main_v5019 main_v5021 (Host.sign : (⟨S32768x2, .f32⟩ : BufTy).Contents (Elt F) → (⟨S32768x2, .f32⟩ : BufTy).Contents (Elt F)),
    StableHlo.unary main_v5020 main_v5022 (Host.sign : (⟨S32768x2, .f32⟩ : BufTy).Contents (Elt F) → (⟨S32768x2, .f32⟩ : BufTy).Contents (Elt F)),
    StableHlo.binary main_v5021 main_v5022 main_v5023 (mulf : (⟨S32768x2, .f32⟩ : BufTy).Contents (Elt F) → (⟨S32768x2, .f32⟩ : BufTy).Contents (Elt F) → (⟨S32768x2, .f32⟩ : BufTy).Contents (Elt F)),
    StableHlo.unary main_v5019 main_v5024 (Host.absf : (⟨S32768x2, .f32⟩ : BufTy).Contents (Elt F) → (⟨S32768x2, .f32⟩ : BufTy).Contents (Elt F)),
    StableHlo.unary main_v5020 main_v5025 (Host.absf : (⟨S32768x2, .f32⟩ : BufTy).Contents (Elt F) → (⟨S32768x2, .f32⟩ : BufTy).Contents (Elt F)),
    StableHlo.binary main_v5024 main_v5025 main_v5026 (minimumf : (⟨S32768x2, .f32⟩ : BufTy).Contents (Elt F) → (⟨S32768x2, .f32⟩ : BufTy).Contents (Elt F) → (⟨S32768x2, .f32⟩ : BufTy).Contents (Elt F)),
    StableHlo.binary main_v5023 main_v5026 main_v5027 (mulf : (⟨S32768x2, .f32⟩ : BufTy).Contents (Elt F) → (⟨S32768x2, .f32⟩ : BufTy).Contents (Elt F) → (⟨S32768x2, .f32⟩ : BufTy).Contents (Elt F)),
    StableHlo.unary main_v5027 main_v5028 ((extractStridedSlice S32768x1 ![0, 0] · slices_S32768x2_S32768x1_0_0) : (⟨S32768x2, .f32⟩ : BufTy).Contents (Elt F) → (⟨S32768x1, .f32⟩ : BufTy).Contents (Elt F)),
    StableHlo.unary main_v5027 main_v5029 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1549 (constant S_ .f32 0xC1F00000#32),
    StableHlo.nullary main_cst_1550 (constant S_ .f32 0x41F00000#32),
    StableHlo.TRef.unary (.of main_cst_1549 : StableHlo.TRef sig ⟨S_, .f32⟩) main_call444.v0 id,
    StableHlo.TRef.unary main_call444.v0 main_call444.v1 (broadcastInDim S32768x1 ![] bcast_S_S32768x1),
    StableHlo.TRef.binary main_call444.v1 (.of main_v5028 : StableHlo.TRef sig ⟨S32768x1, .f32⟩) main_call444.v2 maximumf,
    StableHlo.TRef.unary (.of main_cst_1550 : StableHlo.TRef sig ⟨S_, .f32⟩) main_call444.v3 id,
    StableHlo.TRef.unary main_call444.v3 main_call444.v4 (broadcastInDim S32768x1 ![] bcast_S_S32768x1),
    StableHlo.TRef.binary main_call444.v4 main_call444.v2 main_call444.v5 minimumf,
    StableHlo.nullary main_cst_1551 (constant S_ .f32 0xC1F00000#32),
    StableHlo.nullary main_cst_1552 (constant S_ .f32 0x41F00000#32),
    StableHlo.TRef.unary (.of main_cst_1551 : StableHlo.TRef sig ⟨S_, .f32⟩) main_call445.v0 id,
    StableHlo.TRef.unary main_call445.v0 main_call445.v1 (broadcastInDim S32768x1 ![] bcast_S_S32768x1),
    StableHlo.TRef.binary main_call445.v1 (.of main_v5029 : StableHlo.TRef sig ⟨S32768x1, .f32⟩) main_call445.v2 maximumf,
    StableHlo.TRef.unary (.of main_cst_1552 : StableHlo.TRef sig ⟨S_, .f32⟩) main_call445.v3 id,
    StableHlo.TRef.unary main_call445.v3 main_call445.v4 (broadcastInDim S32768x1 ![] bcast_S_S32768x1),
    StableHlo.TRef.binary main_call445.v4 main_call445.v2 main_call445.v5 minimumf,
    StableHlo.unary main_v5030 main_v5032 (Host.sign : (⟨S32768x1, .f32⟩ : BufTy).Contents (Elt F) → (⟨S32768x1, .f32⟩ : BufTy).Contents (Elt F)),
    StableHlo.unary main_v5031 main_v5033 (Host.sign : (⟨S32768x1, .f32⟩ : BufTy).Contents (Elt F) → (⟨S32768x1, .f32⟩ : BufTy).Contents (Elt F)),
    StableHlo.binary main_v5032 main_v5033 main_v5034 (mulf : (⟨S32768x1, .f32⟩ : BufTy).Contents (Elt F) → (⟨S32768x1, .f32⟩ : BufTy).Contents (Elt F) → (⟨S32768x1, .f32⟩ : BufTy).Contents (Elt F)),
    StableHlo.unary main_v5030 main_v5035 (Host.absf : (⟨S32768x1, .f32⟩ : BufTy).Contents (Elt F) → (⟨S32768x1, .f32⟩ : BufTy).Contents (Elt F)),
    StableHlo.unary main_v5031 main_v5036 (Host.absf : (⟨S32768x1, .f32⟩ : BufTy).Contents (Elt F) → (⟨S32768x1, .f32⟩ : BufTy).Contents (Elt F)),
    StableHlo.binary main_v5035 main_v5036 main_v5037 (minimumf : (⟨S32768x1, .f32⟩ : BufTy).Contents (Elt F) → (⟨S32768x1, .f32⟩ : BufTy).Contents (Elt F) → (⟨S32768x1, .f32⟩ : BufTy).Contents (Elt F)),
    StableHlo.binary main_v5034 main_v5037 main_v5038 (mulf : (⟨S32768x1, .f32⟩ : BufTy).Contents (Elt F) → (⟨S32768x1, .f32⟩ : BufTy).Contents (Elt F) → (⟨S32768x1, .f32⟩ : BufTy).Contents (Elt F)),
    StableHlo.nullary main_cst_1553 (constant S_ .f32 0x00000000#32),
    StableHlo.unary main_cst_1553 main_v5039 (broadcastInDim S32768x1 ![] bcast_S_S32768x1 : (⟨S_, .f32⟩ : BufTy).Contents (Elt F) → (⟨S32768x1, .f32⟩ : BufTy).Contents (Elt F)),
    StableHlo.binary main_v5038 main_v5039 main_v5040 (cmpf .ole : (⟨S32768x1, .f32⟩ : BufTy).Contents (Elt F) → (⟨S32768x1, .f32⟩ : BufTy).Contents (Elt F) → (⟨S32768x1, .i1⟩ : BufTy).Contents (Elt F)),
    StableHlo.unary main_v5040 main_v5041 (uitofp .f32 : (⟨S32768x1, .i1⟩ : BufTy).Contents (Elt F) → (⟨S32768x1, .f32⟩ : BufTy).Contents (Elt F)),
    StableHlo.nullary main_cst_1554 (constant S_ .f32 0x40000000#32),
    StableHlo.unary main_cst_1554 main_v5042 (broadcastInDim S32768x1 ![] bcast_S_S32768x1 : (⟨S_, .f32⟩ : BufTy).Contents (Elt F) → (⟨S32768x1, .f32⟩ : BufTy).Contents (Elt F)) ]

set_option maxRecDepth 8192 in
/-- The window is that straight line: each clip function unfolded at its calls, the sequencing reassociated. -/
theorem part_eq_109 (d : Dev nD) : main_part109 (F := F) d = seq ops109 := by
  simp only [main_part109, fn_clip_5.body, fn_clip_6.body, seq, bind_assoc, pure_bind]
  rfl

/-- Every operation of the window touches TensorCore references only. -/
theorem sub_109 : (ops109 : List (HloOp τ sig (Elt F))).Forall fun op => op.bufs ⊆ tcRefs τ sig :=
  ⟨unary_bufs_sub .., binary_bufs_sub .., binary_bufs_sub .., binary_bufs_sub .., nullary_bufs_sub .., unary_bufs_sub ..,
    binary_bufs_sub .., unary_bufs_sub .., binary_bufs_sub .., unary_bufs_sub .., binary_bufs_sub .., binary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., binary_bufs_sub .., unary_bufs_sub ..,
    nullary_bufs_sub .., unary_bufs_sub ..⟩

/-- Every operation of the window determines all it writes. -/
theorem fresh_109 : (ops109 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_109 (V : Valuation τ sig (Elt F)) :
    after ops109 V (main_arg0 : DevRef τ sig) = V (main_arg0 : DevRef τ sig) := by
  simp only [after_cons, after_nil]
  rfl

/-- The operations of @main's statements 6601 … 6660, in order (70 of them): a statement's own operation, or, for a call
    of a clip function, the six operations of its body over that call's buffers. -/
abbrev ops110 : List (HloOp τ sig (Elt F)) :=
  [ StableHlo.binary main_v5042 main_v5041 main_v5043 (mulf : (⟨S32768x1, .f32⟩ : BufTy).Contents (Elt F) → (⟨S32768x1, .f32⟩ : BufTy).Contents (Elt F) → (⟨S32768x1, .f32⟩ : BufTy).Contents (Elt F)),
    StableHlo.nullary main_cst_1555 (constant S_ .f32 0x3F800000#32),
    StableHlo.unary main_cst_1555 main_v5044 (broadcastInDim S32768x1 ![] bcast_S_S32768x1 : (⟨S_, .f32⟩ : BufTy).Contents (Elt F) → (⟨S32768x1, .f32⟩ : BufTy).Contents (Elt F)),
    StableHlo.binary main_v5044 main_v5043 main_v5045 (subf : (⟨S32768x1, .f32⟩ : BufTy).Contents (Elt F) → (⟨S32768x1, .f32⟩ : BufTy).Contents (Elt F) → (⟨S32768x1, .f32⟩ : BufTy).Contents (Elt F)),
    StableHlo.binary main_v5045 main_v5028 main_v5046 (mulf : (⟨S32768x1, .f32⟩ : BufTy).Contents (Elt F) → (⟨S32768x1, .f32⟩ : BufTy).Contents (Elt F) → (⟨S32768x1, .f32⟩ : BufTy).Contents (Elt F)),
    StableHlo.binary main_v5046 main_v5029 main_v5047 (addf : (⟨S32768x1, .f32⟩ : BufTy).Contents (Elt F) → (⟨S32768x1, .f32⟩ : BufTy).Contents (Elt F) → (⟨S32768x1, .f32⟩ : BufTy).Contents (Elt F)),
    StableHlo.nullary main_cst_1556 (constant S_ .f32 0x00000000#32),
    StableHlo.unary main_cst_1556 main_v5048 (broadcastInDim S32768x1 ![] bcast_S_S32768x1 : (⟨S_, .f32⟩ : BufTy).Contents (Elt F) → (⟨S32768x1, .f32⟩ : BufTy).Contents (Elt F)),
    StableHlo.binary main_v5047 main_v5048 main_v5049 (cmpf .ole : (⟨S32768x1, .f32⟩ : BufTy).Contents (Elt F) → (⟨S32768x1, .f32⟩ : BufTy).Contents (Elt F) → (⟨S32768x1, .i1⟩ : BufTy).Contents (Elt F)),
    StableHlo.unary main_v5049 main_v5050 (uitofp .f32 : (⟨S32768x1, .i1⟩ : BufTy).Contents (Elt F) → (⟨S32768x1, .f32⟩ : BufTy).Contents (Elt F)),
    StableHlo.binary main_v5041 main_v5050 main_v5051 (cmpf .une : (⟨S32768x1, .f32⟩ : BufTy).Contents (Elt F) → (⟨S32768x1, .f32⟩ : BufTy).Contents (Elt F) → (⟨S32768x1, .i1⟩ : BufTy).Contents (Elt F)),
    StableHlo.unary main_v5051 main_v5052 (uitofp .f32 : (⟨S32768x1, .i1⟩ : BufTy).Contents (Elt F) → (⟨S32768x1, .f32⟩ : BufTy).Contents (Elt F)),
    StableHlo.binary main_v5052 main_v5050 main_v5053 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5041 main_v5050 main_v5054 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1557 (constant S_ .f32 0x40000000#32),
    StableHlo.unary main_cst_1557 main_v5055 (broadcastInDim S32768x2 ![] bcast_S_S32768x2 : (⟨S_, .f32⟩ : BufTy).Contents (Elt F) → (⟨S32768x2, .f32⟩ : BufTy).Contents (Elt F)),
    StableHlo.binary main_v5055 main_v5053 main_v5056 (mulf : (⟨S32768x2, .f32⟩ : BufTy).Contents (Elt F) → (⟨S32768x2, .f32⟩ : BufTy).Contents (Elt F) → (⟨S32768x2, .f32⟩ : BufTy).Contents (Elt F)),
    StableHlo.nullary main_cst_1558 (constant S_ .f32 0x3F800000#32),
    StableHlo.unary main_cst_1558 main_v5057 (broadcastInDim S32768x2 ![] bcast_S_S32768x2 : (⟨S_, .f32⟩ : BufTy).Contents (Elt F) → (⟨S32768x2, .f32⟩ : BufTy).Contents (Elt F)),
    StableHlo.binary main_v5057 main_v5056 main_v5058 (subf : (⟨S32768x2, .f32⟩ : BufTy).Contents (Elt F) → (⟨S32768x2, .f32⟩ : BufTy).Contents (Elt F) → (⟨S32768x2, .f32⟩ : BufTy).Contents (Elt F)),
    StableHlo.binary main_v5058 main_v5017 main_v5059 (mulf : (⟨S32768x2, .f32⟩ : BufTy).Contents (Elt F) → (⟨S32768x2, .f32⟩ : BufTy).Contents (Elt F) → (⟨S32768x2, .f32⟩ : BufTy).Contents (Elt F)),
    StableHlo.binary main_v5059 main_v5018 main_v5060 (addf : (⟨S32768x2, .f32⟩ : BufTy).Contents (Elt F) → (⟨S32768x2, .f32⟩ : BufTy).Contents (Elt F) → (⟨S32768x2, .f32⟩ : BufTy).Contents (Elt F)),
    StableHlo.unary main_v5060 main_v5061 ((extractStridedSlice S32768x1 ![0, 0] · slices_S32768x2_S32768x1_0_0) : (⟨S32768x2, .f32⟩ : BufTy).Contents (Elt F) → (⟨S32768x1, .f32⟩ : BufTy).Contents (Elt F)),
    StableHlo.unary main_v5060 main_v5062 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1559 (constant S_ .f32 0xC1F00000#32),
    StableHlo.nullary main_cst_1560 (constant S_ .f32 0x41F00000#32),
    StableHlo.TRef.unary (.of main_cst_1559 : StableHlo.TRef sig ⟨S_, .f32⟩) main_call446.v0 id,
    StableHlo.TRef.unary main_call446.v0 main_call446.v1 (broadcastInDim S32768x1 ![] bcast_S_S32768x1),
    StableHlo.TRef.binary main_call446.v1 (.of main_v5061 : StableHlo.TRef sig ⟨S32768x1, .f32⟩) main_call446.v2 maximumf,
    StableHlo.TRef.unary (.of main_cst_1560 : StableHlo.TRef sig ⟨S_, .f32⟩) main_call446.v3 id,
    StableHlo.TRef.unary main_call446.v3 main_call446.v4 (broadcastInDim S32768x1 ![] bcast_S_S32768x1),
    StableHlo.TRef.binary main_call446.v4 main_call446.v2 main_call446.v5 minimumf,
    StableHlo.nullary main_cst_1561 (constant S_ .f32 0xC1F00000#32),
    StableHlo.nullary main_cst_1562 (constant S_ .f32 0x41F00000#32),
    StableHlo.TRef.unary (.of main_cst_1561 : StableHlo.TRef sig ⟨S_, .f32⟩) main_call447.v0 id,
    StableHlo.TRef.unary main_call447.v0 main_call447.v1 (broadcastInDim S32768x1 ![] bcast_S_S32768x1),
    StableHlo.TRef.binary main_call447.v1 (.of main_v5062 : StableHlo.TRef sig ⟨S32768x1, .f32⟩) main_call447.v2 maximumf,
    StableHlo.TRef.unary (.of main_cst_1562 : StableHlo.TRef sig ⟨S_, .f32⟩) main_call447.v3 id,
    StableHlo.TRef.unary main_call447.v3 main_call447.v4 (broadcastInDim S32768x1 ![] bcast_S_S32768x1),
    StableHlo.TRef.binary main_call447.v4 main_call447.v2 main_call447.v5 minimumf,
    StableHlo.unary main_v5063 main_v5065 (Host.sign : (⟨S32768x1, .f32⟩ : BufTy).Contents (Elt F) → (⟨S32768x1, .f32⟩ : BufTy).Contents (Elt F)),
    StableHlo.unary main_v5064 main_v5066 (Host.sign : (⟨S32768x1, .f32⟩ : BufTy).Contents (Elt F) → (⟨S32768x1, .f32⟩ : BufTy).Contents (Elt F)),
    StableHlo.binary main_v5065 main_v5066 main_v5067 (mulf : (⟨S32768x1, .f32⟩ : BufTy).Contents (Elt F) → (⟨S32768x1, .f32⟩ : BufTy).Contents (Elt F) → (⟨S32768x1, .f32⟩ : BufTy).Contents (Elt F)),
    StableHlo.unary main_v5063 main_v5068 (Host.absf : (⟨S32768x1, .f32⟩ : BufTy).Contents (Elt F) → (⟨S32768x1, .f32⟩ : BufTy).Contents (Elt F)),
    StableHlo.unary main_v5064 main_v5069 (Host.absf : (⟨S32768x1, .f32⟩ : BufTy).Contents (Elt F) → (⟨S32768x1, .f32⟩ : BufTy).Contents (Elt F)),
    StableHlo.binary main_v5068 main_v5069 main_v5070 (minimumf : (⟨S32768x1, .f32⟩ : BufTy).Contents (Elt F) → (⟨S32768x1, .f32⟩ : BufTy).Contents (Elt F) → (⟨S32768x1, .f32⟩ : BufTy).Contents (Elt F)),
    StableHlo.binary main_v5067 main_v5070 main_v5071 (mulf : (⟨S32768x1, .f32⟩ : BufTy).Contents (Elt F) → (⟨S32768x1, .f32⟩ : BufTy).Contents (Elt F) → (⟨S32768x1, .f32⟩ : BufTy).Contents (Elt F)),
    StableHlo.nullary main_cst_1563 (constant S_ .f32 0x00000000#32),
    StableHlo.unary main_cst_1563 main_v5072 (broadcastInDim S32768x1 ![] bcast_S_S32768x1 : (⟨S_, .f32⟩ : BufTy).Contents (Elt F) → (⟨S32768x1, .f32⟩ : BufTy).Contents (Elt F)),
    StableHlo.binary main_v5071 main_v5072 main_v5073 (cmpf .ole : (⟨S32768x1, .f32⟩ : BufTy).Contents (Elt F) → (⟨S32768x1, .f32⟩ : BufTy).Contents (Elt F) → (⟨S32768x1, .i1⟩ : BufTy).Contents (Elt F)),
    StableHlo.unary main_v5073 main_v5074 (uitofp .f32 : (⟨S32768x1, .i1⟩ : BufTy).Contents (Elt F) → (⟨S32768x1, .f32⟩ : BufTy).Contents (Elt F)),
    StableHlo.nullary main_cst_1564 (constant S_ .f32 0x40000000#32),
    StableHlo.unary main_cst_1564 main_v5075 (broadcastInDim S32768x1 ![] bcast_S_S32768x1 : (⟨S_, .f32⟩ : BufTy).Contents (Elt F) → (⟨S32768x1, .f32⟩ : BufTy).Contents (Elt F)),
    StableHlo.binary main_v5075 main_v5074 main_v5076 (mulf : (⟨S32768x1, .f32⟩ : BufTy).Contents (Elt F) → (⟨S32768x1, .f32⟩ : BufTy).Contents (Elt F) → (⟨S32768x1, .f32⟩ : BufTy).Contents (Elt F)),
    StableHlo.nullary main_cst_1565 (constant S_ .f32 0x3F800000#32),
    StableHlo.unary main_cst_1565 main_v5077 (broadcastInDim S32768x1 ![] bcast_S_S32768x1 : (⟨S_, .f32⟩ : BufTy).Contents (Elt F) → (⟨S32768x1, .f32⟩ : BufTy).Contents (Elt F)),
    StableHlo.binary main_v5077 main_v5076 main_v5078 (subf : (⟨S32768x1, .f32⟩ : BufTy).Contents (Elt F) → (⟨S32768x1, .f32⟩ : BufTy).Contents (Elt F) → (⟨S32768x1, .f32⟩ : BufTy).Contents (Elt F)),
    StableHlo.binary main_v5078 main_v5061 main_v5079 (mulf : (⟨S32768x1, .f32⟩ : BufTy).Contents (Elt F) → (⟨S32768x1, .f32⟩ : BufTy).Contents (Elt F) → (⟨S32768x1, .f32⟩ : BufTy).Contents (Elt F)),
    StableHlo.binary main_v5079 main_v5062 main_v5080 (addf : (⟨S32768x1, .f32⟩ : BufTy).Contents (Elt F) → (⟨S32768x1, .f32⟩ : BufTy).Contents (Elt F) → (⟨S32768x1, .f32⟩ : BufTy).Contents (Elt F)),
    StableHlo.nullary main_cst_1566 (constant S_ .f32 0x00000000#32),
    StableHlo.unary main_cst_1566 main_v5081 (broadcastInDim S32768x1 ![] bcast_S_S32768x1 : (⟨S_, .f32⟩ : BufTy).Contents (Elt F) → (⟨S32768x1, .f32⟩ : BufTy).Contents (Elt F)),
    StableHlo.binary main_v5080 main_v5081 main_v5082 (cmpf .ole : (⟨S32768x1, .f32⟩ : BufTy).Contents (Elt F) → (⟨S32768x1, .f32⟩ : BufTy).Contents (Elt F) → (⟨S32768x1, .i1⟩ : BufTy).Contents (Elt F)),
    StableHlo.unary main_v5082 main_v5083 (uitofp .f32 : (⟨S32768x1, .i1⟩ : BufTy).Contents (Elt F) → (⟨S32768x1, .f32⟩ : BufTy).Contents (Elt F)),
    StableHlo.binary main_v5074 main_v5083 main_v5084 (cmpf .une : (⟨S32768x1, .f32⟩ : BufTy).Contents (Elt F) → (⟨S32768x1, .f32⟩ : BufTy).Contents (Elt F) → (⟨S32768x1, .i1⟩ : BufTy).Contents (Elt F)),
    StableHlo.unary main_v5084 main_v5085 (uitofp .f32 : (⟨S32768x1, .i1⟩ : BufTy).Contents (Elt F) → (⟨S32768x1, .f32⟩ : BufTy).Contents (Elt F)),
    StableHlo.binary main_v5085 main_v5083 main_v5086 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5074 main_v5083 main_v5087 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5053 main_v5086 main_v5088 (cmpf .une : (⟨S32768x2, .f32⟩ : BufTy).Contents (Elt F) → (⟨S32768x2, .f32⟩ : BufTy).Contents (Elt F) → (⟨S32768x2, .i1⟩ : BufTy).Contents (Elt F)),
    StableHlo.unary main_v5088 main_v5089 (uitofp .f32 : (⟨S32768x2, .i1⟩ : BufTy).Contents (Elt F) → (⟨S32768x2, .f32⟩ : BufTy).Contents (Elt F)),
    StableHlo.binary main_v5089 main_v5086 main_v5090 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)) ]

set_option maxRecDepth 8192 in
/-- The window is that straight line: each clip function unfolded at its calls, the sequencing reassociated. -/
theorem part_eq_110 (d : Dev nD) : main_part110 (F := F) d = seq ops110 := by
  simp only [main_part110, fn_clip_6.body, seq, bind_assoc, pure_bind]
  rfl

/-- Every operation of the window touches TensorCore references only. -/
theorem sub_110 : (ops110 : List (HloOp τ sig (Elt F))).Forall fun op => op.bufs ⊆ tcRefs τ sig :=
  ⟨binary_bufs_sub .., nullary_bufs_sub .., unary_bufs_sub .., binary_bufs_sub .., binary_bufs_sub .., binary_bufs_sub ..,
    nullary_bufs_sub .., unary_bufs_sub .., binary_bufs_sub .., unary_bufs_sub .., binary_bufs_sub .., unary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., unary_bufs_sub .., binary_bufs_sub ..,
    binary_bufs_sub .., binary_bufs_sub .., unary_bufs_sub .., binary_bufs_sub ..⟩

/-- Every operation of the window determines all it writes. -/
theorem fresh_110 : (ops110 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_110 (V : Valuation τ sig (Elt F)) :
    after ops110 V (main_arg0 : DevRef τ sig) = V (main_arg0 : DevRef τ sig) := by
  simp only [after_cons, after_nil]
  rfl

/-- The operations of @main's statements 6661 … 6720, in order (90 of them): a statement's own operation, or, for a call
    of a clip function, the six operations of its body over that call's buffers. -/
abbrev ops111 : List (HloOp τ sig (Elt F)) :=
  [ StableHlo.binary main_v5054 main_v5087 main_v5091 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v5009 main_v5090 main_v5092 (cmpf .une : (⟨S32768x4, .f32⟩ : BufTy).Contents (Elt F) → (⟨S32768x4, .f32⟩ : BufTy).Contents (Elt F) → (⟨S32768x4, .i1⟩ : BufTy).Contents (Elt F)),
    StableHlo.unary main_v5092 main_v5093 (uitofp .f32 : (⟨S32768x4, .i1⟩ : BufTy).Contents (Elt F) → (⟨S32768x4, .f32⟩ : BufTy).Contents (Elt F)),
    StableHlo.binary main_v5093 main_v5090 main_v5094 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v5010 main_v5091 main_v5095 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v4917 main_v5094 main_v5096 (cmpf .une : (⟨S32768x8, .f32⟩ : BufTy).Contents (Elt F) → (⟨S32768x8, .f32⟩ : BufTy).Contents (Elt F) → (⟨S32768x8, .i1⟩ : BufTy).Contents (Elt F)),
    StableHlo.unary main_v5096 main_v5097 (uitofp .f32 : (⟨S32768x8, .i1⟩ : BufTy).Contents (Elt F) → (⟨S32768x8, .f32⟩ : BufTy).Contents (Elt F)),
    StableHlo.binary main_v5097 main_v5094 main_v5098 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v4918 main_v5095 main_v5099 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v4729 main_v5098 main_v5100 (cmpf .une : (⟨S32768x16, .f32⟩ : BufTy).Contents (Elt F) → (⟨S32768x16, .f32⟩ : BufTy).Contents (Elt F) → (⟨S32768x16, .i1⟩ : BufTy).Contents (Elt F)),
    StableHlo.unary main_v5100 main_v5101 (uitofp .f32 : (⟨S32768x16, .i1⟩ : BufTy).Contents (Elt F) → (⟨S32768x16, .f32⟩ : BufTy).Contents (Elt F)),
    StableHlo.binary main_v5101 main_v5098 main_v5102 ((fun a b => concatenate S32768x32 1 [⟨S32768x16, a⟩, ⟨S32768x16, b⟩] concatenates_S32768x16_S32768x16_S32768x32_d1) : (⟨S32768x16, .f32⟩ : BufTy).Contents (Elt F) → (⟨S32768x16, .f32⟩ : BufTy).Contents (Elt F) → (⟨S32768x32, .f32⟩ : BufTy).Contents (Elt F)),
    StableHlo.binary main_v4730 main_v5099 main_v5103 ((fun a b => concatenate S32768x32 1 [⟨S32768x16, a⟩, ⟨S32768x16, b⟩] concatenates_S32768x16_S32768x16_S32768x32_d1) : (⟨S32768x16, .f32⟩ : BufTy).Contents (Elt F) → (⟨S32768x16, .f32⟩ : BufTy).Contents (Elt F) → (⟨S32768x32, .f32⟩ : BufTy).Contents (Elt F)),
    StableHlo.nullary main_cst_1567 (constant S_ .f32 0x40000000#32),
    StableHlo.unary main_cst_1567 main_v5104 (broadcastInDim S32768x32 ![] bcast_S_S32768x32 : (⟨S_, .f32⟩ : BufTy).Contents (Elt F) → (⟨S32768x32, .f32⟩ : BufTy).Contents (Elt F)),
    StableHlo.binary main_v5104 main_v5102 main_v5105 (mulf : (⟨S32768x32, .f32⟩ : BufTy).Contents (Elt F) → (⟨S32768x32, .f32⟩ : BufTy).Contents (Elt F) → (⟨S32768x32, .f32⟩ : BufTy).Contents (Elt F)),
    StableHlo.nullary main_cst_1568 (constant S_ .f32 0x3F800000#32),
    StableHlo.unary main_cst_1568 main_v5106 (broadcastInDim S32768x32 ![] bcast_S_S32768x32 : (⟨S_, .f32⟩ : BufTy).Contents (Elt F) → (⟨S32768x32, .f32⟩ : BufTy).Contents (Elt F)),
    StableHlo.binary main_v5106 main_v5105 main_v5107 (subf : (⟨S32768x32, .f32⟩ : BufTy).Contents (Elt F) → (⟨S32768x32, .f32⟩ : BufTy).Contents (Elt F) → (⟨S32768x32, .f32⟩ : BufTy).Contents (Elt F)),
    StableHlo.binary main_v5107 main_v4346 main_v5108 (mulf : (⟨S32768x32, .f32⟩ : BufTy).Contents (Elt F) → (⟨S32768x32, .f32⟩ : BufTy).Contents (Elt F) → (⟨S32768x32, .f32⟩ : BufTy).Contents (Elt F)),
    StableHlo.binary main_v5108 main_v4347 main_v5109 (addf : (⟨S32768x32, .f32⟩ : BufTy).Contents (Elt F) → (⟨S32768x32, .f32⟩ : BufTy).Contents (Elt F) → (⟨S32768x32, .f32⟩ : BufTy).Contents (Elt F)),
    StableHlo.unary main_v5109 main_v5110 ((extractStridedSlice S32768x16 ![0, 0] · slices_S32768x32_S32768x16_0_0) : (⟨S32768x32, .f32⟩ : BufTy).Contents (Elt F) → (⟨S32768x16, .f32⟩ : BufTy).Contents (Elt F)),
    StableHlo.unary main_v5109 main_v5111 ((extractStridedSlice S32768x16 ![0, 16] · slices_S32768x32_S32768x16_0_16) : (⟨S32768x32, .f32⟩ : BufTy).Contents (Elt F) → (⟨S32768x16, .f32⟩ : BufTy).Contents (Elt F)),
    StableHlo.nullary main_cst_1569 (constant S_ .f32 0xC1F00000#32),
    StableHlo.nullary main_cst_1570 (constant S_ .f32 0x41F00000#32),
    StableHlo.TRef.unary (.of main_cst_1569 : StableHlo.TRef sig ⟨S_, .f32⟩) main_call448.v0 id,
    StableHlo.TRef.unary main_call448.v0 main_call448.v1 (broadcastInDim S32768x16 ![] bcast_S_S32768x16),
    StableHlo.TRef.binary main_call448.v1 (.of main_v5110 : StableHlo.TRef sig ⟨S32768x16, .f32⟩) main_call448.v2 maximumf,
    StableHlo.TRef.unary (.of main_cst_1570 : StableHlo.TRef sig ⟨S_, .f32⟩) main_call448.v3 id,
    StableHlo.TRef.unary main_call448.v3 main_call448.v4 (broadcastInDim S32768x16 ![] bcast_S_S32768x16),
    StableHlo.TRef.binary main_call448.v4 main_call448.v2 main_call448.v5 minimumf,
    StableHlo.nullary main_cst_1571 (constant S_ .f32 0xC1F00000#32),
    StableHlo.nullary main_cst_1572 (constant S_ .f32 0x41F00000#32),
    StableHlo.TRef.unary (.of main_cst_1571 : StableHlo.TRef sig ⟨S_, .f32⟩) main_call449.v0 id,
    StableHlo.TRef.unary main_call449.v0 main_call449.v1 (broadcastInDim S32768x16 ![] bcast_S_S32768x16),
    StableHlo.TRef.binary main_call449.v1 (.of main_v5111 : StableHlo.TRef sig ⟨S32768x16, .f32⟩) main_call449.v2 maximumf,
    StableHlo.TRef.unary (.of main_cst_1572 : StableHlo.TRef sig ⟨S_, .f32⟩) main_call449.v3 id,
    StableHlo.TRef.unary main_call449.v3 main_call449.v4 (broadcastInDim S32768x16 ![] bcast_S_S32768x16),
    StableHlo.TRef.binary main_call449.v4 main_call449.v2 main_call449.v5 minimumf,
    StableHlo.unary main_v5112 main_v5114 (Host.sign : (⟨S32768x16, .f32⟩ : BufTy).Contents (Elt F) → (⟨S32768x16, .f32⟩ : BufTy).Contents (Elt F)),
    StableHlo.unary main_v5113 main_v5115 (Host.sign : (⟨S32768x16, .f32⟩ : BufTy).Contents (Elt F) → (⟨S32768x16, .f32⟩ : BufTy).Contents (Elt F)),
    StableHlo.binary main_v5114 main_v5115 main_v5116 (mulf : (⟨S32768x16, .f32⟩ : BufTy).Contents (Elt F) → (⟨S32768x16, .f32⟩ : BufTy).Contents (Elt F) → (⟨S32768x16, .f32⟩ : BufTy).Contents (Elt F)),
    StableHlo.unary main_v5112 main_v5117 (Host.absf : (⟨S32768x16, .f32⟩ : BufTy).Contents (Elt F) → (⟨S32768x16, .f32⟩ : BufTy).Contents (Elt F)),
    StableHlo.unary main_v5113 main_v5118 (Host.absf : (⟨S32768x16, .f32⟩ : BufTy).Contents (Elt F) → (⟨S32768x16, .f32⟩ : BufTy).Contents (Elt F)),
    StableHlo.binary main_v5117 main_v5118 main_v5119 (minimumf : (⟨S32768x16, .f32⟩ : BufTy).Contents (Elt F) → (⟨S32768x16, .f32⟩ : BufTy).Contents (Elt F) → (⟨S32768x16, .f32⟩ : BufTy).Contents (Elt F)),
    StableHlo.binary main_v5116 main_v5119 main_v5120 (mulf : (⟨S32768x16, .f32⟩ : BufTy).Contents (Elt F) → (⟨S32768x16, .f32⟩ : BufTy).Contents (Elt F) → (⟨S32768x16, .f32⟩ : BufTy).Contents (Elt F)),
    StableHlo.unary main_v5120 main_v5121 ((extractStridedSlice S32768x8 ![0, 0] · slices_S32768x16_S32768x8_0_0) : (⟨S32768x16, .f32⟩ : BufTy).Contents (Elt F) → (⟨S32768x8, .f32⟩ : BufTy).Contents (Elt F)),
    StableHlo.unary main_v5120 main_v5122 ((extractStridedSlice S32768x8 ![0, 8] · slices_S32768x16_S32768x8_0_8) : (⟨S32768x16, .f32⟩ : BufTy).Contents (Elt F) → (⟨S32768x8, .f32⟩ : BufTy).Contents (Elt F)),
    StableHlo.nullary main_cst_1573 (constant S_ .f32 0xC1F00000#32),
    StableHlo.nullary main_cst_1574 (constant S_ .f32 0x41F00000#32),
    StableHlo.TRef.unary (.of main_cst_1573 : StableHlo.TRef sig ⟨S_, .f32⟩) main_call450.v0 id,
    StableHlo.TRef.unary main_call450.v0 main_call450.v1 (broadcastInDim S32768x8 ![] bcast_S_S32768x8),
    StableHlo.TRef.binary main_call450.v1 (.of main_v5121 : StableHlo.TRef sig ⟨S32768x8, .f32⟩) main_call450.v2 maximumf,
    StableHlo.TRef.unary (.of main_cst_1574 : StableHlo.TRef sig ⟨S_, .f32⟩) main_call450.v3 id,
    StableHlo.TRef.unary main_call450.v3 main_call450.v4 (broadcastInDim S32768x8 ![] bcast_S_S32768x8),
    StableHlo.TRef.binary main_call450.v4 main_call450.v2 main_call450.v5 minimumf,
    StableHlo.nullary main_cst_1575 (constant S_ .f32 0xC1F00000#32),
    StableHlo.nullary main_cst_1576 (constant S_ .f32 0x41F00000#32),
    StableHlo.TRef.unary (.of main_cst_1575 : StableHlo.TRef sig ⟨S_, .f32⟩) main_call451.v0 id,
    StableHlo.TRef.unary main_call451.v0 main_call451.v1 (broadcastInDim S32768x8 ![] bcast_S_S32768x8),
    StableHlo.TRef.binary main_call451.v1 (.of main_v5122 : StableHlo.TRef sig ⟨S32768x8, .f32⟩) main_call451.v2 maximumf,
    StableHlo.TRef.unary (.of main_cst_1576 : StableHlo.TRef sig ⟨S_, .f32⟩) main_call451.v3 id,
    StableHlo.TRef.unary main_call451.v3 main_call451.v4 (broadcastInDim S32768x8 ![] bcast_S_S32768x8),
    StableHlo.TRef.binary main_call451.v4 main_call451.v2 main_call451.v5 minimumf,
    StableHlo.unary main_v5123 main_v5125 (Host.sign : (⟨S32768x8, .f32⟩ : BufTy).Contents (Elt F) → (⟨S32768x8, .f32⟩ : BufTy).Contents (Elt F)),
    StableHlo.unary main_v5124 main_v5126 (Host.sign : (⟨S32768x8, .f32⟩ : BufTy).Contents (Elt F) → (⟨S32768x8, .f32⟩ : BufTy).Contents (Elt F)),
    StableHlo.binary main_v5125 main_v5126 main_v5127 (mulf : (⟨S32768x8, .f32⟩ : BufTy).Contents (Elt F) → (⟨S32768x8, .f32⟩ : BufTy).Contents (Elt F) → (⟨S32768x8, .f32⟩ : BufTy).Contents (Elt F)),
    StableHlo.unary main_v5123 main_v5128 (Host.absf : (⟨S32768x8, .f32⟩ : BufTy).Contents (Elt F) → (⟨S32768x8, .f32⟩ : BufTy).Contents (Elt F)),
    StableHlo.unary main_v5124 main_v5129 (Host.absf : (⟨S32768x8, .f32⟩ : BufTy).Contents (Elt F) → (⟨S32768x8, .f32⟩ : BufTy).Contents (Elt F)),
    StableHlo.binary main_v5128 main_v5129 main_v5130 (minimumf : (⟨S32768x8, .f32⟩ : BufTy).Contents (Elt F) → (⟨S32768x8, .f32⟩ : BufTy).Contents (Elt F) → (⟨S32768x8, .f32⟩ : BufTy).Contents (Elt F)),
    StableHlo.binary main_v5127 main_v5130 main_v5131 (mulf : (⟨S32768x8, .f32⟩ : BufTy).Contents (Elt F) → (⟨S32768x8, .f32⟩ : BufTy).Contents (Elt F) → (⟨S32768x8, .f32⟩ : BufTy).Contents (Elt F)),
    StableHlo.unary main_v5131 main_v5132 ((extractStridedSlice S32768x4 ![0, 0] · slices_S32768x8_S32768x4_0_0) : (⟨S32768x8, .f32⟩ : BufTy).Contents (Elt F) → (⟨S32768x4, .f32⟩ : BufTy).Contents (Elt F)),
    StableHlo.unary main_v5131 main_v5133 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_1577 (constant S_ .f32 0xC1F00000#32),
    StableHlo.nullary main_cst_1578 (constant S_ .f32 0x41F00000#32),
    StableHlo.TRef.unary (.of main_cst_1577 : StableHlo.TRef sig ⟨S_, .f32⟩) main_call452.v0 id,
    StableHlo.TRef.unary main_call452.v0 main_call452.v1 (broadcastInDim S32768x4 ![] bcast_S_S32768x4),
    StableHlo.TRef.binary main_call452.v1 (.of main_v5132 : StableHlo.TRef sig ⟨S32768x4, .f32⟩) main_call452.v2 maximumf,
    StableHlo.TRef.unary (.of main_cst_1578 : StableHlo.TRef sig ⟨S_, .f32⟩) main_call452.v3 id,
    StableHlo.TRef.unary main_call452.v3 main_call452.v4 (broadcastInDim S32768x4 ![] bcast_S_S32768x4),
    StableHlo.TRef.binary main_call452.v4 main_call452.v2 main_call452.v5 minimumf,
    StableHlo.nullary main_cst_1579 (constant S_ .f32 0xC1F00000#32),
    StableHlo.nullary main_cst_1580 (constant S_ .f32 0x41F00000#32),
    StableHlo.TRef.unary (.of main_cst_1579 : StableHlo.TRef sig ⟨S_, .f32⟩) main_call453.v0 id,
    StableHlo.TRef.unary main_call453.v0 main_call453.v1 (broadcastInDim S32768x4 ![] bcast_S_S32768x4),
    StableHlo.TRef.binary main_call453.v1 (.of main_v5133 : StableHlo.TRef sig ⟨S32768x4, .f32⟩) main_call453.v2 maximumf,
    StableHlo.TRef.unary (.of main_cst_1580 : StableHlo.TRef sig ⟨S_, .f32⟩) main_call453.v3 id,
    StableHlo.TRef.unary main_call453.v3 main_call453.v4 (broadcastInDim S32768x4 ![] bcast_S_S32768x4),
    StableHlo.TRef.binary main_call453.v4 main_call453.v2 main_call453.v5 minimumf,
    StableHlo.unary main_v5134 main_v5136 (Host.sign : (⟨S32768x4, .f32⟩ : BufTy).Contents (Elt F) → (⟨S32768x4, .f32⟩ : BufTy).Contents (Elt F)) ]

set_option maxRecDepth 8192 in
/-- The window is that straight line: each clip function unfolded at its calls, the sequencing reassociated. -/
theorem part_eq_111 (d : Dev nD) : main_part111 (F := F) d = seq ops111 := by
  simp only [main_part111, fn_clip_2.body, fn_clip_3.body, fn_clip_4.body, seq, bind_assoc, pure_bind]
  rfl

/-- Every operation of the window touches TensorCore references only. -/
theorem sub_111 : (ops111 : List (HloOp τ sig (Elt F))).Forall fun op => op.bufs ⊆ tcRefs τ sig :=
  ⟨binary_bufs_sub .., binary_bufs_sub .., unary_bufs_sub .., binary_bufs_sub .., binary_bufs_sub .., binary_bufs_sub ..,
    unary_bufs_sub .., binary_bufs_sub .., binary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..⟩

/-- Every operation of the window determines all it writes. -/
theorem fresh_111 : (ops111 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_111 (V : Valuation τ sig (Elt F)) :
    after ops111 V (main_arg0 : DevRef τ sig) = V (main_arg0 : DevRef τ sig) := by
  simp only [after_cons, after_nil]
  rfl

end Cert.ReferenceIdeal.RefRun

end
-- ==== Proof.RefRun.W14.lean ====
import proofs.«134088_j24077586662034_2_alg».proof.Defs
import proofs.«134088_j24077586662034_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 6721 … 6780, in order (80 of them): a statement's own operation, or, for a call
    of a clip function, the six operations of its body over that call's buffers. -/
abbrev ops112 : List (HloOp τ sig (Elt F)) :=
  [ StableHlo.unary main_v5135 main_v5137 (Host.sign : (⟨S32768x4, .f32⟩ : BufTy).Contents (Elt F) → (⟨S32768x4, .f32⟩ : BufTy).Contents (Elt F)),
    StableHlo.binary main_v5136 main_v5137 main_v5138 (mulf : (⟨S32768x4, .f32⟩ : BufTy).Contents (Elt F) → (⟨S32768x4, .f32⟩ : BufTy).Contents (Elt F) → (⟨S32768x4, .f32⟩ : BufTy).Contents (Elt F)),
    StableHlo.unary main_v5134 main_v5139 (Host.absf : (⟨S32768x4, .f32⟩ : BufTy).Contents (Elt F) → (⟨S32768x4, .f32⟩ : BufTy).Contents (Elt F)),
    StableHlo.unary main_v5135 main_v5140 (Host.absf : (⟨S32768x4, .f32⟩ : BufTy).Contents (Elt F) → (⟨S32768x4, .f32⟩ : BufTy).Contents (Elt F)),
    StableHlo.binary main_v5139 main_v5140 main_v5141 (minimumf : (⟨S32768x4, .f32⟩ : BufTy).Contents (Elt F) → (⟨S32768x4, .f32⟩ : BufTy).Contents (Elt F) → (⟨S32768x4, .f32⟩ : BufTy).Contents (Elt F)),
    StableHlo.binary main_v5138 main_v5141 main_v5142 (mulf : (⟨S32768x4, .f32⟩ : BufTy).Contents (Elt F) → (⟨S32768x4, .f32⟩ : BufTy).Contents (Elt F) → (⟨S32768x4, .f32⟩ : BufTy).Contents (Elt F)),
    StableHlo.unary main_v5142 main_v5143 ((extractStridedSlice S32768x2 ![0, 0] · slices_S32768x4_S32768x2_0_0) : (⟨S32768x4, .f32⟩ : BufTy).Contents (Elt F) → (⟨S32768x2, .f32⟩ : BufTy).Contents (Elt F)),
    StableHlo.unary main_v5142 main_v5144 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1581 (constant S_ .f32 0xC1F00000#32),
    StableHlo.nullary main_cst_1582 (constant S_ .f32 0x41F00000#32),
    StableHlo.TRef.unary (.of main_cst_1581 : StableHlo.TRef sig ⟨S_, .f32⟩) main_call454.v0 id,
    StableHlo.TRef.unary main_call454.v0 main_call454.v1 (broadcastInDim S32768x2 ![] bcast_S_S32768x2),
    StableHlo.TRef.binary main_call454.v1 (.of main_v5143 : StableHlo.TRef sig ⟨S32768x2, .f32⟩) main_call454.v2 maximumf,
    StableHlo.TRef.unary (.of main_cst_1582 : StableHlo.TRef sig ⟨S_, .f32⟩) main_call454.v3 id,
    StableHlo.TRef.unary main_call454.v3 main_call454.v4 (broadcastInDim S32768x2 ![] bcast_S_S32768x2),
    StableHlo.TRef.binary main_call454.v4 main_call454.v2 main_call454.v5 minimumf,
    StableHlo.nullary main_cst_1583 (constant S_ .f32 0xC1F00000#32),
    StableHlo.nullary main_cst_1584 (constant S_ .f32 0x41F00000#32),
    StableHlo.TRef.unary (.of main_cst_1583 : StableHlo.TRef sig ⟨S_, .f32⟩) main_call455.v0 id,
    StableHlo.TRef.unary main_call455.v0 main_call455.v1 (broadcastInDim S32768x2 ![] bcast_S_S32768x2),
    StableHlo.TRef.binary main_call455.v1 (.of main_v5144 : StableHlo.TRef sig ⟨S32768x2, .f32⟩) main_call455.v2 maximumf,
    StableHlo.TRef.unary (.of main_cst_1584 : StableHlo.TRef sig ⟨S_, .f32⟩) main_call455.v3 id,
    StableHlo.TRef.unary main_call455.v3 main_call455.v4 (broadcastInDim S32768x2 ![] bcast_S_S32768x2),
    StableHlo.TRef.binary main_call455.v4 main_call455.v2 main_call455.v5 minimumf,
    StableHlo.unary main_v5145 main_v5147 (Host.sign : (⟨S32768x2, .f32⟩ : BufTy).Contents (Elt F) → (⟨S32768x2, .f32⟩ : BufTy).Contents (Elt F)),
    StableHlo.unary main_v5146 main_v5148 (Host.sign : (⟨S32768x2, .f32⟩ : BufTy).Contents (Elt F) → (⟨S32768x2, .f32⟩ : BufTy).Contents (Elt F)),
    StableHlo.binary main_v5147 main_v5148 main_v5149 (mulf : (⟨S32768x2, .f32⟩ : BufTy).Contents (Elt F) → (⟨S32768x2, .f32⟩ : BufTy).Contents (Elt F) → (⟨S32768x2, .f32⟩ : BufTy).Contents (Elt F)),
    StableHlo.unary main_v5145 main_v5150 (Host.absf : (⟨S32768x2, .f32⟩ : BufTy).Contents (Elt F) → (⟨S32768x2, .f32⟩ : BufTy).Contents (Elt F)),
    StableHlo.unary main_v5146 main_v5151 (Host.absf : (⟨S32768x2, .f32⟩ : BufTy).Contents (Elt F) → (⟨S32768x2, .f32⟩ : BufTy).Contents (Elt F)),
    StableHlo.binary main_v5150 main_v5151 main_v5152 (minimumf : (⟨S32768x2, .f32⟩ : BufTy).Contents (Elt F) → (⟨S32768x2, .f32⟩ : BufTy).Contents (Elt F) → (⟨S32768x2, .f32⟩ : BufTy).Contents (Elt F)),
    StableHlo.binary main_v5149 main_v5152 main_v5153 (mulf : (⟨S32768x2, .f32⟩ : BufTy).Contents (Elt F) → (⟨S32768x2, .f32⟩ : BufTy).Contents (Elt F) → (⟨S32768x2, .f32⟩ : BufTy).Contents (Elt F)),
    StableHlo.unary main_v5153 main_v5154 ((extractStridedSlice S32768x1 ![0, 0] · slices_S32768x2_S32768x1_0_0) : (⟨S32768x2, .f32⟩ : BufTy).Contents (Elt F) → (⟨S32768x1, .f32⟩ : BufTy).Contents (Elt F)),
    StableHlo.unary main_v5153 main_v5155 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1585 (constant S_ .f32 0xC1F00000#32),
    StableHlo.nullary main_cst_1586 (constant S_ .f32 0x41F00000#32),
    StableHlo.TRef.unary (.of main_cst_1585 : StableHlo.TRef sig ⟨S_, .f32⟩) main_call456.v0 id,
    StableHlo.TRef.unary main_call456.v0 main_call456.v1 (broadcastInDim S32768x1 ![] bcast_S_S32768x1),
    StableHlo.TRef.binary main_call456.v1 (.of main_v5154 : StableHlo.TRef sig ⟨S32768x1, .f32⟩) main_call456.v2 maximumf,
    StableHlo.TRef.unary (.of main_cst_1586 : StableHlo.TRef sig ⟨S_, .f32⟩) main_call456.v3 id,
    StableHlo.TRef.unary main_call456.v3 main_call456.v4 (broadcastInDim S32768x1 ![] bcast_S_S32768x1),
    StableHlo.TRef.binary main_call456.v4 main_call456.v2 main_call456.v5 minimumf,
    StableHlo.nullary main_cst_1587 (constant S_ .f32 0xC1F00000#32),
    StableHlo.nullary main_cst_1588 (constant S_ .f32 0x41F00000#32),
    StableHlo.TRef.unary (.of main_cst_1587 : StableHlo.TRef sig ⟨S_, .f32⟩) main_call457.v0 id,
    StableHlo.TRef.unary main_call457.v0 main_call457.v1 (broadcastInDim S32768x1 ![] bcast_S_S32768x1),
    StableHlo.TRef.binary main_call457.v1 (.of main_v5155 : StableHlo.TRef sig ⟨S32768x1, .f32⟩) main_call457.v2 maximumf,
    StableHlo.TRef.unary (.of main_cst_1588 : StableHlo.TRef sig ⟨S_, .f32⟩) main_call457.v3 id,
    StableHlo.TRef.unary main_call457.v3 main_call457.v4 (broadcastInDim S32768x1 ![] bcast_S_S32768x1),
    StableHlo.TRef.binary main_call457.v4 main_call457.v2 main_call457.v5 minimumf,
    StableHlo.unary main_v5156 main_v5158 (Host.sign : (⟨S32768x1, .f32⟩ : BufTy).Contents (Elt F) → (⟨S32768x1, .f32⟩ : BufTy).Contents (Elt F)),
    StableHlo.unary main_v5157 main_v5159 (Host.sign : (⟨S32768x1, .f32⟩ : BufTy).Contents (Elt F) → (⟨S32768x1, .f32⟩ : BufTy).Contents (Elt F)),
    StableHlo.binary main_v5158 main_v5159 main_v5160 (mulf : (⟨S32768x1, .f32⟩ : BufTy).Contents (Elt F) → (⟨S32768x1, .f32⟩ : BufTy).Contents (Elt F) → (⟨S32768x1, .f32⟩ : BufTy).Contents (Elt F)),
    StableHlo.unary main_v5156 main_v5161 (Host.absf : (⟨S32768x1, .f32⟩ : BufTy).Contents (Elt F) → (⟨S32768x1, .f32⟩ : BufTy).Contents (Elt F)),
    StableHlo.unary main_v5157 main_v5162 (Host.absf : (⟨S32768x1, .f32⟩ : BufTy).Contents (Elt F) → (⟨S32768x1, .f32⟩ : BufTy).Contents (Elt F)),
    StableHlo.binary main_v5161 main_v5162 main_v5163 (minimumf : (⟨S32768x1, .f32⟩ : BufTy).Contents (Elt F) → (⟨S32768x1, .f32⟩ : BufTy).Contents (Elt F) → (⟨S32768x1, .f32⟩ : BufTy).Contents (Elt F)),
    StableHlo.binary main_v5160 main_v5163 main_v5164 (mulf : (⟨S32768x1, .f32⟩ : BufTy).Contents (Elt F) → (⟨S32768x1, .f32⟩ : BufTy).Contents (Elt F) → (⟨S32768x1, .f32⟩ : BufTy).Contents (Elt F)),
    StableHlo.nullary main_cst_1589 (constant S_ .f32 0x00000000#32),
    StableHlo.unary main_cst_1589 main_v5165 (broadcastInDim S32768x1 ![] bcast_S_S32768x1 : (⟨S_, .f32⟩ : BufTy).Contents (Elt F) → (⟨S32768x1, .f32⟩ : BufTy).Contents (Elt F)),
    StableHlo.binary main_v5164 main_v5165 main_v5166 (cmpf .ole : (⟨S32768x1, .f32⟩ : BufTy).Contents (Elt F) → (⟨S32768x1, .f32⟩ : BufTy).Contents (Elt F) → (⟨S32768x1, .i1⟩ : BufTy).Contents (Elt F)),
    StableHlo.unary main_v5166 main_v5167 (uitofp .f32 : (⟨S32768x1, .i1⟩ : BufTy).Contents (Elt F) → (⟨S32768x1, .f32⟩ : BufTy).Contents (Elt F)),
    StableHlo.nullary main_cst_1590 (constant S_ .f32 0x40000000#32),
    StableHlo.unary main_cst_1590 main_v5168 (broadcastInDim S32768x1 ![] bcast_S_S32768x1 : (⟨S_, .f32⟩ : BufTy).Contents (Elt F) → (⟨S32768x1, .f32⟩ : BufTy).Contents (Elt F)),
    StableHlo.binary main_v5168 main_v5167 main_v5169 (mulf : (⟨S32768x1, .f32⟩ : BufTy).Contents (Elt F) → (⟨S32768x1, .f32⟩ : BufTy).Contents (Elt F) → (⟨S32768x1, .f32⟩ : BufTy).Contents (Elt F)),
    StableHlo.nullary main_cst_1591 (constant S_ .f32 0x3F800000#32),
    StableHlo.unary main_cst_1591 main_v5170 (broadcastInDim S32768x1 ![] bcast_S_S32768x1 : (⟨S_, .f32⟩ : BufTy).Contents (Elt F) → (⟨S32768x1, .f32⟩ : BufTy).Contents (Elt F)),
    StableHlo.binary main_v5170 main_v5169 main_v5171 (subf : (⟨S32768x1, .f32⟩ : BufTy).Contents (Elt F) → (⟨S32768x1, .f32⟩ : BufTy).Contents (Elt F) → (⟨S32768x1, .f32⟩ : BufTy).Contents (Elt F)),
    StableHlo.binary main_v5171 main_v5154 main_v5172 (mulf : (⟨S32768x1, .f32⟩ : BufTy).Contents (Elt F) → (⟨S32768x1, .f32⟩ : BufTy).Contents (Elt F) → (⟨S32768x1, .f32⟩ : BufTy).Contents (Elt F)),
    StableHlo.binary main_v5172 main_v5155 main_v5173 (addf : (⟨S32768x1, .f32⟩ : BufTy).Contents (Elt F) → (⟨S32768x1, .f32⟩ : BufTy).Contents (Elt F) → (⟨S32768x1, .f32⟩ : BufTy).Contents (Elt F)),
    StableHlo.nullary main_cst_1592 (constant S_ .f32 0x00000000#32),
    StableHlo.unary main_cst_1592 main_v5174 (broadcastInDim S32768x1 ![] bcast_S_S32768x1 : (⟨S_, .f32⟩ : BufTy).Contents (Elt F) → (⟨S32768x1, .f32⟩ : BufTy).Contents (Elt F)),
    StableHlo.binary main_v5173 main_v5174 main_v5175 (cmpf .ole : (⟨S32768x1, .f32⟩ : BufTy).Contents (Elt F) → (⟨S32768x1, .f32⟩ : BufTy).Contents (Elt F) → (⟨S32768x1, .i1⟩ : BufTy).Contents (Elt F)),
    StableHlo.unary main_v5175 main_v5176 (uitofp .f32 : (⟨S32768x1, .i1⟩ : BufTy).Contents (Elt F) → (⟨S32768x1, .f32⟩ : BufTy).Contents (Elt F)),
    StableHlo.binary main_v5167 main_v5176 main_v5177 (cmpf .une : (⟨S32768x1, .f32⟩ : BufTy).Contents (Elt F) → (⟨S32768x1, .f32⟩ : BufTy).Contents (Elt F) → (⟨S32768x1, .i1⟩ : BufTy).Contents (Elt F)),
    StableHlo.unary main_v5177 main_v5178 (uitofp .f32 : (⟨S32768x1, .i1⟩ : BufTy).Contents (Elt F) → (⟨S32768x1, .f32⟩ : BufTy).Contents (Elt F)),
    StableHlo.binary main_v5178 main_v5176 main_v5179 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5167 main_v5176 main_v5180 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1593 (constant S_ .f32 0x40000000#32),
    StableHlo.unary main_cst_1593 main_v5181 (broadcastInDim S32768x2 ![] bcast_S_S32768x2 : (⟨S_, .f32⟩ : BufTy).Contents (Elt F) → (⟨S32768x2, .f32⟩ : BufTy).Contents (Elt F)),
    StableHlo.binary main_v5181 main_v5179 main_v5182 (mulf : (⟨S32768x2, .f32⟩ : BufTy).Contents (Elt F) → (⟨S32768x2, .f32⟩ : BufTy).Contents (Elt F) → (⟨S32768x2, .f32⟩ : BufTy).Contents (Elt F)),
    StableHlo.nullary main_cst_1594 (constant S_ .f32 0x3F800000#32) ]

set_option maxRecDepth 8192 in
/-- The window is that straight line: each clip function unfolded at its calls, the sequencing reassociated. -/
theorem part_eq_112 (d : Dev nD) : main_part112 (F := F) d = seq ops112 := by
  simp only [main_part112, fn_clip_5.body, fn_clip_6.body, seq, bind_assoc, pure_bind]
  rfl

/-- Every operation of the window touches TensorCore references only. -/
theorem sub_112 : (ops112 : List (HloOp τ sig (Elt F))).Forall fun op => op.bufs ⊆ tcRefs τ sig :=
  ⟨unary_bufs_sub .., binary_bufs_sub .., unary_bufs_sub .., unary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., unary_bufs_sub .., binary_bufs_sub .., binary_bufs_sub .., nullary_bufs_sub .., unary_bufs_sub ..,
    binary_bufs_sub .., nullary_bufs_sub ..⟩

/-- Every operation of the window determines all it writes. -/
theorem fresh_112 : (ops112 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_112 (V : Valuation τ sig (Elt F)) :
    after ops112 V (main_arg0 : DevRef τ sig) = V (main_arg0 : DevRef τ sig) := by
  simp only [after_cons, after_nil]
  rfl

/-- The operations of @main's statements 6781 … 6840, in order (80 of them): a statement's own operation, or, for a call
    of a clip function, the six operations of its body over that call's buffers. -/
abbrev ops113 : List (HloOp τ sig (Elt F)) :=
  [ StableHlo.unary main_cst_1594 main_v5183 (broadcastInDim S32768x2 ![] bcast_S_S32768x2 : (⟨S_, .f32⟩ : BufTy).Contents (Elt F) → (⟨S32768x2, .f32⟩ : BufTy).Contents (Elt F)),
    StableHlo.binary main_v5183 main_v5182 main_v5184 (subf : (⟨S32768x2, .f32⟩ : BufTy).Contents (Elt F) → (⟨S32768x2, .f32⟩ : BufTy).Contents (Elt F) → (⟨S32768x2, .f32⟩ : BufTy).Contents (Elt F)),
    StableHlo.binary main_v5184 main_v5143 main_v5185 (mulf : (⟨S32768x2, .f32⟩ : BufTy).Contents (Elt F) → (⟨S32768x2, .f32⟩ : BufTy).Contents (Elt F) → (⟨S32768x2, .f32⟩ : BufTy).Contents (Elt F)),
    StableHlo.binary main_v5185 main_v5144 main_v5186 (addf : (⟨S32768x2, .f32⟩ : BufTy).Contents (Elt F) → (⟨S32768x2, .f32⟩ : BufTy).Contents (Elt F) → (⟨S32768x2, .f32⟩ : BufTy).Contents (Elt F)),
    StableHlo.unary main_v5186 main_v5187 ((extractStridedSlice S32768x1 ![0, 0] · slices_S32768x2_S32768x1_0_0) : (⟨S32768x2, .f32⟩ : BufTy).Contents (Elt F) → (⟨S32768x1, .f32⟩ : BufTy).Contents (Elt F)),
    StableHlo.unary main_v5186 main_v5188 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1595 (constant S_ .f32 0xC1F00000#32),
    StableHlo.nullary main_cst_1596 (constant S_ .f32 0x41F00000#32),
    StableHlo.TRef.unary (.of main_cst_1595 : StableHlo.TRef sig ⟨S_, .f32⟩) main_call458.v0 id,
    StableHlo.TRef.unary main_call458.v0 main_call458.v1 (broadcastInDim S32768x1 ![] bcast_S_S32768x1),
    StableHlo.TRef.binary main_call458.v1 (.of main_v5187 : StableHlo.TRef sig ⟨S32768x1, .f32⟩) main_call458.v2 maximumf,
    StableHlo.TRef.unary (.of main_cst_1596 : StableHlo.TRef sig ⟨S_, .f32⟩) main_call458.v3 id,
    StableHlo.TRef.unary main_call458.v3 main_call458.v4 (broadcastInDim S32768x1 ![] bcast_S_S32768x1),
    StableHlo.TRef.binary main_call458.v4 main_call458.v2 main_call458.v5 minimumf,
    StableHlo.nullary main_cst_1597 (constant S_ .f32 0xC1F00000#32),
    StableHlo.nullary main_cst_1598 (constant S_ .f32 0x41F00000#32),
    StableHlo.TRef.unary (.of main_cst_1597 : StableHlo.TRef sig ⟨S_, .f32⟩) main_call459.v0 id,
    StableHlo.TRef.unary main_call459.v0 main_call459.v1 (broadcastInDim S32768x1 ![] bcast_S_S32768x1),
    StableHlo.TRef.binary main_call459.v1 (.of main_v5188 : StableHlo.TRef sig ⟨S32768x1, .f32⟩) main_call459.v2 maximumf,
    StableHlo.TRef.unary (.of main_cst_1598 : StableHlo.TRef sig ⟨S_, .f32⟩) main_call459.v3 id,
    StableHlo.TRef.unary main_call459.v3 main_call459.v4 (broadcastInDim S32768x1 ![] bcast_S_S32768x1),
    StableHlo.TRef.binary main_call459.v4 main_call459.v2 main_call459.v5 minimumf,
    StableHlo.unary main_v5189 main_v5191 (Host.sign : (⟨S32768x1, .f32⟩ : BufTy).Contents (Elt F) → (⟨S32768x1, .f32⟩ : BufTy).Contents (Elt F)),
    StableHlo.unary main_v5190 main_v5192 (Host.sign : (⟨S32768x1, .f32⟩ : BufTy).Contents (Elt F) → (⟨S32768x1, .f32⟩ : BufTy).Contents (Elt F)),
    StableHlo.binary main_v5191 main_v5192 main_v5193 (mulf : (⟨S32768x1, .f32⟩ : BufTy).Contents (Elt F) → (⟨S32768x1, .f32⟩ : BufTy).Contents (Elt F) → (⟨S32768x1, .f32⟩ : BufTy).Contents (Elt F)),
    StableHlo.unary main_v5189 main_v5194 (Host.absf : (⟨S32768x1, .f32⟩ : BufTy).Contents (Elt F) → (⟨S32768x1, .f32⟩ : BufTy).Contents (Elt F)),
    StableHlo.unary main_v5190 main_v5195 (Host.absf : (⟨S32768x1, .f32⟩ : BufTy).Contents (Elt F) → (⟨S32768x1, .f32⟩ : BufTy).Contents (Elt F)),
    StableHlo.binary main_v5194 main_v5195 main_v5196 (minimumf : (⟨S32768x1, .f32⟩ : BufTy).Contents (Elt F) → (⟨S32768x1, .f32⟩ : BufTy).Contents (Elt F) → (⟨S32768x1, .f32⟩ : BufTy).Contents (Elt F)),
    StableHlo.binary main_v5193 main_v5196 main_v5197 (mulf : (⟨S32768x1, .f32⟩ : BufTy).Contents (Elt F) → (⟨S32768x1, .f32⟩ : BufTy).Contents (Elt F) → (⟨S32768x1, .f32⟩ : BufTy).Contents (Elt F)),
    StableHlo.nullary main_cst_1599 (constant S_ .f32 0x00000000#32),
    StableHlo.unary main_cst_1599 main_v5198 (broadcastInDim S32768x1 ![] bcast_S_S32768x1 : (⟨S_, .f32⟩ : BufTy).Contents (Elt F) → (⟨S32768x1, .f32⟩ : BufTy).Contents (Elt F)),
    StableHlo.binary main_v5197 main_v5198 main_v5199 (cmpf .ole : (⟨S32768x1, .f32⟩ : BufTy).Contents (Elt F) → (⟨S32768x1, .f32⟩ : BufTy).Contents (Elt F) → (⟨S32768x1, .i1⟩ : BufTy).Contents (Elt F)),
    StableHlo.unary main_v5199 main_v5200 (uitofp .f32 : (⟨S32768x1, .i1⟩ : BufTy).Contents (Elt F) → (⟨S32768x1, .f32⟩ : BufTy).Contents (Elt F)),
    StableHlo.nullary main_cst_1600 (constant S_ .f32 0x40000000#32),
    StableHlo.unary main_cst_1600 main_v5201 (broadcastInDim S32768x1 ![] bcast_S_S32768x1 : (⟨S_, .f32⟩ : BufTy).Contents (Elt F) → (⟨S32768x1, .f32⟩ : BufTy).Contents (Elt F)),
    StableHlo.binary main_v5201 main_v5200 main_v5202 (mulf : (⟨S32768x1, .f32⟩ : BufTy).Contents (Elt F) → (⟨S32768x1, .f32⟩ : BufTy).Contents (Elt F) → (⟨S32768x1, .f32⟩ : BufTy).Contents (Elt F)),
    StableHlo.nullary main_cst_1601 (constant S_ .f32 0x3F800000#32),
    StableHlo.unary main_cst_1601 main_v5203 (broadcastInDim S32768x1 ![] bcast_S_S32768x1 : (⟨S_, .f32⟩ : BufTy).Contents (Elt F) → (⟨S32768x1, .f32⟩ : BufTy).Contents (Elt F)),
    StableHlo.binary main_v5203 main_v5202 main_v5204 (subf : (⟨S32768x1, .f32⟩ : BufTy).Contents (Elt F) → (⟨S32768x1, .f32⟩ : BufTy).Contents (Elt F) → (⟨S32768x1, .f32⟩ : BufTy).Contents (Elt F)),
    StableHlo.binary main_v5204 main_v5187 main_v5205 (mulf : (⟨S32768x1, .f32⟩ : BufTy).Contents (Elt F) → (⟨S32768x1, .f32⟩ : BufTy).Contents (Elt F) → (⟨S32768x1, .f32⟩ : BufTy).Contents (Elt F)),
    StableHlo.binary main_v5205 main_v5188 main_v5206 (addf : (⟨S32768x1, .f32⟩ : BufTy).Contents (Elt F) → (⟨S32768x1, .f32⟩ : BufTy).Contents (Elt F) → (⟨S32768x1, .f32⟩ : BufTy).Contents (Elt F)),
    StableHlo.nullary main_cst_1602 (constant S_ .f32 0x00000000#32),
    StableHlo.unary main_cst_1602 main_v5207 (broadcastInDim S32768x1 ![] bcast_S_S32768x1 : (⟨S_, .f32⟩ : BufTy).Contents (Elt F) → (⟨S32768x1, .f32⟩ : BufTy).Contents (Elt F)),
    StableHlo.binary main_v5206 main_v5207 main_v5208 (cmpf .ole : (⟨S32768x1, .f32⟩ : BufTy).Contents (Elt F) → (⟨S32768x1, .f32⟩ : BufTy).Contents (Elt F) → (⟨S32768x1, .i1⟩ : BufTy).Contents (Elt F)),
    StableHlo.unary main_v5208 main_v5209 (uitofp .f32 : (⟨S32768x1, .i1⟩ : BufTy).Contents (Elt F) → (⟨S32768x1, .f32⟩ : BufTy).Contents (Elt F)),
    StableHlo.binary main_v5200 main_v5209 main_v5210 (cmpf .une : (⟨S32768x1, .f32⟩ : BufTy).Contents (Elt F) → (⟨S32768x1, .f32⟩ : BufTy).Contents (Elt F) → (⟨S32768x1, .i1⟩ : BufTy).Contents (Elt F)),
    StableHlo.unary main_v5210 main_v5211 (uitofp .f32 : (⟨S32768x1, .i1⟩ : BufTy).Contents (Elt F) → (⟨S32768x1, .f32⟩ : BufTy).Contents (Elt F)),
    StableHlo.binary main_v5211 main_v5209 main_v5212 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5200 main_v5209 main_v5213 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5179 main_v5212 main_v5214 (cmpf .une : (⟨S32768x2, .f32⟩ : BufTy).Contents (Elt F) → (⟨S32768x2, .f32⟩ : BufTy).Contents (Elt F) → (⟨S32768x2, .i1⟩ : BufTy).Contents (Elt F)),
    StableHlo.unary main_v5214 main_v5215 (uitofp .f32 : (⟨S32768x2, .i1⟩ : BufTy).Contents (Elt F) → (⟨S32768x2, .f32⟩ : BufTy).Contents (Elt F)),
    StableHlo.binary main_v5215 main_v5212 main_v5216 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v5180 main_v5213 main_v5217 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_1603 (constant S_ .f32 0x40000000#32),
    StableHlo.unary main_cst_1603 main_v5218 (broadcastInDim S32768x4 ![] bcast_S_S32768x4 : (⟨S_, .f32⟩ : BufTy).Contents (Elt F) → (⟨S32768x4, .f32⟩ : BufTy).Contents (Elt F)),
    StableHlo.binary main_v5218 main_v5216 main_v5219 (mulf : (⟨S32768x4, .f32⟩ : BufTy).Contents (Elt F) → (⟨S32768x4, .f32⟩ : BufTy).Contents (Elt F) → (⟨S32768x4, .f32⟩ : BufTy).Contents (Elt F)),
    StableHlo.nullary main_cst_1604 (constant S_ .f32 0x3F800000#32),
    StableHlo.unary main_cst_1604 main_v5220 (broadcastInDim S32768x4 ![] bcast_S_S32768x4 : (⟨S_, .f32⟩ : BufTy).Contents (Elt F) → (⟨S32768x4, .f32⟩ : BufTy).Contents (Elt F)),
    StableHlo.binary main_v5220 main_v5219 main_v5221 (subf : (⟨S32768x4, .f32⟩ : BufTy).Contents (Elt F) → (⟨S32768x4, .f32⟩ : BufTy).Contents (Elt F) → (⟨S32768x4, .f32⟩ : BufTy).Contents (Elt F)),
    StableHlo.binary main_v5221 main_v5132 main_v5222 (mulf : (⟨S32768x4, .f32⟩ : BufTy).Contents (Elt F) → (⟨S32768x4, .f32⟩ : BufTy).Contents (Elt F) → (⟨S32768x4, .f32⟩ : BufTy).Contents (Elt F)),
    StableHlo.binary main_v5222 main_v5133 main_v5223 (addf : (⟨S32768x4, .f32⟩ : BufTy).Contents (Elt F) → (⟨S32768x4, .f32⟩ : BufTy).Contents (Elt F) → (⟨S32768x4, .f32⟩ : BufTy).Contents (Elt F)),
    StableHlo.unary main_v5223 main_v5224 ((extractStridedSlice S32768x2 ![0, 0] · slices_S32768x4_S32768x2_0_0) : (⟨S32768x4, .f32⟩ : BufTy).Contents (Elt F) → (⟨S32768x2, .f32⟩ : BufTy).Contents (Elt F)),
    StableHlo.unary main_v5223 main_v5225 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1605 (constant S_ .f32 0xC1F00000#32),
    StableHlo.nullary main_cst_1606 (constant S_ .f32 0x41F00000#32),
    StableHlo.TRef.unary (.of main_cst_1605 : StableHlo.TRef sig ⟨S_, .f32⟩) main_call460.v0 id,
    StableHlo.TRef.unary main_call460.v0 main_call460.v1 (broadcastInDim S32768x2 ![] bcast_S_S32768x2),
    StableHlo.TRef.binary main_call460.v1 (.of main_v5224 : StableHlo.TRef sig ⟨S32768x2, .f32⟩) main_call460.v2 maximumf,
    StableHlo.TRef.unary (.of main_cst_1606 : StableHlo.TRef sig ⟨S_, .f32⟩) main_call460.v3 id,
    StableHlo.TRef.unary main_call460.v3 main_call460.v4 (broadcastInDim S32768x2 ![] bcast_S_S32768x2),
    StableHlo.TRef.binary main_call460.v4 main_call460.v2 main_call460.v5 minimumf,
    StableHlo.nullary main_cst_1607 (constant S_ .f32 0xC1F00000#32),
    StableHlo.nullary main_cst_1608 (constant S_ .f32 0x41F00000#32),
    StableHlo.TRef.unary (.of main_cst_1607 : StableHlo.TRef sig ⟨S_, .f32⟩) main_call461.v0 id,
    StableHlo.TRef.unary main_call461.v0 main_call461.v1 (broadcastInDim S32768x2 ![] bcast_S_S32768x2),
    StableHlo.TRef.binary main_call461.v1 (.of main_v5225 : StableHlo.TRef sig ⟨S32768x2, .f32⟩) main_call461.v2 maximumf,
    StableHlo.TRef.unary (.of main_cst_1608 : StableHlo.TRef sig ⟨S_, .f32⟩) main_call461.v3 id,
    StableHlo.TRef.unary main_call461.v3 main_call461.v4 (broadcastInDim S32768x2 ![] bcast_S_S32768x2),
    StableHlo.TRef.binary main_call461.v4 main_call461.v2 main_call461.v5 minimumf,
    StableHlo.unary main_v5226 main_v5228 (Host.sign : (⟨S32768x2, .f32⟩ : BufTy).Contents (Elt F) → (⟨S32768x2, .f32⟩ : BufTy).Contents (Elt F)) ]

set_option maxRecDepth 8192 in
/-- The window is that straight line: each clip function unfolded at its calls, the sequencing reassociated. -/
theorem part_eq_113 (d : Dev nD) : main_part113 (F := F) d = seq ops113 := by
  simp only [main_part113, fn_clip_6.body, fn_clip_5.body, seq, bind_assoc, pure_bind]
  rfl

/-- Every operation of the window touches TensorCore references only. -/
theorem sub_113 : (ops113 : List (HloOp τ sig (Elt F))).Forall fun op => op.bufs ⊆ tcRefs τ sig :=
  ⟨unary_bufs_sub .., binary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., unary_bufs_sub .., binary_bufs_sub ..,
    binary_bufs_sub .., binary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub ..⟩

/-- Every operation of the window determines all it writes. -/
theorem fresh_113 : (ops113 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_113 (V : Valuation τ sig (Elt F)) :
    after ops113 V (main_arg0 : DevRef τ sig) = V (main_arg0 : DevRef τ sig) := by
  simp only [after_cons, after_nil]
  rfl

/-- The operations of @main's statements 6841 … 6900, in order (80 of them): a statement's own operation, or, for a call
    of a clip function, the six operations of its body over that call's buffers. -/
abbrev ops114 : List (HloOp τ sig (Elt F)) :=
  [ StableHlo.unary main_v5227 main_v5229 (Host.sign : (⟨S32768x2, .f32⟩ : BufTy).Contents (Elt F) → (⟨S32768x2, .f32⟩ : BufTy).Contents (Elt F)),
    StableHlo.binary main_v5228 main_v5229 main_v5230 (mulf : (⟨S32768x2, .f32⟩ : BufTy).Contents (Elt F) → (⟨S32768x2, .f32⟩ : BufTy).Contents (Elt F) → (⟨S32768x2, .f32⟩ : BufTy).Contents (Elt F)),
    StableHlo.unary main_v5226 main_v5231 (Host.absf : (⟨S32768x2, .f32⟩ : BufTy).Contents (Elt F) → (⟨S32768x2, .f32⟩ : BufTy).Contents (Elt F)),
    StableHlo.unary main_v5227 main_v5232 (Host.absf : (⟨S32768x2, .f32⟩ : BufTy).Contents (Elt F) → (⟨S32768x2, .f32⟩ : BufTy).Contents (Elt F)),
    StableHlo.binary main_v5231 main_v5232 main_v5233 (minimumf : (⟨S32768x2, .f32⟩ : BufTy).Contents (Elt F) → (⟨S32768x2, .f32⟩ : BufTy).Contents (Elt F) → (⟨S32768x2, .f32⟩ : BufTy).Contents (Elt F)),
    StableHlo.binary main_v5230 main_v5233 main_v5234 (mulf : (⟨S32768x2, .f32⟩ : BufTy).Contents (Elt F) → (⟨S32768x2, .f32⟩ : BufTy).Contents (Elt F) → (⟨S32768x2, .f32⟩ : BufTy).Contents (Elt F)),
    StableHlo.unary main_v5234 main_v5235 ((extractStridedSlice S32768x1 ![0, 0] · slices_S32768x2_S32768x1_0_0) : (⟨S32768x2, .f32⟩ : BufTy).Contents (Elt F) → (⟨S32768x1, .f32⟩ : BufTy).Contents (Elt F)),
    StableHlo.unary main_v5234 main_v5236 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1609 (constant S_ .f32 0xC1F00000#32),
    StableHlo.nullary main_cst_1610 (constant S_ .f32 0x41F00000#32),
    StableHlo.TRef.unary (.of main_cst_1609 : StableHlo.TRef sig ⟨S_, .f32⟩) main_call462.v0 id,
    StableHlo.TRef.unary main_call462.v0 main_call462.v1 (broadcastInDim S32768x1 ![] bcast_S_S32768x1),
    StableHlo.TRef.binary main_call462.v1 (.of main_v5235 : StableHlo.TRef sig ⟨S32768x1, .f32⟩) main_call462.v2 maximumf,
    StableHlo.TRef.unary (.of main_cst_1610 : StableHlo.TRef sig ⟨S_, .f32⟩) main_call462.v3 id,
    StableHlo.TRef.unary main_call462.v3 main_call462.v4 (broadcastInDim S32768x1 ![] bcast_S_S32768x1),
    StableHlo.TRef.binary main_call462.v4 main_call462.v2 main_call462.v5 minimumf,
    StableHlo.nullary main_cst_1611 (constant S_ .f32 0xC1F00000#32),
    StableHlo.nullary main_cst_1612 (constant S_ .f32 0x41F00000#32),
    StableHlo.TRef.unary (.of main_cst_1611 : StableHlo.TRef sig ⟨S_, .f32⟩) main_call463.v0 id,
    StableHlo.TRef.unary main_call463.v0 main_call463.v1 (broadcastInDim S32768x1 ![] bcast_S_S32768x1),
    StableHlo.TRef.binary main_call463.v1 (.of main_v5236 : StableHlo.TRef sig ⟨S32768x1, .f32⟩) main_call463.v2 maximumf,
    StableHlo.TRef.unary (.of main_cst_1612 : StableHlo.TRef sig ⟨S_, .f32⟩) main_call463.v3 id,
    StableHlo.TRef.unary main_call463.v3 main_call463.v4 (broadcastInDim S32768x1 ![] bcast_S_S32768x1),
    StableHlo.TRef.binary main_call463.v4 main_call463.v2 main_call463.v5 minimumf,
    StableHlo.unary main_v5237 main_v5239 (Host.sign : (⟨S32768x1, .f32⟩ : BufTy).Contents (Elt F) → (⟨S32768x1, .f32⟩ : BufTy).Contents (Elt F)),
    StableHlo.unary main_v5238 main_v5240 (Host.sign : (⟨S32768x1, .f32⟩ : BufTy).Contents (Elt F) → (⟨S32768x1, .f32⟩ : BufTy).Contents (Elt F)),
    StableHlo.binary main_v5239 main_v5240 main_v5241 (mulf : (⟨S32768x1, .f32⟩ : BufTy).Contents (Elt F) → (⟨S32768x1, .f32⟩ : BufTy).Contents (Elt F) → (⟨S32768x1, .f32⟩ : BufTy).Contents (Elt F)),
    StableHlo.unary main_v5237 main_v5242 (Host.absf : (⟨S32768x1, .f32⟩ : BufTy).Contents (Elt F) → (⟨S32768x1, .f32⟩ : BufTy).Contents (Elt F)),
    StableHlo.unary main_v5238 main_v5243 (Host.absf : (⟨S32768x1, .f32⟩ : BufTy).Contents (Elt F) → (⟨S32768x1, .f32⟩ : BufTy).Contents (Elt F)),
    StableHlo.binary main_v5242 main_v5243 main_v5244 (minimumf : (⟨S32768x1, .f32⟩ : BufTy).Contents (Elt F) → (⟨S32768x1, .f32⟩ : BufTy).Contents (Elt F) → (⟨S32768x1, .f32⟩ : BufTy).Contents (Elt F)),
    StableHlo.binary main_v5241 main_v5244 main_v5245 (mulf : (⟨S32768x1, .f32⟩ : BufTy).Contents (Elt F) → (⟨S32768x1, .f32⟩ : BufTy).Contents (Elt F) → (⟨S32768x1, .f32⟩ : BufTy).Contents (Elt F)),
    StableHlo.nullary main_cst_1613 (constant S_ .f32 0x00000000#32),
    StableHlo.unary main_cst_1613 main_v5246 (broadcastInDim S32768x1 ![] bcast_S_S32768x1 : (⟨S_, .f32⟩ : BufTy).Contents (Elt F) → (⟨S32768x1, .f32⟩ : BufTy).Contents (Elt F)),
    StableHlo.binary main_v5245 main_v5246 main_v5247 (cmpf .ole : (⟨S32768x1, .f32⟩ : BufTy).Contents (Elt F) → (⟨S32768x1, .f32⟩ : BufTy).Contents (Elt F) → (⟨S32768x1, .i1⟩ : BufTy).Contents (Elt F)),
    StableHlo.unary main_v5247 main_v5248 (uitofp .f32 : (⟨S32768x1, .i1⟩ : BufTy).Contents (Elt F) → (⟨S32768x1, .f32⟩ : BufTy).Contents (Elt F)),
    StableHlo.nullary main_cst_1614 (constant S_ .f32 0x40000000#32),
    StableHlo.unary main_cst_1614 main_v5249 (broadcastInDim S32768x1 ![] bcast_S_S32768x1 : (⟨S_, .f32⟩ : BufTy).Contents (Elt F) → (⟨S32768x1, .f32⟩ : BufTy).Contents (Elt F)),
    StableHlo.binary main_v5249 main_v5248 main_v5250 (mulf : (⟨S32768x1, .f32⟩ : BufTy).Contents (Elt F) → (⟨S32768x1, .f32⟩ : BufTy).Contents (Elt F) → (⟨S32768x1, .f32⟩ : BufTy).Contents (Elt F)),
    StableHlo.nullary main_cst_1615 (constant S_ .f32 0x3F800000#32),
    StableHlo.unary main_cst_1615 main_v5251 (broadcastInDim S32768x1 ![] bcast_S_S32768x1 : (⟨S_, .f32⟩ : BufTy).Contents (Elt F) → (⟨S32768x1, .f32⟩ : BufTy).Contents (Elt F)),
    StableHlo.binary main_v5251 main_v5250 main_v5252 (subf : (⟨S32768x1, .f32⟩ : BufTy).Contents (Elt F) → (⟨S32768x1, .f32⟩ : BufTy).Contents (Elt F) → (⟨S32768x1, .f32⟩ : BufTy).Contents (Elt F)),
    StableHlo.binary main_v5252 main_v5235 main_v5253 (mulf : (⟨S32768x1, .f32⟩ : BufTy).Contents (Elt F) → (⟨S32768x1, .f32⟩ : BufTy).Contents (Elt F) → (⟨S32768x1, .f32⟩ : BufTy).Contents (Elt F)),
    StableHlo.binary main_v5253 main_v5236 main_v5254 (addf : (⟨S32768x1, .f32⟩ : BufTy).Contents (Elt F) → (⟨S32768x1, .f32⟩ : BufTy).Contents (Elt F) → (⟨S32768x1, .f32⟩ : BufTy).Contents (Elt F)),
    StableHlo.nullary main_cst_1616 (constant S_ .f32 0x00000000#32),
    StableHlo.unary main_cst_1616 main_v5255 (broadcastInDim S32768x1 ![] bcast_S_S32768x1 : (⟨S_, .f32⟩ : BufTy).Contents (Elt F) → (⟨S32768x1, .f32⟩ : BufTy).Contents (Elt F)),
    StableHlo.binary main_v5254 main_v5255 main_v5256 (cmpf .ole : (⟨S32768x1, .f32⟩ : BufTy).Contents (Elt F) → (⟨S32768x1, .f32⟩ : BufTy).Contents (Elt F) → (⟨S32768x1, .i1⟩ : BufTy).Contents (Elt F)),
    StableHlo.unary main_v5256 main_v5257 (uitofp .f32 : (⟨S32768x1, .i1⟩ : BufTy).Contents (Elt F) → (⟨S32768x1, .f32⟩ : BufTy).Contents (Elt F)),
    StableHlo.binary main_v5248 main_v5257 main_v5258 (cmpf .une : (⟨S32768x1, .f32⟩ : BufTy).Contents (Elt F) → (⟨S32768x1, .f32⟩ : BufTy).Contents (Elt F) → (⟨S32768x1, .i1⟩ : BufTy).Contents (Elt F)),
    StableHlo.unary main_v5258 main_v5259 (uitofp .f32 : (⟨S32768x1, .i1⟩ : BufTy).Contents (Elt F) → (⟨S32768x1, .f32⟩ : BufTy).Contents (Elt F)),
    StableHlo.binary main_v5259 main_v5257 main_v5260 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5248 main_v5257 main_v5261 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1617 (constant S_ .f32 0x40000000#32),
    StableHlo.unary main_cst_1617 main_v5262 (broadcastInDim S32768x2 ![] bcast_S_S32768x2 : (⟨S_, .f32⟩ : BufTy).Contents (Elt F) → (⟨S32768x2, .f32⟩ : BufTy).Contents (Elt F)),
    StableHlo.binary main_v5262 main_v5260 main_v5263 (mulf : (⟨S32768x2, .f32⟩ : BufTy).Contents (Elt F) → (⟨S32768x2, .f32⟩ : BufTy).Contents (Elt F) → (⟨S32768x2, .f32⟩ : BufTy).Contents (Elt F)),
    StableHlo.nullary main_cst_1618 (constant S_ .f32 0x3F800000#32),
    StableHlo.unary main_cst_1618 main_v5264 (broadcastInDim S32768x2 ![] bcast_S_S32768x2 : (⟨S_, .f32⟩ : BufTy).Contents (Elt F) → (⟨S32768x2, .f32⟩ : BufTy).Contents (Elt F)),
    StableHlo.binary main_v5264 main_v5263 main_v5265 (subf : (⟨S32768x2, .f32⟩ : BufTy).Contents (Elt F) → (⟨S32768x2, .f32⟩ : BufTy).Contents (Elt F) → (⟨S32768x2, .f32⟩ : BufTy).Contents (Elt F)),
    StableHlo.binary main_v5265 main_v5224 main_v5266 (mulf : (⟨S32768x2, .f32⟩ : BufTy).Contents (Elt F) → (⟨S32768x2, .f32⟩ : BufTy).Contents (Elt F) → (⟨S32768x2, .f32⟩ : BufTy).Contents (Elt F)),
    StableHlo.binary main_v5266 main_v5225 main_v5267 (addf : (⟨S32768x2, .f32⟩ : BufTy).Contents (Elt F) → (⟨S32768x2, .f32⟩ : BufTy).Contents (Elt F) → (⟨S32768x2, .f32⟩ : BufTy).Contents (Elt F)),
    StableHlo.unary main_v5267 main_v5268 ((extractStridedSlice S32768x1 ![0, 0] · slices_S32768x2_S32768x1_0_0) : (⟨S32768x2, .f32⟩ : BufTy).Contents (Elt F) → (⟨S32768x1, .f32⟩ : BufTy).Contents (Elt F)),
    StableHlo.unary main_v5267 main_v5269 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1619 (constant S_ .f32 0xC1F00000#32),
    StableHlo.nullary main_cst_1620 (constant S_ .f32 0x41F00000#32),
    StableHlo.TRef.unary (.of main_cst_1619 : StableHlo.TRef sig ⟨S_, .f32⟩) main_call464.v0 id,
    StableHlo.TRef.unary main_call464.v0 main_call464.v1 (broadcastInDim S32768x1 ![] bcast_S_S32768x1),
    StableHlo.TRef.binary main_call464.v1 (.of main_v5268 : StableHlo.TRef sig ⟨S32768x1, .f32⟩) main_call464.v2 maximumf,
    StableHlo.TRef.unary (.of main_cst_1620 : StableHlo.TRef sig ⟨S_, .f32⟩) main_call464.v3 id,
    StableHlo.TRef.unary main_call464.v3 main_call464.v4 (broadcastInDim S32768x1 ![] bcast_S_S32768x1),
    StableHlo.TRef.binary main_call464.v4 main_call464.v2 main_call464.v5 minimumf,
    StableHlo.nullary main_cst_1621 (constant S_ .f32 0xC1F00000#32),
    StableHlo.nullary main_cst_1622 (constant S_ .f32 0x41F00000#32),
    StableHlo.TRef.unary (.of main_cst_1621 : StableHlo.TRef sig ⟨S_, .f32⟩) main_call465.v0 id,
    StableHlo.TRef.unary main_call465.v0 main_call465.v1 (broadcastInDim S32768x1 ![] bcast_S_S32768x1),
    StableHlo.TRef.binary main_call465.v1 (.of main_v5269 : StableHlo.TRef sig ⟨S32768x1, .f32⟩) main_call465.v2 maximumf,
    StableHlo.TRef.unary (.of main_cst_1622 : StableHlo.TRef sig ⟨S_, .f32⟩) main_call465.v3 id,
    StableHlo.TRef.unary main_call465.v3 main_call465.v4 (broadcastInDim S32768x1 ![] bcast_S_S32768x1),
    StableHlo.TRef.binary main_call465.v4 main_call465.v2 main_call465.v5 minimumf,
    StableHlo.unary main_v5270 main_v5272 (Host.sign : (⟨S32768x1, .f32⟩ : BufTy).Contents (Elt F) → (⟨S32768x1, .f32⟩ : BufTy).Contents (Elt F)),
    StableHlo.unary main_v5271 main_v5273 (Host.sign : (⟨S32768x1, .f32⟩ : BufTy).Contents (Elt F) → (⟨S32768x1, .f32⟩ : BufTy).Contents (Elt F)),
    StableHlo.binary main_v5272 main_v5273 main_v5274 (mulf : (⟨S32768x1, .f32⟩ : BufTy).Contents (Elt F) → (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_114 (d : Dev nD) : main_part114 (F := F) d = seq ops114 := by
  simp only [main_part114, fn_clip_6.body, seq, bind_assoc, pure_bind]
  rfl

/-- Every operation of the window touches TensorCore references only. -/
theorem sub_114 : (ops114 : List (HloOp τ sig (Elt F))).Forall fun op => op.bufs ⊆ tcRefs τ sig :=
  ⟨unary_bufs_sub .., binary_bufs_sub .., unary_bufs_sub .., unary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub ..⟩

/-- Every operation of the window determines all it writes. -/
theorem fresh_114 : (ops114 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_114 (V : Valuation τ sig (Elt F)) :
    after ops114 V (main_arg0 : DevRef τ sig) = V (main_arg0 : DevRef τ sig) := by
  simp only [after_cons, after_nil]
  rfl

/-- The operations of @main's statements 6901 … 6960, in order (75 of them): a statement's own operation, or, for a call
    of a clip function, the six operations of its body over that call's buffers. -/
abbrev ops115 : List (HloOp τ sig (Elt F)) :=
  [ StableHlo.unary main_v5270 main_v5275 (Host.absf : (⟨S32768x1, .f32⟩ : BufTy).Contents (Elt F) → (⟨S32768x1, .f32⟩ : BufTy).Contents (Elt F)),
    StableHlo.unary main_v5271 main_v5276 (Host.absf : (⟨S32768x1, .f32⟩ : BufTy).Contents (Elt F) → (⟨S32768x1, .f32⟩ : BufTy).Contents (Elt F)),
    StableHlo.binary main_v5275 main_v5276 main_v5277 (minimumf : (⟨S32768x1, .f32⟩ : BufTy).Contents (Elt F) → (⟨S32768x1, .f32⟩ : BufTy).Contents (Elt F) → (⟨S32768x1, .f32⟩ : BufTy).Contents (Elt F)),
    StableHlo.binary main_v5274 main_v5277 main_v5278 (mulf : (⟨S32768x1, .f32⟩ : BufTy).Contents (Elt F) → (⟨S32768x1, .f32⟩ : BufTy).Contents (Elt F) → (⟨S32768x1, .f32⟩ : BufTy).Contents (Elt F)),
    StableHlo.nullary main_cst_1623 (constant S_ .f32 0x00000000#32),
    StableHlo.unary main_cst_1623 main_v5279 (broadcastInDim S32768x1 ![] bcast_S_S32768x1 : (⟨S_, .f32⟩ : BufTy).Contents (Elt F) → (⟨S32768x1, .f32⟩ : BufTy).Contents (Elt F)),
    StableHlo.binary main_v5278 main_v5279 main_v5280 (cmpf .ole : (⟨S32768x1, .f32⟩ : BufTy).Contents (Elt F) → (⟨S32768x1, .f32⟩ : BufTy).Contents (Elt F) → (⟨S32768x1, .i1⟩ : BufTy).Contents (Elt F)),
    StableHlo.unary main_v5280 main_v5281 (uitofp .f32 : (⟨S32768x1, .i1⟩ : BufTy).Contents (Elt F) → (⟨S32768x1, .f32⟩ : BufTy).Contents (Elt F)),
    StableHlo.nullary main_cst_1624 (constant S_ .f32 0x40000000#32),
    StableHlo.unary main_cst_1624 main_v5282 (broadcastInDim S32768x1 ![] bcast_S_S32768x1 : (⟨S_, .f32⟩ : BufTy).Contents (Elt F) → (⟨S32768x1, .f32⟩ : BufTy).Contents (Elt F)),
    StableHlo.binary main_v5282 main_v5281 main_v5283 (mulf : (⟨S32768x1, .f32⟩ : BufTy).Contents (Elt F) → (⟨S32768x1, .f32⟩ : BufTy).Contents (Elt F) → (⟨S32768x1, .f32⟩ : BufTy).Contents (Elt F)),
    StableHlo.nullary main_cst_1625 (constant S_ .f32 0x3F800000#32),
    StableHlo.unary main_cst_1625 main_v5284 (broadcastInDim S32768x1 ![] bcast_S_S32768x1 : (⟨S_, .f32⟩ : BufTy).Contents (Elt F) → (⟨S32768x1, .f32⟩ : BufTy).Contents (Elt F)),
    StableHlo.binary main_v5284 main_v5283 main_v5285 (subf : (⟨S32768x1, .f32⟩ : BufTy).Contents (Elt F) → (⟨S32768x1, .f32⟩ : BufTy).Contents (Elt F) → (⟨S32768x1, .f32⟩ : BufTy).Contents (Elt F)),
    StableHlo.binary main_v5285 main_v5268 main_v5286 (mulf : (⟨S32768x1, .f32⟩ : BufTy).Contents (Elt F) → (⟨S32768x1, .f32⟩ : BufTy).Contents (Elt F) → (⟨S32768x1, .f32⟩ : BufTy).Contents (Elt F)),
    StableHlo.binary main_v5286 main_v5269 main_v5287 (addf : (⟨S32768x1, .f32⟩ : BufTy).Contents (Elt F) → (⟨S32768x1, .f32⟩ : BufTy).Contents (Elt F) → (⟨S32768x1, .f32⟩ : BufTy).Contents (Elt F)),
    StableHlo.nullary main_cst_1626 (constant S_ .f32 0x00000000#32),
    StableHlo.unary main_cst_1626 main_v5288 (broadcastInDim S32768x1 ![] bcast_S_S32768x1 : (⟨S_, .f32⟩ : BufTy).Contents (Elt F) → (⟨S32768x1, .f32⟩ : BufTy).Contents (Elt F)),
    StableHlo.binary main_v5287 main_v5288 main_v5289 (cmpf .ole : (⟨S32768x1, .f32⟩ : BufTy).Contents (Elt F) → (⟨S32768x1, .f32⟩ : BufTy).Contents (Elt F) → (⟨S32768x1, .i1⟩ : BufTy).Contents (Elt F)),
    StableHlo.unary main_v5289 main_v5290 (uitofp .f32 : (⟨S32768x1, .i1⟩ : BufTy).Contents (Elt F) → (⟨S32768x1, .f32⟩ : BufTy).Contents (Elt F)),
    StableHlo.binary main_v5281 main_v5290 main_v5291 (cmpf .une : (⟨S32768x1, .f32⟩ : BufTy).Contents (Elt F) → (⟨S32768x1, .f32⟩ : BufTy).Contents (Elt F) → (⟨S32768x1, .i1⟩ : BufTy).Contents (Elt F)),
    StableHlo.unary main_v5291 main_v5292 (uitofp .f32 : (⟨S32768x1, .i1⟩ : BufTy).Contents (Elt F) → (⟨S32768x1, .f32⟩ : BufTy).Contents (Elt F)),
    StableHlo.binary main_v5292 main_v5290 main_v5293 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5281 main_v5290 main_v5294 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5260 main_v5293 main_v5295 (cmpf .une : (⟨S32768x2, .f32⟩ : BufTy).Contents (Elt F) → (⟨S32768x2, .f32⟩ : BufTy).Contents (Elt F) → (⟨S32768x2, .i1⟩ : BufTy).Contents (Elt F)),
    StableHlo.unary main_v5295 main_v5296 (uitofp .f32 : (⟨S32768x2, .i1⟩ : BufTy).Contents (Elt F) → (⟨S32768x2, .f32⟩ : BufTy).Contents (Elt F)),
    StableHlo.binary main_v5296 main_v5293 main_v5297 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v5261 main_v5294 main_v5298 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v5216 main_v5297 main_v5299 (cmpf .une : (⟨S32768x4, .f32⟩ : BufTy).Contents (Elt F) → (⟨S32768x4, .f32⟩ : BufTy).Contents (Elt F) → (⟨S32768x4, .i1⟩ : BufTy).Contents (Elt F)),
    StableHlo.unary main_v5299 main_v5300 (uitofp .f32 : (⟨S32768x4, .i1⟩ : BufTy).Contents (Elt F) → (⟨S32768x4, .f32⟩ : BufTy).Contents (Elt F)),
    StableHlo.binary main_v5300 main_v5297 main_v5301 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v5217 main_v5298 main_v5302 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.nullary main_cst_1627 (constant S_ .f32 0x40000000#32),
    StableHlo.unary main_cst_1627 main_v5303 (broadcastInDim S32768x8 ![] bcast_S_S32768x8 : (⟨S_, .f32⟩ : BufTy).Contents (Elt F) → (⟨S32768x8, .f32⟩ : BufTy).Contents (Elt F)),
    StableHlo.binary main_v5303 main_v5301 main_v5304 (mulf : (⟨S32768x8, .f32⟩ : BufTy).Contents (Elt F) → (⟨S32768x8, .f32⟩ : BufTy).Contents (Elt F) → (⟨S32768x8, .f32⟩ : BufTy).Contents (Elt F)),
    StableHlo.nullary main_cst_1628 (constant S_ .f32 0x3F800000#32),
    StableHlo.unary main_cst_1628 main_v5305 (broadcastInDim S32768x8 ![] bcast_S_S32768x8 : (⟨S_, .f32⟩ : BufTy).Contents (Elt F) → (⟨S32768x8, .f32⟩ : BufTy).Contents (Elt F)),
    StableHlo.binary main_v5305 main_v5304 main_v5306 (subf : (⟨S32768x8, .f32⟩ : BufTy).Contents (Elt F) → (⟨S32768x8, .f32⟩ : BufTy).Contents (Elt F) → (⟨S32768x8, .f32⟩ : BufTy).Contents (Elt F)),
    StableHlo.binary main_v5306 main_v5121 main_v5307 (mulf : (⟨S32768x8, .f32⟩ : BufTy).Contents (Elt F) → (⟨S32768x8, .f32⟩ : BufTy).Contents (Elt F) → (⟨S32768x8, .f32⟩ : BufTy).Contents (Elt F)),
    StableHlo.binary main_v5307 main_v5122 main_v5308 (addf : (⟨S32768x8, .f32⟩ : BufTy).Contents (Elt F) → (⟨S32768x8, .f32⟩ : BufTy).Contents (Elt F) → (⟨S32768x8, .f32⟩ : BufTy).Contents (Elt F)),
    StableHlo.unary main_v5308 main_v5309 ((extractStridedSlice S32768x4 ![0, 0] · slices_S32768x8_S32768x4_0_0) : (⟨S32768x8, .f32⟩ : BufTy).Contents (Elt F) → (⟨S32768x4, .f32⟩ : BufTy).Contents (Elt F)),
    StableHlo.unary main_v5308 main_v5310 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_1629 (constant S_ .f32 0xC1F00000#32),
    StableHlo.nullary main_cst_1630 (constant S_ .f32 0x41F00000#32),
    StableHlo.TRef.unary (.of main_cst_1629 : StableHlo.TRef sig ⟨S_, .f32⟩) main_call466.v0 id,
    StableHlo.TRef.unary main_call466.v0 main_call466.v1 (broadcastInDim S32768x4 ![] bcast_S_S32768x4),
    StableHlo.TRef.binary main_call466.v1 (.of main_v5309 : StableHlo.TRef sig ⟨S32768x4, .f32⟩) main_call466.v2 maximumf,
    StableHlo.TRef.unary (.of main_cst_1630 : StableHlo.TRef sig ⟨S_, .f32⟩) main_call466.v3 id,
    StableHlo.TRef.unary main_call466.v3 main_call466.v4 (broadcastInDim S32768x4 ![] bcast_S_S32768x4),
    StableHlo.TRef.binary main_call466.v4 main_call466.v2 main_call466.v5 minimumf,
    StableHlo.nullary main_cst_1631 (constant S_ .f32 0xC1F00000#32),
    StableHlo.nullary main_cst_1632 (constant S_ .f32 0x41F00000#32),
    StableHlo.TRef.unary (.of main_cst_1631 : StableHlo.TRef sig ⟨S_, .f32⟩) main_call467.v0 id,
    StableHlo.TRef.unary main_call467.v0 main_call467.v1 (broadcastInDim S32768x4 ![] bcast_S_S32768x4),
    StableHlo.TRef.binary main_call467.v1 (.of main_v5310 : StableHlo.TRef sig ⟨S32768x4, .f32⟩) main_call467.v2 maximumf,
    StableHlo.TRef.unary (.of main_cst_1632 : StableHlo.TRef sig ⟨S_, .f32⟩) main_call467.v3 id,
    StableHlo.TRef.unary main_call467.v3 main_call467.v4 (broadcastInDim S32768x4 ![] bcast_S_S32768x4),
    StableHlo.TRef.binary main_call467.v4 main_call467.v2 main_call467.v5 minimumf,
    StableHlo.unary main_v5311 main_v5313 (Host.sign : (⟨S32768x4, .f32⟩ : BufTy).Contents (Elt F) → (⟨S32768x4, .f32⟩ : BufTy).Contents (Elt F)),
    StableHlo.unary main_v5312 main_v5314 (Host.sign : (⟨S32768x4, .f32⟩ : BufTy).Contents (Elt F) → (⟨S32768x4, .f32⟩ : BufTy).Contents (Elt F)),
    StableHlo.binary main_v5313 main_v5314 main_v5315 (mulf : (⟨S32768x4, .f32⟩ : BufTy).Contents (Elt F) → (⟨S32768x4, .f32⟩ : BufTy).Contents (Elt F) → (⟨S32768x4, .f32⟩ : BufTy).Contents (Elt F)),
    StableHlo.unary main_v5311 main_v5316 (Host.absf : (⟨S32768x4, .f32⟩ : BufTy).Contents (Elt F) → (⟨S32768x4, .f32⟩ : BufTy).Contents (Elt F)),
    StableHlo.unary main_v5312 main_v5317 (Host.absf : (⟨S32768x4, .f32⟩ : BufTy).Contents (Elt F) → (⟨S32768x4, .f32⟩ : BufTy).Contents (Elt F)),
    StableHlo.binary main_v5316 main_v5317 main_v5318 (minimumf : (⟨S32768x4, .f32⟩ : BufTy).Contents (Elt F) → (⟨S32768x4, .f32⟩ : BufTy).Contents (Elt F) → (⟨S32768x4, .f32⟩ : BufTy).Contents (Elt F)),
    StableHlo.binary main_v5315 main_v5318 main_v5319 (mulf : (⟨S32768x4, .f32⟩ : BufTy).Contents (Elt F) → (⟨S32768x4, .f32⟩ : BufTy).Contents (Elt F) → (⟨S32768x4, .f32⟩ : BufTy).Contents (Elt F)),
    StableHlo.unary main_v5319 main_v5320 ((extractStridedSlice S32768x2 ![0, 0] · slices_S32768x4_S32768x2_0_0) : (⟨S32768x4, .f32⟩ : BufTy).Contents (Elt F) → (⟨S32768x2, .f32⟩ : BufTy).Contents (Elt F)),
    StableHlo.unary main_v5319 main_v5321 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1633 (constant S_ .f32 0xC1F00000#32),
    StableHlo.nullary main_cst_1634 (constant S_ .f32 0x41F00000#32),
    StableHlo.TRef.unary (.of main_cst_1633 : StableHlo.TRef sig ⟨S_, .f32⟩) main_call468.v0 id,
    StableHlo.TRef.unary main_call468.v0 main_call468.v1 (broadcastInDim S32768x2 ![] bcast_S_S32768x2),
    StableHlo.TRef.binary main_call468.v1 (.of main_v5320 : StableHlo.TRef sig ⟨S32768x2, .f32⟩) main_call468.v2 maximumf,
    StableHlo.TRef.unary (.of main_cst_1634 : StableHlo.TRef sig ⟨S_, .f32⟩) main_call468.v3 id,
    StableHlo.TRef.unary main_call468.v3 main_call468.v4 (broadcastInDim S32768x2 ![] bcast_S_S32768x2),
    StableHlo.TRef.binary main_call468.v4 main_call468.v2 main_call468.v5 minimumf ]

set_option maxRecDepth 8192 in
/-- The window is that straight line: each clip function unfolded at its calls, the sequencing reassociated. -/
theorem part_eq_115 (d : Dev nD) : main_part115 (F := F) d = seq ops115 := by
  simp only [main_part115, fn_clip_4.body, fn_clip_5.body, seq, bind_assoc, pure_bind]

/-- Every operation of the window touches TensorCore references only. -/
theorem sub_115 : (ops115 : List (HloOp τ sig (Elt F))).Forall fun op => op.bufs ⊆ tcRefs τ sig :=
  ⟨unary_bufs_sub .., unary_bufs_sub .., binary_bufs_sub .., binary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., binary_bufs_sub .., binary_bufs_sub .., nullary_bufs_sub .., unary_bufs_sub ..,
    binary_bufs_sub .., unary_bufs_sub .., binary_bufs_sub .., unary_bufs_sub .., binary_bufs_sub .., binary_bufs_sub ..,
    binary_bufs_sub .., unary_bufs_sub .., binary_bufs_sub .., binary_bufs_sub .., binary_bufs_sub .., unary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub ..⟩

/-- Every operation of the window determines all it writes. -/
theorem fresh_115 : (ops115 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
/-- The window writes no argument of @main: the argument's buffer holds after it what it held before. -/
theorem keep_115 (V : Valuation τ sig (Elt F)) :
    after ops115 V (main_arg0 : DevRef τ sig) = V (main_arg0 : DevRef τ sig) := by
  simp only [after_cons, after_nil]
  rfl

/-- The operations of @main's statements 6961 … 7020, in order (80 of them): a statement's own operation, or, for a call
    of a clip function, the six operations of its body over that call's buffers. -/
abbrev ops116 : List (HloOp τ sig (Elt F)) :=
  [ StableHlo.nullary main_cst_1635 (constant S_ .f32 0xC1F00000#32),
    StableHlo.nullary main_cst_1636 (constant S_ .f32 0x41F00000#32),
    StableHlo.TRef.unary (.of main_cst_1635 : StableHlo.TRef sig ⟨S_, .f32⟩) main_call469.v0 id,
    StableHlo.TRef.unary main_call469.v0 main_call469.v1 (broadcastInDim S32768x2 ![] bcast_S_S32768x2),
    StableHlo.TRef.binary main_call469.v1 (.of main_v5321 : StableHlo.TRef sig ⟨S32768x2, .f32⟩) main_call469.v2 maximumf,
    StableHlo.TRef.unary (.of main_cst_1636 : StableHlo.TRef sig ⟨S_, .f32⟩) main_call469.v3 id,
    StableHlo.TRef.unary main_call469.v3 main_call469.v4 (broadcastInDim S32768x2 ![] bcast_S_S32768x2),
    StableHlo.TRef.binary main_call469.v4 main_call469.v2 main_call469.v5 minimumf,
    StableHlo.unary main_v5322 main_v5324 (Host.sign : (⟨S32768x2, .f32⟩ : BufTy).Contents (Elt F) → (⟨S32768x2, .f32⟩ : BufTy).Contents (Elt F)),
    StableHlo.unary main_v5323 main_v5325 (Host.sign : (⟨S32768x2, .f32⟩ : BufTy).Contents (Elt F) → (⟨S32768x2, .f32⟩ : BufTy).Contents (Elt F)),
    StableHlo.binary main_v5324 main_v5325 main_v5326 (mulf : (⟨S32768x2, .f32⟩ : BufTy).Contents (Elt F) → (⟨S32768x2, .f32⟩ : BufTy).Contents (Elt F) → (⟨S32768x2, .f32⟩ : BufTy).Contents (Elt F)),
    StableHlo.unary main_v5322 main_v5327 (Host.absf : (⟨S32768x2, .f32⟩ : BufTy).Contents (Elt F) → (⟨S32768x2, .f32⟩ : BufTy).Contents (Elt F)),
    StableHlo.unary main_v5323 main_v5328 (Host.absf : (⟨S32768x2, .f32⟩ : BufTy).Contents (Elt F) → (⟨S32768x2, .f32⟩ : BufTy).Contents (Elt F)),
    StableHlo.binary main_v5327 main_v5328 main_v5329 (minimumf : (⟨S32768x2, .f32⟩ : BufTy).Contents (Elt F) → (⟨S32768x2, .f32⟩ : BufTy).Contents (Elt F) → (⟨S32768x2, .f32⟩ : BufTy).Contents (Elt F)),
    StableHlo.binary main_v5326 main_v5329 main_v5330 (mulf : (⟨S32768x2, .f32⟩ : BufTy).Contents (Elt F) → (⟨S32768x2, .f32⟩ : BufTy).Contents (Elt F) → (⟨S32768x2, .f32⟩ : BufTy).Contents (Elt F)),
    StableHlo.unary main_v5330 main_v5331 ((extractStridedSlice S32768x1 ![0, 0] · slices_S32768x2_S32768x1_0_0) : (⟨S32768x2, .f32⟩ : BufTy).Contents (Elt F) → (⟨S32768x1, .f32⟩ : BufTy).Contents (Elt F)),
    StableHlo.unary main_v5330 main_v5332 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1637 (constant S_ .f32 0xC1F00000#32),
    StableHlo.nullary main_cst_1638 (constant S_ .f32 0x41F00000#32),
    StableHlo.TRef.unary (.of main_cst_1637 : StableHlo.TRef sig ⟨S_, .f32⟩) main_call470.v0 id,
    StableHlo.TRef.unary main_call470.v0 main_call470.v1 (broadcastInDim S32768x1 ![] bcast_S_S32768x1),
    StableHlo.TRef.binary main_call470.v1 (.of main_v5331 : StableHlo.TRef sig ⟨S32768x1, .f32⟩) main_call470.v2 maximumf,
    StableHlo.TRef.unary (.of main_cst_1638 : StableHlo.TRef sig ⟨S_, .f32⟩) main_call470.v3 id,
    StableHlo.TRef.unary main_call470.v3 main_call470.v4 (broadcastInDim S32768x1 ![] bcast_S_S32768x1),
    StableHlo.TRef.binary main_call470.v4 main_call470.v2 main_call470.v5 minimumf,
    StableHlo.nullary main_cst_1639 (constant S_ .f32 0xC1F00000#32),
    StableHlo.nullary main_cst_1640 (constant S_ .f32 0x41F00000#32),
    StableHlo.TRef.unary (.of main_cst_1639 : StableHlo.TRef sig ⟨S_, .f32⟩) main_call471.v0 id,
    StableHlo.TRef.unary main_call471.v0 main_call471.v1 (broadcastInDim S32768x1 ![] bcast_S_S32768x1),
    StableHlo.TRef.binary main_call471.v1 (.of main_v5332 : StableHlo.TRef sig ⟨S32768x1, .f32⟩) main_call471.v2 maximumf,
    StableHlo.TRef.unary (.of main_cst_1640 : StableHlo.TRef sig ⟨S_, .f32⟩) main_call471.v3 id,
    StableHlo.TRef.unary main_call471.v3 main_call471.v4 (broadcastInDim S32768x1 ![] bcast_S_S32768x1),
    StableHlo.TRef.binary main_call471.v4 main_call471.v2 main_call471.v5 minimumf,
    StableHlo.unary main_v5333 main_v5335 (Host.sign : (⟨S32768x1, .f32⟩ : BufTy).Contents (Elt F) → (⟨S32768x1, .f32⟩ : BufTy).Contents (Elt F)),
    StableHlo.unary main_v5334 main_v5336 (Host.sign : (⟨S32768x1, .f32⟩ : BufTy).Contents (Elt F) → (⟨S32768x1, .f32⟩ : BufTy).Contents (Elt F)),
    StableHlo.binary main_v5335 main_v5336 main_v5337 (mulf : (⟨S32768x1, .f32⟩ : BufTy).Contents (Elt F) → (⟨S32768x1, .f32⟩ : BufTy).Contents (Elt F) → (⟨S32768x1, .f32⟩ : BufTy).Contents (Elt F)),
    StableHlo.unary main_v5333 main_v5338 (Host.absf : (⟨S32768x1, .f32⟩ : BufTy).Contents (Elt F) → (⟨S32768x1, .f32⟩ : BufTy).Contents (Elt F)),
    StableHlo.unary main_v5334 main_v5339 (Host.absf : (⟨S32768x1, .f32⟩ : BufTy).Contents (Elt F) → (⟨S32768x1, .f32⟩ : BufTy).Contents (Elt F)),
    StableHlo.binary main_v5338 main_v5339 main_v5340 (minimumf : (⟨S32768x1, .f32⟩ : BufTy).Contents (Elt F) → (⟨S32768x1, .f32⟩ : BufTy).Contents (Elt F) → (⟨S32768x1, .f32⟩ : BufTy).Contents (Elt F)),
    StableHlo.binary main_v5337 main_v5340 main_v5341 (mulf : (⟨S32768x1, .f32⟩ : BufTy).Contents (Elt F) → (⟨S32768x1, .f32⟩ : BufTy).Contents (Elt F) → (⟨S32768x1, .f32⟩ : BufTy).Contents (Elt F)),
    StableHlo.nullary main_cst_1641 (constant S_ .f32 0x00000000#32),
    StableHlo.unary main_cst_1641 main_v5342 (broadcastInDim S32768x1 ![] bcast_S_S32768x1 : (⟨S_, .f32⟩ : BufTy).Contents (Elt F) → (⟨S32768x1, .f32⟩ : BufTy).Contents (Elt F)),
    StableHlo.binary main_v5341 main_v5342 main_v5343 (cmpf .ole : (⟨S32768x1, .f32⟩ : BufTy).Contents (Elt F) → (⟨S32768x1, .f32⟩ : BufTy).Contents (Elt F) → (⟨S32768x1, .i1⟩ : BufTy).Contents (Elt F)),
    StableHlo.unary main_v5343 main_v5344 (uitofp .f32 : (⟨S32768x1, .i1⟩ : BufTy).Contents (Elt F) → (⟨S32768x1, .f32⟩ : BufTy).Contents (Elt F)),
    StableHlo.nullary main_cst_1642 (constant S_ .f32 0x40000000#32),
    StableHlo.unary main_cst_1642 main_v5345 (broadcastInDim S32768x1 ![] bcast_S_S32768x1 : (⟨S_, .f32⟩ : BufTy).Contents (Elt F) → (⟨S32768x1, .f32⟩ : BufTy).Contents (Elt F)),
    StableHlo.binary main_v5345 main_v5344 main_v5346 (mulf : (⟨S32768x1, .f32⟩ : BufTy).Contents (Elt F) → (⟨S32768x1, .f32⟩ : BufTy).Contents (Elt F) → (⟨S32768x1, .f32⟩ : BufTy).Contents (Elt F)),
    StableHlo.nullary main_cst_1643 (constant S_ .f32 0x3F800000#32),
    StableHlo.unary main_cst_1643 main_v5347 (broadcastInDim S32768x1 ![] bcast_S_S32768x1 : (⟨S_, .f32⟩ : BufTy).Contents (Elt F) → (⟨S32768x1, .f32⟩ : BufTy).Contents (Elt F)),
    StableHlo.binary main_v5347 main_v5346 main_v5348 (subf : (⟨S32768x1, .f32⟩ : BufTy).Contents (Elt F) → (⟨S32768x1, .f32⟩ : BufTy).Contents (Elt F) → (⟨S32768x1, .f32⟩ : BufTy).Contents (Elt F)),
    StableHlo.binary main_v5348 main_v5331 main_v5349 (mulf : (⟨S32768x1, .f32⟩ : BufTy).Contents (Elt F) → (⟨S32768x1, .f32⟩ : BufTy).Contents (Elt F) → (⟨S32768x1, .f32⟩ : BufTy).Contents (Elt F)),
    StableHlo.binary main_v5349 main_v5332 main_v5350 (addf : (⟨S32768x1, .f32⟩ : BufTy).Contents (Elt F) → (⟨S32768x1, .f32⟩ : BufTy).Contents (Elt F) → (⟨S32768x1, .f32⟩ : BufTy).Contents (Elt F)),
    StableHlo.nullary main_cst_1644 (constant S_ .f32 0x00000000#32),
    StableHlo.unary main_cst_1644 main_v5351 (broadcastInDim S32768x1 ![] bcast_S_S32768x1 : (⟨S_, .f32⟩ : BufTy).Contents (Elt F) → (⟨S32768x1, .f32⟩ : BufTy).Contents (Elt F)),
    StableHlo.binary main_v5350 main_v5351 main_v5352 (cmpf .ole : (⟨S32768x1, .f32⟩ : BufTy).Contents (Elt F) → (⟨S32768x1, .f32⟩ : BufTy).Contents (Elt F) → (⟨S32768x1, .i1⟩ : BufTy).Contents (Elt F)),
    StableHlo.unary main_v5352 main_v5353 (uitofp .f32 : (⟨S32768x1, .i1⟩ : BufTy).Contents (Elt F) → (⟨S32768x1, .f32⟩ : BufTy).Contents (Elt F)),
    StableHlo.binary main_v5344 main_v5353 main_v5354 (cmpf .une : (⟨S32768x1, .f32⟩ : BufTy).Contents (Elt F) → (⟨S32768x1, .f32⟩ : BufTy).Contents (Elt F) → (⟨S32768x1, .i1⟩ : BufTy).Contents (Elt F)),
    StableHlo.unary main_v5354 main_v5355 (uitofp .f32 : (⟨S32768x1, .i1⟩ : BufTy).Contents (Elt F) → (⟨S32768x1, .f32⟩ : BufTy).Contents (Elt F)),
    StableHlo.binary main_v5355 main_v5353 main_v5356 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5344 main_v5353 main_v5357 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1645 (constant S_ .f32 0x40000000#32),
    StableHlo.unary main_cst_1645 main_v5358 (broadcastInDim S32768x2 ![] bcast_S_S32768x2 : (⟨S_, .f32⟩ : BufTy).Contents (Elt F) → (⟨S32768x2, .f32⟩ : BufTy).Contents (Elt F)),
    StableHlo.binary main_v5358 main_v5356 main_v5359 (mulf : (⟨S32768x2, .f32⟩ : BufTy).Contents (Elt F) → (⟨S32768x2, .f32⟩ : BufTy).Contents (Elt F) → (⟨S32768x2, .f32⟩ : BufTy).Contents (Elt F)),
    StableHlo.nullary main_cst_1646 (constant S_ .f32 0x3F800000#32),
    StableHlo.unary main_cst_1646 main_v5360 (broadcastInDim S32768x2 ![] bcast_S_S32768x2 : (⟨S_, .f32⟩ : BufTy).Contents (Elt F) → (⟨S32768x2, .f32⟩ : BufTy).Contents (Elt F)),
    StableHlo.binary main_v5360 main_v5359 main_v5361 (subf : (⟨S32768x2, .f32⟩ : BufTy).Contents (Elt F) → (⟨S32768x2, .f32⟩ : BufTy).Contents (Elt F) → (⟨S32768x2, .f32⟩ : BufTy).Contents (Elt F)),
    StableHlo.binary main_v5361 main_v5320 main_v5362 (mulf : (⟨S32768x2, .f32⟩ : BufTy).Contents (Elt F) → (⟨S32768x2, .f32⟩ : BufTy).Contents (Elt F) → (⟨S32768x2, .f32⟩ : BufTy).Contents (Elt F)),
    StableHlo.binary main_v5362 main_v5321 main_v5363 (addf : (⟨S32768x2, .f32⟩ : BufTy).Contents (Elt F) → (⟨S32768x2, .f32⟩ : BufTy).Contents (Elt F) → (⟨S32768x2, .f32⟩ : BufTy).Contents (Elt F)),
    StableHlo.unary main_v5363 main_v5364 ((extractStridedSlice S32768x1 ![0, 0] · slices_S32768x2_S32768x1_0_0) : (⟨S32768x2, .f32⟩ : BufTy).Contents (Elt F) → (⟨S32768x1, .f32⟩ : BufTy).Contents (Elt F)),
    StableHlo.unary main_v5363 main_v5365 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1647 (constant S_ .f32 0xC1F00000#32),
    StableHlo.nullary main_cst_1648 (constant S_ .f32 0x41F00000#32),
    StableHlo.TRef.unary (.of main_cst_1647 : StableHlo.TRef sig ⟨S_, .f32⟩) main_call472.v0 id,
    StableHlo.TRef.unary main_call472.v0 main_call472.v1 (broadcastInDim S32768x1 ![] bcast_S_S32768x1),
    StableHlo.TRef.binary main_call472.v1 (.of main_v5364 : StableHlo.TRef sig ⟨S32768x1, .f32⟩) main_call472.v2 maximumf,
    StableHlo.TRef.unary (.of main_cst_1648 : StableHlo.TRef sig ⟨S_, .f32⟩) main_call472.v3 id,
    StableHlo.TRef.unary main_call472.v3 main_call472.v4 (broadcastInDim S32768x1 ![] bcast_S_S32768x1),
    StableHlo.TRef.binary main_call472.v4 main_call472.v2 main_call472.v5 minimumf,
    StableHlo.nullary main_cst_1649 (constant S_ .f32 0xC1F00000#32),
    StableHlo.nullary main_cst_1650 (constant S_ .f32 0x41F00000#32) ]

set_option maxRecDepth 8192 in
/-- The window is that straight line: each clip function unfolded at its calls, the sequencing reassociated. -/
theorem part_eq_116 (d : Dev nD) : main_part116 (F := F) d = seq ops116 := by
  simp only [main_part116, fn_clip_5.body, fn_clip_6.body, seq, bind_assoc, pure_bind]
  rfl

/-- Every operation of the window touches TensorCore references only. -/
theorem sub_116 : (ops116 : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., binary_bufs_sub .., binary_bufs_sub .., nullary_bufs_sub .., unary_bufs_sub ..,
    binary_bufs_sub .., unary_bufs_sub .., binary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub ..⟩

/-- Every operation of the window determines all it writes. -/
theorem fresh_116 : (ops116 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_116 (V : Valuation τ sig (Elt F)) :
    after ops116 V (main_arg0 : DevRef τ sig) = V (main_arg0 : DevRef τ sig) := by
  simp only [after_cons, after_nil]
  rfl

/-- The operations of @main's statements 7021 … 7080, in order (80 of them): a statement's own operation, or, for a call
    of a clip function, the six operations of its body over that call's buffers. -/
abbrev ops117 : List (HloOp τ sig (Elt F)) :=
  [ StableHlo.TRef.unary (.of main_cst_1649 : StableHlo.TRef sig ⟨S_, .f32⟩) main_call473.v0 id,
    StableHlo.TRef.unary main_call473.v0 main_call473.v1 (broadcastInDim S32768x1 ![] bcast_S_S32768x1),
    StableHlo.TRef.binary main_call473.v1 (.of main_v5365 : StableHlo.TRef sig ⟨S32768x1, .f32⟩) main_call473.v2 maximumf,
    StableHlo.TRef.unary (.of main_cst_1650 : StableHlo.TRef sig ⟨S_, .f32⟩) main_call473.v3 id,
    StableHlo.TRef.unary main_call473.v3 main_call473.v4 (broadcastInDim S32768x1 ![] bcast_S_S32768x1),
    StableHlo.TRef.binary main_call473.v4 main_call473.v2 main_call473.v5 minimumf,
    StableHlo.unary main_v5366 main_v5368 (Host.sign : (⟨S32768x1, .f32⟩ : BufTy).Contents (Elt F) → (⟨S32768x1, .f32⟩ : BufTy).Contents (Elt F)),
    StableHlo.unary main_v5367 main_v5369 (Host.sign : (⟨S32768x1, .f32⟩ : BufTy).Contents (Elt F) → (⟨S32768x1, .f32⟩ : BufTy).Contents (Elt F)),
    StableHlo.binary main_v5368 main_v5369 main_v5370 (mulf : (⟨S32768x1, .f32⟩ : BufTy).Contents (Elt F) → (⟨S32768x1, .f32⟩ : BufTy).Contents (Elt F) → (⟨S32768x1, .f32⟩ : BufTy).Contents (Elt F)),
    StableHlo.unary main_v5366 main_v5371 (Host.absf : (⟨S32768x1, .f32⟩ : BufTy).Contents (Elt F) → (⟨S32768x1, .f32⟩ : BufTy).Contents (Elt F)),
    StableHlo.unary main_v5367 main_v5372 (Host.absf : (⟨S32768x1, .f32⟩ : BufTy).Contents (Elt F) → (⟨S32768x1, .f32⟩ : BufTy).Contents (Elt F)),
    StableHlo.binary main_v5371 main_v5372 main_v5373 (minimumf : (⟨S32768x1, .f32⟩ : BufTy).Contents (Elt F) → (⟨S32768x1, .f32⟩ : BufTy).Contents (Elt F) → (⟨S32768x1, .f32⟩ : BufTy).Contents (Elt F)),
    StableHlo.binary main_v5370 main_v5373 main_v5374 (mulf : (⟨S32768x1, .f32⟩ : BufTy).Contents (Elt F) → (⟨S32768x1, .f32⟩ : BufTy).Contents (Elt F) → (⟨S32768x1, .f32⟩ : BufTy).Contents (Elt F)),
    StableHlo.nullary main_cst_1651 (constant S_ .f32 0x00000000#32),
    StableHlo.unary main_cst_1651 main_v5375 (broadcastInDim S32768x1 ![] bcast_S_S32768x1 : (⟨S_, .f32⟩ : BufTy).Contents (Elt F) → (⟨S32768x1, .f32⟩ : BufTy).Contents (Elt F)),
    StableHlo.binary main_v5374 main_v5375 main_v5376 (cmpf .ole : (⟨S32768x1, .f32⟩ : BufTy).Contents (Elt F) → (⟨S32768x1, .f32⟩ : BufTy).Contents (Elt F) → (⟨S32768x1, .i1⟩ : BufTy).Contents (Elt F)),
    StableHlo.unary main_v5376 main_v5377 (uitofp .f32 : (⟨S32768x1, .i1⟩ : BufTy).Contents (Elt F) → (⟨S32768x1, .f32⟩ : BufTy).Contents (Elt F)),
    StableHlo.nullary main_cst_1652 (constant S_ .f32 0x40000000#32),
    StableHlo.unary main_cst_1652 main_v5378 (broadcastInDim S32768x1 ![] bcast_S_S32768x1 : (⟨S_, .f32⟩ : BufTy).Contents (Elt F) → (⟨S32768x1, .f32⟩ : BufTy).Contents (Elt F)),
    StableHlo.binary main_v5378 main_v5377 main_v5379 (mulf : (⟨S32768x1, .f32⟩ : BufTy).Contents (Elt F) → (⟨S32768x1, .f32⟩ : BufTy).Contents (Elt F) → (⟨S32768x1, .f32⟩ : BufTy).Contents (Elt F)),
    StableHlo.nullary main_cst_1653 (constant S_ .f32 0x3F800000#32),
    StableHlo.unary main_cst_1653 main_v5380 (broadcastInDim S32768x1 ![] bcast_S_S32768x1 : (⟨S_, .f32⟩ : BufTy).Contents (Elt F) → (⟨S32768x1, .f32⟩ : BufTy).Contents (Elt F)),
    StableHlo.binary main_v5380 main_v5379 main_v5381 (subf : (⟨S32768x1, .f32⟩ : BufTy).Contents (Elt F) → (⟨S32768x1, .f32⟩ : BufTy).Contents (Elt F) → (⟨S32768x1, .f32⟩ : BufTy).Contents (Elt F)),
    StableHlo.binary main_v5381 main_v5364 main_v5382 (mulf : (⟨S32768x1, .f32⟩ : BufTy).Contents (Elt F) → (⟨S32768x1, .f32⟩ : BufTy).Contents (Elt F) → (⟨S32768x1, .f32⟩ : BufTy).Contents (Elt F)),
    StableHlo.binary main_v5382 main_v5365 main_v5383 (addf : (⟨S32768x1, .f32⟩ : BufTy).Contents (Elt F) → (⟨S32768x1, .f32⟩ : BufTy).Contents (Elt F) → (⟨S32768x1, .f32⟩ : BufTy).Contents (Elt F)),
    StableHlo.nullary main_cst_1654 (constant S_ .f32 0x00000000#32),
    StableHlo.unary main_cst_1654 main_v5384 (broadcastInDim S32768x1 ![] bcast_S_S32768x1 : (⟨S_, .f32⟩ : BufTy).Contents (Elt F) → (⟨S32768x1, .f32⟩ : BufTy).Contents (Elt F)),
    StableHlo.binary main_v5383 main_v5384 main_v5385 (cmpf .ole : (⟨S32768x1, .f32⟩ : BufTy).Contents (Elt F) → (⟨S32768x1, .f32⟩ : BufTy).Contents (Elt F) → (⟨S32768x1, .i1⟩ : BufTy).Contents (Elt F)),
    StableHlo.unary main_v5385 main_v5386 (uitofp .f32 : (⟨S32768x1, .i1⟩ : BufTy).Contents (Elt F) → (⟨S32768x1, .f32⟩ : BufTy).Contents (Elt F)),
    StableHlo.binary main_v5377 main_v5386 main_v5387 (cmpf .une : (⟨S32768x1, .f32⟩ : BufTy).Contents (Elt F) → (⟨S32768x1, .f32⟩ : BufTy).Contents (Elt F) → (⟨S32768x1, .i1⟩ : BufTy).Contents (Elt F)),
    StableHlo.unary main_v5387 main_v5388 (uitofp .f32 : (⟨S32768x1, .i1⟩ : BufTy).Contents (Elt F) → (⟨S32768x1, .f32⟩ : BufTy).Contents (Elt F)),
    StableHlo.binary main_v5388 main_v5386 main_v5389 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5377 main_v5386 main_v5390 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5356 main_v5389 main_v5391 (cmpf .une : (⟨S32768x2, .f32⟩ : BufTy).Contents (Elt F) → (⟨S32768x2, .f32⟩ : BufTy).Contents (Elt F) → (⟨S32768x2, .i1⟩ : BufTy).Contents (Elt F)),
    StableHlo.unary main_v5391 main_v5392 (uitofp .f32 : (⟨S32768x2, .i1⟩ : BufTy).Contents (Elt F) → (⟨S32768x2, .f32⟩ : BufTy).Contents (Elt F)),
    StableHlo.binary main_v5392 main_v5389 main_v5393 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v5357 main_v5390 main_v5394 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_1655 (constant S_ .f32 0x40000000#32),
    StableHlo.unary main_cst_1655 main_v5395 (broadcastInDim S32768x4 ![] bcast_S_S32768x4 : (⟨S_, .f32⟩ : BufTy).Contents (Elt F) → (⟨S32768x4, .f32⟩ : BufTy).Contents (Elt F)),
    StableHlo.binary main_v5395 main_v5393 main_v5396 (mulf : (⟨S32768x4, .f32⟩ : BufTy).Contents (Elt F) → (⟨S32768x4, .f32⟩ : BufTy).Contents (Elt F) → (⟨S32768x4, .f32⟩ : BufTy).Contents (Elt F)),
    StableHlo.nullary main_cst_1656 (constant S_ .f32 0x3F800000#32),
    StableHlo.unary main_cst_1656 main_v5397 (broadcastInDim S32768x4 ![] bcast_S_S32768x4 : (⟨S_, .f32⟩ : BufTy).Contents (Elt F) → (⟨S32768x4, .f32⟩ : BufTy).Contents (Elt F)),
    StableHlo.binary main_v5397 main_v5396 main_v5398 (subf : (⟨S32768x4, .f32⟩ : BufTy).Contents (Elt F) → (⟨S32768x4, .f32⟩ : BufTy).Contents (Elt F) → (⟨S32768x4, .f32⟩ : BufTy).Contents (Elt F)),
    StableHlo.binary main_v5398 main_v5309 main_v5399 (mulf : (⟨S32768x4, .f32⟩ : BufTy).Contents (Elt F) → (⟨S32768x4, .f32⟩ : BufTy).Contents (Elt F) → (⟨S32768x4, .f32⟩ : BufTy).Contents (Elt F)),
    StableHlo.binary main_v5399 main_v5310 main_v5400 (addf : (⟨S32768x4, .f32⟩ : BufTy).Contents (Elt F) → (⟨S32768x4, .f32⟩ : BufTy).Contents (Elt F) → (⟨S32768x4, .f32⟩ : BufTy).Contents (Elt F)),
    StableHlo.unary main_v5400 main_v5401 ((extractStridedSlice S32768x2 ![0, 0] · slices_S32768x4_S32768x2_0_0) : (⟨S32768x4, .f32⟩ : BufTy).Contents (Elt F) → (⟨S32768x2, .f32⟩ : BufTy).Contents (Elt F)),
    StableHlo.unary main_v5400 main_v5402 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1657 (constant S_ .f32 0xC1F00000#32),
    StableHlo.nullary main_cst_1658 (constant S_ .f32 0x41F00000#32),
    StableHlo.TRef.unary (.of main_cst_1657 : StableHlo.TRef sig ⟨S_, .f32⟩) main_call474.v0 id,
    StableHlo.TRef.unary main_call474.v0 main_call474.v1 (broadcastInDim S32768x2 ![] bcast_S_S32768x2),
    StableHlo.TRef.binary main_call474.v1 (.of main_v5401 : StableHlo.TRef sig ⟨S32768x2, .f32⟩) main_call474.v2 maximumf,
    StableHlo.TRef.unary (.of main_cst_1658 : StableHlo.TRef sig ⟨S_, .f32⟩) main_call474.v3 id,
    StableHlo.TRef.unary main_call474.v3 main_call474.v4 (broadcastInDim S32768x2 ![] bcast_S_S32768x2),
    StableHlo.TRef.binary main_call474.v4 main_call474.v2 main_call474.v5 minimumf,
    StableHlo.nullary main_cst_1659 (constant S_ .f32 0xC1F00000#32),
    StableHlo.nullary main_cst_1660 (constant S_ .f32 0x41F00000#32),
    StableHlo.TRef.unary (.of main_cst_1659 : StableHlo.TRef sig ⟨S_, .f32⟩) main_call475.v0 id,
    StableHlo.TRef.unary main_call475.v0 main_call475.v1 (broadcastInDim S32768x2 ![] bcast_S_S32768x2),
    StableHlo.TRef.binary main_call475.v1 (.of main_v5402 : StableHlo.TRef sig ⟨S32768x2, .f32⟩) main_call475.v2 maximumf,
    StableHlo.TRef.unary (.of main_cst_1660 : StableHlo.TRef sig ⟨S_, .f32⟩) main_call475.v3 id,
    StableHlo.TRef.unary main_call475.v3 main_call475.v4 (broadcastInDim S32768x2 ![] bcast_S_S32768x2),
    StableHlo.TRef.binary main_call475.v4 main_call475.v2 main_call475.v5 minimumf,
    StableHlo.unary main_v5403 main_v5405 (Host.sign : (⟨S32768x2, .f32⟩ : BufTy).Contents (Elt F) → (⟨S32768x2, .f32⟩ : BufTy).Contents (Elt F)),
    StableHlo.unary main_v5404 main_v5406 (Host.sign : (⟨S32768x2, .f32⟩ : BufTy).Contents (Elt F) → (⟨S32768x2, .f32⟩ : BufTy).Contents (Elt F)),
    StableHlo.binary main_v5405 main_v5406 main_v5407 (mulf : (⟨S32768x2, .f32⟩ : BufTy).Contents (Elt F) → (⟨S32768x2, .f32⟩ : BufTy).Contents (Elt F) → (⟨S32768x2, .f32⟩ : BufTy).Contents (Elt F)),
    StableHlo.unary main_v5403 main_v5408 (Host.absf : (⟨S32768x2, .f32⟩ : BufTy).Contents (Elt F) → (⟨S32768x2, .f32⟩ : BufTy).Contents (Elt F)),
    StableHlo.unary main_v5404 main_v5409 (Host.absf : (⟨S32768x2, .f32⟩ : BufTy).Contents (Elt F) → (⟨S32768x2, .f32⟩ : BufTy).Contents (Elt F)),
    StableHlo.binary main_v5408 main_v5409 main_v5410 (minimumf : (⟨S32768x2, .f32⟩ : BufTy).Contents (Elt F) → (⟨S32768x2, .f32⟩ : BufTy).Contents (Elt F) → (⟨S32768x2, .f32⟩ : BufTy).Contents (Elt F)),
    StableHlo.binary main_v5407 main_v5410 main_v5411 (mulf : (⟨S32768x2, .f32⟩ : BufTy).Contents (Elt F) → (⟨S32768x2, .f32⟩ : BufTy).Contents (Elt F) → (⟨S32768x2, .f32⟩ : BufTy).Contents (Elt F)),
    StableHlo.unary main_v5411 main_v5412 ((extractStridedSlice S32768x1 ![0, 0] · slices_S32768x2_S32768x1_0_0) : (⟨S32768x2, .f32⟩ : BufTy).Contents (Elt F) → (⟨S32768x1, .f32⟩ : BufTy).Contents (Elt F)),
    StableHlo.unary main_v5411 main_v5413 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1661 (constant S_ .f32 0xC1F00000#32),
    StableHlo.nullary main_cst_1662 (constant S_ .f32 0x41F00000#32),
    StableHlo.TRef.unary (.of main_cst_1661 : StableHlo.TRef sig ⟨S_, .f32⟩) main_call476.v0 id,
    StableHlo.TRef.unary main_call476.v0 main_call476.v1 (broadcastInDim S32768x1 ![] bcast_S_S32768x1),
    StableHlo.TRef.binary main_call476.v1 (.of main_v5412 : StableHlo.TRef sig ⟨S32768x1, .f32⟩) main_call476.v2 maximumf,
    StableHlo.TRef.unary (.of main_cst_1662 : StableHlo.TRef sig ⟨S_, .f32⟩) main_call476.v3 id,
    StableHlo.TRef.unary main_call476.v3 main_call476.v4 (broadcastInDim S32768x1 ![] bcast_S_S32768x1),
    StableHlo.TRef.binary main_call476.v4 main_call476.v2 main_call476.v5 minimumf ]

set_option maxRecDepth 8192 in
/-- The window is that straight line: each clip function unfolded at its calls, the sequencing reassociated. -/
theorem part_eq_117 (d : Dev nD) : main_part117 (F := F) d = seq ops117 := by
  simp only [main_part117, fn_clip_6.body, fn_clip_5.body, seq, bind_assoc, pure_bind]

/-- Every operation of the window touches TensorCore references only. -/
theorem sub_117 : (ops117 : List (HloOp τ sig (Elt F))).Forall fun op => op.bufs ⊆ tcRefs τ sig :=
  ⟨unary_bufs_sub .., unary_bufs_sub .., binary_bufs_sub .., unary_bufs_sub .., unary_bufs_sub .., binary_bufs_sub ..,
    unary_bufs_sub .., unary_bufs_sub .., binary_bufs_sub .., unary_bufs_sub .., unary_bufs_sub .., binary_bufs_sub ..,
    binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    unary_bufs_sub .., binary_bufs_sub .., binary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub ..⟩

/-- Every operation of the window determines all it writes. -/
theorem fresh_117 : (ops117 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_117 (V : Valuation τ sig (Elt F)) :
    after ops117 V (main_arg0 : DevRef τ sig) = V (main_arg0 : DevRef τ sig) := by
  simp only [after_cons, after_nil]
  rfl

/-- The operations of @main's statements 7081 … 7140, in order (75 of them): a statement's own operation, or, for a call
    of a clip function, the six operations of its body over that call's buffers. -/
abbrev ops118 : List (HloOp τ sig (Elt F)) :=
  [ StableHlo.nullary main_cst_1663 (constant S_ .f32 0xC1F00000#32),
    StableHlo.nullary main_cst_1664 (constant S_ .f32 0x41F00000#32),
    StableHlo.TRef.unary (.of main_cst_1663 : StableHlo.TRef sig ⟨S_, .f32⟩) main_call477.v0 id,
    StableHlo.TRef.unary main_call477.v0 main_call477.v1 (broadcastInDim S32768x1 ![] bcast_S_S32768x1),
    StableHlo.TRef.binary main_call477.v1 (.of main_v5413 : StableHlo.TRef sig ⟨S32768x1, .f32⟩) main_call477.v2 maximumf,
    StableHlo.TRef.unary (.of main_cst_1664 : StableHlo.TRef sig ⟨S_, .f32⟩) main_call477.v3 id,
    StableHlo.TRef.unary main_call477.v3 main_call477.v4 (broadcastInDim S32768x1 ![] bcast_S_S32768x1),
    StableHlo.TRef.binary main_call477.v4 main_call477.v2 main_call477.v5 minimumf,
    StableHlo.unary main_v5414 main_v5416 (Host.sign : (⟨S32768x1, .f32⟩ : BufTy).Contents (Elt F) → (⟨S32768x1, .f32⟩ : BufTy).Contents (Elt F)),
    StableHlo.unary main_v5415 main_v5417 (Host.sign : (⟨S32768x1, .f32⟩ : BufTy).Contents (Elt F) → (⟨S32768x1, .f32⟩ : BufTy).Contents (Elt F)),
    StableHlo.binary main_v5416 main_v5417 main_v5418 (mulf : (⟨S32768x1, .f32⟩ : BufTy).Contents (Elt F) → (⟨S32768x1, .f32⟩ : BufTy).Contents (Elt F) → (⟨S32768x1, .f32⟩ : BufTy).Contents (Elt F)),
    StableHlo.unary main_v5414 main_v5419 (Host.absf : (⟨S32768x1, .f32⟩ : BufTy).Contents (Elt F) → (⟨S32768x1, .f32⟩ : BufTy).Contents (Elt F)),
    StableHlo.unary main_v5415 main_v5420 (Host.absf : (⟨S32768x1, .f32⟩ : BufTy).Contents (Elt F) → (⟨S32768x1, .f32⟩ : BufTy).Contents (Elt F)),
    StableHlo.binary main_v5419 main_v5420 main_v5421 (minimumf : (⟨S32768x1, .f32⟩ : BufTy).Contents (Elt F) → (⟨S32768x1, .f32⟩ : BufTy).Contents (Elt F) → (⟨S32768x1, .f32⟩ : BufTy).Contents (Elt F)),
    StableHlo.binary main_v5418 main_v5421 main_v5422 (mulf : (⟨S32768x1, .f32⟩ : BufTy).Contents (Elt F) → (⟨S32768x1, .f32⟩ : BufTy).Contents (Elt F) → (⟨S32768x1, .f32⟩ : BufTy).Contents (Elt F)),
    StableHlo.nullary main_cst_1665 (constant S_ .f32 0x00000000#32),
    StableHlo.unary main_cst_1665 main_v5423 (broadcastInDim S32768x1 ![] bcast_S_S32768x1 : (⟨S_, .f32⟩ : BufTy).Contents (Elt F) → (⟨S32768x1, .f32⟩ : BufTy).Contents (Elt F)),
    StableHlo.binary main_v5422 main_v5423 main_v5424 (cmpf .ole : (⟨S32768x1, .f32⟩ : BufTy).Contents (Elt F) → (⟨S32768x1, .f32⟩ : BufTy).Contents (Elt F) → (⟨S32768x1, .i1⟩ : BufTy).Contents (Elt F)),
    StableHlo.unary main_v5424 main_v5425 (uitofp .f32 : (⟨S32768x1, .i1⟩ : BufTy).Contents (Elt F) → (⟨S32768x1, .f32⟩ : BufTy).Contents (Elt F)),
    StableHlo.nullary main_cst_1666 (constant S_ .f32 0x40000000#32),
    StableHlo.unary main_cst_1666 main_v5426 (broadcastInDim S32768x1 ![] bcast_S_S32768x1 : (⟨S_, .f32⟩ : BufTy).Contents (Elt F) → (⟨S32768x1, .f32⟩ : BufTy).Contents (Elt F)),
    StableHlo.binary main_v5426 main_v5425 main_v5427 (mulf : (⟨S32768x1, .f32⟩ : BufTy).Contents (Elt F) → (⟨S32768x1, .f32⟩ : BufTy).Contents (Elt F) → (⟨S32768x1, .f32⟩ : BufTy).Contents (Elt F)),
    StableHlo.nullary main_cst_1667 (constant S_ .f32 0x3F800000#32),
    StableHlo.unary main_cst_1667 main_v5428 (broadcastInDim S32768x1 ![] bcast_S_S32768x1 : (⟨S_, .f32⟩ : BufTy).Contents (Elt F) → (⟨S32768x1, .f32⟩ : BufTy).Contents (Elt F)),
    StableHlo.binary main_v5428 main_v5427 main_v5429 (subf : (⟨S32768x1, .f32⟩ : BufTy).Contents (Elt F) → (⟨S32768x1, .f32⟩ : BufTy).Contents (Elt F) → (⟨S32768x1, .f32⟩ : BufTy).Contents (Elt F)),
    StableHlo.binary main_v5429 main_v5412 main_v5430 (mulf : (⟨S32768x1, .f32⟩ : BufTy).Contents (Elt F) → (⟨S32768x1, .f32⟩ : BufTy).Contents (Elt F) → (⟨S32768x1, .f32⟩ : BufTy).Contents (Elt F)),
    StableHlo.binary main_v5430 main_v5413 main_v5431 (addf : (⟨S32768x1, .f32⟩ : BufTy).Contents (Elt F) → (⟨S32768x1, .f32⟩ : BufTy).Contents (Elt F) → (⟨S32768x1, .f32⟩ : BufTy).Contents (Elt F)),
    StableHlo.nullary main_cst_1668 (constant S_ .f32 0x00000000#32),
    StableHlo.unary main_cst_1668 main_v5432 (broadcastInDim S32768x1 ![] bcast_S_S32768x1 : (⟨S_, .f32⟩ : BufTy).Contents (Elt F) → (⟨S32768x1, .f32⟩ : BufTy).Contents (Elt F)),
    StableHlo.binary main_v5431 main_v5432 main_v5433 (cmpf .ole : (⟨S32768x1, .f32⟩ : BufTy).Contents (Elt F) → (⟨S32768x1, .f32⟩ : BufTy).Contents (Elt F) → (⟨S32768x1, .i1⟩ : BufTy).Contents (Elt F)),
    StableHlo.unary main_v5433 main_v5434 (uitofp .f32 : (⟨S32768x1, .i1⟩ : BufTy).Contents (Elt F) → (⟨S32768x1, .f32⟩ : BufTy).Contents (Elt F)),
    StableHlo.binary main_v5425 main_v5434 main_v5435 (cmpf .une : (⟨S32768x1, .f32⟩ : BufTy).Contents (Elt F) → (⟨S32768x1, .f32⟩ : BufTy).Contents (Elt F) → (⟨S32768x1, .i1⟩ : BufTy).Contents (Elt F)),
    StableHlo.unary main_v5435 main_v5436 (uitofp .f32 : (⟨S32768x1, .i1⟩ : BufTy).Contents (Elt F) → (⟨S32768x1, .f32⟩ : BufTy).Contents (Elt F)),
    StableHlo.binary main_v5436 main_v5434 main_v5437 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5425 main_v5434 main_v5438 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1669 (constant S_ .f32 0x40000000#32),
    StableHlo.unary main_cst_1669 main_v5439 (broadcastInDim S32768x2 ![] bcast_S_S32768x2 : (⟨S_, .f32⟩ : BufTy).Contents (Elt F) → (⟨S32768x2, .f32⟩ : BufTy).Contents (Elt F)),
    StableHlo.binary main_v5439 main_v5437 main_v5440 (mulf : (⟨S32768x2, .f32⟩ : BufTy).Contents (Elt F) → (⟨S32768x2, .f32⟩ : BufTy).Contents (Elt F) → (⟨S32768x2, .f32⟩ : BufTy).Contents (Elt F)),
    StableHlo.nullary main_cst_1670 (constant S_ .f32 0x3F800000#32),
    StableHlo.unary main_cst_1670 main_v5441 (broadcastInDim S32768x2 ![] bcast_S_S32768x2 : (⟨S_, .f32⟩ : BufTy).Contents (Elt F) → (⟨S32768x2, .f32⟩ : BufTy).Contents (Elt F)),
    StableHlo.binary main_v5441 main_v5440 main_v5442 (subf : (⟨S32768x2, .f32⟩ : BufTy).Contents (Elt F) → (⟨S32768x2, .f32⟩ : BufTy).Contents (Elt F) → (⟨S32768x2, .f32⟩ : BufTy).Contents (Elt F)),
    StableHlo.binary main_v5442 main_v5401 main_v5443 (mulf : (⟨S32768x2, .f32⟩ : BufTy).Contents (Elt F) → (⟨S32768x2, .f32⟩ : BufTy).Contents (Elt F) → (⟨S32768x2, .f32⟩ : BufTy).Contents (Elt F)),
    StableHlo.binary main_v5443 main_v5402 main_v5444 (addf : (⟨S32768x2, .f32⟩ : BufTy).Contents (Elt F) → (⟨S32768x2, .f32⟩ : BufTy).Contents (Elt F) → (⟨S32768x2, .f32⟩ : BufTy).Contents (Elt F)),
    StableHlo.unary main_v5444 main_v5445 ((extractStridedSlice S32768x1 ![0, 0] · slices_S32768x2_S32768x1_0_0) : (⟨S32768x2, .f32⟩ : BufTy).Contents (Elt F) → (⟨S32768x1, .f32⟩ : BufTy).Contents (Elt F)),
    StableHlo.unary main_v5444 main_v5446 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1671 (constant S_ .f32 0xC1F00000#32),
    StableHlo.nullary main_cst_1672 (constant S_ .f32 0x41F00000#32),
    StableHlo.TRef.unary (.of main_cst_1671 : StableHlo.TRef sig ⟨S_, .f32⟩) main_call478.v0 id,
    StableHlo.TRef.unary main_call478.v0 main_call478.v1 (broadcastInDim S32768x1 ![] bcast_S_S32768x1),
    StableHlo.TRef.binary main_call478.v1 (.of main_v5445 : StableHlo.TRef sig ⟨S32768x1, .f32⟩) main_call478.v2 maximumf,
    StableHlo.TRef.unary (.of main_cst_1672 : StableHlo.TRef sig ⟨S_, .f32⟩) main_call478.v3 id,
    StableHlo.TRef.unary main_call478.v3 main_call478.v4 (broadcastInDim S32768x1 ![] bcast_S_S32768x1),
    StableHlo.TRef.binary main_call478.v4 main_call478.v2 main_call478.v5 minimumf,
    StableHlo.nullary main_cst_1673 (constant S_ .f32 0xC1F00000#32),
    StableHlo.nullary main_cst_1674 (constant S_ .f32 0x41F00000#32),
    StableHlo.TRef.unary (.of main_cst_1673 : StableHlo.TRef sig ⟨S_, .f32⟩) main_call479.v0 id,
    StableHlo.TRef.unary main_call479.v0 main_call479.v1 (broadcastInDim S32768x1 ![] bcast_S_S32768x1),
    StableHlo.TRef.binary main_call479.v1 (.of main_v5446 : StableHlo.TRef sig ⟨S32768x1, .f32⟩) main_call479.v2 maximumf,
    StableHlo.TRef.unary (.of main_cst_1674 : StableHlo.TRef sig ⟨S_, .f32⟩) main_call479.v3 id,
    StableHlo.TRef.unary main_call479.v3 main_call479.v4 (broadcastInDim S32768x1 ![] bcast_S_S32768x1),
    StableHlo.TRef.binary main_call479.v4 main_call479.v2 main_call479.v5 minimumf,
    StableHlo.unary main_v5447 main_v5449 (Host.sign : (⟨S32768x1, .f32⟩ : BufTy).Contents (Elt F) → (⟨S32768x1, .f32⟩ : BufTy).Contents (Elt F)),
    StableHlo.unary main_v5448 main_v5450 (Host.sign : (⟨S32768x1, .f32⟩ : BufTy).Contents (Elt F) → (⟨S32768x1, .f32⟩ : BufTy).Contents (Elt F)),
    StableHlo.binary main_v5449 main_v5450 main_v5451 (mulf : (⟨S32768x1, .f32⟩ : BufTy).Contents (Elt F) → (⟨S32768x1, .f32⟩ : BufTy).Contents (Elt F) → (⟨S32768x1, .f32⟩ : BufTy).Contents (Elt F)),
    StableHlo.unary main_v5447 main_v5452 (Host.absf : (⟨S32768x1, .f32⟩ : BufTy).Contents (Elt F) → (⟨S32768x1, .f32⟩ : BufTy).Contents (Elt F)),
    StableHlo.unary main_v5448 main_v5453 (Host.absf : (⟨S32768x1, .f32⟩ : BufTy).Contents (Elt F) → (⟨S32768x1, .f32⟩ : BufTy).Contents (Elt F)),
    StableHlo.binary main_v5452 main_v5453 main_v5454 (minimumf : (⟨S32768x1, .f32⟩ : BufTy).Contents (Elt F) → (⟨S32768x1, .f32⟩ : BufTy).Contents (Elt F) → (⟨S32768x1, .f32⟩ : BufTy).Contents (Elt F)),
    StableHlo.binary main_v5451 main_v5454 main_v5455 (mulf : (⟨S32768x1, .f32⟩ : BufTy).Contents (Elt F) → (⟨S32768x1, .f32⟩ : BufTy).Contents (Elt F) → (⟨S32768x1, .f32⟩ : BufTy).Contents (Elt F)),
    StableHlo.nullary main_cst_1675 (constant S_ .f32 0x00000000#32),
    StableHlo.unary main_cst_1675 main_v5456 (broadcastInDim S32768x1 ![] bcast_S_S32768x1 : (⟨S_, .f32⟩ : BufTy).Contents (Elt F) → (⟨S32768x1, .f32⟩ : BufTy).Contents (Elt F)),
    StableHlo.binary main_v5455 main_v5456 main_v5457 (cmpf .ole : (⟨S32768x1, .f32⟩ : BufTy).Contents (Elt F) → (⟨S32768x1, .f32⟩ : BufTy).Contents (Elt F) → (⟨S32768x1, .i1⟩ : BufTy).Contents (Elt F)),
    StableHlo.unary main_v5457 main_v5458 (uitofp .f32 : (⟨S32768x1, .i1⟩ : BufTy).Contents (Elt F) → (⟨S32768x1, .f32⟩ : BufTy).Contents (Elt F)),
    StableHlo.nullary main_cst_1676 (constant S_ .f32 0x40000000#32),
    StableHlo.unary main_cst_1676 main_v5459 (broadcastInDim S32768x1 ![] bcast_S_S32768x1 : (⟨S_, .f32⟩ : BufTy).Contents (Elt F) → (⟨S32768x1, .f32⟩ : BufTy).Contents (Elt F)),
    StableHlo.binary main_v5459 main_v5458 main_v5460 (mulf : (⟨S32768x1, .f32⟩ : BufTy).Contents (Elt F) → (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_118 (d : Dev nD) : main_part118 (F := F) d = seq ops118 := by
  simp only [main_part118, fn_clip_6.body, seq, bind_assoc, pure_bind]
  rfl

/-- Every operation of the window touches TensorCore references only. -/
theorem sub_118 : (ops118 : List (HloOp τ sig (Elt F))).Forall fun op => op.bufs ⊆ tcRefs τ sig :=
  ⟨nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub .., binary_bufs_sub .., nullary_bufs_sub .., unary_bufs_sub .., binary_bufs_sub ..,
    unary_bufs_sub .., nullary_bufs_sub .., unary_bufs_sub .., binary_bufs_sub .., nullary_bufs_sub .., unary_bufs_sub ..,
    binary_bufs_sub .., binary_bufs_sub .., binary_bufs_sub .., nullary_bufs_sub .., unary_bufs_sub .., binary_bufs_sub ..,
    unary_bufs_sub .., binary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., binary_bufs_sub .., unary_bufs_sub ..,
    nullary_bufs_sub .., unary_bufs_sub .., binary_bufs_sub ..⟩

/-- Every operation of the window determines all it writes. -/
theorem fresh_118 : (ops118 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl⟩

set_option maxRecDepth 8192 in
/-- The window writes no argument of @main: the argument's buffer holds after it what it held before. -/
theorem keep_118 (V : Valuation τ sig (Elt F)) :
    after ops118 V (main_arg0 : DevRef τ sig) = V (main_arg0 : DevRef τ sig) := by
  simp only [after_cons, after_nil]
  rfl

/-- The operations of @main's statements 7141 … 7200, in order (80 of them): a statement's own operation, or, for a call
    of a clip function, the six operations of its body over that call's buffers. -/
abbrev ops119 : List (HloOp τ sig (Elt F)) :=
  [ StableHlo.nullary main_cst_1677 (constant S_ .f32 0x3F800000#32),
    StableHlo.unary main_cst_1677 main_v5461 (broadcastInDim S32768x1 ![] bcast_S_S32768x1 : (⟨S_, .f32⟩ : BufTy).Contents (Elt F) → (⟨S32768x1, .f32⟩ : BufTy).Contents (Elt F)),
    StableHlo.binary main_v5461 main_v5460 main_v5462 (subf : (⟨S32768x1, .f32⟩ : BufTy).Contents (Elt F) → (⟨S32768x1, .f32⟩ : BufTy).Contents (Elt F) → (⟨S32768x1, .f32⟩ : BufTy).Contents (Elt F)),
    StableHlo.binary main_v5462 main_v5445 main_v5463 (mulf : (⟨S32768x1, .f32⟩ : BufTy).Contents (Elt F) → (⟨S32768x1, .f32⟩ : BufTy).Contents (Elt F) → (⟨S32768x1, .f32⟩ : BufTy).Contents (Elt F)),
    StableHlo.binary main_v5463 main_v5446 main_v5464 (addf : (⟨S32768x1, .f32⟩ : BufTy).Contents (Elt F) → (⟨S32768x1, .f32⟩ : BufTy).Contents (Elt F) → (⟨S32768x1, .f32⟩ : BufTy).Contents (Elt F)),
    StableHlo.nullary main_cst_1678 (constant S_ .f32 0x00000000#32),
    StableHlo.unary main_cst_1678 main_v5465 (broadcastInDim S32768x1 ![] bcast_S_S32768x1 : (⟨S_, .f32⟩ : BufTy).Contents (Elt F) → (⟨S32768x1, .f32⟩ : BufTy).Contents (Elt F)),
    StableHlo.binary main_v5464 main_v5465 main_v5466 (cmpf .ole : (⟨S32768x1, .f32⟩ : BufTy).Contents (Elt F) → (⟨S32768x1, .f32⟩ : BufTy).Contents (Elt F) → (⟨S32768x1, .i1⟩ : BufTy).Contents (Elt F)),
    StableHlo.unary main_v5466 main_v5467 (uitofp .f32 : (⟨S32768x1, .i1⟩ : BufTy).Contents (Elt F) → (⟨S32768x1, .f32⟩ : BufTy).Contents (Elt F)),
    StableHlo.binary main_v5458 main_v5467 main_v5468 (cmpf .une : (⟨S32768x1, .f32⟩ : BufTy).Contents (Elt F) → (⟨S32768x1, .f32⟩ : BufTy).Contents (Elt F) → (⟨S32768x1, .i1⟩ : BufTy).Contents (Elt F)),
    StableHlo.unary main_v5468 main_v5469 (uitofp .f32 : (⟨S32768x1, .i1⟩ : BufTy).Contents (Elt F) → (⟨S32768x1, .f32⟩ : BufTy).Contents (Elt F)),
    StableHlo.binary main_v5469 main_v5467 main_v5470 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5458 main_v5467 main_v5471 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5437 main_v5470 main_v5472 (cmpf .une : (⟨S32768x2, .f32⟩ : BufTy).Contents (Elt F) → (⟨S32768x2, .f32⟩ : BufTy).Contents (Elt F) → (⟨S32768x2, .i1⟩ : BufTy).Contents (Elt F)),
    StableHlo.unary main_v5472 main_v5473 (uitofp .f32 : (⟨S32768x2, .i1⟩ : BufTy).Contents (Elt F) → (⟨S32768x2, .f32⟩ : BufTy).Contents (Elt F)),
    StableHlo.binary main_v5473 main_v5470 main_v5474 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v5438 main_v5471 main_v5475 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v5393 main_v5474 main_v5476 (cmpf .une : (⟨S32768x4, .f32⟩ : BufTy).Contents (Elt F) → (⟨S32768x4, .f32⟩ : BufTy).Contents (Elt F) → (⟨S32768x4, .i1⟩ : BufTy).Contents (Elt F)),
    StableHlo.unary main_v5476 main_v5477 (uitofp .f32 : (⟨S32768x4, .i1⟩ : BufTy).Contents (Elt F) → (⟨S32768x4, .f32⟩ : BufTy).Contents (Elt F)),
    StableHlo.binary main_v5477 main_v5474 main_v5478 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v5394 main_v5475 main_v5479 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v5301 main_v5478 main_v5480 (cmpf .une : (⟨S32768x8, .f32⟩ : BufTy).Contents (Elt F) → (⟨S32768x8, .f32⟩ : BufTy).Contents (Elt F) → (⟨S32768x8, .i1⟩ : BufTy).Contents (Elt F)),
    StableHlo.unary main_v5480 main_v5481 (uitofp .f32 : (⟨S32768x8, .i1⟩ : BufTy).Contents (Elt F) → (⟨S32768x8, .f32⟩ : BufTy).Contents (Elt F)),
    StableHlo.binary main_v5481 main_v5478 main_v5482 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v5302 main_v5479 main_v5483 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.nullary main_cst_1679 (constant S_ .f32 0x40000000#32),
    StableHlo.unary main_cst_1679 main_v5484 (broadcastInDim S32768x16 ![] bcast_S_S32768x16 : (⟨S_, .f32⟩ : BufTy).Contents (Elt F) → (⟨S32768x16, .f32⟩ : BufTy).Contents (Elt F)),
    StableHlo.binary main_v5484 main_v5482 main_v5485 (mulf : (⟨S32768x16, .f32⟩ : BufTy).Contents (Elt F) → (⟨S32768x16, .f32⟩ : BufTy).Contents (Elt F) → (⟨S32768x16, .f32⟩ : BufTy).Contents (Elt F)),
    StableHlo.nullary main_cst_1680 (constant S_ .f32 0x3F800000#32),
    StableHlo.unary main_cst_1680 main_v5486 (broadcastInDim S32768x16 ![] bcast_S_S32768x16 : (⟨S_, .f32⟩ : BufTy).Contents (Elt F) → (⟨S32768x16, .f32⟩ : BufTy).Contents (Elt F)),
    StableHlo.binary main_v5486 main_v5485 main_v5487 (subf : (⟨S32768x16, .f32⟩ : BufTy).Contents (Elt F) → (⟨S32768x16, .f32⟩ : BufTy).Contents (Elt F) → (⟨S32768x16, .f32⟩ : BufTy).Contents (Elt F)),
    StableHlo.binary main_v5487 main_v5110 main_v5488 (mulf : (⟨S32768x16, .f32⟩ : BufTy).Contents (Elt F) → (⟨S32768x16, .f32⟩ : BufTy).Contents (Elt F) → (⟨S32768x16, .f32⟩ : BufTy).Contents (Elt F)),
    StableHlo.binary main_v5488 main_v5111 main_v5489 (addf : (⟨S32768x16, .f32⟩ : BufTy).Contents (Elt F) → (⟨S32768x16, .f32⟩ : BufTy).Contents (Elt F) → (⟨S32768x16, .f32⟩ : BufTy).Contents (Elt F)),
    StableHlo.unary main_v5489 main_v5490 ((extractStridedSlice S32768x8 ![0, 0] · slices_S32768x16_S32768x8_0_0) : (⟨S32768x16, .f32⟩ : BufTy).Contents (Elt F) → (⟨S32768x8, .f32⟩ : BufTy).Contents (Elt F)),
    StableHlo.unary main_v5489 main_v5491 ((extractStridedSlice S32768x8 ![0, 8] · slices_S32768x16_S32768x8_0_8) : (⟨S32768x16, .f32⟩ : BufTy).Contents (Elt F) → (⟨S32768x8, .f32⟩ : BufTy).Contents (Elt F)),
    StableHlo.nullary main_cst_1681 (constant S_ .f32 0xC1F00000#32),
    StableHlo.nullary main_cst_1682 (constant S_ .f32 0x41F00000#32),
    StableHlo.TRef.unary (.of main_cst_1681 : StableHlo.TRef sig ⟨S_, .f32⟩) main_call480.v0 id,
    StableHlo.TRef.unary main_call480.v0 main_call480.v1 (broadcastInDim S32768x8 ![] bcast_S_S32768x8),
    StableHlo.TRef.binary main_call480.v1 (.of main_v5490 : StableHlo.TRef sig ⟨S32768x8, .f32⟩) main_call480.v2 maximumf,
    StableHlo.TRef.unary (.of main_cst_1682 : StableHlo.TRef sig ⟨S_, .f32⟩) main_call480.v3 id,
    StableHlo.TRef.unary main_call480.v3 main_call480.v4 (broadcastInDim S32768x8 ![] bcast_S_S32768x8),
    StableHlo.TRef.binary main_call480.v4 main_call480.v2 main_call480.v5 minimumf,
    StableHlo.nullary main_cst_1683 (constant S_ .f32 0xC1F00000#32),
    StableHlo.nullary main_cst_1684 (constant S_ .f32 0x41F00000#32),
    StableHlo.TRef.unary (.of main_cst_1683 : StableHlo.TRef sig ⟨S_, .f32⟩) main_call481.v0 id,
    StableHlo.TRef.unary main_call481.v0 main_call481.v1 (broadcastInDim S32768x8 ![] bcast_S_S32768x8),
    StableHlo.TRef.binary main_call481.v1 (.of main_v5491 : StableHlo.TRef sig ⟨S32768x8, .f32⟩) main_call481.v2 maximumf,
    StableHlo.TRef.unary (.of main_cst_1684 : StableHlo.TRef sig ⟨S_, .f32⟩) main_call481.v3 id,
    StableHlo.TRef.unary main_call481.v3 main_call481.v4 (broadcastInDim S32768x8 ![] bcast_S_S32768x8),
    StableHlo.TRef.binary main_call481.v4 main_call481.v2 main_call481.v5 minimumf,
    StableHlo.unary main_v5492 main_v5494 (Host.sign : (⟨S32768x8, .f32⟩ : BufTy).Contents (Elt F) → (⟨S32768x8, .f32⟩ : BufTy).Contents (Elt F)),
    StableHlo.unary main_v5493 main_v5495 (Host.sign : (⟨S32768x8, .f32⟩ : BufTy).Contents (Elt F) → (⟨S32768x8, .f32⟩ : BufTy).Contents (Elt F)),
    StableHlo.binary main_v5494 main_v5495 main_v5496 (mulf : (⟨S32768x8, .f32⟩ : BufTy).Contents (Elt F) → (⟨S32768x8, .f32⟩ : BufTy).Contents (Elt F) → (⟨S32768x8, .f32⟩ : BufTy).Contents (Elt F)),
    StableHlo.unary main_v5492 main_v5497 (Host.absf : (⟨S32768x8, .f32⟩ : BufTy).Contents (Elt F) → (⟨S32768x8, .f32⟩ : BufTy).Contents (Elt F)),
    StableHlo.unary main_v5493 main_v5498 (Host.absf : (⟨S32768x8, .f32⟩ : BufTy).Contents (Elt F) → (⟨S32768x8, .f32⟩ : BufTy).Contents (Elt F)),
    StableHlo.binary main_v5497 main_v5498 main_v5499 (minimumf : (⟨S32768x8, .f32⟩ : BufTy).Contents (Elt F) → (⟨S32768x8, .f32⟩ : BufTy).Contents (Elt F) → (⟨S32768x8, .f32⟩ : BufTy).Contents (Elt F)),
    StableHlo.binary main_v5496 main_v5499 main_v5500 (mulf : (⟨S32768x8, .f32⟩ : BufTy).Contents (Elt F) → (⟨S32768x8, .f32⟩ : BufTy).Contents (Elt F) → (⟨S32768x8, .f32⟩ : BufTy).Contents (Elt F)),
    StableHlo.unary main_v5500 main_v5501 ((extractStridedSlice S32768x4 ![0, 0] · slices_S32768x8_S32768x4_0_0) : (⟨S32768x8, .f32⟩ : BufTy).Contents (Elt F) → (⟨S32768x4, .f32⟩ : BufTy).Contents (Elt F)),
    StableHlo.unary main_v5500 main_v5502 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_1685 (constant S_ .f32 0xC1F00000#32),
    StableHlo.nullary main_cst_1686 (constant S_ .f32 0x41F00000#32),
    StableHlo.TRef.unary (.of main_cst_1685 : StableHlo.TRef sig ⟨S_, .f32⟩) main_call482.v0 id,
    StableHlo.TRef.unary main_call482.v0 main_call482.v1 (broadcastInDim S32768x4 ![] bcast_S_S32768x4),
    StableHlo.TRef.binary main_call482.v1 (.of main_v5501 : StableHlo.TRef sig ⟨S32768x4, .f32⟩) main_call482.v2 maximumf,
    StableHlo.TRef.unary (.of main_cst_1686 : StableHlo.TRef sig ⟨S_, .f32⟩) main_call482.v3 id,
    StableHlo.TRef.unary main_call482.v3 main_call482.v4 (broadcastInDim S32768x4 ![] bcast_S_S32768x4),
    StableHlo.TRef.binary main_call482.v4 main_call482.v2 main_call482.v5 minimumf,
    StableHlo.nullary main_cst_1687 (constant S_ .f32 0xC1F00000#32),
    StableHlo.nullary main_cst_1688 (constant S_ .f32 0x41F00000#32),
    StableHlo.TRef.unary (.of main_cst_1687 : StableHlo.TRef sig ⟨S_, .f32⟩) main_call483.v0 id,
    StableHlo.TRef.unary main_call483.v0 main_call483.v1 (broadcastInDim S32768x4 ![] bcast_S_S32768x4),
    StableHlo.TRef.binary main_call483.v1 (.of main_v5502 : StableHlo.TRef sig ⟨S32768x4, .f32⟩) main_call483.v2 maximumf,
    StableHlo.TRef.unary (.of main_cst_1688 : StableHlo.TRef sig ⟨S_, .f32⟩) main_call483.v3 id,
    StableHlo.TRef.unary main_call483.v3 main_call483.v4 (broadcastInDim S32768x4 ![] bcast_S_S32768x4),
    StableHlo.TRef.binary main_call483.v4 main_call483.v2 main_call483.v5 minimumf,
    StableHlo.unary main_v5503 main_v5505 (Host.sign : (⟨S32768x4, .f32⟩ : BufTy).Contents (Elt F) → (⟨S32768x4, .f32⟩ : BufTy).Contents (Elt F)),
    StableHlo.unary main_v5504 main_v5506 (Host.sign : (⟨S32768x4, .f32⟩ : BufTy).Contents (Elt F) → (⟨S32768x4, .f32⟩ : BufTy).Contents (Elt F)),
    StableHlo.binary main_v5505 main_v5506 main_v5507 (mulf : (⟨S32768x4, .f32⟩ : BufTy).Contents (Elt F) → (⟨S32768x4, .f32⟩ : BufTy).Contents (Elt F) → (⟨S32768x4, .f32⟩ : BufTy).Contents (Elt F)),
    StableHlo.unary main_v5503 main_v5508 (Host.absf : (⟨S32768x4, .f32⟩ : BufTy).Contents (Elt F) → (⟨S32768x4, .f32⟩ : BufTy).Contents (Elt F)) ]

set_option maxRecDepth 8192 in
/-- The window is that straight line: each clip function unfolded at its calls, the sequencing reassociated. -/
theorem part_eq_119 (d : Dev nD) : main_part119 (F := F) d = seq ops119 := by
  simp only [main_part119, fn_clip_3.body, fn_clip_4.body, seq, bind_assoc, pure_bind]
  rfl

/-- Every operation of the window touches TensorCore references only. -/
theorem sub_119 : (ops119 : List (HloOp τ sig (Elt F))).Forall fun op => op.bufs ⊆ tcRefs τ sig :=
  ⟨nullary_bufs_sub .., unary_bufs_sub .., binary_bufs_sub .., binary_bufs_sub .., binary_bufs_sub .., nullary_bufs_sub ..,
    unary_bufs_sub .., binary_bufs_sub .., unary_bufs_sub .., binary_bufs_sub .., unary_bufs_sub .., binary_bufs_sub ..,
    binary_bufs_sub .., binary_bufs_sub .., unary_bufs_sub .., binary_bufs_sub .., binary_bufs_sub .., binary_bufs_sub ..,
    unary_bufs_sub .., binary_bufs_sub .., binary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub ..⟩

/-- Every operation of the window determines all it writes. -/
theorem fresh_119 : (ops119 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_119 (V : Valuation τ sig (Elt F)) :
    after ops119 V (main_arg0 : DevRef τ sig) = V (main_arg0 : DevRef τ sig) := by
  simp only [after_cons, after_nil]
  rfl

end Cert.ReferenceIdeal.RefRun

end
-- ==== Proof.RefRun.W15.lean ====
import proofs.«134088_j24077586662034_2_alg».proof.Defs
import proofs.«134088_j24077586662034_2_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- The operations of @main's statements 7201 … 7260, in order (80 of them): a statement's own operation, or, for a call
    of a clip function, the six operations of its body over that call's buffers. -/
abbrev ops120 : List (HloOp τ sig (Elt F)) :=
  [ StableHlo.unary main_v5504 main_v5509 (Host.absf : (⟨S32768x4, .f32⟩ : BufTy).Contents (Elt F) → (⟨S32768x4, .f32⟩ : BufTy).Contents (Elt F)),
    StableHlo.binary main_v5508 main_v5509 main_v5510 (minimumf : (⟨S32768x4, .f32⟩ : BufTy).Contents (Elt F) → (⟨S32768x4, .f32⟩ : BufTy).Contents (Elt F) → (⟨S32768x4, .f32⟩ : BufTy).Contents (Elt F)),
    StableHlo.binary main_v5507 main_v5510 main_v5511 (mulf : (⟨S32768x4, .f32⟩ : BufTy).Contents (Elt F) → (⟨S32768x4, .f32⟩ : BufTy).Contents (Elt F) → (⟨S32768x4, .f32⟩ : BufTy).Contents (Elt F)),
    StableHlo.unary main_v5511 main_v5512 ((extractStridedSlice S32768x2 ![0, 0] · slices_S32768x4_S32768x2_0_0) : (⟨S32768x4, .f32⟩ : BufTy).Contents (Elt F) → (⟨S32768x2, .f32⟩ : BufTy).Contents (Elt F)),
    StableHlo.unary main_v5511 main_v5513 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1689 (constant S_ .f32 0xC1F00000#32),
    StableHlo.nullary main_cst_1690 (constant S_ .f32 0x41F00000#32),
    StableHlo.TRef.unary (.of main_cst_1689 : StableHlo.TRef sig ⟨S_, .f32⟩) main_call484.v0 id,
    StableHlo.TRef.unary main_call484.v0 main_call484.v1 (broadcastInDim S32768x2 ![] bcast_S_S32768x2),
    StableHlo.TRef.binary main_call484.v1 (.of main_v5512 : StableHlo.TRef sig ⟨S32768x2, .f32⟩) main_call484.v2 maximumf,
    StableHlo.TRef.unary (.of main_cst_1690 : StableHlo.TRef sig ⟨S_, .f32⟩) main_call484.v3 id,
    StableHlo.TRef.unary main_call484.v3 main_call484.v4 (broadcastInDim S32768x2 ![] bcast_S_S32768x2),
    StableHlo.TRef.binary main_call484.v4 main_call484.v2 main_call484.v5 minimumf,
    StableHlo.nullary main_cst_1691 (constant S_ .f32 0xC1F00000#32),
    StableHlo.nullary main_cst_1692 (constant S_ .f32 0x41F00000#32),
    StableHlo.TRef.unary (.of main_cst_1691 : StableHlo.TRef sig ⟨S_, .f32⟩) main_call485.v0 id,
    StableHlo.TRef.unary main_call485.v0 main_call485.v1 (broadcastInDim S32768x2 ![] bcast_S_S32768x2),
    StableHlo.TRef.binary main_call485.v1 (.of main_v5513 : StableHlo.TRef sig ⟨S32768x2, .f32⟩) main_call485.v2 maximumf,
    StableHlo.TRef.unary (.of main_cst_1692 : StableHlo.TRef sig ⟨S_, .f32⟩) main_call485.v3 id,
    StableHlo.TRef.unary main_call485.v3 main_call485.v4 (broadcastInDim S32768x2 ![] bcast_S_S32768x2),
    StableHlo.TRef.binary main_call485.v4 main_call485.v2 main_call485.v5 minimumf,
    StableHlo.unary main_v5514 main_v5516 (Host.sign : (⟨S32768x2, .f32⟩ : BufTy).Contents (Elt F) → (⟨S32768x2, .f32⟩ : BufTy).Contents (Elt F)),
    StableHlo.unary main_v5515 main_v5517 (Host.sign : (⟨S32768x2, .f32⟩ : BufTy).Contents (Elt F) → (⟨S32768x2, .f32⟩ : BufTy).Contents (Elt F)),
    StableHlo.binary main_v5516 main_v5517 main_v5518 (mulf : (⟨S32768x2, .f32⟩ : BufTy).Contents (Elt F) → (⟨S32768x2, .f32⟩ : BufTy).Contents (Elt F) → (⟨S32768x2, .f32⟩ : BufTy).Contents (Elt F)),
    StableHlo.unary main_v5514 main_v5519 (Host.absf : (⟨S32768x2, .f32⟩ : BufTy).Contents (Elt F) → (⟨S32768x2, .f32⟩ : BufTy).Contents (Elt F)),
    StableHlo.unary main_v5515 main_v5520 (Host.absf : (⟨S32768x2, .f32⟩ : BufTy).Contents (Elt F) → (⟨S32768x2, .f32⟩ : BufTy).Contents (Elt F)),
    StableHlo.binary main_v5519 main_v5520 main_v5521 (minimumf : (⟨S32768x2, .f32⟩ : BufTy).Contents (Elt F) → (⟨S32768x2, .f32⟩ : BufTy).Contents (Elt F) → (⟨S32768x2, .f32⟩ : BufTy).Contents (Elt F)),
    StableHlo.binary main_v5518 main_v5521 main_v5522 (mulf : (⟨S32768x2, .f32⟩ : BufTy).Contents (Elt F) → (⟨S32768x2, .f32⟩ : BufTy).Contents (Elt F) → (⟨S32768x2, .f32⟩ : BufTy).Contents (Elt F)),
    StableHlo.unary main_v5522 main_v5523 ((extractStridedSlice S32768x1 ![0, 0] · slices_S32768x2_S32768x1_0_0) : (⟨S32768x2, .f32⟩ : BufTy).Contents (Elt F) → (⟨S32768x1, .f32⟩ : BufTy).Contents (Elt F)),
    StableHlo.unary main_v5522 main_v5524 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1693 (constant S_ .f32 0xC1F00000#32),
    StableHlo.nullary main_cst_1694 (constant S_ .f32 0x41F00000#32),
    StableHlo.TRef.unary (.of main_cst_1693 : StableHlo.TRef sig ⟨S_, .f32⟩) main_call486.v0 id,
    StableHlo.TRef.unary main_call486.v0 main_call486.v1 (broadcastInDim S32768x1 ![] bcast_S_S32768x1),
    StableHlo.TRef.binary main_call486.v1 (.of main_v5523 : StableHlo.TRef sig ⟨S32768x1, .f32⟩) main_call486.v2 maximumf,
    StableHlo.TRef.unary (.of main_cst_1694 : StableHlo.TRef sig ⟨S_, .f32⟩) main_call486.v3 id,
    StableHlo.TRef.unary main_call486.v3 main_call486.v4 (broadcastInDim S32768x1 ![] bcast_S_S32768x1),
    StableHlo.TRef.binary main_call486.v4 main_call486.v2 main_call486.v5 minimumf,
    StableHlo.nullary main_cst_1695 (constant S_ .f32 0xC1F00000#32),
    StableHlo.nullary main_cst_1696 (constant S_ .f32 0x41F00000#32),
    StableHlo.TRef.unary (.of main_cst_1695 : StableHlo.TRef sig ⟨S_, .f32⟩) main_call487.v0 id,
    StableHlo.TRef.unary main_call487.v0 main_call487.v1 (broadcastInDim S32768x1 ![] bcast_S_S32768x1),
    StableHlo.TRef.binary main_call487.v1 (.of main_v5524 : StableHlo.TRef sig ⟨S32768x1, .f32⟩) main_call487.v2 maximumf,
    StableHlo.TRef.unary (.of main_cst_1696 : StableHlo.TRef sig ⟨S_, .f32⟩) main_call487.v3 id,
    StableHlo.TRef.unary main_call487.v3 main_call487.v4 (broadcastInDim S32768x1 ![] bcast_S_S32768x1),
    StableHlo.TRef.binary main_call487.v4 main_call487.v2 main_call487.v5 minimumf,
    StableHlo.unary main_v5525 main_v5527 (Host.sign : (⟨S32768x1, .f32⟩ : BufTy).Contents (Elt F) → (⟨S32768x1, .f32⟩ : BufTy).Contents (Elt F)),
    StableHlo.unary main_v5526 main_v5528 (Host.sign : (⟨S32768x1, .f32⟩ : BufTy).Contents (Elt F) → (⟨S32768x1, .f32⟩ : BufTy).Contents (Elt F)),
    StableHlo.binary main_v5527 main_v5528 main_v5529 (mulf : (⟨S32768x1, .f32⟩ : BufTy).Contents (Elt F) → (⟨S32768x1, .f32⟩ : BufTy).Contents (Elt F) → (⟨S32768x1, .f32⟩ : BufTy).Contents (Elt F)),
    StableHlo.unary main_v5525 main_v5530 (Host.absf : (⟨S32768x1, .f32⟩ : BufTy).Contents (Elt F) → (⟨S32768x1, .f32⟩ : BufTy).Contents (Elt F)),
    StableHlo.unary main_v5526 main_v5531 (Host.absf : (⟨S32768x1, .f32⟩ : BufTy).Contents (Elt F) → (⟨S32768x1, .f32⟩ : BufTy).Contents (Elt F)),
    StableHlo.binary main_v5530 main_v5531 main_v5532 (minimumf : (⟨S32768x1, .f32⟩ : BufTy).Contents (Elt F) → (⟨S32768x1, .f32⟩ : BufTy).Contents (Elt F) → (⟨S32768x1, .f32⟩ : BufTy).Contents (Elt F)),
    StableHlo.binary main_v5529 main_v5532 main_v5533 (mulf : (⟨S32768x1, .f32⟩ : BufTy).Contents (Elt F) → (⟨S32768x1, .f32⟩ : BufTy).Contents (Elt F) → (⟨S32768x1, .f32⟩ : BufTy).Contents (Elt F)),
    StableHlo.nullary main_cst_1697 (constant S_ .f32 0x00000000#32),
    StableHlo.unary main_cst_1697 main_v5534 (broadcastInDim S32768x1 ![] bcast_S_S32768x1 : (⟨S_, .f32⟩ : BufTy).Contents (Elt F) → (⟨S32768x1, .f32⟩ : BufTy).Contents (Elt F)),
    StableHlo.binary main_v5533 main_v5534 main_v5535 (cmpf .ole : (⟨S32768x1, .f32⟩ : BufTy).Contents (Elt F) → (⟨S32768x1, .f32⟩ : BufTy).Contents (Elt F) → (⟨S32768x1, .i1⟩ : BufTy).Contents (Elt F)),
    StableHlo.unary main_v5535 main_v5536 (uitofp .f32 : (⟨S32768x1, .i1⟩ : BufTy).Contents (Elt F) → (⟨S32768x1, .f32⟩ : BufTy).Contents (Elt F)),
    StableHlo.nullary main_cst_1698 (constant S_ .f32 0x40000000#32),
    StableHlo.unary main_cst_1698 main_v5537 (broadcastInDim S32768x1 ![] bcast_S_S32768x1 : (⟨S_, .f32⟩ : BufTy).Contents (Elt F) → (⟨S32768x1, .f32⟩ : BufTy).Contents (Elt F)),
    StableHlo.binary main_v5537 main_v5536 main_v5538 (mulf : (⟨S32768x1, .f32⟩ : BufTy).Contents (Elt F) → (⟨S32768x1, .f32⟩ : BufTy).Contents (Elt F) → (⟨S32768x1, .f32⟩ : BufTy).Contents (Elt F)),
    StableHlo.nullary main_cst_1699 (constant S_ .f32 0x3F800000#32),
    StableHlo.unary main_cst_1699 main_v5539 (broadcastInDim S32768x1 ![] bcast_S_S32768x1 : (⟨S_, .f32⟩ : BufTy).Contents (Elt F) → (⟨S32768x1, .f32⟩ : BufTy).Contents (Elt F)),
    StableHlo.binary main_v5539 main_v5538 main_v5540 (subf : (⟨S32768x1, .f32⟩ : BufTy).Contents (Elt F) → (⟨S32768x1, .f32⟩ : BufTy).Contents (Elt F) → (⟨S32768x1, .f32⟩ : BufTy).Contents (Elt F)),
    StableHlo.binary main_v5540 main_v5523 main_v5541 (mulf : (⟨S32768x1, .f32⟩ : BufTy).Contents (Elt F) → (⟨S32768x1, .f32⟩ : BufTy).Contents (Elt F) → (⟨S32768x1, .f32⟩ : BufTy).Contents (Elt F)),
    StableHlo.binary main_v5541 main_v5524 main_v5542 (addf : (⟨S32768x1, .f32⟩ : BufTy).Contents (Elt F) → (⟨S32768x1, .f32⟩ : BufTy).Contents (Elt F) → (⟨S32768x1, .f32⟩ : BufTy).Contents (Elt F)),
    StableHlo.nullary main_cst_1700 (constant S_ .f32 0x00000000#32),
    StableHlo.unary main_cst_1700 main_v5543 (broadcastInDim S32768x1 ![] bcast_S_S32768x1 : (⟨S_, .f32⟩ : BufTy).Contents (Elt F) → (⟨S32768x1, .f32⟩ : BufTy).Contents (Elt F)),
    StableHlo.binary main_v5542 main_v5543 main_v5544 (cmpf .ole : (⟨S32768x1, .f32⟩ : BufTy).Contents (Elt F) → (⟨S32768x1, .f32⟩ : BufTy).Contents (Elt F) → (⟨S32768x1, .i1⟩ : BufTy).Contents (Elt F)),
    StableHlo.unary main_v5544 main_v5545 (uitofp .f32 : (⟨S32768x1, .i1⟩ : BufTy).Contents (Elt F) → (⟨S32768x1, .f32⟩ : BufTy).Contents (Elt F)),
    StableHlo.binary main_v5536 main_v5545 main_v5546 (cmpf .une : (⟨S32768x1, .f32⟩ : BufTy).Contents (Elt F) → (⟨S32768x1, .f32⟩ : BufTy).Contents (Elt F) → (⟨S32768x1, .i1⟩ : BufTy).Contents (Elt F)),
    StableHlo.unary main_v5546 main_v5547 (uitofp .f32 : (⟨S32768x1, .i1⟩ : BufTy).Contents (Elt F) → (⟨S32768x1, .f32⟩ : BufTy).Contents (Elt F)),
    StableHlo.binary main_v5547 main_v5545 main_v5548 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5536 main_v5545 main_v5549 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1701 (constant S_ .f32 0x40000000#32),
    StableHlo.unary main_cst_1701 main_v5550 (broadcastInDim S32768x2 ![] bcast_S_S32768x2 : (⟨S_, .f32⟩ : BufTy).Contents (Elt F) → (⟨S32768x2, .f32⟩ : BufTy).Contents (Elt F)),
    StableHlo.binary main_v5550 main_v5548 main_v5551 (mulf : (⟨S32768x2, .f32⟩ : BufTy).Contents (Elt F) → (⟨S32768x2, .f32⟩ : BufTy).Contents (Elt F) → (⟨S32768x2, .f32⟩ : BufTy).Contents (Elt F)),
    StableHlo.nullary main_cst_1702 (constant S_ .f32 0x3F800000#32),
    StableHlo.unary main_cst_1702 main_v5552 (broadcastInDim S32768x2 ![] bcast_S_S32768x2 : (⟨S_, .f32⟩ : BufTy).Contents (Elt F) → (⟨S32768x2, .f32⟩ : BufTy).Contents (Elt F)),
    StableHlo.binary main_v5552 main_v5551 main_v5553 (subf : (⟨S32768x2, .f32⟩ : BufTy).Contents (Elt F) → (⟨S32768x2, .f32⟩ : BufTy).Contents (Elt F) → (⟨S32768x2, .f32⟩ : BufTy).Contents (Elt F)),
    StableHlo.binary main_v5553 main_v5512 main_v5554 (mulf : (⟨S32768x2, .f32⟩ : BufTy).Contents (Elt F) → (⟨S32768x2, .f32⟩ : BufTy).Contents (Elt F) → (⟨S32768x2, .f32⟩ : BufTy).Contents (Elt F)) ]

set_option maxRecDepth 8192 in
/-- The window is that straight line: each clip function unfolded at its calls, the sequencing reassociated. -/
theorem part_eq_120 (d : Dev nD) : main_part120 (F := F) d = seq ops120 := by
  simp only [main_part120, fn_clip_5.body, fn_clip_6.body, seq, bind_assoc, pure_bind]
  rfl

/-- Every operation of the window touches TensorCore references only. -/
theorem sub_120 : (ops120 : List (HloOp τ sig (Elt F))).Forall fun op => op.bufs ⊆ tcRefs τ sig :=
  ⟨unary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub .., unary_bufs_sub .., binary_bufs_sub .., binary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., unary_bufs_sub .., binary_bufs_sub ..,
    binary_bufs_sub .., nullary_bufs_sub .., unary_bufs_sub .., binary_bufs_sub .., nullary_bufs_sub .., unary_bufs_sub ..,
    binary_bufs_sub .., binary_bufs_sub ..⟩

/-- Every operation of the window determines all it writes. -/
theorem fresh_120 : (ops120 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_120 (V : Valuation τ sig (Elt F)) :
    after ops120 V (main_arg0 : DevRef τ sig) = V (main_arg0 : DevRef τ sig) := by
  simp only [after_cons, after_nil]
  rfl

/-- The operations of @main's statements 7261 … 7320, in order (80 of them): a statement's own operation, or, for a call
    of a clip function, the six operations of its body over that call's buffers. -/
abbrev ops121 : List (HloOp τ sig (Elt F)) :=
  [ StableHlo.binary main_v5554 main_v5513 main_v5555 (addf : (⟨S32768x2, .f32⟩ : BufTy).Contents (Elt F) → (⟨S32768x2, .f32⟩ : BufTy).Contents (Elt F) → (⟨S32768x2, .f32⟩ : BufTy).Contents (Elt F)),
    StableHlo.unary main_v5555 main_v5556 ((extractStridedSlice S32768x1 ![0, 0] · slices_S32768x2_S32768x1_0_0) : (⟨S32768x2, .f32⟩ : BufTy).Contents (Elt F) → (⟨S32768x1, .f32⟩ : BufTy).Contents (Elt F)),
    StableHlo.unary main_v5555 main_v5557 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1703 (constant S_ .f32 0xC1F00000#32),
    StableHlo.nullary main_cst_1704 (constant S_ .f32 0x41F00000#32),
    StableHlo.TRef.unary (.of main_cst_1703 : StableHlo.TRef sig ⟨S_, .f32⟩) main_call488.v0 id,
    StableHlo.TRef.unary main_call488.v0 main_call488.v1 (broadcastInDim S32768x1 ![] bcast_S_S32768x1),
    StableHlo.TRef.binary main_call488.v1 (.of main_v5556 : StableHlo.TRef sig ⟨S32768x1, .f32⟩) main_call488.v2 maximumf,
    StableHlo.TRef.unary (.of main_cst_1704 : StableHlo.TRef sig ⟨S_, .f32⟩) main_call488.v3 id,
    StableHlo.TRef.unary main_call488.v3 main_call488.v4 (broadcastInDim S32768x1 ![] bcast_S_S32768x1),
    StableHlo.TRef.binary main_call488.v4 main_call488.v2 main_call488.v5 minimumf,
    StableHlo.nullary main_cst_1705 (constant S_ .f32 0xC1F00000#32),
    StableHlo.nullary main_cst_1706 (constant S_ .f32 0x41F00000#32),
    StableHlo.TRef.unary (.of main_cst_1705 : StableHlo.TRef sig ⟨S_, .f32⟩) main_call489.v0 id,
    StableHlo.TRef.unary main_call489.v0 main_call489.v1 (broadcastInDim S32768x1 ![] bcast_S_S32768x1),
    StableHlo.TRef.binary main_call489.v1 (.of main_v5557 : StableHlo.TRef sig ⟨S32768x1, .f32⟩) main_call489.v2 maximumf,
    StableHlo.TRef.unary (.of main_cst_1706 : StableHlo.TRef sig ⟨S_, .f32⟩) main_call489.v3 id,
    StableHlo.TRef.unary main_call489.v3 main_call489.v4 (broadcastInDim S32768x1 ![] bcast_S_S32768x1),
    StableHlo.TRef.binary main_call489.v4 main_call489.v2 main_call489.v5 minimumf,
    StableHlo.unary main_v5558 main_v5560 (Host.sign : (⟨S32768x1, .f32⟩ : BufTy).Contents (Elt F) → (⟨S32768x1, .f32⟩ : BufTy).Contents (Elt F)),
    StableHlo.unary main_v5559 main_v5561 (Host.sign : (⟨S32768x1, .f32⟩ : BufTy).Contents (Elt F) → (⟨S32768x1, .f32⟩ : BufTy).Contents (Elt F)),
    StableHlo.binary main_v5560 main_v5561 main_v5562 (mulf : (⟨S32768x1, .f32⟩ : BufTy).Contents (Elt F) → (⟨S32768x1, .f32⟩ : BufTy).Contents (Elt F) → (⟨S32768x1, .f32⟩ : BufTy).Contents (Elt F)),
    StableHlo.unary main_v5558 main_v5563 (Host.absf : (⟨S32768x1, .f32⟩ : BufTy).Contents (Elt F) → (⟨S32768x1, .f32⟩ : BufTy).Contents (Elt F)),
    StableHlo.unary main_v5559 main_v5564 (Host.absf : (⟨S32768x1, .f32⟩ : BufTy).Contents (Elt F) → (⟨S32768x1, .f32⟩ : BufTy).Contents (Elt F)),
    StableHlo.binary main_v5563 main_v5564 main_v5565 (minimumf : (⟨S32768x1, .f32⟩ : BufTy).Contents (Elt F) → (⟨S32768x1, .f32⟩ : BufTy).Contents (Elt F) → (⟨S32768x1, .f32⟩ : BufTy).Contents (Elt F)),
    StableHlo.binary main_v5562 main_v5565 main_v5566 (mulf : (⟨S32768x1, .f32⟩ : BufTy).Contents (Elt F) → (⟨S32768x1, .f32⟩ : BufTy).Contents (Elt F) → (⟨S32768x1, .f32⟩ : BufTy).Contents (Elt F)),
    StableHlo.nullary main_cst_1707 (constant S_ .f32 0x00000000#32),
    StableHlo.unary main_cst_1707 main_v5567 (broadcastInDim S32768x1 ![] bcast_S_S32768x1 : (⟨S_, .f32⟩ : BufTy).Contents (Elt F) → (⟨S32768x1, .f32⟩ : BufTy).Contents (Elt F)),
    StableHlo.binary main_v5566 main_v5567 main_v5568 (cmpf .ole : (⟨S32768x1, .f32⟩ : BufTy).Contents (Elt F) → (⟨S32768x1, .f32⟩ : BufTy).Contents (Elt F) → (⟨S32768x1, .i1⟩ : BufTy).Contents (Elt F)),
    StableHlo.unary main_v5568 main_v5569 (uitofp .f32 : (⟨S32768x1, .i1⟩ : BufTy).Contents (Elt F) → (⟨S32768x1, .f32⟩ : BufTy).Contents (Elt F)),
    StableHlo.nullary main_cst_1708 (constant S_ .f32 0x40000000#32),
    StableHlo.unary main_cst_1708 main_v5570 (broadcastInDim S32768x1 ![] bcast_S_S32768x1 : (⟨S_, .f32⟩ : BufTy).Contents (Elt F) → (⟨S32768x1, .f32⟩ : BufTy).Contents (Elt F)),
    StableHlo.binary main_v5570 main_v5569 main_v5571 (mulf : (⟨S32768x1, .f32⟩ : BufTy).Contents (Elt F) → (⟨S32768x1, .f32⟩ : BufTy).Contents (Elt F) → (⟨S32768x1, .f32⟩ : BufTy).Contents (Elt F)),
    StableHlo.nullary main_cst_1709 (constant S_ .f32 0x3F800000#32),
    StableHlo.unary main_cst_1709 main_v5572 (broadcastInDim S32768x1 ![] bcast_S_S32768x1 : (⟨S_, .f32⟩ : BufTy).Contents (Elt F) → (⟨S32768x1, .f32⟩ : BufTy).Contents (Elt F)),
    StableHlo.binary main_v5572 main_v5571 main_v5573 (subf : (⟨S32768x1, .f32⟩ : BufTy).Contents (Elt F) → (⟨S32768x1, .f32⟩ : BufTy).Contents (Elt F) → (⟨S32768x1, .f32⟩ : BufTy).Contents (Elt F)),
    StableHlo.binary main_v5573 main_v5556 main_v5574 (mulf : (⟨S32768x1, .f32⟩ : BufTy).Contents (Elt F) → (⟨S32768x1, .f32⟩ : BufTy).Contents (Elt F) → (⟨S32768x1, .f32⟩ : BufTy).Contents (Elt F)),
    StableHlo.binary main_v5574 main_v5557 main_v5575 (addf : (⟨S32768x1, .f32⟩ : BufTy).Contents (Elt F) → (⟨S32768x1, .f32⟩ : BufTy).Contents (Elt F) → (⟨S32768x1, .f32⟩ : BufTy).Contents (Elt F)),
    StableHlo.nullary main_cst_1710 (constant S_ .f32 0x00000000#32),
    StableHlo.unary main_cst_1710 main_v5576 (broadcastInDim S32768x1 ![] bcast_S_S32768x1 : (⟨S_, .f32⟩ : BufTy).Contents (Elt F) → (⟨S32768x1, .f32⟩ : BufTy).Contents (Elt F)),
    StableHlo.binary main_v5575 main_v5576 main_v5577 (cmpf .ole : (⟨S32768x1, .f32⟩ : BufTy).Contents (Elt F) → (⟨S32768x1, .f32⟩ : BufTy).Contents (Elt F) → (⟨S32768x1, .i1⟩ : BufTy).Contents (Elt F)),
    StableHlo.unary main_v5577 main_v5578 (uitofp .f32 : (⟨S32768x1, .i1⟩ : BufTy).Contents (Elt F) → (⟨S32768x1, .f32⟩ : BufTy).Contents (Elt F)),
    StableHlo.binary main_v5569 main_v5578 main_v5579 (cmpf .une : (⟨S32768x1, .f32⟩ : BufTy).Contents (Elt F) → (⟨S32768x1, .f32⟩ : BufTy).Contents (Elt F) → (⟨S32768x1, .i1⟩ : BufTy).Contents (Elt F)),
    StableHlo.unary main_v5579 main_v5580 (uitofp .f32 : (⟨S32768x1, .i1⟩ : BufTy).Contents (Elt F) → (⟨S32768x1, .f32⟩ : BufTy).Contents (Elt F)),
    StableHlo.binary main_v5580 main_v5578 main_v5581 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5569 main_v5578 main_v5582 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5548 main_v5581 main_v5583 (cmpf .une : (⟨S32768x2, .f32⟩ : BufTy).Contents (Elt F) → (⟨S32768x2, .f32⟩ : BufTy).Contents (Elt F) → (⟨S32768x2, .i1⟩ : BufTy).Contents (Elt F)),
    StableHlo.unary main_v5583 main_v5584 (uitofp .f32 : (⟨S32768x2, .i1⟩ : BufTy).Contents (Elt F) → (⟨S32768x2, .f32⟩ : BufTy).Contents (Elt F)),
    StableHlo.binary main_v5584 main_v5581 main_v5585 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v5549 main_v5582 main_v5586 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_1711 (constant S_ .f32 0x40000000#32),
    StableHlo.unary main_cst_1711 main_v5587 (broadcastInDim S32768x4 ![] bcast_S_S32768x4 : (⟨S_, .f32⟩ : BufTy).Contents (Elt F) → (⟨S32768x4, .f32⟩ : BufTy).Contents (Elt F)),
    StableHlo.binary main_v5587 main_v5585 main_v5588 (mulf : (⟨S32768x4, .f32⟩ : BufTy).Contents (Elt F) → (⟨S32768x4, .f32⟩ : BufTy).Contents (Elt F) → (⟨S32768x4, .f32⟩ : BufTy).Contents (Elt F)),
    StableHlo.nullary main_cst_1712 (constant S_ .f32 0x3F800000#32),
    StableHlo.unary main_cst_1712 main_v5589 (broadcastInDim S32768x4 ![] bcast_S_S32768x4 : (⟨S_, .f32⟩ : BufTy).Contents (Elt F) → (⟨S32768x4, .f32⟩ : BufTy).Contents (Elt F)),
    StableHlo.binary main_v5589 main_v5588 main_v5590 (subf : (⟨S32768x4, .f32⟩ : BufTy).Contents (Elt F) → (⟨S32768x4, .f32⟩ : BufTy).Contents (Elt F) → (⟨S32768x4, .f32⟩ : BufTy).Contents (Elt F)),
    StableHlo.binary main_v5590 main_v5501 main_v5591 (mulf : (⟨S32768x4, .f32⟩ : BufTy).Contents (Elt F) → (⟨S32768x4, .f32⟩ : BufTy).Contents (Elt F) → (⟨S32768x4, .f32⟩ : BufTy).Contents (Elt F)),
    StableHlo.binary main_v5591 main_v5502 main_v5592 (addf : (⟨S32768x4, .f32⟩ : BufTy).Contents (Elt F) → (⟨S32768x4, .f32⟩ : BufTy).Contents (Elt F) → (⟨S32768x4, .f32⟩ : BufTy).Contents (Elt F)),
    StableHlo.unary main_v5592 main_v5593 ((extractStridedSlice S32768x2 ![0, 0] · slices_S32768x4_S32768x2_0_0) : (⟨S32768x4, .f32⟩ : BufTy).Contents (Elt F) → (⟨S32768x2, .f32⟩ : BufTy).Contents (Elt F)),
    StableHlo.unary main_v5592 main_v5594 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1713 (constant S_ .f32 0xC1F00000#32),
    StableHlo.nullary main_cst_1714 (constant S_ .f32 0x41F00000#32),
    StableHlo.TRef.unary (.of main_cst_1713 : StableHlo.TRef sig ⟨S_, .f32⟩) main_call490.v0 id,
    StableHlo.TRef.unary main_call490.v0 main_call490.v1 (broadcastInDim S32768x2 ![] bcast_S_S32768x2),
    StableHlo.TRef.binary main_call490.v1 (.of main_v5593 : StableHlo.TRef sig ⟨S32768x2, .f32⟩) main_call490.v2 maximumf,
    StableHlo.TRef.unary (.of main_cst_1714 : StableHlo.TRef sig ⟨S_, .f32⟩) main_call490.v3 id,
    StableHlo.TRef.unary main_call490.v3 main_call490.v4 (broadcastInDim S32768x2 ![] bcast_S_S32768x2),
    StableHlo.TRef.binary main_call490.v4 main_call490.v2 main_call490.v5 minimumf,
    StableHlo.nullary main_cst_1715 (constant S_ .f32 0xC1F00000#32),
    StableHlo.nullary main_cst_1716 (constant S_ .f32 0x41F00000#32),
    StableHlo.TRef.unary (.of main_cst_1715 : StableHlo.TRef sig ⟨S_, .f32⟩) main_call491.v0 id,
    StableHlo.TRef.unary main_call491.v0 main_call491.v1 (broadcastInDim S32768x2 ![] bcast_S_S32768x2),
    StableHlo.TRef.binary main_call491.v1 (.of main_v5594 : StableHlo.TRef sig ⟨S32768x2, .f32⟩) main_call491.v2 maximumf,
    StableHlo.TRef.unary (.of main_cst_1716 : StableHlo.TRef sig ⟨S_, .f32⟩) main_call491.v3 id,
    StableHlo.TRef.unary main_call491.v3 main_call491.v4 (broadcastInDim S32768x2 ![] bcast_S_S32768x2),
    StableHlo.TRef.binary main_call491.v4 main_call491.v2 main_call491.v5 minimumf,
    StableHlo.unary main_v5595 main_v5597 (Host.sign : (⟨S32768x2, .f32⟩ : BufTy).Contents (Elt F) → (⟨S32768x2, .f32⟩ : BufTy).Contents (Elt F)),
    StableHlo.unary main_v5596 main_v5598 (Host.sign : (⟨S32768x2, .f32⟩ : BufTy).Contents (Elt F) → (⟨S32768x2, .f32⟩ : BufTy).Contents (Elt F)),
    StableHlo.binary main_v5597 main_v5598 main_v5599 (mulf : (⟨S32768x2, .f32⟩ : BufTy).Contents (Elt F) → (⟨S32768x2, .f32⟩ : BufTy).Contents (Elt F) → (⟨S32768x2, .f32⟩ : BufTy).Contents (Elt F)),
    StableHlo.unary main_v5595 main_v5600 (Host.absf : (⟨S32768x2, .f32⟩ : BufTy).Contents (Elt F) → (⟨S32768x2, .f32⟩ : BufTy).Contents (Elt F)) ]

set_option maxRecDepth 8192 in
/-- The window is that straight line: each clip function unfolded at its calls, the sequencing reassociated. -/
theorem part_eq_121 (d : Dev nD) : main_part121 (F := F) d = seq ops121 := by
  simp only [main_part121, fn_clip_6.body, fn_clip_5.body, seq, bind_assoc, pure_bind]
  rfl

/-- Every operation of the window touches TensorCore references only. -/
theorem sub_121 : (ops121 : List (HloOp τ sig (Elt F))).Forall fun op => op.bufs ⊆ tcRefs τ sig :=
  ⟨binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., unary_bufs_sub .., binary_bufs_sub .., binary_bufs_sub .., binary_bufs_sub .., unary_bufs_sub ..,
    binary_bufs_sub .., binary_bufs_sub .., nullary_bufs_sub .., unary_bufs_sub .., binary_bufs_sub .., nullary_bufs_sub ..,
    unary_bufs_sub .., binary_bufs_sub .., binary_bufs_sub .., binary_bufs_sub .., unary_bufs_sub .., unary_bufs_sub ..,
    nullary_bufs_sub .., nullary_bufs_sub .., unary_bufs_sub .., unary_bufs_sub .., binary_bufs_sub .., unary_bufs_sub ..,
    unary_bufs_sub .., binary_bufs_sub .., nullary_bufs_sub .., nullary_bufs_sub .., unary_bufs_sub .., unary_bufs_sub ..,
    binary_bufs_sub .., unary_bufs_sub .., unary_bufs_sub .., binary_bufs_sub .., unary_bufs_sub .., unary_bufs_sub ..,
    binary_bufs_sub .., unary_bufs_sub ..⟩

/-- Every operation of the window determines all it writes. -/
theorem fresh_121 : (ops121 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_121 (V : Valuation τ sig (Elt F)) :
    after ops121 V (main_arg0 : DevRef τ sig) = V (main_arg0 : DevRef τ sig) := by
  simp only [after_cons, after_nil]
  rfl

/-- The operations of @main's statements 7321 … 7380, in order (80 of them): a statement's own operation, or, for a call
    of a clip function, the six operations of its body over that call's buffers. -/
abbrev ops122 : List (HloOp τ sig (Elt F)) :=
  [ StableHlo.unary main_v5596 main_v5601 (Host.absf : (⟨S32768x2, .f32⟩ : BufTy).Contents (Elt F) → (⟨S32768x2, .f32⟩ : BufTy).Contents (Elt F)),
    StableHlo.binary main_v5600 main_v5601 main_v5602 (minimumf : (⟨S32768x2, .f32⟩ : BufTy).Contents (Elt F) → (⟨S32768x2, .f32⟩ : BufTy).Contents (Elt F) → (⟨S32768x2, .f32⟩ : BufTy).Contents (Elt F)),
    StableHlo.binary main_v5599 main_v5602 main_v5603 (mulf : (⟨S32768x2, .f32⟩ : BufTy).Contents (Elt F) → (⟨S32768x2, .f32⟩ : BufTy).Contents (Elt F) → (⟨S32768x2, .f32⟩ : BufTy).Contents (Elt F)),
    StableHlo.unary main_v5603 main_v5604 ((extractStridedSlice S32768x1 ![0, 0] · slices_S32768x2_S32768x1_0_0) : (⟨S32768x2, .f32⟩ : BufTy).Contents (Elt F) → (⟨S32768x1, .f32⟩ : BufTy).Contents (Elt F)),
    StableHlo.unary main_v5603 main_v5605 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1717 (constant S_ .f32 0xC1F00000#32),
    StableHlo.nullary main_cst_1718 (constant S_ .f32 0x41F00000#32),
    StableHlo.TRef.unary (.of main_cst_1717 : StableHlo.TRef sig ⟨S_, .f32⟩) main_call492.v0 id,
    StableHlo.TRef.unary main_call492.v0 main_call492.v1 (broadcastInDim S32768x1 ![] bcast_S_S32768x1),
    StableHlo.TRef.binary main_call492.v1 (.of main_v5604 : StableHlo.TRef sig ⟨S32768x1, .f32⟩) main_call492.v2 maximumf,
    StableHlo.TRef.unary (.of main_cst_1718 : StableHlo.TRef sig ⟨S_, .f32⟩) main_call492.v3 id,
    StableHlo.TRef.unary main_call492.v3 main_call492.v4 (broadcastInDim S32768x1 ![] bcast_S_S32768x1),
    StableHlo.TRef.binary main_call492.v4 main_call492.v2 main_call492.v5 minimumf,
    StableHlo.nullary main_cst_1719 (constant S_ .f32 0xC1F00000#32),
    StableHlo.nullary main_cst_1720 (constant S_ .f32 0x41F00000#32),
    StableHlo.TRef.unary (.of main_cst_1719 : StableHlo.TRef sig ⟨S_, .f32⟩) main_call493.v0 id,
    StableHlo.TRef.unary main_call493.v0 main_call493.v1 (broadcastInDim S32768x1 ![] bcast_S_S32768x1),
    StableHlo.TRef.binary main_call493.v1 (.of main_v5605 : StableHlo.TRef sig ⟨S32768x1, .f32⟩) main_call493.v2 maximumf,
    StableHlo.TRef.unary (.of main_cst_1720 : StableHlo.TRef sig ⟨S_, .f32⟩) main_call493.v3 id,
    StableHlo.TRef.unary main_call493.v3 main_call493.v4 (broadcastInDim S32768x1 ![] bcast_S_S32768x1),
    StableHlo.TRef.binary main_call493.v4 main_call493.v2 main_call493.v5 minimumf,
    StableHlo.unary main_v5606 main_v5608 (Host.sign : (⟨S32768x1, .f32⟩ : BufTy).Contents (Elt F) → (⟨S32768x1, .f32⟩ : BufTy).Contents (Elt F)),
    StableHlo.unary main_v5607 main_v5609 (Host.sign : (⟨S32768x1, .f32⟩ : BufTy).Contents (Elt F) → (⟨S32768x1, .f32⟩ : BufTy).Contents (Elt F)),
    StableHlo.binary main_v5608 main_v5609 main_v5610 (mulf : (⟨S32768x1, .f32⟩ : BufTy).Contents (Elt F) → (⟨S32768x1, .f32⟩ : BufTy).Contents (Elt F) → (⟨S32768x1, .f32⟩ : BufTy).Contents (Elt F)),
    StableHlo.unary main_v5606 main_v5611 (Host.absf : (⟨S32768x1, .f32⟩ : BufTy).Contents (Elt F) → (⟨S32768x1, .f32⟩ : BufTy).Contents (Elt F)),
    StableHlo.unary main_v5607 main_v5612 (Host.absf : (⟨S32768x1, .f32⟩ : BufTy).Contents (Elt F) → (⟨S32768x1, .f32⟩ : BufTy).Contents (Elt F)),
    StableHlo.binary main_v5611 main_v5612 main_v5613 (minimumf : (⟨S32768x1, .f32⟩ : BufTy).Contents (Elt F) → (⟨S32768x1, .f32⟩ : BufTy).Contents (Elt F) → (⟨S32768x1, .f32⟩ : BufTy).Contents (Elt F)),
    StableHlo.binary main_v5610 main_v5613 main_v5614 (mulf : (⟨S32768x1, .f32⟩ : BufTy).Contents (Elt F) → (⟨S32768x1, .f32⟩ : BufTy).Contents (Elt F) → (⟨S32768x1, .f32⟩ : BufTy).Contents (Elt F)),
    StableHlo.nullary main_cst_1721 (constant S_ .f32 0x00000000#32),
    StableHlo.unary main_cst_1721 main_v5615 (broadcastInDim S32768x1 ![] bcast_S_S32768x1 : (⟨S_, .f32⟩ : BufTy).Contents (Elt F) → (⟨S32768x1, .f32⟩ : BufTy).Contents (Elt F)),
    StableHlo.binary main_v5614 main_v5615 main_v5616 (cmpf .ole : (⟨S32768x1, .f32⟩ : BufTy).Contents (Elt F) → (⟨S32768x1, .f32⟩ : BufTy).Contents (Elt F) → (⟨S32768x1, .i1⟩ : BufTy).Contents (Elt F)),
    StableHlo.unary main_v5616 main_v5617 (uitofp .f32 : (⟨S32768x1, .i1⟩ : BufTy).Contents (Elt F) → (⟨S32768x1, .f32⟩ : BufTy).Contents (Elt F)),
    StableHlo.nullary main_cst_1722 (constant S_ .f32 0x40000000#32),
    StableHlo.unary main_cst_1722 main_v5618 (broadcastInDim S32768x1 ![] bcast_S_S32768x1 : (⟨S_, .f32⟩ : BufTy).Contents (Elt F) → (⟨S32768x1, .f32⟩ : BufTy).Contents (Elt F)),
    StableHlo.binary main_v5618 main_v5617 main_v5619 (mulf : (⟨S32768x1, .f32⟩ : BufTy).Contents (Elt F) → (⟨S32768x1, .f32⟩ : BufTy).Contents (Elt F) → (⟨S32768x1, .f32⟩ : BufTy).Contents (Elt F)),
    StableHlo.nullary main_cst_1723 (constant S_ .f32 0x3F800000#32),
    StableHlo.unary main_cst_1723 main_v5620 (broadcastInDim S32768x1 ![] bcast_S_S32768x1 : (⟨S_, .f32⟩ : BufTy).Contents (Elt F) → (⟨S32768x1, .f32⟩ : BufTy).Contents (Elt F)),
    StableHlo.binary main_v5620 main_v5619 main_v5621 (subf : (⟨S32768x1, .f32⟩ : BufTy).Contents (Elt F) → (⟨S32768x1, .f32⟩ : BufTy).Contents (Elt F) → (⟨S32768x1, .f32⟩ : BufTy).Contents (Elt F)),
    StableHlo.binary main_v5621 main_v5604 main_v5622 (mulf : (⟨S32768x1, .f32⟩ : BufTy).Contents (Elt F) → (⟨S32768x1, .f32⟩ : BufTy).Contents (Elt F) → (⟨S32768x1, .f32⟩ : BufTy).Contents (Elt F)),
    StableHlo.binary main_v5622 main_v5605 main_v5623 (addf : (⟨S32768x1, .f32⟩ : BufTy).Contents (Elt F) → (⟨S32768x1, .f32⟩ : BufTy).Contents (Elt F) → (⟨S32768x1, .f32⟩ : BufTy).Contents (Elt F)),
    StableHlo.nullary main_cst_1724 (constant S_ .f32 0x00000000#32),
    StableHlo.unary main_cst_1724 main_v5624 (broadcastInDim S32768x1 ![] bcast_S_S32768x1 : (⟨S_, .f32⟩ : BufTy).Contents (Elt F) → (⟨S32768x1, .f32⟩ : BufTy).Contents (Elt F)),
    StableHlo.binary main_v5623 main_v5624 main_v5625 (cmpf .ole : (⟨S32768x1, .f32⟩ : BufTy).Contents (Elt F) → (⟨S32768x1, .f32⟩ : BufTy).Contents (Elt F) → (⟨S32768x1, .i1⟩ : BufTy).Contents (Elt F)),
    StableHlo.unary main_v5625 main_v5626 (uitofp .f32 : (⟨S32768x1, .i1⟩ : BufTy).Contents (Elt F) → (⟨S32768x1, .f32⟩ : BufTy).Contents (Elt F)),
    StableHlo.binary main_v5617 main_v5626 main_v5627 (cmpf .une : (⟨S32768x1, .f32⟩ : BufTy).Contents (Elt F) → (⟨S32768x1, .f32⟩ : BufTy).Contents (Elt F) → (⟨S32768x1, .i1⟩ : BufTy).Contents (Elt F)),
    StableHlo.unary main_v5627 main_v5628 (uitofp .f32 : (⟨S32768x1, .i1⟩ : BufTy).Contents (Elt F) → (⟨S32768x1, .f32⟩ : BufTy).Contents (Elt F)),
    StableHlo.binary main_v5628 main_v5626 main_v5629 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5617 main_v5626 main_v5630 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1725 (constant S_ .f32 0x40000000#32),
    StableHlo.unary main_cst_1725 main_v5631 (broadcastInDim S32768x2 ![] bcast_S_S32768x2 : (⟨S_, .f32⟩ : BufTy).Contents (Elt F) → (⟨S32768x2, .f32⟩ : BufTy).Contents (Elt F)),
    StableHlo.binary main_v5631 main_v5629 main_v5632 (mulf : (⟨S32768x2, .f32⟩ : BufTy).Contents (Elt F) → (⟨S32768x2, .f32⟩ : BufTy).Contents (Elt F) → (⟨S32768x2, .f32⟩ : BufTy).Contents (Elt F)),
    StableHlo.nullary main_cst_1726 (constant S_ .f32 0x3F800000#32),
    StableHlo.unary main_cst_1726 main_v5633 (broadcastInDim S32768x2 ![] bcast_S_S32768x2 : (⟨S_, .f32⟩ : BufTy).Contents (Elt F) → (⟨S32768x2, .f32⟩ : BufTy).Contents (Elt F)),
    StableHlo.binary main_v5633 main_v5632 main_v5634 (subf : (⟨S32768x2, .f32⟩ : BufTy).Contents (Elt F) → (⟨S32768x2, .f32⟩ : BufTy).Contents (Elt F) → (⟨S32768x2, .f32⟩ : BufTy).Contents (Elt F)),
    StableHlo.binary main_v5634 main_v5593 main_v5635 (mulf : (⟨S32768x2, .f32⟩ : BufTy).Contents (Elt F) → (⟨S32768x2, .f32⟩ : BufTy).Contents (Elt F) → (⟨S32768x2, .f32⟩ : BufTy).Contents (Elt F)),
    StableHlo.binary main_v5635 main_v5594 main_v5636 (addf : (⟨S32768x2, .f32⟩ : BufTy).Contents (Elt F) → (⟨S32768x2, .f32⟩ : BufTy).Contents (Elt F) → (⟨S32768x2, .f32⟩ : BufTy).Contents (Elt F)),
    StableHlo.unary main_v5636 main_v5637 ((extractStridedSlice S32768x1 ![0, 0] · slices_S32768x2_S32768x1_0_0) : (⟨S32768x2, .f32⟩ : BufTy).Contents (Elt F) → (⟨S32768x1, .f32⟩ : BufTy).Contents (Elt F)),
    StableHlo.unary main_v5636 main_v5638 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1727 (constant S_ .f32 0xC1F00000#32),
    StableHlo.nullary main_cst_1728 (constant S_ .f32 0x41F00000#32),
    StableHlo.TRef.unary (.of main_cst_1727 : StableHlo.TRef sig ⟨S_, .f32⟩) main_call494.v0 id,
    StableHlo.TRef.unary main_call494.v0 main_call494.v1 (broadcastInDim S32768x1 ![] bcast_S_S32768x1),
    StableHlo.TRef.binary main_call494.v1 (.of main_v5637 : StableHlo.TRef sig ⟨S32768x1, .f32⟩) main_call494.v2 maximumf,
    StableHlo.TRef.unary (.of main_cst_1728 : StableHlo.TRef sig ⟨S_, .f32⟩) main_call494.v3 id,
    StableHlo.TRef.unary main_call494.v3 main_call494.v4 (broadcastInDim S32768x1 ![] bcast_S_S32768x1),
    StableHlo.TRef.binary main_call494.v4 main_call494.v2 main_call494.v5 minimumf,
    StableHlo.nullary main_cst_1729 (constant S_ .f32 0xC1F00000#32),
    StableHlo.nullary main_cst_1730 (constant S_ .f32 0x41F00000#32),
    StableHlo.TRef.unary (.of main_cst_1729 : StableHlo.TRef sig ⟨S_, .f32⟩) main_call495.v0 id,
    StableHlo.TRef.unary main_call495.v0 main_call495.v1 (broadcastInDim S32768x1 ![] bcast_S_S32768x1),
    StableHlo.TRef.binary main_call495.v1 (.of main_v5638 : StableHlo.TRef sig ⟨S32768x1, .f32⟩) main_call495.v2 maximumf,
    StableHlo.TRef.unary (.of main_cst_1730 : StableHlo.TRef sig ⟨S_, .f32⟩) main_call495.v3 id,
    StableHlo.TRef.unary main_call495.v3 main_call495.v4 (broadcastInDim S32768x1 ![] bcast_S_S32768x1),
    StableHlo.TRef.binary main_call495.v4 main_call495.v2 main_call495.v5 minimumf,
    StableHlo.unary main_v5639 main_v5641 (Host.sign : (⟨S32768x1, .f32⟩ : BufTy).Contents (Elt F) → (⟨S32768x1, .f32⟩ : BufTy).Contents (Elt F)),
    StableHlo.unary main_v5640 main_v5642 (Host.sign : (⟨S32768x1, .f32⟩ : BufTy).Contents (Elt F) → (⟨S32768x1, .f32⟩ : BufTy).Contents (Elt F)),
    StableHlo.binary main_v5641 main_v5642 main_v5643 (mulf : (⟨S32768x1, .f32⟩ : BufTy).Contents (Elt F) → (⟨S32768x1, .f32⟩ : BufTy).Contents (Elt F) → (⟨S32768x1, .f32⟩ : BufTy).Contents (Elt F)),
    StableHlo.unary main_v5639 main_v5644 (Host.absf : (⟨S32768x1, .f32⟩ : BufTy).Contents (Elt F) → (⟨S32768x1, .f32⟩ : BufTy).Contents (Elt F)),
    StableHlo.unary main_v5640 main_v5645 (Host.absf : (⟨S32768x1, .f32⟩ : BufTy).Contents (Elt F) → (⟨S32768x1, .f32⟩ : BufTy).Contents (Elt F)),
    StableHlo.binary main_v5644 main_v5645 main_v5646 (minimumf : (⟨S32768x1, .f32⟩ : BufTy).Contents (Elt F) → (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_122 (d : Dev nD) : main_part122 (F := F) d = seq ops122 := by
  simp only [main_part122, fn_clip_6.body, seq, bind_assoc, pure_bind]
  rfl

/-- Every operation of the window touches TensorCore references only. -/
theorem sub_122 : (ops122 : List (HloOp τ sig (Elt F))).Forall fun op => op.bufs ⊆ tcRefs τ sig :=
  ⟨unary_bufs_sub .., binary_bufs_sub .., binary_bufs_sub .., unary_bufs_sub .., unary_bufs_sub .., nullary_bufs_sub ..,
    nullary_bufs_sub .., unary_bufs_sub .., unary_bufs_sub .., binary_bufs_sub .., unary_bufs_sub .., unary_bufs_sub ..,
    binary_bufs_sub .., nullary_bufs_sub .., nullary_bufs_sub .., unary_bufs_sub .., unary_bufs_sub .., binary_bufs_sub ..,
    unary_bufs_sub .., unary_bufs_sub .., binary_bufs_sub .., unary_bufs_sub .., unary_bufs_sub .., binary_bufs_sub ..,
    unary_bufs_sub .., unary_bufs_sub .., binary_bufs_sub .., binary_bufs_sub .., nullary_bufs_sub .., unary_bufs_sub ..,
    binary_bufs_sub .., unary_bufs_sub .., nullary_bufs_sub .., unary_bufs_sub .., binary_bufs_sub .., nullary_bufs_sub ..,
    unary_bufs_sub .., binary_bufs_sub .., binary_bufs_sub .., binary_bufs_sub .., nullary_bufs_sub .., unary_bufs_sub ..,
    binary_bufs_sub .., unary_bufs_sub .., binary_bufs_sub .., unary_bufs_sub .., binary_bufs_sub .., binary_bufs_sub ..,
    nullary_bufs_sub .., unary_bufs_sub .., binary_bufs_sub .., nullary_bufs_sub .., unary_bufs_sub .., binary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub .., unary_bufs_sub .., unary_bufs_sub .., binary_bufs_sub .., unary_bufs_sub ..,
    unary_bufs_sub .., binary_bufs_sub ..⟩

/-- Every operation of the window determines all it writes. -/
theorem fresh_122 : (ops122 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_122 (V : Valuation τ sig (Elt F)) :
    after ops122 V (main_arg0 : DevRef τ sig) = V (main_arg0 : DevRef τ sig) := by
  simp only [after_cons, after_nil]
  rfl

/-- The operations of @main's statements 7381 … 7440, in order (80 of them): a statement's own operation, or, for a call
    of a clip function, the six operations of its body over that call's buffers. -/
abbrev ops123 : List (HloOp τ sig (Elt F)) :=
  [ StableHlo.binary main_v5643 main_v5646 main_v5647 (mulf : (⟨S32768x1, .f32⟩ : BufTy).Contents (Elt F) → (⟨S32768x1, .f32⟩ : BufTy).Contents (Elt F) → (⟨S32768x1, .f32⟩ : BufTy).Contents (Elt F)),
    StableHlo.nullary main_cst_1731 (constant S_ .f32 0x00000000#32),
    StableHlo.unary main_cst_1731 main_v5648 (broadcastInDim S32768x1 ![] bcast_S_S32768x1 : (⟨S_, .f32⟩ : BufTy).Contents (Elt F) → (⟨S32768x1, .f32⟩ : BufTy).Contents (Elt F)),
    StableHlo.binary main_v5647 main_v5648 main_v5649 (cmpf .ole : (⟨S32768x1, .f32⟩ : BufTy).Contents (Elt F) → (⟨S32768x1, .f32⟩ : BufTy).Contents (Elt F) → (⟨S32768x1, .i1⟩ : BufTy).Contents (Elt F)),
    StableHlo.unary main_v5649 main_v5650 (uitofp .f32 : (⟨S32768x1, .i1⟩ : BufTy).Contents (Elt F) → (⟨S32768x1, .f32⟩ : BufTy).Contents (Elt F)),
    StableHlo.nullary main_cst_1732 (constant S_ .f32 0x40000000#32),
    StableHlo.unary main_cst_1732 main_v5651 (broadcastInDim S32768x1 ![] bcast_S_S32768x1 : (⟨S_, .f32⟩ : BufTy).Contents (Elt F) → (⟨S32768x1, .f32⟩ : BufTy).Contents (Elt F)),
    StableHlo.binary main_v5651 main_v5650 main_v5652 (mulf : (⟨S32768x1, .f32⟩ : BufTy).Contents (Elt F) → (⟨S32768x1, .f32⟩ : BufTy).Contents (Elt F) → (⟨S32768x1, .f32⟩ : BufTy).Contents (Elt F)),
    StableHlo.nullary main_cst_1733 (constant S_ .f32 0x3F800000#32),
    StableHlo.unary main_cst_1733 main_v5653 (broadcastInDim S32768x1 ![] bcast_S_S32768x1 : (⟨S_, .f32⟩ : BufTy).Contents (Elt F) → (⟨S32768x1, .f32⟩ : BufTy).Contents (Elt F)),
    StableHlo.binary main_v5653 main_v5652 main_v5654 (subf : (⟨S32768x1, .f32⟩ : BufTy).Contents (Elt F) → (⟨S32768x1, .f32⟩ : BufTy).Contents (Elt F) → (⟨S32768x1, .f32⟩ : BufTy).Contents (Elt F)),
    StableHlo.binary main_v5654 main_v5637 main_v5655 (mulf : (⟨S32768x1, .f32⟩ : BufTy).Contents (Elt F) → (⟨S32768x1, .f32⟩ : BufTy).Contents (Elt F) → (⟨S32768x1, .f32⟩ : BufTy).Contents (Elt F)),
    StableHlo.binary main_v5655 main_v5638 main_v5656 (addf : (⟨S32768x1, .f32⟩ : BufTy).Contents (Elt F) → (⟨S32768x1, .f32⟩ : BufTy).Contents (Elt F) → (⟨S32768x1, .f32⟩ : BufTy).Contents (Elt F)),
    StableHlo.nullary main_cst_1734 (constant S_ .f32 0x00000000#32),
    StableHlo.unary main_cst_1734 main_v5657 (broadcastInDim S32768x1 ![] bcast_S_S32768x1 : (⟨S_, .f32⟩ : BufTy).Contents (Elt F) → (⟨S32768x1, .f32⟩ : BufTy).Contents (Elt F)),
    StableHlo.binary main_v5656 main_v5657 main_v5658 (cmpf .ole : (⟨S32768x1, .f32⟩ : BufTy).Contents (Elt F) → (⟨S32768x1, .f32⟩ : BufTy).Contents (Elt F) → (⟨S32768x1, .i1⟩ : BufTy).Contents (Elt F)),
    StableHlo.unary main_v5658 main_v5659 (uitofp .f32 : (⟨S32768x1, .i1⟩ : BufTy).Contents (Elt F) → (⟨S32768x1, .f32⟩ : BufTy).Contents (Elt F)),
    StableHlo.binary main_v5650 main_v5659 main_v5660 (cmpf .une : (⟨S32768x1, .f32⟩ : BufTy).Contents (Elt F) → (⟨S32768x1, .f32⟩ : BufTy).Contents (Elt F) → (⟨S32768x1, .i1⟩ : BufTy).Contents (Elt F)),
    StableHlo.unary main_v5660 main_v5661 (uitofp .f32 : (⟨S32768x1, .i1⟩ : BufTy).Contents (Elt F) → (⟨S32768x1, .f32⟩ : BufTy).Contents (Elt F)),
    StableHlo.binary main_v5661 main_v5659 main_v5662 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5650 main_v5659 main_v5663 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5629 main_v5662 main_v5664 (cmpf .une : (⟨S32768x2, .f32⟩ : BufTy).Contents (Elt F) → (⟨S32768x2, .f32⟩ : BufTy).Contents (Elt F) → (⟨S32768x2, .i1⟩ : BufTy).Contents (Elt F)),
    StableHlo.unary main_v5664 main_v5665 (uitofp .f32 : (⟨S32768x2, .i1⟩ : BufTy).Contents (Elt F) → (⟨S32768x2, .f32⟩ : BufTy).Contents (Elt F)),
    StableHlo.binary main_v5665 main_v5662 main_v5666 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v5630 main_v5663 main_v5667 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v5585 main_v5666 main_v5668 (cmpf .une : (⟨S32768x4, .f32⟩ : BufTy).Contents (Elt F) → (⟨S32768x4, .f32⟩ : BufTy).Contents (Elt F) → (⟨S32768x4, .i1⟩ : BufTy).Contents (Elt F)),
    StableHlo.unary main_v5668 main_v5669 (uitofp .f32 : (⟨S32768x4, .i1⟩ : BufTy).Contents (Elt F) → (⟨S32768x4, .f32⟩ : BufTy).Contents (Elt F)),
    StableHlo.binary main_v5669 main_v5666 main_v5670 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v5586 main_v5667 main_v5671 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.nullary main_cst_1735 (constant S_ .f32 0x40000000#32),
    StableHlo.unary main_cst_1735 main_v5672 (broadcastInDim S32768x8 ![] bcast_S_S32768x8 : (⟨S_, .f32⟩ : BufTy).Contents (Elt F) → (⟨S32768x8, .f32⟩ : BufTy).Contents (Elt F)),
    StableHlo.binary main_v5672 main_v5670 main_v5673 (mulf : (⟨S32768x8, .f32⟩ : BufTy).Contents (Elt F) → (⟨S32768x8, .f32⟩ : BufTy).Contents (Elt F) → (⟨S32768x8, .f32⟩ : BufTy).Contents (Elt F)),
    StableHlo.nullary main_cst_1736 (constant S_ .f32 0x3F800000#32),
    StableHlo.unary main_cst_1736 main_v5674 (broadcastInDim S32768x8 ![] bcast_S_S32768x8 : (⟨S_, .f32⟩ : BufTy).Contents (Elt F) → (⟨S32768x8, .f32⟩ : BufTy).Contents (Elt F)),
    StableHlo.binary main_v5674 main_v5673 main_v5675 (subf : (⟨S32768x8, .f32⟩ : BufTy).Contents (Elt F) → (⟨S32768x8, .f32⟩ : BufTy).Contents (Elt F) → (⟨S32768x8, .f32⟩ : BufTy).Contents (Elt F)),
    StableHlo.binary main_v5675 main_v5490 main_v5676 (mulf : (⟨S32768x8, .f32⟩ : BufTy).Contents (Elt F) → (⟨S32768x8, .f32⟩ : BufTy).Contents (Elt F) → (⟨S32768x8, .f32⟩ : BufTy).Contents (Elt F)),
    StableHlo.binary main_v5676 main_v5491 main_v5677 (addf : (⟨S32768x8, .f32⟩ : BufTy).Contents (Elt F) → (⟨S32768x8, .f32⟩ : BufTy).Contents (Elt F) → (⟨S32768x8, .f32⟩ : BufTy).Contents (Elt F)),
    StableHlo.unary main_v5677 main_v5678 ((extractStridedSlice S32768x4 ![0, 0] · slices_S32768x8_S32768x4_0_0) : (⟨S32768x8, .f32⟩ : BufTy).Contents (Elt F) → (⟨S32768x4, .f32⟩ : BufTy).Contents (Elt F)),
    StableHlo.unary main_v5677 main_v5679 ((extractStridedSlice S32768x4 ![0, 4] · slices_S32768x8_S32768x4_0_4) : (⟨S32768x8, .f32⟩ : BufTy).Contents (Elt F) → (⟨S32768x4, .f32⟩ : BufTy).Contents (Elt F)),
    StableHlo.nullary main_cst_1737 (constant S_ .f32 0xC1F00000#32),
    StableHlo.nullary main_cst_1738 (constant S_ .f32 0x41F00000#32),
    StableHlo.TRef.unary (.of main_cst_1737 : StableHlo.TRef sig ⟨S_, .f32⟩) main_call496.v0 id,
    StableHlo.TRef.unary main_call496.v0 main_call496.v1 (broadcastInDim S32768x4 ![] bcast_S_S32768x4),
    StableHlo.TRef.binary main_call496.v1 (.of main_v5678 : StableHlo.TRef sig ⟨S32768x4, .f32⟩) main_call496.v2 maximumf,
    StableHlo.TRef.unary (.of main_cst_1738 : StableHlo.TRef sig ⟨S_, .f32⟩) main_call496.v3 id,
    StableHlo.TRef.unary main_call496.v3 main_call496.v4 (broadcastInDim S32768x4 ![] bcast_S_S32768x4),
    StableHlo.TRef.binary main_call496.v4 main_call496.v2 main_call496.v5 minimumf,
    StableHlo.nullary main_cst_1739 (constant S_ .f32 0xC1F00000#32),
    StableHlo.nullary main_cst_1740 (constant S_ .f32 0x41F00000#32),
    StableHlo.TRef.unary (.of main_cst_1739 : StableHlo.TRef sig ⟨S_, .f32⟩) main_call497.v0 id,
    StableHlo.TRef.unary main_call497.v0 main_call497.v1 (broadcastInDim S32768x4 ![] bcast_S_S32768x4),
    StableHlo.TRef.binary main_call497.v1 (.of main_v5679 : StableHlo.TRef sig ⟨S32768x4, .f32⟩) main_call497.v2 maximumf,
    StableHlo.TRef.unary (.of main_cst_1740 : StableHlo.TRef sig ⟨S_, .f32⟩) main_call497.v3 id,
    StableHlo.TRef.unary main_call497.v3 main_call497.v4 (broadcastInDim S32768x4 ![] bcast_S_S32768x4),
    StableHlo.TRef.binary main_call497.v4 main_call497.v2 main_call497.v5 minimumf,
    StableHlo.unary main_v5680 main_v5682 (Host.sign : (⟨S32768x4, .f32⟩ : BufTy).Contents (Elt F) → (⟨S32768x4, .f32⟩ : BufTy).Contents (Elt F)),
    StableHlo.unary main_v5681 main_v5683 (Host.sign : (⟨S32768x4, .f32⟩ : BufTy).Contents (Elt F) → (⟨S32768x4, .f32⟩ : BufTy).Contents (Elt F)),
    StableHlo.binary main_v5682 main_v5683 main_v5684 (mulf : (⟨S32768x4, .f32⟩ : BufTy).Contents (Elt F) → (⟨S32768x4, .f32⟩ : BufTy).Contents (Elt F) → (⟨S32768x4, .f32⟩ : BufTy).Contents (Elt F)),
    StableHlo.unary main_v5680 main_v5685 (Host.absf : (⟨S32768x4, .f32⟩ : BufTy).Contents (Elt F) → (⟨S32768x4, .f32⟩ : BufTy).Contents (Elt F)),
    StableHlo.unary main_v5681 main_v5686 (Host.absf : (⟨S32768x4, .f32⟩ : BufTy).Contents (Elt F) → (⟨S32768x4, .f32⟩ : BufTy).Contents (Elt F)),
    StableHlo.binary main_v5685 main_v5686 main_v5687 (minimumf : (⟨S32768x4, .f32⟩ : BufTy).Contents (Elt F) → (⟨S32768x4, .f32⟩ : BufTy).Contents (Elt F) → (⟨S32768x4, .f32⟩ : BufTy).Contents (Elt F)),
    StableHlo.binary main_v5684 main_v5687 main_v5688 (mulf : (⟨S32768x4, .f32⟩ : BufTy).Contents (Elt F) → (⟨S32768x4, .f32⟩ : BufTy).Contents (Elt F) → (⟨S32768x4, .f32⟩ : BufTy).Contents (Elt F)),
    StableHlo.unary main_v5688 main_v5689 ((extractStridedSlice S32768x2 ![0, 0] · slices_S32768x4_S32768x2_0_0) : (⟨S32768x4, .f32⟩ : BufTy).Contents (Elt F) → (⟨S32768x2, .f32⟩ : BufTy).Contents (Elt F)),
    StableHlo.unary main_v5688 main_v5690 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1741 (constant S_ .f32 0xC1F00000#32),
    StableHlo.nullary main_cst_1742 (constant S_ .f32 0x41F00000#32),
    StableHlo.TRef.unary (.of main_cst_1741 : StableHlo.TRef sig ⟨S_, .f32⟩) main_call498.v0 id,
    StableHlo.TRef.unary main_call498.v0 main_call498.v1 (broadcastInDim S32768x2 ![] bcast_S_S32768x2),
    StableHlo.TRef.binary main_call498.v1 (.of main_v5689 : StableHlo.TRef sig ⟨S32768x2, .f32⟩) main_call498.v2 maximumf,
    StableHlo.TRef.unary (.of main_cst_1742 : StableHlo.TRef sig ⟨S_, .f32⟩) main_call498.v3 id,
    StableHlo.TRef.unary main_call498.v3 main_call498.v4 (broadcastInDim S32768x2 ![] bcast_S_S32768x2),
    StableHlo.TRef.binary main_call498.v4 main_call498.v2 main_call498.v5 minimumf,
    StableHlo.nullary main_cst_1743 (constant S_ .f32 0xC1F00000#32),
    StableHlo.nullary main_cst_1744 (constant S_ .f32 0x41F00000#32),
    StableHlo.TRef.unary (.of main_cst_1743 : StableHlo.TRef sig ⟨S_, .f32⟩) main_call499.v0 id,
    StableHlo.TRef.unary main_call499.v0 main_call499.v1 (broadcastInDim S32768x2 ![] bcast_S_S32768x2),
    StableHlo.TRef.binary main_call499.v1 (.of main_v5690 : StableHlo.TRef sig ⟨S32768x2, .f32⟩) main_call499.v2 maximumf,
    StableHlo.TRef.unary (.of main_cst_1744 : StableHlo.TRef sig ⟨S_, .f32⟩) main_call499.v3 id,
    StableHlo.TRef.unary main_call499.v3 main_call499.v4 (broadcastInDim S32768x2 ![] bcast_S_S32768x2),
    StableHlo.TRef.binary main_call499.v4 main_call499.v2 main_call499.v5 minimumf ]

set_option maxRecDepth 8192 in
/-- The window is that straight line: each clip function unfolded at its calls, the sequencing reassociated. -/
theorem part_eq_123 (d : Dev nD) : main_part123 (F := F) d = seq ops123 := by
  simp only [main_part123, fn_clip_4.body, fn_clip_5.body, seq, bind_assoc, pure_bind]

/-- Every operation of the window touches TensorCore references only. -/
theorem sub_123 : (ops123 : List (HloOp τ sig (Elt F))).Forall fun op => op.bufs ⊆ tcRefs τ sig :=
  ⟨binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    unary_bufs_sub .., binary_bufs_sub .., binary_bufs_sub .., binary_bufs_sub .., unary_bufs_sub .., binary_bufs_sub ..,
    binary_bufs_sub .., binary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub ..⟩

/-- Every operation of the window determines all it writes. -/
theorem fresh_123 : (ops123 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_123 (V : Valuation τ sig (Elt F)) :
    after ops123 V (main_arg0 : DevRef τ sig) = V (main_arg0 : DevRef τ sig) := by
  simp only [after_cons, after_nil]
  rfl

/-- The operations of @main's statements 7441 … 7500, in order (80 of them): a statement's own operation, or, for a call
    of a clip function, the six operations of its body over that call's buffers. -/
abbrev ops124 : List (HloOp τ sig (Elt F)) :=
  [ StableHlo.unary main_v5691 main_v5693 (Host.sign : (⟨S32768x2, .f32⟩ : BufTy).Contents (Elt F) → (⟨S32768x2, .f32⟩ : BufTy).Contents (Elt F)),
    StableHlo.unary main_v5692 main_v5694 (Host.sign : (⟨S32768x2, .f32⟩ : BufTy).Contents (Elt F) → (⟨S32768x2, .f32⟩ : BufTy).Contents (Elt F)),
    StableHlo.binary main_v5693 main_v5694 main_v5695 (mulf : (⟨S32768x2, .f32⟩ : BufTy).Contents (Elt F) → (⟨S32768x2, .f32⟩ : BufTy).Contents (Elt F) → (⟨S32768x2, .f32⟩ : BufTy).Contents (Elt F)),
    StableHlo.unary main_v5691 main_v5696 (Host.absf : (⟨S32768x2, .f32⟩ : BufTy).Contents (Elt F) → (⟨S32768x2, .f32⟩ : BufTy).Contents (Elt F)),
    StableHlo.unary main_v5692 main_v5697 (Host.absf : (⟨S32768x2, .f32⟩ : BufTy).Contents (Elt F) → (⟨S32768x2, .f32⟩ : BufTy).Contents (Elt F)),
    StableHlo.binary main_v5696 main_v5697 main_v5698 (minimumf : (⟨S32768x2, .f32⟩ : BufTy).Contents (Elt F) → (⟨S32768x2, .f32⟩ : BufTy).Contents (Elt F) → (⟨S32768x2, .f32⟩ : BufTy).Contents (Elt F)),
    StableHlo.binary main_v5695 main_v5698 main_v5699 (mulf : (⟨S32768x2, .f32⟩ : BufTy).Contents (Elt F) → (⟨S32768x2, .f32⟩ : BufTy).Contents (Elt F) → (⟨S32768x2, .f32⟩ : BufTy).Contents (Elt F)),
    StableHlo.unary main_v5699 main_v5700 ((extractStridedSlice S32768x1 ![0, 0] · slices_S32768x2_S32768x1_0_0) : (⟨S32768x2, .f32⟩ : BufTy).Contents (Elt F) → (⟨S32768x1, .f32⟩ : BufTy).Contents (Elt F)),
    StableHlo.unary main_v5699 main_v5701 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1745 (constant S_ .f32 0xC1F00000#32),
    StableHlo.nullary main_cst_1746 (constant S_ .f32 0x41F00000#32),
    StableHlo.TRef.unary (.of main_cst_1745 : StableHlo.TRef sig ⟨S_, .f32⟩) main_call500.v0 id,
    StableHlo.TRef.unary main_call500.v0 main_call500.v1 (broadcastInDim S32768x1 ![] bcast_S_S32768x1),
    StableHlo.TRef.binary main_call500.v1 (.of main_v5700 : StableHlo.TRef sig ⟨S32768x1, .f32⟩) main_call500.v2 maximumf,
    StableHlo.TRef.unary (.of main_cst_1746 : StableHlo.TRef sig ⟨S_, .f32⟩) main_call500.v3 id,
    StableHlo.TRef.unary main_call500.v3 main_call500.v4 (broadcastInDim S32768x1 ![] bcast_S_S32768x1),
    StableHlo.TRef.binary main_call500.v4 main_call500.v2 main_call500.v5 minimumf,
    StableHlo.nullary main_cst_1747 (constant S_ .f32 0xC1F00000#32),
    StableHlo.nullary main_cst_1748 (constant S_ .f32 0x41F00000#32),
    StableHlo.TRef.unary (.of main_cst_1747 : StableHlo.TRef sig ⟨S_, .f32⟩) main_call501.v0 id,
    StableHlo.TRef.unary main_call501.v0 main_call501.v1 (broadcastInDim S32768x1 ![] bcast_S_S32768x1),
    StableHlo.TRef.binary main_call501.v1 (.of main_v5701 : StableHlo.TRef sig ⟨S32768x1, .f32⟩) main_call501.v2 maximumf,
    StableHlo.TRef.unary (.of main_cst_1748 : StableHlo.TRef sig ⟨S_, .f32⟩) main_call501.v3 id,
    StableHlo.TRef.unary main_call501.v3 main_call501.v4 (broadcastInDim S32768x1 ![] bcast_S_S32768x1),
    StableHlo.TRef.binary main_call501.v4 main_call501.v2 main_call501.v5 minimumf,
    StableHlo.unary main_v5702 main_v5704 (Host.sign : (⟨S32768x1, .f32⟩ : BufTy).Contents (Elt F) → (⟨S32768x1, .f32⟩ : BufTy).Contents (Elt F)),
    StableHlo.unary main_v5703 main_v5705 (Host.sign : (⟨S32768x1, .f32⟩ : BufTy).Contents (Elt F) → (⟨S32768x1, .f32⟩ : BufTy).Contents (Elt F)),
    StableHlo.binary main_v5704 main_v5705 main_v5706 (mulf : (⟨S32768x1, .f32⟩ : BufTy).Contents (Elt F) → (⟨S32768x1, .f32⟩ : BufTy).Contents (Elt F) → (⟨S32768x1, .f32⟩ : BufTy).Contents (Elt F)),
    StableHlo.unary main_v5702 main_v5707 (Host.absf : (⟨S32768x1, .f32⟩ : BufTy).Contents (Elt F) → (⟨S32768x1, .f32⟩ : BufTy).Contents (Elt F)),
    StableHlo.unary main_v5703 main_v5708 (Host.absf : (⟨S32768x1, .f32⟩ : BufTy).Contents (Elt F) → (⟨S32768x1, .f32⟩ : BufTy).Contents (Elt F)),
    StableHlo.binary main_v5707 main_v5708 main_v5709 (minimumf : (⟨S32768x1, .f32⟩ : BufTy).Contents (Elt F) → (⟨S32768x1, .f32⟩ : BufTy).Contents (Elt F) → (⟨S32768x1, .f32⟩ : BufTy).Contents (Elt F)),
    StableHlo.binary main_v5706 main_v5709 main_v5710 (mulf : (⟨S32768x1, .f32⟩ : BufTy).Contents (Elt F) → (⟨S32768x1, .f32⟩ : BufTy).Contents (Elt F) → (⟨S32768x1, .f32⟩ : BufTy).Contents (Elt F)),
    StableHlo.nullary main_cst_1749 (constant S_ .f32 0x00000000#32),
    StableHlo.unary main_cst_1749 main_v5711 (broadcastInDim S32768x1 ![] bcast_S_S32768x1 : (⟨S_, .f32⟩ : BufTy).Contents (Elt F) → (⟨S32768x1, .f32⟩ : BufTy).Contents (Elt F)),
    StableHlo.binary main_v5710 main_v5711 main_v5712 (cmpf .ole : (⟨S32768x1, .f32⟩ : BufTy).Contents (Elt F) → (⟨S32768x1, .f32⟩ : BufTy).Contents (Elt F) → (⟨S32768x1, .i1⟩ : BufTy).Contents (Elt F)),
    StableHlo.unary main_v5712 main_v5713 (uitofp .f32 : (⟨S32768x1, .i1⟩ : BufTy).Contents (Elt F) → (⟨S32768x1, .f32⟩ : BufTy).Contents (Elt F)),
    StableHlo.nullary main_cst_1750 (constant S_ .f32 0x40000000#32),
    StableHlo.unary main_cst_1750 main_v5714 (broadcastInDim S32768x1 ![] bcast_S_S32768x1 : (⟨S_, .f32⟩ : BufTy).Contents (Elt F) → (⟨S32768x1, .f32⟩ : BufTy).Contents (Elt F)),
    StableHlo.binary main_v5714 main_v5713 main_v5715 (mulf : (⟨S32768x1, .f32⟩ : BufTy).Contents (Elt F) → (⟨S32768x1, .f32⟩ : BufTy).Contents (Elt F) → (⟨S32768x1, .f32⟩ : BufTy).Contents (Elt F)),
    StableHlo.nullary main_cst_1751 (constant S_ .f32 0x3F800000#32),
    StableHlo.unary main_cst_1751 main_v5716 (broadcastInDim S32768x1 ![] bcast_S_S32768x1 : (⟨S_, .f32⟩ : BufTy).Contents (Elt F) → (⟨S32768x1, .f32⟩ : BufTy).Contents (Elt F)),
    StableHlo.binary main_v5716 main_v5715 main_v5717 (subf : (⟨S32768x1, .f32⟩ : BufTy).Contents (Elt F) → (⟨S32768x1, .f32⟩ : BufTy).Contents (Elt F) → (⟨S32768x1, .f32⟩ : BufTy).Contents (Elt F)),
    StableHlo.binary main_v5717 main_v5700 main_v5718 (mulf : (⟨S32768x1, .f32⟩ : BufTy).Contents (Elt F) → (⟨S32768x1, .f32⟩ : BufTy).Contents (Elt F) → (⟨S32768x1, .f32⟩ : BufTy).Contents (Elt F)),
    StableHlo.binary main_v5718 main_v5701 main_v5719 (addf : (⟨S32768x1, .f32⟩ : BufTy).Contents (Elt F) → (⟨S32768x1, .f32⟩ : BufTy).Contents (Elt F) → (⟨S32768x1, .f32⟩ : BufTy).Contents (Elt F)),
    StableHlo.nullary main_cst_1752 (constant S_ .f32 0x00000000#32),
    StableHlo.unary main_cst_1752 main_v5720 (broadcastInDim S32768x1 ![] bcast_S_S32768x1 : (⟨S_, .f32⟩ : BufTy).Contents (Elt F) → (⟨S32768x1, .f32⟩ : BufTy).Contents (Elt F)),
    StableHlo.binary main_v5719 main_v5720 main_v5721 (cmpf .ole : (⟨S32768x1, .f32⟩ : BufTy).Contents (Elt F) → (⟨S32768x1, .f32⟩ : BufTy).Contents (Elt F) → (⟨S32768x1, .i1⟩ : BufTy).Contents (Elt F)),
    StableHlo.unary main_v5721 main_v5722 (uitofp .f32 : (⟨S32768x1, .i1⟩ : BufTy).Contents (Elt F) → (⟨S32768x1, .f32⟩ : BufTy).Contents (Elt F)),
    StableHlo.binary main_v5713 main_v5722 main_v5723 (cmpf .une : (⟨S32768x1, .f32⟩ : BufTy).Contents (Elt F) → (⟨S32768x1, .f32⟩ : BufTy).Contents (Elt F) → (⟨S32768x1, .i1⟩ : BufTy).Contents (Elt F)),
    StableHlo.unary main_v5723 main_v5724 (uitofp .f32 : (⟨S32768x1, .i1⟩ : BufTy).Contents (Elt F) → (⟨S32768x1, .f32⟩ : BufTy).Contents (Elt F)),
    StableHlo.binary main_v5724 main_v5722 main_v5725 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5713 main_v5722 main_v5726 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1753 (constant S_ .f32 0x40000000#32),
    StableHlo.unary main_cst_1753 main_v5727 (broadcastInDim S32768x2 ![] bcast_S_S32768x2 : (⟨S_, .f32⟩ : BufTy).Contents (Elt F) → (⟨S32768x2, .f32⟩ : BufTy).Contents (Elt F)),
    StableHlo.binary main_v5727 main_v5725 main_v5728 (mulf : (⟨S32768x2, .f32⟩ : BufTy).Contents (Elt F) → (⟨S32768x2, .f32⟩ : BufTy).Contents (Elt F) → (⟨S32768x2, .f32⟩ : BufTy).Contents (Elt F)),
    StableHlo.nullary main_cst_1754 (constant S_ .f32 0x3F800000#32),
    StableHlo.unary main_cst_1754 main_v5729 (broadcastInDim S32768x2 ![] bcast_S_S32768x2 : (⟨S_, .f32⟩ : BufTy).Contents (Elt F) → (⟨S32768x2, .f32⟩ : BufTy).Contents (Elt F)),
    StableHlo.binary main_v5729 main_v5728 main_v5730 (subf : (⟨S32768x2, .f32⟩ : BufTy).Contents (Elt F) → (⟨S32768x2, .f32⟩ : BufTy).Contents (Elt F) → (⟨S32768x2, .f32⟩ : BufTy).Contents (Elt F)),
    StableHlo.binary main_v5730 main_v5689 main_v5731 (mulf : (⟨S32768x2, .f32⟩ : BufTy).Contents (Elt F) → (⟨S32768x2, .f32⟩ : BufTy).Contents (Elt F) → (⟨S32768x2, .f32⟩ : BufTy).Contents (Elt F)),
    StableHlo.binary main_v5731 main_v5690 main_v5732 (addf : (⟨S32768x2, .f32⟩ : BufTy).Contents (Elt F) → (⟨S32768x2, .f32⟩ : BufTy).Contents (Elt F) → (⟨S32768x2, .f32⟩ : BufTy).Contents (Elt F)),
    StableHlo.unary main_v5732 main_v5733 ((extractStridedSlice S32768x1 ![0, 0] · slices_S32768x2_S32768x1_0_0) : (⟨S32768x2, .f32⟩ : BufTy).Contents (Elt F) → (⟨S32768x1, .f32⟩ : BufTy).Contents (Elt F)),
    StableHlo.unary main_v5732 main_v5734 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1755 (constant S_ .f32 0xC1F00000#32),
    StableHlo.nullary main_cst_1756 (constant S_ .f32 0x41F00000#32),
    StableHlo.TRef.unary (.of main_cst_1755 : StableHlo.TRef sig ⟨S_, .f32⟩) main_call502.v0 id,
    StableHlo.TRef.unary main_call502.v0 main_call502.v1 (broadcastInDim S32768x1 ![] bcast_S_S32768x1),
    StableHlo.TRef.binary main_call502.v1 (.of main_v5733 : StableHlo.TRef sig ⟨S32768x1, .f32⟩) main_call502.v2 maximumf,
    StableHlo.TRef.unary (.of main_cst_1756 : StableHlo.TRef sig ⟨S_, .f32⟩) main_call502.v3 id,
    StableHlo.TRef.unary main_call502.v3 main_call502.v4 (broadcastInDim S32768x1 ![] bcast_S_S32768x1),
    StableHlo.TRef.binary main_call502.v4 main_call502.v2 main_call502.v5 minimumf,
    StableHlo.nullary main_cst_1757 (constant S_ .f32 0xC1F00000#32),
    StableHlo.nullary main_cst_1758 (constant S_ .f32 0x41F00000#32),
    StableHlo.TRef.unary (.of main_cst_1757 : StableHlo.TRef sig ⟨S_, .f32⟩) main_call503.v0 id,
    StableHlo.TRef.unary main_call503.v0 main_call503.v1 (broadcastInDim S32768x1 ![] bcast_S_S32768x1),
    StableHlo.TRef.binary main_call503.v1 (.of main_v5734 : StableHlo.TRef sig ⟨S32768x1, .f32⟩) main_call503.v2 maximumf,
    StableHlo.TRef.unary (.of main_cst_1758 : StableHlo.TRef sig ⟨S_, .f32⟩) main_call503.v3 id,
    StableHlo.TRef.unary main_call503.v3 main_call503.v4 (broadcastInDim S32768x1 ![] bcast_S_S32768x1),
    StableHlo.TRef.binary main_call503.v4 main_call503.v2 main_call503.v5 minimumf,
    StableHlo.unary main_v5735 main_v5737 (Host.sign : (⟨S32768x1, .f32⟩ : BufTy).Contents (Elt F) → (⟨S32768x1, .f32⟩ : BufTy).Contents (Elt F)),
    StableHlo.unary main_v5736 main_v5738 (Host.sign : (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_124 (d : Dev nD) : main_part124 (F := F) d = seq ops124 := by
  simp only [main_part124, fn_clip_6.body, seq, bind_assoc, pure_bind]
  rfl

/-- Every operation of the window touches TensorCore references only. -/
theorem sub_124 : (ops124 : List (HloOp τ sig (Elt F))).Forall fun op => op.bufs ⊆ tcRefs τ sig :=
  ⟨unary_bufs_sub .., unary_bufs_sub .., binary_bufs_sub .., unary_bufs_sub .., unary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., nullary_bufs_sub .., unary_bufs_sub .., binary_bufs_sub .., unary_bufs_sub ..,
    nullary_bufs_sub .., unary_bufs_sub .., binary_bufs_sub .., nullary_bufs_sub .., unary_bufs_sub .., binary_bufs_sub ..,
    binary_bufs_sub .., binary_bufs_sub .., nullary_bufs_sub .., unary_bufs_sub .., binary_bufs_sub .., unary_bufs_sub ..,
    binary_bufs_sub .., unary_bufs_sub .., binary_bufs_sub .., binary_bufs_sub .., nullary_bufs_sub .., unary_bufs_sub ..,
    binary_bufs_sub .., nullary_bufs_sub .., unary_bufs_sub .., binary_bufs_sub .., binary_bufs_sub .., binary_bufs_sub ..,
    unary_bufs_sub .., unary_bufs_sub .., nullary_bufs_sub .., nullary_bufs_sub .., unary_bufs_sub .., unary_bufs_sub ..,
    binary_bufs_sub .., unary_bufs_sub .., unary_bufs_sub .., binary_bufs_sub .., nullary_bufs_sub .., nullary_bufs_sub ..,
    unary_bufs_sub .., unary_bufs_sub .., binary_bufs_sub .., unary_bufs_sub .., unary_bufs_sub .., binary_bufs_sub ..,
    unary_bufs_sub .., unary_bufs_sub ..⟩

/-- Every operation of the window determines all it writes. -/
theorem fresh_124 : (ops124 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_124 (V : Valuation τ sig (Elt F)) :
    after ops124 V (main_arg0 : DevRef τ sig) = V (main_arg0 : DevRef τ sig) := by
  simp only [after_cons, after_nil]
  rfl

/-- The operations of @main's statements 7501 … 7560, in order (80 of them): a statement's own operation, or, for a call
    of a clip function, the six operations of its body over that call's buffers. -/
abbrev ops125 : List (HloOp τ sig (Elt F)) :=
  [ StableHlo.binary main_v5737 main_v5738 main_v5739 (mulf : (⟨S32768x1, .f32⟩ : BufTy).Contents (Elt F) → (⟨S32768x1, .f32⟩ : BufTy).Contents (Elt F) → (⟨S32768x1, .f32⟩ : BufTy).Contents (Elt F)),
    StableHlo.unary main_v5735 main_v5740 (Host.absf : (⟨S32768x1, .f32⟩ : BufTy).Contents (Elt F) → (⟨S32768x1, .f32⟩ : BufTy).Contents (Elt F)),
    StableHlo.unary main_v5736 main_v5741 (Host.absf : (⟨S32768x1, .f32⟩ : BufTy).Contents (Elt F) → (⟨S32768x1, .f32⟩ : BufTy).Contents (Elt F)),
    StableHlo.binary main_v5740 main_v5741 main_v5742 (minimumf : (⟨S32768x1, .f32⟩ : BufTy).Contents (Elt F) → (⟨S32768x1, .f32⟩ : BufTy).Contents (Elt F) → (⟨S32768x1, .f32⟩ : BufTy).Contents (Elt F)),
    StableHlo.binary main_v5739 main_v5742 main_v5743 (mulf : (⟨S32768x1, .f32⟩ : BufTy).Contents (Elt F) → (⟨S32768x1, .f32⟩ : BufTy).Contents (Elt F) → (⟨S32768x1, .f32⟩ : BufTy).Contents (Elt F)),
    StableHlo.nullary main_cst_1759 (constant S_ .f32 0x00000000#32),
    StableHlo.unary main_cst_1759 main_v5744 (broadcastInDim S32768x1 ![] bcast_S_S32768x1 : (⟨S_, .f32⟩ : BufTy).Contents (Elt F) → (⟨S32768x1, .f32⟩ : BufTy).Contents (Elt F)),
    StableHlo.binary main_v5743 main_v5744 main_v5745 (cmpf .ole : (⟨S32768x1, .f32⟩ : BufTy).Contents (Elt F) → (⟨S32768x1, .f32⟩ : BufTy).Contents (Elt F) → (⟨S32768x1, .i1⟩ : BufTy).Contents (Elt F)),
    StableHlo.unary main_v5745 main_v5746 (uitofp .f32 : (⟨S32768x1, .i1⟩ : BufTy).Contents (Elt F) → (⟨S32768x1, .f32⟩ : BufTy).Contents (Elt F)),
    StableHlo.nullary main_cst_1760 (constant S_ .f32 0x40000000#32),
    StableHlo.unary main_cst_1760 main_v5747 (broadcastInDim S32768x1 ![] bcast_S_S32768x1 : (⟨S_, .f32⟩ : BufTy).Contents (Elt F) → (⟨S32768x1, .f32⟩ : BufTy).Contents (Elt F)),
    StableHlo.binary main_v5747 main_v5746 main_v5748 (mulf : (⟨S32768x1, .f32⟩ : BufTy).Contents (Elt F) → (⟨S32768x1, .f32⟩ : BufTy).Contents (Elt F) → (⟨S32768x1, .f32⟩ : BufTy).Contents (Elt F)),
    StableHlo.nullary main_cst_1761 (constant S_ .f32 0x3F800000#32),
    StableHlo.unary main_cst_1761 main_v5749 (broadcastInDim S32768x1 ![] bcast_S_S32768x1 : (⟨S_, .f32⟩ : BufTy).Contents (Elt F) → (⟨S32768x1, .f32⟩ : BufTy).Contents (Elt F)),
    StableHlo.binary main_v5749 main_v5748 main_v5750 (subf : (⟨S32768x1, .f32⟩ : BufTy).Contents (Elt F) → (⟨S32768x1, .f32⟩ : BufTy).Contents (Elt F) → (⟨S32768x1, .f32⟩ : BufTy).Contents (Elt F)),
    StableHlo.binary main_v5750 main_v5733 main_v5751 (mulf : (⟨S32768x1, .f32⟩ : BufTy).Contents (Elt F) → (⟨S32768x1, .f32⟩ : BufTy).Contents (Elt F) → (⟨S32768x1, .f32⟩ : BufTy).Contents (Elt F)),
    StableHlo.binary main_v5751 main_v5734 main_v5752 (addf : (⟨S32768x1, .f32⟩ : BufTy).Contents (Elt F) → (⟨S32768x1, .f32⟩ : BufTy).Contents (Elt F) → (⟨S32768x1, .f32⟩ : BufTy).Contents (Elt F)),
    StableHlo.nullary main_cst_1762 (constant S_ .f32 0x00000000#32),
    StableHlo.unary main_cst_1762 main_v5753 (broadcastInDim S32768x1 ![] bcast_S_S32768x1 : (⟨S_, .f32⟩ : BufTy).Contents (Elt F) → (⟨S32768x1, .f32⟩ : BufTy).Contents (Elt F)),
    StableHlo.binary main_v5752 main_v5753 main_v5754 (cmpf .ole : (⟨S32768x1, .f32⟩ : BufTy).Contents (Elt F) → (⟨S32768x1, .f32⟩ : BufTy).Contents (Elt F) → (⟨S32768x1, .i1⟩ : BufTy).Contents (Elt F)),
    StableHlo.unary main_v5754 main_v5755 (uitofp .f32 : (⟨S32768x1, .i1⟩ : BufTy).Contents (Elt F) → (⟨S32768x1, .f32⟩ : BufTy).Contents (Elt F)),
    StableHlo.binary main_v5746 main_v5755 main_v5756 (cmpf .une : (⟨S32768x1, .f32⟩ : BufTy).Contents (Elt F) → (⟨S32768x1, .f32⟩ : BufTy).Contents (Elt F) → (⟨S32768x1, .i1⟩ : BufTy).Contents (Elt F)),
    StableHlo.unary main_v5756 main_v5757 (uitofp .f32 : (⟨S32768x1, .i1⟩ : BufTy).Contents (Elt F) → (⟨S32768x1, .f32⟩ : BufTy).Contents (Elt F)),
    StableHlo.binary main_v5757 main_v5755 main_v5758 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5746 main_v5755 main_v5759 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5725 main_v5758 main_v5760 (cmpf .une : (⟨S32768x2, .f32⟩ : BufTy).Contents (Elt F) → (⟨S32768x2, .f32⟩ : BufTy).Contents (Elt F) → (⟨S32768x2, .i1⟩ : BufTy).Contents (Elt F)),
    StableHlo.unary main_v5760 main_v5761 (uitofp .f32 : (⟨S32768x2, .i1⟩ : BufTy).Contents (Elt F) → (⟨S32768x2, .f32⟩ : BufTy).Contents (Elt F)),
    StableHlo.binary main_v5761 main_v5758 main_v5762 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v5726 main_v5759 main_v5763 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.nullary main_cst_1763 (constant S_ .f32 0x40000000#32),
    StableHlo.unary main_cst_1763 main_v5764 (broadcastInDim S32768x4 ![] bcast_S_S32768x4 : (⟨S_, .f32⟩ : BufTy).Contents (Elt F) → (⟨S32768x4, .f32⟩ : BufTy).Contents (Elt F)),
    StableHlo.binary main_v5764 main_v5762 main_v5765 (mulf : (⟨S32768x4, .f32⟩ : BufTy).Contents (Elt F) → (⟨S32768x4, .f32⟩ : BufTy).Contents (Elt F) → (⟨S32768x4, .f32⟩ : BufTy).Contents (Elt F)),
    StableHlo.nullary main_cst_1764 (constant S_ .f32 0x3F800000#32),
    StableHlo.unary main_cst_1764 main_v5766 (broadcastInDim S32768x4 ![] bcast_S_S32768x4 : (⟨S_, .f32⟩ : BufTy).Contents (Elt F) → (⟨S32768x4, .f32⟩ : BufTy).Contents (Elt F)),
    StableHlo.binary main_v5766 main_v5765 main_v5767 (subf : (⟨S32768x4, .f32⟩ : BufTy).Contents (Elt F) → (⟨S32768x4, .f32⟩ : BufTy).Contents (Elt F) → (⟨S32768x4, .f32⟩ : BufTy).Contents (Elt F)),
    StableHlo.binary main_v5767 main_v5678 main_v5768 (mulf : (⟨S32768x4, .f32⟩ : BufTy).Contents (Elt F) → (⟨S32768x4, .f32⟩ : BufTy).Contents (Elt F) → (⟨S32768x4, .f32⟩ : BufTy).Contents (Elt F)),
    StableHlo.binary main_v5768 main_v5679 main_v5769 (addf : (⟨S32768x4, .f32⟩ : BufTy).Contents (Elt F) → (⟨S32768x4, .f32⟩ : BufTy).Contents (Elt F) → (⟨S32768x4, .f32⟩ : BufTy).Contents (Elt F)),
    StableHlo.unary main_v5769 main_v5770 ((extractStridedSlice S32768x2 ![0, 0] · slices_S32768x4_S32768x2_0_0) : (⟨S32768x4, .f32⟩ : BufTy).Contents (Elt F) → (⟨S32768x2, .f32⟩ : BufTy).Contents (Elt F)),
    StableHlo.unary main_v5769 main_v5771 ((extractStridedSlice S32768x2 ![0, 2] · slices_S32768x4_S32768x2_0_2) : (⟨S32768x4, .f32⟩ : BufTy).Contents (Elt F) → (⟨S32768x2, .f32⟩ : BufTy).Contents (Elt F)),
    StableHlo.nullary main_cst_1765 (constant S_ .f32 0xC1F00000#32),
    StableHlo.nullary main_cst_1766 (constant S_ .f32 0x41F00000#32),
    StableHlo.TRef.unary (.of main_cst_1765 : StableHlo.TRef sig ⟨S_, .f32⟩) main_call504.v0 id,
    StableHlo.TRef.unary main_call504.v0 main_call504.v1 (broadcastInDim S32768x2 ![] bcast_S_S32768x2),
    StableHlo.TRef.binary main_call504.v1 (.of main_v5770 : StableHlo.TRef sig ⟨S32768x2, .f32⟩) main_call504.v2 maximumf,
    StableHlo.TRef.unary (.of main_cst_1766 : StableHlo.TRef sig ⟨S_, .f32⟩) main_call504.v3 id,
    StableHlo.TRef.unary main_call504.v3 main_call504.v4 (broadcastInDim S32768x2 ![] bcast_S_S32768x2),
    StableHlo.TRef.binary main_call504.v4 main_call504.v2 main_call504.v5 minimumf,
    StableHlo.nullary main_cst_1767 (constant S_ .f32 0xC1F00000#32),
    StableHlo.nullary main_cst_1768 (constant S_ .f32 0x41F00000#32),
    StableHlo.TRef.unary (.of main_cst_1767 : StableHlo.TRef sig ⟨S_, .f32⟩) main_call505.v0 id,
    StableHlo.TRef.unary main_call505.v0 main_call505.v1 (broadcastInDim S32768x2 ![] bcast_S_S32768x2),
    StableHlo.TRef.binary main_call505.v1 (.of main_v5771 : StableHlo.TRef sig ⟨S32768x2, .f32⟩) main_call505.v2 maximumf,
    StableHlo.TRef.unary (.of main_cst_1768 : StableHlo.TRef sig ⟨S_, .f32⟩) main_call505.v3 id,
    StableHlo.TRef.unary main_call505.v3 main_call505.v4 (broadcastInDim S32768x2 ![] bcast_S_S32768x2),
    StableHlo.TRef.binary main_call505.v4 main_call505.v2 main_call505.v5 minimumf,
    StableHlo.unary main_v5772 main_v5774 (Host.sign : (⟨S32768x2, .f32⟩ : BufTy).Contents (Elt F) → (⟨S32768x2, .f32⟩ : BufTy).Contents (Elt F)),
    StableHlo.unary main_v5773 main_v5775 (Host.sign : (⟨S32768x2, .f32⟩ : BufTy).Contents (Elt F) → (⟨S32768x2, .f32⟩ : BufTy).Contents (Elt F)),
    StableHlo.binary main_v5774 main_v5775 main_v5776 (mulf : (⟨S32768x2, .f32⟩ : BufTy).Contents (Elt F) → (⟨S32768x2, .f32⟩ : BufTy).Contents (Elt F) → (⟨S32768x2, .f32⟩ : BufTy).Contents (Elt F)),
    StableHlo.unary main_v5772 main_v5777 (Host.absf : (⟨S32768x2, .f32⟩ : BufTy).Contents (Elt F) → (⟨S32768x2, .f32⟩ : BufTy).Contents (Elt F)),
    StableHlo.unary main_v5773 main_v5778 (Host.absf : (⟨S32768x2, .f32⟩ : BufTy).Contents (Elt F) → (⟨S32768x2, .f32⟩ : BufTy).Contents (Elt F)),
    StableHlo.binary main_v5777 main_v5778 main_v5779 (minimumf : (⟨S32768x2, .f32⟩ : BufTy).Contents (Elt F) → (⟨S32768x2, .f32⟩ : BufTy).Contents (Elt F) → (⟨S32768x2, .f32⟩ : BufTy).Contents (Elt F)),
    StableHlo.binary main_v5776 main_v5779 main_v5780 (mulf : (⟨S32768x2, .f32⟩ : BufTy).Contents (Elt F) → (⟨S32768x2, .f32⟩ : BufTy).Contents (Elt F) → (⟨S32768x2, .f32⟩ : BufTy).Contents (Elt F)),
    StableHlo.unary main_v5780 main_v5781 ((extractStridedSlice S32768x1 ![0, 0] · slices_S32768x2_S32768x1_0_0) : (⟨S32768x2, .f32⟩ : BufTy).Contents (Elt F) → (⟨S32768x1, .f32⟩ : BufTy).Contents (Elt F)),
    StableHlo.unary main_v5780 main_v5782 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1769 (constant S_ .f32 0xC1F00000#32),
    StableHlo.nullary main_cst_1770 (constant S_ .f32 0x41F00000#32),
    StableHlo.TRef.unary (.of main_cst_1769 : StableHlo.TRef sig ⟨S_, .f32⟩) main_call506.v0 id,
    StableHlo.TRef.unary main_call506.v0 main_call506.v1 (broadcastInDim S32768x1 ![] bcast_S_S32768x1),
    StableHlo.TRef.binary main_call506.v1 (.of main_v5781 : StableHlo.TRef sig ⟨S32768x1, .f32⟩) main_call506.v2 maximumf,
    StableHlo.TRef.unary (.of main_cst_1770 : StableHlo.TRef sig ⟨S_, .f32⟩) main_call506.v3 id,
    StableHlo.TRef.unary main_call506.v3 main_call506.v4 (broadcastInDim S32768x1 ![] bcast_S_S32768x1),
    StableHlo.TRef.binary main_call506.v4 main_call506.v2 main_call506.v5 minimumf,
    StableHlo.nullary main_cst_1771 (constant S_ .f32 0xC1F00000#32),
    StableHlo.nullary main_cst_1772 (constant S_ .f32 0x41F00000#32),
    StableHlo.TRef.unary (.of main_cst_1771 : StableHlo.TRef sig ⟨S_, .f32⟩) main_call507.v0 id,
    StableHlo.TRef.unary main_call507.v0 main_call507.v1 (broadcastInDim S32768x1 ![] bcast_S_S32768x1),
    StableHlo.TRef.binary main_call507.v1 (.of main_v5782 : StableHlo.TRef sig ⟨S32768x1, .f32⟩) main_call507.v2 maximumf,
    StableHlo.TRef.unary (.of main_cst_1772 : StableHlo.TRef sig ⟨S_, .f32⟩) main_call507.v3 id,
    StableHlo.TRef.unary main_call507.v3 main_call507.v4 (broadcastInDim S32768x1 ![] bcast_S_S32768x1),
    StableHlo.TRef.binary main_call507.v4 main_call507.v2 main_call507.v5 minimumf ]

set_option maxRecDepth 8192 in
/-- The window is that straight line: each clip function unfolded at its calls, the sequencing reassociated. -/
theorem part_eq_125 (d : Dev nD) : main_part125 (F := F) d = seq ops125 := by
  simp only [main_part125, fn_clip_5.body, fn_clip_6.body, seq, bind_assoc, pure_bind]

/-- Every operation of the window touches TensorCore references only. -/
theorem sub_125 : (ops125 : List (HloOp τ sig (Elt F))).Forall fun op => op.bufs ⊆ tcRefs τ sig :=
  ⟨binary_bufs_sub .., unary_bufs_sub .., unary_bufs_sub .., binary_bufs_sub .., binary_bufs_sub .., nullary_bufs_sub ..,
    unary_bufs_sub .., binary_bufs_sub .., unary_bufs_sub .., nullary_bufs_sub .., unary_bufs_sub .., binary_bufs_sub ..,
    nullary_bufs_sub .., unary_bufs_sub .., binary_bufs_sub .., binary_bufs_sub .., binary_bufs_sub .., nullary_bufs_sub ..,
    unary_bufs_sub .., binary_bufs_sub .., unary_bufs_sub .., binary_bufs_sub .., unary_bufs_sub .., binary_bufs_sub ..,
    binary_bufs_sub .., binary_bufs_sub .., unary_bufs_sub .., binary_bufs_sub .., binary_bufs_sub .., nullary_bufs_sub ..,
    unary_bufs_sub .., binary_bufs_sub .., nullary_bufs_sub .., unary_bufs_sub .., binary_bufs_sub .., binary_bufs_sub ..,
    binary_bufs_sub .., unary_bufs_sub .., unary_bufs_sub .., nullary_bufs_sub .., nullary_bufs_sub .., unary_bufs_sub ..,
    unary_bufs_sub .., binary_bufs_sub .., unary_bufs_sub .., unary_bufs_sub .., binary_bufs_sub .., nullary_bufs_sub ..,
    nullary_bufs_sub .., unary_bufs_sub .., unary_bufs_sub .., binary_bufs_sub .., unary_bufs_sub .., unary_bufs_sub ..,
    binary_bufs_sub .., unary_bufs_sub .., unary_bufs_sub .., binary_bufs_sub .., unary_bufs_sub .., unary_bufs_sub ..,
    binary_bufs_sub .., binary_bufs_sub .., unary_bufs_sub .., unary_bufs_sub .., nullary_bufs_sub .., nullary_bufs_sub ..,
    unary_bufs_sub .., unary_bufs_sub .., binary_bufs_sub .., unary_bufs_sub .., unary_bufs_sub .., binary_bufs_sub ..,
    nullary_bufs_sub .., nullary_bufs_sub .., unary_bufs_sub .., unary_bufs_sub .., binary_bufs_sub .., unary_bufs_sub ..,
    unary_bufs_sub .., binary_bufs_sub ..⟩

/-- Every operation of the window determines all it writes. -/
theorem fresh_125 : (ops125 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl⟩

set_option maxRecDepth 8192 in
/-- The window writes no argument of @main: the argument's buffer holds after it what it held before. -/
theorem keep_125 (V : Valuation τ sig (Elt F)) :
    after ops125 V (main_arg0 : DevRef τ sig) = V (main_arg0 : DevRef τ sig) := by
  simp only [after_cons, after_nil]
  rfl

/-- The operations of @main's statements 7561 … 7620, in order (70 of them): a statement's own operation, or, for a call
    of a clip function, the six operations of its body over that call's buffers. -/
abbrev ops126 : List (HloOp τ sig (Elt F)) :=
  [ StableHlo.unary main_v5783 main_v5785 (Host.sign : (⟨S32768x1, .f32⟩ : BufTy).Contents (Elt F) → (⟨S32768x1, .f32⟩ : BufTy).Contents (Elt F)),
    StableHlo.unary main_v5784 main_v5786 (Host.sign : (⟨S32768x1, .f32⟩ : BufTy).Contents (Elt F) → (⟨S32768x1, .f32⟩ : BufTy).Contents (Elt F)),
    StableHlo.binary main_v5785 main_v5786 main_v5787 (mulf : (⟨S32768x1, .f32⟩ : BufTy).Contents (Elt F) → (⟨S32768x1, .f32⟩ : BufTy).Contents (Elt F) → (⟨S32768x1, .f32⟩ : BufTy).Contents (Elt F)),
    StableHlo.unary main_v5783 main_v5788 (Host.absf : (⟨S32768x1, .f32⟩ : BufTy).Contents (Elt F) → (⟨S32768x1, .f32⟩ : BufTy).Contents (Elt F)),
    StableHlo.unary main_v5784 main_v5789 (Host.absf : (⟨S32768x1, .f32⟩ : BufTy).Contents (Elt F) → (⟨S32768x1, .f32⟩ : BufTy).Contents (Elt F)),
    StableHlo.binary main_v5788 main_v5789 main_v5790 (minimumf : (⟨S32768x1, .f32⟩ : BufTy).Contents (Elt F) → (⟨S32768x1, .f32⟩ : BufTy).Contents (Elt F) → (⟨S32768x1, .f32⟩ : BufTy).Contents (Elt F)),
    StableHlo.binary main_v5787 main_v5790 main_v5791 (mulf : (⟨S32768x1, .f32⟩ : BufTy).Contents (Elt F) → (⟨S32768x1, .f32⟩ : BufTy).Contents (Elt F) → (⟨S32768x1, .f32⟩ : BufTy).Contents (Elt F)),
    StableHlo.nullary main_cst_1773 (constant S_ .f32 0x00000000#32),
    StableHlo.unary main_cst_1773 main_v5792 (broadcastInDim S32768x1 ![] bcast_S_S32768x1 : (⟨S_, .f32⟩ : BufTy).Contents (Elt F) → (⟨S32768x1, .f32⟩ : BufTy).Contents (Elt F)),
    StableHlo.binary main_v5791 main_v5792 main_v5793 (cmpf .ole : (⟨S32768x1, .f32⟩ : BufTy).Contents (Elt F) → (⟨S32768x1, .f32⟩ : BufTy).Contents (Elt F) → (⟨S32768x1, .i1⟩ : BufTy).Contents (Elt F)),
    StableHlo.unary main_v5793 main_v5794 (uitofp .f32 : (⟨S32768x1, .i1⟩ : BufTy).Contents (Elt F) → (⟨S32768x1, .f32⟩ : BufTy).Contents (Elt F)),
    StableHlo.nullary main_cst_1774 (constant S_ .f32 0x40000000#32),
    StableHlo.unary main_cst_1774 main_v5795 (broadcastInDim S32768x1 ![] bcast_S_S32768x1 : (⟨S_, .f32⟩ : BufTy).Contents (Elt F) → (⟨S32768x1, .f32⟩ : BufTy).Contents (Elt F)),
    StableHlo.binary main_v5795 main_v5794 main_v5796 (mulf : (⟨S32768x1, .f32⟩ : BufTy).Contents (Elt F) → (⟨S32768x1, .f32⟩ : BufTy).Contents (Elt F) → (⟨S32768x1, .f32⟩ : BufTy).Contents (Elt F)),
    StableHlo.nullary main_cst_1775 (constant S_ .f32 0x3F800000#32),
    StableHlo.unary main_cst_1775 main_v5797 (broadcastInDim S32768x1 ![] bcast_S_S32768x1 : (⟨S_, .f32⟩ : BufTy).Contents (Elt F) → (⟨S32768x1, .f32⟩ : BufTy).Contents (Elt F)),
    StableHlo.binary main_v5797 main_v5796 main_v5798 (subf : (⟨S32768x1, .f32⟩ : BufTy).Contents (Elt F) → (⟨S32768x1, .f32⟩ : BufTy).Contents (Elt F) → (⟨S32768x1, .f32⟩ : BufTy).Contents (Elt F)),
    StableHlo.binary main_v5798 main_v5781 main_v5799 (mulf : (⟨S32768x1, .f32⟩ : BufTy).Contents (Elt F) → (⟨S32768x1, .f32⟩ : BufTy).Contents (Elt F) → (⟨S32768x1, .f32⟩ : BufTy).Contents (Elt F)),
    StableHlo.binary main_v5799 main_v5782 main_v5800 (addf : (⟨S32768x1, .f32⟩ : BufTy).Contents (Elt F) → (⟨S32768x1, .f32⟩ : BufTy).Contents (Elt F) → (⟨S32768x1, .f32⟩ : BufTy).Contents (Elt F)),
    StableHlo.nullary main_cst_1776 (constant S_ .f32 0x00000000#32),
    StableHlo.unary main_cst_1776 main_v5801 (broadcastInDim S32768x1 ![] bcast_S_S32768x1 : (⟨S_, .f32⟩ : BufTy).Contents (Elt F) → (⟨S32768x1, .f32⟩ : BufTy).Contents (Elt F)),
    StableHlo.binary main_v5800 main_v5801 main_v5802 (cmpf .ole : (⟨S32768x1, .f32⟩ : BufTy).Contents (Elt F) → (⟨S32768x1, .f32⟩ : BufTy).Contents (Elt F) → (⟨S32768x1, .i1⟩ : BufTy).Contents (Elt F)),
    StableHlo.unary main_v5802 main_v5803 (uitofp .f32 : (⟨S32768x1, .i1⟩ : BufTy).Contents (Elt F) → (⟨S32768x1, .f32⟩ : BufTy).Contents (Elt F)),
    StableHlo.binary main_v5794 main_v5803 main_v5804 (cmpf .une : (⟨S32768x1, .f32⟩ : BufTy).Contents (Elt F) → (⟨S32768x1, .f32⟩ : BufTy).Contents (Elt F) → (⟨S32768x1, .i1⟩ : BufTy).Contents (Elt F)),
    StableHlo.unary main_v5804 main_v5805 (uitofp .f32 : (⟨S32768x1, .i1⟩ : BufTy).Contents (Elt F) → (⟨S32768x1, .f32⟩ : BufTy).Contents (Elt F)),
    StableHlo.binary main_v5805 main_v5803 main_v5806 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5794 main_v5803 main_v5807 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.nullary main_cst_1777 (constant S_ .f32 0x40000000#32),
    StableHlo.unary main_cst_1777 main_v5808 (broadcastInDim S32768x2 ![] bcast_S_S32768x2 : (⟨S_, .f32⟩ : BufTy).Contents (Elt F) → (⟨S32768x2, .f32⟩ : BufTy).Contents (Elt F)),
    StableHlo.binary main_v5808 main_v5806 main_v5809 (mulf : (⟨S32768x2, .f32⟩ : BufTy).Contents (Elt F) → (⟨S32768x2, .f32⟩ : BufTy).Contents (Elt F) → (⟨S32768x2, .f32⟩ : BufTy).Contents (Elt F)),
    StableHlo.nullary main_cst_1778 (constant S_ .f32 0x3F800000#32),
    StableHlo.unary main_cst_1778 main_v5810 (broadcastInDim S32768x2 ![] bcast_S_S32768x2 : (⟨S_, .f32⟩ : BufTy).Contents (Elt F) → (⟨S32768x2, .f32⟩ : BufTy).Contents (Elt F)),
    StableHlo.binary main_v5810 main_v5809 main_v5811 (subf : (⟨S32768x2, .f32⟩ : BufTy).Contents (Elt F) → (⟨S32768x2, .f32⟩ : BufTy).Contents (Elt F) → (⟨S32768x2, .f32⟩ : BufTy).Contents (Elt F)),
    StableHlo.binary main_v5811 main_v5770 main_v5812 (mulf : (⟨S32768x2, .f32⟩ : BufTy).Contents (Elt F) → (⟨S32768x2, .f32⟩ : BufTy).Contents (Elt F) → (⟨S32768x2, .f32⟩ : BufTy).Contents (Elt F)),
    StableHlo.binary main_v5812 main_v5771 main_v5813 (addf : (⟨S32768x2, .f32⟩ : BufTy).Contents (Elt F) → (⟨S32768x2, .f32⟩ : BufTy).Contents (Elt F) → (⟨S32768x2, .f32⟩ : BufTy).Contents (Elt F)),
    StableHlo.unary main_v5813 main_v5814 ((extractStridedSlice S32768x1 ![0, 0] · slices_S32768x2_S32768x1_0_0) : (⟨S32768x2, .f32⟩ : BufTy).Contents (Elt F) → (⟨S32768x1, .f32⟩ : BufTy).Contents (Elt F)),
    StableHlo.unary main_v5813 main_v5815 ((extractStridedSlice S32768x1 ![0, 1] · slices_S32768x2_S32768x1_0_1) : (⟨S32768x2, .f32⟩ : BufTy).Contents (Elt F) → (⟨S32768x1, .f32⟩ : BufTy).Contents (Elt F)),
    StableHlo.nullary main_cst_1779 (constant S_ .f32 0xC1F00000#32),
    StableHlo.nullary main_cst_1780 (constant S_ .f32 0x41F00000#32),
    StableHlo.TRef.unary (.of main_cst_1779 : StableHlo.TRef sig ⟨S_, .f32⟩) main_call508.v0 id,
    StableHlo.TRef.unary main_call508.v0 main_call508.v1 (broadcastInDim S32768x1 ![] bcast_S_S32768x1),
    StableHlo.TRef.binary main_call508.v1 (.of main_v5814 : StableHlo.TRef sig ⟨S32768x1, .f32⟩) main_call508.v2 maximumf,
    StableHlo.TRef.unary (.of main_cst_1780 : StableHlo.TRef sig ⟨S_, .f32⟩) main_call508.v3 id,
    StableHlo.TRef.unary main_call508.v3 main_call508.v4 (broadcastInDim S32768x1 ![] bcast_S_S32768x1),
    StableHlo.TRef.binary main_call508.v4 main_call508.v2 main_call508.v5 minimumf,
    StableHlo.nullary main_cst_1781 (constant S_ .f32 0xC1F00000#32),
    StableHlo.nullary main_cst_1782 (constant S_ .f32 0x41F00000#32),
    StableHlo.TRef.unary (.of main_cst_1781 : StableHlo.TRef sig ⟨S_, .f32⟩) main_call509.v0 id,
    StableHlo.TRef.unary main_call509.v0 main_call509.v1 (broadcastInDim S32768x1 ![] bcast_S_S32768x1),
    StableHlo.TRef.binary main_call509.v1 (.of main_v5815 : StableHlo.TRef sig ⟨S32768x1, .f32⟩) main_call509.v2 maximumf,
    StableHlo.TRef.unary (.of main_cst_1782 : StableHlo.TRef sig ⟨S_, .f32⟩) main_call509.v3 id,
    StableHlo.TRef.unary main_call509.v3 main_call509.v4 (broadcastInDim S32768x1 ![] bcast_S_S32768x1),
    StableHlo.TRef.binary main_call509.v4 main_call509.v2 main_call509.v5 minimumf,
    StableHlo.unary main_v5816 main_v5818 (Host.sign : (⟨S32768x1, .f32⟩ : BufTy).Contents (Elt F) → (⟨S32768x1, .f32⟩ : BufTy).Contents (Elt F)),
    StableHlo.unary main_v5817 main_v5819 (Host.sign : (⟨S32768x1, .f32⟩ : BufTy).Contents (Elt F) → (⟨S32768x1, .f32⟩ : BufTy).Contents (Elt F)),
    StableHlo.binary main_v5818 main_v5819 main_v5820 (mulf : (⟨S32768x1, .f32⟩ : BufTy).Contents (Elt F) → (⟨S32768x1, .f32⟩ : BufTy).Contents (Elt F) → (⟨S32768x1, .f32⟩ : BufTy).Contents (Elt F)),
    StableHlo.unary main_v5816 main_v5821 (Host.absf : (⟨S32768x1, .f32⟩ : BufTy).Contents (Elt F) → (⟨S32768x1, .f32⟩ : BufTy).Contents (Elt F)),
    StableHlo.unary main_v5817 main_v5822 (Host.absf : (⟨S32768x1, .f32⟩ : BufTy).Contents (Elt F) → (⟨S32768x1, .f32⟩ : BufTy).Contents (Elt F)),
    StableHlo.binary main_v5821 main_v5822 main_v5823 (minimumf : (⟨S32768x1, .f32⟩ : BufTy).Contents (Elt F) → (⟨S32768x1, .f32⟩ : BufTy).Contents (Elt F) → (⟨S32768x1, .f32⟩ : BufTy).Contents (Elt F)),
    StableHlo.binary main_v5820 main_v5823 main_v5824 (mulf : (⟨S32768x1, .f32⟩ : BufTy).Contents (Elt F) → (⟨S32768x1, .f32⟩ : BufTy).Contents (Elt F) → (⟨S32768x1, .f32⟩ : BufTy).Contents (Elt F)),
    StableHlo.nullary main_cst_1783 (constant S_ .f32 0x00000000#32),
    StableHlo.unary main_cst_1783 main_v5825 (broadcastInDim S32768x1 ![] bcast_S_S32768x1 : (⟨S_, .f32⟩ : BufTy).Contents (Elt F) → (⟨S32768x1, .f32⟩ : BufTy).Contents (Elt F)),
    StableHlo.binary main_v5824 main_v5825 main_v5826 (cmpf .ole : (⟨S32768x1, .f32⟩ : BufTy).Contents (Elt F) → (⟨S32768x1, .f32⟩ : BufTy).Contents (Elt F) → (⟨S32768x1, .i1⟩ : BufTy).Contents (Elt F)),
    StableHlo.unary main_v5826 main_v5827 (uitofp .f32 : (⟨S32768x1, .i1⟩ : BufTy).Contents (Elt F) → (⟨S32768x1, .f32⟩ : BufTy).Contents (Elt F)),
    StableHlo.nullary main_cst_1784 (constant S_ .f32 0x40000000#32),
    StableHlo.unary main_cst_1784 main_v5828 (broadcastInDim S32768x1 ![] bcast_S_S32768x1 : (⟨S_, .f32⟩ : BufTy).Contents (Elt F) → (⟨S32768x1, .f32⟩ : BufTy).Contents (Elt F)),
    StableHlo.binary main_v5828 main_v5827 main_v5829 (mulf : (⟨S32768x1, .f32⟩ : BufTy).Contents (Elt F) → (⟨S32768x1, .f32⟩ : BufTy).Contents (Elt F) → (⟨S32768x1, .f32⟩ : BufTy).Contents (Elt F)),
    StableHlo.nullary main_cst_1785 (constant S_ .f32 0x3F800000#32),
    StableHlo.unary main_cst_1785 main_v5830 (broadcastInDim S32768x1 ![] bcast_S_S32768x1 : (⟨S_, .f32⟩ : BufTy).Contents (Elt F) → (⟨S32768x1, .f32⟩ : BufTy).Contents (Elt F)),
    StableHlo.binary main_v5830 main_v5829 main_v5831 (subf : (⟨S32768x1, .f32⟩ : BufTy).Contents (Elt F) → (⟨S32768x1, .f32⟩ : BufTy).Contents (Elt F) → (⟨S32768x1, .f32⟩ : BufTy).Contents (Elt F)) ]

set_option maxRecDepth 8192 in
/-- The window is that straight line: each clip function unfolded at its calls, the sequencing reassociated. -/
theorem part_eq_126 (d : Dev nD) : main_part126 (F := F) d = seq ops126 := by
  simp only [main_part126, fn_clip_6.body, seq, bind_assoc, pure_bind]
  rfl

/-- Every operation of the window touches TensorCore references only. -/
theorem sub_126 : (ops126 : List (HloOp τ sig (Elt F))).Forall fun op => op.bufs ⊆ tcRefs τ sig :=
  ⟨unary_bufs_sub .., unary_bufs_sub .., binary_bufs_sub .., unary_bufs_sub .., unary_bufs_sub .., binary_bufs_sub ..,
    binary_bufs_sub .., nullary_bufs_sub .., unary_bufs_sub .., binary_bufs_sub .., unary_bufs_sub .., nullary_bufs_sub ..,
    unary_bufs_sub .., binary_bufs_sub .., nullary_bufs_sub .., unary_bufs_sub .., binary_bufs_sub .., binary_bufs_sub ..,
    binary_bufs_sub .., nullary_bufs_sub .., unary_bufs_sub .., binary_bufs_sub .., unary_bufs_sub .., binary_bufs_sub ..,
    unary_bufs_sub .., binary_bufs_sub .., binary_bufs_sub .., nullary_bufs_sub .., unary_bufs_sub .., binary_bufs_sub ..,
    nullary_bufs_sub .., unary_bufs_sub .., binary_bufs_sub .., binary_bufs_sub .., binary_bufs_sub .., unary_bufs_sub ..,
    unary_bufs_sub .., nullary_bufs_sub .., nullary_bufs_sub .., unary_bufs_sub .., unary_bufs_sub .., binary_bufs_sub ..,
    unary_bufs_sub .., unary_bufs_sub .., binary_bufs_sub .., nullary_bufs_sub .., nullary_bufs_sub .., unary_bufs_sub ..,
    unary_bufs_sub .., binary_bufs_sub .., unary_bufs_sub .., unary_bufs_sub .., binary_bufs_sub .., unary_bufs_sub ..,
    unary_bufs_sub .., binary_bufs_sub .., unary_bufs_sub .., unary_bufs_sub .., binary_bufs_sub .., binary_bufs_sub ..,
    nullary_bufs_sub .., unary_bufs_sub .., binary_bufs_sub .., unary_bufs_sub .., nullary_bufs_sub .., unary_bufs_sub ..,
    binary_bufs_sub .., nullary_bufs_sub .., unary_bufs_sub .., binary_bufs_sub ..⟩

/-- Every operation of the window determines all it writes. -/
theorem fresh_126 : (ops126 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl⟩

set_option maxRecDepth 8192 in
/-- The window writes no argument of @main: the argument's buffer holds after it what it held before. -/
theorem keep_126 (V : Valuation τ sig (Elt F)) :
    after ops126 V (main_arg0 : DevRef τ sig) = V (main_arg0 : DevRef τ sig) := by
  simp only [after_cons, after_nil]
  rfl

/-- The operations of @main's statements 7621 … 7665, in order (44 of them): a statement's own operation, or, for a call
    of a clip function, the six operations of its body over that call's buffers. -/
abbrev ops127 : List (HloOp τ sig (Elt F)) :=
  [ StableHlo.binary main_v5831 main_v5814 main_v5832 (mulf : (⟨S32768x1, .f32⟩ : BufTy).Contents (Elt F) → (⟨S32768x1, .f32⟩ : BufTy).Contents (Elt F) → (⟨S32768x1, .f32⟩ : BufTy).Contents (Elt F)),
    StableHlo.binary main_v5832 main_v5815 main_v5833 (addf : (⟨S32768x1, .f32⟩ : BufTy).Contents (Elt F) → (⟨S32768x1, .f32⟩ : BufTy).Contents (Elt F) → (⟨S32768x1, .f32⟩ : BufTy).Contents (Elt F)),
    StableHlo.nullary main_cst_1786 (constant S_ .f32 0x00000000#32),
    StableHlo.unary main_cst_1786 main_v5834 (broadcastInDim S32768x1 ![] bcast_S_S32768x1 : (⟨S_, .f32⟩ : BufTy).Contents (Elt F) → (⟨S32768x1, .f32⟩ : BufTy).Contents (Elt F)),
    StableHlo.binary main_v5833 main_v5834 main_v5835 (cmpf .ole : (⟨S32768x1, .f32⟩ : BufTy).Contents (Elt F) → (⟨S32768x1, .f32⟩ : BufTy).Contents (Elt F) → (⟨S32768x1, .i1⟩ : BufTy).Contents (Elt F)),
    StableHlo.unary main_v5835 main_v5836 (uitofp .f32 : (⟨S32768x1, .i1⟩ : BufTy).Contents (Elt F) → (⟨S32768x1, .f32⟩ : BufTy).Contents (Elt F)),
    StableHlo.binary main_v5827 main_v5836 main_v5837 (cmpf .une : (⟨S32768x1, .f32⟩ : BufTy).Contents (Elt F) → (⟨S32768x1, .f32⟩ : BufTy).Contents (Elt F) → (⟨S32768x1, .i1⟩ : BufTy).Contents (Elt F)),
    StableHlo.unary main_v5837 main_v5838 (uitofp .f32 : (⟨S32768x1, .i1⟩ : BufTy).Contents (Elt F) → (⟨S32768x1, .f32⟩ : BufTy).Contents (Elt F)),
    StableHlo.binary main_v5838 main_v5836 main_v5839 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5827 main_v5836 main_v5840 ((fun a b => concatenate S32768x2 1 [⟨S32768x1, a⟩, ⟨S32768x1, b⟩] concatenates_S32768x1_S32768x1_S32768x2_d1) : (⟨S32768x1, .f32⟩ : BufTy).Contents (Elt F) → (⟨S32768x1, .f32⟩ : BufTy).Contents (Elt F) → (⟨S32768x2, .f32⟩ : BufTy).Contents (Elt F)),
    StableHlo.binary main_v5806 main_v5839 main_v5841 (cmpf .une : (⟨S32768x2, .f32⟩ : BufTy).Contents (Elt F) → (⟨S32768x2, .f32⟩ : BufTy).Contents (Elt F) → (⟨S32768x2, .i1⟩ : BufTy).Contents (Elt F)),
    StableHlo.unary main_v5841 main_v5842 (uitofp .f32 : (⟨S32768x2, .i1⟩ : BufTy).Contents (Elt F) → (⟨S32768x2, .f32⟩ : BufTy).Contents (Elt F)),
    StableHlo.binary main_v5842 main_v5839 main_v5843 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v5807 main_v5840 main_v5844 ((fun a b => concatenate S32768x4 1 [⟨S32768x2, a⟩, ⟨S32768x2, b⟩] concatenates_S32768x2_S32768x2_S32768x4_d1) : (⟨S32768x2, .f32⟩ : BufTy).Contents (Elt F) → (⟨S32768x2, .f32⟩ : BufTy).Contents (Elt F) → (⟨S32768x4, .f32⟩ : BufTy).Contents (Elt F)),
    StableHlo.binary main_v5762 main_v5843 main_v5845 (cmpf .une : (⟨S32768x4, .f32⟩ : BufTy).Contents (Elt F) → (⟨S32768x4, .f32⟩ : BufTy).Contents (Elt F) → (⟨S32768x4, .i1⟩ : BufTy).Contents (Elt F)),
    StableHlo.unary main_v5845 main_v5846 (uitofp .f32 : (⟨S32768x4, .i1⟩ : BufTy).Contents (Elt F) → (⟨S32768x4, .f32⟩ : BufTy).Contents (Elt F)),
    StableHlo.binary main_v5846 main_v5843 main_v5847 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v5763 main_v5844 main_v5848 ((fun a b => concatenate S32768x8 1 [⟨S32768x4, a⟩, ⟨S32768x4, b⟩] concatenates_S32768x4_S32768x4_S32768x8_d1) : (⟨S32768x4, .f32⟩ : BufTy).Contents (Elt F) → (⟨S32768x4, .f32⟩ : BufTy).Contents (Elt F) → (⟨S32768x8, .f32⟩ : BufTy).Contents (Elt F)),
    StableHlo.binary main_v5670 main_v5847 main_v5849 (cmpf .une : (⟨S32768x8, .f32⟩ : BufTy).Contents (Elt F) → (⟨S32768x8, .f32⟩ : BufTy).Contents (Elt F) → (⟨S32768x8, .i1⟩ : BufTy).Contents (Elt F)),
    StableHlo.unary main_v5849 main_v5850 (uitofp .f32 : (⟨S32768x8, .i1⟩ : BufTy).Contents (Elt F) → (⟨S32768x8, .f32⟩ : BufTy).Contents (Elt F)),
    StableHlo.binary main_v5850 main_v5847 main_v5851 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v5671 main_v5848 main_v5852 ((fun a b => concatenate S32768x16 1 [⟨S32768x8, a⟩, ⟨S32768x8, b⟩] concatenates_S32768x8_S32768x8_S32768x16_d1) : (⟨S32768x8, .f32⟩ : BufTy).Contents (Elt F) → (⟨S32768x8, .f32⟩ : BufTy).Contents (Elt F) → (⟨S32768x16, .f32⟩ : BufTy).Contents (Elt F)),
    StableHlo.binary main_v5482 main_v5851 main_v5853 (cmpf .une : (⟨S32768x16, .f32⟩ : BufTy).Contents (Elt F) → (⟨S32768x16, .f32⟩ : BufTy).Contents (Elt F) → (⟨S32768x16, .i1⟩ : BufTy).Contents (Elt F)),
    StableHlo.unary main_v5853 main_v5854 (uitofp .f32 : (⟨S32768x16, .i1⟩ : BufTy).Contents (Elt F) → (⟨S32768x16, .f32⟩ : BufTy).Contents (Elt F)),
    StableHlo.binary main_v5854 main_v5851 main_v5855 ((fun a b => concatenate S32768x32 1 [⟨S32768x16, a⟩, ⟨S32768x16, b⟩] concatenates_S32768x16_S32768x16_S32768x32_d1) : (⟨S32768x16, .f32⟩ : BufTy).Contents (Elt F) → (⟨S32768x16, .f32⟩ : BufTy).Contents (Elt F) → (⟨S32768x32, .f32⟩ : BufTy).Contents (Elt F)),
    StableHlo.binary main_v5483 main_v5852 main_v5856 ((fun a b => concatenate S32768x32 1 [⟨S32768x16, a⟩, ⟨S32768x16, b⟩] concatenates_S32768x16_S32768x16_S32768x32_d1) : (⟨S32768x16, .f32⟩ : BufTy).Contents (Elt F) → (⟨S32768x16, .f32⟩ : BufTy).Contents (Elt F) → (⟨S32768x32, .f32⟩ : BufTy).Contents (Elt F)),
    StableHlo.binary main_v5102 main_v5855 main_v5857 (cmpf .une : (⟨S32768x32, .f32⟩ : BufTy).Contents (Elt F) → (⟨S32768x32, .f32⟩ : BufTy).Contents (Elt F) → (⟨S32768x32, .i1⟩ : BufTy).Contents (Elt F)),
    StableHlo.unary main_v5857 main_v5858 (uitofp .f32 : (⟨S32768x32, .i1⟩ : BufTy).Contents (Elt F) → (⟨S32768x32, .f32⟩ : BufTy).Contents (Elt F)),
    StableHlo.binary main_v5858 main_v5855 main_v5859 ((fun a b => concatenate S32768x64 1 [⟨S32768x32, a⟩, ⟨S32768x32, b⟩] concatenates_S32768x32_S32768x32_S32768x64_d1) : (⟨S32768x32, .f32⟩ : BufTy).Contents (Elt F) → (⟨S32768x32, .f32⟩ : BufTy).Contents (Elt F) → (⟨S32768x64, .f32⟩ : BufTy).Contents (Elt F)),
    StableHlo.binary main_v5103 main_v5856 main_v5860 ((fun a b => concatenate S32768x64 1 [⟨S32768x32, a⟩, ⟨S32768x32, b⟩] concatenates_S32768x32_S32768x32_S32768x64_d1) : (⟨S32768x32, .f32⟩ : BufTy).Contents (Elt F) → (⟨S32768x32, .f32⟩ : BufTy).Contents (Elt F) → (⟨S32768x64, .f32⟩ : BufTy).Contents (Elt F)),
    StableHlo.binary main_v4338 main_v5859 main_v5861 (cmpf .une : (⟨S32768x64, .f32⟩ : BufTy).Contents (Elt F) → (⟨S32768x64, .f32⟩ : BufTy).Contents (Elt F) → (⟨S32768x64, .i1⟩ : BufTy).Contents (Elt F)),
    StableHlo.unary main_v5861 main_v5862 (uitofp .f32 : (⟨S32768x64, .i1⟩ : BufTy).Contents (Elt F) → (⟨S32768x64, .f32⟩ : BufTy).Contents (Elt F)),
    StableHlo.binary main_v5862 main_v5859 main_v5863 ((fun a b => concatenate S32768x128 1 [⟨S32768x64, a⟩, ⟨S32768x64, b⟩] concatenates_S32768x64_S32768x64_S32768x128_d1) : (⟨S32768x64, .f32⟩ : BufTy).Contents (Elt F) → (⟨S32768x64, .f32⟩ : BufTy).Contents (Elt F) → (⟨S32768x128, .f32⟩ : BufTy).Contents (Elt F)),
    StableHlo.binary main_v4339 main_v5860 main_v5864 ((fun a b => concatenate S32768x128 1 [⟨S32768x64, a⟩, ⟨S32768x64, b⟩] concatenates_S32768x64_S32768x64_S32768x128_d1) : (⟨S32768x64, .f32⟩ : BufTy).Contents (Elt F) → (⟨S32768x64, .f32⟩ : BufTy).Contents (Elt F) → (⟨S32768x128, .f32⟩ : BufTy).Contents (Elt F)),
    StableHlo.binary main_v2806 main_v5863 main_v5865 (cmpf .une : (⟨S32768x128, .f32⟩ : BufTy).Contents (Elt F) → (⟨S32768x128, .f32⟩ : BufTy).Contents (Elt F) → (⟨S32768x128, .i1⟩ : BufTy).Contents (Elt F)),
    StableHlo.unary main_v5865 main_v5866 (uitofp .f32 : (⟨S32768x128, .i1⟩ : BufTy).Contents (Elt F) → (⟨S32768x128, .f32⟩ : BufTy).Contents (Elt F)),
    StableHlo.binary main_v5866 main_v5863 main_v5867 ((fun a b => concatenate S32768x256 1 [⟨S32768x128, a⟩, ⟨S32768x128, b⟩] concatenates_S32768x128_S32768x128_S32768x256_d1) : (⟨S32768x128, .f32⟩ : BufTy).Contents (Elt F) → (⟨S32768x128, .f32⟩ : BufTy).Contents (Elt F) → (⟨S32768x256, .f32⟩ : BufTy).Contents (Elt F)),
    StableHlo.binary main_v2807 main_v5864 main_v5868 ((fun a b => concatenate S32768x256 1 [⟨S32768x128, a⟩, ⟨S32768x128, b⟩] concatenates_S32768x128_S32768x128_S32768x256_d1) : (⟨S32768x128, .f32⟩ : BufTy).Contents (Elt F) → (⟨S32768x128, .f32⟩ : BufTy).Contents (Elt F) → (⟨S32768x256, .f32⟩ : BufTy).Contents (Elt F)),
    StableHlo.nullary main_c_1787 (constantI S_ 32 256#32),
    StableHlo.unary main_c_1787 main_v5869 (broadcastInDim S128 ![] bcast_S_S128 : (⟨S_, .i32⟩ : BufTy).Contents (Elt F) → (⟨S128, .i32⟩ : BufTy).Contents (Elt F)),
    StableHlo.binary main_c main_v5869 main_v5870 (addi : (⟨S128, .i32⟩ : BufTy).Contents (Elt F) → (⟨S128, .i32⟩ : BufTy).Contents (Elt F) → (⟨S128, .i32⟩ : BufTy).Contents (Elt F)),
    StableHlo.ternary main_c_0 main_v5870 main_c main_v5871 (select : (⟨S128, .i1⟩ : BufTy).Contents (Elt F) → (⟨S128, .i32⟩ : BufTy).Contents (Elt F) → (⟨S128, .i32⟩ : BufTy).Contents (Elt F) → (⟨S128, .i32⟩ : BufTy).Contents (Elt F)),
    StableHlo.unary main_v5871 main_v5872 (broadcastInDim S128x1 ![0] bcast_S128_S128x1_0 : (⟨S128, .i32⟩ : BufTy).Contents (Elt F) → (⟨S128x1, .i32⟩ : BufTy).Contents (Elt F)),
    StableHlo.binary main_v5868 main_v5872 main_v5873 ((fun x i => Host.gather gather_S32768x256_S128x1_S32768x128_0_1_n_n_1_1_327681 x i) : (⟨S32768x256, .f32⟩ : BufTy).Contents (Elt F) → (⟨S128x1, .i32⟩ : BufTy).Contents (Elt F) → (⟨S32768x128, .f32⟩ : BufTy).Contents (Elt F)) ]

set_option maxRecDepth 8192 in
/-- The window is that straight line: each clip function unfolded at its calls, the sequencing reassociated. -/
theorem part_eq_127 (d : Dev nD) : main_part127 (F := F) d = seq ops127 := by
  simp only [main_part127, seq, bind_assoc, pure_bind]

/-- Every operation of the window touches TensorCore references only. -/
theorem sub_127 : (ops127 : List (HloOp τ sig (Elt F))).Forall fun op => op.bufs ⊆ tcRefs τ sig :=
  ⟨binary_bufs_sub .., binary_bufs_sub .., nullary_bufs_sub .., unary_bufs_sub .., binary_bufs_sub .., unary_bufs_sub ..,
    binary_bufs_sub .., unary_bufs_sub .., binary_bufs_sub .., binary_bufs_sub .., binary_bufs_sub .., unary_bufs_sub ..,
    binary_bufs_sub .., binary_bufs_sub .., binary_bufs_sub .., unary_bufs_sub .., binary_bufs_sub .., binary_bufs_sub ..,
    binary_bufs_sub .., unary_bufs_sub .., binary_bufs_sub .., binary_bufs_sub .., binary_bufs_sub .., unary_bufs_sub ..,
    binary_bufs_sub .., binary_bufs_sub .., binary_bufs_sub .., unary_bufs_sub .., binary_bufs_sub .., binary_bufs_sub ..,
    binary_bufs_sub .., unary_bufs_sub .., binary_bufs_sub .., binary_bufs_sub .., binary_bufs_sub .., unary_bufs_sub ..,
    binary_bufs_sub .., binary_bufs_sub .., nullary_bufs_sub .., unary_bufs_sub .., binary_bufs_sub .., ternary_bufs_sub ..,
    unary_bufs_sub .., binary_bufs_sub ..⟩

/-- Every operation of the window determines all it writes. -/
theorem fresh_127 : (ops127 : List (HloOp τ sig (Elt F))).Forall fun op => op.fresh = ∅ :=
  ⟨rfl, rfl, rfl, rfl, rfl, rfl, rfl, rfl, rfl, rfl, rfl, rfl, rfl, rfl, rfl, rfl, rfl, rfl, rfl, rfl, rfl, rfl, rfl, rfl, rfl, rfl, rfl, rfl, rfl, rfl,
    rfl, rfl, rfl, rfl, rfl, rfl, rfl, rfl, rfl, rfl, rfl, rfl, rfl, rfl⟩

set_option maxRecDepth 8192 in
/-- The window writes no argument of @main: the argument's buffer holds after it what it held before. -/
theorem keep_127 (V : Valuation τ sig (Elt F)) :
    after ops127 V (main_arg0 : DevRef τ sig) = V (main_arg0 : DevRef τ sig) := by
  simp only [after_cons, after_nil]
  rfl

end Cert.ReferenceIdeal.RefRun

end
-- ==== Proof.RefRun.All.lean ====
import proofs.«134088_j24077586662034_2_alg».proof.Proof.RefRun.W00
import proofs.«134088_j24077586662034_2_alg».proof.Proof.RefRun.W01
import proofs.«134088_j24077586662034_2_alg».proof.Proof.RefRun.W02
import proofs.«134088_j24077586662034_2_alg».proof.Proof.RefRun.W03
import proofs.«134088_j24077586662034_2_alg».proof.Proof.RefRun.W04
import proofs.«134088_j24077586662034_2_alg».proof.Proof.RefRun.W05
import proofs.«134088_j24077586662034_2_alg».proof.Proof.RefRun.W06
import proofs.«134088_j24077586662034_2_alg».proof.Proof.RefRun.W07
import proofs.«134088_j24077586662034_2_alg».proof.Proof.RefRun.W08
import proofs.«134088_j24077586662034_2_alg».proof.Proof.RefRun.W09
import proofs.«134088_j24077586662034_2_alg».proof.Proof.RefRun.W10
import proofs.«134088_j24077586662034_2_alg».proof.Proof.RefRun.W11
import proofs.«134088_j24077586662034_2_alg».proof.Proof.RefRun.W12
import proofs.«134088_j24077586662034_2_alg».proof.Proof.RefRun.W13
import proofs.«134088_j24077586662034_2_alg».proof.Proof.RefRun.W14
import proofs.«134088_j24077586662034_2_alg».proof.Proof.RefRun.W15

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 10214 operations in program order: the windows' lists, one after the other. -/
def ops : List (HloOp τ sig (Elt F)) :=
    ops0 ++ (
    ops1 ++ (
    ops2 ++ (
    ops3 ++ (
    ops4 ++ (
    ops5 ++ (
    ops6 ++ (
    ops7 ++ (
    ops8 ++ (
    ops9 ++ (
    ops10 ++ (
    ops11 ++ (
    ops12 ++ (
    ops13 ++ (
    ops14 ++ (
    ops15 ++ (
    ops16 ++ (
    ops17 ++ (
    ops18 ++ (
    ops19 ++ (
    ops20 ++ (
    ops21 ++ (
    ops22 ++ (
    ops23 ++ (
    ops24 ++ (
    ops25 ++ (
    ops26 ++ (
    ops27 ++ (
    ops28 ++ (
    ops29 ++ (
    ops30 ++ (
    ops31 ++ (
    ops32 ++ (
    ops33 ++ (
    ops34 ++ (
    ops35 ++ (
    ops36 ++ (
    ops37 ++ (
    ops38 ++ (
    ops39 ++ (
    ops40 ++ (
    ops41 ++ (
    ops42 ++ (
    ops43 ++ (
    ops44 ++ (
    ops45 ++ (
    ops46 ++ (
    ops47 ++ (
    ops48 ++ (
    ops49 ++ (
    ops50 ++ (
    ops51 ++ (
    ops52 ++ (
    ops53 ++ (
    ops54 ++ (
    ops55 ++ (
    ops56 ++ (
    ops57 ++ (
    ops58 ++ (
    ops59 ++ (
    ops60 ++ (
    ops61 ++ (
    ops62 ++ (
    ops63 ++ (
    ops64 ++ (
    ops65 ++ (
    ops66 ++ (
    ops67 ++ (
    ops68 ++ (
    ops69 ++ (
    ops70 ++ (
    ops71 ++ (
    ops72 ++ (
    ops73 ++ (
    ops74 ++ (
    ops75 ++ (
    ops76 ++ (
    ops77 ++ (
    ops78 ++ (
    ops79 ++ (
    ops80 ++ (
    ops81 ++ (
    ops82 ++ (
    ops83 ++ (
    ops84 ++ (
    ops85 ++ (
    ops86 ++ (
    ops87 ++ (
    ops88 ++ (
    ops89 ++ (
    ops90 ++ (
    ops91 ++ (
    ops92 ++ (
    ops93 ++ (
    ops94 ++ (
    ops95 ++ (
    ops96 ++ (
    ops97 ++ (
    ops98 ++ (
    ops99 ++ (
    ops100 ++ (
    ops101 ++ (
    ops102 ++ (
    ops103 ++ (
    ops104 ++ (
    ops105 ++ (
    ops106 ++ (
    ops107 ++ (
    ops108 ++ (
    ops109 ++ (
    ops110 ++ (
    ops111 ++ (
    ops112 ++ (
    ops113 ++ (
    ops114 ++ (
    ops115 ++ (
    ops116 ++ (
    ops117 ++ (
    ops118 ++ (
    ops119 ++ (
    ops120 ++ (
    ops121 ++ (
    ops122 ++ (
    ops123 ++ (
    ops124 ++ (
    ops125 ++ (
    ops126 ++ (
    ops127)))))))))))))))))))))))))))))))))))))))))))))))))))))))))))))))))))))))))))))))))))))))))))))))))))))))))))))))))))))))))))))))

/-- Two programs that are the lines of two lists, run one after the other, are the line of the lists' concatenation. -/
theorem seq_bind_eq {n : Nat} {t : Topo} {s : RefSig} {Val : EltTy → Type} {Λ : Labels}
    {a b : Prog (TpuEff n t s Val Λ .tc) PUnit} {l₁ l₂ : List (HloOp t s Val)}
    (h₁ : a = seq l₁) (h₂ : b = seq l₂) : (a >>= fun _ => b) = seq (l₁ ++ l₂) := by
  rw [seq_append, h₁, h₂]

/-- What holds of every entry of two lists holds of every entry of their concatenation. -/
theorem forall_append_of {α : Type} {p : α → Prop} {l₁ l₂ : List α} (h₁ : l₁.Forall p) (h₂ : l₂.Forall p) :
    (l₁ ++ l₂).Forall p :=
  List.forall_append.mpr ⟨h₁, h₂⟩

/-- The fold over a concatenation is the second list's fold from the first's. -/
theorem after_concat {t : Topo} {s : RefSig} {Val : EltTy → Type} :
    ∀ (l₁ l₂ : List (HloOp t s Val)) (V : Valuation t s Val), after (l₁ ++ l₂) V = after l₂ (after l₁ V)
  | [], _, _ => rfl
  | op :: l₁, l₂, V => by rw [List.cons_append, after_cons, after_cons, after_concat l₁ l₂]

/-- A buffer that two lines each leave as it was, from any contents, their concatenation leaves as it was. -/
theorem keeps_append {t : Topo} {s : RefSig} {Val : EltTy → Type} {b : DevRef t s} {l₁ l₂ : List (HloOp t s Val)}
    (h₁ : ∀ V : Valuation t s Val, after l₁ V b = V b) (h₂ : ∀ V : Valuation t s Val, after l₂ V b = V b) :
    ∀ V : Valuation t s Val, after (l₁ ++ l₂) V b = V b := fun V => by
  rw [after_concat]; exact (h₂ _).trans (h₁ V)

set_option maxRecDepth 8192 in
/-- @main is the straight line of its operations: it runs its windows in order, each the line of its own list. -/
theorem main_eq (c : Dev nD) : main (F := F) c = seq ops :=
    seq_bind_eq (part_eq_0 c) (
    seq_bind_eq (part_eq_1 c) (
    seq_bind_eq (part_eq_2 c) (
    seq_bind_eq (part_eq_3 c) (
    seq_bind_eq (part_eq_4 c) (
    seq_bind_eq (part_eq_5 c) (
    seq_bind_eq (part_eq_6 c) (
    seq_bind_eq (part_eq_7 c) (
    seq_bind_eq (part_eq_8 c) (
    seq_bind_eq (part_eq_9 c) (
    seq_bind_eq (part_eq_10 c) (
    seq_bind_eq (part_eq_11 c) (
    seq_bind_eq (part_eq_12 c) (
    seq_bind_eq (part_eq_13 c) (
    seq_bind_eq (part_eq_14 c) (
    seq_bind_eq (part_eq_15 c) (
    seq_bind_eq (part_eq_16 c) (
    seq_bind_eq (part_eq_17 c) (
    seq_bind_eq (part_eq_18 c) (
    seq_bind_eq (part_eq_19 c) (
    seq_bind_eq (part_eq_20 c) (
    seq_bind_eq (part_eq_21 c) (
    seq_bind_eq (part_eq_22 c) (
    seq_bind_eq (part_eq_23 c) (
    seq_bind_eq (part_eq_24 c) (
    seq_bind_eq (part_eq_25 c) (
    seq_bind_eq (part_eq_26 c) (
    seq_bind_eq (part_eq_27 c) (
    seq_bind_eq (part_eq_28 c) (
    seq_bind_eq (part_eq_29 c) (
    seq_bind_eq (part_eq_30 c) (
    seq_bind_eq (part_eq_31 c) (
    seq_bind_eq (part_eq_32 c) (
    seq_bind_eq (part_eq_33 c) (
    seq_bind_eq (part_eq_34 c) (
    seq_bind_eq (part_eq_35 c) (
    seq_bind_eq (part_eq_36 c) (
    seq_bind_eq (part_eq_37 c) (
    seq_bind_eq (part_eq_38 c) (
    seq_bind_eq (part_eq_39 c) (
    seq_bind_eq (part_eq_40 c) (
    seq_bind_eq (part_eq_41 c) (
    seq_bind_eq (part_eq_42 c) (
    seq_bind_eq (part_eq_43 c) (
    seq_bind_eq (part_eq_44 c) (
    seq_bind_eq (part_eq_45 c) (
    seq_bind_eq (part_eq_46 c) (
    seq_bind_eq (part_eq_47 c) (
    seq_bind_eq (part_eq_48 c) (
    seq_bind_eq (part_eq_49 c) (
    seq_bind_eq (part_eq_50 c) (
    seq_bind_eq (part_eq_51 c) (
    seq_bind_eq (part_eq_52 c) (
    seq_bind_eq (part_eq_53 c) (
    seq_bind_eq (part_eq_54 c) (
    seq_bind_eq (part_eq_55 c) (
    seq_bind_eq (part_eq_56 c) (
    seq_bind_eq (part_eq_57 c) (
    seq_bind_eq (part_eq_58 c) (
    seq_bind_eq (part_eq_59 c) (
    seq_bind_eq (part_eq_60 c) (
    seq_bind_eq (part_eq_61 c) (
    seq_bind_eq (part_eq_62 c) (
    seq_bind_eq (part_eq_63 c) (
    seq_bind_eq (part_eq_64 c) (
    seq_bind_eq (part_eq_65 c) (
    seq_bind_eq (part_eq_66 c) (
    seq_bind_eq (part_eq_67 c) (
    seq_bind_eq (part_eq_68 c) (
    seq_bind_eq (part_eq_69 c) (
    seq_bind_eq (part_eq_70 c) (
    seq_bind_eq (part_eq_71 c) (
    seq_bind_eq (part_eq_72 c) (
    seq_bind_eq (part_eq_73 c) (
    seq_bind_eq (part_eq_74 c) (
    seq_bind_eq (part_eq_75 c) (
    seq_bind_eq (part_eq_76 c) (
    seq_bind_eq (part_eq_77 c) (
    seq_bind_eq (part_eq_78 c) (
    seq_bind_eq (part_eq_79 c) (
    seq_bind_eq (part_eq_80 c) (
    seq_bind_eq (part_eq_81 c) (
    seq_bind_eq (part_eq_82 c) (
    seq_bind_eq (part_eq_83 c) (
    seq_bind_eq (part_eq_84 c) (
    seq_bind_eq (part_eq_85 c) (
    seq_bind_eq (part_eq_86 c) (
    seq_bind_eq (part_eq_87 c) (
    seq_bind_eq (part_eq_88 c) (
    seq_bind_eq (part_eq_89 c) (
    seq_bind_eq (part_eq_90 c) (
    seq_bind_eq (part_eq_91 c) (
    seq_bind_eq (part_eq_92 c) (
    seq_bind_eq (part_eq_93 c) (
    seq_bind_eq (part_eq_94 c) (
    seq_bind_eq (part_eq_95 c) (
    seq_bind_eq (part_eq_96 c) (
    seq_bind_eq (part_eq_97 c) (
    seq_bind_eq (part_eq_98 c) (
    seq_bind_eq (part_eq_99 c) (
    seq_bind_eq (part_eq_100 c) (
    seq_bind_eq (part_eq_101 c) (
    seq_bind_eq (part_eq_102 c) (
    seq_bind_eq (part_eq_103 c) (
    seq_bind_eq (part_eq_104 c) (
    seq_bind_eq (part_eq_105 c) (
    seq_bind_eq (part_eq_106 c) (
    seq_bind_eq (part_eq_107 c) (
    seq_bind_eq (part_eq_108 c) (
    seq_bind_eq (part_eq_109 c) (
    seq_bind_eq (part_eq_110 c) (
    seq_bind_eq (part_eq_111 c) (
    seq_bind_eq (part_eq_112 c) (
    seq_bind_eq (part_eq_113 c) (
    seq_bind_eq (part_eq_114 c) (
    seq_bind_eq (part_eq_115 c) (
    seq_bind_eq (part_eq_116 c) (
    seq_bind_eq (part_eq_117 c) (
    seq_bind_eq (part_eq_118 c) (
    seq_bind_eq (part_eq_119 c) (
    seq_bind_eq (part_eq_120 c) (
    seq_bind_eq (part_eq_121 c) (
    seq_bind_eq (part_eq_122 c) (
    seq_bind_eq (part_eq_123 c) (
    seq_bind_eq (part_eq_124 c) (
    seq_bind_eq (part_eq_125 c) (
    seq_bind_eq (part_eq_126 c) (
    part_eq_127 c)))))))))))))))))))))))))))))))))))))))))))))))))))))))))))))))))))))))))))))))))))))))))))))))))))))))))))))))))))))))))))))))

set_option maxRecDepth 8192 in
/-- Every operation of @main touches TensorCore references only. -/
theorem ops_sub : (ops : List (HloOp τ sig (Elt F))).Forall fun op => op.bufs ⊆ tcRefs τ sig :=
    forall_append_of (sub_0) (
    forall_append_of (sub_1) (
    forall_append_of (sub_2) (
    forall_append_of (sub_3) (
    forall_append_of (sub_4) (
    forall_append_of (sub_5) (
    forall_append_of (sub_6) (
    forall_append_of (sub_7) (
    forall_append_of (sub_8) (
    forall_append_of (sub_9) (
    forall_append_of (sub_10) (
    forall_append_of (sub_11) (
    forall_append_of (sub_12) (
    forall_append_of (sub_13) (
    forall_append_of (sub_14) (
    forall_append_of (sub_15) (
    forall_append_of (sub_16) (
    forall_append_of (sub_17) (
    forall_append_of (sub_18) (
    forall_append_of (sub_19) (
    forall_append_of (sub_20) (
    forall_append_of (sub_21) (
    forall_append_of (sub_22) (
    forall_append_of (sub_23) (
    forall_append_of (sub_24) (
    forall_append_of (sub_25) (
    forall_append_of (sub_26) (
    forall_append_of (sub_27) (
    forall_append_of (sub_28) (
    forall_append_of (sub_29) (
    forall_append_of (sub_30) (
    forall_append_of (sub_31) (
    forall_append_of (sub_32) (
    forall_append_of (sub_33) (
    forall_append_of (sub_34) (
    forall_append_of (sub_35) (
    forall_append_of (sub_36) (
    forall_append_of (sub_37) (
    forall_append_of (sub_38) (
    forall_append_of (sub_39) (
    forall_append_of (sub_40) (
    forall_append_of (sub_41) (
    forall_append_of (sub_42) (
    forall_append_of (sub_43) (
    forall_append_of (sub_44) (
    forall_append_of (sub_45) (
    forall_append_of (sub_46) (
    forall_append_of (sub_47) (
    forall_append_of (sub_48) (
    forall_append_of (sub_49) (
    forall_append_of (sub_50) (
    forall_append_of (sub_51) (
    forall_append_of (sub_52) (
    forall_append_of (sub_53) (
    forall_append_of (sub_54) (
    forall_append_of (sub_55) (
    forall_append_of (sub_56) (
    forall_append_of (sub_57) (
    forall_append_of (sub_58) (
    forall_append_of (sub_59) (
    forall_append_of (sub_60) (
    forall_append_of (sub_61) (
    forall_append_of (sub_62) (
    forall_append_of (sub_63) (
    forall_append_of (sub_64) (
    forall_append_of (sub_65) (
    forall_append_of (sub_66) (
    forall_append_of (sub_67) (
    forall_append_of (sub_68) (
    forall_append_of (sub_69) (
    forall_append_of (sub_70) (
    forall_append_of (sub_71) (
    forall_append_of (sub_72) (
    forall_append_of (sub_73) (
    forall_append_of (sub_74) (
    forall_append_of (sub_75) (
    forall_append_of (sub_76) (
    forall_append_of (sub_77) (
    forall_append_of (sub_78) (
    forall_append_of (sub_79) (
    forall_append_of (sub_80) (
    forall_append_of (sub_81) (
    forall_append_of (sub_82) (
    forall_append_of (sub_83) (
    forall_append_of (sub_84) (
    forall_append_of (sub_85) (
    forall_append_of (sub_86) (
    forall_append_of (sub_87) (
    forall_append_of (sub_88) (
    forall_append_of (sub_89) (
    forall_append_of (sub_90) (
    forall_append_of (sub_91) (
    forall_append_of (sub_92) (
    forall_append_of (sub_93) (
    forall_append_of (sub_94) (
    forall_append_of (sub_95) (
    forall_append_of (sub_96) (
    forall_append_of (sub_97) (
    forall_append_of (sub_98) (
    forall_append_of (sub_99) (
    forall_append_of (sub_100) (
    forall_append_of (sub_101) (
    forall_append_of (sub_102) (
    forall_append_of (sub_103) (
    forall_append_of (sub_104) (
    forall_append_of (sub_105) (
    forall_append_of (sub_106) (
    forall_append_of (sub_107) (
    forall_append_of (sub_108) (
    forall_append_of (sub_109) (
    forall_append_of (sub_110) (
    forall_append_of (sub_111) (
    forall_append_of (sub_112) (
    forall_append_of (sub_113) (
    forall_append_of (sub_114) (
    forall_append_of (sub_115) (
    forall_append_of (sub_116) (
    forall_append_of (sub_117) (
    forall_append_of (sub_118) (
    forall_append_of (sub_119) (
    forall_append_of (sub_120) (
    forall_append_of (sub_121) (
    forall_append_of (sub_122) (
    forall_append_of (sub_123) (
    forall_append_of (sub_124) (
    forall_append_of (sub_125) (
    forall_append_of (sub_126) (
    sub_127)))))))))))))))))))))))))))))))))))))))))))))))))))))))))))))))))))))))))))))))))))))))))))))))))))))))))))))))))))))))))))))))

set_option maxRecDepth 8192 in
/-- Every operation of @main determines all it writes. -/
theorem ops_fresh : (ops : List (HloOp τ sig (Elt F))).Forall fun op => op.fresh = ∅ :=
    forall_append_of (fresh_0) (
    forall_append_of (fresh_1) (
    forall_append_of (fresh_2) (
    forall_append_of (fresh_3) (
    forall_append_of (fresh_4) (
    forall_append_of (fresh_5) (
    forall_append_of (fresh_6) (
    forall_append_of (fresh_7) (
    forall_append_of (fresh_8) (
    forall_append_of (fresh_9) (
    forall_append_of (fresh_10) (
    forall_append_of (fresh_11) (
    forall_append_of (fresh_12) (
    forall_append_of (fresh_13) (
    forall_append_of (fresh_14) (
    forall_append_of (fresh_15) (
    forall_append_of (fresh_16) (
    forall_append_of (fresh_17) (
    forall_append_of (fresh_18) (
    forall_append_of (fresh_19) (
    forall_append_of (fresh_20) (
    forall_append_of (fresh_21) (
    forall_append_of (fresh_22) (
    forall_append_of (fresh_23) (
    forall_append_of (fresh_24) (
    forall_append_of (fresh_25) (
    forall_append_of (fresh_26) (
    forall_append_of (fresh_27) (
    forall_append_of (fresh_28) (
    forall_append_of (fresh_29) (
    forall_append_of (fresh_30) (
    forall_append_of (fresh_31) (
    forall_append_of (fresh_32) (
    forall_append_of (fresh_33) (
    forall_append_of (fresh_34) (
    forall_append_of (fresh_35) (
    forall_append_of (fresh_36) (
    forall_append_of (fresh_37) (
    forall_append_of (fresh_38) (
    forall_append_of (fresh_39) (
    forall_append_of (fresh_40) (
    forall_append_of (fresh_41) (
    forall_append_of (fresh_42) (
    forall_append_of (fresh_43) (
    forall_append_of (fresh_44) (
    forall_append_of (fresh_45) (
    forall_append_of (fresh_46) (
    forall_append_of (fresh_47) (
    forall_append_of (fresh_48) (
    forall_append_of (fresh_49) (
    forall_append_of (fresh_50) (
    forall_append_of (fresh_51) (
    forall_append_of (fresh_52) (
    forall_append_of (fresh_53) (
    forall_append_of (fresh_54) (
    forall_append_of (fresh_55) (
    forall_append_of (fresh_56) (
    forall_append_of (fresh_57) (
    forall_append_of (fresh_58) (
    forall_append_of (fresh_59) (
    forall_append_of (fresh_60) (
    forall_append_of (fresh_61) (
    forall_append_of (fresh_62) (
    forall_append_of (fresh_63) (
    forall_append_of (fresh_64) (
    forall_append_of (fresh_65) (
    forall_append_of (fresh_66) (
    forall_append_of (fresh_67) (
    forall_append_of (fresh_68) (
    forall_append_of (fresh_69) (
    forall_append_of (fresh_70) (
    forall_append_of (fresh_71) (
    forall_append_of (fresh_72) (
    forall_append_of (fresh_73) (
    forall_append_of (fresh_74) (
    forall_append_of (fresh_75) (
    forall_append_of (fresh_76) (
    forall_append_of (fresh_77) (
    forall_append_of (fresh_78) (
    forall_append_of (fresh_79) (
    forall_append_of (fresh_80) (
    forall_append_of (fresh_81) (
    forall_append_of (fresh_82) (
    forall_append_of (fresh_83) (
    forall_append_of (fresh_84) (
    forall_append_of (fresh_85) (
    forall_append_of (fresh_86) (
    forall_append_of (fresh_87) (
    forall_append_of (fresh_88) (
    forall_append_of (fresh_89) (
    forall_append_of (fresh_90) (
    forall_append_of (fresh_91) (
    forall_append_of (fresh_92) (
    forall_append_of (fresh_93) (
    forall_append_of (fresh_94) (
    forall_append_of (fresh_95) (
    forall_append_of (fresh_96) (
    forall_append_of (fresh_97) (
    forall_append_of (fresh_98) (
    forall_append_of (fresh_99) (
    forall_append_of (fresh_100) (
    forall_append_of (fresh_101) (
    forall_append_of (fresh_102) (
    forall_append_of (fresh_103) (
    forall_append_of (fresh_104) (
    forall_append_of (fresh_105) (
    forall_append_of (fresh_106) (
    forall_append_of (fresh_107) (
    forall_append_of (fresh_108) (
    forall_append_of (fresh_109) (
    forall_append_of (fresh_110) (
    forall_append_of (fresh_111) (
    forall_append_of (fresh_112) (
    forall_append_of (fresh_113) (
    forall_append_of (fresh_114) (
    forall_append_of (fresh_115) (
    forall_append_of (fresh_116) (
    forall_append_of (fresh_117) (
    forall_append_of (fresh_118) (
    forall_append_of (fresh_119) (
    forall_append_of (fresh_120) (
    forall_append_of (fresh_121) (
    forall_append_of (fresh_122) (
    forall_append_of (fresh_123) (
    forall_append_of (fresh_124) (
    forall_append_of (fresh_125) (
    forall_append_of (fresh_126) (
    fresh_127)))))))))))))))))))))))))))))))))))))))))))))))))))))))))))))))))))))))))))))))))))))))))))))))))))))))))))))))))))))))))))))))

set_option maxRecDepth 8192 in
/-- No operation of @main writes its argument: the argument's buffer holds after the line what it held before. -/
theorem arg0_eq (V : Valuation τ sig (Elt F)) : after ops V (main_arg0 : DevRef τ sig) = V (main_arg0 : DevRef τ sig) :=
    keeps_append (keep_0) (
    keeps_append (keep_1) (
    keeps_append (keep_2) (
    keeps_append (keep_3) (
    keeps_append (keep_4) (
    keeps_append (keep_5) (
    keeps_append (keep_6) (
    keeps_append (keep_7) (
    keeps_append (keep_8) (
    keeps_append (keep_9) (
    keeps_append (keep_10) (
    keeps_append (keep_11) (
    keeps_append (keep_12) (
    keeps_append (keep_13) (
    keeps_append (keep_14) (
    keeps_append (keep_15) (
    keeps_append (keep_16) (
    keeps_append (keep_17) (
    keeps_append (keep_18) (
    keeps_append (keep_19) (
    keeps_append (keep_20) (
    keeps_append (keep_21) (
    keeps_append (keep_22) (
    keeps_append (keep_23) (
    keeps_append (keep_24) (
    keeps_append (keep_25) (
    keeps_append (keep_26) (
    keeps_append (keep_27) (
    keeps_append (keep_28) (
    keeps_append (keep_29) (
    keeps_append (keep_30) (
    keeps_append (keep_31) (
    keeps_append (keep_32) (
    keeps_append (keep_33) (
    keeps_append (keep_34) (
    keeps_append (keep_35) (
    keeps_append (keep_36) (
    keeps_append (keep_37) (
    keeps_append (keep_38) (
    keeps_append (keep_39) (
    keeps_append (keep_40) (
    keeps_append (keep_41) (
    keeps_append (keep_42) (
    keeps_append (keep_43) (
    keeps_append (keep_44) (
    keeps_append (keep_45) (
    keeps_append (keep_46) (
    keeps_append (keep_47) (
    keeps_append (keep_48) (
    keeps_append (keep_49) (
    keeps_append (keep_50) (
    keeps_append (keep_51) (
    keeps_append (keep_52) (
    keeps_append (keep_53) (
    keeps_append (keep_54) (
    keeps_append (keep_55) (
    keeps_append (keep_56) (
    keeps_append (keep_57) (
    keeps_append (keep_58) (
    keeps_append (keep_59) (
    keeps_append (keep_60) (
    keeps_append (keep_61) (
    keeps_append (keep_62) (
    keeps_append (keep_63) (
    keeps_append (keep_64) (
    keeps_append (keep_65) (
    keeps_append (keep_66) (
    keeps_append (keep_67) (
    keeps_append (keep_68) (
    keeps_append (keep_69) (
    keeps_append (keep_70) (
    keeps_append (keep_71) (
    keeps_append (keep_72) (
    keeps_append (keep_73) (
    keeps_append (keep_74) (
    keeps_append (keep_75) (
    keeps_append (keep_76) (
    keeps_append (keep_77) (
    keeps_append (keep_78) (
    keeps_append (keep_79) (
    keeps_append (keep_80) (
    keeps_append (keep_81) (
    keeps_append (keep_82) (
    keeps_append (keep_83) (
    keeps_append (keep_84) (
    keeps_append (keep_85) (
    keeps_append (keep_86) (
    keeps_append (keep_87) (
    keeps_append (keep_88) (
    keeps_append (keep_89) (
    keeps_append (keep_90) (
    keeps_append (keep_91) (
    keeps_append (keep_92) (
    keeps_append (keep_93) (
    keeps_append (keep_94) (
    keeps_append (keep_95) (
    keeps_append (keep_96) (
    keeps_append (keep_97) (
    keeps_append (keep_98) (
    keeps_append (keep_99) (
    keeps_append (keep_100) (
    keeps_append (keep_101) (
    keeps_append (keep_102) (
    keeps_append (keep_103) (
    keeps_append (keep_104) (
    keeps_append (keep_105) (
    keeps_append (keep_106) (
    keeps_append (keep_107) (
    keeps_append (keep_108) (
    keeps_append (keep_109) (
    keeps_append (keep_110) (
    keeps_append (keep_111) (
    keeps_append (keep_112) (
    keeps_append (keep_113) (
    keeps_append (keep_114) (
    keeps_append (keep_115) (
    keeps_append (keep_116) (
    keeps_append (keep_117) (
    keeps_append (keep_118) (
    keeps_append (keep_119) (
    keeps_append (keep_120) (
    keeps_append (keep_121) (
    keeps_append (keep_122) (
    keeps_append (keep_123) (
    keeps_append (keep_124) (
    keeps_append (keep_125) (
    keeps_append (keep_126) (
    keep_127))))))))))))))))))))))))))))))))))))))))))))))))))))))))))))))))))))))))))))))))))))))))))))))))))))))))))))))))))))))))))))))) V

end Cert.ReferenceIdeal.RefRun

end
-- ==== Proof.RefRun.lean ====
import proofs.«134088_j24077586662034_2_alg».proof.Proof.RefRun.All
import proofs.«134088_j24077586662034_2_alg».proof.Proof.Gen.Pre_finite_inputs

/-!
The reference program's run. @main is a straight line of host operations (`main_eq`: the line of the list `ops`,
the clip functions' bodies inline at their calls), over a signature that scopes no buffer and no semaphore; so from
any memory with zero counters every weakly fair execution terminates with each TensorCore buffer at the fold of the
operations' results over its launch contents (`run_all`). No operation writes the argument's buffer (`arg0_eq`),
which therefore ends as it began (`frame_ri`).
-/

noncomputable section

namespace Cert.ReferenceIdeal.RefRun

open Cert.ReferenceIdeal Idealize.ShloMosaic Idealize.ShloMosaic.TcCoe Idealize.SL.Sem Idealize.ShloMosaic.StableHlo

variable {F : FTy → Type} [FloatOps F]

/-- No buffer a TensorCore names is scoped: a buffer in HBM or host memory never is, the signature marks no buffer of
    the core's own memories scoped, and a TensorCore names nothing in a SparseCore's shared memory. -/
theorem scopedRefs_eq : (Finset.univ.filter fun b : Ref sig .tc => b.isScoped) = ∅ :=
  Finset.filter_eq_empty_iff.mpr fun b _ => by
    obtain ⟨sp, i, h⟩ := b
    match sp, i, h with
    | .hbm, _, _ => exact Bool.false_ne_true
    | .host, _, _ => exact Bool.false_ne_true
    | .core _, _, _ => exact Bool.false_ne_true
    | .shared, _, h => exact absurd h Bool.false_ne_true

/-- The signature has no semaphore, so none is scoped. -/
theorem scopedSems_eq : (Finset.univ.filter fun sm : SemLoc sig => sm.isScoped .tc) = ∅ := by decide

/-- On every device, for any float values, from any memory with zero counters: every weakly fair execution of @main
    terminates, and every final state has each TensorCore buffer at the fold of the operations' results over its launch
    contents. -/
theorem run_all (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ
    (fun _ => List.forall_iff_forall_mem.mp ops_fresh)

/-- The reference runs and its argument ends unchanged: the fold at the argument's buffer is its launch contents. -/
theorem frame_ri : Cert.frame_ReferenceIdeal := fun m g _ =>
  (θ_run _ _ _).mono (fun _ h c => (h c main_arg0).trans (arg0_eq _)) (run_all m g)

end Cert.ReferenceIdeal.RefRun

end
-- ==== Proof.Gather.lean ====
/-
  The reference's last step. From the 256 decisions of each codeword it keeps those at positions
  128 … 255: it builds the column of start indices 128, 129, …, 255 from a constant table (the
  "add 256 where negative" wrap written around the table never fires, its condition being the
  constant false) and gathers along axis 1 with it. Result entry (r, j) is the operand's entry
  (r, 128 + j).
-/
import proofs.«134088_j24077586662034_2_alg».proof.Defs
import Idealize.ShloMosaic.Lib.ValueIdx
import Idealize.ShloMosaic.Lib.StableHlo.Predicate

noncomputable section

namespace Cert.Proof.Polar

open Idealize.ShloMosaic Idealize.ShloMosaic.ValueIdx
open Cert.ReferenceIdeal
open Cert.ReferenceIdeal.Facts₀

variable [Cert.ReferenceIdeal.Facts₀]

/-- The index array the reference gathers with (its operations' composed term). -/
def gatherIdx : IVec S128x1 32 :=
  broadcastInDim S128x1 ![0] bcast_S128_S128x1_0
    (select (constantI S128 1 0#1)
      (addi (fun i => lit0 (S128.rowMajor i)) (broadcastInDim S128 ![] bcast_S_S128 (constantI S_ 32 256#32)))
      (fun i => lit0 (S128.rowMajor i)))

/-- Entry k of the table, read as a signed integer, is 128 + k. -/
theorem lit0_toNat : ∀ k : Fin 128, (lit0 k).toInt.toNat = 128 + k.val := by decide

/-- Row j of the column of start indices is the table's entry j: the select's condition is the constant
    false, so it keeps the table, and the column's row j reads the vector's entry j. -/
theorem gatherIdx_apply (j : Fin 128) : gatherIdx (ix2 j (0 : Fin 1)) = lit0 j := by
  show lit0 (S128.rowMajor _) = lit0 j
  congr 1
  exact Fin.ext (Shape.rowMajor_val_one _)

/-- The gather's dimension numbers: axis 0 of the operand is kept whole (the one offset axis), axis 1 is
    collapsed and is the one the start index names. -/
private abbrev gd : GatherDims S32768x256 S128x1 S32768x128 := gather_S32768x256_S128x1_S32768x128_0_1_n_n_1_1_327681

/-- On the operand's axis 0 the gather reads the result's own coordinate: no start index, no batching,
    the offset coordinate r. -/
theorem gd_axis0 {w : Nat} (idx : IVec S128x1 w) (r : Fin 32768) (j : Fin 128) :
    gd.start (ix2 r j) idx 0 + gd.batchCoord (ix2 r j) 0 + gd.offCoord (ix2 r j) 0 = r.val := by
  have h0 : (0 : Fin 2) ∉ gd.startIndexMap := by
    show (0 : Fin 2) ∉ ([1] : List (Fin 2))
    decide
  have hb : (0 : Fin 2) ∉ gd.operandBatchingDims := List.not_mem_nil
  have hk : (0 : Fin 2) ∈ gd.sKept :=
    (gd.mem_sKept 0).2 ⟨by show (0 : Fin 2) ∉ ([1] : List (Fin 2)); decide, hb⟩
  rw [GatherDims.batchCoord_eq_zero _ _ _ hb]
  unfold GatherDims.start GatherDims.offCoord
  rw [dif_neg h0, dif_pos hk, Nat.add_zero, Nat.zero_add]
  rfl

/-- On the operand's axis 1 the gather reads the start index of the result's column j, which is 128 + j
    and needs no clamping; the axis is collapsed, so nothing is added. -/
theorem gd_axis1 (r : Fin 32768) (j : Fin 128) :
    gd.start (ix2 r j) gatherIdx 1 + gd.batchCoord (ix2 r j) 1 + gd.offCoord (ix2 r j) 1 = 128 + j.val := by
  have h1 : (1 : Fin 2) ∈ gd.startIndexMap := by
    show (1 : Fin 2) ∈ ([1] : List (Fin 2))
    exact List.mem_singleton.mpr rfl
  have hb : (1 : Fin 2) ∉ gd.operandBatchingDims := List.not_mem_nil
  have hk : (1 : Fin 2) ∉ gd.sKept := fun h => ((gd.mem_sKept 1).1 h).1 (List.mem_singleton.mpr rfl)
  rw [GatherDims.batchCoord_eq_zero _ _ _ hb, GatherDims.offCoord_eq_zero _ _ _ hk]
  simp only [Nat.add_zero]
  unfold GatherDims.start
  rw [dif_pos h1]
  have hsi : gd.siIdx (ix2 r j) ⟨List.idxOf (1 : Fin 2) gd.startIndexMap, List.idxOf_lt_length_iff.2 h1⟩
      = ix2 j (0 : Fin 1) := by
    funext b; refine Fin.ext ?_
    match b with
    | ⟨0, _⟩ => rfl
    | ⟨1, _⟩ => rfl
  rw [hsi, gatherIdx_apply, lit0_toNat]
  show min (128 + j.val) (256 - 1) = 128 + j.val
  exact Nat.min_eq_left (by omega)

/-- The gather takes along axis 1: result entry (r, j) is the operand's entry (r, 128 + j). -/
theorem gather_read (U : FVec Ideal S32768x256 .f32) (r : Fin 32768) (j : Fin 128) :
    Host.gather gather_S32768x256_S128x1_S32768x128_0_1_n_n_1_1_327681 U gatherIdx (ix2 r j)
      = U (ix2 r ⟨128 + j.val, by omega⟩) := by
  unfold Host.gather
  congr 1
  funext a
  refine Fin.ext ?_
  match a with
  | ⟨0, _⟩ => exact gd_axis0 gatherIdx r j
  | ⟨1, _⟩ => exact gd_axis1 r j

end Cert.Proof.Polar

end
-- ==== Proof.Spec.lean ====
/-
  The successive-cancellation decoder of a polar code of length 2^k, written once for each of the two
  layouts the two programs use. A node of width 2h takes a vector of 2h log-likelihood ratios per codeword,
  splits it into halves `ll`, `lr`; the left child decodes the check-node combination
  `f = sign(c ll) · sign(c lr) · min(|c ll|, |c lr|)` (`c` the clip to [-30, 30]); the right child decodes
  `g = (1 - 2 x_l) · ll + lr` where `x_l` is the left child's partial sum; the node's partial sum is
  `(x_l ≠ x_r, x_r)` laid end to end and its decisions are the children's laid end to end. A leaf decides
  `1` when its ratio is `≤ 0` (a frozen leaf decides `0`).

  Layout K: the code axis is axis 0 and a batch of 4096 codewords is axis 1; a leaf's decision is written
  as one row of a 128 × 4096 array (a list of row pieces, last written first).
  Layout R: the batch (32768 codewords) is axis 0 and the code axis is axis 1; the decisions are returned
  as an array.
-/
import Idealize.ShloMosaic.PureOps
import Idealize.ShloMosaic.Lib.Writes

noncomputable section

namespace Cert.Proof.Polar

open Idealize.ShloMosaic Idealize.SL.Sem

variable {F : FTy → Type} [FloatOps F]

/-- `m` code positions by 4096 codewords. -/
abbrev ShK (m : ℕ) : Shape := ⟨2, ![m, 4096]⟩
/-- 32768 codewords by `m` code positions. -/
abbrev ShR (m : ℕ) : Shape := ⟨2, ![32768, m]⟩
/-- The shape of a scalar. -/
abbrev Sh0 : Shape := ⟨0, ![]⟩
/-- One row of 4096 codewords, as a vector. -/
abbrev ShV : Shape := ⟨1, ![4096]⟩

/-! ## Layout K: the pointwise steps, with the sign spelt through comparisons -/

section KForm
variable (S : Shape)

/-- The clip to [-30, 30]. -/
def clipK (x : FVec F S .f32) : FVec F S .f32 :=
  minimumf (broadcast S (Scalar.ofBits .f32 0x41F00000#32)) (maximumf (broadcast S (Scalar.ofBits .f32 0xC1F00000#32)) x)

/-- The sign: `x` itself where `|x|` is not positive, else `-1` below zero and `1` otherwise. -/
def signK (x : FVec F S .f32) : FVec F S .f32 :=
  select (cmpf .ogt (absf x) (broadcast S (Scalar.ofBits .f32 0x00000000#32)))
    (select (cmpf .olt x (constant S .f32 0x00000000#32)) (constant S .f32 0xBF800000#32) (constant S .f32 0x3F800000#32)) x

/-- The check-node combination of two ratios. -/
def cnopK (x y : FVec F S .f32) : FVec F S .f32 :=
  mulf (mulf (signK S (clipK S x)) (signK S (clipK S y))) (minimumf (absf (clipK S x)) (absf (clipK S y)))

/-- The variable-node update `(1 - 2 x_l) · ll + lr`. -/
def gK (xl ll lr : FVec F S .f32) : FVec F S .f32 :=
  addf (mulf (subf (broadcast S (Scalar.ofBits .f32 0x3F800000#32)) (mulf (broadcast S (Scalar.ofBits .f32 0x40000000#32)) xl)) ll) lr

/-- A truth value as the float 0 or 1. -/
def bitK (c : IVec S 1) : FVec F S .f32 := sitofp .f32 (extui 32 c (by decide))

/-- A leaf's decision. -/
def decideK (llr : FVec F S .f32) : FVec F S .f32 :=
  bitK S (cmpf .ole llr (broadcast S (Scalar.ofBits .f32 0x00000000#32)))

/-- The partial sum of two halves: where they differ (the ordered comparison). -/
def xorK (xl xr : FVec F S .f32) : FVec F S .f32 := bitK S (cmpf .one xl xr)

end KForm

/-- What a subtree of layout K yields: the row pieces it wrote (last first) and its partial sum. -/
abbrev OutK (F : FTy → Type) (m : ℕ) : Type := List (View.Piece (Elt F) (ShK 128) .f32) × FVec F (ShK m) .f32

/-- A leaf at row `off`. -/
def leafK (off : ℕ) (inb : ∀ a, (![off, 0] : Fin 2 → ℕ) a + (ShK 1).size a ≤ (ShK 128).size a)
    (hc1 : (ShK 1).ShapeCasts ShV) (hc2 : ShV.ShapeCasts (ShK 1)) (llr : FVec F (ShK 1) .f32) : OutK F 1 :=
  ([(⟨Rect.unit (s := ShK 128) ![off, 0] (ShK 1).size inb,
      shapeCast (ShK 1) (shapeCast ShV (decideK (ShK 1) llr) hc1) hc2⟩ : View.Piece (Elt F) (ShK 128) .f32)],
   decideK (ShK 1) llr)

/-- A node of width `m2` over children of width `m1`, the second half starting at `h`. -/
def nodeK (m2 m1 h : ℕ)
    (hs0 : (ShK m2).Slices ![0, 0] (ShK m1)) (hs1 : (ShK m2).Slices ![h, 0] (ShK m1))
    (hc : Shape.Concatenates [ShK m1, ShK m1] (ShK m2) 0)
    (recL recR : FVec F (ShK m1) .f32 → OutK F m1) (llr : FVec F (ShK m2) .f32) : OutK F m2 :=
  let ll := extractStridedSlice (ShK m1) ![0, 0] llr hs0
  let lr := extractStridedSlice (ShK m1) ![h, 0] llr hs1
  let L := recL (cnopK (ShK m1) ll lr)
  let R := recR (gK (ShK m1) L.2 ll lr)
  (R.1 ++ L.1, concatenate (ShK m2) 0 [⟨ShK m1, xorK (ShK m1) L.2 R.2⟩, ⟨ShK m1, R.2⟩] hc)

/-! ## Layout R: the same steps with the host's sign and constants broadcast from scalars -/

section RForm
variable (S : Shape) (hb : Sh0.BroadcastsInDim S ![])

/-- A scalar constant broadcast to the shape. -/
def bcR (b : BitVec 32) : FVec F S .f32 := broadcastInDim S ![] hb (constant Sh0 .f32 b)

def clipR (x : FVec F S .f32) : FVec F S .f32 :=
  minimumf (bcR S hb 0x41F00000#32) (maximumf (bcR S hb 0xC1F00000#32) x)

def cnopR (x y : FVec F S .f32) : FVec F S .f32 :=
  mulf (mulf (Host.sign (clipR S hb x)) (Host.sign (clipR S hb y))) (minimumf (Host.absf (clipR S hb x)) (Host.absf (clipR S hb y)))

def gR (xl ll lr : FVec F S .f32) : FVec F S .f32 :=
  addf (mulf (subf (bcR S hb 0x3F800000#32) (mulf (bcR S hb 0x40000000#32) xl)) ll) lr

def decideR (llr : FVec F S .f32) : FVec F S .f32 := uitofp .f32 (cmpf .ole llr (bcR S hb 0x00000000#32))

def xorR (xl xr : FVec F S .f32) : FVec F S .f32 := uitofp .f32 (cmpf .une xl xr)

end RForm

/-- What a subtree of layout R yields: its decisions and its partial sum. -/
abbrev OutR (F : FTy → Type) (m : ℕ) : Type := FVec F (ShR m) .f32 × FVec F (ShR m) .f32

/-- A leaf that decides. -/
def leafR (hb : Sh0.BroadcastsInDim (ShR 1) ![]) (llr : FVec F (ShR 1) .f32) : OutR F 1 :=
  (decideR (ShR 1) hb llr, decideR (ShR 1) hb llr)

/-- A frozen leaf: zero, whatever the ratio. -/
def frozenR (hb : Sh0.BroadcastsInDim (ShR 1) ![]) (_llr : FVec F (ShR 1) .f32) : OutR F 1 :=
  (bcR (ShR 1) hb 0x00000000#32, bcR (ShR 1) hb 0x00000000#32)

/-- A node of width `m2` over children of width `m1`, the second half starting at `h`. -/
def nodeR (m2 m1 h : ℕ) (hb : Sh0.BroadcastsInDim (ShR m1) ![])
    (hs0 : (ShR m2).Slices ![0, 0] (ShR m1)) (hs1 : (ShR m2).Slices ![0, h] (ShR m1))
    (hc : Shape.Concatenates [ShR m1, ShR m1] (ShR m2) 1)
    (recL recR : FVec F (ShR m1) .f32 → OutR F m1) (llr : FVec F (ShR m2) .f32) : OutR F m2 :=
  let ll := extractStridedSlice (ShR m1) ![0, 0] llr hs0
  let lr := extractStridedSlice (ShR m1) ![0, h] llr hs1
  let L := recL (cnopR (ShR m1) hb ll lr)
  let R := recR (gR (ShR m1) hb L.2 ll lr)
  (concatenate (ShR m2) 1 [⟨ShR m1, L.1⟩, ⟨ShR m1, R.1⟩] hc,
   concatenate (ShR m2) 1 [⟨ShR m1, xorR (ShR m1) L.2 R.2⟩, ⟨ShR m1, R.2⟩] hc)

end Cert.Proof.Polar

end
-- ==== Proof.Levels.lean ====
/-
  The decoder of Spec.lean at the sizes of this code: the subtree of 128 unfrozen positions in layout K
  (widths 1, 2, …, 128; a subtree of width w whose first leaf writes row `off` writes rows off … off + w - 1),
  and in layout R the unfrozen and the frozen subtree of each width and the root of width 256 whose left
  half is frozen and whose right half is not. Around them, what each program does before and after: the
  channel ratios are the negated inputs; layout K adds the two halves of a codeword's ratios (the root's
  variable-node update when the left half decodes to zero) and turns the block so that codewords run along
  axis 1.
-/
import proofs.«134088_j24077586662034_2_alg».proof.Proof.Spec

noncomputable section

namespace Cert.Proof.Polar

open Idealize.ShloMosaic Idealize.SL.Sem

variable {F : FTy → Type} [FloatOps F]

/-- Row `off` of the 128 × 4096 array is inside it. -/
theorem inbK (off : ℕ) (h : off + 1 ≤ 128) :
    ∀ a : Fin 2, (![off, 0] : Fin 2 → ℕ) a + (ShK 1).size a ≤ (ShK 128).size a := by
  intro a
  match a with
  | ⟨0, _⟩ => exact h
  | ⟨1, _⟩ => exact Nat.le_refl _

/-! ## Layout K -/

def dK0 (off : ℕ) (h : off + 1 ≤ 128) : FVec F (ShK 1) .f32 → OutK F 1 :=
  leafK off (inbK off h) (by decide) (by decide)
def dK1 (off : ℕ) (h : off + 2 ≤ 128) : FVec F (ShK 2) .f32 → OutK F 2 :=
  nodeK 2 1 1 (by decide) (by decide) (by decide) (dK0 off (by omega)) (dK0 (off + 1) (by omega))
def dK2 (off : ℕ) (h : off + 4 ≤ 128) : FVec F (ShK 4) .f32 → OutK F 4 :=
  nodeK 4 2 2 (by decide) (by decide) (by decide) (dK1 off (by omega)) (dK1 (off + 2) (by omega))
def dK3 (off : ℕ) (h : off + 8 ≤ 128) : FVec F (ShK 8) .f32 → OutK F 8 :=
  nodeK 8 4 4 (by decide) (by decide) (by decide) (dK2 off (by omega)) (dK2 (off + 4) (by omega))
def dK4 (off : ℕ) (h : off + 16 ≤ 128) : FVec F (ShK 16) .f32 → OutK F 16 :=
  nodeK 16 8 8 (by decide) (by decide) (by decide) (dK3 off (by omega)) (dK3 (off + 8) (by omega))
def dK5 (off : ℕ) (h : off + 32 ≤ 128) : FVec F (ShK 32) .f32 → OutK F 32 :=
  nodeK 32 16 16 (by decide) (by decide) (by decide) (dK4 off (by omega)) (dK4 (off + 16) (by omega))
def dK6 (off : ℕ) (h : off + 64 ≤ 128) : FVec F (ShK 64) .f32 → OutK F 64 :=
  nodeK 64 32 32 (by decide) (by decide) (by decide) (dK5 off (by omega)) (dK5 (off + 32) (by omega))
def dK7 : FVec F (ShK 128) .f32 → OutK F 128 :=
  nodeK 128 64 64 (by decide) (by decide) (by decide) (dK6 0 (by omega)) (dK6 64 (by omega))

/-- A block of 4096 codewords by 256 inputs. -/
abbrev ShKin : Shape := ⟨2, ![4096, 256]⟩
/-- A block of 4096 codewords by 128 positions. -/
abbrev ShKout : Shape := ⟨2, ![4096, 128]⟩

/-- The ratios the unfrozen subtree of layout K starts from: the two halves of the negated inputs added,
    codewords along axis 1. -/
def topK (x0 : FVec F ShKin .f32) : FVec F (ShK 128) .f32 :=
  transpose (ShK 128) [1, 0]
    (addf (extractStridedSlice ShKout ![0, 0] (mulf (broadcast ShKin (Scalar.ofBits .f32 0xBF800000#32)) x0) (by decide))
          (extractStridedSlice ShKout ![0, 128] (mulf (broadcast ShKin (Scalar.ofBits .f32 0xBF800000#32)) x0) (by decide)))
    (by decide)

/-! ## Layout R -/

def dRu0 : FVec F (ShR 1) .f32 → OutR F 1 := leafR (by decide)
def dRu1 : FVec F (ShR 2) .f32 → OutR F 2 :=
  nodeR 2 1 1 (by decide) (by decide) (by decide) (by decide) dRu0 dRu0
def dRu2 : FVec F (ShR 4) .f32 → OutR F 4 :=
  nodeR 4 2 2 (by decide) (by decide) (by decide) (by decide) dRu1 dRu1
def dRu3 : FVec F (ShR 8) .f32 → OutR F 8 :=
  nodeR 8 4 4 (by decide) (by decide) (by decide) (by decide) dRu2 dRu2
def dRu4 : FVec F (ShR 16) .f32 → OutR F 16 :=
  nodeR 16 8 8 (by decide) (by decide) (by decide) (by decide) dRu3 dRu3
def dRu5 : FVec F (ShR 32) .f32 → OutR F 32 :=
  nodeR 32 16 16 (by decide) (by decide) (by decide) (by decide) dRu4 dRu4
def dRu6 : FVec F (ShR 64) .f32 → OutR F 64 :=
  nodeR 64 32 32 (by decide) (by decide) (by decide) (by decide) dRu5 dRu5
def dRu7 : FVec F (ShR 128) .f32 → OutR F 128 :=
  nodeR 128 64 64 (by decide) (by decide) (by decide) (by decide) dRu6 dRu6

def dRf0 : FVec F (ShR 1) .f32 → OutR F 1 := frozenR (by decide)
def dRf1 : FVec F (ShR 2) .f32 → OutR F 2 :=
  nodeR 2 1 1 (by decide) (by decide) (by decide) (by decide) dRf0 dRf0
def dRf2 : FVec F (ShR 4) .f32 → OutR F 4 :=
  nodeR 4 2 2 (by decide) (by decide) (by decide) (by decide) dRf1 dRf1
def dRf3 : FVec F (ShR 8) .f32 → OutR F 8 :=
  nodeR 8 4 4 (by decide) (by decide) (by decide) (by decide) dRf2 dRf2
def dRf4 : FVec F (ShR 16) .f32 → OutR F 16 :=
  nodeR 16 8 8 (by decide) (by decide) (by decide) (by decide) dRf3 dRf3
def dRf5 : FVec F (ShR 32) .f32 → OutR F 32 :=
  nodeR 32 16 16 (by decide) (by decide) (by decide) (by decide) dRf4 dRf4
def dRf6 : FVec F (ShR 64) .f32 → OutR F 64 :=
  nodeR 64 32 32 (by decide) (by decide) (by decide) (by decide) dRf5 dRf5
def dRf7 : FVec F (ShR 128) .f32 → OutR F 128 :=
  nodeR 128 64 64 (by decide) (by decide) (by decide) (by decide) dRf6 dRf6

/-- The root: the left half frozen, the right half not. -/
def dR8 : FVec F (ShR 256) .f32 → OutR F 256 :=
  nodeR 256 128 128 (by decide) (by decide) (by decide) (by decide) dRf7 dRu7

/-- The channel ratios of layout R: the negated inputs. -/
def topR (x : FVec F (ShR 256) .f32) : FVec F (ShR 256) .f32 :=
  mulf (bcR (ShR 256) (by decide) 0xBF800000#32) x

end Cert.Proof.Polar

end
-- ==== Proof.RSeg.lean ====
/-
  The reference's host operations, cut into five stretches at the points where few values are live: the
  channel ratios and their two halves; the frozen left half of the code (whose decisions and partial sum do
  not depend on the ratios); the root's update of the right half; the unfrozen right half; the root's
  combination and the final gather. Each stretch, run from ANY contents of the buffers, leaves in the buffers
  that are read later the decoder's functions (Levels.lean) of the contents it found — the operations are the
  decoder's, node by node (a definitional unfolding) — and leaves alone the earlier values that are read after it.
-/
import proofs.«134088_j24077586662034_2_alg».proof.Proof.RefRun
import proofs.«134088_j24077586662034_2_alg».proof.Proof.Gather
import proofs.«134088_j24077586662034_2_alg».proof.Proof.Levels
import Idealize.ShloMosaic.Lib.Tactic

noncomputable section

namespace Cert.ReferenceIdeal.RSeg

open Cert.ReferenceIdeal Cert.ReferenceIdeal.Gen Cert.ReferenceIdeal.RefRun Cert.Proof.Polar
open Idealize.ShloMosaic Idealize.ShloMosaic.TcCoe Idealize.SL.Sem Idealize.ShloMosaic.StableHlo
open Idealize.ShloMosaic.Tactic

variable {F : FTy → Type} [FloatOps F]

/-- The negated inputs and their two halves. -/
def segA : List (HloOp τ sig (Elt F)) := ops0.take 7
/-- The frozen left half. -/
def segB : List (HloOp τ sig (Elt F)) := ops0.drop 7 ++ (ops1 ++ (ops2 ++ (ops3 ++ (ops4 ++ (ops5 ++ (ops6 ++ (ops7 ++ (ops8 ++ (ops9 ++ (ops10 ++ (ops11 ++ (ops12 ++ (ops13 ++ (ops14 ++ (ops15 ++ (ops16 ++ (ops17 ++ (ops18 ++ (ops19 ++ (ops20 ++ (ops21 ++ (ops22 ++ (ops23 ++ (ops24 ++ (ops25 ++ (ops26 ++ (ops27 ++ (ops28 ++ (ops29 ++ (ops30 ++ (ops31 ++ (ops32 ++ (ops33 ++ (ops34 ++ (ops35 ++ (ops36 ++ (ops37 ++ (ops38 ++ (ops39 ++ (ops40 ++ (ops41 ++ (ops42 ++ (ops43 ++ (ops44 ++ (ops45 ++ (ops46 ++ (ops47 ++ (ops48 ++ (ops49 ++ (ops50 ++ (ops51 ++ (ops52 ++ (ops53 ++ (ops54 ++ (ops55 ++ (ops56 ++ (ops57 ++ (ops58 ++ (ops59 ++ (ops60 ++ (ops61.take 45)))))))))))))))))))))))))))))))))))))))))))))))))))))))))))))
/-- The root's update of the right half. -/
def segC : List (HloOp τ sig (Elt F)) := (ops61.drop 45).take 8
/-- The unfrozen right half. -/
def segD : List (HloOp τ sig (Elt F)) := (ops61.drop 45).drop 8 ++ (ops62 ++ (ops63 ++ (ops64 ++ (ops65 ++ (ops66 ++ (ops67 ++ (ops68 ++ (ops69 ++ (ops70 ++ (ops71 ++ (ops72 ++ (ops73 ++ (ops74 ++ (ops75 ++ (ops76 ++ (ops77 ++ (ops78 ++ (ops79 ++ (ops80 ++ (ops81 ++ (ops82 ++ (ops83 ++ (ops84 ++ (ops85 ++ (ops86 ++ (ops87 ++ (ops88 ++ (ops89 ++ (ops90 ++ (ops91 ++ (ops92 ++ (ops93 ++ (ops94 ++ (ops95 ++ (ops96 ++ (ops97 ++ (ops98 ++ (ops99 ++ (ops100 ++ (ops101 ++ (ops102 ++ (ops103 ++ (ops104 ++ (ops105 ++ (ops106 ++ (ops107 ++ (ops108 ++ (ops109 ++ (ops110 ++ (ops111 ++ (ops112 ++ (ops113 ++ (ops114 ++ (ops115 ++ (ops116 ++ (ops117 ++ (ops118 ++ (ops119 ++ (ops120 ++ (ops121 ++ (ops122 ++ (ops123 ++ (ops124 ++ (ops125 ++ (ops126 ++ (ops127.take 34))))))))))))))))))))))))))))))))))))))))))))))))))))))))))))))))))
/-- The root's combination and the gather. -/
def segE : List (HloOp τ sig (Elt F)) := ops127.drop 34

set_option maxRecDepth 1000000 in
set_option maxHeartbeats 10000000 in
/-- The five stretches, in order, are the whole line. -/
theorem ops_eq : (ops : List (HloOp τ sig (Elt F))) = segA ++ (segB ++ (segC ++ (segD ++ segE))) := by
  sl_kernel_rfl

section
variable (W : Valuation τ sig (Elt F))

set_option maxRecDepth 1000000 in
theorem A_ll : after segA W (main_v2 : DevRef τ sig)
    = extractStridedSlice (ShR 128) ![0, 0] (topR (W (main_arg0 : DevRef τ sig))) (by decide) := by sl_kernel_rfl
set_option maxRecDepth 1000000 in
theorem A_lr : after segA W (main_v3 : DevRef τ sig)
    = extractStridedSlice (ShR 128) ![0, 128] (topR (W (main_arg0 : DevRef τ sig))) (by decide) := by sl_kernel_rfl

set_option maxRecDepth 1000000 in
theorem A_c : after segA W (main_c : DevRef τ sig) = fun i => lit0 (S128.rowMajor i) := by sl_kernel_rfl
set_option maxRecDepth 1000000 in
theorem A_c0 : after segA W (main_c_0 : DevRef τ sig) = constantI S128 1 0#1 := by sl_kernel_rfl

set_option maxRecDepth 1000000 in
theorem C_g : after segC W (main_v2813 : DevRef τ sig)
    = gR (ShR 128) (by decide) (W (main_v2806 : DevRef τ sig)) (W (main_v2 : DevRef τ sig)) (W (main_v3 : DevRef τ sig)) := by
  sl_kernel_rfl
set_option maxRecDepth 1000000 in
theorem C_c : after segC W (main_c : DevRef τ sig) = W (main_c : DevRef τ sig) := by sl_kernel_rfl
set_option maxRecDepth 1000000 in
theorem C_c0 : after segC W (main_c_0 : DevRef τ sig) = W (main_c_0 : DevRef τ sig) := by sl_kernel_rfl
set_option maxRecDepth 1000000 in
theorem C_u : after segC W (main_v2807 : DevRef τ sig) = W (main_v2807 : DevRef τ sig) := by sl_kernel_rfl

set_option maxRecDepth 1000000 in
theorem E_out : after segE W (main_v5873 : DevRef τ sig)
    = Host.gather gather_S32768x256_S128x1_S32768x128_0_1_n_n_1_1_327681
        (concatenate (ShR 256) 1 [⟨ShR 128, W (main_v2807 : DevRef τ sig)⟩, ⟨ShR 128, W (main_v5864 : DevRef τ sig)⟩]
          (by decide : Shape.Concatenates [ShR 128, ShR 128] (ShR 256) 1))
        (broadcastInDim S128x1 ![0] bcast_S128_S128x1_0
          (select (W (main_c_0 : DevRef τ sig))
            (addi (W (main_c : DevRef τ sig)) (broadcastInDim S128 ![] bcast_S_S128 (constantI S_ 32 256#32)))
            (W (main_c : DevRef τ sig)))) := by sl_kernel_rfl
end

end Cert.ReferenceIdeal.RSeg

end
-- ==== Proof.RSegB.lean ====
/-
  The frozen left half, run from any contents: its decisions and its partial sum are the frozen subtree's of Levels.lean on the two halves' check-node combination (they do not depend on it).
-/
import proofs.«134088_j24077586662034_2_alg».proof.Proof.RSeg

noncomputable section

namespace Cert.ReferenceIdeal.RSeg

open Cert.ReferenceIdeal Cert.ReferenceIdeal.Gen Cert.ReferenceIdeal.RefRun Cert.Proof.Polar
open Idealize.ShloMosaic Idealize.ShloMosaic.TcCoe Idealize.SL.Sem Idealize.ShloMosaic.StableHlo
open Idealize.ShloMosaic.Tactic

variable {F : FTy → Type} [FloatOps F]

section
variable (W : Valuation τ sig (Elt F))

set_option maxRecDepth 1000000 in
set_option maxHeartbeats 20000000 in
theorem B_x : after segB W (main_v2806 : DevRef τ sig)
    = (dRf7 (cnopR (ShR 128) (by decide) (W (main_v2 : DevRef τ sig)) (W (main_v3 : DevRef τ sig)))).2 := by sl_kernel_rfl
set_option maxRecDepth 1000000 in
set_option maxHeartbeats 20000000 in
theorem B_u : after segB W (main_v2807 : DevRef τ sig)
    = (dRf7 (cnopR (ShR 128) (by decide) (W (main_v2 : DevRef τ sig)) (W (main_v3 : DevRef τ sig)))).1 := by sl_kernel_rfl
end

end Cert.ReferenceIdeal.RSeg

end
-- ==== Proof.RSegBk.lean ====
/-
  The frozen left half leaves alone the two halves of the ratios and the index table and mask of the final gather.
-/
import proofs.«134088_j24077586662034_2_alg».proof.Proof.RSeg

noncomputable section

namespace Cert.ReferenceIdeal.RSeg

open Cert.ReferenceIdeal Cert.ReferenceIdeal.Gen Cert.ReferenceIdeal.RefRun Cert.Proof.Polar
open Idealize.ShloMosaic Idealize.ShloMosaic.TcCoe Idealize.SL.Sem Idealize.ShloMosaic.StableHlo
open Idealize.ShloMosaic.Tactic

variable {F : FTy → Type} [FloatOps F]

section
variable (W : Valuation τ sig (Elt F))

set_option maxRecDepth 1000000 in
set_option maxHeartbeats 20000000 in
theorem B_ll : after segB W (main_v2 : DevRef τ sig) = W (main_v2 : DevRef τ sig) := by sl_kernel_rfl
set_option maxRecDepth 1000000 in
set_option maxHeartbeats 20000000 in
theorem B_lr : after segB W (main_v3 : DevRef τ sig) = W (main_v3 : DevRef τ sig) := by sl_kernel_rfl

set_option maxRecDepth 1000000 in
set_option maxHeartbeats 20000000 in
theorem B_c : after segB W (main_c : DevRef τ sig) = W (main_c : DevRef τ sig) := by sl_kernel_rfl
set_option maxRecDepth 1000000 in
set_option maxHeartbeats 20000000 in
theorem B_c0 : after segB W (main_c_0 : DevRef τ sig) = W (main_c_0 : DevRef τ sig) := by sl_kernel_rfl
end

end Cert.ReferenceIdeal.RSeg

end
-- ==== Proof.RSegDdefs.lean ====
/-
  The unfrozen right half in five stretches: the root's check-node combination and its two halves; the left subtree of width 64; the root's update; the right subtree of width 64; the root's decisions laid end to end.
-/
import proofs.«134088_j24077586662034_2_alg».proof.Proof.RSeg

noncomputable section

namespace Cert.ReferenceIdeal.RSeg

open Cert.ReferenceIdeal Cert.ReferenceIdeal.Gen Cert.ReferenceIdeal.RefRun Cert.Proof.Polar
open Idealize.ShloMosaic Idealize.ShloMosaic.TcCoe Idealize.SL.Sem Idealize.ShloMosaic.StableHlo
open Idealize.ShloMosaic.Tactic

variable {F : FTy → Type} [FloatOps F]

def sD1 : List (HloOp τ sig (Elt F)) := ops61.drop 53 ++ (ops62.take 13)
def sD2 : List (HloOp τ sig (Elt F)) := ops62.drop 13 ++ (ops63 ++ (ops64 ++ (ops65 ++ (ops66 ++ (ops67 ++ (ops68 ++ (ops69 ++ (ops70 ++ (ops71 ++ (ops72 ++ (ops73 ++ (ops74 ++ (ops75 ++ (ops76 ++ (ops77 ++ (ops78 ++ (ops79 ++ (ops80 ++ (ops81 ++ (ops82 ++ (ops83 ++ (ops84 ++ (ops85 ++ (ops86 ++ (ops87 ++ (ops88 ++ (ops89 ++ (ops90 ++ (ops91 ++ (ops92 ++ (ops93 ++ (ops94.take 45))))))))))))))))))))))))))))))))
def sD3 : List (HloOp τ sig (Elt F)) := (ops94.drop 45).take 8
def sD4 : List (HloOp τ sig (Elt F)) := ops94.drop 53 ++ (ops95 ++ (ops96 ++ (ops97 ++ (ops98 ++ (ops99 ++ (ops100 ++ (ops101 ++ (ops102 ++ (ops103 ++ (ops104 ++ (ops105 ++ (ops106 ++ (ops107 ++ (ops108 ++ (ops109 ++ (ops110 ++ (ops111 ++ (ops112 ++ (ops113 ++ (ops114 ++ (ops115 ++ (ops116 ++ (ops117 ++ (ops118 ++ (ops119 ++ (ops120 ++ (ops121 ++ (ops122 ++ (ops123 ++ (ops124 ++ (ops125 ++ (ops126 ++ (ops127.take 30)))))))))))))))))))))))))))))))))
def sD5 : List (HloOp τ sig (Elt F)) := (ops127.drop 30).take 4

set_option maxRecDepth 1000000 in
set_option maxHeartbeats 40000000 in
theorem segD_eq : (segD : List (HloOp τ sig (Elt F))) = sD1 ++ (sD2 ++ (sD3 ++ (sD4 ++ sD5))) := by
  sl_kernel_rfl

end Cert.ReferenceIdeal.RSeg

end
-- ==== Proof.RSegD2x.lean ====
/-
  The left subtree of width 64 of the unfrozen half, run from any contents: its partial sum.
-/
import proofs.«134088_j24077586662034_2_alg».proof.Proof.RSegDdefs

noncomputable section

namespace Cert.ReferenceIdeal.RSeg

open Cert.ReferenceIdeal Cert.ReferenceIdeal.Gen Cert.ReferenceIdeal.RefRun Cert.Proof.Polar
open Idealize.ShloMosaic Idealize.ShloMosaic.TcCoe Idealize.SL.Sem Idealize.ShloMosaic.StableHlo
open Idealize.ShloMosaic.Tactic

variable {F : FTy → Type} [FloatOps F]

section
variable (W : Valuation τ sig (Elt F))

set_option maxRecDepth 1000000 in
set_option maxHeartbeats 40000000 in
theorem D2_x : after sD2 W (main_v4338 : DevRef τ sig) = (dRu6 (W (main_v2824 : DevRef τ sig))).2 := by sl_kernel_rfl

end

end Cert.ReferenceIdeal.RSeg

end
-- ==== Proof.RSegD2u.lean ====
/-
  The left subtree of width 64 of the unfrozen half, run from any contents: its decisions.
-/
import proofs.«134088_j24077586662034_2_alg».proof.Proof.RSegDdefs

noncomputable section

namespace Cert.ReferenceIdeal.RSeg

open Cert.ReferenceIdeal Cert.ReferenceIdeal.Gen Cert.ReferenceIdeal.RefRun Cert.Proof.Polar
open Idealize.ShloMosaic Idealize.ShloMosaic.TcCoe Idealize.SL.Sem Idealize.ShloMosaic.StableHlo
open Idealize.ShloMosaic.Tactic

variable {F : FTy → Type} [FloatOps F]

section
variable (W : Valuation τ sig (Elt F))

set_option maxRecDepth 1000000 in
set_option maxHeartbeats 40000000 in
theorem D2_u : after sD2 W (main_v4339 : DevRef τ sig) = (dRu6 (W (main_v2824 : DevRef τ sig))).1 := by sl_kernel_rfl

end

end Cert.ReferenceIdeal.RSeg

end
-- ==== Proof.RSegD4u.lean ====
/-
  The right subtree of width 64 of the unfrozen half, run from any contents: its decisions.
-/
import proofs.«134088_j24077586662034_2_alg».proof.Proof.RSegDdefs

noncomputable section

namespace Cert.ReferenceIdeal.RSeg

open Cert.ReferenceIdeal Cert.ReferenceIdeal.Gen Cert.ReferenceIdeal.RefRun Cert.Proof.Polar
open Idealize.ShloMosaic Idealize.ShloMosaic.TcCoe Idealize.SL.Sem Idealize.ShloMosaic.StableHlo
open Idealize.ShloMosaic.Tactic

variable {F : FTy → Type} [FloatOps F]

section
variable (W : Valuation τ sig (Elt F))

set_option maxRecDepth 1000000 in
set_option maxHeartbeats 40000000 in
theorem D4_u : after sD4 W (main_v5860 : DevRef τ sig) = (dRu6 (W (main_v4345 : DevRef τ sig))).1 := by sl_kernel_rfl

end

end Cert.ReferenceIdeal.RSeg

end
-- ==== Proof.RSegDs.lean ====
/-
  The short stretches of the unfrozen half, and what the long ones leave alone.
-/
import proofs.«134088_j24077586662034_2_alg».proof.Proof.RSegDdefs

noncomputable section

namespace Cert.ReferenceIdeal.RSeg

open Cert.ReferenceIdeal Cert.ReferenceIdeal.Gen Cert.ReferenceIdeal.RefRun Cert.Proof.Polar
open Idealize.ShloMosaic Idealize.ShloMosaic.TcCoe Idealize.SL.Sem Idealize.ShloMosaic.StableHlo
open Idealize.ShloMosaic.Tactic

variable {F : FTy → Type} [FloatOps F]

section
variable (W : Valuation τ sig (Elt F))

set_option maxRecDepth 1000000 in
set_option maxHeartbeats 40000000 in
theorem D1_ll : after sD1 W (main_v2814 : DevRef τ sig) = (extractStridedSlice (ShR 64) ![0, 0] (W (main_v2813 : DevRef τ sig)) (by decide)) := by sl_kernel_rfl
set_option maxRecDepth 1000000 in
set_option maxHeartbeats 40000000 in
theorem D1_lr : after sD1 W (main_v2815 : DevRef τ sig) = (extractStridedSlice (ShR 64) ![0, 64] (W (main_v2813 : DevRef τ sig)) (by decide)) := by sl_kernel_rfl
set_option maxRecDepth 1000000 in
set_option maxHeartbeats 40000000 in
theorem D1_f : after sD1 W (main_v2824 : DevRef τ sig) = cnopR (ShR 64) (by decide) (extractStridedSlice (ShR 64) ![0, 0] (W (main_v2813 : DevRef τ sig)) (by decide)) (extractStridedSlice (ShR 64) ![0, 64] (W (main_v2813 : DevRef τ sig)) (by decide)) := by sl_kernel_rfl
set_option maxRecDepth 1000000 in
set_option maxHeartbeats 40000000 in
theorem D2_ll : after sD2 W (main_v2814 : DevRef τ sig) = (W (main_v2814 : DevRef τ sig)) := by sl_kernel_rfl
set_option maxRecDepth 1000000 in
set_option maxHeartbeats 40000000 in
theorem D2_lr : after sD2 W (main_v2815 : DevRef τ sig) = (W (main_v2815 : DevRef τ sig)) := by sl_kernel_rfl
set_option maxRecDepth 1000000 in
set_option maxHeartbeats 40000000 in
theorem D3_g : after sD3 W (main_v4345 : DevRef τ sig) = gR (ShR 64) (by decide) (W (main_v4338 : DevRef τ sig)) (W (main_v2814 : DevRef τ sig)) (W (main_v2815 : DevRef τ sig)) := by sl_kernel_rfl
set_option maxRecDepth 1000000 in
set_option maxHeartbeats 40000000 in
theorem D3_u : after sD3 W (main_v4339 : DevRef τ sig) = (W (main_v4339 : DevRef τ sig)) := by sl_kernel_rfl
set_option maxRecDepth 1000000 in
set_option maxHeartbeats 40000000 in
theorem D4_k : after sD4 W (main_v4339 : DevRef τ sig) = (W (main_v4339 : DevRef τ sig)) := by sl_kernel_rfl
set_option maxRecDepth 1000000 in
set_option maxHeartbeats 40000000 in
theorem D5_u : after sD5 W (main_v5864 : DevRef τ sig)
    = concatenate (ShR 128) 1 [⟨ShR 64, (W (main_v4339 : DevRef τ sig))⟩, ⟨ShR 64, (W (main_v5860 : DevRef τ sig))⟩] (by decide : Shape.Concatenates [ShR 64, ShR 64] (ShR 128) 1) := by sl_kernel_rfl

end

end Cert.ReferenceIdeal.RSeg

end
-- ==== Proof.RSegD.lean ====
/-
  The unfrozen right half, run from any contents: its decisions are the unfrozen subtree's of Levels.lean on the ratios it is given — the root's node over its two subtrees of width 64.
-/
import proofs.«134088_j24077586662034_2_alg».proof.Proof.RSegDdefs
import proofs.«134088_j24077586662034_2_alg».proof.Proof.RSegD2x
import proofs.«134088_j24077586662034_2_alg».proof.Proof.RSegD2u
import proofs.«134088_j24077586662034_2_alg».proof.Proof.RSegD4u
import proofs.«134088_j24077586662034_2_alg».proof.Proof.RSegDs

noncomputable section

namespace Cert.ReferenceIdeal.RSeg

open Cert.ReferenceIdeal Cert.ReferenceIdeal.Gen Cert.ReferenceIdeal.RefRun Cert.Proof.Polar
open Idealize.ShloMosaic Idealize.ShloMosaic.TcCoe Idealize.SL.Sem Idealize.ShloMosaic.StableHlo
open Idealize.ShloMosaic.Tactic

variable {F : FTy → Type} [FloatOps F]

section
variable (W : Valuation τ sig (Elt F))

theorem D_u : after segD W (main_v5864 : DevRef τ sig) = (dRu7 (W (main_v2813 : DevRef τ sig))).1 := by
  rw [segD_eq, after_concat, after_concat, after_concat, after_concat]
  rw [D5_u, D4_u, D4_k, D3_g, D3_u, D2_x, D2_u, D2_ll, D2_lr, D1_f, D1_ll, D1_lr]
  rfl

end

end Cert.ReferenceIdeal.RSeg

end
-- ==== Proof.RSegDk.lean ====
/-
  The unfrozen right half leaves alone the left half's decisions and the index table and mask of the final gather.
-/
import proofs.«134088_j24077586662034_2_alg».proof.Proof.RSeg

noncomputable section

namespace Cert.ReferenceIdeal.RSeg

open Cert.ReferenceIdeal Cert.ReferenceIdeal.Gen Cert.ReferenceIdeal.RefRun Cert.Proof.Polar
open Idealize.ShloMosaic Idealize.ShloMosaic.TcCoe Idealize.SL.Sem Idealize.ShloMosaic.StableHlo
open Idealize.ShloMosaic.Tactic

variable {F : FTy → Type} [FloatOps F]

section
variable (W : Valuation τ sig (Elt F))

set_option maxRecDepth 1000000 in
set_option maxHeartbeats 40000000 in
theorem D_keep : after segD W (main_v2807 : DevRef τ sig) = W (main_v2807 : DevRef τ sig) := by sl_kernel_rfl

set_option maxRecDepth 1000000 in
set_option maxHeartbeats 40000000 in
theorem D_c : after segD W (main_c : DevRef τ sig) = W (main_c : DevRef τ sig) := by sl_kernel_rfl
set_option maxRecDepth 1000000 in
set_option maxHeartbeats 40000000 in
theorem D_c0 : after segD W (main_c_0 : DevRef τ sig) = W (main_c_0 : DevRef τ sig) := by sl_kernel_rfl
end

end Cert.ReferenceIdeal.RSeg

end
-- ==== Proof.Rel.lean ====
/-
  When a block of layout K and an array of layout R hold the same numbers: entry (i, b) of the block is
  entry (base + b, i) of the array, for the 4096 codewords that start at codeword `base`.
-/
import proofs.«134088_j24077586662034_2_alg».proof.Proof.Levels
import Idealize.ShloMosaic.Lib.ValueIdx

noncomputable section

namespace Cert.Proof.Polar

open Idealize.ShloMosaic Idealize.ShloMosaic.ValueIdx

/-- The layout-K array `a` and the layout-R array `A` hold the same numbers for the 4096 codewords starting
    at codeword `base`. -/
def Tr (base m : ℕ) (hb : base + 4096 ≤ 32768) (a : FVec Ideal (ShK m) .f32) (A : FVec Ideal (ShR m) .f32) : Prop :=
  ∀ (i : Fin m) (b : Fin 4096), a (ix2 i b) = A (ix2 ⟨base + b.val, by omega⟩ i)

/-- What both programs compute, as one function of the whole input array: the decisions of the unfrozen
    subtree on the sum of the two halves of the negated inputs, codeword by codeword. -/
def G (X : FVec Ideal (ShR 256) .f32) : FVec Ideal (ShR 128) .f32 :=
  (dRu7 (addf (extractStridedSlice (ShR 128) ![0, 0] (topR X) (by decide))
              (extractStridedSlice (ShR 128) ![0, 128] (topR X) (by decide)))).1

end Cert.Proof.Polar

end
-- ==== Proof.Top.lean ====
/-
  The top of the two decoders. In layout R the root of width 256 has its left half frozen: a frozen
  subtree's partial sum is zero at every width (a frozen leaf's is the constant zero; two zeros differ
  nowhere, and zeros laid end to end are zeros), so the root's variable-node update
  (1 - 2 · 0) · ll + lr is the plain sum ll + lr of the two halves of the channel ratios, and the root's
  decisions at positions 128 … 255 are the unfrozen subtree's on that sum. Layout K starts from the same
  sum, computed on a block of 4096 codewords and turned so that codewords run along axis 1; the two agree
  entry by entry.
-/
import proofs.«134088_j24077586662034_2_alg».proof.Proof.Rel
import Idealize.ShloMosaic.Lib.ValueIdx
import Idealize.ShloMosaic.Lib.Pipeline.Value
import Idealize.ShloMosaic.Lib.ValueLayout
import Idealize.ShloMosaic.Lib.IdealHost
import Idealize.ShloMosaic.PureOps.Ideal
import Idealize.ShloMosaic.PureOps.Ideal.Laws

noncomputable section

namespace Cert.Proof.Polar

open Idealize.ShloMosaic Idealize.ShloMosaic.ValueIdx

/-! ## Pointwise facts -/

/-- A scalar constant broadcast to a shape reads, at every index, the extended real its word denotes. -/
theorem bcR_apply (S : Shape) (hb : Sh0.BroadcastsInDim S ![]) (w : BitVec 32) (i : S.Idx) :
    bcR (F := Ideal) S hb w i = Ideal.ofBits .f32 w := rfl

/-- Two partial sums that are zero everywhere differ nowhere. -/
theorem xorR_zero (S : Shape) (x y : FVec Ideal S .f32) (hx : ∀ i, x i = 0) (hy : ∀ i, y i = 0) (i : S.Idx) :
    xorR S x y i = 0 := by
  show (((Ideal.cmp .une (x i) (y i)).toNat : ℝ) : EReal) = 0
  rw [hx, hy]
  simp [Ideal.cmp]

/-- With a left partial sum that is zero everywhere the variable-node update is the sum of the halves:
    (1 - 2 · 0) · ll + lr = ll + lr. -/
theorem gR_zero (S : Shape) (hb : Sh0.BroadcastsInDim S ![]) (xl ll lr : FVec Ideal S .f32) (h : ∀ i, xl i = 0) :
    gR S hb xl ll lr = addf ll lr := by
  funext i
  show (Ideal.ofBits .f32 0x3F800000#32 - Ideal.ofBits .f32 0x40000000#32 * xl i) * ll i + lr i = ll i + lr i
  rw [h, mul_zero, Ideal.ofBits_one_f32, sub_zero, one_mul]

/-- Pieces that all read the same value everywhere, laid end to end, read that value everywhere. -/
theorem concatenate_const {α : Type} {t : Shape} (a : Fin t.rank) (xs : List ((s : Shape) × (s.Idx → α)))
    (h : Shape.Concatenates (xs.map (·.1)) t a) (c : α) (hx : ∀ p ∈ xs, ∀ i, p.2 i = c) (j : t.Idx) :
    concatenate t a xs h j = c := by
  unfold concatenate
  exact hx _ (List.getElem_mem _) _

/-! ## The frozen subtree -/

/-- A node both of whose children have partial sum zero, whatever their ratios, has partial sum zero. -/
theorem nodeR_x_zero (m2 m1 h : ℕ) (hb : Sh0.BroadcastsInDim (ShR m1) ![])
    (hs0 : (ShR m2).Slices ![0, 0] (ShR m1)) (hs1 : (ShR m2).Slices ![0, h] (ShR m1))
    (hc : Shape.Concatenates [ShR m1, ShR m1] (ShR m2) 1)
    (recL recR : FVec Ideal (ShR m1) .f32 → OutR Ideal m1)
    (hL : ∀ A j, (recL A).2 j = (0 : EReal)) (hR : ∀ A j, (recR A).2 j = (0 : EReal))
    (A : FVec Ideal (ShR m2) .f32) (j : (ShR m2).Idx) :
    (nodeR m2 m1 h hb hs0 hs1 hc recL recR A).2 j = (0 : EReal) := by
  unfold nodeR
  show concatenate (ShR m2) 1 [⟨ShR m1, _⟩, ⟨ShR m1, _⟩] hc j = (0 : EReal)
  refine concatenate_const _ _ _ (0 : EReal) ?_ j
  intro p hp i
  rcases List.mem_cons.1 hp with rfl | hp
  · exact xorR_zero _ _ _ (hL _) (hR _) i
  · rcases List.mem_singleton.1 hp with rfl
    exact hR _ i

theorem frozen_x0 (A : FVec Ideal (ShR 1) .f32) (j : (ShR 1).Idx) : (dRf0 A).2 j = (0 : EReal) :=
  Ideal.ofBits_zero_f32
theorem frozen_x1 (A : FVec Ideal (ShR 2) .f32) (j : (ShR 2).Idx) : (dRf1 A).2 j = (0 : EReal) :=
  nodeR_x_zero _ _ _ _ _ _ _ _ _ frozen_x0 frozen_x0 A j
theorem frozen_x2 (A : FVec Ideal (ShR 4) .f32) (j : (ShR 4).Idx) : (dRf2 A).2 j = (0 : EReal) :=
  nodeR_x_zero _ _ _ _ _ _ _ _ _ frozen_x1 frozen_x1 A j
theorem frozen_x3 (A : FVec Ideal (ShR 8) .f32) (j : (ShR 8).Idx) : (dRf3 A).2 j = (0 : EReal) :=
  nodeR_x_zero _ _ _ _ _ _ _ _ _ frozen_x2 frozen_x2 A j
theorem frozen_x4 (A : FVec Ideal (ShR 16) .f32) (j : (ShR 16).Idx) : (dRf4 A).2 j = (0 : EReal) :=
  nodeR_x_zero _ _ _ _ _ _ _ _ _ frozen_x3 frozen_x3 A j
theorem frozen_x5 (A : FVec Ideal (ShR 32) .f32) (j : (ShR 32).Idx) : (dRf5 A).2 j = (0 : EReal) :=
  nodeR_x_zero _ _ _ _ _ _ _ _ _ frozen_x4 frozen_x4 A j
theorem frozen_x6 (A : FVec Ideal (ShR 64) .f32) (j : (ShR 64).Idx) : (dRf6 A).2 j = (0 : EReal) :=
  nodeR_x_zero _ _ _ _ _ _ _ _ _ frozen_x5 frozen_x5 A j

/-- A frozen subtree's partial sum is zero whatever its ratios. -/
theorem frozen_x7 (A : FVec Ideal (ShR 128) .f32) (j : (ShR 128).Idx) : (dRf7 A).2 j = (0 : EReal) :=
  nodeR_x_zero _ _ _ _ _ _ _ _ _ frozen_x6 frozen_x6 A j

/-! ## The root -/

/-- With the left half frozen the root's variable-node update is the sum of the two halves, so the root's
    decisions at positions 128 + j are the unfrozen subtree's on that sum. -/
theorem root_right (X : FVec Ideal (ShR 256) .f32) (r : Fin 32768) (j : Fin 128) :
    (dR8 X).1 (ix2 r ⟨128 + j.val, by omega⟩)
      = (dRu7 (addf (extractStridedSlice (ShR 128) ![0, 0] X (by decide))
          (extractStridedSlice (ShR 128) ![0, 128] X (by decide)))).1 (ix2 r j) := by
  have hc : Shape.Concatenates [ShR 128, ShR 128] (ShR 256) 1 := by decide
  unfold dR8 nodeR
  show concatenate (ShR 256) 1 [⟨ShR 128, _⟩, ⟨ShR 128, _⟩] hc (ix2 r ⟨128 + j.val, by omega⟩) = _
  refine (concatenate_pair_apply_right (t := ShR 256) (s₁ := ShR 128) (s₂ := ShR 128) 1 _ _ hc
    (ix2 r ⟨128 + j.val, by omega⟩) rfl rfl (ix2 r j) ?_ ?_).trans ?_
  · intro b hb
    match b with
    | ⟨0, _⟩ => rfl
    | ⟨1, _⟩ => exact absurd rfl hb
  · show j.val + 128 = 128 + j.val
    omega
  · exact congrArg (fun Z => (dRu7 Z).1 (ix2 r j)) (gR_zero _ _ _ _ _ (frozen_x7 _))

/-! ## The channel ratios in the two layouts -/

/-- A block of inputs that is rows base .. base + 4095 of the input array gives corresponding ratios. -/
theorem top_tr (base : ℕ) (hb : base + 4096 ≤ 32768) (x0 : FVec Ideal ShKin .f32) (X : FVec Ideal (ShR 256) .f32)
    (h : ∀ (p : Fin 4096) (k : Fin 256), x0 (ix2 p k) = X (ix2 ⟨base + p.val, by omega⟩ k)) :
    Tr base 128 hb (topK x0)
      (addf (extractStridedSlice (ShR 128) ![0, 0] (topR X) (by decide))
        (extractStridedSlice (ShR 128) ![0, 128] (topR X) (by decide))) := by
  intro i b
  unfold topK topR
  refine (transpose_ix2_apply _ _ i b).trans ?_
  rw [addf_apply, addf_apply, slice2_axis1_eq, slice2_axis1_eq, slice2_axis1_eq, slice2_axis1_eq,
    mulf_apply, mulf_apply, mulf_apply, mulf_apply, h, h]
  rfl

/-- Turning a 128 x 4096 array back. -/
theorem transpose_out (s : FVec Ideal (ShK 128) .f32) (p : Fin 4096) (j : Fin 128) :
    transpose ShKout [1, 0] s (by decide) (ix2 p j) = s (ix2 j p) :=
  transpose_ix2_apply s _ p j

end Cert.Proof.Polar

end
-- ==== Proof.RVal.lean ====
/-
  The reference's result is the whole-array function `G` of its input. The host operations run in five
  stretches (RSeg.lean); reading the result buffer back through them, each stretch from what the one before
  left, gives the gather of positions 128 … 255 out of the root's decisions on the negated inputs. The gather
  reads position 128 + j; the root's decisions there are the unfrozen subtree's on the sum of the two halves,
  because the frozen half's partial sum is zero.
-/
import proofs.«134088_j24077586662034_2_alg».proof.Proof.RSeg
import proofs.«134088_j24077586662034_2_alg».proof.Proof.RSegB
import proofs.«134088_j24077586662034_2_alg».proof.Proof.RSegBk
import proofs.«134088_j24077586662034_2_alg».proof.Proof.RSegD
import proofs.«134088_j24077586662034_2_alg».proof.Proof.RSegDk
import proofs.«134088_j24077586662034_2_alg».proof.Proof.Top

noncomputable section

namespace Cert.ReferenceIdeal.RVal

open Cert.ReferenceIdeal Cert.ReferenceIdeal.RefRun Cert.ReferenceIdeal.RSeg Cert.Proof.Polar
open Idealize.ShloMosaic Idealize.ShloMosaic.TcCoe Idealize.SL.Sem Idealize.ShloMosaic.StableHlo
open Idealize.ShloMosaic.ValueIdx

variable {F : FTy → Type} [FloatOps F]

/-- The fold of the host operations at the result buffer: the gather out of the root's decisions. -/
theorem out_eq (V : Valuation τ sig (Elt F)) :
    after ops V (main_v5873 : DevRef τ sig)
      = Host.gather gather_S32768x256_S128x1_S32768x128_0_1_n_n_1_1_327681
          (dR8 (topR (V (main_arg0 : DevRef τ sig)))).1 gatherIdx := by
  rw [ops_eq, after_concat, after_concat, after_concat, after_concat]
  rw [E_out, D_u, D_keep, D_c, D_c0, C_g, C_u, C_c, C_c0, B_x, B_u, B_ll, B_lr, B_c, B_c0, A_ll, A_lr, A_c, A_c0]
  rfl

/-- Index by index, the gathered decisions are `G` of the input. -/
theorem result_eq (X : FVec Ideal (ShR 256) .f32) :
    Host.gather gather_S32768x256_S128x1_S32768x128_0_1_n_n_1_1_327681 (dR8 (topR X)).1 gatherIdx = G X := by
  funext idx
  obtain ⟨r, j, rfl⟩ : ∃ (r : Fin 32768) (j : Fin 128), idx = ix2 r j := ⟨idx 0, idx 1, eq_ix2 idx⟩
  rw [gather_read, root_right]
  rfl

end Cert.ReferenceIdeal.RVal

end
-- ==== Proof.Bridge.lean ====
/-
  The unfrozen subtree of width 128 in the two layouts computes the same thing. When a block of layout K and
  an array of layout R hold the same ratios for the 4096 codewords that start at codeword base (entry (i, b)
  of the block is entry (base + b, i) of the array), every step of the decoder keeps that relation: each step
  acts on one number at a time (the sign spelt through comparisons is the sign; a one-bit truth value widened
  and read as an integer is 0 or 1 either way; a constant broadcast from a scalar is the constant), a band of
  rows of the block is the same band of columns of the array, and two halves laid end to end along the code
  axis are laid end to end in both. So by induction over the tree a subtree of layout K whose first leaf
  writes row off has the same partial sums as the subtree of layout R, writes only rows off … off + m - 1,
  writes at row off + i and column c the decision of layout R for codeword base + c at position i, and covers
  those rows. Read back as a 128 × 4096 array, the row pieces of the whole subtree are the decisions of
  layout R transposed.
-/
import proofs.«134088_j24077586662034_2_alg».proof.Proof.Rel
import Idealize.ShloMosaic.Lib.ValueIdx
import Idealize.ShloMosaic.Lib.Pipeline.Value
import Idealize.ShloMosaic.Lib.ValueLayout
import Idealize.ShloMosaic.Lib.Pipeline.FrameBody
import Idealize.ShloMosaic.PureOps.Ideal
import Idealize.ShloMosaic.PureOps.Ideal.Laws

noncomputable section

namespace Cert.Proof.Polar

open Idealize.ShloMosaic Idealize.ShloMosaic.ValueIdx

namespace Bridge

/-! ## The steps at one number -/

/-- The clip to [-30, 30] of one number. -/
def clipS (x : Ideal .f32) : Ideal .f32 :=
  min (Ideal.ofBits .f32 0x41F00000#32) (max (Ideal.ofBits .f32 0xC1F00000#32) x)

/-- The check-node combination of two numbers. -/
def cnS (x y : Ideal .f32) : Ideal .f32 :=
  Ideal.sign (clipS x) * Ideal.sign (clipS y) * min (max (clipS x) (-clipS x)) (max (clipS y) (-clipS y))

/-- The variable-node update of three numbers. -/
def gS (xl ll lr : Ideal .f32) : Ideal .f32 :=
  (Ideal.ofBits .f32 0x3F800000#32 - Ideal.ofBits .f32 0x40000000#32 * xl) * ll + lr

/-- A truth value as the number 0 or 1. -/
def bitS (c : BitVec 1) : Ideal .f32 := ((c.toNat : ℝ) : EReal)

/-- A leaf's decision on one number. -/
def decS (x : Ideal .f32) : Ideal .f32 := bitS (Ideal.cmp .ole x (Ideal.ofBits .f32 0x00000000#32))

/-- Whether two numbers differ, as 0 or 1. -/
def xorS (x y : Ideal .f32) : Ideal .f32 := bitS (Ideal.cmp .une x y)

/-! ## Each step of either layout, read at an index, is the step at one number -/

section Pointwise
variable (S : Shape)

theorem clipK_apply (x : FVec Ideal S .f32) (j : S.Idx) : clipK S x j = clipS (x j) := rfl

/-- The sign spelt through comparisons is the sign. -/
theorem signK_apply (x : FVec Ideal S .f32) (j : S.Idx) : signK S x j = Ideal.sign (x j) :=
  Ideal.jnp_sign_eq_sign_f32 (x j)

theorem cnopK_apply (x y : FVec Ideal S .f32) (j : S.Idx) : cnopK S x y j = cnS (x j) (y j) := by
  show signK S (clipK S x) j * signK S (clipK S y) j
      * min (max (clipK S x j) (-(clipK S x j))) (max (clipK S y j) (-(clipK S y j))) = _
  rw [signK_apply, signK_apply]
  rfl

theorem gK_apply (xl ll lr : FVec Ideal S .f32) (j : S.Idx) : gK S xl ll lr j = gS (xl j) (ll j) (lr j) := rfl

/-- A one-bit word widened and read as a signed integer is the word read as a natural number. -/
theorem bitK_apply (c : IVec S 1) (j : S.Idx) : bitK (F := Ideal) S c j = bitS (c j) := by
  show ((((c j).setWidth 32).toInt : ℝ) : EReal) = (((c j).toNat : ℝ) : EReal)
  rcases BitVec.eq_zero_or_eq_one (c j) with h | h <;> rw [h] <;> simp

theorem decideK_apply (x : FVec Ideal S .f32) (j : S.Idx) : decideK S x j = decS (x j) := bitK_apply S _ j

/-- Layout K compares with the ordered not-equal and layout R with the unordered one: on extended reals both
    say the two numbers differ. -/
theorem xorK_apply (x y : FVec Ideal S .f32) (j : S.Idx) : xorK S x y j = xorS (x j) (y j) := bitK_apply S _ j

variable (hbS : Sh0.BroadcastsInDim S ![])

theorem bcR_apply (w : BitVec 32) (j : S.Idx) : bcR (F := Ideal) S hbS w j = Ideal.ofBits .f32 w := rfl

theorem cnopR_apply (x y : FVec Ideal S .f32) (j : S.Idx) : cnopR S hbS x y j = cnS (x j) (y j) := rfl

theorem gR_apply (xl ll lr : FVec Ideal S .f32) (j : S.Idx) : gR S hbS xl ll lr j = gS (xl j) (ll j) (lr j) := rfl

theorem decideR_apply (x : FVec Ideal S .f32) (j : S.Idx) : decideR S hbS x j = decS (x j) := rfl

theorem xorR_apply (x y : FVec Ideal S .f32) (j : S.Idx) : xorR S x y j = xorS (x j) (y j) := rfl

end Pointwise

/-! ## Indices -/

/-- Two rank-2 indices with the same coordinates are the same. -/
theorem ix2_ext {n0 n1 : ℕ} {a a' : Fin n0} {b b' : Fin n1} (ha : a.val = a'.val) (hb : b.val = b'.val) :
    ix2 a b = ix2 a' b' := by
  obtain rfl := Fin.ext ha
  obtain rfl := Fin.ext hb
  rfl

section Cat
variable {α : Type} {m1 m2 : ℕ}

/-- Two blocks laid end to end along the code axis of layout K, read in the first. -/
theorem catK_left (hc : Shape.Concatenates [ShK m1, ShK m1] (ShK m2) 0) (x1 x2 : (ShK m1).Idx → α)
    (i : Fin m2) (b : Fin 4096) (k : Fin m1) (hk : k.val = i.val) :
    concatenate (ShK m2) 0 [⟨ShK m1, x1⟩, ⟨ShK m1, x2⟩] hc (ix2 i b) = x1 (ix2 k b) :=
  concatenate_pair_apply_left _ x1 x2 hc (ix2 i b) rfl (ix2 k b) (fun c => by
    match c with
    | ⟨0, _⟩ => exact hk
    | ⟨1, _⟩ => rfl)

/-- … read in the second. -/
theorem catK_right (hc : Shape.Concatenates [ShK m1, ShK m1] (ShK m2) 0) (x1 x2 : (ShK m1).Idx → α)
    (i : Fin m2) (b : Fin 4096) (k : Fin m1) (hk : k.val + m1 = i.val) :
    concatenate (ShK m2) 0 [⟨ShK m1, x1⟩, ⟨ShK m1, x2⟩] hc (ix2 i b) = x2 (ix2 k b) :=
  concatenate_pair_apply_right _ x1 x2 hc (ix2 i b) rfl rfl (ix2 k b)
    (fun c => by
      match c with
      | ⟨0, _⟩ => exact fun h => absurd rfl h
      | ⟨1, _⟩ => exact fun _ => rfl)
    hk

/-- Two arrays laid end to end along the code axis of layout R, read in the first. -/
theorem catR_left (hc : Shape.Concatenates [ShR m1, ShR m1] (ShR m2) 1) (x1 x2 : (ShR m1).Idx → α)
    (r : Fin 32768) (i : Fin m2) (k : Fin m1) (hk : k.val = i.val) :
    concatenate (ShR m2) 1 [⟨ShR m1, x1⟩, ⟨ShR m1, x2⟩] hc (ix2 r i) = x1 (ix2 r k) :=
  concatenate_pair_apply_left _ x1 x2 hc (ix2 r i) rfl (ix2 r k) (fun c => by
    match c with
    | ⟨0, _⟩ => rfl
    | ⟨1, _⟩ => exact hk)

/-- … read in the second. -/
theorem catR_right (hc : Shape.Concatenates [ShR m1, ShR m1] (ShR m2) 1) (x1 x2 : (ShR m1).Idx → α)
    (r : Fin 32768) (i : Fin m2) (k : Fin m1) (hk : k.val + m1 = i.val) :
    concatenate (ShR m2) 1 [⟨ShR m1, x1⟩, ⟨ShR m1, x2⟩] hc (ix2 r i) = x2 (ix2 r k) :=
  concatenate_pair_apply_right _ x1 x2 hc (ix2 r i) rfl rfl (ix2 r k)
    (fun c => by
      match c with
      | ⟨0, _⟩ => exact fun _ => rfl
      | ⟨1, _⟩ => exact fun h => absurd rfl h)
    hk

end Cat

/-! ## The relation between the layouts is kept by every step -/

section TrSteps
variable {base : ℕ} {hb : base + 4096 ≤ 32768} {m : ℕ}

theorem tr_cnop (hbR : Sh0.BroadcastsInDim (ShR m) ![]) {x y : FVec Ideal (ShK m) .f32} {X Y : FVec Ideal (ShR m) .f32}
    (hx : Tr base m hb x X) (hy : Tr base m hb y Y) :
    Tr base m hb (cnopK (ShK m) x y) (cnopR (ShR m) hbR X Y) := fun i b => by
  rw [cnopK_apply, cnopR_apply, hx i b, hy i b]

theorem tr_g (hbR : Sh0.BroadcastsInDim (ShR m) ![]) {xl ll lr : FVec Ideal (ShK m) .f32} {XL LL LR : FVec Ideal (ShR m) .f32}
    (h1 : Tr base m hb xl XL) (h2 : Tr base m hb ll LL) (h3 : Tr base m hb lr LR) :
    Tr base m hb (gK (ShK m) xl ll lr) (gR (ShR m) hbR XL LL LR) := fun i b => by
  rw [gK_apply, gR_apply, h1 i b, h2 i b, h3 i b]

theorem tr_xor {x y : FVec Ideal (ShK m) .f32} {X Y : FVec Ideal (ShR m) .f32}
    (hx : Tr base m hb x X) (hy : Tr base m hb y Y) :
    Tr base m hb (xorK (ShK m) x y) (xorR (ShR m) X Y) := fun i b => by
  rw [xorK_apply, xorR_apply, hx i b, hy i b]

theorem tr_decide (hbR : Sh0.BroadcastsInDim (ShR m) ![]) {x : FVec Ideal (ShK m) .f32} {X : FVec Ideal (ShR m) .f32}
    (hx : Tr base m hb x X) :
    Tr base m hb (decideK (ShK m) x) (decideR (ShR m) hbR X) := fun i b => by
  rw [decideK_apply, decideR_apply, hx i b]

/-- A band of rows of layout K and the same band of columns of layout R. -/
theorem tr_slice {m1 m2 o : ℕ} (hsK : (ShK m2).Slices ![o, 0] (ShK m1)) (hsR : (ShR m2).Slices ![0, o] (ShR m1))
    {a : FVec Ideal (ShK m2) .f32} {A : FVec Ideal (ShR m2) .f32} (h : Tr base m2 hb a A) :
    Tr base m1 hb (extractStridedSlice (ShK m1) ![o, 0] a hsK) (extractStridedSlice (ShR m1) ![0, o] A hsR) := fun i b => by
  rw [slice2_axis0_eq, slice2_axis1_eq]
  exact h _ b

/-- Two halves laid end to end along the code axis. -/
theorem tr_cat {m1 m2 : ℕ} (hm : m2 = m1 + m1) (hcK : Shape.Concatenates [ShK m1, ShK m1] (ShK m2) 0)
    (hcR : Shape.Concatenates [ShR m1, ShR m1] (ShR m2) 1)
    {x1 x2 : FVec Ideal (ShK m1) .f32} {X1 X2 : FVec Ideal (ShR m1) .f32}
    (h1 : Tr base m1 hb x1 X1) (h2 : Tr base m1 hb x2 X2) :
    Tr base m2 hb (concatenate (ShK m2) 0 [⟨ShK m1, x1⟩, ⟨ShK m1, x2⟩] hcK)
      (concatenate (ShR m2) 1 [⟨ShR m1, X1⟩, ⟨ShR m1, X2⟩] hcR) := fun i b => by
  by_cases hi : i.val < m1
  · rw [catK_left hcK x1 x2 i b ⟨i.val, hi⟩ rfl, catR_left hcR X1 X2 _ i ⟨i.val, hi⟩ rfl]
    exact h1 ⟨i.val, hi⟩ b
  · have hi2 : i.val - m1 < m1 := by have := i.isLt; omega
    rw [catK_right hcK x1 x2 i b ⟨i.val - m1, hi2⟩ (by show i.val - m1 + m1 = i.val; omega),
      catR_right hcR X1 X2 _ i ⟨i.val - m1, hi2⟩ (by show i.val - m1 + m1 = i.val; omega)]
    exact h2 ⟨i.val - m1, hi2⟩ b

end TrSteps

/-! ## A subtree of layout K against the subtree of layout R -/

/-- A layout-K subtree of width m whose first leaf writes row off agrees with a layout-R subtree of width m:
    on related ratios the partial sums are related, every piece the K subtree writes lies in rows
    off … off + m - 1 and holds, at row off + i and column c, the R subtree's decision for codeword base + c at
    position i, and the pieces cover those rows. -/
def Inv (base : ℕ) (hb : base + 4096 ≤ 32768) (m off : ℕ)
    (recK : FVec Ideal (ShK m) .f32 → OutK Ideal m) (recR : FVec Ideal (ShR m) .f32 → OutR Ideal m) : Prop :=
  ∀ (a : FVec Ideal (ShK m) .f32) (A : FVec Ideal (ShR m) .f32), Tr base m hb a A →
    Tr base m hb (recK a).2 (recR A).2 ∧
    (∀ p ∈ (recK a).1, ∀ z : p.1.shape.Idx, ∃ (i c : ℕ) (hi : i < m) (hc : c < 4096),
        (p.1.emb z (0 : Fin 2)).val = off + i ∧ (p.1.emb z (1 : Fin 2)).val = c ∧
        p.2 z = (recR A).1 (ix2 ⟨base + c, by omega⟩ ⟨i, hi⟩)) ∧
    (∀ y : (ShK 128).Idx, off ≤ (y (0 : Fin 2)).val → (y (0 : Fin 2)).val < off + m → ∃ p ∈ (recK a).1, y ∈ p.1.set)

section Node
variable {base : ℕ} {hb : base + 4096 ≤ 32768}

/-- A node over two agreeing children agrees. -/
theorem node_inv (m1 m2 off : ℕ) (hm : m2 = m1 + m1)
    (hs0 : (ShK m2).Slices ![0, 0] (ShK m1)) (hs1 : (ShK m2).Slices ![m1, 0] (ShK m1))
    (hc : Shape.Concatenates [ShK m1, ShK m1] (ShK m2) 0)
    (hbR : Sh0.BroadcastsInDim (ShR m1) ![])
    (hs0R : (ShR m2).Slices ![0, 0] (ShR m1)) (hs1R : (ShR m2).Slices ![0, m1] (ShR m1))
    (hcR : Shape.Concatenates [ShR m1, ShR m1] (ShR m2) 1)
    (kL kR : FVec Ideal (ShK m1) .f32 → OutK Ideal m1) (rL rR : FVec Ideal (ShR m1) .f32 → OutR Ideal m1)
    (HL : Inv base hb m1 off kL rL) (HR : Inv base hb m1 (off + m1) kR rR) :
    Inv base hb m2 off (nodeK m2 m1 m1 hs0 hs1 hc kL kR) (nodeR m2 m1 m1 hbR hs0R hs1R hcR rL rR) := by
  intro a A h
  have hll := tr_slice (o := 0) hs0 hs0R h
  have hlr := tr_slice (o := m1) hs1 hs1R h
  obtain ⟨hL2, hLp, hLc⟩ := HL _ _ (tr_cnop hbR hll hlr)
  obtain ⟨hR2, hRp, hRc⟩ := HR _ _ (tr_g hbR hL2 hll hlr)
  refine ⟨?_, ?_, ?_⟩
  · exact tr_cat hm hc hcR (tr_xor hL2 hR2) hR2
  · intro p hp z
    rcases List.mem_append.mp hp with hp | hp
    · obtain ⟨i, c, hi, hc', e0, e1, e⟩ := hRp p hp z
      refine ⟨m1 + i, c, by omega, hc', by omega, e1, ?_⟩
      rw [e]
      exact (catR_right hcR _ _ ⟨base + c, by omega⟩ ⟨m1 + i, by omega⟩ ⟨i, hi⟩ (Nat.add_comm i m1)).symm
    · obtain ⟨i, c, hi, hc', e0, e1, e⟩ := hLp p hp z
      refine ⟨i, c, by omega, hc', e0, e1, ?_⟩
      rw [e]
      exact (catR_left hcR _ _ ⟨base + c, by omega⟩ ⟨i, by omega⟩ ⟨i, hi⟩ rfl).symm
  · intro y h0 h1
    by_cases hy : (y (0 : Fin 2)).val < off + m1
    · obtain ⟨p, hp, hyp⟩ := hLc y h0 hy
      exact ⟨p, List.mem_append.mpr (Or.inr hp), hyp⟩
    · obtain ⟨p, hp, hyp⟩ := hRc y (by omega) (by omega)
      exact ⟨p, List.mem_append.mpr (Or.inl hp), hyp⟩

/-- A leaf at row off agrees with the deciding leaf. -/
theorem leaf_inv (off : ℕ) (h : off + 1 ≤ 128) : Inv base hb 1 off (dK0 off h) dRu0 := by
  intro a A hT
  have hd : Tr base 1 hb (decideK (ShK 1) a) (decideR (ShR 1) (by decide) A) := tr_decide _ hT
  refine ⟨hd, ?_, ?_⟩
  · intro p hp z
    have hp' : p = (⟨Rect.unit (s := ShK 128) ![off, 0] (ShK 1).size (inbK off h),
        shapeCast (ShK 1) (shapeCast ShV (decideK (ShK 1) a) (by decide)) (by decide)⟩ :
        View.Piece (Elt Ideal) (ShK 128) .f32) := List.mem_singleton.mp hp
    subst hp'
    obtain ⟨u, c, rfl⟩ : ∃ (u : Fin 1) (c : Fin 4096), z = ix2 u c := ⟨z 0, z 1, eq_ix2 z⟩
    have hu : u.val = 0 := by omega
    refine ⟨0, c.val, by omega, c.isLt, ?_, ?_, ?_⟩
    · show off + 1 * u.val = off + 0
      omega
    · show 0 + 1 * c.val = c.val
      omega
    · show shapeCast (ShK 1) (shapeCast ShV (decideK (ShK 1) a) _) _ (ix2 u c) = _
      rw [shapeCast_shapeCast]
      obtain rfl : u = ⟨0, Nat.one_pos⟩ := Fin.ext hu
      exact hd ⟨0, Nat.one_pos⟩ c
  · intro y h0 h1
    refine ⟨_, List.mem_singleton_self _, ?_⟩
    rw [Rect.mem_set_unit]
    intro ax
    match ax with
    | ⟨0, _⟩ => exact ⟨h0, h1⟩
    | ⟨1, _⟩ => exact ⟨Nat.zero_le _, by show (y (1 : Fin 2)).val < 0 + 4096; have := idx2_lt1 y; omega⟩

/-! ## The seven levels -/

theorem inv1 (off : ℕ) (h : off + 2 ≤ 128) : Inv base hb 2 off (dK1 off h) dRu1 :=
  node_inv 1 2 off rfl _ _ _ _ _ _ _ _ _ _ _ (leaf_inv off (by omega)) (leaf_inv (off + 1) (by omega))
theorem inv2 (off : ℕ) (h : off + 4 ≤ 128) : Inv base hb 4 off (dK2 off h) dRu2 :=
  node_inv 2 4 off rfl _ _ _ _ _ _ _ _ _ _ _ (inv1 off (by omega)) (inv1 (off + 2) (by omega))
theorem inv3 (off : ℕ) (h : off + 8 ≤ 128) : Inv base hb 8 off (dK3 off h) dRu3 :=
  node_inv 4 8 off rfl _ _ _ _ _ _ _ _ _ _ _ (inv2 off (by omega)) (inv2 (off + 4) (by omega))
theorem inv4 (off : ℕ) (h : off + 16 ≤ 128) : Inv base hb 16 off (dK4 off h) dRu4 :=
  node_inv 8 16 off rfl _ _ _ _ _ _ _ _ _ _ _ (inv3 off (by omega)) (inv3 (off + 8) (by omega))
theorem inv5 (off : ℕ) (h : off + 32 ≤ 128) : Inv base hb 32 off (dK5 off h) dRu5 :=
  node_inv 16 32 off rfl _ _ _ _ _ _ _ _ _ _ _ (inv4 off (by omega)) (inv4 (off + 16) (by omega))
theorem inv6 (off : ℕ) (h : off + 64 ≤ 128) : Inv base hb 64 off (dK6 off h) dRu6 :=
  node_inv 32 64 off rfl _ _ _ _ _ _ _ _ _ _ _ (inv5 off (by omega)) (inv5 (off + 32) (by omega))
theorem inv7 : Inv base hb 128 0 dK7 dRu7 :=
  node_inv 64 128 0 rfl _ _ _ _ _ _ _ _ _ _ _ (inv6 0 (by omega)) (inv6 (0 + 64) (by omega))

end Node

end Bridge

open Bridge

/-! ## The pieces read back -/

/-- The row pieces the layout-K subtree writes, read back as a 128 × 4096 array, are the layout-R subtree's
    decisions transposed. -/
theorem bridge (base : ℕ) (hb : base + 4096 ≤ 32768) (a : FVec Ideal (ShK 128) .f32) (A : FVec Ideal (ShR 128) .f32)
    (h : Tr base 128 hb a A) (i : Fin 128) (b : Fin 4096) :
    View.canon (dK7 a).1 (ix2 i b) = (dRu7 A).1 (ix2 ⟨base + b.val, by omega⟩ i) := by
  obtain ⟨-, hp, hcov⟩ := inv7 (base := base) (hb := hb) a A h
  refine View.canon_apply_of_pieces (Val := Elt Ideal)
    (fun y : (ShK 128).Idx => (dRu7 A).1 (ix2 ⟨base + (y (1 : Fin 2)).val, by have := idx2_lt1 y; omega⟩ (y (0 : Fin 2))))
    (dK7 a).1 ?_ (ix2 i b) ?_
  · intro p hpm z
    obtain ⟨i', c, hi', hc', e0, e1, e⟩ := hp p hpm z
    rw [e]
    exact congrArg _ (ix2_ext (by show base + c = base + (p.1.emb z (1 : Fin 2)).val; omega)
      (by show i' = (p.1.emb z (0 : Fin 2)).val; omega))
  · exact hcov (ix2 i b) (Nat.zero_le _) (by show i.val < 0 + 128; omega)

end Cert.Proof.Polar

end
-- ==== Proof.K1.lean ====
/-
  The rows the kernel's leaves write are the decoder's. Running the kernel body leaves, for the scratch
  array, the list of the 128 row pieces its leaves stored (last first), each a closed term of the loaded input
  block; unfolding the body's operations in order, that list IS the list the layout-K decoder of Levels.lean
  writes from the transposed sum of the two halves of the negated block: the same operations on the same
  operands, node by node (a definitional unfolding). The block the body loads is the whole staging buffer,
  read back as the contents it holds.
-/
import proofs.«134088_j24077586662034_2_alg».proof.Proof.Gen.KernelIdeal.Frame
import proofs.«134088_j24077586662034_2_alg».proof.Proof.Levels
import Idealize.ShloMosaic.Lib.Pipeline.Value
import Idealize.ShloMosaic.Lib.Pipeline.FrameBody
import Idealize.ShloMosaic.Lib.Tactic

noncomputable section

namespace Cert.KernelIdeal.K1

open Cert.KernelIdeal Cert.KernelIdeal.Gen Cert.Proof.Polar
open Idealize.ShloMosaic Idealize.ShloMosaic.TcCoe Idealize.SL.Sem Idealize.ShloMosaic.Tactic

variable {F : FTy → Type} [FloatOps F]

theorem hz2 : (![0, 0] : Fin 2 → Nat) = fun _ => 0 :=
  funext fun a => match a with | ⟨0, _⟩ => rfl | ⟨1, _⟩ => rfl

/-- The load of the whole input block reads the block's contents. -/
theorem loaded_eq (arg1 : Memref sig .tc .vmem S4096x256 .f32) (harg1 : arg1.IsWhole) (x0 : Vec F S4096x256 .f32) :
    View.readAt (Elt F) arg1.view (Rect.unit (s := S4096x256) ![0, 0] S4096x256.size inb_S4096x256_S4096x256_0_0).toLoadRect
      (harg1.unread x0) = x0 := by
  simp only [View.readAt_eq_ld, harg1.read_unread, View.ld_unit_zero (S := S4096x256) hz2]

set_option maxRecDepth 1000000 in
set_option maxHeartbeats 10000000 in
/-- The stored rows, over the loaded block. -/
theorem pieces_loaded (c : Dev nD) (arg1 : Memref sig .tc .vmem S4096x256 .f32) (harg1 : arg1.IsWhole)
    (x0 : Vec F S4096x256 .f32) :
    kernelRun0_A.sl.HS0_128 c arg1 harg1 x0
      = (dK7 (topK (View.readAt (Elt F) arg1.view
            (Rect.unit (s := S4096x256) ![0, 0] S4096x256.size inb_S4096x256_S4096x256_0_0).toLoadRect (harg1.unread x0)))).1 := by
  sl_kernel_rfl

theorem pieces_eq (c : Dev nD) (arg1 : Memref sig .tc .vmem S4096x256 .f32) (harg1 : arg1.IsWhole)
    (x0 : Vec F S4096x256 .f32) :
    kernelRun0_A.sl.HS0_128 c arg1 harg1 x0 = (dK7 (topK x0)).1 := by
  rw [pieces_loaded, loaded_eq]

end Cert.KernelIdeal.K1

end
-- ==== Proof.KVal.lean ====
/-
  The kernel's output array after the run is one function of its input array: for each of the 8 blocks of
  4096 codewords, the body computes the decisions of the unfrozen subtree in layout K on the block's ratios
  (the two halves of the negated inputs added and turned), writes them as 128 row pieces, reads the 128 × 4096
  array back, turns it and stores it as the 4096 × 128 output block. Row pieces read back are the layout-R
  decisions transposed, and the block's ratios are the layout-R ratios of codewords 4096 t … 4096 t + 4095, so
  block t of the output holds those rows of the common function. The 8 blocks cover the output array (row r is
  in block r / 4096), so the array ends holding that function everywhere.
-/
import proofs.«134088_j24077586662034_2_alg».proof.Proof.Gen.KernelIdeal.Value
import proofs.«134088_j24077586662034_2_alg».proof.Proof.Bridge
import proofs.«134088_j24077586662034_2_alg».proof.Proof.Top
import proofs.«134088_j24077586662034_2_alg».proof.Proof.K1
import Idealize.ShloMosaic.Lib.Pipeline.Value
import Idealize.ShloMosaic.Lib.Pipeline.FrameBody
import Idealize.ShloMosaic.Lib.ValueIdx

noncomputable section

namespace Cert.KernelIdeal.KVal

open Cert.KernelIdeal Cert.KernelIdeal.Gen Cert.KernelIdeal.Value Cert.Proof.Polar Idealize.ShloMosaic Idealize.ShloMosaic.TcCoe Idealize.SL.Sem Idealize.ShloMosaic.ValueIdx

variable (m : (ℓ : Loc nD τ sig) → Buf (Elt Ideal) ℓ)

/-! ## One block -/

/-- The zero offsets, as a constant function. -/
theorem off_zero : (![0, 0] : Fin 2 → Nat) = fun _ => 0 := funext fun a => by fin_cases a <;> rfl

/-- What the body leaves in the output block, entry (p, j): the row pieces of the layout-K subtree on the
    block's ratios, read back at row j and column p. The body's one store to the output block writes all of
    it, with the 128 × 4096 array of decisions turned; that array is what the leaves' row pieces hold. -/
theorem out_apply (c : Dev nD) (i : grid0.Coords) (arg1 : Memref sig .tc .vmem S4096x256 .f32) (harg1 : arg1.IsWhole)
    (arg2 : Memref sig .tc .vmem S4096x128 .f32) (harg2 : arg2.IsWhole) (arg3 : Memref sig .tc .vmem S128x4096 .f32)
    (harg3 : arg3.IsWhole) (x0 : Vec Ideal S4096x256 .f32) (p : Fin 4096) (j : Fin 128) :
    out0_A_1 c i arg1 harg1 arg2 harg2 arg3 harg3 x0 (ix2 p j) = View.canon (dK7 (topK x0)).1 (ix2 j p) := by
  unfold out0_A_1
  rw [View.read_writes_junk_eq_canon]
  show View.canon [(⟨Rect.unit (s := S4096x128) ![0, 0] S4096x128.size inb_S4096x128_S4096x128_0_0,
    k0_pay2 (kernelRun0_A.sl.v6718 c arg1 harg1 arg3 x0)⟩ : View.Piece (Elt Ideal) S4096x128 .f32)] (ix2 p j) = _
  rw [View.canon_unit_zero off_zero]
  unfold k0_pay2
  refine (transpose_out _ p j).trans ?_
  unfold kernelRun0_A.sl.v6718
  rw [View.readCov_eq_canon', K1.pieces_eq]
  refine congrArg _ (funext fun a => Fin.ext ?_)
  match a with
  | ⟨0, _⟩ => show 0 + 1 * j.val = j.val; omega
  | ⟨1, _⟩ => show 0 + 1 * p.val = p.val; omega

/-! ## The blocks on the grid -/

/-- The block index of either window at point t is (t, 0). -/
theorem idx_facts : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

/-- The grid has 8 points, so a block of 4096 codewords starting at 4096 t ends inside the 32768. -/
theorem base_le (t : Fin cfg0.N) : 4096 * t.val + 4096 ≤ 32768 := by
  have h : t.val < 8 := lt_of_lt_of_eq t.isLt N_0
  omega

/-- WHAT POINT t WRITES BACK is block t of the common function of the whole input array. -/
theorem flushed_eq (c : Dev nD) (t : Fin cfg0.N) :
    (dats m 0 c).flushed 1 t = ((cfg0.win 1).blk t).view.read (Elt Ideal) (G (V m c main_arg0)) := by
  rw [flushed1_A]
  obtain ⟨e0, e1, e2, e3⟩ := idx_facts t
  have hb := base_le t
  funext y
  obtain ⟨p, j, rfl⟩ : ∃ (p : Fin 4096) (j : Fin 128), y = ix2 p j := ⟨y 0, y 1, eq_ix2 y⟩
  show out0_A_1 c (grid0.coords t) (ms0_0 t) (hs0_0 t) (ms0_1 t) (hs0_1 t) scM0_0 (Memref.isWhole_whole _) (iblk m c 0 t) (ix2 p j)
    = G (V m c main_arg0) (((cfg0.win 1).blk t).view.emb (ix2 p j))
  rw [out_apply]
  -- the input block is rows 4096 t … 4096 t + 4095 of the input array
  have hblk : ∀ (p : Fin 4096) (k : Fin 256), iblk m c 0 t (ix2 p k) = V m c main_arg0 (ix2 ⟨4096 * t.val + p.val, by omega⟩ k) := by
    intro p k
    show V m c main_arg0 (((cfg0.win 0).blk t).view.emb (ix2 p k)) = _
    refine congrArg _ (funext fun a => Fin.ext ?_)
    match a with
    | ⟨0, _⟩ => show win0_0.index t (0 : Fin 2) * 4096 + 1 * p.val = 4096 * t.val + p.val; omega
    | ⟨1, _⟩ => show win0_0.index t (1 : Fin 2) * 256 + 1 * k.val = k.val; omega
  -- and the output block is the same rows of the output array
  have hout : ((cfg0.win 1).blk t).view.emb (ix2 p j) = (ix2 ⟨4096 * t.val + p.val, by omega⟩ j : S32768x128.Idx) := by
    refine funext fun a => Fin.ext ?_
    match a with
    | ⟨0, _⟩ => show win0_1.index t (0 : Fin 2) * 4096 + 1 * p.val = 4096 * t.val + p.val; omega
    | ⟨1, _⟩ => show win0_1.index t (1 : Fin 2) * 128 + 1 * j.val = j.val; omega
  rw [hout]
  exact bridge (4096 * t.val) hb (topK (iblk m c 0 t)) _ (top_tr (4096 * t.val) hb (iblk m c 0 t) (V m c main_arg0) hblk) j p

/-! ## The whole array -/

/-- An index of the output array is in point t's block iff each coordinate is in the block's range on its axis. -/
theorem mem_blk (t : Fin cfg0.N) (i : S32768x128.Idx) :
    i ∈ ((cfg0.win 1).blk t).view.set ↔ ∀ a : Fin 2, win0_1.index t a * S4096x128.size a ≤ (i a).val
      ∧ (i a).val < win0_1.index t a * S4096x128.size a + S4096x128.size a := by
  show i ∈ ((View.whole main_v0).slice (win0_1.rect t)).set ↔ _
  rw [View.set_slice_whole, Rect.mem_set_unit]
  exact Iff.rfl

/-- Every row r of the output array lies in the block of point r / 4096. -/
theorem cover (i : S32768x128.Idx) :
    ∃ t : Fin cfg0.N, (cfg0.win 1).flush t = true ∧ i ∈ ((cfg0.win 1).blk t).view.set := by
  have hi0 : (i 0).val < 32768 := idx2_lt0 i
  have hi1 : (i 1).val < 128 := idx2_lt1 i
  have ht : (i 0).val / 4096 < cfg0.N := lt_of_lt_of_eq (by omega) N_0.symm
  obtain ⟨e0, e1, e2, e3⟩ := idx_facts ⟨(i 0).val / 4096, ht⟩
  refine ⟨⟨(i 0).val / 4096, ht⟩, flush0_1 _, ?_⟩
  rw [mem_blk]
  intro a
  match a with
  | ⟨0, _⟩ =>
    show win0_1.index ⟨(i 0).val / 4096, ht⟩ (0 : Fin 2) * 4096 ≤ (i 0).val
      ∧ (i 0).val < win0_1.index ⟨(i 0).val / 4096, ht⟩ (0 : Fin 2) * 4096 + 4096
    rw [e2]
    show (i 0).val / 4096 * 4096 ≤ (i 0).val ∧ (i 0).val < (i 0).val / 4096 * 4096 + 4096
    omega
  | ⟨1, _⟩ =>
    show win0_1.index ⟨(i 0).val / 4096, ht⟩ (1 : Fin 2) * 128 ≤ (i 1).val
      ∧ (i 1).val < win0_1.index ⟨(i 0).val / 4096, ht⟩ (1 : Fin 2) * 128 + 128
    omega

/-- THE ARRAY after the run: the common function of the input array. -/
theorem final (m : (ℓ : Loc nD τ sig) → Buf (Elt Ideal) ℓ) (c : Dev nD) :
    (dats m 0 c).arrAt 1 cfg0.N = G (m ((c : Thread nD τ).loc main_arg0)) :=
  (dats m 0 c).arrAt_eq_of_cover 1 (G (V m c main_arg0)) (fun t _ => flushed_eq m c t) cover

/-! ## The run, read -/

/-- The run re-posted: the output array at its function of the input array, the input array unchanged. -/
theorem run (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c : Thread nD τ).loc main_v0) = G (m ((c : Thread nD τ).loc main_arg0))
      ∧ r.2.mem ((c : Thread nD τ).loc main_arg0) = m ((c : Thread nD τ).loc main_arg0) :=
  (θ_run defs _ _).mono (fun r h c => ⟨(h c).1.trans (final m c), (h c).2⟩) (Value.run_blocks m ρ)

end Cert.KernelIdeal.KVal

end
-- ==== Proof.lean ====
/-
  The certificate of the successive-cancellation decoder kernel against its reference. Both programs decode,
  codeword by codeword, a polar code of length 256 whose first 128 positions are frozen, and return the
  decisions at positions 128 … 255. The reference recurses over the whole code; the frozen half decodes to
  zero, so the root's update of the right half is the sum of the two halves of the channel ratios, which is
  what the kernel starts from; below that the kernel runs the same recursion on a block of 4096 codewords
  laid along the other axis, writes each leaf's decision as a row, and turns the rows back at the end.
  `algebraic`: both runs end with the result array at ONE function `G` of the input array (Rel.lean): the
  kernel's by its blocks (KVal.lean, over Bridge.lean and Top.lean), the reference's by its operations read
  in order (RVal.lean). `preserves`: the sign built from the sign bit is the sign by comparison, 254 times
  (Preserves.lean). The kernel's two frames are the generated ones; the reference's frame is its run with the
  result dropped (RefRun.lean).
-/
import proofs.«134088_j24077586662034_2_alg».proof.Defs
import proofs.«134088_j24077586662034_2_alg».proof.Proof.Gen.Kernel
import proofs.«134088_j24077586662034_2_alg».proof.Proof.Gen.Kernel.Skeleton
import proofs.«134088_j24077586662034_2_alg».proof.Proof.Gen.Kernel.Launch
import proofs.«134088_j24077586662034_2_alg».proof.Proof.Gen.Kernel.Points
import proofs.«134088_j24077586662034_2_alg».proof.Proof.Gen.Kernel.Frame
import proofs.«134088_j24077586662034_2_alg».proof.Proof.Gen.KernelIdeal
import proofs.«134088_j24077586662034_2_alg».proof.Proof.Gen.KernelIdeal.Skeleton
import proofs.«134088_j24077586662034_2_alg».proof.Proof.Gen.KernelIdeal.Launch
import proofs.«134088_j24077586662034_2_alg».proof.Proof.Gen.KernelIdeal.Points
import proofs.«134088_j24077586662034_2_alg».proof.Proof.Gen.KernelIdeal.Frame
import proofs.«134088_j24077586662034_2_alg».proof.Proof.Gen.KernelIdeal.Value
import proofs.«134088_j24077586662034_2_alg».proof.Proof.Gen.ReferenceIdeal
import proofs.«134088_j24077586662034_2_alg».proof.Proof.Gen.Pre_finite_inputs
import proofs.«134088_j24077586662034_2_alg».proof.Proof.Preserves
import proofs.«134088_j24077586662034_2_alg».proof.Proof.RefRun
import proofs.«134088_j24077586662034_2_alg».proof.Proof.RVal
import proofs.«134088_j24077586662034_2_alg».proof.Proof.KVal
import Idealize.ShloMosaic.Adequacy
import Idealize.ShloMosaic.Init

noncomputable section

namespace Cert.Proof

open Idealize.ShloMosaic Idealize.ShloMosaic.TcCoe Idealize.SL.Sem Cert.Proof.Polar

theorem frame_k : Cert.frame_Kernel := fun m ρ _ => Cert.Kernel.Gen.frame m ρ
theorem frame_ki : Cert.frame_KernelIdeal := fun m ρ _ => Cert.KernelIdeal.Gen.frame m ρ

/-- From memories that agree on the input both runs end with the result array at `G` of the input. -/
theorem algebraic : Cert.algebraic_KernelIdeal_ReferenceIdeal := by
  intro m ρ m' ρ' _ hagree
  refine ⟨fun c => G (m ((c.tc : Thread Cert.KernelIdeal.nD Cert.KernelIdeal.τ).loc Cert.KernelIdeal.main_arg0)),
    Cert.KernelIdeal.KVal.run m ρ, ?_⟩
  refine (θ_run Cert.ReferenceIdeal.defs _ _).mono (fun r h c => ⟨?_, ?_⟩) (Cert.ReferenceIdeal.RefRun.run_all (F := Ideal) m' ρ')
  · rw [h c Cert.ReferenceIdeal.main_v5873, Cert.ReferenceIdeal.RVal.out_eq]
    exact (Cert.ReferenceIdeal.RVal.result_eq _).trans (congrArg G (hagree c))
  · rw [h c Cert.ReferenceIdeal.main_arg0]
    exact Cert.ReferenceIdeal.RefRun.arg0_eq _

theorem claim : Cert.Claim :=
  ⟨Cert.Kernel.Gen.facts, Cert.KernelIdeal.Gen.facts, Cert.ReferenceIdeal.Gen.facts, Cert.Pre_finite_inputs.Gen.facts,
    frame_k, frame_ki, Cert.ReferenceIdeal.RefRun.frame_ri, Cert.Proof.Polar.preserves, algebraic⟩

end Cert.Proof

end
